-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v843)) (v1 : (c : Dev Cert.KernelIdeal.nD) → Buf (Elt Ideal) ((c.tc : Thread Cert.KernelIdeal.nD Cert.KernelIdeal.τ).loc Cert.KernelIdeal.main_v847)) (v2 : (c : Dev Cert.KernelIdeal.nD) → Buf (Elt Ideal) ((c.tc : Thread Cert.KernelIdeal.nD Cert.KernelIdeal.τ).loc Cert.KernelIdeal.main_v851)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v843) = v0 c
          ∧ r.2.mem ((c.tc : Thread Cert.KernelIdeal.nD Cert.KernelIdeal.τ).loc Cert.KernelIdeal.main_v847) = v1 c
          ∧ r.2.mem ((c.tc : Thread Cert.KernelIdeal.nD Cert.KernelIdeal.τ).loc Cert.KernelIdeal.main_v851) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v951) = v0 c
          ∧ r.2.mem ((c.tc : Thread Cert.ReferenceIdeal.nD Cert.ReferenceIdeal.τ).loc Cert.ReferenceIdeal.main_v955) = v1 c
          ∧ r.2.mem ((c.tc : Thread Cert.ReferenceIdeal.nD Cert.ReferenceIdeal.τ).loc Cert.ReferenceIdeal.main_v959) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S2x256x256 : Shape := ⟨3, ![2, 256, 256]⟩
abbrev S2x256 : Shape := ⟨2, ![2, 256]⟩
abbrev S3x2x256x256 : Shape := ⟨4, ![3, 2, 256, 256]⟩
abbrev S3x2x256 : Shape := ⟨3, ![3, 2, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S3x2x256x256 : S_.BroadcastsInDim S3x2x256x256 (![] : Fin 0 → Fin S3x2x256x256.rank)
  reducesTo_S3x2x256x256_S_d0_1_2_3 : S3x2x256x256.ReducesTo [0, 1, 2, 3] S_
  bcast_S_S3x2x256 : S_.BroadcastsInDim S3x2x256 (![] : Fin 0 → Fin S3x2x256.rank)
  reducesTo_S3x2x256_S_d0_1_2 : S3x2x256.ReducesTo [0, 1, 2] S_

variable [Facts]

def fn_part5 {F : FTy → Type} [FloatOps F] (main_arg18 : FVec F S3x2x256 .f32) (main_v83 : IVec S_ 1) (main_v84 : FVec F S3x2x256 .f32) (main_cst_32 : FVec F S_ .f32) : IVec S_ 1 :=
  let main_v85 : FVec F S3x2x256 .f32 := broadcastInDim S3x2x256 ![] bcast_S_S3x2x256 main_cst_32
  let main_v86 : IVec S3x2x256 1 := cmpf .olt main_v84 main_v85
  let main_c_33 : IVec S_ 1 := constantI S_ 1 1#1
  let main_v87 : IVec S_ 1 := (fun x v => Host.reduce IntOp.andi x v reducesTo_S3x2x256_S_d0_1_2 h_S_) main_v86 main_c_33
  let main_v88 : IVec S_ 1 := andi main_v83 main_v87
  let main_v89 : FVec F S3x2x256 .f32 := Host.absf main_arg18
  let main_cst_34 : FVec F S_ .f32 := constant S_ .f32 0x7F800000#32
  let main_v90 : FVec F S3x2x256 .f32 := broadcastInDim S3x2x256 ![] bcast_S_S3x2x256 main_cst_34
  let main_v91 : IVec S3x2x256 1 := cmpf .olt main_v89 main_v90
  let main_c_35 : IVec S_ 1 := constantI S_ 1 1#1
  let main_v92 : IVec S_ 1 := (fun x v => Host.reduce IntOp.andi x v reducesTo_S3x2x256_S_d0_1_2 h_S_) main_v91 main_c_35
  let main_v93 : IVec S_ 1 := andi main_v88 main_v92
  main_v93

def fn_part4 {F : FTy → Type} [FloatOps F] (main_arg14 : FVec F S2x256x256 .f32) (main_arg15 : FVec F S2x256 .f32) (main_arg16 : FVec F S3x2x256x256 .f32) (main_arg17 : FVec F S3x2x256 .f32) (main_arg18 : FVec F S3x2x256 .f32) (main_v63 : IVec S_ 1) (main_v67 : IVec S_ 1) : IVec S_ 1 :=
  let main_v68 : IVec S_ 1 := andi main_v63 main_v67
  let main_v69 : FVec F S2x256x256 .f32 := Host.absf main_arg14
  let main_cst_26 : FVec F S_ .f32 := constant S_ .f32 0x7F800000#32
  let main_v70 : FVec F S2x256x256 .f32 := broadcastInDim S2x256x256 ![] bcast_S_S2x256x256 main_cst_26
  let main_v71 : IVec S2x256x256 1 := cmpf .olt main_v69 main_v70
  let main_c_27 : IVec S_ 1 := constantI S_ 1 1#1
  let main_v72 : IVec S_ 1 := (fun x v => Host.reduce IntOp.andi x v reducesTo_S2x256x256_S_d0_1_2 h_S_) main_v71 main_c_27
  let main_v73 : IVec S_ 1 := andi main_v68 main_v72
  let main_v74 : FVec F S2x256 .f32 := Host.absf main_arg15
  let main_cst_28 : FVec F S_ .f32 := constant S_ .f32 0x7F800000#32
  let main_v75 : FVec F S2x256 .f32 := broadcastInDim S2x256 ![] bcast_S_S2x256 main_cst_28
  let main_v76 : IVec S2x256 1 := cmpf .olt main_v74 main_v75
  let main_c_29 : IVec S_ 1 := constantI S_ 1 1#1
  let main_v77 : IVec S_ 1 := (fun x v => Host.reduce IntOp.andi x v reducesTo_S2x256_S_d0_1 h_S_) main_v76 main_c_29
  let main_v78 : IVec S_ 1 := andi main_v73 main_v77
  let main_v79 : FVec F S3x2x256x256 .f32 := Host.absf main_arg16
  let main_cst_30 : FVec F S_ .f32 := constant S_ .f32 0x7F800000#32
  let main_v80 : FVec F S3x2x256x256 .f32 := broadcastInDim S3x2x256x256 ![] bcast_S_S3x2x256x256 main_cst_30
  let main_v81 : IVec S3x2x256x256 1 := cmpf .olt main_v79 main_v80
  let main_c_31 : IVec S_ 1 := constantI S_ 1 1#1
  let main_v82 : IVec S_ 1 := (fun x v => Host.reduce IntOp.andi x v reducesTo_S3x2x256x256_S_d0_1_2_3 h_S_) main_v81 main_c_31
  let main_v83 : IVec S_ 1 := andi main_v78 main_v82
  let main_v84 : FVec F S3x2x256 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S3x2x256x256 .f32) (main_arg12 : FVec F S3x2x256 .f32) (main_arg13 : FVec F S3x2x256 .f32) (main_arg14 : FVec F S2x256x256 .f32) (main_arg15 : FVec F S2x256 .f32) (main_arg16 : FVec F S3x2x256x256 .f32) (main_arg17 : FVec F S3x2x256 .f32) (main_arg18 : FVec F S3x2x256 .f32) (main_v48 : IVec S_ 1) (main_v49 : FVec F S2x256 .f32) (main_v50 : FVec F S2x256 .f32) : IVec S_ 1 :=
  let main_v51 : IVec S2x256 1 := cmpf .olt main_v49 main_v50
  let main_c_19 : IVec S_ 1 := constantI S_ 1 1#1
  let main_v52 : IVec S_ 1 := (fun x v => Host.reduce IntOp.andi x v reducesTo_S2x256_S_d0_1 h_S_) main_v51 main_c_19
  let main_v53 : IVec S_ 1 := andi main_v48 main_v52
  let main_v54 : FVec F S3x2x256x256 .f32 := Host.absf main_arg11
  let main_cst_20 : FVec F S_ .f32 := constant S_ .f32 0x7F800000#32
  let main_v55 : FVec F S3x2x256x256 .f32 := broadcastInDim S3x2x256x256 ![] bcast_S_S3x2x256x256 main_cst_20
  let main_v56 : IVec S3x2x256x256 1 := cmpf .olt main_v54 main_v55
  let main_c_21 : IVec S_ 1 := constantI S_ 1 1#1
  let main_v57 : IVec S_ 1 := (fun x v => Host.reduce IntOp.andi x v reducesTo_S3x2x256x256_S_d0_1_2_3 h_S_) main_v56 main_c_21
  let main_v58 : IVec S_ 1 := andi main_v53 main_v57
  let main_v59 : FVec F S3x2x256 .f32 := Host.absf main_arg12
  let main_cst_22 : FVec F S_ .f32 := constant S_ .f32 0x7F800000#32
  let main_v60 : FVec F S3x2x256 .f32 := broadcastInDim S3x2x256 ![] bcast_S_S3x2x256 main_cst_22
  let main_v61 : IVec S3x2x256 1 := cmpf .olt main_v59 main_v60
  let main_c_23 : IVec S_ 1 := constantI S_ 1 1#1
  let main_v62 : IVec S_ 1 := (fun x v => Host.reduce IntOp.andi x v reducesTo_S3x2x256_S_d0_1_2 h_S_) main_v61 main_c_23
  let main_v63 : IVec S_ 1 := andi main_v58 main_v62
  let main_v64 : FVec F S3x2x256 .f32 := Host.absf main_arg13
  let main_cst_24 : FVec F S_ .f32 := constant S_ .f32 0x7F800000#32
  let main_v65 : FVec F S3x2x256 .f32 := broadcastInDim S3x2x256 ![] bcast_S_S3x2x256 main_cst_24
  let main_v66 : IVec S3x2x256 1 := cmpf .olt main_v64 main_v65
  let main_c_25 : IVec S_ 1 := constantI S_ 1 1#1
  let main_v67 : IVec S_ 1 := (fun x v => Host.reduce IntOp.andi x v reducesTo_S3x2x256_S_d0_1_2 h_S_) main_v66 main_c_25
  fn_part4 (F := F) main_arg14 main_arg15 main_arg16 main_arg17 main_arg18 main_v63 main_v67

def fn_part2 {F : FTy → Type} [FloatOps F] (main_arg7 : FVec F S3x2x256 .f32) (main_arg8 : FVec F S3x2x256 .f32) (main_arg9 : FVec F S2x256x256 .f32) (main_arg10 : FVec F S2x256 .f32) (main_arg11 : FVec F S3x2x256x256 .f32) (main_arg12 : FVec F S3x2x256 .f32) (main_arg13 : FVec F S3x2x256 .f32) (main_arg14 : FVec F S2x256x256 .f32) (main_arg15 : FVec F S2x256 .f32) (main_arg16 : FVec F S3x2x256x256 .f32) (main_arg17 : FVec F S3x2x256 .f32) (main_arg18 : FVec F S3x2x256 .f32) (main_v33 : IVec S_ 1) : IVec S_ 1 :=
  let main_v34 : FVec F S3x2x256 .f32 := Host.absf main_arg7
  let main_cst_12 : FVec F S_ .f32 := constant S_ .f32 0x7F800000#32
  let main_v35 : FVec F S3x2x256 .f32 := broadcastInDim S3x2x256 ![] bcast_S_S3x2x256 main_cst_12
  let main_v36 : IVec S3x2x256 1 := cmpf .olt main_v34 main_v35
  let main_c_13 : IVec S_ 1 := constantI S_ 1 1#1
  let main_v37 : IVec S_ 1 := (fun x v => Host.reduce IntOp.andi x v reducesTo_S3x2x256_S_d0_1_2 h_S_) main_v36 main_c_13
  let main_v38 : IVec S_ 1 := andi main_v33 main_v37
  let main_v39 : FVec F S3x2x256 .f32 := Host.absf main_arg8
  let main_cst_14 : FVec F S_ .f32 := constant S_ .f32 0x7F800000#32
  let main_v40 : FVec F S3x2x256 .f32 := broadcastInDim S3x2x256 ![] bcast_S_S3x2x256 main_cst_14
  let main_v41 : IVec S3x2x256 1 := cmpf .olt main_v39 main_v40
  let main_c_15 : IVec S_ 1 := constantI S_ 1 1#1
  let main_v42 : IVec S_ 1 := (fun x v => Host.reduce IntOp.andi x v reducesTo_S3x2x256_S_d0_1_2 h_S_) main_v41 main_c_15
  let main_v43 : IVec S_ 1 := andi main_v38 main_v42
  let main_v44 : FVec F S2x256x256 .f32 := Host.absf main_arg9
  let main_cst_16 : FVec F S_ .f32 := constant S_ .f32 0x7F800000#32
  let main_v45 : FVec F S2x256x256 .f32 := broadcastInDim S2x256x256 ![] bcast_S_S2x256x256 main_cst_16
  let main_v46 : IVec S2x256x256 1 := cmpf .olt main_v44 main_v45
  let main_c_17 : IVec S_ 1 := constantI S_ 1 1#1
  let main_v47 : IVec S_ 1 := (fun x v => Host.reduce IntOp.andi x v reducesTo_S2x256x256_S_d0_1_2 h_S_) main_v46 main_c_17
  let main_v48 : IVec S_ 1 := andi main_v43 main_v47
  let main_v49 : FVec F S2x256 .f32 := Host.absf main_arg10
  let main_cst_18 : FVec F S_ .f32 := constant S_ .f32 0x7F800000#32
  let main_v50 : FVec F S2x256 .f32 := broadcastInDim S2x256 ![] bcast_S_S2x256 main_cst_18
  fn_part3 (F := F) main_arg11 main_arg12 main_arg13 main_arg14 main_arg15 main_arg16 main_arg17 main_arg18 main_v48 main_v49 main_v50

def fn_part1 {F : FTy → Type} [FloatOps F] (main_arg4 : FVec F S2x256x256 .f32) (main_arg5 : FVec F S2x256 .f32) (main_arg6 : FVec F S3x2x256x256 .f32) (main_arg7 : FVec F S3x2x256 .f32) (main_arg8 : FVec F S3x2x256 .f32) (main_arg9 : FVec F S2x256x256 .f32) (main_arg10 : FVec F S2x256 .f32) (main_arg11 : FVec F S3x2x256x256 .f32) (main_arg12 : FVec F S3x2x256 .f32) (main_arg13 : FVec F S3x2x256 .f32) (main_arg14 : FVec F S2x256x256 .f32) (main_arg15 : FVec F S2x256 .f32) (main_arg16 : FVec F S3x2x256x256 .f32) (main_arg17 : FVec F S3x2x256 .f32) (main_arg18 : FVec F S3x2x256 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S2x256x256 .f32 := Host.absf main_arg4
  let main_cst_6 : FVec F S_ .f32 := constant S_ .f32 0x7F800000#32
  let main_v20 : FVec F S2x256x256 .f32 := broadcastInDim S2x256x256 ![] bcast_S_S2x256x256 main_cst_6
  let main_v21 : IVec S2x256x256 1 := cmpf .olt main_v19 main_v20
  let main_c_7 : IVec S_ 1 := constantI S_ 1 1#1
  let main_v22 : IVec S_ 1 := (fun x v => Host.reduce IntOp.andi x v reducesTo_S2x256x256_S_d0_1_2 h_S_) main_v21 main_c_7
  let main_v23 : IVec S_ 1 := andi main_v18 main_v22
  let main_v24 : FVec F S2x256 .f32 := Host.absf main_arg5
  let main_cst_8 : FVec F S_ .f32 := constant S_ .f32 0x7F800000#32
  let main_v25 : FVec F S2x256 .f32 := broadcastInDim S2x256 ![] bcast_S_S2x256 main_cst_8
  let main_v26 : IVec S2x256 1 := cmpf .olt main_v24 main_v25
  let main_c_9 : IVec S_ 1 := constantI S_ 1 1#1
  let main_v27 : IVec S_ 1 := (fun x v => Host.reduce IntOp.andi x v reducesTo_S2x256_S_d0_1 h_S_) main_v26 main_c_9
  let main_v28 : IVec S_ 1 := andi main_v23 main_v27
  let main_v29 : FVec F S3x2x256x256 .f32 := Host.absf main_arg6
  let main_cst_10 : FVec F S_ .f32 := constant S_ .f32 0x7F800000#32
  let main_v30 : FVec F S3x2x256x256 .f32 := broadcastInDim S3x2x256x256 ![] bcast_S_S3x2x256x256 main_cst_10
  let main_v31 : IVec S3x2x256x256 1 := cmpf .olt main_v29 main_v30
  let main_c_11 : IVec S_ 1 := constantI S_ 1 1#1
  let main_v32 : IVec S_ 1 := (fun x v => Host.reduce IntOp.andi x v reducesTo_S3x2x256x256_S_d0_1_2_3 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x256 .f32) (main_arg1 : FVec F S4096x256 .f32) (main_arg2 : FVec F S4096x256 .f32) (main_arg3 : FVec F S4096x256 .f32) (main_arg4 : FVec F S2x256x256 .f32) (main_arg5 : FVec F S2x256 .f32) (main_arg6 : FVec F S3x2x256x256 .f32) (main_arg7 : FVec F S3x2x256 .f32) (main_arg8 : FVec F S3x2x256 .f32) (main_arg9 : FVec F S2x256x256 .f32) (main_arg10 : FVec F S2x256 .f32) (main_arg11 : FVec F S3x2x256x256 .f32) (main_arg12 : FVec F S3x2x256 .f32) (main_arg13 : FVec F S3x2x256 .f32) (main_arg14 : FVec F S2x256x256 .f32) (main_arg15 : FVec F S2x256 .f32) (main_arg16 : FVec F S3x2x256x256 .f32) (main_arg17 : FVec F S3x2x256 .f32) (main_arg18 : FVec F S3x2x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x256 : Shape := ⟨2, ![4096, 256]⟩
abbrev S2x256x256 : Shape := ⟨3, ![2, 256, 256]⟩
abbrev S2x256 : Shape := ⟨2, ![2, 256]⟩
abbrev S3x2x256x256 : Shape := ⟨4, ![3, 2, 256, 256]⟩
abbrev S3x2x256 : Shape := ⟨3, ![3, 2, 256]⟩
abbrev S_ : Shape := ⟨0, ![]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x1 : Shape := ⟨2, ![1, 1]⟩
abbrev S512x256 : Shape := ⟨2, ![512, 256]⟩
abbrev S256x512 : Shape := ⟨2, ![256, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x2x256x256 : Shape := ⟨4, ![1, 2, 256, 256]⟩
abbrev S1x2x256 : Shape := ⟨3, ![1, 2, 256]⟩

abbrev nBuf : Space → Nat
  | .hbm => 1557
  | .vmem => 216
  | .smem => 0
  | _ => 0

abbrev hbmTy0_0 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S2x256x256, .f32⟩
  | 5 => ⟨S2x256, .f32⟩
  | 6 => ⟨S3x2x256x256, .f32⟩
  | 7 => ⟨S3x2x256, .f32⟩
  | 8 => ⟨S3x2x256, .f32⟩
  | 9 => ⟨S2x256x256, .f32⟩
  | 10 => ⟨S2x256, .f32⟩
  | 11 => ⟨S3x2x256x256, .f32⟩
  | 12 => ⟨S3x2x256, .f32⟩
  | 13 => ⟨S3x2x256, .f32⟩
  | 14 => ⟨S2x256x256, .f32⟩
  | 15 => ⟨S2x256, .f32⟩
  | 16 => ⟨S3x2x256x256, .f32⟩
  | 17 => ⟨S3x2x256, .f32⟩
  | 18 => ⟨S3x2x256, .f32⟩
  | 19 => ⟨S_, .f32⟩
  | 20 => ⟨S4096x256, .f32⟩
  | 21 => ⟨S1x256x256, .f32⟩
  | 22 => ⟨S256x256, .f32⟩
  | 23 => ⟨S4096x256, .f32⟩
  | 24 => ⟨S1x256, .f32⟩
  | 25 => ⟨S256, .f32⟩
  | 26 => ⟨S1x256, .f32⟩
  | 27 => ⟨S4096x256, .f32⟩
  | 28 => ⟨S4096x256, .f32⟩
  | 29 => ⟨S_, .f32⟩
  | 30 => ⟨S4096x256, .f32⟩
  | 31 => ⟨S4096x256, .i1⟩
  | 32 => ⟨S_, .f32⟩
  | 33 => ⟨S4096x256, .f32⟩
  | 34 => ⟨S4096x256, .i1⟩
  | 35 => ⟨S_, .f32⟩
  | 36 => ⟨S_, .f32⟩
  | 37 => ⟨S4096x256, .f32⟩
  | 38 => ⟨S4096x256, .f32⟩
  | 39 => ⟨S4096x256, .f32⟩
  | 40 => ⟨S_, .f32⟩
  | 41 => ⟨S4096x256, .f32⟩
  | 42 => ⟨S4096x256, .f32⟩
  | 43 => ⟨S4096x256, .f32⟩
  | 44 => ⟨S1x256x256, .f32⟩
  | 45 => ⟨S256x256, .f32⟩
  | 46 => ⟨S4096x256, .f32⟩
  | 47 => ⟨S1x256, .f32⟩
  | 48 => ⟨S256, .f32⟩
  | 49 => ⟨S1x256, .f32⟩
  | 50 => ⟨S4096x256, .f32⟩
  | 51 => ⟨S4096x256, .f32⟩
  | 52 => ⟨S_, .f32⟩
  | 53 => ⟨S4096x256, .f32⟩
  | 54 => ⟨S4096x256, .i1⟩
  | 55 => ⟨S_, .f32⟩
  | 56 => ⟨S4096x256, .f32⟩
  | 57 => ⟨S4096x256, .i1⟩
  | 58 => ⟨S_, .f32⟩
  | 59 => ⟨S_, .f32⟩
  | 60 => ⟨S4096x256, .f32⟩
  | 61 => ⟨S4096x256, .f32⟩
  | 62 => ⟨S4096x256, .f32⟩
  | 63 => ⟨S_, .f32⟩
  | 64 => ⟨S4096x256, .f32⟩
  | 65 => ⟨S4096x256, .f32⟩
  | 66 => ⟨S4096x256, .f32⟩
  | 67 => ⟨S1x1, .f32⟩
  | 68 => ⟨S_, .f32⟩
  | 69 => ⟨S1x1, .f32⟩
  | 70 => ⟨S1x1, .f32⟩
  | 71 => ⟨S4096x256, .f32⟩
  | 72 => ⟨S1x2x256x256, .f32⟩
  | 73 => ⟨S2x256x256, .f32⟩
  | 74 => ⟨S1x2x256, .f32⟩
  | 75 => ⟨S2x256, .f32⟩
  | 76 => ⟨S1x2x256, .f32⟩
  | 77 => ⟨S2x256, .f32⟩
  | 78 => ⟨S1x256x256, .f32⟩
  | 79 => ⟨S256x256, .f32⟩
  | 80 => ⟨S4096x256, .f32⟩
  | 81 => ⟨S1x256, .f32⟩
  | 82 => ⟨S256, .f32⟩
  | 83 => ⟨S1x256, .f32⟩
  | 84 => ⟨S4096x256, .f32⟩
  | 85 => ⟨S4096x256, .f32⟩
  | 86 => ⟨S_, .f32⟩
  | 87 => ⟨S256, .f32⟩
  | 88 => ⟨S_, .f32⟩
  | 89 => ⟨S256, .f32⟩
  | 90 => ⟨S256, .f32⟩
  | 91 => ⟨S_, .i32⟩
  | 92 => ⟨S_, .f32⟩
  | 93 => ⟨S256, .f32⟩
  | 94 => ⟨S1x256, .f32⟩
  | 95 => ⟨S_, .f32⟩
  | 96 => ⟨S1x256, .f32⟩
  | 97 => ⟨S1x256, .f32⟩
  | 98 => ⟨S4096x256, .f32⟩
  | 99 => ⟨S4096x256, .f32⟩
  | 100 => ⟨S4096x256, .f32⟩
  | 101 => ⟨S_, .f32⟩
  | 102 => ⟨S_, .f32⟩
  | 103 => ⟨S_, .f32⟩
  | 104 => ⟨S_, .f32⟩
  | 105 => ⟨S256, .f32⟩
  | 106 => ⟨S256, .f32⟩
  | 107 => ⟨S256, .f32⟩
  | 108 => ⟨S_, .f32⟩
  | 109 => ⟨S_, .i1⟩
  | 110 => ⟨S_, .f32⟩
  | 111 => ⟨S_, .f32⟩
  | 112 => ⟨S256, .f32⟩
  | 113 => ⟨S256, .f32⟩
  | 114 => ⟨S1x256, .f32⟩
  | 115 => ⟨S4096x256, .f32⟩
  | 116 => ⟨S4096x256, .f32⟩
  | 117 => ⟨S_, .f32⟩
  | 118 => ⟨S256, .f32⟩
  | 119 => ⟨S256, .f32⟩
  | 120 => ⟨S256, .f32⟩
  | 121 => ⟨S1x256, .f32⟩
  | 122 => ⟨S4096x256, .f32⟩
  | 123 => ⟨S4096x256, .f32⟩
  | 124 => ⟨S1x256, .f32⟩
  | 125 => ⟨S256, .f32⟩
  | 126 => ⟨S1x256, .f32⟩
  | 127 => ⟨S4096x256, .f32⟩
  | _ => ⟨S4096x256, .f32⟩

abbrev hbmTy0_1 (i : Nat) : BufTy := match i % 128 with
  | 0 => ⟨S4096x256, .f32⟩
  | 1 => ⟨S1x256, .f32⟩
  | 2 => ⟨S256, .f32⟩
  | 3 => ⟨S1x256, .f32⟩
  | 4 => ⟨S4096x256, .f32⟩
  | 5 => ⟨S4096x256, .f32⟩
  | 6 => ⟨S_, .f32⟩
  | 7 => ⟨S4096x256, .f32⟩
  | 8 => ⟨S4096x256, .f32⟩
  | 9 => ⟨S1x256x256, .f32⟩
  | 10 => ⟨S256x256, .f32⟩
  | 11 => ⟨S4096x256, .f32⟩
  | 12 => ⟨S1x256, .f32⟩
  | 13 => ⟨S256, .f32⟩
  | 14 => ⟨S1x256, .f32⟩
  | 15 => ⟨S4096x256, .f32⟩
  | 16 => ⟨S4096x256, .f32⟩
  | 17 => ⟨S4096x256, .f32⟩
  | 18 => ⟨S1x256x256, .f32⟩
  | 19 => ⟨S256x256, .f32⟩
  | 20 => ⟨S4096x256, .f32⟩
  | 21 => ⟨S1x256, .f32⟩
  | 22 => ⟨S256, .f32⟩
  | 23 => ⟨S1x256, .f32⟩
  | 24 => ⟨S4096x256, .f32⟩
  | 25 => ⟨S4096x256, .f32⟩
  | 26 => ⟨S_, .f32⟩
  | 27 => ⟨S4096x256, .f32⟩
  | 28 => ⟨S4096x256, .i1⟩
  | 29 => ⟨S_, .f32⟩
  | 30 => ⟨S4096x256, .f32⟩
  | 31 => ⟨S4096x256, .i1⟩
  | 32 => ⟨S_, .f32⟩
  | 33 => ⟨S_, .f32⟩
  | 34 => ⟨S4096x256, .f32⟩
  | 35 => ⟨S4096x256, .f32⟩
  | 36 => ⟨S4096x256, .f32⟩
  | 37 => ⟨S_, .f32⟩
  | 38 => ⟨S4096x256, .f32⟩
  | 39 => ⟨S4096x256, .f32⟩
  | 40 => ⟨S4096x256, .f32⟩
  | 41 => ⟨S1x256x256, .f32⟩
  | 42 => ⟨S256x256, .f32⟩
  | 43 => ⟨S4096x256, .f32⟩
  | 44 => ⟨S1x256, .f32⟩
  | 45 => ⟨S256, .f32⟩
  | 46 => ⟨S1x256, .f32⟩
  | 47 => ⟨S4096x256, .f32⟩
  | 48 => ⟨S4096x256, .f32⟩
  | 49 => ⟨S_, .f32⟩
  | 50 => ⟨S4096x256, .f32⟩
  | 51 => ⟨S4096x256, .i1⟩
  | 52 => ⟨S_, .f32⟩
  | 53 => ⟨S4096x256, .f32⟩
  | 54 => ⟨S4096x256, .i1⟩
  | 55 => ⟨S_, .f32⟩
  | 56 => ⟨S_, .f32⟩
  | 57 => ⟨S4096x256, .f32⟩
  | 58 => ⟨S4096x256, .f32⟩
  | 59 => ⟨S4096x256, .f32⟩
  | 60 => ⟨S_, .f32⟩
  | 61 => ⟨S4096x256, .f32⟩
  | 62 => ⟨S4096x256, .f32⟩
  | 63 => ⟨S4096x256, .f32⟩
  | 64 => ⟨S1x1, .f32⟩
  | 65 => ⟨S_, .f32⟩
  | 66 => ⟨S1x1, .f32⟩
  | 67 => ⟨S1x1, .f32⟩
  | 68 => ⟨S4096x256, .f32⟩
  | 69 => ⟨S1x2x256x256, .f32⟩
  | 70 => ⟨S2x256x256, .f32⟩
  | 71 => ⟨S1x2x256, .f32⟩
  | 72 => ⟨S2x256, .f32⟩
  | 73 => ⟨S1x2x256, .f32⟩
  | 74 => ⟨S2x256, .f32⟩
  | 75 => ⟨S1x256x256, .f32⟩
  | 76 => ⟨S256x256, .f32⟩
  | 77 => ⟨S4096x256, .f32⟩
  | 78 => ⟨S1x256, .f32⟩
  | 79 => ⟨S256, .f32⟩
  | 80 => ⟨S1x256, .f32⟩
  | 81 => ⟨S4096x256, .f32⟩
  | 82 => ⟨S4096x256, .f32⟩
  | 83 => ⟨S_, .f32⟩
  | 84 => ⟨S256, .f32⟩
  | 85 => ⟨S_, .f32⟩
  | 86 => ⟨S256, .f32⟩
  | 87 => ⟨S256, .f32⟩
  | 88 => ⟨S_, .i32⟩
  | 89 => ⟨S_, .f32⟩
  | 90 => ⟨S256, .f32⟩
  | 91 => ⟨S1x256, .f32⟩
  | 92 => ⟨S_, .f32⟩
  | 93 => ⟨S1x256, .f32⟩
  | 94 => ⟨S1x256, .f32⟩
  | 95 => ⟨S4096x256, .f32⟩
  | 96 => ⟨S4096x256, .f32⟩
  | 97 => ⟨S4096x256, .f32⟩
  | 98 => ⟨S_, .f32⟩
  | 99 => ⟨S_, .f32⟩
  | 100 => ⟨S_, .f32⟩
  | 101 => ⟨S_, .f32⟩
  | 102 => ⟨S256, .f32⟩
  | 103 => ⟨S256, .f32⟩
  | 104 => ⟨S256, .f32⟩
  | 105 => ⟨S_, .f32⟩
  | 106 => ⟨S_, .i1⟩
  | 107 => ⟨S_, .f32⟩
  | 108 => ⟨S_, .f32⟩
  | 109 => ⟨S256, .f32⟩
  | 110 => ⟨S256, .f32⟩
  | 111 => ⟨S1x256, .f32⟩
  | 112 => ⟨S4096x256, .f32⟩
  | 113 => ⟨S4096x256, .f32⟩
  | 114 => ⟨S_, .f32⟩
  | 115 => ⟨S256, .f32⟩
  | 116 => ⟨S256, .f32⟩
  | 117 => ⟨S256, .f32⟩
  | 118 => ⟨S1x256, .f32⟩
  | 119 => ⟨S4096x256, .f32⟩
  | 120 => ⟨S4096x256, .f32⟩
  | 121 => ⟨S1x256, .f32⟩
  | 122 => ⟨S256, .f32⟩
  | 123 => ⟨S1x256, .f32⟩
  | 124 => ⟨S4096x256, .f32⟩
  | 125 => ⟨S4096x256, .f32⟩
  | 126 => ⟨S1x256, .f32⟩
  | 127 => ⟨S256, .f32⟩
  | _ => ⟨S4096x256, .f32⟩

abbrev hbmTy0_2 (i : Nat) : BufTy := match i % 128 with
  | 0 => ⟨S1x256, .f32⟩
  | 1 => ⟨S4096x256, .f32⟩
  | 2 => ⟨S4096x256, .f32⟩
  | 3 => ⟨S_, .f32⟩
  | 4 => ⟨S4096x256, .f32⟩
  | 5 => ⟨S4096x256, .f32⟩
  | 6 => ⟨S1x256x256, .f32⟩
  | 7 => ⟨S256x256, .f32⟩
  | 8 => ⟨S4096x256, .f32⟩
  | 9 => ⟨S1x256, .f32⟩
  | 10 => ⟨S256, .f32⟩
  | 11 => ⟨S1x256, .f32⟩
  | 12 => ⟨S4096x256, .f32⟩
  | 13 => ⟨S4096x256, .f32⟩
  | 14 => ⟨S4096x256, .f32⟩
  | 15 => ⟨S1x256x256, .f32⟩
  | 16 => ⟨S256x256, .f32⟩
  | 17 => ⟨S4096x256, .f32⟩
  | 18 => ⟨S1x256, .f32⟩
  | 19 => ⟨S256, .f32⟩
  | 20 => ⟨S1x256, .f32⟩
  | 21 => ⟨S4096x256, .f32⟩
  | 22 => ⟨S4096x256, .f32⟩
  | 23 => ⟨S_, .f32⟩
  | 24 => ⟨S4096x256, .f32⟩
  | 25 => ⟨S4096x256, .i1⟩
  | 26 => ⟨S_, .f32⟩
  | 27 => ⟨S4096x256, .f32⟩
  | 28 => ⟨S4096x256, .i1⟩
  | 29 => ⟨S_, .f32⟩
  | 30 => ⟨S_, .f32⟩
  | 31 => ⟨S4096x256, .f32⟩
  | 32 => ⟨S4096x256, .f32⟩
  | 33 => ⟨S4096x256, .f32⟩
  | 34 => ⟨S_, .f32⟩
  | 35 => ⟨S4096x256, .f32⟩
  | 36 => ⟨S4096x256, .f32⟩
  | 37 => ⟨S4096x256, .f32⟩
  | 38 => ⟨S1x256x256, .f32⟩
  | 39 => ⟨S256x256, .f32⟩
  | 40 => ⟨S4096x256, .f32⟩
  | 41 => ⟨S1x256, .f32⟩
  | 42 => ⟨S256, .f32⟩
  | 43 => ⟨S1x256, .f32⟩
  | 44 => ⟨S4096x256, .f32⟩
  | 45 => ⟨S4096x256, .f32⟩
  | 46 => ⟨S_, .f32⟩
  | 47 => ⟨S4096x256, .f32⟩
  | 48 => ⟨S4096x256, .i1⟩
  | 49 => ⟨S_, .f32⟩
  | 50 => ⟨S4096x256, .f32⟩
  | 51 => ⟨S4096x256, .i1⟩
  | 52 => ⟨S_, .f32⟩
  | 53 => ⟨S_, .f32⟩
  | 54 => ⟨S4096x256, .f32⟩
  | 55 => ⟨S4096x256, .f32⟩
  | 56 => ⟨S4096x256, .f32⟩
  | 57 => ⟨S_, .f32⟩
  | 58 => ⟨S4096x256, .f32⟩
  | 59 => ⟨S4096x256, .f32⟩
  | 60 => ⟨S4096x256, .f32⟩
  | 61 => ⟨S1x1, .f32⟩
  | 62 => ⟨S_, .f32⟩
  | 63 => ⟨S1x1, .f32⟩
  | 64 => ⟨S1x1, .f32⟩
  | 65 => ⟨S4096x256, .f32⟩
  | 66 => ⟨S1x2x256x256, .f32⟩
  | 67 => ⟨S2x256x256, .f32⟩
  | 68 => ⟨S1x2x256, .f32⟩
  | 69 => ⟨S2x256, .f32⟩
  | 70 => ⟨S1x2x256, .f32⟩
  | 71 => ⟨S2x256, .f32⟩
  | 72 => ⟨S1x256x256, .f32⟩
  | 73 => ⟨S256x256, .f32⟩
  | 74 => ⟨S4096x256, .f32⟩
  | 75 => ⟨S1x256, .f32⟩
  | 76 => ⟨S256, .f32⟩
  | 77 => ⟨S1x256, .f32⟩
  | 78 => ⟨S4096x256, .f32⟩
  | 79 => ⟨S4096x256, .f32⟩
  | 80 => ⟨S_, .f32⟩
  | 81 => ⟨S256, .f32⟩
  | 82 => ⟨S_, .f32⟩
  | 83 => ⟨S256, .f32⟩
  | 84 => ⟨S256, .f32⟩
  | 85 => ⟨S_, .i32⟩
  | 86 => ⟨S_, .f32⟩
  | 87 => ⟨S256, .f32⟩
  | 88 => ⟨S1x256, .f32⟩
  | 89 => ⟨S_, .f32⟩
  | 90 => ⟨S1x256, .f32⟩
  | 91 => ⟨S1x256, .f32⟩
  | 92 => ⟨S4096x256, .f32⟩
  | 93 => ⟨S4096x256, .f32⟩
  | 94 => ⟨S4096x256, .f32⟩
  | 95 => ⟨S_, .f32⟩
  | 96 => ⟨S_, .f32⟩
  | 97 => ⟨S_, .f32⟩
  | 98 => ⟨S_, .f32⟩
  | 99 => ⟨S256, .f32⟩
  | 100 => ⟨S256, .f32⟩
  | 101 => ⟨S256, .f32⟩
  | 102 => ⟨S_, .f32⟩
  | 103 => ⟨S_, .i1⟩
  | 104 => ⟨S_, .f32⟩
  | 105 => ⟨S_, .f32⟩
  | 106 => ⟨S256, .f32⟩
  | 107 => ⟨S256, .f32⟩
  | 108 => ⟨S1x256, .f32⟩
  | 109 => ⟨S4096x256, .f32⟩
  | 110 => ⟨S4096x256, .f32⟩
  | 111 => ⟨S_, .f32⟩
  | 112 => ⟨S256, .f32⟩
  | 113 => ⟨S256, .f32⟩
  | 114 => ⟨S256, .f32⟩
  | 115 => ⟨S1x256, .f32⟩
  | 116 => ⟨S4096x256, .f32⟩
  | 117 => ⟨S4096x256, .f32⟩
  | 118 => ⟨S1x256, .f32⟩
  | 119 => ⟨S256, .f32⟩
  | 120 => ⟨S1x256, .f32⟩
  | 121 => ⟨S4096x256, .f32⟩
  | 122 => ⟨S4096x256, .f32⟩
  | 123 => ⟨S1x256, .f32⟩
  | 124 => ⟨S256, .f32⟩
  | 125 => ⟨S1x256, .f32⟩
  | 126 => ⟨S4096x256, .f32⟩
  | 127 => ⟨S4096x256, .f32⟩
  | _ => ⟨S4096x256, .f32⟩

abbrev hbmTy0_3 (i : Nat) : BufTy := match i % 128 with
  | 0 => ⟨S_, .f32⟩
  | 1 => ⟨S4096x256, .f32⟩
  | 2 => ⟨S4096x256, .f32⟩
  | 3 => ⟨S1x256x256, .f32⟩
  | 4 => ⟨S256x256, .f32⟩
  | 5 => ⟨S4096x256, .f32⟩
  | 6 => ⟨S1x256, .f32⟩
  | 7 => ⟨S256, .f32⟩
  | 8 => ⟨S1x256, .f32⟩
  | 9 => ⟨S4096x256, .f32⟩
  | 10 => ⟨S4096x256, .f32⟩
  | 11 => ⟨S4096x256, .f32⟩
  | 12 => ⟨S_, .f32⟩
  | 13 => ⟨S4096x256, .f32⟩
  | 14 => ⟨S4096x256, .f32⟩
  | 15 => ⟨S_, .f32⟩
  | 16 => ⟨S4096x256, .f32⟩
  | 17 => ⟨S1x256x256, .f32⟩
  | 18 => ⟨S256x256, .f32⟩
  | 19 => ⟨S4096x256, .f32⟩
  | 20 => ⟨S1x256, .f32⟩
  | 21 => ⟨S256, .f32⟩
  | 22 => ⟨S1x256, .f32⟩
  | 23 => ⟨S4096x256, .f32⟩
  | 24 => ⟨S4096x256, .f32⟩
  | 25 => ⟨S_, .f32⟩
  | 26 => ⟨S4096x256, .f32⟩
  | 27 => ⟨S4096x256, .i1⟩
  | 28 => ⟨S_, .f32⟩
  | 29 => ⟨S4096x256, .f32⟩
  | 30 => ⟨S4096x256, .i1⟩
  | 31 => ⟨S_, .f32⟩
  | 32 => ⟨S_, .f32⟩
  | 33 => ⟨S4096x256, .f32⟩
  | 34 => ⟨S4096x256, .f32⟩
  | 35 => ⟨S4096x256, .f32⟩
  | 36 => ⟨S_, .f32⟩
  | 37 => ⟨S4096x256, .f32⟩
  | 38 => ⟨S4096x256, .f32⟩
  | 39 => ⟨S4096x256, .f32⟩
  | 40 => ⟨S1x256x256, .f32⟩
  | 41 => ⟨S256x256, .f32⟩
  | 42 => ⟨S4096x256, .f32⟩
  | 43 => ⟨S1x256, .f32⟩
  | 44 => ⟨S256, .f32⟩
  | 45 => ⟨S1x256, .f32⟩
  | 46 => ⟨S4096x256, .f32⟩
  | 47 => ⟨S4096x256, .f32⟩
  | 48 => ⟨S_, .f32⟩
  | 49 => ⟨S4096x256, .f32⟩
  | 50 => ⟨S4096x256, .i1⟩
  | 51 => ⟨S_, .f32⟩
  | 52 => ⟨S4096x256, .f32⟩
  | 53 => ⟨S4096x256, .i1⟩
  | 54 => ⟨S_, .f32⟩
  | 55 => ⟨S_, .f32⟩
  | 56 => ⟨S4096x256, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S4096x256, .f32⟩
  | 63 => ⟨S1x1, .f32⟩
  | 64 => ⟨S_, .f32⟩
  | 65 => ⟨S1x1, .f32⟩
  | 66 => ⟨S1x1, .f32⟩
  | 67 => ⟨S4096x256, .f32⟩
  | 68 => ⟨S1x2x256x256, .f32⟩
  | 69 => ⟨S2x256x256, .f32⟩
  | 70 => ⟨S1x2x256, .f32⟩
  | 71 => ⟨S2x256, .f32⟩
  | 72 => ⟨S1x2x256, .f32⟩
  | 73 => ⟨S2x256, .f32⟩
  | 74 => ⟨S1x256x256, .f32⟩
  | 75 => ⟨S256x256, .f32⟩
  | 76 => ⟨S4096x256, .f32⟩
  | 77 => ⟨S1x256, .f32⟩
  | 78 => ⟨S256, .f32⟩
  | 79 => ⟨S1x256, .f32⟩
  | 80 => ⟨S4096x256, .f32⟩
  | 81 => ⟨S4096x256, .f32⟩
  | 82 => ⟨S_, .f32⟩
  | 83 => ⟨S256, .f32⟩
  | 84 => ⟨S_, .f32⟩
  | 85 => ⟨S256, .f32⟩
  | 86 => ⟨S256, .f32⟩
  | 87 => ⟨S_, .i32⟩
  | 88 => ⟨S_, .f32⟩
  | 89 => ⟨S256, .f32⟩
  | 90 => ⟨S1x256, .f32⟩
  | 91 => ⟨S_, .f32⟩
  | 92 => ⟨S1x256, .f32⟩
  | 93 => ⟨S1x256, .f32⟩
  | 94 => ⟨S4096x256, .f32⟩
  | 95 => ⟨S4096x256, .f32⟩
  | 96 => ⟨S4096x256, .f32⟩
  | 97 => ⟨S_, .f32⟩
  | 98 => ⟨S_, .f32⟩
  | 99 => ⟨S_, .f32⟩
  | 100 => ⟨S_, .f32⟩
  | 101 => ⟨S256, .f32⟩
  | 102 => ⟨S256, .f32⟩
  | 103 => ⟨S256, .f32⟩
  | 104 => ⟨S_, .f32⟩
  | 105 => ⟨S_, .i1⟩
  | 106 => ⟨S_, .f32⟩
  | 107 => ⟨S_, .f32⟩
  | 108 => ⟨S256, .f32⟩
  | 109 => ⟨S256, .f32⟩
  | 110 => ⟨S1x256, .f32⟩
  | 111 => ⟨S4096x256, .f32⟩
  | 112 => ⟨S4096x256, .f32⟩
  | 113 => ⟨S_, .f32⟩
  | 114 => ⟨S256, .f32⟩
  | 115 => ⟨S256, .f32⟩
  | 116 => ⟨S256, .f32⟩
  | 117 => ⟨S1x256, .f32⟩
  | 118 => ⟨S4096x256, .f32⟩
  | 119 => ⟨S4096x256, .f32⟩
  | 120 => ⟨S1x256, .f32⟩
  | 121 => ⟨S256, .f32⟩
  | 122 => ⟨S1x256, .f32⟩
  | 123 => ⟨S4096x256, .f32⟩
  | 124 => ⟨S4096x256, .f32⟩
  | 125 => ⟨S1x256, .f32⟩
  | 126 => ⟨S256, .f32⟩
  | 127 => ⟨S1x256, .f32⟩
  | _ => ⟨S4096x256, .f32⟩

abbrev hbmTy0_4 (i : Nat) : BufTy := match i % 128 with
  | 0 => ⟨S4096x256, .f32⟩
  | 1 => ⟨S4096x256, .f32⟩
  | 2 => ⟨S_, .f32⟩
  | 3 => ⟨S4096x256, .f32⟩
  | 4 => ⟨S4096x256, .f32⟩
  | 5 => ⟨S1x256x256, .f32⟩
  | 6 => ⟨S256x256, .f32⟩
  | 7 => ⟨S4096x256, .f32⟩
  | 8 => ⟨S1x256, .f32⟩
  | 9 => ⟨S256, .f32⟩
  | 10 => ⟨S1x256, .f32⟩
  | 11 => ⟨S4096x256, .f32⟩
  | 12 => ⟨S4096x256, .f32⟩
  | 13 => ⟨S4096x256, .f32⟩
  | 14 => ⟨S1x256x256, .f32⟩
  | 15 => ⟨S256x256, .f32⟩
  | 16 => ⟨S4096x256, .f32⟩
  | 17 => ⟨S1x256, .f32⟩
  | 18 => ⟨S256, .f32⟩
  | 19 => ⟨S1x256, .f32⟩
  | 20 => ⟨S4096x256, .f32⟩
  | 21 => ⟨S4096x256, .f32⟩
  | 22 => ⟨S_, .f32⟩
  | 23 => ⟨S4096x256, .f32⟩
  | 24 => ⟨S4096x256, .i1⟩
  | 25 => ⟨S_, .f32⟩
  | 26 => ⟨S4096x256, .f32⟩
  | 27 => ⟨S4096x256, .i1⟩
  | 28 => ⟨S_, .f32⟩
  | 29 => ⟨S_, .f32⟩
  | 30 => ⟨S4096x256, .f32⟩
  | 31 => ⟨S4096x256, .f32⟩
  | 32 => ⟨S4096x256, .f32⟩
  | 33 => ⟨S_, .f32⟩
  | 34 => ⟨S4096x256, .f32⟩
  | 35 => ⟨S4096x256, .f32⟩
  | 36 => ⟨S4096x256, .f32⟩
  | 37 => ⟨S1x256x256, .f32⟩
  | 38 => ⟨S256x256, .f32⟩
  | 39 => ⟨S4096x256, .f32⟩
  | 40 => ⟨S1x256, .f32⟩
  | 41 => ⟨S256, .f32⟩
  | 42 => ⟨S1x256, .f32⟩
  | 43 => ⟨S4096x256, .f32⟩
  | 44 => ⟨S4096x256, .f32⟩
  | 45 => ⟨S_, .f32⟩
  | 46 => ⟨S4096x256, .f32⟩
  | 47 => ⟨S4096x256, .i1⟩
  | 48 => ⟨S_, .f32⟩
  | 49 => ⟨S4096x256, .f32⟩
  | 50 => ⟨S4096x256, .i1⟩
  | 51 => ⟨S_, .f32⟩
  | 52 => ⟨S_, .f32⟩
  | 53 => ⟨S4096x256, .f32⟩
  | 54 => ⟨S4096x256, .f32⟩
  | 55 => ⟨S4096x256, .f32⟩
  | 56 => ⟨S_, .f32⟩
  | 57 => ⟨S4096x256, .f32⟩
  | 58 => ⟨S4096x256, .f32⟩
  | 59 => ⟨S4096x256, .f32⟩
  | 60 => ⟨S1x1, .f32⟩
  | 61 => ⟨S_, .f32⟩
  | 62 => ⟨S1x1, .f32⟩
  | 63 => ⟨S1x1, .f32⟩
  | 64 => ⟨S4096x256, .f32⟩
  | 65 => ⟨S1x2x256x256, .f32⟩
  | 66 => ⟨S2x256x256, .f32⟩
  | 67 => ⟨S1x2x256, .f32⟩
  | 68 => ⟨S2x256, .f32⟩
  | 69 => ⟨S1x2x256, .f32⟩
  | 70 => ⟨S2x256, .f32⟩
  | 71 => ⟨S1x256x256, .f32⟩
  | 72 => ⟨S256x256, .f32⟩
  | 73 => ⟨S4096x256, .f32⟩
  | 74 => ⟨S1x256, .f32⟩
  | 75 => ⟨S256, .f32⟩
  | 76 => ⟨S1x256, .f32⟩
  | 77 => ⟨S4096x256, .f32⟩
  | 78 => ⟨S4096x256, .f32⟩
  | 79 => ⟨S_, .f32⟩
  | 80 => ⟨S256, .f32⟩
  | 81 => ⟨S_, .f32⟩
  | 82 => ⟨S256, .f32⟩
  | 83 => ⟨S256, .f32⟩
  | 84 => ⟨S_, .i32⟩
  | 85 => ⟨S_, .f32⟩
  | 86 => ⟨S256, .f32⟩
  | 87 => ⟨S1x256, .f32⟩
  | 88 => ⟨S_, .f32⟩
  | 89 => ⟨S1x256, .f32⟩
  | 90 => ⟨S1x256, .f32⟩
  | 91 => ⟨S4096x256, .f32⟩
  | 92 => ⟨S4096x256, .f32⟩
  | 93 => ⟨S4096x256, .f32⟩
  | 94 => ⟨S_, .f32⟩
  | 95 => ⟨S_, .f32⟩
  | 96 => ⟨S_, .f32⟩
  | 97 => ⟨S_, .f32⟩
  | 98 => ⟨S256, .f32⟩
  | 99 => ⟨S256, .f32⟩
  | 100 => ⟨S256, .f32⟩
  | 101 => ⟨S_, .f32⟩
  | 102 => ⟨S_, .i1⟩
  | 103 => ⟨S_, .f32⟩
  | 104 => ⟨S_, .f32⟩
  | 105 => ⟨S256, .f32⟩
  | 106 => ⟨S256, .f32⟩
  | 107 => ⟨S1x256, .f32⟩
  | 108 => ⟨S4096x256, .f32⟩
  | 109 => ⟨S4096x256, .f32⟩
  | 110 => ⟨S_, .f32⟩
  | 111 => ⟨S256, .f32⟩
  | 112 => ⟨S256, .f32⟩
  | 113 => ⟨S256, .f32⟩
  | 114 => ⟨S1x256, .f32⟩
  | 115 => ⟨S4096x256, .f32⟩
  | 116 => ⟨S4096x256, .f32⟩
  | 117 => ⟨S1x256, .f32⟩
  | 118 => ⟨S256, .f32⟩
  | 119 => ⟨S1x256, .f32⟩
  | 120 => ⟨S4096x256, .f32⟩
  | 121 => ⟨S4096x256, .f32⟩
  | 122 => ⟨S1x256, .f32⟩
  | 123 => ⟨S256, .f32⟩
  | 124 => ⟨S1x256, .f32⟩
  | 125 => ⟨S4096x256, .f32⟩
  | 126 => ⟨S4096x256, .f32⟩
  | 127 => ⟨S_, .f32⟩
  | _ => ⟨S4096x256, .f32⟩

abbrev hbmTy0_5 (i : Nat) : BufTy := match i % 128 with
  | 0 => ⟨S4096x256, .f32⟩
  | 1 => ⟨S4096x256, .f32⟩
  | 2 => ⟨S1x256x256, .f32⟩
  | 3 => ⟨S256x256, .f32⟩
  | 4 => ⟨S4096x256, .f32⟩
  | 5 => ⟨S1x256, .f32⟩
  | 6 => ⟨S256, .f32⟩
  | 7 => ⟨S1x256, .f32⟩
  | 8 => ⟨S4096x256, .f32⟩
  | 9 => ⟨S4096x256, .f32⟩
  | 10 => ⟨S4096x256, .f32⟩
  | 11 => ⟨S1x256x256, .f32⟩
  | 12 => ⟨S256x256, .f32⟩
  | 13 => ⟨S4096x256, .f32⟩
  | 14 => ⟨S1x256, .f32⟩
  | 15 => ⟨S256, .f32⟩
  | 16 => ⟨S1x256, .f32⟩
  | 17 => ⟨S4096x256, .f32⟩
  | 18 => ⟨S4096x256, .f32⟩
  | 19 => ⟨S_, .f32⟩
  | 20 => ⟨S4096x256, .f32⟩
  | 21 => ⟨S4096x256, .i1⟩
  | 22 => ⟨S_, .f32⟩
  | 23 => ⟨S4096x256, .f32⟩
  | 24 => ⟨S4096x256, .i1⟩
  | 25 => ⟨S_, .f32⟩
  | 26 => ⟨S_, .f32⟩
  | 27 => ⟨S4096x256, .f32⟩
  | 28 => ⟨S4096x256, .f32⟩
  | 29 => ⟨S4096x256, .f32⟩
  | 30 => ⟨S_, .f32⟩
  | 31 => ⟨S4096x256, .f32⟩
  | 32 => ⟨S4096x256, .f32⟩
  | 33 => ⟨S4096x256, .f32⟩
  | 34 => ⟨S1x256x256, .f32⟩
  | 35 => ⟨S256x256, .f32⟩
  | 36 => ⟨S4096x256, .f32⟩
  | 37 => ⟨S1x256, .f32⟩
  | 38 => ⟨S256, .f32⟩
  | 39 => ⟨S1x256, .f32⟩
  | 40 => ⟨S4096x256, .f32⟩
  | 41 => ⟨S4096x256, .f32⟩
  | 42 => ⟨S_, .f32⟩
  | 43 => ⟨S4096x256, .f32⟩
  | 44 => ⟨S4096x256, .i1⟩
  | 45 => ⟨S_, .f32⟩
  | 46 => ⟨S4096x256, .f32⟩
  | 47 => ⟨S4096x256, .i1⟩
  | 48 => ⟨S_, .f32⟩
  | 49 => ⟨S_, .f32⟩
  | 50 => ⟨S4096x256, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S4096x256, .f32⟩
  | 57 => ⟨S1x1, .f32⟩
  | 58 => ⟨S_, .f32⟩
  | 59 => ⟨S1x1, .f32⟩
  | 60 => ⟨S1x1, .f32⟩
  | 61 => ⟨S4096x256, .f32⟩
  | 62 => ⟨S1x2x256x256, .f32⟩
  | 63 => ⟨S2x256x256, .f32⟩
  | 64 => ⟨S1x2x256, .f32⟩
  | 65 => ⟨S2x256, .f32⟩
  | 66 => ⟨S1x2x256, .f32⟩
  | 67 => ⟨S2x256, .f32⟩
  | 68 => ⟨S1x256x256, .f32⟩
  | 69 => ⟨S256x256, .f32⟩
  | 70 => ⟨S4096x256, .f32⟩
  | 71 => ⟨S1x256, .f32⟩
  | 72 => ⟨S256, .f32⟩
  | 73 => ⟨S1x256, .f32⟩
  | 74 => ⟨S4096x256, .f32⟩
  | 75 => ⟨S4096x256, .f32⟩
  | 76 => ⟨S_, .f32⟩
  | 77 => ⟨S256, .f32⟩
  | 78 => ⟨S_, .f32⟩
  | 79 => ⟨S256, .f32⟩
  | 80 => ⟨S256, .f32⟩
  | 81 => ⟨S_, .i32⟩
  | 82 => ⟨S_, .f32⟩
  | 83 => ⟨S256, .f32⟩
  | 84 => ⟨S1x256, .f32⟩
  | 85 => ⟨S_, .f32⟩
  | 86 => ⟨S1x256, .f32⟩
  | 87 => ⟨S1x256, .f32⟩
  | 88 => ⟨S4096x256, .f32⟩
  | 89 => ⟨S4096x256, .f32⟩
  | 90 => ⟨S4096x256, .f32⟩
  | 91 => ⟨S_, .f32⟩
  | 92 => ⟨S_, .f32⟩
  | 93 => ⟨S_, .f32⟩
  | 94 => ⟨S_, .f32⟩
  | 95 => ⟨S256, .f32⟩
  | 96 => ⟨S256, .f32⟩
  | 97 => ⟨S256, .f32⟩
  | 98 => ⟨S_, .f32⟩
  | 99 => ⟨S_, .i1⟩
  | 100 => ⟨S_, .f32⟩
  | 101 => ⟨S_, .f32⟩
  | 102 => ⟨S256, .f32⟩
  | 103 => ⟨S256, .f32⟩
  | 104 => ⟨S1x256, .f32⟩
  | 105 => ⟨S4096x256, .f32⟩
  | 106 => ⟨S4096x256, .f32⟩
  | 107 => ⟨S_, .f32⟩
  | 108 => ⟨S256, .f32⟩
  | 109 => ⟨S256, .f32⟩
  | 110 => ⟨S256, .f32⟩
  | 111 => ⟨S1x256, .f32⟩
  | 112 => ⟨S4096x256, .f32⟩
  | 113 => ⟨S4096x256, .f32⟩
  | 114 => ⟨S1x256, .f32⟩
  | 115 => ⟨S256, .f32⟩
  | 116 => ⟨S1x256, .f32⟩
  | 117 => ⟨S4096x256, .f32⟩
  | 118 => ⟨S4096x256, .f32⟩
  | 119 => ⟨S1x256, .f32⟩
  | 120 => ⟨S256, .f32⟩
  | 121 => ⟨S1x256, .f32⟩
  | 122 => ⟨S4096x256, .f32⟩
  | 123 => ⟨S4096x256, .f32⟩
  | 124 => ⟨S_, .f32⟩
  | 125 => ⟨S4096x256, .f32⟩
  | 126 => ⟨S4096x256, .f32⟩
  | 127 => ⟨S1x256x256, .f32⟩
  | _ => ⟨S4096x256, .f32⟩

abbrev hbmTy0_6 (i : Nat) : BufTy := match i % 128 with
  | 0 => ⟨S256x256, .f32⟩
  | 1 => ⟨S4096x256, .f32⟩
  | 2 => ⟨S1x256, .f32⟩
  | 3 => ⟨S256, .f32⟩
  | 4 => ⟨S1x256, .f32⟩
  | 5 => ⟨S4096x256, .f32⟩
  | 6 => ⟨S4096x256, .f32⟩
  | 7 => ⟨S4096x256, .f32⟩
  | 8 => ⟨S_, .f32⟩
  | 9 => ⟨S4096x256, .f32⟩
  | 10 => ⟨S4096x256, .f32⟩
  | 11 => ⟨S_, .f32⟩
  | 12 => ⟨S4096x256, .f32⟩
  | 13 => ⟨S1x256x256, .f32⟩
  | 14 => ⟨S256x256, .f32⟩
  | 15 => ⟨S4096x256, .f32⟩
  | 16 => ⟨S1x256, .f32⟩
  | 17 => ⟨S256, .f32⟩
  | 18 => ⟨S1x256, .f32⟩
  | 19 => ⟨S4096x256, .f32⟩
  | 20 => ⟨S4096x256, .f32⟩
  | 21 => ⟨S_, .f32⟩
  | 22 => ⟨S4096x256, .f32⟩
  | 23 => ⟨S4096x256, .i1⟩
  | 24 => ⟨S_, .f32⟩
  | 25 => ⟨S4096x256, .f32⟩
  | 26 => ⟨S4096x256, .i1⟩
  | 27 => ⟨S_, .f32⟩
  | 28 => ⟨S_, .f32⟩
  | 29 => ⟨S4096x256, .f32⟩
  | 30 => ⟨S4096x256, .f32⟩
  | 31 => ⟨S4096x256, .f32⟩
  | 32 => ⟨S_, .f32⟩
  | 33 => ⟨S4096x256, .f32⟩
  | 34 => ⟨S4096x256, .f32⟩
  | 35 => ⟨S4096x256, .f32⟩
  | 36 => ⟨S1x256x256, .f32⟩
  | 37 => ⟨S256x256, .f32⟩
  | 38 => ⟨S4096x256, .f32⟩
  | 39 => ⟨S1x256, .f32⟩
  | 40 => ⟨S256, .f32⟩
  | 41 => ⟨S1x256, .f32⟩
  | 42 => ⟨S4096x256, .f32⟩
  | 43 => ⟨S4096x256, .f32⟩
  | 44 => ⟨S_, .f32⟩
  | 45 => ⟨S4096x256, .f32⟩
  | 46 => ⟨S4096x256, .i1⟩
  | 47 => ⟨S_, .f32⟩
  | 48 => ⟨S4096x256, .f32⟩
  | 49 => ⟨S4096x256, .i1⟩
  | 50 => ⟨S_, .f32⟩
  | 51 => ⟨S_, .f32⟩
  | 52 => ⟨S4096x256, .f32⟩
  | 53 => ⟨S4096x256, .f32⟩
  | 54 => ⟨S4096x256, .f32⟩
  | 55 => ⟨S_, .f32⟩
  | 56 => ⟨S4096x256, .f32⟩
  | 57 => ⟨S4096x256, .f32⟩
  | 58 => ⟨S4096x256, .f32⟩
  | 59 => ⟨S1x1, .f32⟩
  | 60 => ⟨S_, .f32⟩
  | 61 => ⟨S1x1, .f32⟩
  | 62 => ⟨S1x1, .f32⟩
  | 63 => ⟨S4096x256, .f32⟩
  | 64 => ⟨S1x2x256x256, .f32⟩
  | 65 => ⟨S2x256x256, .f32⟩
  | 66 => ⟨S1x2x256, .f32⟩
  | 67 => ⟨S2x256, .f32⟩
  | 68 => ⟨S1x2x256, .f32⟩
  | 69 => ⟨S2x256, .f32⟩
  | 70 => ⟨S1x256x256, .f32⟩
  | 71 => ⟨S256x256, .f32⟩
  | 72 => ⟨S4096x256, .f32⟩
  | 73 => ⟨S1x256, .f32⟩
  | 74 => ⟨S256, .f32⟩
  | 75 => ⟨S1x256, .f32⟩
  | 76 => ⟨S4096x256, .f32⟩
  | 77 => ⟨S4096x256, .f32⟩
  | 78 => ⟨S_, .f32⟩
  | 79 => ⟨S256, .f32⟩
  | 80 => ⟨S_, .f32⟩
  | 81 => ⟨S256, .f32⟩
  | 82 => ⟨S256, .f32⟩
  | 83 => ⟨S_, .i32⟩
  | 84 => ⟨S_, .f32⟩
  | 85 => ⟨S256, .f32⟩
  | 86 => ⟨S1x256, .f32⟩
  | 87 => ⟨S_, .f32⟩
  | 88 => ⟨S1x256, .f32⟩
  | 89 => ⟨S1x256, .f32⟩
  | 90 => ⟨S4096x256, .f32⟩
  | 91 => ⟨S4096x256, .f32⟩
  | 92 => ⟨S4096x256, .f32⟩
  | 93 => ⟨S_, .f32⟩
  | 94 => ⟨S_, .f32⟩
  | 95 => ⟨S_, .f32⟩
  | 96 => ⟨S_, .f32⟩
  | 97 => ⟨S256, .f32⟩
  | 98 => ⟨S256, .f32⟩
  | 99 => ⟨S256, .f32⟩
  | 100 => ⟨S_, .f32⟩
  | 101 => ⟨S_, .i1⟩
  | 102 => ⟨S_, .f32⟩
  | 103 => ⟨S_, .f32⟩
  | 104 => ⟨S256, .f32⟩
  | 105 => ⟨S256, .f32⟩
  | 106 => ⟨S1x256, .f32⟩
  | 107 => ⟨S4096x256, .f32⟩
  | 108 => ⟨S4096x256, .f32⟩
  | 109 => ⟨S_, .f32⟩
  | 110 => ⟨S256, .f32⟩
  | 111 => ⟨S256, .f32⟩
  | 112 => ⟨S256, .f32⟩
  | 113 => ⟨S1x256, .f32⟩
  | 114 => ⟨S4096x256, .f32⟩
  | 115 => ⟨S4096x256, .f32⟩
  | 116 => ⟨S1x256, .f32⟩
  | 117 => ⟨S256, .f32⟩
  | 118 => ⟨S1x256, .f32⟩
  | 119 => ⟨S4096x256, .f32⟩
  | 120 => ⟨S4096x256, .f32⟩
  | 121 => ⟨S1x256, .f32⟩
  | 122 => ⟨S256, .f32⟩
  | 123 => ⟨S1x256, .f32⟩
  | 124 => ⟨S4096x256, .f32⟩
  | 125 => ⟨S4096x256, .f32⟩
  | 126 => ⟨S_, .f32⟩
  | 127 => ⟨S4096x256, .f32⟩
  | _ => ⟨S4096x256, .f32⟩

abbrev hbmTy0_7 (i : Nat) : BufTy := match i % 128 with
  | 0 => ⟨S4096x256, .f32⟩
  | 1 => ⟨S1x256x256, .f32⟩
  | 2 => ⟨S256x256, .f32⟩
  | 3 => ⟨S4096x256, .f32⟩
  | 4 => ⟨S1x256, .f32⟩
  | 5 => ⟨S256, .f32⟩
  | 6 => ⟨S1x256, .f32⟩
  | 7 => ⟨S4096x256, .f32⟩
  | 8 => ⟨S4096x256, .f32⟩
  | 9 => ⟨S4096x256, .f32⟩
  | 10 => ⟨S1x256x256, .f32⟩
  | 11 => ⟨S256x256, .f32⟩
  | 12 => ⟨S4096x256, .f32⟩
  | 13 => ⟨S1x256, .f32⟩
  | 14 => ⟨S256, .f32⟩
  | 15 => ⟨S1x256, .f32⟩
  | 16 => ⟨S4096x256, .f32⟩
  | 17 => ⟨S4096x256, .f32⟩
  | 18 => ⟨S_, .f32⟩
  | 19 => ⟨S4096x256, .f32⟩
  | 20 => ⟨S4096x256, .i1⟩
  | 21 => ⟨S_, .f32⟩
  | 22 => ⟨S4096x256, .f32⟩
  | 23 => ⟨S4096x256, .i1⟩
  | 24 => ⟨S_, .f32⟩
  | 25 => ⟨S_, .f32⟩
  | 26 => ⟨S4096x256, .f32⟩
  | 27 => ⟨S4096x256, .f32⟩
  | 28 => ⟨S4096x256, .f32⟩
  | 29 => ⟨S_, .f32⟩
  | 30 => ⟨S4096x256, .f32⟩
  | 31 => ⟨S4096x256, .f32⟩
  | 32 => ⟨S4096x256, .f32⟩
  | 33 => ⟨S1x256x256, .f32⟩
  | 34 => ⟨S256x256, .f32⟩
  | 35 => ⟨S4096x256, .f32⟩
  | 36 => ⟨S1x256, .f32⟩
  | 37 => ⟨S256, .f32⟩
  | 38 => ⟨S1x256, .f32⟩
  | 39 => ⟨S4096x256, .f32⟩
  | 40 => ⟨S4096x256, .f32⟩
  | 41 => ⟨S_, .f32⟩
  | 42 => ⟨S4096x256, .f32⟩
  | 43 => ⟨S4096x256, .i1⟩
  | 44 => ⟨S_, .f32⟩
  | 45 => ⟨S4096x256, .f32⟩
  | 46 => ⟨S4096x256, .i1⟩
  | 47 => ⟨S_, .f32⟩
  | 48 => ⟨S_, .f32⟩
  | 49 => ⟨S4096x256, .f32⟩
  | 50 => ⟨S4096x256, .f32⟩
  | 51 => ⟨S4096x256, .f32⟩
  | 52 => ⟨S_, .f32⟩
  | 53 => ⟨S4096x256, .f32⟩
  | 54 => ⟨S4096x256, .f32⟩
  | 55 => ⟨S4096x256, .f32⟩
  | 56 => ⟨S1x1, .f32⟩
  | 57 => ⟨S_, .f32⟩
  | 58 => ⟨S1x1, .f32⟩
  | 59 => ⟨S1x1, .f32⟩
  | 60 => ⟨S4096x256, .f32⟩
  | 61 => ⟨S1x2x256x256, .f32⟩
  | 62 => ⟨S2x256x256, .f32⟩
  | 63 => ⟨S1x2x256, .f32⟩
  | 64 => ⟨S2x256, .f32⟩
  | 65 => ⟨S1x2x256, .f32⟩
  | 66 => ⟨S2x256, .f32⟩
  | 67 => ⟨S1x256x256, .f32⟩
  | 68 => ⟨S256x256, .f32⟩
  | 69 => ⟨S4096x256, .f32⟩
  | 70 => ⟨S1x256, .f32⟩
  | 71 => ⟨S256, .f32⟩
  | 72 => ⟨S1x256, .f32⟩
  | 73 => ⟨S4096x256, .f32⟩
  | 74 => ⟨S4096x256, .f32⟩
  | 75 => ⟨S_, .f32⟩
  | 76 => ⟨S256, .f32⟩
  | 77 => ⟨S_, .f32⟩
  | 78 => ⟨S256, .f32⟩
  | 79 => ⟨S256, .f32⟩
  | 80 => ⟨S_, .i32⟩
  | 81 => ⟨S_, .f32⟩
  | 82 => ⟨S256, .f32⟩
  | 83 => ⟨S1x256, .f32⟩
  | 84 => ⟨S_, .f32⟩
  | 85 => ⟨S1x256, .f32⟩
  | 86 => ⟨S1x256, .f32⟩
  | 87 => ⟨S4096x256, .f32⟩
  | 88 => ⟨S4096x256, .f32⟩
  | 89 => ⟨S4096x256, .f32⟩
  | 90 => ⟨S_, .f32⟩
  | 91 => ⟨S_, .f32⟩
  | 92 => ⟨S_, .f32⟩
  | 93 => ⟨S_, .f32⟩
  | 94 => ⟨S256, .f32⟩
  | 95 => ⟨S256, .f32⟩
  | 96 => ⟨S256, .f32⟩
  | 97 => ⟨S_, .f32⟩
  | 98 => ⟨S_, .i1⟩
  | 99 => ⟨S_, .f32⟩
  | 100 => ⟨S_, .f32⟩
  | 101 => ⟨S256, .f32⟩
  | 102 => ⟨S256, .f32⟩
  | 103 => ⟨S1x256, .f32⟩
  | 104 => ⟨S4096x256, .f32⟩
  | 105 => ⟨S4096x256, .f32⟩
  | 106 => ⟨S_, .f32⟩
  | 107 => ⟨S256, .f32⟩
  | 108 => ⟨S256, .f32⟩
  | 109 => ⟨S256, .f32⟩
  | 110 => ⟨S1x256, .f32⟩
  | 111 => ⟨S4096x256, .f32⟩
  | 112 => ⟨S4096x256, .f32⟩
  | 113 => ⟨S1x256, .f32⟩
  | 114 => ⟨S256, .f32⟩
  | 115 => ⟨S1x256, .f32⟩
  | 116 => ⟨S4096x256, .f32⟩
  | 117 => ⟨S4096x256, .f32⟩
  | 118 => ⟨S1x256, .f32⟩
  | 119 => ⟨S256, .f32⟩
  | 120 => ⟨S1x256, .f32⟩
  | 121 => ⟨S4096x256, .f32⟩
  | 122 => ⟨S4096x256, .f32⟩
  | 123 => ⟨S_, .f32⟩
  | 124 => ⟨S4096x256, .f32⟩
  | 125 => ⟨S4096x256, .f32⟩
  | 126 => ⟨S1x256x256, .f32⟩
  | 127 => ⟨S256x256, .f32⟩
  | _ => ⟨S4096x256, .f32⟩

abbrev hbmTy0_8 (i : Nat) : BufTy := match i % 128 with
  | 0 => ⟨S4096x256, .f32⟩
  | 1 => ⟨S1x256, .f32⟩
  | 2 => ⟨S256, .f32⟩
  | 3 => ⟨S1x256, .f32⟩
  | 4 => ⟨S4096x256, .f32⟩
  | 5 => ⟨S4096x256, .f32⟩
  | 6 => ⟨S4096x256, .f32⟩
  | 7 => ⟨S1x256x256, .f32⟩
  | 8 => ⟨S256x256, .f32⟩
  | 9 => ⟨S4096x256, .f32⟩
  | 10 => ⟨S1x256, .f32⟩
  | 11 => ⟨S256, .f32⟩
  | 12 => ⟨S1x256, .f32⟩
  | 13 => ⟨S4096x256, .f32⟩
  | 14 => ⟨S4096x256, .f32⟩
  | 15 => ⟨S_, .f32⟩
  | 16 => ⟨S4096x256, .f32⟩
  | 17 => ⟨S4096x256, .i1⟩
  | 18 => ⟨S_, .f32⟩
  | 19 => ⟨S4096x256, .f32⟩
  | 20 => ⟨S4096x256, .i1⟩
  | 21 => ⟨S_, .f32⟩
  | 22 => ⟨S_, .f32⟩
  | 23 => ⟨S4096x256, .f32⟩
  | 24 => ⟨S4096x256, .f32⟩
  | 25 => ⟨S4096x256, .f32⟩
  | 26 => ⟨S_, .f32⟩
  | 27 => ⟨S4096x256, .f32⟩
  | 28 => ⟨S4096x256, .f32⟩
  | 29 => ⟨S4096x256, .f32⟩
  | 30 => ⟨S1x256x256, .f32⟩
  | 31 => ⟨S256x256, .f32⟩
  | 32 => ⟨S4096x256, .f32⟩
  | 33 => ⟨S1x256, .f32⟩
  | 34 => ⟨S256, .f32⟩
  | 35 => ⟨S1x256, .f32⟩
  | 36 => ⟨S4096x256, .f32⟩
  | 37 => ⟨S4096x256, .f32⟩
  | 38 => ⟨S_, .f32⟩
  | 39 => ⟨S4096x256, .f32⟩
  | 40 => ⟨S4096x256, .i1⟩
  | 41 => ⟨S_, .f32⟩
  | 42 => ⟨S4096x256, .f32⟩
  | 43 => ⟨S4096x256, .i1⟩
  | 44 => ⟨S_, .f32⟩
  | 45 => ⟨S_, .f32⟩
  | 46 => ⟨S4096x256, .f32⟩
  | 47 => ⟨S4096x256, .f32⟩
  | 48 => ⟨S4096x256, .f32⟩
  | 49 => ⟨S_, .f32⟩
  | 50 => ⟨S4096x256, .f32⟩
  | 51 => ⟨S4096x256, .f32⟩
  | 52 => ⟨S4096x256, .f32⟩
  | 53 => ⟨S1x1, .f32⟩
  | 54 => ⟨S_, .f32⟩
  | 55 => ⟨S1x1, .f32⟩
  | 56 => ⟨S1x1, .f32⟩
  | 57 => ⟨S4096x256, .f32⟩
  | 58 => ⟨S1x2x256x256, .f32⟩
  | 59 => ⟨S2x256x256, .f32⟩
  | 60 => ⟨S1x2x256, .f32⟩
  | 61 => ⟨S2x256, .f32⟩
  | 62 => ⟨S1x2x256, .f32⟩
  | 63 => ⟨S2x256, .f32⟩
  | 64 => ⟨S1x256x256, .f32⟩
  | 65 => ⟨S256x256, .f32⟩
  | 66 => ⟨S4096x256, .f32⟩
  | 67 => ⟨S1x256, .f32⟩
  | 68 => ⟨S256, .f32⟩
  | 69 => ⟨S1x256, .f32⟩
  | 70 => ⟨S4096x256, .f32⟩
  | 71 => ⟨S4096x256, .f32⟩
  | 72 => ⟨S_, .f32⟩
  | 73 => ⟨S256, .f32⟩
  | 74 => ⟨S_, .f32⟩
  | 75 => ⟨S256, .f32⟩
  | 76 => ⟨S256, .f32⟩
  | 77 => ⟨S_, .i32⟩
  | 78 => ⟨S_, .f32⟩
  | 79 => ⟨S256, .f32⟩
  | 80 => ⟨S1x256, .f32⟩
  | 81 => ⟨S_, .f32⟩
  | 82 => ⟨S1x256, .f32⟩
  | 83 => ⟨S1x256, .f32⟩
  | 84 => ⟨S4096x256, .f32⟩
  | 85 => ⟨S4096x256, .f32⟩
  | 86 => ⟨S4096x256, .f32⟩
  | 87 => ⟨S_, .f32⟩
  | 88 => ⟨S_, .f32⟩
  | 89 => ⟨S_, .f32⟩
  | 90 => ⟨S_, .f32⟩
  | 91 => ⟨S256, .f32⟩
  | 92 => ⟨S256, .f32⟩
  | 93 => ⟨S256, .f32⟩
  | 94 => ⟨S_, .f32⟩
  | 95 => ⟨S_, .i1⟩
  | 96 => ⟨S_, .f32⟩
  | 97 => ⟨S_, .f32⟩
  | 98 => ⟨S256, .f32⟩
  | 99 => ⟨S256, .f32⟩
  | 100 => ⟨S1x256, .f32⟩
  | 101 => ⟨S4096x256, .f32⟩
  | 102 => ⟨S4096x256, .f32⟩
  | 103 => ⟨S_, .f32⟩
  | 104 => ⟨S256, .f32⟩
  | 105 => ⟨S256, .f32⟩
  | 106 => ⟨S256, .f32⟩
  | 107 => ⟨S1x256, .f32⟩
  | 108 => ⟨S4096x256, .f32⟩
  | 109 => ⟨S4096x256, .f32⟩
  | 110 => ⟨S1x256, .f32⟩
  | 111 => ⟨S256, .f32⟩
  | 112 => ⟨S1x256, .f32⟩
  | 113 => ⟨S4096x256, .f32⟩
  | 114 => ⟨S4096x256, .f32⟩
  | 115 => ⟨S1x256, .f32⟩
  | 116 => ⟨S256, .f32⟩
  | 117 => ⟨S1x256, .f32⟩
  | 118 => ⟨S4096x256, .f32⟩
  | 119 => ⟨S4096x256, .f32⟩
  | 120 => ⟨S_, .f32⟩
  | 121 => ⟨S4096x256, .f32⟩
  | 122 => ⟨S4096x256, .f32⟩
  | 123 => ⟨S1x256x256, .f32⟩
  | 124 => ⟨S256x256, .f32⟩
  | 125 => ⟨S4096x256, .f32⟩
  | 126 => ⟨S1x256, .f32⟩
  | 127 => ⟨S256, .f32⟩
  | _ => ⟨S4096x256, .f32⟩

abbrev hbmTy0_9 (i : Nat) : BufTy := match i % 128 with
  | 0 => ⟨S1x256, .f32⟩
  | 1 => ⟨S4096x256, .f32⟩
  | 2 => ⟨S4096x256, .f32⟩
  | 3 => ⟨S4096x256, .f32⟩
  | 4 => ⟨S_, .f32⟩
  | 5 => ⟨S4096x256, .f32⟩
  | 6 => ⟨S4096x256, .f32⟩
  | 7 => ⟨S_, .f32⟩
  | 8 => ⟨S4096x256, .f32⟩
  | 9 => ⟨S1x256x256, .f32⟩
  | 10 => ⟨S256x256, .f32⟩
  | 11 => ⟨S4096x256, .f32⟩
  | 12 => ⟨S1x256, .f32⟩
  | 13 => ⟨S256, .f32⟩
  | 14 => ⟨S1x256, .f32⟩
  | 15 => ⟨S4096x256, .f32⟩
  | 16 => ⟨S4096x256, .f32⟩
  | 17 => ⟨S_, .f32⟩
  | 18 => ⟨S4096x256, .f32⟩
  | 19 => ⟨S4096x256, .i1⟩
  | 20 => ⟨S_, .f32⟩
  | 21 => ⟨S4096x256, .f32⟩
  | 22 => ⟨S4096x256, .i1⟩
  | 23 => ⟨S_, .f32⟩
  | 24 => ⟨S_, .f32⟩
  | 25 => ⟨S4096x256, .f32⟩
  | 26 => ⟨S4096x256, .f32⟩
  | 27 => ⟨S4096x256, .f32⟩
  | 28 => ⟨S_, .f32⟩
  | 29 => ⟨S4096x256, .f32⟩
  | 30 => ⟨S4096x256, .f32⟩
  | 31 => ⟨S4096x256, .f32⟩
  | 32 => ⟨S1x256x256, .f32⟩
  | 33 => ⟨S256x256, .f32⟩
  | 34 => ⟨S4096x256, .f32⟩
  | 35 => ⟨S1x256, .f32⟩
  | 36 => ⟨S256, .f32⟩
  | 37 => ⟨S1x256, .f32⟩
  | 38 => ⟨S4096x256, .f32⟩
  | 39 => ⟨S4096x256, .f32⟩
  | 40 => ⟨S_, .f32⟩
  | 41 => ⟨S4096x256, .f32⟩
  | 42 => ⟨S4096x256, .i1⟩
  | 43 => ⟨S_, .f32⟩
  | 44 => ⟨S4096x256, .f32⟩
  | 45 => ⟨S4096x256, .i1⟩
  | 46 => ⟨S_, .f32⟩
  | 47 => ⟨S_, .f32⟩
  | 48 => ⟨S4096x256, .f32⟩
  | 49 => ⟨S4096x256, .f32⟩
  | 50 => ⟨S4096x256, .f32⟩
  | 51 => ⟨S_, .f32⟩
  | 52 => ⟨S4096x256, .f32⟩
  | 53 => ⟨S4096x256, .f32⟩
  | 54 => ⟨S4096x256, .f32⟩
  | 55 => ⟨S1x1, .f32⟩
  | 56 => ⟨S_, .f32⟩
  | 57 => ⟨S1x1, .f32⟩
  | 58 => ⟨S1x1, .f32⟩
  | 59 => ⟨S4096x256, .f32⟩
  | 60 => ⟨S1x2x256x256, .f32⟩
  | 61 => ⟨S2x256x256, .f32⟩
  | 62 => ⟨S1x2x256, .f32⟩
  | 63 => ⟨S2x256, .f32⟩
  | 64 => ⟨S1x2x256, .f32⟩
  | 65 => ⟨S2x256, .f32⟩
  | 66 => ⟨S1x256x256, .f32⟩
  | 67 => ⟨S256x256, .f32⟩
  | 68 => ⟨S4096x256, .f32⟩
  | 69 => ⟨S1x256, .f32⟩
  | 70 => ⟨S256, .f32⟩
  | 71 => ⟨S1x256, .f32⟩
  | 72 => ⟨S4096x256, .f32⟩
  | 73 => ⟨S4096x256, .f32⟩
  | 74 => ⟨S_, .f32⟩
  | 75 => ⟨S256, .f32⟩
  | 76 => ⟨S_, .f32⟩
  | 77 => ⟨S256, .f32⟩
  | 78 => ⟨S256, .f32⟩
  | 79 => ⟨S_, .i32⟩
  | 80 => ⟨S_, .f32⟩
  | 81 => ⟨S256, .f32⟩
  | 82 => ⟨S1x256, .f32⟩
  | 83 => ⟨S_, .f32⟩
  | 84 => ⟨S1x256, .f32⟩
  | 85 => ⟨S1x256, .f32⟩
  | 86 => ⟨S4096x256, .f32⟩
  | 87 => ⟨S4096x256, .f32⟩
  | 88 => ⟨S4096x256, .f32⟩
  | 89 => ⟨S_, .f32⟩
  | 90 => ⟨S_, .f32⟩
  | 91 => ⟨S_, .f32⟩
  | 92 => ⟨S_, .f32⟩
  | 93 => ⟨S256, .f32⟩
  | 94 => ⟨S256, .f32⟩
  | 95 => ⟨S256, .f32⟩
  | 96 => ⟨S_, .f32⟩
  | 97 => ⟨S_, .i1⟩
  | 98 => ⟨S_, .f32⟩
  | 99 => ⟨S_, .f32⟩
  | 100 => ⟨S256, .f32⟩
  | 101 => ⟨S256, .f32⟩
  | 102 => ⟨S1x256, .f32⟩
  | 103 => ⟨S4096x256, .f32⟩
  | 104 => ⟨S4096x256, .f32⟩
  | 105 => ⟨S_, .f32⟩
  | 106 => ⟨S256, .f32⟩
  | 107 => ⟨S256, .f32⟩
  | 108 => ⟨S256, .f32⟩
  | 109 => ⟨S1x256, .f32⟩
  | 110 => ⟨S4096x256, .f32⟩
  | 111 => ⟨S4096x256, .f32⟩
  | 112 => ⟨S1x256, .f32⟩
  | 113 => ⟨S256, .f32⟩
  | 114 => ⟨S1x256, .f32⟩
  | 115 => ⟨S4096x256, .f32⟩
  | 116 => ⟨S4096x256, .f32⟩
  | 117 => ⟨S1x256, .f32⟩
  | 118 => ⟨S256, .f32⟩
  | 119 => ⟨S1x256, .f32⟩
  | 120 => ⟨S4096x256, .f32⟩
  | 121 => ⟨S4096x256, .f32⟩
  | 122 => ⟨S_, .f32⟩
  | 123 => ⟨S4096x256, .f32⟩
  | 124 => ⟨S4096x256, .f32⟩
  | 125 => ⟨S1x256x256, .f32⟩
  | 126 => ⟨S256x256, .f32⟩
  | 127 => ⟨S4096x256, .f32⟩
  | _ => ⟨S4096x256, .f32⟩

abbrev hbmTy0_10 (i : Nat) : BufTy := match i % 128 with
  | 0 => ⟨S1x256, .f32⟩
  | 1 => ⟨S256, .f32⟩
  | 2 => ⟨S1x256, .f32⟩
  | 3 => ⟨S4096x256, .f32⟩
  | 4 => ⟨S4096x256, .f32⟩
  | 5 => ⟨S4096x256, .f32⟩
  | 6 => ⟨S1x256x256, .f32⟩
  | 7 => ⟨S256x256, .f32⟩
  | 8 => ⟨S4096x256, .f32⟩
  | 9 => ⟨S1x256, .f32⟩
  | 10 => ⟨S256, .f32⟩
  | 11 => ⟨S1x256, .f32⟩
  | 12 => ⟨S4096x256, .f32⟩
  | 13 => ⟨S4096x256, .f32⟩
  | 14 => ⟨S_, .f32⟩
  | 15 => ⟨S4096x256, .f32⟩
  | 16 => ⟨S4096x256, .i1⟩
  | 17 => ⟨S_, .f32⟩
  | 18 => ⟨S4096x256, .f32⟩
  | 19 => ⟨S4096x256, .i1⟩
  | 20 => ⟨S_, .f32⟩
  | 21 => ⟨S_, .f32⟩
  | 22 => ⟨S4096x256, .f32⟩
  | 23 => ⟨S4096x256, .f32⟩
  | 24 => ⟨S4096x256, .f32⟩
  | 25 => ⟨S_, .f32⟩
  | 26 => ⟨S4096x256, .f32⟩
  | 27 => ⟨S4096x256, .f32⟩
  | 28 => ⟨S4096x256, .f32⟩
  | 29 => ⟨S1x256x256, .f32⟩
  | 30 => ⟨S256x256, .f32⟩
  | 31 => ⟨S4096x256, .f32⟩
  | 32 => ⟨S1x256, .f32⟩
  | 33 => ⟨S256, .f32⟩
  | 34 => ⟨S1x256, .f32⟩
  | 35 => ⟨S4096x256, .f32⟩
  | 36 => ⟨S4096x256, .f32⟩
  | 37 => ⟨S_, .f32⟩
  | 38 => ⟨S4096x256, .f32⟩
  | 39 => ⟨S4096x256, .i1⟩
  | 40 => ⟨S_, .f32⟩
  | 41 => ⟨S4096x256, .f32⟩
  | 42 => ⟨S4096x256, .i1⟩
  | 43 => ⟨S_, .f32⟩
  | 44 => ⟨S_, .f32⟩
  | 45 => ⟨S4096x256, .f32⟩
  | 46 => ⟨S4096x256, .f32⟩
  | 47 => ⟨S4096x256, .f32⟩
  | 48 => ⟨S_, .f32⟩
  | 49 => ⟨S4096x256, .f32⟩
  | 50 => ⟨S4096x256, .f32⟩
  | 51 => ⟨S4096x256, .f32⟩
  | 52 => ⟨S1x1, .f32⟩
  | 53 => ⟨S_, .f32⟩
  | 54 => ⟨S1x1, .f32⟩
  | 55 => ⟨S1x1, .f32⟩
  | 56 => ⟨S4096x256, .f32⟩
  | 57 => ⟨S1x2x256x256, .f32⟩
  | 58 => ⟨S2x256x256, .f32⟩
  | 59 => ⟨S1x2x256, .f32⟩
  | 60 => ⟨S2x256, .f32⟩
  | 61 => ⟨S1x2x256, .f32⟩
  | 62 => ⟨S2x256, .f32⟩
  | 63 => ⟨S1x256x256, .f32⟩
  | 64 => ⟨S256x256, .f32⟩
  | 65 => ⟨S4096x256, .f32⟩
  | 66 => ⟨S1x256, .f32⟩
  | 67 => ⟨S256, .f32⟩
  | 68 => ⟨S1x256, .f32⟩
  | 69 => ⟨S4096x256, .f32⟩
  | 70 => ⟨S4096x256, .f32⟩
  | 71 => ⟨S_, .f32⟩
  | 72 => ⟨S256, .f32⟩
  | 73 => ⟨S_, .f32⟩
  | 74 => ⟨S256, .f32⟩
  | 75 => ⟨S256, .f32⟩
  | 76 => ⟨S_, .i32⟩
  | 77 => ⟨S_, .f32⟩
  | 78 => ⟨S256, .f32⟩
  | 79 => ⟨S1x256, .f32⟩
  | 80 => ⟨S_, .f32⟩
  | 81 => ⟨S1x256, .f32⟩
  | 82 => ⟨S1x256, .f32⟩
  | 83 => ⟨S4096x256, .f32⟩
  | 84 => ⟨S4096x256, .f32⟩
  | 85 => ⟨S4096x256, .f32⟩
  | 86 => ⟨S_, .f32⟩
  | 87 => ⟨S_, .f32⟩
  | 88 => ⟨S_, .f32⟩
  | 89 => ⟨S_, .f32⟩
  | 90 => ⟨S256, .f32⟩
  | 91 => ⟨S256, .f32⟩
  | 92 => ⟨S256, .f32⟩
  | 93 => ⟨S_, .f32⟩
  | 94 => ⟨S_, .i1⟩
  | 95 => ⟨S_, .f32⟩
  | 96 => ⟨S_, .f32⟩
  | 97 => ⟨S256, .f32⟩
  | 98 => ⟨S256, .f32⟩
  | 99 => ⟨S1x256, .f32⟩
  | 100 => ⟨S4096x256, .f32⟩
  | 101 => ⟨S4096x256, .f32⟩
  | 102 => ⟨S_, .f32⟩
  | 103 => ⟨S256, .f32⟩
  | 104 => ⟨S256, .f32⟩
  | 105 => ⟨S256, .f32⟩
  | 106 => ⟨S1x256, .f32⟩
  | 107 => ⟨S4096x256, .f32⟩
  | 108 => ⟨S4096x256, .f32⟩
  | 109 => ⟨S1x256, .f32⟩
  | 110 => ⟨S256, .f32⟩
  | 111 => ⟨S1x256, .f32⟩
  | 112 => ⟨S4096x256, .f32⟩
  | 113 => ⟨S4096x256, .f32⟩
  | 114 => ⟨S1x256, .f32⟩
  | 115 => ⟨S256, .f32⟩
  | 116 => ⟨S1x256, .f32⟩
  | 117 => ⟨S4096x256, .f32⟩
  | 118 => ⟨S4096x256, .f32⟩
  | 119 => ⟨S_, .f32⟩
  | 120 => ⟨S4096x256, .f32⟩
  | 121 => ⟨S4096x256, .f32⟩
  | 122 => ⟨S1x256x256, .f32⟩
  | 123 => ⟨S256x256, .f32⟩
  | 124 => ⟨S4096x256, .f32⟩
  | 125 => ⟨S1x256, .f32⟩
  | 126 => ⟨S256, .f32⟩
  | 127 => ⟨S1x256, .f32⟩
  | _ => ⟨S4096x256, .f32⟩

abbrev hbmTy0_11 (i : Nat) : BufTy := match i % 128 with
  | 0 => ⟨S4096x256, .f32⟩
  | 1 => ⟨S4096x256, .f32⟩
  | 2 => ⟨S4096x256, .f32⟩
  | 3 => ⟨S1x256x256, .f32⟩
  | 4 => ⟨S256x256, .f32⟩
  | 5 => ⟨S4096x256, .f32⟩
  | 6 => ⟨S1x256, .f32⟩
  | 7 => ⟨S256, .f32⟩
  | 8 => ⟨S1x256, .f32⟩
  | 9 => ⟨S4096x256, .f32⟩
  | 10 => ⟨S4096x256, .f32⟩
  | 11 => ⟨S_, .f32⟩
  | 12 => ⟨S4096x256, .f32⟩
  | 13 => ⟨S4096x256, .i1⟩
  | 14 => ⟨S_, .f32⟩
  | 15 => ⟨S4096x256, .f32⟩
  | 16 => ⟨S4096x256, .i1⟩
  | 17 => ⟨S_, .f32⟩
  | 18 => ⟨S_, .f32⟩
  | 19 => ⟨S4096x256, .f32⟩
  | 20 => ⟨S4096x256, .f32⟩
  | 21 => ⟨S4096x256, .f32⟩
  | 22 => ⟨S_, .f32⟩
  | 23 => ⟨S4096x256, .f32⟩
  | 24 => ⟨S4096x256, .f32⟩
  | 25 => ⟨S4096x256, .f32⟩
  | 26 => ⟨S1x256x256, .f32⟩
  | 27 => ⟨S256x256, .f32⟩
  | 28 => ⟨S4096x256, .f32⟩
  | 29 => ⟨S1x256, .f32⟩
  | 30 => ⟨S256, .f32⟩
  | 31 => ⟨S1x256, .f32⟩
  | 32 => ⟨S4096x256, .f32⟩
  | 33 => ⟨S4096x256, .f32⟩
  | 34 => ⟨S_, .f32⟩
  | 35 => ⟨S4096x256, .f32⟩
  | 36 => ⟨S4096x256, .i1⟩
  | 37 => ⟨S_, .f32⟩
  | 38 => ⟨S4096x256, .f32⟩
  | 39 => ⟨S4096x256, .i1⟩
  | 40 => ⟨S_, .f32⟩
  | 41 => ⟨S_, .f32⟩
  | 42 => ⟨S4096x256, .f32⟩
  | 43 => ⟨S4096x256, .f32⟩
  | 44 => ⟨S4096x256, .f32⟩
  | 45 => ⟨S_, .f32⟩
  | 46 => ⟨S4096x256, .f32⟩
  | 47 => ⟨S4096x256, .f32⟩
  | 48 => ⟨S4096x256, .f32⟩
  | 49 => ⟨S1x1, .f32⟩
  | 50 => ⟨S_, .f32⟩
  | 51 => ⟨S1x1, .f32⟩
  | 52 => ⟨S1x1, .f32⟩
  | 53 => ⟨S4096x256, .f32⟩
  | 54 => ⟨S1x2x256x256, .f32⟩
  | 55 => ⟨S2x256x256, .f32⟩
  | 56 => ⟨S1x2x256, .f32⟩
  | 57 => ⟨S2x256, .f32⟩
  | 58 => ⟨S1x2x256, .f32⟩
  | 59 => ⟨S2x256, .f32⟩
  | 60 => ⟨S1x256x256, .f32⟩
  | 61 => ⟨S256x256, .f32⟩
  | 62 => ⟨S4096x256, .f32⟩
  | 63 => ⟨S1x256, .f32⟩
  | 64 => ⟨S256, .f32⟩
  | 65 => ⟨S1x256, .f32⟩
  | 66 => ⟨S4096x256, .f32⟩
  | 67 => ⟨S4096x256, .f32⟩
  | 68 => ⟨S_, .f32⟩
  | 69 => ⟨S256, .f32⟩
  | 70 => ⟨S_, .f32⟩
  | 71 => ⟨S256, .f32⟩
  | 72 => ⟨S256, .f32⟩
  | 73 => ⟨S_, .i32⟩
  | 74 => ⟨S_, .f32⟩
  | 75 => ⟨S256, .f32⟩
  | 76 => ⟨S1x256, .f32⟩
  | 77 => ⟨S_, .f32⟩
  | 78 => ⟨S1x256, .f32⟩
  | 79 => ⟨S1x256, .f32⟩
  | 80 => ⟨S4096x256, .f32⟩
  | 81 => ⟨S4096x256, .f32⟩
  | 82 => ⟨S4096x256, .f32⟩
  | 83 => ⟨S_, .f32⟩
  | 84 => ⟨S_, .f32⟩
  | 85 => ⟨S_, .f32⟩
  | 86 => ⟨S_, .f32⟩
  | 87 => ⟨S256, .f32⟩
  | 88 => ⟨S256, .f32⟩
  | 89 => ⟨S256, .f32⟩
  | 90 => ⟨S_, .f32⟩
  | 91 => ⟨S_, .i1⟩
  | 92 => ⟨S_, .f32⟩
  | 93 => ⟨S_, .f32⟩
  | 94 => ⟨S256, .f32⟩
  | 95 => ⟨S256, .f32⟩
  | 96 => ⟨S1x256, .f32⟩
  | 97 => ⟨S4096x256, .f32⟩
  | 98 => ⟨S4096x256, .f32⟩
  | 99 => ⟨S_, .f32⟩
  | 100 => ⟨S256, .f32⟩
  | 101 => ⟨S256, .f32⟩
  | 102 => ⟨S256, .f32⟩
  | 103 => ⟨S1x256, .f32⟩
  | 104 => ⟨S4096x256, .f32⟩
  | 105 => ⟨S4096x256, .f32⟩
  | 106 => ⟨S1x256, .f32⟩
  | 107 => ⟨S256, .f32⟩
  | 108 => ⟨S1x256, .f32⟩
  | 109 => ⟨S4096x256, .f32⟩
  | 110 => ⟨S4096x256, .f32⟩
  | 111 => ⟨S1x256, .f32⟩
  | 112 => ⟨S256, .f32⟩
  | 113 => ⟨S1x256, .f32⟩
  | 114 => ⟨S4096x256, .f32⟩
  | 115 => ⟨S4096x256, .f32⟩
  | 116 => ⟨S_, .f32⟩
  | 117 => ⟨S4096x256, .f32⟩
  | 118 => ⟨S4096x256, .f32⟩
  | 119 => ⟨S1x256x256, .f32⟩
  | 120 => ⟨S256x256, .f32⟩
  | 121 => ⟨S4096x256, .f32⟩
  | 122 => ⟨S1x256, .f32⟩
  | 123 => ⟨S256, .f32⟩
  | 124 => ⟨S1x256, .f32⟩
  | 125 => ⟨S4096x256, .f32⟩
  | 126 => ⟨S4096x256, .f32⟩
  | 127 => ⟨S4096x256, .f32⟩
  | _ => ⟨S4096x256, .f32⟩

abbrev hbmTy0_12 (i : Nat) : BufTy := match i % 128 with
  | 0 => ⟨S_, .f32⟩
  | 1 => ⟨S4096x256, .f32⟩
  | 2 => ⟨S4096x256, .f32⟩
  | 3 => ⟨S4096x256, .f32⟩
  | 4 => ⟨S4096x256, .f32⟩
  | 5 => ⟨S_, .f32⟩
  | 6 => ⟨S_, .f32⟩
  | 7 => ⟨S_, .f32⟩
  | 8 => ⟨S_, .f32⟩
  | 9 => ⟨S4096x256, .f32⟩
  | 10 => ⟨S4096x256, .f32⟩
  | 11 => ⟨S_, .f32⟩
  | 12 => ⟨S_, .f32⟩
  | 13 => ⟨S_, .f32⟩
  | 14 => ⟨S_, .f32⟩
  | 15 => ⟨S4096x256, .f32⟩
  | 16 => ⟨S4096x256, .f32⟩
  | 17 => ⟨S_, .f32⟩
  | 18 => ⟨S_, .f32⟩
  | 19 => ⟨S_, .f32⟩
  | 20 => ⟨S_, .f32⟩
  | _ => ⟨S4096x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S4096x256, .f32⟩

abbrev vmemTy0_0 (i : Nat) : BufTy := match i % 128 with
  | 0 => ⟨S512x256, .f32⟩
  | 1 => ⟨S512x256, .f32⟩
  | 2 => ⟨S512x256, .f32⟩
  | 3 => ⟨S512x256, .f32⟩
  | 4 => ⟨S1x1, .f32⟩
  | 5 => ⟨S1x1, .f32⟩
  | 6 => ⟨S1x1, .f32⟩
  | 7 => ⟨S512x256, .f32⟩
  | 8 => ⟨S512x256, .f32⟩
  | 9 => ⟨S512x256, .f32⟩
  | 10 => ⟨S512x256, .f32⟩
  | 11 => ⟨S512x256, .f32⟩
  | 12 => ⟨S512x256, .f32⟩
  | 13 => ⟨S512x256, .f32⟩
  | 14 => ⟨S512x256, .f32⟩
  | 15 => ⟨S512x256, .f32⟩
  | 16 => ⟨S512x256, .f32⟩
  | 17 => ⟨S512x256, .f32⟩
  | 18 => ⟨S512x256, .f32⟩
  | 19 => ⟨S512x256, .f32⟩
  | 20 => ⟨S512x256, .f32⟩
  | 21 => ⟨S512x256, .f32⟩
  | 22 => ⟨S1x1, .f32⟩
  | 23 => ⟨S1x1, .f32⟩
  | 24 => ⟨S1x1, .f32⟩
  | 25 => ⟨S512x256, .f32⟩
  | 26 => ⟨S512x256, .f32⟩
  | 27 => ⟨S512x256, .f32⟩
  | 28 => ⟨S512x256, .f32⟩
  | 29 => ⟨S512x256, .f32⟩
  | 30 => ⟨S512x256, .f32⟩
  | 31 => ⟨S512x256, .f32⟩
  | 32 => ⟨S512x256, .f32⟩
  | 33 => ⟨S512x256, .f32⟩
  | 34 => ⟨S512x256, .f32⟩
  | 35 => ⟨S512x256, .f32⟩
  | 36 => ⟨S512x256, .f32⟩
  | 37 => ⟨S512x256, .f32⟩
  | 38 => ⟨S512x256, .f32⟩
  | 39 => ⟨S512x256, .f32⟩
  | 40 => ⟨S1x1, .f32⟩
  | 41 => ⟨S1x1, .f32⟩
  | 42 => ⟨S1x1, .f32⟩
  | 43 => ⟨S512x256, .f32⟩
  | 44 => ⟨S512x256, .f32⟩
  | 45 => ⟨S512x256, .f32⟩
  | 46 => ⟨S512x256, .f32⟩
  | 47 => ⟨S512x256, .f32⟩
  | 48 => ⟨S512x256, .f32⟩
  | 49 => ⟨S512x256, .f32⟩
  | 50 => ⟨S512x256, .f32⟩
  | 51 => ⟨S512x256, .f32⟩
  | 52 => ⟨S512x256, .f32⟩
  | 53 => ⟨S512x256, .f32⟩
  | 54 => ⟨S512x256, .f32⟩
  | 55 => ⟨S512x256, .f32⟩
  | 56 => ⟨S512x256, .f32⟩
  | 57 => ⟨S512x256, .f32⟩
  | 58 => ⟨S1x1, .f32⟩
  | 59 => ⟨S1x1, .f32⟩
  | 60 => ⟨S1x1, .f32⟩
  | 61 => ⟨S512x256, .f32⟩
  | 62 => ⟨S512x256, .f32⟩
  | 63 => ⟨S512x256, .f32⟩
  | 64 => ⟨S512x256, .f32⟩
  | 65 => ⟨S512x256, .f32⟩
  | 66 => ⟨S512x256, .f32⟩
  | 67 => ⟨S512x256, .f32⟩
  | 68 => ⟨S512x256, .f32⟩
  | 69 => ⟨S512x256, .f32⟩
  | 70 => ⟨S512x256, .f32⟩
  | 71 => ⟨S512x256, .f32⟩
  | 72 => ⟨S512x256, .f32⟩
  | 73 => ⟨S512x256, .f32⟩
  | 74 => ⟨S512x256, .f32⟩
  | 75 => ⟨S512x256, .f32⟩
  | 76 => ⟨S1x1, .f32⟩
  | 77 => ⟨S1x1, .f32⟩
  | 78 => ⟨S1x1, .f32⟩
  | 79 => ⟨S512x256, .f32⟩
  | 80 => ⟨S512x256, .f32⟩
  | 81 => ⟨S512x256, .f32⟩
  | 82 => ⟨S512x256, .f32⟩
  | 83 => ⟨S512x256, .f32⟩
  | 84 => ⟨S512x256, .f32⟩
  | 85 => ⟨S512x256, .f32⟩
  | 86 => ⟨S512x256, .f32⟩
  | 87 => ⟨S512x256, .f32⟩
  | 88 => ⟨S512x256, .f32⟩
  | 89 => ⟨S512x256, .f32⟩
  | 90 => ⟨S512x256, .f32⟩
  | 91 => ⟨S512x256, .f32⟩
  | 92 => ⟨S512x256, .f32⟩
  | 93 => ⟨S512x256, .f32⟩
  | 94 => ⟨S1x1, .f32⟩
  | 95 => ⟨S1x1, .f32⟩
  | 96 => ⟨S1x1, .f32⟩
  | 97 => ⟨S512x256, .f32⟩
  | 98 => ⟨S512x256, .f32⟩
  | 99 => ⟨S512x256, .f32⟩
  | 100 => ⟨S512x256, .f32⟩
  | 101 => ⟨S512x256, .f32⟩
  | 102 => ⟨S512x256, .f32⟩
  | 103 => ⟨S512x256, .f32⟩
  | 104 => ⟨S512x256, .f32⟩
  | 105 => ⟨S512x256, .f32⟩
  | 106 => ⟨S512x256, .f32⟩
  | 107 => ⟨S512x256, .f32⟩
  | 108 => ⟨S512x256, .f32⟩
  | 109 => ⟨S512x256, .f32⟩
  | 110 => ⟨S512x256, .f32⟩
  | 111 => ⟨S512x256, .f32⟩
  | 112 => ⟨S1x1, .f32⟩
  | 113 => ⟨S1x1, .f32⟩
  | 114 => ⟨S1x1, .f32⟩
  | 115 => ⟨S512x256, .f32⟩
  | 116 => ⟨S512x256, .f32⟩
  | 117 => ⟨S512x256, .f32⟩
  | 118 => ⟨S512x256, .f32⟩
  | 119 => ⟨S512x256, .f32⟩
  | 120 => ⟨S512x256, .f32⟩
  | 121 => ⟨S512x256, .f32⟩
  | 122 => ⟨S512x256, .f32⟩
  | 123 => ⟨S512x256, .f32⟩
  | 124 => ⟨S512x256, .f32⟩
  | 125 => ⟨S512x256, .f32⟩
  | 126 => ⟨S512x256, .f32⟩
  | 127 => ⟨S512x256, .f32⟩
  | _ => ⟨S4096x256, .f32⟩

abbrev vmemTy0_1 (i : Nat) : BufTy := match i % 128 with
  | 0 => ⟨S512x256, .f32⟩
  | 1 => ⟨S512x256, .f32⟩
  | 2 => ⟨S1x1, .f32⟩
  | 3 => ⟨S1x1, .f32⟩
  | 4 => ⟨S1x1, .f32⟩
  | 5 => ⟨S512x256, .f32⟩
  | 6 => ⟨S512x256, .f32⟩
  | 7 => ⟨S512x256, .f32⟩
  | 8 => ⟨S512x256, .f32⟩
  | 9 => ⟨S512x256, .f32⟩
  | 10 => ⟨S512x256, .f32⟩
  | 11 => ⟨S512x256, .f32⟩
  | 12 => ⟨S512x256, .f32⟩
  | 13 => ⟨S512x256, .f32⟩
  | 14 => ⟨S512x256, .f32⟩
  | 15 => ⟨S512x256, .f32⟩
  | 16 => ⟨S512x256, .f32⟩
  | 17 => ⟨S512x256, .f32⟩
  | 18 => ⟨S512x256, .f32⟩
  | 19 => ⟨S512x256, .f32⟩
  | 20 => ⟨S1x1, .f32⟩
  | 21 => ⟨S1x1, .f32⟩
  | 22 => ⟨S1x1, .f32⟩
  | 23 => ⟨S512x256, .f32⟩
  | 24 => ⟨S512x256, .f32⟩
  | 25 => ⟨S512x256, .f32⟩
  | 26 => ⟨S512x256, .f32⟩
  | 27 => ⟨S512x256, .f32⟩
  | 28 => ⟨S512x256, .f32⟩
  | 29 => ⟨S512x256, .f32⟩
  | 30 => ⟨S512x256, .f32⟩
  | 31 => ⟨S512x256, .f32⟩
  | 32 => ⟨S512x256, .f32⟩
  | 33 => ⟨S512x256, .f32⟩
  | 34 => ⟨S512x256, .f32⟩
  | 35 => ⟨S512x256, .f32⟩
  | 36 => ⟨S512x256, .f32⟩
  | 37 => ⟨S512x256, .f32⟩
  | 38 => ⟨S1x1, .f32⟩
  | 39 => ⟨S1x1, .f32⟩
  | 40 => ⟨S1x1, .f32⟩
  | 41 => ⟨S512x256, .f32⟩
  | 42 => ⟨S512x256, .f32⟩
  | 43 => ⟨S512x256, .f32⟩
  | 44 => ⟨S512x256, .f32⟩
  | 45 => ⟨S512x256, .f32⟩
  | 46 => ⟨S512x256, .f32⟩
  | 47 => ⟨S512x256, .f32⟩
  | 48 => ⟨S512x256, .f32⟩
  | 49 => ⟨S512x256, .f32⟩
  | 50 => ⟨S512x256, .f32⟩
  | 51 => ⟨S512x256, .f32⟩
  | 52 => ⟨S512x256, .f32⟩
  | 53 => ⟨S512x256, .f32⟩
  | 54 => ⟨S512x256, .f32⟩
  | 55 => ⟨S512x256, .f32⟩
  | 56 => ⟨S1x1, .f32⟩
  | 57 => ⟨S1x1, .f32⟩
  | 58 => ⟨S1x1, .f32⟩
  | 59 => ⟨S512x256, .f32⟩
  | 60 => ⟨S512x256, .f32⟩
  | 61 => ⟨S512x256, .f32⟩
  | 62 => ⟨S512x256, .f32⟩
  | 63 => ⟨S512x256, .f32⟩
  | 64 => ⟨S512x256, .f32⟩
  | 65 => ⟨S512x256, .f32⟩
  | 66 => ⟨S512x256, .f32⟩
  | 67 => ⟨S512x256, .f32⟩
  | 68 => ⟨S512x256, .f32⟩
  | 69 => ⟨S512x256, .f32⟩
  | 70 => ⟨S512x256, .f32⟩
  | 71 => ⟨S512x256, .f32⟩
  | 72 => ⟨S512x256, .f32⟩
  | 73 => ⟨S512x256, .f32⟩
  | 74 => ⟨S1x1, .f32⟩
  | 75 => ⟨S1x1, .f32⟩
  | 76 => ⟨S1x1, .f32⟩
  | 77 => ⟨S512x256, .f32⟩
  | 78 => ⟨S512x256, .f32⟩
  | 79 => ⟨S512x256, .f32⟩
  | 80 => ⟨S512x256, .f32⟩
  | 81 => ⟨S512x256, .f32⟩
  | 82 => ⟨S512x256, .f32⟩
  | 83 => ⟨S512x256, .f32⟩
  | 84 => ⟨S512x256, .f32⟩
  | 85 => ⟨S512x256, .f32⟩
  | 86 => ⟨S512x256, .f32⟩
  | 87 => ⟨S512x256, .f32⟩
  | _ => ⟨S4096x256, .f32⟩

abbrev vmemTy (i : Nat) : BufTy := match i / 128 with
  | 0 => vmemTy0_0 i
  | 1 => vmemTy0_1 i
  | _ => ⟨S4096x256, .f32⟩

abbrev bufTy : (tb : Table) → Fin (tcTables nBuf tb) → BufTy
  | .hbm, ⟨i, _⟩ => hbmTy i
  | .local _ .vmem, ⟨i, _⟩ => vmemTy i
  | _, _ => ⟨S4096x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 192 → Bool
  | ⟨i, _⟩ => dmaSemScopedAt i

abbrev sig : RefSig :=
  ofTc nBuf bufTy 0 192 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_cst_0 : Ref sig .tc := ⟨.hbm, 32, rfl⟩
abbrev main_call0_v2 : Ref sig .tc := ⟨.hbm, 33, rfl⟩
abbrev main_call0_v3 : Ref sig .tc := ⟨.hbm, 34, rfl⟩
abbrev main_call0_cst_1 : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_v4 : Ref sig .tc := ⟨.hbm, 38, rfl⟩
abbrev main_call0_v5 : Ref sig .tc := ⟨.hbm, 39, rfl⟩
abbrev main_call0_cst_2 : Ref sig .tc := ⟨.hbm, 40, rfl⟩
abbrev main_call0_v6 : Ref sig .tc := ⟨.hbm, 41, rfl⟩
abbrev main_call0_v7 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_cst_0 : Ref sig .tc := ⟨.hbm, 55, rfl⟩
abbrev main_call1_v2 : Ref sig .tc := ⟨.hbm, 56, rfl⟩
abbrev main_call1_v3 : Ref sig .tc := ⟨.hbm, 57, rfl⟩
abbrev main_call1_cst_1 : Ref sig .tc := ⟨.hbm, 58, rfl⟩
abbrev main_call1_call0_v0 : Ref sig .tc := ⟨.hbm, 59, rfl⟩
abbrev main_call1_call0_v1 : Ref sig .tc := ⟨.hbm, 60, rfl⟩
abbrev main_call1_v4 : Ref sig .tc := ⟨.hbm, 61, rfl⟩
abbrev main_call1_v5 : Ref sig .tc := ⟨.hbm, 62, rfl⟩
abbrev main_call1_cst_2 : Ref sig .tc := ⟨.hbm, 63, rfl⟩
abbrev main_call1_v6 : Ref sig .tc := ⟨.hbm, 64, rfl⟩
abbrev main_call1_v7 : Ref sig .tc := ⟨.hbm, 65, rfl⟩
abbrev main_v18 : Ref sig .tc := ⟨.hbm, 66, rfl⟩
abbrev main_v19 : Ref sig .tc := ⟨.hbm, 67, rfl⟩
abbrev main_cst_0 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_cst_1 : Ref sig .tc := ⟨.hbm, 86, rfl⟩
abbrev main_v37 : Ref sig .tc := ⟨.hbm, 87, rfl⟩
abbrev main_cst_2 : Ref sig .tc := ⟨.hbm, 88, rfl⟩
abbrev main_v38 : Ref sig .tc := ⟨.hbm, 89, rfl⟩
abbrev main_v39 : Ref sig .tc := ⟨.hbm, 90, rfl⟩
abbrev main_c : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_cst_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_v7 : Ref sig .tc := ⟨.hbm, 101, rfl⟩
abbrev main_call2_cst_1 : Ref sig .tc := ⟨.hbm, 102, rfl⟩
abbrev main_call2_v8 : Ref sig .tc := ⟨.hbm, 103, rfl⟩
abbrev main_call2_cst_2 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_cst_3 : Ref sig .tc := ⟨.hbm, 108, rfl⟩
abbrev main_call2_v12 : Ref sig .tc := ⟨.hbm, 109, rfl⟩
abbrev main_call2_cst_4 : Ref sig .tc := ⟨.hbm, 110, rfl⟩
abbrev main_call2_call0_v0 : Ref sig .tc := ⟨.hbm, 111, rfl⟩
abbrev main_call2_call0_v1 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_cst_3 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_call3_cst : Ref sig .tc := ⟨.hbm, 134, rfl⟩
abbrev main_call3_v0 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_call4_cst : Ref sig .tc := ⟨.hbm, 154, rfl⟩
abbrev main_call4_v0 : Ref sig .tc := ⟨.hbm, 155, rfl⟩
abbrev main_call4_v1 : Ref sig .tc := ⟨.hbm, 156, rfl⟩
abbrev main_call4_cst_0 : Ref sig .tc := ⟨.hbm, 157, rfl⟩
abbrev main_call4_v2 : Ref sig .tc := ⟨.hbm, 158, rfl⟩
abbrev main_call4_v3 : Ref sig .tc := ⟨.hbm, 159, rfl⟩
abbrev main_call4_cst_1 : Ref sig .tc := ⟨.hbm, 160, rfl⟩
abbrev main_call4_call0_v0 : Ref sig .tc := ⟨.hbm, 161, rfl⟩
abbrev main_call4_call0_v1 : Ref sig .tc := ⟨.hbm, 162, rfl⟩
abbrev main_call4_v4 : Ref sig .tc := ⟨.hbm, 163, rfl⟩
abbrev main_call4_v5 : Ref sig .tc := ⟨.hbm, 164, rfl⟩
abbrev main_call4_cst_2 : Ref sig .tc := ⟨.hbm, 165, rfl⟩
abbrev main_call4_v6 : Ref sig .tc := ⟨.hbm, 166, rfl⟩
abbrev main_call4_v7 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_call5_cst : Ref sig .tc := ⟨.hbm, 177, rfl⟩
abbrev main_call5_v0 : Ref sig .tc := ⟨.hbm, 178, rfl⟩
abbrev main_call5_v1 : Ref sig .tc := ⟨.hbm, 179, rfl⟩
abbrev main_call5_cst_0 : Ref sig .tc := ⟨.hbm, 180, rfl⟩
abbrev main_call5_v2 : Ref sig .tc := ⟨.hbm, 181, rfl⟩
abbrev main_call5_v3 : Ref sig .tc := ⟨.hbm, 182, rfl⟩
abbrev main_call5_cst_1 : Ref sig .tc := ⟨.hbm, 183, rfl⟩
abbrev main_call5_call0_v0 : Ref sig .tc := ⟨.hbm, 184, rfl⟩
abbrev main_call5_call0_v1 : Ref sig .tc := ⟨.hbm, 185, rfl⟩
abbrev main_call5_v4 : Ref sig .tc := ⟨.hbm, 186, rfl⟩
abbrev main_call5_v5 : Ref sig .tc := ⟨.hbm, 187, rfl⟩
abbrev main_call5_cst_2 : Ref sig .tc := ⟨.hbm, 188, rfl⟩
abbrev main_call5_v6 : Ref sig .tc := ⟨.hbm, 189, rfl⟩
abbrev main_call5_v7 : Ref sig .tc := ⟨.hbm, 190, rfl⟩
abbrev main_v87 : Ref sig .tc := ⟨.hbm, 191, rfl⟩
abbrev main_v88 : Ref sig .tc := ⟨.hbm, 192, rfl⟩
abbrev main_cst_4 : Ref sig .tc := ⟨.hbm, 193, rfl⟩
abbrev main_v89 : Ref sig .tc := ⟨.hbm, 194, rfl⟩
abbrev main_v90 : Ref sig .tc := ⟨.hbm, 195, rfl⟩
abbrev main_v91 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩
abbrev main_v102 : Ref sig .tc := ⟨.hbm, 207, rfl⟩
abbrev main_v103 : Ref sig .tc := ⟨.hbm, 208, rfl⟩
abbrev main_v104 : Ref sig .tc := ⟨.hbm, 209, rfl⟩
abbrev main_v105 : Ref sig .tc := ⟨.hbm, 210, rfl⟩
abbrev main_cst_5 : Ref sig .tc := ⟨.hbm, 211, rfl⟩
abbrev main_v106 : Ref sig .tc := ⟨.hbm, 212, rfl⟩
abbrev main_cst_6 : Ref sig .tc := ⟨.hbm, 213, rfl⟩
abbrev main_v107 : Ref sig .tc := ⟨.hbm, 214, rfl⟩
abbrev main_v108 : Ref sig .tc := ⟨.hbm, 215, rfl⟩
abbrev main_c_7 : Ref sig .tc := ⟨.hbm, 216, rfl⟩
abbrev main_call6_cst : Ref sig .tc := ⟨.hbm, 217, rfl⟩
abbrev main_call6_v0 : Ref sig .tc := ⟨.hbm, 218, rfl⟩
abbrev main_call6_v1 : Ref sig .tc := ⟨.hbm, 219, rfl⟩
abbrev main_call6_cst_0 : Ref sig .tc := ⟨.hbm, 220, rfl⟩
abbrev main_call6_v2 : Ref sig .tc := ⟨.hbm, 221, rfl⟩
abbrev main_call6_v3 : Ref sig .tc := ⟨.hbm, 222, rfl⟩
abbrev main_call6_v4 : Ref sig .tc := ⟨.hbm, 223, rfl⟩
abbrev main_call6_v5 : Ref sig .tc := ⟨.hbm, 224, rfl⟩
abbrev main_call6_v6 : Ref sig .tc := ⟨.hbm, 225, rfl⟩
abbrev main_call6_v7 : Ref sig .tc := ⟨.hbm, 226, rfl⟩
abbrev main_call6_cst_1 : Ref sig .tc := ⟨.hbm, 227, rfl⟩
abbrev main_call6_v8 : Ref sig .tc := ⟨.hbm, 228, rfl⟩
abbrev main_call6_cst_2 : Ref sig .tc := ⟨.hbm, 229, rfl⟩
abbrev main_call6_v9 : Ref sig .tc := ⟨.hbm, 230, rfl⟩
abbrev main_call6_v10 : Ref sig .tc := ⟨.hbm, 231, rfl⟩
abbrev main_call6_v11 : Ref sig .tc := ⟨.hbm, 232, rfl⟩
abbrev main_call6_cst_3 : Ref sig .tc := ⟨.hbm, 233, rfl⟩
abbrev main_call6_v12 : Ref sig .tc := ⟨.hbm, 234, rfl⟩
abbrev main_call6_cst_4 : Ref sig .tc := ⟨.hbm, 235, rfl⟩
abbrev main_call6_call0_v0 : Ref sig .tc := ⟨.hbm, 236, rfl⟩
abbrev main_call6_call0_v1 : Ref sig .tc := ⟨.hbm, 237, rfl⟩
abbrev main_v109 : Ref sig .tc := ⟨.hbm, 238, rfl⟩
abbrev main_v110 : Ref sig .tc := ⟨.hbm, 239, rfl⟩
abbrev main_v111 : Ref sig .tc := ⟨.hbm, 240, rfl⟩
abbrev main_v112 : Ref sig .tc := ⟨.hbm, 241, rfl⟩
abbrev main_cst_8 : Ref sig .tc := ⟨.hbm, 242, rfl⟩
abbrev main_v113 : Ref sig .tc := ⟨.hbm, 243, rfl⟩
abbrev main_v114 : Ref sig .tc := ⟨.hbm, 244, rfl⟩
abbrev main_v115 : Ref sig .tc := ⟨.hbm, 245, rfl⟩
abbrev main_v116 : Ref sig .tc := ⟨.hbm, 246, rfl⟩
abbrev main_v117 : Ref sig .tc := ⟨.hbm, 247, rfl⟩
abbrev main_v118 : Ref sig .tc := ⟨.hbm, 248, rfl⟩
abbrev main_v119 : Ref sig .tc := ⟨.hbm, 249, rfl⟩
abbrev main_v120 : Ref sig .tc := ⟨.hbm, 250, rfl⟩
abbrev main_v121 : Ref sig .tc := ⟨.hbm, 251, rfl⟩
abbrev main_v122 : Ref sig .tc := ⟨.hbm, 252, rfl⟩
abbrev main_v123 : Ref sig .tc := ⟨.hbm, 253, rfl⟩
abbrev main_v124 : Ref sig .tc := ⟨.hbm, 254, rfl⟩
abbrev main_v125 : Ref sig .tc := ⟨.hbm, 255, rfl⟩
abbrev main_v126 : Ref sig .tc := ⟨.hbm, 256, rfl⟩
abbrev main_v127 : Ref sig .tc := ⟨.hbm, 257, rfl⟩
abbrev main_v128 : Ref sig .tc := ⟨.hbm, 258, rfl⟩
abbrev main_call7_cst : Ref sig .tc := ⟨.hbm, 259, rfl⟩
abbrev main_call7_v0 : Ref sig .tc := ⟨.hbm, 260, rfl⟩
abbrev main_v129 : Ref sig .tc := ⟨.hbm, 261, rfl⟩
abbrev main_v130 : Ref sig .tc := ⟨.hbm, 262, rfl⟩
abbrev main_v131 : Ref sig .tc := ⟨.hbm, 263, rfl⟩
abbrev main_v132 : Ref sig .tc := ⟨.hbm, 264, rfl⟩
abbrev main_v133 : Ref sig .tc := ⟨.hbm, 265, rfl⟩
abbrev main_v134 : Ref sig .tc := ⟨.hbm, 266, rfl⟩
abbrev main_v135 : Ref sig .tc := ⟨.hbm, 267, rfl⟩
abbrev main_v136 : Ref sig .tc := ⟨.hbm, 268, rfl⟩
abbrev main_v137 : Ref sig .tc := ⟨.hbm, 269, rfl⟩
abbrev main_v138 : Ref sig .tc := ⟨.hbm, 270, rfl⟩
abbrev main_v139 : Ref sig .tc := ⟨.hbm, 271, rfl⟩
abbrev main_v140 : Ref sig .tc := ⟨.hbm, 272, rfl⟩
abbrev main_v141 : Ref sig .tc := ⟨.hbm, 273, rfl⟩
abbrev main_v142 : Ref sig .tc := ⟨.hbm, 274, rfl⟩
abbrev main_v143 : Ref sig .tc := ⟨.hbm, 275, rfl⟩
abbrev main_v144 : Ref sig .tc := ⟨.hbm, 276, rfl⟩
abbrev main_v145 : Ref sig .tc := ⟨.hbm, 277, rfl⟩
abbrev main_v146 : Ref sig .tc := ⟨.hbm, 278, rfl⟩
abbrev main_call8_cst : Ref sig .tc := ⟨.hbm, 279, rfl⟩
abbrev main_call8_v0 : Ref sig .tc := ⟨.hbm, 280, rfl⟩
abbrev main_call8_v1 : Ref sig .tc := ⟨.hbm, 281, rfl⟩
abbrev main_call8_cst_0 : Ref sig .tc := ⟨.hbm, 282, rfl⟩
abbrev main_call8_v2 : Ref sig .tc := ⟨.hbm, 283, rfl⟩
abbrev main_call8_v3 : Ref sig .tc := ⟨.hbm, 284, rfl⟩
abbrev main_call8_cst_1 : Ref sig .tc := ⟨.hbm, 285, rfl⟩
abbrev main_call8_call0_v0 : Ref sig .tc := ⟨.hbm, 286, rfl⟩
abbrev main_call8_call0_v1 : Ref sig .tc := ⟨.hbm, 287, rfl⟩
abbrev main_call8_v4 : Ref sig .tc := ⟨.hbm, 288, rfl⟩
abbrev main_call8_v5 : Ref sig .tc := ⟨.hbm, 289, rfl⟩
abbrev main_call8_cst_2 : Ref sig .tc := ⟨.hbm, 290, rfl⟩
abbrev main_call8_v6 : Ref sig .tc := ⟨.hbm, 291, rfl⟩
abbrev main_call8_v7 : Ref sig .tc := ⟨.hbm, 292, rfl⟩
abbrev main_v147 : Ref sig .tc := ⟨.hbm, 293, rfl⟩
abbrev main_v148 : Ref sig .tc := ⟨.hbm, 294, rfl⟩
abbrev main_v149 : Ref sig .tc := ⟨.hbm, 295, rfl⟩
abbrev main_v150 : Ref sig .tc := ⟨.hbm, 296, rfl⟩
abbrev main_v151 : Ref sig .tc := ⟨.hbm, 297, rfl⟩
abbrev main_v152 : Ref sig .tc := ⟨.hbm, 298, rfl⟩
abbrev main_v153 : Ref sig .tc := ⟨.hbm, 299, rfl⟩
abbrev main_v154 : Ref sig .tc := ⟨.hbm, 300, rfl⟩
abbrev main_v155 : Ref sig .tc := ⟨.hbm, 301, rfl⟩
abbrev main_call9_cst : Ref sig .tc := ⟨.hbm, 302, rfl⟩
abbrev main_call9_v0 : Ref sig .tc := ⟨.hbm, 303, rfl⟩
abbrev main_call9_v1 : Ref sig .tc := ⟨.hbm, 304, rfl⟩
abbrev main_call9_cst_0 : Ref sig .tc := ⟨.hbm, 305, rfl⟩
abbrev main_call9_v2 : Ref sig .tc := ⟨.hbm, 306, rfl⟩
abbrev main_call9_v3 : Ref sig .tc := ⟨.hbm, 307, rfl⟩
abbrev main_call9_cst_1 : Ref sig .tc := ⟨.hbm, 308, rfl⟩
abbrev main_call9_call0_v0 : Ref sig .tc := ⟨.hbm, 309, rfl⟩
abbrev main_call9_call0_v1 : Ref sig .tc := ⟨.hbm, 310, rfl⟩
abbrev main_call9_v4 : Ref sig .tc := ⟨.hbm, 311, rfl⟩
abbrev main_call9_v5 : Ref sig .tc := ⟨.hbm, 312, rfl⟩
abbrev main_call9_cst_2 : Ref sig .tc := ⟨.hbm, 313, rfl⟩
abbrev main_call9_v6 : Ref sig .tc := ⟨.hbm, 314, rfl⟩
abbrev main_call9_v7 : Ref sig .tc := ⟨.hbm, 315, rfl⟩
abbrev main_v156 : Ref sig .tc := ⟨.hbm, 316, rfl⟩
abbrev main_v157 : Ref sig .tc := ⟨.hbm, 317, rfl⟩
abbrev main_cst_9 : Ref sig .tc := ⟨.hbm, 318, rfl⟩
abbrev main_v158 : Ref sig .tc := ⟨.hbm, 319, rfl⟩
abbrev main_v159 : Ref sig .tc := ⟨.hbm, 320, rfl⟩
abbrev main_v160 : Ref sig .tc := ⟨.hbm, 321, rfl⟩
abbrev main_v161 : Ref sig .tc := ⟨.hbm, 322, rfl⟩
abbrev main_v162 : Ref sig .tc := ⟨.hbm, 323, rfl⟩
abbrev main_v163 : Ref sig .tc := ⟨.hbm, 324, rfl⟩
abbrev main_v164 : Ref sig .tc := ⟨.hbm, 325, rfl⟩
abbrev main_v165 : Ref sig .tc := ⟨.hbm, 326, rfl⟩
abbrev main_v166 : Ref sig .tc := ⟨.hbm, 327, rfl⟩
abbrev main_v167 : Ref sig .tc := ⟨.hbm, 328, rfl⟩
abbrev main_v168 : Ref sig .tc := ⟨.hbm, 329, rfl⟩
abbrev main_v169 : Ref sig .tc := ⟨.hbm, 330, rfl⟩
abbrev main_v170 : Ref sig .tc := ⟨.hbm, 331, rfl⟩
abbrev main_v171 : Ref sig .tc := ⟨.hbm, 332, rfl⟩
abbrev main_v172 : Ref sig .tc := ⟨.hbm, 333, rfl⟩
abbrev main_v173 : Ref sig .tc := ⟨.hbm, 334, rfl⟩
abbrev main_v174 : Ref sig .tc := ⟨.hbm, 335, rfl⟩
abbrev main_cst_10 : Ref sig .tc := ⟨.hbm, 336, rfl⟩
abbrev main_v175 : Ref sig .tc := ⟨.hbm, 337, rfl⟩
abbrev main_cst_11 : Ref sig .tc := ⟨.hbm, 338, rfl⟩
abbrev main_v176 : Ref sig .tc := ⟨.hbm, 339, rfl⟩
abbrev main_v177 : Ref sig .tc := ⟨.hbm, 340, rfl⟩
abbrev main_c_12 : Ref sig .tc := ⟨.hbm, 341, rfl⟩
abbrev main_call10_cst : Ref sig .tc := ⟨.hbm, 342, rfl⟩
abbrev main_call10_v0 : Ref sig .tc := ⟨.hbm, 343, rfl⟩
abbrev main_call10_v1 : Ref sig .tc := ⟨.hbm, 344, rfl⟩
abbrev main_call10_cst_0 : Ref sig .tc := ⟨.hbm, 345, rfl⟩
abbrev main_call10_v2 : Ref sig .tc := ⟨.hbm, 346, rfl⟩
abbrev main_call10_v3 : Ref sig .tc := ⟨.hbm, 347, rfl⟩
abbrev main_call10_v4 : Ref sig .tc := ⟨.hbm, 348, rfl⟩
abbrev main_call10_v5 : Ref sig .tc := ⟨.hbm, 349, rfl⟩
abbrev main_call10_v6 : Ref sig .tc := ⟨.hbm, 350, rfl⟩
abbrev main_call10_v7 : Ref sig .tc := ⟨.hbm, 351, rfl⟩
abbrev main_call10_cst_1 : Ref sig .tc := ⟨.hbm, 352, rfl⟩
abbrev main_call10_v8 : Ref sig .tc := ⟨.hbm, 353, rfl⟩
abbrev main_call10_cst_2 : Ref sig .tc := ⟨.hbm, 354, rfl⟩
abbrev main_call10_v9 : Ref sig .tc := ⟨.hbm, 355, rfl⟩
abbrev main_call10_v10 : Ref sig .tc := ⟨.hbm, 356, rfl⟩
abbrev main_call10_v11 : Ref sig .tc := ⟨.hbm, 357, rfl⟩
abbrev main_call10_cst_3 : Ref sig .tc := ⟨.hbm, 358, rfl⟩
abbrev main_call10_v12 : Ref sig .tc := ⟨.hbm, 359, rfl⟩
abbrev main_call10_cst_4 : Ref sig .tc := ⟨.hbm, 360, rfl⟩
abbrev main_call10_call0_v0 : Ref sig .tc := ⟨.hbm, 361, rfl⟩
abbrev main_call10_call0_v1 : Ref sig .tc := ⟨.hbm, 362, rfl⟩
abbrev main_v178 : Ref sig .tc := ⟨.hbm, 363, rfl⟩
abbrev main_v179 : Ref sig .tc := ⟨.hbm, 364, rfl⟩
abbrev main_v180 : Ref sig .tc := ⟨.hbm, 365, rfl⟩
abbrev main_v181 : Ref sig .tc := ⟨.hbm, 366, rfl⟩
abbrev main_cst_13 : Ref sig .tc := ⟨.hbm, 367, rfl⟩
abbrev main_v182 : Ref sig .tc := ⟨.hbm, 368, rfl⟩
abbrev main_v183 : Ref sig .tc := ⟨.hbm, 369, rfl⟩
abbrev main_v184 : Ref sig .tc := ⟨.hbm, 370, rfl⟩
abbrev main_v185 : Ref sig .tc := ⟨.hbm, 371, rfl⟩
abbrev main_v186 : Ref sig .tc := ⟨.hbm, 372, rfl⟩
abbrev main_v187 : Ref sig .tc := ⟨.hbm, 373, rfl⟩
abbrev main_v188 : Ref sig .tc := ⟨.hbm, 374, rfl⟩
abbrev main_v189 : Ref sig .tc := ⟨.hbm, 375, rfl⟩
abbrev main_v190 : Ref sig .tc := ⟨.hbm, 376, rfl⟩
abbrev main_v191 : Ref sig .tc := ⟨.hbm, 377, rfl⟩
abbrev main_v192 : Ref sig .tc := ⟨.hbm, 378, rfl⟩
abbrev main_v193 : Ref sig .tc := ⟨.hbm, 379, rfl⟩
abbrev main_v194 : Ref sig .tc := ⟨.hbm, 380, rfl⟩
abbrev main_v195 : Ref sig .tc := ⟨.hbm, 381, rfl⟩
abbrev main_v196 : Ref sig .tc := ⟨.hbm, 382, rfl⟩
abbrev main_v197 : Ref sig .tc := ⟨.hbm, 383, rfl⟩
abbrev main_call11_cst : Ref sig .tc := ⟨.hbm, 384, rfl⟩
abbrev main_call11_v0 : Ref sig .tc := ⟨.hbm, 385, rfl⟩
abbrev main_v198 : Ref sig .tc := ⟨.hbm, 386, rfl⟩
abbrev main_v199 : Ref sig .tc := ⟨.hbm, 387, rfl⟩
abbrev main_v200 : Ref sig .tc := ⟨.hbm, 388, rfl⟩
abbrev main_v201 : Ref sig .tc := ⟨.hbm, 389, rfl⟩
abbrev main_v202 : Ref sig .tc := ⟨.hbm, 390, rfl⟩
abbrev main_v203 : Ref sig .tc := ⟨.hbm, 391, rfl⟩
abbrev main_v204 : Ref sig .tc := ⟨.hbm, 392, rfl⟩
abbrev main_v205 : Ref sig .tc := ⟨.hbm, 393, rfl⟩
abbrev main_v206 : Ref sig .tc := ⟨.hbm, 394, rfl⟩
abbrev main_v207 : Ref sig .tc := ⟨.hbm, 395, rfl⟩
abbrev main_cst_14 : Ref sig .tc := ⟨.hbm, 396, rfl⟩
abbrev main_v208 : Ref sig .tc := ⟨.hbm, 397, rfl⟩
abbrev main_v209 : Ref sig .tc := ⟨.hbm, 398, rfl⟩
abbrev main_cst_15 : Ref sig .tc := ⟨.hbm, 399, rfl⟩
abbrev main_v210 : Ref sig .tc := ⟨.hbm, 400, rfl⟩
abbrev main_v211 : Ref sig .tc := ⟨.hbm, 401, rfl⟩
abbrev main_v212 : Ref sig .tc := ⟨.hbm, 402, rfl⟩
abbrev main_v213 : Ref sig .tc := ⟨.hbm, 403, rfl⟩
abbrev main_v214 : Ref sig .tc := ⟨.hbm, 404, rfl⟩
abbrev main_v215 : Ref sig .tc := ⟨.hbm, 405, rfl⟩
abbrev main_v216 : Ref sig .tc := ⟨.hbm, 406, rfl⟩
abbrev main_v217 : Ref sig .tc := ⟨.hbm, 407, rfl⟩
abbrev main_v218 : Ref sig .tc := ⟨.hbm, 408, rfl⟩
abbrev main_call12_cst : Ref sig .tc := ⟨.hbm, 409, rfl⟩
abbrev main_call12_v0 : Ref sig .tc := ⟨.hbm, 410, rfl⟩
abbrev main_call12_v1 : Ref sig .tc := ⟨.hbm, 411, rfl⟩
abbrev main_call12_cst_0 : Ref sig .tc := ⟨.hbm, 412, rfl⟩
abbrev main_call12_v2 : Ref sig .tc := ⟨.hbm, 413, rfl⟩
abbrev main_call12_v3 : Ref sig .tc := ⟨.hbm, 414, rfl⟩
abbrev main_call12_cst_1 : Ref sig .tc := ⟨.hbm, 415, rfl⟩
abbrev main_call12_call0_v0 : Ref sig .tc := ⟨.hbm, 416, rfl⟩
abbrev main_call12_call0_v1 : Ref sig .tc := ⟨.hbm, 417, rfl⟩
abbrev main_call12_v4 : Ref sig .tc := ⟨.hbm, 418, rfl⟩
abbrev main_call12_v5 : Ref sig .tc := ⟨.hbm, 419, rfl⟩
abbrev main_call12_cst_2 : Ref sig .tc := ⟨.hbm, 420, rfl⟩
abbrev main_call12_v6 : Ref sig .tc := ⟨.hbm, 421, rfl⟩
abbrev main_call12_v7 : Ref sig .tc := ⟨.hbm, 422, rfl⟩
abbrev main_v219 : Ref sig .tc := ⟨.hbm, 423, rfl⟩
abbrev main_v220 : Ref sig .tc := ⟨.hbm, 424, rfl⟩
abbrev main_v221 : Ref sig .tc := ⟨.hbm, 425, rfl⟩
abbrev main_v222 : Ref sig .tc := ⟨.hbm, 426, rfl⟩
abbrev main_v223 : Ref sig .tc := ⟨.hbm, 427, rfl⟩
abbrev main_v224 : Ref sig .tc := ⟨.hbm, 428, rfl⟩
abbrev main_v225 : Ref sig .tc := ⟨.hbm, 429, rfl⟩
abbrev main_v226 : Ref sig .tc := ⟨.hbm, 430, rfl⟩
abbrev main_v227 : Ref sig .tc := ⟨.hbm, 431, rfl⟩
abbrev main_call13_cst : Ref sig .tc := ⟨.hbm, 432, rfl⟩
abbrev main_call13_v0 : Ref sig .tc := ⟨.hbm, 433, rfl⟩
abbrev main_call13_v1 : Ref sig .tc := ⟨.hbm, 434, rfl⟩
abbrev main_call13_cst_0 : Ref sig .tc := ⟨.hbm, 435, rfl⟩
abbrev main_call13_v2 : Ref sig .tc := ⟨.hbm, 436, rfl⟩
abbrev main_call13_v3 : Ref sig .tc := ⟨.hbm, 437, rfl⟩
abbrev main_call13_cst_1 : Ref sig .tc := ⟨.hbm, 438, rfl⟩
abbrev main_call13_call0_v0 : Ref sig .tc := ⟨.hbm, 439, rfl⟩
abbrev main_call13_call0_v1 : Ref sig .tc := ⟨.hbm, 440, rfl⟩
abbrev main_call13_v4 : Ref sig .tc := ⟨.hbm, 441, rfl⟩
abbrev main_call13_v5 : Ref sig .tc := ⟨.hbm, 442, rfl⟩
abbrev main_call13_cst_2 : Ref sig .tc := ⟨.hbm, 443, rfl⟩
abbrev main_call13_v6 : Ref sig .tc := ⟨.hbm, 444, rfl⟩
abbrev main_call13_v7 : Ref sig .tc := ⟨.hbm, 445, rfl⟩
abbrev main_v228 : Ref sig .tc := ⟨.hbm, 446, rfl⟩
abbrev main_v229 : Ref sig .tc := ⟨.hbm, 447, rfl⟩
abbrev main_cst_16 : Ref sig .tc := ⟨.hbm, 448, rfl⟩
abbrev main_v230 : Ref sig .tc := ⟨.hbm, 449, rfl⟩
abbrev main_v231 : Ref sig .tc := ⟨.hbm, 450, rfl⟩
abbrev main_v232 : Ref sig .tc := ⟨.hbm, 451, rfl⟩
abbrev main_v233 : Ref sig .tc := ⟨.hbm, 452, rfl⟩
abbrev main_v234 : Ref sig .tc := ⟨.hbm, 453, rfl⟩
abbrev main_v235 : Ref sig .tc := ⟨.hbm, 454, rfl⟩
abbrev main_v236 : Ref sig .tc := ⟨.hbm, 455, rfl⟩
abbrev main_v237 : Ref sig .tc := ⟨.hbm, 456, rfl⟩
abbrev main_v238 : Ref sig .tc := ⟨.hbm, 457, rfl⟩
abbrev main_v239 : Ref sig .tc := ⟨.hbm, 458, rfl⟩
abbrev main_v240 : Ref sig .tc := ⟨.hbm, 459, rfl⟩
abbrev main_v241 : Ref sig .tc := ⟨.hbm, 460, rfl⟩
abbrev main_v242 : Ref sig .tc := ⟨.hbm, 461, rfl⟩
abbrev main_v243 : Ref sig .tc := ⟨.hbm, 462, rfl⟩
abbrev main_v244 : Ref sig .tc := ⟨.hbm, 463, rfl⟩
abbrev main_v245 : Ref sig .tc := ⟨.hbm, 464, rfl⟩
abbrev main_v246 : Ref sig .tc := ⟨.hbm, 465, rfl⟩
abbrev main_cst_17 : Ref sig .tc := ⟨.hbm, 466, rfl⟩
abbrev main_v247 : Ref sig .tc := ⟨.hbm, 467, rfl⟩
abbrev main_cst_18 : Ref sig .tc := ⟨.hbm, 468, rfl⟩
abbrev main_v248 : Ref sig .tc := ⟨.hbm, 469, rfl⟩
abbrev main_v249 : Ref sig .tc := ⟨.hbm, 470, rfl⟩
abbrev main_c_19 : Ref sig .tc := ⟨.hbm, 471, rfl⟩
abbrev main_call14_cst : Ref sig .tc := ⟨.hbm, 472, rfl⟩
abbrev main_call14_v0 : Ref sig .tc := ⟨.hbm, 473, rfl⟩
abbrev main_call14_v1 : Ref sig .tc := ⟨.hbm, 474, rfl⟩
abbrev main_call14_cst_0 : Ref sig .tc := ⟨.hbm, 475, rfl⟩
abbrev main_call14_v2 : Ref sig .tc := ⟨.hbm, 476, rfl⟩
abbrev main_call14_v3 : Ref sig .tc := ⟨.hbm, 477, rfl⟩
abbrev main_call14_v4 : Ref sig .tc := ⟨.hbm, 478, rfl⟩
abbrev main_call14_v5 : Ref sig .tc := ⟨.hbm, 479, rfl⟩
abbrev main_call14_v6 : Ref sig .tc := ⟨.hbm, 480, rfl⟩
abbrev main_call14_v7 : Ref sig .tc := ⟨.hbm, 481, rfl⟩
abbrev main_call14_cst_1 : Ref sig .tc := ⟨.hbm, 482, rfl⟩
abbrev main_call14_v8 : Ref sig .tc := ⟨.hbm, 483, rfl⟩
abbrev main_call14_cst_2 : Ref sig .tc := ⟨.hbm, 484, rfl⟩
abbrev main_call14_v9 : Ref sig .tc := ⟨.hbm, 485, rfl⟩
abbrev main_call14_v10 : Ref sig .tc := ⟨.hbm, 486, rfl⟩
abbrev main_call14_v11 : Ref sig .tc := ⟨.hbm, 487, rfl⟩
abbrev main_call14_cst_3 : Ref sig .tc := ⟨.hbm, 488, rfl⟩
abbrev main_call14_v12 : Ref sig .tc := ⟨.hbm, 489, rfl⟩
abbrev main_call14_cst_4 : Ref sig .tc := ⟨.hbm, 490, rfl⟩
abbrev main_call14_call0_v0 : Ref sig .tc := ⟨.hbm, 491, rfl⟩
abbrev main_call14_call0_v1 : Ref sig .tc := ⟨.hbm, 492, rfl⟩
abbrev main_v250 : Ref sig .tc := ⟨.hbm, 493, rfl⟩
abbrev main_v251 : Ref sig .tc := ⟨.hbm, 494, rfl⟩
abbrev main_v252 : Ref sig .tc := ⟨.hbm, 495, rfl⟩
abbrev main_v253 : Ref sig .tc := ⟨.hbm, 496, rfl⟩
abbrev main_cst_20 : Ref sig .tc := ⟨.hbm, 497, rfl⟩
abbrev main_v254 : Ref sig .tc := ⟨.hbm, 498, rfl⟩
abbrev main_v255 : Ref sig .tc := ⟨.hbm, 499, rfl⟩
abbrev main_v256 : Ref sig .tc := ⟨.hbm, 500, rfl⟩
abbrev main_v257 : Ref sig .tc := ⟨.hbm, 501, rfl⟩
abbrev main_v258 : Ref sig .tc := ⟨.hbm, 502, rfl⟩
abbrev main_v259 : Ref sig .tc := ⟨.hbm, 503, rfl⟩
abbrev main_v260 : Ref sig .tc := ⟨.hbm, 504, rfl⟩
abbrev main_v261 : Ref sig .tc := ⟨.hbm, 505, rfl⟩
abbrev main_v262 : Ref sig .tc := ⟨.hbm, 506, rfl⟩
abbrev main_v263 : Ref sig .tc := ⟨.hbm, 507, rfl⟩
abbrev main_v264 : Ref sig .tc := ⟨.hbm, 508, rfl⟩
abbrev main_v265 : Ref sig .tc := ⟨.hbm, 509, rfl⟩
abbrev main_v266 : Ref sig .tc := ⟨.hbm, 510, rfl⟩
abbrev main_v267 : Ref sig .tc := ⟨.hbm, 511, rfl⟩
abbrev main_v268 : Ref sig .tc := ⟨.hbm, 512, rfl⟩
abbrev main_v269 : Ref sig .tc := ⟨.hbm, 513, rfl⟩
abbrev main_call15_cst : Ref sig .tc := ⟨.hbm, 514, rfl⟩
abbrev main_call15_v0 : Ref sig .tc := ⟨.hbm, 515, rfl⟩
abbrev main_v270 : Ref sig .tc := ⟨.hbm, 516, rfl⟩
abbrev main_v271 : Ref sig .tc := ⟨.hbm, 517, rfl⟩
abbrev main_v272 : Ref sig .tc := ⟨.hbm, 518, rfl⟩
abbrev main_v273 : Ref sig .tc := ⟨.hbm, 519, rfl⟩
abbrev main_v274 : Ref sig .tc := ⟨.hbm, 520, rfl⟩
abbrev main_v275 : Ref sig .tc := ⟨.hbm, 521, rfl⟩
abbrev main_v276 : Ref sig .tc := ⟨.hbm, 522, rfl⟩
abbrev main_v277 : Ref sig .tc := ⟨.hbm, 523, rfl⟩
abbrev main_v278 : Ref sig .tc := ⟨.hbm, 524, rfl⟩
abbrev main_v279 : Ref sig .tc := ⟨.hbm, 525, rfl⟩
abbrev main_v280 : Ref sig .tc := ⟨.hbm, 526, rfl⟩
abbrev main_v281 : Ref sig .tc := ⟨.hbm, 527, rfl⟩
abbrev main_v282 : Ref sig .tc := ⟨.hbm, 528, rfl⟩
abbrev main_v283 : Ref sig .tc := ⟨.hbm, 529, rfl⟩
abbrev main_v284 : Ref sig .tc := ⟨.hbm, 530, rfl⟩
abbrev main_v285 : Ref sig .tc := ⟨.hbm, 531, rfl⟩
abbrev main_v286 : Ref sig .tc := ⟨.hbm, 532, rfl⟩
abbrev main_v287 : Ref sig .tc := ⟨.hbm, 533, rfl⟩
abbrev main_call16_cst : Ref sig .tc := ⟨.hbm, 534, rfl⟩
abbrev main_call16_v0 : Ref sig .tc := ⟨.hbm, 535, rfl⟩
abbrev main_call16_v1 : Ref sig .tc := ⟨.hbm, 536, rfl⟩
abbrev main_call16_cst_0 : Ref sig .tc := ⟨.hbm, 537, rfl⟩
abbrev main_call16_v2 : Ref sig .tc := ⟨.hbm, 538, rfl⟩
abbrev main_call16_v3 : Ref sig .tc := ⟨.hbm, 539, rfl⟩
abbrev main_call16_cst_1 : Ref sig .tc := ⟨.hbm, 540, rfl⟩
abbrev main_call16_call0_v0 : Ref sig .tc := ⟨.hbm, 541, rfl⟩
abbrev main_call16_call0_v1 : Ref sig .tc := ⟨.hbm, 542, rfl⟩
abbrev main_call16_v4 : Ref sig .tc := ⟨.hbm, 543, rfl⟩
abbrev main_call16_v5 : Ref sig .tc := ⟨.hbm, 544, rfl⟩
abbrev main_call16_cst_2 : Ref sig .tc := ⟨.hbm, 545, rfl⟩
abbrev main_call16_v6 : Ref sig .tc := ⟨.hbm, 546, rfl⟩
abbrev main_call16_v7 : Ref sig .tc := ⟨.hbm, 547, rfl⟩
abbrev main_v288 : Ref sig .tc := ⟨.hbm, 548, rfl⟩
abbrev main_v289 : Ref sig .tc := ⟨.hbm, 549, rfl⟩
abbrev main_v290 : Ref sig .tc := ⟨.hbm, 550, rfl⟩
abbrev main_v291 : Ref sig .tc := ⟨.hbm, 551, rfl⟩
abbrev main_v292 : Ref sig .tc := ⟨.hbm, 552, rfl⟩
abbrev main_v293 : Ref sig .tc := ⟨.hbm, 553, rfl⟩
abbrev main_v294 : Ref sig .tc := ⟨.hbm, 554, rfl⟩
abbrev main_v295 : Ref sig .tc := ⟨.hbm, 555, rfl⟩
abbrev main_v296 : Ref sig .tc := ⟨.hbm, 556, rfl⟩
abbrev main_call17_cst : Ref sig .tc := ⟨.hbm, 557, rfl⟩
abbrev main_call17_v0 : Ref sig .tc := ⟨.hbm, 558, rfl⟩
abbrev main_call17_v1 : Ref sig .tc := ⟨.hbm, 559, rfl⟩
abbrev main_call17_cst_0 : Ref sig .tc := ⟨.hbm, 560, rfl⟩
abbrev main_call17_v2 : Ref sig .tc := ⟨.hbm, 561, rfl⟩
abbrev main_call17_v3 : Ref sig .tc := ⟨.hbm, 562, rfl⟩
abbrev main_call17_cst_1 : Ref sig .tc := ⟨.hbm, 563, rfl⟩
abbrev main_call17_call0_v0 : Ref sig .tc := ⟨.hbm, 564, rfl⟩
abbrev main_call17_call0_v1 : Ref sig .tc := ⟨.hbm, 565, rfl⟩
abbrev main_call17_v4 : Ref sig .tc := ⟨.hbm, 566, rfl⟩
abbrev main_call17_v5 : Ref sig .tc := ⟨.hbm, 567, rfl⟩
abbrev main_call17_cst_2 : Ref sig .tc := ⟨.hbm, 568, rfl⟩
abbrev main_call17_v6 : Ref sig .tc := ⟨.hbm, 569, rfl⟩
abbrev main_call17_v7 : Ref sig .tc := ⟨.hbm, 570, rfl⟩
abbrev main_v297 : Ref sig .tc := ⟨.hbm, 571, rfl⟩
abbrev main_v298 : Ref sig .tc := ⟨.hbm, 572, rfl⟩
abbrev main_cst_21 : Ref sig .tc := ⟨.hbm, 573, rfl⟩
abbrev main_v299 : Ref sig .tc := ⟨.hbm, 574, rfl⟩
abbrev main_v300 : Ref sig .tc := ⟨.hbm, 575, rfl⟩
abbrev main_v301 : Ref sig .tc := ⟨.hbm, 576, rfl⟩
abbrev main_v302 : Ref sig .tc := ⟨.hbm, 577, rfl⟩
abbrev main_v303 : Ref sig .tc := ⟨.hbm, 578, rfl⟩
abbrev main_v304 : Ref sig .tc := ⟨.hbm, 579, rfl⟩
abbrev main_v305 : Ref sig .tc := ⟨.hbm, 580, rfl⟩
abbrev main_v306 : Ref sig .tc := ⟨.hbm, 581, rfl⟩
abbrev main_v307 : Ref sig .tc := ⟨.hbm, 582, rfl⟩
abbrev main_v308 : Ref sig .tc := ⟨.hbm, 583, rfl⟩
abbrev main_v309 : Ref sig .tc := ⟨.hbm, 584, rfl⟩
abbrev main_v310 : Ref sig .tc := ⟨.hbm, 585, rfl⟩
abbrev main_v311 : Ref sig .tc := ⟨.hbm, 586, rfl⟩
abbrev main_v312 : Ref sig .tc := ⟨.hbm, 587, rfl⟩
abbrev main_v313 : Ref sig .tc := ⟨.hbm, 588, rfl⟩
abbrev main_v314 : Ref sig .tc := ⟨.hbm, 589, rfl⟩
abbrev main_v315 : Ref sig .tc := ⟨.hbm, 590, rfl⟩
abbrev main_cst_22 : Ref sig .tc := ⟨.hbm, 591, rfl⟩
abbrev main_v316 : Ref sig .tc := ⟨.hbm, 592, rfl⟩
abbrev main_cst_23 : Ref sig .tc := ⟨.hbm, 593, rfl⟩
abbrev main_v317 : Ref sig .tc := ⟨.hbm, 594, rfl⟩
abbrev main_v318 : Ref sig .tc := ⟨.hbm, 595, rfl⟩
abbrev main_c_24 : Ref sig .tc := ⟨.hbm, 596, rfl⟩
abbrev main_call18_cst : Ref sig .tc := ⟨.hbm, 597, rfl⟩
abbrev main_call18_v0 : Ref sig .tc := ⟨.hbm, 598, rfl⟩
abbrev main_call18_v1 : Ref sig .tc := ⟨.hbm, 599, rfl⟩
abbrev main_call18_cst_0 : Ref sig .tc := ⟨.hbm, 600, rfl⟩
abbrev main_call18_v2 : Ref sig .tc := ⟨.hbm, 601, rfl⟩
abbrev main_call18_v3 : Ref sig .tc := ⟨.hbm, 602, rfl⟩
abbrev main_call18_v4 : Ref sig .tc := ⟨.hbm, 603, rfl⟩
abbrev main_call18_v5 : Ref sig .tc := ⟨.hbm, 604, rfl⟩
abbrev main_call18_v6 : Ref sig .tc := ⟨.hbm, 605, rfl⟩
abbrev main_call18_v7 : Ref sig .tc := ⟨.hbm, 606, rfl⟩
abbrev main_call18_cst_1 : Ref sig .tc := ⟨.hbm, 607, rfl⟩
abbrev main_call18_v8 : Ref sig .tc := ⟨.hbm, 608, rfl⟩
abbrev main_call18_cst_2 : Ref sig .tc := ⟨.hbm, 609, rfl⟩
abbrev main_call18_v9 : Ref sig .tc := ⟨.hbm, 610, rfl⟩
abbrev main_call18_v10 : Ref sig .tc := ⟨.hbm, 611, rfl⟩
abbrev main_call18_v11 : Ref sig .tc := ⟨.hbm, 612, rfl⟩
abbrev main_call18_cst_3 : Ref sig .tc := ⟨.hbm, 613, rfl⟩
abbrev main_call18_v12 : Ref sig .tc := ⟨.hbm, 614, rfl⟩
abbrev main_call18_cst_4 : Ref sig .tc := ⟨.hbm, 615, rfl⟩
abbrev main_call18_call0_v0 : Ref sig .tc := ⟨.hbm, 616, rfl⟩
abbrev main_call18_call0_v1 : Ref sig .tc := ⟨.hbm, 617, rfl⟩
abbrev main_v319 : Ref sig .tc := ⟨.hbm, 618, rfl⟩
abbrev main_v320 : Ref sig .tc := ⟨.hbm, 619, rfl⟩
abbrev main_v321 : Ref sig .tc := ⟨.hbm, 620, rfl⟩
abbrev main_v322 : Ref sig .tc := ⟨.hbm, 621, rfl⟩
abbrev main_cst_25 : Ref sig .tc := ⟨.hbm, 622, rfl⟩
abbrev main_v323 : Ref sig .tc := ⟨.hbm, 623, rfl⟩
abbrev main_v324 : Ref sig .tc := ⟨.hbm, 624, rfl⟩
abbrev main_v325 : Ref sig .tc := ⟨.hbm, 625, rfl⟩
abbrev main_v326 : Ref sig .tc := ⟨.hbm, 626, rfl⟩
abbrev main_v327 : Ref sig .tc := ⟨.hbm, 627, rfl⟩
abbrev main_v328 : Ref sig .tc := ⟨.hbm, 628, rfl⟩
abbrev main_v329 : Ref sig .tc := ⟨.hbm, 629, rfl⟩
abbrev main_v330 : Ref sig .tc := ⟨.hbm, 630, rfl⟩
abbrev main_v331 : Ref sig .tc := ⟨.hbm, 631, rfl⟩
abbrev main_v332 : Ref sig .tc := ⟨.hbm, 632, rfl⟩
abbrev main_v333 : Ref sig .tc := ⟨.hbm, 633, rfl⟩
abbrev main_v334 : Ref sig .tc := ⟨.hbm, 634, rfl⟩
abbrev main_v335 : Ref sig .tc := ⟨.hbm, 635, rfl⟩
abbrev main_v336 : Ref sig .tc := ⟨.hbm, 636, rfl⟩
abbrev main_v337 : Ref sig .tc := ⟨.hbm, 637, rfl⟩
abbrev main_v338 : Ref sig .tc := ⟨.hbm, 638, rfl⟩
abbrev main_call19_cst : Ref sig .tc := ⟨.hbm, 639, rfl⟩
abbrev main_call19_v0 : Ref sig .tc := ⟨.hbm, 640, rfl⟩
abbrev main_v339 : Ref sig .tc := ⟨.hbm, 641, rfl⟩
abbrev main_v340 : Ref sig .tc := ⟨.hbm, 642, rfl⟩
abbrev main_v341 : Ref sig .tc := ⟨.hbm, 643, rfl⟩
abbrev main_v342 : Ref sig .tc := ⟨.hbm, 644, rfl⟩
abbrev main_v343 : Ref sig .tc := ⟨.hbm, 645, rfl⟩
abbrev main_v344 : Ref sig .tc := ⟨.hbm, 646, rfl⟩
abbrev main_v345 : Ref sig .tc := ⟨.hbm, 647, rfl⟩
abbrev main_v346 : Ref sig .tc := ⟨.hbm, 648, rfl⟩
abbrev main_v347 : Ref sig .tc := ⟨.hbm, 649, rfl⟩
abbrev main_v348 : Ref sig .tc := ⟨.hbm, 650, rfl⟩
abbrev main_v349 : Ref sig .tc := ⟨.hbm, 651, rfl⟩
abbrev main_v350 : Ref sig .tc := ⟨.hbm, 652, rfl⟩
abbrev main_v351 : Ref sig .tc := ⟨.hbm, 653, rfl⟩
abbrev main_v352 : Ref sig .tc := ⟨.hbm, 654, rfl⟩
abbrev main_v353 : Ref sig .tc := ⟨.hbm, 655, rfl⟩
abbrev main_v354 : Ref sig .tc := ⟨.hbm, 656, rfl⟩
abbrev main_v355 : Ref sig .tc := ⟨.hbm, 657, rfl⟩
abbrev main_v356 : Ref sig .tc := ⟨.hbm, 658, rfl⟩
abbrev main_call20_cst : Ref sig .tc := ⟨.hbm, 659, rfl⟩
abbrev main_call20_v0 : Ref sig .tc := ⟨.hbm, 660, rfl⟩
abbrev main_call20_v1 : Ref sig .tc := ⟨.hbm, 661, rfl⟩
abbrev main_call20_cst_0 : Ref sig .tc := ⟨.hbm, 662, rfl⟩
abbrev main_call20_v2 : Ref sig .tc := ⟨.hbm, 663, rfl⟩
abbrev main_call20_v3 : Ref sig .tc := ⟨.hbm, 664, rfl⟩
abbrev main_call20_cst_1 : Ref sig .tc := ⟨.hbm, 665, rfl⟩
abbrev main_call20_call0_v0 : Ref sig .tc := ⟨.hbm, 666, rfl⟩
abbrev main_call20_call0_v1 : Ref sig .tc := ⟨.hbm, 667, rfl⟩
abbrev main_call20_v4 : Ref sig .tc := ⟨.hbm, 668, rfl⟩
abbrev main_call20_v5 : Ref sig .tc := ⟨.hbm, 669, rfl⟩
abbrev main_call20_cst_2 : Ref sig .tc := ⟨.hbm, 670, rfl⟩
abbrev main_call20_v6 : Ref sig .tc := ⟨.hbm, 671, rfl⟩
abbrev main_call20_v7 : Ref sig .tc := ⟨.hbm, 672, rfl⟩
abbrev main_v357 : Ref sig .tc := ⟨.hbm, 673, rfl⟩
abbrev main_v358 : Ref sig .tc := ⟨.hbm, 674, rfl⟩
abbrev main_v359 : Ref sig .tc := ⟨.hbm, 675, rfl⟩
abbrev main_v360 : Ref sig .tc := ⟨.hbm, 676, rfl⟩
abbrev main_v361 : Ref sig .tc := ⟨.hbm, 677, rfl⟩
abbrev main_v362 : Ref sig .tc := ⟨.hbm, 678, rfl⟩
abbrev main_v363 : Ref sig .tc := ⟨.hbm, 679, rfl⟩
abbrev main_v364 : Ref sig .tc := ⟨.hbm, 680, rfl⟩
abbrev main_v365 : Ref sig .tc := ⟨.hbm, 681, rfl⟩
abbrev main_call21_cst : Ref sig .tc := ⟨.hbm, 682, rfl⟩
abbrev main_call21_v0 : Ref sig .tc := ⟨.hbm, 683, rfl⟩
abbrev main_call21_v1 : Ref sig .tc := ⟨.hbm, 684, rfl⟩
abbrev main_call21_cst_0 : Ref sig .tc := ⟨.hbm, 685, rfl⟩
abbrev main_call21_v2 : Ref sig .tc := ⟨.hbm, 686, rfl⟩
abbrev main_call21_v3 : Ref sig .tc := ⟨.hbm, 687, rfl⟩
abbrev main_call21_cst_1 : Ref sig .tc := ⟨.hbm, 688, rfl⟩
abbrev main_call21_call0_v0 : Ref sig .tc := ⟨.hbm, 689, rfl⟩
abbrev main_call21_call0_v1 : Ref sig .tc := ⟨.hbm, 690, rfl⟩
abbrev main_call21_v4 : Ref sig .tc := ⟨.hbm, 691, rfl⟩
abbrev main_call21_v5 : Ref sig .tc := ⟨.hbm, 692, rfl⟩
abbrev main_call21_cst_2 : Ref sig .tc := ⟨.hbm, 693, rfl⟩
abbrev main_call21_v6 : Ref sig .tc := ⟨.hbm, 694, rfl⟩
abbrev main_call21_v7 : Ref sig .tc := ⟨.hbm, 695, rfl⟩
abbrev main_v366 : Ref sig .tc := ⟨.hbm, 696, rfl⟩
abbrev main_v367 : Ref sig .tc := ⟨.hbm, 697, rfl⟩
abbrev main_cst_26 : Ref sig .tc := ⟨.hbm, 698, rfl⟩
abbrev main_v368 : Ref sig .tc := ⟨.hbm, 699, rfl⟩
abbrev main_v369 : Ref sig .tc := ⟨.hbm, 700, rfl⟩
abbrev main_v370 : Ref sig .tc := ⟨.hbm, 701, rfl⟩
abbrev main_v371 : Ref sig .tc := ⟨.hbm, 702, rfl⟩
abbrev main_v372 : Ref sig .tc := ⟨.hbm, 703, rfl⟩
abbrev main_v373 : Ref sig .tc := ⟨.hbm, 704, rfl⟩
abbrev main_v374 : Ref sig .tc := ⟨.hbm, 705, rfl⟩
abbrev main_v375 : Ref sig .tc := ⟨.hbm, 706, rfl⟩
abbrev main_v376 : Ref sig .tc := ⟨.hbm, 707, rfl⟩
abbrev main_v377 : Ref sig .tc := ⟨.hbm, 708, rfl⟩
abbrev main_v378 : Ref sig .tc := ⟨.hbm, 709, rfl⟩
abbrev main_v379 : Ref sig .tc := ⟨.hbm, 710, rfl⟩
abbrev main_v380 : Ref sig .tc := ⟨.hbm, 711, rfl⟩
abbrev main_v381 : Ref sig .tc := ⟨.hbm, 712, rfl⟩
abbrev main_v382 : Ref sig .tc := ⟨.hbm, 713, rfl⟩
abbrev main_v383 : Ref sig .tc := ⟨.hbm, 714, rfl⟩
abbrev main_v384 : Ref sig .tc := ⟨.hbm, 715, rfl⟩
abbrev main_cst_27 : Ref sig .tc := ⟨.hbm, 716, rfl⟩
abbrev main_v385 : Ref sig .tc := ⟨.hbm, 717, rfl⟩
abbrev main_cst_28 : Ref sig .tc := ⟨.hbm, 718, rfl⟩
abbrev main_v386 : Ref sig .tc := ⟨.hbm, 719, rfl⟩
abbrev main_v387 : Ref sig .tc := ⟨.hbm, 720, rfl⟩
abbrev main_c_29 : Ref sig .tc := ⟨.hbm, 721, rfl⟩
abbrev main_call22_cst : Ref sig .tc := ⟨.hbm, 722, rfl⟩
abbrev main_call22_v0 : Ref sig .tc := ⟨.hbm, 723, rfl⟩
abbrev main_call22_v1 : Ref sig .tc := ⟨.hbm, 724, rfl⟩
abbrev main_call22_cst_0 : Ref sig .tc := ⟨.hbm, 725, rfl⟩
abbrev main_call22_v2 : Ref sig .tc := ⟨.hbm, 726, rfl⟩
abbrev main_call22_v3 : Ref sig .tc := ⟨.hbm, 727, rfl⟩
abbrev main_call22_v4 : Ref sig .tc := ⟨.hbm, 728, rfl⟩
abbrev main_call22_v5 : Ref sig .tc := ⟨.hbm, 729, rfl⟩
abbrev main_call22_v6 : Ref sig .tc := ⟨.hbm, 730, rfl⟩
abbrev main_call22_v7 : Ref sig .tc := ⟨.hbm, 731, rfl⟩
abbrev main_call22_cst_1 : Ref sig .tc := ⟨.hbm, 732, rfl⟩
abbrev main_call22_v8 : Ref sig .tc := ⟨.hbm, 733, rfl⟩
abbrev main_call22_cst_2 : Ref sig .tc := ⟨.hbm, 734, rfl⟩
abbrev main_call22_v9 : Ref sig .tc := ⟨.hbm, 735, rfl⟩
abbrev main_call22_v10 : Ref sig .tc := ⟨.hbm, 736, rfl⟩
abbrev main_call22_v11 : Ref sig .tc := ⟨.hbm, 737, rfl⟩
abbrev main_call22_cst_3 : Ref sig .tc := ⟨.hbm, 738, rfl⟩
abbrev main_call22_v12 : Ref sig .tc := ⟨.hbm, 739, rfl⟩
abbrev main_call22_cst_4 : Ref sig .tc := ⟨.hbm, 740, rfl⟩
abbrev main_call22_call0_v0 : Ref sig .tc := ⟨.hbm, 741, rfl⟩
abbrev main_call22_call0_v1 : Ref sig .tc := ⟨.hbm, 742, rfl⟩
abbrev main_v388 : Ref sig .tc := ⟨.hbm, 743, rfl⟩
abbrev main_v389 : Ref sig .tc := ⟨.hbm, 744, rfl⟩
abbrev main_v390 : Ref sig .tc := ⟨.hbm, 745, rfl⟩
abbrev main_v391 : Ref sig .tc := ⟨.hbm, 746, rfl⟩
abbrev main_cst_30 : Ref sig .tc := ⟨.hbm, 747, rfl⟩
abbrev main_v392 : Ref sig .tc := ⟨.hbm, 748, rfl⟩
abbrev main_v393 : Ref sig .tc := ⟨.hbm, 749, rfl⟩
abbrev main_v394 : Ref sig .tc := ⟨.hbm, 750, rfl⟩
abbrev main_v395 : Ref sig .tc := ⟨.hbm, 751, rfl⟩
abbrev main_v396 : Ref sig .tc := ⟨.hbm, 752, rfl⟩
abbrev main_v397 : Ref sig .tc := ⟨.hbm, 753, rfl⟩
abbrev main_v398 : Ref sig .tc := ⟨.hbm, 754, rfl⟩
abbrev main_v399 : Ref sig .tc := ⟨.hbm, 755, rfl⟩
abbrev main_v400 : Ref sig .tc := ⟨.hbm, 756, rfl⟩
abbrev main_v401 : Ref sig .tc := ⟨.hbm, 757, rfl⟩
abbrev main_v402 : Ref sig .tc := ⟨.hbm, 758, rfl⟩
abbrev main_v403 : Ref sig .tc := ⟨.hbm, 759, rfl⟩
abbrev main_v404 : Ref sig .tc := ⟨.hbm, 760, rfl⟩
abbrev main_v405 : Ref sig .tc := ⟨.hbm, 761, rfl⟩
abbrev main_v406 : Ref sig .tc := ⟨.hbm, 762, rfl⟩
abbrev main_v407 : Ref sig .tc := ⟨.hbm, 763, rfl⟩
abbrev main_call23_cst : Ref sig .tc := ⟨.hbm, 764, rfl⟩
abbrev main_call23_v0 : Ref sig .tc := ⟨.hbm, 765, rfl⟩
abbrev main_v408 : Ref sig .tc := ⟨.hbm, 766, rfl⟩
abbrev main_v409 : Ref sig .tc := ⟨.hbm, 767, rfl⟩
abbrev main_v410 : Ref sig .tc := ⟨.hbm, 768, rfl⟩
abbrev main_v411 : Ref sig .tc := ⟨.hbm, 769, rfl⟩
abbrev main_v412 : Ref sig .tc := ⟨.hbm, 770, rfl⟩
abbrev main_v413 : Ref sig .tc := ⟨.hbm, 771, rfl⟩
abbrev main_v414 : Ref sig .tc := ⟨.hbm, 772, rfl⟩
abbrev main_v415 : Ref sig .tc := ⟨.hbm, 773, rfl⟩
abbrev main_v416 : Ref sig .tc := ⟨.hbm, 774, rfl⟩
abbrev main_v417 : Ref sig .tc := ⟨.hbm, 775, rfl⟩
abbrev main_cst_31 : Ref sig .tc := ⟨.hbm, 776, rfl⟩
abbrev main_v418 : Ref sig .tc := ⟨.hbm, 777, rfl⟩
abbrev main_v419 : Ref sig .tc := ⟨.hbm, 778, rfl⟩
abbrev main_cst_32 : Ref sig .tc := ⟨.hbm, 779, rfl⟩
abbrev main_v420 : Ref sig .tc := ⟨.hbm, 780, rfl⟩
abbrev main_v421 : Ref sig .tc := ⟨.hbm, 781, rfl⟩
abbrev main_v422 : Ref sig .tc := ⟨.hbm, 782, rfl⟩
abbrev main_v423 : Ref sig .tc := ⟨.hbm, 783, rfl⟩
abbrev main_v424 : Ref sig .tc := ⟨.hbm, 784, rfl⟩
abbrev main_v425 : Ref sig .tc := ⟨.hbm, 785, rfl⟩
abbrev main_v426 : Ref sig .tc := ⟨.hbm, 786, rfl⟩
abbrev main_v427 : Ref sig .tc := ⟨.hbm, 787, rfl⟩
abbrev main_v428 : Ref sig .tc := ⟨.hbm, 788, rfl⟩
abbrev main_call24_cst : Ref sig .tc := ⟨.hbm, 789, rfl⟩
abbrev main_call24_v0 : Ref sig .tc := ⟨.hbm, 790, rfl⟩
abbrev main_call24_v1 : Ref sig .tc := ⟨.hbm, 791, rfl⟩
abbrev main_call24_cst_0 : Ref sig .tc := ⟨.hbm, 792, rfl⟩
abbrev main_call24_v2 : Ref sig .tc := ⟨.hbm, 793, rfl⟩
abbrev main_call24_v3 : Ref sig .tc := ⟨.hbm, 794, rfl⟩
abbrev main_call24_cst_1 : Ref sig .tc := ⟨.hbm, 795, rfl⟩
abbrev main_call24_call0_v0 : Ref sig .tc := ⟨.hbm, 796, rfl⟩
abbrev main_call24_call0_v1 : Ref sig .tc := ⟨.hbm, 797, rfl⟩
abbrev main_call24_v4 : Ref sig .tc := ⟨.hbm, 798, rfl⟩
abbrev main_call24_v5 : Ref sig .tc := ⟨.hbm, 799, rfl⟩
abbrev main_call24_cst_2 : Ref sig .tc := ⟨.hbm, 800, rfl⟩
abbrev main_call24_v6 : Ref sig .tc := ⟨.hbm, 801, rfl⟩
abbrev main_call24_v7 : Ref sig .tc := ⟨.hbm, 802, rfl⟩
abbrev main_v429 : Ref sig .tc := ⟨.hbm, 803, rfl⟩
abbrev main_v430 : Ref sig .tc := ⟨.hbm, 804, rfl⟩
abbrev main_v431 : Ref sig .tc := ⟨.hbm, 805, rfl⟩
abbrev main_v432 : Ref sig .tc := ⟨.hbm, 806, rfl⟩
abbrev main_v433 : Ref sig .tc := ⟨.hbm, 807, rfl⟩
abbrev main_v434 : Ref sig .tc := ⟨.hbm, 808, rfl⟩
abbrev main_v435 : Ref sig .tc := ⟨.hbm, 809, rfl⟩
abbrev main_v436 : Ref sig .tc := ⟨.hbm, 810, rfl⟩
abbrev main_v437 : Ref sig .tc := ⟨.hbm, 811, rfl⟩
abbrev main_call25_cst : Ref sig .tc := ⟨.hbm, 812, rfl⟩
abbrev main_call25_v0 : Ref sig .tc := ⟨.hbm, 813, rfl⟩
abbrev main_call25_v1 : Ref sig .tc := ⟨.hbm, 814, rfl⟩
abbrev main_call25_cst_0 : Ref sig .tc := ⟨.hbm, 815, rfl⟩
abbrev main_call25_v2 : Ref sig .tc := ⟨.hbm, 816, rfl⟩
abbrev main_call25_v3 : Ref sig .tc := ⟨.hbm, 817, rfl⟩
abbrev main_call25_cst_1 : Ref sig .tc := ⟨.hbm, 818, rfl⟩
abbrev main_call25_call0_v0 : Ref sig .tc := ⟨.hbm, 819, rfl⟩
abbrev main_call25_call0_v1 : Ref sig .tc := ⟨.hbm, 820, rfl⟩
abbrev main_call25_v4 : Ref sig .tc := ⟨.hbm, 821, rfl⟩
abbrev main_call25_v5 : Ref sig .tc := ⟨.hbm, 822, rfl⟩
abbrev main_call25_cst_2 : Ref sig .tc := ⟨.hbm, 823, rfl⟩
abbrev main_call25_v6 : Ref sig .tc := ⟨.hbm, 824, rfl⟩
abbrev main_call25_v7 : Ref sig .tc := ⟨.hbm, 825, rfl⟩
abbrev main_v438 : Ref sig .tc := ⟨.hbm, 826, rfl⟩
abbrev main_v439 : Ref sig .tc := ⟨.hbm, 827, rfl⟩
abbrev main_cst_33 : Ref sig .tc := ⟨.hbm, 828, rfl⟩
abbrev main_v440 : Ref sig .tc := ⟨.hbm, 829, rfl⟩
abbrev main_v441 : Ref sig .tc := ⟨.hbm, 830, rfl⟩
abbrev main_v442 : Ref sig .tc := ⟨.hbm, 831, rfl⟩
abbrev main_v443 : Ref sig .tc := ⟨.hbm, 832, rfl⟩
abbrev main_v444 : Ref sig .tc := ⟨.hbm, 833, rfl⟩
abbrev main_v445 : Ref sig .tc := ⟨.hbm, 834, rfl⟩
abbrev main_v446 : Ref sig .tc := ⟨.hbm, 835, rfl⟩
abbrev main_v447 : Ref sig .tc := ⟨.hbm, 836, rfl⟩
abbrev main_v448 : Ref sig .tc := ⟨.hbm, 837, rfl⟩
abbrev main_v449 : Ref sig .tc := ⟨.hbm, 838, rfl⟩
abbrev main_v450 : Ref sig .tc := ⟨.hbm, 839, rfl⟩
abbrev main_v451 : Ref sig .tc := ⟨.hbm, 840, rfl⟩
abbrev main_v452 : Ref sig .tc := ⟨.hbm, 841, rfl⟩
abbrev main_v453 : Ref sig .tc := ⟨.hbm, 842, rfl⟩
abbrev main_v454 : Ref sig .tc := ⟨.hbm, 843, rfl⟩
abbrev main_v455 : Ref sig .tc := ⟨.hbm, 844, rfl⟩
abbrev main_v456 : Ref sig .tc := ⟨.hbm, 845, rfl⟩
abbrev main_cst_34 : Ref sig .tc := ⟨.hbm, 846, rfl⟩
abbrev main_v457 : Ref sig .tc := ⟨.hbm, 847, rfl⟩
abbrev main_cst_35 : Ref sig .tc := ⟨.hbm, 848, rfl⟩
abbrev main_v458 : Ref sig .tc := ⟨.hbm, 849, rfl⟩
abbrev main_v459 : Ref sig .tc := ⟨.hbm, 850, rfl⟩
abbrev main_c_36 : Ref sig .tc := ⟨.hbm, 851, rfl⟩
abbrev main_call26_cst : Ref sig .tc := ⟨.hbm, 852, rfl⟩
abbrev main_call26_v0 : Ref sig .tc := ⟨.hbm, 853, rfl⟩
abbrev main_call26_v1 : Ref sig .tc := ⟨.hbm, 854, rfl⟩
abbrev main_call26_cst_0 : Ref sig .tc := ⟨.hbm, 855, rfl⟩
abbrev main_call26_v2 : Ref sig .tc := ⟨.hbm, 856, rfl⟩
abbrev main_call26_v3 : Ref sig .tc := ⟨.hbm, 857, rfl⟩
abbrev main_call26_v4 : Ref sig .tc := ⟨.hbm, 858, rfl⟩
abbrev main_call26_v5 : Ref sig .tc := ⟨.hbm, 859, rfl⟩
abbrev main_call26_v6 : Ref sig .tc := ⟨.hbm, 860, rfl⟩
abbrev main_call26_v7 : Ref sig .tc := ⟨.hbm, 861, rfl⟩
abbrev main_call26_cst_1 : Ref sig .tc := ⟨.hbm, 862, rfl⟩
abbrev main_call26_v8 : Ref sig .tc := ⟨.hbm, 863, rfl⟩
abbrev main_call26_cst_2 : Ref sig .tc := ⟨.hbm, 864, rfl⟩
abbrev main_call26_v9 : Ref sig .tc := ⟨.hbm, 865, rfl⟩
abbrev main_call26_v10 : Ref sig .tc := ⟨.hbm, 866, rfl⟩
abbrev main_call26_v11 : Ref sig .tc := ⟨.hbm, 867, rfl⟩
abbrev main_call26_cst_3 : Ref sig .tc := ⟨.hbm, 868, rfl⟩
abbrev main_call26_v12 : Ref sig .tc := ⟨.hbm, 869, rfl⟩
abbrev main_call26_cst_4 : Ref sig .tc := ⟨.hbm, 870, rfl⟩
abbrev main_call26_call0_v0 : Ref sig .tc := ⟨.hbm, 871, rfl⟩
abbrev main_call26_call0_v1 : Ref sig .tc := ⟨.hbm, 872, rfl⟩
abbrev main_v460 : Ref sig .tc := ⟨.hbm, 873, rfl⟩
abbrev main_v461 : Ref sig .tc := ⟨.hbm, 874, rfl⟩
abbrev main_v462 : Ref sig .tc := ⟨.hbm, 875, rfl⟩
abbrev main_v463 : Ref sig .tc := ⟨.hbm, 876, rfl⟩
abbrev main_cst_37 : Ref sig .tc := ⟨.hbm, 877, rfl⟩
abbrev main_v464 : Ref sig .tc := ⟨.hbm, 878, rfl⟩
abbrev main_v465 : Ref sig .tc := ⟨.hbm, 879, rfl⟩
abbrev main_v466 : Ref sig .tc := ⟨.hbm, 880, rfl⟩
abbrev main_v467 : Ref sig .tc := ⟨.hbm, 881, rfl⟩
abbrev main_v468 : Ref sig .tc := ⟨.hbm, 882, rfl⟩
abbrev main_v469 : Ref sig .tc := ⟨.hbm, 883, rfl⟩
abbrev main_v470 : Ref sig .tc := ⟨.hbm, 884, rfl⟩
abbrev main_v471 : Ref sig .tc := ⟨.hbm, 885, rfl⟩
abbrev main_v472 : Ref sig .tc := ⟨.hbm, 886, rfl⟩
abbrev main_v473 : Ref sig .tc := ⟨.hbm, 887, rfl⟩
abbrev main_v474 : Ref sig .tc := ⟨.hbm, 888, rfl⟩
abbrev main_v475 : Ref sig .tc := ⟨.hbm, 889, rfl⟩
abbrev main_v476 : Ref sig .tc := ⟨.hbm, 890, rfl⟩
abbrev main_v477 : Ref sig .tc := ⟨.hbm, 891, rfl⟩
abbrev main_v478 : Ref sig .tc := ⟨.hbm, 892, rfl⟩
abbrev main_v479 : Ref sig .tc := ⟨.hbm, 893, rfl⟩
abbrev main_call27_cst : Ref sig .tc := ⟨.hbm, 894, rfl⟩
abbrev main_call27_v0 : Ref sig .tc := ⟨.hbm, 895, rfl⟩
abbrev main_v480 : Ref sig .tc := ⟨.hbm, 896, rfl⟩
abbrev main_v481 : Ref sig .tc := ⟨.hbm, 897, rfl⟩
abbrev main_v482 : Ref sig .tc := ⟨.hbm, 898, rfl⟩
abbrev main_v483 : Ref sig .tc := ⟨.hbm, 899, rfl⟩
abbrev main_v484 : Ref sig .tc := ⟨.hbm, 900, rfl⟩
abbrev main_v485 : Ref sig .tc := ⟨.hbm, 901, rfl⟩
abbrev main_v486 : Ref sig .tc := ⟨.hbm, 902, rfl⟩
abbrev main_v487 : Ref sig .tc := ⟨.hbm, 903, rfl⟩
abbrev main_v488 : Ref sig .tc := ⟨.hbm, 904, rfl⟩
abbrev main_v489 : Ref sig .tc := ⟨.hbm, 905, rfl⟩
abbrev main_v490 : Ref sig .tc := ⟨.hbm, 906, rfl⟩
abbrev main_v491 : Ref sig .tc := ⟨.hbm, 907, rfl⟩
abbrev main_v492 : Ref sig .tc := ⟨.hbm, 908, rfl⟩
abbrev main_v493 : Ref sig .tc := ⟨.hbm, 909, rfl⟩
abbrev main_v494 : Ref sig .tc := ⟨.hbm, 910, rfl⟩
abbrev main_v495 : Ref sig .tc := ⟨.hbm, 911, rfl⟩
abbrev main_v496 : Ref sig .tc := ⟨.hbm, 912, rfl⟩
abbrev main_v497 : Ref sig .tc := ⟨.hbm, 913, rfl⟩
abbrev main_call28_cst : Ref sig .tc := ⟨.hbm, 914, rfl⟩
abbrev main_call28_v0 : Ref sig .tc := ⟨.hbm, 915, rfl⟩
abbrev main_call28_v1 : Ref sig .tc := ⟨.hbm, 916, rfl⟩
abbrev main_call28_cst_0 : Ref sig .tc := ⟨.hbm, 917, rfl⟩
abbrev main_call28_v2 : Ref sig .tc := ⟨.hbm, 918, rfl⟩
abbrev main_call28_v3 : Ref sig .tc := ⟨.hbm, 919, rfl⟩
abbrev main_call28_cst_1 : Ref sig .tc := ⟨.hbm, 920, rfl⟩
abbrev main_call28_call0_v0 : Ref sig .tc := ⟨.hbm, 921, rfl⟩
abbrev main_call28_call0_v1 : Ref sig .tc := ⟨.hbm, 922, rfl⟩
abbrev main_call28_v4 : Ref sig .tc := ⟨.hbm, 923, rfl⟩
abbrev main_call28_v5 : Ref sig .tc := ⟨.hbm, 924, rfl⟩
abbrev main_call28_cst_2 : Ref sig .tc := ⟨.hbm, 925, rfl⟩
abbrev main_call28_v6 : Ref sig .tc := ⟨.hbm, 926, rfl⟩
abbrev main_call28_v7 : Ref sig .tc := ⟨.hbm, 927, rfl⟩
abbrev main_v498 : Ref sig .tc := ⟨.hbm, 928, rfl⟩
abbrev main_v499 : Ref sig .tc := ⟨.hbm, 929, rfl⟩
abbrev main_v500 : Ref sig .tc := ⟨.hbm, 930, rfl⟩
abbrev main_v501 : Ref sig .tc := ⟨.hbm, 931, rfl⟩
abbrev main_v502 : Ref sig .tc := ⟨.hbm, 932, rfl⟩
abbrev main_v503 : Ref sig .tc := ⟨.hbm, 933, rfl⟩
abbrev main_v504 : Ref sig .tc := ⟨.hbm, 934, rfl⟩
abbrev main_v505 : Ref sig .tc := ⟨.hbm, 935, rfl⟩
abbrev main_v506 : Ref sig .tc := ⟨.hbm, 936, rfl⟩
abbrev main_call29_cst : Ref sig .tc := ⟨.hbm, 937, rfl⟩
abbrev main_call29_v0 : Ref sig .tc := ⟨.hbm, 938, rfl⟩
abbrev main_call29_v1 : Ref sig .tc := ⟨.hbm, 939, rfl⟩
abbrev main_call29_cst_0 : Ref sig .tc := ⟨.hbm, 940, rfl⟩
abbrev main_call29_v2 : Ref sig .tc := ⟨.hbm, 941, rfl⟩
abbrev main_call29_v3 : Ref sig .tc := ⟨.hbm, 942, rfl⟩
abbrev main_call29_cst_1 : Ref sig .tc := ⟨.hbm, 943, rfl⟩
abbrev main_call29_call0_v0 : Ref sig .tc := ⟨.hbm, 944, rfl⟩
abbrev main_call29_call0_v1 : Ref sig .tc := ⟨.hbm, 945, rfl⟩
abbrev main_call29_v4 : Ref sig .tc := ⟨.hbm, 946, rfl⟩
abbrev main_call29_v5 : Ref sig .tc := ⟨.hbm, 947, rfl⟩
abbrev main_call29_cst_2 : Ref sig .tc := ⟨.hbm, 948, rfl⟩
abbrev main_call29_v6 : Ref sig .tc := ⟨.hbm, 949, rfl⟩
abbrev main_call29_v7 : Ref sig .tc := ⟨.hbm, 950, rfl⟩
abbrev main_v507 : Ref sig .tc := ⟨.hbm, 951, rfl⟩
abbrev main_v508 : Ref sig .tc := ⟨.hbm, 952, rfl⟩
abbrev main_cst_38 : Ref sig .tc := ⟨.hbm, 953, rfl⟩
abbrev main_v509 : Ref sig .tc := ⟨.hbm, 954, rfl⟩
abbrev main_v510 : Ref sig .tc := ⟨.hbm, 955, rfl⟩
abbrev main_v511 : Ref sig .tc := ⟨.hbm, 956, rfl⟩
abbrev main_v512 : Ref sig .tc := ⟨.hbm, 957, rfl⟩
abbrev main_v513 : Ref sig .tc := ⟨.hbm, 958, rfl⟩
abbrev main_v514 : Ref sig .tc := ⟨.hbm, 959, rfl⟩
abbrev main_v515 : Ref sig .tc := ⟨.hbm, 960, rfl⟩
abbrev main_v516 : Ref sig .tc := ⟨.hbm, 961, rfl⟩
abbrev main_v517 : Ref sig .tc := ⟨.hbm, 962, rfl⟩
abbrev main_v518 : Ref sig .tc := ⟨.hbm, 963, rfl⟩
abbrev main_v519 : Ref sig .tc := ⟨.hbm, 964, rfl⟩
abbrev main_v520 : Ref sig .tc := ⟨.hbm, 965, rfl⟩
abbrev main_v521 : Ref sig .tc := ⟨.hbm, 966, rfl⟩
abbrev main_v522 : Ref sig .tc := ⟨.hbm, 967, rfl⟩
abbrev main_v523 : Ref sig .tc := ⟨.hbm, 968, rfl⟩
abbrev main_v524 : Ref sig .tc := ⟨.hbm, 969, rfl⟩
abbrev main_v525 : Ref sig .tc := ⟨.hbm, 970, rfl⟩
abbrev main_cst_39 : Ref sig .tc := ⟨.hbm, 971, rfl⟩
abbrev main_v526 : Ref sig .tc := ⟨.hbm, 972, rfl⟩
abbrev main_cst_40 : Ref sig .tc := ⟨.hbm, 973, rfl⟩
abbrev main_v527 : Ref sig .tc := ⟨.hbm, 974, rfl⟩
abbrev main_v528 : Ref sig .tc := ⟨.hbm, 975, rfl⟩
abbrev main_c_41 : Ref sig .tc := ⟨.hbm, 976, rfl⟩
abbrev main_call30_cst : Ref sig .tc := ⟨.hbm, 977, rfl⟩
abbrev main_call30_v0 : Ref sig .tc := ⟨.hbm, 978, rfl⟩
abbrev main_call30_v1 : Ref sig .tc := ⟨.hbm, 979, rfl⟩
abbrev main_call30_cst_0 : Ref sig .tc := ⟨.hbm, 980, rfl⟩
abbrev main_call30_v2 : Ref sig .tc := ⟨.hbm, 981, rfl⟩
abbrev main_call30_v3 : Ref sig .tc := ⟨.hbm, 982, rfl⟩
abbrev main_call30_v4 : Ref sig .tc := ⟨.hbm, 983, rfl⟩
abbrev main_call30_v5 : Ref sig .tc := ⟨.hbm, 984, rfl⟩
abbrev main_call30_v6 : Ref sig .tc := ⟨.hbm, 985, rfl⟩
abbrev main_call30_v7 : Ref sig .tc := ⟨.hbm, 986, rfl⟩
abbrev main_call30_cst_1 : Ref sig .tc := ⟨.hbm, 987, rfl⟩
abbrev main_call30_v8 : Ref sig .tc := ⟨.hbm, 988, rfl⟩
abbrev main_call30_cst_2 : Ref sig .tc := ⟨.hbm, 989, rfl⟩
abbrev main_call30_v9 : Ref sig .tc := ⟨.hbm, 990, rfl⟩
abbrev main_call30_v10 : Ref sig .tc := ⟨.hbm, 991, rfl⟩
abbrev main_call30_v11 : Ref sig .tc := ⟨.hbm, 992, rfl⟩
abbrev main_call30_cst_3 : Ref sig .tc := ⟨.hbm, 993, rfl⟩
abbrev main_call30_v12 : Ref sig .tc := ⟨.hbm, 994, rfl⟩
abbrev main_call30_cst_4 : Ref sig .tc := ⟨.hbm, 995, rfl⟩
abbrev main_call30_call0_v0 : Ref sig .tc := ⟨.hbm, 996, rfl⟩
abbrev main_call30_call0_v1 : Ref sig .tc := ⟨.hbm, 997, rfl⟩
abbrev main_v529 : Ref sig .tc := ⟨.hbm, 998, rfl⟩
abbrev main_v530 : Ref sig .tc := ⟨.hbm, 999, rfl⟩
abbrev main_v531 : Ref sig .tc := ⟨.hbm, 1000, rfl⟩
abbrev main_v532 : Ref sig .tc := ⟨.hbm, 1001, rfl⟩
abbrev main_cst_42 : Ref sig .tc := ⟨.hbm, 1002, rfl⟩
abbrev main_v533 : Ref sig .tc := ⟨.hbm, 1003, rfl⟩
abbrev main_v534 : Ref sig .tc := ⟨.hbm, 1004, rfl⟩
abbrev main_v535 : Ref sig .tc := ⟨.hbm, 1005, rfl⟩
abbrev main_v536 : Ref sig .tc := ⟨.hbm, 1006, rfl⟩
abbrev main_v537 : Ref sig .tc := ⟨.hbm, 1007, rfl⟩
abbrev main_v538 : Ref sig .tc := ⟨.hbm, 1008, rfl⟩
abbrev main_v539 : Ref sig .tc := ⟨.hbm, 1009, rfl⟩
abbrev main_v540 : Ref sig .tc := ⟨.hbm, 1010, rfl⟩
abbrev main_v541 : Ref sig .tc := ⟨.hbm, 1011, rfl⟩
abbrev main_v542 : Ref sig .tc := ⟨.hbm, 1012, rfl⟩
abbrev main_v543 : Ref sig .tc := ⟨.hbm, 1013, rfl⟩
abbrev main_v544 : Ref sig .tc := ⟨.hbm, 1014, rfl⟩
abbrev main_v545 : Ref sig .tc := ⟨.hbm, 1015, rfl⟩
abbrev main_v546 : Ref sig .tc := ⟨.hbm, 1016, rfl⟩
abbrev main_v547 : Ref sig .tc := ⟨.hbm, 1017, rfl⟩
abbrev main_v548 : Ref sig .tc := ⟨.hbm, 1018, rfl⟩
abbrev main_call31_cst : Ref sig .tc := ⟨.hbm, 1019, rfl⟩
abbrev main_call31_v0 : Ref sig .tc := ⟨.hbm, 1020, rfl⟩
abbrev main_v549 : Ref sig .tc := ⟨.hbm, 1021, rfl⟩
abbrev main_v550 : Ref sig .tc := ⟨.hbm, 1022, rfl⟩
abbrev main_v551 : Ref sig .tc := ⟨.hbm, 1023, rfl⟩
abbrev main_v552 : Ref sig .tc := ⟨.hbm, 1024, rfl⟩
abbrev main_v553 : Ref sig .tc := ⟨.hbm, 1025, rfl⟩
abbrev main_v554 : Ref sig .tc := ⟨.hbm, 1026, rfl⟩
abbrev main_v555 : Ref sig .tc := ⟨.hbm, 1027, rfl⟩
abbrev main_v556 : Ref sig .tc := ⟨.hbm, 1028, rfl⟩
abbrev main_v557 : Ref sig .tc := ⟨.hbm, 1029, rfl⟩
abbrev main_v558 : Ref sig .tc := ⟨.hbm, 1030, rfl⟩
abbrev main_v559 : Ref sig .tc := ⟨.hbm, 1031, rfl⟩
abbrev main_v560 : Ref sig .tc := ⟨.hbm, 1032, rfl⟩
abbrev main_v561 : Ref sig .tc := ⟨.hbm, 1033, rfl⟩
abbrev main_v562 : Ref sig .tc := ⟨.hbm, 1034, rfl⟩
abbrev main_v563 : Ref sig .tc := ⟨.hbm, 1035, rfl⟩
abbrev main_v564 : Ref sig .tc := ⟨.hbm, 1036, rfl⟩
abbrev main_v565 : Ref sig .tc := ⟨.hbm, 1037, rfl⟩
abbrev main_v566 : Ref sig .tc := ⟨.hbm, 1038, rfl⟩
abbrev main_call32_cst : Ref sig .tc := ⟨.hbm, 1039, rfl⟩
abbrev main_call32_v0 : Ref sig .tc := ⟨.hbm, 1040, rfl⟩
abbrev main_call32_v1 : Ref sig .tc := ⟨.hbm, 1041, rfl⟩
abbrev main_call32_cst_0 : Ref sig .tc := ⟨.hbm, 1042, rfl⟩
abbrev main_call32_v2 : Ref sig .tc := ⟨.hbm, 1043, rfl⟩
abbrev main_call32_v3 : Ref sig .tc := ⟨.hbm, 1044, rfl⟩
abbrev main_call32_cst_1 : Ref sig .tc := ⟨.hbm, 1045, rfl⟩
abbrev main_call32_call0_v0 : Ref sig .tc := ⟨.hbm, 1046, rfl⟩
abbrev main_call32_call0_v1 : Ref sig .tc := ⟨.hbm, 1047, rfl⟩
abbrev main_call32_v4 : Ref sig .tc := ⟨.hbm, 1048, rfl⟩
abbrev main_call32_v5 : Ref sig .tc := ⟨.hbm, 1049, rfl⟩
abbrev main_call32_cst_2 : Ref sig .tc := ⟨.hbm, 1050, rfl⟩
abbrev main_call32_v6 : Ref sig .tc := ⟨.hbm, 1051, rfl⟩
abbrev main_call32_v7 : Ref sig .tc := ⟨.hbm, 1052, rfl⟩
abbrev main_v567 : Ref sig .tc := ⟨.hbm, 1053, rfl⟩
abbrev main_v568 : Ref sig .tc := ⟨.hbm, 1054, rfl⟩
abbrev main_v569 : Ref sig .tc := ⟨.hbm, 1055, rfl⟩
abbrev main_v570 : Ref sig .tc := ⟨.hbm, 1056, rfl⟩
abbrev main_v571 : Ref sig .tc := ⟨.hbm, 1057, rfl⟩
abbrev main_v572 : Ref sig .tc := ⟨.hbm, 1058, rfl⟩
abbrev main_v573 : Ref sig .tc := ⟨.hbm, 1059, rfl⟩
abbrev main_v574 : Ref sig .tc := ⟨.hbm, 1060, rfl⟩
abbrev main_v575 : Ref sig .tc := ⟨.hbm, 1061, rfl⟩
abbrev main_call33_cst : Ref sig .tc := ⟨.hbm, 1062, rfl⟩
abbrev main_call33_v0 : Ref sig .tc := ⟨.hbm, 1063, rfl⟩
abbrev main_call33_v1 : Ref sig .tc := ⟨.hbm, 1064, rfl⟩
abbrev main_call33_cst_0 : Ref sig .tc := ⟨.hbm, 1065, rfl⟩
abbrev main_call33_v2 : Ref sig .tc := ⟨.hbm, 1066, rfl⟩
abbrev main_call33_v3 : Ref sig .tc := ⟨.hbm, 1067, rfl⟩
abbrev main_call33_cst_1 : Ref sig .tc := ⟨.hbm, 1068, rfl⟩
abbrev main_call33_call0_v0 : Ref sig .tc := ⟨.hbm, 1069, rfl⟩
abbrev main_call33_call0_v1 : Ref sig .tc := ⟨.hbm, 1070, rfl⟩
abbrev main_call33_v4 : Ref sig .tc := ⟨.hbm, 1071, rfl⟩
abbrev main_call33_v5 : Ref sig .tc := ⟨.hbm, 1072, rfl⟩
abbrev main_call33_cst_2 : Ref sig .tc := ⟨.hbm, 1073, rfl⟩
abbrev main_call33_v6 : Ref sig .tc := ⟨.hbm, 1074, rfl⟩
abbrev main_call33_v7 : Ref sig .tc := ⟨.hbm, 1075, rfl⟩
abbrev main_v576 : Ref sig .tc := ⟨.hbm, 1076, rfl⟩
abbrev main_v577 : Ref sig .tc := ⟨.hbm, 1077, rfl⟩
abbrev main_cst_43 : Ref sig .tc := ⟨.hbm, 1078, rfl⟩
abbrev main_v578 : Ref sig .tc := ⟨.hbm, 1079, rfl⟩
abbrev main_v579 : Ref sig .tc := ⟨.hbm, 1080, rfl⟩
abbrev main_v580 : Ref sig .tc := ⟨.hbm, 1081, rfl⟩
abbrev main_v581 : Ref sig .tc := ⟨.hbm, 1082, rfl⟩
abbrev main_v582 : Ref sig .tc := ⟨.hbm, 1083, rfl⟩
abbrev main_v583 : Ref sig .tc := ⟨.hbm, 1084, rfl⟩
abbrev main_v584 : Ref sig .tc := ⟨.hbm, 1085, rfl⟩
abbrev main_v585 : Ref sig .tc := ⟨.hbm, 1086, rfl⟩
abbrev main_v586 : Ref sig .tc := ⟨.hbm, 1087, rfl⟩
abbrev main_v587 : Ref sig .tc := ⟨.hbm, 1088, rfl⟩
abbrev main_v588 : Ref sig .tc := ⟨.hbm, 1089, rfl⟩
abbrev main_v589 : Ref sig .tc := ⟨.hbm, 1090, rfl⟩
abbrev main_v590 : Ref sig .tc := ⟨.hbm, 1091, rfl⟩
abbrev main_v591 : Ref sig .tc := ⟨.hbm, 1092, rfl⟩
abbrev main_v592 : Ref sig .tc := ⟨.hbm, 1093, rfl⟩
abbrev main_v593 : Ref sig .tc := ⟨.hbm, 1094, rfl⟩
abbrev main_v594 : Ref sig .tc := ⟨.hbm, 1095, rfl⟩
abbrev main_cst_44 : Ref sig .tc := ⟨.hbm, 1096, rfl⟩
abbrev main_v595 : Ref sig .tc := ⟨.hbm, 1097, rfl⟩
abbrev main_cst_45 : Ref sig .tc := ⟨.hbm, 1098, rfl⟩
abbrev main_v596 : Ref sig .tc := ⟨.hbm, 1099, rfl⟩
abbrev main_v597 : Ref sig .tc := ⟨.hbm, 1100, rfl⟩
abbrev main_c_46 : Ref sig .tc := ⟨.hbm, 1101, rfl⟩
abbrev main_call34_cst : Ref sig .tc := ⟨.hbm, 1102, rfl⟩
abbrev main_call34_v0 : Ref sig .tc := ⟨.hbm, 1103, rfl⟩
abbrev main_call34_v1 : Ref sig .tc := ⟨.hbm, 1104, rfl⟩
abbrev main_call34_cst_0 : Ref sig .tc := ⟨.hbm, 1105, rfl⟩
abbrev main_call34_v2 : Ref sig .tc := ⟨.hbm, 1106, rfl⟩
abbrev main_call34_v3 : Ref sig .tc := ⟨.hbm, 1107, rfl⟩
abbrev main_call34_v4 : Ref sig .tc := ⟨.hbm, 1108, rfl⟩
abbrev main_call34_v5 : Ref sig .tc := ⟨.hbm, 1109, rfl⟩
abbrev main_call34_v6 : Ref sig .tc := ⟨.hbm, 1110, rfl⟩
abbrev main_call34_v7 : Ref sig .tc := ⟨.hbm, 1111, rfl⟩
abbrev main_call34_cst_1 : Ref sig .tc := ⟨.hbm, 1112, rfl⟩
abbrev main_call34_v8 : Ref sig .tc := ⟨.hbm, 1113, rfl⟩
abbrev main_call34_cst_2 : Ref sig .tc := ⟨.hbm, 1114, rfl⟩
abbrev main_call34_v9 : Ref sig .tc := ⟨.hbm, 1115, rfl⟩
abbrev main_call34_v10 : Ref sig .tc := ⟨.hbm, 1116, rfl⟩
abbrev main_call34_v11 : Ref sig .tc := ⟨.hbm, 1117, rfl⟩
abbrev main_call34_cst_3 : Ref sig .tc := ⟨.hbm, 1118, rfl⟩
abbrev main_call34_v12 : Ref sig .tc := ⟨.hbm, 1119, rfl⟩
abbrev main_call34_cst_4 : Ref sig .tc := ⟨.hbm, 1120, rfl⟩
abbrev main_call34_call0_v0 : Ref sig .tc := ⟨.hbm, 1121, rfl⟩
abbrev main_call34_call0_v1 : Ref sig .tc := ⟨.hbm, 1122, rfl⟩
abbrev main_v598 : Ref sig .tc := ⟨.hbm, 1123, rfl⟩
abbrev main_v599 : Ref sig .tc := ⟨.hbm, 1124, rfl⟩
abbrev main_v600 : Ref sig .tc := ⟨.hbm, 1125, rfl⟩
abbrev main_v601 : Ref sig .tc := ⟨.hbm, 1126, rfl⟩
abbrev main_cst_47 : Ref sig .tc := ⟨.hbm, 1127, rfl⟩
abbrev main_v602 : Ref sig .tc := ⟨.hbm, 1128, rfl⟩
abbrev main_v603 : Ref sig .tc := ⟨.hbm, 1129, rfl⟩
abbrev main_v604 : Ref sig .tc := ⟨.hbm, 1130, rfl⟩
abbrev main_v605 : Ref sig .tc := ⟨.hbm, 1131, rfl⟩
abbrev main_v606 : Ref sig .tc := ⟨.hbm, 1132, rfl⟩
abbrev main_v607 : Ref sig .tc := ⟨.hbm, 1133, rfl⟩
abbrev main_v608 : Ref sig .tc := ⟨.hbm, 1134, rfl⟩
abbrev main_v609 : Ref sig .tc := ⟨.hbm, 1135, rfl⟩
abbrev main_v610 : Ref sig .tc := ⟨.hbm, 1136, rfl⟩
abbrev main_v611 : Ref sig .tc := ⟨.hbm, 1137, rfl⟩
abbrev main_v612 : Ref sig .tc := ⟨.hbm, 1138, rfl⟩
abbrev main_v613 : Ref sig .tc := ⟨.hbm, 1139, rfl⟩
abbrev main_v614 : Ref sig .tc := ⟨.hbm, 1140, rfl⟩
abbrev main_v615 : Ref sig .tc := ⟨.hbm, 1141, rfl⟩
abbrev main_v616 : Ref sig .tc := ⟨.hbm, 1142, rfl⟩
abbrev main_v617 : Ref sig .tc := ⟨.hbm, 1143, rfl⟩
abbrev main_call35_cst : Ref sig .tc := ⟨.hbm, 1144, rfl⟩
abbrev main_call35_v0 : Ref sig .tc := ⟨.hbm, 1145, rfl⟩
abbrev main_v618 : Ref sig .tc := ⟨.hbm, 1146, rfl⟩
abbrev main_v619 : Ref sig .tc := ⟨.hbm, 1147, rfl⟩
abbrev main_v620 : Ref sig .tc := ⟨.hbm, 1148, rfl⟩
abbrev main_v621 : Ref sig .tc := ⟨.hbm, 1149, rfl⟩
abbrev main_v622 : Ref sig .tc := ⟨.hbm, 1150, rfl⟩
abbrev main_v623 : Ref sig .tc := ⟨.hbm, 1151, rfl⟩
abbrev main_v624 : Ref sig .tc := ⟨.hbm, 1152, rfl⟩
abbrev main_v625 : Ref sig .tc := ⟨.hbm, 1153, rfl⟩
abbrev main_v626 : Ref sig .tc := ⟨.hbm, 1154, rfl⟩
abbrev main_v627 : Ref sig .tc := ⟨.hbm, 1155, rfl⟩
abbrev main_cst_48 : Ref sig .tc := ⟨.hbm, 1156, rfl⟩
abbrev main_v628 : Ref sig .tc := ⟨.hbm, 1157, rfl⟩
abbrev main_v629 : Ref sig .tc := ⟨.hbm, 1158, rfl⟩
abbrev main_cst_49 : Ref sig .tc := ⟨.hbm, 1159, rfl⟩
abbrev main_v630 : Ref sig .tc := ⟨.hbm, 1160, rfl⟩
abbrev main_v631 : Ref sig .tc := ⟨.hbm, 1161, rfl⟩
abbrev main_v632 : Ref sig .tc := ⟨.hbm, 1162, rfl⟩
abbrev main_v633 : Ref sig .tc := ⟨.hbm, 1163, rfl⟩
abbrev main_v634 : Ref sig .tc := ⟨.hbm, 1164, rfl⟩
abbrev main_v635 : Ref sig .tc := ⟨.hbm, 1165, rfl⟩
abbrev main_v636 : Ref sig .tc := ⟨.hbm, 1166, rfl⟩
abbrev main_v637 : Ref sig .tc := ⟨.hbm, 1167, rfl⟩
abbrev main_v638 : Ref sig .tc := ⟨.hbm, 1168, rfl⟩
abbrev main_call36_cst : Ref sig .tc := ⟨.hbm, 1169, rfl⟩
abbrev main_call36_v0 : Ref sig .tc := ⟨.hbm, 1170, rfl⟩
abbrev main_call36_v1 : Ref sig .tc := ⟨.hbm, 1171, rfl⟩
abbrev main_call36_cst_0 : Ref sig .tc := ⟨.hbm, 1172, rfl⟩
abbrev main_call36_v2 : Ref sig .tc := ⟨.hbm, 1173, rfl⟩
abbrev main_call36_v3 : Ref sig .tc := ⟨.hbm, 1174, rfl⟩
abbrev main_call36_cst_1 : Ref sig .tc := ⟨.hbm, 1175, rfl⟩
abbrev main_call36_call0_v0 : Ref sig .tc := ⟨.hbm, 1176, rfl⟩
abbrev main_call36_call0_v1 : Ref sig .tc := ⟨.hbm, 1177, rfl⟩
abbrev main_call36_v4 : Ref sig .tc := ⟨.hbm, 1178, rfl⟩
abbrev main_call36_v5 : Ref sig .tc := ⟨.hbm, 1179, rfl⟩
abbrev main_call36_cst_2 : Ref sig .tc := ⟨.hbm, 1180, rfl⟩
abbrev main_call36_v6 : Ref sig .tc := ⟨.hbm, 1181, rfl⟩
abbrev main_call36_v7 : Ref sig .tc := ⟨.hbm, 1182, rfl⟩
abbrev main_v639 : Ref sig .tc := ⟨.hbm, 1183, rfl⟩
abbrev main_v640 : Ref sig .tc := ⟨.hbm, 1184, rfl⟩
abbrev main_v641 : Ref sig .tc := ⟨.hbm, 1185, rfl⟩
abbrev main_v642 : Ref sig .tc := ⟨.hbm, 1186, rfl⟩
abbrev main_v643 : Ref sig .tc := ⟨.hbm, 1187, rfl⟩
abbrev main_v644 : Ref sig .tc := ⟨.hbm, 1188, rfl⟩
abbrev main_v645 : Ref sig .tc := ⟨.hbm, 1189, rfl⟩
abbrev main_v646 : Ref sig .tc := ⟨.hbm, 1190, rfl⟩
abbrev main_v647 : Ref sig .tc := ⟨.hbm, 1191, rfl⟩
abbrev main_call37_cst : Ref sig .tc := ⟨.hbm, 1192, rfl⟩
abbrev main_call37_v0 : Ref sig .tc := ⟨.hbm, 1193, rfl⟩
abbrev main_call37_v1 : Ref sig .tc := ⟨.hbm, 1194, rfl⟩
abbrev main_call37_cst_0 : Ref sig .tc := ⟨.hbm, 1195, rfl⟩
abbrev main_call37_v2 : Ref sig .tc := ⟨.hbm, 1196, rfl⟩
abbrev main_call37_v3 : Ref sig .tc := ⟨.hbm, 1197, rfl⟩
abbrev main_call37_cst_1 : Ref sig .tc := ⟨.hbm, 1198, rfl⟩
abbrev main_call37_call0_v0 : Ref sig .tc := ⟨.hbm, 1199, rfl⟩
abbrev main_call37_call0_v1 : Ref sig .tc := ⟨.hbm, 1200, rfl⟩
abbrev main_call37_v4 : Ref sig .tc := ⟨.hbm, 1201, rfl⟩
abbrev main_call37_v5 : Ref sig .tc := ⟨.hbm, 1202, rfl⟩
abbrev main_call37_cst_2 : Ref sig .tc := ⟨.hbm, 1203, rfl⟩
abbrev main_call37_v6 : Ref sig .tc := ⟨.hbm, 1204, rfl⟩
abbrev main_call37_v7 : Ref sig .tc := ⟨.hbm, 1205, rfl⟩
abbrev main_v648 : Ref sig .tc := ⟨.hbm, 1206, rfl⟩
abbrev main_v649 : Ref sig .tc := ⟨.hbm, 1207, rfl⟩
abbrev main_cst_50 : Ref sig .tc := ⟨.hbm, 1208, rfl⟩
abbrev main_v650 : Ref sig .tc := ⟨.hbm, 1209, rfl⟩
abbrev main_v651 : Ref sig .tc := ⟨.hbm, 1210, rfl⟩
abbrev main_v652 : Ref sig .tc := ⟨.hbm, 1211, rfl⟩
abbrev main_v653 : Ref sig .tc := ⟨.hbm, 1212, rfl⟩
abbrev main_v654 : Ref sig .tc := ⟨.hbm, 1213, rfl⟩
abbrev main_v655 : Ref sig .tc := ⟨.hbm, 1214, rfl⟩
abbrev main_v656 : Ref sig .tc := ⟨.hbm, 1215, rfl⟩
abbrev main_v657 : Ref sig .tc := ⟨.hbm, 1216, rfl⟩
abbrev main_v658 : Ref sig .tc := ⟨.hbm, 1217, rfl⟩
abbrev main_v659 : Ref sig .tc := ⟨.hbm, 1218, rfl⟩
abbrev main_v660 : Ref sig .tc := ⟨.hbm, 1219, rfl⟩
abbrev main_v661 : Ref sig .tc := ⟨.hbm, 1220, rfl⟩
abbrev main_v662 : Ref sig .tc := ⟨.hbm, 1221, rfl⟩
abbrev main_v663 : Ref sig .tc := ⟨.hbm, 1222, rfl⟩
abbrev main_v664 : Ref sig .tc := ⟨.hbm, 1223, rfl⟩
abbrev main_v665 : Ref sig .tc := ⟨.hbm, 1224, rfl⟩
abbrev main_v666 : Ref sig .tc := ⟨.hbm, 1225, rfl⟩
abbrev main_cst_51 : Ref sig .tc := ⟨.hbm, 1226, rfl⟩
abbrev main_v667 : Ref sig .tc := ⟨.hbm, 1227, rfl⟩
abbrev main_cst_52 : Ref sig .tc := ⟨.hbm, 1228, rfl⟩
abbrev main_v668 : Ref sig .tc := ⟨.hbm, 1229, rfl⟩
abbrev main_v669 : Ref sig .tc := ⟨.hbm, 1230, rfl⟩
abbrev main_c_53 : Ref sig .tc := ⟨.hbm, 1231, rfl⟩
abbrev main_call38_cst : Ref sig .tc := ⟨.hbm, 1232, rfl⟩
abbrev main_call38_v0 : Ref sig .tc := ⟨.hbm, 1233, rfl⟩
abbrev main_call38_v1 : Ref sig .tc := ⟨.hbm, 1234, rfl⟩
abbrev main_call38_cst_0 : Ref sig .tc := ⟨.hbm, 1235, rfl⟩
abbrev main_call38_v2 : Ref sig .tc := ⟨.hbm, 1236, rfl⟩
abbrev main_call38_v3 : Ref sig .tc := ⟨.hbm, 1237, rfl⟩
abbrev main_call38_v4 : Ref sig .tc := ⟨.hbm, 1238, rfl⟩
abbrev main_call38_v5 : Ref sig .tc := ⟨.hbm, 1239, rfl⟩
abbrev main_call38_v6 : Ref sig .tc := ⟨.hbm, 1240, rfl⟩
abbrev main_call38_v7 : Ref sig .tc := ⟨.hbm, 1241, rfl⟩
abbrev main_call38_cst_1 : Ref sig .tc := ⟨.hbm, 1242, rfl⟩
abbrev main_call38_v8 : Ref sig .tc := ⟨.hbm, 1243, rfl⟩
abbrev main_call38_cst_2 : Ref sig .tc := ⟨.hbm, 1244, rfl⟩
abbrev main_call38_v9 : Ref sig .tc := ⟨.hbm, 1245, rfl⟩
abbrev main_call38_v10 : Ref sig .tc := ⟨.hbm, 1246, rfl⟩
abbrev main_call38_v11 : Ref sig .tc := ⟨.hbm, 1247, rfl⟩
abbrev main_call38_cst_3 : Ref sig .tc := ⟨.hbm, 1248, rfl⟩
abbrev main_call38_v12 : Ref sig .tc := ⟨.hbm, 1249, rfl⟩
abbrev main_call38_cst_4 : Ref sig .tc := ⟨.hbm, 1250, rfl⟩
abbrev main_call38_call0_v0 : Ref sig .tc := ⟨.hbm, 1251, rfl⟩
abbrev main_call38_call0_v1 : Ref sig .tc := ⟨.hbm, 1252, rfl⟩
abbrev main_v670 : Ref sig .tc := ⟨.hbm, 1253, rfl⟩
abbrev main_v671 : Ref sig .tc := ⟨.hbm, 1254, rfl⟩
abbrev main_v672 : Ref sig .tc := ⟨.hbm, 1255, rfl⟩
abbrev main_v673 : Ref sig .tc := ⟨.hbm, 1256, rfl⟩
abbrev main_cst_54 : Ref sig .tc := ⟨.hbm, 1257, rfl⟩
abbrev main_v674 : Ref sig .tc := ⟨.hbm, 1258, rfl⟩
abbrev main_v675 : Ref sig .tc := ⟨.hbm, 1259, rfl⟩
abbrev main_v676 : Ref sig .tc := ⟨.hbm, 1260, rfl⟩
abbrev main_v677 : Ref sig .tc := ⟨.hbm, 1261, rfl⟩
abbrev main_v678 : Ref sig .tc := ⟨.hbm, 1262, rfl⟩
abbrev main_v679 : Ref sig .tc := ⟨.hbm, 1263, rfl⟩
abbrev main_v680 : Ref sig .tc := ⟨.hbm, 1264, rfl⟩
abbrev main_v681 : Ref sig .tc := ⟨.hbm, 1265, rfl⟩
abbrev main_v682 : Ref sig .tc := ⟨.hbm, 1266, rfl⟩
abbrev main_v683 : Ref sig .tc := ⟨.hbm, 1267, rfl⟩
abbrev main_v684 : Ref sig .tc := ⟨.hbm, 1268, rfl⟩
abbrev main_v685 : Ref sig .tc := ⟨.hbm, 1269, rfl⟩
abbrev main_v686 : Ref sig .tc := ⟨.hbm, 1270, rfl⟩
abbrev main_v687 : Ref sig .tc := ⟨.hbm, 1271, rfl⟩
abbrev main_v688 : Ref sig .tc := ⟨.hbm, 1272, rfl⟩
abbrev main_v689 : Ref sig .tc := ⟨.hbm, 1273, rfl⟩
abbrev main_call39_cst : Ref sig .tc := ⟨.hbm, 1274, rfl⟩
abbrev main_call39_v0 : Ref sig .tc := ⟨.hbm, 1275, rfl⟩
abbrev main_v690 : Ref sig .tc := ⟨.hbm, 1276, rfl⟩
abbrev main_v691 : Ref sig .tc := ⟨.hbm, 1277, rfl⟩
abbrev main_v692 : Ref sig .tc := ⟨.hbm, 1278, rfl⟩
abbrev main_v693 : Ref sig .tc := ⟨.hbm, 1279, rfl⟩
abbrev main_v694 : Ref sig .tc := ⟨.hbm, 1280, rfl⟩
abbrev main_v695 : Ref sig .tc := ⟨.hbm, 1281, rfl⟩
abbrev main_v696 : Ref sig .tc := ⟨.hbm, 1282, rfl⟩
abbrev main_v697 : Ref sig .tc := ⟨.hbm, 1283, rfl⟩
abbrev main_v698 : Ref sig .tc := ⟨.hbm, 1284, rfl⟩
abbrev main_v699 : Ref sig .tc := ⟨.hbm, 1285, rfl⟩
abbrev main_v700 : Ref sig .tc := ⟨.hbm, 1286, rfl⟩
abbrev main_v701 : Ref sig .tc := ⟨.hbm, 1287, rfl⟩
abbrev main_v702 : Ref sig .tc := ⟨.hbm, 1288, rfl⟩
abbrev main_v703 : Ref sig .tc := ⟨.hbm, 1289, rfl⟩
abbrev main_v704 : Ref sig .tc := ⟨.hbm, 1290, rfl⟩
abbrev main_v705 : Ref sig .tc := ⟨.hbm, 1291, rfl⟩
abbrev main_v706 : Ref sig .tc := ⟨.hbm, 1292, rfl⟩
abbrev main_v707 : Ref sig .tc := ⟨.hbm, 1293, rfl⟩
abbrev main_call40_cst : Ref sig .tc := ⟨.hbm, 1294, rfl⟩
abbrev main_call40_v0 : Ref sig .tc := ⟨.hbm, 1295, rfl⟩
abbrev main_call40_v1 : Ref sig .tc := ⟨.hbm, 1296, rfl⟩
abbrev main_call40_cst_0 : Ref sig .tc := ⟨.hbm, 1297, rfl⟩
abbrev main_call40_v2 : Ref sig .tc := ⟨.hbm, 1298, rfl⟩
abbrev main_call40_v3 : Ref sig .tc := ⟨.hbm, 1299, rfl⟩
abbrev main_call40_cst_1 : Ref sig .tc := ⟨.hbm, 1300, rfl⟩
abbrev main_call40_call0_v0 : Ref sig .tc := ⟨.hbm, 1301, rfl⟩
abbrev main_call40_call0_v1 : Ref sig .tc := ⟨.hbm, 1302, rfl⟩
abbrev main_call40_v4 : Ref sig .tc := ⟨.hbm, 1303, rfl⟩
abbrev main_call40_v5 : Ref sig .tc := ⟨.hbm, 1304, rfl⟩
abbrev main_call40_cst_2 : Ref sig .tc := ⟨.hbm, 1305, rfl⟩
abbrev main_call40_v6 : Ref sig .tc := ⟨.hbm, 1306, rfl⟩
abbrev main_call40_v7 : Ref sig .tc := ⟨.hbm, 1307, rfl⟩
abbrev main_v708 : Ref sig .tc := ⟨.hbm, 1308, rfl⟩
abbrev main_v709 : Ref sig .tc := ⟨.hbm, 1309, rfl⟩
abbrev main_v710 : Ref sig .tc := ⟨.hbm, 1310, rfl⟩
abbrev main_v711 : Ref sig .tc := ⟨.hbm, 1311, rfl⟩
abbrev main_v712 : Ref sig .tc := ⟨.hbm, 1312, rfl⟩
abbrev main_v713 : Ref sig .tc := ⟨.hbm, 1313, rfl⟩
abbrev main_v714 : Ref sig .tc := ⟨.hbm, 1314, rfl⟩
abbrev main_v715 : Ref sig .tc := ⟨.hbm, 1315, rfl⟩
abbrev main_v716 : Ref sig .tc := ⟨.hbm, 1316, rfl⟩
abbrev main_call41_cst : Ref sig .tc := ⟨.hbm, 1317, rfl⟩
abbrev main_call41_v0 : Ref sig .tc := ⟨.hbm, 1318, rfl⟩
abbrev main_call41_v1 : Ref sig .tc := ⟨.hbm, 1319, rfl⟩
abbrev main_call41_cst_0 : Ref sig .tc := ⟨.hbm, 1320, rfl⟩
abbrev main_call41_v2 : Ref sig .tc := ⟨.hbm, 1321, rfl⟩
abbrev main_call41_v3 : Ref sig .tc := ⟨.hbm, 1322, rfl⟩
abbrev main_call41_cst_1 : Ref sig .tc := ⟨.hbm, 1323, rfl⟩
abbrev main_call41_call0_v0 : Ref sig .tc := ⟨.hbm, 1324, rfl⟩
abbrev main_call41_call0_v1 : Ref sig .tc := ⟨.hbm, 1325, rfl⟩
abbrev main_call41_v4 : Ref sig .tc := ⟨.hbm, 1326, rfl⟩
abbrev main_call41_v5 : Ref sig .tc := ⟨.hbm, 1327, rfl⟩
abbrev main_call41_cst_2 : Ref sig .tc := ⟨.hbm, 1328, rfl⟩
abbrev main_call41_v6 : Ref sig .tc := ⟨.hbm, 1329, rfl⟩
abbrev main_call41_v7 : Ref sig .tc := ⟨.hbm, 1330, rfl⟩
abbrev main_v717 : Ref sig .tc := ⟨.hbm, 1331, rfl⟩
abbrev main_v718 : Ref sig .tc := ⟨.hbm, 1332, rfl⟩
abbrev main_cst_55 : Ref sig .tc := ⟨.hbm, 1333, rfl⟩
abbrev main_v719 : Ref sig .tc := ⟨.hbm, 1334, rfl⟩
abbrev main_v720 : Ref sig .tc := ⟨.hbm, 1335, rfl⟩
abbrev main_v721 : Ref sig .tc := ⟨.hbm, 1336, rfl⟩
abbrev main_v722 : Ref sig .tc := ⟨.hbm, 1337, rfl⟩
abbrev main_v723 : Ref sig .tc := ⟨.hbm, 1338, rfl⟩
abbrev main_v724 : Ref sig .tc := ⟨.hbm, 1339, rfl⟩
abbrev main_v725 : Ref sig .tc := ⟨.hbm, 1340, rfl⟩
abbrev main_v726 : Ref sig .tc := ⟨.hbm, 1341, rfl⟩
abbrev main_v727 : Ref sig .tc := ⟨.hbm, 1342, rfl⟩
abbrev main_v728 : Ref sig .tc := ⟨.hbm, 1343, rfl⟩
abbrev main_v729 : Ref sig .tc := ⟨.hbm, 1344, rfl⟩
abbrev main_v730 : Ref sig .tc := ⟨.hbm, 1345, rfl⟩
abbrev main_v731 : Ref sig .tc := ⟨.hbm, 1346, rfl⟩
abbrev main_v732 : Ref sig .tc := ⟨.hbm, 1347, rfl⟩
abbrev main_v733 : Ref sig .tc := ⟨.hbm, 1348, rfl⟩
abbrev main_v734 : Ref sig .tc := ⟨.hbm, 1349, rfl⟩
abbrev main_v735 : Ref sig .tc := ⟨.hbm, 1350, rfl⟩
abbrev main_cst_56 : Ref sig .tc := ⟨.hbm, 1351, rfl⟩
abbrev main_v736 : Ref sig .tc := ⟨.hbm, 1352, rfl⟩
abbrev main_cst_57 : Ref sig .tc := ⟨.hbm, 1353, rfl⟩
abbrev main_v737 : Ref sig .tc := ⟨.hbm, 1354, rfl⟩
abbrev main_v738 : Ref sig .tc := ⟨.hbm, 1355, rfl⟩
abbrev main_c_58 : Ref sig .tc := ⟨.hbm, 1356, rfl⟩
abbrev main_call42_cst : Ref sig .tc := ⟨.hbm, 1357, rfl⟩
abbrev main_call42_v0 : Ref sig .tc := ⟨.hbm, 1358, rfl⟩
abbrev main_call42_v1 : Ref sig .tc := ⟨.hbm, 1359, rfl⟩
abbrev main_call42_cst_0 : Ref sig .tc := ⟨.hbm, 1360, rfl⟩
abbrev main_call42_v2 : Ref sig .tc := ⟨.hbm, 1361, rfl⟩
abbrev main_call42_v3 : Ref sig .tc := ⟨.hbm, 1362, rfl⟩
abbrev main_call42_v4 : Ref sig .tc := ⟨.hbm, 1363, rfl⟩
abbrev main_call42_v5 : Ref sig .tc := ⟨.hbm, 1364, rfl⟩
abbrev main_call42_v6 : Ref sig .tc := ⟨.hbm, 1365, rfl⟩
abbrev main_call42_v7 : Ref sig .tc := ⟨.hbm, 1366, rfl⟩
abbrev main_call42_cst_1 : Ref sig .tc := ⟨.hbm, 1367, rfl⟩
abbrev main_call42_v8 : Ref sig .tc := ⟨.hbm, 1368, rfl⟩
abbrev main_call42_cst_2 : Ref sig .tc := ⟨.hbm, 1369, rfl⟩
abbrev main_call42_v9 : Ref sig .tc := ⟨.hbm, 1370, rfl⟩
abbrev main_call42_v10 : Ref sig .tc := ⟨.hbm, 1371, rfl⟩
abbrev main_call42_v11 : Ref sig .tc := ⟨.hbm, 1372, rfl⟩
abbrev main_call42_cst_3 : Ref sig .tc := ⟨.hbm, 1373, rfl⟩
abbrev main_call42_v12 : Ref sig .tc := ⟨.hbm, 1374, rfl⟩
abbrev main_call42_cst_4 : Ref sig .tc := ⟨.hbm, 1375, rfl⟩
abbrev main_call42_call0_v0 : Ref sig .tc := ⟨.hbm, 1376, rfl⟩
abbrev main_call42_call0_v1 : Ref sig .tc := ⟨.hbm, 1377, rfl⟩
abbrev main_v739 : Ref sig .tc := ⟨.hbm, 1378, rfl⟩
abbrev main_v740 : Ref sig .tc := ⟨.hbm, 1379, rfl⟩
abbrev main_v741 : Ref sig .tc := ⟨.hbm, 1380, rfl⟩
abbrev main_v742 : Ref sig .tc := ⟨.hbm, 1381, rfl⟩
abbrev main_cst_59 : Ref sig .tc := ⟨.hbm, 1382, rfl⟩
abbrev main_v743 : Ref sig .tc := ⟨.hbm, 1383, rfl⟩
abbrev main_v744 : Ref sig .tc := ⟨.hbm, 1384, rfl⟩
abbrev main_v745 : Ref sig .tc := ⟨.hbm, 1385, rfl⟩
abbrev main_v746 : Ref sig .tc := ⟨.hbm, 1386, rfl⟩
abbrev main_v747 : Ref sig .tc := ⟨.hbm, 1387, rfl⟩
abbrev main_v748 : Ref sig .tc := ⟨.hbm, 1388, rfl⟩
abbrev main_v749 : Ref sig .tc := ⟨.hbm, 1389, rfl⟩
abbrev main_v750 : Ref sig .tc := ⟨.hbm, 1390, rfl⟩
abbrev main_v751 : Ref sig .tc := ⟨.hbm, 1391, rfl⟩
abbrev main_v752 : Ref sig .tc := ⟨.hbm, 1392, rfl⟩
abbrev main_v753 : Ref sig .tc := ⟨.hbm, 1393, rfl⟩
abbrev main_v754 : Ref sig .tc := ⟨.hbm, 1394, rfl⟩
abbrev main_v755 : Ref sig .tc := ⟨.hbm, 1395, rfl⟩
abbrev main_v756 : Ref sig .tc := ⟨.hbm, 1396, rfl⟩
abbrev main_v757 : Ref sig .tc := ⟨.hbm, 1397, rfl⟩
abbrev main_v758 : Ref sig .tc := ⟨.hbm, 1398, rfl⟩
abbrev main_call43_cst : Ref sig .tc := ⟨.hbm, 1399, rfl⟩
abbrev main_call43_v0 : Ref sig .tc := ⟨.hbm, 1400, rfl⟩
abbrev main_v759 : Ref sig .tc := ⟨.hbm, 1401, rfl⟩
abbrev main_v760 : Ref sig .tc := ⟨.hbm, 1402, rfl⟩
abbrev main_v761 : Ref sig .tc := ⟨.hbm, 1403, rfl⟩
abbrev main_v762 : Ref sig .tc := ⟨.hbm, 1404, rfl⟩
abbrev main_v763 : Ref sig .tc := ⟨.hbm, 1405, rfl⟩
abbrev main_v764 : Ref sig .tc := ⟨.hbm, 1406, rfl⟩
abbrev main_v765 : Ref sig .tc := ⟨.hbm, 1407, rfl⟩
abbrev main_v766 : Ref sig .tc := ⟨.hbm, 1408, rfl⟩
abbrev main_v767 : Ref sig .tc := ⟨.hbm, 1409, rfl⟩
abbrev main_v768 : Ref sig .tc := ⟨.hbm, 1410, rfl⟩
abbrev main_v769 : Ref sig .tc := ⟨.hbm, 1411, rfl⟩
abbrev main_v770 : Ref sig .tc := ⟨.hbm, 1412, rfl⟩
abbrev main_v771 : Ref sig .tc := ⟨.hbm, 1413, rfl⟩
abbrev main_v772 : Ref sig .tc := ⟨.hbm, 1414, rfl⟩
abbrev main_v773 : Ref sig .tc := ⟨.hbm, 1415, rfl⟩
abbrev main_v774 : Ref sig .tc := ⟨.hbm, 1416, rfl⟩
abbrev main_v775 : Ref sig .tc := ⟨.hbm, 1417, rfl⟩
abbrev main_v776 : Ref sig .tc := ⟨.hbm, 1418, rfl⟩
abbrev main_call44_cst : Ref sig .tc := ⟨.hbm, 1419, rfl⟩
abbrev main_call44_v0 : Ref sig .tc := ⟨.hbm, 1420, rfl⟩
abbrev main_call44_v1 : Ref sig .tc := ⟨.hbm, 1421, rfl⟩
abbrev main_call44_cst_0 : Ref sig .tc := ⟨.hbm, 1422, rfl⟩
abbrev main_call44_v2 : Ref sig .tc := ⟨.hbm, 1423, rfl⟩
abbrev main_call44_v3 : Ref sig .tc := ⟨.hbm, 1424, rfl⟩
abbrev main_call44_cst_1 : Ref sig .tc := ⟨.hbm, 1425, rfl⟩
abbrev main_call44_call0_v0 : Ref sig .tc := ⟨.hbm, 1426, rfl⟩
abbrev main_call44_call0_v1 : Ref sig .tc := ⟨.hbm, 1427, rfl⟩
abbrev main_call44_v4 : Ref sig .tc := ⟨.hbm, 1428, rfl⟩
abbrev main_call44_v5 : Ref sig .tc := ⟨.hbm, 1429, rfl⟩
abbrev main_call44_cst_2 : Ref sig .tc := ⟨.hbm, 1430, rfl⟩
abbrev main_call44_v6 : Ref sig .tc := ⟨.hbm, 1431, rfl⟩
abbrev main_call44_v7 : Ref sig .tc := ⟨.hbm, 1432, rfl⟩
abbrev main_v777 : Ref sig .tc := ⟨.hbm, 1433, rfl⟩
abbrev main_v778 : Ref sig .tc := ⟨.hbm, 1434, rfl⟩
abbrev main_v779 : Ref sig .tc := ⟨.hbm, 1435, rfl⟩
abbrev main_v780 : Ref sig .tc := ⟨.hbm, 1436, rfl⟩
abbrev main_v781 : Ref sig .tc := ⟨.hbm, 1437, rfl⟩
abbrev main_v782 : Ref sig .tc := ⟨.hbm, 1438, rfl⟩
abbrev main_v783 : Ref sig .tc := ⟨.hbm, 1439, rfl⟩
abbrev main_v784 : Ref sig .tc := ⟨.hbm, 1440, rfl⟩
abbrev main_v785 : Ref sig .tc := ⟨.hbm, 1441, rfl⟩
abbrev main_call45_cst : Ref sig .tc := ⟨.hbm, 1442, rfl⟩
abbrev main_call45_v0 : Ref sig .tc := ⟨.hbm, 1443, rfl⟩
abbrev main_call45_v1 : Ref sig .tc := ⟨.hbm, 1444, rfl⟩
abbrev main_call45_cst_0 : Ref sig .tc := ⟨.hbm, 1445, rfl⟩
abbrev main_call45_v2 : Ref sig .tc := ⟨.hbm, 1446, rfl⟩
abbrev main_call45_v3 : Ref sig .tc := ⟨.hbm, 1447, rfl⟩
abbrev main_call45_cst_1 : Ref sig .tc := ⟨.hbm, 1448, rfl⟩
abbrev main_call45_call0_v0 : Ref sig .tc := ⟨.hbm, 1449, rfl⟩
abbrev main_call45_call0_v1 : Ref sig .tc := ⟨.hbm, 1450, rfl⟩
abbrev main_call45_v4 : Ref sig .tc := ⟨.hbm, 1451, rfl⟩
abbrev main_call45_v5 : Ref sig .tc := ⟨.hbm, 1452, rfl⟩
abbrev main_call45_cst_2 : Ref sig .tc := ⟨.hbm, 1453, rfl⟩
abbrev main_call45_v6 : Ref sig .tc := ⟨.hbm, 1454, rfl⟩
abbrev main_call45_v7 : Ref sig .tc := ⟨.hbm, 1455, rfl⟩
abbrev main_v786 : Ref sig .tc := ⟨.hbm, 1456, rfl⟩
abbrev main_v787 : Ref sig .tc := ⟨.hbm, 1457, rfl⟩
abbrev main_cst_60 : Ref sig .tc := ⟨.hbm, 1458, rfl⟩
abbrev main_v788 : Ref sig .tc := ⟨.hbm, 1459, rfl⟩
abbrev main_v789 : Ref sig .tc := ⟨.hbm, 1460, rfl⟩
abbrev main_v790 : Ref sig .tc := ⟨.hbm, 1461, rfl⟩
abbrev main_v791 : Ref sig .tc := ⟨.hbm, 1462, rfl⟩
abbrev main_v792 : Ref sig .tc := ⟨.hbm, 1463, rfl⟩
abbrev main_v793 : Ref sig .tc := ⟨.hbm, 1464, rfl⟩
abbrev main_v794 : Ref sig .tc := ⟨.hbm, 1465, rfl⟩
abbrev main_v795 : Ref sig .tc := ⟨.hbm, 1466, rfl⟩
abbrev main_v796 : Ref sig .tc := ⟨.hbm, 1467, rfl⟩
abbrev main_v797 : Ref sig .tc := ⟨.hbm, 1468, rfl⟩
abbrev main_v798 : Ref sig .tc := ⟨.hbm, 1469, rfl⟩
abbrev main_v799 : Ref sig .tc := ⟨.hbm, 1470, rfl⟩
abbrev main_v800 : Ref sig .tc := ⟨.hbm, 1471, rfl⟩
abbrev main_v801 : Ref sig .tc := ⟨.hbm, 1472, rfl⟩
abbrev main_v802 : Ref sig .tc := ⟨.hbm, 1473, rfl⟩
abbrev main_v803 : Ref sig .tc := ⟨.hbm, 1474, rfl⟩
abbrev main_v804 : Ref sig .tc := ⟨.hbm, 1475, rfl⟩
abbrev main_cst_61 : Ref sig .tc := ⟨.hbm, 1476, rfl⟩
abbrev main_v805 : Ref sig .tc := ⟨.hbm, 1477, rfl⟩
abbrev main_cst_62 : Ref sig .tc := ⟨.hbm, 1478, rfl⟩
abbrev main_v806 : Ref sig .tc := ⟨.hbm, 1479, rfl⟩
abbrev main_v807 : Ref sig .tc := ⟨.hbm, 1480, rfl⟩
abbrev main_c_63 : Ref sig .tc := ⟨.hbm, 1481, rfl⟩
abbrev main_call46_cst : Ref sig .tc := ⟨.hbm, 1482, rfl⟩
abbrev main_call46_v0 : Ref sig .tc := ⟨.hbm, 1483, rfl⟩
abbrev main_call46_v1 : Ref sig .tc := ⟨.hbm, 1484, rfl⟩
abbrev main_call46_cst_0 : Ref sig .tc := ⟨.hbm, 1485, rfl⟩
abbrev main_call46_v2 : Ref sig .tc := ⟨.hbm, 1486, rfl⟩
abbrev main_call46_v3 : Ref sig .tc := ⟨.hbm, 1487, rfl⟩
abbrev main_call46_v4 : Ref sig .tc := ⟨.hbm, 1488, rfl⟩
abbrev main_call46_v5 : Ref sig .tc := ⟨.hbm, 1489, rfl⟩
abbrev main_call46_v6 : Ref sig .tc := ⟨.hbm, 1490, rfl⟩
abbrev main_call46_v7 : Ref sig .tc := ⟨.hbm, 1491, rfl⟩
abbrev main_call46_cst_1 : Ref sig .tc := ⟨.hbm, 1492, rfl⟩
abbrev main_call46_v8 : Ref sig .tc := ⟨.hbm, 1493, rfl⟩
abbrev main_call46_cst_2 : Ref sig .tc := ⟨.hbm, 1494, rfl⟩
abbrev main_call46_v9 : Ref sig .tc := ⟨.hbm, 1495, rfl⟩
abbrev main_call46_v10 : Ref sig .tc := ⟨.hbm, 1496, rfl⟩
abbrev main_call46_v11 : Ref sig .tc := ⟨.hbm, 1497, rfl⟩
abbrev main_call46_cst_3 : Ref sig .tc := ⟨.hbm, 1498, rfl⟩
abbrev main_call46_v12 : Ref sig .tc := ⟨.hbm, 1499, rfl⟩
abbrev main_call46_cst_4 : Ref sig .tc := ⟨.hbm, 1500, rfl⟩
abbrev main_call46_call0_v0 : Ref sig .tc := ⟨.hbm, 1501, rfl⟩
abbrev main_call46_call0_v1 : Ref sig .tc := ⟨.hbm, 1502, rfl⟩
abbrev main_v808 : Ref sig .tc := ⟨.hbm, 1503, rfl⟩
abbrev main_v809 : Ref sig .tc := ⟨.hbm, 1504, rfl⟩
abbrev main_v810 : Ref sig .tc := ⟨.hbm, 1505, rfl⟩
abbrev main_v811 : Ref sig .tc := ⟨.hbm, 1506, rfl⟩
abbrev main_cst_64 : Ref sig .tc := ⟨.hbm, 1507, rfl⟩
abbrev main_v812 : Ref sig .tc := ⟨.hbm, 1508, rfl⟩
abbrev main_v813 : Ref sig .tc := ⟨.hbm, 1509, rfl⟩
abbrev main_v814 : Ref sig .tc := ⟨.hbm, 1510, rfl⟩
abbrev main_v815 : Ref sig .tc := ⟨.hbm, 1511, rfl⟩
abbrev main_v816 : Ref sig .tc := ⟨.hbm, 1512, rfl⟩
abbrev main_v817 : Ref sig .tc := ⟨.hbm, 1513, rfl⟩
abbrev main_v818 : Ref sig .tc := ⟨.hbm, 1514, rfl⟩
abbrev main_v819 : Ref sig .tc := ⟨.hbm, 1515, rfl⟩
abbrev main_v820 : Ref sig .tc := ⟨.hbm, 1516, rfl⟩
abbrev main_v821 : Ref sig .tc := ⟨.hbm, 1517, rfl⟩
abbrev main_v822 : Ref sig .tc := ⟨.hbm, 1518, rfl⟩
abbrev main_v823 : Ref sig .tc := ⟨.hbm, 1519, rfl⟩
abbrev main_v824 : Ref sig .tc := ⟨.hbm, 1520, rfl⟩
abbrev main_v825 : Ref sig .tc := ⟨.hbm, 1521, rfl⟩
abbrev main_v826 : Ref sig .tc := ⟨.hbm, 1522, rfl⟩
abbrev main_v827 : Ref sig .tc := ⟨.hbm, 1523, rfl⟩
abbrev main_call47_cst : Ref sig .tc := ⟨.hbm, 1524, rfl⟩
abbrev main_call47_v0 : Ref sig .tc := ⟨.hbm, 1525, rfl⟩
abbrev main_v828 : Ref sig .tc := ⟨.hbm, 1526, rfl⟩
abbrev main_v829 : Ref sig .tc := ⟨.hbm, 1527, rfl⟩
abbrev main_v830 : Ref sig .tc := ⟨.hbm, 1528, rfl⟩
abbrev main_v831 : Ref sig .tc := ⟨.hbm, 1529, rfl⟩
abbrev main_v832 : Ref sig .tc := ⟨.hbm, 1530, rfl⟩
abbrev main_v833 : Ref sig .tc := ⟨.hbm, 1531, rfl⟩
abbrev main_v834 : Ref sig .tc := ⟨.hbm, 1532, rfl⟩
abbrev main_v835 : Ref sig .tc := ⟨.hbm, 1533, rfl⟩
abbrev main_v836 : Ref sig .tc := ⟨.hbm, 1534, rfl⟩
abbrev main_v837 : Ref sig .tc := ⟨.hbm, 1535, rfl⟩
abbrev main_cst_65 : Ref sig .tc := ⟨.hbm, 1536, rfl⟩
abbrev main_v838 : Ref sig .tc := ⟨.hbm, 1537, rfl⟩
abbrev main_v839 : Ref sig .tc := ⟨.hbm, 1538, rfl⟩
abbrev main_v840 : Ref sig .tc := ⟨.hbm, 1539, rfl⟩
abbrev main_v841 : Ref sig .tc := ⟨.hbm, 1540, rfl⟩
abbrev main_cst_66 : Ref sig .tc := ⟨.hbm, 1541, rfl⟩
abbrev main_v842 : Ref sig .tc := ⟨.hbm, 1542, rfl⟩
abbrev main_cst_67 : Ref sig .tc := ⟨.hbm, 1543, rfl⟩
abbrev main_v843 : Ref sig .tc := ⟨.hbm, 1544, rfl⟩
abbrev main_v844 : Ref sig .tc := ⟨.hbm, 1545, rfl⟩
abbrev main_v845 : Ref sig .tc := ⟨.hbm, 1546, rfl⟩
abbrev main_cst_68 : Ref sig .tc := ⟨.hbm, 1547, rfl⟩
abbrev main_v846 : Ref sig .tc := ⟨.hbm, 1548, rfl⟩
abbrev main_cst_69 : Ref sig .tc := ⟨.hbm, 1549, rfl⟩
abbrev main_v847 : Ref sig .tc := ⟨.hbm, 1550, rfl⟩
abbrev main_v848 : Ref sig .tc := ⟨.hbm, 1551, rfl⟩
abbrev main_v849 : Ref sig .tc := ⟨.hbm, 1552, rfl⟩
abbrev main_cst_70 : Ref sig .tc := ⟨.hbm, 1553, rfl⟩
abbrev main_v850 : Ref sig .tc := ⟨.hbm, 1554, rfl⟩
abbrev main_cst_71 : Ref sig .tc := ⟨.hbm, 1555, rfl⟩
abbrev main_v851 : Ref sig .tc := ⟨.hbm, 1556, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg5_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_scratch0 : Ref sig .tc := ⟨.vmem, 41, rfl⟩
abbrev cc5_stg0_0 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg3_1 : Ref sig .tc := ⟨.vmem, 48, rfl⟩
abbrev cc5_stg4_0 : Ref sig .tc := ⟨.vmem, 49, rfl⟩
abbrev cc5_stg4_1 : Ref sig .tc := ⟨.vmem, 50, rfl⟩
abbrev cc5_stg5_0 : Ref sig .tc := ⟨.vmem, 51, rfl⟩
abbrev cc5_stg5_1 : Ref sig .tc := ⟨.vmem, 52, rfl⟩
abbrev cc5_scratch0 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_scratch0 : Ref sig .tc := ⟨.vmem, 59, rfl⟩
abbrev cc7_stg0_0 : Ref sig .tc := ⟨.vmem, 60, rfl⟩
abbrev cc7_stg1_0 : Ref sig .tc := ⟨.vmem, 61, rfl⟩
abbrev cc7_stg1_1 : Ref sig .tc := ⟨.vmem, 62, rfl⟩
abbrev cc7_stg2_0 : Ref sig .tc := ⟨.vmem, 63, rfl⟩
abbrev cc7_stg2_1 : Ref sig .tc := ⟨.vmem, 64, rfl⟩
abbrev cc7_stg3_0 : Ref sig .tc := ⟨.vmem, 65, rfl⟩
abbrev cc7_stg3_1 : Ref sig .tc := ⟨.vmem, 66, rfl⟩
abbrev cc7_stg4_0 : Ref sig .tc := ⟨.vmem, 67, rfl⟩
abbrev cc7_stg4_1 : Ref sig .tc := ⟨.vmem, 68, rfl⟩
abbrev cc7_stg5_0 : Ref sig .tc := ⟨.vmem, 69, rfl⟩
abbrev cc7_stg5_1 : Ref sig .tc := ⟨.vmem, 70, rfl⟩
abbrev cc7_scratch0 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_scratch0 : Ref sig .tc := ⟨.vmem, 77, rfl⟩
abbrev cc9_stg0_0 : Ref sig .tc := ⟨.vmem, 78, rfl⟩
abbrev cc9_stg1_0 : Ref sig .tc := ⟨.vmem, 79, rfl⟩
abbrev cc9_stg1_1 : Ref sig .tc := ⟨.vmem, 80, rfl⟩
abbrev cc9_stg2_0 : Ref sig .tc := ⟨.vmem, 81, rfl⟩
abbrev cc9_stg2_1 : Ref sig .tc := ⟨.vmem, 82, rfl⟩
abbrev cc9_stg3_0 : Ref sig .tc := ⟨.vmem, 83, rfl⟩
abbrev cc9_stg3_1 : Ref sig .tc := ⟨.vmem, 84, rfl⟩
abbrev cc9_stg4_0 : Ref sig .tc := ⟨.vmem, 85, rfl⟩
abbrev cc9_stg4_1 : Ref sig .tc := ⟨.vmem, 86, rfl⟩
abbrev cc9_stg5_0 : Ref sig .tc := ⟨.vmem, 87, rfl⟩
abbrev cc9_stg5_1 : Ref sig .tc := ⟨.vmem, 88, rfl⟩
abbrev cc9_scratch0 : Ref sig .tc := ⟨.vmem, 89, rfl⟩
abbrev cc10_stg0_0 : Ref sig .tc := ⟨.vmem, 90, rfl⟩
abbrev cc10_stg0_1 : Ref sig .tc := ⟨.vmem, 91, rfl⟩
abbrev cc10_stg1_0 : Ref sig .tc := ⟨.vmem, 92, rfl⟩
abbrev cc10_stg1_1 : Ref sig .tc := ⟨.vmem, 93, rfl⟩
abbrev cc10_stg2_0 : Ref sig .tc := ⟨.vmem, 94, rfl⟩
abbrev cc10_scratch0 : Ref sig .tc := ⟨.vmem, 95, rfl⟩
abbrev cc11_stg0_0 : Ref sig .tc := ⟨.vmem, 96, rfl⟩
abbrev cc11_stg1_0 : Ref sig .tc := ⟨.vmem, 97, rfl⟩
abbrev cc11_stg1_1 : Ref sig .tc := ⟨.vmem, 98, rfl⟩
abbrev cc11_stg2_0 : Ref sig .tc := ⟨.vmem, 99, rfl⟩
abbrev cc11_stg2_1 : Ref sig .tc := ⟨.vmem, 100, rfl⟩
abbrev cc11_stg3_0 : Ref sig .tc := ⟨.vmem, 101, rfl⟩
abbrev cc11_stg3_1 : Ref sig .tc := ⟨.vmem, 102, rfl⟩
abbrev cc11_stg4_0 : Ref sig .tc := ⟨.vmem, 103, rfl⟩
abbrev cc11_stg4_1 : Ref sig .tc := ⟨.vmem, 104, rfl⟩
abbrev cc11_stg5_0 : Ref sig .tc := ⟨.vmem, 105, rfl⟩
abbrev cc11_stg5_1 : Ref sig .tc := ⟨.vmem, 106, rfl⟩
abbrev cc11_scratch0 : Ref sig .tc := ⟨.vmem, 107, rfl⟩
abbrev cc12_stg0_0 : Ref sig .tc := ⟨.vmem, 108, rfl⟩
abbrev cc12_stg0_1 : Ref sig .tc := ⟨.vmem, 109, rfl⟩
abbrev cc12_stg1_0 : Ref sig .tc := ⟨.vmem, 110, rfl⟩
abbrev cc12_stg1_1 : Ref sig .tc := ⟨.vmem, 111, rfl⟩
abbrev cc12_stg2_0 : Ref sig .tc := ⟨.vmem, 112, rfl⟩
abbrev cc12_scratch0 : Ref sig .tc := ⟨.vmem, 113, rfl⟩
abbrev cc13_stg0_0 : Ref sig .tc := ⟨.vmem, 114, rfl⟩
abbrev cc13_stg1_0 : Ref sig .tc := ⟨.vmem, 115, rfl⟩
abbrev cc13_stg1_1 : Ref sig .tc := ⟨.vmem, 116, rfl⟩
abbrev cc13_stg2_0 : Ref sig .tc := ⟨.vmem, 117, rfl⟩
abbrev cc13_stg2_1 : Ref sig .tc := ⟨.vmem, 118, rfl⟩
abbrev cc13_stg3_0 : Ref sig .tc := ⟨.vmem, 119, rfl⟩
abbrev cc13_stg3_1 : Ref sig .tc := ⟨.vmem, 120, rfl⟩
abbrev cc13_stg4_0 : Ref sig .tc := ⟨.vmem, 121, rfl⟩
abbrev cc13_stg4_1 : Ref sig .tc := ⟨.vmem, 122, rfl⟩
abbrev cc13_stg5_0 : Ref sig .tc := ⟨.vmem, 123, rfl⟩
abbrev cc13_stg5_1 : Ref sig .tc := ⟨.vmem, 124, rfl⟩
abbrev cc13_scratch0 : Ref sig .tc := ⟨.vmem, 125, rfl⟩
abbrev cc14_stg0_0 : Ref sig .tc := ⟨.vmem, 126, rfl⟩
abbrev cc14_stg0_1 : Ref sig .tc := ⟨.vmem, 127, rfl⟩
abbrev cc14_stg1_0 : Ref sig .tc := ⟨.vmem, 128, rfl⟩
abbrev cc14_stg1_1 : Ref sig .tc := ⟨.vmem, 129, rfl⟩
abbrev cc14_stg2_0 : Ref sig .tc := ⟨.vmem, 130, rfl⟩
abbrev cc14_scratch0 : Ref sig .tc := ⟨.vmem, 131, rfl⟩
abbrev cc15_stg0_0 : Ref sig .tc := ⟨.vmem, 132, rfl⟩
abbrev cc15_stg1_0 : Ref sig .tc := ⟨.vmem, 133, rfl⟩
abbrev cc15_stg1_1 : Ref sig .tc := ⟨.vmem, 134, rfl⟩
abbrev cc15_stg2_0 : Ref sig .tc := ⟨.vmem, 135, rfl⟩
abbrev cc15_stg2_1 : Ref sig .tc := ⟨.vmem, 136, rfl⟩
abbrev cc15_stg3_0 : Ref sig .tc := ⟨.vmem, 137, rfl⟩
abbrev cc15_stg3_1 : Ref sig .tc := ⟨.vmem, 138, rfl⟩
abbrev cc15_stg4_0 : Ref sig .tc := ⟨.vmem, 139, rfl⟩
abbrev cc15_stg4_1 : Ref sig .tc := ⟨.vmem, 140, rfl⟩
abbrev cc15_stg5_0 : Ref sig .tc := ⟨.vmem, 141, rfl⟩
abbrev cc15_stg5_1 : Ref sig .tc := ⟨.vmem, 142, rfl⟩
abbrev cc15_scratch0 : Ref sig .tc := ⟨.vmem, 143, rfl⟩
abbrev cc16_stg0_0 : Ref sig .tc := ⟨.vmem, 144, rfl⟩
abbrev cc16_stg0_1 : Ref sig .tc := ⟨.vmem, 145, rfl⟩
abbrev cc16_stg1_0 : Ref sig .tc := ⟨.vmem, 146, rfl⟩
abbrev cc16_stg1_1 : Ref sig .tc := ⟨.vmem, 147, rfl⟩
abbrev cc16_stg2_0 : Ref sig .tc := ⟨.vmem, 148, rfl⟩
abbrev cc16_scratch0 : Ref sig .tc := ⟨.vmem, 149, rfl⟩
abbrev cc17_stg0_0 : Ref sig .tc := ⟨.vmem, 150, rfl⟩
abbrev cc17_stg1_0 : Ref sig .tc := ⟨.vmem, 151, rfl⟩
abbrev cc17_stg1_1 : Ref sig .tc := ⟨.vmem, 152, rfl⟩
abbrev cc17_stg2_0 : Ref sig .tc := ⟨.vmem, 153, rfl⟩
abbrev cc17_stg2_1 : Ref sig .tc := ⟨.vmem, 154, rfl⟩
abbrev cc17_stg3_0 : Ref sig .tc := ⟨.vmem, 155, rfl⟩
abbrev cc17_stg3_1 : Ref sig .tc := ⟨.vmem, 156, rfl⟩
abbrev cc17_stg4_0 : Ref sig .tc := ⟨.vmem, 157, rfl⟩
abbrev cc17_stg4_1 : Ref sig .tc := ⟨.vmem, 158, rfl⟩
abbrev cc17_stg5_0 : Ref sig .tc := ⟨.vmem, 159, rfl⟩
abbrev cc17_stg5_1 : Ref sig .tc := ⟨.vmem, 160, rfl⟩
abbrev cc17_scratch0 : Ref sig .tc := ⟨.vmem, 161, rfl⟩
abbrev cc18_stg0_0 : Ref sig .tc := ⟨.vmem, 162, rfl⟩
abbrev cc18_stg0_1 : Ref sig .tc := ⟨.vmem, 163, rfl⟩
abbrev cc18_stg1_0 : Ref sig .tc := ⟨.vmem, 164, rfl⟩
abbrev cc18_stg1_1 : Ref sig .tc := ⟨.vmem, 165, rfl⟩
abbrev cc18_stg2_0 : Ref sig .tc := ⟨.vmem, 166, rfl⟩
abbrev cc18_scratch0 : Ref sig .tc := ⟨.vmem, 167, rfl⟩
abbrev cc19_stg0_0 : Ref sig .tc := ⟨.vmem, 168, rfl⟩
abbrev cc19_stg1_0 : Ref sig .tc := ⟨.vmem, 169, rfl⟩
abbrev cc19_stg1_1 : Ref sig .tc := ⟨.vmem, 170, rfl⟩
abbrev cc19_stg2_0 : Ref sig .tc := ⟨.vmem, 171, rfl⟩
abbrev cc19_stg2_1 : Ref sig .tc := ⟨.vmem, 172, rfl⟩
abbrev cc19_stg3_0 : Ref sig .tc := ⟨.vmem, 173, rfl⟩
abbrev cc19_stg3_1 : Ref sig .tc := ⟨.vmem, 174, rfl⟩
abbrev cc19_stg4_0 : Ref sig .tc := ⟨.vmem, 175, rfl⟩
abbrev cc19_stg4_1 : Ref sig .tc := ⟨.vmem, 176, rfl⟩
abbrev cc19_stg5_0 : Ref sig .tc := ⟨.vmem, 177, rfl⟩
abbrev cc19_stg5_1 : Ref sig .tc := ⟨.vmem, 178, rfl⟩
abbrev cc19_scratch0 : Ref sig .tc := ⟨.vmem, 179, rfl⟩
abbrev cc20_stg0_0 : Ref sig .tc := ⟨.vmem, 180, rfl⟩
abbrev cc20_stg0_1 : Ref sig .tc := ⟨.vmem, 181, rfl⟩
abbrev cc20_stg1_0 : Ref sig .tc := ⟨.vmem, 182, rfl⟩
abbrev cc20_stg1_1 : Ref sig .tc := ⟨.vmem, 183, rfl⟩
abbrev cc20_stg2_0 : Ref sig .tc := ⟨.vmem, 184, rfl⟩
abbrev cc20_scratch0 : Ref sig .tc := ⟨.vmem, 185, rfl⟩
abbrev cc21_stg0_0 : Ref sig .tc := ⟨.vmem, 186, rfl⟩
abbrev cc21_stg1_0 : Ref sig .tc := ⟨.vmem, 187, rfl⟩
abbrev cc21_stg1_1 : Ref sig .tc := ⟨.vmem, 188, rfl⟩
abbrev cc21_stg2_0 : Ref sig .tc := ⟨.vmem, 189, rfl⟩
abbrev cc21_stg2_1 : Ref sig .tc := ⟨.vmem, 190, rfl⟩
abbrev cc21_stg3_0 : Ref sig .tc := ⟨.vmem, 191, rfl⟩
abbrev cc21_stg3_1 : Ref sig .tc := ⟨.vmem, 192, rfl⟩
abbrev cc21_stg4_0 : Ref sig .tc := ⟨.vmem, 193, rfl⟩
abbrev cc21_stg4_1 : Ref sig .tc := ⟨.vmem, 194, rfl⟩
abbrev cc21_stg5_0 : Ref sig .tc := ⟨.vmem, 195, rfl⟩
abbrev cc21_stg5_1 : Ref sig .tc := ⟨.vmem, 196, rfl⟩
abbrev cc21_scratch0 : Ref sig .tc := ⟨.vmem, 197, rfl⟩
abbrev cc22_stg0_0 : Ref sig .tc := ⟨.vmem, 198, rfl⟩
abbrev cc22_stg0_1 : Ref sig .tc := ⟨.vmem, 199, rfl⟩
abbrev cc22_stg1_0 : Ref sig .tc := ⟨.vmem, 200, rfl⟩
abbrev cc22_stg1_1 : Ref sig .tc := ⟨.vmem, 201, rfl⟩
abbrev cc22_stg2_0 : Ref sig .tc := ⟨.vmem, 202, rfl⟩
abbrev cc22_scratch0 : Ref sig .tc := ⟨.vmem, 203, rfl⟩
abbrev cc23_stg0_0 : Ref sig .tc := ⟨.vmem, 204, rfl⟩
abbrev cc23_stg1_0 : Ref sig .tc := ⟨.vmem, 205, rfl⟩
abbrev cc23_stg1_1 : Ref sig .tc := ⟨.vmem, 206, rfl⟩
abbrev cc23_stg2_0 : Ref sig .tc := ⟨.vmem, 207, rfl⟩
abbrev cc23_stg2_1 : Ref sig .tc := ⟨.vmem, 208, rfl⟩
abbrev cc23_stg3_0 : Ref sig .tc := ⟨.vmem, 209, rfl⟩
abbrev cc23_stg3_1 : Ref sig .tc := ⟨.vmem, 210, rfl⟩
abbrev cc23_stg4_0 : Ref sig .tc := ⟨.vmem, 211, rfl⟩
abbrev cc23_stg4_1 : Ref sig .tc := ⟨.vmem, 212, rfl⟩
abbrev cc23_stg5_0 : Ref sig .tc := ⟨.vmem, 213, rfl⟩
abbrev cc23_stg5_1 : Ref sig .tc := ⟨.vmem, 214, rfl⟩
abbrev cc23_scratch0 : Ref sig .tc := ⟨.vmem, 215, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc5_sem0_0 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem3_1 : DmaSem sig := 43
abbrev cc5_sem4_0 : DmaSem sig := 44
abbrev cc5_sem4_1 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc7_sem0_0 : DmaSem sig := 53
abbrev cc7_sem1_0 : DmaSem sig := 54
abbrev cc7_sem1_1 : DmaSem sig := 55
abbrev cc7_sem2_0 : DmaSem sig := 56
abbrev cc7_sem2_1 : DmaSem sig := 57
abbrev cc7_sem3_0 : DmaSem sig := 58
abbrev cc7_sem3_1 : DmaSem sig := 59
abbrev cc7_sem4_0 : DmaSem sig := 60
abbrev cc7_sem4_1 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc9_sem0_0 : DmaSem sig := 69
abbrev cc9_sem1_0 : DmaSem sig := 70
abbrev cc9_sem1_1 : DmaSem sig := 71
abbrev cc9_sem2_0 : DmaSem sig := 72
abbrev cc9_sem2_1 : DmaSem sig := 73
abbrev cc9_sem3_0 : DmaSem sig := 74
abbrev cc9_sem3_1 : DmaSem sig := 75
abbrev cc9_sem4_0 : DmaSem sig := 76
abbrev cc9_sem4_1 : DmaSem sig := 77
abbrev cc9_sem5_0 : DmaSem sig := 78
abbrev cc9_sem5_1 : DmaSem sig := 79
abbrev cc10_sem0_0 : DmaSem sig := 80
abbrev cc10_sem0_1 : DmaSem sig := 81
abbrev cc10_sem1_0 : DmaSem sig := 82
abbrev cc10_sem1_1 : DmaSem sig := 83
abbrev cc10_sem2_0 : DmaSem sig := 84
abbrev cc11_sem0_0 : DmaSem sig := 85
abbrev cc11_sem1_0 : DmaSem sig := 86
abbrev cc11_sem1_1 : DmaSem sig := 87
abbrev cc11_sem2_0 : DmaSem sig := 88
abbrev cc11_sem2_1 : DmaSem sig := 89
abbrev cc11_sem3_0 : DmaSem sig := 90
abbrev cc11_sem3_1 : DmaSem sig := 91
abbrev cc11_sem4_0 : DmaSem sig := 92
abbrev cc11_sem4_1 : DmaSem sig := 93
abbrev cc11_sem5_0 : DmaSem sig := 94
abbrev cc11_sem5_1 : DmaSem sig := 95
abbrev cc12_sem0_0 : DmaSem sig := 96
abbrev cc12_sem0_1 : DmaSem sig := 97
abbrev cc12_sem1_0 : DmaSem sig := 98
abbrev cc12_sem1_1 : DmaSem sig := 99
abbrev cc12_sem2_0 : DmaSem sig := 100
abbrev cc13_sem0_0 : DmaSem sig := 101
abbrev cc13_sem1_0 : DmaSem sig := 102
abbrev cc13_sem1_1 : DmaSem sig := 103
abbrev cc13_sem2_0 : DmaSem sig := 104
abbrev cc13_sem2_1 : DmaSem sig := 105
abbrev cc13_sem3_0 : DmaSem sig := 106
abbrev cc13_sem3_1 : DmaSem sig := 107
abbrev cc13_sem4_0 : DmaSem sig := 108
abbrev cc13_sem4_1 : DmaSem sig := 109
abbrev cc13_sem5_0 : DmaSem sig := 110
abbrev cc13_sem5_1 : DmaSem sig := 111
abbrev cc14_sem0_0 : DmaSem sig := 112
abbrev cc14_sem0_1 : DmaSem sig := 113
abbrev cc14_sem1_0 : DmaSem sig := 114
abbrev cc14_sem1_1 : DmaSem sig := 115
abbrev cc14_sem2_0 : DmaSem sig := 116
abbrev cc15_sem0_0 : DmaSem sig := 117
abbrev cc15_sem1_0 : DmaSem sig := 118
abbrev cc15_sem1_1 : DmaSem sig := 119
abbrev cc15_sem2_0 : DmaSem sig := 120
abbrev cc15_sem2_1 : DmaSem sig := 121
abbrev cc15_sem3_0 : DmaSem sig := 122
abbrev cc15_sem3_1 : DmaSem sig := 123
abbrev cc15_sem4_0 : DmaSem sig := 124
abbrev cc15_sem4_1 : DmaSem sig := 125
abbrev cc15_sem5_0 : DmaSem sig := 126
abbrev cc15_sem5_1 : DmaSem sig := 127
abbrev cc16_sem0_0 : DmaSem sig := 128
abbrev cc16_sem0_1 : DmaSem sig := 129
abbrev cc16_sem1_0 : DmaSem sig := 130
abbrev cc16_sem1_1 : DmaSem sig := 131
abbrev cc16_sem2_0 : DmaSem sig := 132
abbrev cc17_sem0_0 : DmaSem sig := 133
abbrev cc17_sem1_0 : DmaSem sig := 134
abbrev cc17_sem1_1 : DmaSem sig := 135
abbrev cc17_sem2_0 : DmaSem sig := 136
abbrev cc17_sem2_1 : DmaSem sig := 137
abbrev cc17_sem3_0 : DmaSem sig := 138
abbrev cc17_sem3_1 : DmaSem sig := 139
abbrev cc17_sem4_0 : DmaSem sig := 140
abbrev cc17_sem4_1 : DmaSem sig := 141
abbrev cc17_sem5_0 : DmaSem sig := 142
abbrev cc17_sem5_1 : DmaSem sig := 143
abbrev cc18_sem0_0 : DmaSem sig := 144
abbrev cc18_sem0_1 : DmaSem sig := 145
abbrev cc18_sem1_0 : DmaSem sig := 146
abbrev cc18_sem1_1 : DmaSem sig := 147
abbrev cc18_sem2_0 : DmaSem sig := 148
abbrev cc19_sem0_0 : DmaSem sig := 149
abbrev cc19_sem1_0 : DmaSem sig := 150
abbrev cc19_sem1_1 : DmaSem sig := 151
abbrev cc19_sem2_0 : DmaSem sig := 152
abbrev cc19_sem2_1 : DmaSem sig := 153
abbrev cc19_sem3_0 : DmaSem sig := 154
abbrev cc19_sem3_1 : DmaSem sig := 155
abbrev cc19_sem4_0 : DmaSem sig := 156
abbrev cc19_sem4_1 : DmaSem sig := 157
abbrev cc19_sem5_0 : DmaSem sig := 158
abbrev cc19_sem5_1 : DmaSem sig := 159
abbrev cc20_sem0_0 : DmaSem sig := 160
abbrev cc20_sem0_1 : DmaSem sig := 161
abbrev cc20_sem1_0 : DmaSem sig := 162
abbrev cc20_sem1_1 : DmaSem sig := 163
abbrev cc20_sem2_0 : DmaSem sig := 164
abbrev cc21_sem0_0 : DmaSem sig := 165
abbrev cc21_sem1_0 : DmaSem sig := 166
abbrev cc21_sem1_1 : DmaSem sig := 167
abbrev cc21_sem2_0 : DmaSem sig := 168
abbrev cc21_sem2_1 : DmaSem sig := 169
abbrev cc21_sem3_0 : DmaSem sig := 170
abbrev cc21_sem3_1 : DmaSem sig := 171
abbrev cc21_sem4_0 : DmaSem sig := 172
abbrev cc21_sem4_1 : DmaSem sig := 173
abbrev cc21_sem5_0 : DmaSem sig := 174
abbrev cc21_sem5_1 : DmaSem sig := 175
abbrev cc22_sem0_0 : DmaSem sig := 176
abbrev cc22_sem0_1 : DmaSem sig := 177
abbrev cc22_sem1_0 : DmaSem sig := 178
abbrev cc22_sem1_1 : DmaSem sig := 179
abbrev cc22_sem2_0 : DmaSem sig := 180
abbrev cc23_sem0_0 : DmaSem sig := 181
abbrev cc23_sem1_0 : DmaSem sig := 182
abbrev cc23_sem1_1 : DmaSem sig := 183
abbrev cc23_sem2_0 : DmaSem sig := 184
abbrev cc23_sem2_1 : DmaSem sig := 185
abbrev cc23_sem3_0 : DmaSem sig := 186
abbrev cc23_sem3_1 : DmaSem sig := 187
abbrev cc23_sem4_0 : DmaSem sig := 188
abbrev cc23_sem4_1 : DmaSem sig := 189
abbrev cc23_sem5_0 : DmaSem sig := 190
abbrev cc23_sem5_1 : DmaSem sig := 191

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v20 : BitVec 1 := Scalar.cmpi .eq arg0 c7_i32
  let arg1 : BitVec 32 := BitVec.ofNat 32 (i 1).val
  let c7_i32_11 : BitVec 32 := 7#32
  let v21 : BitVec 1 := Scalar.cmpi .eq arg1 c7_i32_11
  let v22 : BitVec 1 := Scalar.andi v20 v21
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 8], ![false, false]⟩

def k2_cond2 (i : grid2.Coords) : BitVec 1 :=
  let arg0 : BitVec 32 := BitVec.ofNat 32 (i 0).val
  let c7_i32 : BitVec 32 := 7#32
  let v20 : BitVec 1 := Scalar.cmpi .eq arg0 c7_i32
  let arg1 : BitVec 32 := BitVec.ofNat 32 (i 1).val
  let c7_i32_11 : BitVec 32 := 7#32
  let v21 : BitVec 1 := Scalar.cmpi .eq arg1 c7_i32_11
  let v22 : BitVec 1 := Scalar.andi v20 v21
  let v23 : BitVec 32 := Scalar.extui v22
  let c0_i32_12 : BitVec 32 := 0#32
  let v24 : BitVec 1 := Scalar.cmpi .ne v23 c0_i32_12
  v24

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_13 : BitVec 32 := 0#32
  let v27 : BitVec 1 := Scalar.cmpi .ne v26 c0_i32_13
  v27

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 1 → Memref sig .tc .vmem S1x1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S512x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S512x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S512x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev grid4 : Pipeline.Grid := ⟨2, ![8, 8], ![false, false]⟩

def k4_cond2 (i : grid4.Coords) : BitVec 1 :=
  let arg0 : BitVec 32 := BitVec.ofNat 32 (i 0).val
  let c7_i32 : BitVec 32 := 7#32
  let v20 : BitVec 1 := Scalar.cmpi .eq arg0 c7_i32
  let arg1 : BitVec 32 := BitVec.ofNat 32 (i 1).val
  let c7_i32_11 : BitVec 32 := 7#32
  let v21 : BitVec 1 := Scalar.cmpi .eq arg1 c7_i32_11
  let v22 : BitVec 1 := Scalar.andi v20 v21
  let v23 : BitVec 32 := Scalar.extui v22
  let c0_i32_12 : BitVec 32 := 0#32
  let v24 : BitVec 1 := Scalar.cmpi .ne v23 c0_i32_12
  v24

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S512x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S512x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev grid5 : Pipeline.Grid := ⟨2, ![8, 8], ![false, false]⟩

def k5_cond2 (i : grid5.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_13 : BitVec 32 := 0#32
  let v27 : BitVec 1 := Scalar.cmpi .ne v26 c0_i32_13
  v27

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 1 → Memref sig .tc .vmem S1x1 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false]

abbrev stage5_1 : Fin 2 → Memref sig .tc .vmem S512x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S512x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S512x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S512x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![false, true]

abbrev stage5_5 : Fin 2 → Memref sig .tc .vmem S512x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev grid6 : Pipeline.Grid := ⟨2, ![8, 8], ![false, false]⟩

def k6_cond2 (i : grid6.Coords) : BitVec 1 :=
  let arg0 : BitVec 32 := BitVec.ofNat 32 (i 0).val
  let c7_i32 : BitVec 32 := 7#32
  let v20 : BitVec 1 := Scalar.cmpi .eq arg0 c7_i32
  let arg1 : BitVec 32 := BitVec.ofNat 32 (i 1).val
  let c7_i32_11 : BitVec 32 := 7#32
  let v21 : BitVec 1 := Scalar.cmpi .eq arg1 c7_i32_11
  let v22 : BitVec 1 := Scalar.andi v20 v21
  let v23 : BitVec 32 := Scalar.extui v22
  let c0_i32_12 : BitVec 32 := 0#32
  let v24 : BitVec 1 := Scalar.cmpi .ne v23 c0_i32_12
  v24

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S512x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S512x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev grid7 : Pipeline.Grid := ⟨2, ![8, 8], ![false, false]⟩

def k7_cond2 (i : grid7.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_13 : BitVec 32 := 0#32
  let v26 : BitVec 1 := Scalar.cmpi .ne v25 c0_i32_13
  v26

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 1 → Memref sig .tc .vmem S1x1 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false, false]

abbrev stage7_1 : Fin 2 → Memref sig .tc .vmem S512x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S512x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S512x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev stage7_4 : Fin 2 → Memref sig .tc .vmem S512x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![false, true]

abbrev stage7_5 : Fin 2 → Memref sig .tc .vmem S512x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, false]

abbrev grid8 : Pipeline.Grid := ⟨2, ![8, 8], ![false, false]⟩

def k8_cond2 (i : grid8.Coords) : BitVec 1 :=
  let arg0 : BitVec 32 := BitVec.ofNat 32 (i 0).val
  let c7_i32 : BitVec 32 := 7#32
  let v20 : BitVec 1 := Scalar.cmpi .eq arg0 c7_i32
  let arg1 : BitVec 32 := BitVec.ofNat 32 (i 1).val
  let c7_i32_11 : BitVec 32 := 7#32
  let v21 : BitVec 1 := Scalar.cmpi .eq arg1 c7_i32_11
  let v22 : BitVec 1 := Scalar.andi v20 v21
  let v23 : BitVec 32 := Scalar.extui v22
  let c0_i32_12 : BitVec 32 := 0#32
  let v24 : BitVec 1 := Scalar.cmpi .ne v23 c0_i32_12
  v24

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S512x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S512x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 1 → Memref sig .tc .vmem S1x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev grid9 : Pipeline.Grid := ⟨2, ![8, 8], ![false, false]⟩

def k9_cond2 (i : grid9.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_13 : BitVec 32 := 0#32
  let v27 : BitVec 1 := Scalar.cmpi .ne v26 c0_i32_13
  v27

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_5 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 1 → Memref sig .tc .vmem S1x1 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false, false]

abbrev stage9_1 : Fin 2 → Memref sig .tc .vmem S512x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false]

abbrev stage9_2 : Fin 2 → Memref sig .tc .vmem S512x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![false, true]

abbrev stage9_3 : Fin 2 → Memref sig .tc .vmem S512x256 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev stage9_4 : Fin 2 → Memref sig .tc .vmem S512x256 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![false, true]

abbrev stage9_5 : Fin 2 → Memref sig .tc .vmem S512x256 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, false]

abbrev grid10 : Pipeline.Grid := ⟨2, ![8, 8], ![false, false]⟩

def k10_cond2 (i : grid10.Coords) : BitVec 1 :=
  let arg0 : BitVec 32 := BitVec.ofNat 32 (i 0).val
  let c7_i32 : BitVec 32 := 7#32
  let v20 : BitVec 1 := Scalar.cmpi .eq arg0 c7_i32
  let arg1 : BitVec 32 := BitVec.ofNat 32 (i 1).val
  let c7_i32_11 : BitVec 32 := 7#32
  let v21 : BitVec 1 := Scalar.cmpi .eq arg1 c7_i32_11
  let v22 : BitVec 1 := Scalar.andi v20 v21
  let v23 : BitVec 32 := Scalar.extui v22
  let c0_i32_12 : BitVec 32 := 0#32
  let v24 : BitVec 1 := Scalar.cmpi .ne v23 c0_i32_12
  v24

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S512x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S512x256 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 1 → Memref sig .tc .vmem S1x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false, false]

abbrev grid11 : Pipeline.Grid := ⟨2, ![8, 8], ![false, false]⟩

def k11_cond2 (i : grid11.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_13 : BitVec 32 := 0#32
  let v27 : BitVec 1 := Scalar.cmpi .ne v26 c0_i32_13
  v27

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_5 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 1 → Memref sig .tc .vmem S1x1 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false, false]

abbrev stage11_1 : Fin 2 → Memref sig .tc .vmem S512x256 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true, false]

abbrev stage11_2 : Fin 2 → Memref sig .tc .vmem S512x256 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![false, true]

abbrev stage11_3 : Fin 2 → Memref sig .tc .vmem S512x256 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, false]

abbrev stage11_4 : Fin 2 → Memref sig .tc .vmem S512x256 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![false, true]

abbrev stage11_5 : Fin 2 → Memref sig .tc .vmem S512x256 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true, false]

abbrev grid12 : Pipeline.Grid := ⟨2, ![8, 8], ![false, false]⟩

def k12_cond2 (i : grid12.Coords) : BitVec 1 :=
  let arg0 : BitVec 32 := BitVec.ofNat 32 (i 0).val
  let c7_i32 : BitVec 32 := 7#32
  let v20 : BitVec 1 := Scalar.cmpi .eq arg0 c7_i32
  let arg1 : BitVec 32 := BitVec.ofNat 32 (i 1).val
  let c7_i32_11 : BitVec 32 := 7#32
  let v21 : BitVec 1 := Scalar.cmpi .eq arg1 c7_i32_11
  let v22 : BitVec 1 := Scalar.andi v20 v21
  let v23 : BitVec 32 := Scalar.extui v22
  let c0_i32_12 : BitVec 32 := 0#32
  let v24 : BitVec 1 := Scalar.cmpi .ne v23 c0_i32_12
  v24

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S512x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false]

abbrev stage12_1 : Fin 2 → Memref sig .tc .vmem S512x256 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true]

abbrev stage12_2 : Fin 1 → Memref sig .tc .vmem S1x1 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false, false]

abbrev grid13 : Pipeline.Grid := ⟨2, ![8, 8], ![false, false]⟩

def k13_cond2 (i : grid13.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_13 : BitVec 32 := 0#32
  let v26 : BitVec 1 := Scalar.cmpi .ne v25 c0_i32_13
  v26

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc13_transform_3 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc13_transform_5 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage13_0 : Fin 1 → Memref sig .tc .vmem S1x1 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false, false]

abbrev stage13_1 : Fin 2 → Memref sig .tc .vmem S512x256 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true, false]

abbrev stage13_2 : Fin 2 → Memref sig .tc .vmem S512x256 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![false, true]

abbrev stage13_3 : Fin 2 → Memref sig .tc .vmem S512x256 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true, false]

abbrev stage13_4 : Fin 2 → Memref sig .tc .vmem S512x256 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![false, true]

abbrev stage13_5 : Fin 2 → Memref sig .tc .vmem S512x256 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true, false]

abbrev grid14 : Pipeline.Grid := ⟨2, ![8, 8], ![false, false]⟩

def k14_cond2 (i : grid14.Coords) : BitVec 1 :=
  let arg0 : BitVec 32 := BitVec.ofNat 32 (i 0).val
  let c7_i32 : BitVec 32 := 7#32
  let v20 : BitVec 1 := Scalar.cmpi .eq arg0 c7_i32
  let arg1 : BitVec 32 := BitVec.ofNat 32 (i 1).val
  let c7_i32_11 : BitVec 32 := 7#32
  let v21 : BitVec 1 := Scalar.cmpi .eq arg1 c7_i32_11
  let v22 : BitVec 1 := Scalar.andi v20 v21
  let v23 : BitVec 32 := Scalar.extui v22
  let c0_i32_12 : BitVec 32 := 0#32
  let v24 : BitVec 1 := Scalar.cmpi .ne v23 c0_i32_12
  v24

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S512x256 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, false]

abbrev stage14_1 : Fin 2 → Memref sig .tc .vmem S512x256 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true]

abbrev stage14_2 : Fin 1 → Memref sig .tc .vmem S1x1 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false, false]

abbrev grid15 : Pipeline.Grid := ⟨2, ![8, 8], ![false, false]⟩

def k15_cond2 (i : grid15.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_13 : BitVec 32 := 0#32
  let v27 : BitVec 1 := Scalar.cmpi .ne v26 c0_i32_13
  v27

def cc15_transform_0 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc15_transform_1 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc15_transform_3 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc15_transform_4 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc15_transform_5 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage15_0 : Fin 1 → Memref sig .tc .vmem S1x1 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![false, false]

abbrev stage15_1 : Fin 2 → Memref sig .tc .vmem S512x256 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true, false]

abbrev stage15_2 : Fin 2 → Memref sig .tc .vmem S512x256 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![false, true]

abbrev stage15_3 : Fin 2 → Memref sig .tc .vmem S512x256 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true, false]

abbrev stage15_4 : Fin 2 → Memref sig .tc .vmem S512x256 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![false, true]

abbrev stage15_5 : Fin 2 → Memref sig .tc .vmem S512x256 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true, false]

abbrev grid16 : Pipeline.Grid := ⟨2, ![8, 8], ![false, false]⟩

def k16_cond2 (i : grid16.Coords) : BitVec 1 :=
  let arg0 : BitVec 32 := BitVec.ofNat 32 (i 0).val
  let c7_i32 : BitVec 32 := 7#32
  let v20 : BitVec 1 := Scalar.cmpi .eq arg0 c7_i32
  let arg1 : BitVec 32 := BitVec.ofNat 32 (i 1).val
  let c7_i32_11 : BitVec 32 := 7#32
  let v21 : BitVec 1 := Scalar.cmpi .eq arg1 c7_i32_11
  let v22 : BitVec 1 := Scalar.andi v20 v21
  let v23 : BitVec 32 := Scalar.extui v22
  let c0_i32_12 : BitVec 32 := 0#32
  let v24 : BitVec 1 := Scalar.cmpi .ne v23 c0_i32_12
  v24

def cc16_transform_0 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc16_transform_2 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage16_0 : Fin 2 → Memref sig .tc .vmem S512x256 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, false]

abbrev stage16_1 : Fin 2 → Memref sig .tc .vmem S512x256 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![false, true]

abbrev stage16_2 : Fin 1 → Memref sig .tc .vmem S1x1 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false, false]

abbrev grid17 : Pipeline.Grid := ⟨2, ![8, 8], ![false, false]⟩

def k17_cond2 (i : grid17.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_13 : BitVec 32 := 0#32
  let v27 : BitVec 1 := Scalar.cmpi .ne v26 c0_i32_13
  v27

def cc17_transform_0 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc17_transform_1 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc17_transform_3 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc17_transform_4 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc17_transform_5 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage17_0 : Fin 1 → Memref sig .tc .vmem S1x1 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![false, false]

abbrev stage17_1 : Fin 2 → Memref sig .tc .vmem S512x256 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true, false]

abbrev stage17_2 : Fin 2 → Memref sig .tc .vmem S512x256 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![false, true]

abbrev stage17_3 : Fin 2 → Memref sig .tc .vmem S512x256 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true, false]

abbrev stage17_4 : Fin 2 → Memref sig .tc .vmem S512x256 .f32 := fun | 0 => Memref.whole cc17_stg4_0 | 1 => Memref.whole cc17_stg4_1 | ⟨_ + 2, h⟩ => absurd h (Nat.not_lt.2 (Nat.le_add_left _ _))
abbrev sem17_4 : Fin 2 → DmaSem sig := fun | 0 => cc17_sem4_0 | 1 => cc17_sem4_1 | ⟨_ + 2, h⟩ => absurd h (Nat.not_lt.2 (Nat.le_add_left _ _))
abbrev reads17_4 : Fin grid17.rank → Bool := ![false, true]

abbrev stage17_5 : Fin 2 → Memref sig .tc .vmem S512x256 .f32 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![true, false]

abbrev grid18 : Pipeline.Grid := ⟨2, ![8, 8], ![false, false]⟩

def k18_cond2 (i : grid18.Coords) : BitVec 1 :=
  let arg0 : BitVec 32 := BitVec.ofNat 32 (i 0).val
  let c7_i32 : BitVec 32 := 7#32
  let v20 : BitVec 1 := Scalar.cmpi .eq arg0 c7_i32
  let arg1 : BitVec 32 := BitVec.ofNat 32 (i 1).val
  let c7_i32_11 : BitVec 32 := 7#32
  let v21 : BitVec 1 := Scalar.cmpi .eq arg1 c7_i32_11
  let v22 : BitVec 1 := Scalar.andi v20 v21
  let v23 : BitVec 32 := Scalar.extui v22
  let c0_i32_12 : BitVec 32 := 0#32
  let v24 : BitVec 1 := Scalar.cmpi .ne v23 c0_i32_12
  v24

def cc18_transform_0 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc18_transform_2 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage18_0 : Fin 2 → Memref sig .tc .vmem S512x256 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true, false]

abbrev stage18_1 : Fin 2 → Memref sig .tc .vmem S512x256 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![false, true]

abbrev stage18_2 : Fin 1 → Memref sig .tc .vmem S1x1 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false, false]

abbrev grid19 : Pipeline.Grid := ⟨2, ![8, 8], ![false, false]⟩

def k19_cond2 (i : grid19.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_13 : BitVec 32 := 0#32
  let v26 : BitVec 1 := Scalar.cmpi .ne v25 c0_i32_13
  v26

def cc19_transform_0 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc19_transform_1 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc19_transform_3 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc19_transform_4 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc19_transform_5 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage19_0 : Fin 1 → Memref sig .tc .vmem S1x1 .f32 := fun | 0 => Memref.whole cc19_stg0_0 | ⟨_ + 1, h⟩ => absurd h (Nat.not_lt.2 (Nat.le_add_left _ _))
abbrev sem19_0 : Fin 1 → DmaSem sig := fun | 0 => cc19_sem0_0 | ⟨_ + 1, h⟩ => absurd h (Nat.not_lt.2 (Nat.le_add_left _ _))
abbrev reads19_0 : Fin grid19.rank → Bool := ![false, false]

abbrev stage19_1 : Fin 2 → Memref sig .tc .vmem S512x256 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true, false]

abbrev stage19_2 : Fin 2 → Memref sig .tc .vmem S512x256 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![false, true]

abbrev stage19_3 : Fin 2 → Memref sig .tc .vmem S512x256 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true, false]

abbrev stage19_4 : Fin 2 → Memref sig .tc .vmem S512x256 .f32 := fun | 0 => Memref.whole cc19_stg4_0 | 1 => Memref.whole cc19_stg4_1 | ⟨_ + 2, h⟩ => absurd h (Nat.not_lt.2 (Nat.le_add_left _ _))
abbrev sem19_4 : Fin 2 → DmaSem sig := fun | 0 => cc19_sem4_0 | 1 => cc19_sem4_1 | ⟨_ + 2, h⟩ => absurd h (Nat.not_lt.2 (Nat.le_add_left _ _))
abbrev reads19_4 : Fin grid19.rank → Bool := ![false, true]

abbrev stage19_5 : Fin 2 → Memref sig .tc .vmem S512x256 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true, false]

abbrev grid20 : Pipeline.Grid := ⟨2, ![8, 8], ![false, false]⟩

def k20_cond2 (i : grid20.Coords) : BitVec 1 :=
  let arg0 : BitVec 32 := BitVec.ofNat 32 (i 0).val
  let c7_i32 : BitVec 32 := 7#32
  let v20 : BitVec 1 := Scalar.cmpi .eq arg0 c7_i32
  let arg1 : BitVec 32 := BitVec.ofNat 32 (i 1).val
  let c7_i32_11 : BitVec 32 := 7#32
  let v21 : BitVec 1 := Scalar.cmpi .eq arg1 c7_i32_11
  let v22 : BitVec 1 := Scalar.andi v20 v21
  let v23 : BitVec 32 := Scalar.extui v22
  let c0_i32_12 : BitVec 32 := 0#32
  let v24 : BitVec 1 := Scalar.cmpi .ne v23 c0_i32_12
  v24

def cc20_transform_0 (i : grid20.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc20_transform_2 (i : grid20.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage20_0 : Fin 2 → Memref sig .tc .vmem S512x256 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true, false]

abbrev stage20_1 : Fin 2 → Memref sig .tc .vmem S512x256 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![false, true]

abbrev stage20_2 : Fin 1 → Memref sig .tc .vmem S1x1 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false, false]

abbrev grid21 : Pipeline.Grid := ⟨2, ![8, 8], ![false, false]⟩

def k21_cond2 (i : grid21.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_13 : BitVec 32 := 0#32
  let v27 : BitVec 1 := Scalar.cmpi .ne v26 c0_i32_13
  v27

def cc21_transform_0 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc21_transform_1 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc21_transform_2 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc21_transform_3 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc21_transform_4 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc21_transform_5 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage21_0 : Fin 1 → Memref sig .tc .vmem S1x1 .f32 := fun | 0 => Memref.whole cc21_stg0_0 | ⟨_ + 1, h⟩ => absurd h (Nat.not_lt.2 (Nat.le_add_left _ _))
abbrev sem21_0 : Fin 1 → DmaSem sig := fun | 0 => cc21_sem0_0 | ⟨_ + 1, h⟩ => absurd h (Nat.not_lt.2 (Nat.le_add_left _ _))
abbrev reads21_0 : Fin grid21.rank → Bool := ![false, false]

abbrev stage21_1 : Fin 2 → Memref sig .tc .vmem S512x256 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true, false]

abbrev stage21_2 : Fin 2 → Memref sig .tc .vmem S512x256 .f32 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![false, true]

abbrev stage21_3 : Fin 2 → Memref sig .tc .vmem S512x256 .f32 := fun | 0 => Memref.whole cc21_stg3_0 | 1 => Memref.whole cc21_stg3_1 | ⟨_ + 2, h⟩ => absurd h (Nat.not_lt.2 (Nat.le_add_left _ _))
abbrev sem21_3 : Fin 2 → DmaSem sig := fun | 0 => cc21_sem3_0 | 1 => cc21_sem3_1 | ⟨_ + 2, h⟩ => absurd h (Nat.not_lt.2 (Nat.le_add_left _ _))
abbrev reads21_3 : Fin grid21.rank → Bool := ![true, false]

abbrev stage21_4 : Fin 2 → Memref sig .tc .vmem S512x256 .f32 := fun | 0 => Memref.whole cc21_stg4_0 | 1 => Memref.whole cc21_stg4_1 | ⟨_ + 2, h⟩ => absurd h (Nat.not_lt.2 (Nat.le_add_left _ _))
abbrev sem21_4 : Fin 2 → DmaSem sig := fun | 0 => cc21_sem4_0 | 1 => cc21_sem4_1 | ⟨_ + 2, h⟩ => absurd h (Nat.not_lt.2 (Nat.le_add_left _ _))
abbrev reads21_4 : Fin grid21.rank → Bool := ![false, true]

abbrev stage21_5 : Fin 2 → Memref sig .tc .vmem S512x256 .f32 := fun | 0 => Memref.whole cc21_stg5_0 | 1 => Memref.whole cc21_stg5_1 | ⟨_ + 2, h⟩ => absurd h (Nat.not_lt.2 (Nat.le_add_left _ _))
abbrev sem21_5 : Fin 2 → DmaSem sig := fun | 0 => cc21_sem5_0 | 1 => cc21_sem5_1 | ⟨_ + 2, h⟩ => absurd h (Nat.not_lt.2 (Nat.le_add_left _ _))
abbrev reads21_5 : Fin grid21.rank → Bool := ![true, false]

abbrev grid22 : Pipeline.Grid := ⟨2, ![8, 8], ![false, false]⟩

def k22_cond2 (i : grid22.Coords) : BitVec 1 :=
  let arg0 : BitVec 32 := BitVec.ofNat 32 (i 0).val
  let c7_i32 : BitVec 32 := 7#32
  let v20 : BitVec 1 := Scalar.cmpi .eq arg0 c7_i32
  let arg1 : BitVec 32 := BitVec.ofNat 32 (i 1).val
  let c7_i32_11 : BitVec 32 := 7#32
  let v21 : BitVec 1 := Scalar.cmpi .eq arg1 c7_i32_11
  let v22 : BitVec 1 := Scalar.andi v20 v21
  let v23 : BitVec 32 := Scalar.extui v22
  let c0_i32_12 : BitVec 32 := 0#32
  let v24 : BitVec 1 := Scalar.cmpi .ne v23 c0_i32_12
  v24

def cc22_transform_0 (i : grid22.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc22_transform_2 (i : grid22.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage22_0 : Fin 2 → Memref sig .tc .vmem S512x256 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true, false]

abbrev stage22_1 : Fin 2 → Memref sig .tc .vmem S512x256 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![false, true]

abbrev stage22_2 : Fin 1 → Memref sig .tc .vmem S1x1 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false, false]

abbrev grid23 : Pipeline.Grid := ⟨2, ![8, 8], ![false, false]⟩

def k23_cond2 (i : grid23.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_13 : BitVec 32 := 0#32
  let v27 : BitVec 1 := Scalar.cmpi .ne v26 c0_i32_13
  v27

def cc23_transform_0 (i : grid23.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc23_transform_1 (i : grid23.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc23_transform_2 (i : grid23.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc23_transform_3 (i : grid23.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc23_transform_4 (i : grid23.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc23_transform_5 (i : grid23.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage23_0 : Fin 1 → Memref sig .tc .vmem S1x1 .f32 := fun | 0 => Memref.whole cc23_stg0_0 | ⟨_ + 1, h⟩ => absurd h (Nat.not_lt.2 (Nat.le_add_left _ _))
abbrev sem23_0 : Fin 1 → DmaSem sig := fun | 0 => cc23_sem0_0 | ⟨_ + 1, h⟩ => absurd h (Nat.not_lt.2 (Nat.le_add_left _ _))
abbrev reads23_0 : Fin grid23.rank → Bool := ![false, false]

abbrev stage23_1 : Fin 2 → Memref sig .tc .vmem S512x256 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![true, false]

abbrev stage23_2 : Fin 2 → Memref sig .tc .vmem S512x256 .f32 := fun | 0 => Memref.whole cc23_stg2_0 | 1 => Memref.whole cc23_stg2_1 | ⟨_ + 2, h⟩ => absurd h (Nat.not_lt.2 (Nat.le_add_left _ _))
abbrev sem23_2 : Fin 2 → DmaSem sig := fun | 0 => cc23_sem2_0 | 1 => cc23_sem2_1 | ⟨_ + 2, h⟩ => absurd h (Nat.not_lt.2 (Nat.le_add_left _ _))
abbrev reads23_2 : Fin grid23.rank → Bool := ![false, true]

abbrev stage23_3 : Fin 2 → Memref sig .tc .vmem S512x256 .f32 := fun | 0 => Memref.whole cc23_stg3_0 | 1 => Memref.whole cc23_stg3_1 | ⟨_ + 2, h⟩ => absurd h (Nat.not_lt.2 (Nat.le_add_left _ _))
abbrev sem23_3 : Fin 2 → DmaSem sig := fun | 0 => cc23_sem3_0 | 1 => cc23_sem3_1 | ⟨_ + 2, h⟩ => absurd h (Nat.not_lt.2 (Nat.le_add_left _ _))
abbrev reads23_3 : Fin grid23.rank → Bool := ![true, false]

abbrev stage23_4 : Fin 2 → Memref sig .tc .vmem S512x256 .f32 := fun | 0 => Memref.whole cc23_stg4_0 | 1 => Memref.whole cc23_stg4_1 | ⟨_ + 2, h⟩ => absurd h (Nat.not_lt.2 (Nat.le_add_left _ _))
abbrev sem23_4 : Fin 2 → DmaSem sig := fun | 0 => cc23_sem4_0 | 1 => cc23_sem4_1 | ⟨_ + 2, h⟩ => absurd h (Nat.not_lt.2 (Nat.le_add_left _ _))
abbrev reads23_4 : Fin grid23.rank → Bool := ![false, true]

abbrev stage23_5 : Fin 2 → Memref sig .tc .vmem S512x256 .f32 := fun | 0 => Memref.whole cc23_stg5_0 | 1 => Memref.whole cc23_stg5_1 | ⟨_ + 2, h⟩ => absurd h (Nat.not_lt.2 (Nat.le_add_left _ _))
abbrev sem23_5 : Fin 2 → DmaSem sig := fun | 0 => cc23_sem5_0 | 1 => cc23_sem5_1 | ⟨_ + 2, h⟩ => absurd h (Nat.not_lt.2 (Nat.le_add_left _ _))
abbrev reads23_5 : Fin grid23.rank → Bool := ![true, false]

class Facts₀ : Prop where
  bcast_S_S4096x256 : S_.BroadcastsInDim S4096x256 (![] : Fin 0 → Fin S4096x256.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  slices_S2x256x256_S1x256x256_1_0_0 : S2x256x256.Slices ![1, 0, 0] S1x256x256
  slices_S2x256_S1x256_1_0 : S2x256.Slices ![1, 0] S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  bcast_S_S1x1 : S_.BroadcastsInDim S1x1 (![] : Fin 0 → Fin S1x1.rank)
  inpos_S1x1_p0_0 : ∀ a, (![0, 0] : Fin 2 → Nat) a < S1x1.size a
  natLt_1_32 : 1 < 32
  bitsLt_bf16_f32 : FTy.bits .bf16 < FTy.bits .f32
  slices_S3x2x256x256_S1x2x256x256_0_0_0_0 : S3x2x256x256.Slices ![0, 0, 0, 0] S1x2x256x256
  shapeCasts_S1x2x256x256_S2x256x256 : S1x2x256x256.ShapeCasts S2x256x256
  slices_S3x2x256_S1x2x256_0_0_0 : S3x2x256.Slices ![0, 0, 0] S1x2x256
  shapeCasts_S1x2x256_S2x256 : S1x2x256.ShapeCasts S2x256
  reducesTo_S4096x256_S256_d0 : S4096x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  slices_S3x2x256x256_S1x2x256x256_1_0_0_0 : S3x2x256x256.Slices ![1, 0, 0, 0] S1x2x256x256
  slices_S3x2x256_S1x2x256_1_0_0 : S3x2x256.Slices ![1, 0, 0] S1x2x256
  slices_S3x2x256x256_S1x2x256x256_2_0_0_0 : S3x2x256x256.Slices ![2, 0, 0, 0] S1x2x256x256
  slices_S3x2x256_S1x2x256_2_0_0 : S3x2x256.Slices ![2, 0, 0] S1x2x256
  reducesTo_S4096x256_S_d0_1 : S4096x256.ReducesTo [0, 1] S_
  dot_S4096x256_S256x256_S4096x256_1_0_0_1_n_n_wf : DotDims.WF S4096x256 S256x256 S4096x256 [1] [0] [0] [1] [] []
  dot_S512x256_S256x512_S512x512_1_0_0_1_n_n_wf : DotDims.WF S512x256 S256x512 S512x512 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S4096x256.size a
  hwx1_1 : ∀ i : grid1.Coords, EltTy.bits .f32 = 32 ∨ (Rect.block (s := S4096x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S4096x256.size a
  hwx1_2 : ∀ i : grid1.Coords, EltTy.bits .f32 = 32 ∨ (Rect.block (s := S4096x256) S512x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S4096x256.size a
  hwx1_3 : ∀ i : grid1.Coords, EltTy.bits .f32 = 32 ∨ (Rect.block (s := S4096x256) S512x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S4096x256.size a
  hwx1_4 : ∀ i : grid1.Coords, EltTy.bits .f32 = 32 ∨ (Rect.block (s := S4096x256) S512x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S4096x256.size a
  hwx1_5 : ∀ i : grid1.Coords, EltTy.bits .f32 = 32 ∨ (Rect.block (s := S4096x256) S512x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S4096x256.size a
  hwx2_0 : ∀ i : grid2.Coords, EltTy.bits .f32 = 32 ∨ (Rect.block (s := S4096x256) S512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S4096x256.size a
  hwx2_1 : ∀ i : grid2.Coords, EltTy.bits .f32 = 32 ∨ (Rect.block (s := S4096x256) S512x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x1.size a ≤ S1x1.size a
  hwx3_0 : ∀ i : grid3.Coords, EltTy.bits .f32 = 32 ∨ (Rect.block (s := S1x1) S1x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S4096x256.size a
  hwx3_1 : ∀ i : grid3.Coords, EltTy.bits .f32 = 32 ∨ (Rect.block (s := S4096x256) S512x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x256.size a ≤ S4096x256.size a
  hwx3_2 : ∀ i : grid3.Coords, EltTy.bits .f32 = 32 ∨ (Rect.block (s := S4096x256) S512x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x256.size a ≤ S4096x256.size a
  hwx3_3 : ∀ i : grid3.Coords, EltTy.bits .f32 = 32 ∨ (Rect.block (s := S4096x256) S512x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x256.size a ≤ S4096x256.size a
  hwx3_4 : ∀ i : grid3.Coords, EltTy.bits .f32 = 32 ∨ (Rect.block (s := S4096x256) S512x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x256.size a ≤ S4096x256.size a
  hwx3_5 : ∀ i : grid3.Coords, EltTy.bits .f32 = 32 ∨ (Rect.block (s := S4096x256) S512x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x256.size a ≤ S4096x256.size a
  hwx4_0 : ∀ i : grid4.Coords, EltTy.bits .f32 = 32 ∨ (Rect.block (s := S4096x256) S512x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S4096x256.size a
  hwx4_1 : ∀ i : grid4.Coords, EltTy.bits .f32 = 32 ∨ (Rect.block (s := S4096x256) S512x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1x1.size a ≤ S1x1.size a
  hwx5_0 : ∀ i : grid5.Coords, EltTy.bits .f32 = 32 ∨ (Rect.block (s := S1x1) S1x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x256.size a ≤ S4096x256.size a
  hwx5_1 : ∀ i : grid5.Coords, EltTy.bits .f32 = 32 ∨ (Rect.block (s := S4096x256) S512x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x256.size a ≤ S4096x256.size a
  hwx5_2 : ∀ i : grid5.Coords, EltTy.bits .f32 = 32 ∨ (Rect.block (s := S4096x256) S512x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x256.size a ≤ S4096x256.size a
  hwx5_3 : ∀ i : grid5.Coords, EltTy.bits .f32 = 32 ∨ (Rect.block (s := S4096x256) S512x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S512x256.size a ≤ S4096x256.size a
  hwx5_4 : ∀ i : grid5.Coords, EltTy.bits .f32 = 32 ∨ (Rect.block (s := S4096x256) S512x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S512x256.size a ≤ S4096x256.size a
  hwx5_5 : ∀ i : grid5.Coords, EltTy.bits .f32 = 32 ∨ (Rect.block (s := S4096x256) S512x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x256.size a ≤ S4096x256.size a
  hwx6_0 : ∀ i : grid6.Coords, EltTy.bits .f32 = 32 ∨ (Rect.block (s := S4096x256) S512x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S512x256.size a ≤ S4096x256.size a
  hwx6_1 : ∀ i : grid6.Coords, EltTy.bits .f32 = 32 ∨ (Rect.block (s := S4096x256) S512x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S1x1.size a ≤ S1x1.size a
  hwx7_0 : ∀ i : grid7.Coords, EltTy.bits .f32 = 32 ∨ (Rect.block (s := S1x1) S1x1.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S512x256.size a ≤ S4096x256.size a
  hwx7_1 : ∀ i : grid7.Coords, EltTy.bits .f32 = 32 ∨ (Rect.block (s := S4096x256) S512x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x256.size a ≤ S4096x256.size a
  hwx7_2 : ∀ i : grid7.Coords, EltTy.bits .f32 = 32 ∨ (Rect.block (s := S4096x256) S512x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x256.size a ≤ S4096x256.size a
  hwx7_3 : ∀ i : grid7.Coords, EltTy.bits .f32 = 32 ∨ (Rect.block (s := S4096x256) S512x256.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S512x256.size a ≤ S4096x256.size a
  hwx7_4 : ∀ i : grid7.Coords, EltTy.bits .f32 = 32 ∨ (Rect.block (s := S4096x256) S512x256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S512x256.size a ≤ S4096x256.size a
  hwx7_5 : ∀ i : grid7.Coords, EltTy.bits .f32 = 32 ∨ (Rect.block (s := S4096x256) S512x256.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x256.size a ≤ S4096x256.size a
  hwx8_0 : ∀ i : grid8.Coords, EltTy.bits .f32 = 32 ∨ (Rect.block (s := S4096x256) S512x256.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S512x256.size a ≤ S4096x256.size a
  hwx8_1 : ∀ i : grid8.Coords, EltTy.bits .f32 = 32 ∨ (Rect.block (s := S4096x256) S512x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1.size a ≤ S1x1.size a
  hwx8_2 : ∀ i : grid8.Coords, EltTy.bits .f32 = 32 ∨ (Rect.block (s := S1x1) S1x1.size (cc8_transform_2 i) (hinb8_2 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S1x1.size a ≤ S1x1.size a
  hwx9_0 : ∀ i : grid9.Coords, EltTy.bits .f32 = 32 ∨ (Rect.block (s := S1x1) S1x1.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S512x256.size a ≤ S4096x256.size a
  hwx9_1 : ∀ i : grid9.Coords, EltTy.bits .f32 = 32 ∨ (Rect.block (s := S4096x256) S512x256.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S512x256.size a ≤ S4096x256.size a
  hwx9_2 : ∀ i : grid9.Coords, EltTy.bits .f32 = 32 ∨ (Rect.block (s := S4096x256) S512x256.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S512x256.size a ≤ S4096x256.size a
  hwx9_3 : ∀ i : grid9.Coords, EltTy.bits .f32 = 32 ∨ (Rect.block (s := S4096x256) S512x256.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S512x256.size a ≤ S4096x256.size a
  hwx9_4 : ∀ i : grid9.Coords, EltTy.bits .f32 = 32 ∨ (Rect.block (s := S4096x256) S512x256.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S512x256.size a ≤ S4096x256.size a
  hwx9_5 : ∀ i : grid9.Coords, EltTy.bits .f32 = 32 ∨ (Rect.block (s := S4096x256) S512x256.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S512x256.size a ≤ S4096x256.size a
  hwx10_0 : ∀ i : grid10.Coords, EltTy.bits .f32 = 32 ∨ (Rect.block (s := S4096x256) S512x256.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S512x256.size a ≤ S4096x256.size a
  hwx10_1 : ∀ i : grid10.Coords, EltTy.bits .f32 = 32 ∨ (Rect.block (s := S4096x256) S512x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x1.size a ≤ S1x1.size a
  hwx10_2 : ∀ i : grid10.Coords, EltTy.bits .f32 = 32 ∨ (Rect.block (s := S1x1) S1x1.size (cc10_transform_2 i) (hinb10_2 i)).WholeWords (EltTy.packing .f32)
  hrank11 : 0 < grid11.rank
  hstage11_0 : ∀ j, (stage11_0 j).IsWhole
  nbuf11_0 : grid11.bufCount reads11_0 true = 1
  hreads11_0 : ∀ i i' : grid11.Coords, (∀ a, reads11_0 a = true → i a = i' a) → cc11_transform_0 i = cc11_transform_0 i'
  hinb11_0 : ∀ (i : grid11.Coords) a, (cc11_transform_0 i a + 1) * S1x1.size a ≤ S1x1.size a
  hwx11_0 : ∀ i : grid11.Coords, EltTy.bits .f32 = 32 ∨ (Rect.block (s := S1x1) S1x1.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S512x256.size a ≤ S4096x256.size a
  hwx11_1 : ∀ i : grid11.Coords, EltTy.bits .f32 = 32 ∨ (Rect.block (s := S4096x256) S512x256.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S512x256.size a ≤ S4096x256.size a
  hwx11_2 : ∀ i : grid11.Coords, EltTy.bits .f32 = 32 ∨ (Rect.block (s := S4096x256) S512x256.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S512x256.size a ≤ S4096x256.size a
  hwx11_3 : ∀ i : grid11.Coords, EltTy.bits .f32 = 32 ∨ (Rect.block (s := S4096x256) S512x256.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S512x256.size a ≤ S4096x256.size a
  hwx11_4 : ∀ i : grid11.Coords, EltTy.bits .f32 = 32 ∨ (Rect.block (s := S4096x256) S512x256.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S512x256.size a ≤ S4096x256.size a
  hwx11_5 : ∀ i : grid11.Coords, EltTy.bits .f32 = 32 ∨ (Rect.block (s := S4096x256) S512x256.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S512x256.size a ≤ S4096x256.size a
  hwx12_0 : ∀ i : grid12.Coords, EltTy.bits .f32 = 32 ∨ (Rect.block (s := S4096x256) S512x256.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S512x256.size a ≤ S4096x256.size a
  hwx12_1 : ∀ i : grid12.Coords, EltTy.bits .f32 = 32 ∨ (Rect.block (s := S4096x256) S512x256.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x1.size a ≤ S1x1.size a
  hwx12_2 : ∀ i : grid12.Coords, EltTy.bits .f32 = 32 ∨ (Rect.block (s := S1x1) S1x1.size (cc12_transform_2 i) (hinb12_2 i)).WholeWords (EltTy.packing .f32)
  hrank13 : 0 < grid13.rank
  hstage13_0 : ∀ j, (stage13_0 j).IsWhole
  nbuf13_0 : grid13.bufCount reads13_0 true = 1
  hreads13_0 : ∀ i i' : grid13.Coords, (∀ a, reads13_0 a = true → i a = i' a) → cc13_transform_0 i = cc13_transform_0 i'
  hinb13_0 : ∀ (i : grid13.Coords) a, (cc13_transform_0 i a + 1) * S1x1.size a ≤ S1x1.size a
  hwx13_0 : ∀ i : grid13.Coords, EltTy.bits .f32 = 32 ∨ (Rect.block (s := S1x1) S1x1.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S512x256.size a ≤ S4096x256.size a
  hwx13_1 : ∀ i : grid13.Coords, EltTy.bits .f32 = 32 ∨ (Rect.block (s := S4096x256) S512x256.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S512x256.size a ≤ S4096x256.size a
  hwx13_2 : ∀ i : grid13.Coords, EltTy.bits .f32 = 32 ∨ (Rect.block (s := S4096x256) S512x256.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S512x256.size a ≤ S4096x256.size a
  hwx13_3 : ∀ i : grid13.Coords, EltTy.bits .f32 = 32 ∨ (Rect.block (s := S4096x256) S512x256.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S512x256.size a ≤ S4096x256.size a
  hwx13_4 : ∀ i : grid13.Coords, EltTy.bits .f32 = 32 ∨ (Rect.block (s := S4096x256) S512x256.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S512x256.size a ≤ S4096x256.size a
  hwx13_5 : ∀ i : grid13.Coords, EltTy.bits .f32 = 32 ∨ (Rect.block (s := S4096x256) S512x256.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S512x256.size a ≤ S4096x256.size a
  hwx14_0 : ∀ i : grid14.Coords, EltTy.bits .f32 = 32 ∨ (Rect.block (s := S4096x256) S512x256.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S512x256.size a ≤ S4096x256.size a
  hwx14_1 : ∀ i : grid14.Coords, EltTy.bits .f32 = 32 ∨ (Rect.block (s := S4096x256) S512x256.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x1.size a ≤ S1x1.size a
  hwx14_2 : ∀ i : grid14.Coords, EltTy.bits .f32 = 32 ∨ (Rect.block (s := S1x1) S1x1.size (cc14_transform_2 i) (hinb14_2 i)).WholeWords (EltTy.packing .f32)
  hrank15 : 0 < grid15.rank
  hstage15_0 : ∀ j, (stage15_0 j).IsWhole
  nbuf15_0 : grid15.bufCount reads15_0 true = 1
  hreads15_0 : ∀ i i' : grid15.Coords, (∀ a, reads15_0 a = true → i a = i' a) → cc15_transform_0 i = cc15_transform_0 i'
  hinb15_0 : ∀ (i : grid15.Coords) a, (cc15_transform_0 i a + 1) * S1x1.size a ≤ S1x1.size a
  hwx15_0 : ∀ i : grid15.Coords, EltTy.bits .f32 = 32 ∨ (Rect.block (s := S1x1) S1x1.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S512x256.size a ≤ S4096x256.size a
  hwx15_1 : ∀ i : grid15.Coords, EltTy.bits .f32 = 32 ∨ (Rect.block (s := S4096x256) S512x256.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S512x256.size a ≤ S4096x256.size a
  hwx15_2 : ∀ i : grid15.Coords, EltTy.bits .f32 = 32 ∨ (Rect.block (s := S4096x256) S512x256.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S512x256.size a ≤ S4096x256.size a
  hwx15_3 : ∀ i : grid15.Coords, EltTy.bits .f32 = 32 ∨ (Rect.block (s := S4096x256) S512x256.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S512x256.size a ≤ S4096x256.size a
  hwx15_4 : ∀ i : grid15.Coords, EltTy.bits .f32 = 32 ∨ (Rect.block (s := S4096x256) S512x256.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S512x256.size a ≤ S4096x256.size a
  hwx15_5 : ∀ i : grid15.Coords, EltTy.bits .f32 = 32 ∨ (Rect.block (s := S4096x256) S512x256.size (cc15_transform_5 i) (hinb15_5 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S512x256.size a ≤ S4096x256.size a
  hwx16_0 : ∀ i : grid16.Coords, EltTy.bits .f32 = 32 ∨ (Rect.block (s := S4096x256) S512x256.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S512x256.size a ≤ S4096x256.size a
  hwx16_1 : ∀ i : grid16.Coords, EltTy.bits .f32 = 32 ∨ (Rect.block (s := S4096x256) S512x256.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x1.size a ≤ S1x1.size a
  hwx16_2 : ∀ i : grid16.Coords, EltTy.bits .f32 = 32 ∨ (Rect.block (s := S1x1) S1x1.size (cc16_transform_2 i) (hinb16_2 i)).WholeWords (EltTy.packing .f32)
  hrank17 : 0 < grid17.rank
  hstage17_0 : ∀ j, (stage17_0 j).IsWhole
  nbuf17_0 : grid17.bufCount reads17_0 true = 1
  hreads17_0 : ∀ i i' : grid17.Coords, (∀ a, reads17_0 a = true → i a = i' a) → cc17_transform_0 i = cc17_transform_0 i'
  hinb17_0 : ∀ (i : grid17.Coords) a, (cc17_transform_0 i a + 1) * S1x1.size a ≤ S1x1.size a
  hwx17_0 : ∀ i : grid17.Coords, EltTy.bits .f32 = 32 ∨ (Rect.block (s := S1x1) S1x1.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S512x256.size a ≤ S4096x256.size a
  hwx17_1 : ∀ i : grid17.Coords, EltTy.bits .f32 = 32 ∨ (Rect.block (s := S4096x256) S512x256.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S512x256.size a ≤ S4096x256.size a
  hwx17_2 : ∀ i : grid17.Coords, EltTy.bits .f32 = 32 ∨ (Rect.block (s := S4096x256) S512x256.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S512x256.size a ≤ S4096x256.size a
  hwx17_3 : ∀ i : grid17.Coords, EltTy.bits .f32 = 32 ∨ (Rect.block (s := S4096x256) S512x256.size (cc17_transform_3 i) (hinb17_3 i)).WholeWords (EltTy.packing .f32)
  hstage17_4 : ∀ j, (stage17_4 j).IsWhole
  nbuf17_4 : grid17.bufCount reads17_4 false = 2
  hreads17_4 : ∀ i i' : grid17.Coords, (∀ a, reads17_4 a = true → i a = i' a) → cc17_transform_4 i = cc17_transform_4 i'
  hinb17_4 : ∀ (i : grid17.Coords) a, (cc17_transform_4 i a + 1) * S512x256.size a ≤ S4096x256.size a
  hwx17_4 : ∀ i : grid17.Coords, EltTy.bits .f32 = 32 ∨ (Rect.block (s := S4096x256) S512x256.size (cc17_transform_4 i) (hinb17_4 i)).WholeWords (EltTy.packing .f32)
  hstage17_5 : ∀ j, (stage17_5 j).IsWhole
  nbuf17_5 : grid17.bufCount reads17_5 false = 2
  hreads17_5 : ∀ i i' : grid17.Coords, (∀ a, reads17_5 a = true → i a = i' a) → cc17_transform_5 i = cc17_transform_5 i'
  hinb17_5 : ∀ (i : grid17.Coords) a, (cc17_transform_5 i a + 1) * S512x256.size a ≤ S4096x256.size a
  hwx17_5 : ∀ i : grid17.Coords, EltTy.bits .f32 = 32 ∨ (Rect.block (s := S4096x256) S512x256.size (cc17_transform_5 i) (hinb17_5 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S512x256.size a ≤ S4096x256.size a
  hwx18_0 : ∀ i : grid18.Coords, EltTy.bits .f32 = 32 ∨ (Rect.block (s := S4096x256) S512x256.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S512x256.size a ≤ S4096x256.size a
  hwx18_1 : ∀ i : grid18.Coords, EltTy.bits .f32 = 32 ∨ (Rect.block (s := S4096x256) S512x256.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x1.size a ≤ S1x1.size a
  hwx18_2 : ∀ i : grid18.Coords, EltTy.bits .f32 = 32 ∨ (Rect.block (s := S1x1) S1x1.size (cc18_transform_2 i) (hinb18_2 i)).WholeWords (EltTy.packing .f32)
  hrank19 : 0 < grid19.rank
  hstage19_0 : ∀ j, (stage19_0 j).IsWhole
  nbuf19_0 : grid19.bufCount reads19_0 true = 1
  hreads19_0 : ∀ i i' : grid19.Coords, (∀ a, reads19_0 a = true → i a = i' a) → cc19_transform_0 i = cc19_transform_0 i'
  hinb19_0 : ∀ (i : grid19.Coords) a, (cc19_transform_0 i a + 1) * S1x1.size a ≤ S1x1.size a
  hwx19_0 : ∀ i : grid19.Coords, EltTy.bits .f32 = 32 ∨ (Rect.block (s := S1x1) S1x1.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S512x256.size a ≤ S4096x256.size a
  hwx19_1 : ∀ i : grid19.Coords, EltTy.bits .f32 = 32 ∨ (Rect.block (s := S4096x256) S512x256.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S512x256.size a ≤ S4096x256.size a
  hwx19_2 : ∀ i : grid19.Coords, EltTy.bits .f32 = 32 ∨ (Rect.block (s := S4096x256) S512x256.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S512x256.size a ≤ S4096x256.size a
  hwx19_3 : ∀ i : grid19.Coords, EltTy.bits .f32 = 32 ∨ (Rect.block (s := S4096x256) S512x256.size (cc19_transform_3 i) (hinb19_3 i)).WholeWords (EltTy.packing .f32)
  hstage19_4 : ∀ j, (stage19_4 j).IsWhole
  nbuf19_4 : grid19.bufCount reads19_4 false = 2
  hreads19_4 : ∀ i i' : grid19.Coords, (∀ a, reads19_4 a = true → i a = i' a) → cc19_transform_4 i = cc19_transform_4 i'
  hinb19_4 : ∀ (i : grid19.Coords) a, (cc19_transform_4 i a + 1) * S512x256.size a ≤ S4096x256.size a
  hwx19_4 : ∀ i : grid19.Coords, EltTy.bits .f32 = 32 ∨ (Rect.block (s := S4096x256) S512x256.size (cc19_transform_4 i) (hinb19_4 i)).WholeWords (EltTy.packing .f32)
  hstage19_5 : ∀ j, (stage19_5 j).IsWhole
  nbuf19_5 : grid19.bufCount reads19_5 false = 2
  hreads19_5 : ∀ i i' : grid19.Coords, (∀ a, reads19_5 a = true → i a = i' a) → cc19_transform_5 i = cc19_transform_5 i'
  hinb19_5 : ∀ (i : grid19.Coords) a, (cc19_transform_5 i a + 1) * S512x256.size a ≤ S4096x256.size a
  hwx19_5 : ∀ i : grid19.Coords, EltTy.bits .f32 = 32 ∨ (Rect.block (s := S4096x256) S512x256.size (cc19_transform_5 i) (hinb19_5 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S512x256.size a ≤ S4096x256.size a
  hwx20_0 : ∀ i : grid20.Coords, EltTy.bits .f32 = 32 ∨ (Rect.block (s := S4096x256) S512x256.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S512x256.size a ≤ S4096x256.size a
  hwx20_1 : ∀ i : grid20.Coords, EltTy.bits .f32 = 32 ∨ (Rect.block (s := S4096x256) S512x256.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x1.size a ≤ S1x1.size a
  hwx20_2 : ∀ i : grid20.Coords, EltTy.bits .f32 = 32 ∨ (Rect.block (s := S1x1) S1x1.size (cc20_transform_2 i) (hinb20_2 i)).WholeWords (EltTy.packing .f32)
  hrank21 : 0 < grid21.rank
  hstage21_0 : ∀ j, (stage21_0 j).IsWhole
  nbuf21_0 : grid21.bufCount reads21_0 true = 1
  hreads21_0 : ∀ i i' : grid21.Coords, (∀ a, reads21_0 a = true → i a = i' a) → cc21_transform_0 i = cc21_transform_0 i'
  hinb21_0 : ∀ (i : grid21.Coords) a, (cc21_transform_0 i a + 1) * S1x1.size a ≤ S1x1.size a
  hwx21_0 : ∀ i : grid21.Coords, EltTy.bits .f32 = 32 ∨ (Rect.block (s := S1x1) S1x1.size (cc21_transform_0 i) (hinb21_0 i)).WholeWords (EltTy.packing .f32)
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S512x256.size a ≤ S4096x256.size a
  hwx21_1 : ∀ i : grid21.Coords, EltTy.bits .f32 = 32 ∨ (Rect.block (s := S4096x256) S512x256.size (cc21_transform_1 i) (hinb21_1 i)).WholeWords (EltTy.packing .f32)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S512x256.size a ≤ S4096x256.size a
  hwx21_2 : ∀ i : grid21.Coords, EltTy.bits .f32 = 32 ∨ (Rect.block (s := S4096x256) S512x256.size (cc21_transform_2 i) (hinb21_2 i)).WholeWords (EltTy.packing .f32)
  hstage21_3 : ∀ j, (stage21_3 j).IsWhole
  nbuf21_3 : grid21.bufCount reads21_3 false = 2
  hreads21_3 : ∀ i i' : grid21.Coords, (∀ a, reads21_3 a = true → i a = i' a) → cc21_transform_3 i = cc21_transform_3 i'
  hinb21_3 : ∀ (i : grid21.Coords) a, (cc21_transform_3 i a + 1) * S512x256.size a ≤ S4096x256.size a
  hwx21_3 : ∀ i : grid21.Coords, EltTy.bits .f32 = 32 ∨ (Rect.block (s := S4096x256) S512x256.size (cc21_transform_3 i) (hinb21_3 i)).WholeWords (EltTy.packing .f32)
  hstage21_4 : ∀ j, (stage21_4 j).IsWhole
  nbuf21_4 : grid21.bufCount reads21_4 false = 2
  hreads21_4 : ∀ i i' : grid21.Coords, (∀ a, reads21_4 a = true → i a = i' a) → cc21_transform_4 i = cc21_transform_4 i'
  hinb21_4 : ∀ (i : grid21.Coords) a, (cc21_transform_4 i a + 1) * S512x256.size a ≤ S4096x256.size a
  hwx21_4 : ∀ i : grid21.Coords, EltTy.bits .f32 = 32 ∨ (Rect.block (s := S4096x256) S512x256.size (cc21_transform_4 i) (hinb21_4 i)).WholeWords (EltTy.packing .f32)
  hstage21_5 : ∀ j, (stage21_5 j).IsWhole
  nbuf21_5 : grid21.bufCount reads21_5 false = 2
  hreads21_5 : ∀ i i' : grid21.Coords, (∀ a, reads21_5 a = true → i a = i' a) → cc21_transform_5 i = cc21_transform_5 i'
  hinb21_5 : ∀ (i : grid21.Coords) a, (cc21_transform_5 i a + 1) * S512x256.size a ≤ S4096x256.size a
  hwx21_5 : ∀ i : grid21.Coords, EltTy.bits .f32 = 32 ∨ (Rect.block (s := S4096x256) S512x256.size (cc21_transform_5 i) (hinb21_5 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S512x256.size a ≤ S4096x256.size a
  hwx22_0 : ∀ i : grid22.Coords, EltTy.bits .f32 = 32 ∨ (Rect.block (s := S4096x256) S512x256.size (cc22_transform_0 i) (hinb22_0 i)).WholeWords (EltTy.packing .f32)
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S512x256.size a ≤ S4096x256.size a
  hwx22_1 : ∀ i : grid22.Coords, EltTy.bits .f32 = 32 ∨ (Rect.block (s := S4096x256) S512x256.size (cc22_transform_1 i) (hinb22_1 i)).WholeWords (EltTy.packing .f32)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S1x1.size a ≤ S1x1.size a
  hwx22_2 : ∀ i : grid22.Coords, EltTy.bits .f32 = 32 ∨ (Rect.block (s := S1x1) S1x1.size (cc22_transform_2 i) (hinb22_2 i)).WholeWords (EltTy.packing .f32)
  hrank23 : 0 < grid23.rank
  hstage23_0 : ∀ j, (stage23_0 j).IsWhole
  nbuf23_0 : grid23.bufCount reads23_0 true = 1
  hreads23_0 : ∀ i i' : grid23.Coords, (∀ a, reads23_0 a = true → i a = i' a) → cc23_transform_0 i = cc23_transform_0 i'
  hinb23_0 : ∀ (i : grid23.Coords) a, (cc23_transform_0 i a + 1) * S1x1.size a ≤ S1x1.size a
  hwx23_0 : ∀ i : grid23.Coords, EltTy.bits .f32 = 32 ∨ (Rect.block (s := S1x1) S1x1.size (cc23_transform_0 i) (hinb23_0 i)).WholeWords (EltTy.packing .f32)
  hstage23_1 : ∀ j, (stage23_1 j).IsWhole
  nbuf23_1 : grid23.bufCount reads23_1 false = 2
  hreads23_1 : ∀ i i' : grid23.Coords, (∀ a, reads23_1 a = true → i a = i' a) → cc23_transform_1 i = cc23_transform_1 i'
  hinb23_1 : ∀ (i : grid23.Coords) a, (cc23_transform_1 i a + 1) * S512x256.size a ≤ S4096x256.size a
  hwx23_1 : ∀ i : grid23.Coords, EltTy.bits .f32 = 32 ∨ (Rect.block (s := S4096x256) S512x256.size (cc23_transform_1 i) (hinb23_1 i)).WholeWords (EltTy.packing .f32)
  hstage23_2 : ∀ j, (stage23_2 j).IsWhole
  nbuf23_2 : grid23.bufCount reads23_2 false = 2
  hreads23_2 : ∀ i i' : grid23.Coords, (∀ a, reads23_2 a = true → i a = i' a) → cc23_transform_2 i = cc23_transform_2 i'
  hinb23_2 : ∀ (i : grid23.Coords) a, (cc23_transform_2 i a + 1) * S512x256.size a ≤ S4096x256.size a
  hwx23_2 : ∀ i : grid23.Coords, EltTy.bits .f32 = 32 ∨ (Rect.block (s := S4096x256) S512x256.size (cc23_transform_2 i) (hinb23_2 i)).WholeWords (EltTy.packing .f32)
  hstage23_3 : ∀ j, (stage23_3 j).IsWhole
  nbuf23_3 : grid23.bufCount reads23_3 false = 2
  hreads23_3 : ∀ i i' : grid23.Coords, (∀ a, reads23_3 a = true → i a = i' a) → cc23_transform_3 i = cc23_transform_3 i'
  hinb23_3 : ∀ (i : grid23.Coords) a, (cc23_transform_3 i a + 1) * S512x256.size a ≤ S4096x256.size a
  hwx23_3 : ∀ i : grid23.Coords, EltTy.bits .f32 = 32 ∨ (Rect.block (s := S4096x256) S512x256.size (cc23_transform_3 i) (hinb23_3 i)).WholeWords (EltTy.packing .f32)
  hstage23_4 : ∀ j, (stage23_4 j).IsWhole
  nbuf23_4 : grid23.bufCount reads23_4 false = 2
  hreads23_4 : ∀ i i' : grid23.Coords, (∀ a, reads23_4 a = true → i a = i' a) → cc23_transform_4 i = cc23_transform_4 i'
  hinb23_4 : ∀ (i : grid23.Coords) a, (cc23_transform_4 i a + 1) * S512x256.size a ≤ S4096x256.size a
  hwx23_4 : ∀ i : grid23.Coords, EltTy.bits .f32 = 32 ∨ (Rect.block (s := S4096x256) S512x256.size (cc23_transform_4 i) (hinb23_4 i)).WholeWords (EltTy.packing .f32)
  hstage23_5 : ∀ j, (stage23_5 j).IsWhole
  nbuf23_5 : grid23.bufCount reads23_5 false = 2
  hreads23_5 : ∀ i i' : grid23.Coords, (∀ a, reads23_5 a = true → i a = i' a) → cc23_transform_5 i = cc23_transform_5 i'
  hinb23_5 : ∀ (i : grid23.Coords) a, (cc23_transform_5 i a + 1) * S512x256.size a ≤ S4096x256.size a
  hwx23_5 : ∀ i : grid23.Coords, EltTy.bits .f32 = 32 ∨ (Rect.block (s := S4096x256) S512x256.size (cc23_transform_5 i) (hinb23_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_v18) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v21) S1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v18) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S512x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S512x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v22) S512x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v87) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v87) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v88) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v90) S1x1.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v87) S512x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v87) S512x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v68) S512x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v68) S512x256.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v91) S512x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

abbrev win4_0 : Pipeline.Window sig grid4 :=
  Pipeline.Window.ofSpec (Memref.whole main_v156) S512x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v156) S512x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v157) S1x1.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v159) S1x1.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v156) S512x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v156) S512x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v137) S512x256.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v137) S512x256.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v160) S512x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun _ => false | 5 => fun i => !(k5_cond2 i == 1#1) | ⟨_ + 6, h⟩ => absurd h (Nat.not_lt.2 (Nat.le_add_left _ _))

abbrev win6_0 : Pipeline.Window sig grid6 :=
  Pipeline.Window.ofSpec (Memref.whole main_v228) S512x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v228) S512x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v229) S1x1.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v231) S1x1.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v228) S512x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v228) S512x256.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg1) S512x256.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_arg1) S512x256.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v232) S512x256.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev idle7 : Fin 6 → grid7.Coords → Bool := fun | 0 => fun _ => false | 1 => fun _ => false | 2 => fun _ => false | 3 => fun _ => false | 4 => fun _ => false | 5 => fun i => !(k7_cond2 i == 1#1) | ⟨_ + 6, h⟩ => absurd h (Nat.not_lt.2 (Nat.le_add_left _ _))

abbrev win8_0 : Pipeline.Window sig grid8 :=
  Pipeline.Window.ofSpec (Memref.whole main_v297) S512x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v297) S512x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v298) S1x1.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v300) S1x1.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v297) S512x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v297) S512x256.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v278) S512x256.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v278) S512x256.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v301) S512x256.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev idle9 : Fin 6 → grid9.Coords → Bool := fun | 0 => fun _ => false | 1 => fun _ => false | 2 => fun _ => false | 3 => fun _ => false | 4 => fun _ => false | 5 => fun i => !(k9_cond2 i == 1#1) | ⟨_ + 6, h⟩ => absurd h (Nat.not_lt.2 (Nat.le_add_left _ _))

abbrev win10_0 : Pipeline.Window sig grid10 :=
  Pipeline.Window.ofSpec (Memref.whole main_v366) S512x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v366) S512x256.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v367) S1x1.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v369) S1x1.size cc11_transform_0 reads11_0 false true 1 stage11_0 sem11_0
    hrank11 hreads11_0 hinb11_0 nbuf11_0 (Memref.isWhole_whole _) hwx11_0 hstage11_0

abbrev win11_1 : Pipeline.Window sig grid11 :=
  Pipeline.Window.ofSpec (Memref.whole main_v366) S512x256.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v366) S512x256.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v347) S512x256.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v347) S512x256.size cc11_transform_4 reads11_4 false false 2 stage11_4 sem11_4
    hrank11 hreads11_4 hinb11_4 nbuf11_4 (Memref.isWhole_whole _) hwx11_4 hstage11_4

abbrev win11_5 : Pipeline.Window sig grid11 :=
  Pipeline.Window.ofSpec (Memref.whole main_v370) S512x256.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev idle11 : Fin 6 → grid11.Coords → Bool := fun | 0 => fun _ => false | 1 => fun _ => false | 2 => fun _ => false | 3 => fun _ => false | 4 => fun _ => false | 5 => fun i => !(k11_cond2 i == 1#1) | ⟨_ + 6, h⟩ => absurd h (Nat.not_lt.2 (Nat.le_add_left _ _))

abbrev win12_0 : Pipeline.Window sig grid12 :=
  Pipeline.Window.ofSpec (Memref.whole main_v438) S512x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v438) S512x256.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v439) S1x1.size cc12_transform_2 reads12_2 true true 1 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev idle12 : Fin 3 → grid12.Coords → Bool := fun | 0 => fun _ => false | 1 => fun _ => false | 2 => fun i => !(k12_cond2 i == 1#1) | ⟨_ + 3, h⟩ => absurd h (Nat.not_lt.2 (Nat.le_add_left _ _))

abbrev win13_0 : Pipeline.Window sig grid13 :=
  Pipeline.Window.ofSpec (Memref.whole main_v441) S1x1.size cc13_transform_0 reads13_0 false true 1 stage13_0 sem13_0
    hrank13 hreads13_0 hinb13_0 nbuf13_0 (Memref.isWhole_whole _) hwx13_0 hstage13_0

abbrev win13_1 : Pipeline.Window sig grid13 :=
  Pipeline.Window.ofSpec (Memref.whole main_v438) S512x256.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v438) S512x256.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_arg2) S512x256.size cc13_transform_3 reads13_3 false false 2 stage13_3 sem13_3
    hrank13 hreads13_3 hinb13_3 nbuf13_3 (Memref.isWhole_whole _) hwx13_3 hstage13_3

abbrev win13_4 : Pipeline.Window sig grid13 :=
  Pipeline.Window.ofSpec (Memref.whole main_arg2) S512x256.size cc13_transform_4 reads13_4 false false 2 stage13_4 sem13_4
    hrank13 hreads13_4 hinb13_4 nbuf13_4 (Memref.isWhole_whole _) hwx13_4 hstage13_4

abbrev win13_5 : Pipeline.Window sig grid13 :=
  Pipeline.Window.ofSpec (Memref.whole main_v442) S512x256.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev idle13 : Fin 6 → grid13.Coords → Bool := fun | 0 => fun _ => false | 1 => fun _ => false | 2 => fun _ => false | 3 => fun _ => false | 4 => fun _ => false | 5 => fun i => !(k13_cond2 i == 1#1) | ⟨_ + 6, h⟩ => absurd h (Nat.not_lt.2 (Nat.le_add_left _ _))

abbrev win14_0 : Pipeline.Window sig grid14 :=
  Pipeline.Window.ofSpec (Memref.whole main_v507) S512x256.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v507) S512x256.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v508) S1x1.size cc14_transform_2 reads14_2 true true 1 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev idle14 : Fin 3 → grid14.Coords → Bool := fun | 0 => fun _ => false | 1 => fun _ => false | 2 => fun i => !(k14_cond2 i == 1#1) | ⟨_ + 3, h⟩ => absurd h (Nat.not_lt.2 (Nat.le_add_left _ _))

abbrev win15_0 : Pipeline.Window sig grid15 :=
  Pipeline.Window.ofSpec (Memref.whole main_v510) S1x1.size cc15_transform_0 reads15_0 false true 1 stage15_0 sem15_0
    hrank15 hreads15_0 hinb15_0 nbuf15_0 (Memref.isWhole_whole _) hwx15_0 hstage15_0

abbrev win15_1 : Pipeline.Window sig grid15 :=
  Pipeline.Window.ofSpec (Memref.whole main_v507) S512x256.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v507) S512x256.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_v488) S512x256.size cc15_transform_3 reads15_3 false false 2 stage15_3 sem15_3
    hrank15 hreads15_3 hinb15_3 nbuf15_3 (Memref.isWhole_whole _) hwx15_3 hstage15_3

abbrev win15_4 : Pipeline.Window sig grid15 :=
  Pipeline.Window.ofSpec (Memref.whole main_v488) S512x256.size cc15_transform_4 reads15_4 false false 2 stage15_4 sem15_4
    hrank15 hreads15_4 hinb15_4 nbuf15_4 (Memref.isWhole_whole _) hwx15_4 hstage15_4

abbrev win15_5 : Pipeline.Window sig grid15 :=
  Pipeline.Window.ofSpec (Memref.whole main_v511) S512x256.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev idle15 : Fin 6 → grid15.Coords → Bool := fun | 0 => fun _ => false | 1 => fun _ => false | 2 => fun _ => false | 3 => fun _ => false | 4 => fun _ => false | 5 => fun i => !(k15_cond2 i == 1#1) | ⟨_ + 6, h⟩ => absurd h (Nat.not_lt.2 (Nat.le_add_left _ _))

abbrev win16_0 : Pipeline.Window sig grid16 :=
  Pipeline.Window.ofSpec (Memref.whole main_v576) S512x256.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v576) S512x256.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v577) S1x1.size cc16_transform_2 reads16_2 true true 1 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev idle16 : Fin 3 → grid16.Coords → Bool := fun | 0 => fun _ => false | 1 => fun _ => false | 2 => fun i => !(k16_cond2 i == 1#1) | ⟨_ + 3, h⟩ => absurd h (Nat.not_lt.2 (Nat.le_add_left _ _))

abbrev win17_0 : Pipeline.Window sig grid17 :=
  Pipeline.Window.ofSpec (Memref.whole main_v579) S1x1.size cc17_transform_0 reads17_0 false true 1 stage17_0 sem17_0
    hrank17 hreads17_0 hinb17_0 nbuf17_0 (Memref.isWhole_whole _) hwx17_0 hstage17_0

abbrev win17_1 : Pipeline.Window sig grid17 :=
  Pipeline.Window.ofSpec (Memref.whole main_v576) S512x256.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v576) S512x256.size cc17_transform_2 reads17_2 false false 2 stage17_2 sem17_2
    hrank17 hreads17_2 hinb17_2 nbuf17_2 (Memref.isWhole_whole _) hwx17_2 hstage17_2

abbrev win17_3 : Pipeline.Window sig grid17 :=
  Pipeline.Window.ofSpec (Memref.whole main_v557) S512x256.size cc17_transform_3 reads17_3 false false 2 stage17_3 sem17_3
    hrank17 hreads17_3 hinb17_3 nbuf17_3 (Memref.isWhole_whole _) hwx17_3 hstage17_3

abbrev win17_4 : Pipeline.Window sig grid17 :=
  Pipeline.Window.ofSpec (Memref.whole main_v557) S512x256.size cc17_transform_4 reads17_4 false false 2 stage17_4 sem17_4
    hrank17 hreads17_4 hinb17_4 nbuf17_4 (Memref.isWhole_whole _) hwx17_4 hstage17_4

abbrev win17_5 : Pipeline.Window sig grid17 :=
  Pipeline.Window.ofSpec (Memref.whole main_v580) S512x256.size cc17_transform_5 reads17_5 true false 2 stage17_5 sem17_5
    hrank17 hreads17_5 hinb17_5 nbuf17_5 (Memref.isWhole_whole _) hwx17_5 hstage17_5

abbrev win17 : Fin 6 → Pipeline.Window sig grid17 := fun | 0 => win17_0 | 1 => win17_1 | 2 => win17_2 | 3 => win17_3 | 4 => win17_4 | 5 => win17_5 | ⟨_ + 6, h⟩ => absurd h (Nat.not_lt.2 (Nat.le_add_left _ _))
abbrev spec17 : Fin 6 → Pipeline.WinSpec sig grid17.rank := fun w => (win17 w).toWinSpec

abbrev idle17 : Fin 6 → grid17.Coords → Bool := fun | 0 => fun _ => false | 1 => fun _ => false | 2 => fun _ => false | 3 => fun _ => false | 4 => fun _ => false | 5 => fun i => !(k17_cond2 i == 1#1) | ⟨_ + 6, h⟩ => absurd h (Nat.not_lt.2 (Nat.le_add_left _ _))

abbrev win18_0 : Pipeline.Window sig grid18 :=
  Pipeline.Window.ofSpec (Memref.whole main_v648) S512x256.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v648) S512x256.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v649) S1x1.size cc18_transform_2 reads18_2 true true 1 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev idle18 : Fin 3 → grid18.Coords → Bool := fun | 0 => fun _ => false | 1 => fun _ => false | 2 => fun i => !(k18_cond2 i == 1#1) | ⟨_ + 3, h⟩ => absurd h (Nat.not_lt.2 (Nat.le_add_left _ _))

abbrev win19_0 : Pipeline.Window sig grid19 :=
  Pipeline.Window.ofSpec (Memref.whole main_v651) S1x1.size cc19_transform_0 reads19_0 false true 1 stage19_0 sem19_0
    hrank19 hreads19_0 hinb19_0 nbuf19_0 (Memref.isWhole_whole _) hwx19_0 hstage19_0

abbrev win19_1 : Pipeline.Window sig grid19 :=
  Pipeline.Window.ofSpec (Memref.whole main_v648) S512x256.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v648) S512x256.size cc19_transform_2 reads19_2 false false 2 stage19_2 sem19_2
    hrank19 hreads19_2 hinb19_2 nbuf19_2 (Memref.isWhole_whole _) hwx19_2 hstage19_2

abbrev win19_3 : Pipeline.Window sig grid19 :=
  Pipeline.Window.ofSpec (Memref.whole main_arg3) S512x256.size cc19_transform_3 reads19_3 false false 2 stage19_3 sem19_3
    hrank19 hreads19_3 hinb19_3 nbuf19_3 (Memref.isWhole_whole _) hwx19_3 hstage19_3

abbrev win19_4 : Pipeline.Window sig grid19 :=
  Pipeline.Window.ofSpec (Memref.whole main_arg3) S512x256.size cc19_transform_4 reads19_4 false false 2 stage19_4 sem19_4
    hrank19 hreads19_4 hinb19_4 nbuf19_4 (Memref.isWhole_whole _) hwx19_4 hstage19_4

abbrev win19_5 : Pipeline.Window sig grid19 :=
  Pipeline.Window.ofSpec (Memref.whole main_v652) S512x256.size cc19_transform_5 reads19_5 true false 2 stage19_5 sem19_5
    hrank19 hreads19_5 hinb19_5 nbuf19_5 (Memref.isWhole_whole _) hwx19_5 hstage19_5

abbrev win19 : Fin 6 → Pipeline.Window sig grid19 := fun | 0 => win19_0 | 1 => win19_1 | 2 => win19_2 | 3 => win19_3 | 4 => win19_4 | 5 => win19_5 | ⟨_ + 6, h⟩ => absurd h (Nat.not_lt.2 (Nat.le_add_left _ _))
abbrev spec19 : Fin 6 → Pipeline.WinSpec sig grid19.rank := fun w => (win19 w).toWinSpec

abbrev idle19 : Fin 6 → grid19.Coords → Bool := fun | 0 => fun _ => false | 1 => fun _ => false | 2 => fun _ => false | 3 => fun _ => false | 4 => fun _ => false | 5 => fun i => !(k19_cond2 i == 1#1) | ⟨_ + 6, h⟩ => absurd h (Nat.not_lt.2 (Nat.le_add_left _ _))

abbrev win20_0 : Pipeline.Window sig grid20 :=
  Pipeline.Window.ofSpec (Memref.whole main_v717) S512x256.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v717) S512x256.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v718) S1x1.size cc20_transform_2 reads20_2 true true 1 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev idle20 : Fin 3 → grid20.Coords → Bool := fun | 0 => fun _ => false | 1 => fun _ => false | 2 => fun i => !(k20_cond2 i == 1#1) | ⟨_ + 3, h⟩ => absurd h (Nat.not_lt.2 (Nat.le_add_left _ _))

abbrev win21_0 : Pipeline.Window sig grid21 :=
  Pipeline.Window.ofSpec (Memref.whole main_v720) S1x1.size cc21_transform_0 reads21_0 false true 1 stage21_0 sem21_0
    hrank21 hreads21_0 hinb21_0 nbuf21_0 (Memref.isWhole_whole _) hwx21_0 hstage21_0

abbrev win21_1 : Pipeline.Window sig grid21 :=
  Pipeline.Window.ofSpec (Memref.whole main_v717) S512x256.size cc21_transform_1 reads21_1 false false 2 stage21_1 sem21_1
    hrank21 hreads21_1 hinb21_1 nbuf21_1 (Memref.isWhole_whole _) hwx21_1 hstage21_1

abbrev win21_2 : Pipeline.Window sig grid21 :=
  Pipeline.Window.ofSpec (Memref.whole main_v717) S512x256.size cc21_transform_2 reads21_2 false false 2 stage21_2 sem21_2
    hrank21 hreads21_2 hinb21_2 nbuf21_2 (Memref.isWhole_whole _) hwx21_2 hstage21_2

abbrev win21_3 : Pipeline.Window sig grid21 :=
  Pipeline.Window.ofSpec (Memref.whole main_v698) S512x256.size cc21_transform_3 reads21_3 false false 2 stage21_3 sem21_3
    hrank21 hreads21_3 hinb21_3 nbuf21_3 (Memref.isWhole_whole _) hwx21_3 hstage21_3

abbrev win21_4 : Pipeline.Window sig grid21 :=
  Pipeline.Window.ofSpec (Memref.whole main_v698) S512x256.size cc21_transform_4 reads21_4 false false 2 stage21_4 sem21_4
    hrank21 hreads21_4 hinb21_4 nbuf21_4 (Memref.isWhole_whole _) hwx21_4 hstage21_4

abbrev win21_5 : Pipeline.Window sig grid21 :=
  Pipeline.Window.ofSpec (Memref.whole main_v721) S512x256.size cc21_transform_5 reads21_5 true false 2 stage21_5 sem21_5
    hrank21 hreads21_5 hinb21_5 nbuf21_5 (Memref.isWhole_whole _) hwx21_5 hstage21_5

abbrev win21 : Fin 6 → Pipeline.Window sig grid21 := fun | 0 => win21_0 | 1 => win21_1 | 2 => win21_2 | 3 => win21_3 | 4 => win21_4 | 5 => win21_5 | ⟨_ + 6, h⟩ => absurd h (Nat.not_lt.2 (Nat.le_add_left _ _))
abbrev spec21 : Fin 6 → Pipeline.WinSpec sig grid21.rank := fun w => (win21 w).toWinSpec

abbrev idle21 : Fin 6 → grid21.Coords → Bool := fun | 0 => fun _ => false | 1 => fun _ => false | 2 => fun _ => false | 3 => fun _ => false | 4 => fun _ => false | 5 => fun i => !(k21_cond2 i == 1#1) | ⟨_ + 6, h⟩ => absurd h (Nat.not_lt.2 (Nat.le_add_left _ _))

abbrev win22_0 : Pipeline.Window sig grid22 :=
  Pipeline.Window.ofSpec (Memref.whole main_v786) S512x256.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v786) S512x256.size cc22_transform_1 reads22_1 false false 2 stage22_1 sem22_1
    hrank22 hreads22_1 hinb22_1 nbuf22_1 (Memref.isWhole_whole _) hwx22_1 hstage22_1

abbrev win22_2 : Pipeline.Window sig grid22 :=
  Pipeline.Window.ofSpec (Memref.whole main_v787) S1x1.size cc22_transform_2 reads22_2 true true 1 stage22_2 sem22_2
    hrank22 hreads22_2 hinb22_2 nbuf22_2 (Memref.isWhole_whole _) hwx22_2 hstage22_2

abbrev win22 : Fin 3 → Pipeline.Window sig grid22 := fun | 0 => win22_0 | 1 => win22_1 | 2 => win22_2 | ⟨_ + 3, h⟩ => absurd h (Nat.not_lt.2 (Nat.le_add_left _ _))
abbrev spec22 : Fin 3 → Pipeline.WinSpec sig grid22.rank := fun w => (win22 w).toWinSpec

abbrev idle22 : Fin 3 → grid22.Coords → Bool := fun | 0 => fun _ => false | 1 => fun _ => false | 2 => fun i => !(k22_cond2 i == 1#1) | ⟨_ + 3, h⟩ => absurd h (Nat.not_lt.2 (Nat.le_add_left _ _))

abbrev win23_0 : Pipeline.Window sig grid23 :=
  Pipeline.Window.ofSpec (Memref.whole main_v789) S1x1.size cc23_transform_0 reads23_0 false true 1 stage23_0 sem23_0
    hrank23 hreads23_0 hinb23_0 nbuf23_0 (Memref.isWhole_whole _) hwx23_0 hstage23_0

abbrev win23_1 : Pipeline.Window sig grid23 :=
  Pipeline.Window.ofSpec (Memref.whole main_v786) S512x256.size cc23_transform_1 reads23_1 false false 2 stage23_1 sem23_1
    hrank23 hreads23_1 hinb23_1 nbuf23_1 (Memref.isWhole_whole _) hwx23_1 hstage23_1

abbrev win23_2 : Pipeline.Window sig grid23 :=
  Pipeline.Window.ofSpec (Memref.whole main_v786) S512x256.size cc23_transform_2 reads23_2 false false 2 stage23_2 sem23_2
    hrank23 hreads23_2 hinb23_2 nbuf23_2 (Memref.isWhole_whole _) hwx23_2 hstage23_2

abbrev win23_3 : Pipeline.Window sig grid23 :=
  Pipeline.Window.ofSpec (Memref.whole main_v767) S512x256.size cc23_transform_3 reads23_3 false false 2 stage23_3 sem23_3
    hrank23 hreads23_3 hinb23_3 nbuf23_3 (Memref.isWhole_whole _) hwx23_3 hstage23_3

abbrev win23_4 : Pipeline.Window sig grid23 :=
  Pipeline.Window.ofSpec (Memref.whole main_v767) S512x256.size cc23_transform_4 reads23_4 false false 2 stage23_4 sem23_4
    hrank23 hreads23_4 hinb23_4 nbuf23_4 (Memref.isWhole_whole _) hwx23_4 hstage23_4

abbrev win23_5 : Pipeline.Window sig grid23 :=
  Pipeline.Window.ofSpec (Memref.whole main_v790) S512x256.size cc23_transform_5 reads23_5 true false 2 stage23_5 sem23_5
    hrank23 hreads23_5 hinb23_5 nbuf23_5 (Memref.isWhole_whole _) hwx23_5 hstage23_5

abbrev win23 : Fin 6 → Pipeline.Window sig grid23 := fun | 0 => win23_0 | 1 => win23_1 | 2 => win23_2 | 3 => win23_3 | 4 => win23_4 | 5 => win23_5 | ⟨_ + 6, h⟩ => absurd h (Nat.not_lt.2 (Nat.le_add_left _ _))
abbrev spec23 : Fin 6 → Pipeline.WinSpec sig grid23.rank := fun w => (win23 w).toWinSpec

abbrev idle23 : Fin 6 → grid23.Coords → Bool := fun | 0 => fun _ => false | 1 => fun _ => false | 2 => fun _ => false | 3 => fun _ => false | 4 => fun _ => false | 5 => fun i => !(k23_cond2 i == 1#1) | ⟨_ + 6, h⟩ => absurd h (Nat.not_lt.2 (Nat.le_add_left _ _))

class Facts : Prop extends Facts₀ where

variable [Facts]
-- ==== ReferenceIdeal.lean ====
abbrev S4096x256 : Shape := ⟨2, ![4096, 256]⟩
abbrev S2x256x256 : Shape := ⟨3, ![2, 256, 256]⟩
abbrev S2x256 : Shape := ⟨2, ![2, 256]⟩
abbrev S3x2x256x256 : Shape := ⟨4, ![3, 2, 256, 256]⟩
abbrev S3x2x256 : Shape := ⟨3, ![3, 2, 256]⟩
abbrev S4096x4096 : Shape := ⟨2, ![4096, 4096]⟩
abbrev S_ : Shape := ⟨0, ![]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S256x4096 : Shape := ⟨2, ![256, 4096]⟩
abbrev S1x2x256x256 : Shape := ⟨4, ![1, 2, 256, 256]⟩
abbrev S1x2x256 : Shape := ⟨3, ![1, 2, 256]⟩

abbrev nBuf : Space → Nat
  | .hbm => 1693
  | .vmem => 0
  | .smem => 0
  | _ => 0

abbrev hbmTy0_0 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S2x256x256, .f32⟩
  | 5 => ⟨S2x256, .f32⟩
  | 6 => ⟨S3x2x256x256, .f32⟩
  | 7 => ⟨S3x2x256, .f32⟩
  | 8 => ⟨S3x2x256, .f32⟩
  | 9 => ⟨S2x256x256, .f32⟩
  | 10 => ⟨S2x256, .f32⟩
  | 11 => ⟨S3x2x256x256, .f32⟩
  | 12 => ⟨S3x2x256, .f32⟩
  | 13 => ⟨S3x2x256, .f32⟩
  | 14 => ⟨S2x256x256, .f32⟩
  | 15 => ⟨S2x256, .f32⟩
  | 16 => ⟨S3x2x256x256, .f32⟩
  | 17 => ⟨S3x2x256, .f32⟩
  | 18 => ⟨S3x2x256, .f32⟩
  | 19 => ⟨S4096x4096, .i32⟩
  | 20 => ⟨S4096x4096, .i32⟩
  | 21 => ⟨S_, .i32⟩
  | 22 => ⟨S4096x4096, .i32⟩
  | 23 => ⟨S4096x4096, .i32⟩
  | 24 => ⟨S4096x4096, .i1⟩
  | 25 => ⟨S4096x4096, .f32⟩
  | 26 => ⟨S_, .f32⟩
  | 27 => ⟨S4096x256, .f32⟩
  | 28 => ⟨S1x256x256, .f32⟩
  | 29 => ⟨S256x256, .f32⟩
  | 30 => ⟨S4096x256, .f32⟩
  | 31 => ⟨S1x256, .f32⟩
  | 32 => ⟨S256, .f32⟩
  | 33 => ⟨S1x256, .f32⟩
  | 34 => ⟨S4096x256, .f32⟩
  | 35 => ⟨S4096x256, .f32⟩
  | 36 => ⟨S_, .f32⟩
  | 37 => ⟨S4096x256, .f32⟩
  | 38 => ⟨S4096x256, .i1⟩
  | 39 => ⟨S_, .f32⟩
  | 40 => ⟨S4096x256, .f32⟩
  | 41 => ⟨S4096x256, .i1⟩
  | 42 => ⟨S_, .f32⟩
  | 43 => ⟨S_, .f32⟩
  | 44 => ⟨S4096x256, .f32⟩
  | 45 => ⟨S4096x256, .f32⟩
  | 46 => ⟨S4096x256, .f32⟩
  | 47 => ⟨S_, .f32⟩
  | 48 => ⟨S4096x256, .f32⟩
  | 49 => ⟨S4096x256, .f32⟩
  | 50 => ⟨S4096x256, .f32⟩
  | 51 => ⟨S1x256x256, .f32⟩
  | 52 => ⟨S256x256, .f32⟩
  | 53 => ⟨S4096x256, .f32⟩
  | 54 => ⟨S1x256, .f32⟩
  | 55 => ⟨S256, .f32⟩
  | 56 => ⟨S1x256, .f32⟩
  | 57 => ⟨S4096x256, .f32⟩
  | 58 => ⟨S4096x256, .f32⟩
  | 59 => ⟨S_, .f32⟩
  | 60 => ⟨S4096x256, .f32⟩
  | 61 => ⟨S4096x256, .i1⟩
  | 62 => ⟨S_, .f32⟩
  | 63 => ⟨S4096x256, .f32⟩
  | 64 => ⟨S4096x256, .i1⟩
  | 65 => ⟨S_, .f32⟩
  | 66 => ⟨S_, .f32⟩
  | 67 => ⟨S4096x256, .f32⟩
  | 68 => ⟨S4096x256, .f32⟩
  | 69 => ⟨S4096x256, .f32⟩
  | 70 => ⟨S_, .f32⟩
  | 71 => ⟨S4096x256, .f32⟩
  | 72 => ⟨S4096x256, .f32⟩
  | 73 => ⟨S4096x256, .f32⟩
  | 74 => ⟨S256x4096, .f32⟩
  | 75 => ⟨S4096x4096, .f32⟩
  | 76 => ⟨S_, .f32⟩
  | 77 => ⟨S_, .f32⟩
  | 78 => ⟨S_, .f32⟩
  | 79 => ⟨S_, .f32⟩
  | 80 => ⟨S4096x4096, .f32⟩
  | 81 => ⟨S4096x4096, .i1⟩
  | 82 => ⟨S4096x4096, .f32⟩
  | 83 => ⟨S_, .f32⟩
  | 84 => ⟨S4096x4096, .f32⟩
  | 85 => ⟨S4096x4096, .f32⟩
  | 86 => ⟨S4096x4096, .f32⟩
  | 87 => ⟨S4096x256, .f32⟩
  | 88 => ⟨S1x2x256x256, .f32⟩
  | 89 => ⟨S2x256x256, .f32⟩
  | 90 => ⟨S1x2x256, .f32⟩
  | 91 => ⟨S2x256, .f32⟩
  | 92 => ⟨S1x2x256, .f32⟩
  | 93 => ⟨S2x256, .f32⟩
  | 94 => ⟨S1x256x256, .f32⟩
  | 95 => ⟨S256x256, .f32⟩
  | 96 => ⟨S4096x256, .f32⟩
  | 97 => ⟨S1x256, .f32⟩
  | 98 => ⟨S256, .f32⟩
  | 99 => ⟨S1x256, .f32⟩
  | 100 => ⟨S4096x256, .f32⟩
  | 101 => ⟨S4096x256, .f32⟩
  | 102 => ⟨S_, .f32⟩
  | 103 => ⟨S256, .f32⟩
  | 104 => ⟨S_, .f32⟩
  | 105 => ⟨S256, .f32⟩
  | 106 => ⟨S256, .f32⟩
  | 107 => ⟨S_, .i32⟩
  | 108 => ⟨S_, .f32⟩
  | 109 => ⟨S256, .f32⟩
  | 110 => ⟨S1x256, .f32⟩
  | 111 => ⟨S_, .f32⟩
  | 112 => ⟨S1x256, .f32⟩
  | 113 => ⟨S1x256, .f32⟩
  | 114 => ⟨S4096x256, .f32⟩
  | 115 => ⟨S4096x256, .f32⟩
  | 116 => ⟨S4096x256, .f32⟩
  | 117 => ⟨S_, .f32⟩
  | 118 => ⟨S_, .f32⟩
  | 119 => ⟨S_, .f32⟩
  | 120 => ⟨S_, .f32⟩
  | 121 => ⟨S256, .f32⟩
  | 122 => ⟨S256, .f32⟩
  | 123 => ⟨S256, .f32⟩
  | 124 => ⟨S_, .f32⟩
  | 125 => ⟨S_, .i1⟩
  | 126 => ⟨S_, .f32⟩
  | 127 => ⟨S_, .f32⟩
  | _ => ⟨S4096x256, .f32⟩

abbrev hbmTy0_1 (i : Nat) : BufTy := match i % 128 with
  | 0 => ⟨S256, .f32⟩
  | 1 => ⟨S256, .f32⟩
  | 2 => ⟨S1x256, .f32⟩
  | 3 => ⟨S4096x256, .f32⟩
  | 4 => ⟨S4096x256, .f32⟩
  | 5 => ⟨S_, .f32⟩
  | 6 => ⟨S256, .f32⟩
  | 7 => ⟨S256, .f32⟩
  | 8 => ⟨S256, .f32⟩
  | 9 => ⟨S1x256, .f32⟩
  | 10 => ⟨S4096x256, .f32⟩
  | 11 => ⟨S4096x256, .f32⟩
  | 12 => ⟨S1x256, .f32⟩
  | 13 => ⟨S256, .f32⟩
  | 14 => ⟨S1x256, .f32⟩
  | 15 => ⟨S4096x256, .f32⟩
  | 16 => ⟨S4096x256, .f32⟩
  | 17 => ⟨S1x256, .f32⟩
  | 18 => ⟨S256, .f32⟩
  | 19 => ⟨S1x256, .f32⟩
  | 20 => ⟨S4096x256, .f32⟩
  | 21 => ⟨S4096x256, .f32⟩
  | 22 => ⟨S_, .f32⟩
  | 23 => ⟨S4096x256, .f32⟩
  | 24 => ⟨S4096x256, .f32⟩
  | 25 => ⟨S1x256x256, .f32⟩
  | 26 => ⟨S256x256, .f32⟩
  | 27 => ⟨S4096x256, .f32⟩
  | 28 => ⟨S1x256, .f32⟩
  | 29 => ⟨S256, .f32⟩
  | 30 => ⟨S1x256, .f32⟩
  | 31 => ⟨S4096x256, .f32⟩
  | 32 => ⟨S4096x256, .f32⟩
  | 33 => ⟨S4096x256, .f32⟩
  | 34 => ⟨S1x256x256, .f32⟩
  | 35 => ⟨S256x256, .f32⟩
  | 36 => ⟨S4096x256, .f32⟩
  | 37 => ⟨S1x256, .f32⟩
  | 38 => ⟨S256, .f32⟩
  | 39 => ⟨S1x256, .f32⟩
  | 40 => ⟨S4096x256, .f32⟩
  | 41 => ⟨S4096x256, .f32⟩
  | 42 => ⟨S_, .f32⟩
  | 43 => ⟨S4096x256, .f32⟩
  | 44 => ⟨S4096x256, .i1⟩
  | 45 => ⟨S_, .f32⟩
  | 46 => ⟨S4096x256, .f32⟩
  | 47 => ⟨S4096x256, .i1⟩
  | 48 => ⟨S_, .f32⟩
  | 49 => ⟨S_, .f32⟩
  | 50 => ⟨S4096x256, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S4096x256, .f32⟩
  | 57 => ⟨S1x256x256, .f32⟩
  | 58 => ⟨S256x256, .f32⟩
  | 59 => ⟨S4096x256, .f32⟩
  | 60 => ⟨S1x256, .f32⟩
  | 61 => ⟨S256, .f32⟩
  | 62 => ⟨S1x256, .f32⟩
  | 63 => ⟨S4096x256, .f32⟩
  | 64 => ⟨S4096x256, .f32⟩
  | 65 => ⟨S_, .f32⟩
  | 66 => ⟨S4096x256, .f32⟩
  | 67 => ⟨S4096x256, .i1⟩
  | 68 => ⟨S_, .f32⟩
  | 69 => ⟨S4096x256, .f32⟩
  | 70 => ⟨S4096x256, .i1⟩
  | 71 => ⟨S_, .f32⟩
  | 72 => ⟨S_, .f32⟩
  | 73 => ⟨S4096x256, .f32⟩
  | 74 => ⟨S4096x256, .f32⟩
  | 75 => ⟨S4096x256, .f32⟩
  | 76 => ⟨S_, .f32⟩
  | 77 => ⟨S4096x256, .f32⟩
  | 78 => ⟨S4096x256, .f32⟩
  | 79 => ⟨S4096x256, .f32⟩
  | 80 => ⟨S256x4096, .f32⟩
  | 81 => ⟨S4096x4096, .f32⟩
  | 82 => ⟨S_, .f32⟩
  | 83 => ⟨S_, .f32⟩
  | 84 => ⟨S_, .f32⟩
  | 85 => ⟨S_, .f32⟩
  | 86 => ⟨S4096x4096, .f32⟩
  | 87 => ⟨S4096x4096, .i1⟩
  | 88 => ⟨S4096x4096, .f32⟩
  | 89 => ⟨S_, .f32⟩
  | 90 => ⟨S4096x4096, .f32⟩
  | 91 => ⟨S4096x4096, .f32⟩
  | 92 => ⟨S4096x4096, .f32⟩
  | 93 => ⟨S4096x256, .f32⟩
  | 94 => ⟨S1x2x256x256, .f32⟩
  | 95 => ⟨S2x256x256, .f32⟩
  | 96 => ⟨S1x2x256, .f32⟩
  | 97 => ⟨S2x256, .f32⟩
  | 98 => ⟨S1x2x256, .f32⟩
  | 99 => ⟨S2x256, .f32⟩
  | 100 => ⟨S1x256x256, .f32⟩
  | 101 => ⟨S256x256, .f32⟩
  | 102 => ⟨S4096x256, .f32⟩
  | 103 => ⟨S1x256, .f32⟩
  | 104 => ⟨S256, .f32⟩
  | 105 => ⟨S1x256, .f32⟩
  | 106 => ⟨S4096x256, .f32⟩
  | 107 => ⟨S4096x256, .f32⟩
  | 108 => ⟨S_, .f32⟩
  | 109 => ⟨S256, .f32⟩
  | 110 => ⟨S_, .f32⟩
  | 111 => ⟨S256, .f32⟩
  | 112 => ⟨S256, .f32⟩
  | 113 => ⟨S_, .i32⟩
  | 114 => ⟨S_, .f32⟩
  | 115 => ⟨S256, .f32⟩
  | 116 => ⟨S1x256, .f32⟩
  | 117 => ⟨S_, .f32⟩
  | 118 => ⟨S1x256, .f32⟩
  | 119 => ⟨S1x256, .f32⟩
  | 120 => ⟨S4096x256, .f32⟩
  | 121 => ⟨S4096x256, .f32⟩
  | 122 => ⟨S4096x256, .f32⟩
  | 123 => ⟨S_, .f32⟩
  | 124 => ⟨S_, .f32⟩
  | 125 => ⟨S_, .f32⟩
  | 126 => ⟨S_, .f32⟩
  | 127 => ⟨S256, .f32⟩
  | _ => ⟨S4096x256, .f32⟩

abbrev hbmTy0_2 (i : Nat) : BufTy := match i % 128 with
  | 0 => ⟨S256, .f32⟩
  | 1 => ⟨S256, .f32⟩
  | 2 => ⟨S_, .f32⟩
  | 3 => ⟨S_, .i1⟩
  | 4 => ⟨S_, .f32⟩
  | 5 => ⟨S_, .f32⟩
  | 6 => ⟨S256, .f32⟩
  | 7 => ⟨S256, .f32⟩
  | 8 => ⟨S1x256, .f32⟩
  | 9 => ⟨S4096x256, .f32⟩
  | 10 => ⟨S4096x256, .f32⟩
  | 11 => ⟨S_, .f32⟩
  | 12 => ⟨S256, .f32⟩
  | 13 => ⟨S256, .f32⟩
  | 14 => ⟨S256, .f32⟩
  | 15 => ⟨S1x256, .f32⟩
  | 16 => ⟨S4096x256, .f32⟩
  | 17 => ⟨S4096x256, .f32⟩
  | 18 => ⟨S1x256, .f32⟩
  | 19 => ⟨S256, .f32⟩
  | 20 => ⟨S1x256, .f32⟩
  | 21 => ⟨S4096x256, .f32⟩
  | 22 => ⟨S4096x256, .f32⟩
  | 23 => ⟨S1x256, .f32⟩
  | 24 => ⟨S256, .f32⟩
  | 25 => ⟨S1x256, .f32⟩
  | 26 => ⟨S4096x256, .f32⟩
  | 27 => ⟨S4096x256, .f32⟩
  | 28 => ⟨S_, .f32⟩
  | 29 => ⟨S4096x256, .f32⟩
  | 30 => ⟨S4096x256, .f32⟩
  | 31 => ⟨S1x256x256, .f32⟩
  | 32 => ⟨S256x256, .f32⟩
  | 33 => ⟨S4096x256, .f32⟩
  | 34 => ⟨S1x256, .f32⟩
  | 35 => ⟨S256, .f32⟩
  | 36 => ⟨S1x256, .f32⟩
  | 37 => ⟨S4096x256, .f32⟩
  | 38 => ⟨S4096x256, .f32⟩
  | 39 => ⟨S4096x256, .f32⟩
  | 40 => ⟨S1x256x256, .f32⟩
  | 41 => ⟨S256x256, .f32⟩
  | 42 => ⟨S4096x256, .f32⟩
  | 43 => ⟨S1x256, .f32⟩
  | 44 => ⟨S256, .f32⟩
  | 45 => ⟨S1x256, .f32⟩
  | 46 => ⟨S4096x256, .f32⟩
  | 47 => ⟨S4096x256, .f32⟩
  | 48 => ⟨S_, .f32⟩
  | 49 => ⟨S4096x256, .f32⟩
  | 50 => ⟨S4096x256, .i1⟩
  | 51 => ⟨S_, .f32⟩
  | 52 => ⟨S4096x256, .f32⟩
  | 53 => ⟨S4096x256, .i1⟩
  | 54 => ⟨S_, .f32⟩
  | 55 => ⟨S_, .f32⟩
  | 56 => ⟨S4096x256, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S4096x256, .f32⟩
  | 63 => ⟨S1x256x256, .f32⟩
  | 64 => ⟨S256x256, .f32⟩
  | 65 => ⟨S4096x256, .f32⟩
  | 66 => ⟨S1x256, .f32⟩
  | 67 => ⟨S256, .f32⟩
  | 68 => ⟨S1x256, .f32⟩
  | 69 => ⟨S4096x256, .f32⟩
  | 70 => ⟨S4096x256, .f32⟩
  | 71 => ⟨S_, .f32⟩
  | 72 => ⟨S4096x256, .f32⟩
  | 73 => ⟨S4096x256, .i1⟩
  | 74 => ⟨S_, .f32⟩
  | 75 => ⟨S4096x256, .f32⟩
  | 76 => ⟨S4096x256, .i1⟩
  | 77 => ⟨S_, .f32⟩
  | 78 => ⟨S_, .f32⟩
  | 79 => ⟨S4096x256, .f32⟩
  | 80 => ⟨S4096x256, .f32⟩
  | 81 => ⟨S4096x256, .f32⟩
  | 82 => ⟨S_, .f32⟩
  | 83 => ⟨S4096x256, .f32⟩
  | 84 => ⟨S4096x256, .f32⟩
  | 85 => ⟨S4096x256, .f32⟩
  | 86 => ⟨S256x4096, .f32⟩
  | 87 => ⟨S4096x4096, .f32⟩
  | 88 => ⟨S_, .f32⟩
  | 89 => ⟨S_, .f32⟩
  | 90 => ⟨S_, .f32⟩
  | 91 => ⟨S_, .f32⟩
  | 92 => ⟨S4096x4096, .f32⟩
  | 93 => ⟨S4096x4096, .i1⟩
  | 94 => ⟨S4096x4096, .f32⟩
  | 95 => ⟨S_, .f32⟩
  | 96 => ⟨S4096x4096, .f32⟩
  | 97 => ⟨S4096x4096, .f32⟩
  | 98 => ⟨S4096x4096, .f32⟩
  | 99 => ⟨S4096x256, .f32⟩
  | 100 => ⟨S1x2x256x256, .f32⟩
  | 101 => ⟨S2x256x256, .f32⟩
  | 102 => ⟨S1x2x256, .f32⟩
  | 103 => ⟨S2x256, .f32⟩
  | 104 => ⟨S1x2x256, .f32⟩
  | 105 => ⟨S2x256, .f32⟩
  | 106 => ⟨S1x256x256, .f32⟩
  | 107 => ⟨S256x256, .f32⟩
  | 108 => ⟨S4096x256, .f32⟩
  | 109 => ⟨S1x256, .f32⟩
  | 110 => ⟨S256, .f32⟩
  | 111 => ⟨S1x256, .f32⟩
  | 112 => ⟨S4096x256, .f32⟩
  | 113 => ⟨S4096x256, .f32⟩
  | 114 => ⟨S_, .f32⟩
  | 115 => ⟨S256, .f32⟩
  | 116 => ⟨S_, .f32⟩
  | 117 => ⟨S256, .f32⟩
  | 118 => ⟨S256, .f32⟩
  | 119 => ⟨S_, .i32⟩
  | 120 => ⟨S_, .f32⟩
  | 121 => ⟨S256, .f32⟩
  | 122 => ⟨S1x256, .f32⟩
  | 123 => ⟨S_, .f32⟩
  | 124 => ⟨S1x256, .f32⟩
  | 125 => ⟨S1x256, .f32⟩
  | 126 => ⟨S4096x256, .f32⟩
  | 127 => ⟨S4096x256, .f32⟩
  | _ => ⟨S4096x256, .f32⟩

abbrev hbmTy0_3 (i : Nat) : BufTy := match i % 128 with
  | 0 => ⟨S4096x256, .f32⟩
  | 1 => ⟨S_, .f32⟩
  | 2 => ⟨S_, .f32⟩
  | 3 => ⟨S_, .f32⟩
  | 4 => ⟨S_, .f32⟩
  | 5 => ⟨S256, .f32⟩
  | 6 => ⟨S256, .f32⟩
  | 7 => ⟨S256, .f32⟩
  | 8 => ⟨S_, .f32⟩
  | 9 => ⟨S_, .i1⟩
  | 10 => ⟨S_, .f32⟩
  | 11 => ⟨S_, .f32⟩
  | 12 => ⟨S256, .f32⟩
  | 13 => ⟨S256, .f32⟩
  | 14 => ⟨S1x256, .f32⟩
  | 15 => ⟨S4096x256, .f32⟩
  | 16 => ⟨S4096x256, .f32⟩
  | 17 => ⟨S_, .f32⟩
  | 18 => ⟨S256, .f32⟩
  | 19 => ⟨S256, .f32⟩
  | 20 => ⟨S256, .f32⟩
  | 21 => ⟨S1x256, .f32⟩
  | 22 => ⟨S4096x256, .f32⟩
  | 23 => ⟨S4096x256, .f32⟩
  | 24 => ⟨S1x256, .f32⟩
  | 25 => ⟨S256, .f32⟩
  | 26 => ⟨S1x256, .f32⟩
  | 27 => ⟨S4096x256, .f32⟩
  | 28 => ⟨S4096x256, .f32⟩
  | 29 => ⟨S1x256, .f32⟩
  | 30 => ⟨S256, .f32⟩
  | 31 => ⟨S1x256, .f32⟩
  | 32 => ⟨S4096x256, .f32⟩
  | 33 => ⟨S4096x256, .f32⟩
  | 34 => ⟨S_, .f32⟩
  | 35 => ⟨S4096x256, .f32⟩
  | 36 => ⟨S4096x256, .f32⟩
  | 37 => ⟨S1x256x256, .f32⟩
  | 38 => ⟨S256x256, .f32⟩
  | 39 => ⟨S4096x256, .f32⟩
  | 40 => ⟨S1x256, .f32⟩
  | 41 => ⟨S256, .f32⟩
  | 42 => ⟨S1x256, .f32⟩
  | 43 => ⟨S4096x256, .f32⟩
  | 44 => ⟨S4096x256, .f32⟩
  | 45 => ⟨S4096x256, .f32⟩
  | 46 => ⟨S_, .f32⟩
  | 47 => ⟨S4096x256, .f32⟩
  | 48 => ⟨S4096x256, .f32⟩
  | 49 => ⟨S4096x4096, .i32⟩
  | 50 => ⟨S4096x4096, .i32⟩
  | 51 => ⟨S_, .i32⟩
  | 52 => ⟨S4096x4096, .i32⟩
  | 53 => ⟨S4096x4096, .i32⟩
  | 54 => ⟨S4096x4096, .i1⟩
  | 55 => ⟨S4096x4096, .f32⟩
  | 56 => ⟨S_, .f32⟩
  | 57 => ⟨S4096x256, .f32⟩
  | 58 => ⟨S1x256x256, .f32⟩
  | 59 => ⟨S256x256, .f32⟩
  | 60 => ⟨S4096x256, .f32⟩
  | 61 => ⟨S1x256, .f32⟩
  | 62 => ⟨S256, .f32⟩
  | 63 => ⟨S1x256, .f32⟩
  | 64 => ⟨S4096x256, .f32⟩
  | 65 => ⟨S4096x256, .f32⟩
  | 66 => ⟨S_, .f32⟩
  | 67 => ⟨S4096x256, .f32⟩
  | 68 => ⟨S4096x256, .i1⟩
  | 69 => ⟨S_, .f32⟩
  | 70 => ⟨S4096x256, .f32⟩
  | 71 => ⟨S4096x256, .i1⟩
  | 72 => ⟨S_, .f32⟩
  | 73 => ⟨S_, .f32⟩
  | 74 => ⟨S4096x256, .f32⟩
  | 75 => ⟨S4096x256, .f32⟩
  | 76 => ⟨S4096x256, .f32⟩
  | 77 => ⟨S_, .f32⟩
  | 78 => ⟨S4096x256, .f32⟩
  | 79 => ⟨S4096x256, .f32⟩
  | 80 => ⟨S4096x256, .f32⟩
  | 81 => ⟨S1x256x256, .f32⟩
  | 82 => ⟨S256x256, .f32⟩
  | 83 => ⟨S4096x256, .f32⟩
  | 84 => ⟨S1x256, .f32⟩
  | 85 => ⟨S256, .f32⟩
  | 86 => ⟨S1x256, .f32⟩
  | 87 => ⟨S4096x256, .f32⟩
  | 88 => ⟨S4096x256, .f32⟩
  | 89 => ⟨S_, .f32⟩
  | 90 => ⟨S4096x256, .f32⟩
  | 91 => ⟨S4096x256, .i1⟩
  | 92 => ⟨S_, .f32⟩
  | 93 => ⟨S4096x256, .f32⟩
  | 94 => ⟨S4096x256, .i1⟩
  | 95 => ⟨S_, .f32⟩
  | 96 => ⟨S_, .f32⟩
  | 97 => ⟨S4096x256, .f32⟩
  | 98 => ⟨S4096x256, .f32⟩
  | 99 => ⟨S4096x256, .f32⟩
  | 100 => ⟨S_, .f32⟩
  | 101 => ⟨S4096x256, .f32⟩
  | 102 => ⟨S4096x256, .f32⟩
  | 103 => ⟨S4096x256, .f32⟩
  | 104 => ⟨S256x4096, .f32⟩
  | 105 => ⟨S4096x4096, .f32⟩
  | 106 => ⟨S_, .f32⟩
  | 107 => ⟨S_, .f32⟩
  | 108 => ⟨S_, .f32⟩
  | 109 => ⟨S_, .f32⟩
  | 110 => ⟨S4096x4096, .f32⟩
  | 111 => ⟨S4096x4096, .i1⟩
  | 112 => ⟨S4096x4096, .f32⟩
  | 113 => ⟨S_, .f32⟩
  | 114 => ⟨S4096x4096, .f32⟩
  | 115 => ⟨S4096x4096, .f32⟩
  | 116 => ⟨S4096x4096, .f32⟩
  | 117 => ⟨S4096x256, .f32⟩
  | 118 => ⟨S1x2x256x256, .f32⟩
  | 119 => ⟨S2x256x256, .f32⟩
  | 120 => ⟨S1x2x256, .f32⟩
  | 121 => ⟨S2x256, .f32⟩
  | 122 => ⟨S1x2x256, .f32⟩
  | 123 => ⟨S2x256, .f32⟩
  | 124 => ⟨S1x256x256, .f32⟩
  | 125 => ⟨S256x256, .f32⟩
  | 126 => ⟨S4096x256, .f32⟩
  | 127 => ⟨S1x256, .f32⟩
  | _ => ⟨S4096x256, .f32⟩

abbrev hbmTy0_4 (i : Nat) : BufTy := match i % 128 with
  | 0 => ⟨S256, .f32⟩
  | 1 => ⟨S1x256, .f32⟩
  | 2 => ⟨S4096x256, .f32⟩
  | 3 => ⟨S4096x256, .f32⟩
  | 4 => ⟨S_, .f32⟩
  | 5 => ⟨S256, .f32⟩
  | 6 => ⟨S_, .f32⟩
  | 7 => ⟨S256, .f32⟩
  | 8 => ⟨S256, .f32⟩
  | 9 => ⟨S_, .i32⟩
  | 10 => ⟨S_, .f32⟩
  | 11 => ⟨S256, .f32⟩
  | 12 => ⟨S1x256, .f32⟩
  | 13 => ⟨S_, .f32⟩
  | 14 => ⟨S1x256, .f32⟩
  | 15 => ⟨S1x256, .f32⟩
  | 16 => ⟨S4096x256, .f32⟩
  | 17 => ⟨S4096x256, .f32⟩
  | 18 => ⟨S4096x256, .f32⟩
  | 19 => ⟨S_, .f32⟩
  | 20 => ⟨S_, .f32⟩
  | 21 => ⟨S_, .f32⟩
  | 22 => ⟨S_, .f32⟩
  | 23 => ⟨S256, .f32⟩
  | 24 => ⟨S256, .f32⟩
  | 25 => ⟨S256, .f32⟩
  | 26 => ⟨S_, .f32⟩
  | 27 => ⟨S_, .i1⟩
  | 28 => ⟨S_, .f32⟩
  | 29 => ⟨S_, .f32⟩
  | 30 => ⟨S256, .f32⟩
  | 31 => ⟨S256, .f32⟩
  | 32 => ⟨S1x256, .f32⟩
  | 33 => ⟨S4096x256, .f32⟩
  | 34 => ⟨S4096x256, .f32⟩
  | 35 => ⟨S_, .f32⟩
  | 36 => ⟨S256, .f32⟩
  | 37 => ⟨S256, .f32⟩
  | 38 => ⟨S256, .f32⟩
  | 39 => ⟨S1x256, .f32⟩
  | 40 => ⟨S4096x256, .f32⟩
  | 41 => ⟨S4096x256, .f32⟩
  | 42 => ⟨S1x256, .f32⟩
  | 43 => ⟨S256, .f32⟩
  | 44 => ⟨S1x256, .f32⟩
  | 45 => ⟨S4096x256, .f32⟩
  | 46 => ⟨S4096x256, .f32⟩
  | 47 => ⟨S1x256, .f32⟩
  | 48 => ⟨S256, .f32⟩
  | 49 => ⟨S1x256, .f32⟩
  | 50 => ⟨S4096x256, .f32⟩
  | 51 => ⟨S4096x256, .f32⟩
  | 52 => ⟨S_, .f32⟩
  | 53 => ⟨S4096x256, .f32⟩
  | 54 => ⟨S4096x256, .f32⟩
  | 55 => ⟨S1x256x256, .f32⟩
  | 56 => ⟨S256x256, .f32⟩
  | 57 => ⟨S4096x256, .f32⟩
  | 58 => ⟨S1x256, .f32⟩
  | 59 => ⟨S256, .f32⟩
  | 60 => ⟨S1x256, .f32⟩
  | 61 => ⟨S4096x256, .f32⟩
  | 62 => ⟨S4096x256, .f32⟩
  | 63 => ⟨S4096x256, .f32⟩
  | 64 => ⟨S1x256x256, .f32⟩
  | 65 => ⟨S256x256, .f32⟩
  | 66 => ⟨S4096x256, .f32⟩
  | 67 => ⟨S1x256, .f32⟩
  | 68 => ⟨S256, .f32⟩
  | 69 => ⟨S1x256, .f32⟩
  | 70 => ⟨S4096x256, .f32⟩
  | 71 => ⟨S4096x256, .f32⟩
  | 72 => ⟨S_, .f32⟩
  | 73 => ⟨S4096x256, .f32⟩
  | 74 => ⟨S4096x256, .i1⟩
  | 75 => ⟨S_, .f32⟩
  | 76 => ⟨S4096x256, .f32⟩
  | 77 => ⟨S4096x256, .i1⟩
  | 78 => ⟨S_, .f32⟩
  | 79 => ⟨S_, .f32⟩
  | 80 => ⟨S4096x256, .f32⟩
  | 81 => ⟨S4096x256, .f32⟩
  | 82 => ⟨S4096x256, .f32⟩
  | 83 => ⟨S_, .f32⟩
  | 84 => ⟨S4096x256, .f32⟩
  | 85 => ⟨S4096x256, .f32⟩
  | 86 => ⟨S4096x256, .f32⟩
  | 87 => ⟨S1x256x256, .f32⟩
  | 88 => ⟨S256x256, .f32⟩
  | 89 => ⟨S4096x256, .f32⟩
  | 90 => ⟨S1x256, .f32⟩
  | 91 => ⟨S256, .f32⟩
  | 92 => ⟨S1x256, .f32⟩
  | 93 => ⟨S4096x256, .f32⟩
  | 94 => ⟨S4096x256, .f32⟩
  | 95 => ⟨S_, .f32⟩
  | 96 => ⟨S4096x256, .f32⟩
  | 97 => ⟨S4096x256, .i1⟩
  | 98 => ⟨S_, .f32⟩
  | 99 => ⟨S4096x256, .f32⟩
  | 100 => ⟨S4096x256, .i1⟩
  | 101 => ⟨S_, .f32⟩
  | 102 => ⟨S_, .f32⟩
  | 103 => ⟨S4096x256, .f32⟩
  | 104 => ⟨S4096x256, .f32⟩
  | 105 => ⟨S4096x256, .f32⟩
  | 106 => ⟨S_, .f32⟩
  | 107 => ⟨S4096x256, .f32⟩
  | 108 => ⟨S4096x256, .f32⟩
  | 109 => ⟨S4096x256, .f32⟩
  | 110 => ⟨S256x4096, .f32⟩
  | 111 => ⟨S4096x4096, .f32⟩
  | 112 => ⟨S_, .f32⟩
  | 113 => ⟨S_, .f32⟩
  | 114 => ⟨S_, .f32⟩
  | 115 => ⟨S_, .f32⟩
  | 116 => ⟨S4096x4096, .f32⟩
  | 117 => ⟨S4096x4096, .i1⟩
  | 118 => ⟨S4096x4096, .f32⟩
  | 119 => ⟨S_, .f32⟩
  | 120 => ⟨S4096x4096, .f32⟩
  | 121 => ⟨S4096x4096, .f32⟩
  | 122 => ⟨S4096x4096, .f32⟩
  | 123 => ⟨S4096x256, .f32⟩
  | 124 => ⟨S1x2x256x256, .f32⟩
  | 125 => ⟨S2x256x256, .f32⟩
  | 126 => ⟨S1x2x256, .f32⟩
  | 127 => ⟨S2x256, .f32⟩
  | _ => ⟨S4096x256, .f32⟩

abbrev hbmTy0_5 (i : Nat) : BufTy := match i % 128 with
  | 0 => ⟨S1x2x256, .f32⟩
  | 1 => ⟨S2x256, .f32⟩
  | 2 => ⟨S1x256x256, .f32⟩
  | 3 => ⟨S256x256, .f32⟩
  | 4 => ⟨S4096x256, .f32⟩
  | 5 => ⟨S1x256, .f32⟩
  | 6 => ⟨S256, .f32⟩
  | 7 => ⟨S1x256, .f32⟩
  | 8 => ⟨S4096x256, .f32⟩
  | 9 => ⟨S4096x256, .f32⟩
  | 10 => ⟨S_, .f32⟩
  | 11 => ⟨S256, .f32⟩
  | 12 => ⟨S_, .f32⟩
  | 13 => ⟨S256, .f32⟩
  | 14 => ⟨S256, .f32⟩
  | 15 => ⟨S_, .i32⟩
  | 16 => ⟨S_, .f32⟩
  | 17 => ⟨S256, .f32⟩
  | 18 => ⟨S1x256, .f32⟩
  | 19 => ⟨S_, .f32⟩
  | 20 => ⟨S1x256, .f32⟩
  | 21 => ⟨S1x256, .f32⟩
  | 22 => ⟨S4096x256, .f32⟩
  | 23 => ⟨S4096x256, .f32⟩
  | 24 => ⟨S4096x256, .f32⟩
  | 25 => ⟨S_, .f32⟩
  | 26 => ⟨S_, .f32⟩
  | 27 => ⟨S_, .f32⟩
  | 28 => ⟨S_, .f32⟩
  | 29 => ⟨S256, .f32⟩
  | 30 => ⟨S256, .f32⟩
  | 31 => ⟨S256, .f32⟩
  | 32 => ⟨S_, .f32⟩
  | 33 => ⟨S_, .i1⟩
  | 34 => ⟨S_, .f32⟩
  | 35 => ⟨S_, .f32⟩
  | 36 => ⟨S256, .f32⟩
  | 37 => ⟨S256, .f32⟩
  | 38 => ⟨S1x256, .f32⟩
  | 39 => ⟨S4096x256, .f32⟩
  | 40 => ⟨S4096x256, .f32⟩
  | 41 => ⟨S_, .f32⟩
  | 42 => ⟨S256, .f32⟩
  | 43 => ⟨S256, .f32⟩
  | 44 => ⟨S256, .f32⟩
  | 45 => ⟨S1x256, .f32⟩
  | 46 => ⟨S4096x256, .f32⟩
  | 47 => ⟨S4096x256, .f32⟩
  | 48 => ⟨S1x256, .f32⟩
  | 49 => ⟨S256, .f32⟩
  | 50 => ⟨S1x256, .f32⟩
  | 51 => ⟨S4096x256, .f32⟩
  | 52 => ⟨S4096x256, .f32⟩
  | 53 => ⟨S1x256, .f32⟩
  | 54 => ⟨S256, .f32⟩
  | 55 => ⟨S1x256, .f32⟩
  | 56 => ⟨S4096x256, .f32⟩
  | 57 => ⟨S4096x256, .f32⟩
  | 58 => ⟨S_, .f32⟩
  | 59 => ⟨S4096x256, .f32⟩
  | 60 => ⟨S4096x256, .f32⟩
  | 61 => ⟨S1x256x256, .f32⟩
  | 62 => ⟨S256x256, .f32⟩
  | 63 => ⟨S4096x256, .f32⟩
  | 64 => ⟨S1x256, .f32⟩
  | 65 => ⟨S256, .f32⟩
  | 66 => ⟨S1x256, .f32⟩
  | 67 => ⟨S4096x256, .f32⟩
  | 68 => ⟨S4096x256, .f32⟩
  | 69 => ⟨S4096x256, .f32⟩
  | 70 => ⟨S1x256x256, .f32⟩
  | 71 => ⟨S256x256, .f32⟩
  | 72 => ⟨S4096x256, .f32⟩
  | 73 => ⟨S1x256, .f32⟩
  | 74 => ⟨S256, .f32⟩
  | 75 => ⟨S1x256, .f32⟩
  | 76 => ⟨S4096x256, .f32⟩
  | 77 => ⟨S4096x256, .f32⟩
  | 78 => ⟨S_, .f32⟩
  | 79 => ⟨S4096x256, .f32⟩
  | 80 => ⟨S4096x256, .i1⟩
  | 81 => ⟨S_, .f32⟩
  | 82 => ⟨S4096x256, .f32⟩
  | 83 => ⟨S4096x256, .i1⟩
  | 84 => ⟨S_, .f32⟩
  | 85 => ⟨S_, .f32⟩
  | 86 => ⟨S4096x256, .f32⟩
  | 87 => ⟨S4096x256, .f32⟩
  | 88 => ⟨S4096x256, .f32⟩
  | 89 => ⟨S_, .f32⟩
  | 90 => ⟨S4096x256, .f32⟩
  | 91 => ⟨S4096x256, .f32⟩
  | 92 => ⟨S4096x256, .f32⟩
  | 93 => ⟨S1x256x256, .f32⟩
  | 94 => ⟨S256x256, .f32⟩
  | 95 => ⟨S4096x256, .f32⟩
  | 96 => ⟨S1x256, .f32⟩
  | 97 => ⟨S256, .f32⟩
  | 98 => ⟨S1x256, .f32⟩
  | 99 => ⟨S4096x256, .f32⟩
  | 100 => ⟨S4096x256, .f32⟩
  | 101 => ⟨S_, .f32⟩
  | 102 => ⟨S4096x256, .f32⟩
  | 103 => ⟨S4096x256, .i1⟩
  | 104 => ⟨S_, .f32⟩
  | 105 => ⟨S4096x256, .f32⟩
  | 106 => ⟨S4096x256, .i1⟩
  | 107 => ⟨S_, .f32⟩
  | 108 => ⟨S_, .f32⟩
  | 109 => ⟨S4096x256, .f32⟩
  | 110 => ⟨S4096x256, .f32⟩
  | 111 => ⟨S4096x256, .f32⟩
  | 112 => ⟨S_, .f32⟩
  | 113 => ⟨S4096x256, .f32⟩
  | 114 => ⟨S4096x256, .f32⟩
  | 115 => ⟨S4096x256, .f32⟩
  | 116 => ⟨S256x4096, .f32⟩
  | 117 => ⟨S4096x4096, .f32⟩
  | 118 => ⟨S_, .f32⟩
  | 119 => ⟨S_, .f32⟩
  | 120 => ⟨S_, .f32⟩
  | 121 => ⟨S_, .f32⟩
  | 122 => ⟨S4096x4096, .f32⟩
  | 123 => ⟨S4096x4096, .i1⟩
  | 124 => ⟨S4096x4096, .f32⟩
  | 125 => ⟨S_, .f32⟩
  | 126 => ⟨S4096x4096, .f32⟩
  | 127 => ⟨S4096x4096, .f32⟩
  | _ => ⟨S4096x256, .f32⟩

abbrev hbmTy0_6 (i : Nat) : BufTy := match i % 128 with
  | 0 => ⟨S4096x4096, .f32⟩
  | 1 => ⟨S4096x256, .f32⟩
  | 2 => ⟨S1x2x256x256, .f32⟩
  | 3 => ⟨S2x256x256, .f32⟩
  | 4 => ⟨S1x2x256, .f32⟩
  | 5 => ⟨S2x256, .f32⟩
  | 6 => ⟨S1x2x256, .f32⟩
  | 7 => ⟨S2x256, .f32⟩
  | 8 => ⟨S1x256x256, .f32⟩
  | 9 => ⟨S256x256, .f32⟩
  | 10 => ⟨S4096x256, .f32⟩
  | 11 => ⟨S1x256, .f32⟩
  | 12 => ⟨S256, .f32⟩
  | 13 => ⟨S1x256, .f32⟩
  | 14 => ⟨S4096x256, .f32⟩
  | 15 => ⟨S4096x256, .f32⟩
  | 16 => ⟨S_, .f32⟩
  | 17 => ⟨S256, .f32⟩
  | 18 => ⟨S_, .f32⟩
  | 19 => ⟨S256, .f32⟩
  | 20 => ⟨S256, .f32⟩
  | 21 => ⟨S_, .i32⟩
  | 22 => ⟨S_, .f32⟩
  | 23 => ⟨S256, .f32⟩
  | 24 => ⟨S1x256, .f32⟩
  | 25 => ⟨S_, .f32⟩
  | 26 => ⟨S1x256, .f32⟩
  | 27 => ⟨S1x256, .f32⟩
  | 28 => ⟨S4096x256, .f32⟩
  | 29 => ⟨S4096x256, .f32⟩
  | 30 => ⟨S4096x256, .f32⟩
  | 31 => ⟨S_, .f32⟩
  | 32 => ⟨S_, .f32⟩
  | 33 => ⟨S_, .f32⟩
  | 34 => ⟨S_, .f32⟩
  | 35 => ⟨S256, .f32⟩
  | 36 => ⟨S256, .f32⟩
  | 37 => ⟨S256, .f32⟩
  | 38 => ⟨S_, .f32⟩
  | 39 => ⟨S_, .i1⟩
  | 40 => ⟨S_, .f32⟩
  | 41 => ⟨S_, .f32⟩
  | 42 => ⟨S256, .f32⟩
  | 43 => ⟨S256, .f32⟩
  | 44 => ⟨S1x256, .f32⟩
  | 45 => ⟨S4096x256, .f32⟩
  | 46 => ⟨S4096x256, .f32⟩
  | 47 => ⟨S_, .f32⟩
  | 48 => ⟨S256, .f32⟩
  | 49 => ⟨S256, .f32⟩
  | 50 => ⟨S256, .f32⟩
  | 51 => ⟨S1x256, .f32⟩
  | 52 => ⟨S4096x256, .f32⟩
  | 53 => ⟨S4096x256, .f32⟩
  | 54 => ⟨S1x256, .f32⟩
  | 55 => ⟨S256, .f32⟩
  | 56 => ⟨S1x256, .f32⟩
  | 57 => ⟨S4096x256, .f32⟩
  | 58 => ⟨S4096x256, .f32⟩
  | 59 => ⟨S1x256, .f32⟩
  | 60 => ⟨S256, .f32⟩
  | 61 => ⟨S1x256, .f32⟩
  | 62 => ⟨S4096x256, .f32⟩
  | 63 => ⟨S4096x256, .f32⟩
  | 64 => ⟨S_, .f32⟩
  | 65 => ⟨S4096x256, .f32⟩
  | 66 => ⟨S4096x256, .f32⟩
  | 67 => ⟨S1x256x256, .f32⟩
  | 68 => ⟨S256x256, .f32⟩
  | 69 => ⟨S4096x256, .f32⟩
  | 70 => ⟨S1x256, .f32⟩
  | 71 => ⟨S256, .f32⟩
  | 72 => ⟨S1x256, .f32⟩
  | 73 => ⟨S4096x256, .f32⟩
  | 74 => ⟨S4096x256, .f32⟩
  | 75 => ⟨S4096x256, .f32⟩
  | 76 => ⟨S_, .f32⟩
  | 77 => ⟨S4096x256, .f32⟩
  | 78 => ⟨S4096x256, .f32⟩
  | 79 => ⟨S4096x4096, .i32⟩
  | 80 => ⟨S4096x4096, .i32⟩
  | 81 => ⟨S_, .i32⟩
  | 82 => ⟨S4096x4096, .i32⟩
  | 83 => ⟨S4096x4096, .i32⟩
  | 84 => ⟨S4096x4096, .i1⟩
  | 85 => ⟨S4096x4096, .f32⟩
  | 86 => ⟨S_, .f32⟩
  | 87 => ⟨S4096x256, .f32⟩
  | 88 => ⟨S1x256x256, .f32⟩
  | 89 => ⟨S256x256, .f32⟩
  | 90 => ⟨S4096x256, .f32⟩
  | 91 => ⟨S1x256, .f32⟩
  | 92 => ⟨S256, .f32⟩
  | 93 => ⟨S1x256, .f32⟩
  | 94 => ⟨S4096x256, .f32⟩
  | 95 => ⟨S4096x256, .f32⟩
  | 96 => ⟨S_, .f32⟩
  | 97 => ⟨S4096x256, .f32⟩
  | 98 => ⟨S4096x256, .i1⟩
  | 99 => ⟨S_, .f32⟩
  | 100 => ⟨S4096x256, .f32⟩
  | 101 => ⟨S4096x256, .i1⟩
  | 102 => ⟨S_, .f32⟩
  | 103 => ⟨S_, .f32⟩
  | 104 => ⟨S4096x256, .f32⟩
  | 105 => ⟨S4096x256, .f32⟩
  | 106 => ⟨S4096x256, .f32⟩
  | 107 => ⟨S_, .f32⟩
  | 108 => ⟨S4096x256, .f32⟩
  | 109 => ⟨S4096x256, .f32⟩
  | 110 => ⟨S4096x256, .f32⟩
  | 111 => ⟨S1x256x256, .f32⟩
  | 112 => ⟨S256x256, .f32⟩
  | 113 => ⟨S4096x256, .f32⟩
  | 114 => ⟨S1x256, .f32⟩
  | 115 => ⟨S256, .f32⟩
  | 116 => ⟨S1x256, .f32⟩
  | 117 => ⟨S4096x256, .f32⟩
  | 118 => ⟨S4096x256, .f32⟩
  | 119 => ⟨S_, .f32⟩
  | 120 => ⟨S4096x256, .f32⟩
  | 121 => ⟨S4096x256, .i1⟩
  | 122 => ⟨S_, .f32⟩
  | 123 => ⟨S4096x256, .f32⟩
  | 124 => ⟨S4096x256, .i1⟩
  | 125 => ⟨S_, .f32⟩
  | 126 => ⟨S_, .f32⟩
  | 127 => ⟨S4096x256, .f32⟩
  | _ => ⟨S4096x256, .f32⟩

abbrev hbmTy0_7 (i : Nat) : BufTy := match i % 128 with
  | 0 => ⟨S4096x256, .f32⟩
  | 1 => ⟨S4096x256, .f32⟩
  | 2 => ⟨S_, .f32⟩
  | 3 => ⟨S4096x256, .f32⟩
  | 4 => ⟨S4096x256, .f32⟩
  | 5 => ⟨S4096x256, .f32⟩
  | 6 => ⟨S256x4096, .f32⟩
  | 7 => ⟨S4096x4096, .f32⟩
  | 8 => ⟨S_, .f32⟩
  | 9 => ⟨S_, .f32⟩
  | 10 => ⟨S_, .f32⟩
  | 11 => ⟨S_, .f32⟩
  | 12 => ⟨S4096x4096, .f32⟩
  | 13 => ⟨S4096x4096, .i1⟩
  | 14 => ⟨S4096x4096, .f32⟩
  | 15 => ⟨S_, .f32⟩
  | 16 => ⟨S4096x4096, .f32⟩
  | 17 => ⟨S4096x4096, .f32⟩
  | 18 => ⟨S4096x4096, .f32⟩
  | 19 => ⟨S4096x256, .f32⟩
  | 20 => ⟨S1x2x256x256, .f32⟩
  | 21 => ⟨S2x256x256, .f32⟩
  | 22 => ⟨S1x2x256, .f32⟩
  | 23 => ⟨S2x256, .f32⟩
  | 24 => ⟨S1x2x256, .f32⟩
  | 25 => ⟨S2x256, .f32⟩
  | 26 => ⟨S1x256x256, .f32⟩
  | 27 => ⟨S256x256, .f32⟩
  | 28 => ⟨S4096x256, .f32⟩
  | 29 => ⟨S1x256, .f32⟩
  | 30 => ⟨S256, .f32⟩
  | 31 => ⟨S1x256, .f32⟩
  | 32 => ⟨S4096x256, .f32⟩
  | 33 => ⟨S4096x256, .f32⟩
  | 34 => ⟨S_, .f32⟩
  | 35 => ⟨S256, .f32⟩
  | 36 => ⟨S_, .f32⟩
  | 37 => ⟨S256, .f32⟩
  | 38 => ⟨S256, .f32⟩
  | 39 => ⟨S_, .i32⟩
  | 40 => ⟨S_, .f32⟩
  | 41 => ⟨S256, .f32⟩
  | 42 => ⟨S1x256, .f32⟩
  | 43 => ⟨S_, .f32⟩
  | 44 => ⟨S1x256, .f32⟩
  | 45 => ⟨S1x256, .f32⟩
  | 46 => ⟨S4096x256, .f32⟩
  | 47 => ⟨S4096x256, .f32⟩
  | 48 => ⟨S4096x256, .f32⟩
  | 49 => ⟨S_, .f32⟩
  | 50 => ⟨S_, .f32⟩
  | 51 => ⟨S_, .f32⟩
  | 52 => ⟨S_, .f32⟩
  | 53 => ⟨S256, .f32⟩
  | 54 => ⟨S256, .f32⟩
  | 55 => ⟨S256, .f32⟩
  | 56 => ⟨S_, .f32⟩
  | 57 => ⟨S_, .i1⟩
  | 58 => ⟨S_, .f32⟩
  | 59 => ⟨S_, .f32⟩
  | 60 => ⟨S256, .f32⟩
  | 61 => ⟨S256, .f32⟩
  | 62 => ⟨S1x256, .f32⟩
  | 63 => ⟨S4096x256, .f32⟩
  | 64 => ⟨S4096x256, .f32⟩
  | 65 => ⟨S_, .f32⟩
  | 66 => ⟨S256, .f32⟩
  | 67 => ⟨S256, .f32⟩
  | 68 => ⟨S256, .f32⟩
  | 69 => ⟨S1x256, .f32⟩
  | 70 => ⟨S4096x256, .f32⟩
  | 71 => ⟨S4096x256, .f32⟩
  | 72 => ⟨S1x256, .f32⟩
  | 73 => ⟨S256, .f32⟩
  | 74 => ⟨S1x256, .f32⟩
  | 75 => ⟨S4096x256, .f32⟩
  | 76 => ⟨S4096x256, .f32⟩
  | 77 => ⟨S1x256, .f32⟩
  | 78 => ⟨S256, .f32⟩
  | 79 => ⟨S1x256, .f32⟩
  | 80 => ⟨S4096x256, .f32⟩
  | 81 => ⟨S4096x256, .f32⟩
  | 82 => ⟨S_, .f32⟩
  | 83 => ⟨S4096x256, .f32⟩
  | 84 => ⟨S4096x256, .f32⟩
  | 85 => ⟨S1x256x256, .f32⟩
  | 86 => ⟨S256x256, .f32⟩
  | 87 => ⟨S4096x256, .f32⟩
  | 88 => ⟨S1x256, .f32⟩
  | 89 => ⟨S256, .f32⟩
  | 90 => ⟨S1x256, .f32⟩
  | 91 => ⟨S4096x256, .f32⟩
  | 92 => ⟨S4096x256, .f32⟩
  | 93 => ⟨S4096x256, .f32⟩
  | 94 => ⟨S1x256x256, .f32⟩
  | 95 => ⟨S256x256, .f32⟩
  | 96 => ⟨S4096x256, .f32⟩
  | 97 => ⟨S1x256, .f32⟩
  | 98 => ⟨S256, .f32⟩
  | 99 => ⟨S1x256, .f32⟩
  | 100 => ⟨S4096x256, .f32⟩
  | 101 => ⟨S4096x256, .f32⟩
  | 102 => ⟨S_, .f32⟩
  | 103 => ⟨S4096x256, .f32⟩
  | 104 => ⟨S4096x256, .i1⟩
  | 105 => ⟨S_, .f32⟩
  | 106 => ⟨S4096x256, .f32⟩
  | 107 => ⟨S4096x256, .i1⟩
  | 108 => ⟨S_, .f32⟩
  | 109 => ⟨S_, .f32⟩
  | 110 => ⟨S4096x256, .f32⟩
  | 111 => ⟨S4096x256, .f32⟩
  | 112 => ⟨S4096x256, .f32⟩
  | 113 => ⟨S_, .f32⟩
  | 114 => ⟨S4096x256, .f32⟩
  | 115 => ⟨S4096x256, .f32⟩
  | 116 => ⟨S4096x256, .f32⟩
  | 117 => ⟨S1x256x256, .f32⟩
  | 118 => ⟨S256x256, .f32⟩
  | 119 => ⟨S4096x256, .f32⟩
  | 120 => ⟨S1x256, .f32⟩
  | 121 => ⟨S256, .f32⟩
  | 122 => ⟨S1x256, .f32⟩
  | 123 => ⟨S4096x256, .f32⟩
  | 124 => ⟨S4096x256, .f32⟩
  | 125 => ⟨S_, .f32⟩
  | 126 => ⟨S4096x256, .f32⟩
  | 127 => ⟨S4096x256, .i1⟩
  | _ => ⟨S4096x256, .f32⟩

abbrev hbmTy0_8 (i : Nat) : BufTy := match i % 128 with
  | 0 => ⟨S_, .f32⟩
  | 1 => ⟨S4096x256, .f32⟩
  | 2 => ⟨S4096x256, .i1⟩
  | 3 => ⟨S_, .f32⟩
  | 4 => ⟨S_, .f32⟩
  | 5 => ⟨S4096x256, .f32⟩
  | 6 => ⟨S4096x256, .f32⟩
  | 7 => ⟨S4096x256, .f32⟩
  | 8 => ⟨S_, .f32⟩
  | 9 => ⟨S4096x256, .f32⟩
  | 10 => ⟨S4096x256, .f32⟩
  | 11 => ⟨S4096x256, .f32⟩
  | 12 => ⟨S256x4096, .f32⟩
  | 13 => ⟨S4096x4096, .f32⟩
  | 14 => ⟨S_, .f32⟩
  | 15 => ⟨S_, .f32⟩
  | 16 => ⟨S_, .f32⟩
  | 17 => ⟨S_, .f32⟩
  | 18 => ⟨S4096x4096, .f32⟩
  | 19 => ⟨S4096x4096, .i1⟩
  | 20 => ⟨S4096x4096, .f32⟩
  | 21 => ⟨S_, .f32⟩
  | 22 => ⟨S4096x4096, .f32⟩
  | 23 => ⟨S4096x4096, .f32⟩
  | 24 => ⟨S4096x4096, .f32⟩
  | 25 => ⟨S4096x256, .f32⟩
  | 26 => ⟨S1x2x256x256, .f32⟩
  | 27 => ⟨S2x256x256, .f32⟩
  | 28 => ⟨S1x2x256, .f32⟩
  | 29 => ⟨S2x256, .f32⟩
  | 30 => ⟨S1x2x256, .f32⟩
  | 31 => ⟨S2x256, .f32⟩
  | 32 => ⟨S1x256x256, .f32⟩
  | 33 => ⟨S256x256, .f32⟩
  | 34 => ⟨S4096x256, .f32⟩
  | 35 => ⟨S1x256, .f32⟩
  | 36 => ⟨S256, .f32⟩
  | 37 => ⟨S1x256, .f32⟩
  | 38 => ⟨S4096x256, .f32⟩
  | 39 => ⟨S4096x256, .f32⟩
  | 40 => ⟨S_, .f32⟩
  | 41 => ⟨S256, .f32⟩
  | 42 => ⟨S_, .f32⟩
  | 43 => ⟨S256, .f32⟩
  | 44 => ⟨S256, .f32⟩
  | 45 => ⟨S_, .i32⟩
  | 46 => ⟨S_, .f32⟩
  | 47 => ⟨S256, .f32⟩
  | 48 => ⟨S1x256, .f32⟩
  | 49 => ⟨S_, .f32⟩
  | 50 => ⟨S1x256, .f32⟩
  | 51 => ⟨S1x256, .f32⟩
  | 52 => ⟨S4096x256, .f32⟩
  | 53 => ⟨S4096x256, .f32⟩
  | 54 => ⟨S4096x256, .f32⟩
  | 55 => ⟨S_, .f32⟩
  | 56 => ⟨S_, .f32⟩
  | 57 => ⟨S_, .f32⟩
  | 58 => ⟨S_, .f32⟩
  | 59 => ⟨S256, .f32⟩
  | 60 => ⟨S256, .f32⟩
  | 61 => ⟨S256, .f32⟩
  | 62 => ⟨S_, .f32⟩
  | 63 => ⟨S_, .i1⟩
  | 64 => ⟨S_, .f32⟩
  | 65 => ⟨S_, .f32⟩
  | 66 => ⟨S256, .f32⟩
  | 67 => ⟨S256, .f32⟩
  | 68 => ⟨S1x256, .f32⟩
  | 69 => ⟨S4096x256, .f32⟩
  | 70 => ⟨S4096x256, .f32⟩
  | 71 => ⟨S_, .f32⟩
  | 72 => ⟨S256, .f32⟩
  | 73 => ⟨S256, .f32⟩
  | 74 => ⟨S256, .f32⟩
  | 75 => ⟨S1x256, .f32⟩
  | 76 => ⟨S4096x256, .f32⟩
  | 77 => ⟨S4096x256, .f32⟩
  | 78 => ⟨S1x256, .f32⟩
  | 79 => ⟨S256, .f32⟩
  | 80 => ⟨S1x256, .f32⟩
  | 81 => ⟨S4096x256, .f32⟩
  | 82 => ⟨S4096x256, .f32⟩
  | 83 => ⟨S1x256, .f32⟩
  | 84 => ⟨S256, .f32⟩
  | 85 => ⟨S1x256, .f32⟩
  | 86 => ⟨S4096x256, .f32⟩
  | 87 => ⟨S4096x256, .f32⟩
  | 88 => ⟨S_, .f32⟩
  | 89 => ⟨S4096x256, .f32⟩
  | 90 => ⟨S4096x256, .f32⟩
  | 91 => ⟨S1x256x256, .f32⟩
  | 92 => ⟨S256x256, .f32⟩
  | 93 => ⟨S4096x256, .f32⟩
  | 94 => ⟨S1x256, .f32⟩
  | 95 => ⟨S256, .f32⟩
  | 96 => ⟨S1x256, .f32⟩
  | 97 => ⟨S4096x256, .f32⟩
  | 98 => ⟨S4096x256, .f32⟩
  | 99 => ⟨S4096x256, .f32⟩
  | 100 => ⟨S1x256x256, .f32⟩
  | 101 => ⟨S256x256, .f32⟩
  | 102 => ⟨S4096x256, .f32⟩
  | 103 => ⟨S1x256, .f32⟩
  | 104 => ⟨S256, .f32⟩
  | 105 => ⟨S1x256, .f32⟩
  | 106 => ⟨S4096x256, .f32⟩
  | 107 => ⟨S4096x256, .f32⟩
  | 108 => ⟨S_, .f32⟩
  | 109 => ⟨S4096x256, .f32⟩
  | 110 => ⟨S4096x256, .i1⟩
  | 111 => ⟨S_, .f32⟩
  | 112 => ⟨S4096x256, .f32⟩
  | 113 => ⟨S4096x256, .i1⟩
  | 114 => ⟨S_, .f32⟩
  | 115 => ⟨S_, .f32⟩
  | 116 => ⟨S4096x256, .f32⟩
  | 117 => ⟨S4096x256, .f32⟩
  | 118 => ⟨S4096x256, .f32⟩
  | 119 => ⟨S_, .f32⟩
  | 120 => ⟨S4096x256, .f32⟩
  | 121 => ⟨S4096x256, .f32⟩
  | 122 => ⟨S4096x256, .f32⟩
  | 123 => ⟨S1x256x256, .f32⟩
  | 124 => ⟨S256x256, .f32⟩
  | 125 => ⟨S4096x256, .f32⟩
  | 126 => ⟨S1x256, .f32⟩
  | 127 => ⟨S256, .f32⟩
  | _ => ⟨S4096x256, .f32⟩

abbrev hbmTy0_9 (i : Nat) : BufTy := match i % 128 with
  | 0 => ⟨S1x256, .f32⟩
  | 1 => ⟨S4096x256, .f32⟩
  | 2 => ⟨S4096x256, .f32⟩
  | 3 => ⟨S_, .f32⟩
  | 4 => ⟨S4096x256, .f32⟩
  | 5 => ⟨S4096x256, .i1⟩
  | 6 => ⟨S_, .f32⟩
  | 7 => ⟨S4096x256, .f32⟩
  | 8 => ⟨S4096x256, .i1⟩
  | 9 => ⟨S_, .f32⟩
  | 10 => ⟨S_, .f32⟩
  | 11 => ⟨S4096x256, .f32⟩
  | 12 => ⟨S4096x256, .f32⟩
  | 13 => ⟨S4096x256, .f32⟩
  | 14 => ⟨S_, .f32⟩
  | 15 => ⟨S4096x256, .f32⟩
  | 16 => ⟨S4096x256, .f32⟩
  | 17 => ⟨S4096x256, .f32⟩
  | 18 => ⟨S256x4096, .f32⟩
  | 19 => ⟨S4096x4096, .f32⟩
  | 20 => ⟨S_, .f32⟩
  | 21 => ⟨S_, .f32⟩
  | 22 => ⟨S_, .f32⟩
  | 23 => ⟨S_, .f32⟩
  | 24 => ⟨S4096x4096, .f32⟩
  | 25 => ⟨S4096x4096, .i1⟩
  | 26 => ⟨S4096x4096, .f32⟩
  | 27 => ⟨S_, .f32⟩
  | 28 => ⟨S4096x4096, .f32⟩
  | 29 => ⟨S4096x4096, .f32⟩
  | 30 => ⟨S4096x4096, .f32⟩
  | 31 => ⟨S4096x256, .f32⟩
  | 32 => ⟨S1x2x256x256, .f32⟩
  | 33 => ⟨S2x256x256, .f32⟩
  | 34 => ⟨S1x2x256, .f32⟩
  | 35 => ⟨S2x256, .f32⟩
  | 36 => ⟨S1x2x256, .f32⟩
  | 37 => ⟨S2x256, .f32⟩
  | 38 => ⟨S1x256x256, .f32⟩
  | 39 => ⟨S256x256, .f32⟩
  | 40 => ⟨S4096x256, .f32⟩
  | 41 => ⟨S1x256, .f32⟩
  | 42 => ⟨S256, .f32⟩
  | 43 => ⟨S1x256, .f32⟩
  | 44 => ⟨S4096x256, .f32⟩
  | 45 => ⟨S4096x256, .f32⟩
  | 46 => ⟨S_, .f32⟩
  | 47 => ⟨S256, .f32⟩
  | 48 => ⟨S_, .f32⟩
  | 49 => ⟨S256, .f32⟩
  | 50 => ⟨S256, .f32⟩
  | 51 => ⟨S_, .i32⟩
  | 52 => ⟨S_, .f32⟩
  | 53 => ⟨S256, .f32⟩
  | 54 => ⟨S1x256, .f32⟩
  | 55 => ⟨S_, .f32⟩
  | 56 => ⟨S1x256, .f32⟩
  | 57 => ⟨S1x256, .f32⟩
  | 58 => ⟨S4096x256, .f32⟩
  | 59 => ⟨S4096x256, .f32⟩
  | 60 => ⟨S4096x256, .f32⟩
  | 61 => ⟨S_, .f32⟩
  | 62 => ⟨S_, .f32⟩
  | 63 => ⟨S_, .f32⟩
  | 64 => ⟨S_, .f32⟩
  | 65 => ⟨S256, .f32⟩
  | 66 => ⟨S256, .f32⟩
  | 67 => ⟨S256, .f32⟩
  | 68 => ⟨S_, .f32⟩
  | 69 => ⟨S_, .i1⟩
  | 70 => ⟨S_, .f32⟩
  | 71 => ⟨S_, .f32⟩
  | 72 => ⟨S256, .f32⟩
  | 73 => ⟨S256, .f32⟩
  | 74 => ⟨S1x256, .f32⟩
  | 75 => ⟨S4096x256, .f32⟩
  | 76 => ⟨S4096x256, .f32⟩
  | 77 => ⟨S_, .f32⟩
  | 78 => ⟨S256, .f32⟩
  | 79 => ⟨S256, .f32⟩
  | 80 => ⟨S256, .f32⟩
  | 81 => ⟨S1x256, .f32⟩
  | 82 => ⟨S4096x256, .f32⟩
  | 83 => ⟨S4096x256, .f32⟩
  | 84 => ⟨S1x256, .f32⟩
  | 85 => ⟨S256, .f32⟩
  | 86 => ⟨S1x256, .f32⟩
  | 87 => ⟨S4096x256, .f32⟩
  | 88 => ⟨S4096x256, .f32⟩
  | 89 => ⟨S1x256, .f32⟩
  | 90 => ⟨S256, .f32⟩
  | 91 => ⟨S1x256, .f32⟩
  | 92 => ⟨S4096x256, .f32⟩
  | 93 => ⟨S4096x256, .f32⟩
  | 94 => ⟨S_, .f32⟩
  | 95 => ⟨S4096x256, .f32⟩
  | 96 => ⟨S4096x256, .f32⟩
  | 97 => ⟨S1x256x256, .f32⟩
  | 98 => ⟨S256x256, .f32⟩
  | 99 => ⟨S4096x256, .f32⟩
  | 100 => ⟨S1x256, .f32⟩
  | 101 => ⟨S256, .f32⟩
  | 102 => ⟨S1x256, .f32⟩
  | 103 => ⟨S4096x256, .f32⟩
  | 104 => ⟨S4096x256, .f32⟩
  | 105 => ⟨S4096x256, .f32⟩
  | 106 => ⟨S_, .f32⟩
  | 107 => ⟨S4096x256, .f32⟩
  | 108 => ⟨S4096x256, .f32⟩
  | 109 => ⟨S4096x4096, .i32⟩
  | 110 => ⟨S4096x4096, .i32⟩
  | 111 => ⟨S_, .i32⟩
  | 112 => ⟨S4096x4096, .i32⟩
  | 113 => ⟨S4096x4096, .i32⟩
  | 114 => ⟨S4096x4096, .i1⟩
  | 115 => ⟨S4096x4096, .f32⟩
  | 116 => ⟨S_, .f32⟩
  | 117 => ⟨S4096x256, .f32⟩
  | 118 => ⟨S1x256x256, .f32⟩
  | 119 => ⟨S256x256, .f32⟩
  | 120 => ⟨S4096x256, .f32⟩
  | 121 => ⟨S1x256, .f32⟩
  | 122 => ⟨S256, .f32⟩
  | 123 => ⟨S1x256, .f32⟩
  | 124 => ⟨S4096x256, .f32⟩
  | 125 => ⟨S4096x256, .f32⟩
  | 126 => ⟨S_, .f32⟩
  | 127 => ⟨S4096x256, .f32⟩
  | _ => ⟨S4096x256, .f32⟩

abbrev hbmTy0_10 (i : Nat) : BufTy := match i % 128 with
  | 0 => ⟨S4096x256, .i1⟩
  | 1 => ⟨S_, .f32⟩
  | 2 => ⟨S4096x256, .f32⟩
  | 3 => ⟨S4096x256, .i1⟩
  | 4 => ⟨S_, .f32⟩
  | 5 => ⟨S_, .f32⟩
  | 6 => ⟨S4096x256, .f32⟩
  | 7 => ⟨S4096x256, .f32⟩
  | 8 => ⟨S4096x256, .f32⟩
  | 9 => ⟨S_, .f32⟩
  | 10 => ⟨S4096x256, .f32⟩
  | 11 => ⟨S4096x256, .f32⟩
  | 12 => ⟨S4096x256, .f32⟩
  | 13 => ⟨S1x256x256, .f32⟩
  | 14 => ⟨S256x256, .f32⟩
  | 15 => ⟨S4096x256, .f32⟩
  | 16 => ⟨S1x256, .f32⟩
  | 17 => ⟨S256, .f32⟩
  | 18 => ⟨S1x256, .f32⟩
  | 19 => ⟨S4096x256, .f32⟩
  | 20 => ⟨S4096x256, .f32⟩
  | 21 => ⟨S_, .f32⟩
  | 22 => ⟨S4096x256, .f32⟩
  | 23 => ⟨S4096x256, .i1⟩
  | 24 => ⟨S_, .f32⟩
  | 25 => ⟨S4096x256, .f32⟩
  | 26 => ⟨S4096x256, .i1⟩
  | 27 => ⟨S_, .f32⟩
  | 28 => ⟨S_, .f32⟩
  | 29 => ⟨S4096x256, .f32⟩
  | 30 => ⟨S4096x256, .f32⟩
  | 31 => ⟨S4096x256, .f32⟩
  | 32 => ⟨S_, .f32⟩
  | 33 => ⟨S4096x256, .f32⟩
  | 34 => ⟨S4096x256, .f32⟩
  | 35 => ⟨S4096x256, .f32⟩
  | 36 => ⟨S256x4096, .f32⟩
  | 37 => ⟨S4096x4096, .f32⟩
  | 38 => ⟨S_, .f32⟩
  | 39 => ⟨S_, .f32⟩
  | 40 => ⟨S_, .f32⟩
  | 41 => ⟨S_, .f32⟩
  | 42 => ⟨S4096x4096, .f32⟩
  | 43 => ⟨S4096x4096, .i1⟩
  | 44 => ⟨S4096x4096, .f32⟩
  | 45 => ⟨S_, .f32⟩
  | 46 => ⟨S4096x4096, .f32⟩
  | 47 => ⟨S4096x4096, .f32⟩
  | 48 => ⟨S4096x4096, .f32⟩
  | 49 => ⟨S4096x256, .f32⟩
  | 50 => ⟨S1x2x256x256, .f32⟩
  | 51 => ⟨S2x256x256, .f32⟩
  | 52 => ⟨S1x2x256, .f32⟩
  | 53 => ⟨S2x256, .f32⟩
  | 54 => ⟨S1x2x256, .f32⟩
  | 55 => ⟨S2x256, .f32⟩
  | 56 => ⟨S1x256x256, .f32⟩
  | 57 => ⟨S256x256, .f32⟩
  | 58 => ⟨S4096x256, .f32⟩
  | 59 => ⟨S1x256, .f32⟩
  | 60 => ⟨S256, .f32⟩
  | 61 => ⟨S1x256, .f32⟩
  | 62 => ⟨S4096x256, .f32⟩
  | 63 => ⟨S4096x256, .f32⟩
  | 64 => ⟨S_, .f32⟩
  | 65 => ⟨S256, .f32⟩
  | 66 => ⟨S_, .f32⟩
  | 67 => ⟨S256, .f32⟩
  | 68 => ⟨S256, .f32⟩
  | 69 => ⟨S_, .i32⟩
  | 70 => ⟨S_, .f32⟩
  | 71 => ⟨S256, .f32⟩
  | 72 => ⟨S1x256, .f32⟩
  | 73 => ⟨S_, .f32⟩
  | 74 => ⟨S1x256, .f32⟩
  | 75 => ⟨S1x256, .f32⟩
  | 76 => ⟨S4096x256, .f32⟩
  | 77 => ⟨S4096x256, .f32⟩
  | 78 => ⟨S4096x256, .f32⟩
  | 79 => ⟨S_, .f32⟩
  | 80 => ⟨S_, .f32⟩
  | 81 => ⟨S_, .f32⟩
  | 82 => ⟨S_, .f32⟩
  | 83 => ⟨S256, .f32⟩
  | 84 => ⟨S256, .f32⟩
  | 85 => ⟨S256, .f32⟩
  | 86 => ⟨S_, .f32⟩
  | 87 => ⟨S_, .i1⟩
  | 88 => ⟨S_, .f32⟩
  | 89 => ⟨S_, .f32⟩
  | 90 => ⟨S256, .f32⟩
  | 91 => ⟨S256, .f32⟩
  | 92 => ⟨S1x256, .f32⟩
  | 93 => ⟨S4096x256, .f32⟩
  | 94 => ⟨S4096x256, .f32⟩
  | 95 => ⟨S_, .f32⟩
  | 96 => ⟨S256, .f32⟩
  | 97 => ⟨S256, .f32⟩
  | 98 => ⟨S256, .f32⟩
  | 99 => ⟨S1x256, .f32⟩
  | 100 => ⟨S4096x256, .f32⟩
  | 101 => ⟨S4096x256, .f32⟩
  | 102 => ⟨S1x256, .f32⟩
  | 103 => ⟨S256, .f32⟩
  | 104 => ⟨S1x256, .f32⟩
  | 105 => ⟨S4096x256, .f32⟩
  | 106 => ⟨S4096x256, .f32⟩
  | 107 => ⟨S1x256, .f32⟩
  | 108 => ⟨S256, .f32⟩
  | 109 => ⟨S1x256, .f32⟩
  | 110 => ⟨S4096x256, .f32⟩
  | 111 => ⟨S4096x256, .f32⟩
  | 112 => ⟨S_, .f32⟩
  | 113 => ⟨S4096x256, .f32⟩
  | 114 => ⟨S4096x256, .f32⟩
  | 115 => ⟨S1x256x256, .f32⟩
  | 116 => ⟨S256x256, .f32⟩
  | 117 => ⟨S4096x256, .f32⟩
  | 118 => ⟨S1x256, .f32⟩
  | 119 => ⟨S256, .f32⟩
  | 120 => ⟨S1x256, .f32⟩
  | 121 => ⟨S4096x256, .f32⟩
  | 122 => ⟨S4096x256, .f32⟩
  | 123 => ⟨S4096x256, .f32⟩
  | 124 => ⟨S1x256x256, .f32⟩
  | 125 => ⟨S256x256, .f32⟩
  | 126 => ⟨S4096x256, .f32⟩
  | 127 => ⟨S1x256, .f32⟩
  | _ => ⟨S4096x256, .f32⟩

abbrev hbmTy0_11 (i : Nat) : BufTy := match i % 128 with
  | 0 => ⟨S256, .f32⟩
  | 1 => ⟨S1x256, .f32⟩
  | 2 => ⟨S4096x256, .f32⟩
  | 3 => ⟨S4096x256, .f32⟩
  | 4 => ⟨S_, .f32⟩
  | 5 => ⟨S4096x256, .f32⟩
  | 6 => ⟨S4096x256, .i1⟩
  | 7 => ⟨S_, .f32⟩
  | 8 => ⟨S4096x256, .f32⟩
  | 9 => ⟨S4096x256, .i1⟩
  | 10 => ⟨S_, .f32⟩
  | 11 => ⟨S_, .f32⟩
  | 12 => ⟨S4096x256, .f32⟩
  | 13 => ⟨S4096x256, .f32⟩
  | 14 => ⟨S4096x256, .f32⟩
  | 15 => ⟨S_, .f32⟩
  | 16 => ⟨S4096x256, .f32⟩
  | 17 => ⟨S4096x256, .f32⟩
  | 18 => ⟨S4096x256, .f32⟩
  | 19 => ⟨S1x256x256, .f32⟩
  | 20 => ⟨S256x256, .f32⟩
  | 21 => ⟨S4096x256, .f32⟩
  | 22 => ⟨S1x256, .f32⟩
  | 23 => ⟨S256, .f32⟩
  | 24 => ⟨S1x256, .f32⟩
  | 25 => ⟨S4096x256, .f32⟩
  | 26 => ⟨S4096x256, .f32⟩
  | 27 => ⟨S_, .f32⟩
  | 28 => ⟨S4096x256, .f32⟩
  | 29 => ⟨S4096x256, .i1⟩
  | 30 => ⟨S_, .f32⟩
  | 31 => ⟨S4096x256, .f32⟩
  | 32 => ⟨S4096x256, .i1⟩
  | 33 => ⟨S_, .f32⟩
  | 34 => ⟨S_, .f32⟩
  | 35 => ⟨S4096x256, .f32⟩
  | 36 => ⟨S4096x256, .f32⟩
  | 37 => ⟨S4096x256, .f32⟩
  | 38 => ⟨S_, .f32⟩
  | 39 => ⟨S4096x256, .f32⟩
  | 40 => ⟨S4096x256, .f32⟩
  | 41 => ⟨S4096x256, .f32⟩
  | 42 => ⟨S256x4096, .f32⟩
  | 43 => ⟨S4096x4096, .f32⟩
  | 44 => ⟨S_, .f32⟩
  | 45 => ⟨S_, .f32⟩
  | 46 => ⟨S_, .f32⟩
  | 47 => ⟨S_, .f32⟩
  | 48 => ⟨S4096x4096, .f32⟩
  | 49 => ⟨S4096x4096, .i1⟩
  | 50 => ⟨S4096x4096, .f32⟩
  | 51 => ⟨S_, .f32⟩
  | 52 => ⟨S4096x4096, .f32⟩
  | 53 => ⟨S4096x4096, .f32⟩
  | 54 => ⟨S4096x4096, .f32⟩
  | 55 => ⟨S4096x256, .f32⟩
  | 56 => ⟨S1x2x256x256, .f32⟩
  | 57 => ⟨S2x256x256, .f32⟩
  | 58 => ⟨S1x2x256, .f32⟩
  | 59 => ⟨S2x256, .f32⟩
  | 60 => ⟨S1x2x256, .f32⟩
  | 61 => ⟨S2x256, .f32⟩
  | 62 => ⟨S1x256x256, .f32⟩
  | 63 => ⟨S256x256, .f32⟩
  | 64 => ⟨S4096x256, .f32⟩
  | 65 => ⟨S1x256, .f32⟩
  | 66 => ⟨S256, .f32⟩
  | 67 => ⟨S1x256, .f32⟩
  | 68 => ⟨S4096x256, .f32⟩
  | 69 => ⟨S4096x256, .f32⟩
  | 70 => ⟨S_, .f32⟩
  | 71 => ⟨S256, .f32⟩
  | 72 => ⟨S_, .f32⟩
  | 73 => ⟨S256, .f32⟩
  | 74 => ⟨S256, .f32⟩
  | 75 => ⟨S_, .i32⟩
  | 76 => ⟨S_, .f32⟩
  | 77 => ⟨S256, .f32⟩
  | 78 => ⟨S1x256, .f32⟩
  | 79 => ⟨S_, .f32⟩
  | 80 => ⟨S1x256, .f32⟩
  | 81 => ⟨S1x256, .f32⟩
  | 82 => ⟨S4096x256, .f32⟩
  | 83 => ⟨S4096x256, .f32⟩
  | 84 => ⟨S4096x256, .f32⟩
  | 85 => ⟨S_, .f32⟩
  | 86 => ⟨S_, .f32⟩
  | 87 => ⟨S_, .f32⟩
  | 88 => ⟨S_, .f32⟩
  | 89 => ⟨S256, .f32⟩
  | 90 => ⟨S256, .f32⟩
  | 91 => ⟨S256, .f32⟩
  | 92 => ⟨S_, .f32⟩
  | 93 => ⟨S_, .i1⟩
  | 94 => ⟨S_, .f32⟩
  | 95 => ⟨S_, .f32⟩
  | 96 => ⟨S256, .f32⟩
  | 97 => ⟨S256, .f32⟩
  | 98 => ⟨S1x256, .f32⟩
  | 99 => ⟨S4096x256, .f32⟩
  | 100 => ⟨S4096x256, .f32⟩
  | 101 => ⟨S_, .f32⟩
  | 102 => ⟨S256, .f32⟩
  | 103 => ⟨S256, .f32⟩
  | 104 => ⟨S256, .f32⟩
  | 105 => ⟨S1x256, .f32⟩
  | 106 => ⟨S4096x256, .f32⟩
  | 107 => ⟨S4096x256, .f32⟩
  | 108 => ⟨S1x256, .f32⟩
  | 109 => ⟨S256, .f32⟩
  | 110 => ⟨S1x256, .f32⟩
  | 111 => ⟨S4096x256, .f32⟩
  | 112 => ⟨S4096x256, .f32⟩
  | 113 => ⟨S1x256, .f32⟩
  | 114 => ⟨S256, .f32⟩
  | 115 => ⟨S1x256, .f32⟩
  | 116 => ⟨S4096x256, .f32⟩
  | 117 => ⟨S4096x256, .f32⟩
  | 118 => ⟨S_, .f32⟩
  | 119 => ⟨S4096x256, .f32⟩
  | 120 => ⟨S4096x256, .f32⟩
  | 121 => ⟨S1x256x256, .f32⟩
  | 122 => ⟨S256x256, .f32⟩
  | 123 => ⟨S4096x256, .f32⟩
  | 124 => ⟨S1x256, .f32⟩
  | 125 => ⟨S256, .f32⟩
  | 126 => ⟨S1x256, .f32⟩
  | 127 => ⟨S4096x256, .f32⟩
  | _ => ⟨S4096x256, .f32⟩

abbrev hbmTy0_12 (i : Nat) : BufTy := match i % 128 with
  | 0 => ⟨S4096x256, .f32⟩
  | 1 => ⟨S4096x256, .f32⟩
  | 2 => ⟨S1x256x256, .f32⟩
  | 3 => ⟨S256x256, .f32⟩
  | 4 => ⟨S4096x256, .f32⟩
  | 5 => ⟨S1x256, .f32⟩
  | 6 => ⟨S256, .f32⟩
  | 7 => ⟨S1x256, .f32⟩
  | 8 => ⟨S4096x256, .f32⟩
  | 9 => ⟨S4096x256, .f32⟩
  | 10 => ⟨S_, .f32⟩
  | 11 => ⟨S4096x256, .f32⟩
  | 12 => ⟨S4096x256, .i1⟩
  | 13 => ⟨S_, .f32⟩
  | 14 => ⟨S4096x256, .f32⟩
  | 15 => ⟨S4096x256, .i1⟩
  | 16 => ⟨S_, .f32⟩
  | 17 => ⟨S_, .f32⟩
  | 18 => ⟨S4096x256, .f32⟩
  | 19 => ⟨S4096x256, .f32⟩
  | 20 => ⟨S4096x256, .f32⟩
  | 21 => ⟨S_, .f32⟩
  | 22 => ⟨S4096x256, .f32⟩
  | 23 => ⟨S4096x256, .f32⟩
  | 24 => ⟨S4096x256, .f32⟩
  | 25 => ⟨S1x256x256, .f32⟩
  | 26 => ⟨S256x256, .f32⟩
  | 27 => ⟨S4096x256, .f32⟩
  | 28 => ⟨S1x256, .f32⟩
  | 29 => ⟨S256, .f32⟩
  | 30 => ⟨S1x256, .f32⟩
  | 31 => ⟨S4096x256, .f32⟩
  | 32 => ⟨S4096x256, .f32⟩
  | 33 => ⟨S_, .f32⟩
  | 34 => ⟨S4096x256, .f32⟩
  | 35 => ⟨S4096x256, .i1⟩
  | 36 => ⟨S_, .f32⟩
  | 37 => ⟨S4096x256, .f32⟩
  | 38 => ⟨S4096x256, .i1⟩
  | 39 => ⟨S_, .f32⟩
  | 40 => ⟨S_, .f32⟩
  | 41 => ⟨S4096x256, .f32⟩
  | 42 => ⟨S4096x256, .f32⟩
  | 43 => ⟨S4096x256, .f32⟩
  | 44 => ⟨S_, .f32⟩
  | 45 => ⟨S4096x256, .f32⟩
  | 46 => ⟨S4096x256, .f32⟩
  | 47 => ⟨S4096x256, .f32⟩
  | 48 => ⟨S256x4096, .f32⟩
  | 49 => ⟨S4096x4096, .f32⟩
  | 50 => ⟨S_, .f32⟩
  | 51 => ⟨S_, .f32⟩
  | 52 => ⟨S_, .f32⟩
  | 53 => ⟨S_, .f32⟩
  | 54 => ⟨S4096x4096, .f32⟩
  | 55 => ⟨S4096x4096, .i1⟩
  | 56 => ⟨S4096x4096, .f32⟩
  | 57 => ⟨S_, .f32⟩
  | 58 => ⟨S4096x4096, .f32⟩
  | 59 => ⟨S4096x4096, .f32⟩
  | 60 => ⟨S4096x4096, .f32⟩
  | 61 => ⟨S4096x256, .f32⟩
  | 62 => ⟨S1x2x256x256, .f32⟩
  | 63 => ⟨S2x256x256, .f32⟩
  | 64 => ⟨S1x2x256, .f32⟩
  | 65 => ⟨S2x256, .f32⟩
  | 66 => ⟨S1x2x256, .f32⟩
  | 67 => ⟨S2x256, .f32⟩
  | 68 => ⟨S1x256x256, .f32⟩
  | 69 => ⟨S256x256, .f32⟩
  | 70 => ⟨S4096x256, .f32⟩
  | 71 => ⟨S1x256, .f32⟩
  | 72 => ⟨S256, .f32⟩
  | 73 => ⟨S1x256, .f32⟩
  | 74 => ⟨S4096x256, .f32⟩
  | 75 => ⟨S4096x256, .f32⟩
  | 76 => ⟨S_, .f32⟩
  | 77 => ⟨S256, .f32⟩
  | 78 => ⟨S_, .f32⟩
  | 79 => ⟨S256, .f32⟩
  | 80 => ⟨S256, .f32⟩
  | 81 => ⟨S_, .i32⟩
  | 82 => ⟨S_, .f32⟩
  | 83 => ⟨S256, .f32⟩
  | 84 => ⟨S1x256, .f32⟩
  | 85 => ⟨S_, .f32⟩
  | 86 => ⟨S1x256, .f32⟩
  | 87 => ⟨S1x256, .f32⟩
  | 88 => ⟨S4096x256, .f32⟩
  | 89 => ⟨S4096x256, .f32⟩
  | 90 => ⟨S4096x256, .f32⟩
  | 91 => ⟨S_, .f32⟩
  | 92 => ⟨S_, .f32⟩
  | 93 => ⟨S_, .f32⟩
  | 94 => ⟨S_, .f32⟩
  | 95 => ⟨S256, .f32⟩
  | 96 => ⟨S256, .f32⟩
  | 97 => ⟨S256, .f32⟩
  | 98 => ⟨S_, .f32⟩
  | 99 => ⟨S_, .i1⟩
  | 100 => ⟨S_, .f32⟩
  | 101 => ⟨S_, .f32⟩
  | 102 => ⟨S256, .f32⟩
  | 103 => ⟨S256, .f32⟩
  | 104 => ⟨S1x256, .f32⟩
  | 105 => ⟨S4096x256, .f32⟩
  | 106 => ⟨S4096x256, .f32⟩
  | 107 => ⟨S_, .f32⟩
  | 108 => ⟨S256, .f32⟩
  | 109 => ⟨S256, .f32⟩
  | 110 => ⟨S256, .f32⟩
  | 111 => ⟨S1x256, .f32⟩
  | 112 => ⟨S4096x256, .f32⟩
  | 113 => ⟨S4096x256, .f32⟩
  | 114 => ⟨S1x256, .f32⟩
  | 115 => ⟨S256, .f32⟩
  | 116 => ⟨S1x256, .f32⟩
  | 117 => ⟨S4096x256, .f32⟩
  | 118 => ⟨S4096x256, .f32⟩
  | 119 => ⟨S1x256, .f32⟩
  | 120 => ⟨S256, .f32⟩
  | 121 => ⟨S1x256, .f32⟩
  | 122 => ⟨S4096x256, .f32⟩
  | 123 => ⟨S4096x256, .f32⟩
  | 124 => ⟨S_, .f32⟩
  | 125 => ⟨S4096x256, .f32⟩
  | 126 => ⟨S4096x256, .f32⟩
  | 127 => ⟨S1x256x256, .f32⟩
  | _ => ⟨S4096x256, .f32⟩

abbrev hbmTy0_13 (i : Nat) : BufTy := match i % 128 with
  | 0 => ⟨S256x256, .f32⟩
  | 1 => ⟨S4096x256, .f32⟩
  | 2 => ⟨S1x256, .f32⟩
  | 3 => ⟨S256, .f32⟩
  | 4 => ⟨S1x256, .f32⟩
  | 5 => ⟨S4096x256, .f32⟩
  | 6 => ⟨S4096x256, .f32⟩
  | 7 => ⟨S4096x256, .f32⟩
  | 8 => ⟨S_, .f32⟩
  | 9 => ⟨S4096x256, .f32⟩
  | 10 => ⟨S4096x256, .f32⟩
  | 11 => ⟨S4096x256, .f32⟩
  | 12 => ⟨S4096x256, .f32⟩
  | 13 => ⟨S_, .f32⟩
  | 14 => ⟨S_, .f32⟩
  | 15 => ⟨S_, .f32⟩
  | 16 => ⟨S_, .f32⟩
  | 17 => ⟨S4096x256, .f32⟩
  | 18 => ⟨S4096x256, .f32⟩
  | 19 => ⟨S_, .f32⟩
  | 20 => ⟨S_, .f32⟩
  | 21 => ⟨S_, .f32⟩
  | 22 => ⟨S_, .f32⟩
  | 23 => ⟨S4096x256, .f32⟩
  | 24 => ⟨S4096x256, .f32⟩
  | 25 => ⟨S_, .f32⟩
  | 26 => ⟨S_, .f32⟩
  | 27 => ⟨S_, .f32⟩
  | 28 => ⟨S_, .f32⟩
  | _ => ⟨S4096x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_cst_1 : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_v4 : Ref sig .tc := ⟨.hbm, 45, rfl⟩
abbrev main_call0_v5 : Ref sig .tc := ⟨.hbm, 46, rfl⟩
abbrev main_call0_cst_2 : Ref sig .tc := ⟨.hbm, 47, rfl⟩
abbrev main_call0_v6 : Ref sig .tc := ⟨.hbm, 48, rfl⟩
abbrev main_call0_v7 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_cst_0 : Ref sig .tc := ⟨.hbm, 62, rfl⟩
abbrev main_call1_v2 : Ref sig .tc := ⟨.hbm, 63, rfl⟩
abbrev main_call1_v3 : Ref sig .tc := ⟨.hbm, 64, rfl⟩
abbrev main_call1_cst_1 : Ref sig .tc := ⟨.hbm, 65, rfl⟩
abbrev main_call1_call0_v0 : Ref sig .tc := ⟨.hbm, 66, rfl⟩
abbrev main_call1_call0_v1 : Ref sig .tc := ⟨.hbm, 67, rfl⟩
abbrev main_call1_v4 : Ref sig .tc := ⟨.hbm, 68, rfl⟩
abbrev main_call1_v5 : Ref sig .tc := ⟨.hbm, 69, rfl⟩
abbrev main_call1_cst_2 : Ref sig .tc := ⟨.hbm, 70, rfl⟩
abbrev main_call1_v6 : Ref sig .tc := ⟨.hbm, 71, rfl⟩
abbrev main_call1_v7 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_cst_0 : Ref sig .tc := ⟨.hbm, 76, rfl⟩
abbrev main_v27 : Ref sig .tc := ⟨.hbm, 77, rfl⟩
abbrev main_cst_1 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_2 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_cst_3 : Ref sig .tc := ⟨.hbm, 102, rfl⟩
abbrev main_v50 : Ref sig .tc := ⟨.hbm, 103, rfl⟩
abbrev main_cst_4 : Ref sig .tc := ⟨.hbm, 104, rfl⟩
abbrev main_v51 : Ref sig .tc := ⟨.hbm, 105, rfl⟩
abbrev main_v52 : Ref sig .tc := ⟨.hbm, 106, rfl⟩
abbrev main_c_5 : Ref sig .tc := ⟨.hbm, 107, rfl⟩
abbrev main_call2_cst : Ref sig .tc := ⟨.hbm, 108, rfl⟩
abbrev main_call2_v0 : Ref sig .tc := ⟨.hbm, 109, rfl⟩
abbrev main_call2_v1 : Ref sig .tc := ⟨.hbm, 110, rfl⟩
abbrev main_call2_cst_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_v7 : Ref sig .tc := ⟨.hbm, 117, rfl⟩
abbrev main_call2_cst_1 : Ref sig .tc := ⟨.hbm, 118, rfl⟩
abbrev main_call2_v8 : Ref sig .tc := ⟨.hbm, 119, rfl⟩
abbrev main_call2_cst_2 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_cst_3 : Ref sig .tc := ⟨.hbm, 124, rfl⟩
abbrev main_call2_v12 : Ref sig .tc := ⟨.hbm, 125, rfl⟩
abbrev main_call2_cst_4 : Ref sig .tc := ⟨.hbm, 126, rfl⟩
abbrev main_call2_call0_v0 : Ref sig .tc := ⟨.hbm, 127, rfl⟩
abbrev main_call2_call0_v1 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_cst_6 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_call3_cst : Ref sig .tc := ⟨.hbm, 150, rfl⟩
abbrev main_call3_v0 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_call4_cst : Ref sig .tc := ⟨.hbm, 170, rfl⟩
abbrev main_call4_v0 : Ref sig .tc := ⟨.hbm, 171, rfl⟩
abbrev main_call4_v1 : Ref sig .tc := ⟨.hbm, 172, rfl⟩
abbrev main_call4_cst_0 : Ref sig .tc := ⟨.hbm, 173, rfl⟩
abbrev main_call4_v2 : Ref sig .tc := ⟨.hbm, 174, rfl⟩
abbrev main_call4_v3 : Ref sig .tc := ⟨.hbm, 175, rfl⟩
abbrev main_call4_cst_1 : Ref sig .tc := ⟨.hbm, 176, rfl⟩
abbrev main_call4_call0_v0 : Ref sig .tc := ⟨.hbm, 177, rfl⟩
abbrev main_call4_call0_v1 : Ref sig .tc := ⟨.hbm, 178, rfl⟩
abbrev main_call4_v4 : Ref sig .tc := ⟨.hbm, 179, rfl⟩
abbrev main_call4_v5 : Ref sig .tc := ⟨.hbm, 180, rfl⟩
abbrev main_call4_cst_2 : Ref sig .tc := ⟨.hbm, 181, rfl⟩
abbrev main_call4_v6 : Ref sig .tc := ⟨.hbm, 182, rfl⟩
abbrev main_call4_v7 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_call5_cst : Ref sig .tc := ⟨.hbm, 193, rfl⟩
abbrev main_call5_v0 : Ref sig .tc := ⟨.hbm, 194, rfl⟩
abbrev main_call5_v1 : Ref sig .tc := ⟨.hbm, 195, rfl⟩
abbrev main_call5_cst_0 : Ref sig .tc := ⟨.hbm, 196, rfl⟩
abbrev main_call5_v2 : Ref sig .tc := ⟨.hbm, 197, rfl⟩
abbrev main_call5_v3 : Ref sig .tc := ⟨.hbm, 198, rfl⟩
abbrev main_call5_cst_1 : Ref sig .tc := ⟨.hbm, 199, rfl⟩
abbrev main_call5_call0_v0 : Ref sig .tc := ⟨.hbm, 200, rfl⟩
abbrev main_call5_call0_v1 : Ref sig .tc := ⟨.hbm, 201, rfl⟩
abbrev main_call5_v4 : Ref sig .tc := ⟨.hbm, 202, rfl⟩
abbrev main_call5_v5 : Ref sig .tc := ⟨.hbm, 203, rfl⟩
abbrev main_call5_cst_2 : Ref sig .tc := ⟨.hbm, 204, rfl⟩
abbrev main_call5_v6 : Ref sig .tc := ⟨.hbm, 205, rfl⟩
abbrev main_call5_v7 : Ref sig .tc := ⟨.hbm, 206, rfl⟩
abbrev main_v100 : Ref sig .tc := ⟨.hbm, 207, rfl⟩
abbrev main_v101 : Ref sig .tc := ⟨.hbm, 208, rfl⟩
abbrev main_v102 : Ref sig .tc := ⟨.hbm, 209, rfl⟩
abbrev main_cst_7 : Ref sig .tc := ⟨.hbm, 210, rfl⟩
abbrev main_v103 : Ref sig .tc := ⟨.hbm, 211, rfl⟩
abbrev main_cst_8 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_cst_9 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_cst_10 : Ref sig .tc := ⟨.hbm, 236, rfl⟩
abbrev main_v126 : Ref sig .tc := ⟨.hbm, 237, rfl⟩
abbrev main_cst_11 : Ref sig .tc := ⟨.hbm, 238, rfl⟩
abbrev main_v127 : Ref sig .tc := ⟨.hbm, 239, rfl⟩
abbrev main_v128 : Ref sig .tc := ⟨.hbm, 240, rfl⟩
abbrev main_c_12 : Ref sig .tc := ⟨.hbm, 241, rfl⟩
abbrev main_call6_cst : Ref sig .tc := ⟨.hbm, 242, rfl⟩
abbrev main_call6_v0 : Ref sig .tc := ⟨.hbm, 243, rfl⟩
abbrev main_call6_v1 : Ref sig .tc := ⟨.hbm, 244, rfl⟩
abbrev main_call6_cst_0 : Ref sig .tc := ⟨.hbm, 245, rfl⟩
abbrev main_call6_v2 : Ref sig .tc := ⟨.hbm, 246, rfl⟩
abbrev main_call6_v3 : Ref sig .tc := ⟨.hbm, 247, rfl⟩
abbrev main_call6_v4 : Ref sig .tc := ⟨.hbm, 248, rfl⟩
abbrev main_call6_v5 : Ref sig .tc := ⟨.hbm, 249, rfl⟩
abbrev main_call6_v6 : Ref sig .tc := ⟨.hbm, 250, rfl⟩
abbrev main_call6_v7 : Ref sig .tc := ⟨.hbm, 251, rfl⟩
abbrev main_call6_cst_1 : Ref sig .tc := ⟨.hbm, 252, rfl⟩
abbrev main_call6_v8 : Ref sig .tc := ⟨.hbm, 253, rfl⟩
abbrev main_call6_cst_2 : Ref sig .tc := ⟨.hbm, 254, rfl⟩
abbrev main_call6_v9 : Ref sig .tc := ⟨.hbm, 255, rfl⟩
abbrev main_call6_v10 : Ref sig .tc := ⟨.hbm, 256, rfl⟩
abbrev main_call6_v11 : Ref sig .tc := ⟨.hbm, 257, rfl⟩
abbrev main_call6_cst_3 : Ref sig .tc := ⟨.hbm, 258, rfl⟩
abbrev main_call6_v12 : Ref sig .tc := ⟨.hbm, 259, rfl⟩
abbrev main_call6_cst_4 : Ref sig .tc := ⟨.hbm, 260, rfl⟩
abbrev main_call6_call0_v0 : Ref sig .tc := ⟨.hbm, 261, rfl⟩
abbrev main_call6_call0_v1 : Ref sig .tc := ⟨.hbm, 262, rfl⟩
abbrev main_v129 : Ref sig .tc := ⟨.hbm, 263, rfl⟩
abbrev main_v130 : Ref sig .tc := ⟨.hbm, 264, rfl⟩
abbrev main_v131 : Ref sig .tc := ⟨.hbm, 265, rfl⟩
abbrev main_v132 : Ref sig .tc := ⟨.hbm, 266, rfl⟩
abbrev main_cst_13 : Ref sig .tc := ⟨.hbm, 267, rfl⟩
abbrev main_v133 : Ref sig .tc := ⟨.hbm, 268, rfl⟩
abbrev main_v134 : Ref sig .tc := ⟨.hbm, 269, rfl⟩
abbrev main_v135 : Ref sig .tc := ⟨.hbm, 270, rfl⟩
abbrev main_v136 : Ref sig .tc := ⟨.hbm, 271, rfl⟩
abbrev main_v137 : Ref sig .tc := ⟨.hbm, 272, rfl⟩
abbrev main_v138 : Ref sig .tc := ⟨.hbm, 273, rfl⟩
abbrev main_v139 : Ref sig .tc := ⟨.hbm, 274, rfl⟩
abbrev main_v140 : Ref sig .tc := ⟨.hbm, 275, rfl⟩
abbrev main_v141 : Ref sig .tc := ⟨.hbm, 276, rfl⟩
abbrev main_v142 : Ref sig .tc := ⟨.hbm, 277, rfl⟩
abbrev main_v143 : Ref sig .tc := ⟨.hbm, 278, rfl⟩
abbrev main_v144 : Ref sig .tc := ⟨.hbm, 279, rfl⟩
abbrev main_v145 : Ref sig .tc := ⟨.hbm, 280, rfl⟩
abbrev main_v146 : Ref sig .tc := ⟨.hbm, 281, rfl⟩
abbrev main_v147 : Ref sig .tc := ⟨.hbm, 282, rfl⟩
abbrev main_v148 : Ref sig .tc := ⟨.hbm, 283, rfl⟩
abbrev main_call7_cst : Ref sig .tc := ⟨.hbm, 284, rfl⟩
abbrev main_call7_v0 : Ref sig .tc := ⟨.hbm, 285, rfl⟩
abbrev main_v149 : Ref sig .tc := ⟨.hbm, 286, rfl⟩
abbrev main_v150 : Ref sig .tc := ⟨.hbm, 287, rfl⟩
abbrev main_v151 : Ref sig .tc := ⟨.hbm, 288, rfl⟩
abbrev main_v152 : Ref sig .tc := ⟨.hbm, 289, rfl⟩
abbrev main_v153 : Ref sig .tc := ⟨.hbm, 290, rfl⟩
abbrev main_v154 : Ref sig .tc := ⟨.hbm, 291, rfl⟩
abbrev main_v155 : Ref sig .tc := ⟨.hbm, 292, rfl⟩
abbrev main_v156 : Ref sig .tc := ⟨.hbm, 293, rfl⟩
abbrev main_v157 : Ref sig .tc := ⟨.hbm, 294, rfl⟩
abbrev main_v158 : Ref sig .tc := ⟨.hbm, 295, rfl⟩
abbrev main_v159 : Ref sig .tc := ⟨.hbm, 296, rfl⟩
abbrev main_v160 : Ref sig .tc := ⟨.hbm, 297, rfl⟩
abbrev main_v161 : Ref sig .tc := ⟨.hbm, 298, rfl⟩
abbrev main_v162 : Ref sig .tc := ⟨.hbm, 299, rfl⟩
abbrev main_v163 : Ref sig .tc := ⟨.hbm, 300, rfl⟩
abbrev main_v164 : Ref sig .tc := ⟨.hbm, 301, rfl⟩
abbrev main_v165 : Ref sig .tc := ⟨.hbm, 302, rfl⟩
abbrev main_v166 : Ref sig .tc := ⟨.hbm, 303, rfl⟩
abbrev main_call8_cst : Ref sig .tc := ⟨.hbm, 304, rfl⟩
abbrev main_call8_v0 : Ref sig .tc := ⟨.hbm, 305, rfl⟩
abbrev main_call8_v1 : Ref sig .tc := ⟨.hbm, 306, rfl⟩
abbrev main_call8_cst_0 : Ref sig .tc := ⟨.hbm, 307, rfl⟩
abbrev main_call8_v2 : Ref sig .tc := ⟨.hbm, 308, rfl⟩
abbrev main_call8_v3 : Ref sig .tc := ⟨.hbm, 309, rfl⟩
abbrev main_call8_cst_1 : Ref sig .tc := ⟨.hbm, 310, rfl⟩
abbrev main_call8_call0_v0 : Ref sig .tc := ⟨.hbm, 311, rfl⟩
abbrev main_call8_call0_v1 : Ref sig .tc := ⟨.hbm, 312, rfl⟩
abbrev main_call8_v4 : Ref sig .tc := ⟨.hbm, 313, rfl⟩
abbrev main_call8_v5 : Ref sig .tc := ⟨.hbm, 314, rfl⟩
abbrev main_call8_cst_2 : Ref sig .tc := ⟨.hbm, 315, rfl⟩
abbrev main_call8_v6 : Ref sig .tc := ⟨.hbm, 316, rfl⟩
abbrev main_call8_v7 : Ref sig .tc := ⟨.hbm, 317, rfl⟩
abbrev main_v167 : Ref sig .tc := ⟨.hbm, 318, rfl⟩
abbrev main_v168 : Ref sig .tc := ⟨.hbm, 319, rfl⟩
abbrev main_v169 : Ref sig .tc := ⟨.hbm, 320, rfl⟩
abbrev main_v170 : Ref sig .tc := ⟨.hbm, 321, rfl⟩
abbrev main_v171 : Ref sig .tc := ⟨.hbm, 322, rfl⟩
abbrev main_v172 : Ref sig .tc := ⟨.hbm, 323, rfl⟩
abbrev main_v173 : Ref sig .tc := ⟨.hbm, 324, rfl⟩
abbrev main_v174 : Ref sig .tc := ⟨.hbm, 325, rfl⟩
abbrev main_v175 : Ref sig .tc := ⟨.hbm, 326, rfl⟩
abbrev main_call9_cst : Ref sig .tc := ⟨.hbm, 327, rfl⟩
abbrev main_call9_v0 : Ref sig .tc := ⟨.hbm, 328, rfl⟩
abbrev main_call9_v1 : Ref sig .tc := ⟨.hbm, 329, rfl⟩
abbrev main_call9_cst_0 : Ref sig .tc := ⟨.hbm, 330, rfl⟩
abbrev main_call9_v2 : Ref sig .tc := ⟨.hbm, 331, rfl⟩
abbrev main_call9_v3 : Ref sig .tc := ⟨.hbm, 332, rfl⟩
abbrev main_call9_cst_1 : Ref sig .tc := ⟨.hbm, 333, rfl⟩
abbrev main_call9_call0_v0 : Ref sig .tc := ⟨.hbm, 334, rfl⟩
abbrev main_call9_call0_v1 : Ref sig .tc := ⟨.hbm, 335, rfl⟩
abbrev main_call9_v4 : Ref sig .tc := ⟨.hbm, 336, rfl⟩
abbrev main_call9_v5 : Ref sig .tc := ⟨.hbm, 337, rfl⟩
abbrev main_call9_cst_2 : Ref sig .tc := ⟨.hbm, 338, rfl⟩
abbrev main_call9_v6 : Ref sig .tc := ⟨.hbm, 339, rfl⟩
abbrev main_call9_v7 : Ref sig .tc := ⟨.hbm, 340, rfl⟩
abbrev main_v176 : Ref sig .tc := ⟨.hbm, 341, rfl⟩
abbrev main_v177 : Ref sig .tc := ⟨.hbm, 342, rfl⟩
abbrev main_v178 : Ref sig .tc := ⟨.hbm, 343, rfl⟩
abbrev main_cst_14 : Ref sig .tc := ⟨.hbm, 344, rfl⟩
abbrev main_v179 : Ref sig .tc := ⟨.hbm, 345, rfl⟩
abbrev main_cst_15 : Ref sig .tc := ⟨.hbm, 346, rfl⟩
abbrev main_v180 : Ref sig .tc := ⟨.hbm, 347, rfl⟩
abbrev main_v181 : Ref sig .tc := ⟨.hbm, 348, rfl⟩
abbrev main_v182 : Ref sig .tc := ⟨.hbm, 349, rfl⟩
abbrev main_v183 : Ref sig .tc := ⟨.hbm, 350, rfl⟩
abbrev main_cst_16 : Ref sig .tc := ⟨.hbm, 351, rfl⟩
abbrev main_v184 : Ref sig .tc := ⟨.hbm, 352, rfl⟩
abbrev main_v185 : Ref sig .tc := ⟨.hbm, 353, rfl⟩
abbrev main_v186 : Ref sig .tc := ⟨.hbm, 354, rfl⟩
abbrev main_v187 : Ref sig .tc := ⟨.hbm, 355, rfl⟩
abbrev main_v188 : Ref sig .tc := ⟨.hbm, 356, rfl⟩
abbrev main_v189 : Ref sig .tc := ⟨.hbm, 357, rfl⟩
abbrev main_v190 : Ref sig .tc := ⟨.hbm, 358, rfl⟩
abbrev main_v191 : Ref sig .tc := ⟨.hbm, 359, rfl⟩
abbrev main_v192 : Ref sig .tc := ⟨.hbm, 360, rfl⟩
abbrev main_v193 : Ref sig .tc := ⟨.hbm, 361, rfl⟩
abbrev main_v194 : Ref sig .tc := ⟨.hbm, 362, rfl⟩
abbrev main_v195 : Ref sig .tc := ⟨.hbm, 363, rfl⟩
abbrev main_v196 : Ref sig .tc := ⟨.hbm, 364, rfl⟩
abbrev main_v197 : Ref sig .tc := ⟨.hbm, 365, rfl⟩
abbrev main_v198 : Ref sig .tc := ⟨.hbm, 366, rfl⟩
abbrev main_v199 : Ref sig .tc := ⟨.hbm, 367, rfl⟩
abbrev main_v200 : Ref sig .tc := ⟨.hbm, 368, rfl⟩
abbrev main_v201 : Ref sig .tc := ⟨.hbm, 369, rfl⟩
abbrev main_cst_17 : Ref sig .tc := ⟨.hbm, 370, rfl⟩
abbrev main_v202 : Ref sig .tc := ⟨.hbm, 371, rfl⟩
abbrev main_cst_18 : Ref sig .tc := ⟨.hbm, 372, rfl⟩
abbrev main_v203 : Ref sig .tc := ⟨.hbm, 373, rfl⟩
abbrev main_v204 : Ref sig .tc := ⟨.hbm, 374, rfl⟩
abbrev main_c_19 : Ref sig .tc := ⟨.hbm, 375, rfl⟩
abbrev main_call10_cst : Ref sig .tc := ⟨.hbm, 376, rfl⟩
abbrev main_call10_v0 : Ref sig .tc := ⟨.hbm, 377, rfl⟩
abbrev main_call10_v1 : Ref sig .tc := ⟨.hbm, 378, rfl⟩
abbrev main_call10_cst_0 : Ref sig .tc := ⟨.hbm, 379, rfl⟩
abbrev main_call10_v2 : Ref sig .tc := ⟨.hbm, 380, rfl⟩
abbrev main_call10_v3 : Ref sig .tc := ⟨.hbm, 381, rfl⟩
abbrev main_call10_v4 : Ref sig .tc := ⟨.hbm, 382, rfl⟩
abbrev main_call10_v5 : Ref sig .tc := ⟨.hbm, 383, rfl⟩
abbrev main_call10_v6 : Ref sig .tc := ⟨.hbm, 384, rfl⟩
abbrev main_call10_v7 : Ref sig .tc := ⟨.hbm, 385, rfl⟩
abbrev main_call10_cst_1 : Ref sig .tc := ⟨.hbm, 386, rfl⟩
abbrev main_call10_v8 : Ref sig .tc := ⟨.hbm, 387, rfl⟩
abbrev main_call10_cst_2 : Ref sig .tc := ⟨.hbm, 388, rfl⟩
abbrev main_call10_v9 : Ref sig .tc := ⟨.hbm, 389, rfl⟩
abbrev main_call10_v10 : Ref sig .tc := ⟨.hbm, 390, rfl⟩
abbrev main_call10_v11 : Ref sig .tc := ⟨.hbm, 391, rfl⟩
abbrev main_call10_cst_3 : Ref sig .tc := ⟨.hbm, 392, rfl⟩
abbrev main_call10_v12 : Ref sig .tc := ⟨.hbm, 393, rfl⟩
abbrev main_call10_cst_4 : Ref sig .tc := ⟨.hbm, 394, rfl⟩
abbrev main_call10_call0_v0 : Ref sig .tc := ⟨.hbm, 395, rfl⟩
abbrev main_call10_call0_v1 : Ref sig .tc := ⟨.hbm, 396, rfl⟩
abbrev main_v205 : Ref sig .tc := ⟨.hbm, 397, rfl⟩
abbrev main_v206 : Ref sig .tc := ⟨.hbm, 398, rfl⟩
abbrev main_v207 : Ref sig .tc := ⟨.hbm, 399, rfl⟩
abbrev main_v208 : Ref sig .tc := ⟨.hbm, 400, rfl⟩
abbrev main_cst_20 : Ref sig .tc := ⟨.hbm, 401, rfl⟩
abbrev main_v209 : Ref sig .tc := ⟨.hbm, 402, rfl⟩
abbrev main_v210 : Ref sig .tc := ⟨.hbm, 403, rfl⟩
abbrev main_v211 : Ref sig .tc := ⟨.hbm, 404, rfl⟩
abbrev main_v212 : Ref sig .tc := ⟨.hbm, 405, rfl⟩
abbrev main_v213 : Ref sig .tc := ⟨.hbm, 406, rfl⟩
abbrev main_v214 : Ref sig .tc := ⟨.hbm, 407, rfl⟩
abbrev main_v215 : Ref sig .tc := ⟨.hbm, 408, rfl⟩
abbrev main_v216 : Ref sig .tc := ⟨.hbm, 409, rfl⟩
abbrev main_v217 : Ref sig .tc := ⟨.hbm, 410, rfl⟩
abbrev main_v218 : Ref sig .tc := ⟨.hbm, 411, rfl⟩
abbrev main_v219 : Ref sig .tc := ⟨.hbm, 412, rfl⟩
abbrev main_v220 : Ref sig .tc := ⟨.hbm, 413, rfl⟩
abbrev main_v221 : Ref sig .tc := ⟨.hbm, 414, rfl⟩
abbrev main_v222 : Ref sig .tc := ⟨.hbm, 415, rfl⟩
abbrev main_v223 : Ref sig .tc := ⟨.hbm, 416, rfl⟩
abbrev main_v224 : Ref sig .tc := ⟨.hbm, 417, rfl⟩
abbrev main_call11_cst : Ref sig .tc := ⟨.hbm, 418, rfl⟩
abbrev main_call11_v0 : Ref sig .tc := ⟨.hbm, 419, rfl⟩
abbrev main_v225 : Ref sig .tc := ⟨.hbm, 420, rfl⟩
abbrev main_v226 : Ref sig .tc := ⟨.hbm, 421, rfl⟩
abbrev main_v227 : Ref sig .tc := ⟨.hbm, 422, rfl⟩
abbrev main_v228 : Ref sig .tc := ⟨.hbm, 423, rfl⟩
abbrev main_v229 : Ref sig .tc := ⟨.hbm, 424, rfl⟩
abbrev main_v230 : Ref sig .tc := ⟨.hbm, 425, rfl⟩
abbrev main_v231 : Ref sig .tc := ⟨.hbm, 426, rfl⟩
abbrev main_v232 : Ref sig .tc := ⟨.hbm, 427, rfl⟩
abbrev main_v233 : Ref sig .tc := ⟨.hbm, 428, rfl⟩
abbrev main_v234 : Ref sig .tc := ⟨.hbm, 429, rfl⟩
abbrev main_cst_21 : Ref sig .tc := ⟨.hbm, 430, rfl⟩
abbrev main_v235 : Ref sig .tc := ⟨.hbm, 431, rfl⟩
abbrev main_v236 : Ref sig .tc := ⟨.hbm, 432, rfl⟩
abbrev main_v237 : Ref sig .tc := ⟨.hbm, 433, rfl⟩
abbrev main_v238 : Ref sig .tc := ⟨.hbm, 434, rfl⟩
abbrev main_c_22 : Ref sig .tc := ⟨.hbm, 435, rfl⟩
abbrev main_v239 : Ref sig .tc := ⟨.hbm, 436, rfl⟩
abbrev main_v240 : Ref sig .tc := ⟨.hbm, 437, rfl⟩
abbrev main_v241 : Ref sig .tc := ⟨.hbm, 438, rfl⟩
abbrev main_v242 : Ref sig .tc := ⟨.hbm, 439, rfl⟩
abbrev main_cst_23 : Ref sig .tc := ⟨.hbm, 440, rfl⟩
abbrev main_v243 : Ref sig .tc := ⟨.hbm, 441, rfl⟩
abbrev main_v244 : Ref sig .tc := ⟨.hbm, 442, rfl⟩
abbrev main_v245 : Ref sig .tc := ⟨.hbm, 443, rfl⟩
abbrev main_v246 : Ref sig .tc := ⟨.hbm, 444, rfl⟩
abbrev main_v247 : Ref sig .tc := ⟨.hbm, 445, rfl⟩
abbrev main_v248 : Ref sig .tc := ⟨.hbm, 446, rfl⟩
abbrev main_v249 : Ref sig .tc := ⟨.hbm, 447, rfl⟩
abbrev main_v250 : Ref sig .tc := ⟨.hbm, 448, rfl⟩
abbrev main_v251 : Ref sig .tc := ⟨.hbm, 449, rfl⟩
abbrev main_call12_cst : Ref sig .tc := ⟨.hbm, 450, rfl⟩
abbrev main_call12_v0 : Ref sig .tc := ⟨.hbm, 451, rfl⟩
abbrev main_call12_v1 : Ref sig .tc := ⟨.hbm, 452, rfl⟩
abbrev main_call12_cst_0 : Ref sig .tc := ⟨.hbm, 453, rfl⟩
abbrev main_call12_v2 : Ref sig .tc := ⟨.hbm, 454, rfl⟩
abbrev main_call12_v3 : Ref sig .tc := ⟨.hbm, 455, rfl⟩
abbrev main_call12_cst_1 : Ref sig .tc := ⟨.hbm, 456, rfl⟩
abbrev main_call12_call0_v0 : Ref sig .tc := ⟨.hbm, 457, rfl⟩
abbrev main_call12_call0_v1 : Ref sig .tc := ⟨.hbm, 458, rfl⟩
abbrev main_call12_v4 : Ref sig .tc := ⟨.hbm, 459, rfl⟩
abbrev main_call12_v5 : Ref sig .tc := ⟨.hbm, 460, rfl⟩
abbrev main_call12_cst_2 : Ref sig .tc := ⟨.hbm, 461, rfl⟩
abbrev main_call12_v6 : Ref sig .tc := ⟨.hbm, 462, rfl⟩
abbrev main_call12_v7 : Ref sig .tc := ⟨.hbm, 463, rfl⟩
abbrev main_v252 : Ref sig .tc := ⟨.hbm, 464, rfl⟩
abbrev main_v253 : Ref sig .tc := ⟨.hbm, 465, rfl⟩
abbrev main_v254 : Ref sig .tc := ⟨.hbm, 466, rfl⟩
abbrev main_v255 : Ref sig .tc := ⟨.hbm, 467, rfl⟩
abbrev main_v256 : Ref sig .tc := ⟨.hbm, 468, rfl⟩
abbrev main_v257 : Ref sig .tc := ⟨.hbm, 469, rfl⟩
abbrev main_v258 : Ref sig .tc := ⟨.hbm, 470, rfl⟩
abbrev main_v259 : Ref sig .tc := ⟨.hbm, 471, rfl⟩
abbrev main_v260 : Ref sig .tc := ⟨.hbm, 472, rfl⟩
abbrev main_call13_cst : Ref sig .tc := ⟨.hbm, 473, rfl⟩
abbrev main_call13_v0 : Ref sig .tc := ⟨.hbm, 474, rfl⟩
abbrev main_call13_v1 : Ref sig .tc := ⟨.hbm, 475, rfl⟩
abbrev main_call13_cst_0 : Ref sig .tc := ⟨.hbm, 476, rfl⟩
abbrev main_call13_v2 : Ref sig .tc := ⟨.hbm, 477, rfl⟩
abbrev main_call13_v3 : Ref sig .tc := ⟨.hbm, 478, rfl⟩
abbrev main_call13_cst_1 : Ref sig .tc := ⟨.hbm, 479, rfl⟩
abbrev main_call13_call0_v0 : Ref sig .tc := ⟨.hbm, 480, rfl⟩
abbrev main_call13_call0_v1 : Ref sig .tc := ⟨.hbm, 481, rfl⟩
abbrev main_call13_v4 : Ref sig .tc := ⟨.hbm, 482, rfl⟩
abbrev main_call13_v5 : Ref sig .tc := ⟨.hbm, 483, rfl⟩
abbrev main_call13_cst_2 : Ref sig .tc := ⟨.hbm, 484, rfl⟩
abbrev main_call13_v6 : Ref sig .tc := ⟨.hbm, 485, rfl⟩
abbrev main_call13_v7 : Ref sig .tc := ⟨.hbm, 486, rfl⟩
abbrev main_v261 : Ref sig .tc := ⟨.hbm, 487, rfl⟩
abbrev main_v262 : Ref sig .tc := ⟨.hbm, 488, rfl⟩
abbrev main_v263 : Ref sig .tc := ⟨.hbm, 489, rfl⟩
abbrev main_cst_24 : Ref sig .tc := ⟨.hbm, 490, rfl⟩
abbrev main_v264 : Ref sig .tc := ⟨.hbm, 491, rfl⟩
abbrev main_cst_25 : Ref sig .tc := ⟨.hbm, 492, rfl⟩
abbrev main_v265 : Ref sig .tc := ⟨.hbm, 493, rfl⟩
abbrev main_v266 : Ref sig .tc := ⟨.hbm, 494, rfl⟩
abbrev main_v267 : Ref sig .tc := ⟨.hbm, 495, rfl⟩
abbrev main_v268 : Ref sig .tc := ⟨.hbm, 496, rfl⟩
abbrev main_cst_26 : Ref sig .tc := ⟨.hbm, 497, rfl⟩
abbrev main_v269 : Ref sig .tc := ⟨.hbm, 498, rfl⟩
abbrev main_v270 : Ref sig .tc := ⟨.hbm, 499, rfl⟩
abbrev main_v271 : Ref sig .tc := ⟨.hbm, 500, rfl⟩
abbrev main_v272 : Ref sig .tc := ⟨.hbm, 501, rfl⟩
abbrev main_v273 : Ref sig .tc := ⟨.hbm, 502, rfl⟩
abbrev main_v274 : Ref sig .tc := ⟨.hbm, 503, rfl⟩
abbrev main_v275 : Ref sig .tc := ⟨.hbm, 504, rfl⟩
abbrev main_v276 : Ref sig .tc := ⟨.hbm, 505, rfl⟩
abbrev main_v277 : Ref sig .tc := ⟨.hbm, 506, rfl⟩
abbrev main_v278 : Ref sig .tc := ⟨.hbm, 507, rfl⟩
abbrev main_v279 : Ref sig .tc := ⟨.hbm, 508, rfl⟩
abbrev main_v280 : Ref sig .tc := ⟨.hbm, 509, rfl⟩
abbrev main_v281 : Ref sig .tc := ⟨.hbm, 510, rfl⟩
abbrev main_v282 : Ref sig .tc := ⟨.hbm, 511, rfl⟩
abbrev main_v283 : Ref sig .tc := ⟨.hbm, 512, rfl⟩
abbrev main_v284 : Ref sig .tc := ⟨.hbm, 513, rfl⟩
abbrev main_v285 : Ref sig .tc := ⟨.hbm, 514, rfl⟩
abbrev main_v286 : Ref sig .tc := ⟨.hbm, 515, rfl⟩
abbrev main_cst_27 : Ref sig .tc := ⟨.hbm, 516, rfl⟩
abbrev main_v287 : Ref sig .tc := ⟨.hbm, 517, rfl⟩
abbrev main_cst_28 : Ref sig .tc := ⟨.hbm, 518, rfl⟩
abbrev main_v288 : Ref sig .tc := ⟨.hbm, 519, rfl⟩
abbrev main_v289 : Ref sig .tc := ⟨.hbm, 520, rfl⟩
abbrev main_c_29 : Ref sig .tc := ⟨.hbm, 521, rfl⟩
abbrev main_call14_cst : Ref sig .tc := ⟨.hbm, 522, rfl⟩
abbrev main_call14_v0 : Ref sig .tc := ⟨.hbm, 523, rfl⟩
abbrev main_call14_v1 : Ref sig .tc := ⟨.hbm, 524, rfl⟩
abbrev main_call14_cst_0 : Ref sig .tc := ⟨.hbm, 525, rfl⟩
abbrev main_call14_v2 : Ref sig .tc := ⟨.hbm, 526, rfl⟩
abbrev main_call14_v3 : Ref sig .tc := ⟨.hbm, 527, rfl⟩
abbrev main_call14_v4 : Ref sig .tc := ⟨.hbm, 528, rfl⟩
abbrev main_call14_v5 : Ref sig .tc := ⟨.hbm, 529, rfl⟩
abbrev main_call14_v6 : Ref sig .tc := ⟨.hbm, 530, rfl⟩
abbrev main_call14_v7 : Ref sig .tc := ⟨.hbm, 531, rfl⟩
abbrev main_call14_cst_1 : Ref sig .tc := ⟨.hbm, 532, rfl⟩
abbrev main_call14_v8 : Ref sig .tc := ⟨.hbm, 533, rfl⟩
abbrev main_call14_cst_2 : Ref sig .tc := ⟨.hbm, 534, rfl⟩
abbrev main_call14_v9 : Ref sig .tc := ⟨.hbm, 535, rfl⟩
abbrev main_call14_v10 : Ref sig .tc := ⟨.hbm, 536, rfl⟩
abbrev main_call14_v11 : Ref sig .tc := ⟨.hbm, 537, rfl⟩
abbrev main_call14_cst_3 : Ref sig .tc := ⟨.hbm, 538, rfl⟩
abbrev main_call14_v12 : Ref sig .tc := ⟨.hbm, 539, rfl⟩
abbrev main_call14_cst_4 : Ref sig .tc := ⟨.hbm, 540, rfl⟩
abbrev main_call14_call0_v0 : Ref sig .tc := ⟨.hbm, 541, rfl⟩
abbrev main_call14_call0_v1 : Ref sig .tc := ⟨.hbm, 542, rfl⟩
abbrev main_v290 : Ref sig .tc := ⟨.hbm, 543, rfl⟩
abbrev main_v291 : Ref sig .tc := ⟨.hbm, 544, rfl⟩
abbrev main_v292 : Ref sig .tc := ⟨.hbm, 545, rfl⟩
abbrev main_v293 : Ref sig .tc := ⟨.hbm, 546, rfl⟩
abbrev main_cst_30 : Ref sig .tc := ⟨.hbm, 547, rfl⟩
abbrev main_v294 : Ref sig .tc := ⟨.hbm, 548, rfl⟩
abbrev main_v295 : Ref sig .tc := ⟨.hbm, 549, rfl⟩
abbrev main_v296 : Ref sig .tc := ⟨.hbm, 550, rfl⟩
abbrev main_v297 : Ref sig .tc := ⟨.hbm, 551, rfl⟩
abbrev main_v298 : Ref sig .tc := ⟨.hbm, 552, rfl⟩
abbrev main_v299 : Ref sig .tc := ⟨.hbm, 553, rfl⟩
abbrev main_v300 : Ref sig .tc := ⟨.hbm, 554, rfl⟩
abbrev main_v301 : Ref sig .tc := ⟨.hbm, 555, rfl⟩
abbrev main_v302 : Ref sig .tc := ⟨.hbm, 556, rfl⟩
abbrev main_v303 : Ref sig .tc := ⟨.hbm, 557, rfl⟩
abbrev main_v304 : Ref sig .tc := ⟨.hbm, 558, rfl⟩
abbrev main_v305 : Ref sig .tc := ⟨.hbm, 559, rfl⟩
abbrev main_v306 : Ref sig .tc := ⟨.hbm, 560, rfl⟩
abbrev main_v307 : Ref sig .tc := ⟨.hbm, 561, rfl⟩
abbrev main_v308 : Ref sig .tc := ⟨.hbm, 562, rfl⟩
abbrev main_v309 : Ref sig .tc := ⟨.hbm, 563, rfl⟩
abbrev main_call15_cst : Ref sig .tc := ⟨.hbm, 564, rfl⟩
abbrev main_call15_v0 : Ref sig .tc := ⟨.hbm, 565, rfl⟩
abbrev main_v310 : Ref sig .tc := ⟨.hbm, 566, rfl⟩
abbrev main_v311 : Ref sig .tc := ⟨.hbm, 567, rfl⟩
abbrev main_v312 : Ref sig .tc := ⟨.hbm, 568, rfl⟩
abbrev main_v313 : Ref sig .tc := ⟨.hbm, 569, rfl⟩
abbrev main_v314 : Ref sig .tc := ⟨.hbm, 570, rfl⟩
abbrev main_v315 : Ref sig .tc := ⟨.hbm, 571, rfl⟩
abbrev main_v316 : Ref sig .tc := ⟨.hbm, 572, rfl⟩
abbrev main_v317 : Ref sig .tc := ⟨.hbm, 573, rfl⟩
abbrev main_v318 : Ref sig .tc := ⟨.hbm, 574, rfl⟩
abbrev main_v319 : Ref sig .tc := ⟨.hbm, 575, rfl⟩
abbrev main_v320 : Ref sig .tc := ⟨.hbm, 576, rfl⟩
abbrev main_v321 : Ref sig .tc := ⟨.hbm, 577, rfl⟩
abbrev main_v322 : Ref sig .tc := ⟨.hbm, 578, rfl⟩
abbrev main_v323 : Ref sig .tc := ⟨.hbm, 579, rfl⟩
abbrev main_v324 : Ref sig .tc := ⟨.hbm, 580, rfl⟩
abbrev main_v325 : Ref sig .tc := ⟨.hbm, 581, rfl⟩
abbrev main_v326 : Ref sig .tc := ⟨.hbm, 582, rfl⟩
abbrev main_v327 : Ref sig .tc := ⟨.hbm, 583, rfl⟩
abbrev main_call16_cst : Ref sig .tc := ⟨.hbm, 584, rfl⟩
abbrev main_call16_v0 : Ref sig .tc := ⟨.hbm, 585, rfl⟩
abbrev main_call16_v1 : Ref sig .tc := ⟨.hbm, 586, rfl⟩
abbrev main_call16_cst_0 : Ref sig .tc := ⟨.hbm, 587, rfl⟩
abbrev main_call16_v2 : Ref sig .tc := ⟨.hbm, 588, rfl⟩
abbrev main_call16_v3 : Ref sig .tc := ⟨.hbm, 589, rfl⟩
abbrev main_call16_cst_1 : Ref sig .tc := ⟨.hbm, 590, rfl⟩
abbrev main_call16_call0_v0 : Ref sig .tc := ⟨.hbm, 591, rfl⟩
abbrev main_call16_call0_v1 : Ref sig .tc := ⟨.hbm, 592, rfl⟩
abbrev main_call16_v4 : Ref sig .tc := ⟨.hbm, 593, rfl⟩
abbrev main_call16_v5 : Ref sig .tc := ⟨.hbm, 594, rfl⟩
abbrev main_call16_cst_2 : Ref sig .tc := ⟨.hbm, 595, rfl⟩
abbrev main_call16_v6 : Ref sig .tc := ⟨.hbm, 596, rfl⟩
abbrev main_call16_v7 : Ref sig .tc := ⟨.hbm, 597, rfl⟩
abbrev main_v328 : Ref sig .tc := ⟨.hbm, 598, rfl⟩
abbrev main_v329 : Ref sig .tc := ⟨.hbm, 599, rfl⟩
abbrev main_v330 : Ref sig .tc := ⟨.hbm, 600, rfl⟩
abbrev main_v331 : Ref sig .tc := ⟨.hbm, 601, rfl⟩
abbrev main_v332 : Ref sig .tc := ⟨.hbm, 602, rfl⟩
abbrev main_v333 : Ref sig .tc := ⟨.hbm, 603, rfl⟩
abbrev main_v334 : Ref sig .tc := ⟨.hbm, 604, rfl⟩
abbrev main_v335 : Ref sig .tc := ⟨.hbm, 605, rfl⟩
abbrev main_v336 : Ref sig .tc := ⟨.hbm, 606, rfl⟩
abbrev main_call17_cst : Ref sig .tc := ⟨.hbm, 607, rfl⟩
abbrev main_call17_v0 : Ref sig .tc := ⟨.hbm, 608, rfl⟩
abbrev main_call17_v1 : Ref sig .tc := ⟨.hbm, 609, rfl⟩
abbrev main_call17_cst_0 : Ref sig .tc := ⟨.hbm, 610, rfl⟩
abbrev main_call17_v2 : Ref sig .tc := ⟨.hbm, 611, rfl⟩
abbrev main_call17_v3 : Ref sig .tc := ⟨.hbm, 612, rfl⟩
abbrev main_call17_cst_1 : Ref sig .tc := ⟨.hbm, 613, rfl⟩
abbrev main_call17_call0_v0 : Ref sig .tc := ⟨.hbm, 614, rfl⟩
abbrev main_call17_call0_v1 : Ref sig .tc := ⟨.hbm, 615, rfl⟩
abbrev main_call17_v4 : Ref sig .tc := ⟨.hbm, 616, rfl⟩
abbrev main_call17_v5 : Ref sig .tc := ⟨.hbm, 617, rfl⟩
abbrev main_call17_cst_2 : Ref sig .tc := ⟨.hbm, 618, rfl⟩
abbrev main_call17_v6 : Ref sig .tc := ⟨.hbm, 619, rfl⟩
abbrev main_call17_v7 : Ref sig .tc := ⟨.hbm, 620, rfl⟩
abbrev main_v337 : Ref sig .tc := ⟨.hbm, 621, rfl⟩
abbrev main_v338 : Ref sig .tc := ⟨.hbm, 622, rfl⟩
abbrev main_v339 : Ref sig .tc := ⟨.hbm, 623, rfl⟩
abbrev main_cst_31 : Ref sig .tc := ⟨.hbm, 624, rfl⟩
abbrev main_v340 : Ref sig .tc := ⟨.hbm, 625, rfl⟩
abbrev main_cst_32 : Ref sig .tc := ⟨.hbm, 626, rfl⟩
abbrev main_v341 : Ref sig .tc := ⟨.hbm, 627, rfl⟩
abbrev main_v342 : Ref sig .tc := ⟨.hbm, 628, rfl⟩
abbrev main_v343 : Ref sig .tc := ⟨.hbm, 629, rfl⟩
abbrev main_v344 : Ref sig .tc := ⟨.hbm, 630, rfl⟩
abbrev main_cst_33 : Ref sig .tc := ⟨.hbm, 631, rfl⟩
abbrev main_v345 : Ref sig .tc := ⟨.hbm, 632, rfl⟩
abbrev main_v346 : Ref sig .tc := ⟨.hbm, 633, rfl⟩
abbrev main_v347 : Ref sig .tc := ⟨.hbm, 634, rfl⟩
abbrev main_v348 : Ref sig .tc := ⟨.hbm, 635, rfl⟩
abbrev main_v349 : Ref sig .tc := ⟨.hbm, 636, rfl⟩
abbrev main_v350 : Ref sig .tc := ⟨.hbm, 637, rfl⟩
abbrev main_v351 : Ref sig .tc := ⟨.hbm, 638, rfl⟩
abbrev main_v352 : Ref sig .tc := ⟨.hbm, 639, rfl⟩
abbrev main_v353 : Ref sig .tc := ⟨.hbm, 640, rfl⟩
abbrev main_v354 : Ref sig .tc := ⟨.hbm, 641, rfl⟩
abbrev main_v355 : Ref sig .tc := ⟨.hbm, 642, rfl⟩
abbrev main_v356 : Ref sig .tc := ⟨.hbm, 643, rfl⟩
abbrev main_v357 : Ref sig .tc := ⟨.hbm, 644, rfl⟩
abbrev main_v358 : Ref sig .tc := ⟨.hbm, 645, rfl⟩
abbrev main_v359 : Ref sig .tc := ⟨.hbm, 646, rfl⟩
abbrev main_v360 : Ref sig .tc := ⟨.hbm, 647, rfl⟩
abbrev main_v361 : Ref sig .tc := ⟨.hbm, 648, rfl⟩
abbrev main_v362 : Ref sig .tc := ⟨.hbm, 649, rfl⟩
abbrev main_cst_34 : Ref sig .tc := ⟨.hbm, 650, rfl⟩
abbrev main_v363 : Ref sig .tc := ⟨.hbm, 651, rfl⟩
abbrev main_cst_35 : Ref sig .tc := ⟨.hbm, 652, rfl⟩
abbrev main_v364 : Ref sig .tc := ⟨.hbm, 653, rfl⟩
abbrev main_v365 : Ref sig .tc := ⟨.hbm, 654, rfl⟩
abbrev main_c_36 : Ref sig .tc := ⟨.hbm, 655, rfl⟩
abbrev main_call18_cst : Ref sig .tc := ⟨.hbm, 656, rfl⟩
abbrev main_call18_v0 : Ref sig .tc := ⟨.hbm, 657, rfl⟩
abbrev main_call18_v1 : Ref sig .tc := ⟨.hbm, 658, rfl⟩
abbrev main_call18_cst_0 : Ref sig .tc := ⟨.hbm, 659, rfl⟩
abbrev main_call18_v2 : Ref sig .tc := ⟨.hbm, 660, rfl⟩
abbrev main_call18_v3 : Ref sig .tc := ⟨.hbm, 661, rfl⟩
abbrev main_call18_v4 : Ref sig .tc := ⟨.hbm, 662, rfl⟩
abbrev main_call18_v5 : Ref sig .tc := ⟨.hbm, 663, rfl⟩
abbrev main_call18_v6 : Ref sig .tc := ⟨.hbm, 664, rfl⟩
abbrev main_call18_v7 : Ref sig .tc := ⟨.hbm, 665, rfl⟩
abbrev main_call18_cst_1 : Ref sig .tc := ⟨.hbm, 666, rfl⟩
abbrev main_call18_v8 : Ref sig .tc := ⟨.hbm, 667, rfl⟩
abbrev main_call18_cst_2 : Ref sig .tc := ⟨.hbm, 668, rfl⟩
abbrev main_call18_v9 : Ref sig .tc := ⟨.hbm, 669, rfl⟩
abbrev main_call18_v10 : Ref sig .tc := ⟨.hbm, 670, rfl⟩
abbrev main_call18_v11 : Ref sig .tc := ⟨.hbm, 671, rfl⟩
abbrev main_call18_cst_3 : Ref sig .tc := ⟨.hbm, 672, rfl⟩
abbrev main_call18_v12 : Ref sig .tc := ⟨.hbm, 673, rfl⟩
abbrev main_call18_cst_4 : Ref sig .tc := ⟨.hbm, 674, rfl⟩
abbrev main_call18_call0_v0 : Ref sig .tc := ⟨.hbm, 675, rfl⟩
abbrev main_call18_call0_v1 : Ref sig .tc := ⟨.hbm, 676, rfl⟩
abbrev main_v366 : Ref sig .tc := ⟨.hbm, 677, rfl⟩
abbrev main_v367 : Ref sig .tc := ⟨.hbm, 678, rfl⟩
abbrev main_v368 : Ref sig .tc := ⟨.hbm, 679, rfl⟩
abbrev main_v369 : Ref sig .tc := ⟨.hbm, 680, rfl⟩
abbrev main_cst_37 : Ref sig .tc := ⟨.hbm, 681, rfl⟩
abbrev main_v370 : Ref sig .tc := ⟨.hbm, 682, rfl⟩
abbrev main_v371 : Ref sig .tc := ⟨.hbm, 683, rfl⟩
abbrev main_v372 : Ref sig .tc := ⟨.hbm, 684, rfl⟩
abbrev main_v373 : Ref sig .tc := ⟨.hbm, 685, rfl⟩
abbrev main_v374 : Ref sig .tc := ⟨.hbm, 686, rfl⟩
abbrev main_v375 : Ref sig .tc := ⟨.hbm, 687, rfl⟩
abbrev main_v376 : Ref sig .tc := ⟨.hbm, 688, rfl⟩
abbrev main_v377 : Ref sig .tc := ⟨.hbm, 689, rfl⟩
abbrev main_v378 : Ref sig .tc := ⟨.hbm, 690, rfl⟩
abbrev main_v379 : Ref sig .tc := ⟨.hbm, 691, rfl⟩
abbrev main_v380 : Ref sig .tc := ⟨.hbm, 692, rfl⟩
abbrev main_v381 : Ref sig .tc := ⟨.hbm, 693, rfl⟩
abbrev main_v382 : Ref sig .tc := ⟨.hbm, 694, rfl⟩
abbrev main_v383 : Ref sig .tc := ⟨.hbm, 695, rfl⟩
abbrev main_v384 : Ref sig .tc := ⟨.hbm, 696, rfl⟩
abbrev main_v385 : Ref sig .tc := ⟨.hbm, 697, rfl⟩
abbrev main_call19_cst : Ref sig .tc := ⟨.hbm, 698, rfl⟩
abbrev main_call19_v0 : Ref sig .tc := ⟨.hbm, 699, rfl⟩
abbrev main_v386 : Ref sig .tc := ⟨.hbm, 700, rfl⟩
abbrev main_v387 : Ref sig .tc := ⟨.hbm, 701, rfl⟩
abbrev main_v388 : Ref sig .tc := ⟨.hbm, 702, rfl⟩
abbrev main_v389 : Ref sig .tc := ⟨.hbm, 703, rfl⟩
abbrev main_v390 : Ref sig .tc := ⟨.hbm, 704, rfl⟩
abbrev main_v391 : Ref sig .tc := ⟨.hbm, 705, rfl⟩
abbrev main_v392 : Ref sig .tc := ⟨.hbm, 706, rfl⟩
abbrev main_v393 : Ref sig .tc := ⟨.hbm, 707, rfl⟩
abbrev main_v394 : Ref sig .tc := ⟨.hbm, 708, rfl⟩
abbrev main_v395 : Ref sig .tc := ⟨.hbm, 709, rfl⟩
abbrev main_v396 : Ref sig .tc := ⟨.hbm, 710, rfl⟩
abbrev main_v397 : Ref sig .tc := ⟨.hbm, 711, rfl⟩
abbrev main_v398 : Ref sig .tc := ⟨.hbm, 712, rfl⟩
abbrev main_v399 : Ref sig .tc := ⟨.hbm, 713, rfl⟩
abbrev main_v400 : Ref sig .tc := ⟨.hbm, 714, rfl⟩
abbrev main_v401 : Ref sig .tc := ⟨.hbm, 715, rfl⟩
abbrev main_v402 : Ref sig .tc := ⟨.hbm, 716, rfl⟩
abbrev main_v403 : Ref sig .tc := ⟨.hbm, 717, rfl⟩
abbrev main_call20_cst : Ref sig .tc := ⟨.hbm, 718, rfl⟩
abbrev main_call20_v0 : Ref sig .tc := ⟨.hbm, 719, rfl⟩
abbrev main_call20_v1 : Ref sig .tc := ⟨.hbm, 720, rfl⟩
abbrev main_call20_cst_0 : Ref sig .tc := ⟨.hbm, 721, rfl⟩
abbrev main_call20_v2 : Ref sig .tc := ⟨.hbm, 722, rfl⟩
abbrev main_call20_v3 : Ref sig .tc := ⟨.hbm, 723, rfl⟩
abbrev main_call20_cst_1 : Ref sig .tc := ⟨.hbm, 724, rfl⟩
abbrev main_call20_call0_v0 : Ref sig .tc := ⟨.hbm, 725, rfl⟩
abbrev main_call20_call0_v1 : Ref sig .tc := ⟨.hbm, 726, rfl⟩
abbrev main_call20_v4 : Ref sig .tc := ⟨.hbm, 727, rfl⟩
abbrev main_call20_v5 : Ref sig .tc := ⟨.hbm, 728, rfl⟩
abbrev main_call20_cst_2 : Ref sig .tc := ⟨.hbm, 729, rfl⟩
abbrev main_call20_v6 : Ref sig .tc := ⟨.hbm, 730, rfl⟩
abbrev main_call20_v7 : Ref sig .tc := ⟨.hbm, 731, rfl⟩
abbrev main_v404 : Ref sig .tc := ⟨.hbm, 732, rfl⟩
abbrev main_v405 : Ref sig .tc := ⟨.hbm, 733, rfl⟩
abbrev main_v406 : Ref sig .tc := ⟨.hbm, 734, rfl⟩
abbrev main_v407 : Ref sig .tc := ⟨.hbm, 735, rfl⟩
abbrev main_v408 : Ref sig .tc := ⟨.hbm, 736, rfl⟩
abbrev main_v409 : Ref sig .tc := ⟨.hbm, 737, rfl⟩
abbrev main_v410 : Ref sig .tc := ⟨.hbm, 738, rfl⟩
abbrev main_v411 : Ref sig .tc := ⟨.hbm, 739, rfl⟩
abbrev main_v412 : Ref sig .tc := ⟨.hbm, 740, rfl⟩
abbrev main_call21_cst : Ref sig .tc := ⟨.hbm, 741, rfl⟩
abbrev main_call21_v0 : Ref sig .tc := ⟨.hbm, 742, rfl⟩
abbrev main_call21_v1 : Ref sig .tc := ⟨.hbm, 743, rfl⟩
abbrev main_call21_cst_0 : Ref sig .tc := ⟨.hbm, 744, rfl⟩
abbrev main_call21_v2 : Ref sig .tc := ⟨.hbm, 745, rfl⟩
abbrev main_call21_v3 : Ref sig .tc := ⟨.hbm, 746, rfl⟩
abbrev main_call21_cst_1 : Ref sig .tc := ⟨.hbm, 747, rfl⟩
abbrev main_call21_call0_v0 : Ref sig .tc := ⟨.hbm, 748, rfl⟩
abbrev main_call21_call0_v1 : Ref sig .tc := ⟨.hbm, 749, rfl⟩
abbrev main_call21_v4 : Ref sig .tc := ⟨.hbm, 750, rfl⟩
abbrev main_call21_v5 : Ref sig .tc := ⟨.hbm, 751, rfl⟩
abbrev main_call21_cst_2 : Ref sig .tc := ⟨.hbm, 752, rfl⟩
abbrev main_call21_v6 : Ref sig .tc := ⟨.hbm, 753, rfl⟩
abbrev main_call21_v7 : Ref sig .tc := ⟨.hbm, 754, rfl⟩
abbrev main_v413 : Ref sig .tc := ⟨.hbm, 755, rfl⟩
abbrev main_v414 : Ref sig .tc := ⟨.hbm, 756, rfl⟩
abbrev main_v415 : Ref sig .tc := ⟨.hbm, 757, rfl⟩
abbrev main_cst_38 : Ref sig .tc := ⟨.hbm, 758, rfl⟩
abbrev main_v416 : Ref sig .tc := ⟨.hbm, 759, rfl⟩
abbrev main_cst_39 : Ref sig .tc := ⟨.hbm, 760, rfl⟩
abbrev main_v417 : Ref sig .tc := ⟨.hbm, 761, rfl⟩
abbrev main_v418 : Ref sig .tc := ⟨.hbm, 762, rfl⟩
abbrev main_v419 : Ref sig .tc := ⟨.hbm, 763, rfl⟩
abbrev main_v420 : Ref sig .tc := ⟨.hbm, 764, rfl⟩
abbrev main_cst_40 : Ref sig .tc := ⟨.hbm, 765, rfl⟩
abbrev main_v421 : Ref sig .tc := ⟨.hbm, 766, rfl⟩
abbrev main_v422 : Ref sig .tc := ⟨.hbm, 767, rfl⟩
abbrev main_v423 : Ref sig .tc := ⟨.hbm, 768, rfl⟩
abbrev main_v424 : Ref sig .tc := ⟨.hbm, 769, rfl⟩
abbrev main_v425 : Ref sig .tc := ⟨.hbm, 770, rfl⟩
abbrev main_v426 : Ref sig .tc := ⟨.hbm, 771, rfl⟩
abbrev main_v427 : Ref sig .tc := ⟨.hbm, 772, rfl⟩
abbrev main_v428 : Ref sig .tc := ⟨.hbm, 773, rfl⟩
abbrev main_v429 : Ref sig .tc := ⟨.hbm, 774, rfl⟩
abbrev main_v430 : Ref sig .tc := ⟨.hbm, 775, rfl⟩
abbrev main_v431 : Ref sig .tc := ⟨.hbm, 776, rfl⟩
abbrev main_v432 : Ref sig .tc := ⟨.hbm, 777, rfl⟩
abbrev main_v433 : Ref sig .tc := ⟨.hbm, 778, rfl⟩
abbrev main_v434 : Ref sig .tc := ⟨.hbm, 779, rfl⟩
abbrev main_v435 : Ref sig .tc := ⟨.hbm, 780, rfl⟩
abbrev main_v436 : Ref sig .tc := ⟨.hbm, 781, rfl⟩
abbrev main_v437 : Ref sig .tc := ⟨.hbm, 782, rfl⟩
abbrev main_v438 : Ref sig .tc := ⟨.hbm, 783, rfl⟩
abbrev main_cst_41 : Ref sig .tc := ⟨.hbm, 784, rfl⟩
abbrev main_v439 : Ref sig .tc := ⟨.hbm, 785, rfl⟩
abbrev main_cst_42 : Ref sig .tc := ⟨.hbm, 786, rfl⟩
abbrev main_v440 : Ref sig .tc := ⟨.hbm, 787, rfl⟩
abbrev main_v441 : Ref sig .tc := ⟨.hbm, 788, rfl⟩
abbrev main_c_43 : Ref sig .tc := ⟨.hbm, 789, rfl⟩
abbrev main_call22_cst : Ref sig .tc := ⟨.hbm, 790, rfl⟩
abbrev main_call22_v0 : Ref sig .tc := ⟨.hbm, 791, rfl⟩
abbrev main_call22_v1 : Ref sig .tc := ⟨.hbm, 792, rfl⟩
abbrev main_call22_cst_0 : Ref sig .tc := ⟨.hbm, 793, rfl⟩
abbrev main_call22_v2 : Ref sig .tc := ⟨.hbm, 794, rfl⟩
abbrev main_call22_v3 : Ref sig .tc := ⟨.hbm, 795, rfl⟩
abbrev main_call22_v4 : Ref sig .tc := ⟨.hbm, 796, rfl⟩
abbrev main_call22_v5 : Ref sig .tc := ⟨.hbm, 797, rfl⟩
abbrev main_call22_v6 : Ref sig .tc := ⟨.hbm, 798, rfl⟩
abbrev main_call22_v7 : Ref sig .tc := ⟨.hbm, 799, rfl⟩
abbrev main_call22_cst_1 : Ref sig .tc := ⟨.hbm, 800, rfl⟩
abbrev main_call22_v8 : Ref sig .tc := ⟨.hbm, 801, rfl⟩
abbrev main_call22_cst_2 : Ref sig .tc := ⟨.hbm, 802, rfl⟩
abbrev main_call22_v9 : Ref sig .tc := ⟨.hbm, 803, rfl⟩
abbrev main_call22_v10 : Ref sig .tc := ⟨.hbm, 804, rfl⟩
abbrev main_call22_v11 : Ref sig .tc := ⟨.hbm, 805, rfl⟩
abbrev main_call22_cst_3 : Ref sig .tc := ⟨.hbm, 806, rfl⟩
abbrev main_call22_v12 : Ref sig .tc := ⟨.hbm, 807, rfl⟩
abbrev main_call22_cst_4 : Ref sig .tc := ⟨.hbm, 808, rfl⟩
abbrev main_call22_call0_v0 : Ref sig .tc := ⟨.hbm, 809, rfl⟩
abbrev main_call22_call0_v1 : Ref sig .tc := ⟨.hbm, 810, rfl⟩
abbrev main_v442 : Ref sig .tc := ⟨.hbm, 811, rfl⟩
abbrev main_v443 : Ref sig .tc := ⟨.hbm, 812, rfl⟩
abbrev main_v444 : Ref sig .tc := ⟨.hbm, 813, rfl⟩
abbrev main_v445 : Ref sig .tc := ⟨.hbm, 814, rfl⟩
abbrev main_cst_44 : Ref sig .tc := ⟨.hbm, 815, rfl⟩
abbrev main_v446 : Ref sig .tc := ⟨.hbm, 816, rfl⟩
abbrev main_v447 : Ref sig .tc := ⟨.hbm, 817, rfl⟩
abbrev main_v448 : Ref sig .tc := ⟨.hbm, 818, rfl⟩
abbrev main_v449 : Ref sig .tc := ⟨.hbm, 819, rfl⟩
abbrev main_v450 : Ref sig .tc := ⟨.hbm, 820, rfl⟩
abbrev main_v451 : Ref sig .tc := ⟨.hbm, 821, rfl⟩
abbrev main_v452 : Ref sig .tc := ⟨.hbm, 822, rfl⟩
abbrev main_v453 : Ref sig .tc := ⟨.hbm, 823, rfl⟩
abbrev main_v454 : Ref sig .tc := ⟨.hbm, 824, rfl⟩
abbrev main_v455 : Ref sig .tc := ⟨.hbm, 825, rfl⟩
abbrev main_v456 : Ref sig .tc := ⟨.hbm, 826, rfl⟩
abbrev main_v457 : Ref sig .tc := ⟨.hbm, 827, rfl⟩
abbrev main_v458 : Ref sig .tc := ⟨.hbm, 828, rfl⟩
abbrev main_v459 : Ref sig .tc := ⟨.hbm, 829, rfl⟩
abbrev main_v460 : Ref sig .tc := ⟨.hbm, 830, rfl⟩
abbrev main_v461 : Ref sig .tc := ⟨.hbm, 831, rfl⟩
abbrev main_call23_cst : Ref sig .tc := ⟨.hbm, 832, rfl⟩
abbrev main_call23_v0 : Ref sig .tc := ⟨.hbm, 833, rfl⟩
abbrev main_v462 : Ref sig .tc := ⟨.hbm, 834, rfl⟩
abbrev main_v463 : Ref sig .tc := ⟨.hbm, 835, rfl⟩
abbrev main_v464 : Ref sig .tc := ⟨.hbm, 836, rfl⟩
abbrev main_v465 : Ref sig .tc := ⟨.hbm, 837, rfl⟩
abbrev main_v466 : Ref sig .tc := ⟨.hbm, 838, rfl⟩
abbrev main_v467 : Ref sig .tc := ⟨.hbm, 839, rfl⟩
abbrev main_v468 : Ref sig .tc := ⟨.hbm, 840, rfl⟩
abbrev main_v469 : Ref sig .tc := ⟨.hbm, 841, rfl⟩
abbrev main_v470 : Ref sig .tc := ⟨.hbm, 842, rfl⟩
abbrev main_v471 : Ref sig .tc := ⟨.hbm, 843, rfl⟩
abbrev main_cst_45 : Ref sig .tc := ⟨.hbm, 844, rfl⟩
abbrev main_v472 : Ref sig .tc := ⟨.hbm, 845, rfl⟩
abbrev main_v473 : Ref sig .tc := ⟨.hbm, 846, rfl⟩
abbrev main_v474 : Ref sig .tc := ⟨.hbm, 847, rfl⟩
abbrev main_v475 : Ref sig .tc := ⟨.hbm, 848, rfl⟩
abbrev main_c_46 : Ref sig .tc := ⟨.hbm, 849, rfl⟩
abbrev main_v476 : Ref sig .tc := ⟨.hbm, 850, rfl⟩
abbrev main_v477 : Ref sig .tc := ⟨.hbm, 851, rfl⟩
abbrev main_v478 : Ref sig .tc := ⟨.hbm, 852, rfl⟩
abbrev main_v479 : Ref sig .tc := ⟨.hbm, 853, rfl⟩
abbrev main_cst_47 : Ref sig .tc := ⟨.hbm, 854, rfl⟩
abbrev main_v480 : Ref sig .tc := ⟨.hbm, 855, rfl⟩
abbrev main_v481 : Ref sig .tc := ⟨.hbm, 856, rfl⟩
abbrev main_v482 : Ref sig .tc := ⟨.hbm, 857, rfl⟩
abbrev main_v483 : Ref sig .tc := ⟨.hbm, 858, rfl⟩
abbrev main_v484 : Ref sig .tc := ⟨.hbm, 859, rfl⟩
abbrev main_v485 : Ref sig .tc := ⟨.hbm, 860, rfl⟩
abbrev main_v486 : Ref sig .tc := ⟨.hbm, 861, rfl⟩
abbrev main_v487 : Ref sig .tc := ⟨.hbm, 862, rfl⟩
abbrev main_v488 : Ref sig .tc := ⟨.hbm, 863, rfl⟩
abbrev main_call24_cst : Ref sig .tc := ⟨.hbm, 864, rfl⟩
abbrev main_call24_v0 : Ref sig .tc := ⟨.hbm, 865, rfl⟩
abbrev main_call24_v1 : Ref sig .tc := ⟨.hbm, 866, rfl⟩
abbrev main_call24_cst_0 : Ref sig .tc := ⟨.hbm, 867, rfl⟩
abbrev main_call24_v2 : Ref sig .tc := ⟨.hbm, 868, rfl⟩
abbrev main_call24_v3 : Ref sig .tc := ⟨.hbm, 869, rfl⟩
abbrev main_call24_cst_1 : Ref sig .tc := ⟨.hbm, 870, rfl⟩
abbrev main_call24_call0_v0 : Ref sig .tc := ⟨.hbm, 871, rfl⟩
abbrev main_call24_call0_v1 : Ref sig .tc := ⟨.hbm, 872, rfl⟩
abbrev main_call24_v4 : Ref sig .tc := ⟨.hbm, 873, rfl⟩
abbrev main_call24_v5 : Ref sig .tc := ⟨.hbm, 874, rfl⟩
abbrev main_call24_cst_2 : Ref sig .tc := ⟨.hbm, 875, rfl⟩
abbrev main_call24_v6 : Ref sig .tc := ⟨.hbm, 876, rfl⟩
abbrev main_call24_v7 : Ref sig .tc := ⟨.hbm, 877, rfl⟩
abbrev main_v489 : Ref sig .tc := ⟨.hbm, 878, rfl⟩
abbrev main_v490 : Ref sig .tc := ⟨.hbm, 879, rfl⟩
abbrev main_v491 : Ref sig .tc := ⟨.hbm, 880, rfl⟩
abbrev main_v492 : Ref sig .tc := ⟨.hbm, 881, rfl⟩
abbrev main_v493 : Ref sig .tc := ⟨.hbm, 882, rfl⟩
abbrev main_v494 : Ref sig .tc := ⟨.hbm, 883, rfl⟩
abbrev main_v495 : Ref sig .tc := ⟨.hbm, 884, rfl⟩
abbrev main_v496 : Ref sig .tc := ⟨.hbm, 885, rfl⟩
abbrev main_v497 : Ref sig .tc := ⟨.hbm, 886, rfl⟩
abbrev main_call25_cst : Ref sig .tc := ⟨.hbm, 887, rfl⟩
abbrev main_call25_v0 : Ref sig .tc := ⟨.hbm, 888, rfl⟩
abbrev main_call25_v1 : Ref sig .tc := ⟨.hbm, 889, rfl⟩
abbrev main_call25_cst_0 : Ref sig .tc := ⟨.hbm, 890, rfl⟩
abbrev main_call25_v2 : Ref sig .tc := ⟨.hbm, 891, rfl⟩
abbrev main_call25_v3 : Ref sig .tc := ⟨.hbm, 892, rfl⟩
abbrev main_call25_cst_1 : Ref sig .tc := ⟨.hbm, 893, rfl⟩
abbrev main_call25_call0_v0 : Ref sig .tc := ⟨.hbm, 894, rfl⟩
abbrev main_call25_call0_v1 : Ref sig .tc := ⟨.hbm, 895, rfl⟩
abbrev main_call25_v4 : Ref sig .tc := ⟨.hbm, 896, rfl⟩
abbrev main_call25_v5 : Ref sig .tc := ⟨.hbm, 897, rfl⟩
abbrev main_call25_cst_2 : Ref sig .tc := ⟨.hbm, 898, rfl⟩
abbrev main_call25_v6 : Ref sig .tc := ⟨.hbm, 899, rfl⟩
abbrev main_call25_v7 : Ref sig .tc := ⟨.hbm, 900, rfl⟩
abbrev main_v498 : Ref sig .tc := ⟨.hbm, 901, rfl⟩
abbrev main_v499 : Ref sig .tc := ⟨.hbm, 902, rfl⟩
abbrev main_v500 : Ref sig .tc := ⟨.hbm, 903, rfl⟩
abbrev main_cst_48 : Ref sig .tc := ⟨.hbm, 904, rfl⟩
abbrev main_v501 : Ref sig .tc := ⟨.hbm, 905, rfl⟩
abbrev main_cst_49 : Ref sig .tc := ⟨.hbm, 906, rfl⟩
abbrev main_v502 : Ref sig .tc := ⟨.hbm, 907, rfl⟩
abbrev main_v503 : Ref sig .tc := ⟨.hbm, 908, rfl⟩
abbrev main_v504 : Ref sig .tc := ⟨.hbm, 909, rfl⟩
abbrev main_v505 : Ref sig .tc := ⟨.hbm, 910, rfl⟩
abbrev main_cst_50 : Ref sig .tc := ⟨.hbm, 911, rfl⟩
abbrev main_v506 : Ref sig .tc := ⟨.hbm, 912, rfl⟩
abbrev main_v507 : Ref sig .tc := ⟨.hbm, 913, rfl⟩
abbrev main_v508 : Ref sig .tc := ⟨.hbm, 914, rfl⟩
abbrev main_v509 : Ref sig .tc := ⟨.hbm, 915, rfl⟩
abbrev main_v510 : Ref sig .tc := ⟨.hbm, 916, rfl⟩
abbrev main_v511 : Ref sig .tc := ⟨.hbm, 917, rfl⟩
abbrev main_v512 : Ref sig .tc := ⟨.hbm, 918, rfl⟩
abbrev main_v513 : Ref sig .tc := ⟨.hbm, 919, rfl⟩
abbrev main_v514 : Ref sig .tc := ⟨.hbm, 920, rfl⟩
abbrev main_v515 : Ref sig .tc := ⟨.hbm, 921, rfl⟩
abbrev main_v516 : Ref sig .tc := ⟨.hbm, 922, rfl⟩
abbrev main_v517 : Ref sig .tc := ⟨.hbm, 923, rfl⟩
abbrev main_v518 : Ref sig .tc := ⟨.hbm, 924, rfl⟩
abbrev main_v519 : Ref sig .tc := ⟨.hbm, 925, rfl⟩
abbrev main_v520 : Ref sig .tc := ⟨.hbm, 926, rfl⟩
abbrev main_v521 : Ref sig .tc := ⟨.hbm, 927, rfl⟩
abbrev main_v522 : Ref sig .tc := ⟨.hbm, 928, rfl⟩
abbrev main_v523 : Ref sig .tc := ⟨.hbm, 929, rfl⟩
abbrev main_cst_51 : Ref sig .tc := ⟨.hbm, 930, rfl⟩
abbrev main_v524 : Ref sig .tc := ⟨.hbm, 931, rfl⟩
abbrev main_cst_52 : Ref sig .tc := ⟨.hbm, 932, rfl⟩
abbrev main_v525 : Ref sig .tc := ⟨.hbm, 933, rfl⟩
abbrev main_v526 : Ref sig .tc := ⟨.hbm, 934, rfl⟩
abbrev main_c_53 : Ref sig .tc := ⟨.hbm, 935, rfl⟩
abbrev main_call26_cst : Ref sig .tc := ⟨.hbm, 936, rfl⟩
abbrev main_call26_v0 : Ref sig .tc := ⟨.hbm, 937, rfl⟩
abbrev main_call26_v1 : Ref sig .tc := ⟨.hbm, 938, rfl⟩
abbrev main_call26_cst_0 : Ref sig .tc := ⟨.hbm, 939, rfl⟩
abbrev main_call26_v2 : Ref sig .tc := ⟨.hbm, 940, rfl⟩
abbrev main_call26_v3 : Ref sig .tc := ⟨.hbm, 941, rfl⟩
abbrev main_call26_v4 : Ref sig .tc := ⟨.hbm, 942, rfl⟩
abbrev main_call26_v5 : Ref sig .tc := ⟨.hbm, 943, rfl⟩
abbrev main_call26_v6 : Ref sig .tc := ⟨.hbm, 944, rfl⟩
abbrev main_call26_v7 : Ref sig .tc := ⟨.hbm, 945, rfl⟩
abbrev main_call26_cst_1 : Ref sig .tc := ⟨.hbm, 946, rfl⟩
abbrev main_call26_v8 : Ref sig .tc := ⟨.hbm, 947, rfl⟩
abbrev main_call26_cst_2 : Ref sig .tc := ⟨.hbm, 948, rfl⟩
abbrev main_call26_v9 : Ref sig .tc := ⟨.hbm, 949, rfl⟩
abbrev main_call26_v10 : Ref sig .tc := ⟨.hbm, 950, rfl⟩
abbrev main_call26_v11 : Ref sig .tc := ⟨.hbm, 951, rfl⟩
abbrev main_call26_cst_3 : Ref sig .tc := ⟨.hbm, 952, rfl⟩
abbrev main_call26_v12 : Ref sig .tc := ⟨.hbm, 953, rfl⟩
abbrev main_call26_cst_4 : Ref sig .tc := ⟨.hbm, 954, rfl⟩
abbrev main_call26_call0_v0 : Ref sig .tc := ⟨.hbm, 955, rfl⟩
abbrev main_call26_call0_v1 : Ref sig .tc := ⟨.hbm, 956, rfl⟩
abbrev main_v527 : Ref sig .tc := ⟨.hbm, 957, rfl⟩
abbrev main_v528 : Ref sig .tc := ⟨.hbm, 958, rfl⟩
abbrev main_v529 : Ref sig .tc := ⟨.hbm, 959, rfl⟩
abbrev main_v530 : Ref sig .tc := ⟨.hbm, 960, rfl⟩
abbrev main_cst_54 : Ref sig .tc := ⟨.hbm, 961, rfl⟩
abbrev main_v531 : Ref sig .tc := ⟨.hbm, 962, rfl⟩
abbrev main_v532 : Ref sig .tc := ⟨.hbm, 963, rfl⟩
abbrev main_v533 : Ref sig .tc := ⟨.hbm, 964, rfl⟩
abbrev main_v534 : Ref sig .tc := ⟨.hbm, 965, rfl⟩
abbrev main_v535 : Ref sig .tc := ⟨.hbm, 966, rfl⟩
abbrev main_v536 : Ref sig .tc := ⟨.hbm, 967, rfl⟩
abbrev main_v537 : Ref sig .tc := ⟨.hbm, 968, rfl⟩
abbrev main_v538 : Ref sig .tc := ⟨.hbm, 969, rfl⟩
abbrev main_v539 : Ref sig .tc := ⟨.hbm, 970, rfl⟩
abbrev main_v540 : Ref sig .tc := ⟨.hbm, 971, rfl⟩
abbrev main_v541 : Ref sig .tc := ⟨.hbm, 972, rfl⟩
abbrev main_v542 : Ref sig .tc := ⟨.hbm, 973, rfl⟩
abbrev main_v543 : Ref sig .tc := ⟨.hbm, 974, rfl⟩
abbrev main_v544 : Ref sig .tc := ⟨.hbm, 975, rfl⟩
abbrev main_v545 : Ref sig .tc := ⟨.hbm, 976, rfl⟩
abbrev main_v546 : Ref sig .tc := ⟨.hbm, 977, rfl⟩
abbrev main_call27_cst : Ref sig .tc := ⟨.hbm, 978, rfl⟩
abbrev main_call27_v0 : Ref sig .tc := ⟨.hbm, 979, rfl⟩
abbrev main_v547 : Ref sig .tc := ⟨.hbm, 980, rfl⟩
abbrev main_v548 : Ref sig .tc := ⟨.hbm, 981, rfl⟩
abbrev main_v549 : Ref sig .tc := ⟨.hbm, 982, rfl⟩
abbrev main_v550 : Ref sig .tc := ⟨.hbm, 983, rfl⟩
abbrev main_v551 : Ref sig .tc := ⟨.hbm, 984, rfl⟩
abbrev main_v552 : Ref sig .tc := ⟨.hbm, 985, rfl⟩
abbrev main_v553 : Ref sig .tc := ⟨.hbm, 986, rfl⟩
abbrev main_v554 : Ref sig .tc := ⟨.hbm, 987, rfl⟩
abbrev main_v555 : Ref sig .tc := ⟨.hbm, 988, rfl⟩
abbrev main_v556 : Ref sig .tc := ⟨.hbm, 989, rfl⟩
abbrev main_v557 : Ref sig .tc := ⟨.hbm, 990, rfl⟩
abbrev main_v558 : Ref sig .tc := ⟨.hbm, 991, rfl⟩
abbrev main_v559 : Ref sig .tc := ⟨.hbm, 992, rfl⟩
abbrev main_v560 : Ref sig .tc := ⟨.hbm, 993, rfl⟩
abbrev main_v561 : Ref sig .tc := ⟨.hbm, 994, rfl⟩
abbrev main_v562 : Ref sig .tc := ⟨.hbm, 995, rfl⟩
abbrev main_v563 : Ref sig .tc := ⟨.hbm, 996, rfl⟩
abbrev main_v564 : Ref sig .tc := ⟨.hbm, 997, rfl⟩
abbrev main_call28_cst : Ref sig .tc := ⟨.hbm, 998, rfl⟩
abbrev main_call28_v0 : Ref sig .tc := ⟨.hbm, 999, rfl⟩
abbrev main_call28_v1 : Ref sig .tc := ⟨.hbm, 1000, rfl⟩
abbrev main_call28_cst_0 : Ref sig .tc := ⟨.hbm, 1001, rfl⟩
abbrev main_call28_v2 : Ref sig .tc := ⟨.hbm, 1002, rfl⟩
abbrev main_call28_v3 : Ref sig .tc := ⟨.hbm, 1003, rfl⟩
abbrev main_call28_cst_1 : Ref sig .tc := ⟨.hbm, 1004, rfl⟩
abbrev main_call28_call0_v0 : Ref sig .tc := ⟨.hbm, 1005, rfl⟩
abbrev main_call28_call0_v1 : Ref sig .tc := ⟨.hbm, 1006, rfl⟩
abbrev main_call28_v4 : Ref sig .tc := ⟨.hbm, 1007, rfl⟩
abbrev main_call28_v5 : Ref sig .tc := ⟨.hbm, 1008, rfl⟩
abbrev main_call28_cst_2 : Ref sig .tc := ⟨.hbm, 1009, rfl⟩
abbrev main_call28_v6 : Ref sig .tc := ⟨.hbm, 1010, rfl⟩
abbrev main_call28_v7 : Ref sig .tc := ⟨.hbm, 1011, rfl⟩
abbrev main_v565 : Ref sig .tc := ⟨.hbm, 1012, rfl⟩
abbrev main_v566 : Ref sig .tc := ⟨.hbm, 1013, rfl⟩
abbrev main_v567 : Ref sig .tc := ⟨.hbm, 1014, rfl⟩
abbrev main_v568 : Ref sig .tc := ⟨.hbm, 1015, rfl⟩
abbrev main_v569 : Ref sig .tc := ⟨.hbm, 1016, rfl⟩
abbrev main_v570 : Ref sig .tc := ⟨.hbm, 1017, rfl⟩
abbrev main_v571 : Ref sig .tc := ⟨.hbm, 1018, rfl⟩
abbrev main_v572 : Ref sig .tc := ⟨.hbm, 1019, rfl⟩
abbrev main_v573 : Ref sig .tc := ⟨.hbm, 1020, rfl⟩
abbrev main_call29_cst : Ref sig .tc := ⟨.hbm, 1021, rfl⟩
abbrev main_call29_v0 : Ref sig .tc := ⟨.hbm, 1022, rfl⟩
abbrev main_call29_v1 : Ref sig .tc := ⟨.hbm, 1023, rfl⟩
abbrev main_call29_cst_0 : Ref sig .tc := ⟨.hbm, 1024, rfl⟩
abbrev main_call29_v2 : Ref sig .tc := ⟨.hbm, 1025, rfl⟩
abbrev main_call29_v3 : Ref sig .tc := ⟨.hbm, 1026, rfl⟩
abbrev main_call29_cst_1 : Ref sig .tc := ⟨.hbm, 1027, rfl⟩
abbrev main_call29_call0_v0 : Ref sig .tc := ⟨.hbm, 1028, rfl⟩
abbrev main_call29_call0_v1 : Ref sig .tc := ⟨.hbm, 1029, rfl⟩
abbrev main_call29_v4 : Ref sig .tc := ⟨.hbm, 1030, rfl⟩
abbrev main_call29_v5 : Ref sig .tc := ⟨.hbm, 1031, rfl⟩
abbrev main_call29_cst_2 : Ref sig .tc := ⟨.hbm, 1032, rfl⟩
abbrev main_call29_v6 : Ref sig .tc := ⟨.hbm, 1033, rfl⟩
abbrev main_call29_v7 : Ref sig .tc := ⟨.hbm, 1034, rfl⟩
abbrev main_v574 : Ref sig .tc := ⟨.hbm, 1035, rfl⟩
abbrev main_v575 : Ref sig .tc := ⟨.hbm, 1036, rfl⟩
abbrev main_v576 : Ref sig .tc := ⟨.hbm, 1037, rfl⟩
abbrev main_cst_55 : Ref sig .tc := ⟨.hbm, 1038, rfl⟩
abbrev main_v577 : Ref sig .tc := ⟨.hbm, 1039, rfl⟩
abbrev main_cst_56 : Ref sig .tc := ⟨.hbm, 1040, rfl⟩
abbrev main_v578 : Ref sig .tc := ⟨.hbm, 1041, rfl⟩
abbrev main_v579 : Ref sig .tc := ⟨.hbm, 1042, rfl⟩
abbrev main_v580 : Ref sig .tc := ⟨.hbm, 1043, rfl⟩
abbrev main_v581 : Ref sig .tc := ⟨.hbm, 1044, rfl⟩
abbrev main_cst_57 : Ref sig .tc := ⟨.hbm, 1045, rfl⟩
abbrev main_v582 : Ref sig .tc := ⟨.hbm, 1046, rfl⟩
abbrev main_v583 : Ref sig .tc := ⟨.hbm, 1047, rfl⟩
abbrev main_v584 : Ref sig .tc := ⟨.hbm, 1048, rfl⟩
abbrev main_v585 : Ref sig .tc := ⟨.hbm, 1049, rfl⟩
abbrev main_v586 : Ref sig .tc := ⟨.hbm, 1050, rfl⟩
abbrev main_v587 : Ref sig .tc := ⟨.hbm, 1051, rfl⟩
abbrev main_v588 : Ref sig .tc := ⟨.hbm, 1052, rfl⟩
abbrev main_v589 : Ref sig .tc := ⟨.hbm, 1053, rfl⟩
abbrev main_v590 : Ref sig .tc := ⟨.hbm, 1054, rfl⟩
abbrev main_v591 : Ref sig .tc := ⟨.hbm, 1055, rfl⟩
abbrev main_v592 : Ref sig .tc := ⟨.hbm, 1056, rfl⟩
abbrev main_v593 : Ref sig .tc := ⟨.hbm, 1057, rfl⟩
abbrev main_v594 : Ref sig .tc := ⟨.hbm, 1058, rfl⟩
abbrev main_v595 : Ref sig .tc := ⟨.hbm, 1059, rfl⟩
abbrev main_v596 : Ref sig .tc := ⟨.hbm, 1060, rfl⟩
abbrev main_v597 : Ref sig .tc := ⟨.hbm, 1061, rfl⟩
abbrev main_v598 : Ref sig .tc := ⟨.hbm, 1062, rfl⟩
abbrev main_v599 : Ref sig .tc := ⟨.hbm, 1063, rfl⟩
abbrev main_cst_58 : Ref sig .tc := ⟨.hbm, 1064, rfl⟩
abbrev main_v600 : Ref sig .tc := ⟨.hbm, 1065, rfl⟩
abbrev main_cst_59 : Ref sig .tc := ⟨.hbm, 1066, rfl⟩
abbrev main_v601 : Ref sig .tc := ⟨.hbm, 1067, rfl⟩
abbrev main_v602 : Ref sig .tc := ⟨.hbm, 1068, rfl⟩
abbrev main_c_60 : Ref sig .tc := ⟨.hbm, 1069, rfl⟩
abbrev main_call30_cst : Ref sig .tc := ⟨.hbm, 1070, rfl⟩
abbrev main_call30_v0 : Ref sig .tc := ⟨.hbm, 1071, rfl⟩
abbrev main_call30_v1 : Ref sig .tc := ⟨.hbm, 1072, rfl⟩
abbrev main_call30_cst_0 : Ref sig .tc := ⟨.hbm, 1073, rfl⟩
abbrev main_call30_v2 : Ref sig .tc := ⟨.hbm, 1074, rfl⟩
abbrev main_call30_v3 : Ref sig .tc := ⟨.hbm, 1075, rfl⟩
abbrev main_call30_v4 : Ref sig .tc := ⟨.hbm, 1076, rfl⟩
abbrev main_call30_v5 : Ref sig .tc := ⟨.hbm, 1077, rfl⟩
abbrev main_call30_v6 : Ref sig .tc := ⟨.hbm, 1078, rfl⟩
abbrev main_call30_v7 : Ref sig .tc := ⟨.hbm, 1079, rfl⟩
abbrev main_call30_cst_1 : Ref sig .tc := ⟨.hbm, 1080, rfl⟩
abbrev main_call30_v8 : Ref sig .tc := ⟨.hbm, 1081, rfl⟩
abbrev main_call30_cst_2 : Ref sig .tc := ⟨.hbm, 1082, rfl⟩
abbrev main_call30_v9 : Ref sig .tc := ⟨.hbm, 1083, rfl⟩
abbrev main_call30_v10 : Ref sig .tc := ⟨.hbm, 1084, rfl⟩
abbrev main_call30_v11 : Ref sig .tc := ⟨.hbm, 1085, rfl⟩
abbrev main_call30_cst_3 : Ref sig .tc := ⟨.hbm, 1086, rfl⟩
abbrev main_call30_v12 : Ref sig .tc := ⟨.hbm, 1087, rfl⟩
abbrev main_call30_cst_4 : Ref sig .tc := ⟨.hbm, 1088, rfl⟩
abbrev main_call30_call0_v0 : Ref sig .tc := ⟨.hbm, 1089, rfl⟩
abbrev main_call30_call0_v1 : Ref sig .tc := ⟨.hbm, 1090, rfl⟩
abbrev main_v603 : Ref sig .tc := ⟨.hbm, 1091, rfl⟩
abbrev main_v604 : Ref sig .tc := ⟨.hbm, 1092, rfl⟩
abbrev main_v605 : Ref sig .tc := ⟨.hbm, 1093, rfl⟩
abbrev main_v606 : Ref sig .tc := ⟨.hbm, 1094, rfl⟩
abbrev main_cst_61 : Ref sig .tc := ⟨.hbm, 1095, rfl⟩
abbrev main_v607 : Ref sig .tc := ⟨.hbm, 1096, rfl⟩
abbrev main_v608 : Ref sig .tc := ⟨.hbm, 1097, rfl⟩
abbrev main_v609 : Ref sig .tc := ⟨.hbm, 1098, rfl⟩
abbrev main_v610 : Ref sig .tc := ⟨.hbm, 1099, rfl⟩
abbrev main_v611 : Ref sig .tc := ⟨.hbm, 1100, rfl⟩
abbrev main_v612 : Ref sig .tc := ⟨.hbm, 1101, rfl⟩
abbrev main_v613 : Ref sig .tc := ⟨.hbm, 1102, rfl⟩
abbrev main_v614 : Ref sig .tc := ⟨.hbm, 1103, rfl⟩
abbrev main_v615 : Ref sig .tc := ⟨.hbm, 1104, rfl⟩
abbrev main_v616 : Ref sig .tc := ⟨.hbm, 1105, rfl⟩
abbrev main_v617 : Ref sig .tc := ⟨.hbm, 1106, rfl⟩
abbrev main_v618 : Ref sig .tc := ⟨.hbm, 1107, rfl⟩
abbrev main_v619 : Ref sig .tc := ⟨.hbm, 1108, rfl⟩
abbrev main_v620 : Ref sig .tc := ⟨.hbm, 1109, rfl⟩
abbrev main_v621 : Ref sig .tc := ⟨.hbm, 1110, rfl⟩
abbrev main_v622 : Ref sig .tc := ⟨.hbm, 1111, rfl⟩
abbrev main_call31_cst : Ref sig .tc := ⟨.hbm, 1112, rfl⟩
abbrev main_call31_v0 : Ref sig .tc := ⟨.hbm, 1113, rfl⟩
abbrev main_v623 : Ref sig .tc := ⟨.hbm, 1114, rfl⟩
abbrev main_v624 : Ref sig .tc := ⟨.hbm, 1115, rfl⟩
abbrev main_v625 : Ref sig .tc := ⟨.hbm, 1116, rfl⟩
abbrev main_v626 : Ref sig .tc := ⟨.hbm, 1117, rfl⟩
abbrev main_v627 : Ref sig .tc := ⟨.hbm, 1118, rfl⟩
abbrev main_v628 : Ref sig .tc := ⟨.hbm, 1119, rfl⟩
abbrev main_v629 : Ref sig .tc := ⟨.hbm, 1120, rfl⟩
abbrev main_v630 : Ref sig .tc := ⟨.hbm, 1121, rfl⟩
abbrev main_v631 : Ref sig .tc := ⟨.hbm, 1122, rfl⟩
abbrev main_v632 : Ref sig .tc := ⟨.hbm, 1123, rfl⟩
abbrev main_v633 : Ref sig .tc := ⟨.hbm, 1124, rfl⟩
abbrev main_v634 : Ref sig .tc := ⟨.hbm, 1125, rfl⟩
abbrev main_v635 : Ref sig .tc := ⟨.hbm, 1126, rfl⟩
abbrev main_v636 : Ref sig .tc := ⟨.hbm, 1127, rfl⟩
abbrev main_v637 : Ref sig .tc := ⟨.hbm, 1128, rfl⟩
abbrev main_v638 : Ref sig .tc := ⟨.hbm, 1129, rfl⟩
abbrev main_v639 : Ref sig .tc := ⟨.hbm, 1130, rfl⟩
abbrev main_v640 : Ref sig .tc := ⟨.hbm, 1131, rfl⟩
abbrev main_call32_cst : Ref sig .tc := ⟨.hbm, 1132, rfl⟩
abbrev main_call32_v0 : Ref sig .tc := ⟨.hbm, 1133, rfl⟩
abbrev main_call32_v1 : Ref sig .tc := ⟨.hbm, 1134, rfl⟩
abbrev main_call32_cst_0 : Ref sig .tc := ⟨.hbm, 1135, rfl⟩
abbrev main_call32_v2 : Ref sig .tc := ⟨.hbm, 1136, rfl⟩
abbrev main_call32_v3 : Ref sig .tc := ⟨.hbm, 1137, rfl⟩
abbrev main_call32_cst_1 : Ref sig .tc := ⟨.hbm, 1138, rfl⟩
abbrev main_call32_call0_v0 : Ref sig .tc := ⟨.hbm, 1139, rfl⟩
abbrev main_call32_call0_v1 : Ref sig .tc := ⟨.hbm, 1140, rfl⟩
abbrev main_call32_v4 : Ref sig .tc := ⟨.hbm, 1141, rfl⟩
abbrev main_call32_v5 : Ref sig .tc := ⟨.hbm, 1142, rfl⟩
abbrev main_call32_cst_2 : Ref sig .tc := ⟨.hbm, 1143, rfl⟩
abbrev main_call32_v6 : Ref sig .tc := ⟨.hbm, 1144, rfl⟩
abbrev main_call32_v7 : Ref sig .tc := ⟨.hbm, 1145, rfl⟩
abbrev main_v641 : Ref sig .tc := ⟨.hbm, 1146, rfl⟩
abbrev main_v642 : Ref sig .tc := ⟨.hbm, 1147, rfl⟩
abbrev main_v643 : Ref sig .tc := ⟨.hbm, 1148, rfl⟩
abbrev main_v644 : Ref sig .tc := ⟨.hbm, 1149, rfl⟩
abbrev main_v645 : Ref sig .tc := ⟨.hbm, 1150, rfl⟩
abbrev main_v646 : Ref sig .tc := ⟨.hbm, 1151, rfl⟩
abbrev main_v647 : Ref sig .tc := ⟨.hbm, 1152, rfl⟩
abbrev main_v648 : Ref sig .tc := ⟨.hbm, 1153, rfl⟩
abbrev main_v649 : Ref sig .tc := ⟨.hbm, 1154, rfl⟩
abbrev main_call33_cst : Ref sig .tc := ⟨.hbm, 1155, rfl⟩
abbrev main_call33_v0 : Ref sig .tc := ⟨.hbm, 1156, rfl⟩
abbrev main_call33_v1 : Ref sig .tc := ⟨.hbm, 1157, rfl⟩
abbrev main_call33_cst_0 : Ref sig .tc := ⟨.hbm, 1158, rfl⟩
abbrev main_call33_v2 : Ref sig .tc := ⟨.hbm, 1159, rfl⟩
abbrev main_call33_v3 : Ref sig .tc := ⟨.hbm, 1160, rfl⟩
abbrev main_call33_cst_1 : Ref sig .tc := ⟨.hbm, 1161, rfl⟩
abbrev main_call33_call0_v0 : Ref sig .tc := ⟨.hbm, 1162, rfl⟩
abbrev main_call33_call0_v1 : Ref sig .tc := ⟨.hbm, 1163, rfl⟩
abbrev main_call33_v4 : Ref sig .tc := ⟨.hbm, 1164, rfl⟩
abbrev main_call33_v5 : Ref sig .tc := ⟨.hbm, 1165, rfl⟩
abbrev main_call33_cst_2 : Ref sig .tc := ⟨.hbm, 1166, rfl⟩
abbrev main_call33_v6 : Ref sig .tc := ⟨.hbm, 1167, rfl⟩
abbrev main_call33_v7 : Ref sig .tc := ⟨.hbm, 1168, rfl⟩
abbrev main_v650 : Ref sig .tc := ⟨.hbm, 1169, rfl⟩
abbrev main_v651 : Ref sig .tc := ⟨.hbm, 1170, rfl⟩
abbrev main_v652 : Ref sig .tc := ⟨.hbm, 1171, rfl⟩
abbrev main_cst_62 : Ref sig .tc := ⟨.hbm, 1172, rfl⟩
abbrev main_v653 : Ref sig .tc := ⟨.hbm, 1173, rfl⟩
abbrev main_cst_63 : Ref sig .tc := ⟨.hbm, 1174, rfl⟩
abbrev main_v654 : Ref sig .tc := ⟨.hbm, 1175, rfl⟩
abbrev main_v655 : Ref sig .tc := ⟨.hbm, 1176, rfl⟩
abbrev main_v656 : Ref sig .tc := ⟨.hbm, 1177, rfl⟩
abbrev main_v657 : Ref sig .tc := ⟨.hbm, 1178, rfl⟩
abbrev main_cst_64 : Ref sig .tc := ⟨.hbm, 1179, rfl⟩
abbrev main_v658 : Ref sig .tc := ⟨.hbm, 1180, rfl⟩
abbrev main_v659 : Ref sig .tc := ⟨.hbm, 1181, rfl⟩
abbrev main_v660 : Ref sig .tc := ⟨.hbm, 1182, rfl⟩
abbrev main_v661 : Ref sig .tc := ⟨.hbm, 1183, rfl⟩
abbrev main_v662 : Ref sig .tc := ⟨.hbm, 1184, rfl⟩
abbrev main_v663 : Ref sig .tc := ⟨.hbm, 1185, rfl⟩
abbrev main_v664 : Ref sig .tc := ⟨.hbm, 1186, rfl⟩
abbrev main_v665 : Ref sig .tc := ⟨.hbm, 1187, rfl⟩
abbrev main_v666 : Ref sig .tc := ⟨.hbm, 1188, rfl⟩
abbrev main_v667 : Ref sig .tc := ⟨.hbm, 1189, rfl⟩
abbrev main_v668 : Ref sig .tc := ⟨.hbm, 1190, rfl⟩
abbrev main_v669 : Ref sig .tc := ⟨.hbm, 1191, rfl⟩
abbrev main_v670 : Ref sig .tc := ⟨.hbm, 1192, rfl⟩
abbrev main_v671 : Ref sig .tc := ⟨.hbm, 1193, rfl⟩
abbrev main_v672 : Ref sig .tc := ⟨.hbm, 1194, rfl⟩
abbrev main_v673 : Ref sig .tc := ⟨.hbm, 1195, rfl⟩
abbrev main_v674 : Ref sig .tc := ⟨.hbm, 1196, rfl⟩
abbrev main_v675 : Ref sig .tc := ⟨.hbm, 1197, rfl⟩
abbrev main_cst_65 : Ref sig .tc := ⟨.hbm, 1198, rfl⟩
abbrev main_v676 : Ref sig .tc := ⟨.hbm, 1199, rfl⟩
abbrev main_cst_66 : Ref sig .tc := ⟨.hbm, 1200, rfl⟩
abbrev main_v677 : Ref sig .tc := ⟨.hbm, 1201, rfl⟩
abbrev main_v678 : Ref sig .tc := ⟨.hbm, 1202, rfl⟩
abbrev main_c_67 : Ref sig .tc := ⟨.hbm, 1203, rfl⟩
abbrev main_call34_cst : Ref sig .tc := ⟨.hbm, 1204, rfl⟩
abbrev main_call34_v0 : Ref sig .tc := ⟨.hbm, 1205, rfl⟩
abbrev main_call34_v1 : Ref sig .tc := ⟨.hbm, 1206, rfl⟩
abbrev main_call34_cst_0 : Ref sig .tc := ⟨.hbm, 1207, rfl⟩
abbrev main_call34_v2 : Ref sig .tc := ⟨.hbm, 1208, rfl⟩
abbrev main_call34_v3 : Ref sig .tc := ⟨.hbm, 1209, rfl⟩
abbrev main_call34_v4 : Ref sig .tc := ⟨.hbm, 1210, rfl⟩
abbrev main_call34_v5 : Ref sig .tc := ⟨.hbm, 1211, rfl⟩
abbrev main_call34_v6 : Ref sig .tc := ⟨.hbm, 1212, rfl⟩
abbrev main_call34_v7 : Ref sig .tc := ⟨.hbm, 1213, rfl⟩
abbrev main_call34_cst_1 : Ref sig .tc := ⟨.hbm, 1214, rfl⟩
abbrev main_call34_v8 : Ref sig .tc := ⟨.hbm, 1215, rfl⟩
abbrev main_call34_cst_2 : Ref sig .tc := ⟨.hbm, 1216, rfl⟩
abbrev main_call34_v9 : Ref sig .tc := ⟨.hbm, 1217, rfl⟩
abbrev main_call34_v10 : Ref sig .tc := ⟨.hbm, 1218, rfl⟩
abbrev main_call34_v11 : Ref sig .tc := ⟨.hbm, 1219, rfl⟩
abbrev main_call34_cst_3 : Ref sig .tc := ⟨.hbm, 1220, rfl⟩
abbrev main_call34_v12 : Ref sig .tc := ⟨.hbm, 1221, rfl⟩
abbrev main_call34_cst_4 : Ref sig .tc := ⟨.hbm, 1222, rfl⟩
abbrev main_call34_call0_v0 : Ref sig .tc := ⟨.hbm, 1223, rfl⟩
abbrev main_call34_call0_v1 : Ref sig .tc := ⟨.hbm, 1224, rfl⟩
abbrev main_v679 : Ref sig .tc := ⟨.hbm, 1225, rfl⟩
abbrev main_v680 : Ref sig .tc := ⟨.hbm, 1226, rfl⟩
abbrev main_v681 : Ref sig .tc := ⟨.hbm, 1227, rfl⟩
abbrev main_v682 : Ref sig .tc := ⟨.hbm, 1228, rfl⟩
abbrev main_cst_68 : Ref sig .tc := ⟨.hbm, 1229, rfl⟩
abbrev main_v683 : Ref sig .tc := ⟨.hbm, 1230, rfl⟩
abbrev main_v684 : Ref sig .tc := ⟨.hbm, 1231, rfl⟩
abbrev main_v685 : Ref sig .tc := ⟨.hbm, 1232, rfl⟩
abbrev main_v686 : Ref sig .tc := ⟨.hbm, 1233, rfl⟩
abbrev main_v687 : Ref sig .tc := ⟨.hbm, 1234, rfl⟩
abbrev main_v688 : Ref sig .tc := ⟨.hbm, 1235, rfl⟩
abbrev main_v689 : Ref sig .tc := ⟨.hbm, 1236, rfl⟩
abbrev main_v690 : Ref sig .tc := ⟨.hbm, 1237, rfl⟩
abbrev main_v691 : Ref sig .tc := ⟨.hbm, 1238, rfl⟩
abbrev main_v692 : Ref sig .tc := ⟨.hbm, 1239, rfl⟩
abbrev main_v693 : Ref sig .tc := ⟨.hbm, 1240, rfl⟩
abbrev main_v694 : Ref sig .tc := ⟨.hbm, 1241, rfl⟩
abbrev main_v695 : Ref sig .tc := ⟨.hbm, 1242, rfl⟩
abbrev main_v696 : Ref sig .tc := ⟨.hbm, 1243, rfl⟩
abbrev main_v697 : Ref sig .tc := ⟨.hbm, 1244, rfl⟩
abbrev main_v698 : Ref sig .tc := ⟨.hbm, 1245, rfl⟩
abbrev main_call35_cst : Ref sig .tc := ⟨.hbm, 1246, rfl⟩
abbrev main_call35_v0 : Ref sig .tc := ⟨.hbm, 1247, rfl⟩
abbrev main_v699 : Ref sig .tc := ⟨.hbm, 1248, rfl⟩
abbrev main_v700 : Ref sig .tc := ⟨.hbm, 1249, rfl⟩
abbrev main_v701 : Ref sig .tc := ⟨.hbm, 1250, rfl⟩
abbrev main_v702 : Ref sig .tc := ⟨.hbm, 1251, rfl⟩
abbrev main_v703 : Ref sig .tc := ⟨.hbm, 1252, rfl⟩
abbrev main_v704 : Ref sig .tc := ⟨.hbm, 1253, rfl⟩
abbrev main_v705 : Ref sig .tc := ⟨.hbm, 1254, rfl⟩
abbrev main_v706 : Ref sig .tc := ⟨.hbm, 1255, rfl⟩
abbrev main_v707 : Ref sig .tc := ⟨.hbm, 1256, rfl⟩
abbrev main_v708 : Ref sig .tc := ⟨.hbm, 1257, rfl⟩
abbrev main_cst_69 : Ref sig .tc := ⟨.hbm, 1258, rfl⟩
abbrev main_v709 : Ref sig .tc := ⟨.hbm, 1259, rfl⟩
abbrev main_v710 : Ref sig .tc := ⟨.hbm, 1260, rfl⟩
abbrev main_v711 : Ref sig .tc := ⟨.hbm, 1261, rfl⟩
abbrev main_v712 : Ref sig .tc := ⟨.hbm, 1262, rfl⟩
abbrev main_c_70 : Ref sig .tc := ⟨.hbm, 1263, rfl⟩
abbrev main_v713 : Ref sig .tc := ⟨.hbm, 1264, rfl⟩
abbrev main_v714 : Ref sig .tc := ⟨.hbm, 1265, rfl⟩
abbrev main_v715 : Ref sig .tc := ⟨.hbm, 1266, rfl⟩
abbrev main_v716 : Ref sig .tc := ⟨.hbm, 1267, rfl⟩
abbrev main_cst_71 : Ref sig .tc := ⟨.hbm, 1268, rfl⟩
abbrev main_v717 : Ref sig .tc := ⟨.hbm, 1269, rfl⟩
abbrev main_v718 : Ref sig .tc := ⟨.hbm, 1270, rfl⟩
abbrev main_v719 : Ref sig .tc := ⟨.hbm, 1271, rfl⟩
abbrev main_v720 : Ref sig .tc := ⟨.hbm, 1272, rfl⟩
abbrev main_v721 : Ref sig .tc := ⟨.hbm, 1273, rfl⟩
abbrev main_v722 : Ref sig .tc := ⟨.hbm, 1274, rfl⟩
abbrev main_v723 : Ref sig .tc := ⟨.hbm, 1275, rfl⟩
abbrev main_v724 : Ref sig .tc := ⟨.hbm, 1276, rfl⟩
abbrev main_v725 : Ref sig .tc := ⟨.hbm, 1277, rfl⟩
abbrev main_call36_cst : Ref sig .tc := ⟨.hbm, 1278, rfl⟩
abbrev main_call36_v0 : Ref sig .tc := ⟨.hbm, 1279, rfl⟩
abbrev main_call36_v1 : Ref sig .tc := ⟨.hbm, 1280, rfl⟩
abbrev main_call36_cst_0 : Ref sig .tc := ⟨.hbm, 1281, rfl⟩
abbrev main_call36_v2 : Ref sig .tc := ⟨.hbm, 1282, rfl⟩
abbrev main_call36_v3 : Ref sig .tc := ⟨.hbm, 1283, rfl⟩
abbrev main_call36_cst_1 : Ref sig .tc := ⟨.hbm, 1284, rfl⟩
abbrev main_call36_call0_v0 : Ref sig .tc := ⟨.hbm, 1285, rfl⟩
abbrev main_call36_call0_v1 : Ref sig .tc := ⟨.hbm, 1286, rfl⟩
abbrev main_call36_v4 : Ref sig .tc := ⟨.hbm, 1287, rfl⟩
abbrev main_call36_v5 : Ref sig .tc := ⟨.hbm, 1288, rfl⟩
abbrev main_call36_cst_2 : Ref sig .tc := ⟨.hbm, 1289, rfl⟩
abbrev main_call36_v6 : Ref sig .tc := ⟨.hbm, 1290, rfl⟩
abbrev main_call36_v7 : Ref sig .tc := ⟨.hbm, 1291, rfl⟩
abbrev main_v726 : Ref sig .tc := ⟨.hbm, 1292, rfl⟩
abbrev main_v727 : Ref sig .tc := ⟨.hbm, 1293, rfl⟩
abbrev main_v728 : Ref sig .tc := ⟨.hbm, 1294, rfl⟩
abbrev main_v729 : Ref sig .tc := ⟨.hbm, 1295, rfl⟩
abbrev main_v730 : Ref sig .tc := ⟨.hbm, 1296, rfl⟩
abbrev main_v731 : Ref sig .tc := ⟨.hbm, 1297, rfl⟩
abbrev main_v732 : Ref sig .tc := ⟨.hbm, 1298, rfl⟩
abbrev main_v733 : Ref sig .tc := ⟨.hbm, 1299, rfl⟩
abbrev main_v734 : Ref sig .tc := ⟨.hbm, 1300, rfl⟩
abbrev main_call37_cst : Ref sig .tc := ⟨.hbm, 1301, rfl⟩
abbrev main_call37_v0 : Ref sig .tc := ⟨.hbm, 1302, rfl⟩
abbrev main_call37_v1 : Ref sig .tc := ⟨.hbm, 1303, rfl⟩
abbrev main_call37_cst_0 : Ref sig .tc := ⟨.hbm, 1304, rfl⟩
abbrev main_call37_v2 : Ref sig .tc := ⟨.hbm, 1305, rfl⟩
abbrev main_call37_v3 : Ref sig .tc := ⟨.hbm, 1306, rfl⟩
abbrev main_call37_cst_1 : Ref sig .tc := ⟨.hbm, 1307, rfl⟩
abbrev main_call37_call0_v0 : Ref sig .tc := ⟨.hbm, 1308, rfl⟩
abbrev main_call37_call0_v1 : Ref sig .tc := ⟨.hbm, 1309, rfl⟩
abbrev main_call37_v4 : Ref sig .tc := ⟨.hbm, 1310, rfl⟩
abbrev main_call37_v5 : Ref sig .tc := ⟨.hbm, 1311, rfl⟩
abbrev main_call37_cst_2 : Ref sig .tc := ⟨.hbm, 1312, rfl⟩
abbrev main_call37_v6 : Ref sig .tc := ⟨.hbm, 1313, rfl⟩
abbrev main_call37_v7 : Ref sig .tc := ⟨.hbm, 1314, rfl⟩
abbrev main_v735 : Ref sig .tc := ⟨.hbm, 1315, rfl⟩
abbrev main_v736 : Ref sig .tc := ⟨.hbm, 1316, rfl⟩
abbrev main_v737 : Ref sig .tc := ⟨.hbm, 1317, rfl⟩
abbrev main_cst_72 : Ref sig .tc := ⟨.hbm, 1318, rfl⟩
abbrev main_v738 : Ref sig .tc := ⟨.hbm, 1319, rfl⟩
abbrev main_cst_73 : Ref sig .tc := ⟨.hbm, 1320, rfl⟩
abbrev main_v739 : Ref sig .tc := ⟨.hbm, 1321, rfl⟩
abbrev main_v740 : Ref sig .tc := ⟨.hbm, 1322, rfl⟩
abbrev main_v741 : Ref sig .tc := ⟨.hbm, 1323, rfl⟩
abbrev main_v742 : Ref sig .tc := ⟨.hbm, 1324, rfl⟩
abbrev main_cst_74 : Ref sig .tc := ⟨.hbm, 1325, rfl⟩
abbrev main_v743 : Ref sig .tc := ⟨.hbm, 1326, rfl⟩
abbrev main_v744 : Ref sig .tc := ⟨.hbm, 1327, rfl⟩
abbrev main_v745 : Ref sig .tc := ⟨.hbm, 1328, rfl⟩
abbrev main_v746 : Ref sig .tc := ⟨.hbm, 1329, rfl⟩
abbrev main_v747 : Ref sig .tc := ⟨.hbm, 1330, rfl⟩
abbrev main_v748 : Ref sig .tc := ⟨.hbm, 1331, rfl⟩
abbrev main_v749 : Ref sig .tc := ⟨.hbm, 1332, rfl⟩
abbrev main_v750 : Ref sig .tc := ⟨.hbm, 1333, rfl⟩
abbrev main_v751 : Ref sig .tc := ⟨.hbm, 1334, rfl⟩
abbrev main_v752 : Ref sig .tc := ⟨.hbm, 1335, rfl⟩
abbrev main_v753 : Ref sig .tc := ⟨.hbm, 1336, rfl⟩
abbrev main_v754 : Ref sig .tc := ⟨.hbm, 1337, rfl⟩
abbrev main_v755 : Ref sig .tc := ⟨.hbm, 1338, rfl⟩
abbrev main_v756 : Ref sig .tc := ⟨.hbm, 1339, rfl⟩
abbrev main_v757 : Ref sig .tc := ⟨.hbm, 1340, rfl⟩
abbrev main_v758 : Ref sig .tc := ⟨.hbm, 1341, rfl⟩
abbrev main_v759 : Ref sig .tc := ⟨.hbm, 1342, rfl⟩
abbrev main_v760 : Ref sig .tc := ⟨.hbm, 1343, rfl⟩
abbrev main_cst_75 : Ref sig .tc := ⟨.hbm, 1344, rfl⟩
abbrev main_v761 : Ref sig .tc := ⟨.hbm, 1345, rfl⟩
abbrev main_cst_76 : Ref sig .tc := ⟨.hbm, 1346, rfl⟩
abbrev main_v762 : Ref sig .tc := ⟨.hbm, 1347, rfl⟩
abbrev main_v763 : Ref sig .tc := ⟨.hbm, 1348, rfl⟩
abbrev main_c_77 : Ref sig .tc := ⟨.hbm, 1349, rfl⟩
abbrev main_call38_cst : Ref sig .tc := ⟨.hbm, 1350, rfl⟩
abbrev main_call38_v0 : Ref sig .tc := ⟨.hbm, 1351, rfl⟩
abbrev main_call38_v1 : Ref sig .tc := ⟨.hbm, 1352, rfl⟩
abbrev main_call38_cst_0 : Ref sig .tc := ⟨.hbm, 1353, rfl⟩
abbrev main_call38_v2 : Ref sig .tc := ⟨.hbm, 1354, rfl⟩
abbrev main_call38_v3 : Ref sig .tc := ⟨.hbm, 1355, rfl⟩
abbrev main_call38_v4 : Ref sig .tc := ⟨.hbm, 1356, rfl⟩
abbrev main_call38_v5 : Ref sig .tc := ⟨.hbm, 1357, rfl⟩
abbrev main_call38_v6 : Ref sig .tc := ⟨.hbm, 1358, rfl⟩
abbrev main_call38_v7 : Ref sig .tc := ⟨.hbm, 1359, rfl⟩
abbrev main_call38_cst_1 : Ref sig .tc := ⟨.hbm, 1360, rfl⟩
abbrev main_call38_v8 : Ref sig .tc := ⟨.hbm, 1361, rfl⟩
abbrev main_call38_cst_2 : Ref sig .tc := ⟨.hbm, 1362, rfl⟩
abbrev main_call38_v9 : Ref sig .tc := ⟨.hbm, 1363, rfl⟩
abbrev main_call38_v10 : Ref sig .tc := ⟨.hbm, 1364, rfl⟩
abbrev main_call38_v11 : Ref sig .tc := ⟨.hbm, 1365, rfl⟩
abbrev main_call38_cst_3 : Ref sig .tc := ⟨.hbm, 1366, rfl⟩
abbrev main_call38_v12 : Ref sig .tc := ⟨.hbm, 1367, rfl⟩
abbrev main_call38_cst_4 : Ref sig .tc := ⟨.hbm, 1368, rfl⟩
abbrev main_call38_call0_v0 : Ref sig .tc := ⟨.hbm, 1369, rfl⟩
abbrev main_call38_call0_v1 : Ref sig .tc := ⟨.hbm, 1370, rfl⟩
abbrev main_v764 : Ref sig .tc := ⟨.hbm, 1371, rfl⟩
abbrev main_v765 : Ref sig .tc := ⟨.hbm, 1372, rfl⟩
abbrev main_v766 : Ref sig .tc := ⟨.hbm, 1373, rfl⟩
abbrev main_v767 : Ref sig .tc := ⟨.hbm, 1374, rfl⟩
abbrev main_cst_78 : Ref sig .tc := ⟨.hbm, 1375, rfl⟩
abbrev main_v768 : Ref sig .tc := ⟨.hbm, 1376, rfl⟩
abbrev main_v769 : Ref sig .tc := ⟨.hbm, 1377, rfl⟩
abbrev main_v770 : Ref sig .tc := ⟨.hbm, 1378, rfl⟩
abbrev main_v771 : Ref sig .tc := ⟨.hbm, 1379, rfl⟩
abbrev main_v772 : Ref sig .tc := ⟨.hbm, 1380, rfl⟩
abbrev main_v773 : Ref sig .tc := ⟨.hbm, 1381, rfl⟩
abbrev main_v774 : Ref sig .tc := ⟨.hbm, 1382, rfl⟩
abbrev main_v775 : Ref sig .tc := ⟨.hbm, 1383, rfl⟩
abbrev main_v776 : Ref sig .tc := ⟨.hbm, 1384, rfl⟩
abbrev main_v777 : Ref sig .tc := ⟨.hbm, 1385, rfl⟩
abbrev main_v778 : Ref sig .tc := ⟨.hbm, 1386, rfl⟩
abbrev main_v779 : Ref sig .tc := ⟨.hbm, 1387, rfl⟩
abbrev main_v780 : Ref sig .tc := ⟨.hbm, 1388, rfl⟩
abbrev main_v781 : Ref sig .tc := ⟨.hbm, 1389, rfl⟩
abbrev main_v782 : Ref sig .tc := ⟨.hbm, 1390, rfl⟩
abbrev main_v783 : Ref sig .tc := ⟨.hbm, 1391, rfl⟩
abbrev main_call39_cst : Ref sig .tc := ⟨.hbm, 1392, rfl⟩
abbrev main_call39_v0 : Ref sig .tc := ⟨.hbm, 1393, rfl⟩
abbrev main_v784 : Ref sig .tc := ⟨.hbm, 1394, rfl⟩
abbrev main_v785 : Ref sig .tc := ⟨.hbm, 1395, rfl⟩
abbrev main_v786 : Ref sig .tc := ⟨.hbm, 1396, rfl⟩
abbrev main_v787 : Ref sig .tc := ⟨.hbm, 1397, rfl⟩
abbrev main_v788 : Ref sig .tc := ⟨.hbm, 1398, rfl⟩
abbrev main_v789 : Ref sig .tc := ⟨.hbm, 1399, rfl⟩
abbrev main_v790 : Ref sig .tc := ⟨.hbm, 1400, rfl⟩
abbrev main_v791 : Ref sig .tc := ⟨.hbm, 1401, rfl⟩
abbrev main_v792 : Ref sig .tc := ⟨.hbm, 1402, rfl⟩
abbrev main_v793 : Ref sig .tc := ⟨.hbm, 1403, rfl⟩
abbrev main_v794 : Ref sig .tc := ⟨.hbm, 1404, rfl⟩
abbrev main_v795 : Ref sig .tc := ⟨.hbm, 1405, rfl⟩
abbrev main_v796 : Ref sig .tc := ⟨.hbm, 1406, rfl⟩
abbrev main_v797 : Ref sig .tc := ⟨.hbm, 1407, rfl⟩
abbrev main_v798 : Ref sig .tc := ⟨.hbm, 1408, rfl⟩
abbrev main_v799 : Ref sig .tc := ⟨.hbm, 1409, rfl⟩
abbrev main_v800 : Ref sig .tc := ⟨.hbm, 1410, rfl⟩
abbrev main_v801 : Ref sig .tc := ⟨.hbm, 1411, rfl⟩
abbrev main_call40_cst : Ref sig .tc := ⟨.hbm, 1412, rfl⟩
abbrev main_call40_v0 : Ref sig .tc := ⟨.hbm, 1413, rfl⟩
abbrev main_call40_v1 : Ref sig .tc := ⟨.hbm, 1414, rfl⟩
abbrev main_call40_cst_0 : Ref sig .tc := ⟨.hbm, 1415, rfl⟩
abbrev main_call40_v2 : Ref sig .tc := ⟨.hbm, 1416, rfl⟩
abbrev main_call40_v3 : Ref sig .tc := ⟨.hbm, 1417, rfl⟩
abbrev main_call40_cst_1 : Ref sig .tc := ⟨.hbm, 1418, rfl⟩
abbrev main_call40_call0_v0 : Ref sig .tc := ⟨.hbm, 1419, rfl⟩
abbrev main_call40_call0_v1 : Ref sig .tc := ⟨.hbm, 1420, rfl⟩
abbrev main_call40_v4 : Ref sig .tc := ⟨.hbm, 1421, rfl⟩
abbrev main_call40_v5 : Ref sig .tc := ⟨.hbm, 1422, rfl⟩
abbrev main_call40_cst_2 : Ref sig .tc := ⟨.hbm, 1423, rfl⟩
abbrev main_call40_v6 : Ref sig .tc := ⟨.hbm, 1424, rfl⟩
abbrev main_call40_v7 : Ref sig .tc := ⟨.hbm, 1425, rfl⟩
abbrev main_v802 : Ref sig .tc := ⟨.hbm, 1426, rfl⟩
abbrev main_v803 : Ref sig .tc := ⟨.hbm, 1427, rfl⟩
abbrev main_v804 : Ref sig .tc := ⟨.hbm, 1428, rfl⟩
abbrev main_v805 : Ref sig .tc := ⟨.hbm, 1429, rfl⟩
abbrev main_v806 : Ref sig .tc := ⟨.hbm, 1430, rfl⟩
abbrev main_v807 : Ref sig .tc := ⟨.hbm, 1431, rfl⟩
abbrev main_v808 : Ref sig .tc := ⟨.hbm, 1432, rfl⟩
abbrev main_v809 : Ref sig .tc := ⟨.hbm, 1433, rfl⟩
abbrev main_v810 : Ref sig .tc := ⟨.hbm, 1434, rfl⟩
abbrev main_call41_cst : Ref sig .tc := ⟨.hbm, 1435, rfl⟩
abbrev main_call41_v0 : Ref sig .tc := ⟨.hbm, 1436, rfl⟩
abbrev main_call41_v1 : Ref sig .tc := ⟨.hbm, 1437, rfl⟩
abbrev main_call41_cst_0 : Ref sig .tc := ⟨.hbm, 1438, rfl⟩
abbrev main_call41_v2 : Ref sig .tc := ⟨.hbm, 1439, rfl⟩
abbrev main_call41_v3 : Ref sig .tc := ⟨.hbm, 1440, rfl⟩
abbrev main_call41_cst_1 : Ref sig .tc := ⟨.hbm, 1441, rfl⟩
abbrev main_call41_call0_v0 : Ref sig .tc := ⟨.hbm, 1442, rfl⟩
abbrev main_call41_call0_v1 : Ref sig .tc := ⟨.hbm, 1443, rfl⟩
abbrev main_call41_v4 : Ref sig .tc := ⟨.hbm, 1444, rfl⟩
abbrev main_call41_v5 : Ref sig .tc := ⟨.hbm, 1445, rfl⟩
abbrev main_call41_cst_2 : Ref sig .tc := ⟨.hbm, 1446, rfl⟩
abbrev main_call41_v6 : Ref sig .tc := ⟨.hbm, 1447, rfl⟩
abbrev main_call41_v7 : Ref sig .tc := ⟨.hbm, 1448, rfl⟩
abbrev main_v811 : Ref sig .tc := ⟨.hbm, 1449, rfl⟩
abbrev main_v812 : Ref sig .tc := ⟨.hbm, 1450, rfl⟩
abbrev main_v813 : Ref sig .tc := ⟨.hbm, 1451, rfl⟩
abbrev main_cst_79 : Ref sig .tc := ⟨.hbm, 1452, rfl⟩
abbrev main_v814 : Ref sig .tc := ⟨.hbm, 1453, rfl⟩
abbrev main_cst_80 : Ref sig .tc := ⟨.hbm, 1454, rfl⟩
abbrev main_v815 : Ref sig .tc := ⟨.hbm, 1455, rfl⟩
abbrev main_v816 : Ref sig .tc := ⟨.hbm, 1456, rfl⟩
abbrev main_v817 : Ref sig .tc := ⟨.hbm, 1457, rfl⟩
abbrev main_v818 : Ref sig .tc := ⟨.hbm, 1458, rfl⟩
abbrev main_cst_81 : Ref sig .tc := ⟨.hbm, 1459, rfl⟩
abbrev main_v819 : Ref sig .tc := ⟨.hbm, 1460, rfl⟩
abbrev main_v820 : Ref sig .tc := ⟨.hbm, 1461, rfl⟩
abbrev main_v821 : Ref sig .tc := ⟨.hbm, 1462, rfl⟩
abbrev main_v822 : Ref sig .tc := ⟨.hbm, 1463, rfl⟩
abbrev main_v823 : Ref sig .tc := ⟨.hbm, 1464, rfl⟩
abbrev main_v824 : Ref sig .tc := ⟨.hbm, 1465, rfl⟩
abbrev main_v825 : Ref sig .tc := ⟨.hbm, 1466, rfl⟩
abbrev main_v826 : Ref sig .tc := ⟨.hbm, 1467, rfl⟩
abbrev main_v827 : Ref sig .tc := ⟨.hbm, 1468, rfl⟩
abbrev main_v828 : Ref sig .tc := ⟨.hbm, 1469, rfl⟩
abbrev main_v829 : Ref sig .tc := ⟨.hbm, 1470, rfl⟩
abbrev main_v830 : Ref sig .tc := ⟨.hbm, 1471, rfl⟩
abbrev main_v831 : Ref sig .tc := ⟨.hbm, 1472, rfl⟩
abbrev main_v832 : Ref sig .tc := ⟨.hbm, 1473, rfl⟩
abbrev main_v833 : Ref sig .tc := ⟨.hbm, 1474, rfl⟩
abbrev main_v834 : Ref sig .tc := ⟨.hbm, 1475, rfl⟩
abbrev main_v835 : Ref sig .tc := ⟨.hbm, 1476, rfl⟩
abbrev main_v836 : Ref sig .tc := ⟨.hbm, 1477, rfl⟩
abbrev main_cst_82 : Ref sig .tc := ⟨.hbm, 1478, rfl⟩
abbrev main_v837 : Ref sig .tc := ⟨.hbm, 1479, rfl⟩
abbrev main_cst_83 : Ref sig .tc := ⟨.hbm, 1480, rfl⟩
abbrev main_v838 : Ref sig .tc := ⟨.hbm, 1481, rfl⟩
abbrev main_v839 : Ref sig .tc := ⟨.hbm, 1482, rfl⟩
abbrev main_c_84 : Ref sig .tc := ⟨.hbm, 1483, rfl⟩
abbrev main_call42_cst : Ref sig .tc := ⟨.hbm, 1484, rfl⟩
abbrev main_call42_v0 : Ref sig .tc := ⟨.hbm, 1485, rfl⟩
abbrev main_call42_v1 : Ref sig .tc := ⟨.hbm, 1486, rfl⟩
abbrev main_call42_cst_0 : Ref sig .tc := ⟨.hbm, 1487, rfl⟩
abbrev main_call42_v2 : Ref sig .tc := ⟨.hbm, 1488, rfl⟩
abbrev main_call42_v3 : Ref sig .tc := ⟨.hbm, 1489, rfl⟩
abbrev main_call42_v4 : Ref sig .tc := ⟨.hbm, 1490, rfl⟩
abbrev main_call42_v5 : Ref sig .tc := ⟨.hbm, 1491, rfl⟩
abbrev main_call42_v6 : Ref sig .tc := ⟨.hbm, 1492, rfl⟩
abbrev main_call42_v7 : Ref sig .tc := ⟨.hbm, 1493, rfl⟩
abbrev main_call42_cst_1 : Ref sig .tc := ⟨.hbm, 1494, rfl⟩
abbrev main_call42_v8 : Ref sig .tc := ⟨.hbm, 1495, rfl⟩
abbrev main_call42_cst_2 : Ref sig .tc := ⟨.hbm, 1496, rfl⟩
abbrev main_call42_v9 : Ref sig .tc := ⟨.hbm, 1497, rfl⟩
abbrev main_call42_v10 : Ref sig .tc := ⟨.hbm, 1498, rfl⟩
abbrev main_call42_v11 : Ref sig .tc := ⟨.hbm, 1499, rfl⟩
abbrev main_call42_cst_3 : Ref sig .tc := ⟨.hbm, 1500, rfl⟩
abbrev main_call42_v12 : Ref sig .tc := ⟨.hbm, 1501, rfl⟩
abbrev main_call42_cst_4 : Ref sig .tc := ⟨.hbm, 1502, rfl⟩
abbrev main_call42_call0_v0 : Ref sig .tc := ⟨.hbm, 1503, rfl⟩
abbrev main_call42_call0_v1 : Ref sig .tc := ⟨.hbm, 1504, rfl⟩
abbrev main_v840 : Ref sig .tc := ⟨.hbm, 1505, rfl⟩
abbrev main_v841 : Ref sig .tc := ⟨.hbm, 1506, rfl⟩
abbrev main_v842 : Ref sig .tc := ⟨.hbm, 1507, rfl⟩
abbrev main_v843 : Ref sig .tc := ⟨.hbm, 1508, rfl⟩
abbrev main_cst_85 : Ref sig .tc := ⟨.hbm, 1509, rfl⟩
abbrev main_v844 : Ref sig .tc := ⟨.hbm, 1510, rfl⟩
abbrev main_v845 : Ref sig .tc := ⟨.hbm, 1511, rfl⟩
abbrev main_v846 : Ref sig .tc := ⟨.hbm, 1512, rfl⟩
abbrev main_v847 : Ref sig .tc := ⟨.hbm, 1513, rfl⟩
abbrev main_v848 : Ref sig .tc := ⟨.hbm, 1514, rfl⟩
abbrev main_v849 : Ref sig .tc := ⟨.hbm, 1515, rfl⟩
abbrev main_v850 : Ref sig .tc := ⟨.hbm, 1516, rfl⟩
abbrev main_v851 : Ref sig .tc := ⟨.hbm, 1517, rfl⟩
abbrev main_v852 : Ref sig .tc := ⟨.hbm, 1518, rfl⟩
abbrev main_v853 : Ref sig .tc := ⟨.hbm, 1519, rfl⟩
abbrev main_v854 : Ref sig .tc := ⟨.hbm, 1520, rfl⟩
abbrev main_v855 : Ref sig .tc := ⟨.hbm, 1521, rfl⟩
abbrev main_v856 : Ref sig .tc := ⟨.hbm, 1522, rfl⟩
abbrev main_v857 : Ref sig .tc := ⟨.hbm, 1523, rfl⟩
abbrev main_v858 : Ref sig .tc := ⟨.hbm, 1524, rfl⟩
abbrev main_v859 : Ref sig .tc := ⟨.hbm, 1525, rfl⟩
abbrev main_call43_cst : Ref sig .tc := ⟨.hbm, 1526, rfl⟩
abbrev main_call43_v0 : Ref sig .tc := ⟨.hbm, 1527, rfl⟩
abbrev main_v860 : Ref sig .tc := ⟨.hbm, 1528, rfl⟩
abbrev main_v861 : Ref sig .tc := ⟨.hbm, 1529, rfl⟩
abbrev main_v862 : Ref sig .tc := ⟨.hbm, 1530, rfl⟩
abbrev main_v863 : Ref sig .tc := ⟨.hbm, 1531, rfl⟩
abbrev main_v864 : Ref sig .tc := ⟨.hbm, 1532, rfl⟩
abbrev main_v865 : Ref sig .tc := ⟨.hbm, 1533, rfl⟩
abbrev main_v866 : Ref sig .tc := ⟨.hbm, 1534, rfl⟩
abbrev main_v867 : Ref sig .tc := ⟨.hbm, 1535, rfl⟩
abbrev main_v868 : Ref sig .tc := ⟨.hbm, 1536, rfl⟩
abbrev main_v869 : Ref sig .tc := ⟨.hbm, 1537, rfl⟩
abbrev main_v870 : Ref sig .tc := ⟨.hbm, 1538, rfl⟩
abbrev main_v871 : Ref sig .tc := ⟨.hbm, 1539, rfl⟩
abbrev main_v872 : Ref sig .tc := ⟨.hbm, 1540, rfl⟩
abbrev main_v873 : Ref sig .tc := ⟨.hbm, 1541, rfl⟩
abbrev main_v874 : Ref sig .tc := ⟨.hbm, 1542, rfl⟩
abbrev main_v875 : Ref sig .tc := ⟨.hbm, 1543, rfl⟩
abbrev main_v876 : Ref sig .tc := ⟨.hbm, 1544, rfl⟩
abbrev main_v877 : Ref sig .tc := ⟨.hbm, 1545, rfl⟩
abbrev main_call44_cst : Ref sig .tc := ⟨.hbm, 1546, rfl⟩
abbrev main_call44_v0 : Ref sig .tc := ⟨.hbm, 1547, rfl⟩
abbrev main_call44_v1 : Ref sig .tc := ⟨.hbm, 1548, rfl⟩
abbrev main_call44_cst_0 : Ref sig .tc := ⟨.hbm, 1549, rfl⟩
abbrev main_call44_v2 : Ref sig .tc := ⟨.hbm, 1550, rfl⟩
abbrev main_call44_v3 : Ref sig .tc := ⟨.hbm, 1551, rfl⟩
abbrev main_call44_cst_1 : Ref sig .tc := ⟨.hbm, 1552, rfl⟩
abbrev main_call44_call0_v0 : Ref sig .tc := ⟨.hbm, 1553, rfl⟩
abbrev main_call44_call0_v1 : Ref sig .tc := ⟨.hbm, 1554, rfl⟩
abbrev main_call44_v4 : Ref sig .tc := ⟨.hbm, 1555, rfl⟩
abbrev main_call44_v5 : Ref sig .tc := ⟨.hbm, 1556, rfl⟩
abbrev main_call44_cst_2 : Ref sig .tc := ⟨.hbm, 1557, rfl⟩
abbrev main_call44_v6 : Ref sig .tc := ⟨.hbm, 1558, rfl⟩
abbrev main_call44_v7 : Ref sig .tc := ⟨.hbm, 1559, rfl⟩
abbrev main_v878 : Ref sig .tc := ⟨.hbm, 1560, rfl⟩
abbrev main_v879 : Ref sig .tc := ⟨.hbm, 1561, rfl⟩
abbrev main_v880 : Ref sig .tc := ⟨.hbm, 1562, rfl⟩
abbrev main_v881 : Ref sig .tc := ⟨.hbm, 1563, rfl⟩
abbrev main_v882 : Ref sig .tc := ⟨.hbm, 1564, rfl⟩
abbrev main_v883 : Ref sig .tc := ⟨.hbm, 1565, rfl⟩
abbrev main_v884 : Ref sig .tc := ⟨.hbm, 1566, rfl⟩
abbrev main_v885 : Ref sig .tc := ⟨.hbm, 1567, rfl⟩
abbrev main_v886 : Ref sig .tc := ⟨.hbm, 1568, rfl⟩
abbrev main_call45_cst : Ref sig .tc := ⟨.hbm, 1569, rfl⟩
abbrev main_call45_v0 : Ref sig .tc := ⟨.hbm, 1570, rfl⟩
abbrev main_call45_v1 : Ref sig .tc := ⟨.hbm, 1571, rfl⟩
abbrev main_call45_cst_0 : Ref sig .tc := ⟨.hbm, 1572, rfl⟩
abbrev main_call45_v2 : Ref sig .tc := ⟨.hbm, 1573, rfl⟩
abbrev main_call45_v3 : Ref sig .tc := ⟨.hbm, 1574, rfl⟩
abbrev main_call45_cst_1 : Ref sig .tc := ⟨.hbm, 1575, rfl⟩
abbrev main_call45_call0_v0 : Ref sig .tc := ⟨.hbm, 1576, rfl⟩
abbrev main_call45_call0_v1 : Ref sig .tc := ⟨.hbm, 1577, rfl⟩
abbrev main_call45_v4 : Ref sig .tc := ⟨.hbm, 1578, rfl⟩
abbrev main_call45_v5 : Ref sig .tc := ⟨.hbm, 1579, rfl⟩
abbrev main_call45_cst_2 : Ref sig .tc := ⟨.hbm, 1580, rfl⟩
abbrev main_call45_v6 : Ref sig .tc := ⟨.hbm, 1581, rfl⟩
abbrev main_call45_v7 : Ref sig .tc := ⟨.hbm, 1582, rfl⟩
abbrev main_v887 : Ref sig .tc := ⟨.hbm, 1583, rfl⟩
abbrev main_v888 : Ref sig .tc := ⟨.hbm, 1584, rfl⟩
abbrev main_v889 : Ref sig .tc := ⟨.hbm, 1585, rfl⟩
abbrev main_cst_86 : Ref sig .tc := ⟨.hbm, 1586, rfl⟩
abbrev main_v890 : Ref sig .tc := ⟨.hbm, 1587, rfl⟩
abbrev main_cst_87 : Ref sig .tc := ⟨.hbm, 1588, rfl⟩
abbrev main_v891 : Ref sig .tc := ⟨.hbm, 1589, rfl⟩
abbrev main_v892 : Ref sig .tc := ⟨.hbm, 1590, rfl⟩
abbrev main_v893 : Ref sig .tc := ⟨.hbm, 1591, rfl⟩
abbrev main_v894 : Ref sig .tc := ⟨.hbm, 1592, rfl⟩
abbrev main_cst_88 : Ref sig .tc := ⟨.hbm, 1593, rfl⟩
abbrev main_v895 : Ref sig .tc := ⟨.hbm, 1594, rfl⟩
abbrev main_v896 : Ref sig .tc := ⟨.hbm, 1595, rfl⟩
abbrev main_v897 : Ref sig .tc := ⟨.hbm, 1596, rfl⟩
abbrev main_v898 : Ref sig .tc := ⟨.hbm, 1597, rfl⟩
abbrev main_v899 : Ref sig .tc := ⟨.hbm, 1598, rfl⟩
abbrev main_v900 : Ref sig .tc := ⟨.hbm, 1599, rfl⟩
abbrev main_v901 : Ref sig .tc := ⟨.hbm, 1600, rfl⟩
abbrev main_v902 : Ref sig .tc := ⟨.hbm, 1601, rfl⟩
abbrev main_v903 : Ref sig .tc := ⟨.hbm, 1602, rfl⟩
abbrev main_v904 : Ref sig .tc := ⟨.hbm, 1603, rfl⟩
abbrev main_v905 : Ref sig .tc := ⟨.hbm, 1604, rfl⟩
abbrev main_v906 : Ref sig .tc := ⟨.hbm, 1605, rfl⟩
abbrev main_v907 : Ref sig .tc := ⟨.hbm, 1606, rfl⟩
abbrev main_v908 : Ref sig .tc := ⟨.hbm, 1607, rfl⟩
abbrev main_v909 : Ref sig .tc := ⟨.hbm, 1608, rfl⟩
abbrev main_v910 : Ref sig .tc := ⟨.hbm, 1609, rfl⟩
abbrev main_v911 : Ref sig .tc := ⟨.hbm, 1610, rfl⟩
abbrev main_v912 : Ref sig .tc := ⟨.hbm, 1611, rfl⟩
abbrev main_cst_89 : Ref sig .tc := ⟨.hbm, 1612, rfl⟩
abbrev main_v913 : Ref sig .tc := ⟨.hbm, 1613, rfl⟩
abbrev main_cst_90 : Ref sig .tc := ⟨.hbm, 1614, rfl⟩
abbrev main_v914 : Ref sig .tc := ⟨.hbm, 1615, rfl⟩
abbrev main_v915 : Ref sig .tc := ⟨.hbm, 1616, rfl⟩
abbrev main_c_91 : Ref sig .tc := ⟨.hbm, 1617, rfl⟩
abbrev main_call46_cst : Ref sig .tc := ⟨.hbm, 1618, rfl⟩
abbrev main_call46_v0 : Ref sig .tc := ⟨.hbm, 1619, rfl⟩
abbrev main_call46_v1 : Ref sig .tc := ⟨.hbm, 1620, rfl⟩
abbrev main_call46_cst_0 : Ref sig .tc := ⟨.hbm, 1621, rfl⟩
abbrev main_call46_v2 : Ref sig .tc := ⟨.hbm, 1622, rfl⟩
abbrev main_call46_v3 : Ref sig .tc := ⟨.hbm, 1623, rfl⟩
abbrev main_call46_v4 : Ref sig .tc := ⟨.hbm, 1624, rfl⟩
abbrev main_call46_v5 : Ref sig .tc := ⟨.hbm, 1625, rfl⟩
abbrev main_call46_v6 : Ref sig .tc := ⟨.hbm, 1626, rfl⟩
abbrev main_call46_v7 : Ref sig .tc := ⟨.hbm, 1627, rfl⟩
abbrev main_call46_cst_1 : Ref sig .tc := ⟨.hbm, 1628, rfl⟩
abbrev main_call46_v8 : Ref sig .tc := ⟨.hbm, 1629, rfl⟩
abbrev main_call46_cst_2 : Ref sig .tc := ⟨.hbm, 1630, rfl⟩
abbrev main_call46_v9 : Ref sig .tc := ⟨.hbm, 1631, rfl⟩
abbrev main_call46_v10 : Ref sig .tc := ⟨.hbm, 1632, rfl⟩
abbrev main_call46_v11 : Ref sig .tc := ⟨.hbm, 1633, rfl⟩
abbrev main_call46_cst_3 : Ref sig .tc := ⟨.hbm, 1634, rfl⟩
abbrev main_call46_v12 : Ref sig .tc := ⟨.hbm, 1635, rfl⟩
abbrev main_call46_cst_4 : Ref sig .tc := ⟨.hbm, 1636, rfl⟩
abbrev main_call46_call0_v0 : Ref sig .tc := ⟨.hbm, 1637, rfl⟩
abbrev main_call46_call0_v1 : Ref sig .tc := ⟨.hbm, 1638, rfl⟩
abbrev main_v916 : Ref sig .tc := ⟨.hbm, 1639, rfl⟩
abbrev main_v917 : Ref sig .tc := ⟨.hbm, 1640, rfl⟩
abbrev main_v918 : Ref sig .tc := ⟨.hbm, 1641, rfl⟩
abbrev main_v919 : Ref sig .tc := ⟨.hbm, 1642, rfl⟩
abbrev main_cst_92 : Ref sig .tc := ⟨.hbm, 1643, rfl⟩
abbrev main_v920 : Ref sig .tc := ⟨.hbm, 1644, rfl⟩
abbrev main_v921 : Ref sig .tc := ⟨.hbm, 1645, rfl⟩
abbrev main_v922 : Ref sig .tc := ⟨.hbm, 1646, rfl⟩
abbrev main_v923 : Ref sig .tc := ⟨.hbm, 1647, rfl⟩
abbrev main_v924 : Ref sig .tc := ⟨.hbm, 1648, rfl⟩
abbrev main_v925 : Ref sig .tc := ⟨.hbm, 1649, rfl⟩
abbrev main_v926 : Ref sig .tc := ⟨.hbm, 1650, rfl⟩
abbrev main_v927 : Ref sig .tc := ⟨.hbm, 1651, rfl⟩
abbrev main_v928 : Ref sig .tc := ⟨.hbm, 1652, rfl⟩
abbrev main_v929 : Ref sig .tc := ⟨.hbm, 1653, rfl⟩
abbrev main_v930 : Ref sig .tc := ⟨.hbm, 1654, rfl⟩
abbrev main_v931 : Ref sig .tc := ⟨.hbm, 1655, rfl⟩
abbrev main_v932 : Ref sig .tc := ⟨.hbm, 1656, rfl⟩
abbrev main_v933 : Ref sig .tc := ⟨.hbm, 1657, rfl⟩
abbrev main_v934 : Ref sig .tc := ⟨.hbm, 1658, rfl⟩
abbrev main_v935 : Ref sig .tc := ⟨.hbm, 1659, rfl⟩
abbrev main_call47_cst : Ref sig .tc := ⟨.hbm, 1660, rfl⟩
abbrev main_call47_v0 : Ref sig .tc := ⟨.hbm, 1661, rfl⟩
abbrev main_v936 : Ref sig .tc := ⟨.hbm, 1662, rfl⟩
abbrev main_v937 : Ref sig .tc := ⟨.hbm, 1663, rfl⟩
abbrev main_v938 : Ref sig .tc := ⟨.hbm, 1664, rfl⟩
abbrev main_v939 : Ref sig .tc := ⟨.hbm, 1665, rfl⟩
abbrev main_v940 : Ref sig .tc := ⟨.hbm, 1666, rfl⟩
abbrev main_v941 : Ref sig .tc := ⟨.hbm, 1667, rfl⟩
abbrev main_v942 : Ref sig .tc := ⟨.hbm, 1668, rfl⟩
abbrev main_v943 : Ref sig .tc := ⟨.hbm, 1669, rfl⟩
abbrev main_v944 : Ref sig .tc := ⟨.hbm, 1670, rfl⟩
abbrev main_v945 : Ref sig .tc := ⟨.hbm, 1671, rfl⟩
abbrev main_cst_93 : Ref sig .tc := ⟨.hbm, 1672, rfl⟩
abbrev main_v946 : Ref sig .tc := ⟨.hbm, 1673, rfl⟩
abbrev main_v947 : Ref sig .tc := ⟨.hbm, 1674, rfl⟩
abbrev main_v948 : Ref sig .tc := ⟨.hbm, 1675, rfl⟩
abbrev main_v949 : Ref sig .tc := ⟨.hbm, 1676, rfl⟩
abbrev main_cst_94 : Ref sig .tc := ⟨.hbm, 1677, rfl⟩
abbrev main_v950 : Ref sig .tc := ⟨.hbm, 1678, rfl⟩
abbrev main_cst_95 : Ref sig .tc := ⟨.hbm, 1679, rfl⟩
abbrev main_v951 : Ref sig .tc := ⟨.hbm, 1680, rfl⟩
abbrev main_v952 : Ref sig .tc := ⟨.hbm, 1681, rfl⟩
abbrev main_v953 : Ref sig .tc := ⟨.hbm, 1682, rfl⟩
abbrev main_cst_96 : Ref sig .tc := ⟨.hbm, 1683, rfl⟩
abbrev main_v954 : Ref sig .tc := ⟨.hbm, 1684, rfl⟩
abbrev main_cst_97 : Ref sig .tc := ⟨.hbm, 1685, rfl⟩
abbrev main_v955 : Ref sig .tc := ⟨.hbm, 1686, rfl⟩
abbrev main_v956 : Ref sig .tc := ⟨.hbm, 1687, rfl⟩
abbrev main_v957 : Ref sig .tc := ⟨.hbm, 1688, rfl⟩
abbrev main_cst_98 : Ref sig .tc := ⟨.hbm, 1689, rfl⟩
abbrev main_v958 : Ref sig .tc := ⟨.hbm, 1690, rfl⟩
abbrev main_cst_99 : Ref sig .tc := ⟨.hbm, 1691, rfl⟩
abbrev main_v959 : Ref sig .tc := ⟨.hbm, 1692, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096x256 : S_.BroadcastsInDim S4096x256 (![] : Fin 0 → Fin S4096x256.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  slices_S2x256x256_S1x256x256_1_0_0 : S2x256x256.Slices ![1, 0, 0] S1x256x256
  slices_S2x256_S1x256_1_0 : S2x256.Slices ![1, 0] S1x256
  transposes_S4096x256_S256x4096_1_0 : S4096x256.Transposes [1, 0] S256x4096
  reducesTo_S4096x4096_S_d0_1 : S4096x4096.ReducesTo [0, 1] S_
  h_S_ : 0 < S_.numel
  slices_S3x2x256x256_S1x2x256x256_0_0_0_0 : S3x2x256x256.Slices ![0, 0, 0, 0] S1x2x256x256
  shapeCasts_S1x2x256x256_S2x256x256 : S1x2x256x256.ShapeCasts S2x256x256
  slices_S3x2x256_S1x2x256_0_0_0 : S3x2x256.Slices ![0, 0, 0] S1x2x256
  shapeCasts_S1x2x256_S2x256 : S1x2x256.ShapeCasts S2x256
  reducesTo_S4096x256_S256_d0 : S4096x256.ReducesTo [0] S256
  bcast_S_S256 : S_.BroadcastsInDim S256 (![] : Fin 0 → Fin S256.rank)
  bcast_S_S1x256 : S_.BroadcastsInDim S1x256 (![] : Fin 0 → Fin S1x256.rank)
  slices_S3x2x256x256_S1x2x256x256_1_0_0_0 : S3x2x256x256.Slices ![1, 0, 0, 0] S1x2x256x256
  slices_S3x2x256_S1x2x256_1_0_0 : S3x2x256.Slices ![1, 0, 0] S1x2x256
  slices_S3x2x256x256_S1x2x256x256_2_0_0_0 : S3x2x256x256.Slices ![2, 0, 0, 0] S1x2x256x256
  slices_S3x2x256_S1x2x256_2_0_0 : S3x2x256.Slices ![2, 0, 0] S1x2x256
  reducesTo_S4096x256_S_d0_1 : S4096x256.ReducesTo [0, 1] S_
  dot_S4096x256_S256x256_S4096x256_1_0_0_1_n_n_wf : DotDims.WF S4096x256 S256x256 S4096x256 [1] [0] [0] [1] [] []
  dot_S4096x256_S256x4096_S4096x4096_1_0_0_1_n_n_wf : DotDims.WF S4096x256 S256x4096 S4096x4096 [1] [0] [0] [1] [] []
  dot_S4096x4096_S4096x256_S4096x256_1_0_0_1_n_n_wf : DotDims.WF S4096x4096 S4096x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.K_KOutsStage.lean ====
/-
  A family of region results defined stage by stage.

  The contents the kernel regions leave are unknowns `outs J r c` of the valuations between @main's items. Region `i`
  writes reference `r i` at item `J i`, and what it writes is a function `f i` of the valuation `entry i outs c` the
  region is entered at — which itself reads `outs` at the earlier regions only. Such a family is built by adding one
  region at a time on top of a base family (`stage`), and the result satisfies every region's equation at once
  (`stage_spec`): a later stage never changes an earlier region's entry (the item numbers are distinct), and an entry
  valuation that reads only earlier regions does not see the later stages.
-/
import proofs.«169706_j68856915690108_1_alg».proof.Proof.RegionsK

noncomputable section

namespace Cert.Kernel.Hand

open Cert.Kernel Cert.Kernel.Gen Cert.Kernel.GenP
open Idealize.ShloMosaic Idealize.ShloMosaic.TcCoe

variable {F : FTy → Type} [FloatOps F]

/-- The family `prev` with item `j`'s reference `x` set to `val`. -/
noncomputable def addStage (prev : Outs (F := F)) (j : ℕ) (x : Ref sig .tc)
    (val : (c : Dev nD) → Buf (Elt F) ((c : Thread nD τ).loc x)) : Outs (F := F) :=
  fun j' x' c => if h : j' = j ∧ x' = x then h.2 ▸ val c else prev j' x' c

theorem addStage_self (prev : Outs (F := F)) (j : ℕ) (x : Ref sig .tc)
    (val : (c : Dev nD) → Buf (Elt F) ((c : Thread nD τ).loc x)) (c : Dev nD) :
    addStage prev j x val j x c = val c := by
  unfold addStage
  rw [dif_pos ⟨rfl, rfl⟩]

theorem addStage_ne (prev : Outs (F := F)) (j : ℕ) (x : Ref sig .tc)
    (val : (c : Dev nD) → Buf (Elt F) ((c : Thread nD τ).loc x)) {j' : ℕ} (x' : Ref sig .tc) (c : Dev nD)
    (h : j' ≠ j) : addStage prev j x val j' x' c = prev j' x' c := by
  unfold addStage
  rw [dif_neg fun hh => h hh.1]

section Staging

variable {n : ℕ} (J : Fin n → ℕ) (r : Fin n → Ref sig .tc)
  (entry : Fin n → Outs (F := F) → Dev nD → Valuation τ sig (Elt F))
  (f : (i : Fin n) → Valuation τ sig (Elt F) → (c : Dev nD) → Buf (Elt F) ((c : Thread nD τ).loc (r i)))
  (base : Outs (F := F))

/-- The first `k` regions added to `base`, each at what it computes from its entry valuation over the stage before. -/
noncomputable def stage : ℕ → Outs (F := F)
  | 0 => base
  | k + 1 =>
    if hk : k < n then
      addStage (stage k) (J ⟨k, hk⟩) (r ⟨k, hk⟩) (fun c => f ⟨k, hk⟩ (entry ⟨k, hk⟩ (stage k) c) c)
    else stage k

/-- Stage `i + 1` holds region `i`'s result over stage `i`. -/
theorem stage_succ_self (i : Fin n) (c : Dev nD) :
    stage J r entry f base (i.val + 1) (J i) (r i) c
      = f i (entry i (stage J r entry f base i.val) c) c := by
  rw [stage, dif_pos i.isLt]
  exact addStage_self _ _ _ _ c

/-- A stage leaves every other item alone. -/
theorem stage_succ_ne (k j' : ℕ) (x' : Ref sig .tc) (c : Dev nD) (h : ∀ hk : k < n, j' ≠ J ⟨k, hk⟩) :
    stage J r entry f base (k + 1) j' x' c = stage J r entry f base k j' x' c := by
  rw [stage]
  split
  · exact addStage_ne _ _ _ _ x' c (h _)
  · rfl

/-- With distinct item numbers, region `i`'s entry is settled at stage `i + 1`. -/
theorem stage_stable (hJ : Function.Injective J) (i : Fin n) (c : Dev nD) (L : ℕ) (hL : i.val + 1 ≤ L) :
    stage J r entry f base L (J i) (r i) c = stage J r entry f base (i.val + 1) (J i) (r i) c := by
  induction L, hL using Nat.le_induction with
  | base => rfl
  | succ L hL ih =>
    rw [stage_succ_ne J r entry f base L (J i) (r i) c fun hk heq => by
      have hv := congrArg Fin.val (hJ heq)
      simp only at hv
      omega, ih]

/-- Every region's equation, at the last stage: region `i`'s reference at item `J i` holds `f i` of the entry
    valuation over the finished family, when that valuation reads the family at earlier regions only. -/
theorem stage_spec (hJ : Function.Injective J)
    (hloc : ∀ (i : Fin n) (o o' : Outs (F := F)) (c : Dev nD),
      (∀ j : Fin n, j.val < i.val → o (J j) (r j) c = o' (J j) (r j) c) → entry i o c = entry i o' c)
    (i : Fin n) (c : Dev nD) :
    stage J r entry f base n (J i) (r i) c = f i (entry i (stage J r entry f base n) c) c := by
  rw [stage_stable J r entry f base hJ i c n i.isLt, stage_succ_self]
  refine congrArg (fun V => f i V c) (hloc i _ _ c fun j hj => ?_)
  rw [stage_stable J r entry f base hJ j c i.val hj, stage_stable J r entry f base hJ j c n j.isLt]

end Staging

/-- The valuation with one reference set is determined by the valuation and the value set. -/
theorem update_congr {V V' : Valuation τ sig (Elt F)} (x : Ref sig .tc) (c : Dev nD)
    {a a' : Buf (Elt F) ((c : Thread nD τ).loc x)} (hV : V = V') (ha : a = a') :
    (Function.update V x a : Valuation τ sig (Elt F)) = Function.update V' x a' := by
  rw [hV, ha]

end Cert.Kernel.Hand

end
-- ==== Proof.K_KOuts.lean ====
import proofs.«169706_j68856915690108_1_alg».proof.Proof.K_KOutsStage

/-!
  The contents the 24 kernel regions leave, as ONE family `outsOf m g` determined by what each region computes from the
  valuation it is entered at (`g.oK`): region K's reference at its item holds `g.oK` of the entry valuation over the same
  family (`outsOf_K`). The entry valuation of region K reads the family at regions 0 … K−1 only (`entry_congrK`: it is
  the previous region's entry with that region's reference set and the host stretches in between applied), which is
  what the staging theory asks.
-/

set_option maxRecDepth 7604

noncomputable section

namespace Cert.Kernel.Hand

open Cert.Kernel Cert.Kernel.Gen Cert.Kernel.GenP
open Idealize.ShloMosaic Idealize.ShloMosaic.TcCoe

variable {F : FTy → Type} [FloatOps F]

/-- The item after which region K's result is in place. -/
noncomputable abbrev regJ : Fin 24 → ℕ := ![5, 7, 16, 18, 27, 29, 38, 40, 49, 51, 60, 62, 71, 73, 82, 84, 93, 95, 104, 106, 115, 117, 126, 128]
/-- The reference region K writes. -/
noncomputable abbrev regR : Fin 24 → Ref sig .tc := ![main_v19, main_v22, main_v88, main_v91, main_v157, main_v160, main_v229, main_v232, main_v298, main_v301, main_v367, main_v370, main_v439, main_v442, main_v508, main_v511, main_v577, main_v580, main_v649, main_v652, main_v718, main_v721, main_v787, main_v790]

theorem regJ_inj : Function.Injective regJ :=
  (Fin.strictMono_iff_lt_succ.2 (by decide)).injective

/-- What each region computes from the valuation it is entered at: region K's contents of its reference, per core. -/
structure OutFns (F : FTy → Type) [FloatOps F] where
  o0 : Valuation τ sig (Elt F) → (c : Dev nD) → Buf (Elt F) ((c : Thread nD τ).loc main_v19)
  o1 : Valuation τ sig (Elt F) → (c : Dev nD) → Buf (Elt F) ((c : Thread nD τ).loc main_v22)
  o2 : Valuation τ sig (Elt F) → (c : Dev nD) → Buf (Elt F) ((c : Thread nD τ).loc main_v88)
  o3 : Valuation τ sig (Elt F) → (c : Dev nD) → Buf (Elt F) ((c : Thread nD τ).loc main_v91)
  o4 : Valuation τ sig (Elt F) → (c : Dev nD) → Buf (Elt F) ((c : Thread nD τ).loc main_v157)
  o5 : Valuation τ sig (Elt F) → (c : Dev nD) → Buf (Elt F) ((c : Thread nD τ).loc main_v160)
  o6 : Valuation τ sig (Elt F) → (c : Dev nD) → Buf (Elt F) ((c : Thread nD τ).loc main_v229)
  o7 : Valuation τ sig (Elt F) → (c : Dev nD) → Buf (Elt F) ((c : Thread nD τ).loc main_v232)
  o8 : Valuation τ sig (Elt F) → (c : Dev nD) → Buf (Elt F) ((c : Thread nD τ).loc main_v298)
  o9 : Valuation τ sig (Elt F) → (c : Dev nD) → Buf (Elt F) ((c : Thread nD τ).loc main_v301)
  o10 : Valuation τ sig (Elt F) → (c : Dev nD) → Buf (Elt F) ((c : Thread nD τ).loc main_v367)
  o11 : Valuation τ sig (Elt F) → (c : Dev nD) → Buf (Elt F) ((c : Thread nD τ).loc main_v370)
  o12 : Valuation τ sig (Elt F) → (c : Dev nD) → Buf (Elt F) ((c : Thread nD τ).loc main_v439)
  o13 : Valuation τ sig (Elt F) → (c : Dev nD) → Buf (Elt F) ((c : Thread nD τ).loc main_v442)
  o14 : Valuation τ sig (Elt F) → (c : Dev nD) → Buf (Elt F) ((c : Thread nD τ).loc main_v508)
  o15 : Valuation τ sig (Elt F) → (c : Dev nD) → Buf (Elt F) ((c : Thread nD τ).loc main_v511)
  o16 : Valuation τ sig (Elt F) → (c : Dev nD) → Buf (Elt F) ((c : Thread nD τ).loc main_v577)
  o17 : Valuation τ sig (Elt F) → (c : Dev nD) → Buf (Elt F) ((c : Thread nD τ).loc main_v580)
  o18 : Valuation τ sig (Elt F) → (c : Dev nD) → Buf (Elt F) ((c : Thread nD τ).loc main_v649)
  o19 : Valuation τ sig (Elt F) → (c : Dev nD) → Buf (Elt F) ((c : Thread nD τ).loc main_v652)
  o20 : Valuation τ sig (Elt F) → (c : Dev nD) → Buf (Elt F) ((c : Thread nD τ).loc main_v718)
  o21 : Valuation τ sig (Elt F) → (c : Dev nD) → Buf (Elt F) ((c : Thread nD τ).loc main_v721)
  o22 : Valuation τ sig (Elt F) → (c : Dev nD) → Buf (Elt F) ((c : Thread nD τ).loc main_v787)
  o23 : Valuation τ sig (Elt F) → (c : Dev nD) → Buf (Elt F) ((c : Thread nD τ).loc main_v790)

/-- The same as a family over the region number. -/
noncomputable def OutFns.at (g : OutFns F) :
    (i : Fin 24) → Valuation τ sig (Elt F) → (c : Dev nD) → Buf (Elt F) ((c : Thread nD τ).loc (regR i))
  | ⟨0, _⟩ => g.o0
  | ⟨1, _⟩ => g.o1
  | ⟨2, _⟩ => g.o2
  | ⟨3, _⟩ => g.o3
  | ⟨4, _⟩ => g.o4
  | ⟨5, _⟩ => g.o5
  | ⟨6, _⟩ => g.o6
  | ⟨7, _⟩ => g.o7
  | ⟨8, _⟩ => g.o8
  | ⟨9, _⟩ => g.o9
  | ⟨10, _⟩ => g.o10
  | ⟨11, _⟩ => g.o11
  | ⟨12, _⟩ => g.o12
  | ⟨13, _⟩ => g.o13
  | ⟨14, _⟩ => g.o14
  | ⟨15, _⟩ => g.o15
  | ⟨16, _⟩ => g.o16
  | ⟨17, _⟩ => g.o17
  | ⟨18, _⟩ => g.o18
  | ⟨19, _⟩ => g.o19
  | ⟨20, _⟩ => g.o20
  | ⟨21, _⟩ => g.o21
  | ⟨22, _⟩ => g.o22
  | ⟨23, _⟩ => g.o23
  | ⟨_ + 24, h⟩ => absurd h (Nat.not_lt.2 (Nat.le_add_left _ _))

variable (m : (ℓ : Loc nD τ sig) → Buf (Elt F) ℓ)

/-- The valuation region K is entered at, over a family `o` of region results. -/
noncomputable def entryV (i : Fin 24) (o : Outs (F := F)) (c : Dev nD) : Valuation τ sig (Elt F) :=
  match i with
  | ⟨0, _⟩ => V4 m c
  | ⟨1, _⟩ => V6 m o c
  | ⟨2, _⟩ => V15 m o c
  | ⟨3, _⟩ => V17 m o c
  | ⟨4, _⟩ => V26 m o c
  | ⟨5, _⟩ => V28 m o c
  | ⟨6, _⟩ => V37 m o c
  | ⟨7, _⟩ => V39 m o c
  | ⟨8, _⟩ => V48 m o c
  | ⟨9, _⟩ => V50 m o c
  | ⟨10, _⟩ => V59 m o c
  | ⟨11, _⟩ => V61 m o c
  | ⟨12, _⟩ => V70 m o c
  | ⟨13, _⟩ => V72 m o c
  | ⟨14, _⟩ => V81 m o c
  | ⟨15, _⟩ => V83 m o c
  | ⟨16, _⟩ => V92 m o c
  | ⟨17, _⟩ => V94 m o c
  | ⟨18, _⟩ => V103 m o c
  | ⟨19, _⟩ => V105 m o c
  | ⟨20, _⟩ => V114 m o c
  | ⟨21, _⟩ => V116 m o c
  | ⟨22, _⟩ => V125 m o c
  | ⟨23, _⟩ => V127 m o c
  | ⟨_ + 24, h⟩ => absurd h (Nat.not_lt.2 (Nat.le_add_left _ _))

/-! ## An entry valuation reads the earlier regions only -/

theorem entry_congr0 (o o' : Outs (F := F)) (c : Dev nD) : V4 m c = V4 m c := Eq.refl _

theorem entry_congr1 (o o' : Outs (F := F)) (c : Dev nD)
    (h0 : o 5 main_v19 c = o' 5 main_v19 c) :
    V6 m o c = V6 m o' c :=
  congrArg (StableHlo.after hostOps1) (update_congr main_v19 c (entry_congr0 m o o' c) h0)

theorem entry_congr2 (o o' : Outs (F := F)) (c : Dev nD)
    (h0 : o 5 main_v19 c = o' 5 main_v19 c) (h1 : o 7 main_v22 c = o' 7 main_v22 c) :
    V15 m o c = V15 m o' c :=
  congrArg (StableHlo.after hostOps2_7) (congrArg (StableHlo.after hostOps2_6) (congrArg (StableHlo.after hostOps2_5) (congrArg (StableHlo.after hostOps2_4) (congrArg (StableHlo.after hostOps2_3) (congrArg (StableHlo.after hostOps2_2) (congrArg (StableHlo.after hostOps2_1) (congrArg (StableHlo.after hostOps2) (update_congr main_v22 c (entry_congr1 m o o' c h0) h1))))))))

theorem entry_congr3 (o o' : Outs (F := F)) (c : Dev nD)
    (h0 : o 5 main_v19 c = o' 5 main_v19 c) (h1 : o 7 main_v22 c = o' 7 main_v22 c) (h2 : o 16 main_v88 c = o' 16 main_v88 c) :
    V17 m o c = V17 m o' c :=
  congrArg (StableHlo.after hostOps3) (update_congr main_v88 c (entry_congr2 m o o' c h0 h1) h2)

theorem entry_congr4 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) :
    V26 m o c = V26 m o' c :=
  congrArg (StableHlo.after hostOps4_7) (congrArg (StableHlo.after hostOps4_6) (congrArg (StableHlo.after hostOps4_5) (congrArg (StableHlo.after hostOps4_4) (congrArg (StableHlo.after hostOps4_3) (congrArg (StableHlo.after hostOps4_2) (congrArg (StableHlo.after hostOps4_1) (congrArg (StableHlo.after hostOps4) (update_congr main_v91 c (entry_congr3 m o o' c h0 h1 h2) h3))))))))

theorem entry_congr5 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) :
    V28 m o c = V28 m o' c :=
  congrArg (StableHlo.after hostOps5) (update_congr main_v157 c (entry_congr4 m o o' c h0 h1 h2 h3) h4)

theorem entry_congr6 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) :
    V37 m o c = V37 m o' c :=
  congrArg (StableHlo.after hostOps6_7) (congrArg (StableHlo.after hostOps6_6) (congrArg (StableHlo.after hostOps6_5) (congrArg (StableHlo.after hostOps6_4) (congrArg (StableHlo.after hostOps6_3) (congrArg (StableHlo.after hostOps6_2) (congrArg (StableHlo.after hostOps6_1) (congrArg (StableHlo.after hostOps6) (update_congr main_v160 c (entry_congr5 m o o' c h0 h1 h2 h3 h4) h5))))))))

theorem entry_congr7 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) :
    V39 m o c = V39 m o' c :=
  congrArg (StableHlo.after hostOps7) (update_congr main_v229 c (entry_congr6 m o o' c h0 h1 h2 h3 h4 h5) h6)

theorem entry_congr8 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) :
    V48 m o c = V48 m o' c :=
  congrArg (StableHlo.after hostOps8_7) (congrArg (StableHlo.after hostOps8_6) (congrArg (StableHlo.after hostOps8_5) (congrArg (StableHlo.after hostOps8_4) (congrArg (StableHlo.after hostOps8_3) (congrArg (StableHlo.after hostOps8_2) (congrArg (StableHlo.after hostOps8_1) (congrArg (StableHlo.after hostOps8) (update_congr main_v232 c (entry_congr7 m o o' c h0 h1 h2 h3 h4 h5 h6) h7))))))))

theorem entry_congr9 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) :
    V50 m o c = V50 m o' c :=
  congrArg (StableHlo.after hostOps9) (update_congr main_v298 c (entry_congr8 m o o' c h0 h1 h2 h3 h4 h5 h6 h7) h8)

theorem entry_congr10 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) :
    V59 m o c = V59 m o' c :=
  congrArg (StableHlo.after hostOps10_7) (congrArg (StableHlo.after hostOps10_6) (congrArg (StableHlo.after hostOps10_5) (congrArg (StableHlo.after hostOps10_4) (congrArg (StableHlo.after hostOps10_3) (congrArg (StableHlo.after hostOps10_2) (congrArg (StableHlo.after hostOps10_1) (congrArg (StableHlo.after hostOps10) (update_congr main_v301 c (entry_congr9 m o o' c h0 h1 h2 h3 h4 h5 h6 h7 h8) h9))))))))

theorem entry_congr11 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) :
    V61 m o c = V61 m o' c :=
  congrArg (StableHlo.after hostOps11) (update_congr main_v367 c (entry_congr10 m o o' c h0 h1 h2 h3 h4 h5 h6 h7 h8 h9) h10)

theorem entry_congr12 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) :
    V70 m o c = V70 m o' c :=
  congrArg (StableHlo.after hostOps12_7) (congrArg (StableHlo.after hostOps12_6) (congrArg (StableHlo.after hostOps12_5) (congrArg (StableHlo.after hostOps12_4) (congrArg (StableHlo.after hostOps12_3) (congrArg (StableHlo.after hostOps12_2) (congrArg (StableHlo.after hostOps12_1) (congrArg (StableHlo.after hostOps12) (update_congr main_v370 c (entry_congr11 m o o' c h0 h1 h2 h3 h4 h5 h6 h7 h8 h9 h10) h11))))))))

theorem entry_congr13 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) :
    V72 m o c = V72 m o' c :=
  congrArg (StableHlo.after hostOps13) (update_congr main_v439 c (entry_congr12 m o o' c h0 h1 h2 h3 h4 h5 h6 h7 h8 h9 h10 h11) h12)

theorem entry_congr14 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) :
    V81 m o c = V81 m o' c :=
  congrArg (StableHlo.after hostOps14_7) (congrArg (StableHlo.after hostOps14_6) (congrArg (StableHlo.after hostOps14_5) (congrArg (StableHlo.after hostOps14_4) (congrArg (StableHlo.after hostOps14_3) (congrArg (StableHlo.after hostOps14_2) (congrArg (StableHlo.after hostOps14_1) (congrArg (StableHlo.after hostOps14) (update_congr main_v442 c (entry_congr13 m o o' c h0 h1 h2 h3 h4 h5 h6 h7 h8 h9 h10 h11 h12) h13))))))))

theorem entry_congr15 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) :
    V83 m o c = V83 m o' c :=
  congrArg (StableHlo.after hostOps15) (update_congr main_v508 c (entry_congr14 m o o' c h0 h1 h2 h3 h4 h5 h6 h7 h8 h9 h10 h11 h12 h13) h14)

theorem entry_congr16 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) (h15 : o 84 main_v511 c = o' 84 main_v511 c) :
    V92 m o c = V92 m o' c :=
  congrArg (StableHlo.after hostOps16_7) (congrArg (StableHlo.after hostOps16_6) (congrArg (StableHlo.after hostOps16_5) (congrArg (StableHlo.after hostOps16_4) (congrArg (StableHlo.after hostOps16_3) (congrArg (StableHlo.after hostOps16_2) (congrArg (StableHlo.after hostOps16_1) (congrArg (StableHlo.after hostOps16) (update_congr main_v511 c (entry_congr15 m o o' c h0 h1 h2 h3 h4 h5 h6 h7 h8 h9 h10 h11 h12 h13 h14) h15))))))))

theorem entry_congr17 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) (h15 : o 84 main_v511 c = o' 84 main_v511 c) (h16 : o 93 main_v577 c = o' 93 main_v577 c) :
    V94 m o c = V94 m o' c :=
  congrArg (StableHlo.after hostOps17) (update_congr main_v577 c (entry_congr16 m o o' c h0 h1 h2 h3 h4 h5 h6 h7 h8 h9 h10 h11 h12 h13 h14 h15) h16)

theorem entry_congr18 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) (h15 : o 84 main_v511 c = o' 84 main_v511 c) (h16 : o 93 main_v577 c = o' 93 main_v577 c) (h17 : o 95 main_v580 c = o' 95 main_v580 c) :
    V103 m o c = V103 m o' c :=
  congrArg (StableHlo.after hostOps18_7) (congrArg (StableHlo.after hostOps18_6) (congrArg (StableHlo.after hostOps18_5) (congrArg (StableHlo.after hostOps18_4) (congrArg (StableHlo.after hostOps18_3) (congrArg (StableHlo.after hostOps18_2) (congrArg (StableHlo.after hostOps18_1) (congrArg (StableHlo.after hostOps18) (update_congr main_v580 c (entry_congr17 m o o' c h0 h1 h2 h3 h4 h5 h6 h7 h8 h9 h10 h11 h12 h13 h14 h15 h16) h17))))))))

theorem entry_congr19 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) (h15 : o 84 main_v511 c = o' 84 main_v511 c) (h16 : o 93 main_v577 c = o' 93 main_v577 c) (h17 : o 95 main_v580 c = o' 95 main_v580 c) (h18 : o 104 main_v649 c = o' 104 main_v649 c) :
    V105 m o c = V105 m o' c :=
  congrArg (StableHlo.after hostOps19) (update_congr main_v649 c (entry_congr18 m o o' c h0 h1 h2 h3 h4 h5 h6 h7 h8 h9 h10 h11 h12 h13 h14 h15 h16 h17) h18)

theorem entry_congr20 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) (h15 : o 84 main_v511 c = o' 84 main_v511 c) (h16 : o 93 main_v577 c = o' 93 main_v577 c) (h17 : o 95 main_v580 c = o' 95 main_v580 c) (h18 : o 104 main_v649 c = o' 104 main_v649 c) (h19 : o 106 main_v652 c = o' 106 main_v652 c) :
    V114 m o c = V114 m o' c :=
  congrArg (StableHlo.after hostOps20_7) (congrArg (StableHlo.after hostOps20_6) (congrArg (StableHlo.after hostOps20_5) (congrArg (StableHlo.after hostOps20_4) (congrArg (StableHlo.after hostOps20_3) (congrArg (StableHlo.after hostOps20_2) (congrArg (StableHlo.after hostOps20_1) (congrArg (StableHlo.after hostOps20) (update_congr main_v652 c (entry_congr19 m o o' c h0 h1 h2 h3 h4 h5 h6 h7 h8 h9 h10 h11 h12 h13 h14 h15 h16 h17 h18) h19))))))))

theorem entry_congr21 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) (h15 : o 84 main_v511 c = o' 84 main_v511 c) (h16 : o 93 main_v577 c = o' 93 main_v577 c) (h17 : o 95 main_v580 c = o' 95 main_v580 c) (h18 : o 104 main_v649 c = o' 104 main_v649 c) (h19 : o 106 main_v652 c = o' 106 main_v652 c) (h20 : o 115 main_v718 c = o' 115 main_v718 c) :
    V116 m o c = V116 m o' c :=
  congrArg (StableHlo.after hostOps21) (update_congr main_v718 c (entry_congr20 m o o' c h0 h1 h2 h3 h4 h5 h6 h7 h8 h9 h10 h11 h12 h13 h14 h15 h16 h17 h18 h19) h20)

theorem entry_congr22 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) (h15 : o 84 main_v511 c = o' 84 main_v511 c) (h16 : o 93 main_v577 c = o' 93 main_v577 c) (h17 : o 95 main_v580 c = o' 95 main_v580 c) (h18 : o 104 main_v649 c = o' 104 main_v649 c) (h19 : o 106 main_v652 c = o' 106 main_v652 c) (h20 : o 115 main_v718 c = o' 115 main_v718 c) (h21 : o 117 main_v721 c = o' 117 main_v721 c) :
    V125 m o c = V125 m o' c :=
  congrArg (StableHlo.after hostOps22_7) (congrArg (StableHlo.after hostOps22_6) (congrArg (StableHlo.after hostOps22_5) (congrArg (StableHlo.after hostOps22_4) (congrArg (StableHlo.after hostOps22_3) (congrArg (StableHlo.after hostOps22_2) (congrArg (StableHlo.after hostOps22_1) (congrArg (StableHlo.after hostOps22) (update_congr main_v721 c (entry_congr21 m o o' c h0 h1 h2 h3 h4 h5 h6 h7 h8 h9 h10 h11 h12 h13 h14 h15 h16 h17 h18 h19 h20) h21))))))))

theorem entry_congr23 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) (h15 : o 84 main_v511 c = o' 84 main_v511 c) (h16 : o 93 main_v577 c = o' 93 main_v577 c) (h17 : o 95 main_v580 c = o' 95 main_v580 c) (h18 : o 104 main_v649 c = o' 104 main_v649 c) (h19 : o 106 main_v652 c = o' 106 main_v652 c) (h20 : o 115 main_v718 c = o' 115 main_v718 c) (h21 : o 117 main_v721 c = o' 117 main_v721 c) (h22 : o 126 main_v787 c = o' 126 main_v787 c) :
    V127 m o c = V127 m o' c :=
  congrArg (StableHlo.after hostOps23) (update_congr main_v787 c (entry_congr22 m o o' c h0 h1 h2 h3 h4 h5 h6 h7 h8 h9 h10 h11 h12 h13 h14 h15 h16 h17 h18 h19 h20 h21) h22)

theorem entry_local (i : Fin 24) (o o' : Outs (F := F)) (c : Dev nD)
    (h : ∀ j : Fin 24, j.val < i.val → o (regJ j) (regR j) c = o' (regJ j) (regR j) c) :
    entryV m i o c = entryV m i o' c :=
  match i, h with
  | ⟨0, _⟩, h => entry_congr0 m o o' c
  | ⟨1, _⟩, h => entry_congr1 m o o' c (h 0 (show (0 : Fin 24).val < 1 from by decide))
  | ⟨2, _⟩, h => entry_congr2 m o o' c (h 0 (show (0 : Fin 24).val < 2 from by decide)) (h 1 (show (1 : Fin 24).val < 2 from by decide))
  | ⟨3, _⟩, h => entry_congr3 m o o' c (h 0 (show (0 : Fin 24).val < 3 from by decide)) (h 1 (show (1 : Fin 24).val < 3 from by decide)) (h 2 (show (2 : Fin 24).val < 3 from by decide))
  | ⟨4, _⟩, h => entry_congr4 m o o' c (h 0 (show (0 : Fin 24).val < 4 from by decide)) (h 1 (show (1 : Fin 24).val < 4 from by decide)) (h 2 (show (2 : Fin 24).val < 4 from by decide)) (h 3 (show (3 : Fin 24).val < 4 from by decide))
  | ⟨5, _⟩, h => entry_congr5 m o o' c (h 0 (show (0 : Fin 24).val < 5 from by decide)) (h 1 (show (1 : Fin 24).val < 5 from by decide)) (h 2 (show (2 : Fin 24).val < 5 from by decide)) (h 3 (show (3 : Fin 24).val < 5 from by decide)) (h 4 (show (4 : Fin 24).val < 5 from by decide))
  | ⟨6, _⟩, h => entry_congr6 m o o' c (h 0 (show (0 : Fin 24).val < 6 from by decide)) (h 1 (show (1 : Fin 24).val < 6 from by decide)) (h 2 (show (2 : Fin 24).val < 6 from by decide)) (h 3 (show (3 : Fin 24).val < 6 from by decide)) (h 4 (show (4 : Fin 24).val < 6 from by decide)) (h 5 (show (5 : Fin 24).val < 6 from by decide))
  | ⟨7, _⟩, h => entry_congr7 m o o' c (h 0 (show (0 : Fin 24).val < 7 from by decide)) (h 1 (show (1 : Fin 24).val < 7 from by decide)) (h 2 (show (2 : Fin 24).val < 7 from by decide)) (h 3 (show (3 : Fin 24).val < 7 from by decide)) (h 4 (show (4 : Fin 24).val < 7 from by decide)) (h 5 (show (5 : Fin 24).val < 7 from by decide)) (h 6 (show (6 : Fin 24).val < 7 from by decide))
  | ⟨8, _⟩, h => entry_congr8 m o o' c (h 0 (show (0 : Fin 24).val < 8 from by decide)) (h 1 (show (1 : Fin 24).val < 8 from by decide)) (h 2 (show (2 : Fin 24).val < 8 from by decide)) (h 3 (show (3 : Fin 24).val < 8 from by decide)) (h 4 (show (4 : Fin 24).val < 8 from by decide)) (h 5 (show (5 : Fin 24).val < 8 from by decide)) (h 6 (show (6 : Fin 24).val < 8 from by decide)) (h 7 (show (7 : Fin 24).val < 8 from by decide))
  | ⟨9, _⟩, h => entry_congr9 m o o' c (h 0 (show (0 : Fin 24).val < 9 from by decide)) (h 1 (show (1 : Fin 24).val < 9 from by decide)) (h 2 (show (2 : Fin 24).val < 9 from by decide)) (h 3 (show (3 : Fin 24).val < 9 from by decide)) (h 4 (show (4 : Fin 24).val < 9 from by decide)) (h 5 (show (5 : Fin 24).val < 9 from by decide)) (h 6 (show (6 : Fin 24).val < 9 from by decide)) (h 7 (show (7 : Fin 24).val < 9 from by decide)) (h 8 (show (8 : Fin 24).val < 9 from by decide))
  | ⟨10, _⟩, h => entry_congr10 m o o' c (h 0 (show (0 : Fin 24).val < 10 from by decide)) (h 1 (show (1 : Fin 24).val < 10 from by decide)) (h 2 (show (2 : Fin 24).val < 10 from by decide)) (h 3 (show (3 : Fin 24).val < 10 from by decide)) (h 4 (show (4 : Fin 24).val < 10 from by decide)) (h 5 (show (5 : Fin 24).val < 10 from by decide)) (h 6 (show (6 : Fin 24).val < 10 from by decide)) (h 7 (show (7 : Fin 24).val < 10 from by decide)) (h 8 (show (8 : Fin 24).val < 10 from by decide)) (h 9 (show (9 : Fin 24).val < 10 from by decide))
  | ⟨11, _⟩, h => entry_congr11 m o o' c (h 0 (show (0 : Fin 24).val < 11 from by decide)) (h 1 (show (1 : Fin 24).val < 11 from by decide)) (h 2 (show (2 : Fin 24).val < 11 from by decide)) (h 3 (show (3 : Fin 24).val < 11 from by decide)) (h 4 (show (4 : Fin 24).val < 11 from by decide)) (h 5 (show (5 : Fin 24).val < 11 from by decide)) (h 6 (show (6 : Fin 24).val < 11 from by decide)) (h 7 (show (7 : Fin 24).val < 11 from by decide)) (h 8 (show (8 : Fin 24).val < 11 from by decide)) (h 9 (show (9 : Fin 24).val < 11 from by decide)) (h 10 (show (10 : Fin 24).val < 11 from by decide))
  | ⟨12, _⟩, h => entry_congr12 m o o' c (h 0 (show (0 : Fin 24).val < 12 from by decide)) (h 1 (show (1 : Fin 24).val < 12 from by decide)) (h 2 (show (2 : Fin 24).val < 12 from by decide)) (h 3 (show (3 : Fin 24).val < 12 from by decide)) (h 4 (show (4 : Fin 24).val < 12 from by decide)) (h 5 (show (5 : Fin 24).val < 12 from by decide)) (h 6 (show (6 : Fin 24).val < 12 from by decide)) (h 7 (show (7 : Fin 24).val < 12 from by decide)) (h 8 (show (8 : Fin 24).val < 12 from by decide)) (h 9 (show (9 : Fin 24).val < 12 from by decide)) (h 10 (show (10 : Fin 24).val < 12 from by decide)) (h 11 (show (11 : Fin 24).val < 12 from by decide))
  | ⟨13, _⟩, h => entry_congr13 m o o' c (h 0 (show (0 : Fin 24).val < 13 from by decide)) (h 1 (show (1 : Fin 24).val < 13 from by decide)) (h 2 (show (2 : Fin 24).val < 13 from by decide)) (h 3 (show (3 : Fin 24).val < 13 from by decide)) (h 4 (show (4 : Fin 24).val < 13 from by decide)) (h 5 (show (5 : Fin 24).val < 13 from by decide)) (h 6 (show (6 : Fin 24).val < 13 from by decide)) (h 7 (show (7 : Fin 24).val < 13 from by decide)) (h 8 (show (8 : Fin 24).val < 13 from by decide)) (h 9 (show (9 : Fin 24).val < 13 from by decide)) (h 10 (show (10 : Fin 24).val < 13 from by decide)) (h 11 (show (11 : Fin 24).val < 13 from by decide)) (h 12 (show (12 : Fin 24).val < 13 from by decide))
  | ⟨14, _⟩, h => entry_congr14 m o o' c (h 0 (show (0 : Fin 24).val < 14 from by decide)) (h 1 (show (1 : Fin 24).val < 14 from by decide)) (h 2 (show (2 : Fin 24).val < 14 from by decide)) (h 3 (show (3 : Fin 24).val < 14 from by decide)) (h 4 (show (4 : Fin 24).val < 14 from by decide)) (h 5 (show (5 : Fin 24).val < 14 from by decide)) (h 6 (show (6 : Fin 24).val < 14 from by decide)) (h 7 (show (7 : Fin 24).val < 14 from by decide)) (h 8 (show (8 : Fin 24).val < 14 from by decide)) (h 9 (show (9 : Fin 24).val < 14 from by decide)) (h 10 (show (10 : Fin 24).val < 14 from by decide)) (h 11 (show (11 : Fin 24).val < 14 from by decide)) (h 12 (show (12 : Fin 24).val < 14 from by decide)) (h 13 (show (13 : Fin 24).val < 14 from by decide))
  | ⟨15, _⟩, h => entry_congr15 m o o' c (h 0 (show (0 : Fin 24).val < 15 from by decide)) (h 1 (show (1 : Fin 24).val < 15 from by decide)) (h 2 (show (2 : Fin 24).val < 15 from by decide)) (h 3 (show (3 : Fin 24).val < 15 from by decide)) (h 4 (show (4 : Fin 24).val < 15 from by decide)) (h 5 (show (5 : Fin 24).val < 15 from by decide)) (h 6 (show (6 : Fin 24).val < 15 from by decide)) (h 7 (show (7 : Fin 24).val < 15 from by decide)) (h 8 (show (8 : Fin 24).val < 15 from by decide)) (h 9 (show (9 : Fin 24).val < 15 from by decide)) (h 10 (show (10 : Fin 24).val < 15 from by decide)) (h 11 (show (11 : Fin 24).val < 15 from by decide)) (h 12 (show (12 : Fin 24).val < 15 from by decide)) (h 13 (show (13 : Fin 24).val < 15 from by decide)) (h 14 (show (14 : Fin 24).val < 15 from by decide))
  | ⟨16, _⟩, h => entry_congr16 m o o' c (h 0 (show (0 : Fin 24).val < 16 from by decide)) (h 1 (show (1 : Fin 24).val < 16 from by decide)) (h 2 (show (2 : Fin 24).val < 16 from by decide)) (h 3 (show (3 : Fin 24).val < 16 from by decide)) (h 4 (show (4 : Fin 24).val < 16 from by decide)) (h 5 (show (5 : Fin 24).val < 16 from by decide)) (h 6 (show (6 : Fin 24).val < 16 from by decide)) (h 7 (show (7 : Fin 24).val < 16 from by decide)) (h 8 (show (8 : Fin 24).val < 16 from by decide)) (h 9 (show (9 : Fin 24).val < 16 from by decide)) (h 10 (show (10 : Fin 24).val < 16 from by decide)) (h 11 (show (11 : Fin 24).val < 16 from by decide)) (h 12 (show (12 : Fin 24).val < 16 from by decide)) (h 13 (show (13 : Fin 24).val < 16 from by decide)) (h 14 (show (14 : Fin 24).val < 16 from by decide)) (h 15 (show (15 : Fin 24).val < 16 from by decide))
  | ⟨17, _⟩, h => entry_congr17 m o o' c (h 0 (show (0 : Fin 24).val < 17 from by decide)) (h 1 (show (1 : Fin 24).val < 17 from by decide)) (h 2 (show (2 : Fin 24).val < 17 from by decide)) (h 3 (show (3 : Fin 24).val < 17 from by decide)) (h 4 (show (4 : Fin 24).val < 17 from by decide)) (h 5 (show (5 : Fin 24).val < 17 from by decide)) (h 6 (show (6 : Fin 24).val < 17 from by decide)) (h 7 (show (7 : Fin 24).val < 17 from by decide)) (h 8 (show (8 : Fin 24).val < 17 from by decide)) (h 9 (show (9 : Fin 24).val < 17 from by decide)) (h 10 (show (10 : Fin 24).val < 17 from by decide)) (h 11 (show (11 : Fin 24).val < 17 from by decide)) (h 12 (show (12 : Fin 24).val < 17 from by decide)) (h 13 (show (13 : Fin 24).val < 17 from by decide)) (h 14 (show (14 : Fin 24).val < 17 from by decide)) (h 15 (show (15 : Fin 24).val < 17 from by decide)) (h 16 (show (16 : Fin 24).val < 17 from by decide))
  | ⟨18, _⟩, h => entry_congr18 m o o' c (h 0 (show (0 : Fin 24).val < 18 from by decide)) (h 1 (show (1 : Fin 24).val < 18 from by decide)) (h 2 (show (2 : Fin 24).val < 18 from by decide)) (h 3 (show (3 : Fin 24).val < 18 from by decide)) (h 4 (show (4 : Fin 24).val < 18 from by decide)) (h 5 (show (5 : Fin 24).val < 18 from by decide)) (h 6 (show (6 : Fin 24).val < 18 from by decide)) (h 7 (show (7 : Fin 24).val < 18 from by decide)) (h 8 (show (8 : Fin 24).val < 18 from by decide)) (h 9 (show (9 : Fin 24).val < 18 from by decide)) (h 10 (show (10 : Fin 24).val < 18 from by decide)) (h 11 (show (11 : Fin 24).val < 18 from by decide)) (h 12 (show (12 : Fin 24).val < 18 from by decide)) (h 13 (show (13 : Fin 24).val < 18 from by decide)) (h 14 (show (14 : Fin 24).val < 18 from by decide)) (h 15 (show (15 : Fin 24).val < 18 from by decide)) (h 16 (show (16 : Fin 24).val < 18 from by decide)) (h 17 (show (17 : Fin 24).val < 18 from by decide))
  | ⟨19, _⟩, h => entry_congr19 m o o' c (h 0 (show (0 : Fin 24).val < 19 from by decide)) (h 1 (show (1 : Fin 24).val < 19 from by decide)) (h 2 (show (2 : Fin 24).val < 19 from by decide)) (h 3 (show (3 : Fin 24).val < 19 from by decide)) (h 4 (show (4 : Fin 24).val < 19 from by decide)) (h 5 (show (5 : Fin 24).val < 19 from by decide)) (h 6 (show (6 : Fin 24).val < 19 from by decide)) (h 7 (show (7 : Fin 24).val < 19 from by decide)) (h 8 (show (8 : Fin 24).val < 19 from by decide)) (h 9 (show (9 : Fin 24).val < 19 from by decide)) (h 10 (show (10 : Fin 24).val < 19 from by decide)) (h 11 (show (11 : Fin 24).val < 19 from by decide)) (h 12 (show (12 : Fin 24).val < 19 from by decide)) (h 13 (show (13 : Fin 24).val < 19 from by decide)) (h 14 (show (14 : Fin 24).val < 19 from by decide)) (h 15 (show (15 : Fin 24).val < 19 from by decide)) (h 16 (show (16 : Fin 24).val < 19 from by decide)) (h 17 (show (17 : Fin 24).val < 19 from by decide)) (h 18 (show (18 : Fin 24).val < 19 from by decide))
  | ⟨20, _⟩, h => entry_congr20 m o o' c (h 0 (show (0 : Fin 24).val < 20 from by decide)) (h 1 (show (1 : Fin 24).val < 20 from by decide)) (h 2 (show (2 : Fin 24).val < 20 from by decide)) (h 3 (show (3 : Fin 24).val < 20 from by decide)) (h 4 (show (4 : Fin 24).val < 20 from by decide)) (h 5 (show (5 : Fin 24).val < 20 from by decide)) (h 6 (show (6 : Fin 24).val < 20 from by decide)) (h 7 (show (7 : Fin 24).val < 20 from by decide)) (h 8 (show (8 : Fin 24).val < 20 from by decide)) (h 9 (show (9 : Fin 24).val < 20 from by decide)) (h 10 (show (10 : Fin 24).val < 20 from by decide)) (h 11 (show (11 : Fin 24).val < 20 from by decide)) (h 12 (show (12 : Fin 24).val < 20 from by decide)) (h 13 (show (13 : Fin 24).val < 20 from by decide)) (h 14 (show (14 : Fin 24).val < 20 from by decide)) (h 15 (show (15 : Fin 24).val < 20 from by decide)) (h 16 (show (16 : Fin 24).val < 20 from by decide)) (h 17 (show (17 : Fin 24).val < 20 from by decide)) (h 18 (show (18 : Fin 24).val < 20 from by decide)) (h 19 (show (19 : Fin 24).val < 20 from by decide))
  | ⟨21, _⟩, h => entry_congr21 m o o' c (h 0 (show (0 : Fin 24).val < 21 from by decide)) (h 1 (show (1 : Fin 24).val < 21 from by decide)) (h 2 (show (2 : Fin 24).val < 21 from by decide)) (h 3 (show (3 : Fin 24).val < 21 from by decide)) (h 4 (show (4 : Fin 24).val < 21 from by decide)) (h 5 (show (5 : Fin 24).val < 21 from by decide)) (h 6 (show (6 : Fin 24).val < 21 from by decide)) (h 7 (show (7 : Fin 24).val < 21 from by decide)) (h 8 (show (8 : Fin 24).val < 21 from by decide)) (h 9 (show (9 : Fin 24).val < 21 from by decide)) (h 10 (show (10 : Fin 24).val < 21 from by decide)) (h 11 (show (11 : Fin 24).val < 21 from by decide)) (h 12 (show (12 : Fin 24).val < 21 from by decide)) (h 13 (show (13 : Fin 24).val < 21 from by decide)) (h 14 (show (14 : Fin 24).val < 21 from by decide)) (h 15 (show (15 : Fin 24).val < 21 from by decide)) (h 16 (show (16 : Fin 24).val < 21 from by decide)) (h 17 (show (17 : Fin 24).val < 21 from by decide)) (h 18 (show (18 : Fin 24).val < 21 from by decide)) (h 19 (show (19 : Fin 24).val < 21 from by decide)) (h 20 (show (20 : Fin 24).val < 21 from by decide))
  | ⟨22, _⟩, h => entry_congr22 m o o' c (h 0 (show (0 : Fin 24).val < 22 from by decide)) (h 1 (show (1 : Fin 24).val < 22 from by decide)) (h 2 (show (2 : Fin 24).val < 22 from by decide)) (h 3 (show (3 : Fin 24).val < 22 from by decide)) (h 4 (show (4 : Fin 24).val < 22 from by decide)) (h 5 (show (5 : Fin 24).val < 22 from by decide)) (h 6 (show (6 : Fin 24).val < 22 from by decide)) (h 7 (show (7 : Fin 24).val < 22 from by decide)) (h 8 (show (8 : Fin 24).val < 22 from by decide)) (h 9 (show (9 : Fin 24).val < 22 from by decide)) (h 10 (show (10 : Fin 24).val < 22 from by decide)) (h 11 (show (11 : Fin 24).val < 22 from by decide)) (h 12 (show (12 : Fin 24).val < 22 from by decide)) (h 13 (show (13 : Fin 24).val < 22 from by decide)) (h 14 (show (14 : Fin 24).val < 22 from by decide)) (h 15 (show (15 : Fin 24).val < 22 from by decide)) (h 16 (show (16 : Fin 24).val < 22 from by decide)) (h 17 (show (17 : Fin 24).val < 22 from by decide)) (h 18 (show (18 : Fin 24).val < 22 from by decide)) (h 19 (show (19 : Fin 24).val < 22 from by decide)) (h 20 (show (20 : Fin 24).val < 22 from by decide)) (h 21 (show (21 : Fin 24).val < 22 from by decide))
  | ⟨23, _⟩, h => entry_congr23 m o o' c (h 0 (show (0 : Fin 24).val < 23 from by decide)) (h 1 (show (1 : Fin 24).val < 23 from by decide)) (h 2 (show (2 : Fin 24).val < 23 from by decide)) (h 3 (show (3 : Fin 24).val < 23 from by decide)) (h 4 (show (4 : Fin 24).val < 23 from by decide)) (h 5 (show (5 : Fin 24).val < 23 from by decide)) (h 6 (show (6 : Fin 24).val < 23 from by decide)) (h 7 (show (7 : Fin 24).val < 23 from by decide)) (h 8 (show (8 : Fin 24).val < 23 from by decide)) (h 9 (show (9 : Fin 24).val < 23 from by decide)) (h 10 (show (10 : Fin 24).val < 23 from by decide)) (h 11 (show (11 : Fin 24).val < 23 from by decide)) (h 12 (show (12 : Fin 24).val < 23 from by decide)) (h 13 (show (13 : Fin 24).val < 23 from by decide)) (h 14 (show (14 : Fin 24).val < 23 from by decide)) (h 15 (show (15 : Fin 24).val < 23 from by decide)) (h 16 (show (16 : Fin 24).val < 23 from by decide)) (h 17 (show (17 : Fin 24).val < 23 from by decide)) (h 18 (show (18 : Fin 24).val < 23 from by decide)) (h 19 (show (19 : Fin 24).val < 23 from by decide)) (h 20 (show (20 : Fin 24).val < 23 from by decide)) (h 21 (show (21 : Fin 24).val < 23 from by decide)) (h 22 (show (22 : Fin 24).val < 23 from by decide))
  | ⟨_ + 24, h'⟩, _ => absurd h' (Nat.not_lt.2 (Nat.le_add_left _ _))

/-- The regions' results as one family: each region's reference at its item holds what the region computes from its
    entry valuation; everything else reads the launch memory. -/
noncomputable def outsOf (g : OutFns F) : Outs (F := F) :=
  stage regJ regR (entryV m) g.at (fun _ x c => m ((c : Thread nD τ).loc x)) 24

/-! ## The 24 equations -/

theorem outsOf_0 (g : OutFns F) (c : Dev nD) :
    outsOf m g 5 main_v19 c = g.o0 (V4 m c) c :=
  stage_spec regJ regR (entryV m) g.at (fun _ x c => m ((c : Thread nD τ).loc x)) regJ_inj (entry_local m) (0 : Fin 24) c

theorem outsOf_1 (g : OutFns F) (c : Dev nD) :
    outsOf m g 7 main_v22 c = g.o1 (V6 m (outsOf m g) c) c :=
  stage_spec regJ regR (entryV m) g.at (fun _ x c => m ((c : Thread nD τ).loc x)) regJ_inj (entry_local m) (1 : Fin 24) c

theorem outsOf_2 (g : OutFns F) (c : Dev nD) :
    outsOf m g 16 main_v88 c = g.o2 (V15 m (outsOf m g) c) c :=
  stage_spec regJ regR (entryV m) g.at (fun _ x c => m ((c : Thread nD τ).loc x)) regJ_inj (entry_local m) (2 : Fin 24) c

theorem outsOf_3 (g : OutFns F) (c : Dev nD) :
    outsOf m g 18 main_v91 c = g.o3 (V17 m (outsOf m g) c) c :=
  stage_spec regJ regR (entryV m) g.at (fun _ x c => m ((c : Thread nD τ).loc x)) regJ_inj (entry_local m) (3 : Fin 24) c

theorem outsOf_4 (g : OutFns F) (c : Dev nD) :
    outsOf m g 27 main_v157 c = g.o4 (V26 m (outsOf m g) c) c :=
  stage_spec regJ regR (entryV m) g.at (fun _ x c => m ((c : Thread nD τ).loc x)) regJ_inj (entry_local m) (4 : Fin 24) c

theorem outsOf_5 (g : OutFns F) (c : Dev nD) :
    outsOf m g 29 main_v160 c = g.o5 (V28 m (outsOf m g) c) c :=
  stage_spec regJ regR (entryV m) g.at (fun _ x c => m ((c : Thread nD τ).loc x)) regJ_inj (entry_local m) (5 : Fin 24) c

theorem outsOf_6 (g : OutFns F) (c : Dev nD) :
    outsOf m g 38 main_v229 c = g.o6 (V37 m (outsOf m g) c) c :=
  stage_spec regJ regR (entryV m) g.at (fun _ x c => m ((c : Thread nD τ).loc x)) regJ_inj (entry_local m) (6 : Fin 24) c

theorem outsOf_7 (g : OutFns F) (c : Dev nD) :
    outsOf m g 40 main_v232 c = g.o7 (V39 m (outsOf m g) c) c :=
  stage_spec regJ regR (entryV m) g.at (fun _ x c => m ((c : Thread nD τ).loc x)) regJ_inj (entry_local m) (7 : Fin 24) c

theorem outsOf_8 (g : OutFns F) (c : Dev nD) :
    outsOf m g 49 main_v298 c = g.o8 (V48 m (outsOf m g) c) c :=
  stage_spec regJ regR (entryV m) g.at (fun _ x c => m ((c : Thread nD τ).loc x)) regJ_inj (entry_local m) (8 : Fin 24) c

theorem outsOf_9 (g : OutFns F) (c : Dev nD) :
    outsOf m g 51 main_v301 c = g.o9 (V50 m (outsOf m g) c) c :=
  stage_spec regJ regR (entryV m) g.at (fun _ x c => m ((c : Thread nD τ).loc x)) regJ_inj (entry_local m) (9 : Fin 24) c

theorem outsOf_10 (g : OutFns F) (c : Dev nD) :
    outsOf m g 60 main_v367 c = g.o10 (V59 m (outsOf m g) c) c :=
  stage_spec regJ regR (entryV m) g.at (fun _ x c => m ((c : Thread nD τ).loc x)) regJ_inj (entry_local m) (10 : Fin 24) c

theorem outsOf_11 (g : OutFns F) (c : Dev nD) :
    outsOf m g 62 main_v370 c = g.o11 (V61 m (outsOf m g) c) c :=
  stage_spec regJ regR (entryV m) g.at (fun _ x c => m ((c : Thread nD τ).loc x)) regJ_inj (entry_local m) (11 : Fin 24) c

theorem outsOf_12 (g : OutFns F) (c : Dev nD) :
    outsOf m g 71 main_v439 c = g.o12 (V70 m (outsOf m g) c) c :=
  stage_spec regJ regR (entryV m) g.at (fun _ x c => m ((c : Thread nD τ).loc x)) regJ_inj (entry_local m) (12 : Fin 24) c

theorem outsOf_13 (g : OutFns F) (c : Dev nD) :
    outsOf m g 73 main_v442 c = g.o13 (V72 m (outsOf m g) c) c :=
  stage_spec regJ regR (entryV m) g.at (fun _ x c => m ((c : Thread nD τ).loc x)) regJ_inj (entry_local m) (13 : Fin 24) c

theorem outsOf_14 (g : OutFns F) (c : Dev nD) :
    outsOf m g 82 main_v508 c = g.o14 (V81 m (outsOf m g) c) c :=
  stage_spec regJ regR (entryV m) g.at (fun _ x c => m ((c : Thread nD τ).loc x)) regJ_inj (entry_local m) (14 : Fin 24) c

theorem outsOf_15 (g : OutFns F) (c : Dev nD) :
    outsOf m g 84 main_v511 c = g.o15 (V83 m (outsOf m g) c) c :=
  stage_spec regJ regR (entryV m) g.at (fun _ x c => m ((c : Thread nD τ).loc x)) regJ_inj (entry_local m) (15 : Fin 24) c

theorem outsOf_16 (g : OutFns F) (c : Dev nD) :
    outsOf m g 93 main_v577 c = g.o16 (V92 m (outsOf m g) c) c :=
  stage_spec regJ regR (entryV m) g.at (fun _ x c => m ((c : Thread nD τ).loc x)) regJ_inj (entry_local m) (16 : Fin 24) c

theorem outsOf_17 (g : OutFns F) (c : Dev nD) :
    outsOf m g 95 main_v580 c = g.o17 (V94 m (outsOf m g) c) c :=
  stage_spec regJ regR (entryV m) g.at (fun _ x c => m ((c : Thread nD τ).loc x)) regJ_inj (entry_local m) (17 : Fin 24) c

theorem outsOf_18 (g : OutFns F) (c : Dev nD) :
    outsOf m g 104 main_v649 c = g.o18 (V103 m (outsOf m g) c) c :=
  stage_spec regJ regR (entryV m) g.at (fun _ x c => m ((c : Thread nD τ).loc x)) regJ_inj (entry_local m) (18 : Fin 24) c

theorem outsOf_19 (g : OutFns F) (c : Dev nD) :
    outsOf m g 106 main_v652 c = g.o19 (V105 m (outsOf m g) c) c :=
  stage_spec regJ regR (entryV m) g.at (fun _ x c => m ((c : Thread nD τ).loc x)) regJ_inj (entry_local m) (19 : Fin 24) c

theorem outsOf_20 (g : OutFns F) (c : Dev nD) :
    outsOf m g 115 main_v718 c = g.o20 (V114 m (outsOf m g) c) c :=
  stage_spec regJ regR (entryV m) g.at (fun _ x c => m ((c : Thread nD τ).loc x)) regJ_inj (entry_local m) (20 : Fin 24) c

theorem outsOf_21 (g : OutFns F) (c : Dev nD) :
    outsOf m g 117 main_v721 c = g.o21 (V116 m (outsOf m g) c) c :=
  stage_spec regJ regR (entryV m) g.at (fun _ x c => m ((c : Thread nD τ).loc x)) regJ_inj (entry_local m) (21 : Fin 24) c

theorem outsOf_22 (g : OutFns F) (c : Dev nD) :
    outsOf m g 126 main_v787 c = g.o22 (V125 m (outsOf m g) c) c :=
  stage_spec regJ regR (entryV m) g.at (fun _ x c => m ((c : Thread nD τ).loc x)) regJ_inj (entry_local m) (22 : Fin 24) c

theorem outsOf_23 (g : OutFns F) (c : Dev nD) :
    outsOf m g 128 main_v790 c = g.o23 (V127 m (outsOf m g) c) c :=
  stage_spec regJ regR (entryV m) g.at (fun _ x c => m ((c : Thread nD τ).loc x)) regJ_inj (entry_local m) (23 : Fin 24) c

end Cert.Kernel.Hand

end
-- ==== Proof.K_Shared.lean ====
/-
  A kernel region whose INPUT windows share arrays: the entry and exit entailments.

  A pipeline's proof data holds every window's array apart (Dat.arrays), an input window's at the share the data
  names for it, an output window's whole. Between regions a core holds each unscoped BUFFER once, whole
  (unscopedBufs, StableHlo.held). When two input windows read one buffer the two pictures differ by how the
  buffer's full share is dealt among the windows on it. This file says: if, buffer by buffer, the full share is the
  windows' shares put together (Deals), then
    * the buffers behind the windows' arrays, each whole, ARE the proof data's arrays (arrays_eq_arrBufs), at any
      contents read off one valuation of the buffers;
    * at entry the unscoped buffers at V are the arrays at the entry contents and the unscoped rest (entry_shared);
    * at exit the arrays at their final contents and the unscoped rest are the unscoped buffers at any valuation
      that agrees with the final contents on the arrays and with V elsewhere (exit_shared); for one output window
      whose array no other window is on, at V updated at that array (exit_shared_update): the input windows end
      holding what they were entered with (Dat.arrAt_in), so windows on one buffer rejoin.
  The regrouping is a fact about iterated separating conjunction alone (bigSep_fibers): a conjunction over an
  index set is the conjunction, over the values of a map, of the conjunctions over the map's fibres.
-/
import Idealize.ShloMosaic.Lib.Pipeline.Frame
import Idealize.ShloMosaic.Lib.Pipeline.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg arrRef arrBufs unscopedRest WinFacts₀)
open PCS

universe u v w

/-! ## Iterated separating conjunction, fibre by fibre -/

section BigSep

variable {M : Type u} [URA M] {I : Type v} {J : Type w} [DecidableEq I] [DecidableEq J]

/-- Over the values T of a map g, the conjunctions over the fibres of g in s make the conjunction over the
    members of s that g sends into T. -/
theorem bigSep_fibers (s : Finset I) (g : I → J) (T : Finset J) (Φ : I → sProp M) :
    bigSep T (fun j => bigSep (s.filter fun i => g i = j) Φ) = bigSep (s.filter fun i => g i ∈ T) Φ := by
  induction T using Finset.induction_on with
  | empty => simp
  | insert j T hj ih =>
    have hd : Disjoint (s.filter fun i => g i = j) (s.filter fun i => g i ∈ T) :=
      Finset.disjoint_filter.mpr fun i _ h₁ h₂ => hj (h₁ ▸ h₂)
    rw [bigSep_insert hj, ih, ← bigSep_union hd]
    congr 1
    ext i
    simp only [Finset.mem_union, Finset.mem_filter, Finset.mem_insert]
    tauto

/-- The conjunction over s is, over the values g takes on s, the conjunctions over the fibres of g. -/
theorem bigSep_image_fibers (s : Finset I) (g : I → J) (Φ : I → sProp M) :
    bigSep (s.image g) (fun j => bigSep (s.filter fun i => g i = j) Φ) = bigSep s Φ := by
  rw [bigSep_fibers]
  congr 1
  ext i
  simp only [Finset.mem_filter, Finset.mem_image]
  exact ⟨fun h => h.1, fun h => ⟨h, i, h, rfl⟩⟩

end BigSep

/-! ## The shares of the windows on one buffer -/

section Shared

variable {nD : Nat} {τ : Topo} {sig : RefSig} {Val : EltTy → Type}
variable {Ix : Type} [DecidableEq Ix] {Name : Type} [DecidableEq Name] {U : Type} [URA U] {Lvl : Type}
variable {Λ₀ : Labels} {cfg : Cfg sig Λ₀} {c : Dev nD}

local notation "𝕄" => MT nD τ sig Ix Val Name U Lvl

variable (nD τ sig Val Ix Name U Lvl) in
/-- Holding a location whole is holding it once per member of s, member i at the share σ i: the shares
    σ i, i in s, put together are the full share. -/
def DealsOn {I : Type} (s : Finset I) (σ : I → PosShare TreeShare) : Prop :=
  ∀ (ℓ : Loc nD τ sig) (f : Buf Val ℓ), ((ℓ ↦{fullShare} f : sProp 𝕄)) = bigSep s fun i => (ℓ ↦{σ i} f : sProp 𝕄)

/-- One holder, at the full share. -/
theorem DealsOn.one {I : Type} {s : Finset I} {σ : I → PosShare TreeShare} (i : I) (hs : s = {i}) (hσ : σ i = fullShare) :
    DealsOn nD τ sig Val Ix Name U Lvl s σ := fun ℓ f => by
  rw [hs, bigSep_singleton, hσ]

/-- Two holders whose shares compose to the full share. -/
theorem DealsOn.two {I : Type} [DecidableEq I] {s : Finset I} {σ : I → PosShare TreeShare} (i j : I) (hij : i ≠ j) (hs : s = {i, j})
    (hσ : fullShare ∈ σ i ·? σ j) :
    DealsOn nD τ sig Val Ix Name U Lvl s σ := fun ℓ f => by
  rw [hs, bigSep_insert (by simpa using hij), bigSep_singleton]
  exact BI.equiv_iff.mp ⟨(pointsTo_share hσ).1, (pointsTo_share hσ).2⟩

variable (dat : Dat τ Val Ix Name U Lvl cfg c)

/-- Buffer by buffer, the windows on it hold it whole between them: the proof data's shares of the windows whose
    array is the buffer of window w put together are the full share. An output window alone on its buffer holds it
    whole (DealsOn.one); two input windows on one buffer hold complementary shares (DealsOn.two). -/
def Deals : Prop :=
  ∀ w : Fin cfg.W, DealsOn nD τ sig Val Ix Name U Lvl
    (Finset.univ.filter fun w' : Fin cfg.W => arrRef cfg.spec w' = arrRef cfg.spec w) dat.share

/-- THE ARRAYS, SHARED OR NOT: the proof data's arrays at contents read off a valuation V of the buffers are the
    distinct buffers behind them, each whole at V. -/
theorem arrays_eq_arrBufs (harr : ∀ w, (cfg.spec w).arr.IsWhole) (hd : Deals dat)
    (V : (b : Ref sig .tc) → Buf Val ((c.tc : Thread nD τ).loc b))
    (F : (w : Fin cfg.W) → Buf Val ((cfg.win w).arr.view.loc (c.tc : Thread nD τ)))
    (hF : ∀ w, F w = V (arrRef cfg.spec w)) :
    dat.arrays F = (arrBufs cfg.spec c V : sProp 𝕄) := by
  classical
  unfold Dat.arrays arrBufs
  have h1 : (bigSep Finset.univ fun w : Fin cfg.W =>
        ((cfg.win w).arr.view.loc (c.tc : Thread nD τ) ↦[(cfg.win w).arr.view.set]{dat.share w} F w : sProp 𝕄))
      = bigSep Finset.univ fun w : Fin cfg.W =>
        (((c.tc : Thread nD τ).loc (arrRef cfg.spec w)) ↦{dat.share w} V (arrRef cfg.spec w) : sProp 𝕄) :=
    bigSep_congr fun w _ => by rw [(harr w).set_eq_univ, hF]
  rw [h1, ← bigSep_image_fibers Finset.univ (arrRef cfg.spec)]
  refine bigSep_congr fun b hb => ?_
  obtain ⟨w₀, -, rfl⟩ := Finset.mem_image.mp hb
  rw [hd w₀ _ (V (arrRef cfg.spec w₀))]
  refine bigSep_congr fun w hw => ?_
  have hw' : arrRef cfg.spec w = arrRef cfg.spec w₀ := (Finset.mem_filter.mp hw).2
  rw [hw']

/-! ## Entry and exit against the unscoped buffers held whole -/

/-- ENTRY: a core's unscoped buffers at V are the windows' arrays at the proof data's entry contents (those being
    read off V) and the unscoped rest. -/
theorem entry_shared (hw : WinFacts₀ cfg.spec) (harr : ∀ w, (cfg.spec w).arr.IsWhole) (hd : Deals dat)
    (V : (b : Ref sig .tc) → Buf Val ((c.tc : Thread nD τ).loc b)) (hA : ∀ w, dat.A w = V (arrRef cfg.spec w)) :
    (unscopedBufs c V : sProp 𝕄) = iprop(dat.arrays (dat.arrAt · 0) ∗ unscopedRest cfg.spec c V) := by
  rw [arrays_eq_arrBufs dat harr hd V (dat.arrAt · 0) hA]
  exact Pipeline.PerCore.unscopedBufs_split₀ (P := PUnit) (fun _ _ => cfg) PUnit.unit c hw.arr_unscoped V

/-- EXIT: the arrays at their final contents and the unscoped rest at V are the core's unscoped buffers at any
    valuation V' that has the arrays at those contents and agrees with V off them. -/
theorem exit_shared (hw : WinFacts₀ cfg.spec) (harr : ∀ w, (cfg.spec w).arr.IsWhole) (hd : Deals dat)
    (V V' : (b : Ref sig .tc) → Buf Val ((c.tc : Thread nD τ).loc b))
    (hN : ∀ w, dat.arrAt w cfg.N = V' (arrRef cfg.spec w))
    (hrest : ∀ b, b ∉ Finset.univ.image (arrRef cfg.spec) → V' b = V b) :
    iprop(dat.arrays (dat.arrAt · cfg.N) ∗ unscopedRest cfg.spec c V) = (unscopedBufs c V' : sProp 𝕄) := by
  have h1 := arrays_eq_arrBufs dat harr hd V' (dat.arrAt · cfg.N) hN
  have h2 : (unscopedRest cfg.spec c V : sProp 𝕄) = unscopedRest cfg.spec c V' := by
    unfold unscopedRest
    exact bigSep_congr fun b hb => by rw [hrest b (Finset.mem_sdiff.mp hb).2]
  rw [h1, h2]
  exact (Pipeline.PerCore.unscopedBufs_split₀ (P := PUnit) (fun _ _ => cfg) PUnit.unit c hw.arr_unscoped V').symm

/-- With one output window o, alone on its buffer, and every other window an input: the final contents are a
    valuation's that is V but for the output buffer, which holds what the write-backs left. Input windows end
    holding what they were entered with, so the windows on one buffer agree. -/
theorem arrAt_last_update (W : Valuation τ sig Val) (hA : ∀ w, dat.A w = W (Proc.devRef .tc (arrRef cfg.spec w)))
    (o : Fin cfg.W) (hin : ∀ w, w ≠ o → (cfg.win w).isOut = false)
    (hne : ∀ w, w ≠ o → arrRef cfg.spec w ≠ arrRef cfg.spec o) (w : Fin cfg.W) :
    dat.arrAt w cfg.N = Function.update W (Proc.devRef .tc (arrRef cfg.spec o)) (dat.arrAt o cfg.N) (Proc.devRef .tc (arrRef cfg.spec w)) := by
  by_cases h : w = o
  · subst h; rw [Function.update_self]
  · rw [Function.update_of_ne (fun e => hne w h (Proc.devRef_injective _ e)), dat.arrAt_in w (hin w h), hA]

/-- ENTRY, from the buffers held at a valuation. -/
theorem held_entry_shared (hw : WinFacts₀ cfg.spec) (harr : ∀ w, (cfg.spec w).arr.IsWhole) (hd : Deals dat)
    (W : Valuation τ sig Val) (hA : ∀ w, dat.A w = W (Proc.devRef .tc (arrRef cfg.spec w))) :
    (StableHlo.held (c.tc : Thread nD τ) (Pipeline.ucRefs τ sig) W : sProp 𝕄)
      = iprop(dat.arrays (dat.arrAt · 0) ∗ unscopedRest cfg.spec c (fun b => W b)) := by
  rw [← Pipeline.unscopedBufs_held (Ix := Ix) (Name := Name) (U := U) (Lvl := Lvl) c W]
  exact entry_shared dat hw harr hd (fun b => W b) hA

/-- EXIT, to the buffers held at the valuation updated at the one output window's buffer. -/
theorem held_exit_shared (hw : WinFacts₀ cfg.spec) (harr : ∀ w, (cfg.spec w).arr.IsWhole) (hd : Deals dat)
    (W : Valuation τ sig Val) (hA : ∀ w, dat.A w = W (Proc.devRef .tc (arrRef cfg.spec w)))
    (o : Fin cfg.W) (hin : ∀ w, w ≠ o → (cfg.win w).isOut = false)
    (hne : ∀ w, w ≠ o → arrRef cfg.spec w ≠ arrRef cfg.spec o) :
    iprop(dat.arrays (dat.arrAt · cfg.N) ∗ unscopedRest cfg.spec c (fun b => W b))
      = (StableHlo.held (c.tc : Thread nD τ) (Pipeline.ucRefs τ sig)
          (Function.update W (Proc.devRef .tc (arrRef cfg.spec o)) (dat.arrAt o cfg.N)) : sProp 𝕄) := by
  rw [← Pipeline.unscopedBufs_held (Ix := Ix) (Name := Name) (U := U) (Lvl := Lvl) c
    (Function.update W (Proc.devRef .tc (arrRef cfg.spec o)) (dat.arrAt o cfg.N))]
  refine exit_shared dat hw harr hd (fun b => W b) _ (arrAt_last_update dat W hA o hin hne) fun b hb => ?_
  exact Function.update_of_ne (fun e => hb (Finset.mem_image.mpr ⟨o, Finset.mem_univ _, (Proc.devRef_injective _ e).symm⟩)) _ _

/-! ## What rides along between regions, and a region's entry and exit in the segment record's shape -/

variable [Preorder Lvl]

/-- Beside its unscoped buffers a core holds, between two items of the host program, its generator register at some
    state and that it owes nothing (whatever its waits have recorded): the same before and after every region. -/
abbrev R (c : Dev nD) : sProp 𝕄 :=
  iprop((∃ r, prngReg c r) ∗ ∃ W, owes (c.tc : Thread nD τ) (0 : CellTallies nD τ sig Ix) W)

/-- ENTRY of a region that owes nothing, has no semaphore and no table of its own, and takes nothing but scoped
    buffers into its invariant: from the buffers held at W beside R c (and anything else, T, let go) to the arrays at
    entry, Pf (what stands for the tables: nothing), the core owing nothing, nothing for the invariant, and what
    bypasses the region: the unscoped rest and the generator register. -/
theorem hentry_shared (hw : WinFacts₀ cfg.spec) (harr : ∀ w, (cfg.spec w).arr.IsWhole) (hd : Deals dat)
    (W : Valuation τ sig Val) (hA : ∀ w, dat.A w = W (Proc.devRef .tc (arrRef cfg.spec w)))
    (ι : Ix) (howed : dat.owed 0 = 0) (hrec : dat.recorded 0 = Set.univ)
    {Pf T : sProp 𝕄} (hPf : (emp : sProp 𝕄) ⊢ Pf) :
    iprop((StableHlo.held (c.tc : Thread nD τ) (Pipeline.ucRefs τ sig) W ∗ R c) ∗ T)
      ⊢ |={Set.univ}=> iprop(dat.arrays (dat.arrAt · 0) ∗ Pf ∗ dat.owesAt ι 0 ∗ (emp : sProp 𝕄)
          ∗ (unscopedRest cfg.spec c (fun b => W b) ∗ ∃ r, prngReg c r)) := by
  rw [held_entry_shared dat hw harr hd W hA]
  unfold Pipeline.Dat.owesAt Pipeline.owesWithin
  rw [howed]
  iintro ⟨⟨⟨Ha, Hrest⟩, Hp, HO⟩, -⟩
  imodintro
  isplitl [Ha]; · iexact Ha
  isplitr; · iapply hPf; iempintro
  isplitl [HO]
  · icases HO with ⟨%S, HO⟩
    iexists S
    isplitr
    · ipureintro; unfold Pipeline.Dat.bound; rw [hrec]; exact fun _ _ => Or.inl trivial
    · iexact HO
  isplitr; · iempintro
  isplitl [Hrest]; · iexact Hrest
  iexact Hp

/-- EXIT of such a region with one output window o, alone on its buffer: the arrays at their final contents, the
    core owing nothing, whatever the invariant gave back (Y, let go) and what bypassed the region make the buffers
    held at W updated at the output buffer, beside R c. -/
theorem hexit_shared (hw : WinFacts₀ cfg.spec) (harr : ∀ w, (cfg.spec w).arr.IsWhole) (hd : Deals dat)
    (W : Valuation τ sig Val) (hA : ∀ w, dat.A w = W (Proc.devRef .tc (arrRef cfg.spec w)))
    (o : Fin cfg.W) (hin : ∀ w, w ≠ o → (cfg.win w).isOut = false)
    (hne : ∀ w, w ≠ o → arrRef cfg.spec w ≠ arrRef cfg.spec o)
    (ι : Ix) (howed : dat.owed (Fin.last cfg.N) = 0) {Y : sProp 𝕄} :
    iprop(dat.arrays (dat.arrAt · cfg.N) ∗ dat.owesAt ι (Fin.last cfg.N) ∗ Y
        ∗ (unscopedRest cfg.spec c (fun b => W b) ∗ ∃ r, prngReg c r))
      ⊢ |={Set.univ}=> iprop(StableHlo.held (c.tc : Thread nD τ) (Pipeline.ucRefs τ sig)
          (Function.update W (Proc.devRef .tc (arrRef cfg.spec o)) (dat.arrAt o cfg.N)) ∗ R c) := by
  rw [← held_exit_shared dat hw harr hd W hA o hin hne]
  unfold Pipeline.Dat.owesAt Pipeline.owesWithin
  rw [howed]
  iintro ⟨Ha, HO, -, Hrest, Hp⟩
  imodintro
  isplitl [Ha Hrest]
  · isplitl [Ha]; · iexact Ha
    iexact Hrest
  isplitl [Hp]; · iexact Hp
  icases HO with ⟨%S, -, HO⟩; iexists S; iexact HO

end Shared

end Cert.Kernel.Hand
-- ==== Proof.K_LaunchArgs.lean ====
/-
  The launch-side arguments of the conditional frame at the instantiation every module of this certificate uses: one
  copy of the rounds algebra as the user algebra, no index and no level to speak of (the regions owe nothing), no ghost
  resource beside the pipelines' launch element, nothing owed at launch, and between any two items of the host program
  the constant rest R c (Shared.lean) beside the unscoped buffers.
-/
import proofs.«169706_j68856915690108_1_alg».proof.Proof.RegionsK
import proofs.«169706_j68856915690108_1_alg».proof.Proof.K_Shared
import Idealize.ShloMosaic.Lib.Pipeline.Kit

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The pipelines' rounds copy is the whole user algebra. -/
noncomputable abbrev EP₀ : Emb (URounds (GSem nD τ sig) Unit) 𝕄 := emb₁

/-- No cell is assigned a level: the regions owe nothing, so no wait needs one. -/
abbrev L₀ : GSem nD τ sig → Finset Unit := fun _ => ∅
abbrev lv₀ : GSem nD τ sig → Unit → ℕ := fun _ _ => 0
theorem hL₀ : ∀ g : GSem nD τ sig, g.1.2 ≠ .tc → L₀ g = ∅ := fun _ _ => rfl

/-- The kernels' bodies have no loop of their own to bound. -/
abbrev 𝒱₀₀ : Variants := Variants.none

/-- Nothing is owed at launch, and no ghost resource rides beside the pipelines' launch element. -/
abbrev O₀ : Dev nD → CellTallies nD τ sig Unit := 0
noncomputable abbrev G₀ : Dev nD → sProp 𝕄 := fun _ => iprop(emp)

/-- The launch element: the pipelines' cells, each with its launch tokens. -/
noncomputable abbrev u₀ : UR sig nD τ := initOf (Pipeline.cells cfgs cellOf_inj) (Pipeline.launchToks cfgs cellOf_inj)

/-- Owning it is owning it through the embedding, beside no ghost resource on any core. -/
theorem hu₀ : (ownU (u₀) : sProp 𝕄)
    ⊢ |={Set.univ}=> iprop(BI.own ((EP₀ (F := F)) (initOf (Pipeline.cells cfgs cellOf_inj) (Pipeline.launchToks cfgs cellOf_inj)))
        ∗ bigSep Finset.univ (G₀ (F := F))) := by
  iintro Hu; imodintro
  isplitl [Hu]
  · iapply (show (ownU (initOf (Pipeline.cells cfgs cellOf_inj) (Pipeline.launchToks cfgs cellOf_inj)) : sProp 𝕄)
        ⊢ BI.own ((emb₁ : Emb (URounds (GSem nD τ sig) Unit) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Between any two items of the host program: the constant rest. -/
noncomputable abbrev E₀ : Fin 25 → Dev nD → sProp 𝕄 := fun _ c => R c

/-- The launch makes the first thread states on every core at once: each core keeps its generator register and that it
    owes nothing, and lets the rest of what it is dealt go. -/
theorem hE0 (ρ : Dev nD → PrngReg) :
    iprop((bigSep Finset.univ fun c : Dev nD => iprop(unscopedSems0 c ∗ owes (c : Thread nD τ) (O₀ c) ∅ ∗ Pipeline.launchCred O₀ c
        ∗ prngReg c (ρ c) ∗ (G₀ (F := F)) c)) ∗ levAts L₀ lv₀)
      ⊢ (|={Set.univ}=> bigSep Finset.univ ((E₀ (F := F)) 0) : sProp 𝕄) := by
  refine Pipeline.initEach L₀ lv₀ fun c => ?_
  iintro ⟨⟨-, HO, -, Hp, -⟩, -⟩
  imodintro
  isplitl [Hp]; · iexists _; iexact Hp
  iexists ∅; iexact HO

/-- The last thread state owes nothing. -/
theorem hE24 (c : Dev nD) :
    (E₀ (F := F)) 24 c ⊢ (iprop(∃ W, owes (c : Thread nD τ) (0 : CellTallies nD τ sig Unit) W) : sProp 𝕄) := by
  iintro ⟨-, HO⟩
  iexact HO

end Cert.Kernel.Hand
-- ==== Proof.K_SumLib.lean ====
/-
  Loads and stores through all of a buffer: the unit rectangle of the buffer's own sizes at zero offsets.
  A load through it reads what the buffer's view reads; a store through it, whatever was stored before, leaves its
  payload; a load after such a store reads that payload.
-/
import Idealize.ShloMosaic.Lib.Pipeline.Value

noncomputable section

namespace Cert.Kernel.Hand

open Idealize.ShloMosaic

/-! ## Whole-buffer accesses -/

/-- The zero offsets, as the program writes them. -/
theorem zeros2 : (![0, 0] : Fin 2 → ℕ) = fun _ => 0 := by
  funext a
  match a with
  | ⟨0, _⟩ => rfl
  | ⟨1, _⟩ => rfl

section Whole

variable {Val : EltTy → Type} [∀ e, Nonempty (Val e)] {sg : RefSig} {κ : Kind} {sp : Space} {S : Shape} {e : EltTy}

/-- A load through all of a view (the unit rectangle of the view's own sizes at zero offsets) reads what the view reads. -/
theorem readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]

/-- A store through all of it, the last of a run of stores over any contents, reads back as its payload. -/
theorem read_writes_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨(⟨Rect.unit off S.size inb, w⟩ : View.Piece Val S e), List.mem_cons_self, View.mem_set_unit_zero h inb y⟩),
    View.canon_cons_unit_zero h inb w L]

/-- A load through all of it after such a store reads the payload. -/
theorem readCov_whole (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨(⟨Rect.unit off S.size inb, w⟩ : View.Piece Val S e), List.mem_cons_self, View.mem_set_unit_zero h inb y⟩),
    View.canon_cons_unit_zero h inb w L, View.ld_unit_zero h inb]

end Whole

end Cert.Kernel.Hand

end
-- ==== Proof.K_Rg0.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_SumLib
import Idealize.ShloMosaic.Lib.Tactic
import proofs.«169706_j68856915690108_1_alg».proof.Proof.K_Shared
import proofs.«169706_j68856915690108_1_alg».proof.Proof.RegionsK

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k0_pay2)

  and only at the last point, 63, is that cell copied into the 1 × 1 output block, which the pipeline then writes back.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk0 (V : Valuation τ sig (Elt F)) (c : Dev nD) (w : Fin cfg0.W) (t : Fin cfg0.N) :
    ((cfg0.win w).xblock (cfg0.grid.coords t)).Idx → Elt F (cfg0.win w).elt :=
  ((cfg0.win w).blk t).view.read (Elt F)
    (V (Proc.devRef .tc (Pipeline.arrRef spec0 w)) : Buf (Elt F) ((cfg0.win w).arr.view.loc (c.tc : Thread nD τ)))

/-- One point's step on the scratch cell: the cell's contents `a` plus the sum of the tile made of the two blocks
    the point stages (the printed payload of the store into the scratch cell). -/
noncomputable def step0 (V : Valuation τ sig (Elt F)) (c : Dev nD) (n : ℕ) (hn : n < cfg0.N) (a : Vec F S1x1 .f32) : Vec F S1x1 .f32 :=
  k0_pay2 (iblk0 V c 0 ⟨n, hn⟩) (iblk0 V c 1 ⟨n, hn⟩) a

/-- What the scratch cell holds after point `n`: the steps of the points `0 … n` applied, first to last, to the
    zero the body stores at point 0. -/
noncomputable def acc0 (V : Valuation τ sig (Elt F)) (c : Dev nD) : (n : ℕ) → n < cfg0.N → Vec F S1x1 .f32
  | 0, hn => step0 V c 0 hn (k0_pay1 (F := F))
  | n + 1, hn => step0 V c (n + 1) hn (acc0 V c n (Nat.lt_of_succ_lt hn))

theorem acc0_zero (V : Valuation τ sig (Elt F)) (c : Dev nD) (hn : 0 < cfg0.N) :
    acc0 V c 0 hn = step0 V c 0 hn (k0_pay1 (F := F)) := rfl

theorem acc0_succ (V : Valuation τ sig (Elt F)) (c : Dev nD) (n : ℕ) (hn : n + 1 < cfg0.N) :
    acc0 V c (n + 1) hn = step0 V c (n + 1) hn (acc0 V c n (Nat.lt_of_succ_lt hn)) := rfl

/-- After a point that is not the first: the step of that point on what the point before left. -/
theorem acc0_pos (V : Valuation τ sig (Elt F)) (c : Dev nD) (n : ℕ) (hn : n < cfg0.N) (hz : n ≠ 0) :
    acc0 V c n hn = step0 V c n hn (acc0 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi0 (V : Valuation τ sig (Elt F)) (c : Dev nD) : (n : ℕ) → n ≤ cfg0.N → sProp 𝕄
  | 0, _ => Pipeline.scopedRest (Ix := Ix) (Name := ℕ) (U := U) (Lvl := Lvl) (Val := Elt F) spec0 c
  | n + 1, hn => iprop(owns (c : Thread nD τ) (Memref.whole cc0_scratch0) fullShare (acc0 V c n hn)
      ∗ Pipeline.scopedRestBut (Ix := Ix) (Name := ℕ) (U := U) (Lvl := Lvl) (Val := Elt F) spec0 c [cc0_scratch0])

theorem Phi0_zero (V : Valuation τ sig (Elt F)) (c : Dev nD) (n : ℕ) (h : n ≤ cfg0.N) (hz : n = 0) :
    (Phi0 V c n h : sProp 𝕄) = Pipeline.scopedRest (Ix := Ix) (Name := ℕ) (U := U) (Lvl := Lvl) (Val := Elt F) spec0 c := by
  subst hz; rfl

theorem Phi0_succ (V : Valuation τ sig (Elt F)) (c : Dev nD) (n : ℕ) (hn : n < cfg0.N) :
    (Phi0 V c (n + 1) hn : sProp 𝕄) = iprop(owns (c : Thread nD τ) (Memref.whole cc0_scratch0) fullShare (acc0 V c n hn)
      ∗ Pipeline.scopedRestBut (Ix := Ix) (Name := ℕ) (U := U) (Lvl := Lvl) (Val := Elt F) spec0 c [cc0_scratch0]) := rfl

theorem Phi0_pos (V : Valuation τ sig (Elt F)) (c : Dev nD) (n : ℕ) (h : n ≤ cfg0.N) (hz : n ≠ 0) :
    (Phi0 V c n h : sProp 𝕄) = iprop(owns (c : Thread nD τ) (Memref.whole cc0_scratch0) fullShare (acc0 V c (n - 1) (by omega))
      ∗ Pipeline.scopedRestBut (Ix := Ix) (Name := ℕ) (U := U) (Lvl := Lvl) (Val := Elt F) spec0 c [cc0_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi0`; the one
    array the two inputs read held half and half; nothing owed. -/
noncomputable def dat0 (V : Valuation τ sig (Elt F)) (c : Dev nD) : Dat τ (Elt F) Ix ℕ U Lvl cfg0 c where
  A w := V (Proc.devRef .tc (Pipeline.arrRef spec0 w))
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq0 (V : Valuation τ sig (Elt F)) (c : Dev nD) (w : Fin cfg0.W) :
    (dat0 (Ix := Ix) (U := U) (Lvl := Lvl) V c).A w = V (Proc.devRef .tc (Pipeline.arrRef spec0 w)) := by
  dsimp only [dat0]

/-- What the body leaves, window by window. -/
theorem after0_0 (V : Valuation τ sig (Elt F)) (c : Dev nD) (t : Fin cfg0.N) :
    (dat0 (Ix := Ix) (U := U) (Lvl := Lvl) V c).after 0 t = iblk0 V c 0 t := by dsimp only [dat0]
theorem after0_1 (V : Valuation τ sig (Elt F)) (c : Dev nD) (t : Fin cfg0.N) :
    (dat0 (Ix := Ix) (U := U) (Lvl := Lvl) V c).after 1 t = iblk0 V c 1 t := by dsimp only [dat0]
theorem after0_2 (V : Valuation τ sig (Elt F)) (c : Dev nD) (t : Fin cfg0.N) :
    (dat0 (Ix := Ix) (U := U) (Lvl := Lvl) V c).after 2 t = acc0 V c t.val t.isLt := by dsimp only [dat0]

/-- The invariant at a point's start, and at its end. -/
theorem Phi0_castSucc (V : Valuation τ sig (Elt F)) (c : Dev nD) (t : Fin cfg0.N) :
    (dat0 (Ix := Ix) (U := U) (Lvl := Lvl) V c).Φ t.castSucc = Phi0 V c t.val (Nat.le_of_lt t.isLt) := by
  dsimp only [dat0]; simp only [Fin.coe_castSucc]

theorem Phi0_at_succ (V : Valuation τ sig (Elt F)) (c : Dev nD) (t : Fin cfg0.N) :
    (dat0 (Ix := Ix) (U := U) (Lvl := Lvl) V c).Φ t.succ = Phi0 V c (t.val + 1) t.isLt := rfl

/-- Before the first point the invariant is the launch's scoped rest. -/
theorem Phi_first0 (V : Valuation τ sig (Elt F)) (c : Dev nD) :
    (dat0 (Ix := Ix) (U := U) (Lvl := Lvl) V c).Φ 0
      = Pipeline.scopedRest (Ix := Ix) (Name := ℕ) (U := U) (Lvl := Lvl) (Val := Elt F) spec0 c := rfl

/-- After the last point the invariant gives the scoped rest back: the scratch cell's contents are forgotten. -/
theorem Phi_last0 (V : Valuation τ sig (Elt F)) (c : Dev nD) :
    (dat0 (Ix := Ix) (U := U) (Lvl := Lvl) V c).Φ (Fin.last cfg0.N)
      ⊢ Pipeline.scopedRest (Ix := Ix) (Name := ℕ) (U := U) (Lvl := Lvl) (Val := Elt F) spec0 c := by
  have hN : cfg0.N = 64 := N_0
  rw [show (dat0 (Ix := Ix) (U := U) (Lvl := Lvl) V c).Φ (Fin.last cfg0.N) = Phi0 V c (Fin.last cfg0.N).val (Nat.le_of_lt_succ (Fin.last cfg0.N).isLt) from rfl,
    Phi0_pos V c _ _ (by rw [Fin.val_last]; omega), scopedRest0_split, owns_whole]
  iintro ⟨Hs, Hr⟩
  isplitl [Hs]
  · iexists _; iexact Hs
  iexact Hr

example (V : Valuation τ sig (Elt F)) (c : Dev nD) : Dat τ (Elt F) Ix ℕ U Lvl (cfgs 0) c := dat0 V c

end Cert.Kernel.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k0_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond0_1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond0_2 (i : grid0.Coords) : Prop := k0_cond2 i = 1#1

/-- The reset runs at the first point only, -/
theorem hcond0_1 : ∀ t : Fin cfg0.N, cond0_1 (grid0.coords t) ↔ t.val = 0 :=
  (by decide +kernel : ∀ t : Fin grid0.N, cond0_1 (grid0.coords t) ↔ t.val = 0)
/-- the copy at the last point only. -/
theorem hcond0_2 : ∀ t : Fin cfg0.N, cond0_2 (grid0.coords t) ↔ t.val = 63 :=
  (by decide +kernel : ∀ t : Fin grid0.N, cond0_2 (grid0.coords t) ↔ t.val = 63)

/-! ## The body, case by case, on any whole memrefs -/

/-- The first point: the scratch cell, at anything, is reset and then holds the first step on zero. -/
theorem run0_A (𝒱₀ : Variants) (c : Dev nD) (i : grid0.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond0_1 i) (hc2 : ¬cond0_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k0_pay2 x2 x3 (k0_pay1 (F := F)))) -∗ K ⟨⟩))
      ⊢ wp frame (wpE (defs₀ (F := F)) 𝒱₀ c none) E (cc0__sum_kernel i arg2 harg2 arg3 harg3 arg4 harg4 arg5 harg5) K := by
  simp only [cc0__sum_kernel_eq_skeleton]; unfold cc0__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run0_A.sl.v15 run0_A.sl.H5_1
  rw [readCov_whole _ zeros2, readAt_whole _ _ zeros2, readAt_whole _ _ zeros2]

/-- A point strictly between the first and the last: the scratch cell at `a` takes the point's step. -/
theorem run0_B (𝒱₀ : Variants) (c : Dev nD) (i : grid0.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond0_1 i) (hc2 : ¬cond0_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k0_pay2 x2 x3 a)) -∗ K ⟨⟩))
      ⊢ wp frame (wpE (defs₀ (F := F)) 𝒱₀ c none) E (cc0__sum_kernel i arg2 harg2 arg3 harg3 arg4 harg4 arg5 harg5) K := by
  simp only [cc0__sum_kernel_eq_skeleton]; unfold cc0__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run0_C (𝒱₀ : Variants) (c : Dev nD) (i : grid0.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond0_1 i) (hc2 : cond0_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k0_pay2 x2 x3 a) ∗ owns (c : Thread nD τ) arg5 fullShare (k0_pay2 x2 x3 a)) -∗ K ⟨⟩))
      ⊢ wp frame (wpE (defs₀ (F := F)) 𝒱₀ c none) E (cc0__sum_kernel i arg2 harg2 arg3 harg3 arg4 harg4 arg5 harg5) K := by
  simp only [cc0__sum_kernel_eq_skeleton]; unfold cc0__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run0_C.sl.v25 run0_C.sl.H5_1
    rw [readCov_whole _ zeros2, readAt_whole _ _ zeros2, readAt_whole _ _ zeros2, readAt_whole _ _ zeros2]
  iexists _; isplitr
  swap; · iexact H5
  ipureintro
  unfold run0_C.sl.H5_1
  rw [read_writes_whole _ _ zeros2, readAt_whole _ _ zeros2, readAt_whole _ _ zeros2, readAt_whole _ _ zeros2]

end Cert.Kernel.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle0_2 : ∀ t : Fin cfg0.N, cfg0.idle 2 (grid0.coords t) = true ↔ t.val ≠ 63 :=
  (by decide +kernel : ∀ t : Fin grid0.N, idle0 2 (grid0.coords t) = true ↔ t.val ≠ 63)
/-- and written back at the last point only. -/
theorem flush0_2' : ∀ t : Fin cfg0.N, (cfg0.win 2).flush t = true ↔ t.val = 63 :=
  (by decide +kernel : ∀ t : Fin grid0.N, win0_2.flush t = true ↔ t.val = 63)

/-! ## What the body finds in the inputs' buffers -/

/-- Each input's current staging buffer holds its block at every point, fetched there or not: unfetched, the block
    index has not moved and the body left the block in place. -/
theorem before0_0 (V : Valuation τ sig (Elt F)) (c : Dev nD) (t : Fin cfg0.N) (d) :
    (dat0 (Ix := Ix) (U := U) (Lvl := Lvl) V c).before 0 t d = iblk0 V c 0 t :=
  ((dat0 (Ix := Ix) (U := U) (Lvl := Lvl) V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (V : Valuation τ sig (Elt F)) (c : Dev nD) (t : Fin cfg0.N) (d) :
    (dat0 (Ix := Ix) (U := U) (Lvl := Lvl) V c).before 1 t d = iblk0 V c 1 t :=
  ((dat0 (Ix := Ix) (U := U) (Lvl := Lvl) V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## What the obligation asks of each window's buffer after the body -/

/-- The inputs are never idle: their buffers are handed back at their blocks. -/
theorem leaves0_0 (V : Valuation τ sig (Elt F)) (c : Dev nD) (t : Fin cfg0.N) :
    (dat0 (Ix := Ix) (U := U) (Lvl := Lvl) V c).leaves 0 t = owns (c : Thread nD τ) (st0_0 t) fullShare (iblk0 V c 0 t) := by
  rw [← after0_0 (Ix := Ix) (U := U) (Lvl := Lvl) V c t]

theorem leaves0_1 (V : Valuation τ sig (Elt F)) (c : Dev nD) (t : Fin cfg0.N) :
    (dat0 (Ix := Ix) (U := U) (Lvl := Lvl) V c).leaves 1 t = owns (c : Thread nD τ) (st0_1 t) fullShare (iblk0 V c 1 t) := by
  rw [← after0_1 (Ix := Ix) (U := U) (Lvl := Lvl) V c t]

/-- The output is idle, and not written back, at every point but the last: its buffer is handed back as found; -/
theorem leaves0_2_idle (V : Valuation τ sig (Elt F)) (c : Dev nD) (t : Fin cfg0.N) (h : t.val ≠ 63) :
    (dat0 (Ix := Ix) (U := U) (Lvl := Lvl) V c).leaves 2 t
      = iprop(∃ d, owns (c : Thread nD τ) (st0_2 t) fullShare ((dat0 (Ix := Ix) (U := U) (Lvl := Lvl) V c).before 2 t d)) :=
  (dat0 (Ix := Ix) (U := U) (Lvl := Lvl) V c).leaves_idle 2 t ((idle0_2 t).mpr h)
    (Bool.eq_false_iff.mpr fun hf => h ((flush0_2' t).mp hf))

/-- at the last point it is handed back at the accumulated sum. -/
theorem leaves0_2_last (V : Valuation τ sig (Elt F)) (c : Dev nD) (t : Fin cfg0.N) (h : t.val = 63) :
    (dat0 (Ix := Ix) (U := U) (Lvl := Lvl) V c).leaves 2 t = owns (c : Thread nD τ) (st0_2 t) fullShare (acc0 V c t.val t.isLt) := by
  have hl : cfg0.idle 2 (grid0.coords t) = false := by
    cases hi : cfg0.idle 2 (grid0.coords t) with
    | false => rfl
    | true => exact absurd h ((idle0_2 t).mp hi)
  rw [← after0_2 (Ix := Ix) (U := U) (Lvl := Lvl) V c t]
  unfold Dat.leaves; rw [hl]

/-- One step at a point, through the point itself. -/
theorem step0_at (V : Valuation τ sig (Elt F)) (c : Dev nD) (t : Fin cfg0.N) (a : Vec F S1x1 .f32) :
    step0 V c t.val t.isLt a = k0_pay2 (iblk0 V c 0 t) (iblk0 V c 1 t) a := rfl

theorem acc0_first (V : Valuation τ sig (Elt F)) (c : Dev nD) (n : ℕ) (hn : n < cfg0.N) (hz : n = 0) :
    acc0 V c n hn = step0 V c n hn (k0_pay1 (F := F)) := by
  subst hz; rfl

/-! ## The body obligation -/

/-- What the body is called with at point `t` (the obligation's precondition, the windows one by one), -/
noncomputable def bodyPre0 (V : Valuation τ sig (Elt F)) (ι : Ix) (c : Dev nD) (t : Fin cfg0.N) : sProp 𝕄 :=
  iprop((dat0 (Ix := Ix) (U := U) (Lvl := Lvl) V c).Φ t.castSucc ∗ (dat0 (Ix := Ix) (U := U) (Lvl := Lvl) V c).owesAt ι t.castSucc
    ∗ (∃ d, owns (c : Thread nD τ) (st0_0 t) fullShare ((dat0 (Ix := Ix) (U := U) (Lvl := Lvl) V c).before 0 t d))
    ∗ (∃ d, owns (c : Thread nD τ) (st0_1 t) fullShare ((dat0 (Ix := Ix) (U := U) (Lvl := Lvl) V c).before 1 t d))
    ∗ (∃ d, owns (c : Thread nD τ) (st0_2 t) fullShare ((dat0 (Ix := Ix) (U := U) (Lvl := Lvl) V c).before 2 t d)))

/-- and what it returns. -/
noncomputable def bodyPost0 (V : Valuation τ sig (Elt F)) (ι : Ix) (c : Dev nD) (t : Fin cfg0.N) : sProp 𝕄 :=
  iprop((dat0 (Ix := Ix) (U := U) (Lvl := Lvl) V c).Φ t.succ ∗ (dat0 (Ix := Ix) (U := U) (Lvl := Lvl) V c).owesAt ι t.succ
    ∗ (dat0 (Ix := Ix) (U := U) (Lvl := Lvl) V c).leaves 0 t ∗ (dat0 (Ix := Ix) (U := U) (Lvl := Lvl) V c).leaves 1 t ∗ (dat0 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body0 (V : Valuation τ sig (Elt F)) (𝒱₀ : Variants) (ι : Ix) (c : Dev nD) (t : Fin cfg0.N) :
    bodyPre0 (U := U) (Lvl := Lvl) V ι c t
      ⊢ wp frame (wpE (defs₀ (F := F)) 𝒱₀ c none) Set.univ (bodyAt0 t) (fun _ => bodyPost0 (U := U) (Lvl := Lvl) V ι c t) := by
  unfold bodyPre0 bodyPost0 bodyAt0
  simp only [before0_0, before0_1]
  rw [show (dat0 (Ix := Ix) (U := U) (Lvl := Lvl) V c).owesAt ι t.succ = (dat0 (Ix := Ix) (U := U) (Lvl := Lvl) V c).owesAt ι t.castSucc from rfl]
  rw [Phi0_at_succ, Phi0_succ, Phi0_castSucc, leaves0_0, leaves0_1]
  have hN : t.val < 64 := lt_of_lt_of_eq t.isLt N_0
  by_cases hz : t.val = 0
  · have hc1 : cond0_1 (grid0.coords t) := (hcond0_1 t).mpr hz
    have hc2 : ¬cond0_2 (grid0.coords t) := fun h => by have := (hcond0_2 t).mp h; omega
    rw [leaves0_2_idle V c t (by omega), Phi0_zero V c _ _ hz, scopedRest0_split, acc0_first V c _ _ hz, step0_at]
    iintro ⟨⟨⟨%f, Hs⟩, Hr⟩, Ho, ⟨%d0, H0⟩, ⟨%d1, H1⟩, H2⟩
    iapply (run0_A 𝒱₀ c (grid0.coords t) _ _ _ _ _ _ _ _ hc1 hc2 (iblk0 V c 0 t) (iblk0 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond0_1 (grid0.coords t) := fun h => hz ((hcond0_1 t).mp h)
    rw [Phi0_pos V c _ _ hz, acc0_pos V c _ _ hz, step0_at]
    by_cases hl : t.val = 63
    · have hc2 : cond0_2 (grid0.coords t) := (hcond0_2 t).mpr hl
      rw [leaves0_2_last V c t hl, acc0_pos V c _ _ hz, step0_at]
      iintro ⟨⟨Hs, Hr⟩, Ho, ⟨%d0, H0⟩, ⟨%d1, H1⟩, ⟨%d2, H2⟩⟩
      iapply (run0_C 𝒱₀ c (grid0.coords t) _ _ _ _ _ _ _ _ hc1 hc2 (iblk0 V c 0 t) (iblk0 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond0_2 (grid0.coords t) := fun h => hl ((hcond0_2 t).mp h)
      rw [leaves0_2_idle V c t hl]
      iintro ⟨⟨Hs, Hr⟩, Ho, ⟨%d0, H0⟩, ⟨%d1, H1⟩, H2⟩
      iapply (run0_B 𝒱₀ c (grid0.coords t) _ _ _ _ _ _ _ _ hc1 hc2 (iblk0 V c 0 t) (iblk0 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body0 (V : Valuation τ sig (Elt F)) (𝒱₀ : Variants) (ι : Ix) :
    ∀ c : Dev nD, BodyObligationLoose (dat0 (Ix := Ix) (U := U) (Lvl := Lvl) V c) (defs₀ (F := F)) 𝒱₀ ι Set.univ := fun c t => by
  rw [bigSep_W0, bigSep_W0]
  exact sound_body0 (U := U) (Lvl := Lvl) V 𝒱₀ ι c t

end Cert.Kernel.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg0

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (0 : Fin 24)
/-- Its configuration, its windows but for their index maps, the number of its windows. -/
abbrev cfgK : Pipeline.Cfg sig Λ₀ := cfg0
abbrev specK : Fin 3 → Pipeline.WinSpec sig cfgK.grid.rank := spec0
abbrev nW : Nat := 3
/-- Its output window and the buffer behind it. -/
abbrev oK : Fin nW := 2
abbrev outK : Ref sig .tc := main_v19
theorem winK : Pipeline.WinFacts₀ specK := winFacts₀0
theorem block_posK : ∀ w : Fin nW, 0 < (specK w).block.numel := block_pos0
theorem arr_wholeK : ∀ w : Fin nW, (specK w).arr.IsWhole := arr_whole0
theorem stage_wholeK : ∀ (w : Fin nW) (s : Fin (specK w).nbuf), ((specK w).stage s).IsWhole := stage_whole0

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.Kernel.Hand.Reg0

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R0' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (0 : Fin 24) c = dat0 (V4 m c) c)
    (hbody : ∀ c : Dev nD, Pipeline.BodyObligationLoose (dat0 (Ix := Ix) (U := U) (Lvl := Lvl) (V4 m c) c) (defs₀ (F := F)) 𝒱₀ ι Set.univ) :
    RegionSeg (pcfgs (F := F)) GenP.adm pdats ι defs₀ 𝒱₀ L lv (0 : Fin 24) :=
  Reg0.RK 𝒱₀ L lv ι pdats (fun c => V4 m c)
    (fun c => by rw [hp c]; exact hbody c)
    (fun c w => by rw [hp c]; exact A_eq0 (V4 m c) c w)
    (fun c => by rw [hp c]; exact PosShare.mem_left_op_right fullShare)
    (fun c t => by rw [hp c]; rfl)
    (fun c => by rw [hp c]; rfl)
    (fun c => by rw [hp c, Phi_first0])
    (fun c => by rw [hp c]; exact Phi_last0 (V4 m c) c)

/-- It is entered from the thread state before the region's item, -/
theorem hpre0' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (0 : Fin 24) c = dat0 (V4 m c) c)
    (hbody : ∀ c : Dev nD, Pipeline.BodyObligationLoose (dat0 (Ix := Ix) (U := U) (Lvl := Lvl) (V4 m c) c) (defs₀ (F := F)) 𝒱₀ ι Set.univ)
    (c : Dev nD) :
    iprop(StableHlo.held (c : Thread nD τ) (Pipeline.ucRefs τ sig) (V4 m c) ∗ (R c : sProp 𝕄))
      ⊢ (R0' m outs 𝒱₀ L lv ι pdats hp hbody).pre c := .rfl

/-- and left at the thread state after it. -/
theorem hpost0' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (0 : Fin 24) c = dat0 (V4 m c) c)
    (hbody : ∀ c : Dev nD, Pipeline.BodyObligationLoose (dat0 (Ix := Ix) (U := U) (Lvl := Lvl) (V4 m c) c) (defs₀ (F := F)) 𝒱₀ ι Set.univ)
    (houts : ∀ c : Dev nD, outs 5 main_v19 c = (dat0 (Ix := Ix) (U := U) (Lvl := Lvl) (V4 m c) c).arrAt 2 64)
    (c : Dev nD) :
    (R0' m outs 𝒱₀ L lv ι pdats hp hbody).post c
      ⊢ iprop(StableHlo.held (c : Thread nD τ) (Pipeline.ucRefs τ sig) (V5 m outs c) ∗ (R c : sProp 𝕄)) := by
  have h : (pdats (0 : Fin 24) c).arrAt Reg0.oK Reg0.cfgK.N = outs 5 main_v19 c := by
    rw [hp c]; exact (houts c).symm
  show iprop(StableHlo.held (c : Thread nD τ) (Pipeline.ucRefs τ sig)
      (Function.update (V4 m c) (Proc.devRef .tc main_v19) ((pdats (0 : Fin 24) c).arrAt Reg0.oK Reg0.cfgK.N))
        ∗ (R c : sProp 𝕄)) ⊢ _
  rw [h]

end Cert.Kernel.Hand
-- ==== Proof.K_ApplyLib.lean ====
/-
  What the bodies of this program's two kernels need and no region owns: a load or a store of a whole buffer through
  its full rectangle at zero offsets (every access of both kernels is one), and the body obligation's post for a
  window at a point live for it.
-/
import proofs.«169706_j68856915690108_1_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Loads and stores of a whole buffer through its full rectangle -/

omit [FloatOps F] in
theorem zeros2 : (![0, 0] : Fin 2 → ℕ) = fun _ => 0 := by funext a; fin_cases a <;> rfl

/-- A load through the full rectangle at zero offsets reads what the view reads. -/
theorem readAt_full {sp : Space} {S : Shape} {e : EltTy} (arg : Memref sig .tc sp S e)
    {off : Fin S.rank → ℕ} (h : off = fun _ => 0) (inb : ∀ a, off a + S.size a ≤ S.size a) (f : arg.view.ty.Contents (Elt F)) :
    arg.view.readAt (Elt F) (Rect.unit off S.size inb).toLoadRect f = arg.view.read (Elt F) f :=
  (View.readAt_eq_ld arg.view f (Rect.unit off S.size inb)).trans (View.ld_unit_zero h inb _)

/-- A store through the full rectangle at zero offsets, last, leaves its payload, whatever was there. -/
theorem read_writes_full {sp : Space} {S : Shape} {e : EltTy} (arg : Memref sig .tc sp S e)
    {off : Fin S.rank → ℕ} (h : off = fun _ => 0) (inb : ∀ a, off a + S.size a ≤ S.size a)
    (f : arg.view.ty.Contents (Elt F)) (w : S.Idx → Elt F e) (L : List (View.Piece (Elt F) S e)) :
    arg.view.read (Elt F) (arg.view.writes (Elt F) f ((⟨Rect.unit off S.size inb, w⟩ : View.Piece (Elt F) S e) :: L)) = w :=
  (View.read_writes_eq_canon arg.view f ((⟨Rect.unit off S.size inb, w⟩ : View.Piece (Elt F) S e) :: L)
      (fun y => ⟨(⟨Rect.unit off S.size inb, w⟩ : View.Piece (Elt F) S e), List.mem_cons_self, View.mem_set_unit_zero h inb y⟩)).trans
    (View.canon_cons_unit_zero h inb w L)

/-- A load of a 512 × 256 buffer through its full rectangle reads what the view reads. -/
theorem readAt_full_512 {sp : Space} {e : EltTy} (arg : Memref sig .tc sp S512x256 e)
    (inb : ∀ a, (![0, 0] : Fin 2 → ℕ) a + S512x256.size a ≤ S512x256.size a) (f : arg.view.ty.Contents (Elt F)) :
    arg.view.readAt (Elt F) (Rect.unit (s := S512x256) ![0, 0] S512x256.size inb).toLoadRect f = arg.view.read (Elt F) f :=
  readAt_full arg zeros2 inb f

/-- The same of a 1 × 1 buffer. -/
theorem readAt_full_1 {sp : Space} {e : EltTy} (arg : Memref sig .tc sp S1x1 e)
    (inb : ∀ a, (![0, 0] : Fin 2 → ℕ) a + S1x1.size a ≤ S1x1.size a) (f : arg.view.ty.Contents (Elt F)) :
    arg.view.readAt (Elt F) (Rect.unit (s := S1x1) ![0, 0] S1x1.size inb).toLoadRect f = arg.view.read (Elt F) f :=
  readAt_full arg zeros2 inb f

/-- A store into a 512 × 256 buffer through its full rectangle, last, leaves its payload. -/
theorem read_writes_full_512 {sp : Space} {e : EltTy} (arg : Memref sig .tc sp S512x256 e)
    (inb : ∀ a, (![0, 0] : Fin 2 → ℕ) a + S512x256.size a ≤ S512x256.size a)
    (f : arg.view.ty.Contents (Elt F)) (w : S512x256.Idx → Elt F e) (L : List (View.Piece (Elt F) S512x256 e)) :
    arg.view.read (Elt F) (arg.view.writes (Elt F) f ((⟨Rect.unit (s := S512x256) ![0, 0] S512x256.size inb, w⟩ : View.Piece (Elt F) S512x256 e) :: L)) = w :=
  read_writes_full arg zeros2 inb f w L

/-! ## The obligation's post at a live point -/

/-- At a point live for a window that is not loose, the body obligation's post for it is the plain `after`. -/
theorem leaves_live {Λ : Idealize.SL.Sem.Labels} {cfg : Cfg sig Λ} {c : Dev nD} (dat : Dat τ (Elt F) Ix ℕ U Lvl cfg c) (w : Fin cfg.W) (t : Fin cfg.N)
    (hi : cfg.idle w (cfg.grid.coords t) = false) (hl : cfg.loose w = false) :
    dat.leaves w t = owns (c : Thread nD τ) ((cfg.win w).stage (cfg.slots t w)) fullShare (dat.after w t) := by
  unfold Dat.leaves; rw [hi, hl]

end Cert.Kernel.Hand

end
-- ==== Proof.K_Rg1.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_ApplyLib
import proofs.«169706_j68856915690108_1_alg».proof.Proof.K_Shared
import proofs.«169706_j68856915690108_1_alg».proof.Proof.RegionsK

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k1_pay1 x_i` and `step t a = k1_pay2 h_i h_j threshold x_j a`, the printed payloads of the two stores.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk1 (V : Valuation τ sig (Elt F)) (c : Dev nD) (w : Fin cfg1.W) (t : Fin cfg1.N) :
    ((cfg1.win w).xblock (cfg1.grid.coords t)).Idx → Elt F (cfg1.win w).elt :=
  ((cfg1.win w).blk t).view.read (Elt F)
    (V (Proc.devRef .tc (Pipeline.arrRef spec1 w)) : Buf (Elt F) ((cfg1.win w).arr.view.loc (c.tc : Thread nD τ)))

/-- What the accumulator is reset to at a point whose second coordinate is 0: 1.0 times the block of `x` window 3
    stages there (the printed payload of the first store into the scratch buffer). -/
noncomputable def init1 (V : Valuation τ sig (Elt F)) (c : Dev nD) (n : ℕ) (hn : n < cfg1.N) : Vec F S512x256 .f32 :=
  k1_pay1 (iblk1 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step1 (V : Valuation τ sig (Elt F)) (c : Dev nD) (n : ℕ) (hn : n < cfg1.N) (a : Vec F S512x256 .f32) : Vec F S512x256 .f32 :=
  k1_pay2 (iblk1 V c 1 ⟨n, hn⟩) (iblk1 V c 2 ⟨n, hn⟩) (iblk1 V c 0 ⟨n, hn⟩) (iblk1 V c 4 ⟨n, hn⟩) a

/-- What the accumulator holds after point `n`: reset and stepped at the points ≡ 0 (mod 8), stepped from what the
    point before left at the others. -/
noncomputable def acc1 (V : Valuation τ sig (Elt F)) (c : Dev nD) : (n : ℕ) → n < cfg1.N → Vec F S512x256 .f32
  | 0, hn => step1 V c 0 hn (init1 V c 0 hn)
  | n + 1, hn =>
    if (n + 1) % 8 = 0 then step1 V c (n + 1) hn (init1 V c (n + 1) hn)
    else step1 V c (n + 1) hn (acc1 V c n (Nat.lt_of_succ_lt hn))

/-- After a point ≡ 0 (mod 8): the reset value, stepped once. -/
theorem acc1_reset (V : Valuation τ sig (Elt F)) (c : Dev nD) (n : ℕ) (hn : n < cfg1.N) (h0 : n % 8 = 0) :
    acc1 V c n hn = step1 V c n hn (init1 V c n hn) := by
  cases n with
  | zero => rfl
  | succ n => exact if_pos h0

/-- After any other point: that point's step on what the point before left. -/
theorem acc1_step (V : Valuation τ sig (Elt F)) (c : Dev nD) (n : ℕ) (hn : n < cfg1.N) (h0 : ¬n % 8 = 0) :
    acc1 V c n hn = step1 V c n hn (acc1 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi1 (V : Valuation τ sig (Elt F)) (c : Dev nD) : (n : ℕ) → n ≤ cfg1.N → sProp 𝕄
  | 0, _ => Pipeline.scopedRest (Ix := Ix) (Name := ℕ) (U := U) (Lvl := Lvl) (Val := Elt F) spec1 c
  | n + 1, hn => iprop(owns (c : Thread nD τ) (Memref.whole cc1_scratch0) fullShare (acc1 V c n hn)
      ∗ Pipeline.scopedRestBut (Ix := Ix) (Name := ℕ) (U := U) (Lvl := Lvl) (Val := Elt F) spec1 c [cc1_scratch0])

theorem Phi1_zero (V : Valuation τ sig (Elt F)) (c : Dev nD) (n : ℕ) (h : n ≤ cfg1.N) (hz : n = 0) :
    (Phi1 V c n h : sProp 𝕄) = Pipeline.scopedRest (Ix := Ix) (Name := ℕ) (U := U) (Lvl := Lvl) (Val := Elt F) spec1 c := by
  subst hz; rfl

theorem Phi1_succ (V : Valuation τ sig (Elt F)) (c : Dev nD) (n : ℕ) (hn : n < cfg1.N) :
    (Phi1 V c (n + 1) hn : sProp 𝕄) = iprop(owns (c : Thread nD τ) (Memref.whole cc1_scratch0) fullShare (acc1 V c n hn)
      ∗ Pipeline.scopedRestBut (Ix := Ix) (Name := ℕ) (U := U) (Lvl := Lvl) (Val := Elt F) spec1 c [cc1_scratch0]) := rfl

theorem Phi1_pos (V : Valuation τ sig (Elt F)) (c : Dev nD) (n : ℕ) (h : n ≤ cfg1.N) (hz : n ≠ 0) :
    (Phi1 V c n h : sProp 𝕄) = iprop(owns (c : Thread nD τ) (Memref.whole cc1_scratch0) fullShare (acc1 V c (n - 1) (by omega))
      ∗ Pipeline.scopedRestBut (Ix := Ix) (Name := ℕ) (U := U) (Lvl := Lvl) (Val := Elt F) spec1 c [cc1_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi1`; the
    threshold's array held whole, each of the two arrays that two input windows read held half and half; nothing owed. -/
noncomputable def dat1 (V : Valuation τ sig (Elt F)) (c : Dev nD) : Dat τ (Elt F) Ix ℕ U Lvl cfg1 c where
  A w := V (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => acc1 V c t.val t.isLt
  Φ t := Phi1 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq1 (V : Valuation τ sig (Elt F)) (c : Dev nD) (w : Fin cfg1.W) :
    (dat1 (Ix := Ix) (U := U) (Lvl := Lvl) V c).A w = V (Proc.devRef .tc (Pipeline.arrRef spec1 w)) := by
  dsimp only [dat1]

/-- What the body leaves, window by window. -/
theorem after1_0 (V : Valuation τ sig (Elt F)) (c : Dev nD) (t : Fin cfg1.N) :
    (dat1 (Ix := Ix) (U := U) (Lvl := Lvl) V c).after 0 t = iblk1 V c 0 t := by dsimp only [dat1]
theorem after1_1 (V : Valuation τ sig (Elt F)) (c : Dev nD) (t : Fin cfg1.N) :
    (dat1 (Ix := Ix) (U := U) (Lvl := Lvl) V c).after 1 t = iblk1 V c 1 t := by dsimp only [dat1]
theorem after1_2 (V : Valuation τ sig (Elt F)) (c : Dev nD) (t : Fin cfg1.N) :
    (dat1 (Ix := Ix) (U := U) (Lvl := Lvl) V c).after 2 t = iblk1 V c 2 t := by dsimp only [dat1]
theorem after1_3 (V : Valuation τ sig (Elt F)) (c : Dev nD) (t : Fin cfg1.N) :
    (dat1 (Ix := Ix) (U := U) (Lvl := Lvl) V c).after 3 t = iblk1 V c 3 t := by dsimp only [dat1]
theorem after1_4 (V : Valuation τ sig (Elt F)) (c : Dev nD) (t : Fin cfg1.N) :
    (dat1 (Ix := Ix) (U := U) (Lvl := Lvl) V c).after 4 t = iblk1 V c 4 t := by dsimp only [dat1]
theorem after1_5 (V : Valuation τ sig (Elt F)) (c : Dev nD) (t : Fin cfg1.N) :
    (dat1 (Ix := Ix) (U := U) (Lvl := Lvl) V c).after 5 t = acc1 V c t.val t.isLt := by dsimp only [dat1]

/-- The shares the input arrays are held at. -/
theorem q1_0 (V : Valuation τ sig (Elt F)) (c : Dev nD) : (dat1 (Ix := Ix) (U := U) (Lvl := Lvl) V c).q 0 = fullShare := by dsimp only [dat1]
theorem q1_1 (V : Valuation τ sig (Elt F)) (c : Dev nD) : (dat1 (Ix := Ix) (U := U) (Lvl := Lvl) V c).q 1 = fullShare.left := by dsimp only [dat1]
theorem q1_2 (V : Valuation τ sig (Elt F)) (c : Dev nD) : (dat1 (Ix := Ix) (U := U) (Lvl := Lvl) V c).q 2 = fullShare.right := by dsimp only [dat1]
theorem q1_3 (V : Valuation τ sig (Elt F)) (c : Dev nD) : (dat1 (Ix := Ix) (U := U) (Lvl := Lvl) V c).q 3 = fullShare.left := by dsimp only [dat1]
theorem q1_4 (V : Valuation τ sig (Elt F)) (c : Dev nD) : (dat1 (Ix := Ix) (U := U) (Lvl := Lvl) V c).q 4 = fullShare.right := by dsimp only [dat1]

/-- The invariant at a point's start, and at its end. -/
theorem Phi1_castSucc (V : Valuation τ sig (Elt F)) (c : Dev nD) (t : Fin cfg1.N) :
    (dat1 (Ix := Ix) (U := U) (Lvl := Lvl) V c).Φ t.castSucc = Phi1 V c t.val (Nat.le_of_lt t.isLt) := by
  dsimp only [dat1]; simp only [Fin.coe_castSucc]

theorem Phi1_at_succ (V : Valuation τ sig (Elt F)) (c : Dev nD) (t : Fin cfg1.N) :
    (dat1 (Ix := Ix) (U := U) (Lvl := Lvl) V c).Φ t.succ = Phi1 V c (t.val + 1) t.isLt := rfl

/-- Before the first point the invariant is the launch's scoped rest. -/
theorem Phi_first1 (V : Valuation τ sig (Elt F)) (c : Dev nD) :
    (dat1 (Ix := Ix) (U := U) (Lvl := Lvl) V c).Φ 0
      = Pipeline.scopedRest (Ix := Ix) (Name := ℕ) (U := U) (Lvl := Lvl) (Val := Elt F) spec1 c := rfl

/-- After the last point the invariant gives the scoped rest back: the accumulator's contents are forgotten. -/
theorem Phi_last1 (V : Valuation τ sig (Elt F)) (c : Dev nD) :
    (dat1 (Ix := Ix) (U := U) (Lvl := Lvl) V c).Φ (Fin.last cfg1.N)
      ⊢ Pipeline.scopedRest (Ix := Ix) (Name := ℕ) (U := U) (Lvl := Lvl) (Val := Elt F) spec1 c := by
  have hN : cfg1.N = 64 := N_1
  rw [show (dat1 (Ix := Ix) (U := U) (Lvl := Lvl) V c).Φ (Fin.last cfg1.N) = Phi1 V c (Fin.last cfg1.N).val (Nat.le_of_lt_succ (Fin.last cfg1.N).isLt) from rfl,
    Phi1_pos V c _ _ (by rw [Fin.val_last]; omega), scopedRest1_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 1) c := dat1 V c

end Cert.Kernel.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k1_pay2 hI hJ mn xJ s` — `s` plus the 0/1 mask of (hI · hJᵀ > mn) times `xJ` — and the value
  the accumulator is reset to is `k1_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond1_0 (i : grid1.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond1_1 (i : grid1.Coords) : Prop := k1_cond2 i = 1#1

/-! ## The three runs -/

/-- At a point whose second coordinate is 0 (and not 7): the accumulator, at anything, is reset to `k1_pay1 xI` and
    stepped once; every window's buffer is handed back as found. -/
theorem run1_first (𝒱₀ : Variants) (c : Dev nD) (i : grid1.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond1_0 i) (hc1 : ¬cond1_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k1_pay2 hI hJ mn xJ (k1_pay1 xI))) -∗ K ⟨⟩))
      ⊢ wp frame (wpE (defs₀ (F := F)) 𝒱₀ c none) E (cc1__apply_kernel i arg2 harg2 arg3 harg3 arg4 harg4 arg5 harg5 arg6 harg6 arg7 harg7 arg8 harg8) K := by
  simp only [cc1__apply_kernel_eq_skeleton]; unfold cc1__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run1_mid (𝒱₀ : Variants) (c : Dev nD) (i : grid1.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond1_0 i) (hc1 : ¬cond1_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k1_pay2 hI hJ mn xJ s)) -∗ K ⟨⟩))
      ⊢ wp frame (wpE (defs₀ (F := F)) 𝒱₀ c none) E (cc1__apply_kernel i arg2 harg2 arg3 harg3 arg4 harg4 arg5 harg5 arg6 harg6 arg7 harg7 arg8 harg8) K := by
  simp only [cc1__apply_kernel_eq_skeleton]; unfold cc1__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run1_last (𝒱₀ : Variants) (c : Dev nD) (i : grid1.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond1_0 i) (hc1 : cond1_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k1_pay2 hI hJ mn xJ s)
        ∗ owns (c : Thread nD τ) arg8 fullShare (k1_pay2 hI hJ mn xJ s)) -∗ K ⟨⟩))
      ⊢ wp frame (wpE (defs₀ (F := F)) 𝒱₀ c none) E (cc1__apply_kernel i arg2 harg2 arg3 harg3 arg4 harg4 arg5 harg5 arg6 harg6 arg7 harg7 arg8 harg8) K := by
  simp only [cc1__apply_kernel_eq_skeleton]; unfold cc1__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.Kernel.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc1`. The three control cases are
  decided over the grid by the point's residue mod 8, and in each the kernel's run (ApplyRun.lean) applies.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- It is stored into the output block at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)
/-- The output window is idle at every other point, -/
theorem idleAt1_5 : ∀ t : Fin cfg1.N, ¬t.val % 8 = 7 → cfg1.idle 5 (grid1.coords t) = true :=
  (by decide +kernel : ∀ t : Fin grid1.N, ¬t.val % 8 = 7 → cfg1.idle 5 (grid1.coords t) = true)
/-- live at those, -/
theorem liveAt1_5 : ∀ t : Fin cfg1.N, t.val % 8 = 7 → cfg1.idle 5 (grid1.coords t) = false :=
  (by decide +kernel : ∀ t : Fin grid1.N, t.val % 8 = 7 → cfg1.idle 5 (grid1.coords t) = false)
/-- and not written back where it is idle. -/
theorem noFlush1_5 (t : Fin cfg1.N) (h : ¬t.val % 8 = 7) : (cfg1.win 5).flush t = false := by
  cases hf : (cfg1.win 5).flush t with
  | false => rfl
  | true => exact absurd ((flush1_5 t).mp hf) h

/-! ## What the body finds in the inputs' buffers and leaves in every buffer -/

/-- Each input's current staging buffer holds its block at every point, fetched there or not. -/
theorem before1_0 (V : Valuation τ sig (Elt F)) (c : Dev nD) (t : Fin cfg1.N) (d) : (dat1 (Ix := Ix) (U := U) (Lvl := Lvl) V c).before 0 t d = iblk1 V c 0 t :=
  ((dat1 (Ix := Ix) (U := U) (Lvl := Lvl) V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (V : Valuation τ sig (Elt F)) (c : Dev nD) (t : Fin cfg1.N) (d) : (dat1 (Ix := Ix) (U := U) (Lvl := Lvl) V c).before 1 t d = iblk1 V c 1 t :=
  ((dat1 (Ix := Ix) (U := U) (Lvl := Lvl) V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (V : Valuation τ sig (Elt F)) (c : Dev nD) (t : Fin cfg1.N) (d) : (dat1 (Ix := Ix) (U := U) (Lvl := Lvl) V c).before 2 t d = iblk1 V c 2 t :=
  ((dat1 (Ix := Ix) (U := U) (Lvl := Lvl) V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (V : Valuation τ sig (Elt F)) (c : Dev nD) (t : Fin cfg1.N) (d) : (dat1 (Ix := Ix) (U := U) (Lvl := Lvl) V c).before 3 t d = iblk1 V c 3 t :=
  ((dat1 (Ix := Ix) (U := U) (Lvl := Lvl) V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (V : Valuation τ sig (Elt F)) (c : Dev nD) (t : Fin cfg1.N) (d) : (dat1 (Ix := Ix) (U := U) (Lvl := Lvl) V c).before 4 t d = iblk1 V c 4 t :=
  ((dat1 (Ix := Ix) (U := U) (Lvl := Lvl) V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-! ## The body obligation, at a generic point -/

/-- What the body is called with at point `t` (the obligation's precondition, the windows one by one), -/
noncomputable def bodyPre1 (V : Valuation τ sig (Elt F)) (c : Dev nD) (ι : Ix) (t : Fin cfg1.N) : sProp 𝕄 :=
  iprop((dat1 (Ix := Ix) (U := U) (Lvl := Lvl) V c).Φ t.castSucc ∗ (dat1 (Ix := Ix) (U := U) (Lvl := Lvl) V c).owesAt ι t.castSucc
    ∗ (∃ d, owns (c : Thread nD τ) (st1_0 t) fullShare ((dat1 (Ix := Ix) (U := U) (Lvl := Lvl) V c).before 0 t d))
    ∗ (∃ d, owns (c : Thread nD τ) (st1_1 t) fullShare ((dat1 (Ix := Ix) (U := U) (Lvl := Lvl) V c).before 1 t d))
    ∗ (∃ d, owns (c : Thread nD τ) (st1_2 t) fullShare ((dat1 (Ix := Ix) (U := U) (Lvl := Lvl) V c).before 2 t d))
    ∗ (∃ d, owns (c : Thread nD τ) (st1_3 t) fullShare ((dat1 (Ix := Ix) (U := U) (Lvl := Lvl) V c).before 3 t d))
    ∗ (∃ d, owns (c : Thread nD τ) (st1_4 t) fullShare ((dat1 (Ix := Ix) (U := U) (Lvl := Lvl) V c).before 4 t d))
    ∗ (∃ d, owns (c : Thread nD τ) (st1_5 t) fullShare ((dat1 (Ix := Ix) (U := U) (Lvl := Lvl) V c).before 5 t d)))

/-- and what it returns. -/
noncomputable def bodyPost1 (V : Valuation τ sig (Elt F)) (c : Dev nD) (ι : Ix) (t : Fin cfg1.N) : sProp 𝕄 :=
  iprop((dat1 (Ix := Ix) (U := U) (Lvl := Lvl) V c).Φ t.succ ∗ (dat1 (Ix := Ix) (U := U) (Lvl := Lvl) V c).owesAt ι t.succ
    ∗ (dat1 (Ix := Ix) (U := U) (Lvl := Lvl) V c).leaves 0 t ∗ (dat1 (Ix := Ix) (U := U) (Lvl := Lvl) V c).leaves 1 t ∗ (dat1 (Ix := Ix) (U := U) (Lvl := Lvl) V c).leaves 2 t
    ∗ (dat1 (Ix := Ix) (U := U) (Lvl := Lvl) V c).leaves 3 t ∗ (dat1 (Ix := Ix) (U := U) (Lvl := Lvl) V c).leaves 4 t ∗ (dat1 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body1 (𝒱₀ : Variants) (ι : Ix) (V : Valuation τ sig (Elt F)) (c : Dev nD) (t : Fin cfg1.N) :
    bodyPre1 (Ix := Ix) (U := U) (Lvl := Lvl) V c ι t ⊢ wp frame (wpE (defs₀ (F := F)) 𝒱₀ c none) Set.univ (bodyAt1 t) (fun _ => bodyPost1 (Ix := Ix) (U := U) (Lvl := Lvl) V c ι t) := by
  unfold bodyPre1 bodyPost1 bodyAt1
  simp only [before1_0, before1_1, before1_2, before1_3, before1_4]
  rw [show (dat1 (Ix := Ix) (U := U) (Lvl := Lvl) V c).owesAt ι t.succ = (dat1 (Ix := Ix) (U := U) (Lvl := Lvl) V c).owesAt ι t.castSucc from rfl]
  rw [Phi1_at_succ, Phi1_succ, Phi1_castSucc]
  rw [leaves_live (dat1 (Ix := Ix) (U := U) (Lvl := Lvl) V c) 0 t rfl rfl, leaves_live (dat1 (Ix := Ix) (U := U) (Lvl := Lvl) V c) 1 t rfl rfl, leaves_live (dat1 (Ix := Ix) (U := U) (Lvl := Lvl) V c) 2 t rfl rfl,
    leaves_live (dat1 (Ix := Ix) (U := U) (Lvl := Lvl) V c) 3 t rfl rfl, leaves_live (dat1 (Ix := Ix) (U := U) (Lvl := Lvl) V c) 4 t rfl rfl, after1_0, after1_1, after1_2, after1_3, after1_4]
  have hN : t.val < 64 := lt_of_lt_of_eq t.isLt (show cfg1.N = 64 from N_1)
  by_cases h0 : t.val % 8 = 0
  · have h7 : ¬t.val % 8 = 7 := by omega
    rw [Dat.leaves_idle (dat1 (Ix := Ix) (U := U) (Lvl := Lvl) V c) 5 t (idleAt1_5 t h7) (noFlush1_5 t h7)]
    rw [acc1_reset V c t.val t.isLt h0]
    unfold step1 init1
    by_cases hz : t.val = 0
    · rw [Phi1_zero V c _ _ hz, scopedRest1_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run1_first 𝒱₀ c (grid1.coords t) _ _ _ _ _ _ _ _ _ _ _ _ _ _ ((hcond1_0 t).mpr h0) (fun h => h7 ((hcond1_1 t).mp h)) (iblk1 V c 0 t) (iblk1 V c 1 t) (iblk1 V c 2 t) (iblk1 V c 3 t) (iblk1 V c 4 t) ((dat1 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi1_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run1_first 𝒱₀ c (grid1.coords t) _ _ _ _ _ _ _ _ _ _ _ _ _ _ ((hcond1_0 t).mpr h0) (fun h => h7 ((hcond1_1 t).mp h)) (iblk1 V c 0 t) (iblk1 V c 1 t) (iblk1 V c 2 t) (iblk1 V c 3 t) (iblk1 V c 4 t) ((dat1 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc1_step V c t.val t.isLt h0, Phi1_pos V c _ _ hz]
    unfold step1
    by_cases h7 : t.val % 8 = 7
    · rw [leaves_live (dat1 (Ix := Ix) (U := U) (Lvl := Lvl) V c) 5 t (liveAt1_5 t h7) rfl, after1_5, acc1_step V c t.val t.isLt h0]
      unfold step1
      iintro ⟨⟨HS, Hr⟩, Ho, ⟨%d0, H0⟩, ⟨%d1, H1⟩, ⟨%d2, H2⟩, ⟨%d3, H3⟩, ⟨%d4, H4⟩, ⟨%d5, H5⟩⟩
      iapply (run1_last 𝒱₀ c (grid1.coords t) _ _ _ _ _ _ _ _ _ _ _ _ _ _ (fun h => h0 ((hcond1_0 t).mp h)) ((hcond1_1 t).mpr h7) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat1 (Ix := Ix) (U := U) (Lvl := Lvl) V c) 5 t (idleAt1_5 t h7) (noFlush1_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run1_mid 𝒱₀ c (grid1.coords t) _ _ _ _ _ _ _ _ _ _ _ _ _ _ (fun h => h0 ((hcond1_0 t).mp h)) (fun h => h7 ((hcond1_1 t).mp h)) (iblk1 V c 0 t) (iblk1 V c 1 t) (iblk1 V c 2 t) (iblk1 V c 3 t) (iblk1 V c 4 t) ((dat1 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation1 (𝒱₀ : Variants) (ι : Ix) (V : Valuation τ sig (Elt F)) (c : Dev nD) :
    BodyObligationLoose (dat1 (Ix := Ix) (U := U) (Lvl := Lvl) V c) (defs₀ (F := F)) 𝒱₀ ι Set.univ := fun t => by
  rw [bigSep_W1, bigSep_W1]
  exact sound_body1 𝒱₀ ι V c t

/-- The same at the type the program's family of configurations gives pipeline 1, on every core. -/
theorem body1 (𝒱₀ : Variants) (ι : Ix) (V : Valuation τ sig (Elt F)) :
    ∀ c : Dev nD, BodyObligationLoose (cfg := cfgs 1) (dat1 (Ix := Ix) (U := U) (Lvl := Lvl) V c) (defs₀ (F := F)) 𝒱₀ ι Set.univ :=
  fun c => body_obligation1 𝒱₀ ι V c

end Cert.Kernel.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg1

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (1 : Fin 24)
/-- Its configuration, its windows but for their index maps, the number of its windows. -/
abbrev cfgK : Pipeline.Cfg sig Λ₀ := cfg1
abbrev specK : Fin 6 → Pipeline.WinSpec sig cfgK.grid.rank := spec1
abbrev nW : Nat := 6
/-- Its output window and the buffer behind it. -/
abbrev oK : Fin nW := 5
abbrev outK : Ref sig .tc := main_v22
theorem winK : Pipeline.WinFacts₀ specK := winFacts₀1
theorem block_posK : ∀ w : Fin nW, 0 < (specK w).block.numel := block_pos1
theorem arr_wholeK : ∀ w : Fin nW, (specK w).arr.IsWhole := arr_whole1
theorem stage_wholeK : ∀ (w : Fin nW) (s : Fin (specK w).nbuf), ((specK w).stage s).IsWhole := stage_whole1

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.Kernel.Hand.Reg1

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R1' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (1 : Fin 24) c = dat1 (V6 m outs c) c)
    (hbody : ∀ c : Dev nD, Pipeline.BodyObligationLoose (dat1 (Ix := Ix) (U := U) (Lvl := Lvl) (V6 m outs c) c) (defs₀ (F := F)) 𝒱₀ ι Set.univ) :
    RegionSeg (pcfgs (F := F)) GenP.adm pdats ι defs₀ 𝒱₀ L lv (1 : Fin 24) :=
  Reg1.RK 𝒱₀ L lv ι pdats (fun c => V6 m outs c)
    (fun c => by rw [hp c]; exact hbody c)
    (fun c w => by rw [hp c]; exact A_eq1 (V6 m outs c) c w)
    (fun c => by rw [hp c]; rw [q1_1, q1_2]; exact PosShare.mem_left_op_right fullShare)
    (fun c => by rw [hp c]; rw [q1_3, q1_4]; exact PosShare.mem_left_op_right fullShare)
    (fun c => by rw [hp c]; exact q1_0 (V6 m outs c) c)
    (fun c t => by rw [hp c]; rfl)
    (fun c => by rw [hp c]; rfl)
    (fun c => by rw [hp c, Phi_first1])
    (fun c => by rw [hp c]; exact Phi_last1 (V6 m outs c) c)

/-- It is entered from the thread state before the region's item, -/
theorem hpre1' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (1 : Fin 24) c = dat1 (V6 m outs c) c)
    (hbody : ∀ c : Dev nD, Pipeline.BodyObligationLoose (dat1 (Ix := Ix) (U := U) (Lvl := Lvl) (V6 m outs c) c) (defs₀ (F := F)) 𝒱₀ ι Set.univ)
    (c : Dev nD) :
    iprop(StableHlo.held (c : Thread nD τ) (Pipeline.ucRefs τ sig) (V6 m outs c) ∗ (R c : sProp 𝕄))
      ⊢ (R1' m outs 𝒱₀ L lv ι pdats hp hbody).pre c := .rfl

/-- and left at the thread state after it. -/
theorem hpost1' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (1 : Fin 24) c = dat1 (V6 m outs c) c)
    (hbody : ∀ c : Dev nD, Pipeline.BodyObligationLoose (dat1 (Ix := Ix) (U := U) (Lvl := Lvl) (V6 m outs c) c) (defs₀ (F := F)) 𝒱₀ ι Set.univ)
    (houts : ∀ c : Dev nD, outs 7 main_v22 c = (dat1 (Ix := Ix) (U := U) (Lvl := Lvl) (V6 m outs c) c).arrAt 5 64)
    (c : Dev nD) :
    (R1' m outs 𝒱₀ L lv ι pdats hp hbody).post c
      ⊢ iprop(StableHlo.held (c : Thread nD τ) (Pipeline.ucRefs τ sig) (V7 m outs c) ∗ (R c : sProp 𝕄)) := by
  have h : (pdats (1 : Fin 24) c).arrAt Reg1.oK Reg1.cfgK.N = outs 7 main_v22 c := by
    rw [hp c]; exact (houts c).symm
  show iprop(StableHlo.held (c : Thread nD τ) (Pipeline.ucRefs τ sig)
      (Function.update (V6 m outs c) (Proc.devRef .tc main_v22) ((pdats (1 : Fin 24) c).arrAt Reg1.oK Reg1.cfgK.N))
        ∗ (R c : sProp 𝕄)) ⊢ _
  rw [h]

end Cert.Kernel.Hand
-- ==== Proof.K_Rg2.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_SumLib
import Idealize.ShloMosaic.Lib.Tactic
import proofs.«169706_j68856915690108_1_alg».proof.Proof.K_Shared
import proofs.«169706_j68856915690108_1_alg».proof.Proof.RegionsK

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k2_pay2)

  and only at the last point, 63, is that cell copied into the 1 × 1 output block, which the pipeline then writes back.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk2 (V : Valuation τ sig (Elt F)) (c : Dev nD) (w : Fin cfg2.W) (t : Fin cfg2.N) :
    ((cfg2.win w).xblock (cfg2.grid.coords t)).Idx → Elt F (cfg2.win w).elt :=
  ((cfg2.win w).blk t).view.read (Elt F)
    (V (Proc.devRef .tc (Pipeline.arrRef spec2 w)) : Buf (Elt F) ((cfg2.win w).arr.view.loc (c.tc : Thread nD τ)))

/-- One point's step on the scratch cell: the cell's contents `a` plus the sum of the tile made of the two blocks
    the point stages (the printed payload of the store into the scratch cell). -/
noncomputable def step2 (V : Valuation τ sig (Elt F)) (c : Dev nD) (n : ℕ) (hn : n < cfg2.N) (a : Vec F S1x1 .f32) : Vec F S1x1 .f32 :=
  k2_pay2 (iblk2 V c 0 ⟨n, hn⟩) (iblk2 V c 1 ⟨n, hn⟩) a

/-- What the scratch cell holds after point `n`: the steps of the points `0 … n` applied, first to last, to the
    zero the body stores at point 0. -/
noncomputable def acc2 (V : Valuation τ sig (Elt F)) (c : Dev nD) : (n : ℕ) → n < cfg2.N → Vec F S1x1 .f32
  | 0, hn => step2 V c 0 hn (k2_pay1 (F := F))
  | n + 1, hn => step2 V c (n + 1) hn (acc2 V c n (Nat.lt_of_succ_lt hn))

theorem acc2_zero (V : Valuation τ sig (Elt F)) (c : Dev nD) (hn : 0 < cfg2.N) :
    acc2 V c 0 hn = step2 V c 0 hn (k2_pay1 (F := F)) := rfl

theorem acc2_succ (V : Valuation τ sig (Elt F)) (c : Dev nD) (n : ℕ) (hn : n + 1 < cfg2.N) :
    acc2 V c (n + 1) hn = step2 V c (n + 1) hn (acc2 V c n (Nat.lt_of_succ_lt hn)) := rfl

/-- After a point that is not the first: the step of that point on what the point before left. -/
theorem acc2_pos (V : Valuation τ sig (Elt F)) (c : Dev nD) (n : ℕ) (hn : n < cfg2.N) (hz : n ≠ 0) :
    acc2 V c n hn = step2 V c n hn (acc2 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi2 (V : Valuation τ sig (Elt F)) (c : Dev nD) : (n : ℕ) → n ≤ cfg2.N → sProp 𝕄
  | 0, _ => Pipeline.scopedRest (Ix := Ix) (Name := ℕ) (U := U) (Lvl := Lvl) (Val := Elt F) spec2 c
  | n + 1, hn => iprop(owns (c : Thread nD τ) (Memref.whole cc2_scratch0) fullShare (acc2 V c n hn)
      ∗ Pipeline.scopedRestBut (Ix := Ix) (Name := ℕ) (U := U) (Lvl := Lvl) (Val := Elt F) spec2 c [cc2_scratch0])

theorem Phi2_zero (V : Valuation τ sig (Elt F)) (c : Dev nD) (n : ℕ) (h : n ≤ cfg2.N) (hz : n = 0) :
    (Phi2 V c n h : sProp 𝕄) = Pipeline.scopedRest (Ix := Ix) (Name := ℕ) (U := U) (Lvl := Lvl) (Val := Elt F) spec2 c := by
  subst hz; rfl

theorem Phi2_succ (V : Valuation τ sig (Elt F)) (c : Dev nD) (n : ℕ) (hn : n < cfg2.N) :
    (Phi2 V c (n + 1) hn : sProp 𝕄) = iprop(owns (c : Thread nD τ) (Memref.whole cc2_scratch0) fullShare (acc2 V c n hn)
      ∗ Pipeline.scopedRestBut (Ix := Ix) (Name := ℕ) (U := U) (Lvl := Lvl) (Val := Elt F) spec2 c [cc2_scratch0]) := rfl

theorem Phi2_pos (V : Valuation τ sig (Elt F)) (c : Dev nD) (n : ℕ) (h : n ≤ cfg2.N) (hz : n ≠ 0) :
    (Phi2 V c n h : sProp 𝕄) = iprop(owns (c : Thread nD τ) (Memref.whole cc2_scratch0) fullShare (acc2 V c (n - 1) (by omega))
      ∗ Pipeline.scopedRestBut (Ix := Ix) (Name := ℕ) (U := U) (Lvl := Lvl) (Val := Elt F) spec2 c [cc2_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi2`; the one
    array the two inputs read held half and half; nothing owed. -/
noncomputable def dat2 (V : Valuation τ sig (Elt F)) (c : Dev nD) : Dat τ (Elt F) Ix ℕ U Lvl cfg2 c where
  A w := V (Proc.devRef .tc (Pipeline.arrRef spec2 w))
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq2 (V : Valuation τ sig (Elt F)) (c : Dev nD) (w : Fin cfg2.W) :
    (dat2 (Ix := Ix) (U := U) (Lvl := Lvl) V c).A w = V (Proc.devRef .tc (Pipeline.arrRef spec2 w)) := by
  dsimp only [dat2]

/-- What the body leaves, window by window. -/
theorem after2_0 (V : Valuation τ sig (Elt F)) (c : Dev nD) (t : Fin cfg2.N) :
    (dat2 (Ix := Ix) (U := U) (Lvl := Lvl) V c).after 0 t = iblk2 V c 0 t := by dsimp only [dat2]
theorem after2_1 (V : Valuation τ sig (Elt F)) (c : Dev nD) (t : Fin cfg2.N) :
    (dat2 (Ix := Ix) (U := U) (Lvl := Lvl) V c).after 1 t = iblk2 V c 1 t := by dsimp only [dat2]
theorem after2_2 (V : Valuation τ sig (Elt F)) (c : Dev nD) (t : Fin cfg2.N) :
    (dat2 (Ix := Ix) (U := U) (Lvl := Lvl) V c).after 2 t = acc2 V c t.val t.isLt := by dsimp only [dat2]

/-- The invariant at a point's start, and at its end. -/
theorem Phi2_castSucc (V : Valuation τ sig (Elt F)) (c : Dev nD) (t : Fin cfg2.N) :
    (dat2 (Ix := Ix) (U := U) (Lvl := Lvl) V c).Φ t.castSucc = Phi2 V c t.val (Nat.le_of_lt t.isLt) := by
  dsimp only [dat2]; simp only [Fin.coe_castSucc]

theorem Phi2_at_succ (V : Valuation τ sig (Elt F)) (c : Dev nD) (t : Fin cfg2.N) :
    (dat2 (Ix := Ix) (U := U) (Lvl := Lvl) V c).Φ t.succ = Phi2 V c (t.val + 1) t.isLt := rfl

/-- Before the first point the invariant is the launch's scoped rest. -/
theorem Phi_first2 (V : Valuation τ sig (Elt F)) (c : Dev nD) :
    (dat2 (Ix := Ix) (U := U) (Lvl := Lvl) V c).Φ 0
      = Pipeline.scopedRest (Ix := Ix) (Name := ℕ) (U := U) (Lvl := Lvl) (Val := Elt F) spec2 c := rfl

/-- After the last point the invariant gives the scoped rest back: the scratch cell's contents are forgotten. -/
theorem Phi_last2 (V : Valuation τ sig (Elt F)) (c : Dev nD) :
    (dat2 (Ix := Ix) (U := U) (Lvl := Lvl) V c).Φ (Fin.last cfg2.N)
      ⊢ Pipeline.scopedRest (Ix := Ix) (Name := ℕ) (U := U) (Lvl := Lvl) (Val := Elt F) spec2 c := by
  have hN : cfg2.N = 64 := N_2
  rw [show (dat2 (Ix := Ix) (U := U) (Lvl := Lvl) V c).Φ (Fin.last cfg2.N) = Phi2 V c (Fin.last cfg2.N).val (Nat.le_of_lt_succ (Fin.last cfg2.N).isLt) from rfl,
    Phi2_pos V c _ _ (by rw [Fin.val_last]; omega), scopedRest2_split, owns_whole]
  iintro ⟨Hs, Hr⟩
  isplitl [Hs]
  · iexists _; iexact Hs
  iexact Hr

example (V : Valuation τ sig (Elt F)) (c : Dev nD) : Dat τ (Elt F) Ix ℕ U Lvl (cfgs 2) c := dat2 V c

end Cert.Kernel.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k2_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond2_1 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond2_2 (i : grid2.Coords) : Prop := k2_cond2 i = 1#1

/-- The reset runs at the first point only, -/
theorem hcond2_1 : ∀ t : Fin cfg2.N, cond2_1 (grid2.coords t) ↔ t.val = 0 :=
  (by decide +kernel : ∀ t : Fin grid2.N, cond2_1 (grid2.coords t) ↔ t.val = 0)
/-- the copy at the last point only. -/
theorem hcond2_2 : ∀ t : Fin cfg2.N, cond2_2 (grid2.coords t) ↔ t.val = 63 :=
  (by decide +kernel : ∀ t : Fin grid2.N, cond2_2 (grid2.coords t) ↔ t.val = 63)

/-! ## The body, case by case, on any whole memrefs -/

/-- The first point: the scratch cell, at anything, is reset and then holds the first step on zero. -/
theorem run2_A (𝒱₀ : Variants) (c : Dev nD) (i : grid2.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond2_1 i) (hc2 : ¬cond2_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k2_pay2 x2 x3 (k2_pay1 (F := F)))) -∗ K ⟨⟩))
      ⊢ wp frame (wpE (defs₀ (F := F)) 𝒱₀ c none) E (cc2__sum_kernel i arg2 harg2 arg3 harg3 arg4 harg4 arg5 harg5) K := by
  simp only [cc2__sum_kernel_eq_skeleton]; unfold cc2__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run2_A.sl.v15 run2_A.sl.H5_1
  rw [readCov_whole _ zeros2, readAt_whole _ _ zeros2, readAt_whole _ _ zeros2]

/-- A point strictly between the first and the last: the scratch cell at `a` takes the point's step. -/
theorem run2_B (𝒱₀ : Variants) (c : Dev nD) (i : grid2.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond2_1 i) (hc2 : ¬cond2_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k2_pay2 x2 x3 a)) -∗ K ⟨⟩))
      ⊢ wp frame (wpE (defs₀ (F := F)) 𝒱₀ c none) E (cc2__sum_kernel i arg2 harg2 arg3 harg3 arg4 harg4 arg5 harg5) K := by
  simp only [cc2__sum_kernel_eq_skeleton]; unfold cc2__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run2_C (𝒱₀ : Variants) (c : Dev nD) (i : grid2.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond2_1 i) (hc2 : cond2_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k2_pay2 x2 x3 a) ∗ owns (c : Thread nD τ) arg5 fullShare (k2_pay2 x2 x3 a)) -∗ K ⟨⟩))
      ⊢ wp frame (wpE (defs₀ (F := F)) 𝒱₀ c none) E (cc2__sum_kernel i arg2 harg2 arg3 harg3 arg4 harg4 arg5 harg5) K := by
  simp only [cc2__sum_kernel_eq_skeleton]; unfold cc2__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run2_C.sl.v25 run2_C.sl.H5_1
    rw [readCov_whole _ zeros2, readAt_whole _ _ zeros2, readAt_whole _ _ zeros2, readAt_whole _ _ zeros2]
  iexists _; isplitr
  swap; · iexact H5
  ipureintro
  unfold run2_C.sl.H5_1
  rw [read_writes_whole _ _ zeros2, readAt_whole _ _ zeros2, readAt_whole _ _ zeros2, readAt_whole _ _ zeros2]

end Cert.Kernel.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle2_2 : ∀ t : Fin cfg2.N, cfg2.idle 2 (grid2.coords t) = true ↔ t.val ≠ 63 :=
  (by decide +kernel : ∀ t : Fin grid2.N, idle2 2 (grid2.coords t) = true ↔ t.val ≠ 63)
/-- and written back at the last point only. -/
theorem flush2_2' : ∀ t : Fin cfg2.N, (cfg2.win 2).flush t = true ↔ t.val = 63 :=
  (by decide +kernel : ∀ t : Fin grid2.N, win2_2.flush t = true ↔ t.val = 63)

/-! ## What the body finds in the inputs' buffers -/

/-- Each input's current staging buffer holds its block at every point, fetched there or not: unfetched, the block
    index has not moved and the body left the block in place. -/
theorem before2_0 (V : Valuation τ sig (Elt F)) (c : Dev nD) (t : Fin cfg2.N) (d) :
    (dat2 (Ix := Ix) (U := U) (Lvl := Lvl) V c).before 0 t d = iblk2 V c 0 t :=
  ((dat2 (Ix := Ix) (U := U) (Lvl := Lvl) V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (V : Valuation τ sig (Elt F)) (c : Dev nD) (t : Fin cfg2.N) (d) :
    (dat2 (Ix := Ix) (U := U) (Lvl := Lvl) V c).before 1 t d = iblk2 V c 1 t :=
  ((dat2 (Ix := Ix) (U := U) (Lvl := Lvl) V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-! ## What the obligation asks of each window's buffer after the body -/

/-- The inputs are never idle: their buffers are handed back at their blocks. -/
theorem leaves2_0 (V : Valuation τ sig (Elt F)) (c : Dev nD) (t : Fin cfg2.N) :
    (dat2 (Ix := Ix) (U := U) (Lvl := Lvl) V c).leaves 0 t = owns (c : Thread nD τ) (st2_0 t) fullShare (iblk2 V c 0 t) := by
  rw [← after2_0 (Ix := Ix) (U := U) (Lvl := Lvl) V c t]

theorem leaves2_1 (V : Valuation τ sig (Elt F)) (c : Dev nD) (t : Fin cfg2.N) :
    (dat2 (Ix := Ix) (U := U) (Lvl := Lvl) V c).leaves 1 t = owns (c : Thread nD τ) (st2_1 t) fullShare (iblk2 V c 1 t) := by
  rw [← after2_1 (Ix := Ix) (U := U) (Lvl := Lvl) V c t]

/-- The output is idle, and not written back, at every point but the last: its buffer is handed back as found; -/
theorem leaves2_2_idle (V : Valuation τ sig (Elt F)) (c : Dev nD) (t : Fin cfg2.N) (h : t.val ≠ 63) :
    (dat2 (Ix := Ix) (U := U) (Lvl := Lvl) V c).leaves 2 t
      = iprop(∃ d, owns (c : Thread nD τ) (st2_2 t) fullShare ((dat2 (Ix := Ix) (U := U) (Lvl := Lvl) V c).before 2 t d)) :=
  (dat2 (Ix := Ix) (U := U) (Lvl := Lvl) V c).leaves_idle 2 t ((idle2_2 t).mpr h)
    (Bool.eq_false_iff.mpr fun hf => h ((flush2_2' t).mp hf))

/-- at the last point it is handed back at the accumulated sum. -/
theorem leaves2_2_last (V : Valuation τ sig (Elt F)) (c : Dev nD) (t : Fin cfg2.N) (h : t.val = 63) :
    (dat2 (Ix := Ix) (U := U) (Lvl := Lvl) V c).leaves 2 t = owns (c : Thread nD τ) (st2_2 t) fullShare (acc2 V c t.val t.isLt) := by
  have hl : cfg2.idle 2 (grid2.coords t) = false := by
    cases hi : cfg2.idle 2 (grid2.coords t) with
    | false => rfl
    | true => exact absurd h ((idle2_2 t).mp hi)
  rw [← after2_2 (Ix := Ix) (U := U) (Lvl := Lvl) V c t]
  unfold Dat.leaves; rw [hl]

/-- One step at a point, through the point itself. -/
theorem step2_at (V : Valuation τ sig (Elt F)) (c : Dev nD) (t : Fin cfg2.N) (a : Vec F S1x1 .f32) :
    step2 V c t.val t.isLt a = k2_pay2 (iblk2 V c 0 t) (iblk2 V c 1 t) a := rfl

theorem acc2_first (V : Valuation τ sig (Elt F)) (c : Dev nD) (n : ℕ) (hn : n < cfg2.N) (hz : n = 0) :
    acc2 V c n hn = step2 V c n hn (k2_pay1 (F := F)) := by
  subst hz; rfl

/-! ## The body obligation -/

/-- What the body is called with at point `t` (the obligation's precondition, the windows one by one), -/
noncomputable def bodyPre2 (V : Valuation τ sig (Elt F)) (ι : Ix) (c : Dev nD) (t : Fin cfg2.N) : sProp 𝕄 :=
  iprop((dat2 (Ix := Ix) (U := U) (Lvl := Lvl) V c).Φ t.castSucc ∗ (dat2 (Ix := Ix) (U := U) (Lvl := Lvl) V c).owesAt ι t.castSucc
    ∗ (∃ d, owns (c : Thread nD τ) (st2_0 t) fullShare ((dat2 (Ix := Ix) (U := U) (Lvl := Lvl) V c).before 0 t d))
    ∗ (∃ d, owns (c : Thread nD τ) (st2_1 t) fullShare ((dat2 (Ix := Ix) (U := U) (Lvl := Lvl) V c).before 1 t d))
    ∗ (∃ d, owns (c : Thread nD τ) (st2_2 t) fullShare ((dat2 (Ix := Ix) (U := U) (Lvl := Lvl) V c).before 2 t d)))

/-- and what it returns. -/
noncomputable def bodyPost2 (V : Valuation τ sig (Elt F)) (ι : Ix) (c : Dev nD) (t : Fin cfg2.N) : sProp 𝕄 :=
  iprop((dat2 (Ix := Ix) (U := U) (Lvl := Lvl) V c).Φ t.succ ∗ (dat2 (Ix := Ix) (U := U) (Lvl := Lvl) V c).owesAt ι t.succ
    ∗ (dat2 (Ix := Ix) (U := U) (Lvl := Lvl) V c).leaves 0 t ∗ (dat2 (Ix := Ix) (U := U) (Lvl := Lvl) V c).leaves 1 t ∗ (dat2 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body2 (V : Valuation τ sig (Elt F)) (𝒱₀ : Variants) (ι : Ix) (c : Dev nD) (t : Fin cfg2.N) :
    bodyPre2 (U := U) (Lvl := Lvl) V ι c t
      ⊢ wp frame (wpE (defs₀ (F := F)) 𝒱₀ c none) Set.univ (bodyAt2 t) (fun _ => bodyPost2 (U := U) (Lvl := Lvl) V ι c t) := by
  unfold bodyPre2 bodyPost2 bodyAt2
  simp only [before2_0, before2_1]
  rw [show (dat2 (Ix := Ix) (U := U) (Lvl := Lvl) V c).owesAt ι t.succ = (dat2 (Ix := Ix) (U := U) (Lvl := Lvl) V c).owesAt ι t.castSucc from rfl]
  rw [Phi2_at_succ, Phi2_succ, Phi2_castSucc, leaves2_0, leaves2_1]
  have hN : t.val < 64 := lt_of_lt_of_eq t.isLt N_2
  by_cases hz : t.val = 0
  · have hc1 : cond2_1 (grid2.coords t) := (hcond2_1 t).mpr hz
    have hc2 : ¬cond2_2 (grid2.coords t) := fun h => by have := (hcond2_2 t).mp h; omega
    rw [leaves2_2_idle V c t (by omega), Phi2_zero V c _ _ hz, scopedRest2_split, acc2_first V c _ _ hz, step2_at]
    iintro ⟨⟨⟨%f, Hs⟩, Hr⟩, Ho, ⟨%d0, H0⟩, ⟨%d1, H1⟩, H2⟩
    iapply (run2_A 𝒱₀ c (grid2.coords t) _ _ _ _ _ _ _ _ hc1 hc2 (iblk2 V c 0 t) (iblk2 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond2_1 (grid2.coords t) := fun h => hz ((hcond2_1 t).mp h)
    rw [Phi2_pos V c _ _ hz, acc2_pos V c _ _ hz, step2_at]
    by_cases hl : t.val = 63
    · have hc2 : cond2_2 (grid2.coords t) := (hcond2_2 t).mpr hl
      rw [leaves2_2_last V c t hl, acc2_pos V c _ _ hz, step2_at]
      iintro ⟨⟨Hs, Hr⟩, Ho, ⟨%d0, H0⟩, ⟨%d1, H1⟩, ⟨%d2, H2⟩⟩
      iapply (run2_C 𝒱₀ c (grid2.coords t) _ _ _ _ _ _ _ _ hc1 hc2 (iblk2 V c 0 t) (iblk2 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond2_2 (grid2.coords t) := fun h => hl ((hcond2_2 t).mp h)
      rw [leaves2_2_idle V c t hl]
      iintro ⟨⟨Hs, Hr⟩, Ho, ⟨%d0, H0⟩, ⟨%d1, H1⟩, H2⟩
      iapply (run2_B 𝒱₀ c (grid2.coords t) _ _ _ _ _ _ _ _ hc1 hc2 (iblk2 V c 0 t) (iblk2 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body2 (V : Valuation τ sig (Elt F)) (𝒱₀ : Variants) (ι : Ix) :
    ∀ c : Dev nD, BodyObligationLoose (dat2 (Ix := Ix) (U := U) (Lvl := Lvl) V c) (defs₀ (F := F)) 𝒱₀ ι Set.univ := fun c t => by
  rw [bigSep_W2, bigSep_W2]
  exact sound_body2 (U := U) (Lvl := Lvl) V 𝒱₀ ι c t

end Cert.Kernel.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg2

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (2 : Fin 24)
/-- Its configuration, its windows but for their index maps, the number of its windows. -/
abbrev cfgK : Pipeline.Cfg sig Λ₀ := cfg2
abbrev specK : Fin 3 → Pipeline.WinSpec sig cfgK.grid.rank := spec2
abbrev nW : Nat := 3
/-- Its output window and the buffer behind it. -/
abbrev oK : Fin nW := 2
abbrev outK : Ref sig .tc := main_v88
theorem winK : Pipeline.WinFacts₀ specK := winFacts₀2
theorem block_posK : ∀ w : Fin nW, 0 < (specK w).block.numel := block_pos2
theorem arr_wholeK : ∀ w : Fin nW, (specK w).arr.IsWhole := arr_whole2
theorem stage_wholeK : ∀ (w : Fin nW) (s : Fin (specK w).nbuf), ((specK w).stage s).IsWhole := stage_whole2

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.Kernel.Hand.Reg2

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R2' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (2 : Fin 24) c = dat2 (V15 m outs c) c)
    (hbody : ∀ c : Dev nD, Pipeline.BodyObligationLoose (dat2 (Ix := Ix) (U := U) (Lvl := Lvl) (V15 m outs c) c) (defs₀ (F := F)) 𝒱₀ ι Set.univ) :
    RegionSeg (pcfgs (F := F)) GenP.adm pdats ι defs₀ 𝒱₀ L lv (2 : Fin 24) :=
  Reg2.RK 𝒱₀ L lv ι pdats (fun c => V15 m outs c)
    (fun c => by rw [hp c]; exact hbody c)
    (fun c w => by rw [hp c]; exact A_eq2 (V15 m outs c) c w)
    (fun c => by rw [hp c]; exact PosShare.mem_left_op_right fullShare)
    (fun c t => by rw [hp c]; rfl)
    (fun c => by rw [hp c]; rfl)
    (fun c => by rw [hp c, Phi_first2])
    (fun c => by rw [hp c]; exact Phi_last2 (V15 m outs c) c)

/-- It is entered from the thread state before the region's item, -/
theorem hpre2' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (2 : Fin 24) c = dat2 (V15 m outs c) c)
    (hbody : ∀ c : Dev nD, Pipeline.BodyObligationLoose (dat2 (Ix := Ix) (U := U) (Lvl := Lvl) (V15 m outs c) c) (defs₀ (F := F)) 𝒱₀ ι Set.univ)
    (c : Dev nD) :
    iprop(StableHlo.held (c : Thread nD τ) (Pipeline.ucRefs τ sig) (V15 m outs c) ∗ (R c : sProp 𝕄))
      ⊢ (R2' m outs 𝒱₀ L lv ι pdats hp hbody).pre c := .rfl

/-- and left at the thread state after it. -/
theorem hpost2' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (2 : Fin 24) c = dat2 (V15 m outs c) c)
    (hbody : ∀ c : Dev nD, Pipeline.BodyObligationLoose (dat2 (Ix := Ix) (U := U) (Lvl := Lvl) (V15 m outs c) c) (defs₀ (F := F)) 𝒱₀ ι Set.univ)
    (houts : ∀ c : Dev nD, outs 16 main_v88 c = (dat2 (Ix := Ix) (U := U) (Lvl := Lvl) (V15 m outs c) c).arrAt 2 64)
    (c : Dev nD) :
    (R2' m outs 𝒱₀ L lv ι pdats hp hbody).post c
      ⊢ iprop(StableHlo.held (c : Thread nD τ) (Pipeline.ucRefs τ sig) (V16 m outs c) ∗ (R c : sProp 𝕄)) := by
  have h : (pdats (2 : Fin 24) c).arrAt Reg2.oK Reg2.cfgK.N = outs 16 main_v88 c := by
    rw [hp c]; exact (houts c).symm
  show iprop(StableHlo.held (c : Thread nD τ) (Pipeline.ucRefs τ sig)
      (Function.update (V15 m outs c) (Proc.devRef .tc main_v88) ((pdats (2 : Fin 24) c).arrAt Reg2.oK Reg2.cfgK.N))
        ∗ (R c : sProp 𝕄)) ⊢ _
  rw [h]

end Cert.Kernel.Hand
-- ==== Proof.K_Rg3.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_ApplyLib
import proofs.«169706_j68856915690108_1_alg».proof.Proof.K_Shared
import proofs.«169706_j68856915690108_1_alg».proof.Proof.RegionsK

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k3_pay1 x_i` and `step t a = k3_pay2 h_i h_j threshold x_j a`, the printed payloads of the two stores.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk3 (V : Valuation τ sig (Elt F)) (c : Dev nD) (w : Fin cfg3.W) (t : Fin cfg3.N) :
    ((cfg3.win w).xblock (cfg3.grid.coords t)).Idx → Elt F (cfg3.win w).elt :=
  ((cfg3.win w).blk t).view.read (Elt F)
    (V (Proc.devRef .tc (Pipeline.arrRef spec3 w)) : Buf (Elt F) ((cfg3.win w).arr.view.loc (c.tc : Thread nD τ)))

/-- What the accumulator is reset to at a point whose second coordinate is 0: 1.0 times the block of `x` window 3
    stages there (the printed payload of the first store into the scratch buffer). -/
noncomputable def init3 (V : Valuation τ sig (Elt F)) (c : Dev nD) (n : ℕ) (hn : n < cfg3.N) : Vec F S512x256 .f32 :=
  k3_pay1 (iblk3 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step3 (V : Valuation τ sig (Elt F)) (c : Dev nD) (n : ℕ) (hn : n < cfg3.N) (a : Vec F S512x256 .f32) : Vec F S512x256 .f32 :=
  k3_pay2 (iblk3 V c 1 ⟨n, hn⟩) (iblk3 V c 2 ⟨n, hn⟩) (iblk3 V c 0 ⟨n, hn⟩) (iblk3 V c 4 ⟨n, hn⟩) a

/-- What the accumulator holds after point `n`: reset and stepped at the points ≡ 0 (mod 8), stepped from what the
    point before left at the others. -/
noncomputable def acc3 (V : Valuation τ sig (Elt F)) (c : Dev nD) : (n : ℕ) → n < cfg3.N → Vec F S512x256 .f32
  | 0, hn => step3 V c 0 hn (init3 V c 0 hn)
  | n + 1, hn =>
    if (n + 1) % 8 = 0 then step3 V c (n + 1) hn (init3 V c (n + 1) hn)
    else step3 V c (n + 1) hn (acc3 V c n (Nat.lt_of_succ_lt hn))

/-- After a point ≡ 0 (mod 8): the reset value, stepped once. -/
theorem acc3_reset (V : Valuation τ sig (Elt F)) (c : Dev nD) (n : ℕ) (hn : n < cfg3.N) (h0 : n % 8 = 0) :
    acc3 V c n hn = step3 V c n hn (init3 V c n hn) := by
  cases n with
  | zero => rfl
  | succ n => exact if_pos h0

/-- After any other point: that point's step on what the point before left. -/
theorem acc3_step (V : Valuation τ sig (Elt F)) (c : Dev nD) (n : ℕ) (hn : n < cfg3.N) (h0 : ¬n % 8 = 0) :
    acc3 V c n hn = step3 V c n hn (acc3 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi3 (V : Valuation τ sig (Elt F)) (c : Dev nD) : (n : ℕ) → n ≤ cfg3.N → sProp 𝕄
  | 0, _ => Pipeline.scopedRest (Ix := Ix) (Name := ℕ) (U := U) (Lvl := Lvl) (Val := Elt F) spec3 c
  | n + 1, hn => iprop(owns (c : Thread nD τ) (Memref.whole cc3_scratch0) fullShare (acc3 V c n hn)
      ∗ Pipeline.scopedRestBut (Ix := Ix) (Name := ℕ) (U := U) (Lvl := Lvl) (Val := Elt F) spec3 c [cc3_scratch0])

theorem Phi3_zero (V : Valuation τ sig (Elt F)) (c : Dev nD) (n : ℕ) (h : n ≤ cfg3.N) (hz : n = 0) :
    (Phi3 V c n h : sProp 𝕄) = Pipeline.scopedRest (Ix := Ix) (Name := ℕ) (U := U) (Lvl := Lvl) (Val := Elt F) spec3 c := by
  subst hz; rfl

theorem Phi3_succ (V : Valuation τ sig (Elt F)) (c : Dev nD) (n : ℕ) (hn : n < cfg3.N) :
    (Phi3 V c (n + 1) hn : sProp 𝕄) = iprop(owns (c : Thread nD τ) (Memref.whole cc3_scratch0) fullShare (acc3 V c n hn)
      ∗ Pipeline.scopedRestBut (Ix := Ix) (Name := ℕ) (U := U) (Lvl := Lvl) (Val := Elt F) spec3 c [cc3_scratch0]) := rfl

theorem Phi3_pos (V : Valuation τ sig (Elt F)) (c : Dev nD) (n : ℕ) (h : n ≤ cfg3.N) (hz : n ≠ 0) :
    (Phi3 V c n h : sProp 𝕄) = iprop(owns (c : Thread nD τ) (Memref.whole cc3_scratch0) fullShare (acc3 V c (n - 1) (by omega))
      ∗ Pipeline.scopedRestBut (Ix := Ix) (Name := ℕ) (U := U) (Lvl := Lvl) (Val := Elt F) spec3 c [cc3_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi3`; the
    threshold's array held whole, each of the two arrays that two input windows read held half and half; nothing owed. -/
noncomputable def dat3 (V : Valuation τ sig (Elt F)) (c : Dev nD) : Dat τ (Elt F) Ix ℕ U Lvl cfg3 c where
  A w := V (Proc.devRef .tc (Pipeline.arrRef spec3 w))
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => acc3 V c t.val t.isLt
  Φ t := Phi3 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq3 (V : Valuation τ sig (Elt F)) (c : Dev nD) (w : Fin cfg3.W) :
    (dat3 (Ix := Ix) (U := U) (Lvl := Lvl) V c).A w = V (Proc.devRef .tc (Pipeline.arrRef spec3 w)) := by
  dsimp only [dat3]

/-- What the body leaves, window by window. -/
theorem after3_0 (V : Valuation τ sig (Elt F)) (c : Dev nD) (t : Fin cfg3.N) :
    (dat3 (Ix := Ix) (U := U) (Lvl := Lvl) V c).after 0 t = iblk3 V c 0 t := by dsimp only [dat3]
theorem after3_1 (V : Valuation τ sig (Elt F)) (c : Dev nD) (t : Fin cfg3.N) :
    (dat3 (Ix := Ix) (U := U) (Lvl := Lvl) V c).after 1 t = iblk3 V c 1 t := by dsimp only [dat3]
theorem after3_2 (V : Valuation τ sig (Elt F)) (c : Dev nD) (t : Fin cfg3.N) :
    (dat3 (Ix := Ix) (U := U) (Lvl := Lvl) V c).after 2 t = iblk3 V c 2 t := by dsimp only [dat3]
theorem after3_3 (V : Valuation τ sig (Elt F)) (c : Dev nD) (t : Fin cfg3.N) :
    (dat3 (Ix := Ix) (U := U) (Lvl := Lvl) V c).after 3 t = iblk3 V c 3 t := by dsimp only [dat3]
theorem after3_4 (V : Valuation τ sig (Elt F)) (c : Dev nD) (t : Fin cfg3.N) :
    (dat3 (Ix := Ix) (U := U) (Lvl := Lvl) V c).after 4 t = iblk3 V c 4 t := by dsimp only [dat3]
theorem after3_5 (V : Valuation τ sig (Elt F)) (c : Dev nD) (t : Fin cfg3.N) :
    (dat3 (Ix := Ix) (U := U) (Lvl := Lvl) V c).after 5 t = acc3 V c t.val t.isLt := by dsimp only [dat3]

/-- The shares the input arrays are held at. -/
theorem q3_0 (V : Valuation τ sig (Elt F)) (c : Dev nD) : (dat3 (Ix := Ix) (U := U) (Lvl := Lvl) V c).q 0 = fullShare := by dsimp only [dat3]
theorem q3_1 (V : Valuation τ sig (Elt F)) (c : Dev nD) : (dat3 (Ix := Ix) (U := U) (Lvl := Lvl) V c).q 1 = fullShare.left := by dsimp only [dat3]
theorem q3_2 (V : Valuation τ sig (Elt F)) (c : Dev nD) : (dat3 (Ix := Ix) (U := U) (Lvl := Lvl) V c).q 2 = fullShare.right := by dsimp only [dat3]
theorem q3_3 (V : Valuation τ sig (Elt F)) (c : Dev nD) : (dat3 (Ix := Ix) (U := U) (Lvl := Lvl) V c).q 3 = fullShare.left := by dsimp only [dat3]
theorem q3_4 (V : Valuation τ sig (Elt F)) (c : Dev nD) : (dat3 (Ix := Ix) (U := U) (Lvl := Lvl) V c).q 4 = fullShare.right := by dsimp only [dat3]

/-- The invariant at a point's start, and at its end. -/
theorem Phi3_castSucc (V : Valuation τ sig (Elt F)) (c : Dev nD) (t : Fin cfg3.N) :
    (dat3 (Ix := Ix) (U := U) (Lvl := Lvl) V c).Φ t.castSucc = Phi3 V c t.val (Nat.le_of_lt t.isLt) := by
  dsimp only [dat3]; simp only [Fin.coe_castSucc]

theorem Phi3_at_succ (V : Valuation τ sig (Elt F)) (c : Dev nD) (t : Fin cfg3.N) :
    (dat3 (Ix := Ix) (U := U) (Lvl := Lvl) V c).Φ t.succ = Phi3 V c (t.val + 1) t.isLt := rfl

/-- Before the first point the invariant is the launch's scoped rest. -/
theorem Phi_first3 (V : Valuation τ sig (Elt F)) (c : Dev nD) :
    (dat3 (Ix := Ix) (U := U) (Lvl := Lvl) V c).Φ 0
      = Pipeline.scopedRest (Ix := Ix) (Name := ℕ) (U := U) (Lvl := Lvl) (Val := Elt F) spec3 c := rfl

/-- After the last point the invariant gives the scoped rest back: the accumulator's contents are forgotten. -/
theorem Phi_last3 (V : Valuation τ sig (Elt F)) (c : Dev nD) :
    (dat3 (Ix := Ix) (U := U) (Lvl := Lvl) V c).Φ (Fin.last cfg3.N)
      ⊢ Pipeline.scopedRest (Ix := Ix) (Name := ℕ) (U := U) (Lvl := Lvl) (Val := Elt F) spec3 c := by
  have hN : cfg3.N = 64 := N_3
  rw [show (dat3 (Ix := Ix) (U := U) (Lvl := Lvl) V c).Φ (Fin.last cfg3.N) = Phi3 V c (Fin.last cfg3.N).val (Nat.le_of_lt_succ (Fin.last cfg3.N).isLt) from rfl,
    Phi3_pos V c _ _ (by rw [Fin.val_last]; omega), scopedRest3_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 3) c := dat3 V c

end Cert.Kernel.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k3_pay2 hI hJ mn xJ s` — `s` plus the 0/1 mask of (hI · hJᵀ > mn) times `xJ` — and the value
  the accumulator is reset to is `k3_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond3_0 (i : grid3.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond3_1 (i : grid3.Coords) : Prop := k3_cond2 i = 1#1

/-! ## The three runs -/

/-- At a point whose second coordinate is 0 (and not 7): the accumulator, at anything, is reset to `k3_pay1 xI` and
    stepped once; every window's buffer is handed back as found. -/
theorem run3_first (𝒱₀ : Variants) (c : Dev nD) (i : grid3.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond3_0 i) (hc1 : ¬cond3_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k3_pay2 hI hJ mn xJ (k3_pay1 xI))) -∗ K ⟨⟩))
      ⊢ wp frame (wpE (defs₀ (F := F)) 𝒱₀ c none) E (cc3__apply_kernel i arg2 harg2 arg3 harg3 arg4 harg4 arg5 harg5 arg6 harg6 arg7 harg7 arg8 harg8) K := by
  simp only [cc3__apply_kernel_eq_skeleton]; unfold cc3__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run3_mid (𝒱₀ : Variants) (c : Dev nD) (i : grid3.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond3_0 i) (hc1 : ¬cond3_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k3_pay2 hI hJ mn xJ s)) -∗ K ⟨⟩))
      ⊢ wp frame (wpE (defs₀ (F := F)) 𝒱₀ c none) E (cc3__apply_kernel i arg2 harg2 arg3 harg3 arg4 harg4 arg5 harg5 arg6 harg6 arg7 harg7 arg8 harg8) K := by
  simp only [cc3__apply_kernel_eq_skeleton]; unfold cc3__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run3_last (𝒱₀ : Variants) (c : Dev nD) (i : grid3.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond3_0 i) (hc1 : cond3_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k3_pay2 hI hJ mn xJ s)
        ∗ owns (c : Thread nD τ) arg8 fullShare (k3_pay2 hI hJ mn xJ s)) -∗ K ⟨⟩))
      ⊢ wp frame (wpE (defs₀ (F := F)) 𝒱₀ c none) E (cc3__apply_kernel i arg2 harg2 arg3 harg3 arg4 harg4 arg5 harg5 arg6 harg6 arg7 harg7 arg8 harg8) K := by
  simp only [cc3__apply_kernel_eq_skeleton]; unfold cc3__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.Kernel.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc3`. The three control cases are
  decided over the grid by the point's residue mod 8, and in each the kernel's run (ApplyRun.lean) applies.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond3_0 : ∀ t : Fin cfg3.N, cond3_0 (grid3.coords t) ↔ t.val % 8 = 0 :=
  (by decide +kernel : ∀ t : Fin grid3.N, cond3_0 (grid3.coords t) ↔ t.val % 8 = 0)
/-- It is stored into the output block at the points ≡ 7 (mod 8). -/
theorem hcond3_1 : ∀ t : Fin cfg3.N, cond3_1 (grid3.coords t) ↔ t.val % 8 = 7 :=
  (by decide +kernel : ∀ t : Fin grid3.N, cond3_1 (grid3.coords t) ↔ t.val % 8 = 7)
/-- The output window is idle at every other point, -/
theorem idleAt3_5 : ∀ t : Fin cfg3.N, ¬t.val % 8 = 7 → cfg3.idle 5 (grid3.coords t) = true :=
  (by decide +kernel : ∀ t : Fin grid3.N, ¬t.val % 8 = 7 → cfg3.idle 5 (grid3.coords t) = true)
/-- live at those, -/
theorem liveAt3_5 : ∀ t : Fin cfg3.N, t.val % 8 = 7 → cfg3.idle 5 (grid3.coords t) = false :=
  (by decide +kernel : ∀ t : Fin grid3.N, t.val % 8 = 7 → cfg3.idle 5 (grid3.coords t) = false)
/-- and not written back where it is idle. -/
theorem noFlush3_5 (t : Fin cfg3.N) (h : ¬t.val % 8 = 7) : (cfg3.win 5).flush t = false := by
  cases hf : (cfg3.win 5).flush t with
  | false => rfl
  | true => exact absurd ((flush3_5 t).mp hf) h

/-! ## What the body finds in the inputs' buffers and leaves in every buffer -/

/-- Each input's current staging buffer holds its block at every point, fetched there or not. -/
theorem before3_0 (V : Valuation τ sig (Elt F)) (c : Dev nD) (t : Fin cfg3.N) (d) : (dat3 (Ix := Ix) (U := U) (Lvl := Lvl) V c).before 0 t d = iblk3 V c 0 t :=
  ((dat3 (Ix := Ix) (U := U) (Lvl := Lvl) V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (V : Valuation τ sig (Elt F)) (c : Dev nD) (t : Fin cfg3.N) (d) : (dat3 (Ix := Ix) (U := U) (Lvl := Lvl) V c).before 1 t d = iblk3 V c 1 t :=
  ((dat3 (Ix := Ix) (U := U) (Lvl := Lvl) V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (V : Valuation τ sig (Elt F)) (c : Dev nD) (t : Fin cfg3.N) (d) : (dat3 (Ix := Ix) (U := U) (Lvl := Lvl) V c).before 2 t d = iblk3 V c 2 t :=
  ((dat3 (Ix := Ix) (U := U) (Lvl := Lvl) V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)
theorem before3_3 (V : Valuation τ sig (Elt F)) (c : Dev nD) (t : Fin cfg3.N) (d) : (dat3 (Ix := Ix) (U := U) (Lvl := Lvl) V c).before 3 t d = iblk3 V c 3 t :=
  ((dat3 (Ix := Ix) (U := U) (Lvl := Lvl) V c).before_in_eq_fetched 3 rfl (fun _ => rfl) (fun _ _ _ => rfl)
      (fun t => by rw [after3_3]; unfold Dat.blockOf iblk3; rw [A_eq3]; try rfl) t d).trans
    (by unfold Dat.fetched Dat.blockOf iblk3; rw [A_eq3]; try rfl)
theorem before3_4 (V : Valuation τ sig (Elt F)) (c : Dev nD) (t : Fin cfg3.N) (d) : (dat3 (Ix := Ix) (U := U) (Lvl := Lvl) V c).before 4 t d = iblk3 V c 4 t :=
  ((dat3 (Ix := Ix) (U := U) (Lvl := Lvl) V c).before_in_eq_fetched 4 rfl (fun _ => rfl) (fun _ _ _ => rfl)
      (fun t => by rw [after3_4]; unfold Dat.blockOf iblk3; rw [A_eq3]; try rfl) t d).trans
    (by unfold Dat.fetched Dat.blockOf iblk3; rw [A_eq3]; try rfl)

/-! ## The body obligation, at a generic point -/

/-- What the body is called with at point `t` (the obligation's precondition, the windows one by one), -/
noncomputable def bodyPre3 (V : Valuation τ sig (Elt F)) (c : Dev nD) (ι : Ix) (t : Fin cfg3.N) : sProp 𝕄 :=
  iprop((dat3 (Ix := Ix) (U := U) (Lvl := Lvl) V c).Φ t.castSucc ∗ (dat3 (Ix := Ix) (U := U) (Lvl := Lvl) V c).owesAt ι t.castSucc
    ∗ (∃ d, owns (c : Thread nD τ) (st3_0 t) fullShare ((dat3 (Ix := Ix) (U := U) (Lvl := Lvl) V c).before 0 t d))
    ∗ (∃ d, owns (c : Thread nD τ) (st3_1 t) fullShare ((dat3 (Ix := Ix) (U := U) (Lvl := Lvl) V c).before 1 t d))
    ∗ (∃ d, owns (c : Thread nD τ) (st3_2 t) fullShare ((dat3 (Ix := Ix) (U := U) (Lvl := Lvl) V c).before 2 t d))
    ∗ (∃ d, owns (c : Thread nD τ) (st3_3 t) fullShare ((dat3 (Ix := Ix) (U := U) (Lvl := Lvl) V c).before 3 t d))
    ∗ (∃ d, owns (c : Thread nD τ) (st3_4 t) fullShare ((dat3 (Ix := Ix) (U := U) (Lvl := Lvl) V c).before 4 t d))
    ∗ (∃ d, owns (c : Thread nD τ) (st3_5 t) fullShare ((dat3 (Ix := Ix) (U := U) (Lvl := Lvl) V c).before 5 t d)))

/-- and what it returns. -/
noncomputable def bodyPost3 (V : Valuation τ sig (Elt F)) (c : Dev nD) (ι : Ix) (t : Fin cfg3.N) : sProp 𝕄 :=
  iprop((dat3 (Ix := Ix) (U := U) (Lvl := Lvl) V c).Φ t.succ ∗ (dat3 (Ix := Ix) (U := U) (Lvl := Lvl) V c).owesAt ι t.succ
    ∗ (dat3 (Ix := Ix) (U := U) (Lvl := Lvl) V c).leaves 0 t ∗ (dat3 (Ix := Ix) (U := U) (Lvl := Lvl) V c).leaves 1 t ∗ (dat3 (Ix := Ix) (U := U) (Lvl := Lvl) V c).leaves 2 t
    ∗ (dat3 (Ix := Ix) (U := U) (Lvl := Lvl) V c).leaves 3 t ∗ (dat3 (Ix := Ix) (U := U) (Lvl := Lvl) V c).leaves 4 t ∗ (dat3 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body3 (𝒱₀ : Variants) (ι : Ix) (V : Valuation τ sig (Elt F)) (c : Dev nD) (t : Fin cfg3.N) :
    bodyPre3 (Ix := Ix) (U := U) (Lvl := Lvl) V c ι t ⊢ wp frame (wpE (defs₀ (F := F)) 𝒱₀ c none) Set.univ (bodyAt3 t) (fun _ => bodyPost3 (Ix := Ix) (U := U) (Lvl := Lvl) V c ι t) := by
  unfold bodyPre3 bodyPost3 bodyAt3
  simp only [before3_0, before3_1, before3_2, before3_3, before3_4]
  rw [show (dat3 (Ix := Ix) (U := U) (Lvl := Lvl) V c).owesAt ι t.succ = (dat3 (Ix := Ix) (U := U) (Lvl := Lvl) V c).owesAt ι t.castSucc from rfl]
  rw [Phi3_at_succ, Phi3_succ, Phi3_castSucc]
  rw [leaves_live (dat3 (Ix := Ix) (U := U) (Lvl := Lvl) V c) 0 t rfl rfl, leaves_live (dat3 (Ix := Ix) (U := U) (Lvl := Lvl) V c) 1 t rfl rfl, leaves_live (dat3 (Ix := Ix) (U := U) (Lvl := Lvl) V c) 2 t rfl rfl,
    leaves_live (dat3 (Ix := Ix) (U := U) (Lvl := Lvl) V c) 3 t rfl rfl, leaves_live (dat3 (Ix := Ix) (U := U) (Lvl := Lvl) V c) 4 t rfl rfl, after3_0, after3_1, after3_2, after3_3, after3_4]
  have hN : t.val < 64 := lt_of_lt_of_eq t.isLt (show cfg3.N = 64 from N_3)
  by_cases h0 : t.val % 8 = 0
  · have h7 : ¬t.val % 8 = 7 := by omega
    rw [Dat.leaves_idle (dat3 (Ix := Ix) (U := U) (Lvl := Lvl) V c) 5 t (idleAt3_5 t h7) (noFlush3_5 t h7)]
    rw [acc3_reset V c t.val t.isLt h0]
    unfold step3 init3
    by_cases hz : t.val = 0
    · rw [Phi3_zero V c _ _ hz, scopedRest3_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run3_first 𝒱₀ c (grid3.coords t) _ _ _ _ _ _ _ _ _ _ _ _ _ _ ((hcond3_0 t).mpr h0) (fun h => h7 ((hcond3_1 t).mp h)) (iblk3 V c 0 t) (iblk3 V c 1 t) (iblk3 V c 2 t) (iblk3 V c 3 t) (iblk3 V c 4 t) ((dat3 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi3_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run3_first 𝒱₀ c (grid3.coords t) _ _ _ _ _ _ _ _ _ _ _ _ _ _ ((hcond3_0 t).mpr h0) (fun h => h7 ((hcond3_1 t).mp h)) (iblk3 V c 0 t) (iblk3 V c 1 t) (iblk3 V c 2 t) (iblk3 V c 3 t) (iblk3 V c 4 t) ((dat3 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc3_step V c t.val t.isLt h0, Phi3_pos V c _ _ hz]
    unfold step3
    by_cases h7 : t.val % 8 = 7
    · rw [leaves_live (dat3 (Ix := Ix) (U := U) (Lvl := Lvl) V c) 5 t (liveAt3_5 t h7) rfl, after3_5, acc3_step V c t.val t.isLt h0]
      unfold step3
      iintro ⟨⟨HS, Hr⟩, Ho, ⟨%d0, H0⟩, ⟨%d1, H1⟩, ⟨%d2, H2⟩, ⟨%d3, H3⟩, ⟨%d4, H4⟩, ⟨%d5, H5⟩⟩
      iapply (run3_last 𝒱₀ c (grid3.coords t) _ _ _ _ _ _ _ _ _ _ _ _ _ _ (fun h => h0 ((hcond3_0 t).mp h)) ((hcond3_1 t).mpr h7) (iblk3 V c 0 t) (iblk3 V c 1 t) (iblk3 V c 2 t) (iblk3 V c 3 t) (iblk3 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat3 (Ix := Ix) (U := U) (Lvl := Lvl) V c) 5 t (idleAt3_5 t h7) (noFlush3_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run3_mid 𝒱₀ c (grid3.coords t) _ _ _ _ _ _ _ _ _ _ _ _ _ _ (fun h => h0 ((hcond3_0 t).mp h)) (fun h => h7 ((hcond3_1 t).mp h)) (iblk3 V c 0 t) (iblk3 V c 1 t) (iblk3 V c 2 t) (iblk3 V c 3 t) (iblk3 V c 4 t) ((dat3 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation3 (𝒱₀ : Variants) (ι : Ix) (V : Valuation τ sig (Elt F)) (c : Dev nD) :
    BodyObligationLoose (dat3 (Ix := Ix) (U := U) (Lvl := Lvl) V c) (defs₀ (F := F)) 𝒱₀ ι Set.univ := fun t => by
  rw [bigSep_W3, bigSep_W3]
  exact sound_body3 𝒱₀ ι V c t

/-- The same at the type the program's family of configurations gives pipeline 1, on every core. -/
theorem body3 (𝒱₀ : Variants) (ι : Ix) (V : Valuation τ sig (Elt F)) :
    ∀ c : Dev nD, BodyObligationLoose (cfg := cfgs 3) (dat3 (Ix := Ix) (U := U) (Lvl := Lvl) V c) (defs₀ (F := F)) 𝒱₀ ι Set.univ :=
  fun c => body_obligation3 𝒱₀ ι V c

end Cert.Kernel.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg3

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (3 : Fin 24)
/-- Its configuration, its windows but for their index maps, the number of its windows. -/
abbrev cfgK : Pipeline.Cfg sig Λ₀ := cfg3
abbrev specK : Fin 6 → Pipeline.WinSpec sig cfgK.grid.rank := spec3
abbrev nW : Nat := 6
/-- Its output window and the buffer behind it. -/
abbrev oK : Fin nW := 5
abbrev outK : Ref sig .tc := main_v91
theorem winK : Pipeline.WinFacts₀ specK := winFacts₀3
theorem block_posK : ∀ w : Fin nW, 0 < (specK w).block.numel := block_pos3
theorem arr_wholeK : ∀ w : Fin nW, (specK w).arr.IsWhole := arr_whole3
theorem stage_wholeK : ∀ (w : Fin nW) (s : Fin (specK w).nbuf), ((specK w).stage s).IsWhole := stage_whole3

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.Kernel.Hand.Reg3

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R3' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (3 : Fin 24) c = dat3 (V17 m outs c) c)
    (hbody : ∀ c : Dev nD, Pipeline.BodyObligationLoose (dat3 (Ix := Ix) (U := U) (Lvl := Lvl) (V17 m outs c) c) (defs₀ (F := F)) 𝒱₀ ι Set.univ) :
    RegionSeg (pcfgs (F := F)) GenP.adm pdats ι defs₀ 𝒱₀ L lv (3 : Fin 24) :=
  Reg3.RK 𝒱₀ L lv ι pdats (fun c => V17 m outs c)
    (fun c => by rw [hp c]; exact hbody c)
    (fun c w => by rw [hp c]; exact A_eq3 (V17 m outs c) c w)
    (fun c => by rw [hp c]; rw [q3_1, q3_2]; exact PosShare.mem_left_op_right fullShare)
    (fun c => by rw [hp c]; rw [q3_3, q3_4]; exact PosShare.mem_left_op_right fullShare)
    (fun c => by rw [hp c]; exact q3_0 (V17 m outs c) c)
    (fun c t => by rw [hp c]; rfl)
    (fun c => by rw [hp c]; rfl)
    (fun c => by rw [hp c, Phi_first3])
    (fun c => by rw [hp c]; exact Phi_last3 (V17 m outs c) c)

/-- It is entered from the thread state before the region's item, -/
theorem hpre3' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (3 : Fin 24) c = dat3 (V17 m outs c) c)
    (hbody : ∀ c : Dev nD, Pipeline.BodyObligationLoose (dat3 (Ix := Ix) (U := U) (Lvl := Lvl) (V17 m outs c) c) (defs₀ (F := F)) 𝒱₀ ι Set.univ)
    (c : Dev nD) :
    iprop(StableHlo.held (c : Thread nD τ) (Pipeline.ucRefs τ sig) (V17 m outs c) ∗ (R c : sProp 𝕄))
      ⊢ (R3' m outs 𝒱₀ L lv ι pdats hp hbody).pre c := .rfl

/-- and left at the thread state after it. -/
theorem hpost3' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (3 : Fin 24) c = dat3 (V17 m outs c) c)
    (hbody : ∀ c : Dev nD, Pipeline.BodyObligationLoose (dat3 (Ix := Ix) (U := U) (Lvl := Lvl) (V17 m outs c) c) (defs₀ (F := F)) 𝒱₀ ι Set.univ)
    (houts : ∀ c : Dev nD, outs 18 main_v91 c = (dat3 (Ix := Ix) (U := U) (Lvl := Lvl) (V17 m outs c) c).arrAt 5 64)
    (c : Dev nD) :
    (R3' m outs 𝒱₀ L lv ι pdats hp hbody).post c
      ⊢ iprop(StableHlo.held (c : Thread nD τ) (Pipeline.ucRefs τ sig) (V18 m outs c) ∗ (R c : sProp 𝕄)) := by
  have h : (pdats (3 : Fin 24) c).arrAt Reg3.oK Reg3.cfgK.N = outs 18 main_v91 c := by
    rw [hp c]; exact (houts c).symm
  show iprop(StableHlo.held (c : Thread nD τ) (Pipeline.ucRefs τ sig)
      (Function.update (V17 m outs c) (Proc.devRef .tc main_v91) ((pdats (3 : Fin 24) c).arrAt Reg3.oK Reg3.cfgK.N))
        ∗ (R c : sProp 𝕄)) ⊢ _
  rw [h]

end Cert.Kernel.Hand
-- ==== Proof.K_Rg4.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_SumLib
import Idealize.ShloMosaic.Lib.Tactic
import proofs.«169706_j68856915690108_1_alg».proof.Proof.K_Shared
import proofs.«169706_j68856915690108_1_alg».proof.Proof.RegionsK

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k4_pay2)

  and only at the last point, 63, is that cell copied into the 1 × 1 output block, which the pipeline then writes back.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk4 (V : Valuation τ sig (Elt F)) (c : Dev nD) (w : Fin cfg4.W) (t : Fin cfg4.N) :
    ((cfg4.win w).xblock (cfg4.grid.coords t)).Idx → Elt F (cfg4.win w).elt :=
  ((cfg4.win w).blk t).view.read (Elt F)
    (V (Proc.devRef .tc (Pipeline.arrRef spec4 w)) : Buf (Elt F) ((cfg4.win w).arr.view.loc (c.tc : Thread nD τ)))

/-- One point's step on the scratch cell: the cell's contents `a` plus the sum of the tile made of the two blocks
    the point stages (the printed payload of the store into the scratch cell). -/
noncomputable def step4 (V : Valuation τ sig (Elt F)) (c : Dev nD) (n : ℕ) (hn : n < cfg4.N) (a : Vec F S1x1 .f32) : Vec F S1x1 .f32 :=
  k4_pay2 (iblk4 V c 0 ⟨n, hn⟩) (iblk4 V c 1 ⟨n, hn⟩) a

/-- What the scratch cell holds after point `n`: the steps of the points `0 … n` applied, first to last, to the
    zero the body stores at point 0. -/
noncomputable def acc4 (V : Valuation τ sig (Elt F)) (c : Dev nD) : (n : ℕ) → n < cfg4.N → Vec F S1x1 .f32
  | 0, hn => step4 V c 0 hn (k4_pay1 (F := F))
  | n + 1, hn => step4 V c (n + 1) hn (acc4 V c n (Nat.lt_of_succ_lt hn))

theorem acc4_zero (V : Valuation τ sig (Elt F)) (c : Dev nD) (hn : 0 < cfg4.N) :
    acc4 V c 0 hn = step4 V c 0 hn (k4_pay1 (F := F)) := rfl

theorem acc4_succ (V : Valuation τ sig (Elt F)) (c : Dev nD) (n : ℕ) (hn : n + 1 < cfg4.N) :
    acc4 V c (n + 1) hn = step4 V c (n + 1) hn (acc4 V c n (Nat.lt_of_succ_lt hn)) := rfl

/-- After a point that is not the first: the step of that point on what the point before left. -/
theorem acc4_pos (V : Valuation τ sig (Elt F)) (c : Dev nD) (n : ℕ) (hn : n < cfg4.N) (hz : n ≠ 0) :
    acc4 V c n hn = step4 V c n hn (acc4 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi4 (V : Valuation τ sig (Elt F)) (c : Dev nD) : (n : ℕ) → n ≤ cfg4.N → sProp 𝕄
  | 0, _ => Pipeline.scopedRest (Ix := Ix) (Name := ℕ) (U := U) (Lvl := Lvl) (Val := Elt F) spec4 c
  | n + 1, hn => iprop(owns (c : Thread nD τ) (Memref.whole cc4_scratch0) fullShare (acc4 V c n hn)
      ∗ Pipeline.scopedRestBut (Ix := Ix) (Name := ℕ) (U := U) (Lvl := Lvl) (Val := Elt F) spec4 c [cc4_scratch0])

theorem Phi4_zero (V : Valuation τ sig (Elt F)) (c : Dev nD) (n : ℕ) (h : n ≤ cfg4.N) (hz : n = 0) :
    (Phi4 V c n h : sProp 𝕄) = Pipeline.scopedRest (Ix := Ix) (Name := ℕ) (U := U) (Lvl := Lvl) (Val := Elt F) spec4 c := by
  subst hz; rfl

theorem Phi4_succ (V : Valuation τ sig (Elt F)) (c : Dev nD) (n : ℕ) (hn : n < cfg4.N) :
    (Phi4 V c (n + 1) hn : sProp 𝕄) = iprop(owns (c : Thread nD τ) (Memref.whole cc4_scratch0) fullShare (acc4 V c n hn)
      ∗ Pipeline.scopedRestBut (Ix := Ix) (Name := ℕ) (U := U) (Lvl := Lvl) (Val := Elt F) spec4 c [cc4_scratch0]) := rfl

theorem Phi4_pos (V : Valuation τ sig (Elt F)) (c : Dev nD) (n : ℕ) (h : n ≤ cfg4.N) (hz : n ≠ 0) :
    (Phi4 V c n h : sProp 𝕄) = iprop(owns (c : Thread nD τ) (Memref.whole cc4_scratch0) fullShare (acc4 V c (n - 1) (by omega))
      ∗ Pipeline.scopedRestBut (Ix := Ix) (Name := ℕ) (U := U) (Lvl := Lvl) (Val := Elt F) spec4 c [cc4_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi4`; the one
    array the two inputs read held half and half; nothing owed. -/
noncomputable def dat4 (V : Valuation τ sig (Elt F)) (c : Dev nD) : Dat τ (Elt F) Ix ℕ U Lvl cfg4 c where
  A w := V (Proc.devRef .tc (Pipeline.arrRef spec4 w))
  after w t := match w with
    | ⟨0, _⟩ => iblk4 V c 0 t
    | ⟨1, _⟩ => iblk4 V c 1 t
    | ⟨2, _⟩ => acc4 V c t.val t.isLt
  Φ t := Phi4 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq4 (V : Valuation τ sig (Elt F)) (c : Dev nD) (w : Fin cfg4.W) :
    (dat4 (Ix := Ix) (U := U) (Lvl := Lvl) V c).A w = V (Proc.devRef .tc (Pipeline.arrRef spec4 w)) := by
  dsimp only [dat4]

/-- What the body leaves, window by window. -/
theorem after4_0 (V : Valuation τ sig (Elt F)) (c : Dev nD) (t : Fin cfg4.N) :
    (dat4 (Ix := Ix) (U := U) (Lvl := Lvl) V c).after 0 t = iblk4 V c 0 t := by dsimp only [dat4]
theorem after4_1 (V : Valuation τ sig (Elt F)) (c : Dev nD) (t : Fin cfg4.N) :
    (dat4 (Ix := Ix) (U := U) (Lvl := Lvl) V c).after 1 t = iblk4 V c 1 t := by dsimp only [dat4]
theorem after4_2 (V : Valuation τ sig (Elt F)) (c : Dev nD) (t : Fin cfg4.N) :
    (dat4 (Ix := Ix) (U := U) (Lvl := Lvl) V c).after 2 t = acc4 V c t.val t.isLt := by dsimp only [dat4]

/-- The invariant at a point's start, and at its end. -/
theorem Phi4_castSucc (V : Valuation τ sig (Elt F)) (c : Dev nD) (t : Fin cfg4.N) :
    (dat4 (Ix := Ix) (U := U) (Lvl := Lvl) V c).Φ t.castSucc = Phi4 V c t.val (Nat.le_of_lt t.isLt) := by
  dsimp only [dat4]; simp only [Fin.coe_castSucc]

theorem Phi4_at_succ (V : Valuation τ sig (Elt F)) (c : Dev nD) (t : Fin cfg4.N) :
    (dat4 (Ix := Ix) (U := U) (Lvl := Lvl) V c).Φ t.succ = Phi4 V c (t.val + 1) t.isLt := rfl

/-- Before the first point the invariant is the launch's scoped rest. -/
theorem Phi_first4 (V : Valuation τ sig (Elt F)) (c : Dev nD) :
    (dat4 (Ix := Ix) (U := U) (Lvl := Lvl) V c).Φ 0
      = Pipeline.scopedRest (Ix := Ix) (Name := ℕ) (U := U) (Lvl := Lvl) (Val := Elt F) spec4 c := rfl

/-- After the last point the invariant gives the scoped rest back: the scratch cell's contents are forgotten. -/
theorem Phi_last4 (V : Valuation τ sig (Elt F)) (c : Dev nD) :
    (dat4 (Ix := Ix) (U := U) (Lvl := Lvl) V c).Φ (Fin.last cfg4.N)
      ⊢ Pipeline.scopedRest (Ix := Ix) (Name := ℕ) (U := U) (Lvl := Lvl) (Val := Elt F) spec4 c := by
  have hN : cfg4.N = 64 := N_4
  rw [show (dat4 (Ix := Ix) (U := U) (Lvl := Lvl) V c).Φ (Fin.last cfg4.N) = Phi4 V c (Fin.last cfg4.N).val (Nat.le_of_lt_succ (Fin.last cfg4.N).isLt) from rfl,
    Phi4_pos V c _ _ (by rw [Fin.val_last]; omega), scopedRest4_split, owns_whole]
  iintro ⟨Hs, Hr⟩
  isplitl [Hs]
  · iexists _; iexact Hs
  iexact Hr

example (V : Valuation τ sig (Elt F)) (c : Dev nD) : Dat τ (Elt F) Ix ℕ U Lvl (cfgs 4) c := dat4 V c

end Cert.Kernel.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k4_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond4_1 (i : grid4.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond4_2 (i : grid4.Coords) : Prop := k4_cond2 i = 1#1

/-- The reset runs at the first point only, -/
theorem hcond4_1 : ∀ t : Fin cfg4.N, cond4_1 (grid4.coords t) ↔ t.val = 0 :=
  (by decide +kernel : ∀ t : Fin grid4.N, cond4_1 (grid4.coords t) ↔ t.val = 0)
/-- the copy at the last point only. -/
theorem hcond4_2 : ∀ t : Fin cfg4.N, cond4_2 (grid4.coords t) ↔ t.val = 63 :=
  (by decide +kernel : ∀ t : Fin grid4.N, cond4_2 (grid4.coords t) ↔ t.val = 63)

/-! ## The body, case by case, on any whole memrefs -/

/-- The first point: the scratch cell, at anything, is reset and then holds the first step on zero. -/
theorem run4_A (𝒱₀ : Variants) (c : Dev nD) (i : grid4.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond4_1 i) (hc2 : ¬cond4_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k4_pay2 x2 x3 (k4_pay1 (F := F)))) -∗ K ⟨⟩))
      ⊢ wp frame (wpE (defs₀ (F := F)) 𝒱₀ c none) E (cc4__sum_kernel i arg2 harg2 arg3 harg3 arg4 harg4 arg5 harg5) K := by
  simp only [cc4__sum_kernel_eq_skeleton]; unfold cc4__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run4_A.sl.v15 run4_A.sl.H5_1
  rw [readCov_whole _ zeros2, readAt_whole _ _ zeros2, readAt_whole _ _ zeros2]

/-- A point strictly between the first and the last: the scratch cell at `a` takes the point's step. -/
theorem run4_B (𝒱₀ : Variants) (c : Dev nD) (i : grid4.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond4_1 i) (hc2 : ¬cond4_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k4_pay2 x2 x3 a)) -∗ K ⟨⟩))
      ⊢ wp frame (wpE (defs₀ (F := F)) 𝒱₀ c none) E (cc4__sum_kernel i arg2 harg2 arg3 harg3 arg4 harg4 arg5 harg5) K := by
  simp only [cc4__sum_kernel_eq_skeleton]; unfold cc4__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run4_C (𝒱₀ : Variants) (c : Dev nD) (i : grid4.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond4_1 i) (hc2 : cond4_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k4_pay2 x2 x3 a) ∗ owns (c : Thread nD τ) arg5 fullShare (k4_pay2 x2 x3 a)) -∗ K ⟨⟩))
      ⊢ wp frame (wpE (defs₀ (F := F)) 𝒱₀ c none) E (cc4__sum_kernel i arg2 harg2 arg3 harg3 arg4 harg4 arg5 harg5) K := by
  simp only [cc4__sum_kernel_eq_skeleton]; unfold cc4__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run4_C.sl.v25 run4_C.sl.H5_1
    rw [readCov_whole _ zeros2, readAt_whole _ _ zeros2, readAt_whole _ _ zeros2, readAt_whole _ _ zeros2]
  iexists _; isplitr
  swap; · iexact H5
  ipureintro
  unfold run4_C.sl.H5_1
  rw [read_writes_whole _ _ zeros2, readAt_whole _ _ zeros2, readAt_whole _ _ zeros2, readAt_whole _ _ zeros2]

end Cert.Kernel.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle4_2 : ∀ t : Fin cfg4.N, cfg4.idle 2 (grid4.coords t) = true ↔ t.val ≠ 63 :=
  (by decide +kernel : ∀ t : Fin grid4.N, idle4 2 (grid4.coords t) = true ↔ t.val ≠ 63)
/-- and written back at the last point only. -/
theorem flush4_2' : ∀ t : Fin cfg4.N, (cfg4.win 2).flush t = true ↔ t.val = 63 :=
  (by decide +kernel : ∀ t : Fin grid4.N, win4_2.flush t = true ↔ t.val = 63)

/-! ## What the body finds in the inputs' buffers -/

/-- Each input's current staging buffer holds its block at every point, fetched there or not: unfetched, the block
    index has not moved and the body left the block in place. -/
theorem before4_0 (V : Valuation τ sig (Elt F)) (c : Dev nD) (t : Fin cfg4.N) (d) :
    (dat4 (Ix := Ix) (U := U) (Lvl := Lvl) V c).before 0 t d = iblk4 V c 0 t :=
  ((dat4 (Ix := Ix) (U := U) (Lvl := Lvl) V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

theorem before4_1 (V : Valuation τ sig (Elt F)) (c : Dev nD) (t : Fin cfg4.N) (d) :
    (dat4 (Ix := Ix) (U := U) (Lvl := Lvl) V c).before 1 t d = iblk4 V c 1 t :=
  ((dat4 (Ix := Ix) (U := U) (Lvl := Lvl) V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

/-! ## What the obligation asks of each window's buffer after the body -/

/-- The inputs are never idle: their buffers are handed back at their blocks. -/
theorem leaves4_0 (V : Valuation τ sig (Elt F)) (c : Dev nD) (t : Fin cfg4.N) :
    (dat4 (Ix := Ix) (U := U) (Lvl := Lvl) V c).leaves 0 t = owns (c : Thread nD τ) (st4_0 t) fullShare (iblk4 V c 0 t) := by
  rw [← after4_0 (Ix := Ix) (U := U) (Lvl := Lvl) V c t]

theorem leaves4_1 (V : Valuation τ sig (Elt F)) (c : Dev nD) (t : Fin cfg4.N) :
    (dat4 (Ix := Ix) (U := U) (Lvl := Lvl) V c).leaves 1 t = owns (c : Thread nD τ) (st4_1 t) fullShare (iblk4 V c 1 t) := by
  rw [← after4_1 (Ix := Ix) (U := U) (Lvl := Lvl) V c t]

/-- The output is idle, and not written back, at every point but the last: its buffer is handed back as found; -/
theorem leaves4_2_idle (V : Valuation τ sig (Elt F)) (c : Dev nD) (t : Fin cfg4.N) (h : t.val ≠ 63) :
    (dat4 (Ix := Ix) (U := U) (Lvl := Lvl) V c).leaves 2 t
      = iprop(∃ d, owns (c : Thread nD τ) (st4_2 t) fullShare ((dat4 (Ix := Ix) (U := U) (Lvl := Lvl) V c).before 2 t d)) :=
  (dat4 (Ix := Ix) (U := U) (Lvl := Lvl) V c).leaves_idle 2 t ((idle4_2 t).mpr h)
    (Bool.eq_false_iff.mpr fun hf => h ((flush4_2' t).mp hf))

/-- at the last point it is handed back at the accumulated sum. -/
theorem leaves4_2_last (V : Valuation τ sig (Elt F)) (c : Dev nD) (t : Fin cfg4.N) (h : t.val = 63) :
    (dat4 (Ix := Ix) (U := U) (Lvl := Lvl) V c).leaves 2 t = owns (c : Thread nD τ) (st4_2 t) fullShare (acc4 V c t.val t.isLt) := by
  have hl : cfg4.idle 2 (grid4.coords t) = false := by
    cases hi : cfg4.idle 2 (grid4.coords t) with
    | false => rfl
    | true => exact absurd h ((idle4_2 t).mp hi)
  rw [← after4_2 (Ix := Ix) (U := U) (Lvl := Lvl) V c t]
  unfold Dat.leaves; rw [hl]

/-- One step at a point, through the point itself. -/
theorem step4_at (V : Valuation τ sig (Elt F)) (c : Dev nD) (t : Fin cfg4.N) (a : Vec F S1x1 .f32) :
    step4 V c t.val t.isLt a = k4_pay2 (iblk4 V c 0 t) (iblk4 V c 1 t) a := rfl

theorem acc4_first (V : Valuation τ sig (Elt F)) (c : Dev nD) (n : ℕ) (hn : n < cfg4.N) (hz : n = 0) :
    acc4 V c n hn = step4 V c n hn (k4_pay1 (F := F)) := by
  subst hz; rfl

/-! ## The body obligation -/

/-- What the body is called with at point `t` (the obligation's precondition, the windows one by one), -/
noncomputable def bodyPre4 (V : Valuation τ sig (Elt F)) (ι : Ix) (c : Dev nD) (t : Fin cfg4.N) : sProp 𝕄 :=
  iprop((dat4 (Ix := Ix) (U := U) (Lvl := Lvl) V c).Φ t.castSucc ∗ (dat4 (Ix := Ix) (U := U) (Lvl := Lvl) V c).owesAt ι t.castSucc
    ∗ (∃ d, owns (c : Thread nD τ) (st4_0 t) fullShare ((dat4 (Ix := Ix) (U := U) (Lvl := Lvl) V c).before 0 t d))
    ∗ (∃ d, owns (c : Thread nD τ) (st4_1 t) fullShare ((dat4 (Ix := Ix) (U := U) (Lvl := Lvl) V c).before 1 t d))
    ∗ (∃ d, owns (c : Thread nD τ) (st4_2 t) fullShare ((dat4 (Ix := Ix) (U := U) (Lvl := Lvl) V c).before 2 t d)))

/-- and what it returns. -/
noncomputable def bodyPost4 (V : Valuation τ sig (Elt F)) (ι : Ix) (c : Dev nD) (t : Fin cfg4.N) : sProp 𝕄 :=
  iprop((dat4 (Ix := Ix) (U := U) (Lvl := Lvl) V c).Φ t.succ ∗ (dat4 (Ix := Ix) (U := U) (Lvl := Lvl) V c).owesAt ι t.succ
    ∗ (dat4 (Ix := Ix) (U := U) (Lvl := Lvl) V c).leaves 0 t ∗ (dat4 (Ix := Ix) (U := U) (Lvl := Lvl) V c).leaves 1 t ∗ (dat4 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body4 (V : Valuation τ sig (Elt F)) (𝒱₀ : Variants) (ι : Ix) (c : Dev nD) (t : Fin cfg4.N) :
    bodyPre4 (U := U) (Lvl := Lvl) V ι c t
      ⊢ wp frame (wpE (defs₀ (F := F)) 𝒱₀ c none) Set.univ (bodyAt4 t) (fun _ => bodyPost4 (U := U) (Lvl := Lvl) V ι c t) := by
  unfold bodyPre4 bodyPost4 bodyAt4
  simp only [before4_0, before4_1]
  rw [show (dat4 (Ix := Ix) (U := U) (Lvl := Lvl) V c).owesAt ι t.succ = (dat4 (Ix := Ix) (U := U) (Lvl := Lvl) V c).owesAt ι t.castSucc from rfl]
  rw [Phi4_at_succ, Phi4_succ, Phi4_castSucc, leaves4_0, leaves4_1]
  have hN : t.val < 64 := lt_of_lt_of_eq t.isLt N_4
  by_cases hz : t.val = 0
  · have hc1 : cond4_1 (grid4.coords t) := (hcond4_1 t).mpr hz
    have hc2 : ¬cond4_2 (grid4.coords t) := fun h => by have := (hcond4_2 t).mp h; omega
    rw [leaves4_2_idle V c t (by omega), Phi4_zero V c _ _ hz, scopedRest4_split, acc4_first V c _ _ hz, step4_at]
    iintro ⟨⟨⟨%f, Hs⟩, Hr⟩, Ho, ⟨%d0, H0⟩, ⟨%d1, H1⟩, H2⟩
    iapply (run4_A 𝒱₀ c (grid4.coords t) _ _ _ _ _ _ _ _ hc1 hc2 (iblk4 V c 0 t) (iblk4 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond4_1 (grid4.coords t) := fun h => hz ((hcond4_1 t).mp h)
    rw [Phi4_pos V c _ _ hz, acc4_pos V c _ _ hz, step4_at]
    by_cases hl : t.val = 63
    · have hc2 : cond4_2 (grid4.coords t) := (hcond4_2 t).mpr hl
      rw [leaves4_2_last V c t hl, acc4_pos V c _ _ hz, step4_at]
      iintro ⟨⟨Hs, Hr⟩, Ho, ⟨%d0, H0⟩, ⟨%d1, H1⟩, ⟨%d2, H2⟩⟩
      iapply (run4_C 𝒱₀ c (grid4.coords t) _ _ _ _ _ _ _ _ hc1 hc2 (iblk4 V c 0 t) (iblk4 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond4_2 (grid4.coords t) := fun h => hl ((hcond4_2 t).mp h)
      rw [leaves4_2_idle V c t hl]
      iintro ⟨⟨Hs, Hr⟩, Ho, ⟨%d0, H0⟩, ⟨%d1, H1⟩, H2⟩
      iapply (run4_B 𝒱₀ c (grid4.coords t) _ _ _ _ _ _ _ _ hc1 hc2 (iblk4 V c 0 t) (iblk4 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body4 (V : Valuation τ sig (Elt F)) (𝒱₀ : Variants) (ι : Ix) :
    ∀ c : Dev nD, BodyObligationLoose (dat4 (Ix := Ix) (U := U) (Lvl := Lvl) V c) (defs₀ (F := F)) 𝒱₀ ι Set.univ := fun c t => by
  rw [bigSep_W4, bigSep_W4]
  exact sound_body4 (U := U) (Lvl := Lvl) V 𝒱₀ ι c t

end Cert.Kernel.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg4

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (4 : Fin 24)
/-- Its configuration, its windows but for their index maps, the number of its windows. -/
abbrev cfgK : Pipeline.Cfg sig Λ₀ := cfg4
abbrev specK : Fin 3 → Pipeline.WinSpec sig cfgK.grid.rank := spec4
abbrev nW : Nat := 3
/-- Its output window and the buffer behind it. -/
abbrev oK : Fin nW := 2
abbrev outK : Ref sig .tc := main_v157
theorem winK : Pipeline.WinFacts₀ specK := winFacts₀4
theorem block_posK : ∀ w : Fin nW, 0 < (specK w).block.numel := block_pos4
theorem arr_wholeK : ∀ w : Fin nW, (specK w).arr.IsWhole := arr_whole4
theorem stage_wholeK : ∀ (w : Fin nW) (s : Fin (specK w).nbuf), ((specK w).stage s).IsWhole := stage_whole4

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.Kernel.Hand.Reg4

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R4' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (4 : Fin 24) c = dat4 (V26 m outs c) c)
    (hbody : ∀ c : Dev nD, Pipeline.BodyObligationLoose (dat4 (Ix := Ix) (U := U) (Lvl := Lvl) (V26 m outs c) c) (defs₀ (F := F)) 𝒱₀ ι Set.univ) :
    RegionSeg (pcfgs (F := F)) GenP.adm pdats ι defs₀ 𝒱₀ L lv (4 : Fin 24) :=
  Reg4.RK 𝒱₀ L lv ι pdats (fun c => V26 m outs c)
    (fun c => by rw [hp c]; exact hbody c)
    (fun c w => by rw [hp c]; exact A_eq4 (V26 m outs c) c w)
    (fun c => by rw [hp c]; exact PosShare.mem_left_op_right fullShare)
    (fun c t => by rw [hp c]; rfl)
    (fun c => by rw [hp c]; rfl)
    (fun c => by rw [hp c, Phi_first4])
    (fun c => by rw [hp c]; exact Phi_last4 (V26 m outs c) c)

/-- It is entered from the thread state before the region's item, -/
theorem hpre4' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (4 : Fin 24) c = dat4 (V26 m outs c) c)
    (hbody : ∀ c : Dev nD, Pipeline.BodyObligationLoose (dat4 (Ix := Ix) (U := U) (Lvl := Lvl) (V26 m outs c) c) (defs₀ (F := F)) 𝒱₀ ι Set.univ)
    (c : Dev nD) :
    iprop(StableHlo.held (c : Thread nD τ) (Pipeline.ucRefs τ sig) (V26 m outs c) ∗ (R c : sProp 𝕄))
      ⊢ (R4' m outs 𝒱₀ L lv ι pdats hp hbody).pre c := .rfl

/-- and left at the thread state after it. -/
theorem hpost4' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (4 : Fin 24) c = dat4 (V26 m outs c) c)
    (hbody : ∀ c : Dev nD, Pipeline.BodyObligationLoose (dat4 (Ix := Ix) (U := U) (Lvl := Lvl) (V26 m outs c) c) (defs₀ (F := F)) 𝒱₀ ι Set.univ)
    (houts : ∀ c : Dev nD, outs 27 main_v157 c = (dat4 (Ix := Ix) (U := U) (Lvl := Lvl) (V26 m outs c) c).arrAt 2 64)
    (c : Dev nD) :
    (R4' m outs 𝒱₀ L lv ι pdats hp hbody).post c
      ⊢ iprop(StableHlo.held (c : Thread nD τ) (Pipeline.ucRefs τ sig) (V27 m outs c) ∗ (R c : sProp 𝕄)) := by
  have h : (pdats (4 : Fin 24) c).arrAt Reg4.oK Reg4.cfgK.N = outs 27 main_v157 c := by
    rw [hp c]; exact (houts c).symm
  show iprop(StableHlo.held (c : Thread nD τ) (Pipeline.ucRefs τ sig)
      (Function.update (V26 m outs c) (Proc.devRef .tc main_v157) ((pdats (4 : Fin 24) c).arrAt Reg4.oK Reg4.cfgK.N))
        ∗ (R c : sProp 𝕄)) ⊢ _
  rw [h]

end Cert.Kernel.Hand
-- ==== Proof.K_Rg5.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_ApplyLib
import proofs.«169706_j68856915690108_1_alg».proof.Proof.K_Shared
import proofs.«169706_j68856915690108_1_alg».proof.Proof.RegionsK

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k5_pay1 x_i` and `step t a = k5_pay2 h_i h_j threshold x_j a`, the printed payloads of the two stores.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk5 (V : Valuation τ sig (Elt F)) (c : Dev nD) (w : Fin cfg5.W) (t : Fin cfg5.N) :
    ((cfg5.win w).xblock (cfg5.grid.coords t)).Idx → Elt F (cfg5.win w).elt :=
  ((cfg5.win w).blk t).view.read (Elt F)
    (V (Proc.devRef .tc (Pipeline.arrRef spec5 w)) : Buf (Elt F) ((cfg5.win w).arr.view.loc (c.tc : Thread nD τ)))

/-- What the accumulator is reset to at a point whose second coordinate is 0: 1.0 times the block of `x` window 3
    stages there (the printed payload of the first store into the scratch buffer). -/
noncomputable def init5 (V : Valuation τ sig (Elt F)) (c : Dev nD) (n : ℕ) (hn : n < cfg5.N) : Vec F S512x256 .f32 :=
  k5_pay1 (iblk5 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step5 (V : Valuation τ sig (Elt F)) (c : Dev nD) (n : ℕ) (hn : n < cfg5.N) (a : Vec F S512x256 .f32) : Vec F S512x256 .f32 :=
  k5_pay2 (iblk5 V c 1 ⟨n, hn⟩) (iblk5 V c 2 ⟨n, hn⟩) (iblk5 V c 0 ⟨n, hn⟩) (iblk5 V c 4 ⟨n, hn⟩) a

/-- What the accumulator holds after point `n`: reset and stepped at the points ≡ 0 (mod 8), stepped from what the
    point before left at the others. -/
noncomputable def acc5 (V : Valuation τ sig (Elt F)) (c : Dev nD) : (n : ℕ) → n < cfg5.N → Vec F S512x256 .f32
  | 0, hn => step5 V c 0 hn (init5 V c 0 hn)
  | n + 1, hn =>
    if (n + 1) % 8 = 0 then step5 V c (n + 1) hn (init5 V c (n + 1) hn)
    else step5 V c (n + 1) hn (acc5 V c n (Nat.lt_of_succ_lt hn))

/-- After a point ≡ 0 (mod 8): the reset value, stepped once. -/
theorem acc5_reset (V : Valuation τ sig (Elt F)) (c : Dev nD) (n : ℕ) (hn : n < cfg5.N) (h0 : n % 8 = 0) :
    acc5 V c n hn = step5 V c n hn (init5 V c n hn) := by
  cases n with
  | zero => rfl
  | succ n => exact if_pos h0

/-- After any other point: that point's step on what the point before left. -/
theorem acc5_step (V : Valuation τ sig (Elt F)) (c : Dev nD) (n : ℕ) (hn : n < cfg5.N) (h0 : ¬n % 8 = 0) :
    acc5 V c n hn = step5 V c n hn (acc5 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi5 (V : Valuation τ sig (Elt F)) (c : Dev nD) : (n : ℕ) → n ≤ cfg5.N → sProp 𝕄
  | 0, _ => Pipeline.scopedRest (Ix := Ix) (Name := ℕ) (U := U) (Lvl := Lvl) (Val := Elt F) spec5 c
  | n + 1, hn => iprop(owns (c : Thread nD τ) (Memref.whole cc5_scratch0) fullShare (acc5 V c n hn)
      ∗ Pipeline.scopedRestBut (Ix := Ix) (Name := ℕ) (U := U) (Lvl := Lvl) (Val := Elt F) spec5 c [cc5_scratch0])

theorem Phi5_zero (V : Valuation τ sig (Elt F)) (c : Dev nD) (n : ℕ) (h : n ≤ cfg5.N) (hz : n = 0) :
    (Phi5 V c n h : sProp 𝕄) = Pipeline.scopedRest (Ix := Ix) (Name := ℕ) (U := U) (Lvl := Lvl) (Val := Elt F) spec5 c := by
  subst hz; rfl

theorem Phi5_succ (V : Valuation τ sig (Elt F)) (c : Dev nD) (n : ℕ) (hn : n < cfg5.N) :
    (Phi5 V c (n + 1) hn : sProp 𝕄) = iprop(owns (c : Thread nD τ) (Memref.whole cc5_scratch0) fullShare (acc5 V c n hn)
      ∗ Pipeline.scopedRestBut (Ix := Ix) (Name := ℕ) (U := U) (Lvl := Lvl) (Val := Elt F) spec5 c [cc5_scratch0]) := rfl

theorem Phi5_pos (V : Valuation τ sig (Elt F)) (c : Dev nD) (n : ℕ) (h : n ≤ cfg5.N) (hz : n ≠ 0) :
    (Phi5 V c n h : sProp 𝕄) = iprop(owns (c : Thread nD τ) (Memref.whole cc5_scratch0) fullShare (acc5 V c (n - 1) (by omega))
      ∗ Pipeline.scopedRestBut (Ix := Ix) (Name := ℕ) (U := U) (Lvl := Lvl) (Val := Elt F) spec5 c [cc5_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi5`; the
    threshold's array held whole, each of the two arrays that two input windows read held half and half; nothing owed. -/
noncomputable def dat5 (V : Valuation τ sig (Elt F)) (c : Dev nD) : Dat τ (Elt F) Ix ℕ U Lvl cfg5 c where
  A w := V (Proc.devRef .tc (Pipeline.arrRef spec5 w))
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => acc5 V c t.val t.isLt
  Φ t := Phi5 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq5 (V : Valuation τ sig (Elt F)) (c : Dev nD) (w : Fin cfg5.W) :
    (dat5 (Ix := Ix) (U := U) (Lvl := Lvl) V c).A w = V (Proc.devRef .tc (Pipeline.arrRef spec5 w)) := by
  dsimp only [dat5]

/-- What the body leaves, window by window. -/
theorem after5_0 (V : Valuation τ sig (Elt F)) (c : Dev nD) (t : Fin cfg5.N) :
    (dat5 (Ix := Ix) (U := U) (Lvl := Lvl) V c).after 0 t = iblk5 V c 0 t := by dsimp only [dat5]
theorem after5_1 (V : Valuation τ sig (Elt F)) (c : Dev nD) (t : Fin cfg5.N) :
    (dat5 (Ix := Ix) (U := U) (Lvl := Lvl) V c).after 1 t = iblk5 V c 1 t := by dsimp only [dat5]
theorem after5_2 (V : Valuation τ sig (Elt F)) (c : Dev nD) (t : Fin cfg5.N) :
    (dat5 (Ix := Ix) (U := U) (Lvl := Lvl) V c).after 2 t = iblk5 V c 2 t := by dsimp only [dat5]
theorem after5_3 (V : Valuation τ sig (Elt F)) (c : Dev nD) (t : Fin cfg5.N) :
    (dat5 (Ix := Ix) (U := U) (Lvl := Lvl) V c).after 3 t = iblk5 V c 3 t := by dsimp only [dat5]
theorem after5_4 (V : Valuation τ sig (Elt F)) (c : Dev nD) (t : Fin cfg5.N) :
    (dat5 (Ix := Ix) (U := U) (Lvl := Lvl) V c).after 4 t = iblk5 V c 4 t := by dsimp only [dat5]
theorem after5_5 (V : Valuation τ sig (Elt F)) (c : Dev nD) (t : Fin cfg5.N) :
    (dat5 (Ix := Ix) (U := U) (Lvl := Lvl) V c).after 5 t = acc5 V c t.val t.isLt := by dsimp only [dat5]

/-- The shares the input arrays are held at. -/
theorem q5_0 (V : Valuation τ sig (Elt F)) (c : Dev nD) : (dat5 (Ix := Ix) (U := U) (Lvl := Lvl) V c).q 0 = fullShare := by dsimp only [dat5]
theorem q5_1 (V : Valuation τ sig (Elt F)) (c : Dev nD) : (dat5 (Ix := Ix) (U := U) (Lvl := Lvl) V c).q 1 = fullShare.left := by dsimp only [dat5]
theorem q5_2 (V : Valuation τ sig (Elt F)) (c : Dev nD) : (dat5 (Ix := Ix) (U := U) (Lvl := Lvl) V c).q 2 = fullShare.right := by dsimp only [dat5]
theorem q5_3 (V : Valuation τ sig (Elt F)) (c : Dev nD) : (dat5 (Ix := Ix) (U := U) (Lvl := Lvl) V c).q 3 = fullShare.left := by dsimp only [dat5]
theorem q5_4 (V : Valuation τ sig (Elt F)) (c : Dev nD) : (dat5 (Ix := Ix) (U := U) (Lvl := Lvl) V c).q 4 = fullShare.right := by dsimp only [dat5]

/-- The invariant at a point's start, and at its end. -/
theorem Phi5_castSucc (V : Valuation τ sig (Elt F)) (c : Dev nD) (t : Fin cfg5.N) :
    (dat5 (Ix := Ix) (U := U) (Lvl := Lvl) V c).Φ t.castSucc = Phi5 V c t.val (Nat.le_of_lt t.isLt) := by
  dsimp only [dat5]; simp only [Fin.coe_castSucc]

theorem Phi5_at_succ (V : Valuation τ sig (Elt F)) (c : Dev nD) (t : Fin cfg5.N) :
    (dat5 (Ix := Ix) (U := U) (Lvl := Lvl) V c).Φ t.succ = Phi5 V c (t.val + 1) t.isLt := rfl

/-- Before the first point the invariant is the launch's scoped rest. -/
theorem Phi_first5 (V : Valuation τ sig (Elt F)) (c : Dev nD) :
    (dat5 (Ix := Ix) (U := U) (Lvl := Lvl) V c).Φ 0
      = Pipeline.scopedRest (Ix := Ix) (Name := ℕ) (U := U) (Lvl := Lvl) (Val := Elt F) spec5 c := rfl

/-- After the last point the invariant gives the scoped rest back: the accumulator's contents are forgotten. -/
theorem Phi_last5 (V : Valuation τ sig (Elt F)) (c : Dev nD) :
    (dat5 (Ix := Ix) (U := U) (Lvl := Lvl) V c).Φ (Fin.last cfg5.N)
      ⊢ Pipeline.scopedRest (Ix := Ix) (Name := ℕ) (U := U) (Lvl := Lvl) (Val := Elt F) spec5 c := by
  have hN : cfg5.N = 64 := N_5
  rw [show (dat5 (Ix := Ix) (U := U) (Lvl := Lvl) V c).Φ (Fin.last cfg5.N) = Phi5 V c (Fin.last cfg5.N).val (Nat.le_of_lt_succ (Fin.last cfg5.N).isLt) from rfl,
    Phi5_pos V c _ _ (by rw [Fin.val_last]; omega), scopedRest5_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 5) c := dat5 V c

end Cert.Kernel.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k5_pay2 hI hJ mn xJ s` — `s` plus the 0/1 mask of (hI · hJᵀ > mn) times `xJ` — and the value
  the accumulator is reset to is `k5_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond5_0 (i : grid5.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond5_1 (i : grid5.Coords) : Prop := k5_cond2 i = 1#1

/-! ## The three runs -/

/-- At a point whose second coordinate is 0 (and not 7): the accumulator, at anything, is reset to `k5_pay1 xI` and
    stepped once; every window's buffer is handed back as found. -/
theorem run5_first (𝒱₀ : Variants) (c : Dev nD) (i : grid5.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond5_0 i) (hc1 : ¬cond5_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k5_pay2 hI hJ mn xJ (k5_pay1 xI))) -∗ K ⟨⟩))
      ⊢ wp frame (wpE (defs₀ (F := F)) 𝒱₀ c none) E (cc5__apply_kernel i arg2 harg2 arg3 harg3 arg4 harg4 arg5 harg5 arg6 harg6 arg7 harg7 arg8 harg8) K := by
  simp only [cc5__apply_kernel_eq_skeleton]; unfold cc5__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run5_mid (𝒱₀ : Variants) (c : Dev nD) (i : grid5.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond5_0 i) (hc1 : ¬cond5_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k5_pay2 hI hJ mn xJ s)) -∗ K ⟨⟩))
      ⊢ wp frame (wpE (defs₀ (F := F)) 𝒱₀ c none) E (cc5__apply_kernel i arg2 harg2 arg3 harg3 arg4 harg4 arg5 harg5 arg6 harg6 arg7 harg7 arg8 harg8) K := by
  simp only [cc5__apply_kernel_eq_skeleton]; unfold cc5__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run5_last (𝒱₀ : Variants) (c : Dev nD) (i : grid5.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond5_0 i) (hc1 : cond5_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k5_pay2 hI hJ mn xJ s)
        ∗ owns (c : Thread nD τ) arg8 fullShare (k5_pay2 hI hJ mn xJ s)) -∗ K ⟨⟩))
      ⊢ wp frame (wpE (defs₀ (F := F)) 𝒱₀ c none) E (cc5__apply_kernel i arg2 harg2 arg3 harg3 arg4 harg4 arg5 harg5 arg6 harg6 arg7 harg7 arg8 harg8) K := by
  simp only [cc5__apply_kernel_eq_skeleton]; unfold cc5__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.Kernel.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc5`. The three control cases are
  decided over the grid by the point's residue mod 8, and in each the kernel's run (ApplyRun.lean) applies.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond5_0 : ∀ t : Fin cfg5.N, cond5_0 (grid5.coords t) ↔ t.val % 8 = 0 :=
  (by decide +kernel : ∀ t : Fin grid5.N, cond5_0 (grid5.coords t) ↔ t.val % 8 = 0)
/-- It is stored into the output block at the points ≡ 7 (mod 8). -/
theorem hcond5_1 : ∀ t : Fin cfg5.N, cond5_1 (grid5.coords t) ↔ t.val % 8 = 7 :=
  (by decide +kernel : ∀ t : Fin grid5.N, cond5_1 (grid5.coords t) ↔ t.val % 8 = 7)
/-- The output window is idle at every other point, -/
theorem idleAt5_5 : ∀ t : Fin cfg5.N, ¬t.val % 8 = 7 → cfg5.idle 5 (grid5.coords t) = true :=
  (by decide +kernel : ∀ t : Fin grid5.N, ¬t.val % 8 = 7 → cfg5.idle 5 (grid5.coords t) = true)
/-- live at those, -/
theorem liveAt5_5 : ∀ t : Fin cfg5.N, t.val % 8 = 7 → cfg5.idle 5 (grid5.coords t) = false :=
  (by decide +kernel : ∀ t : Fin grid5.N, t.val % 8 = 7 → cfg5.idle 5 (grid5.coords t) = false)
/-- and not written back where it is idle. -/
theorem noFlush5_5 (t : Fin cfg5.N) (h : ¬t.val % 8 = 7) : (cfg5.win 5).flush t = false := by
  cases hf : (cfg5.win 5).flush t with
  | false => rfl
  | true => exact absurd ((flush5_5 t).mp hf) h

/-! ## What the body finds in the inputs' buffers and leaves in every buffer -/

/-- Each input's current staging buffer holds its block at every point, fetched there or not. -/
theorem before5_0 (V : Valuation τ sig (Elt F)) (c : Dev nD) (t : Fin cfg5.N) (d) : (dat5 (Ix := Ix) (U := U) (Lvl := Lvl) V c).before 0 t d = iblk5 V c 0 t :=
  ((dat5 (Ix := Ix) (U := U) (Lvl := Lvl) V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)
theorem before5_1 (V : Valuation τ sig (Elt F)) (c : Dev nD) (t : Fin cfg5.N) (d) : (dat5 (Ix := Ix) (U := U) (Lvl := Lvl) V c).before 1 t d = iblk5 V c 1 t :=
  ((dat5 (Ix := Ix) (U := U) (Lvl := Lvl) V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)
theorem before5_2 (V : Valuation τ sig (Elt F)) (c : Dev nD) (t : Fin cfg5.N) (d) : (dat5 (Ix := Ix) (U := U) (Lvl := Lvl) V c).before 2 t d = iblk5 V c 2 t :=
  ((dat5 (Ix := Ix) (U := U) (Lvl := Lvl) V c).before_in_eq_fetched 2 rfl (fun _ => rfl) (fun _ _ _ => rfl)
      (fun t => by rw [after5_2]; unfold Dat.blockOf iblk5; rw [A_eq5]; try rfl) t d).trans
    (by unfold Dat.fetched Dat.blockOf iblk5; rw [A_eq5]; try rfl)
theorem before5_3 (V : Valuation τ sig (Elt F)) (c : Dev nD) (t : Fin cfg5.N) (d) : (dat5 (Ix := Ix) (U := U) (Lvl := Lvl) V c).before 3 t d = iblk5 V c 3 t :=
  ((dat5 (Ix := Ix) (U := U) (Lvl := Lvl) V c).before_in_eq_fetched 3 rfl (fun _ => rfl) (fun _ _ _ => rfl)
      (fun t => by rw [after5_3]; unfold Dat.blockOf iblk5; rw [A_eq5]; try rfl) t d).trans
    (by unfold Dat.fetched Dat.blockOf iblk5; rw [A_eq5]; try rfl)
theorem before5_4 (V : Valuation τ sig (Elt F)) (c : Dev nD) (t : Fin cfg5.N) (d) : (dat5 (Ix := Ix) (U := U) (Lvl := Lvl) V c).before 4 t d = iblk5 V c 4 t :=
  ((dat5 (Ix := Ix) (U := U) (Lvl := Lvl) V c).before_in_eq_fetched 4 rfl (fun _ => rfl) (fun _ _ _ => rfl)
      (fun t => by rw [after5_4]; unfold Dat.blockOf iblk5; rw [A_eq5]; try rfl) t d).trans
    (by unfold Dat.fetched Dat.blockOf iblk5; rw [A_eq5]; try rfl)

/-! ## The body obligation, at a generic point -/

/-- What the body is called with at point `t` (the obligation's precondition, the windows one by one), -/
noncomputable def bodyPre5 (V : Valuation τ sig (Elt F)) (c : Dev nD) (ι : Ix) (t : Fin cfg5.N) : sProp 𝕄 :=
  iprop((dat5 (Ix := Ix) (U := U) (Lvl := Lvl) V c).Φ t.castSucc ∗ (dat5 (Ix := Ix) (U := U) (Lvl := Lvl) V c).owesAt ι t.castSucc
    ∗ (∃ d, owns (c : Thread nD τ) (st5_0 t) fullShare ((dat5 (Ix := Ix) (U := U) (Lvl := Lvl) V c).before 0 t d))
    ∗ (∃ d, owns (c : Thread nD τ) (st5_1 t) fullShare ((dat5 (Ix := Ix) (U := U) (Lvl := Lvl) V c).before 1 t d))
    ∗ (∃ d, owns (c : Thread nD τ) (st5_2 t) fullShare ((dat5 (Ix := Ix) (U := U) (Lvl := Lvl) V c).before 2 t d))
    ∗ (∃ d, owns (c : Thread nD τ) (st5_3 t) fullShare ((dat5 (Ix := Ix) (U := U) (Lvl := Lvl) V c).before 3 t d))
    ∗ (∃ d, owns (c : Thread nD τ) (st5_4 t) fullShare ((dat5 (Ix := Ix) (U := U) (Lvl := Lvl) V c).before 4 t d))
    ∗ (∃ d, owns (c : Thread nD τ) (st5_5 t) fullShare ((dat5 (Ix := Ix) (U := U) (Lvl := Lvl) V c).before 5 t d)))

/-- and what it returns. -/
noncomputable def bodyPost5 (V : Valuation τ sig (Elt F)) (c : Dev nD) (ι : Ix) (t : Fin cfg5.N) : sProp 𝕄 :=
  iprop((dat5 (Ix := Ix) (U := U) (Lvl := Lvl) V c).Φ t.succ ∗ (dat5 (Ix := Ix) (U := U) (Lvl := Lvl) V c).owesAt ι t.succ
    ∗ (dat5 (Ix := Ix) (U := U) (Lvl := Lvl) V c).leaves 0 t ∗ (dat5 (Ix := Ix) (U := U) (Lvl := Lvl) V c).leaves 1 t ∗ (dat5 (Ix := Ix) (U := U) (Lvl := Lvl) V c).leaves 2 t
    ∗ (dat5 (Ix := Ix) (U := U) (Lvl := Lvl) V c).leaves 3 t ∗ (dat5 (Ix := Ix) (U := U) (Lvl := Lvl) V c).leaves 4 t ∗ (dat5 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body5 (𝒱₀ : Variants) (ι : Ix) (V : Valuation τ sig (Elt F)) (c : Dev nD) (t : Fin cfg5.N) :
    bodyPre5 (Ix := Ix) (U := U) (Lvl := Lvl) V c ι t ⊢ wp frame (wpE (defs₀ (F := F)) 𝒱₀ c none) Set.univ (bodyAt5 t) (fun _ => bodyPost5 (Ix := Ix) (U := U) (Lvl := Lvl) V c ι t) := by
  unfold bodyPre5 bodyPost5 bodyAt5
  simp only [before5_0, before5_1, before5_2, before5_3, before5_4]
  rw [show (dat5 (Ix := Ix) (U := U) (Lvl := Lvl) V c).owesAt ι t.succ = (dat5 (Ix := Ix) (U := U) (Lvl := Lvl) V c).owesAt ι t.castSucc from rfl]
  rw [Phi5_at_succ, Phi5_succ, Phi5_castSucc]
  rw [leaves_live (dat5 (Ix := Ix) (U := U) (Lvl := Lvl) V c) 0 t rfl rfl, leaves_live (dat5 (Ix := Ix) (U := U) (Lvl := Lvl) V c) 1 t rfl rfl, leaves_live (dat5 (Ix := Ix) (U := U) (Lvl := Lvl) V c) 2 t rfl rfl,
    leaves_live (dat5 (Ix := Ix) (U := U) (Lvl := Lvl) V c) 3 t rfl rfl, leaves_live (dat5 (Ix := Ix) (U := U) (Lvl := Lvl) V c) 4 t rfl rfl, after5_0, after5_1, after5_2, after5_3, after5_4]
  have hN : t.val < 64 := lt_of_lt_of_eq t.isLt (show cfg5.N = 64 from N_5)
  by_cases h0 : t.val % 8 = 0
  · have h7 : ¬t.val % 8 = 7 := by omega
    rw [Dat.leaves_idle (dat5 (Ix := Ix) (U := U) (Lvl := Lvl) V c) 5 t (idleAt5_5 t h7) (noFlush5_5 t h7)]
    rw [acc5_reset V c t.val t.isLt h0]
    unfold step5 init5
    by_cases hz : t.val = 0
    · rw [Phi5_zero V c _ _ hz, scopedRest5_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run5_first 𝒱₀ c (grid5.coords t) _ _ _ _ _ _ _ _ _ _ _ _ _ _ ((hcond5_0 t).mpr h0) (fun h => h7 ((hcond5_1 t).mp h)) (iblk5 V c 0 t) (iblk5 V c 1 t) (iblk5 V c 2 t) (iblk5 V c 3 t) (iblk5 V c 4 t) ((dat5 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi5_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run5_first 𝒱₀ c (grid5.coords t) _ _ _ _ _ _ _ _ _ _ _ _ _ _ ((hcond5_0 t).mpr h0) (fun h => h7 ((hcond5_1 t).mp h)) (iblk5 V c 0 t) (iblk5 V c 1 t) (iblk5 V c 2 t) (iblk5 V c 3 t) (iblk5 V c 4 t) ((dat5 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc5_step V c t.val t.isLt h0, Phi5_pos V c _ _ hz]
    unfold step5
    by_cases h7 : t.val % 8 = 7
    · rw [leaves_live (dat5 (Ix := Ix) (U := U) (Lvl := Lvl) V c) 5 t (liveAt5_5 t h7) rfl, after5_5, acc5_step V c t.val t.isLt h0]
      unfold step5
      iintro ⟨⟨HS, Hr⟩, Ho, ⟨%d0, H0⟩, ⟨%d1, H1⟩, ⟨%d2, H2⟩, ⟨%d3, H3⟩, ⟨%d4, H4⟩, ⟨%d5, H5⟩⟩
      iapply (run5_last 𝒱₀ c (grid5.coords t) _ _ _ _ _ _ _ _ _ _ _ _ _ _ (fun h => h0 ((hcond5_0 t).mp h)) ((hcond5_1 t).mpr h7) (iblk5 V c 0 t) (iblk5 V c 1 t) (iblk5 V c 2 t) (iblk5 V c 3 t) (iblk5 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat5 (Ix := Ix) (U := U) (Lvl := Lvl) V c) 5 t (idleAt5_5 t h7) (noFlush5_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run5_mid 𝒱₀ c (grid5.coords t) _ _ _ _ _ _ _ _ _ _ _ _ _ _ (fun h => h0 ((hcond5_0 t).mp h)) (fun h => h7 ((hcond5_1 t).mp h)) (iblk5 V c 0 t) (iblk5 V c 1 t) (iblk5 V c 2 t) (iblk5 V c 3 t) (iblk5 V c 4 t) ((dat5 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation5 (𝒱₀ : Variants) (ι : Ix) (V : Valuation τ sig (Elt F)) (c : Dev nD) :
    BodyObligationLoose (dat5 (Ix := Ix) (U := U) (Lvl := Lvl) V c) (defs₀ (F := F)) 𝒱₀ ι Set.univ := fun t => by
  rw [bigSep_W5, bigSep_W5]
  exact sound_body5 𝒱₀ ι V c t

/-- The same at the type the program's family of configurations gives pipeline 1, on every core. -/
theorem body5 (𝒱₀ : Variants) (ι : Ix) (V : Valuation τ sig (Elt F)) :
    ∀ c : Dev nD, BodyObligationLoose (cfg := cfgs 5) (dat5 (Ix := Ix) (U := U) (Lvl := Lvl) V c) (defs₀ (F := F)) 𝒱₀ ι Set.univ :=
  fun c => body_obligation5 𝒱₀ ι V c

end Cert.Kernel.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg5

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (5 : Fin 24)
/-- Its configuration, its windows but for their index maps, the number of its windows. -/
abbrev cfgK : Pipeline.Cfg sig Λ₀ := cfg5
abbrev specK : Fin 6 → Pipeline.WinSpec sig cfgK.grid.rank := spec5
abbrev nW : Nat := 6
/-- Its output window and the buffer behind it. -/
abbrev oK : Fin nW := 5
abbrev outK : Ref sig .tc := main_v160
theorem winK : Pipeline.WinFacts₀ specK := winFacts₀5
theorem block_posK : ∀ w : Fin nW, 0 < (specK w).block.numel := block_pos5
theorem arr_wholeK : ∀ w : Fin nW, (specK w).arr.IsWhole := arr_whole5
theorem stage_wholeK : ∀ (w : Fin nW) (s : Fin (specK w).nbuf), ((specK w).stage s).IsWhole := stage_whole5

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.Kernel.Hand.Reg5

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R5' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (5 : Fin 24) c = dat5 (V28 m outs c) c)
    (hbody : ∀ c : Dev nD, Pipeline.BodyObligationLoose (dat5 (Ix := Ix) (U := U) (Lvl := Lvl) (V28 m outs c) c) (defs₀ (F := F)) 𝒱₀ ι Set.univ) :
    RegionSeg (pcfgs (F := F)) GenP.adm pdats ι defs₀ 𝒱₀ L lv (5 : Fin 24) :=
  Reg5.RK 𝒱₀ L lv ι pdats (fun c => V28 m outs c)
    (fun c => by rw [hp c]; exact hbody c)
    (fun c w => by rw [hp c]; exact A_eq5 (V28 m outs c) c w)
    (fun c => by rw [hp c]; rw [q5_1, q5_2]; exact PosShare.mem_left_op_right fullShare)
    (fun c => by rw [hp c]; rw [q5_3, q5_4]; exact PosShare.mem_left_op_right fullShare)
    (fun c => by rw [hp c]; exact q5_0 (V28 m outs c) c)
    (fun c t => by rw [hp c]; rfl)
    (fun c => by rw [hp c]; rfl)
    (fun c => by rw [hp c, Phi_first5])
    (fun c => by rw [hp c]; exact Phi_last5 (V28 m outs c) c)

/-- It is entered from the thread state before the region's item, -/
theorem hpre5' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (5 : Fin 24) c = dat5 (V28 m outs c) c)
    (hbody : ∀ c : Dev nD, Pipeline.BodyObligationLoose (dat5 (Ix := Ix) (U := U) (Lvl := Lvl) (V28 m outs c) c) (defs₀ (F := F)) 𝒱₀ ι Set.univ)
    (c : Dev nD) :
    iprop(StableHlo.held (c : Thread nD τ) (Pipeline.ucRefs τ sig) (V28 m outs c) ∗ (R c : sProp 𝕄))
      ⊢ (R5' m outs 𝒱₀ L lv ι pdats hp hbody).pre c := .rfl

/-- and left at the thread state after it. -/
theorem hpost5' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (5 : Fin 24) c = dat5 (V28 m outs c) c)
    (hbody : ∀ c : Dev nD, Pipeline.BodyObligationLoose (dat5 (Ix := Ix) (U := U) (Lvl := Lvl) (V28 m outs c) c) (defs₀ (F := F)) 𝒱₀ ι Set.univ)
    (houts : ∀ c : Dev nD, outs 29 main_v160 c = (dat5 (Ix := Ix) (U := U) (Lvl := Lvl) (V28 m outs c) c).arrAt 5 64)
    (c : Dev nD) :
    (R5' m outs 𝒱₀ L lv ι pdats hp hbody).post c
      ⊢ iprop(StableHlo.held (c : Thread nD τ) (Pipeline.ucRefs τ sig) (V29 m outs c) ∗ (R c : sProp 𝕄)) := by
  have h : (pdats (5 : Fin 24) c).arrAt Reg5.oK Reg5.cfgK.N = outs 29 main_v160 c := by
    rw [hp c]; exact (houts c).symm
  show iprop(StableHlo.held (c : Thread nD τ) (Pipeline.ucRefs τ sig)
      (Function.update (V28 m outs c) (Proc.devRef .tc main_v160) ((pdats (5 : Fin 24) c).arrAt Reg5.oK Reg5.cfgK.N))
        ∗ (R c : sProp 𝕄)) ⊢ _
  rw [h]

end Cert.Kernel.Hand
-- ==== Proof.K_Rg6.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_SumLib
import Idealize.ShloMosaic.Lib.Tactic
import proofs.«169706_j68856915690108_1_alg».proof.Proof.K_Shared
import proofs.«169706_j68856915690108_1_alg».proof.Proof.RegionsK

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k6_pay2)

  and only at the last point, 63, is that cell copied into the 1 × 1 output block, which the pipeline then writes back.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk6 (V : Valuation τ sig (Elt F)) (c : Dev nD) (w : Fin cfg6.W) (t : Fin cfg6.N) :
    ((cfg6.win w).xblock (cfg6.grid.coords t)).Idx → Elt F (cfg6.win w).elt :=
  ((cfg6.win w).blk t).view.read (Elt F)
    (V (Proc.devRef .tc (Pipeline.arrRef spec6 w)) : Buf (Elt F) ((cfg6.win w).arr.view.loc (c.tc : Thread nD τ)))

/-- One point's step on the scratch cell: the cell's contents `a` plus the sum of the tile made of the two blocks
    the point stages (the printed payload of the store into the scratch cell). -/
noncomputable def step6 (V : Valuation τ sig (Elt F)) (c : Dev nD) (n : ℕ) (hn : n < cfg6.N) (a : Vec F S1x1 .f32) : Vec F S1x1 .f32 :=
  k6_pay2 (iblk6 V c 0 ⟨n, hn⟩) (iblk6 V c 1 ⟨n, hn⟩) a

/-- What the scratch cell holds after point `n`: the steps of the points `0 … n` applied, first to last, to the
    zero the body stores at point 0. -/
noncomputable def acc6 (V : Valuation τ sig (Elt F)) (c : Dev nD) : (n : ℕ) → n < cfg6.N → Vec F S1x1 .f32
  | 0, hn => step6 V c 0 hn (k6_pay1 (F := F))
  | n + 1, hn => step6 V c (n + 1) hn (acc6 V c n (Nat.lt_of_succ_lt hn))

theorem acc6_zero (V : Valuation τ sig (Elt F)) (c : Dev nD) (hn : 0 < cfg6.N) :
    acc6 V c 0 hn = step6 V c 0 hn (k6_pay1 (F := F)) := rfl

theorem acc6_succ (V : Valuation τ sig (Elt F)) (c : Dev nD) (n : ℕ) (hn : n + 1 < cfg6.N) :
    acc6 V c (n + 1) hn = step6 V c (n + 1) hn (acc6 V c n (Nat.lt_of_succ_lt hn)) := rfl

/-- After a point that is not the first: the step of that point on what the point before left. -/
theorem acc6_pos (V : Valuation τ sig (Elt F)) (c : Dev nD) (n : ℕ) (hn : n < cfg6.N) (hz : n ≠ 0) :
    acc6 V c n hn = step6 V c n hn (acc6 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi6 (V : Valuation τ sig (Elt F)) (c : Dev nD) : (n : ℕ) → n ≤ cfg6.N → sProp 𝕄
  | 0, _ => Pipeline.scopedRest (Ix := Ix) (Name := ℕ) (U := U) (Lvl := Lvl) (Val := Elt F) spec6 c
  | n + 1, hn => iprop(owns (c : Thread nD τ) (Memref.whole cc6_scratch0) fullShare (acc6 V c n hn)
      ∗ Pipeline.scopedRestBut (Ix := Ix) (Name := ℕ) (U := U) (Lvl := Lvl) (Val := Elt F) spec6 c [cc6_scratch0])

theorem Phi6_zero (V : Valuation τ sig (Elt F)) (c : Dev nD) (n : ℕ) (h : n ≤ cfg6.N) (hz : n = 0) :
    (Phi6 V c n h : sProp 𝕄) = Pipeline.scopedRest (Ix := Ix) (Name := ℕ) (U := U) (Lvl := Lvl) (Val := Elt F) spec6 c := by
  subst hz; rfl

theorem Phi6_succ (V : Valuation τ sig (Elt F)) (c : Dev nD) (n : ℕ) (hn : n < cfg6.N) :
    (Phi6 V c (n + 1) hn : sProp 𝕄) = iprop(owns (c : Thread nD τ) (Memref.whole cc6_scratch0) fullShare (acc6 V c n hn)
      ∗ Pipeline.scopedRestBut (Ix := Ix) (Name := ℕ) (U := U) (Lvl := Lvl) (Val := Elt F) spec6 c [cc6_scratch0]) := rfl

theorem Phi6_pos (V : Valuation τ sig (Elt F)) (c : Dev nD) (n : ℕ) (h : n ≤ cfg6.N) (hz : n ≠ 0) :
    (Phi6 V c n h : sProp 𝕄) = iprop(owns (c : Thread nD τ) (Memref.whole cc6_scratch0) fullShare (acc6 V c (n - 1) (by omega))
      ∗ Pipeline.scopedRestBut (Ix := Ix) (Name := ℕ) (U := U) (Lvl := Lvl) (Val := Elt F) spec6 c [cc6_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi6`; the one
    array the two inputs read held half and half; nothing owed. -/
noncomputable def dat6 (V : Valuation τ sig (Elt F)) (c : Dev nD) : Dat τ (Elt F) Ix ℕ U Lvl cfg6 c where
  A w := V (Proc.devRef .tc (Pipeline.arrRef spec6 w))
  after w t := match w with
    | ⟨0, _⟩ => iblk6 V c 0 t
    | ⟨1, _⟩ => iblk6 V c 1 t
    | ⟨2, _⟩ => acc6 V c t.val t.isLt
  Φ t := Phi6 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq6 (V : Valuation τ sig (Elt F)) (c : Dev nD) (w : Fin cfg6.W) :
    (dat6 (Ix := Ix) (U := U) (Lvl := Lvl) V c).A w = V (Proc.devRef .tc (Pipeline.arrRef spec6 w)) := by
  dsimp only [dat6]

/-- What the body leaves, window by window. -/
theorem after6_0 (V : Valuation τ sig (Elt F)) (c : Dev nD) (t : Fin cfg6.N) :
    (dat6 (Ix := Ix) (U := U) (Lvl := Lvl) V c).after 0 t = iblk6 V c 0 t := by dsimp only [dat6]
theorem after6_1 (V : Valuation τ sig (Elt F)) (c : Dev nD) (t : Fin cfg6.N) :
    (dat6 (Ix := Ix) (U := U) (Lvl := Lvl) V c).after 1 t = iblk6 V c 1 t := by dsimp only [dat6]
theorem after6_2 (V : Valuation τ sig (Elt F)) (c : Dev nD) (t : Fin cfg6.N) :
    (dat6 (Ix := Ix) (U := U) (Lvl := Lvl) V c).after 2 t = acc6 V c t.val t.isLt := by dsimp only [dat6]

/-- The invariant at a point's start, and at its end. -/
theorem Phi6_castSucc (V : Valuation τ sig (Elt F)) (c : Dev nD) (t : Fin cfg6.N) :
    (dat6 (Ix := Ix) (U := U) (Lvl := Lvl) V c).Φ t.castSucc = Phi6 V c t.val (Nat.le_of_lt t.isLt) := by
  dsimp only [dat6]; simp only [Fin.coe_castSucc]

theorem Phi6_at_succ (V : Valuation τ sig (Elt F)) (c : Dev nD) (t : Fin cfg6.N) :
    (dat6 (Ix := Ix) (U := U) (Lvl := Lvl) V c).Φ t.succ = Phi6 V c (t.val + 1) t.isLt := rfl

/-- Before the first point the invariant is the launch's scoped rest. -/
theorem Phi_first6 (V : Valuation τ sig (Elt F)) (c : Dev nD) :
    (dat6 (Ix := Ix) (U := U) (Lvl := Lvl) V c).Φ 0
      = Pipeline.scopedRest (Ix := Ix) (Name := ℕ) (U := U) (Lvl := Lvl) (Val := Elt F) spec6 c := rfl

/-- After the last point the invariant gives the scoped rest back: the scratch cell's contents are forgotten. -/
theorem Phi_last6 (V : Valuation τ sig (Elt F)) (c : Dev nD) :
    (dat6 (Ix := Ix) (U := U) (Lvl := Lvl) V c).Φ (Fin.last cfg6.N)
      ⊢ Pipeline.scopedRest (Ix := Ix) (Name := ℕ) (U := U) (Lvl := Lvl) (Val := Elt F) spec6 c := by
  have hN : cfg6.N = 64 := N_6
  rw [show (dat6 (Ix := Ix) (U := U) (Lvl := Lvl) V c).Φ (Fin.last cfg6.N) = Phi6 V c (Fin.last cfg6.N).val (Nat.le_of_lt_succ (Fin.last cfg6.N).isLt) from rfl,
    Phi6_pos V c _ _ (by rw [Fin.val_last]; omega), scopedRest6_split, owns_whole]
  iintro ⟨Hs, Hr⟩
  isplitl [Hs]
  · iexists _; iexact Hs
  iexact Hr

example (V : Valuation τ sig (Elt F)) (c : Dev nD) : Dat τ (Elt F) Ix ℕ U Lvl (cfgs 6) c := dat6 V c

end Cert.Kernel.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k6_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond6_1 (i : grid6.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond6_2 (i : grid6.Coords) : Prop := k6_cond2 i = 1#1

/-- The reset runs at the first point only, -/
theorem hcond6_1 : ∀ t : Fin cfg6.N, cond6_1 (grid6.coords t) ↔ t.val = 0 :=
  (by decide +kernel : ∀ t : Fin grid6.N, cond6_1 (grid6.coords t) ↔ t.val = 0)
/-- the copy at the last point only. -/
theorem hcond6_2 : ∀ t : Fin cfg6.N, cond6_2 (grid6.coords t) ↔ t.val = 63 :=
  (by decide +kernel : ∀ t : Fin grid6.N, cond6_2 (grid6.coords t) ↔ t.val = 63)

/-! ## The body, case by case, on any whole memrefs -/

/-- The first point: the scratch cell, at anything, is reset and then holds the first step on zero. -/
theorem run6_A (𝒱₀ : Variants) (c : Dev nD) (i : grid6.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond6_1 i) (hc2 : ¬cond6_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k6_pay2 x2 x3 (k6_pay1 (F := F)))) -∗ K ⟨⟩))
      ⊢ wp frame (wpE (defs₀ (F := F)) 𝒱₀ c none) E (cc6__sum_kernel i arg2 harg2 arg3 harg3 arg4 harg4 arg5 harg5) K := by
  simp only [cc6__sum_kernel_eq_skeleton]; unfold cc6__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run6_A.sl.v15 run6_A.sl.H5_1
  rw [readCov_whole _ zeros2, readAt_whole _ _ zeros2, readAt_whole _ _ zeros2]

/-- A point strictly between the first and the last: the scratch cell at `a` takes the point's step. -/
theorem run6_B (𝒱₀ : Variants) (c : Dev nD) (i : grid6.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond6_1 i) (hc2 : ¬cond6_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k6_pay2 x2 x3 a)) -∗ K ⟨⟩))
      ⊢ wp frame (wpE (defs₀ (F := F)) 𝒱₀ c none) E (cc6__sum_kernel i arg2 harg2 arg3 harg3 arg4 harg4 arg5 harg5) K := by
  simp only [cc6__sum_kernel_eq_skeleton]; unfold cc6__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run6_C (𝒱₀ : Variants) (c : Dev nD) (i : grid6.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond6_1 i) (hc2 : cond6_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k6_pay2 x2 x3 a) ∗ owns (c : Thread nD τ) arg5 fullShare (k6_pay2 x2 x3 a)) -∗ K ⟨⟩))
      ⊢ wp frame (wpE (defs₀ (F := F)) 𝒱₀ c none) E (cc6__sum_kernel i arg2 harg2 arg3 harg3 arg4 harg4 arg5 harg5) K := by
  simp only [cc6__sum_kernel_eq_skeleton]; unfold cc6__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run6_C.sl.v25 run6_C.sl.H5_1
    rw [readCov_whole _ zeros2, readAt_whole _ _ zeros2, readAt_whole _ _ zeros2, readAt_whole _ _ zeros2]
  iexists _; isplitr
  swap; · iexact H5
  ipureintro
  unfold run6_C.sl.H5_1
  rw [read_writes_whole _ _ zeros2, readAt_whole _ _ zeros2, readAt_whole _ _ zeros2, readAt_whole _ _ zeros2]

end Cert.Kernel.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle6_2 : ∀ t : Fin cfg6.N, cfg6.idle 2 (grid6.coords t) = true ↔ t.val ≠ 63 :=
  (by decide +kernel : ∀ t : Fin grid6.N, idle6 2 (grid6.coords t) = true ↔ t.val ≠ 63)
/-- and written back at the last point only. -/
theorem flush6_2' : ∀ t : Fin cfg6.N, (cfg6.win 2).flush t = true ↔ t.val = 63 :=
  (by decide +kernel : ∀ t : Fin grid6.N, win6_2.flush t = true ↔ t.val = 63)

/-! ## What the body finds in the inputs' buffers -/

/-- Each input's current staging buffer holds its block at every point, fetched there or not: unfetched, the block
    index has not moved and the body left the block in place. -/
theorem before6_0 (V : Valuation τ sig (Elt F)) (c : Dev nD) (t : Fin cfg6.N) (d) :
    (dat6 (Ix := Ix) (U := U) (Lvl := Lvl) V c).before 0 t d = iblk6 V c 0 t :=
  ((dat6 (Ix := Ix) (U := U) (Lvl := Lvl) V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)

theorem before6_1 (V : Valuation τ sig (Elt F)) (c : Dev nD) (t : Fin cfg6.N) (d) :
    (dat6 (Ix := Ix) (U := U) (Lvl := Lvl) V c).before 1 t d = iblk6 V c 1 t :=
  ((dat6 (Ix := Ix) (U := U) (Lvl := Lvl) V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)

/-! ## What the obligation asks of each window's buffer after the body -/

/-- The inputs are never idle: their buffers are handed back at their blocks. -/
theorem leaves6_0 (V : Valuation τ sig (Elt F)) (c : Dev nD) (t : Fin cfg6.N) :
    (dat6 (Ix := Ix) (U := U) (Lvl := Lvl) V c).leaves 0 t = owns (c : Thread nD τ) (st6_0 t) fullShare (iblk6 V c 0 t) := by
  rw [← after6_0 (Ix := Ix) (U := U) (Lvl := Lvl) V c t]

theorem leaves6_1 (V : Valuation τ sig (Elt F)) (c : Dev nD) (t : Fin cfg6.N) :
    (dat6 (Ix := Ix) (U := U) (Lvl := Lvl) V c).leaves 1 t = owns (c : Thread nD τ) (st6_1 t) fullShare (iblk6 V c 1 t) := by
  rw [← after6_1 (Ix := Ix) (U := U) (Lvl := Lvl) V c t]

/-- The output is idle, and not written back, at every point but the last: its buffer is handed back as found; -/
theorem leaves6_2_idle (V : Valuation τ sig (Elt F)) (c : Dev nD) (t : Fin cfg6.N) (h : t.val ≠ 63) :
    (dat6 (Ix := Ix) (U := U) (Lvl := Lvl) V c).leaves 2 t
      = iprop(∃ d, owns (c : Thread nD τ) (st6_2 t) fullShare ((dat6 (Ix := Ix) (U := U) (Lvl := Lvl) V c).before 2 t d)) :=
  (dat6 (Ix := Ix) (U := U) (Lvl := Lvl) V c).leaves_idle 2 t ((idle6_2 t).mpr h)
    (Bool.eq_false_iff.mpr fun hf => h ((flush6_2' t).mp hf))

/-- at the last point it is handed back at the accumulated sum. -/
theorem leaves6_2_last (V : Valuation τ sig (Elt F)) (c : Dev nD) (t : Fin cfg6.N) (h : t.val = 63) :
    (dat6 (Ix := Ix) (U := U) (Lvl := Lvl) V c).leaves 2 t = owns (c : Thread nD τ) (st6_2 t) fullShare (acc6 V c t.val t.isLt) := by
  have hl : cfg6.idle 2 (grid6.coords t) = false := by
    cases hi : cfg6.idle 2 (grid6.coords t) with
    | false => rfl
    | true => exact absurd h ((idle6_2 t).mp hi)
  rw [← after6_2 (Ix := Ix) (U := U) (Lvl := Lvl) V c t]
  unfold Dat.leaves; rw [hl]

/-- One step at a point, through the point itself. -/
theorem step6_at (V : Valuation τ sig (Elt F)) (c : Dev nD) (t : Fin cfg6.N) (a : Vec F S1x1 .f32) :
    step6 V c t.val t.isLt a = k6_pay2 (iblk6 V c 0 t) (iblk6 V c 1 t) a := rfl

theorem acc6_first (V : Valuation τ sig (Elt F)) (c : Dev nD) (n : ℕ) (hn : n < cfg6.N) (hz : n = 0) :
    acc6 V c n hn = step6 V c n hn (k6_pay1 (F := F)) := by
  subst hz; rfl

/-! ## The body obligation -/

/-- What the body is called with at point `t` (the obligation's precondition, the windows one by one), -/
noncomputable def bodyPre6 (V : Valuation τ sig (Elt F)) (ι : Ix) (c : Dev nD) (t : Fin cfg6.N) : sProp 𝕄 :=
  iprop((dat6 (Ix := Ix) (U := U) (Lvl := Lvl) V c).Φ t.castSucc ∗ (dat6 (Ix := Ix) (U := U) (Lvl := Lvl) V c).owesAt ι t.castSucc
    ∗ (∃ d, owns (c : Thread nD τ) (st6_0 t) fullShare ((dat6 (Ix := Ix) (U := U) (Lvl := Lvl) V c).before 0 t d))
    ∗ (∃ d, owns (c : Thread nD τ) (st6_1 t) fullShare ((dat6 (Ix := Ix) (U := U) (Lvl := Lvl) V c).before 1 t d))
    ∗ (∃ d, owns (c : Thread nD τ) (st6_2 t) fullShare ((dat6 (Ix := Ix) (U := U) (Lvl := Lvl) V c).before 2 t d)))

/-- and what it returns. -/
noncomputable def bodyPost6 (V : Valuation τ sig (Elt F)) (ι : Ix) (c : Dev nD) (t : Fin cfg6.N) : sProp 𝕄 :=
  iprop((dat6 (Ix := Ix) (U := U) (Lvl := Lvl) V c).Φ t.succ ∗ (dat6 (Ix := Ix) (U := U) (Lvl := Lvl) V c).owesAt ι t.succ
    ∗ (dat6 (Ix := Ix) (U := U) (Lvl := Lvl) V c).leaves 0 t ∗ (dat6 (Ix := Ix) (U := U) (Lvl := Lvl) V c).leaves 1 t ∗ (dat6 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body6 (V : Valuation τ sig (Elt F)) (𝒱₀ : Variants) (ι : Ix) (c : Dev nD) (t : Fin cfg6.N) :
    bodyPre6 (U := U) (Lvl := Lvl) V ι c t
      ⊢ wp frame (wpE (defs₀ (F := F)) 𝒱₀ c none) Set.univ (bodyAt6 t) (fun _ => bodyPost6 (U := U) (Lvl := Lvl) V ι c t) := by
  unfold bodyPre6 bodyPost6 bodyAt6
  simp only [before6_0, before6_1]
  rw [show (dat6 (Ix := Ix) (U := U) (Lvl := Lvl) V c).owesAt ι t.succ = (dat6 (Ix := Ix) (U := U) (Lvl := Lvl) V c).owesAt ι t.castSucc from rfl]
  rw [Phi6_at_succ, Phi6_succ, Phi6_castSucc, leaves6_0, leaves6_1]
  have hN : t.val < 64 := lt_of_lt_of_eq t.isLt N_6
  by_cases hz : t.val = 0
  · have hc1 : cond6_1 (grid6.coords t) := (hcond6_1 t).mpr hz
    have hc2 : ¬cond6_2 (grid6.coords t) := fun h => by have := (hcond6_2 t).mp h; omega
    rw [leaves6_2_idle V c t (by omega), Phi6_zero V c _ _ hz, scopedRest6_split, acc6_first V c _ _ hz, step6_at]
    iintro ⟨⟨⟨%f, Hs⟩, Hr⟩, Ho, ⟨%d0, H0⟩, ⟨%d1, H1⟩, H2⟩
    iapply (run6_A 𝒱₀ c (grid6.coords t) _ _ _ _ _ _ _ _ hc1 hc2 (iblk6 V c 0 t) (iblk6 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond6_1 (grid6.coords t) := fun h => hz ((hcond6_1 t).mp h)
    rw [Phi6_pos V c _ _ hz, acc6_pos V c _ _ hz, step6_at]
    by_cases hl : t.val = 63
    · have hc2 : cond6_2 (grid6.coords t) := (hcond6_2 t).mpr hl
      rw [leaves6_2_last V c t hl, acc6_pos V c _ _ hz, step6_at]
      iintro ⟨⟨Hs, Hr⟩, Ho, ⟨%d0, H0⟩, ⟨%d1, H1⟩, ⟨%d2, H2⟩⟩
      iapply (run6_C 𝒱₀ c (grid6.coords t) _ _ _ _ _ _ _ _ hc1 hc2 (iblk6 V c 0 t) (iblk6 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond6_2 (grid6.coords t) := fun h => hl ((hcond6_2 t).mp h)
      rw [leaves6_2_idle V c t hl]
      iintro ⟨⟨Hs, Hr⟩, Ho, ⟨%d0, H0⟩, ⟨%d1, H1⟩, H2⟩
      iapply (run6_B 𝒱₀ c (grid6.coords t) _ _ _ _ _ _ _ _ hc1 hc2 (iblk6 V c 0 t) (iblk6 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body6 (V : Valuation τ sig (Elt F)) (𝒱₀ : Variants) (ι : Ix) :
    ∀ c : Dev nD, BodyObligationLoose (dat6 (Ix := Ix) (U := U) (Lvl := Lvl) V c) (defs₀ (F := F)) 𝒱₀ ι Set.univ := fun c t => by
  rw [bigSep_W6, bigSep_W6]
  exact sound_body6 (U := U) (Lvl := Lvl) V 𝒱₀ ι c t

end Cert.Kernel.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg6

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (6 : Fin 24)
/-- Its configuration, its windows but for their index maps, the number of its windows. -/
abbrev cfgK : Pipeline.Cfg sig Λ₀ := cfg6
abbrev specK : Fin 3 → Pipeline.WinSpec sig cfgK.grid.rank := spec6
abbrev nW : Nat := 3
/-- Its output window and the buffer behind it. -/
abbrev oK : Fin nW := 2
abbrev outK : Ref sig .tc := main_v229
theorem winK : Pipeline.WinFacts₀ specK := winFacts₀6
theorem block_posK : ∀ w : Fin nW, 0 < (specK w).block.numel := block_pos6
theorem arr_wholeK : ∀ w : Fin nW, (specK w).arr.IsWhole := arr_whole6
theorem stage_wholeK : ∀ (w : Fin nW) (s : Fin (specK w).nbuf), ((specK w).stage s).IsWhole := stage_whole6

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.Kernel.Hand.Reg6

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R6' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (6 : Fin 24) c = dat6 (V37 m outs c) c)
    (hbody : ∀ c : Dev nD, Pipeline.BodyObligationLoose (dat6 (Ix := Ix) (U := U) (Lvl := Lvl) (V37 m outs c) c) (defs₀ (F := F)) 𝒱₀ ι Set.univ) :
    RegionSeg (pcfgs (F := F)) GenP.adm pdats ι defs₀ 𝒱₀ L lv (6 : Fin 24) :=
  Reg6.RK 𝒱₀ L lv ι pdats (fun c => V37 m outs c)
    (fun c => by rw [hp c]; exact hbody c)
    (fun c w => by rw [hp c]; exact A_eq6 (V37 m outs c) c w)
    (fun c => by rw [hp c]; exact PosShare.mem_left_op_right fullShare)
    (fun c t => by rw [hp c]; rfl)
    (fun c => by rw [hp c]; rfl)
    (fun c => by rw [hp c, Phi_first6])
    (fun c => by rw [hp c]; exact Phi_last6 (V37 m outs c) c)

/-- It is entered from the thread state before the region's item, -/
theorem hpre6' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (6 : Fin 24) c = dat6 (V37 m outs c) c)
    (hbody : ∀ c : Dev nD, Pipeline.BodyObligationLoose (dat6 (Ix := Ix) (U := U) (Lvl := Lvl) (V37 m outs c) c) (defs₀ (F := F)) 𝒱₀ ι Set.univ)
    (c : Dev nD) :
    iprop(StableHlo.held (c : Thread nD τ) (Pipeline.ucRefs τ sig) (V37 m outs c) ∗ (R c : sProp 𝕄))
      ⊢ (R6' m outs 𝒱₀ L lv ι pdats hp hbody).pre c := .rfl

/-- and left at the thread state after it. -/
theorem hpost6' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (6 : Fin 24) c = dat6 (V37 m outs c) c)
    (hbody : ∀ c : Dev nD, Pipeline.BodyObligationLoose (dat6 (Ix := Ix) (U := U) (Lvl := Lvl) (V37 m outs c) c) (defs₀ (F := F)) 𝒱₀ ι Set.univ)
    (houts : ∀ c : Dev nD, outs 38 main_v229 c = (dat6 (Ix := Ix) (U := U) (Lvl := Lvl) (V37 m outs c) c).arrAt 2 64)
    (c : Dev nD) :
    (R6' m outs 𝒱₀ L lv ι pdats hp hbody).post c
      ⊢ iprop(StableHlo.held (c : Thread nD τ) (Pipeline.ucRefs τ sig) (V38 m outs c) ∗ (R c : sProp 𝕄)) := by
  have h : (pdats (6 : Fin 24) c).arrAt Reg6.oK Reg6.cfgK.N = outs 38 main_v229 c := by
    rw [hp c]; exact (houts c).symm
  show iprop(StableHlo.held (c : Thread nD τ) (Pipeline.ucRefs τ sig)
      (Function.update (V37 m outs c) (Proc.devRef .tc main_v229) ((pdats (6 : Fin 24) c).arrAt Reg6.oK Reg6.cfgK.N))
        ∗ (R c : sProp 𝕄)) ⊢ _
  rw [h]

end Cert.Kernel.Hand
-- ==== Proof.K_Rg7.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_ApplyLib
import proofs.«169706_j68856915690108_1_alg».proof.Proof.K_Shared
import proofs.«169706_j68856915690108_1_alg».proof.Proof.RegionsK

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k7_pay1 x_i` and `step t a = k7_pay2 h_i h_j threshold x_j a`, the printed payloads of the two stores.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk7 (V : Valuation τ sig (Elt F)) (c : Dev nD) (w : Fin cfg7.W) (t : Fin cfg7.N) :
    ((cfg7.win w).xblock (cfg7.grid.coords t)).Idx → Elt F (cfg7.win w).elt :=
  ((cfg7.win w).blk t).view.read (Elt F)
    (V (Proc.devRef .tc (Pipeline.arrRef spec7 w)) : Buf (Elt F) ((cfg7.win w).arr.view.loc (c.tc : Thread nD τ)))

/-- What the accumulator is reset to at a point whose second coordinate is 0: 1.0 times the block of `x` window 3
    stages there (the printed payload of the first store into the scratch buffer). -/
noncomputable def init7 (V : Valuation τ sig (Elt F)) (c : Dev nD) (n : ℕ) (hn : n < cfg7.N) : Vec F S512x256 .f32 :=
  k7_pay1 (iblk7 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step7 (V : Valuation τ sig (Elt F)) (c : Dev nD) (n : ℕ) (hn : n < cfg7.N) (a : Vec F S512x256 .f32) : Vec F S512x256 .f32 :=
  k7_pay2 (iblk7 V c 1 ⟨n, hn⟩) (iblk7 V c 2 ⟨n, hn⟩) (iblk7 V c 0 ⟨n, hn⟩) (iblk7 V c 4 ⟨n, hn⟩) a

/-- What the accumulator holds after point `n`: reset and stepped at the points ≡ 0 (mod 8), stepped from what the
    point before left at the others. -/
noncomputable def acc7 (V : Valuation τ sig (Elt F)) (c : Dev nD) : (n : ℕ) → n < cfg7.N → Vec F S512x256 .f32
  | 0, hn => step7 V c 0 hn (init7 V c 0 hn)
  | n + 1, hn =>
    if (n + 1) % 8 = 0 then step7 V c (n + 1) hn (init7 V c (n + 1) hn)
    else step7 V c (n + 1) hn (acc7 V c n (Nat.lt_of_succ_lt hn))

/-- After a point ≡ 0 (mod 8): the reset value, stepped once. -/
theorem acc7_reset (V : Valuation τ sig (Elt F)) (c : Dev nD) (n : ℕ) (hn : n < cfg7.N) (h0 : n % 8 = 0) :
    acc7 V c n hn = step7 V c n hn (init7 V c n hn) := by
  cases n with
  | zero => rfl
  | succ n => exact if_pos h0

/-- After any other point: that point's step on what the point before left. -/
theorem acc7_step (V : Valuation τ sig (Elt F)) (c : Dev nD) (n : ℕ) (hn : n < cfg7.N) (h0 : ¬n % 8 = 0) :
    acc7 V c n hn = step7 V c n hn (acc7 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi7 (V : Valuation τ sig (Elt F)) (c : Dev nD) : (n : ℕ) → n ≤ cfg7.N → sProp 𝕄
  | 0, _ => Pipeline.scopedRest (Ix := Ix) (Name := ℕ) (U := U) (Lvl := Lvl) (Val := Elt F) spec7 c
  | n + 1, hn => iprop(owns (c : Thread nD τ) (Memref.whole cc7_scratch0) fullShare (acc7 V c n hn)
      ∗ Pipeline.scopedRestBut (Ix := Ix) (Name := ℕ) (U := U) (Lvl := Lvl) (Val := Elt F) spec7 c [cc7_scratch0])

theorem Phi7_zero (V : Valuation τ sig (Elt F)) (c : Dev nD) (n : ℕ) (h : n ≤ cfg7.N) (hz : n = 0) :
    (Phi7 V c n h : sProp 𝕄) = Pipeline.scopedRest (Ix := Ix) (Name := ℕ) (U := U) (Lvl := Lvl) (Val := Elt F) spec7 c := by
  subst hz; rfl

theorem Phi7_succ (V : Valuation τ sig (Elt F)) (c : Dev nD) (n : ℕ) (hn : n < cfg7.N) :
    (Phi7 V c (n + 1) hn : sProp 𝕄) = iprop(owns (c : Thread nD τ) (Memref.whole cc7_scratch0) fullShare (acc7 V c n hn)
      ∗ Pipeline.scopedRestBut (Ix := Ix) (Name := ℕ) (U := U) (Lvl := Lvl) (Val := Elt F) spec7 c [cc7_scratch0]) := rfl

theorem Phi7_pos (V : Valuation τ sig (Elt F)) (c : Dev nD) (n : ℕ) (h : n ≤ cfg7.N) (hz : n ≠ 0) :
    (Phi7 V c n h : sProp 𝕄) = iprop(owns (c : Thread nD τ) (Memref.whole cc7_scratch0) fullShare (acc7 V c (n - 1) (by omega))
      ∗ Pipeline.scopedRestBut (Ix := Ix) (Name := ℕ) (U := U) (Lvl := Lvl) (Val := Elt F) spec7 c [cc7_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi7`; the
    threshold's array held whole, each of the two arrays that two input windows read held half and half; nothing owed. -/
noncomputable def dat7 (V : Valuation τ sig (Elt F)) (c : Dev nD) : Dat τ (Elt F) Ix ℕ U Lvl cfg7 c where
  A w := V (Proc.devRef .tc (Pipeline.arrRef spec7 w))
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => acc7 V c t.val t.isLt
  Φ t := Phi7 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq7 (V : Valuation τ sig (Elt F)) (c : Dev nD) (w : Fin cfg7.W) :
    (dat7 (Ix := Ix) (U := U) (Lvl := Lvl) V c).A w = V (Proc.devRef .tc (Pipeline.arrRef spec7 w)) := by
  dsimp only [dat7]

/-- What the body leaves, window by window. -/
theorem after7_0 (V : Valuation τ sig (Elt F)) (c : Dev nD) (t : Fin cfg7.N) :
    (dat7 (Ix := Ix) (U := U) (Lvl := Lvl) V c).after 0 t = iblk7 V c 0 t := by dsimp only [dat7]
theorem after7_1 (V : Valuation τ sig (Elt F)) (c : Dev nD) (t : Fin cfg7.N) :
    (dat7 (Ix := Ix) (U := U) (Lvl := Lvl) V c).after 1 t = iblk7 V c 1 t := by dsimp only [dat7]
theorem after7_2 (V : Valuation τ sig (Elt F)) (c : Dev nD) (t : Fin cfg7.N) :
    (dat7 (Ix := Ix) (U := U) (Lvl := Lvl) V c).after 2 t = iblk7 V c 2 t := by dsimp only [dat7]
theorem after7_3 (V : Valuation τ sig (Elt F)) (c : Dev nD) (t : Fin cfg7.N) :
    (dat7 (Ix := Ix) (U := U) (Lvl := Lvl) V c).after 3 t = iblk7 V c 3 t := by dsimp only [dat7]
theorem after7_4 (V : Valuation τ sig (Elt F)) (c : Dev nD) (t : Fin cfg7.N) :
    (dat7 (Ix := Ix) (U := U) (Lvl := Lvl) V c).after 4 t = iblk7 V c 4 t := by dsimp only [dat7]
theorem after7_5 (V : Valuation τ sig (Elt F)) (c : Dev nD) (t : Fin cfg7.N) :
    (dat7 (Ix := Ix) (U := U) (Lvl := Lvl) V c).after 5 t = acc7 V c t.val t.isLt := by dsimp only [dat7]

/-- The shares the input arrays are held at. -/
theorem q7_0 (V : Valuation τ sig (Elt F)) (c : Dev nD) : (dat7 (Ix := Ix) (U := U) (Lvl := Lvl) V c).q 0 = fullShare := by dsimp only [dat7]
theorem q7_1 (V : Valuation τ sig (Elt F)) (c : Dev nD) : (dat7 (Ix := Ix) (U := U) (Lvl := Lvl) V c).q 1 = fullShare.left := by dsimp only [dat7]
theorem q7_2 (V : Valuation τ sig (Elt F)) (c : Dev nD) : (dat7 (Ix := Ix) (U := U) (Lvl := Lvl) V c).q 2 = fullShare.right := by dsimp only [dat7]
theorem q7_3 (V : Valuation τ sig (Elt F)) (c : Dev nD) : (dat7 (Ix := Ix) (U := U) (Lvl := Lvl) V c).q 3 = fullShare.left := by dsimp only [dat7]
theorem q7_4 (V : Valuation τ sig (Elt F)) (c : Dev nD) : (dat7 (Ix := Ix) (U := U) (Lvl := Lvl) V c).q 4 = fullShare.right := by dsimp only [dat7]

/-- The invariant at a point's start, and at its end. -/
theorem Phi7_castSucc (V : Valuation τ sig (Elt F)) (c : Dev nD) (t : Fin cfg7.N) :
    (dat7 (Ix := Ix) (U := U) (Lvl := Lvl) V c).Φ t.castSucc = Phi7 V c t.val (Nat.le_of_lt t.isLt) := by
  dsimp only [dat7]; simp only [Fin.coe_castSucc]

theorem Phi7_at_succ (V : Valuation τ sig (Elt F)) (c : Dev nD) (t : Fin cfg7.N) :
    (dat7 (Ix := Ix) (U := U) (Lvl := Lvl) V c).Φ t.succ = Phi7 V c (t.val + 1) t.isLt := rfl

/-- Before the first point the invariant is the launch's scoped rest. -/
theorem Phi_first7 (V : Valuation τ sig (Elt F)) (c : Dev nD) :
    (dat7 (Ix := Ix) (U := U) (Lvl := Lvl) V c).Φ 0
      = Pipeline.scopedRest (Ix := Ix) (Name := ℕ) (U := U) (Lvl := Lvl) (Val := Elt F) spec7 c := rfl

/-- After the last point the invariant gives the scoped rest back: the accumulator's contents are forgotten. -/
theorem Phi_last7 (V : Valuation τ sig (Elt F)) (c : Dev nD) :
    (dat7 (Ix := Ix) (U := U) (Lvl := Lvl) V c).Φ (Fin.last cfg7.N)
      ⊢ Pipeline.scopedRest (Ix := Ix) (Name := ℕ) (U := U) (Lvl := Lvl) (Val := Elt F) spec7 c := by
  have hN : cfg7.N = 64 := N_7
  rw [show (dat7 (Ix := Ix) (U := U) (Lvl := Lvl) V c).Φ (Fin.last cfg7.N) = Phi7 V c (Fin.last cfg7.N).val (Nat.le_of_lt_succ (Fin.last cfg7.N).isLt) from rfl,
    Phi7_pos V c _ _ (by rw [Fin.val_last]; omega), scopedRest7_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 7) c := dat7 V c

end Cert.Kernel.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k7_pay2 hI hJ mn xJ s` — `s` plus the 0/1 mask of (hI · hJᵀ > mn) times `xJ` — and the value
  the accumulator is reset to is `k7_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond7_0 (i : grid7.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond7_1 (i : grid7.Coords) : Prop := k7_cond2 i = 1#1

/-! ## The three runs -/

/-- At a point whose second coordinate is 0 (and not 7): the accumulator, at anything, is reset to `k7_pay1 xI` and
    stepped once; every window's buffer is handed back as found. -/
theorem run7_first (𝒱₀ : Variants) (c : Dev nD) (i : grid7.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond7_0 i) (hc1 : ¬cond7_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k7_pay2 hI hJ mn xJ (k7_pay1 xI))) -∗ K ⟨⟩))
      ⊢ wp frame (wpE (defs₀ (F := F)) 𝒱₀ c none) E (cc7__apply_kernel i arg2 harg2 arg3 harg3 arg4 harg4 arg5 harg5 arg6 harg6 arg7 harg7 arg8 harg8) K := by
  simp only [cc7__apply_kernel_eq_skeleton]; unfold cc7__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run7_mid (𝒱₀ : Variants) (c : Dev nD) (i : grid7.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond7_0 i) (hc1 : ¬cond7_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k7_pay2 hI hJ mn xJ s)) -∗ K ⟨⟩))
      ⊢ wp frame (wpE (defs₀ (F := F)) 𝒱₀ c none) E (cc7__apply_kernel i arg2 harg2 arg3 harg3 arg4 harg4 arg5 harg5 arg6 harg6 arg7 harg7 arg8 harg8) K := by
  simp only [cc7__apply_kernel_eq_skeleton]; unfold cc7__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run7_last (𝒱₀ : Variants) (c : Dev nD) (i : grid7.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond7_0 i) (hc1 : cond7_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k7_pay2 hI hJ mn xJ s)
        ∗ owns (c : Thread nD τ) arg8 fullShare (k7_pay2 hI hJ mn xJ s)) -∗ K ⟨⟩))
      ⊢ wp frame (wpE (defs₀ (F := F)) 𝒱₀ c none) E (cc7__apply_kernel i arg2 harg2 arg3 harg3 arg4 harg4 arg5 harg5 arg6 harg6 arg7 harg7 arg8 harg8) K := by
  simp only [cc7__apply_kernel_eq_skeleton]; unfold cc7__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.Kernel.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc7`. The three control cases are
  decided over the grid by the point's residue mod 8, and in each the kernel's run (ApplyRun.lean) applies.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond7_0 : ∀ t : Fin cfg7.N, cond7_0 (grid7.coords t) ↔ t.val % 8 = 0 :=
  (by decide +kernel : ∀ t : Fin grid7.N, cond7_0 (grid7.coords t) ↔ t.val % 8 = 0)
/-- It is stored into the output block at the points ≡ 7 (mod 8). -/
theorem hcond7_1 : ∀ t : Fin cfg7.N, cond7_1 (grid7.coords t) ↔ t.val % 8 = 7 :=
  (by decide +kernel : ∀ t : Fin grid7.N, cond7_1 (grid7.coords t) ↔ t.val % 8 = 7)
/-- The output window is idle at every other point, -/
theorem idleAt7_5 : ∀ t : Fin cfg7.N, ¬t.val % 8 = 7 → cfg7.idle 5 (grid7.coords t) = true :=
  (by decide +kernel : ∀ t : Fin grid7.N, ¬t.val % 8 = 7 → cfg7.idle 5 (grid7.coords t) = true)
/-- live at those, -/
theorem liveAt7_5 : ∀ t : Fin cfg7.N, t.val % 8 = 7 → cfg7.idle 5 (grid7.coords t) = false :=
  (by decide +kernel : ∀ t : Fin grid7.N, t.val % 8 = 7 → cfg7.idle 5 (grid7.coords t) = false)
/-- and not written back where it is idle. -/
theorem noFlush7_5 (t : Fin cfg7.N) (h : ¬t.val % 8 = 7) : (cfg7.win 5).flush t = false := by
  cases hf : (cfg7.win 5).flush t with
  | false => rfl
  | true => exact absurd ((flush7_5 t).mp hf) h

/-! ## What the body finds in the inputs' buffers and leaves in every buffer -/

/-- Each input's current staging buffer holds its block at every point, fetched there or not. -/
theorem before7_0 (V : Valuation τ sig (Elt F)) (c : Dev nD) (t : Fin cfg7.N) (d) : (dat7 (Ix := Ix) (U := U) (Lvl := Lvl) V c).before 0 t d = iblk7 V c 0 t :=
  ((dat7 (Ix := Ix) (U := U) (Lvl := Lvl) V c).before_in_eq_fetched 0 rfl (fun _ => rfl) (fun _ _ _ => rfl)
      (fun t => by rw [after7_0]; unfold Dat.blockOf iblk7; rw [A_eq7]; try rfl) t d).trans
    (by unfold Dat.fetched Dat.blockOf iblk7; rw [A_eq7]; try rfl)
theorem before7_1 (V : Valuation τ sig (Elt F)) (c : Dev nD) (t : Fin cfg7.N) (d) : (dat7 (Ix := Ix) (U := U) (Lvl := Lvl) V c).before 1 t d = iblk7 V c 1 t :=
  ((dat7 (Ix := Ix) (U := U) (Lvl := Lvl) V c).before_in_eq_fetched 1 rfl (fun _ => rfl) (fun _ _ _ => rfl)
      (fun t => by rw [after7_1]; unfold Dat.blockOf iblk7; rw [A_eq7]; try rfl) t d).trans
    (by unfold Dat.fetched Dat.blockOf iblk7; rw [A_eq7]; try rfl)
theorem before7_2 (V : Valuation τ sig (Elt F)) (c : Dev nD) (t : Fin cfg7.N) (d) : (dat7 (Ix := Ix) (U := U) (Lvl := Lvl) V c).before 2 t d = iblk7 V c 2 t :=
  ((dat7 (Ix := Ix) (U := U) (Lvl := Lvl) V c).before_in_eq_fetched 2 rfl (fun _ => rfl) (fun _ _ _ => rfl)
      (fun t => by rw [after7_2]; unfold Dat.blockOf iblk7; rw [A_eq7]; try rfl) t d).trans
    (by unfold Dat.fetched Dat.blockOf iblk7; rw [A_eq7]; try rfl)
theorem before7_3 (V : Valuation τ sig (Elt F)) (c : Dev nD) (t : Fin cfg7.N) (d) : (dat7 (Ix := Ix) (U := U) (Lvl := Lvl) V c).before 3 t d = iblk7 V c 3 t :=
  ((dat7 (Ix := Ix) (U := U) (Lvl := Lvl) V c).before_in_eq_fetched 3 rfl (fun _ => rfl) (fun _ _ _ => rfl)
      (fun t => by rw [after7_3]; unfold Dat.blockOf iblk7; rw [A_eq7]; try rfl) t d).trans
    (by unfold Dat.fetched Dat.blockOf iblk7; rw [A_eq7]; try rfl)
theorem before7_4 (V : Valuation τ sig (Elt F)) (c : Dev nD) (t : Fin cfg7.N) (d) : (dat7 (Ix := Ix) (U := U) (Lvl := Lvl) V c).before 4 t d = iblk7 V c 4 t :=
  ((dat7 (Ix := Ix) (U := U) (Lvl := Lvl) V c).before_in_eq_fetched 4 rfl (fun _ => rfl) (fun _ _ _ => rfl)
      (fun t => by rw [after7_4]; unfold Dat.blockOf iblk7; rw [A_eq7]; try rfl) t d).trans
    (by unfold Dat.fetched Dat.blockOf iblk7; rw [A_eq7]; try rfl)

/-! ## The body obligation, at a generic point -/

/-- What the body is called with at point `t` (the obligation's precondition, the windows one by one), -/
noncomputable def bodyPre7 (V : Valuation τ sig (Elt F)) (c : Dev nD) (ι : Ix) (t : Fin cfg7.N) : sProp 𝕄 :=
  iprop((dat7 (Ix := Ix) (U := U) (Lvl := Lvl) V c).Φ t.castSucc ∗ (dat7 (Ix := Ix) (U := U) (Lvl := Lvl) V c).owesAt ι t.castSucc
    ∗ (∃ d, owns (c : Thread nD τ) (st7_0 t) fullShare ((dat7 (Ix := Ix) (U := U) (Lvl := Lvl) V c).before 0 t d))
    ∗ (∃ d, owns (c : Thread nD τ) (st7_1 t) fullShare ((dat7 (Ix := Ix) (U := U) (Lvl := Lvl) V c).before 1 t d))
    ∗ (∃ d, owns (c : Thread nD τ) (st7_2 t) fullShare ((dat7 (Ix := Ix) (U := U) (Lvl := Lvl) V c).before 2 t d))
    ∗ (∃ d, owns (c : Thread nD τ) (st7_3 t) fullShare ((dat7 (Ix := Ix) (U := U) (Lvl := Lvl) V c).before 3 t d))
    ∗ (∃ d, owns (c : Thread nD τ) (st7_4 t) fullShare ((dat7 (Ix := Ix) (U := U) (Lvl := Lvl) V c).before 4 t d))
    ∗ (∃ d, owns (c : Thread nD τ) (st7_5 t) fullShare ((dat7 (Ix := Ix) (U := U) (Lvl := Lvl) V c).before 5 t d)))

/-- and what it returns. -/
noncomputable def bodyPost7 (V : Valuation τ sig (Elt F)) (c : Dev nD) (ι : Ix) (t : Fin cfg7.N) : sProp 𝕄 :=
  iprop((dat7 (Ix := Ix) (U := U) (Lvl := Lvl) V c).Φ t.succ ∗ (dat7 (Ix := Ix) (U := U) (Lvl := Lvl) V c).owesAt ι t.succ
    ∗ (dat7 (Ix := Ix) (U := U) (Lvl := Lvl) V c).leaves 0 t ∗ (dat7 (Ix := Ix) (U := U) (Lvl := Lvl) V c).leaves 1 t ∗ (dat7 (Ix := Ix) (U := U) (Lvl := Lvl) V c).leaves 2 t
    ∗ (dat7 (Ix := Ix) (U := U) (Lvl := Lvl) V c).leaves 3 t ∗ (dat7 (Ix := Ix) (U := U) (Lvl := Lvl) V c).leaves 4 t ∗ (dat7 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body7 (𝒱₀ : Variants) (ι : Ix) (V : Valuation τ sig (Elt F)) (c : Dev nD) (t : Fin cfg7.N) :
    bodyPre7 (Ix := Ix) (U := U) (Lvl := Lvl) V c ι t ⊢ wp frame (wpE (defs₀ (F := F)) 𝒱₀ c none) Set.univ (bodyAt7 t) (fun _ => bodyPost7 (Ix := Ix) (U := U) (Lvl := Lvl) V c ι t) := by
  unfold bodyPre7 bodyPost7 bodyAt7
  simp only [before7_0, before7_1, before7_2, before7_3, before7_4]
  rw [show (dat7 (Ix := Ix) (U := U) (Lvl := Lvl) V c).owesAt ι t.succ = (dat7 (Ix := Ix) (U := U) (Lvl := Lvl) V c).owesAt ι t.castSucc from rfl]
  rw [Phi7_at_succ, Phi7_succ, Phi7_castSucc]
  rw [leaves_live (dat7 (Ix := Ix) (U := U) (Lvl := Lvl) V c) 0 t rfl rfl, leaves_live (dat7 (Ix := Ix) (U := U) (Lvl := Lvl) V c) 1 t rfl rfl, leaves_live (dat7 (Ix := Ix) (U := U) (Lvl := Lvl) V c) 2 t rfl rfl,
    leaves_live (dat7 (Ix := Ix) (U := U) (Lvl := Lvl) V c) 3 t rfl rfl, leaves_live (dat7 (Ix := Ix) (U := U) (Lvl := Lvl) V c) 4 t rfl rfl, after7_0, after7_1, after7_2, after7_3, after7_4]
  have hN : t.val < 64 := lt_of_lt_of_eq t.isLt (show cfg7.N = 64 from N_7)
  by_cases h0 : t.val % 8 = 0
  · have h7 : ¬t.val % 8 = 7 := by omega
    rw [Dat.leaves_idle (dat7 (Ix := Ix) (U := U) (Lvl := Lvl) V c) 5 t (idleAt7_5 t h7) (noFlush7_5 t h7)]
    rw [acc7_reset V c t.val t.isLt h0]
    unfold step7 init7
    by_cases hz : t.val = 0
    · rw [Phi7_zero V c _ _ hz, scopedRest7_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run7_first 𝒱₀ c (grid7.coords t) _ _ _ _ _ _ _ _ _ _ _ _ _ _ ((hcond7_0 t).mpr h0) (fun h => h7 ((hcond7_1 t).mp h)) (iblk7 V c 0 t) (iblk7 V c 1 t) (iblk7 V c 2 t) (iblk7 V c 3 t) (iblk7 V c 4 t) ((dat7 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi7_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run7_first 𝒱₀ c (grid7.coords t) _ _ _ _ _ _ _ _ _ _ _ _ _ _ ((hcond7_0 t).mpr h0) (fun h => h7 ((hcond7_1 t).mp h)) (iblk7 V c 0 t) (iblk7 V c 1 t) (iblk7 V c 2 t) (iblk7 V c 3 t) (iblk7 V c 4 t) ((dat7 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc7_step V c t.val t.isLt h0, Phi7_pos V c _ _ hz]
    unfold step7
    by_cases h7 : t.val % 8 = 7
    · rw [leaves_live (dat7 (Ix := Ix) (U := U) (Lvl := Lvl) V c) 5 t (liveAt7_5 t h7) rfl, after7_5, acc7_step V c t.val t.isLt h0]
      unfold step7
      iintro ⟨⟨HS, Hr⟩, Ho, ⟨%d0, H0⟩, ⟨%d1, H1⟩, ⟨%d2, H2⟩, ⟨%d3, H3⟩, ⟨%d4, H4⟩, ⟨%d5, H5⟩⟩
      iapply (run7_last 𝒱₀ c (grid7.coords t) _ _ _ _ _ _ _ _ _ _ _ _ _ _ (fun h => h0 ((hcond7_0 t).mp h)) ((hcond7_1 t).mpr h7) (iblk7 V c 0 t) (iblk7 V c 1 t) (iblk7 V c 2 t) (iblk7 V c 3 t) (iblk7 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat7 (Ix := Ix) (U := U) (Lvl := Lvl) V c) 5 t (idleAt7_5 t h7) (noFlush7_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run7_mid 𝒱₀ c (grid7.coords t) _ _ _ _ _ _ _ _ _ _ _ _ _ _ (fun h => h0 ((hcond7_0 t).mp h)) (fun h => h7 ((hcond7_1 t).mp h)) (iblk7 V c 0 t) (iblk7 V c 1 t) (iblk7 V c 2 t) (iblk7 V c 3 t) (iblk7 V c 4 t) ((dat7 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation7 (𝒱₀ : Variants) (ι : Ix) (V : Valuation τ sig (Elt F)) (c : Dev nD) :
    BodyObligationLoose (dat7 (Ix := Ix) (U := U) (Lvl := Lvl) V c) (defs₀ (F := F)) 𝒱₀ ι Set.univ := fun t => by
  rw [bigSep_W7, bigSep_W7]
  exact sound_body7 𝒱₀ ι V c t

/-- The same at the type the program's family of configurations gives pipeline 1, on every core. -/
theorem body7 (𝒱₀ : Variants) (ι : Ix) (V : Valuation τ sig (Elt F)) :
    ∀ c : Dev nD, BodyObligationLoose (cfg := cfgs 7) (dat7 (Ix := Ix) (U := U) (Lvl := Lvl) V c) (defs₀ (F := F)) 𝒱₀ ι Set.univ :=
  fun c => body_obligation7 𝒱₀ ι V c

end Cert.Kernel.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg7

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (7 : Fin 24)
/-- Its configuration, its windows but for their index maps, the number of its windows. -/
abbrev cfgK : Pipeline.Cfg sig Λ₀ := cfg7
abbrev specK : Fin 6 → Pipeline.WinSpec sig cfgK.grid.rank := spec7
abbrev nW : Nat := 6
/-- Its output window and the buffer behind it. -/
abbrev oK : Fin nW := 5
abbrev outK : Ref sig .tc := main_v232
theorem winK : Pipeline.WinFacts₀ specK := winFacts₀7
theorem block_posK : ∀ w : Fin nW, 0 < (specK w).block.numel := block_pos7
theorem arr_wholeK : ∀ w : Fin nW, (specK w).arr.IsWhole := arr_whole7
theorem stage_wholeK : ∀ (w : Fin nW) (s : Fin (specK w).nbuf), ((specK w).stage s).IsWhole := stage_whole7

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.Kernel.Hand.Reg7

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R7' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (7 : Fin 24) c = dat7 (V39 m outs c) c)
    (hbody : ∀ c : Dev nD, Pipeline.BodyObligationLoose (dat7 (Ix := Ix) (U := U) (Lvl := Lvl) (V39 m outs c) c) (defs₀ (F := F)) 𝒱₀ ι Set.univ) :
    RegionSeg (pcfgs (F := F)) GenP.adm pdats ι defs₀ 𝒱₀ L lv (7 : Fin 24) :=
  Reg7.RK 𝒱₀ L lv ι pdats (fun c => V39 m outs c)
    (fun c => by rw [hp c]; exact hbody c)
    (fun c w => by rw [hp c]; exact A_eq7 (V39 m outs c) c w)
    (fun c => by rw [hp c]; rw [q7_1, q7_2]; exact PosShare.mem_left_op_right fullShare)
    (fun c => by rw [hp c]; rw [q7_3, q7_4]; exact PosShare.mem_left_op_right fullShare)
    (fun c => by rw [hp c]; exact q7_0 (V39 m outs c) c)
    (fun c t => by rw [hp c]; rfl)
    (fun c => by rw [hp c]; rfl)
    (fun c => by rw [hp c, Phi_first7])
    (fun c => by rw [hp c]; exact Phi_last7 (V39 m outs c) c)

/-- It is entered from the thread state before the region's item, -/
theorem hpre7' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (7 : Fin 24) c = dat7 (V39 m outs c) c)
    (hbody : ∀ c : Dev nD, Pipeline.BodyObligationLoose (dat7 (Ix := Ix) (U := U) (Lvl := Lvl) (V39 m outs c) c) (defs₀ (F := F)) 𝒱₀ ι Set.univ)
    (c : Dev nD) :
    iprop(StableHlo.held (c : Thread nD τ) (Pipeline.ucRefs τ sig) (V39 m outs c) ∗ (R c : sProp 𝕄))
      ⊢ (R7' m outs 𝒱₀ L lv ι pdats hp hbody).pre c := .rfl

/-- and left at the thread state after it. -/
theorem hpost7' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (7 : Fin 24) c = dat7 (V39 m outs c) c)
    (hbody : ∀ c : Dev nD, Pipeline.BodyObligationLoose (dat7 (Ix := Ix) (U := U) (Lvl := Lvl) (V39 m outs c) c) (defs₀ (F := F)) 𝒱₀ ι Set.univ)
    (houts : ∀ c : Dev nD, outs 40 main_v232 c = (dat7 (Ix := Ix) (U := U) (Lvl := Lvl) (V39 m outs c) c).arrAt 5 64)
    (c : Dev nD) :
    (R7' m outs 𝒱₀ L lv ι pdats hp hbody).post c
      ⊢ iprop(StableHlo.held (c : Thread nD τ) (Pipeline.ucRefs τ sig) (V40 m outs c) ∗ (R c : sProp 𝕄)) := by
  have h : (pdats (7 : Fin 24) c).arrAt Reg7.oK Reg7.cfgK.N = outs 40 main_v232 c := by
    rw [hp c]; exact (houts c).symm
  show iprop(StableHlo.held (c : Thread nD τ) (Pipeline.ucRefs τ sig)
      (Function.update (V39 m outs c) (Proc.devRef .tc main_v232) ((pdats (7 : Fin 24) c).arrAt Reg7.oK Reg7.cfgK.N))
        ∗ (R c : sProp 𝕄)) ⊢ _
  rw [h]

end Cert.Kernel.Hand
-- ==== Proof.K_Rg8.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_SumLib
import Idealize.ShloMosaic.Lib.Tactic
import proofs.«169706_j68856915690108_1_alg».proof.Proof.K_Shared
import proofs.«169706_j68856915690108_1_alg».proof.Proof.RegionsK

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k8_pay2)

  and only at the last point, 63, is that cell copied into the 1 × 1 output block, which the pipeline then writes back.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk8 (V : Valuation τ sig (Elt F)) (c : Dev nD) (w : Fin cfg8.W) (t : Fin cfg8.N) :
    ((cfg8.win w).xblock (cfg8.grid.coords t)).Idx → Elt F (cfg8.win w).elt :=
  ((cfg8.win w).blk t).view.read (Elt F)
    (V (Proc.devRef .tc (Pipeline.arrRef spec8 w)) : Buf (Elt F) ((cfg8.win w).arr.view.loc (c.tc : Thread nD τ)))

/-- One point's step on the scratch cell: the cell's contents `a` plus the sum of the tile made of the two blocks
    the point stages (the printed payload of the store into the scratch cell). -/
noncomputable def step8 (V : Valuation τ sig (Elt F)) (c : Dev nD) (n : ℕ) (hn : n < cfg8.N) (a : Vec F S1x1 .f32) : Vec F S1x1 .f32 :=
  k8_pay2 (iblk8 V c 0 ⟨n, hn⟩) (iblk8 V c 1 ⟨n, hn⟩) a

/-- What the scratch cell holds after point `n`: the steps of the points `0 … n` applied, first to last, to the
    zero the body stores at point 0. -/
noncomputable def acc8 (V : Valuation τ sig (Elt F)) (c : Dev nD) : (n : ℕ) → n < cfg8.N → Vec F S1x1 .f32
  | 0, hn => step8 V c 0 hn (k8_pay1 (F := F))
  | n + 1, hn => step8 V c (n + 1) hn (acc8 V c n (Nat.lt_of_succ_lt hn))

theorem acc8_zero (V : Valuation τ sig (Elt F)) (c : Dev nD) (hn : 0 < cfg8.N) :
    acc8 V c 0 hn = step8 V c 0 hn (k8_pay1 (F := F)) := rfl

theorem acc8_succ (V : Valuation τ sig (Elt F)) (c : Dev nD) (n : ℕ) (hn : n + 1 < cfg8.N) :
    acc8 V c (n + 1) hn = step8 V c (n + 1) hn (acc8 V c n (Nat.lt_of_succ_lt hn)) := rfl

/-- After a point that is not the first: the step of that point on what the point before left. -/
theorem acc8_pos (V : Valuation τ sig (Elt F)) (c : Dev nD) (n : ℕ) (hn : n < cfg8.N) (hz : n ≠ 0) :
    acc8 V c n hn = step8 V c n hn (acc8 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi8 (V : Valuation τ sig (Elt F)) (c : Dev nD) : (n : ℕ) → n ≤ cfg8.N → sProp 𝕄
  | 0, _ => Pipeline.scopedRest (Ix := Ix) (Name := ℕ) (U := U) (Lvl := Lvl) (Val := Elt F) spec8 c
  | n + 1, hn => iprop(owns (c : Thread nD τ) (Memref.whole cc8_scratch0) fullShare (acc8 V c n hn)
      ∗ Pipeline.scopedRestBut (Ix := Ix) (Name := ℕ) (U := U) (Lvl := Lvl) (Val := Elt F) spec8 c [cc8_scratch0])

theorem Phi8_zero (V : Valuation τ sig (Elt F)) (c : Dev nD) (n : ℕ) (h : n ≤ cfg8.N) (hz : n = 0) :
    (Phi8 V c n h : sProp 𝕄) = Pipeline.scopedRest (Ix := Ix) (Name := ℕ) (U := U) (Lvl := Lvl) (Val := Elt F) spec8 c := by
  subst hz; rfl

theorem Phi8_succ (V : Valuation τ sig (Elt F)) (c : Dev nD) (n : ℕ) (hn : n < cfg8.N) :
    (Phi8 V c (n + 1) hn : sProp 𝕄) = iprop(owns (c : Thread nD τ) (Memref.whole cc8_scratch0) fullShare (acc8 V c n hn)
      ∗ Pipeline.scopedRestBut (Ix := Ix) (Name := ℕ) (U := U) (Lvl := Lvl) (Val := Elt F) spec8 c [cc8_scratch0]) := rfl

theorem Phi8_pos (V : Valuation τ sig (Elt F)) (c : Dev nD) (n : ℕ) (h : n ≤ cfg8.N) (hz : n ≠ 0) :
    (Phi8 V c n h : sProp 𝕄) = iprop(owns (c : Thread nD τ) (Memref.whole cc8_scratch0) fullShare (acc8 V c (n - 1) (by omega))
      ∗ Pipeline.scopedRestBut (Ix := Ix) (Name := ℕ) (U := U) (Lvl := Lvl) (Val := Elt F) spec8 c [cc8_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi8`; the one
    array the two inputs read held half and half; nothing owed. -/
noncomputable def dat8 (V : Valuation τ sig (Elt F)) (c : Dev nD) : Dat τ (Elt F) Ix ℕ U Lvl cfg8 c where
  A w := V (Proc.devRef .tc (Pipeline.arrRef spec8 w))
  after w t := match w with
    | ⟨0, _⟩ => iblk8 V c 0 t
    | ⟨1, _⟩ => iblk8 V c 1 t
    | ⟨2, _⟩ => acc8 V c t.val t.isLt
  Φ t := Phi8 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq8 (V : Valuation τ sig (Elt F)) (c : Dev nD) (w : Fin cfg8.W) :
    (dat8 (Ix := Ix) (U := U) (Lvl := Lvl) V c).A w = V (Proc.devRef .tc (Pipeline.arrRef spec8 w)) := by
  dsimp only [dat8]

/-- What the body leaves, window by window. -/
theorem after8_0 (V : Valuation τ sig (Elt F)) (c : Dev nD) (t : Fin cfg8.N) :
    (dat8 (Ix := Ix) (U := U) (Lvl := Lvl) V c).after 0 t = iblk8 V c 0 t := by dsimp only [dat8]
theorem after8_1 (V : Valuation τ sig (Elt F)) (c : Dev nD) (t : Fin cfg8.N) :
    (dat8 (Ix := Ix) (U := U) (Lvl := Lvl) V c).after 1 t = iblk8 V c 1 t := by dsimp only [dat8]
theorem after8_2 (V : Valuation τ sig (Elt F)) (c : Dev nD) (t : Fin cfg8.N) :
    (dat8 (Ix := Ix) (U := U) (Lvl := Lvl) V c).after 2 t = acc8 V c t.val t.isLt := by dsimp only [dat8]

/-- The invariant at a point's start, and at its end. -/
theorem Phi8_castSucc (V : Valuation τ sig (Elt F)) (c : Dev nD) (t : Fin cfg8.N) :
    (dat8 (Ix := Ix) (U := U) (Lvl := Lvl) V c).Φ t.castSucc = Phi8 V c t.val (Nat.le_of_lt t.isLt) := by
  dsimp only [dat8]; simp only [Fin.coe_castSucc]

theorem Phi8_at_succ (V : Valuation τ sig (Elt F)) (c : Dev nD) (t : Fin cfg8.N) :
    (dat8 (Ix := Ix) (U := U) (Lvl := Lvl) V c).Φ t.succ = Phi8 V c (t.val + 1) t.isLt := rfl

/-- Before the first point the invariant is the launch's scoped rest. -/
theorem Phi_first8 (V : Valuation τ sig (Elt F)) (c : Dev nD) :
    (dat8 (Ix := Ix) (U := U) (Lvl := Lvl) V c).Φ 0
      = Pipeline.scopedRest (Ix := Ix) (Name := ℕ) (U := U) (Lvl := Lvl) (Val := Elt F) spec8 c := rfl

/-- After the last point the invariant gives the scoped rest back: the scratch cell's contents are forgotten. -/
theorem Phi_last8 (V : Valuation τ sig (Elt F)) (c : Dev nD) :
    (dat8 (Ix := Ix) (U := U) (Lvl := Lvl) V c).Φ (Fin.last cfg8.N)
      ⊢ Pipeline.scopedRest (Ix := Ix) (Name := ℕ) (U := U) (Lvl := Lvl) (Val := Elt F) spec8 c := by
  have hN : cfg8.N = 64 := N_8
  rw [show (dat8 (Ix := Ix) (U := U) (Lvl := Lvl) V c).Φ (Fin.last cfg8.N) = Phi8 V c (Fin.last cfg8.N).val (Nat.le_of_lt_succ (Fin.last cfg8.N).isLt) from rfl,
    Phi8_pos V c _ _ (by rw [Fin.val_last]; omega), scopedRest8_split, owns_whole]
  iintro ⟨Hs, Hr⟩
  isplitl [Hs]
  · iexists _; iexact Hs
  iexact Hr

example (V : Valuation τ sig (Elt F)) (c : Dev nD) : Dat τ (Elt F) Ix ℕ U Lvl (cfgs 8) c := dat8 V c

end Cert.Kernel.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k8_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond8_1 (i : grid8.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond8_2 (i : grid8.Coords) : Prop := k8_cond2 i = 1#1

/-- The reset runs at the first point only, -/
theorem hcond8_1 : ∀ t : Fin cfg8.N, cond8_1 (grid8.coords t) ↔ t.val = 0 :=
  (by decide +kernel : ∀ t : Fin grid8.N, cond8_1 (grid8.coords t) ↔ t.val = 0)
/-- the copy at the last point only. -/
theorem hcond8_2 : ∀ t : Fin cfg8.N, cond8_2 (grid8.coords t) ↔ t.val = 63 :=
  (by decide +kernel : ∀ t : Fin grid8.N, cond8_2 (grid8.coords t) ↔ t.val = 63)

/-! ## The body, case by case, on any whole memrefs -/

/-- The first point: the scratch cell, at anything, is reset and then holds the first step on zero. -/
theorem run8_A (𝒱₀ : Variants) (c : Dev nD) (i : grid8.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond8_1 i) (hc2 : ¬cond8_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k8_pay2 x2 x3 (k8_pay1 (F := F)))) -∗ K ⟨⟩))
      ⊢ wp frame (wpE (defs₀ (F := F)) 𝒱₀ c none) E (cc8__sum_kernel i arg2 harg2 arg3 harg3 arg4 harg4 arg5 harg5) K := by
  simp only [cc8__sum_kernel_eq_skeleton]; unfold cc8__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run8_A.sl.v15 run8_A.sl.H5_1
  rw [readCov_whole _ zeros2, readAt_whole _ _ zeros2, readAt_whole _ _ zeros2]

/-- A point strictly between the first and the last: the scratch cell at `a` takes the point's step. -/
theorem run8_B (𝒱₀ : Variants) (c : Dev nD) (i : grid8.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond8_1 i) (hc2 : ¬cond8_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k8_pay2 x2 x3 a)) -∗ K ⟨⟩))
      ⊢ wp frame (wpE (defs₀ (F := F)) 𝒱₀ c none) E (cc8__sum_kernel i arg2 harg2 arg3 harg3 arg4 harg4 arg5 harg5) K := by
  simp only [cc8__sum_kernel_eq_skeleton]; unfold cc8__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run8_C (𝒱₀ : Variants) (c : Dev nD) (i : grid8.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond8_1 i) (hc2 : cond8_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k8_pay2 x2 x3 a) ∗ owns (c : Thread nD τ) arg5 fullShare (k8_pay2 x2 x3 a)) -∗ K ⟨⟩))
      ⊢ wp frame (wpE (defs₀ (F := F)) 𝒱₀ c none) E (cc8__sum_kernel i arg2 harg2 arg3 harg3 arg4 harg4 arg5 harg5) K := by
  simp only [cc8__sum_kernel_eq_skeleton]; unfold cc8__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run8_C.sl.v25 run8_C.sl.H5_1
    rw [readCov_whole _ zeros2, readAt_whole _ _ zeros2, readAt_whole _ _ zeros2, readAt_whole _ _ zeros2]
  iexists _; isplitr
  swap; · iexact H5
  ipureintro
  unfold run8_C.sl.H5_1
  rw [read_writes_whole _ _ zeros2, readAt_whole _ _ zeros2, readAt_whole _ _ zeros2, readAt_whole _ _ zeros2]

end Cert.Kernel.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle8_2 : ∀ t : Fin cfg8.N, cfg8.idle 2 (grid8.coords t) = true ↔ t.val ≠ 63 :=
  (by decide +kernel : ∀ t : Fin grid8.N, idle8 2 (grid8.coords t) = true ↔ t.val ≠ 63)
/-- and written back at the last point only. -/
theorem flush8_2' : ∀ t : Fin cfg8.N, (cfg8.win 2).flush t = true ↔ t.val = 63 :=
  (by decide +kernel : ∀ t : Fin grid8.N, win8_2.flush t = true ↔ t.val = 63)

/-! ## What the body finds in the inputs' buffers -/

/-- Each input's current staging buffer holds its block at every point, fetched there or not: unfetched, the block
    index has not moved and the body left the block in place. -/
theorem before8_0 (V : Valuation τ sig (Elt F)) (c : Dev nD) (t : Fin cfg8.N) (d) :
    (dat8 (Ix := Ix) (U := U) (Lvl := Lvl) V c).before 0 t d = iblk8 V c 0 t :=
  ((dat8 (Ix := Ix) (U := U) (Lvl := Lvl) V c).before_in_eq_fetched 0 rfl (fun _ => rfl) (fun _ _ _ => rfl)
      (fun t => by rw [after8_0]; unfold Dat.blockOf iblk8; rw [A_eq8]; try rfl) t d).trans
    (by unfold Dat.fetched Dat.blockOf iblk8; rw [A_eq8]; try rfl)

theorem before8_1 (V : Valuation τ sig (Elt F)) (c : Dev nD) (t : Fin cfg8.N) (d) :
    (dat8 (Ix := Ix) (U := U) (Lvl := Lvl) V c).before 1 t d = iblk8 V c 1 t :=
  ((dat8 (Ix := Ix) (U := U) (Lvl := Lvl) V c).before_in_eq_fetched 1 rfl (fun _ => rfl) (fun _ _ _ => rfl)
      (fun t => by rw [after8_1]; unfold Dat.blockOf iblk8; rw [A_eq8]; try rfl) t d).trans
    (by unfold Dat.fetched Dat.blockOf iblk8; rw [A_eq8]; try rfl)

/-! ## What the obligation asks of each window's buffer after the body -/

/-- The inputs are never idle: their buffers are handed back at their blocks. -/
theorem leaves8_0 (V : Valuation τ sig (Elt F)) (c : Dev nD) (t : Fin cfg8.N) :
    (dat8 (Ix := Ix) (U := U) (Lvl := Lvl) V c).leaves 0 t = owns (c : Thread nD τ) (st8_0 t) fullShare (iblk8 V c 0 t) := by
  rw [← after8_0 (Ix := Ix) (U := U) (Lvl := Lvl) V c t]

theorem leaves8_1 (V : Valuation τ sig (Elt F)) (c : Dev nD) (t : Fin cfg8.N) :
    (dat8 (Ix := Ix) (U := U) (Lvl := Lvl) V c).leaves 1 t = owns (c : Thread nD τ) (st8_1 t) fullShare (iblk8 V c 1 t) := by
  rw [← after8_1 (Ix := Ix) (U := U) (Lvl := Lvl) V c t]

/-- The output is idle, and not written back, at every point but the last: its buffer is handed back as found; -/
theorem leaves8_2_idle (V : Valuation τ sig (Elt F)) (c : Dev nD) (t : Fin cfg8.N) (h : t.val ≠ 63) :
    (dat8 (Ix := Ix) (U := U) (Lvl := Lvl) V c).leaves 2 t
      = iprop(∃ d, owns (c : Thread nD τ) (st8_2 t) fullShare ((dat8 (Ix := Ix) (U := U) (Lvl := Lvl) V c).before 2 t d)) :=
  (dat8 (Ix := Ix) (U := U) (Lvl := Lvl) V c).leaves_idle 2 t ((idle8_2 t).mpr h)
    (Bool.eq_false_iff.mpr fun hf => h ((flush8_2' t).mp hf))

/-- at the last point it is handed back at the accumulated sum. -/
theorem leaves8_2_last (V : Valuation τ sig (Elt F)) (c : Dev nD) (t : Fin cfg8.N) (h : t.val = 63) :
    (dat8 (Ix := Ix) (U := U) (Lvl := Lvl) V c).leaves 2 t = owns (c : Thread nD τ) (st8_2 t) fullShare (acc8 V c t.val t.isLt) := by
  have hl : cfg8.idle 2 (grid8.coords t) = false := by
    cases hi : cfg8.idle 2 (grid8.coords t) with
    | false => rfl
    | true => exact absurd h ((idle8_2 t).mp hi)
  rw [← after8_2 (Ix := Ix) (U := U) (Lvl := Lvl) V c t]
  unfold Dat.leaves; rw [hl]

/-- One step at a point, through the point itself. -/
theorem step8_at (V : Valuation τ sig (Elt F)) (c : Dev nD) (t : Fin cfg8.N) (a : Vec F S1x1 .f32) :
    step8 V c t.val t.isLt a = k8_pay2 (iblk8 V c 0 t) (iblk8 V c 1 t) a := rfl

theorem acc8_first (V : Valuation τ sig (Elt F)) (c : Dev nD) (n : ℕ) (hn : n < cfg8.N) (hz : n = 0) :
    acc8 V c n hn = step8 V c n hn (k8_pay1 (F := F)) := by
  subst hz; rfl

/-! ## The body obligation -/

/-- What the body is called with at point `t` (the obligation's precondition, the windows one by one), -/
noncomputable def bodyPre8 (V : Valuation τ sig (Elt F)) (ι : Ix) (c : Dev nD) (t : Fin cfg8.N) : sProp 𝕄 :=
  iprop((dat8 (Ix := Ix) (U := U) (Lvl := Lvl) V c).Φ t.castSucc ∗ (dat8 (Ix := Ix) (U := U) (Lvl := Lvl) V c).owesAt ι t.castSucc
    ∗ (∃ d, owns (c : Thread nD τ) (st8_0 t) fullShare ((dat8 (Ix := Ix) (U := U) (Lvl := Lvl) V c).before 0 t d))
    ∗ (∃ d, owns (c : Thread nD τ) (st8_1 t) fullShare ((dat8 (Ix := Ix) (U := U) (Lvl := Lvl) V c).before 1 t d))
    ∗ (∃ d, owns (c : Thread nD τ) (st8_2 t) fullShare ((dat8 (Ix := Ix) (U := U) (Lvl := Lvl) V c).before 2 t d)))

/-- and what it returns. -/
noncomputable def bodyPost8 (V : Valuation τ sig (Elt F)) (ι : Ix) (c : Dev nD) (t : Fin cfg8.N) : sProp 𝕄 :=
  iprop((dat8 (Ix := Ix) (U := U) (Lvl := Lvl) V c).Φ t.succ ∗ (dat8 (Ix := Ix) (U := U) (Lvl := Lvl) V c).owesAt ι t.succ
    ∗ (dat8 (Ix := Ix) (U := U) (Lvl := Lvl) V c).leaves 0 t ∗ (dat8 (Ix := Ix) (U := U) (Lvl := Lvl) V c).leaves 1 t ∗ (dat8 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body8 (V : Valuation τ sig (Elt F)) (𝒱₀ : Variants) (ι : Ix) (c : Dev nD) (t : Fin cfg8.N) :
    bodyPre8 (U := U) (Lvl := Lvl) V ι c t
      ⊢ wp frame (wpE (defs₀ (F := F)) 𝒱₀ c none) Set.univ (bodyAt8 t) (fun _ => bodyPost8 (U := U) (Lvl := Lvl) V ι c t) := by
  unfold bodyPre8 bodyPost8 bodyAt8
  simp only [before8_0, before8_1]
  rw [show (dat8 (Ix := Ix) (U := U) (Lvl := Lvl) V c).owesAt ι t.succ = (dat8 (Ix := Ix) (U := U) (Lvl := Lvl) V c).owesAt ι t.castSucc from rfl]
  rw [Phi8_at_succ, Phi8_succ, Phi8_castSucc, leaves8_0, leaves8_1]
  have hN : t.val < 64 := lt_of_lt_of_eq t.isLt N_8
  by_cases hz : t.val = 0
  · have hc1 : cond8_1 (grid8.coords t) := (hcond8_1 t).mpr hz
    have hc2 : ¬cond8_2 (grid8.coords t) := fun h => by have := (hcond8_2 t).mp h; omega
    rw [leaves8_2_idle V c t (by omega), Phi8_zero V c _ _ hz, scopedRest8_split, acc8_first V c _ _ hz, step8_at]
    iintro ⟨⟨⟨%f, Hs⟩, Hr⟩, Ho, ⟨%d0, H0⟩, ⟨%d1, H1⟩, H2⟩
    iapply (run8_A 𝒱₀ c (grid8.coords t) _ _ _ _ _ _ _ _ hc1 hc2 (iblk8 V c 0 t) (iblk8 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond8_1 (grid8.coords t) := fun h => hz ((hcond8_1 t).mp h)
    rw [Phi8_pos V c _ _ hz, acc8_pos V c _ _ hz, step8_at]
    by_cases hl : t.val = 63
    · have hc2 : cond8_2 (grid8.coords t) := (hcond8_2 t).mpr hl
      rw [leaves8_2_last V c t hl, acc8_pos V c _ _ hz, step8_at]
      iintro ⟨⟨Hs, Hr⟩, Ho, ⟨%d0, H0⟩, ⟨%d1, H1⟩, ⟨%d2, H2⟩⟩
      iapply (run8_C 𝒱₀ c (grid8.coords t) _ _ _ _ _ _ _ _ hc1 hc2 (iblk8 V c 0 t) (iblk8 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond8_2 (grid8.coords t) := fun h => hl ((hcond8_2 t).mp h)
      rw [leaves8_2_idle V c t hl]
      iintro ⟨⟨Hs, Hr⟩, Ho, ⟨%d0, H0⟩, ⟨%d1, H1⟩, H2⟩
      iapply (run8_B 𝒱₀ c (grid8.coords t) _ _ _ _ _ _ _ _ hc1 hc2 (iblk8 V c 0 t) (iblk8 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body8 (V : Valuation τ sig (Elt F)) (𝒱₀ : Variants) (ι : Ix) :
    ∀ c : Dev nD, BodyObligationLoose (dat8 (Ix := Ix) (U := U) (Lvl := Lvl) V c) (defs₀ (F := F)) 𝒱₀ ι Set.univ := fun c t => by
  rw [bigSep_W8, bigSep_W8]
  exact sound_body8 (U := U) (Lvl := Lvl) V 𝒱₀ ι c t

end Cert.Kernel.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg8

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (8 : Fin 24)
/-- Its configuration, its windows but for their index maps, the number of its windows. -/
abbrev cfgK : Pipeline.Cfg sig Λ₀ := cfg8
abbrev specK : Fin 3 → Pipeline.WinSpec sig cfgK.grid.rank := spec8
abbrev nW : Nat := 3
/-- Its output window and the buffer behind it. -/
abbrev oK : Fin nW := 2
abbrev outK : Ref sig .tc := main_v298
theorem winK : Pipeline.WinFacts₀ specK := winFacts₀8
theorem block_posK : ∀ w : Fin nW, 0 < (specK w).block.numel := block_pos8
theorem arr_wholeK : ∀ w : Fin nW, (specK w).arr.IsWhole := arr_whole8
theorem stage_wholeK : ∀ (w : Fin nW) (s : Fin (specK w).nbuf), ((specK w).stage s).IsWhole := stage_whole8

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.Kernel.Hand.Reg8

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R8' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (8 : Fin 24) c = dat8 (V48 m outs c) c)
    (hbody : ∀ c : Dev nD, Pipeline.BodyObligationLoose (dat8 (Ix := Ix) (U := U) (Lvl := Lvl) (V48 m outs c) c) (defs₀ (F := F)) 𝒱₀ ι Set.univ) :
    RegionSeg (pcfgs (F := F)) GenP.adm pdats ι defs₀ 𝒱₀ L lv (8 : Fin 24) :=
  Reg8.RK 𝒱₀ L lv ι pdats (fun c => V48 m outs c)
    (fun c => by rw [hp c]; exact hbody c)
    (fun c w => by rw [hp c]; exact A_eq8 (V48 m outs c) c w)
    (fun c => by rw [hp c]; exact PosShare.mem_left_op_right fullShare)
    (fun c t => by rw [hp c]; rfl)
    (fun c => by rw [hp c]; rfl)
    (fun c => by rw [hp c, Phi_first8])
    (fun c => by rw [hp c]; exact Phi_last8 (V48 m outs c) c)

/-- It is entered from the thread state before the region's item, -/
theorem hpre8' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (8 : Fin 24) c = dat8 (V48 m outs c) c)
    (hbody : ∀ c : Dev nD, Pipeline.BodyObligationLoose (dat8 (Ix := Ix) (U := U) (Lvl := Lvl) (V48 m outs c) c) (defs₀ (F := F)) 𝒱₀ ι Set.univ)
    (c : Dev nD) :
    iprop(StableHlo.held (c : Thread nD τ) (Pipeline.ucRefs τ sig) (V48 m outs c) ∗ (R c : sProp 𝕄))
      ⊢ (R8' m outs 𝒱₀ L lv ι pdats hp hbody).pre c := .rfl

/-- and left at the thread state after it. -/
theorem hpost8' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (8 : Fin 24) c = dat8 (V48 m outs c) c)
    (hbody : ∀ c : Dev nD, Pipeline.BodyObligationLoose (dat8 (Ix := Ix) (U := U) (Lvl := Lvl) (V48 m outs c) c) (defs₀ (F := F)) 𝒱₀ ι Set.univ)
    (houts : ∀ c : Dev nD, outs 49 main_v298 c = (dat8 (Ix := Ix) (U := U) (Lvl := Lvl) (V48 m outs c) c).arrAt 2 64)
    (c : Dev nD) :
    (R8' m outs 𝒱₀ L lv ι pdats hp hbody).post c
      ⊢ iprop(StableHlo.held (c : Thread nD τ) (Pipeline.ucRefs τ sig) (V49 m outs c) ∗ (R c : sProp 𝕄)) := by
  have h : (pdats (8 : Fin 24) c).arrAt Reg8.oK Reg8.cfgK.N = outs 49 main_v298 c := by
    rw [hp c]; exact (houts c).symm
  show iprop(StableHlo.held (c : Thread nD τ) (Pipeline.ucRefs τ sig)
      (Function.update (V48 m outs c) (Proc.devRef .tc main_v298) ((pdats (8 : Fin 24) c).arrAt Reg8.oK Reg8.cfgK.N))
        ∗ (R c : sProp 𝕄)) ⊢ _
  rw [h]

end Cert.Kernel.Hand
-- ==== Proof.K_Rg9.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_ApplyLib
import proofs.«169706_j68856915690108_1_alg».proof.Proof.K_Shared
import proofs.«169706_j68856915690108_1_alg».proof.Proof.RegionsK

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k9_pay1 x_i` and `step t a = k9_pay2 h_i h_j threshold x_j a`, the printed payloads of the two stores.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk9 (V : Valuation τ sig (Elt F)) (c : Dev nD) (w : Fin cfg9.W) (t : Fin cfg9.N) :
    ((cfg9.win w).xblock (cfg9.grid.coords t)).Idx → Elt F (cfg9.win w).elt :=
  ((cfg9.win w).blk t).view.read (Elt F)
    (V (Proc.devRef .tc (Pipeline.arrRef spec9 w)) : Buf (Elt F) ((cfg9.win w).arr.view.loc (c.tc : Thread nD τ)))

/-- What the accumulator is reset to at a point whose second coordinate is 0: 1.0 times the block of `x` window 3
    stages there (the printed payload of the first store into the scratch buffer). -/
noncomputable def init9 (V : Valuation τ sig (Elt F)) (c : Dev nD) (n : ℕ) (hn : n < cfg9.N) : Vec F S512x256 .f32 :=
  k9_pay1 (iblk9 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step9 (V : Valuation τ sig (Elt F)) (c : Dev nD) (n : ℕ) (hn : n < cfg9.N) (a : Vec F S512x256 .f32) : Vec F S512x256 .f32 :=
  k9_pay2 (iblk9 V c 1 ⟨n, hn⟩) (iblk9 V c 2 ⟨n, hn⟩) (iblk9 V c 0 ⟨n, hn⟩) (iblk9 V c 4 ⟨n, hn⟩) a

/-- What the accumulator holds after point `n`: reset and stepped at the points ≡ 0 (mod 8), stepped from what the
    point before left at the others. -/
noncomputable def acc9 (V : Valuation τ sig (Elt F)) (c : Dev nD) : (n : ℕ) → n < cfg9.N → Vec F S512x256 .f32
  | 0, hn => step9 V c 0 hn (init9 V c 0 hn)
  | n + 1, hn =>
    if (n + 1) % 8 = 0 then step9 V c (n + 1) hn (init9 V c (n + 1) hn)
    else step9 V c (n + 1) hn (acc9 V c n (Nat.lt_of_succ_lt hn))

/-- After a point ≡ 0 (mod 8): the reset value, stepped once. -/
theorem acc9_reset (V : Valuation τ sig (Elt F)) (c : Dev nD) (n : ℕ) (hn : n < cfg9.N) (h0 : n % 8 = 0) :
    acc9 V c n hn = step9 V c n hn (init9 V c n hn) := by
  cases n with
  | zero => rfl
  | succ n => exact if_pos h0

/-- After any other point: that point's step on what the point before left. -/
theorem acc9_step (V : Valuation τ sig (Elt F)) (c : Dev nD) (n : ℕ) (hn : n < cfg9.N) (h0 : ¬n % 8 = 0) :
    acc9 V c n hn = step9 V c n hn (acc9 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi9 (V : Valuation τ sig (Elt F)) (c : Dev nD) : (n : ℕ) → n ≤ cfg9.N → sProp 𝕄
  | 0, _ => Pipeline.scopedRest (Ix := Ix) (Name := ℕ) (U := U) (Lvl := Lvl) (Val := Elt F) spec9 c
  | n + 1, hn => iprop(owns (c : Thread nD τ) (Memref.whole cc9_scratch0) fullShare (acc9 V c n hn)
      ∗ Pipeline.scopedRestBut (Ix := Ix) (Name := ℕ) (U := U) (Lvl := Lvl) (Val := Elt F) spec9 c [cc9_scratch0])

theorem Phi9_zero (V : Valuation τ sig (Elt F)) (c : Dev nD) (n : ℕ) (h : n ≤ cfg9.N) (hz : n = 0) :
    (Phi9 V c n h : sProp 𝕄) = Pipeline.scopedRest (Ix := Ix) (Name := ℕ) (U := U) (Lvl := Lvl) (Val := Elt F) spec9 c := by
  subst hz; rfl

theorem Phi9_succ (V : Valuation τ sig (Elt F)) (c : Dev nD) (n : ℕ) (hn : n < cfg9.N) :
    (Phi9 V c (n + 1) hn : sProp 𝕄) = iprop(owns (c : Thread nD τ) (Memref.whole cc9_scratch0) fullShare (acc9 V c n hn)
      ∗ Pipeline.scopedRestBut (Ix := Ix) (Name := ℕ) (U := U) (Lvl := Lvl) (Val := Elt F) spec9 c [cc9_scratch0]) := rfl

theorem Phi9_pos (V : Valuation τ sig (Elt F)) (c : Dev nD) (n : ℕ) (h : n ≤ cfg9.N) (hz : n ≠ 0) :
    (Phi9 V c n h : sProp 𝕄) = iprop(owns (c : Thread nD τ) (Memref.whole cc9_scratch0) fullShare (acc9 V c (n - 1) (by omega))
      ∗ Pipeline.scopedRestBut (Ix := Ix) (Name := ℕ) (U := U) (Lvl := Lvl) (Val := Elt F) spec9 c [cc9_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi9`; the
    threshold's array held whole, each of the two arrays that two input windows read held half and half; nothing owed. -/
noncomputable def dat9 (V : Valuation τ sig (Elt F)) (c : Dev nD) : Dat τ (Elt F) Ix ℕ U Lvl cfg9 c where
  A w := V (Proc.devRef .tc (Pipeline.arrRef spec9 w))
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => acc9 V c t.val t.isLt
  Φ t := Phi9 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq9 (V : Valuation τ sig (Elt F)) (c : Dev nD) (w : Fin cfg9.W) :
    (dat9 (Ix := Ix) (U := U) (Lvl := Lvl) V c).A w = V (Proc.devRef .tc (Pipeline.arrRef spec9 w)) := by
  dsimp only [dat9]

/-- What the body leaves, window by window. -/
theorem after9_0 (V : Valuation τ sig (Elt F)) (c : Dev nD) (t : Fin cfg9.N) :
    (dat9 (Ix := Ix) (U := U) (Lvl := Lvl) V c).after 0 t = iblk9 V c 0 t := by dsimp only [dat9]
theorem after9_1 (V : Valuation τ sig (Elt F)) (c : Dev nD) (t : Fin cfg9.N) :
    (dat9 (Ix := Ix) (U := U) (Lvl := Lvl) V c).after 1 t = iblk9 V c 1 t := by dsimp only [dat9]
theorem after9_2 (V : Valuation τ sig (Elt F)) (c : Dev nD) (t : Fin cfg9.N) :
    (dat9 (Ix := Ix) (U := U) (Lvl := Lvl) V c).after 2 t = iblk9 V c 2 t := by dsimp only [dat9]
theorem after9_3 (V : Valuation τ sig (Elt F)) (c : Dev nD) (t : Fin cfg9.N) :
    (dat9 (Ix := Ix) (U := U) (Lvl := Lvl) V c).after 3 t = iblk9 V c 3 t := by dsimp only [dat9]
theorem after9_4 (V : Valuation τ sig (Elt F)) (c : Dev nD) (t : Fin cfg9.N) :
    (dat9 (Ix := Ix) (U := U) (Lvl := Lvl) V c).after 4 t = iblk9 V c 4 t := by dsimp only [dat9]
theorem after9_5 (V : Valuation τ sig (Elt F)) (c : Dev nD) (t : Fin cfg9.N) :
    (dat9 (Ix := Ix) (U := U) (Lvl := Lvl) V c).after 5 t = acc9 V c t.val t.isLt := by dsimp only [dat9]

/-- The shares the input arrays are held at. -/
theorem q9_0 (V : Valuation τ sig (Elt F)) (c : Dev nD) : (dat9 (Ix := Ix) (U := U) (Lvl := Lvl) V c).q 0 = fullShare := by dsimp only [dat9]
theorem q9_1 (V : Valuation τ sig (Elt F)) (c : Dev nD) : (dat9 (Ix := Ix) (U := U) (Lvl := Lvl) V c).q 1 = fullShare.left := by dsimp only [dat9]
theorem q9_2 (V : Valuation τ sig (Elt F)) (c : Dev nD) : (dat9 (Ix := Ix) (U := U) (Lvl := Lvl) V c).q 2 = fullShare.right := by dsimp only [dat9]
theorem q9_3 (V : Valuation τ sig (Elt F)) (c : Dev nD) : (dat9 (Ix := Ix) (U := U) (Lvl := Lvl) V c).q 3 = fullShare.left := by dsimp only [dat9]
theorem q9_4 (V : Valuation τ sig (Elt F)) (c : Dev nD) : (dat9 (Ix := Ix) (U := U) (Lvl := Lvl) V c).q 4 = fullShare.right := by dsimp only [dat9]

/-- The invariant at a point's start, and at its end. -/
theorem Phi9_castSucc (V : Valuation τ sig (Elt F)) (c : Dev nD) (t : Fin cfg9.N) :
    (dat9 (Ix := Ix) (U := U) (Lvl := Lvl) V c).Φ t.castSucc = Phi9 V c t.val (Nat.le_of_lt t.isLt) := by
  dsimp only [dat9]; simp only [Fin.coe_castSucc]

theorem Phi9_at_succ (V : Valuation τ sig (Elt F)) (c : Dev nD) (t : Fin cfg9.N) :
    (dat9 (Ix := Ix) (U := U) (Lvl := Lvl) V c).Φ t.succ = Phi9 V c (t.val + 1) t.isLt := rfl

/-- Before the first point the invariant is the launch's scoped rest. -/
theorem Phi_first9 (V : Valuation τ sig (Elt F)) (c : Dev nD) :
    (dat9 (Ix := Ix) (U := U) (Lvl := Lvl) V c).Φ 0
      = Pipeline.scopedRest (Ix := Ix) (Name := ℕ) (U := U) (Lvl := Lvl) (Val := Elt F) spec9 c := rfl

/-- After the last point the invariant gives the scoped rest back: the accumulator's contents are forgotten. -/
theorem Phi_last9 (V : Valuation τ sig (Elt F)) (c : Dev nD) :
    (dat9 (Ix := Ix) (U := U) (Lvl := Lvl) V c).Φ (Fin.last cfg9.N)
      ⊢ Pipeline.scopedRest (Ix := Ix) (Name := ℕ) (U := U) (Lvl := Lvl) (Val := Elt F) spec9 c := by
  have hN : cfg9.N = 64 := N_9
  rw [show (dat9 (Ix := Ix) (U := U) (Lvl := Lvl) V c).Φ (Fin.last cfg9.N) = Phi9 V c (Fin.last cfg9.N).val (Nat.le_of_lt_succ (Fin.last cfg9.N).isLt) from rfl,
    Phi9_pos V c _ _ (by rw [Fin.val_last]; omega), scopedRest9_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 9) c := dat9 V c

end Cert.Kernel.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k9_pay2 hI hJ mn xJ s` — `s` plus the 0/1 mask of (hI · hJᵀ > mn) times `xJ` — and the value
  the accumulator is reset to is `k9_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond9_0 (i : grid9.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond9_1 (i : grid9.Coords) : Prop := k9_cond2 i = 1#1

/-! ## The three runs -/

/-- At a point whose second coordinate is 0 (and not 7): the accumulator, at anything, is reset to `k9_pay1 xI` and
    stepped once; every window's buffer is handed back as found. -/
theorem run9_first (𝒱₀ : Variants) (c : Dev nD) (i : grid9.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond9_0 i) (hc1 : ¬cond9_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k9_pay2 hI hJ mn xJ (k9_pay1 xI))) -∗ K ⟨⟩))
      ⊢ wp frame (wpE (defs₀ (F := F)) 𝒱₀ c none) E (cc9__apply_kernel i arg2 harg2 arg3 harg3 arg4 harg4 arg5 harg5 arg6 harg6 arg7 harg7 arg8 harg8) K := by
  simp only [cc9__apply_kernel_eq_skeleton]; unfold cc9__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run9_mid (𝒱₀ : Variants) (c : Dev nD) (i : grid9.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond9_0 i) (hc1 : ¬cond9_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k9_pay2 hI hJ mn xJ s)) -∗ K ⟨⟩))
      ⊢ wp frame (wpE (defs₀ (F := F)) 𝒱₀ c none) E (cc9__apply_kernel i arg2 harg2 arg3 harg3 arg4 harg4 arg5 harg5 arg6 harg6 arg7 harg7 arg8 harg8) K := by
  simp only [cc9__apply_kernel_eq_skeleton]; unfold cc9__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run9_last (𝒱₀ : Variants) (c : Dev nD) (i : grid9.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond9_0 i) (hc1 : cond9_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k9_pay2 hI hJ mn xJ s)
        ∗ owns (c : Thread nD τ) arg8 fullShare (k9_pay2 hI hJ mn xJ s)) -∗ K ⟨⟩))
      ⊢ wp frame (wpE (defs₀ (F := F)) 𝒱₀ c none) E (cc9__apply_kernel i arg2 harg2 arg3 harg3 arg4 harg4 arg5 harg5 arg6 harg6 arg7 harg7 arg8 harg8) K := by
  simp only [cc9__apply_kernel_eq_skeleton]; unfold cc9__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.Kernel.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc9`. The three control cases are
  decided over the grid by the point's residue mod 8, and in each the kernel's run (ApplyRun.lean) applies.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond9_0 : ∀ t : Fin cfg9.N, cond9_0 (grid9.coords t) ↔ t.val % 8 = 0 :=
  (by decide +kernel : ∀ t : Fin grid9.N, cond9_0 (grid9.coords t) ↔ t.val % 8 = 0)
/-- It is stored into the output block at the points ≡ 7 (mod 8). -/
theorem hcond9_1 : ∀ t : Fin cfg9.N, cond9_1 (grid9.coords t) ↔ t.val % 8 = 7 :=
  (by decide +kernel : ∀ t : Fin grid9.N, cond9_1 (grid9.coords t) ↔ t.val % 8 = 7)
/-- The output window is idle at every other point, -/
theorem idleAt9_5 : ∀ t : Fin cfg9.N, ¬t.val % 8 = 7 → cfg9.idle 5 (grid9.coords t) = true :=
  (by decide +kernel : ∀ t : Fin grid9.N, ¬t.val % 8 = 7 → cfg9.idle 5 (grid9.coords t) = true)
/-- live at those, -/
theorem liveAt9_5 : ∀ t : Fin cfg9.N, t.val % 8 = 7 → cfg9.idle 5 (grid9.coords t) = false :=
  (by decide +kernel : ∀ t : Fin grid9.N, t.val % 8 = 7 → cfg9.idle 5 (grid9.coords t) = false)
/-- and not written back where it is idle. -/
theorem noFlush9_5 (t : Fin cfg9.N) (h : ¬t.val % 8 = 7) : (cfg9.win 5).flush t = false := by
  cases hf : (cfg9.win 5).flush t with
  | false => rfl
  | true => exact absurd ((flush9_5 t).mp hf) h

/-! ## What the body finds in the inputs' buffers and leaves in every buffer -/

/-- Each input's current staging buffer holds its block at every point, fetched there or not. -/
theorem before9_0 (V : Valuation τ sig (Elt F)) (c : Dev nD) (t : Fin cfg9.N) (d) : (dat9 (Ix := Ix) (U := U) (Lvl := Lvl) V c).before 0 t d = iblk9 V c 0 t :=
  ((dat9 (Ix := Ix) (U := U) (Lvl := Lvl) V c).before_in_eq_fetched 0 rfl (fun _ => rfl) (fun _ _ _ => rfl)
      (fun t => by rw [after9_0]; unfold Dat.blockOf iblk9; rw [A_eq9]; try rfl) t d).trans
    (by unfold Dat.fetched Dat.blockOf iblk9; rw [A_eq9]; try rfl)
theorem before9_1 (V : Valuation τ sig (Elt F)) (c : Dev nD) (t : Fin cfg9.N) (d) : (dat9 (Ix := Ix) (U := U) (Lvl := Lvl) V c).before 1 t d = iblk9 V c 1 t :=
  ((dat9 (Ix := Ix) (U := U) (Lvl := Lvl) V c).before_in_eq_fetched 1 rfl (fun _ => rfl) (fun _ _ _ => rfl)
      (fun t => by rw [after9_1]; unfold Dat.blockOf iblk9; rw [A_eq9]; try rfl) t d).trans
    (by unfold Dat.fetched Dat.blockOf iblk9; rw [A_eq9]; try rfl)
theorem before9_2 (V : Valuation τ sig (Elt F)) (c : Dev nD) (t : Fin cfg9.N) (d) : (dat9 (Ix := Ix) (U := U) (Lvl := Lvl) V c).before 2 t d = iblk9 V c 2 t :=
  ((dat9 (Ix := Ix) (U := U) (Lvl := Lvl) V c).before_in_eq_fetched 2 rfl (fun _ => rfl) (fun _ _ _ => rfl)
      (fun t => by rw [after9_2]; unfold Dat.blockOf iblk9; rw [A_eq9]; try rfl) t d).trans
    (by unfold Dat.fetched Dat.blockOf iblk9; rw [A_eq9]; try rfl)
theorem before9_3 (V : Valuation τ sig (Elt F)) (c : Dev nD) (t : Fin cfg9.N) (d) : (dat9 (Ix := Ix) (U := U) (Lvl := Lvl) V c).before 3 t d = iblk9 V c 3 t :=
  ((dat9 (Ix := Ix) (U := U) (Lvl := Lvl) V c).before_in_eq_fetched 3 rfl (fun _ => rfl) (fun _ _ _ => rfl)
      (fun t => by rw [after9_3]; unfold Dat.blockOf iblk9; rw [A_eq9]; try rfl) t d).trans
    (by unfold Dat.fetched Dat.blockOf iblk9; rw [A_eq9]; try rfl)
theorem before9_4 (V : Valuation τ sig (Elt F)) (c : Dev nD) (t : Fin cfg9.N) (d) : (dat9 (Ix := Ix) (U := U) (Lvl := Lvl) V c).before 4 t d = iblk9 V c 4 t :=
  ((dat9 (Ix := Ix) (U := U) (Lvl := Lvl) V c).before_in_eq_fetched 4 rfl (fun _ => rfl) (fun _ _ _ => rfl)
      (fun t => by rw [after9_4]; unfold Dat.blockOf iblk9; rw [A_eq9]; try rfl) t d).trans
    (by unfold Dat.fetched Dat.blockOf iblk9; rw [A_eq9]; try rfl)

/-! ## The body obligation, at a generic point -/

/-- What the body is called with at point `t` (the obligation's precondition, the windows one by one), -/
noncomputable def bodyPre9 (V : Valuation τ sig (Elt F)) (c : Dev nD) (ι : Ix) (t : Fin cfg9.N) : sProp 𝕄 :=
  iprop((dat9 (Ix := Ix) (U := U) (Lvl := Lvl) V c).Φ t.castSucc ∗ (dat9 (Ix := Ix) (U := U) (Lvl := Lvl) V c).owesAt ι t.castSucc
    ∗ (∃ d, owns (c : Thread nD τ) (st9_0 t) fullShare ((dat9 (Ix := Ix) (U := U) (Lvl := Lvl) V c).before 0 t d))
    ∗ (∃ d, owns (c : Thread nD τ) (st9_1 t) fullShare ((dat9 (Ix := Ix) (U := U) (Lvl := Lvl) V c).before 1 t d))
    ∗ (∃ d, owns (c : Thread nD τ) (st9_2 t) fullShare ((dat9 (Ix := Ix) (U := U) (Lvl := Lvl) V c).before 2 t d))
    ∗ (∃ d, owns (c : Thread nD τ) (st9_3 t) fullShare ((dat9 (Ix := Ix) (U := U) (Lvl := Lvl) V c).before 3 t d))
    ∗ (∃ d, owns (c : Thread nD τ) (st9_4 t) fullShare ((dat9 (Ix := Ix) (U := U) (Lvl := Lvl) V c).before 4 t d))
    ∗ (∃ d, owns (c : Thread nD τ) (st9_5 t) fullShare ((dat9 (Ix := Ix) (U := U) (Lvl := Lvl) V c).before 5 t d)))

/-- and what it returns. -/
noncomputable def bodyPost9 (V : Valuation τ sig (Elt F)) (c : Dev nD) (ι : Ix) (t : Fin cfg9.N) : sProp 𝕄 :=
  iprop((dat9 (Ix := Ix) (U := U) (Lvl := Lvl) V c).Φ t.succ ∗ (dat9 (Ix := Ix) (U := U) (Lvl := Lvl) V c).owesAt ι t.succ
    ∗ (dat9 (Ix := Ix) (U := U) (Lvl := Lvl) V c).leaves 0 t ∗ (dat9 (Ix := Ix) (U := U) (Lvl := Lvl) V c).leaves 1 t ∗ (dat9 (Ix := Ix) (U := U) (Lvl := Lvl) V c).leaves 2 t
    ∗ (dat9 (Ix := Ix) (U := U) (Lvl := Lvl) V c).leaves 3 t ∗ (dat9 (Ix := Ix) (U := U) (Lvl := Lvl) V c).leaves 4 t ∗ (dat9 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body9 (𝒱₀ : Variants) (ι : Ix) (V : Valuation τ sig (Elt F)) (c : Dev nD) (t : Fin cfg9.N) :
    bodyPre9 (Ix := Ix) (U := U) (Lvl := Lvl) V c ι t ⊢ wp frame (wpE (defs₀ (F := F)) 𝒱₀ c none) Set.univ (bodyAt9 t) (fun _ => bodyPost9 (Ix := Ix) (U := U) (Lvl := Lvl) V c ι t) := by
  unfold bodyPre9 bodyPost9 bodyAt9
  simp only [before9_0, before9_1, before9_2, before9_3, before9_4]
  rw [show (dat9 (Ix := Ix) (U := U) (Lvl := Lvl) V c).owesAt ι t.succ = (dat9 (Ix := Ix) (U := U) (Lvl := Lvl) V c).owesAt ι t.castSucc from rfl]
  rw [Phi9_at_succ, Phi9_succ, Phi9_castSucc]
  rw [leaves_live (dat9 (Ix := Ix) (U := U) (Lvl := Lvl) V c) 0 t rfl rfl, leaves_live (dat9 (Ix := Ix) (U := U) (Lvl := Lvl) V c) 1 t rfl rfl, leaves_live (dat9 (Ix := Ix) (U := U) (Lvl := Lvl) V c) 2 t rfl rfl,
    leaves_live (dat9 (Ix := Ix) (U := U) (Lvl := Lvl) V c) 3 t rfl rfl, leaves_live (dat9 (Ix := Ix) (U := U) (Lvl := Lvl) V c) 4 t rfl rfl, after9_0, after9_1, after9_2, after9_3, after9_4]
  have hN : t.val < 64 := lt_of_lt_of_eq t.isLt (show cfg9.N = 64 from N_9)
  by_cases h0 : t.val % 8 = 0
  · have h7 : ¬t.val % 8 = 7 := by omega
    rw [Dat.leaves_idle (dat9 (Ix := Ix) (U := U) (Lvl := Lvl) V c) 5 t (idleAt9_5 t h7) (noFlush9_5 t h7)]
    rw [acc9_reset V c t.val t.isLt h0]
    unfold step9 init9
    by_cases hz : t.val = 0
    · rw [Phi9_zero V c _ _ hz, scopedRest9_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run9_first 𝒱₀ c (grid9.coords t) _ _ _ _ _ _ _ _ _ _ _ _ _ _ ((hcond9_0 t).mpr h0) (fun h => h7 ((hcond9_1 t).mp h)) (iblk9 V c 0 t) (iblk9 V c 1 t) (iblk9 V c 2 t) (iblk9 V c 3 t) (iblk9 V c 4 t) ((dat9 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi9_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run9_first 𝒱₀ c (grid9.coords t) _ _ _ _ _ _ _ _ _ _ _ _ _ _ ((hcond9_0 t).mpr h0) (fun h => h7 ((hcond9_1 t).mp h)) (iblk9 V c 0 t) (iblk9 V c 1 t) (iblk9 V c 2 t) (iblk9 V c 3 t) (iblk9 V c 4 t) ((dat9 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc9_step V c t.val t.isLt h0, Phi9_pos V c _ _ hz]
    unfold step9
    by_cases h7 : t.val % 8 = 7
    · rw [leaves_live (dat9 (Ix := Ix) (U := U) (Lvl := Lvl) V c) 5 t (liveAt9_5 t h7) rfl, after9_5, acc9_step V c t.val t.isLt h0]
      unfold step9
      iintro ⟨⟨HS, Hr⟩, Ho, ⟨%d0, H0⟩, ⟨%d1, H1⟩, ⟨%d2, H2⟩, ⟨%d3, H3⟩, ⟨%d4, H4⟩, ⟨%d5, H5⟩⟩
      iapply (run9_last 𝒱₀ c (grid9.coords t) _ _ _ _ _ _ _ _ _ _ _ _ _ _ (fun h => h0 ((hcond9_0 t).mp h)) ((hcond9_1 t).mpr h7) (iblk9 V c 0 t) (iblk9 V c 1 t) (iblk9 V c 2 t) (iblk9 V c 3 t) (iblk9 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat9 (Ix := Ix) (U := U) (Lvl := Lvl) V c) 5 t (idleAt9_5 t h7) (noFlush9_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run9_mid 𝒱₀ c (grid9.coords t) _ _ _ _ _ _ _ _ _ _ _ _ _ _ (fun h => h0 ((hcond9_0 t).mp h)) (fun h => h7 ((hcond9_1 t).mp h)) (iblk9 V c 0 t) (iblk9 V c 1 t) (iblk9 V c 2 t) (iblk9 V c 3 t) (iblk9 V c 4 t) ((dat9 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation9 (𝒱₀ : Variants) (ι : Ix) (V : Valuation τ sig (Elt F)) (c : Dev nD) :
    BodyObligationLoose (dat9 (Ix := Ix) (U := U) (Lvl := Lvl) V c) (defs₀ (F := F)) 𝒱₀ ι Set.univ := fun t => by
  rw [bigSep_W9, bigSep_W9]
  exact sound_body9 𝒱₀ ι V c t

/-- The same at the type the program's family of configurations gives pipeline 1, on every core. -/
theorem body9 (𝒱₀ : Variants) (ι : Ix) (V : Valuation τ sig (Elt F)) :
    ∀ c : Dev nD, BodyObligationLoose (cfg := cfgs 9) (dat9 (Ix := Ix) (U := U) (Lvl := Lvl) V c) (defs₀ (F := F)) 𝒱₀ ι Set.univ :=
  fun c => body_obligation9 𝒱₀ ι V c

end Cert.Kernel.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg9

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (9 : Fin 24)
/-- Its configuration, its windows but for their index maps, the number of its windows. -/
abbrev cfgK : Pipeline.Cfg sig Λ₀ := cfg9
abbrev specK : Fin 6 → Pipeline.WinSpec sig cfgK.grid.rank := spec9
abbrev nW : Nat := 6
/-- Its output window and the buffer behind it. -/
abbrev oK : Fin nW := 5
abbrev outK : Ref sig .tc := main_v301
theorem winK : Pipeline.WinFacts₀ specK := winFacts₀9
theorem block_posK : ∀ w : Fin nW, 0 < (specK w).block.numel := block_pos9
theorem arr_wholeK : ∀ w : Fin nW, (specK w).arr.IsWhole := arr_whole9
theorem stage_wholeK : ∀ (w : Fin nW) (s : Fin (specK w).nbuf), ((specK w).stage s).IsWhole := stage_whole9

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.Kernel.Hand.Reg9

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R9' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (9 : Fin 24) c = dat9 (V50 m outs c) c)
    (hbody : ∀ c : Dev nD, Pipeline.BodyObligationLoose (dat9 (Ix := Ix) (U := U) (Lvl := Lvl) (V50 m outs c) c) (defs₀ (F := F)) 𝒱₀ ι Set.univ) :
    RegionSeg (pcfgs (F := F)) GenP.adm pdats ι defs₀ 𝒱₀ L lv (9 : Fin 24) :=
  Reg9.RK 𝒱₀ L lv ι pdats (fun c => V50 m outs c)
    (fun c => by rw [hp c]; exact hbody c)
    (fun c w => by rw [hp c]; exact A_eq9 (V50 m outs c) c w)
    (fun c => by rw [hp c]; rw [q9_1, q9_2]; exact PosShare.mem_left_op_right fullShare)
    (fun c => by rw [hp c]; rw [q9_3, q9_4]; exact PosShare.mem_left_op_right fullShare)
    (fun c => by rw [hp c]; exact q9_0 (V50 m outs c) c)
    (fun c t => by rw [hp c]; rfl)
    (fun c => by rw [hp c]; rfl)
    (fun c => by rw [hp c, Phi_first9])
    (fun c => by rw [hp c]; exact Phi_last9 (V50 m outs c) c)

/-- It is entered from the thread state before the region's item, -/
theorem hpre9' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (9 : Fin 24) c = dat9 (V50 m outs c) c)
    (hbody : ∀ c : Dev nD, Pipeline.BodyObligationLoose (dat9 (Ix := Ix) (U := U) (Lvl := Lvl) (V50 m outs c) c) (defs₀ (F := F)) 𝒱₀ ι Set.univ)
    (c : Dev nD) :
    iprop(StableHlo.held (c : Thread nD τ) (Pipeline.ucRefs τ sig) (V50 m outs c) ∗ (R c : sProp 𝕄))
      ⊢ (R9' m outs 𝒱₀ L lv ι pdats hp hbody).pre c := .rfl

/-- and left at the thread state after it. -/
theorem hpost9' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (9 : Fin 24) c = dat9 (V50 m outs c) c)
    (hbody : ∀ c : Dev nD, Pipeline.BodyObligationLoose (dat9 (Ix := Ix) (U := U) (Lvl := Lvl) (V50 m outs c) c) (defs₀ (F := F)) 𝒱₀ ι Set.univ)
    (houts : ∀ c : Dev nD, outs 51 main_v301 c = (dat9 (Ix := Ix) (U := U) (Lvl := Lvl) (V50 m outs c) c).arrAt 5 64)
    (c : Dev nD) :
    (R9' m outs 𝒱₀ L lv ι pdats hp hbody).post c
      ⊢ iprop(StableHlo.held (c : Thread nD τ) (Pipeline.ucRefs τ sig) (V51 m outs c) ∗ (R c : sProp 𝕄)) := by
  have h : (pdats (9 : Fin 24) c).arrAt Reg9.oK Reg9.cfgK.N = outs 51 main_v301 c := by
    rw [hp c]; exact (houts c).symm
  show iprop(StableHlo.held (c : Thread nD τ) (Pipeline.ucRefs τ sig)
      (Function.update (V50 m outs c) (Proc.devRef .tc main_v301) ((pdats (9 : Fin 24) c).arrAt Reg9.oK Reg9.cfgK.N))
        ∗ (R c : sProp 𝕄)) ⊢ _
  rw [h]

end Cert.Kernel.Hand
-- ==== Proof.K_Rg10.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_SumLib
import Idealize.ShloMosaic.Lib.Tactic
import proofs.«169706_j68856915690108_1_alg».proof.Proof.K_Shared
import proofs.«169706_j68856915690108_1_alg».proof.Proof.RegionsK

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k10_pay2)

  and only at the last point, 63, is that cell copied into the 1 × 1 output block, which the pipeline then writes back.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk10 (V : Valuation τ sig (Elt F)) (c : Dev nD) (w : Fin cfg10.W) (t : Fin cfg10.N) :
    ((cfg10.win w).xblock (cfg10.grid.coords t)).Idx → Elt F (cfg10.win w).elt :=
  ((cfg10.win w).blk t).view.read (Elt F)
    (V (Proc.devRef .tc (Pipeline.arrRef spec10 w)) : Buf (Elt F) ((cfg10.win w).arr.view.loc (c.tc : Thread nD τ)))

/-- One point's step on the scratch cell: the cell's contents `a` plus the sum of the tile made of the two blocks
    the point stages (the printed payload of the store into the scratch cell). -/
noncomputable def step10 (V : Valuation τ sig (Elt F)) (c : Dev nD) (n : ℕ) (hn : n < cfg10.N) (a : Vec F S1x1 .f32) : Vec F S1x1 .f32 :=
  k10_pay2 (iblk10 V c 0 ⟨n, hn⟩) (iblk10 V c 1 ⟨n, hn⟩) a

/-- What the scratch cell holds after point `n`: the steps of the points `0 … n` applied, first to last, to the
    zero the body stores at point 0. -/
noncomputable def acc10 (V : Valuation τ sig (Elt F)) (c : Dev nD) : (n : ℕ) → n < cfg10.N → Vec F S1x1 .f32
  | 0, hn => step10 V c 0 hn (k10_pay1 (F := F))
  | n + 1, hn => step10 V c (n + 1) hn (acc10 V c n (Nat.lt_of_succ_lt hn))

theorem acc10_zero (V : Valuation τ sig (Elt F)) (c : Dev nD) (hn : 0 < cfg10.N) :
    acc10 V c 0 hn = step10 V c 0 hn (k10_pay1 (F := F)) := rfl

theorem acc10_succ (V : Valuation τ sig (Elt F)) (c : Dev nD) (n : ℕ) (hn : n + 1 < cfg10.N) :
    acc10 V c (n + 1) hn = step10 V c (n + 1) hn (acc10 V c n (Nat.lt_of_succ_lt hn)) := rfl

/-- After a point that is not the first: the step of that point on what the point before left. -/
theorem acc10_pos (V : Valuation τ sig (Elt F)) (c : Dev nD) (n : ℕ) (hn : n < cfg10.N) (hz : n ≠ 0) :
    acc10 V c n hn = step10 V c n hn (acc10 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi10 (V : Valuation τ sig (Elt F)) (c : Dev nD) : (n : ℕ) → n ≤ cfg10.N → sProp 𝕄
  | 0, _ => Pipeline.scopedRest (Ix := Ix) (Name := ℕ) (U := U) (Lvl := Lvl) (Val := Elt F) spec10 c
  | n + 1, hn => iprop(owns (c : Thread nD τ) (Memref.whole cc10_scratch0) fullShare (acc10 V c n hn)
      ∗ Pipeline.scopedRestBut (Ix := Ix) (Name := ℕ) (U := U) (Lvl := Lvl) (Val := Elt F) spec10 c [cc10_scratch0])

theorem Phi10_zero (V : Valuation τ sig (Elt F)) (c : Dev nD) (n : ℕ) (h : n ≤ cfg10.N) (hz : n = 0) :
    (Phi10 V c n h : sProp 𝕄) = Pipeline.scopedRest (Ix := Ix) (Name := ℕ) (U := U) (Lvl := Lvl) (Val := Elt F) spec10 c := by
  subst hz; rfl

theorem Phi10_succ (V : Valuation τ sig (Elt F)) (c : Dev nD) (n : ℕ) (hn : n < cfg10.N) :
    (Phi10 V c (n + 1) hn : sProp 𝕄) = iprop(owns (c : Thread nD τ) (Memref.whole cc10_scratch0) fullShare (acc10 V c n hn)
      ∗ Pipeline.scopedRestBut (Ix := Ix) (Name := ℕ) (U := U) (Lvl := Lvl) (Val := Elt F) spec10 c [cc10_scratch0]) := rfl

theorem Phi10_pos (V : Valuation τ sig (Elt F)) (c : Dev nD) (n : ℕ) (h : n ≤ cfg10.N) (hz : n ≠ 0) :
    (Phi10 V c n h : sProp 𝕄) = iprop(owns (c : Thread nD τ) (Memref.whole cc10_scratch0) fullShare (acc10 V c (n - 1) (by omega))
      ∗ Pipeline.scopedRestBut (Ix := Ix) (Name := ℕ) (U := U) (Lvl := Lvl) (Val := Elt F) spec10 c [cc10_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi10`; the one
    array the two inputs read held half and half; nothing owed. -/
noncomputable def dat10 (V : Valuation τ sig (Elt F)) (c : Dev nD) : Dat τ (Elt F) Ix ℕ U Lvl cfg10 c where
  A w := V (Proc.devRef .tc (Pipeline.arrRef spec10 w))
  after w t := match w with
    | ⟨0, _⟩ => iblk10 V c 0 t
    | ⟨1, _⟩ => iblk10 V c 1 t
    | ⟨2, _⟩ => acc10 V c t.val t.isLt
  Φ t := Phi10 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq10 (V : Valuation τ sig (Elt F)) (c : Dev nD) (w : Fin cfg10.W) :
    (dat10 (Ix := Ix) (U := U) (Lvl := Lvl) V c).A w = V (Proc.devRef .tc (Pipeline.arrRef spec10 w)) := by
  dsimp only [dat10]

/-- What the body leaves, window by window. -/
theorem after10_0 (V : Valuation τ sig (Elt F)) (c : Dev nD) (t : Fin cfg10.N) :
    (dat10 (Ix := Ix) (U := U) (Lvl := Lvl) V c).after 0 t = iblk10 V c 0 t := by dsimp only [dat10]
theorem after10_1 (V : Valuation τ sig (Elt F)) (c : Dev nD) (t : Fin cfg10.N) :
    (dat10 (Ix := Ix) (U := U) (Lvl := Lvl) V c).after 1 t = iblk10 V c 1 t := by dsimp only [dat10]
theorem after10_2 (V : Valuation τ sig (Elt F)) (c : Dev nD) (t : Fin cfg10.N) :
    (dat10 (Ix := Ix) (U := U) (Lvl := Lvl) V c).after 2 t = acc10 V c t.val t.isLt := by dsimp only [dat10]

/-- The invariant at a point's start, and at its end. -/
theorem Phi10_castSucc (V : Valuation τ sig (Elt F)) (c : Dev nD) (t : Fin cfg10.N) :
    (dat10 (Ix := Ix) (U := U) (Lvl := Lvl) V c).Φ t.castSucc = Phi10 V c t.val (Nat.le_of_lt t.isLt) := by
  dsimp only [dat10]; simp only [Fin.coe_castSucc]

theorem Phi10_at_succ (V : Valuation τ sig (Elt F)) (c : Dev nD) (t : Fin cfg10.N) :
    (dat10 (Ix := Ix) (U := U) (Lvl := Lvl) V c).Φ t.succ = Phi10 V c (t.val + 1) t.isLt := rfl

/-- Before the first point the invariant is the launch's scoped rest. -/
theorem Phi_first10 (V : Valuation τ sig (Elt F)) (c : Dev nD) :
    (dat10 (Ix := Ix) (U := U) (Lvl := Lvl) V c).Φ 0
      = Pipeline.scopedRest (Ix := Ix) (Name := ℕ) (U := U) (Lvl := Lvl) (Val := Elt F) spec10 c := rfl

/-- After the last point the invariant gives the scoped rest back: the scratch cell's contents are forgotten. -/
theorem Phi_last10 (V : Valuation τ sig (Elt F)) (c : Dev nD) :
    (dat10 (Ix := Ix) (U := U) (Lvl := Lvl) V c).Φ (Fin.last cfg10.N)
      ⊢ Pipeline.scopedRest (Ix := Ix) (Name := ℕ) (U := U) (Lvl := Lvl) (Val := Elt F) spec10 c := by
  have hN : cfg10.N = 64 := N_10
  rw [show (dat10 (Ix := Ix) (U := U) (Lvl := Lvl) V c).Φ (Fin.last cfg10.N) = Phi10 V c (Fin.last cfg10.N).val (Nat.le_of_lt_succ (Fin.last cfg10.N).isLt) from rfl,
    Phi10_pos V c _ _ (by rw [Fin.val_last]; omega), scopedRest10_split, owns_whole]
  iintro ⟨Hs, Hr⟩
  isplitl [Hs]
  · iexists _; iexact Hs
  iexact Hr

example (V : Valuation τ sig (Elt F)) (c : Dev nD) : Dat τ (Elt F) Ix ℕ U Lvl (cfgs 10) c := dat10 V c

end Cert.Kernel.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k10_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond10_1 (i : grid10.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond10_2 (i : grid10.Coords) : Prop := k10_cond2 i = 1#1

/-- The reset runs at the first point only, -/
theorem hcond10_1 : ∀ t : Fin cfg10.N, cond10_1 (grid10.coords t) ↔ t.val = 0 :=
  (by decide +kernel : ∀ t : Fin grid10.N, cond10_1 (grid10.coords t) ↔ t.val = 0)
/-- the copy at the last point only. -/
theorem hcond10_2 : ∀ t : Fin cfg10.N, cond10_2 (grid10.coords t) ↔ t.val = 63 :=
  (by decide +kernel : ∀ t : Fin grid10.N, cond10_2 (grid10.coords t) ↔ t.val = 63)

/-! ## The body, case by case, on any whole memrefs -/

/-- The first point: the scratch cell, at anything, is reset and then holds the first step on zero. -/
theorem run10_A (𝒱₀ : Variants) (c : Dev nD) (i : grid10.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond10_1 i) (hc2 : ¬cond10_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k10_pay2 x2 x3 (k10_pay1 (F := F)))) -∗ K ⟨⟩))
      ⊢ wp frame (wpE (defs₀ (F := F)) 𝒱₀ c none) E (cc10__sum_kernel i arg2 harg2 arg3 harg3 arg4 harg4 arg5 harg5) K := by
  simp only [cc10__sum_kernel_eq_skeleton]; unfold cc10__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run10_A.sl.v15 run10_A.sl.H5_1
  rw [readCov_whole _ zeros2, readAt_whole _ _ zeros2, readAt_whole _ _ zeros2]

/-- A point strictly between the first and the last: the scratch cell at `a` takes the point's step. -/
theorem run10_B (𝒱₀ : Variants) (c : Dev nD) (i : grid10.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond10_1 i) (hc2 : ¬cond10_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k10_pay2 x2 x3 a)) -∗ K ⟨⟩))
      ⊢ wp frame (wpE (defs₀ (F := F)) 𝒱₀ c none) E (cc10__sum_kernel i arg2 harg2 arg3 harg3 arg4 harg4 arg5 harg5) K := by
  simp only [cc10__sum_kernel_eq_skeleton]; unfold cc10__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run10_C (𝒱₀ : Variants) (c : Dev nD) (i : grid10.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond10_1 i) (hc2 : cond10_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k10_pay2 x2 x3 a) ∗ owns (c : Thread nD τ) arg5 fullShare (k10_pay2 x2 x3 a)) -∗ K ⟨⟩))
      ⊢ wp frame (wpE (defs₀ (F := F)) 𝒱₀ c none) E (cc10__sum_kernel i arg2 harg2 arg3 harg3 arg4 harg4 arg5 harg5) K := by
  simp only [cc10__sum_kernel_eq_skeleton]; unfold cc10__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run10_C.sl.v25 run10_C.sl.H5_1
    rw [readCov_whole _ zeros2, readAt_whole _ _ zeros2, readAt_whole _ _ zeros2, readAt_whole _ _ zeros2]
  iexists _; isplitr
  swap; · iexact H5
  ipureintro
  unfold run10_C.sl.H5_1
  rw [read_writes_whole _ _ zeros2, readAt_whole _ _ zeros2, readAt_whole _ _ zeros2, readAt_whole _ _ zeros2]

end Cert.Kernel.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle10_2 : ∀ t : Fin cfg10.N, cfg10.idle 2 (grid10.coords t) = true ↔ t.val ≠ 63 :=
  (by decide +kernel : ∀ t : Fin grid10.N, idle10 2 (grid10.coords t) = true ↔ t.val ≠ 63)
/-- and written back at the last point only. -/
theorem flush10_2' : ∀ t : Fin cfg10.N, (cfg10.win 2).flush t = true ↔ t.val = 63 :=
  (by decide +kernel : ∀ t : Fin grid10.N, win10_2.flush t = true ↔ t.val = 63)

/-! ## What the body finds in the inputs' buffers -/

/-- Each input's current staging buffer holds its block at every point, fetched there or not: unfetched, the block
    index has not moved and the body left the block in place. -/
theorem before10_0 (V : Valuation τ sig (Elt F)) (c : Dev nD) (t : Fin cfg10.N) (d) :
    (dat10 (Ix := Ix) (U := U) (Lvl := Lvl) V c).before 0 t d = iblk10 V c 0 t :=
  ((dat10 (Ix := Ix) (U := U) (Lvl := Lvl) V c).before_in_eq_fetched 0 rfl (fun _ => rfl) (fun _ _ _ => rfl)
      (fun t => by rw [after10_0]; unfold Dat.blockOf iblk10; rw [A_eq10]; try rfl) t d).trans
    (by unfold Dat.fetched Dat.blockOf iblk10; rw [A_eq10]; try rfl)

theorem before10_1 (V : Valuation τ sig (Elt F)) (c : Dev nD) (t : Fin cfg10.N) (d) :
    (dat10 (Ix := Ix) (U := U) (Lvl := Lvl) V c).before 1 t d = iblk10 V c 1 t :=
  ((dat10 (Ix := Ix) (U := U) (Lvl := Lvl) V c).before_in_eq_fetched 1 rfl (fun _ => rfl) (fun _ _ _ => rfl)
      (fun t => by rw [after10_1]; unfold Dat.blockOf iblk10; rw [A_eq10]; try rfl) t d).trans
    (by unfold Dat.fetched Dat.blockOf iblk10; rw [A_eq10]; try rfl)

/-! ## What the obligation asks of each window's buffer after the body -/

/-- The inputs are never idle: their buffers are handed back at their blocks. -/
theorem leaves10_0 (V : Valuation τ sig (Elt F)) (c : Dev nD) (t : Fin cfg10.N) :
    (dat10 (Ix := Ix) (U := U) (Lvl := Lvl) V c).leaves 0 t = owns (c : Thread nD τ) (st10_0 t) fullShare (iblk10 V c 0 t) := by
  rw [← after10_0 (Ix := Ix) (U := U) (Lvl := Lvl) V c t]

theorem leaves10_1 (V : Valuation τ sig (Elt F)) (c : Dev nD) (t : Fin cfg10.N) :
    (dat10 (Ix := Ix) (U := U) (Lvl := Lvl) V c).leaves 1 t = owns (c : Thread nD τ) (st10_1 t) fullShare (iblk10 V c 1 t) := by
  rw [← after10_1 (Ix := Ix) (U := U) (Lvl := Lvl) V c t]

/-- The output is idle, and not written back, at every point but the last: its buffer is handed back as found; -/
theorem leaves10_2_idle (V : Valuation τ sig (Elt F)) (c : Dev nD) (t : Fin cfg10.N) (h : t.val ≠ 63) :
    (dat10 (Ix := Ix) (U := U) (Lvl := Lvl) V c).leaves 2 t
      = iprop(∃ d, owns (c : Thread nD τ) (st10_2 t) fullShare ((dat10 (Ix := Ix) (U := U) (Lvl := Lvl) V c).before 2 t d)) :=
  (dat10 (Ix := Ix) (U := U) (Lvl := Lvl) V c).leaves_idle 2 t ((idle10_2 t).mpr h)
    (Bool.eq_false_iff.mpr fun hf => h ((flush10_2' t).mp hf))

/-- at the last point it is handed back at the accumulated sum. -/
theorem leaves10_2_last (V : Valuation τ sig (Elt F)) (c : Dev nD) (t : Fin cfg10.N) (h : t.val = 63) :
    (dat10 (Ix := Ix) (U := U) (Lvl := Lvl) V c).leaves 2 t = owns (c : Thread nD τ) (st10_2 t) fullShare (acc10 V c t.val t.isLt) := by
  have hl : cfg10.idle 2 (grid10.coords t) = false := by
    cases hi : cfg10.idle 2 (grid10.coords t) with
    | false => rfl
    | true => exact absurd h ((idle10_2 t).mp hi)
  rw [← after10_2 (Ix := Ix) (U := U) (Lvl := Lvl) V c t]
  unfold Dat.leaves; rw [hl]

/-- One step at a point, through the point itself. -/
theorem step10_at (V : Valuation τ sig (Elt F)) (c : Dev nD) (t : Fin cfg10.N) (a : Vec F S1x1 .f32) :
    step10 V c t.val t.isLt a = k10_pay2 (iblk10 V c 0 t) (iblk10 V c 1 t) a := rfl

theorem acc10_first (V : Valuation τ sig (Elt F)) (c : Dev nD) (n : ℕ) (hn : n < cfg10.N) (hz : n = 0) :
    acc10 V c n hn = step10 V c n hn (k10_pay1 (F := F)) := by
  subst hz; rfl

/-! ## The body obligation -/

/-- What the body is called with at point `t` (the obligation's precondition, the windows one by one), -/
noncomputable def bodyPre10 (V : Valuation τ sig (Elt F)) (ι : Ix) (c : Dev nD) (t : Fin cfg10.N) : sProp 𝕄 :=
  iprop((dat10 (Ix := Ix) (U := U) (Lvl := Lvl) V c).Φ t.castSucc ∗ (dat10 (Ix := Ix) (U := U) (Lvl := Lvl) V c).owesAt ι t.castSucc
    ∗ (∃ d, owns (c : Thread nD τ) (st10_0 t) fullShare ((dat10 (Ix := Ix) (U := U) (Lvl := Lvl) V c).before 0 t d))
    ∗ (∃ d, owns (c : Thread nD τ) (st10_1 t) fullShare ((dat10 (Ix := Ix) (U := U) (Lvl := Lvl) V c).before 1 t d))
    ∗ (∃ d, owns (c : Thread nD τ) (st10_2 t) fullShare ((dat10 (Ix := Ix) (U := U) (Lvl := Lvl) V c).before 2 t d)))

/-- and what it returns. -/
noncomputable def bodyPost10 (V : Valuation τ sig (Elt F)) (ι : Ix) (c : Dev nD) (t : Fin cfg10.N) : sProp 𝕄 :=
  iprop((dat10 (Ix := Ix) (U := U) (Lvl := Lvl) V c).Φ t.succ ∗ (dat10 (Ix := Ix) (U := U) (Lvl := Lvl) V c).owesAt ι t.succ
    ∗ (dat10 (Ix := Ix) (U := U) (Lvl := Lvl) V c).leaves 0 t ∗ (dat10 (Ix := Ix) (U := U) (Lvl := Lvl) V c).leaves 1 t ∗ (dat10 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body10 (V : Valuation τ sig (Elt F)) (𝒱₀ : Variants) (ι : Ix) (c : Dev nD) (t : Fin cfg10.N) :
    bodyPre10 (U := U) (Lvl := Lvl) V ι c t
      ⊢ wp frame (wpE (defs₀ (F := F)) 𝒱₀ c none) Set.univ (bodyAt10 t) (fun _ => bodyPost10 (U := U) (Lvl := Lvl) V ι c t) := by
  unfold bodyPre10 bodyPost10 bodyAt10
  simp only [before10_0, before10_1]
  rw [show (dat10 (Ix := Ix) (U := U) (Lvl := Lvl) V c).owesAt ι t.succ = (dat10 (Ix := Ix) (U := U) (Lvl := Lvl) V c).owesAt ι t.castSucc from rfl]
  rw [Phi10_at_succ, Phi10_succ, Phi10_castSucc, leaves10_0, leaves10_1]
  have hN : t.val < 64 := lt_of_lt_of_eq t.isLt N_10
  by_cases hz : t.val = 0
  · have hc1 : cond10_1 (grid10.coords t) := (hcond10_1 t).mpr hz
    have hc2 : ¬cond10_2 (grid10.coords t) := fun h => by have := (hcond10_2 t).mp h; omega
    rw [leaves10_2_idle V c t (by omega), Phi10_zero V c _ _ hz, scopedRest10_split, acc10_first V c _ _ hz, step10_at]
    iintro ⟨⟨⟨%f, Hs⟩, Hr⟩, Ho, ⟨%d0, H0⟩, ⟨%d1, H1⟩, H2⟩
    iapply (run10_A 𝒱₀ c (grid10.coords t) _ _ _ _ _ _ _ _ hc1 hc2 (iblk10 V c 0 t) (iblk10 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond10_1 (grid10.coords t) := fun h => hz ((hcond10_1 t).mp h)
    rw [Phi10_pos V c _ _ hz, acc10_pos V c _ _ hz, step10_at]
    by_cases hl : t.val = 63
    · have hc2 : cond10_2 (grid10.coords t) := (hcond10_2 t).mpr hl
      rw [leaves10_2_last V c t hl, acc10_pos V c _ _ hz, step10_at]
      iintro ⟨⟨Hs, Hr⟩, Ho, ⟨%d0, H0⟩, ⟨%d1, H1⟩, ⟨%d2, H2⟩⟩
      iapply (run10_C 𝒱₀ c (grid10.coords t) _ _ _ _ _ _ _ _ hc1 hc2 (iblk10 V c 0 t) (iblk10 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond10_2 (grid10.coords t) := fun h => hl ((hcond10_2 t).mp h)
      rw [leaves10_2_idle V c t hl]
      iintro ⟨⟨Hs, Hr⟩, Ho, ⟨%d0, H0⟩, ⟨%d1, H1⟩, H2⟩
      iapply (run10_B 𝒱₀ c (grid10.coords t) _ _ _ _ _ _ _ _ hc1 hc2 (iblk10 V c 0 t) (iblk10 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body10 (V : Valuation τ sig (Elt F)) (𝒱₀ : Variants) (ι : Ix) :
    ∀ c : Dev nD, BodyObligationLoose (dat10 (Ix := Ix) (U := U) (Lvl := Lvl) V c) (defs₀ (F := F)) 𝒱₀ ι Set.univ := fun c t => by
  rw [bigSep_W10, bigSep_W10]
  exact sound_body10 (U := U) (Lvl := Lvl) V 𝒱₀ ι c t

end Cert.Kernel.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg10

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (10 : Fin 24)
/-- Its configuration, its windows but for their index maps, the number of its windows. -/
abbrev cfgK : Pipeline.Cfg sig Λ₀ := cfg10
abbrev specK : Fin 3 → Pipeline.WinSpec sig cfgK.grid.rank := spec10
abbrev nW : Nat := 3
/-- Its output window and the buffer behind it. -/
abbrev oK : Fin nW := 2
abbrev outK : Ref sig .tc := main_v367
theorem winK : Pipeline.WinFacts₀ specK := winFacts₀10
theorem block_posK : ∀ w : Fin nW, 0 < (specK w).block.numel := block_pos10
theorem arr_wholeK : ∀ w : Fin nW, (specK w).arr.IsWhole := arr_whole10
theorem stage_wholeK : ∀ (w : Fin nW) (s : Fin (specK w).nbuf), ((specK w).stage s).IsWhole := stage_whole10

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.Kernel.Hand.Reg10

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R10' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (10 : Fin 24) c = dat10 (V59 m outs c) c)
    (hbody : ∀ c : Dev nD, Pipeline.BodyObligationLoose (dat10 (Ix := Ix) (U := U) (Lvl := Lvl) (V59 m outs c) c) (defs₀ (F := F)) 𝒱₀ ι Set.univ) :
    RegionSeg (pcfgs (F := F)) GenP.adm pdats ι defs₀ 𝒱₀ L lv (10 : Fin 24) :=
  Reg10.RK 𝒱₀ L lv ι pdats (fun c => V59 m outs c)
    (fun c => by rw [hp c]; exact hbody c)
    (fun c w => by rw [hp c]; exact A_eq10 (V59 m outs c) c w)
    (fun c => by rw [hp c]; exact PosShare.mem_left_op_right fullShare)
    (fun c t => by rw [hp c]; rfl)
    (fun c => by rw [hp c]; rfl)
    (fun c => by rw [hp c, Phi_first10])
    (fun c => by rw [hp c]; exact Phi_last10 (V59 m outs c) c)

/-- It is entered from the thread state before the region's item, -/
theorem hpre10' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (10 : Fin 24) c = dat10 (V59 m outs c) c)
    (hbody : ∀ c : Dev nD, Pipeline.BodyObligationLoose (dat10 (Ix := Ix) (U := U) (Lvl := Lvl) (V59 m outs c) c) (defs₀ (F := F)) 𝒱₀ ι Set.univ)
    (c : Dev nD) :
    iprop(StableHlo.held (c : Thread nD τ) (Pipeline.ucRefs τ sig) (V59 m outs c) ∗ (R c : sProp 𝕄))
      ⊢ (R10' m outs 𝒱₀ L lv ι pdats hp hbody).pre c := .rfl

/-- and left at the thread state after it. -/
theorem hpost10' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (10 : Fin 24) c = dat10 (V59 m outs c) c)
    (hbody : ∀ c : Dev nD, Pipeline.BodyObligationLoose (dat10 (Ix := Ix) (U := U) (Lvl := Lvl) (V59 m outs c) c) (defs₀ (F := F)) 𝒱₀ ι Set.univ)
    (houts : ∀ c : Dev nD, outs 60 main_v367 c = (dat10 (Ix := Ix) (U := U) (Lvl := Lvl) (V59 m outs c) c).arrAt 2 64)
    (c : Dev nD) :
    (R10' m outs 𝒱₀ L lv ι pdats hp hbody).post c
      ⊢ iprop(StableHlo.held (c : Thread nD τ) (Pipeline.ucRefs τ sig) (V60 m outs c) ∗ (R c : sProp 𝕄)) := by
  have h : (pdats (10 : Fin 24) c).arrAt Reg10.oK Reg10.cfgK.N = outs 60 main_v367 c := by
    rw [hp c]; exact (houts c).symm
  show iprop(StableHlo.held (c : Thread nD τ) (Pipeline.ucRefs τ sig)
      (Function.update (V59 m outs c) (Proc.devRef .tc main_v367) ((pdats (10 : Fin 24) c).arrAt Reg10.oK Reg10.cfgK.N))
        ∗ (R c : sProp 𝕄)) ⊢ _
  rw [h]

end Cert.Kernel.Hand
-- ==== Proof.K_Rg11.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_ApplyLib
import proofs.«169706_j68856915690108_1_alg».proof.Proof.K_Shared
import proofs.«169706_j68856915690108_1_alg».proof.Proof.RegionsK

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k11_pay1 x_i` and `step t a = k11_pay2 h_i h_j threshold x_j a`, the printed payloads of the two stores.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk11 (V : Valuation τ sig (Elt F)) (c : Dev nD) (w : Fin cfg11.W) (t : Fin cfg11.N) :
    ((cfg11.win w).xblock (cfg11.grid.coords t)).Idx → Elt F (cfg11.win w).elt :=
  ((cfg11.win w).blk t).view.read (Elt F)
    (V (Proc.devRef .tc (Pipeline.arrRef spec11 w)) : Buf (Elt F) ((cfg11.win w).arr.view.loc (c.tc : Thread nD τ)))

/-- What the accumulator is reset to at a point whose second coordinate is 0: 1.0 times the block of `x` window 3
    stages there (the printed payload of the first store into the scratch buffer). -/
noncomputable def init11 (V : Valuation τ sig (Elt F)) (c : Dev nD) (n : ℕ) (hn : n < cfg11.N) : Vec F S512x256 .f32 :=
  k11_pay1 (iblk11 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step11 (V : Valuation τ sig (Elt F)) (c : Dev nD) (n : ℕ) (hn : n < cfg11.N) (a : Vec F S512x256 .f32) : Vec F S512x256 .f32 :=
  k11_pay2 (iblk11 V c 1 ⟨n, hn⟩) (iblk11 V c 2 ⟨n, hn⟩) (iblk11 V c 0 ⟨n, hn⟩) (iblk11 V c 4 ⟨n, hn⟩) a

/-- What the accumulator holds after point `n`: reset and stepped at the points ≡ 0 (mod 8), stepped from what the
    point before left at the others. -/
noncomputable def acc11 (V : Valuation τ sig (Elt F)) (c : Dev nD) : (n : ℕ) → n < cfg11.N → Vec F S512x256 .f32
  | 0, hn => step11 V c 0 hn (init11 V c 0 hn)
  | n + 1, hn =>
    if (n + 1) % 8 = 0 then step11 V c (n + 1) hn (init11 V c (n + 1) hn)
    else step11 V c (n + 1) hn (acc11 V c n (Nat.lt_of_succ_lt hn))

/-- After a point ≡ 0 (mod 8): the reset value, stepped once. -/
theorem acc11_reset (V : Valuation τ sig (Elt F)) (c : Dev nD) (n : ℕ) (hn : n < cfg11.N) (h0 : n % 8 = 0) :
    acc11 V c n hn = step11 V c n hn (init11 V c n hn) := by
  cases n with
  | zero => rfl
  | succ n => exact if_pos h0

/-- After any other point: that point's step on what the point before left. -/
theorem acc11_step (V : Valuation τ sig (Elt F)) (c : Dev nD) (n : ℕ) (hn : n < cfg11.N) (h0 : ¬n % 8 = 0) :
    acc11 V c n hn = step11 V c n hn (acc11 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi11 (V : Valuation τ sig (Elt F)) (c : Dev nD) : (n : ℕ) → n ≤ cfg11.N → sProp 𝕄
  | 0, _ => Pipeline.scopedRest (Ix := Ix) (Name := ℕ) (U := U) (Lvl := Lvl) (Val := Elt F) spec11 c
  | n + 1, hn => iprop(owns (c : Thread nD τ) (Memref.whole cc11_scratch0) fullShare (acc11 V c n hn)
      ∗ Pipeline.scopedRestBut (Ix := Ix) (Name := ℕ) (U := U) (Lvl := Lvl) (Val := Elt F) spec11 c [cc11_scratch0])

theorem Phi11_zero (V : Valuation τ sig (Elt F)) (c : Dev nD) (n : ℕ) (h : n ≤ cfg11.N) (hz : n = 0) :
    (Phi11 V c n h : sProp 𝕄) = Pipeline.scopedRest (Ix := Ix) (Name := ℕ) (U := U) (Lvl := Lvl) (Val := Elt F) spec11 c := by
  subst hz; rfl

theorem Phi11_succ (V : Valuation τ sig (Elt F)) (c : Dev nD) (n : ℕ) (hn : n < cfg11.N) :
    (Phi11 V c (n + 1) hn : sProp 𝕄) = iprop(owns (c : Thread nD τ) (Memref.whole cc11_scratch0) fullShare (acc11 V c n hn)
      ∗ Pipeline.scopedRestBut (Ix := Ix) (Name := ℕ) (U := U) (Lvl := Lvl) (Val := Elt F) spec11 c [cc11_scratch0]) := rfl

theorem Phi11_pos (V : Valuation τ sig (Elt F)) (c : Dev nD) (n : ℕ) (h : n ≤ cfg11.N) (hz : n ≠ 0) :
    (Phi11 V c n h : sProp 𝕄) = iprop(owns (c : Thread nD τ) (Memref.whole cc11_scratch0) fullShare (acc11 V c (n - 1) (by omega))
      ∗ Pipeline.scopedRestBut (Ix := Ix) (Name := ℕ) (U := U) (Lvl := Lvl) (Val := Elt F) spec11 c [cc11_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi11`; the
    threshold's array held whole, each of the two arrays that two input windows read held half and half; nothing owed. -/
noncomputable def dat11 (V : Valuation τ sig (Elt F)) (c : Dev nD) : Dat τ (Elt F) Ix ℕ U Lvl cfg11 c where
  A w := V (Proc.devRef .tc (Pipeline.arrRef spec11 w))
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => acc11 V c t.val t.isLt
  Φ t := Phi11 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq11 (V : Valuation τ sig (Elt F)) (c : Dev nD) (w : Fin cfg11.W) :
    (dat11 (Ix := Ix) (U := U) (Lvl := Lvl) V c).A w = V (Proc.devRef .tc (Pipeline.arrRef spec11 w)) := by
  dsimp only [dat11]

/-- What the body leaves, window by window. -/
theorem after11_0 (V : Valuation τ sig (Elt F)) (c : Dev nD) (t : Fin cfg11.N) :
    (dat11 (Ix := Ix) (U := U) (Lvl := Lvl) V c).after 0 t = iblk11 V c 0 t := by dsimp only [dat11]
theorem after11_1 (V : Valuation τ sig (Elt F)) (c : Dev nD) (t : Fin cfg11.N) :
    (dat11 (Ix := Ix) (U := U) (Lvl := Lvl) V c).after 1 t = iblk11 V c 1 t := by dsimp only [dat11]
theorem after11_2 (V : Valuation τ sig (Elt F)) (c : Dev nD) (t : Fin cfg11.N) :
    (dat11 (Ix := Ix) (U := U) (Lvl := Lvl) V c).after 2 t = iblk11 V c 2 t := by dsimp only [dat11]
theorem after11_3 (V : Valuation τ sig (Elt F)) (c : Dev nD) (t : Fin cfg11.N) :
    (dat11 (Ix := Ix) (U := U) (Lvl := Lvl) V c).after 3 t = iblk11 V c 3 t := by dsimp only [dat11]
theorem after11_4 (V : Valuation τ sig (Elt F)) (c : Dev nD) (t : Fin cfg11.N) :
    (dat11 (Ix := Ix) (U := U) (Lvl := Lvl) V c).after 4 t = iblk11 V c 4 t := by dsimp only [dat11]
theorem after11_5 (V : Valuation τ sig (Elt F)) (c : Dev nD) (t : Fin cfg11.N) :
    (dat11 (Ix := Ix) (U := U) (Lvl := Lvl) V c).after 5 t = acc11 V c t.val t.isLt := by dsimp only [dat11]

/-- The shares the input arrays are held at. -/
theorem q11_0 (V : Valuation τ sig (Elt F)) (c : Dev nD) : (dat11 (Ix := Ix) (U := U) (Lvl := Lvl) V c).q 0 = fullShare := by dsimp only [dat11]
theorem q11_1 (V : Valuation τ sig (Elt F)) (c : Dev nD) : (dat11 (Ix := Ix) (U := U) (Lvl := Lvl) V c).q 1 = fullShare.left := by dsimp only [dat11]
theorem q11_2 (V : Valuation τ sig (Elt F)) (c : Dev nD) : (dat11 (Ix := Ix) (U := U) (Lvl := Lvl) V c).q 2 = fullShare.right := by dsimp only [dat11]
theorem q11_3 (V : Valuation τ sig (Elt F)) (c : Dev nD) : (dat11 (Ix := Ix) (U := U) (Lvl := Lvl) V c).q 3 = fullShare.left := by dsimp only [dat11]
theorem q11_4 (V : Valuation τ sig (Elt F)) (c : Dev nD) : (dat11 (Ix := Ix) (U := U) (Lvl := Lvl) V c).q 4 = fullShare.right := by dsimp only [dat11]

/-- The invariant at a point's start, and at its end. -/
theorem Phi11_castSucc (V : Valuation τ sig (Elt F)) (c : Dev nD) (t : Fin cfg11.N) :
    (dat11 (Ix := Ix) (U := U) (Lvl := Lvl) V c).Φ t.castSucc = Phi11 V c t.val (Nat.le_of_lt t.isLt) := by
  dsimp only [dat11]; simp only [Fin.coe_castSucc]

theorem Phi11_at_succ (V : Valuation τ sig (Elt F)) (c : Dev nD) (t : Fin cfg11.N) :
    (dat11 (Ix := Ix) (U := U) (Lvl := Lvl) V c).Φ t.succ = Phi11 V c (t.val + 1) t.isLt := rfl

/-- Before the first point the invariant is the launch's scoped rest. -/
theorem Phi_first11 (V : Valuation τ sig (Elt F)) (c : Dev nD) :
    (dat11 (Ix := Ix) (U := U) (Lvl := Lvl) V c).Φ 0
      = Pipeline.scopedRest (Ix := Ix) (Name := ℕ) (U := U) (Lvl := Lvl) (Val := Elt F) spec11 c := rfl

/-- After the last point the invariant gives the scoped rest back: the accumulator's contents are forgotten. -/
theorem Phi_last11 (V : Valuation τ sig (Elt F)) (c : Dev nD) :
    (dat11 (Ix := Ix) (U := U) (Lvl := Lvl) V c).Φ (Fin.last cfg11.N)
      ⊢ Pipeline.scopedRest (Ix := Ix) (Name := ℕ) (U := U) (Lvl := Lvl) (Val := Elt F) spec11 c := by
  have hN : cfg11.N = 64 := N_11
  rw [show (dat11 (Ix := Ix) (U := U) (Lvl := Lvl) V c).Φ (Fin.last cfg11.N) = Phi11 V c (Fin.last cfg11.N).val (Nat.le_of_lt_succ (Fin.last cfg11.N).isLt) from rfl,
    Phi11_pos V c _ _ (by rw [Fin.val_last]; omega), scopedRest11_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 11) c := dat11 V c

end Cert.Kernel.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k11_pay2 hI hJ mn xJ s` — `s` plus the 0/1 mask of (hI · hJᵀ > mn) times `xJ` — and the value
  the accumulator is reset to is `k11_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond11_0 (i : grid11.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond11_1 (i : grid11.Coords) : Prop := k11_cond2 i = 1#1

/-! ## The three runs -/

/-- At a point whose second coordinate is 0 (and not 7): the accumulator, at anything, is reset to `k11_pay1 xI` and
    stepped once; every window's buffer is handed back as found. -/
theorem run11_first (𝒱₀ : Variants) (c : Dev nD) (i : grid11.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond11_0 i) (hc1 : ¬cond11_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k11_pay2 hI hJ mn xJ (k11_pay1 xI))) -∗ K ⟨⟩))
      ⊢ wp frame (wpE (defs₀ (F := F)) 𝒱₀ c none) E (cc11__apply_kernel i arg2 harg2 arg3 harg3 arg4 harg4 arg5 harg5 arg6 harg6 arg7 harg7 arg8 harg8) K := by
  simp only [cc11__apply_kernel_eq_skeleton]; unfold cc11__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run11_mid (𝒱₀ : Variants) (c : Dev nD) (i : grid11.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond11_0 i) (hc1 : ¬cond11_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k11_pay2 hI hJ mn xJ s)) -∗ K ⟨⟩))
      ⊢ wp frame (wpE (defs₀ (F := F)) 𝒱₀ c none) E (cc11__apply_kernel i arg2 harg2 arg3 harg3 arg4 harg4 arg5 harg5 arg6 harg6 arg7 harg7 arg8 harg8) K := by
  simp only [cc11__apply_kernel_eq_skeleton]; unfold cc11__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run11_last (𝒱₀ : Variants) (c : Dev nD) (i : grid11.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond11_0 i) (hc1 : cond11_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k11_pay2 hI hJ mn xJ s)
        ∗ owns (c : Thread nD τ) arg8 fullShare (k11_pay2 hI hJ mn xJ s)) -∗ K ⟨⟩))
      ⊢ wp frame (wpE (defs₀ (F := F)) 𝒱₀ c none) E (cc11__apply_kernel i arg2 harg2 arg3 harg3 arg4 harg4 arg5 harg5 arg6 harg6 arg7 harg7 arg8 harg8) K := by
  simp only [cc11__apply_kernel_eq_skeleton]; unfold cc11__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.Kernel.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc11`. The three control cases are
  decided over the grid by the point's residue mod 8, and in each the kernel's run (ApplyRun.lean) applies.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond11_0 : ∀ t : Fin cfg11.N, cond11_0 (grid11.coords t) ↔ t.val % 8 = 0 :=
  (by decide +kernel : ∀ t : Fin grid11.N, cond11_0 (grid11.coords t) ↔ t.val % 8 = 0)
/-- It is stored into the output block at the points ≡ 7 (mod 8). -/
theorem hcond11_1 : ∀ t : Fin cfg11.N, cond11_1 (grid11.coords t) ↔ t.val % 8 = 7 :=
  (by decide +kernel : ∀ t : Fin grid11.N, cond11_1 (grid11.coords t) ↔ t.val % 8 = 7)
/-- The output window is idle at every other point, -/
theorem idleAt11_5 : ∀ t : Fin cfg11.N, ¬t.val % 8 = 7 → cfg11.idle 5 (grid11.coords t) = true :=
  (by decide +kernel : ∀ t : Fin grid11.N, ¬t.val % 8 = 7 → cfg11.idle 5 (grid11.coords t) = true)
/-- live at those, -/
theorem liveAt11_5 : ∀ t : Fin cfg11.N, t.val % 8 = 7 → cfg11.idle 5 (grid11.coords t) = false :=
  (by decide +kernel : ∀ t : Fin grid11.N, t.val % 8 = 7 → cfg11.idle 5 (grid11.coords t) = false)
/-- and not written back where it is idle. -/
theorem noFlush11_5 (t : Fin cfg11.N) (h : ¬t.val % 8 = 7) : (cfg11.win 5).flush t = false := by
  cases hf : (cfg11.win 5).flush t with
  | false => rfl
  | true => exact absurd ((flush11_5 t).mp hf) h

/-! ## What the body finds in the inputs' buffers and leaves in every buffer -/

/-- Each input's current staging buffer holds its block at every point, fetched there or not. -/
theorem before11_0 (V : Valuation τ sig (Elt F)) (c : Dev nD) (t : Fin cfg11.N) (d) : (dat11 (Ix := Ix) (U := U) (Lvl := Lvl) V c).before 0 t d = iblk11 V c 0 t :=
  ((dat11 (Ix := Ix) (U := U) (Lvl := Lvl) V c).before_in_eq_fetched 0 rfl (fun _ => rfl) (fun _ _ _ => rfl)
      (fun t => by rw [after11_0]; unfold Dat.blockOf iblk11; rw [A_eq11]; try rfl) t d).trans
    (by unfold Dat.fetched Dat.blockOf iblk11; rw [A_eq11]; try rfl)
theorem before11_1 (V : Valuation τ sig (Elt F)) (c : Dev nD) (t : Fin cfg11.N) (d) : (dat11 (Ix := Ix) (U := U) (Lvl := Lvl) V c).before 1 t d = iblk11 V c 1 t :=
  ((dat11 (Ix := Ix) (U := U) (Lvl := Lvl) V c).before_in_eq_fetched 1 rfl (fun _ => rfl) (fun _ _ _ => rfl)
      (fun t => by rw [after11_1]; unfold Dat.blockOf iblk11; rw [A_eq11]; try rfl) t d).trans
    (by unfold Dat.fetched Dat.blockOf iblk11; rw [A_eq11]; try rfl)
theorem before11_2 (V : Valuation τ sig (Elt F)) (c : Dev nD) (t : Fin cfg11.N) (d) : (dat11 (Ix := Ix) (U := U) (Lvl := Lvl) V c).before 2 t d = iblk11 V c 2 t :=
  ((dat11 (Ix := Ix) (U := U) (Lvl := Lvl) V c).before_in_eq_fetched 2 rfl (fun _ => rfl) (fun _ _ _ => rfl)
      (fun t => by rw [after11_2]; unfold Dat.blockOf iblk11; rw [A_eq11]; try rfl) t d).trans
    (by unfold Dat.fetched Dat.blockOf iblk11; rw [A_eq11]; try rfl)
theorem before11_3 (V : Valuation τ sig (Elt F)) (c : Dev nD) (t : Fin cfg11.N) (d) : (dat11 (Ix := Ix) (U := U) (Lvl := Lvl) V c).before 3 t d = iblk11 V c 3 t :=
  ((dat11 (Ix := Ix) (U := U) (Lvl := Lvl) V c).before_in_eq_fetched 3 rfl (fun _ => rfl) (fun _ _ _ => rfl)
      (fun t => by rw [after11_3]; unfold Dat.blockOf iblk11; rw [A_eq11]; try rfl) t d).trans
    (by unfold Dat.fetched Dat.blockOf iblk11; rw [A_eq11]; try rfl)
theorem before11_4 (V : Valuation τ sig (Elt F)) (c : Dev nD) (t : Fin cfg11.N) (d) : (dat11 (Ix := Ix) (U := U) (Lvl := Lvl) V c).before 4 t d = iblk11 V c 4 t :=
  ((dat11 (Ix := Ix) (U := U) (Lvl := Lvl) V c).before_in_eq_fetched 4 rfl (fun _ => rfl) (fun _ _ _ => rfl)
      (fun t => by rw [after11_4]; unfold Dat.blockOf iblk11; rw [A_eq11]; try rfl) t d).trans
    (by unfold Dat.fetched Dat.blockOf iblk11; rw [A_eq11]; try rfl)

/-! ## The body obligation, at a generic point -/

/-- What the body is called with at point `t` (the obligation's precondition, the windows one by one), -/
noncomputable def bodyPre11 (V : Valuation τ sig (Elt F)) (c : Dev nD) (ι : Ix) (t : Fin cfg11.N) : sProp 𝕄 :=
  iprop((dat11 (Ix := Ix) (U := U) (Lvl := Lvl) V c).Φ t.castSucc ∗ (dat11 (Ix := Ix) (U := U) (Lvl := Lvl) V c).owesAt ι t.castSucc
    ∗ (∃ d, owns (c : Thread nD τ) (st11_0 t) fullShare ((dat11 (Ix := Ix) (U := U) (Lvl := Lvl) V c).before 0 t d))
    ∗ (∃ d, owns (c : Thread nD τ) (st11_1 t) fullShare ((dat11 (Ix := Ix) (U := U) (Lvl := Lvl) V c).before 1 t d))
    ∗ (∃ d, owns (c : Thread nD τ) (st11_2 t) fullShare ((dat11 (Ix := Ix) (U := U) (Lvl := Lvl) V c).before 2 t d))
    ∗ (∃ d, owns (c : Thread nD τ) (st11_3 t) fullShare ((dat11 (Ix := Ix) (U := U) (Lvl := Lvl) V c).before 3 t d))
    ∗ (∃ d, owns (c : Thread nD τ) (st11_4 t) fullShare ((dat11 (Ix := Ix) (U := U) (Lvl := Lvl) V c).before 4 t d))
    ∗ (∃ d, owns (c : Thread nD τ) (st11_5 t) fullShare ((dat11 (Ix := Ix) (U := U) (Lvl := Lvl) V c).before 5 t d)))

/-- and what it returns. -/
noncomputable def bodyPost11 (V : Valuation τ sig (Elt F)) (c : Dev nD) (ι : Ix) (t : Fin cfg11.N) : sProp 𝕄 :=
  iprop((dat11 (Ix := Ix) (U := U) (Lvl := Lvl) V c).Φ t.succ ∗ (dat11 (Ix := Ix) (U := U) (Lvl := Lvl) V c).owesAt ι t.succ
    ∗ (dat11 (Ix := Ix) (U := U) (Lvl := Lvl) V c).leaves 0 t ∗ (dat11 (Ix := Ix) (U := U) (Lvl := Lvl) V c).leaves 1 t ∗ (dat11 (Ix := Ix) (U := U) (Lvl := Lvl) V c).leaves 2 t
    ∗ (dat11 (Ix := Ix) (U := U) (Lvl := Lvl) V c).leaves 3 t ∗ (dat11 (Ix := Ix) (U := U) (Lvl := Lvl) V c).leaves 4 t ∗ (dat11 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body11 (𝒱₀ : Variants) (ι : Ix) (V : Valuation τ sig (Elt F)) (c : Dev nD) (t : Fin cfg11.N) :
    bodyPre11 (Ix := Ix) (U := U) (Lvl := Lvl) V c ι t ⊢ wp frame (wpE (defs₀ (F := F)) 𝒱₀ c none) Set.univ (bodyAt11 t) (fun _ => bodyPost11 (Ix := Ix) (U := U) (Lvl := Lvl) V c ι t) := by
  unfold bodyPre11 bodyPost11 bodyAt11
  simp only [before11_0, before11_1, before11_2, before11_3, before11_4]
  rw [show (dat11 (Ix := Ix) (U := U) (Lvl := Lvl) V c).owesAt ι t.succ = (dat11 (Ix := Ix) (U := U) (Lvl := Lvl) V c).owesAt ι t.castSucc from rfl]
  rw [Phi11_at_succ, Phi11_succ, Phi11_castSucc]
  rw [leaves_live (dat11 (Ix := Ix) (U := U) (Lvl := Lvl) V c) 0 t rfl rfl, leaves_live (dat11 (Ix := Ix) (U := U) (Lvl := Lvl) V c) 1 t rfl rfl, leaves_live (dat11 (Ix := Ix) (U := U) (Lvl := Lvl) V c) 2 t rfl rfl,
    leaves_live (dat11 (Ix := Ix) (U := U) (Lvl := Lvl) V c) 3 t rfl rfl, leaves_live (dat11 (Ix := Ix) (U := U) (Lvl := Lvl) V c) 4 t rfl rfl, after11_0, after11_1, after11_2, after11_3, after11_4]
  have hN : t.val < 64 := lt_of_lt_of_eq t.isLt (show cfg11.N = 64 from N_11)
  by_cases h0 : t.val % 8 = 0
  · have h7 : ¬t.val % 8 = 7 := by omega
    rw [Dat.leaves_idle (dat11 (Ix := Ix) (U := U) (Lvl := Lvl) V c) 5 t (idleAt11_5 t h7) (noFlush11_5 t h7)]
    rw [acc11_reset V c t.val t.isLt h0]
    unfold step11 init11
    by_cases hz : t.val = 0
    · rw [Phi11_zero V c _ _ hz, scopedRest11_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run11_first 𝒱₀ c (grid11.coords t) _ _ _ _ _ _ _ _ _ _ _ _ _ _ ((hcond11_0 t).mpr h0) (fun h => h7 ((hcond11_1 t).mp h)) (iblk11 V c 0 t) (iblk11 V c 1 t) (iblk11 V c 2 t) (iblk11 V c 3 t) (iblk11 V c 4 t) ((dat11 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi11_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run11_first 𝒱₀ c (grid11.coords t) _ _ _ _ _ _ _ _ _ _ _ _ _ _ ((hcond11_0 t).mpr h0) (fun h => h7 ((hcond11_1 t).mp h)) (iblk11 V c 0 t) (iblk11 V c 1 t) (iblk11 V c 2 t) (iblk11 V c 3 t) (iblk11 V c 4 t) ((dat11 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc11_step V c t.val t.isLt h0, Phi11_pos V c _ _ hz]
    unfold step11
    by_cases h7 : t.val % 8 = 7
    · rw [leaves_live (dat11 (Ix := Ix) (U := U) (Lvl := Lvl) V c) 5 t (liveAt11_5 t h7) rfl, after11_5, acc11_step V c t.val t.isLt h0]
      unfold step11
      iintro ⟨⟨HS, Hr⟩, Ho, ⟨%d0, H0⟩, ⟨%d1, H1⟩, ⟨%d2, H2⟩, ⟨%d3, H3⟩, ⟨%d4, H4⟩, ⟨%d5, H5⟩⟩
      iapply (run11_last 𝒱₀ c (grid11.coords t) _ _ _ _ _ _ _ _ _ _ _ _ _ _ (fun h => h0 ((hcond11_0 t).mp h)) ((hcond11_1 t).mpr h7) (iblk11 V c 0 t) (iblk11 V c 1 t) (iblk11 V c 2 t) (iblk11 V c 3 t) (iblk11 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat11 (Ix := Ix) (U := U) (Lvl := Lvl) V c) 5 t (idleAt11_5 t h7) (noFlush11_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run11_mid 𝒱₀ c (grid11.coords t) _ _ _ _ _ _ _ _ _ _ _ _ _ _ (fun h => h0 ((hcond11_0 t).mp h)) (fun h => h7 ((hcond11_1 t).mp h)) (iblk11 V c 0 t) (iblk11 V c 1 t) (iblk11 V c 2 t) (iblk11 V c 3 t) (iblk11 V c 4 t) ((dat11 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation11 (𝒱₀ : Variants) (ι : Ix) (V : Valuation τ sig (Elt F)) (c : Dev nD) :
    BodyObligationLoose (dat11 (Ix := Ix) (U := U) (Lvl := Lvl) V c) (defs₀ (F := F)) 𝒱₀ ι Set.univ := fun t => by
  rw [bigSep_W11, bigSep_W11]
  exact sound_body11 𝒱₀ ι V c t

/-- The same at the type the program's family of configurations gives pipeline 1, on every core. -/
theorem body11 (𝒱₀ : Variants) (ι : Ix) (V : Valuation τ sig (Elt F)) :
    ∀ c : Dev nD, BodyObligationLoose (cfg := cfgs 11) (dat11 (Ix := Ix) (U := U) (Lvl := Lvl) V c) (defs₀ (F := F)) 𝒱₀ ι Set.univ :=
  fun c => body_obligation11 𝒱₀ ι V c

end Cert.Kernel.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg11

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (11 : Fin 24)
/-- Its configuration, its windows but for their index maps, the number of its windows. -/
abbrev cfgK : Pipeline.Cfg sig Λ₀ := cfg11
abbrev specK : Fin 6 → Pipeline.WinSpec sig cfgK.grid.rank := spec11
abbrev nW : Nat := 6
/-- Its output window and the buffer behind it. -/
abbrev oK : Fin nW := 5
abbrev outK : Ref sig .tc := main_v370
theorem winK : Pipeline.WinFacts₀ specK := winFacts₀11
theorem block_posK : ∀ w : Fin nW, 0 < (specK w).block.numel := block_pos11
theorem arr_wholeK : ∀ w : Fin nW, (specK w).arr.IsWhole := arr_whole11
theorem stage_wholeK : ∀ (w : Fin nW) (s : Fin (specK w).nbuf), ((specK w).stage s).IsWhole := stage_whole11

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.Kernel.Hand.Reg11

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R11' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (11 : Fin 24) c = dat11 (V61 m outs c) c)
    (hbody : ∀ c : Dev nD, Pipeline.BodyObligationLoose (dat11 (Ix := Ix) (U := U) (Lvl := Lvl) (V61 m outs c) c) (defs₀ (F := F)) 𝒱₀ ι Set.univ) :
    RegionSeg (pcfgs (F := F)) GenP.adm pdats ι defs₀ 𝒱₀ L lv (11 : Fin 24) :=
  Reg11.RK 𝒱₀ L lv ι pdats (fun c => V61 m outs c)
    (fun c => by rw [hp c]; exact hbody c)
    (fun c w => by rw [hp c]; exact A_eq11 (V61 m outs c) c w)
    (fun c => by rw [hp c]; rw [q11_1, q11_2]; exact PosShare.mem_left_op_right fullShare)
    (fun c => by rw [hp c]; rw [q11_3, q11_4]; exact PosShare.mem_left_op_right fullShare)
    (fun c => by rw [hp c]; exact q11_0 (V61 m outs c) c)
    (fun c t => by rw [hp c]; rfl)
    (fun c => by rw [hp c]; rfl)
    (fun c => by rw [hp c, Phi_first11])
    (fun c => by rw [hp c]; exact Phi_last11 (V61 m outs c) c)

/-- It is entered from the thread state before the region's item, -/
theorem hpre11' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (11 : Fin 24) c = dat11 (V61 m outs c) c)
    (hbody : ∀ c : Dev nD, Pipeline.BodyObligationLoose (dat11 (Ix := Ix) (U := U) (Lvl := Lvl) (V61 m outs c) c) (defs₀ (F := F)) 𝒱₀ ι Set.univ)
    (c : Dev nD) :
    iprop(StableHlo.held (c : Thread nD τ) (Pipeline.ucRefs τ sig) (V61 m outs c) ∗ (R c : sProp 𝕄))
      ⊢ (R11' m outs 𝒱₀ L lv ι pdats hp hbody).pre c := .rfl

/-- and left at the thread state after it. -/
theorem hpost11' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (11 : Fin 24) c = dat11 (V61 m outs c) c)
    (hbody : ∀ c : Dev nD, Pipeline.BodyObligationLoose (dat11 (Ix := Ix) (U := U) (Lvl := Lvl) (V61 m outs c) c) (defs₀ (F := F)) 𝒱₀ ι Set.univ)
    (houts : ∀ c : Dev nD, outs 62 main_v370 c = (dat11 (Ix := Ix) (U := U) (Lvl := Lvl) (V61 m outs c) c).arrAt 5 64)
    (c : Dev nD) :
    (R11' m outs 𝒱₀ L lv ι pdats hp hbody).post c
      ⊢ iprop(StableHlo.held (c : Thread nD τ) (Pipeline.ucRefs τ sig) (V62 m outs c) ∗ (R c : sProp 𝕄)) := by
  have h : (pdats (11 : Fin 24) c).arrAt Reg11.oK Reg11.cfgK.N = outs 62 main_v370 c := by
    rw [hp c]; exact (houts c).symm
  show iprop(StableHlo.held (c : Thread nD τ) (Pipeline.ucRefs τ sig)
      (Function.update (V61 m outs c) (Proc.devRef .tc main_v370) ((pdats (11 : Fin 24) c).arrAt Reg11.oK Reg11.cfgK.N))
        ∗ (R c : sProp 𝕄)) ⊢ _
  rw [h]

end Cert.Kernel.Hand
-- ==== Proof.K_Rg12.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_SumLib
import Idealize.ShloMosaic.Lib.Tactic
import proofs.«169706_j68856915690108_1_alg».proof.Proof.K_Shared
import proofs.«169706_j68856915690108_1_alg».proof.Proof.RegionsK

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k12_pay2)

  and only at the last point, 63, is that cell copied into the 1 × 1 output block, which the pipeline then writes back.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk12 (V : Valuation τ sig (Elt F)) (c : Dev nD) (w : Fin cfg12.W) (t : Fin cfg12.N) :
    ((cfg12.win w).xblock (cfg12.grid.coords t)).Idx → Elt F (cfg12.win w).elt :=
  ((cfg12.win w).blk t).view.read (Elt F)
    (V (Proc.devRef .tc (Pipeline.arrRef spec12 w)) : Buf (Elt F) ((cfg12.win w).arr.view.loc (c.tc : Thread nD τ)))

/-- One point's step on the scratch cell: the cell's contents `a` plus the sum of the tile made of the two blocks
    the point stages (the printed payload of the store into the scratch cell). -/
noncomputable def step12 (V : Valuation τ sig (Elt F)) (c : Dev nD) (n : ℕ) (hn : n < cfg12.N) (a : Vec F S1x1 .f32) : Vec F S1x1 .f32 :=
  k12_pay2 (iblk12 V c 0 ⟨n, hn⟩) (iblk12 V c 1 ⟨n, hn⟩) a

/-- What the scratch cell holds after point `n`: the steps of the points `0 … n` applied, first to last, to the
    zero the body stores at point 0. -/
noncomputable def acc12 (V : Valuation τ sig (Elt F)) (c : Dev nD) : (n : ℕ) → n < cfg12.N → Vec F S1x1 .f32
  | 0, hn => step12 V c 0 hn (k12_pay1 (F := F))
  | n + 1, hn => step12 V c (n + 1) hn (acc12 V c n (Nat.lt_of_succ_lt hn))

theorem acc12_zero (V : Valuation τ sig (Elt F)) (c : Dev nD) (hn : 0 < cfg12.N) :
    acc12 V c 0 hn = step12 V c 0 hn (k12_pay1 (F := F)) := rfl

theorem acc12_succ (V : Valuation τ sig (Elt F)) (c : Dev nD) (n : ℕ) (hn : n + 1 < cfg12.N) :
    acc12 V c (n + 1) hn = step12 V c (n + 1) hn (acc12 V c n (Nat.lt_of_succ_lt hn)) := rfl

/-- After a point that is not the first: the step of that point on what the point before left. -/
theorem acc12_pos (V : Valuation τ sig (Elt F)) (c : Dev nD) (n : ℕ) (hn : n < cfg12.N) (hz : n ≠ 0) :
    acc12 V c n hn = step12 V c n hn (acc12 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi12 (V : Valuation τ sig (Elt F)) (c : Dev nD) : (n : ℕ) → n ≤ cfg12.N → sProp 𝕄
  | 0, _ => Pipeline.scopedRest (Ix := Ix) (Name := ℕ) (U := U) (Lvl := Lvl) (Val := Elt F) spec12 c
  | n + 1, hn => iprop(owns (c : Thread nD τ) (Memref.whole cc12_scratch0) fullShare (acc12 V c n hn)
      ∗ Pipeline.scopedRestBut (Ix := Ix) (Name := ℕ) (U := U) (Lvl := Lvl) (Val := Elt F) spec12 c [cc12_scratch0])

theorem Phi12_zero (V : Valuation τ sig (Elt F)) (c : Dev nD) (n : ℕ) (h : n ≤ cfg12.N) (hz : n = 0) :
    (Phi12 V c n h : sProp 𝕄) = Pipeline.scopedRest (Ix := Ix) (Name := ℕ) (U := U) (Lvl := Lvl) (Val := Elt F) spec12 c := by
  subst hz; rfl

theorem Phi12_succ (V : Valuation τ sig (Elt F)) (c : Dev nD) (n : ℕ) (hn : n < cfg12.N) :
    (Phi12 V c (n + 1) hn : sProp 𝕄) = iprop(owns (c : Thread nD τ) (Memref.whole cc12_scratch0) fullShare (acc12 V c n hn)
      ∗ Pipeline.scopedRestBut (Ix := Ix) (Name := ℕ) (U := U) (Lvl := Lvl) (Val := Elt F) spec12 c [cc12_scratch0]) := rfl

theorem Phi12_pos (V : Valuation τ sig (Elt F)) (c : Dev nD) (n : ℕ) (h : n ≤ cfg12.N) (hz : n ≠ 0) :
    (Phi12 V c n h : sProp 𝕄) = iprop(owns (c : Thread nD τ) (Memref.whole cc12_scratch0) fullShare (acc12 V c (n - 1) (by omega))
      ∗ Pipeline.scopedRestBut (Ix := Ix) (Name := ℕ) (U := U) (Lvl := Lvl) (Val := Elt F) spec12 c [cc12_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi12`; the one
    array the two inputs read held half and half; nothing owed. -/
noncomputable def dat12 (V : Valuation τ sig (Elt F)) (c : Dev nD) : Dat τ (Elt F) Ix ℕ U Lvl cfg12 c where
  A w := V (Proc.devRef .tc (Pipeline.arrRef spec12 w))
  after w t := match w with
    | ⟨0, _⟩ => iblk12 V c 0 t
    | ⟨1, _⟩ => iblk12 V c 1 t
    | ⟨2, _⟩ => acc12 V c t.val t.isLt
  Φ t := Phi12 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq12 (V : Valuation τ sig (Elt F)) (c : Dev nD) (w : Fin cfg12.W) :
    (dat12 (Ix := Ix) (U := U) (Lvl := Lvl) V c).A w = V (Proc.devRef .tc (Pipeline.arrRef spec12 w)) := by
  dsimp only [dat12]

/-- What the body leaves, window by window. -/
theorem after12_0 (V : Valuation τ sig (Elt F)) (c : Dev nD) (t : Fin cfg12.N) :
    (dat12 (Ix := Ix) (U := U) (Lvl := Lvl) V c).after 0 t = iblk12 V c 0 t := by dsimp only [dat12]
theorem after12_1 (V : Valuation τ sig (Elt F)) (c : Dev nD) (t : Fin cfg12.N) :
    (dat12 (Ix := Ix) (U := U) (Lvl := Lvl) V c).after 1 t = iblk12 V c 1 t := by dsimp only [dat12]
theorem after12_2 (V : Valuation τ sig (Elt F)) (c : Dev nD) (t : Fin cfg12.N) :
    (dat12 (Ix := Ix) (U := U) (Lvl := Lvl) V c).after 2 t = acc12 V c t.val t.isLt := by dsimp only [dat12]

/-- The invariant at a point's start, and at its end. -/
theorem Phi12_castSucc (V : Valuation τ sig (Elt F)) (c : Dev nD) (t : Fin cfg12.N) :
    (dat12 (Ix := Ix) (U := U) (Lvl := Lvl) V c).Φ t.castSucc = Phi12 V c t.val (Nat.le_of_lt t.isLt) := by
  dsimp only [dat12]; simp only [Fin.coe_castSucc]

theorem Phi12_at_succ (V : Valuation τ sig (Elt F)) (c : Dev nD) (t : Fin cfg12.N) :
    (dat12 (Ix := Ix) (U := U) (Lvl := Lvl) V c).Φ t.succ = Phi12 V c (t.val + 1) t.isLt := rfl

/-- Before the first point the invariant is the launch's scoped rest. -/
theorem Phi_first12 (V : Valuation τ sig (Elt F)) (c : Dev nD) :
    (dat12 (Ix := Ix) (U := U) (Lvl := Lvl) V c).Φ 0
      = Pipeline.scopedRest (Ix := Ix) (Name := ℕ) (U := U) (Lvl := Lvl) (Val := Elt F) spec12 c := rfl

/-- After the last point the invariant gives the scoped rest back: the scratch cell's contents are forgotten. -/
theorem Phi_last12 (V : Valuation τ sig (Elt F)) (c : Dev nD) :
    (dat12 (Ix := Ix) (U := U) (Lvl := Lvl) V c).Φ (Fin.last cfg12.N)
      ⊢ Pipeline.scopedRest (Ix := Ix) (Name := ℕ) (U := U) (Lvl := Lvl) (Val := Elt F) spec12 c := by
  have hN : cfg12.N = 64 := N_12
  rw [show (dat12 (Ix := Ix) (U := U) (Lvl := Lvl) V c).Φ (Fin.last cfg12.N) = Phi12 V c (Fin.last cfg12.N).val (Nat.le_of_lt_succ (Fin.last cfg12.N).isLt) from rfl,
    Phi12_pos V c _ _ (by rw [Fin.val_last]; omega), scopedRest12_split, owns_whole]
  iintro ⟨Hs, Hr⟩
  isplitl [Hs]
  · iexists _; iexact Hs
  iexact Hr

example (V : Valuation τ sig (Elt F)) (c : Dev nD) : Dat τ (Elt F) Ix ℕ U Lvl (cfgs 12) c := dat12 V c

end Cert.Kernel.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k12_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond12_1 (i : grid12.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond12_2 (i : grid12.Coords) : Prop := k12_cond2 i = 1#1

/-- The reset runs at the first point only, -/
theorem hcond12_1 : ∀ t : Fin cfg12.N, cond12_1 (grid12.coords t) ↔ t.val = 0 :=
  (by decide +kernel : ∀ t : Fin grid12.N, cond12_1 (grid12.coords t) ↔ t.val = 0)
/-- the copy at the last point only. -/
theorem hcond12_2 : ∀ t : Fin cfg12.N, cond12_2 (grid12.coords t) ↔ t.val = 63 :=
  (by decide +kernel : ∀ t : Fin grid12.N, cond12_2 (grid12.coords t) ↔ t.val = 63)

/-! ## The body, case by case, on any whole memrefs -/

/-- The first point: the scratch cell, at anything, is reset and then holds the first step on zero. -/
theorem run12_A (𝒱₀ : Variants) (c : Dev nD) (i : grid12.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond12_1 i) (hc2 : ¬cond12_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k12_pay2 x2 x3 (k12_pay1 (F := F)))) -∗ K ⟨⟩))
      ⊢ wp frame (wpE (defs₀ (F := F)) 𝒱₀ c none) E (cc12__sum_kernel i arg2 harg2 arg3 harg3 arg4 harg4 arg5 harg5) K := by
  simp only [cc12__sum_kernel_eq_skeleton]; unfold cc12__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run12_A.sl.v15 run12_A.sl.H5_1
  rw [readCov_whole _ zeros2, readAt_whole _ _ zeros2, readAt_whole _ _ zeros2]

/-- A point strictly between the first and the last: the scratch cell at `a` takes the point's step. -/
theorem run12_B (𝒱₀ : Variants) (c : Dev nD) (i : grid12.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond12_1 i) (hc2 : ¬cond12_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k12_pay2 x2 x3 a)) -∗ K ⟨⟩))
      ⊢ wp frame (wpE (defs₀ (F := F)) 𝒱₀ c none) E (cc12__sum_kernel i arg2 harg2 arg3 harg3 arg4 harg4 arg5 harg5) K := by
  simp only [cc12__sum_kernel_eq_skeleton]; unfold cc12__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run12_C (𝒱₀ : Variants) (c : Dev nD) (i : grid12.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond12_1 i) (hc2 : cond12_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k12_pay2 x2 x3 a) ∗ owns (c : Thread nD τ) arg5 fullShare (k12_pay2 x2 x3 a)) -∗ K ⟨⟩))
      ⊢ wp frame (wpE (defs₀ (F := F)) 𝒱₀ c none) E (cc12__sum_kernel i arg2 harg2 arg3 harg3 arg4 harg4 arg5 harg5) K := by
  simp only [cc12__sum_kernel_eq_skeleton]; unfold cc12__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run12_C.sl.v25 run12_C.sl.H5_1
    rw [readCov_whole _ zeros2, readAt_whole _ _ zeros2, readAt_whole _ _ zeros2, readAt_whole _ _ zeros2]
  iexists _; isplitr
  swap; · iexact H5
  ipureintro
  unfold run12_C.sl.H5_1
  rw [read_writes_whole _ _ zeros2, readAt_whole _ _ zeros2, readAt_whole _ _ zeros2, readAt_whole _ _ zeros2]

end Cert.Kernel.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle12_2 : ∀ t : Fin cfg12.N, cfg12.idle 2 (grid12.coords t) = true ↔ t.val ≠ 63 :=
  (by decide +kernel : ∀ t : Fin grid12.N, idle12 2 (grid12.coords t) = true ↔ t.val ≠ 63)
/-- and written back at the last point only. -/
theorem flush12_2' : ∀ t : Fin cfg12.N, (cfg12.win 2).flush t = true ↔ t.val = 63 :=
  (by decide +kernel : ∀ t : Fin grid12.N, win12_2.flush t = true ↔ t.val = 63)

/-! ## What the body finds in the inputs' buffers -/

/-- Each input's current staging buffer holds its block at every point, fetched there or not: unfetched, the block
    index has not moved and the body left the block in place. -/
theorem before12_0 (V : Valuation τ sig (Elt F)) (c : Dev nD) (t : Fin cfg12.N) (d) :
    (dat12 (Ix := Ix) (U := U) (Lvl := Lvl) V c).before 0 t d = iblk12 V c 0 t :=
  ((dat12 (Ix := Ix) (U := U) (Lvl := Lvl) V c).before_in_eq_fetched 0 rfl (fun _ => rfl) (fun _ _ _ => rfl)
      (fun t => by rw [after12_0]; unfold Dat.blockOf iblk12; rw [A_eq12]; try rfl) t d).trans
    (by unfold Dat.fetched Dat.blockOf iblk12; rw [A_eq12]; try rfl)

theorem before12_1 (V : Valuation τ sig (Elt F)) (c : Dev nD) (t : Fin cfg12.N) (d) :
    (dat12 (Ix := Ix) (U := U) (Lvl := Lvl) V c).before 1 t d = iblk12 V c 1 t :=
  ((dat12 (Ix := Ix) (U := U) (Lvl := Lvl) V c).before_in_eq_fetched 1 rfl (fun _ => rfl) (fun _ _ _ => rfl)
      (fun t => by rw [after12_1]; unfold Dat.blockOf iblk12; rw [A_eq12]; try rfl) t d).trans
    (by unfold Dat.fetched Dat.blockOf iblk12; rw [A_eq12]; try rfl)

/-! ## What the obligation asks of each window's buffer after the body -/

/-- The inputs are never idle: their buffers are handed back at their blocks. -/
theorem leaves12_0 (V : Valuation τ sig (Elt F)) (c : Dev nD) (t : Fin cfg12.N) :
    (dat12 (Ix := Ix) (U := U) (Lvl := Lvl) V c).leaves 0 t = owns (c : Thread nD τ) (st12_0 t) fullShare (iblk12 V c 0 t) := by
  rw [← after12_0 (Ix := Ix) (U := U) (Lvl := Lvl) V c t]

theorem leaves12_1 (V : Valuation τ sig (Elt F)) (c : Dev nD) (t : Fin cfg12.N) :
    (dat12 (Ix := Ix) (U := U) (Lvl := Lvl) V c).leaves 1 t = owns (c : Thread nD τ) (st12_1 t) fullShare (iblk12 V c 1 t) := by
  rw [← after12_1 (Ix := Ix) (U := U) (Lvl := Lvl) V c t]

/-- The output is idle, and not written back, at every point but the last: its buffer is handed back as found; -/
theorem leaves12_2_idle (V : Valuation τ sig (Elt F)) (c : Dev nD) (t : Fin cfg12.N) (h : t.val ≠ 63) :
    (dat12 (Ix := Ix) (U := U) (Lvl := Lvl) V c).leaves 2 t
      = iprop(∃ d, owns (c : Thread nD τ) (st12_2 t) fullShare ((dat12 (Ix := Ix) (U := U) (Lvl := Lvl) V c).before 2 t d)) :=
  (dat12 (Ix := Ix) (U := U) (Lvl := Lvl) V c).leaves_idle 2 t ((idle12_2 t).mpr h)
    (Bool.eq_false_iff.mpr fun hf => h ((flush12_2' t).mp hf))

/-- at the last point it is handed back at the accumulated sum. -/
theorem leaves12_2_last (V : Valuation τ sig (Elt F)) (c : Dev nD) (t : Fin cfg12.N) (h : t.val = 63) :
    (dat12 (Ix := Ix) (U := U) (Lvl := Lvl) V c).leaves 2 t = owns (c : Thread nD τ) (st12_2 t) fullShare (acc12 V c t.val t.isLt) := by
  have hl : cfg12.idle 2 (grid12.coords t) = false := by
    cases hi : cfg12.idle 2 (grid12.coords t) with
    | false => rfl
    | true => exact absurd h ((idle12_2 t).mp hi)
  rw [← after12_2 (Ix := Ix) (U := U) (Lvl := Lvl) V c t]
  unfold Dat.leaves; rw [hl]

/-- One step at a point, through the point itself. -/
theorem step12_at (V : Valuation τ sig (Elt F)) (c : Dev nD) (t : Fin cfg12.N) (a : Vec F S1x1 .f32) :
    step12 V c t.val t.isLt a = k12_pay2 (iblk12 V c 0 t) (iblk12 V c 1 t) a := rfl

theorem acc12_first (V : Valuation τ sig (Elt F)) (c : Dev nD) (n : ℕ) (hn : n < cfg12.N) (hz : n = 0) :
    acc12 V c n hn = step12 V c n hn (k12_pay1 (F := F)) := by
  subst hz; rfl

/-! ## The body obligation -/

/-- What the body is called with at point `t` (the obligation's precondition, the windows one by one), -/
noncomputable def bodyPre12 (V : Valuation τ sig (Elt F)) (ι : Ix) (c : Dev nD) (t : Fin cfg12.N) : sProp 𝕄 :=
  iprop((dat12 (Ix := Ix) (U := U) (Lvl := Lvl) V c).Φ t.castSucc ∗ (dat12 (Ix := Ix) (U := U) (Lvl := Lvl) V c).owesAt ι t.castSucc
    ∗ (∃ d, owns (c : Thread nD τ) (st12_0 t) fullShare ((dat12 (Ix := Ix) (U := U) (Lvl := Lvl) V c).before 0 t d))
    ∗ (∃ d, owns (c : Thread nD τ) (st12_1 t) fullShare ((dat12 (Ix := Ix) (U := U) (Lvl := Lvl) V c).before 1 t d))
    ∗ (∃ d, owns (c : Thread nD τ) (st12_2 t) fullShare ((dat12 (Ix := Ix) (U := U) (Lvl := Lvl) V c).before 2 t d)))

/-- and what it returns. -/
noncomputable def bodyPost12 (V : Valuation τ sig (Elt F)) (ι : Ix) (c : Dev nD) (t : Fin cfg12.N) : sProp 𝕄 :=
  iprop((dat12 (Ix := Ix) (U := U) (Lvl := Lvl) V c).Φ t.succ ∗ (dat12 (Ix := Ix) (U := U) (Lvl := Lvl) V c).owesAt ι t.succ
    ∗ (dat12 (Ix := Ix) (U := U) (Lvl := Lvl) V c).leaves 0 t ∗ (dat12 (Ix := Ix) (U := U) (Lvl := Lvl) V c).leaves 1 t ∗ (dat12 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body12 (V : Valuation τ sig (Elt F)) (𝒱₀ : Variants) (ι : Ix) (c : Dev nD) (t : Fin cfg12.N) :
    bodyPre12 (U := U) (Lvl := Lvl) V ι c t
      ⊢ wp frame (wpE (defs₀ (F := F)) 𝒱₀ c none) Set.univ (bodyAt12 t) (fun _ => bodyPost12 (U := U) (Lvl := Lvl) V ι c t) := by
  unfold bodyPre12 bodyPost12 bodyAt12
  simp only [before12_0, before12_1]
  rw [show (dat12 (Ix := Ix) (U := U) (Lvl := Lvl) V c).owesAt ι t.succ = (dat12 (Ix := Ix) (U := U) (Lvl := Lvl) V c).owesAt ι t.castSucc from rfl]
  rw [Phi12_at_succ, Phi12_succ, Phi12_castSucc, leaves12_0, leaves12_1]
  have hN : t.val < 64 := lt_of_lt_of_eq t.isLt N_12
  by_cases hz : t.val = 0
  · have hc1 : cond12_1 (grid12.coords t) := (hcond12_1 t).mpr hz
    have hc2 : ¬cond12_2 (grid12.coords t) := fun h => by have := (hcond12_2 t).mp h; omega
    rw [leaves12_2_idle V c t (by omega), Phi12_zero V c _ _ hz, scopedRest12_split, acc12_first V c _ _ hz, step12_at]
    iintro ⟨⟨⟨%f, Hs⟩, Hr⟩, Ho, ⟨%d0, H0⟩, ⟨%d1, H1⟩, H2⟩
    iapply (run12_A 𝒱₀ c (grid12.coords t) _ _ _ _ _ _ _ _ hc1 hc2 (iblk12 V c 0 t) (iblk12 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond12_1 (grid12.coords t) := fun h => hz ((hcond12_1 t).mp h)
    rw [Phi12_pos V c _ _ hz, acc12_pos V c _ _ hz, step12_at]
    by_cases hl : t.val = 63
    · have hc2 : cond12_2 (grid12.coords t) := (hcond12_2 t).mpr hl
      rw [leaves12_2_last V c t hl, acc12_pos V c _ _ hz, step12_at]
      iintro ⟨⟨Hs, Hr⟩, Ho, ⟨%d0, H0⟩, ⟨%d1, H1⟩, ⟨%d2, H2⟩⟩
      iapply (run12_C 𝒱₀ c (grid12.coords t) _ _ _ _ _ _ _ _ hc1 hc2 (iblk12 V c 0 t) (iblk12 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond12_2 (grid12.coords t) := fun h => hl ((hcond12_2 t).mp h)
      rw [leaves12_2_idle V c t hl]
      iintro ⟨⟨Hs, Hr⟩, Ho, ⟨%d0, H0⟩, ⟨%d1, H1⟩, H2⟩
      iapply (run12_B 𝒱₀ c (grid12.coords t) _ _ _ _ _ _ _ _ hc1 hc2 (iblk12 V c 0 t) (iblk12 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body12 (V : Valuation τ sig (Elt F)) (𝒱₀ : Variants) (ι : Ix) :
    ∀ c : Dev nD, BodyObligationLoose (dat12 (Ix := Ix) (U := U) (Lvl := Lvl) V c) (defs₀ (F := F)) 𝒱₀ ι Set.univ := fun c t => by
  rw [bigSep_W12, bigSep_W12]
  exact sound_body12 (U := U) (Lvl := Lvl) V 𝒱₀ ι c t

end Cert.Kernel.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg12

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (12 : Fin 24)
/-- Its configuration, its windows but for their index maps, the number of its windows. -/
abbrev cfgK : Pipeline.Cfg sig Λ₀ := cfg12
abbrev specK : Fin 3 → Pipeline.WinSpec sig cfgK.grid.rank := spec12
abbrev nW : Nat := 3
/-- Its output window and the buffer behind it. -/
abbrev oK : Fin nW := 2
abbrev outK : Ref sig .tc := main_v439
theorem winK : Pipeline.WinFacts₀ specK := winFacts₀12
theorem block_posK : ∀ w : Fin nW, 0 < (specK w).block.numel := block_pos12
theorem arr_wholeK : ∀ w : Fin nW, (specK w).arr.IsWhole := arr_whole12
theorem stage_wholeK : ∀ (w : Fin nW) (s : Fin (specK w).nbuf), ((specK w).stage s).IsWhole := stage_whole12

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.Kernel.Hand.Reg12

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R12' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (12 : Fin 24) c = dat12 (V70 m outs c) c)
    (hbody : ∀ c : Dev nD, Pipeline.BodyObligationLoose (dat12 (Ix := Ix) (U := U) (Lvl := Lvl) (V70 m outs c) c) (defs₀ (F := F)) 𝒱₀ ι Set.univ) :
    RegionSeg (pcfgs (F := F)) GenP.adm pdats ι defs₀ 𝒱₀ L lv (12 : Fin 24) :=
  Reg12.RK 𝒱₀ L lv ι pdats (fun c => V70 m outs c)
    (fun c => by rw [hp c]; exact hbody c)
    (fun c w => by rw [hp c]; exact A_eq12 (V70 m outs c) c w)
    (fun c => by rw [hp c]; exact PosShare.mem_left_op_right fullShare)
    (fun c t => by rw [hp c]; rfl)
    (fun c => by rw [hp c]; rfl)
    (fun c => by rw [hp c, Phi_first12])
    (fun c => by rw [hp c]; exact Phi_last12 (V70 m outs c) c)

/-- It is entered from the thread state before the region's item, -/
theorem hpre12' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (12 : Fin 24) c = dat12 (V70 m outs c) c)
    (hbody : ∀ c : Dev nD, Pipeline.BodyObligationLoose (dat12 (Ix := Ix) (U := U) (Lvl := Lvl) (V70 m outs c) c) (defs₀ (F := F)) 𝒱₀ ι Set.univ)
    (c : Dev nD) :
    iprop(StableHlo.held (c : Thread nD τ) (Pipeline.ucRefs τ sig) (V70 m outs c) ∗ (R c : sProp 𝕄))
      ⊢ (R12' m outs 𝒱₀ L lv ι pdats hp hbody).pre c := .rfl

/-- and left at the thread state after it. -/
theorem hpost12' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (12 : Fin 24) c = dat12 (V70 m outs c) c)
    (hbody : ∀ c : Dev nD, Pipeline.BodyObligationLoose (dat12 (Ix := Ix) (U := U) (Lvl := Lvl) (V70 m outs c) c) (defs₀ (F := F)) 𝒱₀ ι Set.univ)
    (houts : ∀ c : Dev nD, outs 71 main_v439 c = (dat12 (Ix := Ix) (U := U) (Lvl := Lvl) (V70 m outs c) c).arrAt 2 64)
    (c : Dev nD) :
    (R12' m outs 𝒱₀ L lv ι pdats hp hbody).post c
      ⊢ iprop(StableHlo.held (c : Thread nD τ) (Pipeline.ucRefs τ sig) (V71 m outs c) ∗ (R c : sProp 𝕄)) := by
  have h : (pdats (12 : Fin 24) c).arrAt Reg12.oK Reg12.cfgK.N = outs 71 main_v439 c := by
    rw [hp c]; exact (houts c).symm
  show iprop(StableHlo.held (c : Thread nD τ) (Pipeline.ucRefs τ sig)
      (Function.update (V70 m outs c) (Proc.devRef .tc main_v439) ((pdats (12 : Fin 24) c).arrAt Reg12.oK Reg12.cfgK.N))
        ∗ (R c : sProp 𝕄)) ⊢ _
  rw [h]

end Cert.Kernel.Hand
-- ==== Proof.K_Rg13.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_ApplyLib
import proofs.«169706_j68856915690108_1_alg».proof.Proof.K_Shared
import proofs.«169706_j68856915690108_1_alg».proof.Proof.RegionsK

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k13_pay1 x_i` and `step t a = k13_pay2 h_i h_j threshold x_j a`, the printed payloads of the two stores.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk13 (V : Valuation τ sig (Elt F)) (c : Dev nD) (w : Fin cfg13.W) (t : Fin cfg13.N) :
    ((cfg13.win w).xblock (cfg13.grid.coords t)).Idx → Elt F (cfg13.win w).elt :=
  ((cfg13.win w).blk t).view.read (Elt F)
    (V (Proc.devRef .tc (Pipeline.arrRef spec13 w)) : Buf (Elt F) ((cfg13.win w).arr.view.loc (c.tc : Thread nD τ)))

/-- What the accumulator is reset to at a point whose second coordinate is 0: 1.0 times the block of `x` window 3
    stages there (the printed payload of the first store into the scratch buffer). -/
noncomputable def init13 (V : Valuation τ sig (Elt F)) (c : Dev nD) (n : ℕ) (hn : n < cfg13.N) : Vec F S512x256 .f32 :=
  k13_pay1 (iblk13 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step13 (V : Valuation τ sig (Elt F)) (c : Dev nD) (n : ℕ) (hn : n < cfg13.N) (a : Vec F S512x256 .f32) : Vec F S512x256 .f32 :=
  k13_pay2 (iblk13 V c 1 ⟨n, hn⟩) (iblk13 V c 2 ⟨n, hn⟩) (iblk13 V c 0 ⟨n, hn⟩) (iblk13 V c 4 ⟨n, hn⟩) a

/-- What the accumulator holds after point `n`: reset and stepped at the points ≡ 0 (mod 8), stepped from what the
    point before left at the others. -/
noncomputable def acc13 (V : Valuation τ sig (Elt F)) (c : Dev nD) : (n : ℕ) → n < cfg13.N → Vec F S512x256 .f32
  | 0, hn => step13 V c 0 hn (init13 V c 0 hn)
  | n + 1, hn =>
    if (n + 1) % 8 = 0 then step13 V c (n + 1) hn (init13 V c (n + 1) hn)
    else step13 V c (n + 1) hn (acc13 V c n (Nat.lt_of_succ_lt hn))

/-- After a point ≡ 0 (mod 8): the reset value, stepped once. -/
theorem acc13_reset (V : Valuation τ sig (Elt F)) (c : Dev nD) (n : ℕ) (hn : n < cfg13.N) (h0 : n % 8 = 0) :
    acc13 V c n hn = step13 V c n hn (init13 V c n hn) := by
  cases n with
  | zero => rfl
  | succ n => exact if_pos h0

/-- After any other point: that point's step on what the point before left. -/
theorem acc13_step (V : Valuation τ sig (Elt F)) (c : Dev nD) (n : ℕ) (hn : n < cfg13.N) (h0 : ¬n % 8 = 0) :
    acc13 V c n hn = step13 V c n hn (acc13 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi13 (V : Valuation τ sig (Elt F)) (c : Dev nD) : (n : ℕ) → n ≤ cfg13.N → sProp 𝕄
  | 0, _ => Pipeline.scopedRest (Ix := Ix) (Name := ℕ) (U := U) (Lvl := Lvl) (Val := Elt F) spec13 c
  | n + 1, hn => iprop(owns (c : Thread nD τ) (Memref.whole cc13_scratch0) fullShare (acc13 V c n hn)
      ∗ Pipeline.scopedRestBut (Ix := Ix) (Name := ℕ) (U := U) (Lvl := Lvl) (Val := Elt F) spec13 c [cc13_scratch0])

theorem Phi13_zero (V : Valuation τ sig (Elt F)) (c : Dev nD) (n : ℕ) (h : n ≤ cfg13.N) (hz : n = 0) :
    (Phi13 V c n h : sProp 𝕄) = Pipeline.scopedRest (Ix := Ix) (Name := ℕ) (U := U) (Lvl := Lvl) (Val := Elt F) spec13 c := by
  subst hz; rfl

theorem Phi13_succ (V : Valuation τ sig (Elt F)) (c : Dev nD) (n : ℕ) (hn : n < cfg13.N) :
    (Phi13 V c (n + 1) hn : sProp 𝕄) = iprop(owns (c : Thread nD τ) (Memref.whole cc13_scratch0) fullShare (acc13 V c n hn)
      ∗ Pipeline.scopedRestBut (Ix := Ix) (Name := ℕ) (U := U) (Lvl := Lvl) (Val := Elt F) spec13 c [cc13_scratch0]) := rfl

theorem Phi13_pos (V : Valuation τ sig (Elt F)) (c : Dev nD) (n : ℕ) (h : n ≤ cfg13.N) (hz : n ≠ 0) :
    (Phi13 V c n h : sProp 𝕄) = iprop(owns (c : Thread nD τ) (Memref.whole cc13_scratch0) fullShare (acc13 V c (n - 1) (by omega))
      ∗ Pipeline.scopedRestBut (Ix := Ix) (Name := ℕ) (U := U) (Lvl := Lvl) (Val := Elt F) spec13 c [cc13_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi13`; the
    threshold's array held whole, each of the two arrays that two input windows read held half and half; nothing owed. -/
noncomputable def dat13 (V : Valuation τ sig (Elt F)) (c : Dev nD) : Dat τ (Elt F) Ix ℕ U Lvl cfg13 c where
  A w := V (Proc.devRef .tc (Pipeline.arrRef spec13 w))
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => acc13 V c t.val t.isLt
  Φ t := Phi13 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq13 (V : Valuation τ sig (Elt F)) (c : Dev nD) (w : Fin cfg13.W) :
    (dat13 (Ix := Ix) (U := U) (Lvl := Lvl) V c).A w = V (Proc.devRef .tc (Pipeline.arrRef spec13 w)) := by
  dsimp only [dat13]

/-- What the body leaves, window by window. -/
theorem after13_0 (V : Valuation τ sig (Elt F)) (c : Dev nD) (t : Fin cfg13.N) :
    (dat13 (Ix := Ix) (U := U) (Lvl := Lvl) V c).after 0 t = iblk13 V c 0 t := by dsimp only [dat13]
theorem after13_1 (V : Valuation τ sig (Elt F)) (c : Dev nD) (t : Fin cfg13.N) :
    (dat13 (Ix := Ix) (U := U) (Lvl := Lvl) V c).after 1 t = iblk13 V c 1 t := by dsimp only [dat13]
theorem after13_2 (V : Valuation τ sig (Elt F)) (c : Dev nD) (t : Fin cfg13.N) :
    (dat13 (Ix := Ix) (U := U) (Lvl := Lvl) V c).after 2 t = iblk13 V c 2 t := by dsimp only [dat13]
theorem after13_3 (V : Valuation τ sig (Elt F)) (c : Dev nD) (t : Fin cfg13.N) :
    (dat13 (Ix := Ix) (U := U) (Lvl := Lvl) V c).after 3 t = iblk13 V c 3 t := by dsimp only [dat13]
theorem after13_4 (V : Valuation τ sig (Elt F)) (c : Dev nD) (t : Fin cfg13.N) :
    (dat13 (Ix := Ix) (U := U) (Lvl := Lvl) V c).after 4 t = iblk13 V c 4 t := by dsimp only [dat13]
theorem after13_5 (V : Valuation τ sig (Elt F)) (c : Dev nD) (t : Fin cfg13.N) :
    (dat13 (Ix := Ix) (U := U) (Lvl := Lvl) V c).after 5 t = acc13 V c t.val t.isLt := by dsimp only [dat13]

/-- The shares the input arrays are held at. -/
theorem q13_0 (V : Valuation τ sig (Elt F)) (c : Dev nD) : (dat13 (Ix := Ix) (U := U) (Lvl := Lvl) V c).q 0 = fullShare := by dsimp only [dat13]
theorem q13_1 (V : Valuation τ sig (Elt F)) (c : Dev nD) : (dat13 (Ix := Ix) (U := U) (Lvl := Lvl) V c).q 1 = fullShare.left := by dsimp only [dat13]
theorem q13_2 (V : Valuation τ sig (Elt F)) (c : Dev nD) : (dat13 (Ix := Ix) (U := U) (Lvl := Lvl) V c).q 2 = fullShare.right := by dsimp only [dat13]
theorem q13_3 (V : Valuation τ sig (Elt F)) (c : Dev nD) : (dat13 (Ix := Ix) (U := U) (Lvl := Lvl) V c).q 3 = fullShare.left := by dsimp only [dat13]
theorem q13_4 (V : Valuation τ sig (Elt F)) (c : Dev nD) : (dat13 (Ix := Ix) (U := U) (Lvl := Lvl) V c).q 4 = fullShare.right := by dsimp only [dat13]

/-- The invariant at a point's start, and at its end. -/
theorem Phi13_castSucc (V : Valuation τ sig (Elt F)) (c : Dev nD) (t : Fin cfg13.N) :
    (dat13 (Ix := Ix) (U := U) (Lvl := Lvl) V c).Φ t.castSucc = Phi13 V c t.val (Nat.le_of_lt t.isLt) := by
  dsimp only [dat13]; simp only [Fin.coe_castSucc]

theorem Phi13_at_succ (V : Valuation τ sig (Elt F)) (c : Dev nD) (t : Fin cfg13.N) :
    (dat13 (Ix := Ix) (U := U) (Lvl := Lvl) V c).Φ t.succ = Phi13 V c (t.val + 1) t.isLt := rfl

/-- Before the first point the invariant is the launch's scoped rest. -/
theorem Phi_first13 (V : Valuation τ sig (Elt F)) (c : Dev nD) :
    (dat13 (Ix := Ix) (U := U) (Lvl := Lvl) V c).Φ 0
      = Pipeline.scopedRest (Ix := Ix) (Name := ℕ) (U := U) (Lvl := Lvl) (Val := Elt F) spec13 c := rfl

/-- After the last point the invariant gives the scoped rest back: the accumulator's contents are forgotten. -/
theorem Phi_last13 (V : Valuation τ sig (Elt F)) (c : Dev nD) :
    (dat13 (Ix := Ix) (U := U) (Lvl := Lvl) V c).Φ (Fin.last cfg13.N)
      ⊢ Pipeline.scopedRest (Ix := Ix) (Name := ℕ) (U := U) (Lvl := Lvl) (Val := Elt F) spec13 c := by
  have hN : cfg13.N = 64 := N_13
  rw [show (dat13 (Ix := Ix) (U := U) (Lvl := Lvl) V c).Φ (Fin.last cfg13.N) = Phi13 V c (Fin.last cfg13.N).val (Nat.le_of_lt_succ (Fin.last cfg13.N).isLt) from rfl,
    Phi13_pos V c _ _ (by rw [Fin.val_last]; omega), scopedRest13_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 13) c := dat13 V c

end Cert.Kernel.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k13_pay2 hI hJ mn xJ s` — `s` plus the 0/1 mask of (hI · hJᵀ > mn) times `xJ` — and the value
  the accumulator is reset to is `k13_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond13_0 (i : grid13.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond13_1 (i : grid13.Coords) : Prop := k13_cond2 i = 1#1

/-! ## The three runs -/

/-- At a point whose second coordinate is 0 (and not 7): the accumulator, at anything, is reset to `k13_pay1 xI` and
    stepped once; every window's buffer is handed back as found. -/
theorem run13_first (𝒱₀ : Variants) (c : Dev nD) (i : grid13.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond13_0 i) (hc1 : ¬cond13_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k13_pay2 hI hJ mn xJ (k13_pay1 xI))) -∗ K ⟨⟩))
      ⊢ wp frame (wpE (defs₀ (F := F)) 𝒱₀ c none) E (cc13__apply_kernel i arg2 harg2 arg3 harg3 arg4 harg4 arg5 harg5 arg6 harg6 arg7 harg7 arg8 harg8) K := by
  simp only [cc13__apply_kernel_eq_skeleton]; unfold cc13__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run13_mid (𝒱₀ : Variants) (c : Dev nD) (i : grid13.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond13_0 i) (hc1 : ¬cond13_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k13_pay2 hI hJ mn xJ s)) -∗ K ⟨⟩))
      ⊢ wp frame (wpE (defs₀ (F := F)) 𝒱₀ c none) E (cc13__apply_kernel i arg2 harg2 arg3 harg3 arg4 harg4 arg5 harg5 arg6 harg6 arg7 harg7 arg8 harg8) K := by
  simp only [cc13__apply_kernel_eq_skeleton]; unfold cc13__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run13_last (𝒱₀ : Variants) (c : Dev nD) (i : grid13.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond13_0 i) (hc1 : cond13_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k13_pay2 hI hJ mn xJ s)
        ∗ owns (c : Thread nD τ) arg8 fullShare (k13_pay2 hI hJ mn xJ s)) -∗ K ⟨⟩))
      ⊢ wp frame (wpE (defs₀ (F := F)) 𝒱₀ c none) E (cc13__apply_kernel i arg2 harg2 arg3 harg3 arg4 harg4 arg5 harg5 arg6 harg6 arg7 harg7 arg8 harg8) K := by
  simp only [cc13__apply_kernel_eq_skeleton]; unfold cc13__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.Kernel.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc13`. The three control cases are
  decided over the grid by the point's residue mod 8, and in each the kernel's run (ApplyRun.lean) applies.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond13_0 : ∀ t : Fin cfg13.N, cond13_0 (grid13.coords t) ↔ t.val % 8 = 0 :=
  (by decide +kernel : ∀ t : Fin grid13.N, cond13_0 (grid13.coords t) ↔ t.val % 8 = 0)
/-- It is stored into the output block at the points ≡ 7 (mod 8). -/
theorem hcond13_1 : ∀ t : Fin cfg13.N, cond13_1 (grid13.coords t) ↔ t.val % 8 = 7 :=
  (by decide +kernel : ∀ t : Fin grid13.N, cond13_1 (grid13.coords t) ↔ t.val % 8 = 7)
/-- The output window is idle at every other point, -/
theorem idleAt13_5 : ∀ t : Fin cfg13.N, ¬t.val % 8 = 7 → cfg13.idle 5 (grid13.coords t) = true :=
  (by decide +kernel : ∀ t : Fin grid13.N, ¬t.val % 8 = 7 → cfg13.idle 5 (grid13.coords t) = true)
/-- live at those, -/
theorem liveAt13_5 : ∀ t : Fin cfg13.N, t.val % 8 = 7 → cfg13.idle 5 (grid13.coords t) = false :=
  (by decide +kernel : ∀ t : Fin grid13.N, t.val % 8 = 7 → cfg13.idle 5 (grid13.coords t) = false)
/-- and not written back where it is idle. -/
theorem noFlush13_5 (t : Fin cfg13.N) (h : ¬t.val % 8 = 7) : (cfg13.win 5).flush t = false := by
  cases hf : (cfg13.win 5).flush t with
  | false => rfl
  | true => exact absurd ((flush13_5 t).mp hf) h

/-! ## What the body finds in the inputs' buffers and leaves in every buffer -/

/-- Each input's current staging buffer holds its block at every point, fetched there or not. -/
theorem before13_0 (V : Valuation τ sig (Elt F)) (c : Dev nD) (t : Fin cfg13.N) (d) : (dat13 (Ix := Ix) (U := U) (Lvl := Lvl) V c).before 0 t d = iblk13 V c 0 t :=
  ((dat13 (Ix := Ix) (U := U) (Lvl := Lvl) V c).before_in_eq_fetched 0 rfl (fun _ => rfl) (fun _ _ _ => rfl)
      (fun t => by rw [after13_0]; unfold Dat.blockOf iblk13; rw [A_eq13]; try rfl) t d).trans
    (by unfold Dat.fetched Dat.blockOf iblk13; rw [A_eq13]; try rfl)
theorem before13_1 (V : Valuation τ sig (Elt F)) (c : Dev nD) (t : Fin cfg13.N) (d) : (dat13 (Ix := Ix) (U := U) (Lvl := Lvl) V c).before 1 t d = iblk13 V c 1 t :=
  ((dat13 (Ix := Ix) (U := U) (Lvl := Lvl) V c).before_in_eq_fetched 1 rfl (fun _ => rfl) (fun _ _ _ => rfl)
      (fun t => by rw [after13_1]; unfold Dat.blockOf iblk13; rw [A_eq13]; try rfl) t d).trans
    (by unfold Dat.fetched Dat.blockOf iblk13; rw [A_eq13]; try rfl)
theorem before13_2 (V : Valuation τ sig (Elt F)) (c : Dev nD) (t : Fin cfg13.N) (d) : (dat13 (Ix := Ix) (U := U) (Lvl := Lvl) V c).before 2 t d = iblk13 V c 2 t :=
  ((dat13 (Ix := Ix) (U := U) (Lvl := Lvl) V c).before_in_eq_fetched 2 rfl (fun _ => rfl) (fun _ _ _ => rfl)
      (fun t => by rw [after13_2]; unfold Dat.blockOf iblk13; rw [A_eq13]; try rfl) t d).trans
    (by unfold Dat.fetched Dat.blockOf iblk13; rw [A_eq13]; try rfl)
theorem before13_3 (V : Valuation τ sig (Elt F)) (c : Dev nD) (t : Fin cfg13.N) (d) : (dat13 (Ix := Ix) (U := U) (Lvl := Lvl) V c).before 3 t d = iblk13 V c 3 t :=
  ((dat13 (Ix := Ix) (U := U) (Lvl := Lvl) V c).before_in_eq_fetched 3 rfl (fun _ => rfl) (fun _ _ _ => rfl)
      (fun t => by rw [after13_3]; unfold Dat.blockOf iblk13; rw [A_eq13]; try rfl) t d).trans
    (by unfold Dat.fetched Dat.blockOf iblk13; rw [A_eq13]; try rfl)
theorem before13_4 (V : Valuation τ sig (Elt F)) (c : Dev nD) (t : Fin cfg13.N) (d) : (dat13 (Ix := Ix) (U := U) (Lvl := Lvl) V c).before 4 t d = iblk13 V c 4 t :=
  ((dat13 (Ix := Ix) (U := U) (Lvl := Lvl) V c).before_in_eq_fetched 4 rfl (fun _ => rfl) (fun _ _ _ => rfl)
      (fun t => by rw [after13_4]; unfold Dat.blockOf iblk13; rw [A_eq13]; try rfl) t d).trans
    (by unfold Dat.fetched Dat.blockOf iblk13; rw [A_eq13]; try rfl)

/-! ## The body obligation, at a generic point -/

/-- What the body is called with at point `t` (the obligation's precondition, the windows one by one), -/
noncomputable def bodyPre13 (V : Valuation τ sig (Elt F)) (c : Dev nD) (ι : Ix) (t : Fin cfg13.N) : sProp 𝕄 :=
  iprop((dat13 (Ix := Ix) (U := U) (Lvl := Lvl) V c).Φ t.castSucc ∗ (dat13 (Ix := Ix) (U := U) (Lvl := Lvl) V c).owesAt ι t.castSucc
    ∗ (∃ d, owns (c : Thread nD τ) (st13_0 t) fullShare ((dat13 (Ix := Ix) (U := U) (Lvl := Lvl) V c).before 0 t d))
    ∗ (∃ d, owns (c : Thread nD τ) (st13_1 t) fullShare ((dat13 (Ix := Ix) (U := U) (Lvl := Lvl) V c).before 1 t d))
    ∗ (∃ d, owns (c : Thread nD τ) (st13_2 t) fullShare ((dat13 (Ix := Ix) (U := U) (Lvl := Lvl) V c).before 2 t d))
    ∗ (∃ d, owns (c : Thread nD τ) (st13_3 t) fullShare ((dat13 (Ix := Ix) (U := U) (Lvl := Lvl) V c).before 3 t d))
    ∗ (∃ d, owns (c : Thread nD τ) (st13_4 t) fullShare ((dat13 (Ix := Ix) (U := U) (Lvl := Lvl) V c).before 4 t d))
    ∗ (∃ d, owns (c : Thread nD τ) (st13_5 t) fullShare ((dat13 (Ix := Ix) (U := U) (Lvl := Lvl) V c).before 5 t d)))

/-- and what it returns. -/
noncomputable def bodyPost13 (V : Valuation τ sig (Elt F)) (c : Dev nD) (ι : Ix) (t : Fin cfg13.N) : sProp 𝕄 :=
  iprop((dat13 (Ix := Ix) (U := U) (Lvl := Lvl) V c).Φ t.succ ∗ (dat13 (Ix := Ix) (U := U) (Lvl := Lvl) V c).owesAt ι t.succ
    ∗ (dat13 (Ix := Ix) (U := U) (Lvl := Lvl) V c).leaves 0 t ∗ (dat13 (Ix := Ix) (U := U) (Lvl := Lvl) V c).leaves 1 t ∗ (dat13 (Ix := Ix) (U := U) (Lvl := Lvl) V c).leaves 2 t
    ∗ (dat13 (Ix := Ix) (U := U) (Lvl := Lvl) V c).leaves 3 t ∗ (dat13 (Ix := Ix) (U := U) (Lvl := Lvl) V c).leaves 4 t ∗ (dat13 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body13 (𝒱₀ : Variants) (ι : Ix) (V : Valuation τ sig (Elt F)) (c : Dev nD) (t : Fin cfg13.N) :
    bodyPre13 (Ix := Ix) (U := U) (Lvl := Lvl) V c ι t ⊢ wp frame (wpE (defs₀ (F := F)) 𝒱₀ c none) Set.univ (bodyAt13 t) (fun _ => bodyPost13 (Ix := Ix) (U := U) (Lvl := Lvl) V c ι t) := by
  unfold bodyPre13 bodyPost13 bodyAt13
  simp only [before13_0, before13_1, before13_2, before13_3, before13_4]
  rw [show (dat13 (Ix := Ix) (U := U) (Lvl := Lvl) V c).owesAt ι t.succ = (dat13 (Ix := Ix) (U := U) (Lvl := Lvl) V c).owesAt ι t.castSucc from rfl]
  rw [Phi13_at_succ, Phi13_succ, Phi13_castSucc]
  rw [leaves_live (dat13 (Ix := Ix) (U := U) (Lvl := Lvl) V c) 0 t rfl rfl, leaves_live (dat13 (Ix := Ix) (U := U) (Lvl := Lvl) V c) 1 t rfl rfl, leaves_live (dat13 (Ix := Ix) (U := U) (Lvl := Lvl) V c) 2 t rfl rfl,
    leaves_live (dat13 (Ix := Ix) (U := U) (Lvl := Lvl) V c) 3 t rfl rfl, leaves_live (dat13 (Ix := Ix) (U := U) (Lvl := Lvl) V c) 4 t rfl rfl, after13_0, after13_1, after13_2, after13_3, after13_4]
  have hN : t.val < 64 := lt_of_lt_of_eq t.isLt (show cfg13.N = 64 from N_13)
  by_cases h0 : t.val % 8 = 0
  · have h7 : ¬t.val % 8 = 7 := by omega
    rw [Dat.leaves_idle (dat13 (Ix := Ix) (U := U) (Lvl := Lvl) V c) 5 t (idleAt13_5 t h7) (noFlush13_5 t h7)]
    rw [acc13_reset V c t.val t.isLt h0]
    unfold step13 init13
    by_cases hz : t.val = 0
    · rw [Phi13_zero V c _ _ hz, scopedRest13_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run13_first 𝒱₀ c (grid13.coords t) _ _ _ _ _ _ _ _ _ _ _ _ _ _ ((hcond13_0 t).mpr h0) (fun h => h7 ((hcond13_1 t).mp h)) (iblk13 V c 0 t) (iblk13 V c 1 t) (iblk13 V c 2 t) (iblk13 V c 3 t) (iblk13 V c 4 t) ((dat13 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi13_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run13_first 𝒱₀ c (grid13.coords t) _ _ _ _ _ _ _ _ _ _ _ _ _ _ ((hcond13_0 t).mpr h0) (fun h => h7 ((hcond13_1 t).mp h)) (iblk13 V c 0 t) (iblk13 V c 1 t) (iblk13 V c 2 t) (iblk13 V c 3 t) (iblk13 V c 4 t) ((dat13 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc13_step V c t.val t.isLt h0, Phi13_pos V c _ _ hz]
    unfold step13
    by_cases h7 : t.val % 8 = 7
    · rw [leaves_live (dat13 (Ix := Ix) (U := U) (Lvl := Lvl) V c) 5 t (liveAt13_5 t h7) rfl, after13_5, acc13_step V c t.val t.isLt h0]
      unfold step13
      iintro ⟨⟨HS, Hr⟩, Ho, ⟨%d0, H0⟩, ⟨%d1, H1⟩, ⟨%d2, H2⟩, ⟨%d3, H3⟩, ⟨%d4, H4⟩, ⟨%d5, H5⟩⟩
      iapply (run13_last 𝒱₀ c (grid13.coords t) _ _ _ _ _ _ _ _ _ _ _ _ _ _ (fun h => h0 ((hcond13_0 t).mp h)) ((hcond13_1 t).mpr h7) (iblk13 V c 0 t) (iblk13 V c 1 t) (iblk13 V c 2 t) (iblk13 V c 3 t) (iblk13 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat13 (Ix := Ix) (U := U) (Lvl := Lvl) V c) 5 t (idleAt13_5 t h7) (noFlush13_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run13_mid 𝒱₀ c (grid13.coords t) _ _ _ _ _ _ _ _ _ _ _ _ _ _ (fun h => h0 ((hcond13_0 t).mp h)) (fun h => h7 ((hcond13_1 t).mp h)) (iblk13 V c 0 t) (iblk13 V c 1 t) (iblk13 V c 2 t) (iblk13 V c 3 t) (iblk13 V c 4 t) ((dat13 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation13 (𝒱₀ : Variants) (ι : Ix) (V : Valuation τ sig (Elt F)) (c : Dev nD) :
    BodyObligationLoose (dat13 (Ix := Ix) (U := U) (Lvl := Lvl) V c) (defs₀ (F := F)) 𝒱₀ ι Set.univ := fun t => by
  rw [bigSep_W13, bigSep_W13]
  exact sound_body13 𝒱₀ ι V c t

/-- The same at the type the program's family of configurations gives pipeline 1, on every core. -/
theorem body13 (𝒱₀ : Variants) (ι : Ix) (V : Valuation τ sig (Elt F)) :
    ∀ c : Dev nD, BodyObligationLoose (cfg := cfgs 13) (dat13 (Ix := Ix) (U := U) (Lvl := Lvl) V c) (defs₀ (F := F)) 𝒱₀ ι Set.univ :=
  fun c => body_obligation13 𝒱₀ ι V c

end Cert.Kernel.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg13

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (13 : Fin 24)
/-- Its configuration, its windows but for their index maps, the number of its windows. -/
abbrev cfgK : Pipeline.Cfg sig Λ₀ := cfg13
abbrev specK : Fin 6 → Pipeline.WinSpec sig cfgK.grid.rank := spec13
abbrev nW : Nat := 6
/-- Its output window and the buffer behind it. -/
abbrev oK : Fin nW := 5
abbrev outK : Ref sig .tc := main_v442
theorem winK : Pipeline.WinFacts₀ specK := winFacts₀13
theorem block_posK : ∀ w : Fin nW, 0 < (specK w).block.numel := block_pos13
theorem arr_wholeK : ∀ w : Fin nW, (specK w).arr.IsWhole := arr_whole13
theorem stage_wholeK : ∀ (w : Fin nW) (s : Fin (specK w).nbuf), ((specK w).stage s).IsWhole := stage_whole13

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.Kernel.Hand.Reg13

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R13' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (13 : Fin 24) c = dat13 (V72 m outs c) c)
    (hbody : ∀ c : Dev nD, Pipeline.BodyObligationLoose (dat13 (Ix := Ix) (U := U) (Lvl := Lvl) (V72 m outs c) c) (defs₀ (F := F)) 𝒱₀ ι Set.univ) :
    RegionSeg (pcfgs (F := F)) GenP.adm pdats ι defs₀ 𝒱₀ L lv (13 : Fin 24) :=
  Reg13.RK 𝒱₀ L lv ι pdats (fun c => V72 m outs c)
    (fun c => by rw [hp c]; exact hbody c)
    (fun c w => by rw [hp c]; exact A_eq13 (V72 m outs c) c w)
    (fun c => by rw [hp c]; rw [q13_1, q13_2]; exact PosShare.mem_left_op_right fullShare)
    (fun c => by rw [hp c]; rw [q13_3, q13_4]; exact PosShare.mem_left_op_right fullShare)
    (fun c => by rw [hp c]; exact q13_0 (V72 m outs c) c)
    (fun c t => by rw [hp c]; rfl)
    (fun c => by rw [hp c]; rfl)
    (fun c => by rw [hp c, Phi_first13])
    (fun c => by rw [hp c]; exact Phi_last13 (V72 m outs c) c)

/-- It is entered from the thread state before the region's item, -/
theorem hpre13' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (13 : Fin 24) c = dat13 (V72 m outs c) c)
    (hbody : ∀ c : Dev nD, Pipeline.BodyObligationLoose (dat13 (Ix := Ix) (U := U) (Lvl := Lvl) (V72 m outs c) c) (defs₀ (F := F)) 𝒱₀ ι Set.univ)
    (c : Dev nD) :
    iprop(StableHlo.held (c : Thread nD τ) (Pipeline.ucRefs τ sig) (V72 m outs c) ∗ (R c : sProp 𝕄))
      ⊢ (R13' m outs 𝒱₀ L lv ι pdats hp hbody).pre c := .rfl

/-- and left at the thread state after it. -/
theorem hpost13' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (13 : Fin 24) c = dat13 (V72 m outs c) c)
    (hbody : ∀ c : Dev nD, Pipeline.BodyObligationLoose (dat13 (Ix := Ix) (U := U) (Lvl := Lvl) (V72 m outs c) c) (defs₀ (F := F)) 𝒱₀ ι Set.univ)
    (houts : ∀ c : Dev nD, outs 73 main_v442 c = (dat13 (Ix := Ix) (U := U) (Lvl := Lvl) (V72 m outs c) c).arrAt 5 64)
    (c : Dev nD) :
    (R13' m outs 𝒱₀ L lv ι pdats hp hbody).post c
      ⊢ iprop(StableHlo.held (c : Thread nD τ) (Pipeline.ucRefs τ sig) (V73 m outs c) ∗ (R c : sProp 𝕄)) := by
  have h : (pdats (13 : Fin 24) c).arrAt Reg13.oK Reg13.cfgK.N = outs 73 main_v442 c := by
    rw [hp c]; exact (houts c).symm
  show iprop(StableHlo.held (c : Thread nD τ) (Pipeline.ucRefs τ sig)
      (Function.update (V72 m outs c) (Proc.devRef .tc main_v442) ((pdats (13 : Fin 24) c).arrAt Reg13.oK Reg13.cfgK.N))
        ∗ (R c : sProp 𝕄)) ⊢ _
  rw [h]

end Cert.Kernel.Hand
-- ==== Proof.K_Rg14.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_SumLib
import Idealize.ShloMosaic.Lib.Tactic
import proofs.«169706_j68856915690108_1_alg».proof.Proof.K_Shared
import proofs.«169706_j68856915690108_1_alg».proof.Proof.RegionsK

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k14_pay2)

  and only at the last point, 63, is that cell copied into the 1 × 1 output block, which the pipeline then writes back.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk14 (V : Valuation τ sig (Elt F)) (c : Dev nD) (w : Fin cfg14.W) (t : Fin cfg14.N) :
    ((cfg14.win w).xblock (cfg14.grid.coords t)).Idx → Elt F (cfg14.win w).elt :=
  ((cfg14.win w).blk t).view.read (Elt F)
    (V (Proc.devRef .tc (Pipeline.arrRef spec14 w)) : Buf (Elt F) ((cfg14.win w).arr.view.loc (c.tc : Thread nD τ)))

/-- One point's step on the scratch cell: the cell's contents `a` plus the sum of the tile made of the two blocks
    the point stages (the printed payload of the store into the scratch cell). -/
noncomputable def step14 (V : Valuation τ sig (Elt F)) (c : Dev nD) (n : ℕ) (hn : n < cfg14.N) (a : Vec F S1x1 .f32) : Vec F S1x1 .f32 :=
  k14_pay2 (iblk14 V c 0 ⟨n, hn⟩) (iblk14 V c 1 ⟨n, hn⟩) a

/-- What the scratch cell holds after point `n`: the steps of the points `0 … n` applied, first to last, to the
    zero the body stores at point 0. -/
noncomputable def acc14 (V : Valuation τ sig (Elt F)) (c : Dev nD) : (n : ℕ) → n < cfg14.N → Vec F S1x1 .f32
  | 0, hn => step14 V c 0 hn (k14_pay1 (F := F))
  | n + 1, hn => step14 V c (n + 1) hn (acc14 V c n (Nat.lt_of_succ_lt hn))

theorem acc14_zero (V : Valuation τ sig (Elt F)) (c : Dev nD) (hn : 0 < cfg14.N) :
    acc14 V c 0 hn = step14 V c 0 hn (k14_pay1 (F := F)) := rfl

theorem acc14_succ (V : Valuation τ sig (Elt F)) (c : Dev nD) (n : ℕ) (hn : n + 1 < cfg14.N) :
    acc14 V c (n + 1) hn = step14 V c (n + 1) hn (acc14 V c n (Nat.lt_of_succ_lt hn)) := rfl

/-- After a point that is not the first: the step of that point on what the point before left. -/
theorem acc14_pos (V : Valuation τ sig (Elt F)) (c : Dev nD) (n : ℕ) (hn : n < cfg14.N) (hz : n ≠ 0) :
    acc14 V c n hn = step14 V c n hn (acc14 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi14 (V : Valuation τ sig (Elt F)) (c : Dev nD) : (n : ℕ) → n ≤ cfg14.N → sProp 𝕄
  | 0, _ => Pipeline.scopedRest (Ix := Ix) (Name := ℕ) (U := U) (Lvl := Lvl) (Val := Elt F) spec14 c
  | n + 1, hn => iprop(owns (c : Thread nD τ) (Memref.whole cc14_scratch0) fullShare (acc14 V c n hn)
      ∗ Pipeline.scopedRestBut (Ix := Ix) (Name := ℕ) (U := U) (Lvl := Lvl) (Val := Elt F) spec14 c [cc14_scratch0])

theorem Phi14_zero (V : Valuation τ sig (Elt F)) (c : Dev nD) (n : ℕ) (h : n ≤ cfg14.N) (hz : n = 0) :
    (Phi14 V c n h : sProp 𝕄) = Pipeline.scopedRest (Ix := Ix) (Name := ℕ) (U := U) (Lvl := Lvl) (Val := Elt F) spec14 c := by
  subst hz; rfl

theorem Phi14_succ (V : Valuation τ sig (Elt F)) (c : Dev nD) (n : ℕ) (hn : n < cfg14.N) :
    (Phi14 V c (n + 1) hn : sProp 𝕄) = iprop(owns (c : Thread nD τ) (Memref.whole cc14_scratch0) fullShare (acc14 V c n hn)
      ∗ Pipeline.scopedRestBut (Ix := Ix) (Name := ℕ) (U := U) (Lvl := Lvl) (Val := Elt F) spec14 c [cc14_scratch0]) := rfl

theorem Phi14_pos (V : Valuation τ sig (Elt F)) (c : Dev nD) (n : ℕ) (h : n ≤ cfg14.N) (hz : n ≠ 0) :
    (Phi14 V c n h : sProp 𝕄) = iprop(owns (c : Thread nD τ) (Memref.whole cc14_scratch0) fullShare (acc14 V c (n - 1) (by omega))
      ∗ Pipeline.scopedRestBut (Ix := Ix) (Name := ℕ) (U := U) (Lvl := Lvl) (Val := Elt F) spec14 c [cc14_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi14`; the one
    array the two inputs read held half and half; nothing owed. -/
noncomputable def dat14 (V : Valuation τ sig (Elt F)) (c : Dev nD) : Dat τ (Elt F) Ix ℕ U Lvl cfg14 c where
  A w := V (Proc.devRef .tc (Pipeline.arrRef spec14 w))
  after w t := match w with
    | ⟨0, _⟩ => iblk14 V c 0 t
    | ⟨1, _⟩ => iblk14 V c 1 t
    | ⟨2, _⟩ => acc14 V c t.val t.isLt
  Φ t := Phi14 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq14 (V : Valuation τ sig (Elt F)) (c : Dev nD) (w : Fin cfg14.W) :
    (dat14 (Ix := Ix) (U := U) (Lvl := Lvl) V c).A w = V (Proc.devRef .tc (Pipeline.arrRef spec14 w)) := by
  dsimp only [dat14]

/-- What the body leaves, window by window. -/
theorem after14_0 (V : Valuation τ sig (Elt F)) (c : Dev nD) (t : Fin cfg14.N) :
    (dat14 (Ix := Ix) (U := U) (Lvl := Lvl) V c).after 0 t = iblk14 V c 0 t := by dsimp only [dat14]
theorem after14_1 (V : Valuation τ sig (Elt F)) (c : Dev nD) (t : Fin cfg14.N) :
    (dat14 (Ix := Ix) (U := U) (Lvl := Lvl) V c).after 1 t = iblk14 V c 1 t := by dsimp only [dat14]
theorem after14_2 (V : Valuation τ sig (Elt F)) (c : Dev nD) (t : Fin cfg14.N) :
    (dat14 (Ix := Ix) (U := U) (Lvl := Lvl) V c).after 2 t = acc14 V c t.val t.isLt := by dsimp only [dat14]

/-- The invariant at a point's start, and at its end. -/
theorem Phi14_castSucc (V : Valuation τ sig (Elt F)) (c : Dev nD) (t : Fin cfg14.N) :
    (dat14 (Ix := Ix) (U := U) (Lvl := Lvl) V c).Φ t.castSucc = Phi14 V c t.val (Nat.le_of_lt t.isLt) := by
  dsimp only [dat14]; simp only [Fin.coe_castSucc]

theorem Phi14_at_succ (V : Valuation τ sig (Elt F)) (c : Dev nD) (t : Fin cfg14.N) :
    (dat14 (Ix := Ix) (U := U) (Lvl := Lvl) V c).Φ t.succ = Phi14 V c (t.val + 1) t.isLt := rfl

/-- Before the first point the invariant is the launch's scoped rest. -/
theorem Phi_first14 (V : Valuation τ sig (Elt F)) (c : Dev nD) :
    (dat14 (Ix := Ix) (U := U) (Lvl := Lvl) V c).Φ 0
      = Pipeline.scopedRest (Ix := Ix) (Name := ℕ) (U := U) (Lvl := Lvl) (Val := Elt F) spec14 c := rfl

/-- After the last point the invariant gives the scoped rest back: the scratch cell's contents are forgotten. -/
theorem Phi_last14 (V : Valuation τ sig (Elt F)) (c : Dev nD) :
    (dat14 (Ix := Ix) (U := U) (Lvl := Lvl) V c).Φ (Fin.last cfg14.N)
      ⊢ Pipeline.scopedRest (Ix := Ix) (Name := ℕ) (U := U) (Lvl := Lvl) (Val := Elt F) spec14 c := by
  have hN : cfg14.N = 64 := N_14
  rw [show (dat14 (Ix := Ix) (U := U) (Lvl := Lvl) V c).Φ (Fin.last cfg14.N) = Phi14 V c (Fin.last cfg14.N).val (Nat.le_of_lt_succ (Fin.last cfg14.N).isLt) from rfl,
    Phi14_pos V c _ _ (by rw [Fin.val_last]; omega), scopedRest14_split, owns_whole]
  iintro ⟨Hs, Hr⟩
  isplitl [Hs]
  · iexists _; iexact Hs
  iexact Hr

example (V : Valuation τ sig (Elt F)) (c : Dev nD) : Dat τ (Elt F) Ix ℕ U Lvl (cfgs 14) c := dat14 V c

end Cert.Kernel.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k14_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond14_1 (i : grid14.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond14_2 (i : grid14.Coords) : Prop := k14_cond2 i = 1#1

/-- The reset runs at the first point only, -/
theorem hcond14_1 : ∀ t : Fin cfg14.N, cond14_1 (grid14.coords t) ↔ t.val = 0 :=
  (by decide +kernel : ∀ t : Fin grid14.N, cond14_1 (grid14.coords t) ↔ t.val = 0)
/-- the copy at the last point only. -/
theorem hcond14_2 : ∀ t : Fin cfg14.N, cond14_2 (grid14.coords t) ↔ t.val = 63 :=
  (by decide +kernel : ∀ t : Fin grid14.N, cond14_2 (grid14.coords t) ↔ t.val = 63)

/-! ## The body, case by case, on any whole memrefs -/

/-- The first point: the scratch cell, at anything, is reset and then holds the first step on zero. -/
theorem run14_A (𝒱₀ : Variants) (c : Dev nD) (i : grid14.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond14_1 i) (hc2 : ¬cond14_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k14_pay2 x2 x3 (k14_pay1 (F := F)))) -∗ K ⟨⟩))
      ⊢ wp frame (wpE (defs₀ (F := F)) 𝒱₀ c none) E (cc14__sum_kernel i arg2 harg2 arg3 harg3 arg4 harg4 arg5 harg5) K := by
  simp only [cc14__sum_kernel_eq_skeleton]; unfold cc14__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run14_A.sl.v15 run14_A.sl.H5_1
  rw [readCov_whole _ zeros2, readAt_whole _ _ zeros2, readAt_whole _ _ zeros2]

/-- A point strictly between the first and the last: the scratch cell at `a` takes the point's step. -/
theorem run14_B (𝒱₀ : Variants) (c : Dev nD) (i : grid14.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond14_1 i) (hc2 : ¬cond14_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k14_pay2 x2 x3 a)) -∗ K ⟨⟩))
      ⊢ wp frame (wpE (defs₀ (F := F)) 𝒱₀ c none) E (cc14__sum_kernel i arg2 harg2 arg3 harg3 arg4 harg4 arg5 harg5) K := by
  simp only [cc14__sum_kernel_eq_skeleton]; unfold cc14__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run14_C (𝒱₀ : Variants) (c : Dev nD) (i : grid14.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond14_1 i) (hc2 : cond14_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k14_pay2 x2 x3 a) ∗ owns (c : Thread nD τ) arg5 fullShare (k14_pay2 x2 x3 a)) -∗ K ⟨⟩))
      ⊢ wp frame (wpE (defs₀ (F := F)) 𝒱₀ c none) E (cc14__sum_kernel i arg2 harg2 arg3 harg3 arg4 harg4 arg5 harg5) K := by
  simp only [cc14__sum_kernel_eq_skeleton]; unfold cc14__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run14_C.sl.v25 run14_C.sl.H5_1
    rw [readCov_whole _ zeros2, readAt_whole _ _ zeros2, readAt_whole _ _ zeros2, readAt_whole _ _ zeros2]
  iexists _; isplitr
  swap; · iexact H5
  ipureintro
  unfold run14_C.sl.H5_1
  rw [read_writes_whole _ _ zeros2, readAt_whole _ _ zeros2, readAt_whole _ _ zeros2, readAt_whole _ _ zeros2]

end Cert.Kernel.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle14_2 : ∀ t : Fin cfg14.N, cfg14.idle 2 (grid14.coords t) = true ↔ t.val ≠ 63 :=
  (by decide +kernel : ∀ t : Fin grid14.N, idle14 2 (grid14.coords t) = true ↔ t.val ≠ 63)
/-- and written back at the last point only. -/
theorem flush14_2' : ∀ t : Fin cfg14.N, (cfg14.win 2).flush t = true ↔ t.val = 63 :=
  (by decide +kernel : ∀ t : Fin grid14.N, win14_2.flush t = true ↔ t.val = 63)

/-! ## What the body finds in the inputs' buffers -/

/-- Each input's current staging buffer holds its block at every point, fetched there or not: unfetched, the block
    index has not moved and the body left the block in place. -/
theorem before14_0 (V : Valuation τ sig (Elt F)) (c : Dev nD) (t : Fin cfg14.N) (d) :
    (dat14 (Ix := Ix) (U := U) (Lvl := Lvl) V c).before 0 t d = iblk14 V c 0 t :=
  ((dat14 (Ix := Ix) (U := U) (Lvl := Lvl) V c).before_in_eq_fetched 0 rfl (fun _ => rfl) (fun _ _ _ => rfl)
      (fun t => by rw [after14_0]; unfold Dat.blockOf iblk14; rw [A_eq14]; try rfl) t d).trans
    (by unfold Dat.fetched Dat.blockOf iblk14; rw [A_eq14]; try rfl)

theorem before14_1 (V : Valuation τ sig (Elt F)) (c : Dev nD) (t : Fin cfg14.N) (d) :
    (dat14 (Ix := Ix) (U := U) (Lvl := Lvl) V c).before 1 t d = iblk14 V c 1 t :=
  ((dat14 (Ix := Ix) (U := U) (Lvl := Lvl) V c).before_in_eq_fetched 1 rfl (fun _ => rfl) (fun _ _ _ => rfl)
      (fun t => by rw [after14_1]; unfold Dat.blockOf iblk14; rw [A_eq14]; try rfl) t d).trans
    (by unfold Dat.fetched Dat.blockOf iblk14; rw [A_eq14]; try rfl)

/-! ## What the obligation asks of each window's buffer after the body -/

/-- The inputs are never idle: their buffers are handed back at their blocks. -/
theorem leaves14_0 (V : Valuation τ sig (Elt F)) (c : Dev nD) (t : Fin cfg14.N) :
    (dat14 (Ix := Ix) (U := U) (Lvl := Lvl) V c).leaves 0 t = owns (c : Thread nD τ) (st14_0 t) fullShare (iblk14 V c 0 t) := by
  rw [← after14_0 (Ix := Ix) (U := U) (Lvl := Lvl) V c t]

theorem leaves14_1 (V : Valuation τ sig (Elt F)) (c : Dev nD) (t : Fin cfg14.N) :
    (dat14 (Ix := Ix) (U := U) (Lvl := Lvl) V c).leaves 1 t = owns (c : Thread nD τ) (st14_1 t) fullShare (iblk14 V c 1 t) := by
  rw [← after14_1 (Ix := Ix) (U := U) (Lvl := Lvl) V c t]

/-- The output is idle, and not written back, at every point but the last: its buffer is handed back as found; -/
theorem leaves14_2_idle (V : Valuation τ sig (Elt F)) (c : Dev nD) (t : Fin cfg14.N) (h : t.val ≠ 63) :
    (dat14 (Ix := Ix) (U := U) (Lvl := Lvl) V c).leaves 2 t
      = iprop(∃ d, owns (c : Thread nD τ) (st14_2 t) fullShare ((dat14 (Ix := Ix) (U := U) (Lvl := Lvl) V c).before 2 t d)) :=
  (dat14 (Ix := Ix) (U := U) (Lvl := Lvl) V c).leaves_idle 2 t ((idle14_2 t).mpr h)
    (Bool.eq_false_iff.mpr fun hf => h ((flush14_2' t).mp hf))

/-- at the last point it is handed back at the accumulated sum. -/
theorem leaves14_2_last (V : Valuation τ sig (Elt F)) (c : Dev nD) (t : Fin cfg14.N) (h : t.val = 63) :
    (dat14 (Ix := Ix) (U := U) (Lvl := Lvl) V c).leaves 2 t = owns (c : Thread nD τ) (st14_2 t) fullShare (acc14 V c t.val t.isLt) := by
  have hl : cfg14.idle 2 (grid14.coords t) = false := by
    cases hi : cfg14.idle 2 (grid14.coords t) with
    | false => rfl
    | true => exact absurd h ((idle14_2 t).mp hi)
  rw [← after14_2 (Ix := Ix) (U := U) (Lvl := Lvl) V c t]
  unfold Dat.leaves; rw [hl]

/-- One step at a point, through the point itself. -/
theorem step14_at (V : Valuation τ sig (Elt F)) (c : Dev nD) (t : Fin cfg14.N) (a : Vec F S1x1 .f32) :
    step14 V c t.val t.isLt a = k14_pay2 (iblk14 V c 0 t) (iblk14 V c 1 t) a := rfl

theorem acc14_first (V : Valuation τ sig (Elt F)) (c : Dev nD) (n : ℕ) (hn : n < cfg14.N) (hz : n = 0) :
    acc14 V c n hn = step14 V c n hn (k14_pay1 (F := F)) := by
  subst hz; rfl

/-! ## The body obligation -/

/-- What the body is called with at point `t` (the obligation's precondition, the windows one by one), -/
noncomputable def bodyPre14 (V : Valuation τ sig (Elt F)) (ι : Ix) (c : Dev nD) (t : Fin cfg14.N) : sProp 𝕄 :=
  iprop((dat14 (Ix := Ix) (U := U) (Lvl := Lvl) V c).Φ t.castSucc ∗ (dat14 (Ix := Ix) (U := U) (Lvl := Lvl) V c).owesAt ι t.castSucc
    ∗ (∃ d, owns (c : Thread nD τ) (st14_0 t) fullShare ((dat14 (Ix := Ix) (U := U) (Lvl := Lvl) V c).before 0 t d))
    ∗ (∃ d, owns (c : Thread nD τ) (st14_1 t) fullShare ((dat14 (Ix := Ix) (U := U) (Lvl := Lvl) V c).before 1 t d))
    ∗ (∃ d, owns (c : Thread nD τ) (st14_2 t) fullShare ((dat14 (Ix := Ix) (U := U) (Lvl := Lvl) V c).before 2 t d)))

/-- and what it returns. -/
noncomputable def bodyPost14 (V : Valuation τ sig (Elt F)) (ι : Ix) (c : Dev nD) (t : Fin cfg14.N) : sProp 𝕄 :=
  iprop((dat14 (Ix := Ix) (U := U) (Lvl := Lvl) V c).Φ t.succ ∗ (dat14 (Ix := Ix) (U := U) (Lvl := Lvl) V c).owesAt ι t.succ
    ∗ (dat14 (Ix := Ix) (U := U) (Lvl := Lvl) V c).leaves 0 t ∗ (dat14 (Ix := Ix) (U := U) (Lvl := Lvl) V c).leaves 1 t ∗ (dat14 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body14 (V : Valuation τ sig (Elt F)) (𝒱₀ : Variants) (ι : Ix) (c : Dev nD) (t : Fin cfg14.N) :
    bodyPre14 (U := U) (Lvl := Lvl) V ι c t
      ⊢ wp frame (wpE (defs₀ (F := F)) 𝒱₀ c none) Set.univ (bodyAt14 t) (fun _ => bodyPost14 (U := U) (Lvl := Lvl) V ι c t) := by
  unfold bodyPre14 bodyPost14 bodyAt14
  simp only [before14_0, before14_1]
  rw [show (dat14 (Ix := Ix) (U := U) (Lvl := Lvl) V c).owesAt ι t.succ = (dat14 (Ix := Ix) (U := U) (Lvl := Lvl) V c).owesAt ι t.castSucc from rfl]
  rw [Phi14_at_succ, Phi14_succ, Phi14_castSucc, leaves14_0, leaves14_1]
  have hN : t.val < 64 := lt_of_lt_of_eq t.isLt N_14
  by_cases hz : t.val = 0
  · have hc1 : cond14_1 (grid14.coords t) := (hcond14_1 t).mpr hz
    have hc2 : ¬cond14_2 (grid14.coords t) := fun h => by have := (hcond14_2 t).mp h; omega
    rw [leaves14_2_idle V c t (by omega), Phi14_zero V c _ _ hz, scopedRest14_split, acc14_first V c _ _ hz, step14_at]
    iintro ⟨⟨⟨%f, Hs⟩, Hr⟩, Ho, ⟨%d0, H0⟩, ⟨%d1, H1⟩, H2⟩
    iapply (run14_A 𝒱₀ c (grid14.coords t) _ _ _ _ _ _ _ _ hc1 hc2 (iblk14 V c 0 t) (iblk14 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond14_1 (grid14.coords t) := fun h => hz ((hcond14_1 t).mp h)
    rw [Phi14_pos V c _ _ hz, acc14_pos V c _ _ hz, step14_at]
    by_cases hl : t.val = 63
    · have hc2 : cond14_2 (grid14.coords t) := (hcond14_2 t).mpr hl
      rw [leaves14_2_last V c t hl, acc14_pos V c _ _ hz, step14_at]
      iintro ⟨⟨Hs, Hr⟩, Ho, ⟨%d0, H0⟩, ⟨%d1, H1⟩, ⟨%d2, H2⟩⟩
      iapply (run14_C 𝒱₀ c (grid14.coords t) _ _ _ _ _ _ _ _ hc1 hc2 (iblk14 V c 0 t) (iblk14 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond14_2 (grid14.coords t) := fun h => hl ((hcond14_2 t).mp h)
      rw [leaves14_2_idle V c t hl]
      iintro ⟨⟨Hs, Hr⟩, Ho, ⟨%d0, H0⟩, ⟨%d1, H1⟩, H2⟩
      iapply (run14_B 𝒱₀ c (grid14.coords t) _ _ _ _ _ _ _ _ hc1 hc2 (iblk14 V c 0 t) (iblk14 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body14 (V : Valuation τ sig (Elt F)) (𝒱₀ : Variants) (ι : Ix) :
    ∀ c : Dev nD, BodyObligationLoose (dat14 (Ix := Ix) (U := U) (Lvl := Lvl) V c) (defs₀ (F := F)) 𝒱₀ ι Set.univ := fun c t => by
  rw [bigSep_W14, bigSep_W14]
  exact sound_body14 (U := U) (Lvl := Lvl) V 𝒱₀ ι c t

end Cert.Kernel.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg14

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (14 : Fin 24)
/-- Its configuration, its windows but for their index maps, the number of its windows. -/
abbrev cfgK : Pipeline.Cfg sig Λ₀ := cfg14
abbrev specK : Fin 3 → Pipeline.WinSpec sig cfgK.grid.rank := spec14
abbrev nW : Nat := 3
/-- Its output window and the buffer behind it. -/
abbrev oK : Fin nW := 2
abbrev outK : Ref sig .tc := main_v508
theorem winK : Pipeline.WinFacts₀ specK := winFacts₀14
theorem block_posK : ∀ w : Fin nW, 0 < (specK w).block.numel := block_pos14
theorem arr_wholeK : ∀ w : Fin nW, (specK w).arr.IsWhole := arr_whole14
theorem stage_wholeK : ∀ (w : Fin nW) (s : Fin (specK w).nbuf), ((specK w).stage s).IsWhole := stage_whole14

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.Kernel.Hand.Reg14

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R14' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (14 : Fin 24) c = dat14 (V81 m outs c) c)
    (hbody : ∀ c : Dev nD, Pipeline.BodyObligationLoose (dat14 (Ix := Ix) (U := U) (Lvl := Lvl) (V81 m outs c) c) (defs₀ (F := F)) 𝒱₀ ι Set.univ) :
    RegionSeg (pcfgs (F := F)) GenP.adm pdats ι defs₀ 𝒱₀ L lv (14 : Fin 24) :=
  Reg14.RK 𝒱₀ L lv ι pdats (fun c => V81 m outs c)
    (fun c => by rw [hp c]; exact hbody c)
    (fun c w => by rw [hp c]; exact A_eq14 (V81 m outs c) c w)
    (fun c => by rw [hp c]; exact PosShare.mem_left_op_right fullShare)
    (fun c t => by rw [hp c]; rfl)
    (fun c => by rw [hp c]; rfl)
    (fun c => by rw [hp c, Phi_first14])
    (fun c => by rw [hp c]; exact Phi_last14 (V81 m outs c) c)

/-- It is entered from the thread state before the region's item, -/
theorem hpre14' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (14 : Fin 24) c = dat14 (V81 m outs c) c)
    (hbody : ∀ c : Dev nD, Pipeline.BodyObligationLoose (dat14 (Ix := Ix) (U := U) (Lvl := Lvl) (V81 m outs c) c) (defs₀ (F := F)) 𝒱₀ ι Set.univ)
    (c : Dev nD) :
    iprop(StableHlo.held (c : Thread nD τ) (Pipeline.ucRefs τ sig) (V81 m outs c) ∗ (R c : sProp 𝕄))
      ⊢ (R14' m outs 𝒱₀ L lv ι pdats hp hbody).pre c := .rfl

/-- and left at the thread state after it. -/
theorem hpost14' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (14 : Fin 24) c = dat14 (V81 m outs c) c)
    (hbody : ∀ c : Dev nD, Pipeline.BodyObligationLoose (dat14 (Ix := Ix) (U := U) (Lvl := Lvl) (V81 m outs c) c) (defs₀ (F := F)) 𝒱₀ ι Set.univ)
    (houts : ∀ c : Dev nD, outs 82 main_v508 c = (dat14 (Ix := Ix) (U := U) (Lvl := Lvl) (V81 m outs c) c).arrAt 2 64)
    (c : Dev nD) :
    (R14' m outs 𝒱₀ L lv ι pdats hp hbody).post c
      ⊢ iprop(StableHlo.held (c : Thread nD τ) (Pipeline.ucRefs τ sig) (V82 m outs c) ∗ (R c : sProp 𝕄)) := by
  have h : (pdats (14 : Fin 24) c).arrAt Reg14.oK Reg14.cfgK.N = outs 82 main_v508 c := by
    rw [hp c]; exact (houts c).symm
  show iprop(StableHlo.held (c : Thread nD τ) (Pipeline.ucRefs τ sig)
      (Function.update (V81 m outs c) (Proc.devRef .tc main_v508) ((pdats (14 : Fin 24) c).arrAt Reg14.oK Reg14.cfgK.N))
        ∗ (R c : sProp 𝕄)) ⊢ _
  rw [h]

end Cert.Kernel.Hand
-- ==== Proof.K_Rg15.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_ApplyLib
import proofs.«169706_j68856915690108_1_alg».proof.Proof.K_Shared
import proofs.«169706_j68856915690108_1_alg».proof.Proof.RegionsK

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k15_pay1 x_i` and `step t a = k15_pay2 h_i h_j threshold x_j a`, the printed payloads of the two stores.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk15 (V : Valuation τ sig (Elt F)) (c : Dev nD) (w : Fin cfg15.W) (t : Fin cfg15.N) :
    ((cfg15.win w).xblock (cfg15.grid.coords t)).Idx → Elt F (cfg15.win w).elt :=
  ((cfg15.win w).blk t).view.read (Elt F)
    (V (Proc.devRef .tc (Pipeline.arrRef spec15 w)) : Buf (Elt F) ((cfg15.win w).arr.view.loc (c.tc : Thread nD τ)))

/-- What the accumulator is reset to at a point whose second coordinate is 0: 1.0 times the block of `x` window 3
    stages there (the printed payload of the first store into the scratch buffer). -/
noncomputable def init15 (V : Valuation τ sig (Elt F)) (c : Dev nD) (n : ℕ) (hn : n < cfg15.N) : Vec F S512x256 .f32 :=
  k15_pay1 (iblk15 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step15 (V : Valuation τ sig (Elt F)) (c : Dev nD) (n : ℕ) (hn : n < cfg15.N) (a : Vec F S512x256 .f32) : Vec F S512x256 .f32 :=
  k15_pay2 (iblk15 V c 1 ⟨n, hn⟩) (iblk15 V c 2 ⟨n, hn⟩) (iblk15 V c 0 ⟨n, hn⟩) (iblk15 V c 4 ⟨n, hn⟩) a

/-- What the accumulator holds after point `n`: reset and stepped at the points ≡ 0 (mod 8), stepped from what the
    point before left at the others. -/
noncomputable def acc15 (V : Valuation τ sig (Elt F)) (c : Dev nD) : (n : ℕ) → n < cfg15.N → Vec F S512x256 .f32
  | 0, hn => step15 V c 0 hn (init15 V c 0 hn)
  | n + 1, hn =>
    if (n + 1) % 8 = 0 then step15 V c (n + 1) hn (init15 V c (n + 1) hn)
    else step15 V c (n + 1) hn (acc15 V c n (Nat.lt_of_succ_lt hn))

/-- After a point ≡ 0 (mod 8): the reset value, stepped once. -/
theorem acc15_reset (V : Valuation τ sig (Elt F)) (c : Dev nD) (n : ℕ) (hn : n < cfg15.N) (h0 : n % 8 = 0) :
    acc15 V c n hn = step15 V c n hn (init15 V c n hn) := by
  cases n with
  | zero => rfl
  | succ n => exact if_pos h0

/-- After any other point: that point's step on what the point before left. -/
theorem acc15_step (V : Valuation τ sig (Elt F)) (c : Dev nD) (n : ℕ) (hn : n < cfg15.N) (h0 : ¬n % 8 = 0) :
    acc15 V c n hn = step15 V c n hn (acc15 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi15 (V : Valuation τ sig (Elt F)) (c : Dev nD) : (n : ℕ) → n ≤ cfg15.N → sProp 𝕄
  | 0, _ => Pipeline.scopedRest (Ix := Ix) (Name := ℕ) (U := U) (Lvl := Lvl) (Val := Elt F) spec15 c
  | n + 1, hn => iprop(owns (c : Thread nD τ) (Memref.whole cc15_scratch0) fullShare (acc15 V c n hn)
      ∗ Pipeline.scopedRestBut (Ix := Ix) (Name := ℕ) (U := U) (Lvl := Lvl) (Val := Elt F) spec15 c [cc15_scratch0])

theorem Phi15_zero (V : Valuation τ sig (Elt F)) (c : Dev nD) (n : ℕ) (h : n ≤ cfg15.N) (hz : n = 0) :
    (Phi15 V c n h : sProp 𝕄) = Pipeline.scopedRest (Ix := Ix) (Name := ℕ) (U := U) (Lvl := Lvl) (Val := Elt F) spec15 c := by
  subst hz; rfl

theorem Phi15_succ (V : Valuation τ sig (Elt F)) (c : Dev nD) (n : ℕ) (hn : n < cfg15.N) :
    (Phi15 V c (n + 1) hn : sProp 𝕄) = iprop(owns (c : Thread nD τ) (Memref.whole cc15_scratch0) fullShare (acc15 V c n hn)
      ∗ Pipeline.scopedRestBut (Ix := Ix) (Name := ℕ) (U := U) (Lvl := Lvl) (Val := Elt F) spec15 c [cc15_scratch0]) := rfl

theorem Phi15_pos (V : Valuation τ sig (Elt F)) (c : Dev nD) (n : ℕ) (h : n ≤ cfg15.N) (hz : n ≠ 0) :
    (Phi15 V c n h : sProp 𝕄) = iprop(owns (c : Thread nD τ) (Memref.whole cc15_scratch0) fullShare (acc15 V c (n - 1) (by omega))
      ∗ Pipeline.scopedRestBut (Ix := Ix) (Name := ℕ) (U := U) (Lvl := Lvl) (Val := Elt F) spec15 c [cc15_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi15`; the
    threshold's array held whole, each of the two arrays that two input windows read held half and half; nothing owed. -/
noncomputable def dat15 (V : Valuation τ sig (Elt F)) (c : Dev nD) : Dat τ (Elt F) Ix ℕ U Lvl cfg15 c where
  A w := V (Proc.devRef .tc (Pipeline.arrRef spec15 w))
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => acc15 V c t.val t.isLt
  Φ t := Phi15 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq15 (V : Valuation τ sig (Elt F)) (c : Dev nD) (w : Fin cfg15.W) :
    (dat15 (Ix := Ix) (U := U) (Lvl := Lvl) V c).A w = V (Proc.devRef .tc (Pipeline.arrRef spec15 w)) := by
  dsimp only [dat15]

/-- What the body leaves, window by window. -/
theorem after15_0 (V : Valuation τ sig (Elt F)) (c : Dev nD) (t : Fin cfg15.N) :
    (dat15 (Ix := Ix) (U := U) (Lvl := Lvl) V c).after 0 t = iblk15 V c 0 t := by dsimp only [dat15]
theorem after15_1 (V : Valuation τ sig (Elt F)) (c : Dev nD) (t : Fin cfg15.N) :
    (dat15 (Ix := Ix) (U := U) (Lvl := Lvl) V c).after 1 t = iblk15 V c 1 t := by dsimp only [dat15]
theorem after15_2 (V : Valuation τ sig (Elt F)) (c : Dev nD) (t : Fin cfg15.N) :
    (dat15 (Ix := Ix) (U := U) (Lvl := Lvl) V c).after 2 t = iblk15 V c 2 t := by dsimp only [dat15]
theorem after15_3 (V : Valuation τ sig (Elt F)) (c : Dev nD) (t : Fin cfg15.N) :
    (dat15 (Ix := Ix) (U := U) (Lvl := Lvl) V c).after 3 t = iblk15 V c 3 t := by dsimp only [dat15]
theorem after15_4 (V : Valuation τ sig (Elt F)) (c : Dev nD) (t : Fin cfg15.N) :
    (dat15 (Ix := Ix) (U := U) (Lvl := Lvl) V c).after 4 t = iblk15 V c 4 t := by dsimp only [dat15]
theorem after15_5 (V : Valuation τ sig (Elt F)) (c : Dev nD) (t : Fin cfg15.N) :
    (dat15 (Ix := Ix) (U := U) (Lvl := Lvl) V c).after 5 t = acc15 V c t.val t.isLt := by dsimp only [dat15]

/-- The shares the input arrays are held at. -/
theorem q15_0 (V : Valuation τ sig (Elt F)) (c : Dev nD) : (dat15 (Ix := Ix) (U := U) (Lvl := Lvl) V c).q 0 = fullShare := by dsimp only [dat15]
theorem q15_1 (V : Valuation τ sig (Elt F)) (c : Dev nD) : (dat15 (Ix := Ix) (U := U) (Lvl := Lvl) V c).q 1 = fullShare.left := by dsimp only [dat15]
theorem q15_2 (V : Valuation τ sig (Elt F)) (c : Dev nD) : (dat15 (Ix := Ix) (U := U) (Lvl := Lvl) V c).q 2 = fullShare.right := by dsimp only [dat15]
theorem q15_3 (V : Valuation τ sig (Elt F)) (c : Dev nD) : (dat15 (Ix := Ix) (U := U) (Lvl := Lvl) V c).q 3 = fullShare.left := by dsimp only [dat15]
theorem q15_4 (V : Valuation τ sig (Elt F)) (c : Dev nD) : (dat15 (Ix := Ix) (U := U) (Lvl := Lvl) V c).q 4 = fullShare.right := by dsimp only [dat15]

/-- The invariant at a point's start, and at its end. -/
theorem Phi15_castSucc (V : Valuation τ sig (Elt F)) (c : Dev nD) (t : Fin cfg15.N) :
    (dat15 (Ix := Ix) (U := U) (Lvl := Lvl) V c).Φ t.castSucc = Phi15 V c t.val (Nat.le_of_lt t.isLt) := by
  dsimp only [dat15]; simp only [Fin.coe_castSucc]

theorem Phi15_at_succ (V : Valuation τ sig (Elt F)) (c : Dev nD) (t : Fin cfg15.N) :
    (dat15 (Ix := Ix) (U := U) (Lvl := Lvl) V c).Φ t.succ = Phi15 V c (t.val + 1) t.isLt := rfl

/-- Before the first point the invariant is the launch's scoped rest. -/
theorem Phi_first15 (V : Valuation τ sig (Elt F)) (c : Dev nD) :
    (dat15 (Ix := Ix) (U := U) (Lvl := Lvl) V c).Φ 0
      = Pipeline.scopedRest (Ix := Ix) (Name := ℕ) (U := U) (Lvl := Lvl) (Val := Elt F) spec15 c := rfl

/-- After the last point the invariant gives the scoped rest back: the accumulator's contents are forgotten. -/
theorem Phi_last15 (V : Valuation τ sig (Elt F)) (c : Dev nD) :
    (dat15 (Ix := Ix) (U := U) (Lvl := Lvl) V c).Φ (Fin.last cfg15.N)
      ⊢ Pipeline.scopedRest (Ix := Ix) (Name := ℕ) (U := U) (Lvl := Lvl) (Val := Elt F) spec15 c := by
  have hN : cfg15.N = 64 := N_15
  rw [show (dat15 (Ix := Ix) (U := U) (Lvl := Lvl) V c).Φ (Fin.last cfg15.N) = Phi15 V c (Fin.last cfg15.N).val (Nat.le_of_lt_succ (Fin.last cfg15.N).isLt) from rfl,
    Phi15_pos V c _ _ (by rw [Fin.val_last]; omega), scopedRest15_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 15) c := dat15 V c

end Cert.Kernel.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k15_pay2 hI hJ mn xJ s` — `s` plus the 0/1 mask of (hI · hJᵀ > mn) times `xJ` — and the value
  the accumulator is reset to is `k15_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond15_0 (i : grid15.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond15_1 (i : grid15.Coords) : Prop := k15_cond2 i = 1#1

/-! ## The three runs -/

/-- At a point whose second coordinate is 0 (and not 7): the accumulator, at anything, is reset to `k15_pay1 xI` and
    stepped once; every window's buffer is handed back as found. -/
theorem run15_first (𝒱₀ : Variants) (c : Dev nD) (i : grid15.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond15_0 i) (hc1 : ¬cond15_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k15_pay2 hI hJ mn xJ (k15_pay1 xI))) -∗ K ⟨⟩))
      ⊢ wp frame (wpE (defs₀ (F := F)) 𝒱₀ c none) E (cc15__apply_kernel i arg2 harg2 arg3 harg3 arg4 harg4 arg5 harg5 arg6 harg6 arg7 harg7 arg8 harg8) K := by
  simp only [cc15__apply_kernel_eq_skeleton]; unfold cc15__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run15_mid (𝒱₀ : Variants) (c : Dev nD) (i : grid15.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond15_0 i) (hc1 : ¬cond15_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k15_pay2 hI hJ mn xJ s)) -∗ K ⟨⟩))
      ⊢ wp frame (wpE (defs₀ (F := F)) 𝒱₀ c none) E (cc15__apply_kernel i arg2 harg2 arg3 harg3 arg4 harg4 arg5 harg5 arg6 harg6 arg7 harg7 arg8 harg8) K := by
  simp only [cc15__apply_kernel_eq_skeleton]; unfold cc15__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run15_last (𝒱₀ : Variants) (c : Dev nD) (i : grid15.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond15_0 i) (hc1 : cond15_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k15_pay2 hI hJ mn xJ s)
        ∗ owns (c : Thread nD τ) arg8 fullShare (k15_pay2 hI hJ mn xJ s)) -∗ K ⟨⟩))
      ⊢ wp frame (wpE (defs₀ (F := F)) 𝒱₀ c none) E (cc15__apply_kernel i arg2 harg2 arg3 harg3 arg4 harg4 arg5 harg5 arg6 harg6 arg7 harg7 arg8 harg8) K := by
  simp only [cc15__apply_kernel_eq_skeleton]; unfold cc15__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.Kernel.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc15`. The three control cases are
  decided over the grid by the point's residue mod 8, and in each the kernel's run (ApplyRun.lean) applies.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond15_0 : ∀ t : Fin cfg15.N, cond15_0 (grid15.coords t) ↔ t.val % 8 = 0 :=
  (by decide +kernel : ∀ t : Fin grid15.N, cond15_0 (grid15.coords t) ↔ t.val % 8 = 0)
/-- It is stored into the output block at the points ≡ 7 (mod 8). -/
theorem hcond15_1 : ∀ t : Fin cfg15.N, cond15_1 (grid15.coords t) ↔ t.val % 8 = 7 :=
  (by decide +kernel : ∀ t : Fin grid15.N, cond15_1 (grid15.coords t) ↔ t.val % 8 = 7)
/-- The output window is idle at every other point, -/
theorem idleAt15_5 : ∀ t : Fin cfg15.N, ¬t.val % 8 = 7 → cfg15.idle 5 (grid15.coords t) = true :=
  (by decide +kernel : ∀ t : Fin grid15.N, ¬t.val % 8 = 7 → cfg15.idle 5 (grid15.coords t) = true)
/-- live at those, -/
theorem liveAt15_5 : ∀ t : Fin cfg15.N, t.val % 8 = 7 → cfg15.idle 5 (grid15.coords t) = false :=
  (by decide +kernel : ∀ t : Fin grid15.N, t.val % 8 = 7 → cfg15.idle 5 (grid15.coords t) = false)
/-- and not written back where it is idle. -/
theorem noFlush15_5 (t : Fin cfg15.N) (h : ¬t.val % 8 = 7) : (cfg15.win 5).flush t = false := by
  cases hf : (cfg15.win 5).flush t with
  | false => rfl
  | true => exact absurd ((flush15_5 t).mp hf) h

/-! ## What the body finds in the inputs' buffers and leaves in every buffer -/

/-- Each input's current staging buffer holds its block at every point, fetched there or not. -/
theorem before15_0 (V : Valuation τ sig (Elt F)) (c : Dev nD) (t : Fin cfg15.N) (d) : (dat15 (Ix := Ix) (U := U) (Lvl := Lvl) V c).before 0 t d = iblk15 V c 0 t :=
  ((dat15 (Ix := Ix) (U := U) (Lvl := Lvl) V c).before_in_eq_fetched 0 rfl (fun _ => rfl) (fun _ _ _ => rfl)
      (fun t => by rw [after15_0]; unfold Dat.blockOf iblk15; rw [A_eq15]; try rfl) t d).trans
    (by unfold Dat.fetched Dat.blockOf iblk15; rw [A_eq15]; try rfl)
theorem before15_1 (V : Valuation τ sig (Elt F)) (c : Dev nD) (t : Fin cfg15.N) (d) : (dat15 (Ix := Ix) (U := U) (Lvl := Lvl) V c).before 1 t d = iblk15 V c 1 t :=
  ((dat15 (Ix := Ix) (U := U) (Lvl := Lvl) V c).before_in_eq_fetched 1 rfl (fun _ => rfl) (fun _ _ _ => rfl)
      (fun t => by rw [after15_1]; unfold Dat.blockOf iblk15; rw [A_eq15]; try rfl) t d).trans
    (by unfold Dat.fetched Dat.blockOf iblk15; rw [A_eq15]; try rfl)
theorem before15_2 (V : Valuation τ sig (Elt F)) (c : Dev nD) (t : Fin cfg15.N) (d) : (dat15 (Ix := Ix) (U := U) (Lvl := Lvl) V c).before 2 t d = iblk15 V c 2 t :=
  ((dat15 (Ix := Ix) (U := U) (Lvl := Lvl) V c).before_in_eq_fetched 2 rfl (fun _ => rfl) (fun _ _ _ => rfl)
      (fun t => by rw [after15_2]; unfold Dat.blockOf iblk15; rw [A_eq15]; try rfl) t d).trans
    (by unfold Dat.fetched Dat.blockOf iblk15; rw [A_eq15]; try rfl)
theorem before15_3 (V : Valuation τ sig (Elt F)) (c : Dev nD) (t : Fin cfg15.N) (d) : (dat15 (Ix := Ix) (U := U) (Lvl := Lvl) V c).before 3 t d = iblk15 V c 3 t :=
  ((dat15 (Ix := Ix) (U := U) (Lvl := Lvl) V c).before_in_eq_fetched 3 rfl (fun _ => rfl) (fun _ _ _ => rfl)
      (fun t => by rw [after15_3]; unfold Dat.blockOf iblk15; rw [A_eq15]; try rfl) t d).trans
    (by unfold Dat.fetched Dat.blockOf iblk15; rw [A_eq15]; try rfl)
theorem before15_4 (V : Valuation τ sig (Elt F)) (c : Dev nD) (t : Fin cfg15.N) (d) : (dat15 (Ix := Ix) (U := U) (Lvl := Lvl) V c).before 4 t d = iblk15 V c 4 t :=
  ((dat15 (Ix := Ix) (U := U) (Lvl := Lvl) V c).before_in_eq_fetched 4 rfl (fun _ => rfl) (fun _ _ _ => rfl)
      (fun t => by rw [after15_4]; unfold Dat.blockOf iblk15; rw [A_eq15]; try rfl) t d).trans
    (by unfold Dat.fetched Dat.blockOf iblk15; rw [A_eq15]; try rfl)

/-! ## The body obligation, at a generic point -/

/-- What the body is called with at point `t` (the obligation's precondition, the windows one by one), -/
noncomputable def bodyPre15 (V : Valuation τ sig (Elt F)) (c : Dev nD) (ι : Ix) (t : Fin cfg15.N) : sProp 𝕄 :=
  iprop((dat15 (Ix := Ix) (U := U) (Lvl := Lvl) V c).Φ t.castSucc ∗ (dat15 (Ix := Ix) (U := U) (Lvl := Lvl) V c).owesAt ι t.castSucc
    ∗ (∃ d, owns (c : Thread nD τ) (st15_0 t) fullShare ((dat15 (Ix := Ix) (U := U) (Lvl := Lvl) V c).before 0 t d))
    ∗ (∃ d, owns (c : Thread nD τ) (st15_1 t) fullShare ((dat15 (Ix := Ix) (U := U) (Lvl := Lvl) V c).before 1 t d))
    ∗ (∃ d, owns (c : Thread nD τ) (st15_2 t) fullShare ((dat15 (Ix := Ix) (U := U) (Lvl := Lvl) V c).before 2 t d))
    ∗ (∃ d, owns (c : Thread nD τ) (st15_3 t) fullShare ((dat15 (Ix := Ix) (U := U) (Lvl := Lvl) V c).before 3 t d))
    ∗ (∃ d, owns (c : Thread nD τ) (st15_4 t) fullShare ((dat15 (Ix := Ix) (U := U) (Lvl := Lvl) V c).before 4 t d))
    ∗ (∃ d, owns (c : Thread nD τ) (st15_5 t) fullShare ((dat15 (Ix := Ix) (U := U) (Lvl := Lvl) V c).before 5 t d)))

/-- and what it returns. -/
noncomputable def bodyPost15 (V : Valuation τ sig (Elt F)) (c : Dev nD) (ι : Ix) (t : Fin cfg15.N) : sProp 𝕄 :=
  iprop((dat15 (Ix := Ix) (U := U) (Lvl := Lvl) V c).Φ t.succ ∗ (dat15 (Ix := Ix) (U := U) (Lvl := Lvl) V c).owesAt ι t.succ
    ∗ (dat15 (Ix := Ix) (U := U) (Lvl := Lvl) V c).leaves 0 t ∗ (dat15 (Ix := Ix) (U := U) (Lvl := Lvl) V c).leaves 1 t ∗ (dat15 (Ix := Ix) (U := U) (Lvl := Lvl) V c).leaves 2 t
    ∗ (dat15 (Ix := Ix) (U := U) (Lvl := Lvl) V c).leaves 3 t ∗ (dat15 (Ix := Ix) (U := U) (Lvl := Lvl) V c).leaves 4 t ∗ (dat15 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body15 (𝒱₀ : Variants) (ι : Ix) (V : Valuation τ sig (Elt F)) (c : Dev nD) (t : Fin cfg15.N) :
    bodyPre15 (Ix := Ix) (U := U) (Lvl := Lvl) V c ι t ⊢ wp frame (wpE (defs₀ (F := F)) 𝒱₀ c none) Set.univ (bodyAt15 t) (fun _ => bodyPost15 (Ix := Ix) (U := U) (Lvl := Lvl) V c ι t) := by
  unfold bodyPre15 bodyPost15 bodyAt15
  simp only [before15_0, before15_1, before15_2, before15_3, before15_4]
  rw [show (dat15 (Ix := Ix) (U := U) (Lvl := Lvl) V c).owesAt ι t.succ = (dat15 (Ix := Ix) (U := U) (Lvl := Lvl) V c).owesAt ι t.castSucc from rfl]
  rw [Phi15_at_succ, Phi15_succ, Phi15_castSucc]
  rw [leaves_live (dat15 (Ix := Ix) (U := U) (Lvl := Lvl) V c) 0 t rfl rfl, leaves_live (dat15 (Ix := Ix) (U := U) (Lvl := Lvl) V c) 1 t rfl rfl, leaves_live (dat15 (Ix := Ix) (U := U) (Lvl := Lvl) V c) 2 t rfl rfl,
    leaves_live (dat15 (Ix := Ix) (U := U) (Lvl := Lvl) V c) 3 t rfl rfl, leaves_live (dat15 (Ix := Ix) (U := U) (Lvl := Lvl) V c) 4 t rfl rfl, after15_0, after15_1, after15_2, after15_3, after15_4]
  have hN : t.val < 64 := lt_of_lt_of_eq t.isLt (show cfg15.N = 64 from N_15)
  by_cases h0 : t.val % 8 = 0
  · have h7 : ¬t.val % 8 = 7 := by omega
    rw [Dat.leaves_idle (dat15 (Ix := Ix) (U := U) (Lvl := Lvl) V c) 5 t (idleAt15_5 t h7) (noFlush15_5 t h7)]
    rw [acc15_reset V c t.val t.isLt h0]
    unfold step15 init15
    by_cases hz : t.val = 0
    · rw [Phi15_zero V c _ _ hz, scopedRest15_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run15_first 𝒱₀ c (grid15.coords t) _ _ _ _ _ _ _ _ _ _ _ _ _ _ ((hcond15_0 t).mpr h0) (fun h => h7 ((hcond15_1 t).mp h)) (iblk15 V c 0 t) (iblk15 V c 1 t) (iblk15 V c 2 t) (iblk15 V c 3 t) (iblk15 V c 4 t) ((dat15 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi15_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run15_first 𝒱₀ c (grid15.coords t) _ _ _ _ _ _ _ _ _ _ _ _ _ _ ((hcond15_0 t).mpr h0) (fun h => h7 ((hcond15_1 t).mp h)) (iblk15 V c 0 t) (iblk15 V c 1 t) (iblk15 V c 2 t) (iblk15 V c 3 t) (iblk15 V c 4 t) ((dat15 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc15_step V c t.val t.isLt h0, Phi15_pos V c _ _ hz]
    unfold step15
    by_cases h7 : t.val % 8 = 7
    · rw [leaves_live (dat15 (Ix := Ix) (U := U) (Lvl := Lvl) V c) 5 t (liveAt15_5 t h7) rfl, after15_5, acc15_step V c t.val t.isLt h0]
      unfold step15
      iintro ⟨⟨HS, Hr⟩, Ho, ⟨%d0, H0⟩, ⟨%d1, H1⟩, ⟨%d2, H2⟩, ⟨%d3, H3⟩, ⟨%d4, H4⟩, ⟨%d5, H5⟩⟩
      iapply (run15_last 𝒱₀ c (grid15.coords t) _ _ _ _ _ _ _ _ _ _ _ _ _ _ (fun h => h0 ((hcond15_0 t).mp h)) ((hcond15_1 t).mpr h7) (iblk15 V c 0 t) (iblk15 V c 1 t) (iblk15 V c 2 t) (iblk15 V c 3 t) (iblk15 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat15 (Ix := Ix) (U := U) (Lvl := Lvl) V c) 5 t (idleAt15_5 t h7) (noFlush15_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run15_mid 𝒱₀ c (grid15.coords t) _ _ _ _ _ _ _ _ _ _ _ _ _ _ (fun h => h0 ((hcond15_0 t).mp h)) (fun h => h7 ((hcond15_1 t).mp h)) (iblk15 V c 0 t) (iblk15 V c 1 t) (iblk15 V c 2 t) (iblk15 V c 3 t) (iblk15 V c 4 t) ((dat15 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation15 (𝒱₀ : Variants) (ι : Ix) (V : Valuation τ sig (Elt F)) (c : Dev nD) :
    BodyObligationLoose (dat15 (Ix := Ix) (U := U) (Lvl := Lvl) V c) (defs₀ (F := F)) 𝒱₀ ι Set.univ := fun t => by
  rw [bigSep_W15, bigSep_W15]
  exact sound_body15 𝒱₀ ι V c t

/-- The same at the type the program's family of configurations gives pipeline 1, on every core. -/
theorem body15 (𝒱₀ : Variants) (ι : Ix) (V : Valuation τ sig (Elt F)) :
    ∀ c : Dev nD, BodyObligationLoose (cfg := cfgs 15) (dat15 (Ix := Ix) (U := U) (Lvl := Lvl) V c) (defs₀ (F := F)) 𝒱₀ ι Set.univ :=
  fun c => body_obligation15 𝒱₀ ι V c

end Cert.Kernel.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg15

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (15 : Fin 24)
/-- Its configuration, its windows but for their index maps, the number of its windows. -/
abbrev cfgK : Pipeline.Cfg sig Λ₀ := cfg15
abbrev specK : Fin 6 → Pipeline.WinSpec sig cfgK.grid.rank := spec15
abbrev nW : Nat := 6
/-- Its output window and the buffer behind it. -/
abbrev oK : Fin nW := 5
abbrev outK : Ref sig .tc := main_v511
theorem winK : Pipeline.WinFacts₀ specK := winFacts₀15
theorem block_posK : ∀ w : Fin nW, 0 < (specK w).block.numel := block_pos15
theorem arr_wholeK : ∀ w : Fin nW, (specK w).arr.IsWhole := arr_whole15
theorem stage_wholeK : ∀ (w : Fin nW) (s : Fin (specK w).nbuf), ((specK w).stage s).IsWhole := stage_whole15

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.Kernel.Hand.Reg15

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R15' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (15 : Fin 24) c = dat15 (V83 m outs c) c)
    (hbody : ∀ c : Dev nD, Pipeline.BodyObligationLoose (dat15 (Ix := Ix) (U := U) (Lvl := Lvl) (V83 m outs c) c) (defs₀ (F := F)) 𝒱₀ ι Set.univ) :
    RegionSeg (pcfgs (F := F)) GenP.adm pdats ι defs₀ 𝒱₀ L lv (15 : Fin 24) :=
  Reg15.RK 𝒱₀ L lv ι pdats (fun c => V83 m outs c)
    (fun c => by rw [hp c]; exact hbody c)
    (fun c w => by rw [hp c]; exact A_eq15 (V83 m outs c) c w)
    (fun c => by rw [hp c]; rw [q15_1, q15_2]; exact PosShare.mem_left_op_right fullShare)
    (fun c => by rw [hp c]; rw [q15_3, q15_4]; exact PosShare.mem_left_op_right fullShare)
    (fun c => by rw [hp c]; exact q15_0 (V83 m outs c) c)
    (fun c t => by rw [hp c]; rfl)
    (fun c => by rw [hp c]; rfl)
    (fun c => by rw [hp c, Phi_first15])
    (fun c => by rw [hp c]; exact Phi_last15 (V83 m outs c) c)

/-- It is entered from the thread state before the region's item, -/
theorem hpre15' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (15 : Fin 24) c = dat15 (V83 m outs c) c)
    (hbody : ∀ c : Dev nD, Pipeline.BodyObligationLoose (dat15 (Ix := Ix) (U := U) (Lvl := Lvl) (V83 m outs c) c) (defs₀ (F := F)) 𝒱₀ ι Set.univ)
    (c : Dev nD) :
    iprop(StableHlo.held (c : Thread nD τ) (Pipeline.ucRefs τ sig) (V83 m outs c) ∗ (R c : sProp 𝕄))
      ⊢ (R15' m outs 𝒱₀ L lv ι pdats hp hbody).pre c := .rfl

/-- and left at the thread state after it. -/
theorem hpost15' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (15 : Fin 24) c = dat15 (V83 m outs c) c)
    (hbody : ∀ c : Dev nD, Pipeline.BodyObligationLoose (dat15 (Ix := Ix) (U := U) (Lvl := Lvl) (V83 m outs c) c) (defs₀ (F := F)) 𝒱₀ ι Set.univ)
    (houts : ∀ c : Dev nD, outs 84 main_v511 c = (dat15 (Ix := Ix) (U := U) (Lvl := Lvl) (V83 m outs c) c).arrAt 5 64)
    (c : Dev nD) :
    (R15' m outs 𝒱₀ L lv ι pdats hp hbody).post c
      ⊢ iprop(StableHlo.held (c : Thread nD τ) (Pipeline.ucRefs τ sig) (V84 m outs c) ∗ (R c : sProp 𝕄)) := by
  have h : (pdats (15 : Fin 24) c).arrAt Reg15.oK Reg15.cfgK.N = outs 84 main_v511 c := by
    rw [hp c]; exact (houts c).symm
  show iprop(StableHlo.held (c : Thread nD τ) (Pipeline.ucRefs τ sig)
      (Function.update (V83 m outs c) (Proc.devRef .tc main_v511) ((pdats (15 : Fin 24) c).arrAt Reg15.oK Reg15.cfgK.N))
        ∗ (R c : sProp 𝕄)) ⊢ _
  rw [h]

end Cert.Kernel.Hand
-- ==== Proof.K_Rg16.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_SumLib
import Idealize.ShloMosaic.Lib.Tactic
import proofs.«169706_j68856915690108_1_alg».proof.Proof.K_Shared
import proofs.«169706_j68856915690108_1_alg».proof.Proof.RegionsK

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k16_pay2)

  and only at the last point, 63, is that cell copied into the 1 × 1 output block, which the pipeline then writes back.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk16 (V : Valuation τ sig (Elt F)) (c : Dev nD) (w : Fin cfg16.W) (t : Fin cfg16.N) :
    ((cfg16.win w).xblock (cfg16.grid.coords t)).Idx → Elt F (cfg16.win w).elt :=
  ((cfg16.win w).blk t).view.read (Elt F)
    (V (Proc.devRef .tc (Pipeline.arrRef spec16 w)) : Buf (Elt F) ((cfg16.win w).arr.view.loc (c.tc : Thread nD τ)))

/-- One point's step on the scratch cell: the cell's contents `a` plus the sum of the tile made of the two blocks
    the point stages (the printed payload of the store into the scratch cell). -/
noncomputable def step16 (V : Valuation τ sig (Elt F)) (c : Dev nD) (n : ℕ) (hn : n < cfg16.N) (a : Vec F S1x1 .f32) : Vec F S1x1 .f32 :=
  k16_pay2 (iblk16 V c 0 ⟨n, hn⟩) (iblk16 V c 1 ⟨n, hn⟩) a

/-- What the scratch cell holds after point `n`: the steps of the points `0 … n` applied, first to last, to the
    zero the body stores at point 0. -/
noncomputable def acc16 (V : Valuation τ sig (Elt F)) (c : Dev nD) : (n : ℕ) → n < cfg16.N → Vec F S1x1 .f32
  | 0, hn => step16 V c 0 hn (k16_pay1 (F := F))
  | n + 1, hn => step16 V c (n + 1) hn (acc16 V c n (Nat.lt_of_succ_lt hn))

theorem acc16_zero (V : Valuation τ sig (Elt F)) (c : Dev nD) (hn : 0 < cfg16.N) :
    acc16 V c 0 hn = step16 V c 0 hn (k16_pay1 (F := F)) := rfl

theorem acc16_succ (V : Valuation τ sig (Elt F)) (c : Dev nD) (n : ℕ) (hn : n + 1 < cfg16.N) :
    acc16 V c (n + 1) hn = step16 V c (n + 1) hn (acc16 V c n (Nat.lt_of_succ_lt hn)) := rfl

/-- After a point that is not the first: the step of that point on what the point before left. -/
theorem acc16_pos (V : Valuation τ sig (Elt F)) (c : Dev nD) (n : ℕ) (hn : n < cfg16.N) (hz : n ≠ 0) :
    acc16 V c n hn = step16 V c n hn (acc16 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi16 (V : Valuation τ sig (Elt F)) (c : Dev nD) : (n : ℕ) → n ≤ cfg16.N → sProp 𝕄
  | 0, _ => Pipeline.scopedRest (Ix := Ix) (Name := ℕ) (U := U) (Lvl := Lvl) (Val := Elt F) spec16 c
  | n + 1, hn => iprop(owns (c : Thread nD τ) (Memref.whole cc16_scratch0) fullShare (acc16 V c n hn)
      ∗ Pipeline.scopedRestBut (Ix := Ix) (Name := ℕ) (U := U) (Lvl := Lvl) (Val := Elt F) spec16 c [cc16_scratch0])

theorem Phi16_zero (V : Valuation τ sig (Elt F)) (c : Dev nD) (n : ℕ) (h : n ≤ cfg16.N) (hz : n = 0) :
    (Phi16 V c n h : sProp 𝕄) = Pipeline.scopedRest (Ix := Ix) (Name := ℕ) (U := U) (Lvl := Lvl) (Val := Elt F) spec16 c := by
  subst hz; rfl

theorem Phi16_succ (V : Valuation τ sig (Elt F)) (c : Dev nD) (n : ℕ) (hn : n < cfg16.N) :
    (Phi16 V c (n + 1) hn : sProp 𝕄) = iprop(owns (c : Thread nD τ) (Memref.whole cc16_scratch0) fullShare (acc16 V c n hn)
      ∗ Pipeline.scopedRestBut (Ix := Ix) (Name := ℕ) (U := U) (Lvl := Lvl) (Val := Elt F) spec16 c [cc16_scratch0]) := rfl

theorem Phi16_pos (V : Valuation τ sig (Elt F)) (c : Dev nD) (n : ℕ) (h : n ≤ cfg16.N) (hz : n ≠ 0) :
    (Phi16 V c n h : sProp 𝕄) = iprop(owns (c : Thread nD τ) (Memref.whole cc16_scratch0) fullShare (acc16 V c (n - 1) (by omega))
      ∗ Pipeline.scopedRestBut (Ix := Ix) (Name := ℕ) (U := U) (Lvl := Lvl) (Val := Elt F) spec16 c [cc16_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi16`; the one
    array the two inputs read held half and half; nothing owed. -/
noncomputable def dat16 (V : Valuation τ sig (Elt F)) (c : Dev nD) : Dat τ (Elt F) Ix ℕ U Lvl cfg16 c where
  A w := V (Proc.devRef .tc (Pipeline.arrRef spec16 w))
  after w t := match w with
    | ⟨0, _⟩ => iblk16 V c 0 t
    | ⟨1, _⟩ => iblk16 V c 1 t
    | ⟨2, _⟩ => acc16 V c t.val t.isLt
  Φ t := Phi16 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq16 (V : Valuation τ sig (Elt F)) (c : Dev nD) (w : Fin cfg16.W) :
    (dat16 (Ix := Ix) (U := U) (Lvl := Lvl) V c).A w = V (Proc.devRef .tc (Pipeline.arrRef spec16 w)) := by
  dsimp only [dat16]

/-- What the body leaves, window by window. -/
theorem after16_0 (V : Valuation τ sig (Elt F)) (c : Dev nD) (t : Fin cfg16.N) :
    (dat16 (Ix := Ix) (U := U) (Lvl := Lvl) V c).after 0 t = iblk16 V c 0 t := by dsimp only [dat16]
theorem after16_1 (V : Valuation τ sig (Elt F)) (c : Dev nD) (t : Fin cfg16.N) :
    (dat16 (Ix := Ix) (U := U) (Lvl := Lvl) V c).after 1 t = iblk16 V c 1 t := by dsimp only [dat16]
theorem after16_2 (V : Valuation τ sig (Elt F)) (c : Dev nD) (t : Fin cfg16.N) :
    (dat16 (Ix := Ix) (U := U) (Lvl := Lvl) V c).after 2 t = acc16 V c t.val t.isLt := by dsimp only [dat16]

/-- The invariant at a point's start, and at its end. -/
theorem Phi16_castSucc (V : Valuation τ sig (Elt F)) (c : Dev nD) (t : Fin cfg16.N) :
    (dat16 (Ix := Ix) (U := U) (Lvl := Lvl) V c).Φ t.castSucc = Phi16 V c t.val (Nat.le_of_lt t.isLt) := by
  dsimp only [dat16]; simp only [Fin.coe_castSucc]

theorem Phi16_at_succ (V : Valuation τ sig (Elt F)) (c : Dev nD) (t : Fin cfg16.N) :
    (dat16 (Ix := Ix) (U := U) (Lvl := Lvl) V c).Φ t.succ = Phi16 V c (t.val + 1) t.isLt := rfl

/-- Before the first point the invariant is the launch's scoped rest. -/
theorem Phi_first16 (V : Valuation τ sig (Elt F)) (c : Dev nD) :
    (dat16 (Ix := Ix) (U := U) (Lvl := Lvl) V c).Φ 0
      = Pipeline.scopedRest (Ix := Ix) (Name := ℕ) (U := U) (Lvl := Lvl) (Val := Elt F) spec16 c := rfl

/-- After the last point the invariant gives the scoped rest back: the scratch cell's contents are forgotten. -/
theorem Phi_last16 (V : Valuation τ sig (Elt F)) (c : Dev nD) :
    (dat16 (Ix := Ix) (U := U) (Lvl := Lvl) V c).Φ (Fin.last cfg16.N)
      ⊢ Pipeline.scopedRest (Ix := Ix) (Name := ℕ) (U := U) (Lvl := Lvl) (Val := Elt F) spec16 c := by
  have hN : cfg16.N = 64 := N_16
  rw [show (dat16 (Ix := Ix) (U := U) (Lvl := Lvl) V c).Φ (Fin.last cfg16.N) = Phi16 V c (Fin.last cfg16.N).val (Nat.le_of_lt_succ (Fin.last cfg16.N).isLt) from rfl,
    Phi16_pos V c _ _ (by rw [Fin.val_last]; omega), scopedRest16_split, owns_whole]
  iintro ⟨Hs, Hr⟩
  isplitl [Hs]
  · iexists _; iexact Hs
  iexact Hr

example (V : Valuation τ sig (Elt F)) (c : Dev nD) : Dat τ (Elt F) Ix ℕ U Lvl (cfgs 16) c := dat16 V c

end Cert.Kernel.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k16_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond16_1 (i : grid16.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond16_2 (i : grid16.Coords) : Prop := k16_cond2 i = 1#1

/-- The reset runs at the first point only, -/
theorem hcond16_1 : ∀ t : Fin cfg16.N, cond16_1 (grid16.coords t) ↔ t.val = 0 :=
  (by decide +kernel : ∀ t : Fin grid16.N, cond16_1 (grid16.coords t) ↔ t.val = 0)
/-- the copy at the last point only. -/
theorem hcond16_2 : ∀ t : Fin cfg16.N, cond16_2 (grid16.coords t) ↔ t.val = 63 :=
  (by decide +kernel : ∀ t : Fin grid16.N, cond16_2 (grid16.coords t) ↔ t.val = 63)

/-! ## The body, case by case, on any whole memrefs -/

/-- The first point: the scratch cell, at anything, is reset and then holds the first step on zero. -/
theorem run16_A (𝒱₀ : Variants) (c : Dev nD) (i : grid16.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond16_1 i) (hc2 : ¬cond16_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k16_pay2 x2 x3 (k16_pay1 (F := F)))) -∗ K ⟨⟩))
      ⊢ wp frame (wpE (defs₀ (F := F)) 𝒱₀ c none) E (cc16__sum_kernel i arg2 harg2 arg3 harg3 arg4 harg4 arg5 harg5) K := by
  simp only [cc16__sum_kernel_eq_skeleton]; unfold cc16__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run16_A.sl.v15 run16_A.sl.H5_1
  rw [readCov_whole _ zeros2, readAt_whole _ _ zeros2, readAt_whole _ _ zeros2]

/-- A point strictly between the first and the last: the scratch cell at `a` takes the point's step. -/
theorem run16_B (𝒱₀ : Variants) (c : Dev nD) (i : grid16.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond16_1 i) (hc2 : ¬cond16_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k16_pay2 x2 x3 a)) -∗ K ⟨⟩))
      ⊢ wp frame (wpE (defs₀ (F := F)) 𝒱₀ c none) E (cc16__sum_kernel i arg2 harg2 arg3 harg3 arg4 harg4 arg5 harg5) K := by
  simp only [cc16__sum_kernel_eq_skeleton]; unfold cc16__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run16_C (𝒱₀ : Variants) (c : Dev nD) (i : grid16.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond16_1 i) (hc2 : cond16_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k16_pay2 x2 x3 a) ∗ owns (c : Thread nD τ) arg5 fullShare (k16_pay2 x2 x3 a)) -∗ K ⟨⟩))
      ⊢ wp frame (wpE (defs₀ (F := F)) 𝒱₀ c none) E (cc16__sum_kernel i arg2 harg2 arg3 harg3 arg4 harg4 arg5 harg5) K := by
  simp only [cc16__sum_kernel_eq_skeleton]; unfold cc16__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run16_C.sl.v25 run16_C.sl.H5_1
    rw [readCov_whole _ zeros2, readAt_whole _ _ zeros2, readAt_whole _ _ zeros2, readAt_whole _ _ zeros2]
  iexists _; isplitr
  swap; · iexact H5
  ipureintro
  unfold run16_C.sl.H5_1
  rw [read_writes_whole _ _ zeros2, readAt_whole _ _ zeros2, readAt_whole _ _ zeros2, readAt_whole _ _ zeros2]

end Cert.Kernel.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle16_2 : ∀ t : Fin cfg16.N, cfg16.idle 2 (grid16.coords t) = true ↔ t.val ≠ 63 :=
  (by decide +kernel : ∀ t : Fin grid16.N, idle16 2 (grid16.coords t) = true ↔ t.val ≠ 63)
/-- and written back at the last point only. -/
theorem flush16_2' : ∀ t : Fin cfg16.N, (cfg16.win 2).flush t = true ↔ t.val = 63 :=
  (by decide +kernel : ∀ t : Fin grid16.N, win16_2.flush t = true ↔ t.val = 63)

/-! ## What the body finds in the inputs' buffers -/

/-- Each input's current staging buffer holds its block at every point, fetched there or not: unfetched, the block
    index has not moved and the body left the block in place. -/
theorem before16_0 (V : Valuation τ sig (Elt F)) (c : Dev nD) (t : Fin cfg16.N) (d) :
    (dat16 (Ix := Ix) (U := U) (Lvl := Lvl) V c).before 0 t d = iblk16 V c 0 t :=
  ((dat16 (Ix := Ix) (U := U) (Lvl := Lvl) V c).before_in_eq_fetched 0 rfl (fun _ => rfl) (fun _ _ _ => rfl)
      (fun t => by rw [after16_0]; unfold Dat.blockOf iblk16; rw [A_eq16]; try rfl) t d).trans
    (by unfold Dat.fetched Dat.blockOf iblk16; rw [A_eq16]; try rfl)

theorem before16_1 (V : Valuation τ sig (Elt F)) (c : Dev nD) (t : Fin cfg16.N) (d) :
    (dat16 (Ix := Ix) (U := U) (Lvl := Lvl) V c).before 1 t d = iblk16 V c 1 t :=
  ((dat16 (Ix := Ix) (U := U) (Lvl := Lvl) V c).before_in_eq_fetched 1 rfl (fun _ => rfl) (fun _ _ _ => rfl)
      (fun t => by rw [after16_1]; unfold Dat.blockOf iblk16; rw [A_eq16]; try rfl) t d).trans
    (by unfold Dat.fetched Dat.blockOf iblk16; rw [A_eq16]; try rfl)

/-! ## What the obligation asks of each window's buffer after the body -/

/-- The inputs are never idle: their buffers are handed back at their blocks. -/
theorem leaves16_0 (V : Valuation τ sig (Elt F)) (c : Dev nD) (t : Fin cfg16.N) :
    (dat16 (Ix := Ix) (U := U) (Lvl := Lvl) V c).leaves 0 t = owns (c : Thread nD τ) (st16_0 t) fullShare (iblk16 V c 0 t) := by
  rw [← after16_0 (Ix := Ix) (U := U) (Lvl := Lvl) V c t]

theorem leaves16_1 (V : Valuation τ sig (Elt F)) (c : Dev nD) (t : Fin cfg16.N) :
    (dat16 (Ix := Ix) (U := U) (Lvl := Lvl) V c).leaves 1 t = owns (c : Thread nD τ) (st16_1 t) fullShare (iblk16 V c 1 t) := by
  rw [← after16_1 (Ix := Ix) (U := U) (Lvl := Lvl) V c t]

/-- The output is idle, and not written back, at every point but the last: its buffer is handed back as found; -/
theorem leaves16_2_idle (V : Valuation τ sig (Elt F)) (c : Dev nD) (t : Fin cfg16.N) (h : t.val ≠ 63) :
    (dat16 (Ix := Ix) (U := U) (Lvl := Lvl) V c).leaves 2 t
      = iprop(∃ d, owns (c : Thread nD τ) (st16_2 t) fullShare ((dat16 (Ix := Ix) (U := U) (Lvl := Lvl) V c).before 2 t d)) :=
  (dat16 (Ix := Ix) (U := U) (Lvl := Lvl) V c).leaves_idle 2 t ((idle16_2 t).mpr h)
    (Bool.eq_false_iff.mpr fun hf => h ((flush16_2' t).mp hf))

/-- at the last point it is handed back at the accumulated sum. -/
theorem leaves16_2_last (V : Valuation τ sig (Elt F)) (c : Dev nD) (t : Fin cfg16.N) (h : t.val = 63) :
    (dat16 (Ix := Ix) (U := U) (Lvl := Lvl) V c).leaves 2 t = owns (c : Thread nD τ) (st16_2 t) fullShare (acc16 V c t.val t.isLt) := by
  have hl : cfg16.idle 2 (grid16.coords t) = false := by
    cases hi : cfg16.idle 2 (grid16.coords t) with
    | false => rfl
    | true => exact absurd h ((idle16_2 t).mp hi)
  rw [← after16_2 (Ix := Ix) (U := U) (Lvl := Lvl) V c t]
  unfold Dat.leaves; rw [hl]

/-- One step at a point, through the point itself. -/
theorem step16_at (V : Valuation τ sig (Elt F)) (c : Dev nD) (t : Fin cfg16.N) (a : Vec F S1x1 .f32) :
    step16 V c t.val t.isLt a = k16_pay2 (iblk16 V c 0 t) (iblk16 V c 1 t) a := rfl

theorem acc16_first (V : Valuation τ sig (Elt F)) (c : Dev nD) (n : ℕ) (hn : n < cfg16.N) (hz : n = 0) :
    acc16 V c n hn = step16 V c n hn (k16_pay1 (F := F)) := by
  subst hz; rfl

/-! ## The body obligation -/

/-- What the body is called with at point `t` (the obligation's precondition, the windows one by one), -/
noncomputable def bodyPre16 (V : Valuation τ sig (Elt F)) (ι : Ix) (c : Dev nD) (t : Fin cfg16.N) : sProp 𝕄 :=
  iprop((dat16 (Ix := Ix) (U := U) (Lvl := Lvl) V c).Φ t.castSucc ∗ (dat16 (Ix := Ix) (U := U) (Lvl := Lvl) V c).owesAt ι t.castSucc
    ∗ (∃ d, owns (c : Thread nD τ) (st16_0 t) fullShare ((dat16 (Ix := Ix) (U := U) (Lvl := Lvl) V c).before 0 t d))
    ∗ (∃ d, owns (c : Thread nD τ) (st16_1 t) fullShare ((dat16 (Ix := Ix) (U := U) (Lvl := Lvl) V c).before 1 t d))
    ∗ (∃ d, owns (c : Thread nD τ) (st16_2 t) fullShare ((dat16 (Ix := Ix) (U := U) (Lvl := Lvl) V c).before 2 t d)))

/-- and what it returns. -/
noncomputable def bodyPost16 (V : Valuation τ sig (Elt F)) (ι : Ix) (c : Dev nD) (t : Fin cfg16.N) : sProp 𝕄 :=
  iprop((dat16 (Ix := Ix) (U := U) (Lvl := Lvl) V c).Φ t.succ ∗ (dat16 (Ix := Ix) (U := U) (Lvl := Lvl) V c).owesAt ι t.succ
    ∗ (dat16 (Ix := Ix) (U := U) (Lvl := Lvl) V c).leaves 0 t ∗ (dat16 (Ix := Ix) (U := U) (Lvl := Lvl) V c).leaves 1 t ∗ (dat16 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body16 (V : Valuation τ sig (Elt F)) (𝒱₀ : Variants) (ι : Ix) (c : Dev nD) (t : Fin cfg16.N) :
    bodyPre16 (U := U) (Lvl := Lvl) V ι c t
      ⊢ wp frame (wpE (defs₀ (F := F)) 𝒱₀ c none) Set.univ (bodyAt16 t) (fun _ => bodyPost16 (U := U) (Lvl := Lvl) V ι c t) := by
  unfold bodyPre16 bodyPost16 bodyAt16
  simp only [before16_0, before16_1]
  rw [show (dat16 (Ix := Ix) (U := U) (Lvl := Lvl) V c).owesAt ι t.succ = (dat16 (Ix := Ix) (U := U) (Lvl := Lvl) V c).owesAt ι t.castSucc from rfl]
  rw [Phi16_at_succ, Phi16_succ, Phi16_castSucc, leaves16_0, leaves16_1]
  have hN : t.val < 64 := lt_of_lt_of_eq t.isLt N_16
  by_cases hz : t.val = 0
  · have hc1 : cond16_1 (grid16.coords t) := (hcond16_1 t).mpr hz
    have hc2 : ¬cond16_2 (grid16.coords t) := fun h => by have := (hcond16_2 t).mp h; omega
    rw [leaves16_2_idle V c t (by omega), Phi16_zero V c _ _ hz, scopedRest16_split, acc16_first V c _ _ hz, step16_at]
    iintro ⟨⟨⟨%f, Hs⟩, Hr⟩, Ho, ⟨%d0, H0⟩, ⟨%d1, H1⟩, H2⟩
    iapply (run16_A 𝒱₀ c (grid16.coords t) _ _ _ _ _ _ _ _ hc1 hc2 (iblk16 V c 0 t) (iblk16 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond16_1 (grid16.coords t) := fun h => hz ((hcond16_1 t).mp h)
    rw [Phi16_pos V c _ _ hz, acc16_pos V c _ _ hz, step16_at]
    by_cases hl : t.val = 63
    · have hc2 : cond16_2 (grid16.coords t) := (hcond16_2 t).mpr hl
      rw [leaves16_2_last V c t hl, acc16_pos V c _ _ hz, step16_at]
      iintro ⟨⟨Hs, Hr⟩, Ho, ⟨%d0, H0⟩, ⟨%d1, H1⟩, ⟨%d2, H2⟩⟩
      iapply (run16_C 𝒱₀ c (grid16.coords t) _ _ _ _ _ _ _ _ hc1 hc2 (iblk16 V c 0 t) (iblk16 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond16_2 (grid16.coords t) := fun h => hl ((hcond16_2 t).mp h)
      rw [leaves16_2_idle V c t hl]
      iintro ⟨⟨Hs, Hr⟩, Ho, ⟨%d0, H0⟩, ⟨%d1, H1⟩, H2⟩
      iapply (run16_B 𝒱₀ c (grid16.coords t) _ _ _ _ _ _ _ _ hc1 hc2 (iblk16 V c 0 t) (iblk16 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body16 (V : Valuation τ sig (Elt F)) (𝒱₀ : Variants) (ι : Ix) :
    ∀ c : Dev nD, BodyObligationLoose (dat16 (Ix := Ix) (U := U) (Lvl := Lvl) V c) (defs₀ (F := F)) 𝒱₀ ι Set.univ := fun c t => by
  rw [bigSep_W16, bigSep_W16]
  exact sound_body16 (U := U) (Lvl := Lvl) V 𝒱₀ ι c t

end Cert.Kernel.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg16

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (16 : Fin 24)
/-- Its configuration, its windows but for their index maps, the number of its windows. -/
abbrev cfgK : Pipeline.Cfg sig Λ₀ := cfg16
abbrev specK : Fin 3 → Pipeline.WinSpec sig cfgK.grid.rank := spec16
abbrev nW : Nat := 3
/-- Its output window and the buffer behind it. -/
abbrev oK : Fin nW := 2
abbrev outK : Ref sig .tc := main_v577
theorem winK : Pipeline.WinFacts₀ specK := winFacts₀16
theorem block_posK : ∀ w : Fin nW, 0 < (specK w).block.numel := block_pos16
theorem arr_wholeK : ∀ w : Fin nW, (specK w).arr.IsWhole := arr_whole16
theorem stage_wholeK : ∀ (w : Fin nW) (s : Fin (specK w).nbuf), ((specK w).stage s).IsWhole := stage_whole16

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.Kernel.Hand.Reg16

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R16' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (16 : Fin 24) c = dat16 (V92 m outs c) c)
    (hbody : ∀ c : Dev nD, Pipeline.BodyObligationLoose (dat16 (Ix := Ix) (U := U) (Lvl := Lvl) (V92 m outs c) c) (defs₀ (F := F)) 𝒱₀ ι Set.univ) :
    RegionSeg (pcfgs (F := F)) GenP.adm pdats ι defs₀ 𝒱₀ L lv (16 : Fin 24) :=
  Reg16.RK 𝒱₀ L lv ι pdats (fun c => V92 m outs c)
    (fun c => by rw [hp c]; exact hbody c)
    (fun c w => by rw [hp c]; exact A_eq16 (V92 m outs c) c w)
    (fun c => by rw [hp c]; exact PosShare.mem_left_op_right fullShare)
    (fun c t => by rw [hp c]; rfl)
    (fun c => by rw [hp c]; rfl)
    (fun c => by rw [hp c, Phi_first16])
    (fun c => by rw [hp c]; exact Phi_last16 (V92 m outs c) c)

/-- It is entered from the thread state before the region's item, -/
theorem hpre16' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (16 : Fin 24) c = dat16 (V92 m outs c) c)
    (hbody : ∀ c : Dev nD, Pipeline.BodyObligationLoose (dat16 (Ix := Ix) (U := U) (Lvl := Lvl) (V92 m outs c) c) (defs₀ (F := F)) 𝒱₀ ι Set.univ)
    (c : Dev nD) :
    iprop(StableHlo.held (c : Thread nD τ) (Pipeline.ucRefs τ sig) (V92 m outs c) ∗ (R c : sProp 𝕄))
      ⊢ (R16' m outs 𝒱₀ L lv ι pdats hp hbody).pre c := .rfl

/-- and left at the thread state after it. -/
theorem hpost16' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (16 : Fin 24) c = dat16 (V92 m outs c) c)
    (hbody : ∀ c : Dev nD, Pipeline.BodyObligationLoose (dat16 (Ix := Ix) (U := U) (Lvl := Lvl) (V92 m outs c) c) (defs₀ (F := F)) 𝒱₀ ι Set.univ)
    (houts : ∀ c : Dev nD, outs 93 main_v577 c = (dat16 (Ix := Ix) (U := U) (Lvl := Lvl) (V92 m outs c) c).arrAt 2 64)
    (c : Dev nD) :
    (R16' m outs 𝒱₀ L lv ι pdats hp hbody).post c
      ⊢ iprop(StableHlo.held (c : Thread nD τ) (Pipeline.ucRefs τ sig) (V93 m outs c) ∗ (R c : sProp 𝕄)) := by
  have h : (pdats (16 : Fin 24) c).arrAt Reg16.oK Reg16.cfgK.N = outs 93 main_v577 c := by
    rw [hp c]; exact (houts c).symm
  show iprop(StableHlo.held (c : Thread nD τ) (Pipeline.ucRefs τ sig)
      (Function.update (V92 m outs c) (Proc.devRef .tc main_v577) ((pdats (16 : Fin 24) c).arrAt Reg16.oK Reg16.cfgK.N))
        ∗ (R c : sProp 𝕄)) ⊢ _
  rw [h]

end Cert.Kernel.Hand
-- ==== Proof.K_Rg17.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_ApplyLib
import proofs.«169706_j68856915690108_1_alg».proof.Proof.K_Shared
import proofs.«169706_j68856915690108_1_alg».proof.Proof.RegionsK

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k17_pay1 x_i` and `step t a = k17_pay2 h_i h_j threshold x_j a`, the printed payloads of the two stores.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk17 (V : Valuation τ sig (Elt F)) (c : Dev nD) (w : Fin cfg17.W) (t : Fin cfg17.N) :
    ((cfg17.win w).xblock (cfg17.grid.coords t)).Idx → Elt F (cfg17.win w).elt :=
  ((cfg17.win w).blk t).view.read (Elt F)
    (V (Proc.devRef .tc (Pipeline.arrRef spec17 w)) : Buf (Elt F) ((cfg17.win w).arr.view.loc (c.tc : Thread nD τ)))

/-- What the accumulator is reset to at a point whose second coordinate is 0: 1.0 times the block of `x` window 3
    stages there (the printed payload of the first store into the scratch buffer). -/
noncomputable def init17 (V : Valuation τ sig (Elt F)) (c : Dev nD) (n : ℕ) (hn : n < cfg17.N) : Vec F S512x256 .f32 :=
  k17_pay1 (iblk17 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step17 (V : Valuation τ sig (Elt F)) (c : Dev nD) (n : ℕ) (hn : n < cfg17.N) (a : Vec F S512x256 .f32) : Vec F S512x256 .f32 :=
  k17_pay2 (iblk17 V c 1 ⟨n, hn⟩) (iblk17 V c 2 ⟨n, hn⟩) (iblk17 V c 0 ⟨n, hn⟩) (iblk17 V c 4 ⟨n, hn⟩) a

/-- What the accumulator holds after point `n`: reset and stepped at the points ≡ 0 (mod 8), stepped from what the
    point before left at the others. -/
noncomputable def acc17 (V : Valuation τ sig (Elt F)) (c : Dev nD) : (n : ℕ) → n < cfg17.N → Vec F S512x256 .f32
  | 0, hn => step17 V c 0 hn (init17 V c 0 hn)
  | n + 1, hn =>
    if (n + 1) % 8 = 0 then step17 V c (n + 1) hn (init17 V c (n + 1) hn)
    else step17 V c (n + 1) hn (acc17 V c n (Nat.lt_of_succ_lt hn))

/-- After a point ≡ 0 (mod 8): the reset value, stepped once. -/
theorem acc17_reset (V : Valuation τ sig (Elt F)) (c : Dev nD) (n : ℕ) (hn : n < cfg17.N) (h0 : n % 8 = 0) :
    acc17 V c n hn = step17 V c n hn (init17 V c n hn) := by
  cases n with
  | zero => rfl
  | succ n => exact if_pos h0

/-- After any other point: that point's step on what the point before left. -/
theorem acc17_step (V : Valuation τ sig (Elt F)) (c : Dev nD) (n : ℕ) (hn : n < cfg17.N) (h0 : ¬n % 8 = 0) :
    acc17 V c n hn = step17 V c n hn (acc17 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi17 (V : Valuation τ sig (Elt F)) (c : Dev nD) : (n : ℕ) → n ≤ cfg17.N → sProp 𝕄
  | 0, _ => Pipeline.scopedRest (Ix := Ix) (Name := ℕ) (U := U) (Lvl := Lvl) (Val := Elt F) spec17 c
  | n + 1, hn => iprop(owns (c : Thread nD τ) (Memref.whole cc17_scratch0) fullShare (acc17 V c n hn)
      ∗ Pipeline.scopedRestBut (Ix := Ix) (Name := ℕ) (U := U) (Lvl := Lvl) (Val := Elt F) spec17 c [cc17_scratch0])

theorem Phi17_zero (V : Valuation τ sig (Elt F)) (c : Dev nD) (n : ℕ) (h : n ≤ cfg17.N) (hz : n = 0) :
    (Phi17 V c n h : sProp 𝕄) = Pipeline.scopedRest (Ix := Ix) (Name := ℕ) (U := U) (Lvl := Lvl) (Val := Elt F) spec17 c := by
  subst hz; rfl

theorem Phi17_succ (V : Valuation τ sig (Elt F)) (c : Dev nD) (n : ℕ) (hn : n < cfg17.N) :
    (Phi17 V c (n + 1) hn : sProp 𝕄) = iprop(owns (c : Thread nD τ) (Memref.whole cc17_scratch0) fullShare (acc17 V c n hn)
      ∗ Pipeline.scopedRestBut (Ix := Ix) (Name := ℕ) (U := U) (Lvl := Lvl) (Val := Elt F) spec17 c [cc17_scratch0]) := rfl

theorem Phi17_pos (V : Valuation τ sig (Elt F)) (c : Dev nD) (n : ℕ) (h : n ≤ cfg17.N) (hz : n ≠ 0) :
    (Phi17 V c n h : sProp 𝕄) = iprop(owns (c : Thread nD τ) (Memref.whole cc17_scratch0) fullShare (acc17 V c (n - 1) (by omega))
      ∗ Pipeline.scopedRestBut (Ix := Ix) (Name := ℕ) (U := U) (Lvl := Lvl) (Val := Elt F) spec17 c [cc17_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi17`; the
    threshold's array held whole, each of the two arrays that two input windows read held half and half; nothing owed. -/
noncomputable def dat17 (V : Valuation τ sig (Elt F)) (c : Dev nD) : Dat τ (Elt F) Ix ℕ U Lvl cfg17 c where
  A w := V (Proc.devRef .tc (Pipeline.arrRef spec17 w))
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => iblk17 V c 4 t
    | ⟨5, _⟩ => acc17 V c t.val t.isLt
  Φ t := Phi17 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq17 (V : Valuation τ sig (Elt F)) (c : Dev nD) (w : Fin cfg17.W) :
    (dat17 (Ix := Ix) (U := U) (Lvl := Lvl) V c).A w = V (Proc.devRef .tc (Pipeline.arrRef spec17 w)) := by
  dsimp only [dat17]

/-- What the body leaves, window by window. -/
theorem after17_0 (V : Valuation τ sig (Elt F)) (c : Dev nD) (t : Fin cfg17.N) :
    (dat17 (Ix := Ix) (U := U) (Lvl := Lvl) V c).after 0 t = iblk17 V c 0 t := by dsimp only [dat17]
theorem after17_1 (V : Valuation τ sig (Elt F)) (c : Dev nD) (t : Fin cfg17.N) :
    (dat17 (Ix := Ix) (U := U) (Lvl := Lvl) V c).after 1 t = iblk17 V c 1 t := by dsimp only [dat17]
theorem after17_2 (V : Valuation τ sig (Elt F)) (c : Dev nD) (t : Fin cfg17.N) :
    (dat17 (Ix := Ix) (U := U) (Lvl := Lvl) V c).after 2 t = iblk17 V c 2 t := by dsimp only [dat17]
theorem after17_3 (V : Valuation τ sig (Elt F)) (c : Dev nD) (t : Fin cfg17.N) :
    (dat17 (Ix := Ix) (U := U) (Lvl := Lvl) V c).after 3 t = iblk17 V c 3 t := by dsimp only [dat17]
theorem after17_4 (V : Valuation τ sig (Elt F)) (c : Dev nD) (t : Fin cfg17.N) :
    (dat17 (Ix := Ix) (U := U) (Lvl := Lvl) V c).after 4 t = iblk17 V c 4 t := by dsimp only [dat17]
theorem after17_5 (V : Valuation τ sig (Elt F)) (c : Dev nD) (t : Fin cfg17.N) :
    (dat17 (Ix := Ix) (U := U) (Lvl := Lvl) V c).after 5 t = acc17 V c t.val t.isLt := by dsimp only [dat17]

/-- The shares the input arrays are held at. -/
theorem q17_0 (V : Valuation τ sig (Elt F)) (c : Dev nD) : (dat17 (Ix := Ix) (U := U) (Lvl := Lvl) V c).q 0 = fullShare := by dsimp only [dat17]
theorem q17_1 (V : Valuation τ sig (Elt F)) (c : Dev nD) : (dat17 (Ix := Ix) (U := U) (Lvl := Lvl) V c).q 1 = fullShare.left := by dsimp only [dat17]
theorem q17_2 (V : Valuation τ sig (Elt F)) (c : Dev nD) : (dat17 (Ix := Ix) (U := U) (Lvl := Lvl) V c).q 2 = fullShare.right := by dsimp only [dat17]
theorem q17_3 (V : Valuation τ sig (Elt F)) (c : Dev nD) : (dat17 (Ix := Ix) (U := U) (Lvl := Lvl) V c).q 3 = fullShare.left := by dsimp only [dat17]
theorem q17_4 (V : Valuation τ sig (Elt F)) (c : Dev nD) : (dat17 (Ix := Ix) (U := U) (Lvl := Lvl) V c).q 4 = fullShare.right := by dsimp only [dat17]

/-- The invariant at a point's start, and at its end. -/
theorem Phi17_castSucc (V : Valuation τ sig (Elt F)) (c : Dev nD) (t : Fin cfg17.N) :
    (dat17 (Ix := Ix) (U := U) (Lvl := Lvl) V c).Φ t.castSucc = Phi17 V c t.val (Nat.le_of_lt t.isLt) := by
  dsimp only [dat17]; simp only [Fin.coe_castSucc]

theorem Phi17_at_succ (V : Valuation τ sig (Elt F)) (c : Dev nD) (t : Fin cfg17.N) :
    (dat17 (Ix := Ix) (U := U) (Lvl := Lvl) V c).Φ t.succ = Phi17 V c (t.val + 1) t.isLt := rfl

/-- Before the first point the invariant is the launch's scoped rest. -/
theorem Phi_first17 (V : Valuation τ sig (Elt F)) (c : Dev nD) :
    (dat17 (Ix := Ix) (U := U) (Lvl := Lvl) V c).Φ 0
      = Pipeline.scopedRest (Ix := Ix) (Name := ℕ) (U := U) (Lvl := Lvl) (Val := Elt F) spec17 c := rfl

/-- After the last point the invariant gives the scoped rest back: the accumulator's contents are forgotten. -/
theorem Phi_last17 (V : Valuation τ sig (Elt F)) (c : Dev nD) :
    (dat17 (Ix := Ix) (U := U) (Lvl := Lvl) V c).Φ (Fin.last cfg17.N)
      ⊢ Pipeline.scopedRest (Ix := Ix) (Name := ℕ) (U := U) (Lvl := Lvl) (Val := Elt F) spec17 c := by
  have hN : cfg17.N = 64 := N_17
  rw [show (dat17 (Ix := Ix) (U := U) (Lvl := Lvl) V c).Φ (Fin.last cfg17.N) = Phi17 V c (Fin.last cfg17.N).val (Nat.le_of_lt_succ (Fin.last cfg17.N).isLt) from rfl,
    Phi17_pos V c _ _ (by rw [Fin.val_last]; omega), scopedRest17_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 17) c := dat17 V c

end Cert.Kernel.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k17_pay2 hI hJ mn xJ s` — `s` plus the 0/1 mask of (hI · hJᵀ > mn) times `xJ` — and the value
  the accumulator is reset to is `k17_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond17_0 (i : grid17.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond17_1 (i : grid17.Coords) : Prop := k17_cond2 i = 1#1

/-! ## The three runs -/

/-- At a point whose second coordinate is 0 (and not 7): the accumulator, at anything, is reset to `k17_pay1 xI` and
    stepped once; every window's buffer is handed back as found. -/
theorem run17_first (𝒱₀ : Variants) (c : Dev nD) (i : grid17.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond17_0 i) (hc1 : ¬cond17_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k17_pay2 hI hJ mn xJ (k17_pay1 xI))) -∗ K ⟨⟩))
      ⊢ wp frame (wpE (defs₀ (F := F)) 𝒱₀ c none) E (cc17__apply_kernel i arg2 harg2 arg3 harg3 arg4 harg4 arg5 harg5 arg6 harg6 arg7 harg7 arg8 harg8) K := by
  simp only [cc17__apply_kernel_eq_skeleton]; unfold cc17__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run17_mid (𝒱₀ : Variants) (c : Dev nD) (i : grid17.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond17_0 i) (hc1 : ¬cond17_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k17_pay2 hI hJ mn xJ s)) -∗ K ⟨⟩))
      ⊢ wp frame (wpE (defs₀ (F := F)) 𝒱₀ c none) E (cc17__apply_kernel i arg2 harg2 arg3 harg3 arg4 harg4 arg5 harg5 arg6 harg6 arg7 harg7 arg8 harg8) K := by
  simp only [cc17__apply_kernel_eq_skeleton]; unfold cc17__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run17_last (𝒱₀ : Variants) (c : Dev nD) (i : grid17.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond17_0 i) (hc1 : cond17_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k17_pay2 hI hJ mn xJ s)
        ∗ owns (c : Thread nD τ) arg8 fullShare (k17_pay2 hI hJ mn xJ s)) -∗ K ⟨⟩))
      ⊢ wp frame (wpE (defs₀ (F := F)) 𝒱₀ c none) E (cc17__apply_kernel i arg2 harg2 arg3 harg3 arg4 harg4 arg5 harg5 arg6 harg6 arg7 harg7 arg8 harg8) K := by
  simp only [cc17__apply_kernel_eq_skeleton]; unfold cc17__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.Kernel.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc17`. The three control cases are
  decided over the grid by the point's residue mod 8, and in each the kernel's run (ApplyRun.lean) applies.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond17_0 : ∀ t : Fin cfg17.N, cond17_0 (grid17.coords t) ↔ t.val % 8 = 0 :=
  (by decide +kernel : ∀ t : Fin grid17.N, cond17_0 (grid17.coords t) ↔ t.val % 8 = 0)
/-- It is stored into the output block at the points ≡ 7 (mod 8). -/
theorem hcond17_1 : ∀ t : Fin cfg17.N, cond17_1 (grid17.coords t) ↔ t.val % 8 = 7 :=
  (by decide +kernel : ∀ t : Fin grid17.N, cond17_1 (grid17.coords t) ↔ t.val % 8 = 7)
/-- The output window is idle at every other point, -/
theorem idleAt17_5 : ∀ t : Fin cfg17.N, ¬t.val % 8 = 7 → cfg17.idle 5 (grid17.coords t) = true :=
  (by decide +kernel : ∀ t : Fin grid17.N, ¬t.val % 8 = 7 → cfg17.idle 5 (grid17.coords t) = true)
/-- live at those, -/
theorem liveAt17_5 : ∀ t : Fin cfg17.N, t.val % 8 = 7 → cfg17.idle 5 (grid17.coords t) = false :=
  (by decide +kernel : ∀ t : Fin grid17.N, t.val % 8 = 7 → cfg17.idle 5 (grid17.coords t) = false)
/-- and not written back where it is idle. -/
theorem noFlush17_5 (t : Fin cfg17.N) (h : ¬t.val % 8 = 7) : (cfg17.win 5).flush t = false := by
  cases hf : (cfg17.win 5).flush t with
  | false => rfl
  | true => exact absurd ((flush17_5 t).mp hf) h

/-! ## What the body finds in the inputs' buffers and leaves in every buffer -/

/-- Each input's current staging buffer holds its block at every point, fetched there or not. -/
theorem before17_0 (V : Valuation τ sig (Elt F)) (c : Dev nD) (t : Fin cfg17.N) (d) : (dat17 (Ix := Ix) (U := U) (Lvl := Lvl) V c).before 0 t d = iblk17 V c 0 t :=
  ((dat17 (Ix := Ix) (U := U) (Lvl := Lvl) V c).before_in_eq_fetched 0 rfl (fun _ => rfl) (fun _ _ _ => rfl)
      (fun t => by rw [after17_0]; unfold Dat.blockOf iblk17; rw [A_eq17]; try rfl) t d).trans
    (by unfold Dat.fetched Dat.blockOf iblk17; rw [A_eq17]; try rfl)
theorem before17_1 (V : Valuation τ sig (Elt F)) (c : Dev nD) (t : Fin cfg17.N) (d) : (dat17 (Ix := Ix) (U := U) (Lvl := Lvl) V c).before 1 t d = iblk17 V c 1 t :=
  ((dat17 (Ix := Ix) (U := U) (Lvl := Lvl) V c).before_in_eq_fetched 1 rfl (fun _ => rfl) (fun _ _ _ => rfl)
      (fun t => by rw [after17_1]; unfold Dat.blockOf iblk17; rw [A_eq17]; try rfl) t d).trans
    (by unfold Dat.fetched Dat.blockOf iblk17; rw [A_eq17]; try rfl)
theorem before17_2 (V : Valuation τ sig (Elt F)) (c : Dev nD) (t : Fin cfg17.N) (d) : (dat17 (Ix := Ix) (U := U) (Lvl := Lvl) V c).before 2 t d = iblk17 V c 2 t :=
  ((dat17 (Ix := Ix) (U := U) (Lvl := Lvl) V c).before_in_eq_fetched 2 rfl (fun _ => rfl) (fun _ _ _ => rfl)
      (fun t => by rw [after17_2]; unfold Dat.blockOf iblk17; rw [A_eq17]; try rfl) t d).trans
    (by unfold Dat.fetched Dat.blockOf iblk17; rw [A_eq17]; try rfl)
theorem before17_3 (V : Valuation τ sig (Elt F)) (c : Dev nD) (t : Fin cfg17.N) (d) : (dat17 (Ix := Ix) (U := U) (Lvl := Lvl) V c).before 3 t d = iblk17 V c 3 t :=
  ((dat17 (Ix := Ix) (U := U) (Lvl := Lvl) V c).before_in_eq_fetched 3 rfl (fun _ => rfl) (fun _ _ _ => rfl)
      (fun t => by rw [after17_3]; unfold Dat.blockOf iblk17; rw [A_eq17]; try rfl) t d).trans
    (by unfold Dat.fetched Dat.blockOf iblk17; rw [A_eq17]; try rfl)
theorem before17_4 (V : Valuation τ sig (Elt F)) (c : Dev nD) (t : Fin cfg17.N) (d) : (dat17 (Ix := Ix) (U := U) (Lvl := Lvl) V c).before 4 t d = iblk17 V c 4 t :=
  ((dat17 (Ix := Ix) (U := U) (Lvl := Lvl) V c).before_in_eq_fetched 4 rfl (fun _ => rfl) (fun _ _ _ => rfl)
      (fun t => by rw [after17_4]; unfold Dat.blockOf iblk17; rw [A_eq17]; try rfl) t d).trans
    (by unfold Dat.fetched Dat.blockOf iblk17; rw [A_eq17]; try rfl)

/-! ## The body obligation, at a generic point -/

/-- What the body is called with at point `t` (the obligation's precondition, the windows one by one), -/
noncomputable def bodyPre17 (V : Valuation τ sig (Elt F)) (c : Dev nD) (ι : Ix) (t : Fin cfg17.N) : sProp 𝕄 :=
  iprop((dat17 (Ix := Ix) (U := U) (Lvl := Lvl) V c).Φ t.castSucc ∗ (dat17 (Ix := Ix) (U := U) (Lvl := Lvl) V c).owesAt ι t.castSucc
    ∗ (∃ d, owns (c : Thread nD τ) (st17_0 t) fullShare ((dat17 (Ix := Ix) (U := U) (Lvl := Lvl) V c).before 0 t d))
    ∗ (∃ d, owns (c : Thread nD τ) (st17_1 t) fullShare ((dat17 (Ix := Ix) (U := U) (Lvl := Lvl) V c).before 1 t d))
    ∗ (∃ d, owns (c : Thread nD τ) (st17_2 t) fullShare ((dat17 (Ix := Ix) (U := U) (Lvl := Lvl) V c).before 2 t d))
    ∗ (∃ d, owns (c : Thread nD τ) (st17_3 t) fullShare ((dat17 (Ix := Ix) (U := U) (Lvl := Lvl) V c).before 3 t d))
    ∗ (∃ d, owns (c : Thread nD τ) (st17_4 t) fullShare ((dat17 (Ix := Ix) (U := U) (Lvl := Lvl) V c).before 4 t d))
    ∗ (∃ d, owns (c : Thread nD τ) (st17_5 t) fullShare ((dat17 (Ix := Ix) (U := U) (Lvl := Lvl) V c).before 5 t d)))

/-- and what it returns. -/
noncomputable def bodyPost17 (V : Valuation τ sig (Elt F)) (c : Dev nD) (ι : Ix) (t : Fin cfg17.N) : sProp 𝕄 :=
  iprop((dat17 (Ix := Ix) (U := U) (Lvl := Lvl) V c).Φ t.succ ∗ (dat17 (Ix := Ix) (U := U) (Lvl := Lvl) V c).owesAt ι t.succ
    ∗ (dat17 (Ix := Ix) (U := U) (Lvl := Lvl) V c).leaves 0 t ∗ (dat17 (Ix := Ix) (U := U) (Lvl := Lvl) V c).leaves 1 t ∗ (dat17 (Ix := Ix) (U := U) (Lvl := Lvl) V c).leaves 2 t
    ∗ (dat17 (Ix := Ix) (U := U) (Lvl := Lvl) V c).leaves 3 t ∗ (dat17 (Ix := Ix) (U := U) (Lvl := Lvl) V c).leaves 4 t ∗ (dat17 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body17 (𝒱₀ : Variants) (ι : Ix) (V : Valuation τ sig (Elt F)) (c : Dev nD) (t : Fin cfg17.N) :
    bodyPre17 (Ix := Ix) (U := U) (Lvl := Lvl) V c ι t ⊢ wp frame (wpE (defs₀ (F := F)) 𝒱₀ c none) Set.univ (bodyAt17 t) (fun _ => bodyPost17 (Ix := Ix) (U := U) (Lvl := Lvl) V c ι t) := by
  unfold bodyPre17 bodyPost17 bodyAt17
  simp only [before17_0, before17_1, before17_2, before17_3, before17_4]
  rw [show (dat17 (Ix := Ix) (U := U) (Lvl := Lvl) V c).owesAt ι t.succ = (dat17 (Ix := Ix) (U := U) (Lvl := Lvl) V c).owesAt ι t.castSucc from rfl]
  rw [Phi17_at_succ, Phi17_succ, Phi17_castSucc]
  rw [leaves_live (dat17 (Ix := Ix) (U := U) (Lvl := Lvl) V c) 0 t rfl rfl, leaves_live (dat17 (Ix := Ix) (U := U) (Lvl := Lvl) V c) 1 t rfl rfl, leaves_live (dat17 (Ix := Ix) (U := U) (Lvl := Lvl) V c) 2 t rfl rfl,
    leaves_live (dat17 (Ix := Ix) (U := U) (Lvl := Lvl) V c) 3 t rfl rfl, leaves_live (dat17 (Ix := Ix) (U := U) (Lvl := Lvl) V c) 4 t rfl rfl, after17_0, after17_1, after17_2, after17_3, after17_4]
  have hN : t.val < 64 := lt_of_lt_of_eq t.isLt (show cfg17.N = 64 from N_17)
  by_cases h0 : t.val % 8 = 0
  · have h7 : ¬t.val % 8 = 7 := by omega
    rw [Dat.leaves_idle (dat17 (Ix := Ix) (U := U) (Lvl := Lvl) V c) 5 t (idleAt17_5 t h7) (noFlush17_5 t h7)]
    rw [acc17_reset V c t.val t.isLt h0]
    unfold step17 init17
    by_cases hz : t.val = 0
    · rw [Phi17_zero V c _ _ hz, scopedRest17_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run17_first 𝒱₀ c (grid17.coords t) _ _ _ _ _ _ _ _ _ _ _ _ _ _ ((hcond17_0 t).mpr h0) (fun h => h7 ((hcond17_1 t).mp h)) (iblk17 V c 0 t) (iblk17 V c 1 t) (iblk17 V c 2 t) (iblk17 V c 3 t) (iblk17 V c 4 t) ((dat17 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi17_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run17_first 𝒱₀ c (grid17.coords t) _ _ _ _ _ _ _ _ _ _ _ _ _ _ ((hcond17_0 t).mpr h0) (fun h => h7 ((hcond17_1 t).mp h)) (iblk17 V c 0 t) (iblk17 V c 1 t) (iblk17 V c 2 t) (iblk17 V c 3 t) (iblk17 V c 4 t) ((dat17 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc17_step V c t.val t.isLt h0, Phi17_pos V c _ _ hz]
    unfold step17
    by_cases h7 : t.val % 8 = 7
    · rw [leaves_live (dat17 (Ix := Ix) (U := U) (Lvl := Lvl) V c) 5 t (liveAt17_5 t h7) rfl, after17_5, acc17_step V c t.val t.isLt h0]
      unfold step17
      iintro ⟨⟨HS, Hr⟩, Ho, ⟨%d0, H0⟩, ⟨%d1, H1⟩, ⟨%d2, H2⟩, ⟨%d3, H3⟩, ⟨%d4, H4⟩, ⟨%d5, H5⟩⟩
      iapply (run17_last 𝒱₀ c (grid17.coords t) _ _ _ _ _ _ _ _ _ _ _ _ _ _ (fun h => h0 ((hcond17_0 t).mp h)) ((hcond17_1 t).mpr h7) (iblk17 V c 0 t) (iblk17 V c 1 t) (iblk17 V c 2 t) (iblk17 V c 3 t) (iblk17 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat17 (Ix := Ix) (U := U) (Lvl := Lvl) V c) 5 t (idleAt17_5 t h7) (noFlush17_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run17_mid 𝒱₀ c (grid17.coords t) _ _ _ _ _ _ _ _ _ _ _ _ _ _ (fun h => h0 ((hcond17_0 t).mp h)) (fun h => h7 ((hcond17_1 t).mp h)) (iblk17 V c 0 t) (iblk17 V c 1 t) (iblk17 V c 2 t) (iblk17 V c 3 t) (iblk17 V c 4 t) ((dat17 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation17 (𝒱₀ : Variants) (ι : Ix) (V : Valuation τ sig (Elt F)) (c : Dev nD) :
    BodyObligationLoose (dat17 (Ix := Ix) (U := U) (Lvl := Lvl) V c) (defs₀ (F := F)) 𝒱₀ ι Set.univ := fun t => by
  rw [bigSep_W17, bigSep_W17]
  exact sound_body17 𝒱₀ ι V c t

/-- The same at the type the program's family of configurations gives pipeline 1, on every core. -/
theorem body17 (𝒱₀ : Variants) (ι : Ix) (V : Valuation τ sig (Elt F)) :
    ∀ c : Dev nD, BodyObligationLoose (cfg := cfgs 17) (dat17 (Ix := Ix) (U := U) (Lvl := Lvl) V c) (defs₀ (F := F)) 𝒱₀ ι Set.univ :=
  fun c => body_obligation17 𝒱₀ ι V c

end Cert.Kernel.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg17

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (17 : Fin 24)
/-- Its configuration, its windows but for their index maps, the number of its windows. -/
abbrev cfgK : Pipeline.Cfg sig Λ₀ := cfg17
abbrev specK : Fin 6 → Pipeline.WinSpec sig cfgK.grid.rank := spec17
abbrev nW : Nat := 6
/-- Its output window and the buffer behind it. -/
abbrev oK : Fin nW := 5
abbrev outK : Ref sig .tc := main_v580
theorem winK : Pipeline.WinFacts₀ specK := winFacts₀17
theorem block_posK : ∀ w : Fin nW, 0 < (specK w).block.numel := block_pos17
theorem arr_wholeK : ∀ w : Fin nW, (specK w).arr.IsWhole := arr_whole17
theorem stage_wholeK : ∀ (w : Fin nW) (s : Fin (specK w).nbuf), ((specK w).stage s).IsWhole := stage_whole17

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.Kernel.Hand.Reg17

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R17' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (17 : Fin 24) c = dat17 (V94 m outs c) c)
    (hbody : ∀ c : Dev nD, Pipeline.BodyObligationLoose (dat17 (Ix := Ix) (U := U) (Lvl := Lvl) (V94 m outs c) c) (defs₀ (F := F)) 𝒱₀ ι Set.univ) :
    RegionSeg (pcfgs (F := F)) GenP.adm pdats ι defs₀ 𝒱₀ L lv (17 : Fin 24) :=
  Reg17.RK 𝒱₀ L lv ι pdats (fun c => V94 m outs c)
    (fun c => by rw [hp c]; exact hbody c)
    (fun c w => by rw [hp c]; exact A_eq17 (V94 m outs c) c w)
    (fun c => by rw [hp c]; rw [q17_1, q17_2]; exact PosShare.mem_left_op_right fullShare)
    (fun c => by rw [hp c]; rw [q17_3, q17_4]; exact PosShare.mem_left_op_right fullShare)
    (fun c => by rw [hp c]; exact q17_0 (V94 m outs c) c)
    (fun c t => by rw [hp c]; rfl)
    (fun c => by rw [hp c]; rfl)
    (fun c => by rw [hp c, Phi_first17])
    (fun c => by rw [hp c]; exact Phi_last17 (V94 m outs c) c)

/-- It is entered from the thread state before the region's item, -/
theorem hpre17' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (17 : Fin 24) c = dat17 (V94 m outs c) c)
    (hbody : ∀ c : Dev nD, Pipeline.BodyObligationLoose (dat17 (Ix := Ix) (U := U) (Lvl := Lvl) (V94 m outs c) c) (defs₀ (F := F)) 𝒱₀ ι Set.univ)
    (c : Dev nD) :
    iprop(StableHlo.held (c : Thread nD τ) (Pipeline.ucRefs τ sig) (V94 m outs c) ∗ (R c : sProp 𝕄))
      ⊢ (R17' m outs 𝒱₀ L lv ι pdats hp hbody).pre c := .rfl

/-- and left at the thread state after it. -/
theorem hpost17' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (17 : Fin 24) c = dat17 (V94 m outs c) c)
    (hbody : ∀ c : Dev nD, Pipeline.BodyObligationLoose (dat17 (Ix := Ix) (U := U) (Lvl := Lvl) (V94 m outs c) c) (defs₀ (F := F)) 𝒱₀ ι Set.univ)
    (houts : ∀ c : Dev nD, outs 95 main_v580 c = (dat17 (Ix := Ix) (U := U) (Lvl := Lvl) (V94 m outs c) c).arrAt 5 64)
    (c : Dev nD) :
    (R17' m outs 𝒱₀ L lv ι pdats hp hbody).post c
      ⊢ iprop(StableHlo.held (c : Thread nD τ) (Pipeline.ucRefs τ sig) (V95 m outs c) ∗ (R c : sProp 𝕄)) := by
  have h : (pdats (17 : Fin 24) c).arrAt Reg17.oK Reg17.cfgK.N = outs 95 main_v580 c := by
    rw [hp c]; exact (houts c).symm
  show iprop(StableHlo.held (c : Thread nD τ) (Pipeline.ucRefs τ sig)
      (Function.update (V94 m outs c) (Proc.devRef .tc main_v580) ((pdats (17 : Fin 24) c).arrAt Reg17.oK Reg17.cfgK.N))
        ∗ (R c : sProp 𝕄)) ⊢ _
  rw [h]

end Cert.Kernel.Hand
-- ==== Proof.K_Rg18.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_SumLib
import Idealize.ShloMosaic.Lib.Tactic
import proofs.«169706_j68856915690108_1_alg».proof.Proof.K_Shared
import proofs.«169706_j68856915690108_1_alg».proof.Proof.RegionsK

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k18_pay2)

  and only at the last point, 63, is that cell copied into the 1 × 1 output block, which the pipeline then writes back.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk18 (V : Valuation τ sig (Elt F)) (c : Dev nD) (w : Fin cfg18.W) (t : Fin cfg18.N) :
    ((cfg18.win w).xblock (cfg18.grid.coords t)).Idx → Elt F (cfg18.win w).elt :=
  ((cfg18.win w).blk t).view.read (Elt F)
    (V (Proc.devRef .tc (Pipeline.arrRef spec18 w)) : Buf (Elt F) ((cfg18.win w).arr.view.loc (c.tc : Thread nD τ)))

/-- One point's step on the scratch cell: the cell's contents `a` plus the sum of the tile made of the two blocks
    the point stages (the printed payload of the store into the scratch cell). -/
noncomputable def step18 (V : Valuation τ sig (Elt F)) (c : Dev nD) (n : ℕ) (hn : n < cfg18.N) (a : Vec F S1x1 .f32) : Vec F S1x1 .f32 :=
  k18_pay2 (iblk18 V c 0 ⟨n, hn⟩) (iblk18 V c 1 ⟨n, hn⟩) a

/-- What the scratch cell holds after point `n`: the steps of the points `0 … n` applied, first to last, to the
    zero the body stores at point 0. -/
noncomputable def acc18 (V : Valuation τ sig (Elt F)) (c : Dev nD) : (n : ℕ) → n < cfg18.N → Vec F S1x1 .f32
  | 0, hn => step18 V c 0 hn (k18_pay1 (F := F))
  | n + 1, hn => step18 V c (n + 1) hn (acc18 V c n (Nat.lt_of_succ_lt hn))

theorem acc18_zero (V : Valuation τ sig (Elt F)) (c : Dev nD) (hn : 0 < cfg18.N) :
    acc18 V c 0 hn = step18 V c 0 hn (k18_pay1 (F := F)) := rfl

theorem acc18_succ (V : Valuation τ sig (Elt F)) (c : Dev nD) (n : ℕ) (hn : n + 1 < cfg18.N) :
    acc18 V c (n + 1) hn = step18 V c (n + 1) hn (acc18 V c n (Nat.lt_of_succ_lt hn)) := rfl

/-- After a point that is not the first: the step of that point on what the point before left. -/
theorem acc18_pos (V : Valuation τ sig (Elt F)) (c : Dev nD) (n : ℕ) (hn : n < cfg18.N) (hz : n ≠ 0) :
    acc18 V c n hn = step18 V c n hn (acc18 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi18 (V : Valuation τ sig (Elt F)) (c : Dev nD) : (n : ℕ) → n ≤ cfg18.N → sProp 𝕄
  | 0, _ => Pipeline.scopedRest (Ix := Ix) (Name := ℕ) (U := U) (Lvl := Lvl) (Val := Elt F) spec18 c
  | n + 1, hn => iprop(owns (c : Thread nD τ) (Memref.whole cc18_scratch0) fullShare (acc18 V c n hn)
      ∗ Pipeline.scopedRestBut (Ix := Ix) (Name := ℕ) (U := U) (Lvl := Lvl) (Val := Elt F) spec18 c [cc18_scratch0])

theorem Phi18_zero (V : Valuation τ sig (Elt F)) (c : Dev nD) (n : ℕ) (h : n ≤ cfg18.N) (hz : n = 0) :
    (Phi18 V c n h : sProp 𝕄) = Pipeline.scopedRest (Ix := Ix) (Name := ℕ) (U := U) (Lvl := Lvl) (Val := Elt F) spec18 c := by
  subst hz; rfl

theorem Phi18_succ (V : Valuation τ sig (Elt F)) (c : Dev nD) (n : ℕ) (hn : n < cfg18.N) :
    (Phi18 V c (n + 1) hn : sProp 𝕄) = iprop(owns (c : Thread nD τ) (Memref.whole cc18_scratch0) fullShare (acc18 V c n hn)
      ∗ Pipeline.scopedRestBut (Ix := Ix) (Name := ℕ) (U := U) (Lvl := Lvl) (Val := Elt F) spec18 c [cc18_scratch0]) := rfl

theorem Phi18_pos (V : Valuation τ sig (Elt F)) (c : Dev nD) (n : ℕ) (h : n ≤ cfg18.N) (hz : n ≠ 0) :
    (Phi18 V c n h : sProp 𝕄) = iprop(owns (c : Thread nD τ) (Memref.whole cc18_scratch0) fullShare (acc18 V c (n - 1) (by omega))
      ∗ Pipeline.scopedRestBut (Ix := Ix) (Name := ℕ) (U := U) (Lvl := Lvl) (Val := Elt F) spec18 c [cc18_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi18`; the one
    array the two inputs read held half and half; nothing owed. -/
noncomputable def dat18 (V : Valuation τ sig (Elt F)) (c : Dev nD) : Dat τ (Elt F) Ix ℕ U Lvl cfg18 c where
  A w := V (Proc.devRef .tc (Pipeline.arrRef spec18 w))
  after w t := match w with
    | ⟨0, _⟩ => iblk18 V c 0 t
    | ⟨1, _⟩ => iblk18 V c 1 t
    | ⟨2, _⟩ => acc18 V c t.val t.isLt
  Φ t := Phi18 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq18 (V : Valuation τ sig (Elt F)) (c : Dev nD) (w : Fin cfg18.W) :
    (dat18 (Ix := Ix) (U := U) (Lvl := Lvl) V c).A w = V (Proc.devRef .tc (Pipeline.arrRef spec18 w)) := by
  dsimp only [dat18]

/-- What the body leaves, window by window. -/
theorem after18_0 (V : Valuation τ sig (Elt F)) (c : Dev nD) (t : Fin cfg18.N) :
    (dat18 (Ix := Ix) (U := U) (Lvl := Lvl) V c).after 0 t = iblk18 V c 0 t := by dsimp only [dat18]
theorem after18_1 (V : Valuation τ sig (Elt F)) (c : Dev nD) (t : Fin cfg18.N) :
    (dat18 (Ix := Ix) (U := U) (Lvl := Lvl) V c).after 1 t = iblk18 V c 1 t := by dsimp only [dat18]
theorem after18_2 (V : Valuation τ sig (Elt F)) (c : Dev nD) (t : Fin cfg18.N) :
    (dat18 (Ix := Ix) (U := U) (Lvl := Lvl) V c).after 2 t = acc18 V c t.val t.isLt := by dsimp only [dat18]

/-- The invariant at a point's start, and at its end. -/
theorem Phi18_castSucc (V : Valuation τ sig (Elt F)) (c : Dev nD) (t : Fin cfg18.N) :
    (dat18 (Ix := Ix) (U := U) (Lvl := Lvl) V c).Φ t.castSucc = Phi18 V c t.val (Nat.le_of_lt t.isLt) := by
  dsimp only [dat18]; simp only [Fin.coe_castSucc]

theorem Phi18_at_succ (V : Valuation τ sig (Elt F)) (c : Dev nD) (t : Fin cfg18.N) :
    (dat18 (Ix := Ix) (U := U) (Lvl := Lvl) V c).Φ t.succ = Phi18 V c (t.val + 1) t.isLt := rfl

/-- Before the first point the invariant is the launch's scoped rest. -/
theorem Phi_first18 (V : Valuation τ sig (Elt F)) (c : Dev nD) :
    (dat18 (Ix := Ix) (U := U) (Lvl := Lvl) V c).Φ 0
      = Pipeline.scopedRest (Ix := Ix) (Name := ℕ) (U := U) (Lvl := Lvl) (Val := Elt F) spec18 c := rfl

/-- After the last point the invariant gives the scoped rest back: the scratch cell's contents are forgotten. -/
theorem Phi_last18 (V : Valuation τ sig (Elt F)) (c : Dev nD) :
    (dat18 (Ix := Ix) (U := U) (Lvl := Lvl) V c).Φ (Fin.last cfg18.N)
      ⊢ Pipeline.scopedRest (Ix := Ix) (Name := ℕ) (U := U) (Lvl := Lvl) (Val := Elt F) spec18 c := by
  have hN : cfg18.N = 64 := N_18
  rw [show (dat18 (Ix := Ix) (U := U) (Lvl := Lvl) V c).Φ (Fin.last cfg18.N) = Phi18 V c (Fin.last cfg18.N).val (Nat.le_of_lt_succ (Fin.last cfg18.N).isLt) from rfl,
    Phi18_pos V c _ _ (by rw [Fin.val_last]; omega), scopedRest18_split, owns_whole]
  iintro ⟨Hs, Hr⟩
  isplitl [Hs]
  · iexists _; iexact Hs
  iexact Hr

example (V : Valuation τ sig (Elt F)) (c : Dev nD) : Dat τ (Elt F) Ix ℕ U Lvl (cfgs 18) c := dat18 V c

end Cert.Kernel.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k18_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond18_1 (i : grid18.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond18_2 (i : grid18.Coords) : Prop := k18_cond2 i = 1#1

/-- The reset runs at the first point only, -/
theorem hcond18_1 : ∀ t : Fin cfg18.N, cond18_1 (grid18.coords t) ↔ t.val = 0 :=
  (by decide +kernel : ∀ t : Fin grid18.N, cond18_1 (grid18.coords t) ↔ t.val = 0)
/-- the copy at the last point only. -/
theorem hcond18_2 : ∀ t : Fin cfg18.N, cond18_2 (grid18.coords t) ↔ t.val = 63 :=
  (by decide +kernel : ∀ t : Fin grid18.N, cond18_2 (grid18.coords t) ↔ t.val = 63)

/-! ## The body, case by case, on any whole memrefs -/

/-- The first point: the scratch cell, at anything, is reset and then holds the first step on zero. -/
theorem run18_A (𝒱₀ : Variants) (c : Dev nD) (i : grid18.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond18_1 i) (hc2 : ¬cond18_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k18_pay2 x2 x3 (k18_pay1 (F := F)))) -∗ K ⟨⟩))
      ⊢ wp frame (wpE (defs₀ (F := F)) 𝒱₀ c none) E (cc18__sum_kernel i arg2 harg2 arg3 harg3 arg4 harg4 arg5 harg5) K := by
  simp only [cc18__sum_kernel_eq_skeleton]; unfold cc18__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run18_A.sl.v15 run18_A.sl.H5_1
  rw [readCov_whole _ zeros2, readAt_whole _ _ zeros2, readAt_whole _ _ zeros2]

/-- A point strictly between the first and the last: the scratch cell at `a` takes the point's step. -/
theorem run18_B (𝒱₀ : Variants) (c : Dev nD) (i : grid18.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond18_1 i) (hc2 : ¬cond18_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k18_pay2 x2 x3 a)) -∗ K ⟨⟩))
      ⊢ wp frame (wpE (defs₀ (F := F)) 𝒱₀ c none) E (cc18__sum_kernel i arg2 harg2 arg3 harg3 arg4 harg4 arg5 harg5) K := by
  simp only [cc18__sum_kernel_eq_skeleton]; unfold cc18__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run18_C (𝒱₀ : Variants) (c : Dev nD) (i : grid18.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond18_1 i) (hc2 : cond18_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k18_pay2 x2 x3 a) ∗ owns (c : Thread nD τ) arg5 fullShare (k18_pay2 x2 x3 a)) -∗ K ⟨⟩))
      ⊢ wp frame (wpE (defs₀ (F := F)) 𝒱₀ c none) E (cc18__sum_kernel i arg2 harg2 arg3 harg3 arg4 harg4 arg5 harg5) K := by
  simp only [cc18__sum_kernel_eq_skeleton]; unfold cc18__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run18_C.sl.v25 run18_C.sl.H5_1
    rw [readCov_whole _ zeros2, readAt_whole _ _ zeros2, readAt_whole _ _ zeros2, readAt_whole _ _ zeros2]
  iexists _; isplitr
  swap; · iexact H5
  ipureintro
  unfold run18_C.sl.H5_1
  rw [read_writes_whole _ _ zeros2, readAt_whole _ _ zeros2, readAt_whole _ _ zeros2, readAt_whole _ _ zeros2]

end Cert.Kernel.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle18_2 : ∀ t : Fin cfg18.N, cfg18.idle 2 (grid18.coords t) = true ↔ t.val ≠ 63 :=
  (by decide +kernel : ∀ t : Fin grid18.N, idle18 2 (grid18.coords t) = true ↔ t.val ≠ 63)
/-- and written back at the last point only. -/
theorem flush18_2' : ∀ t : Fin cfg18.N, (cfg18.win 2).flush t = true ↔ t.val = 63 :=
  (by decide +kernel : ∀ t : Fin grid18.N, win18_2.flush t = true ↔ t.val = 63)

/-! ## What the body finds in the inputs' buffers -/

/-- Each input's current staging buffer holds its block at every point, fetched there or not: unfetched, the block
    index has not moved and the body left the block in place. -/
theorem before18_0 (V : Valuation τ sig (Elt F)) (c : Dev nD) (t : Fin cfg18.N) (d) :
    (dat18 (Ix := Ix) (U := U) (Lvl := Lvl) V c).before 0 t d = iblk18 V c 0 t :=
  ((dat18 (Ix := Ix) (U := U) (Lvl := Lvl) V c).before_in_eq_fetched 0 rfl (fun _ => rfl) (fun _ _ _ => rfl)
      (fun t => by rw [after18_0]; unfold Dat.blockOf iblk18; rw [A_eq18]; try rfl) t d).trans
    (by unfold Dat.fetched Dat.blockOf iblk18; rw [A_eq18]; try rfl)

theorem before18_1 (V : Valuation τ sig (Elt F)) (c : Dev nD) (t : Fin cfg18.N) (d) :
    (dat18 (Ix := Ix) (U := U) (Lvl := Lvl) V c).before 1 t d = iblk18 V c 1 t :=
  ((dat18 (Ix := Ix) (U := U) (Lvl := Lvl) V c).before_in_eq_fetched 1 rfl (fun _ => rfl) (fun _ _ _ => rfl)
      (fun t => by rw [after18_1]; unfold Dat.blockOf iblk18; rw [A_eq18]; try rfl) t d).trans
    (by unfold Dat.fetched Dat.blockOf iblk18; rw [A_eq18]; try rfl)

/-! ## What the obligation asks of each window's buffer after the body -/

/-- The inputs are never idle: their buffers are handed back at their blocks. -/
theorem leaves18_0 (V : Valuation τ sig (Elt F)) (c : Dev nD) (t : Fin cfg18.N) :
    (dat18 (Ix := Ix) (U := U) (Lvl := Lvl) V c).leaves 0 t = owns (c : Thread nD τ) (st18_0 t) fullShare (iblk18 V c 0 t) := by
  rw [← after18_0 (Ix := Ix) (U := U) (Lvl := Lvl) V c t]

theorem leaves18_1 (V : Valuation τ sig (Elt F)) (c : Dev nD) (t : Fin cfg18.N) :
    (dat18 (Ix := Ix) (U := U) (Lvl := Lvl) V c).leaves 1 t = owns (c : Thread nD τ) (st18_1 t) fullShare (iblk18 V c 1 t) := by
  rw [← after18_1 (Ix := Ix) (U := U) (Lvl := Lvl) V c t]

/-- The output is idle, and not written back, at every point but the last: its buffer is handed back as found; -/
theorem leaves18_2_idle (V : Valuation τ sig (Elt F)) (c : Dev nD) (t : Fin cfg18.N) (h : t.val ≠ 63) :
    (dat18 (Ix := Ix) (U := U) (Lvl := Lvl) V c).leaves 2 t
      = iprop(∃ d, owns (c : Thread nD τ) (st18_2 t) fullShare ((dat18 (Ix := Ix) (U := U) (Lvl := Lvl) V c).before 2 t d)) :=
  (dat18 (Ix := Ix) (U := U) (Lvl := Lvl) V c).leaves_idle 2 t ((idle18_2 t).mpr h)
    (Bool.eq_false_iff.mpr fun hf => h ((flush18_2' t).mp hf))

/-- at the last point it is handed back at the accumulated sum. -/
theorem leaves18_2_last (V : Valuation τ sig (Elt F)) (c : Dev nD) (t : Fin cfg18.N) (h : t.val = 63) :
    (dat18 (Ix := Ix) (U := U) (Lvl := Lvl) V c).leaves 2 t = owns (c : Thread nD τ) (st18_2 t) fullShare (acc18 V c t.val t.isLt) := by
  have hl : cfg18.idle 2 (grid18.coords t) = false := by
    cases hi : cfg18.idle 2 (grid18.coords t) with
    | false => rfl
    | true => exact absurd h ((idle18_2 t).mp hi)
  rw [← after18_2 (Ix := Ix) (U := U) (Lvl := Lvl) V c t]
  unfold Dat.leaves; rw [hl]

/-- One step at a point, through the point itself. -/
theorem step18_at (V : Valuation τ sig (Elt F)) (c : Dev nD) (t : Fin cfg18.N) (a : Vec F S1x1 .f32) :
    step18 V c t.val t.isLt a = k18_pay2 (iblk18 V c 0 t) (iblk18 V c 1 t) a := rfl

theorem acc18_first (V : Valuation τ sig (Elt F)) (c : Dev nD) (n : ℕ) (hn : n < cfg18.N) (hz : n = 0) :
    acc18 V c n hn = step18 V c n hn (k18_pay1 (F := F)) := by
  subst hz; rfl

/-! ## The body obligation -/

/-- What the body is called with at point `t` (the obligation's precondition, the windows one by one), -/
noncomputable def bodyPre18 (V : Valuation τ sig (Elt F)) (ι : Ix) (c : Dev nD) (t : Fin cfg18.N) : sProp 𝕄 :=
  iprop((dat18 (Ix := Ix) (U := U) (Lvl := Lvl) V c).Φ t.castSucc ∗ (dat18 (Ix := Ix) (U := U) (Lvl := Lvl) V c).owesAt ι t.castSucc
    ∗ (∃ d, owns (c : Thread nD τ) (st18_0 t) fullShare ((dat18 (Ix := Ix) (U := U) (Lvl := Lvl) V c).before 0 t d))
    ∗ (∃ d, owns (c : Thread nD τ) (st18_1 t) fullShare ((dat18 (Ix := Ix) (U := U) (Lvl := Lvl) V c).before 1 t d))
    ∗ (∃ d, owns (c : Thread nD τ) (st18_2 t) fullShare ((dat18 (Ix := Ix) (U := U) (Lvl := Lvl) V c).before 2 t d)))

/-- and what it returns. -/
noncomputable def bodyPost18 (V : Valuation τ sig (Elt F)) (ι : Ix) (c : Dev nD) (t : Fin cfg18.N) : sProp 𝕄 :=
  iprop((dat18 (Ix := Ix) (U := U) (Lvl := Lvl) V c).Φ t.succ ∗ (dat18 (Ix := Ix) (U := U) (Lvl := Lvl) V c).owesAt ι t.succ
    ∗ (dat18 (Ix := Ix) (U := U) (Lvl := Lvl) V c).leaves 0 t ∗ (dat18 (Ix := Ix) (U := U) (Lvl := Lvl) V c).leaves 1 t ∗ (dat18 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body18 (V : Valuation τ sig (Elt F)) (𝒱₀ : Variants) (ι : Ix) (c : Dev nD) (t : Fin cfg18.N) :
    bodyPre18 (U := U) (Lvl := Lvl) V ι c t
      ⊢ wp frame (wpE (defs₀ (F := F)) 𝒱₀ c none) Set.univ (bodyAt18 t) (fun _ => bodyPost18 (U := U) (Lvl := Lvl) V ι c t) := by
  unfold bodyPre18 bodyPost18 bodyAt18
  simp only [before18_0, before18_1]
  rw [show (dat18 (Ix := Ix) (U := U) (Lvl := Lvl) V c).owesAt ι t.succ = (dat18 (Ix := Ix) (U := U) (Lvl := Lvl) V c).owesAt ι t.castSucc from rfl]
  rw [Phi18_at_succ, Phi18_succ, Phi18_castSucc, leaves18_0, leaves18_1]
  have hN : t.val < 64 := lt_of_lt_of_eq t.isLt N_18
  by_cases hz : t.val = 0
  · have hc1 : cond18_1 (grid18.coords t) := (hcond18_1 t).mpr hz
    have hc2 : ¬cond18_2 (grid18.coords t) := fun h => by have := (hcond18_2 t).mp h; omega
    rw [leaves18_2_idle V c t (by omega), Phi18_zero V c _ _ hz, scopedRest18_split, acc18_first V c _ _ hz, step18_at]
    iintro ⟨⟨⟨%f, Hs⟩, Hr⟩, Ho, ⟨%d0, H0⟩, ⟨%d1, H1⟩, H2⟩
    iapply (run18_A 𝒱₀ c (grid18.coords t) _ _ _ _ _ _ _ _ hc1 hc2 (iblk18 V c 0 t) (iblk18 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond18_1 (grid18.coords t) := fun h => hz ((hcond18_1 t).mp h)
    rw [Phi18_pos V c _ _ hz, acc18_pos V c _ _ hz, step18_at]
    by_cases hl : t.val = 63
    · have hc2 : cond18_2 (grid18.coords t) := (hcond18_2 t).mpr hl
      rw [leaves18_2_last V c t hl, acc18_pos V c _ _ hz, step18_at]
      iintro ⟨⟨Hs, Hr⟩, Ho, ⟨%d0, H0⟩, ⟨%d1, H1⟩, ⟨%d2, H2⟩⟩
      iapply (run18_C 𝒱₀ c (grid18.coords t) _ _ _ _ _ _ _ _ hc1 hc2 (iblk18 V c 0 t) (iblk18 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond18_2 (grid18.coords t) := fun h => hl ((hcond18_2 t).mp h)
      rw [leaves18_2_idle V c t hl]
      iintro ⟨⟨Hs, Hr⟩, Ho, ⟨%d0, H0⟩, ⟨%d1, H1⟩, H2⟩
      iapply (run18_B 𝒱₀ c (grid18.coords t) _ _ _ _ _ _ _ _ hc1 hc2 (iblk18 V c 0 t) (iblk18 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body18 (V : Valuation τ sig (Elt F)) (𝒱₀ : Variants) (ι : Ix) :
    ∀ c : Dev nD, BodyObligationLoose (dat18 (Ix := Ix) (U := U) (Lvl := Lvl) V c) (defs₀ (F := F)) 𝒱₀ ι Set.univ := fun c t => by
  rw [bigSep_W18, bigSep_W18]
  exact sound_body18 (U := U) (Lvl := Lvl) V 𝒱₀ ι c t

end Cert.Kernel.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg18

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (18 : Fin 24)
/-- Its configuration, its windows but for their index maps, the number of its windows. -/
abbrev cfgK : Pipeline.Cfg sig Λ₀ := cfg18
abbrev specK : Fin 3 → Pipeline.WinSpec sig cfgK.grid.rank := spec18
abbrev nW : Nat := 3
/-- Its output window and the buffer behind it. -/
abbrev oK : Fin nW := 2
abbrev outK : Ref sig .tc := main_v649
theorem winK : Pipeline.WinFacts₀ specK := winFacts₀18
theorem block_posK : ∀ w : Fin nW, 0 < (specK w).block.numel := block_pos18
theorem arr_wholeK : ∀ w : Fin nW, (specK w).arr.IsWhole := arr_whole18
theorem stage_wholeK : ∀ (w : Fin nW) (s : Fin (specK w).nbuf), ((specK w).stage s).IsWhole := stage_whole18

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.Kernel.Hand.Reg18

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R18' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (18 : Fin 24) c = dat18 (V103 m outs c) c)
    (hbody : ∀ c : Dev nD, Pipeline.BodyObligationLoose (dat18 (Ix := Ix) (U := U) (Lvl := Lvl) (V103 m outs c) c) (defs₀ (F := F)) 𝒱₀ ι Set.univ) :
    RegionSeg (pcfgs (F := F)) GenP.adm pdats ι defs₀ 𝒱₀ L lv (18 : Fin 24) :=
  Reg18.RK 𝒱₀ L lv ι pdats (fun c => V103 m outs c)
    (fun c => by rw [hp c]; exact hbody c)
    (fun c w => by rw [hp c]; exact A_eq18 (V103 m outs c) c w)
    (fun c => by rw [hp c]; exact PosShare.mem_left_op_right fullShare)
    (fun c t => by rw [hp c]; rfl)
    (fun c => by rw [hp c]; rfl)
    (fun c => by rw [hp c, Phi_first18])
    (fun c => by rw [hp c]; exact Phi_last18 (V103 m outs c) c)

/-- It is entered from the thread state before the region's item, -/
theorem hpre18' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (18 : Fin 24) c = dat18 (V103 m outs c) c)
    (hbody : ∀ c : Dev nD, Pipeline.BodyObligationLoose (dat18 (Ix := Ix) (U := U) (Lvl := Lvl) (V103 m outs c) c) (defs₀ (F := F)) 𝒱₀ ι Set.univ)
    (c : Dev nD) :
    iprop(StableHlo.held (c : Thread nD τ) (Pipeline.ucRefs τ sig) (V103 m outs c) ∗ (R c : sProp 𝕄))
      ⊢ (R18' m outs 𝒱₀ L lv ι pdats hp hbody).pre c := .rfl

/-- and left at the thread state after it. -/
theorem hpost18' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (18 : Fin 24) c = dat18 (V103 m outs c) c)
    (hbody : ∀ c : Dev nD, Pipeline.BodyObligationLoose (dat18 (Ix := Ix) (U := U) (Lvl := Lvl) (V103 m outs c) c) (defs₀ (F := F)) 𝒱₀ ι Set.univ)
    (houts : ∀ c : Dev nD, outs 104 main_v649 c = (dat18 (Ix := Ix) (U := U) (Lvl := Lvl) (V103 m outs c) c).arrAt 2 64)
    (c : Dev nD) :
    (R18' m outs 𝒱₀ L lv ι pdats hp hbody).post c
      ⊢ iprop(StableHlo.held (c : Thread nD τ) (Pipeline.ucRefs τ sig) (V104 m outs c) ∗ (R c : sProp 𝕄)) := by
  have h : (pdats (18 : Fin 24) c).arrAt Reg18.oK Reg18.cfgK.N = outs 104 main_v649 c := by
    rw [hp c]; exact (houts c).symm
  show iprop(StableHlo.held (c : Thread nD τ) (Pipeline.ucRefs τ sig)
      (Function.update (V103 m outs c) (Proc.devRef .tc main_v649) ((pdats (18 : Fin 24) c).arrAt Reg18.oK Reg18.cfgK.N))
        ∗ (R c : sProp 𝕄)) ⊢ _
  rw [h]

end Cert.Kernel.Hand
-- ==== Proof.K_Rg19.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_ApplyLib
import proofs.«169706_j68856915690108_1_alg».proof.Proof.K_Shared
import proofs.«169706_j68856915690108_1_alg».proof.Proof.RegionsK

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k19_pay1 x_i` and `step t a = k19_pay2 h_i h_j threshold x_j a`, the printed payloads of the two stores.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk19 (V : Valuation τ sig (Elt F)) (c : Dev nD) (w : Fin cfg19.W) (t : Fin cfg19.N) :
    ((cfg19.win w).xblock (cfg19.grid.coords t)).Idx → Elt F (cfg19.win w).elt :=
  ((cfg19.win w).blk t).view.read (Elt F)
    (V (Proc.devRef .tc (Pipeline.arrRef spec19 w)) : Buf (Elt F) ((cfg19.win w).arr.view.loc (c.tc : Thread nD τ)))

/-- What the accumulator is reset to at a point whose second coordinate is 0: 1.0 times the block of `x` window 3
    stages there (the printed payload of the first store into the scratch buffer). -/
noncomputable def init19 (V : Valuation τ sig (Elt F)) (c : Dev nD) (n : ℕ) (hn : n < cfg19.N) : Vec F S512x256 .f32 :=
  k19_pay1 (iblk19 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step19 (V : Valuation τ sig (Elt F)) (c : Dev nD) (n : ℕ) (hn : n < cfg19.N) (a : Vec F S512x256 .f32) : Vec F S512x256 .f32 :=
  k19_pay2 (iblk19 V c 1 ⟨n, hn⟩) (iblk19 V c 2 ⟨n, hn⟩) (iblk19 V c 0 ⟨n, hn⟩) (iblk19 V c 4 ⟨n, hn⟩) a

/-- What the accumulator holds after point `n`: reset and stepped at the points ≡ 0 (mod 8), stepped from what the
    point before left at the others. -/
noncomputable def acc19 (V : Valuation τ sig (Elt F)) (c : Dev nD) : (n : ℕ) → n < cfg19.N → Vec F S512x256 .f32
  | 0, hn => step19 V c 0 hn (init19 V c 0 hn)
  | n + 1, hn =>
    if (n + 1) % 8 = 0 then step19 V c (n + 1) hn (init19 V c (n + 1) hn)
    else step19 V c (n + 1) hn (acc19 V c n (Nat.lt_of_succ_lt hn))

/-- After a point ≡ 0 (mod 8): the reset value, stepped once. -/
theorem acc19_reset (V : Valuation τ sig (Elt F)) (c : Dev nD) (n : ℕ) (hn : n < cfg19.N) (h0 : n % 8 = 0) :
    acc19 V c n hn = step19 V c n hn (init19 V c n hn) := by
  cases n with
  | zero => rfl
  | succ n => exact if_pos h0

/-- After any other point: that point's step on what the point before left. -/
theorem acc19_step (V : Valuation τ sig (Elt F)) (c : Dev nD) (n : ℕ) (hn : n < cfg19.N) (h0 : ¬n % 8 = 0) :
    acc19 V c n hn = step19 V c n hn (acc19 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi19 (V : Valuation τ sig (Elt F)) (c : Dev nD) : (n : ℕ) → n ≤ cfg19.N → sProp 𝕄
  | 0, _ => Pipeline.scopedRest (Ix := Ix) (Name := ℕ) (U := U) (Lvl := Lvl) (Val := Elt F) spec19 c
  | n + 1, hn => iprop(owns (c : Thread nD τ) (Memref.whole cc19_scratch0) fullShare (acc19 V c n hn)
      ∗ Pipeline.scopedRestBut (Ix := Ix) (Name := ℕ) (U := U) (Lvl := Lvl) (Val := Elt F) spec19 c [cc19_scratch0])

theorem Phi19_zero (V : Valuation τ sig (Elt F)) (c : Dev nD) (n : ℕ) (h : n ≤ cfg19.N) (hz : n = 0) :
    (Phi19 V c n h : sProp 𝕄) = Pipeline.scopedRest (Ix := Ix) (Name := ℕ) (U := U) (Lvl := Lvl) (Val := Elt F) spec19 c := by
  subst hz; rfl

theorem Phi19_succ (V : Valuation τ sig (Elt F)) (c : Dev nD) (n : ℕ) (hn : n < cfg19.N) :
    (Phi19 V c (n + 1) hn : sProp 𝕄) = iprop(owns (c : Thread nD τ) (Memref.whole cc19_scratch0) fullShare (acc19 V c n hn)
      ∗ Pipeline.scopedRestBut (Ix := Ix) (Name := ℕ) (U := U) (Lvl := Lvl) (Val := Elt F) spec19 c [cc19_scratch0]) := rfl

theorem Phi19_pos (V : Valuation τ sig (Elt F)) (c : Dev nD) (n : ℕ) (h : n ≤ cfg19.N) (hz : n ≠ 0) :
    (Phi19 V c n h : sProp 𝕄) = iprop(owns (c : Thread nD τ) (Memref.whole cc19_scratch0) fullShare (acc19 V c (n - 1) (by omega))
      ∗ Pipeline.scopedRestBut (Ix := Ix) (Name := ℕ) (U := U) (Lvl := Lvl) (Val := Elt F) spec19 c [cc19_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi19`; the
    threshold's array held whole, each of the two arrays that two input windows read held half and half; nothing owed. -/
noncomputable def dat19 (V : Valuation τ sig (Elt F)) (c : Dev nD) : Dat τ (Elt F) Ix ℕ U Lvl cfg19 c where
  A w := V (Proc.devRef .tc (Pipeline.arrRef spec19 w))
  after w t := match w with
    | ⟨0, _⟩ => iblk19 V c 0 t
    | ⟨1, _⟩ => iblk19 V c 1 t
    | ⟨2, _⟩ => iblk19 V c 2 t
    | ⟨3, _⟩ => iblk19 V c 3 t
    | ⟨4, _⟩ => iblk19 V c 4 t
    | ⟨5, _⟩ => acc19 V c t.val t.isLt
  Φ t := Phi19 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq19 (V : Valuation τ sig (Elt F)) (c : Dev nD) (w : Fin cfg19.W) :
    (dat19 (Ix := Ix) (U := U) (Lvl := Lvl) V c).A w = V (Proc.devRef .tc (Pipeline.arrRef spec19 w)) := by
  dsimp only [dat19]

/-- What the body leaves, window by window. -/
theorem after19_0 (V : Valuation τ sig (Elt F)) (c : Dev nD) (t : Fin cfg19.N) :
    (dat19 (Ix := Ix) (U := U) (Lvl := Lvl) V c).after 0 t = iblk19 V c 0 t := by dsimp only [dat19]
theorem after19_1 (V : Valuation τ sig (Elt F)) (c : Dev nD) (t : Fin cfg19.N) :
    (dat19 (Ix := Ix) (U := U) (Lvl := Lvl) V c).after 1 t = iblk19 V c 1 t := by dsimp only [dat19]
theorem after19_2 (V : Valuation τ sig (Elt F)) (c : Dev nD) (t : Fin cfg19.N) :
    (dat19 (Ix := Ix) (U := U) (Lvl := Lvl) V c).after 2 t = iblk19 V c 2 t := by dsimp only [dat19]
theorem after19_3 (V : Valuation τ sig (Elt F)) (c : Dev nD) (t : Fin cfg19.N) :
    (dat19 (Ix := Ix) (U := U) (Lvl := Lvl) V c).after 3 t = iblk19 V c 3 t := by dsimp only [dat19]
theorem after19_4 (V : Valuation τ sig (Elt F)) (c : Dev nD) (t : Fin cfg19.N) :
    (dat19 (Ix := Ix) (U := U) (Lvl := Lvl) V c).after 4 t = iblk19 V c 4 t := by dsimp only [dat19]
theorem after19_5 (V : Valuation τ sig (Elt F)) (c : Dev nD) (t : Fin cfg19.N) :
    (dat19 (Ix := Ix) (U := U) (Lvl := Lvl) V c).after 5 t = acc19 V c t.val t.isLt := by dsimp only [dat19]

/-- The shares the input arrays are held at. -/
theorem q19_0 (V : Valuation τ sig (Elt F)) (c : Dev nD) : (dat19 (Ix := Ix) (U := U) (Lvl := Lvl) V c).q 0 = fullShare := by dsimp only [dat19]
theorem q19_1 (V : Valuation τ sig (Elt F)) (c : Dev nD) : (dat19 (Ix := Ix) (U := U) (Lvl := Lvl) V c).q 1 = fullShare.left := by dsimp only [dat19]
theorem q19_2 (V : Valuation τ sig (Elt F)) (c : Dev nD) : (dat19 (Ix := Ix) (U := U) (Lvl := Lvl) V c).q 2 = fullShare.right := by dsimp only [dat19]
theorem q19_3 (V : Valuation τ sig (Elt F)) (c : Dev nD) : (dat19 (Ix := Ix) (U := U) (Lvl := Lvl) V c).q 3 = fullShare.left := by dsimp only [dat19]
theorem q19_4 (V : Valuation τ sig (Elt F)) (c : Dev nD) : (dat19 (Ix := Ix) (U := U) (Lvl := Lvl) V c).q 4 = fullShare.right := by dsimp only [dat19]

/-- The invariant at a point's start, and at its end. -/
theorem Phi19_castSucc (V : Valuation τ sig (Elt F)) (c : Dev nD) (t : Fin cfg19.N) :
    (dat19 (Ix := Ix) (U := U) (Lvl := Lvl) V c).Φ t.castSucc = Phi19 V c t.val (Nat.le_of_lt t.isLt) := by
  dsimp only [dat19]; simp only [Fin.coe_castSucc]

theorem Phi19_at_succ (V : Valuation τ sig (Elt F)) (c : Dev nD) (t : Fin cfg19.N) :
    (dat19 (Ix := Ix) (U := U) (Lvl := Lvl) V c).Φ t.succ = Phi19 V c (t.val + 1) t.isLt := rfl

/-- Before the first point the invariant is the launch's scoped rest. -/
theorem Phi_first19 (V : Valuation τ sig (Elt F)) (c : Dev nD) :
    (dat19 (Ix := Ix) (U := U) (Lvl := Lvl) V c).Φ 0
      = Pipeline.scopedRest (Ix := Ix) (Name := ℕ) (U := U) (Lvl := Lvl) (Val := Elt F) spec19 c := rfl

/-- After the last point the invariant gives the scoped rest back: the accumulator's contents are forgotten. -/
theorem Phi_last19 (V : Valuation τ sig (Elt F)) (c : Dev nD) :
    (dat19 (Ix := Ix) (U := U) (Lvl := Lvl) V c).Φ (Fin.last cfg19.N)
      ⊢ Pipeline.scopedRest (Ix := Ix) (Name := ℕ) (U := U) (Lvl := Lvl) (Val := Elt F) spec19 c := by
  have hN : cfg19.N = 64 := N_19
  rw [show (dat19 (Ix := Ix) (U := U) (Lvl := Lvl) V c).Φ (Fin.last cfg19.N) = Phi19 V c (Fin.last cfg19.N).val (Nat.le_of_lt_succ (Fin.last cfg19.N).isLt) from rfl,
    Phi19_pos V c _ _ (by rw [Fin.val_last]; omega), scopedRest19_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 19) c := dat19 V c

end Cert.Kernel.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k19_pay2 hI hJ mn xJ s` — `s` plus the 0/1 mask of (hI · hJᵀ > mn) times `xJ` — and the value
  the accumulator is reset to is `k19_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond19_0 (i : grid19.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond19_1 (i : grid19.Coords) : Prop := k19_cond2 i = 1#1

/-! ## The three runs -/

/-- At a point whose second coordinate is 0 (and not 7): the accumulator, at anything, is reset to `k19_pay1 xI` and
    stepped once; every window's buffer is handed back as found. -/
theorem run19_first (𝒱₀ : Variants) (c : Dev nD) (i : grid19.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond19_0 i) (hc1 : ¬cond19_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k19_pay2 hI hJ mn xJ (k19_pay1 xI))) -∗ K ⟨⟩))
      ⊢ wp frame (wpE (defs₀ (F := F)) 𝒱₀ c none) E (cc19__apply_kernel i arg2 harg2 arg3 harg3 arg4 harg4 arg5 harg5 arg6 harg6 arg7 harg7 arg8 harg8) K := by
  simp only [cc19__apply_kernel_eq_skeleton]; unfold cc19__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run19_mid (𝒱₀ : Variants) (c : Dev nD) (i : grid19.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond19_0 i) (hc1 : ¬cond19_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k19_pay2 hI hJ mn xJ s)) -∗ K ⟨⟩))
      ⊢ wp frame (wpE (defs₀ (F := F)) 𝒱₀ c none) E (cc19__apply_kernel i arg2 harg2 arg3 harg3 arg4 harg4 arg5 harg5 arg6 harg6 arg7 harg7 arg8 harg8) K := by
  simp only [cc19__apply_kernel_eq_skeleton]; unfold cc19__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run19_last (𝒱₀ : Variants) (c : Dev nD) (i : grid19.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond19_0 i) (hc1 : cond19_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k19_pay2 hI hJ mn xJ s)
        ∗ owns (c : Thread nD τ) arg8 fullShare (k19_pay2 hI hJ mn xJ s)) -∗ K ⟨⟩))
      ⊢ wp frame (wpE (defs₀ (F := F)) 𝒱₀ c none) E (cc19__apply_kernel i arg2 harg2 arg3 harg3 arg4 harg4 arg5 harg5 arg6 harg6 arg7 harg7 arg8 harg8) K := by
  simp only [cc19__apply_kernel_eq_skeleton]; unfold cc19__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.Kernel.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc19`. The three control cases are
  decided over the grid by the point's residue mod 8, and in each the kernel's run (ApplyRun.lean) applies.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond19_0 : ∀ t : Fin cfg19.N, cond19_0 (grid19.coords t) ↔ t.val % 8 = 0 :=
  (by decide +kernel : ∀ t : Fin grid19.N, cond19_0 (grid19.coords t) ↔ t.val % 8 = 0)
/-- It is stored into the output block at the points ≡ 7 (mod 8). -/
theorem hcond19_1 : ∀ t : Fin cfg19.N, cond19_1 (grid19.coords t) ↔ t.val % 8 = 7 :=
  (by decide +kernel : ∀ t : Fin grid19.N, cond19_1 (grid19.coords t) ↔ t.val % 8 = 7)
/-- The output window is idle at every other point, -/
theorem idleAt19_5 : ∀ t : Fin cfg19.N, ¬t.val % 8 = 7 → cfg19.idle 5 (grid19.coords t) = true :=
  (by decide +kernel : ∀ t : Fin grid19.N, ¬t.val % 8 = 7 → cfg19.idle 5 (grid19.coords t) = true)
/-- live at those, -/
theorem liveAt19_5 : ∀ t : Fin cfg19.N, t.val % 8 = 7 → cfg19.idle 5 (grid19.coords t) = false :=
  (by decide +kernel : ∀ t : Fin grid19.N, t.val % 8 = 7 → cfg19.idle 5 (grid19.coords t) = false)
/-- and not written back where it is idle. -/
theorem noFlush19_5 (t : Fin cfg19.N) (h : ¬t.val % 8 = 7) : (cfg19.win 5).flush t = false := by
  cases hf : (cfg19.win 5).flush t with
  | false => rfl
  | true => exact absurd ((flush19_5 t).mp hf) h

/-! ## What the body finds in the inputs' buffers and leaves in every buffer -/

/-- Each input's current staging buffer holds its block at every point, fetched there or not. -/
theorem before19_0 (V : Valuation τ sig (Elt F)) (c : Dev nD) (t : Fin cfg19.N) (d) : (dat19 (Ix := Ix) (U := U) (Lvl := Lvl) V c).before 0 t d = iblk19 V c 0 t :=
  ((dat19 (Ix := Ix) (U := U) (Lvl := Lvl) V c).before_in_eq_fetched 0 rfl (fun _ => rfl) (fun _ _ _ => rfl)
      (fun t => by rw [after19_0]; unfold Dat.blockOf iblk19; rw [A_eq19]; try rfl) t d).trans
    (by unfold Dat.fetched Dat.blockOf iblk19; rw [A_eq19]; try rfl)
theorem before19_1 (V : Valuation τ sig (Elt F)) (c : Dev nD) (t : Fin cfg19.N) (d) : (dat19 (Ix := Ix) (U := U) (Lvl := Lvl) V c).before 1 t d = iblk19 V c 1 t :=
  ((dat19 (Ix := Ix) (U := U) (Lvl := Lvl) V c).before_in_eq_fetched 1 rfl (fun _ => rfl) (fun _ _ _ => rfl)
      (fun t => by rw [after19_1]; unfold Dat.blockOf iblk19; rw [A_eq19]; try rfl) t d).trans
    (by unfold Dat.fetched Dat.blockOf iblk19; rw [A_eq19]; try rfl)
theorem before19_2 (V : Valuation τ sig (Elt F)) (c : Dev nD) (t : Fin cfg19.N) (d) : (dat19 (Ix := Ix) (U := U) (Lvl := Lvl) V c).before 2 t d = iblk19 V c 2 t :=
  ((dat19 (Ix := Ix) (U := U) (Lvl := Lvl) V c).before_in_eq_fetched 2 rfl (fun _ => rfl) (fun _ _ _ => rfl)
      (fun t => by rw [after19_2]; unfold Dat.blockOf iblk19; rw [A_eq19]; try rfl) t d).trans
    (by unfold Dat.fetched Dat.blockOf iblk19; rw [A_eq19]; try rfl)
theorem before19_3 (V : Valuation τ sig (Elt F)) (c : Dev nD) (t : Fin cfg19.N) (d) : (dat19 (Ix := Ix) (U := U) (Lvl := Lvl) V c).before 3 t d = iblk19 V c 3 t :=
  ((dat19 (Ix := Ix) (U := U) (Lvl := Lvl) V c).before_in_eq_fetched 3 rfl (fun _ => rfl) (fun _ _ _ => rfl)
      (fun t => by rw [after19_3]; unfold Dat.blockOf iblk19; rw [A_eq19]; try rfl) t d).trans
    (by unfold Dat.fetched Dat.blockOf iblk19; rw [A_eq19]; try rfl)
theorem before19_4 (V : Valuation τ sig (Elt F)) (c : Dev nD) (t : Fin cfg19.N) (d) : (dat19 (Ix := Ix) (U := U) (Lvl := Lvl) V c).before 4 t d = iblk19 V c 4 t :=
  ((dat19 (Ix := Ix) (U := U) (Lvl := Lvl) V c).before_in_eq_fetched 4 rfl (fun _ => rfl) (fun _ _ _ => rfl)
      (fun t => by rw [after19_4]; unfold Dat.blockOf iblk19; rw [A_eq19]; try rfl) t d).trans
    (by unfold Dat.fetched Dat.blockOf iblk19; rw [A_eq19]; try rfl)

/-! ## The body obligation, at a generic point -/

/-- What the body is called with at point `t` (the obligation's precondition, the windows one by one), -/
noncomputable def bodyPre19 (V : Valuation τ sig (Elt F)) (c : Dev nD) (ι : Ix) (t : Fin cfg19.N) : sProp 𝕄 :=
  iprop((dat19 (Ix := Ix) (U := U) (Lvl := Lvl) V c).Φ t.castSucc ∗ (dat19 (Ix := Ix) (U := U) (Lvl := Lvl) V c).owesAt ι t.castSucc
    ∗ (∃ d, owns (c : Thread nD τ) (st19_0 t) fullShare ((dat19 (Ix := Ix) (U := U) (Lvl := Lvl) V c).before 0 t d))
    ∗ (∃ d, owns (c : Thread nD τ) (st19_1 t) fullShare ((dat19 (Ix := Ix) (U := U) (Lvl := Lvl) V c).before 1 t d))
    ∗ (∃ d, owns (c : Thread nD τ) (st19_2 t) fullShare ((dat19 (Ix := Ix) (U := U) (Lvl := Lvl) V c).before 2 t d))
    ∗ (∃ d, owns (c : Thread nD τ) (st19_3 t) fullShare ((dat19 (Ix := Ix) (U := U) (Lvl := Lvl) V c).before 3 t d))
    ∗ (∃ d, owns (c : Thread nD τ) (st19_4 t) fullShare ((dat19 (Ix := Ix) (U := U) (Lvl := Lvl) V c).before 4 t d))
    ∗ (∃ d, owns (c : Thread nD τ) (st19_5 t) fullShare ((dat19 (Ix := Ix) (U := U) (Lvl := Lvl) V c).before 5 t d)))

/-- and what it returns. -/
noncomputable def bodyPost19 (V : Valuation τ sig (Elt F)) (c : Dev nD) (ι : Ix) (t : Fin cfg19.N) : sProp 𝕄 :=
  iprop((dat19 (Ix := Ix) (U := U) (Lvl := Lvl) V c).Φ t.succ ∗ (dat19 (Ix := Ix) (U := U) (Lvl := Lvl) V c).owesAt ι t.succ
    ∗ (dat19 (Ix := Ix) (U := U) (Lvl := Lvl) V c).leaves 0 t ∗ (dat19 (Ix := Ix) (U := U) (Lvl := Lvl) V c).leaves 1 t ∗ (dat19 (Ix := Ix) (U := U) (Lvl := Lvl) V c).leaves 2 t
    ∗ (dat19 (Ix := Ix) (U := U) (Lvl := Lvl) V c).leaves 3 t ∗ (dat19 (Ix := Ix) (U := U) (Lvl := Lvl) V c).leaves 4 t ∗ (dat19 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body19 (𝒱₀ : Variants) (ι : Ix) (V : Valuation τ sig (Elt F)) (c : Dev nD) (t : Fin cfg19.N) :
    bodyPre19 (Ix := Ix) (U := U) (Lvl := Lvl) V c ι t ⊢ wp frame (wpE (defs₀ (F := F)) 𝒱₀ c none) Set.univ (bodyAt19 t) (fun _ => bodyPost19 (Ix := Ix) (U := U) (Lvl := Lvl) V c ι t) := by
  unfold bodyPre19 bodyPost19 bodyAt19
  simp only [before19_0, before19_1, before19_2, before19_3, before19_4]
  rw [show (dat19 (Ix := Ix) (U := U) (Lvl := Lvl) V c).owesAt ι t.succ = (dat19 (Ix := Ix) (U := U) (Lvl := Lvl) V c).owesAt ι t.castSucc from rfl]
  rw [Phi19_at_succ, Phi19_succ, Phi19_castSucc]
  rw [leaves_live (dat19 (Ix := Ix) (U := U) (Lvl := Lvl) V c) 0 t rfl rfl, leaves_live (dat19 (Ix := Ix) (U := U) (Lvl := Lvl) V c) 1 t rfl rfl, leaves_live (dat19 (Ix := Ix) (U := U) (Lvl := Lvl) V c) 2 t rfl rfl,
    leaves_live (dat19 (Ix := Ix) (U := U) (Lvl := Lvl) V c) 3 t rfl rfl, leaves_live (dat19 (Ix := Ix) (U := U) (Lvl := Lvl) V c) 4 t rfl rfl, after19_0, after19_1, after19_2, after19_3, after19_4]
  have hN : t.val < 64 := lt_of_lt_of_eq t.isLt (show cfg19.N = 64 from N_19)
  by_cases h0 : t.val % 8 = 0
  · have h7 : ¬t.val % 8 = 7 := by omega
    rw [Dat.leaves_idle (dat19 (Ix := Ix) (U := U) (Lvl := Lvl) V c) 5 t (idleAt19_5 t h7) (noFlush19_5 t h7)]
    rw [acc19_reset V c t.val t.isLt h0]
    unfold step19 init19
    by_cases hz : t.val = 0
    · rw [Phi19_zero V c _ _ hz, scopedRest19_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run19_first 𝒱₀ c (grid19.coords t) _ _ _ _ _ _ _ _ _ _ _ _ _ _ ((hcond19_0 t).mpr h0) (fun h => h7 ((hcond19_1 t).mp h)) (iblk19 V c 0 t) (iblk19 V c 1 t) (iblk19 V c 2 t) (iblk19 V c 3 t) (iblk19 V c 4 t) ((dat19 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi19_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run19_first 𝒱₀ c (grid19.coords t) _ _ _ _ _ _ _ _ _ _ _ _ _ _ ((hcond19_0 t).mpr h0) (fun h => h7 ((hcond19_1 t).mp h)) (iblk19 V c 0 t) (iblk19 V c 1 t) (iblk19 V c 2 t) (iblk19 V c 3 t) (iblk19 V c 4 t) ((dat19 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc19_step V c t.val t.isLt h0, Phi19_pos V c _ _ hz]
    unfold step19
    by_cases h7 : t.val % 8 = 7
    · rw [leaves_live (dat19 (Ix := Ix) (U := U) (Lvl := Lvl) V c) 5 t (liveAt19_5 t h7) rfl, after19_5, acc19_step V c t.val t.isLt h0]
      unfold step19
      iintro ⟨⟨HS, Hr⟩, Ho, ⟨%d0, H0⟩, ⟨%d1, H1⟩, ⟨%d2, H2⟩, ⟨%d3, H3⟩, ⟨%d4, H4⟩, ⟨%d5, H5⟩⟩
      iapply (run19_last 𝒱₀ c (grid19.coords t) _ _ _ _ _ _ _ _ _ _ _ _ _ _ (fun h => h0 ((hcond19_0 t).mp h)) ((hcond19_1 t).mpr h7) (iblk19 V c 0 t) (iblk19 V c 1 t) (iblk19 V c 2 t) (iblk19 V c 3 t) (iblk19 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat19 (Ix := Ix) (U := U) (Lvl := Lvl) V c) 5 t (idleAt19_5 t h7) (noFlush19_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run19_mid 𝒱₀ c (grid19.coords t) _ _ _ _ _ _ _ _ _ _ _ _ _ _ (fun h => h0 ((hcond19_0 t).mp h)) (fun h => h7 ((hcond19_1 t).mp h)) (iblk19 V c 0 t) (iblk19 V c 1 t) (iblk19 V c 2 t) (iblk19 V c 3 t) (iblk19 V c 4 t) ((dat19 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation19 (𝒱₀ : Variants) (ι : Ix) (V : Valuation τ sig (Elt F)) (c : Dev nD) :
    BodyObligationLoose (dat19 (Ix := Ix) (U := U) (Lvl := Lvl) V c) (defs₀ (F := F)) 𝒱₀ ι Set.univ := fun t => by
  rw [bigSep_W19, bigSep_W19]
  exact sound_body19 𝒱₀ ι V c t

/-- The same at the type the program's family of configurations gives pipeline 1, on every core. -/
theorem body19 (𝒱₀ : Variants) (ι : Ix) (V : Valuation τ sig (Elt F)) :
    ∀ c : Dev nD, BodyObligationLoose (cfg := cfgs 19) (dat19 (Ix := Ix) (U := U) (Lvl := Lvl) V c) (defs₀ (F := F)) 𝒱₀ ι Set.univ :=
  fun c => body_obligation19 𝒱₀ ι V c

end Cert.Kernel.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg19

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (19 : Fin 24)
/-- Its configuration, its windows but for their index maps, the number of its windows. -/
abbrev cfgK : Pipeline.Cfg sig Λ₀ := cfg19
abbrev specK : Fin 6 → Pipeline.WinSpec sig cfgK.grid.rank := spec19
abbrev nW : Nat := 6
/-- Its output window and the buffer behind it. -/
abbrev oK : Fin nW := 5
abbrev outK : Ref sig .tc := main_v652
theorem winK : Pipeline.WinFacts₀ specK := winFacts₀19
theorem block_posK : ∀ w : Fin nW, 0 < (specK w).block.numel := block_pos19
theorem arr_wholeK : ∀ w : Fin nW, (specK w).arr.IsWhole := arr_whole19
theorem stage_wholeK : ∀ (w : Fin nW) (s : Fin (specK w).nbuf), ((specK w).stage s).IsWhole := stage_whole19

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.Kernel.Hand.Reg19

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R19' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (19 : Fin 24) c = dat19 (V105 m outs c) c)
    (hbody : ∀ c : Dev nD, Pipeline.BodyObligationLoose (dat19 (Ix := Ix) (U := U) (Lvl := Lvl) (V105 m outs c) c) (defs₀ (F := F)) 𝒱₀ ι Set.univ) :
    RegionSeg (pcfgs (F := F)) GenP.adm pdats ι defs₀ 𝒱₀ L lv (19 : Fin 24) :=
  Reg19.RK 𝒱₀ L lv ι pdats (fun c => V105 m outs c)
    (fun c => by rw [hp c]; exact hbody c)
    (fun c w => by rw [hp c]; exact A_eq19 (V105 m outs c) c w)
    (fun c => by rw [hp c]; rw [q19_1, q19_2]; exact PosShare.mem_left_op_right fullShare)
    (fun c => by rw [hp c]; rw [q19_3, q19_4]; exact PosShare.mem_left_op_right fullShare)
    (fun c => by rw [hp c]; exact q19_0 (V105 m outs c) c)
    (fun c t => by rw [hp c]; rfl)
    (fun c => by rw [hp c]; rfl)
    (fun c => by rw [hp c, Phi_first19])
    (fun c => by rw [hp c]; exact Phi_last19 (V105 m outs c) c)

/-- It is entered from the thread state before the region's item, -/
theorem hpre19' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (19 : Fin 24) c = dat19 (V105 m outs c) c)
    (hbody : ∀ c : Dev nD, Pipeline.BodyObligationLoose (dat19 (Ix := Ix) (U := U) (Lvl := Lvl) (V105 m outs c) c) (defs₀ (F := F)) 𝒱₀ ι Set.univ)
    (c : Dev nD) :
    iprop(StableHlo.held (c : Thread nD τ) (Pipeline.ucRefs τ sig) (V105 m outs c) ∗ (R c : sProp 𝕄))
      ⊢ (R19' m outs 𝒱₀ L lv ι pdats hp hbody).pre c := .rfl

/-- and left at the thread state after it. -/
theorem hpost19' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (19 : Fin 24) c = dat19 (V105 m outs c) c)
    (hbody : ∀ c : Dev nD, Pipeline.BodyObligationLoose (dat19 (Ix := Ix) (U := U) (Lvl := Lvl) (V105 m outs c) c) (defs₀ (F := F)) 𝒱₀ ι Set.univ)
    (houts : ∀ c : Dev nD, outs 106 main_v652 c = (dat19 (Ix := Ix) (U := U) (Lvl := Lvl) (V105 m outs c) c).arrAt 5 64)
    (c : Dev nD) :
    (R19' m outs 𝒱₀ L lv ι pdats hp hbody).post c
      ⊢ iprop(StableHlo.held (c : Thread nD τ) (Pipeline.ucRefs τ sig) (V106 m outs c) ∗ (R c : sProp 𝕄)) := by
  have h : (pdats (19 : Fin 24) c).arrAt Reg19.oK Reg19.cfgK.N = outs 106 main_v652 c := by
    rw [hp c]; exact (houts c).symm
  show iprop(StableHlo.held (c : Thread nD τ) (Pipeline.ucRefs τ sig)
      (Function.update (V105 m outs c) (Proc.devRef .tc main_v652) ((pdats (19 : Fin 24) c).arrAt Reg19.oK Reg19.cfgK.N))
        ∗ (R c : sProp 𝕄)) ⊢ _
  rw [h]

end Cert.Kernel.Hand
-- ==== Proof.K_Rg20.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_SumLib
import Idealize.ShloMosaic.Lib.Tactic
import proofs.«169706_j68856915690108_1_alg».proof.Proof.K_Shared
import proofs.«169706_j68856915690108_1_alg».proof.Proof.RegionsK

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k20_pay2)

  and only at the last point, 63, is that cell copied into the 1 × 1 output block, which the pipeline then writes back.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk20 (V : Valuation τ sig (Elt F)) (c : Dev nD) (w : Fin cfg20.W) (t : Fin cfg20.N) :
    ((cfg20.win w).xblock (cfg20.grid.coords t)).Idx → Elt F (cfg20.win w).elt :=
  ((cfg20.win w).blk t).view.read (Elt F)
    (V (Proc.devRef .tc (Pipeline.arrRef spec20 w)) : Buf (Elt F) ((cfg20.win w).arr.view.loc (c.tc : Thread nD τ)))

/-- One point's step on the scratch cell: the cell's contents `a` plus the sum of the tile made of the two blocks
    the point stages (the printed payload of the store into the scratch cell). -/
noncomputable def step20 (V : Valuation τ sig (Elt F)) (c : Dev nD) (n : ℕ) (hn : n < cfg20.N) (a : Vec F S1x1 .f32) : Vec F S1x1 .f32 :=
  k20_pay2 (iblk20 V c 0 ⟨n, hn⟩) (iblk20 V c 1 ⟨n, hn⟩) a

/-- What the scratch cell holds after point `n`: the steps of the points `0 … n` applied, first to last, to the
    zero the body stores at point 0. -/
noncomputable def acc20 (V : Valuation τ sig (Elt F)) (c : Dev nD) : (n : ℕ) → n < cfg20.N → Vec F S1x1 .f32
  | 0, hn => step20 V c 0 hn (k20_pay1 (F := F))
  | n + 1, hn => step20 V c (n + 1) hn (acc20 V c n (Nat.lt_of_succ_lt hn))

theorem acc20_zero (V : Valuation τ sig (Elt F)) (c : Dev nD) (hn : 0 < cfg20.N) :
    acc20 V c 0 hn = step20 V c 0 hn (k20_pay1 (F := F)) := rfl

theorem acc20_succ (V : Valuation τ sig (Elt F)) (c : Dev nD) (n : ℕ) (hn : n + 1 < cfg20.N) :
    acc20 V c (n + 1) hn = step20 V c (n + 1) hn (acc20 V c n (Nat.lt_of_succ_lt hn)) := rfl

/-- After a point that is not the first: the step of that point on what the point before left. -/
theorem acc20_pos (V : Valuation τ sig (Elt F)) (c : Dev nD) (n : ℕ) (hn : n < cfg20.N) (hz : n ≠ 0) :
    acc20 V c n hn = step20 V c n hn (acc20 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi20 (V : Valuation τ sig (Elt F)) (c : Dev nD) : (n : ℕ) → n ≤ cfg20.N → sProp 𝕄
  | 0, _ => Pipeline.scopedRest (Ix := Ix) (Name := ℕ) (U := U) (Lvl := Lvl) (Val := Elt F) spec20 c
  | n + 1, hn => iprop(owns (c : Thread nD τ) (Memref.whole cc20_scratch0) fullShare (acc20 V c n hn)
      ∗ Pipeline.scopedRestBut (Ix := Ix) (Name := ℕ) (U := U) (Lvl := Lvl) (Val := Elt F) spec20 c [cc20_scratch0])

theorem Phi20_zero (V : Valuation τ sig (Elt F)) (c : Dev nD) (n : ℕ) (h : n ≤ cfg20.N) (hz : n = 0) :
    (Phi20 V c n h : sProp 𝕄) = Pipeline.scopedRest (Ix := Ix) (Name := ℕ) (U := U) (Lvl := Lvl) (Val := Elt F) spec20 c := by
  subst hz; rfl

theorem Phi20_succ (V : Valuation τ sig (Elt F)) (c : Dev nD) (n : ℕ) (hn : n < cfg20.N) :
    (Phi20 V c (n + 1) hn : sProp 𝕄) = iprop(owns (c : Thread nD τ) (Memref.whole cc20_scratch0) fullShare (acc20 V c n hn)
      ∗ Pipeline.scopedRestBut (Ix := Ix) (Name := ℕ) (U := U) (Lvl := Lvl) (Val := Elt F) spec20 c [cc20_scratch0]) := rfl

theorem Phi20_pos (V : Valuation τ sig (Elt F)) (c : Dev nD) (n : ℕ) (h : n ≤ cfg20.N) (hz : n ≠ 0) :
    (Phi20 V c n h : sProp 𝕄) = iprop(owns (c : Thread nD τ) (Memref.whole cc20_scratch0) fullShare (acc20 V c (n - 1) (by omega))
      ∗ Pipeline.scopedRestBut (Ix := Ix) (Name := ℕ) (U := U) (Lvl := Lvl) (Val := Elt F) spec20 c [cc20_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi20`; the one
    array the two inputs read held half and half; nothing owed. -/
noncomputable def dat20 (V : Valuation τ sig (Elt F)) (c : Dev nD) : Dat τ (Elt F) Ix ℕ U Lvl cfg20 c where
  A w := V (Proc.devRef .tc (Pipeline.arrRef spec20 w))
  after w t := match w with
    | ⟨0, _⟩ => iblk20 V c 0 t
    | ⟨1, _⟩ => iblk20 V c 1 t
    | ⟨2, _⟩ => acc20 V c t.val t.isLt
  Φ t := Phi20 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq20 (V : Valuation τ sig (Elt F)) (c : Dev nD) (w : Fin cfg20.W) :
    (dat20 (Ix := Ix) (U := U) (Lvl := Lvl) V c).A w = V (Proc.devRef .tc (Pipeline.arrRef spec20 w)) := by
  dsimp only [dat20]

/-- What the body leaves, window by window. -/
theorem after20_0 (V : Valuation τ sig (Elt F)) (c : Dev nD) (t : Fin cfg20.N) :
    (dat20 (Ix := Ix) (U := U) (Lvl := Lvl) V c).after 0 t = iblk20 V c 0 t := by dsimp only [dat20]
theorem after20_1 (V : Valuation τ sig (Elt F)) (c : Dev nD) (t : Fin cfg20.N) :
    (dat20 (Ix := Ix) (U := U) (Lvl := Lvl) V c).after 1 t = iblk20 V c 1 t := by dsimp only [dat20]
theorem after20_2 (V : Valuation τ sig (Elt F)) (c : Dev nD) (t : Fin cfg20.N) :
    (dat20 (Ix := Ix) (U := U) (Lvl := Lvl) V c).after 2 t = acc20 V c t.val t.isLt := by dsimp only [dat20]

/-- The invariant at a point's start, and at its end. -/
theorem Phi20_castSucc (V : Valuation τ sig (Elt F)) (c : Dev nD) (t : Fin cfg20.N) :
    (dat20 (Ix := Ix) (U := U) (Lvl := Lvl) V c).Φ t.castSucc = Phi20 V c t.val (Nat.le_of_lt t.isLt) := by
  dsimp only [dat20]; simp only [Fin.coe_castSucc]

theorem Phi20_at_succ (V : Valuation τ sig (Elt F)) (c : Dev nD) (t : Fin cfg20.N) :
    (dat20 (Ix := Ix) (U := U) (Lvl := Lvl) V c).Φ t.succ = Phi20 V c (t.val + 1) t.isLt := rfl

/-- Before the first point the invariant is the launch's scoped rest. -/
theorem Phi_first20 (V : Valuation τ sig (Elt F)) (c : Dev nD) :
    (dat20 (Ix := Ix) (U := U) (Lvl := Lvl) V c).Φ 0
      = Pipeline.scopedRest (Ix := Ix) (Name := ℕ) (U := U) (Lvl := Lvl) (Val := Elt F) spec20 c := rfl

/-- After the last point the invariant gives the scoped rest back: the scratch cell's contents are forgotten. -/
theorem Phi_last20 (V : Valuation τ sig (Elt F)) (c : Dev nD) :
    (dat20 (Ix := Ix) (U := U) (Lvl := Lvl) V c).Φ (Fin.last cfg20.N)
      ⊢ Pipeline.scopedRest (Ix := Ix) (Name := ℕ) (U := U) (Lvl := Lvl) (Val := Elt F) spec20 c := by
  have hN : cfg20.N = 64 := N_20
  rw [show (dat20 (Ix := Ix) (U := U) (Lvl := Lvl) V c).Φ (Fin.last cfg20.N) = Phi20 V c (Fin.last cfg20.N).val (Nat.le_of_lt_succ (Fin.last cfg20.N).isLt) from rfl,
    Phi20_pos V c _ _ (by rw [Fin.val_last]; omega), scopedRest20_split, owns_whole]
  iintro ⟨Hs, Hr⟩
  isplitl [Hs]
  · iexists _; iexact Hs
  iexact Hr

example (V : Valuation τ sig (Elt F)) (c : Dev nD) : Dat τ (Elt F) Ix ℕ U Lvl (cfgs 20) c := dat20 V c

end Cert.Kernel.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k20_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond20_1 (i : grid20.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond20_2 (i : grid20.Coords) : Prop := k20_cond2 i = 1#1

/-- The reset runs at the first point only, -/
theorem hcond20_1 : ∀ t : Fin cfg20.N, cond20_1 (grid20.coords t) ↔ t.val = 0 :=
  (by decide +kernel : ∀ t : Fin grid20.N, cond20_1 (grid20.coords t) ↔ t.val = 0)
/-- the copy at the last point only. -/
theorem hcond20_2 : ∀ t : Fin cfg20.N, cond20_2 (grid20.coords t) ↔ t.val = 63 :=
  (by decide +kernel : ∀ t : Fin grid20.N, cond20_2 (grid20.coords t) ↔ t.val = 63)

/-! ## The body, case by case, on any whole memrefs -/

/-- The first point: the scratch cell, at anything, is reset and then holds the first step on zero. -/
theorem run20_A (𝒱₀ : Variants) (c : Dev nD) (i : grid20.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond20_1 i) (hc2 : ¬cond20_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k20_pay2 x2 x3 (k20_pay1 (F := F)))) -∗ K ⟨⟩))
      ⊢ wp frame (wpE (defs₀ (F := F)) 𝒱₀ c none) E (cc20__sum_kernel i arg2 harg2 arg3 harg3 arg4 harg4 arg5 harg5) K := by
  simp only [cc20__sum_kernel_eq_skeleton]; unfold cc20__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run20_A.sl.v15 run20_A.sl.H5_1
  rw [readCov_whole _ zeros2, readAt_whole _ _ zeros2, readAt_whole _ _ zeros2]

/-- A point strictly between the first and the last: the scratch cell at `a` takes the point's step. -/
theorem run20_B (𝒱₀ : Variants) (c : Dev nD) (i : grid20.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond20_1 i) (hc2 : ¬cond20_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k20_pay2 x2 x3 a)) -∗ K ⟨⟩))
      ⊢ wp frame (wpE (defs₀ (F := F)) 𝒱₀ c none) E (cc20__sum_kernel i arg2 harg2 arg3 harg3 arg4 harg4 arg5 harg5) K := by
  simp only [cc20__sum_kernel_eq_skeleton]; unfold cc20__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run20_C (𝒱₀ : Variants) (c : Dev nD) (i : grid20.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond20_1 i) (hc2 : cond20_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k20_pay2 x2 x3 a) ∗ owns (c : Thread nD τ) arg5 fullShare (k20_pay2 x2 x3 a)) -∗ K ⟨⟩))
      ⊢ wp frame (wpE (defs₀ (F := F)) 𝒱₀ c none) E (cc20__sum_kernel i arg2 harg2 arg3 harg3 arg4 harg4 arg5 harg5) K := by
  simp only [cc20__sum_kernel_eq_skeleton]; unfold cc20__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run20_C.sl.v25 run20_C.sl.H5_1
    rw [readCov_whole _ zeros2, readAt_whole _ _ zeros2, readAt_whole _ _ zeros2, readAt_whole _ _ zeros2]
  iexists _; isplitr
  swap; · iexact H5
  ipureintro
  unfold run20_C.sl.H5_1
  rw [read_writes_whole _ _ zeros2, readAt_whole _ _ zeros2, readAt_whole _ _ zeros2, readAt_whole _ _ zeros2]

end Cert.Kernel.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle20_2 : ∀ t : Fin cfg20.N, cfg20.idle 2 (grid20.coords t) = true ↔ t.val ≠ 63 :=
  (by decide +kernel : ∀ t : Fin grid20.N, idle20 2 (grid20.coords t) = true ↔ t.val ≠ 63)
/-- and written back at the last point only. -/
theorem flush20_2' : ∀ t : Fin cfg20.N, (cfg20.win 2).flush t = true ↔ t.val = 63 :=
  (by decide +kernel : ∀ t : Fin grid20.N, win20_2.flush t = true ↔ t.val = 63)

/-! ## What the body finds in the inputs' buffers -/

/-- Each input's current staging buffer holds its block at every point, fetched there or not: unfetched, the block
    index has not moved and the body left the block in place. -/
theorem before20_0 (V : Valuation τ sig (Elt F)) (c : Dev nD) (t : Fin cfg20.N) (d) :
    (dat20 (Ix := Ix) (U := U) (Lvl := Lvl) V c).before 0 t d = iblk20 V c 0 t :=
  ((dat20 (Ix := Ix) (U := U) (Lvl := Lvl) V c).before_in_eq_fetched 0 rfl (fun _ => rfl) (fun _ _ _ => rfl)
      (fun t => by rw [after20_0]; unfold Dat.blockOf iblk20; rw [A_eq20]; try rfl) t d).trans
    (by unfold Dat.fetched Dat.blockOf iblk20; rw [A_eq20]; try rfl)

theorem before20_1 (V : Valuation τ sig (Elt F)) (c : Dev nD) (t : Fin cfg20.N) (d) :
    (dat20 (Ix := Ix) (U := U) (Lvl := Lvl) V c).before 1 t d = iblk20 V c 1 t :=
  ((dat20 (Ix := Ix) (U := U) (Lvl := Lvl) V c).before_in_eq_fetched 1 rfl (fun _ => rfl) (fun _ _ _ => rfl)
      (fun t => by rw [after20_1]; unfold Dat.blockOf iblk20; rw [A_eq20]; try rfl) t d).trans
    (by unfold Dat.fetched Dat.blockOf iblk20; rw [A_eq20]; try rfl)

/-! ## What the obligation asks of each window's buffer after the body -/

/-- The inputs are never idle: their buffers are handed back at their blocks. -/
theorem leaves20_0 (V : Valuation τ sig (Elt F)) (c : Dev nD) (t : Fin cfg20.N) :
    (dat20 (Ix := Ix) (U := U) (Lvl := Lvl) V c).leaves 0 t = owns (c : Thread nD τ) (st20_0 t) fullShare (iblk20 V c 0 t) := by
  rw [← after20_0 (Ix := Ix) (U := U) (Lvl := Lvl) V c t]

theorem leaves20_1 (V : Valuation τ sig (Elt F)) (c : Dev nD) (t : Fin cfg20.N) :
    (dat20 (Ix := Ix) (U := U) (Lvl := Lvl) V c).leaves 1 t = owns (c : Thread nD τ) (st20_1 t) fullShare (iblk20 V c 1 t) := by
  rw [← after20_1 (Ix := Ix) (U := U) (Lvl := Lvl) V c t]

/-- The output is idle, and not written back, at every point but the last: its buffer is handed back as found; -/
theorem leaves20_2_idle (V : Valuation τ sig (Elt F)) (c : Dev nD) (t : Fin cfg20.N) (h : t.val ≠ 63) :
    (dat20 (Ix := Ix) (U := U) (Lvl := Lvl) V c).leaves 2 t
      = iprop(∃ d, owns (c : Thread nD τ) (st20_2 t) fullShare ((dat20 (Ix := Ix) (U := U) (Lvl := Lvl) V c).before 2 t d)) :=
  (dat20 (Ix := Ix) (U := U) (Lvl := Lvl) V c).leaves_idle 2 t ((idle20_2 t).mpr h)
    (Bool.eq_false_iff.mpr fun hf => h ((flush20_2' t).mp hf))

/-- at the last point it is handed back at the accumulated sum. -/
theorem leaves20_2_last (V : Valuation τ sig (Elt F)) (c : Dev nD) (t : Fin cfg20.N) (h : t.val = 63) :
    (dat20 (Ix := Ix) (U := U) (Lvl := Lvl) V c).leaves 2 t = owns (c : Thread nD τ) (st20_2 t) fullShare (acc20 V c t.val t.isLt) := by
  have hl : cfg20.idle 2 (grid20.coords t) = false := by
    cases hi : cfg20.idle 2 (grid20.coords t) with
    | false => rfl
    | true => exact absurd h ((idle20_2 t).mp hi)
  rw [← after20_2 (Ix := Ix) (U := U) (Lvl := Lvl) V c t]
  unfold Dat.leaves; rw [hl]

/-- One step at a point, through the point itself. -/
theorem step20_at (V : Valuation τ sig (Elt F)) (c : Dev nD) (t : Fin cfg20.N) (a : Vec F S1x1 .f32) :
    step20 V c t.val t.isLt a = k20_pay2 (iblk20 V c 0 t) (iblk20 V c 1 t) a := rfl

theorem acc20_first (V : Valuation τ sig (Elt F)) (c : Dev nD) (n : ℕ) (hn : n < cfg20.N) (hz : n = 0) :
    acc20 V c n hn = step20 V c n hn (k20_pay1 (F := F)) := by
  subst hz; rfl

/-! ## The body obligation -/

/-- What the body is called with at point `t` (the obligation's precondition, the windows one by one), -/
noncomputable def bodyPre20 (V : Valuation τ sig (Elt F)) (ι : Ix) (c : Dev nD) (t : Fin cfg20.N) : sProp 𝕄 :=
  iprop((dat20 (Ix := Ix) (U := U) (Lvl := Lvl) V c).Φ t.castSucc ∗ (dat20 (Ix := Ix) (U := U) (Lvl := Lvl) V c).owesAt ι t.castSucc
    ∗ (∃ d, owns (c : Thread nD τ) (st20_0 t) fullShare ((dat20 (Ix := Ix) (U := U) (Lvl := Lvl) V c).before 0 t d))
    ∗ (∃ d, owns (c : Thread nD τ) (st20_1 t) fullShare ((dat20 (Ix := Ix) (U := U) (Lvl := Lvl) V c).before 1 t d))
    ∗ (∃ d, owns (c : Thread nD τ) (st20_2 t) fullShare ((dat20 (Ix := Ix) (U := U) (Lvl := Lvl) V c).before 2 t d)))

/-- and what it returns. -/
noncomputable def bodyPost20 (V : Valuation τ sig (Elt F)) (ι : Ix) (c : Dev nD) (t : Fin cfg20.N) : sProp 𝕄 :=
  iprop((dat20 (Ix := Ix) (U := U) (Lvl := Lvl) V c).Φ t.succ ∗ (dat20 (Ix := Ix) (U := U) (Lvl := Lvl) V c).owesAt ι t.succ
    ∗ (dat20 (Ix := Ix) (U := U) (Lvl := Lvl) V c).leaves 0 t ∗ (dat20 (Ix := Ix) (U := U) (Lvl := Lvl) V c).leaves 1 t ∗ (dat20 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body20 (V : Valuation τ sig (Elt F)) (𝒱₀ : Variants) (ι : Ix) (c : Dev nD) (t : Fin cfg20.N) :
    bodyPre20 (U := U) (Lvl := Lvl) V ι c t
      ⊢ wp frame (wpE (defs₀ (F := F)) 𝒱₀ c none) Set.univ (bodyAt20 t) (fun _ => bodyPost20 (U := U) (Lvl := Lvl) V ι c t) := by
  unfold bodyPre20 bodyPost20 bodyAt20
  simp only [before20_0, before20_1]
  rw [show (dat20 (Ix := Ix) (U := U) (Lvl := Lvl) V c).owesAt ι t.succ = (dat20 (Ix := Ix) (U := U) (Lvl := Lvl) V c).owesAt ι t.castSucc from rfl]
  rw [Phi20_at_succ, Phi20_succ, Phi20_castSucc, leaves20_0, leaves20_1]
  have hN : t.val < 64 := lt_of_lt_of_eq t.isLt N_20
  by_cases hz : t.val = 0
  · have hc1 : cond20_1 (grid20.coords t) := (hcond20_1 t).mpr hz
    have hc2 : ¬cond20_2 (grid20.coords t) := fun h => by have := (hcond20_2 t).mp h; omega
    rw [leaves20_2_idle V c t (by omega), Phi20_zero V c _ _ hz, scopedRest20_split, acc20_first V c _ _ hz, step20_at]
    iintro ⟨⟨⟨%f, Hs⟩, Hr⟩, Ho, ⟨%d0, H0⟩, ⟨%d1, H1⟩, H2⟩
    iapply (run20_A 𝒱₀ c (grid20.coords t) _ _ _ _ _ _ _ _ hc1 hc2 (iblk20 V c 0 t) (iblk20 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond20_1 (grid20.coords t) := fun h => hz ((hcond20_1 t).mp h)
    rw [Phi20_pos V c _ _ hz, acc20_pos V c _ _ hz, step20_at]
    by_cases hl : t.val = 63
    · have hc2 : cond20_2 (grid20.coords t) := (hcond20_2 t).mpr hl
      rw [leaves20_2_last V c t hl, acc20_pos V c _ _ hz, step20_at]
      iintro ⟨⟨Hs, Hr⟩, Ho, ⟨%d0, H0⟩, ⟨%d1, H1⟩, ⟨%d2, H2⟩⟩
      iapply (run20_C 𝒱₀ c (grid20.coords t) _ _ _ _ _ _ _ _ hc1 hc2 (iblk20 V c 0 t) (iblk20 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond20_2 (grid20.coords t) := fun h => hl ((hcond20_2 t).mp h)
      rw [leaves20_2_idle V c t hl]
      iintro ⟨⟨Hs, Hr⟩, Ho, ⟨%d0, H0⟩, ⟨%d1, H1⟩, H2⟩
      iapply (run20_B 𝒱₀ c (grid20.coords t) _ _ _ _ _ _ _ _ hc1 hc2 (iblk20 V c 0 t) (iblk20 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body20 (V : Valuation τ sig (Elt F)) (𝒱₀ : Variants) (ι : Ix) :
    ∀ c : Dev nD, BodyObligationLoose (dat20 (Ix := Ix) (U := U) (Lvl := Lvl) V c) (defs₀ (F := F)) 𝒱₀ ι Set.univ := fun c t => by
  rw [bigSep_W20, bigSep_W20]
  exact sound_body20 (U := U) (Lvl := Lvl) V 𝒱₀ ι c t

end Cert.Kernel.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg20

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (20 : Fin 24)
/-- Its configuration, its windows but for their index maps, the number of its windows. -/
abbrev cfgK : Pipeline.Cfg sig Λ₀ := cfg20
abbrev specK : Fin 3 → Pipeline.WinSpec sig cfgK.grid.rank := spec20
abbrev nW : Nat := 3
/-- Its output window and the buffer behind it. -/
abbrev oK : Fin nW := 2
abbrev outK : Ref sig .tc := main_v718
theorem winK : Pipeline.WinFacts₀ specK := winFacts₀20
theorem block_posK : ∀ w : Fin nW, 0 < (specK w).block.numel := block_pos20
theorem arr_wholeK : ∀ w : Fin nW, (specK w).arr.IsWhole := arr_whole20
theorem stage_wholeK : ∀ (w : Fin nW) (s : Fin (specK w).nbuf), ((specK w).stage s).IsWhole := stage_whole20

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.Kernel.Hand.Reg20

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R20' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (20 : Fin 24) c = dat20 (V114 m outs c) c)
    (hbody : ∀ c : Dev nD, Pipeline.BodyObligationLoose (dat20 (Ix := Ix) (U := U) (Lvl := Lvl) (V114 m outs c) c) (defs₀ (F := F)) 𝒱₀ ι Set.univ) :
    RegionSeg (pcfgs (F := F)) GenP.adm pdats ι defs₀ 𝒱₀ L lv (20 : Fin 24) :=
  Reg20.RK 𝒱₀ L lv ι pdats (fun c => V114 m outs c)
    (fun c => by rw [hp c]; exact hbody c)
    (fun c w => by rw [hp c]; exact A_eq20 (V114 m outs c) c w)
    (fun c => by rw [hp c]; exact PosShare.mem_left_op_right fullShare)
    (fun c t => by rw [hp c]; rfl)
    (fun c => by rw [hp c]; rfl)
    (fun c => by rw [hp c, Phi_first20])
    (fun c => by rw [hp c]; exact Phi_last20 (V114 m outs c) c)

/-- It is entered from the thread state before the region's item, -/
theorem hpre20' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (20 : Fin 24) c = dat20 (V114 m outs c) c)
    (hbody : ∀ c : Dev nD, Pipeline.BodyObligationLoose (dat20 (Ix := Ix) (U := U) (Lvl := Lvl) (V114 m outs c) c) (defs₀ (F := F)) 𝒱₀ ι Set.univ)
    (c : Dev nD) :
    iprop(StableHlo.held (c : Thread nD τ) (Pipeline.ucRefs τ sig) (V114 m outs c) ∗ (R c : sProp 𝕄))
      ⊢ (R20' m outs 𝒱₀ L lv ι pdats hp hbody).pre c := .rfl

/-- and left at the thread state after it. -/
theorem hpost20' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (20 : Fin 24) c = dat20 (V114 m outs c) c)
    (hbody : ∀ c : Dev nD, Pipeline.BodyObligationLoose (dat20 (Ix := Ix) (U := U) (Lvl := Lvl) (V114 m outs c) c) (defs₀ (F := F)) 𝒱₀ ι Set.univ)
    (houts : ∀ c : Dev nD, outs 115 main_v718 c = (dat20 (Ix := Ix) (U := U) (Lvl := Lvl) (V114 m outs c) c).arrAt 2 64)
    (c : Dev nD) :
    (R20' m outs 𝒱₀ L lv ι pdats hp hbody).post c
      ⊢ iprop(StableHlo.held (c : Thread nD τ) (Pipeline.ucRefs τ sig) (V115 m outs c) ∗ (R c : sProp 𝕄)) := by
  have h : (pdats (20 : Fin 24) c).arrAt Reg20.oK Reg20.cfgK.N = outs 115 main_v718 c := by
    rw [hp c]; exact (houts c).symm
  show iprop(StableHlo.held (c : Thread nD τ) (Pipeline.ucRefs τ sig)
      (Function.update (V114 m outs c) (Proc.devRef .tc main_v718) ((pdats (20 : Fin 24) c).arrAt Reg20.oK Reg20.cfgK.N))
        ∗ (R c : sProp 𝕄)) ⊢ _
  rw [h]

end Cert.Kernel.Hand
-- ==== Proof.K_Rg21.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_ApplyLib
import proofs.«169706_j68856915690108_1_alg».proof.Proof.K_Shared
import proofs.«169706_j68856915690108_1_alg».proof.Proof.RegionsK

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k21_pay1 x_i` and `step t a = k21_pay2 h_i h_j threshold x_j a`, the printed payloads of the two stores.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk21 (V : Valuation τ sig (Elt F)) (c : Dev nD) (w : Fin cfg21.W) (t : Fin cfg21.N) :
    ((cfg21.win w).xblock (cfg21.grid.coords t)).Idx → Elt F (cfg21.win w).elt :=
  ((cfg21.win w).blk t).view.read (Elt F)
    (V (Proc.devRef .tc (Pipeline.arrRef spec21 w)) : Buf (Elt F) ((cfg21.win w).arr.view.loc (c.tc : Thread nD τ)))

/-- What the accumulator is reset to at a point whose second coordinate is 0: 1.0 times the block of `x` window 3
    stages there (the printed payload of the first store into the scratch buffer). -/
noncomputable def init21 (V : Valuation τ sig (Elt F)) (c : Dev nD) (n : ℕ) (hn : n < cfg21.N) : Vec F S512x256 .f32 :=
  k21_pay1 (iblk21 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step21 (V : Valuation τ sig (Elt F)) (c : Dev nD) (n : ℕ) (hn : n < cfg21.N) (a : Vec F S512x256 .f32) : Vec F S512x256 .f32 :=
  k21_pay2 (iblk21 V c 1 ⟨n, hn⟩) (iblk21 V c 2 ⟨n, hn⟩) (iblk21 V c 0 ⟨n, hn⟩) (iblk21 V c 4 ⟨n, hn⟩) a

/-- What the accumulator holds after point `n`: reset and stepped at the points ≡ 0 (mod 8), stepped from what the
    point before left at the others. -/
noncomputable def acc21 (V : Valuation τ sig (Elt F)) (c : Dev nD) : (n : ℕ) → n < cfg21.N → Vec F S512x256 .f32
  | 0, hn => step21 V c 0 hn (init21 V c 0 hn)
  | n + 1, hn =>
    if (n + 1) % 8 = 0 then step21 V c (n + 1) hn (init21 V c (n + 1) hn)
    else step21 V c (n + 1) hn (acc21 V c n (Nat.lt_of_succ_lt hn))

/-- After a point ≡ 0 (mod 8): the reset value, stepped once. -/
theorem acc21_reset (V : Valuation τ sig (Elt F)) (c : Dev nD) (n : ℕ) (hn : n < cfg21.N) (h0 : n % 8 = 0) :
    acc21 V c n hn = step21 V c n hn (init21 V c n hn) := by
  cases n with
  | zero => rfl
  | succ n => exact if_pos h0

/-- After any other point: that point's step on what the point before left. -/
theorem acc21_step (V : Valuation τ sig (Elt F)) (c : Dev nD) (n : ℕ) (hn : n < cfg21.N) (h0 : ¬n % 8 = 0) :
    acc21 V c n hn = step21 V c n hn (acc21 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi21 (V : Valuation τ sig (Elt F)) (c : Dev nD) : (n : ℕ) → n ≤ cfg21.N → sProp 𝕄
  | 0, _ => Pipeline.scopedRest (Ix := Ix) (Name := ℕ) (U := U) (Lvl := Lvl) (Val := Elt F) spec21 c
  | n + 1, hn => iprop(owns (c : Thread nD τ) (Memref.whole cc21_scratch0) fullShare (acc21 V c n hn)
      ∗ Pipeline.scopedRestBut (Ix := Ix) (Name := ℕ) (U := U) (Lvl := Lvl) (Val := Elt F) spec21 c [cc21_scratch0])

theorem Phi21_zero (V : Valuation τ sig (Elt F)) (c : Dev nD) (n : ℕ) (h : n ≤ cfg21.N) (hz : n = 0) :
    (Phi21 V c n h : sProp 𝕄) = Pipeline.scopedRest (Ix := Ix) (Name := ℕ) (U := U) (Lvl := Lvl) (Val := Elt F) spec21 c := by
  subst hz; rfl

theorem Phi21_succ (V : Valuation τ sig (Elt F)) (c : Dev nD) (n : ℕ) (hn : n < cfg21.N) :
    (Phi21 V c (n + 1) hn : sProp 𝕄) = iprop(owns (c : Thread nD τ) (Memref.whole cc21_scratch0) fullShare (acc21 V c n hn)
      ∗ Pipeline.scopedRestBut (Ix := Ix) (Name := ℕ) (U := U) (Lvl := Lvl) (Val := Elt F) spec21 c [cc21_scratch0]) := rfl

theorem Phi21_pos (V : Valuation τ sig (Elt F)) (c : Dev nD) (n : ℕ) (h : n ≤ cfg21.N) (hz : n ≠ 0) :
    (Phi21 V c n h : sProp 𝕄) = iprop(owns (c : Thread nD τ) (Memref.whole cc21_scratch0) fullShare (acc21 V c (n - 1) (by omega))
      ∗ Pipeline.scopedRestBut (Ix := Ix) (Name := ℕ) (U := U) (Lvl := Lvl) (Val := Elt F) spec21 c [cc21_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi21`; the
    threshold's array held whole, each of the two arrays that two input windows read held half and half; nothing owed. -/
noncomputable def dat21 (V : Valuation τ sig (Elt F)) (c : Dev nD) : Dat τ (Elt F) Ix ℕ U Lvl cfg21 c where
  A w := V (Proc.devRef .tc (Pipeline.arrRef spec21 w))
  after w t := match w with
    | ⟨0, _⟩ => iblk21 V c 0 t
    | ⟨1, _⟩ => iblk21 V c 1 t
    | ⟨2, _⟩ => iblk21 V c 2 t
    | ⟨3, _⟩ => iblk21 V c 3 t
    | ⟨4, _⟩ => iblk21 V c 4 t
    | ⟨5, _⟩ => acc21 V c t.val t.isLt
  Φ t := Phi21 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq21 (V : Valuation τ sig (Elt F)) (c : Dev nD) (w : Fin cfg21.W) :
    (dat21 (Ix := Ix) (U := U) (Lvl := Lvl) V c).A w = V (Proc.devRef .tc (Pipeline.arrRef spec21 w)) := by
  dsimp only [dat21]

/-- What the body leaves, window by window. -/
theorem after21_0 (V : Valuation τ sig (Elt F)) (c : Dev nD) (t : Fin cfg21.N) :
    (dat21 (Ix := Ix) (U := U) (Lvl := Lvl) V c).after 0 t = iblk21 V c 0 t := by dsimp only [dat21]
theorem after21_1 (V : Valuation τ sig (Elt F)) (c : Dev nD) (t : Fin cfg21.N) :
    (dat21 (Ix := Ix) (U := U) (Lvl := Lvl) V c).after 1 t = iblk21 V c 1 t := by dsimp only [dat21]
theorem after21_2 (V : Valuation τ sig (Elt F)) (c : Dev nD) (t : Fin cfg21.N) :
    (dat21 (Ix := Ix) (U := U) (Lvl := Lvl) V c).after 2 t = iblk21 V c 2 t := by dsimp only [dat21]
theorem after21_3 (V : Valuation τ sig (Elt F)) (c : Dev nD) (t : Fin cfg21.N) :
    (dat21 (Ix := Ix) (U := U) (Lvl := Lvl) V c).after 3 t = iblk21 V c 3 t := by dsimp only [dat21]
theorem after21_4 (V : Valuation τ sig (Elt F)) (c : Dev nD) (t : Fin cfg21.N) :
    (dat21 (Ix := Ix) (U := U) (Lvl := Lvl) V c).after 4 t = iblk21 V c 4 t := by dsimp only [dat21]
theorem after21_5 (V : Valuation τ sig (Elt F)) (c : Dev nD) (t : Fin cfg21.N) :
    (dat21 (Ix := Ix) (U := U) (Lvl := Lvl) V c).after 5 t = acc21 V c t.val t.isLt := by dsimp only [dat21]

/-- The shares the input arrays are held at. -/
theorem q21_0 (V : Valuation τ sig (Elt F)) (c : Dev nD) : (dat21 (Ix := Ix) (U := U) (Lvl := Lvl) V c).q 0 = fullShare := by dsimp only [dat21]
theorem q21_1 (V : Valuation τ sig (Elt F)) (c : Dev nD) : (dat21 (Ix := Ix) (U := U) (Lvl := Lvl) V c).q 1 = fullShare.left := by dsimp only [dat21]
theorem q21_2 (V : Valuation τ sig (Elt F)) (c : Dev nD) : (dat21 (Ix := Ix) (U := U) (Lvl := Lvl) V c).q 2 = fullShare.right := by dsimp only [dat21]
theorem q21_3 (V : Valuation τ sig (Elt F)) (c : Dev nD) : (dat21 (Ix := Ix) (U := U) (Lvl := Lvl) V c).q 3 = fullShare.left := by dsimp only [dat21]
theorem q21_4 (V : Valuation τ sig (Elt F)) (c : Dev nD) : (dat21 (Ix := Ix) (U := U) (Lvl := Lvl) V c).q 4 = fullShare.right := by dsimp only [dat21]

/-- The invariant at a point's start, and at its end. -/
theorem Phi21_castSucc (V : Valuation τ sig (Elt F)) (c : Dev nD) (t : Fin cfg21.N) :
    (dat21 (Ix := Ix) (U := U) (Lvl := Lvl) V c).Φ t.castSucc = Phi21 V c t.val (Nat.le_of_lt t.isLt) := by
  dsimp only [dat21]; simp only [Fin.coe_castSucc]

theorem Phi21_at_succ (V : Valuation τ sig (Elt F)) (c : Dev nD) (t : Fin cfg21.N) :
    (dat21 (Ix := Ix) (U := U) (Lvl := Lvl) V c).Φ t.succ = Phi21 V c (t.val + 1) t.isLt := rfl

/-- Before the first point the invariant is the launch's scoped rest. -/
theorem Phi_first21 (V : Valuation τ sig (Elt F)) (c : Dev nD) :
    (dat21 (Ix := Ix) (U := U) (Lvl := Lvl) V c).Φ 0
      = Pipeline.scopedRest (Ix := Ix) (Name := ℕ) (U := U) (Lvl := Lvl) (Val := Elt F) spec21 c := rfl

/-- After the last point the invariant gives the scoped rest back: the accumulator's contents are forgotten. -/
theorem Phi_last21 (V : Valuation τ sig (Elt F)) (c : Dev nD) :
    (dat21 (Ix := Ix) (U := U) (Lvl := Lvl) V c).Φ (Fin.last cfg21.N)
      ⊢ Pipeline.scopedRest (Ix := Ix) (Name := ℕ) (U := U) (Lvl := Lvl) (Val := Elt F) spec21 c := by
  have hN : cfg21.N = 64 := N_21
  rw [show (dat21 (Ix := Ix) (U := U) (Lvl := Lvl) V c).Φ (Fin.last cfg21.N) = Phi21 V c (Fin.last cfg21.N).val (Nat.le_of_lt_succ (Fin.last cfg21.N).isLt) from rfl,
    Phi21_pos V c _ _ (by rw [Fin.val_last]; omega), scopedRest21_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 21) c := dat21 V c

end Cert.Kernel.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k21_pay2 hI hJ mn xJ s` — `s` plus the 0/1 mask of (hI · hJᵀ > mn) times `xJ` — and the value
  the accumulator is reset to is `k21_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond21_0 (i : grid21.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond21_1 (i : grid21.Coords) : Prop := k21_cond2 i = 1#1

/-! ## The three runs -/

/-- At a point whose second coordinate is 0 (and not 7): the accumulator, at anything, is reset to `k21_pay1 xI` and
    stepped once; every window's buffer is handed back as found. -/
theorem run21_first (𝒱₀ : Variants) (c : Dev nD) (i : grid21.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond21_0 i) (hc1 : ¬cond21_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k21_pay2 hI hJ mn xJ (k21_pay1 xI))) -∗ K ⟨⟩))
      ⊢ wp frame (wpE (defs₀ (F := F)) 𝒱₀ c none) E (cc21__apply_kernel i arg2 harg2 arg3 harg3 arg4 harg4 arg5 harg5 arg6 harg6 arg7 harg7 arg8 harg8) K := by
  simp only [cc21__apply_kernel_eq_skeleton]; unfold cc21__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run21_mid (𝒱₀ : Variants) (c : Dev nD) (i : grid21.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond21_0 i) (hc1 : ¬cond21_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k21_pay2 hI hJ mn xJ s)) -∗ K ⟨⟩))
      ⊢ wp frame (wpE (defs₀ (F := F)) 𝒱₀ c none) E (cc21__apply_kernel i arg2 harg2 arg3 harg3 arg4 harg4 arg5 harg5 arg6 harg6 arg7 harg7 arg8 harg8) K := by
  simp only [cc21__apply_kernel_eq_skeleton]; unfold cc21__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run21_last (𝒱₀ : Variants) (c : Dev nD) (i : grid21.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond21_0 i) (hc1 : cond21_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k21_pay2 hI hJ mn xJ s)
        ∗ owns (c : Thread nD τ) arg8 fullShare (k21_pay2 hI hJ mn xJ s)) -∗ K ⟨⟩))
      ⊢ wp frame (wpE (defs₀ (F := F)) 𝒱₀ c none) E (cc21__apply_kernel i arg2 harg2 arg3 harg3 arg4 harg4 arg5 harg5 arg6 harg6 arg7 harg7 arg8 harg8) K := by
  simp only [cc21__apply_kernel_eq_skeleton]; unfold cc21__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.Kernel.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc21`. The three control cases are
  decided over the grid by the point's residue mod 8, and in each the kernel's run (ApplyRun.lean) applies.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond21_0 : ∀ t : Fin cfg21.N, cond21_0 (grid21.coords t) ↔ t.val % 8 = 0 :=
  (by decide +kernel : ∀ t : Fin grid21.N, cond21_0 (grid21.coords t) ↔ t.val % 8 = 0)
/-- It is stored into the output block at the points ≡ 7 (mod 8). -/
theorem hcond21_1 : ∀ t : Fin cfg21.N, cond21_1 (grid21.coords t) ↔ t.val % 8 = 7 :=
  (by decide +kernel : ∀ t : Fin grid21.N, cond21_1 (grid21.coords t) ↔ t.val % 8 = 7)
/-- The output window is idle at every other point, -/
theorem idleAt21_5 : ∀ t : Fin cfg21.N, ¬t.val % 8 = 7 → cfg21.idle 5 (grid21.coords t) = true :=
  (by decide +kernel : ∀ t : Fin grid21.N, ¬t.val % 8 = 7 → cfg21.idle 5 (grid21.coords t) = true)
/-- live at those, -/
theorem liveAt21_5 : ∀ t : Fin cfg21.N, t.val % 8 = 7 → cfg21.idle 5 (grid21.coords t) = false :=
  (by decide +kernel : ∀ t : Fin grid21.N, t.val % 8 = 7 → cfg21.idle 5 (grid21.coords t) = false)
/-- and not written back where it is idle. -/
theorem noFlush21_5 (t : Fin cfg21.N) (h : ¬t.val % 8 = 7) : (cfg21.win 5).flush t = false := by
  cases hf : (cfg21.win 5).flush t with
  | false => rfl
  | true => exact absurd ((flush21_5 t).mp hf) h

/-! ## What the body finds in the inputs' buffers and leaves in every buffer -/

/-- Each input's current staging buffer holds its block at every point, fetched there or not. -/
theorem before21_0 (V : Valuation τ sig (Elt F)) (c : Dev nD) (t : Fin cfg21.N) (d) : (dat21 (Ix := Ix) (U := U) (Lvl := Lvl) V c).before 0 t d = iblk21 V c 0 t :=
  ((dat21 (Ix := Ix) (U := U) (Lvl := Lvl) V c).before_in_eq_fetched 0 rfl (fun _ => rfl) (fun _ _ _ => rfl)
      (fun t => by rw [after21_0]; unfold Dat.blockOf iblk21; rw [A_eq21]; try rfl) t d).trans
    (by unfold Dat.fetched Dat.blockOf iblk21; rw [A_eq21]; try rfl)
theorem before21_1 (V : Valuation τ sig (Elt F)) (c : Dev nD) (t : Fin cfg21.N) (d) : (dat21 (Ix := Ix) (U := U) (Lvl := Lvl) V c).before 1 t d = iblk21 V c 1 t :=
  ((dat21 (Ix := Ix) (U := U) (Lvl := Lvl) V c).before_in_eq_fetched 1 rfl (fun _ => rfl) (fun _ _ _ => rfl)
      (fun t => by rw [after21_1]; unfold Dat.blockOf iblk21; rw [A_eq21]; try rfl) t d).trans
    (by unfold Dat.fetched Dat.blockOf iblk21; rw [A_eq21]; try rfl)
theorem before21_2 (V : Valuation τ sig (Elt F)) (c : Dev nD) (t : Fin cfg21.N) (d) : (dat21 (Ix := Ix) (U := U) (Lvl := Lvl) V c).before 2 t d = iblk21 V c 2 t :=
  ((dat21 (Ix := Ix) (U := U) (Lvl := Lvl) V c).before_in_eq_fetched 2 rfl (fun _ => rfl) (fun _ _ _ => rfl)
      (fun t => by rw [after21_2]; unfold Dat.blockOf iblk21; rw [A_eq21]; try rfl) t d).trans
    (by unfold Dat.fetched Dat.blockOf iblk21; rw [A_eq21]; try rfl)
theorem before21_3 (V : Valuation τ sig (Elt F)) (c : Dev nD) (t : Fin cfg21.N) (d) : (dat21 (Ix := Ix) (U := U) (Lvl := Lvl) V c).before 3 t d = iblk21 V c 3 t :=
  ((dat21 (Ix := Ix) (U := U) (Lvl := Lvl) V c).before_in_eq_fetched 3 rfl (fun _ => rfl) (fun _ _ _ => rfl)
      (fun t => by rw [after21_3]; unfold Dat.blockOf iblk21; rw [A_eq21]; try rfl) t d).trans
    (by unfold Dat.fetched Dat.blockOf iblk21; rw [A_eq21]; try rfl)
theorem before21_4 (V : Valuation τ sig (Elt F)) (c : Dev nD) (t : Fin cfg21.N) (d) : (dat21 (Ix := Ix) (U := U) (Lvl := Lvl) V c).before 4 t d = iblk21 V c 4 t :=
  ((dat21 (Ix := Ix) (U := U) (Lvl := Lvl) V c).before_in_eq_fetched 4 rfl (fun _ => rfl) (fun _ _ _ => rfl)
      (fun t => by rw [after21_4]; unfold Dat.blockOf iblk21; rw [A_eq21]; try rfl) t d).trans
    (by unfold Dat.fetched Dat.blockOf iblk21; rw [A_eq21]; try rfl)

/-! ## The body obligation, at a generic point -/

/-- What the body is called with at point `t` (the obligation's precondition, the windows one by one), -/
noncomputable def bodyPre21 (V : Valuation τ sig (Elt F)) (c : Dev nD) (ι : Ix) (t : Fin cfg21.N) : sProp 𝕄 :=
  iprop((dat21 (Ix := Ix) (U := U) (Lvl := Lvl) V c).Φ t.castSucc ∗ (dat21 (Ix := Ix) (U := U) (Lvl := Lvl) V c).owesAt ι t.castSucc
    ∗ (∃ d, owns (c : Thread nD τ) (st21_0 t) fullShare ((dat21 (Ix := Ix) (U := U) (Lvl := Lvl) V c).before 0 t d))
    ∗ (∃ d, owns (c : Thread nD τ) (st21_1 t) fullShare ((dat21 (Ix := Ix) (U := U) (Lvl := Lvl) V c).before 1 t d))
    ∗ (∃ d, owns (c : Thread nD τ) (st21_2 t) fullShare ((dat21 (Ix := Ix) (U := U) (Lvl := Lvl) V c).before 2 t d))
    ∗ (∃ d, owns (c : Thread nD τ) (st21_3 t) fullShare ((dat21 (Ix := Ix) (U := U) (Lvl := Lvl) V c).before 3 t d))
    ∗ (∃ d, owns (c : Thread nD τ) (st21_4 t) fullShare ((dat21 (Ix := Ix) (U := U) (Lvl := Lvl) V c).before 4 t d))
    ∗ (∃ d, owns (c : Thread nD τ) (st21_5 t) fullShare ((dat21 (Ix := Ix) (U := U) (Lvl := Lvl) V c).before 5 t d)))

/-- and what it returns. -/
noncomputable def bodyPost21 (V : Valuation τ sig (Elt F)) (c : Dev nD) (ι : Ix) (t : Fin cfg21.N) : sProp 𝕄 :=
  iprop((dat21 (Ix := Ix) (U := U) (Lvl := Lvl) V c).Φ t.succ ∗ (dat21 (Ix := Ix) (U := U) (Lvl := Lvl) V c).owesAt ι t.succ
    ∗ (dat21 (Ix := Ix) (U := U) (Lvl := Lvl) V c).leaves 0 t ∗ (dat21 (Ix := Ix) (U := U) (Lvl := Lvl) V c).leaves 1 t ∗ (dat21 (Ix := Ix) (U := U) (Lvl := Lvl) V c).leaves 2 t
    ∗ (dat21 (Ix := Ix) (U := U) (Lvl := Lvl) V c).leaves 3 t ∗ (dat21 (Ix := Ix) (U := U) (Lvl := Lvl) V c).leaves 4 t ∗ (dat21 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body21 (𝒱₀ : Variants) (ι : Ix) (V : Valuation τ sig (Elt F)) (c : Dev nD) (t : Fin cfg21.N) :
    bodyPre21 (Ix := Ix) (U := U) (Lvl := Lvl) V c ι t ⊢ wp frame (wpE (defs₀ (F := F)) 𝒱₀ c none) Set.univ (bodyAt21 t) (fun _ => bodyPost21 (Ix := Ix) (U := U) (Lvl := Lvl) V c ι t) := by
  unfold bodyPre21 bodyPost21 bodyAt21
  simp only [before21_0, before21_1, before21_2, before21_3, before21_4]
  rw [show (dat21 (Ix := Ix) (U := U) (Lvl := Lvl) V c).owesAt ι t.succ = (dat21 (Ix := Ix) (U := U) (Lvl := Lvl) V c).owesAt ι t.castSucc from rfl]
  rw [Phi21_at_succ, Phi21_succ, Phi21_castSucc]
  rw [leaves_live (dat21 (Ix := Ix) (U := U) (Lvl := Lvl) V c) 0 t rfl rfl, leaves_live (dat21 (Ix := Ix) (U := U) (Lvl := Lvl) V c) 1 t rfl rfl, leaves_live (dat21 (Ix := Ix) (U := U) (Lvl := Lvl) V c) 2 t rfl rfl,
    leaves_live (dat21 (Ix := Ix) (U := U) (Lvl := Lvl) V c) 3 t rfl rfl, leaves_live (dat21 (Ix := Ix) (U := U) (Lvl := Lvl) V c) 4 t rfl rfl, after21_0, after21_1, after21_2, after21_3, after21_4]
  have hN : t.val < 64 := lt_of_lt_of_eq t.isLt (show cfg21.N = 64 from N_21)
  by_cases h0 : t.val % 8 = 0
  · have h7 : ¬t.val % 8 = 7 := by omega
    rw [Dat.leaves_idle (dat21 (Ix := Ix) (U := U) (Lvl := Lvl) V c) 5 t (idleAt21_5 t h7) (noFlush21_5 t h7)]
    rw [acc21_reset V c t.val t.isLt h0]
    unfold step21 init21
    by_cases hz : t.val = 0
    · rw [Phi21_zero V c _ _ hz, scopedRest21_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run21_first 𝒱₀ c (grid21.coords t) _ _ _ _ _ _ _ _ _ _ _ _ _ _ ((hcond21_0 t).mpr h0) (fun h => h7 ((hcond21_1 t).mp h)) (iblk21 V c 0 t) (iblk21 V c 1 t) (iblk21 V c 2 t) (iblk21 V c 3 t) (iblk21 V c 4 t) ((dat21 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi21_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run21_first 𝒱₀ c (grid21.coords t) _ _ _ _ _ _ _ _ _ _ _ _ _ _ ((hcond21_0 t).mpr h0) (fun h => h7 ((hcond21_1 t).mp h)) (iblk21 V c 0 t) (iblk21 V c 1 t) (iblk21 V c 2 t) (iblk21 V c 3 t) (iblk21 V c 4 t) ((dat21 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc21_step V c t.val t.isLt h0, Phi21_pos V c _ _ hz]
    unfold step21
    by_cases h7 : t.val % 8 = 7
    · rw [leaves_live (dat21 (Ix := Ix) (U := U) (Lvl := Lvl) V c) 5 t (liveAt21_5 t h7) rfl, after21_5, acc21_step V c t.val t.isLt h0]
      unfold step21
      iintro ⟨⟨HS, Hr⟩, Ho, ⟨%d0, H0⟩, ⟨%d1, H1⟩, ⟨%d2, H2⟩, ⟨%d3, H3⟩, ⟨%d4, H4⟩, ⟨%d5, H5⟩⟩
      iapply (run21_last 𝒱₀ c (grid21.coords t) _ _ _ _ _ _ _ _ _ _ _ _ _ _ (fun h => h0 ((hcond21_0 t).mp h)) ((hcond21_1 t).mpr h7) (iblk21 V c 0 t) (iblk21 V c 1 t) (iblk21 V c 2 t) (iblk21 V c 3 t) (iblk21 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat21 (Ix := Ix) (U := U) (Lvl := Lvl) V c) 5 t (idleAt21_5 t h7) (noFlush21_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run21_mid 𝒱₀ c (grid21.coords t) _ _ _ _ _ _ _ _ _ _ _ _ _ _ (fun h => h0 ((hcond21_0 t).mp h)) (fun h => h7 ((hcond21_1 t).mp h)) (iblk21 V c 0 t) (iblk21 V c 1 t) (iblk21 V c 2 t) (iblk21 V c 3 t) (iblk21 V c 4 t) ((dat21 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation21 (𝒱₀ : Variants) (ι : Ix) (V : Valuation τ sig (Elt F)) (c : Dev nD) :
    BodyObligationLoose (dat21 (Ix := Ix) (U := U) (Lvl := Lvl) V c) (defs₀ (F := F)) 𝒱₀ ι Set.univ := fun t => by
  rw [bigSep_W21, bigSep_W21]
  exact sound_body21 𝒱₀ ι V c t

/-- The same at the type the program's family of configurations gives pipeline 1, on every core. -/
theorem body21 (𝒱₀ : Variants) (ι : Ix) (V : Valuation τ sig (Elt F)) :
    ∀ c : Dev nD, BodyObligationLoose (cfg := cfgs 21) (dat21 (Ix := Ix) (U := U) (Lvl := Lvl) V c) (defs₀ (F := F)) 𝒱₀ ι Set.univ :=
  fun c => body_obligation21 𝒱₀ ι V c

end Cert.Kernel.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg21

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (21 : Fin 24)
/-- Its configuration, its windows but for their index maps, the number of its windows. -/
abbrev cfgK : Pipeline.Cfg sig Λ₀ := cfg21
abbrev specK : Fin 6 → Pipeline.WinSpec sig cfgK.grid.rank := spec21
abbrev nW : Nat := 6
/-- Its output window and the buffer behind it. -/
abbrev oK : Fin nW := 5
abbrev outK : Ref sig .tc := main_v721
theorem winK : Pipeline.WinFacts₀ specK := winFacts₀21
theorem block_posK : ∀ w : Fin nW, 0 < (specK w).block.numel := block_pos21
theorem arr_wholeK : ∀ w : Fin nW, (specK w).arr.IsWhole := arr_whole21
theorem stage_wholeK : ∀ (w : Fin nW) (s : Fin (specK w).nbuf), ((specK w).stage s).IsWhole := stage_whole21

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.Kernel.Hand.Reg21

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R21' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (21 : Fin 24) c = dat21 (V116 m outs c) c)
    (hbody : ∀ c : Dev nD, Pipeline.BodyObligationLoose (dat21 (Ix := Ix) (U := U) (Lvl := Lvl) (V116 m outs c) c) (defs₀ (F := F)) 𝒱₀ ι Set.univ) :
    RegionSeg (pcfgs (F := F)) GenP.adm pdats ι defs₀ 𝒱₀ L lv (21 : Fin 24) :=
  Reg21.RK 𝒱₀ L lv ι pdats (fun c => V116 m outs c)
    (fun c => by rw [hp c]; exact hbody c)
    (fun c w => by rw [hp c]; exact A_eq21 (V116 m outs c) c w)
    (fun c => by rw [hp c]; rw [q21_1, q21_2]; exact PosShare.mem_left_op_right fullShare)
    (fun c => by rw [hp c]; rw [q21_3, q21_4]; exact PosShare.mem_left_op_right fullShare)
    (fun c => by rw [hp c]; exact q21_0 (V116 m outs c) c)
    (fun c t => by rw [hp c]; rfl)
    (fun c => by rw [hp c]; rfl)
    (fun c => by rw [hp c, Phi_first21])
    (fun c => by rw [hp c]; exact Phi_last21 (V116 m outs c) c)

/-- It is entered from the thread state before the region's item, -/
theorem hpre21' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (21 : Fin 24) c = dat21 (V116 m outs c) c)
    (hbody : ∀ c : Dev nD, Pipeline.BodyObligationLoose (dat21 (Ix := Ix) (U := U) (Lvl := Lvl) (V116 m outs c) c) (defs₀ (F := F)) 𝒱₀ ι Set.univ)
    (c : Dev nD) :
    iprop(StableHlo.held (c : Thread nD τ) (Pipeline.ucRefs τ sig) (V116 m outs c) ∗ (R c : sProp 𝕄))
      ⊢ (R21' m outs 𝒱₀ L lv ι pdats hp hbody).pre c := .rfl

/-- and left at the thread state after it. -/
theorem hpost21' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (21 : Fin 24) c = dat21 (V116 m outs c) c)
    (hbody : ∀ c : Dev nD, Pipeline.BodyObligationLoose (dat21 (Ix := Ix) (U := U) (Lvl := Lvl) (V116 m outs c) c) (defs₀ (F := F)) 𝒱₀ ι Set.univ)
    (houts : ∀ c : Dev nD, outs 117 main_v721 c = (dat21 (Ix := Ix) (U := U) (Lvl := Lvl) (V116 m outs c) c).arrAt 5 64)
    (c : Dev nD) :
    (R21' m outs 𝒱₀ L lv ι pdats hp hbody).post c
      ⊢ iprop(StableHlo.held (c : Thread nD τ) (Pipeline.ucRefs τ sig) (V117 m outs c) ∗ (R c : sProp 𝕄)) := by
  have h : (pdats (21 : Fin 24) c).arrAt Reg21.oK Reg21.cfgK.N = outs 117 main_v721 c := by
    rw [hp c]; exact (houts c).symm
  show iprop(StableHlo.held (c : Thread nD τ) (Pipeline.ucRefs τ sig)
      (Function.update (V116 m outs c) (Proc.devRef .tc main_v721) ((pdats (21 : Fin 24) c).arrAt Reg21.oK Reg21.cfgK.N))
        ∗ (R c : sProp 𝕄)) ⊢ _
  rw [h]

end Cert.Kernel.Hand
-- ==== Proof.K_Rg22.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_SumLib
import Idealize.ShloMosaic.Lib.Tactic
import proofs.«169706_j68856915690108_1_alg».proof.Proof.K_Shared
import proofs.«169706_j68856915690108_1_alg».proof.Proof.RegionsK

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k22_pay2)

  and only at the last point, 63, is that cell copied into the 1 × 1 output block, which the pipeline then writes back.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk22 (V : Valuation τ sig (Elt F)) (c : Dev nD) (w : Fin cfg22.W) (t : Fin cfg22.N) :
    ((cfg22.win w).xblock (cfg22.grid.coords t)).Idx → Elt F (cfg22.win w).elt :=
  ((cfg22.win w).blk t).view.read (Elt F)
    (V (Proc.devRef .tc (Pipeline.arrRef spec22 w)) : Buf (Elt F) ((cfg22.win w).arr.view.loc (c.tc : Thread nD τ)))

/-- One point's step on the scratch cell: the cell's contents `a` plus the sum of the tile made of the two blocks
    the point stages (the printed payload of the store into the scratch cell). -/
noncomputable def step22 (V : Valuation τ sig (Elt F)) (c : Dev nD) (n : ℕ) (hn : n < cfg22.N) (a : Vec F S1x1 .f32) : Vec F S1x1 .f32 :=
  k22_pay2 (iblk22 V c 0 ⟨n, hn⟩) (iblk22 V c 1 ⟨n, hn⟩) a

/-- What the scratch cell holds after point `n`: the steps of the points `0 … n` applied, first to last, to the
    zero the body stores at point 0. -/
noncomputable def acc22 (V : Valuation τ sig (Elt F)) (c : Dev nD) : (n : ℕ) → n < cfg22.N → Vec F S1x1 .f32
  | 0, hn => step22 V c 0 hn (k22_pay1 (F := F))
  | n + 1, hn => step22 V c (n + 1) hn (acc22 V c n (Nat.lt_of_succ_lt hn))

theorem acc22_zero (V : Valuation τ sig (Elt F)) (c : Dev nD) (hn : 0 < cfg22.N) :
    acc22 V c 0 hn = step22 V c 0 hn (k22_pay1 (F := F)) := rfl

theorem acc22_succ (V : Valuation τ sig (Elt F)) (c : Dev nD) (n : ℕ) (hn : n + 1 < cfg22.N) :
    acc22 V c (n + 1) hn = step22 V c (n + 1) hn (acc22 V c n (Nat.lt_of_succ_lt hn)) := rfl

/-- After a point that is not the first: the step of that point on what the point before left. -/
theorem acc22_pos (V : Valuation τ sig (Elt F)) (c : Dev nD) (n : ℕ) (hn : n < cfg22.N) (hz : n ≠ 0) :
    acc22 V c n hn = step22 V c n hn (acc22 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi22 (V : Valuation τ sig (Elt F)) (c : Dev nD) : (n : ℕ) → n ≤ cfg22.N → sProp 𝕄
  | 0, _ => Pipeline.scopedRest (Ix := Ix) (Name := ℕ) (U := U) (Lvl := Lvl) (Val := Elt F) spec22 c
  | n + 1, hn => iprop(owns (c : Thread nD τ) (Memref.whole cc22_scratch0) fullShare (acc22 V c n hn)
      ∗ Pipeline.scopedRestBut (Ix := Ix) (Name := ℕ) (U := U) (Lvl := Lvl) (Val := Elt F) spec22 c [cc22_scratch0])

theorem Phi22_zero (V : Valuation τ sig (Elt F)) (c : Dev nD) (n : ℕ) (h : n ≤ cfg22.N) (hz : n = 0) :
    (Phi22 V c n h : sProp 𝕄) = Pipeline.scopedRest (Ix := Ix) (Name := ℕ) (U := U) (Lvl := Lvl) (Val := Elt F) spec22 c := by
  subst hz; rfl

theorem Phi22_succ (V : Valuation τ sig (Elt F)) (c : Dev nD) (n : ℕ) (hn : n < cfg22.N) :
    (Phi22 V c (n + 1) hn : sProp 𝕄) = iprop(owns (c : Thread nD τ) (Memref.whole cc22_scratch0) fullShare (acc22 V c n hn)
      ∗ Pipeline.scopedRestBut (Ix := Ix) (Name := ℕ) (U := U) (Lvl := Lvl) (Val := Elt F) spec22 c [cc22_scratch0]) := rfl

theorem Phi22_pos (V : Valuation τ sig (Elt F)) (c : Dev nD) (n : ℕ) (h : n ≤ cfg22.N) (hz : n ≠ 0) :
    (Phi22 V c n h : sProp 𝕄) = iprop(owns (c : Thread nD τ) (Memref.whole cc22_scratch0) fullShare (acc22 V c (n - 1) (by omega))
      ∗ Pipeline.scopedRestBut (Ix := Ix) (Name := ℕ) (U := U) (Lvl := Lvl) (Val := Elt F) spec22 c [cc22_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi22`; the one
    array the two inputs read held half and half; nothing owed. -/
noncomputable def dat22 (V : Valuation τ sig (Elt F)) (c : Dev nD) : Dat τ (Elt F) Ix ℕ U Lvl cfg22 c where
  A w := V (Proc.devRef .tc (Pipeline.arrRef spec22 w))
  after w t := match w with
    | ⟨0, _⟩ => iblk22 V c 0 t
    | ⟨1, _⟩ => iblk22 V c 1 t
    | ⟨2, _⟩ => acc22 V c t.val t.isLt
  Φ t := Phi22 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq22 (V : Valuation τ sig (Elt F)) (c : Dev nD) (w : Fin cfg22.W) :
    (dat22 (Ix := Ix) (U := U) (Lvl := Lvl) V c).A w = V (Proc.devRef .tc (Pipeline.arrRef spec22 w)) := by
  dsimp only [dat22]

/-- What the body leaves, window by window. -/
theorem after22_0 (V : Valuation τ sig (Elt F)) (c : Dev nD) (t : Fin cfg22.N) :
    (dat22 (Ix := Ix) (U := U) (Lvl := Lvl) V c).after 0 t = iblk22 V c 0 t := by dsimp only [dat22]
theorem after22_1 (V : Valuation τ sig (Elt F)) (c : Dev nD) (t : Fin cfg22.N) :
    (dat22 (Ix := Ix) (U := U) (Lvl := Lvl) V c).after 1 t = iblk22 V c 1 t := by dsimp only [dat22]
theorem after22_2 (V : Valuation τ sig (Elt F)) (c : Dev nD) (t : Fin cfg22.N) :
    (dat22 (Ix := Ix) (U := U) (Lvl := Lvl) V c).after 2 t = acc22 V c t.val t.isLt := by dsimp only [dat22]

/-- The invariant at a point's start, and at its end. -/
theorem Phi22_castSucc (V : Valuation τ sig (Elt F)) (c : Dev nD) (t : Fin cfg22.N) :
    (dat22 (Ix := Ix) (U := U) (Lvl := Lvl) V c).Φ t.castSucc = Phi22 V c t.val (Nat.le_of_lt t.isLt) := by
  dsimp only [dat22]; simp only [Fin.coe_castSucc]

theorem Phi22_at_succ (V : Valuation τ sig (Elt F)) (c : Dev nD) (t : Fin cfg22.N) :
    (dat22 (Ix := Ix) (U := U) (Lvl := Lvl) V c).Φ t.succ = Phi22 V c (t.val + 1) t.isLt := rfl

/-- Before the first point the invariant is the launch's scoped rest. -/
theorem Phi_first22 (V : Valuation τ sig (Elt F)) (c : Dev nD) :
    (dat22 (Ix := Ix) (U := U) (Lvl := Lvl) V c).Φ 0
      = Pipeline.scopedRest (Ix := Ix) (Name := ℕ) (U := U) (Lvl := Lvl) (Val := Elt F) spec22 c := rfl

/-- After the last point the invariant gives the scoped rest back: the scratch cell's contents are forgotten. -/
theorem Phi_last22 (V : Valuation τ sig (Elt F)) (c : Dev nD) :
    (dat22 (Ix := Ix) (U := U) (Lvl := Lvl) V c).Φ (Fin.last cfg22.N)
      ⊢ Pipeline.scopedRest (Ix := Ix) (Name := ℕ) (U := U) (Lvl := Lvl) (Val := Elt F) spec22 c := by
  have hN : cfg22.N = 64 := N_22
  rw [show (dat22 (Ix := Ix) (U := U) (Lvl := Lvl) V c).Φ (Fin.last cfg22.N) = Phi22 V c (Fin.last cfg22.N).val (Nat.le_of_lt_succ (Fin.last cfg22.N).isLt) from rfl,
    Phi22_pos V c _ _ (by rw [Fin.val_last]; omega), scopedRest22_split, owns_whole]
  iintro ⟨Hs, Hr⟩
  isplitl [Hs]
  · iexists _; iexact Hs
  iexact Hr

example (V : Valuation τ sig (Elt F)) (c : Dev nD) : Dat τ (Elt F) Ix ℕ U Lvl (cfgs 22) c := dat22 V c

end Cert.Kernel.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k22_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond22_1 (i : grid22.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond22_2 (i : grid22.Coords) : Prop := k22_cond2 i = 1#1

/-- The reset runs at the first point only, -/
theorem hcond22_1 : ∀ t : Fin cfg22.N, cond22_1 (grid22.coords t) ↔ t.val = 0 :=
  (by decide +kernel : ∀ t : Fin grid22.N, cond22_1 (grid22.coords t) ↔ t.val = 0)
/-- the copy at the last point only. -/
theorem hcond22_2 : ∀ t : Fin cfg22.N, cond22_2 (grid22.coords t) ↔ t.val = 63 :=
  (by decide +kernel : ∀ t : Fin grid22.N, cond22_2 (grid22.coords t) ↔ t.val = 63)

/-! ## The body, case by case, on any whole memrefs -/

/-- The first point: the scratch cell, at anything, is reset and then holds the first step on zero. -/
theorem run22_A (𝒱₀ : Variants) (c : Dev nD) (i : grid22.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond22_1 i) (hc2 : ¬cond22_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k22_pay2 x2 x3 (k22_pay1 (F := F)))) -∗ K ⟨⟩))
      ⊢ wp frame (wpE (defs₀ (F := F)) 𝒱₀ c none) E (cc22__sum_kernel i arg2 harg2 arg3 harg3 arg4 harg4 arg5 harg5) K := by
  simp only [cc22__sum_kernel_eq_skeleton]; unfold cc22__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run22_A.sl.v15 run22_A.sl.H5_1
  rw [readCov_whole _ zeros2, readAt_whole _ _ zeros2, readAt_whole _ _ zeros2]

/-- A point strictly between the first and the last: the scratch cell at `a` takes the point's step. -/
theorem run22_B (𝒱₀ : Variants) (c : Dev nD) (i : grid22.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond22_1 i) (hc2 : ¬cond22_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k22_pay2 x2 x3 a)) -∗ K ⟨⟩))
      ⊢ wp frame (wpE (defs₀ (F := F)) 𝒱₀ c none) E (cc22__sum_kernel i arg2 harg2 arg3 harg3 arg4 harg4 arg5 harg5) K := by
  simp only [cc22__sum_kernel_eq_skeleton]; unfold cc22__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run22_C (𝒱₀ : Variants) (c : Dev nD) (i : grid22.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond22_1 i) (hc2 : cond22_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k22_pay2 x2 x3 a) ∗ owns (c : Thread nD τ) arg5 fullShare (k22_pay2 x2 x3 a)) -∗ K ⟨⟩))
      ⊢ wp frame (wpE (defs₀ (F := F)) 𝒱₀ c none) E (cc22__sum_kernel i arg2 harg2 arg3 harg3 arg4 harg4 arg5 harg5) K := by
  simp only [cc22__sum_kernel_eq_skeleton]; unfold cc22__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run22_C.sl.v25 run22_C.sl.H5_1
    rw [readCov_whole _ zeros2, readAt_whole _ _ zeros2, readAt_whole _ _ zeros2, readAt_whole _ _ zeros2]
  iexists _; isplitr
  swap; · iexact H5
  ipureintro
  unfold run22_C.sl.H5_1
  rw [read_writes_whole _ _ zeros2, readAt_whole _ _ zeros2, readAt_whole _ _ zeros2, readAt_whole _ _ zeros2]

end Cert.Kernel.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle22_2 : ∀ t : Fin cfg22.N, cfg22.idle 2 (grid22.coords t) = true ↔ t.val ≠ 63 :=
  (by decide +kernel : ∀ t : Fin grid22.N, idle22 2 (grid22.coords t) = true ↔ t.val ≠ 63)
/-- and written back at the last point only. -/
theorem flush22_2' : ∀ t : Fin cfg22.N, (cfg22.win 2).flush t = true ↔ t.val = 63 :=
  (by decide +kernel : ∀ t : Fin grid22.N, win22_2.flush t = true ↔ t.val = 63)

/-! ## What the body finds in the inputs' buffers -/

/-- Each input's current staging buffer holds its block at every point, fetched there or not: unfetched, the block
    index has not moved and the body left the block in place. -/
theorem before22_0 (V : Valuation τ sig (Elt F)) (c : Dev nD) (t : Fin cfg22.N) (d) :
    (dat22 (Ix := Ix) (U := U) (Lvl := Lvl) V c).before 0 t d = iblk22 V c 0 t :=
  ((dat22 (Ix := Ix) (U := U) (Lvl := Lvl) V c).before_in_eq_fetched 0 rfl (fun _ => rfl) (fun _ _ _ => rfl)
      (fun t => by rw [after22_0]; unfold Dat.blockOf iblk22; rw [A_eq22]; try rfl) t d).trans
    (by unfold Dat.fetched Dat.blockOf iblk22; rw [A_eq22]; try rfl)

theorem before22_1 (V : Valuation τ sig (Elt F)) (c : Dev nD) (t : Fin cfg22.N) (d) :
    (dat22 (Ix := Ix) (U := U) (Lvl := Lvl) V c).before 1 t d = iblk22 V c 1 t :=
  ((dat22 (Ix := Ix) (U := U) (Lvl := Lvl) V c).before_in_eq_fetched 1 rfl (fun _ => rfl) (fun _ _ _ => rfl)
      (fun t => by rw [after22_1]; unfold Dat.blockOf iblk22; rw [A_eq22]; try rfl) t d).trans
    (by unfold Dat.fetched Dat.blockOf iblk22; rw [A_eq22]; try rfl)

/-! ## What the obligation asks of each window's buffer after the body -/

/-- The inputs are never idle: their buffers are handed back at their blocks. -/
theorem leaves22_0 (V : Valuation τ sig (Elt F)) (c : Dev nD) (t : Fin cfg22.N) :
    (dat22 (Ix := Ix) (U := U) (Lvl := Lvl) V c).leaves 0 t = owns (c : Thread nD τ) (st22_0 t) fullShare (iblk22 V c 0 t) := by
  rw [← after22_0 (Ix := Ix) (U := U) (Lvl := Lvl) V c t]

theorem leaves22_1 (V : Valuation τ sig (Elt F)) (c : Dev nD) (t : Fin cfg22.N) :
    (dat22 (Ix := Ix) (U := U) (Lvl := Lvl) V c).leaves 1 t = owns (c : Thread nD τ) (st22_1 t) fullShare (iblk22 V c 1 t) := by
  rw [← after22_1 (Ix := Ix) (U := U) (Lvl := Lvl) V c t]

/-- The output is idle, and not written back, at every point but the last: its buffer is handed back as found; -/
theorem leaves22_2_idle (V : Valuation τ sig (Elt F)) (c : Dev nD) (t : Fin cfg22.N) (h : t.val ≠ 63) :
    (dat22 (Ix := Ix) (U := U) (Lvl := Lvl) V c).leaves 2 t
      = iprop(∃ d, owns (c : Thread nD τ) (st22_2 t) fullShare ((dat22 (Ix := Ix) (U := U) (Lvl := Lvl) V c).before 2 t d)) :=
  (dat22 (Ix := Ix) (U := U) (Lvl := Lvl) V c).leaves_idle 2 t ((idle22_2 t).mpr h)
    (Bool.eq_false_iff.mpr fun hf => h ((flush22_2' t).mp hf))

/-- at the last point it is handed back at the accumulated sum. -/
theorem leaves22_2_last (V : Valuation τ sig (Elt F)) (c : Dev nD) (t : Fin cfg22.N) (h : t.val = 63) :
    (dat22 (Ix := Ix) (U := U) (Lvl := Lvl) V c).leaves 2 t = owns (c : Thread nD τ) (st22_2 t) fullShare (acc22 V c t.val t.isLt) := by
  have hl : cfg22.idle 2 (grid22.coords t) = false := by
    cases hi : cfg22.idle 2 (grid22.coords t) with
    | false => rfl
    | true => exact absurd h ((idle22_2 t).mp hi)
  rw [← after22_2 (Ix := Ix) (U := U) (Lvl := Lvl) V c t]
  unfold Dat.leaves; rw [hl]

/-- One step at a point, through the point itself. -/
theorem step22_at (V : Valuation τ sig (Elt F)) (c : Dev nD) (t : Fin cfg22.N) (a : Vec F S1x1 .f32) :
    step22 V c t.val t.isLt a = k22_pay2 (iblk22 V c 0 t) (iblk22 V c 1 t) a := rfl

theorem acc22_first (V : Valuation τ sig (Elt F)) (c : Dev nD) (n : ℕ) (hn : n < cfg22.N) (hz : n = 0) :
    acc22 V c n hn = step22 V c n hn (k22_pay1 (F := F)) := by
  subst hz; rfl

/-! ## The body obligation -/

/-- What the body is called with at point `t` (the obligation's precondition, the windows one by one), -/
noncomputable def bodyPre22 (V : Valuation τ sig (Elt F)) (ι : Ix) (c : Dev nD) (t : Fin cfg22.N) : sProp 𝕄 :=
  iprop((dat22 (Ix := Ix) (U := U) (Lvl := Lvl) V c).Φ t.castSucc ∗ (dat22 (Ix := Ix) (U := U) (Lvl := Lvl) V c).owesAt ι t.castSucc
    ∗ (∃ d, owns (c : Thread nD τ) (st22_0 t) fullShare ((dat22 (Ix := Ix) (U := U) (Lvl := Lvl) V c).before 0 t d))
    ∗ (∃ d, owns (c : Thread nD τ) (st22_1 t) fullShare ((dat22 (Ix := Ix) (U := U) (Lvl := Lvl) V c).before 1 t d))
    ∗ (∃ d, owns (c : Thread nD τ) (st22_2 t) fullShare ((dat22 (Ix := Ix) (U := U) (Lvl := Lvl) V c).before 2 t d)))

/-- and what it returns. -/
noncomputable def bodyPost22 (V : Valuation τ sig (Elt F)) (ι : Ix) (c : Dev nD) (t : Fin cfg22.N) : sProp 𝕄 :=
  iprop((dat22 (Ix := Ix) (U := U) (Lvl := Lvl) V c).Φ t.succ ∗ (dat22 (Ix := Ix) (U := U) (Lvl := Lvl) V c).owesAt ι t.succ
    ∗ (dat22 (Ix := Ix) (U := U) (Lvl := Lvl) V c).leaves 0 t ∗ (dat22 (Ix := Ix) (U := U) (Lvl := Lvl) V c).leaves 1 t ∗ (dat22 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body22 (V : Valuation τ sig (Elt F)) (𝒱₀ : Variants) (ι : Ix) (c : Dev nD) (t : Fin cfg22.N) :
    bodyPre22 (U := U) (Lvl := Lvl) V ι c t
      ⊢ wp frame (wpE (defs₀ (F := F)) 𝒱₀ c none) Set.univ (bodyAt22 t) (fun _ => bodyPost22 (U := U) (Lvl := Lvl) V ι c t) := by
  unfold bodyPre22 bodyPost22 bodyAt22
  simp only [before22_0, before22_1]
  rw [show (dat22 (Ix := Ix) (U := U) (Lvl := Lvl) V c).owesAt ι t.succ = (dat22 (Ix := Ix) (U := U) (Lvl := Lvl) V c).owesAt ι t.castSucc from rfl]
  rw [Phi22_at_succ, Phi22_succ, Phi22_castSucc, leaves22_0, leaves22_1]
  have hN : t.val < 64 := lt_of_lt_of_eq t.isLt N_22
  by_cases hz : t.val = 0
  · have hc1 : cond22_1 (grid22.coords t) := (hcond22_1 t).mpr hz
    have hc2 : ¬cond22_2 (grid22.coords t) := fun h => by have := (hcond22_2 t).mp h; omega
    rw [leaves22_2_idle V c t (by omega), Phi22_zero V c _ _ hz, scopedRest22_split, acc22_first V c _ _ hz, step22_at]
    iintro ⟨⟨⟨%f, Hs⟩, Hr⟩, Ho, ⟨%d0, H0⟩, ⟨%d1, H1⟩, H2⟩
    iapply (run22_A 𝒱₀ c (grid22.coords t) _ _ _ _ _ _ _ _ hc1 hc2 (iblk22 V c 0 t) (iblk22 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond22_1 (grid22.coords t) := fun h => hz ((hcond22_1 t).mp h)
    rw [Phi22_pos V c _ _ hz, acc22_pos V c _ _ hz, step22_at]
    by_cases hl : t.val = 63
    · have hc2 : cond22_2 (grid22.coords t) := (hcond22_2 t).mpr hl
      rw [leaves22_2_last V c t hl, acc22_pos V c _ _ hz, step22_at]
      iintro ⟨⟨Hs, Hr⟩, Ho, ⟨%d0, H0⟩, ⟨%d1, H1⟩, ⟨%d2, H2⟩⟩
      iapply (run22_C 𝒱₀ c (grid22.coords t) _ _ _ _ _ _ _ _ hc1 hc2 (iblk22 V c 0 t) (iblk22 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond22_2 (grid22.coords t) := fun h => hl ((hcond22_2 t).mp h)
      rw [leaves22_2_idle V c t hl]
      iintro ⟨⟨Hs, Hr⟩, Ho, ⟨%d0, H0⟩, ⟨%d1, H1⟩, H2⟩
      iapply (run22_B 𝒱₀ c (grid22.coords t) _ _ _ _ _ _ _ _ hc1 hc2 (iblk22 V c 0 t) (iblk22 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body22 (V : Valuation τ sig (Elt F)) (𝒱₀ : Variants) (ι : Ix) :
    ∀ c : Dev nD, BodyObligationLoose (dat22 (Ix := Ix) (U := U) (Lvl := Lvl) V c) (defs₀ (F := F)) 𝒱₀ ι Set.univ := fun c t => by
  rw [bigSep_W22, bigSep_W22]
  exact sound_body22 (U := U) (Lvl := Lvl) V 𝒱₀ ι c t

end Cert.Kernel.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg22

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (22 : Fin 24)
/-- Its configuration, its windows but for their index maps, the number of its windows. -/
abbrev cfgK : Pipeline.Cfg sig Λ₀ := cfg22
abbrev specK : Fin 3 → Pipeline.WinSpec sig cfgK.grid.rank := spec22
abbrev nW : Nat := 3
/-- Its output window and the buffer behind it. -/
abbrev oK : Fin nW := 2
abbrev outK : Ref sig .tc := main_v787
theorem winK : Pipeline.WinFacts₀ specK := winFacts₀22
theorem block_posK : ∀ w : Fin nW, 0 < (specK w).block.numel := block_pos22
theorem arr_wholeK : ∀ w : Fin nW, (specK w).arr.IsWhole := arr_whole22
theorem stage_wholeK : ∀ (w : Fin nW) (s : Fin (specK w).nbuf), ((specK w).stage s).IsWhole := stage_whole22

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.Kernel.Hand.Reg22

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R22' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (22 : Fin 24) c = dat22 (V125 m outs c) c)
    (hbody : ∀ c : Dev nD, Pipeline.BodyObligationLoose (dat22 (Ix := Ix) (U := U) (Lvl := Lvl) (V125 m outs c) c) (defs₀ (F := F)) 𝒱₀ ι Set.univ) :
    RegionSeg (pcfgs (F := F)) GenP.adm pdats ι defs₀ 𝒱₀ L lv (22 : Fin 24) :=
  Reg22.RK 𝒱₀ L lv ι pdats (fun c => V125 m outs c)
    (fun c => by rw [hp c]; exact hbody c)
    (fun c w => by rw [hp c]; exact A_eq22 (V125 m outs c) c w)
    (fun c => by rw [hp c]; exact PosShare.mem_left_op_right fullShare)
    (fun c t => by rw [hp c]; rfl)
    (fun c => by rw [hp c]; rfl)
    (fun c => by rw [hp c, Phi_first22])
    (fun c => by rw [hp c]; exact Phi_last22 (V125 m outs c) c)

/-- It is entered from the thread state before the region's item, -/
theorem hpre22' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (22 : Fin 24) c = dat22 (V125 m outs c) c)
    (hbody : ∀ c : Dev nD, Pipeline.BodyObligationLoose (dat22 (Ix := Ix) (U := U) (Lvl := Lvl) (V125 m outs c) c) (defs₀ (F := F)) 𝒱₀ ι Set.univ)
    (c : Dev nD) :
    iprop(StableHlo.held (c : Thread nD τ) (Pipeline.ucRefs τ sig) (V125 m outs c) ∗ (R c : sProp 𝕄))
      ⊢ (R22' m outs 𝒱₀ L lv ι pdats hp hbody).pre c := .rfl

/-- and left at the thread state after it. -/
theorem hpost22' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (22 : Fin 24) c = dat22 (V125 m outs c) c)
    (hbody : ∀ c : Dev nD, Pipeline.BodyObligationLoose (dat22 (Ix := Ix) (U := U) (Lvl := Lvl) (V125 m outs c) c) (defs₀ (F := F)) 𝒱₀ ι Set.univ)
    (houts : ∀ c : Dev nD, outs 126 main_v787 c = (dat22 (Ix := Ix) (U := U) (Lvl := Lvl) (V125 m outs c) c).arrAt 2 64)
    (c : Dev nD) :
    (R22' m outs 𝒱₀ L lv ι pdats hp hbody).post c
      ⊢ iprop(StableHlo.held (c : Thread nD τ) (Pipeline.ucRefs τ sig) (V126 m outs c) ∗ (R c : sProp 𝕄)) := by
  have h : (pdats (22 : Fin 24) c).arrAt Reg22.oK Reg22.cfgK.N = outs 126 main_v787 c := by
    rw [hp c]; exact (houts c).symm
  show iprop(StableHlo.held (c : Thread nD τ) (Pipeline.ucRefs τ sig)
      (Function.update (V125 m outs c) (Proc.devRef .tc main_v787) ((pdats (22 : Fin 24) c).arrAt Reg22.oK Reg22.cfgK.N))
        ∗ (R c : sProp 𝕄)) ⊢ _
  rw [h]

end Cert.Kernel.Hand
-- ==== Proof.K_Rg23.lean ====
import proofs.«169706_j68856915690108_1_alg».proof.Proof.Gen.Kernel.Launch
import proofs.«169706_j68856915690108_1_alg».proof.Proof.Gen.Kernel.Skeleton
import proofs.«169706_j68856915690108_1_alg».proof.Proof.Gen.Kernel.Points
import Idealize.ShloMosaic.Lib.Pipeline.FrameBody
import proofs.«169706_j68856915690108_1_alg».proof.Proof.K_ApplyLib
import proofs.«169706_j68856915690108_1_alg».proof.Proof.K_Shared
import proofs.«169706_j68856915690108_1_alg».proof.Proof.RegionsK

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k23_pay1 x_i` and `step t a = k23_pay2 h_i h_j threshold x_j a`, the printed payloads of the two stores.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk23 (V : Valuation τ sig (Elt F)) (c : Dev nD) (w : Fin cfg23.W) (t : Fin cfg23.N) :
    ((cfg23.win w).xblock (cfg23.grid.coords t)).Idx → Elt F (cfg23.win w).elt :=
  ((cfg23.win w).blk t).view.read (Elt F)
    (V (Proc.devRef .tc (Pipeline.arrRef spec23 w)) : Buf (Elt F) ((cfg23.win w).arr.view.loc (c.tc : Thread nD τ)))

/-- What the accumulator is reset to at a point whose second coordinate is 0: 1.0 times the block of `x` window 3
    stages there (the printed payload of the first store into the scratch buffer). -/
noncomputable def init23 (V : Valuation τ sig (Elt F)) (c : Dev nD) (n : ℕ) (hn : n < cfg23.N) : Vec F S512x256 .f32 :=
  k23_pay1 (iblk23 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step23 (V : Valuation τ sig (Elt F)) (c : Dev nD) (n : ℕ) (hn : n < cfg23.N) (a : Vec F S512x256 .f32) : Vec F S512x256 .f32 :=
  k23_pay2 (iblk23 V c 1 ⟨n, hn⟩) (iblk23 V c 2 ⟨n, hn⟩) (iblk23 V c 0 ⟨n, hn⟩) (iblk23 V c 4 ⟨n, hn⟩) a

/-- What the accumulator holds after point `n`: reset and stepped at the points ≡ 0 (mod 8), stepped from what the
    point before left at the others. -/
noncomputable def acc23 (V : Valuation τ sig (Elt F)) (c : Dev nD) : (n : ℕ) → n < cfg23.N → Vec F S512x256 .f32
  | 0, hn => step23 V c 0 hn (init23 V c 0 hn)
  | n + 1, hn =>
    if (n + 1) % 8 = 0 then step23 V c (n + 1) hn (init23 V c (n + 1) hn)
    else step23 V c (n + 1) hn (acc23 V c n (Nat.lt_of_succ_lt hn))

/-- After a point ≡ 0 (mod 8): the reset value, stepped once. -/
theorem acc23_reset (V : Valuation τ sig (Elt F)) (c : Dev nD) (n : ℕ) (hn : n < cfg23.N) (h0 : n % 8 = 0) :
    acc23 V c n hn = step23 V c n hn (init23 V c n hn) := by
  cases n with
  | zero => rfl
  | succ n => exact if_pos h0

/-- After any other point: that point's step on what the point before left. -/
theorem acc23_step (V : Valuation τ sig (Elt F)) (c : Dev nD) (n : ℕ) (hn : n < cfg23.N) (h0 : ¬n % 8 = 0) :
    acc23 V c n hn = step23 V c n hn (acc23 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi23 (V : Valuation τ sig (Elt F)) (c : Dev nD) : (n : ℕ) → n ≤ cfg23.N → sProp 𝕄
  | 0, _ => Pipeline.scopedRest (Ix := Ix) (Name := ℕ) (U := U) (Lvl := Lvl) (Val := Elt F) spec23 c
  | n + 1, hn => iprop(owns (c : Thread nD τ) (Memref.whole cc23_scratch0) fullShare (acc23 V c n hn)
      ∗ Pipeline.scopedRestBut (Ix := Ix) (Name := ℕ) (U := U) (Lvl := Lvl) (Val := Elt F) spec23 c [cc23_scratch0])

theorem Phi23_zero (V : Valuation τ sig (Elt F)) (c : Dev nD) (n : ℕ) (h : n ≤ cfg23.N) (hz : n = 0) :
    (Phi23 V c n h : sProp 𝕄) = Pipeline.scopedRest (Ix := Ix) (Name := ℕ) (U := U) (Lvl := Lvl) (Val := Elt F) spec23 c := by
  subst hz; rfl

theorem Phi23_succ (V : Valuation τ sig (Elt F)) (c : Dev nD) (n : ℕ) (hn : n < cfg23.N) :
    (Phi23 V c (n + 1) hn : sProp 𝕄) = iprop(owns (c : Thread nD τ) (Memref.whole cc23_scratch0) fullShare (acc23 V c n hn)
      ∗ Pipeline.scopedRestBut (Ix := Ix) (Name := ℕ) (U := U) (Lvl := Lvl) (Val := Elt F) spec23 c [cc23_scratch0]) := rfl

theorem Phi23_pos (V : Valuation τ sig (Elt F)) (c : Dev nD) (n : ℕ) (h : n ≤ cfg23.N) (hz : n ≠ 0) :
    (Phi23 V c n h : sProp 𝕄) = iprop(owns (c : Thread nD τ) (Memref.whole cc23_scratch0) fullShare (acc23 V c (n - 1) (by omega))
      ∗ Pipeline.scopedRestBut (Ix := Ix) (Name := ℕ) (U := U) (Lvl := Lvl) (Val := Elt F) spec23 c [cc23_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi23`; the
    threshold's array held whole, each of the two arrays that two input windows read held half and half; nothing owed. -/
noncomputable def dat23 (V : Valuation τ sig (Elt F)) (c : Dev nD) : Dat τ (Elt F) Ix ℕ U Lvl cfg23 c where
  A w := V (Proc.devRef .tc (Pipeline.arrRef spec23 w))
  after w t := match w with
    | ⟨0, _⟩ => iblk23 V c 0 t
    | ⟨1, _⟩ => iblk23 V c 1 t
    | ⟨2, _⟩ => iblk23 V c 2 t
    | ⟨3, _⟩ => iblk23 V c 3 t
    | ⟨4, _⟩ => iblk23 V c 4 t
    | ⟨5, _⟩ => acc23 V c t.val t.isLt
  Φ t := Phi23 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq23 (V : Valuation τ sig (Elt F)) (c : Dev nD) (w : Fin cfg23.W) :
    (dat23 (Ix := Ix) (U := U) (Lvl := Lvl) V c).A w = V (Proc.devRef .tc (Pipeline.arrRef spec23 w)) := by
  dsimp only [dat23]

/-- What the body leaves, window by window. -/
theorem after23_0 (V : Valuation τ sig (Elt F)) (c : Dev nD) (t : Fin cfg23.N) :
    (dat23 (Ix := Ix) (U := U) (Lvl := Lvl) V c).after 0 t = iblk23 V c 0 t := by dsimp only [dat23]
theorem after23_1 (V : Valuation τ sig (Elt F)) (c : Dev nD) (t : Fin cfg23.N) :
    (dat23 (Ix := Ix) (U := U) (Lvl := Lvl) V c).after 1 t = iblk23 V c 1 t := by dsimp only [dat23]
theorem after23_2 (V : Valuation τ sig (Elt F)) (c : Dev nD) (t : Fin cfg23.N) :
    (dat23 (Ix := Ix) (U := U) (Lvl := Lvl) V c).after 2 t = iblk23 V c 2 t := by dsimp only [dat23]
theorem after23_3 (V : Valuation τ sig (Elt F)) (c : Dev nD) (t : Fin cfg23.N) :
    (dat23 (Ix := Ix) (U := U) (Lvl := Lvl) V c).after 3 t = iblk23 V c 3 t := by dsimp only [dat23]
theorem after23_4 (V : Valuation τ sig (Elt F)) (c : Dev nD) (t : Fin cfg23.N) :
    (dat23 (Ix := Ix) (U := U) (Lvl := Lvl) V c).after 4 t = iblk23 V c 4 t := by dsimp only [dat23]
theorem after23_5 (V : Valuation τ sig (Elt F)) (c : Dev nD) (t : Fin cfg23.N) :
    (dat23 (Ix := Ix) (U := U) (Lvl := Lvl) V c).after 5 t = acc23 V c t.val t.isLt := by dsimp only [dat23]

/-- The shares the input arrays are held at. -/
theorem q23_0 (V : Valuation τ sig (Elt F)) (c : Dev nD) : (dat23 (Ix := Ix) (U := U) (Lvl := Lvl) V c).q 0 = fullShare := by dsimp only [dat23]
theorem q23_1 (V : Valuation τ sig (Elt F)) (c : Dev nD) : (dat23 (Ix := Ix) (U := U) (Lvl := Lvl) V c).q 1 = fullShare.left := by dsimp only [dat23]
theorem q23_2 (V : Valuation τ sig (Elt F)) (c : Dev nD) : (dat23 (Ix := Ix) (U := U) (Lvl := Lvl) V c).q 2 = fullShare.right := by dsimp only [dat23]
theorem q23_3 (V : Valuation τ sig (Elt F)) (c : Dev nD) : (dat23 (Ix := Ix) (U := U) (Lvl := Lvl) V c).q 3 = fullShare.left := by dsimp only [dat23]
theorem q23_4 (V : Valuation τ sig (Elt F)) (c : Dev nD) : (dat23 (Ix := Ix) (U := U) (Lvl := Lvl) V c).q 4 = fullShare.right := by dsimp only [dat23]

/-- The invariant at a point's start, and at its end. -/
theorem Phi23_castSucc (V : Valuation τ sig (Elt F)) (c : Dev nD) (t : Fin cfg23.N) :
    (dat23 (Ix := Ix) (U := U) (Lvl := Lvl) V c).Φ t.castSucc = Phi23 V c t.val (Nat.le_of_lt t.isLt) := by
  dsimp only [dat23]; simp only [Fin.coe_castSucc]

theorem Phi23_at_succ (V : Valuation τ sig (Elt F)) (c : Dev nD) (t : Fin cfg23.N) :
    (dat23 (Ix := Ix) (U := U) (Lvl := Lvl) V c).Φ t.succ = Phi23 V c (t.val + 1) t.isLt := rfl

/-- Before the first point the invariant is the launch's scoped rest. -/
theorem Phi_first23 (V : Valuation τ sig (Elt F)) (c : Dev nD) :
    (dat23 (Ix := Ix) (U := U) (Lvl := Lvl) V c).Φ 0
      = Pipeline.scopedRest (Ix := Ix) (Name := ℕ) (U := U) (Lvl := Lvl) (Val := Elt F) spec23 c := rfl

/-- After the last point the invariant gives the scoped rest back: the accumulator's contents are forgotten. -/
theorem Phi_last23 (V : Valuation τ sig (Elt F)) (c : Dev nD) :
    (dat23 (Ix := Ix) (U := U) (Lvl := Lvl) V c).Φ (Fin.last cfg23.N)
      ⊢ Pipeline.scopedRest (Ix := Ix) (Name := ℕ) (U := U) (Lvl := Lvl) (Val := Elt F) spec23 c := by
  have hN : cfg23.N = 64 := N_23
  rw [show (dat23 (Ix := Ix) (U := U) (Lvl := Lvl) V c).Φ (Fin.last cfg23.N) = Phi23 V c (Fin.last cfg23.N).val (Nat.le_of_lt_succ (Fin.last cfg23.N).isLt) from rfl,
    Phi23_pos V c _ _ (by rw [Fin.val_last]; omega), scopedRest23_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 23) c := dat23 V c

end Cert.Kernel.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k23_pay2 hI hJ mn xJ s` — `s` plus the 0/1 mask of (hI · hJᵀ > mn) times `xJ` — and the value
  the accumulator is reset to is `k23_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond23_0 (i : grid23.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond23_1 (i : grid23.Coords) : Prop := k23_cond2 i = 1#1

/-! ## The three runs -/

/-- At a point whose second coordinate is 0 (and not 7): the accumulator, at anything, is reset to `k23_pay1 xI` and
    stepped once; every window's buffer is handed back as found. -/
theorem run23_first (𝒱₀ : Variants) (c : Dev nD) (i : grid23.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond23_0 i) (hc1 : ¬cond23_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k23_pay2 hI hJ mn xJ (k23_pay1 xI))) -∗ K ⟨⟩))
      ⊢ wp frame (wpE (defs₀ (F := F)) 𝒱₀ c none) E (cc23__apply_kernel i arg2 harg2 arg3 harg3 arg4 harg4 arg5 harg5 arg6 harg6 arg7 harg7 arg8 harg8) K := by
  simp only [cc23__apply_kernel_eq_skeleton]; unfold cc23__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run23_mid (𝒱₀ : Variants) (c : Dev nD) (i : grid23.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond23_0 i) (hc1 : ¬cond23_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k23_pay2 hI hJ mn xJ s)) -∗ K ⟨⟩))
      ⊢ wp frame (wpE (defs₀ (F := F)) 𝒱₀ c none) E (cc23__apply_kernel i arg2 harg2 arg3 harg3 arg4 harg4 arg5 harg5 arg6 harg6 arg7 harg7 arg8 harg8) K := by
  simp only [cc23__apply_kernel_eq_skeleton]; unfold cc23__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run23_last (𝒱₀ : Variants) (c : Dev nD) (i : grid23.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond23_0 i) (hc1 : cond23_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k23_pay2 hI hJ mn xJ s)
        ∗ owns (c : Thread nD τ) arg8 fullShare (k23_pay2 hI hJ mn xJ s)) -∗ K ⟨⟩))
      ⊢ wp frame (wpE (defs₀ (F := F)) 𝒱₀ c none) E (cc23__apply_kernel i arg2 harg2 arg3 harg3 arg4 harg4 arg5 harg5 arg6 harg6 arg7 harg7 arg8 harg8) K := by
  simp only [cc23__apply_kernel_eq_skeleton]; unfold cc23__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.Kernel.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc23`. The three control cases are
  decided over the grid by the point's residue mod 8, and in each the kernel's run (ApplyRun.lean) applies.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond23_0 : ∀ t : Fin cfg23.N, cond23_0 (grid23.coords t) ↔ t.val % 8 = 0 :=
  (by decide +kernel : ∀ t : Fin grid23.N, cond23_0 (grid23.coords t) ↔ t.val % 8 = 0)
/-- It is stored into the output block at the points ≡ 7 (mod 8). -/
theorem hcond23_1 : ∀ t : Fin cfg23.N, cond23_1 (grid23.coords t) ↔ t.val % 8 = 7 :=
  (by decide +kernel : ∀ t : Fin grid23.N, cond23_1 (grid23.coords t) ↔ t.val % 8 = 7)
/-- The output window is idle at every other point, -/
theorem idleAt23_5 : ∀ t : Fin cfg23.N, ¬t.val % 8 = 7 → cfg23.idle 5 (grid23.coords t) = true :=
  (by decide +kernel : ∀ t : Fin grid23.N, ¬t.val % 8 = 7 → cfg23.idle 5 (grid23.coords t) = true)
/-- live at those, -/
theorem liveAt23_5 : ∀ t : Fin cfg23.N, t.val % 8 = 7 → cfg23.idle 5 (grid23.coords t) = false :=
  (by decide +kernel : ∀ t : Fin grid23.N, t.val % 8 = 7 → cfg23.idle 5 (grid23.coords t) = false)
/-- and not written back where it is idle. -/
theorem noFlush23_5 (t : Fin cfg23.N) (h : ¬t.val % 8 = 7) : (cfg23.win 5).flush t = false := by
  cases hf : (cfg23.win 5).flush t with
  | false => rfl
  | true => exact absurd ((flush23_5 t).mp hf) h

/-! ## What the body finds in the inputs' buffers and leaves in every buffer -/

/-- Each input's current staging buffer holds its block at every point, fetched there or not. -/
theorem before23_0 (V : Valuation τ sig (Elt F)) (c : Dev nD) (t : Fin cfg23.N) (d) : (dat23 (Ix := Ix) (U := U) (Lvl := Lvl) V c).before 0 t d = iblk23 V c 0 t :=
  ((dat23 (Ix := Ix) (U := U) (Lvl := Lvl) V c).before_in_eq_fetched 0 rfl (fun _ => rfl) (fun _ _ _ => rfl)
      (fun t => by rw [after23_0]; unfold Dat.blockOf iblk23; rw [A_eq23]; try rfl) t d).trans
    (by unfold Dat.fetched Dat.blockOf iblk23; rw [A_eq23]; try rfl)
theorem before23_1 (V : Valuation τ sig (Elt F)) (c : Dev nD) (t : Fin cfg23.N) (d) : (dat23 (Ix := Ix) (U := U) (Lvl := Lvl) V c).before 1 t d = iblk23 V c 1 t :=
  ((dat23 (Ix := Ix) (U := U) (Lvl := Lvl) V c).before_in_eq_fetched 1 rfl (fun _ => rfl) (fun _ _ _ => rfl)
      (fun t => by rw [after23_1]; unfold Dat.blockOf iblk23; rw [A_eq23]; try rfl) t d).trans
    (by unfold Dat.fetched Dat.blockOf iblk23; rw [A_eq23]; try rfl)
theorem before23_2 (V : Valuation τ sig (Elt F)) (c : Dev nD) (t : Fin cfg23.N) (d) : (dat23 (Ix := Ix) (U := U) (Lvl := Lvl) V c).before 2 t d = iblk23 V c 2 t :=
  ((dat23 (Ix := Ix) (U := U) (Lvl := Lvl) V c).before_in_eq_fetched 2 rfl (fun _ => rfl) (fun _ _ _ => rfl)
      (fun t => by rw [after23_2]; unfold Dat.blockOf iblk23; rw [A_eq23]; try rfl) t d).trans
    (by unfold Dat.fetched Dat.blockOf iblk23; rw [A_eq23]; try rfl)
theorem before23_3 (V : Valuation τ sig (Elt F)) (c : Dev nD) (t : Fin cfg23.N) (d) : (dat23 (Ix := Ix) (U := U) (Lvl := Lvl) V c).before 3 t d = iblk23 V c 3 t :=
  ((dat23 (Ix := Ix) (U := U) (Lvl := Lvl) V c).before_in_eq_fetched 3 rfl (fun _ => rfl) (fun _ _ _ => rfl)
      (fun t => by rw [after23_3]; unfold Dat.blockOf iblk23; rw [A_eq23]; try rfl) t d).trans
    (by unfold Dat.fetched Dat.blockOf iblk23; rw [A_eq23]; try rfl)
theorem before23_4 (V : Valuation τ sig (Elt F)) (c : Dev nD) (t : Fin cfg23.N) (d) : (dat23 (Ix := Ix) (U := U) (Lvl := Lvl) V c).before 4 t d = iblk23 V c 4 t :=
  ((dat23 (Ix := Ix) (U := U) (Lvl := Lvl) V c).before_in_eq_fetched 4 rfl (fun _ => rfl) (fun _ _ _ => rfl)
      (fun t => by rw [after23_4]; unfold Dat.blockOf iblk23; rw [A_eq23]; try rfl) t d).trans
    (by unfold Dat.fetched Dat.blockOf iblk23; rw [A_eq23]; try rfl)

/-! ## The body obligation, at a generic point -/

/-- What the body is called with at point `t` (the obligation's precondition, the windows one by one), -/
noncomputable def bodyPre23 (V : Valuation τ sig (Elt F)) (c : Dev nD) (ι : Ix) (t : Fin cfg23.N) : sProp 𝕄 :=
  iprop((dat23 (Ix := Ix) (U := U) (Lvl := Lvl) V c).Φ t.castSucc ∗ (dat23 (Ix := Ix) (U := U) (Lvl := Lvl) V c).owesAt ι t.castSucc
    ∗ (∃ d, owns (c : Thread nD τ) (st23_0 t) fullShare ((dat23 (Ix := Ix) (U := U) (Lvl := Lvl) V c).before 0 t d))
    ∗ (∃ d, owns (c : Thread nD τ) (st23_1 t) fullShare ((dat23 (Ix := Ix) (U := U) (Lvl := Lvl) V c).before 1 t d))
    ∗ (∃ d, owns (c : Thread nD τ) (st23_2 t) fullShare ((dat23 (Ix := Ix) (U := U) (Lvl := Lvl) V c).before 2 t d))
    ∗ (∃ d, owns (c : Thread nD τ) (st23_3 t) fullShare ((dat23 (Ix := Ix) (U := U) (Lvl := Lvl) V c).before 3 t d))
    ∗ (∃ d, owns (c : Thread nD τ) (st23_4 t) fullShare ((dat23 (Ix := Ix) (U := U) (Lvl := Lvl) V c).before 4 t d))
    ∗ (∃ d, owns (c : Thread nD τ) (st23_5 t) fullShare ((dat23 (Ix := Ix) (U := U) (Lvl := Lvl) V c).before 5 t d)))

/-- and what it returns. -/
noncomputable def bodyPost23 (V : Valuation τ sig (Elt F)) (c : Dev nD) (ι : Ix) (t : Fin cfg23.N) : sProp 𝕄 :=
  iprop((dat23 (Ix := Ix) (U := U) (Lvl := Lvl) V c).Φ t.succ ∗ (dat23 (Ix := Ix) (U := U) (Lvl := Lvl) V c).owesAt ι t.succ
    ∗ (dat23 (Ix := Ix) (U := U) (Lvl := Lvl) V c).leaves 0 t ∗ (dat23 (Ix := Ix) (U := U) (Lvl := Lvl) V c).leaves 1 t ∗ (dat23 (Ix := Ix) (U := U) (Lvl := Lvl) V c).leaves 2 t
    ∗ (dat23 (Ix := Ix) (U := U) (Lvl := Lvl) V c).leaves 3 t ∗ (dat23 (Ix := Ix) (U := U) (Lvl := Lvl) V c).leaves 4 t ∗ (dat23 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body23 (𝒱₀ : Variants) (ι : Ix) (V : Valuation τ sig (Elt F)) (c : Dev nD) (t : Fin cfg23.N) :
    bodyPre23 (Ix := Ix) (U := U) (Lvl := Lvl) V c ι t ⊢ wp frame (wpE (defs₀ (F := F)) 𝒱₀ c none) Set.univ (bodyAt23 t) (fun _ => bodyPost23 (Ix := Ix) (U := U) (Lvl := Lvl) V c ι t) := by
  unfold bodyPre23 bodyPost23 bodyAt23
  simp only [before23_0, before23_1, before23_2, before23_3, before23_4]
  rw [show (dat23 (Ix := Ix) (U := U) (Lvl := Lvl) V c).owesAt ι t.succ = (dat23 (Ix := Ix) (U := U) (Lvl := Lvl) V c).owesAt ι t.castSucc from rfl]
  rw [Phi23_at_succ, Phi23_succ, Phi23_castSucc]
  rw [leaves_live (dat23 (Ix := Ix) (U := U) (Lvl := Lvl) V c) 0 t rfl rfl, leaves_live (dat23 (Ix := Ix) (U := U) (Lvl := Lvl) V c) 1 t rfl rfl, leaves_live (dat23 (Ix := Ix) (U := U) (Lvl := Lvl) V c) 2 t rfl rfl,
    leaves_live (dat23 (Ix := Ix) (U := U) (Lvl := Lvl) V c) 3 t rfl rfl, leaves_live (dat23 (Ix := Ix) (U := U) (Lvl := Lvl) V c) 4 t rfl rfl, after23_0, after23_1, after23_2, after23_3, after23_4]
  have hN : t.val < 64 := lt_of_lt_of_eq t.isLt (show cfg23.N = 64 from N_23)
  by_cases h0 : t.val % 8 = 0
  · have h7 : ¬t.val % 8 = 7 := by omega
    rw [Dat.leaves_idle (dat23 (Ix := Ix) (U := U) (Lvl := Lvl) V c) 5 t (idleAt23_5 t h7) (noFlush23_5 t h7)]
    rw [acc23_reset V c t.val t.isLt h0]
    unfold step23 init23
    by_cases hz : t.val = 0
    · rw [Phi23_zero V c _ _ hz, scopedRest23_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run23_first 𝒱₀ c (grid23.coords t) _ _ _ _ _ _ _ _ _ _ _ _ _ _ ((hcond23_0 t).mpr h0) (fun h => h7 ((hcond23_1 t).mp h)) (iblk23 V c 0 t) (iblk23 V c 1 t) (iblk23 V c 2 t) (iblk23 V c 3 t) (iblk23 V c 4 t) ((dat23 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi23_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run23_first 𝒱₀ c (grid23.coords t) _ _ _ _ _ _ _ _ _ _ _ _ _ _ ((hcond23_0 t).mpr h0) (fun h => h7 ((hcond23_1 t).mp h)) (iblk23 V c 0 t) (iblk23 V c 1 t) (iblk23 V c 2 t) (iblk23 V c 3 t) (iblk23 V c 4 t) ((dat23 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc23_step V c t.val t.isLt h0, Phi23_pos V c _ _ hz]
    unfold step23
    by_cases h7 : t.val % 8 = 7
    · rw [leaves_live (dat23 (Ix := Ix) (U := U) (Lvl := Lvl) V c) 5 t (liveAt23_5 t h7) rfl, after23_5, acc23_step V c t.val t.isLt h0]
      unfold step23
      iintro ⟨⟨HS, Hr⟩, Ho, ⟨%d0, H0⟩, ⟨%d1, H1⟩, ⟨%d2, H2⟩, ⟨%d3, H3⟩, ⟨%d4, H4⟩, ⟨%d5, H5⟩⟩
      iapply (run23_last 𝒱₀ c (grid23.coords t) _ _ _ _ _ _ _ _ _ _ _ _ _ _ (fun h => h0 ((hcond23_0 t).mp h)) ((hcond23_1 t).mpr h7) (iblk23 V c 0 t) (iblk23 V c 1 t) (iblk23 V c 2 t) (iblk23 V c 3 t) (iblk23 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat23 (Ix := Ix) (U := U) (Lvl := Lvl) V c) 5 t (idleAt23_5 t h7) (noFlush23_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run23_mid 𝒱₀ c (grid23.coords t) _ _ _ _ _ _ _ _ _ _ _ _ _ _ (fun h => h0 ((hcond23_0 t).mp h)) (fun h => h7 ((hcond23_1 t).mp h)) (iblk23 V c 0 t) (iblk23 V c 1 t) (iblk23 V c 2 t) (iblk23 V c 3 t) (iblk23 V c 4 t) ((dat23 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation23 (𝒱₀ : Variants) (ι : Ix) (V : Valuation τ sig (Elt F)) (c : Dev nD) :
    BodyObligationLoose (dat23 (Ix := Ix) (U := U) (Lvl := Lvl) V c) (defs₀ (F := F)) 𝒱₀ ι Set.univ := fun t => by
  rw [bigSep_W23, bigSep_W23]
  exact sound_body23 𝒱₀ ι V c t

/-- The same at the type the program's family of configurations gives pipeline 1, on every core. -/
theorem body23 (𝒱₀ : Variants) (ι : Ix) (V : Valuation τ sig (Elt F)) :
    ∀ c : Dev nD, BodyObligationLoose (cfg := cfgs 23) (dat23 (Ix := Ix) (U := U) (Lvl := Lvl) V c) (defs₀ (F := F)) 𝒱₀ ι Set.univ :=
  fun c => body_obligation23 𝒱₀ ι V c

end Cert.Kernel.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.Kernel.Hand.Reg23

open Cert.Kernel Cert.Kernel.Gen Cert.Kernel.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (23 : Fin 24)
/-- Its configuration, its windows but for their index maps, the number of its windows. -/
abbrev cfgK : Pipeline.Cfg sig Λ₀ := cfg23
abbrev specK : Fin 6 → Pipeline.WinSpec sig cfgK.grid.rank := spec23
abbrev nW : Nat := 6
/-- Its output window and the buffer behind it. -/
abbrev oK : Fin nW := 5
abbrev outK : Ref sig .tc := main_v790
theorem winK : Pipeline.WinFacts₀ specK := winFacts₀23
theorem block_posK : ∀ w : Fin nW, 0 < (specK w).block.numel := block_pos23
theorem arr_wholeK : ∀ w : Fin nW, (specK w).arr.IsWhole := arr_whole23
theorem stage_wholeK : ∀ (w : Fin nW) (s : Fin (specK w).nbuf), ((specK w).stage s).IsWhole := stage_whole23

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.Kernel.Hand.Reg23

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R23' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (23 : Fin 24) c = dat23 (V127 m outs c) c)
    (hbody : ∀ c : Dev nD, Pipeline.BodyObligationLoose (dat23 (Ix := Ix) (U := U) (Lvl := Lvl) (V127 m outs c) c) (defs₀ (F := F)) 𝒱₀ ι Set.univ) :
    RegionSeg (pcfgs (F := F)) GenP.adm pdats ι defs₀ 𝒱₀ L lv (23 : Fin 24) :=
  Reg23.RK 𝒱₀ L lv ι pdats (fun c => V127 m outs c)
    (fun c => by rw [hp c]; exact hbody c)
    (fun c w => by rw [hp c]; exact A_eq23 (V127 m outs c) c w)
    (fun c => by rw [hp c]; rw [q23_1, q23_2]; exact PosShare.mem_left_op_right fullShare)
    (fun c => by rw [hp c]; rw [q23_3, q23_4]; exact PosShare.mem_left_op_right fullShare)
    (fun c => by rw [hp c]; exact q23_0 (V127 m outs c) c)
    (fun c t => by rw [hp c]; rfl)
    (fun c => by rw [hp c]; rfl)
    (fun c => by rw [hp c, Phi_first23])
    (fun c => by rw [hp c]; exact Phi_last23 (V127 m outs c) c)

/-- It is entered from the thread state before the region's item, -/
theorem hpre23' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (23 : Fin 24) c = dat23 (V127 m outs c) c)
    (hbody : ∀ c : Dev nD, Pipeline.BodyObligationLoose (dat23 (Ix := Ix) (U := U) (Lvl := Lvl) (V127 m outs c) c) (defs₀ (F := F)) 𝒱₀ ι Set.univ)
    (c : Dev nD) :
    iprop(StableHlo.held (c : Thread nD τ) (Pipeline.ucRefs τ sig) (V127 m outs c) ∗ (R c : sProp 𝕄))
      ⊢ (R23' m outs 𝒱₀ L lv ι pdats hp hbody).pre c := .rfl

/-- and left at the thread state after it. -/
theorem hpost23' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (23 : Fin 24) c = dat23 (V127 m outs c) c)
    (hbody : ∀ c : Dev nD, Pipeline.BodyObligationLoose (dat23 (Ix := Ix) (U := U) (Lvl := Lvl) (V127 m outs c) c) (defs₀ (F := F)) 𝒱₀ ι Set.univ)
    (houts : ∀ c : Dev nD, outs 128 main_v790 c = (dat23 (Ix := Ix) (U := U) (Lvl := Lvl) (V127 m outs c) c).arrAt 5 64)
    (c : Dev nD) :
    (R23' m outs 𝒱₀ L lv ι pdats hp hbody).post c
      ⊢ iprop(StableHlo.held (c : Thread nD τ) (Pipeline.ucRefs τ sig) (V128 m outs c) ∗ (R c : sProp 𝕄)) := by
  have h : (pdats (23 : Fin 24) c).arrAt Reg23.oK Reg23.cfgK.N = outs 128 main_v790 c := by
    rw [hp c]; exact (houts c).symm
  show iprop(StableHlo.held (c : Thread nD τ) (Pipeline.ucRefs τ sig)
      (Function.update (V127 m outs c) (Proc.devRef .tc main_v790) ((pdats (23 : Fin 24) c).arrAt Reg23.oK Reg23.cfgK.N))
        ∗ (R c : sProp 𝕄)) ⊢ _
  rw [h]

end Cert.Kernel.Hand
-- ==== Proof.K_Plugs.lean ====
/-
  The kernel regions put together, at one choice of the ghost state's parameters (no index, the pipeline library's own
  algebra, natural levels, no variant, no level assigned).

  What region K leaves in its output array is the array after the last write-back, computed from the valuation the
  region is entered at (fK). The regions' results are then one family (outsK: KOuts.lean), each region's proof data is
  its own over its entry valuation in that family (pdatsK), and each region's segment record and its entry and exit
  entailments (Pin<K>.lean) are taken at these.
-/
import proofs.«169706_j68856915690108_1_alg».proof.Proof.K_KOuts
import proofs.«169706_j68856915690108_1_alg».proof.Proof.K_LaunchArgs
import proofs.«169706_j68856915690108_1_alg».proof.Proof.K_Rg0
import proofs.«169706_j68856915690108_1_alg».proof.Proof.K_Rg1
import proofs.«169706_j68856915690108_1_alg».proof.Proof.K_Rg2
import proofs.«169706_j68856915690108_1_alg».proof.Proof.K_Rg3
import proofs.«169706_j68856915690108_1_alg».proof.Proof.K_Rg4
import proofs.«169706_j68856915690108_1_alg».proof.Proof.K_Rg5
import proofs.«169706_j68856915690108_1_alg».proof.Proof.K_Rg6
import proofs.«169706_j68856915690108_1_alg».proof.Proof.K_Rg7
import proofs.«169706_j68856915690108_1_alg».proof.Proof.K_Rg8
import proofs.«169706_j68856915690108_1_alg».proof.Proof.K_Rg9
import proofs.«169706_j68856915690108_1_alg».proof.Proof.K_Rg10
import proofs.«169706_j68856915690108_1_alg».proof.Proof.K_Rg11
import proofs.«169706_j68856915690108_1_alg».proof.Proof.K_Rg12
import proofs.«169706_j68856915690108_1_alg».proof.Proof.K_Rg13
import proofs.«169706_j68856915690108_1_alg».proof.Proof.K_Rg14
import proofs.«169706_j68856915690108_1_alg».proof.Proof.K_Rg15
import proofs.«169706_j68856915690108_1_alg».proof.Proof.K_Rg16
import proofs.«169706_j68856915690108_1_alg».proof.Proof.K_Rg17
import proofs.«169706_j68856915690108_1_alg».proof.Proof.K_Rg18
import proofs.«169706_j68856915690108_1_alg».proof.Proof.K_Rg19
import proofs.«169706_j68856915690108_1_alg».proof.Proof.K_Rg20
import proofs.«169706_j68856915690108_1_alg».proof.Proof.K_Rg21
import proofs.«169706_j68856915690108_1_alg».proof.Proof.K_Rg22
import proofs.«169706_j68856915690108_1_alg».proof.Proof.K_Rg23

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-! What each region computes from the valuation it is entered at: its output array after the last write-back. -/

noncomputable def oK0 (V : Valuation τ sig (Elt F)) (c : Dev nD) : Buf (Elt F) ((c : Thread nD τ).loc main_v19) :=
  (dat0 (Ix := Unit) (U := UR sig nD τ) (Lvl := ℕ) V c).arrAt 2 64
noncomputable def oK1 (V : Valuation τ sig (Elt F)) (c : Dev nD) : Buf (Elt F) ((c : Thread nD τ).loc main_v22) :=
  (dat1 (Ix := Unit) (U := UR sig nD τ) (Lvl := ℕ) V c).arrAt 5 64
noncomputable def oK2 (V : Valuation τ sig (Elt F)) (c : Dev nD) : Buf (Elt F) ((c : Thread nD τ).loc main_v88) :=
  (dat2 (Ix := Unit) (U := UR sig nD τ) (Lvl := ℕ) V c).arrAt 2 64
noncomputable def oK3 (V : Valuation τ sig (Elt F)) (c : Dev nD) : Buf (Elt F) ((c : Thread nD τ).loc main_v91) :=
  (dat3 (Ix := Unit) (U := UR sig nD τ) (Lvl := ℕ) V c).arrAt 5 64
noncomputable def oK4 (V : Valuation τ sig (Elt F)) (c : Dev nD) : Buf (Elt F) ((c : Thread nD τ).loc main_v157) :=
  (dat4 (Ix := Unit) (U := UR sig nD τ) (Lvl := ℕ) V c).arrAt 2 64
noncomputable def oK5 (V : Valuation τ sig (Elt F)) (c : Dev nD) : Buf (Elt F) ((c : Thread nD τ).loc main_v160) :=
  (dat5 (Ix := Unit) (U := UR sig nD τ) (Lvl := ℕ) V c).arrAt 5 64
noncomputable def oK6 (V : Valuation τ sig (Elt F)) (c : Dev nD) : Buf (Elt F) ((c : Thread nD τ).loc main_v229) :=
  (dat6 (Ix := Unit) (U := UR sig nD τ) (Lvl := ℕ) V c).arrAt 2 64
noncomputable def oK7 (V : Valuation τ sig (Elt F)) (c : Dev nD) : Buf (Elt F) ((c : Thread nD τ).loc main_v232) :=
  (dat7 (Ix := Unit) (U := UR sig nD τ) (Lvl := ℕ) V c).arrAt 5 64
noncomputable def oK8 (V : Valuation τ sig (Elt F)) (c : Dev nD) : Buf (Elt F) ((c : Thread nD τ).loc main_v298) :=
  (dat8 (Ix := Unit) (U := UR sig nD τ) (Lvl := ℕ) V c).arrAt 2 64
noncomputable def oK9 (V : Valuation τ sig (Elt F)) (c : Dev nD) : Buf (Elt F) ((c : Thread nD τ).loc main_v301) :=
  (dat9 (Ix := Unit) (U := UR sig nD τ) (Lvl := ℕ) V c).arrAt 5 64
noncomputable def oK10 (V : Valuation τ sig (Elt F)) (c : Dev nD) : Buf (Elt F) ((c : Thread nD τ).loc main_v367) :=
  (dat10 (Ix := Unit) (U := UR sig nD τ) (Lvl := ℕ) V c).arrAt 2 64
noncomputable def oK11 (V : Valuation τ sig (Elt F)) (c : Dev nD) : Buf (Elt F) ((c : Thread nD τ).loc main_v370) :=
  (dat11 (Ix := Unit) (U := UR sig nD τ) (Lvl := ℕ) V c).arrAt 5 64
noncomputable def oK12 (V : Valuation τ sig (Elt F)) (c : Dev nD) : Buf (Elt F) ((c : Thread nD τ).loc main_v439) :=
  (dat12 (Ix := Unit) (U := UR sig nD τ) (Lvl := ℕ) V c).arrAt 2 64
noncomputable def oK13 (V : Valuation τ sig (Elt F)) (c : Dev nD) : Buf (Elt F) ((c : Thread nD τ).loc main_v442) :=
  (dat13 (Ix := Unit) (U := UR sig nD τ) (Lvl := ℕ) V c).arrAt 5 64
noncomputable def oK14 (V : Valuation τ sig (Elt F)) (c : Dev nD) : Buf (Elt F) ((c : Thread nD τ).loc main_v508) :=
  (dat14 (Ix := Unit) (U := UR sig nD τ) (Lvl := ℕ) V c).arrAt 2 64
noncomputable def oK15 (V : Valuation τ sig (Elt F)) (c : Dev nD) : Buf (Elt F) ((c : Thread nD τ).loc main_v511) :=
  (dat15 (Ix := Unit) (U := UR sig nD τ) (Lvl := ℕ) V c).arrAt 5 64
noncomputable def oK16 (V : Valuation τ sig (Elt F)) (c : Dev nD) : Buf (Elt F) ((c : Thread nD τ).loc main_v577) :=
  (dat16 (Ix := Unit) (U := UR sig nD τ) (Lvl := ℕ) V c).arrAt 2 64
noncomputable def oK17 (V : Valuation τ sig (Elt F)) (c : Dev nD) : Buf (Elt F) ((c : Thread nD τ).loc main_v580) :=
  (dat17 (Ix := Unit) (U := UR sig nD τ) (Lvl := ℕ) V c).arrAt 5 64
noncomputable def oK18 (V : Valuation τ sig (Elt F)) (c : Dev nD) : Buf (Elt F) ((c : Thread nD τ).loc main_v649) :=
  (dat18 (Ix := Unit) (U := UR sig nD τ) (Lvl := ℕ) V c).arrAt 2 64
noncomputable def oK19 (V : Valuation τ sig (Elt F)) (c : Dev nD) : Buf (Elt F) ((c : Thread nD τ).loc main_v652) :=
  (dat19 (Ix := Unit) (U := UR sig nD τ) (Lvl := ℕ) V c).arrAt 5 64
noncomputable def oK20 (V : Valuation τ sig (Elt F)) (c : Dev nD) : Buf (Elt F) ((c : Thread nD τ).loc main_v718) :=
  (dat20 (Ix := Unit) (U := UR sig nD τ) (Lvl := ℕ) V c).arrAt 2 64
noncomputable def oK21 (V : Valuation τ sig (Elt F)) (c : Dev nD) : Buf (Elt F) ((c : Thread nD τ).loc main_v721) :=
  (dat21 (Ix := Unit) (U := UR sig nD τ) (Lvl := ℕ) V c).arrAt 5 64
noncomputable def oK22 (V : Valuation τ sig (Elt F)) (c : Dev nD) : Buf (Elt F) ((c : Thread nD τ).loc main_v787) :=
  (dat22 (Ix := Unit) (U := UR sig nD τ) (Lvl := ℕ) V c).arrAt 2 64
noncomputable def oK23 (V : Valuation τ sig (Elt F)) (c : Dev nD) : Buf (Elt F) ((c : Thread nD τ).loc main_v790) :=
  (dat23 (Ix := Unit) (U := UR sig nD τ) (Lvl := ℕ) V c).arrAt 5 64

/-- The same as one record. -/
noncomputable def fK : OutFns F where
  o0 := oK0
  o1 := oK1
  o2 := oK2
  o3 := oK3
  o4 := oK4
  o5 := oK5
  o6 := oK6
  o7 := oK7
  o8 := oK8
  o9 := oK9
  o10 := oK10
  o11 := oK11
  o12 := oK12
  o13 := oK13
  o14 := oK14
  o15 := oK15
  o16 := oK16
  o17 := oK17
  o18 := oK18
  o19 := oK19
  o20 := oK20
  o21 := oK21
  o22 := oK22
  o23 := oK23

/-- The regions' results as one family. -/
noncomputable def outsK : Outs (F := F) := outsOf m fK

/-- Every pipeline's proof data: region K's over the valuation it is entered at. -/
noncomputable def pdatsK : (p : Fin 24) → (c : Dev nD) → Dat τ (Elt F) Unit ℕ (UR sig nD τ) ℕ (cfgs p) c
  | ⟨0, _⟩ => fun c => dat0 (V4 m c) c
  | ⟨1, _⟩ => fun c => dat1 (V6 m (outsK m) c) c
  | ⟨2, _⟩ => fun c => dat2 (V15 m (outsK m) c) c
  | ⟨3, _⟩ => fun c => dat3 (V17 m (outsK m) c) c
  | ⟨4, _⟩ => fun c => dat4 (V26 m (outsK m) c) c
  | ⟨5, _⟩ => fun c => dat5 (V28 m (outsK m) c) c
  | ⟨6, _⟩ => fun c => dat6 (V37 m (outsK m) c) c
  | ⟨7, _⟩ => fun c => dat7 (V39 m (outsK m) c) c
  | ⟨8, _⟩ => fun c => dat8 (V48 m (outsK m) c) c
  | ⟨9, _⟩ => fun c => dat9 (V50 m (outsK m) c) c
  | ⟨10, _⟩ => fun c => dat10 (V59 m (outsK m) c) c
  | ⟨11, _⟩ => fun c => dat11 (V61 m (outsK m) c) c
  | ⟨12, _⟩ => fun c => dat12 (V70 m (outsK m) c) c
  | ⟨13, _⟩ => fun c => dat13 (V72 m (outsK m) c) c
  | ⟨14, _⟩ => fun c => dat14 (V81 m (outsK m) c) c
  | ⟨15, _⟩ => fun c => dat15 (V83 m (outsK m) c) c
  | ⟨16, _⟩ => fun c => dat16 (V92 m (outsK m) c) c
  | ⟨17, _⟩ => fun c => dat17 (V94 m (outsK m) c) c
  | ⟨18, _⟩ => fun c => dat18 (V103 m (outsK m) c) c
  | ⟨19, _⟩ => fun c => dat19 (V105 m (outsK m) c) c
  | ⟨20, _⟩ => fun c => dat20 (V114 m (outsK m) c) c
  | ⟨21, _⟩ => fun c => dat21 (V116 m (outsK m) c) c
  | ⟨22, _⟩ => fun c => dat22 (V125 m (outsK m) c) c
  | ⟨23, _⟩ => fun c => dat23 (V127 m (outsK m) c) c
  | ⟨_ + 24, h⟩ => absurd h (Nat.not_lt.2 (Nat.le_add_left _ _))

/-! ## Each region's record, entered from the thread state before its item and left at the one after it -/

noncomputable def RK0 : RegionSeg (pcfgs (F := F)) GenP.adm (pdatsK m) () defs₀ 𝒱₀₀ L₀ lv₀ (0 : Fin 24) :=
  R0' m (outsK m) 𝒱₀₀ L₀ lv₀ () (pdatsK m) (fun _ => rfl) (fun c => body0 (V4 m c) 𝒱₀₀ () c)

theorem hpreK0 (c : Dev nD) :
    iprop(StableHlo.held (c : Thread nD τ) (Pipeline.ucRefs τ sig) (V4 m c) ∗ (R c : sProp 𝕄)) ⊢ (RK0 m).pre c :=
  hpre0' m (outsK m) 𝒱₀₀ L₀ lv₀ () (pdatsK m) (fun _ => rfl) (fun c => body0 (V4 m c) 𝒱₀₀ () c) c

theorem hpostK0 (c : Dev nD) :
    (RK0 m).post c ⊢ iprop(StableHlo.held (c : Thread nD τ) (Pipeline.ucRefs τ sig) (V5 m (outsK m) c) ∗ (R c : sProp 𝕄)) :=
  hpost0' m (outsK m) 𝒱₀₀ L₀ lv₀ () (pdatsK m) (fun _ => rfl) (fun c => body0 (V4 m c) 𝒱₀₀ () c)
    (fun c => outsOf_0 m fK c) c

noncomputable def RK1 : RegionSeg (pcfgs (F := F)) GenP.adm (pdatsK m) () defs₀ 𝒱₀₀ L₀ lv₀ (1 : Fin 24) :=
  R1' m (outsK m) 𝒱₀₀ L₀ lv₀ () (pdatsK m) (fun _ => rfl) (fun c => body_obligation1 𝒱₀₀ () (V6 m (outsK m) c) c)

theorem hpreK1 (c : Dev nD) :
    iprop(StableHlo.held (c : Thread nD τ) (Pipeline.ucRefs τ sig) (V6 m (outsK m) c) ∗ (R c : sProp 𝕄)) ⊢ (RK1 m).pre c :=
  hpre1' m (outsK m) 𝒱₀₀ L₀ lv₀ () (pdatsK m) (fun _ => rfl) (fun c => body_obligation1 𝒱₀₀ () (V6 m (outsK m) c) c) c

theorem hpostK1 (c : Dev nD) :
    (RK1 m).post c ⊢ iprop(StableHlo.held (c : Thread nD τ) (Pipeline.ucRefs τ sig) (V7 m (outsK m) c) ∗ (R c : sProp 𝕄)) :=
  hpost1' m (outsK m) 𝒱₀₀ L₀ lv₀ () (pdatsK m) (fun _ => rfl) (fun c => body_obligation1 𝒱₀₀ () (V6 m (outsK m) c) c)
    (fun c => outsOf_1 m fK c) c

noncomputable def RK2 : RegionSeg (pcfgs (F := F)) GenP.adm (pdatsK m) () defs₀ 𝒱₀₀ L₀ lv₀ (2 : Fin 24) :=
  R2' m (outsK m) 𝒱₀₀ L₀ lv₀ () (pdatsK m) (fun _ => rfl) (fun c => body2 (V15 m (outsK m) c) 𝒱₀₀ () c)

theorem hpreK2 (c : Dev nD) :
    iprop(StableHlo.held (c : Thread nD τ) (Pipeline.ucRefs τ sig) (V15 m (outsK m) c) ∗ (R c : sProp 𝕄)) ⊢ (RK2 m).pre c :=
  hpre2' m (outsK m) 𝒱₀₀ L₀ lv₀ () (pdatsK m) (fun _ => rfl) (fun c => body2 (V15 m (outsK m) c) 𝒱₀₀ () c) c

theorem hpostK2 (c : Dev nD) :
    (RK2 m).post c ⊢ iprop(StableHlo.held (c : Thread nD τ) (Pipeline.ucRefs τ sig) (V16 m (outsK m) c) ∗ (R c : sProp 𝕄)) :=
  hpost2' m (outsK m) 𝒱₀₀ L₀ lv₀ () (pdatsK m) (fun _ => rfl) (fun c => body2 (V15 m (outsK m) c) 𝒱₀₀ () c)
    (fun c => outsOf_2 m fK c) c

noncomputable def RK3 : RegionSeg (pcfgs (F := F)) GenP.adm (pdatsK m) () defs₀ 𝒱₀₀ L₀ lv₀ (3 : Fin 24) :=
  R3' m (outsK m) 𝒱₀₀ L₀ lv₀ () (pdatsK m) (fun _ => rfl) (fun c => body_obligation3 𝒱₀₀ () (V17 m (outsK m) c) c)

theorem hpreK3 (c : Dev nD) :
    iprop(StableHlo.held (c : Thread nD τ) (Pipeline.ucRefs τ sig) (V17 m (outsK m) c) ∗ (R c : sProp 𝕄)) ⊢ (RK3 m).pre c :=
  hpre3' m (outsK m) 𝒱₀₀ L₀ lv₀ () (pdatsK m) (fun _ => rfl) (fun c => body_obligation3 𝒱₀₀ () (V17 m (outsK m) c) c) c

theorem hpostK3 (c : Dev nD) :
    (RK3 m).post c ⊢ iprop(StableHlo.held (c : Thread nD τ) (Pipeline.ucRefs τ sig) (V18 m (outsK m) c) ∗ (R c : sProp 𝕄)) :=
  hpost3' m (outsK m) 𝒱₀₀ L₀ lv₀ () (pdatsK m) (fun _ => rfl) (fun c => body_obligation3 𝒱₀₀ () (V17 m (outsK m) c) c)
    (fun c => outsOf_3 m fK c) c

noncomputable def RK4 : RegionSeg (pcfgs (F := F)) GenP.adm (pdatsK m) () defs₀ 𝒱₀₀ L₀ lv₀ (4 : Fin 24) :=
  R4' m (outsK m) 𝒱₀₀ L₀ lv₀ () (pdatsK m) (fun _ => rfl) (fun c => body4 (V26 m (outsK m) c) 𝒱₀₀ () c)

theorem hpreK4 (c : Dev nD) :
    iprop(StableHlo.held (c : Thread nD τ) (Pipeline.ucRefs τ sig) (V26 m (outsK m) c) ∗ (R c : sProp 𝕄)) ⊢ (RK4 m).pre c :=
  hpre4' m (outsK m) 𝒱₀₀ L₀ lv₀ () (pdatsK m) (fun _ => rfl) (fun c => body4 (V26 m (outsK m) c) 𝒱₀₀ () c) c

theorem hpostK4 (c : Dev nD) :
    (RK4 m).post c ⊢ iprop(StableHlo.held (c : Thread nD τ) (Pipeline.ucRefs τ sig) (V27 m (outsK m) c) ∗ (R c : sProp 𝕄)) :=
  hpost4' m (outsK m) 𝒱₀₀ L₀ lv₀ () (pdatsK m) (fun _ => rfl) (fun c => body4 (V26 m (outsK m) c) 𝒱₀₀ () c)
    (fun c => outsOf_4 m fK c) c

noncomputable def RK5 : RegionSeg (pcfgs (F := F)) GenP.adm (pdatsK m) () defs₀ 𝒱₀₀ L₀ lv₀ (5 : Fin 24) :=
  R5' m (outsK m) 𝒱₀₀ L₀ lv₀ () (pdatsK m) (fun _ => rfl) (fun c => body_obligation5 𝒱₀₀ () (V28 m (outsK m) c) c)

theorem hpreK5 (c : Dev nD) :
    iprop(StableHlo.held (c : Thread nD τ) (Pipeline.ucRefs τ sig) (V28 m (outsK m) c) ∗ (R c : sProp 𝕄)) ⊢ (RK5 m).pre c :=
  hpre5' m (outsK m) 𝒱₀₀ L₀ lv₀ () (pdatsK m) (fun _ => rfl) (fun c => body_obligation5 𝒱₀₀ () (V28 m (outsK m) c) c) c

theorem hpostK5 (c : Dev nD) :
    (RK5 m).post c ⊢ iprop(StableHlo.held (c : Thread nD τ) (Pipeline.ucRefs τ sig) (V29 m (outsK m) c) ∗ (R c : sProp 𝕄)) :=
  hpost5' m (outsK m) 𝒱₀₀ L₀ lv₀ () (pdatsK m) (fun _ => rfl) (fun c => body_obligation5 𝒱₀₀ () (V28 m (outsK m) c) c)
    (fun c => outsOf_5 m fK c) c

noncomputable def RK6 : RegionSeg (pcfgs (F := F)) GenP.adm (pdatsK m) () defs₀ 𝒱₀₀ L₀ lv₀ (6 : Fin 24) :=
  R6' m (outsK m) 𝒱₀₀ L₀ lv₀ () (pdatsK m) (fun _ => rfl) (fun c => body6 (V37 m (outsK m) c) 𝒱₀₀ () c)

theorem hpreK6 (c : Dev nD) :
    iprop(StableHlo.held (c : Thread nD τ) (Pipeline.ucRefs τ sig) (V37 m (outsK m) c) ∗ (R c : sProp 𝕄)) ⊢ (RK6 m).pre c :=
  hpre6' m (outsK m) 𝒱₀₀ L₀ lv₀ () (pdatsK m) (fun _ => rfl) (fun c => body6 (V37 m (outsK m) c) 𝒱₀₀ () c) c

theorem hpostK6 (c : Dev nD) :
    (RK6 m).post c ⊢ iprop(StableHlo.held (c : Thread nD τ) (Pipeline.ucRefs τ sig) (V38 m (outsK m) c) ∗ (R c : sProp 𝕄)) :=
  hpost6' m (outsK m) 𝒱₀₀ L₀ lv₀ () (pdatsK m) (fun _ => rfl) (fun c => body6 (V37 m (outsK m) c) 𝒱₀₀ () c)
    (fun c => outsOf_6 m fK c) c

noncomputable def RK7 : RegionSeg (pcfgs (F := F)) GenP.adm (pdatsK m) () defs₀ 𝒱₀₀ L₀ lv₀ (7 : Fin 24) :=
  R7' m (outsK m) 𝒱₀₀ L₀ lv₀ () (pdatsK m) (fun _ => rfl) (fun c => body_obligation7 𝒱₀₀ () (V39 m (outsK m) c) c)

theorem hpreK7 (c : Dev nD) :
    iprop(StableHlo.held (c : Thread nD τ) (Pipeline.ucRefs τ sig) (V39 m (outsK m) c) ∗ (R c : sProp 𝕄)) ⊢ (RK7 m).pre c :=
  hpre7' m (outsK m) 𝒱₀₀ L₀ lv₀ () (pdatsK m) (fun _ => rfl) (fun c => body_obligation7 𝒱₀₀ () (V39 m (outsK m) c) c) c

theorem hpostK7 (c : Dev nD) :
    (RK7 m).post c ⊢ iprop(StableHlo.held (c : Thread nD τ) (Pipeline.ucRefs τ sig) (V40 m (outsK m) c) ∗ (R c : sProp 𝕄)) :=
  hpost7' m (outsK m) 𝒱₀₀ L₀ lv₀ () (pdatsK m) (fun _ => rfl) (fun c => body_obligation7 𝒱₀₀ () (V39 m (outsK m) c) c)
    (fun c => outsOf_7 m fK c) c

noncomputable def RK8 : RegionSeg (pcfgs (F := F)) GenP.adm (pdatsK m) () defs₀ 𝒱₀₀ L₀ lv₀ (8 : Fin 24) :=
  R8' m (outsK m) 𝒱₀₀ L₀ lv₀ () (pdatsK m) (fun _ => rfl) (fun c => body8 (V48 m (outsK m) c) 𝒱₀₀ () c)

theorem hpreK8 (c : Dev nD) :
    iprop(StableHlo.held (c : Thread nD τ) (Pipeline.ucRefs τ sig) (V48 m (outsK m) c) ∗ (R c : sProp 𝕄)) ⊢ (RK8 m).pre c :=
  hpre8' m (outsK m) 𝒱₀₀ L₀ lv₀ () (pdatsK m) (fun _ => rfl) (fun c => body8 (V48 m (outsK m) c) 𝒱₀₀ () c) c

theorem hpostK8 (c : Dev nD) :
    (RK8 m).post c ⊢ iprop(StableHlo.held (c : Thread nD τ) (Pipeline.ucRefs τ sig) (V49 m (outsK m) c) ∗ (R c : sProp 𝕄)) :=
  hpost8' m (outsK m) 𝒱₀₀ L₀ lv₀ () (pdatsK m) (fun _ => rfl) (fun c => body8 (V48 m (outsK m) c) 𝒱₀₀ () c)
    (fun c => outsOf_8 m fK c) c

noncomputable def RK9 : RegionSeg (pcfgs (F := F)) GenP.adm (pdatsK m) () defs₀ 𝒱₀₀ L₀ lv₀ (9 : Fin 24) :=
  R9' m (outsK m) 𝒱₀₀ L₀ lv₀ () (pdatsK m) (fun _ => rfl) (fun c => body_obligation9 𝒱₀₀ () (V50 m (outsK m) c) c)

theorem hpreK9 (c : Dev nD) :
    iprop(StableHlo.held (c : Thread nD τ) (Pipeline.ucRefs τ sig) (V50 m (outsK m) c) ∗ (R c : sProp 𝕄)) ⊢ (RK9 m).pre c :=
  hpre9' m (outsK m) 𝒱₀₀ L₀ lv₀ () (pdatsK m) (fun _ => rfl) (fun c => body_obligation9 𝒱₀₀ () (V50 m (outsK m) c) c) c

theorem hpostK9 (c : Dev nD) :
    (RK9 m).post c ⊢ iprop(StableHlo.held (c : Thread nD τ) (Pipeline.ucRefs τ sig) (V51 m (outsK m) c) ∗ (R c : sProp 𝕄)) :=
  hpost9' m (outsK m) 𝒱₀₀ L₀ lv₀ () (pdatsK m) (fun _ => rfl) (fun c => body_obligation9 𝒱₀₀ () (V50 m (outsK m) c) c)
    (fun c => outsOf_9 m fK c) c

noncomputable def RK10 : RegionSeg (pcfgs (F := F)) GenP.adm (pdatsK m) () defs₀ 𝒱₀₀ L₀ lv₀ (10 : Fin 24) :=
  R10' m (outsK m) 𝒱₀₀ L₀ lv₀ () (pdatsK m) (fun _ => rfl) (fun c => body10 (V59 m (outsK m) c) 𝒱₀₀ () c)

theorem hpreK10 (c : Dev nD) :
    iprop(StableHlo.held (c : Thread nD τ) (Pipeline.ucRefs τ sig) (V59 m (outsK m) c) ∗ (R c : sProp 𝕄)) ⊢ (RK10 m).pre c :=
  hpre10' m (outsK m) 𝒱₀₀ L₀ lv₀ () (pdatsK m) (fun _ => rfl) (fun c => body10 (V59 m (outsK m) c) 𝒱₀₀ () c) c

theorem hpostK10 (c : Dev nD) :
    (RK10 m).post c ⊢ iprop(StableHlo.held (c : Thread nD τ) (Pipeline.ucRefs τ sig) (V60 m (outsK m) c) ∗ (R c : sProp 𝕄)) :=
  hpost10' m (outsK m) 𝒱₀₀ L₀ lv₀ () (pdatsK m) (fun _ => rfl) (fun c => body10 (V59 m (outsK m) c) 𝒱₀₀ () c)
    (fun c => outsOf_10 m fK c) c

noncomputable def RK11 : RegionSeg (pcfgs (F := F)) GenP.adm (pdatsK m) () defs₀ 𝒱₀₀ L₀ lv₀ (11 : Fin 24) :=
  R11' m (outsK m) 𝒱₀₀ L₀ lv₀ () (pdatsK m) (fun _ => rfl) (fun c => body_obligation11 𝒱₀₀ () (V61 m (outsK m) c) c)

theorem hpreK11 (c : Dev nD) :
    iprop(StableHlo.held (c : Thread nD τ) (Pipeline.ucRefs τ sig) (V61 m (outsK m) c) ∗ (R c : sProp 𝕄)) ⊢ (RK11 m).pre c :=
  hpre11' m (outsK m) 𝒱₀₀ L₀ lv₀ () (pdatsK m) (fun _ => rfl) (fun c => body_obligation11 𝒱₀₀ () (V61 m (outsK m) c) c) c

theorem hpostK11 (c : Dev nD) :
    (RK11 m).post c ⊢ iprop(StableHlo.held (c : Thread nD τ) (Pipeline.ucRefs τ sig) (V62 m (outsK m) c) ∗ (R c : sProp 𝕄)) :=
  hpost11' m (outsK m) 𝒱₀₀ L₀ lv₀ () (pdatsK m) (fun _ => rfl) (fun c => body_obligation11 𝒱₀₀ () (V61 m (outsK m) c) c)
    (fun c => outsOf_11 m fK c) c

noncomputable def RK12 : RegionSeg (pcfgs (F := F)) GenP.adm (pdatsK m) () defs₀ 𝒱₀₀ L₀ lv₀ (12 : Fin 24) :=
  R12' m (outsK m) 𝒱₀₀ L₀ lv₀ () (pdatsK m) (fun _ => rfl) (fun c => body12 (V70 m (outsK m) c) 𝒱₀₀ () c)

theorem hpreK12 (c : Dev nD) :
    iprop(StableHlo.held (c : Thread nD τ) (Pipeline.ucRefs τ sig) (V70 m (outsK m) c) ∗ (R c : sProp 𝕄)) ⊢ (RK12 m).pre c :=
  hpre12' m (outsK m) 𝒱₀₀ L₀ lv₀ () (pdatsK m) (fun _ => rfl) (fun c => body12 (V70 m (outsK m) c) 𝒱₀₀ () c) c

theorem hpostK12 (c : Dev nD) :
    (RK12 m).post c ⊢ iprop(StableHlo.held (c : Thread nD τ) (Pipeline.ucRefs τ sig) (V71 m (outsK m) c) ∗ (R c : sProp 𝕄)) :=
  hpost12' m (outsK m) 𝒱₀₀ L₀ lv₀ () (pdatsK m) (fun _ => rfl) (fun c => body12 (V70 m (outsK m) c) 𝒱₀₀ () c)
    (fun c => outsOf_12 m fK c) c

noncomputable def RK13 : RegionSeg (pcfgs (F := F)) GenP.adm (pdatsK m) () defs₀ 𝒱₀₀ L₀ lv₀ (13 : Fin 24) :=
  R13' m (outsK m) 𝒱₀₀ L₀ lv₀ () (pdatsK m) (fun _ => rfl) (fun c => body_obligation13 𝒱₀₀ () (V72 m (outsK m) c) c)

theorem hpreK13 (c : Dev nD) :
    iprop(StableHlo.held (c : Thread nD τ) (Pipeline.ucRefs τ sig) (V72 m (outsK m) c) ∗ (R c : sProp 𝕄)) ⊢ (RK13 m).pre c :=
  hpre13' m (outsK m) 𝒱₀₀ L₀ lv₀ () (pdatsK m) (fun _ => rfl) (fun c => body_obligation13 𝒱₀₀ () (V72 m (outsK m) c) c) c

theorem hpostK13 (c : Dev nD) :
    (RK13 m).post c ⊢ iprop(StableHlo.held (c : Thread nD τ) (Pipeline.ucRefs τ sig) (V73 m (outsK m) c) ∗ (R c : sProp 𝕄)) :=
  hpost13' m (outsK m) 𝒱₀₀ L₀ lv₀ () (pdatsK m) (fun _ => rfl) (fun c => body_obligation13 𝒱₀₀ () (V72 m (outsK m) c) c)
    (fun c => outsOf_13 m fK c) c

noncomputable def RK14 : RegionSeg (pcfgs (F := F)) GenP.adm (pdatsK m) () defs₀ 𝒱₀₀ L₀ lv₀ (14 : Fin 24) :=
  R14' m (outsK m) 𝒱₀₀ L₀ lv₀ () (pdatsK m) (fun _ => rfl) (fun c => body14 (V81 m (outsK m) c) 𝒱₀₀ () c)

theorem hpreK14 (c : Dev nD) :
    iprop(StableHlo.held (c : Thread nD τ) (Pipeline.ucRefs τ sig) (V81 m (outsK m) c) ∗ (R c : sProp 𝕄)) ⊢ (RK14 m).pre c :=
  hpre14' m (outsK m) 𝒱₀₀ L₀ lv₀ () (pdatsK m) (fun _ => rfl) (fun c => body14 (V81 m (outsK m) c) 𝒱₀₀ () c) c

theorem hpostK14 (c : Dev nD) :
    (RK14 m).post c ⊢ iprop(StableHlo.held (c : Thread nD τ) (Pipeline.ucRefs τ sig) (V82 m (outsK m) c) ∗ (R c : sProp 𝕄)) :=
  hpost14' m (outsK m) 𝒱₀₀ L₀ lv₀ () (pdatsK m) (fun _ => rfl) (fun c => body14 (V81 m (outsK m) c) 𝒱₀₀ () c)
    (fun c => outsOf_14 m fK c) c

noncomputable def RK15 : RegionSeg (pcfgs (F := F)) GenP.adm (pdatsK m) () defs₀ 𝒱₀₀ L₀ lv₀ (15 : Fin 24) :=
  R15' m (outsK m) 𝒱₀₀ L₀ lv₀ () (pdatsK m) (fun _ => rfl) (fun c => body_obligation15 𝒱₀₀ () (V83 m (outsK m) c) c)

theorem hpreK15 (c : Dev nD) :
    iprop(StableHlo.held (c : Thread nD τ) (Pipeline.ucRefs τ sig) (V83 m (outsK m) c) ∗ (R c : sProp 𝕄)) ⊢ (RK15 m).pre c :=
  hpre15' m (outsK m) 𝒱₀₀ L₀ lv₀ () (pdatsK m) (fun _ => rfl) (fun c => body_obligation15 𝒱₀₀ () (V83 m (outsK m) c) c) c

theorem hpostK15 (c : Dev nD) :
    (RK15 m).post c ⊢ iprop(StableHlo.held (c : Thread nD τ) (Pipeline.ucRefs τ sig) (V84 m (outsK m) c) ∗ (R c : sProp 𝕄)) :=
  hpost15' m (outsK m) 𝒱₀₀ L₀ lv₀ () (pdatsK m) (fun _ => rfl) (fun c => body_obligation15 𝒱₀₀ () (V83 m (outsK m) c) c)
    (fun c => outsOf_15 m fK c) c

noncomputable def RK16 : RegionSeg (pcfgs (F := F)) GenP.adm (pdatsK m) () defs₀ 𝒱₀₀ L₀ lv₀ (16 : Fin 24) :=
  R16' m (outsK m) 𝒱₀₀ L₀ lv₀ () (pdatsK m) (fun _ => rfl) (fun c => body16 (V92 m (outsK m) c) 𝒱₀₀ () c)

theorem hpreK16 (c : Dev nD) :
    iprop(StableHlo.held (c : Thread nD τ) (Pipeline.ucRefs τ sig) (V92 m (outsK m) c) ∗ (R c : sProp 𝕄)) ⊢ (RK16 m).pre c :=
  hpre16' m (outsK m) 𝒱₀₀ L₀ lv₀ () (pdatsK m) (fun _ => rfl) (fun c => body16 (V92 m (outsK m) c) 𝒱₀₀ () c) c

theorem hpostK16 (c : Dev nD) :
    (RK16 m).post c ⊢ iprop(StableHlo.held (c : Thread nD τ) (Pipeline.ucRefs τ sig) (V93 m (outsK m) c) ∗ (R c : sProp 𝕄)) :=
  hpost16' m (outsK m) 𝒱₀₀ L₀ lv₀ () (pdatsK m) (fun _ => rfl) (fun c => body16 (V92 m (outsK m) c) 𝒱₀₀ () c)
    (fun c => outsOf_16 m fK c) c

noncomputable def RK17 : RegionSeg (pcfgs (F := F)) GenP.adm (pdatsK m) () defs₀ 𝒱₀₀ L₀ lv₀ (17 : Fin 24) :=
  R17' m (outsK m) 𝒱₀₀ L₀ lv₀ () (pdatsK m) (fun _ => rfl) (fun c => body_obligation17 𝒱₀₀ () (V94 m (outsK m) c) c)

theorem hpreK17 (c : Dev nD) :
    iprop(StableHlo.held (c : Thread nD τ) (Pipeline.ucRefs τ sig) (V94 m (outsK m) c) ∗ (R c : sProp 𝕄)) ⊢ (RK17 m).pre c :=
  hpre17' m (outsK m) 𝒱₀₀ L₀ lv₀ () (pdatsK m) (fun _ => rfl) (fun c => body_obligation17 𝒱₀₀ () (V94 m (outsK m) c) c) c

theorem hpostK17 (c : Dev nD) :
    (RK17 m).post c ⊢ iprop(StableHlo.held (c : Thread nD τ) (Pipeline.ucRefs τ sig) (V95 m (outsK m) c) ∗ (R c : sProp 𝕄)) :=
  hpost17' m (outsK m) 𝒱₀₀ L₀ lv₀ () (pdatsK m) (fun _ => rfl) (fun c => body_obligation17 𝒱₀₀ () (V94 m (outsK m) c) c)
    (fun c => outsOf_17 m fK c) c

noncomputable def RK18 : RegionSeg (pcfgs (F := F)) GenP.adm (pdatsK m) () defs₀ 𝒱₀₀ L₀ lv₀ (18 : Fin 24) :=
  R18' m (outsK m) 𝒱₀₀ L₀ lv₀ () (pdatsK m) (fun _ => rfl) (fun c => body18 (V103 m (outsK m) c) 𝒱₀₀ () c)

theorem hpreK18 (c : Dev nD) :
    iprop(StableHlo.held (c : Thread nD τ) (Pipeline.ucRefs τ sig) (V103 m (outsK m) c) ∗ (R c : sProp 𝕄)) ⊢ (RK18 m).pre c :=
  hpre18' m (outsK m) 𝒱₀₀ L₀ lv₀ () (pdatsK m) (fun _ => rfl) (fun c => body18 (V103 m (outsK m) c) 𝒱₀₀ () c) c

theorem hpostK18 (c : Dev nD) :
    (RK18 m).post c ⊢ iprop(StableHlo.held (c : Thread nD τ) (Pipeline.ucRefs τ sig) (V104 m (outsK m) c) ∗ (R c : sProp 𝕄)) :=
  hpost18' m (outsK m) 𝒱₀₀ L₀ lv₀ () (pdatsK m) (fun _ => rfl) (fun c => body18 (V103 m (outsK m) c) 𝒱₀₀ () c)
    (fun c => outsOf_18 m fK c) c

noncomputable def RK19 : RegionSeg (pcfgs (F := F)) GenP.adm (pdatsK m) () defs₀ 𝒱₀₀ L₀ lv₀ (19 : Fin 24) :=
  R19' m (outsK m) 𝒱₀₀ L₀ lv₀ () (pdatsK m) (fun _ => rfl) (fun c => body_obligation19 𝒱₀₀ () (V105 m (outsK m) c) c)

theorem hpreK19 (c : Dev nD) :
    iprop(StableHlo.held (c : Thread nD τ) (Pipeline.ucRefs τ sig) (V105 m (outsK m) c) ∗ (R c : sProp 𝕄)) ⊢ (RK19 m).pre c :=
  hpre19' m (outsK m) 𝒱₀₀ L₀ lv₀ () (pdatsK m) (fun _ => rfl) (fun c => body_obligation19 𝒱₀₀ () (V105 m (outsK m) c) c) c

theorem hpostK19 (c : Dev nD) :
    (RK19 m).post c ⊢ iprop(StableHlo.held (c : Thread nD τ) (Pipeline.ucRefs τ sig) (V106 m (outsK m) c) ∗ (R c : sProp 𝕄)) :=
  hpost19' m (outsK m) 𝒱₀₀ L₀ lv₀ () (pdatsK m) (fun _ => rfl) (fun c => body_obligation19 𝒱₀₀ () (V105 m (outsK m) c) c)
    (fun c => outsOf_19 m fK c) c

noncomputable def RK20 : RegionSeg (pcfgs (F := F)) GenP.adm (pdatsK m) () defs₀ 𝒱₀₀ L₀ lv₀ (20 : Fin 24) :=
  R20' m (outsK m) 𝒱₀₀ L₀ lv₀ () (pdatsK m) (fun _ => rfl) (fun c => body20 (V114 m (outsK m) c) 𝒱₀₀ () c)

theorem hpreK20 (c : Dev nD) :
    iprop(StableHlo.held (c : Thread nD τ) (Pipeline.ucRefs τ sig) (V114 m (outsK m) c) ∗ (R c : sProp 𝕄)) ⊢ (RK20 m).pre c :=
  hpre20' m (outsK m) 𝒱₀₀ L₀ lv₀ () (pdatsK m) (fun _ => rfl) (fun c => body20 (V114 m (outsK m) c) 𝒱₀₀ () c) c

theorem hpostK20 (c : Dev nD) :
    (RK20 m).post c ⊢ iprop(StableHlo.held (c : Thread nD τ) (Pipeline.ucRefs τ sig) (V115 m (outsK m) c) ∗ (R c : sProp 𝕄)) :=
  hpost20' m (outsK m) 𝒱₀₀ L₀ lv₀ () (pdatsK m) (fun _ => rfl) (fun c => body20 (V114 m (outsK m) c) 𝒱₀₀ () c)
    (fun c => outsOf_20 m fK c) c

noncomputable def RK21 : RegionSeg (pcfgs (F := F)) GenP.adm (pdatsK m) () defs₀ 𝒱₀₀ L₀ lv₀ (21 : Fin 24) :=
  R21' m (outsK m) 𝒱₀₀ L₀ lv₀ () (pdatsK m) (fun _ => rfl) (fun c => body_obligation21 𝒱₀₀ () (V116 m (outsK m) c) c)

theorem hpreK21 (c : Dev nD) :
    iprop(StableHlo.held (c : Thread nD τ) (Pipeline.ucRefs τ sig) (V116 m (outsK m) c) ∗ (R c : sProp 𝕄)) ⊢ (RK21 m).pre c :=
  hpre21' m (outsK m) 𝒱₀₀ L₀ lv₀ () (pdatsK m) (fun _ => rfl) (fun c => body_obligation21 𝒱₀₀ () (V116 m (outsK m) c) c) c

theorem hpostK21 (c : Dev nD) :
    (RK21 m).post c ⊢ iprop(StableHlo.held (c : Thread nD τ) (Pipeline.ucRefs τ sig) (V117 m (outsK m) c) ∗ (R c : sProp 𝕄)) :=
  hpost21' m (outsK m) 𝒱₀₀ L₀ lv₀ () (pdatsK m) (fun _ => rfl) (fun c => body_obligation21 𝒱₀₀ () (V116 m (outsK m) c) c)
    (fun c => outsOf_21 m fK c) c

noncomputable def RK22 : RegionSeg (pcfgs (F := F)) GenP.adm (pdatsK m) () defs₀ 𝒱₀₀ L₀ lv₀ (22 : Fin 24) :=
  R22' m (outsK m) 𝒱₀₀ L₀ lv₀ () (pdatsK m) (fun _ => rfl) (fun c => body22 (V125 m (outsK m) c) 𝒱₀₀ () c)

theorem hpreK22 (c : Dev nD) :
    iprop(StableHlo.held (c : Thread nD τ) (Pipeline.ucRefs τ sig) (V125 m (outsK m) c) ∗ (R c : sProp 𝕄)) ⊢ (RK22 m).pre c :=
  hpre22' m (outsK m) 𝒱₀₀ L₀ lv₀ () (pdatsK m) (fun _ => rfl) (fun c => body22 (V125 m (outsK m) c) 𝒱₀₀ () c) c

theorem hpostK22 (c : Dev nD) :
    (RK22 m).post c ⊢ iprop(StableHlo.held (c : Thread nD τ) (Pipeline.ucRefs τ sig) (V126 m (outsK m) c) ∗ (R c : sProp 𝕄)) :=
  hpost22' m (outsK m) 𝒱₀₀ L₀ lv₀ () (pdatsK m) (fun _ => rfl) (fun c => body22 (V125 m (outsK m) c) 𝒱₀₀ () c)
    (fun c => outsOf_22 m fK c) c

noncomputable def RK23 : RegionSeg (pcfgs (F := F)) GenP.adm (pdatsK m) () defs₀ 𝒱₀₀ L₀ lv₀ (23 : Fin 24) :=
  R23' m (outsK m) 𝒱₀₀ L₀ lv₀ () (pdatsK m) (fun _ => rfl) (fun c => body_obligation23 𝒱₀₀ () (V127 m (outsK m) c) c)

theorem hpreK23 (c : Dev nD) :
    iprop(StableHlo.held (c : Thread nD τ) (Pipeline.ucRefs τ sig) (V127 m (outsK m) c) ∗ (R c : sProp 𝕄)) ⊢ (RK23 m).pre c :=
  hpre23' m (outsK m) 𝒱₀₀ L₀ lv₀ () (pdatsK m) (fun _ => rfl) (fun c => body_obligation23 𝒱₀₀ () (V127 m (outsK m) c) c) c

theorem hpostK23 (c : Dev nD) :
    (RK23 m).post c ⊢ iprop(StableHlo.held (c : Thread nD τ) (Pipeline.ucRefs τ sig) (V128 m (outsK m) c) ∗ (R c : sProp 𝕄)) :=
  hpost23' m (outsK m) 𝒱₀₀ L₀ lv₀ () (pdatsK m) (fun _ => rfl) (fun c => body_obligation23 𝒱₀₀ () (V127 m (outsK m) c) c)
    (fun c => outsOf_23 m fK c) c

end Cert.Kernel.Hand

end
-- ==== Proof.K_FrameKI.lean ====
/-
  The frame: the regions' records (Plugs.lean) and the launch's arguments (LaunchArgs.lean) handed to the conditional
  frame (every argument array ends holding its launch contents).
-/
import proofs.«169706_j68856915690108_1_alg».proof.Proof.K_Plugs
import proofs.«169706_j68856915690108_1_alg».proof.Proof.K_LaunchArgs

set_option maxRecDepth 7604

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Every weakly fair execution of @main from memory m with zero counters terminates and every final memory holds each argument as launched. -/
theorem frame_pi (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  GenP.frame_cond m (EP₀ (F := F)) () 𝒱₀₀ L₀ lv₀ hL₀ ρ (outsK m) (pdatsK m) O₀ (G₀ (F := F)) u₀ (hu₀ (F := F)) (E₀ (F := F)) (hE0 (F := F) ρ) (hE24 (F := F))
    (RK0 m) (hpreK0 m) (hpostK0 m)
    (RK1 m) (hpreK1 m) (hpostK1 m)
    (RK2 m) (hpreK2 m) (hpostK2 m)
    (RK3 m) (hpreK3 m) (hpostK3 m)
    (RK4 m) (hpreK4 m) (hpostK4 m)
    (RK5 m) (hpreK5 m) (hpostK5 m)
    (RK6 m) (hpreK6 m) (hpostK6 m)
    (RK7 m) (hpreK7 m) (hpostK7 m)
    (RK8 m) (hpreK8 m) (hpostK8 m)
    (RK9 m) (hpreK9 m) (hpostK9 m)
    (RK10 m) (hpreK10 m) (hpostK10 m)
    (RK11 m) (hpreK11 m) (hpostK11 m)
    (RK12 m) (hpreK12 m) (hpostK12 m)
    (RK13 m) (hpreK13 m) (hpostK13 m)
    (RK14 m) (hpreK14 m) (hpostK14 m)
    (RK15 m) (hpreK15 m) (hpostK15 m)
    (RK16 m) (hpreK16 m) (hpostK16 m)
    (RK17 m) (hpreK17 m) (hpostK17 m)
    (RK18 m) (hpreK18 m) (hpostK18 m)
    (RK19 m) (hpreK19 m) (hpostK19 m)
    (RK20 m) (hpreK20 m) (hpostK20 m)
    (RK21 m) (hpreK21 m) (hpostK21 m)
    (RK22 m) (hpreK22 m) (hpostK22 m)
    (RK23 m) (hpreK23 m) (hpostK23 m)

end Cert.Kernel.Hand

end
-- ==== Proof.KOutsStage.lean ====
/-
  A family of region results defined stage by stage.

  The contents the kernel regions leave are unknowns `outs J r c` of the valuations between @main's items. Region `i`
  writes reference `r i` at item `J i`, and what it writes is a function `f i` of the valuation `entry i outs c` the
  region is entered at — which itself reads `outs` at the earlier regions only. Such a family is built by adding one
  region at a time on top of a base family (`stage`), and the result satisfies every region's equation at once
  (`stage_spec`): a later stage never changes an earlier region's entry (the item numbers are distinct), and an entry
  valuation that reads only earlier regions does not see the later stages.
-/
import proofs.«169706_j68856915690108_1_alg».proof.Proof.RegionsKI

noncomputable section

namespace Cert.KernelIdeal.Hand

open Cert.KernelIdeal Cert.KernelIdeal.Gen Cert.KernelIdeal.GenP
open Idealize.ShloMosaic Idealize.ShloMosaic.TcCoe

variable {F : FTy → Type} [FloatOps F]

/-- The family `prev` with item `j`'s reference `x` set to `val`. -/
noncomputable def addStage (prev : Outs (F := F)) (j : ℕ) (x : Ref sig .tc)
    (val : (c : Dev nD) → Buf (Elt F) ((c : Thread nD τ).loc x)) : Outs (F := F) :=
  fun j' x' c => if h : j' = j ∧ x' = x then h.2 ▸ val c else prev j' x' c

theorem addStage_self (prev : Outs (F := F)) (j : ℕ) (x : Ref sig .tc)
    (val : (c : Dev nD) → Buf (Elt F) ((c : Thread nD τ).loc x)) (c : Dev nD) :
    addStage prev j x val j x c = val c := by
  unfold addStage
  rw [dif_pos ⟨rfl, rfl⟩]

theorem addStage_ne (prev : Outs (F := F)) (j : ℕ) (x : Ref sig .tc)
    (val : (c : Dev nD) → Buf (Elt F) ((c : Thread nD τ).loc x)) {j' : ℕ} (x' : Ref sig .tc) (c : Dev nD)
    (h : j' ≠ j) : addStage prev j x val j' x' c = prev j' x' c := by
  unfold addStage
  rw [dif_neg fun hh => h hh.1]

section Staging

variable {n : ℕ} (J : Fin n → ℕ) (r : Fin n → Ref sig .tc)
  (entry : Fin n → Outs (F := F) → Dev nD → Valuation τ sig (Elt F))
  (f : (i : Fin n) → Valuation τ sig (Elt F) → (c : Dev nD) → Buf (Elt F) ((c : Thread nD τ).loc (r i)))
  (base : Outs (F := F))

/-- The first `k` regions added to `base`, each at what it computes from its entry valuation over the stage before. -/
noncomputable def stage : ℕ → Outs (F := F)
  | 0 => base
  | k + 1 =>
    if hk : k < n then
      addStage (stage k) (J ⟨k, hk⟩) (r ⟨k, hk⟩) (fun c => f ⟨k, hk⟩ (entry ⟨k, hk⟩ (stage k) c) c)
    else stage k

/-- Stage `i + 1` holds region `i`'s result over stage `i`. -/
theorem stage_succ_self (i : Fin n) (c : Dev nD) :
    stage J r entry f base (i.val + 1) (J i) (r i) c
      = f i (entry i (stage J r entry f base i.val) c) c := by
  rw [stage, dif_pos i.isLt]
  exact addStage_self _ _ _ _ c

/-- A stage leaves every other item alone. -/
theorem stage_succ_ne (k j' : ℕ) (x' : Ref sig .tc) (c : Dev nD) (h : ∀ hk : k < n, j' ≠ J ⟨k, hk⟩) :
    stage J r entry f base (k + 1) j' x' c = stage J r entry f base k j' x' c := by
  rw [stage]
  split
  · exact addStage_ne _ _ _ _ x' c (h _)
  · rfl

/-- With distinct item numbers, region `i`'s entry is settled at stage `i + 1`. -/
theorem stage_stable (hJ : Function.Injective J) (i : Fin n) (c : Dev nD) (L : ℕ) (hL : i.val + 1 ≤ L) :
    stage J r entry f base L (J i) (r i) c = stage J r entry f base (i.val + 1) (J i) (r i) c := by
  induction L, hL using Nat.le_induction with
  | base => rfl
  | succ L hL ih =>
    rw [stage_succ_ne J r entry f base L (J i) (r i) c fun hk heq => by
      have hv := congrArg Fin.val (hJ heq)
      simp only at hv
      omega, ih]

/-- Every region's equation, at the last stage: region `i`'s reference at item `J i` holds `f i` of the entry
    valuation over the finished family, when that valuation reads the family at earlier regions only. -/
theorem stage_spec (hJ : Function.Injective J)
    (hloc : ∀ (i : Fin n) (o o' : Outs (F := F)) (c : Dev nD),
      (∀ j : Fin n, j.val < i.val → o (J j) (r j) c = o' (J j) (r j) c) → entry i o c = entry i o' c)
    (i : Fin n) (c : Dev nD) :
    stage J r entry f base n (J i) (r i) c = f i (entry i (stage J r entry f base n) c) c := by
  rw [stage_stable J r entry f base hJ i c n i.isLt, stage_succ_self]
  refine congrArg (fun V => f i V c) (hloc i _ _ c fun j hj => ?_)
  rw [stage_stable J r entry f base hJ j c i.val hj, stage_stable J r entry f base hJ j c n j.isLt]

end Staging

/-- The valuation with one reference set is determined by the valuation and the value set. -/
theorem update_congr {V V' : Valuation τ sig (Elt F)} (x : Ref sig .tc) (c : Dev nD)
    {a a' : Buf (Elt F) ((c : Thread nD τ).loc x)} (hV : V = V') (ha : a = a') :
    (Function.update V x a : Valuation τ sig (Elt F)) = Function.update V' x a' := by
  rw [hV, ha]

end Cert.KernelIdeal.Hand

end
-- ==== Proof.KOuts.lean ====
import proofs.«169706_j68856915690108_1_alg».proof.Proof.KOutsStage

/-!
  The contents the 24 kernel regions leave, as ONE family `outsOf m g` determined by what each region computes from the
  valuation it is entered at (`g.oK`): region K's reference at its item holds `g.oK` of the entry valuation over the same
  family (`outsOf_K`). The entry valuation of region K reads the family at regions 0 … K−1 only (`entry_congrK`: it is
  the previous region's entry with that region's reference set and the host stretches in between applied), which is
  what the staging theory asks.
-/

set_option maxRecDepth 7604

noncomputable section

namespace Cert.KernelIdeal.Hand

open Cert.KernelIdeal Cert.KernelIdeal.Gen Cert.KernelIdeal.GenP
open Idealize.ShloMosaic Idealize.ShloMosaic.TcCoe

variable {F : FTy → Type} [FloatOps F]

/-- The item after which region K's result is in place. -/
noncomputable abbrev regJ : Fin 24 → ℕ := ![5, 7, 16, 18, 27, 29, 38, 40, 49, 51, 60, 62, 71, 73, 82, 84, 93, 95, 104, 106, 115, 117, 126, 128]
/-- The reference region K writes. -/
noncomputable abbrev regR : Fin 24 → Ref sig .tc := ![main_v19, main_v22, main_v88, main_v91, main_v157, main_v160, main_v229, main_v232, main_v298, main_v301, main_v367, main_v370, main_v439, main_v442, main_v508, main_v511, main_v577, main_v580, main_v649, main_v652, main_v718, main_v721, main_v787, main_v790]

theorem regJ_inj : Function.Injective regJ :=
  (Fin.strictMono_iff_lt_succ.2 (by decide)).injective

/-- What each region computes from the valuation it is entered at: region K's contents of its reference, per core. -/
structure OutFns (F : FTy → Type) [FloatOps F] where
  o0 : Valuation τ sig (Elt F) → (c : Dev nD) → Buf (Elt F) ((c : Thread nD τ).loc main_v19)
  o1 : Valuation τ sig (Elt F) → (c : Dev nD) → Buf (Elt F) ((c : Thread nD τ).loc main_v22)
  o2 : Valuation τ sig (Elt F) → (c : Dev nD) → Buf (Elt F) ((c : Thread nD τ).loc main_v88)
  o3 : Valuation τ sig (Elt F) → (c : Dev nD) → Buf (Elt F) ((c : Thread nD τ).loc main_v91)
  o4 : Valuation τ sig (Elt F) → (c : Dev nD) → Buf (Elt F) ((c : Thread nD τ).loc main_v157)
  o5 : Valuation τ sig (Elt F) → (c : Dev nD) → Buf (Elt F) ((c : Thread nD τ).loc main_v160)
  o6 : Valuation τ sig (Elt F) → (c : Dev nD) → Buf (Elt F) ((c : Thread nD τ).loc main_v229)
  o7 : Valuation τ sig (Elt F) → (c : Dev nD) → Buf (Elt F) ((c : Thread nD τ).loc main_v232)
  o8 : Valuation τ sig (Elt F) → (c : Dev nD) → Buf (Elt F) ((c : Thread nD τ).loc main_v298)
  o9 : Valuation τ sig (Elt F) → (c : Dev nD) → Buf (Elt F) ((c : Thread nD τ).loc main_v301)
  o10 : Valuation τ sig (Elt F) → (c : Dev nD) → Buf (Elt F) ((c : Thread nD τ).loc main_v367)
  o11 : Valuation τ sig (Elt F) → (c : Dev nD) → Buf (Elt F) ((c : Thread nD τ).loc main_v370)
  o12 : Valuation τ sig (Elt F) → (c : Dev nD) → Buf (Elt F) ((c : Thread nD τ).loc main_v439)
  o13 : Valuation τ sig (Elt F) → (c : Dev nD) → Buf (Elt F) ((c : Thread nD τ).loc main_v442)
  o14 : Valuation τ sig (Elt F) → (c : Dev nD) → Buf (Elt F) ((c : Thread nD τ).loc main_v508)
  o15 : Valuation τ sig (Elt F) → (c : Dev nD) → Buf (Elt F) ((c : Thread nD τ).loc main_v511)
  o16 : Valuation τ sig (Elt F) → (c : Dev nD) → Buf (Elt F) ((c : Thread nD τ).loc main_v577)
  o17 : Valuation τ sig (Elt F) → (c : Dev nD) → Buf (Elt F) ((c : Thread nD τ).loc main_v580)
  o18 : Valuation τ sig (Elt F) → (c : Dev nD) → Buf (Elt F) ((c : Thread nD τ).loc main_v649)
  o19 : Valuation τ sig (Elt F) → (c : Dev nD) → Buf (Elt F) ((c : Thread nD τ).loc main_v652)
  o20 : Valuation τ sig (Elt F) → (c : Dev nD) → Buf (Elt F) ((c : Thread nD τ).loc main_v718)
  o21 : Valuation τ sig (Elt F) → (c : Dev nD) → Buf (Elt F) ((c : Thread nD τ).loc main_v721)
  o22 : Valuation τ sig (Elt F) → (c : Dev nD) → Buf (Elt F) ((c : Thread nD τ).loc main_v787)
  o23 : Valuation τ sig (Elt F) → (c : Dev nD) → Buf (Elt F) ((c : Thread nD τ).loc main_v790)

/-- The same as a family over the region number. -/
noncomputable def OutFns.at (g : OutFns F) :
    (i : Fin 24) → Valuation τ sig (Elt F) → (c : Dev nD) → Buf (Elt F) ((c : Thread nD τ).loc (regR i))
  | ⟨0, _⟩ => g.o0
  | ⟨1, _⟩ => g.o1
  | ⟨2, _⟩ => g.o2
  | ⟨3, _⟩ => g.o3
  | ⟨4, _⟩ => g.o4
  | ⟨5, _⟩ => g.o5
  | ⟨6, _⟩ => g.o6
  | ⟨7, _⟩ => g.o7
  | ⟨8, _⟩ => g.o8
  | ⟨9, _⟩ => g.o9
  | ⟨10, _⟩ => g.o10
  | ⟨11, _⟩ => g.o11
  | ⟨12, _⟩ => g.o12
  | ⟨13, _⟩ => g.o13
  | ⟨14, _⟩ => g.o14
  | ⟨15, _⟩ => g.o15
  | ⟨16, _⟩ => g.o16
  | ⟨17, _⟩ => g.o17
  | ⟨18, _⟩ => g.o18
  | ⟨19, _⟩ => g.o19
  | ⟨20, _⟩ => g.o20
  | ⟨21, _⟩ => g.o21
  | ⟨22, _⟩ => g.o22
  | ⟨23, _⟩ => g.o23
  | ⟨_ + 24, h⟩ => absurd h (Nat.not_lt.2 (Nat.le_add_left _ _))

variable (m : (ℓ : Loc nD τ sig) → Buf (Elt F) ℓ)

/-- The valuation region K is entered at, over a family `o` of region results. -/
noncomputable def entryV (i : Fin 24) (o : Outs (F := F)) (c : Dev nD) : Valuation τ sig (Elt F) :=
  match i with
  | ⟨0, _⟩ => V4 m c
  | ⟨1, _⟩ => V6 m o c
  | ⟨2, _⟩ => V15 m o c
  | ⟨3, _⟩ => V17 m o c
  | ⟨4, _⟩ => V26 m o c
  | ⟨5, _⟩ => V28 m o c
  | ⟨6, _⟩ => V37 m o c
  | ⟨7, _⟩ => V39 m o c
  | ⟨8, _⟩ => V48 m o c
  | ⟨9, _⟩ => V50 m o c
  | ⟨10, _⟩ => V59 m o c
  | ⟨11, _⟩ => V61 m o c
  | ⟨12, _⟩ => V70 m o c
  | ⟨13, _⟩ => V72 m o c
  | ⟨14, _⟩ => V81 m o c
  | ⟨15, _⟩ => V83 m o c
  | ⟨16, _⟩ => V92 m o c
  | ⟨17, _⟩ => V94 m o c
  | ⟨18, _⟩ => V103 m o c
  | ⟨19, _⟩ => V105 m o c
  | ⟨20, _⟩ => V114 m o c
  | ⟨21, _⟩ => V116 m o c
  | ⟨22, _⟩ => V125 m o c
  | ⟨23, _⟩ => V127 m o c
  | ⟨_ + 24, h⟩ => absurd h (Nat.not_lt.2 (Nat.le_add_left _ _))

/-! ## An entry valuation reads the earlier regions only -/

theorem entry_congr0 (o o' : Outs (F := F)) (c : Dev nD) : V4 m c = V4 m c := Eq.refl _

theorem entry_congr1 (o o' : Outs (F := F)) (c : Dev nD)
    (h0 : o 5 main_v19 c = o' 5 main_v19 c) :
    V6 m o c = V6 m o' c :=
  congrArg (StableHlo.after hostOps1) (update_congr main_v19 c (entry_congr0 m o o' c) h0)

theorem entry_congr2 (o o' : Outs (F := F)) (c : Dev nD)
    (h0 : o 5 main_v19 c = o' 5 main_v19 c) (h1 : o 7 main_v22 c = o' 7 main_v22 c) :
    V15 m o c = V15 m o' c :=
  congrArg (StableHlo.after hostOps2_7) (congrArg (StableHlo.after hostOps2_6) (congrArg (StableHlo.after hostOps2_5) (congrArg (StableHlo.after hostOps2_4) (congrArg (StableHlo.after hostOps2_3) (congrArg (StableHlo.after hostOps2_2) (congrArg (StableHlo.after hostOps2_1) (congrArg (StableHlo.after hostOps2) (update_congr main_v22 c (entry_congr1 m o o' c h0) h1))))))))

theorem entry_congr3 (o o' : Outs (F := F)) (c : Dev nD)
    (h0 : o 5 main_v19 c = o' 5 main_v19 c) (h1 : o 7 main_v22 c = o' 7 main_v22 c) (h2 : o 16 main_v88 c = o' 16 main_v88 c) :
    V17 m o c = V17 m o' c :=
  congrArg (StableHlo.after hostOps3) (update_congr main_v88 c (entry_congr2 m o o' c h0 h1) h2)

theorem entry_congr4 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) :
    V26 m o c = V26 m o' c :=
  congrArg (StableHlo.after hostOps4_7) (congrArg (StableHlo.after hostOps4_6) (congrArg (StableHlo.after hostOps4_5) (congrArg (StableHlo.after hostOps4_4) (congrArg (StableHlo.after hostOps4_3) (congrArg (StableHlo.after hostOps4_2) (congrArg (StableHlo.after hostOps4_1) (congrArg (StableHlo.after hostOps4) (update_congr main_v91 c (entry_congr3 m o o' c h0 h1 h2) h3))))))))

theorem entry_congr5 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) :
    V28 m o c = V28 m o' c :=
  congrArg (StableHlo.after hostOps5) (update_congr main_v157 c (entry_congr4 m o o' c h0 h1 h2 h3) h4)

theorem entry_congr6 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) :
    V37 m o c = V37 m o' c :=
  congrArg (StableHlo.after hostOps6_7) (congrArg (StableHlo.after hostOps6_6) (congrArg (StableHlo.after hostOps6_5) (congrArg (StableHlo.after hostOps6_4) (congrArg (StableHlo.after hostOps6_3) (congrArg (StableHlo.after hostOps6_2) (congrArg (StableHlo.after hostOps6_1) (congrArg (StableHlo.after hostOps6) (update_congr main_v160 c (entry_congr5 m o o' c h0 h1 h2 h3 h4) h5))))))))

theorem entry_congr7 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) :
    V39 m o c = V39 m o' c :=
  congrArg (StableHlo.after hostOps7) (update_congr main_v229 c (entry_congr6 m o o' c h0 h1 h2 h3 h4 h5) h6)

theorem entry_congr8 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) :
    V48 m o c = V48 m o' c :=
  congrArg (StableHlo.after hostOps8_7) (congrArg (StableHlo.after hostOps8_6) (congrArg (StableHlo.after hostOps8_5) (congrArg (StableHlo.after hostOps8_4) (congrArg (StableHlo.after hostOps8_3) (congrArg (StableHlo.after hostOps8_2) (congrArg (StableHlo.after hostOps8_1) (congrArg (StableHlo.after hostOps8) (update_congr main_v232 c (entry_congr7 m o o' c h0 h1 h2 h3 h4 h5 h6) h7))))))))

theorem entry_congr9 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) :
    V50 m o c = V50 m o' c :=
  congrArg (StableHlo.after hostOps9) (update_congr main_v298 c (entry_congr8 m o o' c h0 h1 h2 h3 h4 h5 h6 h7) h8)

theorem entry_congr10 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) :
    V59 m o c = V59 m o' c :=
  congrArg (StableHlo.after hostOps10_7) (congrArg (StableHlo.after hostOps10_6) (congrArg (StableHlo.after hostOps10_5) (congrArg (StableHlo.after hostOps10_4) (congrArg (StableHlo.after hostOps10_3) (congrArg (StableHlo.after hostOps10_2) (congrArg (StableHlo.after hostOps10_1) (congrArg (StableHlo.after hostOps10) (update_congr main_v301 c (entry_congr9 m o o' c h0 h1 h2 h3 h4 h5 h6 h7 h8) h9))))))))

theorem entry_congr11 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) :
    V61 m o c = V61 m o' c :=
  congrArg (StableHlo.after hostOps11) (update_congr main_v367 c (entry_congr10 m o o' c h0 h1 h2 h3 h4 h5 h6 h7 h8 h9) h10)

theorem entry_congr12 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) :
    V70 m o c = V70 m o' c :=
  congrArg (StableHlo.after hostOps12_7) (congrArg (StableHlo.after hostOps12_6) (congrArg (StableHlo.after hostOps12_5) (congrArg (StableHlo.after hostOps12_4) (congrArg (StableHlo.after hostOps12_3) (congrArg (StableHlo.after hostOps12_2) (congrArg (StableHlo.after hostOps12_1) (congrArg (StableHlo.after hostOps12) (update_congr main_v370 c (entry_congr11 m o o' c h0 h1 h2 h3 h4 h5 h6 h7 h8 h9 h10) h11))))))))

theorem entry_congr13 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) :
    V72 m o c = V72 m o' c :=
  congrArg (StableHlo.after hostOps13) (update_congr main_v439 c (entry_congr12 m o o' c h0 h1 h2 h3 h4 h5 h6 h7 h8 h9 h10 h11) h12)

theorem entry_congr14 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) :
    V81 m o c = V81 m o' c :=
  congrArg (StableHlo.after hostOps14_7) (congrArg (StableHlo.after hostOps14_6) (congrArg (StableHlo.after hostOps14_5) (congrArg (StableHlo.after hostOps14_4) (congrArg (StableHlo.after hostOps14_3) (congrArg (StableHlo.after hostOps14_2) (congrArg (StableHlo.after hostOps14_1) (congrArg (StableHlo.after hostOps14) (update_congr main_v442 c (entry_congr13 m o o' c h0 h1 h2 h3 h4 h5 h6 h7 h8 h9 h10 h11 h12) h13))))))))

theorem entry_congr15 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) :
    V83 m o c = V83 m o' c :=
  congrArg (StableHlo.after hostOps15) (update_congr main_v508 c (entry_congr14 m o o' c h0 h1 h2 h3 h4 h5 h6 h7 h8 h9 h10 h11 h12 h13) h14)

theorem entry_congr16 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) (h15 : o 84 main_v511 c = o' 84 main_v511 c) :
    V92 m o c = V92 m o' c :=
  congrArg (StableHlo.after hostOps16_7) (congrArg (StableHlo.after hostOps16_6) (congrArg (StableHlo.after hostOps16_5) (congrArg (StableHlo.after hostOps16_4) (congrArg (StableHlo.after hostOps16_3) (congrArg (StableHlo.after hostOps16_2) (congrArg (StableHlo.after hostOps16_1) (congrArg (StableHlo.after hostOps16) (update_congr main_v511 c (entry_congr15 m o o' c h0 h1 h2 h3 h4 h5 h6 h7 h8 h9 h10 h11 h12 h13 h14) h15))))))))

theorem entry_congr17 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) (h15 : o 84 main_v511 c = o' 84 main_v511 c) (h16 : o 93 main_v577 c = o' 93 main_v577 c) :
    V94 m o c = V94 m o' c :=
  congrArg (StableHlo.after hostOps17) (update_congr main_v577 c (entry_congr16 m o o' c h0 h1 h2 h3 h4 h5 h6 h7 h8 h9 h10 h11 h12 h13 h14 h15) h16)

theorem entry_congr18 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) (h15 : o 84 main_v511 c = o' 84 main_v511 c) (h16 : o 93 main_v577 c = o' 93 main_v577 c) (h17 : o 95 main_v580 c = o' 95 main_v580 c) :
    V103 m o c = V103 m o' c :=
  congrArg (StableHlo.after hostOps18_7) (congrArg (StableHlo.after hostOps18_6) (congrArg (StableHlo.after hostOps18_5) (congrArg (StableHlo.after hostOps18_4) (congrArg (StableHlo.after hostOps18_3) (congrArg (StableHlo.after hostOps18_2) (congrArg (StableHlo.after hostOps18_1) (congrArg (StableHlo.after hostOps18) (update_congr main_v580 c (entry_congr17 m o o' c h0 h1 h2 h3 h4 h5 h6 h7 h8 h9 h10 h11 h12 h13 h14 h15 h16) h17))))))))

theorem entry_congr19 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) (h15 : o 84 main_v511 c = o' 84 main_v511 c) (h16 : o 93 main_v577 c = o' 93 main_v577 c) (h17 : o 95 main_v580 c = o' 95 main_v580 c) (h18 : o 104 main_v649 c = o' 104 main_v649 c) :
    V105 m o c = V105 m o' c :=
  congrArg (StableHlo.after hostOps19) (update_congr main_v649 c (entry_congr18 m o o' c h0 h1 h2 h3 h4 h5 h6 h7 h8 h9 h10 h11 h12 h13 h14 h15 h16 h17) h18)

theorem entry_congr20 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) (h15 : o 84 main_v511 c = o' 84 main_v511 c) (h16 : o 93 main_v577 c = o' 93 main_v577 c) (h17 : o 95 main_v580 c = o' 95 main_v580 c) (h18 : o 104 main_v649 c = o' 104 main_v649 c) (h19 : o 106 main_v652 c = o' 106 main_v652 c) :
    V114 m o c = V114 m o' c :=
  congrArg (StableHlo.after hostOps20_7) (congrArg (StableHlo.after hostOps20_6) (congrArg (StableHlo.after hostOps20_5) (congrArg (StableHlo.after hostOps20_4) (congrArg (StableHlo.after hostOps20_3) (congrArg (StableHlo.after hostOps20_2) (congrArg (StableHlo.after hostOps20_1) (congrArg (StableHlo.after hostOps20) (update_congr main_v652 c (entry_congr19 m o o' c h0 h1 h2 h3 h4 h5 h6 h7 h8 h9 h10 h11 h12 h13 h14 h15 h16 h17 h18) h19))))))))

theorem entry_congr21 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) (h15 : o 84 main_v511 c = o' 84 main_v511 c) (h16 : o 93 main_v577 c = o' 93 main_v577 c) (h17 : o 95 main_v580 c = o' 95 main_v580 c) (h18 : o 104 main_v649 c = o' 104 main_v649 c) (h19 : o 106 main_v652 c = o' 106 main_v652 c) (h20 : o 115 main_v718 c = o' 115 main_v718 c) :
    V116 m o c = V116 m o' c :=
  congrArg (StableHlo.after hostOps21) (update_congr main_v718 c (entry_congr20 m o o' c h0 h1 h2 h3 h4 h5 h6 h7 h8 h9 h10 h11 h12 h13 h14 h15 h16 h17 h18 h19) h20)

theorem entry_congr22 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) (h15 : o 84 main_v511 c = o' 84 main_v511 c) (h16 : o 93 main_v577 c = o' 93 main_v577 c) (h17 : o 95 main_v580 c = o' 95 main_v580 c) (h18 : o 104 main_v649 c = o' 104 main_v649 c) (h19 : o 106 main_v652 c = o' 106 main_v652 c) (h20 : o 115 main_v718 c = o' 115 main_v718 c) (h21 : o 117 main_v721 c = o' 117 main_v721 c) :
    V125 m o c = V125 m o' c :=
  congrArg (StableHlo.after hostOps22_7) (congrArg (StableHlo.after hostOps22_6) (congrArg (StableHlo.after hostOps22_5) (congrArg (StableHlo.after hostOps22_4) (congrArg (StableHlo.after hostOps22_3) (congrArg (StableHlo.after hostOps22_2) (congrArg (StableHlo.after hostOps22_1) (congrArg (StableHlo.after hostOps22) (update_congr main_v721 c (entry_congr21 m o o' c h0 h1 h2 h3 h4 h5 h6 h7 h8 h9 h10 h11 h12 h13 h14 h15 h16 h17 h18 h19 h20) h21))))))))

theorem entry_congr23 (o o' : Outs (F := F)) (c : Dev nD)
    (h0 : o 5 main_v19 c = o' 5 main_v19 c) (h1 : o 7 main_v22 c = o' 7 main_v22 c) (h2 : o 16 main_v88 c = o' 16 main_v88 c) (h3 : o 18 main_v91 c = o' 18 main_v91 c) (h4 : o 27 main_v157 c = o' 27 main_v157 c) (h5 : o 29 main_v160 c = o' 29 main_v160 c) (h6 : o 38 main_v229 c = o' 38 main_v229 c) (h7 : o 40 main_v232 c = o' 40 main_v232 c) (h8 : o 49 main_v298 c = o' 49 main_v298 c) (h9 : o 51 main_v301 c = o' 51 main_v301 c) (h10 : o 60 main_v367 c = o' 60 main_v367 c) (h11 : o 62 main_v370 c = o' 62 main_v370 c) (h12 : o 71 main_v439 c = o' 71 main_v439 c) (h13 : o 73 main_v442 c = o' 73 main_v442 c) (h14 : o 82 main_v508 c = o' 82 main_v508 c) (h15 : o 84 main_v511 c = o' 84 main_v511 c) (h16 : o 93 main_v577 c = o' 93 main_v577 c) (h17 : o 95 main_v580 c = o' 95 main_v580 c) (h18 : o 104 main_v649 c = o' 104 main_v649 c) (h19 : o 106 main_v652 c = o' 106 main_v652 c) (h20 : o 115 main_v718 c = o' 115 main_v718 c) (h21 : o 117 main_v721 c = o' 117 main_v721 c) (h22 : o 126 main_v787 c = o' 126 main_v787 c) :
    V127 m o c = V127 m o' c :=
  congrArg (StableHlo.after hostOps23) (update_congr main_v787 c (entry_congr22 m o o' c h0 h1 h2 h3 h4 h5 h6 h7 h8 h9 h10 h11 h12 h13 h14 h15 h16 h17 h18 h19 h20 h21) h22)

theorem entry_local (i : Fin 24) (o o' : Outs (F := F)) (c : Dev nD)
    (h : ∀ j : Fin 24, j.val < i.val → o (regJ j) (regR j) c = o' (regJ j) (regR j) c) :
    entryV m i o c = entryV m i o' c :=
  match i, h with
  | ⟨0, _⟩, h => entry_congr0 m o o' c
  | ⟨1, _⟩, h => entry_congr1 m o o' c (h 0 (show (0 : Fin 24).val < 1 from by decide))
  | ⟨2, _⟩, h => entry_congr2 m o o' c (h 0 (show (0 : Fin 24).val < 2 from by decide)) (h 1 (show (1 : Fin 24).val < 2 from by decide))
  | ⟨3, _⟩, h => entry_congr3 m o o' c (h 0 (show (0 : Fin 24).val < 3 from by decide)) (h 1 (show (1 : Fin 24).val < 3 from by decide)) (h 2 (show (2 : Fin 24).val < 3 from by decide))
  | ⟨4, _⟩, h => entry_congr4 m o o' c (h 0 (show (0 : Fin 24).val < 4 from by decide)) (h 1 (show (1 : Fin 24).val < 4 from by decide)) (h 2 (show (2 : Fin 24).val < 4 from by decide)) (h 3 (show (3 : Fin 24).val < 4 from by decide))
  | ⟨5, _⟩, h => entry_congr5 m o o' c (h 0 (show (0 : Fin 24).val < 5 from by decide)) (h 1 (show (1 : Fin 24).val < 5 from by decide)) (h 2 (show (2 : Fin 24).val < 5 from by decide)) (h 3 (show (3 : Fin 24).val < 5 from by decide)) (h 4 (show (4 : Fin 24).val < 5 from by decide))
  | ⟨6, _⟩, h => entry_congr6 m o o' c (h 0 (show (0 : Fin 24).val < 6 from by decide)) (h 1 (show (1 : Fin 24).val < 6 from by decide)) (h 2 (show (2 : Fin 24).val < 6 from by decide)) (h 3 (show (3 : Fin 24).val < 6 from by decide)) (h 4 (show (4 : Fin 24).val < 6 from by decide)) (h 5 (show (5 : Fin 24).val < 6 from by decide))
  | ⟨7, _⟩, h => entry_congr7 m o o' c (h 0 (show (0 : Fin 24).val < 7 from by decide)) (h 1 (show (1 : Fin 24).val < 7 from by decide)) (h 2 (show (2 : Fin 24).val < 7 from by decide)) (h 3 (show (3 : Fin 24).val < 7 from by decide)) (h 4 (show (4 : Fin 24).val < 7 from by decide)) (h 5 (show (5 : Fin 24).val < 7 from by decide)) (h 6 (show (6 : Fin 24).val < 7 from by decide))
  | ⟨8, _⟩, h => entry_congr8 m o o' c (h 0 (show (0 : Fin 24).val < 8 from by decide)) (h 1 (show (1 : Fin 24).val < 8 from by decide)) (h 2 (show (2 : Fin 24).val < 8 from by decide)) (h 3 (show (3 : Fin 24).val < 8 from by decide)) (h 4 (show (4 : Fin 24).val < 8 from by decide)) (h 5 (show (5 : Fin 24).val < 8 from by decide)) (h 6 (show (6 : Fin 24).val < 8 from by decide)) (h 7 (show (7 : Fin 24).val < 8 from by decide))
  | ⟨9, _⟩, h => entry_congr9 m o o' c (h 0 (show (0 : Fin 24).val < 9 from by decide)) (h 1 (show (1 : Fin 24).val < 9 from by decide)) (h 2 (show (2 : Fin 24).val < 9 from by decide)) (h 3 (show (3 : Fin 24).val < 9 from by decide)) (h 4 (show (4 : Fin 24).val < 9 from by decide)) (h 5 (show (5 : Fin 24).val < 9 from by decide)) (h 6 (show (6 : Fin 24).val < 9 from by decide)) (h 7 (show (7 : Fin 24).val < 9 from by decide)) (h 8 (show (8 : Fin 24).val < 9 from by decide))
  | ⟨10, _⟩, h => entry_congr10 m o o' c (h 0 (show (0 : Fin 24).val < 10 from by decide)) (h 1 (show (1 : Fin 24).val < 10 from by decide)) (h 2 (show (2 : Fin 24).val < 10 from by decide)) (h 3 (show (3 : Fin 24).val < 10 from by decide)) (h 4 (show (4 : Fin 24).val < 10 from by decide)) (h 5 (show (5 : Fin 24).val < 10 from by decide)) (h 6 (show (6 : Fin 24).val < 10 from by decide)) (h 7 (show (7 : Fin 24).val < 10 from by decide)) (h 8 (show (8 : Fin 24).val < 10 from by decide)) (h 9 (show (9 : Fin 24).val < 10 from by decide))
  | ⟨11, _⟩, h => entry_congr11 m o o' c (h 0 (show (0 : Fin 24).val < 11 from by decide)) (h 1 (show (1 : Fin 24).val < 11 from by decide)) (h 2 (show (2 : Fin 24).val < 11 from by decide)) (h 3 (show (3 : Fin 24).val < 11 from by decide)) (h 4 (show (4 : Fin 24).val < 11 from by decide)) (h 5 (show (5 : Fin 24).val < 11 from by decide)) (h 6 (show (6 : Fin 24).val < 11 from by decide)) (h 7 (show (7 : Fin 24).val < 11 from by decide)) (h 8 (show (8 : Fin 24).val < 11 from by decide)) (h 9 (show (9 : Fin 24).val < 11 from by decide)) (h 10 (show (10 : Fin 24).val < 11 from by decide))
  | ⟨12, _⟩, h => entry_congr12 m o o' c (h 0 (show (0 : Fin 24).val < 12 from by decide)) (h 1 (show (1 : Fin 24).val < 12 from by decide)) (h 2 (show (2 : Fin 24).val < 12 from by decide)) (h 3 (show (3 : Fin 24).val < 12 from by decide)) (h 4 (show (4 : Fin 24).val < 12 from by decide)) (h 5 (show (5 : Fin 24).val < 12 from by decide)) (h 6 (show (6 : Fin 24).val < 12 from by decide)) (h 7 (show (7 : Fin 24).val < 12 from by decide)) (h 8 (show (8 : Fin 24).val < 12 from by decide)) (h 9 (show (9 : Fin 24).val < 12 from by decide)) (h 10 (show (10 : Fin 24).val < 12 from by decide)) (h 11 (show (11 : Fin 24).val < 12 from by decide))
  | ⟨13, _⟩, h => entry_congr13 m o o' c (h 0 (show (0 : Fin 24).val < 13 from by decide)) (h 1 (show (1 : Fin 24).val < 13 from by decide)) (h 2 (show (2 : Fin 24).val < 13 from by decide)) (h 3 (show (3 : Fin 24).val < 13 from by decide)) (h 4 (show (4 : Fin 24).val < 13 from by decide)) (h 5 (show (5 : Fin 24).val < 13 from by decide)) (h 6 (show (6 : Fin 24).val < 13 from by decide)) (h 7 (show (7 : Fin 24).val < 13 from by decide)) (h 8 (show (8 : Fin 24).val < 13 from by decide)) (h 9 (show (9 : Fin 24).val < 13 from by decide)) (h 10 (show (10 : Fin 24).val < 13 from by decide)) (h 11 (show (11 : Fin 24).val < 13 from by decide)) (h 12 (show (12 : Fin 24).val < 13 from by decide))
  | ⟨14, _⟩, h => entry_congr14 m o o' c (h 0 (show (0 : Fin 24).val < 14 from by decide)) (h 1 (show (1 : Fin 24).val < 14 from by decide)) (h 2 (show (2 : Fin 24).val < 14 from by decide)) (h 3 (show (3 : Fin 24).val < 14 from by decide)) (h 4 (show (4 : Fin 24).val < 14 from by decide)) (h 5 (show (5 : Fin 24).val < 14 from by decide)) (h 6 (show (6 : Fin 24).val < 14 from by decide)) (h 7 (show (7 : Fin 24).val < 14 from by decide)) (h 8 (show (8 : Fin 24).val < 14 from by decide)) (h 9 (show (9 : Fin 24).val < 14 from by decide)) (h 10 (show (10 : Fin 24).val < 14 from by decide)) (h 11 (show (11 : Fin 24).val < 14 from by decide)) (h 12 (show (12 : Fin 24).val < 14 from by decide)) (h 13 (show (13 : Fin 24).val < 14 from by decide))
  | ⟨15, _⟩, h => entry_congr15 m o o' c (h 0 (show (0 : Fin 24).val < 15 from by decide)) (h 1 (show (1 : Fin 24).val < 15 from by decide)) (h 2 (show (2 : Fin 24).val < 15 from by decide)) (h 3 (show (3 : Fin 24).val < 15 from by decide)) (h 4 (show (4 : Fin 24).val < 15 from by decide)) (h 5 (show (5 : Fin 24).val < 15 from by decide)) (h 6 (show (6 : Fin 24).val < 15 from by decide)) (h 7 (show (7 : Fin 24).val < 15 from by decide)) (h 8 (show (8 : Fin 24).val < 15 from by decide)) (h 9 (show (9 : Fin 24).val < 15 from by decide)) (h 10 (show (10 : Fin 24).val < 15 from by decide)) (h 11 (show (11 : Fin 24).val < 15 from by decide)) (h 12 (show (12 : Fin 24).val < 15 from by decide)) (h 13 (show (13 : Fin 24).val < 15 from by decide)) (h 14 (show (14 : Fin 24).val < 15 from by decide))
  | ⟨16, _⟩, h => entry_congr16 m o o' c (h 0 (show (0 : Fin 24).val < 16 from by decide)) (h 1 (show (1 : Fin 24).val < 16 from by decide)) (h 2 (show (2 : Fin 24).val < 16 from by decide)) (h 3 (show (3 : Fin 24).val < 16 from by decide)) (h 4 (show (4 : Fin 24).val < 16 from by decide)) (h 5 (show (5 : Fin 24).val < 16 from by decide)) (h 6 (show (6 : Fin 24).val < 16 from by decide)) (h 7 (show (7 : Fin 24).val < 16 from by decide)) (h 8 (show (8 : Fin 24).val < 16 from by decide)) (h 9 (show (9 : Fin 24).val < 16 from by decide)) (h 10 (show (10 : Fin 24).val < 16 from by decide)) (h 11 (show (11 : Fin 24).val < 16 from by decide)) (h 12 (show (12 : Fin 24).val < 16 from by decide)) (h 13 (show (13 : Fin 24).val < 16 from by decide)) (h 14 (show (14 : Fin 24).val < 16 from by decide)) (h 15 (show (15 : Fin 24).val < 16 from by decide))
  | ⟨17, _⟩, h => entry_congr17 m o o' c (h 0 (show (0 : Fin 24).val < 17 from by decide)) (h 1 (show (1 : Fin 24).val < 17 from by decide)) (h 2 (show (2 : Fin 24).val < 17 from by decide)) (h 3 (show (3 : Fin 24).val < 17 from by decide)) (h 4 (show (4 : Fin 24).val < 17 from by decide)) (h 5 (show (5 : Fin 24).val < 17 from by decide)) (h 6 (show (6 : Fin 24).val < 17 from by decide)) (h 7 (show (7 : Fin 24).val < 17 from by decide)) (h 8 (show (8 : Fin 24).val < 17 from by decide)) (h 9 (show (9 : Fin 24).val < 17 from by decide)) (h 10 (show (10 : Fin 24).val < 17 from by decide)) (h 11 (show (11 : Fin 24).val < 17 from by decide)) (h 12 (show (12 : Fin 24).val < 17 from by decide)) (h 13 (show (13 : Fin 24).val < 17 from by decide)) (h 14 (show (14 : Fin 24).val < 17 from by decide)) (h 15 (show (15 : Fin 24).val < 17 from by decide)) (h 16 (show (16 : Fin 24).val < 17 from by decide))
  | ⟨18, _⟩, h => entry_congr18 m o o' c (h 0 (show (0 : Fin 24).val < 18 from by decide)) (h 1 (show (1 : Fin 24).val < 18 from by decide)) (h 2 (show (2 : Fin 24).val < 18 from by decide)) (h 3 (show (3 : Fin 24).val < 18 from by decide)) (h 4 (show (4 : Fin 24).val < 18 from by decide)) (h 5 (show (5 : Fin 24).val < 18 from by decide)) (h 6 (show (6 : Fin 24).val < 18 from by decide)) (h 7 (show (7 : Fin 24).val < 18 from by decide)) (h 8 (show (8 : Fin 24).val < 18 from by decide)) (h 9 (show (9 : Fin 24).val < 18 from by decide)) (h 10 (show (10 : Fin 24).val < 18 from by decide)) (h 11 (show (11 : Fin 24).val < 18 from by decide)) (h 12 (show (12 : Fin 24).val < 18 from by decide)) (h 13 (show (13 : Fin 24).val < 18 from by decide)) (h 14 (show (14 : Fin 24).val < 18 from by decide)) (h 15 (show (15 : Fin 24).val < 18 from by decide)) (h 16 (show (16 : Fin 24).val < 18 from by decide)) (h 17 (show (17 : Fin 24).val < 18 from by decide))
  | ⟨19, _⟩, h => entry_congr19 m o o' c (h 0 (show (0 : Fin 24).val < 19 from by decide)) (h 1 (show (1 : Fin 24).val < 19 from by decide)) (h 2 (show (2 : Fin 24).val < 19 from by decide)) (h 3 (show (3 : Fin 24).val < 19 from by decide)) (h 4 (show (4 : Fin 24).val < 19 from by decide)) (h 5 (show (5 : Fin 24).val < 19 from by decide)) (h 6 (show (6 : Fin 24).val < 19 from by decide)) (h 7 (show (7 : Fin 24).val < 19 from by decide)) (h 8 (show (8 : Fin 24).val < 19 from by decide)) (h 9 (show (9 : Fin 24).val < 19 from by decide)) (h 10 (show (10 : Fin 24).val < 19 from by decide)) (h 11 (show (11 : Fin 24).val < 19 from by decide)) (h 12 (show (12 : Fin 24).val < 19 from by decide)) (h 13 (show (13 : Fin 24).val < 19 from by decide)) (h 14 (show (14 : Fin 24).val < 19 from by decide)) (h 15 (show (15 : Fin 24).val < 19 from by decide)) (h 16 (show (16 : Fin 24).val < 19 from by decide)) (h 17 (show (17 : Fin 24).val < 19 from by decide)) (h 18 (show (18 : Fin 24).val < 19 from by decide))
  | ⟨20, _⟩, h => entry_congr20 m o o' c (h 0 (show (0 : Fin 24).val < 20 from by decide)) (h 1 (show (1 : Fin 24).val < 20 from by decide)) (h 2 (show (2 : Fin 24).val < 20 from by decide)) (h 3 (show (3 : Fin 24).val < 20 from by decide)) (h 4 (show (4 : Fin 24).val < 20 from by decide)) (h 5 (show (5 : Fin 24).val < 20 from by decide)) (h 6 (show (6 : Fin 24).val < 20 from by decide)) (h 7 (show (7 : Fin 24).val < 20 from by decide)) (h 8 (show (8 : Fin 24).val < 20 from by decide)) (h 9 (show (9 : Fin 24).val < 20 from by decide)) (h 10 (show (10 : Fin 24).val < 20 from by decide)) (h 11 (show (11 : Fin 24).val < 20 from by decide)) (h 12 (show (12 : Fin 24).val < 20 from by decide)) (h 13 (show (13 : Fin 24).val < 20 from by decide)) (h 14 (show (14 : Fin 24).val < 20 from by decide)) (h 15 (show (15 : Fin 24).val < 20 from by decide)) (h 16 (show (16 : Fin 24).val < 20 from by decide)) (h 17 (show (17 : Fin 24).val < 20 from by decide)) (h 18 (show (18 : Fin 24).val < 20 from by decide)) (h 19 (show (19 : Fin 24).val < 20 from by decide))
  | ⟨21, _⟩, h => entry_congr21 m o o' c (h 0 (show (0 : Fin 24).val < 21 from by decide)) (h 1 (show (1 : Fin 24).val < 21 from by decide)) (h 2 (show (2 : Fin 24).val < 21 from by decide)) (h 3 (show (3 : Fin 24).val < 21 from by decide)) (h 4 (show (4 : Fin 24).val < 21 from by decide)) (h 5 (show (5 : Fin 24).val < 21 from by decide)) (h 6 (show (6 : Fin 24).val < 21 from by decide)) (h 7 (show (7 : Fin 24).val < 21 from by decide)) (h 8 (show (8 : Fin 24).val < 21 from by decide)) (h 9 (show (9 : Fin 24).val < 21 from by decide)) (h 10 (show (10 : Fin 24).val < 21 from by decide)) (h 11 (show (11 : Fin 24).val < 21 from by decide)) (h 12 (show (12 : Fin 24).val < 21 from by decide)) (h 13 (show (13 : Fin 24).val < 21 from by decide)) (h 14 (show (14 : Fin 24).val < 21 from by decide)) (h 15 (show (15 : Fin 24).val < 21 from by decide)) (h 16 (show (16 : Fin 24).val < 21 from by decide)) (h 17 (show (17 : Fin 24).val < 21 from by decide)) (h 18 (show (18 : Fin 24).val < 21 from by decide)) (h 19 (show (19 : Fin 24).val < 21 from by decide)) (h 20 (show (20 : Fin 24).val < 21 from by decide))
  | ⟨22, _⟩, h => entry_congr22 m o o' c (h 0 (show (0 : Fin 24).val < 22 from by decide)) (h 1 (show (1 : Fin 24).val < 22 from by decide)) (h 2 (show (2 : Fin 24).val < 22 from by decide)) (h 3 (show (3 : Fin 24).val < 22 from by decide)) (h 4 (show (4 : Fin 24).val < 22 from by decide)) (h 5 (show (5 : Fin 24).val < 22 from by decide)) (h 6 (show (6 : Fin 24).val < 22 from by decide)) (h 7 (show (7 : Fin 24).val < 22 from by decide)) (h 8 (show (8 : Fin 24).val < 22 from by decide)) (h 9 (show (9 : Fin 24).val < 22 from by decide)) (h 10 (show (10 : Fin 24).val < 22 from by decide)) (h 11 (show (11 : Fin 24).val < 22 from by decide)) (h 12 (show (12 : Fin 24).val < 22 from by decide)) (h 13 (show (13 : Fin 24).val < 22 from by decide)) (h 14 (show (14 : Fin 24).val < 22 from by decide)) (h 15 (show (15 : Fin 24).val < 22 from by decide)) (h 16 (show (16 : Fin 24).val < 22 from by decide)) (h 17 (show (17 : Fin 24).val < 22 from by decide)) (h 18 (show (18 : Fin 24).val < 22 from by decide)) (h 19 (show (19 : Fin 24).val < 22 from by decide)) (h 20 (show (20 : Fin 24).val < 22 from by decide)) (h 21 (show (21 : Fin 24).val < 22 from by decide))
  | ⟨23, _⟩, h => entry_congr23 m o o' c (h 0 (show (0 : Fin 24).val < 23 from by decide)) (h 1 (show (1 : Fin 24).val < 23 from by decide)) (h 2 (show (2 : Fin 24).val < 23 from by decide)) (h 3 (show (3 : Fin 24).val < 23 from by decide)) (h 4 (show (4 : Fin 24).val < 23 from by decide)) (h 5 (show (5 : Fin 24).val < 23 from by decide)) (h 6 (show (6 : Fin 24).val < 23 from by decide)) (h 7 (show (7 : Fin 24).val < 23 from by decide)) (h 8 (show (8 : Fin 24).val < 23 from by decide)) (h 9 (show (9 : Fin 24).val < 23 from by decide)) (h 10 (show (10 : Fin 24).val < 23 from by decide)) (h 11 (show (11 : Fin 24).val < 23 from by decide)) (h 12 (show (12 : Fin 24).val < 23 from by decide)) (h 13 (show (13 : Fin 24).val < 23 from by decide)) (h 14 (show (14 : Fin 24).val < 23 from by decide)) (h 15 (show (15 : Fin 24).val < 23 from by decide)) (h 16 (show (16 : Fin 24).val < 23 from by decide)) (h 17 (show (17 : Fin 24).val < 23 from by decide)) (h 18 (show (18 : Fin 24).val < 23 from by decide)) (h 19 (show (19 : Fin 24).val < 23 from by decide)) (h 20 (show (20 : Fin 24).val < 23 from by decide)) (h 21 (show (21 : Fin 24).val < 23 from by decide)) (h 22 (show (22 : Fin 24).val < 23 from by decide))
  | ⟨_ + 24, h'⟩, _ => absurd h' (Nat.not_lt.2 (Nat.le_add_left _ _))

/-- The regions' results as one family: each region's reference at its item holds what the region computes from its
    entry valuation; everything else reads the launch memory. -/
noncomputable def outsOf (g : OutFns F) : Outs (F := F) :=
  stage regJ regR (entryV m) g.at (fun _ x c => m ((c : Thread nD τ).loc x)) 24

/-! ## The 24 equations -/

theorem outsOf_0 (g : OutFns F) (c : Dev nD) :
    outsOf m g 5 main_v19 c = g.o0 (V4 m c) c :=
  stage_spec regJ regR (entryV m) g.at (fun _ x c => m ((c : Thread nD τ).loc x)) regJ_inj (entry_local m) (0 : Fin 24) c

theorem outsOf_1 (g : OutFns F) (c : Dev nD) :
    outsOf m g 7 main_v22 c = g.o1 (V6 m (outsOf m g) c) c :=
  stage_spec regJ regR (entryV m) g.at (fun _ x c => m ((c : Thread nD τ).loc x)) regJ_inj (entry_local m) (1 : Fin 24) c

theorem outsOf_2 (g : OutFns F) (c : Dev nD) :
    outsOf m g 16 main_v88 c = g.o2 (V15 m (outsOf m g) c) c :=
  stage_spec regJ regR (entryV m) g.at (fun _ x c => m ((c : Thread nD τ).loc x)) regJ_inj (entry_local m) (2 : Fin 24) c

theorem outsOf_3 (g : OutFns F) (c : Dev nD) :
    outsOf m g 18 main_v91 c = g.o3 (V17 m (outsOf m g) c) c :=
  stage_spec regJ regR (entryV m) g.at (fun _ x c => m ((c : Thread nD τ).loc x)) regJ_inj (entry_local m) (3 : Fin 24) c

theorem outsOf_4 (g : OutFns F) (c : Dev nD) :
    outsOf m g 27 main_v157 c = g.o4 (V26 m (outsOf m g) c) c :=
  stage_spec regJ regR (entryV m) g.at (fun _ x c => m ((c : Thread nD τ).loc x)) regJ_inj (entry_local m) (4 : Fin 24) c

theorem outsOf_5 (g : OutFns F) (c : Dev nD) :
    outsOf m g 29 main_v160 c = g.o5 (V28 m (outsOf m g) c) c :=
  stage_spec regJ regR (entryV m) g.at (fun _ x c => m ((c : Thread nD τ).loc x)) regJ_inj (entry_local m) (5 : Fin 24) c

theorem outsOf_6 (g : OutFns F) (c : Dev nD) :
    outsOf m g 38 main_v229 c = g.o6 (V37 m (outsOf m g) c) c :=
  stage_spec regJ regR (entryV m) g.at (fun _ x c => m ((c : Thread nD τ).loc x)) regJ_inj (entry_local m) (6 : Fin 24) c

theorem outsOf_7 (g : OutFns F) (c : Dev nD) :
    outsOf m g 40 main_v232 c = g.o7 (V39 m (outsOf m g) c) c :=
  stage_spec regJ regR (entryV m) g.at (fun _ x c => m ((c : Thread nD τ).loc x)) regJ_inj (entry_local m) (7 : Fin 24) c

theorem outsOf_8 (g : OutFns F) (c : Dev nD) :
    outsOf m g 49 main_v298 c = g.o8 (V48 m (outsOf m g) c) c :=
  stage_spec regJ regR (entryV m) g.at (fun _ x c => m ((c : Thread nD τ).loc x)) regJ_inj (entry_local m) (8 : Fin 24) c

theorem outsOf_9 (g : OutFns F) (c : Dev nD) :
    outsOf m g 51 main_v301 c = g.o9 (V50 m (outsOf m g) c) c :=
  stage_spec regJ regR (entryV m) g.at (fun _ x c => m ((c : Thread nD τ).loc x)) regJ_inj (entry_local m) (9 : Fin 24) c

theorem outsOf_10 (g : OutFns F) (c : Dev nD) :
    outsOf m g 60 main_v367 c = g.o10 (V59 m (outsOf m g) c) c :=
  stage_spec regJ regR (entryV m) g.at (fun _ x c => m ((c : Thread nD τ).loc x)) regJ_inj (entry_local m) (10 : Fin 24) c

theorem outsOf_11 (g : OutFns F) (c : Dev nD) :
    outsOf m g 62 main_v370 c = g.o11 (V61 m (outsOf m g) c) c :=
  stage_spec regJ regR (entryV m) g.at (fun _ x c => m ((c : Thread nD τ).loc x)) regJ_inj (entry_local m) (11 : Fin 24) c

theorem outsOf_12 (g : OutFns F) (c : Dev nD) :
    outsOf m g 71 main_v439 c = g.o12 (V70 m (outsOf m g) c) c :=
  stage_spec regJ regR (entryV m) g.at (fun _ x c => m ((c : Thread nD τ).loc x)) regJ_inj (entry_local m) (12 : Fin 24) c

theorem outsOf_13 (g : OutFns F) (c : Dev nD) :
    outsOf m g 73 main_v442 c = g.o13 (V72 m (outsOf m g) c) c :=
  stage_spec regJ regR (entryV m) g.at (fun _ x c => m ((c : Thread nD τ).loc x)) regJ_inj (entry_local m) (13 : Fin 24) c

theorem outsOf_14 (g : OutFns F) (c : Dev nD) :
    outsOf m g 82 main_v508 c = g.o14 (V81 m (outsOf m g) c) c :=
  stage_spec regJ regR (entryV m) g.at (fun _ x c => m ((c : Thread nD τ).loc x)) regJ_inj (entry_local m) (14 : Fin 24) c

theorem outsOf_15 (g : OutFns F) (c : Dev nD) :
    outsOf m g 84 main_v511 c = g.o15 (V83 m (outsOf m g) c) c :=
  stage_spec regJ regR (entryV m) g.at (fun _ x c => m ((c : Thread nD τ).loc x)) regJ_inj (entry_local m) (15 : Fin 24) c

theorem outsOf_16 (g : OutFns F) (c : Dev nD) :
    outsOf m g 93 main_v577 c = g.o16 (V92 m (outsOf m g) c) c :=
  stage_spec regJ regR (entryV m) g.at (fun _ x c => m ((c : Thread nD τ).loc x)) regJ_inj (entry_local m) (16 : Fin 24) c

theorem outsOf_17 (g : OutFns F) (c : Dev nD) :
    outsOf m g 95 main_v580 c = g.o17 (V94 m (outsOf m g) c) c :=
  stage_spec regJ regR (entryV m) g.at (fun _ x c => m ((c : Thread nD τ).loc x)) regJ_inj (entry_local m) (17 : Fin 24) c

theorem outsOf_18 (g : OutFns F) (c : Dev nD) :
    outsOf m g 104 main_v649 c = g.o18 (V103 m (outsOf m g) c) c :=
  stage_spec regJ regR (entryV m) g.at (fun _ x c => m ((c : Thread nD τ).loc x)) regJ_inj (entry_local m) (18 : Fin 24) c

theorem outsOf_19 (g : OutFns F) (c : Dev nD) :
    outsOf m g 106 main_v652 c = g.o19 (V105 m (outsOf m g) c) c :=
  stage_spec regJ regR (entryV m) g.at (fun _ x c => m ((c : Thread nD τ).loc x)) regJ_inj (entry_local m) (19 : Fin 24) c

theorem outsOf_20 (g : OutFns F) (c : Dev nD) :
    outsOf m g 115 main_v718 c = g.o20 (V114 m (outsOf m g) c) c :=
  stage_spec regJ regR (entryV m) g.at (fun _ x c => m ((c : Thread nD τ).loc x)) regJ_inj (entry_local m) (20 : Fin 24) c

theorem outsOf_21 (g : OutFns F) (c : Dev nD) :
    outsOf m g 117 main_v721 c = g.o21 (V116 m (outsOf m g) c) c :=
  stage_spec regJ regR (entryV m) g.at (fun _ x c => m ((c : Thread nD τ).loc x)) regJ_inj (entry_local m) (21 : Fin 24) c

theorem outsOf_22 (g : OutFns F) (c : Dev nD) :
    outsOf m g 126 main_v787 c = g.o22 (V125 m (outsOf m g) c) c :=
  stage_spec regJ regR (entryV m) g.at (fun _ x c => m ((c : Thread nD τ).loc x)) regJ_inj (entry_local m) (22 : Fin 24) c

theorem outsOf_23 (g : OutFns F) (c : Dev nD) :
    outsOf m g 128 main_v790 c = g.o23 (V127 m (outsOf m g) c) c :=
  stage_spec regJ regR (entryV m) g.at (fun _ x c => m ((c : Thread nD τ).loc x)) regJ_inj (entry_local m) (23 : Fin 24) c

end Cert.KernelIdeal.Hand

end
-- ==== Proof.Shared.lean ====
/-
  A kernel region whose INPUT windows share arrays: the entry and exit entailments.

  A pipeline's proof data holds every window's array apart (Dat.arrays), an input window's at the share the data
  names for it, an output window's whole. Between regions a core holds each unscoped BUFFER once, whole
  (unscopedBufs, StableHlo.held). When two input windows read one buffer the two pictures differ by how the
  buffer's full share is dealt among the windows on it. This file says: if, buffer by buffer, the full share is the
  windows' shares put together (Deals), then
    * the buffers behind the windows' arrays, each whole, ARE the proof data's arrays (arrays_eq_arrBufs), at any
      contents read off one valuation of the buffers;
    * at entry the unscoped buffers at V are the arrays at the entry contents and the unscoped rest (entry_shared);
    * at exit the arrays at their final contents and the unscoped rest are the unscoped buffers at any valuation
      that agrees with the final contents on the arrays and with V elsewhere (exit_shared); for one output window
      whose array no other window is on, at V updated at that array (exit_shared_update): the input windows end
      holding what they were entered with (Dat.arrAt_in), so windows on one buffer rejoin.
  The regrouping is a fact about iterated separating conjunction alone (bigSep_fibers): a conjunction over an
  index set is the conjunction, over the values of a map, of the conjunctions over the map's fibres.
-/
import Idealize.ShloMosaic.Lib.Pipeline.Frame
import Idealize.ShloMosaic.Lib.Pipeline.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg arrRef arrBufs unscopedRest WinFacts₀)
open PCS

universe u v w

/-! ## Iterated separating conjunction, fibre by fibre -/

section BigSep

variable {M : Type u} [URA M] {I : Type v} {J : Type w} [DecidableEq I] [DecidableEq J]

/-- Over the values T of a map g, the conjunctions over the fibres of g in s make the conjunction over the
    members of s that g sends into T. -/
theorem bigSep_fibers (s : Finset I) (g : I → J) (T : Finset J) (Φ : I → sProp M) :
    bigSep T (fun j => bigSep (s.filter fun i => g i = j) Φ) = bigSep (s.filter fun i => g i ∈ T) Φ := by
  induction T using Finset.induction_on with
  | empty => simp
  | insert j T hj ih =>
    have hd : Disjoint (s.filter fun i => g i = j) (s.filter fun i => g i ∈ T) :=
      Finset.disjoint_filter.mpr fun i _ h₁ h₂ => hj (h₁ ▸ h₂)
    rw [bigSep_insert hj, ih, ← bigSep_union hd]
    congr 1
    ext i
    simp only [Finset.mem_union, Finset.mem_filter, Finset.mem_insert]
    tauto

/-- The conjunction over s is, over the values g takes on s, the conjunctions over the fibres of g. -/
theorem bigSep_image_fibers (s : Finset I) (g : I → J) (Φ : I → sProp M) :
    bigSep (s.image g) (fun j => bigSep (s.filter fun i => g i = j) Φ) = bigSep s Φ := by
  rw [bigSep_fibers]
  congr 1
  ext i
  simp only [Finset.mem_filter, Finset.mem_image]
  exact ⟨fun h => h.1, fun h => ⟨h, i, h, rfl⟩⟩

end BigSep

/-! ## The shares of the windows on one buffer -/

section Shared

variable {nD : Nat} {τ : Topo} {sig : RefSig} {Val : EltTy → Type}
variable {Ix : Type} [DecidableEq Ix] {Name : Type} [DecidableEq Name] {U : Type} [URA U] {Lvl : Type}
variable {Λ₀ : Labels} {cfg : Cfg sig Λ₀} {c : Dev nD}

local notation "𝕄" => MT nD τ sig Ix Val Name U Lvl

variable (nD τ sig Val Ix Name U Lvl) in
/-- Holding a location whole is holding it once per member of s, member i at the share σ i: the shares
    σ i, i in s, put together are the full share. -/
def DealsOn {I : Type} (s : Finset I) (σ : I → PosShare TreeShare) : Prop :=
  ∀ (ℓ : Loc nD τ sig) (f : Buf Val ℓ), ((ℓ ↦{fullShare} f : sProp 𝕄)) = bigSep s fun i => (ℓ ↦{σ i} f : sProp 𝕄)

/-- One holder, at the full share. -/
theorem DealsOn.one {I : Type} {s : Finset I} {σ : I → PosShare TreeShare} (i : I) (hs : s = {i}) (hσ : σ i = fullShare) :
    DealsOn nD τ sig Val Ix Name U Lvl s σ := fun ℓ f => by
  rw [hs, bigSep_singleton, hσ]

/-- Two holders whose shares compose to the full share. -/
theorem DealsOn.two {I : Type} [DecidableEq I] {s : Finset I} {σ : I → PosShare TreeShare} (i j : I) (hij : i ≠ j) (hs : s = {i, j})
    (hσ : fullShare ∈ σ i ·? σ j) :
    DealsOn nD τ sig Val Ix Name U Lvl s σ := fun ℓ f => by
  rw [hs, bigSep_insert (by simpa using hij), bigSep_singleton]
  exact BI.equiv_iff.mp ⟨(pointsTo_share hσ).1, (pointsTo_share hσ).2⟩

variable (dat : Dat τ Val Ix Name U Lvl cfg c)

/-- Buffer by buffer, the windows on it hold it whole between them: the proof data's shares of the windows whose
    array is the buffer of window w put together are the full share. An output window alone on its buffer holds it
    whole (DealsOn.one); two input windows on one buffer hold complementary shares (DealsOn.two). -/
def Deals : Prop :=
  ∀ w : Fin cfg.W, DealsOn nD τ sig Val Ix Name U Lvl
    (Finset.univ.filter fun w' : Fin cfg.W => arrRef cfg.spec w' = arrRef cfg.spec w) dat.share

/-- THE ARRAYS, SHARED OR NOT: the proof data's arrays at contents read off a valuation V of the buffers are the
    distinct buffers behind them, each whole at V. -/
theorem arrays_eq_arrBufs (harr : ∀ w, (cfg.spec w).arr.IsWhole) (hd : Deals dat)
    (V : (b : Ref sig .tc) → Buf Val ((c.tc : Thread nD τ).loc b))
    (F : (w : Fin cfg.W) → Buf Val ((cfg.win w).arr.view.loc (c.tc : Thread nD τ)))
    (hF : ∀ w, F w = V (arrRef cfg.spec w)) :
    dat.arrays F = (arrBufs cfg.spec c V : sProp 𝕄) := by
  classical
  unfold Dat.arrays arrBufs
  have h1 : (bigSep Finset.univ fun w : Fin cfg.W =>
        ((cfg.win w).arr.view.loc (c.tc : Thread nD τ) ↦[(cfg.win w).arr.view.set]{dat.share w} F w : sProp 𝕄))
      = bigSep Finset.univ fun w : Fin cfg.W =>
        (((c.tc : Thread nD τ).loc (arrRef cfg.spec w)) ↦{dat.share w} V (arrRef cfg.spec w) : sProp 𝕄) :=
    bigSep_congr fun w _ => by rw [(harr w).set_eq_univ, hF]
  rw [h1, ← bigSep_image_fibers Finset.univ (arrRef cfg.spec)]
  refine bigSep_congr fun b hb => ?_
  obtain ⟨w₀, -, rfl⟩ := Finset.mem_image.mp hb
  rw [hd w₀ _ (V (arrRef cfg.spec w₀))]
  refine bigSep_congr fun w hw => ?_
  have hw' : arrRef cfg.spec w = arrRef cfg.spec w₀ := (Finset.mem_filter.mp hw).2
  rw [hw']

/-! ## Entry and exit against the unscoped buffers held whole -/

/-- ENTRY: a core's unscoped buffers at V are the windows' arrays at the proof data's entry contents (those being
    read off V) and the unscoped rest. -/
theorem entry_shared (hw : WinFacts₀ cfg.spec) (harr : ∀ w, (cfg.spec w).arr.IsWhole) (hd : Deals dat)
    (V : (b : Ref sig .tc) → Buf Val ((c.tc : Thread nD τ).loc b)) (hA : ∀ w, dat.A w = V (arrRef cfg.spec w)) :
    (unscopedBufs c V : sProp 𝕄) = iprop(dat.arrays (dat.arrAt · 0) ∗ unscopedRest cfg.spec c V) := by
  rw [arrays_eq_arrBufs dat harr hd V (dat.arrAt · 0) hA]
  exact Pipeline.PerCore.unscopedBufs_split₀ (P := PUnit) (fun _ _ => cfg) PUnit.unit c hw.arr_unscoped V

/-- EXIT: the arrays at their final contents and the unscoped rest at V are the core's unscoped buffers at any
    valuation V' that has the arrays at those contents and agrees with V off them. -/
theorem exit_shared (hw : WinFacts₀ cfg.spec) (harr : ∀ w, (cfg.spec w).arr.IsWhole) (hd : Deals dat)
    (V V' : (b : Ref sig .tc) → Buf Val ((c.tc : Thread nD τ).loc b))
    (hN : ∀ w, dat.arrAt w cfg.N = V' (arrRef cfg.spec w))
    (hrest : ∀ b, b ∉ Finset.univ.image (arrRef cfg.spec) → V' b = V b) :
    iprop(dat.arrays (dat.arrAt · cfg.N) ∗ unscopedRest cfg.spec c V) = (unscopedBufs c V' : sProp 𝕄) := by
  have h1 := arrays_eq_arrBufs dat harr hd V' (dat.arrAt · cfg.N) hN
  have h2 : (unscopedRest cfg.spec c V : sProp 𝕄) = unscopedRest cfg.spec c V' := by
    unfold unscopedRest
    exact bigSep_congr fun b hb => by rw [hrest b (Finset.mem_sdiff.mp hb).2]
  rw [h1, h2]
  exact (Pipeline.PerCore.unscopedBufs_split₀ (P := PUnit) (fun _ _ => cfg) PUnit.unit c hw.arr_unscoped V').symm

/-- With one output window o, alone on its buffer, and every other window an input: the final contents are a
    valuation's that is V but for the output buffer, which holds what the write-backs left. Input windows end
    holding what they were entered with, so the windows on one buffer agree. -/
theorem arrAt_last_update (W : Valuation τ sig Val) (hA : ∀ w, dat.A w = W (Proc.devRef .tc (arrRef cfg.spec w)))
    (o : Fin cfg.W) (hin : ∀ w, w ≠ o → (cfg.win w).isOut = false)
    (hne : ∀ w, w ≠ o → arrRef cfg.spec w ≠ arrRef cfg.spec o) (w : Fin cfg.W) :
    dat.arrAt w cfg.N = Function.update W (Proc.devRef .tc (arrRef cfg.spec o)) (dat.arrAt o cfg.N) (Proc.devRef .tc (arrRef cfg.spec w)) := by
  by_cases h : w = o
  · subst h; rw [Function.update_self]
  · rw [Function.update_of_ne (fun e => hne w h (Proc.devRef_injective _ e)), dat.arrAt_in w (hin w h), hA]

/-- ENTRY, from the buffers held at a valuation. -/
theorem held_entry_shared (hw : WinFacts₀ cfg.spec) (harr : ∀ w, (cfg.spec w).arr.IsWhole) (hd : Deals dat)
    (W : Valuation τ sig Val) (hA : ∀ w, dat.A w = W (Proc.devRef .tc (arrRef cfg.spec w))) :
    (StableHlo.held (c.tc : Thread nD τ) (Pipeline.ucRefs τ sig) W : sProp 𝕄)
      = iprop(dat.arrays (dat.arrAt · 0) ∗ unscopedRest cfg.spec c (fun b => W b)) := by
  rw [← Pipeline.unscopedBufs_held (Ix := Ix) (Name := Name) (U := U) (Lvl := Lvl) c W]
  exact entry_shared dat hw harr hd (fun b => W b) hA

/-- EXIT, to the buffers held at the valuation updated at the one output window's buffer. -/
theorem held_exit_shared (hw : WinFacts₀ cfg.spec) (harr : ∀ w, (cfg.spec w).arr.IsWhole) (hd : Deals dat)
    (W : Valuation τ sig Val) (hA : ∀ w, dat.A w = W (Proc.devRef .tc (arrRef cfg.spec w)))
    (o : Fin cfg.W) (hin : ∀ w, w ≠ o → (cfg.win w).isOut = false)
    (hne : ∀ w, w ≠ o → arrRef cfg.spec w ≠ arrRef cfg.spec o) :
    iprop(dat.arrays (dat.arrAt · cfg.N) ∗ unscopedRest cfg.spec c (fun b => W b))
      = (StableHlo.held (c.tc : Thread nD τ) (Pipeline.ucRefs τ sig)
          (Function.update W (Proc.devRef .tc (arrRef cfg.spec o)) (dat.arrAt o cfg.N)) : sProp 𝕄) := by
  rw [← Pipeline.unscopedBufs_held (Ix := Ix) (Name := Name) (U := U) (Lvl := Lvl) c
    (Function.update W (Proc.devRef .tc (arrRef cfg.spec o)) (dat.arrAt o cfg.N))]
  refine exit_shared dat hw harr hd (fun b => W b) _ (arrAt_last_update dat W hA o hin hne) fun b hb => ?_
  exact Function.update_of_ne (fun e => hb (Finset.mem_image.mpr ⟨o, Finset.mem_univ _, (Proc.devRef_injective _ e).symm⟩)) _ _

/-! ## What rides along between regions, and a region's entry and exit in the segment record's shape -/

variable [Preorder Lvl]

/-- Beside its unscoped buffers a core holds, between two items of the host program, its generator register at some
    state and that it owes nothing (whatever its waits have recorded): the same before and after every region. -/
abbrev R (c : Dev nD) : sProp 𝕄 :=
  iprop((∃ r, prngReg c r) ∗ ∃ W, owes (c.tc : Thread nD τ) (0 : CellTallies nD τ sig Ix) W)

/-- ENTRY of a region that owes nothing, has no semaphore and no table of its own, and takes nothing but scoped
    buffers into its invariant: from the buffers held at W beside R c (and anything else, T, let go) to the arrays at
    entry, Pf (what stands for the tables: nothing), the core owing nothing, nothing for the invariant, and what
    bypasses the region: the unscoped rest and the generator register. -/
theorem hentry_shared (hw : WinFacts₀ cfg.spec) (harr : ∀ w, (cfg.spec w).arr.IsWhole) (hd : Deals dat)
    (W : Valuation τ sig Val) (hA : ∀ w, dat.A w = W (Proc.devRef .tc (arrRef cfg.spec w)))
    (ι : Ix) (howed : dat.owed 0 = 0) (hrec : dat.recorded 0 = Set.univ)
    {Pf T : sProp 𝕄} (hPf : (emp : sProp 𝕄) ⊢ Pf) :
    iprop((StableHlo.held (c.tc : Thread nD τ) (Pipeline.ucRefs τ sig) W ∗ R c) ∗ T)
      ⊢ |={Set.univ}=> iprop(dat.arrays (dat.arrAt · 0) ∗ Pf ∗ dat.owesAt ι 0 ∗ (emp : sProp 𝕄)
          ∗ (unscopedRest cfg.spec c (fun b => W b) ∗ ∃ r, prngReg c r)) := by
  rw [held_entry_shared dat hw harr hd W hA]
  unfold Pipeline.Dat.owesAt Pipeline.owesWithin
  rw [howed]
  iintro ⟨⟨⟨Ha, Hrest⟩, Hp, HO⟩, -⟩
  imodintro
  isplitl [Ha]; · iexact Ha
  isplitr; · iapply hPf; iempintro
  isplitl [HO]
  · icases HO with ⟨%S, HO⟩
    iexists S
    isplitr
    · ipureintro; unfold Pipeline.Dat.bound; rw [hrec]; exact fun _ _ => Or.inl trivial
    · iexact HO
  isplitr; · iempintro
  isplitl [Hrest]; · iexact Hrest
  iexact Hp

/-- EXIT of such a region with one output window o, alone on its buffer: the arrays at their final contents, the
    core owing nothing, whatever the invariant gave back (Y, let go) and what bypassed the region make the buffers
    held at W updated at the output buffer, beside R c. -/
theorem hexit_shared (hw : WinFacts₀ cfg.spec) (harr : ∀ w, (cfg.spec w).arr.IsWhole) (hd : Deals dat)
    (W : Valuation τ sig Val) (hA : ∀ w, dat.A w = W (Proc.devRef .tc (arrRef cfg.spec w)))
    (o : Fin cfg.W) (hin : ∀ w, w ≠ o → (cfg.win w).isOut = false)
    (hne : ∀ w, w ≠ o → arrRef cfg.spec w ≠ arrRef cfg.spec o)
    (ι : Ix) (howed : dat.owed (Fin.last cfg.N) = 0) {Y : sProp 𝕄} :
    iprop(dat.arrays (dat.arrAt · cfg.N) ∗ dat.owesAt ι (Fin.last cfg.N) ∗ Y
        ∗ (unscopedRest cfg.spec c (fun b => W b) ∗ ∃ r, prngReg c r))
      ⊢ |={Set.univ}=> iprop(StableHlo.held (c.tc : Thread nD τ) (Pipeline.ucRefs τ sig)
          (Function.update W (Proc.devRef .tc (arrRef cfg.spec o)) (dat.arrAt o cfg.N)) ∗ R c) := by
  rw [← held_exit_shared dat hw harr hd W hA o hin hne]
  unfold Pipeline.Dat.owesAt Pipeline.owesWithin
  rw [howed]
  iintro ⟨Ha, HO, -, Hrest, Hp⟩
  imodintro
  isplitl [Ha Hrest]
  · isplitl [Ha]; · iexact Ha
    iexact Hrest
  isplitl [Hp]; · iexact Hp
  icases HO with ⟨%S, -, HO⟩; iexists S; iexact HO

end Shared

end Cert.KernelIdeal.Hand
-- ==== Proof.LaunchArgs.lean ====
/-
  The launch-side arguments of the conditional frame at the instantiation every module of this certificate uses: one
  copy of the rounds algebra as the user algebra, no index and no level to speak of (the regions owe nothing), no ghost
  resource beside the pipelines' launch element, nothing owed at launch, and between any two items of the host program
  the constant rest R c (Shared.lean) beside the unscoped buffers.
-/
import proofs.«169706_j68856915690108_1_alg».proof.Proof.RegionsKI
import proofs.«169706_j68856915690108_1_alg».proof.Proof.Shared
import Idealize.ShloMosaic.Lib.Pipeline.Kit

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The pipelines' rounds copy is the whole user algebra. -/
noncomputable abbrev EP₀ : Emb (URounds (GSem nD τ sig) Unit) 𝕄 := emb₁

/-- No cell is assigned a level: the regions owe nothing, so no wait needs one. -/
abbrev L₀ : GSem nD τ sig → Finset Unit := fun _ => ∅
abbrev lv₀ : GSem nD τ sig → Unit → ℕ := fun _ _ => 0
theorem hL₀ : ∀ g : GSem nD τ sig, g.1.2 ≠ .tc → L₀ g = ∅ := fun _ _ => rfl

/-- The kernels' bodies have no loop of their own to bound. -/
abbrev 𝒱₀₀ : Variants := Variants.none

/-- Nothing is owed at launch, and no ghost resource rides beside the pipelines' launch element. -/
abbrev O₀ : Dev nD → CellTallies nD τ sig Unit := 0
noncomputable abbrev G₀ : Dev nD → sProp 𝕄 := fun _ => iprop(emp)

/-- The launch element: the pipelines' cells, each with its launch tokens. -/
noncomputable abbrev u₀ : UR sig nD τ := initOf (Pipeline.cells cfgs cellOf_inj) (Pipeline.launchToks cfgs cellOf_inj)

/-- Owning it is owning it through the embedding, beside no ghost resource on any core. -/
theorem hu₀ : (ownU (u₀) : sProp 𝕄)
    ⊢ |={Set.univ}=> iprop(BI.own ((EP₀ (F := F)) (initOf (Pipeline.cells cfgs cellOf_inj) (Pipeline.launchToks cfgs cellOf_inj)))
        ∗ bigSep Finset.univ (G₀ (F := F))) := by
  iintro Hu; imodintro
  isplitl [Hu]
  · iapply (show (ownU (initOf (Pipeline.cells cfgs cellOf_inj) (Pipeline.launchToks cfgs cellOf_inj)) : sProp 𝕄)
        ⊢ BI.own ((emb₁ : Emb (URounds (GSem nD τ sig) Unit) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Between any two items of the host program: the constant rest. -/
noncomputable abbrev E₀ : Fin 25 → Dev nD → sProp 𝕄 := fun _ c => R c

/-- The launch makes the first thread states on every core at once: each core keeps its generator register and that it
    owes nothing, and lets the rest of what it is dealt go. -/
theorem hE0 (ρ : Dev nD → PrngReg) :
    iprop((bigSep Finset.univ fun c : Dev nD => iprop(unscopedSems0 c ∗ owes (c : Thread nD τ) (O₀ c) ∅ ∗ Pipeline.launchCred O₀ c
        ∗ prngReg c (ρ c) ∗ (G₀ (F := F)) c)) ∗ levAts L₀ lv₀)
      ⊢ (|={Set.univ}=> bigSep Finset.univ ((E₀ (F := F)) 0) : sProp 𝕄) := by
  refine Pipeline.initEach L₀ lv₀ fun c => ?_
  iintro ⟨⟨-, HO, -, Hp, -⟩, -⟩
  imodintro
  isplitl [Hp]; · iexists _; iexact Hp
  iexists ∅; iexact HO

/-- The last thread state owes nothing. -/
theorem hE24 (c : Dev nD) :
    (E₀ (F := F)) 24 c ⊢ (iprop(∃ W, owes (c : Thread nD τ) (0 : CellTallies nD τ sig Unit) W) : sProp 𝕄) := by
  iintro ⟨-, HO⟩
  iexact HO

end Cert.KernelIdeal.Hand
-- ==== Proof.SumLib.lean ====
/-
  Loads and stores through all of a buffer: the unit rectangle of the buffer's own sizes at zero offsets.
  A load through it reads what the buffer's view reads; a store through it, whatever was stored before, leaves its
  payload; a load after such a store reads that payload.
-/
import Idealize.ShloMosaic.Lib.Pipeline.Value

noncomputable section

namespace Cert.KernelIdeal.Hand

open Idealize.ShloMosaic

/-! ## Whole-buffer accesses -/

/-- The zero offsets, as the program writes them. -/
theorem zeros2 : (![0, 0] : Fin 2 → ℕ) = fun _ => 0 := by
  funext a
  match a with
  | ⟨0, _⟩ => rfl
  | ⟨1, _⟩ => rfl

section Whole

variable {Val : EltTy → Type} [∀ e, Nonempty (Val e)] {sg : RefSig} {κ : Kind} {sp : Space} {S : Shape} {e : EltTy}

/-- A load through all of a view (the unit rectangle of the view's own sizes at zero offsets) reads what the view reads. -/
theorem readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]

/-- A store through all of it, the last of a run of stores over any contents, reads back as its payload. -/
theorem read_writes_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨(⟨Rect.unit off S.size inb, w⟩ : View.Piece Val S e), List.mem_cons_self, View.mem_set_unit_zero h inb y⟩),
    View.canon_cons_unit_zero h inb w L]

/-- A load through all of it after such a store reads the payload. -/
theorem readCov_whole (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨(⟨Rect.unit off S.size inb, w⟩ : View.Piece Val S e), List.mem_cons_self, View.mem_set_unit_zero h inb y⟩),
    View.canon_cons_unit_zero h inb w L, View.ld_unit_zero h inb]

end Whole

end Cert.KernelIdeal.Hand

end
-- ==== Proof.Rg0.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.SumLib
import Idealize.ShloMosaic.Lib.Tactic
import proofs.«169706_j68856915690108_1_alg».proof.Proof.Shared
import proofs.«169706_j68856915690108_1_alg».proof.Proof.RegionsKI

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k0_pay2)

  and only at the last point, 63, is that cell copied into the 1 × 1 output block, which the pipeline then writes back.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk0 (V : Valuation τ sig (Elt F)) (c : Dev nD) (w : Fin cfg0.W) (t : Fin cfg0.N) :
    ((cfg0.win w).xblock (cfg0.grid.coords t)).Idx → Elt F (cfg0.win w).elt :=
  ((cfg0.win w).blk t).view.read (Elt F)
    (V (Proc.devRef .tc (Pipeline.arrRef spec0 w)) : Buf (Elt F) ((cfg0.win w).arr.view.loc (c.tc : Thread nD τ)))

/-- One point's step on the scratch cell: the cell's contents `a` plus the sum of the tile made of the two blocks
    the point stages (the printed payload of the store into the scratch cell). -/
noncomputable def step0 (V : Valuation τ sig (Elt F)) (c : Dev nD) (n : ℕ) (hn : n < cfg0.N) (a : Vec F S1x1 .f32) : Vec F S1x1 .f32 :=
  k0_pay2 (iblk0 V c 0 ⟨n, hn⟩) (iblk0 V c 1 ⟨n, hn⟩) a

/-- What the scratch cell holds after point `n`: the steps of the points `0 … n` applied, first to last, to the
    zero the body stores at point 0. -/
noncomputable def acc0 (V : Valuation τ sig (Elt F)) (c : Dev nD) : (n : ℕ) → n < cfg0.N → Vec F S1x1 .f32
  | 0, hn => step0 V c 0 hn (k0_pay1 (F := F))
  | n + 1, hn => step0 V c (n + 1) hn (acc0 V c n (Nat.lt_of_succ_lt hn))

theorem acc0_zero (V : Valuation τ sig (Elt F)) (c : Dev nD) (hn : 0 < cfg0.N) :
    acc0 V c 0 hn = step0 V c 0 hn (k0_pay1 (F := F)) := rfl

theorem acc0_succ (V : Valuation τ sig (Elt F)) (c : Dev nD) (n : ℕ) (hn : n + 1 < cfg0.N) :
    acc0 V c (n + 1) hn = step0 V c (n + 1) hn (acc0 V c n (Nat.lt_of_succ_lt hn)) := rfl

/-- After a point that is not the first: the step of that point on what the point before left. -/
theorem acc0_pos (V : Valuation τ sig (Elt F)) (c : Dev nD) (n : ℕ) (hn : n < cfg0.N) (hz : n ≠ 0) :
    acc0 V c n hn = step0 V c n hn (acc0 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi0 (V : Valuation τ sig (Elt F)) (c : Dev nD) : (n : ℕ) → n ≤ cfg0.N → sProp 𝕄
  | 0, _ => Pipeline.scopedRest (Ix := Ix) (Name := ℕ) (U := U) (Lvl := Lvl) (Val := Elt F) spec0 c
  | n + 1, hn => iprop(owns (c : Thread nD τ) (Memref.whole cc0_scratch0) fullShare (acc0 V c n hn)
      ∗ Pipeline.scopedRestBut (Ix := Ix) (Name := ℕ) (U := U) (Lvl := Lvl) (Val := Elt F) spec0 c [cc0_scratch0])

theorem Phi0_zero (V : Valuation τ sig (Elt F)) (c : Dev nD) (n : ℕ) (h : n ≤ cfg0.N) (hz : n = 0) :
    (Phi0 V c n h : sProp 𝕄) = Pipeline.scopedRest (Ix := Ix) (Name := ℕ) (U := U) (Lvl := Lvl) (Val := Elt F) spec0 c := by
  subst hz; rfl

theorem Phi0_succ (V : Valuation τ sig (Elt F)) (c : Dev nD) (n : ℕ) (hn : n < cfg0.N) :
    (Phi0 V c (n + 1) hn : sProp 𝕄) = iprop(owns (c : Thread nD τ) (Memref.whole cc0_scratch0) fullShare (acc0 V c n hn)
      ∗ Pipeline.scopedRestBut (Ix := Ix) (Name := ℕ) (U := U) (Lvl := Lvl) (Val := Elt F) spec0 c [cc0_scratch0]) := rfl

theorem Phi0_pos (V : Valuation τ sig (Elt F)) (c : Dev nD) (n : ℕ) (h : n ≤ cfg0.N) (hz : n ≠ 0) :
    (Phi0 V c n h : sProp 𝕄) = iprop(owns (c : Thread nD τ) (Memref.whole cc0_scratch0) fullShare (acc0 V c (n - 1) (by omega))
      ∗ Pipeline.scopedRestBut (Ix := Ix) (Name := ℕ) (U := U) (Lvl := Lvl) (Val := Elt F) spec0 c [cc0_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi0`; the one
    array the two inputs read held half and half; nothing owed. -/
noncomputable def dat0 (V : Valuation τ sig (Elt F)) (c : Dev nD) : Dat τ (Elt F) Ix ℕ U Lvl cfg0 c where
  A w := V (Proc.devRef .tc (Pipeline.arrRef spec0 w))
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq0 (V : Valuation τ sig (Elt F)) (c : Dev nD) (w : Fin cfg0.W) :
    (dat0 (Ix := Ix) (U := U) (Lvl := Lvl) V c).A w = V (Proc.devRef .tc (Pipeline.arrRef spec0 w)) := by
  dsimp only [dat0]

/-- What the body leaves, window by window. -/
theorem after0_0 (V : Valuation τ sig (Elt F)) (c : Dev nD) (t : Fin cfg0.N) :
    (dat0 (Ix := Ix) (U := U) (Lvl := Lvl) V c).after 0 t = iblk0 V c 0 t := by dsimp only [dat0]
theorem after0_1 (V : Valuation τ sig (Elt F)) (c : Dev nD) (t : Fin cfg0.N) :
    (dat0 (Ix := Ix) (U := U) (Lvl := Lvl) V c).after 1 t = iblk0 V c 1 t := by dsimp only [dat0]
theorem after0_2 (V : Valuation τ sig (Elt F)) (c : Dev nD) (t : Fin cfg0.N) :
    (dat0 (Ix := Ix) (U := U) (Lvl := Lvl) V c).after 2 t = acc0 V c t.val t.isLt := by dsimp only [dat0]

/-- The invariant at a point's start, and at its end. -/
theorem Phi0_castSucc (V : Valuation τ sig (Elt F)) (c : Dev nD) (t : Fin cfg0.N) :
    (dat0 (Ix := Ix) (U := U) (Lvl := Lvl) V c).Φ t.castSucc = Phi0 V c t.val (Nat.le_of_lt t.isLt) := by
  dsimp only [dat0]; simp only [Fin.coe_castSucc]

theorem Phi0_at_succ (V : Valuation τ sig (Elt F)) (c : Dev nD) (t : Fin cfg0.N) :
    (dat0 (Ix := Ix) (U := U) (Lvl := Lvl) V c).Φ t.succ = Phi0 V c (t.val + 1) t.isLt := rfl

/-- Before the first point the invariant is the launch's scoped rest. -/
theorem Phi_first0 (V : Valuation τ sig (Elt F)) (c : Dev nD) :
    (dat0 (Ix := Ix) (U := U) (Lvl := Lvl) V c).Φ 0
      = Pipeline.scopedRest (Ix := Ix) (Name := ℕ) (U := U) (Lvl := Lvl) (Val := Elt F) spec0 c := rfl

/-- After the last point the invariant gives the scoped rest back: the scratch cell's contents are forgotten. -/
theorem Phi_last0 (V : Valuation τ sig (Elt F)) (c : Dev nD) :
    (dat0 (Ix := Ix) (U := U) (Lvl := Lvl) V c).Φ (Fin.last cfg0.N)
      ⊢ Pipeline.scopedRest (Ix := Ix) (Name := ℕ) (U := U) (Lvl := Lvl) (Val := Elt F) spec0 c := by
  have hN : cfg0.N = 64 := N_0
  rw [show (dat0 (Ix := Ix) (U := U) (Lvl := Lvl) V c).Φ (Fin.last cfg0.N) = Phi0 V c (Fin.last cfg0.N).val (Nat.le_of_lt_succ (Fin.last cfg0.N).isLt) from rfl,
    Phi0_pos V c _ _ (by rw [Fin.val_last]; omega), scopedRest0_split, owns_whole]
  iintro ⟨Hs, Hr⟩
  isplitl [Hs]
  · iexists _; iexact Hs
  iexact Hr

example (V : Valuation τ sig (Elt F)) (c : Dev nD) : Dat τ (Elt F) Ix ℕ U Lvl (cfgs 0) c := dat0 V c

end Cert.KernelIdeal.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k0_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond0_1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond0_2 (i : grid0.Coords) : Prop := k0_cond2 i = 1#1

/-- The reset runs at the first point only, -/
theorem hcond0_1 : ∀ t : Fin cfg0.N, cond0_1 (grid0.coords t) ↔ t.val = 0 :=
  (by decide +kernel : ∀ t : Fin grid0.N, cond0_1 (grid0.coords t) ↔ t.val = 0)
/-- the copy at the last point only. -/
theorem hcond0_2 : ∀ t : Fin cfg0.N, cond0_2 (grid0.coords t) ↔ t.val = 63 :=
  (by decide +kernel : ∀ t : Fin grid0.N, cond0_2 (grid0.coords t) ↔ t.val = 63)

/-! ## The body, case by case, on any whole memrefs -/

/-- The first point: the scratch cell, at anything, is reset and then holds the first step on zero. -/
theorem run0_A (𝒱₀ : Variants) (c : Dev nD) (i : grid0.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond0_1 i) (hc2 : ¬cond0_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k0_pay2 x2 x3 (k0_pay1 (F := F)))) -∗ K ⟨⟩))
      ⊢ wp frame (wpE (defs₀ (F := F)) 𝒱₀ c none) E (cc0__sum_kernel i arg2 harg2 arg3 harg3 arg4 harg4 arg5 harg5) K := by
  simp only [cc0__sum_kernel_eq_skeleton]; unfold cc0__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run0_A.sl.v15 run0_A.sl.H5_1
  rw [readCov_whole _ zeros2, readAt_whole _ _ zeros2, readAt_whole _ _ zeros2]

/-- A point strictly between the first and the last: the scratch cell at `a` takes the point's step. -/
theorem run0_B (𝒱₀ : Variants) (c : Dev nD) (i : grid0.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond0_1 i) (hc2 : ¬cond0_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k0_pay2 x2 x3 a)) -∗ K ⟨⟩))
      ⊢ wp frame (wpE (defs₀ (F := F)) 𝒱₀ c none) E (cc0__sum_kernel i arg2 harg2 arg3 harg3 arg4 harg4 arg5 harg5) K := by
  simp only [cc0__sum_kernel_eq_skeleton]; unfold cc0__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run0_C (𝒱₀ : Variants) (c : Dev nD) (i : grid0.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond0_1 i) (hc2 : cond0_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k0_pay2 x2 x3 a) ∗ owns (c : Thread nD τ) arg5 fullShare (k0_pay2 x2 x3 a)) -∗ K ⟨⟩))
      ⊢ wp frame (wpE (defs₀ (F := F)) 𝒱₀ c none) E (cc0__sum_kernel i arg2 harg2 arg3 harg3 arg4 harg4 arg5 harg5) K := by
  simp only [cc0__sum_kernel_eq_skeleton]; unfold cc0__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run0_C.sl.v25 run0_C.sl.H5_1
    rw [readCov_whole _ zeros2, readAt_whole _ _ zeros2, readAt_whole _ _ zeros2, readAt_whole _ _ zeros2]
  iexists _; isplitr
  swap; · iexact H5
  ipureintro
  unfold run0_C.sl.H5_1
  rw [read_writes_whole _ _ zeros2, readAt_whole _ _ zeros2, readAt_whole _ _ zeros2, readAt_whole _ _ zeros2]

end Cert.KernelIdeal.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle0_2 : ∀ t : Fin cfg0.N, cfg0.idle 2 (grid0.coords t) = true ↔ t.val ≠ 63 :=
  (by decide +kernel : ∀ t : Fin grid0.N, idle0 2 (grid0.coords t) = true ↔ t.val ≠ 63)
/-- and written back at the last point only. -/
theorem flush0_2' : ∀ t : Fin cfg0.N, (cfg0.win 2).flush t = true ↔ t.val = 63 :=
  (by decide +kernel : ∀ t : Fin grid0.N, win0_2.flush t = true ↔ t.val = 63)

/-! ## What the body finds in the inputs' buffers -/

/-- Each input's current staging buffer holds its block at every point, fetched there or not: unfetched, the block
    index has not moved and the body left the block in place. -/
theorem before0_0 (V : Valuation τ sig (Elt F)) (c : Dev nD) (t : Fin cfg0.N) (d) :
    (dat0 (Ix := Ix) (U := U) (Lvl := Lvl) V c).before 0 t d = iblk0 V c 0 t :=
  ((dat0 (Ix := Ix) (U := U) (Lvl := Lvl) V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (V : Valuation τ sig (Elt F)) (c : Dev nD) (t : Fin cfg0.N) (d) :
    (dat0 (Ix := Ix) (U := U) (Lvl := Lvl) V c).before 1 t d = iblk0 V c 1 t :=
  ((dat0 (Ix := Ix) (U := U) (Lvl := Lvl) V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## What the obligation asks of each window's buffer after the body -/

/-- The inputs are never idle: their buffers are handed back at their blocks. -/
theorem leaves0_0 (V : Valuation τ sig (Elt F)) (c : Dev nD) (t : Fin cfg0.N) :
    (dat0 (Ix := Ix) (U := U) (Lvl := Lvl) V c).leaves 0 t = owns (c : Thread nD τ) (st0_0 t) fullShare (iblk0 V c 0 t) := by
  rw [← after0_0 (Ix := Ix) (U := U) (Lvl := Lvl) V c t]

theorem leaves0_1 (V : Valuation τ sig (Elt F)) (c : Dev nD) (t : Fin cfg0.N) :
    (dat0 (Ix := Ix) (U := U) (Lvl := Lvl) V c).leaves 1 t = owns (c : Thread nD τ) (st0_1 t) fullShare (iblk0 V c 1 t) := by
  rw [← after0_1 (Ix := Ix) (U := U) (Lvl := Lvl) V c t]

/-- The output is idle, and not written back, at every point but the last: its buffer is handed back as found; -/
theorem leaves0_2_idle (V : Valuation τ sig (Elt F)) (c : Dev nD) (t : Fin cfg0.N) (h : t.val ≠ 63) :
    (dat0 (Ix := Ix) (U := U) (Lvl := Lvl) V c).leaves 2 t
      = iprop(∃ d, owns (c : Thread nD τ) (st0_2 t) fullShare ((dat0 (Ix := Ix) (U := U) (Lvl := Lvl) V c).before 2 t d)) :=
  (dat0 (Ix := Ix) (U := U) (Lvl := Lvl) V c).leaves_idle 2 t ((idle0_2 t).mpr h)
    (Bool.eq_false_iff.mpr fun hf => h ((flush0_2' t).mp hf))

/-- at the last point it is handed back at the accumulated sum. -/
theorem leaves0_2_last (V : Valuation τ sig (Elt F)) (c : Dev nD) (t : Fin cfg0.N) (h : t.val = 63) :
    (dat0 (Ix := Ix) (U := U) (Lvl := Lvl) V c).leaves 2 t = owns (c : Thread nD τ) (st0_2 t) fullShare (acc0 V c t.val t.isLt) := by
  have hl : cfg0.idle 2 (grid0.coords t) = false := by
    cases hi : cfg0.idle 2 (grid0.coords t) with
    | false => rfl
    | true => exact absurd h ((idle0_2 t).mp hi)
  rw [← after0_2 (Ix := Ix) (U := U) (Lvl := Lvl) V c t]
  unfold Dat.leaves; rw [hl]

/-- One step at a point, through the point itself. -/
theorem step0_at (V : Valuation τ sig (Elt F)) (c : Dev nD) (t : Fin cfg0.N) (a : Vec F S1x1 .f32) :
    step0 V c t.val t.isLt a = k0_pay2 (iblk0 V c 0 t) (iblk0 V c 1 t) a := rfl

theorem acc0_first (V : Valuation τ sig (Elt F)) (c : Dev nD) (n : ℕ) (hn : n < cfg0.N) (hz : n = 0) :
    acc0 V c n hn = step0 V c n hn (k0_pay1 (F := F)) := by
  subst hz; rfl

/-! ## The body obligation -/

/-- What the body is called with at point `t` (the obligation's precondition, the windows one by one), -/
noncomputable def bodyPre0 (V : Valuation τ sig (Elt F)) (ι : Ix) (c : Dev nD) (t : Fin cfg0.N) : sProp 𝕄 :=
  iprop((dat0 (Ix := Ix) (U := U) (Lvl := Lvl) V c).Φ t.castSucc ∗ (dat0 (Ix := Ix) (U := U) (Lvl := Lvl) V c).owesAt ι t.castSucc
    ∗ (∃ d, owns (c : Thread nD τ) (st0_0 t) fullShare ((dat0 (Ix := Ix) (U := U) (Lvl := Lvl) V c).before 0 t d))
    ∗ (∃ d, owns (c : Thread nD τ) (st0_1 t) fullShare ((dat0 (Ix := Ix) (U := U) (Lvl := Lvl) V c).before 1 t d))
    ∗ (∃ d, owns (c : Thread nD τ) (st0_2 t) fullShare ((dat0 (Ix := Ix) (U := U) (Lvl := Lvl) V c).before 2 t d)))

/-- and what it returns. -/
noncomputable def bodyPost0 (V : Valuation τ sig (Elt F)) (ι : Ix) (c : Dev nD) (t : Fin cfg0.N) : sProp 𝕄 :=
  iprop((dat0 (Ix := Ix) (U := U) (Lvl := Lvl) V c).Φ t.succ ∗ (dat0 (Ix := Ix) (U := U) (Lvl := Lvl) V c).owesAt ι t.succ
    ∗ (dat0 (Ix := Ix) (U := U) (Lvl := Lvl) V c).leaves 0 t ∗ (dat0 (Ix := Ix) (U := U) (Lvl := Lvl) V c).leaves 1 t ∗ (dat0 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body0 (V : Valuation τ sig (Elt F)) (𝒱₀ : Variants) (ι : Ix) (c : Dev nD) (t : Fin cfg0.N) :
    bodyPre0 (U := U) (Lvl := Lvl) V ι c t
      ⊢ wp frame (wpE (defs₀ (F := F)) 𝒱₀ c none) Set.univ (bodyAt0 t) (fun _ => bodyPost0 (U := U) (Lvl := Lvl) V ι c t) := by
  unfold bodyPre0 bodyPost0 bodyAt0
  simp only [before0_0, before0_1]
  rw [show (dat0 (Ix := Ix) (U := U) (Lvl := Lvl) V c).owesAt ι t.succ = (dat0 (Ix := Ix) (U := U) (Lvl := Lvl) V c).owesAt ι t.castSucc from rfl]
  rw [Phi0_at_succ, Phi0_succ, Phi0_castSucc, leaves0_0, leaves0_1]
  have hN : t.val < 64 := lt_of_lt_of_eq t.isLt N_0
  by_cases hz : t.val = 0
  · have hc1 : cond0_1 (grid0.coords t) := (hcond0_1 t).mpr hz
    have hc2 : ¬cond0_2 (grid0.coords t) := fun h => by have := (hcond0_2 t).mp h; omega
    rw [leaves0_2_idle V c t (by omega), Phi0_zero V c _ _ hz, scopedRest0_split, acc0_first V c _ _ hz, step0_at]
    iintro ⟨⟨⟨%f, Hs⟩, Hr⟩, Ho, ⟨%d0, H0⟩, ⟨%d1, H1⟩, H2⟩
    iapply (run0_A 𝒱₀ c (grid0.coords t) _ _ _ _ _ _ _ _ hc1 hc2 (iblk0 V c 0 t) (iblk0 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond0_1 (grid0.coords t) := fun h => hz ((hcond0_1 t).mp h)
    rw [Phi0_pos V c _ _ hz, acc0_pos V c _ _ hz, step0_at]
    by_cases hl : t.val = 63
    · have hc2 : cond0_2 (grid0.coords t) := (hcond0_2 t).mpr hl
      rw [leaves0_2_last V c t hl, acc0_pos V c _ _ hz, step0_at]
      iintro ⟨⟨Hs, Hr⟩, Ho, ⟨%d0, H0⟩, ⟨%d1, H1⟩, ⟨%d2, H2⟩⟩
      iapply (run0_C 𝒱₀ c (grid0.coords t) _ _ _ _ _ _ _ _ hc1 hc2 (iblk0 V c 0 t) (iblk0 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond0_2 (grid0.coords t) := fun h => hl ((hcond0_2 t).mp h)
      rw [leaves0_2_idle V c t hl]
      iintro ⟨⟨Hs, Hr⟩, Ho, ⟨%d0, H0⟩, ⟨%d1, H1⟩, H2⟩
      iapply (run0_B 𝒱₀ c (grid0.coords t) _ _ _ _ _ _ _ _ hc1 hc2 (iblk0 V c 0 t) (iblk0 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body0 (V : Valuation τ sig (Elt F)) (𝒱₀ : Variants) (ι : Ix) :
    ∀ c : Dev nD, BodyObligationLoose (dat0 (Ix := Ix) (U := U) (Lvl := Lvl) V c) (defs₀ (F := F)) 𝒱₀ ι Set.univ := fun c t => by
  rw [bigSep_W0, bigSep_W0]
  exact sound_body0 (U := U) (Lvl := Lvl) V 𝒱₀ ι c t

end Cert.KernelIdeal.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg0

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (0 : Fin 24)
/-- Its configuration, its windows but for their index maps, the number of its windows. -/
abbrev cfgK : Pipeline.Cfg sig Λ₀ := cfg0
abbrev specK : Fin 3 → Pipeline.WinSpec sig cfgK.grid.rank := spec0
abbrev nW : Nat := 3
/-- Its output window and the buffer behind it. -/
abbrev oK : Fin nW := 2
abbrev outK : Ref sig .tc := main_v19
theorem winK : Pipeline.WinFacts₀ specK := winFacts₀0
theorem block_posK : ∀ w : Fin nW, 0 < (specK w).block.numel := block_pos0
theorem arr_wholeK : ∀ w : Fin nW, (specK w).arr.IsWhole := arr_whole0
theorem stage_wholeK : ∀ (w : Fin nW) (s : Fin (specK w).nbuf), ((specK w).stage s).IsWhole := stage_whole0

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.KernelIdeal.Hand.Reg0

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R0' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (0 : Fin 24) c = dat0 (V4 m c) c)
    (hbody : ∀ c : Dev nD, Pipeline.BodyObligationLoose (dat0 (Ix := Ix) (U := U) (Lvl := Lvl) (V4 m c) c) (defs₀ (F := F)) 𝒱₀ ι Set.univ) :
    RegionSeg (pcfgs (F := F)) GenP.adm pdats ι defs₀ 𝒱₀ L lv (0 : Fin 24) :=
  Reg0.RK 𝒱₀ L lv ι pdats (fun c => V4 m c)
    (fun c => by rw [hp c]; exact hbody c)
    (fun c w => by rw [hp c]; exact A_eq0 (V4 m c) c w)
    (fun c => by rw [hp c]; exact PosShare.mem_left_op_right fullShare)
    (fun c t => by rw [hp c]; rfl)
    (fun c => by rw [hp c]; rfl)
    (fun c => by rw [hp c, Phi_first0])
    (fun c => by rw [hp c]; exact Phi_last0 (V4 m c) c)

/-- It is entered from the thread state before the region's item, -/
theorem hpre0' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (0 : Fin 24) c = dat0 (V4 m c) c)
    (hbody : ∀ c : Dev nD, Pipeline.BodyObligationLoose (dat0 (Ix := Ix) (U := U) (Lvl := Lvl) (V4 m c) c) (defs₀ (F := F)) 𝒱₀ ι Set.univ)
    (c : Dev nD) :
    iprop(StableHlo.held (c : Thread nD τ) (Pipeline.ucRefs τ sig) (V4 m c) ∗ (R c : sProp 𝕄))
      ⊢ (R0' m outs 𝒱₀ L lv ι pdats hp hbody).pre c := .rfl

/-- and left at the thread state after it. -/
theorem hpost0' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (0 : Fin 24) c = dat0 (V4 m c) c)
    (hbody : ∀ c : Dev nD, Pipeline.BodyObligationLoose (dat0 (Ix := Ix) (U := U) (Lvl := Lvl) (V4 m c) c) (defs₀ (F := F)) 𝒱₀ ι Set.univ)
    (houts : ∀ c : Dev nD, outs 5 main_v19 c = (dat0 (Ix := Ix) (U := U) (Lvl := Lvl) (V4 m c) c).arrAt 2 64)
    (c : Dev nD) :
    (R0' m outs 𝒱₀ L lv ι pdats hp hbody).post c
      ⊢ iprop(StableHlo.held (c : Thread nD τ) (Pipeline.ucRefs τ sig) (V5 m outs c) ∗ (R c : sProp 𝕄)) := by
  have h : (pdats (0 : Fin 24) c).arrAt Reg0.oK Reg0.cfgK.N = outs 5 main_v19 c := by
    rw [hp c]; exact (houts c).symm
  show iprop(StableHlo.held (c : Thread nD τ) (Pipeline.ucRefs τ sig)
      (Function.update (V4 m c) (Proc.devRef .tc main_v19) ((pdats (0 : Fin 24) c).arrAt Reg0.oK Reg0.cfgK.N))
        ∗ (R c : sProp 𝕄)) ⊢ _
  rw [h]

end Cert.KernelIdeal.Hand
-- ==== Proof.ApplyLib.lean ====
/-
  What the bodies of this program's two kernels need and no region owns: a load or a store of a whole buffer through
  its full rectangle at zero offsets (every access of both kernels is one), and the body obligation's post for a
  window at a point live for it.
-/
import proofs.«169706_j68856915690108_1_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Loads and stores of a whole buffer through its full rectangle -/

omit [FloatOps F] in
theorem zeros2 : (![0, 0] : Fin 2 → ℕ) = fun _ => 0 := by funext a; fin_cases a <;> rfl

/-- A load through the full rectangle at zero offsets reads what the view reads. -/
theorem readAt_full {sp : Space} {S : Shape} {e : EltTy} (arg : Memref sig .tc sp S e)
    {off : Fin S.rank → ℕ} (h : off = fun _ => 0) (inb : ∀ a, off a + S.size a ≤ S.size a) (f : arg.view.ty.Contents (Elt F)) :
    arg.view.readAt (Elt F) (Rect.unit off S.size inb).toLoadRect f = arg.view.read (Elt F) f :=
  (View.readAt_eq_ld arg.view f (Rect.unit off S.size inb)).trans (View.ld_unit_zero h inb _)

/-- A store through the full rectangle at zero offsets, last, leaves its payload, whatever was there. -/
theorem read_writes_full {sp : Space} {S : Shape} {e : EltTy} (arg : Memref sig .tc sp S e)
    {off : Fin S.rank → ℕ} (h : off = fun _ => 0) (inb : ∀ a, off a + S.size a ≤ S.size a)
    (f : arg.view.ty.Contents (Elt F)) (w : S.Idx → Elt F e) (L : List (View.Piece (Elt F) S e)) :
    arg.view.read (Elt F) (arg.view.writes (Elt F) f ((⟨Rect.unit off S.size inb, w⟩ : View.Piece (Elt F) S e) :: L)) = w :=
  (View.read_writes_eq_canon arg.view f ((⟨Rect.unit off S.size inb, w⟩ : View.Piece (Elt F) S e) :: L)
      (fun y => ⟨(⟨Rect.unit off S.size inb, w⟩ : View.Piece (Elt F) S e), List.mem_cons_self, View.mem_set_unit_zero h inb y⟩)).trans
    (View.canon_cons_unit_zero h inb w L)

/-- A load of a 512 × 256 buffer through its full rectangle reads what the view reads. -/
theorem readAt_full_512 {sp : Space} {e : EltTy} (arg : Memref sig .tc sp S512x256 e)
    (inb : ∀ a, (![0, 0] : Fin 2 → ℕ) a + S512x256.size a ≤ S512x256.size a) (f : arg.view.ty.Contents (Elt F)) :
    arg.view.readAt (Elt F) (Rect.unit (s := S512x256) ![0, 0] S512x256.size inb).toLoadRect f = arg.view.read (Elt F) f :=
  readAt_full arg zeros2 inb f

/-- The same of a 1 × 1 buffer. -/
theorem readAt_full_1 {sp : Space} {e : EltTy} (arg : Memref sig .tc sp S1x1 e)
    (inb : ∀ a, (![0, 0] : Fin 2 → ℕ) a + S1x1.size a ≤ S1x1.size a) (f : arg.view.ty.Contents (Elt F)) :
    arg.view.readAt (Elt F) (Rect.unit (s := S1x1) ![0, 0] S1x1.size inb).toLoadRect f = arg.view.read (Elt F) f :=
  readAt_full arg zeros2 inb f

/-- A store into a 512 × 256 buffer through its full rectangle, last, leaves its payload. -/
theorem read_writes_full_512 {sp : Space} {e : EltTy} (arg : Memref sig .tc sp S512x256 e)
    (inb : ∀ a, (![0, 0] : Fin 2 → ℕ) a + S512x256.size a ≤ S512x256.size a)
    (f : arg.view.ty.Contents (Elt F)) (w : S512x256.Idx → Elt F e) (L : List (View.Piece (Elt F) S512x256 e)) :
    arg.view.read (Elt F) (arg.view.writes (Elt F) f ((⟨Rect.unit (s := S512x256) ![0, 0] S512x256.size inb, w⟩ : View.Piece (Elt F) S512x256 e) :: L)) = w :=
  read_writes_full arg zeros2 inb f w L

/-! ## The obligation's post at a live point -/

/-- At a point live for a window that is not loose, the body obligation's post for it is the plain `after`. -/
theorem leaves_live {Λ : Idealize.SL.Sem.Labels} {cfg : Cfg sig Λ} {c : Dev nD} (dat : Dat τ (Elt F) Ix ℕ U Lvl cfg c) (w : Fin cfg.W) (t : Fin cfg.N)
    (hi : cfg.idle w (cfg.grid.coords t) = false) (hl : cfg.loose w = false) :
    dat.leaves w t = owns (c : Thread nD τ) ((cfg.win w).stage (cfg.slots t w)) fullShare (dat.after w t) := by
  unfold Dat.leaves; rw [hi, hl]

end Cert.KernelIdeal.Hand

end
-- ==== Proof.Rg1.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.ApplyLib
import proofs.«169706_j68856915690108_1_alg».proof.Proof.Shared
import proofs.«169706_j68856915690108_1_alg».proof.Proof.RegionsKI

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k1_pay1 x_i` and `step t a = k1_pay2 h_i h_j threshold x_j a`, the printed payloads of the two stores.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk1 (V : Valuation τ sig (Elt F)) (c : Dev nD) (w : Fin cfg1.W) (t : Fin cfg1.N) :
    ((cfg1.win w).xblock (cfg1.grid.coords t)).Idx → Elt F (cfg1.win w).elt :=
  ((cfg1.win w).blk t).view.read (Elt F)
    (V (Proc.devRef .tc (Pipeline.arrRef spec1 w)) : Buf (Elt F) ((cfg1.win w).arr.view.loc (c.tc : Thread nD τ)))

/-- What the accumulator is reset to at a point whose second coordinate is 0: 1.0 times the block of `x` window 3
    stages there (the printed payload of the first store into the scratch buffer). -/
noncomputable def init1 (V : Valuation τ sig (Elt F)) (c : Dev nD) (n : ℕ) (hn : n < cfg1.N) : Vec F S512x256 .f32 :=
  k1_pay1 (iblk1 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step1 (V : Valuation τ sig (Elt F)) (c : Dev nD) (n : ℕ) (hn : n < cfg1.N) (a : Vec F S512x256 .f32) : Vec F S512x256 .f32 :=
  k1_pay2 (iblk1 V c 1 ⟨n, hn⟩) (iblk1 V c 2 ⟨n, hn⟩) (iblk1 V c 0 ⟨n, hn⟩) (iblk1 V c 4 ⟨n, hn⟩) a

/-- What the accumulator holds after point `n`: reset and stepped at the points ≡ 0 (mod 8), stepped from what the
    point before left at the others. -/
noncomputable def acc1 (V : Valuation τ sig (Elt F)) (c : Dev nD) : (n : ℕ) → n < cfg1.N → Vec F S512x256 .f32
  | 0, hn => step1 V c 0 hn (init1 V c 0 hn)
  | n + 1, hn =>
    if (n + 1) % 8 = 0 then step1 V c (n + 1) hn (init1 V c (n + 1) hn)
    else step1 V c (n + 1) hn (acc1 V c n (Nat.lt_of_succ_lt hn))

/-- After a point ≡ 0 (mod 8): the reset value, stepped once. -/
theorem acc1_reset (V : Valuation τ sig (Elt F)) (c : Dev nD) (n : ℕ) (hn : n < cfg1.N) (h0 : n % 8 = 0) :
    acc1 V c n hn = step1 V c n hn (init1 V c n hn) := by
  cases n with
  | zero => rfl
  | succ n => exact if_pos h0

/-- After any other point: that point's step on what the point before left. -/
theorem acc1_step (V : Valuation τ sig (Elt F)) (c : Dev nD) (n : ℕ) (hn : n < cfg1.N) (h0 : ¬n % 8 = 0) :
    acc1 V c n hn = step1 V c n hn (acc1 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi1 (V : Valuation τ sig (Elt F)) (c : Dev nD) : (n : ℕ) → n ≤ cfg1.N → sProp 𝕄
  | 0, _ => Pipeline.scopedRest (Ix := Ix) (Name := ℕ) (U := U) (Lvl := Lvl) (Val := Elt F) spec1 c
  | n + 1, hn => iprop(owns (c : Thread nD τ) (Memref.whole cc1_scratch0) fullShare (acc1 V c n hn)
      ∗ Pipeline.scopedRestBut (Ix := Ix) (Name := ℕ) (U := U) (Lvl := Lvl) (Val := Elt F) spec1 c [cc1_scratch0])

theorem Phi1_zero (V : Valuation τ sig (Elt F)) (c : Dev nD) (n : ℕ) (h : n ≤ cfg1.N) (hz : n = 0) :
    (Phi1 V c n h : sProp 𝕄) = Pipeline.scopedRest (Ix := Ix) (Name := ℕ) (U := U) (Lvl := Lvl) (Val := Elt F) spec1 c := by
  subst hz; rfl

theorem Phi1_succ (V : Valuation τ sig (Elt F)) (c : Dev nD) (n : ℕ) (hn : n < cfg1.N) :
    (Phi1 V c (n + 1) hn : sProp 𝕄) = iprop(owns (c : Thread nD τ) (Memref.whole cc1_scratch0) fullShare (acc1 V c n hn)
      ∗ Pipeline.scopedRestBut (Ix := Ix) (Name := ℕ) (U := U) (Lvl := Lvl) (Val := Elt F) spec1 c [cc1_scratch0]) := rfl

theorem Phi1_pos (V : Valuation τ sig (Elt F)) (c : Dev nD) (n : ℕ) (h : n ≤ cfg1.N) (hz : n ≠ 0) :
    (Phi1 V c n h : sProp 𝕄) = iprop(owns (c : Thread nD τ) (Memref.whole cc1_scratch0) fullShare (acc1 V c (n - 1) (by omega))
      ∗ Pipeline.scopedRestBut (Ix := Ix) (Name := ℕ) (U := U) (Lvl := Lvl) (Val := Elt F) spec1 c [cc1_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi1`; the
    threshold's array held whole, each of the two arrays that two input windows read held half and half; nothing owed. -/
noncomputable def dat1 (V : Valuation τ sig (Elt F)) (c : Dev nD) : Dat τ (Elt F) Ix ℕ U Lvl cfg1 c where
  A w := V (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => acc1 V c t.val t.isLt
  Φ t := Phi1 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq1 (V : Valuation τ sig (Elt F)) (c : Dev nD) (w : Fin cfg1.W) :
    (dat1 (Ix := Ix) (U := U) (Lvl := Lvl) V c).A w = V (Proc.devRef .tc (Pipeline.arrRef spec1 w)) := by
  dsimp only [dat1]

/-- What the body leaves, window by window. -/
theorem after1_0 (V : Valuation τ sig (Elt F)) (c : Dev nD) (t : Fin cfg1.N) :
    (dat1 (Ix := Ix) (U := U) (Lvl := Lvl) V c).after 0 t = iblk1 V c 0 t := by dsimp only [dat1]
theorem after1_1 (V : Valuation τ sig (Elt F)) (c : Dev nD) (t : Fin cfg1.N) :
    (dat1 (Ix := Ix) (U := U) (Lvl := Lvl) V c).after 1 t = iblk1 V c 1 t := by dsimp only [dat1]
theorem after1_2 (V : Valuation τ sig (Elt F)) (c : Dev nD) (t : Fin cfg1.N) :
    (dat1 (Ix := Ix) (U := U) (Lvl := Lvl) V c).after 2 t = iblk1 V c 2 t := by dsimp only [dat1]
theorem after1_3 (V : Valuation τ sig (Elt F)) (c : Dev nD) (t : Fin cfg1.N) :
    (dat1 (Ix := Ix) (U := U) (Lvl := Lvl) V c).after 3 t = iblk1 V c 3 t := by dsimp only [dat1]
theorem after1_4 (V : Valuation τ sig (Elt F)) (c : Dev nD) (t : Fin cfg1.N) :
    (dat1 (Ix := Ix) (U := U) (Lvl := Lvl) V c).after 4 t = iblk1 V c 4 t := by dsimp only [dat1]
theorem after1_5 (V : Valuation τ sig (Elt F)) (c : Dev nD) (t : Fin cfg1.N) :
    (dat1 (Ix := Ix) (U := U) (Lvl := Lvl) V c).after 5 t = acc1 V c t.val t.isLt := by dsimp only [dat1]

/-- The shares the input arrays are held at. -/
theorem q1_0 (V : Valuation τ sig (Elt F)) (c : Dev nD) : (dat1 (Ix := Ix) (U := U) (Lvl := Lvl) V c).q 0 = fullShare := by dsimp only [dat1]
theorem q1_1 (V : Valuation τ sig (Elt F)) (c : Dev nD) : (dat1 (Ix := Ix) (U := U) (Lvl := Lvl) V c).q 1 = fullShare.left := by dsimp only [dat1]
theorem q1_2 (V : Valuation τ sig (Elt F)) (c : Dev nD) : (dat1 (Ix := Ix) (U := U) (Lvl := Lvl) V c).q 2 = fullShare.right := by dsimp only [dat1]
theorem q1_3 (V : Valuation τ sig (Elt F)) (c : Dev nD) : (dat1 (Ix := Ix) (U := U) (Lvl := Lvl) V c).q 3 = fullShare.left := by dsimp only [dat1]
theorem q1_4 (V : Valuation τ sig (Elt F)) (c : Dev nD) : (dat1 (Ix := Ix) (U := U) (Lvl := Lvl) V c).q 4 = fullShare.right := by dsimp only [dat1]

/-- The invariant at a point's start, and at its end. -/
theorem Phi1_castSucc (V : Valuation τ sig (Elt F)) (c : Dev nD) (t : Fin cfg1.N) :
    (dat1 (Ix := Ix) (U := U) (Lvl := Lvl) V c).Φ t.castSucc = Phi1 V c t.val (Nat.le_of_lt t.isLt) := by
  dsimp only [dat1]; simp only [Fin.coe_castSucc]

theorem Phi1_at_succ (V : Valuation τ sig (Elt F)) (c : Dev nD) (t : Fin cfg1.N) :
    (dat1 (Ix := Ix) (U := U) (Lvl := Lvl) V c).Φ t.succ = Phi1 V c (t.val + 1) t.isLt := rfl

/-- Before the first point the invariant is the launch's scoped rest. -/
theorem Phi_first1 (V : Valuation τ sig (Elt F)) (c : Dev nD) :
    (dat1 (Ix := Ix) (U := U) (Lvl := Lvl) V c).Φ 0
      = Pipeline.scopedRest (Ix := Ix) (Name := ℕ) (U := U) (Lvl := Lvl) (Val := Elt F) spec1 c := rfl

/-- After the last point the invariant gives the scoped rest back: the accumulator's contents are forgotten. -/
theorem Phi_last1 (V : Valuation τ sig (Elt F)) (c : Dev nD) :
    (dat1 (Ix := Ix) (U := U) (Lvl := Lvl) V c).Φ (Fin.last cfg1.N)
      ⊢ Pipeline.scopedRest (Ix := Ix) (Name := ℕ) (U := U) (Lvl := Lvl) (Val := Elt F) spec1 c := by
  have hN : cfg1.N = 64 := N_1
  rw [show (dat1 (Ix := Ix) (U := U) (Lvl := Lvl) V c).Φ (Fin.last cfg1.N) = Phi1 V c (Fin.last cfg1.N).val (Nat.le_of_lt_succ (Fin.last cfg1.N).isLt) from rfl,
    Phi1_pos V c _ _ (by rw [Fin.val_last]; omega), scopedRest1_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 1) c := dat1 V c

end Cert.KernelIdeal.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k1_pay2 hI hJ mn xJ s` — `s` plus the 0/1 mask of (hI · hJᵀ > mn) times `xJ` — and the value
  the accumulator is reset to is `k1_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond1_0 (i : grid1.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond1_1 (i : grid1.Coords) : Prop := k1_cond2 i = 1#1

/-! ## The three runs -/

/-- At a point whose second coordinate is 0 (and not 7): the accumulator, at anything, is reset to `k1_pay1 xI` and
    stepped once; every window's buffer is handed back as found. -/
theorem run1_first (𝒱₀ : Variants) (c : Dev nD) (i : grid1.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond1_0 i) (hc1 : ¬cond1_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k1_pay2 hI hJ mn xJ (k1_pay1 xI))) -∗ K ⟨⟩))
      ⊢ wp frame (wpE (defs₀ (F := F)) 𝒱₀ c none) E (cc1__apply_kernel i arg2 harg2 arg3 harg3 arg4 harg4 arg5 harg5 arg6 harg6 arg7 harg7 arg8 harg8) K := by
  simp only [cc1__apply_kernel_eq_skeleton]; unfold cc1__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run1_mid (𝒱₀ : Variants) (c : Dev nD) (i : grid1.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond1_0 i) (hc1 : ¬cond1_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k1_pay2 hI hJ mn xJ s)) -∗ K ⟨⟩))
      ⊢ wp frame (wpE (defs₀ (F := F)) 𝒱₀ c none) E (cc1__apply_kernel i arg2 harg2 arg3 harg3 arg4 harg4 arg5 harg5 arg6 harg6 arg7 harg7 arg8 harg8) K := by
  simp only [cc1__apply_kernel_eq_skeleton]; unfold cc1__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run1_last (𝒱₀ : Variants) (c : Dev nD) (i : grid1.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond1_0 i) (hc1 : cond1_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k1_pay2 hI hJ mn xJ s)
        ∗ owns (c : Thread nD τ) arg8 fullShare (k1_pay2 hI hJ mn xJ s)) -∗ K ⟨⟩))
      ⊢ wp frame (wpE (defs₀ (F := F)) 𝒱₀ c none) E (cc1__apply_kernel i arg2 harg2 arg3 harg3 arg4 harg4 arg5 harg5 arg6 harg6 arg7 harg7 arg8 harg8) K := by
  simp only [cc1__apply_kernel_eq_skeleton]; unfold cc1__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.KernelIdeal.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc1`. The three control cases are
  decided over the grid by the point's residue mod 8, and in each the kernel's run (ApplyRun.lean) applies.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- It is stored into the output block at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)
/-- The output window is idle at every other point, -/
theorem idleAt1_5 : ∀ t : Fin cfg1.N, ¬t.val % 8 = 7 → cfg1.idle 5 (grid1.coords t) = true :=
  (by decide +kernel : ∀ t : Fin grid1.N, ¬t.val % 8 = 7 → cfg1.idle 5 (grid1.coords t) = true)
/-- live at those, -/
theorem liveAt1_5 : ∀ t : Fin cfg1.N, t.val % 8 = 7 → cfg1.idle 5 (grid1.coords t) = false :=
  (by decide +kernel : ∀ t : Fin grid1.N, t.val % 8 = 7 → cfg1.idle 5 (grid1.coords t) = false)
/-- and not written back where it is idle. -/
theorem noFlush1_5 (t : Fin cfg1.N) (h : ¬t.val % 8 = 7) : (cfg1.win 5).flush t = false := by
  cases hf : (cfg1.win 5).flush t with
  | false => rfl
  | true => exact absurd ((flush1_5 t).mp hf) h

/-! ## What the body finds in the inputs' buffers and leaves in every buffer -/

/-- Each input's current staging buffer holds its block at every point, fetched there or not. -/
theorem before1_0 (V : Valuation τ sig (Elt F)) (c : Dev nD) (t : Fin cfg1.N) (d) : (dat1 (Ix := Ix) (U := U) (Lvl := Lvl) V c).before 0 t d = iblk1 V c 0 t :=
  ((dat1 (Ix := Ix) (U := U) (Lvl := Lvl) V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (V : Valuation τ sig (Elt F)) (c : Dev nD) (t : Fin cfg1.N) (d) : (dat1 (Ix := Ix) (U := U) (Lvl := Lvl) V c).before 1 t d = iblk1 V c 1 t :=
  ((dat1 (Ix := Ix) (U := U) (Lvl := Lvl) V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (V : Valuation τ sig (Elt F)) (c : Dev nD) (t : Fin cfg1.N) (d) : (dat1 (Ix := Ix) (U := U) (Lvl := Lvl) V c).before 2 t d = iblk1 V c 2 t :=
  ((dat1 (Ix := Ix) (U := U) (Lvl := Lvl) V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (V : Valuation τ sig (Elt F)) (c : Dev nD) (t : Fin cfg1.N) (d) : (dat1 (Ix := Ix) (U := U) (Lvl := Lvl) V c).before 3 t d = iblk1 V c 3 t :=
  ((dat1 (Ix := Ix) (U := U) (Lvl := Lvl) V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (V : Valuation τ sig (Elt F)) (c : Dev nD) (t : Fin cfg1.N) (d) : (dat1 (Ix := Ix) (U := U) (Lvl := Lvl) V c).before 4 t d = iblk1 V c 4 t :=
  ((dat1 (Ix := Ix) (U := U) (Lvl := Lvl) V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-! ## The body obligation, at a generic point -/

/-- What the body is called with at point `t` (the obligation's precondition, the windows one by one), -/
noncomputable def bodyPre1 (V : Valuation τ sig (Elt F)) (c : Dev nD) (ι : Ix) (t : Fin cfg1.N) : sProp 𝕄 :=
  iprop((dat1 (Ix := Ix) (U := U) (Lvl := Lvl) V c).Φ t.castSucc ∗ (dat1 (Ix := Ix) (U := U) (Lvl := Lvl) V c).owesAt ι t.castSucc
    ∗ (∃ d, owns (c : Thread nD τ) (st1_0 t) fullShare ((dat1 (Ix := Ix) (U := U) (Lvl := Lvl) V c).before 0 t d))
    ∗ (∃ d, owns (c : Thread nD τ) (st1_1 t) fullShare ((dat1 (Ix := Ix) (U := U) (Lvl := Lvl) V c).before 1 t d))
    ∗ (∃ d, owns (c : Thread nD τ) (st1_2 t) fullShare ((dat1 (Ix := Ix) (U := U) (Lvl := Lvl) V c).before 2 t d))
    ∗ (∃ d, owns (c : Thread nD τ) (st1_3 t) fullShare ((dat1 (Ix := Ix) (U := U) (Lvl := Lvl) V c).before 3 t d))
    ∗ (∃ d, owns (c : Thread nD τ) (st1_4 t) fullShare ((dat1 (Ix := Ix) (U := U) (Lvl := Lvl) V c).before 4 t d))
    ∗ (∃ d, owns (c : Thread nD τ) (st1_5 t) fullShare ((dat1 (Ix := Ix) (U := U) (Lvl := Lvl) V c).before 5 t d)))

/-- and what it returns. -/
noncomputable def bodyPost1 (V : Valuation τ sig (Elt F)) (c : Dev nD) (ι : Ix) (t : Fin cfg1.N) : sProp 𝕄 :=
  iprop((dat1 (Ix := Ix) (U := U) (Lvl := Lvl) V c).Φ t.succ ∗ (dat1 (Ix := Ix) (U := U) (Lvl := Lvl) V c).owesAt ι t.succ
    ∗ (dat1 (Ix := Ix) (U := U) (Lvl := Lvl) V c).leaves 0 t ∗ (dat1 (Ix := Ix) (U := U) (Lvl := Lvl) V c).leaves 1 t ∗ (dat1 (Ix := Ix) (U := U) (Lvl := Lvl) V c).leaves 2 t
    ∗ (dat1 (Ix := Ix) (U := U) (Lvl := Lvl) V c).leaves 3 t ∗ (dat1 (Ix := Ix) (U := U) (Lvl := Lvl) V c).leaves 4 t ∗ (dat1 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body1 (𝒱₀ : Variants) (ι : Ix) (V : Valuation τ sig (Elt F)) (c : Dev nD) (t : Fin cfg1.N) :
    bodyPre1 (Ix := Ix) (U := U) (Lvl := Lvl) V c ι t ⊢ wp frame (wpE (defs₀ (F := F)) 𝒱₀ c none) Set.univ (bodyAt1 t) (fun _ => bodyPost1 (Ix := Ix) (U := U) (Lvl := Lvl) V c ι t) := by
  unfold bodyPre1 bodyPost1 bodyAt1
  simp only [before1_0, before1_1, before1_2, before1_3, before1_4]
  rw [show (dat1 (Ix := Ix) (U := U) (Lvl := Lvl) V c).owesAt ι t.succ = (dat1 (Ix := Ix) (U := U) (Lvl := Lvl) V c).owesAt ι t.castSucc from rfl]
  rw [Phi1_at_succ, Phi1_succ, Phi1_castSucc]
  rw [leaves_live (dat1 (Ix := Ix) (U := U) (Lvl := Lvl) V c) 0 t rfl rfl, leaves_live (dat1 (Ix := Ix) (U := U) (Lvl := Lvl) V c) 1 t rfl rfl, leaves_live (dat1 (Ix := Ix) (U := U) (Lvl := Lvl) V c) 2 t rfl rfl,
    leaves_live (dat1 (Ix := Ix) (U := U) (Lvl := Lvl) V c) 3 t rfl rfl, leaves_live (dat1 (Ix := Ix) (U := U) (Lvl := Lvl) V c) 4 t rfl rfl, after1_0, after1_1, after1_2, after1_3, after1_4]
  have hN : t.val < 64 := lt_of_lt_of_eq t.isLt (show cfg1.N = 64 from N_1)
  by_cases h0 : t.val % 8 = 0
  · have h7 : ¬t.val % 8 = 7 := by omega
    rw [Dat.leaves_idle (dat1 (Ix := Ix) (U := U) (Lvl := Lvl) V c) 5 t (idleAt1_5 t h7) (noFlush1_5 t h7)]
    rw [acc1_reset V c t.val t.isLt h0]
    unfold step1 init1
    by_cases hz : t.val = 0
    · rw [Phi1_zero V c _ _ hz, scopedRest1_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run1_first 𝒱₀ c (grid1.coords t) _ _ _ _ _ _ _ _ _ _ _ _ _ _ ((hcond1_0 t).mpr h0) (fun h => h7 ((hcond1_1 t).mp h)) (iblk1 V c 0 t) (iblk1 V c 1 t) (iblk1 V c 2 t) (iblk1 V c 3 t) (iblk1 V c 4 t) ((dat1 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi1_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run1_first 𝒱₀ c (grid1.coords t) _ _ _ _ _ _ _ _ _ _ _ _ _ _ ((hcond1_0 t).mpr h0) (fun h => h7 ((hcond1_1 t).mp h)) (iblk1 V c 0 t) (iblk1 V c 1 t) (iblk1 V c 2 t) (iblk1 V c 3 t) (iblk1 V c 4 t) ((dat1 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc1_step V c t.val t.isLt h0, Phi1_pos V c _ _ hz]
    unfold step1
    by_cases h7 : t.val % 8 = 7
    · rw [leaves_live (dat1 (Ix := Ix) (U := U) (Lvl := Lvl) V c) 5 t (liveAt1_5 t h7) rfl, after1_5, acc1_step V c t.val t.isLt h0]
      unfold step1
      iintro ⟨⟨HS, Hr⟩, Ho, ⟨%d0, H0⟩, ⟨%d1, H1⟩, ⟨%d2, H2⟩, ⟨%d3, H3⟩, ⟨%d4, H4⟩, ⟨%d5, H5⟩⟩
      iapply (run1_last 𝒱₀ c (grid1.coords t) _ _ _ _ _ _ _ _ _ _ _ _ _ _ (fun h => h0 ((hcond1_0 t).mp h)) ((hcond1_1 t).mpr h7) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat1 (Ix := Ix) (U := U) (Lvl := Lvl) V c) 5 t (idleAt1_5 t h7) (noFlush1_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run1_mid 𝒱₀ c (grid1.coords t) _ _ _ _ _ _ _ _ _ _ _ _ _ _ (fun h => h0 ((hcond1_0 t).mp h)) (fun h => h7 ((hcond1_1 t).mp h)) (iblk1 V c 0 t) (iblk1 V c 1 t) (iblk1 V c 2 t) (iblk1 V c 3 t) (iblk1 V c 4 t) ((dat1 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation1 (𝒱₀ : Variants) (ι : Ix) (V : Valuation τ sig (Elt F)) (c : Dev nD) :
    BodyObligationLoose (dat1 (Ix := Ix) (U := U) (Lvl := Lvl) V c) (defs₀ (F := F)) 𝒱₀ ι Set.univ := fun t => by
  rw [bigSep_W1, bigSep_W1]
  exact sound_body1 𝒱₀ ι V c t

/-- The same at the type the program's family of configurations gives pipeline 1, on every core. -/
theorem body1 (𝒱₀ : Variants) (ι : Ix) (V : Valuation τ sig (Elt F)) :
    ∀ c : Dev nD, BodyObligationLoose (cfg := cfgs 1) (dat1 (Ix := Ix) (U := U) (Lvl := Lvl) V c) (defs₀ (F := F)) 𝒱₀ ι Set.univ :=
  fun c => body_obligation1 𝒱₀ ι V c

end Cert.KernelIdeal.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg1

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (1 : Fin 24)
/-- Its configuration, its windows but for their index maps, the number of its windows. -/
abbrev cfgK : Pipeline.Cfg sig Λ₀ := cfg1
abbrev specK : Fin 6 → Pipeline.WinSpec sig cfgK.grid.rank := spec1
abbrev nW : Nat := 6
/-- Its output window and the buffer behind it. -/
abbrev oK : Fin nW := 5
abbrev outK : Ref sig .tc := main_v22
theorem winK : Pipeline.WinFacts₀ specK := winFacts₀1
theorem block_posK : ∀ w : Fin nW, 0 < (specK w).block.numel := block_pos1
theorem arr_wholeK : ∀ w : Fin nW, (specK w).arr.IsWhole := arr_whole1
theorem stage_wholeK : ∀ (w : Fin nW) (s : Fin (specK w).nbuf), ((specK w).stage s).IsWhole := stage_whole1

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.KernelIdeal.Hand.Reg1

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R1' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (1 : Fin 24) c = dat1 (V6 m outs c) c)
    (hbody : ∀ c : Dev nD, Pipeline.BodyObligationLoose (dat1 (Ix := Ix) (U := U) (Lvl := Lvl) (V6 m outs c) c) (defs₀ (F := F)) 𝒱₀ ι Set.univ) :
    RegionSeg (pcfgs (F := F)) GenP.adm pdats ι defs₀ 𝒱₀ L lv (1 : Fin 24) :=
  Reg1.RK 𝒱₀ L lv ι pdats (fun c => V6 m outs c)
    (fun c => by rw [hp c]; exact hbody c)
    (fun c w => by rw [hp c]; exact A_eq1 (V6 m outs c) c w)
    (fun c => by rw [hp c]; rw [q1_1, q1_2]; exact PosShare.mem_left_op_right fullShare)
    (fun c => by rw [hp c]; rw [q1_3, q1_4]; exact PosShare.mem_left_op_right fullShare)
    (fun c => by rw [hp c]; exact q1_0 (V6 m outs c) c)
    (fun c t => by rw [hp c]; rfl)
    (fun c => by rw [hp c]; rfl)
    (fun c => by rw [hp c, Phi_first1])
    (fun c => by rw [hp c]; exact Phi_last1 (V6 m outs c) c)

/-- It is entered from the thread state before the region's item, -/
theorem hpre1' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (1 : Fin 24) c = dat1 (V6 m outs c) c)
    (hbody : ∀ c : Dev nD, Pipeline.BodyObligationLoose (dat1 (Ix := Ix) (U := U) (Lvl := Lvl) (V6 m outs c) c) (defs₀ (F := F)) 𝒱₀ ι Set.univ)
    (c : Dev nD) :
    iprop(StableHlo.held (c : Thread nD τ) (Pipeline.ucRefs τ sig) (V6 m outs c) ∗ (R c : sProp 𝕄))
      ⊢ (R1' m outs 𝒱₀ L lv ι pdats hp hbody).pre c := .rfl

/-- and left at the thread state after it. -/
theorem hpost1' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (1 : Fin 24) c = dat1 (V6 m outs c) c)
    (hbody : ∀ c : Dev nD, Pipeline.BodyObligationLoose (dat1 (Ix := Ix) (U := U) (Lvl := Lvl) (V6 m outs c) c) (defs₀ (F := F)) 𝒱₀ ι Set.univ)
    (houts : ∀ c : Dev nD, outs 7 main_v22 c = (dat1 (Ix := Ix) (U := U) (Lvl := Lvl) (V6 m outs c) c).arrAt 5 64)
    (c : Dev nD) :
    (R1' m outs 𝒱₀ L lv ι pdats hp hbody).post c
      ⊢ iprop(StableHlo.held (c : Thread nD τ) (Pipeline.ucRefs τ sig) (V7 m outs c) ∗ (R c : sProp 𝕄)) := by
  have h : (pdats (1 : Fin 24) c).arrAt Reg1.oK Reg1.cfgK.N = outs 7 main_v22 c := by
    rw [hp c]; exact (houts c).symm
  show iprop(StableHlo.held (c : Thread nD τ) (Pipeline.ucRefs τ sig)
      (Function.update (V6 m outs c) (Proc.devRef .tc main_v22) ((pdats (1 : Fin 24) c).arrAt Reg1.oK Reg1.cfgK.N))
        ∗ (R c : sProp 𝕄)) ⊢ _
  rw [h]

end Cert.KernelIdeal.Hand
-- ==== Proof.Rg2.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.SumLib
import Idealize.ShloMosaic.Lib.Tactic
import proofs.«169706_j68856915690108_1_alg».proof.Proof.Shared
import proofs.«169706_j68856915690108_1_alg».proof.Proof.RegionsKI

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k2_pay2)

  and only at the last point, 63, is that cell copied into the 1 × 1 output block, which the pipeline then writes back.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk2 (V : Valuation τ sig (Elt F)) (c : Dev nD) (w : Fin cfg2.W) (t : Fin cfg2.N) :
    ((cfg2.win w).xblock (cfg2.grid.coords t)).Idx → Elt F (cfg2.win w).elt :=
  ((cfg2.win w).blk t).view.read (Elt F)
    (V (Proc.devRef .tc (Pipeline.arrRef spec2 w)) : Buf (Elt F) ((cfg2.win w).arr.view.loc (c.tc : Thread nD τ)))

/-- One point's step on the scratch cell: the cell's contents `a` plus the sum of the tile made of the two blocks
    the point stages (the printed payload of the store into the scratch cell). -/
noncomputable def step2 (V : Valuation τ sig (Elt F)) (c : Dev nD) (n : ℕ) (hn : n < cfg2.N) (a : Vec F S1x1 .f32) : Vec F S1x1 .f32 :=
  k2_pay2 (iblk2 V c 0 ⟨n, hn⟩) (iblk2 V c 1 ⟨n, hn⟩) a

/-- What the scratch cell holds after point `n`: the steps of the points `0 … n` applied, first to last, to the
    zero the body stores at point 0. -/
noncomputable def acc2 (V : Valuation τ sig (Elt F)) (c : Dev nD) : (n : ℕ) → n < cfg2.N → Vec F S1x1 .f32
  | 0, hn => step2 V c 0 hn (k2_pay1 (F := F))
  | n + 1, hn => step2 V c (n + 1) hn (acc2 V c n (Nat.lt_of_succ_lt hn))

theorem acc2_zero (V : Valuation τ sig (Elt F)) (c : Dev nD) (hn : 0 < cfg2.N) :
    acc2 V c 0 hn = step2 V c 0 hn (k2_pay1 (F := F)) := rfl

theorem acc2_succ (V : Valuation τ sig (Elt F)) (c : Dev nD) (n : ℕ) (hn : n + 1 < cfg2.N) :
    acc2 V c (n + 1) hn = step2 V c (n + 1) hn (acc2 V c n (Nat.lt_of_succ_lt hn)) := rfl

/-- After a point that is not the first: the step of that point on what the point before left. -/
theorem acc2_pos (V : Valuation τ sig (Elt F)) (c : Dev nD) (n : ℕ) (hn : n < cfg2.N) (hz : n ≠ 0) :
    acc2 V c n hn = step2 V c n hn (acc2 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi2 (V : Valuation τ sig (Elt F)) (c : Dev nD) : (n : ℕ) → n ≤ cfg2.N → sProp 𝕄
  | 0, _ => Pipeline.scopedRest (Ix := Ix) (Name := ℕ) (U := U) (Lvl := Lvl) (Val := Elt F) spec2 c
  | n + 1, hn => iprop(owns (c : Thread nD τ) (Memref.whole cc2_scratch0) fullShare (acc2 V c n hn)
      ∗ Pipeline.scopedRestBut (Ix := Ix) (Name := ℕ) (U := U) (Lvl := Lvl) (Val := Elt F) spec2 c [cc2_scratch0])

theorem Phi2_zero (V : Valuation τ sig (Elt F)) (c : Dev nD) (n : ℕ) (h : n ≤ cfg2.N) (hz : n = 0) :
    (Phi2 V c n h : sProp 𝕄) = Pipeline.scopedRest (Ix := Ix) (Name := ℕ) (U := U) (Lvl := Lvl) (Val := Elt F) spec2 c := by
  subst hz; rfl

theorem Phi2_succ (V : Valuation τ sig (Elt F)) (c : Dev nD) (n : ℕ) (hn : n < cfg2.N) :
    (Phi2 V c (n + 1) hn : sProp 𝕄) = iprop(owns (c : Thread nD τ) (Memref.whole cc2_scratch0) fullShare (acc2 V c n hn)
      ∗ Pipeline.scopedRestBut (Ix := Ix) (Name := ℕ) (U := U) (Lvl := Lvl) (Val := Elt F) spec2 c [cc2_scratch0]) := rfl

theorem Phi2_pos (V : Valuation τ sig (Elt F)) (c : Dev nD) (n : ℕ) (h : n ≤ cfg2.N) (hz : n ≠ 0) :
    (Phi2 V c n h : sProp 𝕄) = iprop(owns (c : Thread nD τ) (Memref.whole cc2_scratch0) fullShare (acc2 V c (n - 1) (by omega))
      ∗ Pipeline.scopedRestBut (Ix := Ix) (Name := ℕ) (U := U) (Lvl := Lvl) (Val := Elt F) spec2 c [cc2_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi2`; the one
    array the two inputs read held half and half; nothing owed. -/
noncomputable def dat2 (V : Valuation τ sig (Elt F)) (c : Dev nD) : Dat τ (Elt F) Ix ℕ U Lvl cfg2 c where
  A w := V (Proc.devRef .tc (Pipeline.arrRef spec2 w))
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq2 (V : Valuation τ sig (Elt F)) (c : Dev nD) (w : Fin cfg2.W) :
    (dat2 (Ix := Ix) (U := U) (Lvl := Lvl) V c).A w = V (Proc.devRef .tc (Pipeline.arrRef spec2 w)) := by
  dsimp only [dat2]

/-- What the body leaves, window by window. -/
theorem after2_0 (V : Valuation τ sig (Elt F)) (c : Dev nD) (t : Fin cfg2.N) :
    (dat2 (Ix := Ix) (U := U) (Lvl := Lvl) V c).after 0 t = iblk2 V c 0 t := by dsimp only [dat2]
theorem after2_1 (V : Valuation τ sig (Elt F)) (c : Dev nD) (t : Fin cfg2.N) :
    (dat2 (Ix := Ix) (U := U) (Lvl := Lvl) V c).after 1 t = iblk2 V c 1 t := by dsimp only [dat2]
theorem after2_2 (V : Valuation τ sig (Elt F)) (c : Dev nD) (t : Fin cfg2.N) :
    (dat2 (Ix := Ix) (U := U) (Lvl := Lvl) V c).after 2 t = acc2 V c t.val t.isLt := by dsimp only [dat2]

/-- The invariant at a point's start, and at its end. -/
theorem Phi2_castSucc (V : Valuation τ sig (Elt F)) (c : Dev nD) (t : Fin cfg2.N) :
    (dat2 (Ix := Ix) (U := U) (Lvl := Lvl) V c).Φ t.castSucc = Phi2 V c t.val (Nat.le_of_lt t.isLt) := by
  dsimp only [dat2]; simp only [Fin.coe_castSucc]

theorem Phi2_at_succ (V : Valuation τ sig (Elt F)) (c : Dev nD) (t : Fin cfg2.N) :
    (dat2 (Ix := Ix) (U := U) (Lvl := Lvl) V c).Φ t.succ = Phi2 V c (t.val + 1) t.isLt := rfl

/-- Before the first point the invariant is the launch's scoped rest. -/
theorem Phi_first2 (V : Valuation τ sig (Elt F)) (c : Dev nD) :
    (dat2 (Ix := Ix) (U := U) (Lvl := Lvl) V c).Φ 0
      = Pipeline.scopedRest (Ix := Ix) (Name := ℕ) (U := U) (Lvl := Lvl) (Val := Elt F) spec2 c := rfl

/-- After the last point the invariant gives the scoped rest back: the scratch cell's contents are forgotten. -/
theorem Phi_last2 (V : Valuation τ sig (Elt F)) (c : Dev nD) :
    (dat2 (Ix := Ix) (U := U) (Lvl := Lvl) V c).Φ (Fin.last cfg2.N)
      ⊢ Pipeline.scopedRest (Ix := Ix) (Name := ℕ) (U := U) (Lvl := Lvl) (Val := Elt F) spec2 c := by
  have hN : cfg2.N = 64 := N_2
  rw [show (dat2 (Ix := Ix) (U := U) (Lvl := Lvl) V c).Φ (Fin.last cfg2.N) = Phi2 V c (Fin.last cfg2.N).val (Nat.le_of_lt_succ (Fin.last cfg2.N).isLt) from rfl,
    Phi2_pos V c _ _ (by rw [Fin.val_last]; omega), scopedRest2_split, owns_whole]
  iintro ⟨Hs, Hr⟩
  isplitl [Hs]
  · iexists _; iexact Hs
  iexact Hr

example (V : Valuation τ sig (Elt F)) (c : Dev nD) : Dat τ (Elt F) Ix ℕ U Lvl (cfgs 2) c := dat2 V c

end Cert.KernelIdeal.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k2_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond2_1 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond2_2 (i : grid2.Coords) : Prop := k2_cond2 i = 1#1

/-- The reset runs at the first point only, -/
theorem hcond2_1 : ∀ t : Fin cfg2.N, cond2_1 (grid2.coords t) ↔ t.val = 0 :=
  (by decide +kernel : ∀ t : Fin grid2.N, cond2_1 (grid2.coords t) ↔ t.val = 0)
/-- the copy at the last point only. -/
theorem hcond2_2 : ∀ t : Fin cfg2.N, cond2_2 (grid2.coords t) ↔ t.val = 63 :=
  (by decide +kernel : ∀ t : Fin grid2.N, cond2_2 (grid2.coords t) ↔ t.val = 63)

/-! ## The body, case by case, on any whole memrefs -/

/-- The first point: the scratch cell, at anything, is reset and then holds the first step on zero. -/
theorem run2_A (𝒱₀ : Variants) (c : Dev nD) (i : grid2.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond2_1 i) (hc2 : ¬cond2_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k2_pay2 x2 x3 (k2_pay1 (F := F)))) -∗ K ⟨⟩))
      ⊢ wp frame (wpE (defs₀ (F := F)) 𝒱₀ c none) E (cc2__sum_kernel i arg2 harg2 arg3 harg3 arg4 harg4 arg5 harg5) K := by
  simp only [cc2__sum_kernel_eq_skeleton]; unfold cc2__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run2_A.sl.v15 run2_A.sl.H5_1
  rw [readCov_whole _ zeros2, readAt_whole _ _ zeros2, readAt_whole _ _ zeros2]

/-- A point strictly between the first and the last: the scratch cell at `a` takes the point's step. -/
theorem run2_B (𝒱₀ : Variants) (c : Dev nD) (i : grid2.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond2_1 i) (hc2 : ¬cond2_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k2_pay2 x2 x3 a)) -∗ K ⟨⟩))
      ⊢ wp frame (wpE (defs₀ (F := F)) 𝒱₀ c none) E (cc2__sum_kernel i arg2 harg2 arg3 harg3 arg4 harg4 arg5 harg5) K := by
  simp only [cc2__sum_kernel_eq_skeleton]; unfold cc2__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run2_C (𝒱₀ : Variants) (c : Dev nD) (i : grid2.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond2_1 i) (hc2 : cond2_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k2_pay2 x2 x3 a) ∗ owns (c : Thread nD τ) arg5 fullShare (k2_pay2 x2 x3 a)) -∗ K ⟨⟩))
      ⊢ wp frame (wpE (defs₀ (F := F)) 𝒱₀ c none) E (cc2__sum_kernel i arg2 harg2 arg3 harg3 arg4 harg4 arg5 harg5) K := by
  simp only [cc2__sum_kernel_eq_skeleton]; unfold cc2__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run2_C.sl.v25 run2_C.sl.H5_1
    rw [readCov_whole _ zeros2, readAt_whole _ _ zeros2, readAt_whole _ _ zeros2, readAt_whole _ _ zeros2]
  iexists _; isplitr
  swap; · iexact H5
  ipureintro
  unfold run2_C.sl.H5_1
  rw [read_writes_whole _ _ zeros2, readAt_whole _ _ zeros2, readAt_whole _ _ zeros2, readAt_whole _ _ zeros2]

end Cert.KernelIdeal.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle2_2 : ∀ t : Fin cfg2.N, cfg2.idle 2 (grid2.coords t) = true ↔ t.val ≠ 63 :=
  (by decide +kernel : ∀ t : Fin grid2.N, idle2 2 (grid2.coords t) = true ↔ t.val ≠ 63)
/-- and written back at the last point only. -/
theorem flush2_2' : ∀ t : Fin cfg2.N, (cfg2.win 2).flush t = true ↔ t.val = 63 :=
  (by decide +kernel : ∀ t : Fin grid2.N, win2_2.flush t = true ↔ t.val = 63)

/-! ## What the body finds in the inputs' buffers -/

/-- Each input's current staging buffer holds its block at every point, fetched there or not: unfetched, the block
    index has not moved and the body left the block in place. -/
theorem before2_0 (V : Valuation τ sig (Elt F)) (c : Dev nD) (t : Fin cfg2.N) (d) :
    (dat2 (Ix := Ix) (U := U) (Lvl := Lvl) V c).before 0 t d = iblk2 V c 0 t :=
  ((dat2 (Ix := Ix) (U := U) (Lvl := Lvl) V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (V : Valuation τ sig (Elt F)) (c : Dev nD) (t : Fin cfg2.N) (d) :
    (dat2 (Ix := Ix) (U := U) (Lvl := Lvl) V c).before 1 t d = iblk2 V c 1 t :=
  ((dat2 (Ix := Ix) (U := U) (Lvl := Lvl) V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-! ## What the obligation asks of each window's buffer after the body -/

/-- The inputs are never idle: their buffers are handed back at their blocks. -/
theorem leaves2_0 (V : Valuation τ sig (Elt F)) (c : Dev nD) (t : Fin cfg2.N) :
    (dat2 (Ix := Ix) (U := U) (Lvl := Lvl) V c).leaves 0 t = owns (c : Thread nD τ) (st2_0 t) fullShare (iblk2 V c 0 t) := by
  rw [← after2_0 (Ix := Ix) (U := U) (Lvl := Lvl) V c t]

theorem leaves2_1 (V : Valuation τ sig (Elt F)) (c : Dev nD) (t : Fin cfg2.N) :
    (dat2 (Ix := Ix) (U := U) (Lvl := Lvl) V c).leaves 1 t = owns (c : Thread nD τ) (st2_1 t) fullShare (iblk2 V c 1 t) := by
  rw [← after2_1 (Ix := Ix) (U := U) (Lvl := Lvl) V c t]

/-- The output is idle, and not written back, at every point but the last: its buffer is handed back as found; -/
theorem leaves2_2_idle (V : Valuation τ sig (Elt F)) (c : Dev nD) (t : Fin cfg2.N) (h : t.val ≠ 63) :
    (dat2 (Ix := Ix) (U := U) (Lvl := Lvl) V c).leaves 2 t
      = iprop(∃ d, owns (c : Thread nD τ) (st2_2 t) fullShare ((dat2 (Ix := Ix) (U := U) (Lvl := Lvl) V c).before 2 t d)) :=
  (dat2 (Ix := Ix) (U := U) (Lvl := Lvl) V c).leaves_idle 2 t ((idle2_2 t).mpr h)
    (Bool.eq_false_iff.mpr fun hf => h ((flush2_2' t).mp hf))

/-- at the last point it is handed back at the accumulated sum. -/
theorem leaves2_2_last (V : Valuation τ sig (Elt F)) (c : Dev nD) (t : Fin cfg2.N) (h : t.val = 63) :
    (dat2 (Ix := Ix) (U := U) (Lvl := Lvl) V c).leaves 2 t = owns (c : Thread nD τ) (st2_2 t) fullShare (acc2 V c t.val t.isLt) := by
  have hl : cfg2.idle 2 (grid2.coords t) = false := by
    cases hi : cfg2.idle 2 (grid2.coords t) with
    | false => rfl
    | true => exact absurd h ((idle2_2 t).mp hi)
  rw [← after2_2 (Ix := Ix) (U := U) (Lvl := Lvl) V c t]
  unfold Dat.leaves; rw [hl]

/-- One step at a point, through the point itself. -/
theorem step2_at (V : Valuation τ sig (Elt F)) (c : Dev nD) (t : Fin cfg2.N) (a : Vec F S1x1 .f32) :
    step2 V c t.val t.isLt a = k2_pay2 (iblk2 V c 0 t) (iblk2 V c 1 t) a := rfl

theorem acc2_first (V : Valuation τ sig (Elt F)) (c : Dev nD) (n : ℕ) (hn : n < cfg2.N) (hz : n = 0) :
    acc2 V c n hn = step2 V c n hn (k2_pay1 (F := F)) := by
  subst hz; rfl

/-! ## The body obligation -/

/-- What the body is called with at point `t` (the obligation's precondition, the windows one by one), -/
noncomputable def bodyPre2 (V : Valuation τ sig (Elt F)) (ι : Ix) (c : Dev nD) (t : Fin cfg2.N) : sProp 𝕄 :=
  iprop((dat2 (Ix := Ix) (U := U) (Lvl := Lvl) V c).Φ t.castSucc ∗ (dat2 (Ix := Ix) (U := U) (Lvl := Lvl) V c).owesAt ι t.castSucc
    ∗ (∃ d, owns (c : Thread nD τ) (st2_0 t) fullShare ((dat2 (Ix := Ix) (U := U) (Lvl := Lvl) V c).before 0 t d))
    ∗ (∃ d, owns (c : Thread nD τ) (st2_1 t) fullShare ((dat2 (Ix := Ix) (U := U) (Lvl := Lvl) V c).before 1 t d))
    ∗ (∃ d, owns (c : Thread nD τ) (st2_2 t) fullShare ((dat2 (Ix := Ix) (U := U) (Lvl := Lvl) V c).before 2 t d)))

/-- and what it returns. -/
noncomputable def bodyPost2 (V : Valuation τ sig (Elt F)) (ι : Ix) (c : Dev nD) (t : Fin cfg2.N) : sProp 𝕄 :=
  iprop((dat2 (Ix := Ix) (U := U) (Lvl := Lvl) V c).Φ t.succ ∗ (dat2 (Ix := Ix) (U := U) (Lvl := Lvl) V c).owesAt ι t.succ
    ∗ (dat2 (Ix := Ix) (U := U) (Lvl := Lvl) V c).leaves 0 t ∗ (dat2 (Ix := Ix) (U := U) (Lvl := Lvl) V c).leaves 1 t ∗ (dat2 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body2 (V : Valuation τ sig (Elt F)) (𝒱₀ : Variants) (ι : Ix) (c : Dev nD) (t : Fin cfg2.N) :
    bodyPre2 (U := U) (Lvl := Lvl) V ι c t
      ⊢ wp frame (wpE (defs₀ (F := F)) 𝒱₀ c none) Set.univ (bodyAt2 t) (fun _ => bodyPost2 (U := U) (Lvl := Lvl) V ι c t) := by
  unfold bodyPre2 bodyPost2 bodyAt2
  simp only [before2_0, before2_1]
  rw [show (dat2 (Ix := Ix) (U := U) (Lvl := Lvl) V c).owesAt ι t.succ = (dat2 (Ix := Ix) (U := U) (Lvl := Lvl) V c).owesAt ι t.castSucc from rfl]
  rw [Phi2_at_succ, Phi2_succ, Phi2_castSucc, leaves2_0, leaves2_1]
  have hN : t.val < 64 := lt_of_lt_of_eq t.isLt N_2
  by_cases hz : t.val = 0
  · have hc1 : cond2_1 (grid2.coords t) := (hcond2_1 t).mpr hz
    have hc2 : ¬cond2_2 (grid2.coords t) := fun h => by have := (hcond2_2 t).mp h; omega
    rw [leaves2_2_idle V c t (by omega), Phi2_zero V c _ _ hz, scopedRest2_split, acc2_first V c _ _ hz, step2_at]
    iintro ⟨⟨⟨%f, Hs⟩, Hr⟩, Ho, ⟨%d0, H0⟩, ⟨%d1, H1⟩, H2⟩
    iapply (run2_A 𝒱₀ c (grid2.coords t) _ _ _ _ _ _ _ _ hc1 hc2 (iblk2 V c 0 t) (iblk2 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond2_1 (grid2.coords t) := fun h => hz ((hcond2_1 t).mp h)
    rw [Phi2_pos V c _ _ hz, acc2_pos V c _ _ hz, step2_at]
    by_cases hl : t.val = 63
    · have hc2 : cond2_2 (grid2.coords t) := (hcond2_2 t).mpr hl
      rw [leaves2_2_last V c t hl, acc2_pos V c _ _ hz, step2_at]
      iintro ⟨⟨Hs, Hr⟩, Ho, ⟨%d0, H0⟩, ⟨%d1, H1⟩, ⟨%d2, H2⟩⟩
      iapply (run2_C 𝒱₀ c (grid2.coords t) _ _ _ _ _ _ _ _ hc1 hc2 (iblk2 V c 0 t) (iblk2 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond2_2 (grid2.coords t) := fun h => hl ((hcond2_2 t).mp h)
      rw [leaves2_2_idle V c t hl]
      iintro ⟨⟨Hs, Hr⟩, Ho, ⟨%d0, H0⟩, ⟨%d1, H1⟩, H2⟩
      iapply (run2_B 𝒱₀ c (grid2.coords t) _ _ _ _ _ _ _ _ hc1 hc2 (iblk2 V c 0 t) (iblk2 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body2 (V : Valuation τ sig (Elt F)) (𝒱₀ : Variants) (ι : Ix) :
    ∀ c : Dev nD, BodyObligationLoose (dat2 (Ix := Ix) (U := U) (Lvl := Lvl) V c) (defs₀ (F := F)) 𝒱₀ ι Set.univ := fun c t => by
  rw [bigSep_W2, bigSep_W2]
  exact sound_body2 (U := U) (Lvl := Lvl) V 𝒱₀ ι c t

end Cert.KernelIdeal.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg2

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (2 : Fin 24)
/-- Its configuration, its windows but for their index maps, the number of its windows. -/
abbrev cfgK : Pipeline.Cfg sig Λ₀ := cfg2
abbrev specK : Fin 3 → Pipeline.WinSpec sig cfgK.grid.rank := spec2
abbrev nW : Nat := 3
/-- Its output window and the buffer behind it. -/
abbrev oK : Fin nW := 2
abbrev outK : Ref sig .tc := main_v88
theorem winK : Pipeline.WinFacts₀ specK := winFacts₀2
theorem block_posK : ∀ w : Fin nW, 0 < (specK w).block.numel := block_pos2
theorem arr_wholeK : ∀ w : Fin nW, (specK w).arr.IsWhole := arr_whole2
theorem stage_wholeK : ∀ (w : Fin nW) (s : Fin (specK w).nbuf), ((specK w).stage s).IsWhole := stage_whole2

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.KernelIdeal.Hand.Reg2

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R2' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (2 : Fin 24) c = dat2 (V15 m outs c) c)
    (hbody : ∀ c : Dev nD, Pipeline.BodyObligationLoose (dat2 (Ix := Ix) (U := U) (Lvl := Lvl) (V15 m outs c) c) (defs₀ (F := F)) 𝒱₀ ι Set.univ) :
    RegionSeg (pcfgs (F := F)) GenP.adm pdats ι defs₀ 𝒱₀ L lv (2 : Fin 24) :=
  Reg2.RK 𝒱₀ L lv ι pdats (fun c => V15 m outs c)
    (fun c => by rw [hp c]; exact hbody c)
    (fun c w => by rw [hp c]; exact A_eq2 (V15 m outs c) c w)
    (fun c => by rw [hp c]; exact PosShare.mem_left_op_right fullShare)
    (fun c t => by rw [hp c]; rfl)
    (fun c => by rw [hp c]; rfl)
    (fun c => by rw [hp c, Phi_first2])
    (fun c => by rw [hp c]; exact Phi_last2 (V15 m outs c) c)

/-- It is entered from the thread state before the region's item, -/
theorem hpre2' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (2 : Fin 24) c = dat2 (V15 m outs c) c)
    (hbody : ∀ c : Dev nD, Pipeline.BodyObligationLoose (dat2 (Ix := Ix) (U := U) (Lvl := Lvl) (V15 m outs c) c) (defs₀ (F := F)) 𝒱₀ ι Set.univ)
    (c : Dev nD) :
    iprop(StableHlo.held (c : Thread nD τ) (Pipeline.ucRefs τ sig) (V15 m outs c) ∗ (R c : sProp 𝕄))
      ⊢ (R2' m outs 𝒱₀ L lv ι pdats hp hbody).pre c := .rfl

/-- and left at the thread state after it. -/
theorem hpost2' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (2 : Fin 24) c = dat2 (V15 m outs c) c)
    (hbody : ∀ c : Dev nD, Pipeline.BodyObligationLoose (dat2 (Ix := Ix) (U := U) (Lvl := Lvl) (V15 m outs c) c) (defs₀ (F := F)) 𝒱₀ ι Set.univ)
    (houts : ∀ c : Dev nD, outs 16 main_v88 c = (dat2 (Ix := Ix) (U := U) (Lvl := Lvl) (V15 m outs c) c).arrAt 2 64)
    (c : Dev nD) :
    (R2' m outs 𝒱₀ L lv ι pdats hp hbody).post c
      ⊢ iprop(StableHlo.held (c : Thread nD τ) (Pipeline.ucRefs τ sig) (V16 m outs c) ∗ (R c : sProp 𝕄)) := by
  have h : (pdats (2 : Fin 24) c).arrAt Reg2.oK Reg2.cfgK.N = outs 16 main_v88 c := by
    rw [hp c]; exact (houts c).symm
  show iprop(StableHlo.held (c : Thread nD τ) (Pipeline.ucRefs τ sig)
      (Function.update (V15 m outs c) (Proc.devRef .tc main_v88) ((pdats (2 : Fin 24) c).arrAt Reg2.oK Reg2.cfgK.N))
        ∗ (R c : sProp 𝕄)) ⊢ _
  rw [h]

end Cert.KernelIdeal.Hand
-- ==== Proof.Rg3.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.ApplyLib
import proofs.«169706_j68856915690108_1_alg».proof.Proof.Shared
import proofs.«169706_j68856915690108_1_alg».proof.Proof.RegionsKI

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k3_pay1 x_i` and `step t a = k3_pay2 h_i h_j threshold x_j a`, the printed payloads of the two stores.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk3 (V : Valuation τ sig (Elt F)) (c : Dev nD) (w : Fin cfg3.W) (t : Fin cfg3.N) :
    ((cfg3.win w).xblock (cfg3.grid.coords t)).Idx → Elt F (cfg3.win w).elt :=
  ((cfg3.win w).blk t).view.read (Elt F)
    (V (Proc.devRef .tc (Pipeline.arrRef spec3 w)) : Buf (Elt F) ((cfg3.win w).arr.view.loc (c.tc : Thread nD τ)))

/-- What the accumulator is reset to at a point whose second coordinate is 0: 1.0 times the block of `x` window 3
    stages there (the printed payload of the first store into the scratch buffer). -/
noncomputable def init3 (V : Valuation τ sig (Elt F)) (c : Dev nD) (n : ℕ) (hn : n < cfg3.N) : Vec F S512x256 .f32 :=
  k3_pay1 (iblk3 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step3 (V : Valuation τ sig (Elt F)) (c : Dev nD) (n : ℕ) (hn : n < cfg3.N) (a : Vec F S512x256 .f32) : Vec F S512x256 .f32 :=
  k3_pay2 (iblk3 V c 1 ⟨n, hn⟩) (iblk3 V c 2 ⟨n, hn⟩) (iblk3 V c 0 ⟨n, hn⟩) (iblk3 V c 4 ⟨n, hn⟩) a

/-- What the accumulator holds after point `n`: reset and stepped at the points ≡ 0 (mod 8), stepped from what the
    point before left at the others. -/
noncomputable def acc3 (V : Valuation τ sig (Elt F)) (c : Dev nD) : (n : ℕ) → n < cfg3.N → Vec F S512x256 .f32
  | 0, hn => step3 V c 0 hn (init3 V c 0 hn)
  | n + 1, hn =>
    if (n + 1) % 8 = 0 then step3 V c (n + 1) hn (init3 V c (n + 1) hn)
    else step3 V c (n + 1) hn (acc3 V c n (Nat.lt_of_succ_lt hn))

/-- After a point ≡ 0 (mod 8): the reset value, stepped once. -/
theorem acc3_reset (V : Valuation τ sig (Elt F)) (c : Dev nD) (n : ℕ) (hn : n < cfg3.N) (h0 : n % 8 = 0) :
    acc3 V c n hn = step3 V c n hn (init3 V c n hn) := by
  cases n with
  | zero => rfl
  | succ n => exact if_pos h0

/-- After any other point: that point's step on what the point before left. -/
theorem acc3_step (V : Valuation τ sig (Elt F)) (c : Dev nD) (n : ℕ) (hn : n < cfg3.N) (h0 : ¬n % 8 = 0) :
    acc3 V c n hn = step3 V c n hn (acc3 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi3 (V : Valuation τ sig (Elt F)) (c : Dev nD) : (n : ℕ) → n ≤ cfg3.N → sProp 𝕄
  | 0, _ => Pipeline.scopedRest (Ix := Ix) (Name := ℕ) (U := U) (Lvl := Lvl) (Val := Elt F) spec3 c
  | n + 1, hn => iprop(owns (c : Thread nD τ) (Memref.whole cc3_scratch0) fullShare (acc3 V c n hn)
      ∗ Pipeline.scopedRestBut (Ix := Ix) (Name := ℕ) (U := U) (Lvl := Lvl) (Val := Elt F) spec3 c [cc3_scratch0])

theorem Phi3_zero (V : Valuation τ sig (Elt F)) (c : Dev nD) (n : ℕ) (h : n ≤ cfg3.N) (hz : n = 0) :
    (Phi3 V c n h : sProp 𝕄) = Pipeline.scopedRest (Ix := Ix) (Name := ℕ) (U := U) (Lvl := Lvl) (Val := Elt F) spec3 c := by
  subst hz; rfl

theorem Phi3_succ (V : Valuation τ sig (Elt F)) (c : Dev nD) (n : ℕ) (hn : n < cfg3.N) :
    (Phi3 V c (n + 1) hn : sProp 𝕄) = iprop(owns (c : Thread nD τ) (Memref.whole cc3_scratch0) fullShare (acc3 V c n hn)
      ∗ Pipeline.scopedRestBut (Ix := Ix) (Name := ℕ) (U := U) (Lvl := Lvl) (Val := Elt F) spec3 c [cc3_scratch0]) := rfl

theorem Phi3_pos (V : Valuation τ sig (Elt F)) (c : Dev nD) (n : ℕ) (h : n ≤ cfg3.N) (hz : n ≠ 0) :
    (Phi3 V c n h : sProp 𝕄) = iprop(owns (c : Thread nD τ) (Memref.whole cc3_scratch0) fullShare (acc3 V c (n - 1) (by omega))
      ∗ Pipeline.scopedRestBut (Ix := Ix) (Name := ℕ) (U := U) (Lvl := Lvl) (Val := Elt F) spec3 c [cc3_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi3`; the
    threshold's array held whole, each of the two arrays that two input windows read held half and half; nothing owed. -/
noncomputable def dat3 (V : Valuation τ sig (Elt F)) (c : Dev nD) : Dat τ (Elt F) Ix ℕ U Lvl cfg3 c where
  A w := V (Proc.devRef .tc (Pipeline.arrRef spec3 w))
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => acc3 V c t.val t.isLt
  Φ t := Phi3 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq3 (V : Valuation τ sig (Elt F)) (c : Dev nD) (w : Fin cfg3.W) :
    (dat3 (Ix := Ix) (U := U) (Lvl := Lvl) V c).A w = V (Proc.devRef .tc (Pipeline.arrRef spec3 w)) := by
  dsimp only [dat3]

/-- What the body leaves, window by window. -/
theorem after3_0 (V : Valuation τ sig (Elt F)) (c : Dev nD) (t : Fin cfg3.N) :
    (dat3 (Ix := Ix) (U := U) (Lvl := Lvl) V c).after 0 t = iblk3 V c 0 t := by dsimp only [dat3]
theorem after3_1 (V : Valuation τ sig (Elt F)) (c : Dev nD) (t : Fin cfg3.N) :
    (dat3 (Ix := Ix) (U := U) (Lvl := Lvl) V c).after 1 t = iblk3 V c 1 t := by dsimp only [dat3]
theorem after3_2 (V : Valuation τ sig (Elt F)) (c : Dev nD) (t : Fin cfg3.N) :
    (dat3 (Ix := Ix) (U := U) (Lvl := Lvl) V c).after 2 t = iblk3 V c 2 t := by dsimp only [dat3]
theorem after3_3 (V : Valuation τ sig (Elt F)) (c : Dev nD) (t : Fin cfg3.N) :
    (dat3 (Ix := Ix) (U := U) (Lvl := Lvl) V c).after 3 t = iblk3 V c 3 t := by dsimp only [dat3]
theorem after3_4 (V : Valuation τ sig (Elt F)) (c : Dev nD) (t : Fin cfg3.N) :
    (dat3 (Ix := Ix) (U := U) (Lvl := Lvl) V c).after 4 t = iblk3 V c 4 t := by dsimp only [dat3]
theorem after3_5 (V : Valuation τ sig (Elt F)) (c : Dev nD) (t : Fin cfg3.N) :
    (dat3 (Ix := Ix) (U := U) (Lvl := Lvl) V c).after 5 t = acc3 V c t.val t.isLt := by dsimp only [dat3]

/-- The shares the input arrays are held at. -/
theorem q3_0 (V : Valuation τ sig (Elt F)) (c : Dev nD) : (dat3 (Ix := Ix) (U := U) (Lvl := Lvl) V c).q 0 = fullShare := by dsimp only [dat3]
theorem q3_1 (V : Valuation τ sig (Elt F)) (c : Dev nD) : (dat3 (Ix := Ix) (U := U) (Lvl := Lvl) V c).q 1 = fullShare.left := by dsimp only [dat3]
theorem q3_2 (V : Valuation τ sig (Elt F)) (c : Dev nD) : (dat3 (Ix := Ix) (U := U) (Lvl := Lvl) V c).q 2 = fullShare.right := by dsimp only [dat3]
theorem q3_3 (V : Valuation τ sig (Elt F)) (c : Dev nD) : (dat3 (Ix := Ix) (U := U) (Lvl := Lvl) V c).q 3 = fullShare.left := by dsimp only [dat3]
theorem q3_4 (V : Valuation τ sig (Elt F)) (c : Dev nD) : (dat3 (Ix := Ix) (U := U) (Lvl := Lvl) V c).q 4 = fullShare.right := by dsimp only [dat3]

/-- The invariant at a point's start, and at its end. -/
theorem Phi3_castSucc (V : Valuation τ sig (Elt F)) (c : Dev nD) (t : Fin cfg3.N) :
    (dat3 (Ix := Ix) (U := U) (Lvl := Lvl) V c).Φ t.castSucc = Phi3 V c t.val (Nat.le_of_lt t.isLt) := by
  dsimp only [dat3]; simp only [Fin.coe_castSucc]

theorem Phi3_at_succ (V : Valuation τ sig (Elt F)) (c : Dev nD) (t : Fin cfg3.N) :
    (dat3 (Ix := Ix) (U := U) (Lvl := Lvl) V c).Φ t.succ = Phi3 V c (t.val + 1) t.isLt := rfl

/-- Before the first point the invariant is the launch's scoped rest. -/
theorem Phi_first3 (V : Valuation τ sig (Elt F)) (c : Dev nD) :
    (dat3 (Ix := Ix) (U := U) (Lvl := Lvl) V c).Φ 0
      = Pipeline.scopedRest (Ix := Ix) (Name := ℕ) (U := U) (Lvl := Lvl) (Val := Elt F) spec3 c := rfl

/-- After the last point the invariant gives the scoped rest back: the accumulator's contents are forgotten. -/
theorem Phi_last3 (V : Valuation τ sig (Elt F)) (c : Dev nD) :
    (dat3 (Ix := Ix) (U := U) (Lvl := Lvl) V c).Φ (Fin.last cfg3.N)
      ⊢ Pipeline.scopedRest (Ix := Ix) (Name := ℕ) (U := U) (Lvl := Lvl) (Val := Elt F) spec3 c := by
  have hN : cfg3.N = 64 := N_3
  rw [show (dat3 (Ix := Ix) (U := U) (Lvl := Lvl) V c).Φ (Fin.last cfg3.N) = Phi3 V c (Fin.last cfg3.N).val (Nat.le_of_lt_succ (Fin.last cfg3.N).isLt) from rfl,
    Phi3_pos V c _ _ (by rw [Fin.val_last]; omega), scopedRest3_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 3) c := dat3 V c

end Cert.KernelIdeal.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k3_pay2 hI hJ mn xJ s` — `s` plus the 0/1 mask of (hI · hJᵀ > mn) times `xJ` — and the value
  the accumulator is reset to is `k3_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond3_0 (i : grid3.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond3_1 (i : grid3.Coords) : Prop := k3_cond2 i = 1#1

/-! ## The three runs -/

/-- At a point whose second coordinate is 0 (and not 7): the accumulator, at anything, is reset to `k3_pay1 xI` and
    stepped once; every window's buffer is handed back as found. -/
theorem run3_first (𝒱₀ : Variants) (c : Dev nD) (i : grid3.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond3_0 i) (hc1 : ¬cond3_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k3_pay2 hI hJ mn xJ (k3_pay1 xI))) -∗ K ⟨⟩))
      ⊢ wp frame (wpE (defs₀ (F := F)) 𝒱₀ c none) E (cc3__apply_kernel i arg2 harg2 arg3 harg3 arg4 harg4 arg5 harg5 arg6 harg6 arg7 harg7 arg8 harg8) K := by
  simp only [cc3__apply_kernel_eq_skeleton]; unfold cc3__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run3_mid (𝒱₀ : Variants) (c : Dev nD) (i : grid3.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond3_0 i) (hc1 : ¬cond3_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k3_pay2 hI hJ mn xJ s)) -∗ K ⟨⟩))
      ⊢ wp frame (wpE (defs₀ (F := F)) 𝒱₀ c none) E (cc3__apply_kernel i arg2 harg2 arg3 harg3 arg4 harg4 arg5 harg5 arg6 harg6 arg7 harg7 arg8 harg8) K := by
  simp only [cc3__apply_kernel_eq_skeleton]; unfold cc3__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run3_last (𝒱₀ : Variants) (c : Dev nD) (i : grid3.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond3_0 i) (hc1 : cond3_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k3_pay2 hI hJ mn xJ s)
        ∗ owns (c : Thread nD τ) arg8 fullShare (k3_pay2 hI hJ mn xJ s)) -∗ K ⟨⟩))
      ⊢ wp frame (wpE (defs₀ (F := F)) 𝒱₀ c none) E (cc3__apply_kernel i arg2 harg2 arg3 harg3 arg4 harg4 arg5 harg5 arg6 harg6 arg7 harg7 arg8 harg8) K := by
  simp only [cc3__apply_kernel_eq_skeleton]; unfold cc3__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.KernelIdeal.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc3`. The three control cases are
  decided over the grid by the point's residue mod 8, and in each the kernel's run (ApplyRun.lean) applies.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond3_0 : ∀ t : Fin cfg3.N, cond3_0 (grid3.coords t) ↔ t.val % 8 = 0 :=
  (by decide +kernel : ∀ t : Fin grid3.N, cond3_0 (grid3.coords t) ↔ t.val % 8 = 0)
/-- It is stored into the output block at the points ≡ 7 (mod 8). -/
theorem hcond3_1 : ∀ t : Fin cfg3.N, cond3_1 (grid3.coords t) ↔ t.val % 8 = 7 :=
  (by decide +kernel : ∀ t : Fin grid3.N, cond3_1 (grid3.coords t) ↔ t.val % 8 = 7)
/-- The output window is idle at every other point, -/
theorem idleAt3_5 : ∀ t : Fin cfg3.N, ¬t.val % 8 = 7 → cfg3.idle 5 (grid3.coords t) = true :=
  (by decide +kernel : ∀ t : Fin grid3.N, ¬t.val % 8 = 7 → cfg3.idle 5 (grid3.coords t) = true)
/-- live at those, -/
theorem liveAt3_5 : ∀ t : Fin cfg3.N, t.val % 8 = 7 → cfg3.idle 5 (grid3.coords t) = false :=
  (by decide +kernel : ∀ t : Fin grid3.N, t.val % 8 = 7 → cfg3.idle 5 (grid3.coords t) = false)
/-- and not written back where it is idle. -/
theorem noFlush3_5 (t : Fin cfg3.N) (h : ¬t.val % 8 = 7) : (cfg3.win 5).flush t = false := by
  cases hf : (cfg3.win 5).flush t with
  | false => rfl
  | true => exact absurd ((flush3_5 t).mp hf) h

/-! ## What the body finds in the inputs' buffers and leaves in every buffer -/

/-- Each input's current staging buffer holds its block at every point, fetched there or not. -/
theorem before3_0 (V : Valuation τ sig (Elt F)) (c : Dev nD) (t : Fin cfg3.N) (d) : (dat3 (Ix := Ix) (U := U) (Lvl := Lvl) V c).before 0 t d = iblk3 V c 0 t :=
  ((dat3 (Ix := Ix) (U := U) (Lvl := Lvl) V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (V : Valuation τ sig (Elt F)) (c : Dev nD) (t : Fin cfg3.N) (d) : (dat3 (Ix := Ix) (U := U) (Lvl := Lvl) V c).before 1 t d = iblk3 V c 1 t :=
  ((dat3 (Ix := Ix) (U := U) (Lvl := Lvl) V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (V : Valuation τ sig (Elt F)) (c : Dev nD) (t : Fin cfg3.N) (d) : (dat3 (Ix := Ix) (U := U) (Lvl := Lvl) V c).before 2 t d = iblk3 V c 2 t :=
  ((dat3 (Ix := Ix) (U := U) (Lvl := Lvl) V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)
theorem before3_3 (V : Valuation τ sig (Elt F)) (c : Dev nD) (t : Fin cfg3.N) (d) : (dat3 (Ix := Ix) (U := U) (Lvl := Lvl) V c).before 3 t d = iblk3 V c 3 t :=
  ((dat3 (Ix := Ix) (U := U) (Lvl := Lvl) V c).before_in_eq_fetched 3 rfl (fun _ => rfl) (fun _ _ _ => rfl)
      (fun t => by rw [after3_3]; unfold Dat.blockOf iblk3; rw [A_eq3]; try rfl) t d).trans
    (by unfold Dat.fetched Dat.blockOf iblk3; rw [A_eq3]; try rfl)
theorem before3_4 (V : Valuation τ sig (Elt F)) (c : Dev nD) (t : Fin cfg3.N) (d) : (dat3 (Ix := Ix) (U := U) (Lvl := Lvl) V c).before 4 t d = iblk3 V c 4 t :=
  ((dat3 (Ix := Ix) (U := U) (Lvl := Lvl) V c).before_in_eq_fetched 4 rfl (fun _ => rfl) (fun _ _ _ => rfl)
      (fun t => by rw [after3_4]; unfold Dat.blockOf iblk3; rw [A_eq3]; try rfl) t d).trans
    (by unfold Dat.fetched Dat.blockOf iblk3; rw [A_eq3]; try rfl)

/-! ## The body obligation, at a generic point -/

/-- What the body is called with at point `t` (the obligation's precondition, the windows one by one), -/
noncomputable def bodyPre3 (V : Valuation τ sig (Elt F)) (c : Dev nD) (ι : Ix) (t : Fin cfg3.N) : sProp 𝕄 :=
  iprop((dat3 (Ix := Ix) (U := U) (Lvl := Lvl) V c).Φ t.castSucc ∗ (dat3 (Ix := Ix) (U := U) (Lvl := Lvl) V c).owesAt ι t.castSucc
    ∗ (∃ d, owns (c : Thread nD τ) (st3_0 t) fullShare ((dat3 (Ix := Ix) (U := U) (Lvl := Lvl) V c).before 0 t d))
    ∗ (∃ d, owns (c : Thread nD τ) (st3_1 t) fullShare ((dat3 (Ix := Ix) (U := U) (Lvl := Lvl) V c).before 1 t d))
    ∗ (∃ d, owns (c : Thread nD τ) (st3_2 t) fullShare ((dat3 (Ix := Ix) (U := U) (Lvl := Lvl) V c).before 2 t d))
    ∗ (∃ d, owns (c : Thread nD τ) (st3_3 t) fullShare ((dat3 (Ix := Ix) (U := U) (Lvl := Lvl) V c).before 3 t d))
    ∗ (∃ d, owns (c : Thread nD τ) (st3_4 t) fullShare ((dat3 (Ix := Ix) (U := U) (Lvl := Lvl) V c).before 4 t d))
    ∗ (∃ d, owns (c : Thread nD τ) (st3_5 t) fullShare ((dat3 (Ix := Ix) (U := U) (Lvl := Lvl) V c).before 5 t d)))

/-- and what it returns. -/
noncomputable def bodyPost3 (V : Valuation τ sig (Elt F)) (c : Dev nD) (ι : Ix) (t : Fin cfg3.N) : sProp 𝕄 :=
  iprop((dat3 (Ix := Ix) (U := U) (Lvl := Lvl) V c).Φ t.succ ∗ (dat3 (Ix := Ix) (U := U) (Lvl := Lvl) V c).owesAt ι t.succ
    ∗ (dat3 (Ix := Ix) (U := U) (Lvl := Lvl) V c).leaves 0 t ∗ (dat3 (Ix := Ix) (U := U) (Lvl := Lvl) V c).leaves 1 t ∗ (dat3 (Ix := Ix) (U := U) (Lvl := Lvl) V c).leaves 2 t
    ∗ (dat3 (Ix := Ix) (U := U) (Lvl := Lvl) V c).leaves 3 t ∗ (dat3 (Ix := Ix) (U := U) (Lvl := Lvl) V c).leaves 4 t ∗ (dat3 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body3 (𝒱₀ : Variants) (ι : Ix) (V : Valuation τ sig (Elt F)) (c : Dev nD) (t : Fin cfg3.N) :
    bodyPre3 (Ix := Ix) (U := U) (Lvl := Lvl) V c ι t ⊢ wp frame (wpE (defs₀ (F := F)) 𝒱₀ c none) Set.univ (bodyAt3 t) (fun _ => bodyPost3 (Ix := Ix) (U := U) (Lvl := Lvl) V c ι t) := by
  unfold bodyPre3 bodyPost3 bodyAt3
  simp only [before3_0, before3_1, before3_2, before3_3, before3_4]
  rw [show (dat3 (Ix := Ix) (U := U) (Lvl := Lvl) V c).owesAt ι t.succ = (dat3 (Ix := Ix) (U := U) (Lvl := Lvl) V c).owesAt ι t.castSucc from rfl]
  rw [Phi3_at_succ, Phi3_succ, Phi3_castSucc]
  rw [leaves_live (dat3 (Ix := Ix) (U := U) (Lvl := Lvl) V c) 0 t rfl rfl, leaves_live (dat3 (Ix := Ix) (U := U) (Lvl := Lvl) V c) 1 t rfl rfl, leaves_live (dat3 (Ix := Ix) (U := U) (Lvl := Lvl) V c) 2 t rfl rfl,
    leaves_live (dat3 (Ix := Ix) (U := U) (Lvl := Lvl) V c) 3 t rfl rfl, leaves_live (dat3 (Ix := Ix) (U := U) (Lvl := Lvl) V c) 4 t rfl rfl, after3_0, after3_1, after3_2, after3_3, after3_4]
  have hN : t.val < 64 := lt_of_lt_of_eq t.isLt (show cfg3.N = 64 from N_3)
  by_cases h0 : t.val % 8 = 0
  · have h7 : ¬t.val % 8 = 7 := by omega
    rw [Dat.leaves_idle (dat3 (Ix := Ix) (U := U) (Lvl := Lvl) V c) 5 t (idleAt3_5 t h7) (noFlush3_5 t h7)]
    rw [acc3_reset V c t.val t.isLt h0]
    unfold step3 init3
    by_cases hz : t.val = 0
    · rw [Phi3_zero V c _ _ hz, scopedRest3_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run3_first 𝒱₀ c (grid3.coords t) _ _ _ _ _ _ _ _ _ _ _ _ _ _ ((hcond3_0 t).mpr h0) (fun h => h7 ((hcond3_1 t).mp h)) (iblk3 V c 0 t) (iblk3 V c 1 t) (iblk3 V c 2 t) (iblk3 V c 3 t) (iblk3 V c 4 t) ((dat3 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi3_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run3_first 𝒱₀ c (grid3.coords t) _ _ _ _ _ _ _ _ _ _ _ _ _ _ ((hcond3_0 t).mpr h0) (fun h => h7 ((hcond3_1 t).mp h)) (iblk3 V c 0 t) (iblk3 V c 1 t) (iblk3 V c 2 t) (iblk3 V c 3 t) (iblk3 V c 4 t) ((dat3 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc3_step V c t.val t.isLt h0, Phi3_pos V c _ _ hz]
    unfold step3
    by_cases h7 : t.val % 8 = 7
    · rw [leaves_live (dat3 (Ix := Ix) (U := U) (Lvl := Lvl) V c) 5 t (liveAt3_5 t h7) rfl, after3_5, acc3_step V c t.val t.isLt h0]
      unfold step3
      iintro ⟨⟨HS, Hr⟩, Ho, ⟨%d0, H0⟩, ⟨%d1, H1⟩, ⟨%d2, H2⟩, ⟨%d3, H3⟩, ⟨%d4, H4⟩, ⟨%d5, H5⟩⟩
      iapply (run3_last 𝒱₀ c (grid3.coords t) _ _ _ _ _ _ _ _ _ _ _ _ _ _ (fun h => h0 ((hcond3_0 t).mp h)) ((hcond3_1 t).mpr h7) (iblk3 V c 0 t) (iblk3 V c 1 t) (iblk3 V c 2 t) (iblk3 V c 3 t) (iblk3 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat3 (Ix := Ix) (U := U) (Lvl := Lvl) V c) 5 t (idleAt3_5 t h7) (noFlush3_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run3_mid 𝒱₀ c (grid3.coords t) _ _ _ _ _ _ _ _ _ _ _ _ _ _ (fun h => h0 ((hcond3_0 t).mp h)) (fun h => h7 ((hcond3_1 t).mp h)) (iblk3 V c 0 t) (iblk3 V c 1 t) (iblk3 V c 2 t) (iblk3 V c 3 t) (iblk3 V c 4 t) ((dat3 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation3 (𝒱₀ : Variants) (ι : Ix) (V : Valuation τ sig (Elt F)) (c : Dev nD) :
    BodyObligationLoose (dat3 (Ix := Ix) (U := U) (Lvl := Lvl) V c) (defs₀ (F := F)) 𝒱₀ ι Set.univ := fun t => by
  rw [bigSep_W3, bigSep_W3]
  exact sound_body3 𝒱₀ ι V c t

/-- The same at the type the program's family of configurations gives pipeline 1, on every core. -/
theorem body3 (𝒱₀ : Variants) (ι : Ix) (V : Valuation τ sig (Elt F)) :
    ∀ c : Dev nD, BodyObligationLoose (cfg := cfgs 3) (dat3 (Ix := Ix) (U := U) (Lvl := Lvl) V c) (defs₀ (F := F)) 𝒱₀ ι Set.univ :=
  fun c => body_obligation3 𝒱₀ ι V c

end Cert.KernelIdeal.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg3

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (3 : Fin 24)
/-- Its configuration, its windows but for their index maps, the number of its windows. -/
abbrev cfgK : Pipeline.Cfg sig Λ₀ := cfg3
abbrev specK : Fin 6 → Pipeline.WinSpec sig cfgK.grid.rank := spec3
abbrev nW : Nat := 6
/-- Its output window and the buffer behind it. -/
abbrev oK : Fin nW := 5
abbrev outK : Ref sig .tc := main_v91
theorem winK : Pipeline.WinFacts₀ specK := winFacts₀3
theorem block_posK : ∀ w : Fin nW, 0 < (specK w).block.numel := block_pos3
theorem arr_wholeK : ∀ w : Fin nW, (specK w).arr.IsWhole := arr_whole3
theorem stage_wholeK : ∀ (w : Fin nW) (s : Fin (specK w).nbuf), ((specK w).stage s).IsWhole := stage_whole3

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.KernelIdeal.Hand.Reg3

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R3' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (3 : Fin 24) c = dat3 (V17 m outs c) c)
    (hbody : ∀ c : Dev nD, Pipeline.BodyObligationLoose (dat3 (Ix := Ix) (U := U) (Lvl := Lvl) (V17 m outs c) c) (defs₀ (F := F)) 𝒱₀ ι Set.univ) :
    RegionSeg (pcfgs (F := F)) GenP.adm pdats ι defs₀ 𝒱₀ L lv (3 : Fin 24) :=
  Reg3.RK 𝒱₀ L lv ι pdats (fun c => V17 m outs c)
    (fun c => by rw [hp c]; exact hbody c)
    (fun c w => by rw [hp c]; exact A_eq3 (V17 m outs c) c w)
    (fun c => by rw [hp c]; rw [q3_1, q3_2]; exact PosShare.mem_left_op_right fullShare)
    (fun c => by rw [hp c]; rw [q3_3, q3_4]; exact PosShare.mem_left_op_right fullShare)
    (fun c => by rw [hp c]; exact q3_0 (V17 m outs c) c)
    (fun c t => by rw [hp c]; rfl)
    (fun c => by rw [hp c]; rfl)
    (fun c => by rw [hp c, Phi_first3])
    (fun c => by rw [hp c]; exact Phi_last3 (V17 m outs c) c)

/-- It is entered from the thread state before the region's item, -/
theorem hpre3' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (3 : Fin 24) c = dat3 (V17 m outs c) c)
    (hbody : ∀ c : Dev nD, Pipeline.BodyObligationLoose (dat3 (Ix := Ix) (U := U) (Lvl := Lvl) (V17 m outs c) c) (defs₀ (F := F)) 𝒱₀ ι Set.univ)
    (c : Dev nD) :
    iprop(StableHlo.held (c : Thread nD τ) (Pipeline.ucRefs τ sig) (V17 m outs c) ∗ (R c : sProp 𝕄))
      ⊢ (R3' m outs 𝒱₀ L lv ι pdats hp hbody).pre c := .rfl

/-- and left at the thread state after it. -/
theorem hpost3' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (3 : Fin 24) c = dat3 (V17 m outs c) c)
    (hbody : ∀ c : Dev nD, Pipeline.BodyObligationLoose (dat3 (Ix := Ix) (U := U) (Lvl := Lvl) (V17 m outs c) c) (defs₀ (F := F)) 𝒱₀ ι Set.univ)
    (houts : ∀ c : Dev nD, outs 18 main_v91 c = (dat3 (Ix := Ix) (U := U) (Lvl := Lvl) (V17 m outs c) c).arrAt 5 64)
    (c : Dev nD) :
    (R3' m outs 𝒱₀ L lv ι pdats hp hbody).post c
      ⊢ iprop(StableHlo.held (c : Thread nD τ) (Pipeline.ucRefs τ sig) (V18 m outs c) ∗ (R c : sProp 𝕄)) := by
  have h : (pdats (3 : Fin 24) c).arrAt Reg3.oK Reg3.cfgK.N = outs 18 main_v91 c := by
    rw [hp c]; exact (houts c).symm
  show iprop(StableHlo.held (c : Thread nD τ) (Pipeline.ucRefs τ sig)
      (Function.update (V17 m outs c) (Proc.devRef .tc main_v91) ((pdats (3 : Fin 24) c).arrAt Reg3.oK Reg3.cfgK.N))
        ∗ (R c : sProp 𝕄)) ⊢ _
  rw [h]

end Cert.KernelIdeal.Hand
-- ==== Proof.Rg4.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.SumLib
import Idealize.ShloMosaic.Lib.Tactic
import proofs.«169706_j68856915690108_1_alg».proof.Proof.Shared
import proofs.«169706_j68856915690108_1_alg».proof.Proof.RegionsKI

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k4_pay2)

  and only at the last point, 63, is that cell copied into the 1 × 1 output block, which the pipeline then writes back.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk4 (V : Valuation τ sig (Elt F)) (c : Dev nD) (w : Fin cfg4.W) (t : Fin cfg4.N) :
    ((cfg4.win w).xblock (cfg4.grid.coords t)).Idx → Elt F (cfg4.win w).elt :=
  ((cfg4.win w).blk t).view.read (Elt F)
    (V (Proc.devRef .tc (Pipeline.arrRef spec4 w)) : Buf (Elt F) ((cfg4.win w).arr.view.loc (c.tc : Thread nD τ)))

/-- One point's step on the scratch cell: the cell's contents `a` plus the sum of the tile made of the two blocks
    the point stages (the printed payload of the store into the scratch cell). -/
noncomputable def step4 (V : Valuation τ sig (Elt F)) (c : Dev nD) (n : ℕ) (hn : n < cfg4.N) (a : Vec F S1x1 .f32) : Vec F S1x1 .f32 :=
  k4_pay2 (iblk4 V c 0 ⟨n, hn⟩) (iblk4 V c 1 ⟨n, hn⟩) a

/-- What the scratch cell holds after point `n`: the steps of the points `0 … n` applied, first to last, to the
    zero the body stores at point 0. -/
noncomputable def acc4 (V : Valuation τ sig (Elt F)) (c : Dev nD) : (n : ℕ) → n < cfg4.N → Vec F S1x1 .f32
  | 0, hn => step4 V c 0 hn (k4_pay1 (F := F))
  | n + 1, hn => step4 V c (n + 1) hn (acc4 V c n (Nat.lt_of_succ_lt hn))

theorem acc4_zero (V : Valuation τ sig (Elt F)) (c : Dev nD) (hn : 0 < cfg4.N) :
    acc4 V c 0 hn = step4 V c 0 hn (k4_pay1 (F := F)) := rfl

theorem acc4_succ (V : Valuation τ sig (Elt F)) (c : Dev nD) (n : ℕ) (hn : n + 1 < cfg4.N) :
    acc4 V c (n + 1) hn = step4 V c (n + 1) hn (acc4 V c n (Nat.lt_of_succ_lt hn)) := rfl

/-- After a point that is not the first: the step of that point on what the point before left. -/
theorem acc4_pos (V : Valuation τ sig (Elt F)) (c : Dev nD) (n : ℕ) (hn : n < cfg4.N) (hz : n ≠ 0) :
    acc4 V c n hn = step4 V c n hn (acc4 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi4 (V : Valuation τ sig (Elt F)) (c : Dev nD) : (n : ℕ) → n ≤ cfg4.N → sProp 𝕄
  | 0, _ => Pipeline.scopedRest (Ix := Ix) (Name := ℕ) (U := U) (Lvl := Lvl) (Val := Elt F) spec4 c
  | n + 1, hn => iprop(owns (c : Thread nD τ) (Memref.whole cc4_scratch0) fullShare (acc4 V c n hn)
      ∗ Pipeline.scopedRestBut (Ix := Ix) (Name := ℕ) (U := U) (Lvl := Lvl) (Val := Elt F) spec4 c [cc4_scratch0])

theorem Phi4_zero (V : Valuation τ sig (Elt F)) (c : Dev nD) (n : ℕ) (h : n ≤ cfg4.N) (hz : n = 0) :
    (Phi4 V c n h : sProp 𝕄) = Pipeline.scopedRest (Ix := Ix) (Name := ℕ) (U := U) (Lvl := Lvl) (Val := Elt F) spec4 c := by
  subst hz; rfl

theorem Phi4_succ (V : Valuation τ sig (Elt F)) (c : Dev nD) (n : ℕ) (hn : n < cfg4.N) :
    (Phi4 V c (n + 1) hn : sProp 𝕄) = iprop(owns (c : Thread nD τ) (Memref.whole cc4_scratch0) fullShare (acc4 V c n hn)
      ∗ Pipeline.scopedRestBut (Ix := Ix) (Name := ℕ) (U := U) (Lvl := Lvl) (Val := Elt F) spec4 c [cc4_scratch0]) := rfl

theorem Phi4_pos (V : Valuation τ sig (Elt F)) (c : Dev nD) (n : ℕ) (h : n ≤ cfg4.N) (hz : n ≠ 0) :
    (Phi4 V c n h : sProp 𝕄) = iprop(owns (c : Thread nD τ) (Memref.whole cc4_scratch0) fullShare (acc4 V c (n - 1) (by omega))
      ∗ Pipeline.scopedRestBut (Ix := Ix) (Name := ℕ) (U := U) (Lvl := Lvl) (Val := Elt F) spec4 c [cc4_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi4`; the one
    array the two inputs read held half and half; nothing owed. -/
noncomputable def dat4 (V : Valuation τ sig (Elt F)) (c : Dev nD) : Dat τ (Elt F) Ix ℕ U Lvl cfg4 c where
  A w := V (Proc.devRef .tc (Pipeline.arrRef spec4 w))
  after w t := match w with
    | ⟨0, _⟩ => iblk4 V c 0 t
    | ⟨1, _⟩ => iblk4 V c 1 t
    | ⟨2, _⟩ => acc4 V c t.val t.isLt
  Φ t := Phi4 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq4 (V : Valuation τ sig (Elt F)) (c : Dev nD) (w : Fin cfg4.W) :
    (dat4 (Ix := Ix) (U := U) (Lvl := Lvl) V c).A w = V (Proc.devRef .tc (Pipeline.arrRef spec4 w)) := by
  dsimp only [dat4]

/-- What the body leaves, window by window. -/
theorem after4_0 (V : Valuation τ sig (Elt F)) (c : Dev nD) (t : Fin cfg4.N) :
    (dat4 (Ix := Ix) (U := U) (Lvl := Lvl) V c).after 0 t = iblk4 V c 0 t := by dsimp only [dat4]
theorem after4_1 (V : Valuation τ sig (Elt F)) (c : Dev nD) (t : Fin cfg4.N) :
    (dat4 (Ix := Ix) (U := U) (Lvl := Lvl) V c).after 1 t = iblk4 V c 1 t := by dsimp only [dat4]
theorem after4_2 (V : Valuation τ sig (Elt F)) (c : Dev nD) (t : Fin cfg4.N) :
    (dat4 (Ix := Ix) (U := U) (Lvl := Lvl) V c).after 2 t = acc4 V c t.val t.isLt := by dsimp only [dat4]

/-- The invariant at a point's start, and at its end. -/
theorem Phi4_castSucc (V : Valuation τ sig (Elt F)) (c : Dev nD) (t : Fin cfg4.N) :
    (dat4 (Ix := Ix) (U := U) (Lvl := Lvl) V c).Φ t.castSucc = Phi4 V c t.val (Nat.le_of_lt t.isLt) := by
  dsimp only [dat4]; simp only [Fin.coe_castSucc]

theorem Phi4_at_succ (V : Valuation τ sig (Elt F)) (c : Dev nD) (t : Fin cfg4.N) :
    (dat4 (Ix := Ix) (U := U) (Lvl := Lvl) V c).Φ t.succ = Phi4 V c (t.val + 1) t.isLt := rfl

/-- Before the first point the invariant is the launch's scoped rest. -/
theorem Phi_first4 (V : Valuation τ sig (Elt F)) (c : Dev nD) :
    (dat4 (Ix := Ix) (U := U) (Lvl := Lvl) V c).Φ 0
      = Pipeline.scopedRest (Ix := Ix) (Name := ℕ) (U := U) (Lvl := Lvl) (Val := Elt F) spec4 c := rfl

/-- After the last point the invariant gives the scoped rest back: the scratch cell's contents are forgotten. -/
theorem Phi_last4 (V : Valuation τ sig (Elt F)) (c : Dev nD) :
    (dat4 (Ix := Ix) (U := U) (Lvl := Lvl) V c).Φ (Fin.last cfg4.N)
      ⊢ Pipeline.scopedRest (Ix := Ix) (Name := ℕ) (U := U) (Lvl := Lvl) (Val := Elt F) spec4 c := by
  have hN : cfg4.N = 64 := N_4
  rw [show (dat4 (Ix := Ix) (U := U) (Lvl := Lvl) V c).Φ (Fin.last cfg4.N) = Phi4 V c (Fin.last cfg4.N).val (Nat.le_of_lt_succ (Fin.last cfg4.N).isLt) from rfl,
    Phi4_pos V c _ _ (by rw [Fin.val_last]; omega), scopedRest4_split, owns_whole]
  iintro ⟨Hs, Hr⟩
  isplitl [Hs]
  · iexists _; iexact Hs
  iexact Hr

example (V : Valuation τ sig (Elt F)) (c : Dev nD) : Dat τ (Elt F) Ix ℕ U Lvl (cfgs 4) c := dat4 V c

end Cert.KernelIdeal.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k4_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond4_1 (i : grid4.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond4_2 (i : grid4.Coords) : Prop := k4_cond2 i = 1#1

/-- The reset runs at the first point only, -/
theorem hcond4_1 : ∀ t : Fin cfg4.N, cond4_1 (grid4.coords t) ↔ t.val = 0 :=
  (by decide +kernel : ∀ t : Fin grid4.N, cond4_1 (grid4.coords t) ↔ t.val = 0)
/-- the copy at the last point only. -/
theorem hcond4_2 : ∀ t : Fin cfg4.N, cond4_2 (grid4.coords t) ↔ t.val = 63 :=
  (by decide +kernel : ∀ t : Fin grid4.N, cond4_2 (grid4.coords t) ↔ t.val = 63)

/-! ## The body, case by case, on any whole memrefs -/

/-- The first point: the scratch cell, at anything, is reset and then holds the first step on zero. -/
theorem run4_A (𝒱₀ : Variants) (c : Dev nD) (i : grid4.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond4_1 i) (hc2 : ¬cond4_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k4_pay2 x2 x3 (k4_pay1 (F := F)))) -∗ K ⟨⟩))
      ⊢ wp frame (wpE (defs₀ (F := F)) 𝒱₀ c none) E (cc4__sum_kernel i arg2 harg2 arg3 harg3 arg4 harg4 arg5 harg5) K := by
  simp only [cc4__sum_kernel_eq_skeleton]; unfold cc4__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run4_A.sl.v15 run4_A.sl.H5_1
  rw [readCov_whole _ zeros2, readAt_whole _ _ zeros2, readAt_whole _ _ zeros2]

/-- A point strictly between the first and the last: the scratch cell at `a` takes the point's step. -/
theorem run4_B (𝒱₀ : Variants) (c : Dev nD) (i : grid4.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond4_1 i) (hc2 : ¬cond4_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k4_pay2 x2 x3 a)) -∗ K ⟨⟩))
      ⊢ wp frame (wpE (defs₀ (F := F)) 𝒱₀ c none) E (cc4__sum_kernel i arg2 harg2 arg3 harg3 arg4 harg4 arg5 harg5) K := by
  simp only [cc4__sum_kernel_eq_skeleton]; unfold cc4__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run4_C (𝒱₀ : Variants) (c : Dev nD) (i : grid4.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond4_1 i) (hc2 : cond4_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k4_pay2 x2 x3 a) ∗ owns (c : Thread nD τ) arg5 fullShare (k4_pay2 x2 x3 a)) -∗ K ⟨⟩))
      ⊢ wp frame (wpE (defs₀ (F := F)) 𝒱₀ c none) E (cc4__sum_kernel i arg2 harg2 arg3 harg3 arg4 harg4 arg5 harg5) K := by
  simp only [cc4__sum_kernel_eq_skeleton]; unfold cc4__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run4_C.sl.v25 run4_C.sl.H5_1
    rw [readCov_whole _ zeros2, readAt_whole _ _ zeros2, readAt_whole _ _ zeros2, readAt_whole _ _ zeros2]
  iexists _; isplitr
  swap; · iexact H5
  ipureintro
  unfold run4_C.sl.H5_1
  rw [read_writes_whole _ _ zeros2, readAt_whole _ _ zeros2, readAt_whole _ _ zeros2, readAt_whole _ _ zeros2]

end Cert.KernelIdeal.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle4_2 : ∀ t : Fin cfg4.N, cfg4.idle 2 (grid4.coords t) = true ↔ t.val ≠ 63 :=
  (by decide +kernel : ∀ t : Fin grid4.N, idle4 2 (grid4.coords t) = true ↔ t.val ≠ 63)
/-- and written back at the last point only. -/
theorem flush4_2' : ∀ t : Fin cfg4.N, (cfg4.win 2).flush t = true ↔ t.val = 63 :=
  (by decide +kernel : ∀ t : Fin grid4.N, win4_2.flush t = true ↔ t.val = 63)

/-! ## What the body finds in the inputs' buffers -/

/-- Each input's current staging buffer holds its block at every point, fetched there or not: unfetched, the block
    index has not moved and the body left the block in place. -/
theorem before4_0 (V : Valuation τ sig (Elt F)) (c : Dev nD) (t : Fin cfg4.N) (d) :
    (dat4 (Ix := Ix) (U := U) (Lvl := Lvl) V c).before 0 t d = iblk4 V c 0 t :=
  ((dat4 (Ix := Ix) (U := U) (Lvl := Lvl) V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

theorem before4_1 (V : Valuation τ sig (Elt F)) (c : Dev nD) (t : Fin cfg4.N) (d) :
    (dat4 (Ix := Ix) (U := U) (Lvl := Lvl) V c).before 1 t d = iblk4 V c 1 t :=
  ((dat4 (Ix := Ix) (U := U) (Lvl := Lvl) V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

/-! ## What the obligation asks of each window's buffer after the body -/

/-- The inputs are never idle: their buffers are handed back at their blocks. -/
theorem leaves4_0 (V : Valuation τ sig (Elt F)) (c : Dev nD) (t : Fin cfg4.N) :
    (dat4 (Ix := Ix) (U := U) (Lvl := Lvl) V c).leaves 0 t = owns (c : Thread nD τ) (st4_0 t) fullShare (iblk4 V c 0 t) := by
  rw [← after4_0 (Ix := Ix) (U := U) (Lvl := Lvl) V c t]

theorem leaves4_1 (V : Valuation τ sig (Elt F)) (c : Dev nD) (t : Fin cfg4.N) :
    (dat4 (Ix := Ix) (U := U) (Lvl := Lvl) V c).leaves 1 t = owns (c : Thread nD τ) (st4_1 t) fullShare (iblk4 V c 1 t) := by
  rw [← after4_1 (Ix := Ix) (U := U) (Lvl := Lvl) V c t]

/-- The output is idle, and not written back, at every point but the last: its buffer is handed back as found; -/
theorem leaves4_2_idle (V : Valuation τ sig (Elt F)) (c : Dev nD) (t : Fin cfg4.N) (h : t.val ≠ 63) :
    (dat4 (Ix := Ix) (U := U) (Lvl := Lvl) V c).leaves 2 t
      = iprop(∃ d, owns (c : Thread nD τ) (st4_2 t) fullShare ((dat4 (Ix := Ix) (U := U) (Lvl := Lvl) V c).before 2 t d)) :=
  (dat4 (Ix := Ix) (U := U) (Lvl := Lvl) V c).leaves_idle 2 t ((idle4_2 t).mpr h)
    (Bool.eq_false_iff.mpr fun hf => h ((flush4_2' t).mp hf))

/-- at the last point it is handed back at the accumulated sum. -/
theorem leaves4_2_last (V : Valuation τ sig (Elt F)) (c : Dev nD) (t : Fin cfg4.N) (h : t.val = 63) :
    (dat4 (Ix := Ix) (U := U) (Lvl := Lvl) V c).leaves 2 t = owns (c : Thread nD τ) (st4_2 t) fullShare (acc4 V c t.val t.isLt) := by
  have hl : cfg4.idle 2 (grid4.coords t) = false := by
    cases hi : cfg4.idle 2 (grid4.coords t) with
    | false => rfl
    | true => exact absurd h ((idle4_2 t).mp hi)
  rw [← after4_2 (Ix := Ix) (U := U) (Lvl := Lvl) V c t]
  unfold Dat.leaves; rw [hl]

/-- One step at a point, through the point itself. -/
theorem step4_at (V : Valuation τ sig (Elt F)) (c : Dev nD) (t : Fin cfg4.N) (a : Vec F S1x1 .f32) :
    step4 V c t.val t.isLt a = k4_pay2 (iblk4 V c 0 t) (iblk4 V c 1 t) a := rfl

theorem acc4_first (V : Valuation τ sig (Elt F)) (c : Dev nD) (n : ℕ) (hn : n < cfg4.N) (hz : n = 0) :
    acc4 V c n hn = step4 V c n hn (k4_pay1 (F := F)) := by
  subst hz; rfl

/-! ## The body obligation -/

/-- What the body is called with at point `t` (the obligation's precondition, the windows one by one), -/
noncomputable def bodyPre4 (V : Valuation τ sig (Elt F)) (ι : Ix) (c : Dev nD) (t : Fin cfg4.N) : sProp 𝕄 :=
  iprop((dat4 (Ix := Ix) (U := U) (Lvl := Lvl) V c).Φ t.castSucc ∗ (dat4 (Ix := Ix) (U := U) (Lvl := Lvl) V c).owesAt ι t.castSucc
    ∗ (∃ d, owns (c : Thread nD τ) (st4_0 t) fullShare ((dat4 (Ix := Ix) (U := U) (Lvl := Lvl) V c).before 0 t d))
    ∗ (∃ d, owns (c : Thread nD τ) (st4_1 t) fullShare ((dat4 (Ix := Ix) (U := U) (Lvl := Lvl) V c).before 1 t d))
    ∗ (∃ d, owns (c : Thread nD τ) (st4_2 t) fullShare ((dat4 (Ix := Ix) (U := U) (Lvl := Lvl) V c).before 2 t d)))

/-- and what it returns. -/
noncomputable def bodyPost4 (V : Valuation τ sig (Elt F)) (ι : Ix) (c : Dev nD) (t : Fin cfg4.N) : sProp 𝕄 :=
  iprop((dat4 (Ix := Ix) (U := U) (Lvl := Lvl) V c).Φ t.succ ∗ (dat4 (Ix := Ix) (U := U) (Lvl := Lvl) V c).owesAt ι t.succ
    ∗ (dat4 (Ix := Ix) (U := U) (Lvl := Lvl) V c).leaves 0 t ∗ (dat4 (Ix := Ix) (U := U) (Lvl := Lvl) V c).leaves 1 t ∗ (dat4 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body4 (V : Valuation τ sig (Elt F)) (𝒱₀ : Variants) (ι : Ix) (c : Dev nD) (t : Fin cfg4.N) :
    bodyPre4 (U := U) (Lvl := Lvl) V ι c t
      ⊢ wp frame (wpE (defs₀ (F := F)) 𝒱₀ c none) Set.univ (bodyAt4 t) (fun _ => bodyPost4 (U := U) (Lvl := Lvl) V ι c t) := by
  unfold bodyPre4 bodyPost4 bodyAt4
  simp only [before4_0, before4_1]
  rw [show (dat4 (Ix := Ix) (U := U) (Lvl := Lvl) V c).owesAt ι t.succ = (dat4 (Ix := Ix) (U := U) (Lvl := Lvl) V c).owesAt ι t.castSucc from rfl]
  rw [Phi4_at_succ, Phi4_succ, Phi4_castSucc, leaves4_0, leaves4_1]
  have hN : t.val < 64 := lt_of_lt_of_eq t.isLt N_4
  by_cases hz : t.val = 0
  · have hc1 : cond4_1 (grid4.coords t) := (hcond4_1 t).mpr hz
    have hc2 : ¬cond4_2 (grid4.coords t) := fun h => by have := (hcond4_2 t).mp h; omega
    rw [leaves4_2_idle V c t (by omega), Phi4_zero V c _ _ hz, scopedRest4_split, acc4_first V c _ _ hz, step4_at]
    iintro ⟨⟨⟨%f, Hs⟩, Hr⟩, Ho, ⟨%d0, H0⟩, ⟨%d1, H1⟩, H2⟩
    iapply (run4_A 𝒱₀ c (grid4.coords t) _ _ _ _ _ _ _ _ hc1 hc2 (iblk4 V c 0 t) (iblk4 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond4_1 (grid4.coords t) := fun h => hz ((hcond4_1 t).mp h)
    rw [Phi4_pos V c _ _ hz, acc4_pos V c _ _ hz, step4_at]
    by_cases hl : t.val = 63
    · have hc2 : cond4_2 (grid4.coords t) := (hcond4_2 t).mpr hl
      rw [leaves4_2_last V c t hl, acc4_pos V c _ _ hz, step4_at]
      iintro ⟨⟨Hs, Hr⟩, Ho, ⟨%d0, H0⟩, ⟨%d1, H1⟩, ⟨%d2, H2⟩⟩
      iapply (run4_C 𝒱₀ c (grid4.coords t) _ _ _ _ _ _ _ _ hc1 hc2 (iblk4 V c 0 t) (iblk4 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond4_2 (grid4.coords t) := fun h => hl ((hcond4_2 t).mp h)
      rw [leaves4_2_idle V c t hl]
      iintro ⟨⟨Hs, Hr⟩, Ho, ⟨%d0, H0⟩, ⟨%d1, H1⟩, H2⟩
      iapply (run4_B 𝒱₀ c (grid4.coords t) _ _ _ _ _ _ _ _ hc1 hc2 (iblk4 V c 0 t) (iblk4 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body4 (V : Valuation τ sig (Elt F)) (𝒱₀ : Variants) (ι : Ix) :
    ∀ c : Dev nD, BodyObligationLoose (dat4 (Ix := Ix) (U := U) (Lvl := Lvl) V c) (defs₀ (F := F)) 𝒱₀ ι Set.univ := fun c t => by
  rw [bigSep_W4, bigSep_W4]
  exact sound_body4 (U := U) (Lvl := Lvl) V 𝒱₀ ι c t

end Cert.KernelIdeal.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg4

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (4 : Fin 24)
/-- Its configuration, its windows but for their index maps, the number of its windows. -/
abbrev cfgK : Pipeline.Cfg sig Λ₀ := cfg4
abbrev specK : Fin 3 → Pipeline.WinSpec sig cfgK.grid.rank := spec4
abbrev nW : Nat := 3
/-- Its output window and the buffer behind it. -/
abbrev oK : Fin nW := 2
abbrev outK : Ref sig .tc := main_v157
theorem winK : Pipeline.WinFacts₀ specK := winFacts₀4
theorem block_posK : ∀ w : Fin nW, 0 < (specK w).block.numel := block_pos4
theorem arr_wholeK : ∀ w : Fin nW, (specK w).arr.IsWhole := arr_whole4
theorem stage_wholeK : ∀ (w : Fin nW) (s : Fin (specK w).nbuf), ((specK w).stage s).IsWhole := stage_whole4

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.KernelIdeal.Hand.Reg4

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R4' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (4 : Fin 24) c = dat4 (V26 m outs c) c)
    (hbody : ∀ c : Dev nD, Pipeline.BodyObligationLoose (dat4 (Ix := Ix) (U := U) (Lvl := Lvl) (V26 m outs c) c) (defs₀ (F := F)) 𝒱₀ ι Set.univ) :
    RegionSeg (pcfgs (F := F)) GenP.adm pdats ι defs₀ 𝒱₀ L lv (4 : Fin 24) :=
  Reg4.RK 𝒱₀ L lv ι pdats (fun c => V26 m outs c)
    (fun c => by rw [hp c]; exact hbody c)
    (fun c w => by rw [hp c]; exact A_eq4 (V26 m outs c) c w)
    (fun c => by rw [hp c]; exact PosShare.mem_left_op_right fullShare)
    (fun c t => by rw [hp c]; rfl)
    (fun c => by rw [hp c]; rfl)
    (fun c => by rw [hp c, Phi_first4])
    (fun c => by rw [hp c]; exact Phi_last4 (V26 m outs c) c)

/-- It is entered from the thread state before the region's item, -/
theorem hpre4' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (4 : Fin 24) c = dat4 (V26 m outs c) c)
    (hbody : ∀ c : Dev nD, Pipeline.BodyObligationLoose (dat4 (Ix := Ix) (U := U) (Lvl := Lvl) (V26 m outs c) c) (defs₀ (F := F)) 𝒱₀ ι Set.univ)
    (c : Dev nD) :
    iprop(StableHlo.held (c : Thread nD τ) (Pipeline.ucRefs τ sig) (V26 m outs c) ∗ (R c : sProp 𝕄))
      ⊢ (R4' m outs 𝒱₀ L lv ι pdats hp hbody).pre c := .rfl

/-- and left at the thread state after it. -/
theorem hpost4' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (4 : Fin 24) c = dat4 (V26 m outs c) c)
    (hbody : ∀ c : Dev nD, Pipeline.BodyObligationLoose (dat4 (Ix := Ix) (U := U) (Lvl := Lvl) (V26 m outs c) c) (defs₀ (F := F)) 𝒱₀ ι Set.univ)
    (houts : ∀ c : Dev nD, outs 27 main_v157 c = (dat4 (Ix := Ix) (U := U) (Lvl := Lvl) (V26 m outs c) c).arrAt 2 64)
    (c : Dev nD) :
    (R4' m outs 𝒱₀ L lv ι pdats hp hbody).post c
      ⊢ iprop(StableHlo.held (c : Thread nD τ) (Pipeline.ucRefs τ sig) (V27 m outs c) ∗ (R c : sProp 𝕄)) := by
  have h : (pdats (4 : Fin 24) c).arrAt Reg4.oK Reg4.cfgK.N = outs 27 main_v157 c := by
    rw [hp c]; exact (houts c).symm
  show iprop(StableHlo.held (c : Thread nD τ) (Pipeline.ucRefs τ sig)
      (Function.update (V26 m outs c) (Proc.devRef .tc main_v157) ((pdats (4 : Fin 24) c).arrAt Reg4.oK Reg4.cfgK.N))
        ∗ (R c : sProp 𝕄)) ⊢ _
  rw [h]

end Cert.KernelIdeal.Hand
-- ==== Proof.Rg5.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.ApplyLib
import proofs.«169706_j68856915690108_1_alg».proof.Proof.Shared
import proofs.«169706_j68856915690108_1_alg».proof.Proof.RegionsKI

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k5_pay1 x_i` and `step t a = k5_pay2 h_i h_j threshold x_j a`, the printed payloads of the two stores.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk5 (V : Valuation τ sig (Elt F)) (c : Dev nD) (w : Fin cfg5.W) (t : Fin cfg5.N) :
    ((cfg5.win w).xblock (cfg5.grid.coords t)).Idx → Elt F (cfg5.win w).elt :=
  ((cfg5.win w).blk t).view.read (Elt F)
    (V (Proc.devRef .tc (Pipeline.arrRef spec5 w)) : Buf (Elt F) ((cfg5.win w).arr.view.loc (c.tc : Thread nD τ)))

/-- What the accumulator is reset to at a point whose second coordinate is 0: 1.0 times the block of `x` window 3
    stages there (the printed payload of the first store into the scratch buffer). -/
noncomputable def init5 (V : Valuation τ sig (Elt F)) (c : Dev nD) (n : ℕ) (hn : n < cfg5.N) : Vec F S512x256 .f32 :=
  k5_pay1 (iblk5 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step5 (V : Valuation τ sig (Elt F)) (c : Dev nD) (n : ℕ) (hn : n < cfg5.N) (a : Vec F S512x256 .f32) : Vec F S512x256 .f32 :=
  k5_pay2 (iblk5 V c 1 ⟨n, hn⟩) (iblk5 V c 2 ⟨n, hn⟩) (iblk5 V c 0 ⟨n, hn⟩) (iblk5 V c 4 ⟨n, hn⟩) a

/-- What the accumulator holds after point `n`: reset and stepped at the points ≡ 0 (mod 8), stepped from what the
    point before left at the others. -/
noncomputable def acc5 (V : Valuation τ sig (Elt F)) (c : Dev nD) : (n : ℕ) → n < cfg5.N → Vec F S512x256 .f32
  | 0, hn => step5 V c 0 hn (init5 V c 0 hn)
  | n + 1, hn =>
    if (n + 1) % 8 = 0 then step5 V c (n + 1) hn (init5 V c (n + 1) hn)
    else step5 V c (n + 1) hn (acc5 V c n (Nat.lt_of_succ_lt hn))

/-- After a point ≡ 0 (mod 8): the reset value, stepped once. -/
theorem acc5_reset (V : Valuation τ sig (Elt F)) (c : Dev nD) (n : ℕ) (hn : n < cfg5.N) (h0 : n % 8 = 0) :
    acc5 V c n hn = step5 V c n hn (init5 V c n hn) := by
  cases n with
  | zero => rfl
  | succ n => exact if_pos h0

/-- After any other point: that point's step on what the point before left. -/
theorem acc5_step (V : Valuation τ sig (Elt F)) (c : Dev nD) (n : ℕ) (hn : n < cfg5.N) (h0 : ¬n % 8 = 0) :
    acc5 V c n hn = step5 V c n hn (acc5 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi5 (V : Valuation τ sig (Elt F)) (c : Dev nD) : (n : ℕ) → n ≤ cfg5.N → sProp 𝕄
  | 0, _ => Pipeline.scopedRest (Ix := Ix) (Name := ℕ) (U := U) (Lvl := Lvl) (Val := Elt F) spec5 c
  | n + 1, hn => iprop(owns (c : Thread nD τ) (Memref.whole cc5_scratch0) fullShare (acc5 V c n hn)
      ∗ Pipeline.scopedRestBut (Ix := Ix) (Name := ℕ) (U := U) (Lvl := Lvl) (Val := Elt F) spec5 c [cc5_scratch0])

theorem Phi5_zero (V : Valuation τ sig (Elt F)) (c : Dev nD) (n : ℕ) (h : n ≤ cfg5.N) (hz : n = 0) :
    (Phi5 V c n h : sProp 𝕄) = Pipeline.scopedRest (Ix := Ix) (Name := ℕ) (U := U) (Lvl := Lvl) (Val := Elt F) spec5 c := by
  subst hz; rfl

theorem Phi5_succ (V : Valuation τ sig (Elt F)) (c : Dev nD) (n : ℕ) (hn : n < cfg5.N) :
    (Phi5 V c (n + 1) hn : sProp 𝕄) = iprop(owns (c : Thread nD τ) (Memref.whole cc5_scratch0) fullShare (acc5 V c n hn)
      ∗ Pipeline.scopedRestBut (Ix := Ix) (Name := ℕ) (U := U) (Lvl := Lvl) (Val := Elt F) spec5 c [cc5_scratch0]) := rfl

theorem Phi5_pos (V : Valuation τ sig (Elt F)) (c : Dev nD) (n : ℕ) (h : n ≤ cfg5.N) (hz : n ≠ 0) :
    (Phi5 V c n h : sProp 𝕄) = iprop(owns (c : Thread nD τ) (Memref.whole cc5_scratch0) fullShare (acc5 V c (n - 1) (by omega))
      ∗ Pipeline.scopedRestBut (Ix := Ix) (Name := ℕ) (U := U) (Lvl := Lvl) (Val := Elt F) spec5 c [cc5_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi5`; the
    threshold's array held whole, each of the two arrays that two input windows read held half and half; nothing owed. -/
noncomputable def dat5 (V : Valuation τ sig (Elt F)) (c : Dev nD) : Dat τ (Elt F) Ix ℕ U Lvl cfg5 c where
  A w := V (Proc.devRef .tc (Pipeline.arrRef spec5 w))
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => acc5 V c t.val t.isLt
  Φ t := Phi5 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq5 (V : Valuation τ sig (Elt F)) (c : Dev nD) (w : Fin cfg5.W) :
    (dat5 (Ix := Ix) (U := U) (Lvl := Lvl) V c).A w = V (Proc.devRef .tc (Pipeline.arrRef spec5 w)) := by
  dsimp only [dat5]

/-- What the body leaves, window by window. -/
theorem after5_0 (V : Valuation τ sig (Elt F)) (c : Dev nD) (t : Fin cfg5.N) :
    (dat5 (Ix := Ix) (U := U) (Lvl := Lvl) V c).after 0 t = iblk5 V c 0 t := by dsimp only [dat5]
theorem after5_1 (V : Valuation τ sig (Elt F)) (c : Dev nD) (t : Fin cfg5.N) :
    (dat5 (Ix := Ix) (U := U) (Lvl := Lvl) V c).after 1 t = iblk5 V c 1 t := by dsimp only [dat5]
theorem after5_2 (V : Valuation τ sig (Elt F)) (c : Dev nD) (t : Fin cfg5.N) :
    (dat5 (Ix := Ix) (U := U) (Lvl := Lvl) V c).after 2 t = iblk5 V c 2 t := by dsimp only [dat5]
theorem after5_3 (V : Valuation τ sig (Elt F)) (c : Dev nD) (t : Fin cfg5.N) :
    (dat5 (Ix := Ix) (U := U) (Lvl := Lvl) V c).after 3 t = iblk5 V c 3 t := by dsimp only [dat5]
theorem after5_4 (V : Valuation τ sig (Elt F)) (c : Dev nD) (t : Fin cfg5.N) :
    (dat5 (Ix := Ix) (U := U) (Lvl := Lvl) V c).after 4 t = iblk5 V c 4 t := by dsimp only [dat5]
theorem after5_5 (V : Valuation τ sig (Elt F)) (c : Dev nD) (t : Fin cfg5.N) :
    (dat5 (Ix := Ix) (U := U) (Lvl := Lvl) V c).after 5 t = acc5 V c t.val t.isLt := by dsimp only [dat5]

/-- The shares the input arrays are held at. -/
theorem q5_0 (V : Valuation τ sig (Elt F)) (c : Dev nD) : (dat5 (Ix := Ix) (U := U) (Lvl := Lvl) V c).q 0 = fullShare := by dsimp only [dat5]
theorem q5_1 (V : Valuation τ sig (Elt F)) (c : Dev nD) : (dat5 (Ix := Ix) (U := U) (Lvl := Lvl) V c).q 1 = fullShare.left := by dsimp only [dat5]
theorem q5_2 (V : Valuation τ sig (Elt F)) (c : Dev nD) : (dat5 (Ix := Ix) (U := U) (Lvl := Lvl) V c).q 2 = fullShare.right := by dsimp only [dat5]
theorem q5_3 (V : Valuation τ sig (Elt F)) (c : Dev nD) : (dat5 (Ix := Ix) (U := U) (Lvl := Lvl) V c).q 3 = fullShare.left := by dsimp only [dat5]
theorem q5_4 (V : Valuation τ sig (Elt F)) (c : Dev nD) : (dat5 (Ix := Ix) (U := U) (Lvl := Lvl) V c).q 4 = fullShare.right := by dsimp only [dat5]

/-- The invariant at a point's start, and at its end. -/
theorem Phi5_castSucc (V : Valuation τ sig (Elt F)) (c : Dev nD) (t : Fin cfg5.N) :
    (dat5 (Ix := Ix) (U := U) (Lvl := Lvl) V c).Φ t.castSucc = Phi5 V c t.val (Nat.le_of_lt t.isLt) := by
  dsimp only [dat5]; simp only [Fin.coe_castSucc]

theorem Phi5_at_succ (V : Valuation τ sig (Elt F)) (c : Dev nD) (t : Fin cfg5.N) :
    (dat5 (Ix := Ix) (U := U) (Lvl := Lvl) V c).Φ t.succ = Phi5 V c (t.val + 1) t.isLt := rfl

/-- Before the first point the invariant is the launch's scoped rest. -/
theorem Phi_first5 (V : Valuation τ sig (Elt F)) (c : Dev nD) :
    (dat5 (Ix := Ix) (U := U) (Lvl := Lvl) V c).Φ 0
      = Pipeline.scopedRest (Ix := Ix) (Name := ℕ) (U := U) (Lvl := Lvl) (Val := Elt F) spec5 c := rfl

/-- After the last point the invariant gives the scoped rest back: the accumulator's contents are forgotten. -/
theorem Phi_last5 (V : Valuation τ sig (Elt F)) (c : Dev nD) :
    (dat5 (Ix := Ix) (U := U) (Lvl := Lvl) V c).Φ (Fin.last cfg5.N)
      ⊢ Pipeline.scopedRest (Ix := Ix) (Name := ℕ) (U := U) (Lvl := Lvl) (Val := Elt F) spec5 c := by
  have hN : cfg5.N = 64 := N_5
  rw [show (dat5 (Ix := Ix) (U := U) (Lvl := Lvl) V c).Φ (Fin.last cfg5.N) = Phi5 V c (Fin.last cfg5.N).val (Nat.le_of_lt_succ (Fin.last cfg5.N).isLt) from rfl,
    Phi5_pos V c _ _ (by rw [Fin.val_last]; omega), scopedRest5_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 5) c := dat5 V c

end Cert.KernelIdeal.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k5_pay2 hI hJ mn xJ s` — `s` plus the 0/1 mask of (hI · hJᵀ > mn) times `xJ` — and the value
  the accumulator is reset to is `k5_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond5_0 (i : grid5.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond5_1 (i : grid5.Coords) : Prop := k5_cond2 i = 1#1

/-! ## The three runs -/

/-- At a point whose second coordinate is 0 (and not 7): the accumulator, at anything, is reset to `k5_pay1 xI` and
    stepped once; every window's buffer is handed back as found. -/
theorem run5_first (𝒱₀ : Variants) (c : Dev nD) (i : grid5.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond5_0 i) (hc1 : ¬cond5_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k5_pay2 hI hJ mn xJ (k5_pay1 xI))) -∗ K ⟨⟩))
      ⊢ wp frame (wpE (defs₀ (F := F)) 𝒱₀ c none) E (cc5__apply_kernel i arg2 harg2 arg3 harg3 arg4 harg4 arg5 harg5 arg6 harg6 arg7 harg7 arg8 harg8) K := by
  simp only [cc5__apply_kernel_eq_skeleton]; unfold cc5__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run5_mid (𝒱₀ : Variants) (c : Dev nD) (i : grid5.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond5_0 i) (hc1 : ¬cond5_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k5_pay2 hI hJ mn xJ s)) -∗ K ⟨⟩))
      ⊢ wp frame (wpE (defs₀ (F := F)) 𝒱₀ c none) E (cc5__apply_kernel i arg2 harg2 arg3 harg3 arg4 harg4 arg5 harg5 arg6 harg6 arg7 harg7 arg8 harg8) K := by
  simp only [cc5__apply_kernel_eq_skeleton]; unfold cc5__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run5_last (𝒱₀ : Variants) (c : Dev nD) (i : grid5.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond5_0 i) (hc1 : cond5_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k5_pay2 hI hJ mn xJ s)
        ∗ owns (c : Thread nD τ) arg8 fullShare (k5_pay2 hI hJ mn xJ s)) -∗ K ⟨⟩))
      ⊢ wp frame (wpE (defs₀ (F := F)) 𝒱₀ c none) E (cc5__apply_kernel i arg2 harg2 arg3 harg3 arg4 harg4 arg5 harg5 arg6 harg6 arg7 harg7 arg8 harg8) K := by
  simp only [cc5__apply_kernel_eq_skeleton]; unfold cc5__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.KernelIdeal.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc5`. The three control cases are
  decided over the grid by the point's residue mod 8, and in each the kernel's run (ApplyRun.lean) applies.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond5_0 : ∀ t : Fin cfg5.N, cond5_0 (grid5.coords t) ↔ t.val % 8 = 0 :=
  (by decide +kernel : ∀ t : Fin grid5.N, cond5_0 (grid5.coords t) ↔ t.val % 8 = 0)
/-- It is stored into the output block at the points ≡ 7 (mod 8). -/
theorem hcond5_1 : ∀ t : Fin cfg5.N, cond5_1 (grid5.coords t) ↔ t.val % 8 = 7 :=
  (by decide +kernel : ∀ t : Fin grid5.N, cond5_1 (grid5.coords t) ↔ t.val % 8 = 7)
/-- The output window is idle at every other point, -/
theorem idleAt5_5 : ∀ t : Fin cfg5.N, ¬t.val % 8 = 7 → cfg5.idle 5 (grid5.coords t) = true :=
  (by decide +kernel : ∀ t : Fin grid5.N, ¬t.val % 8 = 7 → cfg5.idle 5 (grid5.coords t) = true)
/-- live at those, -/
theorem liveAt5_5 : ∀ t : Fin cfg5.N, t.val % 8 = 7 → cfg5.idle 5 (grid5.coords t) = false :=
  (by decide +kernel : ∀ t : Fin grid5.N, t.val % 8 = 7 → cfg5.idle 5 (grid5.coords t) = false)
/-- and not written back where it is idle. -/
theorem noFlush5_5 (t : Fin cfg5.N) (h : ¬t.val % 8 = 7) : (cfg5.win 5).flush t = false := by
  cases hf : (cfg5.win 5).flush t with
  | false => rfl
  | true => exact absurd ((flush5_5 t).mp hf) h

/-! ## What the body finds in the inputs' buffers and leaves in every buffer -/

/-- Each input's current staging buffer holds its block at every point, fetched there or not. -/
theorem before5_0 (V : Valuation τ sig (Elt F)) (c : Dev nD) (t : Fin cfg5.N) (d) : (dat5 (Ix := Ix) (U := U) (Lvl := Lvl) V c).before 0 t d = iblk5 V c 0 t :=
  ((dat5 (Ix := Ix) (U := U) (Lvl := Lvl) V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)
theorem before5_1 (V : Valuation τ sig (Elt F)) (c : Dev nD) (t : Fin cfg5.N) (d) : (dat5 (Ix := Ix) (U := U) (Lvl := Lvl) V c).before 1 t d = iblk5 V c 1 t :=
  ((dat5 (Ix := Ix) (U := U) (Lvl := Lvl) V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)
theorem before5_2 (V : Valuation τ sig (Elt F)) (c : Dev nD) (t : Fin cfg5.N) (d) : (dat5 (Ix := Ix) (U := U) (Lvl := Lvl) V c).before 2 t d = iblk5 V c 2 t :=
  ((dat5 (Ix := Ix) (U := U) (Lvl := Lvl) V c).before_in_eq_fetched 2 rfl (fun _ => rfl) (fun _ _ _ => rfl)
      (fun t => by rw [after5_2]; unfold Dat.blockOf iblk5; rw [A_eq5]; try rfl) t d).trans
    (by unfold Dat.fetched Dat.blockOf iblk5; rw [A_eq5]; try rfl)
theorem before5_3 (V : Valuation τ sig (Elt F)) (c : Dev nD) (t : Fin cfg5.N) (d) : (dat5 (Ix := Ix) (U := U) (Lvl := Lvl) V c).before 3 t d = iblk5 V c 3 t :=
  ((dat5 (Ix := Ix) (U := U) (Lvl := Lvl) V c).before_in_eq_fetched 3 rfl (fun _ => rfl) (fun _ _ _ => rfl)
      (fun t => by rw [after5_3]; unfold Dat.blockOf iblk5; rw [A_eq5]; try rfl) t d).trans
    (by unfold Dat.fetched Dat.blockOf iblk5; rw [A_eq5]; try rfl)
theorem before5_4 (V : Valuation τ sig (Elt F)) (c : Dev nD) (t : Fin cfg5.N) (d) : (dat5 (Ix := Ix) (U := U) (Lvl := Lvl) V c).before 4 t d = iblk5 V c 4 t :=
  ((dat5 (Ix := Ix) (U := U) (Lvl := Lvl) V c).before_in_eq_fetched 4 rfl (fun _ => rfl) (fun _ _ _ => rfl)
      (fun t => by rw [after5_4]; unfold Dat.blockOf iblk5; rw [A_eq5]; try rfl) t d).trans
    (by unfold Dat.fetched Dat.blockOf iblk5; rw [A_eq5]; try rfl)

/-! ## The body obligation, at a generic point -/

/-- What the body is called with at point `t` (the obligation's precondition, the windows one by one), -/
noncomputable def bodyPre5 (V : Valuation τ sig (Elt F)) (c : Dev nD) (ι : Ix) (t : Fin cfg5.N) : sProp 𝕄 :=
  iprop((dat5 (Ix := Ix) (U := U) (Lvl := Lvl) V c).Φ t.castSucc ∗ (dat5 (Ix := Ix) (U := U) (Lvl := Lvl) V c).owesAt ι t.castSucc
    ∗ (∃ d, owns (c : Thread nD τ) (st5_0 t) fullShare ((dat5 (Ix := Ix) (U := U) (Lvl := Lvl) V c).before 0 t d))
    ∗ (∃ d, owns (c : Thread nD τ) (st5_1 t) fullShare ((dat5 (Ix := Ix) (U := U) (Lvl := Lvl) V c).before 1 t d))
    ∗ (∃ d, owns (c : Thread nD τ) (st5_2 t) fullShare ((dat5 (Ix := Ix) (U := U) (Lvl := Lvl) V c).before 2 t d))
    ∗ (∃ d, owns (c : Thread nD τ) (st5_3 t) fullShare ((dat5 (Ix := Ix) (U := U) (Lvl := Lvl) V c).before 3 t d))
    ∗ (∃ d, owns (c : Thread nD τ) (st5_4 t) fullShare ((dat5 (Ix := Ix) (U := U) (Lvl := Lvl) V c).before 4 t d))
    ∗ (∃ d, owns (c : Thread nD τ) (st5_5 t) fullShare ((dat5 (Ix := Ix) (U := U) (Lvl := Lvl) V c).before 5 t d)))

/-- and what it returns. -/
noncomputable def bodyPost5 (V : Valuation τ sig (Elt F)) (c : Dev nD) (ι : Ix) (t : Fin cfg5.N) : sProp 𝕄 :=
  iprop((dat5 (Ix := Ix) (U := U) (Lvl := Lvl) V c).Φ t.succ ∗ (dat5 (Ix := Ix) (U := U) (Lvl := Lvl) V c).owesAt ι t.succ
    ∗ (dat5 (Ix := Ix) (U := U) (Lvl := Lvl) V c).leaves 0 t ∗ (dat5 (Ix := Ix) (U := U) (Lvl := Lvl) V c).leaves 1 t ∗ (dat5 (Ix := Ix) (U := U) (Lvl := Lvl) V c).leaves 2 t
    ∗ (dat5 (Ix := Ix) (U := U) (Lvl := Lvl) V c).leaves 3 t ∗ (dat5 (Ix := Ix) (U := U) (Lvl := Lvl) V c).leaves 4 t ∗ (dat5 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body5 (𝒱₀ : Variants) (ι : Ix) (V : Valuation τ sig (Elt F)) (c : Dev nD) (t : Fin cfg5.N) :
    bodyPre5 (Ix := Ix) (U := U) (Lvl := Lvl) V c ι t ⊢ wp frame (wpE (defs₀ (F := F)) 𝒱₀ c none) Set.univ (bodyAt5 t) (fun _ => bodyPost5 (Ix := Ix) (U := U) (Lvl := Lvl) V c ι t) := by
  unfold bodyPre5 bodyPost5 bodyAt5
  simp only [before5_0, before5_1, before5_2, before5_3, before5_4]
  rw [show (dat5 (Ix := Ix) (U := U) (Lvl := Lvl) V c).owesAt ι t.succ = (dat5 (Ix := Ix) (U := U) (Lvl := Lvl) V c).owesAt ι t.castSucc from rfl]
  rw [Phi5_at_succ, Phi5_succ, Phi5_castSucc]
  rw [leaves_live (dat5 (Ix := Ix) (U := U) (Lvl := Lvl) V c) 0 t rfl rfl, leaves_live (dat5 (Ix := Ix) (U := U) (Lvl := Lvl) V c) 1 t rfl rfl, leaves_live (dat5 (Ix := Ix) (U := U) (Lvl := Lvl) V c) 2 t rfl rfl,
    leaves_live (dat5 (Ix := Ix) (U := U) (Lvl := Lvl) V c) 3 t rfl rfl, leaves_live (dat5 (Ix := Ix) (U := U) (Lvl := Lvl) V c) 4 t rfl rfl, after5_0, after5_1, after5_2, after5_3, after5_4]
  have hN : t.val < 64 := lt_of_lt_of_eq t.isLt (show cfg5.N = 64 from N_5)
  by_cases h0 : t.val % 8 = 0
  · have h7 : ¬t.val % 8 = 7 := by omega
    rw [Dat.leaves_idle (dat5 (Ix := Ix) (U := U) (Lvl := Lvl) V c) 5 t (idleAt5_5 t h7) (noFlush5_5 t h7)]
    rw [acc5_reset V c t.val t.isLt h0]
    unfold step5 init5
    by_cases hz : t.val = 0
    · rw [Phi5_zero V c _ _ hz, scopedRest5_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run5_first 𝒱₀ c (grid5.coords t) _ _ _ _ _ _ _ _ _ _ _ _ _ _ ((hcond5_0 t).mpr h0) (fun h => h7 ((hcond5_1 t).mp h)) (iblk5 V c 0 t) (iblk5 V c 1 t) (iblk5 V c 2 t) (iblk5 V c 3 t) (iblk5 V c 4 t) ((dat5 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi5_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run5_first 𝒱₀ c (grid5.coords t) _ _ _ _ _ _ _ _ _ _ _ _ _ _ ((hcond5_0 t).mpr h0) (fun h => h7 ((hcond5_1 t).mp h)) (iblk5 V c 0 t) (iblk5 V c 1 t) (iblk5 V c 2 t) (iblk5 V c 3 t) (iblk5 V c 4 t) ((dat5 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc5_step V c t.val t.isLt h0, Phi5_pos V c _ _ hz]
    unfold step5
    by_cases h7 : t.val % 8 = 7
    · rw [leaves_live (dat5 (Ix := Ix) (U := U) (Lvl := Lvl) V c) 5 t (liveAt5_5 t h7) rfl, after5_5, acc5_step V c t.val t.isLt h0]
      unfold step5
      iintro ⟨⟨HS, Hr⟩, Ho, ⟨%d0, H0⟩, ⟨%d1, H1⟩, ⟨%d2, H2⟩, ⟨%d3, H3⟩, ⟨%d4, H4⟩, ⟨%d5, H5⟩⟩
      iapply (run5_last 𝒱₀ c (grid5.coords t) _ _ _ _ _ _ _ _ _ _ _ _ _ _ (fun h => h0 ((hcond5_0 t).mp h)) ((hcond5_1 t).mpr h7) (iblk5 V c 0 t) (iblk5 V c 1 t) (iblk5 V c 2 t) (iblk5 V c 3 t) (iblk5 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat5 (Ix := Ix) (U := U) (Lvl := Lvl) V c) 5 t (idleAt5_5 t h7) (noFlush5_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run5_mid 𝒱₀ c (grid5.coords t) _ _ _ _ _ _ _ _ _ _ _ _ _ _ (fun h => h0 ((hcond5_0 t).mp h)) (fun h => h7 ((hcond5_1 t).mp h)) (iblk5 V c 0 t) (iblk5 V c 1 t) (iblk5 V c 2 t) (iblk5 V c 3 t) (iblk5 V c 4 t) ((dat5 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation5 (𝒱₀ : Variants) (ι : Ix) (V : Valuation τ sig (Elt F)) (c : Dev nD) :
    BodyObligationLoose (dat5 (Ix := Ix) (U := U) (Lvl := Lvl) V c) (defs₀ (F := F)) 𝒱₀ ι Set.univ := fun t => by
  rw [bigSep_W5, bigSep_W5]
  exact sound_body5 𝒱₀ ι V c t

/-- The same at the type the program's family of configurations gives pipeline 1, on every core. -/
theorem body5 (𝒱₀ : Variants) (ι : Ix) (V : Valuation τ sig (Elt F)) :
    ∀ c : Dev nD, BodyObligationLoose (cfg := cfgs 5) (dat5 (Ix := Ix) (U := U) (Lvl := Lvl) V c) (defs₀ (F := F)) 𝒱₀ ι Set.univ :=
  fun c => body_obligation5 𝒱₀ ι V c

end Cert.KernelIdeal.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg5

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (5 : Fin 24)
/-- Its configuration, its windows but for their index maps, the number of its windows. -/
abbrev cfgK : Pipeline.Cfg sig Λ₀ := cfg5
abbrev specK : Fin 6 → Pipeline.WinSpec sig cfgK.grid.rank := spec5
abbrev nW : Nat := 6
/-- Its output window and the buffer behind it. -/
abbrev oK : Fin nW := 5
abbrev outK : Ref sig .tc := main_v160
theorem winK : Pipeline.WinFacts₀ specK := winFacts₀5
theorem block_posK : ∀ w : Fin nW, 0 < (specK w).block.numel := block_pos5
theorem arr_wholeK : ∀ w : Fin nW, (specK w).arr.IsWhole := arr_whole5
theorem stage_wholeK : ∀ (w : Fin nW) (s : Fin (specK w).nbuf), ((specK w).stage s).IsWhole := stage_whole5

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.KernelIdeal.Hand.Reg5

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R5' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (5 : Fin 24) c = dat5 (V28 m outs c) c)
    (hbody : ∀ c : Dev nD, Pipeline.BodyObligationLoose (dat5 (Ix := Ix) (U := U) (Lvl := Lvl) (V28 m outs c) c) (defs₀ (F := F)) 𝒱₀ ι Set.univ) :
    RegionSeg (pcfgs (F := F)) GenP.adm pdats ι defs₀ 𝒱₀ L lv (5 : Fin 24) :=
  Reg5.RK 𝒱₀ L lv ι pdats (fun c => V28 m outs c)
    (fun c => by rw [hp c]; exact hbody c)
    (fun c w => by rw [hp c]; exact A_eq5 (V28 m outs c) c w)
    (fun c => by rw [hp c]; rw [q5_1, q5_2]; exact PosShare.mem_left_op_right fullShare)
    (fun c => by rw [hp c]; rw [q5_3, q5_4]; exact PosShare.mem_left_op_right fullShare)
    (fun c => by rw [hp c]; exact q5_0 (V28 m outs c) c)
    (fun c t => by rw [hp c]; rfl)
    (fun c => by rw [hp c]; rfl)
    (fun c => by rw [hp c, Phi_first5])
    (fun c => by rw [hp c]; exact Phi_last5 (V28 m outs c) c)

/-- It is entered from the thread state before the region's item, -/
theorem hpre5' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (5 : Fin 24) c = dat5 (V28 m outs c) c)
    (hbody : ∀ c : Dev nD, Pipeline.BodyObligationLoose (dat5 (Ix := Ix) (U := U) (Lvl := Lvl) (V28 m outs c) c) (defs₀ (F := F)) 𝒱₀ ι Set.univ)
    (c : Dev nD) :
    iprop(StableHlo.held (c : Thread nD τ) (Pipeline.ucRefs τ sig) (V28 m outs c) ∗ (R c : sProp 𝕄))
      ⊢ (R5' m outs 𝒱₀ L lv ι pdats hp hbody).pre c := .rfl

/-- and left at the thread state after it. -/
theorem hpost5' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (5 : Fin 24) c = dat5 (V28 m outs c) c)
    (hbody : ∀ c : Dev nD, Pipeline.BodyObligationLoose (dat5 (Ix := Ix) (U := U) (Lvl := Lvl) (V28 m outs c) c) (defs₀ (F := F)) 𝒱₀ ι Set.univ)
    (houts : ∀ c : Dev nD, outs 29 main_v160 c = (dat5 (Ix := Ix) (U := U) (Lvl := Lvl) (V28 m outs c) c).arrAt 5 64)
    (c : Dev nD) :
    (R5' m outs 𝒱₀ L lv ι pdats hp hbody).post c
      ⊢ iprop(StableHlo.held (c : Thread nD τ) (Pipeline.ucRefs τ sig) (V29 m outs c) ∗ (R c : sProp 𝕄)) := by
  have h : (pdats (5 : Fin 24) c).arrAt Reg5.oK Reg5.cfgK.N = outs 29 main_v160 c := by
    rw [hp c]; exact (houts c).symm
  show iprop(StableHlo.held (c : Thread nD τ) (Pipeline.ucRefs τ sig)
      (Function.update (V28 m outs c) (Proc.devRef .tc main_v160) ((pdats (5 : Fin 24) c).arrAt Reg5.oK Reg5.cfgK.N))
        ∗ (R c : sProp 𝕄)) ⊢ _
  rw [h]

end Cert.KernelIdeal.Hand
-- ==== Proof.Rg6.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.SumLib
import Idealize.ShloMosaic.Lib.Tactic
import proofs.«169706_j68856915690108_1_alg».proof.Proof.Shared
import proofs.«169706_j68856915690108_1_alg».proof.Proof.RegionsKI

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k6_pay2)

  and only at the last point, 63, is that cell copied into the 1 × 1 output block, which the pipeline then writes back.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk6 (V : Valuation τ sig (Elt F)) (c : Dev nD) (w : Fin cfg6.W) (t : Fin cfg6.N) :
    ((cfg6.win w).xblock (cfg6.grid.coords t)).Idx → Elt F (cfg6.win w).elt :=
  ((cfg6.win w).blk t).view.read (Elt F)
    (V (Proc.devRef .tc (Pipeline.arrRef spec6 w)) : Buf (Elt F) ((cfg6.win w).arr.view.loc (c.tc : Thread nD τ)))

/-- One point's step on the scratch cell: the cell's contents `a` plus the sum of the tile made of the two blocks
    the point stages (the printed payload of the store into the scratch cell). -/
noncomputable def step6 (V : Valuation τ sig (Elt F)) (c : Dev nD) (n : ℕ) (hn : n < cfg6.N) (a : Vec F S1x1 .f32) : Vec F S1x1 .f32 :=
  k6_pay2 (iblk6 V c 0 ⟨n, hn⟩) (iblk6 V c 1 ⟨n, hn⟩) a

/-- What the scratch cell holds after point `n`: the steps of the points `0 … n` applied, first to last, to the
    zero the body stores at point 0. -/
noncomputable def acc6 (V : Valuation τ sig (Elt F)) (c : Dev nD) : (n : ℕ) → n < cfg6.N → Vec F S1x1 .f32
  | 0, hn => step6 V c 0 hn (k6_pay1 (F := F))
  | n + 1, hn => step6 V c (n + 1) hn (acc6 V c n (Nat.lt_of_succ_lt hn))

theorem acc6_zero (V : Valuation τ sig (Elt F)) (c : Dev nD) (hn : 0 < cfg6.N) :
    acc6 V c 0 hn = step6 V c 0 hn (k6_pay1 (F := F)) := rfl

theorem acc6_succ (V : Valuation τ sig (Elt F)) (c : Dev nD) (n : ℕ) (hn : n + 1 < cfg6.N) :
    acc6 V c (n + 1) hn = step6 V c (n + 1) hn (acc6 V c n (Nat.lt_of_succ_lt hn)) := rfl

/-- After a point that is not the first: the step of that point on what the point before left. -/
theorem acc6_pos (V : Valuation τ sig (Elt F)) (c : Dev nD) (n : ℕ) (hn : n < cfg6.N) (hz : n ≠ 0) :
    acc6 V c n hn = step6 V c n hn (acc6 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi6 (V : Valuation τ sig (Elt F)) (c : Dev nD) : (n : ℕ) → n ≤ cfg6.N → sProp 𝕄
  | 0, _ => Pipeline.scopedRest (Ix := Ix) (Name := ℕ) (U := U) (Lvl := Lvl) (Val := Elt F) spec6 c
  | n + 1, hn => iprop(owns (c : Thread nD τ) (Memref.whole cc6_scratch0) fullShare (acc6 V c n hn)
      ∗ Pipeline.scopedRestBut (Ix := Ix) (Name := ℕ) (U := U) (Lvl := Lvl) (Val := Elt F) spec6 c [cc6_scratch0])

theorem Phi6_zero (V : Valuation τ sig (Elt F)) (c : Dev nD) (n : ℕ) (h : n ≤ cfg6.N) (hz : n = 0) :
    (Phi6 V c n h : sProp 𝕄) = Pipeline.scopedRest (Ix := Ix) (Name := ℕ) (U := U) (Lvl := Lvl) (Val := Elt F) spec6 c := by
  subst hz; rfl

theorem Phi6_succ (V : Valuation τ sig (Elt F)) (c : Dev nD) (n : ℕ) (hn : n < cfg6.N) :
    (Phi6 V c (n + 1) hn : sProp 𝕄) = iprop(owns (c : Thread nD τ) (Memref.whole cc6_scratch0) fullShare (acc6 V c n hn)
      ∗ Pipeline.scopedRestBut (Ix := Ix) (Name := ℕ) (U := U) (Lvl := Lvl) (Val := Elt F) spec6 c [cc6_scratch0]) := rfl

theorem Phi6_pos (V : Valuation τ sig (Elt F)) (c : Dev nD) (n : ℕ) (h : n ≤ cfg6.N) (hz : n ≠ 0) :
    (Phi6 V c n h : sProp 𝕄) = iprop(owns (c : Thread nD τ) (Memref.whole cc6_scratch0) fullShare (acc6 V c (n - 1) (by omega))
      ∗ Pipeline.scopedRestBut (Ix := Ix) (Name := ℕ) (U := U) (Lvl := Lvl) (Val := Elt F) spec6 c [cc6_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi6`; the one
    array the two inputs read held half and half; nothing owed. -/
noncomputable def dat6 (V : Valuation τ sig (Elt F)) (c : Dev nD) : Dat τ (Elt F) Ix ℕ U Lvl cfg6 c where
  A w := V (Proc.devRef .tc (Pipeline.arrRef spec6 w))
  after w t := match w with
    | ⟨0, _⟩ => iblk6 V c 0 t
    | ⟨1, _⟩ => iblk6 V c 1 t
    | ⟨2, _⟩ => acc6 V c t.val t.isLt
  Φ t := Phi6 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq6 (V : Valuation τ sig (Elt F)) (c : Dev nD) (w : Fin cfg6.W) :
    (dat6 (Ix := Ix) (U := U) (Lvl := Lvl) V c).A w = V (Proc.devRef .tc (Pipeline.arrRef spec6 w)) := by
  dsimp only [dat6]

/-- What the body leaves, window by window. -/
theorem after6_0 (V : Valuation τ sig (Elt F)) (c : Dev nD) (t : Fin cfg6.N) :
    (dat6 (Ix := Ix) (U := U) (Lvl := Lvl) V c).after 0 t = iblk6 V c 0 t := by dsimp only [dat6]
theorem after6_1 (V : Valuation τ sig (Elt F)) (c : Dev nD) (t : Fin cfg6.N) :
    (dat6 (Ix := Ix) (U := U) (Lvl := Lvl) V c).after 1 t = iblk6 V c 1 t := by dsimp only [dat6]
theorem after6_2 (V : Valuation τ sig (Elt F)) (c : Dev nD) (t : Fin cfg6.N) :
    (dat6 (Ix := Ix) (U := U) (Lvl := Lvl) V c).after 2 t = acc6 V c t.val t.isLt := by dsimp only [dat6]

/-- The invariant at a point's start, and at its end. -/
theorem Phi6_castSucc (V : Valuation τ sig (Elt F)) (c : Dev nD) (t : Fin cfg6.N) :
    (dat6 (Ix := Ix) (U := U) (Lvl := Lvl) V c).Φ t.castSucc = Phi6 V c t.val (Nat.le_of_lt t.isLt) := by
  dsimp only [dat6]; simp only [Fin.coe_castSucc]

theorem Phi6_at_succ (V : Valuation τ sig (Elt F)) (c : Dev nD) (t : Fin cfg6.N) :
    (dat6 (Ix := Ix) (U := U) (Lvl := Lvl) V c).Φ t.succ = Phi6 V c (t.val + 1) t.isLt := rfl

/-- Before the first point the invariant is the launch's scoped rest. -/
theorem Phi_first6 (V : Valuation τ sig (Elt F)) (c : Dev nD) :
    (dat6 (Ix := Ix) (U := U) (Lvl := Lvl) V c).Φ 0
      = Pipeline.scopedRest (Ix := Ix) (Name := ℕ) (U := U) (Lvl := Lvl) (Val := Elt F) spec6 c := rfl

/-- After the last point the invariant gives the scoped rest back: the scratch cell's contents are forgotten. -/
theorem Phi_last6 (V : Valuation τ sig (Elt F)) (c : Dev nD) :
    (dat6 (Ix := Ix) (U := U) (Lvl := Lvl) V c).Φ (Fin.last cfg6.N)
      ⊢ Pipeline.scopedRest (Ix := Ix) (Name := ℕ) (U := U) (Lvl := Lvl) (Val := Elt F) spec6 c := by
  have hN : cfg6.N = 64 := N_6
  rw [show (dat6 (Ix := Ix) (U := U) (Lvl := Lvl) V c).Φ (Fin.last cfg6.N) = Phi6 V c (Fin.last cfg6.N).val (Nat.le_of_lt_succ (Fin.last cfg6.N).isLt) from rfl,
    Phi6_pos V c _ _ (by rw [Fin.val_last]; omega), scopedRest6_split, owns_whole]
  iintro ⟨Hs, Hr⟩
  isplitl [Hs]
  · iexists _; iexact Hs
  iexact Hr

example (V : Valuation τ sig (Elt F)) (c : Dev nD) : Dat τ (Elt F) Ix ℕ U Lvl (cfgs 6) c := dat6 V c

end Cert.KernelIdeal.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k6_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond6_1 (i : grid6.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond6_2 (i : grid6.Coords) : Prop := k6_cond2 i = 1#1

/-- The reset runs at the first point only, -/
theorem hcond6_1 : ∀ t : Fin cfg6.N, cond6_1 (grid6.coords t) ↔ t.val = 0 :=
  (by decide +kernel : ∀ t : Fin grid6.N, cond6_1 (grid6.coords t) ↔ t.val = 0)
/-- the copy at the last point only. -/
theorem hcond6_2 : ∀ t : Fin cfg6.N, cond6_2 (grid6.coords t) ↔ t.val = 63 :=
  (by decide +kernel : ∀ t : Fin grid6.N, cond6_2 (grid6.coords t) ↔ t.val = 63)

/-! ## The body, case by case, on any whole memrefs -/

/-- The first point: the scratch cell, at anything, is reset and then holds the first step on zero. -/
theorem run6_A (𝒱₀ : Variants) (c : Dev nD) (i : grid6.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond6_1 i) (hc2 : ¬cond6_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k6_pay2 x2 x3 (k6_pay1 (F := F)))) -∗ K ⟨⟩))
      ⊢ wp frame (wpE (defs₀ (F := F)) 𝒱₀ c none) E (cc6__sum_kernel i arg2 harg2 arg3 harg3 arg4 harg4 arg5 harg5) K := by
  simp only [cc6__sum_kernel_eq_skeleton]; unfold cc6__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run6_A.sl.v15 run6_A.sl.H5_1
  rw [readCov_whole _ zeros2, readAt_whole _ _ zeros2, readAt_whole _ _ zeros2]

/-- A point strictly between the first and the last: the scratch cell at `a` takes the point's step. -/
theorem run6_B (𝒱₀ : Variants) (c : Dev nD) (i : grid6.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond6_1 i) (hc2 : ¬cond6_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k6_pay2 x2 x3 a)) -∗ K ⟨⟩))
      ⊢ wp frame (wpE (defs₀ (F := F)) 𝒱₀ c none) E (cc6__sum_kernel i arg2 harg2 arg3 harg3 arg4 harg4 arg5 harg5) K := by
  simp only [cc6__sum_kernel_eq_skeleton]; unfold cc6__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run6_C (𝒱₀ : Variants) (c : Dev nD) (i : grid6.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond6_1 i) (hc2 : cond6_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k6_pay2 x2 x3 a) ∗ owns (c : Thread nD τ) arg5 fullShare (k6_pay2 x2 x3 a)) -∗ K ⟨⟩))
      ⊢ wp frame (wpE (defs₀ (F := F)) 𝒱₀ c none) E (cc6__sum_kernel i arg2 harg2 arg3 harg3 arg4 harg4 arg5 harg5) K := by
  simp only [cc6__sum_kernel_eq_skeleton]; unfold cc6__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run6_C.sl.v25 run6_C.sl.H5_1
    rw [readCov_whole _ zeros2, readAt_whole _ _ zeros2, readAt_whole _ _ zeros2, readAt_whole _ _ zeros2]
  iexists _; isplitr
  swap; · iexact H5
  ipureintro
  unfold run6_C.sl.H5_1
  rw [read_writes_whole _ _ zeros2, readAt_whole _ _ zeros2, readAt_whole _ _ zeros2, readAt_whole _ _ zeros2]

end Cert.KernelIdeal.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle6_2 : ∀ t : Fin cfg6.N, cfg6.idle 2 (grid6.coords t) = true ↔ t.val ≠ 63 :=
  (by decide +kernel : ∀ t : Fin grid6.N, idle6 2 (grid6.coords t) = true ↔ t.val ≠ 63)
/-- and written back at the last point only. -/
theorem flush6_2' : ∀ t : Fin cfg6.N, (cfg6.win 2).flush t = true ↔ t.val = 63 :=
  (by decide +kernel : ∀ t : Fin grid6.N, win6_2.flush t = true ↔ t.val = 63)

/-! ## What the body finds in the inputs' buffers -/

/-- Each input's current staging buffer holds its block at every point, fetched there or not: unfetched, the block
    index has not moved and the body left the block in place. -/
theorem before6_0 (V : Valuation τ sig (Elt F)) (c : Dev nD) (t : Fin cfg6.N) (d) :
    (dat6 (Ix := Ix) (U := U) (Lvl := Lvl) V c).before 0 t d = iblk6 V c 0 t :=
  ((dat6 (Ix := Ix) (U := U) (Lvl := Lvl) V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)

theorem before6_1 (V : Valuation τ sig (Elt F)) (c : Dev nD) (t : Fin cfg6.N) (d) :
    (dat6 (Ix := Ix) (U := U) (Lvl := Lvl) V c).before 1 t d = iblk6 V c 1 t :=
  ((dat6 (Ix := Ix) (U := U) (Lvl := Lvl) V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)

/-! ## What the obligation asks of each window's buffer after the body -/

/-- The inputs are never idle: their buffers are handed back at their blocks. -/
theorem leaves6_0 (V : Valuation τ sig (Elt F)) (c : Dev nD) (t : Fin cfg6.N) :
    (dat6 (Ix := Ix) (U := U) (Lvl := Lvl) V c).leaves 0 t = owns (c : Thread nD τ) (st6_0 t) fullShare (iblk6 V c 0 t) := by
  rw [← after6_0 (Ix := Ix) (U := U) (Lvl := Lvl) V c t]

theorem leaves6_1 (V : Valuation τ sig (Elt F)) (c : Dev nD) (t : Fin cfg6.N) :
    (dat6 (Ix := Ix) (U := U) (Lvl := Lvl) V c).leaves 1 t = owns (c : Thread nD τ) (st6_1 t) fullShare (iblk6 V c 1 t) := by
  rw [← after6_1 (Ix := Ix) (U := U) (Lvl := Lvl) V c t]

/-- The output is idle, and not written back, at every point but the last: its buffer is handed back as found; -/
theorem leaves6_2_idle (V : Valuation τ sig (Elt F)) (c : Dev nD) (t : Fin cfg6.N) (h : t.val ≠ 63) :
    (dat6 (Ix := Ix) (U := U) (Lvl := Lvl) V c).leaves 2 t
      = iprop(∃ d, owns (c : Thread nD τ) (st6_2 t) fullShare ((dat6 (Ix := Ix) (U := U) (Lvl := Lvl) V c).before 2 t d)) :=
  (dat6 (Ix := Ix) (U := U) (Lvl := Lvl) V c).leaves_idle 2 t ((idle6_2 t).mpr h)
    (Bool.eq_false_iff.mpr fun hf => h ((flush6_2' t).mp hf))

/-- at the last point it is handed back at the accumulated sum. -/
theorem leaves6_2_last (V : Valuation τ sig (Elt F)) (c : Dev nD) (t : Fin cfg6.N) (h : t.val = 63) :
    (dat6 (Ix := Ix) (U := U) (Lvl := Lvl) V c).leaves 2 t = owns (c : Thread nD τ) (st6_2 t) fullShare (acc6 V c t.val t.isLt) := by
  have hl : cfg6.idle 2 (grid6.coords t) = false := by
    cases hi : cfg6.idle 2 (grid6.coords t) with
    | false => rfl
    | true => exact absurd h ((idle6_2 t).mp hi)
  rw [← after6_2 (Ix := Ix) (U := U) (Lvl := Lvl) V c t]
  unfold Dat.leaves; rw [hl]

/-- One step at a point, through the point itself. -/
theorem step6_at (V : Valuation τ sig (Elt F)) (c : Dev nD) (t : Fin cfg6.N) (a : Vec F S1x1 .f32) :
    step6 V c t.val t.isLt a = k6_pay2 (iblk6 V c 0 t) (iblk6 V c 1 t) a := rfl

theorem acc6_first (V : Valuation τ sig (Elt F)) (c : Dev nD) (n : ℕ) (hn : n < cfg6.N) (hz : n = 0) :
    acc6 V c n hn = step6 V c n hn (k6_pay1 (F := F)) := by
  subst hz; rfl

/-! ## The body obligation -/

/-- What the body is called with at point `t` (the obligation's precondition, the windows one by one), -/
noncomputable def bodyPre6 (V : Valuation τ sig (Elt F)) (ι : Ix) (c : Dev nD) (t : Fin cfg6.N) : sProp 𝕄 :=
  iprop((dat6 (Ix := Ix) (U := U) (Lvl := Lvl) V c).Φ t.castSucc ∗ (dat6 (Ix := Ix) (U := U) (Lvl := Lvl) V c).owesAt ι t.castSucc
    ∗ (∃ d, owns (c : Thread nD τ) (st6_0 t) fullShare ((dat6 (Ix := Ix) (U := U) (Lvl := Lvl) V c).before 0 t d))
    ∗ (∃ d, owns (c : Thread nD τ) (st6_1 t) fullShare ((dat6 (Ix := Ix) (U := U) (Lvl := Lvl) V c).before 1 t d))
    ∗ (∃ d, owns (c : Thread nD τ) (st6_2 t) fullShare ((dat6 (Ix := Ix) (U := U) (Lvl := Lvl) V c).before 2 t d)))

/-- and what it returns. -/
noncomputable def bodyPost6 (V : Valuation τ sig (Elt F)) (ι : Ix) (c : Dev nD) (t : Fin cfg6.N) : sProp 𝕄 :=
  iprop((dat6 (Ix := Ix) (U := U) (Lvl := Lvl) V c).Φ t.succ ∗ (dat6 (Ix := Ix) (U := U) (Lvl := Lvl) V c).owesAt ι t.succ
    ∗ (dat6 (Ix := Ix) (U := U) (Lvl := Lvl) V c).leaves 0 t ∗ (dat6 (Ix := Ix) (U := U) (Lvl := Lvl) V c).leaves 1 t ∗ (dat6 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body6 (V : Valuation τ sig (Elt F)) (𝒱₀ : Variants) (ι : Ix) (c : Dev nD) (t : Fin cfg6.N) :
    bodyPre6 (U := U) (Lvl := Lvl) V ι c t
      ⊢ wp frame (wpE (defs₀ (F := F)) 𝒱₀ c none) Set.univ (bodyAt6 t) (fun _ => bodyPost6 (U := U) (Lvl := Lvl) V ι c t) := by
  unfold bodyPre6 bodyPost6 bodyAt6
  simp only [before6_0, before6_1]
  rw [show (dat6 (Ix := Ix) (U := U) (Lvl := Lvl) V c).owesAt ι t.succ = (dat6 (Ix := Ix) (U := U) (Lvl := Lvl) V c).owesAt ι t.castSucc from rfl]
  rw [Phi6_at_succ, Phi6_succ, Phi6_castSucc, leaves6_0, leaves6_1]
  have hN : t.val < 64 := lt_of_lt_of_eq t.isLt N_6
  by_cases hz : t.val = 0
  · have hc1 : cond6_1 (grid6.coords t) := (hcond6_1 t).mpr hz
    have hc2 : ¬cond6_2 (grid6.coords t) := fun h => by have := (hcond6_2 t).mp h; omega
    rw [leaves6_2_idle V c t (by omega), Phi6_zero V c _ _ hz, scopedRest6_split, acc6_first V c _ _ hz, step6_at]
    iintro ⟨⟨⟨%f, Hs⟩, Hr⟩, Ho, ⟨%d0, H0⟩, ⟨%d1, H1⟩, H2⟩
    iapply (run6_A 𝒱₀ c (grid6.coords t) _ _ _ _ _ _ _ _ hc1 hc2 (iblk6 V c 0 t) (iblk6 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond6_1 (grid6.coords t) := fun h => hz ((hcond6_1 t).mp h)
    rw [Phi6_pos V c _ _ hz, acc6_pos V c _ _ hz, step6_at]
    by_cases hl : t.val = 63
    · have hc2 : cond6_2 (grid6.coords t) := (hcond6_2 t).mpr hl
      rw [leaves6_2_last V c t hl, acc6_pos V c _ _ hz, step6_at]
      iintro ⟨⟨Hs, Hr⟩, Ho, ⟨%d0, H0⟩, ⟨%d1, H1⟩, ⟨%d2, H2⟩⟩
      iapply (run6_C 𝒱₀ c (grid6.coords t) _ _ _ _ _ _ _ _ hc1 hc2 (iblk6 V c 0 t) (iblk6 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond6_2 (grid6.coords t) := fun h => hl ((hcond6_2 t).mp h)
      rw [leaves6_2_idle V c t hl]
      iintro ⟨⟨Hs, Hr⟩, Ho, ⟨%d0, H0⟩, ⟨%d1, H1⟩, H2⟩
      iapply (run6_B 𝒱₀ c (grid6.coords t) _ _ _ _ _ _ _ _ hc1 hc2 (iblk6 V c 0 t) (iblk6 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body6 (V : Valuation τ sig (Elt F)) (𝒱₀ : Variants) (ι : Ix) :
    ∀ c : Dev nD, BodyObligationLoose (dat6 (Ix := Ix) (U := U) (Lvl := Lvl) V c) (defs₀ (F := F)) 𝒱₀ ι Set.univ := fun c t => by
  rw [bigSep_W6, bigSep_W6]
  exact sound_body6 (U := U) (Lvl := Lvl) V 𝒱₀ ι c t

end Cert.KernelIdeal.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg6

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (6 : Fin 24)
/-- Its configuration, its windows but for their index maps, the number of its windows. -/
abbrev cfgK : Pipeline.Cfg sig Λ₀ := cfg6
abbrev specK : Fin 3 → Pipeline.WinSpec sig cfgK.grid.rank := spec6
abbrev nW : Nat := 3
/-- Its output window and the buffer behind it. -/
abbrev oK : Fin nW := 2
abbrev outK : Ref sig .tc := main_v229
theorem winK : Pipeline.WinFacts₀ specK := winFacts₀6
theorem block_posK : ∀ w : Fin nW, 0 < (specK w).block.numel := block_pos6
theorem arr_wholeK : ∀ w : Fin nW, (specK w).arr.IsWhole := arr_whole6
theorem stage_wholeK : ∀ (w : Fin nW) (s : Fin (specK w).nbuf), ((specK w).stage s).IsWhole := stage_whole6

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.KernelIdeal.Hand.Reg6

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R6' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (6 : Fin 24) c = dat6 (V37 m outs c) c)
    (hbody : ∀ c : Dev nD, Pipeline.BodyObligationLoose (dat6 (Ix := Ix) (U := U) (Lvl := Lvl) (V37 m outs c) c) (defs₀ (F := F)) 𝒱₀ ι Set.univ) :
    RegionSeg (pcfgs (F := F)) GenP.adm pdats ι defs₀ 𝒱₀ L lv (6 : Fin 24) :=
  Reg6.RK 𝒱₀ L lv ι pdats (fun c => V37 m outs c)
    (fun c => by rw [hp c]; exact hbody c)
    (fun c w => by rw [hp c]; exact A_eq6 (V37 m outs c) c w)
    (fun c => by rw [hp c]; exact PosShare.mem_left_op_right fullShare)
    (fun c t => by rw [hp c]; rfl)
    (fun c => by rw [hp c]; rfl)
    (fun c => by rw [hp c, Phi_first6])
    (fun c => by rw [hp c]; exact Phi_last6 (V37 m outs c) c)

/-- It is entered from the thread state before the region's item, -/
theorem hpre6' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (6 : Fin 24) c = dat6 (V37 m outs c) c)
    (hbody : ∀ c : Dev nD, Pipeline.BodyObligationLoose (dat6 (Ix := Ix) (U := U) (Lvl := Lvl) (V37 m outs c) c) (defs₀ (F := F)) 𝒱₀ ι Set.univ)
    (c : Dev nD) :
    iprop(StableHlo.held (c : Thread nD τ) (Pipeline.ucRefs τ sig) (V37 m outs c) ∗ (R c : sProp 𝕄))
      ⊢ (R6' m outs 𝒱₀ L lv ι pdats hp hbody).pre c := .rfl

/-- and left at the thread state after it. -/
theorem hpost6' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (6 : Fin 24) c = dat6 (V37 m outs c) c)
    (hbody : ∀ c : Dev nD, Pipeline.BodyObligationLoose (dat6 (Ix := Ix) (U := U) (Lvl := Lvl) (V37 m outs c) c) (defs₀ (F := F)) 𝒱₀ ι Set.univ)
    (houts : ∀ c : Dev nD, outs 38 main_v229 c = (dat6 (Ix := Ix) (U := U) (Lvl := Lvl) (V37 m outs c) c).arrAt 2 64)
    (c : Dev nD) :
    (R6' m outs 𝒱₀ L lv ι pdats hp hbody).post c
      ⊢ iprop(StableHlo.held (c : Thread nD τ) (Pipeline.ucRefs τ sig) (V38 m outs c) ∗ (R c : sProp 𝕄)) := by
  have h : (pdats (6 : Fin 24) c).arrAt Reg6.oK Reg6.cfgK.N = outs 38 main_v229 c := by
    rw [hp c]; exact (houts c).symm
  show iprop(StableHlo.held (c : Thread nD τ) (Pipeline.ucRefs τ sig)
      (Function.update (V37 m outs c) (Proc.devRef .tc main_v229) ((pdats (6 : Fin 24) c).arrAt Reg6.oK Reg6.cfgK.N))
        ∗ (R c : sProp 𝕄)) ⊢ _
  rw [h]

end Cert.KernelIdeal.Hand
-- ==== Proof.Rg7.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.ApplyLib
import proofs.«169706_j68856915690108_1_alg».proof.Proof.Shared
import proofs.«169706_j68856915690108_1_alg».proof.Proof.RegionsKI

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k7_pay1 x_i` and `step t a = k7_pay2 h_i h_j threshold x_j a`, the printed payloads of the two stores.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk7 (V : Valuation τ sig (Elt F)) (c : Dev nD) (w : Fin cfg7.W) (t : Fin cfg7.N) :
    ((cfg7.win w).xblock (cfg7.grid.coords t)).Idx → Elt F (cfg7.win w).elt :=
  ((cfg7.win w).blk t).view.read (Elt F)
    (V (Proc.devRef .tc (Pipeline.arrRef spec7 w)) : Buf (Elt F) ((cfg7.win w).arr.view.loc (c.tc : Thread nD τ)))

/-- What the accumulator is reset to at a point whose second coordinate is 0: 1.0 times the block of `x` window 3
    stages there (the printed payload of the first store into the scratch buffer). -/
noncomputable def init7 (V : Valuation τ sig (Elt F)) (c : Dev nD) (n : ℕ) (hn : n < cfg7.N) : Vec F S512x256 .f32 :=
  k7_pay1 (iblk7 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step7 (V : Valuation τ sig (Elt F)) (c : Dev nD) (n : ℕ) (hn : n < cfg7.N) (a : Vec F S512x256 .f32) : Vec F S512x256 .f32 :=
  k7_pay2 (iblk7 V c 1 ⟨n, hn⟩) (iblk7 V c 2 ⟨n, hn⟩) (iblk7 V c 0 ⟨n, hn⟩) (iblk7 V c 4 ⟨n, hn⟩) a

/-- What the accumulator holds after point `n`: reset and stepped at the points ≡ 0 (mod 8), stepped from what the
    point before left at the others. -/
noncomputable def acc7 (V : Valuation τ sig (Elt F)) (c : Dev nD) : (n : ℕ) → n < cfg7.N → Vec F S512x256 .f32
  | 0, hn => step7 V c 0 hn (init7 V c 0 hn)
  | n + 1, hn =>
    if (n + 1) % 8 = 0 then step7 V c (n + 1) hn (init7 V c (n + 1) hn)
    else step7 V c (n + 1) hn (acc7 V c n (Nat.lt_of_succ_lt hn))

/-- After a point ≡ 0 (mod 8): the reset value, stepped once. -/
theorem acc7_reset (V : Valuation τ sig (Elt F)) (c : Dev nD) (n : ℕ) (hn : n < cfg7.N) (h0 : n % 8 = 0) :
    acc7 V c n hn = step7 V c n hn (init7 V c n hn) := by
  cases n with
  | zero => rfl
  | succ n => exact if_pos h0

/-- After any other point: that point's step on what the point before left. -/
theorem acc7_step (V : Valuation τ sig (Elt F)) (c : Dev nD) (n : ℕ) (hn : n < cfg7.N) (h0 : ¬n % 8 = 0) :
    acc7 V c n hn = step7 V c n hn (acc7 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi7 (V : Valuation τ sig (Elt F)) (c : Dev nD) : (n : ℕ) → n ≤ cfg7.N → sProp 𝕄
  | 0, _ => Pipeline.scopedRest (Ix := Ix) (Name := ℕ) (U := U) (Lvl := Lvl) (Val := Elt F) spec7 c
  | n + 1, hn => iprop(owns (c : Thread nD τ) (Memref.whole cc7_scratch0) fullShare (acc7 V c n hn)
      ∗ Pipeline.scopedRestBut (Ix := Ix) (Name := ℕ) (U := U) (Lvl := Lvl) (Val := Elt F) spec7 c [cc7_scratch0])

theorem Phi7_zero (V : Valuation τ sig (Elt F)) (c : Dev nD) (n : ℕ) (h : n ≤ cfg7.N) (hz : n = 0) :
    (Phi7 V c n h : sProp 𝕄) = Pipeline.scopedRest (Ix := Ix) (Name := ℕ) (U := U) (Lvl := Lvl) (Val := Elt F) spec7 c := by
  subst hz; rfl

theorem Phi7_succ (V : Valuation τ sig (Elt F)) (c : Dev nD) (n : ℕ) (hn : n < cfg7.N) :
    (Phi7 V c (n + 1) hn : sProp 𝕄) = iprop(owns (c : Thread nD τ) (Memref.whole cc7_scratch0) fullShare (acc7 V c n hn)
      ∗ Pipeline.scopedRestBut (Ix := Ix) (Name := ℕ) (U := U) (Lvl := Lvl) (Val := Elt F) spec7 c [cc7_scratch0]) := rfl

theorem Phi7_pos (V : Valuation τ sig (Elt F)) (c : Dev nD) (n : ℕ) (h : n ≤ cfg7.N) (hz : n ≠ 0) :
    (Phi7 V c n h : sProp 𝕄) = iprop(owns (c : Thread nD τ) (Memref.whole cc7_scratch0) fullShare (acc7 V c (n - 1) (by omega))
      ∗ Pipeline.scopedRestBut (Ix := Ix) (Name := ℕ) (U := U) (Lvl := Lvl) (Val := Elt F) spec7 c [cc7_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi7`; the
    threshold's array held whole, each of the two arrays that two input windows read held half and half; nothing owed. -/
noncomputable def dat7 (V : Valuation τ sig (Elt F)) (c : Dev nD) : Dat τ (Elt F) Ix ℕ U Lvl cfg7 c where
  A w := V (Proc.devRef .tc (Pipeline.arrRef spec7 w))
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => acc7 V c t.val t.isLt
  Φ t := Phi7 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq7 (V : Valuation τ sig (Elt F)) (c : Dev nD) (w : Fin cfg7.W) :
    (dat7 (Ix := Ix) (U := U) (Lvl := Lvl) V c).A w = V (Proc.devRef .tc (Pipeline.arrRef spec7 w)) := by
  dsimp only [dat7]

/-- What the body leaves, window by window. -/
theorem after7_0 (V : Valuation τ sig (Elt F)) (c : Dev nD) (t : Fin cfg7.N) :
    (dat7 (Ix := Ix) (U := U) (Lvl := Lvl) V c).after 0 t = iblk7 V c 0 t := by dsimp only [dat7]
theorem after7_1 (V : Valuation τ sig (Elt F)) (c : Dev nD) (t : Fin cfg7.N) :
    (dat7 (Ix := Ix) (U := U) (Lvl := Lvl) V c).after 1 t = iblk7 V c 1 t := by dsimp only [dat7]
theorem after7_2 (V : Valuation τ sig (Elt F)) (c : Dev nD) (t : Fin cfg7.N) :
    (dat7 (Ix := Ix) (U := U) (Lvl := Lvl) V c).after 2 t = iblk7 V c 2 t := by dsimp only [dat7]
theorem after7_3 (V : Valuation τ sig (Elt F)) (c : Dev nD) (t : Fin cfg7.N) :
    (dat7 (Ix := Ix) (U := U) (Lvl := Lvl) V c).after 3 t = iblk7 V c 3 t := by dsimp only [dat7]
theorem after7_4 (V : Valuation τ sig (Elt F)) (c : Dev nD) (t : Fin cfg7.N) :
    (dat7 (Ix := Ix) (U := U) (Lvl := Lvl) V c).after 4 t = iblk7 V c 4 t := by dsimp only [dat7]
theorem after7_5 (V : Valuation τ sig (Elt F)) (c : Dev nD) (t : Fin cfg7.N) :
    (dat7 (Ix := Ix) (U := U) (Lvl := Lvl) V c).after 5 t = acc7 V c t.val t.isLt := by dsimp only [dat7]

/-- The shares the input arrays are held at. -/
theorem q7_0 (V : Valuation τ sig (Elt F)) (c : Dev nD) : (dat7 (Ix := Ix) (U := U) (Lvl := Lvl) V c).q 0 = fullShare := by dsimp only [dat7]
theorem q7_1 (V : Valuation τ sig (Elt F)) (c : Dev nD) : (dat7 (Ix := Ix) (U := U) (Lvl := Lvl) V c).q 1 = fullShare.left := by dsimp only [dat7]
theorem q7_2 (V : Valuation τ sig (Elt F)) (c : Dev nD) : (dat7 (Ix := Ix) (U := U) (Lvl := Lvl) V c).q 2 = fullShare.right := by dsimp only [dat7]
theorem q7_3 (V : Valuation τ sig (Elt F)) (c : Dev nD) : (dat7 (Ix := Ix) (U := U) (Lvl := Lvl) V c).q 3 = fullShare.left := by dsimp only [dat7]
theorem q7_4 (V : Valuation τ sig (Elt F)) (c : Dev nD) : (dat7 (Ix := Ix) (U := U) (Lvl := Lvl) V c).q 4 = fullShare.right := by dsimp only [dat7]

/-- The invariant at a point's start, and at its end. -/
theorem Phi7_castSucc (V : Valuation τ sig (Elt F)) (c : Dev nD) (t : Fin cfg7.N) :
    (dat7 (Ix := Ix) (U := U) (Lvl := Lvl) V c).Φ t.castSucc = Phi7 V c t.val (Nat.le_of_lt t.isLt) := by
  dsimp only [dat7]; simp only [Fin.coe_castSucc]

theorem Phi7_at_succ (V : Valuation τ sig (Elt F)) (c : Dev nD) (t : Fin cfg7.N) :
    (dat7 (Ix := Ix) (U := U) (Lvl := Lvl) V c).Φ t.succ = Phi7 V c (t.val + 1) t.isLt := rfl

/-- Before the first point the invariant is the launch's scoped rest. -/
theorem Phi_first7 (V : Valuation τ sig (Elt F)) (c : Dev nD) :
    (dat7 (Ix := Ix) (U := U) (Lvl := Lvl) V c).Φ 0
      = Pipeline.scopedRest (Ix := Ix) (Name := ℕ) (U := U) (Lvl := Lvl) (Val := Elt F) spec7 c := rfl

/-- After the last point the invariant gives the scoped rest back: the accumulator's contents are forgotten. -/
theorem Phi_last7 (V : Valuation τ sig (Elt F)) (c : Dev nD) :
    (dat7 (Ix := Ix) (U := U) (Lvl := Lvl) V c).Φ (Fin.last cfg7.N)
      ⊢ Pipeline.scopedRest (Ix := Ix) (Name := ℕ) (U := U) (Lvl := Lvl) (Val := Elt F) spec7 c := by
  have hN : cfg7.N = 64 := N_7
  rw [show (dat7 (Ix := Ix) (U := U) (Lvl := Lvl) V c).Φ (Fin.last cfg7.N) = Phi7 V c (Fin.last cfg7.N).val (Nat.le_of_lt_succ (Fin.last cfg7.N).isLt) from rfl,
    Phi7_pos V c _ _ (by rw [Fin.val_last]; omega), scopedRest7_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 7) c := dat7 V c

end Cert.KernelIdeal.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k7_pay2 hI hJ mn xJ s` — `s` plus the 0/1 mask of (hI · hJᵀ > mn) times `xJ` — and the value
  the accumulator is reset to is `k7_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond7_0 (i : grid7.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond7_1 (i : grid7.Coords) : Prop := k7_cond2 i = 1#1

/-! ## The three runs -/

/-- At a point whose second coordinate is 0 (and not 7): the accumulator, at anything, is reset to `k7_pay1 xI` and
    stepped once; every window's buffer is handed back as found. -/
theorem run7_first (𝒱₀ : Variants) (c : Dev nD) (i : grid7.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond7_0 i) (hc1 : ¬cond7_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k7_pay2 hI hJ mn xJ (k7_pay1 xI))) -∗ K ⟨⟩))
      ⊢ wp frame (wpE (defs₀ (F := F)) 𝒱₀ c none) E (cc7__apply_kernel i arg2 harg2 arg3 harg3 arg4 harg4 arg5 harg5 arg6 harg6 arg7 harg7 arg8 harg8) K := by
  simp only [cc7__apply_kernel_eq_skeleton]; unfold cc7__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run7_mid (𝒱₀ : Variants) (c : Dev nD) (i : grid7.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond7_0 i) (hc1 : ¬cond7_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k7_pay2 hI hJ mn xJ s)) -∗ K ⟨⟩))
      ⊢ wp frame (wpE (defs₀ (F := F)) 𝒱₀ c none) E (cc7__apply_kernel i arg2 harg2 arg3 harg3 arg4 harg4 arg5 harg5 arg6 harg6 arg7 harg7 arg8 harg8) K := by
  simp only [cc7__apply_kernel_eq_skeleton]; unfold cc7__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run7_last (𝒱₀ : Variants) (c : Dev nD) (i : grid7.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond7_0 i) (hc1 : cond7_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k7_pay2 hI hJ mn xJ s)
        ∗ owns (c : Thread nD τ) arg8 fullShare (k7_pay2 hI hJ mn xJ s)) -∗ K ⟨⟩))
      ⊢ wp frame (wpE (defs₀ (F := F)) 𝒱₀ c none) E (cc7__apply_kernel i arg2 harg2 arg3 harg3 arg4 harg4 arg5 harg5 arg6 harg6 arg7 harg7 arg8 harg8) K := by
  simp only [cc7__apply_kernel_eq_skeleton]; unfold cc7__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.KernelIdeal.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc7`. The three control cases are
  decided over the grid by the point's residue mod 8, and in each the kernel's run (ApplyRun.lean) applies.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond7_0 : ∀ t : Fin cfg7.N, cond7_0 (grid7.coords t) ↔ t.val % 8 = 0 :=
  (by decide +kernel : ∀ t : Fin grid7.N, cond7_0 (grid7.coords t) ↔ t.val % 8 = 0)
/-- It is stored into the output block at the points ≡ 7 (mod 8). -/
theorem hcond7_1 : ∀ t : Fin cfg7.N, cond7_1 (grid7.coords t) ↔ t.val % 8 = 7 :=
  (by decide +kernel : ∀ t : Fin grid7.N, cond7_1 (grid7.coords t) ↔ t.val % 8 = 7)
/-- The output window is idle at every other point, -/
theorem idleAt7_5 : ∀ t : Fin cfg7.N, ¬t.val % 8 = 7 → cfg7.idle 5 (grid7.coords t) = true :=
  (by decide +kernel : ∀ t : Fin grid7.N, ¬t.val % 8 = 7 → cfg7.idle 5 (grid7.coords t) = true)
/-- live at those, -/
theorem liveAt7_5 : ∀ t : Fin cfg7.N, t.val % 8 = 7 → cfg7.idle 5 (grid7.coords t) = false :=
  (by decide +kernel : ∀ t : Fin grid7.N, t.val % 8 = 7 → cfg7.idle 5 (grid7.coords t) = false)
/-- and not written back where it is idle. -/
theorem noFlush7_5 (t : Fin cfg7.N) (h : ¬t.val % 8 = 7) : (cfg7.win 5).flush t = false := by
  cases hf : (cfg7.win 5).flush t with
  | false => rfl
  | true => exact absurd ((flush7_5 t).mp hf) h

/-! ## What the body finds in the inputs' buffers and leaves in every buffer -/

/-- Each input's current staging buffer holds its block at every point, fetched there or not. -/
theorem before7_0 (V : Valuation τ sig (Elt F)) (c : Dev nD) (t : Fin cfg7.N) (d) : (dat7 (Ix := Ix) (U := U) (Lvl := Lvl) V c).before 0 t d = iblk7 V c 0 t :=
  ((dat7 (Ix := Ix) (U := U) (Lvl := Lvl) V c).before_in_eq_fetched 0 rfl (fun _ => rfl) (fun _ _ _ => rfl)
      (fun t => by rw [after7_0]; unfold Dat.blockOf iblk7; rw [A_eq7]; try rfl) t d).trans
    (by unfold Dat.fetched Dat.blockOf iblk7; rw [A_eq7]; try rfl)
theorem before7_1 (V : Valuation τ sig (Elt F)) (c : Dev nD) (t : Fin cfg7.N) (d) : (dat7 (Ix := Ix) (U := U) (Lvl := Lvl) V c).before 1 t d = iblk7 V c 1 t :=
  ((dat7 (Ix := Ix) (U := U) (Lvl := Lvl) V c).before_in_eq_fetched 1 rfl (fun _ => rfl) (fun _ _ _ => rfl)
      (fun t => by rw [after7_1]; unfold Dat.blockOf iblk7; rw [A_eq7]; try rfl) t d).trans
    (by unfold Dat.fetched Dat.blockOf iblk7; rw [A_eq7]; try rfl)
theorem before7_2 (V : Valuation τ sig (Elt F)) (c : Dev nD) (t : Fin cfg7.N) (d) : (dat7 (Ix := Ix) (U := U) (Lvl := Lvl) V c).before 2 t d = iblk7 V c 2 t :=
  ((dat7 (Ix := Ix) (U := U) (Lvl := Lvl) V c).before_in_eq_fetched 2 rfl (fun _ => rfl) (fun _ _ _ => rfl)
      (fun t => by rw [after7_2]; unfold Dat.blockOf iblk7; rw [A_eq7]; try rfl) t d).trans
    (by unfold Dat.fetched Dat.blockOf iblk7; rw [A_eq7]; try rfl)
theorem before7_3 (V : Valuation τ sig (Elt F)) (c : Dev nD) (t : Fin cfg7.N) (d) : (dat7 (Ix := Ix) (U := U) (Lvl := Lvl) V c).before 3 t d = iblk7 V c 3 t :=
  ((dat7 (Ix := Ix) (U := U) (Lvl := Lvl) V c).before_in_eq_fetched 3 rfl (fun _ => rfl) (fun _ _ _ => rfl)
      (fun t => by rw [after7_3]; unfold Dat.blockOf iblk7; rw [A_eq7]; try rfl) t d).trans
    (by unfold Dat.fetched Dat.blockOf iblk7; rw [A_eq7]; try rfl)
theorem before7_4 (V : Valuation τ sig (Elt F)) (c : Dev nD) (t : Fin cfg7.N) (d) : (dat7 (Ix := Ix) (U := U) (Lvl := Lvl) V c).before 4 t d = iblk7 V c 4 t :=
  ((dat7 (Ix := Ix) (U := U) (Lvl := Lvl) V c).before_in_eq_fetched 4 rfl (fun _ => rfl) (fun _ _ _ => rfl)
      (fun t => by rw [after7_4]; unfold Dat.blockOf iblk7; rw [A_eq7]; try rfl) t d).trans
    (by unfold Dat.fetched Dat.blockOf iblk7; rw [A_eq7]; try rfl)

/-! ## The body obligation, at a generic point -/

/-- What the body is called with at point `t` (the obligation's precondition, the windows one by one), -/
noncomputable def bodyPre7 (V : Valuation τ sig (Elt F)) (c : Dev nD) (ι : Ix) (t : Fin cfg7.N) : sProp 𝕄 :=
  iprop((dat7 (Ix := Ix) (U := U) (Lvl := Lvl) V c).Φ t.castSucc ∗ (dat7 (Ix := Ix) (U := U) (Lvl := Lvl) V c).owesAt ι t.castSucc
    ∗ (∃ d, owns (c : Thread nD τ) (st7_0 t) fullShare ((dat7 (Ix := Ix) (U := U) (Lvl := Lvl) V c).before 0 t d))
    ∗ (∃ d, owns (c : Thread nD τ) (st7_1 t) fullShare ((dat7 (Ix := Ix) (U := U) (Lvl := Lvl) V c).before 1 t d))
    ∗ (∃ d, owns (c : Thread nD τ) (st7_2 t) fullShare ((dat7 (Ix := Ix) (U := U) (Lvl := Lvl) V c).before 2 t d))
    ∗ (∃ d, owns (c : Thread nD τ) (st7_3 t) fullShare ((dat7 (Ix := Ix) (U := U) (Lvl := Lvl) V c).before 3 t d))
    ∗ (∃ d, owns (c : Thread nD τ) (st7_4 t) fullShare ((dat7 (Ix := Ix) (U := U) (Lvl := Lvl) V c).before 4 t d))
    ∗ (∃ d, owns (c : Thread nD τ) (st7_5 t) fullShare ((dat7 (Ix := Ix) (U := U) (Lvl := Lvl) V c).before 5 t d)))

/-- and what it returns. -/
noncomputable def bodyPost7 (V : Valuation τ sig (Elt F)) (c : Dev nD) (ι : Ix) (t : Fin cfg7.N) : sProp 𝕄 :=
  iprop((dat7 (Ix := Ix) (U := U) (Lvl := Lvl) V c).Φ t.succ ∗ (dat7 (Ix := Ix) (U := U) (Lvl := Lvl) V c).owesAt ι t.succ
    ∗ (dat7 (Ix := Ix) (U := U) (Lvl := Lvl) V c).leaves 0 t ∗ (dat7 (Ix := Ix) (U := U) (Lvl := Lvl) V c).leaves 1 t ∗ (dat7 (Ix := Ix) (U := U) (Lvl := Lvl) V c).leaves 2 t
    ∗ (dat7 (Ix := Ix) (U := U) (Lvl := Lvl) V c).leaves 3 t ∗ (dat7 (Ix := Ix) (U := U) (Lvl := Lvl) V c).leaves 4 t ∗ (dat7 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body7 (𝒱₀ : Variants) (ι : Ix) (V : Valuation τ sig (Elt F)) (c : Dev nD) (t : Fin cfg7.N) :
    bodyPre7 (Ix := Ix) (U := U) (Lvl := Lvl) V c ι t ⊢ wp frame (wpE (defs₀ (F := F)) 𝒱₀ c none) Set.univ (bodyAt7 t) (fun _ => bodyPost7 (Ix := Ix) (U := U) (Lvl := Lvl) V c ι t) := by
  unfold bodyPre7 bodyPost7 bodyAt7
  simp only [before7_0, before7_1, before7_2, before7_3, before7_4]
  rw [show (dat7 (Ix := Ix) (U := U) (Lvl := Lvl) V c).owesAt ι t.succ = (dat7 (Ix := Ix) (U := U) (Lvl := Lvl) V c).owesAt ι t.castSucc from rfl]
  rw [Phi7_at_succ, Phi7_succ, Phi7_castSucc]
  rw [leaves_live (dat7 (Ix := Ix) (U := U) (Lvl := Lvl) V c) 0 t rfl rfl, leaves_live (dat7 (Ix := Ix) (U := U) (Lvl := Lvl) V c) 1 t rfl rfl, leaves_live (dat7 (Ix := Ix) (U := U) (Lvl := Lvl) V c) 2 t rfl rfl,
    leaves_live (dat7 (Ix := Ix) (U := U) (Lvl := Lvl) V c) 3 t rfl rfl, leaves_live (dat7 (Ix := Ix) (U := U) (Lvl := Lvl) V c) 4 t rfl rfl, after7_0, after7_1, after7_2, after7_3, after7_4]
  have hN : t.val < 64 := lt_of_lt_of_eq t.isLt (show cfg7.N = 64 from N_7)
  by_cases h0 : t.val % 8 = 0
  · have h7 : ¬t.val % 8 = 7 := by omega
    rw [Dat.leaves_idle (dat7 (Ix := Ix) (U := U) (Lvl := Lvl) V c) 5 t (idleAt7_5 t h7) (noFlush7_5 t h7)]
    rw [acc7_reset V c t.val t.isLt h0]
    unfold step7 init7
    by_cases hz : t.val = 0
    · rw [Phi7_zero V c _ _ hz, scopedRest7_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run7_first 𝒱₀ c (grid7.coords t) _ _ _ _ _ _ _ _ _ _ _ _ _ _ ((hcond7_0 t).mpr h0) (fun h => h7 ((hcond7_1 t).mp h)) (iblk7 V c 0 t) (iblk7 V c 1 t) (iblk7 V c 2 t) (iblk7 V c 3 t) (iblk7 V c 4 t) ((dat7 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi7_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run7_first 𝒱₀ c (grid7.coords t) _ _ _ _ _ _ _ _ _ _ _ _ _ _ ((hcond7_0 t).mpr h0) (fun h => h7 ((hcond7_1 t).mp h)) (iblk7 V c 0 t) (iblk7 V c 1 t) (iblk7 V c 2 t) (iblk7 V c 3 t) (iblk7 V c 4 t) ((dat7 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc7_step V c t.val t.isLt h0, Phi7_pos V c _ _ hz]
    unfold step7
    by_cases h7 : t.val % 8 = 7
    · rw [leaves_live (dat7 (Ix := Ix) (U := U) (Lvl := Lvl) V c) 5 t (liveAt7_5 t h7) rfl, after7_5, acc7_step V c t.val t.isLt h0]
      unfold step7
      iintro ⟨⟨HS, Hr⟩, Ho, ⟨%d0, H0⟩, ⟨%d1, H1⟩, ⟨%d2, H2⟩, ⟨%d3, H3⟩, ⟨%d4, H4⟩, ⟨%d5, H5⟩⟩
      iapply (run7_last 𝒱₀ c (grid7.coords t) _ _ _ _ _ _ _ _ _ _ _ _ _ _ (fun h => h0 ((hcond7_0 t).mp h)) ((hcond7_1 t).mpr h7) (iblk7 V c 0 t) (iblk7 V c 1 t) (iblk7 V c 2 t) (iblk7 V c 3 t) (iblk7 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat7 (Ix := Ix) (U := U) (Lvl := Lvl) V c) 5 t (idleAt7_5 t h7) (noFlush7_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run7_mid 𝒱₀ c (grid7.coords t) _ _ _ _ _ _ _ _ _ _ _ _ _ _ (fun h => h0 ((hcond7_0 t).mp h)) (fun h => h7 ((hcond7_1 t).mp h)) (iblk7 V c 0 t) (iblk7 V c 1 t) (iblk7 V c 2 t) (iblk7 V c 3 t) (iblk7 V c 4 t) ((dat7 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation7 (𝒱₀ : Variants) (ι : Ix) (V : Valuation τ sig (Elt F)) (c : Dev nD) :
    BodyObligationLoose (dat7 (Ix := Ix) (U := U) (Lvl := Lvl) V c) (defs₀ (F := F)) 𝒱₀ ι Set.univ := fun t => by
  rw [bigSep_W7, bigSep_W7]
  exact sound_body7 𝒱₀ ι V c t

/-- The same at the type the program's family of configurations gives pipeline 1, on every core. -/
theorem body7 (𝒱₀ : Variants) (ι : Ix) (V : Valuation τ sig (Elt F)) :
    ∀ c : Dev nD, BodyObligationLoose (cfg := cfgs 7) (dat7 (Ix := Ix) (U := U) (Lvl := Lvl) V c) (defs₀ (F := F)) 𝒱₀ ι Set.univ :=
  fun c => body_obligation7 𝒱₀ ι V c

end Cert.KernelIdeal.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg7

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (7 : Fin 24)
/-- Its configuration, its windows but for their index maps, the number of its windows. -/
abbrev cfgK : Pipeline.Cfg sig Λ₀ := cfg7
abbrev specK : Fin 6 → Pipeline.WinSpec sig cfgK.grid.rank := spec7
abbrev nW : Nat := 6
/-- Its output window and the buffer behind it. -/
abbrev oK : Fin nW := 5
abbrev outK : Ref sig .tc := main_v232
theorem winK : Pipeline.WinFacts₀ specK := winFacts₀7
theorem block_posK : ∀ w : Fin nW, 0 < (specK w).block.numel := block_pos7
theorem arr_wholeK : ∀ w : Fin nW, (specK w).arr.IsWhole := arr_whole7
theorem stage_wholeK : ∀ (w : Fin nW) (s : Fin (specK w).nbuf), ((specK w).stage s).IsWhole := stage_whole7

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.KernelIdeal.Hand.Reg7

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R7' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (7 : Fin 24) c = dat7 (V39 m outs c) c)
    (hbody : ∀ c : Dev nD, Pipeline.BodyObligationLoose (dat7 (Ix := Ix) (U := U) (Lvl := Lvl) (V39 m outs c) c) (defs₀ (F := F)) 𝒱₀ ι Set.univ) :
    RegionSeg (pcfgs (F := F)) GenP.adm pdats ι defs₀ 𝒱₀ L lv (7 : Fin 24) :=
  Reg7.RK 𝒱₀ L lv ι pdats (fun c => V39 m outs c)
    (fun c => by rw [hp c]; exact hbody c)
    (fun c w => by rw [hp c]; exact A_eq7 (V39 m outs c) c w)
    (fun c => by rw [hp c]; rw [q7_1, q7_2]; exact PosShare.mem_left_op_right fullShare)
    (fun c => by rw [hp c]; rw [q7_3, q7_4]; exact PosShare.mem_left_op_right fullShare)
    (fun c => by rw [hp c]; exact q7_0 (V39 m outs c) c)
    (fun c t => by rw [hp c]; rfl)
    (fun c => by rw [hp c]; rfl)
    (fun c => by rw [hp c, Phi_first7])
    (fun c => by rw [hp c]; exact Phi_last7 (V39 m outs c) c)

/-- It is entered from the thread state before the region's item, -/
theorem hpre7' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (7 : Fin 24) c = dat7 (V39 m outs c) c)
    (hbody : ∀ c : Dev nD, Pipeline.BodyObligationLoose (dat7 (Ix := Ix) (U := U) (Lvl := Lvl) (V39 m outs c) c) (defs₀ (F := F)) 𝒱₀ ι Set.univ)
    (c : Dev nD) :
    iprop(StableHlo.held (c : Thread nD τ) (Pipeline.ucRefs τ sig) (V39 m outs c) ∗ (R c : sProp 𝕄))
      ⊢ (R7' m outs 𝒱₀ L lv ι pdats hp hbody).pre c := .rfl

/-- and left at the thread state after it. -/
theorem hpost7' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (7 : Fin 24) c = dat7 (V39 m outs c) c)
    (hbody : ∀ c : Dev nD, Pipeline.BodyObligationLoose (dat7 (Ix := Ix) (U := U) (Lvl := Lvl) (V39 m outs c) c) (defs₀ (F := F)) 𝒱₀ ι Set.univ)
    (houts : ∀ c : Dev nD, outs 40 main_v232 c = (dat7 (Ix := Ix) (U := U) (Lvl := Lvl) (V39 m outs c) c).arrAt 5 64)
    (c : Dev nD) :
    (R7' m outs 𝒱₀ L lv ι pdats hp hbody).post c
      ⊢ iprop(StableHlo.held (c : Thread nD τ) (Pipeline.ucRefs τ sig) (V40 m outs c) ∗ (R c : sProp 𝕄)) := by
  have h : (pdats (7 : Fin 24) c).arrAt Reg7.oK Reg7.cfgK.N = outs 40 main_v232 c := by
    rw [hp c]; exact (houts c).symm
  show iprop(StableHlo.held (c : Thread nD τ) (Pipeline.ucRefs τ sig)
      (Function.update (V39 m outs c) (Proc.devRef .tc main_v232) ((pdats (7 : Fin 24) c).arrAt Reg7.oK Reg7.cfgK.N))
        ∗ (R c : sProp 𝕄)) ⊢ _
  rw [h]

end Cert.KernelIdeal.Hand
-- ==== Proof.Rg8.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.SumLib
import Idealize.ShloMosaic.Lib.Tactic
import proofs.«169706_j68856915690108_1_alg».proof.Proof.Shared
import proofs.«169706_j68856915690108_1_alg».proof.Proof.RegionsKI

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k8_pay2)

  and only at the last point, 63, is that cell copied into the 1 × 1 output block, which the pipeline then writes back.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk8 (V : Valuation τ sig (Elt F)) (c : Dev nD) (w : Fin cfg8.W) (t : Fin cfg8.N) :
    ((cfg8.win w).xblock (cfg8.grid.coords t)).Idx → Elt F (cfg8.win w).elt :=
  ((cfg8.win w).blk t).view.read (Elt F)
    (V (Proc.devRef .tc (Pipeline.arrRef spec8 w)) : Buf (Elt F) ((cfg8.win w).arr.view.loc (c.tc : Thread nD τ)))

/-- One point's step on the scratch cell: the cell's contents `a` plus the sum of the tile made of the two blocks
    the point stages (the printed payload of the store into the scratch cell). -/
noncomputable def step8 (V : Valuation τ sig (Elt F)) (c : Dev nD) (n : ℕ) (hn : n < cfg8.N) (a : Vec F S1x1 .f32) : Vec F S1x1 .f32 :=
  k8_pay2 (iblk8 V c 0 ⟨n, hn⟩) (iblk8 V c 1 ⟨n, hn⟩) a

/-- What the scratch cell holds after point `n`: the steps of the points `0 … n` applied, first to last, to the
    zero the body stores at point 0. -/
noncomputable def acc8 (V : Valuation τ sig (Elt F)) (c : Dev nD) : (n : ℕ) → n < cfg8.N → Vec F S1x1 .f32
  | 0, hn => step8 V c 0 hn (k8_pay1 (F := F))
  | n + 1, hn => step8 V c (n + 1) hn (acc8 V c n (Nat.lt_of_succ_lt hn))

theorem acc8_zero (V : Valuation τ sig (Elt F)) (c : Dev nD) (hn : 0 < cfg8.N) :
    acc8 V c 0 hn = step8 V c 0 hn (k8_pay1 (F := F)) := rfl

theorem acc8_succ (V : Valuation τ sig (Elt F)) (c : Dev nD) (n : ℕ) (hn : n + 1 < cfg8.N) :
    acc8 V c (n + 1) hn = step8 V c (n + 1) hn (acc8 V c n (Nat.lt_of_succ_lt hn)) := rfl

/-- After a point that is not the first: the step of that point on what the point before left. -/
theorem acc8_pos (V : Valuation τ sig (Elt F)) (c : Dev nD) (n : ℕ) (hn : n < cfg8.N) (hz : n ≠ 0) :
    acc8 V c n hn = step8 V c n hn (acc8 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi8 (V : Valuation τ sig (Elt F)) (c : Dev nD) : (n : ℕ) → n ≤ cfg8.N → sProp 𝕄
  | 0, _ => Pipeline.scopedRest (Ix := Ix) (Name := ℕ) (U := U) (Lvl := Lvl) (Val := Elt F) spec8 c
  | n + 1, hn => iprop(owns (c : Thread nD τ) (Memref.whole cc8_scratch0) fullShare (acc8 V c n hn)
      ∗ Pipeline.scopedRestBut (Ix := Ix) (Name := ℕ) (U := U) (Lvl := Lvl) (Val := Elt F) spec8 c [cc8_scratch0])

theorem Phi8_zero (V : Valuation τ sig (Elt F)) (c : Dev nD) (n : ℕ) (h : n ≤ cfg8.N) (hz : n = 0) :
    (Phi8 V c n h : sProp 𝕄) = Pipeline.scopedRest (Ix := Ix) (Name := ℕ) (U := U) (Lvl := Lvl) (Val := Elt F) spec8 c := by
  subst hz; rfl

theorem Phi8_succ (V : Valuation τ sig (Elt F)) (c : Dev nD) (n : ℕ) (hn : n < cfg8.N) :
    (Phi8 V c (n + 1) hn : sProp 𝕄) = iprop(owns (c : Thread nD τ) (Memref.whole cc8_scratch0) fullShare (acc8 V c n hn)
      ∗ Pipeline.scopedRestBut (Ix := Ix) (Name := ℕ) (U := U) (Lvl := Lvl) (Val := Elt F) spec8 c [cc8_scratch0]) := rfl

theorem Phi8_pos (V : Valuation τ sig (Elt F)) (c : Dev nD) (n : ℕ) (h : n ≤ cfg8.N) (hz : n ≠ 0) :
    (Phi8 V c n h : sProp 𝕄) = iprop(owns (c : Thread nD τ) (Memref.whole cc8_scratch0) fullShare (acc8 V c (n - 1) (by omega))
      ∗ Pipeline.scopedRestBut (Ix := Ix) (Name := ℕ) (U := U) (Lvl := Lvl) (Val := Elt F) spec8 c [cc8_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi8`; the one
    array the two inputs read held half and half; nothing owed. -/
noncomputable def dat8 (V : Valuation τ sig (Elt F)) (c : Dev nD) : Dat τ (Elt F) Ix ℕ U Lvl cfg8 c where
  A w := V (Proc.devRef .tc (Pipeline.arrRef spec8 w))
  after w t := match w with
    | ⟨0, _⟩ => iblk8 V c 0 t
    | ⟨1, _⟩ => iblk8 V c 1 t
    | ⟨2, _⟩ => acc8 V c t.val t.isLt
  Φ t := Phi8 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq8 (V : Valuation τ sig (Elt F)) (c : Dev nD) (w : Fin cfg8.W) :
    (dat8 (Ix := Ix) (U := U) (Lvl := Lvl) V c).A w = V (Proc.devRef .tc (Pipeline.arrRef spec8 w)) := by
  dsimp only [dat8]

/-- What the body leaves, window by window. -/
theorem after8_0 (V : Valuation τ sig (Elt F)) (c : Dev nD) (t : Fin cfg8.N) :
    (dat8 (Ix := Ix) (U := U) (Lvl := Lvl) V c).after 0 t = iblk8 V c 0 t := by dsimp only [dat8]
theorem after8_1 (V : Valuation τ sig (Elt F)) (c : Dev nD) (t : Fin cfg8.N) :
    (dat8 (Ix := Ix) (U := U) (Lvl := Lvl) V c).after 1 t = iblk8 V c 1 t := by dsimp only [dat8]
theorem after8_2 (V : Valuation τ sig (Elt F)) (c : Dev nD) (t : Fin cfg8.N) :
    (dat8 (Ix := Ix) (U := U) (Lvl := Lvl) V c).after 2 t = acc8 V c t.val t.isLt := by dsimp only [dat8]

/-- The invariant at a point's start, and at its end. -/
theorem Phi8_castSucc (V : Valuation τ sig (Elt F)) (c : Dev nD) (t : Fin cfg8.N) :
    (dat8 (Ix := Ix) (U := U) (Lvl := Lvl) V c).Φ t.castSucc = Phi8 V c t.val (Nat.le_of_lt t.isLt) := by
  dsimp only [dat8]; simp only [Fin.coe_castSucc]

theorem Phi8_at_succ (V : Valuation τ sig (Elt F)) (c : Dev nD) (t : Fin cfg8.N) :
    (dat8 (Ix := Ix) (U := U) (Lvl := Lvl) V c).Φ t.succ = Phi8 V c (t.val + 1) t.isLt := rfl

/-- Before the first point the invariant is the launch's scoped rest. -/
theorem Phi_first8 (V : Valuation τ sig (Elt F)) (c : Dev nD) :
    (dat8 (Ix := Ix) (U := U) (Lvl := Lvl) V c).Φ 0
      = Pipeline.scopedRest (Ix := Ix) (Name := ℕ) (U := U) (Lvl := Lvl) (Val := Elt F) spec8 c := rfl

/-- After the last point the invariant gives the scoped rest back: the scratch cell's contents are forgotten. -/
theorem Phi_last8 (V : Valuation τ sig (Elt F)) (c : Dev nD) :
    (dat8 (Ix := Ix) (U := U) (Lvl := Lvl) V c).Φ (Fin.last cfg8.N)
      ⊢ Pipeline.scopedRest (Ix := Ix) (Name := ℕ) (U := U) (Lvl := Lvl) (Val := Elt F) spec8 c := by
  have hN : cfg8.N = 64 := N_8
  rw [show (dat8 (Ix := Ix) (U := U) (Lvl := Lvl) V c).Φ (Fin.last cfg8.N) = Phi8 V c (Fin.last cfg8.N).val (Nat.le_of_lt_succ (Fin.last cfg8.N).isLt) from rfl,
    Phi8_pos V c _ _ (by rw [Fin.val_last]; omega), scopedRest8_split, owns_whole]
  iintro ⟨Hs, Hr⟩
  isplitl [Hs]
  · iexists _; iexact Hs
  iexact Hr

example (V : Valuation τ sig (Elt F)) (c : Dev nD) : Dat τ (Elt F) Ix ℕ U Lvl (cfgs 8) c := dat8 V c

end Cert.KernelIdeal.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k8_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond8_1 (i : grid8.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond8_2 (i : grid8.Coords) : Prop := k8_cond2 i = 1#1

/-- The reset runs at the first point only, -/
theorem hcond8_1 : ∀ t : Fin cfg8.N, cond8_1 (grid8.coords t) ↔ t.val = 0 :=
  (by decide +kernel : ∀ t : Fin grid8.N, cond8_1 (grid8.coords t) ↔ t.val = 0)
/-- the copy at the last point only. -/
theorem hcond8_2 : ∀ t : Fin cfg8.N, cond8_2 (grid8.coords t) ↔ t.val = 63 :=
  (by decide +kernel : ∀ t : Fin grid8.N, cond8_2 (grid8.coords t) ↔ t.val = 63)

/-! ## The body, case by case, on any whole memrefs -/

/-- The first point: the scratch cell, at anything, is reset and then holds the first step on zero. -/
theorem run8_A (𝒱₀ : Variants) (c : Dev nD) (i : grid8.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond8_1 i) (hc2 : ¬cond8_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k8_pay2 x2 x3 (k8_pay1 (F := F)))) -∗ K ⟨⟩))
      ⊢ wp frame (wpE (defs₀ (F := F)) 𝒱₀ c none) E (cc8__sum_kernel i arg2 harg2 arg3 harg3 arg4 harg4 arg5 harg5) K := by
  simp only [cc8__sum_kernel_eq_skeleton]; unfold cc8__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run8_A.sl.v15 run8_A.sl.H5_1
  rw [readCov_whole _ zeros2, readAt_whole _ _ zeros2, readAt_whole _ _ zeros2]

/-- A point strictly between the first and the last: the scratch cell at `a` takes the point's step. -/
theorem run8_B (𝒱₀ : Variants) (c : Dev nD) (i : grid8.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond8_1 i) (hc2 : ¬cond8_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k8_pay2 x2 x3 a)) -∗ K ⟨⟩))
      ⊢ wp frame (wpE (defs₀ (F := F)) 𝒱₀ c none) E (cc8__sum_kernel i arg2 harg2 arg3 harg3 arg4 harg4 arg5 harg5) K := by
  simp only [cc8__sum_kernel_eq_skeleton]; unfold cc8__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run8_C (𝒱₀ : Variants) (c : Dev nD) (i : grid8.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond8_1 i) (hc2 : cond8_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k8_pay2 x2 x3 a) ∗ owns (c : Thread nD τ) arg5 fullShare (k8_pay2 x2 x3 a)) -∗ K ⟨⟩))
      ⊢ wp frame (wpE (defs₀ (F := F)) 𝒱₀ c none) E (cc8__sum_kernel i arg2 harg2 arg3 harg3 arg4 harg4 arg5 harg5) K := by
  simp only [cc8__sum_kernel_eq_skeleton]; unfold cc8__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run8_C.sl.v25 run8_C.sl.H5_1
    rw [readCov_whole _ zeros2, readAt_whole _ _ zeros2, readAt_whole _ _ zeros2, readAt_whole _ _ zeros2]
  iexists _; isplitr
  swap; · iexact H5
  ipureintro
  unfold run8_C.sl.H5_1
  rw [read_writes_whole _ _ zeros2, readAt_whole _ _ zeros2, readAt_whole _ _ zeros2, readAt_whole _ _ zeros2]

end Cert.KernelIdeal.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle8_2 : ∀ t : Fin cfg8.N, cfg8.idle 2 (grid8.coords t) = true ↔ t.val ≠ 63 :=
  (by decide +kernel : ∀ t : Fin grid8.N, idle8 2 (grid8.coords t) = true ↔ t.val ≠ 63)
/-- and written back at the last point only. -/
theorem flush8_2' : ∀ t : Fin cfg8.N, (cfg8.win 2).flush t = true ↔ t.val = 63 :=
  (by decide +kernel : ∀ t : Fin grid8.N, win8_2.flush t = true ↔ t.val = 63)

/-! ## What the body finds in the inputs' buffers -/

/-- Each input's current staging buffer holds its block at every point, fetched there or not: unfetched, the block
    index has not moved and the body left the block in place. -/
theorem before8_0 (V : Valuation τ sig (Elt F)) (c : Dev nD) (t : Fin cfg8.N) (d) :
    (dat8 (Ix := Ix) (U := U) (Lvl := Lvl) V c).before 0 t d = iblk8 V c 0 t :=
  ((dat8 (Ix := Ix) (U := U) (Lvl := Lvl) V c).before_in_eq_fetched 0 rfl (fun _ => rfl) (fun _ _ _ => rfl)
      (fun t => by rw [after8_0]; unfold Dat.blockOf iblk8; rw [A_eq8]; try rfl) t d).trans
    (by unfold Dat.fetched Dat.blockOf iblk8; rw [A_eq8]; try rfl)

theorem before8_1 (V : Valuation τ sig (Elt F)) (c : Dev nD) (t : Fin cfg8.N) (d) :
    (dat8 (Ix := Ix) (U := U) (Lvl := Lvl) V c).before 1 t d = iblk8 V c 1 t :=
  ((dat8 (Ix := Ix) (U := U) (Lvl := Lvl) V c).before_in_eq_fetched 1 rfl (fun _ => rfl) (fun _ _ _ => rfl)
      (fun t => by rw [after8_1]; unfold Dat.blockOf iblk8; rw [A_eq8]; try rfl) t d).trans
    (by unfold Dat.fetched Dat.blockOf iblk8; rw [A_eq8]; try rfl)

/-! ## What the obligation asks of each window's buffer after the body -/

/-- The inputs are never idle: their buffers are handed back at their blocks. -/
theorem leaves8_0 (V : Valuation τ sig (Elt F)) (c : Dev nD) (t : Fin cfg8.N) :
    (dat8 (Ix := Ix) (U := U) (Lvl := Lvl) V c).leaves 0 t = owns (c : Thread nD τ) (st8_0 t) fullShare (iblk8 V c 0 t) := by
  rw [← after8_0 (Ix := Ix) (U := U) (Lvl := Lvl) V c t]

theorem leaves8_1 (V : Valuation τ sig (Elt F)) (c : Dev nD) (t : Fin cfg8.N) :
    (dat8 (Ix := Ix) (U := U) (Lvl := Lvl) V c).leaves 1 t = owns (c : Thread nD τ) (st8_1 t) fullShare (iblk8 V c 1 t) := by
  rw [← after8_1 (Ix := Ix) (U := U) (Lvl := Lvl) V c t]

/-- The output is idle, and not written back, at every point but the last: its buffer is handed back as found; -/
theorem leaves8_2_idle (V : Valuation τ sig (Elt F)) (c : Dev nD) (t : Fin cfg8.N) (h : t.val ≠ 63) :
    (dat8 (Ix := Ix) (U := U) (Lvl := Lvl) V c).leaves 2 t
      = iprop(∃ d, owns (c : Thread nD τ) (st8_2 t) fullShare ((dat8 (Ix := Ix) (U := U) (Lvl := Lvl) V c).before 2 t d)) :=
  (dat8 (Ix := Ix) (U := U) (Lvl := Lvl) V c).leaves_idle 2 t ((idle8_2 t).mpr h)
    (Bool.eq_false_iff.mpr fun hf => h ((flush8_2' t).mp hf))

/-- at the last point it is handed back at the accumulated sum. -/
theorem leaves8_2_last (V : Valuation τ sig (Elt F)) (c : Dev nD) (t : Fin cfg8.N) (h : t.val = 63) :
    (dat8 (Ix := Ix) (U := U) (Lvl := Lvl) V c).leaves 2 t = owns (c : Thread nD τ) (st8_2 t) fullShare (acc8 V c t.val t.isLt) := by
  have hl : cfg8.idle 2 (grid8.coords t) = false := by
    cases hi : cfg8.idle 2 (grid8.coords t) with
    | false => rfl
    | true => exact absurd h ((idle8_2 t).mp hi)
  rw [← after8_2 (Ix := Ix) (U := U) (Lvl := Lvl) V c t]
  unfold Dat.leaves; rw [hl]

/-- One step at a point, through the point itself. -/
theorem step8_at (V : Valuation τ sig (Elt F)) (c : Dev nD) (t : Fin cfg8.N) (a : Vec F S1x1 .f32) :
    step8 V c t.val t.isLt a = k8_pay2 (iblk8 V c 0 t) (iblk8 V c 1 t) a := rfl

theorem acc8_first (V : Valuation τ sig (Elt F)) (c : Dev nD) (n : ℕ) (hn : n < cfg8.N) (hz : n = 0) :
    acc8 V c n hn = step8 V c n hn (k8_pay1 (F := F)) := by
  subst hz; rfl

/-! ## The body obligation -/

/-- What the body is called with at point `t` (the obligation's precondition, the windows one by one), -/
noncomputable def bodyPre8 (V : Valuation τ sig (Elt F)) (ι : Ix) (c : Dev nD) (t : Fin cfg8.N) : sProp 𝕄 :=
  iprop((dat8 (Ix := Ix) (U := U) (Lvl := Lvl) V c).Φ t.castSucc ∗ (dat8 (Ix := Ix) (U := U) (Lvl := Lvl) V c).owesAt ι t.castSucc
    ∗ (∃ d, owns (c : Thread nD τ) (st8_0 t) fullShare ((dat8 (Ix := Ix) (U := U) (Lvl := Lvl) V c).before 0 t d))
    ∗ (∃ d, owns (c : Thread nD τ) (st8_1 t) fullShare ((dat8 (Ix := Ix) (U := U) (Lvl := Lvl) V c).before 1 t d))
    ∗ (∃ d, owns (c : Thread nD τ) (st8_2 t) fullShare ((dat8 (Ix := Ix) (U := U) (Lvl := Lvl) V c).before 2 t d)))

/-- and what it returns. -/
noncomputable def bodyPost8 (V : Valuation τ sig (Elt F)) (ι : Ix) (c : Dev nD) (t : Fin cfg8.N) : sProp 𝕄 :=
  iprop((dat8 (Ix := Ix) (U := U) (Lvl := Lvl) V c).Φ t.succ ∗ (dat8 (Ix := Ix) (U := U) (Lvl := Lvl) V c).owesAt ι t.succ
    ∗ (dat8 (Ix := Ix) (U := U) (Lvl := Lvl) V c).leaves 0 t ∗ (dat8 (Ix := Ix) (U := U) (Lvl := Lvl) V c).leaves 1 t ∗ (dat8 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body8 (V : Valuation τ sig (Elt F)) (𝒱₀ : Variants) (ι : Ix) (c : Dev nD) (t : Fin cfg8.N) :
    bodyPre8 (U := U) (Lvl := Lvl) V ι c t
      ⊢ wp frame (wpE (defs₀ (F := F)) 𝒱₀ c none) Set.univ (bodyAt8 t) (fun _ => bodyPost8 (U := U) (Lvl := Lvl) V ι c t) := by
  unfold bodyPre8 bodyPost8 bodyAt8
  simp only [before8_0, before8_1]
  rw [show (dat8 (Ix := Ix) (U := U) (Lvl := Lvl) V c).owesAt ι t.succ = (dat8 (Ix := Ix) (U := U) (Lvl := Lvl) V c).owesAt ι t.castSucc from rfl]
  rw [Phi8_at_succ, Phi8_succ, Phi8_castSucc, leaves8_0, leaves8_1]
  have hN : t.val < 64 := lt_of_lt_of_eq t.isLt N_8
  by_cases hz : t.val = 0
  · have hc1 : cond8_1 (grid8.coords t) := (hcond8_1 t).mpr hz
    have hc2 : ¬cond8_2 (grid8.coords t) := fun h => by have := (hcond8_2 t).mp h; omega
    rw [leaves8_2_idle V c t (by omega), Phi8_zero V c _ _ hz, scopedRest8_split, acc8_first V c _ _ hz, step8_at]
    iintro ⟨⟨⟨%f, Hs⟩, Hr⟩, Ho, ⟨%d0, H0⟩, ⟨%d1, H1⟩, H2⟩
    iapply (run8_A 𝒱₀ c (grid8.coords t) _ _ _ _ _ _ _ _ hc1 hc2 (iblk8 V c 0 t) (iblk8 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond8_1 (grid8.coords t) := fun h => hz ((hcond8_1 t).mp h)
    rw [Phi8_pos V c _ _ hz, acc8_pos V c _ _ hz, step8_at]
    by_cases hl : t.val = 63
    · have hc2 : cond8_2 (grid8.coords t) := (hcond8_2 t).mpr hl
      rw [leaves8_2_last V c t hl, acc8_pos V c _ _ hz, step8_at]
      iintro ⟨⟨Hs, Hr⟩, Ho, ⟨%d0, H0⟩, ⟨%d1, H1⟩, ⟨%d2, H2⟩⟩
      iapply (run8_C 𝒱₀ c (grid8.coords t) _ _ _ _ _ _ _ _ hc1 hc2 (iblk8 V c 0 t) (iblk8 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond8_2 (grid8.coords t) := fun h => hl ((hcond8_2 t).mp h)
      rw [leaves8_2_idle V c t hl]
      iintro ⟨⟨Hs, Hr⟩, Ho, ⟨%d0, H0⟩, ⟨%d1, H1⟩, H2⟩
      iapply (run8_B 𝒱₀ c (grid8.coords t) _ _ _ _ _ _ _ _ hc1 hc2 (iblk8 V c 0 t) (iblk8 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body8 (V : Valuation τ sig (Elt F)) (𝒱₀ : Variants) (ι : Ix) :
    ∀ c : Dev nD, BodyObligationLoose (dat8 (Ix := Ix) (U := U) (Lvl := Lvl) V c) (defs₀ (F := F)) 𝒱₀ ι Set.univ := fun c t => by
  rw [bigSep_W8, bigSep_W8]
  exact sound_body8 (U := U) (Lvl := Lvl) V 𝒱₀ ι c t

end Cert.KernelIdeal.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg8

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (8 : Fin 24)
/-- Its configuration, its windows but for their index maps, the number of its windows. -/
abbrev cfgK : Pipeline.Cfg sig Λ₀ := cfg8
abbrev specK : Fin 3 → Pipeline.WinSpec sig cfgK.grid.rank := spec8
abbrev nW : Nat := 3
/-- Its output window and the buffer behind it. -/
abbrev oK : Fin nW := 2
abbrev outK : Ref sig .tc := main_v298
theorem winK : Pipeline.WinFacts₀ specK := winFacts₀8
theorem block_posK : ∀ w : Fin nW, 0 < (specK w).block.numel := block_pos8
theorem arr_wholeK : ∀ w : Fin nW, (specK w).arr.IsWhole := arr_whole8
theorem stage_wholeK : ∀ (w : Fin nW) (s : Fin (specK w).nbuf), ((specK w).stage s).IsWhole := stage_whole8

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.KernelIdeal.Hand.Reg8

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R8' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (8 : Fin 24) c = dat8 (V48 m outs c) c)
    (hbody : ∀ c : Dev nD, Pipeline.BodyObligationLoose (dat8 (Ix := Ix) (U := U) (Lvl := Lvl) (V48 m outs c) c) (defs₀ (F := F)) 𝒱₀ ι Set.univ) :
    RegionSeg (pcfgs (F := F)) GenP.adm pdats ι defs₀ 𝒱₀ L lv (8 : Fin 24) :=
  Reg8.RK 𝒱₀ L lv ι pdats (fun c => V48 m outs c)
    (fun c => by rw [hp c]; exact hbody c)
    (fun c w => by rw [hp c]; exact A_eq8 (V48 m outs c) c w)
    (fun c => by rw [hp c]; exact PosShare.mem_left_op_right fullShare)
    (fun c t => by rw [hp c]; rfl)
    (fun c => by rw [hp c]; rfl)
    (fun c => by rw [hp c, Phi_first8])
    (fun c => by rw [hp c]; exact Phi_last8 (V48 m outs c) c)

/-- It is entered from the thread state before the region's item, -/
theorem hpre8' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (8 : Fin 24) c = dat8 (V48 m outs c) c)
    (hbody : ∀ c : Dev nD, Pipeline.BodyObligationLoose (dat8 (Ix := Ix) (U := U) (Lvl := Lvl) (V48 m outs c) c) (defs₀ (F := F)) 𝒱₀ ι Set.univ)
    (c : Dev nD) :
    iprop(StableHlo.held (c : Thread nD τ) (Pipeline.ucRefs τ sig) (V48 m outs c) ∗ (R c : sProp 𝕄))
      ⊢ (R8' m outs 𝒱₀ L lv ι pdats hp hbody).pre c := .rfl

/-- and left at the thread state after it. -/
theorem hpost8' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (8 : Fin 24) c = dat8 (V48 m outs c) c)
    (hbody : ∀ c : Dev nD, Pipeline.BodyObligationLoose (dat8 (Ix := Ix) (U := U) (Lvl := Lvl) (V48 m outs c) c) (defs₀ (F := F)) 𝒱₀ ι Set.univ)
    (houts : ∀ c : Dev nD, outs 49 main_v298 c = (dat8 (Ix := Ix) (U := U) (Lvl := Lvl) (V48 m outs c) c).arrAt 2 64)
    (c : Dev nD) :
    (R8' m outs 𝒱₀ L lv ι pdats hp hbody).post c
      ⊢ iprop(StableHlo.held (c : Thread nD τ) (Pipeline.ucRefs τ sig) (V49 m outs c) ∗ (R c : sProp 𝕄)) := by
  have h : (pdats (8 : Fin 24) c).arrAt Reg8.oK Reg8.cfgK.N = outs 49 main_v298 c := by
    rw [hp c]; exact (houts c).symm
  show iprop(StableHlo.held (c : Thread nD τ) (Pipeline.ucRefs τ sig)
      (Function.update (V48 m outs c) (Proc.devRef .tc main_v298) ((pdats (8 : Fin 24) c).arrAt Reg8.oK Reg8.cfgK.N))
        ∗ (R c : sProp 𝕄)) ⊢ _
  rw [h]

end Cert.KernelIdeal.Hand
-- ==== Proof.Rg9.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.ApplyLib
import proofs.«169706_j68856915690108_1_alg».proof.Proof.Shared
import proofs.«169706_j68856915690108_1_alg».proof.Proof.RegionsKI

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k9_pay1 x_i` and `step t a = k9_pay2 h_i h_j threshold x_j a`, the printed payloads of the two stores.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk9 (V : Valuation τ sig (Elt F)) (c : Dev nD) (w : Fin cfg9.W) (t : Fin cfg9.N) :
    ((cfg9.win w).xblock (cfg9.grid.coords t)).Idx → Elt F (cfg9.win w).elt :=
  ((cfg9.win w).blk t).view.read (Elt F)
    (V (Proc.devRef .tc (Pipeline.arrRef spec9 w)) : Buf (Elt F) ((cfg9.win w).arr.view.loc (c.tc : Thread nD τ)))

/-- What the accumulator is reset to at a point whose second coordinate is 0: 1.0 times the block of `x` window 3
    stages there (the printed payload of the first store into the scratch buffer). -/
noncomputable def init9 (V : Valuation τ sig (Elt F)) (c : Dev nD) (n : ℕ) (hn : n < cfg9.N) : Vec F S512x256 .f32 :=
  k9_pay1 (iblk9 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step9 (V : Valuation τ sig (Elt F)) (c : Dev nD) (n : ℕ) (hn : n < cfg9.N) (a : Vec F S512x256 .f32) : Vec F S512x256 .f32 :=
  k9_pay2 (iblk9 V c 1 ⟨n, hn⟩) (iblk9 V c 2 ⟨n, hn⟩) (iblk9 V c 0 ⟨n, hn⟩) (iblk9 V c 4 ⟨n, hn⟩) a

/-- What the accumulator holds after point `n`: reset and stepped at the points ≡ 0 (mod 8), stepped from what the
    point before left at the others. -/
noncomputable def acc9 (V : Valuation τ sig (Elt F)) (c : Dev nD) : (n : ℕ) → n < cfg9.N → Vec F S512x256 .f32
  | 0, hn => step9 V c 0 hn (init9 V c 0 hn)
  | n + 1, hn =>
    if (n + 1) % 8 = 0 then step9 V c (n + 1) hn (init9 V c (n + 1) hn)
    else step9 V c (n + 1) hn (acc9 V c n (Nat.lt_of_succ_lt hn))

/-- After a point ≡ 0 (mod 8): the reset value, stepped once. -/
theorem acc9_reset (V : Valuation τ sig (Elt F)) (c : Dev nD) (n : ℕ) (hn : n < cfg9.N) (h0 : n % 8 = 0) :
    acc9 V c n hn = step9 V c n hn (init9 V c n hn) := by
  cases n with
  | zero => rfl
  | succ n => exact if_pos h0

/-- After any other point: that point's step on what the point before left. -/
theorem acc9_step (V : Valuation τ sig (Elt F)) (c : Dev nD) (n : ℕ) (hn : n < cfg9.N) (h0 : ¬n % 8 = 0) :
    acc9 V c n hn = step9 V c n hn (acc9 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi9 (V : Valuation τ sig (Elt F)) (c : Dev nD) : (n : ℕ) → n ≤ cfg9.N → sProp 𝕄
  | 0, _ => Pipeline.scopedRest (Ix := Ix) (Name := ℕ) (U := U) (Lvl := Lvl) (Val := Elt F) spec9 c
  | n + 1, hn => iprop(owns (c : Thread nD τ) (Memref.whole cc9_scratch0) fullShare (acc9 V c n hn)
      ∗ Pipeline.scopedRestBut (Ix := Ix) (Name := ℕ) (U := U) (Lvl := Lvl) (Val := Elt F) spec9 c [cc9_scratch0])

theorem Phi9_zero (V : Valuation τ sig (Elt F)) (c : Dev nD) (n : ℕ) (h : n ≤ cfg9.N) (hz : n = 0) :
    (Phi9 V c n h : sProp 𝕄) = Pipeline.scopedRest (Ix := Ix) (Name := ℕ) (U := U) (Lvl := Lvl) (Val := Elt F) spec9 c := by
  subst hz; rfl

theorem Phi9_succ (V : Valuation τ sig (Elt F)) (c : Dev nD) (n : ℕ) (hn : n < cfg9.N) :
    (Phi9 V c (n + 1) hn : sProp 𝕄) = iprop(owns (c : Thread nD τ) (Memref.whole cc9_scratch0) fullShare (acc9 V c n hn)
      ∗ Pipeline.scopedRestBut (Ix := Ix) (Name := ℕ) (U := U) (Lvl := Lvl) (Val := Elt F) spec9 c [cc9_scratch0]) := rfl

theorem Phi9_pos (V : Valuation τ sig (Elt F)) (c : Dev nD) (n : ℕ) (h : n ≤ cfg9.N) (hz : n ≠ 0) :
    (Phi9 V c n h : sProp 𝕄) = iprop(owns (c : Thread nD τ) (Memref.whole cc9_scratch0) fullShare (acc9 V c (n - 1) (by omega))
      ∗ Pipeline.scopedRestBut (Ix := Ix) (Name := ℕ) (U := U) (Lvl := Lvl) (Val := Elt F) spec9 c [cc9_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi9`; the
    threshold's array held whole, each of the two arrays that two input windows read held half and half; nothing owed. -/
noncomputable def dat9 (V : Valuation τ sig (Elt F)) (c : Dev nD) : Dat τ (Elt F) Ix ℕ U Lvl cfg9 c where
  A w := V (Proc.devRef .tc (Pipeline.arrRef spec9 w))
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => acc9 V c t.val t.isLt
  Φ t := Phi9 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq9 (V : Valuation τ sig (Elt F)) (c : Dev nD) (w : Fin cfg9.W) :
    (dat9 (Ix := Ix) (U := U) (Lvl := Lvl) V c).A w = V (Proc.devRef .tc (Pipeline.arrRef spec9 w)) := by
  dsimp only [dat9]

/-- What the body leaves, window by window. -/
theorem after9_0 (V : Valuation τ sig (Elt F)) (c : Dev nD) (t : Fin cfg9.N) :
    (dat9 (Ix := Ix) (U := U) (Lvl := Lvl) V c).after 0 t = iblk9 V c 0 t := by dsimp only [dat9]
theorem after9_1 (V : Valuation τ sig (Elt F)) (c : Dev nD) (t : Fin cfg9.N) :
    (dat9 (Ix := Ix) (U := U) (Lvl := Lvl) V c).after 1 t = iblk9 V c 1 t := by dsimp only [dat9]
theorem after9_2 (V : Valuation τ sig (Elt F)) (c : Dev nD) (t : Fin cfg9.N) :
    (dat9 (Ix := Ix) (U := U) (Lvl := Lvl) V c).after 2 t = iblk9 V c 2 t := by dsimp only [dat9]
theorem after9_3 (V : Valuation τ sig (Elt F)) (c : Dev nD) (t : Fin cfg9.N) :
    (dat9 (Ix := Ix) (U := U) (Lvl := Lvl) V c).after 3 t = iblk9 V c 3 t := by dsimp only [dat9]
theorem after9_4 (V : Valuation τ sig (Elt F)) (c : Dev nD) (t : Fin cfg9.N) :
    (dat9 (Ix := Ix) (U := U) (Lvl := Lvl) V c).after 4 t = iblk9 V c 4 t := by dsimp only [dat9]
theorem after9_5 (V : Valuation τ sig (Elt F)) (c : Dev nD) (t : Fin cfg9.N) :
    (dat9 (Ix := Ix) (U := U) (Lvl := Lvl) V c).after 5 t = acc9 V c t.val t.isLt := by dsimp only [dat9]

/-- The shares the input arrays are held at. -/
theorem q9_0 (V : Valuation τ sig (Elt F)) (c : Dev nD) : (dat9 (Ix := Ix) (U := U) (Lvl := Lvl) V c).q 0 = fullShare := by dsimp only [dat9]
theorem q9_1 (V : Valuation τ sig (Elt F)) (c : Dev nD) : (dat9 (Ix := Ix) (U := U) (Lvl := Lvl) V c).q 1 = fullShare.left := by dsimp only [dat9]
theorem q9_2 (V : Valuation τ sig (Elt F)) (c : Dev nD) : (dat9 (Ix := Ix) (U := U) (Lvl := Lvl) V c).q 2 = fullShare.right := by dsimp only [dat9]
theorem q9_3 (V : Valuation τ sig (Elt F)) (c : Dev nD) : (dat9 (Ix := Ix) (U := U) (Lvl := Lvl) V c).q 3 = fullShare.left := by dsimp only [dat9]
theorem q9_4 (V : Valuation τ sig (Elt F)) (c : Dev nD) : (dat9 (Ix := Ix) (U := U) (Lvl := Lvl) V c).q 4 = fullShare.right := by dsimp only [dat9]

/-- The invariant at a point's start, and at its end. -/
theorem Phi9_castSucc (V : Valuation τ sig (Elt F)) (c : Dev nD) (t : Fin cfg9.N) :
    (dat9 (Ix := Ix) (U := U) (Lvl := Lvl) V c).Φ t.castSucc = Phi9 V c t.val (Nat.le_of_lt t.isLt) := by
  dsimp only [dat9]; simp only [Fin.coe_castSucc]

theorem Phi9_at_succ (V : Valuation τ sig (Elt F)) (c : Dev nD) (t : Fin cfg9.N) :
    (dat9 (Ix := Ix) (U := U) (Lvl := Lvl) V c).Φ t.succ = Phi9 V c (t.val + 1) t.isLt := rfl

/-- Before the first point the invariant is the launch's scoped rest. -/
theorem Phi_first9 (V : Valuation τ sig (Elt F)) (c : Dev nD) :
    (dat9 (Ix := Ix) (U := U) (Lvl := Lvl) V c).Φ 0
      = Pipeline.scopedRest (Ix := Ix) (Name := ℕ) (U := U) (Lvl := Lvl) (Val := Elt F) spec9 c := rfl

/-- After the last point the invariant gives the scoped rest back: the accumulator's contents are forgotten. -/
theorem Phi_last9 (V : Valuation τ sig (Elt F)) (c : Dev nD) :
    (dat9 (Ix := Ix) (U := U) (Lvl := Lvl) V c).Φ (Fin.last cfg9.N)
      ⊢ Pipeline.scopedRest (Ix := Ix) (Name := ℕ) (U := U) (Lvl := Lvl) (Val := Elt F) spec9 c := by
  have hN : cfg9.N = 64 := N_9
  rw [show (dat9 (Ix := Ix) (U := U) (Lvl := Lvl) V c).Φ (Fin.last cfg9.N) = Phi9 V c (Fin.last cfg9.N).val (Nat.le_of_lt_succ (Fin.last cfg9.N).isLt) from rfl,
    Phi9_pos V c _ _ (by rw [Fin.val_last]; omega), scopedRest9_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 9) c := dat9 V c

end Cert.KernelIdeal.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k9_pay2 hI hJ mn xJ s` — `s` plus the 0/1 mask of (hI · hJᵀ > mn) times `xJ` — and the value
  the accumulator is reset to is `k9_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond9_0 (i : grid9.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond9_1 (i : grid9.Coords) : Prop := k9_cond2 i = 1#1

/-! ## The three runs -/

/-- At a point whose second coordinate is 0 (and not 7): the accumulator, at anything, is reset to `k9_pay1 xI` and
    stepped once; every window's buffer is handed back as found. -/
theorem run9_first (𝒱₀ : Variants) (c : Dev nD) (i : grid9.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond9_0 i) (hc1 : ¬cond9_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k9_pay2 hI hJ mn xJ (k9_pay1 xI))) -∗ K ⟨⟩))
      ⊢ wp frame (wpE (defs₀ (F := F)) 𝒱₀ c none) E (cc9__apply_kernel i arg2 harg2 arg3 harg3 arg4 harg4 arg5 harg5 arg6 harg6 arg7 harg7 arg8 harg8) K := by
  simp only [cc9__apply_kernel_eq_skeleton]; unfold cc9__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run9_mid (𝒱₀ : Variants) (c : Dev nD) (i : grid9.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond9_0 i) (hc1 : ¬cond9_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k9_pay2 hI hJ mn xJ s)) -∗ K ⟨⟩))
      ⊢ wp frame (wpE (defs₀ (F := F)) 𝒱₀ c none) E (cc9__apply_kernel i arg2 harg2 arg3 harg3 arg4 harg4 arg5 harg5 arg6 harg6 arg7 harg7 arg8 harg8) K := by
  simp only [cc9__apply_kernel_eq_skeleton]; unfold cc9__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run9_last (𝒱₀ : Variants) (c : Dev nD) (i : grid9.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond9_0 i) (hc1 : cond9_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k9_pay2 hI hJ mn xJ s)
        ∗ owns (c : Thread nD τ) arg8 fullShare (k9_pay2 hI hJ mn xJ s)) -∗ K ⟨⟩))
      ⊢ wp frame (wpE (defs₀ (F := F)) 𝒱₀ c none) E (cc9__apply_kernel i arg2 harg2 arg3 harg3 arg4 harg4 arg5 harg5 arg6 harg6 arg7 harg7 arg8 harg8) K := by
  simp only [cc9__apply_kernel_eq_skeleton]; unfold cc9__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.KernelIdeal.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc9`. The three control cases are
  decided over the grid by the point's residue mod 8, and in each the kernel's run (ApplyRun.lean) applies.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond9_0 : ∀ t : Fin cfg9.N, cond9_0 (grid9.coords t) ↔ t.val % 8 = 0 :=
  (by decide +kernel : ∀ t : Fin grid9.N, cond9_0 (grid9.coords t) ↔ t.val % 8 = 0)
/-- It is stored into the output block at the points ≡ 7 (mod 8). -/
theorem hcond9_1 : ∀ t : Fin cfg9.N, cond9_1 (grid9.coords t) ↔ t.val % 8 = 7 :=
  (by decide +kernel : ∀ t : Fin grid9.N, cond9_1 (grid9.coords t) ↔ t.val % 8 = 7)
/-- The output window is idle at every other point, -/
theorem idleAt9_5 : ∀ t : Fin cfg9.N, ¬t.val % 8 = 7 → cfg9.idle 5 (grid9.coords t) = true :=
  (by decide +kernel : ∀ t : Fin grid9.N, ¬t.val % 8 = 7 → cfg9.idle 5 (grid9.coords t) = true)
/-- live at those, -/
theorem liveAt9_5 : ∀ t : Fin cfg9.N, t.val % 8 = 7 → cfg9.idle 5 (grid9.coords t) = false :=
  (by decide +kernel : ∀ t : Fin grid9.N, t.val % 8 = 7 → cfg9.idle 5 (grid9.coords t) = false)
/-- and not written back where it is idle. -/
theorem noFlush9_5 (t : Fin cfg9.N) (h : ¬t.val % 8 = 7) : (cfg9.win 5).flush t = false := by
  cases hf : (cfg9.win 5).flush t with
  | false => rfl
  | true => exact absurd ((flush9_5 t).mp hf) h

/-! ## What the body finds in the inputs' buffers and leaves in every buffer -/

/-- Each input's current staging buffer holds its block at every point, fetched there or not. -/
theorem before9_0 (V : Valuation τ sig (Elt F)) (c : Dev nD) (t : Fin cfg9.N) (d) : (dat9 (Ix := Ix) (U := U) (Lvl := Lvl) V c).before 0 t d = iblk9 V c 0 t :=
  ((dat9 (Ix := Ix) (U := U) (Lvl := Lvl) V c).before_in_eq_fetched 0 rfl (fun _ => rfl) (fun _ _ _ => rfl)
      (fun t => by rw [after9_0]; unfold Dat.blockOf iblk9; rw [A_eq9]; try rfl) t d).trans
    (by unfold Dat.fetched Dat.blockOf iblk9; rw [A_eq9]; try rfl)
theorem before9_1 (V : Valuation τ sig (Elt F)) (c : Dev nD) (t : Fin cfg9.N) (d) : (dat9 (Ix := Ix) (U := U) (Lvl := Lvl) V c).before 1 t d = iblk9 V c 1 t :=
  ((dat9 (Ix := Ix) (U := U) (Lvl := Lvl) V c).before_in_eq_fetched 1 rfl (fun _ => rfl) (fun _ _ _ => rfl)
      (fun t => by rw [after9_1]; unfold Dat.blockOf iblk9; rw [A_eq9]; try rfl) t d).trans
    (by unfold Dat.fetched Dat.blockOf iblk9; rw [A_eq9]; try rfl)
theorem before9_2 (V : Valuation τ sig (Elt F)) (c : Dev nD) (t : Fin cfg9.N) (d) : (dat9 (Ix := Ix) (U := U) (Lvl := Lvl) V c).before 2 t d = iblk9 V c 2 t :=
  ((dat9 (Ix := Ix) (U := U) (Lvl := Lvl) V c).before_in_eq_fetched 2 rfl (fun _ => rfl) (fun _ _ _ => rfl)
      (fun t => by rw [after9_2]; unfold Dat.blockOf iblk9; rw [A_eq9]; try rfl) t d).trans
    (by unfold Dat.fetched Dat.blockOf iblk9; rw [A_eq9]; try rfl)
theorem before9_3 (V : Valuation τ sig (Elt F)) (c : Dev nD) (t : Fin cfg9.N) (d) : (dat9 (Ix := Ix) (U := U) (Lvl := Lvl) V c).before 3 t d = iblk9 V c 3 t :=
  ((dat9 (Ix := Ix) (U := U) (Lvl := Lvl) V c).before_in_eq_fetched 3 rfl (fun _ => rfl) (fun _ _ _ => rfl)
      (fun t => by rw [after9_3]; unfold Dat.blockOf iblk9; rw [A_eq9]; try rfl) t d).trans
    (by unfold Dat.fetched Dat.blockOf iblk9; rw [A_eq9]; try rfl)
theorem before9_4 (V : Valuation τ sig (Elt F)) (c : Dev nD) (t : Fin cfg9.N) (d) : (dat9 (Ix := Ix) (U := U) (Lvl := Lvl) V c).before 4 t d = iblk9 V c 4 t :=
  ((dat9 (Ix := Ix) (U := U) (Lvl := Lvl) V c).before_in_eq_fetched 4 rfl (fun _ => rfl) (fun _ _ _ => rfl)
      (fun t => by rw [after9_4]; unfold Dat.blockOf iblk9; rw [A_eq9]; try rfl) t d).trans
    (by unfold Dat.fetched Dat.blockOf iblk9; rw [A_eq9]; try rfl)

/-! ## The body obligation, at a generic point -/

/-- What the body is called with at point `t` (the obligation's precondition, the windows one by one), -/
noncomputable def bodyPre9 (V : Valuation τ sig (Elt F)) (c : Dev nD) (ι : Ix) (t : Fin cfg9.N) : sProp 𝕄 :=
  iprop((dat9 (Ix := Ix) (U := U) (Lvl := Lvl) V c).Φ t.castSucc ∗ (dat9 (Ix := Ix) (U := U) (Lvl := Lvl) V c).owesAt ι t.castSucc
    ∗ (∃ d, owns (c : Thread nD τ) (st9_0 t) fullShare ((dat9 (Ix := Ix) (U := U) (Lvl := Lvl) V c).before 0 t d))
    ∗ (∃ d, owns (c : Thread nD τ) (st9_1 t) fullShare ((dat9 (Ix := Ix) (U := U) (Lvl := Lvl) V c).before 1 t d))
    ∗ (∃ d, owns (c : Thread nD τ) (st9_2 t) fullShare ((dat9 (Ix := Ix) (U := U) (Lvl := Lvl) V c).before 2 t d))
    ∗ (∃ d, owns (c : Thread nD τ) (st9_3 t) fullShare ((dat9 (Ix := Ix) (U := U) (Lvl := Lvl) V c).before 3 t d))
    ∗ (∃ d, owns (c : Thread nD τ) (st9_4 t) fullShare ((dat9 (Ix := Ix) (U := U) (Lvl := Lvl) V c).before 4 t d))
    ∗ (∃ d, owns (c : Thread nD τ) (st9_5 t) fullShare ((dat9 (Ix := Ix) (U := U) (Lvl := Lvl) V c).before 5 t d)))

/-- and what it returns. -/
noncomputable def bodyPost9 (V : Valuation τ sig (Elt F)) (c : Dev nD) (ι : Ix) (t : Fin cfg9.N) : sProp 𝕄 :=
  iprop((dat9 (Ix := Ix) (U := U) (Lvl := Lvl) V c).Φ t.succ ∗ (dat9 (Ix := Ix) (U := U) (Lvl := Lvl) V c).owesAt ι t.succ
    ∗ (dat9 (Ix := Ix) (U := U) (Lvl := Lvl) V c).leaves 0 t ∗ (dat9 (Ix := Ix) (U := U) (Lvl := Lvl) V c).leaves 1 t ∗ (dat9 (Ix := Ix) (U := U) (Lvl := Lvl) V c).leaves 2 t
    ∗ (dat9 (Ix := Ix) (U := U) (Lvl := Lvl) V c).leaves 3 t ∗ (dat9 (Ix := Ix) (U := U) (Lvl := Lvl) V c).leaves 4 t ∗ (dat9 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body9 (𝒱₀ : Variants) (ι : Ix) (V : Valuation τ sig (Elt F)) (c : Dev nD) (t : Fin cfg9.N) :
    bodyPre9 (Ix := Ix) (U := U) (Lvl := Lvl) V c ι t ⊢ wp frame (wpE (defs₀ (F := F)) 𝒱₀ c none) Set.univ (bodyAt9 t) (fun _ => bodyPost9 (Ix := Ix) (U := U) (Lvl := Lvl) V c ι t) := by
  unfold bodyPre9 bodyPost9 bodyAt9
  simp only [before9_0, before9_1, before9_2, before9_3, before9_4]
  rw [show (dat9 (Ix := Ix) (U := U) (Lvl := Lvl) V c).owesAt ι t.succ = (dat9 (Ix := Ix) (U := U) (Lvl := Lvl) V c).owesAt ι t.castSucc from rfl]
  rw [Phi9_at_succ, Phi9_succ, Phi9_castSucc]
  rw [leaves_live (dat9 (Ix := Ix) (U := U) (Lvl := Lvl) V c) 0 t rfl rfl, leaves_live (dat9 (Ix := Ix) (U := U) (Lvl := Lvl) V c) 1 t rfl rfl, leaves_live (dat9 (Ix := Ix) (U := U) (Lvl := Lvl) V c) 2 t rfl rfl,
    leaves_live (dat9 (Ix := Ix) (U := U) (Lvl := Lvl) V c) 3 t rfl rfl, leaves_live (dat9 (Ix := Ix) (U := U) (Lvl := Lvl) V c) 4 t rfl rfl, after9_0, after9_1, after9_2, after9_3, after9_4]
  have hN : t.val < 64 := lt_of_lt_of_eq t.isLt (show cfg9.N = 64 from N_9)
  by_cases h0 : t.val % 8 = 0
  · have h7 : ¬t.val % 8 = 7 := by omega
    rw [Dat.leaves_idle (dat9 (Ix := Ix) (U := U) (Lvl := Lvl) V c) 5 t (idleAt9_5 t h7) (noFlush9_5 t h7)]
    rw [acc9_reset V c t.val t.isLt h0]
    unfold step9 init9
    by_cases hz : t.val = 0
    · rw [Phi9_zero V c _ _ hz, scopedRest9_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run9_first 𝒱₀ c (grid9.coords t) _ _ _ _ _ _ _ _ _ _ _ _ _ _ ((hcond9_0 t).mpr h0) (fun h => h7 ((hcond9_1 t).mp h)) (iblk9 V c 0 t) (iblk9 V c 1 t) (iblk9 V c 2 t) (iblk9 V c 3 t) (iblk9 V c 4 t) ((dat9 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi9_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run9_first 𝒱₀ c (grid9.coords t) _ _ _ _ _ _ _ _ _ _ _ _ _ _ ((hcond9_0 t).mpr h0) (fun h => h7 ((hcond9_1 t).mp h)) (iblk9 V c 0 t) (iblk9 V c 1 t) (iblk9 V c 2 t) (iblk9 V c 3 t) (iblk9 V c 4 t) ((dat9 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc9_step V c t.val t.isLt h0, Phi9_pos V c _ _ hz]
    unfold step9
    by_cases h7 : t.val % 8 = 7
    · rw [leaves_live (dat9 (Ix := Ix) (U := U) (Lvl := Lvl) V c) 5 t (liveAt9_5 t h7) rfl, after9_5, acc9_step V c t.val t.isLt h0]
      unfold step9
      iintro ⟨⟨HS, Hr⟩, Ho, ⟨%d0, H0⟩, ⟨%d1, H1⟩, ⟨%d2, H2⟩, ⟨%d3, H3⟩, ⟨%d4, H4⟩, ⟨%d5, H5⟩⟩
      iapply (run9_last 𝒱₀ c (grid9.coords t) _ _ _ _ _ _ _ _ _ _ _ _ _ _ (fun h => h0 ((hcond9_0 t).mp h)) ((hcond9_1 t).mpr h7) (iblk9 V c 0 t) (iblk9 V c 1 t) (iblk9 V c 2 t) (iblk9 V c 3 t) (iblk9 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat9 (Ix := Ix) (U := U) (Lvl := Lvl) V c) 5 t (idleAt9_5 t h7) (noFlush9_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run9_mid 𝒱₀ c (grid9.coords t) _ _ _ _ _ _ _ _ _ _ _ _ _ _ (fun h => h0 ((hcond9_0 t).mp h)) (fun h => h7 ((hcond9_1 t).mp h)) (iblk9 V c 0 t) (iblk9 V c 1 t) (iblk9 V c 2 t) (iblk9 V c 3 t) (iblk9 V c 4 t) ((dat9 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation9 (𝒱₀ : Variants) (ι : Ix) (V : Valuation τ sig (Elt F)) (c : Dev nD) :
    BodyObligationLoose (dat9 (Ix := Ix) (U := U) (Lvl := Lvl) V c) (defs₀ (F := F)) 𝒱₀ ι Set.univ := fun t => by
  rw [bigSep_W9, bigSep_W9]
  exact sound_body9 𝒱₀ ι V c t

/-- The same at the type the program's family of configurations gives pipeline 1, on every core. -/
theorem body9 (𝒱₀ : Variants) (ι : Ix) (V : Valuation τ sig (Elt F)) :
    ∀ c : Dev nD, BodyObligationLoose (cfg := cfgs 9) (dat9 (Ix := Ix) (U := U) (Lvl := Lvl) V c) (defs₀ (F := F)) 𝒱₀ ι Set.univ :=
  fun c => body_obligation9 𝒱₀ ι V c

end Cert.KernelIdeal.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg9

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (9 : Fin 24)
/-- Its configuration, its windows but for their index maps, the number of its windows. -/
abbrev cfgK : Pipeline.Cfg sig Λ₀ := cfg9
abbrev specK : Fin 6 → Pipeline.WinSpec sig cfgK.grid.rank := spec9
abbrev nW : Nat := 6
/-- Its output window and the buffer behind it. -/
abbrev oK : Fin nW := 5
abbrev outK : Ref sig .tc := main_v301
theorem winK : Pipeline.WinFacts₀ specK := winFacts₀9
theorem block_posK : ∀ w : Fin nW, 0 < (specK w).block.numel := block_pos9
theorem arr_wholeK : ∀ w : Fin nW, (specK w).arr.IsWhole := arr_whole9
theorem stage_wholeK : ∀ (w : Fin nW) (s : Fin (specK w).nbuf), ((specK w).stage s).IsWhole := stage_whole9

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.KernelIdeal.Hand.Reg9

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R9' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (9 : Fin 24) c = dat9 (V50 m outs c) c)
    (hbody : ∀ c : Dev nD, Pipeline.BodyObligationLoose (dat9 (Ix := Ix) (U := U) (Lvl := Lvl) (V50 m outs c) c) (defs₀ (F := F)) 𝒱₀ ι Set.univ) :
    RegionSeg (pcfgs (F := F)) GenP.adm pdats ι defs₀ 𝒱₀ L lv (9 : Fin 24) :=
  Reg9.RK 𝒱₀ L lv ι pdats (fun c => V50 m outs c)
    (fun c => by rw [hp c]; exact hbody c)
    (fun c w => by rw [hp c]; exact A_eq9 (V50 m outs c) c w)
    (fun c => by rw [hp c]; rw [q9_1, q9_2]; exact PosShare.mem_left_op_right fullShare)
    (fun c => by rw [hp c]; rw [q9_3, q9_4]; exact PosShare.mem_left_op_right fullShare)
    (fun c => by rw [hp c]; exact q9_0 (V50 m outs c) c)
    (fun c t => by rw [hp c]; rfl)
    (fun c => by rw [hp c]; rfl)
    (fun c => by rw [hp c, Phi_first9])
    (fun c => by rw [hp c]; exact Phi_last9 (V50 m outs c) c)

/-- It is entered from the thread state before the region's item, -/
theorem hpre9' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (9 : Fin 24) c = dat9 (V50 m outs c) c)
    (hbody : ∀ c : Dev nD, Pipeline.BodyObligationLoose (dat9 (Ix := Ix) (U := U) (Lvl := Lvl) (V50 m outs c) c) (defs₀ (F := F)) 𝒱₀ ι Set.univ)
    (c : Dev nD) :
    iprop(StableHlo.held (c : Thread nD τ) (Pipeline.ucRefs τ sig) (V50 m outs c) ∗ (R c : sProp 𝕄))
      ⊢ (R9' m outs 𝒱₀ L lv ι pdats hp hbody).pre c := .rfl

/-- and left at the thread state after it. -/
theorem hpost9' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (9 : Fin 24) c = dat9 (V50 m outs c) c)
    (hbody : ∀ c : Dev nD, Pipeline.BodyObligationLoose (dat9 (Ix := Ix) (U := U) (Lvl := Lvl) (V50 m outs c) c) (defs₀ (F := F)) 𝒱₀ ι Set.univ)
    (houts : ∀ c : Dev nD, outs 51 main_v301 c = (dat9 (Ix := Ix) (U := U) (Lvl := Lvl) (V50 m outs c) c).arrAt 5 64)
    (c : Dev nD) :
    (R9' m outs 𝒱₀ L lv ι pdats hp hbody).post c
      ⊢ iprop(StableHlo.held (c : Thread nD τ) (Pipeline.ucRefs τ sig) (V51 m outs c) ∗ (R c : sProp 𝕄)) := by
  have h : (pdats (9 : Fin 24) c).arrAt Reg9.oK Reg9.cfgK.N = outs 51 main_v301 c := by
    rw [hp c]; exact (houts c).symm
  show iprop(StableHlo.held (c : Thread nD τ) (Pipeline.ucRefs τ sig)
      (Function.update (V50 m outs c) (Proc.devRef .tc main_v301) ((pdats (9 : Fin 24) c).arrAt Reg9.oK Reg9.cfgK.N))
        ∗ (R c : sProp 𝕄)) ⊢ _
  rw [h]

end Cert.KernelIdeal.Hand
-- ==== Proof.Rg10.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.SumLib
import Idealize.ShloMosaic.Lib.Tactic
import proofs.«169706_j68856915690108_1_alg».proof.Proof.Shared
import proofs.«169706_j68856915690108_1_alg».proof.Proof.RegionsKI

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k10_pay2)

  and only at the last point, 63, is that cell copied into the 1 × 1 output block, which the pipeline then writes back.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk10 (V : Valuation τ sig (Elt F)) (c : Dev nD) (w : Fin cfg10.W) (t : Fin cfg10.N) :
    ((cfg10.win w).xblock (cfg10.grid.coords t)).Idx → Elt F (cfg10.win w).elt :=
  ((cfg10.win w).blk t).view.read (Elt F)
    (V (Proc.devRef .tc (Pipeline.arrRef spec10 w)) : Buf (Elt F) ((cfg10.win w).arr.view.loc (c.tc : Thread nD τ)))

/-- One point's step on the scratch cell: the cell's contents `a` plus the sum of the tile made of the two blocks
    the point stages (the printed payload of the store into the scratch cell). -/
noncomputable def step10 (V : Valuation τ sig (Elt F)) (c : Dev nD) (n : ℕ) (hn : n < cfg10.N) (a : Vec F S1x1 .f32) : Vec F S1x1 .f32 :=
  k10_pay2 (iblk10 V c 0 ⟨n, hn⟩) (iblk10 V c 1 ⟨n, hn⟩) a

/-- What the scratch cell holds after point `n`: the steps of the points `0 … n` applied, first to last, to the
    zero the body stores at point 0. -/
noncomputable def acc10 (V : Valuation τ sig (Elt F)) (c : Dev nD) : (n : ℕ) → n < cfg10.N → Vec F S1x1 .f32
  | 0, hn => step10 V c 0 hn (k10_pay1 (F := F))
  | n + 1, hn => step10 V c (n + 1) hn (acc10 V c n (Nat.lt_of_succ_lt hn))

theorem acc10_zero (V : Valuation τ sig (Elt F)) (c : Dev nD) (hn : 0 < cfg10.N) :
    acc10 V c 0 hn = step10 V c 0 hn (k10_pay1 (F := F)) := rfl

theorem acc10_succ (V : Valuation τ sig (Elt F)) (c : Dev nD) (n : ℕ) (hn : n + 1 < cfg10.N) :
    acc10 V c (n + 1) hn = step10 V c (n + 1) hn (acc10 V c n (Nat.lt_of_succ_lt hn)) := rfl

/-- After a point that is not the first: the step of that point on what the point before left. -/
theorem acc10_pos (V : Valuation τ sig (Elt F)) (c : Dev nD) (n : ℕ) (hn : n < cfg10.N) (hz : n ≠ 0) :
    acc10 V c n hn = step10 V c n hn (acc10 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi10 (V : Valuation τ sig (Elt F)) (c : Dev nD) : (n : ℕ) → n ≤ cfg10.N → sProp 𝕄
  | 0, _ => Pipeline.scopedRest (Ix := Ix) (Name := ℕ) (U := U) (Lvl := Lvl) (Val := Elt F) spec10 c
  | n + 1, hn => iprop(owns (c : Thread nD τ) (Memref.whole cc10_scratch0) fullShare (acc10 V c n hn)
      ∗ Pipeline.scopedRestBut (Ix := Ix) (Name := ℕ) (U := U) (Lvl := Lvl) (Val := Elt F) spec10 c [cc10_scratch0])

theorem Phi10_zero (V : Valuation τ sig (Elt F)) (c : Dev nD) (n : ℕ) (h : n ≤ cfg10.N) (hz : n = 0) :
    (Phi10 V c n h : sProp 𝕄) = Pipeline.scopedRest (Ix := Ix) (Name := ℕ) (U := U) (Lvl := Lvl) (Val := Elt F) spec10 c := by
  subst hz; rfl

theorem Phi10_succ (V : Valuation τ sig (Elt F)) (c : Dev nD) (n : ℕ) (hn : n < cfg10.N) :
    (Phi10 V c (n + 1) hn : sProp 𝕄) = iprop(owns (c : Thread nD τ) (Memref.whole cc10_scratch0) fullShare (acc10 V c n hn)
      ∗ Pipeline.scopedRestBut (Ix := Ix) (Name := ℕ) (U := U) (Lvl := Lvl) (Val := Elt F) spec10 c [cc10_scratch0]) := rfl

theorem Phi10_pos (V : Valuation τ sig (Elt F)) (c : Dev nD) (n : ℕ) (h : n ≤ cfg10.N) (hz : n ≠ 0) :
    (Phi10 V c n h : sProp 𝕄) = iprop(owns (c : Thread nD τ) (Memref.whole cc10_scratch0) fullShare (acc10 V c (n - 1) (by omega))
      ∗ Pipeline.scopedRestBut (Ix := Ix) (Name := ℕ) (U := U) (Lvl := Lvl) (Val := Elt F) spec10 c [cc10_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi10`; the one
    array the two inputs read held half and half; nothing owed. -/
noncomputable def dat10 (V : Valuation τ sig (Elt F)) (c : Dev nD) : Dat τ (Elt F) Ix ℕ U Lvl cfg10 c where
  A w := V (Proc.devRef .tc (Pipeline.arrRef spec10 w))
  after w t := match w with
    | ⟨0, _⟩ => iblk10 V c 0 t
    | ⟨1, _⟩ => iblk10 V c 1 t
    | ⟨2, _⟩ => acc10 V c t.val t.isLt
  Φ t := Phi10 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq10 (V : Valuation τ sig (Elt F)) (c : Dev nD) (w : Fin cfg10.W) :
    (dat10 (Ix := Ix) (U := U) (Lvl := Lvl) V c).A w = V (Proc.devRef .tc (Pipeline.arrRef spec10 w)) := by
  dsimp only [dat10]

/-- What the body leaves, window by window. -/
theorem after10_0 (V : Valuation τ sig (Elt F)) (c : Dev nD) (t : Fin cfg10.N) :
    (dat10 (Ix := Ix) (U := U) (Lvl := Lvl) V c).after 0 t = iblk10 V c 0 t := by dsimp only [dat10]
theorem after10_1 (V : Valuation τ sig (Elt F)) (c : Dev nD) (t : Fin cfg10.N) :
    (dat10 (Ix := Ix) (U := U) (Lvl := Lvl) V c).after 1 t = iblk10 V c 1 t := by dsimp only [dat10]
theorem after10_2 (V : Valuation τ sig (Elt F)) (c : Dev nD) (t : Fin cfg10.N) :
    (dat10 (Ix := Ix) (U := U) (Lvl := Lvl) V c).after 2 t = acc10 V c t.val t.isLt := by dsimp only [dat10]

/-- The invariant at a point's start, and at its end. -/
theorem Phi10_castSucc (V : Valuation τ sig (Elt F)) (c : Dev nD) (t : Fin cfg10.N) :
    (dat10 (Ix := Ix) (U := U) (Lvl := Lvl) V c).Φ t.castSucc = Phi10 V c t.val (Nat.le_of_lt t.isLt) := by
  dsimp only [dat10]; simp only [Fin.coe_castSucc]

theorem Phi10_at_succ (V : Valuation τ sig (Elt F)) (c : Dev nD) (t : Fin cfg10.N) :
    (dat10 (Ix := Ix) (U := U) (Lvl := Lvl) V c).Φ t.succ = Phi10 V c (t.val + 1) t.isLt := rfl

/-- Before the first point the invariant is the launch's scoped rest. -/
theorem Phi_first10 (V : Valuation τ sig (Elt F)) (c : Dev nD) :
    (dat10 (Ix := Ix) (U := U) (Lvl := Lvl) V c).Φ 0
      = Pipeline.scopedRest (Ix := Ix) (Name := ℕ) (U := U) (Lvl := Lvl) (Val := Elt F) spec10 c := rfl

/-- After the last point the invariant gives the scoped rest back: the scratch cell's contents are forgotten. -/
theorem Phi_last10 (V : Valuation τ sig (Elt F)) (c : Dev nD) :
    (dat10 (Ix := Ix) (U := U) (Lvl := Lvl) V c).Φ (Fin.last cfg10.N)
      ⊢ Pipeline.scopedRest (Ix := Ix) (Name := ℕ) (U := U) (Lvl := Lvl) (Val := Elt F) spec10 c := by
  have hN : cfg10.N = 64 := N_10
  rw [show (dat10 (Ix := Ix) (U := U) (Lvl := Lvl) V c).Φ (Fin.last cfg10.N) = Phi10 V c (Fin.last cfg10.N).val (Nat.le_of_lt_succ (Fin.last cfg10.N).isLt) from rfl,
    Phi10_pos V c _ _ (by rw [Fin.val_last]; omega), scopedRest10_split, owns_whole]
  iintro ⟨Hs, Hr⟩
  isplitl [Hs]
  · iexists _; iexact Hs
  iexact Hr

example (V : Valuation τ sig (Elt F)) (c : Dev nD) : Dat τ (Elt F) Ix ℕ U Lvl (cfgs 10) c := dat10 V c

end Cert.KernelIdeal.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k10_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond10_1 (i : grid10.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond10_2 (i : grid10.Coords) : Prop := k10_cond2 i = 1#1

/-- The reset runs at the first point only, -/
theorem hcond10_1 : ∀ t : Fin cfg10.N, cond10_1 (grid10.coords t) ↔ t.val = 0 :=
  (by decide +kernel : ∀ t : Fin grid10.N, cond10_1 (grid10.coords t) ↔ t.val = 0)
/-- the copy at the last point only. -/
theorem hcond10_2 : ∀ t : Fin cfg10.N, cond10_2 (grid10.coords t) ↔ t.val = 63 :=
  (by decide +kernel : ∀ t : Fin grid10.N, cond10_2 (grid10.coords t) ↔ t.val = 63)

/-! ## The body, case by case, on any whole memrefs -/

/-- The first point: the scratch cell, at anything, is reset and then holds the first step on zero. -/
theorem run10_A (𝒱₀ : Variants) (c : Dev nD) (i : grid10.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond10_1 i) (hc2 : ¬cond10_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k10_pay2 x2 x3 (k10_pay1 (F := F)))) -∗ K ⟨⟩))
      ⊢ wp frame (wpE (defs₀ (F := F)) 𝒱₀ c none) E (cc10__sum_kernel i arg2 harg2 arg3 harg3 arg4 harg4 arg5 harg5) K := by
  simp only [cc10__sum_kernel_eq_skeleton]; unfold cc10__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run10_A.sl.v15 run10_A.sl.H5_1
  rw [readCov_whole _ zeros2, readAt_whole _ _ zeros2, readAt_whole _ _ zeros2]

/-- A point strictly between the first and the last: the scratch cell at `a` takes the point's step. -/
theorem run10_B (𝒱₀ : Variants) (c : Dev nD) (i : grid10.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond10_1 i) (hc2 : ¬cond10_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k10_pay2 x2 x3 a)) -∗ K ⟨⟩))
      ⊢ wp frame (wpE (defs₀ (F := F)) 𝒱₀ c none) E (cc10__sum_kernel i arg2 harg2 arg3 harg3 arg4 harg4 arg5 harg5) K := by
  simp only [cc10__sum_kernel_eq_skeleton]; unfold cc10__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run10_C (𝒱₀ : Variants) (c : Dev nD) (i : grid10.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond10_1 i) (hc2 : cond10_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k10_pay2 x2 x3 a) ∗ owns (c : Thread nD τ) arg5 fullShare (k10_pay2 x2 x3 a)) -∗ K ⟨⟩))
      ⊢ wp frame (wpE (defs₀ (F := F)) 𝒱₀ c none) E (cc10__sum_kernel i arg2 harg2 arg3 harg3 arg4 harg4 arg5 harg5) K := by
  simp only [cc10__sum_kernel_eq_skeleton]; unfold cc10__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run10_C.sl.v25 run10_C.sl.H5_1
    rw [readCov_whole _ zeros2, readAt_whole _ _ zeros2, readAt_whole _ _ zeros2, readAt_whole _ _ zeros2]
  iexists _; isplitr
  swap; · iexact H5
  ipureintro
  unfold run10_C.sl.H5_1
  rw [read_writes_whole _ _ zeros2, readAt_whole _ _ zeros2, readAt_whole _ _ zeros2, readAt_whole _ _ zeros2]

end Cert.KernelIdeal.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle10_2 : ∀ t : Fin cfg10.N, cfg10.idle 2 (grid10.coords t) = true ↔ t.val ≠ 63 :=
  (by decide +kernel : ∀ t : Fin grid10.N, idle10 2 (grid10.coords t) = true ↔ t.val ≠ 63)
/-- and written back at the last point only. -/
theorem flush10_2' : ∀ t : Fin cfg10.N, (cfg10.win 2).flush t = true ↔ t.val = 63 :=
  (by decide +kernel : ∀ t : Fin grid10.N, win10_2.flush t = true ↔ t.val = 63)

/-! ## What the body finds in the inputs' buffers -/

/-- Each input's current staging buffer holds its block at every point, fetched there or not: unfetched, the block
    index has not moved and the body left the block in place. -/
theorem before10_0 (V : Valuation τ sig (Elt F)) (c : Dev nD) (t : Fin cfg10.N) (d) :
    (dat10 (Ix := Ix) (U := U) (Lvl := Lvl) V c).before 0 t d = iblk10 V c 0 t :=
  ((dat10 (Ix := Ix) (U := U) (Lvl := Lvl) V c).before_in_eq_fetched 0 rfl (fun _ => rfl) (fun _ _ _ => rfl)
      (fun t => by rw [after10_0]; unfold Dat.blockOf iblk10; rw [A_eq10]; try rfl) t d).trans
    (by unfold Dat.fetched Dat.blockOf iblk10; rw [A_eq10]; try rfl)

theorem before10_1 (V : Valuation τ sig (Elt F)) (c : Dev nD) (t : Fin cfg10.N) (d) :
    (dat10 (Ix := Ix) (U := U) (Lvl := Lvl) V c).before 1 t d = iblk10 V c 1 t :=
  ((dat10 (Ix := Ix) (U := U) (Lvl := Lvl) V c).before_in_eq_fetched 1 rfl (fun _ => rfl) (fun _ _ _ => rfl)
      (fun t => by rw [after10_1]; unfold Dat.blockOf iblk10; rw [A_eq10]; try rfl) t d).trans
    (by unfold Dat.fetched Dat.blockOf iblk10; rw [A_eq10]; try rfl)

/-! ## What the obligation asks of each window's buffer after the body -/

/-- The inputs are never idle: their buffers are handed back at their blocks. -/
theorem leaves10_0 (V : Valuation τ sig (Elt F)) (c : Dev nD) (t : Fin cfg10.N) :
    (dat10 (Ix := Ix) (U := U) (Lvl := Lvl) V c).leaves 0 t = owns (c : Thread nD τ) (st10_0 t) fullShare (iblk10 V c 0 t) := by
  rw [← after10_0 (Ix := Ix) (U := U) (Lvl := Lvl) V c t]

theorem leaves10_1 (V : Valuation τ sig (Elt F)) (c : Dev nD) (t : Fin cfg10.N) :
    (dat10 (Ix := Ix) (U := U) (Lvl := Lvl) V c).leaves 1 t = owns (c : Thread nD τ) (st10_1 t) fullShare (iblk10 V c 1 t) := by
  rw [← after10_1 (Ix := Ix) (U := U) (Lvl := Lvl) V c t]

/-- The output is idle, and not written back, at every point but the last: its buffer is handed back as found; -/
theorem leaves10_2_idle (V : Valuation τ sig (Elt F)) (c : Dev nD) (t : Fin cfg10.N) (h : t.val ≠ 63) :
    (dat10 (Ix := Ix) (U := U) (Lvl := Lvl) V c).leaves 2 t
      = iprop(∃ d, owns (c : Thread nD τ) (st10_2 t) fullShare ((dat10 (Ix := Ix) (U := U) (Lvl := Lvl) V c).before 2 t d)) :=
  (dat10 (Ix := Ix) (U := U) (Lvl := Lvl) V c).leaves_idle 2 t ((idle10_2 t).mpr h)
    (Bool.eq_false_iff.mpr fun hf => h ((flush10_2' t).mp hf))

/-- at the last point it is handed back at the accumulated sum. -/
theorem leaves10_2_last (V : Valuation τ sig (Elt F)) (c : Dev nD) (t : Fin cfg10.N) (h : t.val = 63) :
    (dat10 (Ix := Ix) (U := U) (Lvl := Lvl) V c).leaves 2 t = owns (c : Thread nD τ) (st10_2 t) fullShare (acc10 V c t.val t.isLt) := by
  have hl : cfg10.idle 2 (grid10.coords t) = false := by
    cases hi : cfg10.idle 2 (grid10.coords t) with
    | false => rfl
    | true => exact absurd h ((idle10_2 t).mp hi)
  rw [← after10_2 (Ix := Ix) (U := U) (Lvl := Lvl) V c t]
  unfold Dat.leaves; rw [hl]

/-- One step at a point, through the point itself. -/
theorem step10_at (V : Valuation τ sig (Elt F)) (c : Dev nD) (t : Fin cfg10.N) (a : Vec F S1x1 .f32) :
    step10 V c t.val t.isLt a = k10_pay2 (iblk10 V c 0 t) (iblk10 V c 1 t) a := rfl

theorem acc10_first (V : Valuation τ sig (Elt F)) (c : Dev nD) (n : ℕ) (hn : n < cfg10.N) (hz : n = 0) :
    acc10 V c n hn = step10 V c n hn (k10_pay1 (F := F)) := by
  subst hz; rfl

/-! ## The body obligation -/

/-- What the body is called with at point `t` (the obligation's precondition, the windows one by one), -/
noncomputable def bodyPre10 (V : Valuation τ sig (Elt F)) (ι : Ix) (c : Dev nD) (t : Fin cfg10.N) : sProp 𝕄 :=
  iprop((dat10 (Ix := Ix) (U := U) (Lvl := Lvl) V c).Φ t.castSucc ∗ (dat10 (Ix := Ix) (U := U) (Lvl := Lvl) V c).owesAt ι t.castSucc
    ∗ (∃ d, owns (c : Thread nD τ) (st10_0 t) fullShare ((dat10 (Ix := Ix) (U := U) (Lvl := Lvl) V c).before 0 t d))
    ∗ (∃ d, owns (c : Thread nD τ) (st10_1 t) fullShare ((dat10 (Ix := Ix) (U := U) (Lvl := Lvl) V c).before 1 t d))
    ∗ (∃ d, owns (c : Thread nD τ) (st10_2 t) fullShare ((dat10 (Ix := Ix) (U := U) (Lvl := Lvl) V c).before 2 t d)))

/-- and what it returns. -/
noncomputable def bodyPost10 (V : Valuation τ sig (Elt F)) (ι : Ix) (c : Dev nD) (t : Fin cfg10.N) : sProp 𝕄 :=
  iprop((dat10 (Ix := Ix) (U := U) (Lvl := Lvl) V c).Φ t.succ ∗ (dat10 (Ix := Ix) (U := U) (Lvl := Lvl) V c).owesAt ι t.succ
    ∗ (dat10 (Ix := Ix) (U := U) (Lvl := Lvl) V c).leaves 0 t ∗ (dat10 (Ix := Ix) (U := U) (Lvl := Lvl) V c).leaves 1 t ∗ (dat10 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body10 (V : Valuation τ sig (Elt F)) (𝒱₀ : Variants) (ι : Ix) (c : Dev nD) (t : Fin cfg10.N) :
    bodyPre10 (U := U) (Lvl := Lvl) V ι c t
      ⊢ wp frame (wpE (defs₀ (F := F)) 𝒱₀ c none) Set.univ (bodyAt10 t) (fun _ => bodyPost10 (U := U) (Lvl := Lvl) V ι c t) := by
  unfold bodyPre10 bodyPost10 bodyAt10
  simp only [before10_0, before10_1]
  rw [show (dat10 (Ix := Ix) (U := U) (Lvl := Lvl) V c).owesAt ι t.succ = (dat10 (Ix := Ix) (U := U) (Lvl := Lvl) V c).owesAt ι t.castSucc from rfl]
  rw [Phi10_at_succ, Phi10_succ, Phi10_castSucc, leaves10_0, leaves10_1]
  have hN : t.val < 64 := lt_of_lt_of_eq t.isLt N_10
  by_cases hz : t.val = 0
  · have hc1 : cond10_1 (grid10.coords t) := (hcond10_1 t).mpr hz
    have hc2 : ¬cond10_2 (grid10.coords t) := fun h => by have := (hcond10_2 t).mp h; omega
    rw [leaves10_2_idle V c t (by omega), Phi10_zero V c _ _ hz, scopedRest10_split, acc10_first V c _ _ hz, step10_at]
    iintro ⟨⟨⟨%f, Hs⟩, Hr⟩, Ho, ⟨%d0, H0⟩, ⟨%d1, H1⟩, H2⟩
    iapply (run10_A 𝒱₀ c (grid10.coords t) _ _ _ _ _ _ _ _ hc1 hc2 (iblk10 V c 0 t) (iblk10 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond10_1 (grid10.coords t) := fun h => hz ((hcond10_1 t).mp h)
    rw [Phi10_pos V c _ _ hz, acc10_pos V c _ _ hz, step10_at]
    by_cases hl : t.val = 63
    · have hc2 : cond10_2 (grid10.coords t) := (hcond10_2 t).mpr hl
      rw [leaves10_2_last V c t hl, acc10_pos V c _ _ hz, step10_at]
      iintro ⟨⟨Hs, Hr⟩, Ho, ⟨%d0, H0⟩, ⟨%d1, H1⟩, ⟨%d2, H2⟩⟩
      iapply (run10_C 𝒱₀ c (grid10.coords t) _ _ _ _ _ _ _ _ hc1 hc2 (iblk10 V c 0 t) (iblk10 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond10_2 (grid10.coords t) := fun h => hl ((hcond10_2 t).mp h)
      rw [leaves10_2_idle V c t hl]
      iintro ⟨⟨Hs, Hr⟩, Ho, ⟨%d0, H0⟩, ⟨%d1, H1⟩, H2⟩
      iapply (run10_B 𝒱₀ c (grid10.coords t) _ _ _ _ _ _ _ _ hc1 hc2 (iblk10 V c 0 t) (iblk10 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body10 (V : Valuation τ sig (Elt F)) (𝒱₀ : Variants) (ι : Ix) :
    ∀ c : Dev nD, BodyObligationLoose (dat10 (Ix := Ix) (U := U) (Lvl := Lvl) V c) (defs₀ (F := F)) 𝒱₀ ι Set.univ := fun c t => by
  rw [bigSep_W10, bigSep_W10]
  exact sound_body10 (U := U) (Lvl := Lvl) V 𝒱₀ ι c t

end Cert.KernelIdeal.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg10

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (10 : Fin 24)
/-- Its configuration, its windows but for their index maps, the number of its windows. -/
abbrev cfgK : Pipeline.Cfg sig Λ₀ := cfg10
abbrev specK : Fin 3 → Pipeline.WinSpec sig cfgK.grid.rank := spec10
abbrev nW : Nat := 3
/-- Its output window and the buffer behind it. -/
abbrev oK : Fin nW := 2
abbrev outK : Ref sig .tc := main_v367
theorem winK : Pipeline.WinFacts₀ specK := winFacts₀10
theorem block_posK : ∀ w : Fin nW, 0 < (specK w).block.numel := block_pos10
theorem arr_wholeK : ∀ w : Fin nW, (specK w).arr.IsWhole := arr_whole10
theorem stage_wholeK : ∀ (w : Fin nW) (s : Fin (specK w).nbuf), ((specK w).stage s).IsWhole := stage_whole10

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.KernelIdeal.Hand.Reg10

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R10' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (10 : Fin 24) c = dat10 (V59 m outs c) c)
    (hbody : ∀ c : Dev nD, Pipeline.BodyObligationLoose (dat10 (Ix := Ix) (U := U) (Lvl := Lvl) (V59 m outs c) c) (defs₀ (F := F)) 𝒱₀ ι Set.univ) :
    RegionSeg (pcfgs (F := F)) GenP.adm pdats ι defs₀ 𝒱₀ L lv (10 : Fin 24) :=
  Reg10.RK 𝒱₀ L lv ι pdats (fun c => V59 m outs c)
    (fun c => by rw [hp c]; exact hbody c)
    (fun c w => by rw [hp c]; exact A_eq10 (V59 m outs c) c w)
    (fun c => by rw [hp c]; exact PosShare.mem_left_op_right fullShare)
    (fun c t => by rw [hp c]; rfl)
    (fun c => by rw [hp c]; rfl)
    (fun c => by rw [hp c, Phi_first10])
    (fun c => by rw [hp c]; exact Phi_last10 (V59 m outs c) c)

/-- It is entered from the thread state before the region's item, -/
theorem hpre10' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (10 : Fin 24) c = dat10 (V59 m outs c) c)
    (hbody : ∀ c : Dev nD, Pipeline.BodyObligationLoose (dat10 (Ix := Ix) (U := U) (Lvl := Lvl) (V59 m outs c) c) (defs₀ (F := F)) 𝒱₀ ι Set.univ)
    (c : Dev nD) :
    iprop(StableHlo.held (c : Thread nD τ) (Pipeline.ucRefs τ sig) (V59 m outs c) ∗ (R c : sProp 𝕄))
      ⊢ (R10' m outs 𝒱₀ L lv ι pdats hp hbody).pre c := .rfl

/-- and left at the thread state after it. -/
theorem hpost10' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (10 : Fin 24) c = dat10 (V59 m outs c) c)
    (hbody : ∀ c : Dev nD, Pipeline.BodyObligationLoose (dat10 (Ix := Ix) (U := U) (Lvl := Lvl) (V59 m outs c) c) (defs₀ (F := F)) 𝒱₀ ι Set.univ)
    (houts : ∀ c : Dev nD, outs 60 main_v367 c = (dat10 (Ix := Ix) (U := U) (Lvl := Lvl) (V59 m outs c) c).arrAt 2 64)
    (c : Dev nD) :
    (R10' m outs 𝒱₀ L lv ι pdats hp hbody).post c
      ⊢ iprop(StableHlo.held (c : Thread nD τ) (Pipeline.ucRefs τ sig) (V60 m outs c) ∗ (R c : sProp 𝕄)) := by
  have h : (pdats (10 : Fin 24) c).arrAt Reg10.oK Reg10.cfgK.N = outs 60 main_v367 c := by
    rw [hp c]; exact (houts c).symm
  show iprop(StableHlo.held (c : Thread nD τ) (Pipeline.ucRefs τ sig)
      (Function.update (V59 m outs c) (Proc.devRef .tc main_v367) ((pdats (10 : Fin 24) c).arrAt Reg10.oK Reg10.cfgK.N))
        ∗ (R c : sProp 𝕄)) ⊢ _
  rw [h]

end Cert.KernelIdeal.Hand
-- ==== Proof.Rg11.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.ApplyLib
import proofs.«169706_j68856915690108_1_alg».proof.Proof.Shared
import proofs.«169706_j68856915690108_1_alg».proof.Proof.RegionsKI

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k11_pay1 x_i` and `step t a = k11_pay2 h_i h_j threshold x_j a`, the printed payloads of the two stores.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk11 (V : Valuation τ sig (Elt F)) (c : Dev nD) (w : Fin cfg11.W) (t : Fin cfg11.N) :
    ((cfg11.win w).xblock (cfg11.grid.coords t)).Idx → Elt F (cfg11.win w).elt :=
  ((cfg11.win w).blk t).view.read (Elt F)
    (V (Proc.devRef .tc (Pipeline.arrRef spec11 w)) : Buf (Elt F) ((cfg11.win w).arr.view.loc (c.tc : Thread nD τ)))

/-- What the accumulator is reset to at a point whose second coordinate is 0: 1.0 times the block of `x` window 3
    stages there (the printed payload of the first store into the scratch buffer). -/
noncomputable def init11 (V : Valuation τ sig (Elt F)) (c : Dev nD) (n : ℕ) (hn : n < cfg11.N) : Vec F S512x256 .f32 :=
  k11_pay1 (iblk11 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step11 (V : Valuation τ sig (Elt F)) (c : Dev nD) (n : ℕ) (hn : n < cfg11.N) (a : Vec F S512x256 .f32) : Vec F S512x256 .f32 :=
  k11_pay2 (iblk11 V c 1 ⟨n, hn⟩) (iblk11 V c 2 ⟨n, hn⟩) (iblk11 V c 0 ⟨n, hn⟩) (iblk11 V c 4 ⟨n, hn⟩) a

/-- What the accumulator holds after point `n`: reset and stepped at the points ≡ 0 (mod 8), stepped from what the
    point before left at the others. -/
noncomputable def acc11 (V : Valuation τ sig (Elt F)) (c : Dev nD) : (n : ℕ) → n < cfg11.N → Vec F S512x256 .f32
  | 0, hn => step11 V c 0 hn (init11 V c 0 hn)
  | n + 1, hn =>
    if (n + 1) % 8 = 0 then step11 V c (n + 1) hn (init11 V c (n + 1) hn)
    else step11 V c (n + 1) hn (acc11 V c n (Nat.lt_of_succ_lt hn))

/-- After a point ≡ 0 (mod 8): the reset value, stepped once. -/
theorem acc11_reset (V : Valuation τ sig (Elt F)) (c : Dev nD) (n : ℕ) (hn : n < cfg11.N) (h0 : n % 8 = 0) :
    acc11 V c n hn = step11 V c n hn (init11 V c n hn) := by
  cases n with
  | zero => rfl
  | succ n => exact if_pos h0

/-- After any other point: that point's step on what the point before left. -/
theorem acc11_step (V : Valuation τ sig (Elt F)) (c : Dev nD) (n : ℕ) (hn : n < cfg11.N) (h0 : ¬n % 8 = 0) :
    acc11 V c n hn = step11 V c n hn (acc11 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi11 (V : Valuation τ sig (Elt F)) (c : Dev nD) : (n : ℕ) → n ≤ cfg11.N → sProp 𝕄
  | 0, _ => Pipeline.scopedRest (Ix := Ix) (Name := ℕ) (U := U) (Lvl := Lvl) (Val := Elt F) spec11 c
  | n + 1, hn => iprop(owns (c : Thread nD τ) (Memref.whole cc11_scratch0) fullShare (acc11 V c n hn)
      ∗ Pipeline.scopedRestBut (Ix := Ix) (Name := ℕ) (U := U) (Lvl := Lvl) (Val := Elt F) spec11 c [cc11_scratch0])

theorem Phi11_zero (V : Valuation τ sig (Elt F)) (c : Dev nD) (n : ℕ) (h : n ≤ cfg11.N) (hz : n = 0) :
    (Phi11 V c n h : sProp 𝕄) = Pipeline.scopedRest (Ix := Ix) (Name := ℕ) (U := U) (Lvl := Lvl) (Val := Elt F) spec11 c := by
  subst hz; rfl

theorem Phi11_succ (V : Valuation τ sig (Elt F)) (c : Dev nD) (n : ℕ) (hn : n < cfg11.N) :
    (Phi11 V c (n + 1) hn : sProp 𝕄) = iprop(owns (c : Thread nD τ) (Memref.whole cc11_scratch0) fullShare (acc11 V c n hn)
      ∗ Pipeline.scopedRestBut (Ix := Ix) (Name := ℕ) (U := U) (Lvl := Lvl) (Val := Elt F) spec11 c [cc11_scratch0]) := rfl

theorem Phi11_pos (V : Valuation τ sig (Elt F)) (c : Dev nD) (n : ℕ) (h : n ≤ cfg11.N) (hz : n ≠ 0) :
    (Phi11 V c n h : sProp 𝕄) = iprop(owns (c : Thread nD τ) (Memref.whole cc11_scratch0) fullShare (acc11 V c (n - 1) (by omega))
      ∗ Pipeline.scopedRestBut (Ix := Ix) (Name := ℕ) (U := U) (Lvl := Lvl) (Val := Elt F) spec11 c [cc11_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi11`; the
    threshold's array held whole, each of the two arrays that two input windows read held half and half; nothing owed. -/
noncomputable def dat11 (V : Valuation τ sig (Elt F)) (c : Dev nD) : Dat τ (Elt F) Ix ℕ U Lvl cfg11 c where
  A w := V (Proc.devRef .tc (Pipeline.arrRef spec11 w))
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => acc11 V c t.val t.isLt
  Φ t := Phi11 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq11 (V : Valuation τ sig (Elt F)) (c : Dev nD) (w : Fin cfg11.W) :
    (dat11 (Ix := Ix) (U := U) (Lvl := Lvl) V c).A w = V (Proc.devRef .tc (Pipeline.arrRef spec11 w)) := by
  dsimp only [dat11]

/-- What the body leaves, window by window. -/
theorem after11_0 (V : Valuation τ sig (Elt F)) (c : Dev nD) (t : Fin cfg11.N) :
    (dat11 (Ix := Ix) (U := U) (Lvl := Lvl) V c).after 0 t = iblk11 V c 0 t := by dsimp only [dat11]
theorem after11_1 (V : Valuation τ sig (Elt F)) (c : Dev nD) (t : Fin cfg11.N) :
    (dat11 (Ix := Ix) (U := U) (Lvl := Lvl) V c).after 1 t = iblk11 V c 1 t := by dsimp only [dat11]
theorem after11_2 (V : Valuation τ sig (Elt F)) (c : Dev nD) (t : Fin cfg11.N) :
    (dat11 (Ix := Ix) (U := U) (Lvl := Lvl) V c).after 2 t = iblk11 V c 2 t := by dsimp only [dat11]
theorem after11_3 (V : Valuation τ sig (Elt F)) (c : Dev nD) (t : Fin cfg11.N) :
    (dat11 (Ix := Ix) (U := U) (Lvl := Lvl) V c).after 3 t = iblk11 V c 3 t := by dsimp only [dat11]
theorem after11_4 (V : Valuation τ sig (Elt F)) (c : Dev nD) (t : Fin cfg11.N) :
    (dat11 (Ix := Ix) (U := U) (Lvl := Lvl) V c).after 4 t = iblk11 V c 4 t := by dsimp only [dat11]
theorem after11_5 (V : Valuation τ sig (Elt F)) (c : Dev nD) (t : Fin cfg11.N) :
    (dat11 (Ix := Ix) (U := U) (Lvl := Lvl) V c).after 5 t = acc11 V c t.val t.isLt := by dsimp only [dat11]

/-- The shares the input arrays are held at. -/
theorem q11_0 (V : Valuation τ sig (Elt F)) (c : Dev nD) : (dat11 (Ix := Ix) (U := U) (Lvl := Lvl) V c).q 0 = fullShare := by dsimp only [dat11]
theorem q11_1 (V : Valuation τ sig (Elt F)) (c : Dev nD) : (dat11 (Ix := Ix) (U := U) (Lvl := Lvl) V c).q 1 = fullShare.left := by dsimp only [dat11]
theorem q11_2 (V : Valuation τ sig (Elt F)) (c : Dev nD) : (dat11 (Ix := Ix) (U := U) (Lvl := Lvl) V c).q 2 = fullShare.right := by dsimp only [dat11]
theorem q11_3 (V : Valuation τ sig (Elt F)) (c : Dev nD) : (dat11 (Ix := Ix) (U := U) (Lvl := Lvl) V c).q 3 = fullShare.left := by dsimp only [dat11]
theorem q11_4 (V : Valuation τ sig (Elt F)) (c : Dev nD) : (dat11 (Ix := Ix) (U := U) (Lvl := Lvl) V c).q 4 = fullShare.right := by dsimp only [dat11]

/-- The invariant at a point's start, and at its end. -/
theorem Phi11_castSucc (V : Valuation τ sig (Elt F)) (c : Dev nD) (t : Fin cfg11.N) :
    (dat11 (Ix := Ix) (U := U) (Lvl := Lvl) V c).Φ t.castSucc = Phi11 V c t.val (Nat.le_of_lt t.isLt) := by
  dsimp only [dat11]; simp only [Fin.coe_castSucc]

theorem Phi11_at_succ (V : Valuation τ sig (Elt F)) (c : Dev nD) (t : Fin cfg11.N) :
    (dat11 (Ix := Ix) (U := U) (Lvl := Lvl) V c).Φ t.succ = Phi11 V c (t.val + 1) t.isLt := rfl

/-- Before the first point the invariant is the launch's scoped rest. -/
theorem Phi_first11 (V : Valuation τ sig (Elt F)) (c : Dev nD) :
    (dat11 (Ix := Ix) (U := U) (Lvl := Lvl) V c).Φ 0
      = Pipeline.scopedRest (Ix := Ix) (Name := ℕ) (U := U) (Lvl := Lvl) (Val := Elt F) spec11 c := rfl

/-- After the last point the invariant gives the scoped rest back: the accumulator's contents are forgotten. -/
theorem Phi_last11 (V : Valuation τ sig (Elt F)) (c : Dev nD) :
    (dat11 (Ix := Ix) (U := U) (Lvl := Lvl) V c).Φ (Fin.last cfg11.N)
      ⊢ Pipeline.scopedRest (Ix := Ix) (Name := ℕ) (U := U) (Lvl := Lvl) (Val := Elt F) spec11 c := by
  have hN : cfg11.N = 64 := N_11
  rw [show (dat11 (Ix := Ix) (U := U) (Lvl := Lvl) V c).Φ (Fin.last cfg11.N) = Phi11 V c (Fin.last cfg11.N).val (Nat.le_of_lt_succ (Fin.last cfg11.N).isLt) from rfl,
    Phi11_pos V c _ _ (by rw [Fin.val_last]; omega), scopedRest11_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 11) c := dat11 V c

end Cert.KernelIdeal.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k11_pay2 hI hJ mn xJ s` — `s` plus the 0/1 mask of (hI · hJᵀ > mn) times `xJ` — and the value
  the accumulator is reset to is `k11_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond11_0 (i : grid11.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond11_1 (i : grid11.Coords) : Prop := k11_cond2 i = 1#1

/-! ## The three runs -/

/-- At a point whose second coordinate is 0 (and not 7): the accumulator, at anything, is reset to `k11_pay1 xI` and
    stepped once; every window's buffer is handed back as found. -/
theorem run11_first (𝒱₀ : Variants) (c : Dev nD) (i : grid11.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond11_0 i) (hc1 : ¬cond11_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k11_pay2 hI hJ mn xJ (k11_pay1 xI))) -∗ K ⟨⟩))
      ⊢ wp frame (wpE (defs₀ (F := F)) 𝒱₀ c none) E (cc11__apply_kernel i arg2 harg2 arg3 harg3 arg4 harg4 arg5 harg5 arg6 harg6 arg7 harg7 arg8 harg8) K := by
  simp only [cc11__apply_kernel_eq_skeleton]; unfold cc11__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run11_mid (𝒱₀ : Variants) (c : Dev nD) (i : grid11.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond11_0 i) (hc1 : ¬cond11_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k11_pay2 hI hJ mn xJ s)) -∗ K ⟨⟩))
      ⊢ wp frame (wpE (defs₀ (F := F)) 𝒱₀ c none) E (cc11__apply_kernel i arg2 harg2 arg3 harg3 arg4 harg4 arg5 harg5 arg6 harg6 arg7 harg7 arg8 harg8) K := by
  simp only [cc11__apply_kernel_eq_skeleton]; unfold cc11__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run11_last (𝒱₀ : Variants) (c : Dev nD) (i : grid11.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond11_0 i) (hc1 : cond11_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k11_pay2 hI hJ mn xJ s)
        ∗ owns (c : Thread nD τ) arg8 fullShare (k11_pay2 hI hJ mn xJ s)) -∗ K ⟨⟩))
      ⊢ wp frame (wpE (defs₀ (F := F)) 𝒱₀ c none) E (cc11__apply_kernel i arg2 harg2 arg3 harg3 arg4 harg4 arg5 harg5 arg6 harg6 arg7 harg7 arg8 harg8) K := by
  simp only [cc11__apply_kernel_eq_skeleton]; unfold cc11__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.KernelIdeal.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc11`. The three control cases are
  decided over the grid by the point's residue mod 8, and in each the kernel's run (ApplyRun.lean) applies.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond11_0 : ∀ t : Fin cfg11.N, cond11_0 (grid11.coords t) ↔ t.val % 8 = 0 :=
  (by decide +kernel : ∀ t : Fin grid11.N, cond11_0 (grid11.coords t) ↔ t.val % 8 = 0)
/-- It is stored into the output block at the points ≡ 7 (mod 8). -/
theorem hcond11_1 : ∀ t : Fin cfg11.N, cond11_1 (grid11.coords t) ↔ t.val % 8 = 7 :=
  (by decide +kernel : ∀ t : Fin grid11.N, cond11_1 (grid11.coords t) ↔ t.val % 8 = 7)
/-- The output window is idle at every other point, -/
theorem idleAt11_5 : ∀ t : Fin cfg11.N, ¬t.val % 8 = 7 → cfg11.idle 5 (grid11.coords t) = true :=
  (by decide +kernel : ∀ t : Fin grid11.N, ¬t.val % 8 = 7 → cfg11.idle 5 (grid11.coords t) = true)
/-- live at those, -/
theorem liveAt11_5 : ∀ t : Fin cfg11.N, t.val % 8 = 7 → cfg11.idle 5 (grid11.coords t) = false :=
  (by decide +kernel : ∀ t : Fin grid11.N, t.val % 8 = 7 → cfg11.idle 5 (grid11.coords t) = false)
/-- and not written back where it is idle. -/
theorem noFlush11_5 (t : Fin cfg11.N) (h : ¬t.val % 8 = 7) : (cfg11.win 5).flush t = false := by
  cases hf : (cfg11.win 5).flush t with
  | false => rfl
  | true => exact absurd ((flush11_5 t).mp hf) h

/-! ## What the body finds in the inputs' buffers and leaves in every buffer -/

/-- Each input's current staging buffer holds its block at every point, fetched there or not. -/
theorem before11_0 (V : Valuation τ sig (Elt F)) (c : Dev nD) (t : Fin cfg11.N) (d) : (dat11 (Ix := Ix) (U := U) (Lvl := Lvl) V c).before 0 t d = iblk11 V c 0 t :=
  ((dat11 (Ix := Ix) (U := U) (Lvl := Lvl) V c).before_in_eq_fetched 0 rfl (fun _ => rfl) (fun _ _ _ => rfl)
      (fun t => by rw [after11_0]; unfold Dat.blockOf iblk11; rw [A_eq11]; try rfl) t d).trans
    (by unfold Dat.fetched Dat.blockOf iblk11; rw [A_eq11]; try rfl)
theorem before11_1 (V : Valuation τ sig (Elt F)) (c : Dev nD) (t : Fin cfg11.N) (d) : (dat11 (Ix := Ix) (U := U) (Lvl := Lvl) V c).before 1 t d = iblk11 V c 1 t :=
  ((dat11 (Ix := Ix) (U := U) (Lvl := Lvl) V c).before_in_eq_fetched 1 rfl (fun _ => rfl) (fun _ _ _ => rfl)
      (fun t => by rw [after11_1]; unfold Dat.blockOf iblk11; rw [A_eq11]; try rfl) t d).trans
    (by unfold Dat.fetched Dat.blockOf iblk11; rw [A_eq11]; try rfl)
theorem before11_2 (V : Valuation τ sig (Elt F)) (c : Dev nD) (t : Fin cfg11.N) (d) : (dat11 (Ix := Ix) (U := U) (Lvl := Lvl) V c).before 2 t d = iblk11 V c 2 t :=
  ((dat11 (Ix := Ix) (U := U) (Lvl := Lvl) V c).before_in_eq_fetched 2 rfl (fun _ => rfl) (fun _ _ _ => rfl)
      (fun t => by rw [after11_2]; unfold Dat.blockOf iblk11; rw [A_eq11]; try rfl) t d).trans
    (by unfold Dat.fetched Dat.blockOf iblk11; rw [A_eq11]; try rfl)
theorem before11_3 (V : Valuation τ sig (Elt F)) (c : Dev nD) (t : Fin cfg11.N) (d) : (dat11 (Ix := Ix) (U := U) (Lvl := Lvl) V c).before 3 t d = iblk11 V c 3 t :=
  ((dat11 (Ix := Ix) (U := U) (Lvl := Lvl) V c).before_in_eq_fetched 3 rfl (fun _ => rfl) (fun _ _ _ => rfl)
      (fun t => by rw [after11_3]; unfold Dat.blockOf iblk11; rw [A_eq11]; try rfl) t d).trans
    (by unfold Dat.fetched Dat.blockOf iblk11; rw [A_eq11]; try rfl)
theorem before11_4 (V : Valuation τ sig (Elt F)) (c : Dev nD) (t : Fin cfg11.N) (d) : (dat11 (Ix := Ix) (U := U) (Lvl := Lvl) V c).before 4 t d = iblk11 V c 4 t :=
  ((dat11 (Ix := Ix) (U := U) (Lvl := Lvl) V c).before_in_eq_fetched 4 rfl (fun _ => rfl) (fun _ _ _ => rfl)
      (fun t => by rw [after11_4]; unfold Dat.blockOf iblk11; rw [A_eq11]; try rfl) t d).trans
    (by unfold Dat.fetched Dat.blockOf iblk11; rw [A_eq11]; try rfl)

/-! ## The body obligation, at a generic point -/

/-- What the body is called with at point `t` (the obligation's precondition, the windows one by one), -/
noncomputable def bodyPre11 (V : Valuation τ sig (Elt F)) (c : Dev nD) (ι : Ix) (t : Fin cfg11.N) : sProp 𝕄 :=
  iprop((dat11 (Ix := Ix) (U := U) (Lvl := Lvl) V c).Φ t.castSucc ∗ (dat11 (Ix := Ix) (U := U) (Lvl := Lvl) V c).owesAt ι t.castSucc
    ∗ (∃ d, owns (c : Thread nD τ) (st11_0 t) fullShare ((dat11 (Ix := Ix) (U := U) (Lvl := Lvl) V c).before 0 t d))
    ∗ (∃ d, owns (c : Thread nD τ) (st11_1 t) fullShare ((dat11 (Ix := Ix) (U := U) (Lvl := Lvl) V c).before 1 t d))
    ∗ (∃ d, owns (c : Thread nD τ) (st11_2 t) fullShare ((dat11 (Ix := Ix) (U := U) (Lvl := Lvl) V c).before 2 t d))
    ∗ (∃ d, owns (c : Thread nD τ) (st11_3 t) fullShare ((dat11 (Ix := Ix) (U := U) (Lvl := Lvl) V c).before 3 t d))
    ∗ (∃ d, owns (c : Thread nD τ) (st11_4 t) fullShare ((dat11 (Ix := Ix) (U := U) (Lvl := Lvl) V c).before 4 t d))
    ∗ (∃ d, owns (c : Thread nD τ) (st11_5 t) fullShare ((dat11 (Ix := Ix) (U := U) (Lvl := Lvl) V c).before 5 t d)))

/-- and what it returns. -/
noncomputable def bodyPost11 (V : Valuation τ sig (Elt F)) (c : Dev nD) (ι : Ix) (t : Fin cfg11.N) : sProp 𝕄 :=
  iprop((dat11 (Ix := Ix) (U := U) (Lvl := Lvl) V c).Φ t.succ ∗ (dat11 (Ix := Ix) (U := U) (Lvl := Lvl) V c).owesAt ι t.succ
    ∗ (dat11 (Ix := Ix) (U := U) (Lvl := Lvl) V c).leaves 0 t ∗ (dat11 (Ix := Ix) (U := U) (Lvl := Lvl) V c).leaves 1 t ∗ (dat11 (Ix := Ix) (U := U) (Lvl := Lvl) V c).leaves 2 t
    ∗ (dat11 (Ix := Ix) (U := U) (Lvl := Lvl) V c).leaves 3 t ∗ (dat11 (Ix := Ix) (U := U) (Lvl := Lvl) V c).leaves 4 t ∗ (dat11 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body11 (𝒱₀ : Variants) (ι : Ix) (V : Valuation τ sig (Elt F)) (c : Dev nD) (t : Fin cfg11.N) :
    bodyPre11 (Ix := Ix) (U := U) (Lvl := Lvl) V c ι t ⊢ wp frame (wpE (defs₀ (F := F)) 𝒱₀ c none) Set.univ (bodyAt11 t) (fun _ => bodyPost11 (Ix := Ix) (U := U) (Lvl := Lvl) V c ι t) := by
  unfold bodyPre11 bodyPost11 bodyAt11
  simp only [before11_0, before11_1, before11_2, before11_3, before11_4]
  rw [show (dat11 (Ix := Ix) (U := U) (Lvl := Lvl) V c).owesAt ι t.succ = (dat11 (Ix := Ix) (U := U) (Lvl := Lvl) V c).owesAt ι t.castSucc from rfl]
  rw [Phi11_at_succ, Phi11_succ, Phi11_castSucc]
  rw [leaves_live (dat11 (Ix := Ix) (U := U) (Lvl := Lvl) V c) 0 t rfl rfl, leaves_live (dat11 (Ix := Ix) (U := U) (Lvl := Lvl) V c) 1 t rfl rfl, leaves_live (dat11 (Ix := Ix) (U := U) (Lvl := Lvl) V c) 2 t rfl rfl,
    leaves_live (dat11 (Ix := Ix) (U := U) (Lvl := Lvl) V c) 3 t rfl rfl, leaves_live (dat11 (Ix := Ix) (U := U) (Lvl := Lvl) V c) 4 t rfl rfl, after11_0, after11_1, after11_2, after11_3, after11_4]
  have hN : t.val < 64 := lt_of_lt_of_eq t.isLt (show cfg11.N = 64 from N_11)
  by_cases h0 : t.val % 8 = 0
  · have h7 : ¬t.val % 8 = 7 := by omega
    rw [Dat.leaves_idle (dat11 (Ix := Ix) (U := U) (Lvl := Lvl) V c) 5 t (idleAt11_5 t h7) (noFlush11_5 t h7)]
    rw [acc11_reset V c t.val t.isLt h0]
    unfold step11 init11
    by_cases hz : t.val = 0
    · rw [Phi11_zero V c _ _ hz, scopedRest11_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run11_first 𝒱₀ c (grid11.coords t) _ _ _ _ _ _ _ _ _ _ _ _ _ _ ((hcond11_0 t).mpr h0) (fun h => h7 ((hcond11_1 t).mp h)) (iblk11 V c 0 t) (iblk11 V c 1 t) (iblk11 V c 2 t) (iblk11 V c 3 t) (iblk11 V c 4 t) ((dat11 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi11_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run11_first 𝒱₀ c (grid11.coords t) _ _ _ _ _ _ _ _ _ _ _ _ _ _ ((hcond11_0 t).mpr h0) (fun h => h7 ((hcond11_1 t).mp h)) (iblk11 V c 0 t) (iblk11 V c 1 t) (iblk11 V c 2 t) (iblk11 V c 3 t) (iblk11 V c 4 t) ((dat11 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc11_step V c t.val t.isLt h0, Phi11_pos V c _ _ hz]
    unfold step11
    by_cases h7 : t.val % 8 = 7
    · rw [leaves_live (dat11 (Ix := Ix) (U := U) (Lvl := Lvl) V c) 5 t (liveAt11_5 t h7) rfl, after11_5, acc11_step V c t.val t.isLt h0]
      unfold step11
      iintro ⟨⟨HS, Hr⟩, Ho, ⟨%d0, H0⟩, ⟨%d1, H1⟩, ⟨%d2, H2⟩, ⟨%d3, H3⟩, ⟨%d4, H4⟩, ⟨%d5, H5⟩⟩
      iapply (run11_last 𝒱₀ c (grid11.coords t) _ _ _ _ _ _ _ _ _ _ _ _ _ _ (fun h => h0 ((hcond11_0 t).mp h)) ((hcond11_1 t).mpr h7) (iblk11 V c 0 t) (iblk11 V c 1 t) (iblk11 V c 2 t) (iblk11 V c 3 t) (iblk11 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat11 (Ix := Ix) (U := U) (Lvl := Lvl) V c) 5 t (idleAt11_5 t h7) (noFlush11_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run11_mid 𝒱₀ c (grid11.coords t) _ _ _ _ _ _ _ _ _ _ _ _ _ _ (fun h => h0 ((hcond11_0 t).mp h)) (fun h => h7 ((hcond11_1 t).mp h)) (iblk11 V c 0 t) (iblk11 V c 1 t) (iblk11 V c 2 t) (iblk11 V c 3 t) (iblk11 V c 4 t) ((dat11 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation11 (𝒱₀ : Variants) (ι : Ix) (V : Valuation τ sig (Elt F)) (c : Dev nD) :
    BodyObligationLoose (dat11 (Ix := Ix) (U := U) (Lvl := Lvl) V c) (defs₀ (F := F)) 𝒱₀ ι Set.univ := fun t => by
  rw [bigSep_W11, bigSep_W11]
  exact sound_body11 𝒱₀ ι V c t

/-- The same at the type the program's family of configurations gives pipeline 1, on every core. -/
theorem body11 (𝒱₀ : Variants) (ι : Ix) (V : Valuation τ sig (Elt F)) :
    ∀ c : Dev nD, BodyObligationLoose (cfg := cfgs 11) (dat11 (Ix := Ix) (U := U) (Lvl := Lvl) V c) (defs₀ (F := F)) 𝒱₀ ι Set.univ :=
  fun c => body_obligation11 𝒱₀ ι V c

end Cert.KernelIdeal.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg11

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (11 : Fin 24)
/-- Its configuration, its windows but for their index maps, the number of its windows. -/
abbrev cfgK : Pipeline.Cfg sig Λ₀ := cfg11
abbrev specK : Fin 6 → Pipeline.WinSpec sig cfgK.grid.rank := spec11
abbrev nW : Nat := 6
/-- Its output window and the buffer behind it. -/
abbrev oK : Fin nW := 5
abbrev outK : Ref sig .tc := main_v370
theorem winK : Pipeline.WinFacts₀ specK := winFacts₀11
theorem block_posK : ∀ w : Fin nW, 0 < (specK w).block.numel := block_pos11
theorem arr_wholeK : ∀ w : Fin nW, (specK w).arr.IsWhole := arr_whole11
theorem stage_wholeK : ∀ (w : Fin nW) (s : Fin (specK w).nbuf), ((specK w).stage s).IsWhole := stage_whole11

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.KernelIdeal.Hand.Reg11

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R11' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (11 : Fin 24) c = dat11 (V61 m outs c) c)
    (hbody : ∀ c : Dev nD, Pipeline.BodyObligationLoose (dat11 (Ix := Ix) (U := U) (Lvl := Lvl) (V61 m outs c) c) (defs₀ (F := F)) 𝒱₀ ι Set.univ) :
    RegionSeg (pcfgs (F := F)) GenP.adm pdats ι defs₀ 𝒱₀ L lv (11 : Fin 24) :=
  Reg11.RK 𝒱₀ L lv ι pdats (fun c => V61 m outs c)
    (fun c => by rw [hp c]; exact hbody c)
    (fun c w => by rw [hp c]; exact A_eq11 (V61 m outs c) c w)
    (fun c => by rw [hp c]; rw [q11_1, q11_2]; exact PosShare.mem_left_op_right fullShare)
    (fun c => by rw [hp c]; rw [q11_3, q11_4]; exact PosShare.mem_left_op_right fullShare)
    (fun c => by rw [hp c]; exact q11_0 (V61 m outs c) c)
    (fun c t => by rw [hp c]; rfl)
    (fun c => by rw [hp c]; rfl)
    (fun c => by rw [hp c, Phi_first11])
    (fun c => by rw [hp c]; exact Phi_last11 (V61 m outs c) c)

/-- It is entered from the thread state before the region's item, -/
theorem hpre11' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (11 : Fin 24) c = dat11 (V61 m outs c) c)
    (hbody : ∀ c : Dev nD, Pipeline.BodyObligationLoose (dat11 (Ix := Ix) (U := U) (Lvl := Lvl) (V61 m outs c) c) (defs₀ (F := F)) 𝒱₀ ι Set.univ)
    (c : Dev nD) :
    iprop(StableHlo.held (c : Thread nD τ) (Pipeline.ucRefs τ sig) (V61 m outs c) ∗ (R c : sProp 𝕄))
      ⊢ (R11' m outs 𝒱₀ L lv ι pdats hp hbody).pre c := .rfl

/-- and left at the thread state after it. -/
theorem hpost11' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (11 : Fin 24) c = dat11 (V61 m outs c) c)
    (hbody : ∀ c : Dev nD, Pipeline.BodyObligationLoose (dat11 (Ix := Ix) (U := U) (Lvl := Lvl) (V61 m outs c) c) (defs₀ (F := F)) 𝒱₀ ι Set.univ)
    (houts : ∀ c : Dev nD, outs 62 main_v370 c = (dat11 (Ix := Ix) (U := U) (Lvl := Lvl) (V61 m outs c) c).arrAt 5 64)
    (c : Dev nD) :
    (R11' m outs 𝒱₀ L lv ι pdats hp hbody).post c
      ⊢ iprop(StableHlo.held (c : Thread nD τ) (Pipeline.ucRefs τ sig) (V62 m outs c) ∗ (R c : sProp 𝕄)) := by
  have h : (pdats (11 : Fin 24) c).arrAt Reg11.oK Reg11.cfgK.N = outs 62 main_v370 c := by
    rw [hp c]; exact (houts c).symm
  show iprop(StableHlo.held (c : Thread nD τ) (Pipeline.ucRefs τ sig)
      (Function.update (V61 m outs c) (Proc.devRef .tc main_v370) ((pdats (11 : Fin 24) c).arrAt Reg11.oK Reg11.cfgK.N))
        ∗ (R c : sProp 𝕄)) ⊢ _
  rw [h]

end Cert.KernelIdeal.Hand
-- ==== Proof.Rg12.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.SumLib
import Idealize.ShloMosaic.Lib.Tactic
import proofs.«169706_j68856915690108_1_alg».proof.Proof.Shared
import proofs.«169706_j68856915690108_1_alg».proof.Proof.RegionsKI

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k12_pay2)

  and only at the last point, 63, is that cell copied into the 1 × 1 output block, which the pipeline then writes back.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk12 (V : Valuation τ sig (Elt F)) (c : Dev nD) (w : Fin cfg12.W) (t : Fin cfg12.N) :
    ((cfg12.win w).xblock (cfg12.grid.coords t)).Idx → Elt F (cfg12.win w).elt :=
  ((cfg12.win w).blk t).view.read (Elt F)
    (V (Proc.devRef .tc (Pipeline.arrRef spec12 w)) : Buf (Elt F) ((cfg12.win w).arr.view.loc (c.tc : Thread nD τ)))

/-- One point's step on the scratch cell: the cell's contents `a` plus the sum of the tile made of the two blocks
    the point stages (the printed payload of the store into the scratch cell). -/
noncomputable def step12 (V : Valuation τ sig (Elt F)) (c : Dev nD) (n : ℕ) (hn : n < cfg12.N) (a : Vec F S1x1 .f32) : Vec F S1x1 .f32 :=
  k12_pay2 (iblk12 V c 0 ⟨n, hn⟩) (iblk12 V c 1 ⟨n, hn⟩) a

/-- What the scratch cell holds after point `n`: the steps of the points `0 … n` applied, first to last, to the
    zero the body stores at point 0. -/
noncomputable def acc12 (V : Valuation τ sig (Elt F)) (c : Dev nD) : (n : ℕ) → n < cfg12.N → Vec F S1x1 .f32
  | 0, hn => step12 V c 0 hn (k12_pay1 (F := F))
  | n + 1, hn => step12 V c (n + 1) hn (acc12 V c n (Nat.lt_of_succ_lt hn))

theorem acc12_zero (V : Valuation τ sig (Elt F)) (c : Dev nD) (hn : 0 < cfg12.N) :
    acc12 V c 0 hn = step12 V c 0 hn (k12_pay1 (F := F)) := rfl

theorem acc12_succ (V : Valuation τ sig (Elt F)) (c : Dev nD) (n : ℕ) (hn : n + 1 < cfg12.N) :
    acc12 V c (n + 1) hn = step12 V c (n + 1) hn (acc12 V c n (Nat.lt_of_succ_lt hn)) := rfl

/-- After a point that is not the first: the step of that point on what the point before left. -/
theorem acc12_pos (V : Valuation τ sig (Elt F)) (c : Dev nD) (n : ℕ) (hn : n < cfg12.N) (hz : n ≠ 0) :
    acc12 V c n hn = step12 V c n hn (acc12 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi12 (V : Valuation τ sig (Elt F)) (c : Dev nD) : (n : ℕ) → n ≤ cfg12.N → sProp 𝕄
  | 0, _ => Pipeline.scopedRest (Ix := Ix) (Name := ℕ) (U := U) (Lvl := Lvl) (Val := Elt F) spec12 c
  | n + 1, hn => iprop(owns (c : Thread nD τ) (Memref.whole cc12_scratch0) fullShare (acc12 V c n hn)
      ∗ Pipeline.scopedRestBut (Ix := Ix) (Name := ℕ) (U := U) (Lvl := Lvl) (Val := Elt F) spec12 c [cc12_scratch0])

theorem Phi12_zero (V : Valuation τ sig (Elt F)) (c : Dev nD) (n : ℕ) (h : n ≤ cfg12.N) (hz : n = 0) :
    (Phi12 V c n h : sProp 𝕄) = Pipeline.scopedRest (Ix := Ix) (Name := ℕ) (U := U) (Lvl := Lvl) (Val := Elt F) spec12 c := by
  subst hz; rfl

theorem Phi12_succ (V : Valuation τ sig (Elt F)) (c : Dev nD) (n : ℕ) (hn : n < cfg12.N) :
    (Phi12 V c (n + 1) hn : sProp 𝕄) = iprop(owns (c : Thread nD τ) (Memref.whole cc12_scratch0) fullShare (acc12 V c n hn)
      ∗ Pipeline.scopedRestBut (Ix := Ix) (Name := ℕ) (U := U) (Lvl := Lvl) (Val := Elt F) spec12 c [cc12_scratch0]) := rfl

theorem Phi12_pos (V : Valuation τ sig (Elt F)) (c : Dev nD) (n : ℕ) (h : n ≤ cfg12.N) (hz : n ≠ 0) :
    (Phi12 V c n h : sProp 𝕄) = iprop(owns (c : Thread nD τ) (Memref.whole cc12_scratch0) fullShare (acc12 V c (n - 1) (by omega))
      ∗ Pipeline.scopedRestBut (Ix := Ix) (Name := ℕ) (U := U) (Lvl := Lvl) (Val := Elt F) spec12 c [cc12_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi12`; the one
    array the two inputs read held half and half; nothing owed. -/
noncomputable def dat12 (V : Valuation τ sig (Elt F)) (c : Dev nD) : Dat τ (Elt F) Ix ℕ U Lvl cfg12 c where
  A w := V (Proc.devRef .tc (Pipeline.arrRef spec12 w))
  after w t := match w with
    | ⟨0, _⟩ => iblk12 V c 0 t
    | ⟨1, _⟩ => iblk12 V c 1 t
    | ⟨2, _⟩ => acc12 V c t.val t.isLt
  Φ t := Phi12 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq12 (V : Valuation τ sig (Elt F)) (c : Dev nD) (w : Fin cfg12.W) :
    (dat12 (Ix := Ix) (U := U) (Lvl := Lvl) V c).A w = V (Proc.devRef .tc (Pipeline.arrRef spec12 w)) := by
  dsimp only [dat12]

/-- What the body leaves, window by window. -/
theorem after12_0 (V : Valuation τ sig (Elt F)) (c : Dev nD) (t : Fin cfg12.N) :
    (dat12 (Ix := Ix) (U := U) (Lvl := Lvl) V c).after 0 t = iblk12 V c 0 t := by dsimp only [dat12]
theorem after12_1 (V : Valuation τ sig (Elt F)) (c : Dev nD) (t : Fin cfg12.N) :
    (dat12 (Ix := Ix) (U := U) (Lvl := Lvl) V c).after 1 t = iblk12 V c 1 t := by dsimp only [dat12]
theorem after12_2 (V : Valuation τ sig (Elt F)) (c : Dev nD) (t : Fin cfg12.N) :
    (dat12 (Ix := Ix) (U := U) (Lvl := Lvl) V c).after 2 t = acc12 V c t.val t.isLt := by dsimp only [dat12]

/-- The invariant at a point's start, and at its end. -/
theorem Phi12_castSucc (V : Valuation τ sig (Elt F)) (c : Dev nD) (t : Fin cfg12.N) :
    (dat12 (Ix := Ix) (U := U) (Lvl := Lvl) V c).Φ t.castSucc = Phi12 V c t.val (Nat.le_of_lt t.isLt) := by
  dsimp only [dat12]; simp only [Fin.coe_castSucc]

theorem Phi12_at_succ (V : Valuation τ sig (Elt F)) (c : Dev nD) (t : Fin cfg12.N) :
    (dat12 (Ix := Ix) (U := U) (Lvl := Lvl) V c).Φ t.succ = Phi12 V c (t.val + 1) t.isLt := rfl

/-- Before the first point the invariant is the launch's scoped rest. -/
theorem Phi_first12 (V : Valuation τ sig (Elt F)) (c : Dev nD) :
    (dat12 (Ix := Ix) (U := U) (Lvl := Lvl) V c).Φ 0
      = Pipeline.scopedRest (Ix := Ix) (Name := ℕ) (U := U) (Lvl := Lvl) (Val := Elt F) spec12 c := rfl

/-- After the last point the invariant gives the scoped rest back: the scratch cell's contents are forgotten. -/
theorem Phi_last12 (V : Valuation τ sig (Elt F)) (c : Dev nD) :
    (dat12 (Ix := Ix) (U := U) (Lvl := Lvl) V c).Φ (Fin.last cfg12.N)
      ⊢ Pipeline.scopedRest (Ix := Ix) (Name := ℕ) (U := U) (Lvl := Lvl) (Val := Elt F) spec12 c := by
  have hN : cfg12.N = 64 := N_12
  rw [show (dat12 (Ix := Ix) (U := U) (Lvl := Lvl) V c).Φ (Fin.last cfg12.N) = Phi12 V c (Fin.last cfg12.N).val (Nat.le_of_lt_succ (Fin.last cfg12.N).isLt) from rfl,
    Phi12_pos V c _ _ (by rw [Fin.val_last]; omega), scopedRest12_split, owns_whole]
  iintro ⟨Hs, Hr⟩
  isplitl [Hs]
  · iexists _; iexact Hs
  iexact Hr

example (V : Valuation τ sig (Elt F)) (c : Dev nD) : Dat τ (Elt F) Ix ℕ U Lvl (cfgs 12) c := dat12 V c

end Cert.KernelIdeal.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k12_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond12_1 (i : grid12.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond12_2 (i : grid12.Coords) : Prop := k12_cond2 i = 1#1

/-- The reset runs at the first point only, -/
theorem hcond12_1 : ∀ t : Fin cfg12.N, cond12_1 (grid12.coords t) ↔ t.val = 0 :=
  (by decide +kernel : ∀ t : Fin grid12.N, cond12_1 (grid12.coords t) ↔ t.val = 0)
/-- the copy at the last point only. -/
theorem hcond12_2 : ∀ t : Fin cfg12.N, cond12_2 (grid12.coords t) ↔ t.val = 63 :=
  (by decide +kernel : ∀ t : Fin grid12.N, cond12_2 (grid12.coords t) ↔ t.val = 63)

/-! ## The body, case by case, on any whole memrefs -/

/-- The first point: the scratch cell, at anything, is reset and then holds the first step on zero. -/
theorem run12_A (𝒱₀ : Variants) (c : Dev nD) (i : grid12.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond12_1 i) (hc2 : ¬cond12_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k12_pay2 x2 x3 (k12_pay1 (F := F)))) -∗ K ⟨⟩))
      ⊢ wp frame (wpE (defs₀ (F := F)) 𝒱₀ c none) E (cc12__sum_kernel i arg2 harg2 arg3 harg3 arg4 harg4 arg5 harg5) K := by
  simp only [cc12__sum_kernel_eq_skeleton]; unfold cc12__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run12_A.sl.v15 run12_A.sl.H5_1
  rw [readCov_whole _ zeros2, readAt_whole _ _ zeros2, readAt_whole _ _ zeros2]

/-- A point strictly between the first and the last: the scratch cell at `a` takes the point's step. -/
theorem run12_B (𝒱₀ : Variants) (c : Dev nD) (i : grid12.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond12_1 i) (hc2 : ¬cond12_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k12_pay2 x2 x3 a)) -∗ K ⟨⟩))
      ⊢ wp frame (wpE (defs₀ (F := F)) 𝒱₀ c none) E (cc12__sum_kernel i arg2 harg2 arg3 harg3 arg4 harg4 arg5 harg5) K := by
  simp only [cc12__sum_kernel_eq_skeleton]; unfold cc12__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run12_C (𝒱₀ : Variants) (c : Dev nD) (i : grid12.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond12_1 i) (hc2 : cond12_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k12_pay2 x2 x3 a) ∗ owns (c : Thread nD τ) arg5 fullShare (k12_pay2 x2 x3 a)) -∗ K ⟨⟩))
      ⊢ wp frame (wpE (defs₀ (F := F)) 𝒱₀ c none) E (cc12__sum_kernel i arg2 harg2 arg3 harg3 arg4 harg4 arg5 harg5) K := by
  simp only [cc12__sum_kernel_eq_skeleton]; unfold cc12__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run12_C.sl.v25 run12_C.sl.H5_1
    rw [readCov_whole _ zeros2, readAt_whole _ _ zeros2, readAt_whole _ _ zeros2, readAt_whole _ _ zeros2]
  iexists _; isplitr
  swap; · iexact H5
  ipureintro
  unfold run12_C.sl.H5_1
  rw [read_writes_whole _ _ zeros2, readAt_whole _ _ zeros2, readAt_whole _ _ zeros2, readAt_whole _ _ zeros2]

end Cert.KernelIdeal.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle12_2 : ∀ t : Fin cfg12.N, cfg12.idle 2 (grid12.coords t) = true ↔ t.val ≠ 63 :=
  (by decide +kernel : ∀ t : Fin grid12.N, idle12 2 (grid12.coords t) = true ↔ t.val ≠ 63)
/-- and written back at the last point only. -/
theorem flush12_2' : ∀ t : Fin cfg12.N, (cfg12.win 2).flush t = true ↔ t.val = 63 :=
  (by decide +kernel : ∀ t : Fin grid12.N, win12_2.flush t = true ↔ t.val = 63)

/-! ## What the body finds in the inputs' buffers -/

/-- Each input's current staging buffer holds its block at every point, fetched there or not: unfetched, the block
    index has not moved and the body left the block in place. -/
theorem before12_0 (V : Valuation τ sig (Elt F)) (c : Dev nD) (t : Fin cfg12.N) (d) :
    (dat12 (Ix := Ix) (U := U) (Lvl := Lvl) V c).before 0 t d = iblk12 V c 0 t :=
  ((dat12 (Ix := Ix) (U := U) (Lvl := Lvl) V c).before_in_eq_fetched 0 rfl (fun _ => rfl) (fun _ _ _ => rfl)
      (fun t => by rw [after12_0]; unfold Dat.blockOf iblk12; rw [A_eq12]; try rfl) t d).trans
    (by unfold Dat.fetched Dat.blockOf iblk12; rw [A_eq12]; try rfl)

theorem before12_1 (V : Valuation τ sig (Elt F)) (c : Dev nD) (t : Fin cfg12.N) (d) :
    (dat12 (Ix := Ix) (U := U) (Lvl := Lvl) V c).before 1 t d = iblk12 V c 1 t :=
  ((dat12 (Ix := Ix) (U := U) (Lvl := Lvl) V c).before_in_eq_fetched 1 rfl (fun _ => rfl) (fun _ _ _ => rfl)
      (fun t => by rw [after12_1]; unfold Dat.blockOf iblk12; rw [A_eq12]; try rfl) t d).trans
    (by unfold Dat.fetched Dat.blockOf iblk12; rw [A_eq12]; try rfl)

/-! ## What the obligation asks of each window's buffer after the body -/

/-- The inputs are never idle: their buffers are handed back at their blocks. -/
theorem leaves12_0 (V : Valuation τ sig (Elt F)) (c : Dev nD) (t : Fin cfg12.N) :
    (dat12 (Ix := Ix) (U := U) (Lvl := Lvl) V c).leaves 0 t = owns (c : Thread nD τ) (st12_0 t) fullShare (iblk12 V c 0 t) := by
  rw [← after12_0 (Ix := Ix) (U := U) (Lvl := Lvl) V c t]

theorem leaves12_1 (V : Valuation τ sig (Elt F)) (c : Dev nD) (t : Fin cfg12.N) :
    (dat12 (Ix := Ix) (U := U) (Lvl := Lvl) V c).leaves 1 t = owns (c : Thread nD τ) (st12_1 t) fullShare (iblk12 V c 1 t) := by
  rw [← after12_1 (Ix := Ix) (U := U) (Lvl := Lvl) V c t]

/-- The output is idle, and not written back, at every point but the last: its buffer is handed back as found; -/
theorem leaves12_2_idle (V : Valuation τ sig (Elt F)) (c : Dev nD) (t : Fin cfg12.N) (h : t.val ≠ 63) :
    (dat12 (Ix := Ix) (U := U) (Lvl := Lvl) V c).leaves 2 t
      = iprop(∃ d, owns (c : Thread nD τ) (st12_2 t) fullShare ((dat12 (Ix := Ix) (U := U) (Lvl := Lvl) V c).before 2 t d)) :=
  (dat12 (Ix := Ix) (U := U) (Lvl := Lvl) V c).leaves_idle 2 t ((idle12_2 t).mpr h)
    (Bool.eq_false_iff.mpr fun hf => h ((flush12_2' t).mp hf))

/-- at the last point it is handed back at the accumulated sum. -/
theorem leaves12_2_last (V : Valuation τ sig (Elt F)) (c : Dev nD) (t : Fin cfg12.N) (h : t.val = 63) :
    (dat12 (Ix := Ix) (U := U) (Lvl := Lvl) V c).leaves 2 t = owns (c : Thread nD τ) (st12_2 t) fullShare (acc12 V c t.val t.isLt) := by
  have hl : cfg12.idle 2 (grid12.coords t) = false := by
    cases hi : cfg12.idle 2 (grid12.coords t) with
    | false => rfl
    | true => exact absurd h ((idle12_2 t).mp hi)
  rw [← after12_2 (Ix := Ix) (U := U) (Lvl := Lvl) V c t]
  unfold Dat.leaves; rw [hl]

/-- One step at a point, through the point itself. -/
theorem step12_at (V : Valuation τ sig (Elt F)) (c : Dev nD) (t : Fin cfg12.N) (a : Vec F S1x1 .f32) :
    step12 V c t.val t.isLt a = k12_pay2 (iblk12 V c 0 t) (iblk12 V c 1 t) a := rfl

theorem acc12_first (V : Valuation τ sig (Elt F)) (c : Dev nD) (n : ℕ) (hn : n < cfg12.N) (hz : n = 0) :
    acc12 V c n hn = step12 V c n hn (k12_pay1 (F := F)) := by
  subst hz; rfl

/-! ## The body obligation -/

/-- What the body is called with at point `t` (the obligation's precondition, the windows one by one), -/
noncomputable def bodyPre12 (V : Valuation τ sig (Elt F)) (ι : Ix) (c : Dev nD) (t : Fin cfg12.N) : sProp 𝕄 :=
  iprop((dat12 (Ix := Ix) (U := U) (Lvl := Lvl) V c).Φ t.castSucc ∗ (dat12 (Ix := Ix) (U := U) (Lvl := Lvl) V c).owesAt ι t.castSucc
    ∗ (∃ d, owns (c : Thread nD τ) (st12_0 t) fullShare ((dat12 (Ix := Ix) (U := U) (Lvl := Lvl) V c).before 0 t d))
    ∗ (∃ d, owns (c : Thread nD τ) (st12_1 t) fullShare ((dat12 (Ix := Ix) (U := U) (Lvl := Lvl) V c).before 1 t d))
    ∗ (∃ d, owns (c : Thread nD τ) (st12_2 t) fullShare ((dat12 (Ix := Ix) (U := U) (Lvl := Lvl) V c).before 2 t d)))

/-- and what it returns. -/
noncomputable def bodyPost12 (V : Valuation τ sig (Elt F)) (ι : Ix) (c : Dev nD) (t : Fin cfg12.N) : sProp 𝕄 :=
  iprop((dat12 (Ix := Ix) (U := U) (Lvl := Lvl) V c).Φ t.succ ∗ (dat12 (Ix := Ix) (U := U) (Lvl := Lvl) V c).owesAt ι t.succ
    ∗ (dat12 (Ix := Ix) (U := U) (Lvl := Lvl) V c).leaves 0 t ∗ (dat12 (Ix := Ix) (U := U) (Lvl := Lvl) V c).leaves 1 t ∗ (dat12 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body12 (V : Valuation τ sig (Elt F)) (𝒱₀ : Variants) (ι : Ix) (c : Dev nD) (t : Fin cfg12.N) :
    bodyPre12 (U := U) (Lvl := Lvl) V ι c t
      ⊢ wp frame (wpE (defs₀ (F := F)) 𝒱₀ c none) Set.univ (bodyAt12 t) (fun _ => bodyPost12 (U := U) (Lvl := Lvl) V ι c t) := by
  unfold bodyPre12 bodyPost12 bodyAt12
  simp only [before12_0, before12_1]
  rw [show (dat12 (Ix := Ix) (U := U) (Lvl := Lvl) V c).owesAt ι t.succ = (dat12 (Ix := Ix) (U := U) (Lvl := Lvl) V c).owesAt ι t.castSucc from rfl]
  rw [Phi12_at_succ, Phi12_succ, Phi12_castSucc, leaves12_0, leaves12_1]
  have hN : t.val < 64 := lt_of_lt_of_eq t.isLt N_12
  by_cases hz : t.val = 0
  · have hc1 : cond12_1 (grid12.coords t) := (hcond12_1 t).mpr hz
    have hc2 : ¬cond12_2 (grid12.coords t) := fun h => by have := (hcond12_2 t).mp h; omega
    rw [leaves12_2_idle V c t (by omega), Phi12_zero V c _ _ hz, scopedRest12_split, acc12_first V c _ _ hz, step12_at]
    iintro ⟨⟨⟨%f, Hs⟩, Hr⟩, Ho, ⟨%d0, H0⟩, ⟨%d1, H1⟩, H2⟩
    iapply (run12_A 𝒱₀ c (grid12.coords t) _ _ _ _ _ _ _ _ hc1 hc2 (iblk12 V c 0 t) (iblk12 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond12_1 (grid12.coords t) := fun h => hz ((hcond12_1 t).mp h)
    rw [Phi12_pos V c _ _ hz, acc12_pos V c _ _ hz, step12_at]
    by_cases hl : t.val = 63
    · have hc2 : cond12_2 (grid12.coords t) := (hcond12_2 t).mpr hl
      rw [leaves12_2_last V c t hl, acc12_pos V c _ _ hz, step12_at]
      iintro ⟨⟨Hs, Hr⟩, Ho, ⟨%d0, H0⟩, ⟨%d1, H1⟩, ⟨%d2, H2⟩⟩
      iapply (run12_C 𝒱₀ c (grid12.coords t) _ _ _ _ _ _ _ _ hc1 hc2 (iblk12 V c 0 t) (iblk12 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond12_2 (grid12.coords t) := fun h => hl ((hcond12_2 t).mp h)
      rw [leaves12_2_idle V c t hl]
      iintro ⟨⟨Hs, Hr⟩, Ho, ⟨%d0, H0⟩, ⟨%d1, H1⟩, H2⟩
      iapply (run12_B 𝒱₀ c (grid12.coords t) _ _ _ _ _ _ _ _ hc1 hc2 (iblk12 V c 0 t) (iblk12 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body12 (V : Valuation τ sig (Elt F)) (𝒱₀ : Variants) (ι : Ix) :
    ∀ c : Dev nD, BodyObligationLoose (dat12 (Ix := Ix) (U := U) (Lvl := Lvl) V c) (defs₀ (F := F)) 𝒱₀ ι Set.univ := fun c t => by
  rw [bigSep_W12, bigSep_W12]
  exact sound_body12 (U := U) (Lvl := Lvl) V 𝒱₀ ι c t

end Cert.KernelIdeal.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg12

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (12 : Fin 24)
/-- Its configuration, its windows but for their index maps, the number of its windows. -/
abbrev cfgK : Pipeline.Cfg sig Λ₀ := cfg12
abbrev specK : Fin 3 → Pipeline.WinSpec sig cfgK.grid.rank := spec12
abbrev nW : Nat := 3
/-- Its output window and the buffer behind it. -/
abbrev oK : Fin nW := 2
abbrev outK : Ref sig .tc := main_v439
theorem winK : Pipeline.WinFacts₀ specK := winFacts₀12
theorem block_posK : ∀ w : Fin nW, 0 < (specK w).block.numel := block_pos12
theorem arr_wholeK : ∀ w : Fin nW, (specK w).arr.IsWhole := arr_whole12
theorem stage_wholeK : ∀ (w : Fin nW) (s : Fin (specK w).nbuf), ((specK w).stage s).IsWhole := stage_whole12

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.KernelIdeal.Hand.Reg12

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R12' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (12 : Fin 24) c = dat12 (V70 m outs c) c)
    (hbody : ∀ c : Dev nD, Pipeline.BodyObligationLoose (dat12 (Ix := Ix) (U := U) (Lvl := Lvl) (V70 m outs c) c) (defs₀ (F := F)) 𝒱₀ ι Set.univ) :
    RegionSeg (pcfgs (F := F)) GenP.adm pdats ι defs₀ 𝒱₀ L lv (12 : Fin 24) :=
  Reg12.RK 𝒱₀ L lv ι pdats (fun c => V70 m outs c)
    (fun c => by rw [hp c]; exact hbody c)
    (fun c w => by rw [hp c]; exact A_eq12 (V70 m outs c) c w)
    (fun c => by rw [hp c]; exact PosShare.mem_left_op_right fullShare)
    (fun c t => by rw [hp c]; rfl)
    (fun c => by rw [hp c]; rfl)
    (fun c => by rw [hp c, Phi_first12])
    (fun c => by rw [hp c]; exact Phi_last12 (V70 m outs c) c)

/-- It is entered from the thread state before the region's item, -/
theorem hpre12' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (12 : Fin 24) c = dat12 (V70 m outs c) c)
    (hbody : ∀ c : Dev nD, Pipeline.BodyObligationLoose (dat12 (Ix := Ix) (U := U) (Lvl := Lvl) (V70 m outs c) c) (defs₀ (F := F)) 𝒱₀ ι Set.univ)
    (c : Dev nD) :
    iprop(StableHlo.held (c : Thread nD τ) (Pipeline.ucRefs τ sig) (V70 m outs c) ∗ (R c : sProp 𝕄))
      ⊢ (R12' m outs 𝒱₀ L lv ι pdats hp hbody).pre c := .rfl

/-- and left at the thread state after it. -/
theorem hpost12' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (12 : Fin 24) c = dat12 (V70 m outs c) c)
    (hbody : ∀ c : Dev nD, Pipeline.BodyObligationLoose (dat12 (Ix := Ix) (U := U) (Lvl := Lvl) (V70 m outs c) c) (defs₀ (F := F)) 𝒱₀ ι Set.univ)
    (houts : ∀ c : Dev nD, outs 71 main_v439 c = (dat12 (Ix := Ix) (U := U) (Lvl := Lvl) (V70 m outs c) c).arrAt 2 64)
    (c : Dev nD) :
    (R12' m outs 𝒱₀ L lv ι pdats hp hbody).post c
      ⊢ iprop(StableHlo.held (c : Thread nD τ) (Pipeline.ucRefs τ sig) (V71 m outs c) ∗ (R c : sProp 𝕄)) := by
  have h : (pdats (12 : Fin 24) c).arrAt Reg12.oK Reg12.cfgK.N = outs 71 main_v439 c := by
    rw [hp c]; exact (houts c).symm
  show iprop(StableHlo.held (c : Thread nD τ) (Pipeline.ucRefs τ sig)
      (Function.update (V70 m outs c) (Proc.devRef .tc main_v439) ((pdats (12 : Fin 24) c).arrAt Reg12.oK Reg12.cfgK.N))
        ∗ (R c : sProp 𝕄)) ⊢ _
  rw [h]

end Cert.KernelIdeal.Hand
-- ==== Proof.Rg13.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.ApplyLib
import proofs.«169706_j68856915690108_1_alg».proof.Proof.Shared
import proofs.«169706_j68856915690108_1_alg».proof.Proof.RegionsKI

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k13_pay1 x_i` and `step t a = k13_pay2 h_i h_j threshold x_j a`, the printed payloads of the two stores.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk13 (V : Valuation τ sig (Elt F)) (c : Dev nD) (w : Fin cfg13.W) (t : Fin cfg13.N) :
    ((cfg13.win w).xblock (cfg13.grid.coords t)).Idx → Elt F (cfg13.win w).elt :=
  ((cfg13.win w).blk t).view.read (Elt F)
    (V (Proc.devRef .tc (Pipeline.arrRef spec13 w)) : Buf (Elt F) ((cfg13.win w).arr.view.loc (c.tc : Thread nD τ)))

/-- What the accumulator is reset to at a point whose second coordinate is 0: 1.0 times the block of `x` window 3
    stages there (the printed payload of the first store into the scratch buffer). -/
noncomputable def init13 (V : Valuation τ sig (Elt F)) (c : Dev nD) (n : ℕ) (hn : n < cfg13.N) : Vec F S512x256 .f32 :=
  k13_pay1 (iblk13 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step13 (V : Valuation τ sig (Elt F)) (c : Dev nD) (n : ℕ) (hn : n < cfg13.N) (a : Vec F S512x256 .f32) : Vec F S512x256 .f32 :=
  k13_pay2 (iblk13 V c 1 ⟨n, hn⟩) (iblk13 V c 2 ⟨n, hn⟩) (iblk13 V c 0 ⟨n, hn⟩) (iblk13 V c 4 ⟨n, hn⟩) a

/-- What the accumulator holds after point `n`: reset and stepped at the points ≡ 0 (mod 8), stepped from what the
    point before left at the others. -/
noncomputable def acc13 (V : Valuation τ sig (Elt F)) (c : Dev nD) : (n : ℕ) → n < cfg13.N → Vec F S512x256 .f32
  | 0, hn => step13 V c 0 hn (init13 V c 0 hn)
  | n + 1, hn =>
    if (n + 1) % 8 = 0 then step13 V c (n + 1) hn (init13 V c (n + 1) hn)
    else step13 V c (n + 1) hn (acc13 V c n (Nat.lt_of_succ_lt hn))

/-- After a point ≡ 0 (mod 8): the reset value, stepped once. -/
theorem acc13_reset (V : Valuation τ sig (Elt F)) (c : Dev nD) (n : ℕ) (hn : n < cfg13.N) (h0 : n % 8 = 0) :
    acc13 V c n hn = step13 V c n hn (init13 V c n hn) := by
  cases n with
  | zero => rfl
  | succ n => exact if_pos h0

/-- After any other point: that point's step on what the point before left. -/
theorem acc13_step (V : Valuation τ sig (Elt F)) (c : Dev nD) (n : ℕ) (hn : n < cfg13.N) (h0 : ¬n % 8 = 0) :
    acc13 V c n hn = step13 V c n hn (acc13 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi13 (V : Valuation τ sig (Elt F)) (c : Dev nD) : (n : ℕ) → n ≤ cfg13.N → sProp 𝕄
  | 0, _ => Pipeline.scopedRest (Ix := Ix) (Name := ℕ) (U := U) (Lvl := Lvl) (Val := Elt F) spec13 c
  | n + 1, hn => iprop(owns (c : Thread nD τ) (Memref.whole cc13_scratch0) fullShare (acc13 V c n hn)
      ∗ Pipeline.scopedRestBut (Ix := Ix) (Name := ℕ) (U := U) (Lvl := Lvl) (Val := Elt F) spec13 c [cc13_scratch0])

theorem Phi13_zero (V : Valuation τ sig (Elt F)) (c : Dev nD) (n : ℕ) (h : n ≤ cfg13.N) (hz : n = 0) :
    (Phi13 V c n h : sProp 𝕄) = Pipeline.scopedRest (Ix := Ix) (Name := ℕ) (U := U) (Lvl := Lvl) (Val := Elt F) spec13 c := by
  subst hz; rfl

theorem Phi13_succ (V : Valuation τ sig (Elt F)) (c : Dev nD) (n : ℕ) (hn : n < cfg13.N) :
    (Phi13 V c (n + 1) hn : sProp 𝕄) = iprop(owns (c : Thread nD τ) (Memref.whole cc13_scratch0) fullShare (acc13 V c n hn)
      ∗ Pipeline.scopedRestBut (Ix := Ix) (Name := ℕ) (U := U) (Lvl := Lvl) (Val := Elt F) spec13 c [cc13_scratch0]) := rfl

theorem Phi13_pos (V : Valuation τ sig (Elt F)) (c : Dev nD) (n : ℕ) (h : n ≤ cfg13.N) (hz : n ≠ 0) :
    (Phi13 V c n h : sProp 𝕄) = iprop(owns (c : Thread nD τ) (Memref.whole cc13_scratch0) fullShare (acc13 V c (n - 1) (by omega))
      ∗ Pipeline.scopedRestBut (Ix := Ix) (Name := ℕ) (U := U) (Lvl := Lvl) (Val := Elt F) spec13 c [cc13_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi13`; the
    threshold's array held whole, each of the two arrays that two input windows read held half and half; nothing owed. -/
noncomputable def dat13 (V : Valuation τ sig (Elt F)) (c : Dev nD) : Dat τ (Elt F) Ix ℕ U Lvl cfg13 c where
  A w := V (Proc.devRef .tc (Pipeline.arrRef spec13 w))
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => acc13 V c t.val t.isLt
  Φ t := Phi13 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq13 (V : Valuation τ sig (Elt F)) (c : Dev nD) (w : Fin cfg13.W) :
    (dat13 (Ix := Ix) (U := U) (Lvl := Lvl) V c).A w = V (Proc.devRef .tc (Pipeline.arrRef spec13 w)) := by
  dsimp only [dat13]

/-- What the body leaves, window by window. -/
theorem after13_0 (V : Valuation τ sig (Elt F)) (c : Dev nD) (t : Fin cfg13.N) :
    (dat13 (Ix := Ix) (U := U) (Lvl := Lvl) V c).after 0 t = iblk13 V c 0 t := by dsimp only [dat13]
theorem after13_1 (V : Valuation τ sig (Elt F)) (c : Dev nD) (t : Fin cfg13.N) :
    (dat13 (Ix := Ix) (U := U) (Lvl := Lvl) V c).after 1 t = iblk13 V c 1 t := by dsimp only [dat13]
theorem after13_2 (V : Valuation τ sig (Elt F)) (c : Dev nD) (t : Fin cfg13.N) :
    (dat13 (Ix := Ix) (U := U) (Lvl := Lvl) V c).after 2 t = iblk13 V c 2 t := by dsimp only [dat13]
theorem after13_3 (V : Valuation τ sig (Elt F)) (c : Dev nD) (t : Fin cfg13.N) :
    (dat13 (Ix := Ix) (U := U) (Lvl := Lvl) V c).after 3 t = iblk13 V c 3 t := by dsimp only [dat13]
theorem after13_4 (V : Valuation τ sig (Elt F)) (c : Dev nD) (t : Fin cfg13.N) :
    (dat13 (Ix := Ix) (U := U) (Lvl := Lvl) V c).after 4 t = iblk13 V c 4 t := by dsimp only [dat13]
theorem after13_5 (V : Valuation τ sig (Elt F)) (c : Dev nD) (t : Fin cfg13.N) :
    (dat13 (Ix := Ix) (U := U) (Lvl := Lvl) V c).after 5 t = acc13 V c t.val t.isLt := by dsimp only [dat13]

/-- The shares the input arrays are held at. -/
theorem q13_0 (V : Valuation τ sig (Elt F)) (c : Dev nD) : (dat13 (Ix := Ix) (U := U) (Lvl := Lvl) V c).q 0 = fullShare := by dsimp only [dat13]
theorem q13_1 (V : Valuation τ sig (Elt F)) (c : Dev nD) : (dat13 (Ix := Ix) (U := U) (Lvl := Lvl) V c).q 1 = fullShare.left := by dsimp only [dat13]
theorem q13_2 (V : Valuation τ sig (Elt F)) (c : Dev nD) : (dat13 (Ix := Ix) (U := U) (Lvl := Lvl) V c).q 2 = fullShare.right := by dsimp only [dat13]
theorem q13_3 (V : Valuation τ sig (Elt F)) (c : Dev nD) : (dat13 (Ix := Ix) (U := U) (Lvl := Lvl) V c).q 3 = fullShare.left := by dsimp only [dat13]
theorem q13_4 (V : Valuation τ sig (Elt F)) (c : Dev nD) : (dat13 (Ix := Ix) (U := U) (Lvl := Lvl) V c).q 4 = fullShare.right := by dsimp only [dat13]

/-- The invariant at a point's start, and at its end. -/
theorem Phi13_castSucc (V : Valuation τ sig (Elt F)) (c : Dev nD) (t : Fin cfg13.N) :
    (dat13 (Ix := Ix) (U := U) (Lvl := Lvl) V c).Φ t.castSucc = Phi13 V c t.val (Nat.le_of_lt t.isLt) := by
  dsimp only [dat13]; simp only [Fin.coe_castSucc]

theorem Phi13_at_succ (V : Valuation τ sig (Elt F)) (c : Dev nD) (t : Fin cfg13.N) :
    (dat13 (Ix := Ix) (U := U) (Lvl := Lvl) V c).Φ t.succ = Phi13 V c (t.val + 1) t.isLt := rfl

/-- Before the first point the invariant is the launch's scoped rest. -/
theorem Phi_first13 (V : Valuation τ sig (Elt F)) (c : Dev nD) :
    (dat13 (Ix := Ix) (U := U) (Lvl := Lvl) V c).Φ 0
      = Pipeline.scopedRest (Ix := Ix) (Name := ℕ) (U := U) (Lvl := Lvl) (Val := Elt F) spec13 c := rfl

/-- After the last point the invariant gives the scoped rest back: the accumulator's contents are forgotten. -/
theorem Phi_last13 (V : Valuation τ sig (Elt F)) (c : Dev nD) :
    (dat13 (Ix := Ix) (U := U) (Lvl := Lvl) V c).Φ (Fin.last cfg13.N)
      ⊢ Pipeline.scopedRest (Ix := Ix) (Name := ℕ) (U := U) (Lvl := Lvl) (Val := Elt F) spec13 c := by
  have hN : cfg13.N = 64 := N_13
  rw [show (dat13 (Ix := Ix) (U := U) (Lvl := Lvl) V c).Φ (Fin.last cfg13.N) = Phi13 V c (Fin.last cfg13.N).val (Nat.le_of_lt_succ (Fin.last cfg13.N).isLt) from rfl,
    Phi13_pos V c _ _ (by rw [Fin.val_last]; omega), scopedRest13_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 13) c := dat13 V c

end Cert.KernelIdeal.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k13_pay2 hI hJ mn xJ s` — `s` plus the 0/1 mask of (hI · hJᵀ > mn) times `xJ` — and the value
  the accumulator is reset to is `k13_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond13_0 (i : grid13.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond13_1 (i : grid13.Coords) : Prop := k13_cond2 i = 1#1

/-! ## The three runs -/

/-- At a point whose second coordinate is 0 (and not 7): the accumulator, at anything, is reset to `k13_pay1 xI` and
    stepped once; every window's buffer is handed back as found. -/
theorem run13_first (𝒱₀ : Variants) (c : Dev nD) (i : grid13.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond13_0 i) (hc1 : ¬cond13_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k13_pay2 hI hJ mn xJ (k13_pay1 xI))) -∗ K ⟨⟩))
      ⊢ wp frame (wpE (defs₀ (F := F)) 𝒱₀ c none) E (cc13__apply_kernel i arg2 harg2 arg3 harg3 arg4 harg4 arg5 harg5 arg6 harg6 arg7 harg7 arg8 harg8) K := by
  simp only [cc13__apply_kernel_eq_skeleton]; unfold cc13__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run13_mid (𝒱₀ : Variants) (c : Dev nD) (i : grid13.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond13_0 i) (hc1 : ¬cond13_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k13_pay2 hI hJ mn xJ s)) -∗ K ⟨⟩))
      ⊢ wp frame (wpE (defs₀ (F := F)) 𝒱₀ c none) E (cc13__apply_kernel i arg2 harg2 arg3 harg3 arg4 harg4 arg5 harg5 arg6 harg6 arg7 harg7 arg8 harg8) K := by
  simp only [cc13__apply_kernel_eq_skeleton]; unfold cc13__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run13_last (𝒱₀ : Variants) (c : Dev nD) (i : grid13.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond13_0 i) (hc1 : cond13_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k13_pay2 hI hJ mn xJ s)
        ∗ owns (c : Thread nD τ) arg8 fullShare (k13_pay2 hI hJ mn xJ s)) -∗ K ⟨⟩))
      ⊢ wp frame (wpE (defs₀ (F := F)) 𝒱₀ c none) E (cc13__apply_kernel i arg2 harg2 arg3 harg3 arg4 harg4 arg5 harg5 arg6 harg6 arg7 harg7 arg8 harg8) K := by
  simp only [cc13__apply_kernel_eq_skeleton]; unfold cc13__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.KernelIdeal.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc13`. The three control cases are
  decided over the grid by the point's residue mod 8, and in each the kernel's run (ApplyRun.lean) applies.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond13_0 : ∀ t : Fin cfg13.N, cond13_0 (grid13.coords t) ↔ t.val % 8 = 0 :=
  (by decide +kernel : ∀ t : Fin grid13.N, cond13_0 (grid13.coords t) ↔ t.val % 8 = 0)
/-- It is stored into the output block at the points ≡ 7 (mod 8). -/
theorem hcond13_1 : ∀ t : Fin cfg13.N, cond13_1 (grid13.coords t) ↔ t.val % 8 = 7 :=
  (by decide +kernel : ∀ t : Fin grid13.N, cond13_1 (grid13.coords t) ↔ t.val % 8 = 7)
/-- The output window is idle at every other point, -/
theorem idleAt13_5 : ∀ t : Fin cfg13.N, ¬t.val % 8 = 7 → cfg13.idle 5 (grid13.coords t) = true :=
  (by decide +kernel : ∀ t : Fin grid13.N, ¬t.val % 8 = 7 → cfg13.idle 5 (grid13.coords t) = true)
/-- live at those, -/
theorem liveAt13_5 : ∀ t : Fin cfg13.N, t.val % 8 = 7 → cfg13.idle 5 (grid13.coords t) = false :=
  (by decide +kernel : ∀ t : Fin grid13.N, t.val % 8 = 7 → cfg13.idle 5 (grid13.coords t) = false)
/-- and not written back where it is idle. -/
theorem noFlush13_5 (t : Fin cfg13.N) (h : ¬t.val % 8 = 7) : (cfg13.win 5).flush t = false := by
  cases hf : (cfg13.win 5).flush t with
  | false => rfl
  | true => exact absurd ((flush13_5 t).mp hf) h

/-! ## What the body finds in the inputs' buffers and leaves in every buffer -/

/-- Each input's current staging buffer holds its block at every point, fetched there or not. -/
theorem before13_0 (V : Valuation τ sig (Elt F)) (c : Dev nD) (t : Fin cfg13.N) (d) : (dat13 (Ix := Ix) (U := U) (Lvl := Lvl) V c).before 0 t d = iblk13 V c 0 t :=
  ((dat13 (Ix := Ix) (U := U) (Lvl := Lvl) V c).before_in_eq_fetched 0 rfl (fun _ => rfl) (fun _ _ _ => rfl)
      (fun t => by rw [after13_0]; unfold Dat.blockOf iblk13; rw [A_eq13]; try rfl) t d).trans
    (by unfold Dat.fetched Dat.blockOf iblk13; rw [A_eq13]; try rfl)
theorem before13_1 (V : Valuation τ sig (Elt F)) (c : Dev nD) (t : Fin cfg13.N) (d) : (dat13 (Ix := Ix) (U := U) (Lvl := Lvl) V c).before 1 t d = iblk13 V c 1 t :=
  ((dat13 (Ix := Ix) (U := U) (Lvl := Lvl) V c).before_in_eq_fetched 1 rfl (fun _ => rfl) (fun _ _ _ => rfl)
      (fun t => by rw [after13_1]; unfold Dat.blockOf iblk13; rw [A_eq13]; try rfl) t d).trans
    (by unfold Dat.fetched Dat.blockOf iblk13; rw [A_eq13]; try rfl)
theorem before13_2 (V : Valuation τ sig (Elt F)) (c : Dev nD) (t : Fin cfg13.N) (d) : (dat13 (Ix := Ix) (U := U) (Lvl := Lvl) V c).before 2 t d = iblk13 V c 2 t :=
  ((dat13 (Ix := Ix) (U := U) (Lvl := Lvl) V c).before_in_eq_fetched 2 rfl (fun _ => rfl) (fun _ _ _ => rfl)
      (fun t => by rw [after13_2]; unfold Dat.blockOf iblk13; rw [A_eq13]; try rfl) t d).trans
    (by unfold Dat.fetched Dat.blockOf iblk13; rw [A_eq13]; try rfl)
theorem before13_3 (V : Valuation τ sig (Elt F)) (c : Dev nD) (t : Fin cfg13.N) (d) : (dat13 (Ix := Ix) (U := U) (Lvl := Lvl) V c).before 3 t d = iblk13 V c 3 t :=
  ((dat13 (Ix := Ix) (U := U) (Lvl := Lvl) V c).before_in_eq_fetched 3 rfl (fun _ => rfl) (fun _ _ _ => rfl)
      (fun t => by rw [after13_3]; unfold Dat.blockOf iblk13; rw [A_eq13]; try rfl) t d).trans
    (by unfold Dat.fetched Dat.blockOf iblk13; rw [A_eq13]; try rfl)
theorem before13_4 (V : Valuation τ sig (Elt F)) (c : Dev nD) (t : Fin cfg13.N) (d) : (dat13 (Ix := Ix) (U := U) (Lvl := Lvl) V c).before 4 t d = iblk13 V c 4 t :=
  ((dat13 (Ix := Ix) (U := U) (Lvl := Lvl) V c).before_in_eq_fetched 4 rfl (fun _ => rfl) (fun _ _ _ => rfl)
      (fun t => by rw [after13_4]; unfold Dat.blockOf iblk13; rw [A_eq13]; try rfl) t d).trans
    (by unfold Dat.fetched Dat.blockOf iblk13; rw [A_eq13]; try rfl)

/-! ## The body obligation, at a generic point -/

/-- What the body is called with at point `t` (the obligation's precondition, the windows one by one), -/
noncomputable def bodyPre13 (V : Valuation τ sig (Elt F)) (c : Dev nD) (ι : Ix) (t : Fin cfg13.N) : sProp 𝕄 :=
  iprop((dat13 (Ix := Ix) (U := U) (Lvl := Lvl) V c).Φ t.castSucc ∗ (dat13 (Ix := Ix) (U := U) (Lvl := Lvl) V c).owesAt ι t.castSucc
    ∗ (∃ d, owns (c : Thread nD τ) (st13_0 t) fullShare ((dat13 (Ix := Ix) (U := U) (Lvl := Lvl) V c).before 0 t d))
    ∗ (∃ d, owns (c : Thread nD τ) (st13_1 t) fullShare ((dat13 (Ix := Ix) (U := U) (Lvl := Lvl) V c).before 1 t d))
    ∗ (∃ d, owns (c : Thread nD τ) (st13_2 t) fullShare ((dat13 (Ix := Ix) (U := U) (Lvl := Lvl) V c).before 2 t d))
    ∗ (∃ d, owns (c : Thread nD τ) (st13_3 t) fullShare ((dat13 (Ix := Ix) (U := U) (Lvl := Lvl) V c).before 3 t d))
    ∗ (∃ d, owns (c : Thread nD τ) (st13_4 t) fullShare ((dat13 (Ix := Ix) (U := U) (Lvl := Lvl) V c).before 4 t d))
    ∗ (∃ d, owns (c : Thread nD τ) (st13_5 t) fullShare ((dat13 (Ix := Ix) (U := U) (Lvl := Lvl) V c).before 5 t d)))

/-- and what it returns. -/
noncomputable def bodyPost13 (V : Valuation τ sig (Elt F)) (c : Dev nD) (ι : Ix) (t : Fin cfg13.N) : sProp 𝕄 :=
  iprop((dat13 (Ix := Ix) (U := U) (Lvl := Lvl) V c).Φ t.succ ∗ (dat13 (Ix := Ix) (U := U) (Lvl := Lvl) V c).owesAt ι t.succ
    ∗ (dat13 (Ix := Ix) (U := U) (Lvl := Lvl) V c).leaves 0 t ∗ (dat13 (Ix := Ix) (U := U) (Lvl := Lvl) V c).leaves 1 t ∗ (dat13 (Ix := Ix) (U := U) (Lvl := Lvl) V c).leaves 2 t
    ∗ (dat13 (Ix := Ix) (U := U) (Lvl := Lvl) V c).leaves 3 t ∗ (dat13 (Ix := Ix) (U := U) (Lvl := Lvl) V c).leaves 4 t ∗ (dat13 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body13 (𝒱₀ : Variants) (ι : Ix) (V : Valuation τ sig (Elt F)) (c : Dev nD) (t : Fin cfg13.N) :
    bodyPre13 (Ix := Ix) (U := U) (Lvl := Lvl) V c ι t ⊢ wp frame (wpE (defs₀ (F := F)) 𝒱₀ c none) Set.univ (bodyAt13 t) (fun _ => bodyPost13 (Ix := Ix) (U := U) (Lvl := Lvl) V c ι t) := by
  unfold bodyPre13 bodyPost13 bodyAt13
  simp only [before13_0, before13_1, before13_2, before13_3, before13_4]
  rw [show (dat13 (Ix := Ix) (U := U) (Lvl := Lvl) V c).owesAt ι t.succ = (dat13 (Ix := Ix) (U := U) (Lvl := Lvl) V c).owesAt ι t.castSucc from rfl]
  rw [Phi13_at_succ, Phi13_succ, Phi13_castSucc]
  rw [leaves_live (dat13 (Ix := Ix) (U := U) (Lvl := Lvl) V c) 0 t rfl rfl, leaves_live (dat13 (Ix := Ix) (U := U) (Lvl := Lvl) V c) 1 t rfl rfl, leaves_live (dat13 (Ix := Ix) (U := U) (Lvl := Lvl) V c) 2 t rfl rfl,
    leaves_live (dat13 (Ix := Ix) (U := U) (Lvl := Lvl) V c) 3 t rfl rfl, leaves_live (dat13 (Ix := Ix) (U := U) (Lvl := Lvl) V c) 4 t rfl rfl, after13_0, after13_1, after13_2, after13_3, after13_4]
  have hN : t.val < 64 := lt_of_lt_of_eq t.isLt (show cfg13.N = 64 from N_13)
  by_cases h0 : t.val % 8 = 0
  · have h7 : ¬t.val % 8 = 7 := by omega
    rw [Dat.leaves_idle (dat13 (Ix := Ix) (U := U) (Lvl := Lvl) V c) 5 t (idleAt13_5 t h7) (noFlush13_5 t h7)]
    rw [acc13_reset V c t.val t.isLt h0]
    unfold step13 init13
    by_cases hz : t.val = 0
    · rw [Phi13_zero V c _ _ hz, scopedRest13_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run13_first 𝒱₀ c (grid13.coords t) _ _ _ _ _ _ _ _ _ _ _ _ _ _ ((hcond13_0 t).mpr h0) (fun h => h7 ((hcond13_1 t).mp h)) (iblk13 V c 0 t) (iblk13 V c 1 t) (iblk13 V c 2 t) (iblk13 V c 3 t) (iblk13 V c 4 t) ((dat13 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi13_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run13_first 𝒱₀ c (grid13.coords t) _ _ _ _ _ _ _ _ _ _ _ _ _ _ ((hcond13_0 t).mpr h0) (fun h => h7 ((hcond13_1 t).mp h)) (iblk13 V c 0 t) (iblk13 V c 1 t) (iblk13 V c 2 t) (iblk13 V c 3 t) (iblk13 V c 4 t) ((dat13 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc13_step V c t.val t.isLt h0, Phi13_pos V c _ _ hz]
    unfold step13
    by_cases h7 : t.val % 8 = 7
    · rw [leaves_live (dat13 (Ix := Ix) (U := U) (Lvl := Lvl) V c) 5 t (liveAt13_5 t h7) rfl, after13_5, acc13_step V c t.val t.isLt h0]
      unfold step13
      iintro ⟨⟨HS, Hr⟩, Ho, ⟨%d0, H0⟩, ⟨%d1, H1⟩, ⟨%d2, H2⟩, ⟨%d3, H3⟩, ⟨%d4, H4⟩, ⟨%d5, H5⟩⟩
      iapply (run13_last 𝒱₀ c (grid13.coords t) _ _ _ _ _ _ _ _ _ _ _ _ _ _ (fun h => h0 ((hcond13_0 t).mp h)) ((hcond13_1 t).mpr h7) (iblk13 V c 0 t) (iblk13 V c 1 t) (iblk13 V c 2 t) (iblk13 V c 3 t) (iblk13 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat13 (Ix := Ix) (U := U) (Lvl := Lvl) V c) 5 t (idleAt13_5 t h7) (noFlush13_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run13_mid 𝒱₀ c (grid13.coords t) _ _ _ _ _ _ _ _ _ _ _ _ _ _ (fun h => h0 ((hcond13_0 t).mp h)) (fun h => h7 ((hcond13_1 t).mp h)) (iblk13 V c 0 t) (iblk13 V c 1 t) (iblk13 V c 2 t) (iblk13 V c 3 t) (iblk13 V c 4 t) ((dat13 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation13 (𝒱₀ : Variants) (ι : Ix) (V : Valuation τ sig (Elt F)) (c : Dev nD) :
    BodyObligationLoose (dat13 (Ix := Ix) (U := U) (Lvl := Lvl) V c) (defs₀ (F := F)) 𝒱₀ ι Set.univ := fun t => by
  rw [bigSep_W13, bigSep_W13]
  exact sound_body13 𝒱₀ ι V c t

/-- The same at the type the program's family of configurations gives pipeline 1, on every core. -/
theorem body13 (𝒱₀ : Variants) (ι : Ix) (V : Valuation τ sig (Elt F)) :
    ∀ c : Dev nD, BodyObligationLoose (cfg := cfgs 13) (dat13 (Ix := Ix) (U := U) (Lvl := Lvl) V c) (defs₀ (F := F)) 𝒱₀ ι Set.univ :=
  fun c => body_obligation13 𝒱₀ ι V c

end Cert.KernelIdeal.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg13

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (13 : Fin 24)
/-- Its configuration, its windows but for their index maps, the number of its windows. -/
abbrev cfgK : Pipeline.Cfg sig Λ₀ := cfg13
abbrev specK : Fin 6 → Pipeline.WinSpec sig cfgK.grid.rank := spec13
abbrev nW : Nat := 6
/-- Its output window and the buffer behind it. -/
abbrev oK : Fin nW := 5
abbrev outK : Ref sig .tc := main_v442
theorem winK : Pipeline.WinFacts₀ specK := winFacts₀13
theorem block_posK : ∀ w : Fin nW, 0 < (specK w).block.numel := block_pos13
theorem arr_wholeK : ∀ w : Fin nW, (specK w).arr.IsWhole := arr_whole13
theorem stage_wholeK : ∀ (w : Fin nW) (s : Fin (specK w).nbuf), ((specK w).stage s).IsWhole := stage_whole13

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.KernelIdeal.Hand.Reg13

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R13' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (13 : Fin 24) c = dat13 (V72 m outs c) c)
    (hbody : ∀ c : Dev nD, Pipeline.BodyObligationLoose (dat13 (Ix := Ix) (U := U) (Lvl := Lvl) (V72 m outs c) c) (defs₀ (F := F)) 𝒱₀ ι Set.univ) :
    RegionSeg (pcfgs (F := F)) GenP.adm pdats ι defs₀ 𝒱₀ L lv (13 : Fin 24) :=
  Reg13.RK 𝒱₀ L lv ι pdats (fun c => V72 m outs c)
    (fun c => by rw [hp c]; exact hbody c)
    (fun c w => by rw [hp c]; exact A_eq13 (V72 m outs c) c w)
    (fun c => by rw [hp c]; rw [q13_1, q13_2]; exact PosShare.mem_left_op_right fullShare)
    (fun c => by rw [hp c]; rw [q13_3, q13_4]; exact PosShare.mem_left_op_right fullShare)
    (fun c => by rw [hp c]; exact q13_0 (V72 m outs c) c)
    (fun c t => by rw [hp c]; rfl)
    (fun c => by rw [hp c]; rfl)
    (fun c => by rw [hp c, Phi_first13])
    (fun c => by rw [hp c]; exact Phi_last13 (V72 m outs c) c)

/-- It is entered from the thread state before the region's item, -/
theorem hpre13' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (13 : Fin 24) c = dat13 (V72 m outs c) c)
    (hbody : ∀ c : Dev nD, Pipeline.BodyObligationLoose (dat13 (Ix := Ix) (U := U) (Lvl := Lvl) (V72 m outs c) c) (defs₀ (F := F)) 𝒱₀ ι Set.univ)
    (c : Dev nD) :
    iprop(StableHlo.held (c : Thread nD τ) (Pipeline.ucRefs τ sig) (V72 m outs c) ∗ (R c : sProp 𝕄))
      ⊢ (R13' m outs 𝒱₀ L lv ι pdats hp hbody).pre c := .rfl

/-- and left at the thread state after it. -/
theorem hpost13' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (13 : Fin 24) c = dat13 (V72 m outs c) c)
    (hbody : ∀ c : Dev nD, Pipeline.BodyObligationLoose (dat13 (Ix := Ix) (U := U) (Lvl := Lvl) (V72 m outs c) c) (defs₀ (F := F)) 𝒱₀ ι Set.univ)
    (houts : ∀ c : Dev nD, outs 73 main_v442 c = (dat13 (Ix := Ix) (U := U) (Lvl := Lvl) (V72 m outs c) c).arrAt 5 64)
    (c : Dev nD) :
    (R13' m outs 𝒱₀ L lv ι pdats hp hbody).post c
      ⊢ iprop(StableHlo.held (c : Thread nD τ) (Pipeline.ucRefs τ sig) (V73 m outs c) ∗ (R c : sProp 𝕄)) := by
  have h : (pdats (13 : Fin 24) c).arrAt Reg13.oK Reg13.cfgK.N = outs 73 main_v442 c := by
    rw [hp c]; exact (houts c).symm
  show iprop(StableHlo.held (c : Thread nD τ) (Pipeline.ucRefs τ sig)
      (Function.update (V72 m outs c) (Proc.devRef .tc main_v442) ((pdats (13 : Fin 24) c).arrAt Reg13.oK Reg13.cfgK.N))
        ∗ (R c : sProp 𝕄)) ⊢ _
  rw [h]

end Cert.KernelIdeal.Hand
-- ==== Proof.Rg14.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.SumLib
import Idealize.ShloMosaic.Lib.Tactic
import proofs.«169706_j68856915690108_1_alg».proof.Proof.Shared
import proofs.«169706_j68856915690108_1_alg».proof.Proof.RegionsKI

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k14_pay2)

  and only at the last point, 63, is that cell copied into the 1 × 1 output block, which the pipeline then writes back.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk14 (V : Valuation τ sig (Elt F)) (c : Dev nD) (w : Fin cfg14.W) (t : Fin cfg14.N) :
    ((cfg14.win w).xblock (cfg14.grid.coords t)).Idx → Elt F (cfg14.win w).elt :=
  ((cfg14.win w).blk t).view.read (Elt F)
    (V (Proc.devRef .tc (Pipeline.arrRef spec14 w)) : Buf (Elt F) ((cfg14.win w).arr.view.loc (c.tc : Thread nD τ)))

/-- One point's step on the scratch cell: the cell's contents `a` plus the sum of the tile made of the two blocks
    the point stages (the printed payload of the store into the scratch cell). -/
noncomputable def step14 (V : Valuation τ sig (Elt F)) (c : Dev nD) (n : ℕ) (hn : n < cfg14.N) (a : Vec F S1x1 .f32) : Vec F S1x1 .f32 :=
  k14_pay2 (iblk14 V c 0 ⟨n, hn⟩) (iblk14 V c 1 ⟨n, hn⟩) a

/-- What the scratch cell holds after point `n`: the steps of the points `0 … n` applied, first to last, to the
    zero the body stores at point 0. -/
noncomputable def acc14 (V : Valuation τ sig (Elt F)) (c : Dev nD) : (n : ℕ) → n < cfg14.N → Vec F S1x1 .f32
  | 0, hn => step14 V c 0 hn (k14_pay1 (F := F))
  | n + 1, hn => step14 V c (n + 1) hn (acc14 V c n (Nat.lt_of_succ_lt hn))

theorem acc14_zero (V : Valuation τ sig (Elt F)) (c : Dev nD) (hn : 0 < cfg14.N) :
    acc14 V c 0 hn = step14 V c 0 hn (k14_pay1 (F := F)) := rfl

theorem acc14_succ (V : Valuation τ sig (Elt F)) (c : Dev nD) (n : ℕ) (hn : n + 1 < cfg14.N) :
    acc14 V c (n + 1) hn = step14 V c (n + 1) hn (acc14 V c n (Nat.lt_of_succ_lt hn)) := rfl

/-- After a point that is not the first: the step of that point on what the point before left. -/
theorem acc14_pos (V : Valuation τ sig (Elt F)) (c : Dev nD) (n : ℕ) (hn : n < cfg14.N) (hz : n ≠ 0) :
    acc14 V c n hn = step14 V c n hn (acc14 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi14 (V : Valuation τ sig (Elt F)) (c : Dev nD) : (n : ℕ) → n ≤ cfg14.N → sProp 𝕄
  | 0, _ => Pipeline.scopedRest (Ix := Ix) (Name := ℕ) (U := U) (Lvl := Lvl) (Val := Elt F) spec14 c
  | n + 1, hn => iprop(owns (c : Thread nD τ) (Memref.whole cc14_scratch0) fullShare (acc14 V c n hn)
      ∗ Pipeline.scopedRestBut (Ix := Ix) (Name := ℕ) (U := U) (Lvl := Lvl) (Val := Elt F) spec14 c [cc14_scratch0])

theorem Phi14_zero (V : Valuation τ sig (Elt F)) (c : Dev nD) (n : ℕ) (h : n ≤ cfg14.N) (hz : n = 0) :
    (Phi14 V c n h : sProp 𝕄) = Pipeline.scopedRest (Ix := Ix) (Name := ℕ) (U := U) (Lvl := Lvl) (Val := Elt F) spec14 c := by
  subst hz; rfl

theorem Phi14_succ (V : Valuation τ sig (Elt F)) (c : Dev nD) (n : ℕ) (hn : n < cfg14.N) :
    (Phi14 V c (n + 1) hn : sProp 𝕄) = iprop(owns (c : Thread nD τ) (Memref.whole cc14_scratch0) fullShare (acc14 V c n hn)
      ∗ Pipeline.scopedRestBut (Ix := Ix) (Name := ℕ) (U := U) (Lvl := Lvl) (Val := Elt F) spec14 c [cc14_scratch0]) := rfl

theorem Phi14_pos (V : Valuation τ sig (Elt F)) (c : Dev nD) (n : ℕ) (h : n ≤ cfg14.N) (hz : n ≠ 0) :
    (Phi14 V c n h : sProp 𝕄) = iprop(owns (c : Thread nD τ) (Memref.whole cc14_scratch0) fullShare (acc14 V c (n - 1) (by omega))
      ∗ Pipeline.scopedRestBut (Ix := Ix) (Name := ℕ) (U := U) (Lvl := Lvl) (Val := Elt F) spec14 c [cc14_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi14`; the one
    array the two inputs read held half and half; nothing owed. -/
noncomputable def dat14 (V : Valuation τ sig (Elt F)) (c : Dev nD) : Dat τ (Elt F) Ix ℕ U Lvl cfg14 c where
  A w := V (Proc.devRef .tc (Pipeline.arrRef spec14 w))
  after w t := match w with
    | ⟨0, _⟩ => iblk14 V c 0 t
    | ⟨1, _⟩ => iblk14 V c 1 t
    | ⟨2, _⟩ => acc14 V c t.val t.isLt
  Φ t := Phi14 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq14 (V : Valuation τ sig (Elt F)) (c : Dev nD) (w : Fin cfg14.W) :
    (dat14 (Ix := Ix) (U := U) (Lvl := Lvl) V c).A w = V (Proc.devRef .tc (Pipeline.arrRef spec14 w)) := by
  dsimp only [dat14]

/-- What the body leaves, window by window. -/
theorem after14_0 (V : Valuation τ sig (Elt F)) (c : Dev nD) (t : Fin cfg14.N) :
    (dat14 (Ix := Ix) (U := U) (Lvl := Lvl) V c).after 0 t = iblk14 V c 0 t := by dsimp only [dat14]
theorem after14_1 (V : Valuation τ sig (Elt F)) (c : Dev nD) (t : Fin cfg14.N) :
    (dat14 (Ix := Ix) (U := U) (Lvl := Lvl) V c).after 1 t = iblk14 V c 1 t := by dsimp only [dat14]
theorem after14_2 (V : Valuation τ sig (Elt F)) (c : Dev nD) (t : Fin cfg14.N) :
    (dat14 (Ix := Ix) (U := U) (Lvl := Lvl) V c).after 2 t = acc14 V c t.val t.isLt := by dsimp only [dat14]

/-- The invariant at a point's start, and at its end. -/
theorem Phi14_castSucc (V : Valuation τ sig (Elt F)) (c : Dev nD) (t : Fin cfg14.N) :
    (dat14 (Ix := Ix) (U := U) (Lvl := Lvl) V c).Φ t.castSucc = Phi14 V c t.val (Nat.le_of_lt t.isLt) := by
  dsimp only [dat14]; simp only [Fin.coe_castSucc]

theorem Phi14_at_succ (V : Valuation τ sig (Elt F)) (c : Dev nD) (t : Fin cfg14.N) :
    (dat14 (Ix := Ix) (U := U) (Lvl := Lvl) V c).Φ t.succ = Phi14 V c (t.val + 1) t.isLt := rfl

/-- Before the first point the invariant is the launch's scoped rest. -/
theorem Phi_first14 (V : Valuation τ sig (Elt F)) (c : Dev nD) :
    (dat14 (Ix := Ix) (U := U) (Lvl := Lvl) V c).Φ 0
      = Pipeline.scopedRest (Ix := Ix) (Name := ℕ) (U := U) (Lvl := Lvl) (Val := Elt F) spec14 c := rfl

/-- After the last point the invariant gives the scoped rest back: the scratch cell's contents are forgotten. -/
theorem Phi_last14 (V : Valuation τ sig (Elt F)) (c : Dev nD) :
    (dat14 (Ix := Ix) (U := U) (Lvl := Lvl) V c).Φ (Fin.last cfg14.N)
      ⊢ Pipeline.scopedRest (Ix := Ix) (Name := ℕ) (U := U) (Lvl := Lvl) (Val := Elt F) spec14 c := by
  have hN : cfg14.N = 64 := N_14
  rw [show (dat14 (Ix := Ix) (U := U) (Lvl := Lvl) V c).Φ (Fin.last cfg14.N) = Phi14 V c (Fin.last cfg14.N).val (Nat.le_of_lt_succ (Fin.last cfg14.N).isLt) from rfl,
    Phi14_pos V c _ _ (by rw [Fin.val_last]; omega), scopedRest14_split, owns_whole]
  iintro ⟨Hs, Hr⟩
  isplitl [Hs]
  · iexists _; iexact Hs
  iexact Hr

example (V : Valuation τ sig (Elt F)) (c : Dev nD) : Dat τ (Elt F) Ix ℕ U Lvl (cfgs 14) c := dat14 V c

end Cert.KernelIdeal.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k14_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond14_1 (i : grid14.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond14_2 (i : grid14.Coords) : Prop := k14_cond2 i = 1#1

/-- The reset runs at the first point only, -/
theorem hcond14_1 : ∀ t : Fin cfg14.N, cond14_1 (grid14.coords t) ↔ t.val = 0 :=
  (by decide +kernel : ∀ t : Fin grid14.N, cond14_1 (grid14.coords t) ↔ t.val = 0)
/-- the copy at the last point only. -/
theorem hcond14_2 : ∀ t : Fin cfg14.N, cond14_2 (grid14.coords t) ↔ t.val = 63 :=
  (by decide +kernel : ∀ t : Fin grid14.N, cond14_2 (grid14.coords t) ↔ t.val = 63)

/-! ## The body, case by case, on any whole memrefs -/

/-- The first point: the scratch cell, at anything, is reset and then holds the first step on zero. -/
theorem run14_A (𝒱₀ : Variants) (c : Dev nD) (i : grid14.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond14_1 i) (hc2 : ¬cond14_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k14_pay2 x2 x3 (k14_pay1 (F := F)))) -∗ K ⟨⟩))
      ⊢ wp frame (wpE (defs₀ (F := F)) 𝒱₀ c none) E (cc14__sum_kernel i arg2 harg2 arg3 harg3 arg4 harg4 arg5 harg5) K := by
  simp only [cc14__sum_kernel_eq_skeleton]; unfold cc14__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run14_A.sl.v15 run14_A.sl.H5_1
  rw [readCov_whole _ zeros2, readAt_whole _ _ zeros2, readAt_whole _ _ zeros2]

/-- A point strictly between the first and the last: the scratch cell at `a` takes the point's step. -/
theorem run14_B (𝒱₀ : Variants) (c : Dev nD) (i : grid14.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond14_1 i) (hc2 : ¬cond14_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k14_pay2 x2 x3 a)) -∗ K ⟨⟩))
      ⊢ wp frame (wpE (defs₀ (F := F)) 𝒱₀ c none) E (cc14__sum_kernel i arg2 harg2 arg3 harg3 arg4 harg4 arg5 harg5) K := by
  simp only [cc14__sum_kernel_eq_skeleton]; unfold cc14__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run14_C (𝒱₀ : Variants) (c : Dev nD) (i : grid14.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond14_1 i) (hc2 : cond14_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k14_pay2 x2 x3 a) ∗ owns (c : Thread nD τ) arg5 fullShare (k14_pay2 x2 x3 a)) -∗ K ⟨⟩))
      ⊢ wp frame (wpE (defs₀ (F := F)) 𝒱₀ c none) E (cc14__sum_kernel i arg2 harg2 arg3 harg3 arg4 harg4 arg5 harg5) K := by
  simp only [cc14__sum_kernel_eq_skeleton]; unfold cc14__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run14_C.sl.v25 run14_C.sl.H5_1
    rw [readCov_whole _ zeros2, readAt_whole _ _ zeros2, readAt_whole _ _ zeros2, readAt_whole _ _ zeros2]
  iexists _; isplitr
  swap; · iexact H5
  ipureintro
  unfold run14_C.sl.H5_1
  rw [read_writes_whole _ _ zeros2, readAt_whole _ _ zeros2, readAt_whole _ _ zeros2, readAt_whole _ _ zeros2]

end Cert.KernelIdeal.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle14_2 : ∀ t : Fin cfg14.N, cfg14.idle 2 (grid14.coords t) = true ↔ t.val ≠ 63 :=
  (by decide +kernel : ∀ t : Fin grid14.N, idle14 2 (grid14.coords t) = true ↔ t.val ≠ 63)
/-- and written back at the last point only. -/
theorem flush14_2' : ∀ t : Fin cfg14.N, (cfg14.win 2).flush t = true ↔ t.val = 63 :=
  (by decide +kernel : ∀ t : Fin grid14.N, win14_2.flush t = true ↔ t.val = 63)

/-! ## What the body finds in the inputs' buffers -/

/-- Each input's current staging buffer holds its block at every point, fetched there or not: unfetched, the block
    index has not moved and the body left the block in place. -/
theorem before14_0 (V : Valuation τ sig (Elt F)) (c : Dev nD) (t : Fin cfg14.N) (d) :
    (dat14 (Ix := Ix) (U := U) (Lvl := Lvl) V c).before 0 t d = iblk14 V c 0 t :=
  ((dat14 (Ix := Ix) (U := U) (Lvl := Lvl) V c).before_in_eq_fetched 0 rfl (fun _ => rfl) (fun _ _ _ => rfl)
      (fun t => by rw [after14_0]; unfold Dat.blockOf iblk14; rw [A_eq14]; try rfl) t d).trans
    (by unfold Dat.fetched Dat.blockOf iblk14; rw [A_eq14]; try rfl)

theorem before14_1 (V : Valuation τ sig (Elt F)) (c : Dev nD) (t : Fin cfg14.N) (d) :
    (dat14 (Ix := Ix) (U := U) (Lvl := Lvl) V c).before 1 t d = iblk14 V c 1 t :=
  ((dat14 (Ix := Ix) (U := U) (Lvl := Lvl) V c).before_in_eq_fetched 1 rfl (fun _ => rfl) (fun _ _ _ => rfl)
      (fun t => by rw [after14_1]; unfold Dat.blockOf iblk14; rw [A_eq14]; try rfl) t d).trans
    (by unfold Dat.fetched Dat.blockOf iblk14; rw [A_eq14]; try rfl)

/-! ## What the obligation asks of each window's buffer after the body -/

/-- The inputs are never idle: their buffers are handed back at their blocks. -/
theorem leaves14_0 (V : Valuation τ sig (Elt F)) (c : Dev nD) (t : Fin cfg14.N) :
    (dat14 (Ix := Ix) (U := U) (Lvl := Lvl) V c).leaves 0 t = owns (c : Thread nD τ) (st14_0 t) fullShare (iblk14 V c 0 t) := by
  rw [← after14_0 (Ix := Ix) (U := U) (Lvl := Lvl) V c t]

theorem leaves14_1 (V : Valuation τ sig (Elt F)) (c : Dev nD) (t : Fin cfg14.N) :
    (dat14 (Ix := Ix) (U := U) (Lvl := Lvl) V c).leaves 1 t = owns (c : Thread nD τ) (st14_1 t) fullShare (iblk14 V c 1 t) := by
  rw [← after14_1 (Ix := Ix) (U := U) (Lvl := Lvl) V c t]

/-- The output is idle, and not written back, at every point but the last: its buffer is handed back as found; -/
theorem leaves14_2_idle (V : Valuation τ sig (Elt F)) (c : Dev nD) (t : Fin cfg14.N) (h : t.val ≠ 63) :
    (dat14 (Ix := Ix) (U := U) (Lvl := Lvl) V c).leaves 2 t
      = iprop(∃ d, owns (c : Thread nD τ) (st14_2 t) fullShare ((dat14 (Ix := Ix) (U := U) (Lvl := Lvl) V c).before 2 t d)) :=
  (dat14 (Ix := Ix) (U := U) (Lvl := Lvl) V c).leaves_idle 2 t ((idle14_2 t).mpr h)
    (Bool.eq_false_iff.mpr fun hf => h ((flush14_2' t).mp hf))

/-- at the last point it is handed back at the accumulated sum. -/
theorem leaves14_2_last (V : Valuation τ sig (Elt F)) (c : Dev nD) (t : Fin cfg14.N) (h : t.val = 63) :
    (dat14 (Ix := Ix) (U := U) (Lvl := Lvl) V c).leaves 2 t = owns (c : Thread nD τ) (st14_2 t) fullShare (acc14 V c t.val t.isLt) := by
  have hl : cfg14.idle 2 (grid14.coords t) = false := by
    cases hi : cfg14.idle 2 (grid14.coords t) with
    | false => rfl
    | true => exact absurd h ((idle14_2 t).mp hi)
  rw [← after14_2 (Ix := Ix) (U := U) (Lvl := Lvl) V c t]
  unfold Dat.leaves; rw [hl]

/-- One step at a point, through the point itself. -/
theorem step14_at (V : Valuation τ sig (Elt F)) (c : Dev nD) (t : Fin cfg14.N) (a : Vec F S1x1 .f32) :
    step14 V c t.val t.isLt a = k14_pay2 (iblk14 V c 0 t) (iblk14 V c 1 t) a := rfl

theorem acc14_first (V : Valuation τ sig (Elt F)) (c : Dev nD) (n : ℕ) (hn : n < cfg14.N) (hz : n = 0) :
    acc14 V c n hn = step14 V c n hn (k14_pay1 (F := F)) := by
  subst hz; rfl

/-! ## The body obligation -/

/-- What the body is called with at point `t` (the obligation's precondition, the windows one by one), -/
noncomputable def bodyPre14 (V : Valuation τ sig (Elt F)) (ι : Ix) (c : Dev nD) (t : Fin cfg14.N) : sProp 𝕄 :=
  iprop((dat14 (Ix := Ix) (U := U) (Lvl := Lvl) V c).Φ t.castSucc ∗ (dat14 (Ix := Ix) (U := U) (Lvl := Lvl) V c).owesAt ι t.castSucc
    ∗ (∃ d, owns (c : Thread nD τ) (st14_0 t) fullShare ((dat14 (Ix := Ix) (U := U) (Lvl := Lvl) V c).before 0 t d))
    ∗ (∃ d, owns (c : Thread nD τ) (st14_1 t) fullShare ((dat14 (Ix := Ix) (U := U) (Lvl := Lvl) V c).before 1 t d))
    ∗ (∃ d, owns (c : Thread nD τ) (st14_2 t) fullShare ((dat14 (Ix := Ix) (U := U) (Lvl := Lvl) V c).before 2 t d)))

/-- and what it returns. -/
noncomputable def bodyPost14 (V : Valuation τ sig (Elt F)) (ι : Ix) (c : Dev nD) (t : Fin cfg14.N) : sProp 𝕄 :=
  iprop((dat14 (Ix := Ix) (U := U) (Lvl := Lvl) V c).Φ t.succ ∗ (dat14 (Ix := Ix) (U := U) (Lvl := Lvl) V c).owesAt ι t.succ
    ∗ (dat14 (Ix := Ix) (U := U) (Lvl := Lvl) V c).leaves 0 t ∗ (dat14 (Ix := Ix) (U := U) (Lvl := Lvl) V c).leaves 1 t ∗ (dat14 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body14 (V : Valuation τ sig (Elt F)) (𝒱₀ : Variants) (ι : Ix) (c : Dev nD) (t : Fin cfg14.N) :
    bodyPre14 (U := U) (Lvl := Lvl) V ι c t
      ⊢ wp frame (wpE (defs₀ (F := F)) 𝒱₀ c none) Set.univ (bodyAt14 t) (fun _ => bodyPost14 (U := U) (Lvl := Lvl) V ι c t) := by
  unfold bodyPre14 bodyPost14 bodyAt14
  simp only [before14_0, before14_1]
  rw [show (dat14 (Ix := Ix) (U := U) (Lvl := Lvl) V c).owesAt ι t.succ = (dat14 (Ix := Ix) (U := U) (Lvl := Lvl) V c).owesAt ι t.castSucc from rfl]
  rw [Phi14_at_succ, Phi14_succ, Phi14_castSucc, leaves14_0, leaves14_1]
  have hN : t.val < 64 := lt_of_lt_of_eq t.isLt N_14
  by_cases hz : t.val = 0
  · have hc1 : cond14_1 (grid14.coords t) := (hcond14_1 t).mpr hz
    have hc2 : ¬cond14_2 (grid14.coords t) := fun h => by have := (hcond14_2 t).mp h; omega
    rw [leaves14_2_idle V c t (by omega), Phi14_zero V c _ _ hz, scopedRest14_split, acc14_first V c _ _ hz, step14_at]
    iintro ⟨⟨⟨%f, Hs⟩, Hr⟩, Ho, ⟨%d0, H0⟩, ⟨%d1, H1⟩, H2⟩
    iapply (run14_A 𝒱₀ c (grid14.coords t) _ _ _ _ _ _ _ _ hc1 hc2 (iblk14 V c 0 t) (iblk14 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond14_1 (grid14.coords t) := fun h => hz ((hcond14_1 t).mp h)
    rw [Phi14_pos V c _ _ hz, acc14_pos V c _ _ hz, step14_at]
    by_cases hl : t.val = 63
    · have hc2 : cond14_2 (grid14.coords t) := (hcond14_2 t).mpr hl
      rw [leaves14_2_last V c t hl, acc14_pos V c _ _ hz, step14_at]
      iintro ⟨⟨Hs, Hr⟩, Ho, ⟨%d0, H0⟩, ⟨%d1, H1⟩, ⟨%d2, H2⟩⟩
      iapply (run14_C 𝒱₀ c (grid14.coords t) _ _ _ _ _ _ _ _ hc1 hc2 (iblk14 V c 0 t) (iblk14 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond14_2 (grid14.coords t) := fun h => hl ((hcond14_2 t).mp h)
      rw [leaves14_2_idle V c t hl]
      iintro ⟨⟨Hs, Hr⟩, Ho, ⟨%d0, H0⟩, ⟨%d1, H1⟩, H2⟩
      iapply (run14_B 𝒱₀ c (grid14.coords t) _ _ _ _ _ _ _ _ hc1 hc2 (iblk14 V c 0 t) (iblk14 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body14 (V : Valuation τ sig (Elt F)) (𝒱₀ : Variants) (ι : Ix) :
    ∀ c : Dev nD, BodyObligationLoose (dat14 (Ix := Ix) (U := U) (Lvl := Lvl) V c) (defs₀ (F := F)) 𝒱₀ ι Set.univ := fun c t => by
  rw [bigSep_W14, bigSep_W14]
  exact sound_body14 (U := U) (Lvl := Lvl) V 𝒱₀ ι c t

end Cert.KernelIdeal.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg14

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (14 : Fin 24)
/-- Its configuration, its windows but for their index maps, the number of its windows. -/
abbrev cfgK : Pipeline.Cfg sig Λ₀ := cfg14
abbrev specK : Fin 3 → Pipeline.WinSpec sig cfgK.grid.rank := spec14
abbrev nW : Nat := 3
/-- Its output window and the buffer behind it. -/
abbrev oK : Fin nW := 2
abbrev outK : Ref sig .tc := main_v508
theorem winK : Pipeline.WinFacts₀ specK := winFacts₀14
theorem block_posK : ∀ w : Fin nW, 0 < (specK w).block.numel := block_pos14
theorem arr_wholeK : ∀ w : Fin nW, (specK w).arr.IsWhole := arr_whole14
theorem stage_wholeK : ∀ (w : Fin nW) (s : Fin (specK w).nbuf), ((specK w).stage s).IsWhole := stage_whole14

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.KernelIdeal.Hand.Reg14

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R14' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (14 : Fin 24) c = dat14 (V81 m outs c) c)
    (hbody : ∀ c : Dev nD, Pipeline.BodyObligationLoose (dat14 (Ix := Ix) (U := U) (Lvl := Lvl) (V81 m outs c) c) (defs₀ (F := F)) 𝒱₀ ι Set.univ) :
    RegionSeg (pcfgs (F := F)) GenP.adm pdats ι defs₀ 𝒱₀ L lv (14 : Fin 24) :=
  Reg14.RK 𝒱₀ L lv ι pdats (fun c => V81 m outs c)
    (fun c => by rw [hp c]; exact hbody c)
    (fun c w => by rw [hp c]; exact A_eq14 (V81 m outs c) c w)
    (fun c => by rw [hp c]; exact PosShare.mem_left_op_right fullShare)
    (fun c t => by rw [hp c]; rfl)
    (fun c => by rw [hp c]; rfl)
    (fun c => by rw [hp c, Phi_first14])
    (fun c => by rw [hp c]; exact Phi_last14 (V81 m outs c) c)

/-- It is entered from the thread state before the region's item, -/
theorem hpre14' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (14 : Fin 24) c = dat14 (V81 m outs c) c)
    (hbody : ∀ c : Dev nD, Pipeline.BodyObligationLoose (dat14 (Ix := Ix) (U := U) (Lvl := Lvl) (V81 m outs c) c) (defs₀ (F := F)) 𝒱₀ ι Set.univ)
    (c : Dev nD) :
    iprop(StableHlo.held (c : Thread nD τ) (Pipeline.ucRefs τ sig) (V81 m outs c) ∗ (R c : sProp 𝕄))
      ⊢ (R14' m outs 𝒱₀ L lv ι pdats hp hbody).pre c := .rfl

/-- and left at the thread state after it. -/
theorem hpost14' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (14 : Fin 24) c = dat14 (V81 m outs c) c)
    (hbody : ∀ c : Dev nD, Pipeline.BodyObligationLoose (dat14 (Ix := Ix) (U := U) (Lvl := Lvl) (V81 m outs c) c) (defs₀ (F := F)) 𝒱₀ ι Set.univ)
    (houts : ∀ c : Dev nD, outs 82 main_v508 c = (dat14 (Ix := Ix) (U := U) (Lvl := Lvl) (V81 m outs c) c).arrAt 2 64)
    (c : Dev nD) :
    (R14' m outs 𝒱₀ L lv ι pdats hp hbody).post c
      ⊢ iprop(StableHlo.held (c : Thread nD τ) (Pipeline.ucRefs τ sig) (V82 m outs c) ∗ (R c : sProp 𝕄)) := by
  have h : (pdats (14 : Fin 24) c).arrAt Reg14.oK Reg14.cfgK.N = outs 82 main_v508 c := by
    rw [hp c]; exact (houts c).symm
  show iprop(StableHlo.held (c : Thread nD τ) (Pipeline.ucRefs τ sig)
      (Function.update (V81 m outs c) (Proc.devRef .tc main_v508) ((pdats (14 : Fin 24) c).arrAt Reg14.oK Reg14.cfgK.N))
        ∗ (R c : sProp 𝕄)) ⊢ _
  rw [h]

end Cert.KernelIdeal.Hand
-- ==== Proof.Rg15.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.ApplyLib
import proofs.«169706_j68856915690108_1_alg».proof.Proof.Shared
import proofs.«169706_j68856915690108_1_alg».proof.Proof.RegionsKI

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k15_pay1 x_i` and `step t a = k15_pay2 h_i h_j threshold x_j a`, the printed payloads of the two stores.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk15 (V : Valuation τ sig (Elt F)) (c : Dev nD) (w : Fin cfg15.W) (t : Fin cfg15.N) :
    ((cfg15.win w).xblock (cfg15.grid.coords t)).Idx → Elt F (cfg15.win w).elt :=
  ((cfg15.win w).blk t).view.read (Elt F)
    (V (Proc.devRef .tc (Pipeline.arrRef spec15 w)) : Buf (Elt F) ((cfg15.win w).arr.view.loc (c.tc : Thread nD τ)))

/-- What the accumulator is reset to at a point whose second coordinate is 0: 1.0 times the block of `x` window 3
    stages there (the printed payload of the first store into the scratch buffer). -/
noncomputable def init15 (V : Valuation τ sig (Elt F)) (c : Dev nD) (n : ℕ) (hn : n < cfg15.N) : Vec F S512x256 .f32 :=
  k15_pay1 (iblk15 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step15 (V : Valuation τ sig (Elt F)) (c : Dev nD) (n : ℕ) (hn : n < cfg15.N) (a : Vec F S512x256 .f32) : Vec F S512x256 .f32 :=
  k15_pay2 (iblk15 V c 1 ⟨n, hn⟩) (iblk15 V c 2 ⟨n, hn⟩) (iblk15 V c 0 ⟨n, hn⟩) (iblk15 V c 4 ⟨n, hn⟩) a

/-- What the accumulator holds after point `n`: reset and stepped at the points ≡ 0 (mod 8), stepped from what the
    point before left at the others. -/
noncomputable def acc15 (V : Valuation τ sig (Elt F)) (c : Dev nD) : (n : ℕ) → n < cfg15.N → Vec F S512x256 .f32
  | 0, hn => step15 V c 0 hn (init15 V c 0 hn)
  | n + 1, hn =>
    if (n + 1) % 8 = 0 then step15 V c (n + 1) hn (init15 V c (n + 1) hn)
    else step15 V c (n + 1) hn (acc15 V c n (Nat.lt_of_succ_lt hn))

/-- After a point ≡ 0 (mod 8): the reset value, stepped once. -/
theorem acc15_reset (V : Valuation τ sig (Elt F)) (c : Dev nD) (n : ℕ) (hn : n < cfg15.N) (h0 : n % 8 = 0) :
    acc15 V c n hn = step15 V c n hn (init15 V c n hn) := by
  cases n with
  | zero => rfl
  | succ n => exact if_pos h0

/-- After any other point: that point's step on what the point before left. -/
theorem acc15_step (V : Valuation τ sig (Elt F)) (c : Dev nD) (n : ℕ) (hn : n < cfg15.N) (h0 : ¬n % 8 = 0) :
    acc15 V c n hn = step15 V c n hn (acc15 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi15 (V : Valuation τ sig (Elt F)) (c : Dev nD) : (n : ℕ) → n ≤ cfg15.N → sProp 𝕄
  | 0, _ => Pipeline.scopedRest (Ix := Ix) (Name := ℕ) (U := U) (Lvl := Lvl) (Val := Elt F) spec15 c
  | n + 1, hn => iprop(owns (c : Thread nD τ) (Memref.whole cc15_scratch0) fullShare (acc15 V c n hn)
      ∗ Pipeline.scopedRestBut (Ix := Ix) (Name := ℕ) (U := U) (Lvl := Lvl) (Val := Elt F) spec15 c [cc15_scratch0])

theorem Phi15_zero (V : Valuation τ sig (Elt F)) (c : Dev nD) (n : ℕ) (h : n ≤ cfg15.N) (hz : n = 0) :
    (Phi15 V c n h : sProp 𝕄) = Pipeline.scopedRest (Ix := Ix) (Name := ℕ) (U := U) (Lvl := Lvl) (Val := Elt F) spec15 c := by
  subst hz; rfl

theorem Phi15_succ (V : Valuation τ sig (Elt F)) (c : Dev nD) (n : ℕ) (hn : n < cfg15.N) :
    (Phi15 V c (n + 1) hn : sProp 𝕄) = iprop(owns (c : Thread nD τ) (Memref.whole cc15_scratch0) fullShare (acc15 V c n hn)
      ∗ Pipeline.scopedRestBut (Ix := Ix) (Name := ℕ) (U := U) (Lvl := Lvl) (Val := Elt F) spec15 c [cc15_scratch0]) := rfl

theorem Phi15_pos (V : Valuation τ sig (Elt F)) (c : Dev nD) (n : ℕ) (h : n ≤ cfg15.N) (hz : n ≠ 0) :
    (Phi15 V c n h : sProp 𝕄) = iprop(owns (c : Thread nD τ) (Memref.whole cc15_scratch0) fullShare (acc15 V c (n - 1) (by omega))
      ∗ Pipeline.scopedRestBut (Ix := Ix) (Name := ℕ) (U := U) (Lvl := Lvl) (Val := Elt F) spec15 c [cc15_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi15`; the
    threshold's array held whole, each of the two arrays that two input windows read held half and half; nothing owed. -/
noncomputable def dat15 (V : Valuation τ sig (Elt F)) (c : Dev nD) : Dat τ (Elt F) Ix ℕ U Lvl cfg15 c where
  A w := V (Proc.devRef .tc (Pipeline.arrRef spec15 w))
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => acc15 V c t.val t.isLt
  Φ t := Phi15 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq15 (V : Valuation τ sig (Elt F)) (c : Dev nD) (w : Fin cfg15.W) :
    (dat15 (Ix := Ix) (U := U) (Lvl := Lvl) V c).A w = V (Proc.devRef .tc (Pipeline.arrRef spec15 w)) := by
  dsimp only [dat15]

/-- What the body leaves, window by window. -/
theorem after15_0 (V : Valuation τ sig (Elt F)) (c : Dev nD) (t : Fin cfg15.N) :
    (dat15 (Ix := Ix) (U := U) (Lvl := Lvl) V c).after 0 t = iblk15 V c 0 t := by dsimp only [dat15]
theorem after15_1 (V : Valuation τ sig (Elt F)) (c : Dev nD) (t : Fin cfg15.N) :
    (dat15 (Ix := Ix) (U := U) (Lvl := Lvl) V c).after 1 t = iblk15 V c 1 t := by dsimp only [dat15]
theorem after15_2 (V : Valuation τ sig (Elt F)) (c : Dev nD) (t : Fin cfg15.N) :
    (dat15 (Ix := Ix) (U := U) (Lvl := Lvl) V c).after 2 t = iblk15 V c 2 t := by dsimp only [dat15]
theorem after15_3 (V : Valuation τ sig (Elt F)) (c : Dev nD) (t : Fin cfg15.N) :
    (dat15 (Ix := Ix) (U := U) (Lvl := Lvl) V c).after 3 t = iblk15 V c 3 t := by dsimp only [dat15]
theorem after15_4 (V : Valuation τ sig (Elt F)) (c : Dev nD) (t : Fin cfg15.N) :
    (dat15 (Ix := Ix) (U := U) (Lvl := Lvl) V c).after 4 t = iblk15 V c 4 t := by dsimp only [dat15]
theorem after15_5 (V : Valuation τ sig (Elt F)) (c : Dev nD) (t : Fin cfg15.N) :
    (dat15 (Ix := Ix) (U := U) (Lvl := Lvl) V c).after 5 t = acc15 V c t.val t.isLt := by dsimp only [dat15]

/-- The shares the input arrays are held at. -/
theorem q15_0 (V : Valuation τ sig (Elt F)) (c : Dev nD) : (dat15 (Ix := Ix) (U := U) (Lvl := Lvl) V c).q 0 = fullShare := by dsimp only [dat15]
theorem q15_1 (V : Valuation τ sig (Elt F)) (c : Dev nD) : (dat15 (Ix := Ix) (U := U) (Lvl := Lvl) V c).q 1 = fullShare.left := by dsimp only [dat15]
theorem q15_2 (V : Valuation τ sig (Elt F)) (c : Dev nD) : (dat15 (Ix := Ix) (U := U) (Lvl := Lvl) V c).q 2 = fullShare.right := by dsimp only [dat15]
theorem q15_3 (V : Valuation τ sig (Elt F)) (c : Dev nD) : (dat15 (Ix := Ix) (U := U) (Lvl := Lvl) V c).q 3 = fullShare.left := by dsimp only [dat15]
theorem q15_4 (V : Valuation τ sig (Elt F)) (c : Dev nD) : (dat15 (Ix := Ix) (U := U) (Lvl := Lvl) V c).q 4 = fullShare.right := by dsimp only [dat15]

/-- The invariant at a point's start, and at its end. -/
theorem Phi15_castSucc (V : Valuation τ sig (Elt F)) (c : Dev nD) (t : Fin cfg15.N) :
    (dat15 (Ix := Ix) (U := U) (Lvl := Lvl) V c).Φ t.castSucc = Phi15 V c t.val (Nat.le_of_lt t.isLt) := by
  dsimp only [dat15]; simp only [Fin.coe_castSucc]

theorem Phi15_at_succ (V : Valuation τ sig (Elt F)) (c : Dev nD) (t : Fin cfg15.N) :
    (dat15 (Ix := Ix) (U := U) (Lvl := Lvl) V c).Φ t.succ = Phi15 V c (t.val + 1) t.isLt := rfl

/-- Before the first point the invariant is the launch's scoped rest. -/
theorem Phi_first15 (V : Valuation τ sig (Elt F)) (c : Dev nD) :
    (dat15 (Ix := Ix) (U := U) (Lvl := Lvl) V c).Φ 0
      = Pipeline.scopedRest (Ix := Ix) (Name := ℕ) (U := U) (Lvl := Lvl) (Val := Elt F) spec15 c := rfl

/-- After the last point the invariant gives the scoped rest back: the accumulator's contents are forgotten. -/
theorem Phi_last15 (V : Valuation τ sig (Elt F)) (c : Dev nD) :
    (dat15 (Ix := Ix) (U := U) (Lvl := Lvl) V c).Φ (Fin.last cfg15.N)
      ⊢ Pipeline.scopedRest (Ix := Ix) (Name := ℕ) (U := U) (Lvl := Lvl) (Val := Elt F) spec15 c := by
  have hN : cfg15.N = 64 := N_15
  rw [show (dat15 (Ix := Ix) (U := U) (Lvl := Lvl) V c).Φ (Fin.last cfg15.N) = Phi15 V c (Fin.last cfg15.N).val (Nat.le_of_lt_succ (Fin.last cfg15.N).isLt) from rfl,
    Phi15_pos V c _ _ (by rw [Fin.val_last]; omega), scopedRest15_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 15) c := dat15 V c

end Cert.KernelIdeal.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k15_pay2 hI hJ mn xJ s` — `s` plus the 0/1 mask of (hI · hJᵀ > mn) times `xJ` — and the value
  the accumulator is reset to is `k15_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond15_0 (i : grid15.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond15_1 (i : grid15.Coords) : Prop := k15_cond2 i = 1#1

/-! ## The three runs -/

/-- At a point whose second coordinate is 0 (and not 7): the accumulator, at anything, is reset to `k15_pay1 xI` and
    stepped once; every window's buffer is handed back as found. -/
theorem run15_first (𝒱₀ : Variants) (c : Dev nD) (i : grid15.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond15_0 i) (hc1 : ¬cond15_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k15_pay2 hI hJ mn xJ (k15_pay1 xI))) -∗ K ⟨⟩))
      ⊢ wp frame (wpE (defs₀ (F := F)) 𝒱₀ c none) E (cc15__apply_kernel i arg2 harg2 arg3 harg3 arg4 harg4 arg5 harg5 arg6 harg6 arg7 harg7 arg8 harg8) K := by
  simp only [cc15__apply_kernel_eq_skeleton]; unfold cc15__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run15_mid (𝒱₀ : Variants) (c : Dev nD) (i : grid15.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond15_0 i) (hc1 : ¬cond15_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k15_pay2 hI hJ mn xJ s)) -∗ K ⟨⟩))
      ⊢ wp frame (wpE (defs₀ (F := F)) 𝒱₀ c none) E (cc15__apply_kernel i arg2 harg2 arg3 harg3 arg4 harg4 arg5 harg5 arg6 harg6 arg7 harg7 arg8 harg8) K := by
  simp only [cc15__apply_kernel_eq_skeleton]; unfold cc15__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run15_last (𝒱₀ : Variants) (c : Dev nD) (i : grid15.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond15_0 i) (hc1 : cond15_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k15_pay2 hI hJ mn xJ s)
        ∗ owns (c : Thread nD τ) arg8 fullShare (k15_pay2 hI hJ mn xJ s)) -∗ K ⟨⟩))
      ⊢ wp frame (wpE (defs₀ (F := F)) 𝒱₀ c none) E (cc15__apply_kernel i arg2 harg2 arg3 harg3 arg4 harg4 arg5 harg5 arg6 harg6 arg7 harg7 arg8 harg8) K := by
  simp only [cc15__apply_kernel_eq_skeleton]; unfold cc15__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.KernelIdeal.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc15`. The three control cases are
  decided over the grid by the point's residue mod 8, and in each the kernel's run (ApplyRun.lean) applies.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond15_0 : ∀ t : Fin cfg15.N, cond15_0 (grid15.coords t) ↔ t.val % 8 = 0 :=
  (by decide +kernel : ∀ t : Fin grid15.N, cond15_0 (grid15.coords t) ↔ t.val % 8 = 0)
/-- It is stored into the output block at the points ≡ 7 (mod 8). -/
theorem hcond15_1 : ∀ t : Fin cfg15.N, cond15_1 (grid15.coords t) ↔ t.val % 8 = 7 :=
  (by decide +kernel : ∀ t : Fin grid15.N, cond15_1 (grid15.coords t) ↔ t.val % 8 = 7)
/-- The output window is idle at every other point, -/
theorem idleAt15_5 : ∀ t : Fin cfg15.N, ¬t.val % 8 = 7 → cfg15.idle 5 (grid15.coords t) = true :=
  (by decide +kernel : ∀ t : Fin grid15.N, ¬t.val % 8 = 7 → cfg15.idle 5 (grid15.coords t) = true)
/-- live at those, -/
theorem liveAt15_5 : ∀ t : Fin cfg15.N, t.val % 8 = 7 → cfg15.idle 5 (grid15.coords t) = false :=
  (by decide +kernel : ∀ t : Fin grid15.N, t.val % 8 = 7 → cfg15.idle 5 (grid15.coords t) = false)
/-- and not written back where it is idle. -/
theorem noFlush15_5 (t : Fin cfg15.N) (h : ¬t.val % 8 = 7) : (cfg15.win 5).flush t = false := by
  cases hf : (cfg15.win 5).flush t with
  | false => rfl
  | true => exact absurd ((flush15_5 t).mp hf) h

/-! ## What the body finds in the inputs' buffers and leaves in every buffer -/

/-- Each input's current staging buffer holds its block at every point, fetched there or not. -/
theorem before15_0 (V : Valuation τ sig (Elt F)) (c : Dev nD) (t : Fin cfg15.N) (d) : (dat15 (Ix := Ix) (U := U) (Lvl := Lvl) V c).before 0 t d = iblk15 V c 0 t :=
  ((dat15 (Ix := Ix) (U := U) (Lvl := Lvl) V c).before_in_eq_fetched 0 rfl (fun _ => rfl) (fun _ _ _ => rfl)
      (fun t => by rw [after15_0]; unfold Dat.blockOf iblk15; rw [A_eq15]; try rfl) t d).trans
    (by unfold Dat.fetched Dat.blockOf iblk15; rw [A_eq15]; try rfl)
theorem before15_1 (V : Valuation τ sig (Elt F)) (c : Dev nD) (t : Fin cfg15.N) (d) : (dat15 (Ix := Ix) (U := U) (Lvl := Lvl) V c).before 1 t d = iblk15 V c 1 t :=
  ((dat15 (Ix := Ix) (U := U) (Lvl := Lvl) V c).before_in_eq_fetched 1 rfl (fun _ => rfl) (fun _ _ _ => rfl)
      (fun t => by rw [after15_1]; unfold Dat.blockOf iblk15; rw [A_eq15]; try rfl) t d).trans
    (by unfold Dat.fetched Dat.blockOf iblk15; rw [A_eq15]; try rfl)
theorem before15_2 (V : Valuation τ sig (Elt F)) (c : Dev nD) (t : Fin cfg15.N) (d) : (dat15 (Ix := Ix) (U := U) (Lvl := Lvl) V c).before 2 t d = iblk15 V c 2 t :=
  ((dat15 (Ix := Ix) (U := U) (Lvl := Lvl) V c).before_in_eq_fetched 2 rfl (fun _ => rfl) (fun _ _ _ => rfl)
      (fun t => by rw [after15_2]; unfold Dat.blockOf iblk15; rw [A_eq15]; try rfl) t d).trans
    (by unfold Dat.fetched Dat.blockOf iblk15; rw [A_eq15]; try rfl)
theorem before15_3 (V : Valuation τ sig (Elt F)) (c : Dev nD) (t : Fin cfg15.N) (d) : (dat15 (Ix := Ix) (U := U) (Lvl := Lvl) V c).before 3 t d = iblk15 V c 3 t :=
  ((dat15 (Ix := Ix) (U := U) (Lvl := Lvl) V c).before_in_eq_fetched 3 rfl (fun _ => rfl) (fun _ _ _ => rfl)
      (fun t => by rw [after15_3]; unfold Dat.blockOf iblk15; rw [A_eq15]; try rfl) t d).trans
    (by unfold Dat.fetched Dat.blockOf iblk15; rw [A_eq15]; try rfl)
theorem before15_4 (V : Valuation τ sig (Elt F)) (c : Dev nD) (t : Fin cfg15.N) (d) : (dat15 (Ix := Ix) (U := U) (Lvl := Lvl) V c).before 4 t d = iblk15 V c 4 t :=
  ((dat15 (Ix := Ix) (U := U) (Lvl := Lvl) V c).before_in_eq_fetched 4 rfl (fun _ => rfl) (fun _ _ _ => rfl)
      (fun t => by rw [after15_4]; unfold Dat.blockOf iblk15; rw [A_eq15]; try rfl) t d).trans
    (by unfold Dat.fetched Dat.blockOf iblk15; rw [A_eq15]; try rfl)

/-! ## The body obligation, at a generic point -/

/-- What the body is called with at point `t` (the obligation's precondition, the windows one by one), -/
noncomputable def bodyPre15 (V : Valuation τ sig (Elt F)) (c : Dev nD) (ι : Ix) (t : Fin cfg15.N) : sProp 𝕄 :=
  iprop((dat15 (Ix := Ix) (U := U) (Lvl := Lvl) V c).Φ t.castSucc ∗ (dat15 (Ix := Ix) (U := U) (Lvl := Lvl) V c).owesAt ι t.castSucc
    ∗ (∃ d, owns (c : Thread nD τ) (st15_0 t) fullShare ((dat15 (Ix := Ix) (U := U) (Lvl := Lvl) V c).before 0 t d))
    ∗ (∃ d, owns (c : Thread nD τ) (st15_1 t) fullShare ((dat15 (Ix := Ix) (U := U) (Lvl := Lvl) V c).before 1 t d))
    ∗ (∃ d, owns (c : Thread nD τ) (st15_2 t) fullShare ((dat15 (Ix := Ix) (U := U) (Lvl := Lvl) V c).before 2 t d))
    ∗ (∃ d, owns (c : Thread nD τ) (st15_3 t) fullShare ((dat15 (Ix := Ix) (U := U) (Lvl := Lvl) V c).before 3 t d))
    ∗ (∃ d, owns (c : Thread nD τ) (st15_4 t) fullShare ((dat15 (Ix := Ix) (U := U) (Lvl := Lvl) V c).before 4 t d))
    ∗ (∃ d, owns (c : Thread nD τ) (st15_5 t) fullShare ((dat15 (Ix := Ix) (U := U) (Lvl := Lvl) V c).before 5 t d)))

/-- and what it returns. -/
noncomputable def bodyPost15 (V : Valuation τ sig (Elt F)) (c : Dev nD) (ι : Ix) (t : Fin cfg15.N) : sProp 𝕄 :=
  iprop((dat15 (Ix := Ix) (U := U) (Lvl := Lvl) V c).Φ t.succ ∗ (dat15 (Ix := Ix) (U := U) (Lvl := Lvl) V c).owesAt ι t.succ
    ∗ (dat15 (Ix := Ix) (U := U) (Lvl := Lvl) V c).leaves 0 t ∗ (dat15 (Ix := Ix) (U := U) (Lvl := Lvl) V c).leaves 1 t ∗ (dat15 (Ix := Ix) (U := U) (Lvl := Lvl) V c).leaves 2 t
    ∗ (dat15 (Ix := Ix) (U := U) (Lvl := Lvl) V c).leaves 3 t ∗ (dat15 (Ix := Ix) (U := U) (Lvl := Lvl) V c).leaves 4 t ∗ (dat15 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body15 (𝒱₀ : Variants) (ι : Ix) (V : Valuation τ sig (Elt F)) (c : Dev nD) (t : Fin cfg15.N) :
    bodyPre15 (Ix := Ix) (U := U) (Lvl := Lvl) V c ι t ⊢ wp frame (wpE (defs₀ (F := F)) 𝒱₀ c none) Set.univ (bodyAt15 t) (fun _ => bodyPost15 (Ix := Ix) (U := U) (Lvl := Lvl) V c ι t) := by
  unfold bodyPre15 bodyPost15 bodyAt15
  simp only [before15_0, before15_1, before15_2, before15_3, before15_4]
  rw [show (dat15 (Ix := Ix) (U := U) (Lvl := Lvl) V c).owesAt ι t.succ = (dat15 (Ix := Ix) (U := U) (Lvl := Lvl) V c).owesAt ι t.castSucc from rfl]
  rw [Phi15_at_succ, Phi15_succ, Phi15_castSucc]
  rw [leaves_live (dat15 (Ix := Ix) (U := U) (Lvl := Lvl) V c) 0 t rfl rfl, leaves_live (dat15 (Ix := Ix) (U := U) (Lvl := Lvl) V c) 1 t rfl rfl, leaves_live (dat15 (Ix := Ix) (U := U) (Lvl := Lvl) V c) 2 t rfl rfl,
    leaves_live (dat15 (Ix := Ix) (U := U) (Lvl := Lvl) V c) 3 t rfl rfl, leaves_live (dat15 (Ix := Ix) (U := U) (Lvl := Lvl) V c) 4 t rfl rfl, after15_0, after15_1, after15_2, after15_3, after15_4]
  have hN : t.val < 64 := lt_of_lt_of_eq t.isLt (show cfg15.N = 64 from N_15)
  by_cases h0 : t.val % 8 = 0
  · have h7 : ¬t.val % 8 = 7 := by omega
    rw [Dat.leaves_idle (dat15 (Ix := Ix) (U := U) (Lvl := Lvl) V c) 5 t (idleAt15_5 t h7) (noFlush15_5 t h7)]
    rw [acc15_reset V c t.val t.isLt h0]
    unfold step15 init15
    by_cases hz : t.val = 0
    · rw [Phi15_zero V c _ _ hz, scopedRest15_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run15_first 𝒱₀ c (grid15.coords t) _ _ _ _ _ _ _ _ _ _ _ _ _ _ ((hcond15_0 t).mpr h0) (fun h => h7 ((hcond15_1 t).mp h)) (iblk15 V c 0 t) (iblk15 V c 1 t) (iblk15 V c 2 t) (iblk15 V c 3 t) (iblk15 V c 4 t) ((dat15 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi15_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run15_first 𝒱₀ c (grid15.coords t) _ _ _ _ _ _ _ _ _ _ _ _ _ _ ((hcond15_0 t).mpr h0) (fun h => h7 ((hcond15_1 t).mp h)) (iblk15 V c 0 t) (iblk15 V c 1 t) (iblk15 V c 2 t) (iblk15 V c 3 t) (iblk15 V c 4 t) ((dat15 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc15_step V c t.val t.isLt h0, Phi15_pos V c _ _ hz]
    unfold step15
    by_cases h7 : t.val % 8 = 7
    · rw [leaves_live (dat15 (Ix := Ix) (U := U) (Lvl := Lvl) V c) 5 t (liveAt15_5 t h7) rfl, after15_5, acc15_step V c t.val t.isLt h0]
      unfold step15
      iintro ⟨⟨HS, Hr⟩, Ho, ⟨%d0, H0⟩, ⟨%d1, H1⟩, ⟨%d2, H2⟩, ⟨%d3, H3⟩, ⟨%d4, H4⟩, ⟨%d5, H5⟩⟩
      iapply (run15_last 𝒱₀ c (grid15.coords t) _ _ _ _ _ _ _ _ _ _ _ _ _ _ (fun h => h0 ((hcond15_0 t).mp h)) ((hcond15_1 t).mpr h7) (iblk15 V c 0 t) (iblk15 V c 1 t) (iblk15 V c 2 t) (iblk15 V c 3 t) (iblk15 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat15 (Ix := Ix) (U := U) (Lvl := Lvl) V c) 5 t (idleAt15_5 t h7) (noFlush15_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run15_mid 𝒱₀ c (grid15.coords t) _ _ _ _ _ _ _ _ _ _ _ _ _ _ (fun h => h0 ((hcond15_0 t).mp h)) (fun h => h7 ((hcond15_1 t).mp h)) (iblk15 V c 0 t) (iblk15 V c 1 t) (iblk15 V c 2 t) (iblk15 V c 3 t) (iblk15 V c 4 t) ((dat15 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation15 (𝒱₀ : Variants) (ι : Ix) (V : Valuation τ sig (Elt F)) (c : Dev nD) :
    BodyObligationLoose (dat15 (Ix := Ix) (U := U) (Lvl := Lvl) V c) (defs₀ (F := F)) 𝒱₀ ι Set.univ := fun t => by
  rw [bigSep_W15, bigSep_W15]
  exact sound_body15 𝒱₀ ι V c t

/-- The same at the type the program's family of configurations gives pipeline 1, on every core. -/
theorem body15 (𝒱₀ : Variants) (ι : Ix) (V : Valuation τ sig (Elt F)) :
    ∀ c : Dev nD, BodyObligationLoose (cfg := cfgs 15) (dat15 (Ix := Ix) (U := U) (Lvl := Lvl) V c) (defs₀ (F := F)) 𝒱₀ ι Set.univ :=
  fun c => body_obligation15 𝒱₀ ι V c

end Cert.KernelIdeal.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg15

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (15 : Fin 24)
/-- Its configuration, its windows but for their index maps, the number of its windows. -/
abbrev cfgK : Pipeline.Cfg sig Λ₀ := cfg15
abbrev specK : Fin 6 → Pipeline.WinSpec sig cfgK.grid.rank := spec15
abbrev nW : Nat := 6
/-- Its output window and the buffer behind it. -/
abbrev oK : Fin nW := 5
abbrev outK : Ref sig .tc := main_v511
theorem winK : Pipeline.WinFacts₀ specK := winFacts₀15
theorem block_posK : ∀ w : Fin nW, 0 < (specK w).block.numel := block_pos15
theorem arr_wholeK : ∀ w : Fin nW, (specK w).arr.IsWhole := arr_whole15
theorem stage_wholeK : ∀ (w : Fin nW) (s : Fin (specK w).nbuf), ((specK w).stage s).IsWhole := stage_whole15

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.KernelIdeal.Hand.Reg15

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R15' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (15 : Fin 24) c = dat15 (V83 m outs c) c)
    (hbody : ∀ c : Dev nD, Pipeline.BodyObligationLoose (dat15 (Ix := Ix) (U := U) (Lvl := Lvl) (V83 m outs c) c) (defs₀ (F := F)) 𝒱₀ ι Set.univ) :
    RegionSeg (pcfgs (F := F)) GenP.adm pdats ι defs₀ 𝒱₀ L lv (15 : Fin 24) :=
  Reg15.RK 𝒱₀ L lv ι pdats (fun c => V83 m outs c)
    (fun c => by rw [hp c]; exact hbody c)
    (fun c w => by rw [hp c]; exact A_eq15 (V83 m outs c) c w)
    (fun c => by rw [hp c]; rw [q15_1, q15_2]; exact PosShare.mem_left_op_right fullShare)
    (fun c => by rw [hp c]; rw [q15_3, q15_4]; exact PosShare.mem_left_op_right fullShare)
    (fun c => by rw [hp c]; exact q15_0 (V83 m outs c) c)
    (fun c t => by rw [hp c]; rfl)
    (fun c => by rw [hp c]; rfl)
    (fun c => by rw [hp c, Phi_first15])
    (fun c => by rw [hp c]; exact Phi_last15 (V83 m outs c) c)

/-- It is entered from the thread state before the region's item, -/
theorem hpre15' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (15 : Fin 24) c = dat15 (V83 m outs c) c)
    (hbody : ∀ c : Dev nD, Pipeline.BodyObligationLoose (dat15 (Ix := Ix) (U := U) (Lvl := Lvl) (V83 m outs c) c) (defs₀ (F := F)) 𝒱₀ ι Set.univ)
    (c : Dev nD) :
    iprop(StableHlo.held (c : Thread nD τ) (Pipeline.ucRefs τ sig) (V83 m outs c) ∗ (R c : sProp 𝕄))
      ⊢ (R15' m outs 𝒱₀ L lv ι pdats hp hbody).pre c := .rfl

/-- and left at the thread state after it. -/
theorem hpost15' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (15 : Fin 24) c = dat15 (V83 m outs c) c)
    (hbody : ∀ c : Dev nD, Pipeline.BodyObligationLoose (dat15 (Ix := Ix) (U := U) (Lvl := Lvl) (V83 m outs c) c) (defs₀ (F := F)) 𝒱₀ ι Set.univ)
    (houts : ∀ c : Dev nD, outs 84 main_v511 c = (dat15 (Ix := Ix) (U := U) (Lvl := Lvl) (V83 m outs c) c).arrAt 5 64)
    (c : Dev nD) :
    (R15' m outs 𝒱₀ L lv ι pdats hp hbody).post c
      ⊢ iprop(StableHlo.held (c : Thread nD τ) (Pipeline.ucRefs τ sig) (V84 m outs c) ∗ (R c : sProp 𝕄)) := by
  have h : (pdats (15 : Fin 24) c).arrAt Reg15.oK Reg15.cfgK.N = outs 84 main_v511 c := by
    rw [hp c]; exact (houts c).symm
  show iprop(StableHlo.held (c : Thread nD τ) (Pipeline.ucRefs τ sig)
      (Function.update (V83 m outs c) (Proc.devRef .tc main_v511) ((pdats (15 : Fin 24) c).arrAt Reg15.oK Reg15.cfgK.N))
        ∗ (R c : sProp 𝕄)) ⊢ _
  rw [h]

end Cert.KernelIdeal.Hand
-- ==== Proof.Rg16.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.SumLib
import Idealize.ShloMosaic.Lib.Tactic
import proofs.«169706_j68856915690108_1_alg».proof.Proof.Shared
import proofs.«169706_j68856915690108_1_alg».proof.Proof.RegionsKI

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k16_pay2)

  and only at the last point, 63, is that cell copied into the 1 × 1 output block, which the pipeline then writes back.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk16 (V : Valuation τ sig (Elt F)) (c : Dev nD) (w : Fin cfg16.W) (t : Fin cfg16.N) :
    ((cfg16.win w).xblock (cfg16.grid.coords t)).Idx → Elt F (cfg16.win w).elt :=
  ((cfg16.win w).blk t).view.read (Elt F)
    (V (Proc.devRef .tc (Pipeline.arrRef spec16 w)) : Buf (Elt F) ((cfg16.win w).arr.view.loc (c.tc : Thread nD τ)))

/-- One point's step on the scratch cell: the cell's contents `a` plus the sum of the tile made of the two blocks
    the point stages (the printed payload of the store into the scratch cell). -/
noncomputable def step16 (V : Valuation τ sig (Elt F)) (c : Dev nD) (n : ℕ) (hn : n < cfg16.N) (a : Vec F S1x1 .f32) : Vec F S1x1 .f32 :=
  k16_pay2 (iblk16 V c 0 ⟨n, hn⟩) (iblk16 V c 1 ⟨n, hn⟩) a

/-- What the scratch cell holds after point `n`: the steps of the points `0 … n` applied, first to last, to the
    zero the body stores at point 0. -/
noncomputable def acc16 (V : Valuation τ sig (Elt F)) (c : Dev nD) : (n : ℕ) → n < cfg16.N → Vec F S1x1 .f32
  | 0, hn => step16 V c 0 hn (k16_pay1 (F := F))
  | n + 1, hn => step16 V c (n + 1) hn (acc16 V c n (Nat.lt_of_succ_lt hn))

theorem acc16_zero (V : Valuation τ sig (Elt F)) (c : Dev nD) (hn : 0 < cfg16.N) :
    acc16 V c 0 hn = step16 V c 0 hn (k16_pay1 (F := F)) := rfl

theorem acc16_succ (V : Valuation τ sig (Elt F)) (c : Dev nD) (n : ℕ) (hn : n + 1 < cfg16.N) :
    acc16 V c (n + 1) hn = step16 V c (n + 1) hn (acc16 V c n (Nat.lt_of_succ_lt hn)) := rfl

/-- After a point that is not the first: the step of that point on what the point before left. -/
theorem acc16_pos (V : Valuation τ sig (Elt F)) (c : Dev nD) (n : ℕ) (hn : n < cfg16.N) (hz : n ≠ 0) :
    acc16 V c n hn = step16 V c n hn (acc16 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi16 (V : Valuation τ sig (Elt F)) (c : Dev nD) : (n : ℕ) → n ≤ cfg16.N → sProp 𝕄
  | 0, _ => Pipeline.scopedRest (Ix := Ix) (Name := ℕ) (U := U) (Lvl := Lvl) (Val := Elt F) spec16 c
  | n + 1, hn => iprop(owns (c : Thread nD τ) (Memref.whole cc16_scratch0) fullShare (acc16 V c n hn)
      ∗ Pipeline.scopedRestBut (Ix := Ix) (Name := ℕ) (U := U) (Lvl := Lvl) (Val := Elt F) spec16 c [cc16_scratch0])

theorem Phi16_zero (V : Valuation τ sig (Elt F)) (c : Dev nD) (n : ℕ) (h : n ≤ cfg16.N) (hz : n = 0) :
    (Phi16 V c n h : sProp 𝕄) = Pipeline.scopedRest (Ix := Ix) (Name := ℕ) (U := U) (Lvl := Lvl) (Val := Elt F) spec16 c := by
  subst hz; rfl

theorem Phi16_succ (V : Valuation τ sig (Elt F)) (c : Dev nD) (n : ℕ) (hn : n < cfg16.N) :
    (Phi16 V c (n + 1) hn : sProp 𝕄) = iprop(owns (c : Thread nD τ) (Memref.whole cc16_scratch0) fullShare (acc16 V c n hn)
      ∗ Pipeline.scopedRestBut (Ix := Ix) (Name := ℕ) (U := U) (Lvl := Lvl) (Val := Elt F) spec16 c [cc16_scratch0]) := rfl

theorem Phi16_pos (V : Valuation τ sig (Elt F)) (c : Dev nD) (n : ℕ) (h : n ≤ cfg16.N) (hz : n ≠ 0) :
    (Phi16 V c n h : sProp 𝕄) = iprop(owns (c : Thread nD τ) (Memref.whole cc16_scratch0) fullShare (acc16 V c (n - 1) (by omega))
      ∗ Pipeline.scopedRestBut (Ix := Ix) (Name := ℕ) (U := U) (Lvl := Lvl) (Val := Elt F) spec16 c [cc16_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi16`; the one
    array the two inputs read held half and half; nothing owed. -/
noncomputable def dat16 (V : Valuation τ sig (Elt F)) (c : Dev nD) : Dat τ (Elt F) Ix ℕ U Lvl cfg16 c where
  A w := V (Proc.devRef .tc (Pipeline.arrRef spec16 w))
  after w t := match w with
    | ⟨0, _⟩ => iblk16 V c 0 t
    | ⟨1, _⟩ => iblk16 V c 1 t
    | ⟨2, _⟩ => acc16 V c t.val t.isLt
  Φ t := Phi16 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq16 (V : Valuation τ sig (Elt F)) (c : Dev nD) (w : Fin cfg16.W) :
    (dat16 (Ix := Ix) (U := U) (Lvl := Lvl) V c).A w = V (Proc.devRef .tc (Pipeline.arrRef spec16 w)) := by
  dsimp only [dat16]

/-- What the body leaves, window by window. -/
theorem after16_0 (V : Valuation τ sig (Elt F)) (c : Dev nD) (t : Fin cfg16.N) :
    (dat16 (Ix := Ix) (U := U) (Lvl := Lvl) V c).after 0 t = iblk16 V c 0 t := by dsimp only [dat16]
theorem after16_1 (V : Valuation τ sig (Elt F)) (c : Dev nD) (t : Fin cfg16.N) :
    (dat16 (Ix := Ix) (U := U) (Lvl := Lvl) V c).after 1 t = iblk16 V c 1 t := by dsimp only [dat16]
theorem after16_2 (V : Valuation τ sig (Elt F)) (c : Dev nD) (t : Fin cfg16.N) :
    (dat16 (Ix := Ix) (U := U) (Lvl := Lvl) V c).after 2 t = acc16 V c t.val t.isLt := by dsimp only [dat16]

/-- The invariant at a point's start, and at its end. -/
theorem Phi16_castSucc (V : Valuation τ sig (Elt F)) (c : Dev nD) (t : Fin cfg16.N) :
    (dat16 (Ix := Ix) (U := U) (Lvl := Lvl) V c).Φ t.castSucc = Phi16 V c t.val (Nat.le_of_lt t.isLt) := by
  dsimp only [dat16]; simp only [Fin.coe_castSucc]

theorem Phi16_at_succ (V : Valuation τ sig (Elt F)) (c : Dev nD) (t : Fin cfg16.N) :
    (dat16 (Ix := Ix) (U := U) (Lvl := Lvl) V c).Φ t.succ = Phi16 V c (t.val + 1) t.isLt := rfl

/-- Before the first point the invariant is the launch's scoped rest. -/
theorem Phi_first16 (V : Valuation τ sig (Elt F)) (c : Dev nD) :
    (dat16 (Ix := Ix) (U := U) (Lvl := Lvl) V c).Φ 0
      = Pipeline.scopedRest (Ix := Ix) (Name := ℕ) (U := U) (Lvl := Lvl) (Val := Elt F) spec16 c := rfl

/-- After the last point the invariant gives the scoped rest back: the scratch cell's contents are forgotten. -/
theorem Phi_last16 (V : Valuation τ sig (Elt F)) (c : Dev nD) :
    (dat16 (Ix := Ix) (U := U) (Lvl := Lvl) V c).Φ (Fin.last cfg16.N)
      ⊢ Pipeline.scopedRest (Ix := Ix) (Name := ℕ) (U := U) (Lvl := Lvl) (Val := Elt F) spec16 c := by
  have hN : cfg16.N = 64 := N_16
  rw [show (dat16 (Ix := Ix) (U := U) (Lvl := Lvl) V c).Φ (Fin.last cfg16.N) = Phi16 V c (Fin.last cfg16.N).val (Nat.le_of_lt_succ (Fin.last cfg16.N).isLt) from rfl,
    Phi16_pos V c _ _ (by rw [Fin.val_last]; omega), scopedRest16_split, owns_whole]
  iintro ⟨Hs, Hr⟩
  isplitl [Hs]
  · iexists _; iexact Hs
  iexact Hr

example (V : Valuation τ sig (Elt F)) (c : Dev nD) : Dat τ (Elt F) Ix ℕ U Lvl (cfgs 16) c := dat16 V c

end Cert.KernelIdeal.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k16_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond16_1 (i : grid16.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond16_2 (i : grid16.Coords) : Prop := k16_cond2 i = 1#1

/-- The reset runs at the first point only, -/
theorem hcond16_1 : ∀ t : Fin cfg16.N, cond16_1 (grid16.coords t) ↔ t.val = 0 :=
  (by decide +kernel : ∀ t : Fin grid16.N, cond16_1 (grid16.coords t) ↔ t.val = 0)
/-- the copy at the last point only. -/
theorem hcond16_2 : ∀ t : Fin cfg16.N, cond16_2 (grid16.coords t) ↔ t.val = 63 :=
  (by decide +kernel : ∀ t : Fin grid16.N, cond16_2 (grid16.coords t) ↔ t.val = 63)

/-! ## The body, case by case, on any whole memrefs -/

/-- The first point: the scratch cell, at anything, is reset and then holds the first step on zero. -/
theorem run16_A (𝒱₀ : Variants) (c : Dev nD) (i : grid16.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond16_1 i) (hc2 : ¬cond16_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k16_pay2 x2 x3 (k16_pay1 (F := F)))) -∗ K ⟨⟩))
      ⊢ wp frame (wpE (defs₀ (F := F)) 𝒱₀ c none) E (cc16__sum_kernel i arg2 harg2 arg3 harg3 arg4 harg4 arg5 harg5) K := by
  simp only [cc16__sum_kernel_eq_skeleton]; unfold cc16__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run16_A.sl.v15 run16_A.sl.H5_1
  rw [readCov_whole _ zeros2, readAt_whole _ _ zeros2, readAt_whole _ _ zeros2]

/-- A point strictly between the first and the last: the scratch cell at `a` takes the point's step. -/
theorem run16_B (𝒱₀ : Variants) (c : Dev nD) (i : grid16.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond16_1 i) (hc2 : ¬cond16_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k16_pay2 x2 x3 a)) -∗ K ⟨⟩))
      ⊢ wp frame (wpE (defs₀ (F := F)) 𝒱₀ c none) E (cc16__sum_kernel i arg2 harg2 arg3 harg3 arg4 harg4 arg5 harg5) K := by
  simp only [cc16__sum_kernel_eq_skeleton]; unfold cc16__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run16_C (𝒱₀ : Variants) (c : Dev nD) (i : grid16.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond16_1 i) (hc2 : cond16_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k16_pay2 x2 x3 a) ∗ owns (c : Thread nD τ) arg5 fullShare (k16_pay2 x2 x3 a)) -∗ K ⟨⟩))
      ⊢ wp frame (wpE (defs₀ (F := F)) 𝒱₀ c none) E (cc16__sum_kernel i arg2 harg2 arg3 harg3 arg4 harg4 arg5 harg5) K := by
  simp only [cc16__sum_kernel_eq_skeleton]; unfold cc16__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run16_C.sl.v25 run16_C.sl.H5_1
    rw [readCov_whole _ zeros2, readAt_whole _ _ zeros2, readAt_whole _ _ zeros2, readAt_whole _ _ zeros2]
  iexists _; isplitr
  swap; · iexact H5
  ipureintro
  unfold run16_C.sl.H5_1
  rw [read_writes_whole _ _ zeros2, readAt_whole _ _ zeros2, readAt_whole _ _ zeros2, readAt_whole _ _ zeros2]

end Cert.KernelIdeal.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle16_2 : ∀ t : Fin cfg16.N, cfg16.idle 2 (grid16.coords t) = true ↔ t.val ≠ 63 :=
  (by decide +kernel : ∀ t : Fin grid16.N, idle16 2 (grid16.coords t) = true ↔ t.val ≠ 63)
/-- and written back at the last point only. -/
theorem flush16_2' : ∀ t : Fin cfg16.N, (cfg16.win 2).flush t = true ↔ t.val = 63 :=
  (by decide +kernel : ∀ t : Fin grid16.N, win16_2.flush t = true ↔ t.val = 63)

/-! ## What the body finds in the inputs' buffers -/

/-- Each input's current staging buffer holds its block at every point, fetched there or not: unfetched, the block
    index has not moved and the body left the block in place. -/
theorem before16_0 (V : Valuation τ sig (Elt F)) (c : Dev nD) (t : Fin cfg16.N) (d) :
    (dat16 (Ix := Ix) (U := U) (Lvl := Lvl) V c).before 0 t d = iblk16 V c 0 t :=
  ((dat16 (Ix := Ix) (U := U) (Lvl := Lvl) V c).before_in_eq_fetched 0 rfl (fun _ => rfl) (fun _ _ _ => rfl)
      (fun t => by rw [after16_0]; unfold Dat.blockOf iblk16; rw [A_eq16]; try rfl) t d).trans
    (by unfold Dat.fetched Dat.blockOf iblk16; rw [A_eq16]; try rfl)

theorem before16_1 (V : Valuation τ sig (Elt F)) (c : Dev nD) (t : Fin cfg16.N) (d) :
    (dat16 (Ix := Ix) (U := U) (Lvl := Lvl) V c).before 1 t d = iblk16 V c 1 t :=
  ((dat16 (Ix := Ix) (U := U) (Lvl := Lvl) V c).before_in_eq_fetched 1 rfl (fun _ => rfl) (fun _ _ _ => rfl)
      (fun t => by rw [after16_1]; unfold Dat.blockOf iblk16; rw [A_eq16]; try rfl) t d).trans
    (by unfold Dat.fetched Dat.blockOf iblk16; rw [A_eq16]; try rfl)

/-! ## What the obligation asks of each window's buffer after the body -/

/-- The inputs are never idle: their buffers are handed back at their blocks. -/
theorem leaves16_0 (V : Valuation τ sig (Elt F)) (c : Dev nD) (t : Fin cfg16.N) :
    (dat16 (Ix := Ix) (U := U) (Lvl := Lvl) V c).leaves 0 t = owns (c : Thread nD τ) (st16_0 t) fullShare (iblk16 V c 0 t) := by
  rw [← after16_0 (Ix := Ix) (U := U) (Lvl := Lvl) V c t]

theorem leaves16_1 (V : Valuation τ sig (Elt F)) (c : Dev nD) (t : Fin cfg16.N) :
    (dat16 (Ix := Ix) (U := U) (Lvl := Lvl) V c).leaves 1 t = owns (c : Thread nD τ) (st16_1 t) fullShare (iblk16 V c 1 t) := by
  rw [← after16_1 (Ix := Ix) (U := U) (Lvl := Lvl) V c t]

/-- The output is idle, and not written back, at every point but the last: its buffer is handed back as found; -/
theorem leaves16_2_idle (V : Valuation τ sig (Elt F)) (c : Dev nD) (t : Fin cfg16.N) (h : t.val ≠ 63) :
    (dat16 (Ix := Ix) (U := U) (Lvl := Lvl) V c).leaves 2 t
      = iprop(∃ d, owns (c : Thread nD τ) (st16_2 t) fullShare ((dat16 (Ix := Ix) (U := U) (Lvl := Lvl) V c).before 2 t d)) :=
  (dat16 (Ix := Ix) (U := U) (Lvl := Lvl) V c).leaves_idle 2 t ((idle16_2 t).mpr h)
    (Bool.eq_false_iff.mpr fun hf => h ((flush16_2' t).mp hf))

/-- at the last point it is handed back at the accumulated sum. -/
theorem leaves16_2_last (V : Valuation τ sig (Elt F)) (c : Dev nD) (t : Fin cfg16.N) (h : t.val = 63) :
    (dat16 (Ix := Ix) (U := U) (Lvl := Lvl) V c).leaves 2 t = owns (c : Thread nD τ) (st16_2 t) fullShare (acc16 V c t.val t.isLt) := by
  have hl : cfg16.idle 2 (grid16.coords t) = false := by
    cases hi : cfg16.idle 2 (grid16.coords t) with
    | false => rfl
    | true => exact absurd h ((idle16_2 t).mp hi)
  rw [← after16_2 (Ix := Ix) (U := U) (Lvl := Lvl) V c t]
  unfold Dat.leaves; rw [hl]

/-- One step at a point, through the point itself. -/
theorem step16_at (V : Valuation τ sig (Elt F)) (c : Dev nD) (t : Fin cfg16.N) (a : Vec F S1x1 .f32) :
    step16 V c t.val t.isLt a = k16_pay2 (iblk16 V c 0 t) (iblk16 V c 1 t) a := rfl

theorem acc16_first (V : Valuation τ sig (Elt F)) (c : Dev nD) (n : ℕ) (hn : n < cfg16.N) (hz : n = 0) :
    acc16 V c n hn = step16 V c n hn (k16_pay1 (F := F)) := by
  subst hz; rfl

/-! ## The body obligation -/

/-- What the body is called with at point `t` (the obligation's precondition, the windows one by one), -/
noncomputable def bodyPre16 (V : Valuation τ sig (Elt F)) (ι : Ix) (c : Dev nD) (t : Fin cfg16.N) : sProp 𝕄 :=
  iprop((dat16 (Ix := Ix) (U := U) (Lvl := Lvl) V c).Φ t.castSucc ∗ (dat16 (Ix := Ix) (U := U) (Lvl := Lvl) V c).owesAt ι t.castSucc
    ∗ (∃ d, owns (c : Thread nD τ) (st16_0 t) fullShare ((dat16 (Ix := Ix) (U := U) (Lvl := Lvl) V c).before 0 t d))
    ∗ (∃ d, owns (c : Thread nD τ) (st16_1 t) fullShare ((dat16 (Ix := Ix) (U := U) (Lvl := Lvl) V c).before 1 t d))
    ∗ (∃ d, owns (c : Thread nD τ) (st16_2 t) fullShare ((dat16 (Ix := Ix) (U := U) (Lvl := Lvl) V c).before 2 t d)))

/-- and what it returns. -/
noncomputable def bodyPost16 (V : Valuation τ sig (Elt F)) (ι : Ix) (c : Dev nD) (t : Fin cfg16.N) : sProp 𝕄 :=
  iprop((dat16 (Ix := Ix) (U := U) (Lvl := Lvl) V c).Φ t.succ ∗ (dat16 (Ix := Ix) (U := U) (Lvl := Lvl) V c).owesAt ι t.succ
    ∗ (dat16 (Ix := Ix) (U := U) (Lvl := Lvl) V c).leaves 0 t ∗ (dat16 (Ix := Ix) (U := U) (Lvl := Lvl) V c).leaves 1 t ∗ (dat16 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body16 (V : Valuation τ sig (Elt F)) (𝒱₀ : Variants) (ι : Ix) (c : Dev nD) (t : Fin cfg16.N) :
    bodyPre16 (U := U) (Lvl := Lvl) V ι c t
      ⊢ wp frame (wpE (defs₀ (F := F)) 𝒱₀ c none) Set.univ (bodyAt16 t) (fun _ => bodyPost16 (U := U) (Lvl := Lvl) V ι c t) := by
  unfold bodyPre16 bodyPost16 bodyAt16
  simp only [before16_0, before16_1]
  rw [show (dat16 (Ix := Ix) (U := U) (Lvl := Lvl) V c).owesAt ι t.succ = (dat16 (Ix := Ix) (U := U) (Lvl := Lvl) V c).owesAt ι t.castSucc from rfl]
  rw [Phi16_at_succ, Phi16_succ, Phi16_castSucc, leaves16_0, leaves16_1]
  have hN : t.val < 64 := lt_of_lt_of_eq t.isLt N_16
  by_cases hz : t.val = 0
  · have hc1 : cond16_1 (grid16.coords t) := (hcond16_1 t).mpr hz
    have hc2 : ¬cond16_2 (grid16.coords t) := fun h => by have := (hcond16_2 t).mp h; omega
    rw [leaves16_2_idle V c t (by omega), Phi16_zero V c _ _ hz, scopedRest16_split, acc16_first V c _ _ hz, step16_at]
    iintro ⟨⟨⟨%f, Hs⟩, Hr⟩, Ho, ⟨%d0, H0⟩, ⟨%d1, H1⟩, H2⟩
    iapply (run16_A 𝒱₀ c (grid16.coords t) _ _ _ _ _ _ _ _ hc1 hc2 (iblk16 V c 0 t) (iblk16 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond16_1 (grid16.coords t) := fun h => hz ((hcond16_1 t).mp h)
    rw [Phi16_pos V c _ _ hz, acc16_pos V c _ _ hz, step16_at]
    by_cases hl : t.val = 63
    · have hc2 : cond16_2 (grid16.coords t) := (hcond16_2 t).mpr hl
      rw [leaves16_2_last V c t hl, acc16_pos V c _ _ hz, step16_at]
      iintro ⟨⟨Hs, Hr⟩, Ho, ⟨%d0, H0⟩, ⟨%d1, H1⟩, ⟨%d2, H2⟩⟩
      iapply (run16_C 𝒱₀ c (grid16.coords t) _ _ _ _ _ _ _ _ hc1 hc2 (iblk16 V c 0 t) (iblk16 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond16_2 (grid16.coords t) := fun h => hl ((hcond16_2 t).mp h)
      rw [leaves16_2_idle V c t hl]
      iintro ⟨⟨Hs, Hr⟩, Ho, ⟨%d0, H0⟩, ⟨%d1, H1⟩, H2⟩
      iapply (run16_B 𝒱₀ c (grid16.coords t) _ _ _ _ _ _ _ _ hc1 hc2 (iblk16 V c 0 t) (iblk16 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body16 (V : Valuation τ sig (Elt F)) (𝒱₀ : Variants) (ι : Ix) :
    ∀ c : Dev nD, BodyObligationLoose (dat16 (Ix := Ix) (U := U) (Lvl := Lvl) V c) (defs₀ (F := F)) 𝒱₀ ι Set.univ := fun c t => by
  rw [bigSep_W16, bigSep_W16]
  exact sound_body16 (U := U) (Lvl := Lvl) V 𝒱₀ ι c t

end Cert.KernelIdeal.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg16

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (16 : Fin 24)
/-- Its configuration, its windows but for their index maps, the number of its windows. -/
abbrev cfgK : Pipeline.Cfg sig Λ₀ := cfg16
abbrev specK : Fin 3 → Pipeline.WinSpec sig cfgK.grid.rank := spec16
abbrev nW : Nat := 3
/-- Its output window and the buffer behind it. -/
abbrev oK : Fin nW := 2
abbrev outK : Ref sig .tc := main_v577
theorem winK : Pipeline.WinFacts₀ specK := winFacts₀16
theorem block_posK : ∀ w : Fin nW, 0 < (specK w).block.numel := block_pos16
theorem arr_wholeK : ∀ w : Fin nW, (specK w).arr.IsWhole := arr_whole16
theorem stage_wholeK : ∀ (w : Fin nW) (s : Fin (specK w).nbuf), ((specK w).stage s).IsWhole := stage_whole16

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.KernelIdeal.Hand.Reg16

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R16' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (16 : Fin 24) c = dat16 (V92 m outs c) c)
    (hbody : ∀ c : Dev nD, Pipeline.BodyObligationLoose (dat16 (Ix := Ix) (U := U) (Lvl := Lvl) (V92 m outs c) c) (defs₀ (F := F)) 𝒱₀ ι Set.univ) :
    RegionSeg (pcfgs (F := F)) GenP.adm pdats ι defs₀ 𝒱₀ L lv (16 : Fin 24) :=
  Reg16.RK 𝒱₀ L lv ι pdats (fun c => V92 m outs c)
    (fun c => by rw [hp c]; exact hbody c)
    (fun c w => by rw [hp c]; exact A_eq16 (V92 m outs c) c w)
    (fun c => by rw [hp c]; exact PosShare.mem_left_op_right fullShare)
    (fun c t => by rw [hp c]; rfl)
    (fun c => by rw [hp c]; rfl)
    (fun c => by rw [hp c, Phi_first16])
    (fun c => by rw [hp c]; exact Phi_last16 (V92 m outs c) c)

/-- It is entered from the thread state before the region's item, -/
theorem hpre16' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (16 : Fin 24) c = dat16 (V92 m outs c) c)
    (hbody : ∀ c : Dev nD, Pipeline.BodyObligationLoose (dat16 (Ix := Ix) (U := U) (Lvl := Lvl) (V92 m outs c) c) (defs₀ (F := F)) 𝒱₀ ι Set.univ)
    (c : Dev nD) :
    iprop(StableHlo.held (c : Thread nD τ) (Pipeline.ucRefs τ sig) (V92 m outs c) ∗ (R c : sProp 𝕄))
      ⊢ (R16' m outs 𝒱₀ L lv ι pdats hp hbody).pre c := .rfl

/-- and left at the thread state after it. -/
theorem hpost16' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (16 : Fin 24) c = dat16 (V92 m outs c) c)
    (hbody : ∀ c : Dev nD, Pipeline.BodyObligationLoose (dat16 (Ix := Ix) (U := U) (Lvl := Lvl) (V92 m outs c) c) (defs₀ (F := F)) 𝒱₀ ι Set.univ)
    (houts : ∀ c : Dev nD, outs 93 main_v577 c = (dat16 (Ix := Ix) (U := U) (Lvl := Lvl) (V92 m outs c) c).arrAt 2 64)
    (c : Dev nD) :
    (R16' m outs 𝒱₀ L lv ι pdats hp hbody).post c
      ⊢ iprop(StableHlo.held (c : Thread nD τ) (Pipeline.ucRefs τ sig) (V93 m outs c) ∗ (R c : sProp 𝕄)) := by
  have h : (pdats (16 : Fin 24) c).arrAt Reg16.oK Reg16.cfgK.N = outs 93 main_v577 c := by
    rw [hp c]; exact (houts c).symm
  show iprop(StableHlo.held (c : Thread nD τ) (Pipeline.ucRefs τ sig)
      (Function.update (V92 m outs c) (Proc.devRef .tc main_v577) ((pdats (16 : Fin 24) c).arrAt Reg16.oK Reg16.cfgK.N))
        ∗ (R c : sProp 𝕄)) ⊢ _
  rw [h]

end Cert.KernelIdeal.Hand
-- ==== Proof.Rg17.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.ApplyLib
import proofs.«169706_j68856915690108_1_alg».proof.Proof.Shared
import proofs.«169706_j68856915690108_1_alg».proof.Proof.RegionsKI

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k17_pay1 x_i` and `step t a = k17_pay2 h_i h_j threshold x_j a`, the printed payloads of the two stores.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk17 (V : Valuation τ sig (Elt F)) (c : Dev nD) (w : Fin cfg17.W) (t : Fin cfg17.N) :
    ((cfg17.win w).xblock (cfg17.grid.coords t)).Idx → Elt F (cfg17.win w).elt :=
  ((cfg17.win w).blk t).view.read (Elt F)
    (V (Proc.devRef .tc (Pipeline.arrRef spec17 w)) : Buf (Elt F) ((cfg17.win w).arr.view.loc (c.tc : Thread nD τ)))

/-- What the accumulator is reset to at a point whose second coordinate is 0: 1.0 times the block of `x` window 3
    stages there (the printed payload of the first store into the scratch buffer). -/
noncomputable def init17 (V : Valuation τ sig (Elt F)) (c : Dev nD) (n : ℕ) (hn : n < cfg17.N) : Vec F S512x256 .f32 :=
  k17_pay1 (iblk17 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step17 (V : Valuation τ sig (Elt F)) (c : Dev nD) (n : ℕ) (hn : n < cfg17.N) (a : Vec F S512x256 .f32) : Vec F S512x256 .f32 :=
  k17_pay2 (iblk17 V c 1 ⟨n, hn⟩) (iblk17 V c 2 ⟨n, hn⟩) (iblk17 V c 0 ⟨n, hn⟩) (iblk17 V c 4 ⟨n, hn⟩) a

/-- What the accumulator holds after point `n`: reset and stepped at the points ≡ 0 (mod 8), stepped from what the
    point before left at the others. -/
noncomputable def acc17 (V : Valuation τ sig (Elt F)) (c : Dev nD) : (n : ℕ) → n < cfg17.N → Vec F S512x256 .f32
  | 0, hn => step17 V c 0 hn (init17 V c 0 hn)
  | n + 1, hn =>
    if (n + 1) % 8 = 0 then step17 V c (n + 1) hn (init17 V c (n + 1) hn)
    else step17 V c (n + 1) hn (acc17 V c n (Nat.lt_of_succ_lt hn))

/-- After a point ≡ 0 (mod 8): the reset value, stepped once. -/
theorem acc17_reset (V : Valuation τ sig (Elt F)) (c : Dev nD) (n : ℕ) (hn : n < cfg17.N) (h0 : n % 8 = 0) :
    acc17 V c n hn = step17 V c n hn (init17 V c n hn) := by
  cases n with
  | zero => rfl
  | succ n => exact if_pos h0

/-- After any other point: that point's step on what the point before left. -/
theorem acc17_step (V : Valuation τ sig (Elt F)) (c : Dev nD) (n : ℕ) (hn : n < cfg17.N) (h0 : ¬n % 8 = 0) :
    acc17 V c n hn = step17 V c n hn (acc17 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi17 (V : Valuation τ sig (Elt F)) (c : Dev nD) : (n : ℕ) → n ≤ cfg17.N → sProp 𝕄
  | 0, _ => Pipeline.scopedRest (Ix := Ix) (Name := ℕ) (U := U) (Lvl := Lvl) (Val := Elt F) spec17 c
  | n + 1, hn => iprop(owns (c : Thread nD τ) (Memref.whole cc17_scratch0) fullShare (acc17 V c n hn)
      ∗ Pipeline.scopedRestBut (Ix := Ix) (Name := ℕ) (U := U) (Lvl := Lvl) (Val := Elt F) spec17 c [cc17_scratch0])

theorem Phi17_zero (V : Valuation τ sig (Elt F)) (c : Dev nD) (n : ℕ) (h : n ≤ cfg17.N) (hz : n = 0) :
    (Phi17 V c n h : sProp 𝕄) = Pipeline.scopedRest (Ix := Ix) (Name := ℕ) (U := U) (Lvl := Lvl) (Val := Elt F) spec17 c := by
  subst hz; rfl

theorem Phi17_succ (V : Valuation τ sig (Elt F)) (c : Dev nD) (n : ℕ) (hn : n < cfg17.N) :
    (Phi17 V c (n + 1) hn : sProp 𝕄) = iprop(owns (c : Thread nD τ) (Memref.whole cc17_scratch0) fullShare (acc17 V c n hn)
      ∗ Pipeline.scopedRestBut (Ix := Ix) (Name := ℕ) (U := U) (Lvl := Lvl) (Val := Elt F) spec17 c [cc17_scratch0]) := rfl

theorem Phi17_pos (V : Valuation τ sig (Elt F)) (c : Dev nD) (n : ℕ) (h : n ≤ cfg17.N) (hz : n ≠ 0) :
    (Phi17 V c n h : sProp 𝕄) = iprop(owns (c : Thread nD τ) (Memref.whole cc17_scratch0) fullShare (acc17 V c (n - 1) (by omega))
      ∗ Pipeline.scopedRestBut (Ix := Ix) (Name := ℕ) (U := U) (Lvl := Lvl) (Val := Elt F) spec17 c [cc17_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi17`; the
    threshold's array held whole, each of the two arrays that two input windows read held half and half; nothing owed. -/
noncomputable def dat17 (V : Valuation τ sig (Elt F)) (c : Dev nD) : Dat τ (Elt F) Ix ℕ U Lvl cfg17 c where
  A w := V (Proc.devRef .tc (Pipeline.arrRef spec17 w))
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => iblk17 V c 4 t
    | ⟨5, _⟩ => acc17 V c t.val t.isLt
  Φ t := Phi17 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq17 (V : Valuation τ sig (Elt F)) (c : Dev nD) (w : Fin cfg17.W) :
    (dat17 (Ix := Ix) (U := U) (Lvl := Lvl) V c).A w = V (Proc.devRef .tc (Pipeline.arrRef spec17 w)) := by
  dsimp only [dat17]

/-- What the body leaves, window by window. -/
theorem after17_0 (V : Valuation τ sig (Elt F)) (c : Dev nD) (t : Fin cfg17.N) :
    (dat17 (Ix := Ix) (U := U) (Lvl := Lvl) V c).after 0 t = iblk17 V c 0 t := by dsimp only [dat17]
theorem after17_1 (V : Valuation τ sig (Elt F)) (c : Dev nD) (t : Fin cfg17.N) :
    (dat17 (Ix := Ix) (U := U) (Lvl := Lvl) V c).after 1 t = iblk17 V c 1 t := by dsimp only [dat17]
theorem after17_2 (V : Valuation τ sig (Elt F)) (c : Dev nD) (t : Fin cfg17.N) :
    (dat17 (Ix := Ix) (U := U) (Lvl := Lvl) V c).after 2 t = iblk17 V c 2 t := by dsimp only [dat17]
theorem after17_3 (V : Valuation τ sig (Elt F)) (c : Dev nD) (t : Fin cfg17.N) :
    (dat17 (Ix := Ix) (U := U) (Lvl := Lvl) V c).after 3 t = iblk17 V c 3 t := by dsimp only [dat17]
theorem after17_4 (V : Valuation τ sig (Elt F)) (c : Dev nD) (t : Fin cfg17.N) :
    (dat17 (Ix := Ix) (U := U) (Lvl := Lvl) V c).after 4 t = iblk17 V c 4 t := by dsimp only [dat17]
theorem after17_5 (V : Valuation τ sig (Elt F)) (c : Dev nD) (t : Fin cfg17.N) :
    (dat17 (Ix := Ix) (U := U) (Lvl := Lvl) V c).after 5 t = acc17 V c t.val t.isLt := by dsimp only [dat17]

/-- The shares the input arrays are held at. -/
theorem q17_0 (V : Valuation τ sig (Elt F)) (c : Dev nD) : (dat17 (Ix := Ix) (U := U) (Lvl := Lvl) V c).q 0 = fullShare := by dsimp only [dat17]
theorem q17_1 (V : Valuation τ sig (Elt F)) (c : Dev nD) : (dat17 (Ix := Ix) (U := U) (Lvl := Lvl) V c).q 1 = fullShare.left := by dsimp only [dat17]
theorem q17_2 (V : Valuation τ sig (Elt F)) (c : Dev nD) : (dat17 (Ix := Ix) (U := U) (Lvl := Lvl) V c).q 2 = fullShare.right := by dsimp only [dat17]
theorem q17_3 (V : Valuation τ sig (Elt F)) (c : Dev nD) : (dat17 (Ix := Ix) (U := U) (Lvl := Lvl) V c).q 3 = fullShare.left := by dsimp only [dat17]
theorem q17_4 (V : Valuation τ sig (Elt F)) (c : Dev nD) : (dat17 (Ix := Ix) (U := U) (Lvl := Lvl) V c).q 4 = fullShare.right := by dsimp only [dat17]

/-- The invariant at a point's start, and at its end. -/
theorem Phi17_castSucc (V : Valuation τ sig (Elt F)) (c : Dev nD) (t : Fin cfg17.N) :
    (dat17 (Ix := Ix) (U := U) (Lvl := Lvl) V c).Φ t.castSucc = Phi17 V c t.val (Nat.le_of_lt t.isLt) := by
  dsimp only [dat17]; simp only [Fin.coe_castSucc]

theorem Phi17_at_succ (V : Valuation τ sig (Elt F)) (c : Dev nD) (t : Fin cfg17.N) :
    (dat17 (Ix := Ix) (U := U) (Lvl := Lvl) V c).Φ t.succ = Phi17 V c (t.val + 1) t.isLt := rfl

/-- Before the first point the invariant is the launch's scoped rest. -/
theorem Phi_first17 (V : Valuation τ sig (Elt F)) (c : Dev nD) :
    (dat17 (Ix := Ix) (U := U) (Lvl := Lvl) V c).Φ 0
      = Pipeline.scopedRest (Ix := Ix) (Name := ℕ) (U := U) (Lvl := Lvl) (Val := Elt F) spec17 c := rfl

/-- After the last point the invariant gives the scoped rest back: the accumulator's contents are forgotten. -/
theorem Phi_last17 (V : Valuation τ sig (Elt F)) (c : Dev nD) :
    (dat17 (Ix := Ix) (U := U) (Lvl := Lvl) V c).Φ (Fin.last cfg17.N)
      ⊢ Pipeline.scopedRest (Ix := Ix) (Name := ℕ) (U := U) (Lvl := Lvl) (Val := Elt F) spec17 c := by
  have hN : cfg17.N = 64 := N_17
  rw [show (dat17 (Ix := Ix) (U := U) (Lvl := Lvl) V c).Φ (Fin.last cfg17.N) = Phi17 V c (Fin.last cfg17.N).val (Nat.le_of_lt_succ (Fin.last cfg17.N).isLt) from rfl,
    Phi17_pos V c _ _ (by rw [Fin.val_last]; omega), scopedRest17_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 17) c := dat17 V c

end Cert.KernelIdeal.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k17_pay2 hI hJ mn xJ s` — `s` plus the 0/1 mask of (hI · hJᵀ > mn) times `xJ` — and the value
  the accumulator is reset to is `k17_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond17_0 (i : grid17.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond17_1 (i : grid17.Coords) : Prop := k17_cond2 i = 1#1

/-! ## The three runs -/

/-- At a point whose second coordinate is 0 (and not 7): the accumulator, at anything, is reset to `k17_pay1 xI` and
    stepped once; every window's buffer is handed back as found. -/
theorem run17_first (𝒱₀ : Variants) (c : Dev nD) (i : grid17.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond17_0 i) (hc1 : ¬cond17_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k17_pay2 hI hJ mn xJ (k17_pay1 xI))) -∗ K ⟨⟩))
      ⊢ wp frame (wpE (defs₀ (F := F)) 𝒱₀ c none) E (cc17__apply_kernel i arg2 harg2 arg3 harg3 arg4 harg4 arg5 harg5 arg6 harg6 arg7 harg7 arg8 harg8) K := by
  simp only [cc17__apply_kernel_eq_skeleton]; unfold cc17__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run17_mid (𝒱₀ : Variants) (c : Dev nD) (i : grid17.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond17_0 i) (hc1 : ¬cond17_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k17_pay2 hI hJ mn xJ s)) -∗ K ⟨⟩))
      ⊢ wp frame (wpE (defs₀ (F := F)) 𝒱₀ c none) E (cc17__apply_kernel i arg2 harg2 arg3 harg3 arg4 harg4 arg5 harg5 arg6 harg6 arg7 harg7 arg8 harg8) K := by
  simp only [cc17__apply_kernel_eq_skeleton]; unfold cc17__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run17_last (𝒱₀ : Variants) (c : Dev nD) (i : grid17.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond17_0 i) (hc1 : cond17_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k17_pay2 hI hJ mn xJ s)
        ∗ owns (c : Thread nD τ) arg8 fullShare (k17_pay2 hI hJ mn xJ s)) -∗ K ⟨⟩))
      ⊢ wp frame (wpE (defs₀ (F := F)) 𝒱₀ c none) E (cc17__apply_kernel i arg2 harg2 arg3 harg3 arg4 harg4 arg5 harg5 arg6 harg6 arg7 harg7 arg8 harg8) K := by
  simp only [cc17__apply_kernel_eq_skeleton]; unfold cc17__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.KernelIdeal.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc17`. The three control cases are
  decided over the grid by the point's residue mod 8, and in each the kernel's run (ApplyRun.lean) applies.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond17_0 : ∀ t : Fin cfg17.N, cond17_0 (grid17.coords t) ↔ t.val % 8 = 0 :=
  (by decide +kernel : ∀ t : Fin grid17.N, cond17_0 (grid17.coords t) ↔ t.val % 8 = 0)
/-- It is stored into the output block at the points ≡ 7 (mod 8). -/
theorem hcond17_1 : ∀ t : Fin cfg17.N, cond17_1 (grid17.coords t) ↔ t.val % 8 = 7 :=
  (by decide +kernel : ∀ t : Fin grid17.N, cond17_1 (grid17.coords t) ↔ t.val % 8 = 7)
/-- The output window is idle at every other point, -/
theorem idleAt17_5 : ∀ t : Fin cfg17.N, ¬t.val % 8 = 7 → cfg17.idle 5 (grid17.coords t) = true :=
  (by decide +kernel : ∀ t : Fin grid17.N, ¬t.val % 8 = 7 → cfg17.idle 5 (grid17.coords t) = true)
/-- live at those, -/
theorem liveAt17_5 : ∀ t : Fin cfg17.N, t.val % 8 = 7 → cfg17.idle 5 (grid17.coords t) = false :=
  (by decide +kernel : ∀ t : Fin grid17.N, t.val % 8 = 7 → cfg17.idle 5 (grid17.coords t) = false)
/-- and not written back where it is idle. -/
theorem noFlush17_5 (t : Fin cfg17.N) (h : ¬t.val % 8 = 7) : (cfg17.win 5).flush t = false := by
  cases hf : (cfg17.win 5).flush t with
  | false => rfl
  | true => exact absurd ((flush17_5 t).mp hf) h

/-! ## What the body finds in the inputs' buffers and leaves in every buffer -/

/-- Each input's current staging buffer holds its block at every point, fetched there or not. -/
theorem before17_0 (V : Valuation τ sig (Elt F)) (c : Dev nD) (t : Fin cfg17.N) (d) : (dat17 (Ix := Ix) (U := U) (Lvl := Lvl) V c).before 0 t d = iblk17 V c 0 t :=
  ((dat17 (Ix := Ix) (U := U) (Lvl := Lvl) V c).before_in_eq_fetched 0 rfl (fun _ => rfl) (fun _ _ _ => rfl)
      (fun t => by rw [after17_0]; unfold Dat.blockOf iblk17; rw [A_eq17]; try rfl) t d).trans
    (by unfold Dat.fetched Dat.blockOf iblk17; rw [A_eq17]; try rfl)
theorem before17_1 (V : Valuation τ sig (Elt F)) (c : Dev nD) (t : Fin cfg17.N) (d) : (dat17 (Ix := Ix) (U := U) (Lvl := Lvl) V c).before 1 t d = iblk17 V c 1 t :=
  ((dat17 (Ix := Ix) (U := U) (Lvl := Lvl) V c).before_in_eq_fetched 1 rfl (fun _ => rfl) (fun _ _ _ => rfl)
      (fun t => by rw [after17_1]; unfold Dat.blockOf iblk17; rw [A_eq17]; try rfl) t d).trans
    (by unfold Dat.fetched Dat.blockOf iblk17; rw [A_eq17]; try rfl)
theorem before17_2 (V : Valuation τ sig (Elt F)) (c : Dev nD) (t : Fin cfg17.N) (d) : (dat17 (Ix := Ix) (U := U) (Lvl := Lvl) V c).before 2 t d = iblk17 V c 2 t :=
  ((dat17 (Ix := Ix) (U := U) (Lvl := Lvl) V c).before_in_eq_fetched 2 rfl (fun _ => rfl) (fun _ _ _ => rfl)
      (fun t => by rw [after17_2]; unfold Dat.blockOf iblk17; rw [A_eq17]; try rfl) t d).trans
    (by unfold Dat.fetched Dat.blockOf iblk17; rw [A_eq17]; try rfl)
theorem before17_3 (V : Valuation τ sig (Elt F)) (c : Dev nD) (t : Fin cfg17.N) (d) : (dat17 (Ix := Ix) (U := U) (Lvl := Lvl) V c).before 3 t d = iblk17 V c 3 t :=
  ((dat17 (Ix := Ix) (U := U) (Lvl := Lvl) V c).before_in_eq_fetched 3 rfl (fun _ => rfl) (fun _ _ _ => rfl)
      (fun t => by rw [after17_3]; unfold Dat.blockOf iblk17; rw [A_eq17]; try rfl) t d).trans
    (by unfold Dat.fetched Dat.blockOf iblk17; rw [A_eq17]; try rfl)
theorem before17_4 (V : Valuation τ sig (Elt F)) (c : Dev nD) (t : Fin cfg17.N) (d) : (dat17 (Ix := Ix) (U := U) (Lvl := Lvl) V c).before 4 t d = iblk17 V c 4 t :=
  ((dat17 (Ix := Ix) (U := U) (Lvl := Lvl) V c).before_in_eq_fetched 4 rfl (fun _ => rfl) (fun _ _ _ => rfl)
      (fun t => by rw [after17_4]; unfold Dat.blockOf iblk17; rw [A_eq17]; try rfl) t d).trans
    (by unfold Dat.fetched Dat.blockOf iblk17; rw [A_eq17]; try rfl)

/-! ## The body obligation, at a generic point -/

/-- What the body is called with at point `t` (the obligation's precondition, the windows one by one), -/
noncomputable def bodyPre17 (V : Valuation τ sig (Elt F)) (c : Dev nD) (ι : Ix) (t : Fin cfg17.N) : sProp 𝕄 :=
  iprop((dat17 (Ix := Ix) (U := U) (Lvl := Lvl) V c).Φ t.castSucc ∗ (dat17 (Ix := Ix) (U := U) (Lvl := Lvl) V c).owesAt ι t.castSucc
    ∗ (∃ d, owns (c : Thread nD τ) (st17_0 t) fullShare ((dat17 (Ix := Ix) (U := U) (Lvl := Lvl) V c).before 0 t d))
    ∗ (∃ d, owns (c : Thread nD τ) (st17_1 t) fullShare ((dat17 (Ix := Ix) (U := U) (Lvl := Lvl) V c).before 1 t d))
    ∗ (∃ d, owns (c : Thread nD τ) (st17_2 t) fullShare ((dat17 (Ix := Ix) (U := U) (Lvl := Lvl) V c).before 2 t d))
    ∗ (∃ d, owns (c : Thread nD τ) (st17_3 t) fullShare ((dat17 (Ix := Ix) (U := U) (Lvl := Lvl) V c).before 3 t d))
    ∗ (∃ d, owns (c : Thread nD τ) (st17_4 t) fullShare ((dat17 (Ix := Ix) (U := U) (Lvl := Lvl) V c).before 4 t d))
    ∗ (∃ d, owns (c : Thread nD τ) (st17_5 t) fullShare ((dat17 (Ix := Ix) (U := U) (Lvl := Lvl) V c).before 5 t d)))

/-- and what it returns. -/
noncomputable def bodyPost17 (V : Valuation τ sig (Elt F)) (c : Dev nD) (ι : Ix) (t : Fin cfg17.N) : sProp 𝕄 :=
  iprop((dat17 (Ix := Ix) (U := U) (Lvl := Lvl) V c).Φ t.succ ∗ (dat17 (Ix := Ix) (U := U) (Lvl := Lvl) V c).owesAt ι t.succ
    ∗ (dat17 (Ix := Ix) (U := U) (Lvl := Lvl) V c).leaves 0 t ∗ (dat17 (Ix := Ix) (U := U) (Lvl := Lvl) V c).leaves 1 t ∗ (dat17 (Ix := Ix) (U := U) (Lvl := Lvl) V c).leaves 2 t
    ∗ (dat17 (Ix := Ix) (U := U) (Lvl := Lvl) V c).leaves 3 t ∗ (dat17 (Ix := Ix) (U := U) (Lvl := Lvl) V c).leaves 4 t ∗ (dat17 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body17 (𝒱₀ : Variants) (ι : Ix) (V : Valuation τ sig (Elt F)) (c : Dev nD) (t : Fin cfg17.N) :
    bodyPre17 (Ix := Ix) (U := U) (Lvl := Lvl) V c ι t ⊢ wp frame (wpE (defs₀ (F := F)) 𝒱₀ c none) Set.univ (bodyAt17 t) (fun _ => bodyPost17 (Ix := Ix) (U := U) (Lvl := Lvl) V c ι t) := by
  unfold bodyPre17 bodyPost17 bodyAt17
  simp only [before17_0, before17_1, before17_2, before17_3, before17_4]
  rw [show (dat17 (Ix := Ix) (U := U) (Lvl := Lvl) V c).owesAt ι t.succ = (dat17 (Ix := Ix) (U := U) (Lvl := Lvl) V c).owesAt ι t.castSucc from rfl]
  rw [Phi17_at_succ, Phi17_succ, Phi17_castSucc]
  rw [leaves_live (dat17 (Ix := Ix) (U := U) (Lvl := Lvl) V c) 0 t rfl rfl, leaves_live (dat17 (Ix := Ix) (U := U) (Lvl := Lvl) V c) 1 t rfl rfl, leaves_live (dat17 (Ix := Ix) (U := U) (Lvl := Lvl) V c) 2 t rfl rfl,
    leaves_live (dat17 (Ix := Ix) (U := U) (Lvl := Lvl) V c) 3 t rfl rfl, leaves_live (dat17 (Ix := Ix) (U := U) (Lvl := Lvl) V c) 4 t rfl rfl, after17_0, after17_1, after17_2, after17_3, after17_4]
  have hN : t.val < 64 := lt_of_lt_of_eq t.isLt (show cfg17.N = 64 from N_17)
  by_cases h0 : t.val % 8 = 0
  · have h7 : ¬t.val % 8 = 7 := by omega
    rw [Dat.leaves_idle (dat17 (Ix := Ix) (U := U) (Lvl := Lvl) V c) 5 t (idleAt17_5 t h7) (noFlush17_5 t h7)]
    rw [acc17_reset V c t.val t.isLt h0]
    unfold step17 init17
    by_cases hz : t.val = 0
    · rw [Phi17_zero V c _ _ hz, scopedRest17_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run17_first 𝒱₀ c (grid17.coords t) _ _ _ _ _ _ _ _ _ _ _ _ _ _ ((hcond17_0 t).mpr h0) (fun h => h7 ((hcond17_1 t).mp h)) (iblk17 V c 0 t) (iblk17 V c 1 t) (iblk17 V c 2 t) (iblk17 V c 3 t) (iblk17 V c 4 t) ((dat17 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi17_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run17_first 𝒱₀ c (grid17.coords t) _ _ _ _ _ _ _ _ _ _ _ _ _ _ ((hcond17_0 t).mpr h0) (fun h => h7 ((hcond17_1 t).mp h)) (iblk17 V c 0 t) (iblk17 V c 1 t) (iblk17 V c 2 t) (iblk17 V c 3 t) (iblk17 V c 4 t) ((dat17 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc17_step V c t.val t.isLt h0, Phi17_pos V c _ _ hz]
    unfold step17
    by_cases h7 : t.val % 8 = 7
    · rw [leaves_live (dat17 (Ix := Ix) (U := U) (Lvl := Lvl) V c) 5 t (liveAt17_5 t h7) rfl, after17_5, acc17_step V c t.val t.isLt h0]
      unfold step17
      iintro ⟨⟨HS, Hr⟩, Ho, ⟨%d0, H0⟩, ⟨%d1, H1⟩, ⟨%d2, H2⟩, ⟨%d3, H3⟩, ⟨%d4, H4⟩, ⟨%d5, H5⟩⟩
      iapply (run17_last 𝒱₀ c (grid17.coords t) _ _ _ _ _ _ _ _ _ _ _ _ _ _ (fun h => h0 ((hcond17_0 t).mp h)) ((hcond17_1 t).mpr h7) (iblk17 V c 0 t) (iblk17 V c 1 t) (iblk17 V c 2 t) (iblk17 V c 3 t) (iblk17 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat17 (Ix := Ix) (U := U) (Lvl := Lvl) V c) 5 t (idleAt17_5 t h7) (noFlush17_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run17_mid 𝒱₀ c (grid17.coords t) _ _ _ _ _ _ _ _ _ _ _ _ _ _ (fun h => h0 ((hcond17_0 t).mp h)) (fun h => h7 ((hcond17_1 t).mp h)) (iblk17 V c 0 t) (iblk17 V c 1 t) (iblk17 V c 2 t) (iblk17 V c 3 t) (iblk17 V c 4 t) ((dat17 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation17 (𝒱₀ : Variants) (ι : Ix) (V : Valuation τ sig (Elt F)) (c : Dev nD) :
    BodyObligationLoose (dat17 (Ix := Ix) (U := U) (Lvl := Lvl) V c) (defs₀ (F := F)) 𝒱₀ ι Set.univ := fun t => by
  rw [bigSep_W17, bigSep_W17]
  exact sound_body17 𝒱₀ ι V c t

/-- The same at the type the program's family of configurations gives pipeline 1, on every core. -/
theorem body17 (𝒱₀ : Variants) (ι : Ix) (V : Valuation τ sig (Elt F)) :
    ∀ c : Dev nD, BodyObligationLoose (cfg := cfgs 17) (dat17 (Ix := Ix) (U := U) (Lvl := Lvl) V c) (defs₀ (F := F)) 𝒱₀ ι Set.univ :=
  fun c => body_obligation17 𝒱₀ ι V c

end Cert.KernelIdeal.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg17

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (17 : Fin 24)
/-- Its configuration, its windows but for their index maps, the number of its windows. -/
abbrev cfgK : Pipeline.Cfg sig Λ₀ := cfg17
abbrev specK : Fin 6 → Pipeline.WinSpec sig cfgK.grid.rank := spec17
abbrev nW : Nat := 6
/-- Its output window and the buffer behind it. -/
abbrev oK : Fin nW := 5
abbrev outK : Ref sig .tc := main_v580
theorem winK : Pipeline.WinFacts₀ specK := winFacts₀17
theorem block_posK : ∀ w : Fin nW, 0 < (specK w).block.numel := block_pos17
theorem arr_wholeK : ∀ w : Fin nW, (specK w).arr.IsWhole := arr_whole17
theorem stage_wholeK : ∀ (w : Fin nW) (s : Fin (specK w).nbuf), ((specK w).stage s).IsWhole := stage_whole17

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.KernelIdeal.Hand.Reg17

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R17' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (17 : Fin 24) c = dat17 (V94 m outs c) c)
    (hbody : ∀ c : Dev nD, Pipeline.BodyObligationLoose (dat17 (Ix := Ix) (U := U) (Lvl := Lvl) (V94 m outs c) c) (defs₀ (F := F)) 𝒱₀ ι Set.univ) :
    RegionSeg (pcfgs (F := F)) GenP.adm pdats ι defs₀ 𝒱₀ L lv (17 : Fin 24) :=
  Reg17.RK 𝒱₀ L lv ι pdats (fun c => V94 m outs c)
    (fun c => by rw [hp c]; exact hbody c)
    (fun c w => by rw [hp c]; exact A_eq17 (V94 m outs c) c w)
    (fun c => by rw [hp c]; rw [q17_1, q17_2]; exact PosShare.mem_left_op_right fullShare)
    (fun c => by rw [hp c]; rw [q17_3, q17_4]; exact PosShare.mem_left_op_right fullShare)
    (fun c => by rw [hp c]; exact q17_0 (V94 m outs c) c)
    (fun c t => by rw [hp c]; rfl)
    (fun c => by rw [hp c]; rfl)
    (fun c => by rw [hp c, Phi_first17])
    (fun c => by rw [hp c]; exact Phi_last17 (V94 m outs c) c)

/-- It is entered from the thread state before the region's item, -/
theorem hpre17' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (17 : Fin 24) c = dat17 (V94 m outs c) c)
    (hbody : ∀ c : Dev nD, Pipeline.BodyObligationLoose (dat17 (Ix := Ix) (U := U) (Lvl := Lvl) (V94 m outs c) c) (defs₀ (F := F)) 𝒱₀ ι Set.univ)
    (c : Dev nD) :
    iprop(StableHlo.held (c : Thread nD τ) (Pipeline.ucRefs τ sig) (V94 m outs c) ∗ (R c : sProp 𝕄))
      ⊢ (R17' m outs 𝒱₀ L lv ι pdats hp hbody).pre c := .rfl

/-- and left at the thread state after it. -/
theorem hpost17' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (17 : Fin 24) c = dat17 (V94 m outs c) c)
    (hbody : ∀ c : Dev nD, Pipeline.BodyObligationLoose (dat17 (Ix := Ix) (U := U) (Lvl := Lvl) (V94 m outs c) c) (defs₀ (F := F)) 𝒱₀ ι Set.univ)
    (houts : ∀ c : Dev nD, outs 95 main_v580 c = (dat17 (Ix := Ix) (U := U) (Lvl := Lvl) (V94 m outs c) c).arrAt 5 64)
    (c : Dev nD) :
    (R17' m outs 𝒱₀ L lv ι pdats hp hbody).post c
      ⊢ iprop(StableHlo.held (c : Thread nD τ) (Pipeline.ucRefs τ sig) (V95 m outs c) ∗ (R c : sProp 𝕄)) := by
  have h : (pdats (17 : Fin 24) c).arrAt Reg17.oK Reg17.cfgK.N = outs 95 main_v580 c := by
    rw [hp c]; exact (houts c).symm
  show iprop(StableHlo.held (c : Thread nD τ) (Pipeline.ucRefs τ sig)
      (Function.update (V94 m outs c) (Proc.devRef .tc main_v580) ((pdats (17 : Fin 24) c).arrAt Reg17.oK Reg17.cfgK.N))
        ∗ (R c : sProp 𝕄)) ⊢ _
  rw [h]

end Cert.KernelIdeal.Hand
-- ==== Proof.Rg18.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.SumLib
import Idealize.ShloMosaic.Lib.Tactic
import proofs.«169706_j68856915690108_1_alg».proof.Proof.Shared
import proofs.«169706_j68856915690108_1_alg».proof.Proof.RegionsKI

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k18_pay2)

  and only at the last point, 63, is that cell copied into the 1 × 1 output block, which the pipeline then writes back.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk18 (V : Valuation τ sig (Elt F)) (c : Dev nD) (w : Fin cfg18.W) (t : Fin cfg18.N) :
    ((cfg18.win w).xblock (cfg18.grid.coords t)).Idx → Elt F (cfg18.win w).elt :=
  ((cfg18.win w).blk t).view.read (Elt F)
    (V (Proc.devRef .tc (Pipeline.arrRef spec18 w)) : Buf (Elt F) ((cfg18.win w).arr.view.loc (c.tc : Thread nD τ)))

/-- One point's step on the scratch cell: the cell's contents `a` plus the sum of the tile made of the two blocks
    the point stages (the printed payload of the store into the scratch cell). -/
noncomputable def step18 (V : Valuation τ sig (Elt F)) (c : Dev nD) (n : ℕ) (hn : n < cfg18.N) (a : Vec F S1x1 .f32) : Vec F S1x1 .f32 :=
  k18_pay2 (iblk18 V c 0 ⟨n, hn⟩) (iblk18 V c 1 ⟨n, hn⟩) a

/-- What the scratch cell holds after point `n`: the steps of the points `0 … n` applied, first to last, to the
    zero the body stores at point 0. -/
noncomputable def acc18 (V : Valuation τ sig (Elt F)) (c : Dev nD) : (n : ℕ) → n < cfg18.N → Vec F S1x1 .f32
  | 0, hn => step18 V c 0 hn (k18_pay1 (F := F))
  | n + 1, hn => step18 V c (n + 1) hn (acc18 V c n (Nat.lt_of_succ_lt hn))

theorem acc18_zero (V : Valuation τ sig (Elt F)) (c : Dev nD) (hn : 0 < cfg18.N) :
    acc18 V c 0 hn = step18 V c 0 hn (k18_pay1 (F := F)) := rfl

theorem acc18_succ (V : Valuation τ sig (Elt F)) (c : Dev nD) (n : ℕ) (hn : n + 1 < cfg18.N) :
    acc18 V c (n + 1) hn = step18 V c (n + 1) hn (acc18 V c n (Nat.lt_of_succ_lt hn)) := rfl

/-- After a point that is not the first: the step of that point on what the point before left. -/
theorem acc18_pos (V : Valuation τ sig (Elt F)) (c : Dev nD) (n : ℕ) (hn : n < cfg18.N) (hz : n ≠ 0) :
    acc18 V c n hn = step18 V c n hn (acc18 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi18 (V : Valuation τ sig (Elt F)) (c : Dev nD) : (n : ℕ) → n ≤ cfg18.N → sProp 𝕄
  | 0, _ => Pipeline.scopedRest (Ix := Ix) (Name := ℕ) (U := U) (Lvl := Lvl) (Val := Elt F) spec18 c
  | n + 1, hn => iprop(owns (c : Thread nD τ) (Memref.whole cc18_scratch0) fullShare (acc18 V c n hn)
      ∗ Pipeline.scopedRestBut (Ix := Ix) (Name := ℕ) (U := U) (Lvl := Lvl) (Val := Elt F) spec18 c [cc18_scratch0])

theorem Phi18_zero (V : Valuation τ sig (Elt F)) (c : Dev nD) (n : ℕ) (h : n ≤ cfg18.N) (hz : n = 0) :
    (Phi18 V c n h : sProp 𝕄) = Pipeline.scopedRest (Ix := Ix) (Name := ℕ) (U := U) (Lvl := Lvl) (Val := Elt F) spec18 c := by
  subst hz; rfl

theorem Phi18_succ (V : Valuation τ sig (Elt F)) (c : Dev nD) (n : ℕ) (hn : n < cfg18.N) :
    (Phi18 V c (n + 1) hn : sProp 𝕄) = iprop(owns (c : Thread nD τ) (Memref.whole cc18_scratch0) fullShare (acc18 V c n hn)
      ∗ Pipeline.scopedRestBut (Ix := Ix) (Name := ℕ) (U := U) (Lvl := Lvl) (Val := Elt F) spec18 c [cc18_scratch0]) := rfl

theorem Phi18_pos (V : Valuation τ sig (Elt F)) (c : Dev nD) (n : ℕ) (h : n ≤ cfg18.N) (hz : n ≠ 0) :
    (Phi18 V c n h : sProp 𝕄) = iprop(owns (c : Thread nD τ) (Memref.whole cc18_scratch0) fullShare (acc18 V c (n - 1) (by omega))
      ∗ Pipeline.scopedRestBut (Ix := Ix) (Name := ℕ) (U := U) (Lvl := Lvl) (Val := Elt F) spec18 c [cc18_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi18`; the one
    array the two inputs read held half and half; nothing owed. -/
noncomputable def dat18 (V : Valuation τ sig (Elt F)) (c : Dev nD) : Dat τ (Elt F) Ix ℕ U Lvl cfg18 c where
  A w := V (Proc.devRef .tc (Pipeline.arrRef spec18 w))
  after w t := match w with
    | ⟨0, _⟩ => iblk18 V c 0 t
    | ⟨1, _⟩ => iblk18 V c 1 t
    | ⟨2, _⟩ => acc18 V c t.val t.isLt
  Φ t := Phi18 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq18 (V : Valuation τ sig (Elt F)) (c : Dev nD) (w : Fin cfg18.W) :
    (dat18 (Ix := Ix) (U := U) (Lvl := Lvl) V c).A w = V (Proc.devRef .tc (Pipeline.arrRef spec18 w)) := by
  dsimp only [dat18]

/-- What the body leaves, window by window. -/
theorem after18_0 (V : Valuation τ sig (Elt F)) (c : Dev nD) (t : Fin cfg18.N) :
    (dat18 (Ix := Ix) (U := U) (Lvl := Lvl) V c).after 0 t = iblk18 V c 0 t := by dsimp only [dat18]
theorem after18_1 (V : Valuation τ sig (Elt F)) (c : Dev nD) (t : Fin cfg18.N) :
    (dat18 (Ix := Ix) (U := U) (Lvl := Lvl) V c).after 1 t = iblk18 V c 1 t := by dsimp only [dat18]
theorem after18_2 (V : Valuation τ sig (Elt F)) (c : Dev nD) (t : Fin cfg18.N) :
    (dat18 (Ix := Ix) (U := U) (Lvl := Lvl) V c).after 2 t = acc18 V c t.val t.isLt := by dsimp only [dat18]

/-- The invariant at a point's start, and at its end. -/
theorem Phi18_castSucc (V : Valuation τ sig (Elt F)) (c : Dev nD) (t : Fin cfg18.N) :
    (dat18 (Ix := Ix) (U := U) (Lvl := Lvl) V c).Φ t.castSucc = Phi18 V c t.val (Nat.le_of_lt t.isLt) := by
  dsimp only [dat18]; simp only [Fin.coe_castSucc]

theorem Phi18_at_succ (V : Valuation τ sig (Elt F)) (c : Dev nD) (t : Fin cfg18.N) :
    (dat18 (Ix := Ix) (U := U) (Lvl := Lvl) V c).Φ t.succ = Phi18 V c (t.val + 1) t.isLt := rfl

/-- Before the first point the invariant is the launch's scoped rest. -/
theorem Phi_first18 (V : Valuation τ sig (Elt F)) (c : Dev nD) :
    (dat18 (Ix := Ix) (U := U) (Lvl := Lvl) V c).Φ 0
      = Pipeline.scopedRest (Ix := Ix) (Name := ℕ) (U := U) (Lvl := Lvl) (Val := Elt F) spec18 c := rfl

/-- After the last point the invariant gives the scoped rest back: the scratch cell's contents are forgotten. -/
theorem Phi_last18 (V : Valuation τ sig (Elt F)) (c : Dev nD) :
    (dat18 (Ix := Ix) (U := U) (Lvl := Lvl) V c).Φ (Fin.last cfg18.N)
      ⊢ Pipeline.scopedRest (Ix := Ix) (Name := ℕ) (U := U) (Lvl := Lvl) (Val := Elt F) spec18 c := by
  have hN : cfg18.N = 64 := N_18
  rw [show (dat18 (Ix := Ix) (U := U) (Lvl := Lvl) V c).Φ (Fin.last cfg18.N) = Phi18 V c (Fin.last cfg18.N).val (Nat.le_of_lt_succ (Fin.last cfg18.N).isLt) from rfl,
    Phi18_pos V c _ _ (by rw [Fin.val_last]; omega), scopedRest18_split, owns_whole]
  iintro ⟨Hs, Hr⟩
  isplitl [Hs]
  · iexists _; iexact Hs
  iexact Hr

example (V : Valuation τ sig (Elt F)) (c : Dev nD) : Dat τ (Elt F) Ix ℕ U Lvl (cfgs 18) c := dat18 V c

end Cert.KernelIdeal.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k18_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond18_1 (i : grid18.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond18_2 (i : grid18.Coords) : Prop := k18_cond2 i = 1#1

/-- The reset runs at the first point only, -/
theorem hcond18_1 : ∀ t : Fin cfg18.N, cond18_1 (grid18.coords t) ↔ t.val = 0 :=
  (by decide +kernel : ∀ t : Fin grid18.N, cond18_1 (grid18.coords t) ↔ t.val = 0)
/-- the copy at the last point only. -/
theorem hcond18_2 : ∀ t : Fin cfg18.N, cond18_2 (grid18.coords t) ↔ t.val = 63 :=
  (by decide +kernel : ∀ t : Fin grid18.N, cond18_2 (grid18.coords t) ↔ t.val = 63)

/-! ## The body, case by case, on any whole memrefs -/

/-- The first point: the scratch cell, at anything, is reset and then holds the first step on zero. -/
theorem run18_A (𝒱₀ : Variants) (c : Dev nD) (i : grid18.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond18_1 i) (hc2 : ¬cond18_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k18_pay2 x2 x3 (k18_pay1 (F := F)))) -∗ K ⟨⟩))
      ⊢ wp frame (wpE (defs₀ (F := F)) 𝒱₀ c none) E (cc18__sum_kernel i arg2 harg2 arg3 harg3 arg4 harg4 arg5 harg5) K := by
  simp only [cc18__sum_kernel_eq_skeleton]; unfold cc18__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run18_A.sl.v15 run18_A.sl.H5_1
  rw [readCov_whole _ zeros2, readAt_whole _ _ zeros2, readAt_whole _ _ zeros2]

/-- A point strictly between the first and the last: the scratch cell at `a` takes the point's step. -/
theorem run18_B (𝒱₀ : Variants) (c : Dev nD) (i : grid18.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond18_1 i) (hc2 : ¬cond18_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k18_pay2 x2 x3 a)) -∗ K ⟨⟩))
      ⊢ wp frame (wpE (defs₀ (F := F)) 𝒱₀ c none) E (cc18__sum_kernel i arg2 harg2 arg3 harg3 arg4 harg4 arg5 harg5) K := by
  simp only [cc18__sum_kernel_eq_skeleton]; unfold cc18__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run18_C (𝒱₀ : Variants) (c : Dev nD) (i : grid18.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond18_1 i) (hc2 : cond18_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k18_pay2 x2 x3 a) ∗ owns (c : Thread nD τ) arg5 fullShare (k18_pay2 x2 x3 a)) -∗ K ⟨⟩))
      ⊢ wp frame (wpE (defs₀ (F := F)) 𝒱₀ c none) E (cc18__sum_kernel i arg2 harg2 arg3 harg3 arg4 harg4 arg5 harg5) K := by
  simp only [cc18__sum_kernel_eq_skeleton]; unfold cc18__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run18_C.sl.v25 run18_C.sl.H5_1
    rw [readCov_whole _ zeros2, readAt_whole _ _ zeros2, readAt_whole _ _ zeros2, readAt_whole _ _ zeros2]
  iexists _; isplitr
  swap; · iexact H5
  ipureintro
  unfold run18_C.sl.H5_1
  rw [read_writes_whole _ _ zeros2, readAt_whole _ _ zeros2, readAt_whole _ _ zeros2, readAt_whole _ _ zeros2]

end Cert.KernelIdeal.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle18_2 : ∀ t : Fin cfg18.N, cfg18.idle 2 (grid18.coords t) = true ↔ t.val ≠ 63 :=
  (by decide +kernel : ∀ t : Fin grid18.N, idle18 2 (grid18.coords t) = true ↔ t.val ≠ 63)
/-- and written back at the last point only. -/
theorem flush18_2' : ∀ t : Fin cfg18.N, (cfg18.win 2).flush t = true ↔ t.val = 63 :=
  (by decide +kernel : ∀ t : Fin grid18.N, win18_2.flush t = true ↔ t.val = 63)

/-! ## What the body finds in the inputs' buffers -/

/-- Each input's current staging buffer holds its block at every point, fetched there or not: unfetched, the block
    index has not moved and the body left the block in place. -/
theorem before18_0 (V : Valuation τ sig (Elt F)) (c : Dev nD) (t : Fin cfg18.N) (d) :
    (dat18 (Ix := Ix) (U := U) (Lvl := Lvl) V c).before 0 t d = iblk18 V c 0 t :=
  ((dat18 (Ix := Ix) (U := U) (Lvl := Lvl) V c).before_in_eq_fetched 0 rfl (fun _ => rfl) (fun _ _ _ => rfl)
      (fun t => by rw [after18_0]; unfold Dat.blockOf iblk18; rw [A_eq18]; try rfl) t d).trans
    (by unfold Dat.fetched Dat.blockOf iblk18; rw [A_eq18]; try rfl)

theorem before18_1 (V : Valuation τ sig (Elt F)) (c : Dev nD) (t : Fin cfg18.N) (d) :
    (dat18 (Ix := Ix) (U := U) (Lvl := Lvl) V c).before 1 t d = iblk18 V c 1 t :=
  ((dat18 (Ix := Ix) (U := U) (Lvl := Lvl) V c).before_in_eq_fetched 1 rfl (fun _ => rfl) (fun _ _ _ => rfl)
      (fun t => by rw [after18_1]; unfold Dat.blockOf iblk18; rw [A_eq18]; try rfl) t d).trans
    (by unfold Dat.fetched Dat.blockOf iblk18; rw [A_eq18]; try rfl)

/-! ## What the obligation asks of each window's buffer after the body -/

/-- The inputs are never idle: their buffers are handed back at their blocks. -/
theorem leaves18_0 (V : Valuation τ sig (Elt F)) (c : Dev nD) (t : Fin cfg18.N) :
    (dat18 (Ix := Ix) (U := U) (Lvl := Lvl) V c).leaves 0 t = owns (c : Thread nD τ) (st18_0 t) fullShare (iblk18 V c 0 t) := by
  rw [← after18_0 (Ix := Ix) (U := U) (Lvl := Lvl) V c t]

theorem leaves18_1 (V : Valuation τ sig (Elt F)) (c : Dev nD) (t : Fin cfg18.N) :
    (dat18 (Ix := Ix) (U := U) (Lvl := Lvl) V c).leaves 1 t = owns (c : Thread nD τ) (st18_1 t) fullShare (iblk18 V c 1 t) := by
  rw [← after18_1 (Ix := Ix) (U := U) (Lvl := Lvl) V c t]

/-- The output is idle, and not written back, at every point but the last: its buffer is handed back as found; -/
theorem leaves18_2_idle (V : Valuation τ sig (Elt F)) (c : Dev nD) (t : Fin cfg18.N) (h : t.val ≠ 63) :
    (dat18 (Ix := Ix) (U := U) (Lvl := Lvl) V c).leaves 2 t
      = iprop(∃ d, owns (c : Thread nD τ) (st18_2 t) fullShare ((dat18 (Ix := Ix) (U := U) (Lvl := Lvl) V c).before 2 t d)) :=
  (dat18 (Ix := Ix) (U := U) (Lvl := Lvl) V c).leaves_idle 2 t ((idle18_2 t).mpr h)
    (Bool.eq_false_iff.mpr fun hf => h ((flush18_2' t).mp hf))

/-- at the last point it is handed back at the accumulated sum. -/
theorem leaves18_2_last (V : Valuation τ sig (Elt F)) (c : Dev nD) (t : Fin cfg18.N) (h : t.val = 63) :
    (dat18 (Ix := Ix) (U := U) (Lvl := Lvl) V c).leaves 2 t = owns (c : Thread nD τ) (st18_2 t) fullShare (acc18 V c t.val t.isLt) := by
  have hl : cfg18.idle 2 (grid18.coords t) = false := by
    cases hi : cfg18.idle 2 (grid18.coords t) with
    | false => rfl
    | true => exact absurd h ((idle18_2 t).mp hi)
  rw [← after18_2 (Ix := Ix) (U := U) (Lvl := Lvl) V c t]
  unfold Dat.leaves; rw [hl]

/-- One step at a point, through the point itself. -/
theorem step18_at (V : Valuation τ sig (Elt F)) (c : Dev nD) (t : Fin cfg18.N) (a : Vec F S1x1 .f32) :
    step18 V c t.val t.isLt a = k18_pay2 (iblk18 V c 0 t) (iblk18 V c 1 t) a := rfl

theorem acc18_first (V : Valuation τ sig (Elt F)) (c : Dev nD) (n : ℕ) (hn : n < cfg18.N) (hz : n = 0) :
    acc18 V c n hn = step18 V c n hn (k18_pay1 (F := F)) := by
  subst hz; rfl

/-! ## The body obligation -/

/-- What the body is called with at point `t` (the obligation's precondition, the windows one by one), -/
noncomputable def bodyPre18 (V : Valuation τ sig (Elt F)) (ι : Ix) (c : Dev nD) (t : Fin cfg18.N) : sProp 𝕄 :=
  iprop((dat18 (Ix := Ix) (U := U) (Lvl := Lvl) V c).Φ t.castSucc ∗ (dat18 (Ix := Ix) (U := U) (Lvl := Lvl) V c).owesAt ι t.castSucc
    ∗ (∃ d, owns (c : Thread nD τ) (st18_0 t) fullShare ((dat18 (Ix := Ix) (U := U) (Lvl := Lvl) V c).before 0 t d))
    ∗ (∃ d, owns (c : Thread nD τ) (st18_1 t) fullShare ((dat18 (Ix := Ix) (U := U) (Lvl := Lvl) V c).before 1 t d))
    ∗ (∃ d, owns (c : Thread nD τ) (st18_2 t) fullShare ((dat18 (Ix := Ix) (U := U) (Lvl := Lvl) V c).before 2 t d)))

/-- and what it returns. -/
noncomputable def bodyPost18 (V : Valuation τ sig (Elt F)) (ι : Ix) (c : Dev nD) (t : Fin cfg18.N) : sProp 𝕄 :=
  iprop((dat18 (Ix := Ix) (U := U) (Lvl := Lvl) V c).Φ t.succ ∗ (dat18 (Ix := Ix) (U := U) (Lvl := Lvl) V c).owesAt ι t.succ
    ∗ (dat18 (Ix := Ix) (U := U) (Lvl := Lvl) V c).leaves 0 t ∗ (dat18 (Ix := Ix) (U := U) (Lvl := Lvl) V c).leaves 1 t ∗ (dat18 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body18 (V : Valuation τ sig (Elt F)) (𝒱₀ : Variants) (ι : Ix) (c : Dev nD) (t : Fin cfg18.N) :
    bodyPre18 (U := U) (Lvl := Lvl) V ι c t
      ⊢ wp frame (wpE (defs₀ (F := F)) 𝒱₀ c none) Set.univ (bodyAt18 t) (fun _ => bodyPost18 (U := U) (Lvl := Lvl) V ι c t) := by
  unfold bodyPre18 bodyPost18 bodyAt18
  simp only [before18_0, before18_1]
  rw [show (dat18 (Ix := Ix) (U := U) (Lvl := Lvl) V c).owesAt ι t.succ = (dat18 (Ix := Ix) (U := U) (Lvl := Lvl) V c).owesAt ι t.castSucc from rfl]
  rw [Phi18_at_succ, Phi18_succ, Phi18_castSucc, leaves18_0, leaves18_1]
  have hN : t.val < 64 := lt_of_lt_of_eq t.isLt N_18
  by_cases hz : t.val = 0
  · have hc1 : cond18_1 (grid18.coords t) := (hcond18_1 t).mpr hz
    have hc2 : ¬cond18_2 (grid18.coords t) := fun h => by have := (hcond18_2 t).mp h; omega
    rw [leaves18_2_idle V c t (by omega), Phi18_zero V c _ _ hz, scopedRest18_split, acc18_first V c _ _ hz, step18_at]
    iintro ⟨⟨⟨%f, Hs⟩, Hr⟩, Ho, ⟨%d0, H0⟩, ⟨%d1, H1⟩, H2⟩
    iapply (run18_A 𝒱₀ c (grid18.coords t) _ _ _ _ _ _ _ _ hc1 hc2 (iblk18 V c 0 t) (iblk18 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond18_1 (grid18.coords t) := fun h => hz ((hcond18_1 t).mp h)
    rw [Phi18_pos V c _ _ hz, acc18_pos V c _ _ hz, step18_at]
    by_cases hl : t.val = 63
    · have hc2 : cond18_2 (grid18.coords t) := (hcond18_2 t).mpr hl
      rw [leaves18_2_last V c t hl, acc18_pos V c _ _ hz, step18_at]
      iintro ⟨⟨Hs, Hr⟩, Ho, ⟨%d0, H0⟩, ⟨%d1, H1⟩, ⟨%d2, H2⟩⟩
      iapply (run18_C 𝒱₀ c (grid18.coords t) _ _ _ _ _ _ _ _ hc1 hc2 (iblk18 V c 0 t) (iblk18 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond18_2 (grid18.coords t) := fun h => hl ((hcond18_2 t).mp h)
      rw [leaves18_2_idle V c t hl]
      iintro ⟨⟨Hs, Hr⟩, Ho, ⟨%d0, H0⟩, ⟨%d1, H1⟩, H2⟩
      iapply (run18_B 𝒱₀ c (grid18.coords t) _ _ _ _ _ _ _ _ hc1 hc2 (iblk18 V c 0 t) (iblk18 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body18 (V : Valuation τ sig (Elt F)) (𝒱₀ : Variants) (ι : Ix) :
    ∀ c : Dev nD, BodyObligationLoose (dat18 (Ix := Ix) (U := U) (Lvl := Lvl) V c) (defs₀ (F := F)) 𝒱₀ ι Set.univ := fun c t => by
  rw [bigSep_W18, bigSep_W18]
  exact sound_body18 (U := U) (Lvl := Lvl) V 𝒱₀ ι c t

end Cert.KernelIdeal.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg18

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (18 : Fin 24)
/-- Its configuration, its windows but for their index maps, the number of its windows. -/
abbrev cfgK : Pipeline.Cfg sig Λ₀ := cfg18
abbrev specK : Fin 3 → Pipeline.WinSpec sig cfgK.grid.rank := spec18
abbrev nW : Nat := 3
/-- Its output window and the buffer behind it. -/
abbrev oK : Fin nW := 2
abbrev outK : Ref sig .tc := main_v649
theorem winK : Pipeline.WinFacts₀ specK := winFacts₀18
theorem block_posK : ∀ w : Fin nW, 0 < (specK w).block.numel := block_pos18
theorem arr_wholeK : ∀ w : Fin nW, (specK w).arr.IsWhole := arr_whole18
theorem stage_wholeK : ∀ (w : Fin nW) (s : Fin (specK w).nbuf), ((specK w).stage s).IsWhole := stage_whole18

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.KernelIdeal.Hand.Reg18

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R18' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (18 : Fin 24) c = dat18 (V103 m outs c) c)
    (hbody : ∀ c : Dev nD, Pipeline.BodyObligationLoose (dat18 (Ix := Ix) (U := U) (Lvl := Lvl) (V103 m outs c) c) (defs₀ (F := F)) 𝒱₀ ι Set.univ) :
    RegionSeg (pcfgs (F := F)) GenP.adm pdats ι defs₀ 𝒱₀ L lv (18 : Fin 24) :=
  Reg18.RK 𝒱₀ L lv ι pdats (fun c => V103 m outs c)
    (fun c => by rw [hp c]; exact hbody c)
    (fun c w => by rw [hp c]; exact A_eq18 (V103 m outs c) c w)
    (fun c => by rw [hp c]; exact PosShare.mem_left_op_right fullShare)
    (fun c t => by rw [hp c]; rfl)
    (fun c => by rw [hp c]; rfl)
    (fun c => by rw [hp c, Phi_first18])
    (fun c => by rw [hp c]; exact Phi_last18 (V103 m outs c) c)

/-- It is entered from the thread state before the region's item, -/
theorem hpre18' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (18 : Fin 24) c = dat18 (V103 m outs c) c)
    (hbody : ∀ c : Dev nD, Pipeline.BodyObligationLoose (dat18 (Ix := Ix) (U := U) (Lvl := Lvl) (V103 m outs c) c) (defs₀ (F := F)) 𝒱₀ ι Set.univ)
    (c : Dev nD) :
    iprop(StableHlo.held (c : Thread nD τ) (Pipeline.ucRefs τ sig) (V103 m outs c) ∗ (R c : sProp 𝕄))
      ⊢ (R18' m outs 𝒱₀ L lv ι pdats hp hbody).pre c := .rfl

/-- and left at the thread state after it. -/
theorem hpost18' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (18 : Fin 24) c = dat18 (V103 m outs c) c)
    (hbody : ∀ c : Dev nD, Pipeline.BodyObligationLoose (dat18 (Ix := Ix) (U := U) (Lvl := Lvl) (V103 m outs c) c) (defs₀ (F := F)) 𝒱₀ ι Set.univ)
    (houts : ∀ c : Dev nD, outs 104 main_v649 c = (dat18 (Ix := Ix) (U := U) (Lvl := Lvl) (V103 m outs c) c).arrAt 2 64)
    (c : Dev nD) :
    (R18' m outs 𝒱₀ L lv ι pdats hp hbody).post c
      ⊢ iprop(StableHlo.held (c : Thread nD τ) (Pipeline.ucRefs τ sig) (V104 m outs c) ∗ (R c : sProp 𝕄)) := by
  have h : (pdats (18 : Fin 24) c).arrAt Reg18.oK Reg18.cfgK.N = outs 104 main_v649 c := by
    rw [hp c]; exact (houts c).symm
  show iprop(StableHlo.held (c : Thread nD τ) (Pipeline.ucRefs τ sig)
      (Function.update (V103 m outs c) (Proc.devRef .tc main_v649) ((pdats (18 : Fin 24) c).arrAt Reg18.oK Reg18.cfgK.N))
        ∗ (R c : sProp 𝕄)) ⊢ _
  rw [h]

end Cert.KernelIdeal.Hand
-- ==== Proof.Rg19.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.ApplyLib
import proofs.«169706_j68856915690108_1_alg».proof.Proof.Shared
import proofs.«169706_j68856915690108_1_alg».proof.Proof.RegionsKI

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k19_pay1 x_i` and `step t a = k19_pay2 h_i h_j threshold x_j a`, the printed payloads of the two stores.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk19 (V : Valuation τ sig (Elt F)) (c : Dev nD) (w : Fin cfg19.W) (t : Fin cfg19.N) :
    ((cfg19.win w).xblock (cfg19.grid.coords t)).Idx → Elt F (cfg19.win w).elt :=
  ((cfg19.win w).blk t).view.read (Elt F)
    (V (Proc.devRef .tc (Pipeline.arrRef spec19 w)) : Buf (Elt F) ((cfg19.win w).arr.view.loc (c.tc : Thread nD τ)))

/-- What the accumulator is reset to at a point whose second coordinate is 0: 1.0 times the block of `x` window 3
    stages there (the printed payload of the first store into the scratch buffer). -/
noncomputable def init19 (V : Valuation τ sig (Elt F)) (c : Dev nD) (n : ℕ) (hn : n < cfg19.N) : Vec F S512x256 .f32 :=
  k19_pay1 (iblk19 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step19 (V : Valuation τ sig (Elt F)) (c : Dev nD) (n : ℕ) (hn : n < cfg19.N) (a : Vec F S512x256 .f32) : Vec F S512x256 .f32 :=
  k19_pay2 (iblk19 V c 1 ⟨n, hn⟩) (iblk19 V c 2 ⟨n, hn⟩) (iblk19 V c 0 ⟨n, hn⟩) (iblk19 V c 4 ⟨n, hn⟩) a

/-- What the accumulator holds after point `n`: reset and stepped at the points ≡ 0 (mod 8), stepped from what the
    point before left at the others. -/
noncomputable def acc19 (V : Valuation τ sig (Elt F)) (c : Dev nD) : (n : ℕ) → n < cfg19.N → Vec F S512x256 .f32
  | 0, hn => step19 V c 0 hn (init19 V c 0 hn)
  | n + 1, hn =>
    if (n + 1) % 8 = 0 then step19 V c (n + 1) hn (init19 V c (n + 1) hn)
    else step19 V c (n + 1) hn (acc19 V c n (Nat.lt_of_succ_lt hn))

/-- After a point ≡ 0 (mod 8): the reset value, stepped once. -/
theorem acc19_reset (V : Valuation τ sig (Elt F)) (c : Dev nD) (n : ℕ) (hn : n < cfg19.N) (h0 : n % 8 = 0) :
    acc19 V c n hn = step19 V c n hn (init19 V c n hn) := by
  cases n with
  | zero => rfl
  | succ n => exact if_pos h0

/-- After any other point: that point's step on what the point before left. -/
theorem acc19_step (V : Valuation τ sig (Elt F)) (c : Dev nD) (n : ℕ) (hn : n < cfg19.N) (h0 : ¬n % 8 = 0) :
    acc19 V c n hn = step19 V c n hn (acc19 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi19 (V : Valuation τ sig (Elt F)) (c : Dev nD) : (n : ℕ) → n ≤ cfg19.N → sProp 𝕄
  | 0, _ => Pipeline.scopedRest (Ix := Ix) (Name := ℕ) (U := U) (Lvl := Lvl) (Val := Elt F) spec19 c
  | n + 1, hn => iprop(owns (c : Thread nD τ) (Memref.whole cc19_scratch0) fullShare (acc19 V c n hn)
      ∗ Pipeline.scopedRestBut (Ix := Ix) (Name := ℕ) (U := U) (Lvl := Lvl) (Val := Elt F) spec19 c [cc19_scratch0])

theorem Phi19_zero (V : Valuation τ sig (Elt F)) (c : Dev nD) (n : ℕ) (h : n ≤ cfg19.N) (hz : n = 0) :
    (Phi19 V c n h : sProp 𝕄) = Pipeline.scopedRest (Ix := Ix) (Name := ℕ) (U := U) (Lvl := Lvl) (Val := Elt F) spec19 c := by
  subst hz; rfl

theorem Phi19_succ (V : Valuation τ sig (Elt F)) (c : Dev nD) (n : ℕ) (hn : n < cfg19.N) :
    (Phi19 V c (n + 1) hn : sProp 𝕄) = iprop(owns (c : Thread nD τ) (Memref.whole cc19_scratch0) fullShare (acc19 V c n hn)
      ∗ Pipeline.scopedRestBut (Ix := Ix) (Name := ℕ) (U := U) (Lvl := Lvl) (Val := Elt F) spec19 c [cc19_scratch0]) := rfl

theorem Phi19_pos (V : Valuation τ sig (Elt F)) (c : Dev nD) (n : ℕ) (h : n ≤ cfg19.N) (hz : n ≠ 0) :
    (Phi19 V c n h : sProp 𝕄) = iprop(owns (c : Thread nD τ) (Memref.whole cc19_scratch0) fullShare (acc19 V c (n - 1) (by omega))
      ∗ Pipeline.scopedRestBut (Ix := Ix) (Name := ℕ) (U := U) (Lvl := Lvl) (Val := Elt F) spec19 c [cc19_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi19`; the
    threshold's array held whole, each of the two arrays that two input windows read held half and half; nothing owed. -/
noncomputable def dat19 (V : Valuation τ sig (Elt F)) (c : Dev nD) : Dat τ (Elt F) Ix ℕ U Lvl cfg19 c where
  A w := V (Proc.devRef .tc (Pipeline.arrRef spec19 w))
  after w t := match w with
    | ⟨0, _⟩ => iblk19 V c 0 t
    | ⟨1, _⟩ => iblk19 V c 1 t
    | ⟨2, _⟩ => iblk19 V c 2 t
    | ⟨3, _⟩ => iblk19 V c 3 t
    | ⟨4, _⟩ => iblk19 V c 4 t
    | ⟨5, _⟩ => acc19 V c t.val t.isLt
  Φ t := Phi19 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq19 (V : Valuation τ sig (Elt F)) (c : Dev nD) (w : Fin cfg19.W) :
    (dat19 (Ix := Ix) (U := U) (Lvl := Lvl) V c).A w = V (Proc.devRef .tc (Pipeline.arrRef spec19 w)) := by
  dsimp only [dat19]

/-- What the body leaves, window by window. -/
theorem after19_0 (V : Valuation τ sig (Elt F)) (c : Dev nD) (t : Fin cfg19.N) :
    (dat19 (Ix := Ix) (U := U) (Lvl := Lvl) V c).after 0 t = iblk19 V c 0 t := by dsimp only [dat19]
theorem after19_1 (V : Valuation τ sig (Elt F)) (c : Dev nD) (t : Fin cfg19.N) :
    (dat19 (Ix := Ix) (U := U) (Lvl := Lvl) V c).after 1 t = iblk19 V c 1 t := by dsimp only [dat19]
theorem after19_2 (V : Valuation τ sig (Elt F)) (c : Dev nD) (t : Fin cfg19.N) :
    (dat19 (Ix := Ix) (U := U) (Lvl := Lvl) V c).after 2 t = iblk19 V c 2 t := by dsimp only [dat19]
theorem after19_3 (V : Valuation τ sig (Elt F)) (c : Dev nD) (t : Fin cfg19.N) :
    (dat19 (Ix := Ix) (U := U) (Lvl := Lvl) V c).after 3 t = iblk19 V c 3 t := by dsimp only [dat19]
theorem after19_4 (V : Valuation τ sig (Elt F)) (c : Dev nD) (t : Fin cfg19.N) :
    (dat19 (Ix := Ix) (U := U) (Lvl := Lvl) V c).after 4 t = iblk19 V c 4 t := by dsimp only [dat19]
theorem after19_5 (V : Valuation τ sig (Elt F)) (c : Dev nD) (t : Fin cfg19.N) :
    (dat19 (Ix := Ix) (U := U) (Lvl := Lvl) V c).after 5 t = acc19 V c t.val t.isLt := by dsimp only [dat19]

/-- The shares the input arrays are held at. -/
theorem q19_0 (V : Valuation τ sig (Elt F)) (c : Dev nD) : (dat19 (Ix := Ix) (U := U) (Lvl := Lvl) V c).q 0 = fullShare := by dsimp only [dat19]
theorem q19_1 (V : Valuation τ sig (Elt F)) (c : Dev nD) : (dat19 (Ix := Ix) (U := U) (Lvl := Lvl) V c).q 1 = fullShare.left := by dsimp only [dat19]
theorem q19_2 (V : Valuation τ sig (Elt F)) (c : Dev nD) : (dat19 (Ix := Ix) (U := U) (Lvl := Lvl) V c).q 2 = fullShare.right := by dsimp only [dat19]
theorem q19_3 (V : Valuation τ sig (Elt F)) (c : Dev nD) : (dat19 (Ix := Ix) (U := U) (Lvl := Lvl) V c).q 3 = fullShare.left := by dsimp only [dat19]
theorem q19_4 (V : Valuation τ sig (Elt F)) (c : Dev nD) : (dat19 (Ix := Ix) (U := U) (Lvl := Lvl) V c).q 4 = fullShare.right := by dsimp only [dat19]

/-- The invariant at a point's start, and at its end. -/
theorem Phi19_castSucc (V : Valuation τ sig (Elt F)) (c : Dev nD) (t : Fin cfg19.N) :
    (dat19 (Ix := Ix) (U := U) (Lvl := Lvl) V c).Φ t.castSucc = Phi19 V c t.val (Nat.le_of_lt t.isLt) := by
  dsimp only [dat19]; simp only [Fin.coe_castSucc]

theorem Phi19_at_succ (V : Valuation τ sig (Elt F)) (c : Dev nD) (t : Fin cfg19.N) :
    (dat19 (Ix := Ix) (U := U) (Lvl := Lvl) V c).Φ t.succ = Phi19 V c (t.val + 1) t.isLt := rfl

/-- Before the first point the invariant is the launch's scoped rest. -/
theorem Phi_first19 (V : Valuation τ sig (Elt F)) (c : Dev nD) :
    (dat19 (Ix := Ix) (U := U) (Lvl := Lvl) V c).Φ 0
      = Pipeline.scopedRest (Ix := Ix) (Name := ℕ) (U := U) (Lvl := Lvl) (Val := Elt F) spec19 c := rfl

/-- After the last point the invariant gives the scoped rest back: the accumulator's contents are forgotten. -/
theorem Phi_last19 (V : Valuation τ sig (Elt F)) (c : Dev nD) :
    (dat19 (Ix := Ix) (U := U) (Lvl := Lvl) V c).Φ (Fin.last cfg19.N)
      ⊢ Pipeline.scopedRest (Ix := Ix) (Name := ℕ) (U := U) (Lvl := Lvl) (Val := Elt F) spec19 c := by
  have hN : cfg19.N = 64 := N_19
  rw [show (dat19 (Ix := Ix) (U := U) (Lvl := Lvl) V c).Φ (Fin.last cfg19.N) = Phi19 V c (Fin.last cfg19.N).val (Nat.le_of_lt_succ (Fin.last cfg19.N).isLt) from rfl,
    Phi19_pos V c _ _ (by rw [Fin.val_last]; omega), scopedRest19_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 19) c := dat19 V c

end Cert.KernelIdeal.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k19_pay2 hI hJ mn xJ s` — `s` plus the 0/1 mask of (hI · hJᵀ > mn) times `xJ` — and the value
  the accumulator is reset to is `k19_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond19_0 (i : grid19.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond19_1 (i : grid19.Coords) : Prop := k19_cond2 i = 1#1

/-! ## The three runs -/

/-- At a point whose second coordinate is 0 (and not 7): the accumulator, at anything, is reset to `k19_pay1 xI` and
    stepped once; every window's buffer is handed back as found. -/
theorem run19_first (𝒱₀ : Variants) (c : Dev nD) (i : grid19.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond19_0 i) (hc1 : ¬cond19_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k19_pay2 hI hJ mn xJ (k19_pay1 xI))) -∗ K ⟨⟩))
      ⊢ wp frame (wpE (defs₀ (F := F)) 𝒱₀ c none) E (cc19__apply_kernel i arg2 harg2 arg3 harg3 arg4 harg4 arg5 harg5 arg6 harg6 arg7 harg7 arg8 harg8) K := by
  simp only [cc19__apply_kernel_eq_skeleton]; unfold cc19__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run19_mid (𝒱₀ : Variants) (c : Dev nD) (i : grid19.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond19_0 i) (hc1 : ¬cond19_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k19_pay2 hI hJ mn xJ s)) -∗ K ⟨⟩))
      ⊢ wp frame (wpE (defs₀ (F := F)) 𝒱₀ c none) E (cc19__apply_kernel i arg2 harg2 arg3 harg3 arg4 harg4 arg5 harg5 arg6 harg6 arg7 harg7 arg8 harg8) K := by
  simp only [cc19__apply_kernel_eq_skeleton]; unfold cc19__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run19_last (𝒱₀ : Variants) (c : Dev nD) (i : grid19.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond19_0 i) (hc1 : cond19_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k19_pay2 hI hJ mn xJ s)
        ∗ owns (c : Thread nD τ) arg8 fullShare (k19_pay2 hI hJ mn xJ s)) -∗ K ⟨⟩))
      ⊢ wp frame (wpE (defs₀ (F := F)) 𝒱₀ c none) E (cc19__apply_kernel i arg2 harg2 arg3 harg3 arg4 harg4 arg5 harg5 arg6 harg6 arg7 harg7 arg8 harg8) K := by
  simp only [cc19__apply_kernel_eq_skeleton]; unfold cc19__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.KernelIdeal.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc19`. The three control cases are
  decided over the grid by the point's residue mod 8, and in each the kernel's run (ApplyRun.lean) applies.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond19_0 : ∀ t : Fin cfg19.N, cond19_0 (grid19.coords t) ↔ t.val % 8 = 0 :=
  (by decide +kernel : ∀ t : Fin grid19.N, cond19_0 (grid19.coords t) ↔ t.val % 8 = 0)
/-- It is stored into the output block at the points ≡ 7 (mod 8). -/
theorem hcond19_1 : ∀ t : Fin cfg19.N, cond19_1 (grid19.coords t) ↔ t.val % 8 = 7 :=
  (by decide +kernel : ∀ t : Fin grid19.N, cond19_1 (grid19.coords t) ↔ t.val % 8 = 7)
/-- The output window is idle at every other point, -/
theorem idleAt19_5 : ∀ t : Fin cfg19.N, ¬t.val % 8 = 7 → cfg19.idle 5 (grid19.coords t) = true :=
  (by decide +kernel : ∀ t : Fin grid19.N, ¬t.val % 8 = 7 → cfg19.idle 5 (grid19.coords t) = true)
/-- live at those, -/
theorem liveAt19_5 : ∀ t : Fin cfg19.N, t.val % 8 = 7 → cfg19.idle 5 (grid19.coords t) = false :=
  (by decide +kernel : ∀ t : Fin grid19.N, t.val % 8 = 7 → cfg19.idle 5 (grid19.coords t) = false)
/-- and not written back where it is idle. -/
theorem noFlush19_5 (t : Fin cfg19.N) (h : ¬t.val % 8 = 7) : (cfg19.win 5).flush t = false := by
  cases hf : (cfg19.win 5).flush t with
  | false => rfl
  | true => exact absurd ((flush19_5 t).mp hf) h

/-! ## What the body finds in the inputs' buffers and leaves in every buffer -/

/-- Each input's current staging buffer holds its block at every point, fetched there or not. -/
theorem before19_0 (V : Valuation τ sig (Elt F)) (c : Dev nD) (t : Fin cfg19.N) (d) : (dat19 (Ix := Ix) (U := U) (Lvl := Lvl) V c).before 0 t d = iblk19 V c 0 t :=
  ((dat19 (Ix := Ix) (U := U) (Lvl := Lvl) V c).before_in_eq_fetched 0 rfl (fun _ => rfl) (fun _ _ _ => rfl)
      (fun t => by rw [after19_0]; unfold Dat.blockOf iblk19; rw [A_eq19]; try rfl) t d).trans
    (by unfold Dat.fetched Dat.blockOf iblk19; rw [A_eq19]; try rfl)
theorem before19_1 (V : Valuation τ sig (Elt F)) (c : Dev nD) (t : Fin cfg19.N) (d) : (dat19 (Ix := Ix) (U := U) (Lvl := Lvl) V c).before 1 t d = iblk19 V c 1 t :=
  ((dat19 (Ix := Ix) (U := U) (Lvl := Lvl) V c).before_in_eq_fetched 1 rfl (fun _ => rfl) (fun _ _ _ => rfl)
      (fun t => by rw [after19_1]; unfold Dat.blockOf iblk19; rw [A_eq19]; try rfl) t d).trans
    (by unfold Dat.fetched Dat.blockOf iblk19; rw [A_eq19]; try rfl)
theorem before19_2 (V : Valuation τ sig (Elt F)) (c : Dev nD) (t : Fin cfg19.N) (d) : (dat19 (Ix := Ix) (U := U) (Lvl := Lvl) V c).before 2 t d = iblk19 V c 2 t :=
  ((dat19 (Ix := Ix) (U := U) (Lvl := Lvl) V c).before_in_eq_fetched 2 rfl (fun _ => rfl) (fun _ _ _ => rfl)
      (fun t => by rw [after19_2]; unfold Dat.blockOf iblk19; rw [A_eq19]; try rfl) t d).trans
    (by unfold Dat.fetched Dat.blockOf iblk19; rw [A_eq19]; try rfl)
theorem before19_3 (V : Valuation τ sig (Elt F)) (c : Dev nD) (t : Fin cfg19.N) (d) : (dat19 (Ix := Ix) (U := U) (Lvl := Lvl) V c).before 3 t d = iblk19 V c 3 t :=
  ((dat19 (Ix := Ix) (U := U) (Lvl := Lvl) V c).before_in_eq_fetched 3 rfl (fun _ => rfl) (fun _ _ _ => rfl)
      (fun t => by rw [after19_3]; unfold Dat.blockOf iblk19; rw [A_eq19]; try rfl) t d).trans
    (by unfold Dat.fetched Dat.blockOf iblk19; rw [A_eq19]; try rfl)
theorem before19_4 (V : Valuation τ sig (Elt F)) (c : Dev nD) (t : Fin cfg19.N) (d) : (dat19 (Ix := Ix) (U := U) (Lvl := Lvl) V c).before 4 t d = iblk19 V c 4 t :=
  ((dat19 (Ix := Ix) (U := U) (Lvl := Lvl) V c).before_in_eq_fetched 4 rfl (fun _ => rfl) (fun _ _ _ => rfl)
      (fun t => by rw [after19_4]; unfold Dat.blockOf iblk19; rw [A_eq19]; try rfl) t d).trans
    (by unfold Dat.fetched Dat.blockOf iblk19; rw [A_eq19]; try rfl)

/-! ## The body obligation, at a generic point -/

/-- What the body is called with at point `t` (the obligation's precondition, the windows one by one), -/
noncomputable def bodyPre19 (V : Valuation τ sig (Elt F)) (c : Dev nD) (ι : Ix) (t : Fin cfg19.N) : sProp 𝕄 :=
  iprop((dat19 (Ix := Ix) (U := U) (Lvl := Lvl) V c).Φ t.castSucc ∗ (dat19 (Ix := Ix) (U := U) (Lvl := Lvl) V c).owesAt ι t.castSucc
    ∗ (∃ d, owns (c : Thread nD τ) (st19_0 t) fullShare ((dat19 (Ix := Ix) (U := U) (Lvl := Lvl) V c).before 0 t d))
    ∗ (∃ d, owns (c : Thread nD τ) (st19_1 t) fullShare ((dat19 (Ix := Ix) (U := U) (Lvl := Lvl) V c).before 1 t d))
    ∗ (∃ d, owns (c : Thread nD τ) (st19_2 t) fullShare ((dat19 (Ix := Ix) (U := U) (Lvl := Lvl) V c).before 2 t d))
    ∗ (∃ d, owns (c : Thread nD τ) (st19_3 t) fullShare ((dat19 (Ix := Ix) (U := U) (Lvl := Lvl) V c).before 3 t d))
    ∗ (∃ d, owns (c : Thread nD τ) (st19_4 t) fullShare ((dat19 (Ix := Ix) (U := U) (Lvl := Lvl) V c).before 4 t d))
    ∗ (∃ d, owns (c : Thread nD τ) (st19_5 t) fullShare ((dat19 (Ix := Ix) (U := U) (Lvl := Lvl) V c).before 5 t d)))

/-- and what it returns. -/
noncomputable def bodyPost19 (V : Valuation τ sig (Elt F)) (c : Dev nD) (ι : Ix) (t : Fin cfg19.N) : sProp 𝕄 :=
  iprop((dat19 (Ix := Ix) (U := U) (Lvl := Lvl) V c).Φ t.succ ∗ (dat19 (Ix := Ix) (U := U) (Lvl := Lvl) V c).owesAt ι t.succ
    ∗ (dat19 (Ix := Ix) (U := U) (Lvl := Lvl) V c).leaves 0 t ∗ (dat19 (Ix := Ix) (U := U) (Lvl := Lvl) V c).leaves 1 t ∗ (dat19 (Ix := Ix) (U := U) (Lvl := Lvl) V c).leaves 2 t
    ∗ (dat19 (Ix := Ix) (U := U) (Lvl := Lvl) V c).leaves 3 t ∗ (dat19 (Ix := Ix) (U := U) (Lvl := Lvl) V c).leaves 4 t ∗ (dat19 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body19 (𝒱₀ : Variants) (ι : Ix) (V : Valuation τ sig (Elt F)) (c : Dev nD) (t : Fin cfg19.N) :
    bodyPre19 (Ix := Ix) (U := U) (Lvl := Lvl) V c ι t ⊢ wp frame (wpE (defs₀ (F := F)) 𝒱₀ c none) Set.univ (bodyAt19 t) (fun _ => bodyPost19 (Ix := Ix) (U := U) (Lvl := Lvl) V c ι t) := by
  unfold bodyPre19 bodyPost19 bodyAt19
  simp only [before19_0, before19_1, before19_2, before19_3, before19_4]
  rw [show (dat19 (Ix := Ix) (U := U) (Lvl := Lvl) V c).owesAt ι t.succ = (dat19 (Ix := Ix) (U := U) (Lvl := Lvl) V c).owesAt ι t.castSucc from rfl]
  rw [Phi19_at_succ, Phi19_succ, Phi19_castSucc]
  rw [leaves_live (dat19 (Ix := Ix) (U := U) (Lvl := Lvl) V c) 0 t rfl rfl, leaves_live (dat19 (Ix := Ix) (U := U) (Lvl := Lvl) V c) 1 t rfl rfl, leaves_live (dat19 (Ix := Ix) (U := U) (Lvl := Lvl) V c) 2 t rfl rfl,
    leaves_live (dat19 (Ix := Ix) (U := U) (Lvl := Lvl) V c) 3 t rfl rfl, leaves_live (dat19 (Ix := Ix) (U := U) (Lvl := Lvl) V c) 4 t rfl rfl, after19_0, after19_1, after19_2, after19_3, after19_4]
  have hN : t.val < 64 := lt_of_lt_of_eq t.isLt (show cfg19.N = 64 from N_19)
  by_cases h0 : t.val % 8 = 0
  · have h7 : ¬t.val % 8 = 7 := by omega
    rw [Dat.leaves_idle (dat19 (Ix := Ix) (U := U) (Lvl := Lvl) V c) 5 t (idleAt19_5 t h7) (noFlush19_5 t h7)]
    rw [acc19_reset V c t.val t.isLt h0]
    unfold step19 init19
    by_cases hz : t.val = 0
    · rw [Phi19_zero V c _ _ hz, scopedRest19_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run19_first 𝒱₀ c (grid19.coords t) _ _ _ _ _ _ _ _ _ _ _ _ _ _ ((hcond19_0 t).mpr h0) (fun h => h7 ((hcond19_1 t).mp h)) (iblk19 V c 0 t) (iblk19 V c 1 t) (iblk19 V c 2 t) (iblk19 V c 3 t) (iblk19 V c 4 t) ((dat19 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi19_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run19_first 𝒱₀ c (grid19.coords t) _ _ _ _ _ _ _ _ _ _ _ _ _ _ ((hcond19_0 t).mpr h0) (fun h => h7 ((hcond19_1 t).mp h)) (iblk19 V c 0 t) (iblk19 V c 1 t) (iblk19 V c 2 t) (iblk19 V c 3 t) (iblk19 V c 4 t) ((dat19 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc19_step V c t.val t.isLt h0, Phi19_pos V c _ _ hz]
    unfold step19
    by_cases h7 : t.val % 8 = 7
    · rw [leaves_live (dat19 (Ix := Ix) (U := U) (Lvl := Lvl) V c) 5 t (liveAt19_5 t h7) rfl, after19_5, acc19_step V c t.val t.isLt h0]
      unfold step19
      iintro ⟨⟨HS, Hr⟩, Ho, ⟨%d0, H0⟩, ⟨%d1, H1⟩, ⟨%d2, H2⟩, ⟨%d3, H3⟩, ⟨%d4, H4⟩, ⟨%d5, H5⟩⟩
      iapply (run19_last 𝒱₀ c (grid19.coords t) _ _ _ _ _ _ _ _ _ _ _ _ _ _ (fun h => h0 ((hcond19_0 t).mp h)) ((hcond19_1 t).mpr h7) (iblk19 V c 0 t) (iblk19 V c 1 t) (iblk19 V c 2 t) (iblk19 V c 3 t) (iblk19 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat19 (Ix := Ix) (U := U) (Lvl := Lvl) V c) 5 t (idleAt19_5 t h7) (noFlush19_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run19_mid 𝒱₀ c (grid19.coords t) _ _ _ _ _ _ _ _ _ _ _ _ _ _ (fun h => h0 ((hcond19_0 t).mp h)) (fun h => h7 ((hcond19_1 t).mp h)) (iblk19 V c 0 t) (iblk19 V c 1 t) (iblk19 V c 2 t) (iblk19 V c 3 t) (iblk19 V c 4 t) ((dat19 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation19 (𝒱₀ : Variants) (ι : Ix) (V : Valuation τ sig (Elt F)) (c : Dev nD) :
    BodyObligationLoose (dat19 (Ix := Ix) (U := U) (Lvl := Lvl) V c) (defs₀ (F := F)) 𝒱₀ ι Set.univ := fun t => by
  rw [bigSep_W19, bigSep_W19]
  exact sound_body19 𝒱₀ ι V c t

/-- The same at the type the program's family of configurations gives pipeline 1, on every core. -/
theorem body19 (𝒱₀ : Variants) (ι : Ix) (V : Valuation τ sig (Elt F)) :
    ∀ c : Dev nD, BodyObligationLoose (cfg := cfgs 19) (dat19 (Ix := Ix) (U := U) (Lvl := Lvl) V c) (defs₀ (F := F)) 𝒱₀ ι Set.univ :=
  fun c => body_obligation19 𝒱₀ ι V c

end Cert.KernelIdeal.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg19

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (19 : Fin 24)
/-- Its configuration, its windows but for their index maps, the number of its windows. -/
abbrev cfgK : Pipeline.Cfg sig Λ₀ := cfg19
abbrev specK : Fin 6 → Pipeline.WinSpec sig cfgK.grid.rank := spec19
abbrev nW : Nat := 6
/-- Its output window and the buffer behind it. -/
abbrev oK : Fin nW := 5
abbrev outK : Ref sig .tc := main_v652
theorem winK : Pipeline.WinFacts₀ specK := winFacts₀19
theorem block_posK : ∀ w : Fin nW, 0 < (specK w).block.numel := block_pos19
theorem arr_wholeK : ∀ w : Fin nW, (specK w).arr.IsWhole := arr_whole19
theorem stage_wholeK : ∀ (w : Fin nW) (s : Fin (specK w).nbuf), ((specK w).stage s).IsWhole := stage_whole19

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.KernelIdeal.Hand.Reg19

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R19' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (19 : Fin 24) c = dat19 (V105 m outs c) c)
    (hbody : ∀ c : Dev nD, Pipeline.BodyObligationLoose (dat19 (Ix := Ix) (U := U) (Lvl := Lvl) (V105 m outs c) c) (defs₀ (F := F)) 𝒱₀ ι Set.univ) :
    RegionSeg (pcfgs (F := F)) GenP.adm pdats ι defs₀ 𝒱₀ L lv (19 : Fin 24) :=
  Reg19.RK 𝒱₀ L lv ι pdats (fun c => V105 m outs c)
    (fun c => by rw [hp c]; exact hbody c)
    (fun c w => by rw [hp c]; exact A_eq19 (V105 m outs c) c w)
    (fun c => by rw [hp c]; rw [q19_1, q19_2]; exact PosShare.mem_left_op_right fullShare)
    (fun c => by rw [hp c]; rw [q19_3, q19_4]; exact PosShare.mem_left_op_right fullShare)
    (fun c => by rw [hp c]; exact q19_0 (V105 m outs c) c)
    (fun c t => by rw [hp c]; rfl)
    (fun c => by rw [hp c]; rfl)
    (fun c => by rw [hp c, Phi_first19])
    (fun c => by rw [hp c]; exact Phi_last19 (V105 m outs c) c)

/-- It is entered from the thread state before the region's item, -/
theorem hpre19' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (19 : Fin 24) c = dat19 (V105 m outs c) c)
    (hbody : ∀ c : Dev nD, Pipeline.BodyObligationLoose (dat19 (Ix := Ix) (U := U) (Lvl := Lvl) (V105 m outs c) c) (defs₀ (F := F)) 𝒱₀ ι Set.univ)
    (c : Dev nD) :
    iprop(StableHlo.held (c : Thread nD τ) (Pipeline.ucRefs τ sig) (V105 m outs c) ∗ (R c : sProp 𝕄))
      ⊢ (R19' m outs 𝒱₀ L lv ι pdats hp hbody).pre c := .rfl

/-- and left at the thread state after it. -/
theorem hpost19' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (19 : Fin 24) c = dat19 (V105 m outs c) c)
    (hbody : ∀ c : Dev nD, Pipeline.BodyObligationLoose (dat19 (Ix := Ix) (U := U) (Lvl := Lvl) (V105 m outs c) c) (defs₀ (F := F)) 𝒱₀ ι Set.univ)
    (houts : ∀ c : Dev nD, outs 106 main_v652 c = (dat19 (Ix := Ix) (U := U) (Lvl := Lvl) (V105 m outs c) c).arrAt 5 64)
    (c : Dev nD) :
    (R19' m outs 𝒱₀ L lv ι pdats hp hbody).post c
      ⊢ iprop(StableHlo.held (c : Thread nD τ) (Pipeline.ucRefs τ sig) (V106 m outs c) ∗ (R c : sProp 𝕄)) := by
  have h : (pdats (19 : Fin 24) c).arrAt Reg19.oK Reg19.cfgK.N = outs 106 main_v652 c := by
    rw [hp c]; exact (houts c).symm
  show iprop(StableHlo.held (c : Thread nD τ) (Pipeline.ucRefs τ sig)
      (Function.update (V105 m outs c) (Proc.devRef .tc main_v652) ((pdats (19 : Fin 24) c).arrAt Reg19.oK Reg19.cfgK.N))
        ∗ (R c : sProp 𝕄)) ⊢ _
  rw [h]

end Cert.KernelIdeal.Hand
-- ==== Proof.Rg20.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.SumLib
import Idealize.ShloMosaic.Lib.Tactic
import proofs.«169706_j68856915690108_1_alg».proof.Proof.Shared
import proofs.«169706_j68856915690108_1_alg».proof.Proof.RegionsKI

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k20_pay2)

  and only at the last point, 63, is that cell copied into the 1 × 1 output block, which the pipeline then writes back.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk20 (V : Valuation τ sig (Elt F)) (c : Dev nD) (w : Fin cfg20.W) (t : Fin cfg20.N) :
    ((cfg20.win w).xblock (cfg20.grid.coords t)).Idx → Elt F (cfg20.win w).elt :=
  ((cfg20.win w).blk t).view.read (Elt F)
    (V (Proc.devRef .tc (Pipeline.arrRef spec20 w)) : Buf (Elt F) ((cfg20.win w).arr.view.loc (c.tc : Thread nD τ)))

/-- One point's step on the scratch cell: the cell's contents `a` plus the sum of the tile made of the two blocks
    the point stages (the printed payload of the store into the scratch cell). -/
noncomputable def step20 (V : Valuation τ sig (Elt F)) (c : Dev nD) (n : ℕ) (hn : n < cfg20.N) (a : Vec F S1x1 .f32) : Vec F S1x1 .f32 :=
  k20_pay2 (iblk20 V c 0 ⟨n, hn⟩) (iblk20 V c 1 ⟨n, hn⟩) a

/-- What the scratch cell holds after point `n`: the steps of the points `0 … n` applied, first to last, to the
    zero the body stores at point 0. -/
noncomputable def acc20 (V : Valuation τ sig (Elt F)) (c : Dev nD) : (n : ℕ) → n < cfg20.N → Vec F S1x1 .f32
  | 0, hn => step20 V c 0 hn (k20_pay1 (F := F))
  | n + 1, hn => step20 V c (n + 1) hn (acc20 V c n (Nat.lt_of_succ_lt hn))

theorem acc20_zero (V : Valuation τ sig (Elt F)) (c : Dev nD) (hn : 0 < cfg20.N) :
    acc20 V c 0 hn = step20 V c 0 hn (k20_pay1 (F := F)) := rfl

theorem acc20_succ (V : Valuation τ sig (Elt F)) (c : Dev nD) (n : ℕ) (hn : n + 1 < cfg20.N) :
    acc20 V c (n + 1) hn = step20 V c (n + 1) hn (acc20 V c n (Nat.lt_of_succ_lt hn)) := rfl

/-- After a point that is not the first: the step of that point on what the point before left. -/
theorem acc20_pos (V : Valuation τ sig (Elt F)) (c : Dev nD) (n : ℕ) (hn : n < cfg20.N) (hz : n ≠ 0) :
    acc20 V c n hn = step20 V c n hn (acc20 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi20 (V : Valuation τ sig (Elt F)) (c : Dev nD) : (n : ℕ) → n ≤ cfg20.N → sProp 𝕄
  | 0, _ => Pipeline.scopedRest (Ix := Ix) (Name := ℕ) (U := U) (Lvl := Lvl) (Val := Elt F) spec20 c
  | n + 1, hn => iprop(owns (c : Thread nD τ) (Memref.whole cc20_scratch0) fullShare (acc20 V c n hn)
      ∗ Pipeline.scopedRestBut (Ix := Ix) (Name := ℕ) (U := U) (Lvl := Lvl) (Val := Elt F) spec20 c [cc20_scratch0])

theorem Phi20_zero (V : Valuation τ sig (Elt F)) (c : Dev nD) (n : ℕ) (h : n ≤ cfg20.N) (hz : n = 0) :
    (Phi20 V c n h : sProp 𝕄) = Pipeline.scopedRest (Ix := Ix) (Name := ℕ) (U := U) (Lvl := Lvl) (Val := Elt F) spec20 c := by
  subst hz; rfl

theorem Phi20_succ (V : Valuation τ sig (Elt F)) (c : Dev nD) (n : ℕ) (hn : n < cfg20.N) :
    (Phi20 V c (n + 1) hn : sProp 𝕄) = iprop(owns (c : Thread nD τ) (Memref.whole cc20_scratch0) fullShare (acc20 V c n hn)
      ∗ Pipeline.scopedRestBut (Ix := Ix) (Name := ℕ) (U := U) (Lvl := Lvl) (Val := Elt F) spec20 c [cc20_scratch0]) := rfl

theorem Phi20_pos (V : Valuation τ sig (Elt F)) (c : Dev nD) (n : ℕ) (h : n ≤ cfg20.N) (hz : n ≠ 0) :
    (Phi20 V c n h : sProp 𝕄) = iprop(owns (c : Thread nD τ) (Memref.whole cc20_scratch0) fullShare (acc20 V c (n - 1) (by omega))
      ∗ Pipeline.scopedRestBut (Ix := Ix) (Name := ℕ) (U := U) (Lvl := Lvl) (Val := Elt F) spec20 c [cc20_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi20`; the one
    array the two inputs read held half and half; nothing owed. -/
noncomputable def dat20 (V : Valuation τ sig (Elt F)) (c : Dev nD) : Dat τ (Elt F) Ix ℕ U Lvl cfg20 c where
  A w := V (Proc.devRef .tc (Pipeline.arrRef spec20 w))
  after w t := match w with
    | ⟨0, _⟩ => iblk20 V c 0 t
    | ⟨1, _⟩ => iblk20 V c 1 t
    | ⟨2, _⟩ => acc20 V c t.val t.isLt
  Φ t := Phi20 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq20 (V : Valuation τ sig (Elt F)) (c : Dev nD) (w : Fin cfg20.W) :
    (dat20 (Ix := Ix) (U := U) (Lvl := Lvl) V c).A w = V (Proc.devRef .tc (Pipeline.arrRef spec20 w)) := by
  dsimp only [dat20]

/-- What the body leaves, window by window. -/
theorem after20_0 (V : Valuation τ sig (Elt F)) (c : Dev nD) (t : Fin cfg20.N) :
    (dat20 (Ix := Ix) (U := U) (Lvl := Lvl) V c).after 0 t = iblk20 V c 0 t := by dsimp only [dat20]
theorem after20_1 (V : Valuation τ sig (Elt F)) (c : Dev nD) (t : Fin cfg20.N) :
    (dat20 (Ix := Ix) (U := U) (Lvl := Lvl) V c).after 1 t = iblk20 V c 1 t := by dsimp only [dat20]
theorem after20_2 (V : Valuation τ sig (Elt F)) (c : Dev nD) (t : Fin cfg20.N) :
    (dat20 (Ix := Ix) (U := U) (Lvl := Lvl) V c).after 2 t = acc20 V c t.val t.isLt := by dsimp only [dat20]

/-- The invariant at a point's start, and at its end. -/
theorem Phi20_castSucc (V : Valuation τ sig (Elt F)) (c : Dev nD) (t : Fin cfg20.N) :
    (dat20 (Ix := Ix) (U := U) (Lvl := Lvl) V c).Φ t.castSucc = Phi20 V c t.val (Nat.le_of_lt t.isLt) := by
  dsimp only [dat20]; simp only [Fin.coe_castSucc]

theorem Phi20_at_succ (V : Valuation τ sig (Elt F)) (c : Dev nD) (t : Fin cfg20.N) :
    (dat20 (Ix := Ix) (U := U) (Lvl := Lvl) V c).Φ t.succ = Phi20 V c (t.val + 1) t.isLt := rfl

/-- Before the first point the invariant is the launch's scoped rest. -/
theorem Phi_first20 (V : Valuation τ sig (Elt F)) (c : Dev nD) :
    (dat20 (Ix := Ix) (U := U) (Lvl := Lvl) V c).Φ 0
      = Pipeline.scopedRest (Ix := Ix) (Name := ℕ) (U := U) (Lvl := Lvl) (Val := Elt F) spec20 c := rfl

/-- After the last point the invariant gives the scoped rest back: the scratch cell's contents are forgotten. -/
theorem Phi_last20 (V : Valuation τ sig (Elt F)) (c : Dev nD) :
    (dat20 (Ix := Ix) (U := U) (Lvl := Lvl) V c).Φ (Fin.last cfg20.N)
      ⊢ Pipeline.scopedRest (Ix := Ix) (Name := ℕ) (U := U) (Lvl := Lvl) (Val := Elt F) spec20 c := by
  have hN : cfg20.N = 64 := N_20
  rw [show (dat20 (Ix := Ix) (U := U) (Lvl := Lvl) V c).Φ (Fin.last cfg20.N) = Phi20 V c (Fin.last cfg20.N).val (Nat.le_of_lt_succ (Fin.last cfg20.N).isLt) from rfl,
    Phi20_pos V c _ _ (by rw [Fin.val_last]; omega), scopedRest20_split, owns_whole]
  iintro ⟨Hs, Hr⟩
  isplitl [Hs]
  · iexists _; iexact Hs
  iexact Hr

example (V : Valuation τ sig (Elt F)) (c : Dev nD) : Dat τ (Elt F) Ix ℕ U Lvl (cfgs 20) c := dat20 V c

end Cert.KernelIdeal.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k20_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond20_1 (i : grid20.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond20_2 (i : grid20.Coords) : Prop := k20_cond2 i = 1#1

/-- The reset runs at the first point only, -/
theorem hcond20_1 : ∀ t : Fin cfg20.N, cond20_1 (grid20.coords t) ↔ t.val = 0 :=
  (by decide +kernel : ∀ t : Fin grid20.N, cond20_1 (grid20.coords t) ↔ t.val = 0)
/-- the copy at the last point only. -/
theorem hcond20_2 : ∀ t : Fin cfg20.N, cond20_2 (grid20.coords t) ↔ t.val = 63 :=
  (by decide +kernel : ∀ t : Fin grid20.N, cond20_2 (grid20.coords t) ↔ t.val = 63)

/-! ## The body, case by case, on any whole memrefs -/

/-- The first point: the scratch cell, at anything, is reset and then holds the first step on zero. -/
theorem run20_A (𝒱₀ : Variants) (c : Dev nD) (i : grid20.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond20_1 i) (hc2 : ¬cond20_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k20_pay2 x2 x3 (k20_pay1 (F := F)))) -∗ K ⟨⟩))
      ⊢ wp frame (wpE (defs₀ (F := F)) 𝒱₀ c none) E (cc20__sum_kernel i arg2 harg2 arg3 harg3 arg4 harg4 arg5 harg5) K := by
  simp only [cc20__sum_kernel_eq_skeleton]; unfold cc20__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run20_A.sl.v15 run20_A.sl.H5_1
  rw [readCov_whole _ zeros2, readAt_whole _ _ zeros2, readAt_whole _ _ zeros2]

/-- A point strictly between the first and the last: the scratch cell at `a` takes the point's step. -/
theorem run20_B (𝒱₀ : Variants) (c : Dev nD) (i : grid20.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond20_1 i) (hc2 : ¬cond20_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k20_pay2 x2 x3 a)) -∗ K ⟨⟩))
      ⊢ wp frame (wpE (defs₀ (F := F)) 𝒱₀ c none) E (cc20__sum_kernel i arg2 harg2 arg3 harg3 arg4 harg4 arg5 harg5) K := by
  simp only [cc20__sum_kernel_eq_skeleton]; unfold cc20__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run20_C (𝒱₀ : Variants) (c : Dev nD) (i : grid20.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond20_1 i) (hc2 : cond20_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k20_pay2 x2 x3 a) ∗ owns (c : Thread nD τ) arg5 fullShare (k20_pay2 x2 x3 a)) -∗ K ⟨⟩))
      ⊢ wp frame (wpE (defs₀ (F := F)) 𝒱₀ c none) E (cc20__sum_kernel i arg2 harg2 arg3 harg3 arg4 harg4 arg5 harg5) K := by
  simp only [cc20__sum_kernel_eq_skeleton]; unfold cc20__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run20_C.sl.v25 run20_C.sl.H5_1
    rw [readCov_whole _ zeros2, readAt_whole _ _ zeros2, readAt_whole _ _ zeros2, readAt_whole _ _ zeros2]
  iexists _; isplitr
  swap; · iexact H5
  ipureintro
  unfold run20_C.sl.H5_1
  rw [read_writes_whole _ _ zeros2, readAt_whole _ _ zeros2, readAt_whole _ _ zeros2, readAt_whole _ _ zeros2]

end Cert.KernelIdeal.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle20_2 : ∀ t : Fin cfg20.N, cfg20.idle 2 (grid20.coords t) = true ↔ t.val ≠ 63 :=
  (by decide +kernel : ∀ t : Fin grid20.N, idle20 2 (grid20.coords t) = true ↔ t.val ≠ 63)
/-- and written back at the last point only. -/
theorem flush20_2' : ∀ t : Fin cfg20.N, (cfg20.win 2).flush t = true ↔ t.val = 63 :=
  (by decide +kernel : ∀ t : Fin grid20.N, win20_2.flush t = true ↔ t.val = 63)

/-! ## What the body finds in the inputs' buffers -/

/-- Each input's current staging buffer holds its block at every point, fetched there or not: unfetched, the block
    index has not moved and the body left the block in place. -/
theorem before20_0 (V : Valuation τ sig (Elt F)) (c : Dev nD) (t : Fin cfg20.N) (d) :
    (dat20 (Ix := Ix) (U := U) (Lvl := Lvl) V c).before 0 t d = iblk20 V c 0 t :=
  ((dat20 (Ix := Ix) (U := U) (Lvl := Lvl) V c).before_in_eq_fetched 0 rfl (fun _ => rfl) (fun _ _ _ => rfl)
      (fun t => by rw [after20_0]; unfold Dat.blockOf iblk20; rw [A_eq20]; try rfl) t d).trans
    (by unfold Dat.fetched Dat.blockOf iblk20; rw [A_eq20]; try rfl)

theorem before20_1 (V : Valuation τ sig (Elt F)) (c : Dev nD) (t : Fin cfg20.N) (d) :
    (dat20 (Ix := Ix) (U := U) (Lvl := Lvl) V c).before 1 t d = iblk20 V c 1 t :=
  ((dat20 (Ix := Ix) (U := U) (Lvl := Lvl) V c).before_in_eq_fetched 1 rfl (fun _ => rfl) (fun _ _ _ => rfl)
      (fun t => by rw [after20_1]; unfold Dat.blockOf iblk20; rw [A_eq20]; try rfl) t d).trans
    (by unfold Dat.fetched Dat.blockOf iblk20; rw [A_eq20]; try rfl)

/-! ## What the obligation asks of each window's buffer after the body -/

/-- The inputs are never idle: their buffers are handed back at their blocks. -/
theorem leaves20_0 (V : Valuation τ sig (Elt F)) (c : Dev nD) (t : Fin cfg20.N) :
    (dat20 (Ix := Ix) (U := U) (Lvl := Lvl) V c).leaves 0 t = owns (c : Thread nD τ) (st20_0 t) fullShare (iblk20 V c 0 t) := by
  rw [← after20_0 (Ix := Ix) (U := U) (Lvl := Lvl) V c t]

theorem leaves20_1 (V : Valuation τ sig (Elt F)) (c : Dev nD) (t : Fin cfg20.N) :
    (dat20 (Ix := Ix) (U := U) (Lvl := Lvl) V c).leaves 1 t = owns (c : Thread nD τ) (st20_1 t) fullShare (iblk20 V c 1 t) := by
  rw [← after20_1 (Ix := Ix) (U := U) (Lvl := Lvl) V c t]

/-- The output is idle, and not written back, at every point but the last: its buffer is handed back as found; -/
theorem leaves20_2_idle (V : Valuation τ sig (Elt F)) (c : Dev nD) (t : Fin cfg20.N) (h : t.val ≠ 63) :
    (dat20 (Ix := Ix) (U := U) (Lvl := Lvl) V c).leaves 2 t
      = iprop(∃ d, owns (c : Thread nD τ) (st20_2 t) fullShare ((dat20 (Ix := Ix) (U := U) (Lvl := Lvl) V c).before 2 t d)) :=
  (dat20 (Ix := Ix) (U := U) (Lvl := Lvl) V c).leaves_idle 2 t ((idle20_2 t).mpr h)
    (Bool.eq_false_iff.mpr fun hf => h ((flush20_2' t).mp hf))

/-- at the last point it is handed back at the accumulated sum. -/
theorem leaves20_2_last (V : Valuation τ sig (Elt F)) (c : Dev nD) (t : Fin cfg20.N) (h : t.val = 63) :
    (dat20 (Ix := Ix) (U := U) (Lvl := Lvl) V c).leaves 2 t = owns (c : Thread nD τ) (st20_2 t) fullShare (acc20 V c t.val t.isLt) := by
  have hl : cfg20.idle 2 (grid20.coords t) = false := by
    cases hi : cfg20.idle 2 (grid20.coords t) with
    | false => rfl
    | true => exact absurd h ((idle20_2 t).mp hi)
  rw [← after20_2 (Ix := Ix) (U := U) (Lvl := Lvl) V c t]
  unfold Dat.leaves; rw [hl]

/-- One step at a point, through the point itself. -/
theorem step20_at (V : Valuation τ sig (Elt F)) (c : Dev nD) (t : Fin cfg20.N) (a : Vec F S1x1 .f32) :
    step20 V c t.val t.isLt a = k20_pay2 (iblk20 V c 0 t) (iblk20 V c 1 t) a := rfl

theorem acc20_first (V : Valuation τ sig (Elt F)) (c : Dev nD) (n : ℕ) (hn : n < cfg20.N) (hz : n = 0) :
    acc20 V c n hn = step20 V c n hn (k20_pay1 (F := F)) := by
  subst hz; rfl

/-! ## The body obligation -/

/-- What the body is called with at point `t` (the obligation's precondition, the windows one by one), -/
noncomputable def bodyPre20 (V : Valuation τ sig (Elt F)) (ι : Ix) (c : Dev nD) (t : Fin cfg20.N) : sProp 𝕄 :=
  iprop((dat20 (Ix := Ix) (U := U) (Lvl := Lvl) V c).Φ t.castSucc ∗ (dat20 (Ix := Ix) (U := U) (Lvl := Lvl) V c).owesAt ι t.castSucc
    ∗ (∃ d, owns (c : Thread nD τ) (st20_0 t) fullShare ((dat20 (Ix := Ix) (U := U) (Lvl := Lvl) V c).before 0 t d))
    ∗ (∃ d, owns (c : Thread nD τ) (st20_1 t) fullShare ((dat20 (Ix := Ix) (U := U) (Lvl := Lvl) V c).before 1 t d))
    ∗ (∃ d, owns (c : Thread nD τ) (st20_2 t) fullShare ((dat20 (Ix := Ix) (U := U) (Lvl := Lvl) V c).before 2 t d)))

/-- and what it returns. -/
noncomputable def bodyPost20 (V : Valuation τ sig (Elt F)) (ι : Ix) (c : Dev nD) (t : Fin cfg20.N) : sProp 𝕄 :=
  iprop((dat20 (Ix := Ix) (U := U) (Lvl := Lvl) V c).Φ t.succ ∗ (dat20 (Ix := Ix) (U := U) (Lvl := Lvl) V c).owesAt ι t.succ
    ∗ (dat20 (Ix := Ix) (U := U) (Lvl := Lvl) V c).leaves 0 t ∗ (dat20 (Ix := Ix) (U := U) (Lvl := Lvl) V c).leaves 1 t ∗ (dat20 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body20 (V : Valuation τ sig (Elt F)) (𝒱₀ : Variants) (ι : Ix) (c : Dev nD) (t : Fin cfg20.N) :
    bodyPre20 (U := U) (Lvl := Lvl) V ι c t
      ⊢ wp frame (wpE (defs₀ (F := F)) 𝒱₀ c none) Set.univ (bodyAt20 t) (fun _ => bodyPost20 (U := U) (Lvl := Lvl) V ι c t) := by
  unfold bodyPre20 bodyPost20 bodyAt20
  simp only [before20_0, before20_1]
  rw [show (dat20 (Ix := Ix) (U := U) (Lvl := Lvl) V c).owesAt ι t.succ = (dat20 (Ix := Ix) (U := U) (Lvl := Lvl) V c).owesAt ι t.castSucc from rfl]
  rw [Phi20_at_succ, Phi20_succ, Phi20_castSucc, leaves20_0, leaves20_1]
  have hN : t.val < 64 := lt_of_lt_of_eq t.isLt N_20
  by_cases hz : t.val = 0
  · have hc1 : cond20_1 (grid20.coords t) := (hcond20_1 t).mpr hz
    have hc2 : ¬cond20_2 (grid20.coords t) := fun h => by have := (hcond20_2 t).mp h; omega
    rw [leaves20_2_idle V c t (by omega), Phi20_zero V c _ _ hz, scopedRest20_split, acc20_first V c _ _ hz, step20_at]
    iintro ⟨⟨⟨%f, Hs⟩, Hr⟩, Ho, ⟨%d0, H0⟩, ⟨%d1, H1⟩, H2⟩
    iapply (run20_A 𝒱₀ c (grid20.coords t) _ _ _ _ _ _ _ _ hc1 hc2 (iblk20 V c 0 t) (iblk20 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond20_1 (grid20.coords t) := fun h => hz ((hcond20_1 t).mp h)
    rw [Phi20_pos V c _ _ hz, acc20_pos V c _ _ hz, step20_at]
    by_cases hl : t.val = 63
    · have hc2 : cond20_2 (grid20.coords t) := (hcond20_2 t).mpr hl
      rw [leaves20_2_last V c t hl, acc20_pos V c _ _ hz, step20_at]
      iintro ⟨⟨Hs, Hr⟩, Ho, ⟨%d0, H0⟩, ⟨%d1, H1⟩, ⟨%d2, H2⟩⟩
      iapply (run20_C 𝒱₀ c (grid20.coords t) _ _ _ _ _ _ _ _ hc1 hc2 (iblk20 V c 0 t) (iblk20 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond20_2 (grid20.coords t) := fun h => hl ((hcond20_2 t).mp h)
      rw [leaves20_2_idle V c t hl]
      iintro ⟨⟨Hs, Hr⟩, Ho, ⟨%d0, H0⟩, ⟨%d1, H1⟩, H2⟩
      iapply (run20_B 𝒱₀ c (grid20.coords t) _ _ _ _ _ _ _ _ hc1 hc2 (iblk20 V c 0 t) (iblk20 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body20 (V : Valuation τ sig (Elt F)) (𝒱₀ : Variants) (ι : Ix) :
    ∀ c : Dev nD, BodyObligationLoose (dat20 (Ix := Ix) (U := U) (Lvl := Lvl) V c) (defs₀ (F := F)) 𝒱₀ ι Set.univ := fun c t => by
  rw [bigSep_W20, bigSep_W20]
  exact sound_body20 (U := U) (Lvl := Lvl) V 𝒱₀ ι c t

end Cert.KernelIdeal.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg20

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (20 : Fin 24)
/-- Its configuration, its windows but for their index maps, the number of its windows. -/
abbrev cfgK : Pipeline.Cfg sig Λ₀ := cfg20
abbrev specK : Fin 3 → Pipeline.WinSpec sig cfgK.grid.rank := spec20
abbrev nW : Nat := 3
/-- Its output window and the buffer behind it. -/
abbrev oK : Fin nW := 2
abbrev outK : Ref sig .tc := main_v718
theorem winK : Pipeline.WinFacts₀ specK := winFacts₀20
theorem block_posK : ∀ w : Fin nW, 0 < (specK w).block.numel := block_pos20
theorem arr_wholeK : ∀ w : Fin nW, (specK w).arr.IsWhole := arr_whole20
theorem stage_wholeK : ∀ (w : Fin nW) (s : Fin (specK w).nbuf), ((specK w).stage s).IsWhole := stage_whole20

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.KernelIdeal.Hand.Reg20

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R20' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (20 : Fin 24) c = dat20 (V114 m outs c) c)
    (hbody : ∀ c : Dev nD, Pipeline.BodyObligationLoose (dat20 (Ix := Ix) (U := U) (Lvl := Lvl) (V114 m outs c) c) (defs₀ (F := F)) 𝒱₀ ι Set.univ) :
    RegionSeg (pcfgs (F := F)) GenP.adm pdats ι defs₀ 𝒱₀ L lv (20 : Fin 24) :=
  Reg20.RK 𝒱₀ L lv ι pdats (fun c => V114 m outs c)
    (fun c => by rw [hp c]; exact hbody c)
    (fun c w => by rw [hp c]; exact A_eq20 (V114 m outs c) c w)
    (fun c => by rw [hp c]; exact PosShare.mem_left_op_right fullShare)
    (fun c t => by rw [hp c]; rfl)
    (fun c => by rw [hp c]; rfl)
    (fun c => by rw [hp c, Phi_first20])
    (fun c => by rw [hp c]; exact Phi_last20 (V114 m outs c) c)

/-- It is entered from the thread state before the region's item, -/
theorem hpre20' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (20 : Fin 24) c = dat20 (V114 m outs c) c)
    (hbody : ∀ c : Dev nD, Pipeline.BodyObligationLoose (dat20 (Ix := Ix) (U := U) (Lvl := Lvl) (V114 m outs c) c) (defs₀ (F := F)) 𝒱₀ ι Set.univ)
    (c : Dev nD) :
    iprop(StableHlo.held (c : Thread nD τ) (Pipeline.ucRefs τ sig) (V114 m outs c) ∗ (R c : sProp 𝕄))
      ⊢ (R20' m outs 𝒱₀ L lv ι pdats hp hbody).pre c := .rfl

/-- and left at the thread state after it. -/
theorem hpost20' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (20 : Fin 24) c = dat20 (V114 m outs c) c)
    (hbody : ∀ c : Dev nD, Pipeline.BodyObligationLoose (dat20 (Ix := Ix) (U := U) (Lvl := Lvl) (V114 m outs c) c) (defs₀ (F := F)) 𝒱₀ ι Set.univ)
    (houts : ∀ c : Dev nD, outs 115 main_v718 c = (dat20 (Ix := Ix) (U := U) (Lvl := Lvl) (V114 m outs c) c).arrAt 2 64)
    (c : Dev nD) :
    (R20' m outs 𝒱₀ L lv ι pdats hp hbody).post c
      ⊢ iprop(StableHlo.held (c : Thread nD τ) (Pipeline.ucRefs τ sig) (V115 m outs c) ∗ (R c : sProp 𝕄)) := by
  have h : (pdats (20 : Fin 24) c).arrAt Reg20.oK Reg20.cfgK.N = outs 115 main_v718 c := by
    rw [hp c]; exact (houts c).symm
  show iprop(StableHlo.held (c : Thread nD τ) (Pipeline.ucRefs τ sig)
      (Function.update (V114 m outs c) (Proc.devRef .tc main_v718) ((pdats (20 : Fin 24) c).arrAt Reg20.oK Reg20.cfgK.N))
        ∗ (R c : sProp 𝕄)) ⊢ _
  rw [h]

end Cert.KernelIdeal.Hand
-- ==== Proof.Rg21.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.ApplyLib
import proofs.«169706_j68856915690108_1_alg».proof.Proof.Shared
import proofs.«169706_j68856915690108_1_alg».proof.Proof.RegionsKI

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k21_pay1 x_i` and `step t a = k21_pay2 h_i h_j threshold x_j a`, the printed payloads of the two stores.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk21 (V : Valuation τ sig (Elt F)) (c : Dev nD) (w : Fin cfg21.W) (t : Fin cfg21.N) :
    ((cfg21.win w).xblock (cfg21.grid.coords t)).Idx → Elt F (cfg21.win w).elt :=
  ((cfg21.win w).blk t).view.read (Elt F)
    (V (Proc.devRef .tc (Pipeline.arrRef spec21 w)) : Buf (Elt F) ((cfg21.win w).arr.view.loc (c.tc : Thread nD τ)))

/-- What the accumulator is reset to at a point whose second coordinate is 0: 1.0 times the block of `x` window 3
    stages there (the printed payload of the first store into the scratch buffer). -/
noncomputable def init21 (V : Valuation τ sig (Elt F)) (c : Dev nD) (n : ℕ) (hn : n < cfg21.N) : Vec F S512x256 .f32 :=
  k21_pay1 (iblk21 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step21 (V : Valuation τ sig (Elt F)) (c : Dev nD) (n : ℕ) (hn : n < cfg21.N) (a : Vec F S512x256 .f32) : Vec F S512x256 .f32 :=
  k21_pay2 (iblk21 V c 1 ⟨n, hn⟩) (iblk21 V c 2 ⟨n, hn⟩) (iblk21 V c 0 ⟨n, hn⟩) (iblk21 V c 4 ⟨n, hn⟩) a

/-- What the accumulator holds after point `n`: reset and stepped at the points ≡ 0 (mod 8), stepped from what the
    point before left at the others. -/
noncomputable def acc21 (V : Valuation τ sig (Elt F)) (c : Dev nD) : (n : ℕ) → n < cfg21.N → Vec F S512x256 .f32
  | 0, hn => step21 V c 0 hn (init21 V c 0 hn)
  | n + 1, hn =>
    if (n + 1) % 8 = 0 then step21 V c (n + 1) hn (init21 V c (n + 1) hn)
    else step21 V c (n + 1) hn (acc21 V c n (Nat.lt_of_succ_lt hn))

/-- After a point ≡ 0 (mod 8): the reset value, stepped once. -/
theorem acc21_reset (V : Valuation τ sig (Elt F)) (c : Dev nD) (n : ℕ) (hn : n < cfg21.N) (h0 : n % 8 = 0) :
    acc21 V c n hn = step21 V c n hn (init21 V c n hn) := by
  cases n with
  | zero => rfl
  | succ n => exact if_pos h0

/-- After any other point: that point's step on what the point before left. -/
theorem acc21_step (V : Valuation τ sig (Elt F)) (c : Dev nD) (n : ℕ) (hn : n < cfg21.N) (h0 : ¬n % 8 = 0) :
    acc21 V c n hn = step21 V c n hn (acc21 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi21 (V : Valuation τ sig (Elt F)) (c : Dev nD) : (n : ℕ) → n ≤ cfg21.N → sProp 𝕄
  | 0, _ => Pipeline.scopedRest (Ix := Ix) (Name := ℕ) (U := U) (Lvl := Lvl) (Val := Elt F) spec21 c
  | n + 1, hn => iprop(owns (c : Thread nD τ) (Memref.whole cc21_scratch0) fullShare (acc21 V c n hn)
      ∗ Pipeline.scopedRestBut (Ix := Ix) (Name := ℕ) (U := U) (Lvl := Lvl) (Val := Elt F) spec21 c [cc21_scratch0])

theorem Phi21_zero (V : Valuation τ sig (Elt F)) (c : Dev nD) (n : ℕ) (h : n ≤ cfg21.N) (hz : n = 0) :
    (Phi21 V c n h : sProp 𝕄) = Pipeline.scopedRest (Ix := Ix) (Name := ℕ) (U := U) (Lvl := Lvl) (Val := Elt F) spec21 c := by
  subst hz; rfl

theorem Phi21_succ (V : Valuation τ sig (Elt F)) (c : Dev nD) (n : ℕ) (hn : n < cfg21.N) :
    (Phi21 V c (n + 1) hn : sProp 𝕄) = iprop(owns (c : Thread nD τ) (Memref.whole cc21_scratch0) fullShare (acc21 V c n hn)
      ∗ Pipeline.scopedRestBut (Ix := Ix) (Name := ℕ) (U := U) (Lvl := Lvl) (Val := Elt F) spec21 c [cc21_scratch0]) := rfl

theorem Phi21_pos (V : Valuation τ sig (Elt F)) (c : Dev nD) (n : ℕ) (h : n ≤ cfg21.N) (hz : n ≠ 0) :
    (Phi21 V c n h : sProp 𝕄) = iprop(owns (c : Thread nD τ) (Memref.whole cc21_scratch0) fullShare (acc21 V c (n - 1) (by omega))
      ∗ Pipeline.scopedRestBut (Ix := Ix) (Name := ℕ) (U := U) (Lvl := Lvl) (Val := Elt F) spec21 c [cc21_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi21`; the
    threshold's array held whole, each of the two arrays that two input windows read held half and half; nothing owed. -/
noncomputable def dat21 (V : Valuation τ sig (Elt F)) (c : Dev nD) : Dat τ (Elt F) Ix ℕ U Lvl cfg21 c where
  A w := V (Proc.devRef .tc (Pipeline.arrRef spec21 w))
  after w t := match w with
    | ⟨0, _⟩ => iblk21 V c 0 t
    | ⟨1, _⟩ => iblk21 V c 1 t
    | ⟨2, _⟩ => iblk21 V c 2 t
    | ⟨3, _⟩ => iblk21 V c 3 t
    | ⟨4, _⟩ => iblk21 V c 4 t
    | ⟨5, _⟩ => acc21 V c t.val t.isLt
  Φ t := Phi21 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq21 (V : Valuation τ sig (Elt F)) (c : Dev nD) (w : Fin cfg21.W) :
    (dat21 (Ix := Ix) (U := U) (Lvl := Lvl) V c).A w = V (Proc.devRef .tc (Pipeline.arrRef spec21 w)) := by
  dsimp only [dat21]

/-- What the body leaves, window by window. -/
theorem after21_0 (V : Valuation τ sig (Elt F)) (c : Dev nD) (t : Fin cfg21.N) :
    (dat21 (Ix := Ix) (U := U) (Lvl := Lvl) V c).after 0 t = iblk21 V c 0 t := by dsimp only [dat21]
theorem after21_1 (V : Valuation τ sig (Elt F)) (c : Dev nD) (t : Fin cfg21.N) :
    (dat21 (Ix := Ix) (U := U) (Lvl := Lvl) V c).after 1 t = iblk21 V c 1 t := by dsimp only [dat21]
theorem after21_2 (V : Valuation τ sig (Elt F)) (c : Dev nD) (t : Fin cfg21.N) :
    (dat21 (Ix := Ix) (U := U) (Lvl := Lvl) V c).after 2 t = iblk21 V c 2 t := by dsimp only [dat21]
theorem after21_3 (V : Valuation τ sig (Elt F)) (c : Dev nD) (t : Fin cfg21.N) :
    (dat21 (Ix := Ix) (U := U) (Lvl := Lvl) V c).after 3 t = iblk21 V c 3 t := by dsimp only [dat21]
theorem after21_4 (V : Valuation τ sig (Elt F)) (c : Dev nD) (t : Fin cfg21.N) :
    (dat21 (Ix := Ix) (U := U) (Lvl := Lvl) V c).after 4 t = iblk21 V c 4 t := by dsimp only [dat21]
theorem after21_5 (V : Valuation τ sig (Elt F)) (c : Dev nD) (t : Fin cfg21.N) :
    (dat21 (Ix := Ix) (U := U) (Lvl := Lvl) V c).after 5 t = acc21 V c t.val t.isLt := by dsimp only [dat21]

/-- The shares the input arrays are held at. -/
theorem q21_0 (V : Valuation τ sig (Elt F)) (c : Dev nD) : (dat21 (Ix := Ix) (U := U) (Lvl := Lvl) V c).q 0 = fullShare := by dsimp only [dat21]
theorem q21_1 (V : Valuation τ sig (Elt F)) (c : Dev nD) : (dat21 (Ix := Ix) (U := U) (Lvl := Lvl) V c).q 1 = fullShare.left := by dsimp only [dat21]
theorem q21_2 (V : Valuation τ sig (Elt F)) (c : Dev nD) : (dat21 (Ix := Ix) (U := U) (Lvl := Lvl) V c).q 2 = fullShare.right := by dsimp only [dat21]
theorem q21_3 (V : Valuation τ sig (Elt F)) (c : Dev nD) : (dat21 (Ix := Ix) (U := U) (Lvl := Lvl) V c).q 3 = fullShare.left := by dsimp only [dat21]
theorem q21_4 (V : Valuation τ sig (Elt F)) (c : Dev nD) : (dat21 (Ix := Ix) (U := U) (Lvl := Lvl) V c).q 4 = fullShare.right := by dsimp only [dat21]

/-- The invariant at a point's start, and at its end. -/
theorem Phi21_castSucc (V : Valuation τ sig (Elt F)) (c : Dev nD) (t : Fin cfg21.N) :
    (dat21 (Ix := Ix) (U := U) (Lvl := Lvl) V c).Φ t.castSucc = Phi21 V c t.val (Nat.le_of_lt t.isLt) := by
  dsimp only [dat21]; simp only [Fin.coe_castSucc]

theorem Phi21_at_succ (V : Valuation τ sig (Elt F)) (c : Dev nD) (t : Fin cfg21.N) :
    (dat21 (Ix := Ix) (U := U) (Lvl := Lvl) V c).Φ t.succ = Phi21 V c (t.val + 1) t.isLt := rfl

/-- Before the first point the invariant is the launch's scoped rest. -/
theorem Phi_first21 (V : Valuation τ sig (Elt F)) (c : Dev nD) :
    (dat21 (Ix := Ix) (U := U) (Lvl := Lvl) V c).Φ 0
      = Pipeline.scopedRest (Ix := Ix) (Name := ℕ) (U := U) (Lvl := Lvl) (Val := Elt F) spec21 c := rfl

/-- After the last point the invariant gives the scoped rest back: the accumulator's contents are forgotten. -/
theorem Phi_last21 (V : Valuation τ sig (Elt F)) (c : Dev nD) :
    (dat21 (Ix := Ix) (U := U) (Lvl := Lvl) V c).Φ (Fin.last cfg21.N)
      ⊢ Pipeline.scopedRest (Ix := Ix) (Name := ℕ) (U := U) (Lvl := Lvl) (Val := Elt F) spec21 c := by
  have hN : cfg21.N = 64 := N_21
  rw [show (dat21 (Ix := Ix) (U := U) (Lvl := Lvl) V c).Φ (Fin.last cfg21.N) = Phi21 V c (Fin.last cfg21.N).val (Nat.le_of_lt_succ (Fin.last cfg21.N).isLt) from rfl,
    Phi21_pos V c _ _ (by rw [Fin.val_last]; omega), scopedRest21_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 21) c := dat21 V c

end Cert.KernelIdeal.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k21_pay2 hI hJ mn xJ s` — `s` plus the 0/1 mask of (hI · hJᵀ > mn) times `xJ` — and the value
  the accumulator is reset to is `k21_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond21_0 (i : grid21.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond21_1 (i : grid21.Coords) : Prop := k21_cond2 i = 1#1

/-! ## The three runs -/

/-- At a point whose second coordinate is 0 (and not 7): the accumulator, at anything, is reset to `k21_pay1 xI` and
    stepped once; every window's buffer is handed back as found. -/
theorem run21_first (𝒱₀ : Variants) (c : Dev nD) (i : grid21.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond21_0 i) (hc1 : ¬cond21_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k21_pay2 hI hJ mn xJ (k21_pay1 xI))) -∗ K ⟨⟩))
      ⊢ wp frame (wpE (defs₀ (F := F)) 𝒱₀ c none) E (cc21__apply_kernel i arg2 harg2 arg3 harg3 arg4 harg4 arg5 harg5 arg6 harg6 arg7 harg7 arg8 harg8) K := by
  simp only [cc21__apply_kernel_eq_skeleton]; unfold cc21__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run21_mid (𝒱₀ : Variants) (c : Dev nD) (i : grid21.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond21_0 i) (hc1 : ¬cond21_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k21_pay2 hI hJ mn xJ s)) -∗ K ⟨⟩))
      ⊢ wp frame (wpE (defs₀ (F := F)) 𝒱₀ c none) E (cc21__apply_kernel i arg2 harg2 arg3 harg3 arg4 harg4 arg5 harg5 arg6 harg6 arg7 harg7 arg8 harg8) K := by
  simp only [cc21__apply_kernel_eq_skeleton]; unfold cc21__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run21_last (𝒱₀ : Variants) (c : Dev nD) (i : grid21.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond21_0 i) (hc1 : cond21_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k21_pay2 hI hJ mn xJ s)
        ∗ owns (c : Thread nD τ) arg8 fullShare (k21_pay2 hI hJ mn xJ s)) -∗ K ⟨⟩))
      ⊢ wp frame (wpE (defs₀ (F := F)) 𝒱₀ c none) E (cc21__apply_kernel i arg2 harg2 arg3 harg3 arg4 harg4 arg5 harg5 arg6 harg6 arg7 harg7 arg8 harg8) K := by
  simp only [cc21__apply_kernel_eq_skeleton]; unfold cc21__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.KernelIdeal.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc21`. The three control cases are
  decided over the grid by the point's residue mod 8, and in each the kernel's run (ApplyRun.lean) applies.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond21_0 : ∀ t : Fin cfg21.N, cond21_0 (grid21.coords t) ↔ t.val % 8 = 0 :=
  (by decide +kernel : ∀ t : Fin grid21.N, cond21_0 (grid21.coords t) ↔ t.val % 8 = 0)
/-- It is stored into the output block at the points ≡ 7 (mod 8). -/
theorem hcond21_1 : ∀ t : Fin cfg21.N, cond21_1 (grid21.coords t) ↔ t.val % 8 = 7 :=
  (by decide +kernel : ∀ t : Fin grid21.N, cond21_1 (grid21.coords t) ↔ t.val % 8 = 7)
/-- The output window is idle at every other point, -/
theorem idleAt21_5 : ∀ t : Fin cfg21.N, ¬t.val % 8 = 7 → cfg21.idle 5 (grid21.coords t) = true :=
  (by decide +kernel : ∀ t : Fin grid21.N, ¬t.val % 8 = 7 → cfg21.idle 5 (grid21.coords t) = true)
/-- live at those, -/
theorem liveAt21_5 : ∀ t : Fin cfg21.N, t.val % 8 = 7 → cfg21.idle 5 (grid21.coords t) = false :=
  (by decide +kernel : ∀ t : Fin grid21.N, t.val % 8 = 7 → cfg21.idle 5 (grid21.coords t) = false)
/-- and not written back where it is idle. -/
theorem noFlush21_5 (t : Fin cfg21.N) (h : ¬t.val % 8 = 7) : (cfg21.win 5).flush t = false := by
  cases hf : (cfg21.win 5).flush t with
  | false => rfl
  | true => exact absurd ((flush21_5 t).mp hf) h

/-! ## What the body finds in the inputs' buffers and leaves in every buffer -/

/-- Each input's current staging buffer holds its block at every point, fetched there or not. -/
theorem before21_0 (V : Valuation τ sig (Elt F)) (c : Dev nD) (t : Fin cfg21.N) (d) : (dat21 (Ix := Ix) (U := U) (Lvl := Lvl) V c).before 0 t d = iblk21 V c 0 t :=
  ((dat21 (Ix := Ix) (U := U) (Lvl := Lvl) V c).before_in_eq_fetched 0 rfl (fun _ => rfl) (fun _ _ _ => rfl)
      (fun t => by rw [after21_0]; unfold Dat.blockOf iblk21; rw [A_eq21]; try rfl) t d).trans
    (by unfold Dat.fetched Dat.blockOf iblk21; rw [A_eq21]; try rfl)
theorem before21_1 (V : Valuation τ sig (Elt F)) (c : Dev nD) (t : Fin cfg21.N) (d) : (dat21 (Ix := Ix) (U := U) (Lvl := Lvl) V c).before 1 t d = iblk21 V c 1 t :=
  ((dat21 (Ix := Ix) (U := U) (Lvl := Lvl) V c).before_in_eq_fetched 1 rfl (fun _ => rfl) (fun _ _ _ => rfl)
      (fun t => by rw [after21_1]; unfold Dat.blockOf iblk21; rw [A_eq21]; try rfl) t d).trans
    (by unfold Dat.fetched Dat.blockOf iblk21; rw [A_eq21]; try rfl)
theorem before21_2 (V : Valuation τ sig (Elt F)) (c : Dev nD) (t : Fin cfg21.N) (d) : (dat21 (Ix := Ix) (U := U) (Lvl := Lvl) V c).before 2 t d = iblk21 V c 2 t :=
  ((dat21 (Ix := Ix) (U := U) (Lvl := Lvl) V c).before_in_eq_fetched 2 rfl (fun _ => rfl) (fun _ _ _ => rfl)
      (fun t => by rw [after21_2]; unfold Dat.blockOf iblk21; rw [A_eq21]; try rfl) t d).trans
    (by unfold Dat.fetched Dat.blockOf iblk21; rw [A_eq21]; try rfl)
theorem before21_3 (V : Valuation τ sig (Elt F)) (c : Dev nD) (t : Fin cfg21.N) (d) : (dat21 (Ix := Ix) (U := U) (Lvl := Lvl) V c).before 3 t d = iblk21 V c 3 t :=
  ((dat21 (Ix := Ix) (U := U) (Lvl := Lvl) V c).before_in_eq_fetched 3 rfl (fun _ => rfl) (fun _ _ _ => rfl)
      (fun t => by rw [after21_3]; unfold Dat.blockOf iblk21; rw [A_eq21]; try rfl) t d).trans
    (by unfold Dat.fetched Dat.blockOf iblk21; rw [A_eq21]; try rfl)
theorem before21_4 (V : Valuation τ sig (Elt F)) (c : Dev nD) (t : Fin cfg21.N) (d) : (dat21 (Ix := Ix) (U := U) (Lvl := Lvl) V c).before 4 t d = iblk21 V c 4 t :=
  ((dat21 (Ix := Ix) (U := U) (Lvl := Lvl) V c).before_in_eq_fetched 4 rfl (fun _ => rfl) (fun _ _ _ => rfl)
      (fun t => by rw [after21_4]; unfold Dat.blockOf iblk21; rw [A_eq21]; try rfl) t d).trans
    (by unfold Dat.fetched Dat.blockOf iblk21; rw [A_eq21]; try rfl)

/-! ## The body obligation, at a generic point -/

/-- What the body is called with at point `t` (the obligation's precondition, the windows one by one), -/
noncomputable def bodyPre21 (V : Valuation τ sig (Elt F)) (c : Dev nD) (ι : Ix) (t : Fin cfg21.N) : sProp 𝕄 :=
  iprop((dat21 (Ix := Ix) (U := U) (Lvl := Lvl) V c).Φ t.castSucc ∗ (dat21 (Ix := Ix) (U := U) (Lvl := Lvl) V c).owesAt ι t.castSucc
    ∗ (∃ d, owns (c : Thread nD τ) (st21_0 t) fullShare ((dat21 (Ix := Ix) (U := U) (Lvl := Lvl) V c).before 0 t d))
    ∗ (∃ d, owns (c : Thread nD τ) (st21_1 t) fullShare ((dat21 (Ix := Ix) (U := U) (Lvl := Lvl) V c).before 1 t d))
    ∗ (∃ d, owns (c : Thread nD τ) (st21_2 t) fullShare ((dat21 (Ix := Ix) (U := U) (Lvl := Lvl) V c).before 2 t d))
    ∗ (∃ d, owns (c : Thread nD τ) (st21_3 t) fullShare ((dat21 (Ix := Ix) (U := U) (Lvl := Lvl) V c).before 3 t d))
    ∗ (∃ d, owns (c : Thread nD τ) (st21_4 t) fullShare ((dat21 (Ix := Ix) (U := U) (Lvl := Lvl) V c).before 4 t d))
    ∗ (∃ d, owns (c : Thread nD τ) (st21_5 t) fullShare ((dat21 (Ix := Ix) (U := U) (Lvl := Lvl) V c).before 5 t d)))

/-- and what it returns. -/
noncomputable def bodyPost21 (V : Valuation τ sig (Elt F)) (c : Dev nD) (ι : Ix) (t : Fin cfg21.N) : sProp 𝕄 :=
  iprop((dat21 (Ix := Ix) (U := U) (Lvl := Lvl) V c).Φ t.succ ∗ (dat21 (Ix := Ix) (U := U) (Lvl := Lvl) V c).owesAt ι t.succ
    ∗ (dat21 (Ix := Ix) (U := U) (Lvl := Lvl) V c).leaves 0 t ∗ (dat21 (Ix := Ix) (U := U) (Lvl := Lvl) V c).leaves 1 t ∗ (dat21 (Ix := Ix) (U := U) (Lvl := Lvl) V c).leaves 2 t
    ∗ (dat21 (Ix := Ix) (U := U) (Lvl := Lvl) V c).leaves 3 t ∗ (dat21 (Ix := Ix) (U := U) (Lvl := Lvl) V c).leaves 4 t ∗ (dat21 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body21 (𝒱₀ : Variants) (ι : Ix) (V : Valuation τ sig (Elt F)) (c : Dev nD) (t : Fin cfg21.N) :
    bodyPre21 (Ix := Ix) (U := U) (Lvl := Lvl) V c ι t ⊢ wp frame (wpE (defs₀ (F := F)) 𝒱₀ c none) Set.univ (bodyAt21 t) (fun _ => bodyPost21 (Ix := Ix) (U := U) (Lvl := Lvl) V c ι t) := by
  unfold bodyPre21 bodyPost21 bodyAt21
  simp only [before21_0, before21_1, before21_2, before21_3, before21_4]
  rw [show (dat21 (Ix := Ix) (U := U) (Lvl := Lvl) V c).owesAt ι t.succ = (dat21 (Ix := Ix) (U := U) (Lvl := Lvl) V c).owesAt ι t.castSucc from rfl]
  rw [Phi21_at_succ, Phi21_succ, Phi21_castSucc]
  rw [leaves_live (dat21 (Ix := Ix) (U := U) (Lvl := Lvl) V c) 0 t rfl rfl, leaves_live (dat21 (Ix := Ix) (U := U) (Lvl := Lvl) V c) 1 t rfl rfl, leaves_live (dat21 (Ix := Ix) (U := U) (Lvl := Lvl) V c) 2 t rfl rfl,
    leaves_live (dat21 (Ix := Ix) (U := U) (Lvl := Lvl) V c) 3 t rfl rfl, leaves_live (dat21 (Ix := Ix) (U := U) (Lvl := Lvl) V c) 4 t rfl rfl, after21_0, after21_1, after21_2, after21_3, after21_4]
  have hN : t.val < 64 := lt_of_lt_of_eq t.isLt (show cfg21.N = 64 from N_21)
  by_cases h0 : t.val % 8 = 0
  · have h7 : ¬t.val % 8 = 7 := by omega
    rw [Dat.leaves_idle (dat21 (Ix := Ix) (U := U) (Lvl := Lvl) V c) 5 t (idleAt21_5 t h7) (noFlush21_5 t h7)]
    rw [acc21_reset V c t.val t.isLt h0]
    unfold step21 init21
    by_cases hz : t.val = 0
    · rw [Phi21_zero V c _ _ hz, scopedRest21_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run21_first 𝒱₀ c (grid21.coords t) _ _ _ _ _ _ _ _ _ _ _ _ _ _ ((hcond21_0 t).mpr h0) (fun h => h7 ((hcond21_1 t).mp h)) (iblk21 V c 0 t) (iblk21 V c 1 t) (iblk21 V c 2 t) (iblk21 V c 3 t) (iblk21 V c 4 t) ((dat21 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi21_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run21_first 𝒱₀ c (grid21.coords t) _ _ _ _ _ _ _ _ _ _ _ _ _ _ ((hcond21_0 t).mpr h0) (fun h => h7 ((hcond21_1 t).mp h)) (iblk21 V c 0 t) (iblk21 V c 1 t) (iblk21 V c 2 t) (iblk21 V c 3 t) (iblk21 V c 4 t) ((dat21 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc21_step V c t.val t.isLt h0, Phi21_pos V c _ _ hz]
    unfold step21
    by_cases h7 : t.val % 8 = 7
    · rw [leaves_live (dat21 (Ix := Ix) (U := U) (Lvl := Lvl) V c) 5 t (liveAt21_5 t h7) rfl, after21_5, acc21_step V c t.val t.isLt h0]
      unfold step21
      iintro ⟨⟨HS, Hr⟩, Ho, ⟨%d0, H0⟩, ⟨%d1, H1⟩, ⟨%d2, H2⟩, ⟨%d3, H3⟩, ⟨%d4, H4⟩, ⟨%d5, H5⟩⟩
      iapply (run21_last 𝒱₀ c (grid21.coords t) _ _ _ _ _ _ _ _ _ _ _ _ _ _ (fun h => h0 ((hcond21_0 t).mp h)) ((hcond21_1 t).mpr h7) (iblk21 V c 0 t) (iblk21 V c 1 t) (iblk21 V c 2 t) (iblk21 V c 3 t) (iblk21 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat21 (Ix := Ix) (U := U) (Lvl := Lvl) V c) 5 t (idleAt21_5 t h7) (noFlush21_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run21_mid 𝒱₀ c (grid21.coords t) _ _ _ _ _ _ _ _ _ _ _ _ _ _ (fun h => h0 ((hcond21_0 t).mp h)) (fun h => h7 ((hcond21_1 t).mp h)) (iblk21 V c 0 t) (iblk21 V c 1 t) (iblk21 V c 2 t) (iblk21 V c 3 t) (iblk21 V c 4 t) ((dat21 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation21 (𝒱₀ : Variants) (ι : Ix) (V : Valuation τ sig (Elt F)) (c : Dev nD) :
    BodyObligationLoose (dat21 (Ix := Ix) (U := U) (Lvl := Lvl) V c) (defs₀ (F := F)) 𝒱₀ ι Set.univ := fun t => by
  rw [bigSep_W21, bigSep_W21]
  exact sound_body21 𝒱₀ ι V c t

/-- The same at the type the program's family of configurations gives pipeline 1, on every core. -/
theorem body21 (𝒱₀ : Variants) (ι : Ix) (V : Valuation τ sig (Elt F)) :
    ∀ c : Dev nD, BodyObligationLoose (cfg := cfgs 21) (dat21 (Ix := Ix) (U := U) (Lvl := Lvl) V c) (defs₀ (F := F)) 𝒱₀ ι Set.univ :=
  fun c => body_obligation21 𝒱₀ ι V c

end Cert.KernelIdeal.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg21

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (21 : Fin 24)
/-- Its configuration, its windows but for their index maps, the number of its windows. -/
abbrev cfgK : Pipeline.Cfg sig Λ₀ := cfg21
abbrev specK : Fin 6 → Pipeline.WinSpec sig cfgK.grid.rank := spec21
abbrev nW : Nat := 6
/-- Its output window and the buffer behind it. -/
abbrev oK : Fin nW := 5
abbrev outK : Ref sig .tc := main_v721
theorem winK : Pipeline.WinFacts₀ specK := winFacts₀21
theorem block_posK : ∀ w : Fin nW, 0 < (specK w).block.numel := block_pos21
theorem arr_wholeK : ∀ w : Fin nW, (specK w).arr.IsWhole := arr_whole21
theorem stage_wholeK : ∀ (w : Fin nW) (s : Fin (specK w).nbuf), ((specK w).stage s).IsWhole := stage_whole21

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.KernelIdeal.Hand.Reg21

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R21' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (21 : Fin 24) c = dat21 (V116 m outs c) c)
    (hbody : ∀ c : Dev nD, Pipeline.BodyObligationLoose (dat21 (Ix := Ix) (U := U) (Lvl := Lvl) (V116 m outs c) c) (defs₀ (F := F)) 𝒱₀ ι Set.univ) :
    RegionSeg (pcfgs (F := F)) GenP.adm pdats ι defs₀ 𝒱₀ L lv (21 : Fin 24) :=
  Reg21.RK 𝒱₀ L lv ι pdats (fun c => V116 m outs c)
    (fun c => by rw [hp c]; exact hbody c)
    (fun c w => by rw [hp c]; exact A_eq21 (V116 m outs c) c w)
    (fun c => by rw [hp c]; rw [q21_1, q21_2]; exact PosShare.mem_left_op_right fullShare)
    (fun c => by rw [hp c]; rw [q21_3, q21_4]; exact PosShare.mem_left_op_right fullShare)
    (fun c => by rw [hp c]; exact q21_0 (V116 m outs c) c)
    (fun c t => by rw [hp c]; rfl)
    (fun c => by rw [hp c]; rfl)
    (fun c => by rw [hp c, Phi_first21])
    (fun c => by rw [hp c]; exact Phi_last21 (V116 m outs c) c)

/-- It is entered from the thread state before the region's item, -/
theorem hpre21' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (21 : Fin 24) c = dat21 (V116 m outs c) c)
    (hbody : ∀ c : Dev nD, Pipeline.BodyObligationLoose (dat21 (Ix := Ix) (U := U) (Lvl := Lvl) (V116 m outs c) c) (defs₀ (F := F)) 𝒱₀ ι Set.univ)
    (c : Dev nD) :
    iprop(StableHlo.held (c : Thread nD τ) (Pipeline.ucRefs τ sig) (V116 m outs c) ∗ (R c : sProp 𝕄))
      ⊢ (R21' m outs 𝒱₀ L lv ι pdats hp hbody).pre c := .rfl

/-- and left at the thread state after it. -/
theorem hpost21' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (21 : Fin 24) c = dat21 (V116 m outs c) c)
    (hbody : ∀ c : Dev nD, Pipeline.BodyObligationLoose (dat21 (Ix := Ix) (U := U) (Lvl := Lvl) (V116 m outs c) c) (defs₀ (F := F)) 𝒱₀ ι Set.univ)
    (houts : ∀ c : Dev nD, outs 117 main_v721 c = (dat21 (Ix := Ix) (U := U) (Lvl := Lvl) (V116 m outs c) c).arrAt 5 64)
    (c : Dev nD) :
    (R21' m outs 𝒱₀ L lv ι pdats hp hbody).post c
      ⊢ iprop(StableHlo.held (c : Thread nD τ) (Pipeline.ucRefs τ sig) (V117 m outs c) ∗ (R c : sProp 𝕄)) := by
  have h : (pdats (21 : Fin 24) c).arrAt Reg21.oK Reg21.cfgK.N = outs 117 main_v721 c := by
    rw [hp c]; exact (houts c).symm
  show iprop(StableHlo.held (c : Thread nD τ) (Pipeline.ucRefs τ sig)
      (Function.update (V116 m outs c) (Proc.devRef .tc main_v721) ((pdats (21 : Fin 24) c).arrAt Reg21.oK Reg21.cfgK.N))
        ∗ (R c : sProp 𝕄)) ⊢ _
  rw [h]

end Cert.KernelIdeal.Hand
-- ==== Proof.Rg22.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.SumLib
import Idealize.ShloMosaic.Lib.Tactic
import proofs.«169706_j68856915690108_1_alg».proof.Proof.Shared
import proofs.«169706_j68856915690108_1_alg».proof.Proof.RegionsKI

/-! # part: SumData -/
/-
  Region 0 (custom_call 0, the tile-sum kernel): the pipeline's proof data.

  The grid is 8 × 8, walked in order: point t = 8·i + j. At point t the body finds in the staging buffers of windows 0
  and 1 the blocks i and j of one and the same 4096 × 256 array h (512 rows each), forms the 512 × 512 tile
  h_i · h_jᵀ, sums its rows and then the row sums, and adds that number to a 1 × 1 scratch cell that it first resets
  at point 0. So after point t the scratch cell holds

      acc t = step t (step (t-1) (… (step 0 zero)))        (step n a = a + Σ tile n, the printed payload k22_pay2)

  and only at the last point, 63, is that cell copied into the 1 × 1 output block, which the pipeline then writes back.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulated sum -/

/-- Window `w`'s block at point `t`, read off its array at the region's entry contents `V`. -/
noncomputable def iblk22 (V : Valuation τ sig (Elt F)) (c : Dev nD) (w : Fin cfg22.W) (t : Fin cfg22.N) :
    ((cfg22.win w).xblock (cfg22.grid.coords t)).Idx → Elt F (cfg22.win w).elt :=
  ((cfg22.win w).blk t).view.read (Elt F)
    (V (Proc.devRef .tc (Pipeline.arrRef spec22 w)) : Buf (Elt F) ((cfg22.win w).arr.view.loc (c.tc : Thread nD τ)))

/-- One point's step on the scratch cell: the cell's contents `a` plus the sum of the tile made of the two blocks
    the point stages (the printed payload of the store into the scratch cell). -/
noncomputable def step22 (V : Valuation τ sig (Elt F)) (c : Dev nD) (n : ℕ) (hn : n < cfg22.N) (a : Vec F S1x1 .f32) : Vec F S1x1 .f32 :=
  k22_pay2 (iblk22 V c 0 ⟨n, hn⟩) (iblk22 V c 1 ⟨n, hn⟩) a

/-- What the scratch cell holds after point `n`: the steps of the points `0 … n` applied, first to last, to the
    zero the body stores at point 0. -/
noncomputable def acc22 (V : Valuation τ sig (Elt F)) (c : Dev nD) : (n : ℕ) → n < cfg22.N → Vec F S1x1 .f32
  | 0, hn => step22 V c 0 hn (k22_pay1 (F := F))
  | n + 1, hn => step22 V c (n + 1) hn (acc22 V c n (Nat.lt_of_succ_lt hn))

theorem acc22_zero (V : Valuation τ sig (Elt F)) (c : Dev nD) (hn : 0 < cfg22.N) :
    acc22 V c 0 hn = step22 V c 0 hn (k22_pay1 (F := F)) := rfl

theorem acc22_succ (V : Valuation τ sig (Elt F)) (c : Dev nD) (n : ℕ) (hn : n + 1 < cfg22.N) :
    acc22 V c (n + 1) hn = step22 V c (n + 1) hn (acc22 V c n (Nat.lt_of_succ_lt hn)) := rfl

/-- After a point that is not the first: the step of that point on what the point before left. -/
theorem acc22_pos (V : Valuation τ sig (Elt F)) (c : Dev nD) (n : ℕ) (hn : n < cfg22.N) (hz : n ≠ 0) :
    acc22 V c n hn = step22 V c n hn (acc22 V c (n - 1) (Nat.lt_of_le_of_lt (Nat.sub_le _ _) hn)) := by
  cases n with
  | zero => exact absurd rfl hz
  | succ n => rfl

/-! ## The invariant between points -/

/-- Before point `n`: the scoped buffers the body does not name, and the scratch cell — at anything before the
    first point (all of it the launch's scoped rest), afterwards at what the points before accumulated. -/
noncomputable def Phi22 (V : Valuation τ sig (Elt F)) (c : Dev nD) : (n : ℕ) → n ≤ cfg22.N → sProp 𝕄
  | 0, _ => Pipeline.scopedRest (Ix := Ix) (Name := ℕ) (U := U) (Lvl := Lvl) (Val := Elt F) spec22 c
  | n + 1, hn => iprop(owns (c : Thread nD τ) (Memref.whole cc22_scratch0) fullShare (acc22 V c n hn)
      ∗ Pipeline.scopedRestBut (Ix := Ix) (Name := ℕ) (U := U) (Lvl := Lvl) (Val := Elt F) spec22 c [cc22_scratch0])

theorem Phi22_zero (V : Valuation τ sig (Elt F)) (c : Dev nD) (n : ℕ) (h : n ≤ cfg22.N) (hz : n = 0) :
    (Phi22 V c n h : sProp 𝕄) = Pipeline.scopedRest (Ix := Ix) (Name := ℕ) (U := U) (Lvl := Lvl) (Val := Elt F) spec22 c := by
  subst hz; rfl

theorem Phi22_succ (V : Valuation τ sig (Elt F)) (c : Dev nD) (n : ℕ) (hn : n < cfg22.N) :
    (Phi22 V c (n + 1) hn : sProp 𝕄) = iprop(owns (c : Thread nD τ) (Memref.whole cc22_scratch0) fullShare (acc22 V c n hn)
      ∗ Pipeline.scopedRestBut (Ix := Ix) (Name := ℕ) (U := U) (Lvl := Lvl) (Val := Elt F) spec22 c [cc22_scratch0]) := rfl

theorem Phi22_pos (V : Valuation τ sig (Elt F)) (c : Dev nD) (n : ℕ) (h : n ≤ cfg22.N) (hz : n ≠ 0) :
    (Phi22 V c n h : sProp 𝕄) = iprop(owns (c : Thread nD τ) (Memref.whole cc22_scratch0) fullShare (acc22 V c (n - 1) (by omega))
      ∗ Pipeline.scopedRestBut (Ix := Ix) (Name := ℕ) (U := U) (Lvl := Lvl) (Val := Elt F) spec22 c [cc22_scratch0]) := by
  cases n with
  | zero => exact absurd rfl hz
  | succ n => rfl

/-! ## The proof data -/

/-- The proof data of pipeline 0 on core `c`, over the contents `V` of the unscoped buffers at the region's entry:
    the arrays as `V` has them; after the body each input's buffer still at its block and the output's at the
    accumulated sum (consulted at the last point only: elsewhere the window is idle); the invariant `Phi22`; the one
    array the two inputs read held half and half; nothing owed. -/
noncomputable def dat22 (V : Valuation τ sig (Elt F)) (c : Dev nD) : Dat τ (Elt F) Ix ℕ U Lvl cfg22 c where
  A w := V (Proc.devRef .tc (Pipeline.arrRef spec22 w))
  after w t := match w with
    | ⟨0, _⟩ => iblk22 V c 0 t
    | ⟨1, _⟩ => iblk22 V c 1 t
    | ⟨2, _⟩ => acc22 V c t.val t.isLt
  Φ t := Phi22 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq22 (V : Valuation τ sig (Elt F)) (c : Dev nD) (w : Fin cfg22.W) :
    (dat22 (Ix := Ix) (U := U) (Lvl := Lvl) V c).A w = V (Proc.devRef .tc (Pipeline.arrRef spec22 w)) := by
  dsimp only [dat22]

/-- What the body leaves, window by window. -/
theorem after22_0 (V : Valuation τ sig (Elt F)) (c : Dev nD) (t : Fin cfg22.N) :
    (dat22 (Ix := Ix) (U := U) (Lvl := Lvl) V c).after 0 t = iblk22 V c 0 t := by dsimp only [dat22]
theorem after22_1 (V : Valuation τ sig (Elt F)) (c : Dev nD) (t : Fin cfg22.N) :
    (dat22 (Ix := Ix) (U := U) (Lvl := Lvl) V c).after 1 t = iblk22 V c 1 t := by dsimp only [dat22]
theorem after22_2 (V : Valuation τ sig (Elt F)) (c : Dev nD) (t : Fin cfg22.N) :
    (dat22 (Ix := Ix) (U := U) (Lvl := Lvl) V c).after 2 t = acc22 V c t.val t.isLt := by dsimp only [dat22]

/-- The invariant at a point's start, and at its end. -/
theorem Phi22_castSucc (V : Valuation τ sig (Elt F)) (c : Dev nD) (t : Fin cfg22.N) :
    (dat22 (Ix := Ix) (U := U) (Lvl := Lvl) V c).Φ t.castSucc = Phi22 V c t.val (Nat.le_of_lt t.isLt) := by
  dsimp only [dat22]; simp only [Fin.coe_castSucc]

theorem Phi22_at_succ (V : Valuation τ sig (Elt F)) (c : Dev nD) (t : Fin cfg22.N) :
    (dat22 (Ix := Ix) (U := U) (Lvl := Lvl) V c).Φ t.succ = Phi22 V c (t.val + 1) t.isLt := rfl

/-- Before the first point the invariant is the launch's scoped rest. -/
theorem Phi_first22 (V : Valuation τ sig (Elt F)) (c : Dev nD) :
    (dat22 (Ix := Ix) (U := U) (Lvl := Lvl) V c).Φ 0
      = Pipeline.scopedRest (Ix := Ix) (Name := ℕ) (U := U) (Lvl := Lvl) (Val := Elt F) spec22 c := rfl

/-- After the last point the invariant gives the scoped rest back: the scratch cell's contents are forgotten. -/
theorem Phi_last22 (V : Valuation τ sig (Elt F)) (c : Dev nD) :
    (dat22 (Ix := Ix) (U := U) (Lvl := Lvl) V c).Φ (Fin.last cfg22.N)
      ⊢ Pipeline.scopedRest (Ix := Ix) (Name := ℕ) (U := U) (Lvl := Lvl) (Val := Elt F) spec22 c := by
  have hN : cfg22.N = 64 := N_22
  rw [show (dat22 (Ix := Ix) (U := U) (Lvl := Lvl) V c).Φ (Fin.last cfg22.N) = Phi22 V c (Fin.last cfg22.N).val (Nat.le_of_lt_succ (Fin.last cfg22.N).isLt) from rfl,
    Phi22_pos V c _ _ (by rw [Fin.val_last]; omega), scopedRest22_split, owns_whole]
  iintro ⟨Hs, Hr⟩
  isplitl [Hs]
  · iexists _; iexact Hs
  iexact Hr

example (V : Valuation τ sig (Elt F)) (c : Dev nD) : Dat τ (Elt F) Ix ℕ U Lvl (cfgs 22) c := dat22 V c

end Cert.KernelIdeal.Hand

end

/-! # part: SumRun -/
/-
  The tile-sum kernel (custom_call 0 and its siblings): the body's runs, case by case, on any whole memrefs.

  The body, if the point is the first one, stores zero into the 1 × 1 scratch cell; loads the two staged blocks, reads
  the scratch cell, and stores into it what it read plus the sum of the 512 × 512 tile the two blocks make (payload
  k22_pay2); if the point is the last one it then copies the scratch cell into the 1 × 1 output block. Three cases of
  the two conditionals meet the grid: the first point (reset, no copy), the points strictly between (neither), the
  last point (copy, no reset). Each is run once here, over symbolic memrefs and coordinates, the case's conditions
  as hypotheses; every load and store goes through all of its buffer, so what a buffer reads afterwards is the last
  payload stored.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-! ## The two conditionals over the grid -/

/-- The condition of the reset (`scf.if %4`: both coordinates zero), from the grid coordinates. -/
abbrev cond22_1 (i : grid22.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the copy into the output block (`scf.if %24`: both coordinates 7). -/
abbrev cond22_2 (i : grid22.Coords) : Prop := k22_cond2 i = 1#1

/-- The reset runs at the first point only, -/
theorem hcond22_1 : ∀ t : Fin cfg22.N, cond22_1 (grid22.coords t) ↔ t.val = 0 :=
  (by decide +kernel : ∀ t : Fin grid22.N, cond22_1 (grid22.coords t) ↔ t.val = 0)
/-- the copy at the last point only. -/
theorem hcond22_2 : ∀ t : Fin cfg22.N, cond22_2 (grid22.coords t) ↔ t.val = 63 :=
  (by decide +kernel : ∀ t : Fin grid22.N, cond22_2 (grid22.coords t) ↔ t.val = 63)

/-! ## The body, case by case, on any whole memrefs -/

/-- The first point: the scratch cell, at anything, is reset and then holds the first step on zero. -/
theorem run22_A (𝒱₀ : Variants) (c : Dev nD) (i : grid22.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : cond22_1 i) (hc2 : ¬cond22_2 i) (x2 x3 : Vec F S512x256 .f32) (E : Set ℕ) (K : PUnit → sProp 𝕄) :
    iprop(owns (c : Thread nD τ) arg2 fullShare x2 ∗ owns (c : Thread nD τ) arg3 fullShare x3 ∗ (∃ a, owns (c : Thread nD τ) arg5 fullShare a)
        ∗ (iprop(owns (c : Thread nD τ) arg2 fullShare x2 ∗ owns (c : Thread nD τ) arg3 fullShare x3
            ∗ owns (c : Thread nD τ) arg5 fullShare (k22_pay2 x2 x3 (k22_pay1 (F := F)))) -∗ K ⟨⟩))
      ⊢ wp frame (wpE (defs₀ (F := F)) 𝒱₀ c none) E (cc22__sum_kernel i arg2 harg2 arg3 harg3 arg4 harg4 arg5 harg5) K := by
  simp only [cc22__sum_kernel_eq_skeleton]; unfold cc22__sum_kernel_skel
  unfold owns
  iintro ⟨⟨%f2, %hf2, H2⟩, ⟨%f3, %hf3, H3⟩, ⟨%a, %f5, -, H5⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2]; unfold run22_A.sl.v15 run22_A.sl.H5_1
  rw [readCov_whole _ zeros2, readAt_whole _ _ zeros2, readAt_whole _ _ zeros2]

/-- A point strictly between the first and the last: the scratch cell at `a` takes the point's step. -/
theorem run22_B (𝒱₀ : Variants) (c : Dev nD) (i : grid22.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond22_1 i) (hc2 : ¬cond22_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ owns (c : Thread nD τ) arg5 fullShare a
        ∗ (iprop(owns (c : Thread nD τ) arg2 fullShare x2 ∗ owns (c : Thread nD τ) arg3 fullShare x3
            ∗ owns (c : Thread nD τ) arg5 fullShare (k22_pay2 x2 x3 a)) -∗ K ⟨⟩))
      ⊢ wp frame (wpE (defs₀ (F := F)) 𝒱₀ c none) E (cc22__sum_kernel i arg2 harg2 arg3 harg3 arg4 harg4 arg5 harg5) K := by
  simp only [cc22__sum_kernel_eq_skeleton]; unfold cc22__sum_kernel_skel
  unfold owns
  iintro ⟨⟨%f2, %hf2, H2⟩, ⟨%f3, %hf3, H3⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  rw [read_writes_whole _ _ zeros2, readAt_whole _ _ zeros2, readAt_whole _ _ zeros2, readAt_whole _ _ zeros2]

/-- The last point: the scratch cell at `a` takes the point's step, and the output block, at anything, is left
    holding the same. -/
theorem run22_C (𝒱₀ : Variants) (c : Dev nD) (i : grid22.Coords)
    (arg2 : Memref sig .tc .vmem S512x256 .f32) (harg2 : arg2.IsWhole) (arg3 : Memref sig .tc .vmem S512x256 .f32) (harg3 : arg3.IsWhole)
    (arg4 : Memref sig .tc .vmem S1x1 .f32) (harg4 : arg4.IsWhole) (arg5 : Memref sig .tc .vmem S1x1 .f32) (harg5 : arg5.IsWhole)
    (hc1 : ¬cond22_1 i) (hc2 : cond22_2 i) (x2 x3 : Vec F S512x256 .f32) (a : Vec F S1x1 .f32) (E : Set ℕ) (K : PUnit → sProp 𝕄) :
    iprop(owns (c : Thread nD τ) arg2 fullShare x2 ∗ owns (c : Thread nD τ) arg3 fullShare x3 ∗ (∃ d, owns (c : Thread nD τ) arg4 fullShare d)
        ∗ owns (c : Thread nD τ) arg5 fullShare a
        ∗ (iprop(owns (c : Thread nD τ) arg2 fullShare x2 ∗ owns (c : Thread nD τ) arg3 fullShare x3
            ∗ owns (c : Thread nD τ) arg4 fullShare (k22_pay2 x2 x3 a) ∗ owns (c : Thread nD τ) arg5 fullShare (k22_pay2 x2 x3 a)) -∗ K ⟨⟩))
      ⊢ wp frame (wpE (defs₀ (F := F)) 𝒱₀ c none) E (cc22__sum_kernel i arg2 harg2 arg3 harg3 arg4 harg4 arg5 harg5) K := by
  simp only [cc22__sum_kernel_eq_skeleton]; unfold cc22__sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole _ _ zeros2]; unfold run22_C.sl.v25 run22_C.sl.H5_1
    rw [readCov_whole _ zeros2, readAt_whole _ _ zeros2, readAt_whole _ _ zeros2, readAt_whole _ _ zeros2]
  iexists _; isplitr
  swap; · iexact H5
  ipureintro
  unfold run22_C.sl.H5_1
  rw [read_writes_whole _ _ zeros2, readAt_whole _ _ zeros2, readAt_whole _ _ zeros2, readAt_whole _ _ zeros2]

end Cert.KernelIdeal.Hand

end

/-! # part: SumBody -/
/-
  Region 0 (custom_call 0, the tile-sum kernel): the body obligation.

  At point t = 8·i + j the staged blocks are rows i and rows j of the one array h. The point's number selects the
  case of the body's two conditionals (the first point, the points strictly between, the last point), each run once
  over symbolic memrefs; the invariant hands the body the scratch cell — at anything before the first point, else at
  what the points before accumulated — and takes it back one step further. The output window is idle at every point
  but the last, where it takes the accumulated sum and the pipeline writes it back.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## Where the output window is idle -/

/-- The output window is idle exactly where the copy does not run, -/
theorem idle22_2 : ∀ t : Fin cfg22.N, cfg22.idle 2 (grid22.coords t) = true ↔ t.val ≠ 63 :=
  (by decide +kernel : ∀ t : Fin grid22.N, idle22 2 (grid22.coords t) = true ↔ t.val ≠ 63)
/-- and written back at the last point only. -/
theorem flush22_2' : ∀ t : Fin cfg22.N, (cfg22.win 2).flush t = true ↔ t.val = 63 :=
  (by decide +kernel : ∀ t : Fin grid22.N, win22_2.flush t = true ↔ t.val = 63)

/-! ## What the body finds in the inputs' buffers -/

/-- Each input's current staging buffer holds its block at every point, fetched there or not: unfetched, the block
    index has not moved and the body left the block in place. -/
theorem before22_0 (V : Valuation τ sig (Elt F)) (c : Dev nD) (t : Fin cfg22.N) (d) :
    (dat22 (Ix := Ix) (U := U) (Lvl := Lvl) V c).before 0 t d = iblk22 V c 0 t :=
  ((dat22 (Ix := Ix) (U := U) (Lvl := Lvl) V c).before_in_eq_fetched 0 rfl (fun _ => rfl) (fun _ _ _ => rfl)
      (fun t => by rw [after22_0]; unfold Dat.blockOf iblk22; rw [A_eq22]; try rfl) t d).trans
    (by unfold Dat.fetched Dat.blockOf iblk22; rw [A_eq22]; try rfl)

theorem before22_1 (V : Valuation τ sig (Elt F)) (c : Dev nD) (t : Fin cfg22.N) (d) :
    (dat22 (Ix := Ix) (U := U) (Lvl := Lvl) V c).before 1 t d = iblk22 V c 1 t :=
  ((dat22 (Ix := Ix) (U := U) (Lvl := Lvl) V c).before_in_eq_fetched 1 rfl (fun _ => rfl) (fun _ _ _ => rfl)
      (fun t => by rw [after22_1]; unfold Dat.blockOf iblk22; rw [A_eq22]; try rfl) t d).trans
    (by unfold Dat.fetched Dat.blockOf iblk22; rw [A_eq22]; try rfl)

/-! ## What the obligation asks of each window's buffer after the body -/

/-- The inputs are never idle: their buffers are handed back at their blocks. -/
theorem leaves22_0 (V : Valuation τ sig (Elt F)) (c : Dev nD) (t : Fin cfg22.N) :
    (dat22 (Ix := Ix) (U := U) (Lvl := Lvl) V c).leaves 0 t = owns (c : Thread nD τ) (st22_0 t) fullShare (iblk22 V c 0 t) := by
  rw [← after22_0 (Ix := Ix) (U := U) (Lvl := Lvl) V c t]

theorem leaves22_1 (V : Valuation τ sig (Elt F)) (c : Dev nD) (t : Fin cfg22.N) :
    (dat22 (Ix := Ix) (U := U) (Lvl := Lvl) V c).leaves 1 t = owns (c : Thread nD τ) (st22_1 t) fullShare (iblk22 V c 1 t) := by
  rw [← after22_1 (Ix := Ix) (U := U) (Lvl := Lvl) V c t]

/-- The output is idle, and not written back, at every point but the last: its buffer is handed back as found; -/
theorem leaves22_2_idle (V : Valuation τ sig (Elt F)) (c : Dev nD) (t : Fin cfg22.N) (h : t.val ≠ 63) :
    (dat22 (Ix := Ix) (U := U) (Lvl := Lvl) V c).leaves 2 t
      = iprop(∃ d, owns (c : Thread nD τ) (st22_2 t) fullShare ((dat22 (Ix := Ix) (U := U) (Lvl := Lvl) V c).before 2 t d)) :=
  (dat22 (Ix := Ix) (U := U) (Lvl := Lvl) V c).leaves_idle 2 t ((idle22_2 t).mpr h)
    (Bool.eq_false_iff.mpr fun hf => h ((flush22_2' t).mp hf))

/-- at the last point it is handed back at the accumulated sum. -/
theorem leaves22_2_last (V : Valuation τ sig (Elt F)) (c : Dev nD) (t : Fin cfg22.N) (h : t.val = 63) :
    (dat22 (Ix := Ix) (U := U) (Lvl := Lvl) V c).leaves 2 t = owns (c : Thread nD τ) (st22_2 t) fullShare (acc22 V c t.val t.isLt) := by
  have hl : cfg22.idle 2 (grid22.coords t) = false := by
    cases hi : cfg22.idle 2 (grid22.coords t) with
    | false => rfl
    | true => exact absurd h ((idle22_2 t).mp hi)
  rw [← after22_2 (Ix := Ix) (U := U) (Lvl := Lvl) V c t]
  unfold Dat.leaves; rw [hl]

/-- One step at a point, through the point itself. -/
theorem step22_at (V : Valuation τ sig (Elt F)) (c : Dev nD) (t : Fin cfg22.N) (a : Vec F S1x1 .f32) :
    step22 V c t.val t.isLt a = k22_pay2 (iblk22 V c 0 t) (iblk22 V c 1 t) a := rfl

theorem acc22_first (V : Valuation τ sig (Elt F)) (c : Dev nD) (n : ℕ) (hn : n < cfg22.N) (hz : n = 0) :
    acc22 V c n hn = step22 V c n hn (k22_pay1 (F := F)) := by
  subst hz; rfl

/-! ## The body obligation -/

/-- What the body is called with at point `t` (the obligation's precondition, the windows one by one), -/
noncomputable def bodyPre22 (V : Valuation τ sig (Elt F)) (ι : Ix) (c : Dev nD) (t : Fin cfg22.N) : sProp 𝕄 :=
  iprop((dat22 (Ix := Ix) (U := U) (Lvl := Lvl) V c).Φ t.castSucc ∗ (dat22 (Ix := Ix) (U := U) (Lvl := Lvl) V c).owesAt ι t.castSucc
    ∗ (∃ d, owns (c : Thread nD τ) (st22_0 t) fullShare ((dat22 (Ix := Ix) (U := U) (Lvl := Lvl) V c).before 0 t d))
    ∗ (∃ d, owns (c : Thread nD τ) (st22_1 t) fullShare ((dat22 (Ix := Ix) (U := U) (Lvl := Lvl) V c).before 1 t d))
    ∗ (∃ d, owns (c : Thread nD τ) (st22_2 t) fullShare ((dat22 (Ix := Ix) (U := U) (Lvl := Lvl) V c).before 2 t d)))

/-- and what it returns. -/
noncomputable def bodyPost22 (V : Valuation τ sig (Elt F)) (ι : Ix) (c : Dev nD) (t : Fin cfg22.N) : sProp 𝕄 :=
  iprop((dat22 (Ix := Ix) (U := U) (Lvl := Lvl) V c).Φ t.succ ∗ (dat22 (Ix := Ix) (U := U) (Lvl := Lvl) V c).owesAt ι t.succ
    ∗ (dat22 (Ix := Ix) (U := U) (Lvl := Lvl) V c).leaves 0 t ∗ (dat22 (Ix := Ix) (U := U) (Lvl := Lvl) V c).leaves 1 t ∗ (dat22 (Ix := Ix) (U := U) (Lvl := Lvl) V c).leaves 2 t)

set_option maxHeartbeats 1600000 in
/-- The body at any point: the inputs' buffers hold their blocks; the point's number selects the case; the invariant
    hands the body the scratch cell (at anything before the first point, else at what the points before accumulated)
    and takes it back one step further; the output's buffer passes through untouched except at the last point, where it
    takes the accumulated sum; the core owes nothing throughout. -/
theorem sound_body22 (V : Valuation τ sig (Elt F)) (𝒱₀ : Variants) (ι : Ix) (c : Dev nD) (t : Fin cfg22.N) :
    bodyPre22 (U := U) (Lvl := Lvl) V ι c t
      ⊢ wp frame (wpE (defs₀ (F := F)) 𝒱₀ c none) Set.univ (bodyAt22 t) (fun _ => bodyPost22 (U := U) (Lvl := Lvl) V ι c t) := by
  unfold bodyPre22 bodyPost22 bodyAt22
  simp only [before22_0, before22_1]
  rw [show (dat22 (Ix := Ix) (U := U) (Lvl := Lvl) V c).owesAt ι t.succ = (dat22 (Ix := Ix) (U := U) (Lvl := Lvl) V c).owesAt ι t.castSucc from rfl]
  rw [Phi22_at_succ, Phi22_succ, Phi22_castSucc, leaves22_0, leaves22_1]
  have hN : t.val < 64 := lt_of_lt_of_eq t.isLt N_22
  by_cases hz : t.val = 0
  · have hc1 : cond22_1 (grid22.coords t) := (hcond22_1 t).mpr hz
    have hc2 : ¬cond22_2 (grid22.coords t) := fun h => by have := (hcond22_2 t).mp h; omega
    rw [leaves22_2_idle V c t (by omega), Phi22_zero V c _ _ hz, scopedRest22_split, acc22_first V c _ _ hz, step22_at]
    iintro ⟨⟨⟨%f, Hs⟩, Hr⟩, Ho, ⟨%d0, H0⟩, ⟨%d1, H1⟩, H2⟩
    iapply (run22_A 𝒱₀ c (grid22.coords t) _ _ _ _ _ _ _ _ hc1 hc2 (iblk22 V c 0 t) (iblk22 V c 1 t) Set.univ _)
    isplitl [H0]; · iexact H0
    isplitl [H1]; · iexact H1
    isplitl [Hs]
    · iexists f; rw [owns_whole]; iexact Hs
    iintro ⟨H0, H1, Hs⟩
    isplitl [Hs Hr]
    · isplitl [Hs]; · iexact Hs
      iexact Hr
    isplitl [Ho]; · iexact Ho
    isplitl [H0]; · iexact H0
    isplitl [H1]; · iexact H1
    iexact H2
  · have hc1 : ¬cond22_1 (grid22.coords t) := fun h => hz ((hcond22_1 t).mp h)
    rw [Phi22_pos V c _ _ hz, acc22_pos V c _ _ hz, step22_at]
    by_cases hl : t.val = 63
    · have hc2 : cond22_2 (grid22.coords t) := (hcond22_2 t).mpr hl
      rw [leaves22_2_last V c t hl, acc22_pos V c _ _ hz, step22_at]
      iintro ⟨⟨Hs, Hr⟩, Ho, ⟨%d0, H0⟩, ⟨%d1, H1⟩, ⟨%d2, H2⟩⟩
      iapply (run22_C 𝒱₀ c (grid22.coords t) _ _ _ _ _ _ _ _ hc1 hc2 (iblk22 V c 0 t) (iblk22 V c 1 t) _ Set.univ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · have hc2 : ¬cond22_2 (grid22.coords t) := fun h => hl ((hcond22_2 t).mp h)
      rw [leaves22_2_idle V c t hl]
      iintro ⟨⟨Hs, Hr⟩, Ho, ⟨%d0, H0⟩, ⟨%d1, H1⟩, H2⟩
      iapply (run22_B 𝒱₀ c (grid22.coords t) _ _ _ _ _ _ _ _ hc1 hc2 (iblk22 V c 0 t) (iblk22 V c 1 t) _ Set.univ _)
      isplitl [H0]; · iexact H0
      isplitl [H1]; · iexact H1
      isplitl [Hs]; · iexact Hs
      iintro ⟨H0, H1, Hs⟩
      isplitl [Hs Hr]
      · isplitl [Hs]; · iexact Hs
        iexact Hr
      isplitl [Ho]; · iexact Ho
      isplitl [H0]; · iexact H0
      isplitl [H1]; · iexact H1
      iexact H2

/-- The library's body obligation, at every point, on every core. -/
theorem body22 (V : Valuation τ sig (Elt F)) (𝒱₀ : Variants) (ι : Ix) :
    ∀ c : Dev nD, BodyObligationLoose (dat22 (Ix := Ix) (U := U) (Lvl := Lvl) V c) (defs₀ (F := F)) 𝒱₀ ι Set.univ := fun c t => by
  rw [bigSep_W22, bigSep_W22]
  exact sound_body22 (U := U) (Lvl := Lvl) V 𝒱₀ ι c t

end Cert.KernelIdeal.Hand

end

/-! # part: Region0 -/
/-
  REGION 0 of the host program (custom_call 0) as a segment record, entered from the core's unscoped buffers held
  at any valuation W c and left at W c updated at the output window's buffer. Its input windows 0 and 1
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg22

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (22 : Fin 24)
/-- Its configuration, its windows but for their index maps, the number of its windows. -/
abbrev cfgK : Pipeline.Cfg sig Λ₀ := cfg22
abbrev specK : Fin 3 → Pipeline.WinSpec sig cfgK.grid.rank := spec22
abbrev nW : Nat := 3
/-- Its output window and the buffer behind it. -/
abbrev oK : Fin nW := 2
abbrev outK : Ref sig .tc := main_v787
theorem winK : Pipeline.WinFacts₀ specK := winFacts₀22
theorem block_posK : ∀ w : Fin nW, 0 < (specK w).block.numel := block_pos22
theorem arr_wholeK : ∀ w : Fin nW, (specK w).arr.IsWhole := arr_whole22
theorem stage_wholeK : ∀ (w : Fin nW) (s : Fin (specK w).nbuf), ((specK w).stage s).IsWhole := stage_whole22

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0, 1} := by decide
theorem fiber_1 : (Finset.univ.filter fun w' : Fin nW => arrRef specK w' = arrRef specK 1) = {0, 1} := by decide
theorem fiber_2 : (Finset.univ.filter fun w' : Fin nW => arrRef specK w' = arrRef specK 2) = {2} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 0 ·? dat.q 1)
     : Deals dat := by
  intro w
  have hw : w = 0 ∨ w = 1 ∨ w = 2 := by revert w; decide
  rcases hw with rfl | rfl | rfl
  · refine DealsOn.two (0 : Fin nW) 1 (by decide) fiber_0 ?_
    rw [share_in dat 0 rfl, share_in dat 1 rfl]; exact hq0
  · refine DealsOn.two (0 : Fin nW) 1 (by decide) fiber_1 ?_
    rw [share_in dat 0 rfl, share_in dat 1 rfl]; exact hq0
  · exact DealsOn.one (2 : Fin nW) fiber_2 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 0 ·? (pdats K c).q 1)

    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) ) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) ) (W c) (hA c) oK in_of_ne arr_ne ι (howed c (Fin.last _))

end

end Cert.KernelIdeal.Hand.Reg22

/-! # part: Pin0 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R22' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (22 : Fin 24) c = dat22 (V125 m outs c) c)
    (hbody : ∀ c : Dev nD, Pipeline.BodyObligationLoose (dat22 (Ix := Ix) (U := U) (Lvl := Lvl) (V125 m outs c) c) (defs₀ (F := F)) 𝒱₀ ι Set.univ) :
    RegionSeg (pcfgs (F := F)) GenP.adm pdats ι defs₀ 𝒱₀ L lv (22 : Fin 24) :=
  Reg22.RK 𝒱₀ L lv ι pdats (fun c => V125 m outs c)
    (fun c => by rw [hp c]; exact hbody c)
    (fun c w => by rw [hp c]; exact A_eq22 (V125 m outs c) c w)
    (fun c => by rw [hp c]; exact PosShare.mem_left_op_right fullShare)
    (fun c t => by rw [hp c]; rfl)
    (fun c => by rw [hp c]; rfl)
    (fun c => by rw [hp c, Phi_first22])
    (fun c => by rw [hp c]; exact Phi_last22 (V125 m outs c) c)

/-- It is entered from the thread state before the region's item, -/
theorem hpre22' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (22 : Fin 24) c = dat22 (V125 m outs c) c)
    (hbody : ∀ c : Dev nD, Pipeline.BodyObligationLoose (dat22 (Ix := Ix) (U := U) (Lvl := Lvl) (V125 m outs c) c) (defs₀ (F := F)) 𝒱₀ ι Set.univ)
    (c : Dev nD) :
    iprop(StableHlo.held (c : Thread nD τ) (Pipeline.ucRefs τ sig) (V125 m outs c) ∗ (R c : sProp 𝕄))
      ⊢ (R22' m outs 𝒱₀ L lv ι pdats hp hbody).pre c := .rfl

/-- and left at the thread state after it. -/
theorem hpost22' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (22 : Fin 24) c = dat22 (V125 m outs c) c)
    (hbody : ∀ c : Dev nD, Pipeline.BodyObligationLoose (dat22 (Ix := Ix) (U := U) (Lvl := Lvl) (V125 m outs c) c) (defs₀ (F := F)) 𝒱₀ ι Set.univ)
    (houts : ∀ c : Dev nD, outs 126 main_v787 c = (dat22 (Ix := Ix) (U := U) (Lvl := Lvl) (V125 m outs c) c).arrAt 2 64)
    (c : Dev nD) :
    (R22' m outs 𝒱₀ L lv ι pdats hp hbody).post c
      ⊢ iprop(StableHlo.held (c : Thread nD τ) (Pipeline.ucRefs τ sig) (V126 m outs c) ∗ (R c : sProp 𝕄)) := by
  have h : (pdats (22 : Fin 24) c).arrAt Reg22.oK Reg22.cfgK.N = outs 126 main_v787 c := by
    rw [hp c]; exact (houts c).symm
  show iprop(StableHlo.held (c : Thread nD τ) (Pipeline.ucRefs τ sig)
      (Function.update (V125 m outs c) (Proc.devRef .tc main_v787) ((pdats (22 : Fin 24) c).arrAt Reg22.oK Reg22.cfgK.N))
        ∗ (R c : sProp 𝕄)) ⊢ _
  rw [h]

end Cert.KernelIdeal.Hand
-- ==== Proof.Rg23.lean ====
import proofs.«169706_j68856915690108_1_alg».proof.Proof.Gen.KernelIdeal.Launch
import proofs.«169706_j68856915690108_1_alg».proof.Proof.Gen.KernelIdeal.Skeleton
import proofs.«169706_j68856915690108_1_alg».proof.Proof.Gen.KernelIdeal.Points
import Idealize.ShloMosaic.Lib.Pipeline.FrameBody
import proofs.«169706_j68856915690108_1_alg».proof.Proof.ApplyLib
import proofs.«169706_j68856915690108_1_alg».proof.Proof.Shared
import proofs.«169706_j68856915690108_1_alg».proof.Proof.RegionsKI

/-! # part: ApplyData -/
/-
  Region 1 (custom_call 1, the aggregation kernel): the pipeline's proof data.

  The grid is 8 × 8, walked in order: point t = 8·i + j. At point t the body finds in its staging buffers the 1 × 1
  threshold (window 0), the blocks i and j of one 4096 × 256 array h (windows 1 and 2: 512 rows each) and the blocks i
  and j of another, x (windows 3 and 4). It keeps a 512 × 256 accumulator in a scratch buffer: at j = 0 the
  accumulator is reset to 1.0 · x_i; at every point the 0/1 mask of (h_i · h_jᵀ > threshold), a 512 × 512 tile, times
  x_j is added to it; at j = 7 it is copied into the output block i (window 5), which the pipeline then writes back.
  So after point t the accumulator holds

      acc t = step t (acc (t-1))   (j ≠ 0),      acc t = step t (init t)   (j = 0)

  with `init t = k23_pay1 x_i` and `step t a = k23_pay2 h_i h_j threshold x_j a`, the printed payloads of the two stores.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type}

local notation "𝕄" => MT nD τ sig Ix (Elt F) ℕ U Lvl

/-! ## The blocks and the accumulator -/

/-- Window `w`'s block at point `t`, read off its array at the region's entry contents `V`. -/
noncomputable def iblk23 (V : Valuation τ sig (Elt F)) (c : Dev nD) (w : Fin cfg23.W) (t : Fin cfg23.N) :
    ((cfg23.win w).xblock (cfg23.grid.coords t)).Idx → Elt F (cfg23.win w).elt :=
  ((cfg23.win w).blk t).view.read (Elt F)
    (V (Proc.devRef .tc (Pipeline.arrRef spec23 w)) : Buf (Elt F) ((cfg23.win w).arr.view.loc (c.tc : Thread nD τ)))

/-- What the accumulator is reset to at a point whose second coordinate is 0: 1.0 times the block of `x` window 3
    stages there (the printed payload of the first store into the scratch buffer). -/
noncomputable def init23 (V : Valuation τ sig (Elt F)) (c : Dev nD) (n : ℕ) (hn : n < cfg23.N) : Vec F S512x256 .f32 :=
  k23_pay1 (iblk23 V c 3 ⟨n, hn⟩)

/-- One point's step on the accumulator: its contents `a` plus the 0/1 mask of (block of `h` in window 1 times the
    transposed block of `h` in window 2, compared with the threshold in window 0) times the block of `x` in window 4
    (the printed payload of the second store into the scratch buffer). -/
noncomputable def step23 (V : Valuation τ sig (Elt F)) (c : Dev nD) (n : ℕ) (hn : n < cfg23.N) (a : Vec F S512x256 .f32) : Vec F S512x256 .f32 :=
  k23_pay2 (iblk23 V c 1 ⟨n, hn⟩) (iblk23 V c 2 ⟨n, hn⟩) (iblk23 V c 0 ⟨n, hn⟩) (iblk23 V c 4 ⟨n, hn⟩) a

/-- What the accumulator holds after point `n`: reset and stepped at the points ≡ 0 (mod 8), stepped from what the
    point before left at the others. -/
noncomputable def acc23 (V : Valuation τ sig (Elt F)) (c : Dev nD) : (n : ℕ) → n < cfg23.N → Vec F S512x256 .f32
  | 0, hn => step23 V c 0 hn (init23 V c 0 hn)
  | n + 1, hn =>
    if (n + 1) % 8 = 0 then step23 V c (n + 1) hn (init23 V c (n + 1) hn)
    else step23 V c (n + 1) hn (acc23 V c n (Nat.lt_of_succ_lt hn))

/-- After a point ≡ 0 (mod 8): the reset value, stepped once. -/
theorem acc23_reset (V : Valuation τ sig (Elt F)) (c : Dev nD) (n : ℕ) (hn : n < cfg23.N) (h0 : n % 8 = 0) :
    acc23 V c n hn = step23 V c n hn (init23 V c n hn) := by
  cases n with
  | zero => rfl
  | succ n => exact if_pos h0

/-- After any other point: that point's step on what the point before left. -/
theorem acc23_step (V : Valuation τ sig (Elt F)) (c : Dev nD) (n : ℕ) (hn : n < cfg23.N) (h0 : ¬n % 8 = 0) :
    acc23 V c n hn = step23 V c n hn (acc23 V c (n - 1) (Nat.lt_of_le_of_lt (Nat.sub_le _ _) hn)) := by
  cases n with
  | zero => exact absurd (Nat.zero_mod _) h0
  | succ n => exact if_neg h0

/-! ## The invariant between points -/

/-- Before point `n`: the scoped buffers the body does not name, and the accumulator's scratch buffer — at anything
    before the first point (all of it the launch's scoped rest), afterwards at what the points before accumulated. -/
noncomputable def Phi23 (V : Valuation τ sig (Elt F)) (c : Dev nD) : (n : ℕ) → n ≤ cfg23.N → sProp 𝕄
  | 0, _ => Pipeline.scopedRest (Ix := Ix) (Name := ℕ) (U := U) (Lvl := Lvl) (Val := Elt F) spec23 c
  | n + 1, hn => iprop(owns (c : Thread nD τ) (Memref.whole cc23_scratch0) fullShare (acc23 V c n hn)
      ∗ Pipeline.scopedRestBut (Ix := Ix) (Name := ℕ) (U := U) (Lvl := Lvl) (Val := Elt F) spec23 c [cc23_scratch0])

theorem Phi23_zero (V : Valuation τ sig (Elt F)) (c : Dev nD) (n : ℕ) (h : n ≤ cfg23.N) (hz : n = 0) :
    (Phi23 V c n h : sProp 𝕄) = Pipeline.scopedRest (Ix := Ix) (Name := ℕ) (U := U) (Lvl := Lvl) (Val := Elt F) spec23 c := by
  subst hz; rfl

theorem Phi23_succ (V : Valuation τ sig (Elt F)) (c : Dev nD) (n : ℕ) (hn : n < cfg23.N) :
    (Phi23 V c (n + 1) hn : sProp 𝕄) = iprop(owns (c : Thread nD τ) (Memref.whole cc23_scratch0) fullShare (acc23 V c n hn)
      ∗ Pipeline.scopedRestBut (Ix := Ix) (Name := ℕ) (U := U) (Lvl := Lvl) (Val := Elt F) spec23 c [cc23_scratch0]) := rfl

theorem Phi23_pos (V : Valuation τ sig (Elt F)) (c : Dev nD) (n : ℕ) (h : n ≤ cfg23.N) (hz : n ≠ 0) :
    (Phi23 V c n h : sProp 𝕄) = iprop(owns (c : Thread nD τ) (Memref.whole cc23_scratch0) fullShare (acc23 V c (n - 1) (by omega))
      ∗ Pipeline.scopedRestBut (Ix := Ix) (Name := ℕ) (U := U) (Lvl := Lvl) (Val := Elt F) spec23 c [cc23_scratch0]) := by
  cases n with
  | zero => exact absurd rfl hz
  | succ n => rfl

/-! ## The proof data -/

/-- The proof data of pipeline 1 on core `c`, over the contents `V` of the unscoped buffers at the region's entry:
    the arrays as `V` has them; after the body each input's buffer still at its block and the output's at the
    accumulator (consulted at the points ≡ 7 (mod 8) only: elsewhere the window is idle); the invariant `Phi23`; the
    threshold's array held whole, each of the two arrays that two input windows read held half and half; nothing owed. -/
noncomputable def dat23 (V : Valuation τ sig (Elt F)) (c : Dev nD) : Dat τ (Elt F) Ix ℕ U Lvl cfg23 c where
  A w := V (Proc.devRef .tc (Pipeline.arrRef spec23 w))
  after w t := match w with
    | ⟨0, _⟩ => iblk23 V c 0 t
    | ⟨1, _⟩ => iblk23 V c 1 t
    | ⟨2, _⟩ => iblk23 V c 2 t
    | ⟨3, _⟩ => iblk23 V c 3 t
    | ⟨4, _⟩ => iblk23 V c 4 t
    | ⟨5, _⟩ => acc23 V c t.val t.isLt
  Φ t := Phi23 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the region-entry contents. -/
theorem A_eq23 (V : Valuation τ sig (Elt F)) (c : Dev nD) (w : Fin cfg23.W) :
    (dat23 (Ix := Ix) (U := U) (Lvl := Lvl) V c).A w = V (Proc.devRef .tc (Pipeline.arrRef spec23 w)) := by
  dsimp only [dat23]

/-- What the body leaves, window by window. -/
theorem after23_0 (V : Valuation τ sig (Elt F)) (c : Dev nD) (t : Fin cfg23.N) :
    (dat23 (Ix := Ix) (U := U) (Lvl := Lvl) V c).after 0 t = iblk23 V c 0 t := by dsimp only [dat23]
theorem after23_1 (V : Valuation τ sig (Elt F)) (c : Dev nD) (t : Fin cfg23.N) :
    (dat23 (Ix := Ix) (U := U) (Lvl := Lvl) V c).after 1 t = iblk23 V c 1 t := by dsimp only [dat23]
theorem after23_2 (V : Valuation τ sig (Elt F)) (c : Dev nD) (t : Fin cfg23.N) :
    (dat23 (Ix := Ix) (U := U) (Lvl := Lvl) V c).after 2 t = iblk23 V c 2 t := by dsimp only [dat23]
theorem after23_3 (V : Valuation τ sig (Elt F)) (c : Dev nD) (t : Fin cfg23.N) :
    (dat23 (Ix := Ix) (U := U) (Lvl := Lvl) V c).after 3 t = iblk23 V c 3 t := by dsimp only [dat23]
theorem after23_4 (V : Valuation τ sig (Elt F)) (c : Dev nD) (t : Fin cfg23.N) :
    (dat23 (Ix := Ix) (U := U) (Lvl := Lvl) V c).after 4 t = iblk23 V c 4 t := by dsimp only [dat23]
theorem after23_5 (V : Valuation τ sig (Elt F)) (c : Dev nD) (t : Fin cfg23.N) :
    (dat23 (Ix := Ix) (U := U) (Lvl := Lvl) V c).after 5 t = acc23 V c t.val t.isLt := by dsimp only [dat23]

/-- The shares the input arrays are held at. -/
theorem q23_0 (V : Valuation τ sig (Elt F)) (c : Dev nD) : (dat23 (Ix := Ix) (U := U) (Lvl := Lvl) V c).q 0 = fullShare := by dsimp only [dat23]
theorem q23_1 (V : Valuation τ sig (Elt F)) (c : Dev nD) : (dat23 (Ix := Ix) (U := U) (Lvl := Lvl) V c).q 1 = fullShare.left := by dsimp only [dat23]
theorem q23_2 (V : Valuation τ sig (Elt F)) (c : Dev nD) : (dat23 (Ix := Ix) (U := U) (Lvl := Lvl) V c).q 2 = fullShare.right := by dsimp only [dat23]
theorem q23_3 (V : Valuation τ sig (Elt F)) (c : Dev nD) : (dat23 (Ix := Ix) (U := U) (Lvl := Lvl) V c).q 3 = fullShare.left := by dsimp only [dat23]
theorem q23_4 (V : Valuation τ sig (Elt F)) (c : Dev nD) : (dat23 (Ix := Ix) (U := U) (Lvl := Lvl) V c).q 4 = fullShare.right := by dsimp only [dat23]

/-- The invariant at a point's start, and at its end. -/
theorem Phi23_castSucc (V : Valuation τ sig (Elt F)) (c : Dev nD) (t : Fin cfg23.N) :
    (dat23 (Ix := Ix) (U := U) (Lvl := Lvl) V c).Φ t.castSucc = Phi23 V c t.val (Nat.le_of_lt t.isLt) := by
  dsimp only [dat23]; simp only [Fin.coe_castSucc]

theorem Phi23_at_succ (V : Valuation τ sig (Elt F)) (c : Dev nD) (t : Fin cfg23.N) :
    (dat23 (Ix := Ix) (U := U) (Lvl := Lvl) V c).Φ t.succ = Phi23 V c (t.val + 1) t.isLt := rfl

/-- Before the first point the invariant is the launch's scoped rest. -/
theorem Phi_first23 (V : Valuation τ sig (Elt F)) (c : Dev nD) :
    (dat23 (Ix := Ix) (U := U) (Lvl := Lvl) V c).Φ 0
      = Pipeline.scopedRest (Ix := Ix) (Name := ℕ) (U := U) (Lvl := Lvl) (Val := Elt F) spec23 c := rfl

/-- After the last point the invariant gives the scoped rest back: the accumulator's contents are forgotten. -/
theorem Phi_last23 (V : Valuation τ sig (Elt F)) (c : Dev nD) :
    (dat23 (Ix := Ix) (U := U) (Lvl := Lvl) V c).Φ (Fin.last cfg23.N)
      ⊢ Pipeline.scopedRest (Ix := Ix) (Name := ℕ) (U := U) (Lvl := Lvl) (Val := Elt F) spec23 c := by
  have hN : cfg23.N = 64 := N_23
  rw [show (dat23 (Ix := Ix) (U := U) (Lvl := Lvl) V c).Φ (Fin.last cfg23.N) = Phi23 V c (Fin.last cfg23.N).val (Nat.le_of_lt_succ (Fin.last cfg23.N).isLt) from rfl,
    Phi23_pos V c _ _ (by rw [Fin.val_last]; omega), scopedRest23_split, owns_whole]
  iintro ⟨Hs, Hr⟩
  isplitl [Hs]
  · iexists _; iexact Hs
  iexact Hr

/-- The proof data at the type the program's family of configurations gives pipeline 1. -/
example (V : Valuation τ sig (Elt F)) (c : Dev nD) : Dat τ (Elt F) Ix ℕ U Lvl (cfgs 23) c := dat23 V c

end Cert.KernelIdeal.Hand

end

/-! # part: ApplyRun -/
/-
  The aggregation kernel's body (`_apply_kernel`) on any whole memrefs, run once per control case.

  The kernel takes six staged operands and a scratch accumulator. With `mn` the 1 × 1 threshold, `hI`, `hJ` two
  512 × 256 blocks of one array, `xI`, `xJ` two blocks of another, and `s` what the accumulator holds, one step of
  the accumulation is `k23_pay2 hI hJ mn xJ s` — `s` plus the 0/1 mask of (hI · hJᵀ > mn) times `xJ` — and the value
  the accumulator is reset to is `k23_pay1 xI`, which is 1.0 · xI. The body branches on the second grid coordinate
  only: at 0 it resets the accumulator before the step; at 7 it copies the accumulator into the output block's
  buffer after the step. The grid's second extent is 8, so the three cases below are all there are.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The two conditionals' tests -/

/-- The first conditional's test (the accumulator is reset): the second grid coordinate is 0. -/
abbrev cond23_0 (i : grid23.Coords) : Prop := (Scalar.cmpi .ne (Scalar.extui (Scalar.cmpi .eq (BitVec.ofNat 32 (i 1).val) 0#32)) 0#32) = 1#1
/-- The second conditional's test (the accumulator is stored into the output block): the second grid coordinate is 7. -/
abbrev cond23_1 (i : grid23.Coords) : Prop := k23_cond2 i = 1#1

/-! ## The three runs -/

/-- At a point whose second coordinate is 0 (and not 7): the accumulator, at anything, is reset to `k23_pay1 xI` and
    stepped once; every window's buffer is handed back as found. -/
theorem run23_first (𝒱₀ : Variants) (c : Dev nD) (i : grid23.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : cond23_0 i) (hc1 : ¬cond23_1 i)
    (mn : Vec F S1x1 .f32) (hI hJ xI xJ o : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ (∃ s, owns (c : Thread nD τ) arg8 fullShare s)
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k23_pay2 hI hJ mn xJ (k23_pay1 xI))) -∗ K ⟨⟩))
      ⊢ wp frame (wpE (defs₀ (F := F)) 𝒱₀ c none) E (cc23__apply_kernel i arg2 harg2 arg3 harg3 arg4 harg4 arg5 harg5 arg6 harg6 arg7 harg7 arg8 harg8) K := by
  simp only [cc23__apply_kernel_eq_skeleton]; unfold cc23__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e5 := (readAt_full_512 (F := F) arg5 inb_S512x256_S512x256_0_0 f5).trans hf5
  have e6 := (readAt_full_512 (F := F) arg6 inb_S512x256_S512x256_0_0 f6).trans hf6
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]
  sl_unfold_run_names
  rw [View.readCov_cons_toLoadRect (Val := Elt F)]

/-- At a point whose second coordinate is neither 0 nor 7: the accumulator is stepped once; every window's buffer is
    handed back as found. -/
theorem run23_mid (𝒱₀ : Variants) (c : Dev nD) (i : grid23.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond23_0 i) (hc1 : ¬cond23_1 i)
    (mn : Vec F S1x1 .f32) (hI hJ xI xJ o s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare o
        ∗ owns (c : Thread nD τ) arg8 fullShare (k23_pay2 hI hJ mn xJ s)) -∗ K ⟨⟩))
      ⊢ wp frame (wpE (defs₀ (F := F)) 𝒱₀ c none) E (cc23__apply_kernel i arg2 harg2 arg3 harg3 arg4 harg4 arg5 harg5 arg6 harg6 arg7 harg7 arg8 harg8) K := by
  simp only [cc23__apply_kernel_eq_skeleton]; unfold cc23__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact HS
  ipureintro
  rw [read_writes_full_512 (F := F)]

/-- At a point whose second coordinate is 7 (and not 0): the accumulator is stepped once and copied into the output
    block's buffer, whatever that held. -/
theorem run23_last (𝒱₀ : Variants) (c : Dev nD) (i : grid23.Coords)
    (arg2 : Memref sig .tc .vmem S1x1 .f32) (harg2 : arg2.IsWhole) (arg3 : Memref sig .tc .vmem S512x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x256 .f32) (harg8 : arg8.IsWhole)
    (hc0 : ¬cond23_0 i) (hc1 : cond23_1 i)
    (mn : Vec F S1x1 .f32) (hI hJ xI xJ s : Vec F S512x256 .f32) (E : Set ℕ) (K : PUnit → sProp 𝕄) :
    iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ (∃ o, owns (c : Thread nD τ) arg7 fullShare o)
        ∗ owns (c : Thread nD τ) arg8 fullShare s
        ∗ (iprop(owns (c : Thread nD τ) arg2 fullShare mn ∗ owns (c : Thread nD τ) arg3 fullShare hI ∗ owns (c : Thread nD τ) arg4 fullShare hJ
        ∗ owns (c : Thread nD τ) arg5 fullShare xI ∗ owns (c : Thread nD τ) arg6 fullShare xJ ∗ owns (c : Thread nD τ) arg7 fullShare (k23_pay2 hI hJ mn xJ s)
        ∗ owns (c : Thread nD τ) arg8 fullShare (k23_pay2 hI hJ mn xJ s)) -∗ K ⟨⟩))
      ⊢ wp frame (wpE (defs₀ (F := F)) 𝒱₀ c none) E (cc23__apply_kernel i arg2 harg2 arg3 harg3 arg4 harg4 arg5 harg5 arg6 harg6 arg7 harg7 arg8 harg8) K := by
  simp only [cc23__apply_kernel_eq_skeleton]; unfold cc23__apply_kernel_skel
  unfold owns
  iintro ⟨⟨%f2, %hf2, H2⟩, ⟨%f3, %hf3, H3⟩, ⟨%f4, %hf4, H4⟩, ⟨%f5, %hf5, H5⟩, ⟨%f6, %hf6, H6⟩, ⟨%o, %f7, %hf7, H7⟩, ⟨%fs, %hfs, HS⟩, Hk⟩
  have e2 := (readAt_full_1 (F := F) arg2 inb_S1x1_S1x1_0_0 f2).trans hf2
  have e3 := (readAt_full_512 (F := F) arg3 inb_S512x256_S512x256_0_0 f3).trans hf3
  have e4 := (readAt_full_512 (F := F) arg4 inb_S512x256_S512x256_0_0 f4).trans hf4
  have e6 := (readAt_full_512 (F := F) arg6 inb_S512x256_S512x256_0_0 f6).trans hf6
  have e8 := (readAt_full_512 (F := F) arg8 inb_S512x256_S512x256_0_0 fs).trans hfs
  sl_exec (disch := first | exact hc0 | exact hc1)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    rw [read_writes_full_512 (F := F)]
    sl_unfold_run_names
    rw [View.readCov_cons_toLoadRect (Val := Elt F)]
  iexists _; isplitr; swap; · iexact HS
  ipureintro
  sl_unfold_run_names
  rw [read_writes_full_512 (F := F)]

end Cert.KernelIdeal.Hand

end

/-! # part: ApplyBody -/
/-
  Region 1 (custom_call 1, the aggregation kernel): the body obligation of its pipeline.

  At every point the five input windows' buffers hold their blocks (fetched there or not); the output window's buffer is
  idle but at the points ≡ 7 (mod 8), where the body stores the accumulator into it and the pipeline writes it back.
  The invariant carries the accumulator's scratch buffer from point to point at `acc23`. The three control cases are
  decided over the grid by the point's residue mod 8, and in each the kernel's run (ApplyRun.lean) applies.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The control cases and the output window's idle points, decided over the grid -/

/-- The accumulator is reset at the points ≡ 0 (mod 8). -/
theorem hcond23_0 : ∀ t : Fin cfg23.N, cond23_0 (grid23.coords t) ↔ t.val % 8 = 0 :=
  (by decide +kernel : ∀ t : Fin grid23.N, cond23_0 (grid23.coords t) ↔ t.val % 8 = 0)
/-- It is stored into the output block at the points ≡ 7 (mod 8). -/
theorem hcond23_1 : ∀ t : Fin cfg23.N, cond23_1 (grid23.coords t) ↔ t.val % 8 = 7 :=
  (by decide +kernel : ∀ t : Fin grid23.N, cond23_1 (grid23.coords t) ↔ t.val % 8 = 7)
/-- The output window is idle at every other point, -/
theorem idleAt23_5 : ∀ t : Fin cfg23.N, ¬t.val % 8 = 7 → cfg23.idle 5 (grid23.coords t) = true :=
  (by decide +kernel : ∀ t : Fin grid23.N, ¬t.val % 8 = 7 → cfg23.idle 5 (grid23.coords t) = true)
/-- live at those, -/
theorem liveAt23_5 : ∀ t : Fin cfg23.N, t.val % 8 = 7 → cfg23.idle 5 (grid23.coords t) = false :=
  (by decide +kernel : ∀ t : Fin grid23.N, t.val % 8 = 7 → cfg23.idle 5 (grid23.coords t) = false)
/-- and not written back where it is idle. -/
theorem noFlush23_5 (t : Fin cfg23.N) (h : ¬t.val % 8 = 7) : (cfg23.win 5).flush t = false := by
  cases hf : (cfg23.win 5).flush t with
  | false => rfl
  | true => exact absurd ((flush23_5 t).mp hf) h

/-! ## What the body finds in the inputs' buffers and leaves in every buffer -/

/-- Each input's current staging buffer holds its block at every point, fetched there or not. -/
theorem before23_0 (V : Valuation τ sig (Elt F)) (c : Dev nD) (t : Fin cfg23.N) (d) : (dat23 (Ix := Ix) (U := U) (Lvl := Lvl) V c).before 0 t d = iblk23 V c 0 t :=
  ((dat23 (Ix := Ix) (U := U) (Lvl := Lvl) V c).before_in_eq_fetched 0 rfl (fun _ => rfl) (fun _ _ _ => rfl)
      (fun t => by rw [after23_0]; unfold Dat.blockOf iblk23; rw [A_eq23]; try rfl) t d).trans
    (by unfold Dat.fetched Dat.blockOf iblk23; rw [A_eq23]; try rfl)
theorem before23_1 (V : Valuation τ sig (Elt F)) (c : Dev nD) (t : Fin cfg23.N) (d) : (dat23 (Ix := Ix) (U := U) (Lvl := Lvl) V c).before 1 t d = iblk23 V c 1 t :=
  ((dat23 (Ix := Ix) (U := U) (Lvl := Lvl) V c).before_in_eq_fetched 1 rfl (fun _ => rfl) (fun _ _ _ => rfl)
      (fun t => by rw [after23_1]; unfold Dat.blockOf iblk23; rw [A_eq23]; try rfl) t d).trans
    (by unfold Dat.fetched Dat.blockOf iblk23; rw [A_eq23]; try rfl)
theorem before23_2 (V : Valuation τ sig (Elt F)) (c : Dev nD) (t : Fin cfg23.N) (d) : (dat23 (Ix := Ix) (U := U) (Lvl := Lvl) V c).before 2 t d = iblk23 V c 2 t :=
  ((dat23 (Ix := Ix) (U := U) (Lvl := Lvl) V c).before_in_eq_fetched 2 rfl (fun _ => rfl) (fun _ _ _ => rfl)
      (fun t => by rw [after23_2]; unfold Dat.blockOf iblk23; rw [A_eq23]; try rfl) t d).trans
    (by unfold Dat.fetched Dat.blockOf iblk23; rw [A_eq23]; try rfl)
theorem before23_3 (V : Valuation τ sig (Elt F)) (c : Dev nD) (t : Fin cfg23.N) (d) : (dat23 (Ix := Ix) (U := U) (Lvl := Lvl) V c).before 3 t d = iblk23 V c 3 t :=
  ((dat23 (Ix := Ix) (U := U) (Lvl := Lvl) V c).before_in_eq_fetched 3 rfl (fun _ => rfl) (fun _ _ _ => rfl)
      (fun t => by rw [after23_3]; unfold Dat.blockOf iblk23; rw [A_eq23]; try rfl) t d).trans
    (by unfold Dat.fetched Dat.blockOf iblk23; rw [A_eq23]; try rfl)
theorem before23_4 (V : Valuation τ sig (Elt F)) (c : Dev nD) (t : Fin cfg23.N) (d) : (dat23 (Ix := Ix) (U := U) (Lvl := Lvl) V c).before 4 t d = iblk23 V c 4 t :=
  ((dat23 (Ix := Ix) (U := U) (Lvl := Lvl) V c).before_in_eq_fetched 4 rfl (fun _ => rfl) (fun _ _ _ => rfl)
      (fun t => by rw [after23_4]; unfold Dat.blockOf iblk23; rw [A_eq23]; try rfl) t d).trans
    (by unfold Dat.fetched Dat.blockOf iblk23; rw [A_eq23]; try rfl)

/-! ## The body obligation, at a generic point -/

/-- What the body is called with at point `t` (the obligation's precondition, the windows one by one), -/
noncomputable def bodyPre23 (V : Valuation τ sig (Elt F)) (c : Dev nD) (ι : Ix) (t : Fin cfg23.N) : sProp 𝕄 :=
  iprop((dat23 (Ix := Ix) (U := U) (Lvl := Lvl) V c).Φ t.castSucc ∗ (dat23 (Ix := Ix) (U := U) (Lvl := Lvl) V c).owesAt ι t.castSucc
    ∗ (∃ d, owns (c : Thread nD τ) (st23_0 t) fullShare ((dat23 (Ix := Ix) (U := U) (Lvl := Lvl) V c).before 0 t d))
    ∗ (∃ d, owns (c : Thread nD τ) (st23_1 t) fullShare ((dat23 (Ix := Ix) (U := U) (Lvl := Lvl) V c).before 1 t d))
    ∗ (∃ d, owns (c : Thread nD τ) (st23_2 t) fullShare ((dat23 (Ix := Ix) (U := U) (Lvl := Lvl) V c).before 2 t d))
    ∗ (∃ d, owns (c : Thread nD τ) (st23_3 t) fullShare ((dat23 (Ix := Ix) (U := U) (Lvl := Lvl) V c).before 3 t d))
    ∗ (∃ d, owns (c : Thread nD τ) (st23_4 t) fullShare ((dat23 (Ix := Ix) (U := U) (Lvl := Lvl) V c).before 4 t d))
    ∗ (∃ d, owns (c : Thread nD τ) (st23_5 t) fullShare ((dat23 (Ix := Ix) (U := U) (Lvl := Lvl) V c).before 5 t d)))

/-- and what it returns. -/
noncomputable def bodyPost23 (V : Valuation τ sig (Elt F)) (c : Dev nD) (ι : Ix) (t : Fin cfg23.N) : sProp 𝕄 :=
  iprop((dat23 (Ix := Ix) (U := U) (Lvl := Lvl) V c).Φ t.succ ∗ (dat23 (Ix := Ix) (U := U) (Lvl := Lvl) V c).owesAt ι t.succ
    ∗ (dat23 (Ix := Ix) (U := U) (Lvl := Lvl) V c).leaves 0 t ∗ (dat23 (Ix := Ix) (U := U) (Lvl := Lvl) V c).leaves 1 t ∗ (dat23 (Ix := Ix) (U := U) (Lvl := Lvl) V c).leaves 2 t
    ∗ (dat23 (Ix := Ix) (U := U) (Lvl := Lvl) V c).leaves 3 t ∗ (dat23 (Ix := Ix) (U := U) (Lvl := Lvl) V c).leaves 4 t ∗ (dat23 (Ix := Ix) (U := U) (Lvl := Lvl) V c).leaves 5 t)

set_option maxHeartbeats 1600000 in
/-- The body at any point: the inputs' buffers hold their blocks; the point's residue mod 8 says which control case it
    is in, and that case's run applies; the invariant hands the body the accumulator at what the point before left (at
    anything at the first point) and takes it back at this point's contents; the core owes nothing throughout. -/
theorem sound_body23 (𝒱₀ : Variants) (ι : Ix) (V : Valuation τ sig (Elt F)) (c : Dev nD) (t : Fin cfg23.N) :
    bodyPre23 (Ix := Ix) (U := U) (Lvl := Lvl) V c ι t ⊢ wp frame (wpE (defs₀ (F := F)) 𝒱₀ c none) Set.univ (bodyAt23 t) (fun _ => bodyPost23 (Ix := Ix) (U := U) (Lvl := Lvl) V c ι t) := by
  unfold bodyPre23 bodyPost23 bodyAt23
  simp only [before23_0, before23_1, before23_2, before23_3, before23_4]
  rw [show (dat23 (Ix := Ix) (U := U) (Lvl := Lvl) V c).owesAt ι t.succ = (dat23 (Ix := Ix) (U := U) (Lvl := Lvl) V c).owesAt ι t.castSucc from rfl]
  rw [Phi23_at_succ, Phi23_succ, Phi23_castSucc]
  rw [leaves_live (dat23 (Ix := Ix) (U := U) (Lvl := Lvl) V c) 0 t rfl rfl, leaves_live (dat23 (Ix := Ix) (U := U) (Lvl := Lvl) V c) 1 t rfl rfl, leaves_live (dat23 (Ix := Ix) (U := U) (Lvl := Lvl) V c) 2 t rfl rfl,
    leaves_live (dat23 (Ix := Ix) (U := U) (Lvl := Lvl) V c) 3 t rfl rfl, leaves_live (dat23 (Ix := Ix) (U := U) (Lvl := Lvl) V c) 4 t rfl rfl, after23_0, after23_1, after23_2, after23_3, after23_4]
  have hN : t.val < 64 := lt_of_lt_of_eq t.isLt (show cfg23.N = 64 from N_23)
  by_cases h0 : t.val % 8 = 0
  · have h7 : ¬t.val % 8 = 7 := by omega
    rw [Dat.leaves_idle (dat23 (Ix := Ix) (U := U) (Lvl := Lvl) V c) 5 t (idleAt23_5 t h7) (noFlush23_5 t h7)]
    rw [acc23_reset V c t.val t.isLt h0]
    unfold step23 init23
    by_cases hz : t.val = 0
    · rw [Phi23_zero V c _ _ hz, scopedRest23_split]
      iintro ⟨⟨⟨%fs, HS⟩, Hr⟩, Ho, ⟨%d0, H0⟩, ⟨%d1, H1⟩, ⟨%d2, H2⟩, ⟨%d3, H3⟩, ⟨%d4, H4⟩, ⟨%d5, H5⟩⟩
      iapply (run23_first 𝒱₀ c (grid23.coords t) _ _ _ _ _ _ _ _ _ _ _ _ _ _ ((hcond23_0 t).mpr h0) (fun h => h7 ((hcond23_1 t).mp h)) (iblk23 V c 0 t) (iblk23 V c 1 t) (iblk23 V c 2 t) (iblk23 V c 3 t) (iblk23 V c 4 t) ((dat23 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists fs; rw [owns_whole]; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
    · rw [Phi23_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (run23_first 𝒱₀ c (grid23.coords t) _ _ _ _ _ _ _ _ _ _ _ _ _ _ ((hcond23_0 t).mpr h0) (fun h => h7 ((hcond23_1 t).mp h)) (iblk23 V c 0 t) (iblk23 V c 1 t) (iblk23 V c 2 t) (iblk23 V c 3 t) (iblk23 V c 4 t) ((dat23 (Ix := Ix) (U := U) (Lvl := Lvl) V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]
      · iexists _; iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun h => h0 (by rw [h])
    rw [acc23_step V c t.val t.isLt h0, Phi23_pos V c _ _ hz]
    unfold step23
    by_cases h7 : t.val % 8 = 7
    · rw [leaves_live (dat23 (Ix := Ix) (U := U) (Lvl := Lvl) V c) 5 t (liveAt23_5 t h7) rfl, after23_5, acc23_step V c t.val t.isLt h0]
      unfold step23
      iintro ⟨⟨HS, Hr⟩, Ho, ⟨%d0, H0⟩, ⟨%d1, H1⟩, ⟨%d2, H2⟩, ⟨%d3, H3⟩, ⟨%d4, H4⟩, ⟨%d5, H5⟩⟩
      iapply (run23_last 𝒱₀ c (grid23.coords t) _ _ _ _ _ _ _ _ _ _ _ _ _ _ (fun h => h0 ((hcond23_0 t).mp h)) ((hcond23_1 t).mpr h7) (iblk23 V c 0 t) (iblk23 V c 1 t) (iblk23 V c 2 t) (iblk23 V c 3 t) (iblk23 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leaves_idle (dat23 (Ix := Ix) (U := U) (Lvl := Lvl) V c) 5 t (idleAt23_5 t h7) (noFlush23_5 t h7)]
      iintro ⟨⟨HS, Hr⟩, Ho, ⟨%d0, H0⟩, ⟨%d1, H1⟩, ⟨%d2, H2⟩, ⟨%d3, H3⟩, ⟨%d4, H4⟩, ⟨%d5, H5⟩⟩
      iapply (run23_mid 𝒱₀ c (grid23.coords t) _ _ _ _ _ _ _ _ _ _ _ _ _ _ (fun h => h0 ((hcond23_0 t).mp h)) (fun h => h7 ((hcond23_1 t).mp h)) (iblk23 V c 0 t) (iblk23 V c 1 t) (iblk23 V c 2 t) (iblk23 V c 3 t) (iblk23 V c 4 t) ((dat23 (Ix := Ix) (U := U) (Lvl := Lvl) V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation23 (𝒱₀ : Variants) (ι : Ix) (V : Valuation τ sig (Elt F)) (c : Dev nD) :
    BodyObligationLoose (dat23 (Ix := Ix) (U := U) (Lvl := Lvl) V c) (defs₀ (F := F)) 𝒱₀ ι Set.univ := fun t => by
  rw [bigSep_W23, bigSep_W23]
  exact sound_body23 𝒱₀ ι V c t

/-- The same at the type the program's family of configurations gives pipeline 1, on every core. -/
theorem body23 (𝒱₀ : Variants) (ι : Ix) (V : Valuation τ sig (Elt F)) :
    ∀ c : Dev nD, BodyObligationLoose (cfg := cfgs 23) (dat23 (Ix := Ix) (U := U) (Lvl := Lvl) V c) (defs₀ (F := F)) 𝒱₀ ι Set.univ :=
  fun c => body_obligation23 𝒱₀ ι V c

end Cert.KernelIdeal.Hand

end

/-! # part: Region1 -/
/-
  REGION 1 of the host program (custom_call 1) as a segment record, entered from the core's unscoped buffers held
  at any valuation W c and left at W c updated at the output window's buffer. Its input windows 1 and 2, 3 and 4
  read one buffer each pair: the entry and exit entailments go through the shares' dealing (Shared.lean) where a
  region with distinct arrays would go through the arrays' distinctness. The region owes nothing, has no semaphore
  and no table of its own, takes only scoped buffers into its invariant; the generator register and the other
  unscoped buffers pass it by.
-/

set_option maxRecDepth 7604

noncomputable section

namespace Cert.KernelIdeal.Hand.Reg23

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]

/-! ## This region's names (everything below is written over these alone) -/

/-- The region's pipeline among the program's. -/
abbrev K : Fin 24 := (23 : Fin 24)
/-- Its configuration, its windows but for their index maps, the number of its windows. -/
abbrev cfgK : Pipeline.Cfg sig Λ₀ := cfg23
abbrev specK : Fin 6 → Pipeline.WinSpec sig cfgK.grid.rank := spec23
abbrev nW : Nat := 6
/-- Its output window and the buffer behind it. -/
abbrev oK : Fin nW := 5
abbrev outK : Ref sig .tc := main_v790
theorem winK : Pipeline.WinFacts₀ specK := winFacts₀23
theorem block_posK : ∀ w : Fin nW, 0 < (specK w).block.numel := block_pos23
theorem arr_wholeK : ∀ w : Fin nW, (specK w).arr.IsWhole := arr_whole23
theorem stage_wholeK : ∀ (w : Fin nW) (s : Fin (specK w).nbuf), ((specK w).stage s).IsWhole := stage_whole23

/-! ## The windows and their buffers, decided -/

/-- Every window but the output window is an input, -/
theorem in_of_ne : ∀ w : Fin nW, w ≠ oK → (cfgK.win w).isOut = false := by decide
/-- on another buffer than the output's, -/
theorem arr_ne : ∀ w : Fin nW, w ≠ oK → arrRef specK w ≠ arrRef specK oK := by decide
/-- which is the one named above. -/
theorem arr_out : arrRef specK oK = outK := rfl
theorem out_isOut : (cfgK.win oK).isOut = true := rfl

/-- The windows on the buffer of each window. -/
theorem fiber_0 : (Finset.univ.filter fun w' : Fin nW => arrRef specK w' = arrRef specK 0) = {0} := by decide
theorem fiber_1 : (Finset.univ.filter fun w' : Fin nW => arrRef specK w' = arrRef specK 1) = {1, 2} := by decide
theorem fiber_2 : (Finset.univ.filter fun w' : Fin nW => arrRef specK w' = arrRef specK 2) = {1, 2} := by decide
theorem fiber_3 : (Finset.univ.filter fun w' : Fin nW => arrRef specK w' = arrRef specK 3) = {3, 4} := by decide
theorem fiber_4 : (Finset.univ.filter fun w' : Fin nW => arrRef specK w' = arrRef specK 4) = {3, 4} := by decide
theorem fiber_5 : (Finset.univ.filter fun w' : Fin nW => arrRef specK w' = arrRef specK 5) = {5} := by decide

section

variable {Ix : Type} [DecidableEq Ix] {U : Type} [URA U] {Lvl : Type} [Preorder Lvl]

local notation "𝕄" => MT nD τ sig Ix (Elt F) ℕ U Lvl

/-- The prefetched tables' admissible contents: no pallas_call has a table. -/
abbrev adm : (p : Fin 24) → (pcfgs (F := F) p).Adm := fun p => (cfgs p).toPCfg_adm

variable {c : Dev nD} (dat : Dat τ (Elt F) Ix ℕ U Lvl cfgK c)

/-- An input window holds its array at the share the proof data names, the output window holds its own whole. -/
theorem share_in (w : Fin nW) (h : (cfgK.win w).isOut = false) : dat.share w = dat.q w := by
  unfold Pipeline.Dat.share; rw [h]; rfl
theorem share_out : dat.share oK = fullShare := by
  unfold Pipeline.Dat.share; rw [out_isOut]; rfl

/-- THE DEALING: each pair of input windows on one buffer holds complementary shares, every other window is alone
    on its buffer and holds it whole. -/
theorem dealsK (hq0 : fullShare ∈ dat.q 1 ·? dat.q 2) (hq1 : fullShare ∈ dat.q 3 ·? dat.q 4)
    (hq_0 : dat.q 0 = fullShare) : Deals dat := by
  intro w
  have hw : w = 0 ∨ w = 1 ∨ w = 2 ∨ w = 3 ∨ w = 4 ∨ w = 5 := by revert w; decide
  rcases hw with rfl | rfl | rfl | rfl | rfl | rfl
  · refine DealsOn.one (0 : Fin nW) fiber_0 ?_
    rw [share_in dat 0 rfl]; exact hq_0
  · refine DealsOn.two (1 : Fin nW) 2 (by decide) fiber_1 ?_
    rw [share_in dat 1 rfl, share_in dat 2 rfl]; exact hq0
  · refine DealsOn.two (1 : Fin nW) 2 (by decide) fiber_2 ?_
    rw [share_in dat 1 rfl, share_in dat 2 rfl]; exact hq0
  · refine DealsOn.two (3 : Fin nW) 4 (by decide) fiber_3 ?_
    rw [share_in dat 3 rfl, share_in dat 4 rfl]; exact hq1
  · refine DealsOn.two (3 : Fin nW) 4 (by decide) fiber_4 ?_
    rw [share_in dat 3 rfl, share_in dat 4 rfl]; exact hq1
  · exact DealsOn.one (5 : Fin nW) fiber_5 (share_out dat)

end

section

variable {Ix : Type} [DecidableEq Ix] {U : Type} [URA U] {Lvl : Type} [Preorder Lvl]

local notation "𝕄" => MT nD τ sig Ix (Elt F) ℕ U Lvl

-- a library lemma stated over the pinned configuration unifies with this region's only when unification may unfold
-- plain definitions in a metavariable's type
set_option backward.isDefEq.respectTransparency.types false in
set_option maxHeartbeats 1000000 in
/-- THE SEGMENT RECORD of the region, over any proof data family whose member at this pipeline reads its arrays off
    W c, deals its shares as above, owes nothing, and whose invariant starts from and ends in the scoped buffers no
    window stages. -/
noncomputable def RK (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (W : Dev nD → Valuation τ sig (Elt F))
    (hbody : ∀ c, Pipeline.BodyObligationLoose (pdats K c) defs₀ 𝒱₀ ι Set.univ)
    (hA : ∀ c (w : Fin nW), (pdats K c).A w = W c (Proc.devRef .tc (arrRef specK w)))
    (hq0 : ∀ c, fullShare ∈ (pdats K c).q 1 ·? (pdats K c).q 2)
    (hq1 : ∀ c, fullShare ∈ (pdats K c).q 3 ·? (pdats K c).q 4)
    (hq_0 : ∀ c, (pdats K c).q 0 = fullShare)
    (howed : ∀ c t, (pdats K c).owed t = 0)
    (hrec : ∀ c, (pdats K c).recorded 0 = Set.univ)
    (hΦ0 : ∀ c, (Pipeline.scopedRest specK c : sProp 𝕄) ⊢ (pdats K c).Φ 0)
    (hΦN : ∀ c, (pdats K c).Φ (Fin.last cfgK.N) ⊢ (Pipeline.scopedRest specK c : sProp 𝕄)) :
    RegionSeg (pcfgs (F := F)) adm pdats ι defs₀ 𝒱₀ L lv K where
  win := winK
  block_pos := block_posK
  stage_whole := stage_wholeK
  K := PEmpty
  osem k := k.elim
  ho := Pipeline.OwnSemFacts.none _
  hbody := hbody
  hwaits := Pipeline.hwaits_of_owed_zero _ _ _ _ L lv K howed
  pre c := iprop(StableHlo.held (c : Thread nD τ) (Pipeline.ucRefs τ sig) (W c) ∗ R c)
  post c := iprop(StableHlo.held (c : Thread nD τ) (Pipeline.ucRefs τ sig)
      (Function.update (W c) (Proc.devRef .tc outK) ((pdats K c).arrAt oK cfgK.N)) ∗ R c)
  X _ := BI.emp
  Y _ := BI.emp
  Z c := iprop(Pipeline.unscopedRest specK c (fun b => W c b) ∗ ∃ r, prngReg c r)
  hentry c :=
    hentry_shared (cfg := cfgK) (pdats K c) winK arr_wholeK
      (dealsK (pdats K c) (hq0 c) (hq1 c) (hq_0 c)) (W c) (hA c) ι (howed c 0) (hrec c)
      (by unfold Pipeline.prefHeld; rw [show (Finset.univ : Finset (Fin 0)) = ∅ from rfl, BI.bigSep_empty]; exact .rfl)
  hin c := by
    iintro ⟨-, -, Hr⟩
    iapply (hΦ0 c)
    iexact Hr
  hout c := by
    rw [Pipeline.ownSems0_none]
    refine (hΦN c).trans ?_
    iintro Hr
    isplitr; · iempintro
    isplitr; · iempintro
    iexact Hr
  hexit c :=
    hexit_shared (cfg := cfgK) (pdats K c) winK arr_wholeK
      (dealsK (pdats K c) (hq0 c) (hq1 c) (hq_0 c)) (W c) (hA c) oK in_of_ne arr_ne ι (howed c (Fin.last _))

end

end Cert.KernelIdeal.Hand.Reg23

/-! # part: Pin1 -/
/-
  The region's segment record PINNED to the host program's thread states: entered from the unscoped buffers held at
  the valuation before the region's item, left at the valuation after it (the one before, updated at the region's
  output buffer with what its write-backs leave) beside the constant rest R c. The family of proof data has, at this
  pipeline, the region's data over the entry valuation (hp); the contents the region leaves are the data's array at
  the output window after the last point (houts).
-/

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef)
open PCS

variable {F : FTy → Type} [FloatOps F]
variable {Ix : Type} [DecidableEq Ix] {U : Type} [URA U] {Lvl : Type} [Preorder Lvl]

local notation "𝕄" => MT nD τ sig Ix (Elt F) ℕ U Lvl

-- the record's type names the tables' contents through GenP.adm, the region module's through its own copy of it:
-- the two agree by unfolding plain definitions in a metavariable's type
set_option backward.isDefEq.respectTransparency.types false in
/-- THE RECORD frame_cond asks for this region. -/
noncomputable def R23' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (23 : Fin 24) c = dat23 (V127 m outs c) c)
    (hbody : ∀ c : Dev nD, Pipeline.BodyObligationLoose (dat23 (Ix := Ix) (U := U) (Lvl := Lvl) (V127 m outs c) c) (defs₀ (F := F)) 𝒱₀ ι Set.univ) :
    RegionSeg (pcfgs (F := F)) GenP.adm pdats ι defs₀ 𝒱₀ L lv (23 : Fin 24) :=
  Reg23.RK 𝒱₀ L lv ι pdats (fun c => V127 m outs c)
    (fun c => by rw [hp c]; exact hbody c)
    (fun c w => by rw [hp c]; exact A_eq23 (V127 m outs c) c w)
    (fun c => by rw [hp c]; rw [q23_1, q23_2]; exact PosShare.mem_left_op_right fullShare)
    (fun c => by rw [hp c]; rw [q23_3, q23_4]; exact PosShare.mem_left_op_right fullShare)
    (fun c => by rw [hp c]; exact q23_0 (V127 m outs c) c)
    (fun c t => by rw [hp c]; rfl)
    (fun c => by rw [hp c]; rfl)
    (fun c => by rw [hp c, Phi_first23])
    (fun c => by rw [hp c]; exact Phi_last23 (V127 m outs c) c)

/-- It is entered from the thread state before the region's item, -/
theorem hpre23' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (23 : Fin 24) c = dat23 (V127 m outs c) c)
    (hbody : ∀ c : Dev nD, Pipeline.BodyObligationLoose (dat23 (Ix := Ix) (U := U) (Lvl := Lvl) (V127 m outs c) c) (defs₀ (F := F)) 𝒱₀ ι Set.univ)
    (c : Dev nD) :
    iprop(StableHlo.held (c : Thread nD τ) (Pipeline.ucRefs τ sig) (V127 m outs c) ∗ (R c : sProp 𝕄))
      ⊢ (R23' m outs 𝒱₀ L lv ι pdats hp hbody).pre c := .rfl

/-- and left at the thread state after it. -/
theorem hpost23' (m : (ℓ : Loc nD τ sig) → Buf (Elt F) ℓ) (outs : Outs (F := F))
    (𝒱₀ : Variants) (L : GSem nD τ sig → Finset Ix) (lv : GSem nD τ sig → Ix → Lvl) (ι : Ix)
    (pdats : (p : Fin 24) → (c : Dev nD) → Dat τ (Elt F) Ix ℕ U Lvl (cfgs p) c)
    (hp : ∀ c : Dev nD, pdats (23 : Fin 24) c = dat23 (V127 m outs c) c)
    (hbody : ∀ c : Dev nD, Pipeline.BodyObligationLoose (dat23 (Ix := Ix) (U := U) (Lvl := Lvl) (V127 m outs c) c) (defs₀ (F := F)) 𝒱₀ ι Set.univ)
    (houts : ∀ c : Dev nD, outs 128 main_v790 c = (dat23 (Ix := Ix) (U := U) (Lvl := Lvl) (V127 m outs c) c).arrAt 5 64)
    (c : Dev nD) :
    (R23' m outs 𝒱₀ L lv ι pdats hp hbody).post c
      ⊢ iprop(StableHlo.held (c : Thread nD τ) (Pipeline.ucRefs τ sig) (V128 m outs c) ∗ (R c : sProp 𝕄)) := by
  have h : (pdats (23 : Fin 24) c).arrAt Reg23.oK Reg23.cfgK.N = outs 128 main_v790 c := by
    rw [hp c]; exact (houts c).symm
  show iprop(StableHlo.held (c : Thread nD τ) (Pipeline.ucRefs τ sig)
      (Function.update (V127 m outs c) (Proc.devRef .tc main_v790) ((pdats (23 : Fin 24) c).arrAt Reg23.oK Reg23.cfgK.N))
        ∗ (R c : sProp 𝕄)) ⊢ _
  rw [h]

end Cert.KernelIdeal.Hand
-- ==== Proof.Plugs.lean ====
/-
  The kernel regions put together, at one choice of the ghost state's parameters (no index, the pipeline library's own
  algebra, natural levels, no variant, no level assigned).

  What region K leaves in its output array is the array after the last write-back, computed from the valuation the
  region is entered at (fK). The regions' results are then one family (outsK: KOuts.lean), each region's proof data is
  its own over its entry valuation in that family (pdatsK), and each region's segment record and its entry and exit
  entailments (Pin<K>.lean) are taken at these.
-/
import proofs.«169706_j68856915690108_1_alg».proof.Proof.KOuts
import proofs.«169706_j68856915690108_1_alg».proof.Proof.LaunchArgs
import proofs.«169706_j68856915690108_1_alg».proof.Proof.Rg0
import proofs.«169706_j68856915690108_1_alg».proof.Proof.Rg1
import proofs.«169706_j68856915690108_1_alg».proof.Proof.Rg2
import proofs.«169706_j68856915690108_1_alg».proof.Proof.Rg3
import proofs.«169706_j68856915690108_1_alg».proof.Proof.Rg4
import proofs.«169706_j68856915690108_1_alg».proof.Proof.Rg5
import proofs.«169706_j68856915690108_1_alg».proof.Proof.Rg6
import proofs.«169706_j68856915690108_1_alg».proof.Proof.Rg7
import proofs.«169706_j68856915690108_1_alg».proof.Proof.Rg8
import proofs.«169706_j68856915690108_1_alg».proof.Proof.Rg9
import proofs.«169706_j68856915690108_1_alg».proof.Proof.Rg10
import proofs.«169706_j68856915690108_1_alg».proof.Proof.Rg11
import proofs.«169706_j68856915690108_1_alg».proof.Proof.Rg12
import proofs.«169706_j68856915690108_1_alg».proof.Proof.Rg13
import proofs.«169706_j68856915690108_1_alg».proof.Proof.Rg14
import proofs.«169706_j68856915690108_1_alg».proof.Proof.Rg15
import proofs.«169706_j68856915690108_1_alg».proof.Proof.Rg16
import proofs.«169706_j68856915690108_1_alg».proof.Proof.Rg17
import proofs.«169706_j68856915690108_1_alg».proof.Proof.Rg18
import proofs.«169706_j68856915690108_1_alg».proof.Proof.Rg19
import proofs.«169706_j68856915690108_1_alg».proof.Proof.Rg20
import proofs.«169706_j68856915690108_1_alg».proof.Proof.Rg21
import proofs.«169706_j68856915690108_1_alg».proof.Proof.Rg22
import proofs.«169706_j68856915690108_1_alg».proof.Proof.Rg23

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-! What each region computes from the valuation it is entered at: its output array after the last write-back. -/

noncomputable def oK0 (V : Valuation τ sig (Elt F)) (c : Dev nD) : Buf (Elt F) ((c : Thread nD τ).loc main_v19) :=
  (dat0 (Ix := Unit) (U := UR sig nD τ) (Lvl := ℕ) V c).arrAt 2 64
noncomputable def oK1 (V : Valuation τ sig (Elt F)) (c : Dev nD) : Buf (Elt F) ((c : Thread nD τ).loc main_v22) :=
  (dat1 (Ix := Unit) (U := UR sig nD τ) (Lvl := ℕ) V c).arrAt 5 64
noncomputable def oK2 (V : Valuation τ sig (Elt F)) (c : Dev nD) : Buf (Elt F) ((c : Thread nD τ).loc main_v88) :=
  (dat2 (Ix := Unit) (U := UR sig nD τ) (Lvl := ℕ) V c).arrAt 2 64
noncomputable def oK3 (V : Valuation τ sig (Elt F)) (c : Dev nD) : Buf (Elt F) ((c : Thread nD τ).loc main_v91) :=
  (dat3 (Ix := Unit) (U := UR sig nD τ) (Lvl := ℕ) V c).arrAt 5 64
noncomputable def oK4 (V : Valuation τ sig (Elt F)) (c : Dev nD) : Buf (Elt F) ((c : Thread nD τ).loc main_v157) :=
  (dat4 (Ix := Unit) (U := UR sig nD τ) (Lvl := ℕ) V c).arrAt 2 64
noncomputable def oK5 (V : Valuation τ sig (Elt F)) (c : Dev nD) : Buf (Elt F) ((c : Thread nD τ).loc main_v160) :=
  (dat5 (Ix := Unit) (U := UR sig nD τ) (Lvl := ℕ) V c).arrAt 5 64
noncomputable def oK6 (V : Valuation τ sig (Elt F)) (c : Dev nD) : Buf (Elt F) ((c : Thread nD τ).loc main_v229) :=
  (dat6 (Ix := Unit) (U := UR sig nD τ) (Lvl := ℕ) V c).arrAt 2 64
noncomputable def oK7 (V : Valuation τ sig (Elt F)) (c : Dev nD) : Buf (Elt F) ((c : Thread nD τ).loc main_v232) :=
  (dat7 (Ix := Unit) (U := UR sig nD τ) (Lvl := ℕ) V c).arrAt 5 64
noncomputable def oK8 (V : Valuation τ sig (Elt F)) (c : Dev nD) : Buf (Elt F) ((c : Thread nD τ).loc main_v298) :=
  (dat8 (Ix := Unit) (U := UR sig nD τ) (Lvl := ℕ) V c).arrAt 2 64
noncomputable def oK9 (V : Valuation τ sig (Elt F)) (c : Dev nD) : Buf (Elt F) ((c : Thread nD τ).loc main_v301) :=
  (dat9 (Ix := Unit) (U := UR sig nD τ) (Lvl := ℕ) V c).arrAt 5 64
noncomputable def oK10 (V : Valuation τ sig (Elt F)) (c : Dev nD) : Buf (Elt F) ((c : Thread nD τ).loc main_v367) :=
  (dat10 (Ix := Unit) (U := UR sig nD τ) (Lvl := ℕ) V c).arrAt 2 64
noncomputable def oK11 (V : Valuation τ sig (Elt F)) (c : Dev nD) : Buf (Elt F) ((c : Thread nD τ).loc main_v370) :=
  (dat11 (Ix := Unit) (U := UR sig nD τ) (Lvl := ℕ) V c).arrAt 5 64
noncomputable def oK12 (V : Valuation τ sig (Elt F)) (c : Dev nD) : Buf (Elt F) ((c : Thread nD τ).loc main_v439) :=
  (dat12 (Ix := Unit) (U := UR sig nD τ) (Lvl := ℕ) V c).arrAt 2 64
noncomputable def oK13 (V : Valuation τ sig (Elt F)) (c : Dev nD) : Buf (Elt F) ((c : Thread nD τ).loc main_v442) :=
  (dat13 (Ix := Unit) (U := UR sig nD τ) (Lvl := ℕ) V c).arrAt 5 64
noncomputable def oK14 (V : Valuation τ sig (Elt F)) (c : Dev nD) : Buf (Elt F) ((c : Thread nD τ).loc main_v508) :=
  (dat14 (Ix := Unit) (U := UR sig nD τ) (Lvl := ℕ) V c).arrAt 2 64
noncomputable def oK15 (V : Valuation τ sig (Elt F)) (c : Dev nD) : Buf (Elt F) ((c : Thread nD τ).loc main_v511) :=
  (dat15 (Ix := Unit) (U := UR sig nD τ) (Lvl := ℕ) V c).arrAt 5 64
noncomputable def oK16 (V : Valuation τ sig (Elt F)) (c : Dev nD) : Buf (Elt F) ((c : Thread nD τ).loc main_v577) :=
  (dat16 (Ix := Unit) (U := UR sig nD τ) (Lvl := ℕ) V c).arrAt 2 64
noncomputable def oK17 (V : Valuation τ sig (Elt F)) (c : Dev nD) : Buf (Elt F) ((c : Thread nD τ).loc main_v580) :=
  (dat17 (Ix := Unit) (U := UR sig nD τ) (Lvl := ℕ) V c).arrAt 5 64
noncomputable def oK18 (V : Valuation τ sig (Elt F)) (c : Dev nD) : Buf (Elt F) ((c : Thread nD τ).loc main_v649) :=
  (dat18 (Ix := Unit) (U := UR sig nD τ) (Lvl := ℕ) V c).arrAt 2 64
noncomputable def oK19 (V : Valuation τ sig (Elt F)) (c : Dev nD) : Buf (Elt F) ((c : Thread nD τ).loc main_v652) :=
  (dat19 (Ix := Unit) (U := UR sig nD τ) (Lvl := ℕ) V c).arrAt 5 64
noncomputable def oK20 (V : Valuation τ sig (Elt F)) (c : Dev nD) : Buf (Elt F) ((c : Thread nD τ).loc main_v718) :=
  (dat20 (Ix := Unit) (U := UR sig nD τ) (Lvl := ℕ) V c).arrAt 2 64
noncomputable def oK21 (V : Valuation τ sig (Elt F)) (c : Dev nD) : Buf (Elt F) ((c : Thread nD τ).loc main_v721) :=
  (dat21 (Ix := Unit) (U := UR sig nD τ) (Lvl := ℕ) V c).arrAt 5 64
noncomputable def oK22 (V : Valuation τ sig (Elt F)) (c : Dev nD) : Buf (Elt F) ((c : Thread nD τ).loc main_v787) :=
  (dat22 (Ix := Unit) (U := UR sig nD τ) (Lvl := ℕ) V c).arrAt 2 64
noncomputable def oK23 (V : Valuation τ sig (Elt F)) (c : Dev nD) : Buf (Elt F) ((c : Thread nD τ).loc main_v790) :=
  (dat23 (Ix := Unit) (U := UR sig nD τ) (Lvl := ℕ) V c).arrAt 5 64

/-- The same as one record. -/
noncomputable def fK : OutFns F where
  o0 := oK0
  o1 := oK1
  o2 := oK2
  o3 := oK3
  o4 := oK4
  o5 := oK5
  o6 := oK6
  o7 := oK7
  o8 := oK8
  o9 := oK9
  o10 := oK10
  o11 := oK11
  o12 := oK12
  o13 := oK13
  o14 := oK14
  o15 := oK15
  o16 := oK16
  o17 := oK17
  o18 := oK18
  o19 := oK19
  o20 := oK20
  o21 := oK21
  o22 := oK22
  o23 := oK23

/-- The regions' results as one family. -/
noncomputable def outsK : Outs (F := F) := outsOf m fK

/-- Every pipeline's proof data: region K's over the valuation it is entered at. -/
noncomputable def pdatsK : (p : Fin 24) → (c : Dev nD) → Dat τ (Elt F) Unit ℕ (UR sig nD τ) ℕ (cfgs p) c
  | ⟨0, _⟩ => fun c => dat0 (V4 m c) c
  | ⟨1, _⟩ => fun c => dat1 (V6 m (outsK m) c) c
  | ⟨2, _⟩ => fun c => dat2 (V15 m (outsK m) c) c
  | ⟨3, _⟩ => fun c => dat3 (V17 m (outsK m) c) c
  | ⟨4, _⟩ => fun c => dat4 (V26 m (outsK m) c) c
  | ⟨5, _⟩ => fun c => dat5 (V28 m (outsK m) c) c
  | ⟨6, _⟩ => fun c => dat6 (V37 m (outsK m) c) c
  | ⟨7, _⟩ => fun c => dat7 (V39 m (outsK m) c) c
  | ⟨8, _⟩ => fun c => dat8 (V48 m (outsK m) c) c
  | ⟨9, _⟩ => fun c => dat9 (V50 m (outsK m) c) c
  | ⟨10, _⟩ => fun c => dat10 (V59 m (outsK m) c) c
  | ⟨11, _⟩ => fun c => dat11 (V61 m (outsK m) c) c
  | ⟨12, _⟩ => fun c => dat12 (V70 m (outsK m) c) c
  | ⟨13, _⟩ => fun c => dat13 (V72 m (outsK m) c) c
  | ⟨14, _⟩ => fun c => dat14 (V81 m (outsK m) c) c
  | ⟨15, _⟩ => fun c => dat15 (V83 m (outsK m) c) c
  | ⟨16, _⟩ => fun c => dat16 (V92 m (outsK m) c) c
  | ⟨17, _⟩ => fun c => dat17 (V94 m (outsK m) c) c
  | ⟨18, _⟩ => fun c => dat18 (V103 m (outsK m) c) c
  | ⟨19, _⟩ => fun c => dat19 (V105 m (outsK m) c) c
  | ⟨20, _⟩ => fun c => dat20 (V114 m (outsK m) c) c
  | ⟨21, _⟩ => fun c => dat21 (V116 m (outsK m) c) c
  | ⟨22, _⟩ => fun c => dat22 (V125 m (outsK m) c) c
  | ⟨23, _⟩ => fun c => dat23 (V127 m (outsK m) c) c
  | ⟨_ + 24, h⟩ => absurd h (Nat.not_lt.2 (Nat.le_add_left _ _))

/-! ## Each region's record, entered from the thread state before its item and left at the one after it -/

noncomputable def RK0 : RegionSeg (pcfgs (F := F)) GenP.adm (pdatsK m) () defs₀ 𝒱₀₀ L₀ lv₀ (0 : Fin 24) :=
  R0' m (outsK m) 𝒱₀₀ L₀ lv₀ () (pdatsK m) (fun _ => rfl) (fun c => body0 (V4 m c) 𝒱₀₀ () c)

theorem hpreK0 (c : Dev nD) :
    iprop(StableHlo.held (c : Thread nD τ) (Pipeline.ucRefs τ sig) (V4 m c) ∗ (R c : sProp 𝕄)) ⊢ (RK0 m).pre c :=
  hpre0' m (outsK m) 𝒱₀₀ L₀ lv₀ () (pdatsK m) (fun _ => rfl) (fun c => body0 (V4 m c) 𝒱₀₀ () c) c

theorem hpostK0 (c : Dev nD) :
    (RK0 m).post c ⊢ iprop(StableHlo.held (c : Thread nD τ) (Pipeline.ucRefs τ sig) (V5 m (outsK m) c) ∗ (R c : sProp 𝕄)) :=
  hpost0' m (outsK m) 𝒱₀₀ L₀ lv₀ () (pdatsK m) (fun _ => rfl) (fun c => body0 (V4 m c) 𝒱₀₀ () c)
    (fun c => outsOf_0 m fK c) c

noncomputable def RK1 : RegionSeg (pcfgs (F := F)) GenP.adm (pdatsK m) () defs₀ 𝒱₀₀ L₀ lv₀ (1 : Fin 24) :=
  R1' m (outsK m) 𝒱₀₀ L₀ lv₀ () (pdatsK m) (fun _ => rfl) (fun c => body_obligation1 𝒱₀₀ () (V6 m (outsK m) c) c)

theorem hpreK1 (c : Dev nD) :
    iprop(StableHlo.held (c : Thread nD τ) (Pipeline.ucRefs τ sig) (V6 m (outsK m) c) ∗ (R c : sProp 𝕄)) ⊢ (RK1 m).pre c :=
  hpre1' m (outsK m) 𝒱₀₀ L₀ lv₀ () (pdatsK m) (fun _ => rfl) (fun c => body_obligation1 𝒱₀₀ () (V6 m (outsK m) c) c) c

theorem hpostK1 (c : Dev nD) :
    (RK1 m).post c ⊢ iprop(StableHlo.held (c : Thread nD τ) (Pipeline.ucRefs τ sig) (V7 m (outsK m) c) ∗ (R c : sProp 𝕄)) :=
  hpost1' m (outsK m) 𝒱₀₀ L₀ lv₀ () (pdatsK m) (fun _ => rfl) (fun c => body_obligation1 𝒱₀₀ () (V6 m (outsK m) c) c)
    (fun c => outsOf_1 m fK c) c

noncomputable def RK2 : RegionSeg (pcfgs (F := F)) GenP.adm (pdatsK m) () defs₀ 𝒱₀₀ L₀ lv₀ (2 : Fin 24) :=
  R2' m (outsK m) 𝒱₀₀ L₀ lv₀ () (pdatsK m) (fun _ => rfl) (fun c => body2 (V15 m (outsK m) c) 𝒱₀₀ () c)

theorem hpreK2 (c : Dev nD) :
    iprop(StableHlo.held (c : Thread nD τ) (Pipeline.ucRefs τ sig) (V15 m (outsK m) c) ∗ (R c : sProp 𝕄)) ⊢ (RK2 m).pre c :=
  hpre2' m (outsK m) 𝒱₀₀ L₀ lv₀ () (pdatsK m) (fun _ => rfl) (fun c => body2 (V15 m (outsK m) c) 𝒱₀₀ () c) c

theorem hpostK2 (c : Dev nD) :
    (RK2 m).post c ⊢ iprop(StableHlo.held (c : Thread nD τ) (Pipeline.ucRefs τ sig) (V16 m (outsK m) c) ∗ (R c : sProp 𝕄)) :=
  hpost2' m (outsK m) 𝒱₀₀ L₀ lv₀ () (pdatsK m) (fun _ => rfl) (fun c => body2 (V15 m (outsK m) c) 𝒱₀₀ () c)
    (fun c => outsOf_2 m fK c) c

noncomputable def RK3 : RegionSeg (pcfgs (F := F)) GenP.adm (pdatsK m) () defs₀ 𝒱₀₀ L₀ lv₀ (3 : Fin 24) :=
  R3' m (outsK m) 𝒱₀₀ L₀ lv₀ () (pdatsK m) (fun _ => rfl) (fun c => body_obligation3 𝒱₀₀ () (V17 m (outsK m) c) c)

theorem hpreK3 (c : Dev nD) :
    iprop(StableHlo.held (c : Thread nD τ) (Pipeline.ucRefs τ sig) (V17 m (outsK m) c) ∗ (R c : sProp 𝕄)) ⊢ (RK3 m).pre c :=
  hpre3' m (outsK m) 𝒱₀₀ L₀ lv₀ () (pdatsK m) (fun _ => rfl) (fun c => body_obligation3 𝒱₀₀ () (V17 m (outsK m) c) c) c

theorem hpostK3 (c : Dev nD) :
    (RK3 m).post c ⊢ iprop(StableHlo.held (c : Thread nD τ) (Pipeline.ucRefs τ sig) (V18 m (outsK m) c) ∗ (R c : sProp 𝕄)) :=
  hpost3' m (outsK m) 𝒱₀₀ L₀ lv₀ () (pdatsK m) (fun _ => rfl) (fun c => body_obligation3 𝒱₀₀ () (V17 m (outsK m) c) c)
    (fun c => outsOf_3 m fK c) c

noncomputable def RK4 : RegionSeg (pcfgs (F := F)) GenP.adm (pdatsK m) () defs₀ 𝒱₀₀ L₀ lv₀ (4 : Fin 24) :=
  R4' m (outsK m) 𝒱₀₀ L₀ lv₀ () (pdatsK m) (fun _ => rfl) (fun c => body4 (V26 m (outsK m) c) 𝒱₀₀ () c)

theorem hpreK4 (c : Dev nD) :
    iprop(StableHlo.held (c : Thread nD τ) (Pipeline.ucRefs τ sig) (V26 m (outsK m) c) ∗ (R c : sProp 𝕄)) ⊢ (RK4 m).pre c :=
  hpre4' m (outsK m) 𝒱₀₀ L₀ lv₀ () (pdatsK m) (fun _ => rfl) (fun c => body4 (V26 m (outsK m) c) 𝒱₀₀ () c) c

theorem hpostK4 (c : Dev nD) :
    (RK4 m).post c ⊢ iprop(StableHlo.held (c : Thread nD τ) (Pipeline.ucRefs τ sig) (V27 m (outsK m) c) ∗ (R c : sProp 𝕄)) :=
  hpost4' m (outsK m) 𝒱₀₀ L₀ lv₀ () (pdatsK m) (fun _ => rfl) (fun c => body4 (V26 m (outsK m) c) 𝒱₀₀ () c)
    (fun c => outsOf_4 m fK c) c

noncomputable def RK5 : RegionSeg (pcfgs (F := F)) GenP.adm (pdatsK m) () defs₀ 𝒱₀₀ L₀ lv₀ (5 : Fin 24) :=
  R5' m (outsK m) 𝒱₀₀ L₀ lv₀ () (pdatsK m) (fun _ => rfl) (fun c => body_obligation5 𝒱₀₀ () (V28 m (outsK m) c) c)

theorem hpreK5 (c : Dev nD) :
    iprop(StableHlo.held (c : Thread nD τ) (Pipeline.ucRefs τ sig) (V28 m (outsK m) c) ∗ (R c : sProp 𝕄)) ⊢ (RK5 m).pre c :=
  hpre5' m (outsK m) 𝒱₀₀ L₀ lv₀ () (pdatsK m) (fun _ => rfl) (fun c => body_obligation5 𝒱₀₀ () (V28 m (outsK m) c) c) c

theorem hpostK5 (c : Dev nD) :
    (RK5 m).post c ⊢ iprop(StableHlo.held (c : Thread nD τ) (Pipeline.ucRefs τ sig) (V29 m (outsK m) c) ∗ (R c : sProp 𝕄)) :=
  hpost5' m (outsK m) 𝒱₀₀ L₀ lv₀ () (pdatsK m) (fun _ => rfl) (fun c => body_obligation5 𝒱₀₀ () (V28 m (outsK m) c) c)
    (fun c => outsOf_5 m fK c) c

noncomputable def RK6 : RegionSeg (pcfgs (F := F)) GenP.adm (pdatsK m) () defs₀ 𝒱₀₀ L₀ lv₀ (6 : Fin 24) :=
  R6' m (outsK m) 𝒱₀₀ L₀ lv₀ () (pdatsK m) (fun _ => rfl) (fun c => body6 (V37 m (outsK m) c) 𝒱₀₀ () c)

theorem hpreK6 (c : Dev nD) :
    iprop(StableHlo.held (c : Thread nD τ) (Pipeline.ucRefs τ sig) (V37 m (outsK m) c) ∗ (R c : sProp 𝕄)) ⊢ (RK6 m).pre c :=
  hpre6' m (outsK m) 𝒱₀₀ L₀ lv₀ () (pdatsK m) (fun _ => rfl) (fun c => body6 (V37 m (outsK m) c) 𝒱₀₀ () c) c

theorem hpostK6 (c : Dev nD) :
    (RK6 m).post c ⊢ iprop(StableHlo.held (c : Thread nD τ) (Pipeline.ucRefs τ sig) (V38 m (outsK m) c) ∗ (R c : sProp 𝕄)) :=
  hpost6' m (outsK m) 𝒱₀₀ L₀ lv₀ () (pdatsK m) (fun _ => rfl) (fun c => body6 (V37 m (outsK m) c) 𝒱₀₀ () c)
    (fun c => outsOf_6 m fK c) c

noncomputable def RK7 : RegionSeg (pcfgs (F := F)) GenP.adm (pdatsK m) () defs₀ 𝒱₀₀ L₀ lv₀ (7 : Fin 24) :=
  R7' m (outsK m) 𝒱₀₀ L₀ lv₀ () (pdatsK m) (fun _ => rfl) (fun c => body_obligation7 𝒱₀₀ () (V39 m (outsK m) c) c)

theorem hpreK7 (c : Dev nD) :
    iprop(StableHlo.held (c : Thread nD τ) (Pipeline.ucRefs τ sig) (V39 m (outsK m) c) ∗ (R c : sProp 𝕄)) ⊢ (RK7 m).pre c :=
  hpre7' m (outsK m) 𝒱₀₀ L₀ lv₀ () (pdatsK m) (fun _ => rfl) (fun c => body_obligation7 𝒱₀₀ () (V39 m (outsK m) c) c) c

theorem hpostK7 (c : Dev nD) :
    (RK7 m).post c ⊢ iprop(StableHlo.held (c : Thread nD τ) (Pipeline.ucRefs τ sig) (V40 m (outsK m) c) ∗ (R c : sProp 𝕄)) :=
  hpost7' m (outsK m) 𝒱₀₀ L₀ lv₀ () (pdatsK m) (fun _ => rfl) (fun c => body_obligation7 𝒱₀₀ () (V39 m (outsK m) c) c)
    (fun c => outsOf_7 m fK c) c

noncomputable def RK8 : RegionSeg (pcfgs (F := F)) GenP.adm (pdatsK m) () defs₀ 𝒱₀₀ L₀ lv₀ (8 : Fin 24) :=
  R8' m (outsK m) 𝒱₀₀ L₀ lv₀ () (pdatsK m) (fun _ => rfl) (fun c => body8 (V48 m (outsK m) c) 𝒱₀₀ () c)

theorem hpreK8 (c : Dev nD) :
    iprop(StableHlo.held (c : Thread nD τ) (Pipeline.ucRefs τ sig) (V48 m (outsK m) c) ∗ (R c : sProp 𝕄)) ⊢ (RK8 m).pre c :=
  hpre8' m (outsK m) 𝒱₀₀ L₀ lv₀ () (pdatsK m) (fun _ => rfl) (fun c => body8 (V48 m (outsK m) c) 𝒱₀₀ () c) c

theorem hpostK8 (c : Dev nD) :
    (RK8 m).post c ⊢ iprop(StableHlo.held (c : Thread nD τ) (Pipeline.ucRefs τ sig) (V49 m (outsK m) c) ∗ (R c : sProp 𝕄)) :=
  hpost8' m (outsK m) 𝒱₀₀ L₀ lv₀ () (pdatsK m) (fun _ => rfl) (fun c => body8 (V48 m (outsK m) c) 𝒱₀₀ () c)
    (fun c => outsOf_8 m fK c) c

noncomputable def RK9 : RegionSeg (pcfgs (F := F)) GenP.adm (pdatsK m) () defs₀ 𝒱₀₀ L₀ lv₀ (9 : Fin 24) :=
  R9' m (outsK m) 𝒱₀₀ L₀ lv₀ () (pdatsK m) (fun _ => rfl) (fun c => body_obligation9 𝒱₀₀ () (V50 m (outsK m) c) c)

theorem hpreK9 (c : Dev nD) :
    iprop(StableHlo.held (c : Thread nD τ) (Pipeline.ucRefs τ sig) (V50 m (outsK m) c) ∗ (R c : sProp 𝕄)) ⊢ (RK9 m).pre c :=
  hpre9' m (outsK m) 𝒱₀₀ L₀ lv₀ () (pdatsK m) (fun _ => rfl) (fun c => body_obligation9 𝒱₀₀ () (V50 m (outsK m) c) c) c

theorem hpostK9 (c : Dev nD) :
    (RK9 m).post c ⊢ iprop(StableHlo.held (c : Thread nD τ) (Pipeline.ucRefs τ sig) (V51 m (outsK m) c) ∗ (R c : sProp 𝕄)) :=
  hpost9' m (outsK m) 𝒱₀₀ L₀ lv₀ () (pdatsK m) (fun _ => rfl) (fun c => body_obligation9 𝒱₀₀ () (V50 m (outsK m) c) c)
    (fun c => outsOf_9 m fK c) c

noncomputable def RK10 : RegionSeg (pcfgs (F := F)) GenP.adm (pdatsK m) () defs₀ 𝒱₀₀ L₀ lv₀ (10 : Fin 24) :=
  R10' m (outsK m) 𝒱₀₀ L₀ lv₀ () (pdatsK m) (fun _ => rfl) (fun c => body10 (V59 m (outsK m) c) 𝒱₀₀ () c)

theorem hpreK10 (c : Dev nD) :
    iprop(StableHlo.held (c : Thread nD τ) (Pipeline.ucRefs τ sig) (V59 m (outsK m) c) ∗ (R c : sProp 𝕄)) ⊢ (RK10 m).pre c :=
  hpre10' m (outsK m) 𝒱₀₀ L₀ lv₀ () (pdatsK m) (fun _ => rfl) (fun c => body10 (V59 m (outsK m) c) 𝒱₀₀ () c) c

theorem hpostK10 (c : Dev nD) :
    (RK10 m).post c ⊢ iprop(StableHlo.held (c : Thread nD τ) (Pipeline.ucRefs τ sig) (V60 m (outsK m) c) ∗ (R c : sProp 𝕄)) :=
  hpost10' m (outsK m) 𝒱₀₀ L₀ lv₀ () (pdatsK m) (fun _ => rfl) (fun c => body10 (V59 m (outsK m) c) 𝒱₀₀ () c)
    (fun c => outsOf_10 m fK c) c

noncomputable def RK11 : RegionSeg (pcfgs (F := F)) GenP.adm (pdatsK m) () defs₀ 𝒱₀₀ L₀ lv₀ (11 : Fin 24) :=
  R11' m (outsK m) 𝒱₀₀ L₀ lv₀ () (pdatsK m) (fun _ => rfl) (fun c => body_obligation11 𝒱₀₀ () (V61 m (outsK m) c) c)

theorem hpreK11 (c : Dev nD) :
    iprop(StableHlo.held (c : Thread nD τ) (Pipeline.ucRefs τ sig) (V61 m (outsK m) c) ∗ (R c : sProp 𝕄)) ⊢ (RK11 m).pre c :=
  hpre11' m (outsK m) 𝒱₀₀ L₀ lv₀ () (pdatsK m) (fun _ => rfl) (fun c => body_obligation11 𝒱₀₀ () (V61 m (outsK m) c) c) c

theorem hpostK11 (c : Dev nD) :
    (RK11 m).post c ⊢ iprop(StableHlo.held (c : Thread nD τ) (Pipeline.ucRefs τ sig) (V62 m (outsK m) c) ∗ (R c : sProp 𝕄)) :=
  hpost11' m (outsK m) 𝒱₀₀ L₀ lv₀ () (pdatsK m) (fun _ => rfl) (fun c => body_obligation11 𝒱₀₀ () (V61 m (outsK m) c) c)
    (fun c => outsOf_11 m fK c) c

noncomputable def RK12 : RegionSeg (pcfgs (F := F)) GenP.adm (pdatsK m) () defs₀ 𝒱₀₀ L₀ lv₀ (12 : Fin 24) :=
  R12' m (outsK m) 𝒱₀₀ L₀ lv₀ () (pdatsK m) (fun _ => rfl) (fun c => body12 (V70 m (outsK m) c) 𝒱₀₀ () c)

theorem hpreK12 (c : Dev nD) :
    iprop(StableHlo.held (c : Thread nD τ) (Pipeline.ucRefs τ sig) (V70 m (outsK m) c) ∗ (R c : sProp 𝕄)) ⊢ (RK12 m).pre c :=
  hpre12' m (outsK m) 𝒱₀₀ L₀ lv₀ () (pdatsK m) (fun _ => rfl) (fun c => body12 (V70 m (outsK m) c) 𝒱₀₀ () c) c

theorem hpostK12 (c : Dev nD) :
    (RK12 m).post c ⊢ iprop(StableHlo.held (c : Thread nD τ) (Pipeline.ucRefs τ sig) (V71 m (outsK m) c) ∗ (R c : sProp 𝕄)) :=
  hpost12' m (outsK m) 𝒱₀₀ L₀ lv₀ () (pdatsK m) (fun _ => rfl) (fun c => body12 (V70 m (outsK m) c) 𝒱₀₀ () c)
    (fun c => outsOf_12 m fK c) c

noncomputable def RK13 : RegionSeg (pcfgs (F := F)) GenP.adm (pdatsK m) () defs₀ 𝒱₀₀ L₀ lv₀ (13 : Fin 24) :=
  R13' m (outsK m) 𝒱₀₀ L₀ lv₀ () (pdatsK m) (fun _ => rfl) (fun c => body_obligation13 𝒱₀₀ () (V72 m (outsK m) c) c)

theorem hpreK13 (c : Dev nD) :
    iprop(StableHlo.held (c : Thread nD τ) (Pipeline.ucRefs τ sig) (V72 m (outsK m) c) ∗ (R c : sProp 𝕄)) ⊢ (RK13 m).pre c :=
  hpre13' m (outsK m) 𝒱₀₀ L₀ lv₀ () (pdatsK m) (fun _ => rfl) (fun c => body_obligation13 𝒱₀₀ () (V72 m (outsK m) c) c) c

theorem hpostK13 (c : Dev nD) :
    (RK13 m).post c ⊢ iprop(StableHlo.held (c : Thread nD τ) (Pipeline.ucRefs τ sig) (V73 m (outsK m) c) ∗ (R c : sProp 𝕄)) :=
  hpost13' m (outsK m) 𝒱₀₀ L₀ lv₀ () (pdatsK m) (fun _ => rfl) (fun c => body_obligation13 𝒱₀₀ () (V72 m (outsK m) c) c)
    (fun c => outsOf_13 m fK c) c

noncomputable def RK14 : RegionSeg (pcfgs (F := F)) GenP.adm (pdatsK m) () defs₀ 𝒱₀₀ L₀ lv₀ (14 : Fin 24) :=
  R14' m (outsK m) 𝒱₀₀ L₀ lv₀ () (pdatsK m) (fun _ => rfl) (fun c => body14 (V81 m (outsK m) c) 𝒱₀₀ () c)

theorem hpreK14 (c : Dev nD) :
    iprop(StableHlo.held (c : Thread nD τ) (Pipeline.ucRefs τ sig) (V81 m (outsK m) c) ∗ (R c : sProp 𝕄)) ⊢ (RK14 m).pre c :=
  hpre14' m (outsK m) 𝒱₀₀ L₀ lv₀ () (pdatsK m) (fun _ => rfl) (fun c => body14 (V81 m (outsK m) c) 𝒱₀₀ () c) c

theorem hpostK14 (c : Dev nD) :
    (RK14 m).post c ⊢ iprop(StableHlo.held (c : Thread nD τ) (Pipeline.ucRefs τ sig) (V82 m (outsK m) c) ∗ (R c : sProp 𝕄)) :=
  hpost14' m (outsK m) 𝒱₀₀ L₀ lv₀ () (pdatsK m) (fun _ => rfl) (fun c => body14 (V81 m (outsK m) c) 𝒱₀₀ () c)
    (fun c => outsOf_14 m fK c) c

noncomputable def RK15 : RegionSeg (pcfgs (F := F)) GenP.adm (pdatsK m) () defs₀ 𝒱₀₀ L₀ lv₀ (15 : Fin 24) :=
  R15' m (outsK m) 𝒱₀₀ L₀ lv₀ () (pdatsK m) (fun _ => rfl) (fun c => body_obligation15 𝒱₀₀ () (V83 m (outsK m) c) c)

theorem hpreK15 (c : Dev nD) :
    iprop(StableHlo.held (c : Thread nD τ) (Pipeline.ucRefs τ sig) (V83 m (outsK m) c) ∗ (R c : sProp 𝕄)) ⊢ (RK15 m).pre c :=
  hpre15' m (outsK m) 𝒱₀₀ L₀ lv₀ () (pdatsK m) (fun _ => rfl) (fun c => body_obligation15 𝒱₀₀ () (V83 m (outsK m) c) c) c

theorem hpostK15 (c : Dev nD) :
    (RK15 m).post c ⊢ iprop(StableHlo.held (c : Thread nD τ) (Pipeline.ucRefs τ sig) (V84 m (outsK m) c) ∗ (R c : sProp 𝕄)) :=
  hpost15' m (outsK m) 𝒱₀₀ L₀ lv₀ () (pdatsK m) (fun _ => rfl) (fun c => body_obligation15 𝒱₀₀ () (V83 m (outsK m) c) c)
    (fun c => outsOf_15 m fK c) c

noncomputable def RK16 : RegionSeg (pcfgs (F := F)) GenP.adm (pdatsK m) () defs₀ 𝒱₀₀ L₀ lv₀ (16 : Fin 24) :=
  R16' m (outsK m) 𝒱₀₀ L₀ lv₀ () (pdatsK m) (fun _ => rfl) (fun c => body16 (V92 m (outsK m) c) 𝒱₀₀ () c)

theorem hpreK16 (c : Dev nD) :
    iprop(StableHlo.held (c : Thread nD τ) (Pipeline.ucRefs τ sig) (V92 m (outsK m) c) ∗ (R c : sProp 𝕄)) ⊢ (RK16 m).pre c :=
  hpre16' m (outsK m) 𝒱₀₀ L₀ lv₀ () (pdatsK m) (fun _ => rfl) (fun c => body16 (V92 m (outsK m) c) 𝒱₀₀ () c) c

theorem hpostK16 (c : Dev nD) :
    (RK16 m).post c ⊢ iprop(StableHlo.held (c : Thread nD τ) (Pipeline.ucRefs τ sig) (V93 m (outsK m) c) ∗ (R c : sProp 𝕄)) :=
  hpost16' m (outsK m) 𝒱₀₀ L₀ lv₀ () (pdatsK m) (fun _ => rfl) (fun c => body16 (V92 m (outsK m) c) 𝒱₀₀ () c)
    (fun c => outsOf_16 m fK c) c

noncomputable def RK17 : RegionSeg (pcfgs (F := F)) GenP.adm (pdatsK m) () defs₀ 𝒱₀₀ L₀ lv₀ (17 : Fin 24) :=
  R17' m (outsK m) 𝒱₀₀ L₀ lv₀ () (pdatsK m) (fun _ => rfl) (fun c => body_obligation17 𝒱₀₀ () (V94 m (outsK m) c) c)

theorem hpreK17 (c : Dev nD) :
    iprop(StableHlo.held (c : Thread nD τ) (Pipeline.ucRefs τ sig) (V94 m (outsK m) c) ∗ (R c : sProp 𝕄)) ⊢ (RK17 m).pre c :=
  hpre17' m (outsK m) 𝒱₀₀ L₀ lv₀ () (pdatsK m) (fun _ => rfl) (fun c => body_obligation17 𝒱₀₀ () (V94 m (outsK m) c) c) c

theorem hpostK17 (c : Dev nD) :
    (RK17 m).post c ⊢ iprop(StableHlo.held (c : Thread nD τ) (Pipeline.ucRefs τ sig) (V95 m (outsK m) c) ∗ (R c : sProp 𝕄)) :=
  hpost17' m (outsK m) 𝒱₀₀ L₀ lv₀ () (pdatsK m) (fun _ => rfl) (fun c => body_obligation17 𝒱₀₀ () (V94 m (outsK m) c) c)
    (fun c => outsOf_17 m fK c) c

noncomputable def RK18 : RegionSeg (pcfgs (F := F)) GenP.adm (pdatsK m) () defs₀ 𝒱₀₀ L₀ lv₀ (18 : Fin 24) :=
  R18' m (outsK m) 𝒱₀₀ L₀ lv₀ () (pdatsK m) (fun _ => rfl) (fun c => body18 (V103 m (outsK m) c) 𝒱₀₀ () c)

theorem hpreK18 (c : Dev nD) :
    iprop(StableHlo.held (c : Thread nD τ) (Pipeline.ucRefs τ sig) (V103 m (outsK m) c) ∗ (R c : sProp 𝕄)) ⊢ (RK18 m).pre c :=
  hpre18' m (outsK m) 𝒱₀₀ L₀ lv₀ () (pdatsK m) (fun _ => rfl) (fun c => body18 (V103 m (outsK m) c) 𝒱₀₀ () c) c

theorem hpostK18 (c : Dev nD) :
    (RK18 m).post c ⊢ iprop(StableHlo.held (c : Thread nD τ) (Pipeline.ucRefs τ sig) (V104 m (outsK m) c) ∗ (R c : sProp 𝕄)) :=
  hpost18' m (outsK m) 𝒱₀₀ L₀ lv₀ () (pdatsK m) (fun _ => rfl) (fun c => body18 (V103 m (outsK m) c) 𝒱₀₀ () c)
    (fun c => outsOf_18 m fK c) c

noncomputable def RK19 : RegionSeg (pcfgs (F := F)) GenP.adm (pdatsK m) () defs₀ 𝒱₀₀ L₀ lv₀ (19 : Fin 24) :=
  R19' m (outsK m) 𝒱₀₀ L₀ lv₀ () (pdatsK m) (fun _ => rfl) (fun c => body_obligation19 𝒱₀₀ () (V105 m (outsK m) c) c)

theorem hpreK19 (c : Dev nD) :
    iprop(StableHlo.held (c : Thread nD τ) (Pipeline.ucRefs τ sig) (V105 m (outsK m) c) ∗ (R c : sProp 𝕄)) ⊢ (RK19 m).pre c :=
  hpre19' m (outsK m) 𝒱₀₀ L₀ lv₀ () (pdatsK m) (fun _ => rfl) (fun c => body_obligation19 𝒱₀₀ () (V105 m (outsK m) c) c) c

theorem hpostK19 (c : Dev nD) :
    (RK19 m).post c ⊢ iprop(StableHlo.held (c : Thread nD τ) (Pipeline.ucRefs τ sig) (V106 m (outsK m) c) ∗ (R c : sProp 𝕄)) :=
  hpost19' m (outsK m) 𝒱₀₀ L₀ lv₀ () (pdatsK m) (fun _ => rfl) (fun c => body_obligation19 𝒱₀₀ () (V105 m (outsK m) c) c)
    (fun c => outsOf_19 m fK c) c

noncomputable def RK20 : RegionSeg (pcfgs (F := F)) GenP.adm (pdatsK m) () defs₀ 𝒱₀₀ L₀ lv₀ (20 : Fin 24) :=
  R20' m (outsK m) 𝒱₀₀ L₀ lv₀ () (pdatsK m) (fun _ => rfl) (fun c => body20 (V114 m (outsK m) c) 𝒱₀₀ () c)

theorem hpreK20 (c : Dev nD) :
    iprop(StableHlo.held (c : Thread nD τ) (Pipeline.ucRefs τ sig) (V114 m (outsK m) c) ∗ (R c : sProp 𝕄)) ⊢ (RK20 m).pre c :=
  hpre20' m (outsK m) 𝒱₀₀ L₀ lv₀ () (pdatsK m) (fun _ => rfl) (fun c => body20 (V114 m (outsK m) c) 𝒱₀₀ () c) c

theorem hpostK20 (c : Dev nD) :
    (RK20 m).post c ⊢ iprop(StableHlo.held (c : Thread nD τ) (Pipeline.ucRefs τ sig) (V115 m (outsK m) c) ∗ (R c : sProp 𝕄)) :=
  hpost20' m (outsK m) 𝒱₀₀ L₀ lv₀ () (pdatsK m) (fun _ => rfl) (fun c => body20 (V114 m (outsK m) c) 𝒱₀₀ () c)
    (fun c => outsOf_20 m fK c) c

noncomputable def RK21 : RegionSeg (pcfgs (F := F)) GenP.adm (pdatsK m) () defs₀ 𝒱₀₀ L₀ lv₀ (21 : Fin 24) :=
  R21' m (outsK m) 𝒱₀₀ L₀ lv₀ () (pdatsK m) (fun _ => rfl) (fun c => body_obligation21 𝒱₀₀ () (V116 m (outsK m) c) c)

theorem hpreK21 (c : Dev nD) :
    iprop(StableHlo.held (c : Thread nD τ) (Pipeline.ucRefs τ sig) (V116 m (outsK m) c) ∗ (R c : sProp 𝕄)) ⊢ (RK21 m).pre c :=
  hpre21' m (outsK m) 𝒱₀₀ L₀ lv₀ () (pdatsK m) (fun _ => rfl) (fun c => body_obligation21 𝒱₀₀ () (V116 m (outsK m) c) c) c

theorem hpostK21 (c : Dev nD) :
    (RK21 m).post c ⊢ iprop(StableHlo.held (c : Thread nD τ) (Pipeline.ucRefs τ sig) (V117 m (outsK m) c) ∗ (R c : sProp 𝕄)) :=
  hpost21' m (outsK m) 𝒱₀₀ L₀ lv₀ () (pdatsK m) (fun _ => rfl) (fun c => body_obligation21 𝒱₀₀ () (V116 m (outsK m) c) c)
    (fun c => outsOf_21 m fK c) c

noncomputable def RK22 : RegionSeg (pcfgs (F := F)) GenP.adm (pdatsK m) () defs₀ 𝒱₀₀ L₀ lv₀ (22 : Fin 24) :=
  R22' m (outsK m) 𝒱₀₀ L₀ lv₀ () (pdatsK m) (fun _ => rfl) (fun c => body22 (V125 m (outsK m) c) 𝒱₀₀ () c)

theorem hpreK22 (c : Dev nD) :
    iprop(StableHlo.held (c : Thread nD τ) (Pipeline.ucRefs τ sig) (V125 m (outsK m) c) ∗ (R c : sProp 𝕄)) ⊢ (RK22 m).pre c :=
  hpre22' m (outsK m) 𝒱₀₀ L₀ lv₀ () (pdatsK m) (fun _ => rfl) (fun c => body22 (V125 m (outsK m) c) 𝒱₀₀ () c) c

theorem hpostK22 (c : Dev nD) :
    (RK22 m).post c ⊢ iprop(StableHlo.held (c : Thread nD τ) (Pipeline.ucRefs τ sig) (V126 m (outsK m) c) ∗ (R c : sProp 𝕄)) :=
  hpost22' m (outsK m) 𝒱₀₀ L₀ lv₀ () (pdatsK m) (fun _ => rfl) (fun c => body22 (V125 m (outsK m) c) 𝒱₀₀ () c)
    (fun c => outsOf_22 m fK c) c

noncomputable def RK23 : RegionSeg (pcfgs (F := F)) GenP.adm (pdatsK m) () defs₀ 𝒱₀₀ L₀ lv₀ (23 : Fin 24) :=
  R23' m (outsK m) 𝒱₀₀ L₀ lv₀ () (pdatsK m) (fun _ => rfl) (fun c => body_obligation23 𝒱₀₀ () (V127 m (outsK m) c) c)

theorem hpreK23 (c : Dev nD) :
    iprop(StableHlo.held (c : Thread nD τ) (Pipeline.ucRefs τ sig) (V127 m (outsK m) c) ∗ (R c : sProp 𝕄)) ⊢ (RK23 m).pre c :=
  hpre23' m (outsK m) 𝒱₀₀ L₀ lv₀ () (pdatsK m) (fun _ => rfl) (fun c => body_obligation23 𝒱₀₀ () (V127 m (outsK m) c) c) c

theorem hpostK23 (c : Dev nD) :
    (RK23 m).post c ⊢ iprop(StableHlo.held (c : Thread nD τ) (Pipeline.ucRefs τ sig) (V128 m (outsK m) c) ∗ (R c : sProp 𝕄)) :=
  hpost23' m (outsK m) 𝒱₀₀ L₀ lv₀ () (pdatsK m) (fun _ => rfl) (fun c => body_obligation23 𝒱₀₀ () (V127 m (outsK m) c) c)
    (fun c => outsOf_23 m fK c) c

end Cert.KernelIdeal.Hand

end
-- ==== Proof.FrameKI.lean ====
/-
  The frame: the regions' records (Plugs.lean) and the launch's arguments (LaunchArgs.lean) handed to the conditional
  frame (every argument array ends holding its launch contents).
-/
import proofs.«169706_j68856915690108_1_alg».proof.Proof.Plugs
import proofs.«169706_j68856915690108_1_alg».proof.Proof.LaunchArgs

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Every weakly fair execution of @main from memory m with zero counters terminates and every final memory holds each argument as launched. -/
theorem frame_pi (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  GenP.frame_cond m (EP₀ (F := F)) () 𝒱₀₀ L₀ lv₀ hL₀ ρ (outsK m) (pdatsK m) O₀ (G₀ (F := F)) u₀ (hu₀ (F := F)) (E₀ (F := F)) (hE0 (F := F) ρ) (hE24 (F := F))
    (RK0 m) (hpreK0 m) (hpostK0 m)
    (RK1 m) (hpreK1 m) (hpostK1 m)
    (RK2 m) (hpreK2 m) (hpostK2 m)
    (RK3 m) (hpreK3 m) (hpostK3 m)
    (RK4 m) (hpreK4 m) (hpostK4 m)
    (RK5 m) (hpreK5 m) (hpostK5 m)
    (RK6 m) (hpreK6 m) (hpostK6 m)
    (RK7 m) (hpreK7 m) (hpostK7 m)
    (RK8 m) (hpreK8 m) (hpostK8 m)
    (RK9 m) (hpreK9 m) (hpostK9 m)
    (RK10 m) (hpreK10 m) (hpostK10 m)
    (RK11 m) (hpreK11 m) (hpostK11 m)
    (RK12 m) (hpreK12 m) (hpostK12 m)
    (RK13 m) (hpreK13 m) (hpostK13 m)
    (RK14 m) (hpreK14 m) (hpostK14 m)
    (RK15 m) (hpreK15 m) (hpostK15 m)
    (RK16 m) (hpreK16 m) (hpostK16 m)
    (RK17 m) (hpreK17 m) (hpostK17 m)
    (RK18 m) (hpreK18 m) (hpostK18 m)
    (RK19 m) (hpreK19 m) (hpostK19 m)
    (RK20 m) (hpreK20 m) (hpostK20 m)
    (RK21 m) (hpreK21 m) (hpostK21 m)
    (RK22 m) (hpreK22 m) (hpostK22 m)
    (RK23 m) (hpreK23 m) (hpostK23 m)

end Cert.KernelIdeal.Hand

end
-- ==== Proof.HostFns.lean ====
import Idealize.ShloMosaic.Lib.Sig
import Idealize.ShloMosaic.Lib.StableHlo
import Idealize.ShloMosaic.PureOps

/-! The host-side functions of the graph network, as plain terms over buffer contents, generic in the
    float values: the two-layer embedding, the batch-normalised perceptron, the mean of the adjacency
    total, the average of the layer outputs and the mean squared error. Both programs apply exactly
    these to their buffers. -/

noncomputable section

namespace Cert.Hand

open Idealize.ShloMosaic

variable {F : FTy → Type} [FloatOps F]

abbrev Sx : Shape := ⟨2, ![4096, 256]⟩
abbrev Sw2 : Shape := ⟨3, ![2, 256, 256]⟩
abbrev Sb2 : Shape := ⟨2, ![2, 256]⟩
abbrev Sw32 : Shape := ⟨4, ![3, 2, 256, 256]⟩
abbrev Sb32 : Shape := ⟨3, ![3, 2, 256]⟩
abbrev S0 : Shape := ⟨0, ![]⟩
abbrev Sw1 : Shape := ⟨3, ![1, 256, 256]⟩
abbrev Sw : Shape := ⟨2, ![256, 256]⟩
abbrev Sb1 : Shape := ⟨2, ![1, 256]⟩
abbrev Sb : Shape := ⟨1, ![256]⟩
abbrev S11 : Shape := ⟨2, ![1, 1]⟩
abbrev Sw12 : Shape := ⟨4, ![1, 2, 256, 256]⟩
abbrev Sb12 : Shape := ⟨3, ![1, 2, 256]⟩

/-- Contents of an f32 buffer of shape `s`. -/
abbrev T (F : FTy → Type) (s : Shape) : Type := (⟨s, .f32⟩ : BufTy).Contents (Elt F)

/-- The matrix product's dimensions: rows of the left by columns of the right. -/
def dotD : DotDims Sx Sw Sx where
  lhsContracting := [1]
  rhsContracting := [0]
  lhsNonContracting := [0]
  rhsNonContracting := [1]
  lhsBatch := []
  rhsBatch := []
  wf := by decide

theorem redCols : Sx.ReducesTo [0] Sb := by decide
theorem redAll : Sx.ReducesTo [0, 1] S0 := by decide
theorem h0 : 0 < S0.numel := by decide

/-- A scalar constant. -/
def cst (b : BitVec 32) : T F S0 := constant S0 .f32 b
/-- A constant matrix. -/
def fill (b : BitVec 32) : T F Sx := broadcastInDim Sx ![] (by decide) (cst b)
/-- A constant row. -/
def fillB (b : BitVec 32) : T F Sb := broadcastInDim Sb ![] (by decide) (cst b)
/-- A row repeated down the matrix. -/
def rows (b : T F Sb) : T F Sx := broadcastInDim Sx ![0, 1] (by decide) (broadcastInDim Sb1 ![1] (by decide) b : T F Sb1)

/-- elu x = x where x > 0, else 1 · expm1 x. -/
def elu (x : T F Sx) : T F Sx :=
  select (cmpf .ogt x (fill 0x00000000#32)) x
    (mulf (fill 0x3F800000#32) (Host.expm1 (select (cmpf .ogt x (fill 0x00000000#32)) (fill 0x00000000#32) x)))

/-- X · W + b. -/
def lin (X : T F Sx) (W : T F Sw) (b : T F Sb) : T F Sx := addf (Host.dotGeneral dotD none X W) (rows b)

def W2at0 (W : T F Sw2) : T F Sw := shapeCast Sw (extractStridedSlice Sw1 ![0, 0, 0] W (by decide) : T F Sw1) (by decide)
def W2at1 (W : T F Sw2) : T F Sw := shapeCast Sw (extractStridedSlice Sw1 ![1, 0, 0] W (by decide) : T F Sw1) (by decide)
def b2at0 (b : T F Sb2) : T F Sb := shapeCast Sb (extractStridedSlice Sb1 ![0, 0] b (by decide) : T F Sb1) (by decide)
def b2at1 (b : T F Sb2) : T F Sb := shapeCast Sb (extractStridedSlice Sb1 ![1, 0] b (by decide) : T F Sb1) (by decide)
def W3at0 (W : T F Sw32) : T F Sw2 := shapeCast Sw2 (extractStridedSlice Sw12 ![0, 0, 0, 0] W (by decide) : T F Sw12) (by decide)
def W3at1 (W : T F Sw32) : T F Sw2 := shapeCast Sw2 (extractStridedSlice Sw12 ![1, 0, 0, 0] W (by decide) : T F Sw12) (by decide)
def W3at2 (W : T F Sw32) : T F Sw2 := shapeCast Sw2 (extractStridedSlice Sw12 ![2, 0, 0, 0] W (by decide) : T F Sw12) (by decide)
def b3at0 (b : T F Sb32) : T F Sb2 := shapeCast Sb2 (extractStridedSlice Sb12 ![0, 0, 0] b (by decide) : T F Sb12) (by decide)
def b3at1 (b : T F Sb32) : T F Sb2 := shapeCast Sb2 (extractStridedSlice Sb12 ![1, 0, 0] b (by decide) : T F Sb12) (by decide)
def b3at2 (b : T F Sb32) : T F Sb2 := shapeCast Sb2 (extractStridedSlice Sb12 ![2, 0, 0] b (by decide) : T F Sb12) (by decide)

/-- The embedding: two affine layers, each followed by elu. -/
def embed (X : T F Sx) (W : T F Sw2) (b : T F Sb2) : T F Sx :=
  elu (lin (elu (lin X (W2at0 W) (b2at0 b))) (W2at1 W) (b2at1 b))

/-- The column means: column sums over 4096. -/
def colMean (h : T F Sx) : T F Sb := Host.divf (Host.reduceAdd h (cst 0x00000000#32) redCols h0) (fillB 0x45800000#32)

/-- The zero correction of the variance. -/
def ddof0 : IVec S0 32 := constantI S0 32 0#32

/-- The column variances (correction `d`): the mean of the squared deviations from the column means, not-a-number
    unless 4096 − d > 0. -/
def colVar (h : T F Sx) (d : IVec S0 32) : T F Sb :=
  select
    (broadcastInDim Sb ![] (by decide) (cmpf .ogt (subf (cst 0x45800000#32) (sitofp .f32 d : T F S0)) (cst 0x00000000#32)))
    (Host.divf
      (Host.reduceAdd
        (mulf
          (subf h (broadcastInDim Sx ![0, 1] (by decide) (Host.divf (broadcastInDim Sb1 ![1] (by decide) (Host.reduceAdd h (cst 0x00000000#32) redCols h0 : T F Sb) : T F Sb1) (broadcastInDim Sb1 ![] (by decide) (cst 0x45800000#32 : T F S0) : T F Sb1))))
          (subf h (broadcastInDim Sx ![0, 1] (by decide) (Host.divf (broadcastInDim Sb1 ![1] (by decide) (Host.reduceAdd h (cst 0x00000000#32) redCols h0 : T F Sb) : T F Sb1) (broadcastInDim Sb1 ![] (by decide) (cst 0x45800000#32 : T F S0) : T F Sb1)))))
        (cst 0x00000000#32) redCols h0)
      (broadcastInDim Sb ![] (by decide) (subf (cst 0x45800000#32) (sitofp .f32 d : T F S0))))
    (fillB 0x7FC00000#32)

/-- Batch normalisation with scale `bn[0]` and shift `bn[1]`. -/
def bnorm (h : T F Sx) (mu var : T F Sb) (bn : T F Sb2) : T F Sx :=
  addf (mulf (mulf (subf h (rows mu)) (rows (Host.rsqrt (addf var (fillB 0x3727C5AC#32))))) (rows (b2at0 bn))) (rows (b2at1 bn))

def relu (x : T F Sx) : T F Sx := maximumf x (fill 0x00000000#32)

/-- The perceptron: affine, batch norm, relu, affine. -/
def mlp (Y : T F Sx) (W : T F Sw2) (b : T F Sb2) (bn : T F Sb2) : T F Sx :=
  lin (relu (bnorm (lin Y (W2at0 W) (b2at0 b)) (colMean (lin Y (W2at0 W) (b2at0 b))) (colVar (lin Y (W2at0 W) (b2at0 b)) ddof0) bn)) (W2at1 W) (b2at1 b)

/-- The adjacency threshold: the total over 4096². -/
def meanOf (total : T F S11) : T F S11 := Host.divf total (broadcastInDim S11 ![] (by decide) (cst 0x4B800000#32))

/-- The average of the three layer outputs. -/
def third (acc : T F Sx) : T F Sx := Host.divf acc (fill 0x40400000#32)

/-- The mean squared error: the sum of squared differences over 4096 · 256. -/
def mse (a b : T F Sx) : T F S0 :=
  Host.divf (Host.reduceAdd (mulf (subf a b) (subf a b)) (cst 0x00000000#32) redAll h0) (cst 0x49800000#32)

end Cert.Hand

end
-- ==== Proof.KHostSt0.lean ====
import proofs.«169706_j68856915690108_1_alg».proof.Proof.Gen.KernelIdeal.Launch
import proofs.«169706_j68856915690108_1_alg».proof.Proof.HostFns
import Idealize.ShloMosaic.Lib.StableHlo.Run

set_option maxRecDepth 7604
set_option maxHeartbeats 4000000

noncomputable section

namespace Cert.KernelIdeal.Hand

open Cert.KernelIdeal.Gen Cert.Hand Idealize.ShloMosaic Idealize.ShloMosaic.TcCoe Idealize.SL.Sem Idealize.ShloMosaic.StableHlo

variable {F : FTy → Type} [FloatOps F]

theorem st_hostOps0_main_v0 (V : Valuation τ sig (Elt F)) :
    (after hostOps0 V main_v0 : T F Sx) = (fill 0x00000000#32) := by
  dsimp only [hostOps0]; after_results_simp <;> rfl

theorem st_hostOps0_main_v8 (V : Valuation τ sig (Elt F)) :
    (after hostOps0 V main_v8 : T F Sx) = (lin (V main_arg0 : T F Sx) (W2at0 (V main_arg4 : T F Sw2)) (b2at0 (V main_arg5 : T F Sb2))) := by
  dsimp only [hostOps0]; after_results_simp <;> rfl

theorem st_hostOps0_1_main_v9 (V : Valuation τ sig (Elt F)) :
    (after hostOps0_1 V main_v9 : T F Sx) = (elu (V main_v8 : T F Sx)) := by
  dsimp only [hostOps0_1]; after_results_simp <;> rfl

theorem st_hostOps0_2_main_v17 (V : Valuation τ sig (Elt F)) :
    (after hostOps0_2 V main_v17 : T F Sx) = (lin (V main_v9 : T F Sx) (W2at1 (V main_arg4 : T F Sw2)) (b2at1 (V main_arg5 : T F Sb2))) := by
  dsimp only [hostOps0_2]; after_results_simp <;> rfl

theorem st_hostOps0_3_main_v18 (V : Valuation τ sig (Elt F)) :
    (after hostOps0_3 V main_v18 : T F Sx) = (elu (V main_v17 : T F Sx)) := by
  dsimp only [hostOps0_3]; after_results_simp <;> rfl

theorem st_hostOps1_main_v21 (V : Valuation τ sig (Elt F)) :
    (after hostOps1 V main_v21 : T F S11) = (meanOf (V main_v19 : T F S11)) := by
  dsimp only [hostOps1]; after_results_simp <;> rfl

theorem st_hostOps2_main_v24 (V : Valuation τ sig (Elt F)) :
    (after hostOps2 V main_v24 : T F Sw2) = (W3at0 (V main_arg6 : T F Sw32)) := by
  dsimp only [hostOps2]; after_results_simp <;> rfl

theorem st_hostOps2_main_v26 (V : Valuation τ sig (Elt F)) :
    (after hostOps2 V main_v26 : T F Sb2) = (b3at0 (V main_arg7 : T F Sb32)) := by
  dsimp only [hostOps2]; after_results_simp <;> rfl

theorem st_hostOps2_main_v28 (V : Valuation τ sig (Elt F)) :
    (after hostOps2 V main_v28 : T F Sb2) = (b3at0 (V main_arg8 : T F Sb32)) := by
  dsimp only [hostOps2]; after_results_simp <;> rfl

theorem st_hostOps2_main_v36 (V : Valuation τ sig (Elt F)) :
    (after hostOps2 V main_v36 : T F Sx) = (lin (V main_v22 : T F Sx) (W2at0 (W3at0 (V main_arg6 : T F Sw32))) (b2at0 (b3at0 (V main_arg7 : T F Sb32)))) := by
  dsimp only [hostOps2]; after_results_simp <;> rfl

theorem st_hostOps2_main_v39 (V : Valuation τ sig (Elt F)) :
    (after hostOps2 V main_v39 : T F Sb) = (colMean (lin (V main_v22 : T F Sx) (W2at0 (W3at0 (V main_arg6 : T F Sw32))) (b2at0 (b3at0 (V main_arg7 : T F Sb32))))) := by
  dsimp only [hostOps2]; after_results_simp <;> rfl

theorem st_hostOps2_main_c (V : Valuation τ sig (Elt F)) :
    (after hostOps2 V main_c : IVec S0 32) = ddof0 := by
  dsimp only [hostOps2]; after_results_simp <;> rfl

theorem st_hostOps2_1_main_v40 (V : Valuation τ sig (Elt F)) :
    (after hostOps2_1 V main_v40 : T F Sb) = (colVar (V main_v36 : T F Sx) (V main_c : IVec S0 32)) := by
  dsimp only [hostOps2_1]; after_results_simp <;> rfl

theorem st_hostOps2_2_main_v59 (V : Valuation τ sig (Elt F)) :
    (after hostOps2_2 V main_v59 : T F Sx) = (bnorm (V main_v36 : T F Sx) (V main_v39 : T F Sb) (V main_v40 : T F Sb) (V main_v28 : T F Sb2)) := by
  dsimp only [hostOps2_2]; after_results_simp <;> rfl

theorem st_hostOps2_3_main_v60 (V : Valuation τ sig (Elt F)) :
    (after hostOps2_3 V main_v60 : T F Sx) = (relu (V main_v59 : T F Sx)) := by
  dsimp only [hostOps2_3]; after_results_simp <;> rfl

theorem st_hostOps2_4_main_v68 (V : Valuation τ sig (Elt F)) :
    (after hostOps2_4 V main_v68 : T F Sx) = (lin (V main_v60 : T F Sx) (W2at1 (V main_v24 : T F Sw2)) (b2at1 (V main_v26 : T F Sb2))) := by
  dsimp only [hostOps2_4]; after_results_simp <;> rfl

theorem st_hostOps2_4_main_v69 (V : Valuation τ sig (Elt F)) :
    (after hostOps2_4 V main_v69 : T F Sx) = (addf (V main_v0 : T F Sx) (lin (V main_v60 : T F Sx) (W2at1 (V main_v24 : T F Sw2)) (b2at1 (V main_v26 : T F Sb2)))) := by
  dsimp only [hostOps2_4]; after_results_simp <;> rfl

theorem st_hostOps2_4_main_v77 (V : Valuation τ sig (Elt F)) :
    (after hostOps2_4 V main_v77 : T F Sx) = (lin (lin (V main_v60 : T F Sx) (W2at1 (V main_v24 : T F Sw2)) (b2at1 (V main_v26 : T F Sb2))) (W2at0 (V main_arg4 : T F Sw2)) (b2at0 (V main_arg5 : T F Sb2))) := by
  dsimp only [hostOps2_4]; after_results_simp <;> rfl

theorem st_hostOps2_5_main_v78 (V : Valuation τ sig (Elt F)) :
    (after hostOps2_5 V main_v78 : T F Sx) = (elu (V main_v77 : T F Sx)) := by
  dsimp only [hostOps2_5]; after_results_simp <;> rfl

theorem st_hostOps2_6_main_v86 (V : Valuation τ sig (Elt F)) :
    (after hostOps2_6 V main_v86 : T F Sx) = (lin (V main_v78 : T F Sx) (W2at1 (V main_arg4 : T F Sw2)) (b2at1 (V main_arg5 : T F Sb2))) := by
  dsimp only [hostOps2_6]; after_results_simp <;> rfl

theorem st_hostOps2_7_main_v87 (V : Valuation τ sig (Elt F)) :
    (after hostOps2_7 V main_v87 : T F Sx) = (elu (V main_v86 : T F Sx)) := by
  dsimp only [hostOps2_7]; after_results_simp <;> rfl

theorem st_hostOps3_main_v90 (V : Valuation τ sig (Elt F)) :
    (after hostOps3 V main_v90 : T F S11) = (meanOf (V main_v88 : T F S11)) := by
  dsimp only [hostOps3]; after_results_simp <;> rfl

theorem st_hostOps4_main_v93 (V : Valuation τ sig (Elt F)) :
    (after hostOps4 V main_v93 : T F Sw2) = (W3at1 (V main_arg6 : T F Sw32)) := by
  dsimp only [hostOps4]; after_results_simp <;> rfl

theorem st_hostOps4_main_v95 (V : Valuation τ sig (Elt F)) :
    (after hostOps4 V main_v95 : T F Sb2) = (b3at1 (V main_arg7 : T F Sb32)) := by
  dsimp only [hostOps4]; after_results_simp <;> rfl

theorem st_hostOps4_main_v97 (V : Valuation τ sig (Elt F)) :
    (after hostOps4 V main_v97 : T F Sb2) = (b3at1 (V main_arg8 : T F Sb32)) := by
  dsimp only [hostOps4]; after_results_simp <;> rfl

theorem st_hostOps4_main_v105 (V : Valuation τ sig (Elt F)) :
    (after hostOps4 V main_v105 : T F Sx) = (lin (V main_v91 : T F Sx) (W2at0 (W3at1 (V main_arg6 : T F Sw32))) (b2at0 (b3at1 (V main_arg7 : T F Sb32)))) := by
  dsimp only [hostOps4]; after_results_simp <;> rfl

theorem st_hostOps4_main_v108 (V : Valuation τ sig (Elt F)) :
    (after hostOps4 V main_v108 : T F Sb) = (colMean (lin (V main_v91 : T F Sx) (W2at0 (W3at1 (V main_arg6 : T F Sw32))) (b2at0 (b3at1 (V main_arg7 : T F Sb32))))) := by
  dsimp only [hostOps4]; after_results_simp <;> rfl

theorem st_hostOps4_main_c_7 (V : Valuation τ sig (Elt F)) :
    (after hostOps4 V main_c_7 : IVec S0 32) = ddof0 := by
  dsimp only [hostOps4]; after_results_simp <;> rfl

theorem st_hostOps4_1_main_v109 (V : Valuation τ sig (Elt F)) :
    (after hostOps4_1 V main_v109 : T F Sb) = (colVar (V main_v105 : T F Sx) (V main_c_7 : IVec S0 32)) := by
  dsimp only [hostOps4_1]; after_results_simp <;> rfl

theorem st_hostOps4_2_main_v128 (V : Valuation τ sig (Elt F)) :
    (after hostOps4_2 V main_v128 : T F Sx) = (bnorm (V main_v105 : T F Sx) (V main_v108 : T F Sb) (V main_v109 : T F Sb) (V main_v97 : T F Sb2)) := by
  dsimp only [hostOps4_2]; after_results_simp <;> rfl

theorem st_hostOps4_3_main_v129 (V : Valuation τ sig (Elt F)) :
    (after hostOps4_3 V main_v129 : T F Sx) = (relu (V main_v128 : T F Sx)) := by
  dsimp only [hostOps4_3]; after_results_simp <;> rfl

theorem st_hostOps4_4_main_v137 (V : Valuation τ sig (Elt F)) :
    (after hostOps4_4 V main_v137 : T F Sx) = (lin (V main_v129 : T F Sx) (W2at1 (V main_v93 : T F Sw2)) (b2at1 (V main_v95 : T F Sb2))) := by
  dsimp only [hostOps4_4]; after_results_simp <;> rfl

theorem st_hostOps4_4_main_v138 (V : Valuation τ sig (Elt F)) :
    (after hostOps4_4 V main_v138 : T F Sx) = (addf (V main_v69 : T F Sx) (lin (V main_v129 : T F Sx) (W2at1 (V main_v93 : T F Sw2)) (b2at1 (V main_v95 : T F Sb2)))) := by
  dsimp only [hostOps4_4]; after_results_simp <;> rfl

theorem st_hostOps4_4_main_v146 (V : Valuation τ sig (Elt F)) :
    (after hostOps4_4 V main_v146 : T F Sx) = (lin (lin (V main_v129 : T F Sx) (W2at1 (V main_v93 : T F Sw2)) (b2at1 (V main_v95 : T F Sb2))) (W2at0 (V main_arg4 : T F Sw2)) (b2at0 (V main_arg5 : T F Sb2))) := by
  dsimp only [hostOps4_4]; after_results_simp <;> rfl

theorem st_hostOps4_5_main_v147 (V : Valuation τ sig (Elt F)) :
    (after hostOps4_5 V main_v147 : T F Sx) = (elu (V main_v146 : T F Sx)) := by
  dsimp only [hostOps4_5]; after_results_simp <;> rfl

theorem st_hostOps4_6_main_v155 (V : Valuation τ sig (Elt F)) :
    (after hostOps4_6 V main_v155 : T F Sx) = (lin (V main_v147 : T F Sx) (W2at1 (V main_arg4 : T F Sw2)) (b2at1 (V main_arg5 : T F Sb2))) := by
  dsimp only [hostOps4_6]; after_results_simp <;> rfl

theorem st_hostOps4_7_main_v156 (V : Valuation τ sig (Elt F)) :
    (after hostOps4_7 V main_v156 : T F Sx) = (elu (V main_v155 : T F Sx)) := by
  dsimp only [hostOps4_7]; after_results_simp <;> rfl

theorem st_hostOps5_main_v159 (V : Valuation τ sig (Elt F)) :
    (after hostOps5 V main_v159 : T F S11) = (meanOf (V main_v157 : T F S11)) := by
  dsimp only [hostOps5]; after_results_simp <;> rfl

theorem st_hostOps6_main_v162 (V : Valuation τ sig (Elt F)) :
    (after hostOps6 V main_v162 : T F Sw2) = (W3at2 (V main_arg6 : T F Sw32)) := by
  dsimp only [hostOps6]; after_results_simp <;> rfl

theorem st_hostOps6_main_v164 (V : Valuation τ sig (Elt F)) :
    (after hostOps6 V main_v164 : T F Sb2) = (b3at2 (V main_arg7 : T F Sb32)) := by
  dsimp only [hostOps6]; after_results_simp <;> rfl

theorem st_hostOps6_main_v166 (V : Valuation τ sig (Elt F)) :
    (after hostOps6 V main_v166 : T F Sb2) = (b3at2 (V main_arg8 : T F Sb32)) := by
  dsimp only [hostOps6]; after_results_simp <;> rfl

theorem st_hostOps6_main_v174 (V : Valuation τ sig (Elt F)) :
    (after hostOps6 V main_v174 : T F Sx) = (lin (V main_v160 : T F Sx) (W2at0 (W3at2 (V main_arg6 : T F Sw32))) (b2at0 (b3at2 (V main_arg7 : T F Sb32)))) := by
  dsimp only [hostOps6]; after_results_simp <;> rfl

theorem st_hostOps6_main_v177 (V : Valuation τ sig (Elt F)) :
    (after hostOps6 V main_v177 : T F Sb) = (colMean (lin (V main_v160 : T F Sx) (W2at0 (W3at2 (V main_arg6 : T F Sw32))) (b2at0 (b3at2 (V main_arg7 : T F Sb32))))) := by
  dsimp only [hostOps6]; after_results_simp <;> rfl

theorem st_hostOps6_main_c_12 (V : Valuation τ sig (Elt F)) :
    (after hostOps6 V main_c_12 : IVec S0 32) = ddof0 := by
  dsimp only [hostOps6]; after_results_simp <;> rfl

theorem st_hostOps6_1_main_v178 (V : Valuation τ sig (Elt F)) :
    (after hostOps6_1 V main_v178 : T F Sb) = (colVar (V main_v174 : T F Sx) (V main_c_12 : IVec S0 32)) := by
  dsimp only [hostOps6_1]; after_results_simp <;> rfl

theorem st_hostOps6_2_main_v197 (V : Valuation τ sig (Elt F)) :
    (after hostOps6_2 V main_v197 : T F Sx) = (bnorm (V main_v174 : T F Sx) (V main_v177 : T F Sb) (V main_v178 : T F Sb) (V main_v166 : T F Sb2)) := by
  dsimp only [hostOps6_2]; after_results_simp <;> rfl

theorem st_hostOps6_3_main_v198 (V : Valuation τ sig (Elt F)) :
    (after hostOps6_3 V main_v198 : T F Sx) = (relu (V main_v197 : T F Sx)) := by
  dsimp only [hostOps6_3]; after_results_simp <;> rfl

theorem st_hostOps6_4_main_v206 (V : Valuation τ sig (Elt F)) :
    (after hostOps6_4 V main_v206 : T F Sx) = (lin (V main_v198 : T F Sx) (W2at1 (V main_v162 : T F Sw2)) (b2at1 (V main_v164 : T F Sb2))) := by
  dsimp only [hostOps6_4]; after_results_simp <;> rfl

theorem st_hostOps6_4_main_v207 (V : Valuation τ sig (Elt F)) :
    (after hostOps6_4 V main_v207 : T F Sx) = (addf (V main_v138 : T F Sx) (lin (V main_v198 : T F Sx) (W2at1 (V main_v162 : T F Sw2)) (b2at1 (V main_v164 : T F Sb2)))) := by
  dsimp only [hostOps6_4]; after_results_simp <;> rfl

theorem st_hostOps6_4_main_v209 (V : Valuation τ sig (Elt F)) :
    (after hostOps6_4 V main_v209 : T F Sx) = (third (addf (V main_v138 : T F Sx) (lin (V main_v198 : T F Sx) (W2at1 (V main_v162 : T F Sw2)) (b2at1 (V main_v164 : T F Sb2))))) := by
  dsimp only [hostOps6_4]; after_results_simp <;> rfl

theorem st_hostOps6_4_main_v210 (V : Valuation τ sig (Elt F)) :
    (after hostOps6_4 V main_v210 : T F Sx) = (fill 0x00000000#32) := by
  dsimp only [hostOps6_4]; after_results_simp <;> rfl

end Cert.KernelIdeal.Hand

end
-- ==== Proof.KHostSt1.lean ====
import proofs.«169706_j68856915690108_1_alg».proof.Proof.Gen.KernelIdeal.Launch
import proofs.«169706_j68856915690108_1_alg».proof.Proof.HostFns
import Idealize.ShloMosaic.Lib.StableHlo.Run

set_option maxRecDepth 7604
set_option maxHeartbeats 4000000

noncomputable section

namespace Cert.KernelIdeal.Hand

open Cert.KernelIdeal.Gen Cert.Hand Idealize.ShloMosaic Idealize.ShloMosaic.TcCoe Idealize.SL.Sem Idealize.ShloMosaic.StableHlo

variable {F : FTy → Type} [FloatOps F]

theorem st_hostOps6_4_main_v218 (V : Valuation τ sig (Elt F)) :
    (after hostOps6_4 V main_v218 : T F Sx) = (lin (V main_arg1 : T F Sx) (W2at0 (V main_arg9 : T F Sw2)) (b2at0 (V main_arg10 : T F Sb2))) := by
  dsimp only [hostOps6_4]; after_results_simp <;> rfl

theorem st_hostOps6_5_main_v219 (V : Valuation τ sig (Elt F)) :
    (after hostOps6_5 V main_v219 : T F Sx) = (elu (V main_v218 : T F Sx)) := by
  dsimp only [hostOps6_5]; after_results_simp <;> rfl

theorem st_hostOps6_6_main_v227 (V : Valuation τ sig (Elt F)) :
    (after hostOps6_6 V main_v227 : T F Sx) = (lin (V main_v219 : T F Sx) (W2at1 (V main_arg9 : T F Sw2)) (b2at1 (V main_arg10 : T F Sb2))) := by
  dsimp only [hostOps6_6]; after_results_simp <;> rfl

theorem st_hostOps6_7_main_v228 (V : Valuation τ sig (Elt F)) :
    (after hostOps6_7 V main_v228 : T F Sx) = (elu (V main_v227 : T F Sx)) := by
  dsimp only [hostOps6_7]; after_results_simp <;> rfl

theorem st_hostOps7_main_v231 (V : Valuation τ sig (Elt F)) :
    (after hostOps7 V main_v231 : T F S11) = (meanOf (V main_v229 : T F S11)) := by
  dsimp only [hostOps7]; after_results_simp <;> rfl

theorem st_hostOps8_main_v234 (V : Valuation τ sig (Elt F)) :
    (after hostOps8 V main_v234 : T F Sw2) = (W3at0 (V main_arg11 : T F Sw32)) := by
  dsimp only [hostOps8]; after_results_simp <;> rfl

theorem st_hostOps8_main_v236 (V : Valuation τ sig (Elt F)) :
    (after hostOps8 V main_v236 : T F Sb2) = (b3at0 (V main_arg12 : T F Sb32)) := by
  dsimp only [hostOps8]; after_results_simp <;> rfl

theorem st_hostOps8_main_v238 (V : Valuation τ sig (Elt F)) :
    (after hostOps8 V main_v238 : T F Sb2) = (b3at0 (V main_arg13 : T F Sb32)) := by
  dsimp only [hostOps8]; after_results_simp <;> rfl

theorem st_hostOps8_main_v246 (V : Valuation τ sig (Elt F)) :
    (after hostOps8 V main_v246 : T F Sx) = (lin (V main_v232 : T F Sx) (W2at0 (W3at0 (V main_arg11 : T F Sw32))) (b2at0 (b3at0 (V main_arg12 : T F Sb32)))) := by
  dsimp only [hostOps8]; after_results_simp <;> rfl

theorem st_hostOps8_main_v249 (V : Valuation τ sig (Elt F)) :
    (after hostOps8 V main_v249 : T F Sb) = (colMean (lin (V main_v232 : T F Sx) (W2at0 (W3at0 (V main_arg11 : T F Sw32))) (b2at0 (b3at0 (V main_arg12 : T F Sb32))))) := by
  dsimp only [hostOps8]; after_results_simp <;> rfl

theorem st_hostOps8_main_c_19 (V : Valuation τ sig (Elt F)) :
    (after hostOps8 V main_c_19 : IVec S0 32) = ddof0 := by
  dsimp only [hostOps8]; after_results_simp <;> rfl

theorem st_hostOps8_1_main_v250 (V : Valuation τ sig (Elt F)) :
    (after hostOps8_1 V main_v250 : T F Sb) = (colVar (V main_v246 : T F Sx) (V main_c_19 : IVec S0 32)) := by
  dsimp only [hostOps8_1]; after_results_simp <;> rfl

theorem st_hostOps8_2_main_v269 (V : Valuation τ sig (Elt F)) :
    (after hostOps8_2 V main_v269 : T F Sx) = (bnorm (V main_v246 : T F Sx) (V main_v249 : T F Sb) (V main_v250 : T F Sb) (V main_v238 : T F Sb2)) := by
  dsimp only [hostOps8_2]; after_results_simp <;> rfl

theorem st_hostOps8_3_main_v270 (V : Valuation τ sig (Elt F)) :
    (after hostOps8_3 V main_v270 : T F Sx) = (relu (V main_v269 : T F Sx)) := by
  dsimp only [hostOps8_3]; after_results_simp <;> rfl

theorem st_hostOps8_4_main_v278 (V : Valuation τ sig (Elt F)) :
    (after hostOps8_4 V main_v278 : T F Sx) = (lin (V main_v270 : T F Sx) (W2at1 (V main_v234 : T F Sw2)) (b2at1 (V main_v236 : T F Sb2))) := by
  dsimp only [hostOps8_4]; after_results_simp <;> rfl

theorem st_hostOps8_4_main_v279 (V : Valuation τ sig (Elt F)) :
    (after hostOps8_4 V main_v279 : T F Sx) = (addf (V main_v210 : T F Sx) (lin (V main_v270 : T F Sx) (W2at1 (V main_v234 : T F Sw2)) (b2at1 (V main_v236 : T F Sb2)))) := by
  dsimp only [hostOps8_4]; after_results_simp <;> rfl

theorem st_hostOps8_4_main_v287 (V : Valuation τ sig (Elt F)) :
    (after hostOps8_4 V main_v287 : T F Sx) = (lin (lin (V main_v270 : T F Sx) (W2at1 (V main_v234 : T F Sw2)) (b2at1 (V main_v236 : T F Sb2))) (W2at0 (V main_arg9 : T F Sw2)) (b2at0 (V main_arg10 : T F Sb2))) := by
  dsimp only [hostOps8_4]; after_results_simp <;> rfl

theorem st_hostOps8_5_main_v288 (V : Valuation τ sig (Elt F)) :
    (after hostOps8_5 V main_v288 : T F Sx) = (elu (V main_v287 : T F Sx)) := by
  dsimp only [hostOps8_5]; after_results_simp <;> rfl

theorem st_hostOps8_6_main_v296 (V : Valuation τ sig (Elt F)) :
    (after hostOps8_6 V main_v296 : T F Sx) = (lin (V main_v288 : T F Sx) (W2at1 (V main_arg9 : T F Sw2)) (b2at1 (V main_arg10 : T F Sb2))) := by
  dsimp only [hostOps8_6]; after_results_simp <;> rfl

theorem st_hostOps8_7_main_v297 (V : Valuation τ sig (Elt F)) :
    (after hostOps8_7 V main_v297 : T F Sx) = (elu (V main_v296 : T F Sx)) := by
  dsimp only [hostOps8_7]; after_results_simp <;> rfl

theorem st_hostOps9_main_v300 (V : Valuation τ sig (Elt F)) :
    (after hostOps9 V main_v300 : T F S11) = (meanOf (V main_v298 : T F S11)) := by
  dsimp only [hostOps9]; after_results_simp <;> rfl

theorem st_hostOps10_main_v303 (V : Valuation τ sig (Elt F)) :
    (after hostOps10 V main_v303 : T F Sw2) = (W3at1 (V main_arg11 : T F Sw32)) := by
  dsimp only [hostOps10]; after_results_simp <;> rfl

theorem st_hostOps10_main_v305 (V : Valuation τ sig (Elt F)) :
    (after hostOps10 V main_v305 : T F Sb2) = (b3at1 (V main_arg12 : T F Sb32)) := by
  dsimp only [hostOps10]; after_results_simp <;> rfl

theorem st_hostOps10_main_v307 (V : Valuation τ sig (Elt F)) :
    (after hostOps10 V main_v307 : T F Sb2) = (b3at1 (V main_arg13 : T F Sb32)) := by
  dsimp only [hostOps10]; after_results_simp <;> rfl

theorem st_hostOps10_main_v315 (V : Valuation τ sig (Elt F)) :
    (after hostOps10 V main_v315 : T F Sx) = (lin (V main_v301 : T F Sx) (W2at0 (W3at1 (V main_arg11 : T F Sw32))) (b2at0 (b3at1 (V main_arg12 : T F Sb32)))) := by
  dsimp only [hostOps10]; after_results_simp <;> rfl

theorem st_hostOps10_main_v318 (V : Valuation τ sig (Elt F)) :
    (after hostOps10 V main_v318 : T F Sb) = (colMean (lin (V main_v301 : T F Sx) (W2at0 (W3at1 (V main_arg11 : T F Sw32))) (b2at0 (b3at1 (V main_arg12 : T F Sb32))))) := by
  dsimp only [hostOps10]; after_results_simp <;> rfl

theorem st_hostOps10_main_c_24 (V : Valuation τ sig (Elt F)) :
    (after hostOps10 V main_c_24 : IVec S0 32) = ddof0 := by
  dsimp only [hostOps10]; after_results_simp <;> rfl

theorem st_hostOps10_1_main_v319 (V : Valuation τ sig (Elt F)) :
    (after hostOps10_1 V main_v319 : T F Sb) = (colVar (V main_v315 : T F Sx) (V main_c_24 : IVec S0 32)) := by
  dsimp only [hostOps10_1]; after_results_simp <;> rfl

theorem st_hostOps10_2_main_v338 (V : Valuation τ sig (Elt F)) :
    (after hostOps10_2 V main_v338 : T F Sx) = (bnorm (V main_v315 : T F Sx) (V main_v318 : T F Sb) (V main_v319 : T F Sb) (V main_v307 : T F Sb2)) := by
  dsimp only [hostOps10_2]; after_results_simp <;> rfl

theorem st_hostOps10_3_main_v339 (V : Valuation τ sig (Elt F)) :
    (after hostOps10_3 V main_v339 : T F Sx) = (relu (V main_v338 : T F Sx)) := by
  dsimp only [hostOps10_3]; after_results_simp <;> rfl

theorem st_hostOps10_4_main_v347 (V : Valuation τ sig (Elt F)) :
    (after hostOps10_4 V main_v347 : T F Sx) = (lin (V main_v339 : T F Sx) (W2at1 (V main_v303 : T F Sw2)) (b2at1 (V main_v305 : T F Sb2))) := by
  dsimp only [hostOps10_4]; after_results_simp <;> rfl

theorem st_hostOps10_4_main_v348 (V : Valuation τ sig (Elt F)) :
    (after hostOps10_4 V main_v348 : T F Sx) = (addf (V main_v279 : T F Sx) (lin (V main_v339 : T F Sx) (W2at1 (V main_v303 : T F Sw2)) (b2at1 (V main_v305 : T F Sb2)))) := by
  dsimp only [hostOps10_4]; after_results_simp <;> rfl

theorem st_hostOps10_4_main_v356 (V : Valuation τ sig (Elt F)) :
    (after hostOps10_4 V main_v356 : T F Sx) = (lin (lin (V main_v339 : T F Sx) (W2at1 (V main_v303 : T F Sw2)) (b2at1 (V main_v305 : T F Sb2))) (W2at0 (V main_arg9 : T F Sw2)) (b2at0 (V main_arg10 : T F Sb2))) := by
  dsimp only [hostOps10_4]; after_results_simp <;> rfl

theorem st_hostOps10_5_main_v357 (V : Valuation τ sig (Elt F)) :
    (after hostOps10_5 V main_v357 : T F Sx) = (elu (V main_v356 : T F Sx)) := by
  dsimp only [hostOps10_5]; after_results_simp <;> rfl

theorem st_hostOps10_6_main_v365 (V : Valuation τ sig (Elt F)) :
    (after hostOps10_6 V main_v365 : T F Sx) = (lin (V main_v357 : T F Sx) (W2at1 (V main_arg9 : T F Sw2)) (b2at1 (V main_arg10 : T F Sb2))) := by
  dsimp only [hostOps10_6]; after_results_simp <;> rfl

theorem st_hostOps10_7_main_v366 (V : Valuation τ sig (Elt F)) :
    (after hostOps10_7 V main_v366 : T F Sx) = (elu (V main_v365 : T F Sx)) := by
  dsimp only [hostOps10_7]; after_results_simp <;> rfl

theorem st_hostOps11_main_v369 (V : Valuation τ sig (Elt F)) :
    (after hostOps11 V main_v369 : T F S11) = (meanOf (V main_v367 : T F S11)) := by
  dsimp only [hostOps11]; after_results_simp <;> rfl

theorem st_hostOps12_main_v372 (V : Valuation τ sig (Elt F)) :
    (after hostOps12 V main_v372 : T F Sw2) = (W3at2 (V main_arg11 : T F Sw32)) := by
  dsimp only [hostOps12]; after_results_simp <;> rfl

theorem st_hostOps12_main_v374 (V : Valuation τ sig (Elt F)) :
    (after hostOps12 V main_v374 : T F Sb2) = (b3at2 (V main_arg12 : T F Sb32)) := by
  dsimp only [hostOps12]; after_results_simp <;> rfl

theorem st_hostOps12_main_v376 (V : Valuation τ sig (Elt F)) :
    (after hostOps12 V main_v376 : T F Sb2) = (b3at2 (V main_arg13 : T F Sb32)) := by
  dsimp only [hostOps12]; after_results_simp <;> rfl

theorem st_hostOps12_main_v384 (V : Valuation τ sig (Elt F)) :
    (after hostOps12 V main_v384 : T F Sx) = (lin (V main_v370 : T F Sx) (W2at0 (W3at2 (V main_arg11 : T F Sw32))) (b2at0 (b3at2 (V main_arg12 : T F Sb32)))) := by
  dsimp only [hostOps12]; after_results_simp <;> rfl

theorem st_hostOps12_main_v387 (V : Valuation τ sig (Elt F)) :
    (after hostOps12 V main_v387 : T F Sb) = (colMean (lin (V main_v370 : T F Sx) (W2at0 (W3at2 (V main_arg11 : T F Sw32))) (b2at0 (b3at2 (V main_arg12 : T F Sb32))))) := by
  dsimp only [hostOps12]; after_results_simp <;> rfl

theorem st_hostOps12_main_c_29 (V : Valuation τ sig (Elt F)) :
    (after hostOps12 V main_c_29 : IVec S0 32) = ddof0 := by
  dsimp only [hostOps12]; after_results_simp <;> rfl

theorem st_hostOps12_1_main_v388 (V : Valuation τ sig (Elt F)) :
    (after hostOps12_1 V main_v388 : T F Sb) = (colVar (V main_v384 : T F Sx) (V main_c_29 : IVec S0 32)) := by
  dsimp only [hostOps12_1]; after_results_simp <;> rfl

theorem st_hostOps12_2_main_v407 (V : Valuation τ sig (Elt F)) :
    (after hostOps12_2 V main_v407 : T F Sx) = (bnorm (V main_v384 : T F Sx) (V main_v387 : T F Sb) (V main_v388 : T F Sb) (V main_v376 : T F Sb2)) := by
  dsimp only [hostOps12_2]; after_results_simp <;> rfl

theorem st_hostOps12_3_main_v408 (V : Valuation τ sig (Elt F)) :
    (after hostOps12_3 V main_v408 : T F Sx) = (relu (V main_v407 : T F Sx)) := by
  dsimp only [hostOps12_3]; after_results_simp <;> rfl

theorem st_hostOps12_4_main_v416 (V : Valuation τ sig (Elt F)) :
    (after hostOps12_4 V main_v416 : T F Sx) = (lin (V main_v408 : T F Sx) (W2at1 (V main_v372 : T F Sw2)) (b2at1 (V main_v374 : T F Sb2))) := by
  dsimp only [hostOps12_4]; after_results_simp <;> rfl

theorem st_hostOps12_4_main_v417 (V : Valuation τ sig (Elt F)) :
    (after hostOps12_4 V main_v417 : T F Sx) = (addf (V main_v348 : T F Sx) (lin (V main_v408 : T F Sx) (W2at1 (V main_v372 : T F Sw2)) (b2at1 (V main_v374 : T F Sb2)))) := by
  dsimp only [hostOps12_4]; after_results_simp <;> rfl

theorem st_hostOps12_4_main_v419 (V : Valuation τ sig (Elt F)) :
    (after hostOps12_4 V main_v419 : T F Sx) = (third (addf (V main_v348 : T F Sx) (lin (V main_v408 : T F Sx) (W2at1 (V main_v372 : T F Sw2)) (b2at1 (V main_v374 : T F Sb2))))) := by
  dsimp only [hostOps12_4]; after_results_simp <;> rfl

theorem st_hostOps12_4_main_v420 (V : Valuation τ sig (Elt F)) :
    (after hostOps12_4 V main_v420 : T F Sx) = (fill 0x00000000#32) := by
  dsimp only [hostOps12_4]; after_results_simp <;> rfl

theorem st_hostOps12_4_main_v428 (V : Valuation τ sig (Elt F)) :
    (after hostOps12_4 V main_v428 : T F Sx) = (lin (V main_arg2 : T F Sx) (W2at0 (V main_arg14 : T F Sw2)) (b2at0 (V main_arg15 : T F Sb2))) := by
  dsimp only [hostOps12_4]; after_results_simp <;> rfl

end Cert.KernelIdeal.Hand

end
-- ==== Proof.KHostSt2.lean ====
import proofs.«169706_j68856915690108_1_alg».proof.Proof.Gen.KernelIdeal.Launch
import proofs.«169706_j68856915690108_1_alg».proof.Proof.HostFns
import Idealize.ShloMosaic.Lib.StableHlo.Run

set_option maxRecDepth 7604
set_option maxHeartbeats 4000000

noncomputable section

namespace Cert.KernelIdeal.Hand

open Cert.KernelIdeal.Gen Cert.Hand Idealize.ShloMosaic Idealize.ShloMosaic.TcCoe Idealize.SL.Sem Idealize.ShloMosaic.StableHlo

variable {F : FTy → Type} [FloatOps F]

theorem st_hostOps12_5_main_v429 (V : Valuation τ sig (Elt F)) :
    (after hostOps12_5 V main_v429 : T F Sx) = (elu (V main_v428 : T F Sx)) := by
  dsimp only [hostOps12_5]; after_results_simp <;> rfl

theorem st_hostOps12_6_main_v437 (V : Valuation τ sig (Elt F)) :
    (after hostOps12_6 V main_v437 : T F Sx) = (lin (V main_v429 : T F Sx) (W2at1 (V main_arg14 : T F Sw2)) (b2at1 (V main_arg15 : T F Sb2))) := by
  dsimp only [hostOps12_6]; after_results_simp <;> rfl

theorem st_hostOps12_7_main_v438 (V : Valuation τ sig (Elt F)) :
    (after hostOps12_7 V main_v438 : T F Sx) = (elu (V main_v437 : T F Sx)) := by
  dsimp only [hostOps12_7]; after_results_simp <;> rfl

theorem st_hostOps13_main_v441 (V : Valuation τ sig (Elt F)) :
    (after hostOps13 V main_v441 : T F S11) = (meanOf (V main_v439 : T F S11)) := by
  dsimp only [hostOps13]; after_results_simp <;> rfl

theorem st_hostOps14_main_v444 (V : Valuation τ sig (Elt F)) :
    (after hostOps14 V main_v444 : T F Sw2) = (W3at0 (V main_arg16 : T F Sw32)) := by
  dsimp only [hostOps14]; after_results_simp <;> rfl

theorem st_hostOps14_main_v446 (V : Valuation τ sig (Elt F)) :
    (after hostOps14 V main_v446 : T F Sb2) = (b3at0 (V main_arg17 : T F Sb32)) := by
  dsimp only [hostOps14]; after_results_simp <;> rfl

theorem st_hostOps14_main_v448 (V : Valuation τ sig (Elt F)) :
    (after hostOps14 V main_v448 : T F Sb2) = (b3at0 (V main_arg18 : T F Sb32)) := by
  dsimp only [hostOps14]; after_results_simp <;> rfl

theorem st_hostOps14_main_v456 (V : Valuation τ sig (Elt F)) :
    (after hostOps14 V main_v456 : T F Sx) = (lin (V main_v442 : T F Sx) (W2at0 (W3at0 (V main_arg16 : T F Sw32))) (b2at0 (b3at0 (V main_arg17 : T F Sb32)))) := by
  dsimp only [hostOps14]; after_results_simp <;> rfl

theorem st_hostOps14_main_v459 (V : Valuation τ sig (Elt F)) :
    (after hostOps14 V main_v459 : T F Sb) = (colMean (lin (V main_v442 : T F Sx) (W2at0 (W3at0 (V main_arg16 : T F Sw32))) (b2at0 (b3at0 (V main_arg17 : T F Sb32))))) := by
  dsimp only [hostOps14]; after_results_simp <;> rfl

theorem st_hostOps14_main_c_36 (V : Valuation τ sig (Elt F)) :
    (after hostOps14 V main_c_36 : IVec S0 32) = ddof0 := by
  dsimp only [hostOps14]; after_results_simp <;> rfl

theorem st_hostOps14_1_main_v460 (V : Valuation τ sig (Elt F)) :
    (after hostOps14_1 V main_v460 : T F Sb) = (colVar (V main_v456 : T F Sx) (V main_c_36 : IVec S0 32)) := by
  dsimp only [hostOps14_1]; after_results_simp <;> rfl

theorem st_hostOps14_2_main_v479 (V : Valuation τ sig (Elt F)) :
    (after hostOps14_2 V main_v479 : T F Sx) = (bnorm (V main_v456 : T F Sx) (V main_v459 : T F Sb) (V main_v460 : T F Sb) (V main_v448 : T F Sb2)) := by
  dsimp only [hostOps14_2]; after_results_simp <;> rfl

theorem st_hostOps14_3_main_v480 (V : Valuation τ sig (Elt F)) :
    (after hostOps14_3 V main_v480 : T F Sx) = (relu (V main_v479 : T F Sx)) := by
  dsimp only [hostOps14_3]; after_results_simp <;> rfl

theorem st_hostOps14_4_main_v488 (V : Valuation τ sig (Elt F)) :
    (after hostOps14_4 V main_v488 : T F Sx) = (lin (V main_v480 : T F Sx) (W2at1 (V main_v444 : T F Sw2)) (b2at1 (V main_v446 : T F Sb2))) := by
  dsimp only [hostOps14_4]; after_results_simp <;> rfl

theorem st_hostOps14_4_main_v489 (V : Valuation τ sig (Elt F)) :
    (after hostOps14_4 V main_v489 : T F Sx) = (addf (V main_v420 : T F Sx) (lin (V main_v480 : T F Sx) (W2at1 (V main_v444 : T F Sw2)) (b2at1 (V main_v446 : T F Sb2)))) := by
  dsimp only [hostOps14_4]; after_results_simp <;> rfl

theorem st_hostOps14_4_main_v497 (V : Valuation τ sig (Elt F)) :
    (after hostOps14_4 V main_v497 : T F Sx) = (lin (lin (V main_v480 : T F Sx) (W2at1 (V main_v444 : T F Sw2)) (b2at1 (V main_v446 : T F Sb2))) (W2at0 (V main_arg14 : T F Sw2)) (b2at0 (V main_arg15 : T F Sb2))) := by
  dsimp only [hostOps14_4]; after_results_simp <;> rfl

theorem st_hostOps14_5_main_v498 (V : Valuation τ sig (Elt F)) :
    (after hostOps14_5 V main_v498 : T F Sx) = (elu (V main_v497 : T F Sx)) := by
  dsimp only [hostOps14_5]; after_results_simp <;> rfl

theorem st_hostOps14_6_main_v506 (V : Valuation τ sig (Elt F)) :
    (after hostOps14_6 V main_v506 : T F Sx) = (lin (V main_v498 : T F Sx) (W2at1 (V main_arg14 : T F Sw2)) (b2at1 (V main_arg15 : T F Sb2))) := by
  dsimp only [hostOps14_6]; after_results_simp <;> rfl

theorem st_hostOps14_7_main_v507 (V : Valuation τ sig (Elt F)) :
    (after hostOps14_7 V main_v507 : T F Sx) = (elu (V main_v506 : T F Sx)) := by
  dsimp only [hostOps14_7]; after_results_simp <;> rfl

theorem st_hostOps15_main_v510 (V : Valuation τ sig (Elt F)) :
    (after hostOps15 V main_v510 : T F S11) = (meanOf (V main_v508 : T F S11)) := by
  dsimp only [hostOps15]; after_results_simp <;> rfl

theorem st_hostOps16_main_v513 (V : Valuation τ sig (Elt F)) :
    (after hostOps16 V main_v513 : T F Sw2) = (W3at1 (V main_arg16 : T F Sw32)) := by
  dsimp only [hostOps16]; after_results_simp <;> rfl

theorem st_hostOps16_main_v515 (V : Valuation τ sig (Elt F)) :
    (after hostOps16 V main_v515 : T F Sb2) = (b3at1 (V main_arg17 : T F Sb32)) := by
  dsimp only [hostOps16]; after_results_simp <;> rfl

theorem st_hostOps16_main_v517 (V : Valuation τ sig (Elt F)) :
    (after hostOps16 V main_v517 : T F Sb2) = (b3at1 (V main_arg18 : T F Sb32)) := by
  dsimp only [hostOps16]; after_results_simp <;> rfl

theorem st_hostOps16_main_v525 (V : Valuation τ sig (Elt F)) :
    (after hostOps16 V main_v525 : T F Sx) = (lin (V main_v511 : T F Sx) (W2at0 (W3at1 (V main_arg16 : T F Sw32))) (b2at0 (b3at1 (V main_arg17 : T F Sb32)))) := by
  dsimp only [hostOps16]; after_results_simp <;> rfl

theorem st_hostOps16_main_v528 (V : Valuation τ sig (Elt F)) :
    (after hostOps16 V main_v528 : T F Sb) = (colMean (lin (V main_v511 : T F Sx) (W2at0 (W3at1 (V main_arg16 : T F Sw32))) (b2at0 (b3at1 (V main_arg17 : T F Sb32))))) := by
  dsimp only [hostOps16]; after_results_simp <;> rfl

theorem st_hostOps16_main_c_41 (V : Valuation τ sig (Elt F)) :
    (after hostOps16 V main_c_41 : IVec S0 32) = ddof0 := by
  dsimp only [hostOps16]; after_results_simp <;> rfl

theorem st_hostOps16_1_main_v529 (V : Valuation τ sig (Elt F)) :
    (after hostOps16_1 V main_v529 : T F Sb) = (colVar (V main_v525 : T F Sx) (V main_c_41 : IVec S0 32)) := by
  dsimp only [hostOps16_1]; after_results_simp <;> rfl

theorem st_hostOps16_2_main_v548 (V : Valuation τ sig (Elt F)) :
    (after hostOps16_2 V main_v548 : T F Sx) = (bnorm (V main_v525 : T F Sx) (V main_v528 : T F Sb) (V main_v529 : T F Sb) (V main_v517 : T F Sb2)) := by
  dsimp only [hostOps16_2]; after_results_simp <;> rfl

theorem st_hostOps16_3_main_v549 (V : Valuation τ sig (Elt F)) :
    (after hostOps16_3 V main_v549 : T F Sx) = (relu (V main_v548 : T F Sx)) := by
  dsimp only [hostOps16_3]; after_results_simp <;> rfl

theorem st_hostOps16_4_main_v557 (V : Valuation τ sig (Elt F)) :
    (after hostOps16_4 V main_v557 : T F Sx) = (lin (V main_v549 : T F Sx) (W2at1 (V main_v513 : T F Sw2)) (b2at1 (V main_v515 : T F Sb2))) := by
  dsimp only [hostOps16_4]; after_results_simp <;> rfl

theorem st_hostOps16_4_main_v558 (V : Valuation τ sig (Elt F)) :
    (after hostOps16_4 V main_v558 : T F Sx) = (addf (V main_v489 : T F Sx) (lin (V main_v549 : T F Sx) (W2at1 (V main_v513 : T F Sw2)) (b2at1 (V main_v515 : T F Sb2)))) := by
  dsimp only [hostOps16_4]; after_results_simp <;> rfl

theorem st_hostOps16_4_main_v566 (V : Valuation τ sig (Elt F)) :
    (after hostOps16_4 V main_v566 : T F Sx) = (lin (lin (V main_v549 : T F Sx) (W2at1 (V main_v513 : T F Sw2)) (b2at1 (V main_v515 : T F Sb2))) (W2at0 (V main_arg14 : T F Sw2)) (b2at0 (V main_arg15 : T F Sb2))) := by
  dsimp only [hostOps16_4]; after_results_simp <;> rfl

theorem st_hostOps16_5_main_v567 (V : Valuation τ sig (Elt F)) :
    (after hostOps16_5 V main_v567 : T F Sx) = (elu (V main_v566 : T F Sx)) := by
  dsimp only [hostOps16_5]; after_results_simp <;> rfl

theorem st_hostOps16_6_main_v575 (V : Valuation τ sig (Elt F)) :
    (after hostOps16_6 V main_v575 : T F Sx) = (lin (V main_v567 : T F Sx) (W2at1 (V main_arg14 : T F Sw2)) (b2at1 (V main_arg15 : T F Sb2))) := by
  dsimp only [hostOps16_6]; after_results_simp <;> rfl

theorem st_hostOps16_7_main_v576 (V : Valuation τ sig (Elt F)) :
    (after hostOps16_7 V main_v576 : T F Sx) = (elu (V main_v575 : T F Sx)) := by
  dsimp only [hostOps16_7]; after_results_simp <;> rfl

theorem st_hostOps17_main_v579 (V : Valuation τ sig (Elt F)) :
    (after hostOps17 V main_v579 : T F S11) = (meanOf (V main_v577 : T F S11)) := by
  dsimp only [hostOps17]; after_results_simp <;> rfl

theorem st_hostOps18_main_v582 (V : Valuation τ sig (Elt F)) :
    (after hostOps18 V main_v582 : T F Sw2) = (W3at2 (V main_arg16 : T F Sw32)) := by
  dsimp only [hostOps18]; after_results_simp <;> rfl

theorem st_hostOps18_main_v584 (V : Valuation τ sig (Elt F)) :
    (after hostOps18 V main_v584 : T F Sb2) = (b3at2 (V main_arg17 : T F Sb32)) := by
  dsimp only [hostOps18]; after_results_simp <;> rfl

theorem st_hostOps18_main_v586 (V : Valuation τ sig (Elt F)) :
    (after hostOps18 V main_v586 : T F Sb2) = (b3at2 (V main_arg18 : T F Sb32)) := by
  dsimp only [hostOps18]; after_results_simp <;> rfl

theorem st_hostOps18_main_v594 (V : Valuation τ sig (Elt F)) :
    (after hostOps18 V main_v594 : T F Sx) = (lin (V main_v580 : T F Sx) (W2at0 (W3at2 (V main_arg16 : T F Sw32))) (b2at0 (b3at2 (V main_arg17 : T F Sb32)))) := by
  dsimp only [hostOps18]; after_results_simp <;> rfl

theorem st_hostOps18_main_v597 (V : Valuation τ sig (Elt F)) :
    (after hostOps18 V main_v597 : T F Sb) = (colMean (lin (V main_v580 : T F Sx) (W2at0 (W3at2 (V main_arg16 : T F Sw32))) (b2at0 (b3at2 (V main_arg17 : T F Sb32))))) := by
  dsimp only [hostOps18]; after_results_simp <;> rfl

theorem st_hostOps18_main_c_46 (V : Valuation τ sig (Elt F)) :
    (after hostOps18 V main_c_46 : IVec S0 32) = ddof0 := by
  dsimp only [hostOps18]; after_results_simp <;> rfl

theorem st_hostOps18_1_main_v598 (V : Valuation τ sig (Elt F)) :
    (after hostOps18_1 V main_v598 : T F Sb) = (colVar (V main_v594 : T F Sx) (V main_c_46 : IVec S0 32)) := by
  dsimp only [hostOps18_1]; after_results_simp <;> rfl

theorem st_hostOps18_2_main_v617 (V : Valuation τ sig (Elt F)) :
    (after hostOps18_2 V main_v617 : T F Sx) = (bnorm (V main_v594 : T F Sx) (V main_v597 : T F Sb) (V main_v598 : T F Sb) (V main_v586 : T F Sb2)) := by
  dsimp only [hostOps18_2]; after_results_simp <;> rfl

theorem st_hostOps18_3_main_v618 (V : Valuation τ sig (Elt F)) :
    (after hostOps18_3 V main_v618 : T F Sx) = (relu (V main_v617 : T F Sx)) := by
  dsimp only [hostOps18_3]; after_results_simp <;> rfl

theorem st_hostOps18_4_main_v626 (V : Valuation τ sig (Elt F)) :
    (after hostOps18_4 V main_v626 : T F Sx) = (lin (V main_v618 : T F Sx) (W2at1 (V main_v582 : T F Sw2)) (b2at1 (V main_v584 : T F Sb2))) := by
  dsimp only [hostOps18_4]; after_results_simp <;> rfl

theorem st_hostOps18_4_main_v627 (V : Valuation τ sig (Elt F)) :
    (after hostOps18_4 V main_v627 : T F Sx) = (addf (V main_v558 : T F Sx) (lin (V main_v618 : T F Sx) (W2at1 (V main_v582 : T F Sw2)) (b2at1 (V main_v584 : T F Sb2)))) := by
  dsimp only [hostOps18_4]; after_results_simp <;> rfl

theorem st_hostOps18_4_main_v629 (V : Valuation τ sig (Elt F)) :
    (after hostOps18_4 V main_v629 : T F Sx) = (third (addf (V main_v558 : T F Sx) (lin (V main_v618 : T F Sx) (W2at1 (V main_v582 : T F Sw2)) (b2at1 (V main_v584 : T F Sb2))))) := by
  dsimp only [hostOps18_4]; after_results_simp <;> rfl

theorem st_hostOps18_4_main_v630 (V : Valuation τ sig (Elt F)) :
    (after hostOps18_4 V main_v630 : T F Sx) = (fill 0x00000000#32) := by
  dsimp only [hostOps18_4]; after_results_simp <;> rfl

theorem st_hostOps18_4_main_v638 (V : Valuation τ sig (Elt F)) :
    (after hostOps18_4 V main_v638 : T F Sx) = (lin (V main_arg3 : T F Sx) (W2at0 (V main_arg9 : T F Sw2)) (b2at0 (V main_arg10 : T F Sb2))) := by
  dsimp only [hostOps18_4]; after_results_simp <;> rfl

theorem st_hostOps18_5_main_v639 (V : Valuation τ sig (Elt F)) :
    (after hostOps18_5 V main_v639 : T F Sx) = (elu (V main_v638 : T F Sx)) := by
  dsimp only [hostOps18_5]; after_results_simp <;> rfl

end Cert.KernelIdeal.Hand

end
-- ==== Proof.KHostSt3.lean ====
import proofs.«169706_j68856915690108_1_alg».proof.Proof.Gen.KernelIdeal.Launch
import proofs.«169706_j68856915690108_1_alg».proof.Proof.HostFns
import Idealize.ShloMosaic.Lib.StableHlo.Run

set_option maxRecDepth 7604
set_option maxHeartbeats 4000000

noncomputable section

namespace Cert.KernelIdeal.Hand

open Cert.KernelIdeal.Gen Cert.Hand Idealize.ShloMosaic Idealize.ShloMosaic.TcCoe Idealize.SL.Sem Idealize.ShloMosaic.StableHlo

variable {F : FTy → Type} [FloatOps F]

theorem st_hostOps18_6_main_v647 (V : Valuation τ sig (Elt F)) :
    (after hostOps18_6 V main_v647 : T F Sx) = (lin (V main_v639 : T F Sx) (W2at1 (V main_arg9 : T F Sw2)) (b2at1 (V main_arg10 : T F Sb2))) := by
  dsimp only [hostOps18_6]; after_results_simp <;> rfl

theorem st_hostOps18_7_main_v648 (V : Valuation τ sig (Elt F)) :
    (after hostOps18_7 V main_v648 : T F Sx) = (elu (V main_v647 : T F Sx)) := by
  dsimp only [hostOps18_7]; after_results_simp <;> rfl

theorem st_hostOps19_main_v651 (V : Valuation τ sig (Elt F)) :
    (after hostOps19 V main_v651 : T F S11) = (meanOf (V main_v649 : T F S11)) := by
  dsimp only [hostOps19]; after_results_simp <;> rfl

theorem st_hostOps20_main_v654 (V : Valuation τ sig (Elt F)) :
    (after hostOps20 V main_v654 : T F Sw2) = (W3at0 (V main_arg11 : T F Sw32)) := by
  dsimp only [hostOps20]; after_results_simp <;> rfl

theorem st_hostOps20_main_v656 (V : Valuation τ sig (Elt F)) :
    (after hostOps20 V main_v656 : T F Sb2) = (b3at0 (V main_arg12 : T F Sb32)) := by
  dsimp only [hostOps20]; after_results_simp <;> rfl

theorem st_hostOps20_main_v658 (V : Valuation τ sig (Elt F)) :
    (after hostOps20 V main_v658 : T F Sb2) = (b3at0 (V main_arg13 : T F Sb32)) := by
  dsimp only [hostOps20]; after_results_simp <;> rfl

theorem st_hostOps20_main_v666 (V : Valuation τ sig (Elt F)) :
    (after hostOps20 V main_v666 : T F Sx) = (lin (V main_v652 : T F Sx) (W2at0 (W3at0 (V main_arg11 : T F Sw32))) (b2at0 (b3at0 (V main_arg12 : T F Sb32)))) := by
  dsimp only [hostOps20]; after_results_simp <;> rfl

theorem st_hostOps20_main_v669 (V : Valuation τ sig (Elt F)) :
    (after hostOps20 V main_v669 : T F Sb) = (colMean (lin (V main_v652 : T F Sx) (W2at0 (W3at0 (V main_arg11 : T F Sw32))) (b2at0 (b3at0 (V main_arg12 : T F Sb32))))) := by
  dsimp only [hostOps20]; after_results_simp <;> rfl

theorem st_hostOps20_main_c_53 (V : Valuation τ sig (Elt F)) :
    (after hostOps20 V main_c_53 : IVec S0 32) = ddof0 := by
  dsimp only [hostOps20]; after_results_simp <;> rfl

theorem st_hostOps20_1_main_v670 (V : Valuation τ sig (Elt F)) :
    (after hostOps20_1 V main_v670 : T F Sb) = (colVar (V main_v666 : T F Sx) (V main_c_53 : IVec S0 32)) := by
  dsimp only [hostOps20_1]; after_results_simp <;> rfl

theorem st_hostOps20_2_main_v689 (V : Valuation τ sig (Elt F)) :
    (after hostOps20_2 V main_v689 : T F Sx) = (bnorm (V main_v666 : T F Sx) (V main_v669 : T F Sb) (V main_v670 : T F Sb) (V main_v658 : T F Sb2)) := by
  dsimp only [hostOps20_2]; after_results_simp <;> rfl

theorem st_hostOps20_3_main_v690 (V : Valuation τ sig (Elt F)) :
    (after hostOps20_3 V main_v690 : T F Sx) = (relu (V main_v689 : T F Sx)) := by
  dsimp only [hostOps20_3]; after_results_simp <;> rfl

theorem st_hostOps20_4_main_v698 (V : Valuation τ sig (Elt F)) :
    (after hostOps20_4 V main_v698 : T F Sx) = (lin (V main_v690 : T F Sx) (W2at1 (V main_v654 : T F Sw2)) (b2at1 (V main_v656 : T F Sb2))) := by
  dsimp only [hostOps20_4]; after_results_simp <;> rfl

theorem st_hostOps20_4_main_v699 (V : Valuation τ sig (Elt F)) :
    (after hostOps20_4 V main_v699 : T F Sx) = (addf (V main_v630 : T F Sx) (lin (V main_v690 : T F Sx) (W2at1 (V main_v654 : T F Sw2)) (b2at1 (V main_v656 : T F Sb2)))) := by
  dsimp only [hostOps20_4]; after_results_simp <;> rfl

theorem st_hostOps20_4_main_v707 (V : Valuation τ sig (Elt F)) :
    (after hostOps20_4 V main_v707 : T F Sx) = (lin (lin (V main_v690 : T F Sx) (W2at1 (V main_v654 : T F Sw2)) (b2at1 (V main_v656 : T F Sb2))) (W2at0 (V main_arg9 : T F Sw2)) (b2at0 (V main_arg10 : T F Sb2))) := by
  dsimp only [hostOps20_4]; after_results_simp <;> rfl

theorem st_hostOps20_5_main_v708 (V : Valuation τ sig (Elt F)) :
    (after hostOps20_5 V main_v708 : T F Sx) = (elu (V main_v707 : T F Sx)) := by
  dsimp only [hostOps20_5]; after_results_simp <;> rfl

theorem st_hostOps20_6_main_v716 (V : Valuation τ sig (Elt F)) :
    (after hostOps20_6 V main_v716 : T F Sx) = (lin (V main_v708 : T F Sx) (W2at1 (V main_arg9 : T F Sw2)) (b2at1 (V main_arg10 : T F Sb2))) := by
  dsimp only [hostOps20_6]; after_results_simp <;> rfl

theorem st_hostOps20_7_main_v717 (V : Valuation τ sig (Elt F)) :
    (after hostOps20_7 V main_v717 : T F Sx) = (elu (V main_v716 : T F Sx)) := by
  dsimp only [hostOps20_7]; after_results_simp <;> rfl

theorem st_hostOps21_main_v720 (V : Valuation τ sig (Elt F)) :
    (after hostOps21 V main_v720 : T F S11) = (meanOf (V main_v718 : T F S11)) := by
  dsimp only [hostOps21]; after_results_simp <;> rfl

theorem st_hostOps22_main_v723 (V : Valuation τ sig (Elt F)) :
    (after hostOps22 V main_v723 : T F Sw2) = (W3at1 (V main_arg11 : T F Sw32)) := by
  dsimp only [hostOps22]; after_results_simp <;> rfl

theorem st_hostOps22_main_v725 (V : Valuation τ sig (Elt F)) :
    (after hostOps22 V main_v725 : T F Sb2) = (b3at1 (V main_arg12 : T F Sb32)) := by
  dsimp only [hostOps22]; after_results_simp <;> rfl

theorem st_hostOps22_main_v727 (V : Valuation τ sig (Elt F)) :
    (after hostOps22 V main_v727 : T F Sb2) = (b3at1 (V main_arg13 : T F Sb32)) := by
  dsimp only [hostOps22]; after_results_simp <;> rfl

theorem st_hostOps22_main_v735 (V : Valuation τ sig (Elt F)) :
    (after hostOps22 V main_v735 : T F Sx) = (lin (V main_v721 : T F Sx) (W2at0 (W3at1 (V main_arg11 : T F Sw32))) (b2at0 (b3at1 (V main_arg12 : T F Sb32)))) := by
  dsimp only [hostOps22]; after_results_simp <;> rfl

theorem st_hostOps22_main_v738 (V : Valuation τ sig (Elt F)) :
    (after hostOps22 V main_v738 : T F Sb) = (colMean (lin (V main_v721 : T F Sx) (W2at0 (W3at1 (V main_arg11 : T F Sw32))) (b2at0 (b3at1 (V main_arg12 : T F Sb32))))) := by
  dsimp only [hostOps22]; after_results_simp <;> rfl

theorem st_hostOps22_main_c_58 (V : Valuation τ sig (Elt F)) :
    (after hostOps22 V main_c_58 : IVec S0 32) = ddof0 := by
  dsimp only [hostOps22]; after_results_simp <;> rfl

theorem st_hostOps22_1_main_v739 (V : Valuation τ sig (Elt F)) :
    (after hostOps22_1 V main_v739 : T F Sb) = (colVar (V main_v735 : T F Sx) (V main_c_58 : IVec S0 32)) := by
  dsimp only [hostOps22_1]; after_results_simp <;> rfl

theorem st_hostOps22_2_main_v758 (V : Valuation τ sig (Elt F)) :
    (after hostOps22_2 V main_v758 : T F Sx) = (bnorm (V main_v735 : T F Sx) (V main_v738 : T F Sb) (V main_v739 : T F Sb) (V main_v727 : T F Sb2)) := by
  dsimp only [hostOps22_2]; after_results_simp <;> rfl

theorem st_hostOps22_3_main_v759 (V : Valuation τ sig (Elt F)) :
    (after hostOps22_3 V main_v759 : T F Sx) = (relu (V main_v758 : T F Sx)) := by
  dsimp only [hostOps22_3]; after_results_simp <;> rfl

theorem st_hostOps22_4_main_v767 (V : Valuation τ sig (Elt F)) :
    (after hostOps22_4 V main_v767 : T F Sx) = (lin (V main_v759 : T F Sx) (W2at1 (V main_v723 : T F Sw2)) (b2at1 (V main_v725 : T F Sb2))) := by
  dsimp only [hostOps22_4]; after_results_simp <;> rfl

theorem st_hostOps22_4_main_v768 (V : Valuation τ sig (Elt F)) :
    (after hostOps22_4 V main_v768 : T F Sx) = (addf (V main_v699 : T F Sx) (lin (V main_v759 : T F Sx) (W2at1 (V main_v723 : T F Sw2)) (b2at1 (V main_v725 : T F Sb2)))) := by
  dsimp only [hostOps22_4]; after_results_simp <;> rfl

theorem st_hostOps22_4_main_v776 (V : Valuation τ sig (Elt F)) :
    (after hostOps22_4 V main_v776 : T F Sx) = (lin (lin (V main_v759 : T F Sx) (W2at1 (V main_v723 : T F Sw2)) (b2at1 (V main_v725 : T F Sb2))) (W2at0 (V main_arg9 : T F Sw2)) (b2at0 (V main_arg10 : T F Sb2))) := by
  dsimp only [hostOps22_4]; after_results_simp <;> rfl

theorem st_hostOps22_5_main_v777 (V : Valuation τ sig (Elt F)) :
    (after hostOps22_5 V main_v777 : T F Sx) = (elu (V main_v776 : T F Sx)) := by
  dsimp only [hostOps22_5]; after_results_simp <;> rfl

theorem st_hostOps22_6_main_v785 (V : Valuation τ sig (Elt F)) :
    (after hostOps22_6 V main_v785 : T F Sx) = (lin (V main_v777 : T F Sx) (W2at1 (V main_arg9 : T F Sw2)) (b2at1 (V main_arg10 : T F Sb2))) := by
  dsimp only [hostOps22_6]; after_results_simp <;> rfl

theorem st_hostOps22_7_main_v786 (V : Valuation τ sig (Elt F)) :
    (after hostOps22_7 V main_v786 : T F Sx) = (elu (V main_v785 : T F Sx)) := by
  dsimp only [hostOps22_7]; after_results_simp <;> rfl

theorem st_hostOps23_main_v789 (V : Valuation τ sig (Elt F)) :
    (after hostOps23 V main_v789 : T F S11) = (meanOf (V main_v787 : T F S11)) := by
  dsimp only [hostOps23]; after_results_simp <;> rfl

theorem st_hostOps24_main_v792 (V : Valuation τ sig (Elt F)) :
    (after hostOps24 V main_v792 : T F Sw2) = (W3at2 (V main_arg11 : T F Sw32)) := by
  dsimp only [hostOps24]; after_results_simp <;> rfl

theorem st_hostOps24_main_v794 (V : Valuation τ sig (Elt F)) :
    (after hostOps24 V main_v794 : T F Sb2) = (b3at2 (V main_arg12 : T F Sb32)) := by
  dsimp only [hostOps24]; after_results_simp <;> rfl

theorem st_hostOps24_main_v796 (V : Valuation τ sig (Elt F)) :
    (after hostOps24 V main_v796 : T F Sb2) = (b3at2 (V main_arg13 : T F Sb32)) := by
  dsimp only [hostOps24]; after_results_simp <;> rfl

theorem st_hostOps24_main_v804 (V : Valuation τ sig (Elt F)) :
    (after hostOps24 V main_v804 : T F Sx) = (lin (V main_v790 : T F Sx) (W2at0 (W3at2 (V main_arg11 : T F Sw32))) (b2at0 (b3at2 (V main_arg12 : T F Sb32)))) := by
  dsimp only [hostOps24]; after_results_simp <;> rfl

theorem st_hostOps24_main_v807 (V : Valuation τ sig (Elt F)) :
    (after hostOps24 V main_v807 : T F Sb) = (colMean (lin (V main_v790 : T F Sx) (W2at0 (W3at2 (V main_arg11 : T F Sw32))) (b2at0 (b3at2 (V main_arg12 : T F Sb32))))) := by
  dsimp only [hostOps24]; after_results_simp <;> rfl

theorem st_hostOps24_main_c_63 (V : Valuation τ sig (Elt F)) :
    (after hostOps24 V main_c_63 : IVec S0 32) = ddof0 := by
  dsimp only [hostOps24]; after_results_simp <;> rfl

theorem st_hostOps24_1_main_v808 (V : Valuation τ sig (Elt F)) :
    (after hostOps24_1 V main_v808 : T F Sb) = (colVar (V main_v804 : T F Sx) (V main_c_63 : IVec S0 32)) := by
  dsimp only [hostOps24_1]; after_results_simp <;> rfl

theorem st_hostOps24_2_main_v827 (V : Valuation τ sig (Elt F)) :
    (after hostOps24_2 V main_v827 : T F Sx) = (bnorm (V main_v804 : T F Sx) (V main_v807 : T F Sb) (V main_v808 : T F Sb) (V main_v796 : T F Sb2)) := by
  dsimp only [hostOps24_2]; after_results_simp <;> rfl

theorem st_hostOps24_3_main_v828 (V : Valuation τ sig (Elt F)) :
    (after hostOps24_3 V main_v828 : T F Sx) = (relu (V main_v827 : T F Sx)) := by
  dsimp only [hostOps24_3]; after_results_simp <;> rfl

theorem st_hostOps24_4_main_v836 (V : Valuation τ sig (Elt F)) :
    (after hostOps24_4 V main_v836 : T F Sx) = (lin (V main_v828 : T F Sx) (W2at1 (V main_v792 : T F Sw2)) (b2at1 (V main_v794 : T F Sb2))) := by
  dsimp only [hostOps24_4]; after_results_simp <;> rfl

theorem st_hostOps24_4_main_v837 (V : Valuation τ sig (Elt F)) :
    (after hostOps24_4 V main_v837 : T F Sx) = (addf (V main_v768 : T F Sx) (lin (V main_v828 : T F Sx) (W2at1 (V main_v792 : T F Sw2)) (b2at1 (V main_v794 : T F Sb2)))) := by
  dsimp only [hostOps24_4]; after_results_simp <;> rfl

theorem st_hostOps24_4_main_v839 (V : Valuation τ sig (Elt F)) :
    (after hostOps24_4 V main_v839 : T F Sx) = (third (addf (V main_v768 : T F Sx) (lin (V main_v828 : T F Sx) (W2at1 (V main_v792 : T F Sw2)) (b2at1 (V main_v794 : T F Sb2))))) := by
  dsimp only [hostOps24_4]; after_results_simp <;> rfl

theorem st_hostOps24_4_main_v843 (V : Valuation τ sig (Elt F)) :
    (after hostOps24_4 V main_v843 : T F S0) = (mse (V main_v209 : T F Sx) (third (addf (V main_v768 : T F Sx) (lin (V main_v828 : T F Sx) (W2at1 (V main_v792 : T F Sw2)) (b2at1 (V main_v794 : T F Sb2)))))) := by
  dsimp only [hostOps24_4]; after_results_simp <;> rfl

theorem st_hostOps24_4_main_v847 (V : Valuation τ sig (Elt F)) :
    (after hostOps24_4 V main_v847 : T F S0) = (mse (V main_v419 : T F Sx) (third (addf (V main_v768 : T F Sx) (lin (V main_v828 : T F Sx) (W2at1 (V main_v792 : T F Sw2)) (b2at1 (V main_v794 : T F Sb2)))))) := by
  dsimp only [hostOps24_4]; after_results_simp <;> rfl

theorem st_hostOps24_4_main_v851 (V : Valuation τ sig (Elt F)) :
    (after hostOps24_4 V main_v851 : T F S0) = (mse (V main_v629 : T F Sx) (third (addf (V main_v768 : T F Sx) (lin (V main_v828 : T F Sx) (W2at1 (V main_v792 : T F Sw2)) (b2at1 (V main_v794 : T F Sb2)))))) := by
  dsimp only [hostOps24_4]; after_results_simp <;> rfl

end Cert.KernelIdeal.Hand

end
-- ==== Proof.KHostCh.lean ====
import proofs.«169706_j68856915690108_1_alg».proof.Proof.RegionsKI
import proofs.«169706_j68856915690108_1_alg».proof.Proof.KHostSt0
import proofs.«169706_j68856915690108_1_alg».proof.Proof.KHostSt1
import proofs.«169706_j68856915690108_1_alg».proof.Proof.KHostSt2
import proofs.«169706_j68856915690108_1_alg».proof.Proof.KHostSt3

set_option maxRecDepth 7604
set_option maxHeartbeats 4000000

noncomputable section

namespace Cert.KernelIdeal.Hand

open Cert.KernelIdeal.Gen Cert.KernelIdeal.GenP Cert.Hand Idealize.ShloMosaic Idealize.ShloMosaic.TcCoe Idealize.SL.Sem Idealize.ShloMosaic.StableHlo

variable {F : FTy → Type} [FloatOps F]

/-- Argument main_arg0 as launched. -/
noncomputable def kv_main_arg0 (m : (ℓ : Loc nD τ sig) → Buf (Elt F) ℓ) (outs : Outs (F := F)) (c : Dev nD) : T F Sx := m ((c : Thread nD τ).loc main_arg0)
/-- Argument main_arg1 as launched. -/
noncomputable def kv_main_arg1 (m : (ℓ : Loc nD τ sig) → Buf (Elt F) ℓ) (outs : Outs (F := F)) (c : Dev nD) : T F Sx := m ((c : Thread nD τ).loc main_arg1)
/-- Argument main_arg2 as launched. -/
noncomputable def kv_main_arg2 (m : (ℓ : Loc nD τ sig) → Buf (Elt F) ℓ) (outs : Outs (F := F)) (c : Dev nD) : T F Sx := m ((c : Thread nD τ).loc main_arg2)
/-- Argument main_arg3 as launched. -/
noncomputable def kv_main_arg3 (m : (ℓ : Loc nD τ sig) → Buf (Elt F) ℓ) (outs : Outs (F := F)) (c : Dev nD) : T F Sx := m ((c : Thread nD τ).loc main_arg3)
/-- Argument main_arg4 as launched. -/
noncomputable def kv_main_arg4 (m : (ℓ : Loc nD τ sig) → Buf (Elt F) ℓ) (outs : Outs (F := F)) (c : Dev nD) : T F Sw2 := m ((c : Thread nD τ).loc main_arg4)
/-- Argument main_arg5 as launched. -/
noncomputable def kv_main_arg5 (m : (ℓ : Loc nD τ sig) → Buf (Elt F) ℓ) (outs : Outs (F := F)) (c : Dev nD) : T F Sb2 := m ((c : Thread nD τ).loc main_arg5)
/-- Argument main_arg6 as launched. -/
noncomputable def kv_main_arg6 (m : (ℓ : Loc nD τ sig) → Buf (Elt F) ℓ) (outs : Outs (F := F)) (c : Dev nD) : T F Sw32 := m ((c : Thread nD τ).loc main_arg6)
/-- Argument main_arg7 as launched. -/
noncomputable def kv_main_arg7 (m : (ℓ : Loc nD τ sig) → Buf (Elt F) ℓ) (outs : Outs (F := F)) (c : Dev nD) : T F Sb32 := m ((c : Thread nD τ).loc main_arg7)
/-- Argument main_arg8 as launched. -/
noncomputable def kv_main_arg8 (m : (ℓ : Loc nD τ sig) → Buf (Elt F) ℓ) (outs : Outs (F := F)) (c : Dev nD) : T F Sb32 := m ((c : Thread nD τ).loc main_arg8)
/-- Argument main_arg9 as launched. -/
noncomputable def kv_main_arg9 (m : (ℓ : Loc nD τ sig) → Buf (Elt F) ℓ) (outs : Outs (F := F)) (c : Dev nD) : T F Sw2 := m ((c : Thread nD τ).loc main_arg9)
/-- Argument main_arg10 as launched. -/
noncomputable def kv_main_arg10 (m : (ℓ : Loc nD τ sig) → Buf (Elt F) ℓ) (outs : Outs (F := F)) (c : Dev nD) : T F Sb2 := m ((c : Thread nD τ).loc main_arg10)
/-- Argument main_arg11 as launched. -/
noncomputable def kv_main_arg11 (m : (ℓ : Loc nD τ sig) → Buf (Elt F) ℓ) (outs : Outs (F := F)) (c : Dev nD) : T F Sw32 := m ((c : Thread nD τ).loc main_arg11)
/-- Argument main_arg12 as launched. -/
noncomputable def kv_main_arg12 (m : (ℓ : Loc nD τ sig) → Buf (Elt F) ℓ) (outs : Outs (F := F)) (c : Dev nD) : T F Sb32 := m ((c : Thread nD τ).loc main_arg12)
/-- Argument main_arg13 as launched. -/
noncomputable def kv_main_arg13 (m : (ℓ : Loc nD τ sig) → Buf (Elt F) ℓ) (outs : Outs (F := F)) (c : Dev nD) : T F Sb32 := m ((c : Thread nD τ).loc main_arg13)
/-- Argument main_arg14 as launched. -/
noncomputable def kv_main_arg14 (m : (ℓ : Loc nD τ sig) → Buf (Elt F) ℓ) (outs : Outs (F := F)) (c : Dev nD) : T F Sw2 := m ((c : Thread nD τ).loc main_arg14)
/-- Argument main_arg15 as launched. -/
noncomputable def kv_main_arg15 (m : (ℓ : Loc nD τ sig) → Buf (Elt F) ℓ) (outs : Outs (F := F)) (c : Dev nD) : T F Sb2 := m ((c : Thread nD τ).loc main_arg15)
/-- Argument main_arg16 as launched. -/
noncomputable def kv_main_arg16 (m : (ℓ : Loc nD τ sig) → Buf (Elt F) ℓ) (outs : Outs (F := F)) (c : Dev nD) : T F Sw32 := m ((c : Thread nD τ).loc main_arg16)
/-- Argument main_arg17 as launched. -/
noncomputable def kv_main_arg17 (m : (ℓ : Loc nD τ sig) → Buf (Elt F) ℓ) (outs : Outs (F := F)) (c : Dev nD) : T F Sb32 := m ((c : Thread nD τ).loc main_arg17)
/-- Argument main_arg18 as launched. -/
noncomputable def kv_main_arg18 (m : (ℓ : Loc nD τ sig) → Buf (Elt F) ℓ) (outs : Outs (F := F)) (c : Dev nD) : T F Sb32 := m ((c : Thread nD τ).loc main_arg18)
noncomputable def kv_main_v0 (m : (ℓ : Loc nD τ sig) → Buf (Elt F) ℓ) (outs : Outs (F := F)) (c : Dev nD) : T F Sx := (fill 0x00000000#32)
noncomputable def kv_main_v8 (m : (ℓ : Loc nD τ sig) → Buf (Elt F) ℓ) (outs : Outs (F := F)) (c : Dev nD) : T F Sx := (lin (kv_main_arg0 m outs c) (W2at0 (kv_main_arg4 m outs c)) (b2at0 (kv_main_arg5 m outs c)))
noncomputable def kv_main_v9 (m : (ℓ : Loc nD τ sig) → Buf (Elt F) ℓ) (outs : Outs (F := F)) (c : Dev nD) : T F Sx := (elu (kv_main_v8 m outs c))
noncomputable def kv_main_v17 (m : (ℓ : Loc nD τ sig) → Buf (Elt F) ℓ) (outs : Outs (F := F)) (c : Dev nD) : T F Sx := (lin (kv_main_v9 m outs c) (W2at1 (kv_main_arg4 m outs c)) (b2at1 (kv_main_arg5 m outs c)))
noncomputable def kv_main_v18 (m : (ℓ : Loc nD τ sig) → Buf (Elt F) ℓ) (outs : Outs (F := F)) (c : Dev nD) : T F Sx := (elu (kv_main_v17 m outs c))
/-- What region 0 leaves in main_v19. -/
noncomputable def kv_main_v19 (m : (ℓ : Loc nD τ sig) → Buf (Elt F) ℓ) (outs : Outs (F := F)) (c : Dev nD) : T F S11 := outs 5 main_v19 c
noncomputable def kv_main_v21 (m : (ℓ : Loc nD τ sig) → Buf (Elt F) ℓ) (outs : Outs (F := F)) (c : Dev nD) : T F S11 := (meanOf (kv_main_v19 m outs c))
/-- What region 1 leaves in main_v22. -/
noncomputable def kv_main_v22 (m : (ℓ : Loc nD τ sig) → Buf (Elt F) ℓ) (outs : Outs (F := F)) (c : Dev nD) : T F Sx := outs 7 main_v22 c
noncomputable def kv_main_v24 (m : (ℓ : Loc nD τ sig) → Buf (Elt F) ℓ) (outs : Outs (F := F)) (c : Dev nD) : T F Sw2 := (W3at0 (kv_main_arg6 m outs c))
noncomputable def kv_main_v26 (m : (ℓ : Loc nD τ sig) → Buf (Elt F) ℓ) (outs : Outs (F := F)) (c : Dev nD) : T F Sb2 := (b3at0 (kv_main_arg7 m outs c))
noncomputable def kv_main_v28 (m : (ℓ : Loc nD τ sig) → Buf (Elt F) ℓ) (outs : Outs (F := F)) (c : Dev nD) : T F Sb2 := (b3at0 (kv_main_arg8 m outs c))
noncomputable def kv_main_v36 (m : (ℓ : Loc nD τ sig) → Buf (Elt F) ℓ) (outs : Outs (F := F)) (c : Dev nD) : T F Sx := (lin (kv_main_v22 m outs c) (W2at0 (W3at0 (kv_main_arg6 m outs c))) (b2at0 (b3at0 (kv_main_arg7 m outs c))))
noncomputable def kv_main_v39 (m : (ℓ : Loc nD τ sig) → Buf (Elt F) ℓ) (outs : Outs (F := F)) (c : Dev nD) : T F Sb := (colMean (lin (kv_main_v22 m outs c) (W2at0 (W3at0 (kv_main_arg6 m outs c))) (b2at0 (b3at0 (kv_main_arg7 m outs c)))))
noncomputable def kv_main_c (m : (ℓ : Loc nD τ sig) → Buf (Elt F) ℓ) (outs : Outs (F := F)) (c : Dev nD) : IVec S0 32 := ddof0
noncomputable def kv_main_v40 (m : (ℓ : Loc nD τ sig) → Buf (Elt F) ℓ) (outs : Outs (F := F)) (c : Dev nD) : T F Sb := (colVar (kv_main_v36 m outs c) (kv_main_c m outs c))
noncomputable def kv_main_v59 (m : (ℓ : Loc nD τ sig) → Buf (Elt F) ℓ) (outs : Outs (F := F)) (c : Dev nD) : T F Sx := (bnorm (kv_main_v36 m outs c) (kv_main_v39 m outs c) (kv_main_v40 m outs c) (kv_main_v28 m outs c))
noncomputable def kv_main_v60 (m : (ℓ : Loc nD τ sig) → Buf (Elt F) ℓ) (outs : Outs (F := F)) (c : Dev nD) : T F Sx := (relu (kv_main_v59 m outs c))
noncomputable def kv_main_v68 (m : (ℓ : Loc nD τ sig) → Buf (Elt F) ℓ) (outs : Outs (F := F)) (c : Dev nD) : T F Sx := (lin (kv_main_v60 m outs c) (W2at1 (kv_main_v24 m outs c)) (b2at1 (kv_main_v26 m outs c)))
noncomputable def kv_main_v69 (m : (ℓ : Loc nD τ sig) → Buf (Elt F) ℓ) (outs : Outs (F := F)) (c : Dev nD) : T F Sx := (addf (kv_main_v0 m outs c) (lin (kv_main_v60 m outs c) (W2at1 (kv_main_v24 m outs c)) (b2at1 (kv_main_v26 m outs c))))
noncomputable def kv_main_v77 (m : (ℓ : Loc nD τ sig) → Buf (Elt F) ℓ) (outs : Outs (F := F)) (c : Dev nD) : T F Sx := (lin (lin (kv_main_v60 m outs c) (W2at1 (kv_main_v24 m outs c)) (b2at1 (kv_main_v26 m outs c))) (W2at0 (kv_main_arg4 m outs c)) (b2at0 (kv_main_arg5 m outs c)))
noncomputable def kv_main_v78 (m : (ℓ : Loc nD τ sig) → Buf (Elt F) ℓ) (outs : Outs (F := F)) (c : Dev nD) : T F Sx := (elu (kv_main_v77 m outs c))
noncomputable def kv_main_v86 (m : (ℓ : Loc nD τ sig) → Buf (Elt F) ℓ) (outs : Outs (F := F)) (c : Dev nD) : T F Sx := (lin (kv_main_v78 m outs c) (W2at1 (kv_main_arg4 m outs c)) (b2at1 (kv_main_arg5 m outs c)))
noncomputable def kv_main_v87 (m : (ℓ : Loc nD τ sig) → Buf (Elt F) ℓ) (outs : Outs (F := F)) (c : Dev nD) : T F Sx := (elu (kv_main_v86 m outs c))
/-- What region 2 leaves in main_v88. -/
noncomputable def kv_main_v88 (m : (ℓ : Loc nD τ sig) → Buf (Elt F) ℓ) (outs : Outs (F := F)) (c : Dev nD) : T F S11 := outs 16 main_v88 c
noncomputable def kv_main_v90 (m : (ℓ : Loc nD τ sig) → Buf (Elt F) ℓ) (outs : Outs (F := F)) (c : Dev nD) : T F S11 := (meanOf (kv_main_v88 m outs c))
/-- What region 3 leaves in main_v91. -/
noncomputable def kv_main_v91 (m : (ℓ : Loc nD τ sig) → Buf (Elt F) ℓ) (outs : Outs (F := F)) (c : Dev nD) : T F Sx := outs 18 main_v91 c
noncomputable def kv_main_v93 (m : (ℓ : Loc nD τ sig) → Buf (Elt F) ℓ) (outs : Outs (F := F)) (c : Dev nD) : T F Sw2 := (W3at1 (kv_main_arg6 m outs c))
noncomputable def kv_main_v95 (m : (ℓ : Loc nD τ sig) → Buf (Elt F) ℓ) (outs : Outs (F := F)) (c : Dev nD) : T F Sb2 := (b3at1 (kv_main_arg7 m outs c))
noncomputable def kv_main_v97 (m : (ℓ : Loc nD τ sig) → Buf (Elt F) ℓ) (outs : Outs (F := F)) (c : Dev nD) : T F Sb2 := (b3at1 (kv_main_arg8 m outs c))
noncomputable def kv_main_v105 (m : (ℓ : Loc nD τ sig) → Buf (Elt F) ℓ) (outs : Outs (F := F)) (c : Dev nD) : T F Sx := (lin (kv_main_v91 m outs c) (W2at0 (W3at1 (kv_main_arg6 m outs c))) (b2at0 (b3at1 (kv_main_arg7 m outs c))))
noncomputable def kv_main_v108 (m : (ℓ : Loc nD τ sig) → Buf (Elt F) ℓ) (outs : Outs (F := F)) (c : Dev nD) : T F Sb := (colMean (lin (kv_main_v91 m outs c) (W2at0 (W3at1 (kv_main_arg6 m outs c))) (b2at0 (b3at1 (kv_main_arg7 m outs c)))))
noncomputable def kv_main_c_7 (m : (ℓ : Loc nD τ sig) → Buf (Elt F) ℓ) (outs : Outs (F := F)) (c : Dev nD) : IVec S0 32 := ddof0
noncomputable def kv_main_v109 (m : (ℓ : Loc nD τ sig) → Buf (Elt F) ℓ) (outs : Outs (F := F)) (c : Dev nD) : T F Sb := (colVar (kv_main_v105 m outs c) (kv_main_c_7 m outs c))
noncomputable def kv_main_v128 (m : (ℓ : Loc nD τ sig) → Buf (Elt F) ℓ) (outs : Outs (F := F)) (c : Dev nD) : T F Sx := (bnorm (kv_main_v105 m outs c) (kv_main_v108 m outs c) (kv_main_v109 m outs c) (kv_main_v97 m outs c))
noncomputable def kv_main_v129 (m : (ℓ : Loc nD τ sig) → Buf (Elt F) ℓ) (outs : Outs (F := F)) (c : Dev nD) : T F Sx := (relu (kv_main_v128 m outs c))
noncomputable def kv_main_v137 (m : (ℓ : Loc nD τ sig) → Buf (Elt F) ℓ) (outs : Outs (F := F)) (c : Dev nD) : T F Sx := (lin (kv_main_v129 m outs c) (W2at1 (kv_main_v93 m outs c)) (b2at1 (kv_main_v95 m outs c)))
noncomputable def kv_main_v138 (m : (ℓ : Loc nD τ sig) → Buf (Elt F) ℓ) (outs : Outs (F := F)) (c : Dev nD) : T F Sx := (addf (kv_main_v69 m outs c) (lin (kv_main_v129 m outs c) (W2at1 (kv_main_v93 m outs c)) (b2at1 (kv_main_v95 m outs c))))
noncomputable def kv_main_v146 (m : (ℓ : Loc nD τ sig) → Buf (Elt F) ℓ) (outs : Outs (F := F)) (c : Dev nD) : T F Sx := (lin (lin (kv_main_v129 m outs c) (W2at1 (kv_main_v93 m outs c)) (b2at1 (kv_main_v95 m outs c))) (W2at0 (kv_main_arg4 m outs c)) (b2at0 (kv_main_arg5 m outs c)))
noncomputable def kv_main_v147 (m : (ℓ : Loc nD τ sig) → Buf (Elt F) ℓ) (outs : Outs (F := F)) (c : Dev nD) : T F Sx := (elu (kv_main_v146 m outs c))
noncomputable def kv_main_v155 (m : (ℓ : Loc nD τ sig) → Buf (Elt F) ℓ) (outs : Outs (F := F)) (c : Dev nD) : T F Sx := (lin (kv_main_v147 m outs c) (W2at1 (kv_main_arg4 m outs c)) (b2at1 (kv_main_arg5 m outs c)))
noncomputable def kv_main_v156 (m : (ℓ : Loc nD τ sig) → Buf (Elt F) ℓ) (outs : Outs (F := F)) (c : Dev nD) : T F Sx := (elu (kv_main_v155 m outs c))
/-- What region 4 leaves in main_v157. -/
noncomputable def kv_main_v157 (m : (ℓ : Loc nD τ sig) → Buf (Elt F) ℓ) (outs : Outs (F := F)) (c : Dev nD) : T F S11 := outs 27 main_v157 c
noncomputable def kv_main_v159 (m : (ℓ : Loc nD τ sig) → Buf (Elt F) ℓ) (outs : Outs (F := F)) (c : Dev nD) : T F S11 := (meanOf (kv_main_v157 m outs c))
/-- What region 5 leaves in main_v160. -/
noncomputable def kv_main_v160 (m : (ℓ : Loc nD τ sig) → Buf (Elt F) ℓ) (outs : Outs (F := F)) (c : Dev nD) : T F Sx := outs 29 main_v160 c
noncomputable def kv_main_v162 (m : (ℓ : Loc nD τ sig) → Buf (Elt F) ℓ) (outs : Outs (F := F)) (c : Dev nD) : T F Sw2 := (W3at2 (kv_main_arg6 m outs c))
noncomputable def kv_main_v164 (m : (ℓ : Loc nD τ sig) → Buf (Elt F) ℓ) (outs : Outs (F := F)) (c : Dev nD) : T F Sb2 := (b3at2 (kv_main_arg7 m outs c))
noncomputable def kv_main_v166 (m : (ℓ : Loc nD τ sig) → Buf (Elt F) ℓ) (outs : Outs (F := F)) (c : Dev nD) : T F Sb2 := (b3at2 (kv_main_arg8 m outs c))
noncomputable def kv_main_v174 (m : (ℓ : Loc nD τ sig) → Buf (Elt F) ℓ) (outs : Outs (F := F)) (c : Dev nD) : T F Sx := (lin (kv_main_v160 m outs c) (W2at0 (W3at2 (kv_main_arg6 m outs c))) (b2at0 (b3at2 (kv_main_arg7 m outs c))))
noncomputable def kv_main_v177 (m : (ℓ : Loc nD τ sig) → Buf (Elt F) ℓ) (outs : Outs (F := F)) (c : Dev nD) : T F Sb := (colMean (lin (kv_main_v160 m outs c) (W2at0 (W3at2 (kv_main_arg6 m outs c))) (b2at0 (b3at2 (kv_main_arg7 m outs c)))))
noncomputable def kv_main_c_12 (m : (ℓ : Loc nD τ sig) → Buf (Elt F) ℓ) (outs : Outs (F := F)) (c : Dev nD) : IVec S0 32 := ddof0
noncomputable def kv_main_v178 (m : (ℓ : Loc nD τ sig) → Buf (Elt F) ℓ) (outs : Outs (F := F)) (c : Dev nD) : T F Sb := (colVar (kv_main_v174 m outs c) (kv_main_c_12 m outs c))
noncomputable def kv_main_v197 (m : (ℓ : Loc nD τ sig) → Buf (Elt F) ℓ) (outs : Outs (F := F)) (c : Dev nD) : T F Sx := (bnorm (kv_main_v174 m outs c) (kv_main_v177 m outs c) (kv_main_v178 m outs c) (kv_main_v166 m outs c))
noncomputable def kv_main_v198 (m : (ℓ : Loc nD τ sig) → Buf (Elt F) ℓ) (outs : Outs (F := F)) (c : Dev nD) : T F Sx := (relu (kv_main_v197 m outs c))
noncomputable def kv_main_v206 (m : (ℓ : Loc nD τ sig) → Buf (Elt F) ℓ) (outs : Outs (F := F)) (c : Dev nD) : T F Sx := (lin (kv_main_v198 m outs c) (W2at1 (kv_main_v162 m outs c)) (b2at1 (kv_main_v164 m outs c)))
noncomputable def kv_main_v207 (m : (ℓ : Loc nD τ sig) → Buf (Elt F) ℓ) (outs : Outs (F := F)) (c : Dev nD) : T F Sx := (addf (kv_main_v138 m outs c) (lin (kv_main_v198 m outs c) (W2at1 (kv_main_v162 m outs c)) (b2at1 (kv_main_v164 m outs c))))
noncomputable def kv_main_v209 (m : (ℓ : Loc nD τ sig) → Buf (Elt F) ℓ) (outs : Outs (F := F)) (c : Dev nD) : T F Sx := (third (addf (kv_main_v138 m outs c) (lin (kv_main_v198 m outs c) (W2at1 (kv_main_v162 m outs c)) (b2at1 (kv_main_v164 m outs c)))))
noncomputable def kv_main_v210 (m : (ℓ : Loc nD τ sig) → Buf (Elt F) ℓ) (outs : Outs (F := F)) (c : Dev nD) : T F Sx := (fill 0x00000000#32)
noncomputable def kv_main_v218 (m : (ℓ : Loc nD τ sig) → Buf (Elt F) ℓ) (outs : Outs (F := F)) (c : Dev nD) : T F Sx := (lin (kv_main_arg1 m outs c) (W2at0 (kv_main_arg9 m outs c)) (b2at0 (kv_main_arg10 m outs c)))
noncomputable def kv_main_v219 (m : (ℓ : Loc nD τ sig) → Buf (Elt F) ℓ) (outs : Outs (F := F)) (c : Dev nD) : T F Sx := (elu (kv_main_v218 m outs c))
noncomputable def kv_main_v227 (m : (ℓ : Loc nD τ sig) → Buf (Elt F) ℓ) (outs : Outs (F := F)) (c : Dev nD) : T F Sx := (lin (kv_main_v219 m outs c) (W2at1 (kv_main_arg9 m outs c)) (b2at1 (kv_main_arg10 m outs c)))
noncomputable def kv_main_v228 (m : (ℓ : Loc nD τ sig) → Buf (Elt F) ℓ) (outs : Outs (F := F)) (c : Dev nD) : T F Sx := (elu (kv_main_v227 m outs c))
/-- What region 6 leaves in main_v229. -/
noncomputable def kv_main_v229 (m : (ℓ : Loc nD τ sig) → Buf (Elt F) ℓ) (outs : Outs (F := F)) (c : Dev nD) : T F S11 := outs 38 main_v229 c
noncomputable def kv_main_v231 (m : (ℓ : Loc nD τ sig) → Buf (Elt F) ℓ) (outs : Outs (F := F)) (c : Dev nD) : T F S11 := (meanOf (kv_main_v229 m outs c))
/-- What region 7 leaves in main_v232. -/
noncomputable def kv_main_v232 (m : (ℓ : Loc nD τ sig) → Buf (Elt F) ℓ) (outs : Outs (F := F)) (c : Dev nD) : T F Sx := outs 40 main_v232 c
noncomputable def kv_main_v234 (m : (ℓ : Loc nD τ sig) → Buf (Elt F) ℓ) (outs : Outs (F := F)) (c : Dev nD) : T F Sw2 := (W3at0 (kv_main_arg11 m outs c))
noncomputable def kv_main_v236 (m : (ℓ : Loc nD τ sig) → Buf (Elt F) ℓ) (outs : Outs (F := F)) (c : Dev nD) : T F Sb2 := (b3at0 (kv_main_arg12 m outs c))
noncomputable def kv_main_v238 (m : (ℓ : Loc nD τ sig) → Buf (Elt F) ℓ) (outs : Outs (F := F)) (c : Dev nD) : T F Sb2 := (b3at0 (kv_main_arg13 m outs c))
noncomputable def kv_main_v246 (m : (ℓ : Loc nD τ sig) → Buf (Elt F) ℓ) (outs : Outs (F := F)) (c : Dev nD) : T F Sx := (lin (kv_main_v232 m outs c) (W2at0 (W3at0 (kv_main_arg11 m outs c))) (b2at0 (b3at0 (kv_main_arg12 m outs c))))
noncomputable def kv_main_v249 (m : (ℓ : Loc nD τ sig) → Buf (Elt F) ℓ) (outs : Outs (F := F)) (c : Dev nD) : T F Sb := (colMean (lin (kv_main_v232 m outs c) (W2at0 (W3at0 (kv_main_arg11 m outs c))) (b2at0 (b3at0 (kv_main_arg12 m outs c)))))
noncomputable def kv_main_c_19 (m : (ℓ : Loc nD τ sig) → Buf (Elt F) ℓ) (outs : Outs (F := F)) (c : Dev nD) : IVec S0 32 := ddof0
noncomputable def kv_main_v250 (m : (ℓ : Loc nD τ sig) → Buf (Elt F) ℓ) (outs : Outs (F := F)) (c : Dev nD) : T F Sb := (colVar (kv_main_v246 m outs c) (kv_main_c_19 m outs c))
noncomputable def kv_main_v269 (m : (ℓ : Loc nD τ sig) → Buf (Elt F) ℓ) (outs : Outs (F := F)) (c : Dev nD) : T F Sx := (bnorm (kv_main_v246 m outs c) (kv_main_v249 m outs c) (kv_main_v250 m outs c) (kv_main_v238 m outs c))
noncomputable def kv_main_v270 (m : (ℓ : Loc nD τ sig) → Buf (Elt F) ℓ) (outs : Outs (F := F)) (c : Dev nD) : T F Sx := (relu (kv_main_v269 m outs c))
noncomputable def kv_main_v278 (m : (ℓ : Loc nD τ sig) → Buf (Elt F) ℓ) (outs : Outs (F := F)) (c : Dev nD) : T F Sx := (lin (kv_main_v270 m outs c) (W2at1 (kv_main_v234 m outs c)) (b2at1 (kv_main_v236 m outs c)))
noncomputable def kv_main_v279 (m : (ℓ : Loc nD τ sig) → Buf (Elt F) ℓ) (outs : Outs (F := F)) (c : Dev nD) : T F Sx := (addf (kv_main_v210 m outs c) (lin (kv_main_v270 m outs c) (W2at1 (kv_main_v234 m outs c)) (b2at1 (kv_main_v236 m outs c))))
noncomputable def kv_main_v287 (m : (ℓ : Loc nD τ sig) → Buf (Elt F) ℓ) (outs : Outs (F := F)) (c : Dev nD) : T F Sx := (lin (lin (kv_main_v270 m outs c) (W2at1 (kv_main_v234 m outs c)) (b2at1 (kv_main_v236 m outs c))) (W2at0 (kv_main_arg9 m outs c)) (b2at0 (kv_main_arg10 m outs c)))
noncomputable def kv_main_v288 (m : (ℓ : Loc nD τ sig) → Buf (Elt F) ℓ) (outs : Outs (F := F)) (c : Dev nD) : T F Sx := (elu (kv_main_v287 m outs c))
noncomputable def kv_main_v296 (m : (ℓ : Loc nD τ sig) → Buf (Elt F) ℓ) (outs : Outs (F := F)) (c : Dev nD) : T F Sx := (lin (kv_main_v288 m outs c) (W2at1 (kv_main_arg9 m outs c)) (b2at1 (kv_main_arg10 m outs c)))
noncomputable def kv_main_v297 (m : (ℓ : Loc nD τ sig) → Buf (Elt F) ℓ) (outs : Outs (F := F)) (c : Dev nD) : T F Sx := (elu (kv_main_v296 m outs c))
/-- What region 8 leaves in main_v298. -/
noncomputable def kv_main_v298 (m : (ℓ : Loc nD τ sig) → Buf (Elt F) ℓ) (outs : Outs (F := F)) (c : Dev nD) : T F S11 := outs 49 main_v298 c
noncomputable def kv_main_v300 (m : (ℓ : Loc nD τ sig) → Buf (Elt F) ℓ) (outs : Outs (F := F)) (c : Dev nD) : T F S11 := (meanOf (kv_main_v298 m outs c))
/-- What region 9 leaves in main_v301. -/
noncomputable def kv_main_v301 (m : (ℓ : Loc nD τ sig) → Buf (Elt F) ℓ) (outs : Outs (F := F)) (c : Dev nD) : T F Sx := outs 51 main_v301 c
noncomputable def kv_main_v303 (m : (ℓ : Loc nD τ sig) → Buf (Elt F) ℓ) (outs : Outs (F := F)) (c : Dev nD) : T F Sw2 := (W3at1 (kv_main_arg11 m outs c))
noncomputable def kv_main_v305 (m : (ℓ : Loc nD τ sig) → Buf (Elt F) ℓ) (outs : Outs (F := F)) (c : Dev nD) : T F Sb2 := (b3at1 (kv_main_arg12 m outs c))
noncomputable def kv_main_v307 (m : (ℓ : Loc nD τ sig) → Buf (Elt F) ℓ) (outs : Outs (F := F)) (c : Dev nD) : T F Sb2 := (b3at1 (kv_main_arg13 m outs c))
noncomputable def kv_main_v315 (m : (ℓ : Loc nD τ sig) → Buf (Elt F) ℓ) (outs : Outs (F := F)) (c : Dev nD) : T F Sx := (lin (kv_main_v301 m outs c) (W2at0 (W3at1 (kv_main_arg11 m outs c))) (b2at0 (b3at1 (kv_main_arg12 m outs c))))
noncomputable def kv_main_v318 (m : (ℓ : Loc nD τ sig) → Buf (Elt F) ℓ) (outs : Outs (F := F)) (c : Dev nD) : T F Sb := (colMean (lin (kv_main_v301 m outs c) (W2at0 (W3at1 (kv_main_arg11 m outs c))) (b2at0 (b3at1 (kv_main_arg12 m outs c)))))
noncomputable def kv_main_c_24 (m : (ℓ : Loc nD τ sig) → Buf (Elt F) ℓ) (outs : Outs (F := F)) (c : Dev nD) : IVec S0 32 := ddof0
noncomputable def kv_main_v319 (m : (ℓ : Loc nD τ sig) → Buf (Elt F) ℓ) (outs : Outs (F := F)) (c : Dev nD) : T F Sb := (colVar (kv_main_v315 m outs c) (kv_main_c_24 m outs c))
noncomputable def kv_main_v338 (m : (ℓ : Loc nD τ sig) → Buf (Elt F) ℓ) (outs : Outs (F := F)) (c : Dev nD) : T F Sx := (bnorm (kv_main_v315 m outs c) (kv_main_v318 m outs c) (kv_main_v319 m outs c) (kv_main_v307 m outs c))
noncomputable def kv_main_v339 (m : (ℓ : Loc nD τ sig) → Buf (Elt F) ℓ) (outs : Outs (F := F)) (c : Dev nD) : T F Sx := (relu (kv_main_v338 m outs c))
noncomputable def kv_main_v347 (m : (ℓ : Loc nD τ sig) → Buf (Elt F) ℓ) (outs : Outs (F := F)) (c : Dev nD) : T F Sx := (lin (kv_main_v339 m outs c) (W2at1 (kv_main_v303 m outs c)) (b2at1 (kv_main_v305 m outs c)))
noncomputable def kv_main_v348 (m : (ℓ : Loc nD τ sig) → Buf (Elt F) ℓ) (outs : Outs (F := F)) (c : Dev nD) : T F Sx := (addf (kv_main_v279 m outs c) (lin (kv_main_v339 m outs c) (W2at1 (kv_main_v303 m outs c)) (b2at1 (kv_main_v305 m outs c))))
noncomputable def kv_main_v356 (m : (ℓ : Loc nD τ sig) → Buf (Elt F) ℓ) (outs : Outs (F := F)) (c : Dev nD) : T F Sx := (lin (lin (kv_main_v339 m outs c) (W2at1 (kv_main_v303 m outs c)) (b2at1 (kv_main_v305 m outs c))) (W2at0 (kv_main_arg9 m outs c)) (b2at0 (kv_main_arg10 m outs c)))
noncomputable def kv_main_v357 (m : (ℓ : Loc nD τ sig) → Buf (Elt F) ℓ) (outs : Outs (F := F)) (c : Dev nD) : T F Sx := (elu (kv_main_v356 m outs c))
noncomputable def kv_main_v365 (m : (ℓ : Loc nD τ sig) → Buf (Elt F) ℓ) (outs : Outs (F := F)) (c : Dev nD) : T F Sx := (lin (kv_main_v357 m outs c) (W2at1 (kv_main_arg9 m outs c)) (b2at1 (kv_main_arg10 m outs c)))
noncomputable def kv_main_v366 (m : (ℓ : Loc nD τ sig) → Buf (Elt F) ℓ) (outs : Outs (F := F)) (c : Dev nD) : T F Sx := (elu (kv_main_v365 m outs c))
/-- What region 10 leaves in main_v367. -/
noncomputable def kv_main_v367 (m : (ℓ : Loc nD τ sig) → Buf (Elt F) ℓ) (outs : Outs (F := F)) (c : Dev nD) : T F S11 := outs 60 main_v367 c
noncomputable def kv_main_v369 (m : (ℓ : Loc nD τ sig) → Buf (Elt F) ℓ) (outs : Outs (F := F)) (c : Dev nD) : T F S11 := (meanOf (kv_main_v367 m outs c))
/-- What region 11 leaves in main_v370. -/
noncomputable def kv_main_v370 (m : (ℓ : Loc nD τ sig) → Buf (Elt F) ℓ) (outs : Outs (F := F)) (c : Dev nD) : T F Sx := outs 62 main_v370 c
noncomputable def kv_main_v372 (m : (ℓ : Loc nD τ sig) → Buf (Elt F) ℓ) (outs : Outs (F := F)) (c : Dev nD) : T F Sw2 := (W3at2 (kv_main_arg11 m outs c))
noncomputable def kv_main_v374 (m : (ℓ : Loc nD τ sig) → Buf (Elt F) ℓ) (outs : Outs (F := F)) (c : Dev nD) : T F Sb2 := (b3at2 (kv_main_arg12 m outs c))
noncomputable def kv_main_v376 (m : (ℓ : Loc nD τ sig) → Buf (Elt F) ℓ) (outs : Outs (F := F)) (c : Dev nD) : T F Sb2 := (b3at2 (kv_main_arg13 m outs c))
noncomputable def kv_main_v384 (m : (ℓ : Loc nD τ sig) → Buf (Elt F) ℓ) (outs : Outs (F := F)) (c : Dev nD) : T F Sx := (lin (kv_main_v370 m outs c) (W2at0 (W3at2 (kv_main_arg11 m outs c))) (b2at0 (b3at2 (kv_main_arg12 m outs c))))
noncomputable def kv_main_v387 (m : (ℓ : Loc nD τ sig) → Buf (Elt F) ℓ) (outs : Outs (F := F)) (c : Dev nD) : T F Sb := (colMean (lin (kv_main_v370 m outs c) (W2at0 (W3at2 (kv_main_arg11 m outs c))) (b2at0 (b3at2 (kv_main_arg12 m outs c)))))
noncomputable def kv_main_c_29 (m : (ℓ : Loc nD τ sig) → Buf (Elt F) ℓ) (outs : Outs (F := F)) (c : Dev nD) : IVec S0 32 := ddof0
noncomputable def kv_main_v388 (m : (ℓ : Loc nD τ sig) → Buf (Elt F) ℓ) (outs : Outs (F := F)) (c : Dev nD) : T F Sb := (colVar (kv_main_v384 m outs c) (kv_main_c_29 m outs c))
noncomputable def kv_main_v407 (m : (ℓ : Loc nD τ sig) → Buf (Elt F) ℓ) (outs : Outs (F := F)) (c : Dev nD) : T F Sx := (bnorm (kv_main_v384 m outs c) (kv_main_v387 m outs c) (kv_main_v388 m outs c) (kv_main_v376 m outs c))
noncomputable def kv_main_v408 (m : (ℓ : Loc nD τ sig) → Buf (Elt F) ℓ) (outs : Outs (F := F)) (c : Dev nD) : T F Sx := (relu (kv_main_v407 m outs c))
noncomputable def kv_main_v416 (m : (ℓ : Loc nD τ sig) → Buf (Elt F) ℓ) (outs : Outs (F := F)) (c : Dev nD) : T F Sx := (lin (kv_main_v408 m outs c) (W2at1 (kv_main_v372 m outs c)) (b2at1 (kv_main_v374 m outs c)))
noncomputable def kv_main_v417 (m : (ℓ : Loc nD τ sig) → Buf (Elt F) ℓ) (outs : Outs (F := F)) (c : Dev nD) : T F Sx := (addf (kv_main_v348 m outs c) (lin (kv_main_v408 m outs c) (W2at1 (kv_main_v372 m outs c)) (b2at1 (kv_main_v374 m outs c))))
noncomputable def kv_main_v419 (m : (ℓ : Loc nD τ sig) → Buf (Elt F) ℓ) (outs : Outs (F := F)) (c : Dev nD) : T F Sx := (third (addf (kv_main_v348 m outs c) (lin (kv_main_v408 m outs c) (W2at1 (kv_main_v372 m outs c)) (b2at1 (kv_main_v374 m outs c)))))
noncomputable def kv_main_v420 (m : (ℓ : Loc nD τ sig) → Buf (Elt F) ℓ) (outs : Outs (F := F)) (c : Dev nD) : T F Sx := (fill 0x00000000#32)
noncomputable def kv_main_v428 (m : (ℓ : Loc nD τ sig) → Buf (Elt F) ℓ) (outs : Outs (F := F)) (c : Dev nD) : T F Sx := (lin (kv_main_arg2 m outs c) (W2at0 (kv_main_arg14 m outs c)) (b2at0 (kv_main_arg15 m outs c)))
noncomputable def kv_main_v429 (m : (ℓ : Loc nD τ sig) → Buf (Elt F) ℓ) (outs : Outs (F := F)) (c : Dev nD) : T F Sx := (elu (kv_main_v428 m outs c))
noncomputable def kv_main_v437 (m : (ℓ : Loc nD τ sig) → Buf (Elt F) ℓ) (outs : Outs (F := F)) (c : Dev nD) : T F Sx := (lin (kv_main_v429 m outs c) (W2at1 (kv_main_arg14 m outs c)) (b2at1 (kv_main_arg15 m outs c)))
noncomputable def kv_main_v438 (m : (ℓ : Loc nD τ sig) → Buf (Elt F) ℓ) (outs : Outs (F := F)) (c : Dev nD) : T F Sx := (elu (kv_main_v437 m outs c))
/-- What region 12 leaves in main_v439. -/
noncomputable def kv_main_v439 (m : (ℓ : Loc nD τ sig) → Buf (Elt F) ℓ) (outs : Outs (F := F)) (c : Dev nD) : T F S11 := outs 71 main_v439 c
noncomputable def kv_main_v441 (m : (ℓ : Loc nD τ sig) → Buf (Elt F) ℓ) (outs : Outs (F := F)) (c : Dev nD) : T F S11 := (meanOf (kv_main_v439 m outs c))
/-- What region 13 leaves in main_v442. -/
noncomputable def kv_main_v442 (m : (ℓ : Loc nD τ sig) → Buf (Elt F) ℓ) (outs : Outs (F := F)) (c : Dev nD) : T F Sx := outs 73 main_v442 c
noncomputable def kv_main_v444 (m : (ℓ : Loc nD τ sig) → Buf (Elt F) ℓ) (outs : Outs (F := F)) (c : Dev nD) : T F Sw2 := (W3at0 (kv_main_arg16 m outs c))
noncomputable def kv_main_v446 (m : (ℓ : Loc nD τ sig) → Buf (Elt F) ℓ) (outs : Outs (F := F)) (c : Dev nD) : T F Sb2 := (b3at0 (kv_main_arg17 m outs c))
noncomputable def kv_main_v448 (m : (ℓ : Loc nD τ sig) → Buf (Elt F) ℓ) (outs : Outs (F := F)) (c : Dev nD) : T F Sb2 := (b3at0 (kv_main_arg18 m outs c))
noncomputable def kv_main_v456 (m : (ℓ : Loc nD τ sig) → Buf (Elt F) ℓ) (outs : Outs (F := F)) (c : Dev nD) : T F Sx := (lin (kv_main_v442 m outs c) (W2at0 (W3at0 (kv_main_arg16 m outs c))) (b2at0 (b3at0 (kv_main_arg17 m outs c))))
noncomputable def kv_main_v459 (m : (ℓ : Loc nD τ sig) → Buf (Elt F) ℓ) (outs : Outs (F := F)) (c : Dev nD) : T F Sb := (colMean (lin (kv_main_v442 m outs c) (W2at0 (W3at0 (kv_main_arg16 m outs c))) (b2at0 (b3at0 (kv_main_arg17 m outs c)))))
noncomputable def kv_main_c_36 (m : (ℓ : Loc nD τ sig) → Buf (Elt F) ℓ) (outs : Outs (F := F)) (c : Dev nD) : IVec S0 32 := ddof0
noncomputable def kv_main_v460 (m : (ℓ : Loc nD τ sig) → Buf (Elt F) ℓ) (outs : Outs (F := F)) (c : Dev nD) : T F Sb := (colVar (kv_main_v456 m outs c) (kv_main_c_36 m outs c))
noncomputable def kv_main_v479 (m : (ℓ : Loc nD τ sig) → Buf (Elt F) ℓ) (outs : Outs (F := F)) (c : Dev nD) : T F Sx := (bnorm (kv_main_v456 m outs c) (kv_main_v459 m outs c) (kv_main_v460 m outs c) (kv_main_v448 m outs c))
noncomputable def kv_main_v480 (m : (ℓ : Loc nD τ sig) → Buf (Elt F) ℓ) (outs : Outs (F := F)) (c : Dev nD) : T F Sx := (relu (kv_main_v479 m outs c))
noncomputable def kv_main_v488 (m : (ℓ : Loc nD τ sig) → Buf (Elt F) ℓ) (outs : Outs (F := F)) (c : Dev nD) : T F Sx := (lin (kv_main_v480 m outs c) (W2at1 (kv_main_v444 m outs c)) (b2at1 (kv_main_v446 m outs c)))
noncomputable def kv_main_v489 (m : (ℓ : Loc nD τ sig) → Buf (Elt F) ℓ) (outs : Outs (F := F)) (c : Dev nD) : T F Sx := (addf (kv_main_v420 m outs c) (lin (kv_main_v480 m outs c) (W2at1 (kv_main_v444 m outs c)) (b2at1 (kv_main_v446 m outs c))))
noncomputable def kv_main_v497 (m : (ℓ : Loc nD τ sig) → Buf (Elt F) ℓ) (outs : Outs (F := F)) (c : Dev nD) : T F Sx := (lin (lin (kv_main_v480 m outs c) (W2at1 (kv_main_v444 m outs c)) (b2at1 (kv_main_v446 m outs c))) (W2at0 (kv_main_arg14 m outs c)) (b2at0 (kv_main_arg15 m outs c)))
noncomputable def kv_main_v498 (m : (ℓ : Loc nD τ sig) → Buf (Elt F) ℓ) (outs : Outs (F := F)) (c : Dev nD) : T F Sx := (elu (kv_main_v497 m outs c))
noncomputable def kv_main_v506 (m : (ℓ : Loc nD τ sig) → Buf (Elt F) ℓ) (outs : Outs (F := F)) (c : Dev nD) : T F Sx := (lin (kv_main_v498 m outs c) (W2at1 (kv_main_arg14 m outs c)) (b2at1 (kv_main_arg15 m outs c)))
noncomputable def kv_main_v507 (m : (ℓ : Loc nD τ sig) → Buf (Elt F) ℓ) (outs : Outs (F := F)) (c : Dev nD) : T F Sx := (elu (kv_main_v506 m outs c))
/-- What region 14 leaves in main_v508. -/
noncomputable def kv_main_v508 (m : (ℓ : Loc nD τ sig) → Buf (Elt F) ℓ) (outs : Outs (F := F)) (c : Dev nD) : T F S11 := outs 82 main_v508 c
noncomputable def kv_main_v510 (m : (ℓ : Loc nD τ sig) → Buf (Elt F) ℓ) (outs : Outs (F := F)) (c : Dev nD) : T F S11 := (meanOf (kv_main_v508 m outs c))
/-- What region 15 leaves in main_v511. -/
noncomputable def kv_main_v511 (m : (ℓ : Loc nD τ sig) → Buf (Elt F) ℓ) (outs : Outs (F := F)) (c : Dev nD) : T F Sx := outs 84 main_v511 c
noncomputable def kv_main_v513 (m : (ℓ : Loc nD τ sig) → Buf (Elt F) ℓ) (outs : Outs (F := F)) (c : Dev nD) : T F Sw2 := (W3at1 (kv_main_arg16 m outs c))
noncomputable def kv_main_v515 (m : (ℓ : Loc nD τ sig) → Buf (Elt F) ℓ) (outs : Outs (F := F)) (c : Dev nD) : T F Sb2 := (b3at1 (kv_main_arg17 m outs c))
noncomputable def kv_main_v517 (m : (ℓ : Loc nD τ sig) → Buf (Elt F) ℓ) (outs : Outs (F := F)) (c : Dev nD) : T F Sb2 := (b3at1 (kv_main_arg18 m outs c))
noncomputable def kv_main_v525 (m : (ℓ : Loc nD τ sig) → Buf (Elt F) ℓ) (outs : Outs (F := F)) (c : Dev nD) : T F Sx := (lin (kv_main_v511 m outs c) (W2at0 (W3at1 (kv_main_arg16 m outs c))) (b2at0 (b3at1 (kv_main_arg17 m outs c))))
noncomputable def kv_main_v528 (m : (ℓ : Loc nD τ sig) → Buf (Elt F) ℓ) (outs : Outs (F := F)) (c : Dev nD) : T F Sb := (colMean (lin (kv_main_v511 m outs c) (W2at0 (W3at1 (kv_main_arg16 m outs c))) (b2at0 (b3at1 (kv_main_arg17 m outs c)))))
noncomputable def kv_main_c_41 (m : (ℓ : Loc nD τ sig) → Buf (Elt F) ℓ) (outs : Outs (F := F)) (c : Dev nD) : IVec S0 32 := ddof0
noncomputable def kv_main_v529 (m : (ℓ : Loc nD τ sig) → Buf (Elt F) ℓ) (outs : Outs (F := F)) (c : Dev nD) : T F Sb := (colVar (kv_main_v525 m outs c) (kv_main_c_41 m outs c))
noncomputable def kv_main_v548 (m : (ℓ : Loc nD τ sig) → Buf (Elt F) ℓ) (outs : Outs (F := F)) (c : Dev nD) : T F Sx := (bnorm (kv_main_v525 m outs c) (kv_main_v528 m outs c) (kv_main_v529 m outs c) (kv_main_v517 m outs c))
noncomputable def kv_main_v549 (m : (ℓ : Loc nD τ sig) → Buf (Elt F) ℓ) (outs : Outs (F := F)) (c : Dev nD) : T F Sx := (relu (kv_main_v548 m outs c))
noncomputable def kv_main_v557 (m : (ℓ : Loc nD τ sig) → Buf (Elt F) ℓ) (outs : Outs (F := F)) (c : Dev nD) : T F Sx := (lin (kv_main_v549 m outs c) (W2at1 (kv_main_v513 m outs c)) (b2at1 (kv_main_v515 m outs c)))
noncomputable def kv_main_v558 (m : (ℓ : Loc nD τ sig) → Buf (Elt F) ℓ) (outs : Outs (F := F)) (c : Dev nD) : T F Sx := (addf (kv_main_v489 m outs c) (lin (kv_main_v549 m outs c) (W2at1 (kv_main_v513 m outs c)) (b2at1 (kv_main_v515 m outs c))))
noncomputable def kv_main_v566 (m : (ℓ : Loc nD τ sig) → Buf (Elt F) ℓ) (outs : Outs (F := F)) (c : Dev nD) : T F Sx := (lin (lin (kv_main_v549 m outs c) (W2at1 (kv_main_v513 m outs c)) (b2at1 (kv_main_v515 m outs c))) (W2at0 (kv_main_arg14 m outs c)) (b2at0 (kv_main_arg15 m outs c)))
noncomputable def kv_main_v567 (m : (ℓ : Loc nD τ sig) → Buf (Elt F) ℓ) (outs : Outs (F := F)) (c : Dev nD) : T F Sx := (elu (kv_main_v566 m outs c))
noncomputable def kv_main_v575 (m : (ℓ : Loc nD τ sig) → Buf (Elt F) ℓ) (outs : Outs (F := F)) (c : Dev nD) : T F Sx := (lin (kv_main_v567 m outs c) (W2at1 (kv_main_arg14 m outs c)) (b2at1 (kv_main_arg15 m outs c)))
noncomputable def kv_main_v576 (m : (ℓ : Loc nD τ sig) → Buf (Elt F) ℓ) (outs : Outs (F := F)) (c : Dev nD) : T F Sx := (elu (kv_main_v575 m outs c))
/-- What region 16 leaves in main_v577. -/
noncomputable def kv_main_v577 (m : (ℓ : Loc nD τ sig) → Buf (Elt F) ℓ) (outs : Outs (F := F)) (c : Dev nD) : T F S11 := outs 93 main_v577 c
noncomputable def kv_main_v579 (m : (ℓ : Loc nD τ sig) → Buf (Elt F) ℓ) (outs : Outs (F := F)) (c : Dev nD) : T F S11 := (meanOf (kv_main_v577 m outs c))
/-- What region 17 leaves in main_v580. -/
noncomputable def kv_main_v580 (m : (ℓ : Loc nD τ sig) → Buf (Elt F) ℓ) (outs : Outs (F := F)) (c : Dev nD) : T F Sx := outs 95 main_v580 c
noncomputable def kv_main_v582 (m : (ℓ : Loc nD τ sig) → Buf (Elt F) ℓ) (outs : Outs (F := F)) (c : Dev nD) : T F Sw2 := (W3at2 (kv_main_arg16 m outs c))
noncomputable def kv_main_v584 (m : (ℓ : Loc nD τ sig) → Buf (Elt F) ℓ) (outs : Outs (F := F)) (c : Dev nD) : T F Sb2 := (b3at2 (kv_main_arg17 m outs c))
noncomputable def kv_main_v586 (m : (ℓ : Loc nD τ sig) → Buf (Elt F) ℓ) (outs : Outs (F := F)) (c : Dev nD) : T F Sb2 := (b3at2 (kv_main_arg18 m outs c))
noncomputable def kv_main_v594 (m : (ℓ : Loc nD τ sig) → Buf (Elt F) ℓ) (outs : Outs (F := F)) (c : Dev nD) : T F Sx := (lin (kv_main_v580 m outs c) (W2at0 (W3at2 (kv_main_arg16 m outs c))) (b2at0 (b3at2 (kv_main_arg17 m outs c))))
noncomputable def kv_main_v597 (m : (ℓ : Loc nD τ sig) → Buf (Elt F) ℓ) (outs : Outs (F := F)) (c : Dev nD) : T F Sb := (colMean (lin (kv_main_v580 m outs c) (W2at0 (W3at2 (kv_main_arg16 m outs c))) (b2at0 (b3at2 (kv_main_arg17 m outs c)))))
noncomputable def kv_main_c_46 (m : (ℓ : Loc nD τ sig) → Buf (Elt F) ℓ) (outs : Outs (F := F)) (c : Dev nD) : IVec S0 32 := ddof0
noncomputable def kv_main_v598 (m : (ℓ : Loc nD τ sig) → Buf (Elt F) ℓ) (outs : Outs (F := F)) (c : Dev nD) : T F Sb := (colVar (kv_main_v594 m outs c) (kv_main_c_46 m outs c))
noncomputable def kv_main_v617 (m : (ℓ : Loc nD τ sig) → Buf (Elt F) ℓ) (outs : Outs (F := F)) (c : Dev nD) : T F Sx := (bnorm (kv_main_v594 m outs c) (kv_main_v597 m outs c) (kv_main_v598 m outs c) (kv_main_v586 m outs c))
noncomputable def kv_main_v618 (m : (ℓ : Loc nD τ sig) → Buf (Elt F) ℓ) (outs : Outs (F := F)) (c : Dev nD) : T F Sx := (relu (kv_main_v617 m outs c))
noncomputable def kv_main_v626 (m : (ℓ : Loc nD τ sig) → Buf (Elt F) ℓ) (outs : Outs (F := F)) (c : Dev nD) : T F Sx := (lin (kv_main_v618 m outs c) (W2at1 (kv_main_v582 m outs c)) (b2at1 (kv_main_v584 m outs c)))
noncomputable def kv_main_v627 (m : (ℓ : Loc nD τ sig) → Buf (Elt F) ℓ) (outs : Outs (F := F)) (c : Dev nD) : T F Sx := (addf (kv_main_v558 m outs c) (lin (kv_main_v618 m outs c) (W2at1 (kv_main_v582 m outs c)) (b2at1 (kv_main_v584 m outs c))))
noncomputable def kv_main_v629 (m : (ℓ : Loc nD τ sig) → Buf (Elt F) ℓ) (outs : Outs (F := F)) (c : Dev nD) : T F Sx := (third (addf (kv_main_v558 m outs c) (lin (kv_main_v618 m outs c) (W2at1 (kv_main_v582 m outs c)) (b2at1 (kv_main_v584 m outs c)))))
noncomputable def kv_main_v630 (m : (ℓ : Loc nD τ sig) → Buf (Elt F) ℓ) (outs : Outs (F := F)) (c : Dev nD) : T F Sx := (fill 0x00000000#32)
noncomputable def kv_main_v638 (m : (ℓ : Loc nD τ sig) → Buf (Elt F) ℓ) (outs : Outs (F := F)) (c : Dev nD) : T F Sx := (lin (kv_main_arg3 m outs c) (W2at0 (kv_main_arg9 m outs c)) (b2at0 (kv_main_arg10 m outs c)))
noncomputable def kv_main_v639 (m : (ℓ : Loc nD τ sig) → Buf (Elt F) ℓ) (outs : Outs (F := F)) (c : Dev nD) : T F Sx := (elu (kv_main_v638 m outs c))
noncomputable def kv_main_v647 (m : (ℓ : Loc nD τ sig) → Buf (Elt F) ℓ) (outs : Outs (F := F)) (c : Dev nD) : T F Sx := (lin (kv_main_v639 m outs c) (W2at1 (kv_main_arg9 m outs c)) (b2at1 (kv_main_arg10 m outs c)))
noncomputable def kv_main_v648 (m : (ℓ : Loc nD τ sig) → Buf (Elt F) ℓ) (outs : Outs (F := F)) (c : Dev nD) : T F Sx := (elu (kv_main_v647 m outs c))
/-- What region 18 leaves in main_v649. -/
noncomputable def kv_main_v649 (m : (ℓ : Loc nD τ sig) → Buf (Elt F) ℓ) (outs : Outs (F := F)) (c : Dev nD) : T F S11 := outs 104 main_v649 c
noncomputable def kv_main_v651 (m : (ℓ : Loc nD τ sig) → Buf (Elt F) ℓ) (outs : Outs (F := F)) (c : Dev nD) : T F S11 := (meanOf (kv_main_v649 m outs c))
/-- What region 19 leaves in main_v652. -/
noncomputable def kv_main_v652 (m : (ℓ : Loc nD τ sig) → Buf (Elt F) ℓ) (outs : Outs (F := F)) (c : Dev nD) : T F Sx := outs 106 main_v652 c
noncomputable def kv_main_v654 (m : (ℓ : Loc nD τ sig) → Buf (Elt F) ℓ) (outs : Outs (F := F)) (c : Dev nD) : T F Sw2 := (W3at0 (kv_main_arg11 m outs c))
noncomputable def kv_main_v656 (m : (ℓ : Loc nD τ sig) → Buf (Elt F) ℓ) (outs : Outs (F := F)) (c : Dev nD) : T F Sb2 := (b3at0 (kv_main_arg12 m outs c))
noncomputable def kv_main_v658 (m : (ℓ : Loc nD τ sig) → Buf (Elt F) ℓ) (outs : Outs (F := F)) (c : Dev nD) : T F Sb2 := (b3at0 (kv_main_arg13 m outs c))
noncomputable def kv_main_v666 (m : (ℓ : Loc nD τ sig) → Buf (Elt F) ℓ) (outs : Outs (F := F)) (c : Dev nD) : T F Sx := (lin (kv_main_v652 m outs c) (W2at0 (W3at0 (kv_main_arg11 m outs c))) (b2at0 (b3at0 (kv_main_arg12 m outs c))))
noncomputable def kv_main_v669 (m : (ℓ : Loc nD τ sig) → Buf (Elt F) ℓ) (outs : Outs (F := F)) (c : Dev nD) : T F Sb := (colMean (lin (kv_main_v652 m outs c) (W2at0 (W3at0 (kv_main_arg11 m outs c))) (b2at0 (b3at0 (kv_main_arg12 m outs c)))))
noncomputable def kv_main_c_53 (m : (ℓ : Loc nD τ sig) → Buf (Elt F) ℓ) (outs : Outs (F := F)) (c : Dev nD) : IVec S0 32 := ddof0
noncomputable def kv_main_v670 (m : (ℓ : Loc nD τ sig) → Buf (Elt F) ℓ) (outs : Outs (F := F)) (c : Dev nD) : T F Sb := (colVar (kv_main_v666 m outs c) (kv_main_c_53 m outs c))
noncomputable def kv_main_v689 (m : (ℓ : Loc nD τ sig) → Buf (Elt F) ℓ) (outs : Outs (F := F)) (c : Dev nD) : T F Sx := (bnorm (kv_main_v666 m outs c) (kv_main_v669 m outs c) (kv_main_v670 m outs c) (kv_main_v658 m outs c))
noncomputable def kv_main_v690 (m : (ℓ : Loc nD τ sig) → Buf (Elt F) ℓ) (outs : Outs (F := F)) (c : Dev nD) : T F Sx := (relu (kv_main_v689 m outs c))
noncomputable def kv_main_v698 (m : (ℓ : Loc nD τ sig) → Buf (Elt F) ℓ) (outs : Outs (F := F)) (c : Dev nD) : T F Sx := (lin (kv_main_v690 m outs c) (W2at1 (kv_main_v654 m outs c)) (b2at1 (kv_main_v656 m outs c)))
noncomputable def kv_main_v699 (m : (ℓ : Loc nD τ sig) → Buf (Elt F) ℓ) (outs : Outs (F := F)) (c : Dev nD) : T F Sx := (addf (kv_main_v630 m outs c) (lin (kv_main_v690 m outs c) (W2at1 (kv_main_v654 m outs c)) (b2at1 (kv_main_v656 m outs c))))
noncomputable def kv_main_v707 (m : (ℓ : Loc nD τ sig) → Buf (Elt F) ℓ) (outs : Outs (F := F)) (c : Dev nD) : T F Sx := (lin (lin (kv_main_v690 m outs c) (W2at1 (kv_main_v654 m outs c)) (b2at1 (kv_main_v656 m outs c))) (W2at0 (kv_main_arg9 m outs c)) (b2at0 (kv_main_arg10 m outs c)))
noncomputable def kv_main_v708 (m : (ℓ : Loc nD τ sig) → Buf (Elt F) ℓ) (outs : Outs (F := F)) (c : Dev nD) : T F Sx := (elu (kv_main_v707 m outs c))
noncomputable def kv_main_v716 (m : (ℓ : Loc nD τ sig) → Buf (Elt F) ℓ) (outs : Outs (F := F)) (c : Dev nD) : T F Sx := (lin (kv_main_v708 m outs c) (W2at1 (kv_main_arg9 m outs c)) (b2at1 (kv_main_arg10 m outs c)))
noncomputable def kv_main_v717 (m : (ℓ : Loc nD τ sig) → Buf (Elt F) ℓ) (outs : Outs (F := F)) (c : Dev nD) : T F Sx := (elu (kv_main_v716 m outs c))
/-- What region 20 leaves in main_v718. -/
noncomputable def kv_main_v718 (m : (ℓ : Loc nD τ sig) → Buf (Elt F) ℓ) (outs : Outs (F := F)) (c : Dev nD) : T F S11 := outs 115 main_v718 c
noncomputable def kv_main_v720 (m : (ℓ : Loc nD τ sig) → Buf (Elt F) ℓ) (outs : Outs (F := F)) (c : Dev nD) : T F S11 := (meanOf (kv_main_v718 m outs c))
/-- What region 21 leaves in main_v721. -/
noncomputable def kv_main_v721 (m : (ℓ : Loc nD τ sig) → Buf (Elt F) ℓ) (outs : Outs (F := F)) (c : Dev nD) : T F Sx := outs 117 main_v721 c
noncomputable def kv_main_v723 (m : (ℓ : Loc nD τ sig) → Buf (Elt F) ℓ) (outs : Outs (F := F)) (c : Dev nD) : T F Sw2 := (W3at1 (kv_main_arg11 m outs c))
noncomputable def kv_main_v725 (m : (ℓ : Loc nD τ sig) → Buf (Elt F) ℓ) (outs : Outs (F := F)) (c : Dev nD) : T F Sb2 := (b3at1 (kv_main_arg12 m outs c))
noncomputable def kv_main_v727 (m : (ℓ : Loc nD τ sig) → Buf (Elt F) ℓ) (outs : Outs (F := F)) (c : Dev nD) : T F Sb2 := (b3at1 (kv_main_arg13 m outs c))
noncomputable def kv_main_v735 (m : (ℓ : Loc nD τ sig) → Buf (Elt F) ℓ) (outs : Outs (F := F)) (c : Dev nD) : T F Sx := (lin (kv_main_v721 m outs c) (W2at0 (W3at1 (kv_main_arg11 m outs c))) (b2at0 (b3at1 (kv_main_arg12 m outs c))))
noncomputable def kv_main_v738 (m : (ℓ : Loc nD τ sig) → Buf (Elt F) ℓ) (outs : Outs (F := F)) (c : Dev nD) : T F Sb := (colMean (lin (kv_main_v721 m outs c) (W2at0 (W3at1 (kv_main_arg11 m outs c))) (b2at0 (b3at1 (kv_main_arg12 m outs c)))))
noncomputable def kv_main_c_58 (m : (ℓ : Loc nD τ sig) → Buf (Elt F) ℓ) (outs : Outs (F := F)) (c : Dev nD) : IVec S0 32 := ddof0
noncomputable def kv_main_v739 (m : (ℓ : Loc nD τ sig) → Buf (Elt F) ℓ) (outs : Outs (F := F)) (c : Dev nD) : T F Sb := (colVar (kv_main_v735 m outs c) (kv_main_c_58 m outs c))
noncomputable def kv_main_v758 (m : (ℓ : Loc nD τ sig) → Buf (Elt F) ℓ) (outs : Outs (F := F)) (c : Dev nD) : T F Sx := (bnorm (kv_main_v735 m outs c) (kv_main_v738 m outs c) (kv_main_v739 m outs c) (kv_main_v727 m outs c))
noncomputable def kv_main_v759 (m : (ℓ : Loc nD τ sig) → Buf (Elt F) ℓ) (outs : Outs (F := F)) (c : Dev nD) : T F Sx := (relu (kv_main_v758 m outs c))
noncomputable def kv_main_v767 (m : (ℓ : Loc nD τ sig) → Buf (Elt F) ℓ) (outs : Outs (F := F)) (c : Dev nD) : T F Sx := (lin (kv_main_v759 m outs c) (W2at1 (kv_main_v723 m outs c)) (b2at1 (kv_main_v725 m outs c)))
noncomputable def kv_main_v768 (m : (ℓ : Loc nD τ sig) → Buf (Elt F) ℓ) (outs : Outs (F := F)) (c : Dev nD) : T F Sx := (addf (kv_main_v699 m outs c) (lin (kv_main_v759 m outs c) (W2at1 (kv_main_v723 m outs c)) (b2at1 (kv_main_v725 m outs c))))
noncomputable def kv_main_v776 (m : (ℓ : Loc nD τ sig) → Buf (Elt F) ℓ) (outs : Outs (F := F)) (c : Dev nD) : T F Sx := (lin (lin (kv_main_v759 m outs c) (W2at1 (kv_main_v723 m outs c)) (b2at1 (kv_main_v725 m outs c))) (W2at0 (kv_main_arg9 m outs c)) (b2at0 (kv_main_arg10 m outs c)))
noncomputable def kv_main_v777 (m : (ℓ : Loc nD τ sig) → Buf (Elt F) ℓ) (outs : Outs (F := F)) (c : Dev nD) : T F Sx := (elu (kv_main_v776 m outs c))
noncomputable def kv_main_v785 (m : (ℓ : Loc nD τ sig) → Buf (Elt F) ℓ) (outs : Outs (F := F)) (c : Dev nD) : T F Sx := (lin (kv_main_v777 m outs c) (W2at1 (kv_main_arg9 m outs c)) (b2at1 (kv_main_arg10 m outs c)))
noncomputable def kv_main_v786 (m : (ℓ : Loc nD τ sig) → Buf (Elt F) ℓ) (outs : Outs (F := F)) (c : Dev nD) : T F Sx := (elu (kv_main_v785 m outs c))
/-- What region 22 leaves in main_v787. -/
noncomputable def kv_main_v787 (m : (ℓ : Loc nD τ sig) → Buf (Elt F) ℓ) (outs : Outs (F := F)) (c : Dev nD) : T F S11 := outs 126 main_v787 c
noncomputable def kv_main_v789 (m : (ℓ : Loc nD τ sig) → Buf (Elt F) ℓ) (outs : Outs (F := F)) (c : Dev nD) : T F S11 := (meanOf (kv_main_v787 m outs c))
/-- What region 23 leaves in main_v790. -/
noncomputable def kv_main_v790 (m : (ℓ : Loc nD τ sig) → Buf (Elt F) ℓ) (outs : Outs (F := F)) (c : Dev nD) : T F Sx := outs 128 main_v790 c
noncomputable def kv_main_v792 (m : (ℓ : Loc nD τ sig) → Buf (Elt F) ℓ) (outs : Outs (F := F)) (c : Dev nD) : T F Sw2 := (W3at2 (kv_main_arg11 m outs c))
noncomputable def kv_main_v794 (m : (ℓ : Loc nD τ sig) → Buf (Elt F) ℓ) (outs : Outs (F := F)) (c : Dev nD) : T F Sb2 := (b3at2 (kv_main_arg12 m outs c))
noncomputable def kv_main_v796 (m : (ℓ : Loc nD τ sig) → Buf (Elt F) ℓ) (outs : Outs (F := F)) (c : Dev nD) : T F Sb2 := (b3at2 (kv_main_arg13 m outs c))
noncomputable def kv_main_v804 (m : (ℓ : Loc nD τ sig) → Buf (Elt F) ℓ) (outs : Outs (F := F)) (c : Dev nD) : T F Sx := (lin (kv_main_v790 m outs c) (W2at0 (W3at2 (kv_main_arg11 m outs c))) (b2at0 (b3at2 (kv_main_arg12 m outs c))))
noncomputable def kv_main_v807 (m : (ℓ : Loc nD τ sig) → Buf (Elt F) ℓ) (outs : Outs (F := F)) (c : Dev nD) : T F Sb := (colMean (lin (kv_main_v790 m outs c) (W2at0 (W3at2 (kv_main_arg11 m outs c))) (b2at0 (b3at2 (kv_main_arg12 m outs c)))))
noncomputable def kv_main_c_63 (m : (ℓ : Loc nD τ sig) → Buf (Elt F) ℓ) (outs : Outs (F := F)) (c : Dev nD) : IVec S0 32 := ddof0
noncomputable def kv_main_v808 (m : (ℓ : Loc nD τ sig) → Buf (Elt F) ℓ) (outs : Outs (F := F)) (c : Dev nD) : T F Sb := (colVar (kv_main_v804 m outs c) (kv_main_c_63 m outs c))
noncomputable def kv_main_v827 (m : (ℓ : Loc nD τ sig) → Buf (Elt F) ℓ) (outs : Outs (F := F)) (c : Dev nD) : T F Sx := (bnorm (kv_main_v804 m outs c) (kv_main_v807 m outs c) (kv_main_v808 m outs c) (kv_main_v796 m outs c))
noncomputable def kv_main_v828 (m : (ℓ : Loc nD τ sig) → Buf (Elt F) ℓ) (outs : Outs (F := F)) (c : Dev nD) : T F Sx := (relu (kv_main_v827 m outs c))
noncomputable def kv_main_v836 (m : (ℓ : Loc nD τ sig) → Buf (Elt F) ℓ) (outs : Outs (F := F)) (c : Dev nD) : T F Sx := (lin (kv_main_v828 m outs c) (W2at1 (kv_main_v792 m outs c)) (b2at1 (kv_main_v794 m outs c)))
noncomputable def kv_main_v837 (m : (ℓ : Loc nD τ sig) → Buf (Elt F) ℓ) (outs : Outs (F := F)) (c : Dev nD) : T F Sx := (addf (kv_main_v768 m outs c) (lin (kv_main_v828 m outs c) (W2at1 (kv_main_v792 m outs c)) (b2at1 (kv_main_v794 m outs c))))
noncomputable def kv_main_v839 (m : (ℓ : Loc nD τ sig) → Buf (Elt F) ℓ) (outs : Outs (F := F)) (c : Dev nD) : T F Sx := (third (addf (kv_main_v768 m outs c) (lin (kv_main_v828 m outs c) (W2at1 (kv_main_v792 m outs c)) (b2at1 (kv_main_v794 m outs c)))))
noncomputable def kv_main_v843 (m : (ℓ : Loc nD τ sig) → Buf (Elt F) ℓ) (outs : Outs (F := F)) (c : Dev nD) : T F S0 := (mse (kv_main_v209 m outs c) (third (addf (kv_main_v768 m outs c) (lin (kv_main_v828 m outs c) (W2at1 (kv_main_v792 m outs c)) (b2at1 (kv_main_v794 m outs c))))))
noncomputable def kv_main_v847 (m : (ℓ : Loc nD τ sig) → Buf (Elt F) ℓ) (outs : Outs (F := F)) (c : Dev nD) : T F S0 := (mse (kv_main_v419 m outs c) (third (addf (kv_main_v768 m outs c) (lin (kv_main_v828 m outs c) (W2at1 (kv_main_v792 m outs c)) (b2at1 (kv_main_v794 m outs c))))))
noncomputable def kv_main_v851 (m : (ℓ : Loc nD τ sig) → Buf (Elt F) ℓ) (outs : Outs (F := F)) (c : Dev nD) : T F S0 := (mse (kv_main_v629 m outs c) (third (addf (kv_main_v768 m outs c) (lin (kv_main_v828 m outs c) (W2at1 (kv_main_v792 m outs c)) (b2at1 (kv_main_v794 m outs c))))))

variable (m : (ℓ : Loc nD τ sig) → Buf (Elt F) ℓ) (outs : Outs (F := F)) (c : Dev nD)

theorem rd_main_arg0_0 : (V0 m c main_arg0 : T F Sx) = kv_main_arg0 m outs c := rfl

theorem rd_main_arg1_0 : (V0 m c main_arg1 : T F Sx) = kv_main_arg1 m outs c := rfl

theorem rd_main_arg2_0 : (V0 m c main_arg2 : T F Sx) = kv_main_arg2 m outs c := rfl

theorem rd_main_arg3_0 : (V0 m c main_arg3 : T F Sx) = kv_main_arg3 m outs c := rfl

theorem rd_main_arg4_0 : (V0 m c main_arg4 : T F Sw2) = kv_main_arg4 m outs c := rfl

theorem rd_main_arg5_0 : (V0 m c main_arg5 : T F Sb2) = kv_main_arg5 m outs c := rfl

theorem rd_main_arg6_0 : (V0 m c main_arg6 : T F Sw32) = kv_main_arg6 m outs c := rfl

theorem rd_main_arg7_0 : (V0 m c main_arg7 : T F Sb32) = kv_main_arg7 m outs c := rfl

theorem rd_main_arg8_0 : (V0 m c main_arg8 : T F Sb32) = kv_main_arg8 m outs c := rfl

theorem rd_main_arg9_0 : (V0 m c main_arg9 : T F Sw2) = kv_main_arg9 m outs c := rfl

theorem rd_main_arg10_0 : (V0 m c main_arg10 : T F Sb2) = kv_main_arg10 m outs c := rfl

theorem rd_main_arg11_0 : (V0 m c main_arg11 : T F Sw32) = kv_main_arg11 m outs c := rfl

theorem rd_main_arg12_0 : (V0 m c main_arg12 : T F Sb32) = kv_main_arg12 m outs c := rfl

theorem rd_main_arg13_0 : (V0 m c main_arg13 : T F Sb32) = kv_main_arg13 m outs c := rfl

theorem rd_main_arg14_0 : (V0 m c main_arg14 : T F Sw2) = kv_main_arg14 m outs c := rfl

theorem rd_main_arg15_0 : (V0 m c main_arg15 : T F Sb2) = kv_main_arg15 m outs c := rfl

theorem rd_main_arg16_0 : (V0 m c main_arg16 : T F Sw32) = kv_main_arg16 m outs c := rfl

theorem rd_main_arg17_0 : (V0 m c main_arg17 : T F Sb32) = kv_main_arg17 m outs c := rfl

theorem rd_main_arg18_0 : (V0 m c main_arg18 : T F Sb32) = kv_main_arg18 m outs c := rfl

theorem wr_main_v0 : (V1 m c main_v0 : T F Sx) = kv_main_v0 m outs c := by
  show (StableHlo.after hostOps0 (V0 m c) main_v0 : T F Sx) = _
  rw [st_hostOps0_main_v0 (V0 m c)]
  rfl

theorem wr_main_v8 : (V1 m c main_v8 : T F Sx) = kv_main_v8 m outs c := by
  show (StableHlo.after hostOps0 (V0 m c) main_v8 : T F Sx) = _
  rw [st_hostOps0_main_v8 (V0 m c), rd_main_arg0_0 m outs c, rd_main_arg4_0 m outs c, rd_main_arg5_0 m outs c]
  rfl

theorem wr_main_v9 : (V2 m c main_v9 : T F Sx) = kv_main_v9 m outs c := by
  show (StableHlo.after hostOps0_1 (V1 m c) main_v9 : T F Sx) = _
  rw [st_hostOps0_1_main_v9 (V1 m c), wr_main_v8 m outs c]
  rfl

theorem rd_main_arg4_2 : (V2 m c main_arg4 : T F Sw2) = kv_main_arg4 m outs c :=
  (V2_of m c main_arg4 (by decide)).trans <| (V1_of m c main_arg4 (by decide)).trans <| rd_main_arg4_0 m outs c

theorem rd_main_arg5_2 : (V2 m c main_arg5 : T F Sb2) = kv_main_arg5 m outs c :=
  (V2_of m c main_arg5 (by decide)).trans <| (V1_of m c main_arg5 (by decide)).trans <| rd_main_arg5_0 m outs c

theorem wr_main_v17 : (V3 m c main_v17 : T F Sx) = kv_main_v17 m outs c := by
  show (StableHlo.after hostOps0_2 (V2 m c) main_v17 : T F Sx) = _
  rw [st_hostOps0_2_main_v17 (V2 m c), wr_main_v9 m outs c, rd_main_arg4_2 m outs c, rd_main_arg5_2 m outs c]
  rfl

theorem wr_main_v18 : (V4 m c main_v18 : T F Sx) = kv_main_v18 m outs c := by
  show (StableHlo.after hostOps0_3 (V3 m c) main_v18 : T F Sx) = _
  rw [st_hostOps0_3_main_v18 (V3 m c), wr_main_v17 m outs c]
  rfl

theorem wr_main_v19 : (V5 m outs c main_v19 : T F S11) = kv_main_v19 m outs c :=
  Function.update_self (Proc.devRef .tc main_v19 : DevRef τ sig) (outs 5 main_v19 c) (V4 m c)

theorem wr_main_v21 : (V6 m outs c main_v21 : T F S11) = kv_main_v21 m outs c := by
  show (StableHlo.after hostOps1 (V5 m outs c) main_v21 : T F S11) = _
  rw [st_hostOps1_main_v21 (V5 m outs c), wr_main_v19 m outs c]
  rfl

theorem rd_main_v18_6 : (V6 m outs c main_v18 : T F Sx) = kv_main_v18 m outs c :=
  (V6_of m outs c main_v18 (by decide)).trans <| (V5_of m outs c main_v18 (by decide)).trans <| wr_main_v18 m outs c

theorem rd_main_arg0_6 : (V6 m outs c main_arg0 : T F Sx) = kv_main_arg0 m outs c :=
  (V6_of m outs c main_arg0 (by decide)).trans <| (V5_of m outs c main_arg0 (by decide)).trans <| (V4_of m c main_arg0 (by decide)).trans <| (V3_of m c main_arg0 (by decide)).trans <| (V2_of m c main_arg0 (by decide)).trans <| (V1_of m c main_arg0 (by decide)).trans <| rd_main_arg0_0 m outs c

theorem wr_main_v22 : (V7 m outs c main_v22 : T F Sx) = kv_main_v22 m outs c :=
  Function.update_self (Proc.devRef .tc main_v22 : DevRef τ sig) (outs 7 main_v22 c) (V6 m outs c)

theorem rd_main_arg6_7 : (V7 m outs c main_arg6 : T F Sw32) = kv_main_arg6 m outs c :=
  (V7_of m outs c main_arg6 (by decide)).trans <| (V6_of m outs c main_arg6 (by decide)).trans <| (V5_of m outs c main_arg6 (by decide)).trans <| (V4_of m c main_arg6 (by decide)).trans <| (V3_of m c main_arg6 (by decide)).trans <| (V2_of m c main_arg6 (by decide)).trans <| (V1_of m c main_arg6 (by decide)).trans <| rd_main_arg6_0 m outs c

theorem wr_main_v24 : (V8 m outs c main_v24 : T F Sw2) = kv_main_v24 m outs c := by
  show (StableHlo.after hostOps2 (V7 m outs c) main_v24 : T F Sw2) = _
  rw [st_hostOps2_main_v24 (V7 m outs c), rd_main_arg6_7 m outs c]
  rfl

theorem rd_main_arg7_7 : (V7 m outs c main_arg7 : T F Sb32) = kv_main_arg7 m outs c :=
  (V7_of m outs c main_arg7 (by decide)).trans <| (V6_of m outs c main_arg7 (by decide)).trans <| (V5_of m outs c main_arg7 (by decide)).trans <| (V4_of m c main_arg7 (by decide)).trans <| (V3_of m c main_arg7 (by decide)).trans <| (V2_of m c main_arg7 (by decide)).trans <| (V1_of m c main_arg7 (by decide)).trans <| rd_main_arg7_0 m outs c

theorem wr_main_v26 : (V8 m outs c main_v26 : T F Sb2) = kv_main_v26 m outs c := by
  show (StableHlo.after hostOps2 (V7 m outs c) main_v26 : T F Sb2) = _
  rw [st_hostOps2_main_v26 (V7 m outs c), rd_main_arg7_7 m outs c]
  rfl

theorem rd_main_arg8_7 : (V7 m outs c main_arg8 : T F Sb32) = kv_main_arg8 m outs c :=
  (V7_of m outs c main_arg8 (by decide)).trans <| (V6_of m outs c main_arg8 (by decide)).trans <| (V5_of m outs c main_arg8 (by decide)).trans <| (V4_of m c main_arg8 (by decide)).trans <| (V3_of m c main_arg8 (by decide)).trans <| (V2_of m c main_arg8 (by decide)).trans <| (V1_of m c main_arg8 (by decide)).trans <| rd_main_arg8_0 m outs c

theorem wr_main_v28 : (V8 m outs c main_v28 : T F Sb2) = kv_main_v28 m outs c := by
  show (StableHlo.after hostOps2 (V7 m outs c) main_v28 : T F Sb2) = _
  rw [st_hostOps2_main_v28 (V7 m outs c), rd_main_arg8_7 m outs c]
  rfl

theorem wr_main_v36 : (V8 m outs c main_v36 : T F Sx) = kv_main_v36 m outs c := by
  show (StableHlo.after hostOps2 (V7 m outs c) main_v36 : T F Sx) = _
  rw [st_hostOps2_main_v36 (V7 m outs c), wr_main_v22 m outs c, rd_main_arg6_7 m outs c, rd_main_arg7_7 m outs c]
  rfl

theorem wr_main_v39 : (V8 m outs c main_v39 : T F Sb) = kv_main_v39 m outs c := by
  show (StableHlo.after hostOps2 (V7 m outs c) main_v39 : T F Sb) = _
  rw [st_hostOps2_main_v39 (V7 m outs c), wr_main_v22 m outs c, rd_main_arg6_7 m outs c, rd_main_arg7_7 m outs c]
  rfl

theorem wr_main_c : (V8 m outs c main_c : IVec S0 32) = kv_main_c m outs c := by
  show (StableHlo.after hostOps2 (V7 m outs c) main_c : IVec S0 32) = _
  rw [st_hostOps2_main_c (V7 m outs c)]
  rfl

theorem wr_main_v40 : (V9 m outs c main_v40 : T F Sb) = kv_main_v40 m outs c := by
  show (StableHlo.after hostOps2_1 (V8 m outs c) main_v40 : T F Sb) = _
  rw [st_hostOps2_1_main_v40 (V8 m outs c), wr_main_v36 m outs c, wr_main_c m outs c]
  rfl

theorem rd_main_v36_9 : (V9 m outs c main_v36 : T F Sx) = kv_main_v36 m outs c :=
  (V9_of m outs c main_v36 (by decide)).trans <| wr_main_v36 m outs c

theorem rd_main_v39_9 : (V9 m outs c main_v39 : T F Sb) = kv_main_v39 m outs c :=
  (V9_of m outs c main_v39 (by decide)).trans <| wr_main_v39 m outs c

theorem rd_main_v28_9 : (V9 m outs c main_v28 : T F Sb2) = kv_main_v28 m outs c :=
  (V9_of m outs c main_v28 (by decide)).trans <| wr_main_v28 m outs c

theorem wr_main_v59 : (V10 m outs c main_v59 : T F Sx) = kv_main_v59 m outs c := by
  show (StableHlo.after hostOps2_2 (V9 m outs c) main_v59 : T F Sx) = _
  rw [st_hostOps2_2_main_v59 (V9 m outs c), rd_main_v36_9 m outs c, rd_main_v39_9 m outs c, wr_main_v40 m outs c, rd_main_v28_9 m outs c]
  rfl

theorem wr_main_v60 : (V11 m outs c main_v60 : T F Sx) = kv_main_v60 m outs c := by
  show (StableHlo.after hostOps2_3 (V10 m outs c) main_v60 : T F Sx) = _
  rw [st_hostOps2_3_main_v60 (V10 m outs c), wr_main_v59 m outs c]
  rfl

theorem rd_main_v24_11 : (V11 m outs c main_v24 : T F Sw2) = kv_main_v24 m outs c :=
  (V11_of m outs c main_v24 (by decide)).trans <| (V10_of m outs c main_v24 (by decide)).trans <| (V9_of m outs c main_v24 (by decide)).trans <| wr_main_v24 m outs c

theorem rd_main_v26_11 : (V11 m outs c main_v26 : T F Sb2) = kv_main_v26 m outs c :=
  (V11_of m outs c main_v26 (by decide)).trans <| (V10_of m outs c main_v26 (by decide)).trans <| (V9_of m outs c main_v26 (by decide)).trans <| wr_main_v26 m outs c

theorem wr_main_v68 : (V12 m outs c main_v68 : T F Sx) = kv_main_v68 m outs c := by
  show (StableHlo.after hostOps2_4 (V11 m outs c) main_v68 : T F Sx) = _
  rw [st_hostOps2_4_main_v68 (V11 m outs c), wr_main_v60 m outs c, rd_main_v24_11 m outs c, rd_main_v26_11 m outs c]
  rfl

theorem rd_main_v0_11 : (V11 m outs c main_v0 : T F Sx) = kv_main_v0 m outs c :=
  (V11_of m outs c main_v0 (by decide)).trans <| (V10_of m outs c main_v0 (by decide)).trans <| (V9_of m outs c main_v0 (by decide)).trans <| (V8_of m outs c main_v0 (by decide)).trans <| (V7_of m outs c main_v0 (by decide)).trans <| (V6_of m outs c main_v0 (by decide)).trans <| (V5_of m outs c main_v0 (by decide)).trans <| (V4_of m c main_v0 (by decide)).trans <| (V3_of m c main_v0 (by decide)).trans <| (V2_of m c main_v0 (by decide)).trans <| wr_main_v0 m outs c

theorem wr_main_v69 : (V12 m outs c main_v69 : T F Sx) = kv_main_v69 m outs c := by
  show (StableHlo.after hostOps2_4 (V11 m outs c) main_v69 : T F Sx) = _
  rw [st_hostOps2_4_main_v69 (V11 m outs c), rd_main_v0_11 m outs c, wr_main_v60 m outs c, rd_main_v24_11 m outs c, rd_main_v26_11 m outs c]
  rfl

theorem rd_main_arg4_11 : (V11 m outs c main_arg4 : T F Sw2) = kv_main_arg4 m outs c :=
  (V11_of m outs c main_arg4 (by decide)).trans <| (V10_of m outs c main_arg4 (by decide)).trans <| (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m c main_arg4 (by decide)).trans <| (V3_of m c main_arg4 (by decide)).trans <| rd_main_arg4_2 m outs c

theorem rd_main_arg5_11 : (V11 m outs c main_arg5 : T F Sb2) = kv_main_arg5 m outs c :=
  (V11_of m outs c main_arg5 (by decide)).trans <| (V10_of m outs c main_arg5 (by decide)).trans <| (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m c main_arg5 (by decide)).trans <| (V3_of m c main_arg5 (by decide)).trans <| rd_main_arg5_2 m outs c

theorem wr_main_v77 : (V12 m outs c main_v77 : T F Sx) = kv_main_v77 m outs c := by
  show (StableHlo.after hostOps2_4 (V11 m outs c) main_v77 : T F Sx) = _
  rw [st_hostOps2_4_main_v77 (V11 m outs c), wr_main_v60 m outs c, rd_main_v24_11 m outs c, rd_main_v26_11 m outs c, rd_main_arg4_11 m outs c, rd_main_arg5_11 m outs c]
  rfl

theorem wr_main_v78 : (V13 m outs c main_v78 : T F Sx) = kv_main_v78 m outs c := by
  show (StableHlo.after hostOps2_5 (V12 m outs c) main_v78 : T F Sx) = _
  rw [st_hostOps2_5_main_v78 (V12 m outs c), wr_main_v77 m outs c]
  rfl

theorem rd_main_arg4_13 : (V13 m outs c main_arg4 : T F Sw2) = kv_main_arg4 m outs c :=
  (V13_of m outs c main_arg4 (by decide)).trans <| (V12_of m outs c main_arg4 (by decide)).trans <| rd_main_arg4_11 m outs c

theorem rd_main_arg5_13 : (V13 m outs c main_arg5 : T F Sb2) = kv_main_arg5 m outs c :=
  (V13_of m outs c main_arg5 (by decide)).trans <| (V12_of m outs c main_arg5 (by decide)).trans <| rd_main_arg5_11 m outs c

theorem wr_main_v86 : (V14 m outs c main_v86 : T F Sx) = kv_main_v86 m outs c := by
  show (StableHlo.after hostOps2_6 (V13 m outs c) main_v86 : T F Sx) = _
  rw [st_hostOps2_6_main_v86 (V13 m outs c), wr_main_v78 m outs c, rd_main_arg4_13 m outs c, rd_main_arg5_13 m outs c]
  rfl

theorem wr_main_v87 : (V15 m outs c main_v87 : T F Sx) = kv_main_v87 m outs c := by
  show (StableHlo.after hostOps2_7 (V14 m outs c) main_v87 : T F Sx) = _
  rw [st_hostOps2_7_main_v87 (V14 m outs c), wr_main_v86 m outs c]
  rfl

theorem wr_main_v88 : (V16 m outs c main_v88 : T F S11) = kv_main_v88 m outs c :=
  Function.update_self (Proc.devRef .tc main_v88 : DevRef τ sig) (outs 16 main_v88 c) (V15 m outs c)

theorem wr_main_v90 : (V17 m outs c main_v90 : T F S11) = kv_main_v90 m outs c := by
  show (StableHlo.after hostOps3 (V16 m outs c) main_v90 : T F S11) = _
  rw [st_hostOps3_main_v90 (V16 m outs c), wr_main_v88 m outs c]
  rfl

theorem rd_main_v87_17 : (V17 m outs c main_v87 : T F Sx) = kv_main_v87 m outs c :=
  (V17_of m outs c main_v87 (by decide)).trans <| (V16_of m outs c main_v87 (by decide)).trans <| wr_main_v87 m outs c

theorem rd_main_v68_17 : (V17 m outs c main_v68 : T F Sx) = kv_main_v68 m outs c :=
  (V17_of m outs c main_v68 (by decide)).trans <| (V16_of m outs c main_v68 (by decide)).trans <| (V15_of m outs c main_v68 (by decide)).trans <| (V14_of m outs c main_v68 (by decide)).trans <| (V13_of m outs c main_v68 (by decide)).trans <| wr_main_v68 m outs c

theorem wr_main_v91 : (V18 m outs c main_v91 : T F Sx) = kv_main_v91 m outs c :=
  Function.update_self (Proc.devRef .tc main_v91 : DevRef τ sig) (outs 18 main_v91 c) (V17 m outs c)

theorem rd_main_arg6_18 : (V18 m outs c main_arg6 : T F Sw32) = kv_main_arg6 m outs c :=
  (V18_of m outs c main_arg6 (by decide)).trans <| (V17_of m outs c main_arg6 (by decide)).trans <| (V16_of m outs c main_arg6 (by decide)).trans <| (V15_of m outs c main_arg6 (by decide)).trans <| (V14_of m outs c main_arg6 (by decide)).trans <| (V13_of m outs c main_arg6 (by decide)).trans <| (V12_of m outs c main_arg6 (by decide)).trans <| (V11_of m outs c main_arg6 (by decide)).trans <| (V10_of m outs c main_arg6 (by decide)).trans <| (V9_of m outs c main_arg6 (by decide)).trans <| (V8_of m outs c main_arg6 (by decide)).trans <| rd_main_arg6_7 m outs c

theorem wr_main_v93 : (V19 m outs c main_v93 : T F Sw2) = kv_main_v93 m outs c := by
  show (StableHlo.after hostOps4 (V18 m outs c) main_v93 : T F Sw2) = _
  rw [st_hostOps4_main_v93 (V18 m outs c), rd_main_arg6_18 m outs c]
  rfl

theorem rd_main_arg7_18 : (V18 m outs c main_arg7 : T F Sb32) = kv_main_arg7 m outs c :=
  (V18_of m outs c main_arg7 (by decide)).trans <| (V17_of m outs c main_arg7 (by decide)).trans <| (V16_of m outs c main_arg7 (by decide)).trans <| (V15_of m outs c main_arg7 (by decide)).trans <| (V14_of m outs c main_arg7 (by decide)).trans <| (V13_of m outs c main_arg7 (by decide)).trans <| (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| rd_main_arg7_7 m outs c

theorem wr_main_v95 : (V19 m outs c main_v95 : T F Sb2) = kv_main_v95 m outs c := by
  show (StableHlo.after hostOps4 (V18 m outs c) main_v95 : T F Sb2) = _
  rw [st_hostOps4_main_v95 (V18 m outs c), rd_main_arg7_18 m outs c]
  rfl

theorem rd_main_arg8_18 : (V18 m outs c main_arg8 : T F Sb32) = kv_main_arg8 m outs c :=
  (V18_of m outs c main_arg8 (by decide)).trans <| (V17_of m outs c main_arg8 (by decide)).trans <| (V16_of m outs c main_arg8 (by decide)).trans <| (V15_of m outs c main_arg8 (by decide)).trans <| (V14_of m outs c main_arg8 (by decide)).trans <| (V13_of m outs c main_arg8 (by decide)).trans <| (V12_of m outs c main_arg8 (by decide)).trans <| (V11_of m outs c main_arg8 (by decide)).trans <| (V10_of m outs c main_arg8 (by decide)).trans <| (V9_of m outs c main_arg8 (by decide)).trans <| (V8_of m outs c main_arg8 (by decide)).trans <| rd_main_arg8_7 m outs c

theorem wr_main_v97 : (V19 m outs c main_v97 : T F Sb2) = kv_main_v97 m outs c := by
  show (StableHlo.after hostOps4 (V18 m outs c) main_v97 : T F Sb2) = _
  rw [st_hostOps4_main_v97 (V18 m outs c), rd_main_arg8_18 m outs c]
  rfl

theorem wr_main_v105 : (V19 m outs c main_v105 : T F Sx) = kv_main_v105 m outs c := by
  show (StableHlo.after hostOps4 (V18 m outs c) main_v105 : T F Sx) = _
  rw [st_hostOps4_main_v105 (V18 m outs c), wr_main_v91 m outs c, rd_main_arg6_18 m outs c, rd_main_arg7_18 m outs c]
  rfl

theorem wr_main_v108 : (V19 m outs c main_v108 : T F Sb) = kv_main_v108 m outs c := by
  show (StableHlo.after hostOps4 (V18 m outs c) main_v108 : T F Sb) = _
  rw [st_hostOps4_main_v108 (V18 m outs c), wr_main_v91 m outs c, rd_main_arg6_18 m outs c, rd_main_arg7_18 m outs c]
  rfl

theorem wr_main_c_7 : (V19 m outs c main_c_7 : IVec S0 32) = kv_main_c_7 m outs c := by
  show (StableHlo.after hostOps4 (V18 m outs c) main_c_7 : IVec S0 32) = _
  rw [st_hostOps4_main_c_7 (V18 m outs c)]
  rfl

theorem wr_main_v109 : (V20 m outs c main_v109 : T F Sb) = kv_main_v109 m outs c := by
  show (StableHlo.after hostOps4_1 (V19 m outs c) main_v109 : T F Sb) = _
  rw [st_hostOps4_1_main_v109 (V19 m outs c), wr_main_v105 m outs c, wr_main_c_7 m outs c]
  rfl

theorem rd_main_v105_20 : (V20 m outs c main_v105 : T F Sx) = kv_main_v105 m outs c :=
  (V20_of m outs c main_v105 (by decide)).trans <| wr_main_v105 m outs c

theorem rd_main_v108_20 : (V20 m outs c main_v108 : T F Sb) = kv_main_v108 m outs c :=
  (V20_of m outs c main_v108 (by decide)).trans <| wr_main_v108 m outs c

theorem rd_main_v97_20 : (V20 m outs c main_v97 : T F Sb2) = kv_main_v97 m outs c :=
  (V20_of m outs c main_v97 (by decide)).trans <| wr_main_v97 m outs c

theorem wr_main_v128 : (V21 m outs c main_v128 : T F Sx) = kv_main_v128 m outs c := by
  show (StableHlo.after hostOps4_2 (V20 m outs c) main_v128 : T F Sx) = _
  rw [st_hostOps4_2_main_v128 (V20 m outs c), rd_main_v105_20 m outs c, rd_main_v108_20 m outs c, wr_main_v109 m outs c, rd_main_v97_20 m outs c]
  rfl

theorem wr_main_v129 : (V22 m outs c main_v129 : T F Sx) = kv_main_v129 m outs c := by
  show (StableHlo.after hostOps4_3 (V21 m outs c) main_v129 : T F Sx) = _
  rw [st_hostOps4_3_main_v129 (V21 m outs c), wr_main_v128 m outs c]
  rfl

theorem rd_main_v93_22 : (V22 m outs c main_v93 : T F Sw2) = kv_main_v93 m outs c :=
  (V22_of m outs c main_v93 (by decide)).trans <| (V21_of m outs c main_v93 (by decide)).trans <| (V20_of m outs c main_v93 (by decide)).trans <| wr_main_v93 m outs c

theorem rd_main_v95_22 : (V22 m outs c main_v95 : T F Sb2) = kv_main_v95 m outs c :=
  (V22_of m outs c main_v95 (by decide)).trans <| (V21_of m outs c main_v95 (by decide)).trans <| (V20_of m outs c main_v95 (by decide)).trans <| wr_main_v95 m outs c

theorem wr_main_v137 : (V23 m outs c main_v137 : T F Sx) = kv_main_v137 m outs c := by
  show (StableHlo.after hostOps4_4 (V22 m outs c) main_v137 : T F Sx) = _
  rw [st_hostOps4_4_main_v137 (V22 m outs c), wr_main_v129 m outs c, rd_main_v93_22 m outs c, rd_main_v95_22 m outs c]
  rfl

theorem rd_main_v69_22 : (V22 m outs c main_v69 : T F Sx) = kv_main_v69 m outs c :=
  (V22_of m outs c main_v69 (by decide)).trans <| (V21_of m outs c main_v69 (by decide)).trans <| (V20_of m outs c main_v69 (by decide)).trans <| (V19_of m outs c main_v69 (by decide)).trans <| (V18_of m outs c main_v69 (by decide)).trans <| (V17_of m outs c main_v69 (by decide)).trans <| (V16_of m outs c main_v69 (by decide)).trans <| (V15_of m outs c main_v69 (by decide)).trans <| (V14_of m outs c main_v69 (by decide)).trans <| (V13_of m outs c main_v69 (by decide)).trans <| wr_main_v69 m outs c

theorem wr_main_v138 : (V23 m outs c main_v138 : T F Sx) = kv_main_v138 m outs c := by
  show (StableHlo.after hostOps4_4 (V22 m outs c) main_v138 : T F Sx) = _
  rw [st_hostOps4_4_main_v138 (V22 m outs c), rd_main_v69_22 m outs c, wr_main_v129 m outs c, rd_main_v93_22 m outs c, rd_main_v95_22 m outs c]
  rfl

theorem rd_main_arg4_22 : (V22 m outs c main_arg4 : T F Sw2) = kv_main_arg4 m outs c :=
  (V22_of m outs c main_arg4 (by decide)).trans <| (V21_of m outs c main_arg4 (by decide)).trans <| (V20_of m outs c main_arg4 (by decide)).trans <| (V19_of m outs c main_arg4 (by decide)).trans <| (V18_of m outs c main_arg4 (by decide)).trans <| (V17_of m outs c main_arg4 (by decide)).trans <| (V16_of m outs c main_arg4 (by decide)).trans <| (V15_of m outs c main_arg4 (by decide)).trans <| (V14_of m outs c main_arg4 (by decide)).trans <| rd_main_arg4_13 m outs c

theorem rd_main_arg5_22 : (V22 m outs c main_arg5 : T F Sb2) = kv_main_arg5 m outs c :=
  (V22_of m outs c main_arg5 (by decide)).trans <| (V21_of m outs c main_arg5 (by decide)).trans <| (V20_of m outs c main_arg5 (by decide)).trans <| (V19_of m outs c main_arg5 (by decide)).trans <| (V18_of m outs c main_arg5 (by decide)).trans <| (V17_of m outs c main_arg5 (by decide)).trans <| (V16_of m outs c main_arg5 (by decide)).trans <| (V15_of m outs c main_arg5 (by decide)).trans <| (V14_of m outs c main_arg5 (by decide)).trans <| rd_main_arg5_13 m outs c

theorem wr_main_v146 : (V23 m outs c main_v146 : T F Sx) = kv_main_v146 m outs c := by
  show (StableHlo.after hostOps4_4 (V22 m outs c) main_v146 : T F Sx) = _
  rw [st_hostOps4_4_main_v146 (V22 m outs c), wr_main_v129 m outs c, rd_main_v93_22 m outs c, rd_main_v95_22 m outs c, rd_main_arg4_22 m outs c, rd_main_arg5_22 m outs c]
  rfl

theorem wr_main_v147 : (V24 m outs c main_v147 : T F Sx) = kv_main_v147 m outs c := by
  show (StableHlo.after hostOps4_5 (V23 m outs c) main_v147 : T F Sx) = _
  rw [st_hostOps4_5_main_v147 (V23 m outs c), wr_main_v146 m outs c]
  rfl

theorem rd_main_arg4_24 : (V24 m outs c main_arg4 : T F Sw2) = kv_main_arg4 m outs c :=
  (V24_of m outs c main_arg4 (by decide)).trans <| (V23_of m outs c main_arg4 (by decide)).trans <| rd_main_arg4_22 m outs c

theorem rd_main_arg5_24 : (V24 m outs c main_arg5 : T F Sb2) = kv_main_arg5 m outs c :=
  (V24_of m outs c main_arg5 (by decide)).trans <| (V23_of m outs c main_arg5 (by decide)).trans <| rd_main_arg5_22 m outs c

theorem wr_main_v155 : (V25 m outs c main_v155 : T F Sx) = kv_main_v155 m outs c := by
  show (StableHlo.after hostOps4_6 (V24 m outs c) main_v155 : T F Sx) = _
  rw [st_hostOps4_6_main_v155 (V24 m outs c), wr_main_v147 m outs c, rd_main_arg4_24 m outs c, rd_main_arg5_24 m outs c]
  rfl

theorem wr_main_v156 : (V26 m outs c main_v156 : T F Sx) = kv_main_v156 m outs c := by
  show (StableHlo.after hostOps4_7 (V25 m outs c) main_v156 : T F Sx) = _
  rw [st_hostOps4_7_main_v156 (V25 m outs c), wr_main_v155 m outs c]
  rfl

theorem wr_main_v157 : (V27 m outs c main_v157 : T F S11) = kv_main_v157 m outs c :=
  Function.update_self (Proc.devRef .tc main_v157 : DevRef τ sig) (outs 27 main_v157 c) (V26 m outs c)

theorem wr_main_v159 : (V28 m outs c main_v159 : T F S11) = kv_main_v159 m outs c := by
  show (StableHlo.after hostOps5 (V27 m outs c) main_v159 : T F S11) = _
  rw [st_hostOps5_main_v159 (V27 m outs c), wr_main_v157 m outs c]
  rfl

theorem rd_main_v156_28 : (V28 m outs c main_v156 : T F Sx) = kv_main_v156 m outs c :=
  (V28_of m outs c main_v156 (by decide)).trans <| (V27_of m outs c main_v156 (by decide)).trans <| wr_main_v156 m outs c

theorem rd_main_v137_28 : (V28 m outs c main_v137 : T F Sx) = kv_main_v137 m outs c :=
  (V28_of m outs c main_v137 (by decide)).trans <| (V27_of m outs c main_v137 (by decide)).trans <| (V26_of m outs c main_v137 (by decide)).trans <| (V25_of m outs c main_v137 (by decide)).trans <| (V24_of m outs c main_v137 (by decide)).trans <| wr_main_v137 m outs c

theorem wr_main_v160 : (V29 m outs c main_v160 : T F Sx) = kv_main_v160 m outs c :=
  Function.update_self (Proc.devRef .tc main_v160 : DevRef τ sig) (outs 29 main_v160 c) (V28 m outs c)

theorem rd_main_arg6_29 : (V29 m outs c main_arg6 : T F Sw32) = kv_main_arg6 m outs c :=
  (V29_of m outs c main_arg6 (by decide)).trans <| (V28_of m outs c main_arg6 (by decide)).trans <| (V27_of m outs c main_arg6 (by decide)).trans <| (V26_of m outs c main_arg6 (by decide)).trans <| (V25_of m outs c main_arg6 (by decide)).trans <| (V24_of m outs c main_arg6 (by decide)).trans <| (V23_of m outs c main_arg6 (by decide)).trans <| (V22_of m outs c main_arg6 (by decide)).trans <| (V21_of m outs c main_arg6 (by decide)).trans <| (V20_of m outs c main_arg6 (by decide)).trans <| (V19_of m outs c main_arg6 (by decide)).trans <| rd_main_arg6_18 m outs c

theorem wr_main_v162 : (V30 m outs c main_v162 : T F Sw2) = kv_main_v162 m outs c := by
  show (StableHlo.after hostOps6 (V29 m outs c) main_v162 : T F Sw2) = _
  rw [st_hostOps6_main_v162 (V29 m outs c), rd_main_arg6_29 m outs c]
  rfl

theorem rd_main_arg7_29 : (V29 m outs c main_arg7 : T F Sb32) = kv_main_arg7 m outs c :=
  (V29_of m outs c main_arg7 (by decide)).trans <| (V28_of m outs c main_arg7 (by decide)).trans <| (V27_of m outs c main_arg7 (by decide)).trans <| (V26_of m outs c main_arg7 (by decide)).trans <| (V25_of m outs c main_arg7 (by decide)).trans <| (V24_of m outs c main_arg7 (by decide)).trans <| (V23_of m outs c main_arg7 (by decide)).trans <| (V22_of m outs c main_arg7 (by decide)).trans <| (V21_of m outs c main_arg7 (by decide)).trans <| (V20_of m outs c main_arg7 (by decide)).trans <| (V19_of m outs c main_arg7 (by decide)).trans <| rd_main_arg7_18 m outs c

theorem wr_main_v164 : (V30 m outs c main_v164 : T F Sb2) = kv_main_v164 m outs c := by
  show (StableHlo.after hostOps6 (V29 m outs c) main_v164 : T F Sb2) = _
  rw [st_hostOps6_main_v164 (V29 m outs c), rd_main_arg7_29 m outs c]
  rfl

theorem rd_main_arg8_29 : (V29 m outs c main_arg8 : T F Sb32) = kv_main_arg8 m outs c :=
  (V29_of m outs c main_arg8 (by decide)).trans <| (V28_of m outs c main_arg8 (by decide)).trans <| (V27_of m outs c main_arg8 (by decide)).trans <| (V26_of m outs c main_arg8 (by decide)).trans <| (V25_of m outs c main_arg8 (by decide)).trans <| (V24_of m outs c main_arg8 (by decide)).trans <| (V23_of m outs c main_arg8 (by decide)).trans <| (V22_of m outs c main_arg8 (by decide)).trans <| (V21_of m outs c main_arg8 (by decide)).trans <| (V20_of m outs c main_arg8 (by decide)).trans <| (V19_of m outs c main_arg8 (by decide)).trans <| rd_main_arg8_18 m outs c

theorem wr_main_v166 : (V30 m outs c main_v166 : T F Sb2) = kv_main_v166 m outs c := by
  show (StableHlo.after hostOps6 (V29 m outs c) main_v166 : T F Sb2) = _
  rw [st_hostOps6_main_v166 (V29 m outs c), rd_main_arg8_29 m outs c]
  rfl

theorem wr_main_v174 : (V30 m outs c main_v174 : T F Sx) = kv_main_v174 m outs c := by
  show (StableHlo.after hostOps6 (V29 m outs c) main_v174 : T F Sx) = _
  rw [st_hostOps6_main_v174 (V29 m outs c), wr_main_v160 m outs c, rd_main_arg6_29 m outs c, rd_main_arg7_29 m outs c]
  rfl

theorem wr_main_v177 : (V30 m outs c main_v177 : T F Sb) = kv_main_v177 m outs c := by
  show (StableHlo.after hostOps6 (V29 m outs c) main_v177 : T F Sb) = _
  rw [st_hostOps6_main_v177 (V29 m outs c), wr_main_v160 m outs c, rd_main_arg6_29 m outs c, rd_main_arg7_29 m outs c]
  rfl

theorem wr_main_c_12 : (V30 m outs c main_c_12 : IVec S0 32) = kv_main_c_12 m outs c := by
  show (StableHlo.after hostOps6 (V29 m outs c) main_c_12 : IVec S0 32) = _
  rw [st_hostOps6_main_c_12 (V29 m outs c)]
  rfl

theorem wr_main_v178 : (V31 m outs c main_v178 : T F Sb) = kv_main_v178 m outs c := by
  show (StableHlo.after hostOps6_1 (V30 m outs c) main_v178 : T F Sb) = _
  rw [st_hostOps6_1_main_v178 (V30 m outs c), wr_main_v174 m outs c, wr_main_c_12 m outs c]
  rfl

theorem rd_main_v174_31 : (V31 m outs c main_v174 : T F Sx) = kv_main_v174 m outs c :=
  (V31_of m outs c main_v174 (by decide)).trans <| wr_main_v174 m outs c

theorem rd_main_v177_31 : (V31 m outs c main_v177 : T F Sb) = kv_main_v177 m outs c :=
  (V31_of m outs c main_v177 (by decide)).trans <| wr_main_v177 m outs c

theorem rd_main_v166_31 : (V31 m outs c main_v166 : T F Sb2) = kv_main_v166 m outs c :=
  (V31_of m outs c main_v166 (by decide)).trans <| wr_main_v166 m outs c

theorem wr_main_v197 : (V32 m outs c main_v197 : T F Sx) = kv_main_v197 m outs c := by
  show (StableHlo.after hostOps6_2 (V31 m outs c) main_v197 : T F Sx) = _
  rw [st_hostOps6_2_main_v197 (V31 m outs c), rd_main_v174_31 m outs c, rd_main_v177_31 m outs c, wr_main_v178 m outs c, rd_main_v166_31 m outs c]
  rfl

theorem wr_main_v198 : (V33 m outs c main_v198 : T F Sx) = kv_main_v198 m outs c := by
  show (StableHlo.after hostOps6_3 (V32 m outs c) main_v198 : T F Sx) = _
  rw [st_hostOps6_3_main_v198 (V32 m outs c), wr_main_v197 m outs c]
  rfl

theorem rd_main_v162_33 : (V33 m outs c main_v162 : T F Sw2) = kv_main_v162 m outs c :=
  (V33_of m outs c main_v162 (by decide)).trans <| (V32_of m outs c main_v162 (by decide)).trans <| (V31_of m outs c main_v162 (by decide)).trans <| wr_main_v162 m outs c

theorem rd_main_v164_33 : (V33 m outs c main_v164 : T F Sb2) = kv_main_v164 m outs c :=
  (V33_of m outs c main_v164 (by decide)).trans <| (V32_of m outs c main_v164 (by decide)).trans <| (V31_of m outs c main_v164 (by decide)).trans <| wr_main_v164 m outs c

theorem wr_main_v206 : (V34 m outs c main_v206 : T F Sx) = kv_main_v206 m outs c := by
  show (StableHlo.after hostOps6_4 (V33 m outs c) main_v206 : T F Sx) = _
  rw [st_hostOps6_4_main_v206 (V33 m outs c), wr_main_v198 m outs c, rd_main_v162_33 m outs c, rd_main_v164_33 m outs c]
  rfl

theorem rd_main_v138_33 : (V33 m outs c main_v138 : T F Sx) = kv_main_v138 m outs c :=
  (V33_of m outs c main_v138 (by decide)).trans <| (V32_of m outs c main_v138 (by decide)).trans <| (V31_of m outs c main_v138 (by decide)).trans <| (V30_of m outs c main_v138 (by decide)).trans <| (V29_of m outs c main_v138 (by decide)).trans <| (V28_of m outs c main_v138 (by decide)).trans <| (V27_of m outs c main_v138 (by decide)).trans <| (V26_of m outs c main_v138 (by decide)).trans <| (V25_of m outs c main_v138 (by decide)).trans <| (V24_of m outs c main_v138 (by decide)).trans <| wr_main_v138 m outs c

theorem wr_main_v207 : (V34 m outs c main_v207 : T F Sx) = kv_main_v207 m outs c := by
  show (StableHlo.after hostOps6_4 (V33 m outs c) main_v207 : T F Sx) = _
  rw [st_hostOps6_4_main_v207 (V33 m outs c), rd_main_v138_33 m outs c, wr_main_v198 m outs c, rd_main_v162_33 m outs c, rd_main_v164_33 m outs c]
  rfl

theorem wr_main_v209 : (V34 m outs c main_v209 : T F Sx) = kv_main_v209 m outs c := by
  show (StableHlo.after hostOps6_4 (V33 m outs c) main_v209 : T F Sx) = _
  rw [st_hostOps6_4_main_v209 (V33 m outs c), rd_main_v138_33 m outs c, wr_main_v198 m outs c, rd_main_v162_33 m outs c, rd_main_v164_33 m outs c]
  rfl

theorem wr_main_v210 : (V34 m outs c main_v210 : T F Sx) = kv_main_v210 m outs c := by
  show (StableHlo.after hostOps6_4 (V33 m outs c) main_v210 : T F Sx) = _
  rw [st_hostOps6_4_main_v210 (V33 m outs c)]
  rfl

theorem rd_main_arg1_33 : (V33 m outs c main_arg1 : T F Sx) = kv_main_arg1 m outs c :=
  (V33_of m outs c main_arg1 (by decide)).trans <| (V32_of m outs c main_arg1 (by decide)).trans <| (V31_of m outs c main_arg1 (by decide)).trans <| (V30_of m outs c main_arg1 (by decide)).trans <| (V29_of m outs c main_arg1 (by decide)).trans <| (V28_of m outs c main_arg1 (by decide)).trans <| (V27_of m outs c main_arg1 (by decide)).trans <| (V26_of m outs c main_arg1 (by decide)).trans <| (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m outs c main_arg1 (by decide)).trans <| (V4_of m c main_arg1 (by decide)).trans <| (V3_of m c main_arg1 (by decide)).trans <| (V2_of m c main_arg1 (by decide)).trans <| (V1_of m c main_arg1 (by decide)).trans <| rd_main_arg1_0 m outs c

theorem rd_main_arg9_33 : (V33 m outs c main_arg9 : T F Sw2) = kv_main_arg9 m outs c :=
  (V33_of m outs c main_arg9 (by decide)).trans <| (V32_of m outs c main_arg9 (by decide)).trans <| (V31_of m outs c main_arg9 (by decide)).trans <| (V30_of m outs c main_arg9 (by decide)).trans <| (V29_of m outs c main_arg9 (by decide)).trans <| (V28_of m outs c main_arg9 (by decide)).trans <| (V27_of m outs c main_arg9 (by decide)).trans <| (V26_of m outs c main_arg9 (by decide)).trans <| (V25_of m outs c main_arg9 (by decide)).trans <| (V24_of m outs c main_arg9 (by decide)).trans <| (V23_of m outs c main_arg9 (by decide)).trans <| (V22_of m outs c main_arg9 (by decide)).trans <| (V21_of m outs c main_arg9 (by decide)).trans <| (V20_of m outs c main_arg9 (by decide)).trans <| (V19_of m outs c main_arg9 (by decide)).trans <| (V18_of m outs c main_arg9 (by decide)).trans <| (V17_of m outs c main_arg9 (by decide)).trans <| (V16_of m outs c main_arg9 (by decide)).trans <| (V15_of m outs c main_arg9 (by decide)).trans <| (V14_of m outs c main_arg9 (by decide)).trans <| (V13_of m outs c main_arg9 (by decide)).trans <| (V12_of m outs c main_arg9 (by decide)).trans <| (V11_of m outs c main_arg9 (by decide)).trans <| (V10_of m outs c main_arg9 (by decide)).trans <| (V9_of m outs c main_arg9 (by decide)).trans <| (V8_of m outs c main_arg9 (by decide)).trans <| (V7_of m outs c main_arg9 (by decide)).trans <| (V6_of m outs c main_arg9 (by decide)).trans <| (V5_of m outs c main_arg9 (by decide)).trans <| (V4_of m c main_arg9 (by decide)).trans <| (V3_of m c main_arg9 (by decide)).trans <| (V2_of m c main_arg9 (by decide)).trans <| (V1_of m c main_arg9 (by decide)).trans <| rd_main_arg9_0 m outs c

theorem rd_main_arg10_33 : (V33 m outs c main_arg10 : T F Sb2) = kv_main_arg10 m outs c :=
  (V33_of m outs c main_arg10 (by decide)).trans <| (V32_of m outs c main_arg10 (by decide)).trans <| (V31_of m outs c main_arg10 (by decide)).trans <| (V30_of m outs c main_arg10 (by decide)).trans <| (V29_of m outs c main_arg10 (by decide)).trans <| (V28_of m outs c main_arg10 (by decide)).trans <| (V27_of m outs c main_arg10 (by decide)).trans <| (V26_of m outs c main_arg10 (by decide)).trans <| (V25_of m outs c main_arg10 (by decide)).trans <| (V24_of m outs c main_arg10 (by decide)).trans <| (V23_of m outs c main_arg10 (by decide)).trans <| (V22_of m outs c main_arg10 (by decide)).trans <| (V21_of m outs c main_arg10 (by decide)).trans <| (V20_of m outs c main_arg10 (by decide)).trans <| (V19_of m outs c main_arg10 (by decide)).trans <| (V18_of m outs c main_arg10 (by decide)).trans <| (V17_of m outs c main_arg10 (by decide)).trans <| (V16_of m outs c main_arg10 (by decide)).trans <| (V15_of m outs c main_arg10 (by decide)).trans <| (V14_of m outs c main_arg10 (by decide)).trans <| (V13_of m outs c main_arg10 (by decide)).trans <| (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m c main_arg10 (by decide)).trans <| (V3_of m c main_arg10 (by decide)).trans <| (V2_of m c main_arg10 (by decide)).trans <| (V1_of m c main_arg10 (by decide)).trans <| rd_main_arg10_0 m outs c

theorem wr_main_v218 : (V34 m outs c main_v218 : T F Sx) = kv_main_v218 m outs c := by
  show (StableHlo.after hostOps6_4 (V33 m outs c) main_v218 : T F Sx) = _
  rw [st_hostOps6_4_main_v218 (V33 m outs c), rd_main_arg1_33 m outs c, rd_main_arg9_33 m outs c, rd_main_arg10_33 m outs c]
  rfl

theorem wr_main_v219 : (V35 m outs c main_v219 : T F Sx) = kv_main_v219 m outs c := by
  show (StableHlo.after hostOps6_5 (V34 m outs c) main_v219 : T F Sx) = _
  rw [st_hostOps6_5_main_v219 (V34 m outs c), wr_main_v218 m outs c]
  rfl

theorem rd_main_arg9_35 : (V35 m outs c main_arg9 : T F Sw2) = kv_main_arg9 m outs c :=
  (V35_of m outs c main_arg9 (by decide)).trans <| (V34_of m outs c main_arg9 (by decide)).trans <| rd_main_arg9_33 m outs c

theorem rd_main_arg10_35 : (V35 m outs c main_arg10 : T F Sb2) = kv_main_arg10 m outs c :=
  (V35_of m outs c main_arg10 (by decide)).trans <| (V34_of m outs c main_arg10 (by decide)).trans <| rd_main_arg10_33 m outs c

theorem wr_main_v227 : (V36 m outs c main_v227 : T F Sx) = kv_main_v227 m outs c := by
  show (StableHlo.after hostOps6_6 (V35 m outs c) main_v227 : T F Sx) = _
  rw [st_hostOps6_6_main_v227 (V35 m outs c), wr_main_v219 m outs c, rd_main_arg9_35 m outs c, rd_main_arg10_35 m outs c]
  rfl

theorem wr_main_v228 : (V37 m outs c main_v228 : T F Sx) = kv_main_v228 m outs c := by
  show (StableHlo.after hostOps6_7 (V36 m outs c) main_v228 : T F Sx) = _
  rw [st_hostOps6_7_main_v228 (V36 m outs c), wr_main_v227 m outs c]
  rfl

theorem wr_main_v229 : (V38 m outs c main_v229 : T F S11) = kv_main_v229 m outs c :=
  Function.update_self (Proc.devRef .tc main_v229 : DevRef τ sig) (outs 38 main_v229 c) (V37 m outs c)

theorem wr_main_v231 : (V39 m outs c main_v231 : T F S11) = kv_main_v231 m outs c := by
  show (StableHlo.after hostOps7 (V38 m outs c) main_v231 : T F S11) = _
  rw [st_hostOps7_main_v231 (V38 m outs c), wr_main_v229 m outs c]
  rfl

theorem rd_main_v228_39 : (V39 m outs c main_v228 : T F Sx) = kv_main_v228 m outs c :=
  (V39_of m outs c main_v228 (by decide)).trans <| (V38_of m outs c main_v228 (by decide)).trans <| wr_main_v228 m outs c

theorem rd_main_arg1_39 : (V39 m outs c main_arg1 : T F Sx) = kv_main_arg1 m outs c :=
  (V39_of m outs c main_arg1 (by decide)).trans <| (V38_of m outs c main_arg1 (by decide)).trans <| (V37_of m outs c main_arg1 (by decide)).trans <| (V36_of m outs c main_arg1 (by decide)).trans <| (V35_of m outs c main_arg1 (by decide)).trans <| (V34_of m outs c main_arg1 (by decide)).trans <| rd_main_arg1_33 m outs c

theorem wr_main_v232 : (V40 m outs c main_v232 : T F Sx) = kv_main_v232 m outs c :=
  Function.update_self (Proc.devRef .tc main_v232 : DevRef τ sig) (outs 40 main_v232 c) (V39 m outs c)

theorem rd_main_arg11_40 : (V40 m outs c main_arg11 : T F Sw32) = kv_main_arg11 m outs c :=
  (V40_of m outs c main_arg11 (by decide)).trans <| (V39_of m outs c main_arg11 (by decide)).trans <| (V38_of m outs c main_arg11 (by decide)).trans <| (V37_of m outs c main_arg11 (by decide)).trans <| (V36_of m outs c main_arg11 (by decide)).trans <| (V35_of m outs c main_arg11 (by decide)).trans <| (V34_of m outs c main_arg11 (by decide)).trans <| (V33_of m outs c main_arg11 (by decide)).trans <| (V32_of m outs c main_arg11 (by decide)).trans <| (V31_of m outs c main_arg11 (by decide)).trans <| (V30_of m outs c main_arg11 (by decide)).trans <| (V29_of m outs c main_arg11 (by decide)).trans <| (V28_of m outs c main_arg11 (by decide)).trans <| (V27_of m outs c main_arg11 (by decide)).trans <| (V26_of m outs c main_arg11 (by decide)).trans <| (V25_of m outs c main_arg11 (by decide)).trans <| (V24_of m outs c main_arg11 (by decide)).trans <| (V23_of m outs c main_arg11 (by decide)).trans <| (V22_of m outs c main_arg11 (by decide)).trans <| (V21_of m outs c main_arg11 (by decide)).trans <| (V20_of m outs c main_arg11 (by decide)).trans <| (V19_of m outs c main_arg11 (by decide)).trans <| (V18_of m outs c main_arg11 (by decide)).trans <| (V17_of m outs c main_arg11 (by decide)).trans <| (V16_of m outs c main_arg11 (by decide)).trans <| (V15_of m outs c main_arg11 (by decide)).trans <| (V14_of m outs c main_arg11 (by decide)).trans <| (V13_of m outs c main_arg11 (by decide)).trans <| (V12_of m outs c main_arg11 (by decide)).trans <| (V11_of m outs c main_arg11 (by decide)).trans <| (V10_of m outs c main_arg11 (by decide)).trans <| (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m c main_arg11 (by decide)).trans <| (V3_of m c main_arg11 (by decide)).trans <| (V2_of m c main_arg11 (by decide)).trans <| (V1_of m c main_arg11 (by decide)).trans <| rd_main_arg11_0 m outs c

theorem wr_main_v234 : (V41 m outs c main_v234 : T F Sw2) = kv_main_v234 m outs c := by
  show (StableHlo.after hostOps8 (V40 m outs c) main_v234 : T F Sw2) = _
  rw [st_hostOps8_main_v234 (V40 m outs c), rd_main_arg11_40 m outs c]
  rfl

theorem rd_main_arg12_40 : (V40 m outs c main_arg12 : T F Sb32) = kv_main_arg12 m outs c :=
  (V40_of m outs c main_arg12 (by decide)).trans <| (V39_of m outs c main_arg12 (by decide)).trans <| (V38_of m outs c main_arg12 (by decide)).trans <| (V37_of m outs c main_arg12 (by decide)).trans <| (V36_of m outs c main_arg12 (by decide)).trans <| (V35_of m outs c main_arg12 (by decide)).trans <| (V34_of m outs c main_arg12 (by decide)).trans <| (V33_of m outs c main_arg12 (by decide)).trans <| (V32_of m outs c main_arg12 (by decide)).trans <| (V31_of m outs c main_arg12 (by decide)).trans <| (V30_of m outs c main_arg12 (by decide)).trans <| (V29_of m outs c main_arg12 (by decide)).trans <| (V28_of m outs c main_arg12 (by decide)).trans <| (V27_of m outs c main_arg12 (by decide)).trans <| (V26_of m outs c main_arg12 (by decide)).trans <| (V25_of m outs c main_arg12 (by decide)).trans <| (V24_of m outs c main_arg12 (by decide)).trans <| (V23_of m outs c main_arg12 (by decide)).trans <| (V22_of m outs c main_arg12 (by decide)).trans <| (V21_of m outs c main_arg12 (by decide)).trans <| (V20_of m outs c main_arg12 (by decide)).trans <| (V19_of m outs c main_arg12 (by decide)).trans <| (V18_of m outs c main_arg12 (by decide)).trans <| (V17_of m outs c main_arg12 (by decide)).trans <| (V16_of m outs c main_arg12 (by decide)).trans <| (V15_of m outs c main_arg12 (by decide)).trans <| (V14_of m outs c main_arg12 (by decide)).trans <| (V13_of m outs c main_arg12 (by decide)).trans <| (V12_of m outs c main_arg12 (by decide)).trans <| (V11_of m outs c main_arg12 (by decide)).trans <| (V10_of m outs c main_arg12 (by decide)).trans <| (V9_of m outs c main_arg12 (by decide)).trans <| (V8_of m outs c main_arg12 (by decide)).trans <| (V7_of m outs c main_arg12 (by decide)).trans <| (V6_of m outs c main_arg12 (by decide)).trans <| (V5_of m outs c main_arg12 (by decide)).trans <| (V4_of m c main_arg12 (by decide)).trans <| (V3_of m c main_arg12 (by decide)).trans <| (V2_of m c main_arg12 (by decide)).trans <| (V1_of m c main_arg12 (by decide)).trans <| rd_main_arg12_0 m outs c

theorem wr_main_v236 : (V41 m outs c main_v236 : T F Sb2) = kv_main_v236 m outs c := by
  show (StableHlo.after hostOps8 (V40 m outs c) main_v236 : T F Sb2) = _
  rw [st_hostOps8_main_v236 (V40 m outs c), rd_main_arg12_40 m outs c]
  rfl

theorem rd_main_arg13_40 : (V40 m outs c main_arg13 : T F Sb32) = kv_main_arg13 m outs c :=
  (V40_of m outs c main_arg13 (by decide)).trans <| (V39_of m outs c main_arg13 (by decide)).trans <| (V38_of m outs c main_arg13 (by decide)).trans <| (V37_of m outs c main_arg13 (by decide)).trans <| (V36_of m outs c main_arg13 (by decide)).trans <| (V35_of m outs c main_arg13 (by decide)).trans <| (V34_of m outs c main_arg13 (by decide)).trans <| (V33_of m outs c main_arg13 (by decide)).trans <| (V32_of m outs c main_arg13 (by decide)).trans <| (V31_of m outs c main_arg13 (by decide)).trans <| (V30_of m outs c main_arg13 (by decide)).trans <| (V29_of m outs c main_arg13 (by decide)).trans <| (V28_of m outs c main_arg13 (by decide)).trans <| (V27_of m outs c main_arg13 (by decide)).trans <| (V26_of m outs c main_arg13 (by decide)).trans <| (V25_of m outs c main_arg13 (by decide)).trans <| (V24_of m outs c main_arg13 (by decide)).trans <| (V23_of m outs c main_arg13 (by decide)).trans <| (V22_of m outs c main_arg13 (by decide)).trans <| (V21_of m outs c main_arg13 (by decide)).trans <| (V20_of m outs c main_arg13 (by decide)).trans <| (V19_of m outs c main_arg13 (by decide)).trans <| (V18_of m outs c main_arg13 (by decide)).trans <| (V17_of m outs c main_arg13 (by decide)).trans <| (V16_of m outs c main_arg13 (by decide)).trans <| (V15_of m outs c main_arg13 (by decide)).trans <| (V14_of m outs c main_arg13 (by decide)).trans <| (V13_of m outs c main_arg13 (by decide)).trans <| (V12_of m outs c main_arg13 (by decide)).trans <| (V11_of m outs c main_arg13 (by decide)).trans <| (V10_of m outs c main_arg13 (by decide)).trans <| (V9_of m outs c main_arg13 (by decide)).trans <| (V8_of m outs c main_arg13 (by decide)).trans <| (V7_of m outs c main_arg13 (by decide)).trans <| (V6_of m outs c main_arg13 (by decide)).trans <| (V5_of m outs c main_arg13 (by decide)).trans <| (V4_of m c main_arg13 (by decide)).trans <| (V3_of m c main_arg13 (by decide)).trans <| (V2_of m c main_arg13 (by decide)).trans <| (V1_of m c main_arg13 (by decide)).trans <| rd_main_arg13_0 m outs c

theorem wr_main_v238 : (V41 m outs c main_v238 : T F Sb2) = kv_main_v238 m outs c := by
  show (StableHlo.after hostOps8 (V40 m outs c) main_v238 : T F Sb2) = _
  rw [st_hostOps8_main_v238 (V40 m outs c), rd_main_arg13_40 m outs c]
  rfl

theorem wr_main_v246 : (V41 m outs c main_v246 : T F Sx) = kv_main_v246 m outs c := by
  show (StableHlo.after hostOps8 (V40 m outs c) main_v246 : T F Sx) = _
  rw [st_hostOps8_main_v246 (V40 m outs c), wr_main_v232 m outs c, rd_main_arg11_40 m outs c, rd_main_arg12_40 m outs c]
  rfl

theorem wr_main_v249 : (V41 m outs c main_v249 : T F Sb) = kv_main_v249 m outs c := by
  show (StableHlo.after hostOps8 (V40 m outs c) main_v249 : T F Sb) = _
  rw [st_hostOps8_main_v249 (V40 m outs c), wr_main_v232 m outs c, rd_main_arg11_40 m outs c, rd_main_arg12_40 m outs c]
  rfl

theorem wr_main_c_19 : (V41 m outs c main_c_19 : IVec S0 32) = kv_main_c_19 m outs c := by
  show (StableHlo.after hostOps8 (V40 m outs c) main_c_19 : IVec S0 32) = _
  rw [st_hostOps8_main_c_19 (V40 m outs c)]
  rfl

theorem wr_main_v250 : (V42 m outs c main_v250 : T F Sb) = kv_main_v250 m outs c := by
  show (StableHlo.after hostOps8_1 (V41 m outs c) main_v250 : T F Sb) = _
  rw [st_hostOps8_1_main_v250 (V41 m outs c), wr_main_v246 m outs c, wr_main_c_19 m outs c]
  rfl

theorem rd_main_v246_42 : (V42 m outs c main_v246 : T F Sx) = kv_main_v246 m outs c :=
  (V42_of m outs c main_v246 (by decide)).trans <| wr_main_v246 m outs c

theorem rd_main_v249_42 : (V42 m outs c main_v249 : T F Sb) = kv_main_v249 m outs c :=
  (V42_of m outs c main_v249 (by decide)).trans <| wr_main_v249 m outs c

theorem rd_main_v238_42 : (V42 m outs c main_v238 : T F Sb2) = kv_main_v238 m outs c :=
  (V42_of m outs c main_v238 (by decide)).trans <| wr_main_v238 m outs c

theorem wr_main_v269 : (V43 m outs c main_v269 : T F Sx) = kv_main_v269 m outs c := by
  show (StableHlo.after hostOps8_2 (V42 m outs c) main_v269 : T F Sx) = _
  rw [st_hostOps8_2_main_v269 (V42 m outs c), rd_main_v246_42 m outs c, rd_main_v249_42 m outs c, wr_main_v250 m outs c, rd_main_v238_42 m outs c]
  rfl

theorem wr_main_v270 : (V44 m outs c main_v270 : T F Sx) = kv_main_v270 m outs c := by
  show (StableHlo.after hostOps8_3 (V43 m outs c) main_v270 : T F Sx) = _
  rw [st_hostOps8_3_main_v270 (V43 m outs c), wr_main_v269 m outs c]
  rfl

theorem rd_main_v234_44 : (V44 m outs c main_v234 : T F Sw2) = kv_main_v234 m outs c :=
  (V44_of m outs c main_v234 (by decide)).trans <| (V43_of m outs c main_v234 (by decide)).trans <| (V42_of m outs c main_v234 (by decide)).trans <| wr_main_v234 m outs c

theorem rd_main_v236_44 : (V44 m outs c main_v236 : T F Sb2) = kv_main_v236 m outs c :=
  (V44_of m outs c main_v236 (by decide)).trans <| (V43_of m outs c main_v236 (by decide)).trans <| (V42_of m outs c main_v236 (by decide)).trans <| wr_main_v236 m outs c

theorem wr_main_v278 : (V45 m outs c main_v278 : T F Sx) = kv_main_v278 m outs c := by
  show (StableHlo.after hostOps8_4 (V44 m outs c) main_v278 : T F Sx) = _
  rw [st_hostOps8_4_main_v278 (V44 m outs c), wr_main_v270 m outs c, rd_main_v234_44 m outs c, rd_main_v236_44 m outs c]
  rfl

theorem rd_main_v210_44 : (V44 m outs c main_v210 : T F Sx) = kv_main_v210 m outs c :=
  (V44_of m outs c main_v210 (by decide)).trans <| (V43_of m outs c main_v210 (by decide)).trans <| (V42_of m outs c main_v210 (by decide)).trans <| (V41_of m outs c main_v210 (by decide)).trans <| (V40_of m outs c main_v210 (by decide)).trans <| (V39_of m outs c main_v210 (by decide)).trans <| (V38_of m outs c main_v210 (by decide)).trans <| (V37_of m outs c main_v210 (by decide)).trans <| (V36_of m outs c main_v210 (by decide)).trans <| (V35_of m outs c main_v210 (by decide)).trans <| wr_main_v210 m outs c

theorem wr_main_v279 : (V45 m outs c main_v279 : T F Sx) = kv_main_v279 m outs c := by
  show (StableHlo.after hostOps8_4 (V44 m outs c) main_v279 : T F Sx) = _
  rw [st_hostOps8_4_main_v279 (V44 m outs c), rd_main_v210_44 m outs c, wr_main_v270 m outs c, rd_main_v234_44 m outs c, rd_main_v236_44 m outs c]
  rfl

theorem rd_main_arg9_44 : (V44 m outs c main_arg9 : T F Sw2) = kv_main_arg9 m outs c :=
  (V44_of m outs c main_arg9 (by decide)).trans <| (V43_of m outs c main_arg9 (by decide)).trans <| (V42_of m outs c main_arg9 (by decide)).trans <| (V41_of m outs c main_arg9 (by decide)).trans <| (V40_of m outs c main_arg9 (by decide)).trans <| (V39_of m outs c main_arg9 (by decide)).trans <| (V38_of m outs c main_arg9 (by decide)).trans <| (V37_of m outs c main_arg9 (by decide)).trans <| (V36_of m outs c main_arg9 (by decide)).trans <| rd_main_arg9_35 m outs c

theorem rd_main_arg10_44 : (V44 m outs c main_arg10 : T F Sb2) = kv_main_arg10 m outs c :=
  (V44_of m outs c main_arg10 (by decide)).trans <| (V43_of m outs c main_arg10 (by decide)).trans <| (V42_of m outs c main_arg10 (by decide)).trans <| (V41_of m outs c main_arg10 (by decide)).trans <| (V40_of m outs c main_arg10 (by decide)).trans <| (V39_of m outs c main_arg10 (by decide)).trans <| (V38_of m outs c main_arg10 (by decide)).trans <| (V37_of m outs c main_arg10 (by decide)).trans <| (V36_of m outs c main_arg10 (by decide)).trans <| rd_main_arg10_35 m outs c

theorem wr_main_v287 : (V45 m outs c main_v287 : T F Sx) = kv_main_v287 m outs c := by
  show (StableHlo.after hostOps8_4 (V44 m outs c) main_v287 : T F Sx) = _
  rw [st_hostOps8_4_main_v287 (V44 m outs c), wr_main_v270 m outs c, rd_main_v234_44 m outs c, rd_main_v236_44 m outs c, rd_main_arg9_44 m outs c, rd_main_arg10_44 m outs c]
  rfl

theorem wr_main_v288 : (V46 m outs c main_v288 : T F Sx) = kv_main_v288 m outs c := by
  show (StableHlo.after hostOps8_5 (V45 m outs c) main_v288 : T F Sx) = _
  rw [st_hostOps8_5_main_v288 (V45 m outs c), wr_main_v287 m outs c]
  rfl

theorem rd_main_arg9_46 : (V46 m outs c main_arg9 : T F Sw2) = kv_main_arg9 m outs c :=
  (V46_of m outs c main_arg9 (by decide)).trans <| (V45_of m outs c main_arg9 (by decide)).trans <| rd_main_arg9_44 m outs c

theorem rd_main_arg10_46 : (V46 m outs c main_arg10 : T F Sb2) = kv_main_arg10 m outs c :=
  (V46_of m outs c main_arg10 (by decide)).trans <| (V45_of m outs c main_arg10 (by decide)).trans <| rd_main_arg10_44 m outs c

theorem wr_main_v296 : (V47 m outs c main_v296 : T F Sx) = kv_main_v296 m outs c := by
  show (StableHlo.after hostOps8_6 (V46 m outs c) main_v296 : T F Sx) = _
  rw [st_hostOps8_6_main_v296 (V46 m outs c), wr_main_v288 m outs c, rd_main_arg9_46 m outs c, rd_main_arg10_46 m outs c]
  rfl

theorem wr_main_v297 : (V48 m outs c main_v297 : T F Sx) = kv_main_v297 m outs c := by
  show (StableHlo.after hostOps8_7 (V47 m outs c) main_v297 : T F Sx) = _
  rw [st_hostOps8_7_main_v297 (V47 m outs c), wr_main_v296 m outs c]
  rfl

theorem wr_main_v298 : (V49 m outs c main_v298 : T F S11) = kv_main_v298 m outs c :=
  Function.update_self (Proc.devRef .tc main_v298 : DevRef τ sig) (outs 49 main_v298 c) (V48 m outs c)

theorem wr_main_v300 : (V50 m outs c main_v300 : T F S11) = kv_main_v300 m outs c := by
  show (StableHlo.after hostOps9 (V49 m outs c) main_v300 : T F S11) = _
  rw [st_hostOps9_main_v300 (V49 m outs c), wr_main_v298 m outs c]
  rfl

theorem rd_main_v297_50 : (V50 m outs c main_v297 : T F Sx) = kv_main_v297 m outs c :=
  (V50_of m outs c main_v297 (by decide)).trans <| (V49_of m outs c main_v297 (by decide)).trans <| wr_main_v297 m outs c

theorem rd_main_v278_50 : (V50 m outs c main_v278 : T F Sx) = kv_main_v278 m outs c :=
  (V50_of m outs c main_v278 (by decide)).trans <| (V49_of m outs c main_v278 (by decide)).trans <| (V48_of m outs c main_v278 (by decide)).trans <| (V47_of m outs c main_v278 (by decide)).trans <| (V46_of m outs c main_v278 (by decide)).trans <| wr_main_v278 m outs c

theorem wr_main_v301 : (V51 m outs c main_v301 : T F Sx) = kv_main_v301 m outs c :=
  Function.update_self (Proc.devRef .tc main_v301 : DevRef τ sig) (outs 51 main_v301 c) (V50 m outs c)

theorem rd_main_arg11_51 : (V51 m outs c main_arg11 : T F Sw32) = kv_main_arg11 m outs c :=
  (V51_of m outs c main_arg11 (by decide)).trans <| (V50_of m outs c main_arg11 (by decide)).trans <| (V49_of m outs c main_arg11 (by decide)).trans <| (V48_of m outs c main_arg11 (by decide)).trans <| (V47_of m outs c main_arg11 (by decide)).trans <| (V46_of m outs c main_arg11 (by decide)).trans <| (V45_of m outs c main_arg11 (by decide)).trans <| (V44_of m outs c main_arg11 (by decide)).trans <| (V43_of m outs c main_arg11 (by decide)).trans <| (V42_of m outs c main_arg11 (by decide)).trans <| (V41_of m outs c main_arg11 (by decide)).trans <| rd_main_arg11_40 m outs c

theorem wr_main_v303 : (V52 m outs c main_v303 : T F Sw2) = kv_main_v303 m outs c := by
  show (StableHlo.after hostOps10 (V51 m outs c) main_v303 : T F Sw2) = _
  rw [st_hostOps10_main_v303 (V51 m outs c), rd_main_arg11_51 m outs c]
  rfl

theorem rd_main_arg12_51 : (V51 m outs c main_arg12 : T F Sb32) = kv_main_arg12 m outs c :=
  (V51_of m outs c main_arg12 (by decide)).trans <| (V50_of m outs c main_arg12 (by decide)).trans <| (V49_of m outs c main_arg12 (by decide)).trans <| (V48_of m outs c main_arg12 (by decide)).trans <| (V47_of m outs c main_arg12 (by decide)).trans <| (V46_of m outs c main_arg12 (by decide)).trans <| (V45_of m outs c main_arg12 (by decide)).trans <| (V44_of m outs c main_arg12 (by decide)).trans <| (V43_of m outs c main_arg12 (by decide)).trans <| (V42_of m outs c main_arg12 (by decide)).trans <| (V41_of m outs c main_arg12 (by decide)).trans <| rd_main_arg12_40 m outs c

theorem wr_main_v305 : (V52 m outs c main_v305 : T F Sb2) = kv_main_v305 m outs c := by
  show (StableHlo.after hostOps10 (V51 m outs c) main_v305 : T F Sb2) = _
  rw [st_hostOps10_main_v305 (V51 m outs c), rd_main_arg12_51 m outs c]
  rfl

theorem rd_main_arg13_51 : (V51 m outs c main_arg13 : T F Sb32) = kv_main_arg13 m outs c :=
  (V51_of m outs c main_arg13 (by decide)).trans <| (V50_of m outs c main_arg13 (by decide)).trans <| (V49_of m outs c main_arg13 (by decide)).trans <| (V48_of m outs c main_arg13 (by decide)).trans <| (V47_of m outs c main_arg13 (by decide)).trans <| (V46_of m outs c main_arg13 (by decide)).trans <| (V45_of m outs c main_arg13 (by decide)).trans <| (V44_of m outs c main_arg13 (by decide)).trans <| (V43_of m outs c main_arg13 (by decide)).trans <| (V42_of m outs c main_arg13 (by decide)).trans <| (V41_of m outs c main_arg13 (by decide)).trans <| rd_main_arg13_40 m outs c

theorem wr_main_v307 : (V52 m outs c main_v307 : T F Sb2) = kv_main_v307 m outs c := by
  show (StableHlo.after hostOps10 (V51 m outs c) main_v307 : T F Sb2) = _
  rw [st_hostOps10_main_v307 (V51 m outs c), rd_main_arg13_51 m outs c]
  rfl

theorem wr_main_v315 : (V52 m outs c main_v315 : T F Sx) = kv_main_v315 m outs c := by
  show (StableHlo.after hostOps10 (V51 m outs c) main_v315 : T F Sx) = _
  rw [st_hostOps10_main_v315 (V51 m outs c), wr_main_v301 m outs c, rd_main_arg11_51 m outs c, rd_main_arg12_51 m outs c]
  rfl

theorem wr_main_v318 : (V52 m outs c main_v318 : T F Sb) = kv_main_v318 m outs c := by
  show (StableHlo.after hostOps10 (V51 m outs c) main_v318 : T F Sb) = _
  rw [st_hostOps10_main_v318 (V51 m outs c), wr_main_v301 m outs c, rd_main_arg11_51 m outs c, rd_main_arg12_51 m outs c]
  rfl

theorem wr_main_c_24 : (V52 m outs c main_c_24 : IVec S0 32) = kv_main_c_24 m outs c := by
  show (StableHlo.after hostOps10 (V51 m outs c) main_c_24 : IVec S0 32) = _
  rw [st_hostOps10_main_c_24 (V51 m outs c)]
  rfl

theorem wr_main_v319 : (V53 m outs c main_v319 : T F Sb) = kv_main_v319 m outs c := by
  show (StableHlo.after hostOps10_1 (V52 m outs c) main_v319 : T F Sb) = _
  rw [st_hostOps10_1_main_v319 (V52 m outs c), wr_main_v315 m outs c, wr_main_c_24 m outs c]
  rfl

theorem rd_main_v315_53 : (V53 m outs c main_v315 : T F Sx) = kv_main_v315 m outs c :=
  (V53_of m outs c main_v315 (by decide)).trans <| wr_main_v315 m outs c

theorem rd_main_v318_53 : (V53 m outs c main_v318 : T F Sb) = kv_main_v318 m outs c :=
  (V53_of m outs c main_v318 (by decide)).trans <| wr_main_v318 m outs c

theorem rd_main_v307_53 : (V53 m outs c main_v307 : T F Sb2) = kv_main_v307 m outs c :=
  (V53_of m outs c main_v307 (by decide)).trans <| wr_main_v307 m outs c

theorem wr_main_v338 : (V54 m outs c main_v338 : T F Sx) = kv_main_v338 m outs c := by
  show (StableHlo.after hostOps10_2 (V53 m outs c) main_v338 : T F Sx) = _
  rw [st_hostOps10_2_main_v338 (V53 m outs c), rd_main_v315_53 m outs c, rd_main_v318_53 m outs c, wr_main_v319 m outs c, rd_main_v307_53 m outs c]
  rfl

theorem wr_main_v339 : (V55 m outs c main_v339 : T F Sx) = kv_main_v339 m outs c := by
  show (StableHlo.after hostOps10_3 (V54 m outs c) main_v339 : T F Sx) = _
  rw [st_hostOps10_3_main_v339 (V54 m outs c), wr_main_v338 m outs c]
  rfl

theorem rd_main_v303_55 : (V55 m outs c main_v303 : T F Sw2) = kv_main_v303 m outs c :=
  (V55_of m outs c main_v303 (by decide)).trans <| (V54_of m outs c main_v303 (by decide)).trans <| (V53_of m outs c main_v303 (by decide)).trans <| wr_main_v303 m outs c

theorem rd_main_v305_55 : (V55 m outs c main_v305 : T F Sb2) = kv_main_v305 m outs c :=
  (V55_of m outs c main_v305 (by decide)).trans <| (V54_of m outs c main_v305 (by decide)).trans <| (V53_of m outs c main_v305 (by decide)).trans <| wr_main_v305 m outs c

theorem wr_main_v347 : (V56 m outs c main_v347 : T F Sx) = kv_main_v347 m outs c := by
  show (StableHlo.after hostOps10_4 (V55 m outs c) main_v347 : T F Sx) = _
  rw [st_hostOps10_4_main_v347 (V55 m outs c), wr_main_v339 m outs c, rd_main_v303_55 m outs c, rd_main_v305_55 m outs c]
  rfl

theorem rd_main_v279_55 : (V55 m outs c main_v279 : T F Sx) = kv_main_v279 m outs c :=
  (V55_of m outs c main_v279 (by decide)).trans <| (V54_of m outs c main_v279 (by decide)).trans <| (V53_of m outs c main_v279 (by decide)).trans <| (V52_of m outs c main_v279 (by decide)).trans <| (V51_of m outs c main_v279 (by decide)).trans <| (V50_of m outs c main_v279 (by decide)).trans <| (V49_of m outs c main_v279 (by decide)).trans <| (V48_of m outs c main_v279 (by decide)).trans <| (V47_of m outs c main_v279 (by decide)).trans <| (V46_of m outs c main_v279 (by decide)).trans <| wr_main_v279 m outs c

theorem wr_main_v348 : (V56 m outs c main_v348 : T F Sx) = kv_main_v348 m outs c := by
  show (StableHlo.after hostOps10_4 (V55 m outs c) main_v348 : T F Sx) = _
  rw [st_hostOps10_4_main_v348 (V55 m outs c), rd_main_v279_55 m outs c, wr_main_v339 m outs c, rd_main_v303_55 m outs c, rd_main_v305_55 m outs c]
  rfl

theorem rd_main_arg9_55 : (V55 m outs c main_arg9 : T F Sw2) = kv_main_arg9 m outs c :=
  (V55_of m outs c main_arg9 (by decide)).trans <| (V54_of m outs c main_arg9 (by decide)).trans <| (V53_of m outs c main_arg9 (by decide)).trans <| (V52_of m outs c main_arg9 (by decide)).trans <| (V51_of m outs c main_arg9 (by decide)).trans <| (V50_of m outs c main_arg9 (by decide)).trans <| (V49_of m outs c main_arg9 (by decide)).trans <| (V48_of m outs c main_arg9 (by decide)).trans <| (V47_of m outs c main_arg9 (by decide)).trans <| rd_main_arg9_46 m outs c

theorem rd_main_arg10_55 : (V55 m outs c main_arg10 : T F Sb2) = kv_main_arg10 m outs c :=
  (V55_of m outs c main_arg10 (by decide)).trans <| (V54_of m outs c main_arg10 (by decide)).trans <| (V53_of m outs c main_arg10 (by decide)).trans <| (V52_of m outs c main_arg10 (by decide)).trans <| (V51_of m outs c main_arg10 (by decide)).trans <| (V50_of m outs c main_arg10 (by decide)).trans <| (V49_of m outs c main_arg10 (by decide)).trans <| (V48_of m outs c main_arg10 (by decide)).trans <| (V47_of m outs c main_arg10 (by decide)).trans <| rd_main_arg10_46 m outs c

theorem wr_main_v356 : (V56 m outs c main_v356 : T F Sx) = kv_main_v356 m outs c := by
  show (StableHlo.after hostOps10_4 (V55 m outs c) main_v356 : T F Sx) = _
  rw [st_hostOps10_4_main_v356 (V55 m outs c), wr_main_v339 m outs c, rd_main_v303_55 m outs c, rd_main_v305_55 m outs c, rd_main_arg9_55 m outs c, rd_main_arg10_55 m outs c]
  rfl

theorem wr_main_v357 : (V57 m outs c main_v357 : T F Sx) = kv_main_v357 m outs c := by
  show (StableHlo.after hostOps10_5 (V56 m outs c) main_v357 : T F Sx) = _
  rw [st_hostOps10_5_main_v357 (V56 m outs c), wr_main_v356 m outs c]
  rfl

theorem rd_main_arg9_57 : (V57 m outs c main_arg9 : T F Sw2) = kv_main_arg9 m outs c :=
  (V57_of m outs c main_arg9 (by decide)).trans <| (V56_of m outs c main_arg9 (by decide)).trans <| rd_main_arg9_55 m outs c

theorem rd_main_arg10_57 : (V57 m outs c main_arg10 : T F Sb2) = kv_main_arg10 m outs c :=
  (V57_of m outs c main_arg10 (by decide)).trans <| (V56_of m outs c main_arg10 (by decide)).trans <| rd_main_arg10_55 m outs c

theorem wr_main_v365 : (V58 m outs c main_v365 : T F Sx) = kv_main_v365 m outs c := by
  show (StableHlo.after hostOps10_6 (V57 m outs c) main_v365 : T F Sx) = _
  rw [st_hostOps10_6_main_v365 (V57 m outs c), wr_main_v357 m outs c, rd_main_arg9_57 m outs c, rd_main_arg10_57 m outs c]
  rfl

theorem wr_main_v366 : (V59 m outs c main_v366 : T F Sx) = kv_main_v366 m outs c := by
  show (StableHlo.after hostOps10_7 (V58 m outs c) main_v366 : T F Sx) = _
  rw [st_hostOps10_7_main_v366 (V58 m outs c), wr_main_v365 m outs c]
  rfl

theorem wr_main_v367 : (V60 m outs c main_v367 : T F S11) = kv_main_v367 m outs c :=
  Function.update_self (Proc.devRef .tc main_v367 : DevRef τ sig) (outs 60 main_v367 c) (V59 m outs c)

theorem wr_main_v369 : (V61 m outs c main_v369 : T F S11) = kv_main_v369 m outs c := by
  show (StableHlo.after hostOps11 (V60 m outs c) main_v369 : T F S11) = _
  rw [st_hostOps11_main_v369 (V60 m outs c), wr_main_v367 m outs c]
  rfl

theorem rd_main_v366_61 : (V61 m outs c main_v366 : T F Sx) = kv_main_v366 m outs c :=
  (V61_of m outs c main_v366 (by decide)).trans <| (V60_of m outs c main_v366 (by decide)).trans <| wr_main_v366 m outs c

theorem rd_main_v347_61 : (V61 m outs c main_v347 : T F Sx) = kv_main_v347 m outs c :=
  (V61_of m outs c main_v347 (by decide)).trans <| (V60_of m outs c main_v347 (by decide)).trans <| (V59_of m outs c main_v347 (by decide)).trans <| (V58_of m outs c main_v347 (by decide)).trans <| (V57_of m outs c main_v347 (by decide)).trans <| wr_main_v347 m outs c

theorem wr_main_v370 : (V62 m outs c main_v370 : T F Sx) = kv_main_v370 m outs c :=
  Function.update_self (Proc.devRef .tc main_v370 : DevRef τ sig) (outs 62 main_v370 c) (V61 m outs c)

theorem rd_main_arg11_62 : (V62 m outs c main_arg11 : T F Sw32) = kv_main_arg11 m outs c :=
  (V62_of m outs c main_arg11 (by decide)).trans <| (V61_of m outs c main_arg11 (by decide)).trans <| (V60_of m outs c main_arg11 (by decide)).trans <| (V59_of m outs c main_arg11 (by decide)).trans <| (V58_of m outs c main_arg11 (by decide)).trans <| (V57_of m outs c main_arg11 (by decide)).trans <| (V56_of m outs c main_arg11 (by decide)).trans <| (V55_of m outs c main_arg11 (by decide)).trans <| (V54_of m outs c main_arg11 (by decide)).trans <| (V53_of m outs c main_arg11 (by decide)).trans <| (V52_of m outs c main_arg11 (by decide)).trans <| rd_main_arg11_51 m outs c

theorem wr_main_v372 : (V63 m outs c main_v372 : T F Sw2) = kv_main_v372 m outs c := by
  show (StableHlo.after hostOps12 (V62 m outs c) main_v372 : T F Sw2) = _
  rw [st_hostOps12_main_v372 (V62 m outs c), rd_main_arg11_62 m outs c]
  rfl

theorem rd_main_arg12_62 : (V62 m outs c main_arg12 : T F Sb32) = kv_main_arg12 m outs c :=
  (V62_of m outs c main_arg12 (by decide)).trans <| (V61_of m outs c main_arg12 (by decide)).trans <| (V60_of m outs c main_arg12 (by decide)).trans <| (V59_of m outs c main_arg12 (by decide)).trans <| (V58_of m outs c main_arg12 (by decide)).trans <| (V57_of m outs c main_arg12 (by decide)).trans <| (V56_of m outs c main_arg12 (by decide)).trans <| (V55_of m outs c main_arg12 (by decide)).trans <| (V54_of m outs c main_arg12 (by decide)).trans <| (V53_of m outs c main_arg12 (by decide)).trans <| (V52_of m outs c main_arg12 (by decide)).trans <| rd_main_arg12_51 m outs c

theorem wr_main_v374 : (V63 m outs c main_v374 : T F Sb2) = kv_main_v374 m outs c := by
  show (StableHlo.after hostOps12 (V62 m outs c) main_v374 : T F Sb2) = _
  rw [st_hostOps12_main_v374 (V62 m outs c), rd_main_arg12_62 m outs c]
  rfl

theorem rd_main_arg13_62 : (V62 m outs c main_arg13 : T F Sb32) = kv_main_arg13 m outs c :=
  (V62_of m outs c main_arg13 (by decide)).trans <| (V61_of m outs c main_arg13 (by decide)).trans <| (V60_of m outs c main_arg13 (by decide)).trans <| (V59_of m outs c main_arg13 (by decide)).trans <| (V58_of m outs c main_arg13 (by decide)).trans <| (V57_of m outs c main_arg13 (by decide)).trans <| (V56_of m outs c main_arg13 (by decide)).trans <| (V55_of m outs c main_arg13 (by decide)).trans <| (V54_of m outs c main_arg13 (by decide)).trans <| (V53_of m outs c main_arg13 (by decide)).trans <| (V52_of m outs c main_arg13 (by decide)).trans <| rd_main_arg13_51 m outs c

theorem wr_main_v376 : (V63 m outs c main_v376 : T F Sb2) = kv_main_v376 m outs c := by
  show (StableHlo.after hostOps12 (V62 m outs c) main_v376 : T F Sb2) = _
  rw [st_hostOps12_main_v376 (V62 m outs c), rd_main_arg13_62 m outs c]
  rfl

theorem wr_main_v384 : (V63 m outs c main_v384 : T F Sx) = kv_main_v384 m outs c := by
  show (StableHlo.after hostOps12 (V62 m outs c) main_v384 : T F Sx) = _
  rw [st_hostOps12_main_v384 (V62 m outs c), wr_main_v370 m outs c, rd_main_arg11_62 m outs c, rd_main_arg12_62 m outs c]
  rfl

theorem wr_main_v387 : (V63 m outs c main_v387 : T F Sb) = kv_main_v387 m outs c := by
  show (StableHlo.after hostOps12 (V62 m outs c) main_v387 : T F Sb) = _
  rw [st_hostOps12_main_v387 (V62 m outs c), wr_main_v370 m outs c, rd_main_arg11_62 m outs c, rd_main_arg12_62 m outs c]
  rfl

theorem wr_main_c_29 : (V63 m outs c main_c_29 : IVec S0 32) = kv_main_c_29 m outs c := by
  show (StableHlo.after hostOps12 (V62 m outs c) main_c_29 : IVec S0 32) = _
  rw [st_hostOps12_main_c_29 (V62 m outs c)]
  rfl

theorem wr_main_v388 : (V64 m outs c main_v388 : T F Sb) = kv_main_v388 m outs c := by
  show (StableHlo.after hostOps12_1 (V63 m outs c) main_v388 : T F Sb) = _
  rw [st_hostOps12_1_main_v388 (V63 m outs c), wr_main_v384 m outs c, wr_main_c_29 m outs c]
  rfl

theorem rd_main_v384_64 : (V64 m outs c main_v384 : T F Sx) = kv_main_v384 m outs c :=
  (V64_of m outs c main_v384 (by decide)).trans <| wr_main_v384 m outs c

theorem rd_main_v387_64 : (V64 m outs c main_v387 : T F Sb) = kv_main_v387 m outs c :=
  (V64_of m outs c main_v387 (by decide)).trans <| wr_main_v387 m outs c

theorem rd_main_v376_64 : (V64 m outs c main_v376 : T F Sb2) = kv_main_v376 m outs c :=
  (V64_of m outs c main_v376 (by decide)).trans <| wr_main_v376 m outs c

theorem wr_main_v407 : (V65 m outs c main_v407 : T F Sx) = kv_main_v407 m outs c := by
  show (StableHlo.after hostOps12_2 (V64 m outs c) main_v407 : T F Sx) = _
  rw [st_hostOps12_2_main_v407 (V64 m outs c), rd_main_v384_64 m outs c, rd_main_v387_64 m outs c, wr_main_v388 m outs c, rd_main_v376_64 m outs c]
  rfl

theorem wr_main_v408 : (V66 m outs c main_v408 : T F Sx) = kv_main_v408 m outs c := by
  show (StableHlo.after hostOps12_3 (V65 m outs c) main_v408 : T F Sx) = _
  rw [st_hostOps12_3_main_v408 (V65 m outs c), wr_main_v407 m outs c]
  rfl

theorem rd_main_v372_66 : (V66 m outs c main_v372 : T F Sw2) = kv_main_v372 m outs c :=
  (V66_of m outs c main_v372 (by decide)).trans <| (V65_of m outs c main_v372 (by decide)).trans <| (V64_of m outs c main_v372 (by decide)).trans <| wr_main_v372 m outs c

theorem rd_main_v374_66 : (V66 m outs c main_v374 : T F Sb2) = kv_main_v374 m outs c :=
  (V66_of m outs c main_v374 (by decide)).trans <| (V65_of m outs c main_v374 (by decide)).trans <| (V64_of m outs c main_v374 (by decide)).trans <| wr_main_v374 m outs c

theorem wr_main_v416 : (V67 m outs c main_v416 : T F Sx) = kv_main_v416 m outs c := by
  show (StableHlo.after hostOps12_4 (V66 m outs c) main_v416 : T F Sx) = _
  rw [st_hostOps12_4_main_v416 (V66 m outs c), wr_main_v408 m outs c, rd_main_v372_66 m outs c, rd_main_v374_66 m outs c]
  rfl

theorem rd_main_v348_66 : (V66 m outs c main_v348 : T F Sx) = kv_main_v348 m outs c :=
  (V66_of m outs c main_v348 (by decide)).trans <| (V65_of m outs c main_v348 (by decide)).trans <| (V64_of m outs c main_v348 (by decide)).trans <| (V63_of m outs c main_v348 (by decide)).trans <| (V62_of m outs c main_v348 (by decide)).trans <| (V61_of m outs c main_v348 (by decide)).trans <| (V60_of m outs c main_v348 (by decide)).trans <| (V59_of m outs c main_v348 (by decide)).trans <| (V58_of m outs c main_v348 (by decide)).trans <| (V57_of m outs c main_v348 (by decide)).trans <| wr_main_v348 m outs c

theorem wr_main_v417 : (V67 m outs c main_v417 : T F Sx) = kv_main_v417 m outs c := by
  show (StableHlo.after hostOps12_4 (V66 m outs c) main_v417 : T F Sx) = _
  rw [st_hostOps12_4_main_v417 (V66 m outs c), rd_main_v348_66 m outs c, wr_main_v408 m outs c, rd_main_v372_66 m outs c, rd_main_v374_66 m outs c]
  rfl

theorem wr_main_v419 : (V67 m outs c main_v419 : T F Sx) = kv_main_v419 m outs c := by
  show (StableHlo.after hostOps12_4 (V66 m outs c) main_v419 : T F Sx) = _
  rw [st_hostOps12_4_main_v419 (V66 m outs c), rd_main_v348_66 m outs c, wr_main_v408 m outs c, rd_main_v372_66 m outs c, rd_main_v374_66 m outs c]
  rfl

theorem wr_main_v420 : (V67 m outs c main_v420 : T F Sx) = kv_main_v420 m outs c := by
  show (StableHlo.after hostOps12_4 (V66 m outs c) main_v420 : T F Sx) = _
  rw [st_hostOps12_4_main_v420 (V66 m outs c)]
  rfl

theorem rd_main_arg2_66 : (V66 m outs c main_arg2 : T F Sx) = kv_main_arg2 m outs c :=
  (V66_of m outs c main_arg2 (by decide)).trans <| (V65_of m outs c main_arg2 (by decide)).trans <| (V64_of m outs c main_arg2 (by decide)).trans <| (V63_of m outs c main_arg2 (by decide)).trans <| (V62_of m outs c main_arg2 (by decide)).trans <| (V61_of m outs c main_arg2 (by decide)).trans <| (V60_of m outs c main_arg2 (by decide)).trans <| (V59_of m outs c main_arg2 (by decide)).trans <| (V58_of m outs c main_arg2 (by decide)).trans <| (V57_of m outs c main_arg2 (by decide)).trans <| (V56_of m outs c main_arg2 (by decide)).trans <| (V55_of m outs c main_arg2 (by decide)).trans <| (V54_of m outs c main_arg2 (by decide)).trans <| (V53_of m outs c main_arg2 (by decide)).trans <| (V52_of m outs c main_arg2 (by decide)).trans <| (V51_of m outs c main_arg2 (by decide)).trans <| (V50_of m outs c main_arg2 (by decide)).trans <| (V49_of m outs c main_arg2 (by decide)).trans <| (V48_of m outs c main_arg2 (by decide)).trans <| (V47_of m outs c main_arg2 (by decide)).trans <| (V46_of m outs c main_arg2 (by decide)).trans <| (V45_of m outs c main_arg2 (by decide)).trans <| (V44_of m outs c main_arg2 (by decide)).trans <| (V43_of m outs c main_arg2 (by decide)).trans <| (V42_of m outs c main_arg2 (by decide)).trans <| (V41_of m outs c main_arg2 (by decide)).trans <| (V40_of m outs c main_arg2 (by decide)).trans <| (V39_of m outs c main_arg2 (by decide)).trans <| (V38_of m outs c main_arg2 (by decide)).trans <| (V37_of m outs c main_arg2 (by decide)).trans <| (V36_of m outs c main_arg2 (by decide)).trans <| (V35_of m outs c main_arg2 (by decide)).trans <| (V34_of m outs c main_arg2 (by decide)).trans <| (V33_of m outs c main_arg2 (by decide)).trans <| (V32_of m outs c main_arg2 (by decide)).trans <| (V31_of m outs c main_arg2 (by decide)).trans <| (V30_of m outs c main_arg2 (by decide)).trans <| (V29_of m outs c main_arg2 (by decide)).trans <| (V28_of m outs c main_arg2 (by decide)).trans <| (V27_of m outs c main_arg2 (by decide)).trans <| (V26_of m outs c main_arg2 (by decide)).trans <| (V25_of m outs c main_arg2 (by decide)).trans <| (V24_of m outs c main_arg2 (by decide)).trans <| (V23_of m outs c main_arg2 (by decide)).trans <| (V22_of m outs c main_arg2 (by decide)).trans <| (V21_of m outs c main_arg2 (by decide)).trans <| (V20_of m outs c main_arg2 (by decide)).trans <| (V19_of m outs c main_arg2 (by decide)).trans <| (V18_of m outs c main_arg2 (by decide)).trans <| (V17_of m outs c main_arg2 (by decide)).trans <| (V16_of m outs c main_arg2 (by decide)).trans <| (V15_of m outs c main_arg2 (by decide)).trans <| (V14_of m outs c main_arg2 (by decide)).trans <| (V13_of m outs c main_arg2 (by decide)).trans <| (V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m c main_arg2 (by decide)).trans <| (V3_of m c main_arg2 (by decide)).trans <| (V2_of m c main_arg2 (by decide)).trans <| (V1_of m c main_arg2 (by decide)).trans <| rd_main_arg2_0 m outs c

theorem rd_main_arg14_66 : (V66 m outs c main_arg14 : T F Sw2) = kv_main_arg14 m outs c :=
  (V66_of m outs c main_arg14 (by decide)).trans <| (V65_of m outs c main_arg14 (by decide)).trans <| (V64_of m outs c main_arg14 (by decide)).trans <| (V63_of m outs c main_arg14 (by decide)).trans <| (V62_of m outs c main_arg14 (by decide)).trans <| (V61_of m outs c main_arg14 (by decide)).trans <| (V60_of m outs c main_arg14 (by decide)).trans <| (V59_of m outs c main_arg14 (by decide)).trans <| (V58_of m outs c main_arg14 (by decide)).trans <| (V57_of m outs c main_arg14 (by decide)).trans <| (V56_of m outs c main_arg14 (by decide)).trans <| (V55_of m outs c main_arg14 (by decide)).trans <| (V54_of m outs c main_arg14 (by decide)).trans <| (V53_of m outs c main_arg14 (by decide)).trans <| (V52_of m outs c main_arg14 (by decide)).trans <| (V51_of m outs c main_arg14 (by decide)).trans <| (V50_of m outs c main_arg14 (by decide)).trans <| (V49_of m outs c main_arg14 (by decide)).trans <| (V48_of m outs c main_arg14 (by decide)).trans <| (V47_of m outs c main_arg14 (by decide)).trans <| (V46_of m outs c main_arg14 (by decide)).trans <| (V45_of m outs c main_arg14 (by decide)).trans <| (V44_of m outs c main_arg14 (by decide)).trans <| (V43_of m outs c main_arg14 (by decide)).trans <| (V42_of m outs c main_arg14 (by decide)).trans <| (V41_of m outs c main_arg14 (by decide)).trans <| (V40_of m outs c main_arg14 (by decide)).trans <| (V39_of m outs c main_arg14 (by decide)).trans <| (V38_of m outs c main_arg14 (by decide)).trans <| (V37_of m outs c main_arg14 (by decide)).trans <| (V36_of m outs c main_arg14 (by decide)).trans <| (V35_of m outs c main_arg14 (by decide)).trans <| (V34_of m outs c main_arg14 (by decide)).trans <| (V33_of m outs c main_arg14 (by decide)).trans <| (V32_of m outs c main_arg14 (by decide)).trans <| (V31_of m outs c main_arg14 (by decide)).trans <| (V30_of m outs c main_arg14 (by decide)).trans <| (V29_of m outs c main_arg14 (by decide)).trans <| (V28_of m outs c main_arg14 (by decide)).trans <| (V27_of m outs c main_arg14 (by decide)).trans <| (V26_of m outs c main_arg14 (by decide)).trans <| (V25_of m outs c main_arg14 (by decide)).trans <| (V24_of m outs c main_arg14 (by decide)).trans <| (V23_of m outs c main_arg14 (by decide)).trans <| (V22_of m outs c main_arg14 (by decide)).trans <| (V21_of m outs c main_arg14 (by decide)).trans <| (V20_of m outs c main_arg14 (by decide)).trans <| (V19_of m outs c main_arg14 (by decide)).trans <| (V18_of m outs c main_arg14 (by decide)).trans <| (V17_of m outs c main_arg14 (by decide)).trans <| (V16_of m outs c main_arg14 (by decide)).trans <| (V15_of m outs c main_arg14 (by decide)).trans <| (V14_of m outs c main_arg14 (by decide)).trans <| (V13_of m outs c main_arg14 (by decide)).trans <| (V12_of m outs c main_arg14 (by decide)).trans <| (V11_of m outs c main_arg14 (by decide)).trans <| (V10_of m outs c main_arg14 (by decide)).trans <| (V9_of m outs c main_arg14 (by decide)).trans <| (V8_of m outs c main_arg14 (by decide)).trans <| (V7_of m outs c main_arg14 (by decide)).trans <| (V6_of m outs c main_arg14 (by decide)).trans <| (V5_of m outs c main_arg14 (by decide)).trans <| (V4_of m c main_arg14 (by decide)).trans <| (V3_of m c main_arg14 (by decide)).trans <| (V2_of m c main_arg14 (by decide)).trans <| (V1_of m c main_arg14 (by decide)).trans <| rd_main_arg14_0 m outs c

theorem rd_main_arg15_66 : (V66 m outs c main_arg15 : T F Sb2) = kv_main_arg15 m outs c :=
  (V66_of m outs c main_arg15 (by decide)).trans <| (V65_of m outs c main_arg15 (by decide)).trans <| (V64_of m outs c main_arg15 (by decide)).trans <| (V63_of m outs c main_arg15 (by decide)).trans <| (V62_of m outs c main_arg15 (by decide)).trans <| (V61_of m outs c main_arg15 (by decide)).trans <| (V60_of m outs c main_arg15 (by decide)).trans <| (V59_of m outs c main_arg15 (by decide)).trans <| (V58_of m outs c main_arg15 (by decide)).trans <| (V57_of m outs c main_arg15 (by decide)).trans <| (V56_of m outs c main_arg15 (by decide)).trans <| (V55_of m outs c main_arg15 (by decide)).trans <| (V54_of m outs c main_arg15 (by decide)).trans <| (V53_of m outs c main_arg15 (by decide)).trans <| (V52_of m outs c main_arg15 (by decide)).trans <| (V51_of m outs c main_arg15 (by decide)).trans <| (V50_of m outs c main_arg15 (by decide)).trans <| (V49_of m outs c main_arg15 (by decide)).trans <| (V48_of m outs c main_arg15 (by decide)).trans <| (V47_of m outs c main_arg15 (by decide)).trans <| (V46_of m outs c main_arg15 (by decide)).trans <| (V45_of m outs c main_arg15 (by decide)).trans <| (V44_of m outs c main_arg15 (by decide)).trans <| (V43_of m outs c main_arg15 (by decide)).trans <| (V42_of m outs c main_arg15 (by decide)).trans <| (V41_of m outs c main_arg15 (by decide)).trans <| (V40_of m outs c main_arg15 (by decide)).trans <| (V39_of m outs c main_arg15 (by decide)).trans <| (V38_of m outs c main_arg15 (by decide)).trans <| (V37_of m outs c main_arg15 (by decide)).trans <| (V36_of m outs c main_arg15 (by decide)).trans <| (V35_of m outs c main_arg15 (by decide)).trans <| (V34_of m outs c main_arg15 (by decide)).trans <| (V33_of m outs c main_arg15 (by decide)).trans <| (V32_of m outs c main_arg15 (by decide)).trans <| (V31_of m outs c main_arg15 (by decide)).trans <| (V30_of m outs c main_arg15 (by decide)).trans <| (V29_of m outs c main_arg15 (by decide)).trans <| (V28_of m outs c main_arg15 (by decide)).trans <| (V27_of m outs c main_arg15 (by decide)).trans <| (V26_of m outs c main_arg15 (by decide)).trans <| (V25_of m outs c main_arg15 (by decide)).trans <| (V24_of m outs c main_arg15 (by decide)).trans <| (V23_of m outs c main_arg15 (by decide)).trans <| (V22_of m outs c main_arg15 (by decide)).trans <| (V21_of m outs c main_arg15 (by decide)).trans <| (V20_of m outs c main_arg15 (by decide)).trans <| (V19_of m outs c main_arg15 (by decide)).trans <| (V18_of m outs c main_arg15 (by decide)).trans <| (V17_of m outs c main_arg15 (by decide)).trans <| (V16_of m outs c main_arg15 (by decide)).trans <| (V15_of m outs c main_arg15 (by decide)).trans <| (V14_of m outs c main_arg15 (by decide)).trans <| (V13_of m outs c main_arg15 (by decide)).trans <| (V12_of m outs c main_arg15 (by decide)).trans <| (V11_of m outs c main_arg15 (by decide)).trans <| (V10_of m outs c main_arg15 (by decide)).trans <| (V9_of m outs c main_arg15 (by decide)).trans <| (V8_of m outs c main_arg15 (by decide)).trans <| (V7_of m outs c main_arg15 (by decide)).trans <| (V6_of m outs c main_arg15 (by decide)).trans <| (V5_of m outs c main_arg15 (by decide)).trans <| (V4_of m c main_arg15 (by decide)).trans <| (V3_of m c main_arg15 (by decide)).trans <| (V2_of m c main_arg15 (by decide)).trans <| (V1_of m c main_arg15 (by decide)).trans <| rd_main_arg15_0 m outs c

theorem wr_main_v428 : (V67 m outs c main_v428 : T F Sx) = kv_main_v428 m outs c := by
  show (StableHlo.after hostOps12_4 (V66 m outs c) main_v428 : T F Sx) = _
  rw [st_hostOps12_4_main_v428 (V66 m outs c), rd_main_arg2_66 m outs c, rd_main_arg14_66 m outs c, rd_main_arg15_66 m outs c]
  rfl

theorem wr_main_v429 : (V68 m outs c main_v429 : T F Sx) = kv_main_v429 m outs c := by
  show (StableHlo.after hostOps12_5 (V67 m outs c) main_v429 : T F Sx) = _
  rw [st_hostOps12_5_main_v429 (V67 m outs c), wr_main_v428 m outs c]
  rfl

theorem rd_main_arg14_68 : (V68 m outs c main_arg14 : T F Sw2) = kv_main_arg14 m outs c :=
  (V68_of m outs c main_arg14 (by decide)).trans <| (V67_of m outs c main_arg14 (by decide)).trans <| rd_main_arg14_66 m outs c

theorem rd_main_arg15_68 : (V68 m outs c main_arg15 : T F Sb2) = kv_main_arg15 m outs c :=
  (V68_of m outs c main_arg15 (by decide)).trans <| (V67_of m outs c main_arg15 (by decide)).trans <| rd_main_arg15_66 m outs c

theorem wr_main_v437 : (V69 m outs c main_v437 : T F Sx) = kv_main_v437 m outs c := by
  show (StableHlo.after hostOps12_6 (V68 m outs c) main_v437 : T F Sx) = _
  rw [st_hostOps12_6_main_v437 (V68 m outs c), wr_main_v429 m outs c, rd_main_arg14_68 m outs c, rd_main_arg15_68 m outs c]
  rfl

theorem wr_main_v438 : (V70 m outs c main_v438 : T F Sx) = kv_main_v438 m outs c := by
  show (StableHlo.after hostOps12_7 (V69 m outs c) main_v438 : T F Sx) = _
  rw [st_hostOps12_7_main_v438 (V69 m outs c), wr_main_v437 m outs c]
  rfl

theorem wr_main_v439 : (V71 m outs c main_v439 : T F S11) = kv_main_v439 m outs c :=
  Function.update_self (Proc.devRef .tc main_v439 : DevRef τ sig) (outs 71 main_v439 c) (V70 m outs c)

theorem wr_main_v441 : (V72 m outs c main_v441 : T F S11) = kv_main_v441 m outs c := by
  show (StableHlo.after hostOps13 (V71 m outs c) main_v441 : T F S11) = _
  rw [st_hostOps13_main_v441 (V71 m outs c), wr_main_v439 m outs c]
  rfl

theorem rd_main_v438_72 : (V72 m outs c main_v438 : T F Sx) = kv_main_v438 m outs c :=
  (V72_of m outs c main_v438 (by decide)).trans <| (V71_of m outs c main_v438 (by decide)).trans <| wr_main_v438 m outs c

theorem rd_main_arg2_72 : (V72 m outs c main_arg2 : T F Sx) = kv_main_arg2 m outs c :=
  (V72_of m outs c main_arg2 (by decide)).trans <| (V71_of m outs c main_arg2 (by decide)).trans <| (V70_of m outs c main_arg2 (by decide)).trans <| (V69_of m outs c main_arg2 (by decide)).trans <| (V68_of m outs c main_arg2 (by decide)).trans <| (V67_of m outs c main_arg2 (by decide)).trans <| rd_main_arg2_66 m outs c

theorem wr_main_v442 : (V73 m outs c main_v442 : T F Sx) = kv_main_v442 m outs c :=
  Function.update_self (Proc.devRef .tc main_v442 : DevRef τ sig) (outs 73 main_v442 c) (V72 m outs c)

theorem rd_main_arg16_73 : (V73 m outs c main_arg16 : T F Sw32) = kv_main_arg16 m outs c :=
  (V73_of m outs c main_arg16 (by decide)).trans <| (V72_of m outs c main_arg16 (by decide)).trans <| (V71_of m outs c main_arg16 (by decide)).trans <| (V70_of m outs c main_arg16 (by decide)).trans <| (V69_of m outs c main_arg16 (by decide)).trans <| (V68_of m outs c main_arg16 (by decide)).trans <| (V67_of m outs c main_arg16 (by decide)).trans <| (V66_of m outs c main_arg16 (by decide)).trans <| (V65_of m outs c main_arg16 (by decide)).trans <| (V64_of m outs c main_arg16 (by decide)).trans <| (V63_of m outs c main_arg16 (by decide)).trans <| (V62_of m outs c main_arg16 (by decide)).trans <| (V61_of m outs c main_arg16 (by decide)).trans <| (V60_of m outs c main_arg16 (by decide)).trans <| (V59_of m outs c main_arg16 (by decide)).trans <| (V58_of m outs c main_arg16 (by decide)).trans <| (V57_of m outs c main_arg16 (by decide)).trans <| (V56_of m outs c main_arg16 (by decide)).trans <| (V55_of m outs c main_arg16 (by decide)).trans <| (V54_of m outs c main_arg16 (by decide)).trans <| (V53_of m outs c main_arg16 (by decide)).trans <| (V52_of m outs c main_arg16 (by decide)).trans <| (V51_of m outs c main_arg16 (by decide)).trans <| (V50_of m outs c main_arg16 (by decide)).trans <| (V49_of m outs c main_arg16 (by decide)).trans <| (V48_of m outs c main_arg16 (by decide)).trans <| (V47_of m outs c main_arg16 (by decide)).trans <| (V46_of m outs c main_arg16 (by decide)).trans <| (V45_of m outs c main_arg16 (by decide)).trans <| (V44_of m outs c main_arg16 (by decide)).trans <| (V43_of m outs c main_arg16 (by decide)).trans <| (V42_of m outs c main_arg16 (by decide)).trans <| (V41_of m outs c main_arg16 (by decide)).trans <| (V40_of m outs c main_arg16 (by decide)).trans <| (V39_of m outs c main_arg16 (by decide)).trans <| (V38_of m outs c main_arg16 (by decide)).trans <| (V37_of m outs c main_arg16 (by decide)).trans <| (V36_of m outs c main_arg16 (by decide)).trans <| (V35_of m outs c main_arg16 (by decide)).trans <| (V34_of m outs c main_arg16 (by decide)).trans <| (V33_of m outs c main_arg16 (by decide)).trans <| (V32_of m outs c main_arg16 (by decide)).trans <| (V31_of m outs c main_arg16 (by decide)).trans <| (V30_of m outs c main_arg16 (by decide)).trans <| (V29_of m outs c main_arg16 (by decide)).trans <| (V28_of m outs c main_arg16 (by decide)).trans <| (V27_of m outs c main_arg16 (by decide)).trans <| (V26_of m outs c main_arg16 (by decide)).trans <| (V25_of m outs c main_arg16 (by decide)).trans <| (V24_of m outs c main_arg16 (by decide)).trans <| (V23_of m outs c main_arg16 (by decide)).trans <| (V22_of m outs c main_arg16 (by decide)).trans <| (V21_of m outs c main_arg16 (by decide)).trans <| (V20_of m outs c main_arg16 (by decide)).trans <| (V19_of m outs c main_arg16 (by decide)).trans <| (V18_of m outs c main_arg16 (by decide)).trans <| (V17_of m outs c main_arg16 (by decide)).trans <| (V16_of m outs c main_arg16 (by decide)).trans <| (V15_of m outs c main_arg16 (by decide)).trans <| (V14_of m outs c main_arg16 (by decide)).trans <| (V13_of m outs c main_arg16 (by decide)).trans <| (V12_of m outs c main_arg16 (by decide)).trans <| (V11_of m outs c main_arg16 (by decide)).trans <| (V10_of m outs c main_arg16 (by decide)).trans <| (V9_of m outs c main_arg16 (by decide)).trans <| (V8_of m outs c main_arg16 (by decide)).trans <| (V7_of m outs c main_arg16 (by decide)).trans <| (V6_of m outs c main_arg16 (by decide)).trans <| (V5_of m outs c main_arg16 (by decide)).trans <| (V4_of m c main_arg16 (by decide)).trans <| (V3_of m c main_arg16 (by decide)).trans <| (V2_of m c main_arg16 (by decide)).trans <| (V1_of m c main_arg16 (by decide)).trans <| rd_main_arg16_0 m outs c

theorem wr_main_v444 : (V74 m outs c main_v444 : T F Sw2) = kv_main_v444 m outs c := by
  show (StableHlo.after hostOps14 (V73 m outs c) main_v444 : T F Sw2) = _
  rw [st_hostOps14_main_v444 (V73 m outs c), rd_main_arg16_73 m outs c]
  rfl

theorem rd_main_arg17_73 : (V73 m outs c main_arg17 : T F Sb32) = kv_main_arg17 m outs c :=
  (V73_of m outs c main_arg17 (by decide)).trans <| (V72_of m outs c main_arg17 (by decide)).trans <| (V71_of m outs c main_arg17 (by decide)).trans <| (V70_of m outs c main_arg17 (by decide)).trans <| (V69_of m outs c main_arg17 (by decide)).trans <| (V68_of m outs c main_arg17 (by decide)).trans <| (V67_of m outs c main_arg17 (by decide)).trans <| (V66_of m outs c main_arg17 (by decide)).trans <| (V65_of m outs c main_arg17 (by decide)).trans <| (V64_of m outs c main_arg17 (by decide)).trans <| (V63_of m outs c main_arg17 (by decide)).trans <| (V62_of m outs c main_arg17 (by decide)).trans <| (V61_of m outs c main_arg17 (by decide)).trans <| (V60_of m outs c main_arg17 (by decide)).trans <| (V59_of m outs c main_arg17 (by decide)).trans <| (V58_of m outs c main_arg17 (by decide)).trans <| (V57_of m outs c main_arg17 (by decide)).trans <| (V56_of m outs c main_arg17 (by decide)).trans <| (V55_of m outs c main_arg17 (by decide)).trans <| (V54_of m outs c main_arg17 (by decide)).trans <| (V53_of m outs c main_arg17 (by decide)).trans <| (V52_of m outs c main_arg17 (by decide)).trans <| (V51_of m outs c main_arg17 (by decide)).trans <| (V50_of m outs c main_arg17 (by decide)).trans <| (V49_of m outs c main_arg17 (by decide)).trans <| (V48_of m outs c main_arg17 (by decide)).trans <| (V47_of m outs c main_arg17 (by decide)).trans <| (V46_of m outs c main_arg17 (by decide)).trans <| (V45_of m outs c main_arg17 (by decide)).trans <| (V44_of m outs c main_arg17 (by decide)).trans <| (V43_of m outs c main_arg17 (by decide)).trans <| (V42_of m outs c main_arg17 (by decide)).trans <| (V41_of m outs c main_arg17 (by decide)).trans <| (V40_of m outs c main_arg17 (by decide)).trans <| (V39_of m outs c main_arg17 (by decide)).trans <| (V38_of m outs c main_arg17 (by decide)).trans <| (V37_of m outs c main_arg17 (by decide)).trans <| (V36_of m outs c main_arg17 (by decide)).trans <| (V35_of m outs c main_arg17 (by decide)).trans <| (V34_of m outs c main_arg17 (by decide)).trans <| (V33_of m outs c main_arg17 (by decide)).trans <| (V32_of m outs c main_arg17 (by decide)).trans <| (V31_of m outs c main_arg17 (by decide)).trans <| (V30_of m outs c main_arg17 (by decide)).trans <| (V29_of m outs c main_arg17 (by decide)).trans <| (V28_of m outs c main_arg17 (by decide)).trans <| (V27_of m outs c main_arg17 (by decide)).trans <| (V26_of m outs c main_arg17 (by decide)).trans <| (V25_of m outs c main_arg17 (by decide)).trans <| (V24_of m outs c main_arg17 (by decide)).trans <| (V23_of m outs c main_arg17 (by decide)).trans <| (V22_of m outs c main_arg17 (by decide)).trans <| (V21_of m outs c main_arg17 (by decide)).trans <| (V20_of m outs c main_arg17 (by decide)).trans <| (V19_of m outs c main_arg17 (by decide)).trans <| (V18_of m outs c main_arg17 (by decide)).trans <| (V17_of m outs c main_arg17 (by decide)).trans <| (V16_of m outs c main_arg17 (by decide)).trans <| (V15_of m outs c main_arg17 (by decide)).trans <| (V14_of m outs c main_arg17 (by decide)).trans <| (V13_of m outs c main_arg17 (by decide)).trans <| (V12_of m outs c main_arg17 (by decide)).trans <| (V11_of m outs c main_arg17 (by decide)).trans <| (V10_of m outs c main_arg17 (by decide)).trans <| (V9_of m outs c main_arg17 (by decide)).trans <| (V8_of m outs c main_arg17 (by decide)).trans <| (V7_of m outs c main_arg17 (by decide)).trans <| (V6_of m outs c main_arg17 (by decide)).trans <| (V5_of m outs c main_arg17 (by decide)).trans <| (V4_of m c main_arg17 (by decide)).trans <| (V3_of m c main_arg17 (by decide)).trans <| (V2_of m c main_arg17 (by decide)).trans <| (V1_of m c main_arg17 (by decide)).trans <| rd_main_arg17_0 m outs c

theorem wr_main_v446 : (V74 m outs c main_v446 : T F Sb2) = kv_main_v446 m outs c := by
  show (StableHlo.after hostOps14 (V73 m outs c) main_v446 : T F Sb2) = _
  rw [st_hostOps14_main_v446 (V73 m outs c), rd_main_arg17_73 m outs c]
  rfl

theorem rd_main_arg18_73 : (V73 m outs c main_arg18 : T F Sb32) = kv_main_arg18 m outs c :=
  (V73_of m outs c main_arg18 (by decide)).trans <| (V72_of m outs c main_arg18 (by decide)).trans <| (V71_of m outs c main_arg18 (by decide)).trans <| (V70_of m outs c main_arg18 (by decide)).trans <| (V69_of m outs c main_arg18 (by decide)).trans <| (V68_of m outs c main_arg18 (by decide)).trans <| (V67_of m outs c main_arg18 (by decide)).trans <| (V66_of m outs c main_arg18 (by decide)).trans <| (V65_of m outs c main_arg18 (by decide)).trans <| (V64_of m outs c main_arg18 (by decide)).trans <| (V63_of m outs c main_arg18 (by decide)).trans <| (V62_of m outs c main_arg18 (by decide)).trans <| (V61_of m outs c main_arg18 (by decide)).trans <| (V60_of m outs c main_arg18 (by decide)).trans <| (V59_of m outs c main_arg18 (by decide)).trans <| (V58_of m outs c main_arg18 (by decide)).trans <| (V57_of m outs c main_arg18 (by decide)).trans <| (V56_of m outs c main_arg18 (by decide)).trans <| (V55_of m outs c main_arg18 (by decide)).trans <| (V54_of m outs c main_arg18 (by decide)).trans <| (V53_of m outs c main_arg18 (by decide)).trans <| (V52_of m outs c main_arg18 (by decide)).trans <| (V51_of m outs c main_arg18 (by decide)).trans <| (V50_of m outs c main_arg18 (by decide)).trans <| (V49_of m outs c main_arg18 (by decide)).trans <| (V48_of m outs c main_arg18 (by decide)).trans <| (V47_of m outs c main_arg18 (by decide)).trans <| (V46_of m outs c main_arg18 (by decide)).trans <| (V45_of m outs c main_arg18 (by decide)).trans <| (V44_of m outs c main_arg18 (by decide)).trans <| (V43_of m outs c main_arg18 (by decide)).trans <| (V42_of m outs c main_arg18 (by decide)).trans <| (V41_of m outs c main_arg18 (by decide)).trans <| (V40_of m outs c main_arg18 (by decide)).trans <| (V39_of m outs c main_arg18 (by decide)).trans <| (V38_of m outs c main_arg18 (by decide)).trans <| (V37_of m outs c main_arg18 (by decide)).trans <| (V36_of m outs c main_arg18 (by decide)).trans <| (V35_of m outs c main_arg18 (by decide)).trans <| (V34_of m outs c main_arg18 (by decide)).trans <| (V33_of m outs c main_arg18 (by decide)).trans <| (V32_of m outs c main_arg18 (by decide)).trans <| (V31_of m outs c main_arg18 (by decide)).trans <| (V30_of m outs c main_arg18 (by decide)).trans <| (V29_of m outs c main_arg18 (by decide)).trans <| (V28_of m outs c main_arg18 (by decide)).trans <| (V27_of m outs c main_arg18 (by decide)).trans <| (V26_of m outs c main_arg18 (by decide)).trans <| (V25_of m outs c main_arg18 (by decide)).trans <| (V24_of m outs c main_arg18 (by decide)).trans <| (V23_of m outs c main_arg18 (by decide)).trans <| (V22_of m outs c main_arg18 (by decide)).trans <| (V21_of m outs c main_arg18 (by decide)).trans <| (V20_of m outs c main_arg18 (by decide)).trans <| (V19_of m outs c main_arg18 (by decide)).trans <| (V18_of m outs c main_arg18 (by decide)).trans <| (V17_of m outs c main_arg18 (by decide)).trans <| (V16_of m outs c main_arg18 (by decide)).trans <| (V15_of m outs c main_arg18 (by decide)).trans <| (V14_of m outs c main_arg18 (by decide)).trans <| (V13_of m outs c main_arg18 (by decide)).trans <| (V12_of m outs c main_arg18 (by decide)).trans <| (V11_of m outs c main_arg18 (by decide)).trans <| (V10_of m outs c main_arg18 (by decide)).trans <| (V9_of m outs c main_arg18 (by decide)).trans <| (V8_of m outs c main_arg18 (by decide)).trans <| (V7_of m outs c main_arg18 (by decide)).trans <| (V6_of m outs c main_arg18 (by decide)).trans <| (V5_of m outs c main_arg18 (by decide)).trans <| (V4_of m c main_arg18 (by decide)).trans <| (V3_of m c main_arg18 (by decide)).trans <| (V2_of m c main_arg18 (by decide)).trans <| (V1_of m c main_arg18 (by decide)).trans <| rd_main_arg18_0 m outs c

theorem wr_main_v448 : (V74 m outs c main_v448 : T F Sb2) = kv_main_v448 m outs c := by
  show (StableHlo.after hostOps14 (V73 m outs c) main_v448 : T F Sb2) = _
  rw [st_hostOps14_main_v448 (V73 m outs c), rd_main_arg18_73 m outs c]
  rfl

theorem wr_main_v456 : (V74 m outs c main_v456 : T F Sx) = kv_main_v456 m outs c := by
  show (StableHlo.after hostOps14 (V73 m outs c) main_v456 : T F Sx) = _
  rw [st_hostOps14_main_v456 (V73 m outs c), wr_main_v442 m outs c, rd_main_arg16_73 m outs c, rd_main_arg17_73 m outs c]
  rfl

theorem wr_main_v459 : (V74 m outs c main_v459 : T F Sb) = kv_main_v459 m outs c := by
  show (StableHlo.after hostOps14 (V73 m outs c) main_v459 : T F Sb) = _
  rw [st_hostOps14_main_v459 (V73 m outs c), wr_main_v442 m outs c, rd_main_arg16_73 m outs c, rd_main_arg17_73 m outs c]
  rfl

theorem wr_main_c_36 : (V74 m outs c main_c_36 : IVec S0 32) = kv_main_c_36 m outs c := by
  show (StableHlo.after hostOps14 (V73 m outs c) main_c_36 : IVec S0 32) = _
  rw [st_hostOps14_main_c_36 (V73 m outs c)]
  rfl

theorem wr_main_v460 : (V75 m outs c main_v460 : T F Sb) = kv_main_v460 m outs c := by
  show (StableHlo.after hostOps14_1 (V74 m outs c) main_v460 : T F Sb) = _
  rw [st_hostOps14_1_main_v460 (V74 m outs c), wr_main_v456 m outs c, wr_main_c_36 m outs c]
  rfl

theorem rd_main_v456_75 : (V75 m outs c main_v456 : T F Sx) = kv_main_v456 m outs c :=
  (V75_of m outs c main_v456 (by decide)).trans <| wr_main_v456 m outs c

theorem rd_main_v459_75 : (V75 m outs c main_v459 : T F Sb) = kv_main_v459 m outs c :=
  (V75_of m outs c main_v459 (by decide)).trans <| wr_main_v459 m outs c

theorem rd_main_v448_75 : (V75 m outs c main_v448 : T F Sb2) = kv_main_v448 m outs c :=
  (V75_of m outs c main_v448 (by decide)).trans <| wr_main_v448 m outs c

theorem wr_main_v479 : (V76 m outs c main_v479 : T F Sx) = kv_main_v479 m outs c := by
  show (StableHlo.after hostOps14_2 (V75 m outs c) main_v479 : T F Sx) = _
  rw [st_hostOps14_2_main_v479 (V75 m outs c), rd_main_v456_75 m outs c, rd_main_v459_75 m outs c, wr_main_v460 m outs c, rd_main_v448_75 m outs c]
  rfl

theorem wr_main_v480 : (V77 m outs c main_v480 : T F Sx) = kv_main_v480 m outs c := by
  show (StableHlo.after hostOps14_3 (V76 m outs c) main_v480 : T F Sx) = _
  rw [st_hostOps14_3_main_v480 (V76 m outs c), wr_main_v479 m outs c]
  rfl

theorem rd_main_v444_77 : (V77 m outs c main_v444 : T F Sw2) = kv_main_v444 m outs c :=
  (V77_of m outs c main_v444 (by decide)).trans <| (V76_of m outs c main_v444 (by decide)).trans <| (V75_of m outs c main_v444 (by decide)).trans <| wr_main_v444 m outs c

theorem rd_main_v446_77 : (V77 m outs c main_v446 : T F Sb2) = kv_main_v446 m outs c :=
  (V77_of m outs c main_v446 (by decide)).trans <| (V76_of m outs c main_v446 (by decide)).trans <| (V75_of m outs c main_v446 (by decide)).trans <| wr_main_v446 m outs c

theorem wr_main_v488 : (V78 m outs c main_v488 : T F Sx) = kv_main_v488 m outs c := by
  show (StableHlo.after hostOps14_4 (V77 m outs c) main_v488 : T F Sx) = _
  rw [st_hostOps14_4_main_v488 (V77 m outs c), wr_main_v480 m outs c, rd_main_v444_77 m outs c, rd_main_v446_77 m outs c]
  rfl

theorem rd_main_v420_77 : (V77 m outs c main_v420 : T F Sx) = kv_main_v420 m outs c :=
  (V77_of m outs c main_v420 (by decide)).trans <| (V76_of m outs c main_v420 (by decide)).trans <| (V75_of m outs c main_v420 (by decide)).trans <| (V74_of m outs c main_v420 (by decide)).trans <| (V73_of m outs c main_v420 (by decide)).trans <| (V72_of m outs c main_v420 (by decide)).trans <| (V71_of m outs c main_v420 (by decide)).trans <| (V70_of m outs c main_v420 (by decide)).trans <| (V69_of m outs c main_v420 (by decide)).trans <| (V68_of m outs c main_v420 (by decide)).trans <| wr_main_v420 m outs c

theorem wr_main_v489 : (V78 m outs c main_v489 : T F Sx) = kv_main_v489 m outs c := by
  show (StableHlo.after hostOps14_4 (V77 m outs c) main_v489 : T F Sx) = _
  rw [st_hostOps14_4_main_v489 (V77 m outs c), rd_main_v420_77 m outs c, wr_main_v480 m outs c, rd_main_v444_77 m outs c, rd_main_v446_77 m outs c]
  rfl

theorem rd_main_arg14_77 : (V77 m outs c main_arg14 : T F Sw2) = kv_main_arg14 m outs c :=
  (V77_of m outs c main_arg14 (by decide)).trans <| (V76_of m outs c main_arg14 (by decide)).trans <| (V75_of m outs c main_arg14 (by decide)).trans <| (V74_of m outs c main_arg14 (by decide)).trans <| (V73_of m outs c main_arg14 (by decide)).trans <| (V72_of m outs c main_arg14 (by decide)).trans <| (V71_of m outs c main_arg14 (by decide)).trans <| (V70_of m outs c main_arg14 (by decide)).trans <| (V69_of m outs c main_arg14 (by decide)).trans <| rd_main_arg14_68 m outs c

theorem rd_main_arg15_77 : (V77 m outs c main_arg15 : T F Sb2) = kv_main_arg15 m outs c :=
  (V77_of m outs c main_arg15 (by decide)).trans <| (V76_of m outs c main_arg15 (by decide)).trans <| (V75_of m outs c main_arg15 (by decide)).trans <| (V74_of m outs c main_arg15 (by decide)).trans <| (V73_of m outs c main_arg15 (by decide)).trans <| (V72_of m outs c main_arg15 (by decide)).trans <| (V71_of m outs c main_arg15 (by decide)).trans <| (V70_of m outs c main_arg15 (by decide)).trans <| (V69_of m outs c main_arg15 (by decide)).trans <| rd_main_arg15_68 m outs c

theorem wr_main_v497 : (V78 m outs c main_v497 : T F Sx) = kv_main_v497 m outs c := by
  show (StableHlo.after hostOps14_4 (V77 m outs c) main_v497 : T F Sx) = _
  rw [st_hostOps14_4_main_v497 (V77 m outs c), wr_main_v480 m outs c, rd_main_v444_77 m outs c, rd_main_v446_77 m outs c, rd_main_arg14_77 m outs c, rd_main_arg15_77 m outs c]
  rfl

theorem wr_main_v498 : (V79 m outs c main_v498 : T F Sx) = kv_main_v498 m outs c := by
  show (StableHlo.after hostOps14_5 (V78 m outs c) main_v498 : T F Sx) = _
  rw [st_hostOps14_5_main_v498 (V78 m outs c), wr_main_v497 m outs c]
  rfl

theorem rd_main_arg14_79 : (V79 m outs c main_arg14 : T F Sw2) = kv_main_arg14 m outs c :=
  (V79_of m outs c main_arg14 (by decide)).trans <| (V78_of m outs c main_arg14 (by decide)).trans <| rd_main_arg14_77 m outs c

theorem rd_main_arg15_79 : (V79 m outs c main_arg15 : T F Sb2) = kv_main_arg15 m outs c :=
  (V79_of m outs c main_arg15 (by decide)).trans <| (V78_of m outs c main_arg15 (by decide)).trans <| rd_main_arg15_77 m outs c

theorem wr_main_v506 : (V80 m outs c main_v506 : T F Sx) = kv_main_v506 m outs c := by
  show (StableHlo.after hostOps14_6 (V79 m outs c) main_v506 : T F Sx) = _
  rw [st_hostOps14_6_main_v506 (V79 m outs c), wr_main_v498 m outs c, rd_main_arg14_79 m outs c, rd_main_arg15_79 m outs c]
  rfl

theorem wr_main_v507 : (V81 m outs c main_v507 : T F Sx) = kv_main_v507 m outs c := by
  show (StableHlo.after hostOps14_7 (V80 m outs c) main_v507 : T F Sx) = _
  rw [st_hostOps14_7_main_v507 (V80 m outs c), wr_main_v506 m outs c]
  rfl

theorem wr_main_v508 : (V82 m outs c main_v508 : T F S11) = kv_main_v508 m outs c :=
  Function.update_self (Proc.devRef .tc main_v508 : DevRef τ sig) (outs 82 main_v508 c) (V81 m outs c)

theorem wr_main_v510 : (V83 m outs c main_v510 : T F S11) = kv_main_v510 m outs c := by
  show (StableHlo.after hostOps15 (V82 m outs c) main_v510 : T F S11) = _
  rw [st_hostOps15_main_v510 (V82 m outs c), wr_main_v508 m outs c]
  rfl

theorem rd_main_v507_83 : (V83 m outs c main_v507 : T F Sx) = kv_main_v507 m outs c :=
  (V83_of m outs c main_v507 (by decide)).trans <| (V82_of m outs c main_v507 (by decide)).trans <| wr_main_v507 m outs c

theorem rd_main_v488_83 : (V83 m outs c main_v488 : T F Sx) = kv_main_v488 m outs c :=
  (V83_of m outs c main_v488 (by decide)).trans <| (V82_of m outs c main_v488 (by decide)).trans <| (V81_of m outs c main_v488 (by decide)).trans <| (V80_of m outs c main_v488 (by decide)).trans <| (V79_of m outs c main_v488 (by decide)).trans <| wr_main_v488 m outs c

theorem wr_main_v511 : (V84 m outs c main_v511 : T F Sx) = kv_main_v511 m outs c :=
  Function.update_self (Proc.devRef .tc main_v511 : DevRef τ sig) (outs 84 main_v511 c) (V83 m outs c)

theorem rd_main_arg16_84 : (V84 m outs c main_arg16 : T F Sw32) = kv_main_arg16 m outs c :=
  (V84_of m outs c main_arg16 (by decide)).trans <| (V83_of m outs c main_arg16 (by decide)).trans <| (V82_of m outs c main_arg16 (by decide)).trans <| (V81_of m outs c main_arg16 (by decide)).trans <| (V80_of m outs c main_arg16 (by decide)).trans <| (V79_of m outs c main_arg16 (by decide)).trans <| (V78_of m outs c main_arg16 (by decide)).trans <| (V77_of m outs c main_arg16 (by decide)).trans <| (V76_of m outs c main_arg16 (by decide)).trans <| (V75_of m outs c main_arg16 (by decide)).trans <| (V74_of m outs c main_arg16 (by decide)).trans <| rd_main_arg16_73 m outs c

theorem wr_main_v513 : (V85 m outs c main_v513 : T F Sw2) = kv_main_v513 m outs c := by
  show (StableHlo.after hostOps16 (V84 m outs c) main_v513 : T F Sw2) = _
  rw [st_hostOps16_main_v513 (V84 m outs c), rd_main_arg16_84 m outs c]
  rfl

theorem rd_main_arg17_84 : (V84 m outs c main_arg17 : T F Sb32) = kv_main_arg17 m outs c :=
  (V84_of m outs c main_arg17 (by decide)).trans <| (V83_of m outs c main_arg17 (by decide)).trans <| (V82_of m outs c main_arg17 (by decide)).trans <| (V81_of m outs c main_arg17 (by decide)).trans <| (V80_of m outs c main_arg17 (by decide)).trans <| (V79_of m outs c main_arg17 (by decide)).trans <| (V78_of m outs c main_arg17 (by decide)).trans <| (V77_of m outs c main_arg17 (by decide)).trans <| (V76_of m outs c main_arg17 (by decide)).trans <| (V75_of m outs c main_arg17 (by decide)).trans <| (V74_of m outs c main_arg17 (by decide)).trans <| rd_main_arg17_73 m outs c

theorem wr_main_v515 : (V85 m outs c main_v515 : T F Sb2) = kv_main_v515 m outs c := by
  show (StableHlo.after hostOps16 (V84 m outs c) main_v515 : T F Sb2) = _
  rw [st_hostOps16_main_v515 (V84 m outs c), rd_main_arg17_84 m outs c]
  rfl

theorem rd_main_arg18_84 : (V84 m outs c main_arg18 : T F Sb32) = kv_main_arg18 m outs c :=
  (V84_of m outs c main_arg18 (by decide)).trans <| (V83_of m outs c main_arg18 (by decide)).trans <| (V82_of m outs c main_arg18 (by decide)).trans <| (V81_of m outs c main_arg18 (by decide)).trans <| (V80_of m outs c main_arg18 (by decide)).trans <| (V79_of m outs c main_arg18 (by decide)).trans <| (V78_of m outs c main_arg18 (by decide)).trans <| (V77_of m outs c main_arg18 (by decide)).trans <| (V76_of m outs c main_arg18 (by decide)).trans <| (V75_of m outs c main_arg18 (by decide)).trans <| (V74_of m outs c main_arg18 (by decide)).trans <| rd_main_arg18_73 m outs c

theorem wr_main_v517 : (V85 m outs c main_v517 : T F Sb2) = kv_main_v517 m outs c := by
  show (StableHlo.after hostOps16 (V84 m outs c) main_v517 : T F Sb2) = _
  rw [st_hostOps16_main_v517 (V84 m outs c), rd_main_arg18_84 m outs c]
  rfl

theorem wr_main_v525 : (V85 m outs c main_v525 : T F Sx) = kv_main_v525 m outs c := by
  show (StableHlo.after hostOps16 (V84 m outs c) main_v525 : T F Sx) = _
  rw [st_hostOps16_main_v525 (V84 m outs c), wr_main_v511 m outs c, rd_main_arg16_84 m outs c, rd_main_arg17_84 m outs c]
  rfl

theorem wr_main_v528 : (V85 m outs c main_v528 : T F Sb) = kv_main_v528 m outs c := by
  show (StableHlo.after hostOps16 (V84 m outs c) main_v528 : T F Sb) = _
  rw [st_hostOps16_main_v528 (V84 m outs c), wr_main_v511 m outs c, rd_main_arg16_84 m outs c, rd_main_arg17_84 m outs c]
  rfl

theorem wr_main_c_41 : (V85 m outs c main_c_41 : IVec S0 32) = kv_main_c_41 m outs c := by
  show (StableHlo.after hostOps16 (V84 m outs c) main_c_41 : IVec S0 32) = _
  rw [st_hostOps16_main_c_41 (V84 m outs c)]
  rfl

theorem wr_main_v529 : (V86 m outs c main_v529 : T F Sb) = kv_main_v529 m outs c := by
  show (StableHlo.after hostOps16_1 (V85 m outs c) main_v529 : T F Sb) = _
  rw [st_hostOps16_1_main_v529 (V85 m outs c), wr_main_v525 m outs c, wr_main_c_41 m outs c]
  rfl

theorem rd_main_v525_86 : (V86 m outs c main_v525 : T F Sx) = kv_main_v525 m outs c :=
  (V86_of m outs c main_v525 (by decide)).trans <| wr_main_v525 m outs c

theorem rd_main_v528_86 : (V86 m outs c main_v528 : T F Sb) = kv_main_v528 m outs c :=
  (V86_of m outs c main_v528 (by decide)).trans <| wr_main_v528 m outs c

theorem rd_main_v517_86 : (V86 m outs c main_v517 : T F Sb2) = kv_main_v517 m outs c :=
  (V86_of m outs c main_v517 (by decide)).trans <| wr_main_v517 m outs c

theorem wr_main_v548 : (V87 m outs c main_v548 : T F Sx) = kv_main_v548 m outs c := by
  show (StableHlo.after hostOps16_2 (V86 m outs c) main_v548 : T F Sx) = _
  rw [st_hostOps16_2_main_v548 (V86 m outs c), rd_main_v525_86 m outs c, rd_main_v528_86 m outs c, wr_main_v529 m outs c, rd_main_v517_86 m outs c]
  rfl

theorem wr_main_v549 : (V88 m outs c main_v549 : T F Sx) = kv_main_v549 m outs c := by
  show (StableHlo.after hostOps16_3 (V87 m outs c) main_v549 : T F Sx) = _
  rw [st_hostOps16_3_main_v549 (V87 m outs c), wr_main_v548 m outs c]
  rfl

theorem rd_main_v513_88 : (V88 m outs c main_v513 : T F Sw2) = kv_main_v513 m outs c :=
  (V88_of m outs c main_v513 (by decide)).trans <| (V87_of m outs c main_v513 (by decide)).trans <| (V86_of m outs c main_v513 (by decide)).trans <| wr_main_v513 m outs c

theorem rd_main_v515_88 : (V88 m outs c main_v515 : T F Sb2) = kv_main_v515 m outs c :=
  (V88_of m outs c main_v515 (by decide)).trans <| (V87_of m outs c main_v515 (by decide)).trans <| (V86_of m outs c main_v515 (by decide)).trans <| wr_main_v515 m outs c

theorem wr_main_v557 : (V89 m outs c main_v557 : T F Sx) = kv_main_v557 m outs c := by
  show (StableHlo.after hostOps16_4 (V88 m outs c) main_v557 : T F Sx) = _
  rw [st_hostOps16_4_main_v557 (V88 m outs c), wr_main_v549 m outs c, rd_main_v513_88 m outs c, rd_main_v515_88 m outs c]
  rfl

theorem rd_main_v489_88 : (V88 m outs c main_v489 : T F Sx) = kv_main_v489 m outs c :=
  (V88_of m outs c main_v489 (by decide)).trans <| (V87_of m outs c main_v489 (by decide)).trans <| (V86_of m outs c main_v489 (by decide)).trans <| (V85_of m outs c main_v489 (by decide)).trans <| (V84_of m outs c main_v489 (by decide)).trans <| (V83_of m outs c main_v489 (by decide)).trans <| (V82_of m outs c main_v489 (by decide)).trans <| (V81_of m outs c main_v489 (by decide)).trans <| (V80_of m outs c main_v489 (by decide)).trans <| (V79_of m outs c main_v489 (by decide)).trans <| wr_main_v489 m outs c

theorem wr_main_v558 : (V89 m outs c main_v558 : T F Sx) = kv_main_v558 m outs c := by
  show (StableHlo.after hostOps16_4 (V88 m outs c) main_v558 : T F Sx) = _
  rw [st_hostOps16_4_main_v558 (V88 m outs c), rd_main_v489_88 m outs c, wr_main_v549 m outs c, rd_main_v513_88 m outs c, rd_main_v515_88 m outs c]
  rfl

theorem rd_main_arg14_88 : (V88 m outs c main_arg14 : T F Sw2) = kv_main_arg14 m outs c :=
  (V88_of m outs c main_arg14 (by decide)).trans <| (V87_of m outs c main_arg14 (by decide)).trans <| (V86_of m outs c main_arg14 (by decide)).trans <| (V85_of m outs c main_arg14 (by decide)).trans <| (V84_of m outs c main_arg14 (by decide)).trans <| (V83_of m outs c main_arg14 (by decide)).trans <| (V82_of m outs c main_arg14 (by decide)).trans <| (V81_of m outs c main_arg14 (by decide)).trans <| (V80_of m outs c main_arg14 (by decide)).trans <| rd_main_arg14_79 m outs c

theorem rd_main_arg15_88 : (V88 m outs c main_arg15 : T F Sb2) = kv_main_arg15 m outs c :=
  (V88_of m outs c main_arg15 (by decide)).trans <| (V87_of m outs c main_arg15 (by decide)).trans <| (V86_of m outs c main_arg15 (by decide)).trans <| (V85_of m outs c main_arg15 (by decide)).trans <| (V84_of m outs c main_arg15 (by decide)).trans <| (V83_of m outs c main_arg15 (by decide)).trans <| (V82_of m outs c main_arg15 (by decide)).trans <| (V81_of m outs c main_arg15 (by decide)).trans <| (V80_of m outs c main_arg15 (by decide)).trans <| rd_main_arg15_79 m outs c

theorem wr_main_v566 : (V89 m outs c main_v566 : T F Sx) = kv_main_v566 m outs c := by
  show (StableHlo.after hostOps16_4 (V88 m outs c) main_v566 : T F Sx) = _
  rw [st_hostOps16_4_main_v566 (V88 m outs c), wr_main_v549 m outs c, rd_main_v513_88 m outs c, rd_main_v515_88 m outs c, rd_main_arg14_88 m outs c, rd_main_arg15_88 m outs c]
  rfl

theorem wr_main_v567 : (V90 m outs c main_v567 : T F Sx) = kv_main_v567 m outs c := by
  show (StableHlo.after hostOps16_5 (V89 m outs c) main_v567 : T F Sx) = _
  rw [st_hostOps16_5_main_v567 (V89 m outs c), wr_main_v566 m outs c]
  rfl

theorem rd_main_arg14_90 : (V90 m outs c main_arg14 : T F Sw2) = kv_main_arg14 m outs c :=
  (V90_of m outs c main_arg14 (by decide)).trans <| (V89_of m outs c main_arg14 (by decide)).trans <| rd_main_arg14_88 m outs c

theorem rd_main_arg15_90 : (V90 m outs c main_arg15 : T F Sb2) = kv_main_arg15 m outs c :=
  (V90_of m outs c main_arg15 (by decide)).trans <| (V89_of m outs c main_arg15 (by decide)).trans <| rd_main_arg15_88 m outs c

theorem wr_main_v575 : (V91 m outs c main_v575 : T F Sx) = kv_main_v575 m outs c := by
  show (StableHlo.after hostOps16_6 (V90 m outs c) main_v575 : T F Sx) = _
  rw [st_hostOps16_6_main_v575 (V90 m outs c), wr_main_v567 m outs c, rd_main_arg14_90 m outs c, rd_main_arg15_90 m outs c]
  rfl

theorem wr_main_v576 : (V92 m outs c main_v576 : T F Sx) = kv_main_v576 m outs c := by
  show (StableHlo.after hostOps16_7 (V91 m outs c) main_v576 : T F Sx) = _
  rw [st_hostOps16_7_main_v576 (V91 m outs c), wr_main_v575 m outs c]
  rfl

theorem wr_main_v577 : (V93 m outs c main_v577 : T F S11) = kv_main_v577 m outs c :=
  Function.update_self (Proc.devRef .tc main_v577 : DevRef τ sig) (outs 93 main_v577 c) (V92 m outs c)

theorem wr_main_v579 : (V94 m outs c main_v579 : T F S11) = kv_main_v579 m outs c := by
  show (StableHlo.after hostOps17 (V93 m outs c) main_v579 : T F S11) = _
  rw [st_hostOps17_main_v579 (V93 m outs c), wr_main_v577 m outs c]
  rfl

theorem rd_main_v576_94 : (V94 m outs c main_v576 : T F Sx) = kv_main_v576 m outs c :=
  (V94_of m outs c main_v576 (by decide)).trans <| (V93_of m outs c main_v576 (by decide)).trans <| wr_main_v576 m outs c

theorem rd_main_v557_94 : (V94 m outs c main_v557 : T F Sx) = kv_main_v557 m outs c :=
  (V94_of m outs c main_v557 (by decide)).trans <| (V93_of m outs c main_v557 (by decide)).trans <| (V92_of m outs c main_v557 (by decide)).trans <| (V91_of m outs c main_v557 (by decide)).trans <| (V90_of m outs c main_v557 (by decide)).trans <| wr_main_v557 m outs c

theorem wr_main_v580 : (V95 m outs c main_v580 : T F Sx) = kv_main_v580 m outs c :=
  Function.update_self (Proc.devRef .tc main_v580 : DevRef τ sig) (outs 95 main_v580 c) (V94 m outs c)

theorem rd_main_arg16_95 : (V95 m outs c main_arg16 : T F Sw32) = kv_main_arg16 m outs c :=
  (V95_of m outs c main_arg16 (by decide)).trans <| (V94_of m outs c main_arg16 (by decide)).trans <| (V93_of m outs c main_arg16 (by decide)).trans <| (V92_of m outs c main_arg16 (by decide)).trans <| (V91_of m outs c main_arg16 (by decide)).trans <| (V90_of m outs c main_arg16 (by decide)).trans <| (V89_of m outs c main_arg16 (by decide)).trans <| (V88_of m outs c main_arg16 (by decide)).trans <| (V87_of m outs c main_arg16 (by decide)).trans <| (V86_of m outs c main_arg16 (by decide)).trans <| (V85_of m outs c main_arg16 (by decide)).trans <| rd_main_arg16_84 m outs c

theorem wr_main_v582 : (V96 m outs c main_v582 : T F Sw2) = kv_main_v582 m outs c := by
  show (StableHlo.after hostOps18 (V95 m outs c) main_v582 : T F Sw2) = _
  rw [st_hostOps18_main_v582 (V95 m outs c), rd_main_arg16_95 m outs c]
  rfl

theorem rd_main_arg17_95 : (V95 m outs c main_arg17 : T F Sb32) = kv_main_arg17 m outs c :=
  (V95_of m outs c main_arg17 (by decide)).trans <| (V94_of m outs c main_arg17 (by decide)).trans <| (V93_of m outs c main_arg17 (by decide)).trans <| (V92_of m outs c main_arg17 (by decide)).trans <| (V91_of m outs c main_arg17 (by decide)).trans <| (V90_of m outs c main_arg17 (by decide)).trans <| (V89_of m outs c main_arg17 (by decide)).trans <| (V88_of m outs c main_arg17 (by decide)).trans <| (V87_of m outs c main_arg17 (by decide)).trans <| (V86_of m outs c main_arg17 (by decide)).trans <| (V85_of m outs c main_arg17 (by decide)).trans <| rd_main_arg17_84 m outs c

theorem wr_main_v584 : (V96 m outs c main_v584 : T F Sb2) = kv_main_v584 m outs c := by
  show (StableHlo.after hostOps18 (V95 m outs c) main_v584 : T F Sb2) = _
  rw [st_hostOps18_main_v584 (V95 m outs c), rd_main_arg17_95 m outs c]
  rfl

theorem rd_main_arg18_95 : (V95 m outs c main_arg18 : T F Sb32) = kv_main_arg18 m outs c :=
  (V95_of m outs c main_arg18 (by decide)).trans <| (V94_of m outs c main_arg18 (by decide)).trans <| (V93_of m outs c main_arg18 (by decide)).trans <| (V92_of m outs c main_arg18 (by decide)).trans <| (V91_of m outs c main_arg18 (by decide)).trans <| (V90_of m outs c main_arg18 (by decide)).trans <| (V89_of m outs c main_arg18 (by decide)).trans <| (V88_of m outs c main_arg18 (by decide)).trans <| (V87_of m outs c main_arg18 (by decide)).trans <| (V86_of m outs c main_arg18 (by decide)).trans <| (V85_of m outs c main_arg18 (by decide)).trans <| rd_main_arg18_84 m outs c

theorem wr_main_v586 : (V96 m outs c main_v586 : T F Sb2) = kv_main_v586 m outs c := by
  show (StableHlo.after hostOps18 (V95 m outs c) main_v586 : T F Sb2) = _
  rw [st_hostOps18_main_v586 (V95 m outs c), rd_main_arg18_95 m outs c]
  rfl

theorem wr_main_v594 : (V96 m outs c main_v594 : T F Sx) = kv_main_v594 m outs c := by
  show (StableHlo.after hostOps18 (V95 m outs c) main_v594 : T F Sx) = _
  rw [st_hostOps18_main_v594 (V95 m outs c), wr_main_v580 m outs c, rd_main_arg16_95 m outs c, rd_main_arg17_95 m outs c]
  rfl

theorem wr_main_v597 : (V96 m outs c main_v597 : T F Sb) = kv_main_v597 m outs c := by
  show (StableHlo.after hostOps18 (V95 m outs c) main_v597 : T F Sb) = _
  rw [st_hostOps18_main_v597 (V95 m outs c), wr_main_v580 m outs c, rd_main_arg16_95 m outs c, rd_main_arg17_95 m outs c]
  rfl

theorem wr_main_c_46 : (V96 m outs c main_c_46 : IVec S0 32) = kv_main_c_46 m outs c := by
  show (StableHlo.after hostOps18 (V95 m outs c) main_c_46 : IVec S0 32) = _
  rw [st_hostOps18_main_c_46 (V95 m outs c)]
  rfl

theorem wr_main_v598 : (V97 m outs c main_v598 : T F Sb) = kv_main_v598 m outs c := by
  show (StableHlo.after hostOps18_1 (V96 m outs c) main_v598 : T F Sb) = _
  rw [st_hostOps18_1_main_v598 (V96 m outs c), wr_main_v594 m outs c, wr_main_c_46 m outs c]
  rfl

theorem rd_main_v594_97 : (V97 m outs c main_v594 : T F Sx) = kv_main_v594 m outs c :=
  (V97_of m outs c main_v594 (by decide)).trans <| wr_main_v594 m outs c

theorem rd_main_v597_97 : (V97 m outs c main_v597 : T F Sb) = kv_main_v597 m outs c :=
  (V97_of m outs c main_v597 (by decide)).trans <| wr_main_v597 m outs c

theorem rd_main_v586_97 : (V97 m outs c main_v586 : T F Sb2) = kv_main_v586 m outs c :=
  (V97_of m outs c main_v586 (by decide)).trans <| wr_main_v586 m outs c

theorem wr_main_v617 : (V98 m outs c main_v617 : T F Sx) = kv_main_v617 m outs c := by
  show (StableHlo.after hostOps18_2 (V97 m outs c) main_v617 : T F Sx) = _
  rw [st_hostOps18_2_main_v617 (V97 m outs c), rd_main_v594_97 m outs c, rd_main_v597_97 m outs c, wr_main_v598 m outs c, rd_main_v586_97 m outs c]
  rfl

theorem wr_main_v618 : (V99 m outs c main_v618 : T F Sx) = kv_main_v618 m outs c := by
  show (StableHlo.after hostOps18_3 (V98 m outs c) main_v618 : T F Sx) = _
  rw [st_hostOps18_3_main_v618 (V98 m outs c), wr_main_v617 m outs c]
  rfl

theorem rd_main_v582_99 : (V99 m outs c main_v582 : T F Sw2) = kv_main_v582 m outs c :=
  (V99_of m outs c main_v582 (by decide)).trans <| (V98_of m outs c main_v582 (by decide)).trans <| (V97_of m outs c main_v582 (by decide)).trans <| wr_main_v582 m outs c

theorem rd_main_v584_99 : (V99 m outs c main_v584 : T F Sb2) = kv_main_v584 m outs c :=
  (V99_of m outs c main_v584 (by decide)).trans <| (V98_of m outs c main_v584 (by decide)).trans <| (V97_of m outs c main_v584 (by decide)).trans <| wr_main_v584 m outs c

theorem wr_main_v626 : (V100 m outs c main_v626 : T F Sx) = kv_main_v626 m outs c := by
  show (StableHlo.after hostOps18_4 (V99 m outs c) main_v626 : T F Sx) = _
  rw [st_hostOps18_4_main_v626 (V99 m outs c), wr_main_v618 m outs c, rd_main_v582_99 m outs c, rd_main_v584_99 m outs c]
  rfl

theorem rd_main_v558_99 : (V99 m outs c main_v558 : T F Sx) = kv_main_v558 m outs c :=
  (V99_of m outs c main_v558 (by decide)).trans <| (V98_of m outs c main_v558 (by decide)).trans <| (V97_of m outs c main_v558 (by decide)).trans <| (V96_of m outs c main_v558 (by decide)).trans <| (V95_of m outs c main_v558 (by decide)).trans <| (V94_of m outs c main_v558 (by decide)).trans <| (V93_of m outs c main_v558 (by decide)).trans <| (V92_of m outs c main_v558 (by decide)).trans <| (V91_of m outs c main_v558 (by decide)).trans <| (V90_of m outs c main_v558 (by decide)).trans <| wr_main_v558 m outs c

theorem wr_main_v627 : (V100 m outs c main_v627 : T F Sx) = kv_main_v627 m outs c := by
  show (StableHlo.after hostOps18_4 (V99 m outs c) main_v627 : T F Sx) = _
  rw [st_hostOps18_4_main_v627 (V99 m outs c), rd_main_v558_99 m outs c, wr_main_v618 m outs c, rd_main_v582_99 m outs c, rd_main_v584_99 m outs c]
  rfl

theorem wr_main_v629 : (V100 m outs c main_v629 : T F Sx) = kv_main_v629 m outs c := by
  show (StableHlo.after hostOps18_4 (V99 m outs c) main_v629 : T F Sx) = _
  rw [st_hostOps18_4_main_v629 (V99 m outs c), rd_main_v558_99 m outs c, wr_main_v618 m outs c, rd_main_v582_99 m outs c, rd_main_v584_99 m outs c]
  rfl

theorem wr_main_v630 : (V100 m outs c main_v630 : T F Sx) = kv_main_v630 m outs c := by
  show (StableHlo.after hostOps18_4 (V99 m outs c) main_v630 : T F Sx) = _
  rw [st_hostOps18_4_main_v630 (V99 m outs c)]
  rfl

theorem rd_main_arg3_99 : (V99 m outs c main_arg3 : T F Sx) = kv_main_arg3 m outs c :=
  (V99_of m outs c main_arg3 (by decide)).trans <| (V98_of m outs c main_arg3 (by decide)).trans <| (V97_of m outs c main_arg3 (by decide)).trans <| (V96_of m outs c main_arg3 (by decide)).trans <| (V95_of m outs c main_arg3 (by decide)).trans <| (V94_of m outs c main_arg3 (by decide)).trans <| (V93_of m outs c main_arg3 (by decide)).trans <| (V92_of m outs c main_arg3 (by decide)).trans <| (V91_of m outs c main_arg3 (by decide)).trans <| (V90_of m outs c main_arg3 (by decide)).trans <| (V89_of m outs c main_arg3 (by decide)).trans <| (V88_of m outs c main_arg3 (by decide)).trans <| (V87_of m outs c main_arg3 (by decide)).trans <| (V86_of m outs c main_arg3 (by decide)).trans <| (V85_of m outs c main_arg3 (by decide)).trans <| (V84_of m outs c main_arg3 (by decide)).trans <| (V83_of m outs c main_arg3 (by decide)).trans <| (V82_of m outs c main_arg3 (by decide)).trans <| (V81_of m outs c main_arg3 (by decide)).trans <| (V80_of m outs c main_arg3 (by decide)).trans <| (V79_of m outs c main_arg3 (by decide)).trans <| (V78_of m outs c main_arg3 (by decide)).trans <| (V77_of m outs c main_arg3 (by decide)).trans <| (V76_of m outs c main_arg3 (by decide)).trans <| (V75_of m outs c main_arg3 (by decide)).trans <| (V74_of m outs c main_arg3 (by decide)).trans <| (V73_of m outs c main_arg3 (by decide)).trans <| (V72_of m outs c main_arg3 (by decide)).trans <| (V71_of m outs c main_arg3 (by decide)).trans <| (V70_of m outs c main_arg3 (by decide)).trans <| (V69_of m outs c main_arg3 (by decide)).trans <| (V68_of m outs c main_arg3 (by decide)).trans <| (V67_of m outs c main_arg3 (by decide)).trans <| (V66_of m outs c main_arg3 (by decide)).trans <| (V65_of m outs c main_arg3 (by decide)).trans <| (V64_of m outs c main_arg3 (by decide)).trans <| (V63_of m outs c main_arg3 (by decide)).trans <| (V62_of m outs c main_arg3 (by decide)).trans <| (V61_of m outs c main_arg3 (by decide)).trans <| (V60_of m outs c main_arg3 (by decide)).trans <| (V59_of m outs c main_arg3 (by decide)).trans <| (V58_of m outs c main_arg3 (by decide)).trans <| (V57_of m outs c main_arg3 (by decide)).trans <| (V56_of m outs c main_arg3 (by decide)).trans <| (V55_of m outs c main_arg3 (by decide)).trans <| (V54_of m outs c main_arg3 (by decide)).trans <| (V53_of m outs c main_arg3 (by decide)).trans <| (V52_of m outs c main_arg3 (by decide)).trans <| (V51_of m outs c main_arg3 (by decide)).trans <| (V50_of m outs c main_arg3 (by decide)).trans <| (V49_of m outs c main_arg3 (by decide)).trans <| (V48_of m outs c main_arg3 (by decide)).trans <| (V47_of m outs c main_arg3 (by decide)).trans <| (V46_of m outs c main_arg3 (by decide)).trans <| (V45_of m outs c main_arg3 (by decide)).trans <| (V44_of m outs c main_arg3 (by decide)).trans <| (V43_of m outs c main_arg3 (by decide)).trans <| (V42_of m outs c main_arg3 (by decide)).trans <| (V41_of m outs c main_arg3 (by decide)).trans <| (V40_of m outs c main_arg3 (by decide)).trans <| (V39_of m outs c main_arg3 (by decide)).trans <| (V38_of m outs c main_arg3 (by decide)).trans <| (V37_of m outs c main_arg3 (by decide)).trans <| (V36_of m outs c main_arg3 (by decide)).trans <| (V35_of m outs c main_arg3 (by decide)).trans <| (V34_of m outs c main_arg3 (by decide)).trans <| (V33_of m outs c main_arg3 (by decide)).trans <| (V32_of m outs c main_arg3 (by decide)).trans <| (V31_of m outs c main_arg3 (by decide)).trans <| (V30_of m outs c main_arg3 (by decide)).trans <| (V29_of m outs c main_arg3 (by decide)).trans <| (V28_of m outs c main_arg3 (by decide)).trans <| (V27_of m outs c main_arg3 (by decide)).trans <| (V26_of m outs c main_arg3 (by decide)).trans <| (V25_of m outs c main_arg3 (by decide)).trans <| (V24_of m outs c main_arg3 (by decide)).trans <| (V23_of m outs c main_arg3 (by decide)).trans <| (V22_of m outs c main_arg3 (by decide)).trans <| (V21_of m outs c main_arg3 (by decide)).trans <| (V20_of m outs c main_arg3 (by decide)).trans <| (V19_of m outs c main_arg3 (by decide)).trans <| (V18_of m outs c main_arg3 (by decide)).trans <| (V17_of m outs c main_arg3 (by decide)).trans <| (V16_of m outs c main_arg3 (by decide)).trans <| (V15_of m outs c main_arg3 (by decide)).trans <| (V14_of m outs c main_arg3 (by decide)).trans <| (V13_of m outs c main_arg3 (by decide)).trans <| (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m c main_arg3 (by decide)).trans <| (V3_of m c main_arg3 (by decide)).trans <| (V2_of m c main_arg3 (by decide)).trans <| (V1_of m c main_arg3 (by decide)).trans <| rd_main_arg3_0 m outs c

theorem rd_main_arg9_99 : (V99 m outs c main_arg9 : T F Sw2) = kv_main_arg9 m outs c :=
  (V99_of m outs c main_arg9 (by decide)).trans <| (V98_of m outs c main_arg9 (by decide)).trans <| (V97_of m outs c main_arg9 (by decide)).trans <| (V96_of m outs c main_arg9 (by decide)).trans <| (V95_of m outs c main_arg9 (by decide)).trans <| (V94_of m outs c main_arg9 (by decide)).trans <| (V93_of m outs c main_arg9 (by decide)).trans <| (V92_of m outs c main_arg9 (by decide)).trans <| (V91_of m outs c main_arg9 (by decide)).trans <| (V90_of m outs c main_arg9 (by decide)).trans <| (V89_of m outs c main_arg9 (by decide)).trans <| (V88_of m outs c main_arg9 (by decide)).trans <| (V87_of m outs c main_arg9 (by decide)).trans <| (V86_of m outs c main_arg9 (by decide)).trans <| (V85_of m outs c main_arg9 (by decide)).trans <| (V84_of m outs c main_arg9 (by decide)).trans <| (V83_of m outs c main_arg9 (by decide)).trans <| (V82_of m outs c main_arg9 (by decide)).trans <| (V81_of m outs c main_arg9 (by decide)).trans <| (V80_of m outs c main_arg9 (by decide)).trans <| (V79_of m outs c main_arg9 (by decide)).trans <| (V78_of m outs c main_arg9 (by decide)).trans <| (V77_of m outs c main_arg9 (by decide)).trans <| (V76_of m outs c main_arg9 (by decide)).trans <| (V75_of m outs c main_arg9 (by decide)).trans <| (V74_of m outs c main_arg9 (by decide)).trans <| (V73_of m outs c main_arg9 (by decide)).trans <| (V72_of m outs c main_arg9 (by decide)).trans <| (V71_of m outs c main_arg9 (by decide)).trans <| (V70_of m outs c main_arg9 (by decide)).trans <| (V69_of m outs c main_arg9 (by decide)).trans <| (V68_of m outs c main_arg9 (by decide)).trans <| (V67_of m outs c main_arg9 (by decide)).trans <| (V66_of m outs c main_arg9 (by decide)).trans <| (V65_of m outs c main_arg9 (by decide)).trans <| (V64_of m outs c main_arg9 (by decide)).trans <| (V63_of m outs c main_arg9 (by decide)).trans <| (V62_of m outs c main_arg9 (by decide)).trans <| (V61_of m outs c main_arg9 (by decide)).trans <| (V60_of m outs c main_arg9 (by decide)).trans <| (V59_of m outs c main_arg9 (by decide)).trans <| (V58_of m outs c main_arg9 (by decide)).trans <| rd_main_arg9_57 m outs c

theorem rd_main_arg10_99 : (V99 m outs c main_arg10 : T F Sb2) = kv_main_arg10 m outs c :=
  (V99_of m outs c main_arg10 (by decide)).trans <| (V98_of m outs c main_arg10 (by decide)).trans <| (V97_of m outs c main_arg10 (by decide)).trans <| (V96_of m outs c main_arg10 (by decide)).trans <| (V95_of m outs c main_arg10 (by decide)).trans <| (V94_of m outs c main_arg10 (by decide)).trans <| (V93_of m outs c main_arg10 (by decide)).trans <| (V92_of m outs c main_arg10 (by decide)).trans <| (V91_of m outs c main_arg10 (by decide)).trans <| (V90_of m outs c main_arg10 (by decide)).trans <| (V89_of m outs c main_arg10 (by decide)).trans <| (V88_of m outs c main_arg10 (by decide)).trans <| (V87_of m outs c main_arg10 (by decide)).trans <| (V86_of m outs c main_arg10 (by decide)).trans <| (V85_of m outs c main_arg10 (by decide)).trans <| (V84_of m outs c main_arg10 (by decide)).trans <| (V83_of m outs c main_arg10 (by decide)).trans <| (V82_of m outs c main_arg10 (by decide)).trans <| (V81_of m outs c main_arg10 (by decide)).trans <| (V80_of m outs c main_arg10 (by decide)).trans <| (V79_of m outs c main_arg10 (by decide)).trans <| (V78_of m outs c main_arg10 (by decide)).trans <| (V77_of m outs c main_arg10 (by decide)).trans <| (V76_of m outs c main_arg10 (by decide)).trans <| (V75_of m outs c main_arg10 (by decide)).trans <| (V74_of m outs c main_arg10 (by decide)).trans <| (V73_of m outs c main_arg10 (by decide)).trans <| (V72_of m outs c main_arg10 (by decide)).trans <| (V71_of m outs c main_arg10 (by decide)).trans <| (V70_of m outs c main_arg10 (by decide)).trans <| (V69_of m outs c main_arg10 (by decide)).trans <| (V68_of m outs c main_arg10 (by decide)).trans <| (V67_of m outs c main_arg10 (by decide)).trans <| (V66_of m outs c main_arg10 (by decide)).trans <| (V65_of m outs c main_arg10 (by decide)).trans <| (V64_of m outs c main_arg10 (by decide)).trans <| (V63_of m outs c main_arg10 (by decide)).trans <| (V62_of m outs c main_arg10 (by decide)).trans <| (V61_of m outs c main_arg10 (by decide)).trans <| (V60_of m outs c main_arg10 (by decide)).trans <| (V59_of m outs c main_arg10 (by decide)).trans <| (V58_of m outs c main_arg10 (by decide)).trans <| rd_main_arg10_57 m outs c

theorem wr_main_v638 : (V100 m outs c main_v638 : T F Sx) = kv_main_v638 m outs c := by
  show (StableHlo.after hostOps18_4 (V99 m outs c) main_v638 : T F Sx) = _
  rw [st_hostOps18_4_main_v638 (V99 m outs c), rd_main_arg3_99 m outs c, rd_main_arg9_99 m outs c, rd_main_arg10_99 m outs c]
  rfl

theorem wr_main_v639 : (V101 m outs c main_v639 : T F Sx) = kv_main_v639 m outs c := by
  show (StableHlo.after hostOps18_5 (V100 m outs c) main_v639 : T F Sx) = _
  rw [st_hostOps18_5_main_v639 (V100 m outs c), wr_main_v638 m outs c]
  rfl

theorem rd_main_arg9_101 : (V101 m outs c main_arg9 : T F Sw2) = kv_main_arg9 m outs c :=
  (V101_of m outs c main_arg9 (by decide)).trans <| (V100_of m outs c main_arg9 (by decide)).trans <| rd_main_arg9_99 m outs c

theorem rd_main_arg10_101 : (V101 m outs c main_arg10 : T F Sb2) = kv_main_arg10 m outs c :=
  (V101_of m outs c main_arg10 (by decide)).trans <| (V100_of m outs c main_arg10 (by decide)).trans <| rd_main_arg10_99 m outs c

theorem wr_main_v647 : (V102 m outs c main_v647 : T F Sx) = kv_main_v647 m outs c := by
  show (StableHlo.after hostOps18_6 (V101 m outs c) main_v647 : T F Sx) = _
  rw [st_hostOps18_6_main_v647 (V101 m outs c), wr_main_v639 m outs c, rd_main_arg9_101 m outs c, rd_main_arg10_101 m outs c]
  rfl

theorem wr_main_v648 : (V103 m outs c main_v648 : T F Sx) = kv_main_v648 m outs c := by
  show (StableHlo.after hostOps18_7 (V102 m outs c) main_v648 : T F Sx) = _
  rw [st_hostOps18_7_main_v648 (V102 m outs c), wr_main_v647 m outs c]
  rfl

theorem wr_main_v649 : (V104 m outs c main_v649 : T F S11) = kv_main_v649 m outs c :=
  Function.update_self (Proc.devRef .tc main_v649 : DevRef τ sig) (outs 104 main_v649 c) (V103 m outs c)

theorem wr_main_v651 : (V105 m outs c main_v651 : T F S11) = kv_main_v651 m outs c := by
  show (StableHlo.after hostOps19 (V104 m outs c) main_v651 : T F S11) = _
  rw [st_hostOps19_main_v651 (V104 m outs c), wr_main_v649 m outs c]
  rfl

theorem rd_main_v648_105 : (V105 m outs c main_v648 : T F Sx) = kv_main_v648 m outs c :=
  (V105_of m outs c main_v648 (by decide)).trans <| (V104_of m outs c main_v648 (by decide)).trans <| wr_main_v648 m outs c

theorem rd_main_arg3_105 : (V105 m outs c main_arg3 : T F Sx) = kv_main_arg3 m outs c :=
  (V105_of m outs c main_arg3 (by decide)).trans <| (V104_of m outs c main_arg3 (by decide)).trans <| (V103_of m outs c main_arg3 (by decide)).trans <| (V102_of m outs c main_arg3 (by decide)).trans <| (V101_of m outs c main_arg3 (by decide)).trans <| (V100_of m outs c main_arg3 (by decide)).trans <| rd_main_arg3_99 m outs c

theorem wr_main_v652 : (V106 m outs c main_v652 : T F Sx) = kv_main_v652 m outs c :=
  Function.update_self (Proc.devRef .tc main_v652 : DevRef τ sig) (outs 106 main_v652 c) (V105 m outs c)

theorem rd_main_arg11_106 : (V106 m outs c main_arg11 : T F Sw32) = kv_main_arg11 m outs c :=
  (V106_of m outs c main_arg11 (by decide)).trans <| (V105_of m outs c main_arg11 (by decide)).trans <| (V104_of m outs c main_arg11 (by decide)).trans <| (V103_of m outs c main_arg11 (by decide)).trans <| (V102_of m outs c main_arg11 (by decide)).trans <| (V101_of m outs c main_arg11 (by decide)).trans <| (V100_of m outs c main_arg11 (by decide)).trans <| (V99_of m outs c main_arg11 (by decide)).trans <| (V98_of m outs c main_arg11 (by decide)).trans <| (V97_of m outs c main_arg11 (by decide)).trans <| (V96_of m outs c main_arg11 (by decide)).trans <| (V95_of m outs c main_arg11 (by decide)).trans <| (V94_of m outs c main_arg11 (by decide)).trans <| (V93_of m outs c main_arg11 (by decide)).trans <| (V92_of m outs c main_arg11 (by decide)).trans <| (V91_of m outs c main_arg11 (by decide)).trans <| (V90_of m outs c main_arg11 (by decide)).trans <| (V89_of m outs c main_arg11 (by decide)).trans <| (V88_of m outs c main_arg11 (by decide)).trans <| (V87_of m outs c main_arg11 (by decide)).trans <| (V86_of m outs c main_arg11 (by decide)).trans <| (V85_of m outs c main_arg11 (by decide)).trans <| (V84_of m outs c main_arg11 (by decide)).trans <| (V83_of m outs c main_arg11 (by decide)).trans <| (V82_of m outs c main_arg11 (by decide)).trans <| (V81_of m outs c main_arg11 (by decide)).trans <| (V80_of m outs c main_arg11 (by decide)).trans <| (V79_of m outs c main_arg11 (by decide)).trans <| (V78_of m outs c main_arg11 (by decide)).trans <| (V77_of m outs c main_arg11 (by decide)).trans <| (V76_of m outs c main_arg11 (by decide)).trans <| (V75_of m outs c main_arg11 (by decide)).trans <| (V74_of m outs c main_arg11 (by decide)).trans <| (V73_of m outs c main_arg11 (by decide)).trans <| (V72_of m outs c main_arg11 (by decide)).trans <| (V71_of m outs c main_arg11 (by decide)).trans <| (V70_of m outs c main_arg11 (by decide)).trans <| (V69_of m outs c main_arg11 (by decide)).trans <| (V68_of m outs c main_arg11 (by decide)).trans <| (V67_of m outs c main_arg11 (by decide)).trans <| (V66_of m outs c main_arg11 (by decide)).trans <| (V65_of m outs c main_arg11 (by decide)).trans <| (V64_of m outs c main_arg11 (by decide)).trans <| (V63_of m outs c main_arg11 (by decide)).trans <| rd_main_arg11_62 m outs c

theorem wr_main_v654 : (V107 m outs c main_v654 : T F Sw2) = kv_main_v654 m outs c := by
  show (StableHlo.after hostOps20 (V106 m outs c) main_v654 : T F Sw2) = _
  rw [st_hostOps20_main_v654 (V106 m outs c), rd_main_arg11_106 m outs c]
  rfl

theorem rd_main_arg12_106 : (V106 m outs c main_arg12 : T F Sb32) = kv_main_arg12 m outs c :=
  (V106_of m outs c main_arg12 (by decide)).trans <| (V105_of m outs c main_arg12 (by decide)).trans <| (V104_of m outs c main_arg12 (by decide)).trans <| (V103_of m outs c main_arg12 (by decide)).trans <| (V102_of m outs c main_arg12 (by decide)).trans <| (V101_of m outs c main_arg12 (by decide)).trans <| (V100_of m outs c main_arg12 (by decide)).trans <| (V99_of m outs c main_arg12 (by decide)).trans <| (V98_of m outs c main_arg12 (by decide)).trans <| (V97_of m outs c main_arg12 (by decide)).trans <| (V96_of m outs c main_arg12 (by decide)).trans <| (V95_of m outs c main_arg12 (by decide)).trans <| (V94_of m outs c main_arg12 (by decide)).trans <| (V93_of m outs c main_arg12 (by decide)).trans <| (V92_of m outs c main_arg12 (by decide)).trans <| (V91_of m outs c main_arg12 (by decide)).trans <| (V90_of m outs c main_arg12 (by decide)).trans <| (V89_of m outs c main_arg12 (by decide)).trans <| (V88_of m outs c main_arg12 (by decide)).trans <| (V87_of m outs c main_arg12 (by decide)).trans <| (V86_of m outs c main_arg12 (by decide)).trans <| (V85_of m outs c main_arg12 (by decide)).trans <| (V84_of m outs c main_arg12 (by decide)).trans <| (V83_of m outs c main_arg12 (by decide)).trans <| (V82_of m outs c main_arg12 (by decide)).trans <| (V81_of m outs c main_arg12 (by decide)).trans <| (V80_of m outs c main_arg12 (by decide)).trans <| (V79_of m outs c main_arg12 (by decide)).trans <| (V78_of m outs c main_arg12 (by decide)).trans <| (V77_of m outs c main_arg12 (by decide)).trans <| (V76_of m outs c main_arg12 (by decide)).trans <| (V75_of m outs c main_arg12 (by decide)).trans <| (V74_of m outs c main_arg12 (by decide)).trans <| (V73_of m outs c main_arg12 (by decide)).trans <| (V72_of m outs c main_arg12 (by decide)).trans <| (V71_of m outs c main_arg12 (by decide)).trans <| (V70_of m outs c main_arg12 (by decide)).trans <| (V69_of m outs c main_arg12 (by decide)).trans <| (V68_of m outs c main_arg12 (by decide)).trans <| (V67_of m outs c main_arg12 (by decide)).trans <| (V66_of m outs c main_arg12 (by decide)).trans <| (V65_of m outs c main_arg12 (by decide)).trans <| (V64_of m outs c main_arg12 (by decide)).trans <| (V63_of m outs c main_arg12 (by decide)).trans <| rd_main_arg12_62 m outs c

theorem wr_main_v656 : (V107 m outs c main_v656 : T F Sb2) = kv_main_v656 m outs c := by
  show (StableHlo.after hostOps20 (V106 m outs c) main_v656 : T F Sb2) = _
  rw [st_hostOps20_main_v656 (V106 m outs c), rd_main_arg12_106 m outs c]
  rfl

theorem rd_main_arg13_106 : (V106 m outs c main_arg13 : T F Sb32) = kv_main_arg13 m outs c :=
  (V106_of m outs c main_arg13 (by decide)).trans <| (V105_of m outs c main_arg13 (by decide)).trans <| (V104_of m outs c main_arg13 (by decide)).trans <| (V103_of m outs c main_arg13 (by decide)).trans <| (V102_of m outs c main_arg13 (by decide)).trans <| (V101_of m outs c main_arg13 (by decide)).trans <| (V100_of m outs c main_arg13 (by decide)).trans <| (V99_of m outs c main_arg13 (by decide)).trans <| (V98_of m outs c main_arg13 (by decide)).trans <| (V97_of m outs c main_arg13 (by decide)).trans <| (V96_of m outs c main_arg13 (by decide)).trans <| (V95_of m outs c main_arg13 (by decide)).trans <| (V94_of m outs c main_arg13 (by decide)).trans <| (V93_of m outs c main_arg13 (by decide)).trans <| (V92_of m outs c main_arg13 (by decide)).trans <| (V91_of m outs c main_arg13 (by decide)).trans <| (V90_of m outs c main_arg13 (by decide)).trans <| (V89_of m outs c main_arg13 (by decide)).trans <| (V88_of m outs c main_arg13 (by decide)).trans <| (V87_of m outs c main_arg13 (by decide)).trans <| (V86_of m outs c main_arg13 (by decide)).trans <| (V85_of m outs c main_arg13 (by decide)).trans <| (V84_of m outs c main_arg13 (by decide)).trans <| (V83_of m outs c main_arg13 (by decide)).trans <| (V82_of m outs c main_arg13 (by decide)).trans <| (V81_of m outs c main_arg13 (by decide)).trans <| (V80_of m outs c main_arg13 (by decide)).trans <| (V79_of m outs c main_arg13 (by decide)).trans <| (V78_of m outs c main_arg13 (by decide)).trans <| (V77_of m outs c main_arg13 (by decide)).trans <| (V76_of m outs c main_arg13 (by decide)).trans <| (V75_of m outs c main_arg13 (by decide)).trans <| (V74_of m outs c main_arg13 (by decide)).trans <| (V73_of m outs c main_arg13 (by decide)).trans <| (V72_of m outs c main_arg13 (by decide)).trans <| (V71_of m outs c main_arg13 (by decide)).trans <| (V70_of m outs c main_arg13 (by decide)).trans <| (V69_of m outs c main_arg13 (by decide)).trans <| (V68_of m outs c main_arg13 (by decide)).trans <| (V67_of m outs c main_arg13 (by decide)).trans <| (V66_of m outs c main_arg13 (by decide)).trans <| (V65_of m outs c main_arg13 (by decide)).trans <| (V64_of m outs c main_arg13 (by decide)).trans <| (V63_of m outs c main_arg13 (by decide)).trans <| rd_main_arg13_62 m outs c

theorem wr_main_v658 : (V107 m outs c main_v658 : T F Sb2) = kv_main_v658 m outs c := by
  show (StableHlo.after hostOps20 (V106 m outs c) main_v658 : T F Sb2) = _
  rw [st_hostOps20_main_v658 (V106 m outs c), rd_main_arg13_106 m outs c]
  rfl

theorem wr_main_v666 : (V107 m outs c main_v666 : T F Sx) = kv_main_v666 m outs c := by
  show (StableHlo.after hostOps20 (V106 m outs c) main_v666 : T F Sx) = _
  rw [st_hostOps20_main_v666 (V106 m outs c), wr_main_v652 m outs c, rd_main_arg11_106 m outs c, rd_main_arg12_106 m outs c]
  rfl

theorem wr_main_v669 : (V107 m outs c main_v669 : T F Sb) = kv_main_v669 m outs c := by
  show (StableHlo.after hostOps20 (V106 m outs c) main_v669 : T F Sb) = _
  rw [st_hostOps20_main_v669 (V106 m outs c), wr_main_v652 m outs c, rd_main_arg11_106 m outs c, rd_main_arg12_106 m outs c]
  rfl

theorem wr_main_c_53 : (V107 m outs c main_c_53 : IVec S0 32) = kv_main_c_53 m outs c := by
  show (StableHlo.after hostOps20 (V106 m outs c) main_c_53 : IVec S0 32) = _
  rw [st_hostOps20_main_c_53 (V106 m outs c)]
  rfl

theorem wr_main_v670 : (V108 m outs c main_v670 : T F Sb) = kv_main_v670 m outs c := by
  show (StableHlo.after hostOps20_1 (V107 m outs c) main_v670 : T F Sb) = _
  rw [st_hostOps20_1_main_v670 (V107 m outs c), wr_main_v666 m outs c, wr_main_c_53 m outs c]
  rfl

theorem rd_main_v666_108 : (V108 m outs c main_v666 : T F Sx) = kv_main_v666 m outs c :=
  (V108_of m outs c main_v666 (by decide)).trans <| wr_main_v666 m outs c

theorem rd_main_v669_108 : (V108 m outs c main_v669 : T F Sb) = kv_main_v669 m outs c :=
  (V108_of m outs c main_v669 (by decide)).trans <| wr_main_v669 m outs c

theorem rd_main_v658_108 : (V108 m outs c main_v658 : T F Sb2) = kv_main_v658 m outs c :=
  (V108_of m outs c main_v658 (by decide)).trans <| wr_main_v658 m outs c

theorem wr_main_v689 : (V109 m outs c main_v689 : T F Sx) = kv_main_v689 m outs c := by
  show (StableHlo.after hostOps20_2 (V108 m outs c) main_v689 : T F Sx) = _
  rw [st_hostOps20_2_main_v689 (V108 m outs c), rd_main_v666_108 m outs c, rd_main_v669_108 m outs c, wr_main_v670 m outs c, rd_main_v658_108 m outs c]
  rfl

theorem wr_main_v690 : (V110 m outs c main_v690 : T F Sx) = kv_main_v690 m outs c := by
  show (StableHlo.after hostOps20_3 (V109 m outs c) main_v690 : T F Sx) = _
  rw [st_hostOps20_3_main_v690 (V109 m outs c), wr_main_v689 m outs c]
  rfl

theorem rd_main_v654_110 : (V110 m outs c main_v654 : T F Sw2) = kv_main_v654 m outs c :=
  (V110_of m outs c main_v654 (by decide)).trans <| (V109_of m outs c main_v654 (by decide)).trans <| (V108_of m outs c main_v654 (by decide)).trans <| wr_main_v654 m outs c

theorem rd_main_v656_110 : (V110 m outs c main_v656 : T F Sb2) = kv_main_v656 m outs c :=
  (V110_of m outs c main_v656 (by decide)).trans <| (V109_of m outs c main_v656 (by decide)).trans <| (V108_of m outs c main_v656 (by decide)).trans <| wr_main_v656 m outs c

theorem wr_main_v698 : (V111 m outs c main_v698 : T F Sx) = kv_main_v698 m outs c := by
  show (StableHlo.after hostOps20_4 (V110 m outs c) main_v698 : T F Sx) = _
  rw [st_hostOps20_4_main_v698 (V110 m outs c), wr_main_v690 m outs c, rd_main_v654_110 m outs c, rd_main_v656_110 m outs c]
  rfl

theorem rd_main_v630_110 : (V110 m outs c main_v630 : T F Sx) = kv_main_v630 m outs c :=
  (V110_of m outs c main_v630 (by decide)).trans <| (V109_of m outs c main_v630 (by decide)).trans <| (V108_of m outs c main_v630 (by decide)).trans <| (V107_of m outs c main_v630 (by decide)).trans <| (V106_of m outs c main_v630 (by decide)).trans <| (V105_of m outs c main_v630 (by decide)).trans <| (V104_of m outs c main_v630 (by decide)).trans <| (V103_of m outs c main_v630 (by decide)).trans <| (V102_of m outs c main_v630 (by decide)).trans <| (V101_of m outs c main_v630 (by decide)).trans <| wr_main_v630 m outs c

theorem wr_main_v699 : (V111 m outs c main_v699 : T F Sx) = kv_main_v699 m outs c := by
  show (StableHlo.after hostOps20_4 (V110 m outs c) main_v699 : T F Sx) = _
  rw [st_hostOps20_4_main_v699 (V110 m outs c), rd_main_v630_110 m outs c, wr_main_v690 m outs c, rd_main_v654_110 m outs c, rd_main_v656_110 m outs c]
  rfl

theorem rd_main_arg9_110 : (V110 m outs c main_arg9 : T F Sw2) = kv_main_arg9 m outs c :=
  (V110_of m outs c main_arg9 (by decide)).trans <| (V109_of m outs c main_arg9 (by decide)).trans <| (V108_of m outs c main_arg9 (by decide)).trans <| (V107_of m outs c main_arg9 (by decide)).trans <| (V106_of m outs c main_arg9 (by decide)).trans <| (V105_of m outs c main_arg9 (by decide)).trans <| (V104_of m outs c main_arg9 (by decide)).trans <| (V103_of m outs c main_arg9 (by decide)).trans <| (V102_of m outs c main_arg9 (by decide)).trans <| rd_main_arg9_101 m outs c

theorem rd_main_arg10_110 : (V110 m outs c main_arg10 : T F Sb2) = kv_main_arg10 m outs c :=
  (V110_of m outs c main_arg10 (by decide)).trans <| (V109_of m outs c main_arg10 (by decide)).trans <| (V108_of m outs c main_arg10 (by decide)).trans <| (V107_of m outs c main_arg10 (by decide)).trans <| (V106_of m outs c main_arg10 (by decide)).trans <| (V105_of m outs c main_arg10 (by decide)).trans <| (V104_of m outs c main_arg10 (by decide)).trans <| (V103_of m outs c main_arg10 (by decide)).trans <| (V102_of m outs c main_arg10 (by decide)).trans <| rd_main_arg10_101 m outs c

theorem wr_main_v707 : (V111 m outs c main_v707 : T F Sx) = kv_main_v707 m outs c := by
  show (StableHlo.after hostOps20_4 (V110 m outs c) main_v707 : T F Sx) = _
  rw [st_hostOps20_4_main_v707 (V110 m outs c), wr_main_v690 m outs c, rd_main_v654_110 m outs c, rd_main_v656_110 m outs c, rd_main_arg9_110 m outs c, rd_main_arg10_110 m outs c]
  rfl

theorem wr_main_v708 : (V112 m outs c main_v708 : T F Sx) = kv_main_v708 m outs c := by
  show (StableHlo.after hostOps20_5 (V111 m outs c) main_v708 : T F Sx) = _
  rw [st_hostOps20_5_main_v708 (V111 m outs c), wr_main_v707 m outs c]
  rfl

theorem rd_main_arg9_112 : (V112 m outs c main_arg9 : T F Sw2) = kv_main_arg9 m outs c :=
  (V112_of m outs c main_arg9 (by decide)).trans <| (V111_of m outs c main_arg9 (by decide)).trans <| rd_main_arg9_110 m outs c

theorem rd_main_arg10_112 : (V112 m outs c main_arg10 : T F Sb2) = kv_main_arg10 m outs c :=
  (V112_of m outs c main_arg10 (by decide)).trans <| (V111_of m outs c main_arg10 (by decide)).trans <| rd_main_arg10_110 m outs c

theorem wr_main_v716 : (V113 m outs c main_v716 : T F Sx) = kv_main_v716 m outs c := by
  show (StableHlo.after hostOps20_6 (V112 m outs c) main_v716 : T F Sx) = _
  rw [st_hostOps20_6_main_v716 (V112 m outs c), wr_main_v708 m outs c, rd_main_arg9_112 m outs c, rd_main_arg10_112 m outs c]
  rfl

theorem wr_main_v717 : (V114 m outs c main_v717 : T F Sx) = kv_main_v717 m outs c := by
  show (StableHlo.after hostOps20_7 (V113 m outs c) main_v717 : T F Sx) = _
  rw [st_hostOps20_7_main_v717 (V113 m outs c), wr_main_v716 m outs c]
  rfl

theorem wr_main_v718 : (V115 m outs c main_v718 : T F S11) = kv_main_v718 m outs c :=
  Function.update_self (Proc.devRef .tc main_v718 : DevRef τ sig) (outs 115 main_v718 c) (V114 m outs c)

theorem wr_main_v720 : (V116 m outs c main_v720 : T F S11) = kv_main_v720 m outs c := by
  show (StableHlo.after hostOps21 (V115 m outs c) main_v720 : T F S11) = _
  rw [st_hostOps21_main_v720 (V115 m outs c), wr_main_v718 m outs c]
  rfl

theorem rd_main_v717_116 : (V116 m outs c main_v717 : T F Sx) = kv_main_v717 m outs c :=
  (V116_of m outs c main_v717 (by decide)).trans <| (V115_of m outs c main_v717 (by decide)).trans <| wr_main_v717 m outs c

theorem rd_main_v698_116 : (V116 m outs c main_v698 : T F Sx) = kv_main_v698 m outs c :=
  (V116_of m outs c main_v698 (by decide)).trans <| (V115_of m outs c main_v698 (by decide)).trans <| (V114_of m outs c main_v698 (by decide)).trans <| (V113_of m outs c main_v698 (by decide)).trans <| (V112_of m outs c main_v698 (by decide)).trans <| wr_main_v698 m outs c

theorem wr_main_v721 : (V117 m outs c main_v721 : T F Sx) = kv_main_v721 m outs c :=
  Function.update_self (Proc.devRef .tc main_v721 : DevRef τ sig) (outs 117 main_v721 c) (V116 m outs c)

theorem rd_main_arg11_117 : (V117 m outs c main_arg11 : T F Sw32) = kv_main_arg11 m outs c :=
  (V117_of m outs c main_arg11 (by decide)).trans <| (V116_of m outs c main_arg11 (by decide)).trans <| (V115_of m outs c main_arg11 (by decide)).trans <| (V114_of m outs c main_arg11 (by decide)).trans <| (V113_of m outs c main_arg11 (by decide)).trans <| (V112_of m outs c main_arg11 (by decide)).trans <| (V111_of m outs c main_arg11 (by decide)).trans <| (V110_of m outs c main_arg11 (by decide)).trans <| (V109_of m outs c main_arg11 (by decide)).trans <| (V108_of m outs c main_arg11 (by decide)).trans <| (V107_of m outs c main_arg11 (by decide)).trans <| rd_main_arg11_106 m outs c

theorem wr_main_v723 : (V118 m outs c main_v723 : T F Sw2) = kv_main_v723 m outs c := by
  show (StableHlo.after hostOps22 (V117 m outs c) main_v723 : T F Sw2) = _
  rw [st_hostOps22_main_v723 (V117 m outs c), rd_main_arg11_117 m outs c]
  rfl

theorem rd_main_arg12_117 : (V117 m outs c main_arg12 : T F Sb32) = kv_main_arg12 m outs c :=
  (V117_of m outs c main_arg12 (by decide)).trans <| (V116_of m outs c main_arg12 (by decide)).trans <| (V115_of m outs c main_arg12 (by decide)).trans <| (V114_of m outs c main_arg12 (by decide)).trans <| (V113_of m outs c main_arg12 (by decide)).trans <| (V112_of m outs c main_arg12 (by decide)).trans <| (V111_of m outs c main_arg12 (by decide)).trans <| (V110_of m outs c main_arg12 (by decide)).trans <| (V109_of m outs c main_arg12 (by decide)).trans <| (V108_of m outs c main_arg12 (by decide)).trans <| (V107_of m outs c main_arg12 (by decide)).trans <| rd_main_arg12_106 m outs c

theorem wr_main_v725 : (V118 m outs c main_v725 : T F Sb2) = kv_main_v725 m outs c := by
  show (StableHlo.after hostOps22 (V117 m outs c) main_v725 : T F Sb2) = _
  rw [st_hostOps22_main_v725 (V117 m outs c), rd_main_arg12_117 m outs c]
  rfl

theorem rd_main_arg13_117 : (V117 m outs c main_arg13 : T F Sb32) = kv_main_arg13 m outs c :=
  (V117_of m outs c main_arg13 (by decide)).trans <| (V116_of m outs c main_arg13 (by decide)).trans <| (V115_of m outs c main_arg13 (by decide)).trans <| (V114_of m outs c main_arg13 (by decide)).trans <| (V113_of m outs c main_arg13 (by decide)).trans <| (V112_of m outs c main_arg13 (by decide)).trans <| (V111_of m outs c main_arg13 (by decide)).trans <| (V110_of m outs c main_arg13 (by decide)).trans <| (V109_of m outs c main_arg13 (by decide)).trans <| (V108_of m outs c main_arg13 (by decide)).trans <| (V107_of m outs c main_arg13 (by decide)).trans <| rd_main_arg13_106 m outs c

theorem wr_main_v727 : (V118 m outs c main_v727 : T F Sb2) = kv_main_v727 m outs c := by
  show (StableHlo.after hostOps22 (V117 m outs c) main_v727 : T F Sb2) = _
  rw [st_hostOps22_main_v727 (V117 m outs c), rd_main_arg13_117 m outs c]
  rfl

theorem wr_main_v735 : (V118 m outs c main_v735 : T F Sx) = kv_main_v735 m outs c := by
  show (StableHlo.after hostOps22 (V117 m outs c) main_v735 : T F Sx) = _
  rw [st_hostOps22_main_v735 (V117 m outs c), wr_main_v721 m outs c, rd_main_arg11_117 m outs c, rd_main_arg12_117 m outs c]
  rfl

theorem wr_main_v738 : (V118 m outs c main_v738 : T F Sb) = kv_main_v738 m outs c := by
  show (StableHlo.after hostOps22 (V117 m outs c) main_v738 : T F Sb) = _
  rw [st_hostOps22_main_v738 (V117 m outs c), wr_main_v721 m outs c, rd_main_arg11_117 m outs c, rd_main_arg12_117 m outs c]
  rfl

theorem wr_main_c_58 : (V118 m outs c main_c_58 : IVec S0 32) = kv_main_c_58 m outs c := by
  show (StableHlo.after hostOps22 (V117 m outs c) main_c_58 : IVec S0 32) = _
  rw [st_hostOps22_main_c_58 (V117 m outs c)]
  rfl

theorem wr_main_v739 : (V119 m outs c main_v739 : T F Sb) = kv_main_v739 m outs c := by
  show (StableHlo.after hostOps22_1 (V118 m outs c) main_v739 : T F Sb) = _
  rw [st_hostOps22_1_main_v739 (V118 m outs c), wr_main_v735 m outs c, wr_main_c_58 m outs c]
  rfl

theorem rd_main_v735_119 : (V119 m outs c main_v735 : T F Sx) = kv_main_v735 m outs c :=
  (V119_of m outs c main_v735 (by decide)).trans <| wr_main_v735 m outs c

theorem rd_main_v738_119 : (V119 m outs c main_v738 : T F Sb) = kv_main_v738 m outs c :=
  (V119_of m outs c main_v738 (by decide)).trans <| wr_main_v738 m outs c

theorem rd_main_v727_119 : (V119 m outs c main_v727 : T F Sb2) = kv_main_v727 m outs c :=
  (V119_of m outs c main_v727 (by decide)).trans <| wr_main_v727 m outs c

theorem wr_main_v758 : (V120 m outs c main_v758 : T F Sx) = kv_main_v758 m outs c := by
  show (StableHlo.after hostOps22_2 (V119 m outs c) main_v758 : T F Sx) = _
  rw [st_hostOps22_2_main_v758 (V119 m outs c), rd_main_v735_119 m outs c, rd_main_v738_119 m outs c, wr_main_v739 m outs c, rd_main_v727_119 m outs c]
  rfl

theorem wr_main_v759 : (V121 m outs c main_v759 : T F Sx) = kv_main_v759 m outs c := by
  show (StableHlo.after hostOps22_3 (V120 m outs c) main_v759 : T F Sx) = _
  rw [st_hostOps22_3_main_v759 (V120 m outs c), wr_main_v758 m outs c]
  rfl

theorem rd_main_v723_121 : (V121 m outs c main_v723 : T F Sw2) = kv_main_v723 m outs c :=
  (V121_of m outs c main_v723 (by decide)).trans <| (V120_of m outs c main_v723 (by decide)).trans <| (V119_of m outs c main_v723 (by decide)).trans <| wr_main_v723 m outs c

theorem rd_main_v725_121 : (V121 m outs c main_v725 : T F Sb2) = kv_main_v725 m outs c :=
  (V121_of m outs c main_v725 (by decide)).trans <| (V120_of m outs c main_v725 (by decide)).trans <| (V119_of m outs c main_v725 (by decide)).trans <| wr_main_v725 m outs c

theorem wr_main_v767 : (V122 m outs c main_v767 : T F Sx) = kv_main_v767 m outs c := by
  show (StableHlo.after hostOps22_4 (V121 m outs c) main_v767 : T F Sx) = _
  rw [st_hostOps22_4_main_v767 (V121 m outs c), wr_main_v759 m outs c, rd_main_v723_121 m outs c, rd_main_v725_121 m outs c]
  rfl

theorem rd_main_v699_121 : (V121 m outs c main_v699 : T F Sx) = kv_main_v699 m outs c :=
  (V121_of m outs c main_v699 (by decide)).trans <| (V120_of m outs c main_v699 (by decide)).trans <| (V119_of m outs c main_v699 (by decide)).trans <| (V118_of m outs c main_v699 (by decide)).trans <| (V117_of m outs c main_v699 (by decide)).trans <| (V116_of m outs c main_v699 (by decide)).trans <| (V115_of m outs c main_v699 (by decide)).trans <| (V114_of m outs c main_v699 (by decide)).trans <| (V113_of m outs c main_v699 (by decide)).trans <| (V112_of m outs c main_v699 (by decide)).trans <| wr_main_v699 m outs c

theorem wr_main_v768 : (V122 m outs c main_v768 : T F Sx) = kv_main_v768 m outs c := by
  show (StableHlo.after hostOps22_4 (V121 m outs c) main_v768 : T F Sx) = _
  rw [st_hostOps22_4_main_v768 (V121 m outs c), rd_main_v699_121 m outs c, wr_main_v759 m outs c, rd_main_v723_121 m outs c, rd_main_v725_121 m outs c]
  rfl

theorem rd_main_arg9_121 : (V121 m outs c main_arg9 : T F Sw2) = kv_main_arg9 m outs c :=
  (V121_of m outs c main_arg9 (by decide)).trans <| (V120_of m outs c main_arg9 (by decide)).trans <| (V119_of m outs c main_arg9 (by decide)).trans <| (V118_of m outs c main_arg9 (by decide)).trans <| (V117_of m outs c main_arg9 (by decide)).trans <| (V116_of m outs c main_arg9 (by decide)).trans <| (V115_of m outs c main_arg9 (by decide)).trans <| (V114_of m outs c main_arg9 (by decide)).trans <| (V113_of m outs c main_arg9 (by decide)).trans <| rd_main_arg9_112 m outs c

theorem rd_main_arg10_121 : (V121 m outs c main_arg10 : T F Sb2) = kv_main_arg10 m outs c :=
  (V121_of m outs c main_arg10 (by decide)).trans <| (V120_of m outs c main_arg10 (by decide)).trans <| (V119_of m outs c main_arg10 (by decide)).trans <| (V118_of m outs c main_arg10 (by decide)).trans <| (V117_of m outs c main_arg10 (by decide)).trans <| (V116_of m outs c main_arg10 (by decide)).trans <| (V115_of m outs c main_arg10 (by decide)).trans <| (V114_of m outs c main_arg10 (by decide)).trans <| (V113_of m outs c main_arg10 (by decide)).trans <| rd_main_arg10_112 m outs c

theorem wr_main_v776 : (V122 m outs c main_v776 : T F Sx) = kv_main_v776 m outs c := by
  show (StableHlo.after hostOps22_4 (V121 m outs c) main_v776 : T F Sx) = _
  rw [st_hostOps22_4_main_v776 (V121 m outs c), wr_main_v759 m outs c, rd_main_v723_121 m outs c, rd_main_v725_121 m outs c, rd_main_arg9_121 m outs c, rd_main_arg10_121 m outs c]
  rfl

theorem wr_main_v777 : (V123 m outs c main_v777 : T F Sx) = kv_main_v777 m outs c := by
  show (StableHlo.after hostOps22_5 (V122 m outs c) main_v777 : T F Sx) = _
  rw [st_hostOps22_5_main_v777 (V122 m outs c), wr_main_v776 m outs c]
  rfl

theorem rd_main_arg9_123 : (V123 m outs c main_arg9 : T F Sw2) = kv_main_arg9 m outs c :=
  (V123_of m outs c main_arg9 (by decide)).trans <| (V122_of m outs c main_arg9 (by decide)).trans <| rd_main_arg9_121 m outs c

theorem rd_main_arg10_123 : (V123 m outs c main_arg10 : T F Sb2) = kv_main_arg10 m outs c :=
  (V123_of m outs c main_arg10 (by decide)).trans <| (V122_of m outs c main_arg10 (by decide)).trans <| rd_main_arg10_121 m outs c

theorem wr_main_v785 : (V124 m outs c main_v785 : T F Sx) = kv_main_v785 m outs c := by
  show (StableHlo.after hostOps22_6 (V123 m outs c) main_v785 : T F Sx) = _
  rw [st_hostOps22_6_main_v785 (V123 m outs c), wr_main_v777 m outs c, rd_main_arg9_123 m outs c, rd_main_arg10_123 m outs c]
  rfl

theorem wr_main_v786 : (V125 m outs c main_v786 : T F Sx) = kv_main_v786 m outs c := by
  show (StableHlo.after hostOps22_7 (V124 m outs c) main_v786 : T F Sx) = _
  rw [st_hostOps22_7_main_v786 (V124 m outs c), wr_main_v785 m outs c]
  rfl

theorem wr_main_v787 : (V126 m outs c main_v787 : T F S11) = kv_main_v787 m outs c :=
  Function.update_self (Proc.devRef .tc main_v787 : DevRef τ sig) (outs 126 main_v787 c) (V125 m outs c)

theorem wr_main_v789 : (V127 m outs c main_v789 : T F S11) = kv_main_v789 m outs c := by
  show (StableHlo.after hostOps23 (V126 m outs c) main_v789 : T F S11) = _
  rw [st_hostOps23_main_v789 (V126 m outs c), wr_main_v787 m outs c]
  rfl

theorem rd_main_v786_127 : (V127 m outs c main_v786 : T F Sx) = kv_main_v786 m outs c :=
  (V127_of m outs c main_v786 (by decide)).trans <| (V126_of m outs c main_v786 (by decide)).trans <| wr_main_v786 m outs c

theorem rd_main_v767_127 : (V127 m outs c main_v767 : T F Sx) = kv_main_v767 m outs c :=
  (V127_of m outs c main_v767 (by decide)).trans <| (V126_of m outs c main_v767 (by decide)).trans <| (V125_of m outs c main_v767 (by decide)).trans <| (V124_of m outs c main_v767 (by decide)).trans <| (V123_of m outs c main_v767 (by decide)).trans <| wr_main_v767 m outs c

theorem wr_main_v790 : (V128 m outs c main_v790 : T F Sx) = kv_main_v790 m outs c :=
  Function.update_self (Proc.devRef .tc main_v790 : DevRef τ sig) (outs 128 main_v790 c) (V127 m outs c)

theorem rd_main_arg11_128 : (V128 m outs c main_arg11 : T F Sw32) = kv_main_arg11 m outs c :=
  (V128_of m outs c main_arg11 (by decide)).trans <| (V127_of m outs c main_arg11 (by decide)).trans <| (V126_of m outs c main_arg11 (by decide)).trans <| (V125_of m outs c main_arg11 (by decide)).trans <| (V124_of m outs c main_arg11 (by decide)).trans <| (V123_of m outs c main_arg11 (by decide)).trans <| (V122_of m outs c main_arg11 (by decide)).trans <| (V121_of m outs c main_arg11 (by decide)).trans <| (V120_of m outs c main_arg11 (by decide)).trans <| (V119_of m outs c main_arg11 (by decide)).trans <| (V118_of m outs c main_arg11 (by decide)).trans <| rd_main_arg11_117 m outs c

theorem wr_main_v792 : (V129 m outs c main_v792 : T F Sw2) = kv_main_v792 m outs c := by
  show (StableHlo.after hostOps24 (V128 m outs c) main_v792 : T F Sw2) = _
  rw [st_hostOps24_main_v792 (V128 m outs c), rd_main_arg11_128 m outs c]
  rfl

theorem rd_main_arg12_128 : (V128 m outs c main_arg12 : T F Sb32) = kv_main_arg12 m outs c :=
  (V128_of m outs c main_arg12 (by decide)).trans <| (V127_of m outs c main_arg12 (by decide)).trans <| (V126_of m outs c main_arg12 (by decide)).trans <| (V125_of m outs c main_arg12 (by decide)).trans <| (V124_of m outs c main_arg12 (by decide)).trans <| (V123_of m outs c main_arg12 (by decide)).trans <| (V122_of m outs c main_arg12 (by decide)).trans <| (V121_of m outs c main_arg12 (by decide)).trans <| (V120_of m outs c main_arg12 (by decide)).trans <| (V119_of m outs c main_arg12 (by decide)).trans <| (V118_of m outs c main_arg12 (by decide)).trans <| rd_main_arg12_117 m outs c

theorem wr_main_v794 : (V129 m outs c main_v794 : T F Sb2) = kv_main_v794 m outs c := by
  show (StableHlo.after hostOps24 (V128 m outs c) main_v794 : T F Sb2) = _
  rw [st_hostOps24_main_v794 (V128 m outs c), rd_main_arg12_128 m outs c]
  rfl

theorem rd_main_arg13_128 : (V128 m outs c main_arg13 : T F Sb32) = kv_main_arg13 m outs c :=
  (V128_of m outs c main_arg13 (by decide)).trans <| (V127_of m outs c main_arg13 (by decide)).trans <| (V126_of m outs c main_arg13 (by decide)).trans <| (V125_of m outs c main_arg13 (by decide)).trans <| (V124_of m outs c main_arg13 (by decide)).trans <| (V123_of m outs c main_arg13 (by decide)).trans <| (V122_of m outs c main_arg13 (by decide)).trans <| (V121_of m outs c main_arg13 (by decide)).trans <| (V120_of m outs c main_arg13 (by decide)).trans <| (V119_of m outs c main_arg13 (by decide)).trans <| (V118_of m outs c main_arg13 (by decide)).trans <| rd_main_arg13_117 m outs c

theorem wr_main_v796 : (V129 m outs c main_v796 : T F Sb2) = kv_main_v796 m outs c := by
  show (StableHlo.after hostOps24 (V128 m outs c) main_v796 : T F Sb2) = _
  rw [st_hostOps24_main_v796 (V128 m outs c), rd_main_arg13_128 m outs c]
  rfl

theorem wr_main_v804 : (V129 m outs c main_v804 : T F Sx) = kv_main_v804 m outs c := by
  show (StableHlo.after hostOps24 (V128 m outs c) main_v804 : T F Sx) = _
  rw [st_hostOps24_main_v804 (V128 m outs c), wr_main_v790 m outs c, rd_main_arg11_128 m outs c, rd_main_arg12_128 m outs c]
  rfl

theorem wr_main_v807 : (V129 m outs c main_v807 : T F Sb) = kv_main_v807 m outs c := by
  show (StableHlo.after hostOps24 (V128 m outs c) main_v807 : T F Sb) = _
  rw [st_hostOps24_main_v807 (V128 m outs c), wr_main_v790 m outs c, rd_main_arg11_128 m outs c, rd_main_arg12_128 m outs c]
  rfl

theorem wr_main_c_63 : (V129 m outs c main_c_63 : IVec S0 32) = kv_main_c_63 m outs c := by
  show (StableHlo.after hostOps24 (V128 m outs c) main_c_63 : IVec S0 32) = _
  rw [st_hostOps24_main_c_63 (V128 m outs c)]
  rfl

theorem wr_main_v808 : (V130 m outs c main_v808 : T F Sb) = kv_main_v808 m outs c := by
  show (StableHlo.after hostOps24_1 (V129 m outs c) main_v808 : T F Sb) = _
  rw [st_hostOps24_1_main_v808 (V129 m outs c), wr_main_v804 m outs c, wr_main_c_63 m outs c]
  rfl

theorem rd_main_v804_130 : (V130 m outs c main_v804 : T F Sx) = kv_main_v804 m outs c :=
  (V130_of m outs c main_v804 (by decide)).trans <| wr_main_v804 m outs c

theorem rd_main_v807_130 : (V130 m outs c main_v807 : T F Sb) = kv_main_v807 m outs c :=
  (V130_of m outs c main_v807 (by decide)).trans <| wr_main_v807 m outs c

theorem rd_main_v796_130 : (V130 m outs c main_v796 : T F Sb2) = kv_main_v796 m outs c :=
  (V130_of m outs c main_v796 (by decide)).trans <| wr_main_v796 m outs c

theorem wr_main_v827 : (V131 m outs c main_v827 : T F Sx) = kv_main_v827 m outs c := by
  show (StableHlo.after hostOps24_2 (V130 m outs c) main_v827 : T F Sx) = _
  rw [st_hostOps24_2_main_v827 (V130 m outs c), rd_main_v804_130 m outs c, rd_main_v807_130 m outs c, wr_main_v808 m outs c, rd_main_v796_130 m outs c]
  rfl

theorem wr_main_v828 : (V132 m outs c main_v828 : T F Sx) = kv_main_v828 m outs c := by
  show (StableHlo.after hostOps24_3 (V131 m outs c) main_v828 : T F Sx) = _
  rw [st_hostOps24_3_main_v828 (V131 m outs c), wr_main_v827 m outs c]
  rfl

theorem rd_main_v792_132 : (V132 m outs c main_v792 : T F Sw2) = kv_main_v792 m outs c :=
  (V132_of m outs c main_v792 (by decide)).trans <| (V131_of m outs c main_v792 (by decide)).trans <| (V130_of m outs c main_v792 (by decide)).trans <| wr_main_v792 m outs c

theorem rd_main_v794_132 : (V132 m outs c main_v794 : T F Sb2) = kv_main_v794 m outs c :=
  (V132_of m outs c main_v794 (by decide)).trans <| (V131_of m outs c main_v794 (by decide)).trans <| (V130_of m outs c main_v794 (by decide)).trans <| wr_main_v794 m outs c

theorem wr_main_v836 : (V133 m outs c main_v836 : T F Sx) = kv_main_v836 m outs c := by
  show (StableHlo.after hostOps24_4 (V132 m outs c) main_v836 : T F Sx) = _
  rw [st_hostOps24_4_main_v836 (V132 m outs c), wr_main_v828 m outs c, rd_main_v792_132 m outs c, rd_main_v794_132 m outs c]
  rfl

theorem rd_main_v768_132 : (V132 m outs c main_v768 : T F Sx) = kv_main_v768 m outs c :=
  (V132_of m outs c main_v768 (by decide)).trans <| (V131_of m outs c main_v768 (by decide)).trans <| (V130_of m outs c main_v768 (by decide)).trans <| (V129_of m outs c main_v768 (by decide)).trans <| (V128_of m outs c main_v768 (by decide)).trans <| (V127_of m outs c main_v768 (by decide)).trans <| (V126_of m outs c main_v768 (by decide)).trans <| (V125_of m outs c main_v768 (by decide)).trans <| (V124_of m outs c main_v768 (by decide)).trans <| (V123_of m outs c main_v768 (by decide)).trans <| wr_main_v768 m outs c

theorem wr_main_v837 : (V133 m outs c main_v837 : T F Sx) = kv_main_v837 m outs c := by
  show (StableHlo.after hostOps24_4 (V132 m outs c) main_v837 : T F Sx) = _
  rw [st_hostOps24_4_main_v837 (V132 m outs c), rd_main_v768_132 m outs c, wr_main_v828 m outs c, rd_main_v792_132 m outs c, rd_main_v794_132 m outs c]
  rfl

theorem wr_main_v839 : (V133 m outs c main_v839 : T F Sx) = kv_main_v839 m outs c := by
  show (StableHlo.after hostOps24_4 (V132 m outs c) main_v839 : T F Sx) = _
  rw [st_hostOps24_4_main_v839 (V132 m outs c), rd_main_v768_132 m outs c, wr_main_v828 m outs c, rd_main_v792_132 m outs c, rd_main_v794_132 m outs c]
  rfl

theorem rd_main_v209_132 : (V132 m outs c main_v209 : T F Sx) = kv_main_v209 m outs c :=
  (V132_of m outs c main_v209 (by decide)).trans <| (V131_of m outs c main_v209 (by decide)).trans <| (V130_of m outs c main_v209 (by decide)).trans <| (V129_of m outs c main_v209 (by decide)).trans <| (V128_of m outs c main_v209 (by decide)).trans <| (V127_of m outs c main_v209 (by decide)).trans <| (V126_of m outs c main_v209 (by decide)).trans <| (V125_of m outs c main_v209 (by decide)).trans <| (V124_of m outs c main_v209 (by decide)).trans <| (V123_of m outs c main_v209 (by decide)).trans <| (V122_of m outs c main_v209 (by decide)).trans <| (V121_of m outs c main_v209 (by decide)).trans <| (V120_of m outs c main_v209 (by decide)).trans <| (V119_of m outs c main_v209 (by decide)).trans <| (V118_of m outs c main_v209 (by decide)).trans <| (V117_of m outs c main_v209 (by decide)).trans <| (V116_of m outs c main_v209 (by decide)).trans <| (V115_of m outs c main_v209 (by decide)).trans <| (V114_of m outs c main_v209 (by decide)).trans <| (V113_of m outs c main_v209 (by decide)).trans <| (V112_of m outs c main_v209 (by decide)).trans <| (V111_of m outs c main_v209 (by decide)).trans <| (V110_of m outs c main_v209 (by decide)).trans <| (V109_of m outs c main_v209 (by decide)).trans <| (V108_of m outs c main_v209 (by decide)).trans <| (V107_of m outs c main_v209 (by decide)).trans <| (V106_of m outs c main_v209 (by decide)).trans <| (V105_of m outs c main_v209 (by decide)).trans <| (V104_of m outs c main_v209 (by decide)).trans <| (V103_of m outs c main_v209 (by decide)).trans <| (V102_of m outs c main_v209 (by decide)).trans <| (V101_of m outs c main_v209 (by decide)).trans <| (V100_of m outs c main_v209 (by decide)).trans <| (V99_of m outs c main_v209 (by decide)).trans <| (V98_of m outs c main_v209 (by decide)).trans <| (V97_of m outs c main_v209 (by decide)).trans <| (V96_of m outs c main_v209 (by decide)).trans <| (V95_of m outs c main_v209 (by decide)).trans <| (V94_of m outs c main_v209 (by decide)).trans <| (V93_of m outs c main_v209 (by decide)).trans <| (V92_of m outs c main_v209 (by decide)).trans <| (V91_of m outs c main_v209 (by decide)).trans <| (V90_of m outs c main_v209 (by decide)).trans <| (V89_of m outs c main_v209 (by decide)).trans <| (V88_of m outs c main_v209 (by decide)).trans <| (V87_of m outs c main_v209 (by decide)).trans <| (V86_of m outs c main_v209 (by decide)).trans <| (V85_of m outs c main_v209 (by decide)).trans <| (V84_of m outs c main_v209 (by decide)).trans <| (V83_of m outs c main_v209 (by decide)).trans <| (V82_of m outs c main_v209 (by decide)).trans <| (V81_of m outs c main_v209 (by decide)).trans <| (V80_of m outs c main_v209 (by decide)).trans <| (V79_of m outs c main_v209 (by decide)).trans <| (V78_of m outs c main_v209 (by decide)).trans <| (V77_of m outs c main_v209 (by decide)).trans <| (V76_of m outs c main_v209 (by decide)).trans <| (V75_of m outs c main_v209 (by decide)).trans <| (V74_of m outs c main_v209 (by decide)).trans <| (V73_of m outs c main_v209 (by decide)).trans <| (V72_of m outs c main_v209 (by decide)).trans <| (V71_of m outs c main_v209 (by decide)).trans <| (V70_of m outs c main_v209 (by decide)).trans <| (V69_of m outs c main_v209 (by decide)).trans <| (V68_of m outs c main_v209 (by decide)).trans <| (V67_of m outs c main_v209 (by decide)).trans <| (V66_of m outs c main_v209 (by decide)).trans <| (V65_of m outs c main_v209 (by decide)).trans <| (V64_of m outs c main_v209 (by decide)).trans <| (V63_of m outs c main_v209 (by decide)).trans <| (V62_of m outs c main_v209 (by decide)).trans <| (V61_of m outs c main_v209 (by decide)).trans <| (V60_of m outs c main_v209 (by decide)).trans <| (V59_of m outs c main_v209 (by decide)).trans <| (V58_of m outs c main_v209 (by decide)).trans <| (V57_of m outs c main_v209 (by decide)).trans <| (V56_of m outs c main_v209 (by decide)).trans <| (V55_of m outs c main_v209 (by decide)).trans <| (V54_of m outs c main_v209 (by decide)).trans <| (V53_of m outs c main_v209 (by decide)).trans <| (V52_of m outs c main_v209 (by decide)).trans <| (V51_of m outs c main_v209 (by decide)).trans <| (V50_of m outs c main_v209 (by decide)).trans <| (V49_of m outs c main_v209 (by decide)).trans <| (V48_of m outs c main_v209 (by decide)).trans <| (V47_of m outs c main_v209 (by decide)).trans <| (V46_of m outs c main_v209 (by decide)).trans <| (V45_of m outs c main_v209 (by decide)).trans <| (V44_of m outs c main_v209 (by decide)).trans <| (V43_of m outs c main_v209 (by decide)).trans <| (V42_of m outs c main_v209 (by decide)).trans <| (V41_of m outs c main_v209 (by decide)).trans <| (V40_of m outs c main_v209 (by decide)).trans <| (V39_of m outs c main_v209 (by decide)).trans <| (V38_of m outs c main_v209 (by decide)).trans <| (V37_of m outs c main_v209 (by decide)).trans <| (V36_of m outs c main_v209 (by decide)).trans <| (V35_of m outs c main_v209 (by decide)).trans <| wr_main_v209 m outs c

theorem wr_main_v843 : (V133 m outs c main_v843 : T F S0) = kv_main_v843 m outs c := by
  show (StableHlo.after hostOps24_4 (V132 m outs c) main_v843 : T F S0) = _
  rw [st_hostOps24_4_main_v843 (V132 m outs c), rd_main_v209_132 m outs c, rd_main_v768_132 m outs c, wr_main_v828 m outs c, rd_main_v792_132 m outs c, rd_main_v794_132 m outs c]
  rfl

theorem rd_main_v419_132 : (V132 m outs c main_v419 : T F Sx) = kv_main_v419 m outs c :=
  (V132_of m outs c main_v419 (by decide)).trans <| (V131_of m outs c main_v419 (by decide)).trans <| (V130_of m outs c main_v419 (by decide)).trans <| (V129_of m outs c main_v419 (by decide)).trans <| (V128_of m outs c main_v419 (by decide)).trans <| (V127_of m outs c main_v419 (by decide)).trans <| (V126_of m outs c main_v419 (by decide)).trans <| (V125_of m outs c main_v419 (by decide)).trans <| (V124_of m outs c main_v419 (by decide)).trans <| (V123_of m outs c main_v419 (by decide)).trans <| (V122_of m outs c main_v419 (by decide)).trans <| (V121_of m outs c main_v419 (by decide)).trans <| (V120_of m outs c main_v419 (by decide)).trans <| (V119_of m outs c main_v419 (by decide)).trans <| (V118_of m outs c main_v419 (by decide)).trans <| (V117_of m outs c main_v419 (by decide)).trans <| (V116_of m outs c main_v419 (by decide)).trans <| (V115_of m outs c main_v419 (by decide)).trans <| (V114_of m outs c main_v419 (by decide)).trans <| (V113_of m outs c main_v419 (by decide)).trans <| (V112_of m outs c main_v419 (by decide)).trans <| (V111_of m outs c main_v419 (by decide)).trans <| (V110_of m outs c main_v419 (by decide)).trans <| (V109_of m outs c main_v419 (by decide)).trans <| (V108_of m outs c main_v419 (by decide)).trans <| (V107_of m outs c main_v419 (by decide)).trans <| (V106_of m outs c main_v419 (by decide)).trans <| (V105_of m outs c main_v419 (by decide)).trans <| (V104_of m outs c main_v419 (by decide)).trans <| (V103_of m outs c main_v419 (by decide)).trans <| (V102_of m outs c main_v419 (by decide)).trans <| (V101_of m outs c main_v419 (by decide)).trans <| (V100_of m outs c main_v419 (by decide)).trans <| (V99_of m outs c main_v419 (by decide)).trans <| (V98_of m outs c main_v419 (by decide)).trans <| (V97_of m outs c main_v419 (by decide)).trans <| (V96_of m outs c main_v419 (by decide)).trans <| (V95_of m outs c main_v419 (by decide)).trans <| (V94_of m outs c main_v419 (by decide)).trans <| (V93_of m outs c main_v419 (by decide)).trans <| (V92_of m outs c main_v419 (by decide)).trans <| (V91_of m outs c main_v419 (by decide)).trans <| (V90_of m outs c main_v419 (by decide)).trans <| (V89_of m outs c main_v419 (by decide)).trans <| (V88_of m outs c main_v419 (by decide)).trans <| (V87_of m outs c main_v419 (by decide)).trans <| (V86_of m outs c main_v419 (by decide)).trans <| (V85_of m outs c main_v419 (by decide)).trans <| (V84_of m outs c main_v419 (by decide)).trans <| (V83_of m outs c main_v419 (by decide)).trans <| (V82_of m outs c main_v419 (by decide)).trans <| (V81_of m outs c main_v419 (by decide)).trans <| (V80_of m outs c main_v419 (by decide)).trans <| (V79_of m outs c main_v419 (by decide)).trans <| (V78_of m outs c main_v419 (by decide)).trans <| (V77_of m outs c main_v419 (by decide)).trans <| (V76_of m outs c main_v419 (by decide)).trans <| (V75_of m outs c main_v419 (by decide)).trans <| (V74_of m outs c main_v419 (by decide)).trans <| (V73_of m outs c main_v419 (by decide)).trans <| (V72_of m outs c main_v419 (by decide)).trans <| (V71_of m outs c main_v419 (by decide)).trans <| (V70_of m outs c main_v419 (by decide)).trans <| (V69_of m outs c main_v419 (by decide)).trans <| (V68_of m outs c main_v419 (by decide)).trans <| wr_main_v419 m outs c

theorem wr_main_v847 : (V133 m outs c main_v847 : T F S0) = kv_main_v847 m outs c := by
  show (StableHlo.after hostOps24_4 (V132 m outs c) main_v847 : T F S0) = _
  rw [st_hostOps24_4_main_v847 (V132 m outs c), rd_main_v419_132 m outs c, rd_main_v768_132 m outs c, wr_main_v828 m outs c, rd_main_v792_132 m outs c, rd_main_v794_132 m outs c]
  rfl

theorem rd_main_v629_132 : (V132 m outs c main_v629 : T F Sx) = kv_main_v629 m outs c :=
  (V132_of m outs c main_v629 (by decide)).trans <| (V131_of m outs c main_v629 (by decide)).trans <| (V130_of m outs c main_v629 (by decide)).trans <| (V129_of m outs c main_v629 (by decide)).trans <| (V128_of m outs c main_v629 (by decide)).trans <| (V127_of m outs c main_v629 (by decide)).trans <| (V126_of m outs c main_v629 (by decide)).trans <| (V125_of m outs c main_v629 (by decide)).trans <| (V124_of m outs c main_v629 (by decide)).trans <| (V123_of m outs c main_v629 (by decide)).trans <| (V122_of m outs c main_v629 (by decide)).trans <| (V121_of m outs c main_v629 (by decide)).trans <| (V120_of m outs c main_v629 (by decide)).trans <| (V119_of m outs c main_v629 (by decide)).trans <| (V118_of m outs c main_v629 (by decide)).trans <| (V117_of m outs c main_v629 (by decide)).trans <| (V116_of m outs c main_v629 (by decide)).trans <| (V115_of m outs c main_v629 (by decide)).trans <| (V114_of m outs c main_v629 (by decide)).trans <| (V113_of m outs c main_v629 (by decide)).trans <| (V112_of m outs c main_v629 (by decide)).trans <| (V111_of m outs c main_v629 (by decide)).trans <| (V110_of m outs c main_v629 (by decide)).trans <| (V109_of m outs c main_v629 (by decide)).trans <| (V108_of m outs c main_v629 (by decide)).trans <| (V107_of m outs c main_v629 (by decide)).trans <| (V106_of m outs c main_v629 (by decide)).trans <| (V105_of m outs c main_v629 (by decide)).trans <| (V104_of m outs c main_v629 (by decide)).trans <| (V103_of m outs c main_v629 (by decide)).trans <| (V102_of m outs c main_v629 (by decide)).trans <| (V101_of m outs c main_v629 (by decide)).trans <| wr_main_v629 m outs c

theorem wr_main_v851 : (V133 m outs c main_v851 : T F S0) = kv_main_v851 m outs c := by
  show (StableHlo.after hostOps24_4 (V132 m outs c) main_v851 : T F S0) = _
  rw [st_hostOps24_4_main_v851 (V132 m outs c), rd_main_v629_132 m outs c, rd_main_v768_132 m outs c, wr_main_v828 m outs c, rd_main_v792_132 m outs c, rd_main_v794_132 m outs c]
  rfl

end Cert.KernelIdeal.Hand

end
-- ==== Proof.KHostSum.lean ====
import proofs.«169706_j68856915690108_1_alg».proof.Proof.KHostCh

set_option maxRecDepth 7604
set_option maxHeartbeats 4000000

noncomputable section

namespace Cert.KernelIdeal.Hand

open Cert.KernelIdeal.Gen Cert.KernelIdeal.GenP Cert.Hand Idealize.ShloMosaic Idealize.ShloMosaic.TcCoe Idealize.SL.Sem

variable {F : FTy → Type} [FloatOps F]

variable (m : (ℓ : Loc nD τ sig) → Buf (Elt F) ℓ) (outs : Outs (F := F)) (c : Dev nD)

theorem sum_zeros_main_v0 : kv_main_v0 m outs c = fill 0x00000000#32 := rfl
theorem sum_zeros_main_v210 : kv_main_v210 m outs c = fill 0x00000000#32 := rfl
theorem sum_zeros_main_v420 : kv_main_v420 m outs c = fill 0x00000000#32 := rfl
theorem sum_zeros_main_v630 : kv_main_v630 m outs c = fill 0x00000000#32 := rfl
/-! ### Branch 0, layer 0: input main_arg0, embedding main_v18, total main_v19, threshold main_v21, aggregate main_v22, output main_v68, running sum main_v69 -/
theorem sum_h_0_0 : kv_main_v18 m outs c = embed (kv_main_arg0 m outs c) (kv_main_arg4 m outs c) (kv_main_arg5 m outs c) := rfl
theorem sum_mean_0_0 : kv_main_v21 m outs c = meanOf (kv_main_v19 m outs c) := rfl
theorem sum_x_0_0 : kv_main_v68 m outs c = mlp (kv_main_v22 m outs c) (W3at0 (kv_main_arg6 m outs c)) (b3at0 (kv_main_arg7 m outs c)) (b3at0 (kv_main_arg8 m outs c)) := rfl
theorem sum_acc_0_0 : kv_main_v69 m outs c = addf (kv_main_v0 m outs c) (kv_main_v68 m outs c) := rfl
/-! ### Branch 0, layer 1: input main_v68, embedding main_v87, total main_v88, threshold main_v90, aggregate main_v91, output main_v137, running sum main_v138 -/
theorem sum_h_0_1 : kv_main_v87 m outs c = embed (kv_main_v68 m outs c) (kv_main_arg4 m outs c) (kv_main_arg5 m outs c) := rfl
theorem sum_mean_0_1 : kv_main_v90 m outs c = meanOf (kv_main_v88 m outs c) := rfl
theorem sum_x_0_1 : kv_main_v137 m outs c = mlp (kv_main_v91 m outs c) (W3at1 (kv_main_arg6 m outs c)) (b3at1 (kv_main_arg7 m outs c)) (b3at1 (kv_main_arg8 m outs c)) := rfl
theorem sum_acc_0_1 : kv_main_v138 m outs c = addf (kv_main_v69 m outs c) (kv_main_v137 m outs c) := rfl
/-! ### Branch 0, layer 2: input main_v137, embedding main_v156, total main_v157, threshold main_v159, aggregate main_v160, output main_v206, running sum main_v207 -/
theorem sum_h_0_2 : kv_main_v156 m outs c = embed (kv_main_v137 m outs c) (kv_main_arg4 m outs c) (kv_main_arg5 m outs c) := rfl
theorem sum_mean_0_2 : kv_main_v159 m outs c = meanOf (kv_main_v157 m outs c) := rfl
theorem sum_x_0_2 : kv_main_v206 m outs c = mlp (kv_main_v160 m outs c) (W3at2 (kv_main_arg6 m outs c)) (b3at2 (kv_main_arg7 m outs c)) (b3at2 (kv_main_arg8 m outs c)) := rfl
theorem sum_acc_0_2 : kv_main_v207 m outs c = addf (kv_main_v138 m outs c) (kv_main_v206 m outs c) := rfl
/-! ### Branch 1, layer 0: input main_arg1, embedding main_v228, total main_v229, threshold main_v231, aggregate main_v232, output main_v278, running sum main_v279 -/
theorem sum_h_1_0 : kv_main_v228 m outs c = embed (kv_main_arg1 m outs c) (kv_main_arg9 m outs c) (kv_main_arg10 m outs c) := rfl
theorem sum_mean_1_0 : kv_main_v231 m outs c = meanOf (kv_main_v229 m outs c) := rfl
theorem sum_x_1_0 : kv_main_v278 m outs c = mlp (kv_main_v232 m outs c) (W3at0 (kv_main_arg11 m outs c)) (b3at0 (kv_main_arg12 m outs c)) (b3at0 (kv_main_arg13 m outs c)) := rfl
theorem sum_acc_1_0 : kv_main_v279 m outs c = addf (kv_main_v210 m outs c) (kv_main_v278 m outs c) := rfl
/-! ### Branch 1, layer 1: input main_v278, embedding main_v297, total main_v298, threshold main_v300, aggregate main_v301, output main_v347, running sum main_v348 -/
theorem sum_h_1_1 : kv_main_v297 m outs c = embed (kv_main_v278 m outs c) (kv_main_arg9 m outs c) (kv_main_arg10 m outs c) := rfl
theorem sum_mean_1_1 : kv_main_v300 m outs c = meanOf (kv_main_v298 m outs c) := rfl
theorem sum_x_1_1 : kv_main_v347 m outs c = mlp (kv_main_v301 m outs c) (W3at1 (kv_main_arg11 m outs c)) (b3at1 (kv_main_arg12 m outs c)) (b3at1 (kv_main_arg13 m outs c)) := rfl
theorem sum_acc_1_1 : kv_main_v348 m outs c = addf (kv_main_v279 m outs c) (kv_main_v347 m outs c) := rfl
/-! ### Branch 1, layer 2: input main_v347, embedding main_v366, total main_v367, threshold main_v369, aggregate main_v370, output main_v416, running sum main_v417 -/
theorem sum_h_1_2 : kv_main_v366 m outs c = embed (kv_main_v347 m outs c) (kv_main_arg9 m outs c) (kv_main_arg10 m outs c) := rfl
theorem sum_mean_1_2 : kv_main_v369 m outs c = meanOf (kv_main_v367 m outs c) := rfl
theorem sum_x_1_2 : kv_main_v416 m outs c = mlp (kv_main_v370 m outs c) (W3at2 (kv_main_arg11 m outs c)) (b3at2 (kv_main_arg12 m outs c)) (b3at2 (kv_main_arg13 m outs c)) := rfl
theorem sum_acc_1_2 : kv_main_v417 m outs c = addf (kv_main_v348 m outs c) (kv_main_v416 m outs c) := rfl
/-! ### Branch 2, layer 0: input main_arg2, embedding main_v438, total main_v439, threshold main_v441, aggregate main_v442, output main_v488, running sum main_v489 -/
theorem sum_h_2_0 : kv_main_v438 m outs c = embed (kv_main_arg2 m outs c) (kv_main_arg14 m outs c) (kv_main_arg15 m outs c) := rfl
theorem sum_mean_2_0 : kv_main_v441 m outs c = meanOf (kv_main_v439 m outs c) := rfl
theorem sum_x_2_0 : kv_main_v488 m outs c = mlp (kv_main_v442 m outs c) (W3at0 (kv_main_arg16 m outs c)) (b3at0 (kv_main_arg17 m outs c)) (b3at0 (kv_main_arg18 m outs c)) := rfl
theorem sum_acc_2_0 : kv_main_v489 m outs c = addf (kv_main_v420 m outs c) (kv_main_v488 m outs c) := rfl
/-! ### Branch 2, layer 1: input main_v488, embedding main_v507, total main_v508, threshold main_v510, aggregate main_v511, output main_v557, running sum main_v558 -/
theorem sum_h_2_1 : kv_main_v507 m outs c = embed (kv_main_v488 m outs c) (kv_main_arg14 m outs c) (kv_main_arg15 m outs c) := rfl
theorem sum_mean_2_1 : kv_main_v510 m outs c = meanOf (kv_main_v508 m outs c) := rfl
theorem sum_x_2_1 : kv_main_v557 m outs c = mlp (kv_main_v511 m outs c) (W3at1 (kv_main_arg16 m outs c)) (b3at1 (kv_main_arg17 m outs c)) (b3at1 (kv_main_arg18 m outs c)) := rfl
theorem sum_acc_2_1 : kv_main_v558 m outs c = addf (kv_main_v489 m outs c) (kv_main_v557 m outs c) := rfl
/-! ### Branch 2, layer 2: input main_v557, embedding main_v576, total main_v577, threshold main_v579, aggregate main_v580, output main_v626, running sum main_v627 -/
theorem sum_h_2_2 : kv_main_v576 m outs c = embed (kv_main_v557 m outs c) (kv_main_arg14 m outs c) (kv_main_arg15 m outs c) := rfl
theorem sum_mean_2_2 : kv_main_v579 m outs c = meanOf (kv_main_v577 m outs c) := rfl
theorem sum_x_2_2 : kv_main_v626 m outs c = mlp (kv_main_v580 m outs c) (W3at2 (kv_main_arg16 m outs c)) (b3at2 (kv_main_arg17 m outs c)) (b3at2 (kv_main_arg18 m outs c)) := rfl
theorem sum_acc_2_2 : kv_main_v627 m outs c = addf (kv_main_v558 m outs c) (kv_main_v626 m outs c) := rfl
/-! ### Branch 3, layer 0: input main_arg3, embedding main_v648, total main_v649, threshold main_v651, aggregate main_v652, output main_v698, running sum main_v699 -/
theorem sum_h_3_0 : kv_main_v648 m outs c = embed (kv_main_arg3 m outs c) (kv_main_arg9 m outs c) (kv_main_arg10 m outs c) := rfl
theorem sum_mean_3_0 : kv_main_v651 m outs c = meanOf (kv_main_v649 m outs c) := rfl
theorem sum_x_3_0 : kv_main_v698 m outs c = mlp (kv_main_v652 m outs c) (W3at0 (kv_main_arg11 m outs c)) (b3at0 (kv_main_arg12 m outs c)) (b3at0 (kv_main_arg13 m outs c)) := rfl
theorem sum_acc_3_0 : kv_main_v699 m outs c = addf (kv_main_v630 m outs c) (kv_main_v698 m outs c) := rfl
/-! ### Branch 3, layer 1: input main_v698, embedding main_v717, total main_v718, threshold main_v720, aggregate main_v721, output main_v767, running sum main_v768 -/
theorem sum_h_3_1 : kv_main_v717 m outs c = embed (kv_main_v698 m outs c) (kv_main_arg9 m outs c) (kv_main_arg10 m outs c) := rfl
theorem sum_mean_3_1 : kv_main_v720 m outs c = meanOf (kv_main_v718 m outs c) := rfl
theorem sum_x_3_1 : kv_main_v767 m outs c = mlp (kv_main_v721 m outs c) (W3at1 (kv_main_arg11 m outs c)) (b3at1 (kv_main_arg12 m outs c)) (b3at1 (kv_main_arg13 m outs c)) := rfl
theorem sum_acc_3_1 : kv_main_v768 m outs c = addf (kv_main_v699 m outs c) (kv_main_v767 m outs c) := rfl
/-! ### Branch 3, layer 2: input main_v767, embedding main_v786, total main_v787, threshold main_v789, aggregate main_v790, output main_v836, running sum main_v837 -/
theorem sum_h_3_2 : kv_main_v786 m outs c = embed (kv_main_v767 m outs c) (kv_main_arg9 m outs c) (kv_main_arg10 m outs c) := rfl
theorem sum_mean_3_2 : kv_main_v789 m outs c = meanOf (kv_main_v787 m outs c) := rfl
theorem sum_x_3_2 : kv_main_v836 m outs c = mlp (kv_main_v790 m outs c) (W3at2 (kv_main_arg11 m outs c)) (b3at2 (kv_main_arg12 m outs c)) (b3at2 (kv_main_arg13 m outs c)) := rfl
theorem sum_acc_3_2 : kv_main_v837 m outs c = addf (kv_main_v768 m outs c) (kv_main_v836 m outs c) := rfl
theorem sum_G_0 : kv_main_v209 m outs c = third (kv_main_v207 m outs c) := rfl
theorem sum_G_1 : kv_main_v419 m outs c = third (kv_main_v417 m outs c) := rfl
theorem sum_G_2 : kv_main_v629 m outs c = third (kv_main_v627 m outs c) := rfl
theorem sum_G_3 : kv_main_v839 m outs c = third (kv_main_v837 m outs c) := rfl
theorem sum_res_0 : kv_main_v843 m outs c = mse (kv_main_v209 m outs c) (kv_main_v839 m outs c) := rfl
theorem sum_res_1 : kv_main_v847 m outs c = mse (kv_main_v419 m outs c) (kv_main_v839 m outs c) := rfl
theorem sum_res_2 : kv_main_v851 m outs c = mse (kv_main_v629 m outs c) (kv_main_v839 m outs c) := rfl

end Cert.KernelIdeal.Hand

end
-- ==== Proof.GinFns.lean ====
import proofs.«169706_j68856915690108_1_alg».proof.Proof.HostFns

/-! The network's layer and branch as functions of the aggregation they use: `sumV` the total of the
    adjacency scores of an embedding, `aggV` the thresholded aggregation of the inputs. -/

noncomputable section

namespace Cert.Hand

open Idealize.ShloMosaic

variable {F : FTy → Type} [FloatOps F]

/-- One layer: embed, total, threshold, aggregate, perceptron. -/
noncomputable def layerG (sumV : T F Sx → T F S11) (aggV : T F S11 → T F Sx → T F Sx → T F Sx)
    (X : T F Sx) (aW : T F Sw2) (ab : T F Sb2) (W : T F Sw2) (b : T F Sb2) (bn : T F Sb2) : T F Sx :=
  mlp (aggV (meanOf (sumV (embed X aW ab))) (embed X aW ab) X) W b bn

/-- One branch: three layers, each fed the previous one's output, averaged. -/
noncomputable def ginG (sumV : T F Sx → T F S11) (aggV : T F S11 → T F Sx → T F Sx → T F Sx)
    (X : T F Sx) (aW : T F Sw2) (ab : T F Sb2) (mW : T F Sw32) (mb : T F Sb32) (mbn : T F Sb32) : T F Sx :=
  third
    (addf
      (addf
        (addf (fill 0x00000000#32)
          (layerG sumV aggV X aW ab (W3at0 mW) (b3at0 mb) (b3at0 mbn)))
        (layerG sumV aggV (layerG sumV aggV X aW ab (W3at0 mW) (b3at0 mb) (b3at0 mbn)) aW ab (W3at1 mW) (b3at1 mb) (b3at1 mbn)))
      (layerG sumV aggV
        (layerG sumV aggV (layerG sumV aggV X aW ab (W3at0 mW) (b3at0 mb) (b3at0 mbn)) aW ab (W3at1 mW) (b3at1 mb) (b3at1 mbn))
        aW ab (W3at2 mW) (b3at2 mb) (b3at2 mbn)))

/-- A layer depends on the aggregation only through the aggregate at the threshold of the total. -/
theorem layerG_congr {sumV sumV' : T F Sx → T F S11} {aggV aggV' : T F S11 → T F Sx → T F Sx → T F Sx}
    (h : ∀ e X, aggV (meanOf (sumV e)) e X = aggV' (meanOf (sumV' e)) e X)
    (X : T F Sx) (aW : T F Sw2) (ab : T F Sb2) (W : T F Sw2) (b : T F Sb2) (bn : T F Sb2) :
    layerG sumV aggV X aW ab W b bn = layerG sumV' aggV' X aW ab W b bn := by
  unfold layerG; rw [h]

theorem ginG_congr {sumV sumV' : T F Sx → T F S11} {aggV aggV' : T F S11 → T F Sx → T F Sx → T F Sx}
    (h : ∀ e X, aggV (meanOf (sumV e)) e X = aggV' (meanOf (sumV' e)) e X)
    (X : T F Sx) (aW : T F Sw2) (ab : T F Sb2) (mW : T F Sw32) (mb : T F Sb32) (mbn : T F Sb32) :
    ginG sumV aggV X aW ab mW mb mbn = ginG sumV' aggV' X aW ab mW mb mbn := by
  unfold ginG; simp only [layerG_congr h]

end Cert.Hand

end
-- ==== Proof.KClosed.lean ====
import proofs.«169706_j68856915690108_1_alg».proof.Proof.KHostSum
import proofs.«169706_j68856915690108_1_alg».proof.Proof.GinFns

set_option maxRecDepth 7604
set_option maxHeartbeats 4000000

noncomputable section

namespace Cert.KernelIdeal.Hand

open Cert.KernelIdeal.Gen Cert.KernelIdeal.GenP Cert.Hand Idealize.ShloMosaic Idealize.ShloMosaic.TcCoe Idealize.SL.Sem

variable {F : FTy → Type} [FloatOps F]

variable (m : (ℓ : Loc nD τ sig) → Buf (Elt F) ℓ) (outs : Outs (F := F)) (c : Dev nD)
variable (sumV : T F Sx → T F S11) (aggV : T F S11 → T F Sx → T F Sx → T F Sx)

theorem cl_tot_0_0 (hS0 : (outs 5 main_v19 c : T F S11) = sumV (V4 m c main_v18 : T F Sx)) :
    kv_main_v19 m outs c = sumV (kv_main_v18 m outs c) := by
  rw [← wr_main_v18 m outs c]; exact hS0

theorem cl_y_0_0 (hA1 : (outs 7 main_v22 c : T F Sx) = aggV (V6 m outs c main_v21 : T F S11) (V6 m outs c main_v18 : T F Sx) (V6 m outs c main_arg0 : T F Sx)) :
    kv_main_v22 m outs c = aggV (kv_main_v21 m outs c) (kv_main_v18 m outs c) (kv_main_arg0 m outs c) := by
  rw [← wr_main_v21 m outs c, ← rd_main_v18_6 m outs c, ← rd_main_arg0_6 m outs c]; exact hA1

theorem cl_x_0_0 (hS0 : (outs 5 main_v19 c : T F S11) = sumV (V4 m c main_v18 : T F Sx)) (hA1 : (outs 7 main_v22 c : T F Sx) = aggV (V6 m outs c main_v21 : T F S11) (V6 m outs c main_v18 : T F Sx) (V6 m outs c main_arg0 : T F Sx)) :
    kv_main_v68 m outs c = layerG sumV aggV (kv_main_arg0 m outs c) (kv_main_arg4 m outs c) (kv_main_arg5 m outs c) (W3at0 (kv_main_arg6 m outs c)) (b3at0 (kv_main_arg7 m outs c)) (b3at0 (kv_main_arg8 m outs c)) := by
  rw [sum_x_0_0, cl_y_0_0 m outs c aggV hA1, sum_mean_0_0, cl_tot_0_0 m outs c sumV hS0, sum_h_0_0]
  rfl

theorem cl_tot_0_1 (hS2 : (outs 16 main_v88 c : T F S11) = sumV (V15 m outs c main_v87 : T F Sx)) :
    kv_main_v88 m outs c = sumV (kv_main_v87 m outs c) := by
  rw [← wr_main_v87 m outs c]; exact hS2

theorem cl_y_0_1 (hA3 : (outs 18 main_v91 c : T F Sx) = aggV (V17 m outs c main_v90 : T F S11) (V17 m outs c main_v87 : T F Sx) (V17 m outs c main_v68 : T F Sx)) :
    kv_main_v91 m outs c = aggV (kv_main_v90 m outs c) (kv_main_v87 m outs c) (kv_main_v68 m outs c) := by
  rw [← wr_main_v90 m outs c, ← rd_main_v87_17 m outs c, ← rd_main_v68_17 m outs c]; exact hA3

theorem cl_x_0_1 (hS2 : (outs 16 main_v88 c : T F S11) = sumV (V15 m outs c main_v87 : T F Sx)) (hA3 : (outs 18 main_v91 c : T F Sx) = aggV (V17 m outs c main_v90 : T F S11) (V17 m outs c main_v87 : T F Sx) (V17 m outs c main_v68 : T F Sx)) :
    kv_main_v137 m outs c = layerG sumV aggV (kv_main_v68 m outs c) (kv_main_arg4 m outs c) (kv_main_arg5 m outs c) (W3at1 (kv_main_arg6 m outs c)) (b3at1 (kv_main_arg7 m outs c)) (b3at1 (kv_main_arg8 m outs c)) := by
  rw [sum_x_0_1, cl_y_0_1 m outs c aggV hA3, sum_mean_0_1, cl_tot_0_1 m outs c sumV hS2, sum_h_0_1]
  rfl

theorem cl_tot_0_2 (hS4 : (outs 27 main_v157 c : T F S11) = sumV (V26 m outs c main_v156 : T F Sx)) :
    kv_main_v157 m outs c = sumV (kv_main_v156 m outs c) := by
  rw [← wr_main_v156 m outs c]; exact hS4

theorem cl_y_0_2 (hA5 : (outs 29 main_v160 c : T F Sx) = aggV (V28 m outs c main_v159 : T F S11) (V28 m outs c main_v156 : T F Sx) (V28 m outs c main_v137 : T F Sx)) :
    kv_main_v160 m outs c = aggV (kv_main_v159 m outs c) (kv_main_v156 m outs c) (kv_main_v137 m outs c) := by
  rw [← wr_main_v159 m outs c, ← rd_main_v156_28 m outs c, ← rd_main_v137_28 m outs c]; exact hA5

theorem cl_x_0_2 (hS4 : (outs 27 main_v157 c : T F S11) = sumV (V26 m outs c main_v156 : T F Sx)) (hA5 : (outs 29 main_v160 c : T F Sx) = aggV (V28 m outs c main_v159 : T F S11) (V28 m outs c main_v156 : T F Sx) (V28 m outs c main_v137 : T F Sx)) :
    kv_main_v206 m outs c = layerG sumV aggV (kv_main_v137 m outs c) (kv_main_arg4 m outs c) (kv_main_arg5 m outs c) (W3at2 (kv_main_arg6 m outs c)) (b3at2 (kv_main_arg7 m outs c)) (b3at2 (kv_main_arg8 m outs c)) := by
  rw [sum_x_0_2, cl_y_0_2 m outs c aggV hA5, sum_mean_0_2, cl_tot_0_2 m outs c sumV hS4, sum_h_0_2]
  rfl

theorem cl_tot_1_0 (hS6 : (outs 38 main_v229 c : T F S11) = sumV (V37 m outs c main_v228 : T F Sx)) :
    kv_main_v229 m outs c = sumV (kv_main_v228 m outs c) := by
  rw [← wr_main_v228 m outs c]; exact hS6

theorem cl_y_1_0 (hA7 : (outs 40 main_v232 c : T F Sx) = aggV (V39 m outs c main_v231 : T F S11) (V39 m outs c main_v228 : T F Sx) (V39 m outs c main_arg1 : T F Sx)) :
    kv_main_v232 m outs c = aggV (kv_main_v231 m outs c) (kv_main_v228 m outs c) (kv_main_arg1 m outs c) := by
  rw [← wr_main_v231 m outs c, ← rd_main_v228_39 m outs c, ← rd_main_arg1_39 m outs c]; exact hA7

theorem cl_x_1_0 (hS6 : (outs 38 main_v229 c : T F S11) = sumV (V37 m outs c main_v228 : T F Sx)) (hA7 : (outs 40 main_v232 c : T F Sx) = aggV (V39 m outs c main_v231 : T F S11) (V39 m outs c main_v228 : T F Sx) (V39 m outs c main_arg1 : T F Sx)) :
    kv_main_v278 m outs c = layerG sumV aggV (kv_main_arg1 m outs c) (kv_main_arg9 m outs c) (kv_main_arg10 m outs c) (W3at0 (kv_main_arg11 m outs c)) (b3at0 (kv_main_arg12 m outs c)) (b3at0 (kv_main_arg13 m outs c)) := by
  rw [sum_x_1_0, cl_y_1_0 m outs c aggV hA7, sum_mean_1_0, cl_tot_1_0 m outs c sumV hS6, sum_h_1_0]
  rfl

theorem cl_tot_1_1 (hS8 : (outs 49 main_v298 c : T F S11) = sumV (V48 m outs c main_v297 : T F Sx)) :
    kv_main_v298 m outs c = sumV (kv_main_v297 m outs c) := by
  rw [← wr_main_v297 m outs c]; exact hS8

theorem cl_y_1_1 (hA9 : (outs 51 main_v301 c : T F Sx) = aggV (V50 m outs c main_v300 : T F S11) (V50 m outs c main_v297 : T F Sx) (V50 m outs c main_v278 : T F Sx)) :
    kv_main_v301 m outs c = aggV (kv_main_v300 m outs c) (kv_main_v297 m outs c) (kv_main_v278 m outs c) := by
  rw [← wr_main_v300 m outs c, ← rd_main_v297_50 m outs c, ← rd_main_v278_50 m outs c]; exact hA9

theorem cl_x_1_1 (hS8 : (outs 49 main_v298 c : T F S11) = sumV (V48 m outs c main_v297 : T F Sx)) (hA9 : (outs 51 main_v301 c : T F Sx) = aggV (V50 m outs c main_v300 : T F S11) (V50 m outs c main_v297 : T F Sx) (V50 m outs c main_v278 : T F Sx)) :
    kv_main_v347 m outs c = layerG sumV aggV (kv_main_v278 m outs c) (kv_main_arg9 m outs c) (kv_main_arg10 m outs c) (W3at1 (kv_main_arg11 m outs c)) (b3at1 (kv_main_arg12 m outs c)) (b3at1 (kv_main_arg13 m outs c)) := by
  rw [sum_x_1_1, cl_y_1_1 m outs c aggV hA9, sum_mean_1_1, cl_tot_1_1 m outs c sumV hS8, sum_h_1_1]
  rfl

theorem cl_tot_1_2 (hS10 : (outs 60 main_v367 c : T F S11) = sumV (V59 m outs c main_v366 : T F Sx)) :
    kv_main_v367 m outs c = sumV (kv_main_v366 m outs c) := by
  rw [← wr_main_v366 m outs c]; exact hS10

theorem cl_y_1_2 (hA11 : (outs 62 main_v370 c : T F Sx) = aggV (V61 m outs c main_v369 : T F S11) (V61 m outs c main_v366 : T F Sx) (V61 m outs c main_v347 : T F Sx)) :
    kv_main_v370 m outs c = aggV (kv_main_v369 m outs c) (kv_main_v366 m outs c) (kv_main_v347 m outs c) := by
  rw [← wr_main_v369 m outs c, ← rd_main_v366_61 m outs c, ← rd_main_v347_61 m outs c]; exact hA11

theorem cl_x_1_2 (hS10 : (outs 60 main_v367 c : T F S11) = sumV (V59 m outs c main_v366 : T F Sx)) (hA11 : (outs 62 main_v370 c : T F Sx) = aggV (V61 m outs c main_v369 : T F S11) (V61 m outs c main_v366 : T F Sx) (V61 m outs c main_v347 : T F Sx)) :
    kv_main_v416 m outs c = layerG sumV aggV (kv_main_v347 m outs c) (kv_main_arg9 m outs c) (kv_main_arg10 m outs c) (W3at2 (kv_main_arg11 m outs c)) (b3at2 (kv_main_arg12 m outs c)) (b3at2 (kv_main_arg13 m outs c)) := by
  rw [sum_x_1_2, cl_y_1_2 m outs c aggV hA11, sum_mean_1_2, cl_tot_1_2 m outs c sumV hS10, sum_h_1_2]
  rfl

theorem cl_tot_2_0 (hS12 : (outs 71 main_v439 c : T F S11) = sumV (V70 m outs c main_v438 : T F Sx)) :
    kv_main_v439 m outs c = sumV (kv_main_v438 m outs c) := by
  rw [← wr_main_v438 m outs c]; exact hS12

theorem cl_y_2_0 (hA13 : (outs 73 main_v442 c : T F Sx) = aggV (V72 m outs c main_v441 : T F S11) (V72 m outs c main_v438 : T F Sx) (V72 m outs c main_arg2 : T F Sx)) :
    kv_main_v442 m outs c = aggV (kv_main_v441 m outs c) (kv_main_v438 m outs c) (kv_main_arg2 m outs c) := by
  rw [← wr_main_v441 m outs c, ← rd_main_v438_72 m outs c, ← rd_main_arg2_72 m outs c]; exact hA13

theorem cl_x_2_0 (hS12 : (outs 71 main_v439 c : T F S11) = sumV (V70 m outs c main_v438 : T F Sx)) (hA13 : (outs 73 main_v442 c : T F Sx) = aggV (V72 m outs c main_v441 : T F S11) (V72 m outs c main_v438 : T F Sx) (V72 m outs c main_arg2 : T F Sx)) :
    kv_main_v488 m outs c = layerG sumV aggV (kv_main_arg2 m outs c) (kv_main_arg14 m outs c) (kv_main_arg15 m outs c) (W3at0 (kv_main_arg16 m outs c)) (b3at0 (kv_main_arg17 m outs c)) (b3at0 (kv_main_arg18 m outs c)) := by
  rw [sum_x_2_0, cl_y_2_0 m outs c aggV hA13, sum_mean_2_0, cl_tot_2_0 m outs c sumV hS12, sum_h_2_0]
  rfl

theorem cl_tot_2_1 (hS14 : (outs 82 main_v508 c : T F S11) = sumV (V81 m outs c main_v507 : T F Sx)) :
    kv_main_v508 m outs c = sumV (kv_main_v507 m outs c) := by
  rw [← wr_main_v507 m outs c]; exact hS14

theorem cl_y_2_1 (hA15 : (outs 84 main_v511 c : T F Sx) = aggV (V83 m outs c main_v510 : T F S11) (V83 m outs c main_v507 : T F Sx) (V83 m outs c main_v488 : T F Sx)) :
    kv_main_v511 m outs c = aggV (kv_main_v510 m outs c) (kv_main_v507 m outs c) (kv_main_v488 m outs c) := by
  rw [← wr_main_v510 m outs c, ← rd_main_v507_83 m outs c, ← rd_main_v488_83 m outs c]; exact hA15

theorem cl_x_2_1 (hS14 : (outs 82 main_v508 c : T F S11) = sumV (V81 m outs c main_v507 : T F Sx)) (hA15 : (outs 84 main_v511 c : T F Sx) = aggV (V83 m outs c main_v510 : T F S11) (V83 m outs c main_v507 : T F Sx) (V83 m outs c main_v488 : T F Sx)) :
    kv_main_v557 m outs c = layerG sumV aggV (kv_main_v488 m outs c) (kv_main_arg14 m outs c) (kv_main_arg15 m outs c) (W3at1 (kv_main_arg16 m outs c)) (b3at1 (kv_main_arg17 m outs c)) (b3at1 (kv_main_arg18 m outs c)) := by
  rw [sum_x_2_1, cl_y_2_1 m outs c aggV hA15, sum_mean_2_1, cl_tot_2_1 m outs c sumV hS14, sum_h_2_1]
  rfl

theorem cl_tot_2_2 (hS16 : (outs 93 main_v577 c : T F S11) = sumV (V92 m outs c main_v576 : T F Sx)) :
    kv_main_v577 m outs c = sumV (kv_main_v576 m outs c) := by
  rw [← wr_main_v576 m outs c]; exact hS16

theorem cl_y_2_2 (hA17 : (outs 95 main_v580 c : T F Sx) = aggV (V94 m outs c main_v579 : T F S11) (V94 m outs c main_v576 : T F Sx) (V94 m outs c main_v557 : T F Sx)) :
    kv_main_v580 m outs c = aggV (kv_main_v579 m outs c) (kv_main_v576 m outs c) (kv_main_v557 m outs c) := by
  rw [← wr_main_v579 m outs c, ← rd_main_v576_94 m outs c, ← rd_main_v557_94 m outs c]; exact hA17

theorem cl_x_2_2 (hS16 : (outs 93 main_v577 c : T F S11) = sumV (V92 m outs c main_v576 : T F Sx)) (hA17 : (outs 95 main_v580 c : T F Sx) = aggV (V94 m outs c main_v579 : T F S11) (V94 m outs c main_v576 : T F Sx) (V94 m outs c main_v557 : T F Sx)) :
    kv_main_v626 m outs c = layerG sumV aggV (kv_main_v557 m outs c) (kv_main_arg14 m outs c) (kv_main_arg15 m outs c) (W3at2 (kv_main_arg16 m outs c)) (b3at2 (kv_main_arg17 m outs c)) (b3at2 (kv_main_arg18 m outs c)) := by
  rw [sum_x_2_2, cl_y_2_2 m outs c aggV hA17, sum_mean_2_2, cl_tot_2_2 m outs c sumV hS16, sum_h_2_2]
  rfl

theorem cl_tot_3_0 (hS18 : (outs 104 main_v649 c : T F S11) = sumV (V103 m outs c main_v648 : T F Sx)) :
    kv_main_v649 m outs c = sumV (kv_main_v648 m outs c) := by
  rw [← wr_main_v648 m outs c]; exact hS18

theorem cl_y_3_0 (hA19 : (outs 106 main_v652 c : T F Sx) = aggV (V105 m outs c main_v651 : T F S11) (V105 m outs c main_v648 : T F Sx) (V105 m outs c main_arg3 : T F Sx)) :
    kv_main_v652 m outs c = aggV (kv_main_v651 m outs c) (kv_main_v648 m outs c) (kv_main_arg3 m outs c) := by
  rw [← wr_main_v651 m outs c, ← rd_main_v648_105 m outs c, ← rd_main_arg3_105 m outs c]; exact hA19

theorem cl_x_3_0 (hS18 : (outs 104 main_v649 c : T F S11) = sumV (V103 m outs c main_v648 : T F Sx)) (hA19 : (outs 106 main_v652 c : T F Sx) = aggV (V105 m outs c main_v651 : T F S11) (V105 m outs c main_v648 : T F Sx) (V105 m outs c main_arg3 : T F Sx)) :
    kv_main_v698 m outs c = layerG sumV aggV (kv_main_arg3 m outs c) (kv_main_arg9 m outs c) (kv_main_arg10 m outs c) (W3at0 (kv_main_arg11 m outs c)) (b3at0 (kv_main_arg12 m outs c)) (b3at0 (kv_main_arg13 m outs c)) := by
  rw [sum_x_3_0, cl_y_3_0 m outs c aggV hA19, sum_mean_3_0, cl_tot_3_0 m outs c sumV hS18, sum_h_3_0]
  rfl

theorem cl_tot_3_1 (hS20 : (outs 115 main_v718 c : T F S11) = sumV (V114 m outs c main_v717 : T F Sx)) :
    kv_main_v718 m outs c = sumV (kv_main_v717 m outs c) := by
  rw [← wr_main_v717 m outs c]; exact hS20

theorem cl_y_3_1 (hA21 : (outs 117 main_v721 c : T F Sx) = aggV (V116 m outs c main_v720 : T F S11) (V116 m outs c main_v717 : T F Sx) (V116 m outs c main_v698 : T F Sx)) :
    kv_main_v721 m outs c = aggV (kv_main_v720 m outs c) (kv_main_v717 m outs c) (kv_main_v698 m outs c) := by
  rw [← wr_main_v720 m outs c, ← rd_main_v717_116 m outs c, ← rd_main_v698_116 m outs c]; exact hA21

theorem cl_x_3_1 (hS20 : (outs 115 main_v718 c : T F S11) = sumV (V114 m outs c main_v717 : T F Sx)) (hA21 : (outs 117 main_v721 c : T F Sx) = aggV (V116 m outs c main_v720 : T F S11) (V116 m outs c main_v717 : T F Sx) (V116 m outs c main_v698 : T F Sx)) :
    kv_main_v767 m outs c = layerG sumV aggV (kv_main_v698 m outs c) (kv_main_arg9 m outs c) (kv_main_arg10 m outs c) (W3at1 (kv_main_arg11 m outs c)) (b3at1 (kv_main_arg12 m outs c)) (b3at1 (kv_main_arg13 m outs c)) := by
  rw [sum_x_3_1, cl_y_3_1 m outs c aggV hA21, sum_mean_3_1, cl_tot_3_1 m outs c sumV hS20, sum_h_3_1]
  rfl

theorem cl_tot_3_2 (hS22 : (outs 126 main_v787 c : T F S11) = sumV (V125 m outs c main_v786 : T F Sx)) :
    kv_main_v787 m outs c = sumV (kv_main_v786 m outs c) := by
  rw [← wr_main_v786 m outs c]; exact hS22

theorem cl_y_3_2 (hA23 : (outs 128 main_v790 c : T F Sx) = aggV (V127 m outs c main_v789 : T F S11) (V127 m outs c main_v786 : T F Sx) (V127 m outs c main_v767 : T F Sx)) :
    kv_main_v790 m outs c = aggV (kv_main_v789 m outs c) (kv_main_v786 m outs c) (kv_main_v767 m outs c) := by
  rw [← wr_main_v789 m outs c, ← rd_main_v786_127 m outs c, ← rd_main_v767_127 m outs c]; exact hA23

theorem cl_x_3_2 (hS22 : (outs 126 main_v787 c : T F S11) = sumV (V125 m outs c main_v786 : T F Sx)) (hA23 : (outs 128 main_v790 c : T F Sx) = aggV (V127 m outs c main_v789 : T F S11) (V127 m outs c main_v786 : T F Sx) (V127 m outs c main_v767 : T F Sx)) :
    kv_main_v836 m outs c = layerG sumV aggV (kv_main_v767 m outs c) (kv_main_arg9 m outs c) (kv_main_arg10 m outs c) (W3at2 (kv_main_arg11 m outs c)) (b3at2 (kv_main_arg12 m outs c)) (b3at2 (kv_main_arg13 m outs c)) := by
  rw [sum_x_3_2, cl_y_3_2 m outs c aggV hA23, sum_mean_3_2, cl_tot_3_2 m outs c sumV hS22, sum_h_3_2]
  rfl

theorem cl_G_0 (hS0 : (outs 5 main_v19 c : T F S11) = sumV (V4 m c main_v18 : T F Sx))
    (hA1 : (outs 7 main_v22 c : T F Sx) = aggV (V6 m outs c main_v21 : T F S11) (V6 m outs c main_v18 : T F Sx) (V6 m outs c main_arg0 : T F Sx))
    (hS2 : (outs 16 main_v88 c : T F S11) = sumV (V15 m outs c main_v87 : T F Sx))
    (hA3 : (outs 18 main_v91 c : T F Sx) = aggV (V17 m outs c main_v90 : T F S11) (V17 m outs c main_v87 : T F Sx) (V17 m outs c main_v68 : T F Sx))
    (hS4 : (outs 27 main_v157 c : T F S11) = sumV (V26 m outs c main_v156 : T F Sx))
    (hA5 : (outs 29 main_v160 c : T F Sx) = aggV (V28 m outs c main_v159 : T F S11) (V28 m outs c main_v156 : T F Sx) (V28 m outs c main_v137 : T F Sx)) :
    kv_main_v209 m outs c = ginG sumV aggV (kv_main_arg0 m outs c) (kv_main_arg4 m outs c) (kv_main_arg5 m outs c) (kv_main_arg6 m outs c) (kv_main_arg7 m outs c) (kv_main_arg8 m outs c) := by
  rw [sum_G_0, sum_acc_0_2, sum_acc_0_1, sum_acc_0_0, sum_zeros_main_v0,
    cl_x_0_2 m outs c sumV aggV hS4 hA5,
    cl_x_0_1 m outs c sumV aggV hS2 hA3,
    cl_x_0_0 m outs c sumV aggV hS0 hA1]
  rfl

theorem cl_G_1 (hS6 : (outs 38 main_v229 c : T F S11) = sumV (V37 m outs c main_v228 : T F Sx))
    (hA7 : (outs 40 main_v232 c : T F Sx) = aggV (V39 m outs c main_v231 : T F S11) (V39 m outs c main_v228 : T F Sx) (V39 m outs c main_arg1 : T F Sx))
    (hS8 : (outs 49 main_v298 c : T F S11) = sumV (V48 m outs c main_v297 : T F Sx))
    (hA9 : (outs 51 main_v301 c : T F Sx) = aggV (V50 m outs c main_v300 : T F S11) (V50 m outs c main_v297 : T F Sx) (V50 m outs c main_v278 : T F Sx))
    (hS10 : (outs 60 main_v367 c : T F S11) = sumV (V59 m outs c main_v366 : T F Sx))
    (hA11 : (outs 62 main_v370 c : T F Sx) = aggV (V61 m outs c main_v369 : T F S11) (V61 m outs c main_v366 : T F Sx) (V61 m outs c main_v347 : T F Sx)) :
    kv_main_v419 m outs c = ginG sumV aggV (kv_main_arg1 m outs c) (kv_main_arg9 m outs c) (kv_main_arg10 m outs c) (kv_main_arg11 m outs c) (kv_main_arg12 m outs c) (kv_main_arg13 m outs c) := by
  rw [sum_G_1, sum_acc_1_2, sum_acc_1_1, sum_acc_1_0, sum_zeros_main_v210,
    cl_x_1_2 m outs c sumV aggV hS10 hA11,
    cl_x_1_1 m outs c sumV aggV hS8 hA9,
    cl_x_1_0 m outs c sumV aggV hS6 hA7]
  rfl

theorem cl_G_2 (hS12 : (outs 71 main_v439 c : T F S11) = sumV (V70 m outs c main_v438 : T F Sx))
    (hA13 : (outs 73 main_v442 c : T F Sx) = aggV (V72 m outs c main_v441 : T F S11) (V72 m outs c main_v438 : T F Sx) (V72 m outs c main_arg2 : T F Sx))
    (hS14 : (outs 82 main_v508 c : T F S11) = sumV (V81 m outs c main_v507 : T F Sx))
    (hA15 : (outs 84 main_v511 c : T F Sx) = aggV (V83 m outs c main_v510 : T F S11) (V83 m outs c main_v507 : T F Sx) (V83 m outs c main_v488 : T F Sx))
    (hS16 : (outs 93 main_v577 c : T F S11) = sumV (V92 m outs c main_v576 : T F Sx))
    (hA17 : (outs 95 main_v580 c : T F Sx) = aggV (V94 m outs c main_v579 : T F S11) (V94 m outs c main_v576 : T F Sx) (V94 m outs c main_v557 : T F Sx)) :
    kv_main_v629 m outs c = ginG sumV aggV (kv_main_arg2 m outs c) (kv_main_arg14 m outs c) (kv_main_arg15 m outs c) (kv_main_arg16 m outs c) (kv_main_arg17 m outs c) (kv_main_arg18 m outs c) := by
  rw [sum_G_2, sum_acc_2_2, sum_acc_2_1, sum_acc_2_0, sum_zeros_main_v420,
    cl_x_2_2 m outs c sumV aggV hS16 hA17,
    cl_x_2_1 m outs c sumV aggV hS14 hA15,
    cl_x_2_0 m outs c sumV aggV hS12 hA13]
  rfl

theorem cl_G_3 (hS18 : (outs 104 main_v649 c : T F S11) = sumV (V103 m outs c main_v648 : T F Sx))
    (hA19 : (outs 106 main_v652 c : T F Sx) = aggV (V105 m outs c main_v651 : T F S11) (V105 m outs c main_v648 : T F Sx) (V105 m outs c main_arg3 : T F Sx))
    (hS20 : (outs 115 main_v718 c : T F S11) = sumV (V114 m outs c main_v717 : T F Sx))
    (hA21 : (outs 117 main_v721 c : T F Sx) = aggV (V116 m outs c main_v720 : T F S11) (V116 m outs c main_v717 : T F Sx) (V116 m outs c main_v698 : T F Sx))
    (hS22 : (outs 126 main_v787 c : T F S11) = sumV (V125 m outs c main_v786 : T F Sx))
    (hA23 : (outs 128 main_v790 c : T F Sx) = aggV (V127 m outs c main_v789 : T F S11) (V127 m outs c main_v786 : T F Sx) (V127 m outs c main_v767 : T F Sx)) :
    kv_main_v839 m outs c = ginG sumV aggV (kv_main_arg3 m outs c) (kv_main_arg9 m outs c) (kv_main_arg10 m outs c) (kv_main_arg11 m outs c) (kv_main_arg12 m outs c) (kv_main_arg13 m outs c) := by
  rw [sum_G_3, sum_acc_3_2, sum_acc_3_1, sum_acc_3_0, sum_zeros_main_v630,
    cl_x_3_2 m outs c sumV aggV hS22 hA23,
    cl_x_3_1 m outs c sumV aggV hS20 hA21,
    cl_x_3_0 m outs c sumV aggV hS18 hA19]
  rfl

/-- The three results as the network's functions of the arguments as launched, given that every region leaves the total
    (even regions) resp. the thresholded aggregate (odd regions) of what it finds. -/
theorem kvalues
    (hS0 : (outs 5 main_v19 c : T F S11) = sumV (V4 m c main_v18 : T F Sx))
    (hA1 : (outs 7 main_v22 c : T F Sx) = aggV (V6 m outs c main_v21 : T F S11) (V6 m outs c main_v18 : T F Sx) (V6 m outs c main_arg0 : T F Sx))
    (hS2 : (outs 16 main_v88 c : T F S11) = sumV (V15 m outs c main_v87 : T F Sx))
    (hA3 : (outs 18 main_v91 c : T F Sx) = aggV (V17 m outs c main_v90 : T F S11) (V17 m outs c main_v87 : T F Sx) (V17 m outs c main_v68 : T F Sx))
    (hS4 : (outs 27 main_v157 c : T F S11) = sumV (V26 m outs c main_v156 : T F Sx))
    (hA5 : (outs 29 main_v160 c : T F Sx) = aggV (V28 m outs c main_v159 : T F S11) (V28 m outs c main_v156 : T F Sx) (V28 m outs c main_v137 : T F Sx))
    (hS6 : (outs 38 main_v229 c : T F S11) = sumV (V37 m outs c main_v228 : T F Sx))
    (hA7 : (outs 40 main_v232 c : T F Sx) = aggV (V39 m outs c main_v231 : T F S11) (V39 m outs c main_v228 : T F Sx) (V39 m outs c main_arg1 : T F Sx))
    (hS8 : (outs 49 main_v298 c : T F S11) = sumV (V48 m outs c main_v297 : T F Sx))
    (hA9 : (outs 51 main_v301 c : T F Sx) = aggV (V50 m outs c main_v300 : T F S11) (V50 m outs c main_v297 : T F Sx) (V50 m outs c main_v278 : T F Sx))
    (hS10 : (outs 60 main_v367 c : T F S11) = sumV (V59 m outs c main_v366 : T F Sx))
    (hA11 : (outs 62 main_v370 c : T F Sx) = aggV (V61 m outs c main_v369 : T F S11) (V61 m outs c main_v366 : T F Sx) (V61 m outs c main_v347 : T F Sx))
    (hS12 : (outs 71 main_v439 c : T F S11) = sumV (V70 m outs c main_v438 : T F Sx))
    (hA13 : (outs 73 main_v442 c : T F Sx) = aggV (V72 m outs c main_v441 : T F S11) (V72 m outs c main_v438 : T F Sx) (V72 m outs c main_arg2 : T F Sx))
    (hS14 : (outs 82 main_v508 c : T F S11) = sumV (V81 m outs c main_v507 : T F Sx))
    (hA15 : (outs 84 main_v511 c : T F Sx) = aggV (V83 m outs c main_v510 : T F S11) (V83 m outs c main_v507 : T F Sx) (V83 m outs c main_v488 : T F Sx))
    (hS16 : (outs 93 main_v577 c : T F S11) = sumV (V92 m outs c main_v576 : T F Sx))
    (hA17 : (outs 95 main_v580 c : T F Sx) = aggV (V94 m outs c main_v579 : T F S11) (V94 m outs c main_v576 : T F Sx) (V94 m outs c main_v557 : T F Sx))
    (hS18 : (outs 104 main_v649 c : T F S11) = sumV (V103 m outs c main_v648 : T F Sx))
    (hA19 : (outs 106 main_v652 c : T F Sx) = aggV (V105 m outs c main_v651 : T F S11) (V105 m outs c main_v648 : T F Sx) (V105 m outs c main_arg3 : T F Sx))
    (hS20 : (outs 115 main_v718 c : T F S11) = sumV (V114 m outs c main_v717 : T F Sx))
    (hA21 : (outs 117 main_v721 c : T F Sx) = aggV (V116 m outs c main_v720 : T F S11) (V116 m outs c main_v717 : T F Sx) (V116 m outs c main_v698 : T F Sx))
    (hS22 : (outs 126 main_v787 c : T F S11) = sumV (V125 m outs c main_v786 : T F Sx))
    (hA23 : (outs 128 main_v790 c : T F Sx) = aggV (V127 m outs c main_v789 : T F S11) (V127 m outs c main_v786 : T F Sx) (V127 m outs c main_v767 : T F Sx)) :
    (V133 m outs c main_v843 : T F S0) = mse (ginG sumV aggV (m ((c : Thread nD τ).loc main_arg0) : T F Sx) (m ((c : Thread nD τ).loc main_arg4) : T F Sw2) (m ((c : Thread nD τ).loc main_arg5) : T F Sb2) (m ((c : Thread nD τ).loc main_arg6) : T F Sw32) (m ((c : Thread nD τ).loc main_arg7) : T F Sb32) (m ((c : Thread nD τ).loc main_arg8) : T F Sb32)) (ginG sumV aggV (m ((c : Thread nD τ).loc main_arg3) : T F Sx) (m ((c : Thread nD τ).loc main_arg9) : T F Sw2) (m ((c : Thread nD τ).loc main_arg10) : T F Sb2) (m ((c : Thread nD τ).loc main_arg11) : T F Sw32) (m ((c : Thread nD τ).loc main_arg12) : T F Sb32) (m ((c : Thread nD τ).loc main_arg13) : T F Sb32))
    ∧ (V133 m outs c main_v847 : T F S0) = mse (ginG sumV aggV (m ((c : Thread nD τ).loc main_arg1) : T F Sx) (m ((c : Thread nD τ).loc main_arg9) : T F Sw2) (m ((c : Thread nD τ).loc main_arg10) : T F Sb2) (m ((c : Thread nD τ).loc main_arg11) : T F Sw32) (m ((c : Thread nD τ).loc main_arg12) : T F Sb32) (m ((c : Thread nD τ).loc main_arg13) : T F Sb32)) (ginG sumV aggV (m ((c : Thread nD τ).loc main_arg3) : T F Sx) (m ((c : Thread nD τ).loc main_arg9) : T F Sw2) (m ((c : Thread nD τ).loc main_arg10) : T F Sb2) (m ((c : Thread nD τ).loc main_arg11) : T F Sw32) (m ((c : Thread nD τ).loc main_arg12) : T F Sb32) (m ((c : Thread nD τ).loc main_arg13) : T F Sb32))
    ∧ (V133 m outs c main_v851 : T F S0) = mse (ginG sumV aggV (m ((c : Thread nD τ).loc main_arg2) : T F Sx) (m ((c : Thread nD τ).loc main_arg14) : T F Sw2) (m ((c : Thread nD τ).loc main_arg15) : T F Sb2) (m ((c : Thread nD τ).loc main_arg16) : T F Sw32) (m ((c : Thread nD τ).loc main_arg17) : T F Sb32) (m ((c : Thread nD τ).loc main_arg18) : T F Sb32)) (ginG sumV aggV (m ((c : Thread nD τ).loc main_arg3) : T F Sx) (m ((c : Thread nD τ).loc main_arg9) : T F Sw2) (m ((c : Thread nD τ).loc main_arg10) : T F Sb2) (m ((c : Thread nD τ).loc main_arg11) : T F Sw32) (m ((c : Thread nD τ).loc main_arg12) : T F Sb32) (m ((c : Thread nD τ).loc main_arg13) : T F Sb32)) := by
  refine ⟨?_, ?_, ?_⟩
  · rw [wr_main_v843 m outs c, sum_res_0, cl_G_0 m outs c sumV aggV hS0 hA1 hS2 hA3 hS4 hA5, cl_G_3 m outs c sumV aggV hS18 hA19 hS20 hA21 hS22 hA23]
    rfl
  · rw [wr_main_v847 m outs c, sum_res_1, cl_G_1 m outs c sumV aggV hS6 hA7 hS8 hA9 hS10 hA11, cl_G_3 m outs c sumV aggV hS18 hA19 hS20 hA21 hS22 hA23]
    rfl
  · rw [wr_main_v851 m outs c, sum_res_2, cl_G_2 m outs c sumV aggV hS12 hA13 hS14 hA15 hS16 hA17, cl_G_3 m outs c sumV aggV hS18 hA19 hS20 hA21 hS22 hA23]
    rfl

end Cert.KernelIdeal.Hand

end
-- ==== Proof.RefAgg.lean ====
/-
  The reference's aggregate stage, read at an index, at the ideal values.

  From the hidden features `h : [4096, 256]` and the node features `X : [4096, 256]` the reference forms the Gram
  matrix `adj = h · hᵀ`, its mean `(∑ adj) / 2²⁴`, the 0/1 matrix `adj > mean`, adds the identity matrix, and
  multiplies by `X`. This file writes that stage as the composition of the program's own host operations
  (`aggR`) and reads each piece at an index: the Gram matrix as a sum of products over the 256 features, the mean
  as the triple sum divided by 2²⁴, the identity matrix as `if r = c then 1 else 0`, and the result as
  `∑ c, ((if adj r c > mean then 1 else 0) + (if r = c then 1 else 0)) * X c d`.
-/
import proofs.«169706_j68856915690108_1_alg».proof.ReferenceIdeal
import Idealize.ShloMosaic.PureOps.Ideal.Laws
import Idealize.ShloMosaic.Lib.ValueIdx
import Idealize.ShloMosaic.Lib.ValueLayout
import Idealize.ShloMosaic.Lib.StableHlo.Predicate
import Idealize.ShloMosaic.Lib.IdealHost

noncomputable section

namespace Cert.ReferenceIdeal.Hand

open Idealize.ShloMosaic Idealize.ShloMosaic.ValueIdx
open Cert.ReferenceIdeal
open scoped BigOperators

variable [Facts₀]
open Facts₀

/-! ## The stage as the program's operations -/

/-- The identity matrix as the program builds it: the row number (plus the zero word) compared with the column
    number, the bit converted to a float. -/
def eyeR : FVec Ideal S4096x4096 .f32 :=
  uitofp .f32
    (cmpi .eq
      (addi (iotaInDim S4096x4096 32 0) (broadcastInDim S4096x4096 ![] bcast_S_S4096x4096 (constantI S_ 32 0#32)))
      (iotaInDim S4096x4096 32 1))

/-- The Gram matrix `h · hᵀ`: the product of `h` with its transpose. -/
def adjR (h : FVec Ideal S4096x256 .f32) : FVec Ideal S4096x4096 .f32 :=
  Host.dotGeneral dot_S4096x256_S256x4096_S4096x4096_1_0_0_1_n_n none h
    (transpose S256x4096 [1, 0] h transposes_S4096x256_S256x4096_1_0)

/-- The sum of every entry of the Gram matrix, from the zero word. -/
def sumR (h : FVec Ideal S4096x256 .f32) : FVec Ideal S_ .f32 :=
  Host.reduceAdd (adjR h) (constant S_ .f32 0x00000000#32) reducesTo_S4096x4096_S_d0_1 h_S_

/-- The mean of the Gram matrix: the sum divided by the word of 2²⁴. -/
def meanR (h : FVec Ideal S4096x256 .f32) : FVec Ideal S_ .f32 :=
  Host.divf (sumR h) (constant S_ .f32 0x4B800000#32)

/-- The 0/1 matrix "the Gram entry is above the mean". -/
def maskR (h : FVec Ideal S4096x256 .f32) : FVec Ideal S4096x4096 .f32 :=
  uitofp .f32 (cmpf .ogt (adjR h) (broadcastInDim S4096x4096 ![] bcast_S_S4096x4096 (meanR h)))

/-- The aggregate: (mask + 1.0 · identity) · X. -/
def aggR (h X : FVec Ideal S4096x256 .f32) : FVec Ideal S4096x256 .f32 :=
  Host.dotGeneral dot_S4096x4096_S4096x256_S4096x256_1_0_0_1_n_n none
    (addf (maskR h)
      (mulf (broadcastInDim S4096x4096 ![] bcast_S_S4096x4096 (constant S_ .f32 0x3F800000#32)) eyeR))
    X

/-! ## The Gram product's operand indices, axis by axis

At result index `(r, s)` and contraction position `k` the left operand is read at `(r, k)` and the right one (the
transpose) at `(k, s)`. -/

theorem lhs_adj_0 (i : S4096x4096.Idx) (q : dot_S4096x256_S256x4096_S4096x4096_1_0_0_1_n_n.contr.Idx) :
    (dot_S4096x256_S256x4096_S4096x4096_1_0_0_1_n_n.lhsIdx i q 0).val = (i 0).val := by
  unfold DotDims.lhsIdx
  rw [dif_neg (show ¬(0 : Fin S4096x256.rank) ∈ dot_S4096x256_S256x4096_S4096x4096_1_0_0_1_n_n.lhsBatch from List.not_mem_nil),
    dif_pos (show (0 : Fin S4096x256.rank) ∈ dot_S4096x256_S256x4096_S4096x4096_1_0_0_1_n_n.lhsNonContracting from List.mem_singleton.mpr rfl)]
  rfl

theorem lhs_adj_1 (i : S4096x4096.Idx) (q : dot_S4096x256_S256x4096_S4096x4096_1_0_0_1_n_n.contr.Idx) :
    (dot_S4096x256_S256x4096_S4096x4096_1_0_0_1_n_n.lhsIdx i q 1).val = (q ⟨0, Nat.one_pos⟩).val :=
  dot_S4096x256_S256x4096_S4096x4096_1_0_0_1_n_n.lhsIdx_val_of_single rfl i q

theorem rhs_adj_0 (i : S4096x4096.Idx) (q : dot_S4096x256_S256x4096_S4096x4096_1_0_0_1_n_n.contr.Idx) :
    (dot_S4096x256_S256x4096_S4096x4096_1_0_0_1_n_n.rhsIdx i q 0).val = (q ⟨0, Nat.one_pos⟩).val :=
  dot_S4096x256_S256x4096_S4096x4096_1_0_0_1_n_n.rhsIdx_val_of_single rfl i q

theorem rhs_adj_1 (i : S4096x4096.Idx) (q : dot_S4096x256_S256x4096_S4096x4096_1_0_0_1_n_n.contr.Idx) :
    (dot_S4096x256_S256x4096_S4096x4096_1_0_0_1_n_n.rhsIdx i q 1).val = (i 1).val := by
  unfold DotDims.rhsIdx
  rw [dif_neg (show ¬(1 : Fin S256x4096.rank) ∈ dot_S4096x256_S256x4096_S4096x4096_1_0_0_1_n_n.rhsBatch from List.not_mem_nil),
    dif_pos (show (1 : Fin S256x4096.rank) ∈ dot_S4096x256_S256x4096_S4096x4096_1_0_0_1_n_n.rhsNonContracting from List.mem_singleton.mpr rfl)]
  rfl

/-! ## The aggregate product's operand indices, axis by axis

At result index `(r, d)` and contraction position `c` the left operand is read at `(r, c)` and `X` at `(c, d)`. -/

theorem lhs_agg_0 (i : S4096x256.Idx) (q : dot_S4096x4096_S4096x256_S4096x256_1_0_0_1_n_n.contr.Idx) :
    (dot_S4096x4096_S4096x256_S4096x256_1_0_0_1_n_n.lhsIdx i q 0).val = (i 0).val := by
  unfold DotDims.lhsIdx
  rw [dif_neg (show ¬(0 : Fin S4096x4096.rank) ∈ dot_S4096x4096_S4096x256_S4096x256_1_0_0_1_n_n.lhsBatch from List.not_mem_nil),
    dif_pos (show (0 : Fin S4096x4096.rank) ∈ dot_S4096x4096_S4096x256_S4096x256_1_0_0_1_n_n.lhsNonContracting from List.mem_singleton.mpr rfl)]
  rfl

theorem lhs_agg_1 (i : S4096x256.Idx) (q : dot_S4096x4096_S4096x256_S4096x256_1_0_0_1_n_n.contr.Idx) :
    (dot_S4096x4096_S4096x256_S4096x256_1_0_0_1_n_n.lhsIdx i q 1).val = (q ⟨0, Nat.one_pos⟩).val :=
  dot_S4096x4096_S4096x256_S4096x256_1_0_0_1_n_n.lhsIdx_val_of_single rfl i q

theorem rhs_agg_0 (i : S4096x256.Idx) (q : dot_S4096x4096_S4096x256_S4096x256_1_0_0_1_n_n.contr.Idx) :
    (dot_S4096x4096_S4096x256_S4096x256_1_0_0_1_n_n.rhsIdx i q 0).val = (q ⟨0, Nat.one_pos⟩).val :=
  dot_S4096x4096_S4096x256_S4096x256_1_0_0_1_n_n.rhsIdx_val_of_single rfl i q

theorem rhs_agg_1 (i : S4096x256.Idx) (q : dot_S4096x4096_S4096x256_S4096x256_1_0_0_1_n_n.contr.Idx) :
    (dot_S4096x4096_S4096x256_S4096x256_1_0_0_1_n_n.rhsIdx i q 1).val = (i 1).val := by
  unfold DotDims.rhsIdx
  rw [dif_neg (show ¬(1 : Fin S4096x256.rank) ∈ dot_S4096x4096_S4096x256_S4096x256_1_0_0_1_n_n.rhsBatch from List.not_mem_nil),
    dif_pos (show (1 : Fin S4096x256.rank) ∈ dot_S4096x4096_S4096x256_S4096x256_1_0_0_1_n_n.rhsNonContracting from List.mem_singleton.mpr rfl)]
  rfl

/-! ## Read at an index -/

/-- The Gram matrix at `(r, s)`: the sum over the features of the products. -/
theorem adjR_apply (h : FVec Ideal S4096x256 .f32) (r s : Fin 4096) :
    adjR h (ix2 r s) = ∑ k : Fin 256, h (ix2 r k) * h (ix2 s k) := by
  unfold adjR
  simp only [Host.dotGeneral]
  rw [Ideal.dotGeneral_apply,
    ← Equiv.sum_comp (ValueIdx.contrEquiv1 dot_S4096x256_S256x4096_S4096x4096_1_0_0_1_n_n 256 rfl rfl).symm]
  refine Finset.sum_congr rfl fun k _ => ?_
  have hk := ValueIdx.contrEquiv1_symm_val dot_S4096x256_S256x4096_S4096x4096_1_0_0_1_n_n 256 rfl rfl k
  have el : dot_S4096x256_S256x4096_S4096x4096_1_0_0_1_n_n.lhsIdx (ix2 r s)
      ((ValueIdx.contrEquiv1 dot_S4096x256_S256x4096_S4096x4096_1_0_0_1_n_n 256 rfl rfl).symm k) = ix2 r k :=
    funext fun a => Fin.ext (by
      match a with
      | ⟨0, _⟩ => exact lhs_adj_0 _ _
      | ⟨1, _⟩ => exact (lhs_adj_1 _ _).trans hk)
  have er : dot_S4096x256_S256x4096_S4096x4096_1_0_0_1_n_n.rhsIdx (ix2 r s)
      ((ValueIdx.contrEquiv1 dot_S4096x256_S256x4096_S4096x4096_1_0_0_1_n_n 256 rfl rfl).symm k) = ix2 k s :=
    funext fun a => Fin.ext (by
      match a with
      | ⟨0, _⟩ => exact (rhs_adj_0 _ _).trans hk
      | ⟨1, _⟩ => exact rhs_adj_1 _ _)
  rw [el, er, transpose_ix2_apply]

/-- The sum of the Gram matrix, at the scalar's one index: the zero word contributes nothing, and the sum over the
    matrix's indices is the double sum over rows and columns. -/
theorem sumR_apply (h : FVec Ideal S4096x256 .f32) :
    sumR h ix0 = ∑ r : Fin 4096, ∑ s : Fin 4096, ∑ k : Fin 256, h (ix2 r k) * h (ix2 s k) := by
  unfold sumR
  rw [hostReduceAdd_apply,
    Ideal.hostReduceAdd_total reducesTo_S4096x4096_S_d0_1 (fun b => b.elim0), constant_apply,
    Ideal.ofBits_zero_f32, zero_add, sum_idx2]
  simp only [adjR_apply]

/-- The word `0x4B800000` is 2²⁴. -/
theorem ofBits_two24 : Ideal.ofBits .f32 0x4B800000#32 = (16777216 : EReal) := by
  rw [show (16777216 : EReal) = ((16777216 : ℝ) : EReal) by norm_cast]
  simp [Ideal.ofBits, Ideal.ieee, -EReal.coe_mul]; norm_num

/-- Division by the word of 2²⁴ is the extended reals' division by 2²⁴. -/
theorem div_two24 (x : EReal) : Ideal.div x (Ideal.ofBits .f32 0x4B800000#32) = x / 16777216 := by
  have h0 : (16777216 : EReal) ≠ 0 := by
    rw [show (16777216 : EReal) = ((16777216 : ℝ) : EReal) by norm_cast]
    exact_mod_cast (by norm_num : (16777216 : ℝ) ≠ 0)
  rw [ofBits_two24, Ideal.div, if_neg h0, div_eq_mul_inv]

/-- The mean, at the scalar's one index: the triple sum divided by 2²⁴. -/
theorem meanR_apply (h : FVec Ideal S4096x256 .f32) :
    meanR h ix0 = (∑ r : Fin 4096, ∑ s : Fin 4096, ∑ k : Fin 256, h (ix2 r k) * h (ix2 s k)) / 16777216 := by
  unfold meanR
  rw [hostDivf_apply, constant_apply, div_two24, sumR_apply]

/-- The identity matrix at `(r, c)`: the words of two numbers below 4096 are equal exactly when the numbers are. -/
theorem eyeR_apply (r c : Fin 4096) : eyeR (ix2 r c) = if r = c then 1 else 0 := by
  have e : eyeR (ix2 r c)
      = (((IntOp.cmpi .eq (BitVec.ofNat 32 r.val + 0#32) (BitVec.ofNat 32 c.val)).toNat : ℝ) : EReal) := rfl
  rw [e, BitVec.add_zero]
  by_cases hrc : r = c
  · subst hrc
    rw [if_pos rfl, (StableHlo.Predicate.cmpi_eq_iff).mpr rfl]
    simp
  · have hne : ¬BitVec.ofNat 32 r.val = BitVec.ofNat 32 c.val := by
      intro hw
      apply hrc
      have hn := congrArg BitVec.toNat hw
      simp only [BitVec.toNat_ofNat] at hn
      apply Fin.ext
      have := r.isLt
      have := c.isLt
      omega
    rw [if_neg hrc, eq_zero_of_ne_one fun h1 => hne (StableHlo.Predicate.cmpi_eq_iff.mp h1)]
    simp

/-- The mask at `(r, c)`: one where the Gram entry is above the mean, else zero. -/
theorem maskR_apply (h : FVec Ideal S4096x256 .f32) (r c : Fin 4096) :
    maskR h (ix2 r c)
      = if (∑ k : Fin 256, h (ix2 r k) * h (ix2 c k)) > meanR h ix0 then (1 : EReal) else 0 := by
  have e : maskR h (ix2 r c)
      = (((Ideal.cmp .ogt (adjR h (ix2 r c))
            (broadcastInDim S4096x4096 ![] bcast_S_S4096x4096 (meanR h) (ix2 r c))).toNat : ℝ) : EReal) := rfl
  rw [e, broadcastInDim_scalar_apply, adjR_apply]
  by_cases hlt : meanR h ix0 < ∑ k : Fin 256, h (ix2 r k) * h (ix2 c k)
  · simp [Ideal.cmp, hlt]
  · simp [Ideal.cmp, hlt]

/-- The aggregate at `(r, d)`: over the nodes `c`, the mask bit plus the identity's entry, times `X c d`. -/
theorem aggR_apply (h X : FVec Ideal S4096x256 .f32) (r : Fin 4096) (d : Fin 256) :
    aggR h X (ix2 r d)
      = ∑ c : Fin 4096,
          ((if (∑ k : Fin 256, h (ix2 r k) * h (ix2 c k)) > meanR h ix0 then (1 : EReal) else 0)
            + (if r = c then (1 : EReal) else 0)) * X (ix2 c d) := by
  unfold aggR
  simp only [Host.dotGeneral]
  rw [Ideal.dotGeneral_apply,
    ← Equiv.sum_comp (ValueIdx.contrEquiv1 dot_S4096x4096_S4096x256_S4096x256_1_0_0_1_n_n 4096 rfl rfl).symm]
  refine Finset.sum_congr rfl fun c _ => ?_
  have hk := ValueIdx.contrEquiv1_symm_val dot_S4096x4096_S4096x256_S4096x256_1_0_0_1_n_n 4096 rfl rfl c
  have el : dot_S4096x4096_S4096x256_S4096x256_1_0_0_1_n_n.lhsIdx (ix2 r d)
      ((ValueIdx.contrEquiv1 dot_S4096x4096_S4096x256_S4096x256_1_0_0_1_n_n 4096 rfl rfl).symm c) = ix2 r c :=
    funext fun a => Fin.ext (by
      match a with
      | ⟨0, _⟩ => exact lhs_agg_0 _ _
      | ⟨1, _⟩ => exact (lhs_agg_1 _ _).trans hk)
  have er : dot_S4096x4096_S4096x256_S4096x256_1_0_0_1_n_n.rhsIdx (ix2 r d)
      ((ValueIdx.contrEquiv1 dot_S4096x4096_S4096x256_S4096x256_1_0_0_1_n_n 4096 rfl rfl).symm c) = ix2 c d :=
    funext fun a => Fin.ext (by
      match a with
      | ⟨0, _⟩ => exact (rhs_agg_0 _ _).trans hk
      | ⟨1, _⟩ => exact rhs_agg_1 _ _)
  rw [el, er, addf_apply, mulf_apply, maskR_apply, eyeR_apply, broadcastInDim_scalar_apply, constant_apply,
    Ideal.ofBits_one_f32, one_mul]

end Cert.ReferenceIdeal.Hand

end
-- ==== Proof.LibGridSum.lean ====
/-
  Sums over a grid of blocks, and the aggregate law of a nonnegative mask plus a diagonal, on the extended reals.

  Three pieces of plain mathematics, none of them about any particular program.

  1. BLOCKS. A set of N = m·n indices is cut into m consecutive blocks of n: index n·i + p is offset p of block i
     (blockIdx, the value of the bijection blockEquiv : Fin m × Fin n ≃ Fin N). In a commutative additive monoid a sum
     over all indices is the sum over the blocks of the sums inside each block (sum_blocks), in two dimensions the sum
     over an N × N square is the sum over the m × m tiles of the n × n sums inside each tile (sum_tiles), and a
     step-by-step accumulation x ↦ x + T t over the tiles in row-major order from a start value z is z plus that sum
     (accFold, accFold_eq_sum, sum_range_grid, sum_range_tiles, accFold_tiles). No finiteness of the values is asked:
     only commutativity and associativity of +, which the extended reals have.

  2. THE AGGREGATE LAW. On the extended reals (a + b)·x = a·x + b·x holds for nonnegative a, b (it fails in general:
     a = 1, b = -1, x = ⊤). Hence for a row a of nonnegative weights, in particular of zeros and ones, and a row d that is
     e ≥ 0 at one index r and zero elsewhere, Σ_c (a c + d c)·x c = e·x r + Σ_c a c·x c (sum_add_diag_mul); with e = 1 and
     d the identity matrix's row this is 1·x r + Σ_c a r c·x c = Σ_c (a r c + δ r c)·x c (aggregate_law), also with the
     sum over c cut into blocks and accumulated block by block from 1·x r (aggregate_law_blocked, aggregate_law_range,
     aggregate_law_fold; aggregate_row and its blocked forms say the same of a single row, asking of d only its values
     along that row).

  3. A GRAM MATRIX g r s = Σ_k h r k · h s k is one more function of two indices: sum_tiles_gram is sum_tiles at it.
-/
import Mathlib.Data.EReal.Operations
import Mathlib.Algebra.BigOperators.Fin
import Mathlib.Algebra.BigOperators.Group.Finset.Sigma
import Mathlib.Data.Fintype.BigOperators
import Mathlib.Logic.Equiv.Fin.Basic

open scoped BigOperators

namespace GridSum

/-! ## Blocks of indices -/

section Index

variable {m n N : ℕ}

/-- Offset p of block i lies below N = m·n: n·i + p < n·(i + 1) ≤ n·m. -/
theorem blockIdx_lt (hN : m * n = N) (i : Fin m) (p : Fin n) : n * (i : ℕ) + (p : ℕ) < N := by
  have hi : (i : ℕ) + 1 ≤ m := i.isLt
  have hp : (p : ℕ) < n := p.isLt
  have h := Nat.mul_le_mul_left n hi
  rw [Nat.mul_add, Nat.mul_one] at h
  rw [← hN, Nat.mul_comm m n]
  omega

/-- The index n·i + p: offset p of block i, when N = m·n indices are cut into m consecutive blocks of n. -/
def blockIdx (hN : m * n = N) (i : Fin m) (p : Fin n) : Fin N := ⟨n * (i : ℕ) + (p : ℕ), blockIdx_lt hN i p⟩

/-- The value of blockIdx i p is n·i + p. -/
@[simp] theorem blockIdx_val (hN : m * n = N) (i : Fin m) (p : Fin n) :
    ((blockIdx hN i p : Fin N) : ℕ) = n * (i : ℕ) + (p : ℕ) := rfl

/-- Any index written with the value n·i + p is blockIdx i p. -/
theorem eq_blockIdx (hN : m * n = N) (i : Fin m) (p : Fin n) (r : Fin N) (hr : (r : ℕ) = n * (i : ℕ) + (p : ℕ)) :
    r = blockIdx hN i p := Fin.ext hr

/-- The bijection (i, p) ↦ n·i + p between (block, offset) pairs and the N = m·n indices. -/
def blockEquiv (hN : m * n = N) : Fin m × Fin n ≃ Fin N := finProdFinEquiv.trans (finCongr hN)

/-- The bijection's value at (i, p) is blockIdx i p, that is n·i + p. -/
theorem blockEquiv_apply (hN : m * n = N) (i : Fin m) (p : Fin n) : blockEquiv hN (i, p) = blockIdx hN i p := by
  apply Fin.ext
  show (p : ℕ) + n * (i : ℕ) = n * (i : ℕ) + (p : ℕ)
  exact Nat.add_comm _ _

/-- The bijection's value, as a natural number. -/
theorem blockEquiv_val (hN : m * n = N) (x : Fin m × Fin n) :
    ((blockEquiv hN x : Fin N) : ℕ) = n * (x.1 : ℕ) + (x.2 : ℕ) := by
  obtain ⟨i, p⟩ := x
  rw [blockEquiv_apply]; rfl

/-- Block and offset are recovered by division: (n·i + p) / n = i and (n·i + p) % n = p. -/
theorem blockIdx_div_mod (hN : m * n = N) (i : Fin m) (p : Fin n) :
    ((blockIdx hN i p : Fin N) : ℕ) / n = i ∧ ((blockIdx hN i p : Fin N) : ℕ) % n = p := by
  have hp : (p : ℕ) < n := p.isLt
  have hn : 0 < n := Nat.lt_of_le_of_lt (Nat.zero_le _) hp
  rw [blockIdx_val]
  constructor
  · rw [Nat.add_comm, Nat.add_mul_div_left _ _ hn, Nat.div_eq_of_lt hp, Nat.zero_add]
  · rw [Nat.mul_add_mod, Nat.mod_eq_of_lt hp]

end Index

/-! ## Sums over blocks and tiles, in a commutative additive monoid -/

section Sums

variable {M : Type*} [AddCommMonoid M] {m n N : ℕ}

/-- A sum over all N = m·n indices is the sum over the m blocks of the sum over the n offsets inside each block. -/
theorem sum_blocks (hN : m * n = N) (f : Fin N → M) :
    ∑ i : Fin m, ∑ p : Fin n, f (blockIdx hN i p) = ∑ r : Fin N, f r :=
  calc ∑ i : Fin m, ∑ p : Fin n, f (blockIdx hN i p)
      = ∑ x : Fin m × Fin n, f (blockEquiv hN x) := by
        rw [Fintype.sum_prod_type]
        simp only [blockEquiv_apply]
    _ = ∑ r : Fin N, f r := (blockEquiv hN).sum_comp f

/-- The same with the index of (block i, offset p) given by any function whose value is n·i + p. -/
theorem sum_blocks_of_val (hN : m * n = N) (f : Fin N → M) (idx : Fin m → Fin n → Fin N)
    (hidx : ∀ i p, ((idx i p : Fin N) : ℕ) = n * (i : ℕ) + (p : ℕ)) :
    ∑ i : Fin m, ∑ p : Fin n, f (idx i p) = ∑ r : Fin N, f r := by
  have h : idx = blockIdx hN := by
    funext i p
    exact Fin.ext (hidx i p)
  rw [h]
  exact sum_blocks hN f

/-- TILING OF A DOUBLE SUM. The sum over the m × m tiles (i, j) of the sum inside the tile — over its rows p, and in each
    row over its columns q — of g at row n·i + p and column n·j + q is the sum of g over the whole N × N square. -/
theorem sum_tiles (hN : m * n = N) (g : Fin N → Fin N → M) :
    ∑ i : Fin m, ∑ j : Fin m, ∑ p : Fin n, ∑ q : Fin n, g (blockIdx hN i p) (blockIdx hN j q)
      = ∑ r : Fin N, ∑ s : Fin N, g r s :=
  calc ∑ i : Fin m, ∑ j : Fin m, ∑ p : Fin n, ∑ q : Fin n, g (blockIdx hN i p) (blockIdx hN j q)
      = ∑ i : Fin m, ∑ p : Fin n, ∑ s : Fin N, g (blockIdx hN i p) s := by
        refine Finset.sum_congr rfl fun i _ => ?_
        rw [Finset.sum_comm]
        exact Finset.sum_congr rfl fun p _ => sum_blocks hN (fun s => g (blockIdx hN i p) s)
    _ = ∑ r : Fin N, ∑ s : Fin N, g r s := sum_blocks hN (fun r => ∑ s : Fin N, g r s)

/-- Tiling with the row and column indices given by any functions whose values are n·i + p. -/
theorem sum_tiles_of_val (hN : m * n = N) (g : Fin N → Fin N → M) (idx : Fin m → Fin n → Fin N)
    (hidx : ∀ i p, ((idx i p : Fin N) : ℕ) = n * (i : ℕ) + (p : ℕ)) :
    ∑ i : Fin m, ∑ j : Fin m, ∑ p : Fin n, ∑ q : Fin n, g (idx i p) (idx j q) = ∑ r : Fin N, ∑ s : Fin N, g r s := by
  have h : idx = blockIdx hN := by
    funext i p
    exact Fin.ext (hidx i p)
  rw [h]
  exact sum_tiles hN g

/-- A sum over the first m naturals is the sum over Fin m of the same terms. -/
theorem sum_range_fin (F : ℕ → M) (B : Fin m → M) (hF : ∀ j : Fin m, F (j : ℕ) = B j) :
    ∑ t ∈ Finset.range m, F t = ∑ j : Fin m, B j := by
  rw [Finset.sum_range]
  exact Finset.sum_congr rfl fun j _ => hF j

/-- ROW-MAJOR ORDER. Number the points (i, j) of an m × m' grid row by row, t = m'·i + j. A sum over t < m·m' whose term at
    point m'·i + j is T i j is the double sum of T over the grid. -/
theorem sum_range_grid {m' : ℕ} (F : ℕ → M) (T : Fin m → Fin m' → M)
    (hF : ∀ (i : Fin m) (j : Fin m'), F (m' * (i : ℕ) + (j : ℕ)) = T i j) :
    ∑ t ∈ Finset.range (m * m'), F t = ∑ i : Fin m, ∑ j : Fin m', T i j :=
  calc ∑ t ∈ Finset.range (m * m'), F t
      = ∑ t : Fin (m * m'), F (t : ℕ) := Finset.sum_range F
    _ = ∑ x : Fin m × Fin m', F ((blockEquiv (rfl : m * m' = m * m') x : Fin (m * m')) : ℕ) :=
        ((blockEquiv (rfl : m * m' = m * m')).sum_comp fun t : Fin (m * m') => F (t : ℕ)).symm
    _ = ∑ i : Fin m, ∑ j : Fin m', T i j := by
        rw [Fintype.sum_prod_type]
        refine Finset.sum_congr rfl fun i _ => Finset.sum_congr rfl fun j _ => ?_
        rw [blockEquiv_val]
        exact hF i j

/-- The same with the term given through the point's row t / m' and column t % m'. -/
theorem sum_range_grid_div_mod {m' : ℕ} (T : ℕ → ℕ → M) :
    ∑ t ∈ Finset.range (m * m'), T (t / m') (t % m') = ∑ i : Fin m, ∑ j : Fin m', T (i : ℕ) (j : ℕ) :=
  sum_range_grid (fun t => T (t / m') (t % m')) (fun i j => T (i : ℕ) (j : ℕ)) fun i j => by
    have hj : (j : ℕ) < m' := j.isLt
    have hm : 0 < m' := Nat.lt_of_le_of_lt (Nat.zero_le _) hj
    show T ((m' * (i : ℕ) + (j : ℕ)) / m') ((m' * (i : ℕ) + (j : ℕ)) % m') = T (i : ℕ) (j : ℕ)
    rw [Nat.mul_add_mod, Nat.mod_eq_of_lt hj, Nat.add_comm, Nat.add_mul_div_left _ _ hm, Nat.div_eq_of_lt hj,
      Nat.zero_add]

/-- The accumulation x ↦ x + T t, started at z and run through t = 0, …, k - 1. -/
def accFold (z : M) (T : ℕ → M) : ℕ → M
  | 0 => z
  | k + 1 => accFold z T k + T k

@[simp] theorem accFold_zero (z : M) (T : ℕ → M) : accFold z T 0 = z := rfl

theorem accFold_succ (z : M) (T : ℕ → M) (k : ℕ) : accFold z T (k + 1) = accFold z T k + T k := rfl

/-- Accumulating one term at a time from z gives z plus the sum of the terms. -/
theorem accFold_eq_sum (z : M) (T : ℕ → M) : ∀ k : ℕ, accFold z T k = z + ∑ t ∈ Finset.range k, T t
  | 0 => by rw [accFold_zero, Finset.range_zero, Finset.sum_empty, add_zero]
  | k + 1 => by rw [accFold_succ, accFold_eq_sum z T k, Finset.sum_range_succ, add_assoc]

/-- TILES ONE BY ONE. If the term at point m·i + j of the row-major order is the sum inside tile (i, j) — rows p, in each
    row columns q — then the sum of the m·m terms is the sum of g over the whole N × N square. -/
theorem sum_range_tiles (hN : m * n = N) (g : Fin N → Fin N → M) (T : ℕ → M)
    (hT : ∀ i j : Fin m, T (m * (i : ℕ) + (j : ℕ)) = ∑ p : Fin n, ∑ q : Fin n, g (blockIdx hN i p) (blockIdx hN j q)) :
    ∑ t ∈ Finset.range (m * m), T t = ∑ r : Fin N, ∑ s : Fin N, g r s :=
  (sum_range_grid T (fun i j => ∑ p : Fin n, ∑ q : Fin n, g (blockIdx hN i p) (blockIdx hN j q)) hT).trans
    (sum_tiles hN g)

/-- … and the accumulation x ↦ x + (tile t's sum) from z through the m·m tiles in row-major order is z plus the sum of g
    over the whole square. -/
theorem accFold_tiles (hN : m * n = N) (g : Fin N → Fin N → M) (z : M) (T : ℕ → M)
    (hT : ∀ i j : Fin m, T (m * (i : ℕ) + (j : ℕ)) = ∑ p : Fin n, ∑ q : Fin n, g (blockIdx hN i p) (blockIdx hN j q)) :
    accFold z T (m * m) = z + ∑ r : Fin N, ∑ s : Fin N, g r s := by
  rw [accFold_eq_sum, sum_range_tiles hN g T hT]

end Sums

/-! ## The extended reals: distributivity over nonnegative weights, and the aggregate law -/

section Aggregate

/-- Zero and one are nonnegative. -/
theorem nonneg_of_zero_or_one {a : EReal} (h : a = 0 ∨ a = 1) : 0 ≤ a := by
  rcases h with rfl | rfl
  · exact le_rfl
  · exact zero_le_one

/-- An indicator, 1 where the condition holds and 0 elsewhere, is zero or one. -/
theorem ite_zero_or_one (P : Prop) [Decidable P] : (if P then (1 : EReal) else 0) = 0 ∨ (if P then (1 : EReal) else 0) = 1 := by
  by_cases h : P
  · right; rw [if_pos h]
  · left; rw [if_neg h]

/-- (a + b)·x = a·x + b·x on the extended reals for weights a, b that are zero or one (for any nonnegative weights:
    Mathlib's EReal.right_distrib_of_nonneg; for weights of both signs it fails at x = ±∞). -/
theorem add_mul_of_zero_or_one {a b : EReal} (ha : a = 0 ∨ a = 1) (hb : b = 0 ∨ b = 1) (x : EReal) :
    (a + b) * x = a * x + b * x :=
  EReal.right_distrib_of_nonneg (nonneg_of_zero_or_one ha) (nonneg_of_zero_or_one hb)

variable {ι : Type*} [Fintype ι]

/-- A ROW PLUS A DIAGONAL ENTRY. For nonnegative weights a c and a row d that is e ≥ 0 at the index r and zero at every
    other index, Σ_c (a c + d c)·x c = e·x r + Σ_c a c·x c: distribute each term, split the sum, and the d-part keeps
    its one nonzero term. -/
theorem sum_add_diag_mul (r : ι) (a d x : ι → EReal) (e : EReal) (ha : ∀ c, 0 ≤ a c) (he : 0 ≤ e)
    (hdr : d r = e) (hd : ∀ c, c ≠ r → d c = 0) :
    ∑ c, (a c + d c) * x c = e * x r + ∑ c, a c * x c := by
  have hd0 : ∀ c, 0 ≤ d c := fun c => by
    by_cases h : c = r
    · rw [h, hdr]; exact he
    · rw [hd c h]
  calc ∑ c, (a c + d c) * x c
      = ∑ c, (a c * x c + d c * x c) :=
        Finset.sum_congr rfl fun c _ => EReal.right_distrib_of_nonneg (ha c) (hd0 c)
    _ = ∑ c, a c * x c + ∑ c, d c * x c := Finset.sum_add_distrib
    _ = ∑ c, a c * x c + e * x r := by
        congr 1
        rw [Finset.sum_eq_single r (fun c _ hc => by rw [hd c hc, zero_mul])
          (fun h => absurd (Finset.mem_univ r) h), hdr]
    _ = e * x r + ∑ c, a c * x c := add_comm _ _

/-- THE AGGREGATE LAW, ONE ROW. For a row a of zeros and ones and a row d that is 1 at the index r and 0 at every other
    index (row r of the identity matrix), 1·x r + Σ_c a c·x c = Σ_c (a c + d c)·x c. -/
theorem aggregate_row (r : ι) (a d x : ι → EReal) (ha : ∀ c, a c = 0 ∨ a c = 1) (hdr : d r = 1)
    (hd : ∀ c, c ≠ r → d c = 0) :
    1 * x r + ∑ c, a c * x c = ∑ c, (a c + d c) * x c :=
  (sum_add_diag_mul r a d x 1 (fun c => nonneg_of_zero_or_one (ha c)) zero_le_one hdr hd).symm

variable [DecidableEq ι]

/-- THE AGGREGATE LAW. For a matrix a of zeros and ones and d the identity matrix (d r c = 1 if r = c, else 0),
    1·x r + Σ_c a r c·x c = Σ_c (a r c + d r c)·x c at every row r. -/
theorem aggregate_law (a d : ι → ι → EReal) (x : ι → EReal) (ha : ∀ r c, a r c = 0 ∨ a r c = 1)
    (hd : ∀ r c, d r c = if r = c then 1 else 0) (r : ι) :
    1 * x r + ∑ c, a r c * x c = ∑ c, (a r c + d r c) * x c :=
  aggregate_row r (a r) (d r) x (ha r) (by rw [hd, if_pos rfl]) (fun c hc => by rw [hd, if_neg (fun h => hc h.symm)])

/-- The aggregate law with the identity matrix written out. -/
theorem aggregate_law_ite (a : ι → ι → EReal) (x : ι → EReal) (ha : ∀ r c, a r c = 0 ∨ a r c = 1) (r : ι) :
    1 * x r + ∑ c, a r c * x c = ∑ c, (a r c + (if r = c then 1 else 0)) * x c :=
  aggregate_law a (fun r c => if r = c then 1 else 0) x ha (fun _ _ => rfl) r

end Aggregate

section AggregateBlocked

variable {m n N : ℕ}

/-- ONE ROW, BLOCKED. With the N = m·n columns cut into m blocks of n: 1·x r plus the sum over the blocks j of the sums
    Σ_q a (n·j + q)·x (n·j + q) inside each block is Σ_c (a c + d c)·x c. -/
theorem aggregate_row_blocked (hN : m * n = N) (r : Fin N) (a d x : Fin N → EReal) (ha : ∀ c, a c = 0 ∨ a c = 1)
    (hdr : d r = 1) (hd : ∀ c, c ≠ r → d c = 0) :
    1 * x r + ∑ j : Fin m, ∑ q : Fin n, a (blockIdx hN j q) * x (blockIdx hN j q) = ∑ c, (a c + d c) * x c := by
  rw [sum_blocks hN (fun c => a c * x c)]
  exact aggregate_row r a d x ha hdr hd

/-- … with the blocks' sums given as the terms B j of a sum over j < m … -/
theorem aggregate_row_range (hN : m * n = N) (r : Fin N) (a d x : Fin N → EReal) (ha : ∀ c, a c = 0 ∨ a c = 1)
    (hdr : d r = 1) (hd : ∀ c, c ≠ r → d c = 0) (B : ℕ → EReal)
    (hB : ∀ j : Fin m, B (j : ℕ) = ∑ q : Fin n, a (blockIdx hN j q) * x (blockIdx hN j q)) :
    1 * x r + ∑ j ∈ Finset.range m, B j = ∑ c, (a c + d c) * x c := by
  rw [sum_range_fin B (fun j : Fin m => ∑ q : Fin n, a (blockIdx hN j q) * x (blockIdx hN j q)) hB]
  exact aggregate_row_blocked hN r a d x ha hdr hd

/-- … and as the accumulation y ↦ y + B j from 1·x r through the blocks j = 0, …, m - 1 one by one. -/
theorem aggregate_row_fold (hN : m * n = N) (r : Fin N) (a d x : Fin N → EReal) (ha : ∀ c, a c = 0 ∨ a c = 1)
    (hdr : d r = 1) (hd : ∀ c, c ≠ r → d c = 0) (B : ℕ → EReal)
    (hB : ∀ j : Fin m, B (j : ℕ) = ∑ q : Fin n, a (blockIdx hN j q) * x (blockIdx hN j q)) :
    accFold (1 * x r) B m = ∑ c, (a c + d c) * x c := by
  rw [accFold_eq_sum]
  exact aggregate_row_range hN r a d x ha hdr hd B hB

/-- THE AGGREGATE LAW, BLOCKED, for a matrix a of zeros and ones and d the identity matrix. -/
theorem aggregate_law_blocked (hN : m * n = N) (a d : Fin N → Fin N → EReal) (x : Fin N → EReal)
    (ha : ∀ r c, a r c = 0 ∨ a r c = 1) (hd : ∀ r c, d r c = if r = c then 1 else 0) (r : Fin N) :
    1 * x r + ∑ j : Fin m, ∑ q : Fin n, a r (blockIdx hN j q) * x (blockIdx hN j q)
      = ∑ c, (a r c + d r c) * x c :=
  aggregate_row_blocked hN r (a r) (d r) x (ha r) (by rw [hd, if_pos rfl])
    (fun c hc => by rw [hd, if_neg (fun h => hc h.symm)])

/-- … with the blocks' sums given as the terms B j of a sum over j < m … -/
theorem aggregate_law_range (hN : m * n = N) (a d : Fin N → Fin N → EReal) (x : Fin N → EReal)
    (ha : ∀ r c, a r c = 0 ∨ a r c = 1) (hd : ∀ r c, d r c = if r = c then 1 else 0) (r : Fin N) (B : ℕ → EReal)
    (hB : ∀ j : Fin m, B (j : ℕ) = ∑ q : Fin n, a r (blockIdx hN j q) * x (blockIdx hN j q)) :
    1 * x r + ∑ j ∈ Finset.range m, B j = ∑ c, (a r c + d r c) * x c :=
  aggregate_row_range hN r (a r) (d r) x (ha r) (by rw [hd, if_pos rfl])
    (fun c hc => by rw [hd, if_neg (fun h => hc h.symm)]) B hB

/-- … and as the accumulation y ↦ y + B j from 1·x r through the blocks one by one. -/
theorem aggregate_law_fold (hN : m * n = N) (a d : Fin N → Fin N → EReal) (x : Fin N → EReal)
    (ha : ∀ r c, a r c = 0 ∨ a r c = 1) (hd : ∀ r c, d r c = if r = c then 1 else 0) (r : Fin N) (B : ℕ → EReal)
    (hB : ∀ j : Fin m, B (j : ℕ) = ∑ q : Fin n, a r (blockIdx hN j q) * x (blockIdx hN j q)) :
    accFold (1 * x r) B m = ∑ c, (a r c + d r c) * x c := by
  rw [accFold_eq_sum]
  exact aggregate_law_range hN a d x ha hd r B hB

end AggregateBlocked

/-! ## A Gram matrix is one more function of two indices -/

/-- Tiling at g r s = Σ_k h r k · h s k: the tile sums of the products of rows of h add up to the sum over all pairs of
    rows. -/
theorem sum_tiles_gram {m n N K : ℕ} (hN : m * n = N) (h : Fin N → Fin K → EReal) :
    ∑ i : Fin m, ∑ j : Fin m, ∑ p : Fin n, ∑ q : Fin n,
        ∑ k : Fin K, h (blockIdx hN i p) k * h (blockIdx hN j q) k
      = ∑ r : Fin N, ∑ s : Fin N, ∑ k : Fin K, h r k * h s k :=
  sum_tiles hN (fun r s => ∑ k : Fin K, h r k * h s k)

/-! ## The literal sizes 8 · 512 = 4096 -/

section Literal

variable {M : Type*} [AddCommMonoid M]

/-- 8 blocks of 512 make 4096. -/
theorem eight_mul : 8 * 512 = 4096 := rfl

/-- Row (or column) 512·i + p of 4096: offset p of block i. -/
abbrev idx4096 (i : Fin 8) (p : Fin 512) : Fin 4096 := blockIdx eight_mul i p

/-- Its value is 512·i + p. -/
theorem idx4096_val (i : Fin 8) (p : Fin 512) : ((idx4096 i p : Fin 4096) : ℕ) = 512 * (i : ℕ) + (p : ℕ) := rfl

/-- The bijection Fin 8 × Fin 512 ≃ Fin 4096, (i, p) ↦ 512·i + p. -/
abbrev equiv4096 : Fin 8 × Fin 512 ≃ Fin 4096 := blockEquiv eight_mul

/-- Its value at (i, p) is idx4096 i p. -/
theorem equiv4096_apply (i : Fin 8) (p : Fin 512) : equiv4096 (i, p) = idx4096 i p := blockEquiv_apply eight_mul i p

/-- The sum over the 8 × 8 tiles of the 512 × 512 sums inside each tile is the sum over the 4096 × 4096 square. -/
theorem sum_tiles_4096 (g : Fin 4096 → Fin 4096 → M) :
    ∑ i : Fin 8, ∑ j : Fin 8, ∑ p : Fin 512, ∑ q : Fin 512, g (idx4096 i p) (idx4096 j q)
      = ∑ r : Fin 4096, ∑ s : Fin 4096, g r s := sum_tiles eight_mul g

/-- The 64 tile sums, taken in row-major order (term 8·i + j is tile (i, j)'s), add up to the sum over the square. -/
theorem sum_range_tiles_4096 (g : Fin 4096 → Fin 4096 → M) (T : ℕ → M)
    (hT : ∀ i j : Fin 8, T (8 * (i : ℕ) + (j : ℕ)) = ∑ p : Fin 512, ∑ q : Fin 512, g (idx4096 i p) (idx4096 j q)) :
    ∑ t ∈ Finset.range 64, T t = ∑ r : Fin 4096, ∑ s : Fin 4096, g r s :=
  sum_range_tiles (m := 8) eight_mul g T hT

/-- The 64-step accumulation x ↦ x + (tile t's sum) from z is z plus the sum over the square. -/
theorem accFold_tiles_4096 (g : Fin 4096 → Fin 4096 → M) (z : M) (T : ℕ → M)
    (hT : ∀ i j : Fin 8, T (8 * (i : ℕ) + (j : ℕ)) = ∑ p : Fin 512, ∑ q : Fin 512, g (idx4096 i p) (idx4096 j q)) :
    accFold z T 64 = z + ∑ r : Fin 4096, ∑ s : Fin 4096, g r s :=
  accFold_tiles (m := 8) eight_mul g z T hT

/-- The aggregate law at 4096 columns in 8 blocks of 512, the blocks' sums added to 1·x r as a sum over j < 8. -/
theorem aggregate_law_range_4096 (a d : Fin 4096 → Fin 4096 → EReal) (x : Fin 4096 → EReal)
    (ha : ∀ r c, a r c = 0 ∨ a r c = 1) (hd : ∀ r c, d r c = if r = c then 1 else 0) (r : Fin 4096) (B : ℕ → EReal)
    (hB : ∀ j : Fin 8, B (j : ℕ) = ∑ q : Fin 512, a r (idx4096 j q) * x (idx4096 j q)) :
    1 * x r + ∑ j ∈ Finset.range 8, B j = ∑ c, (a r c + d r c) * x c :=
  aggregate_law_range eight_mul a d x ha hd r B hB

/-- The same as the 8-step accumulation y ↦ y + B j from 1·x r. -/
theorem aggregate_law_fold_4096 (a d : Fin 4096 → Fin 4096 → EReal) (x : Fin 4096 → EReal)
    (ha : ∀ r c, a r c = 0 ∨ a r c = 1) (hd : ∀ r c, d r c = if r = c then 1 else 0) (r : Fin 4096) (B : ℕ → EReal)
    (hB : ∀ j : Fin 8, B (j : ℕ) = ∑ q : Fin 512, a r (idx4096 j q) * x (idx4096 j q)) :
    accFold (1 * x r) B 8 = ∑ c, (a r c + d r c) * x c :=
  aggregate_law_fold eight_mul a d x ha hd r B hB

/-- One row of the aggregate law at 4096 columns in 8 blocks of 512: a a row of zeros and ones, d row r of the
    identity, the blocks' sums added to 1·x r as a sum over j < 8. -/
theorem aggregate_row_range_4096 (r : Fin 4096) (a d x : Fin 4096 → EReal) (ha : ∀ c, a c = 0 ∨ a c = 1)
    (hdr : d r = 1) (hd : ∀ c, c ≠ r → d c = 0) (B : ℕ → EReal)
    (hB : ∀ j : Fin 8, B (j : ℕ) = ∑ q : Fin 512, a (idx4096 j q) * x (idx4096 j q)) :
    1 * x r + ∑ j ∈ Finset.range 8, B j = ∑ c, (a c + d c) * x c :=
  aggregate_row_range eight_mul r a d x ha hdr hd B hB

/-- The same as the 8-step accumulation y ↦ y + B j from 1·x r. -/
theorem aggregate_row_fold_4096 (r : Fin 4096) (a d x : Fin 4096 → EReal) (ha : ∀ c, a c = 0 ∨ a c = 1)
    (hdr : d r = 1) (hd : ∀ c, c ≠ r → d c = 0) (B : ℕ → EReal)
    (hB : ∀ j : Fin 8, B (j : ℕ) = ∑ q : Fin 512, a (idx4096 j q) * x (idx4096 j q)) :
    accFold (1 * x r) B 8 = ∑ c, (a c + d c) * x c :=
  aggregate_row_fold eight_mul r a d x ha hdr hd B hB

end Literal

end GridSum
-- ==== Proof.AggVal.lean ====
/-
  The two kernels' results as closed forms of their inputs, at the ideal values, and their agreement with the
  reference's aggregate stage.

  For hidden features h : [4096, 256] the Gram matrix is G r s = Σ_k h r k · h s k. The sum kernel leaves Σ_r Σ_s G r s in
  its one output cell (sumVal). Given a threshold cell, h and node features X : [4096, 256], the aggregation kernel leaves
  at row r and feature d the value 1·X r d + Σ_s mask r s · X s d, the mask being 1 where G r s is above the threshold and
  0 elsewhere (aggVal). With the threshold the host computes from the sum kernel's cell, (Σ_r Σ_s G r s) / 2²⁴ (meanOf), this
  is the reference's aggregate (mask + identity) · X: its mean is the same quotient, its mask the same comparison, and
  because the mask's entries are zeros and ones, (mask r s + δ r s) · x = mask r s · x + δ r s · x on the extended reals, so
  the identity's row contributes exactly 1·X r d (aggVal_eq_aggR).
-/
import proofs.«169706_j68856915690108_1_alg».proof.Proof.HostFns
import proofs.«169706_j68856915690108_1_alg».proof.Proof.RefAgg
import proofs.«169706_j68856915690108_1_alg».proof.Proof.LibGridSum

noncomputable section

namespace Cert.Hand

open Idealize.ShloMosaic Idealize.ShloMosaic.ValueIdx
open scoped BigOperators

/-- The sum kernel's value: every cell of the 1 × 1 result holds the sum of the whole Gram matrix of the rows of h. -/
noncomputable def sumVal (h : FVec Ideal Sx .f32) : FVec Ideal S11 .f32 :=
  fun _ => ∑ r : Fin 4096, ∑ s : Fin 4096, ∑ k : Fin 256, h (ix2 r k) * h (ix2 s k)

/-- The aggregation kernel's value at row r and feature d: 1·X r d plus, over all rows s, the 0/1 mask "the Gram entry
    of rows r and s is above the threshold" times X s d. -/
noncomputable def aggAt (mean : FVec Ideal S11 .f32) (h X : FVec Ideal Sx .f32) (r : Fin 4096) (d : Fin 256) : EReal :=
  1 * X (ix2 r d)
    + ∑ s : Fin 4096,
        (if mean (ix2 (0 : Fin 1) (0 : Fin 1)) < ∑ k : Fin 256, h (ix2 r k) * h (ix2 s k) then (1 : EReal) else 0) * X (ix2 s d)

/-- The aggregation kernel's value as a 4096 × 256 array. -/
noncomputable def aggVal (mean : FVec Ideal S11 .f32) (h X : FVec Ideal Sx .f32) : FVec Ideal Sx .f32 :=
  fun j => aggAt mean h X (j 0) (j 1)

theorem sumVal_apply (h : FVec Ideal Sx .f32) (i : S11.Idx) :
    sumVal h i = ∑ r : Fin 4096, ∑ s : Fin 4096, ∑ k : Fin 256, h (ix2 r k) * h (ix2 s k) := rfl

theorem aggVal_apply (mean : FVec Ideal S11 .f32) (h X : FVec Ideal Sx .f32) (r : Fin 4096) (d : Fin 256) :
    aggVal mean h X (ix2 r d)
      = 1 * X (ix2 r d)
        + ∑ s : Fin 4096,
            (if mean (ix2 (0 : Fin 1) (0 : Fin 1)) < ∑ k : Fin 256, h (ix2 r k) * h (ix2 s k) then (1 : EReal) else 0)
              * X (ix2 s d) := rfl

/-- The host's threshold from the sum kernel's cell: the sum of the Gram matrix divided by 2²⁴. -/
theorem meanOf_sumVal_apply [Cert.ReferenceIdeal.Facts₀] (h : FVec Ideal Sx .f32) (i : S11.Idx) :
    meanOf (F := Ideal) (sumVal h) i
      = (∑ r : Fin 4096, ∑ s : Fin 4096, ∑ k : Fin 256, h (ix2 r k) * h (ix2 s k)) / 16777216 := by
  unfold meanOf
  rw [hostDivf_apply, broadcastInDim_scalar_apply]
  show Ideal.div (sumVal h i) (Ideal.ofBits .f32 0x4B800000#32) = _
  rw [Cert.ReferenceIdeal.Hand.div_two24]
  rfl

/-- THE TWO SIDES' AGGREGATES AGREE. The kernels' closed form, at the threshold the host derives from the sum kernel's
    cell, is the reference's (mask + identity) · X. -/
theorem aggVal_eq_aggR [Cert.ReferenceIdeal.Facts₀] (h X : FVec Ideal Sx .f32) :
    aggVal (meanOf (F := Ideal) (sumVal h)) h X = Cert.ReferenceIdeal.Hand.aggR h X := by
  funext j
  obtain ⟨r, d, rfl⟩ : ∃ (r : Fin 4096) (d : Fin 256), j = ix2 r d := ⟨j 0, j 1, eq_ix2 j⟩
  rw [Cert.ReferenceIdeal.Hand.aggR_apply, Cert.ReferenceIdeal.Hand.meanR_apply, aggVal_apply,
    meanOf_sumVal_apply h (ix2 (0 : Fin 1) (0 : Fin 1))]
  exact GridSum.aggregate_law_ite
    (fun r s : Fin 4096 =>
      if (∑ r : Fin 4096, ∑ s : Fin 4096, ∑ k : Fin 256, h (ix2 r k) * h (ix2 s k)) / 16777216
          < ∑ k : Fin 256, h (ix2 r k) * h (ix2 s k) then (1 : EReal) else 0)
    (fun s : Fin 4096 => X (ix2 s d)) (fun _ _ => GridSum.ite_zero_or_one _) r

end Cert.Hand

end
-- ==== Proof.UnitIdx.lean ====
/-
  A 1 × 1 index set has exactly one element: both coordinates of an index are below 1.
-/
import Idealize.ShloMosaic.Lib.ValueIdx

namespace Cert.KernelIdeal.Hand

open Idealize.ShloMosaic Idealize.ShloMosaic.ValueIdx

/-- Any two indices of a 1 × 1 shape are equal. -/
theorem unit_idx_eq (i j : (⟨2, ![1, 1]⟩ : Shape).Idx) : i = j := by
  funext a
  apply Fin.ext
  match a with
  | ⟨0, _⟩ =>
    show (i 0).val = (j 0).val
    have := idx2_lt0 i; have := idx2_lt0 j; omega
  | ⟨1, _⟩ =>
    show (i 1).val = (j 1).val
    have := idx2_lt1 i; have := idx2_lt1 j; omega

end Cert.KernelIdeal.Hand
-- ==== Proof.TileValue.lean ====
/-
  The arithmetic of the two kernels read at one index, at the ideal values (every float an extended real).

  The sum kernel forms the 512 × 512 tile G = hᵢ · hⱼᵀ of the Gram matrix of the rows of h
  (G p q = ∑ k, hᵢ p k * hⱼ q k), sums each row of the tile, sums the 512 row sums, and adds the total to its 1 × 1
  accumulator. The apply kernel forms the same tile, turns it into the 0/1 matrix of the entries above the threshold,
  multiplies that matrix with the block xⱼ and adds the product to its 512 × 256 accumulator. Below each step is read
  at an index: a product of matrices as the sum over the contracted coordinate, a reduction over one axis as the sum
  over that axis's coordinates, a transpose and the casts between [512], [512, 1], [1] and [1, 1] as re-indexings, a
  comparison followed by a widening and a conversion as the indicator of the comparison.
-/
import proofs.«169706_j68856915690108_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

namespace Cert.KernelIdeal.Hand

open Idealize.ShloMosaic Idealize.SL.Sem Idealize.ShloMosaic.ValueIdx
open scoped BigOperators

/-! ## The product hᵢ · hⱼᵀ: a 512 × 256 matrix times a 256 × 512 matrix -/

/-- Left operand, axis 0 (a free axis): the output's row. -/
theorem lhsA_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide),
    dif_pos (show (0 : Fin S512x256.rank) ∈ dot_S512x256_S256x512_S512x512_1_0_0_1_n_n.lhsNonContracting by decide)]
  rfl

/-- Left operand, axis 1 (the contracted axis): the contraction position. -/
theorem lhsA_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q

/-- Right operand, axis 0 (the contracted axis): the contraction position. -/
theorem rhsA_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q

/-- Right operand, axis 1 (a free axis): the output's column. -/
theorem rhsA_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide),
    dif_pos (show (1 : Fin S256x512.rank) ∈ dot_S512x256_S256x512_S512x512_1_0_0_1_n_n.rhsNonContracting by decide)]
  rfl

/-- A 512 × 256 matrix times a 256 × 512 matrix, into the zero matrix: entry (r, c) is the sum over the 256 contracted positions of the products. -/
theorem matmulA_apply {φ₁ φ₂ : FTy} (prec : Option ContractPrecision) (x : FVec Ideal S512x256 φ₁) (y : FVec Ideal S256x512 φ₂)
    (r : Fin 512) (c : Fin 512) :
    matmul dot_S512x256_S256x512_S512x512_1_0_0_1_n_n prec x y (constant S512x512 .f32 0x00000000#32) (ix2 r c)
      = ∑ k : Fin 256, x (ix2 r k) * y (ix2 k c) := by
  refine (Ideal.matmul_constant_zero_apply dot_S512x256_S256x512_S512x512_1_0_0_1_n_n prec x y (ix2 r c)).trans ?_
  rw [← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 r c) ((contrEquiv1 dot_S512x256_S256x512_S512x512_1_0_0_1_n_n 256 rfl rfl).symm k) = ix2 r k :=
    funext fun a => Fin.ext (by
      match a with
      | ⟨0, _⟩ => exact lhsA_0 _ _
      | ⟨1, _⟩ => exact (lhsA_1 _ _).trans hk)
  have er : dot_S512x256_S256x512_S512x512_1_0_0_1_n_n.rhsIdx (ix2 r c) ((contrEquiv1 dot_S512x256_S256x512_S512x512_1_0_0_1_n_n 256 rfl rfl).symm k) = ix2 k c :=
    funext fun a => Fin.ext (by
      match a with
      | ⟨0, _⟩ => exact (rhsA_0 _ _).trans hk
      | ⟨1, _⟩ => exact rhsA_1 _ _)
  rw [el, er]

/-! ## The product of the 0/1 matrix with a block of x: a 512 × 512 matrix times a 512 × 256 matrix -/

/-- Left operand, axis 0 (a free axis): the output's row. -/
theorem lhsB_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide),
    dif_pos (show (0 : Fin S512x512.rank) ∈ dot_S512x512_S512x256_S512x256_1_0_0_1_n_n.lhsNonContracting by decide)]
  rfl

/-- Left operand, axis 1 (the contracted axis): the contraction position. -/
theorem lhsB_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q

/-- Right operand, axis 0 (the contracted axis): the contraction position. -/
theorem rhsB_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q

/-- Right operand, axis 1 (a free axis): the output's column. -/
theorem rhsB_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide),
    dif_pos (show (1 : Fin S512x256.rank) ∈ dot_S512x512_S512x256_S512x256_1_0_0_1_n_n.rhsNonContracting by decide)]
  rfl

/-- A 512 × 512 matrix times a 512 × 256 matrix, into the zero matrix: entry (r, c) is the sum over the 512 contracted positions of the products. -/
theorem matmulB_apply {φ₁ φ₂ : FTy} (prec : Option ContractPrecision) (x : FVec Ideal S512x512 φ₁) (y : FVec Ideal S512x256 φ₂)
    (r : Fin 512) (c : Fin 256) :
    matmul dot_S512x512_S512x256_S512x256_1_0_0_1_n_n prec x y (constant S512x256 .f32 0x00000000#32) (ix2 r c)
      = ∑ k : Fin 512, x (ix2 r k) * y (ix2 k c) := by
  refine (Ideal.matmul_constant_zero_apply dot_S512x512_S512x256_S512x256_1_0_0_1_n_n prec x y (ix2 r c)).trans ?_
  rw [← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 r c) ((contrEquiv1 dot_S512x512_S512x256_S512x256_1_0_0_1_n_n 512 rfl rfl).symm k) = ix2 r k :=
    funext fun a => Fin.ext (by
      match a with
      | ⟨0, _⟩ => exact lhsB_0 _ _
      | ⟨1, _⟩ => exact (lhsB_1 _ _).trans hk)
  have er : dot_S512x512_S512x256_S512x256_1_0_0_1_n_n.rhsIdx (ix2 r c) ((contrEquiv1 dot_S512x512_S512x256_S512x256_1_0_0_1_n_n 512 rfl rfl).symm k) = ix2 k c :=
    funext fun a => Fin.ext (by
      match a with
      | ⟨0, _⟩ => exact (rhsB_0 _ _).trans hk
      | ⟨1, _⟩ => exact rhsB_1 _ _)
  rw [el, er]

/-! ## The layout steps between the products and the sums -/

/-- A vector of length `a` viewed as a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The one element of a 1 × 1 vector, extracted at position (0, 0). -/
theorem extract00_apply {α : Type} (v : S1x1.Idx → α) (h : ∀ a, (![0, 0] : Fin 2 → Nat) a < S1x1.size a) :
    extractAt ![0, 0] v h = v (ix2 (0 : Fin 1) (0 : Fin 1)) := by
  unfold extractAt
  exact congrArg v (funext fun a => Fin.ext (by
    match a with
    | ⟨0, _⟩ => rfl
    | ⟨1, _⟩ => rfl))

/-! ## The two sums of the sum kernel -/

/-- The sum over the columns of a 512 × 512 matrix: at row `p`, the sum over `q` of the entries `(p, q)`. -/
theorem rowSum_apply (src : FVec Ideal S512x512 .f32) (h : S512x512.Reduces [1] S512) (hφ : FKind.Formats .f32)
    (hacc : (0x00000000#32 : BitVec 32) = 0x00000000#32) (p : Fin 512) :
    multiReduction .add [1] S512 src 0x00000000#32 h hφ hacc (ix1 p) = ∑ q : Fin 512, src (ix2 p q) :=
  (Ideal.multiReduction_add_single src 0x00000000#32 h hφ hacc (ix1 p)).trans
    (Finset.sum_congr rfl fun q _ => congrArg src (funext fun c => Fin.ext (by
      match c with
      | ⟨0, _⟩ => rfl
      | ⟨1, _⟩ => rfl)))

/-- The sum down a column `[512, 1]`: at its one position `u`, the sum over `p` of the entries `(p, u)`. -/
theorem colSum_apply (src : FVec Ideal S512x1 .f32) (h : S512x1.Reduces [0] S1) (hφ : FKind.Formats .f32)
    (hacc : (0x00000000#32 : BitVec 32) = 0x00000000#32) (u : Fin 1) :
    multiReduction .add [0] S1 src 0x00000000#32 h hφ hacc (ix1 u) = ∑ p : Fin 512, src (ix2 p u) :=
  (Ideal.multiReduction_add_single src 0x00000000#32 h hφ hacc (ix1 u)).trans
    (Finset.sum_congr rfl fun p _ => congrArg src (funext fun c => Fin.ext (by
      match c with
      | ⟨0, _⟩ => rfl
      | ⟨1, _⟩ => rfl)))

/-! ## The tile of the Gram matrix -/

/-- Entry `(p, q)` of hᵢ · hⱼᵀ, as both kernels compute it (the second operand transposed, the casts to the same
    shape the identity, the accumulator the zero matrix): the inner product of row `p` of hᵢ with row `q` of hⱼ. -/
theorem gramTile_apply (prec : Option ContractPrecision) (hi hj : FVec Ideal S512x256 .f32)
    (h1 h2 : S512x256.ShapeCasts S512x256) (ht : S512x256.Transposes [1, 0] S256x512) (p q : Fin 512) :
    matmul dot_S512x256_S256x512_S512x512_1_0_0_1_n_n prec (shapeCast S512x256 hi h1)
        (transpose S256x512 [1, 0] (shapeCast S512x256 hj h2) ht) (constant S512x512 .f32 0x00000000#32) (ix2 p q)
      = ∑ k : Fin 256, hi (ix2 p k) * hj (ix2 q k) := by
  rw [matmulA_apply, shapeCast_self, shapeCast_self]
  exact Finset.sum_congr rfl fun k _ => congrArg (hi (ix2 p k) * ·) (transpose_ix2_apply hj ht k q)

/-! ## The indicator of a comparison -/

theorem toInt_widen_true : ((BitVec.ofBool true).setWidth 32).toInt = 1 := by decide
theorem toInt_widen_false : ((BitVec.ofBool false).setWidth 32).toInt = 0 := by decide

/-- "g is above m", as the bit of the comparison, widened to a word and converted to a float: 1 where it holds, 0 where
    it does not. -/
theorem indicator_apply (g m : EReal) :
    (FloatOps.sitofp (F := Ideal) .f32 ((FloatOps.cmpf (F := Ideal) (φ := .f32) .ogt g m).setWidth 32) : EReal)
      = if m < g then 1 else 0 := by
  show ((((BitVec.ofBool (decide (m < g))).setWidth 32).toInt : ℝ) : EReal) = _
  by_cases h : m < g
  · rw [if_pos h, decide_eq_true h, toInt_widen_true]; simp
  · rw [if_neg h, decide_eq_false h, toInt_widen_false]; simp

/-! ## The sum kernel's payloads -/

/-- The reset: the scratch is set to zero. -/
theorem k0_pay1_apply (a b : Fin 1) : (Gen.k0_pay1 (F := Ideal)) (ix2 a b) = 0 := by
  unfold Gen.k0_pay1
  rw [shapeCast_self]
  exact Ideal.ofBits_zero_f32

/-- The accumulate step: the scratch plus the sum of all 512 × 512 entries of the tile hᵢ · hⱼᵀ. -/
theorem k0_pay2_apply (hi hj : Vec Ideal S512x256 .f32) (acc : Vec Ideal S1x1 .f32) (a b : Fin 1) :
    Gen.k0_pay2 (F := Ideal) hi hj acc (ix2 a b)
      = (acc (ix2 a b) : EReal) + ∑ p : Fin 512, ∑ q : Fin 512, ∑ k : Fin 256, hi (ix2 p k) * hj (ix2 q k) := by
  unfold Gen.k0_pay2
  rw [shapeCast_self, addf_apply]
  refine congrArg ((acc (ix2 a b) : EReal) + ·) ?_
  rw [shapeCast_a_1a_apply, colSum_apply]
  refine Finset.sum_congr rfl fun p _ => ?_
  rw [shapeCast_a_a1_apply, rowSum_apply]
  exact Finset.sum_congr rfl fun q _ => gramTile_apply _ hi hj _ _ _ p q

/-! ## The apply kernel's payloads -/

/-- The reset: the scratch is set to 1 · xᵢ. -/
theorem k1_pay1_apply (xi : Vec Ideal S512x256 .f32) (p : Fin 512) (d : Fin 256) :
    Gen.k1_pay1 (F := Ideal) xi (ix2 p d) = 1 * (xi (ix2 p d) : EReal) := by
  unfold Gen.k1_pay1
  rw [shapeCast_self, mulf_apply, broadcast_apply]
  exact congrArg (· * (xi (ix2 p d) : EReal)) Ideal.ofBits_one_f32

/-- The accumulate step at `(p, d)`: the scratch plus, over the 512 rows `q` of the block, the indicator of
    "entry (p, q) of hᵢ · hⱼᵀ is above the threshold" times `xⱼ (q, d)`. -/
theorem k1_pay2_apply (hi hj : Vec Ideal S512x256 .f32) (mean : Vec Ideal S1x1 .f32) (xj acc : Vec Ideal S512x256 .f32)
    (p : Fin 512) (d : Fin 256) :
    Gen.k1_pay2 (F := Ideal) hi hj mean xj acc (ix2 p d)
      = (acc (ix2 p d) : EReal) + ∑ q : Fin 512,
          (if (mean (ix2 (0 : Fin 1) (0 : Fin 1)) : EReal) < ∑ k : Fin 256, hi (ix2 p k) * hj (ix2 q k) then (1 : EReal) else 0)
            * xj (ix2 q d) := by
  unfold Gen.k1_pay2
  rw [shapeCast_self, addf_apply]
  refine congrArg ((acc (ix2 p d) : EReal) + ·) ?_
  rw [matmulB_apply]
  refine Finset.sum_congr rfl fun q _ => ?_
  rw [truncf_apply, truncf_apply, sitofp_apply, extui_apply, cmpf_apply, broadcast_apply, extract00_apply,
    gramTile_apply]
  exact congrArg (· * (xj (ix2 q d) : EReal)) (indicator_apply _ _)

/-! ## The other regions

The twenty-four regions alternate between the two kernels. The sum kernel's twelve bodies carry one arithmetic; the apply
kernel's twelve carry two spellings of one arithmetic: in the first layer of each of the three networks the block of x
is used as loaded, in the other two layers it first passes a cast to its own shape, which is the identity. -/

/-- The apply kernel's reset where the block of x first passes a cast to its own shape: still 1 · xᵢ. -/
theorem k3_pay1_apply (xi : Vec Ideal S512x256 .f32) (p : Fin 512) (d : Fin 256) :
    Gen.k3_pay1 (F := Ideal) xi (ix2 p d) = 1 * (xi (ix2 p d) : EReal) := by
  unfold Gen.k3_pay1
  rw [shapeCast_self, mulf_apply, broadcast_apply, shapeCast_self]
  exact congrArg (· * (xi (ix2 p d) : EReal)) Ideal.ofBits_one_f32

/-- The apply kernel's accumulate step where the block of x first passes a cast to its own shape: the same sum. -/
theorem k3_pay2_apply (hi hj : Vec Ideal S512x256 .f32) (mean : Vec Ideal S1x1 .f32) (xj acc : Vec Ideal S512x256 .f32)
    (p : Fin 512) (d : Fin 256) :
    Gen.k3_pay2 (F := Ideal) hi hj mean xj acc (ix2 p d)
      = (acc (ix2 p d) : EReal) + ∑ q : Fin 512,
          (if (mean (ix2 (0 : Fin 1) (0 : Fin 1)) : EReal) < ∑ k : Fin 256, hi (ix2 p k) * hj (ix2 q k) then (1 : EReal) else 0)
            * xj (ix2 q d) := by
  unfold Gen.k3_pay2
  rw [shapeCast_self, addf_apply]
  refine congrArg ((acc (ix2 p d) : EReal) + ·) ?_
  rw [matmulB_apply]
  refine Finset.sum_congr rfl fun q _ => ?_
  rw [truncf_apply, truncf_apply, shapeCast_self xj, sitofp_apply, extui_apply, cmpf_apply, broadcast_apply,
    extract00_apply, gramTile_apply]
  exact congrArg (· * (xj (ix2 q d) : EReal)) (indicator_apply _ _)

theorem k2_pay1_apply (a b : Fin 1) : (Gen.k2_pay1 (F := Ideal)) (ix2 a b) = 0 := k0_pay1_apply a b
theorem k2_pay2_apply (hi hj : Vec Ideal S512x256 .f32) (acc : Vec Ideal S1x1 .f32) (a b : Fin 1) :
    Gen.k2_pay2 (F := Ideal) hi hj acc (ix2 a b)
      = (acc (ix2 a b) : EReal) + ∑ p : Fin 512, ∑ q : Fin 512, ∑ k : Fin 256, hi (ix2 p k) * hj (ix2 q k) :=
  k0_pay2_apply hi hj acc a b

theorem k4_pay1_apply (a b : Fin 1) : (Gen.k4_pay1 (F := Ideal)) (ix2 a b) = 0 := k0_pay1_apply a b
theorem k4_pay2_apply (hi hj : Vec Ideal S512x256 .f32) (acc : Vec Ideal S1x1 .f32) (a b : Fin 1) :
    Gen.k4_pay2 (F := Ideal) hi hj acc (ix2 a b)
      = (acc (ix2 a b) : EReal) + ∑ p : Fin 512, ∑ q : Fin 512, ∑ k : Fin 256, hi (ix2 p k) * hj (ix2 q k) :=
  k0_pay2_apply hi hj acc a b

theorem k5_pay1_apply (xi : Vec Ideal S512x256 .f32) (p : Fin 512) (d : Fin 256) :
    Gen.k5_pay1 (F := Ideal) xi (ix2 p d) = 1 * (xi (ix2 p d) : EReal) := k3_pay1_apply xi p d
theorem k5_pay2_apply (hi hj : Vec Ideal S512x256 .f32) (mean : Vec Ideal S1x1 .f32) (xj acc : Vec Ideal S512x256 .f32)
    (p : Fin 512) (d : Fin 256) :
    Gen.k5_pay2 (F := Ideal) hi hj mean xj acc (ix2 p d)
      = (acc (ix2 p d) : EReal) + ∑ q : Fin 512,
          (if (mean (ix2 (0 : Fin 1) (0 : Fin 1)) : EReal) < ∑ k : Fin 256, hi (ix2 p k) * hj (ix2 q k) then (1 : EReal) else 0)
            * xj (ix2 q d) :=
  k3_pay2_apply hi hj mean xj acc p d

theorem k6_pay1_apply (a b : Fin 1) : (Gen.k6_pay1 (F := Ideal)) (ix2 a b) = 0 := k0_pay1_apply a b
theorem k6_pay2_apply (hi hj : Vec Ideal S512x256 .f32) (acc : Vec Ideal S1x1 .f32) (a b : Fin 1) :
    Gen.k6_pay2 (F := Ideal) hi hj acc (ix2 a b)
      = (acc (ix2 a b) : EReal) + ∑ p : Fin 512, ∑ q : Fin 512, ∑ k : Fin 256, hi (ix2 p k) * hj (ix2 q k) :=
  k0_pay2_apply hi hj acc a b

theorem k7_pay1_apply (xi : Vec Ideal S512x256 .f32) (p : Fin 512) (d : Fin 256) :
    Gen.k7_pay1 (F := Ideal) xi (ix2 p d) = 1 * (xi (ix2 p d) : EReal) := k1_pay1_apply xi p d
theorem k7_pay2_apply (hi hj : Vec Ideal S512x256 .f32) (mean : Vec Ideal S1x1 .f32) (xj acc : Vec Ideal S512x256 .f32)
    (p : Fin 512) (d : Fin 256) :
    Gen.k7_pay2 (F := Ideal) hi hj mean xj acc (ix2 p d)
      = (acc (ix2 p d) : EReal) + ∑ q : Fin 512,
          (if (mean (ix2 (0 : Fin 1) (0 : Fin 1)) : EReal) < ∑ k : Fin 256, hi (ix2 p k) * hj (ix2 q k) then (1 : EReal) else 0)
            * xj (ix2 q d) :=
  k1_pay2_apply hi hj mean xj acc p d

theorem k8_pay1_apply (a b : Fin 1) : (Gen.k8_pay1 (F := Ideal)) (ix2 a b) = 0 := k0_pay1_apply a b
theorem k8_pay2_apply (hi hj : Vec Ideal S512x256 .f32) (acc : Vec Ideal S1x1 .f32) (a b : Fin 1) :
    Gen.k8_pay2 (F := Ideal) hi hj acc (ix2 a b)
      = (acc (ix2 a b) : EReal) + ∑ p : Fin 512, ∑ q : Fin 512, ∑ k : Fin 256, hi (ix2 p k) * hj (ix2 q k) :=
  k0_pay2_apply hi hj acc a b

theorem k9_pay1_apply (xi : Vec Ideal S512x256 .f32) (p : Fin 512) (d : Fin 256) :
    Gen.k9_pay1 (F := Ideal) xi (ix2 p d) = 1 * (xi (ix2 p d) : EReal) := k3_pay1_apply xi p d
theorem k9_pay2_apply (hi hj : Vec Ideal S512x256 .f32) (mean : Vec Ideal S1x1 .f32) (xj acc : Vec Ideal S512x256 .f32)
    (p : Fin 512) (d : Fin 256) :
    Gen.k9_pay2 (F := Ideal) hi hj mean xj acc (ix2 p d)
      = (acc (ix2 p d) : EReal) + ∑ q : Fin 512,
          (if (mean (ix2 (0 : Fin 1) (0 : Fin 1)) : EReal) < ∑ k : Fin 256, hi (ix2 p k) * hj (ix2 q k) then (1 : EReal) else 0)
            * xj (ix2 q d) :=
  k3_pay2_apply hi hj mean xj acc p d

theorem k10_pay1_apply (a b : Fin 1) : (Gen.k10_pay1 (F := Ideal)) (ix2 a b) = 0 := k0_pay1_apply a b
theorem k10_pay2_apply (hi hj : Vec Ideal S512x256 .f32) (acc : Vec Ideal S1x1 .f32) (a b : Fin 1) :
    Gen.k10_pay2 (F := Ideal) hi hj acc (ix2 a b)
      = (acc (ix2 a b) : EReal) + ∑ p : Fin 512, ∑ q : Fin 512, ∑ k : Fin 256, hi (ix2 p k) * hj (ix2 q k) :=
  k0_pay2_apply hi hj acc a b

theorem k11_pay1_apply (xi : Vec Ideal S512x256 .f32) (p : Fin 512) (d : Fin 256) :
    Gen.k11_pay1 (F := Ideal) xi (ix2 p d) = 1 * (xi (ix2 p d) : EReal) := k3_pay1_apply xi p d
theorem k11_pay2_apply (hi hj : Vec Ideal S512x256 .f32) (mean : Vec Ideal S1x1 .f32) (xj acc : Vec Ideal S512x256 .f32)
    (p : Fin 512) (d : Fin 256) :
    Gen.k11_pay2 (F := Ideal) hi hj mean xj acc (ix2 p d)
      = (acc (ix2 p d) : EReal) + ∑ q : Fin 512,
          (if (mean (ix2 (0 : Fin 1) (0 : Fin 1)) : EReal) < ∑ k : Fin 256, hi (ix2 p k) * hj (ix2 q k) then (1 : EReal) else 0)
            * xj (ix2 q d) :=
  k3_pay2_apply hi hj mean xj acc p d

theorem k12_pay1_apply (a b : Fin 1) : (Gen.k12_pay1 (F := Ideal)) (ix2 a b) = 0 := k0_pay1_apply a b
theorem k12_pay2_apply (hi hj : Vec Ideal S512x256 .f32) (acc : Vec Ideal S1x1 .f32) (a b : Fin 1) :
    Gen.k12_pay2 (F := Ideal) hi hj acc (ix2 a b)
      = (acc (ix2 a b) : EReal) + ∑ p : Fin 512, ∑ q : Fin 512, ∑ k : Fin 256, hi (ix2 p k) * hj (ix2 q k) :=
  k0_pay2_apply hi hj acc a b

theorem k13_pay1_apply (xi : Vec Ideal S512x256 .f32) (p : Fin 512) (d : Fin 256) :
    Gen.k13_pay1 (F := Ideal) xi (ix2 p d) = 1 * (xi (ix2 p d) : EReal) := k1_pay1_apply xi p d
theorem k13_pay2_apply (hi hj : Vec Ideal S512x256 .f32) (mean : Vec Ideal S1x1 .f32) (xj acc : Vec Ideal S512x256 .f32)
    (p : Fin 512) (d : Fin 256) :
    Gen.k13_pay2 (F := Ideal) hi hj mean xj acc (ix2 p d)
      = (acc (ix2 p d) : EReal) + ∑ q : Fin 512,
          (if (mean (ix2 (0 : Fin 1) (0 : Fin 1)) : EReal) < ∑ k : Fin 256, hi (ix2 p k) * hj (ix2 q k) then (1 : EReal) else 0)
            * xj (ix2 q d) :=
  k1_pay2_apply hi hj mean xj acc p d

theorem k14_pay1_apply (a b : Fin 1) : (Gen.k14_pay1 (F := Ideal)) (ix2 a b) = 0 := k0_pay1_apply a b
theorem k14_pay2_apply (hi hj : Vec Ideal S512x256 .f32) (acc : Vec Ideal S1x1 .f32) (a b : Fin 1) :
    Gen.k14_pay2 (F := Ideal) hi hj acc (ix2 a b)
      = (acc (ix2 a b) : EReal) + ∑ p : Fin 512, ∑ q : Fin 512, ∑ k : Fin 256, hi (ix2 p k) * hj (ix2 q k) :=
  k0_pay2_apply hi hj acc a b

theorem k15_pay1_apply (xi : Vec Ideal S512x256 .f32) (p : Fin 512) (d : Fin 256) :
    Gen.k15_pay1 (F := Ideal) xi (ix2 p d) = 1 * (xi (ix2 p d) : EReal) := k3_pay1_apply xi p d
theorem k15_pay2_apply (hi hj : Vec Ideal S512x256 .f32) (mean : Vec Ideal S1x1 .f32) (xj acc : Vec Ideal S512x256 .f32)
    (p : Fin 512) (d : Fin 256) :
    Gen.k15_pay2 (F := Ideal) hi hj mean xj acc (ix2 p d)
      = (acc (ix2 p d) : EReal) + ∑ q : Fin 512,
          (if (mean (ix2 (0 : Fin 1) (0 : Fin 1)) : EReal) < ∑ k : Fin 256, hi (ix2 p k) * hj (ix2 q k) then (1 : EReal) else 0)
            * xj (ix2 q d) :=
  k3_pay2_apply hi hj mean xj acc p d

theorem k16_pay1_apply (a b : Fin 1) : (Gen.k16_pay1 (F := Ideal)) (ix2 a b) = 0 := k0_pay1_apply a b
theorem k16_pay2_apply (hi hj : Vec Ideal S512x256 .f32) (acc : Vec Ideal S1x1 .f32) (a b : Fin 1) :
    Gen.k16_pay2 (F := Ideal) hi hj acc (ix2 a b)
      = (acc (ix2 a b) : EReal) + ∑ p : Fin 512, ∑ q : Fin 512, ∑ k : Fin 256, hi (ix2 p k) * hj (ix2 q k) :=
  k0_pay2_apply hi hj acc a b

theorem k17_pay1_apply (xi : Vec Ideal S512x256 .f32) (p : Fin 512) (d : Fin 256) :
    Gen.k17_pay1 (F := Ideal) xi (ix2 p d) = 1 * (xi (ix2 p d) : EReal) := k3_pay1_apply xi p d
theorem k17_pay2_apply (hi hj : Vec Ideal S512x256 .f32) (mean : Vec Ideal S1x1 .f32) (xj acc : Vec Ideal S512x256 .f32)
    (p : Fin 512) (d : Fin 256) :
    Gen.k17_pay2 (F := Ideal) hi hj mean xj acc (ix2 p d)
      = (acc (ix2 p d) : EReal) + ∑ q : Fin 512,
          (if (mean (ix2 (0 : Fin 1) (0 : Fin 1)) : EReal) < ∑ k : Fin 256, hi (ix2 p k) * hj (ix2 q k) then (1 : EReal) else 0)
            * xj (ix2 q d) :=
  k3_pay2_apply hi hj mean xj acc p d

theorem k18_pay1_apply (a b : Fin 1) : (Gen.k18_pay1 (F := Ideal)) (ix2 a b) = 0 := k0_pay1_apply a b
theorem k18_pay2_apply (hi hj : Vec Ideal S512x256 .f32) (acc : Vec Ideal S1x1 .f32) (a b : Fin 1) :
    Gen.k18_pay2 (F := Ideal) hi hj acc (ix2 a b)
      = (acc (ix2 a b) : EReal) + ∑ p : Fin 512, ∑ q : Fin 512, ∑ k : Fin 256, hi (ix2 p k) * hj (ix2 q k) :=
  k0_pay2_apply hi hj acc a b

theorem k19_pay1_apply (xi : Vec Ideal S512x256 .f32) (p : Fin 512) (d : Fin 256) :
    Gen.k19_pay1 (F := Ideal) xi (ix2 p d) = 1 * (xi (ix2 p d) : EReal) := k1_pay1_apply xi p d
theorem k19_pay2_apply (hi hj : Vec Ideal S512x256 .f32) (mean : Vec Ideal S1x1 .f32) (xj acc : Vec Ideal S512x256 .f32)
    (p : Fin 512) (d : Fin 256) :
    Gen.k19_pay2 (F := Ideal) hi hj mean xj acc (ix2 p d)
      = (acc (ix2 p d) : EReal) + ∑ q : Fin 512,
          (if (mean (ix2 (0 : Fin 1) (0 : Fin 1)) : EReal) < ∑ k : Fin 256, hi (ix2 p k) * hj (ix2 q k) then (1 : EReal) else 0)
            * xj (ix2 q d) :=
  k1_pay2_apply hi hj mean xj acc p d

theorem k20_pay1_apply (a b : Fin 1) : (Gen.k20_pay1 (F := Ideal)) (ix2 a b) = 0 := k0_pay1_apply a b
theorem k20_pay2_apply (hi hj : Vec Ideal S512x256 .f32) (acc : Vec Ideal S1x1 .f32) (a b : Fin 1) :
    Gen.k20_pay2 (F := Ideal) hi hj acc (ix2 a b)
      = (acc (ix2 a b) : EReal) + ∑ p : Fin 512, ∑ q : Fin 512, ∑ k : Fin 256, hi (ix2 p k) * hj (ix2 q k) :=
  k0_pay2_apply hi hj acc a b

theorem k21_pay1_apply (xi : Vec Ideal S512x256 .f32) (p : Fin 512) (d : Fin 256) :
    Gen.k21_pay1 (F := Ideal) xi (ix2 p d) = 1 * (xi (ix2 p d) : EReal) := k3_pay1_apply xi p d
theorem k21_pay2_apply (hi hj : Vec Ideal S512x256 .f32) (mean : Vec Ideal S1x1 .f32) (xj acc : Vec Ideal S512x256 .f32)
    (p : Fin 512) (d : Fin 256) :
    Gen.k21_pay2 (F := Ideal) hi hj mean xj acc (ix2 p d)
      = (acc (ix2 p d) : EReal) + ∑ q : Fin 512,
          (if (mean (ix2 (0 : Fin 1) (0 : Fin 1)) : EReal) < ∑ k : Fin 256, hi (ix2 p k) * hj (ix2 q k) then (1 : EReal) else 0)
            * xj (ix2 q d) :=
  k3_pay2_apply hi hj mean xj acc p d

theorem k22_pay1_apply (a b : Fin 1) : (Gen.k22_pay1 (F := Ideal)) (ix2 a b) = 0 := k0_pay1_apply a b
theorem k22_pay2_apply (hi hj : Vec Ideal S512x256 .f32) (acc : Vec Ideal S1x1 .f32) (a b : Fin 1) :
    Gen.k22_pay2 (F := Ideal) hi hj acc (ix2 a b)
      = (acc (ix2 a b) : EReal) + ∑ p : Fin 512, ∑ q : Fin 512, ∑ k : Fin 256, hi (ix2 p k) * hj (ix2 q k) :=
  k0_pay2_apply hi hj acc a b

theorem k23_pay1_apply (xi : Vec Ideal S512x256 .f32) (p : Fin 512) (d : Fin 256) :
    Gen.k23_pay1 (F := Ideal) xi (ix2 p d) = 1 * (xi (ix2 p d) : EReal) := k3_pay1_apply xi p d
theorem k23_pay2_apply (hi hj : Vec Ideal S512x256 .f32) (mean : Vec Ideal S1x1 .f32) (xj acc : Vec Ideal S512x256 .f32)
    (p : Fin 512) (d : Fin 256) :
    Gen.k23_pay2 (F := Ideal) hi hj mean xj acc (ix2 p d)
      = (acc (ix2 p d) : EReal) + ∑ q : Fin 512,
          (if (mean (ix2 (0 : Fin 1) (0 : Fin 1)) : EReal) < ∑ k : Fin 256, hi (ix2 p k) * hj (ix2 q k) then (1 : EReal) else 0)
            * xj (ix2 q d) :=
  k3_pay2_apply hi hj mean xj acc p d

/-! ## The sum kernel's payloads as functions of the 1 × 1 index -/

/-- The reset payload is the zero vector. -/
theorem k0_pay1_eq : (Gen.k0_pay1 (F := Ideal)) = fun _ => (0 : EReal) := by
  funext j
  obtain ⟨a, b, rfl⟩ : ∃ (a b : Fin 1), j = ix2 a b := ⟨j 0, j 1, eq_ix2 j⟩
  exact k0_pay1_apply a b

/-- The accumulate payload adds the tile's total to the scratch at its one index. -/
theorem k0_pay2_eq (hi hj : Vec Ideal S512x256 .f32) (acc : Vec Ideal S1x1 .f32) :
    Gen.k0_pay2 (F := Ideal) hi hj acc
      = fun j => (acc j : EReal) + ∑ p : Fin 512, ∑ q : Fin 512, ∑ k : Fin 256, hi (ix2 p k) * hj (ix2 q k) := by
  funext j
  obtain ⟨a, b, rfl⟩ : ∃ (a b : Fin 1), j = ix2 a b := ⟨j 0, j 1, eq_ix2 j⟩
  exact k0_pay2_apply hi hj acc a b

end Cert.KernelIdeal.Hand

end
-- ==== Proof.RgV0.lean ====
import Idealize.ShloMosaic.Lib.Pipeline.Value
import proofs.«169706_j68856915690108_1_alg».proof.Proof.UnitIdx
import proofs.«169706_j68856915690108_1_alg».proof.Proof.AggVal
import proofs.«169706_j68856915690108_1_alg».proof.Proof.TileValue
import proofs.«169706_j68856915690108_1_alg».proof.Proof.LibGridSum
import Idealize.ShloMosaic.Lib.ValueIdx
import proofs.«169706_j68856915690108_1_alg».proof.Proof.Rg0

/-! # part: SumValue -/
/-
  Region 0 (the tile-sum kernel): what the run leaves in the output array.

  The output window's block is the whole 1 × 1 output array, and it is written back once, after the last of the 64
  points. So after the whole grid the output array's one cell holds what the scratch cell held after point 63: the sum
  of all 64 tiles.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The one write-back -/

/-- Only the last point writes the output block back, so no two different points do. -/
theorem disj0_2 (t t' : Fin cfg0.N) (hf : (cfg0.win 2).flush t = true) (hf' : (cfg0.win 2).flush t' = true)
    (hne : t ≠ t') : Disjoint ((cfg0.win 2).blk t).view.set ((cfg0.win 2).blk t').view.set := by
  have hN : cfg0.N = 64 := N_0
  have h := (flush0_2 t).mp hf
  have h' := (flush0_2 t').mp hf'
  have := t.isLt; have := t'.isLt
  exact absurd (Fin.ext (by omega)) hne

/-- The grid has a point 63, its last. -/
theorem last0_lt : 63 < cfg0.N := by decide

/-- The last point writes the output block back. -/
theorem flush0_2_last : (cfg0.win 2).flush ⟨63, last0_lt⟩ = true := (flush0_2 _).mpr (by decide)

/-! ## The output array after the run -/

/-- After the whole grid, the output block read back through the window holds what the scratch cell held after the
    last point. -/
theorem out0_block (V : Valuation τ sig (Elt F)) (c : Dev nD) :
    ((cfg0.win 2).blk ⟨63, last0_lt⟩).view.read (Elt F) ((dat0 (Ix := Ix) (U := U) (Lvl := Lvl) V c).arrAt 2 64)
      = acc0 V c 63 last0_lt :=
  ((dat0 (Ix := Ix) (U := U) (Lvl := Lvl) V c).read_blk_arrAt_eq_flushed 2 disj0_2 64 ⟨63, last0_lt⟩ (by decide)
    flush0_2_last).trans (after0_2 V c ⟨63, last0_lt⟩)

/-- The output array after the whole grid, cell by cell: what the scratch cell held after the last point. -/
theorem arrAt0_2_apply (V : Valuation τ sig (Elt F)) (c : Dev nD) (i : S1x1.Idx) :
    ((dat0 (Ix := Ix) (U := U) (Lvl := Lvl) V c).arrAt 2 64 : S1x1.Idx → Elt F .f32) i = acc0 V c 63 last0_lt i := by
  have h := congrFun (out0_block (Ix := Ix) (U := U) (Lvl := Lvl) V c) i
  rw [View.read_apply] at h
  rw [← h, unit_idx_eq (((cfg0.win 2).blk ⟨63, last0_lt⟩).view.emb i) i]
  rfl

/-- The output array after the whole grid, as a 1 × 1 vector. -/
theorem arrAt0_2 (V : Valuation τ sig (Elt F)) (c : Dev nD) :
    ((dat0 (Ix := Ix) (U := U) (Lvl := Lvl) V c).arrAt 2 64 : S1x1.Idx → Elt F .f32) = acc0 V c 63 last0_lt :=
  funext fun i => arrAt0_2_apply V c i

end Cert.KernelIdeal.Hand

end

/-! # part: RegionValue0 -/
/-
  Region 0 (the tile-sum kernel) read as a value: the cell it accumulates ends at the sum of the whole Gram matrix.

  The grid is 8 × 8, walked row by row: point t = 8·i + j stages rows 512·i … 512·i + 511 of the 4096 × 256 array h
  through its first window and rows 512·j … of the same array through its second (idx_facts0, hi0_apply, hj0_apply).
  At the ideal values the step of one point adds to the 1 × 1 cell the sum of the 512 × 512 tile
  Σ_p Σ_q Σ_k h (512·i + p) k · h (512·j + q) k, and the cell starts from zero, so after point n it holds the tile sums
  of the points 0 … n added one by one (acc0_apply). The 64 tiles are exactly the 8 × 8 tiling of the 4096 × 4096 Gram
  matrix G r s = Σ_k h r k · h s k (tile0_grid), and on the extended reals addition is commutative and associative, so
  after the last point the cell holds Σ_r Σ_s G r s (acc0_last_apply): no finiteness of h is needed. The one write-back, after
  the last point, copies the cell into the 1 × 1 output array (arrAt0_2_value, region0_value).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the array -/

/-- Point t = 8·i + j of the 8 × 8 grid stages rows block i = t / 8 through window 0, rows block j = t % 8 through
    window 1, and the one cell through window 2. -/
theorem idx_facts0 : ∀ t : Fin cfg0.N,
    win0_0.index t 0 = t.val / 8 ∧ win0_0.index t 1 = 0 ∧ win0_1.index t 0 = t.val % 8 ∧ win0_1.index t 1 = 0
      ∧ win0_2.index t 0 = 0 ∧ win0_2.index t 1 = 0 :=
  (by decide +kernel : ∀ t : Fin grid0.N,
    win0_0.index t 0 = t.val / 8 ∧ win0_0.index t 1 = 0 ∧ win0_1.index t 0 = t.val % 8 ∧ win0_1.index t 1 = 0
      ∧ win0_2.index t 0 = 0 ∧ win0_2.index t 1 = 0)

section AnyF

variable {F : FTy → Type} [FloatOps F]

/-- The array h both input windows read: the region-entry contents of the first window's array. -/
abbrev harr0 (V : Valuation τ sig (Elt F)) : Vec F S4096x256 .f32 := V (Proc.devRef .tc main_v18)

/-- The block of h window 0 stages at point t, as a 512 × 256 array. -/
abbrev hi0 (V : Valuation τ sig (Elt F)) (c : Dev nD) (t : Fin cfg0.N) : Vec F S512x256 .f32 := iblk0 V c 0 t
/-- The block of h window 1 stages at point t, as a 512 × 256 array. -/
abbrev hj0 (V : Valuation τ sig (Elt F)) (c : Dev nD) (t : Fin cfg0.N) : Vec F S512x256 .f32 := iblk0 V c 1 t

/-- Window 0's block at point t is rows 512·(t / 8) … of h. -/
theorem hi0_apply (V : Valuation τ sig (Elt F)) (c : Dev nD) (t : Fin cfg0.N) (y : S512x256.Idx) (k : S4096x256.Idx)
    (hkr : (k 0).val = 512 * (t.val / 8) + (y 0).val) (hkc : (k 1).val = (y 1).val) :
    hi0 V c t y = harr0 V k := by
  obtain ⟨hA, hB, -, -, -, -⟩ := idx_facts0 t
  show (iblk0 V c 0 t : Vec F S512x256 .f32) y = _
  unfold iblk0
  rw [View.read_apply]
  show V (Proc.devRef .tc main_v18) _ = V (Proc.devRef .tc main_v18) _
  congr 1
  funext a
  apply Fin.ext
  match a with
  | ⟨0, _⟩ => show win0_0.index t 0 * 512 + 1 * (y 0).val = (k 0).val; rw [hA, hkr]; omega
  | ⟨1, _⟩ => show win0_0.index t 1 * 256 + 1 * (y 1).val = (k 1).val; rw [hB, hkc]; omega

/-- Window 1's block at point t is rows 512·(t % 8) … of h. -/
theorem hj0_apply (V : Valuation τ sig (Elt F)) (c : Dev nD) (t : Fin cfg0.N) (y : S512x256.Idx) (k : S4096x256.Idx)
    (hkr : (k 0).val = 512 * (t.val % 8) + (y 0).val) (hkc : (k 1).val = (y 1).val) :
    hj0 V c t y = harr0 V k := by
  obtain ⟨-, -, hA, hB, -, -⟩ := idx_facts0 t
  show (iblk0 V c 1 t : Vec F S512x256 .f32) y = _
  unfold iblk0
  rw [View.read_apply]
  show V (Proc.devRef .tc main_v18) _ = V (Proc.devRef .tc main_v18) _
  congr 1
  funext a
  apply Fin.ext
  match a with
  | ⟨0, _⟩ => show win0_1.index t 0 * 512 + 1 * (y 0).val = (k 0).val; rw [hA, hkr]; omega
  | ⟨1, _⟩ => show win0_1.index t 1 * 256 + 1 * (y 1).val = (k 1).val; rw [hB, hkc]; omega

end AnyF

/-! ## The accumulated cell at the ideal values -/

/-- The Gram matrix of the rows of h: entry (r, s) is the sum over the 256 columns of the products. -/
noncomputable def gram0 (V : Valuation τ sig (Elt Ideal)) (r s : Fin 4096) : EReal :=
  ∑ k : Fin 256, (harr0 V (ix2 r k) : EReal) * (harr0 V (ix2 s k) : EReal)

/-- The sum of the 512 × 512 tile the point t stages (zero past the grid). -/
noncomputable def tile0 (V : Valuation τ sig (Elt Ideal)) (c : Dev nD) (t : ℕ) : EReal :=
  if ht : t < cfg0.N then
    ∑ p : Fin 512, ∑ q : Fin 512, ∑ k : Fin 256, (hi0 V c ⟨t, ht⟩ (ix2 p k) : EReal) * (hj0 V c ⟨t, ht⟩ (ix2 q k) : EReal)
  else 0

theorem tile0_of_lt (V : Valuation τ sig (Elt Ideal)) (c : Dev nD) (t : ℕ) (ht : t < cfg0.N) :
    tile0 V c t
      = ∑ p : Fin 512, ∑ q : Fin 512, ∑ k : Fin 256, (hi0 V c ⟨t, ht⟩ (ix2 p k) : EReal) * (hj0 V c ⟨t, ht⟩ (ix2 q k) : EReal) := by
  unfold tile0
  exact dif_pos ht

/-- After point n the cell holds the tile sums of the points 0 … n added one by one onto zero. -/
theorem acc0_apply (V : Valuation τ sig (Elt Ideal)) (c : Dev nD) :
    ∀ (n : ℕ) (hn : n < cfg0.N) (a b : Fin 1),
      ((acc0 V c n hn : Vec Ideal S1x1 .f32) (ix2 a b) : EReal) = GridSum.accFold 0 (tile0 V c) (n + 1)
  | 0, hn, a, b => by
    have e := k0_pay2_apply (hi0 V c ⟨0, hn⟩) (hj0 V c ⟨0, hn⟩) (k0_pay1 (F := Ideal)) a b
    rw [k0_pay1_apply] at e
    rw [GridSum.accFold_succ, GridSum.accFold_zero, tile0_of_lt V c 0 hn]
    exact e
  | n + 1, hn, a, b => by
    have e := k0_pay2_apply (hi0 V c ⟨n + 1, hn⟩) (hj0 V c ⟨n + 1, hn⟩) (acc0 V c n (Nat.lt_of_succ_lt hn)) a b
    rw [acc0_apply V c n (Nat.lt_of_succ_lt hn) a b] at e
    rw [GridSum.accFold_succ _ _ (n + 1), tile0_of_lt V c (n + 1) hn]
    exact e

/-- The tile of point 8·i + j is the 512 × 512 tile (i, j) of the Gram matrix. -/
theorem tile0_grid (V : Valuation τ sig (Elt Ideal)) (c : Dev nD) (i j : Fin 8) :
    tile0 V c (8 * (i : ℕ) + (j : ℕ))
      = ∑ p : Fin 512, ∑ q : Fin 512, gram0 V (GridSum.idx4096 i p) (GridSum.idx4096 j q) := by
  have hi : (i : ℕ) < 8 := i.isLt
  have hj : (j : ℕ) < 8 := j.isLt
  have hN : cfg0.N = 64 := N_0
  have ht : 8 * (i : ℕ) + (j : ℕ) < cfg0.N := by omega
  rw [tile0_of_lt V c _ ht]
  refine Finset.sum_congr rfl fun p _ => Finset.sum_congr rfl fun q _ => ?_
  unfold gram0
  refine Finset.sum_congr rfl fun k _ => ?_
  rw [hi0_apply V c ⟨_, ht⟩ (ix2 p k) (ix2 (GridSum.idx4096 i p) k)
      (by show 512 * (i : ℕ) + (p : ℕ) = 512 * ((8 * (i : ℕ) + (j : ℕ)) / 8) + (p : ℕ); omega) rfl,
    hj0_apply V c ⟨_, ht⟩ (ix2 q k) (ix2 (GridSum.idx4096 j q) k)
      (by show 512 * (j : ℕ) + (q : ℕ) = 512 * ((8 * (i : ℕ) + (j : ℕ)) % 8) + (q : ℕ); omega) rfl]

/-- THE SUM KERNEL'S VALUE. After the last point the cell holds the sum of the whole 4096 × 4096 Gram matrix of the
    rows of h: the 64 tile sums, taken in the grid's row-major order, add up to the sum over all pairs of rows. -/
theorem acc0_last_apply (V : Valuation τ sig (Elt Ideal)) (c : Dev nD) (hlast : 63 < cfg0.N) (a b : Fin 1) :
    ((acc0 V c 63 hlast : Vec Ideal S1x1 .f32) (ix2 a b) : EReal)
      = ∑ r : Fin 4096, ∑ s : Fin 4096, ∑ k : Fin 256, (harr0 V (ix2 r k) : EReal) * (harr0 V (ix2 s k) : EReal) := by
  rw [acc0_apply V c 63 hlast a b, GridSum.accFold_tiles_4096 (gram0 V) 0 (tile0 V c) (tile0_grid V c), zero_add]
  rfl

/-! ## The output array after the run -/

section Array

variable {Ix : Type} [DecidableEq Ix] {U : Type} [URA U] {Lvl : Type}

/-- THE SUM KERNEL'S OUTPUT ARRAY at the ideal values: after the whole grid its one cell holds the sum of the whole
    4096 × 4096 Gram matrix of the rows of h. -/
theorem arrAt0_2_value (V : Valuation τ sig (Elt Ideal)) (c : Dev nD) (a b : Fin 1) :
    (((dat0 (Ix := Ix) (U := U) (Lvl := Lvl) V c).arrAt 2 64 : S1x1.Idx → Elt Ideal .f32) (ix2 a b) : EReal)
      = ∑ r : Fin 4096, ∑ s : Fin 4096, ∑ k : Fin 256, (harr0 V (ix2 r k) : EReal) * (harr0 V (ix2 s k) : EReal) :=
  (arrAt0_2_apply (Ix := Ix) (U := U) (Lvl := Lvl) V c (ix2 a b)).trans (acc0_last_apply V c (by decide) a b)

/-- The same as an equation of arrays: the output array is the closed form sumVal of h. -/
theorem region0_value (V : Valuation τ sig (Elt Ideal)) (c : Dev nD) :
    ((dat0 (Ix := Ix) (U := U) (Lvl := Lvl) V c).arrAt 2 64 : S1x1.Idx → Elt Ideal .f32) = Cert.Hand.sumVal (harr0 V) := by
  funext i
  obtain ⟨a, b, rfl⟩ : ∃ (a b : Fin 1), i = ix2 a b := ⟨i 0, i 1, eq_ix2 i⟩
  exact arrAt0_2_value (Ix := Ix) (U := U) (Lvl := Lvl) V c a b

end Array

end Cert.KernelIdeal.Hand

end
-- ==== Proof.RegionValueLib.lean ====
/-
  Index arithmetic shared by the regions' value modules: every row of the 4096 lies in exactly one of the eight blocks
  of 512 consecutive rows, at offset r % 512 of block r / 512.
-/
import proofs.«169706_j68856915690108_1_alg».proof.Proof.LibGridSum

namespace GridSum

/-- Every row r of the 4096 is offset r % 512 of row block r / 512: r = 512·(r / 512) + r % 512. -/
theorem exists_idx4096 (r : Fin 4096) : ∃ (i : Fin 8) (p : Fin 512), r = idx4096 i p :=
  ⟨⟨r.val / 512, by have := r.isLt; omega⟩, ⟨r.val % 512, by omega⟩,
    Fin.ext (by show r.val = 512 * (r.val / 512) + r.val % 512; omega)⟩

end GridSum
-- ==== Proof.RgV1.lean ====
import Idealize.ShloMosaic.Lib.Pipeline.Value
import proofs.«169706_j68856915690108_1_alg».proof.Proof.TileValue
import proofs.«169706_j68856915690108_1_alg».proof.Proof.LibGridSum
import proofs.«169706_j68856915690108_1_alg».proof.Proof.RegionValueLib
import proofs.«169706_j68856915690108_1_alg».proof.Proof.AggVal
import Idealize.ShloMosaic.Lib.ValueIdx
import proofs.«169706_j68856915690108_1_alg».proof.Proof.Rg1

/-! # part: ApplyOut -/
/-
  Region 1 (the aggregation kernel): what the run leaves in the output array.

  The accumulator after point t is the fold over the run of eight points that t lies in (the points 8·(t / 8) …
  8·(t / 8) + 7 share the row block i = t / 8): reset and stepped at the run's first point, stepped at each later one.
  The output window's block at point t is row block t / 8 of the output array, written back at the run's last point
  only (t % 8 = 7); two such points have different row blocks, so their blocks of the array are disjoint, and after
  the whole grid block i of the output array holds what the accumulator held after point 8·i + 7.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The accumulator as a fold over its run -/

/-- The accumulator after point `t` is the fold over the run of eight points `t` lies in, up to `t`. -/
theorem acc1_fold (V : Valuation τ sig (Elt F)) (c : Dev nD) (t : ℕ) (ht : t < cfg1.N)
    (h' : 8 * (t / 8) + t % 8 < cfg1.N) :
    acc1 V c t ht = Pipeline.accAt (fun n h => step1 V c n h (init1 V c n h)) (fun n h a => step1 V c n h a)
      (8 * (t / 8)) (t % 8) h' :=
  Pipeline.eq_accAt_of_mod (acc1 V c) 8 (fun n h => step1 V c n h (init1 V c n h)) (fun n h a => step1 V c n h a)
    (fun n h h0 => acc1_reset V c n h h0) (fun n h h0 => if_neg h0) (by decide) t ht h'

/-! ## The output window's blocks -/

/-- The output window's block index along the rows at point `t` is `t / 8`. -/
theorem idx1_5 : ∀ t : Fin cfg1.N, win1_5.index t (0 : Fin 2) = t.val / 8 :=
  (by decide +kernel : ∀ t : Fin grid1.N, win1_5.index t (0 : Fin 2) = t.val / 8)

/-- Two different points that write the output block back write disjoint blocks of the array. -/
theorem disj1_5 (t t' : Fin cfg1.N) (hf : (cfg1.win 5).flush t = true) (hf' : (cfg1.win 5).flush t' = true)
    (hne : t ≠ t') : Disjoint ((cfg1.win 5).blk t).view.set ((cfg1.win 5).blk t').view.set := by
  refine (cfg1.win 5).disjoint_blk fun h => hne (Fin.ext ?_)
  have h0 : win1_5.index t (0 : Fin 2) = win1_5.index t' (0 : Fin 2) := congrFun h (0 : Fin 2)
  rw [idx1_5 t, idx1_5 t'] at h0
  have h7 := (flush1_5 t).mp hf
  have h7' := (flush1_5 t').mp hf'
  omega

/-! ## The output array after the run -/

/-- After the whole grid, the block of the output array under a point that writes back (`t % 8 = 7`) holds what the
    accumulator held after that point. -/
theorem out1_block (V : Valuation τ sig (Elt F)) (c : Dev nD) (t : Fin cfg1.N) (ht : t.val % 8 = 7) :
    ((cfg1.win 5).blk t).view.read (Elt F) ((dat1 (Ix := Ix) (U := U) (Lvl := Lvl) V c).arrAt 5 64)
      = acc1 V c t.val t.isLt := by
  have hN : cfg1.N = 64 := N_1
  have hlt : t.val < 64 := Nat.lt_of_lt_of_eq t.isLt hN
  exact ((dat1 (Ix := Ix) (U := U) (Lvl := Lvl) V c).read_blk_arrAt_eq_flushed 5 disj1_5 64 t hlt
    ((flush1_5 t).mpr ht)).trans (after1_5 V c t)

end Cert.KernelIdeal.Hand

end

/-! # part: RegionValue1 -/
/-
  Region 1 (the aggregation kernel) read as a value: row r of its output is 1·x r plus the masked sum over all rows.

  The grid is 8 × 8, walked row by row: point t = 8·i + j stages the one threshold cell, rows 512·i … of the 4096 × 256
  arrays h and x (row block i) and rows 512·j … of the same two arrays (row block j) (idx_facts1 and the block reads
  mb1_apply … xj1_apply). At the ideal values the reset at j = 0 leaves 1·x r in the accumulator's entry of row
  r = 512·i + p (init1_apply), and the step of point 8·i + j adds Σ_q mask r (512·j + q) · x (512·j + q), the mask
  being 1 where the Gram matrix G r s = Σ_k h r k · h s k is above the threshold and 0 elsewhere (step1_apply). So after
  the eight points of row block i the entry holds 1·x r with the eight column blocks' terms added one by one
  (acc1_apply), which is 1·x r + Σ_s mask r s · x s over all 4096 rows s (acc1_last_apply): the eight blocks of 512 tile
  the 4096 columns, and addition on the extended reals is commutative and associative. The write-back at j = 7 puts
  that row block into the output array (arrAt1_5_block, arrAt1_5_value), and because the mask's entries are zeros and
  ones the diagonal term can be folded in: Σ_s (mask r s + δ r s) · x s (arrAt1_5_agg).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the arrays -/

/-- Point t = 8·i + j of the 8 × 8 grid stages: the one threshold cell (window 0), rows block i = t / 8 of h and of x
    (windows 1 and 3), rows block j = t % 8 of h and of x (windows 2 and 4), and writes rows block i of the output
    (window 5). -/
theorem idx_facts1 : ∀ t : Fin cfg1.N,
    (win1_0.index t 0 = 0 ∧ win1_0.index t 1 = 0) ∧ (win1_1.index t 0 = t.val / 8 ∧ win1_1.index t 1 = 0)
      ∧ (win1_2.index t 0 = t.val % 8 ∧ win1_2.index t 1 = 0) ∧ (win1_3.index t 0 = t.val / 8 ∧ win1_3.index t 1 = 0)
      ∧ (win1_4.index t 0 = t.val % 8 ∧ win1_4.index t 1 = 0) ∧ (win1_5.index t 0 = t.val / 8 ∧ win1_5.index t 1 = 0) :=
  (by decide +kernel : ∀ t : Fin grid1.N,
    (win1_0.index t 0 = 0 ∧ win1_0.index t 1 = 0) ∧ (win1_1.index t 0 = t.val / 8 ∧ win1_1.index t 1 = 0)
      ∧ (win1_2.index t 0 = t.val % 8 ∧ win1_2.index t 1 = 0) ∧ (win1_3.index t 0 = t.val / 8 ∧ win1_3.index t 1 = 0)
      ∧ (win1_4.index t 0 = t.val % 8 ∧ win1_4.index t 1 = 0) ∧ (win1_5.index t 0 = t.val / 8 ∧ win1_5.index t 1 = 0))

section AnyF

variable {F : FTy → Type} [FloatOps F]

/-- The threshold cell, the array h and the array x the region reads: region-entry contents. -/
abbrev marr1 (V : Valuation τ sig (Elt F)) : Vec F S1x1 .f32 := V (Proc.devRef .tc main_v21)
abbrev harr1 (V : Valuation τ sig (Elt F)) : Vec F S4096x256 .f32 := V (Proc.devRef .tc main_v18)
abbrev xarr1 (V : Valuation τ sig (Elt F)) : Vec F S4096x256 .f32 := V (Proc.devRef .tc main_arg0)

/-- The five input blocks at point t, each as an array of its literal shape. -/
abbrev mb1 (V : Valuation τ sig (Elt F)) (c : Dev nD) (t : Fin cfg1.N) : Vec F S1x1 .f32 := iblk1 V c 0 t
abbrev hi1 (V : Valuation τ sig (Elt F)) (c : Dev nD) (t : Fin cfg1.N) : Vec F S512x256 .f32 := iblk1 V c 1 t
abbrev hj1 (V : Valuation τ sig (Elt F)) (c : Dev nD) (t : Fin cfg1.N) : Vec F S512x256 .f32 := iblk1 V c 2 t
abbrev xi1 (V : Valuation τ sig (Elt F)) (c : Dev nD) (t : Fin cfg1.N) : Vec F S512x256 .f32 := iblk1 V c 3 t
abbrev xj1 (V : Valuation τ sig (Elt F)) (c : Dev nD) (t : Fin cfg1.N) : Vec F S512x256 .f32 := iblk1 V c 4 t

/-- Window 0's block is the threshold cell itself. -/
theorem mb1_apply (V : Valuation τ sig (Elt F)) (c : Dev nD) (t : Fin cfg1.N) (y : S1x1.Idx) :
    mb1 V c t y = marr1 V y := by
  obtain ⟨⟨hA, hB⟩, -, -, -, -, -⟩ := idx_facts1 t
  show (iblk1 V c 0 t : Vec F S1x1 .f32) y = _
  unfold iblk1
  rw [View.read_apply]
  show V (Proc.devRef .tc main_v21) _ = V (Proc.devRef .tc main_v21) _
  congr 1
  funext a
  apply Fin.ext
  match a with
  | ⟨0, _⟩ => show win1_0.index t 0 * 1 + 1 * (y 0).val = (y 0).val; rw [hA]; omega
  | ⟨1, _⟩ => show win1_0.index t 1 * 1 + 1 * (y 1).val = (y 1).val; rw [hB]; omega

/-- Window 1's block at point t is rows 512·(t / 8) … of h. -/
theorem hi1_apply (V : Valuation τ sig (Elt F)) (c : Dev nD) (t : Fin cfg1.N) (y : S512x256.Idx) (k : S4096x256.Idx)
    (hkr : (k 0).val = 512 * (t.val / 8) + (y 0).val) (hkc : (k 1).val = (y 1).val) :
    hi1 V c t y = harr1 V k := by
  obtain ⟨-, ⟨hA, hB⟩, -, -, -, -⟩ := idx_facts1 t
  show (iblk1 V c 1 t : Vec F S512x256 .f32) y = _
  unfold iblk1
  rw [View.read_apply]
  show V (Proc.devRef .tc main_v18) _ = V (Proc.devRef .tc main_v18) _
  congr 1
  funext a
  apply Fin.ext
  match a with
  | ⟨0, _⟩ => show win1_1.index t 0 * 512 + 1 * (y 0).val = (k 0).val; rw [hA, hkr]; omega
  | ⟨1, _⟩ => show win1_1.index t 1 * 256 + 1 * (y 1).val = (k 1).val; rw [hB, hkc]; omega

/-- Window 2's block at point t is rows 512·(t % 8) … of h. -/
theorem hj1_apply (V : Valuation τ sig (Elt F)) (c : Dev nD) (t : Fin cfg1.N) (y : S512x256.Idx) (k : S4096x256.Idx)
    (hkr : (k 0).val = 512 * (t.val % 8) + (y 0).val) (hkc : (k 1).val = (y 1).val) :
    hj1 V c t y = harr1 V k := by
  obtain ⟨-, -, ⟨hA, hB⟩, -, -, -⟩ := idx_facts1 t
  show (iblk1 V c 2 t : Vec F S512x256 .f32) y = _
  unfold iblk1
  rw [View.read_apply]
  show V (Proc.devRef .tc main_v18) _ = V (Proc.devRef .tc main_v18) _
  congr 1
  funext a
  apply Fin.ext
  match a with
  | ⟨0, _⟩ => show win1_2.index t 0 * 512 + 1 * (y 0).val = (k 0).val; rw [hA, hkr]; omega
  | ⟨1, _⟩ => show win1_2.index t 1 * 256 + 1 * (y 1).val = (k 1).val; rw [hB, hkc]; omega

/-- Window 3's block at point t is rows 512·(t / 8) … of x. -/
theorem xi1_apply (V : Valuation τ sig (Elt F)) (c : Dev nD) (t : Fin cfg1.N) (y : S512x256.Idx) (k : S4096x256.Idx)
    (hkr : (k 0).val = 512 * (t.val / 8) + (y 0).val) (hkc : (k 1).val = (y 1).val) :
    xi1 V c t y = xarr1 V k := by
  obtain ⟨-, -, -, ⟨hA, hB⟩, -, -⟩ := idx_facts1 t
  show (iblk1 V c 3 t : Vec F S512x256 .f32) y = _
  unfold iblk1
  rw [View.read_apply]
  show V (Proc.devRef .tc main_arg0) _ = V (Proc.devRef .tc main_arg0) _
  congr 1
  funext a
  apply Fin.ext
  match a with
  | ⟨0, _⟩ => show win1_3.index t 0 * 512 + 1 * (y 0).val = (k 0).val; rw [hA, hkr]; omega
  | ⟨1, _⟩ => show win1_3.index t 1 * 256 + 1 * (y 1).val = (k 1).val; rw [hB, hkc]; omega

/-- Window 4's block at point t is rows 512·(t % 8) … of x. -/
theorem xj1_apply (V : Valuation τ sig (Elt F)) (c : Dev nD) (t : Fin cfg1.N) (y : S512x256.Idx) (k : S4096x256.Idx)
    (hkr : (k 0).val = 512 * (t.val % 8) + (y 0).val) (hkc : (k 1).val = (y 1).val) :
    xj1 V c t y = xarr1 V k := by
  obtain ⟨-, -, -, -, ⟨hA, hB⟩, -⟩ := idx_facts1 t
  show (iblk1 V c 4 t : Vec F S512x256 .f32) y = _
  unfold iblk1
  rw [View.read_apply]
  show V (Proc.devRef .tc main_arg0) _ = V (Proc.devRef .tc main_arg0) _
  congr 1
  funext a
  apply Fin.ext
  match a with
  | ⟨0, _⟩ => show win1_4.index t 0 * 512 + 1 * (y 0).val = (k 0).val; rw [hA, hkr]; omega
  | ⟨1, _⟩ => show win1_4.index t 1 * 256 + 1 * (y 1).val = (k 1).val; rw [hB, hkc]; omega

/-- The accumulator after point n depends on n only through its value. -/
theorem acc1_congr (V : Valuation τ sig (Elt F)) (c : Dev nD) {n n' : ℕ} (e : n = n') (hn : n < cfg1.N) (hn' : n' < cfg1.N) :
    acc1 V c n hn = acc1 V c n' hn' := by
  subst e; rfl

/-- At the first point of row block i the accumulator is reset and stepped once … -/
theorem acc1_row_zero (V : Valuation τ sig (Elt F)) (c : Dev nD) (i : ℕ) (hn : 8 * i + 0 < cfg1.N) :
    acc1 V c (8 * i + 0) hn = step1 V c (8 * i + 0) hn (init1 V c (8 * i + 0) hn) :=
  acc1_reset V c (8 * i + 0) hn (by omega)

/-- … and at each later point of the row block it is stepped from what the point before left. -/
theorem acc1_row_succ (V : Valuation τ sig (Elt F)) (c : Dev nD) (i j : ℕ) (hj : j + 1 < 8) (hn : 8 * i + (j + 1) < cfg1.N) :
    acc1 V c (8 * i + (j + 1)) hn = step1 V c (8 * i + (j + 1)) hn (acc1 V c (8 * i + j) (by omega)) :=
  (acc1_step V c (8 * i + (j + 1)) hn (by omega)).trans
    (congrArg (step1 V c (8 * i + (j + 1)) hn) (acc1_congr V c (by omega) _ _))

end AnyF

/-! ## The accumulator at the ideal values -/

/-- The Gram matrix of the rows of h. -/
noncomputable def gram1 (V : Valuation τ sig (Elt Ideal)) (r s : Fin 4096) : EReal :=
  ∑ k : Fin 256, (harr1 V (ix2 r k) : EReal) * (harr1 V (ix2 s k) : EReal)

/-- The 0/1 mask: 1 where the Gram matrix's entry is above the threshold, else 0. -/
noncomputable def mask1 (V : Valuation τ sig (Elt Ideal)) (r s : Fin 4096) : EReal :=
  if (marr1 V (ix2 (0 : Fin 1) (0 : Fin 1)) : EReal) < gram1 V r s then 1 else 0

/-- The mask's entries are zero or one. -/
theorem mask1_zero_or_one (V : Valuation τ sig (Elt Ideal)) (r s : Fin 4096) : mask1 V r s = 0 ∨ mask1 V r s = 1 := by
  unfold mask1
  exact GridSum.ite_zero_or_one _

/-- What column block j adds to the accumulator's entry of row r and feature d (zero past the eight blocks). -/
noncomputable def blockTerm1 (V : Valuation τ sig (Elt Ideal)) (r : Fin 4096) (d : Fin 256) (j : ℕ) : EReal :=
  if hj : j < 8 then
    ∑ q : Fin 512, mask1 V r (GridSum.idx4096 ⟨j, hj⟩ q) * (xarr1 V (ix2 (GridSum.idx4096 ⟨j, hj⟩ q) d) : EReal)
  else 0

theorem blockTerm1_of_lt (V : Valuation τ sig (Elt Ideal)) (r : Fin 4096) (d : Fin 256) (j : ℕ) (hj : j < 8) :
    blockTerm1 V r d j
      = ∑ q : Fin 512, mask1 V r (GridSum.idx4096 ⟨j, hj⟩ q) * (xarr1 V (ix2 (GridSum.idx4096 ⟨j, hj⟩ q) d) : EReal) := by
  unfold blockTerm1
  exact dif_pos hj

/-- One step at point 8·i + j adds column block j's term to the entry of row 512·i + p. -/
theorem step1_apply (V : Valuation τ sig (Elt Ideal)) (c : Dev nD) (i : Fin 8) (j : ℕ) (hj : j < 8)
    (hn : 8 * (i : ℕ) + j < cfg1.N) (a : Vec Ideal S512x256 .f32) (p : Fin 512) (d : Fin 256) :
    (step1 V c (8 * (i : ℕ) + j) hn a (ix2 p d) : EReal) = (a (ix2 p d) : EReal) + blockTerm1 V (GridSum.idx4096 i p) d j := by
  have hi : (i : ℕ) < 8 := i.isLt
  have e := k1_pay2_apply (hi1 V c ⟨8 * (i : ℕ) + j, hn⟩) (hj1 V c ⟨8 * (i : ℕ) + j, hn⟩) (mb1 V c ⟨8 * (i : ℕ) + j, hn⟩)
    (xj1 V c ⟨8 * (i : ℕ) + j, hn⟩) a p d
  rw [blockTerm1_of_lt V _ d j hj]
  refine e.trans ?_
  congr 1
  refine Finset.sum_congr rfl fun q _ => ?_
  rw [mb1_apply V c ⟨8 * (i : ℕ) + j, hn⟩ (ix2 (0 : Fin 1) (0 : Fin 1)),
    xj1_apply V c ⟨8 * (i : ℕ) + j, hn⟩ (ix2 q d) (ix2 (GridSum.idx4096 ⟨j, hj⟩ q) d)
      (by show 512 * j + (q : ℕ) = 512 * ((8 * (i : ℕ) + j) % 8) + (q : ℕ); omega) rfl]
  congr 1
  unfold mask1 gram1
  have hs : (∑ k : Fin 256, (hi1 V c ⟨8 * (i : ℕ) + j, hn⟩ (ix2 p k) : EReal) * (hj1 V c ⟨8 * (i : ℕ) + j, hn⟩ (ix2 q k) : EReal))
      = ∑ k : Fin 256, (harr1 V (ix2 (GridSum.idx4096 i p) k) : EReal) * (harr1 V (ix2 (GridSum.idx4096 ⟨j, hj⟩ q) k) : EReal) :=
    Finset.sum_congr rfl fun k _ => by
      rw [hi1_apply V c ⟨8 * (i : ℕ) + j, hn⟩ (ix2 p k) (ix2 (GridSum.idx4096 i p) k)
          (by show 512 * (i : ℕ) + (p : ℕ) = 512 * ((8 * (i : ℕ) + j) / 8) + (p : ℕ); omega) rfl,
        hj1_apply V c ⟨8 * (i : ℕ) + j, hn⟩ (ix2 q k) (ix2 (GridSum.idx4096 ⟨j, hj⟩ q) k)
          (by show 512 * j + (q : ℕ) = 512 * ((8 * (i : ℕ) + j) % 8) + (q : ℕ); omega) rfl]
  rw [hs]

/-- The reset value at point 8·i + j is 1 times the entry of x at row 512·i + p. -/
theorem init1_apply (V : Valuation τ sig (Elt Ideal)) (c : Dev nD) (i : Fin 8) (j : ℕ) (hj : j < 8)
    (hn : 8 * (i : ℕ) + j < cfg1.N) (p : Fin 512) (d : Fin 256) :
    (init1 V c (8 * (i : ℕ) + j) hn (ix2 p d) : EReal) = 1 * (xarr1 V (ix2 (GridSum.idx4096 i p) d) : EReal) := by
  have hi : (i : ℕ) < 8 := i.isLt
  have e := k1_pay1_apply (xi1 V c ⟨8 * (i : ℕ) + j, hn⟩) p d
  refine e.trans ?_
  rw [xi1_apply V c ⟨8 * (i : ℕ) + j, hn⟩ (ix2 p d) (ix2 (GridSum.idx4096 i p) d)
    (by show 512 * (i : ℕ) + (p : ℕ) = 512 * ((8 * (i : ℕ) + j) / 8) + (p : ℕ); omega) rfl]

/-- After point 8·i + j the accumulator's entry of row r = 512·i + p holds 1·x r with the terms of the column blocks
    0 … j added one by one. -/
theorem acc1_apply (V : Valuation τ sig (Elt Ideal)) (c : Dev nD) (i : Fin 8) (p : Fin 512) (d : Fin 256) :
    ∀ (j : ℕ) (hj : j < 8) (hn : 8 * (i : ℕ) + j < cfg1.N),
      (acc1 V c (8 * (i : ℕ) + j) hn (ix2 p d) : EReal)
        = GridSum.accFold (1 * (xarr1 V (ix2 (GridSum.idx4096 i p) d) : EReal)) (blockTerm1 V (GridSum.idx4096 i p) d) (j + 1)
  | 0, hj, hn => by
    rw [acc1_row_zero V c (i : ℕ) hn, step1_apply V c i 0 hj hn _ p d, init1_apply V c i 0 hj hn p d,
      GridSum.accFold_succ, GridSum.accFold_zero]
  | j + 1, hj, hn => by
    rw [acc1_row_succ V c (i : ℕ) j hj hn, step1_apply V c i (j + 1) hj hn _ p d,
      acc1_apply V c i p d j (by omega) (by omega), GridSum.accFold_succ _ _ (j + 1)]

/-- THE AGGREGATION KERNEL'S VALUE at the last point of row block i: the entry of row r = 512·i + p and feature d is
    1·x r d plus the sum over all 4096 rows s of mask r s · x s d. -/
theorem acc1_last_apply (V : Valuation τ sig (Elt Ideal)) (c : Dev nD) (i : Fin 8) (p : Fin 512) (d : Fin 256)
    (hn : 8 * (i : ℕ) + 7 < cfg1.N) :
    (acc1 V c (8 * (i : ℕ) + 7) hn (ix2 p d) : EReal)
      = 1 * (xarr1 V (ix2 (GridSum.idx4096 i p) d) : EReal)
        + ∑ s : Fin 4096, mask1 V (GridSum.idx4096 i p) s * (xarr1 V (ix2 s d) : EReal) := by
  rw [acc1_apply V c i p d 7 (by omega) hn, GridSum.accFold_eq_sum,
    GridSum.sum_range_fin (blockTerm1 V (GridSum.idx4096 i p) d)
      (fun j : Fin 8 => ∑ q : Fin 512, mask1 V (GridSum.idx4096 i p) (GridSum.idx4096 j q) * (xarr1 V (ix2 (GridSum.idx4096 j q) d) : EReal))
      (fun j => blockTerm1_of_lt V _ d (j : ℕ) j.isLt),
    GridSum.sum_blocks GridSum.eight_mul (fun s : Fin 4096 => mask1 V (GridSum.idx4096 i p) s * (xarr1 V (ix2 s d) : EReal))]

/-! ## The output array after the run -/

section Array

variable {F : FTy → Type} [FloatOps F]
variable {Ix : Type} [DecidableEq Ix] {U : Type} [URA U] {Lvl : Type}

/-- The output window's block at point t is rows 512·(t / 8) … of the output array. -/
theorem oblk1_apply (c : Dev nD) (X : Buf (Elt F) ((cfg1.win 5).arr.view.loc (c.tc : Thread nD τ))) (t : Fin cfg1.N)
    (y : S512x256.Idx) (k : S4096x256.Idx) (hkr : (k 0).val = 512 * (t.val / 8) + (y 0).val) (hkc : (k 1).val = (y 1).val) :
    (((cfg1.win 5).blk t).view.read (Elt F) X : Vec F S512x256 .f32) y = (X : S4096x256.Idx → Elt F .f32) k := by
  obtain ⟨-, -, -, -, -, ⟨hA, hB⟩⟩ := idx_facts1 t
  rw [View.read_apply]
  have e : ((cfg1.win 5).blk t).view.emb y = k := by
    funext a
    apply Fin.ext
    match a with
    | ⟨0, _⟩ => show win1_5.index t 0 * 512 + 1 * (y 0).val = (k 0).val; rw [hA, hkr]; omega
    | ⟨1, _⟩ => show win1_5.index t 1 * 256 + 1 * (y 1).val = (k 1).val; rw [hB, hkc]; omega
  exact congrArg X e

/-- After the whole grid the output array's entry of row 512·i + p is what the accumulator held, at row p, after the
    last point of row block i. -/
theorem arrAt1_5_block (V : Valuation τ sig (Elt F)) (c : Dev nD) (i : Fin 8) (p : Fin 512) (d : Fin 256)
    (hn : 8 * (i : ℕ) + 7 < cfg1.N) :
    ((dat1 (Ix := Ix) (U := U) (Lvl := Lvl) V c).arrAt 5 64 : S4096x256.Idx → Elt F .f32) (ix2 (GridSum.idx4096 i p) d)
      = (acc1 V c (8 * (i : ℕ) + 7) hn : Vec F S512x256 .f32) (ix2 p d) := by
  have hi : (i : ℕ) < 8 := i.isLt
  refine (oblk1_apply c ((dat1 (Ix := Ix) (U := U) (Lvl := Lvl) V c).arrAt 5 64) ⟨8 * (i : ℕ) + 7, hn⟩ (ix2 p d)
    (ix2 (GridSum.idx4096 i p) d)
    (by show 512 * (i : ℕ) + (p : ℕ) = 512 * ((8 * (i : ℕ) + 7) / 8) + (p : ℕ); omega) rfl).symm.trans ?_
  exact congrFun (out1_block (Ix := Ix) (U := U) (Lvl := Lvl) V c ⟨8 * (i : ℕ) + 7, hn⟩
    (by show (8 * (i : ℕ) + 7) % 8 = 7; omega)) (ix2 p d)

/-- THE AGGREGATION KERNEL'S OUTPUT ARRAY at the ideal values: the entry of row r and feature d is 1·x r d plus the sum
    over all rows s of mask r s · x s d, the mask being 1 where the Gram matrix of the rows of h is above the threshold. -/
theorem arrAt1_5_value (V : Valuation τ sig (Elt Ideal)) (c : Dev nD) (r : Fin 4096) (d : Fin 256) :
    (((dat1 (Ix := Ix) (U := U) (Lvl := Lvl) V c).arrAt 5 64 : S4096x256.Idx → Elt Ideal .f32) (ix2 r d) : EReal)
      = 1 * (xarr1 V (ix2 r d) : EReal) + ∑ s : Fin 4096, mask1 V r s * (xarr1 V (ix2 s d) : EReal) := by
  have hN : cfg1.N = 64 := N_1
  obtain ⟨i, p, rfl⟩ := GridSum.exists_idx4096 r
  have hi : (i : ℕ) < 8 := i.isLt
  have hn : 8 * (i : ℕ) + 7 < cfg1.N := by omega
  exact (arrAt1_5_block (Ix := Ix) (U := U) (Lvl := Lvl) V c i p d hn).trans (acc1_last_apply V c i p d hn)

/-- The same with the diagonal folded into the mask: Σ_s (mask r s + δ r s) · x s d, the aggregate law of zeros and ones
    on the extended reals. -/
theorem arrAt1_5_agg (V : Valuation τ sig (Elt Ideal)) (c : Dev nD) (r : Fin 4096) (d : Fin 256) :
    (((dat1 (Ix := Ix) (U := U) (Lvl := Lvl) V c).arrAt 5 64 : S4096x256.Idx → Elt Ideal .f32) (ix2 r d) : EReal)
      = ∑ s : Fin 4096, (mask1 V r s + (if r = s then 1 else 0)) * (xarr1 V (ix2 s d) : EReal) :=
  (arrAt1_5_value (Ix := Ix) (U := U) (Lvl := Lvl) V c r d).trans
    (GridSum.aggregate_law_ite (mask1 V) (fun s => (xarr1 V (ix2 s d) : EReal)) (mask1_zero_or_one V) r)

/-- The same as an equation of arrays: the output array is the closed form aggVal of the threshold cell, h and x. -/
theorem region1_value (V : Valuation τ sig (Elt Ideal)) (c : Dev nD) :
    ((dat1 (Ix := Ix) (U := U) (Lvl := Lvl) V c).arrAt 5 64 : S4096x256.Idx → Elt Ideal .f32)
      = Cert.Hand.aggVal (marr1 V) (harr1 V) (xarr1 V) := by
  funext j
  obtain ⟨r, d, rfl⟩ : ∃ (r : Fin 4096) (d : Fin 256), j = ix2 r d := ⟨j 0, j 1, eq_ix2 j⟩
  exact arrAt1_5_value (Ix := Ix) (U := U) (Lvl := Lvl) V c r d

end Array

end Cert.KernelIdeal.Hand

end
-- ==== Proof.RgV2.lean ====
import Idealize.ShloMosaic.Lib.Pipeline.Value
import proofs.«169706_j68856915690108_1_alg».proof.Proof.UnitIdx
import proofs.«169706_j68856915690108_1_alg».proof.Proof.AggVal
import proofs.«169706_j68856915690108_1_alg».proof.Proof.TileValue
import proofs.«169706_j68856915690108_1_alg».proof.Proof.LibGridSum
import Idealize.ShloMosaic.Lib.ValueIdx
import proofs.«169706_j68856915690108_1_alg».proof.Proof.Rg2

/-! # part: SumValue -/
/-
  Region 0 (the tile-sum kernel): what the run leaves in the output array.

  The output window's block is the whole 1 × 1 output array, and it is written back once, after the last of the 64
  points. So after the whole grid the output array's one cell holds what the scratch cell held after point 63: the sum
  of all 64 tiles.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The one write-back -/

/-- Only the last point writes the output block back, so no two different points do. -/
theorem disj2_2 (t t' : Fin cfg2.N) (hf : (cfg2.win 2).flush t = true) (hf' : (cfg2.win 2).flush t' = true)
    (hne : t ≠ t') : Disjoint ((cfg2.win 2).blk t).view.set ((cfg2.win 2).blk t').view.set := by
  have hN : cfg2.N = 64 := N_2
  have h := (flush2_2 t).mp hf
  have h' := (flush2_2 t').mp hf'
  have := t.isLt; have := t'.isLt
  exact absurd (Fin.ext (by omega)) hne

/-- The grid has a point 63, its last. -/
theorem last2_lt : 63 < cfg2.N := by decide

/-- The last point writes the output block back. -/
theorem flush2_2_last : (cfg2.win 2).flush ⟨63, last2_lt⟩ = true := (flush2_2 _).mpr (by decide)

/-! ## The output array after the run -/

/-- After the whole grid, the output block read back through the window holds what the scratch cell held after the
    last point. -/
theorem out2_block (V : Valuation τ sig (Elt F)) (c : Dev nD) :
    ((cfg2.win 2).blk ⟨63, last2_lt⟩).view.read (Elt F) ((dat2 (Ix := Ix) (U := U) (Lvl := Lvl) V c).arrAt 2 64)
      = acc2 V c 63 last2_lt :=
  ((dat2 (Ix := Ix) (U := U) (Lvl := Lvl) V c).read_blk_arrAt_eq_flushed 2 disj2_2 64 ⟨63, last2_lt⟩ (by decide)
    flush2_2_last).trans (after2_2 V c ⟨63, last2_lt⟩)

/-- The output array after the whole grid, cell by cell: what the scratch cell held after the last point. -/
theorem arrAt2_2_apply (V : Valuation τ sig (Elt F)) (c : Dev nD) (i : S1x1.Idx) :
    ((dat2 (Ix := Ix) (U := U) (Lvl := Lvl) V c).arrAt 2 64 : S1x1.Idx → Elt F .f32) i = acc2 V c 63 last2_lt i := by
  have h := congrFun (out2_block (Ix := Ix) (U := U) (Lvl := Lvl) V c) i
  rw [View.read_apply] at h
  rw [← h, unit_idx_eq (((cfg2.win 2).blk ⟨63, last2_lt⟩).view.emb i) i]
  rfl

/-- The output array after the whole grid, as a 1 × 1 vector. -/
theorem arrAt2_2 (V : Valuation τ sig (Elt F)) (c : Dev nD) :
    ((dat2 (Ix := Ix) (U := U) (Lvl := Lvl) V c).arrAt 2 64 : S1x1.Idx → Elt F .f32) = acc2 V c 63 last2_lt :=
  funext fun i => arrAt2_2_apply V c i

end Cert.KernelIdeal.Hand

end

/-! # part: RegionValue0 -/
/-
  Region 0 (the tile-sum kernel) read as a value: the cell it accumulates ends at the sum of the whole Gram matrix.

  The grid is 8 × 8, walked row by row: point t = 8·i + j stages rows 512·i … 512·i + 511 of the 4096 × 256 array h
  through its first window and rows 512·j … of the same array through its second (idx_facts2, hi2_apply, hj2_apply).
  At the ideal values the step of one point adds to the 1 × 1 cell the sum of the 512 × 512 tile
  Σ_p Σ_q Σ_k h (512·i + p) k · h (512·j + q) k, and the cell starts from zero, so after point n it holds the tile sums
  of the points 0 … n added one by one (acc2_apply). The 64 tiles are exactly the 8 × 8 tiling of the 4096 × 4096 Gram
  matrix G r s = Σ_k h r k · h s k (tile2_grid), and on the extended reals addition is commutative and associative, so
  after the last point the cell holds Σ_r Σ_s G r s (acc2_last_apply): no finiteness of h is needed. The one write-back, after
  the last point, copies the cell into the 1 × 1 output array (arrAt2_2_value, region2_value).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the array -/

/-- Point t = 8·i + j of the 8 × 8 grid stages rows block i = t / 8 through window 0, rows block j = t % 8 through
    window 1, and the one cell through window 2. -/
theorem idx_facts2 : ∀ t : Fin cfg2.N,
    win2_0.index t 0 = t.val / 8 ∧ win2_0.index t 1 = 0 ∧ win2_1.index t 0 = t.val % 8 ∧ win2_1.index t 1 = 0
      ∧ win2_2.index t 0 = 0 ∧ win2_2.index t 1 = 0 :=
  (by decide +kernel : ∀ t : Fin grid2.N,
    win2_0.index t 0 = t.val / 8 ∧ win2_0.index t 1 = 0 ∧ win2_1.index t 0 = t.val % 8 ∧ win2_1.index t 1 = 0
      ∧ win2_2.index t 0 = 0 ∧ win2_2.index t 1 = 0)

section AnyF

variable {F : FTy → Type} [FloatOps F]

/-- The array h both input windows read: the region-entry contents of the first window's array. -/
abbrev harr2 (V : Valuation τ sig (Elt F)) : Vec F S4096x256 .f32 := V (Proc.devRef .tc main_v87)

/-- The block of h window 0 stages at point t, as a 512 × 256 array. -/
abbrev hi2 (V : Valuation τ sig (Elt F)) (c : Dev nD) (t : Fin cfg2.N) : Vec F S512x256 .f32 := iblk2 V c 0 t
/-- The block of h window 1 stages at point t, as a 512 × 256 array. -/
abbrev hj2 (V : Valuation τ sig (Elt F)) (c : Dev nD) (t : Fin cfg2.N) : Vec F S512x256 .f32 := iblk2 V c 1 t

/-- Window 0's block at point t is rows 512·(t / 8) … of h. -/
theorem hi2_apply (V : Valuation τ sig (Elt F)) (c : Dev nD) (t : Fin cfg2.N) (y : S512x256.Idx) (k : S4096x256.Idx)
    (hkr : (k 0).val = 512 * (t.val / 8) + (y 0).val) (hkc : (k 1).val = (y 1).val) :
    hi2 V c t y = harr2 V k := by
  obtain ⟨hA, hB, -, -, -, -⟩ := idx_facts2 t
  show (iblk2 V c 0 t : Vec F S512x256 .f32) y = _
  unfold iblk2
  rw [View.read_apply]
  show V (Proc.devRef .tc main_v87) _ = V (Proc.devRef .tc main_v87) _
  congr 1
  funext a
  apply Fin.ext
  match a with
  | ⟨0, _⟩ => show win2_0.index t 0 * 512 + 1 * (y 0).val = (k 0).val; rw [hA, hkr]; omega
  | ⟨1, _⟩ => show win2_0.index t 1 * 256 + 1 * (y 1).val = (k 1).val; rw [hB, hkc]; omega

/-- Window 1's block at point t is rows 512·(t % 8) … of h. -/
theorem hj2_apply (V : Valuation τ sig (Elt F)) (c : Dev nD) (t : Fin cfg2.N) (y : S512x256.Idx) (k : S4096x256.Idx)
    (hkr : (k 0).val = 512 * (t.val % 8) + (y 0).val) (hkc : (k 1).val = (y 1).val) :
    hj2 V c t y = harr2 V k := by
  obtain ⟨-, -, hA, hB, -, -⟩ := idx_facts2 t
  show (iblk2 V c 1 t : Vec F S512x256 .f32) y = _
  unfold iblk2
  rw [View.read_apply]
  show V (Proc.devRef .tc main_v87) _ = V (Proc.devRef .tc main_v87) _
  congr 1
  funext a
  apply Fin.ext
  match a with
  | ⟨0, _⟩ => show win2_1.index t 0 * 512 + 1 * (y 0).val = (k 0).val; rw [hA, hkr]; omega
  | ⟨1, _⟩ => show win2_1.index t 1 * 256 + 1 * (y 1).val = (k 1).val; rw [hB, hkc]; omega

end AnyF

/-! ## The accumulated cell at the ideal values -/

/-- The Gram matrix of the rows of h: entry (r, s) is the sum over the 256 columns of the products. -/
noncomputable def gram2 (V : Valuation τ sig (Elt Ideal)) (r s : Fin 4096) : EReal :=
  ∑ k : Fin 256, (harr2 V (ix2 r k) : EReal) * (harr2 V (ix2 s k) : EReal)

/-- The sum of the 512 × 512 tile the point t stages (zero past the grid). -/
noncomputable def tile2 (V : Valuation τ sig (Elt Ideal)) (c : Dev nD) (t : ℕ) : EReal :=
  if ht : t < cfg2.N then
    ∑ p : Fin 512, ∑ q : Fin 512, ∑ k : Fin 256, (hi2 V c ⟨t, ht⟩ (ix2 p k) : EReal) * (hj2 V c ⟨t, ht⟩ (ix2 q k) : EReal)
  else 0

theorem tile2_of_lt (V : Valuation τ sig (Elt Ideal)) (c : Dev nD) (t : ℕ) (ht : t < cfg2.N) :
    tile2 V c t
      = ∑ p : Fin 512, ∑ q : Fin 512, ∑ k : Fin 256, (hi2 V c ⟨t, ht⟩ (ix2 p k) : EReal) * (hj2 V c ⟨t, ht⟩ (ix2 q k) : EReal) := by
  unfold tile2
  exact dif_pos ht

/-- After point n the cell holds the tile sums of the points 0 … n added one by one onto zero. -/
theorem acc2_apply (V : Valuation τ sig (Elt Ideal)) (c : Dev nD) :
    ∀ (n : ℕ) (hn : n < cfg2.N) (a b : Fin 1),
      ((acc2 V c n hn : Vec Ideal S1x1 .f32) (ix2 a b) : EReal) = GridSum.accFold 0 (tile2 V c) (n + 1)
  | 0, hn, a, b => by
    have e := k2_pay2_apply (hi2 V c ⟨0, hn⟩) (hj2 V c ⟨0, hn⟩) (k2_pay1 (F := Ideal)) a b
    rw [k2_pay1_apply] at e
    rw [GridSum.accFold_succ, GridSum.accFold_zero, tile2_of_lt V c 0 hn]
    exact e
  | n + 1, hn, a, b => by
    have e := k2_pay2_apply (hi2 V c ⟨n + 1, hn⟩) (hj2 V c ⟨n + 1, hn⟩) (acc2 V c n (Nat.lt_of_succ_lt hn)) a b
    rw [acc2_apply V c n (Nat.lt_of_succ_lt hn) a b] at e
    rw [GridSum.accFold_succ _ _ (n + 1), tile2_of_lt V c (n + 1) hn]
    exact e

/-- The tile of point 8·i + j is the 512 × 512 tile (i, j) of the Gram matrix. -/
theorem tile2_grid (V : Valuation τ sig (Elt Ideal)) (c : Dev nD) (i j : Fin 8) :
    tile2 V c (8 * (i : ℕ) + (j : ℕ))
      = ∑ p : Fin 512, ∑ q : Fin 512, gram2 V (GridSum.idx4096 i p) (GridSum.idx4096 j q) := by
  have hi : (i : ℕ) < 8 := i.isLt
  have hj : (j : ℕ) < 8 := j.isLt
  have hN : cfg2.N = 64 := N_2
  have ht : 8 * (i : ℕ) + (j : ℕ) < cfg2.N := by omega
  rw [tile2_of_lt V c _ ht]
  refine Finset.sum_congr rfl fun p _ => Finset.sum_congr rfl fun q _ => ?_
  unfold gram2
  refine Finset.sum_congr rfl fun k _ => ?_
  rw [hi2_apply V c ⟨_, ht⟩ (ix2 p k) (ix2 (GridSum.idx4096 i p) k)
      (by show 512 * (i : ℕ) + (p : ℕ) = 512 * ((8 * (i : ℕ) + (j : ℕ)) / 8) + (p : ℕ); omega) rfl,
    hj2_apply V c ⟨_, ht⟩ (ix2 q k) (ix2 (GridSum.idx4096 j q) k)
      (by show 512 * (j : ℕ) + (q : ℕ) = 512 * ((8 * (i : ℕ) + (j : ℕ)) % 8) + (q : ℕ); omega) rfl]

/-- THE SUM KERNEL'S VALUE. After the last point the cell holds the sum of the whole 4096 × 4096 Gram matrix of the
    rows of h: the 64 tile sums, taken in the grid's row-major order, add up to the sum over all pairs of rows. -/
theorem acc2_last_apply (V : Valuation τ sig (Elt Ideal)) (c : Dev nD) (hlast : 63 < cfg2.N) (a b : Fin 1) :
    ((acc2 V c 63 hlast : Vec Ideal S1x1 .f32) (ix2 a b) : EReal)
      = ∑ r : Fin 4096, ∑ s : Fin 4096, ∑ k : Fin 256, (harr2 V (ix2 r k) : EReal) * (harr2 V (ix2 s k) : EReal) := by
  rw [acc2_apply V c 63 hlast a b, GridSum.accFold_tiles_4096 (gram2 V) 0 (tile2 V c) (tile2_grid V c), zero_add]
  rfl

/-! ## The output array after the run -/

section Array

variable {Ix : Type} [DecidableEq Ix] {U : Type} [URA U] {Lvl : Type}

/-- THE SUM KERNEL'S OUTPUT ARRAY at the ideal values: after the whole grid its one cell holds the sum of the whole
    4096 × 4096 Gram matrix of the rows of h. -/
theorem arrAt2_2_value (V : Valuation τ sig (Elt Ideal)) (c : Dev nD) (a b : Fin 1) :
    (((dat2 (Ix := Ix) (U := U) (Lvl := Lvl) V c).arrAt 2 64 : S1x1.Idx → Elt Ideal .f32) (ix2 a b) : EReal)
      = ∑ r : Fin 4096, ∑ s : Fin 4096, ∑ k : Fin 256, (harr2 V (ix2 r k) : EReal) * (harr2 V (ix2 s k) : EReal) :=
  (arrAt2_2_apply (Ix := Ix) (U := U) (Lvl := Lvl) V c (ix2 a b)).trans (acc2_last_apply V c (by decide) a b)

/-- The same as an equation of arrays: the output array is the closed form sumVal of h. -/
theorem region2_value (V : Valuation τ sig (Elt Ideal)) (c : Dev nD) :
    ((dat2 (Ix := Ix) (U := U) (Lvl := Lvl) V c).arrAt 2 64 : S1x1.Idx → Elt Ideal .f32) = Cert.Hand.sumVal (harr2 V) := by
  funext i
  obtain ⟨a, b, rfl⟩ : ∃ (a b : Fin 1), i = ix2 a b := ⟨i 0, i 1, eq_ix2 i⟩
  exact arrAt2_2_value (Ix := Ix) (U := U) (Lvl := Lvl) V c a b

end Array

end Cert.KernelIdeal.Hand

end
-- ==== Proof.RgV3.lean ====
import Idealize.ShloMosaic.Lib.Pipeline.Value
import proofs.«169706_j68856915690108_1_alg».proof.Proof.TileValue
import proofs.«169706_j68856915690108_1_alg».proof.Proof.LibGridSum
import proofs.«169706_j68856915690108_1_alg».proof.Proof.RegionValueLib
import proofs.«169706_j68856915690108_1_alg».proof.Proof.AggVal
import Idealize.ShloMosaic.Lib.ValueIdx
import proofs.«169706_j68856915690108_1_alg».proof.Proof.Rg3

/-! # part: ApplyOut -/
/-
  Region 1 (the aggregation kernel): what the run leaves in the output array.

  The accumulator after point t is the fold over the run of eight points that t lies in (the points 8·(t / 8) …
  8·(t / 8) + 7 share the row block i = t / 8): reset and stepped at the run's first point, stepped at each later one.
  The output window's block at point t is row block t / 8 of the output array, written back at the run's last point
  only (t % 8 = 7); two such points have different row blocks, so their blocks of the array are disjoint, and after
  the whole grid block i of the output array holds what the accumulator held after point 8·i + 7.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The accumulator as a fold over its run -/

/-- The accumulator after point `t` is the fold over the run of eight points `t` lies in, up to `t`. -/
theorem acc3_fold (V : Valuation τ sig (Elt F)) (c : Dev nD) (t : ℕ) (ht : t < cfg3.N)
    (h' : 8 * (t / 8) + t % 8 < cfg3.N) :
    acc3 V c t ht = Pipeline.accAt (fun n h => step3 V c n h (init3 V c n h)) (fun n h a => step3 V c n h a)
      (8 * (t / 8)) (t % 8) h' :=
  Pipeline.eq_accAt_of_mod (acc3 V c) 8 (fun n h => step3 V c n h (init3 V c n h)) (fun n h a => step3 V c n h a)
    (fun n h h0 => acc3_reset V c n h h0) (fun n h h0 => if_neg h0) (by decide) t ht h'

/-! ## The output window's blocks -/

/-- The output window's block index along the rows at point `t` is `t / 8`. -/
theorem idx3_5 : ∀ t : Fin cfg3.N, win3_5.index t (0 : Fin 2) = t.val / 8 :=
  (by decide +kernel : ∀ t : Fin grid3.N, win3_5.index t (0 : Fin 2) = t.val / 8)

/-- Two different points that write the output block back write disjoint blocks of the array. -/
theorem disj3_5 (t t' : Fin cfg3.N) (hf : (cfg3.win 5).flush t = true) (hf' : (cfg3.win 5).flush t' = true)
    (hne : t ≠ t') : Disjoint ((cfg3.win 5).blk t).view.set ((cfg3.win 5).blk t').view.set := by
  refine (cfg3.win 5).disjoint_blk fun h => hne (Fin.ext ?_)
  have h0 : win3_5.index t (0 : Fin 2) = win3_5.index t' (0 : Fin 2) := congrFun h (0 : Fin 2)
  rw [idx3_5 t, idx3_5 t'] at h0
  have h7 := (flush3_5 t).mp hf
  have h7' := (flush3_5 t').mp hf'
  omega

/-! ## The output array after the run -/

/-- After the whole grid, the block of the output array under a point that writes back (`t % 8 = 7`) holds what the
    accumulator held after that point. -/
theorem out3_block (V : Valuation τ sig (Elt F)) (c : Dev nD) (t : Fin cfg3.N) (ht : t.val % 8 = 7) :
    ((cfg3.win 5).blk t).view.read (Elt F) ((dat3 (Ix := Ix) (U := U) (Lvl := Lvl) V c).arrAt 5 64)
      = acc3 V c t.val t.isLt := by
  have hN : cfg3.N = 64 := N_3
  have hlt : t.val < 64 := Nat.lt_of_lt_of_eq t.isLt hN
  exact ((dat3 (Ix := Ix) (U := U) (Lvl := Lvl) V c).read_blk_arrAt_eq_flushed 5 disj3_5 64 t hlt
    ((flush3_5 t).mpr ht)).trans (after3_5 V c t)

end Cert.KernelIdeal.Hand

end

/-! # part: RegionValue1 -/
/-
  Region 1 (the aggregation kernel) read as a value: row r of its output is 1·x r plus the masked sum over all rows.

  The grid is 8 × 8, walked row by row: point t = 8·i + j stages the one threshold cell, rows 512·i … of the 4096 × 256
  arrays h and x (row block i) and rows 512·j … of the same two arrays (row block j) (idx_facts3 and the block reads
  mb3_apply … xj3_apply). At the ideal values the reset at j = 0 leaves 1·x r in the accumulator's entry of row
  r = 512·i + p (init3_apply), and the step of point 8·i + j adds Σ_q mask r (512·j + q) · x (512·j + q), the mask
  being 1 where the Gram matrix G r s = Σ_k h r k · h s k is above the threshold and 0 elsewhere (step3_apply). So after
  the eight points of row block i the entry holds 1·x r with the eight column blocks' terms added one by one
  (acc3_apply), which is 1·x r + Σ_s mask r s · x s over all 4096 rows s (acc3_last_apply): the eight blocks of 512 tile
  the 4096 columns, and addition on the extended reals is commutative and associative. The write-back at j = 7 puts
  that row block into the output array (arrAt3_5_block, arrAt3_5_value), and because the mask's entries are zeros and
  ones the diagonal term can be folded in: Σ_s (mask r s + δ r s) · x s (arrAt3_5_agg).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the arrays -/

/-- Point t = 8·i + j of the 8 × 8 grid stages: the one threshold cell (window 0), rows block i = t / 8 of h and of x
    (windows 1 and 3), rows block j = t % 8 of h and of x (windows 2 and 4), and writes rows block i of the output
    (window 5). -/
theorem idx_facts3 : ∀ t : Fin cfg3.N,
    (win3_0.index t 0 = 0 ∧ win3_0.index t 1 = 0) ∧ (win3_1.index t 0 = t.val / 8 ∧ win3_1.index t 1 = 0)
      ∧ (win3_2.index t 0 = t.val % 8 ∧ win3_2.index t 1 = 0) ∧ (win3_3.index t 0 = t.val / 8 ∧ win3_3.index t 1 = 0)
      ∧ (win3_4.index t 0 = t.val % 8 ∧ win3_4.index t 1 = 0) ∧ (win3_5.index t 0 = t.val / 8 ∧ win3_5.index t 1 = 0) :=
  (by decide +kernel : ∀ t : Fin grid3.N,
    (win3_0.index t 0 = 0 ∧ win3_0.index t 1 = 0) ∧ (win3_1.index t 0 = t.val / 8 ∧ win3_1.index t 1 = 0)
      ∧ (win3_2.index t 0 = t.val % 8 ∧ win3_2.index t 1 = 0) ∧ (win3_3.index t 0 = t.val / 8 ∧ win3_3.index t 1 = 0)
      ∧ (win3_4.index t 0 = t.val % 8 ∧ win3_4.index t 1 = 0) ∧ (win3_5.index t 0 = t.val / 8 ∧ win3_5.index t 1 = 0))

section AnyF

variable {F : FTy → Type} [FloatOps F]

/-- The threshold cell, the array h and the array x the region reads: region-entry contents. -/
abbrev marr3 (V : Valuation τ sig (Elt F)) : Vec F S1x1 .f32 := V (Proc.devRef .tc main_v90)
abbrev harr3 (V : Valuation τ sig (Elt F)) : Vec F S4096x256 .f32 := V (Proc.devRef .tc main_v87)
abbrev xarr3 (V : Valuation τ sig (Elt F)) : Vec F S4096x256 .f32 := V (Proc.devRef .tc main_v68)

/-- The five input blocks at point t, each as an array of its literal shape. -/
abbrev mb3 (V : Valuation τ sig (Elt F)) (c : Dev nD) (t : Fin cfg3.N) : Vec F S1x1 .f32 := iblk3 V c 0 t
abbrev hi3 (V : Valuation τ sig (Elt F)) (c : Dev nD) (t : Fin cfg3.N) : Vec F S512x256 .f32 := iblk3 V c 1 t
abbrev hj3 (V : Valuation τ sig (Elt F)) (c : Dev nD) (t : Fin cfg3.N) : Vec F S512x256 .f32 := iblk3 V c 2 t
abbrev xi3 (V : Valuation τ sig (Elt F)) (c : Dev nD) (t : Fin cfg3.N) : Vec F S512x256 .f32 := iblk3 V c 3 t
abbrev xj3 (V : Valuation τ sig (Elt F)) (c : Dev nD) (t : Fin cfg3.N) : Vec F S512x256 .f32 := iblk3 V c 4 t

/-- Window 0's block is the threshold cell itself. -/
theorem mb3_apply (V : Valuation τ sig (Elt F)) (c : Dev nD) (t : Fin cfg3.N) (y : S1x1.Idx) :
    mb3 V c t y = marr3 V y := by
  obtain ⟨⟨hA, hB⟩, -, -, -, -, -⟩ := idx_facts3 t
  show (iblk3 V c 0 t : Vec F S1x1 .f32) y = _
  unfold iblk3
  rw [View.read_apply]
  show V (Proc.devRef .tc main_v90) _ = V (Proc.devRef .tc main_v90) _
  congr 1
  funext a
  apply Fin.ext
  match a with
  | ⟨0, _⟩ => show win3_0.index t 0 * 1 + 1 * (y 0).val = (y 0).val; rw [hA]; omega
  | ⟨1, _⟩ => show win3_0.index t 1 * 1 + 1 * (y 1).val = (y 1).val; rw [hB]; omega

/-- Window 1's block at point t is rows 512·(t / 8) … of h. -/
theorem hi3_apply (V : Valuation τ sig (Elt F)) (c : Dev nD) (t : Fin cfg3.N) (y : S512x256.Idx) (k : S4096x256.Idx)
    (hkr : (k 0).val = 512 * (t.val / 8) + (y 0).val) (hkc : (k 1).val = (y 1).val) :
    hi3 V c t y = harr3 V k := by
  obtain ⟨-, ⟨hA, hB⟩, -, -, -, -⟩ := idx_facts3 t
  show (iblk3 V c 1 t : Vec F S512x256 .f32) y = _
  unfold iblk3
  rw [View.read_apply]
  show V (Proc.devRef .tc main_v87) _ = V (Proc.devRef .tc main_v87) _
  congr 1
  funext a
  apply Fin.ext
  match a with
  | ⟨0, _⟩ => show win3_1.index t 0 * 512 + 1 * (y 0).val = (k 0).val; rw [hA, hkr]; omega
  | ⟨1, _⟩ => show win3_1.index t 1 * 256 + 1 * (y 1).val = (k 1).val; rw [hB, hkc]; omega

/-- Window 2's block at point t is rows 512·(t % 8) … of h. -/
theorem hj3_apply (V : Valuation τ sig (Elt F)) (c : Dev nD) (t : Fin cfg3.N) (y : S512x256.Idx) (k : S4096x256.Idx)
    (hkr : (k 0).val = 512 * (t.val % 8) + (y 0).val) (hkc : (k 1).val = (y 1).val) :
    hj3 V c t y = harr3 V k := by
  obtain ⟨-, -, ⟨hA, hB⟩, -, -, -⟩ := idx_facts3 t
  show (iblk3 V c 2 t : Vec F S512x256 .f32) y = _
  unfold iblk3
  rw [View.read_apply]
  show V (Proc.devRef .tc main_v87) _ = V (Proc.devRef .tc main_v87) _
  congr 1
  funext a
  apply Fin.ext
  match a with
  | ⟨0, _⟩ => show win3_2.index t 0 * 512 + 1 * (y 0).val = (k 0).val; rw [hA, hkr]; omega
  | ⟨1, _⟩ => show win3_2.index t 1 * 256 + 1 * (y 1).val = (k 1).val; rw [hB, hkc]; omega

/-- Window 3's block at point t is rows 512·(t / 8) … of x. -/
theorem xi3_apply (V : Valuation τ sig (Elt F)) (c : Dev nD) (t : Fin cfg3.N) (y : S512x256.Idx) (k : S4096x256.Idx)
    (hkr : (k 0).val = 512 * (t.val / 8) + (y 0).val) (hkc : (k 1).val = (y 1).val) :
    xi3 V c t y = xarr3 V k := by
  obtain ⟨-, -, -, ⟨hA, hB⟩, -, -⟩ := idx_facts3 t
  show (iblk3 V c 3 t : Vec F S512x256 .f32) y = _
  unfold iblk3
  rw [View.read_apply]
  show V (Proc.devRef .tc main_v68) _ = V (Proc.devRef .tc main_v68) _
  congr 1
  funext a
  apply Fin.ext
  match a with
  | ⟨0, _⟩ => show win3_3.index t 0 * 512 + 1 * (y 0).val = (k 0).val; rw [hA, hkr]; omega
  | ⟨1, _⟩ => show win3_3.index t 1 * 256 + 1 * (y 1).val = (k 1).val; rw [hB, hkc]; omega

/-- Window 4's block at point t is rows 512·(t % 8) … of x. -/
theorem xj3_apply (V : Valuation τ sig (Elt F)) (c : Dev nD) (t : Fin cfg3.N) (y : S512x256.Idx) (k : S4096x256.Idx)
    (hkr : (k 0).val = 512 * (t.val % 8) + (y 0).val) (hkc : (k 1).val = (y 1).val) :
    xj3 V c t y = xarr3 V k := by
  obtain ⟨-, -, -, -, ⟨hA, hB⟩, -⟩ := idx_facts3 t
  show (iblk3 V c 4 t : Vec F S512x256 .f32) y = _
  unfold iblk3
  rw [View.read_apply]
  show V (Proc.devRef .tc main_v68) _ = V (Proc.devRef .tc main_v68) _
  congr 1
  funext a
  apply Fin.ext
  match a with
  | ⟨0, _⟩ => show win3_4.index t 0 * 512 + 1 * (y 0).val = (k 0).val; rw [hA, hkr]; omega
  | ⟨1, _⟩ => show win3_4.index t 1 * 256 + 1 * (y 1).val = (k 1).val; rw [hB, hkc]; omega

/-- The accumulator after point n depends on n only through its value. -/
theorem acc3_congr (V : Valuation τ sig (Elt F)) (c : Dev nD) {n n' : ℕ} (e : n = n') (hn : n < cfg3.N) (hn' : n' < cfg3.N) :
    acc3 V c n hn = acc3 V c n' hn' := by
  subst e; rfl

/-- At the first point of row block i the accumulator is reset and stepped once … -/
theorem acc3_row_zero (V : Valuation τ sig (Elt F)) (c : Dev nD) (i : ℕ) (hn : 8 * i + 0 < cfg3.N) :
    acc3 V c (8 * i + 0) hn = step3 V c (8 * i + 0) hn (init3 V c (8 * i + 0) hn) :=
  acc3_reset V c (8 * i + 0) hn (by omega)

/-- … and at each later point of the row block it is stepped from what the point before left. -/
theorem acc3_row_succ (V : Valuation τ sig (Elt F)) (c : Dev nD) (i j : ℕ) (hj : j + 1 < 8) (hn : 8 * i + (j + 1) < cfg3.N) :
    acc3 V c (8 * i + (j + 1)) hn = step3 V c (8 * i + (j + 1)) hn (acc3 V c (8 * i + j) (by omega)) :=
  (acc3_step V c (8 * i + (j + 1)) hn (by omega)).trans
    (congrArg (step3 V c (8 * i + (j + 1)) hn) (acc3_congr V c (by omega) _ _))

end AnyF

/-! ## The accumulator at the ideal values -/

/-- The Gram matrix of the rows of h. -/
noncomputable def gram3 (V : Valuation τ sig (Elt Ideal)) (r s : Fin 4096) : EReal :=
  ∑ k : Fin 256, (harr3 V (ix2 r k) : EReal) * (harr3 V (ix2 s k) : EReal)

/-- The 0/1 mask: 1 where the Gram matrix's entry is above the threshold, else 0. -/
noncomputable def mask3 (V : Valuation τ sig (Elt Ideal)) (r s : Fin 4096) : EReal :=
  if (marr3 V (ix2 (0 : Fin 1) (0 : Fin 1)) : EReal) < gram3 V r s then 1 else 0

/-- The mask's entries are zero or one. -/
theorem mask3_zero_or_one (V : Valuation τ sig (Elt Ideal)) (r s : Fin 4096) : mask3 V r s = 0 ∨ mask3 V r s = 1 := by
  unfold mask3
  exact GridSum.ite_zero_or_one _

/-- What column block j adds to the accumulator's entry of row r and feature d (zero past the eight blocks). -/
noncomputable def blockTerm3 (V : Valuation τ sig (Elt Ideal)) (r : Fin 4096) (d : Fin 256) (j : ℕ) : EReal :=
  if hj : j < 8 then
    ∑ q : Fin 512, mask3 V r (GridSum.idx4096 ⟨j, hj⟩ q) * (xarr3 V (ix2 (GridSum.idx4096 ⟨j, hj⟩ q) d) : EReal)
  else 0

theorem blockTerm3_of_lt (V : Valuation τ sig (Elt Ideal)) (r : Fin 4096) (d : Fin 256) (j : ℕ) (hj : j < 8) :
    blockTerm3 V r d j
      = ∑ q : Fin 512, mask3 V r (GridSum.idx4096 ⟨j, hj⟩ q) * (xarr3 V (ix2 (GridSum.idx4096 ⟨j, hj⟩ q) d) : EReal) := by
  unfold blockTerm3
  exact dif_pos hj

/-- One step at point 8·i + j adds column block j's term to the entry of row 512·i + p. -/
theorem step3_apply (V : Valuation τ sig (Elt Ideal)) (c : Dev nD) (i : Fin 8) (j : ℕ) (hj : j < 8)
    (hn : 8 * (i : ℕ) + j < cfg3.N) (a : Vec Ideal S512x256 .f32) (p : Fin 512) (d : Fin 256) :
    (step3 V c (8 * (i : ℕ) + j) hn a (ix2 p d) : EReal) = (a (ix2 p d) : EReal) + blockTerm3 V (GridSum.idx4096 i p) d j := by
  have hi : (i : ℕ) < 8 := i.isLt
  have e := k3_pay2_apply (hi3 V c ⟨8 * (i : ℕ) + j, hn⟩) (hj3 V c ⟨8 * (i : ℕ) + j, hn⟩) (mb3 V c ⟨8 * (i : ℕ) + j, hn⟩)
    (xj3 V c ⟨8 * (i : ℕ) + j, hn⟩) a p d
  rw [blockTerm3_of_lt V _ d j hj]
  refine e.trans ?_
  congr 1
  refine Finset.sum_congr rfl fun q _ => ?_
  rw [mb3_apply V c ⟨8 * (i : ℕ) + j, hn⟩ (ix2 (0 : Fin 1) (0 : Fin 1)),
    xj3_apply V c ⟨8 * (i : ℕ) + j, hn⟩ (ix2 q d) (ix2 (GridSum.idx4096 ⟨j, hj⟩ q) d)
      (by show 512 * j + (q : ℕ) = 512 * ((8 * (i : ℕ) + j) % 8) + (q : ℕ); omega) rfl]
  congr 1
  unfold mask3 gram3
  have hs : (∑ k : Fin 256, (hi3 V c ⟨8 * (i : ℕ) + j, hn⟩ (ix2 p k) : EReal) * (hj3 V c ⟨8 * (i : ℕ) + j, hn⟩ (ix2 q k) : EReal))
      = ∑ k : Fin 256, (harr3 V (ix2 (GridSum.idx4096 i p) k) : EReal) * (harr3 V (ix2 (GridSum.idx4096 ⟨j, hj⟩ q) k) : EReal) :=
    Finset.sum_congr rfl fun k _ => by
      rw [hi3_apply V c ⟨8 * (i : ℕ) + j, hn⟩ (ix2 p k) (ix2 (GridSum.idx4096 i p) k)
          (by show 512 * (i : ℕ) + (p : ℕ) = 512 * ((8 * (i : ℕ) + j) / 8) + (p : ℕ); omega) rfl,
        hj3_apply V c ⟨8 * (i : ℕ) + j, hn⟩ (ix2 q k) (ix2 (GridSum.idx4096 ⟨j, hj⟩ q) k)
          (by show 512 * j + (q : ℕ) = 512 * ((8 * (i : ℕ) + j) % 8) + (q : ℕ); omega) rfl]
  rw [hs]

/-- The reset value at point 8·i + j is 1 times the entry of x at row 512·i + p. -/
theorem init3_apply (V : Valuation τ sig (Elt Ideal)) (c : Dev nD) (i : Fin 8) (j : ℕ) (hj : j < 8)
    (hn : 8 * (i : ℕ) + j < cfg3.N) (p : Fin 512) (d : Fin 256) :
    (init3 V c (8 * (i : ℕ) + j) hn (ix2 p d) : EReal) = 1 * (xarr3 V (ix2 (GridSum.idx4096 i p) d) : EReal) := by
  have hi : (i : ℕ) < 8 := i.isLt
  have e := k3_pay1_apply (xi3 V c ⟨8 * (i : ℕ) + j, hn⟩) p d
  refine e.trans ?_
  rw [xi3_apply V c ⟨8 * (i : ℕ) + j, hn⟩ (ix2 p d) (ix2 (GridSum.idx4096 i p) d)
    (by show 512 * (i : ℕ) + (p : ℕ) = 512 * ((8 * (i : ℕ) + j) / 8) + (p : ℕ); omega) rfl]

/-- After point 8·i + j the accumulator's entry of row r = 512·i + p holds 1·x r with the terms of the column blocks
    0 … j added one by one. -/
theorem acc3_apply (V : Valuation τ sig (Elt Ideal)) (c : Dev nD) (i : Fin 8) (p : Fin 512) (d : Fin 256) :
    ∀ (j : ℕ) (hj : j < 8) (hn : 8 * (i : ℕ) + j < cfg3.N),
      (acc3 V c (8 * (i : ℕ) + j) hn (ix2 p d) : EReal)
        = GridSum.accFold (1 * (xarr3 V (ix2 (GridSum.idx4096 i p) d) : EReal)) (blockTerm3 V (GridSum.idx4096 i p) d) (j + 1)
  | 0, hj, hn => by
    rw [acc3_row_zero V c (i : ℕ) hn, step3_apply V c i 0 hj hn _ p d, init3_apply V c i 0 hj hn p d,
      GridSum.accFold_succ, GridSum.accFold_zero]
  | j + 1, hj, hn => by
    rw [acc3_row_succ V c (i : ℕ) j hj hn, step3_apply V c i (j + 1) hj hn _ p d,
      acc3_apply V c i p d j (by omega) (by omega), GridSum.accFold_succ _ _ (j + 1)]

/-- THE AGGREGATION KERNEL'S VALUE at the last point of row block i: the entry of row r = 512·i + p and feature d is
    1·x r d plus the sum over all 4096 rows s of mask r s · x s d. -/
theorem acc3_last_apply (V : Valuation τ sig (Elt Ideal)) (c : Dev nD) (i : Fin 8) (p : Fin 512) (d : Fin 256)
    (hn : 8 * (i : ℕ) + 7 < cfg3.N) :
    (acc3 V c (8 * (i : ℕ) + 7) hn (ix2 p d) : EReal)
      = 1 * (xarr3 V (ix2 (GridSum.idx4096 i p) d) : EReal)
        + ∑ s : Fin 4096, mask3 V (GridSum.idx4096 i p) s * (xarr3 V (ix2 s d) : EReal) := by
  rw [acc3_apply V c i p d 7 (by omega) hn, GridSum.accFold_eq_sum,
    GridSum.sum_range_fin (blockTerm3 V (GridSum.idx4096 i p) d)
      (fun j : Fin 8 => ∑ q : Fin 512, mask3 V (GridSum.idx4096 i p) (GridSum.idx4096 j q) * (xarr3 V (ix2 (GridSum.idx4096 j q) d) : EReal))
      (fun j => blockTerm3_of_lt V _ d (j : ℕ) j.isLt),
    GridSum.sum_blocks GridSum.eight_mul (fun s : Fin 4096 => mask3 V (GridSum.idx4096 i p) s * (xarr3 V (ix2 s d) : EReal))]

/-! ## The output array after the run -/

section Array

variable {F : FTy → Type} [FloatOps F]
variable {Ix : Type} [DecidableEq Ix] {U : Type} [URA U] {Lvl : Type}

/-- The output window's block at point t is rows 512·(t / 8) … of the output array. -/
theorem oblk3_apply (c : Dev nD) (X : Buf (Elt F) ((cfg3.win 5).arr.view.loc (c.tc : Thread nD τ))) (t : Fin cfg3.N)
    (y : S512x256.Idx) (k : S4096x256.Idx) (hkr : (k 0).val = 512 * (t.val / 8) + (y 0).val) (hkc : (k 1).val = (y 1).val) :
    (((cfg3.win 5).blk t).view.read (Elt F) X : Vec F S512x256 .f32) y = (X : S4096x256.Idx → Elt F .f32) k := by
  obtain ⟨-, -, -, -, -, ⟨hA, hB⟩⟩ := idx_facts3 t
  rw [View.read_apply]
  have e : ((cfg3.win 5).blk t).view.emb y = k := by
    funext a
    apply Fin.ext
    match a with
    | ⟨0, _⟩ => show win3_5.index t 0 * 512 + 1 * (y 0).val = (k 0).val; rw [hA, hkr]; omega
    | ⟨1, _⟩ => show win3_5.index t 1 * 256 + 1 * (y 1).val = (k 1).val; rw [hB, hkc]; omega
  exact congrArg X e

/-- After the whole grid the output array's entry of row 512·i + p is what the accumulator held, at row p, after the
    last point of row block i. -/
theorem arrAt3_5_block (V : Valuation τ sig (Elt F)) (c : Dev nD) (i : Fin 8) (p : Fin 512) (d : Fin 256)
    (hn : 8 * (i : ℕ) + 7 < cfg3.N) :
    ((dat3 (Ix := Ix) (U := U) (Lvl := Lvl) V c).arrAt 5 64 : S4096x256.Idx → Elt F .f32) (ix2 (GridSum.idx4096 i p) d)
      = (acc3 V c (8 * (i : ℕ) + 7) hn : Vec F S512x256 .f32) (ix2 p d) := by
  have hi : (i : ℕ) < 8 := i.isLt
  refine (oblk3_apply c ((dat3 (Ix := Ix) (U := U) (Lvl := Lvl) V c).arrAt 5 64) ⟨8 * (i : ℕ) + 7, hn⟩ (ix2 p d)
    (ix2 (GridSum.idx4096 i p) d)
    (by show 512 * (i : ℕ) + (p : ℕ) = 512 * ((8 * (i : ℕ) + 7) / 8) + (p : ℕ); omega) rfl).symm.trans ?_
  exact congrFun (out3_block (Ix := Ix) (U := U) (Lvl := Lvl) V c ⟨8 * (i : ℕ) + 7, hn⟩
    (by show (8 * (i : ℕ) + 7) % 8 = 7; omega)) (ix2 p d)

/-- THE AGGREGATION KERNEL'S OUTPUT ARRAY at the ideal values: the entry of row r and feature d is 1·x r d plus the sum
    over all rows s of mask r s · x s d, the mask being 1 where the Gram matrix of the rows of h is above the threshold. -/
theorem arrAt3_5_value (V : Valuation τ sig (Elt Ideal)) (c : Dev nD) (r : Fin 4096) (d : Fin 256) :
    (((dat3 (Ix := Ix) (U := U) (Lvl := Lvl) V c).arrAt 5 64 : S4096x256.Idx → Elt Ideal .f32) (ix2 r d) : EReal)
      = 1 * (xarr3 V (ix2 r d) : EReal) + ∑ s : Fin 4096, mask3 V r s * (xarr3 V (ix2 s d) : EReal) := by
  have hN : cfg3.N = 64 := N_3
  obtain ⟨i, p, rfl⟩ := GridSum.exists_idx4096 r
  have hi : (i : ℕ) < 8 := i.isLt
  have hn : 8 * (i : ℕ) + 7 < cfg3.N := by omega
  exact (arrAt3_5_block (Ix := Ix) (U := U) (Lvl := Lvl) V c i p d hn).trans (acc3_last_apply V c i p d hn)

/-- The same with the diagonal folded into the mask: Σ_s (mask r s + δ r s) · x s d, the aggregate law of zeros and ones
    on the extended reals. -/
theorem arrAt3_5_agg (V : Valuation τ sig (Elt Ideal)) (c : Dev nD) (r : Fin 4096) (d : Fin 256) :
    (((dat3 (Ix := Ix) (U := U) (Lvl := Lvl) V c).arrAt 5 64 : S4096x256.Idx → Elt Ideal .f32) (ix2 r d) : EReal)
      = ∑ s : Fin 4096, (mask3 V r s + (if r = s then 1 else 0)) * (xarr3 V (ix2 s d) : EReal) :=
  (arrAt3_5_value (Ix := Ix) (U := U) (Lvl := Lvl) V c r d).trans
    (GridSum.aggregate_law_ite (mask3 V) (fun s => (xarr3 V (ix2 s d) : EReal)) (mask3_zero_or_one V) r)

/-- The same as an equation of arrays: the output array is the closed form aggVal of the threshold cell, h and x. -/
theorem region3_value (V : Valuation τ sig (Elt Ideal)) (c : Dev nD) :
    ((dat3 (Ix := Ix) (U := U) (Lvl := Lvl) V c).arrAt 5 64 : S4096x256.Idx → Elt Ideal .f32)
      = Cert.Hand.aggVal (marr3 V) (harr3 V) (xarr3 V) := by
  funext j
  obtain ⟨r, d, rfl⟩ : ∃ (r : Fin 4096) (d : Fin 256), j = ix2 r d := ⟨j 0, j 1, eq_ix2 j⟩
  exact arrAt3_5_value (Ix := Ix) (U := U) (Lvl := Lvl) V c r d

end Array

end Cert.KernelIdeal.Hand

end
-- ==== Proof.RgV4.lean ====
import Idealize.ShloMosaic.Lib.Pipeline.Value
import proofs.«169706_j68856915690108_1_alg».proof.Proof.UnitIdx
import proofs.«169706_j68856915690108_1_alg».proof.Proof.AggVal
import proofs.«169706_j68856915690108_1_alg».proof.Proof.TileValue
import proofs.«169706_j68856915690108_1_alg».proof.Proof.LibGridSum
import Idealize.ShloMosaic.Lib.ValueIdx
import proofs.«169706_j68856915690108_1_alg».proof.Proof.Rg4

/-! # part: SumValue -/
/-
  Region 0 (the tile-sum kernel): what the run leaves in the output array.

  The output window's block is the whole 1 × 1 output array, and it is written back once, after the last of the 64
  points. So after the whole grid the output array's one cell holds what the scratch cell held after point 63: the sum
  of all 64 tiles.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The one write-back -/

/-- Only the last point writes the output block back, so no two different points do. -/
theorem disj4_2 (t t' : Fin cfg4.N) (hf : (cfg4.win 2).flush t = true) (hf' : (cfg4.win 2).flush t' = true)
    (hne : t ≠ t') : Disjoint ((cfg4.win 2).blk t).view.set ((cfg4.win 2).blk t').view.set := by
  have hN : cfg4.N = 64 := N_4
  have h := (flush4_2 t).mp hf
  have h' := (flush4_2 t').mp hf'
  have := t.isLt; have := t'.isLt
  exact absurd (Fin.ext (by omega)) hne

/-- The grid has a point 63, its last. -/
theorem last4_lt : 63 < cfg4.N := by decide

/-- The last point writes the output block back. -/
theorem flush4_2_last : (cfg4.win 2).flush ⟨63, last4_lt⟩ = true := (flush4_2 _).mpr (by decide)

/-! ## The output array after the run -/

/-- After the whole grid, the output block read back through the window holds what the scratch cell held after the
    last point. -/
theorem out4_block (V : Valuation τ sig (Elt F)) (c : Dev nD) :
    ((cfg4.win 2).blk ⟨63, last4_lt⟩).view.read (Elt F) ((dat4 (Ix := Ix) (U := U) (Lvl := Lvl) V c).arrAt 2 64)
      = acc4 V c 63 last4_lt :=
  ((dat4 (Ix := Ix) (U := U) (Lvl := Lvl) V c).read_blk_arrAt_eq_flushed 2 disj4_2 64 ⟨63, last4_lt⟩ (by decide)
    flush4_2_last).trans (after4_2 V c ⟨63, last4_lt⟩)

/-- The output array after the whole grid, cell by cell: what the scratch cell held after the last point. -/
theorem arrAt4_2_apply (V : Valuation τ sig (Elt F)) (c : Dev nD) (i : S1x1.Idx) :
    ((dat4 (Ix := Ix) (U := U) (Lvl := Lvl) V c).arrAt 2 64 : S1x1.Idx → Elt F .f32) i = acc4 V c 63 last4_lt i := by
  have h := congrFun (out4_block (Ix := Ix) (U := U) (Lvl := Lvl) V c) i
  rw [View.read_apply] at h
  rw [← h, unit_idx_eq (((cfg4.win 2).blk ⟨63, last4_lt⟩).view.emb i) i]
  rfl

/-- The output array after the whole grid, as a 1 × 1 vector. -/
theorem arrAt4_2 (V : Valuation τ sig (Elt F)) (c : Dev nD) :
    ((dat4 (Ix := Ix) (U := U) (Lvl := Lvl) V c).arrAt 2 64 : S1x1.Idx → Elt F .f32) = acc4 V c 63 last4_lt :=
  funext fun i => arrAt4_2_apply V c i

end Cert.KernelIdeal.Hand

end

/-! # part: RegionValue0 -/
/-
  Region 0 (the tile-sum kernel) read as a value: the cell it accumulates ends at the sum of the whole Gram matrix.

  The grid is 8 × 8, walked row by row: point t = 8·i + j stages rows 512·i … 512·i + 511 of the 4096 × 256 array h
  through its first window and rows 512·j … of the same array through its second (idx_facts4, hi4_apply, hj4_apply).
  At the ideal values the step of one point adds to the 1 × 1 cell the sum of the 512 × 512 tile
  Σ_p Σ_q Σ_k h (512·i + p) k · h (512·j + q) k, and the cell starts from zero, so after point n it holds the tile sums
  of the points 0 … n added one by one (acc4_apply). The 64 tiles are exactly the 8 × 8 tiling of the 4096 × 4096 Gram
  matrix G r s = Σ_k h r k · h s k (tile4_grid), and on the extended reals addition is commutative and associative, so
  after the last point the cell holds Σ_r Σ_s G r s (acc4_last_apply): no finiteness of h is needed. The one write-back, after
  the last point, copies the cell into the 1 × 1 output array (arrAt4_2_value, region4_value).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the array -/

/-- Point t = 8·i + j of the 8 × 8 grid stages rows block i = t / 8 through window 0, rows block j = t % 8 through
    window 1, and the one cell through window 2. -/
theorem idx_facts4 : ∀ t : Fin cfg4.N,
    win4_0.index t 0 = t.val / 8 ∧ win4_0.index t 1 = 0 ∧ win4_1.index t 0 = t.val % 8 ∧ win4_1.index t 1 = 0
      ∧ win4_2.index t 0 = 0 ∧ win4_2.index t 1 = 0 :=
  (by decide +kernel : ∀ t : Fin grid4.N,
    win4_0.index t 0 = t.val / 8 ∧ win4_0.index t 1 = 0 ∧ win4_1.index t 0 = t.val % 8 ∧ win4_1.index t 1 = 0
      ∧ win4_2.index t 0 = 0 ∧ win4_2.index t 1 = 0)

section AnyF

variable {F : FTy → Type} [FloatOps F]

/-- The array h both input windows read: the region-entry contents of the first window's array. -/
abbrev harr4 (V : Valuation τ sig (Elt F)) : Vec F S4096x256 .f32 := V (Proc.devRef .tc main_v156)

/-- The block of h window 0 stages at point t, as a 512 × 256 array. -/
abbrev hi4 (V : Valuation τ sig (Elt F)) (c : Dev nD) (t : Fin cfg4.N) : Vec F S512x256 .f32 := iblk4 V c 0 t
/-- The block of h window 1 stages at point t, as a 512 × 256 array. -/
abbrev hj4 (V : Valuation τ sig (Elt F)) (c : Dev nD) (t : Fin cfg4.N) : Vec F S512x256 .f32 := iblk4 V c 1 t

/-- Window 0's block at point t is rows 512·(t / 8) … of h. -/
theorem hi4_apply (V : Valuation τ sig (Elt F)) (c : Dev nD) (t : Fin cfg4.N) (y : S512x256.Idx) (k : S4096x256.Idx)
    (hkr : (k 0).val = 512 * (t.val / 8) + (y 0).val) (hkc : (k 1).val = (y 1).val) :
    hi4 V c t y = harr4 V k := by
  obtain ⟨hA, hB, -, -, -, -⟩ := idx_facts4 t
  show (iblk4 V c 0 t : Vec F S512x256 .f32) y = _
  unfold iblk4
  rw [View.read_apply]
  show V (Proc.devRef .tc main_v156) _ = V (Proc.devRef .tc main_v156) _
  congr 1
  funext a
  apply Fin.ext
  match a with
  | ⟨0, _⟩ => show win4_0.index t 0 * 512 + 1 * (y 0).val = (k 0).val; rw [hA, hkr]; omega
  | ⟨1, _⟩ => show win4_0.index t 1 * 256 + 1 * (y 1).val = (k 1).val; rw [hB, hkc]; omega

/-- Window 1's block at point t is rows 512·(t % 8) … of h. -/
theorem hj4_apply (V : Valuation τ sig (Elt F)) (c : Dev nD) (t : Fin cfg4.N) (y : S512x256.Idx) (k : S4096x256.Idx)
    (hkr : (k 0).val = 512 * (t.val % 8) + (y 0).val) (hkc : (k 1).val = (y 1).val) :
    hj4 V c t y = harr4 V k := by
  obtain ⟨-, -, hA, hB, -, -⟩ := idx_facts4 t
  show (iblk4 V c 1 t : Vec F S512x256 .f32) y = _
  unfold iblk4
  rw [View.read_apply]
  show V (Proc.devRef .tc main_v156) _ = V (Proc.devRef .tc main_v156) _
  congr 1
  funext a
  apply Fin.ext
  match a with
  | ⟨0, _⟩ => show win4_1.index t 0 * 512 + 1 * (y 0).val = (k 0).val; rw [hA, hkr]; omega
  | ⟨1, _⟩ => show win4_1.index t 1 * 256 + 1 * (y 1).val = (k 1).val; rw [hB, hkc]; omega

end AnyF

/-! ## The accumulated cell at the ideal values -/

/-- The Gram matrix of the rows of h: entry (r, s) is the sum over the 256 columns of the products. -/
noncomputable def gram4 (V : Valuation τ sig (Elt Ideal)) (r s : Fin 4096) : EReal :=
  ∑ k : Fin 256, (harr4 V (ix2 r k) : EReal) * (harr4 V (ix2 s k) : EReal)

/-- The sum of the 512 × 512 tile the point t stages (zero past the grid). -/
noncomputable def tile4 (V : Valuation τ sig (Elt Ideal)) (c : Dev nD) (t : ℕ) : EReal :=
  if ht : t < cfg4.N then
    ∑ p : Fin 512, ∑ q : Fin 512, ∑ k : Fin 256, (hi4 V c ⟨t, ht⟩ (ix2 p k) : EReal) * (hj4 V c ⟨t, ht⟩ (ix2 q k) : EReal)
  else 0

theorem tile4_of_lt (V : Valuation τ sig (Elt Ideal)) (c : Dev nD) (t : ℕ) (ht : t < cfg4.N) :
    tile4 V c t
      = ∑ p : Fin 512, ∑ q : Fin 512, ∑ k : Fin 256, (hi4 V c ⟨t, ht⟩ (ix2 p k) : EReal) * (hj4 V c ⟨t, ht⟩ (ix2 q k) : EReal) := by
  unfold tile4
  exact dif_pos ht

/-- After point n the cell holds the tile sums of the points 0 … n added one by one onto zero. -/
theorem acc4_apply (V : Valuation τ sig (Elt Ideal)) (c : Dev nD) :
    ∀ (n : ℕ) (hn : n < cfg4.N) (a b : Fin 1),
      ((acc4 V c n hn : Vec Ideal S1x1 .f32) (ix2 a b) : EReal) = GridSum.accFold 0 (tile4 V c) (n + 1)
  | 0, hn, a, b => by
    have e := k4_pay2_apply (hi4 V c ⟨0, hn⟩) (hj4 V c ⟨0, hn⟩) (k4_pay1 (F := Ideal)) a b
    rw [k4_pay1_apply] at e
    rw [GridSum.accFold_succ, GridSum.accFold_zero, tile4_of_lt V c 0 hn]
    exact e
  | n + 1, hn, a, b => by
    have e := k4_pay2_apply (hi4 V c ⟨n + 1, hn⟩) (hj4 V c ⟨n + 1, hn⟩) (acc4 V c n (Nat.lt_of_succ_lt hn)) a b
    rw [acc4_apply V c n (Nat.lt_of_succ_lt hn) a b] at e
    rw [GridSum.accFold_succ _ _ (n + 1), tile4_of_lt V c (n + 1) hn]
    exact e

/-- The tile of point 8·i + j is the 512 × 512 tile (i, j) of the Gram matrix. -/
theorem tile4_grid (V : Valuation τ sig (Elt Ideal)) (c : Dev nD) (i j : Fin 8) :
    tile4 V c (8 * (i : ℕ) + (j : ℕ))
      = ∑ p : Fin 512, ∑ q : Fin 512, gram4 V (GridSum.idx4096 i p) (GridSum.idx4096 j q) := by
  have hi : (i : ℕ) < 8 := i.isLt
  have hj : (j : ℕ) < 8 := j.isLt
  have hN : cfg4.N = 64 := N_4
  have ht : 8 * (i : ℕ) + (j : ℕ) < cfg4.N := by omega
  rw [tile4_of_lt V c _ ht]
  refine Finset.sum_congr rfl fun p _ => Finset.sum_congr rfl fun q _ => ?_
  unfold gram4
  refine Finset.sum_congr rfl fun k _ => ?_
  rw [hi4_apply V c ⟨_, ht⟩ (ix2 p k) (ix2 (GridSum.idx4096 i p) k)
      (by show 512 * (i : ℕ) + (p : ℕ) = 512 * ((8 * (i : ℕ) + (j : ℕ)) / 8) + (p : ℕ); omega) rfl,
    hj4_apply V c ⟨_, ht⟩ (ix2 q k) (ix2 (GridSum.idx4096 j q) k)
      (by show 512 * (j : ℕ) + (q : ℕ) = 512 * ((8 * (i : ℕ) + (j : ℕ)) % 8) + (q : ℕ); omega) rfl]

/-- THE SUM KERNEL'S VALUE. After the last point the cell holds the sum of the whole 4096 × 4096 Gram matrix of the
    rows of h: the 64 tile sums, taken in the grid's row-major order, add up to the sum over all pairs of rows. -/
theorem acc4_last_apply (V : Valuation τ sig (Elt Ideal)) (c : Dev nD) (hlast : 63 < cfg4.N) (a b : Fin 1) :
    ((acc4 V c 63 hlast : Vec Ideal S1x1 .f32) (ix2 a b) : EReal)
      = ∑ r : Fin 4096, ∑ s : Fin 4096, ∑ k : Fin 256, (harr4 V (ix2 r k) : EReal) * (harr4 V (ix2 s k) : EReal) := by
  rw [acc4_apply V c 63 hlast a b, GridSum.accFold_tiles_4096 (gram4 V) 0 (tile4 V c) (tile4_grid V c), zero_add]
  rfl

/-! ## The output array after the run -/

section Array

variable {Ix : Type} [DecidableEq Ix] {U : Type} [URA U] {Lvl : Type}

/-- THE SUM KERNEL'S OUTPUT ARRAY at the ideal values: after the whole grid its one cell holds the sum of the whole
    4096 × 4096 Gram matrix of the rows of h. -/
theorem arrAt4_2_value (V : Valuation τ sig (Elt Ideal)) (c : Dev nD) (a b : Fin 1) :
    (((dat4 (Ix := Ix) (U := U) (Lvl := Lvl) V c).arrAt 2 64 : S1x1.Idx → Elt Ideal .f32) (ix2 a b) : EReal)
      = ∑ r : Fin 4096, ∑ s : Fin 4096, ∑ k : Fin 256, (harr4 V (ix2 r k) : EReal) * (harr4 V (ix2 s k) : EReal) :=
  (arrAt4_2_apply (Ix := Ix) (U := U) (Lvl := Lvl) V c (ix2 a b)).trans (acc4_last_apply V c (by decide) a b)

/-- The same as an equation of arrays: the output array is the closed form sumVal of h. -/
theorem region4_value (V : Valuation τ sig (Elt Ideal)) (c : Dev nD) :
    ((dat4 (Ix := Ix) (U := U) (Lvl := Lvl) V c).arrAt 2 64 : S1x1.Idx → Elt Ideal .f32) = Cert.Hand.sumVal (harr4 V) := by
  funext i
  obtain ⟨a, b, rfl⟩ : ∃ (a b : Fin 1), i = ix2 a b := ⟨i 0, i 1, eq_ix2 i⟩
  exact arrAt4_2_value (Ix := Ix) (U := U) (Lvl := Lvl) V c a b

end Array

end Cert.KernelIdeal.Hand

end
-- ==== Proof.RgV5.lean ====
import Idealize.ShloMosaic.Lib.Pipeline.Value
import proofs.«169706_j68856915690108_1_alg».proof.Proof.TileValue
import proofs.«169706_j68856915690108_1_alg».proof.Proof.LibGridSum
import proofs.«169706_j68856915690108_1_alg».proof.Proof.RegionValueLib
import proofs.«169706_j68856915690108_1_alg».proof.Proof.AggVal
import Idealize.ShloMosaic.Lib.ValueIdx
import proofs.«169706_j68856915690108_1_alg».proof.Proof.Rg5

/-! # part: ApplyOut -/
/-
  Region 1 (the aggregation kernel): what the run leaves in the output array.

  The accumulator after point t is the fold over the run of eight points that t lies in (the points 8·(t / 8) …
  8·(t / 8) + 7 share the row block i = t / 8): reset and stepped at the run's first point, stepped at each later one.
  The output window's block at point t is row block t / 8 of the output array, written back at the run's last point
  only (t % 8 = 7); two such points have different row blocks, so their blocks of the array are disjoint, and after
  the whole grid block i of the output array holds what the accumulator held after point 8·i + 7.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The accumulator as a fold over its run -/

/-- The accumulator after point `t` is the fold over the run of eight points `t` lies in, up to `t`. -/
theorem acc5_fold (V : Valuation τ sig (Elt F)) (c : Dev nD) (t : ℕ) (ht : t < cfg5.N)
    (h' : 8 * (t / 8) + t % 8 < cfg5.N) :
    acc5 V c t ht = Pipeline.accAt (fun n h => step5 V c n h (init5 V c n h)) (fun n h a => step5 V c n h a)
      (8 * (t / 8)) (t % 8) h' :=
  Pipeline.eq_accAt_of_mod (acc5 V c) 8 (fun n h => step5 V c n h (init5 V c n h)) (fun n h a => step5 V c n h a)
    (fun n h h0 => acc5_reset V c n h h0) (fun n h h0 => if_neg h0) (by decide) t ht h'

/-! ## The output window's blocks -/

/-- The output window's block index along the rows at point `t` is `t / 8`. -/
theorem idx5_5 : ∀ t : Fin cfg5.N, win5_5.index t (0 : Fin 2) = t.val / 8 :=
  (by decide +kernel : ∀ t : Fin grid5.N, win5_5.index t (0 : Fin 2) = t.val / 8)

/-- Two different points that write the output block back write disjoint blocks of the array. -/
theorem disj5_5 (t t' : Fin cfg5.N) (hf : (cfg5.win 5).flush t = true) (hf' : (cfg5.win 5).flush t' = true)
    (hne : t ≠ t') : Disjoint ((cfg5.win 5).blk t).view.set ((cfg5.win 5).blk t').view.set := by
  refine (cfg5.win 5).disjoint_blk fun h => hne (Fin.ext ?_)
  have h0 : win5_5.index t (0 : Fin 2) = win5_5.index t' (0 : Fin 2) := congrFun h (0 : Fin 2)
  rw [idx5_5 t, idx5_5 t'] at h0
  have h7 := (flush5_5 t).mp hf
  have h7' := (flush5_5 t').mp hf'
  omega

/-! ## The output array after the run -/

/-- After the whole grid, the block of the output array under a point that writes back (`t % 8 = 7`) holds what the
    accumulator held after that point. -/
theorem out5_block (V : Valuation τ sig (Elt F)) (c : Dev nD) (t : Fin cfg5.N) (ht : t.val % 8 = 7) :
    ((cfg5.win 5).blk t).view.read (Elt F) ((dat5 (Ix := Ix) (U := U) (Lvl := Lvl) V c).arrAt 5 64)
      = acc5 V c t.val t.isLt := by
  have hN : cfg5.N = 64 := N_5
  have hlt : t.val < 64 := Nat.lt_of_lt_of_eq t.isLt hN
  exact ((dat5 (Ix := Ix) (U := U) (Lvl := Lvl) V c).read_blk_arrAt_eq_flushed 5 disj5_5 64 t hlt
    ((flush5_5 t).mpr ht)).trans (after5_5 V c t)

end Cert.KernelIdeal.Hand

end

/-! # part: RegionValue1 -/
/-
  Region 1 (the aggregation kernel) read as a value: row r of its output is 1·x r plus the masked sum over all rows.

  The grid is 8 × 8, walked row by row: point t = 8·i + j stages the one threshold cell, rows 512·i … of the 4096 × 256
  arrays h and x (row block i) and rows 512·j … of the same two arrays (row block j) (idx_facts5 and the block reads
  mb5_apply … xj5_apply). At the ideal values the reset at j = 0 leaves 1·x r in the accumulator's entry of row
  r = 512·i + p (init5_apply), and the step of point 8·i + j adds Σ_q mask r (512·j + q) · x (512·j + q), the mask
  being 1 where the Gram matrix G r s = Σ_k h r k · h s k is above the threshold and 0 elsewhere (step5_apply). So after
  the eight points of row block i the entry holds 1·x r with the eight column blocks' terms added one by one
  (acc5_apply), which is 1·x r + Σ_s mask r s · x s over all 4096 rows s (acc5_last_apply): the eight blocks of 512 tile
  the 4096 columns, and addition on the extended reals is commutative and associative. The write-back at j = 7 puts
  that row block into the output array (arrAt5_5_block, arrAt5_5_value), and because the mask's entries are zeros and
  ones the diagonal term can be folded in: Σ_s (mask r s + δ r s) · x s (arrAt5_5_agg).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the arrays -/

/-- Point t = 8·i + j of the 8 × 8 grid stages: the one threshold cell (window 0), rows block i = t / 8 of h and of x
    (windows 1 and 3), rows block j = t % 8 of h and of x (windows 2 and 4), and writes rows block i of the output
    (window 5). -/
theorem idx_facts5 : ∀ t : Fin cfg5.N,
    (win5_0.index t 0 = 0 ∧ win5_0.index t 1 = 0) ∧ (win5_1.index t 0 = t.val / 8 ∧ win5_1.index t 1 = 0)
      ∧ (win5_2.index t 0 = t.val % 8 ∧ win5_2.index t 1 = 0) ∧ (win5_3.index t 0 = t.val / 8 ∧ win5_3.index t 1 = 0)
      ∧ (win5_4.index t 0 = t.val % 8 ∧ win5_4.index t 1 = 0) ∧ (win5_5.index t 0 = t.val / 8 ∧ win5_5.index t 1 = 0) :=
  (by decide +kernel : ∀ t : Fin grid5.N,
    (win5_0.index t 0 = 0 ∧ win5_0.index t 1 = 0) ∧ (win5_1.index t 0 = t.val / 8 ∧ win5_1.index t 1 = 0)
      ∧ (win5_2.index t 0 = t.val % 8 ∧ win5_2.index t 1 = 0) ∧ (win5_3.index t 0 = t.val / 8 ∧ win5_3.index t 1 = 0)
      ∧ (win5_4.index t 0 = t.val % 8 ∧ win5_4.index t 1 = 0) ∧ (win5_5.index t 0 = t.val / 8 ∧ win5_5.index t 1 = 0))

section AnyF

variable {F : FTy → Type} [FloatOps F]

/-- The threshold cell, the array h and the array x the region reads: region-entry contents. -/
abbrev marr5 (V : Valuation τ sig (Elt F)) : Vec F S1x1 .f32 := V (Proc.devRef .tc main_v159)
abbrev harr5 (V : Valuation τ sig (Elt F)) : Vec F S4096x256 .f32 := V (Proc.devRef .tc main_v156)
abbrev xarr5 (V : Valuation τ sig (Elt F)) : Vec F S4096x256 .f32 := V (Proc.devRef .tc main_v137)

/-- The five input blocks at point t, each as an array of its literal shape. -/
abbrev mb5 (V : Valuation τ sig (Elt F)) (c : Dev nD) (t : Fin cfg5.N) : Vec F S1x1 .f32 := iblk5 V c 0 t
abbrev hi5 (V : Valuation τ sig (Elt F)) (c : Dev nD) (t : Fin cfg5.N) : Vec F S512x256 .f32 := iblk5 V c 1 t
abbrev hj5 (V : Valuation τ sig (Elt F)) (c : Dev nD) (t : Fin cfg5.N) : Vec F S512x256 .f32 := iblk5 V c 2 t
abbrev xi5 (V : Valuation τ sig (Elt F)) (c : Dev nD) (t : Fin cfg5.N) : Vec F S512x256 .f32 := iblk5 V c 3 t
abbrev xj5 (V : Valuation τ sig (Elt F)) (c : Dev nD) (t : Fin cfg5.N) : Vec F S512x256 .f32 := iblk5 V c 4 t

/-- Window 0's block is the threshold cell itself. -/
theorem mb5_apply (V : Valuation τ sig (Elt F)) (c : Dev nD) (t : Fin cfg5.N) (y : S1x1.Idx) :
    mb5 V c t y = marr5 V y := by
  obtain ⟨⟨hA, hB⟩, -, -, -, -, -⟩ := idx_facts5 t
  show (iblk5 V c 0 t : Vec F S1x1 .f32) y = _
  unfold iblk5
  rw [View.read_apply]
  show V (Proc.devRef .tc main_v159) _ = V (Proc.devRef .tc main_v159) _
  congr 1
  funext a
  apply Fin.ext
  match a with
  | ⟨0, _⟩ => show win5_0.index t 0 * 1 + 1 * (y 0).val = (y 0).val; rw [hA]; omega
  | ⟨1, _⟩ => show win5_0.index t 1 * 1 + 1 * (y 1).val = (y 1).val; rw [hB]; omega

/-- Window 1's block at point t is rows 512·(t / 8) … of h. -/
theorem hi5_apply (V : Valuation τ sig (Elt F)) (c : Dev nD) (t : Fin cfg5.N) (y : S512x256.Idx) (k : S4096x256.Idx)
    (hkr : (k 0).val = 512 * (t.val / 8) + (y 0).val) (hkc : (k 1).val = (y 1).val) :
    hi5 V c t y = harr5 V k := by
  obtain ⟨-, ⟨hA, hB⟩, -, -, -, -⟩ := idx_facts5 t
  show (iblk5 V c 1 t : Vec F S512x256 .f32) y = _
  unfold iblk5
  rw [View.read_apply]
  show V (Proc.devRef .tc main_v156) _ = V (Proc.devRef .tc main_v156) _
  congr 1
  funext a
  apply Fin.ext
  match a with
  | ⟨0, _⟩ => show win5_1.index t 0 * 512 + 1 * (y 0).val = (k 0).val; rw [hA, hkr]; omega
  | ⟨1, _⟩ => show win5_1.index t 1 * 256 + 1 * (y 1).val = (k 1).val; rw [hB, hkc]; omega

/-- Window 2's block at point t is rows 512·(t % 8) … of h. -/
theorem hj5_apply (V : Valuation τ sig (Elt F)) (c : Dev nD) (t : Fin cfg5.N) (y : S512x256.Idx) (k : S4096x256.Idx)
    (hkr : (k 0).val = 512 * (t.val % 8) + (y 0).val) (hkc : (k 1).val = (y 1).val) :
    hj5 V c t y = harr5 V k := by
  obtain ⟨-, -, ⟨hA, hB⟩, -, -, -⟩ := idx_facts5 t
  show (iblk5 V c 2 t : Vec F S512x256 .f32) y = _
  unfold iblk5
  rw [View.read_apply]
  show V (Proc.devRef .tc main_v156) _ = V (Proc.devRef .tc main_v156) _
  congr 1
  funext a
  apply Fin.ext
  match a with
  | ⟨0, _⟩ => show win5_2.index t 0 * 512 + 1 * (y 0).val = (k 0).val; rw [hA, hkr]; omega
  | ⟨1, _⟩ => show win5_2.index t 1 * 256 + 1 * (y 1).val = (k 1).val; rw [hB, hkc]; omega

/-- Window 3's block at point t is rows 512·(t / 8) … of x. -/
theorem xi5_apply (V : Valuation τ sig (Elt F)) (c : Dev nD) (t : Fin cfg5.N) (y : S512x256.Idx) (k : S4096x256.Idx)
    (hkr : (k 0).val = 512 * (t.val / 8) + (y 0).val) (hkc : (k 1).val = (y 1).val) :
    xi5 V c t y = xarr5 V k := by
  obtain ⟨-, -, -, ⟨hA, hB⟩, -, -⟩ := idx_facts5 t
  show (iblk5 V c 3 t : Vec F S512x256 .f32) y = _
  unfold iblk5
  rw [View.read_apply]
  show V (Proc.devRef .tc main_v137) _ = V (Proc.devRef .tc main_v137) _
  congr 1
  funext a
  apply Fin.ext
  match a with
  | ⟨0, _⟩ => show win5_3.index t 0 * 512 + 1 * (y 0).val = (k 0).val; rw [hA, hkr]; omega
  | ⟨1, _⟩ => show win5_3.index t 1 * 256 + 1 * (y 1).val = (k 1).val; rw [hB, hkc]; omega

/-- Window 4's block at point t is rows 512·(t % 8) … of x. -/
theorem xj5_apply (V : Valuation τ sig (Elt F)) (c : Dev nD) (t : Fin cfg5.N) (y : S512x256.Idx) (k : S4096x256.Idx)
    (hkr : (k 0).val = 512 * (t.val % 8) + (y 0).val) (hkc : (k 1).val = (y 1).val) :
    xj5 V c t y = xarr5 V k := by
  obtain ⟨-, -, -, -, ⟨hA, hB⟩, -⟩ := idx_facts5 t
  show (iblk5 V c 4 t : Vec F S512x256 .f32) y = _
  unfold iblk5
  rw [View.read_apply]
  show V (Proc.devRef .tc main_v137) _ = V (Proc.devRef .tc main_v137) _
  congr 1
  funext a
  apply Fin.ext
  match a with
  | ⟨0, _⟩ => show win5_4.index t 0 * 512 + 1 * (y 0).val = (k 0).val; rw [hA, hkr]; omega
  | ⟨1, _⟩ => show win5_4.index t 1 * 256 + 1 * (y 1).val = (k 1).val; rw [hB, hkc]; omega

/-- The accumulator after point n depends on n only through its value. -/
theorem acc5_congr (V : Valuation τ sig (Elt F)) (c : Dev nD) {n n' : ℕ} (e : n = n') (hn : n < cfg5.N) (hn' : n' < cfg5.N) :
    acc5 V c n hn = acc5 V c n' hn' := by
  subst e; rfl

/-- At the first point of row block i the accumulator is reset and stepped once … -/
theorem acc5_row_zero (V : Valuation τ sig (Elt F)) (c : Dev nD) (i : ℕ) (hn : 8 * i + 0 < cfg5.N) :
    acc5 V c (8 * i + 0) hn = step5 V c (8 * i + 0) hn (init5 V c (8 * i + 0) hn) :=
  acc5_reset V c (8 * i + 0) hn (by omega)

/-- … and at each later point of the row block it is stepped from what the point before left. -/
theorem acc5_row_succ (V : Valuation τ sig (Elt F)) (c : Dev nD) (i j : ℕ) (hj : j + 1 < 8) (hn : 8 * i + (j + 1) < cfg5.N) :
    acc5 V c (8 * i + (j + 1)) hn = step5 V c (8 * i + (j + 1)) hn (acc5 V c (8 * i + j) (by omega)) :=
  (acc5_step V c (8 * i + (j + 1)) hn (by omega)).trans
    (congrArg (step5 V c (8 * i + (j + 1)) hn) (acc5_congr V c (by omega) _ _))

end AnyF

/-! ## The accumulator at the ideal values -/

/-- The Gram matrix of the rows of h. -/
noncomputable def gram5 (V : Valuation τ sig (Elt Ideal)) (r s : Fin 4096) : EReal :=
  ∑ k : Fin 256, (harr5 V (ix2 r k) : EReal) * (harr5 V (ix2 s k) : EReal)

/-- The 0/1 mask: 1 where the Gram matrix's entry is above the threshold, else 0. -/
noncomputable def mask5 (V : Valuation τ sig (Elt Ideal)) (r s : Fin 4096) : EReal :=
  if (marr5 V (ix2 (0 : Fin 1) (0 : Fin 1)) : EReal) < gram5 V r s then 1 else 0

/-- The mask's entries are zero or one. -/
theorem mask5_zero_or_one (V : Valuation τ sig (Elt Ideal)) (r s : Fin 4096) : mask5 V r s = 0 ∨ mask5 V r s = 1 := by
  unfold mask5
  exact GridSum.ite_zero_or_one _

/-- What column block j adds to the accumulator's entry of row r and feature d (zero past the eight blocks). -/
noncomputable def blockTerm5 (V : Valuation τ sig (Elt Ideal)) (r : Fin 4096) (d : Fin 256) (j : ℕ) : EReal :=
  if hj : j < 8 then
    ∑ q : Fin 512, mask5 V r (GridSum.idx4096 ⟨j, hj⟩ q) * (xarr5 V (ix2 (GridSum.idx4096 ⟨j, hj⟩ q) d) : EReal)
  else 0

theorem blockTerm5_of_lt (V : Valuation τ sig (Elt Ideal)) (r : Fin 4096) (d : Fin 256) (j : ℕ) (hj : j < 8) :
    blockTerm5 V r d j
      = ∑ q : Fin 512, mask5 V r (GridSum.idx4096 ⟨j, hj⟩ q) * (xarr5 V (ix2 (GridSum.idx4096 ⟨j, hj⟩ q) d) : EReal) := by
  unfold blockTerm5
  exact dif_pos hj

/-- One step at point 8·i + j adds column block j's term to the entry of row 512·i + p. -/
theorem step5_apply (V : Valuation τ sig (Elt Ideal)) (c : Dev nD) (i : Fin 8) (j : ℕ) (hj : j < 8)
    (hn : 8 * (i : ℕ) + j < cfg5.N) (a : Vec Ideal S512x256 .f32) (p : Fin 512) (d : Fin 256) :
    (step5 V c (8 * (i : ℕ) + j) hn a (ix2 p d) : EReal) = (a (ix2 p d) : EReal) + blockTerm5 V (GridSum.idx4096 i p) d j := by
  have hi : (i : ℕ) < 8 := i.isLt
  have e := k5_pay2_apply (hi5 V c ⟨8 * (i : ℕ) + j, hn⟩) (hj5 V c ⟨8 * (i : ℕ) + j, hn⟩) (mb5 V c ⟨8 * (i : ℕ) + j, hn⟩)
    (xj5 V c ⟨8 * (i : ℕ) + j, hn⟩) a p d
  rw [blockTerm5_of_lt V _ d j hj]
  refine e.trans ?_
  congr 1
  refine Finset.sum_congr rfl fun q _ => ?_
  rw [mb5_apply V c ⟨8 * (i : ℕ) + j, hn⟩ (ix2 (0 : Fin 1) (0 : Fin 1)),
    xj5_apply V c ⟨8 * (i : ℕ) + j, hn⟩ (ix2 q d) (ix2 (GridSum.idx4096 ⟨j, hj⟩ q) d)
      (by show 512 * j + (q : ℕ) = 512 * ((8 * (i : ℕ) + j) % 8) + (q : ℕ); omega) rfl]
  congr 1
  unfold mask5 gram5
  have hs : (∑ k : Fin 256, (hi5 V c ⟨8 * (i : ℕ) + j, hn⟩ (ix2 p k) : EReal) * (hj5 V c ⟨8 * (i : ℕ) + j, hn⟩ (ix2 q k) : EReal))
      = ∑ k : Fin 256, (harr5 V (ix2 (GridSum.idx4096 i p) k) : EReal) * (harr5 V (ix2 (GridSum.idx4096 ⟨j, hj⟩ q) k) : EReal) :=
    Finset.sum_congr rfl fun k _ => by
      rw [hi5_apply V c ⟨8 * (i : ℕ) + j, hn⟩ (ix2 p k) (ix2 (GridSum.idx4096 i p) k)
          (by show 512 * (i : ℕ) + (p : ℕ) = 512 * ((8 * (i : ℕ) + j) / 8) + (p : ℕ); omega) rfl,
        hj5_apply V c ⟨8 * (i : ℕ) + j, hn⟩ (ix2 q k) (ix2 (GridSum.idx4096 ⟨j, hj⟩ q) k)
          (by show 512 * j + (q : ℕ) = 512 * ((8 * (i : ℕ) + j) % 8) + (q : ℕ); omega) rfl]
  rw [hs]

/-- The reset value at point 8·i + j is 1 times the entry of x at row 512·i + p. -/
theorem init5_apply (V : Valuation τ sig (Elt Ideal)) (c : Dev nD) (i : Fin 8) (j : ℕ) (hj : j < 8)
    (hn : 8 * (i : ℕ) + j < cfg5.N) (p : Fin 512) (d : Fin 256) :
    (init5 V c (8 * (i : ℕ) + j) hn (ix2 p d) : EReal) = 1 * (xarr5 V (ix2 (GridSum.idx4096 i p) d) : EReal) := by
  have hi : (i : ℕ) < 8 := i.isLt
  have e := k5_pay1_apply (xi5 V c ⟨8 * (i : ℕ) + j, hn⟩) p d
  refine e.trans ?_
  rw [xi5_apply V c ⟨8 * (i : ℕ) + j, hn⟩ (ix2 p d) (ix2 (GridSum.idx4096 i p) d)
    (by show 512 * (i : ℕ) + (p : ℕ) = 512 * ((8 * (i : ℕ) + j) / 8) + (p : ℕ); omega) rfl]

/-- After point 8·i + j the accumulator's entry of row r = 512·i + p holds 1·x r with the terms of the column blocks
    0 … j added one by one. -/
theorem acc5_apply (V : Valuation τ sig (Elt Ideal)) (c : Dev nD) (i : Fin 8) (p : Fin 512) (d : Fin 256) :
    ∀ (j : ℕ) (hj : j < 8) (hn : 8 * (i : ℕ) + j < cfg5.N),
      (acc5 V c (8 * (i : ℕ) + j) hn (ix2 p d) : EReal)
        = GridSum.accFold (1 * (xarr5 V (ix2 (GridSum.idx4096 i p) d) : EReal)) (blockTerm5 V (GridSum.idx4096 i p) d) (j + 1)
  | 0, hj, hn => by
    rw [acc5_row_zero V c (i : ℕ) hn, step5_apply V c i 0 hj hn _ p d, init5_apply V c i 0 hj hn p d,
      GridSum.accFold_succ, GridSum.accFold_zero]
  | j + 1, hj, hn => by
    rw [acc5_row_succ V c (i : ℕ) j hj hn, step5_apply V c i (j + 1) hj hn _ p d,
      acc5_apply V c i p d j (by omega) (by omega), GridSum.accFold_succ _ _ (j + 1)]

/-- THE AGGREGATION KERNEL'S VALUE at the last point of row block i: the entry of row r = 512·i + p and feature d is
    1·x r d plus the sum over all 4096 rows s of mask r s · x s d. -/
theorem acc5_last_apply (V : Valuation τ sig (Elt Ideal)) (c : Dev nD) (i : Fin 8) (p : Fin 512) (d : Fin 256)
    (hn : 8 * (i : ℕ) + 7 < cfg5.N) :
    (acc5 V c (8 * (i : ℕ) + 7) hn (ix2 p d) : EReal)
      = 1 * (xarr5 V (ix2 (GridSum.idx4096 i p) d) : EReal)
        + ∑ s : Fin 4096, mask5 V (GridSum.idx4096 i p) s * (xarr5 V (ix2 s d) : EReal) := by
  rw [acc5_apply V c i p d 7 (by omega) hn, GridSum.accFold_eq_sum,
    GridSum.sum_range_fin (blockTerm5 V (GridSum.idx4096 i p) d)
      (fun j : Fin 8 => ∑ q : Fin 512, mask5 V (GridSum.idx4096 i p) (GridSum.idx4096 j q) * (xarr5 V (ix2 (GridSum.idx4096 j q) d) : EReal))
      (fun j => blockTerm5_of_lt V _ d (j : ℕ) j.isLt),
    GridSum.sum_blocks GridSum.eight_mul (fun s : Fin 4096 => mask5 V (GridSum.idx4096 i p) s * (xarr5 V (ix2 s d) : EReal))]

/-! ## The output array after the run -/

section Array

variable {F : FTy → Type} [FloatOps F]
variable {Ix : Type} [DecidableEq Ix] {U : Type} [URA U] {Lvl : Type}

/-- The output window's block at point t is rows 512·(t / 8) … of the output array. -/
theorem oblk5_apply (c : Dev nD) (X : Buf (Elt F) ((cfg5.win 5).arr.view.loc (c.tc : Thread nD τ))) (t : Fin cfg5.N)
    (y : S512x256.Idx) (k : S4096x256.Idx) (hkr : (k 0).val = 512 * (t.val / 8) + (y 0).val) (hkc : (k 1).val = (y 1).val) :
    (((cfg5.win 5).blk t).view.read (Elt F) X : Vec F S512x256 .f32) y = (X : S4096x256.Idx → Elt F .f32) k := by
  obtain ⟨-, -, -, -, -, ⟨hA, hB⟩⟩ := idx_facts5 t
  rw [View.read_apply]
  have e : ((cfg5.win 5).blk t).view.emb y = k := by
    funext a
    apply Fin.ext
    match a with
    | ⟨0, _⟩ => show win5_5.index t 0 * 512 + 1 * (y 0).val = (k 0).val; rw [hA, hkr]; omega
    | ⟨1, _⟩ => show win5_5.index t 1 * 256 + 1 * (y 1).val = (k 1).val; rw [hB, hkc]; omega
  exact congrArg X e

/-- After the whole grid the output array's entry of row 512·i + p is what the accumulator held, at row p, after the
    last point of row block i. -/
theorem arrAt5_5_block (V : Valuation τ sig (Elt F)) (c : Dev nD) (i : Fin 8) (p : Fin 512) (d : Fin 256)
    (hn : 8 * (i : ℕ) + 7 < cfg5.N) :
    ((dat5 (Ix := Ix) (U := U) (Lvl := Lvl) V c).arrAt 5 64 : S4096x256.Idx → Elt F .f32) (ix2 (GridSum.idx4096 i p) d)
      = (acc5 V c (8 * (i : ℕ) + 7) hn : Vec F S512x256 .f32) (ix2 p d) := by
  have hi : (i : ℕ) < 8 := i.isLt
  refine (oblk5_apply c ((dat5 (Ix := Ix) (U := U) (Lvl := Lvl) V c).arrAt 5 64) ⟨8 * (i : ℕ) + 7, hn⟩ (ix2 p d)
    (ix2 (GridSum.idx4096 i p) d)
    (by show 512 * (i : ℕ) + (p : ℕ) = 512 * ((8 * (i : ℕ) + 7) / 8) + (p : ℕ); omega) rfl).symm.trans ?_
  exact congrFun (out5_block (Ix := Ix) (U := U) (Lvl := Lvl) V c ⟨8 * (i : ℕ) + 7, hn⟩
    (by show (8 * (i : ℕ) + 7) % 8 = 7; omega)) (ix2 p d)

/-- THE AGGREGATION KERNEL'S OUTPUT ARRAY at the ideal values: the entry of row r and feature d is 1·x r d plus the sum
    over all rows s of mask r s · x s d, the mask being 1 where the Gram matrix of the rows of h is above the threshold. -/
theorem arrAt5_5_value (V : Valuation τ sig (Elt Ideal)) (c : Dev nD) (r : Fin 4096) (d : Fin 256) :
    (((dat5 (Ix := Ix) (U := U) (Lvl := Lvl) V c).arrAt 5 64 : S4096x256.Idx → Elt Ideal .f32) (ix2 r d) : EReal)
      = 1 * (xarr5 V (ix2 r d) : EReal) + ∑ s : Fin 4096, mask5 V r s * (xarr5 V (ix2 s d) : EReal) := by
  have hN : cfg5.N = 64 := N_5
  obtain ⟨i, p, rfl⟩ := GridSum.exists_idx4096 r
  have hi : (i : ℕ) < 8 := i.isLt
  have hn : 8 * (i : ℕ) + 7 < cfg5.N := by omega
  exact (arrAt5_5_block (Ix := Ix) (U := U) (Lvl := Lvl) V c i p d hn).trans (acc5_last_apply V c i p d hn)

/-- The same with the diagonal folded into the mask: Σ_s (mask r s + δ r s) · x s d, the aggregate law of zeros and ones
    on the extended reals. -/
theorem arrAt5_5_agg (V : Valuation τ sig (Elt Ideal)) (c : Dev nD) (r : Fin 4096) (d : Fin 256) :
    (((dat5 (Ix := Ix) (U := U) (Lvl := Lvl) V c).arrAt 5 64 : S4096x256.Idx → Elt Ideal .f32) (ix2 r d) : EReal)
      = ∑ s : Fin 4096, (mask5 V r s + (if r = s then 1 else 0)) * (xarr5 V (ix2 s d) : EReal) :=
  (arrAt5_5_value (Ix := Ix) (U := U) (Lvl := Lvl) V c r d).trans
    (GridSum.aggregate_law_ite (mask5 V) (fun s => (xarr5 V (ix2 s d) : EReal)) (mask5_zero_or_one V) r)

/-- The same as an equation of arrays: the output array is the closed form aggVal of the threshold cell, h and x. -/
theorem region5_value (V : Valuation τ sig (Elt Ideal)) (c : Dev nD) :
    ((dat5 (Ix := Ix) (U := U) (Lvl := Lvl) V c).arrAt 5 64 : S4096x256.Idx → Elt Ideal .f32)
      = Cert.Hand.aggVal (marr5 V) (harr5 V) (xarr5 V) := by
  funext j
  obtain ⟨r, d, rfl⟩ : ∃ (r : Fin 4096) (d : Fin 256), j = ix2 r d := ⟨j 0, j 1, eq_ix2 j⟩
  exact arrAt5_5_value (Ix := Ix) (U := U) (Lvl := Lvl) V c r d

end Array

end Cert.KernelIdeal.Hand

end
-- ==== Proof.RgV6.lean ====
import Idealize.ShloMosaic.Lib.Pipeline.Value
import proofs.«169706_j68856915690108_1_alg».proof.Proof.UnitIdx
import proofs.«169706_j68856915690108_1_alg».proof.Proof.AggVal
import proofs.«169706_j68856915690108_1_alg».proof.Proof.TileValue
import proofs.«169706_j68856915690108_1_alg».proof.Proof.LibGridSum
import Idealize.ShloMosaic.Lib.ValueIdx
import proofs.«169706_j68856915690108_1_alg».proof.Proof.Rg6

/-! # part: SumValue -/
/-
  Region 0 (the tile-sum kernel): what the run leaves in the output array.

  The output window's block is the whole 1 × 1 output array, and it is written back once, after the last of the 64
  points. So after the whole grid the output array's one cell holds what the scratch cell held after point 63: the sum
  of all 64 tiles.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The one write-back -/

/-- Only the last point writes the output block back, so no two different points do. -/
theorem disj6_2 (t t' : Fin cfg6.N) (hf : (cfg6.win 2).flush t = true) (hf' : (cfg6.win 2).flush t' = true)
    (hne : t ≠ t') : Disjoint ((cfg6.win 2).blk t).view.set ((cfg6.win 2).blk t').view.set := by
  have hN : cfg6.N = 64 := N_6
  have h := (flush6_2 t).mp hf
  have h' := (flush6_2 t').mp hf'
  have := t.isLt; have := t'.isLt
  exact absurd (Fin.ext (by omega)) hne

/-- The grid has a point 63, its last. -/
theorem last6_lt : 63 < cfg6.N := by decide

/-- The last point writes the output block back. -/
theorem flush6_2_last : (cfg6.win 2).flush ⟨63, last6_lt⟩ = true := (flush6_2 _).mpr (by decide)

/-! ## The output array after the run -/

/-- After the whole grid, the output block read back through the window holds what the scratch cell held after the
    last point. -/
theorem out6_block (V : Valuation τ sig (Elt F)) (c : Dev nD) :
    ((cfg6.win 2).blk ⟨63, last6_lt⟩).view.read (Elt F) ((dat6 (Ix := Ix) (U := U) (Lvl := Lvl) V c).arrAt 2 64)
      = acc6 V c 63 last6_lt :=
  ((dat6 (Ix := Ix) (U := U) (Lvl := Lvl) V c).read_blk_arrAt_eq_flushed 2 disj6_2 64 ⟨63, last6_lt⟩ (by decide)
    flush6_2_last).trans (after6_2 V c ⟨63, last6_lt⟩)

/-- The output array after the whole grid, cell by cell: what the scratch cell held after the last point. -/
theorem arrAt6_2_apply (V : Valuation τ sig (Elt F)) (c : Dev nD) (i : S1x1.Idx) :
    ((dat6 (Ix := Ix) (U := U) (Lvl := Lvl) V c).arrAt 2 64 : S1x1.Idx → Elt F .f32) i = acc6 V c 63 last6_lt i := by
  have h := congrFun (out6_block (Ix := Ix) (U := U) (Lvl := Lvl) V c) i
  rw [View.read_apply] at h
  rw [← h, unit_idx_eq (((cfg6.win 2).blk ⟨63, last6_lt⟩).view.emb i) i]
  rfl

/-- The output array after the whole grid, as a 1 × 1 vector. -/
theorem arrAt6_2 (V : Valuation τ sig (Elt F)) (c : Dev nD) :
    ((dat6 (Ix := Ix) (U := U) (Lvl := Lvl) V c).arrAt 2 64 : S1x1.Idx → Elt F .f32) = acc6 V c 63 last6_lt :=
  funext fun i => arrAt6_2_apply V c i

end Cert.KernelIdeal.Hand

end

/-! # part: RegionValue0 -/
/-
  Region 0 (the tile-sum kernel) read as a value: the cell it accumulates ends at the sum of the whole Gram matrix.

  The grid is 8 × 8, walked row by row: point t = 8·i + j stages rows 512·i … 512·i + 511 of the 4096 × 256 array h
  through its first window and rows 512·j … of the same array through its second (idx_facts6, hi6_apply, hj6_apply).
  At the ideal values the step of one point adds to the 1 × 1 cell the sum of the 512 × 512 tile
  Σ_p Σ_q Σ_k h (512·i + p) k · h (512·j + q) k, and the cell starts from zero, so after point n it holds the tile sums
  of the points 0 … n added one by one (acc6_apply). The 64 tiles are exactly the 8 × 8 tiling of the 4096 × 4096 Gram
  matrix G r s = Σ_k h r k · h s k (tile6_grid), and on the extended reals addition is commutative and associative, so
  after the last point the cell holds Σ_r Σ_s G r s (acc6_last_apply): no finiteness of h is needed. The one write-back, after
  the last point, copies the cell into the 1 × 1 output array (arrAt6_2_value, region6_value).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the array -/

/-- Point t = 8·i + j of the 8 × 8 grid stages rows block i = t / 8 through window 0, rows block j = t % 8 through
    window 1, and the one cell through window 2. -/
theorem idx_facts6 : ∀ t : Fin cfg6.N,
    win6_0.index t 0 = t.val / 8 ∧ win6_0.index t 1 = 0 ∧ win6_1.index t 0 = t.val % 8 ∧ win6_1.index t 1 = 0
      ∧ win6_2.index t 0 = 0 ∧ win6_2.index t 1 = 0 :=
  (by decide +kernel : ∀ t : Fin grid6.N,
    win6_0.index t 0 = t.val / 8 ∧ win6_0.index t 1 = 0 ∧ win6_1.index t 0 = t.val % 8 ∧ win6_1.index t 1 = 0
      ∧ win6_2.index t 0 = 0 ∧ win6_2.index t 1 = 0)

section AnyF

variable {F : FTy → Type} [FloatOps F]

/-- The array h both input windows read: the region-entry contents of the first window's array. -/
abbrev harr6 (V : Valuation τ sig (Elt F)) : Vec F S4096x256 .f32 := V (Proc.devRef .tc main_v228)

/-- The block of h window 0 stages at point t, as a 512 × 256 array. -/
abbrev hi6 (V : Valuation τ sig (Elt F)) (c : Dev nD) (t : Fin cfg6.N) : Vec F S512x256 .f32 := iblk6 V c 0 t
/-- The block of h window 1 stages at point t, as a 512 × 256 array. -/
abbrev hj6 (V : Valuation τ sig (Elt F)) (c : Dev nD) (t : Fin cfg6.N) : Vec F S512x256 .f32 := iblk6 V c 1 t

/-- Window 0's block at point t is rows 512·(t / 8) … of h. -/
theorem hi6_apply (V : Valuation τ sig (Elt F)) (c : Dev nD) (t : Fin cfg6.N) (y : S512x256.Idx) (k : S4096x256.Idx)
    (hkr : (k 0).val = 512 * (t.val / 8) + (y 0).val) (hkc : (k 1).val = (y 1).val) :
    hi6 V c t y = harr6 V k := by
  obtain ⟨hA, hB, -, -, -, -⟩ := idx_facts6 t
  show (iblk6 V c 0 t : Vec F S512x256 .f32) y = _
  unfold iblk6
  rw [View.read_apply]
  show V (Proc.devRef .tc main_v228) _ = V (Proc.devRef .tc main_v228) _
  congr 1
  funext a
  apply Fin.ext
  match a with
  | ⟨0, _⟩ => show win6_0.index t 0 * 512 + 1 * (y 0).val = (k 0).val; rw [hA, hkr]; omega
  | ⟨1, _⟩ => show win6_0.index t 1 * 256 + 1 * (y 1).val = (k 1).val; rw [hB, hkc]; omega

/-- Window 1's block at point t is rows 512·(t % 8) … of h. -/
theorem hj6_apply (V : Valuation τ sig (Elt F)) (c : Dev nD) (t : Fin cfg6.N) (y : S512x256.Idx) (k : S4096x256.Idx)
    (hkr : (k 0).val = 512 * (t.val % 8) + (y 0).val) (hkc : (k 1).val = (y 1).val) :
    hj6 V c t y = harr6 V k := by
  obtain ⟨-, -, hA, hB, -, -⟩ := idx_facts6 t
  show (iblk6 V c 1 t : Vec F S512x256 .f32) y = _
  unfold iblk6
  rw [View.read_apply]
  show V (Proc.devRef .tc main_v228) _ = V (Proc.devRef .tc main_v228) _
  congr 1
  funext a
  apply Fin.ext
  match a with
  | ⟨0, _⟩ => show win6_1.index t 0 * 512 + 1 * (y 0).val = (k 0).val; rw [hA, hkr]; omega
  | ⟨1, _⟩ => show win6_1.index t 1 * 256 + 1 * (y 1).val = (k 1).val; rw [hB, hkc]; omega

end AnyF

/-! ## The accumulated cell at the ideal values -/

/-- The Gram matrix of the rows of h: entry (r, s) is the sum over the 256 columns of the products. -/
noncomputable def gram6 (V : Valuation τ sig (Elt Ideal)) (r s : Fin 4096) : EReal :=
  ∑ k : Fin 256, (harr6 V (ix2 r k) : EReal) * (harr6 V (ix2 s k) : EReal)

/-- The sum of the 512 × 512 tile the point t stages (zero past the grid). -/
noncomputable def tile6 (V : Valuation τ sig (Elt Ideal)) (c : Dev nD) (t : ℕ) : EReal :=
  if ht : t < cfg6.N then
    ∑ p : Fin 512, ∑ q : Fin 512, ∑ k : Fin 256, (hi6 V c ⟨t, ht⟩ (ix2 p k) : EReal) * (hj6 V c ⟨t, ht⟩ (ix2 q k) : EReal)
  else 0

theorem tile6_of_lt (V : Valuation τ sig (Elt Ideal)) (c : Dev nD) (t : ℕ) (ht : t < cfg6.N) :
    tile6 V c t
      = ∑ p : Fin 512, ∑ q : Fin 512, ∑ k : Fin 256, (hi6 V c ⟨t, ht⟩ (ix2 p k) : EReal) * (hj6 V c ⟨t, ht⟩ (ix2 q k) : EReal) := by
  unfold tile6
  exact dif_pos ht

/-- After point n the cell holds the tile sums of the points 0 … n added one by one onto zero. -/
theorem acc6_apply (V : Valuation τ sig (Elt Ideal)) (c : Dev nD) :
    ∀ (n : ℕ) (hn : n < cfg6.N) (a b : Fin 1),
      ((acc6 V c n hn : Vec Ideal S1x1 .f32) (ix2 a b) : EReal) = GridSum.accFold 0 (tile6 V c) (n + 1)
  | 0, hn, a, b => by
    have e := k6_pay2_apply (hi6 V c ⟨0, hn⟩) (hj6 V c ⟨0, hn⟩) (k6_pay1 (F := Ideal)) a b
    rw [k6_pay1_apply] at e
    rw [GridSum.accFold_succ, GridSum.accFold_zero, tile6_of_lt V c 0 hn]
    exact e
  | n + 1, hn, a, b => by
    have e := k6_pay2_apply (hi6 V c ⟨n + 1, hn⟩) (hj6 V c ⟨n + 1, hn⟩) (acc6 V c n (Nat.lt_of_succ_lt hn)) a b
    rw [acc6_apply V c n (Nat.lt_of_succ_lt hn) a b] at e
    rw [GridSum.accFold_succ _ _ (n + 1), tile6_of_lt V c (n + 1) hn]
    exact e

/-- The tile of point 8·i + j is the 512 × 512 tile (i, j) of the Gram matrix. -/
theorem tile6_grid (V : Valuation τ sig (Elt Ideal)) (c : Dev nD) (i j : Fin 8) :
    tile6 V c (8 * (i : ℕ) + (j : ℕ))
      = ∑ p : Fin 512, ∑ q : Fin 512, gram6 V (GridSum.idx4096 i p) (GridSum.idx4096 j q) := by
  have hi : (i : ℕ) < 8 := i.isLt
  have hj : (j : ℕ) < 8 := j.isLt
  have hN : cfg6.N = 64 := N_6
  have ht : 8 * (i : ℕ) + (j : ℕ) < cfg6.N := by omega
  rw [tile6_of_lt V c _ ht]
  refine Finset.sum_congr rfl fun p _ => Finset.sum_congr rfl fun q _ => ?_
  unfold gram6
  refine Finset.sum_congr rfl fun k _ => ?_
  rw [hi6_apply V c ⟨_, ht⟩ (ix2 p k) (ix2 (GridSum.idx4096 i p) k)
      (by show 512 * (i : ℕ) + (p : ℕ) = 512 * ((8 * (i : ℕ) + (j : ℕ)) / 8) + (p : ℕ); omega) rfl,
    hj6_apply V c ⟨_, ht⟩ (ix2 q k) (ix2 (GridSum.idx4096 j q) k)
      (by show 512 * (j : ℕ) + (q : ℕ) = 512 * ((8 * (i : ℕ) + (j : ℕ)) % 8) + (q : ℕ); omega) rfl]

/-- THE SUM KERNEL'S VALUE. After the last point the cell holds the sum of the whole 4096 × 4096 Gram matrix of the
    rows of h: the 64 tile sums, taken in the grid's row-major order, add up to the sum over all pairs of rows. -/
theorem acc6_last_apply (V : Valuation τ sig (Elt Ideal)) (c : Dev nD) (hlast : 63 < cfg6.N) (a b : Fin 1) :
    ((acc6 V c 63 hlast : Vec Ideal S1x1 .f32) (ix2 a b) : EReal)
      = ∑ r : Fin 4096, ∑ s : Fin 4096, ∑ k : Fin 256, (harr6 V (ix2 r k) : EReal) * (harr6 V (ix2 s k) : EReal) := by
  rw [acc6_apply V c 63 hlast a b, GridSum.accFold_tiles_4096 (gram6 V) 0 (tile6 V c) (tile6_grid V c), zero_add]
  rfl

/-! ## The output array after the run -/

section Array

variable {Ix : Type} [DecidableEq Ix] {U : Type} [URA U] {Lvl : Type}

/-- THE SUM KERNEL'S OUTPUT ARRAY at the ideal values: after the whole grid its one cell holds the sum of the whole
    4096 × 4096 Gram matrix of the rows of h. -/
theorem arrAt6_2_value (V : Valuation τ sig (Elt Ideal)) (c : Dev nD) (a b : Fin 1) :
    (((dat6 (Ix := Ix) (U := U) (Lvl := Lvl) V c).arrAt 2 64 : S1x1.Idx → Elt Ideal .f32) (ix2 a b) : EReal)
      = ∑ r : Fin 4096, ∑ s : Fin 4096, ∑ k : Fin 256, (harr6 V (ix2 r k) : EReal) * (harr6 V (ix2 s k) : EReal) :=
  (arrAt6_2_apply (Ix := Ix) (U := U) (Lvl := Lvl) V c (ix2 a b)).trans (acc6_last_apply V c (by decide) a b)

/-- The same as an equation of arrays: the output array is the closed form sumVal of h. -/
theorem region6_value (V : Valuation τ sig (Elt Ideal)) (c : Dev nD) :
    ((dat6 (Ix := Ix) (U := U) (Lvl := Lvl) V c).arrAt 2 64 : S1x1.Idx → Elt Ideal .f32) = Cert.Hand.sumVal (harr6 V) := by
  funext i
  obtain ⟨a, b, rfl⟩ : ∃ (a b : Fin 1), i = ix2 a b := ⟨i 0, i 1, eq_ix2 i⟩
  exact arrAt6_2_value (Ix := Ix) (U := U) (Lvl := Lvl) V c a b

end Array

end Cert.KernelIdeal.Hand

end
-- ==== Proof.RgV7.lean ====
import Idealize.ShloMosaic.Lib.Pipeline.Value
import proofs.«169706_j68856915690108_1_alg».proof.Proof.TileValue
import proofs.«169706_j68856915690108_1_alg».proof.Proof.LibGridSum
import proofs.«169706_j68856915690108_1_alg».proof.Proof.RegionValueLib
import proofs.«169706_j68856915690108_1_alg».proof.Proof.AggVal
import Idealize.ShloMosaic.Lib.ValueIdx
import proofs.«169706_j68856915690108_1_alg».proof.Proof.Rg7

/-! # part: ApplyOut -/
/-
  Region 1 (the aggregation kernel): what the run leaves in the output array.

  The accumulator after point t is the fold over the run of eight points that t lies in (the points 8·(t / 8) …
  8·(t / 8) + 7 share the row block i = t / 8): reset and stepped at the run's first point, stepped at each later one.
  The output window's block at point t is row block t / 8 of the output array, written back at the run's last point
  only (t % 8 = 7); two such points have different row blocks, so their blocks of the array are disjoint, and after
  the whole grid block i of the output array holds what the accumulator held after point 8·i + 7.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The accumulator as a fold over its run -/

/-- The accumulator after point `t` is the fold over the run of eight points `t` lies in, up to `t`. -/
theorem acc7_fold (V : Valuation τ sig (Elt F)) (c : Dev nD) (t : ℕ) (ht : t < cfg7.N)
    (h' : 8 * (t / 8) + t % 8 < cfg7.N) :
    acc7 V c t ht = Pipeline.accAt (fun n h => step7 V c n h (init7 V c n h)) (fun n h a => step7 V c n h a)
      (8 * (t / 8)) (t % 8) h' :=
  Pipeline.eq_accAt_of_mod (acc7 V c) 8 (fun n h => step7 V c n h (init7 V c n h)) (fun n h a => step7 V c n h a)
    (fun n h h0 => acc7_reset V c n h h0) (fun n h h0 => if_neg h0) (by decide) t ht h'

/-! ## The output window's blocks -/

/-- The output window's block index along the rows at point `t` is `t / 8`. -/
theorem idx7_5 : ∀ t : Fin cfg7.N, win7_5.index t (0 : Fin 2) = t.val / 8 :=
  (by decide +kernel : ∀ t : Fin grid7.N, win7_5.index t (0 : Fin 2) = t.val / 8)

/-- Two different points that write the output block back write disjoint blocks of the array. -/
theorem disj7_5 (t t' : Fin cfg7.N) (hf : (cfg7.win 5).flush t = true) (hf' : (cfg7.win 5).flush t' = true)
    (hne : t ≠ t') : Disjoint ((cfg7.win 5).blk t).view.set ((cfg7.win 5).blk t').view.set := by
  refine (cfg7.win 5).disjoint_blk fun h => hne (Fin.ext ?_)
  have h0 : win7_5.index t (0 : Fin 2) = win7_5.index t' (0 : Fin 2) := congrFun h (0 : Fin 2)
  rw [idx7_5 t, idx7_5 t'] at h0
  have h7 := (flush7_5 t).mp hf
  have h7' := (flush7_5 t').mp hf'
  omega

/-! ## The output array after the run -/

/-- After the whole grid, the block of the output array under a point that writes back (`t % 8 = 7`) holds what the
    accumulator held after that point. -/
theorem out7_block (V : Valuation τ sig (Elt F)) (c : Dev nD) (t : Fin cfg7.N) (ht : t.val % 8 = 7) :
    ((cfg7.win 5).blk t).view.read (Elt F) ((dat7 (Ix := Ix) (U := U) (Lvl := Lvl) V c).arrAt 5 64)
      = acc7 V c t.val t.isLt := by
  have hN : cfg7.N = 64 := N_7
  have hlt : t.val < 64 := Nat.lt_of_lt_of_eq t.isLt hN
  exact ((dat7 (Ix := Ix) (U := U) (Lvl := Lvl) V c).read_blk_arrAt_eq_flushed 5 disj7_5 64 t hlt
    ((flush7_5 t).mpr ht)).trans (after7_5 V c t)

end Cert.KernelIdeal.Hand

end

/-! # part: RegionValue1 -/
/-
  Region 1 (the aggregation kernel) read as a value: row r of its output is 1·x r plus the masked sum over all rows.

  The grid is 8 × 8, walked row by row: point t = 8·i + j stages the one threshold cell, rows 512·i … of the 4096 × 256
  arrays h and x (row block i) and rows 512·j … of the same two arrays (row block j) (idx_facts7 and the block reads
  mb7_apply … xj7_apply). At the ideal values the reset at j = 0 leaves 1·x r in the accumulator's entry of row
  r = 512·i + p (init7_apply), and the step of point 8·i + j adds Σ_q mask r (512·j + q) · x (512·j + q), the mask
  being 1 where the Gram matrix G r s = Σ_k h r k · h s k is above the threshold and 0 elsewhere (step7_apply). So after
  the eight points of row block i the entry holds 1·x r with the eight column blocks' terms added one by one
  (acc7_apply), which is 1·x r + Σ_s mask r s · x s over all 4096 rows s (acc7_last_apply): the eight blocks of 512 tile
  the 4096 columns, and addition on the extended reals is commutative and associative. The write-back at j = 7 puts
  that row block into the output array (arrAt7_5_block, arrAt7_5_value), and because the mask's entries are zeros and
  ones the diagonal term can be folded in: Σ_s (mask r s + δ r s) · x s (arrAt7_5_agg).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the arrays -/

/-- Point t = 8·i + j of the 8 × 8 grid stages: the one threshold cell (window 0), rows block i = t / 8 of h and of x
    (windows 1 and 3), rows block j = t % 8 of h and of x (windows 2 and 4), and writes rows block i of the output
    (window 5). -/
theorem idx_facts7 : ∀ t : Fin cfg7.N,
    (win7_0.index t 0 = 0 ∧ win7_0.index t 1 = 0) ∧ (win7_1.index t 0 = t.val / 8 ∧ win7_1.index t 1 = 0)
      ∧ (win7_2.index t 0 = t.val % 8 ∧ win7_2.index t 1 = 0) ∧ (win7_3.index t 0 = t.val / 8 ∧ win7_3.index t 1 = 0)
      ∧ (win7_4.index t 0 = t.val % 8 ∧ win7_4.index t 1 = 0) ∧ (win7_5.index t 0 = t.val / 8 ∧ win7_5.index t 1 = 0) :=
  (by decide +kernel : ∀ t : Fin grid7.N,
    (win7_0.index t 0 = 0 ∧ win7_0.index t 1 = 0) ∧ (win7_1.index t 0 = t.val / 8 ∧ win7_1.index t 1 = 0)
      ∧ (win7_2.index t 0 = t.val % 8 ∧ win7_2.index t 1 = 0) ∧ (win7_3.index t 0 = t.val / 8 ∧ win7_3.index t 1 = 0)
      ∧ (win7_4.index t 0 = t.val % 8 ∧ win7_4.index t 1 = 0) ∧ (win7_5.index t 0 = t.val / 8 ∧ win7_5.index t 1 = 0))

section AnyF

variable {F : FTy → Type} [FloatOps F]

/-- The threshold cell, the array h and the array x the region reads: region-entry contents. -/
abbrev marr7 (V : Valuation τ sig (Elt F)) : Vec F S1x1 .f32 := V (Proc.devRef .tc main_v231)
abbrev harr7 (V : Valuation τ sig (Elt F)) : Vec F S4096x256 .f32 := V (Proc.devRef .tc main_v228)
abbrev xarr7 (V : Valuation τ sig (Elt F)) : Vec F S4096x256 .f32 := V (Proc.devRef .tc main_arg1)

/-- The five input blocks at point t, each as an array of its literal shape. -/
abbrev mb7 (V : Valuation τ sig (Elt F)) (c : Dev nD) (t : Fin cfg7.N) : Vec F S1x1 .f32 := iblk7 V c 0 t
abbrev hi7 (V : Valuation τ sig (Elt F)) (c : Dev nD) (t : Fin cfg7.N) : Vec F S512x256 .f32 := iblk7 V c 1 t
abbrev hj7 (V : Valuation τ sig (Elt F)) (c : Dev nD) (t : Fin cfg7.N) : Vec F S512x256 .f32 := iblk7 V c 2 t
abbrev xi7 (V : Valuation τ sig (Elt F)) (c : Dev nD) (t : Fin cfg7.N) : Vec F S512x256 .f32 := iblk7 V c 3 t
abbrev xj7 (V : Valuation τ sig (Elt F)) (c : Dev nD) (t : Fin cfg7.N) : Vec F S512x256 .f32 := iblk7 V c 4 t

/-- Window 0's block is the threshold cell itself. -/
theorem mb7_apply (V : Valuation τ sig (Elt F)) (c : Dev nD) (t : Fin cfg7.N) (y : S1x1.Idx) :
    mb7 V c t y = marr7 V y := by
  obtain ⟨⟨hA, hB⟩, -, -, -, -, -⟩ := idx_facts7 t
  show (iblk7 V c 0 t : Vec F S1x1 .f32) y = _
  unfold iblk7
  rw [View.read_apply]
  show V (Proc.devRef .tc main_v231) _ = V (Proc.devRef .tc main_v231) _
  congr 1
  funext a
  apply Fin.ext
  match a with
  | ⟨0, _⟩ => show win7_0.index t 0 * 1 + 1 * (y 0).val = (y 0).val; rw [hA]; omega
  | ⟨1, _⟩ => show win7_0.index t 1 * 1 + 1 * (y 1).val = (y 1).val; rw [hB]; omega

/-- Window 1's block at point t is rows 512·(t / 8) … of h. -/
theorem hi7_apply (V : Valuation τ sig (Elt F)) (c : Dev nD) (t : Fin cfg7.N) (y : S512x256.Idx) (k : S4096x256.Idx)
    (hkr : (k 0).val = 512 * (t.val / 8) + (y 0).val) (hkc : (k 1).val = (y 1).val) :
    hi7 V c t y = harr7 V k := by
  obtain ⟨-, ⟨hA, hB⟩, -, -, -, -⟩ := idx_facts7 t
  show (iblk7 V c 1 t : Vec F S512x256 .f32) y = _
  unfold iblk7
  rw [View.read_apply]
  show V (Proc.devRef .tc main_v228) _ = V (Proc.devRef .tc main_v228) _
  congr 1
  funext a
  apply Fin.ext
  match a with
  | ⟨0, _⟩ => show win7_1.index t 0 * 512 + 1 * (y 0).val = (k 0).val; rw [hA, hkr]; omega
  | ⟨1, _⟩ => show win7_1.index t 1 * 256 + 1 * (y 1).val = (k 1).val; rw [hB, hkc]; omega

/-- Window 2's block at point t is rows 512·(t % 8) … of h. -/
theorem hj7_apply (V : Valuation τ sig (Elt F)) (c : Dev nD) (t : Fin cfg7.N) (y : S512x256.Idx) (k : S4096x256.Idx)
    (hkr : (k 0).val = 512 * (t.val % 8) + (y 0).val) (hkc : (k 1).val = (y 1).val) :
    hj7 V c t y = harr7 V k := by
  obtain ⟨-, -, ⟨hA, hB⟩, -, -, -⟩ := idx_facts7 t
  show (iblk7 V c 2 t : Vec F S512x256 .f32) y = _
  unfold iblk7
  rw [View.read_apply]
  show V (Proc.devRef .tc main_v228) _ = V (Proc.devRef .tc main_v228) _
  congr 1
  funext a
  apply Fin.ext
  match a with
  | ⟨0, _⟩ => show win7_2.index t 0 * 512 + 1 * (y 0).val = (k 0).val; rw [hA, hkr]; omega
  | ⟨1, _⟩ => show win7_2.index t 1 * 256 + 1 * (y 1).val = (k 1).val; rw [hB, hkc]; omega

/-- Window 3's block at point t is rows 512·(t / 8) … of x. -/
theorem xi7_apply (V : Valuation τ sig (Elt F)) (c : Dev nD) (t : Fin cfg7.N) (y : S512x256.Idx) (k : S4096x256.Idx)
    (hkr : (k 0).val = 512 * (t.val / 8) + (y 0).val) (hkc : (k 1).val = (y 1).val) :
    xi7 V c t y = xarr7 V k := by
  obtain ⟨-, -, -, ⟨hA, hB⟩, -, -⟩ := idx_facts7 t
  show (iblk7 V c 3 t : Vec F S512x256 .f32) y = _
  unfold iblk7
  rw [View.read_apply]
  show V (Proc.devRef .tc main_arg1) _ = V (Proc.devRef .tc main_arg1) _
  congr 1
  funext a
  apply Fin.ext
  match a with
  | ⟨0, _⟩ => show win7_3.index t 0 * 512 + 1 * (y 0).val = (k 0).val; rw [hA, hkr]; omega
  | ⟨1, _⟩ => show win7_3.index t 1 * 256 + 1 * (y 1).val = (k 1).val; rw [hB, hkc]; omega

/-- Window 4's block at point t is rows 512·(t % 8) … of x. -/
theorem xj7_apply (V : Valuation τ sig (Elt F)) (c : Dev nD) (t : Fin cfg7.N) (y : S512x256.Idx) (k : S4096x256.Idx)
    (hkr : (k 0).val = 512 * (t.val % 8) + (y 0).val) (hkc : (k 1).val = (y 1).val) :
    xj7 V c t y = xarr7 V k := by
  obtain ⟨-, -, -, -, ⟨hA, hB⟩, -⟩ := idx_facts7 t
  show (iblk7 V c 4 t : Vec F S512x256 .f32) y = _
  unfold iblk7
  rw [View.read_apply]
  show V (Proc.devRef .tc main_arg1) _ = V (Proc.devRef .tc main_arg1) _
  congr 1
  funext a
  apply Fin.ext
  match a with
  | ⟨0, _⟩ => show win7_4.index t 0 * 512 + 1 * (y 0).val = (k 0).val; rw [hA, hkr]; omega
  | ⟨1, _⟩ => show win7_4.index t 1 * 256 + 1 * (y 1).val = (k 1).val; rw [hB, hkc]; omega

/-- The accumulator after point n depends on n only through its value. -/
theorem acc7_congr (V : Valuation τ sig (Elt F)) (c : Dev nD) {n n' : ℕ} (e : n = n') (hn : n < cfg7.N) (hn' : n' < cfg7.N) :
    acc7 V c n hn = acc7 V c n' hn' := by
  subst e; rfl

/-- At the first point of row block i the accumulator is reset and stepped once … -/
theorem acc7_row_zero (V : Valuation τ sig (Elt F)) (c : Dev nD) (i : ℕ) (hn : 8 * i + 0 < cfg7.N) :
    acc7 V c (8 * i + 0) hn = step7 V c (8 * i + 0) hn (init7 V c (8 * i + 0) hn) :=
  acc7_reset V c (8 * i + 0) hn (by omega)

/-- … and at each later point of the row block it is stepped from what the point before left. -/
theorem acc7_row_succ (V : Valuation τ sig (Elt F)) (c : Dev nD) (i j : ℕ) (hj : j + 1 < 8) (hn : 8 * i + (j + 1) < cfg7.N) :
    acc7 V c (8 * i + (j + 1)) hn = step7 V c (8 * i + (j + 1)) hn (acc7 V c (8 * i + j) (by omega)) :=
  (acc7_step V c (8 * i + (j + 1)) hn (by omega)).trans
    (congrArg (step7 V c (8 * i + (j + 1)) hn) (acc7_congr V c (by omega) _ _))

end AnyF

/-! ## The accumulator at the ideal values -/

/-- The Gram matrix of the rows of h. -/
noncomputable def gram7 (V : Valuation τ sig (Elt Ideal)) (r s : Fin 4096) : EReal :=
  ∑ k : Fin 256, (harr7 V (ix2 r k) : EReal) * (harr7 V (ix2 s k) : EReal)

/-- The 0/1 mask: 1 where the Gram matrix's entry is above the threshold, else 0. -/
noncomputable def mask7 (V : Valuation τ sig (Elt Ideal)) (r s : Fin 4096) : EReal :=
  if (marr7 V (ix2 (0 : Fin 1) (0 : Fin 1)) : EReal) < gram7 V r s then 1 else 0

/-- The mask's entries are zero or one. -/
theorem mask7_zero_or_one (V : Valuation τ sig (Elt Ideal)) (r s : Fin 4096) : mask7 V r s = 0 ∨ mask7 V r s = 1 := by
  unfold mask7
  exact GridSum.ite_zero_or_one _

/-- What column block j adds to the accumulator's entry of row r and feature d (zero past the eight blocks). -/
noncomputable def blockTerm7 (V : Valuation τ sig (Elt Ideal)) (r : Fin 4096) (d : Fin 256) (j : ℕ) : EReal :=
  if hj : j < 8 then
    ∑ q : Fin 512, mask7 V r (GridSum.idx4096 ⟨j, hj⟩ q) * (xarr7 V (ix2 (GridSum.idx4096 ⟨j, hj⟩ q) d) : EReal)
  else 0

theorem blockTerm7_of_lt (V : Valuation τ sig (Elt Ideal)) (r : Fin 4096) (d : Fin 256) (j : ℕ) (hj : j < 8) :
    blockTerm7 V r d j
      = ∑ q : Fin 512, mask7 V r (GridSum.idx4096 ⟨j, hj⟩ q) * (xarr7 V (ix2 (GridSum.idx4096 ⟨j, hj⟩ q) d) : EReal) := by
  unfold blockTerm7
  exact dif_pos hj

/-- One step at point 8·i + j adds column block j's term to the entry of row 512·i + p. -/
theorem step7_apply (V : Valuation τ sig (Elt Ideal)) (c : Dev nD) (i : Fin 8) (j : ℕ) (hj : j < 8)
    (hn : 8 * (i : ℕ) + j < cfg7.N) (a : Vec Ideal S512x256 .f32) (p : Fin 512) (d : Fin 256) :
    (step7 V c (8 * (i : ℕ) + j) hn a (ix2 p d) : EReal) = (a (ix2 p d) : EReal) + blockTerm7 V (GridSum.idx4096 i p) d j := by
  have hi : (i : ℕ) < 8 := i.isLt
  have e := k7_pay2_apply (hi7 V c ⟨8 * (i : ℕ) + j, hn⟩) (hj7 V c ⟨8 * (i : ℕ) + j, hn⟩) (mb7 V c ⟨8 * (i : ℕ) + j, hn⟩)
    (xj7 V c ⟨8 * (i : ℕ) + j, hn⟩) a p d
  rw [blockTerm7_of_lt V _ d j hj]
  refine e.trans ?_
  congr 1
  refine Finset.sum_congr rfl fun q _ => ?_
  rw [mb7_apply V c ⟨8 * (i : ℕ) + j, hn⟩ (ix2 (0 : Fin 1) (0 : Fin 1)),
    xj7_apply V c ⟨8 * (i : ℕ) + j, hn⟩ (ix2 q d) (ix2 (GridSum.idx4096 ⟨j, hj⟩ q) d)
      (by show 512 * j + (q : ℕ) = 512 * ((8 * (i : ℕ) + j) % 8) + (q : ℕ); omega) rfl]
  congr 1
  unfold mask7 gram7
  have hs : (∑ k : Fin 256, (hi7 V c ⟨8 * (i : ℕ) + j, hn⟩ (ix2 p k) : EReal) * (hj7 V c ⟨8 * (i : ℕ) + j, hn⟩ (ix2 q k) : EReal))
      = ∑ k : Fin 256, (harr7 V (ix2 (GridSum.idx4096 i p) k) : EReal) * (harr7 V (ix2 (GridSum.idx4096 ⟨j, hj⟩ q) k) : EReal) :=
    Finset.sum_congr rfl fun k _ => by
      rw [hi7_apply V c ⟨8 * (i : ℕ) + j, hn⟩ (ix2 p k) (ix2 (GridSum.idx4096 i p) k)
          (by show 512 * (i : ℕ) + (p : ℕ) = 512 * ((8 * (i : ℕ) + j) / 8) + (p : ℕ); omega) rfl,
        hj7_apply V c ⟨8 * (i : ℕ) + j, hn⟩ (ix2 q k) (ix2 (GridSum.idx4096 ⟨j, hj⟩ q) k)
          (by show 512 * j + (q : ℕ) = 512 * ((8 * (i : ℕ) + j) % 8) + (q : ℕ); omega) rfl]
  rw [hs]

/-- The reset value at point 8·i + j is 1 times the entry of x at row 512·i + p. -/
theorem init7_apply (V : Valuation τ sig (Elt Ideal)) (c : Dev nD) (i : Fin 8) (j : ℕ) (hj : j < 8)
    (hn : 8 * (i : ℕ) + j < cfg7.N) (p : Fin 512) (d : Fin 256) :
    (init7 V c (8 * (i : ℕ) + j) hn (ix2 p d) : EReal) = 1 * (xarr7 V (ix2 (GridSum.idx4096 i p) d) : EReal) := by
  have hi : (i : ℕ) < 8 := i.isLt
  have e := k7_pay1_apply (xi7 V c ⟨8 * (i : ℕ) + j, hn⟩) p d
  refine e.trans ?_
  rw [xi7_apply V c ⟨8 * (i : ℕ) + j, hn⟩ (ix2 p d) (ix2 (GridSum.idx4096 i p) d)
    (by show 512 * (i : ℕ) + (p : ℕ) = 512 * ((8 * (i : ℕ) + j) / 8) + (p : ℕ); omega) rfl]

/-- After point 8·i + j the accumulator's entry of row r = 512·i + p holds 1·x r with the terms of the column blocks
    0 … j added one by one. -/
theorem acc7_apply (V : Valuation τ sig (Elt Ideal)) (c : Dev nD) (i : Fin 8) (p : Fin 512) (d : Fin 256) :
    ∀ (j : ℕ) (hj : j < 8) (hn : 8 * (i : ℕ) + j < cfg7.N),
      (acc7 V c (8 * (i : ℕ) + j) hn (ix2 p d) : EReal)
        = GridSum.accFold (1 * (xarr7 V (ix2 (GridSum.idx4096 i p) d) : EReal)) (blockTerm7 V (GridSum.idx4096 i p) d) (j + 1)
  | 0, hj, hn => by
    rw [acc7_row_zero V c (i : ℕ) hn, step7_apply V c i 0 hj hn _ p d, init7_apply V c i 0 hj hn p d,
      GridSum.accFold_succ, GridSum.accFold_zero]
  | j + 1, hj, hn => by
    rw [acc7_row_succ V c (i : ℕ) j hj hn, step7_apply V c i (j + 1) hj hn _ p d,
      acc7_apply V c i p d j (by omega) (by omega), GridSum.accFold_succ _ _ (j + 1)]

/-- THE AGGREGATION KERNEL'S VALUE at the last point of row block i: the entry of row r = 512·i + p and feature d is
    1·x r d plus the sum over all 4096 rows s of mask r s · x s d. -/
theorem acc7_last_apply (V : Valuation τ sig (Elt Ideal)) (c : Dev nD) (i : Fin 8) (p : Fin 512) (d : Fin 256)
    (hn : 8 * (i : ℕ) + 7 < cfg7.N) :
    (acc7 V c (8 * (i : ℕ) + 7) hn (ix2 p d) : EReal)
      = 1 * (xarr7 V (ix2 (GridSum.idx4096 i p) d) : EReal)
        + ∑ s : Fin 4096, mask7 V (GridSum.idx4096 i p) s * (xarr7 V (ix2 s d) : EReal) := by
  rw [acc7_apply V c i p d 7 (by omega) hn, GridSum.accFold_eq_sum,
    GridSum.sum_range_fin (blockTerm7 V (GridSum.idx4096 i p) d)
      (fun j : Fin 8 => ∑ q : Fin 512, mask7 V (GridSum.idx4096 i p) (GridSum.idx4096 j q) * (xarr7 V (ix2 (GridSum.idx4096 j q) d) : EReal))
      (fun j => blockTerm7_of_lt V _ d (j : ℕ) j.isLt),
    GridSum.sum_blocks GridSum.eight_mul (fun s : Fin 4096 => mask7 V (GridSum.idx4096 i p) s * (xarr7 V (ix2 s d) : EReal))]

/-! ## The output array after the run -/

section Array

variable {F : FTy → Type} [FloatOps F]
variable {Ix : Type} [DecidableEq Ix] {U : Type} [URA U] {Lvl : Type}

/-- The output window's block at point t is rows 512·(t / 8) … of the output array. -/
theorem oblk7_apply (c : Dev nD) (X : Buf (Elt F) ((cfg7.win 5).arr.view.loc (c.tc : Thread nD τ))) (t : Fin cfg7.N)
    (y : S512x256.Idx) (k : S4096x256.Idx) (hkr : (k 0).val = 512 * (t.val / 8) + (y 0).val) (hkc : (k 1).val = (y 1).val) :
    (((cfg7.win 5).blk t).view.read (Elt F) X : Vec F S512x256 .f32) y = (X : S4096x256.Idx → Elt F .f32) k := by
  obtain ⟨-, -, -, -, -, ⟨hA, hB⟩⟩ := idx_facts7 t
  rw [View.read_apply]
  have e : ((cfg7.win 5).blk t).view.emb y = k := by
    funext a
    apply Fin.ext
    match a with
    | ⟨0, _⟩ => show win7_5.index t 0 * 512 + 1 * (y 0).val = (k 0).val; rw [hA, hkr]; omega
    | ⟨1, _⟩ => show win7_5.index t 1 * 256 + 1 * (y 1).val = (k 1).val; rw [hB, hkc]; omega
  exact congrArg X e

/-- After the whole grid the output array's entry of row 512·i + p is what the accumulator held, at row p, after the
    last point of row block i. -/
theorem arrAt7_5_block (V : Valuation τ sig (Elt F)) (c : Dev nD) (i : Fin 8) (p : Fin 512) (d : Fin 256)
    (hn : 8 * (i : ℕ) + 7 < cfg7.N) :
    ((dat7 (Ix := Ix) (U := U) (Lvl := Lvl) V c).arrAt 5 64 : S4096x256.Idx → Elt F .f32) (ix2 (GridSum.idx4096 i p) d)
      = (acc7 V c (8 * (i : ℕ) + 7) hn : Vec F S512x256 .f32) (ix2 p d) := by
  have hi : (i : ℕ) < 8 := i.isLt
  refine (oblk7_apply c ((dat7 (Ix := Ix) (U := U) (Lvl := Lvl) V c).arrAt 5 64) ⟨8 * (i : ℕ) + 7, hn⟩ (ix2 p d)
    (ix2 (GridSum.idx4096 i p) d)
    (by show 512 * (i : ℕ) + (p : ℕ) = 512 * ((8 * (i : ℕ) + 7) / 8) + (p : ℕ); omega) rfl).symm.trans ?_
  exact congrFun (out7_block (Ix := Ix) (U := U) (Lvl := Lvl) V c ⟨8 * (i : ℕ) + 7, hn⟩
    (by show (8 * (i : ℕ) + 7) % 8 = 7; omega)) (ix2 p d)

/-- THE AGGREGATION KERNEL'S OUTPUT ARRAY at the ideal values: the entry of row r and feature d is 1·x r d plus the sum
    over all rows s of mask r s · x s d, the mask being 1 where the Gram matrix of the rows of h is above the threshold. -/
theorem arrAt7_5_value (V : Valuation τ sig (Elt Ideal)) (c : Dev nD) (r : Fin 4096) (d : Fin 256) :
    (((dat7 (Ix := Ix) (U := U) (Lvl := Lvl) V c).arrAt 5 64 : S4096x256.Idx → Elt Ideal .f32) (ix2 r d) : EReal)
      = 1 * (xarr7 V (ix2 r d) : EReal) + ∑ s : Fin 4096, mask7 V r s * (xarr7 V (ix2 s d) : EReal) := by
  have hN : cfg7.N = 64 := N_7
  obtain ⟨i, p, rfl⟩ := GridSum.exists_idx4096 r
  have hi : (i : ℕ) < 8 := i.isLt
  have hn : 8 * (i : ℕ) + 7 < cfg7.N := by omega
  exact (arrAt7_5_block (Ix := Ix) (U := U) (Lvl := Lvl) V c i p d hn).trans (acc7_last_apply V c i p d hn)

/-- The same with the diagonal folded into the mask: Σ_s (mask r s + δ r s) · x s d, the aggregate law of zeros and ones
    on the extended reals. -/
theorem arrAt7_5_agg (V : Valuation τ sig (Elt Ideal)) (c : Dev nD) (r : Fin 4096) (d : Fin 256) :
    (((dat7 (Ix := Ix) (U := U) (Lvl := Lvl) V c).arrAt 5 64 : S4096x256.Idx → Elt Ideal .f32) (ix2 r d) : EReal)
      = ∑ s : Fin 4096, (mask7 V r s + (if r = s then 1 else 0)) * (xarr7 V (ix2 s d) : EReal) :=
  (arrAt7_5_value (Ix := Ix) (U := U) (Lvl := Lvl) V c r d).trans
    (GridSum.aggregate_law_ite (mask7 V) (fun s => (xarr7 V (ix2 s d) : EReal)) (mask7_zero_or_one V) r)

/-- The same as an equation of arrays: the output array is the closed form aggVal of the threshold cell, h and x. -/
theorem region7_value (V : Valuation τ sig (Elt Ideal)) (c : Dev nD) :
    ((dat7 (Ix := Ix) (U := U) (Lvl := Lvl) V c).arrAt 5 64 : S4096x256.Idx → Elt Ideal .f32)
      = Cert.Hand.aggVal (marr7 V) (harr7 V) (xarr7 V) := by
  funext j
  obtain ⟨r, d, rfl⟩ : ∃ (r : Fin 4096) (d : Fin 256), j = ix2 r d := ⟨j 0, j 1, eq_ix2 j⟩
  exact arrAt7_5_value (Ix := Ix) (U := U) (Lvl := Lvl) V c r d

end Array

end Cert.KernelIdeal.Hand

end
-- ==== Proof.RgV8.lean ====
import Idealize.ShloMosaic.Lib.Pipeline.Value
import proofs.«169706_j68856915690108_1_alg».proof.Proof.UnitIdx
import proofs.«169706_j68856915690108_1_alg».proof.Proof.AggVal
import proofs.«169706_j68856915690108_1_alg».proof.Proof.TileValue
import proofs.«169706_j68856915690108_1_alg».proof.Proof.LibGridSum
import Idealize.ShloMosaic.Lib.ValueIdx
import proofs.«169706_j68856915690108_1_alg».proof.Proof.Rg8

/-! # part: SumValue -/
/-
  Region 0 (the tile-sum kernel): what the run leaves in the output array.

  The output window's block is the whole 1 × 1 output array, and it is written back once, after the last of the 64
  points. So after the whole grid the output array's one cell holds what the scratch cell held after point 63: the sum
  of all 64 tiles.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The one write-back -/

/-- Only the last point writes the output block back, so no two different points do. -/
theorem disj8_2 (t t' : Fin cfg8.N) (hf : (cfg8.win 2).flush t = true) (hf' : (cfg8.win 2).flush t' = true)
    (hne : t ≠ t') : Disjoint ((cfg8.win 2).blk t).view.set ((cfg8.win 2).blk t').view.set := by
  have hN : cfg8.N = 64 := N_8
  have h := (flush8_2 t).mp hf
  have h' := (flush8_2 t').mp hf'
  have := t.isLt; have := t'.isLt
  exact absurd (Fin.ext (by omega)) hne

/-- The grid has a point 63, its last. -/
theorem last8_lt : 63 < cfg8.N := by decide

/-- The last point writes the output block back. -/
theorem flush8_2_last : (cfg8.win 2).flush ⟨63, last8_lt⟩ = true := (flush8_2 _).mpr (by decide)

/-! ## The output array after the run -/

/-- After the whole grid, the output block read back through the window holds what the scratch cell held after the
    last point. -/
theorem out8_block (V : Valuation τ sig (Elt F)) (c : Dev nD) :
    ((cfg8.win 2).blk ⟨63, last8_lt⟩).view.read (Elt F) ((dat8 (Ix := Ix) (U := U) (Lvl := Lvl) V c).arrAt 2 64)
      = acc8 V c 63 last8_lt :=
  ((dat8 (Ix := Ix) (U := U) (Lvl := Lvl) V c).read_blk_arrAt_eq_flushed 2 disj8_2 64 ⟨63, last8_lt⟩ (by decide)
    flush8_2_last).trans (after8_2 V c ⟨63, last8_lt⟩)

/-- The output array after the whole grid, cell by cell: what the scratch cell held after the last point. -/
theorem arrAt8_2_apply (V : Valuation τ sig (Elt F)) (c : Dev nD) (i : S1x1.Idx) :
    ((dat8 (Ix := Ix) (U := U) (Lvl := Lvl) V c).arrAt 2 64 : S1x1.Idx → Elt F .f32) i = acc8 V c 63 last8_lt i := by
  have h := congrFun (out8_block (Ix := Ix) (U := U) (Lvl := Lvl) V c) i
  rw [View.read_apply] at h
  rw [← h, unit_idx_eq (((cfg8.win 2).blk ⟨63, last8_lt⟩).view.emb i) i]
  rfl

/-- The output array after the whole grid, as a 1 × 1 vector. -/
theorem arrAt8_2 (V : Valuation τ sig (Elt F)) (c : Dev nD) :
    ((dat8 (Ix := Ix) (U := U) (Lvl := Lvl) V c).arrAt 2 64 : S1x1.Idx → Elt F .f32) = acc8 V c 63 last8_lt :=
  funext fun i => arrAt8_2_apply V c i

end Cert.KernelIdeal.Hand

end

/-! # part: RegionValue0 -/
/-
  Region 0 (the tile-sum kernel) read as a value: the cell it accumulates ends at the sum of the whole Gram matrix.

  The grid is 8 × 8, walked row by row: point t = 8·i + j stages rows 512·i … 512·i + 511 of the 4096 × 256 array h
  through its first window and rows 512·j … of the same array through its second (idx_facts8, hi8_apply, hj8_apply).
  At the ideal values the step of one point adds to the 1 × 1 cell the sum of the 512 × 512 tile
  Σ_p Σ_q Σ_k h (512·i + p) k · h (512·j + q) k, and the cell starts from zero, so after point n it holds the tile sums
  of the points 0 … n added one by one (acc8_apply). The 64 tiles are exactly the 8 × 8 tiling of the 4096 × 4096 Gram
  matrix G r s = Σ_k h r k · h s k (tile8_grid), and on the extended reals addition is commutative and associative, so
  after the last point the cell holds Σ_r Σ_s G r s (acc8_last_apply): no finiteness of h is needed. The one write-back, after
  the last point, copies the cell into the 1 × 1 output array (arrAt8_2_value, region8_value).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the array -/

/-- Point t = 8·i + j of the 8 × 8 grid stages rows block i = t / 8 through window 0, rows block j = t % 8 through
    window 1, and the one cell through window 2. -/
theorem idx_facts8 : ∀ t : Fin cfg8.N,
    win8_0.index t 0 = t.val / 8 ∧ win8_0.index t 1 = 0 ∧ win8_1.index t 0 = t.val % 8 ∧ win8_1.index t 1 = 0
      ∧ win8_2.index t 0 = 0 ∧ win8_2.index t 1 = 0 :=
  (by decide +kernel : ∀ t : Fin grid8.N,
    win8_0.index t 0 = t.val / 8 ∧ win8_0.index t 1 = 0 ∧ win8_1.index t 0 = t.val % 8 ∧ win8_1.index t 1 = 0
      ∧ win8_2.index t 0 = 0 ∧ win8_2.index t 1 = 0)

section AnyF

variable {F : FTy → Type} [FloatOps F]

/-- The array h both input windows read: the region-entry contents of the first window's array. -/
abbrev harr8 (V : Valuation τ sig (Elt F)) : Vec F S4096x256 .f32 := V (Proc.devRef .tc main_v297)

/-- The block of h window 0 stages at point t, as a 512 × 256 array. -/
abbrev hi8 (V : Valuation τ sig (Elt F)) (c : Dev nD) (t : Fin cfg8.N) : Vec F S512x256 .f32 := iblk8 V c 0 t
/-- The block of h window 1 stages at point t, as a 512 × 256 array. -/
abbrev hj8 (V : Valuation τ sig (Elt F)) (c : Dev nD) (t : Fin cfg8.N) : Vec F S512x256 .f32 := iblk8 V c 1 t

/-- Window 0's block at point t is rows 512·(t / 8) … of h. -/
theorem hi8_apply (V : Valuation τ sig (Elt F)) (c : Dev nD) (t : Fin cfg8.N) (y : S512x256.Idx) (k : S4096x256.Idx)
    (hkr : (k 0).val = 512 * (t.val / 8) + (y 0).val) (hkc : (k 1).val = (y 1).val) :
    hi8 V c t y = harr8 V k := by
  obtain ⟨hA, hB, -, -, -, -⟩ := idx_facts8 t
  show (iblk8 V c 0 t : Vec F S512x256 .f32) y = _
  unfold iblk8
  rw [View.read_apply]
  show V (Proc.devRef .tc main_v297) _ = V (Proc.devRef .tc main_v297) _
  congr 1
  funext a
  apply Fin.ext
  match a with
  | ⟨0, _⟩ => show win8_0.index t 0 * 512 + 1 * (y 0).val = (k 0).val; rw [hA, hkr]; omega
  | ⟨1, _⟩ => show win8_0.index t 1 * 256 + 1 * (y 1).val = (k 1).val; rw [hB, hkc]; omega

/-- Window 1's block at point t is rows 512·(t % 8) … of h. -/
theorem hj8_apply (V : Valuation τ sig (Elt F)) (c : Dev nD) (t : Fin cfg8.N) (y : S512x256.Idx) (k : S4096x256.Idx)
    (hkr : (k 0).val = 512 * (t.val % 8) + (y 0).val) (hkc : (k 1).val = (y 1).val) :
    hj8 V c t y = harr8 V k := by
  obtain ⟨-, -, hA, hB, -, -⟩ := idx_facts8 t
  show (iblk8 V c 1 t : Vec F S512x256 .f32) y = _
  unfold iblk8
  rw [View.read_apply]
  show V (Proc.devRef .tc main_v297) _ = V (Proc.devRef .tc main_v297) _
  congr 1
  funext a
  apply Fin.ext
  match a with
  | ⟨0, _⟩ => show win8_1.index t 0 * 512 + 1 * (y 0).val = (k 0).val; rw [hA, hkr]; omega
  | ⟨1, _⟩ => show win8_1.index t 1 * 256 + 1 * (y 1).val = (k 1).val; rw [hB, hkc]; omega

end AnyF

/-! ## The accumulated cell at the ideal values -/

/-- The Gram matrix of the rows of h: entry (r, s) is the sum over the 256 columns of the products. -/
noncomputable def gram8 (V : Valuation τ sig (Elt Ideal)) (r s : Fin 4096) : EReal :=
  ∑ k : Fin 256, (harr8 V (ix2 r k) : EReal) * (harr8 V (ix2 s k) : EReal)

/-- The sum of the 512 × 512 tile the point t stages (zero past the grid). -/
noncomputable def tile8 (V : Valuation τ sig (Elt Ideal)) (c : Dev nD) (t : ℕ) : EReal :=
  if ht : t < cfg8.N then
    ∑ p : Fin 512, ∑ q : Fin 512, ∑ k : Fin 256, (hi8 V c ⟨t, ht⟩ (ix2 p k) : EReal) * (hj8 V c ⟨t, ht⟩ (ix2 q k) : EReal)
  else 0

theorem tile8_of_lt (V : Valuation τ sig (Elt Ideal)) (c : Dev nD) (t : ℕ) (ht : t < cfg8.N) :
    tile8 V c t
      = ∑ p : Fin 512, ∑ q : Fin 512, ∑ k : Fin 256, (hi8 V c ⟨t, ht⟩ (ix2 p k) : EReal) * (hj8 V c ⟨t, ht⟩ (ix2 q k) : EReal) := by
  unfold tile8
  exact dif_pos ht

/-- After point n the cell holds the tile sums of the points 0 … n added one by one onto zero. -/
theorem acc8_apply (V : Valuation τ sig (Elt Ideal)) (c : Dev nD) :
    ∀ (n : ℕ) (hn : n < cfg8.N) (a b : Fin 1),
      ((acc8 V c n hn : Vec Ideal S1x1 .f32) (ix2 a b) : EReal) = GridSum.accFold 0 (tile8 V c) (n + 1)
  | 0, hn, a, b => by
    have e := k8_pay2_apply (hi8 V c ⟨0, hn⟩) (hj8 V c ⟨0, hn⟩) (k8_pay1 (F := Ideal)) a b
    rw [k8_pay1_apply] at e
    rw [GridSum.accFold_succ, GridSum.accFold_zero, tile8_of_lt V c 0 hn]
    exact e
  | n + 1, hn, a, b => by
    have e := k8_pay2_apply (hi8 V c ⟨n + 1, hn⟩) (hj8 V c ⟨n + 1, hn⟩) (acc8 V c n (Nat.lt_of_succ_lt hn)) a b
    rw [acc8_apply V c n (Nat.lt_of_succ_lt hn) a b] at e
    rw [GridSum.accFold_succ _ _ (n + 1), tile8_of_lt V c (n + 1) hn]
    exact e

/-- The tile of point 8·i + j is the 512 × 512 tile (i, j) of the Gram matrix. -/
theorem tile8_grid (V : Valuation τ sig (Elt Ideal)) (c : Dev nD) (i j : Fin 8) :
    tile8 V c (8 * (i : ℕ) + (j : ℕ))
      = ∑ p : Fin 512, ∑ q : Fin 512, gram8 V (GridSum.idx4096 i p) (GridSum.idx4096 j q) := by
  have hi : (i : ℕ) < 8 := i.isLt
  have hj : (j : ℕ) < 8 := j.isLt
  have hN : cfg8.N = 64 := N_8
  have ht : 8 * (i : ℕ) + (j : ℕ) < cfg8.N := by omega
  rw [tile8_of_lt V c _ ht]
  refine Finset.sum_congr rfl fun p _ => Finset.sum_congr rfl fun q _ => ?_
  unfold gram8
  refine Finset.sum_congr rfl fun k _ => ?_
  rw [hi8_apply V c ⟨_, ht⟩ (ix2 p k) (ix2 (GridSum.idx4096 i p) k)
      (by show 512 * (i : ℕ) + (p : ℕ) = 512 * ((8 * (i : ℕ) + (j : ℕ)) / 8) + (p : ℕ); omega) rfl,
    hj8_apply V c ⟨_, ht⟩ (ix2 q k) (ix2 (GridSum.idx4096 j q) k)
      (by show 512 * (j : ℕ) + (q : ℕ) = 512 * ((8 * (i : ℕ) + (j : ℕ)) % 8) + (q : ℕ); omega) rfl]

/-- THE SUM KERNEL'S VALUE. After the last point the cell holds the sum of the whole 4096 × 4096 Gram matrix of the
    rows of h: the 64 tile sums, taken in the grid's row-major order, add up to the sum over all pairs of rows. -/
theorem acc8_last_apply (V : Valuation τ sig (Elt Ideal)) (c : Dev nD) (hlast : 63 < cfg8.N) (a b : Fin 1) :
    ((acc8 V c 63 hlast : Vec Ideal S1x1 .f32) (ix2 a b) : EReal)
      = ∑ r : Fin 4096, ∑ s : Fin 4096, ∑ k : Fin 256, (harr8 V (ix2 r k) : EReal) * (harr8 V (ix2 s k) : EReal) := by
  rw [acc8_apply V c 63 hlast a b, GridSum.accFold_tiles_4096 (gram8 V) 0 (tile8 V c) (tile8_grid V c), zero_add]
  rfl

/-! ## The output array after the run -/

section Array

variable {Ix : Type} [DecidableEq Ix] {U : Type} [URA U] {Lvl : Type}

/-- THE SUM KERNEL'S OUTPUT ARRAY at the ideal values: after the whole grid its one cell holds the sum of the whole
    4096 × 4096 Gram matrix of the rows of h. -/
theorem arrAt8_2_value (V : Valuation τ sig (Elt Ideal)) (c : Dev nD) (a b : Fin 1) :
    (((dat8 (Ix := Ix) (U := U) (Lvl := Lvl) V c).arrAt 2 64 : S1x1.Idx → Elt Ideal .f32) (ix2 a b) : EReal)
      = ∑ r : Fin 4096, ∑ s : Fin 4096, ∑ k : Fin 256, (harr8 V (ix2 r k) : EReal) * (harr8 V (ix2 s k) : EReal) :=
  (arrAt8_2_apply (Ix := Ix) (U := U) (Lvl := Lvl) V c (ix2 a b)).trans (acc8_last_apply V c (by decide) a b)

/-- The same as an equation of arrays: the output array is the closed form sumVal of h. -/
theorem region8_value (V : Valuation τ sig (Elt Ideal)) (c : Dev nD) :
    ((dat8 (Ix := Ix) (U := U) (Lvl := Lvl) V c).arrAt 2 64 : S1x1.Idx → Elt Ideal .f32) = Cert.Hand.sumVal (harr8 V) := by
  funext i
  obtain ⟨a, b, rfl⟩ : ∃ (a b : Fin 1), i = ix2 a b := ⟨i 0, i 1, eq_ix2 i⟩
  exact arrAt8_2_value (Ix := Ix) (U := U) (Lvl := Lvl) V c a b

end Array

end Cert.KernelIdeal.Hand

end
-- ==== Proof.RgV9.lean ====
import Idealize.ShloMosaic.Lib.Pipeline.Value
import proofs.«169706_j68856915690108_1_alg».proof.Proof.TileValue
import proofs.«169706_j68856915690108_1_alg».proof.Proof.LibGridSum
import proofs.«169706_j68856915690108_1_alg».proof.Proof.RegionValueLib
import proofs.«169706_j68856915690108_1_alg».proof.Proof.AggVal
import Idealize.ShloMosaic.Lib.ValueIdx
import proofs.«169706_j68856915690108_1_alg».proof.Proof.Rg9

/-! # part: ApplyOut -/
/-
  Region 1 (the aggregation kernel): what the run leaves in the output array.

  The accumulator after point t is the fold over the run of eight points that t lies in (the points 8·(t / 8) …
  8·(t / 8) + 7 share the row block i = t / 8): reset and stepped at the run's first point, stepped at each later one.
  The output window's block at point t is row block t / 8 of the output array, written back at the run's last point
  only (t % 8 = 7); two such points have different row blocks, so their blocks of the array are disjoint, and after
  the whole grid block i of the output array holds what the accumulator held after point 8·i + 7.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The accumulator as a fold over its run -/

/-- The accumulator after point `t` is the fold over the run of eight points `t` lies in, up to `t`. -/
theorem acc9_fold (V : Valuation τ sig (Elt F)) (c : Dev nD) (t : ℕ) (ht : t < cfg9.N)
    (h' : 8 * (t / 8) + t % 8 < cfg9.N) :
    acc9 V c t ht = Pipeline.accAt (fun n h => step9 V c n h (init9 V c n h)) (fun n h a => step9 V c n h a)
      (8 * (t / 8)) (t % 8) h' :=
  Pipeline.eq_accAt_of_mod (acc9 V c) 8 (fun n h => step9 V c n h (init9 V c n h)) (fun n h a => step9 V c n h a)
    (fun n h h0 => acc9_reset V c n h h0) (fun n h h0 => if_neg h0) (by decide) t ht h'

/-! ## The output window's blocks -/

/-- The output window's block index along the rows at point `t` is `t / 8`. -/
theorem idx9_5 : ∀ t : Fin cfg9.N, win9_5.index t (0 : Fin 2) = t.val / 8 :=
  (by decide +kernel : ∀ t : Fin grid9.N, win9_5.index t (0 : Fin 2) = t.val / 8)

/-- Two different points that write the output block back write disjoint blocks of the array. -/
theorem disj9_5 (t t' : Fin cfg9.N) (hf : (cfg9.win 5).flush t = true) (hf' : (cfg9.win 5).flush t' = true)
    (hne : t ≠ t') : Disjoint ((cfg9.win 5).blk t).view.set ((cfg9.win 5).blk t').view.set := by
  refine (cfg9.win 5).disjoint_blk fun h => hne (Fin.ext ?_)
  have h0 : win9_5.index t (0 : Fin 2) = win9_5.index t' (0 : Fin 2) := congrFun h (0 : Fin 2)
  rw [idx9_5 t, idx9_5 t'] at h0
  have h7 := (flush9_5 t).mp hf
  have h7' := (flush9_5 t').mp hf'
  omega

/-! ## The output array after the run -/

/-- After the whole grid, the block of the output array under a point that writes back (`t % 8 = 7`) holds what the
    accumulator held after that point. -/
theorem out9_block (V : Valuation τ sig (Elt F)) (c : Dev nD) (t : Fin cfg9.N) (ht : t.val % 8 = 7) :
    ((cfg9.win 5).blk t).view.read (Elt F) ((dat9 (Ix := Ix) (U := U) (Lvl := Lvl) V c).arrAt 5 64)
      = acc9 V c t.val t.isLt := by
  have hN : cfg9.N = 64 := N_9
  have hlt : t.val < 64 := Nat.lt_of_lt_of_eq t.isLt hN
  exact ((dat9 (Ix := Ix) (U := U) (Lvl := Lvl) V c).read_blk_arrAt_eq_flushed 5 disj9_5 64 t hlt
    ((flush9_5 t).mpr ht)).trans (after9_5 V c t)

end Cert.KernelIdeal.Hand

end

/-! # part: RegionValue1 -/
/-
  Region 1 (the aggregation kernel) read as a value: row r of its output is 1·x r plus the masked sum over all rows.

  The grid is 8 × 8, walked row by row: point t = 8·i + j stages the one threshold cell, rows 512·i … of the 4096 × 256
  arrays h and x (row block i) and rows 512·j … of the same two arrays (row block j) (idx_facts9 and the block reads
  mb9_apply … xj9_apply). At the ideal values the reset at j = 0 leaves 1·x r in the accumulator's entry of row
  r = 512·i + p (init9_apply), and the step of point 8·i + j adds Σ_q mask r (512·j + q) · x (512·j + q), the mask
  being 1 where the Gram matrix G r s = Σ_k h r k · h s k is above the threshold and 0 elsewhere (step9_apply). So after
  the eight points of row block i the entry holds 1·x r with the eight column blocks' terms added one by one
  (acc9_apply), which is 1·x r + Σ_s mask r s · x s over all 4096 rows s (acc9_last_apply): the eight blocks of 512 tile
  the 4096 columns, and addition on the extended reals is commutative and associative. The write-back at j = 7 puts
  that row block into the output array (arrAt9_5_block, arrAt9_5_value), and because the mask's entries are zeros and
  ones the diagonal term can be folded in: Σ_s (mask r s + δ r s) · x s (arrAt9_5_agg).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the arrays -/

/-- Point t = 8·i + j of the 8 × 8 grid stages: the one threshold cell (window 0), rows block i = t / 8 of h and of x
    (windows 1 and 3), rows block j = t % 8 of h and of x (windows 2 and 4), and writes rows block i of the output
    (window 5). -/
theorem idx_facts9 : ∀ t : Fin cfg9.N,
    (win9_0.index t 0 = 0 ∧ win9_0.index t 1 = 0) ∧ (win9_1.index t 0 = t.val / 8 ∧ win9_1.index t 1 = 0)
      ∧ (win9_2.index t 0 = t.val % 8 ∧ win9_2.index t 1 = 0) ∧ (win9_3.index t 0 = t.val / 8 ∧ win9_3.index t 1 = 0)
      ∧ (win9_4.index t 0 = t.val % 8 ∧ win9_4.index t 1 = 0) ∧ (win9_5.index t 0 = t.val / 8 ∧ win9_5.index t 1 = 0) :=
  (by decide +kernel : ∀ t : Fin grid9.N,
    (win9_0.index t 0 = 0 ∧ win9_0.index t 1 = 0) ∧ (win9_1.index t 0 = t.val / 8 ∧ win9_1.index t 1 = 0)
      ∧ (win9_2.index t 0 = t.val % 8 ∧ win9_2.index t 1 = 0) ∧ (win9_3.index t 0 = t.val / 8 ∧ win9_3.index t 1 = 0)
      ∧ (win9_4.index t 0 = t.val % 8 ∧ win9_4.index t 1 = 0) ∧ (win9_5.index t 0 = t.val / 8 ∧ win9_5.index t 1 = 0))

section AnyF

variable {F : FTy → Type} [FloatOps F]

/-- The threshold cell, the array h and the array x the region reads: region-entry contents. -/
abbrev marr9 (V : Valuation τ sig (Elt F)) : Vec F S1x1 .f32 := V (Proc.devRef .tc main_v300)
abbrev harr9 (V : Valuation τ sig (Elt F)) : Vec F S4096x256 .f32 := V (Proc.devRef .tc main_v297)
abbrev xarr9 (V : Valuation τ sig (Elt F)) : Vec F S4096x256 .f32 := V (Proc.devRef .tc main_v278)

/-- The five input blocks at point t, each as an array of its literal shape. -/
abbrev mb9 (V : Valuation τ sig (Elt F)) (c : Dev nD) (t : Fin cfg9.N) : Vec F S1x1 .f32 := iblk9 V c 0 t
abbrev hi9 (V : Valuation τ sig (Elt F)) (c : Dev nD) (t : Fin cfg9.N) : Vec F S512x256 .f32 := iblk9 V c 1 t
abbrev hj9 (V : Valuation τ sig (Elt F)) (c : Dev nD) (t : Fin cfg9.N) : Vec F S512x256 .f32 := iblk9 V c 2 t
abbrev xi9 (V : Valuation τ sig (Elt F)) (c : Dev nD) (t : Fin cfg9.N) : Vec F S512x256 .f32 := iblk9 V c 3 t
abbrev xj9 (V : Valuation τ sig (Elt F)) (c : Dev nD) (t : Fin cfg9.N) : Vec F S512x256 .f32 := iblk9 V c 4 t

/-- Window 0's block is the threshold cell itself. -/
theorem mb9_apply (V : Valuation τ sig (Elt F)) (c : Dev nD) (t : Fin cfg9.N) (y : S1x1.Idx) :
    mb9 V c t y = marr9 V y := by
  obtain ⟨⟨hA, hB⟩, -, -, -, -, -⟩ := idx_facts9 t
  show (iblk9 V c 0 t : Vec F S1x1 .f32) y = _
  unfold iblk9
  rw [View.read_apply]
  show V (Proc.devRef .tc main_v300) _ = V (Proc.devRef .tc main_v300) _
  congr 1
  funext a
  apply Fin.ext
  match a with
  | ⟨0, _⟩ => show win9_0.index t 0 * 1 + 1 * (y 0).val = (y 0).val; rw [hA]; omega
  | ⟨1, _⟩ => show win9_0.index t 1 * 1 + 1 * (y 1).val = (y 1).val; rw [hB]; omega

/-- Window 1's block at point t is rows 512·(t / 8) … of h. -/
theorem hi9_apply (V : Valuation τ sig (Elt F)) (c : Dev nD) (t : Fin cfg9.N) (y : S512x256.Idx) (k : S4096x256.Idx)
    (hkr : (k 0).val = 512 * (t.val / 8) + (y 0).val) (hkc : (k 1).val = (y 1).val) :
    hi9 V c t y = harr9 V k := by
  obtain ⟨-, ⟨hA, hB⟩, -, -, -, -⟩ := idx_facts9 t
  show (iblk9 V c 1 t : Vec F S512x256 .f32) y = _
  unfold iblk9
  rw [View.read_apply]
  show V (Proc.devRef .tc main_v297) _ = V (Proc.devRef .tc main_v297) _
  congr 1
  funext a
  apply Fin.ext
  match a with
  | ⟨0, _⟩ => show win9_1.index t 0 * 512 + 1 * (y 0).val = (k 0).val; rw [hA, hkr]; omega
  | ⟨1, _⟩ => show win9_1.index t 1 * 256 + 1 * (y 1).val = (k 1).val; rw [hB, hkc]; omega

/-- Window 2's block at point t is rows 512·(t % 8) … of h. -/
theorem hj9_apply (V : Valuation τ sig (Elt F)) (c : Dev nD) (t : Fin cfg9.N) (y : S512x256.Idx) (k : S4096x256.Idx)
    (hkr : (k 0).val = 512 * (t.val % 8) + (y 0).val) (hkc : (k 1).val = (y 1).val) :
    hj9 V c t y = harr9 V k := by
  obtain ⟨-, -, ⟨hA, hB⟩, -, -, -⟩ := idx_facts9 t
  show (iblk9 V c 2 t : Vec F S512x256 .f32) y = _
  unfold iblk9
  rw [View.read_apply]
  show V (Proc.devRef .tc main_v297) _ = V (Proc.devRef .tc main_v297) _
  congr 1
  funext a
  apply Fin.ext
  match a with
  | ⟨0, _⟩ => show win9_2.index t 0 * 512 + 1 * (y 0).val = (k 0).val; rw [hA, hkr]; omega
  | ⟨1, _⟩ => show win9_2.index t 1 * 256 + 1 * (y 1).val = (k 1).val; rw [hB, hkc]; omega

/-- Window 3's block at point t is rows 512·(t / 8) … of x. -/
theorem xi9_apply (V : Valuation τ sig (Elt F)) (c : Dev nD) (t : Fin cfg9.N) (y : S512x256.Idx) (k : S4096x256.Idx)
    (hkr : (k 0).val = 512 * (t.val / 8) + (y 0).val) (hkc : (k 1).val = (y 1).val) :
    xi9 V c t y = xarr9 V k := by
  obtain ⟨-, -, -, ⟨hA, hB⟩, -, -⟩ := idx_facts9 t
  show (iblk9 V c 3 t : Vec F S512x256 .f32) y = _
  unfold iblk9
  rw [View.read_apply]
  show V (Proc.devRef .tc main_v278) _ = V (Proc.devRef .tc main_v278) _
  congr 1
  funext a
  apply Fin.ext
  match a with
  | ⟨0, _⟩ => show win9_3.index t 0 * 512 + 1 * (y 0).val = (k 0).val; rw [hA, hkr]; omega
  | ⟨1, _⟩ => show win9_3.index t 1 * 256 + 1 * (y 1).val = (k 1).val; rw [hB, hkc]; omega

/-- Window 4's block at point t is rows 512·(t % 8) … of x. -/
theorem xj9_apply (V : Valuation τ sig (Elt F)) (c : Dev nD) (t : Fin cfg9.N) (y : S512x256.Idx) (k : S4096x256.Idx)
    (hkr : (k 0).val = 512 * (t.val % 8) + (y 0).val) (hkc : (k 1).val = (y 1).val) :
    xj9 V c t y = xarr9 V k := by
  obtain ⟨-, -, -, -, ⟨hA, hB⟩, -⟩ := idx_facts9 t
  show (iblk9 V c 4 t : Vec F S512x256 .f32) y = _
  unfold iblk9
  rw [View.read_apply]
  show V (Proc.devRef .tc main_v278) _ = V (Proc.devRef .tc main_v278) _
  congr 1
  funext a
  apply Fin.ext
  match a with
  | ⟨0, _⟩ => show win9_4.index t 0 * 512 + 1 * (y 0).val = (k 0).val; rw [hA, hkr]; omega
  | ⟨1, _⟩ => show win9_4.index t 1 * 256 + 1 * (y 1).val = (k 1).val; rw [hB, hkc]; omega

/-- The accumulator after point n depends on n only through its value. -/
theorem acc9_congr (V : Valuation τ sig (Elt F)) (c : Dev nD) {n n' : ℕ} (e : n = n') (hn : n < cfg9.N) (hn' : n' < cfg9.N) :
    acc9 V c n hn = acc9 V c n' hn' := by
  subst e; rfl

/-- At the first point of row block i the accumulator is reset and stepped once … -/
theorem acc9_row_zero (V : Valuation τ sig (Elt F)) (c : Dev nD) (i : ℕ) (hn : 8 * i + 0 < cfg9.N) :
    acc9 V c (8 * i + 0) hn = step9 V c (8 * i + 0) hn (init9 V c (8 * i + 0) hn) :=
  acc9_reset V c (8 * i + 0) hn (by omega)

/-- … and at each later point of the row block it is stepped from what the point before left. -/
theorem acc9_row_succ (V : Valuation τ sig (Elt F)) (c : Dev nD) (i j : ℕ) (hj : j + 1 < 8) (hn : 8 * i + (j + 1) < cfg9.N) :
    acc9 V c (8 * i + (j + 1)) hn = step9 V c (8 * i + (j + 1)) hn (acc9 V c (8 * i + j) (by omega)) :=
  (acc9_step V c (8 * i + (j + 1)) hn (by omega)).trans
    (congrArg (step9 V c (8 * i + (j + 1)) hn) (acc9_congr V c (by omega) _ _))

end AnyF

/-! ## The accumulator at the ideal values -/

/-- The Gram matrix of the rows of h. -/
noncomputable def gram9 (V : Valuation τ sig (Elt Ideal)) (r s : Fin 4096) : EReal :=
  ∑ k : Fin 256, (harr9 V (ix2 r k) : EReal) * (harr9 V (ix2 s k) : EReal)

/-- The 0/1 mask: 1 where the Gram matrix's entry is above the threshold, else 0. -/
noncomputable def mask9 (V : Valuation τ sig (Elt Ideal)) (r s : Fin 4096) : EReal :=
  if (marr9 V (ix2 (0 : Fin 1) (0 : Fin 1)) : EReal) < gram9 V r s then 1 else 0

/-- The mask's entries are zero or one. -/
theorem mask9_zero_or_one (V : Valuation τ sig (Elt Ideal)) (r s : Fin 4096) : mask9 V r s = 0 ∨ mask9 V r s = 1 := by
  unfold mask9
  exact GridSum.ite_zero_or_one _

/-- What column block j adds to the accumulator's entry of row r and feature d (zero past the eight blocks). -/
noncomputable def blockTerm9 (V : Valuation τ sig (Elt Ideal)) (r : Fin 4096) (d : Fin 256) (j : ℕ) : EReal :=
  if hj : j < 8 then
    ∑ q : Fin 512, mask9 V r (GridSum.idx4096 ⟨j, hj⟩ q) * (xarr9 V (ix2 (GridSum.idx4096 ⟨j, hj⟩ q) d) : EReal)
  else 0

theorem blockTerm9_of_lt (V : Valuation τ sig (Elt Ideal)) (r : Fin 4096) (d : Fin 256) (j : ℕ) (hj : j < 8) :
    blockTerm9 V r d j
      = ∑ q : Fin 512, mask9 V r (GridSum.idx4096 ⟨j, hj⟩ q) * (xarr9 V (ix2 (GridSum.idx4096 ⟨j, hj⟩ q) d) : EReal) := by
  unfold blockTerm9
  exact dif_pos hj

/-- One step at point 8·i + j adds column block j's term to the entry of row 512·i + p. -/
theorem step9_apply (V : Valuation τ sig (Elt Ideal)) (c : Dev nD) (i : Fin 8) (j : ℕ) (hj : j < 8)
    (hn : 8 * (i : ℕ) + j < cfg9.N) (a : Vec Ideal S512x256 .f32) (p : Fin 512) (d : Fin 256) :
    (step9 V c (8 * (i : ℕ) + j) hn a (ix2 p d) : EReal) = (a (ix2 p d) : EReal) + blockTerm9 V (GridSum.idx4096 i p) d j := by
  have hi : (i : ℕ) < 8 := i.isLt
  have e := k9_pay2_apply (hi9 V c ⟨8 * (i : ℕ) + j, hn⟩) (hj9 V c ⟨8 * (i : ℕ) + j, hn⟩) (mb9 V c ⟨8 * (i : ℕ) + j, hn⟩)
    (xj9 V c ⟨8 * (i : ℕ) + j, hn⟩) a p d
  rw [blockTerm9_of_lt V _ d j hj]
  refine e.trans ?_
  congr 1
  refine Finset.sum_congr rfl fun q _ => ?_
  rw [mb9_apply V c ⟨8 * (i : ℕ) + j, hn⟩ (ix2 (0 : Fin 1) (0 : Fin 1)),
    xj9_apply V c ⟨8 * (i : ℕ) + j, hn⟩ (ix2 q d) (ix2 (GridSum.idx4096 ⟨j, hj⟩ q) d)
      (by show 512 * j + (q : ℕ) = 512 * ((8 * (i : ℕ) + j) % 8) + (q : ℕ); omega) rfl]
  congr 1
  unfold mask9 gram9
  have hs : (∑ k : Fin 256, (hi9 V c ⟨8 * (i : ℕ) + j, hn⟩ (ix2 p k) : EReal) * (hj9 V c ⟨8 * (i : ℕ) + j, hn⟩ (ix2 q k) : EReal))
      = ∑ k : Fin 256, (harr9 V (ix2 (GridSum.idx4096 i p) k) : EReal) * (harr9 V (ix2 (GridSum.idx4096 ⟨j, hj⟩ q) k) : EReal) :=
    Finset.sum_congr rfl fun k _ => by
      rw [hi9_apply V c ⟨8 * (i : ℕ) + j, hn⟩ (ix2 p k) (ix2 (GridSum.idx4096 i p) k)
          (by show 512 * (i : ℕ) + (p : ℕ) = 512 * ((8 * (i : ℕ) + j) / 8) + (p : ℕ); omega) rfl,
        hj9_apply V c ⟨8 * (i : ℕ) + j, hn⟩ (ix2 q k) (ix2 (GridSum.idx4096 ⟨j, hj⟩ q) k)
          (by show 512 * j + (q : ℕ) = 512 * ((8 * (i : ℕ) + j) % 8) + (q : ℕ); omega) rfl]
  rw [hs]

/-- The reset value at point 8·i + j is 1 times the entry of x at row 512·i + p. -/
theorem init9_apply (V : Valuation τ sig (Elt Ideal)) (c : Dev nD) (i : Fin 8) (j : ℕ) (hj : j < 8)
    (hn : 8 * (i : ℕ) + j < cfg9.N) (p : Fin 512) (d : Fin 256) :
    (init9 V c (8 * (i : ℕ) + j) hn (ix2 p d) : EReal) = 1 * (xarr9 V (ix2 (GridSum.idx4096 i p) d) : EReal) := by
  have hi : (i : ℕ) < 8 := i.isLt
  have e := k9_pay1_apply (xi9 V c ⟨8 * (i : ℕ) + j, hn⟩) p d
  refine e.trans ?_
  rw [xi9_apply V c ⟨8 * (i : ℕ) + j, hn⟩ (ix2 p d) (ix2 (GridSum.idx4096 i p) d)
    (by show 512 * (i : ℕ) + (p : ℕ) = 512 * ((8 * (i : ℕ) + j) / 8) + (p : ℕ); omega) rfl]

/-- After point 8·i + j the accumulator's entry of row r = 512·i + p holds 1·x r with the terms of the column blocks
    0 … j added one by one. -/
theorem acc9_apply (V : Valuation τ sig (Elt Ideal)) (c : Dev nD) (i : Fin 8) (p : Fin 512) (d : Fin 256) :
    ∀ (j : ℕ) (hj : j < 8) (hn : 8 * (i : ℕ) + j < cfg9.N),
      (acc9 V c (8 * (i : ℕ) + j) hn (ix2 p d) : EReal)
        = GridSum.accFold (1 * (xarr9 V (ix2 (GridSum.idx4096 i p) d) : EReal)) (blockTerm9 V (GridSum.idx4096 i p) d) (j + 1)
  | 0, hj, hn => by
    rw [acc9_row_zero V c (i : ℕ) hn, step9_apply V c i 0 hj hn _ p d, init9_apply V c i 0 hj hn p d,
      GridSum.accFold_succ, GridSum.accFold_zero]
  | j + 1, hj, hn => by
    rw [acc9_row_succ V c (i : ℕ) j hj hn, step9_apply V c i (j + 1) hj hn _ p d,
      acc9_apply V c i p d j (by omega) (by omega), GridSum.accFold_succ _ _ (j + 1)]

/-- THE AGGREGATION KERNEL'S VALUE at the last point of row block i: the entry of row r = 512·i + p and feature d is
    1·x r d plus the sum over all 4096 rows s of mask r s · x s d. -/
theorem acc9_last_apply (V : Valuation τ sig (Elt Ideal)) (c : Dev nD) (i : Fin 8) (p : Fin 512) (d : Fin 256)
    (hn : 8 * (i : ℕ) + 7 < cfg9.N) :
    (acc9 V c (8 * (i : ℕ) + 7) hn (ix2 p d) : EReal)
      = 1 * (xarr9 V (ix2 (GridSum.idx4096 i p) d) : EReal)
        + ∑ s : Fin 4096, mask9 V (GridSum.idx4096 i p) s * (xarr9 V (ix2 s d) : EReal) := by
  rw [acc9_apply V c i p d 7 (by omega) hn, GridSum.accFold_eq_sum,
    GridSum.sum_range_fin (blockTerm9 V (GridSum.idx4096 i p) d)
      (fun j : Fin 8 => ∑ q : Fin 512, mask9 V (GridSum.idx4096 i p) (GridSum.idx4096 j q) * (xarr9 V (ix2 (GridSum.idx4096 j q) d) : EReal))
      (fun j => blockTerm9_of_lt V _ d (j : ℕ) j.isLt),
    GridSum.sum_blocks GridSum.eight_mul (fun s : Fin 4096 => mask9 V (GridSum.idx4096 i p) s * (xarr9 V (ix2 s d) : EReal))]

/-! ## The output array after the run -/

section Array

variable {F : FTy → Type} [FloatOps F]
variable {Ix : Type} [DecidableEq Ix] {U : Type} [URA U] {Lvl : Type}

/-- The output window's block at point t is rows 512·(t / 8) … of the output array. -/
theorem oblk9_apply (c : Dev nD) (X : Buf (Elt F) ((cfg9.win 5).arr.view.loc (c.tc : Thread nD τ))) (t : Fin cfg9.N)
    (y : S512x256.Idx) (k : S4096x256.Idx) (hkr : (k 0).val = 512 * (t.val / 8) + (y 0).val) (hkc : (k 1).val = (y 1).val) :
    (((cfg9.win 5).blk t).view.read (Elt F) X : Vec F S512x256 .f32) y = (X : S4096x256.Idx → Elt F .f32) k := by
  obtain ⟨-, -, -, -, -, ⟨hA, hB⟩⟩ := idx_facts9 t
  rw [View.read_apply]
  have e : ((cfg9.win 5).blk t).view.emb y = k := by
    funext a
    apply Fin.ext
    match a with
    | ⟨0, _⟩ => show win9_5.index t 0 * 512 + 1 * (y 0).val = (k 0).val; rw [hA, hkr]; omega
    | ⟨1, _⟩ => show win9_5.index t 1 * 256 + 1 * (y 1).val = (k 1).val; rw [hB, hkc]; omega
  exact congrArg X e

/-- After the whole grid the output array's entry of row 512·i + p is what the accumulator held, at row p, after the
    last point of row block i. -/
theorem arrAt9_5_block (V : Valuation τ sig (Elt F)) (c : Dev nD) (i : Fin 8) (p : Fin 512) (d : Fin 256)
    (hn : 8 * (i : ℕ) + 7 < cfg9.N) :
    ((dat9 (Ix := Ix) (U := U) (Lvl := Lvl) V c).arrAt 5 64 : S4096x256.Idx → Elt F .f32) (ix2 (GridSum.idx4096 i p) d)
      = (acc9 V c (8 * (i : ℕ) + 7) hn : Vec F S512x256 .f32) (ix2 p d) := by
  have hi : (i : ℕ) < 8 := i.isLt
  refine (oblk9_apply c ((dat9 (Ix := Ix) (U := U) (Lvl := Lvl) V c).arrAt 5 64) ⟨8 * (i : ℕ) + 7, hn⟩ (ix2 p d)
    (ix2 (GridSum.idx4096 i p) d)
    (by show 512 * (i : ℕ) + (p : ℕ) = 512 * ((8 * (i : ℕ) + 7) / 8) + (p : ℕ); omega) rfl).symm.trans ?_
  exact congrFun (out9_block (Ix := Ix) (U := U) (Lvl := Lvl) V c ⟨8 * (i : ℕ) + 7, hn⟩
    (by show (8 * (i : ℕ) + 7) % 8 = 7; omega)) (ix2 p d)

/-- THE AGGREGATION KERNEL'S OUTPUT ARRAY at the ideal values: the entry of row r and feature d is 1·x r d plus the sum
    over all rows s of mask r s · x s d, the mask being 1 where the Gram matrix of the rows of h is above the threshold. -/
theorem arrAt9_5_value (V : Valuation τ sig (Elt Ideal)) (c : Dev nD) (r : Fin 4096) (d : Fin 256) :
    (((dat9 (Ix := Ix) (U := U) (Lvl := Lvl) V c).arrAt 5 64 : S4096x256.Idx → Elt Ideal .f32) (ix2 r d) : EReal)
      = 1 * (xarr9 V (ix2 r d) : EReal) + ∑ s : Fin 4096, mask9 V r s * (xarr9 V (ix2 s d) : EReal) := by
  have hN : cfg9.N = 64 := N_9
  obtain ⟨i, p, rfl⟩ := GridSum.exists_idx4096 r
  have hi : (i : ℕ) < 8 := i.isLt
  have hn : 8 * (i : ℕ) + 7 < cfg9.N := by omega
  exact (arrAt9_5_block (Ix := Ix) (U := U) (Lvl := Lvl) V c i p d hn).trans (acc9_last_apply V c i p d hn)

/-- The same with the diagonal folded into the mask: Σ_s (mask r s + δ r s) · x s d, the aggregate law of zeros and ones
    on the extended reals. -/
theorem arrAt9_5_agg (V : Valuation τ sig (Elt Ideal)) (c : Dev nD) (r : Fin 4096) (d : Fin 256) :
    (((dat9 (Ix := Ix) (U := U) (Lvl := Lvl) V c).arrAt 5 64 : S4096x256.Idx → Elt Ideal .f32) (ix2 r d) : EReal)
      = ∑ s : Fin 4096, (mask9 V r s + (if r = s then 1 else 0)) * (xarr9 V (ix2 s d) : EReal) :=
  (arrAt9_5_value (Ix := Ix) (U := U) (Lvl := Lvl) V c r d).trans
    (GridSum.aggregate_law_ite (mask9 V) (fun s => (xarr9 V (ix2 s d) : EReal)) (mask9_zero_or_one V) r)

/-- The same as an equation of arrays: the output array is the closed form aggVal of the threshold cell, h and x. -/
theorem region9_value (V : Valuation τ sig (Elt Ideal)) (c : Dev nD) :
    ((dat9 (Ix := Ix) (U := U) (Lvl := Lvl) V c).arrAt 5 64 : S4096x256.Idx → Elt Ideal .f32)
      = Cert.Hand.aggVal (marr9 V) (harr9 V) (xarr9 V) := by
  funext j
  obtain ⟨r, d, rfl⟩ : ∃ (r : Fin 4096) (d : Fin 256), j = ix2 r d := ⟨j 0, j 1, eq_ix2 j⟩
  exact arrAt9_5_value (Ix := Ix) (U := U) (Lvl := Lvl) V c r d

end Array

end Cert.KernelIdeal.Hand

end
-- ==== Proof.RgV10.lean ====
import Idealize.ShloMosaic.Lib.Pipeline.Value
import proofs.«169706_j68856915690108_1_alg».proof.Proof.UnitIdx
import proofs.«169706_j68856915690108_1_alg».proof.Proof.AggVal
import proofs.«169706_j68856915690108_1_alg».proof.Proof.TileValue
import proofs.«169706_j68856915690108_1_alg».proof.Proof.LibGridSum
import Idealize.ShloMosaic.Lib.ValueIdx
import proofs.«169706_j68856915690108_1_alg».proof.Proof.Rg10

/-! # part: SumValue -/
/-
  Region 0 (the tile-sum kernel): what the run leaves in the output array.

  The output window's block is the whole 1 × 1 output array, and it is written back once, after the last of the 64
  points. So after the whole grid the output array's one cell holds what the scratch cell held after point 63: the sum
  of all 64 tiles.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The one write-back -/

/-- Only the last point writes the output block back, so no two different points do. -/
theorem disj10_2 (t t' : Fin cfg10.N) (hf : (cfg10.win 2).flush t = true) (hf' : (cfg10.win 2).flush t' = true)
    (hne : t ≠ t') : Disjoint ((cfg10.win 2).blk t).view.set ((cfg10.win 2).blk t').view.set := by
  have hN : cfg10.N = 64 := N_10
  have h := (flush10_2 t).mp hf
  have h' := (flush10_2 t').mp hf'
  have := t.isLt; have := t'.isLt
  exact absurd (Fin.ext (by omega)) hne

/-- The grid has a point 63, its last. -/
theorem last10_lt : 63 < cfg10.N := by decide

/-- The last point writes the output block back. -/
theorem flush10_2_last : (cfg10.win 2).flush ⟨63, last10_lt⟩ = true := (flush10_2 _).mpr (by decide)

/-! ## The output array after the run -/

/-- After the whole grid, the output block read back through the window holds what the scratch cell held after the
    last point. -/
theorem out10_block (V : Valuation τ sig (Elt F)) (c : Dev nD) :
    ((cfg10.win 2).blk ⟨63, last10_lt⟩).view.read (Elt F) ((dat10 (Ix := Ix) (U := U) (Lvl := Lvl) V c).arrAt 2 64)
      = acc10 V c 63 last10_lt :=
  ((dat10 (Ix := Ix) (U := U) (Lvl := Lvl) V c).read_blk_arrAt_eq_flushed 2 disj10_2 64 ⟨63, last10_lt⟩ (by decide)
    flush10_2_last).trans (after10_2 V c ⟨63, last10_lt⟩)

/-- The output array after the whole grid, cell by cell: what the scratch cell held after the last point. -/
theorem arrAt10_2_apply (V : Valuation τ sig (Elt F)) (c : Dev nD) (i : S1x1.Idx) :
    ((dat10 (Ix := Ix) (U := U) (Lvl := Lvl) V c).arrAt 2 64 : S1x1.Idx → Elt F .f32) i = acc10 V c 63 last10_lt i := by
  have h := congrFun (out10_block (Ix := Ix) (U := U) (Lvl := Lvl) V c) i
  rw [View.read_apply] at h
  rw [← h, unit_idx_eq (((cfg10.win 2).blk ⟨63, last10_lt⟩).view.emb i) i]
  rfl

/-- The output array after the whole grid, as a 1 × 1 vector. -/
theorem arrAt10_2 (V : Valuation τ sig (Elt F)) (c : Dev nD) :
    ((dat10 (Ix := Ix) (U := U) (Lvl := Lvl) V c).arrAt 2 64 : S1x1.Idx → Elt F .f32) = acc10 V c 63 last10_lt :=
  funext fun i => arrAt10_2_apply V c i

end Cert.KernelIdeal.Hand

end

/-! # part: RegionValue0 -/
/-
  Region 0 (the tile-sum kernel) read as a value: the cell it accumulates ends at the sum of the whole Gram matrix.

  The grid is 8 × 8, walked row by row: point t = 8·i + j stages rows 512·i … 512·i + 511 of the 4096 × 256 array h
  through its first window and rows 512·j … of the same array through its second (idx_facts10, hi10_apply, hj10_apply).
  At the ideal values the step of one point adds to the 1 × 1 cell the sum of the 512 × 512 tile
  Σ_p Σ_q Σ_k h (512·i + p) k · h (512·j + q) k, and the cell starts from zero, so after point n it holds the tile sums
  of the points 0 … n added one by one (acc10_apply). The 64 tiles are exactly the 8 × 8 tiling of the 4096 × 4096 Gram
  matrix G r s = Σ_k h r k · h s k (tile10_grid), and on the extended reals addition is commutative and associative, so
  after the last point the cell holds Σ_r Σ_s G r s (acc10_last_apply): no finiteness of h is needed. The one write-back, after
  the last point, copies the cell into the 1 × 1 output array (arrAt10_2_value, region10_value).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the array -/

/-- Point t = 8·i + j of the 8 × 8 grid stages rows block i = t / 8 through window 0, rows block j = t % 8 through
    window 1, and the one cell through window 2. -/
theorem idx_facts10 : ∀ t : Fin cfg10.N,
    win10_0.index t 0 = t.val / 8 ∧ win10_0.index t 1 = 0 ∧ win10_1.index t 0 = t.val % 8 ∧ win10_1.index t 1 = 0
      ∧ win10_2.index t 0 = 0 ∧ win10_2.index t 1 = 0 :=
  (by decide +kernel : ∀ t : Fin grid10.N,
    win10_0.index t 0 = t.val / 8 ∧ win10_0.index t 1 = 0 ∧ win10_1.index t 0 = t.val % 8 ∧ win10_1.index t 1 = 0
      ∧ win10_2.index t 0 = 0 ∧ win10_2.index t 1 = 0)

section AnyF

variable {F : FTy → Type} [FloatOps F]

/-- The array h both input windows read: the region-entry contents of the first window's array. -/
abbrev harr10 (V : Valuation τ sig (Elt F)) : Vec F S4096x256 .f32 := V (Proc.devRef .tc main_v366)

/-- The block of h window 0 stages at point t, as a 512 × 256 array. -/
abbrev hi10 (V : Valuation τ sig (Elt F)) (c : Dev nD) (t : Fin cfg10.N) : Vec F S512x256 .f32 := iblk10 V c 0 t
/-- The block of h window 1 stages at point t, as a 512 × 256 array. -/
abbrev hj10 (V : Valuation τ sig (Elt F)) (c : Dev nD) (t : Fin cfg10.N) : Vec F S512x256 .f32 := iblk10 V c 1 t

/-- Window 0's block at point t is rows 512·(t / 8) … of h. -/
theorem hi10_apply (V : Valuation τ sig (Elt F)) (c : Dev nD) (t : Fin cfg10.N) (y : S512x256.Idx) (k : S4096x256.Idx)
    (hkr : (k 0).val = 512 * (t.val / 8) + (y 0).val) (hkc : (k 1).val = (y 1).val) :
    hi10 V c t y = harr10 V k := by
  obtain ⟨hA, hB, -, -, -, -⟩ := idx_facts10 t
  show (iblk10 V c 0 t : Vec F S512x256 .f32) y = _
  unfold iblk10
  rw [View.read_apply]
  show V (Proc.devRef .tc main_v366) _ = V (Proc.devRef .tc main_v366) _
  congr 1
  funext a
  apply Fin.ext
  match a with
  | ⟨0, _⟩ => show win10_0.index t 0 * 512 + 1 * (y 0).val = (k 0).val; rw [hA, hkr]; omega
  | ⟨1, _⟩ => show win10_0.index t 1 * 256 + 1 * (y 1).val = (k 1).val; rw [hB, hkc]; omega

/-- Window 1's block at point t is rows 512·(t % 8) … of h. -/
theorem hj10_apply (V : Valuation τ sig (Elt F)) (c : Dev nD) (t : Fin cfg10.N) (y : S512x256.Idx) (k : S4096x256.Idx)
    (hkr : (k 0).val = 512 * (t.val % 8) + (y 0).val) (hkc : (k 1).val = (y 1).val) :
    hj10 V c t y = harr10 V k := by
  obtain ⟨-, -, hA, hB, -, -⟩ := idx_facts10 t
  show (iblk10 V c 1 t : Vec F S512x256 .f32) y = _
  unfold iblk10
  rw [View.read_apply]
  show V (Proc.devRef .tc main_v366) _ = V (Proc.devRef .tc main_v366) _
  congr 1
  funext a
  apply Fin.ext
  match a with
  | ⟨0, _⟩ => show win10_1.index t 0 * 512 + 1 * (y 0).val = (k 0).val; rw [hA, hkr]; omega
  | ⟨1, _⟩ => show win10_1.index t 1 * 256 + 1 * (y 1).val = (k 1).val; rw [hB, hkc]; omega

end AnyF

/-! ## The accumulated cell at the ideal values -/

/-- The Gram matrix of the rows of h: entry (r, s) is the sum over the 256 columns of the products. -/
noncomputable def gram10 (V : Valuation τ sig (Elt Ideal)) (r s : Fin 4096) : EReal :=
  ∑ k : Fin 256, (harr10 V (ix2 r k) : EReal) * (harr10 V (ix2 s k) : EReal)

/-- The sum of the 512 × 512 tile the point t stages (zero past the grid). -/
noncomputable def tile10 (V : Valuation τ sig (Elt Ideal)) (c : Dev nD) (t : ℕ) : EReal :=
  if ht : t < cfg10.N then
    ∑ p : Fin 512, ∑ q : Fin 512, ∑ k : Fin 256, (hi10 V c ⟨t, ht⟩ (ix2 p k) : EReal) * (hj10 V c ⟨t, ht⟩ (ix2 q k) : EReal)
  else 0

theorem tile10_of_lt (V : Valuation τ sig (Elt Ideal)) (c : Dev nD) (t : ℕ) (ht : t < cfg10.N) :
    tile10 V c t
      = ∑ p : Fin 512, ∑ q : Fin 512, ∑ k : Fin 256, (hi10 V c ⟨t, ht⟩ (ix2 p k) : EReal) * (hj10 V c ⟨t, ht⟩ (ix2 q k) : EReal) := by
  unfold tile10
  exact dif_pos ht

/-- After point n the cell holds the tile sums of the points 0 … n added one by one onto zero. -/
theorem acc10_apply (V : Valuation τ sig (Elt Ideal)) (c : Dev nD) :
    ∀ (n : ℕ) (hn : n < cfg10.N) (a b : Fin 1),
      ((acc10 V c n hn : Vec Ideal S1x1 .f32) (ix2 a b) : EReal) = GridSum.accFold 0 (tile10 V c) (n + 1)
  | 0, hn, a, b => by
    have e := k10_pay2_apply (hi10 V c ⟨0, hn⟩) (hj10 V c ⟨0, hn⟩) (k10_pay1 (F := Ideal)) a b
    rw [k10_pay1_apply] at e
    rw [GridSum.accFold_succ, GridSum.accFold_zero, tile10_of_lt V c 0 hn]
    exact e
  | n + 1, hn, a, b => by
    have e := k10_pay2_apply (hi10 V c ⟨n + 1, hn⟩) (hj10 V c ⟨n + 1, hn⟩) (acc10 V c n (Nat.lt_of_succ_lt hn)) a b
    rw [acc10_apply V c n (Nat.lt_of_succ_lt hn) a b] at e
    rw [GridSum.accFold_succ _ _ (n + 1), tile10_of_lt V c (n + 1) hn]
    exact e

/-- The tile of point 8·i + j is the 512 × 512 tile (i, j) of the Gram matrix. -/
theorem tile10_grid (V : Valuation τ sig (Elt Ideal)) (c : Dev nD) (i j : Fin 8) :
    tile10 V c (8 * (i : ℕ) + (j : ℕ))
      = ∑ p : Fin 512, ∑ q : Fin 512, gram10 V (GridSum.idx4096 i p) (GridSum.idx4096 j q) := by
  have hi : (i : ℕ) < 8 := i.isLt
  have hj : (j : ℕ) < 8 := j.isLt
  have hN : cfg10.N = 64 := N_10
  have ht : 8 * (i : ℕ) + (j : ℕ) < cfg10.N := by omega
  rw [tile10_of_lt V c _ ht]
  refine Finset.sum_congr rfl fun p _ => Finset.sum_congr rfl fun q _ => ?_
  unfold gram10
  refine Finset.sum_congr rfl fun k _ => ?_
  rw [hi10_apply V c ⟨_, ht⟩ (ix2 p k) (ix2 (GridSum.idx4096 i p) k)
      (by show 512 * (i : ℕ) + (p : ℕ) = 512 * ((8 * (i : ℕ) + (j : ℕ)) / 8) + (p : ℕ); omega) rfl,
    hj10_apply V c ⟨_, ht⟩ (ix2 q k) (ix2 (GridSum.idx4096 j q) k)
      (by show 512 * (j : ℕ) + (q : ℕ) = 512 * ((8 * (i : ℕ) + (j : ℕ)) % 8) + (q : ℕ); omega) rfl]

/-- THE SUM KERNEL'S VALUE. After the last point the cell holds the sum of the whole 4096 × 4096 Gram matrix of the
    rows of h: the 64 tile sums, taken in the grid's row-major order, add up to the sum over all pairs of rows. -/
theorem acc10_last_apply (V : Valuation τ sig (Elt Ideal)) (c : Dev nD) (hlast : 63 < cfg10.N) (a b : Fin 1) :
    ((acc10 V c 63 hlast : Vec Ideal S1x1 .f32) (ix2 a b) : EReal)
      = ∑ r : Fin 4096, ∑ s : Fin 4096, ∑ k : Fin 256, (harr10 V (ix2 r k) : EReal) * (harr10 V (ix2 s k) : EReal) := by
  rw [acc10_apply V c 63 hlast a b, GridSum.accFold_tiles_4096 (gram10 V) 0 (tile10 V c) (tile10_grid V c), zero_add]
  rfl

/-! ## The output array after the run -/

section Array

variable {Ix : Type} [DecidableEq Ix] {U : Type} [URA U] {Lvl : Type}

/-- THE SUM KERNEL'S OUTPUT ARRAY at the ideal values: after the whole grid its one cell holds the sum of the whole
    4096 × 4096 Gram matrix of the rows of h. -/
theorem arrAt10_2_value (V : Valuation τ sig (Elt Ideal)) (c : Dev nD) (a b : Fin 1) :
    (((dat10 (Ix := Ix) (U := U) (Lvl := Lvl) V c).arrAt 2 64 : S1x1.Idx → Elt Ideal .f32) (ix2 a b) : EReal)
      = ∑ r : Fin 4096, ∑ s : Fin 4096, ∑ k : Fin 256, (harr10 V (ix2 r k) : EReal) * (harr10 V (ix2 s k) : EReal) :=
  (arrAt10_2_apply (Ix := Ix) (U := U) (Lvl := Lvl) V c (ix2 a b)).trans (acc10_last_apply V c (by decide) a b)

/-- The same as an equation of arrays: the output array is the closed form sumVal of h. -/
theorem region10_value (V : Valuation τ sig (Elt Ideal)) (c : Dev nD) :
    ((dat10 (Ix := Ix) (U := U) (Lvl := Lvl) V c).arrAt 2 64 : S1x1.Idx → Elt Ideal .f32) = Cert.Hand.sumVal (harr10 V) := by
  funext i
  obtain ⟨a, b, rfl⟩ : ∃ (a b : Fin 1), i = ix2 a b := ⟨i 0, i 1, eq_ix2 i⟩
  exact arrAt10_2_value (Ix := Ix) (U := U) (Lvl := Lvl) V c a b

end Array

end Cert.KernelIdeal.Hand

end
-- ==== Proof.RgV11.lean ====
import Idealize.ShloMosaic.Lib.Pipeline.Value
import proofs.«169706_j68856915690108_1_alg».proof.Proof.TileValue
import proofs.«169706_j68856915690108_1_alg».proof.Proof.LibGridSum
import proofs.«169706_j68856915690108_1_alg».proof.Proof.RegionValueLib
import proofs.«169706_j68856915690108_1_alg».proof.Proof.AggVal
import Idealize.ShloMosaic.Lib.ValueIdx
import proofs.«169706_j68856915690108_1_alg».proof.Proof.Rg11

/-! # part: ApplyOut -/
/-
  Region 1 (the aggregation kernel): what the run leaves in the output array.

  The accumulator after point t is the fold over the run of eight points that t lies in (the points 8·(t / 8) …
  8·(t / 8) + 7 share the row block i = t / 8): reset and stepped at the run's first point, stepped at each later one.
  The output window's block at point t is row block t / 8 of the output array, written back at the run's last point
  only (t % 8 = 7); two such points have different row blocks, so their blocks of the array are disjoint, and after
  the whole grid block i of the output array holds what the accumulator held after point 8·i + 7.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The accumulator as a fold over its run -/

/-- The accumulator after point `t` is the fold over the run of eight points `t` lies in, up to `t`. -/
theorem acc11_fold (V : Valuation τ sig (Elt F)) (c : Dev nD) (t : ℕ) (ht : t < cfg11.N)
    (h' : 8 * (t / 8) + t % 8 < cfg11.N) :
    acc11 V c t ht = Pipeline.accAt (fun n h => step11 V c n h (init11 V c n h)) (fun n h a => step11 V c n h a)
      (8 * (t / 8)) (t % 8) h' :=
  Pipeline.eq_accAt_of_mod (acc11 V c) 8 (fun n h => step11 V c n h (init11 V c n h)) (fun n h a => step11 V c n h a)
    (fun n h h0 => acc11_reset V c n h h0) (fun n h h0 => if_neg h0) (by decide) t ht h'

/-! ## The output window's blocks -/

/-- The output window's block index along the rows at point `t` is `t / 8`. -/
theorem idx11_5 : ∀ t : Fin cfg11.N, win11_5.index t (0 : Fin 2) = t.val / 8 :=
  (by decide +kernel : ∀ t : Fin grid11.N, win11_5.index t (0 : Fin 2) = t.val / 8)

/-- Two different points that write the output block back write disjoint blocks of the array. -/
theorem disj11_5 (t t' : Fin cfg11.N) (hf : (cfg11.win 5).flush t = true) (hf' : (cfg11.win 5).flush t' = true)
    (hne : t ≠ t') : Disjoint ((cfg11.win 5).blk t).view.set ((cfg11.win 5).blk t').view.set := by
  refine (cfg11.win 5).disjoint_blk fun h => hne (Fin.ext ?_)
  have h0 : win11_5.index t (0 : Fin 2) = win11_5.index t' (0 : Fin 2) := congrFun h (0 : Fin 2)
  rw [idx11_5 t, idx11_5 t'] at h0
  have h7 := (flush11_5 t).mp hf
  have h7' := (flush11_5 t').mp hf'
  omega

/-! ## The output array after the run -/

/-- After the whole grid, the block of the output array under a point that writes back (`t % 8 = 7`) holds what the
    accumulator held after that point. -/
theorem out11_block (V : Valuation τ sig (Elt F)) (c : Dev nD) (t : Fin cfg11.N) (ht : t.val % 8 = 7) :
    ((cfg11.win 5).blk t).view.read (Elt F) ((dat11 (Ix := Ix) (U := U) (Lvl := Lvl) V c).arrAt 5 64)
      = acc11 V c t.val t.isLt := by
  have hN : cfg11.N = 64 := N_11
  have hlt : t.val < 64 := Nat.lt_of_lt_of_eq t.isLt hN
  exact ((dat11 (Ix := Ix) (U := U) (Lvl := Lvl) V c).read_blk_arrAt_eq_flushed 5 disj11_5 64 t hlt
    ((flush11_5 t).mpr ht)).trans (after11_5 V c t)

end Cert.KernelIdeal.Hand

end

/-! # part: RegionValue1 -/
/-
  Region 1 (the aggregation kernel) read as a value: row r of its output is 1·x r plus the masked sum over all rows.

  The grid is 8 × 8, walked row by row: point t = 8·i + j stages the one threshold cell, rows 512·i … of the 4096 × 256
  arrays h and x (row block i) and rows 512·j … of the same two arrays (row block j) (idx_facts11 and the block reads
  mb11_apply … xj11_apply). At the ideal values the reset at j = 0 leaves 1·x r in the accumulator's entry of row
  r = 512·i + p (init11_apply), and the step of point 8·i + j adds Σ_q mask r (512·j + q) · x (512·j + q), the mask
  being 1 where the Gram matrix G r s = Σ_k h r k · h s k is above the threshold and 0 elsewhere (step11_apply). So after
  the eight points of row block i the entry holds 1·x r with the eight column blocks' terms added one by one
  (acc11_apply), which is 1·x r + Σ_s mask r s · x s over all 4096 rows s (acc11_last_apply): the eight blocks of 512 tile
  the 4096 columns, and addition on the extended reals is commutative and associative. The write-back at j = 7 puts
  that row block into the output array (arrAt11_5_block, arrAt11_5_value), and because the mask's entries are zeros and
  ones the diagonal term can be folded in: Σ_s (mask r s + δ r s) · x s (arrAt11_5_agg).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the arrays -/

/-- Point t = 8·i + j of the 8 × 8 grid stages: the one threshold cell (window 0), rows block i = t / 8 of h and of x
    (windows 1 and 3), rows block j = t % 8 of h and of x (windows 2 and 4), and writes rows block i of the output
    (window 5). -/
theorem idx_facts11 : ∀ t : Fin cfg11.N,
    (win11_0.index t 0 = 0 ∧ win11_0.index t 1 = 0) ∧ (win11_1.index t 0 = t.val / 8 ∧ win11_1.index t 1 = 0)
      ∧ (win11_2.index t 0 = t.val % 8 ∧ win11_2.index t 1 = 0) ∧ (win11_3.index t 0 = t.val / 8 ∧ win11_3.index t 1 = 0)
      ∧ (win11_4.index t 0 = t.val % 8 ∧ win11_4.index t 1 = 0) ∧ (win11_5.index t 0 = t.val / 8 ∧ win11_5.index t 1 = 0) :=
  (by decide +kernel : ∀ t : Fin grid11.N,
    (win11_0.index t 0 = 0 ∧ win11_0.index t 1 = 0) ∧ (win11_1.index t 0 = t.val / 8 ∧ win11_1.index t 1 = 0)
      ∧ (win11_2.index t 0 = t.val % 8 ∧ win11_2.index t 1 = 0) ∧ (win11_3.index t 0 = t.val / 8 ∧ win11_3.index t 1 = 0)
      ∧ (win11_4.index t 0 = t.val % 8 ∧ win11_4.index t 1 = 0) ∧ (win11_5.index t 0 = t.val / 8 ∧ win11_5.index t 1 = 0))

section AnyF

variable {F : FTy → Type} [FloatOps F]

/-- The threshold cell, the array h and the array x the region reads: region-entry contents. -/
abbrev marr11 (V : Valuation τ sig (Elt F)) : Vec F S1x1 .f32 := V (Proc.devRef .tc main_v369)
abbrev harr11 (V : Valuation τ sig (Elt F)) : Vec F S4096x256 .f32 := V (Proc.devRef .tc main_v366)
abbrev xarr11 (V : Valuation τ sig (Elt F)) : Vec F S4096x256 .f32 := V (Proc.devRef .tc main_v347)

/-- The five input blocks at point t, each as an array of its literal shape. -/
abbrev mb11 (V : Valuation τ sig (Elt F)) (c : Dev nD) (t : Fin cfg11.N) : Vec F S1x1 .f32 := iblk11 V c 0 t
abbrev hi11 (V : Valuation τ sig (Elt F)) (c : Dev nD) (t : Fin cfg11.N) : Vec F S512x256 .f32 := iblk11 V c 1 t
abbrev hj11 (V : Valuation τ sig (Elt F)) (c : Dev nD) (t : Fin cfg11.N) : Vec F S512x256 .f32 := iblk11 V c 2 t
abbrev xi11 (V : Valuation τ sig (Elt F)) (c : Dev nD) (t : Fin cfg11.N) : Vec F S512x256 .f32 := iblk11 V c 3 t
abbrev xj11 (V : Valuation τ sig (Elt F)) (c : Dev nD) (t : Fin cfg11.N) : Vec F S512x256 .f32 := iblk11 V c 4 t

/-- Window 0's block is the threshold cell itself. -/
theorem mb11_apply (V : Valuation τ sig (Elt F)) (c : Dev nD) (t : Fin cfg11.N) (y : S1x1.Idx) :
    mb11 V c t y = marr11 V y := by
  obtain ⟨⟨hA, hB⟩, -, -, -, -, -⟩ := idx_facts11 t
  show (iblk11 V c 0 t : Vec F S1x1 .f32) y = _
  unfold iblk11
  rw [View.read_apply]
  show V (Proc.devRef .tc main_v369) _ = V (Proc.devRef .tc main_v369) _
  congr 1
  funext a
  apply Fin.ext
  match a with
  | ⟨0, _⟩ => show win11_0.index t 0 * 1 + 1 * (y 0).val = (y 0).val; rw [hA]; omega
  | ⟨1, _⟩ => show win11_0.index t 1 * 1 + 1 * (y 1).val = (y 1).val; rw [hB]; omega

/-- Window 1's block at point t is rows 512·(t / 8) … of h. -/
theorem hi11_apply (V : Valuation τ sig (Elt F)) (c : Dev nD) (t : Fin cfg11.N) (y : S512x256.Idx) (k : S4096x256.Idx)
    (hkr : (k 0).val = 512 * (t.val / 8) + (y 0).val) (hkc : (k 1).val = (y 1).val) :
    hi11 V c t y = harr11 V k := by
  obtain ⟨-, ⟨hA, hB⟩, -, -, -, -⟩ := idx_facts11 t
  show (iblk11 V c 1 t : Vec F S512x256 .f32) y = _
  unfold iblk11
  rw [View.read_apply]
  show V (Proc.devRef .tc main_v366) _ = V (Proc.devRef .tc main_v366) _
  congr 1
  funext a
  apply Fin.ext
  match a with
  | ⟨0, _⟩ => show win11_1.index t 0 * 512 + 1 * (y 0).val = (k 0).val; rw [hA, hkr]; omega
  | ⟨1, _⟩ => show win11_1.index t 1 * 256 + 1 * (y 1).val = (k 1).val; rw [hB, hkc]; omega

/-- Window 2's block at point t is rows 512·(t % 8) … of h. -/
theorem hj11_apply (V : Valuation τ sig (Elt F)) (c : Dev nD) (t : Fin cfg11.N) (y : S512x256.Idx) (k : S4096x256.Idx)
    (hkr : (k 0).val = 512 * (t.val % 8) + (y 0).val) (hkc : (k 1).val = (y 1).val) :
    hj11 V c t y = harr11 V k := by
  obtain ⟨-, -, ⟨hA, hB⟩, -, -, -⟩ := idx_facts11 t
  show (iblk11 V c 2 t : Vec F S512x256 .f32) y = _
  unfold iblk11
  rw [View.read_apply]
  show V (Proc.devRef .tc main_v366) _ = V (Proc.devRef .tc main_v366) _
  congr 1
  funext a
  apply Fin.ext
  match a with
  | ⟨0, _⟩ => show win11_2.index t 0 * 512 + 1 * (y 0).val = (k 0).val; rw [hA, hkr]; omega
  | ⟨1, _⟩ => show win11_2.index t 1 * 256 + 1 * (y 1).val = (k 1).val; rw [hB, hkc]; omega

/-- Window 3's block at point t is rows 512·(t / 8) … of x. -/
theorem xi11_apply (V : Valuation τ sig (Elt F)) (c : Dev nD) (t : Fin cfg11.N) (y : S512x256.Idx) (k : S4096x256.Idx)
    (hkr : (k 0).val = 512 * (t.val / 8) + (y 0).val) (hkc : (k 1).val = (y 1).val) :
    xi11 V c t y = xarr11 V k := by
  obtain ⟨-, -, -, ⟨hA, hB⟩, -, -⟩ := idx_facts11 t
  show (iblk11 V c 3 t : Vec F S512x256 .f32) y = _
  unfold iblk11
  rw [View.read_apply]
  show V (Proc.devRef .tc main_v347) _ = V (Proc.devRef .tc main_v347) _
  congr 1
  funext a
  apply Fin.ext
  match a with
  | ⟨0, _⟩ => show win11_3.index t 0 * 512 + 1 * (y 0).val = (k 0).val; rw [hA, hkr]; omega
  | ⟨1, _⟩ => show win11_3.index t 1 * 256 + 1 * (y 1).val = (k 1).val; rw [hB, hkc]; omega

/-- Window 4's block at point t is rows 512·(t % 8) … of x. -/
theorem xj11_apply (V : Valuation τ sig (Elt F)) (c : Dev nD) (t : Fin cfg11.N) (y : S512x256.Idx) (k : S4096x256.Idx)
    (hkr : (k 0).val = 512 * (t.val % 8) + (y 0).val) (hkc : (k 1).val = (y 1).val) :
    xj11 V c t y = xarr11 V k := by
  obtain ⟨-, -, -, -, ⟨hA, hB⟩, -⟩ := idx_facts11 t
  show (iblk11 V c 4 t : Vec F S512x256 .f32) y = _
  unfold iblk11
  rw [View.read_apply]
  show V (Proc.devRef .tc main_v347) _ = V (Proc.devRef .tc main_v347) _
  congr 1
  funext a
  apply Fin.ext
  match a with
  | ⟨0, _⟩ => show win11_4.index t 0 * 512 + 1 * (y 0).val = (k 0).val; rw [hA, hkr]; omega
  | ⟨1, _⟩ => show win11_4.index t 1 * 256 + 1 * (y 1).val = (k 1).val; rw [hB, hkc]; omega

/-- The accumulator after point n depends on n only through its value. -/
theorem acc11_congr (V : Valuation τ sig (Elt F)) (c : Dev nD) {n n' : ℕ} (e : n = n') (hn : n < cfg11.N) (hn' : n' < cfg11.N) :
    acc11 V c n hn = acc11 V c n' hn' := by
  subst e; rfl

/-- At the first point of row block i the accumulator is reset and stepped once … -/
theorem acc11_row_zero (V : Valuation τ sig (Elt F)) (c : Dev nD) (i : ℕ) (hn : 8 * i + 0 < cfg11.N) :
    acc11 V c (8 * i + 0) hn = step11 V c (8 * i + 0) hn (init11 V c (8 * i + 0) hn) :=
  acc11_reset V c (8 * i + 0) hn (by omega)

/-- … and at each later point of the row block it is stepped from what the point before left. -/
theorem acc11_row_succ (V : Valuation τ sig (Elt F)) (c : Dev nD) (i j : ℕ) (hj : j + 1 < 8) (hn : 8 * i + (j + 1) < cfg11.N) :
    acc11 V c (8 * i + (j + 1)) hn = step11 V c (8 * i + (j + 1)) hn (acc11 V c (8 * i + j) (by omega)) :=
  (acc11_step V c (8 * i + (j + 1)) hn (by omega)).trans
    (congrArg (step11 V c (8 * i + (j + 1)) hn) (acc11_congr V c (by omega) _ _))

end AnyF

/-! ## The accumulator at the ideal values -/

/-- The Gram matrix of the rows of h. -/
noncomputable def gram11 (V : Valuation τ sig (Elt Ideal)) (r s : Fin 4096) : EReal :=
  ∑ k : Fin 256, (harr11 V (ix2 r k) : EReal) * (harr11 V (ix2 s k) : EReal)

/-- The 0/1 mask: 1 where the Gram matrix's entry is above the threshold, else 0. -/
noncomputable def mask11 (V : Valuation τ sig (Elt Ideal)) (r s : Fin 4096) : EReal :=
  if (marr11 V (ix2 (0 : Fin 1) (0 : Fin 1)) : EReal) < gram11 V r s then 1 else 0

/-- The mask's entries are zero or one. -/
theorem mask11_zero_or_one (V : Valuation τ sig (Elt Ideal)) (r s : Fin 4096) : mask11 V r s = 0 ∨ mask11 V r s = 1 := by
  unfold mask11
  exact GridSum.ite_zero_or_one _

/-- What column block j adds to the accumulator's entry of row r and feature d (zero past the eight blocks). -/
noncomputable def blockTerm11 (V : Valuation τ sig (Elt Ideal)) (r : Fin 4096) (d : Fin 256) (j : ℕ) : EReal :=
  if hj : j < 8 then
    ∑ q : Fin 512, mask11 V r (GridSum.idx4096 ⟨j, hj⟩ q) * (xarr11 V (ix2 (GridSum.idx4096 ⟨j, hj⟩ q) d) : EReal)
  else 0

theorem blockTerm11_of_lt (V : Valuation τ sig (Elt Ideal)) (r : Fin 4096) (d : Fin 256) (j : ℕ) (hj : j < 8) :
    blockTerm11 V r d j
      = ∑ q : Fin 512, mask11 V r (GridSum.idx4096 ⟨j, hj⟩ q) * (xarr11 V (ix2 (GridSum.idx4096 ⟨j, hj⟩ q) d) : EReal) := by
  unfold blockTerm11
  exact dif_pos hj

/-- One step at point 8·i + j adds column block j's term to the entry of row 512·i + p. -/
theorem step11_apply (V : Valuation τ sig (Elt Ideal)) (c : Dev nD) (i : Fin 8) (j : ℕ) (hj : j < 8)
    (hn : 8 * (i : ℕ) + j < cfg11.N) (a : Vec Ideal S512x256 .f32) (p : Fin 512) (d : Fin 256) :
    (step11 V c (8 * (i : ℕ) + j) hn a (ix2 p d) : EReal) = (a (ix2 p d) : EReal) + blockTerm11 V (GridSum.idx4096 i p) d j := by
  have hi : (i : ℕ) < 8 := i.isLt
  have e := k11_pay2_apply (hi11 V c ⟨8 * (i : ℕ) + j, hn⟩) (hj11 V c ⟨8 * (i : ℕ) + j, hn⟩) (mb11 V c ⟨8 * (i : ℕ) + j, hn⟩)
    (xj11 V c ⟨8 * (i : ℕ) + j, hn⟩) a p d
  rw [blockTerm11_of_lt V _ d j hj]
  refine e.trans ?_
  congr 1
  refine Finset.sum_congr rfl fun q _ => ?_
  rw [mb11_apply V c ⟨8 * (i : ℕ) + j, hn⟩ (ix2 (0 : Fin 1) (0 : Fin 1)),
    xj11_apply V c ⟨8 * (i : ℕ) + j, hn⟩ (ix2 q d) (ix2 (GridSum.idx4096 ⟨j, hj⟩ q) d)
      (by show 512 * j + (q : ℕ) = 512 * ((8 * (i : ℕ) + j) % 8) + (q : ℕ); omega) rfl]
  congr 1
  unfold mask11 gram11
  have hs : (∑ k : Fin 256, (hi11 V c ⟨8 * (i : ℕ) + j, hn⟩ (ix2 p k) : EReal) * (hj11 V c ⟨8 * (i : ℕ) + j, hn⟩ (ix2 q k) : EReal))
      = ∑ k : Fin 256, (harr11 V (ix2 (GridSum.idx4096 i p) k) : EReal) * (harr11 V (ix2 (GridSum.idx4096 ⟨j, hj⟩ q) k) : EReal) :=
    Finset.sum_congr rfl fun k _ => by
      rw [hi11_apply V c ⟨8 * (i : ℕ) + j, hn⟩ (ix2 p k) (ix2 (GridSum.idx4096 i p) k)
          (by show 512 * (i : ℕ) + (p : ℕ) = 512 * ((8 * (i : ℕ) + j) / 8) + (p : ℕ); omega) rfl,
        hj11_apply V c ⟨8 * (i : ℕ) + j, hn⟩ (ix2 q k) (ix2 (GridSum.idx4096 ⟨j, hj⟩ q) k)
          (by show 512 * j + (q : ℕ) = 512 * ((8 * (i : ℕ) + j) % 8) + (q : ℕ); omega) rfl]
  rw [hs]

/-- The reset value at point 8·i + j is 1 times the entry of x at row 512·i + p. -/
theorem init11_apply (V : Valuation τ sig (Elt Ideal)) (c : Dev nD) (i : Fin 8) (j : ℕ) (hj : j < 8)
    (hn : 8 * (i : ℕ) + j < cfg11.N) (p : Fin 512) (d : Fin 256) :
    (init11 V c (8 * (i : ℕ) + j) hn (ix2 p d) : EReal) = 1 * (xarr11 V (ix2 (GridSum.idx4096 i p) d) : EReal) := by
  have hi : (i : ℕ) < 8 := i.isLt
  have e := k11_pay1_apply (xi11 V c ⟨8 * (i : ℕ) + j, hn⟩) p d
  refine e.trans ?_
  rw [xi11_apply V c ⟨8 * (i : ℕ) + j, hn⟩ (ix2 p d) (ix2 (GridSum.idx4096 i p) d)
    (by show 512 * (i : ℕ) + (p : ℕ) = 512 * ((8 * (i : ℕ) + j) / 8) + (p : ℕ); omega) rfl]

/-- After point 8·i + j the accumulator's entry of row r = 512·i + p holds 1·x r with the terms of the column blocks
    0 … j added one by one. -/
theorem acc11_apply (V : Valuation τ sig (Elt Ideal)) (c : Dev nD) (i : Fin 8) (p : Fin 512) (d : Fin 256) :
    ∀ (j : ℕ) (hj : j < 8) (hn : 8 * (i : ℕ) + j < cfg11.N),
      (acc11 V c (8 * (i : ℕ) + j) hn (ix2 p d) : EReal)
        = GridSum.accFold (1 * (xarr11 V (ix2 (GridSum.idx4096 i p) d) : EReal)) (blockTerm11 V (GridSum.idx4096 i p) d) (j + 1)
  | 0, hj, hn => by
    rw [acc11_row_zero V c (i : ℕ) hn, step11_apply V c i 0 hj hn _ p d, init11_apply V c i 0 hj hn p d,
      GridSum.accFold_succ, GridSum.accFold_zero]
  | j + 1, hj, hn => by
    rw [acc11_row_succ V c (i : ℕ) j hj hn, step11_apply V c i (j + 1) hj hn _ p d,
      acc11_apply V c i p d j (by omega) (by omega), GridSum.accFold_succ _ _ (j + 1)]

/-- THE AGGREGATION KERNEL'S VALUE at the last point of row block i: the entry of row r = 512·i + p and feature d is
    1·x r d plus the sum over all 4096 rows s of mask r s · x s d. -/
theorem acc11_last_apply (V : Valuation τ sig (Elt Ideal)) (c : Dev nD) (i : Fin 8) (p : Fin 512) (d : Fin 256)
    (hn : 8 * (i : ℕ) + 7 < cfg11.N) :
    (acc11 V c (8 * (i : ℕ) + 7) hn (ix2 p d) : EReal)
      = 1 * (xarr11 V (ix2 (GridSum.idx4096 i p) d) : EReal)
        + ∑ s : Fin 4096, mask11 V (GridSum.idx4096 i p) s * (xarr11 V (ix2 s d) : EReal) := by
  rw [acc11_apply V c i p d 7 (by omega) hn, GridSum.accFold_eq_sum,
    GridSum.sum_range_fin (blockTerm11 V (GridSum.idx4096 i p) d)
      (fun j : Fin 8 => ∑ q : Fin 512, mask11 V (GridSum.idx4096 i p) (GridSum.idx4096 j q) * (xarr11 V (ix2 (GridSum.idx4096 j q) d) : EReal))
      (fun j => blockTerm11_of_lt V _ d (j : ℕ) j.isLt),
    GridSum.sum_blocks GridSum.eight_mul (fun s : Fin 4096 => mask11 V (GridSum.idx4096 i p) s * (xarr11 V (ix2 s d) : EReal))]

/-! ## The output array after the run -/

section Array

variable {F : FTy → Type} [FloatOps F]
variable {Ix : Type} [DecidableEq Ix] {U : Type} [URA U] {Lvl : Type}

/-- The output window's block at point t is rows 512·(t / 8) … of the output array. -/
theorem oblk11_apply (c : Dev nD) (X : Buf (Elt F) ((cfg11.win 5).arr.view.loc (c.tc : Thread nD τ))) (t : Fin cfg11.N)
    (y : S512x256.Idx) (k : S4096x256.Idx) (hkr : (k 0).val = 512 * (t.val / 8) + (y 0).val) (hkc : (k 1).val = (y 1).val) :
    (((cfg11.win 5).blk t).view.read (Elt F) X : Vec F S512x256 .f32) y = (X : S4096x256.Idx → Elt F .f32) k := by
  obtain ⟨-, -, -, -, -, ⟨hA, hB⟩⟩ := idx_facts11 t
  rw [View.read_apply]
  have e : ((cfg11.win 5).blk t).view.emb y = k := by
    funext a
    apply Fin.ext
    match a with
    | ⟨0, _⟩ => show win11_5.index t 0 * 512 + 1 * (y 0).val = (k 0).val; rw [hA, hkr]; omega
    | ⟨1, _⟩ => show win11_5.index t 1 * 256 + 1 * (y 1).val = (k 1).val; rw [hB, hkc]; omega
  exact congrArg X e

/-- After the whole grid the output array's entry of row 512·i + p is what the accumulator held, at row p, after the
    last point of row block i. -/
theorem arrAt11_5_block (V : Valuation τ sig (Elt F)) (c : Dev nD) (i : Fin 8) (p : Fin 512) (d : Fin 256)
    (hn : 8 * (i : ℕ) + 7 < cfg11.N) :
    ((dat11 (Ix := Ix) (U := U) (Lvl := Lvl) V c).arrAt 5 64 : S4096x256.Idx → Elt F .f32) (ix2 (GridSum.idx4096 i p) d)
      = (acc11 V c (8 * (i : ℕ) + 7) hn : Vec F S512x256 .f32) (ix2 p d) := by
  have hi : (i : ℕ) < 8 := i.isLt
  refine (oblk11_apply c ((dat11 (Ix := Ix) (U := U) (Lvl := Lvl) V c).arrAt 5 64) ⟨8 * (i : ℕ) + 7, hn⟩ (ix2 p d)
    (ix2 (GridSum.idx4096 i p) d)
    (by show 512 * (i : ℕ) + (p : ℕ) = 512 * ((8 * (i : ℕ) + 7) / 8) + (p : ℕ); omega) rfl).symm.trans ?_
  exact congrFun (out11_block (Ix := Ix) (U := U) (Lvl := Lvl) V c ⟨8 * (i : ℕ) + 7, hn⟩
    (by show (8 * (i : ℕ) + 7) % 8 = 7; omega)) (ix2 p d)

/-- THE AGGREGATION KERNEL'S OUTPUT ARRAY at the ideal values: the entry of row r and feature d is 1·x r d plus the sum
    over all rows s of mask r s · x s d, the mask being 1 where the Gram matrix of the rows of h is above the threshold. -/
theorem arrAt11_5_value (V : Valuation τ sig (Elt Ideal)) (c : Dev nD) (r : Fin 4096) (d : Fin 256) :
    (((dat11 (Ix := Ix) (U := U) (Lvl := Lvl) V c).arrAt 5 64 : S4096x256.Idx → Elt Ideal .f32) (ix2 r d) : EReal)
      = 1 * (xarr11 V (ix2 r d) : EReal) + ∑ s : Fin 4096, mask11 V r s * (xarr11 V (ix2 s d) : EReal) := by
  have hN : cfg11.N = 64 := N_11
  obtain ⟨i, p, rfl⟩ := GridSum.exists_idx4096 r
  have hi : (i : ℕ) < 8 := i.isLt
  have hn : 8 * (i : ℕ) + 7 < cfg11.N := by omega
  exact (arrAt11_5_block (Ix := Ix) (U := U) (Lvl := Lvl) V c i p d hn).trans (acc11_last_apply V c i p d hn)

/-- The same with the diagonal folded into the mask: Σ_s (mask r s + δ r s) · x s d, the aggregate law of zeros and ones
    on the extended reals. -/
theorem arrAt11_5_agg (V : Valuation τ sig (Elt Ideal)) (c : Dev nD) (r : Fin 4096) (d : Fin 256) :
    (((dat11 (Ix := Ix) (U := U) (Lvl := Lvl) V c).arrAt 5 64 : S4096x256.Idx → Elt Ideal .f32) (ix2 r d) : EReal)
      = ∑ s : Fin 4096, (mask11 V r s + (if r = s then 1 else 0)) * (xarr11 V (ix2 s d) : EReal) :=
  (arrAt11_5_value (Ix := Ix) (U := U) (Lvl := Lvl) V c r d).trans
    (GridSum.aggregate_law_ite (mask11 V) (fun s => (xarr11 V (ix2 s d) : EReal)) (mask11_zero_or_one V) r)

/-- The same as an equation of arrays: the output array is the closed form aggVal of the threshold cell, h and x. -/
theorem region11_value (V : Valuation τ sig (Elt Ideal)) (c : Dev nD) :
    ((dat11 (Ix := Ix) (U := U) (Lvl := Lvl) V c).arrAt 5 64 : S4096x256.Idx → Elt Ideal .f32)
      = Cert.Hand.aggVal (marr11 V) (harr11 V) (xarr11 V) := by
  funext j
  obtain ⟨r, d, rfl⟩ : ∃ (r : Fin 4096) (d : Fin 256), j = ix2 r d := ⟨j 0, j 1, eq_ix2 j⟩
  exact arrAt11_5_value (Ix := Ix) (U := U) (Lvl := Lvl) V c r d

end Array

end Cert.KernelIdeal.Hand

end
-- ==== Proof.RgV12.lean ====
import Idealize.ShloMosaic.Lib.Pipeline.Value
import proofs.«169706_j68856915690108_1_alg».proof.Proof.UnitIdx
import proofs.«169706_j68856915690108_1_alg».proof.Proof.AggVal
import proofs.«169706_j68856915690108_1_alg».proof.Proof.TileValue
import proofs.«169706_j68856915690108_1_alg».proof.Proof.LibGridSum
import Idealize.ShloMosaic.Lib.ValueIdx
import proofs.«169706_j68856915690108_1_alg».proof.Proof.Rg12

/-! # part: SumValue -/
/-
  Region 0 (the tile-sum kernel): what the run leaves in the output array.

  The output window's block is the whole 1 × 1 output array, and it is written back once, after the last of the 64
  points. So after the whole grid the output array's one cell holds what the scratch cell held after point 63: the sum
  of all 64 tiles.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The one write-back -/

/-- Only the last point writes the output block back, so no two different points do. -/
theorem disj12_2 (t t' : Fin cfg12.N) (hf : (cfg12.win 2).flush t = true) (hf' : (cfg12.win 2).flush t' = true)
    (hne : t ≠ t') : Disjoint ((cfg12.win 2).blk t).view.set ((cfg12.win 2).blk t').view.set := by
  have hN : cfg12.N = 64 := N_12
  have h := (flush12_2 t).mp hf
  have h' := (flush12_2 t').mp hf'
  have := t.isLt; have := t'.isLt
  exact absurd (Fin.ext (by omega)) hne

/-- The grid has a point 63, its last. -/
theorem last12_lt : 63 < cfg12.N := by decide

/-- The last point writes the output block back. -/
theorem flush12_2_last : (cfg12.win 2).flush ⟨63, last12_lt⟩ = true := (flush12_2 _).mpr (by decide)

/-! ## The output array after the run -/

/-- After the whole grid, the output block read back through the window holds what the scratch cell held after the
    last point. -/
theorem out12_block (V : Valuation τ sig (Elt F)) (c : Dev nD) :
    ((cfg12.win 2).blk ⟨63, last12_lt⟩).view.read (Elt F) ((dat12 (Ix := Ix) (U := U) (Lvl := Lvl) V c).arrAt 2 64)
      = acc12 V c 63 last12_lt :=
  ((dat12 (Ix := Ix) (U := U) (Lvl := Lvl) V c).read_blk_arrAt_eq_flushed 2 disj12_2 64 ⟨63, last12_lt⟩ (by decide)
    flush12_2_last).trans (after12_2 V c ⟨63, last12_lt⟩)

/-- The output array after the whole grid, cell by cell: what the scratch cell held after the last point. -/
theorem arrAt12_2_apply (V : Valuation τ sig (Elt F)) (c : Dev nD) (i : S1x1.Idx) :
    ((dat12 (Ix := Ix) (U := U) (Lvl := Lvl) V c).arrAt 2 64 : S1x1.Idx → Elt F .f32) i = acc12 V c 63 last12_lt i := by
  have h := congrFun (out12_block (Ix := Ix) (U := U) (Lvl := Lvl) V c) i
  rw [View.read_apply] at h
  rw [← h, unit_idx_eq (((cfg12.win 2).blk ⟨63, last12_lt⟩).view.emb i) i]
  rfl

/-- The output array after the whole grid, as a 1 × 1 vector. -/
theorem arrAt12_2 (V : Valuation τ sig (Elt F)) (c : Dev nD) :
    ((dat12 (Ix := Ix) (U := U) (Lvl := Lvl) V c).arrAt 2 64 : S1x1.Idx → Elt F .f32) = acc12 V c 63 last12_lt :=
  funext fun i => arrAt12_2_apply V c i

end Cert.KernelIdeal.Hand

end

/-! # part: RegionValue0 -/
/-
  Region 0 (the tile-sum kernel) read as a value: the cell it accumulates ends at the sum of the whole Gram matrix.

  The grid is 8 × 8, walked row by row: point t = 8·i + j stages rows 512·i … 512·i + 511 of the 4096 × 256 array h
  through its first window and rows 512·j … of the same array through its second (idx_facts12, hi12_apply, hj12_apply).
  At the ideal values the step of one point adds to the 1 × 1 cell the sum of the 512 × 512 tile
  Σ_p Σ_q Σ_k h (512·i + p) k · h (512·j + q) k, and the cell starts from zero, so after point n it holds the tile sums
  of the points 0 … n added one by one (acc12_apply). The 64 tiles are exactly the 8 × 8 tiling of the 4096 × 4096 Gram
  matrix G r s = Σ_k h r k · h s k (tile12_grid), and on the extended reals addition is commutative and associative, so
  after the last point the cell holds Σ_r Σ_s G r s (acc12_last_apply): no finiteness of h is needed. The one write-back, after
  the last point, copies the cell into the 1 × 1 output array (arrAt12_2_value, region12_value).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the array -/

/-- Point t = 8·i + j of the 8 × 8 grid stages rows block i = t / 8 through window 0, rows block j = t % 8 through
    window 1, and the one cell through window 2. -/
theorem idx_facts12 : ∀ t : Fin cfg12.N,
    win12_0.index t 0 = t.val / 8 ∧ win12_0.index t 1 = 0 ∧ win12_1.index t 0 = t.val % 8 ∧ win12_1.index t 1 = 0
      ∧ win12_2.index t 0 = 0 ∧ win12_2.index t 1 = 0 :=
  (by decide +kernel : ∀ t : Fin grid12.N,
    win12_0.index t 0 = t.val / 8 ∧ win12_0.index t 1 = 0 ∧ win12_1.index t 0 = t.val % 8 ∧ win12_1.index t 1 = 0
      ∧ win12_2.index t 0 = 0 ∧ win12_2.index t 1 = 0)

section AnyF

variable {F : FTy → Type} [FloatOps F]

/-- The array h both input windows read: the region-entry contents of the first window's array. -/
abbrev harr12 (V : Valuation τ sig (Elt F)) : Vec F S4096x256 .f32 := V (Proc.devRef .tc main_v438)

/-- The block of h window 0 stages at point t, as a 512 × 256 array. -/
abbrev hi12 (V : Valuation τ sig (Elt F)) (c : Dev nD) (t : Fin cfg12.N) : Vec F S512x256 .f32 := iblk12 V c 0 t
/-- The block of h window 1 stages at point t, as a 512 × 256 array. -/
abbrev hj12 (V : Valuation τ sig (Elt F)) (c : Dev nD) (t : Fin cfg12.N) : Vec F S512x256 .f32 := iblk12 V c 1 t

/-- Window 0's block at point t is rows 512·(t / 8) … of h. -/
theorem hi12_apply (V : Valuation τ sig (Elt F)) (c : Dev nD) (t : Fin cfg12.N) (y : S512x256.Idx) (k : S4096x256.Idx)
    (hkr : (k 0).val = 512 * (t.val / 8) + (y 0).val) (hkc : (k 1).val = (y 1).val) :
    hi12 V c t y = harr12 V k := by
  obtain ⟨hA, hB, -, -, -, -⟩ := idx_facts12 t
  show (iblk12 V c 0 t : Vec F S512x256 .f32) y = _
  unfold iblk12
  rw [View.read_apply]
  show V (Proc.devRef .tc main_v438) _ = V (Proc.devRef .tc main_v438) _
  congr 1
  funext a
  apply Fin.ext
  match a with
  | ⟨0, _⟩ => show win12_0.index t 0 * 512 + 1 * (y 0).val = (k 0).val; rw [hA, hkr]; omega
  | ⟨1, _⟩ => show win12_0.index t 1 * 256 + 1 * (y 1).val = (k 1).val; rw [hB, hkc]; omega

/-- Window 1's block at point t is rows 512·(t % 8) … of h. -/
theorem hj12_apply (V : Valuation τ sig (Elt F)) (c : Dev nD) (t : Fin cfg12.N) (y : S512x256.Idx) (k : S4096x256.Idx)
    (hkr : (k 0).val = 512 * (t.val % 8) + (y 0).val) (hkc : (k 1).val = (y 1).val) :
    hj12 V c t y = harr12 V k := by
  obtain ⟨-, -, hA, hB, -, -⟩ := idx_facts12 t
  show (iblk12 V c 1 t : Vec F S512x256 .f32) y = _
  unfold iblk12
  rw [View.read_apply]
  show V (Proc.devRef .tc main_v438) _ = V (Proc.devRef .tc main_v438) _
  congr 1
  funext a
  apply Fin.ext
  match a with
  | ⟨0, _⟩ => show win12_1.index t 0 * 512 + 1 * (y 0).val = (k 0).val; rw [hA, hkr]; omega
  | ⟨1, _⟩ => show win12_1.index t 1 * 256 + 1 * (y 1).val = (k 1).val; rw [hB, hkc]; omega

end AnyF

/-! ## The accumulated cell at the ideal values -/

/-- The Gram matrix of the rows of h: entry (r, s) is the sum over the 256 columns of the products. -/
noncomputable def gram12 (V : Valuation τ sig (Elt Ideal)) (r s : Fin 4096) : EReal :=
  ∑ k : Fin 256, (harr12 V (ix2 r k) : EReal) * (harr12 V (ix2 s k) : EReal)

/-- The sum of the 512 × 512 tile the point t stages (zero past the grid). -/
noncomputable def tile12 (V : Valuation τ sig (Elt Ideal)) (c : Dev nD) (t : ℕ) : EReal :=
  if ht : t < cfg12.N then
    ∑ p : Fin 512, ∑ q : Fin 512, ∑ k : Fin 256, (hi12 V c ⟨t, ht⟩ (ix2 p k) : EReal) * (hj12 V c ⟨t, ht⟩ (ix2 q k) : EReal)
  else 0

theorem tile12_of_lt (V : Valuation τ sig (Elt Ideal)) (c : Dev nD) (t : ℕ) (ht : t < cfg12.N) :
    tile12 V c t
      = ∑ p : Fin 512, ∑ q : Fin 512, ∑ k : Fin 256, (hi12 V c ⟨t, ht⟩ (ix2 p k) : EReal) * (hj12 V c ⟨t, ht⟩ (ix2 q k) : EReal) := by
  unfold tile12
  exact dif_pos ht

/-- After point n the cell holds the tile sums of the points 0 … n added one by one onto zero. -/
theorem acc12_apply (V : Valuation τ sig (Elt Ideal)) (c : Dev nD) :
    ∀ (n : ℕ) (hn : n < cfg12.N) (a b : Fin 1),
      ((acc12 V c n hn : Vec Ideal S1x1 .f32) (ix2 a b) : EReal) = GridSum.accFold 0 (tile12 V c) (n + 1)
  | 0, hn, a, b => by
    have e := k12_pay2_apply (hi12 V c ⟨0, hn⟩) (hj12 V c ⟨0, hn⟩) (k12_pay1 (F := Ideal)) a b
    rw [k12_pay1_apply] at e
    rw [GridSum.accFold_succ, GridSum.accFold_zero, tile12_of_lt V c 0 hn]
    exact e
  | n + 1, hn, a, b => by
    have e := k12_pay2_apply (hi12 V c ⟨n + 1, hn⟩) (hj12 V c ⟨n + 1, hn⟩) (acc12 V c n (Nat.lt_of_succ_lt hn)) a b
    rw [acc12_apply V c n (Nat.lt_of_succ_lt hn) a b] at e
    rw [GridSum.accFold_succ _ _ (n + 1), tile12_of_lt V c (n + 1) hn]
    exact e

/-- The tile of point 8·i + j is the 512 × 512 tile (i, j) of the Gram matrix. -/
theorem tile12_grid (V : Valuation τ sig (Elt Ideal)) (c : Dev nD) (i j : Fin 8) :
    tile12 V c (8 * (i : ℕ) + (j : ℕ))
      = ∑ p : Fin 512, ∑ q : Fin 512, gram12 V (GridSum.idx4096 i p) (GridSum.idx4096 j q) := by
  have hi : (i : ℕ) < 8 := i.isLt
  have hj : (j : ℕ) < 8 := j.isLt
  have hN : cfg12.N = 64 := N_12
  have ht : 8 * (i : ℕ) + (j : ℕ) < cfg12.N := by omega
  rw [tile12_of_lt V c _ ht]
  refine Finset.sum_congr rfl fun p _ => Finset.sum_congr rfl fun q _ => ?_
  unfold gram12
  refine Finset.sum_congr rfl fun k _ => ?_
  rw [hi12_apply V c ⟨_, ht⟩ (ix2 p k) (ix2 (GridSum.idx4096 i p) k)
      (by show 512 * (i : ℕ) + (p : ℕ) = 512 * ((8 * (i : ℕ) + (j : ℕ)) / 8) + (p : ℕ); omega) rfl,
    hj12_apply V c ⟨_, ht⟩ (ix2 q k) (ix2 (GridSum.idx4096 j q) k)
      (by show 512 * (j : ℕ) + (q : ℕ) = 512 * ((8 * (i : ℕ) + (j : ℕ)) % 8) + (q : ℕ); omega) rfl]

/-- THE SUM KERNEL'S VALUE. After the last point the cell holds the sum of the whole 4096 × 4096 Gram matrix of the
    rows of h: the 64 tile sums, taken in the grid's row-major order, add up to the sum over all pairs of rows. -/
theorem acc12_last_apply (V : Valuation τ sig (Elt Ideal)) (c : Dev nD) (hlast : 63 < cfg12.N) (a b : Fin 1) :
    ((acc12 V c 63 hlast : Vec Ideal S1x1 .f32) (ix2 a b) : EReal)
      = ∑ r : Fin 4096, ∑ s : Fin 4096, ∑ k : Fin 256, (harr12 V (ix2 r k) : EReal) * (harr12 V (ix2 s k) : EReal) := by
  rw [acc12_apply V c 63 hlast a b, GridSum.accFold_tiles_4096 (gram12 V) 0 (tile12 V c) (tile12_grid V c), zero_add]
  rfl

/-! ## The output array after the run -/

section Array

variable {Ix : Type} [DecidableEq Ix] {U : Type} [URA U] {Lvl : Type}

/-- THE SUM KERNEL'S OUTPUT ARRAY at the ideal values: after the whole grid its one cell holds the sum of the whole
    4096 × 4096 Gram matrix of the rows of h. -/
theorem arrAt12_2_value (V : Valuation τ sig (Elt Ideal)) (c : Dev nD) (a b : Fin 1) :
    (((dat12 (Ix := Ix) (U := U) (Lvl := Lvl) V c).arrAt 2 64 : S1x1.Idx → Elt Ideal .f32) (ix2 a b) : EReal)
      = ∑ r : Fin 4096, ∑ s : Fin 4096, ∑ k : Fin 256, (harr12 V (ix2 r k) : EReal) * (harr12 V (ix2 s k) : EReal) :=
  (arrAt12_2_apply (Ix := Ix) (U := U) (Lvl := Lvl) V c (ix2 a b)).trans (acc12_last_apply V c (by decide) a b)

/-- The same as an equation of arrays: the output array is the closed form sumVal of h. -/
theorem region12_value (V : Valuation τ sig (Elt Ideal)) (c : Dev nD) :
    ((dat12 (Ix := Ix) (U := U) (Lvl := Lvl) V c).arrAt 2 64 : S1x1.Idx → Elt Ideal .f32) = Cert.Hand.sumVal (harr12 V) := by
  funext i
  obtain ⟨a, b, rfl⟩ : ∃ (a b : Fin 1), i = ix2 a b := ⟨i 0, i 1, eq_ix2 i⟩
  exact arrAt12_2_value (Ix := Ix) (U := U) (Lvl := Lvl) V c a b

end Array

end Cert.KernelIdeal.Hand

end
-- ==== Proof.RgV13.lean ====
import Idealize.ShloMosaic.Lib.Pipeline.Value
import proofs.«169706_j68856915690108_1_alg».proof.Proof.TileValue
import proofs.«169706_j68856915690108_1_alg».proof.Proof.LibGridSum
import proofs.«169706_j68856915690108_1_alg».proof.Proof.RegionValueLib
import proofs.«169706_j68856915690108_1_alg».proof.Proof.AggVal
import Idealize.ShloMosaic.Lib.ValueIdx
import proofs.«169706_j68856915690108_1_alg».proof.Proof.Rg13

/-! # part: ApplyOut -/
/-
  Region 1 (the aggregation kernel): what the run leaves in the output array.

  The accumulator after point t is the fold over the run of eight points that t lies in (the points 8·(t / 8) …
  8·(t / 8) + 7 share the row block i = t / 8): reset and stepped at the run's first point, stepped at each later one.
  The output window's block at point t is row block t / 8 of the output array, written back at the run's last point
  only (t % 8 = 7); two such points have different row blocks, so their blocks of the array are disjoint, and after
  the whole grid block i of the output array holds what the accumulator held after point 8·i + 7.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The accumulator as a fold over its run -/

/-- The accumulator after point `t` is the fold over the run of eight points `t` lies in, up to `t`. -/
theorem acc13_fold (V : Valuation τ sig (Elt F)) (c : Dev nD) (t : ℕ) (ht : t < cfg13.N)
    (h' : 8 * (t / 8) + t % 8 < cfg13.N) :
    acc13 V c t ht = Pipeline.accAt (fun n h => step13 V c n h (init13 V c n h)) (fun n h a => step13 V c n h a)
      (8 * (t / 8)) (t % 8) h' :=
  Pipeline.eq_accAt_of_mod (acc13 V c) 8 (fun n h => step13 V c n h (init13 V c n h)) (fun n h a => step13 V c n h a)
    (fun n h h0 => acc13_reset V c n h h0) (fun n h h0 => if_neg h0) (by decide) t ht h'

/-! ## The output window's blocks -/

/-- The output window's block index along the rows at point `t` is `t / 8`. -/
theorem idx13_5 : ∀ t : Fin cfg13.N, win13_5.index t (0 : Fin 2) = t.val / 8 :=
  (by decide +kernel : ∀ t : Fin grid13.N, win13_5.index t (0 : Fin 2) = t.val / 8)

/-- Two different points that write the output block back write disjoint blocks of the array. -/
theorem disj13_5 (t t' : Fin cfg13.N) (hf : (cfg13.win 5).flush t = true) (hf' : (cfg13.win 5).flush t' = true)
    (hne : t ≠ t') : Disjoint ((cfg13.win 5).blk t).view.set ((cfg13.win 5).blk t').view.set := by
  refine (cfg13.win 5).disjoint_blk fun h => hne (Fin.ext ?_)
  have h0 : win13_5.index t (0 : Fin 2) = win13_5.index t' (0 : Fin 2) := congrFun h (0 : Fin 2)
  rw [idx13_5 t, idx13_5 t'] at h0
  have h7 := (flush13_5 t).mp hf
  have h7' := (flush13_5 t').mp hf'
  omega

/-! ## The output array after the run -/

/-- After the whole grid, the block of the output array under a point that writes back (`t % 8 = 7`) holds what the
    accumulator held after that point. -/
theorem out13_block (V : Valuation τ sig (Elt F)) (c : Dev nD) (t : Fin cfg13.N) (ht : t.val % 8 = 7) :
    ((cfg13.win 5).blk t).view.read (Elt F) ((dat13 (Ix := Ix) (U := U) (Lvl := Lvl) V c).arrAt 5 64)
      = acc13 V c t.val t.isLt := by
  have hN : cfg13.N = 64 := N_13
  have hlt : t.val < 64 := Nat.lt_of_lt_of_eq t.isLt hN
  exact ((dat13 (Ix := Ix) (U := U) (Lvl := Lvl) V c).read_blk_arrAt_eq_flushed 5 disj13_5 64 t hlt
    ((flush13_5 t).mpr ht)).trans (after13_5 V c t)

end Cert.KernelIdeal.Hand

end

/-! # part: RegionValue1 -/
/-
  Region 1 (the aggregation kernel) read as a value: row r of its output is 1·x r plus the masked sum over all rows.

  The grid is 8 × 8, walked row by row: point t = 8·i + j stages the one threshold cell, rows 512·i … of the 4096 × 256
  arrays h and x (row block i) and rows 512·j … of the same two arrays (row block j) (idx_facts13 and the block reads
  mb13_apply … xj13_apply). At the ideal values the reset at j = 0 leaves 1·x r in the accumulator's entry of row
  r = 512·i + p (init13_apply), and the step of point 8·i + j adds Σ_q mask r (512·j + q) · x (512·j + q), the mask
  being 1 where the Gram matrix G r s = Σ_k h r k · h s k is above the threshold and 0 elsewhere (step13_apply). So after
  the eight points of row block i the entry holds 1·x r with the eight column blocks' terms added one by one
  (acc13_apply), which is 1·x r + Σ_s mask r s · x s over all 4096 rows s (acc13_last_apply): the eight blocks of 512 tile
  the 4096 columns, and addition on the extended reals is commutative and associative. The write-back at j = 7 puts
  that row block into the output array (arrAt13_5_block, arrAt13_5_value), and because the mask's entries are zeros and
  ones the diagonal term can be folded in: Σ_s (mask r s + δ r s) · x s (arrAt13_5_agg).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the arrays -/

/-- Point t = 8·i + j of the 8 × 8 grid stages: the one threshold cell (window 0), rows block i = t / 8 of h and of x
    (windows 1 and 3), rows block j = t % 8 of h and of x (windows 2 and 4), and writes rows block i of the output
    (window 5). -/
theorem idx_facts13 : ∀ t : Fin cfg13.N,
    (win13_0.index t 0 = 0 ∧ win13_0.index t 1 = 0) ∧ (win13_1.index t 0 = t.val / 8 ∧ win13_1.index t 1 = 0)
      ∧ (win13_2.index t 0 = t.val % 8 ∧ win13_2.index t 1 = 0) ∧ (win13_3.index t 0 = t.val / 8 ∧ win13_3.index t 1 = 0)
      ∧ (win13_4.index t 0 = t.val % 8 ∧ win13_4.index t 1 = 0) ∧ (win13_5.index t 0 = t.val / 8 ∧ win13_5.index t 1 = 0) :=
  (by decide +kernel : ∀ t : Fin grid13.N,
    (win13_0.index t 0 = 0 ∧ win13_0.index t 1 = 0) ∧ (win13_1.index t 0 = t.val / 8 ∧ win13_1.index t 1 = 0)
      ∧ (win13_2.index t 0 = t.val % 8 ∧ win13_2.index t 1 = 0) ∧ (win13_3.index t 0 = t.val / 8 ∧ win13_3.index t 1 = 0)
      ∧ (win13_4.index t 0 = t.val % 8 ∧ win13_4.index t 1 = 0) ∧ (win13_5.index t 0 = t.val / 8 ∧ win13_5.index t 1 = 0))

section AnyF

variable {F : FTy → Type} [FloatOps F]

/-- The threshold cell, the array h and the array x the region reads: region-entry contents. -/
abbrev marr13 (V : Valuation τ sig (Elt F)) : Vec F S1x1 .f32 := V (Proc.devRef .tc main_v441)
abbrev harr13 (V : Valuation τ sig (Elt F)) : Vec F S4096x256 .f32 := V (Proc.devRef .tc main_v438)
abbrev xarr13 (V : Valuation τ sig (Elt F)) : Vec F S4096x256 .f32 := V (Proc.devRef .tc main_arg2)

/-- The five input blocks at point t, each as an array of its literal shape. -/
abbrev mb13 (V : Valuation τ sig (Elt F)) (c : Dev nD) (t : Fin cfg13.N) : Vec F S1x1 .f32 := iblk13 V c 0 t
abbrev hi13 (V : Valuation τ sig (Elt F)) (c : Dev nD) (t : Fin cfg13.N) : Vec F S512x256 .f32 := iblk13 V c 1 t
abbrev hj13 (V : Valuation τ sig (Elt F)) (c : Dev nD) (t : Fin cfg13.N) : Vec F S512x256 .f32 := iblk13 V c 2 t
abbrev xi13 (V : Valuation τ sig (Elt F)) (c : Dev nD) (t : Fin cfg13.N) : Vec F S512x256 .f32 := iblk13 V c 3 t
abbrev xj13 (V : Valuation τ sig (Elt F)) (c : Dev nD) (t : Fin cfg13.N) : Vec F S512x256 .f32 := iblk13 V c 4 t

/-- Window 0's block is the threshold cell itself. -/
theorem mb13_apply (V : Valuation τ sig (Elt F)) (c : Dev nD) (t : Fin cfg13.N) (y : S1x1.Idx) :
    mb13 V c t y = marr13 V y := by
  obtain ⟨⟨hA, hB⟩, -, -, -, -, -⟩ := idx_facts13 t
  show (iblk13 V c 0 t : Vec F S1x1 .f32) y = _
  unfold iblk13
  rw [View.read_apply]
  show V (Proc.devRef .tc main_v441) _ = V (Proc.devRef .tc main_v441) _
  congr 1
  funext a
  apply Fin.ext
  match a with
  | ⟨0, _⟩ => show win13_0.index t 0 * 1 + 1 * (y 0).val = (y 0).val; rw [hA]; omega
  | ⟨1, _⟩ => show win13_0.index t 1 * 1 + 1 * (y 1).val = (y 1).val; rw [hB]; omega

/-- Window 1's block at point t is rows 512·(t / 8) … of h. -/
theorem hi13_apply (V : Valuation τ sig (Elt F)) (c : Dev nD) (t : Fin cfg13.N) (y : S512x256.Idx) (k : S4096x256.Idx)
    (hkr : (k 0).val = 512 * (t.val / 8) + (y 0).val) (hkc : (k 1).val = (y 1).val) :
    hi13 V c t y = harr13 V k := by
  obtain ⟨-, ⟨hA, hB⟩, -, -, -, -⟩ := idx_facts13 t
  show (iblk13 V c 1 t : Vec F S512x256 .f32) y = _
  unfold iblk13
  rw [View.read_apply]
  show V (Proc.devRef .tc main_v438) _ = V (Proc.devRef .tc main_v438) _
  congr 1
  funext a
  apply Fin.ext
  match a with
  | ⟨0, _⟩ => show win13_1.index t 0 * 512 + 1 * (y 0).val = (k 0).val; rw [hA, hkr]; omega
  | ⟨1, _⟩ => show win13_1.index t 1 * 256 + 1 * (y 1).val = (k 1).val; rw [hB, hkc]; omega

/-- Window 2's block at point t is rows 512·(t % 8) … of h. -/
theorem hj13_apply (V : Valuation τ sig (Elt F)) (c : Dev nD) (t : Fin cfg13.N) (y : S512x256.Idx) (k : S4096x256.Idx)
    (hkr : (k 0).val = 512 * (t.val % 8) + (y 0).val) (hkc : (k 1).val = (y 1).val) :
    hj13 V c t y = harr13 V k := by
  obtain ⟨-, -, ⟨hA, hB⟩, -, -, -⟩ := idx_facts13 t
  show (iblk13 V c 2 t : Vec F S512x256 .f32) y = _
  unfold iblk13
  rw [View.read_apply]
  show V (Proc.devRef .tc main_v438) _ = V (Proc.devRef .tc main_v438) _
  congr 1
  funext a
  apply Fin.ext
  match a with
  | ⟨0, _⟩ => show win13_2.index t 0 * 512 + 1 * (y 0).val = (k 0).val; rw [hA, hkr]; omega
  | ⟨1, _⟩ => show win13_2.index t 1 * 256 + 1 * (y 1).val = (k 1).val; rw [hB, hkc]; omega

/-- Window 3's block at point t is rows 512·(t / 8) … of x. -/
theorem xi13_apply (V : Valuation τ sig (Elt F)) (c : Dev nD) (t : Fin cfg13.N) (y : S512x256.Idx) (k : S4096x256.Idx)
    (hkr : (k 0).val = 512 * (t.val / 8) + (y 0).val) (hkc : (k 1).val = (y 1).val) :
    xi13 V c t y = xarr13 V k := by
  obtain ⟨-, -, -, ⟨hA, hB⟩, -, -⟩ := idx_facts13 t
  show (iblk13 V c 3 t : Vec F S512x256 .f32) y = _
  unfold iblk13
  rw [View.read_apply]
  show V (Proc.devRef .tc main_arg2) _ = V (Proc.devRef .tc main_arg2) _
  congr 1
  funext a
  apply Fin.ext
  match a with
  | ⟨0, _⟩ => show win13_3.index t 0 * 512 + 1 * (y 0).val = (k 0).val; rw [hA, hkr]; omega
  | ⟨1, _⟩ => show win13_3.index t 1 * 256 + 1 * (y 1).val = (k 1).val; rw [hB, hkc]; omega

/-- Window 4's block at point t is rows 512·(t % 8) … of x. -/
theorem xj13_apply (V : Valuation τ sig (Elt F)) (c : Dev nD) (t : Fin cfg13.N) (y : S512x256.Idx) (k : S4096x256.Idx)
    (hkr : (k 0).val = 512 * (t.val % 8) + (y 0).val) (hkc : (k 1).val = (y 1).val) :
    xj13 V c t y = xarr13 V k := by
  obtain ⟨-, -, -, -, ⟨hA, hB⟩, -⟩ := idx_facts13 t
  show (iblk13 V c 4 t : Vec F S512x256 .f32) y = _
  unfold iblk13
  rw [View.read_apply]
  show V (Proc.devRef .tc main_arg2) _ = V (Proc.devRef .tc main_arg2) _
  congr 1
  funext a
  apply Fin.ext
  match a with
  | ⟨0, _⟩ => show win13_4.index t 0 * 512 + 1 * (y 0).val = (k 0).val; rw [hA, hkr]; omega
  | ⟨1, _⟩ => show win13_4.index t 1 * 256 + 1 * (y 1).val = (k 1).val; rw [hB, hkc]; omega

/-- The accumulator after point n depends on n only through its value. -/
theorem acc13_congr (V : Valuation τ sig (Elt F)) (c : Dev nD) {n n' : ℕ} (e : n = n') (hn : n < cfg13.N) (hn' : n' < cfg13.N) :
    acc13 V c n hn = acc13 V c n' hn' := by
  subst e; rfl

/-- At the first point of row block i the accumulator is reset and stepped once … -/
theorem acc13_row_zero (V : Valuation τ sig (Elt F)) (c : Dev nD) (i : ℕ) (hn : 8 * i + 0 < cfg13.N) :
    acc13 V c (8 * i + 0) hn = step13 V c (8 * i + 0) hn (init13 V c (8 * i + 0) hn) :=
  acc13_reset V c (8 * i + 0) hn (by omega)

/-- … and at each later point of the row block it is stepped from what the point before left. -/
theorem acc13_row_succ (V : Valuation τ sig (Elt F)) (c : Dev nD) (i j : ℕ) (hj : j + 1 < 8) (hn : 8 * i + (j + 1) < cfg13.N) :
    acc13 V c (8 * i + (j + 1)) hn = step13 V c (8 * i + (j + 1)) hn (acc13 V c (8 * i + j) (by omega)) :=
  (acc13_step V c (8 * i + (j + 1)) hn (by omega)).trans
    (congrArg (step13 V c (8 * i + (j + 1)) hn) (acc13_congr V c (by omega) _ _))

end AnyF

/-! ## The accumulator at the ideal values -/

/-- The Gram matrix of the rows of h. -/
noncomputable def gram13 (V : Valuation τ sig (Elt Ideal)) (r s : Fin 4096) : EReal :=
  ∑ k : Fin 256, (harr13 V (ix2 r k) : EReal) * (harr13 V (ix2 s k) : EReal)

/-- The 0/1 mask: 1 where the Gram matrix's entry is above the threshold, else 0. -/
noncomputable def mask13 (V : Valuation τ sig (Elt Ideal)) (r s : Fin 4096) : EReal :=
  if (marr13 V (ix2 (0 : Fin 1) (0 : Fin 1)) : EReal) < gram13 V r s then 1 else 0

/-- The mask's entries are zero or one. -/
theorem mask13_zero_or_one (V : Valuation τ sig (Elt Ideal)) (r s : Fin 4096) : mask13 V r s = 0 ∨ mask13 V r s = 1 := by
  unfold mask13
  exact GridSum.ite_zero_or_one _

/-- What column block j adds to the accumulator's entry of row r and feature d (zero past the eight blocks). -/
noncomputable def blockTerm13 (V : Valuation τ sig (Elt Ideal)) (r : Fin 4096) (d : Fin 256) (j : ℕ) : EReal :=
  if hj : j < 8 then
    ∑ q : Fin 512, mask13 V r (GridSum.idx4096 ⟨j, hj⟩ q) * (xarr13 V (ix2 (GridSum.idx4096 ⟨j, hj⟩ q) d) : EReal)
  else 0

theorem blockTerm13_of_lt (V : Valuation τ sig (Elt Ideal)) (r : Fin 4096) (d : Fin 256) (j : ℕ) (hj : j < 8) :
    blockTerm13 V r d j
      = ∑ q : Fin 512, mask13 V r (GridSum.idx4096 ⟨j, hj⟩ q) * (xarr13 V (ix2 (GridSum.idx4096 ⟨j, hj⟩ q) d) : EReal) := by
  unfold blockTerm13
  exact dif_pos hj

/-- One step at point 8·i + j adds column block j's term to the entry of row 512·i + p. -/
theorem step13_apply (V : Valuation τ sig (Elt Ideal)) (c : Dev nD) (i : Fin 8) (j : ℕ) (hj : j < 8)
    (hn : 8 * (i : ℕ) + j < cfg13.N) (a : Vec Ideal S512x256 .f32) (p : Fin 512) (d : Fin 256) :
    (step13 V c (8 * (i : ℕ) + j) hn a (ix2 p d) : EReal) = (a (ix2 p d) : EReal) + blockTerm13 V (GridSum.idx4096 i p) d j := by
  have hi : (i : ℕ) < 8 := i.isLt
  have e := k13_pay2_apply (hi13 V c ⟨8 * (i : ℕ) + j, hn⟩) (hj13 V c ⟨8 * (i : ℕ) + j, hn⟩) (mb13 V c ⟨8 * (i : ℕ) + j, hn⟩)
    (xj13 V c ⟨8 * (i : ℕ) + j, hn⟩) a p d
  rw [blockTerm13_of_lt V _ d j hj]
  refine e.trans ?_
  congr 1
  refine Finset.sum_congr rfl fun q _ => ?_
  rw [mb13_apply V c ⟨8 * (i : ℕ) + j, hn⟩ (ix2 (0 : Fin 1) (0 : Fin 1)),
    xj13_apply V c ⟨8 * (i : ℕ) + j, hn⟩ (ix2 q d) (ix2 (GridSum.idx4096 ⟨j, hj⟩ q) d)
      (by show 512 * j + (q : ℕ) = 512 * ((8 * (i : ℕ) + j) % 8) + (q : ℕ); omega) rfl]
  congr 1
  unfold mask13 gram13
  have hs : (∑ k : Fin 256, (hi13 V c ⟨8 * (i : ℕ) + j, hn⟩ (ix2 p k) : EReal) * (hj13 V c ⟨8 * (i : ℕ) + j, hn⟩ (ix2 q k) : EReal))
      = ∑ k : Fin 256, (harr13 V (ix2 (GridSum.idx4096 i p) k) : EReal) * (harr13 V (ix2 (GridSum.idx4096 ⟨j, hj⟩ q) k) : EReal) :=
    Finset.sum_congr rfl fun k _ => by
      rw [hi13_apply V c ⟨8 * (i : ℕ) + j, hn⟩ (ix2 p k) (ix2 (GridSum.idx4096 i p) k)
          (by show 512 * (i : ℕ) + (p : ℕ) = 512 * ((8 * (i : ℕ) + j) / 8) + (p : ℕ); omega) rfl,
        hj13_apply V c ⟨8 * (i : ℕ) + j, hn⟩ (ix2 q k) (ix2 (GridSum.idx4096 ⟨j, hj⟩ q) k)
          (by show 512 * j + (q : ℕ) = 512 * ((8 * (i : ℕ) + j) % 8) + (q : ℕ); omega) rfl]
  rw [hs]

/-- The reset value at point 8·i + j is 1 times the entry of x at row 512·i + p. -/
theorem init13_apply (V : Valuation τ sig (Elt Ideal)) (c : Dev nD) (i : Fin 8) (j : ℕ) (hj : j < 8)
    (hn : 8 * (i : ℕ) + j < cfg13.N) (p : Fin 512) (d : Fin 256) :
    (init13 V c (8 * (i : ℕ) + j) hn (ix2 p d) : EReal) = 1 * (xarr13 V (ix2 (GridSum.idx4096 i p) d) : EReal) := by
  have hi : (i : ℕ) < 8 := i.isLt
  have e := k13_pay1_apply (xi13 V c ⟨8 * (i : ℕ) + j, hn⟩) p d
  refine e.trans ?_
  rw [xi13_apply V c ⟨8 * (i : ℕ) + j, hn⟩ (ix2 p d) (ix2 (GridSum.idx4096 i p) d)
    (by show 512 * (i : ℕ) + (p : ℕ) = 512 * ((8 * (i : ℕ) + j) / 8) + (p : ℕ); omega) rfl]

/-- After point 8·i + j the accumulator's entry of row r = 512·i + p holds 1·x r with the terms of the column blocks
    0 … j added one by one. -/
theorem acc13_apply (V : Valuation τ sig (Elt Ideal)) (c : Dev nD) (i : Fin 8) (p : Fin 512) (d : Fin 256) :
    ∀ (j : ℕ) (hj : j < 8) (hn : 8 * (i : ℕ) + j < cfg13.N),
      (acc13 V c (8 * (i : ℕ) + j) hn (ix2 p d) : EReal)
        = GridSum.accFold (1 * (xarr13 V (ix2 (GridSum.idx4096 i p) d) : EReal)) (blockTerm13 V (GridSum.idx4096 i p) d) (j + 1)
  | 0, hj, hn => by
    rw [acc13_row_zero V c (i : ℕ) hn, step13_apply V c i 0 hj hn _ p d, init13_apply V c i 0 hj hn p d,
      GridSum.accFold_succ, GridSum.accFold_zero]
  | j + 1, hj, hn => by
    rw [acc13_row_succ V c (i : ℕ) j hj hn, step13_apply V c i (j + 1) hj hn _ p d,
      acc13_apply V c i p d j (by omega) (by omega), GridSum.accFold_succ _ _ (j + 1)]

/-- THE AGGREGATION KERNEL'S VALUE at the last point of row block i: the entry of row r = 512·i + p and feature d is
    1·x r d plus the sum over all 4096 rows s of mask r s · x s d. -/
theorem acc13_last_apply (V : Valuation τ sig (Elt Ideal)) (c : Dev nD) (i : Fin 8) (p : Fin 512) (d : Fin 256)
    (hn : 8 * (i : ℕ) + 7 < cfg13.N) :
    (acc13 V c (8 * (i : ℕ) + 7) hn (ix2 p d) : EReal)
      = 1 * (xarr13 V (ix2 (GridSum.idx4096 i p) d) : EReal)
        + ∑ s : Fin 4096, mask13 V (GridSum.idx4096 i p) s * (xarr13 V (ix2 s d) : EReal) := by
  rw [acc13_apply V c i p d 7 (by omega) hn, GridSum.accFold_eq_sum,
    GridSum.sum_range_fin (blockTerm13 V (GridSum.idx4096 i p) d)
      (fun j : Fin 8 => ∑ q : Fin 512, mask13 V (GridSum.idx4096 i p) (GridSum.idx4096 j q) * (xarr13 V (ix2 (GridSum.idx4096 j q) d) : EReal))
      (fun j => blockTerm13_of_lt V _ d (j : ℕ) j.isLt),
    GridSum.sum_blocks GridSum.eight_mul (fun s : Fin 4096 => mask13 V (GridSum.idx4096 i p) s * (xarr13 V (ix2 s d) : EReal))]

/-! ## The output array after the run -/

section Array

variable {F : FTy → Type} [FloatOps F]
variable {Ix : Type} [DecidableEq Ix] {U : Type} [URA U] {Lvl : Type}

/-- The output window's block at point t is rows 512·(t / 8) … of the output array. -/
theorem oblk13_apply (c : Dev nD) (X : Buf (Elt F) ((cfg13.win 5).arr.view.loc (c.tc : Thread nD τ))) (t : Fin cfg13.N)
    (y : S512x256.Idx) (k : S4096x256.Idx) (hkr : (k 0).val = 512 * (t.val / 8) + (y 0).val) (hkc : (k 1).val = (y 1).val) :
    (((cfg13.win 5).blk t).view.read (Elt F) X : Vec F S512x256 .f32) y = (X : S4096x256.Idx → Elt F .f32) k := by
  obtain ⟨-, -, -, -, -, ⟨hA, hB⟩⟩ := idx_facts13 t
  rw [View.read_apply]
  have e : ((cfg13.win 5).blk t).view.emb y = k := by
    funext a
    apply Fin.ext
    match a with
    | ⟨0, _⟩ => show win13_5.index t 0 * 512 + 1 * (y 0).val = (k 0).val; rw [hA, hkr]; omega
    | ⟨1, _⟩ => show win13_5.index t 1 * 256 + 1 * (y 1).val = (k 1).val; rw [hB, hkc]; omega
  exact congrArg X e

/-- After the whole grid the output array's entry of row 512·i + p is what the accumulator held, at row p, after the
    last point of row block i. -/
theorem arrAt13_5_block (V : Valuation τ sig (Elt F)) (c : Dev nD) (i : Fin 8) (p : Fin 512) (d : Fin 256)
    (hn : 8 * (i : ℕ) + 7 < cfg13.N) :
    ((dat13 (Ix := Ix) (U := U) (Lvl := Lvl) V c).arrAt 5 64 : S4096x256.Idx → Elt F .f32) (ix2 (GridSum.idx4096 i p) d)
      = (acc13 V c (8 * (i : ℕ) + 7) hn : Vec F S512x256 .f32) (ix2 p d) := by
  have hi : (i : ℕ) < 8 := i.isLt
  refine (oblk13_apply c ((dat13 (Ix := Ix) (U := U) (Lvl := Lvl) V c).arrAt 5 64) ⟨8 * (i : ℕ) + 7, hn⟩ (ix2 p d)
    (ix2 (GridSum.idx4096 i p) d)
    (by show 512 * (i : ℕ) + (p : ℕ) = 512 * ((8 * (i : ℕ) + 7) / 8) + (p : ℕ); omega) rfl).symm.trans ?_
  exact congrFun (out13_block (Ix := Ix) (U := U) (Lvl := Lvl) V c ⟨8 * (i : ℕ) + 7, hn⟩
    (by show (8 * (i : ℕ) + 7) % 8 = 7; omega)) (ix2 p d)

/-- THE AGGREGATION KERNEL'S OUTPUT ARRAY at the ideal values: the entry of row r and feature d is 1·x r d plus the sum
    over all rows s of mask r s · x s d, the mask being 1 where the Gram matrix of the rows of h is above the threshold. -/
theorem arrAt13_5_value (V : Valuation τ sig (Elt Ideal)) (c : Dev nD) (r : Fin 4096) (d : Fin 256) :
    (((dat13 (Ix := Ix) (U := U) (Lvl := Lvl) V c).arrAt 5 64 : S4096x256.Idx → Elt Ideal .f32) (ix2 r d) : EReal)
      = 1 * (xarr13 V (ix2 r d) : EReal) + ∑ s : Fin 4096, mask13 V r s * (xarr13 V (ix2 s d) : EReal) := by
  have hN : cfg13.N = 64 := N_13
  obtain ⟨i, p, rfl⟩ := GridSum.exists_idx4096 r
  have hi : (i : ℕ) < 8 := i.isLt
  have hn : 8 * (i : ℕ) + 7 < cfg13.N := by omega
  exact (arrAt13_5_block (Ix := Ix) (U := U) (Lvl := Lvl) V c i p d hn).trans (acc13_last_apply V c i p d hn)

/-- The same with the diagonal folded into the mask: Σ_s (mask r s + δ r s) · x s d, the aggregate law of zeros and ones
    on the extended reals. -/
theorem arrAt13_5_agg (V : Valuation τ sig (Elt Ideal)) (c : Dev nD) (r : Fin 4096) (d : Fin 256) :
    (((dat13 (Ix := Ix) (U := U) (Lvl := Lvl) V c).arrAt 5 64 : S4096x256.Idx → Elt Ideal .f32) (ix2 r d) : EReal)
      = ∑ s : Fin 4096, (mask13 V r s + (if r = s then 1 else 0)) * (xarr13 V (ix2 s d) : EReal) :=
  (arrAt13_5_value (Ix := Ix) (U := U) (Lvl := Lvl) V c r d).trans
    (GridSum.aggregate_law_ite (mask13 V) (fun s => (xarr13 V (ix2 s d) : EReal)) (mask13_zero_or_one V) r)

/-- The same as an equation of arrays: the output array is the closed form aggVal of the threshold cell, h and x. -/
theorem region13_value (V : Valuation τ sig (Elt Ideal)) (c : Dev nD) :
    ((dat13 (Ix := Ix) (U := U) (Lvl := Lvl) V c).arrAt 5 64 : S4096x256.Idx → Elt Ideal .f32)
      = Cert.Hand.aggVal (marr13 V) (harr13 V) (xarr13 V) := by
  funext j
  obtain ⟨r, d, rfl⟩ : ∃ (r : Fin 4096) (d : Fin 256), j = ix2 r d := ⟨j 0, j 1, eq_ix2 j⟩
  exact arrAt13_5_value (Ix := Ix) (U := U) (Lvl := Lvl) V c r d

end Array

end Cert.KernelIdeal.Hand

end
-- ==== Proof.RgV14.lean ====
import Idealize.ShloMosaic.Lib.Pipeline.Value
import proofs.«169706_j68856915690108_1_alg».proof.Proof.UnitIdx
import proofs.«169706_j68856915690108_1_alg».proof.Proof.AggVal
import proofs.«169706_j68856915690108_1_alg».proof.Proof.TileValue
import proofs.«169706_j68856915690108_1_alg».proof.Proof.LibGridSum
import Idealize.ShloMosaic.Lib.ValueIdx
import proofs.«169706_j68856915690108_1_alg».proof.Proof.Rg14

/-! # part: SumValue -/
/-
  Region 0 (the tile-sum kernel): what the run leaves in the output array.

  The output window's block is the whole 1 × 1 output array, and it is written back once, after the last of the 64
  points. So after the whole grid the output array's one cell holds what the scratch cell held after point 63: the sum
  of all 64 tiles.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The one write-back -/

/-- Only the last point writes the output block back, so no two different points do. -/
theorem disj14_2 (t t' : Fin cfg14.N) (hf : (cfg14.win 2).flush t = true) (hf' : (cfg14.win 2).flush t' = true)
    (hne : t ≠ t') : Disjoint ((cfg14.win 2).blk t).view.set ((cfg14.win 2).blk t').view.set := by
  have hN : cfg14.N = 64 := N_14
  have h := (flush14_2 t).mp hf
  have h' := (flush14_2 t').mp hf'
  have := t.isLt; have := t'.isLt
  exact absurd (Fin.ext (by omega)) hne

/-- The grid has a point 63, its last. -/
theorem last14_lt : 63 < cfg14.N := by decide

/-- The last point writes the output block back. -/
theorem flush14_2_last : (cfg14.win 2).flush ⟨63, last14_lt⟩ = true := (flush14_2 _).mpr (by decide)

/-! ## The output array after the run -/

/-- After the whole grid, the output block read back through the window holds what the scratch cell held after the
    last point. -/
theorem out14_block (V : Valuation τ sig (Elt F)) (c : Dev nD) :
    ((cfg14.win 2).blk ⟨63, last14_lt⟩).view.read (Elt F) ((dat14 (Ix := Ix) (U := U) (Lvl := Lvl) V c).arrAt 2 64)
      = acc14 V c 63 last14_lt :=
  ((dat14 (Ix := Ix) (U := U) (Lvl := Lvl) V c).read_blk_arrAt_eq_flushed 2 disj14_2 64 ⟨63, last14_lt⟩ (by decide)
    flush14_2_last).trans (after14_2 V c ⟨63, last14_lt⟩)

/-- The output array after the whole grid, cell by cell: what the scratch cell held after the last point. -/
theorem arrAt14_2_apply (V : Valuation τ sig (Elt F)) (c : Dev nD) (i : S1x1.Idx) :
    ((dat14 (Ix := Ix) (U := U) (Lvl := Lvl) V c).arrAt 2 64 : S1x1.Idx → Elt F .f32) i = acc14 V c 63 last14_lt i := by
  have h := congrFun (out14_block (Ix := Ix) (U := U) (Lvl := Lvl) V c) i
  rw [View.read_apply] at h
  rw [← h, unit_idx_eq (((cfg14.win 2).blk ⟨63, last14_lt⟩).view.emb i) i]
  rfl

/-- The output array after the whole grid, as a 1 × 1 vector. -/
theorem arrAt14_2 (V : Valuation τ sig (Elt F)) (c : Dev nD) :
    ((dat14 (Ix := Ix) (U := U) (Lvl := Lvl) V c).arrAt 2 64 : S1x1.Idx → Elt F .f32) = acc14 V c 63 last14_lt :=
  funext fun i => arrAt14_2_apply V c i

end Cert.KernelIdeal.Hand

end

/-! # part: RegionValue0 -/
/-
  Region 0 (the tile-sum kernel) read as a value: the cell it accumulates ends at the sum of the whole Gram matrix.

  The grid is 8 × 8, walked row by row: point t = 8·i + j stages rows 512·i … 512·i + 511 of the 4096 × 256 array h
  through its first window and rows 512·j … of the same array through its second (idx_facts14, hi14_apply, hj14_apply).
  At the ideal values the step of one point adds to the 1 × 1 cell the sum of the 512 × 512 tile
  Σ_p Σ_q Σ_k h (512·i + p) k · h (512·j + q) k, and the cell starts from zero, so after point n it holds the tile sums
  of the points 0 … n added one by one (acc14_apply). The 64 tiles are exactly the 8 × 8 tiling of the 4096 × 4096 Gram
  matrix G r s = Σ_k h r k · h s k (tile14_grid), and on the extended reals addition is commutative and associative, so
  after the last point the cell holds Σ_r Σ_s G r s (acc14_last_apply): no finiteness of h is needed. The one write-back, after
  the last point, copies the cell into the 1 × 1 output array (arrAt14_2_value, region14_value).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the array -/

/-- Point t = 8·i + j of the 8 × 8 grid stages rows block i = t / 8 through window 0, rows block j = t % 8 through
    window 1, and the one cell through window 2. -/
theorem idx_facts14 : ∀ t : Fin cfg14.N,
    win14_0.index t 0 = t.val / 8 ∧ win14_0.index t 1 = 0 ∧ win14_1.index t 0 = t.val % 8 ∧ win14_1.index t 1 = 0
      ∧ win14_2.index t 0 = 0 ∧ win14_2.index t 1 = 0 :=
  (by decide +kernel : ∀ t : Fin grid14.N,
    win14_0.index t 0 = t.val / 8 ∧ win14_0.index t 1 = 0 ∧ win14_1.index t 0 = t.val % 8 ∧ win14_1.index t 1 = 0
      ∧ win14_2.index t 0 = 0 ∧ win14_2.index t 1 = 0)

section AnyF

variable {F : FTy → Type} [FloatOps F]

/-- The array h both input windows read: the region-entry contents of the first window's array. -/
abbrev harr14 (V : Valuation τ sig (Elt F)) : Vec F S4096x256 .f32 := V (Proc.devRef .tc main_v507)

/-- The block of h window 0 stages at point t, as a 512 × 256 array. -/
abbrev hi14 (V : Valuation τ sig (Elt F)) (c : Dev nD) (t : Fin cfg14.N) : Vec F S512x256 .f32 := iblk14 V c 0 t
/-- The block of h window 1 stages at point t, as a 512 × 256 array. -/
abbrev hj14 (V : Valuation τ sig (Elt F)) (c : Dev nD) (t : Fin cfg14.N) : Vec F S512x256 .f32 := iblk14 V c 1 t

/-- Window 0's block at point t is rows 512·(t / 8) … of h. -/
theorem hi14_apply (V : Valuation τ sig (Elt F)) (c : Dev nD) (t : Fin cfg14.N) (y : S512x256.Idx) (k : S4096x256.Idx)
    (hkr : (k 0).val = 512 * (t.val / 8) + (y 0).val) (hkc : (k 1).val = (y 1).val) :
    hi14 V c t y = harr14 V k := by
  obtain ⟨hA, hB, -, -, -, -⟩ := idx_facts14 t
  show (iblk14 V c 0 t : Vec F S512x256 .f32) y = _
  unfold iblk14
  rw [View.read_apply]
  show V (Proc.devRef .tc main_v507) _ = V (Proc.devRef .tc main_v507) _
  congr 1
  funext a
  apply Fin.ext
  match a with
  | ⟨0, _⟩ => show win14_0.index t 0 * 512 + 1 * (y 0).val = (k 0).val; rw [hA, hkr]; omega
  | ⟨1, _⟩ => show win14_0.index t 1 * 256 + 1 * (y 1).val = (k 1).val; rw [hB, hkc]; omega

/-- Window 1's block at point t is rows 512·(t % 8) … of h. -/
theorem hj14_apply (V : Valuation τ sig (Elt F)) (c : Dev nD) (t : Fin cfg14.N) (y : S512x256.Idx) (k : S4096x256.Idx)
    (hkr : (k 0).val = 512 * (t.val % 8) + (y 0).val) (hkc : (k 1).val = (y 1).val) :
    hj14 V c t y = harr14 V k := by
  obtain ⟨-, -, hA, hB, -, -⟩ := idx_facts14 t
  show (iblk14 V c 1 t : Vec F S512x256 .f32) y = _
  unfold iblk14
  rw [View.read_apply]
  show V (Proc.devRef .tc main_v507) _ = V (Proc.devRef .tc main_v507) _
  congr 1
  funext a
  apply Fin.ext
  match a with
  | ⟨0, _⟩ => show win14_1.index t 0 * 512 + 1 * (y 0).val = (k 0).val; rw [hA, hkr]; omega
  | ⟨1, _⟩ => show win14_1.index t 1 * 256 + 1 * (y 1).val = (k 1).val; rw [hB, hkc]; omega

end AnyF

/-! ## The accumulated cell at the ideal values -/

/-- The Gram matrix of the rows of h: entry (r, s) is the sum over the 256 columns of the products. -/
noncomputable def gram14 (V : Valuation τ sig (Elt Ideal)) (r s : Fin 4096) : EReal :=
  ∑ k : Fin 256, (harr14 V (ix2 r k) : EReal) * (harr14 V (ix2 s k) : EReal)

/-- The sum of the 512 × 512 tile the point t stages (zero past the grid). -/
noncomputable def tile14 (V : Valuation τ sig (Elt Ideal)) (c : Dev nD) (t : ℕ) : EReal :=
  if ht : t < cfg14.N then
    ∑ p : Fin 512, ∑ q : Fin 512, ∑ k : Fin 256, (hi14 V c ⟨t, ht⟩ (ix2 p k) : EReal) * (hj14 V c ⟨t, ht⟩ (ix2 q k) : EReal)
  else 0

theorem tile14_of_lt (V : Valuation τ sig (Elt Ideal)) (c : Dev nD) (t : ℕ) (ht : t < cfg14.N) :
    tile14 V c t
      = ∑ p : Fin 512, ∑ q : Fin 512, ∑ k : Fin 256, (hi14 V c ⟨t, ht⟩ (ix2 p k) : EReal) * (hj14 V c ⟨t, ht⟩ (ix2 q k) : EReal) := by
  unfold tile14
  exact dif_pos ht

/-- After point n the cell holds the tile sums of the points 0 … n added one by one onto zero. -/
theorem acc14_apply (V : Valuation τ sig (Elt Ideal)) (c : Dev nD) :
    ∀ (n : ℕ) (hn : n < cfg14.N) (a b : Fin 1),
      ((acc14 V c n hn : Vec Ideal S1x1 .f32) (ix2 a b) : EReal) = GridSum.accFold 0 (tile14 V c) (n + 1)
  | 0, hn, a, b => by
    have e := k14_pay2_apply (hi14 V c ⟨0, hn⟩) (hj14 V c ⟨0, hn⟩) (k14_pay1 (F := Ideal)) a b
    rw [k14_pay1_apply] at e
    rw [GridSum.accFold_succ, GridSum.accFold_zero, tile14_of_lt V c 0 hn]
    exact e
  | n + 1, hn, a, b => by
    have e := k14_pay2_apply (hi14 V c ⟨n + 1, hn⟩) (hj14 V c ⟨n + 1, hn⟩) (acc14 V c n (Nat.lt_of_succ_lt hn)) a b
    rw [acc14_apply V c n (Nat.lt_of_succ_lt hn) a b] at e
    rw [GridSum.accFold_succ _ _ (n + 1), tile14_of_lt V c (n + 1) hn]
    exact e

/-- The tile of point 8·i + j is the 512 × 512 tile (i, j) of the Gram matrix. -/
theorem tile14_grid (V : Valuation τ sig (Elt Ideal)) (c : Dev nD) (i j : Fin 8) :
    tile14 V c (8 * (i : ℕ) + (j : ℕ))
      = ∑ p : Fin 512, ∑ q : Fin 512, gram14 V (GridSum.idx4096 i p) (GridSum.idx4096 j q) := by
  have hi : (i : ℕ) < 8 := i.isLt
  have hj : (j : ℕ) < 8 := j.isLt
  have hN : cfg14.N = 64 := N_14
  have ht : 8 * (i : ℕ) + (j : ℕ) < cfg14.N := by omega
  rw [tile14_of_lt V c _ ht]
  refine Finset.sum_congr rfl fun p _ => Finset.sum_congr rfl fun q _ => ?_
  unfold gram14
  refine Finset.sum_congr rfl fun k _ => ?_
  rw [hi14_apply V c ⟨_, ht⟩ (ix2 p k) (ix2 (GridSum.idx4096 i p) k)
      (by show 512 * (i : ℕ) + (p : ℕ) = 512 * ((8 * (i : ℕ) + (j : ℕ)) / 8) + (p : ℕ); omega) rfl,
    hj14_apply V c ⟨_, ht⟩ (ix2 q k) (ix2 (GridSum.idx4096 j q) k)
      (by show 512 * (j : ℕ) + (q : ℕ) = 512 * ((8 * (i : ℕ) + (j : ℕ)) % 8) + (q : ℕ); omega) rfl]

/-- THE SUM KERNEL'S VALUE. After the last point the cell holds the sum of the whole 4096 × 4096 Gram matrix of the
    rows of h: the 64 tile sums, taken in the grid's row-major order, add up to the sum over all pairs of rows. -/
theorem acc14_last_apply (V : Valuation τ sig (Elt Ideal)) (c : Dev nD) (hlast : 63 < cfg14.N) (a b : Fin 1) :
    ((acc14 V c 63 hlast : Vec Ideal S1x1 .f32) (ix2 a b) : EReal)
      = ∑ r : Fin 4096, ∑ s : Fin 4096, ∑ k : Fin 256, (harr14 V (ix2 r k) : EReal) * (harr14 V (ix2 s k) : EReal) := by
  rw [acc14_apply V c 63 hlast a b, GridSum.accFold_tiles_4096 (gram14 V) 0 (tile14 V c) (tile14_grid V c), zero_add]
  rfl

/-! ## The output array after the run -/

section Array

variable {Ix : Type} [DecidableEq Ix] {U : Type} [URA U] {Lvl : Type}

/-- THE SUM KERNEL'S OUTPUT ARRAY at the ideal values: after the whole grid its one cell holds the sum of the whole
    4096 × 4096 Gram matrix of the rows of h. -/
theorem arrAt14_2_value (V : Valuation τ sig (Elt Ideal)) (c : Dev nD) (a b : Fin 1) :
    (((dat14 (Ix := Ix) (U := U) (Lvl := Lvl) V c).arrAt 2 64 : S1x1.Idx → Elt Ideal .f32) (ix2 a b) : EReal)
      = ∑ r : Fin 4096, ∑ s : Fin 4096, ∑ k : Fin 256, (harr14 V (ix2 r k) : EReal) * (harr14 V (ix2 s k) : EReal) :=
  (arrAt14_2_apply (Ix := Ix) (U := U) (Lvl := Lvl) V c (ix2 a b)).trans (acc14_last_apply V c (by decide) a b)

/-- The same as an equation of arrays: the output array is the closed form sumVal of h. -/
theorem region14_value (V : Valuation τ sig (Elt Ideal)) (c : Dev nD) :
    ((dat14 (Ix := Ix) (U := U) (Lvl := Lvl) V c).arrAt 2 64 : S1x1.Idx → Elt Ideal .f32) = Cert.Hand.sumVal (harr14 V) := by
  funext i
  obtain ⟨a, b, rfl⟩ : ∃ (a b : Fin 1), i = ix2 a b := ⟨i 0, i 1, eq_ix2 i⟩
  exact arrAt14_2_value (Ix := Ix) (U := U) (Lvl := Lvl) V c a b

end Array

end Cert.KernelIdeal.Hand

end
-- ==== Proof.RgV15.lean ====
import Idealize.ShloMosaic.Lib.Pipeline.Value
import proofs.«169706_j68856915690108_1_alg».proof.Proof.TileValue
import proofs.«169706_j68856915690108_1_alg».proof.Proof.LibGridSum
import proofs.«169706_j68856915690108_1_alg».proof.Proof.RegionValueLib
import proofs.«169706_j68856915690108_1_alg».proof.Proof.AggVal
import Idealize.ShloMosaic.Lib.ValueIdx
import proofs.«169706_j68856915690108_1_alg».proof.Proof.Rg15

/-! # part: ApplyOut -/
/-
  Region 1 (the aggregation kernel): what the run leaves in the output array.

  The accumulator after point t is the fold over the run of eight points that t lies in (the points 8·(t / 8) …
  8·(t / 8) + 7 share the row block i = t / 8): reset and stepped at the run's first point, stepped at each later one.
  The output window's block at point t is row block t / 8 of the output array, written back at the run's last point
  only (t % 8 = 7); two such points have different row blocks, so their blocks of the array are disjoint, and after
  the whole grid block i of the output array holds what the accumulator held after point 8·i + 7.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The accumulator as a fold over its run -/

/-- The accumulator after point `t` is the fold over the run of eight points `t` lies in, up to `t`. -/
theorem acc15_fold (V : Valuation τ sig (Elt F)) (c : Dev nD) (t : ℕ) (ht : t < cfg15.N)
    (h' : 8 * (t / 8) + t % 8 < cfg15.N) :
    acc15 V c t ht = Pipeline.accAt (fun n h => step15 V c n h (init15 V c n h)) (fun n h a => step15 V c n h a)
      (8 * (t / 8)) (t % 8) h' :=
  Pipeline.eq_accAt_of_mod (acc15 V c) 8 (fun n h => step15 V c n h (init15 V c n h)) (fun n h a => step15 V c n h a)
    (fun n h h0 => acc15_reset V c n h h0) (fun n h h0 => if_neg h0) (by decide) t ht h'

/-! ## The output window's blocks -/

/-- The output window's block index along the rows at point `t` is `t / 8`. -/
theorem idx15_5 : ∀ t : Fin cfg15.N, win15_5.index t (0 : Fin 2) = t.val / 8 :=
  (by decide +kernel : ∀ t : Fin grid15.N, win15_5.index t (0 : Fin 2) = t.val / 8)

/-- Two different points that write the output block back write disjoint blocks of the array. -/
theorem disj15_5 (t t' : Fin cfg15.N) (hf : (cfg15.win 5).flush t = true) (hf' : (cfg15.win 5).flush t' = true)
    (hne : t ≠ t') : Disjoint ((cfg15.win 5).blk t).view.set ((cfg15.win 5).blk t').view.set := by
  refine (cfg15.win 5).disjoint_blk fun h => hne (Fin.ext ?_)
  have h0 : win15_5.index t (0 : Fin 2) = win15_5.index t' (0 : Fin 2) := congrFun h (0 : Fin 2)
  rw [idx15_5 t, idx15_5 t'] at h0
  have h7 := (flush15_5 t).mp hf
  have h7' := (flush15_5 t').mp hf'
  omega

/-! ## The output array after the run -/

/-- After the whole grid, the block of the output array under a point that writes back (`t % 8 = 7`) holds what the
    accumulator held after that point. -/
theorem out15_block (V : Valuation τ sig (Elt F)) (c : Dev nD) (t : Fin cfg15.N) (ht : t.val % 8 = 7) :
    ((cfg15.win 5).blk t).view.read (Elt F) ((dat15 (Ix := Ix) (U := U) (Lvl := Lvl) V c).arrAt 5 64)
      = acc15 V c t.val t.isLt := by
  have hN : cfg15.N = 64 := N_15
  have hlt : t.val < 64 := Nat.lt_of_lt_of_eq t.isLt hN
  exact ((dat15 (Ix := Ix) (U := U) (Lvl := Lvl) V c).read_blk_arrAt_eq_flushed 5 disj15_5 64 t hlt
    ((flush15_5 t).mpr ht)).trans (after15_5 V c t)

end Cert.KernelIdeal.Hand

end

/-! # part: RegionValue1 -/
/-
  Region 1 (the aggregation kernel) read as a value: row r of its output is 1·x r plus the masked sum over all rows.

  The grid is 8 × 8, walked row by row: point t = 8·i + j stages the one threshold cell, rows 512·i … of the 4096 × 256
  arrays h and x (row block i) and rows 512·j … of the same two arrays (row block j) (idx_facts15 and the block reads
  mb15_apply … xj15_apply). At the ideal values the reset at j = 0 leaves 1·x r in the accumulator's entry of row
  r = 512·i + p (init15_apply), and the step of point 8·i + j adds Σ_q mask r (512·j + q) · x (512·j + q), the mask
  being 1 where the Gram matrix G r s = Σ_k h r k · h s k is above the threshold and 0 elsewhere (step15_apply). So after
  the eight points of row block i the entry holds 1·x r with the eight column blocks' terms added one by one
  (acc15_apply), which is 1·x r + Σ_s mask r s · x s over all 4096 rows s (acc15_last_apply): the eight blocks of 512 tile
  the 4096 columns, and addition on the extended reals is commutative and associative. The write-back at j = 7 puts
  that row block into the output array (arrAt15_5_block, arrAt15_5_value), and because the mask's entries are zeros and
  ones the diagonal term can be folded in: Σ_s (mask r s + δ r s) · x s (arrAt15_5_agg).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the arrays -/

/-- Point t = 8·i + j of the 8 × 8 grid stages: the one threshold cell (window 0), rows block i = t / 8 of h and of x
    (windows 1 and 3), rows block j = t % 8 of h and of x (windows 2 and 4), and writes rows block i of the output
    (window 5). -/
theorem idx_facts15 : ∀ t : Fin cfg15.N,
    (win15_0.index t 0 = 0 ∧ win15_0.index t 1 = 0) ∧ (win15_1.index t 0 = t.val / 8 ∧ win15_1.index t 1 = 0)
      ∧ (win15_2.index t 0 = t.val % 8 ∧ win15_2.index t 1 = 0) ∧ (win15_3.index t 0 = t.val / 8 ∧ win15_3.index t 1 = 0)
      ∧ (win15_4.index t 0 = t.val % 8 ∧ win15_4.index t 1 = 0) ∧ (win15_5.index t 0 = t.val / 8 ∧ win15_5.index t 1 = 0) :=
  (by decide +kernel : ∀ t : Fin grid15.N,
    (win15_0.index t 0 = 0 ∧ win15_0.index t 1 = 0) ∧ (win15_1.index t 0 = t.val / 8 ∧ win15_1.index t 1 = 0)
      ∧ (win15_2.index t 0 = t.val % 8 ∧ win15_2.index t 1 = 0) ∧ (win15_3.index t 0 = t.val / 8 ∧ win15_3.index t 1 = 0)
      ∧ (win15_4.index t 0 = t.val % 8 ∧ win15_4.index t 1 = 0) ∧ (win15_5.index t 0 = t.val / 8 ∧ win15_5.index t 1 = 0))

section AnyF

variable {F : FTy → Type} [FloatOps F]

/-- The threshold cell, the array h and the array x the region reads: region-entry contents. -/
abbrev marr15 (V : Valuation τ sig (Elt F)) : Vec F S1x1 .f32 := V (Proc.devRef .tc main_v510)
abbrev harr15 (V : Valuation τ sig (Elt F)) : Vec F S4096x256 .f32 := V (Proc.devRef .tc main_v507)
abbrev xarr15 (V : Valuation τ sig (Elt F)) : Vec F S4096x256 .f32 := V (Proc.devRef .tc main_v488)

/-- The five input blocks at point t, each as an array of its literal shape. -/
abbrev mb15 (V : Valuation τ sig (Elt F)) (c : Dev nD) (t : Fin cfg15.N) : Vec F S1x1 .f32 := iblk15 V c 0 t
abbrev hi15 (V : Valuation τ sig (Elt F)) (c : Dev nD) (t : Fin cfg15.N) : Vec F S512x256 .f32 := iblk15 V c 1 t
abbrev hj15 (V : Valuation τ sig (Elt F)) (c : Dev nD) (t : Fin cfg15.N) : Vec F S512x256 .f32 := iblk15 V c 2 t
abbrev xi15 (V : Valuation τ sig (Elt F)) (c : Dev nD) (t : Fin cfg15.N) : Vec F S512x256 .f32 := iblk15 V c 3 t
abbrev xj15 (V : Valuation τ sig (Elt F)) (c : Dev nD) (t : Fin cfg15.N) : Vec F S512x256 .f32 := iblk15 V c 4 t

/-- Window 0's block is the threshold cell itself. -/
theorem mb15_apply (V : Valuation τ sig (Elt F)) (c : Dev nD) (t : Fin cfg15.N) (y : S1x1.Idx) :
    mb15 V c t y = marr15 V y := by
  obtain ⟨⟨hA, hB⟩, -, -, -, -, -⟩ := idx_facts15 t
  show (iblk15 V c 0 t : Vec F S1x1 .f32) y = _
  unfold iblk15
  rw [View.read_apply]
  show V (Proc.devRef .tc main_v510) _ = V (Proc.devRef .tc main_v510) _
  congr 1
  funext a
  apply Fin.ext
  match a with
  | ⟨0, _⟩ => show win15_0.index t 0 * 1 + 1 * (y 0).val = (y 0).val; rw [hA]; omega
  | ⟨1, _⟩ => show win15_0.index t 1 * 1 + 1 * (y 1).val = (y 1).val; rw [hB]; omega

/-- Window 1's block at point t is rows 512·(t / 8) … of h. -/
theorem hi15_apply (V : Valuation τ sig (Elt F)) (c : Dev nD) (t : Fin cfg15.N) (y : S512x256.Idx) (k : S4096x256.Idx)
    (hkr : (k 0).val = 512 * (t.val / 8) + (y 0).val) (hkc : (k 1).val = (y 1).val) :
    hi15 V c t y = harr15 V k := by
  obtain ⟨-, ⟨hA, hB⟩, -, -, -, -⟩ := idx_facts15 t
  show (iblk15 V c 1 t : Vec F S512x256 .f32) y = _
  unfold iblk15
  rw [View.read_apply]
  show V (Proc.devRef .tc main_v507) _ = V (Proc.devRef .tc main_v507) _
  congr 1
  funext a
  apply Fin.ext
  match a with
  | ⟨0, _⟩ => show win15_1.index t 0 * 512 + 1 * (y 0).val = (k 0).val; rw [hA, hkr]; omega
  | ⟨1, _⟩ => show win15_1.index t 1 * 256 + 1 * (y 1).val = (k 1).val; rw [hB, hkc]; omega

/-- Window 2's block at point t is rows 512·(t % 8) … of h. -/
theorem hj15_apply (V : Valuation τ sig (Elt F)) (c : Dev nD) (t : Fin cfg15.N) (y : S512x256.Idx) (k : S4096x256.Idx)
    (hkr : (k 0).val = 512 * (t.val % 8) + (y 0).val) (hkc : (k 1).val = (y 1).val) :
    hj15 V c t y = harr15 V k := by
  obtain ⟨-, -, ⟨hA, hB⟩, -, -, -⟩ := idx_facts15 t
  show (iblk15 V c 2 t : Vec F S512x256 .f32) y = _
  unfold iblk15
  rw [View.read_apply]
  show V (Proc.devRef .tc main_v507) _ = V (Proc.devRef .tc main_v507) _
  congr 1
  funext a
  apply Fin.ext
  match a with
  | ⟨0, _⟩ => show win15_2.index t 0 * 512 + 1 * (y 0).val = (k 0).val; rw [hA, hkr]; omega
  | ⟨1, _⟩ => show win15_2.index t 1 * 256 + 1 * (y 1).val = (k 1).val; rw [hB, hkc]; omega

/-- Window 3's block at point t is rows 512·(t / 8) … of x. -/
theorem xi15_apply (V : Valuation τ sig (Elt F)) (c : Dev nD) (t : Fin cfg15.N) (y : S512x256.Idx) (k : S4096x256.Idx)
    (hkr : (k 0).val = 512 * (t.val / 8) + (y 0).val) (hkc : (k 1).val = (y 1).val) :
    xi15 V c t y = xarr15 V k := by
  obtain ⟨-, -, -, ⟨hA, hB⟩, -, -⟩ := idx_facts15 t
  show (iblk15 V c 3 t : Vec F S512x256 .f32) y = _
  unfold iblk15
  rw [View.read_apply]
  show V (Proc.devRef .tc main_v488) _ = V (Proc.devRef .tc main_v488) _
  congr 1
  funext a
  apply Fin.ext
  match a with
  | ⟨0, _⟩ => show win15_3.index t 0 * 512 + 1 * (y 0).val = (k 0).val; rw [hA, hkr]; omega
  | ⟨1, _⟩ => show win15_3.index t 1 * 256 + 1 * (y 1).val = (k 1).val; rw [hB, hkc]; omega

/-- Window 4's block at point t is rows 512·(t % 8) … of x. -/
theorem xj15_apply (V : Valuation τ sig (Elt F)) (c : Dev nD) (t : Fin cfg15.N) (y : S512x256.Idx) (k : S4096x256.Idx)
    (hkr : (k 0).val = 512 * (t.val % 8) + (y 0).val) (hkc : (k 1).val = (y 1).val) :
    xj15 V c t y = xarr15 V k := by
  obtain ⟨-, -, -, -, ⟨hA, hB⟩, -⟩ := idx_facts15 t
  show (iblk15 V c 4 t : Vec F S512x256 .f32) y = _
  unfold iblk15
  rw [View.read_apply]
  show V (Proc.devRef .tc main_v488) _ = V (Proc.devRef .tc main_v488) _
  congr 1
  funext a
  apply Fin.ext
  match a with
  | ⟨0, _⟩ => show win15_4.index t 0 * 512 + 1 * (y 0).val = (k 0).val; rw [hA, hkr]; omega
  | ⟨1, _⟩ => show win15_4.index t 1 * 256 + 1 * (y 1).val = (k 1).val; rw [hB, hkc]; omega

/-- The accumulator after point n depends on n only through its value. -/
theorem acc15_congr (V : Valuation τ sig (Elt F)) (c : Dev nD) {n n' : ℕ} (e : n = n') (hn : n < cfg15.N) (hn' : n' < cfg15.N) :
    acc15 V c n hn = acc15 V c n' hn' := by
  subst e; rfl

/-- At the first point of row block i the accumulator is reset and stepped once … -/
theorem acc15_row_zero (V : Valuation τ sig (Elt F)) (c : Dev nD) (i : ℕ) (hn : 8 * i + 0 < cfg15.N) :
    acc15 V c (8 * i + 0) hn = step15 V c (8 * i + 0) hn (init15 V c (8 * i + 0) hn) :=
  acc15_reset V c (8 * i + 0) hn (by omega)

/-- … and at each later point of the row block it is stepped from what the point before left. -/
theorem acc15_row_succ (V : Valuation τ sig (Elt F)) (c : Dev nD) (i j : ℕ) (hj : j + 1 < 8) (hn : 8 * i + (j + 1) < cfg15.N) :
    acc15 V c (8 * i + (j + 1)) hn = step15 V c (8 * i + (j + 1)) hn (acc15 V c (8 * i + j) (by omega)) :=
  (acc15_step V c (8 * i + (j + 1)) hn (by omega)).trans
    (congrArg (step15 V c (8 * i + (j + 1)) hn) (acc15_congr V c (by omega) _ _))

end AnyF

/-! ## The accumulator at the ideal values -/

/-- The Gram matrix of the rows of h. -/
noncomputable def gram15 (V : Valuation τ sig (Elt Ideal)) (r s : Fin 4096) : EReal :=
  ∑ k : Fin 256, (harr15 V (ix2 r k) : EReal) * (harr15 V (ix2 s k) : EReal)

/-- The 0/1 mask: 1 where the Gram matrix's entry is above the threshold, else 0. -/
noncomputable def mask15 (V : Valuation τ sig (Elt Ideal)) (r s : Fin 4096) : EReal :=
  if (marr15 V (ix2 (0 : Fin 1) (0 : Fin 1)) : EReal) < gram15 V r s then 1 else 0

/-- The mask's entries are zero or one. -/
theorem mask15_zero_or_one (V : Valuation τ sig (Elt Ideal)) (r s : Fin 4096) : mask15 V r s = 0 ∨ mask15 V r s = 1 := by
  unfold mask15
  exact GridSum.ite_zero_or_one _

/-- What column block j adds to the accumulator's entry of row r and feature d (zero past the eight blocks). -/
noncomputable def blockTerm15 (V : Valuation τ sig (Elt Ideal)) (r : Fin 4096) (d : Fin 256) (j : ℕ) : EReal :=
  if hj : j < 8 then
    ∑ q : Fin 512, mask15 V r (GridSum.idx4096 ⟨j, hj⟩ q) * (xarr15 V (ix2 (GridSum.idx4096 ⟨j, hj⟩ q) d) : EReal)
  else 0

theorem blockTerm15_of_lt (V : Valuation τ sig (Elt Ideal)) (r : Fin 4096) (d : Fin 256) (j : ℕ) (hj : j < 8) :
    blockTerm15 V r d j
      = ∑ q : Fin 512, mask15 V r (GridSum.idx4096 ⟨j, hj⟩ q) * (xarr15 V (ix2 (GridSum.idx4096 ⟨j, hj⟩ q) d) : EReal) := by
  unfold blockTerm15
  exact dif_pos hj

/-- One step at point 8·i + j adds column block j's term to the entry of row 512·i + p. -/
theorem step15_apply (V : Valuation τ sig (Elt Ideal)) (c : Dev nD) (i : Fin 8) (j : ℕ) (hj : j < 8)
    (hn : 8 * (i : ℕ) + j < cfg15.N) (a : Vec Ideal S512x256 .f32) (p : Fin 512) (d : Fin 256) :
    (step15 V c (8 * (i : ℕ) + j) hn a (ix2 p d) : EReal) = (a (ix2 p d) : EReal) + blockTerm15 V (GridSum.idx4096 i p) d j := by
  have hi : (i : ℕ) < 8 := i.isLt
  have e := k15_pay2_apply (hi15 V c ⟨8 * (i : ℕ) + j, hn⟩) (hj15 V c ⟨8 * (i : ℕ) + j, hn⟩) (mb15 V c ⟨8 * (i : ℕ) + j, hn⟩)
    (xj15 V c ⟨8 * (i : ℕ) + j, hn⟩) a p d
  rw [blockTerm15_of_lt V _ d j hj]
  refine e.trans ?_
  congr 1
  refine Finset.sum_congr rfl fun q _ => ?_
  rw [mb15_apply V c ⟨8 * (i : ℕ) + j, hn⟩ (ix2 (0 : Fin 1) (0 : Fin 1)),
    xj15_apply V c ⟨8 * (i : ℕ) + j, hn⟩ (ix2 q d) (ix2 (GridSum.idx4096 ⟨j, hj⟩ q) d)
      (by show 512 * j + (q : ℕ) = 512 * ((8 * (i : ℕ) + j) % 8) + (q : ℕ); omega) rfl]
  congr 1
  unfold mask15 gram15
  have hs : (∑ k : Fin 256, (hi15 V c ⟨8 * (i : ℕ) + j, hn⟩ (ix2 p k) : EReal) * (hj15 V c ⟨8 * (i : ℕ) + j, hn⟩ (ix2 q k) : EReal))
      = ∑ k : Fin 256, (harr15 V (ix2 (GridSum.idx4096 i p) k) : EReal) * (harr15 V (ix2 (GridSum.idx4096 ⟨j, hj⟩ q) k) : EReal) :=
    Finset.sum_congr rfl fun k _ => by
      rw [hi15_apply V c ⟨8 * (i : ℕ) + j, hn⟩ (ix2 p k) (ix2 (GridSum.idx4096 i p) k)
          (by show 512 * (i : ℕ) + (p : ℕ) = 512 * ((8 * (i : ℕ) + j) / 8) + (p : ℕ); omega) rfl,
        hj15_apply V c ⟨8 * (i : ℕ) + j, hn⟩ (ix2 q k) (ix2 (GridSum.idx4096 ⟨j, hj⟩ q) k)
          (by show 512 * j + (q : ℕ) = 512 * ((8 * (i : ℕ) + j) % 8) + (q : ℕ); omega) rfl]
  rw [hs]

/-- The reset value at point 8·i + j is 1 times the entry of x at row 512·i + p. -/
theorem init15_apply (V : Valuation τ sig (Elt Ideal)) (c : Dev nD) (i : Fin 8) (j : ℕ) (hj : j < 8)
    (hn : 8 * (i : ℕ) + j < cfg15.N) (p : Fin 512) (d : Fin 256) :
    (init15 V c (8 * (i : ℕ) + j) hn (ix2 p d) : EReal) = 1 * (xarr15 V (ix2 (GridSum.idx4096 i p) d) : EReal) := by
  have hi : (i : ℕ) < 8 := i.isLt
  have e := k15_pay1_apply (xi15 V c ⟨8 * (i : ℕ) + j, hn⟩) p d
  refine e.trans ?_
  rw [xi15_apply V c ⟨8 * (i : ℕ) + j, hn⟩ (ix2 p d) (ix2 (GridSum.idx4096 i p) d)
    (by show 512 * (i : ℕ) + (p : ℕ) = 512 * ((8 * (i : ℕ) + j) / 8) + (p : ℕ); omega) rfl]

/-- After point 8·i + j the accumulator's entry of row r = 512·i + p holds 1·x r with the terms of the column blocks
    0 … j added one by one. -/
theorem acc15_apply (V : Valuation τ sig (Elt Ideal)) (c : Dev nD) (i : Fin 8) (p : Fin 512) (d : Fin 256) :
    ∀ (j : ℕ) (hj : j < 8) (hn : 8 * (i : ℕ) + j < cfg15.N),
      (acc15 V c (8 * (i : ℕ) + j) hn (ix2 p d) : EReal)
        = GridSum.accFold (1 * (xarr15 V (ix2 (GridSum.idx4096 i p) d) : EReal)) (blockTerm15 V (GridSum.idx4096 i p) d) (j + 1)
  | 0, hj, hn => by
    rw [acc15_row_zero V c (i : ℕ) hn, step15_apply V c i 0 hj hn _ p d, init15_apply V c i 0 hj hn p d,
      GridSum.accFold_succ, GridSum.accFold_zero]
  | j + 1, hj, hn => by
    rw [acc15_row_succ V c (i : ℕ) j hj hn, step15_apply V c i (j + 1) hj hn _ p d,
      acc15_apply V c i p d j (by omega) (by omega), GridSum.accFold_succ _ _ (j + 1)]

/-- THE AGGREGATION KERNEL'S VALUE at the last point of row block i: the entry of row r = 512·i + p and feature d is
    1·x r d plus the sum over all 4096 rows s of mask r s · x s d. -/
theorem acc15_last_apply (V : Valuation τ sig (Elt Ideal)) (c : Dev nD) (i : Fin 8) (p : Fin 512) (d : Fin 256)
    (hn : 8 * (i : ℕ) + 7 < cfg15.N) :
    (acc15 V c (8 * (i : ℕ) + 7) hn (ix2 p d) : EReal)
      = 1 * (xarr15 V (ix2 (GridSum.idx4096 i p) d) : EReal)
        + ∑ s : Fin 4096, mask15 V (GridSum.idx4096 i p) s * (xarr15 V (ix2 s d) : EReal) := by
  rw [acc15_apply V c i p d 7 (by omega) hn, GridSum.accFold_eq_sum,
    GridSum.sum_range_fin (blockTerm15 V (GridSum.idx4096 i p) d)
      (fun j : Fin 8 => ∑ q : Fin 512, mask15 V (GridSum.idx4096 i p) (GridSum.idx4096 j q) * (xarr15 V (ix2 (GridSum.idx4096 j q) d) : EReal))
      (fun j => blockTerm15_of_lt V _ d (j : ℕ) j.isLt),
    GridSum.sum_blocks GridSum.eight_mul (fun s : Fin 4096 => mask15 V (GridSum.idx4096 i p) s * (xarr15 V (ix2 s d) : EReal))]

/-! ## The output array after the run -/

section Array

variable {F : FTy → Type} [FloatOps F]
variable {Ix : Type} [DecidableEq Ix] {U : Type} [URA U] {Lvl : Type}

/-- The output window's block at point t is rows 512·(t / 8) … of the output array. -/
theorem oblk15_apply (c : Dev nD) (X : Buf (Elt F) ((cfg15.win 5).arr.view.loc (c.tc : Thread nD τ))) (t : Fin cfg15.N)
    (y : S512x256.Idx) (k : S4096x256.Idx) (hkr : (k 0).val = 512 * (t.val / 8) + (y 0).val) (hkc : (k 1).val = (y 1).val) :
    (((cfg15.win 5).blk t).view.read (Elt F) X : Vec F S512x256 .f32) y = (X : S4096x256.Idx → Elt F .f32) k := by
  obtain ⟨-, -, -, -, -, ⟨hA, hB⟩⟩ := idx_facts15 t
  rw [View.read_apply]
  have e : ((cfg15.win 5).blk t).view.emb y = k := by
    funext a
    apply Fin.ext
    match a with
    | ⟨0, _⟩ => show win15_5.index t 0 * 512 + 1 * (y 0).val = (k 0).val; rw [hA, hkr]; omega
    | ⟨1, _⟩ => show win15_5.index t 1 * 256 + 1 * (y 1).val = (k 1).val; rw [hB, hkc]; omega
  exact congrArg X e

/-- After the whole grid the output array's entry of row 512·i + p is what the accumulator held, at row p, after the
    last point of row block i. -/
theorem arrAt15_5_block (V : Valuation τ sig (Elt F)) (c : Dev nD) (i : Fin 8) (p : Fin 512) (d : Fin 256)
    (hn : 8 * (i : ℕ) + 7 < cfg15.N) :
    ((dat15 (Ix := Ix) (U := U) (Lvl := Lvl) V c).arrAt 5 64 : S4096x256.Idx → Elt F .f32) (ix2 (GridSum.idx4096 i p) d)
      = (acc15 V c (8 * (i : ℕ) + 7) hn : Vec F S512x256 .f32) (ix2 p d) := by
  have hi : (i : ℕ) < 8 := i.isLt
  refine (oblk15_apply c ((dat15 (Ix := Ix) (U := U) (Lvl := Lvl) V c).arrAt 5 64) ⟨8 * (i : ℕ) + 7, hn⟩ (ix2 p d)
    (ix2 (GridSum.idx4096 i p) d)
    (by show 512 * (i : ℕ) + (p : ℕ) = 512 * ((8 * (i : ℕ) + 7) / 8) + (p : ℕ); omega) rfl).symm.trans ?_
  exact congrFun (out15_block (Ix := Ix) (U := U) (Lvl := Lvl) V c ⟨8 * (i : ℕ) + 7, hn⟩
    (by show (8 * (i : ℕ) + 7) % 8 = 7; omega)) (ix2 p d)

/-- THE AGGREGATION KERNEL'S OUTPUT ARRAY at the ideal values: the entry of row r and feature d is 1·x r d plus the sum
    over all rows s of mask r s · x s d, the mask being 1 where the Gram matrix of the rows of h is above the threshold. -/
theorem arrAt15_5_value (V : Valuation τ sig (Elt Ideal)) (c : Dev nD) (r : Fin 4096) (d : Fin 256) :
    (((dat15 (Ix := Ix) (U := U) (Lvl := Lvl) V c).arrAt 5 64 : S4096x256.Idx → Elt Ideal .f32) (ix2 r d) : EReal)
      = 1 * (xarr15 V (ix2 r d) : EReal) + ∑ s : Fin 4096, mask15 V r s * (xarr15 V (ix2 s d) : EReal) := by
  have hN : cfg15.N = 64 := N_15
  obtain ⟨i, p, rfl⟩ := GridSum.exists_idx4096 r
  have hi : (i : ℕ) < 8 := i.isLt
  have hn : 8 * (i : ℕ) + 7 < cfg15.N := by omega
  exact (arrAt15_5_block (Ix := Ix) (U := U) (Lvl := Lvl) V c i p d hn).trans (acc15_last_apply V c i p d hn)

/-- The same with the diagonal folded into the mask: Σ_s (mask r s + δ r s) · x s d, the aggregate law of zeros and ones
    on the extended reals. -/
theorem arrAt15_5_agg (V : Valuation τ sig (Elt Ideal)) (c : Dev nD) (r : Fin 4096) (d : Fin 256) :
    (((dat15 (Ix := Ix) (U := U) (Lvl := Lvl) V c).arrAt 5 64 : S4096x256.Idx → Elt Ideal .f32) (ix2 r d) : EReal)
      = ∑ s : Fin 4096, (mask15 V r s + (if r = s then 1 else 0)) * (xarr15 V (ix2 s d) : EReal) :=
  (arrAt15_5_value (Ix := Ix) (U := U) (Lvl := Lvl) V c r d).trans
    (GridSum.aggregate_law_ite (mask15 V) (fun s => (xarr15 V (ix2 s d) : EReal)) (mask15_zero_or_one V) r)

/-- The same as an equation of arrays: the output array is the closed form aggVal of the threshold cell, h and x. -/
theorem region15_value (V : Valuation τ sig (Elt Ideal)) (c : Dev nD) :
    ((dat15 (Ix := Ix) (U := U) (Lvl := Lvl) V c).arrAt 5 64 : S4096x256.Idx → Elt Ideal .f32)
      = Cert.Hand.aggVal (marr15 V) (harr15 V) (xarr15 V) := by
  funext j
  obtain ⟨r, d, rfl⟩ : ∃ (r : Fin 4096) (d : Fin 256), j = ix2 r d := ⟨j 0, j 1, eq_ix2 j⟩
  exact arrAt15_5_value (Ix := Ix) (U := U) (Lvl := Lvl) V c r d

end Array

end Cert.KernelIdeal.Hand

end
-- ==== Proof.RgV16.lean ====
import Idealize.ShloMosaic.Lib.Pipeline.Value
import proofs.«169706_j68856915690108_1_alg».proof.Proof.UnitIdx
import proofs.«169706_j68856915690108_1_alg».proof.Proof.AggVal
import proofs.«169706_j68856915690108_1_alg».proof.Proof.TileValue
import proofs.«169706_j68856915690108_1_alg».proof.Proof.LibGridSum
import Idealize.ShloMosaic.Lib.ValueIdx
import proofs.«169706_j68856915690108_1_alg».proof.Proof.Rg16

/-! # part: SumValue -/
/-
  Region 0 (the tile-sum kernel): what the run leaves in the output array.

  The output window's block is the whole 1 × 1 output array, and it is written back once, after the last of the 64
  points. So after the whole grid the output array's one cell holds what the scratch cell held after point 63: the sum
  of all 64 tiles.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The one write-back -/

/-- Only the last point writes the output block back, so no two different points do. -/
theorem disj16_2 (t t' : Fin cfg16.N) (hf : (cfg16.win 2).flush t = true) (hf' : (cfg16.win 2).flush t' = true)
    (hne : t ≠ t') : Disjoint ((cfg16.win 2).blk t).view.set ((cfg16.win 2).blk t').view.set := by
  have hN : cfg16.N = 64 := N_16
  have h := (flush16_2 t).mp hf
  have h' := (flush16_2 t').mp hf'
  have := t.isLt; have := t'.isLt
  exact absurd (Fin.ext (by omega)) hne

/-- The grid has a point 63, its last. -/
theorem last16_lt : 63 < cfg16.N := by decide

/-- The last point writes the output block back. -/
theorem flush16_2_last : (cfg16.win 2).flush ⟨63, last16_lt⟩ = true := (flush16_2 _).mpr (by decide)

/-! ## The output array after the run -/

/-- After the whole grid, the output block read back through the window holds what the scratch cell held after the
    last point. -/
theorem out16_block (V : Valuation τ sig (Elt F)) (c : Dev nD) :
    ((cfg16.win 2).blk ⟨63, last16_lt⟩).view.read (Elt F) ((dat16 (Ix := Ix) (U := U) (Lvl := Lvl) V c).arrAt 2 64)
      = acc16 V c 63 last16_lt :=
  ((dat16 (Ix := Ix) (U := U) (Lvl := Lvl) V c).read_blk_arrAt_eq_flushed 2 disj16_2 64 ⟨63, last16_lt⟩ (by decide)
    flush16_2_last).trans (after16_2 V c ⟨63, last16_lt⟩)

/-- The output array after the whole grid, cell by cell: what the scratch cell held after the last point. -/
theorem arrAt16_2_apply (V : Valuation τ sig (Elt F)) (c : Dev nD) (i : S1x1.Idx) :
    ((dat16 (Ix := Ix) (U := U) (Lvl := Lvl) V c).arrAt 2 64 : S1x1.Idx → Elt F .f32) i = acc16 V c 63 last16_lt i := by
  have h := congrFun (out16_block (Ix := Ix) (U := U) (Lvl := Lvl) V c) i
  rw [View.read_apply] at h
  rw [← h, unit_idx_eq (((cfg16.win 2).blk ⟨63, last16_lt⟩).view.emb i) i]
  rfl

/-- The output array after the whole grid, as a 1 × 1 vector. -/
theorem arrAt16_2 (V : Valuation τ sig (Elt F)) (c : Dev nD) :
    ((dat16 (Ix := Ix) (U := U) (Lvl := Lvl) V c).arrAt 2 64 : S1x1.Idx → Elt F .f32) = acc16 V c 63 last16_lt :=
  funext fun i => arrAt16_2_apply V c i

end Cert.KernelIdeal.Hand

end

/-! # part: RegionValue0 -/
/-
  Region 0 (the tile-sum kernel) read as a value: the cell it accumulates ends at the sum of the whole Gram matrix.

  The grid is 8 × 8, walked row by row: point t = 8·i + j stages rows 512·i … 512·i + 511 of the 4096 × 256 array h
  through its first window and rows 512·j … of the same array through its second (idx_facts16, hi16_apply, hj16_apply).
  At the ideal values the step of one point adds to the 1 × 1 cell the sum of the 512 × 512 tile
  Σ_p Σ_q Σ_k h (512·i + p) k · h (512·j + q) k, and the cell starts from zero, so after point n it holds the tile sums
  of the points 0 … n added one by one (acc16_apply). The 64 tiles are exactly the 8 × 8 tiling of the 4096 × 4096 Gram
  matrix G r s = Σ_k h r k · h s k (tile16_grid), and on the extended reals addition is commutative and associative, so
  after the last point the cell holds Σ_r Σ_s G r s (acc16_last_apply): no finiteness of h is needed. The one write-back, after
  the last point, copies the cell into the 1 × 1 output array (arrAt16_2_value, region16_value).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the array -/

/-- Point t = 8·i + j of the 8 × 8 grid stages rows block i = t / 8 through window 0, rows block j = t % 8 through
    window 1, and the one cell through window 2. -/
theorem idx_facts16 : ∀ t : Fin cfg16.N,
    win16_0.index t 0 = t.val / 8 ∧ win16_0.index t 1 = 0 ∧ win16_1.index t 0 = t.val % 8 ∧ win16_1.index t 1 = 0
      ∧ win16_2.index t 0 = 0 ∧ win16_2.index t 1 = 0 :=
  (by decide +kernel : ∀ t : Fin grid16.N,
    win16_0.index t 0 = t.val / 8 ∧ win16_0.index t 1 = 0 ∧ win16_1.index t 0 = t.val % 8 ∧ win16_1.index t 1 = 0
      ∧ win16_2.index t 0 = 0 ∧ win16_2.index t 1 = 0)

section AnyF

variable {F : FTy → Type} [FloatOps F]

/-- The array h both input windows read: the region-entry contents of the first window's array. -/
abbrev harr16 (V : Valuation τ sig (Elt F)) : Vec F S4096x256 .f32 := V (Proc.devRef .tc main_v576)

/-- The block of h window 0 stages at point t, as a 512 × 256 array. -/
abbrev hi16 (V : Valuation τ sig (Elt F)) (c : Dev nD) (t : Fin cfg16.N) : Vec F S512x256 .f32 := iblk16 V c 0 t
/-- The block of h window 1 stages at point t, as a 512 × 256 array. -/
abbrev hj16 (V : Valuation τ sig (Elt F)) (c : Dev nD) (t : Fin cfg16.N) : Vec F S512x256 .f32 := iblk16 V c 1 t

/-- Window 0's block at point t is rows 512·(t / 8) … of h. -/
theorem hi16_apply (V : Valuation τ sig (Elt F)) (c : Dev nD) (t : Fin cfg16.N) (y : S512x256.Idx) (k : S4096x256.Idx)
    (hkr : (k 0).val = 512 * (t.val / 8) + (y 0).val) (hkc : (k 1).val = (y 1).val) :
    hi16 V c t y = harr16 V k := by
  obtain ⟨hA, hB, -, -, -, -⟩ := idx_facts16 t
  show (iblk16 V c 0 t : Vec F S512x256 .f32) y = _
  unfold iblk16
  rw [View.read_apply]
  show V (Proc.devRef .tc main_v576) _ = V (Proc.devRef .tc main_v576) _
  congr 1
  funext a
  apply Fin.ext
  match a with
  | ⟨0, _⟩ => show win16_0.index t 0 * 512 + 1 * (y 0).val = (k 0).val; rw [hA, hkr]; omega
  | ⟨1, _⟩ => show win16_0.index t 1 * 256 + 1 * (y 1).val = (k 1).val; rw [hB, hkc]; omega

/-- Window 1's block at point t is rows 512·(t % 8) … of h. -/
theorem hj16_apply (V : Valuation τ sig (Elt F)) (c : Dev nD) (t : Fin cfg16.N) (y : S512x256.Idx) (k : S4096x256.Idx)
    (hkr : (k 0).val = 512 * (t.val % 8) + (y 0).val) (hkc : (k 1).val = (y 1).val) :
    hj16 V c t y = harr16 V k := by
  obtain ⟨-, -, hA, hB, -, -⟩ := idx_facts16 t
  show (iblk16 V c 1 t : Vec F S512x256 .f32) y = _
  unfold iblk16
  rw [View.read_apply]
  show V (Proc.devRef .tc main_v576) _ = V (Proc.devRef .tc main_v576) _
  congr 1
  funext a
  apply Fin.ext
  match a with
  | ⟨0, _⟩ => show win16_1.index t 0 * 512 + 1 * (y 0).val = (k 0).val; rw [hA, hkr]; omega
  | ⟨1, _⟩ => show win16_1.index t 1 * 256 + 1 * (y 1).val = (k 1).val; rw [hB, hkc]; omega

end AnyF

/-! ## The accumulated cell at the ideal values -/

/-- The Gram matrix of the rows of h: entry (r, s) is the sum over the 256 columns of the products. -/
noncomputable def gram16 (V : Valuation τ sig (Elt Ideal)) (r s : Fin 4096) : EReal :=
  ∑ k : Fin 256, (harr16 V (ix2 r k) : EReal) * (harr16 V (ix2 s k) : EReal)

/-- The sum of the 512 × 512 tile the point t stages (zero past the grid). -/
noncomputable def tile16 (V : Valuation τ sig (Elt Ideal)) (c : Dev nD) (t : ℕ) : EReal :=
  if ht : t < cfg16.N then
    ∑ p : Fin 512, ∑ q : Fin 512, ∑ k : Fin 256, (hi16 V c ⟨t, ht⟩ (ix2 p k) : EReal) * (hj16 V c ⟨t, ht⟩ (ix2 q k) : EReal)
  else 0

theorem tile16_of_lt (V : Valuation τ sig (Elt Ideal)) (c : Dev nD) (t : ℕ) (ht : t < cfg16.N) :
    tile16 V c t
      = ∑ p : Fin 512, ∑ q : Fin 512, ∑ k : Fin 256, (hi16 V c ⟨t, ht⟩ (ix2 p k) : EReal) * (hj16 V c ⟨t, ht⟩ (ix2 q k) : EReal) := by
  unfold tile16
  exact dif_pos ht

/-- After point n the cell holds the tile sums of the points 0 … n added one by one onto zero. -/
theorem acc16_apply (V : Valuation τ sig (Elt Ideal)) (c : Dev nD) :
    ∀ (n : ℕ) (hn : n < cfg16.N) (a b : Fin 1),
      ((acc16 V c n hn : Vec Ideal S1x1 .f32) (ix2 a b) : EReal) = GridSum.accFold 0 (tile16 V c) (n + 1)
  | 0, hn, a, b => by
    have e := k16_pay2_apply (hi16 V c ⟨0, hn⟩) (hj16 V c ⟨0, hn⟩) (k16_pay1 (F := Ideal)) a b
    rw [k16_pay1_apply] at e
    rw [GridSum.accFold_succ, GridSum.accFold_zero, tile16_of_lt V c 0 hn]
    exact e
  | n + 1, hn, a, b => by
    have e := k16_pay2_apply (hi16 V c ⟨n + 1, hn⟩) (hj16 V c ⟨n + 1, hn⟩) (acc16 V c n (Nat.lt_of_succ_lt hn)) a b
    rw [acc16_apply V c n (Nat.lt_of_succ_lt hn) a b] at e
    rw [GridSum.accFold_succ _ _ (n + 1), tile16_of_lt V c (n + 1) hn]
    exact e

/-- The tile of point 8·i + j is the 512 × 512 tile (i, j) of the Gram matrix. -/
theorem tile16_grid (V : Valuation τ sig (Elt Ideal)) (c : Dev nD) (i j : Fin 8) :
    tile16 V c (8 * (i : ℕ) + (j : ℕ))
      = ∑ p : Fin 512, ∑ q : Fin 512, gram16 V (GridSum.idx4096 i p) (GridSum.idx4096 j q) := by
  have hi : (i : ℕ) < 8 := i.isLt
  have hj : (j : ℕ) < 8 := j.isLt
  have hN : cfg16.N = 64 := N_16
  have ht : 8 * (i : ℕ) + (j : ℕ) < cfg16.N := by omega
  rw [tile16_of_lt V c _ ht]
  refine Finset.sum_congr rfl fun p _ => Finset.sum_congr rfl fun q _ => ?_
  unfold gram16
  refine Finset.sum_congr rfl fun k _ => ?_
  rw [hi16_apply V c ⟨_, ht⟩ (ix2 p k) (ix2 (GridSum.idx4096 i p) k)
      (by show 512 * (i : ℕ) + (p : ℕ) = 512 * ((8 * (i : ℕ) + (j : ℕ)) / 8) + (p : ℕ); omega) rfl,
    hj16_apply V c ⟨_, ht⟩ (ix2 q k) (ix2 (GridSum.idx4096 j q) k)
      (by show 512 * (j : ℕ) + (q : ℕ) = 512 * ((8 * (i : ℕ) + (j : ℕ)) % 8) + (q : ℕ); omega) rfl]

/-- THE SUM KERNEL'S VALUE. After the last point the cell holds the sum of the whole 4096 × 4096 Gram matrix of the
    rows of h: the 64 tile sums, taken in the grid's row-major order, add up to the sum over all pairs of rows. -/
theorem acc16_last_apply (V : Valuation τ sig (Elt Ideal)) (c : Dev nD) (hlast : 63 < cfg16.N) (a b : Fin 1) :
    ((acc16 V c 63 hlast : Vec Ideal S1x1 .f32) (ix2 a b) : EReal)
      = ∑ r : Fin 4096, ∑ s : Fin 4096, ∑ k : Fin 256, (harr16 V (ix2 r k) : EReal) * (harr16 V (ix2 s k) : EReal) := by
  rw [acc16_apply V c 63 hlast a b, GridSum.accFold_tiles_4096 (gram16 V) 0 (tile16 V c) (tile16_grid V c), zero_add]
  rfl

/-! ## The output array after the run -/

section Array

variable {Ix : Type} [DecidableEq Ix] {U : Type} [URA U] {Lvl : Type}

/-- THE SUM KERNEL'S OUTPUT ARRAY at the ideal values: after the whole grid its one cell holds the sum of the whole
    4096 × 4096 Gram matrix of the rows of h. -/
theorem arrAt16_2_value (V : Valuation τ sig (Elt Ideal)) (c : Dev nD) (a b : Fin 1) :
    (((dat16 (Ix := Ix) (U := U) (Lvl := Lvl) V c).arrAt 2 64 : S1x1.Idx → Elt Ideal .f32) (ix2 a b) : EReal)
      = ∑ r : Fin 4096, ∑ s : Fin 4096, ∑ k : Fin 256, (harr16 V (ix2 r k) : EReal) * (harr16 V (ix2 s k) : EReal) :=
  (arrAt16_2_apply (Ix := Ix) (U := U) (Lvl := Lvl) V c (ix2 a b)).trans (acc16_last_apply V c (by decide) a b)

/-- The same as an equation of arrays: the output array is the closed form sumVal of h. -/
theorem region16_value (V : Valuation τ sig (Elt Ideal)) (c : Dev nD) :
    ((dat16 (Ix := Ix) (U := U) (Lvl := Lvl) V c).arrAt 2 64 : S1x1.Idx → Elt Ideal .f32) = Cert.Hand.sumVal (harr16 V) := by
  funext i
  obtain ⟨a, b, rfl⟩ : ∃ (a b : Fin 1), i = ix2 a b := ⟨i 0, i 1, eq_ix2 i⟩
  exact arrAt16_2_value (Ix := Ix) (U := U) (Lvl := Lvl) V c a b

end Array

end Cert.KernelIdeal.Hand

end
-- ==== Proof.RgV17.lean ====
import Idealize.ShloMosaic.Lib.Pipeline.Value
import proofs.«169706_j68856915690108_1_alg».proof.Proof.TileValue
import proofs.«169706_j68856915690108_1_alg».proof.Proof.LibGridSum
import proofs.«169706_j68856915690108_1_alg».proof.Proof.RegionValueLib
import proofs.«169706_j68856915690108_1_alg».proof.Proof.AggVal
import Idealize.ShloMosaic.Lib.ValueIdx
import proofs.«169706_j68856915690108_1_alg».proof.Proof.Rg17

/-! # part: ApplyOut -/
/-
  Region 1 (the aggregation kernel): what the run leaves in the output array.

  The accumulator after point t is the fold over the run of eight points that t lies in (the points 8·(t / 8) …
  8·(t / 8) + 7 share the row block i = t / 8): reset and stepped at the run's first point, stepped at each later one.
  The output window's block at point t is row block t / 8 of the output array, written back at the run's last point
  only (t % 8 = 7); two such points have different row blocks, so their blocks of the array are disjoint, and after
  the whole grid block i of the output array holds what the accumulator held after point 8·i + 7.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The accumulator as a fold over its run -/

/-- The accumulator after point `t` is the fold over the run of eight points `t` lies in, up to `t`. -/
theorem acc17_fold (V : Valuation τ sig (Elt F)) (c : Dev nD) (t : ℕ) (ht : t < cfg17.N)
    (h' : 8 * (t / 8) + t % 8 < cfg17.N) :
    acc17 V c t ht = Pipeline.accAt (fun n h => step17 V c n h (init17 V c n h)) (fun n h a => step17 V c n h a)
      (8 * (t / 8)) (t % 8) h' :=
  Pipeline.eq_accAt_of_mod (acc17 V c) 8 (fun n h => step17 V c n h (init17 V c n h)) (fun n h a => step17 V c n h a)
    (fun n h h0 => acc17_reset V c n h h0) (fun n h h0 => if_neg h0) (by decide) t ht h'

/-! ## The output window's blocks -/

/-- The output window's block index along the rows at point `t` is `t / 8`. -/
theorem idx17_5 : ∀ t : Fin cfg17.N, win17_5.index t (0 : Fin 2) = t.val / 8 :=
  (by decide +kernel : ∀ t : Fin grid17.N, win17_5.index t (0 : Fin 2) = t.val / 8)

/-- Two different points that write the output block back write disjoint blocks of the array. -/
theorem disj17_5 (t t' : Fin cfg17.N) (hf : (cfg17.win 5).flush t = true) (hf' : (cfg17.win 5).flush t' = true)
    (hne : t ≠ t') : Disjoint ((cfg17.win 5).blk t).view.set ((cfg17.win 5).blk t').view.set := by
  refine (cfg17.win 5).disjoint_blk fun h => hne (Fin.ext ?_)
  have h0 : win17_5.index t (0 : Fin 2) = win17_5.index t' (0 : Fin 2) := congrFun h (0 : Fin 2)
  rw [idx17_5 t, idx17_5 t'] at h0
  have h7 := (flush17_5 t).mp hf
  have h7' := (flush17_5 t').mp hf'
  omega

/-! ## The output array after the run -/

/-- After the whole grid, the block of the output array under a point that writes back (`t % 8 = 7`) holds what the
    accumulator held after that point. -/
theorem out17_block (V : Valuation τ sig (Elt F)) (c : Dev nD) (t : Fin cfg17.N) (ht : t.val % 8 = 7) :
    ((cfg17.win 5).blk t).view.read (Elt F) ((dat17 (Ix := Ix) (U := U) (Lvl := Lvl) V c).arrAt 5 64)
      = acc17 V c t.val t.isLt := by
  have hN : cfg17.N = 64 := N_17
  have hlt : t.val < 64 := Nat.lt_of_lt_of_eq t.isLt hN
  exact ((dat17 (Ix := Ix) (U := U) (Lvl := Lvl) V c).read_blk_arrAt_eq_flushed 5 disj17_5 64 t hlt
    ((flush17_5 t).mpr ht)).trans (after17_5 V c t)

end Cert.KernelIdeal.Hand

end

/-! # part: RegionValue1 -/
/-
  Region 1 (the aggregation kernel) read as a value: row r of its output is 1·x r plus the masked sum over all rows.

  The grid is 8 × 8, walked row by row: point t = 8·i + j stages the one threshold cell, rows 512·i … of the 4096 × 256
  arrays h and x (row block i) and rows 512·j … of the same two arrays (row block j) (idx_facts17 and the block reads
  mb17_apply … xj17_apply). At the ideal values the reset at j = 0 leaves 1·x r in the accumulator's entry of row
  r = 512·i + p (init17_apply), and the step of point 8·i + j adds Σ_q mask r (512·j + q) · x (512·j + q), the mask
  being 1 where the Gram matrix G r s = Σ_k h r k · h s k is above the threshold and 0 elsewhere (step17_apply). So after
  the eight points of row block i the entry holds 1·x r with the eight column blocks' terms added one by one
  (acc17_apply), which is 1·x r + Σ_s mask r s · x s over all 4096 rows s (acc17_last_apply): the eight blocks of 512 tile
  the 4096 columns, and addition on the extended reals is commutative and associative. The write-back at j = 7 puts
  that row block into the output array (arrAt17_5_block, arrAt17_5_value), and because the mask's entries are zeros and
  ones the diagonal term can be folded in: Σ_s (mask r s + δ r s) · x s (arrAt17_5_agg).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the arrays -/

/-- Point t = 8·i + j of the 8 × 8 grid stages: the one threshold cell (window 0), rows block i = t / 8 of h and of x
    (windows 1 and 3), rows block j = t % 8 of h and of x (windows 2 and 4), and writes rows block i of the output
    (window 5). -/
theorem idx_facts17 : ∀ t : Fin cfg17.N,
    (win17_0.index t 0 = 0 ∧ win17_0.index t 1 = 0) ∧ (win17_1.index t 0 = t.val / 8 ∧ win17_1.index t 1 = 0)
      ∧ (win17_2.index t 0 = t.val % 8 ∧ win17_2.index t 1 = 0) ∧ (win17_3.index t 0 = t.val / 8 ∧ win17_3.index t 1 = 0)
      ∧ (win17_4.index t 0 = t.val % 8 ∧ win17_4.index t 1 = 0) ∧ (win17_5.index t 0 = t.val / 8 ∧ win17_5.index t 1 = 0) :=
  (by decide +kernel : ∀ t : Fin grid17.N,
    (win17_0.index t 0 = 0 ∧ win17_0.index t 1 = 0) ∧ (win17_1.index t 0 = t.val / 8 ∧ win17_1.index t 1 = 0)
      ∧ (win17_2.index t 0 = t.val % 8 ∧ win17_2.index t 1 = 0) ∧ (win17_3.index t 0 = t.val / 8 ∧ win17_3.index t 1 = 0)
      ∧ (win17_4.index t 0 = t.val % 8 ∧ win17_4.index t 1 = 0) ∧ (win17_5.index t 0 = t.val / 8 ∧ win17_5.index t 1 = 0))

section AnyF

variable {F : FTy → Type} [FloatOps F]

/-- The threshold cell, the array h and the array x the region reads: region-entry contents. -/
abbrev marr17 (V : Valuation τ sig (Elt F)) : Vec F S1x1 .f32 := V (Proc.devRef .tc main_v579)
abbrev harr17 (V : Valuation τ sig (Elt F)) : Vec F S4096x256 .f32 := V (Proc.devRef .tc main_v576)
abbrev xarr17 (V : Valuation τ sig (Elt F)) : Vec F S4096x256 .f32 := V (Proc.devRef .tc main_v557)

/-- The five input blocks at point t, each as an array of its literal shape. -/
abbrev mb17 (V : Valuation τ sig (Elt F)) (c : Dev nD) (t : Fin cfg17.N) : Vec F S1x1 .f32 := iblk17 V c 0 t
abbrev hi17 (V : Valuation τ sig (Elt F)) (c : Dev nD) (t : Fin cfg17.N) : Vec F S512x256 .f32 := iblk17 V c 1 t
abbrev hj17 (V : Valuation τ sig (Elt F)) (c : Dev nD) (t : Fin cfg17.N) : Vec F S512x256 .f32 := iblk17 V c 2 t
abbrev xi17 (V : Valuation τ sig (Elt F)) (c : Dev nD) (t : Fin cfg17.N) : Vec F S512x256 .f32 := iblk17 V c 3 t
abbrev xj17 (V : Valuation τ sig (Elt F)) (c : Dev nD) (t : Fin cfg17.N) : Vec F S512x256 .f32 := iblk17 V c 4 t

/-- Window 0's block is the threshold cell itself. -/
theorem mb17_apply (V : Valuation τ sig (Elt F)) (c : Dev nD) (t : Fin cfg17.N) (y : S1x1.Idx) :
    mb17 V c t y = marr17 V y := by
  obtain ⟨⟨hA, hB⟩, -, -, -, -, -⟩ := idx_facts17 t
  show (iblk17 V c 0 t : Vec F S1x1 .f32) y = _
  unfold iblk17
  rw [View.read_apply]
  show V (Proc.devRef .tc main_v579) _ = V (Proc.devRef .tc main_v579) _
  congr 1
  funext a
  apply Fin.ext
  match a with
  | ⟨0, _⟩ => show win17_0.index t 0 * 1 + 1 * (y 0).val = (y 0).val; rw [hA]; omega
  | ⟨1, _⟩ => show win17_0.index t 1 * 1 + 1 * (y 1).val = (y 1).val; rw [hB]; omega

/-- Window 1's block at point t is rows 512·(t / 8) … of h. -/
theorem hi17_apply (V : Valuation τ sig (Elt F)) (c : Dev nD) (t : Fin cfg17.N) (y : S512x256.Idx) (k : S4096x256.Idx)
    (hkr : (k 0).val = 512 * (t.val / 8) + (y 0).val) (hkc : (k 1).val = (y 1).val) :
    hi17 V c t y = harr17 V k := by
  obtain ⟨-, ⟨hA, hB⟩, -, -, -, -⟩ := idx_facts17 t
  show (iblk17 V c 1 t : Vec F S512x256 .f32) y = _
  unfold iblk17
  rw [View.read_apply]
  show V (Proc.devRef .tc main_v576) _ = V (Proc.devRef .tc main_v576) _
  congr 1
  funext a
  apply Fin.ext
  match a with
  | ⟨0, _⟩ => show win17_1.index t 0 * 512 + 1 * (y 0).val = (k 0).val; rw [hA, hkr]; omega
  | ⟨1, _⟩ => show win17_1.index t 1 * 256 + 1 * (y 1).val = (k 1).val; rw [hB, hkc]; omega

/-- Window 2's block at point t is rows 512·(t % 8) … of h. -/
theorem hj17_apply (V : Valuation τ sig (Elt F)) (c : Dev nD) (t : Fin cfg17.N) (y : S512x256.Idx) (k : S4096x256.Idx)
    (hkr : (k 0).val = 512 * (t.val % 8) + (y 0).val) (hkc : (k 1).val = (y 1).val) :
    hj17 V c t y = harr17 V k := by
  obtain ⟨-, -, ⟨hA, hB⟩, -, -, -⟩ := idx_facts17 t
  show (iblk17 V c 2 t : Vec F S512x256 .f32) y = _
  unfold iblk17
  rw [View.read_apply]
  show V (Proc.devRef .tc main_v576) _ = V (Proc.devRef .tc main_v576) _
  congr 1
  funext a
  apply Fin.ext
  match a with
  | ⟨0, _⟩ => show win17_2.index t 0 * 512 + 1 * (y 0).val = (k 0).val; rw [hA, hkr]; omega
  | ⟨1, _⟩ => show win17_2.index t 1 * 256 + 1 * (y 1).val = (k 1).val; rw [hB, hkc]; omega

/-- Window 3's block at point t is rows 512·(t / 8) … of x. -/
theorem xi17_apply (V : Valuation τ sig (Elt F)) (c : Dev nD) (t : Fin cfg17.N) (y : S512x256.Idx) (k : S4096x256.Idx)
    (hkr : (k 0).val = 512 * (t.val / 8) + (y 0).val) (hkc : (k 1).val = (y 1).val) :
    xi17 V c t y = xarr17 V k := by
  obtain ⟨-, -, -, ⟨hA, hB⟩, -, -⟩ := idx_facts17 t
  show (iblk17 V c 3 t : Vec F S512x256 .f32) y = _
  unfold iblk17
  rw [View.read_apply]
  show V (Proc.devRef .tc main_v557) _ = V (Proc.devRef .tc main_v557) _
  congr 1
  funext a
  apply Fin.ext
  match a with
  | ⟨0, _⟩ => show win17_3.index t 0 * 512 + 1 * (y 0).val = (k 0).val; rw [hA, hkr]; omega
  | ⟨1, _⟩ => show win17_3.index t 1 * 256 + 1 * (y 1).val = (k 1).val; rw [hB, hkc]; omega

/-- Window 4's block at point t is rows 512·(t % 8) … of x. -/
theorem xj17_apply (V : Valuation τ sig (Elt F)) (c : Dev nD) (t : Fin cfg17.N) (y : S512x256.Idx) (k : S4096x256.Idx)
    (hkr : (k 0).val = 512 * (t.val % 8) + (y 0).val) (hkc : (k 1).val = (y 1).val) :
    xj17 V c t y = xarr17 V k := by
  obtain ⟨-, -, -, -, ⟨hA, hB⟩, -⟩ := idx_facts17 t
  show (iblk17 V c 4 t : Vec F S512x256 .f32) y = _
  unfold iblk17
  rw [View.read_apply]
  show V (Proc.devRef .tc main_v557) _ = V (Proc.devRef .tc main_v557) _
  congr 1
  funext a
  apply Fin.ext
  match a with
  | ⟨0, _⟩ => show win17_4.index t 0 * 512 + 1 * (y 0).val = (k 0).val; rw [hA, hkr]; omega
  | ⟨1, _⟩ => show win17_4.index t 1 * 256 + 1 * (y 1).val = (k 1).val; rw [hB, hkc]; omega

/-- The accumulator after point n depends on n only through its value. -/
theorem acc17_congr (V : Valuation τ sig (Elt F)) (c : Dev nD) {n n' : ℕ} (e : n = n') (hn : n < cfg17.N) (hn' : n' < cfg17.N) :
    acc17 V c n hn = acc17 V c n' hn' := by
  subst e; rfl

/-- At the first point of row block i the accumulator is reset and stepped once … -/
theorem acc17_row_zero (V : Valuation τ sig (Elt F)) (c : Dev nD) (i : ℕ) (hn : 8 * i + 0 < cfg17.N) :
    acc17 V c (8 * i + 0) hn = step17 V c (8 * i + 0) hn (init17 V c (8 * i + 0) hn) :=
  acc17_reset V c (8 * i + 0) hn (by omega)

/-- … and at each later point of the row block it is stepped from what the point before left. -/
theorem acc17_row_succ (V : Valuation τ sig (Elt F)) (c : Dev nD) (i j : ℕ) (hj : j + 1 < 8) (hn : 8 * i + (j + 1) < cfg17.N) :
    acc17 V c (8 * i + (j + 1)) hn = step17 V c (8 * i + (j + 1)) hn (acc17 V c (8 * i + j) (by omega)) :=
  (acc17_step V c (8 * i + (j + 1)) hn (by omega)).trans
    (congrArg (step17 V c (8 * i + (j + 1)) hn) (acc17_congr V c (by omega) _ _))

end AnyF

/-! ## The accumulator at the ideal values -/

/-- The Gram matrix of the rows of h. -/
noncomputable def gram17 (V : Valuation τ sig (Elt Ideal)) (r s : Fin 4096) : EReal :=
  ∑ k : Fin 256, (harr17 V (ix2 r k) : EReal) * (harr17 V (ix2 s k) : EReal)

/-- The 0/1 mask: 1 where the Gram matrix's entry is above the threshold, else 0. -/
noncomputable def mask17 (V : Valuation τ sig (Elt Ideal)) (r s : Fin 4096) : EReal :=
  if (marr17 V (ix2 (0 : Fin 1) (0 : Fin 1)) : EReal) < gram17 V r s then 1 else 0

/-- The mask's entries are zero or one. -/
theorem mask17_zero_or_one (V : Valuation τ sig (Elt Ideal)) (r s : Fin 4096) : mask17 V r s = 0 ∨ mask17 V r s = 1 := by
  unfold mask17
  exact GridSum.ite_zero_or_one _

/-- What column block j adds to the accumulator's entry of row r and feature d (zero past the eight blocks). -/
noncomputable def blockTerm17 (V : Valuation τ sig (Elt Ideal)) (r : Fin 4096) (d : Fin 256) (j : ℕ) : EReal :=
  if hj : j < 8 then
    ∑ q : Fin 512, mask17 V r (GridSum.idx4096 ⟨j, hj⟩ q) * (xarr17 V (ix2 (GridSum.idx4096 ⟨j, hj⟩ q) d) : EReal)
  else 0

theorem blockTerm17_of_lt (V : Valuation τ sig (Elt Ideal)) (r : Fin 4096) (d : Fin 256) (j : ℕ) (hj : j < 8) :
    blockTerm17 V r d j
      = ∑ q : Fin 512, mask17 V r (GridSum.idx4096 ⟨j, hj⟩ q) * (xarr17 V (ix2 (GridSum.idx4096 ⟨j, hj⟩ q) d) : EReal) := by
  unfold blockTerm17
  exact dif_pos hj

/-- One step at point 8·i + j adds column block j's term to the entry of row 512·i + p. -/
theorem step17_apply (V : Valuation τ sig (Elt Ideal)) (c : Dev nD) (i : Fin 8) (j : ℕ) (hj : j < 8)
    (hn : 8 * (i : ℕ) + j < cfg17.N) (a : Vec Ideal S512x256 .f32) (p : Fin 512) (d : Fin 256) :
    (step17 V c (8 * (i : ℕ) + j) hn a (ix2 p d) : EReal) = (a (ix2 p d) : EReal) + blockTerm17 V (GridSum.idx4096 i p) d j := by
  have hi : (i : ℕ) < 8 := i.isLt
  have e := k17_pay2_apply (hi17 V c ⟨8 * (i : ℕ) + j, hn⟩) (hj17 V c ⟨8 * (i : ℕ) + j, hn⟩) (mb17 V c ⟨8 * (i : ℕ) + j, hn⟩)
    (xj17 V c ⟨8 * (i : ℕ) + j, hn⟩) a p d
  rw [blockTerm17_of_lt V _ d j hj]
  refine e.trans ?_
  congr 1
  refine Finset.sum_congr rfl fun q _ => ?_
  rw [mb17_apply V c ⟨8 * (i : ℕ) + j, hn⟩ (ix2 (0 : Fin 1) (0 : Fin 1)),
    xj17_apply V c ⟨8 * (i : ℕ) + j, hn⟩ (ix2 q d) (ix2 (GridSum.idx4096 ⟨j, hj⟩ q) d)
      (by show 512 * j + (q : ℕ) = 512 * ((8 * (i : ℕ) + j) % 8) + (q : ℕ); omega) rfl]
  congr 1
  unfold mask17 gram17
  have hs : (∑ k : Fin 256, (hi17 V c ⟨8 * (i : ℕ) + j, hn⟩ (ix2 p k) : EReal) * (hj17 V c ⟨8 * (i : ℕ) + j, hn⟩ (ix2 q k) : EReal))
      = ∑ k : Fin 256, (harr17 V (ix2 (GridSum.idx4096 i p) k) : EReal) * (harr17 V (ix2 (GridSum.idx4096 ⟨j, hj⟩ q) k) : EReal) :=
    Finset.sum_congr rfl fun k _ => by
      rw [hi17_apply V c ⟨8 * (i : ℕ) + j, hn⟩ (ix2 p k) (ix2 (GridSum.idx4096 i p) k)
          (by show 512 * (i : ℕ) + (p : ℕ) = 512 * ((8 * (i : ℕ) + j) / 8) + (p : ℕ); omega) rfl,
        hj17_apply V c ⟨8 * (i : ℕ) + j, hn⟩ (ix2 q k) (ix2 (GridSum.idx4096 ⟨j, hj⟩ q) k)
          (by show 512 * j + (q : ℕ) = 512 * ((8 * (i : ℕ) + j) % 8) + (q : ℕ); omega) rfl]
  rw [hs]

/-- The reset value at point 8·i + j is 1 times the entry of x at row 512·i + p. -/
theorem init17_apply (V : Valuation τ sig (Elt Ideal)) (c : Dev nD) (i : Fin 8) (j : ℕ) (hj : j < 8)
    (hn : 8 * (i : ℕ) + j < cfg17.N) (p : Fin 512) (d : Fin 256) :
    (init17 V c (8 * (i : ℕ) + j) hn (ix2 p d) : EReal) = 1 * (xarr17 V (ix2 (GridSum.idx4096 i p) d) : EReal) := by
  have hi : (i : ℕ) < 8 := i.isLt
  have e := k17_pay1_apply (xi17 V c ⟨8 * (i : ℕ) + j, hn⟩) p d
  refine e.trans ?_
  rw [xi17_apply V c ⟨8 * (i : ℕ) + j, hn⟩ (ix2 p d) (ix2 (GridSum.idx4096 i p) d)
    (by show 512 * (i : ℕ) + (p : ℕ) = 512 * ((8 * (i : ℕ) + j) / 8) + (p : ℕ); omega) rfl]

/-- After point 8·i + j the accumulator's entry of row r = 512·i + p holds 1·x r with the terms of the column blocks
    0 … j added one by one. -/
theorem acc17_apply (V : Valuation τ sig (Elt Ideal)) (c : Dev nD) (i : Fin 8) (p : Fin 512) (d : Fin 256) :
    ∀ (j : ℕ) (hj : j < 8) (hn : 8 * (i : ℕ) + j < cfg17.N),
      (acc17 V c (8 * (i : ℕ) + j) hn (ix2 p d) : EReal)
        = GridSum.accFold (1 * (xarr17 V (ix2 (GridSum.idx4096 i p) d) : EReal)) (blockTerm17 V (GridSum.idx4096 i p) d) (j + 1)
  | 0, hj, hn => by
    rw [acc17_row_zero V c (i : ℕ) hn, step17_apply V c i 0 hj hn _ p d, init17_apply V c i 0 hj hn p d,
      GridSum.accFold_succ, GridSum.accFold_zero]
  | j + 1, hj, hn => by
    rw [acc17_row_succ V c (i : ℕ) j hj hn, step17_apply V c i (j + 1) hj hn _ p d,
      acc17_apply V c i p d j (by omega) (by omega), GridSum.accFold_succ _ _ (j + 1)]

/-- THE AGGREGATION KERNEL'S VALUE at the last point of row block i: the entry of row r = 512·i + p and feature d is
    1·x r d plus the sum over all 4096 rows s of mask r s · x s d. -/
theorem acc17_last_apply (V : Valuation τ sig (Elt Ideal)) (c : Dev nD) (i : Fin 8) (p : Fin 512) (d : Fin 256)
    (hn : 8 * (i : ℕ) + 7 < cfg17.N) :
    (acc17 V c (8 * (i : ℕ) + 7) hn (ix2 p d) : EReal)
      = 1 * (xarr17 V (ix2 (GridSum.idx4096 i p) d) : EReal)
        + ∑ s : Fin 4096, mask17 V (GridSum.idx4096 i p) s * (xarr17 V (ix2 s d) : EReal) := by
  rw [acc17_apply V c i p d 7 (by omega) hn, GridSum.accFold_eq_sum,
    GridSum.sum_range_fin (blockTerm17 V (GridSum.idx4096 i p) d)
      (fun j : Fin 8 => ∑ q : Fin 512, mask17 V (GridSum.idx4096 i p) (GridSum.idx4096 j q) * (xarr17 V (ix2 (GridSum.idx4096 j q) d) : EReal))
      (fun j => blockTerm17_of_lt V _ d (j : ℕ) j.isLt),
    GridSum.sum_blocks GridSum.eight_mul (fun s : Fin 4096 => mask17 V (GridSum.idx4096 i p) s * (xarr17 V (ix2 s d) : EReal))]

/-! ## The output array after the run -/

section Array

variable {F : FTy → Type} [FloatOps F]
variable {Ix : Type} [DecidableEq Ix] {U : Type} [URA U] {Lvl : Type}

/-- The output window's block at point t is rows 512·(t / 8) … of the output array. -/
theorem oblk17_apply (c : Dev nD) (X : Buf (Elt F) ((cfg17.win 5).arr.view.loc (c.tc : Thread nD τ))) (t : Fin cfg17.N)
    (y : S512x256.Idx) (k : S4096x256.Idx) (hkr : (k 0).val = 512 * (t.val / 8) + (y 0).val) (hkc : (k 1).val = (y 1).val) :
    (((cfg17.win 5).blk t).view.read (Elt F) X : Vec F S512x256 .f32) y = (X : S4096x256.Idx → Elt F .f32) k := by
  obtain ⟨-, -, -, -, -, ⟨hA, hB⟩⟩ := idx_facts17 t
  rw [View.read_apply]
  have e : ((cfg17.win 5).blk t).view.emb y = k := by
    funext a
    apply Fin.ext
    match a with
    | ⟨0, _⟩ => show win17_5.index t 0 * 512 + 1 * (y 0).val = (k 0).val; rw [hA, hkr]; omega
    | ⟨1, _⟩ => show win17_5.index t 1 * 256 + 1 * (y 1).val = (k 1).val; rw [hB, hkc]; omega
  exact congrArg X e

/-- After the whole grid the output array's entry of row 512·i + p is what the accumulator held, at row p, after the
    last point of row block i. -/
theorem arrAt17_5_block (V : Valuation τ sig (Elt F)) (c : Dev nD) (i : Fin 8) (p : Fin 512) (d : Fin 256)
    (hn : 8 * (i : ℕ) + 7 < cfg17.N) :
    ((dat17 (Ix := Ix) (U := U) (Lvl := Lvl) V c).arrAt 5 64 : S4096x256.Idx → Elt F .f32) (ix2 (GridSum.idx4096 i p) d)
      = (acc17 V c (8 * (i : ℕ) + 7) hn : Vec F S512x256 .f32) (ix2 p d) := by
  have hi : (i : ℕ) < 8 := i.isLt
  refine (oblk17_apply c ((dat17 (Ix := Ix) (U := U) (Lvl := Lvl) V c).arrAt 5 64) ⟨8 * (i : ℕ) + 7, hn⟩ (ix2 p d)
    (ix2 (GridSum.idx4096 i p) d)
    (by show 512 * (i : ℕ) + (p : ℕ) = 512 * ((8 * (i : ℕ) + 7) / 8) + (p : ℕ); omega) rfl).symm.trans ?_
  exact congrFun (out17_block (Ix := Ix) (U := U) (Lvl := Lvl) V c ⟨8 * (i : ℕ) + 7, hn⟩
    (by show (8 * (i : ℕ) + 7) % 8 = 7; omega)) (ix2 p d)

/-- THE AGGREGATION KERNEL'S OUTPUT ARRAY at the ideal values: the entry of row r and feature d is 1·x r d plus the sum
    over all rows s of mask r s · x s d, the mask being 1 where the Gram matrix of the rows of h is above the threshold. -/
theorem arrAt17_5_value (V : Valuation τ sig (Elt Ideal)) (c : Dev nD) (r : Fin 4096) (d : Fin 256) :
    (((dat17 (Ix := Ix) (U := U) (Lvl := Lvl) V c).arrAt 5 64 : S4096x256.Idx → Elt Ideal .f32) (ix2 r d) : EReal)
      = 1 * (xarr17 V (ix2 r d) : EReal) + ∑ s : Fin 4096, mask17 V r s * (xarr17 V (ix2 s d) : EReal) := by
  have hN : cfg17.N = 64 := N_17
  obtain ⟨i, p, rfl⟩ := GridSum.exists_idx4096 r
  have hi : (i : ℕ) < 8 := i.isLt
  have hn : 8 * (i : ℕ) + 7 < cfg17.N := by omega
  exact (arrAt17_5_block (Ix := Ix) (U := U) (Lvl := Lvl) V c i p d hn).trans (acc17_last_apply V c i p d hn)

/-- The same with the diagonal folded into the mask: Σ_s (mask r s + δ r s) · x s d, the aggregate law of zeros and ones
    on the extended reals. -/
theorem arrAt17_5_agg (V : Valuation τ sig (Elt Ideal)) (c : Dev nD) (r : Fin 4096) (d : Fin 256) :
    (((dat17 (Ix := Ix) (U := U) (Lvl := Lvl) V c).arrAt 5 64 : S4096x256.Idx → Elt Ideal .f32) (ix2 r d) : EReal)
      = ∑ s : Fin 4096, (mask17 V r s + (if r = s then 1 else 0)) * (xarr17 V (ix2 s d) : EReal) :=
  (arrAt17_5_value (Ix := Ix) (U := U) (Lvl := Lvl) V c r d).trans
    (GridSum.aggregate_law_ite (mask17 V) (fun s => (xarr17 V (ix2 s d) : EReal)) (mask17_zero_or_one V) r)

/-- The same as an equation of arrays: the output array is the closed form aggVal of the threshold cell, h and x. -/
theorem region17_value (V : Valuation τ sig (Elt Ideal)) (c : Dev nD) :
    ((dat17 (Ix := Ix) (U := U) (Lvl := Lvl) V c).arrAt 5 64 : S4096x256.Idx → Elt Ideal .f32)
      = Cert.Hand.aggVal (marr17 V) (harr17 V) (xarr17 V) := by
  funext j
  obtain ⟨r, d, rfl⟩ : ∃ (r : Fin 4096) (d : Fin 256), j = ix2 r d := ⟨j 0, j 1, eq_ix2 j⟩
  exact arrAt17_5_value (Ix := Ix) (U := U) (Lvl := Lvl) V c r d

end Array

end Cert.KernelIdeal.Hand

end
-- ==== Proof.RgV18.lean ====
import Idealize.ShloMosaic.Lib.Pipeline.Value
import proofs.«169706_j68856915690108_1_alg».proof.Proof.UnitIdx
import proofs.«169706_j68856915690108_1_alg».proof.Proof.AggVal
import proofs.«169706_j68856915690108_1_alg».proof.Proof.TileValue
import proofs.«169706_j68856915690108_1_alg».proof.Proof.LibGridSum
import Idealize.ShloMosaic.Lib.ValueIdx
import proofs.«169706_j68856915690108_1_alg».proof.Proof.Rg18

/-! # part: SumValue -/
/-
  Region 0 (the tile-sum kernel): what the run leaves in the output array.

  The output window's block is the whole 1 × 1 output array, and it is written back once, after the last of the 64
  points. So after the whole grid the output array's one cell holds what the scratch cell held after point 63: the sum
  of all 64 tiles.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The one write-back -/

/-- Only the last point writes the output block back, so no two different points do. -/
theorem disj18_2 (t t' : Fin cfg18.N) (hf : (cfg18.win 2).flush t = true) (hf' : (cfg18.win 2).flush t' = true)
    (hne : t ≠ t') : Disjoint ((cfg18.win 2).blk t).view.set ((cfg18.win 2).blk t').view.set := by
  have hN : cfg18.N = 64 := N_18
  have h := (flush18_2 t).mp hf
  have h' := (flush18_2 t').mp hf'
  have := t.isLt; have := t'.isLt
  exact absurd (Fin.ext (by omega)) hne

/-- The grid has a point 63, its last. -/
theorem last18_lt : 63 < cfg18.N := by decide

/-- The last point writes the output block back. -/
theorem flush18_2_last : (cfg18.win 2).flush ⟨63, last18_lt⟩ = true := (flush18_2 _).mpr (by decide)

/-! ## The output array after the run -/

/-- After the whole grid, the output block read back through the window holds what the scratch cell held after the
    last point. -/
theorem out18_block (V : Valuation τ sig (Elt F)) (c : Dev nD) :
    ((cfg18.win 2).blk ⟨63, last18_lt⟩).view.read (Elt F) ((dat18 (Ix := Ix) (U := U) (Lvl := Lvl) V c).arrAt 2 64)
      = acc18 V c 63 last18_lt :=
  ((dat18 (Ix := Ix) (U := U) (Lvl := Lvl) V c).read_blk_arrAt_eq_flushed 2 disj18_2 64 ⟨63, last18_lt⟩ (by decide)
    flush18_2_last).trans (after18_2 V c ⟨63, last18_lt⟩)

/-- The output array after the whole grid, cell by cell: what the scratch cell held after the last point. -/
theorem arrAt18_2_apply (V : Valuation τ sig (Elt F)) (c : Dev nD) (i : S1x1.Idx) :
    ((dat18 (Ix := Ix) (U := U) (Lvl := Lvl) V c).arrAt 2 64 : S1x1.Idx → Elt F .f32) i = acc18 V c 63 last18_lt i := by
  have h := congrFun (out18_block (Ix := Ix) (U := U) (Lvl := Lvl) V c) i
  rw [View.read_apply] at h
  rw [← h, unit_idx_eq (((cfg18.win 2).blk ⟨63, last18_lt⟩).view.emb i) i]
  rfl

/-- The output array after the whole grid, as a 1 × 1 vector. -/
theorem arrAt18_2 (V : Valuation τ sig (Elt F)) (c : Dev nD) :
    ((dat18 (Ix := Ix) (U := U) (Lvl := Lvl) V c).arrAt 2 64 : S1x1.Idx → Elt F .f32) = acc18 V c 63 last18_lt :=
  funext fun i => arrAt18_2_apply V c i

end Cert.KernelIdeal.Hand

end

/-! # part: RegionValue0 -/
/-
  Region 0 (the tile-sum kernel) read as a value: the cell it accumulates ends at the sum of the whole Gram matrix.

  The grid is 8 × 8, walked row by row: point t = 8·i + j stages rows 512·i … 512·i + 511 of the 4096 × 256 array h
  through its first window and rows 512·j … of the same array through its second (idx_facts18, hi18_apply, hj18_apply).
  At the ideal values the step of one point adds to the 1 × 1 cell the sum of the 512 × 512 tile
  Σ_p Σ_q Σ_k h (512·i + p) k · h (512·j + q) k, and the cell starts from zero, so after point n it holds the tile sums
  of the points 0 … n added one by one (acc18_apply). The 64 tiles are exactly the 8 × 8 tiling of the 4096 × 4096 Gram
  matrix G r s = Σ_k h r k · h s k (tile18_grid), and on the extended reals addition is commutative and associative, so
  after the last point the cell holds Σ_r Σ_s G r s (acc18_last_apply): no finiteness of h is needed. The one write-back, after
  the last point, copies the cell into the 1 × 1 output array (arrAt18_2_value, region18_value).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the array -/

/-- Point t = 8·i + j of the 8 × 8 grid stages rows block i = t / 8 through window 0, rows block j = t % 8 through
    window 1, and the one cell through window 2. -/
theorem idx_facts18 : ∀ t : Fin cfg18.N,
    win18_0.index t 0 = t.val / 8 ∧ win18_0.index t 1 = 0 ∧ win18_1.index t 0 = t.val % 8 ∧ win18_1.index t 1 = 0
      ∧ win18_2.index t 0 = 0 ∧ win18_2.index t 1 = 0 :=
  (by decide +kernel : ∀ t : Fin grid18.N,
    win18_0.index t 0 = t.val / 8 ∧ win18_0.index t 1 = 0 ∧ win18_1.index t 0 = t.val % 8 ∧ win18_1.index t 1 = 0
      ∧ win18_2.index t 0 = 0 ∧ win18_2.index t 1 = 0)

section AnyF

variable {F : FTy → Type} [FloatOps F]

/-- The array h both input windows read: the region-entry contents of the first window's array. -/
abbrev harr18 (V : Valuation τ sig (Elt F)) : Vec F S4096x256 .f32 := V (Proc.devRef .tc main_v648)

/-- The block of h window 0 stages at point t, as a 512 × 256 array. -/
abbrev hi18 (V : Valuation τ sig (Elt F)) (c : Dev nD) (t : Fin cfg18.N) : Vec F S512x256 .f32 := iblk18 V c 0 t
/-- The block of h window 1 stages at point t, as a 512 × 256 array. -/
abbrev hj18 (V : Valuation τ sig (Elt F)) (c : Dev nD) (t : Fin cfg18.N) : Vec F S512x256 .f32 := iblk18 V c 1 t

/-- Window 0's block at point t is rows 512·(t / 8) … of h. -/
theorem hi18_apply (V : Valuation τ sig (Elt F)) (c : Dev nD) (t : Fin cfg18.N) (y : S512x256.Idx) (k : S4096x256.Idx)
    (hkr : (k 0).val = 512 * (t.val / 8) + (y 0).val) (hkc : (k 1).val = (y 1).val) :
    hi18 V c t y = harr18 V k := by
  obtain ⟨hA, hB, -, -, -, -⟩ := idx_facts18 t
  show (iblk18 V c 0 t : Vec F S512x256 .f32) y = _
  unfold iblk18
  rw [View.read_apply]
  show V (Proc.devRef .tc main_v648) _ = V (Proc.devRef .tc main_v648) _
  congr 1
  funext a
  apply Fin.ext
  match a with
  | ⟨0, _⟩ => show win18_0.index t 0 * 512 + 1 * (y 0).val = (k 0).val; rw [hA, hkr]; omega
  | ⟨1, _⟩ => show win18_0.index t 1 * 256 + 1 * (y 1).val = (k 1).val; rw [hB, hkc]; omega

/-- Window 1's block at point t is rows 512·(t % 8) … of h. -/
theorem hj18_apply (V : Valuation τ sig (Elt F)) (c : Dev nD) (t : Fin cfg18.N) (y : S512x256.Idx) (k : S4096x256.Idx)
    (hkr : (k 0).val = 512 * (t.val % 8) + (y 0).val) (hkc : (k 1).val = (y 1).val) :
    hj18 V c t y = harr18 V k := by
  obtain ⟨-, -, hA, hB, -, -⟩ := idx_facts18 t
  show (iblk18 V c 1 t : Vec F S512x256 .f32) y = _
  unfold iblk18
  rw [View.read_apply]
  show V (Proc.devRef .tc main_v648) _ = V (Proc.devRef .tc main_v648) _
  congr 1
  funext a
  apply Fin.ext
  match a with
  | ⟨0, _⟩ => show win18_1.index t 0 * 512 + 1 * (y 0).val = (k 0).val; rw [hA, hkr]; omega
  | ⟨1, _⟩ => show win18_1.index t 1 * 256 + 1 * (y 1).val = (k 1).val; rw [hB, hkc]; omega

end AnyF

/-! ## The accumulated cell at the ideal values -/

/-- The Gram matrix of the rows of h: entry (r, s) is the sum over the 256 columns of the products. -/
noncomputable def gram18 (V : Valuation τ sig (Elt Ideal)) (r s : Fin 4096) : EReal :=
  ∑ k : Fin 256, (harr18 V (ix2 r k) : EReal) * (harr18 V (ix2 s k) : EReal)

/-- The sum of the 512 × 512 tile the point t stages (zero past the grid). -/
noncomputable def tile18 (V : Valuation τ sig (Elt Ideal)) (c : Dev nD) (t : ℕ) : EReal :=
  if ht : t < cfg18.N then
    ∑ p : Fin 512, ∑ q : Fin 512, ∑ k : Fin 256, (hi18 V c ⟨t, ht⟩ (ix2 p k) : EReal) * (hj18 V c ⟨t, ht⟩ (ix2 q k) : EReal)
  else 0

theorem tile18_of_lt (V : Valuation τ sig (Elt Ideal)) (c : Dev nD) (t : ℕ) (ht : t < cfg18.N) :
    tile18 V c t
      = ∑ p : Fin 512, ∑ q : Fin 512, ∑ k : Fin 256, (hi18 V c ⟨t, ht⟩ (ix2 p k) : EReal) * (hj18 V c ⟨t, ht⟩ (ix2 q k) : EReal) := by
  unfold tile18
  exact dif_pos ht

/-- After point n the cell holds the tile sums of the points 0 … n added one by one onto zero. -/
theorem acc18_apply (V : Valuation τ sig (Elt Ideal)) (c : Dev nD) :
    ∀ (n : ℕ) (hn : n < cfg18.N) (a b : Fin 1),
      ((acc18 V c n hn : Vec Ideal S1x1 .f32) (ix2 a b) : EReal) = GridSum.accFold 0 (tile18 V c) (n + 1)
  | 0, hn, a, b => by
    have e := k18_pay2_apply (hi18 V c ⟨0, hn⟩) (hj18 V c ⟨0, hn⟩) (k18_pay1 (F := Ideal)) a b
    rw [k18_pay1_apply] at e
    rw [GridSum.accFold_succ, GridSum.accFold_zero, tile18_of_lt V c 0 hn]
    exact e
  | n + 1, hn, a, b => by
    have e := k18_pay2_apply (hi18 V c ⟨n + 1, hn⟩) (hj18 V c ⟨n + 1, hn⟩) (acc18 V c n (Nat.lt_of_succ_lt hn)) a b
    rw [acc18_apply V c n (Nat.lt_of_succ_lt hn) a b] at e
    rw [GridSum.accFold_succ _ _ (n + 1), tile18_of_lt V c (n + 1) hn]
    exact e

/-- The tile of point 8·i + j is the 512 × 512 tile (i, j) of the Gram matrix. -/
theorem tile18_grid (V : Valuation τ sig (Elt Ideal)) (c : Dev nD) (i j : Fin 8) :
    tile18 V c (8 * (i : ℕ) + (j : ℕ))
      = ∑ p : Fin 512, ∑ q : Fin 512, gram18 V (GridSum.idx4096 i p) (GridSum.idx4096 j q) := by
  have hi : (i : ℕ) < 8 := i.isLt
  have hj : (j : ℕ) < 8 := j.isLt
  have hN : cfg18.N = 64 := N_18
  have ht : 8 * (i : ℕ) + (j : ℕ) < cfg18.N := by omega
  rw [tile18_of_lt V c _ ht]
  refine Finset.sum_congr rfl fun p _ => Finset.sum_congr rfl fun q _ => ?_
  unfold gram18
  refine Finset.sum_congr rfl fun k _ => ?_
  rw [hi18_apply V c ⟨_, ht⟩ (ix2 p k) (ix2 (GridSum.idx4096 i p) k)
      (by show 512 * (i : ℕ) + (p : ℕ) = 512 * ((8 * (i : ℕ) + (j : ℕ)) / 8) + (p : ℕ); omega) rfl,
    hj18_apply V c ⟨_, ht⟩ (ix2 q k) (ix2 (GridSum.idx4096 j q) k)
      (by show 512 * (j : ℕ) + (q : ℕ) = 512 * ((8 * (i : ℕ) + (j : ℕ)) % 8) + (q : ℕ); omega) rfl]

/-- THE SUM KERNEL'S VALUE. After the last point the cell holds the sum of the whole 4096 × 4096 Gram matrix of the
    rows of h: the 64 tile sums, taken in the grid's row-major order, add up to the sum over all pairs of rows. -/
theorem acc18_last_apply (V : Valuation τ sig (Elt Ideal)) (c : Dev nD) (hlast : 63 < cfg18.N) (a b : Fin 1) :
    ((acc18 V c 63 hlast : Vec Ideal S1x1 .f32) (ix2 a b) : EReal)
      = ∑ r : Fin 4096, ∑ s : Fin 4096, ∑ k : Fin 256, (harr18 V (ix2 r k) : EReal) * (harr18 V (ix2 s k) : EReal) := by
  rw [acc18_apply V c 63 hlast a b, GridSum.accFold_tiles_4096 (gram18 V) 0 (tile18 V c) (tile18_grid V c), zero_add]
  rfl

/-! ## The output array after the run -/

section Array

variable {Ix : Type} [DecidableEq Ix] {U : Type} [URA U] {Lvl : Type}

/-- THE SUM KERNEL'S OUTPUT ARRAY at the ideal values: after the whole grid its one cell holds the sum of the whole
    4096 × 4096 Gram matrix of the rows of h. -/
theorem arrAt18_2_value (V : Valuation τ sig (Elt Ideal)) (c : Dev nD) (a b : Fin 1) :
    (((dat18 (Ix := Ix) (U := U) (Lvl := Lvl) V c).arrAt 2 64 : S1x1.Idx → Elt Ideal .f32) (ix2 a b) : EReal)
      = ∑ r : Fin 4096, ∑ s : Fin 4096, ∑ k : Fin 256, (harr18 V (ix2 r k) : EReal) * (harr18 V (ix2 s k) : EReal) :=
  (arrAt18_2_apply (Ix := Ix) (U := U) (Lvl := Lvl) V c (ix2 a b)).trans (acc18_last_apply V c (by decide) a b)

/-- The same as an equation of arrays: the output array is the closed form sumVal of h. -/
theorem region18_value (V : Valuation τ sig (Elt Ideal)) (c : Dev nD) :
    ((dat18 (Ix := Ix) (U := U) (Lvl := Lvl) V c).arrAt 2 64 : S1x1.Idx → Elt Ideal .f32) = Cert.Hand.sumVal (harr18 V) := by
  funext i
  obtain ⟨a, b, rfl⟩ : ∃ (a b : Fin 1), i = ix2 a b := ⟨i 0, i 1, eq_ix2 i⟩
  exact arrAt18_2_value (Ix := Ix) (U := U) (Lvl := Lvl) V c a b

end Array

end Cert.KernelIdeal.Hand

end
-- ==== Proof.RgV19.lean ====
import Idealize.ShloMosaic.Lib.Pipeline.Value
import proofs.«169706_j68856915690108_1_alg».proof.Proof.TileValue
import proofs.«169706_j68856915690108_1_alg».proof.Proof.LibGridSum
import proofs.«169706_j68856915690108_1_alg».proof.Proof.RegionValueLib
import proofs.«169706_j68856915690108_1_alg».proof.Proof.AggVal
import Idealize.ShloMosaic.Lib.ValueIdx
import proofs.«169706_j68856915690108_1_alg».proof.Proof.Rg19

/-! # part: ApplyOut -/
/-
  Region 1 (the aggregation kernel): what the run leaves in the output array.

  The accumulator after point t is the fold over the run of eight points that t lies in (the points 8·(t / 8) …
  8·(t / 8) + 7 share the row block i = t / 8): reset and stepped at the run's first point, stepped at each later one.
  The output window's block at point t is row block t / 8 of the output array, written back at the run's last point
  only (t % 8 = 7); two such points have different row blocks, so their blocks of the array are disjoint, and after
  the whole grid block i of the output array holds what the accumulator held after point 8·i + 7.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The accumulator as a fold over its run -/

/-- The accumulator after point `t` is the fold over the run of eight points `t` lies in, up to `t`. -/
theorem acc19_fold (V : Valuation τ sig (Elt F)) (c : Dev nD) (t : ℕ) (ht : t < cfg19.N)
    (h' : 8 * (t / 8) + t % 8 < cfg19.N) :
    acc19 V c t ht = Pipeline.accAt (fun n h => step19 V c n h (init19 V c n h)) (fun n h a => step19 V c n h a)
      (8 * (t / 8)) (t % 8) h' :=
  Pipeline.eq_accAt_of_mod (acc19 V c) 8 (fun n h => step19 V c n h (init19 V c n h)) (fun n h a => step19 V c n h a)
    (fun n h h0 => acc19_reset V c n h h0) (fun n h h0 => if_neg h0) (by decide) t ht h'

/-! ## The output window's blocks -/

/-- The output window's block index along the rows at point `t` is `t / 8`. -/
theorem idx19_5 : ∀ t : Fin cfg19.N, win19_5.index t (0 : Fin 2) = t.val / 8 :=
  (by decide +kernel : ∀ t : Fin grid19.N, win19_5.index t (0 : Fin 2) = t.val / 8)

/-- Two different points that write the output block back write disjoint blocks of the array. -/
theorem disj19_5 (t t' : Fin cfg19.N) (hf : (cfg19.win 5).flush t = true) (hf' : (cfg19.win 5).flush t' = true)
    (hne : t ≠ t') : Disjoint ((cfg19.win 5).blk t).view.set ((cfg19.win 5).blk t').view.set := by
  refine (cfg19.win 5).disjoint_blk fun h => hne (Fin.ext ?_)
  have h0 : win19_5.index t (0 : Fin 2) = win19_5.index t' (0 : Fin 2) := congrFun h (0 : Fin 2)
  rw [idx19_5 t, idx19_5 t'] at h0
  have h7 := (flush19_5 t).mp hf
  have h7' := (flush19_5 t').mp hf'
  omega

/-! ## The output array after the run -/

/-- After the whole grid, the block of the output array under a point that writes back (`t % 8 = 7`) holds what the
    accumulator held after that point. -/
theorem out19_block (V : Valuation τ sig (Elt F)) (c : Dev nD) (t : Fin cfg19.N) (ht : t.val % 8 = 7) :
    ((cfg19.win 5).blk t).view.read (Elt F) ((dat19 (Ix := Ix) (U := U) (Lvl := Lvl) V c).arrAt 5 64)
      = acc19 V c t.val t.isLt := by
  have hN : cfg19.N = 64 := N_19
  have hlt : t.val < 64 := Nat.lt_of_lt_of_eq t.isLt hN
  exact ((dat19 (Ix := Ix) (U := U) (Lvl := Lvl) V c).read_blk_arrAt_eq_flushed 5 disj19_5 64 t hlt
    ((flush19_5 t).mpr ht)).trans (after19_5 V c t)

end Cert.KernelIdeal.Hand

end

/-! # part: RegionValue1 -/
/-
  Region 1 (the aggregation kernel) read as a value: row r of its output is 1·x r plus the masked sum over all rows.

  The grid is 8 × 8, walked row by row: point t = 8·i + j stages the one threshold cell, rows 512·i … of the 4096 × 256
  arrays h and x (row block i) and rows 512·j … of the same two arrays (row block j) (idx_facts19 and the block reads
  mb19_apply … xj19_apply). At the ideal values the reset at j = 0 leaves 1·x r in the accumulator's entry of row
  r = 512·i + p (init19_apply), and the step of point 8·i + j adds Σ_q mask r (512·j + q) · x (512·j + q), the mask
  being 1 where the Gram matrix G r s = Σ_k h r k · h s k is above the threshold and 0 elsewhere (step19_apply). So after
  the eight points of row block i the entry holds 1·x r with the eight column blocks' terms added one by one
  (acc19_apply), which is 1·x r + Σ_s mask r s · x s over all 4096 rows s (acc19_last_apply): the eight blocks of 512 tile
  the 4096 columns, and addition on the extended reals is commutative and associative. The write-back at j = 7 puts
  that row block into the output array (arrAt19_5_block, arrAt19_5_value), and because the mask's entries are zeros and
  ones the diagonal term can be folded in: Σ_s (mask r s + δ r s) · x s (arrAt19_5_agg).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the arrays -/

/-- Point t = 8·i + j of the 8 × 8 grid stages: the one threshold cell (window 0), rows block i = t / 8 of h and of x
    (windows 1 and 3), rows block j = t % 8 of h and of x (windows 2 and 4), and writes rows block i of the output
    (window 5). -/
theorem idx_facts19 : ∀ t : Fin cfg19.N,
    (win19_0.index t 0 = 0 ∧ win19_0.index t 1 = 0) ∧ (win19_1.index t 0 = t.val / 8 ∧ win19_1.index t 1 = 0)
      ∧ (win19_2.index t 0 = t.val % 8 ∧ win19_2.index t 1 = 0) ∧ (win19_3.index t 0 = t.val / 8 ∧ win19_3.index t 1 = 0)
      ∧ (win19_4.index t 0 = t.val % 8 ∧ win19_4.index t 1 = 0) ∧ (win19_5.index t 0 = t.val / 8 ∧ win19_5.index t 1 = 0) :=
  (by decide +kernel : ∀ t : Fin grid19.N,
    (win19_0.index t 0 = 0 ∧ win19_0.index t 1 = 0) ∧ (win19_1.index t 0 = t.val / 8 ∧ win19_1.index t 1 = 0)
      ∧ (win19_2.index t 0 = t.val % 8 ∧ win19_2.index t 1 = 0) ∧ (win19_3.index t 0 = t.val / 8 ∧ win19_3.index t 1 = 0)
      ∧ (win19_4.index t 0 = t.val % 8 ∧ win19_4.index t 1 = 0) ∧ (win19_5.index t 0 = t.val / 8 ∧ win19_5.index t 1 = 0))

section AnyF

variable {F : FTy → Type} [FloatOps F]

/-- The threshold cell, the array h and the array x the region reads: region-entry contents. -/
abbrev marr19 (V : Valuation τ sig (Elt F)) : Vec F S1x1 .f32 := V (Proc.devRef .tc main_v651)
abbrev harr19 (V : Valuation τ sig (Elt F)) : Vec F S4096x256 .f32 := V (Proc.devRef .tc main_v648)
abbrev xarr19 (V : Valuation τ sig (Elt F)) : Vec F S4096x256 .f32 := V (Proc.devRef .tc main_arg3)

/-- The five input blocks at point t, each as an array of its literal shape. -/
abbrev mb19 (V : Valuation τ sig (Elt F)) (c : Dev nD) (t : Fin cfg19.N) : Vec F S1x1 .f32 := iblk19 V c 0 t
abbrev hi19 (V : Valuation τ sig (Elt F)) (c : Dev nD) (t : Fin cfg19.N) : Vec F S512x256 .f32 := iblk19 V c 1 t
abbrev hj19 (V : Valuation τ sig (Elt F)) (c : Dev nD) (t : Fin cfg19.N) : Vec F S512x256 .f32 := iblk19 V c 2 t
abbrev xi19 (V : Valuation τ sig (Elt F)) (c : Dev nD) (t : Fin cfg19.N) : Vec F S512x256 .f32 := iblk19 V c 3 t
abbrev xj19 (V : Valuation τ sig (Elt F)) (c : Dev nD) (t : Fin cfg19.N) : Vec F S512x256 .f32 := iblk19 V c 4 t

/-- Window 0's block is the threshold cell itself. -/
theorem mb19_apply (V : Valuation τ sig (Elt F)) (c : Dev nD) (t : Fin cfg19.N) (y : S1x1.Idx) :
    mb19 V c t y = marr19 V y := by
  obtain ⟨⟨hA, hB⟩, -, -, -, -, -⟩ := idx_facts19 t
  show (iblk19 V c 0 t : Vec F S1x1 .f32) y = _
  unfold iblk19
  rw [View.read_apply]
  show V (Proc.devRef .tc main_v651) _ = V (Proc.devRef .tc main_v651) _
  congr 1
  funext a
  apply Fin.ext
  match a with
  | ⟨0, _⟩ => show win19_0.index t 0 * 1 + 1 * (y 0).val = (y 0).val; rw [hA]; omega
  | ⟨1, _⟩ => show win19_0.index t 1 * 1 + 1 * (y 1).val = (y 1).val; rw [hB]; omega

/-- Window 1's block at point t is rows 512·(t / 8) … of h. -/
theorem hi19_apply (V : Valuation τ sig (Elt F)) (c : Dev nD) (t : Fin cfg19.N) (y : S512x256.Idx) (k : S4096x256.Idx)
    (hkr : (k 0).val = 512 * (t.val / 8) + (y 0).val) (hkc : (k 1).val = (y 1).val) :
    hi19 V c t y = harr19 V k := by
  obtain ⟨-, ⟨hA, hB⟩, -, -, -, -⟩ := idx_facts19 t
  show (iblk19 V c 1 t : Vec F S512x256 .f32) y = _
  unfold iblk19
  rw [View.read_apply]
  show V (Proc.devRef .tc main_v648) _ = V (Proc.devRef .tc main_v648) _
  congr 1
  funext a
  apply Fin.ext
  match a with
  | ⟨0, _⟩ => show win19_1.index t 0 * 512 + 1 * (y 0).val = (k 0).val; rw [hA, hkr]; omega
  | ⟨1, _⟩ => show win19_1.index t 1 * 256 + 1 * (y 1).val = (k 1).val; rw [hB, hkc]; omega

/-- Window 2's block at point t is rows 512·(t % 8) … of h. -/
theorem hj19_apply (V : Valuation τ sig (Elt F)) (c : Dev nD) (t : Fin cfg19.N) (y : S512x256.Idx) (k : S4096x256.Idx)
    (hkr : (k 0).val = 512 * (t.val % 8) + (y 0).val) (hkc : (k 1).val = (y 1).val) :
    hj19 V c t y = harr19 V k := by
  obtain ⟨-, -, ⟨hA, hB⟩, -, -, -⟩ := idx_facts19 t
  show (iblk19 V c 2 t : Vec F S512x256 .f32) y = _
  unfold iblk19
  rw [View.read_apply]
  show V (Proc.devRef .tc main_v648) _ = V (Proc.devRef .tc main_v648) _
  congr 1
  funext a
  apply Fin.ext
  match a with
  | ⟨0, _⟩ => show win19_2.index t 0 * 512 + 1 * (y 0).val = (k 0).val; rw [hA, hkr]; omega
  | ⟨1, _⟩ => show win19_2.index t 1 * 256 + 1 * (y 1).val = (k 1).val; rw [hB, hkc]; omega

/-- Window 3's block at point t is rows 512·(t / 8) … of x. -/
theorem xi19_apply (V : Valuation τ sig (Elt F)) (c : Dev nD) (t : Fin cfg19.N) (y : S512x256.Idx) (k : S4096x256.Idx)
    (hkr : (k 0).val = 512 * (t.val / 8) + (y 0).val) (hkc : (k 1).val = (y 1).val) :
    xi19 V c t y = xarr19 V k := by
  obtain ⟨-, -, -, ⟨hA, hB⟩, -, -⟩ := idx_facts19 t
  show (iblk19 V c 3 t : Vec F S512x256 .f32) y = _
  unfold iblk19
  rw [View.read_apply]
  show V (Proc.devRef .tc main_arg3) _ = V (Proc.devRef .tc main_arg3) _
  congr 1
  funext a
  apply Fin.ext
  match a with
  | ⟨0, _⟩ => show win19_3.index t 0 * 512 + 1 * (y 0).val = (k 0).val; rw [hA, hkr]; omega
  | ⟨1, _⟩ => show win19_3.index t 1 * 256 + 1 * (y 1).val = (k 1).val; rw [hB, hkc]; omega

/-- Window 4's block at point t is rows 512·(t % 8) … of x. -/
theorem xj19_apply (V : Valuation τ sig (Elt F)) (c : Dev nD) (t : Fin cfg19.N) (y : S512x256.Idx) (k : S4096x256.Idx)
    (hkr : (k 0).val = 512 * (t.val % 8) + (y 0).val) (hkc : (k 1).val = (y 1).val) :
    xj19 V c t y = xarr19 V k := by
  obtain ⟨-, -, -, -, ⟨hA, hB⟩, -⟩ := idx_facts19 t
  show (iblk19 V c 4 t : Vec F S512x256 .f32) y = _
  unfold iblk19
  rw [View.read_apply]
  show V (Proc.devRef .tc main_arg3) _ = V (Proc.devRef .tc main_arg3) _
  congr 1
  funext a
  apply Fin.ext
  match a with
  | ⟨0, _⟩ => show win19_4.index t 0 * 512 + 1 * (y 0).val = (k 0).val; rw [hA, hkr]; omega
  | ⟨1, _⟩ => show win19_4.index t 1 * 256 + 1 * (y 1).val = (k 1).val; rw [hB, hkc]; omega

/-- The accumulator after point n depends on n only through its value. -/
theorem acc19_congr (V : Valuation τ sig (Elt F)) (c : Dev nD) {n n' : ℕ} (e : n = n') (hn : n < cfg19.N) (hn' : n' < cfg19.N) :
    acc19 V c n hn = acc19 V c n' hn' := by
  subst e; rfl

/-- At the first point of row block i the accumulator is reset and stepped once … -/
theorem acc19_row_zero (V : Valuation τ sig (Elt F)) (c : Dev nD) (i : ℕ) (hn : 8 * i + 0 < cfg19.N) :
    acc19 V c (8 * i + 0) hn = step19 V c (8 * i + 0) hn (init19 V c (8 * i + 0) hn) :=
  acc19_reset V c (8 * i + 0) hn (by omega)

/-- … and at each later point of the row block it is stepped from what the point before left. -/
theorem acc19_row_succ (V : Valuation τ sig (Elt F)) (c : Dev nD) (i j : ℕ) (hj : j + 1 < 8) (hn : 8 * i + (j + 1) < cfg19.N) :
    acc19 V c (8 * i + (j + 1)) hn = step19 V c (8 * i + (j + 1)) hn (acc19 V c (8 * i + j) (by omega)) :=
  (acc19_step V c (8 * i + (j + 1)) hn (by omega)).trans
    (congrArg (step19 V c (8 * i + (j + 1)) hn) (acc19_congr V c (by omega) _ _))

end AnyF

/-! ## The accumulator at the ideal values -/

/-- The Gram matrix of the rows of h. -/
noncomputable def gram19 (V : Valuation τ sig (Elt Ideal)) (r s : Fin 4096) : EReal :=
  ∑ k : Fin 256, (harr19 V (ix2 r k) : EReal) * (harr19 V (ix2 s k) : EReal)

/-- The 0/1 mask: 1 where the Gram matrix's entry is above the threshold, else 0. -/
noncomputable def mask19 (V : Valuation τ sig (Elt Ideal)) (r s : Fin 4096) : EReal :=
  if (marr19 V (ix2 (0 : Fin 1) (0 : Fin 1)) : EReal) < gram19 V r s then 1 else 0

/-- The mask's entries are zero or one. -/
theorem mask19_zero_or_one (V : Valuation τ sig (Elt Ideal)) (r s : Fin 4096) : mask19 V r s = 0 ∨ mask19 V r s = 1 := by
  unfold mask19
  exact GridSum.ite_zero_or_one _

/-- What column block j adds to the accumulator's entry of row r and feature d (zero past the eight blocks). -/
noncomputable def blockTerm19 (V : Valuation τ sig (Elt Ideal)) (r : Fin 4096) (d : Fin 256) (j : ℕ) : EReal :=
  if hj : j < 8 then
    ∑ q : Fin 512, mask19 V r (GridSum.idx4096 ⟨j, hj⟩ q) * (xarr19 V (ix2 (GridSum.idx4096 ⟨j, hj⟩ q) d) : EReal)
  else 0

theorem blockTerm19_of_lt (V : Valuation τ sig (Elt Ideal)) (r : Fin 4096) (d : Fin 256) (j : ℕ) (hj : j < 8) :
    blockTerm19 V r d j
      = ∑ q : Fin 512, mask19 V r (GridSum.idx4096 ⟨j, hj⟩ q) * (xarr19 V (ix2 (GridSum.idx4096 ⟨j, hj⟩ q) d) : EReal) := by
  unfold blockTerm19
  exact dif_pos hj

/-- One step at point 8·i + j adds column block j's term to the entry of row 512·i + p. -/
theorem step19_apply (V : Valuation τ sig (Elt Ideal)) (c : Dev nD) (i : Fin 8) (j : ℕ) (hj : j < 8)
    (hn : 8 * (i : ℕ) + j < cfg19.N) (a : Vec Ideal S512x256 .f32) (p : Fin 512) (d : Fin 256) :
    (step19 V c (8 * (i : ℕ) + j) hn a (ix2 p d) : EReal) = (a (ix2 p d) : EReal) + blockTerm19 V (GridSum.idx4096 i p) d j := by
  have hi : (i : ℕ) < 8 := i.isLt
  have e := k19_pay2_apply (hi19 V c ⟨8 * (i : ℕ) + j, hn⟩) (hj19 V c ⟨8 * (i : ℕ) + j, hn⟩) (mb19 V c ⟨8 * (i : ℕ) + j, hn⟩)
    (xj19 V c ⟨8 * (i : ℕ) + j, hn⟩) a p d
  rw [blockTerm19_of_lt V _ d j hj]
  refine e.trans ?_
  congr 1
  refine Finset.sum_congr rfl fun q _ => ?_
  rw [mb19_apply V c ⟨8 * (i : ℕ) + j, hn⟩ (ix2 (0 : Fin 1) (0 : Fin 1)),
    xj19_apply V c ⟨8 * (i : ℕ) + j, hn⟩ (ix2 q d) (ix2 (GridSum.idx4096 ⟨j, hj⟩ q) d)
      (by show 512 * j + (q : ℕ) = 512 * ((8 * (i : ℕ) + j) % 8) + (q : ℕ); omega) rfl]
  congr 1
  unfold mask19 gram19
  have hs : (∑ k : Fin 256, (hi19 V c ⟨8 * (i : ℕ) + j, hn⟩ (ix2 p k) : EReal) * (hj19 V c ⟨8 * (i : ℕ) + j, hn⟩ (ix2 q k) : EReal))
      = ∑ k : Fin 256, (harr19 V (ix2 (GridSum.idx4096 i p) k) : EReal) * (harr19 V (ix2 (GridSum.idx4096 ⟨j, hj⟩ q) k) : EReal) :=
    Finset.sum_congr rfl fun k _ => by
      rw [hi19_apply V c ⟨8 * (i : ℕ) + j, hn⟩ (ix2 p k) (ix2 (GridSum.idx4096 i p) k)
          (by show 512 * (i : ℕ) + (p : ℕ) = 512 * ((8 * (i : ℕ) + j) / 8) + (p : ℕ); omega) rfl,
        hj19_apply V c ⟨8 * (i : ℕ) + j, hn⟩ (ix2 q k) (ix2 (GridSum.idx4096 ⟨j, hj⟩ q) k)
          (by show 512 * j + (q : ℕ) = 512 * ((8 * (i : ℕ) + j) % 8) + (q : ℕ); omega) rfl]
  rw [hs]

/-- The reset value at point 8·i + j is 1 times the entry of x at row 512·i + p. -/
theorem init19_apply (V : Valuation τ sig (Elt Ideal)) (c : Dev nD) (i : Fin 8) (j : ℕ) (hj : j < 8)
    (hn : 8 * (i : ℕ) + j < cfg19.N) (p : Fin 512) (d : Fin 256) :
    (init19 V c (8 * (i : ℕ) + j) hn (ix2 p d) : EReal) = 1 * (xarr19 V (ix2 (GridSum.idx4096 i p) d) : EReal) := by
  have hi : (i : ℕ) < 8 := i.isLt
  have e := k19_pay1_apply (xi19 V c ⟨8 * (i : ℕ) + j, hn⟩) p d
  refine e.trans ?_
  rw [xi19_apply V c ⟨8 * (i : ℕ) + j, hn⟩ (ix2 p d) (ix2 (GridSum.idx4096 i p) d)
    (by show 512 * (i : ℕ) + (p : ℕ) = 512 * ((8 * (i : ℕ) + j) / 8) + (p : ℕ); omega) rfl]

/-- After point 8·i + j the accumulator's entry of row r = 512·i + p holds 1·x r with the terms of the column blocks
    0 … j added one by one. -/
theorem acc19_apply (V : Valuation τ sig (Elt Ideal)) (c : Dev nD) (i : Fin 8) (p : Fin 512) (d : Fin 256) :
    ∀ (j : ℕ) (hj : j < 8) (hn : 8 * (i : ℕ) + j < cfg19.N),
      (acc19 V c (8 * (i : ℕ) + j) hn (ix2 p d) : EReal)
        = GridSum.accFold (1 * (xarr19 V (ix2 (GridSum.idx4096 i p) d) : EReal)) (blockTerm19 V (GridSum.idx4096 i p) d) (j + 1)
  | 0, hj, hn => by
    rw [acc19_row_zero V c (i : ℕ) hn, step19_apply V c i 0 hj hn _ p d, init19_apply V c i 0 hj hn p d,
      GridSum.accFold_succ, GridSum.accFold_zero]
  | j + 1, hj, hn => by
    rw [acc19_row_succ V c (i : ℕ) j hj hn, step19_apply V c i (j + 1) hj hn _ p d,
      acc19_apply V c i p d j (by omega) (by omega), GridSum.accFold_succ _ _ (j + 1)]

/-- THE AGGREGATION KERNEL'S VALUE at the last point of row block i: the entry of row r = 512·i + p and feature d is
    1·x r d plus the sum over all 4096 rows s of mask r s · x s d. -/
theorem acc19_last_apply (V : Valuation τ sig (Elt Ideal)) (c : Dev nD) (i : Fin 8) (p : Fin 512) (d : Fin 256)
    (hn : 8 * (i : ℕ) + 7 < cfg19.N) :
    (acc19 V c (8 * (i : ℕ) + 7) hn (ix2 p d) : EReal)
      = 1 * (xarr19 V (ix2 (GridSum.idx4096 i p) d) : EReal)
        + ∑ s : Fin 4096, mask19 V (GridSum.idx4096 i p) s * (xarr19 V (ix2 s d) : EReal) := by
  rw [acc19_apply V c i p d 7 (by omega) hn, GridSum.accFold_eq_sum,
    GridSum.sum_range_fin (blockTerm19 V (GridSum.idx4096 i p) d)
      (fun j : Fin 8 => ∑ q : Fin 512, mask19 V (GridSum.idx4096 i p) (GridSum.idx4096 j q) * (xarr19 V (ix2 (GridSum.idx4096 j q) d) : EReal))
      (fun j => blockTerm19_of_lt V _ d (j : ℕ) j.isLt),
    GridSum.sum_blocks GridSum.eight_mul (fun s : Fin 4096 => mask19 V (GridSum.idx4096 i p) s * (xarr19 V (ix2 s d) : EReal))]

/-! ## The output array after the run -/

section Array

variable {F : FTy → Type} [FloatOps F]
variable {Ix : Type} [DecidableEq Ix] {U : Type} [URA U] {Lvl : Type}

/-- The output window's block at point t is rows 512·(t / 8) … of the output array. -/
theorem oblk19_apply (c : Dev nD) (X : Buf (Elt F) ((cfg19.win 5).arr.view.loc (c.tc : Thread nD τ))) (t : Fin cfg19.N)
    (y : S512x256.Idx) (k : S4096x256.Idx) (hkr : (k 0).val = 512 * (t.val / 8) + (y 0).val) (hkc : (k 1).val = (y 1).val) :
    (((cfg19.win 5).blk t).view.read (Elt F) X : Vec F S512x256 .f32) y = (X : S4096x256.Idx → Elt F .f32) k := by
  obtain ⟨-, -, -, -, -, ⟨hA, hB⟩⟩ := idx_facts19 t
  rw [View.read_apply]
  have e : ((cfg19.win 5).blk t).view.emb y = k := by
    funext a
    apply Fin.ext
    match a with
    | ⟨0, _⟩ => show win19_5.index t 0 * 512 + 1 * (y 0).val = (k 0).val; rw [hA, hkr]; omega
    | ⟨1, _⟩ => show win19_5.index t 1 * 256 + 1 * (y 1).val = (k 1).val; rw [hB, hkc]; omega
  exact congrArg X e

/-- After the whole grid the output array's entry of row 512·i + p is what the accumulator held, at row p, after the
    last point of row block i. -/
theorem arrAt19_5_block (V : Valuation τ sig (Elt F)) (c : Dev nD) (i : Fin 8) (p : Fin 512) (d : Fin 256)
    (hn : 8 * (i : ℕ) + 7 < cfg19.N) :
    ((dat19 (Ix := Ix) (U := U) (Lvl := Lvl) V c).arrAt 5 64 : S4096x256.Idx → Elt F .f32) (ix2 (GridSum.idx4096 i p) d)
      = (acc19 V c (8 * (i : ℕ) + 7) hn : Vec F S512x256 .f32) (ix2 p d) := by
  have hi : (i : ℕ) < 8 := i.isLt
  refine (oblk19_apply c ((dat19 (Ix := Ix) (U := U) (Lvl := Lvl) V c).arrAt 5 64) ⟨8 * (i : ℕ) + 7, hn⟩ (ix2 p d)
    (ix2 (GridSum.idx4096 i p) d)
    (by show 512 * (i : ℕ) + (p : ℕ) = 512 * ((8 * (i : ℕ) + 7) / 8) + (p : ℕ); omega) rfl).symm.trans ?_
  exact congrFun (out19_block (Ix := Ix) (U := U) (Lvl := Lvl) V c ⟨8 * (i : ℕ) + 7, hn⟩
    (by show (8 * (i : ℕ) + 7) % 8 = 7; omega)) (ix2 p d)

/-- THE AGGREGATION KERNEL'S OUTPUT ARRAY at the ideal values: the entry of row r and feature d is 1·x r d plus the sum
    over all rows s of mask r s · x s d, the mask being 1 where the Gram matrix of the rows of h is above the threshold. -/
theorem arrAt19_5_value (V : Valuation τ sig (Elt Ideal)) (c : Dev nD) (r : Fin 4096) (d : Fin 256) :
    (((dat19 (Ix := Ix) (U := U) (Lvl := Lvl) V c).arrAt 5 64 : S4096x256.Idx → Elt Ideal .f32) (ix2 r d) : EReal)
      = 1 * (xarr19 V (ix2 r d) : EReal) + ∑ s : Fin 4096, mask19 V r s * (xarr19 V (ix2 s d) : EReal) := by
  have hN : cfg19.N = 64 := N_19
  obtain ⟨i, p, rfl⟩ := GridSum.exists_idx4096 r
  have hi : (i : ℕ) < 8 := i.isLt
  have hn : 8 * (i : ℕ) + 7 < cfg19.N := by omega
  exact (arrAt19_5_block (Ix := Ix) (U := U) (Lvl := Lvl) V c i p d hn).trans (acc19_last_apply V c i p d hn)

/-- The same with the diagonal folded into the mask: Σ_s (mask r s + δ r s) · x s d, the aggregate law of zeros and ones
    on the extended reals. -/
theorem arrAt19_5_agg (V : Valuation τ sig (Elt Ideal)) (c : Dev nD) (r : Fin 4096) (d : Fin 256) :
    (((dat19 (Ix := Ix) (U := U) (Lvl := Lvl) V c).arrAt 5 64 : S4096x256.Idx → Elt Ideal .f32) (ix2 r d) : EReal)
      = ∑ s : Fin 4096, (mask19 V r s + (if r = s then 1 else 0)) * (xarr19 V (ix2 s d) : EReal) :=
  (arrAt19_5_value (Ix := Ix) (U := U) (Lvl := Lvl) V c r d).trans
    (GridSum.aggregate_law_ite (mask19 V) (fun s => (xarr19 V (ix2 s d) : EReal)) (mask19_zero_or_one V) r)

/-- The same as an equation of arrays: the output array is the closed form aggVal of the threshold cell, h and x. -/
theorem region19_value (V : Valuation τ sig (Elt Ideal)) (c : Dev nD) :
    ((dat19 (Ix := Ix) (U := U) (Lvl := Lvl) V c).arrAt 5 64 : S4096x256.Idx → Elt Ideal .f32)
      = Cert.Hand.aggVal (marr19 V) (harr19 V) (xarr19 V) := by
  funext j
  obtain ⟨r, d, rfl⟩ : ∃ (r : Fin 4096) (d : Fin 256), j = ix2 r d := ⟨j 0, j 1, eq_ix2 j⟩
  exact arrAt19_5_value (Ix := Ix) (U := U) (Lvl := Lvl) V c r d

end Array

end Cert.KernelIdeal.Hand

end
-- ==== Proof.RgV20.lean ====
import Idealize.ShloMosaic.Lib.Pipeline.Value
import proofs.«169706_j68856915690108_1_alg».proof.Proof.UnitIdx
import proofs.«169706_j68856915690108_1_alg».proof.Proof.AggVal
import proofs.«169706_j68856915690108_1_alg».proof.Proof.TileValue
import proofs.«169706_j68856915690108_1_alg».proof.Proof.LibGridSum
import Idealize.ShloMosaic.Lib.ValueIdx
import proofs.«169706_j68856915690108_1_alg».proof.Proof.Rg20

/-! # part: SumValue -/
/-
  Region 0 (the tile-sum kernel): what the run leaves in the output array.

  The output window's block is the whole 1 × 1 output array, and it is written back once, after the last of the 64
  points. So after the whole grid the output array's one cell holds what the scratch cell held after point 63: the sum
  of all 64 tiles.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The one write-back -/

/-- Only the last point writes the output block back, so no two different points do. -/
theorem disj20_2 (t t' : Fin cfg20.N) (hf : (cfg20.win 2).flush t = true) (hf' : (cfg20.win 2).flush t' = true)
    (hne : t ≠ t') : Disjoint ((cfg20.win 2).blk t).view.set ((cfg20.win 2).blk t').view.set := by
  have hN : cfg20.N = 64 := N_20
  have h := (flush20_2 t).mp hf
  have h' := (flush20_2 t').mp hf'
  have := t.isLt; have := t'.isLt
  exact absurd (Fin.ext (by omega)) hne

/-- The grid has a point 63, its last. -/
theorem last20_lt : 63 < cfg20.N := by decide

/-- The last point writes the output block back. -/
theorem flush20_2_last : (cfg20.win 2).flush ⟨63, last20_lt⟩ = true := (flush20_2 _).mpr (by decide)

/-! ## The output array after the run -/

/-- After the whole grid, the output block read back through the window holds what the scratch cell held after the
    last point. -/
theorem out20_block (V : Valuation τ sig (Elt F)) (c : Dev nD) :
    ((cfg20.win 2).blk ⟨63, last20_lt⟩).view.read (Elt F) ((dat20 (Ix := Ix) (U := U) (Lvl := Lvl) V c).arrAt 2 64)
      = acc20 V c 63 last20_lt :=
  ((dat20 (Ix := Ix) (U := U) (Lvl := Lvl) V c).read_blk_arrAt_eq_flushed 2 disj20_2 64 ⟨63, last20_lt⟩ (by decide)
    flush20_2_last).trans (after20_2 V c ⟨63, last20_lt⟩)

/-- The output array after the whole grid, cell by cell: what the scratch cell held after the last point. -/
theorem arrAt20_2_apply (V : Valuation τ sig (Elt F)) (c : Dev nD) (i : S1x1.Idx) :
    ((dat20 (Ix := Ix) (U := U) (Lvl := Lvl) V c).arrAt 2 64 : S1x1.Idx → Elt F .f32) i = acc20 V c 63 last20_lt i := by
  have h := congrFun (out20_block (Ix := Ix) (U := U) (Lvl := Lvl) V c) i
  rw [View.read_apply] at h
  rw [← h, unit_idx_eq (((cfg20.win 2).blk ⟨63, last20_lt⟩).view.emb i) i]
  rfl

/-- The output array after the whole grid, as a 1 × 1 vector. -/
theorem arrAt20_2 (V : Valuation τ sig (Elt F)) (c : Dev nD) :
    ((dat20 (Ix := Ix) (U := U) (Lvl := Lvl) V c).arrAt 2 64 : S1x1.Idx → Elt F .f32) = acc20 V c 63 last20_lt :=
  funext fun i => arrAt20_2_apply V c i

end Cert.KernelIdeal.Hand

end

/-! # part: RegionValue0 -/
/-
  Region 0 (the tile-sum kernel) read as a value: the cell it accumulates ends at the sum of the whole Gram matrix.

  The grid is 8 × 8, walked row by row: point t = 8·i + j stages rows 512·i … 512·i + 511 of the 4096 × 256 array h
  through its first window and rows 512·j … of the same array through its second (idx_facts20, hi20_apply, hj20_apply).
  At the ideal values the step of one point adds to the 1 × 1 cell the sum of the 512 × 512 tile
  Σ_p Σ_q Σ_k h (512·i + p) k · h (512·j + q) k, and the cell starts from zero, so after point n it holds the tile sums
  of the points 0 … n added one by one (acc20_apply). The 64 tiles are exactly the 8 × 8 tiling of the 4096 × 4096 Gram
  matrix G r s = Σ_k h r k · h s k (tile20_grid), and on the extended reals addition is commutative and associative, so
  after the last point the cell holds Σ_r Σ_s G r s (acc20_last_apply): no finiteness of h is needed. The one write-back, after
  the last point, copies the cell into the 1 × 1 output array (arrAt20_2_value, region20_value).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the array -/

/-- Point t = 8·i + j of the 8 × 8 grid stages rows block i = t / 8 through window 0, rows block j = t % 8 through
    window 1, and the one cell through window 2. -/
theorem idx_facts20 : ∀ t : Fin cfg20.N,
    win20_0.index t 0 = t.val / 8 ∧ win20_0.index t 1 = 0 ∧ win20_1.index t 0 = t.val % 8 ∧ win20_1.index t 1 = 0
      ∧ win20_2.index t 0 = 0 ∧ win20_2.index t 1 = 0 :=
  (by decide +kernel : ∀ t : Fin grid20.N,
    win20_0.index t 0 = t.val / 8 ∧ win20_0.index t 1 = 0 ∧ win20_1.index t 0 = t.val % 8 ∧ win20_1.index t 1 = 0
      ∧ win20_2.index t 0 = 0 ∧ win20_2.index t 1 = 0)

section AnyF

variable {F : FTy → Type} [FloatOps F]

/-- The array h both input windows read: the region-entry contents of the first window's array. -/
abbrev harr20 (V : Valuation τ sig (Elt F)) : Vec F S4096x256 .f32 := V (Proc.devRef .tc main_v717)

/-- The block of h window 0 stages at point t, as a 512 × 256 array. -/
abbrev hi20 (V : Valuation τ sig (Elt F)) (c : Dev nD) (t : Fin cfg20.N) : Vec F S512x256 .f32 := iblk20 V c 0 t
/-- The block of h window 1 stages at point t, as a 512 × 256 array. -/
abbrev hj20 (V : Valuation τ sig (Elt F)) (c : Dev nD) (t : Fin cfg20.N) : Vec F S512x256 .f32 := iblk20 V c 1 t

/-- Window 0's block at point t is rows 512·(t / 8) … of h. -/
theorem hi20_apply (V : Valuation τ sig (Elt F)) (c : Dev nD) (t : Fin cfg20.N) (y : S512x256.Idx) (k : S4096x256.Idx)
    (hkr : (k 0).val = 512 * (t.val / 8) + (y 0).val) (hkc : (k 1).val = (y 1).val) :
    hi20 V c t y = harr20 V k := by
  obtain ⟨hA, hB, -, -, -, -⟩ := idx_facts20 t
  show (iblk20 V c 0 t : Vec F S512x256 .f32) y = _
  unfold iblk20
  rw [View.read_apply]
  show V (Proc.devRef .tc main_v717) _ = V (Proc.devRef .tc main_v717) _
  congr 1
  funext a
  apply Fin.ext
  match a with
  | ⟨0, _⟩ => show win20_0.index t 0 * 512 + 1 * (y 0).val = (k 0).val; rw [hA, hkr]; omega
  | ⟨1, _⟩ => show win20_0.index t 1 * 256 + 1 * (y 1).val = (k 1).val; rw [hB, hkc]; omega

/-- Window 1's block at point t is rows 512·(t % 8) … of h. -/
theorem hj20_apply (V : Valuation τ sig (Elt F)) (c : Dev nD) (t : Fin cfg20.N) (y : S512x256.Idx) (k : S4096x256.Idx)
    (hkr : (k 0).val = 512 * (t.val % 8) + (y 0).val) (hkc : (k 1).val = (y 1).val) :
    hj20 V c t y = harr20 V k := by
  obtain ⟨-, -, hA, hB, -, -⟩ := idx_facts20 t
  show (iblk20 V c 1 t : Vec F S512x256 .f32) y = _
  unfold iblk20
  rw [View.read_apply]
  show V (Proc.devRef .tc main_v717) _ = V (Proc.devRef .tc main_v717) _
  congr 1
  funext a
  apply Fin.ext
  match a with
  | ⟨0, _⟩ => show win20_1.index t 0 * 512 + 1 * (y 0).val = (k 0).val; rw [hA, hkr]; omega
  | ⟨1, _⟩ => show win20_1.index t 1 * 256 + 1 * (y 1).val = (k 1).val; rw [hB, hkc]; omega

end AnyF

/-! ## The accumulated cell at the ideal values -/

/-- The Gram matrix of the rows of h: entry (r, s) is the sum over the 256 columns of the products. -/
noncomputable def gram20 (V : Valuation τ sig (Elt Ideal)) (r s : Fin 4096) : EReal :=
  ∑ k : Fin 256, (harr20 V (ix2 r k) : EReal) * (harr20 V (ix2 s k) : EReal)

/-- The sum of the 512 × 512 tile the point t stages (zero past the grid). -/
noncomputable def tile20 (V : Valuation τ sig (Elt Ideal)) (c : Dev nD) (t : ℕ) : EReal :=
  if ht : t < cfg20.N then
    ∑ p : Fin 512, ∑ q : Fin 512, ∑ k : Fin 256, (hi20 V c ⟨t, ht⟩ (ix2 p k) : EReal) * (hj20 V c ⟨t, ht⟩ (ix2 q k) : EReal)
  else 0

theorem tile20_of_lt (V : Valuation τ sig (Elt Ideal)) (c : Dev nD) (t : ℕ) (ht : t < cfg20.N) :
    tile20 V c t
      = ∑ p : Fin 512, ∑ q : Fin 512, ∑ k : Fin 256, (hi20 V c ⟨t, ht⟩ (ix2 p k) : EReal) * (hj20 V c ⟨t, ht⟩ (ix2 q k) : EReal) := by
  unfold tile20
  exact dif_pos ht

/-- After point n the cell holds the tile sums of the points 0 … n added one by one onto zero. -/
theorem acc20_apply (V : Valuation τ sig (Elt Ideal)) (c : Dev nD) :
    ∀ (n : ℕ) (hn : n < cfg20.N) (a b : Fin 1),
      ((acc20 V c n hn : Vec Ideal S1x1 .f32) (ix2 a b) : EReal) = GridSum.accFold 0 (tile20 V c) (n + 1)
  | 0, hn, a, b => by
    have e := k20_pay2_apply (hi20 V c ⟨0, hn⟩) (hj20 V c ⟨0, hn⟩) (k20_pay1 (F := Ideal)) a b
    rw [k20_pay1_apply] at e
    rw [GridSum.accFold_succ, GridSum.accFold_zero, tile20_of_lt V c 0 hn]
    exact e
  | n + 1, hn, a, b => by
    have e := k20_pay2_apply (hi20 V c ⟨n + 1, hn⟩) (hj20 V c ⟨n + 1, hn⟩) (acc20 V c n (Nat.lt_of_succ_lt hn)) a b
    rw [acc20_apply V c n (Nat.lt_of_succ_lt hn) a b] at e
    rw [GridSum.accFold_succ _ _ (n + 1), tile20_of_lt V c (n + 1) hn]
    exact e

/-- The tile of point 8·i + j is the 512 × 512 tile (i, j) of the Gram matrix. -/
theorem tile20_grid (V : Valuation τ sig (Elt Ideal)) (c : Dev nD) (i j : Fin 8) :
    tile20 V c (8 * (i : ℕ) + (j : ℕ))
      = ∑ p : Fin 512, ∑ q : Fin 512, gram20 V (GridSum.idx4096 i p) (GridSum.idx4096 j q) := by
  have hi : (i : ℕ) < 8 := i.isLt
  have hj : (j : ℕ) < 8 := j.isLt
  have hN : cfg20.N = 64 := N_20
  have ht : 8 * (i : ℕ) + (j : ℕ) < cfg20.N := by omega
  rw [tile20_of_lt V c _ ht]
  refine Finset.sum_congr rfl fun p _ => Finset.sum_congr rfl fun q _ => ?_
  unfold gram20
  refine Finset.sum_congr rfl fun k _ => ?_
  rw [hi20_apply V c ⟨_, ht⟩ (ix2 p k) (ix2 (GridSum.idx4096 i p) k)
      (by show 512 * (i : ℕ) + (p : ℕ) = 512 * ((8 * (i : ℕ) + (j : ℕ)) / 8) + (p : ℕ); omega) rfl,
    hj20_apply V c ⟨_, ht⟩ (ix2 q k) (ix2 (GridSum.idx4096 j q) k)
      (by show 512 * (j : ℕ) + (q : ℕ) = 512 * ((8 * (i : ℕ) + (j : ℕ)) % 8) + (q : ℕ); omega) rfl]

/-- THE SUM KERNEL'S VALUE. After the last point the cell holds the sum of the whole 4096 × 4096 Gram matrix of the
    rows of h: the 64 tile sums, taken in the grid's row-major order, add up to the sum over all pairs of rows. -/
theorem acc20_last_apply (V : Valuation τ sig (Elt Ideal)) (c : Dev nD) (hlast : 63 < cfg20.N) (a b : Fin 1) :
    ((acc20 V c 63 hlast : Vec Ideal S1x1 .f32) (ix2 a b) : EReal)
      = ∑ r : Fin 4096, ∑ s : Fin 4096, ∑ k : Fin 256, (harr20 V (ix2 r k) : EReal) * (harr20 V (ix2 s k) : EReal) := by
  rw [acc20_apply V c 63 hlast a b, GridSum.accFold_tiles_4096 (gram20 V) 0 (tile20 V c) (tile20_grid V c), zero_add]
  rfl

/-! ## The output array after the run -/

section Array

variable {Ix : Type} [DecidableEq Ix] {U : Type} [URA U] {Lvl : Type}

/-- THE SUM KERNEL'S OUTPUT ARRAY at the ideal values: after the whole grid its one cell holds the sum of the whole
    4096 × 4096 Gram matrix of the rows of h. -/
theorem arrAt20_2_value (V : Valuation τ sig (Elt Ideal)) (c : Dev nD) (a b : Fin 1) :
    (((dat20 (Ix := Ix) (U := U) (Lvl := Lvl) V c).arrAt 2 64 : S1x1.Idx → Elt Ideal .f32) (ix2 a b) : EReal)
      = ∑ r : Fin 4096, ∑ s : Fin 4096, ∑ k : Fin 256, (harr20 V (ix2 r k) : EReal) * (harr20 V (ix2 s k) : EReal) :=
  (arrAt20_2_apply (Ix := Ix) (U := U) (Lvl := Lvl) V c (ix2 a b)).trans (acc20_last_apply V c (by decide) a b)

/-- The same as an equation of arrays: the output array is the closed form sumVal of h. -/
theorem region20_value (V : Valuation τ sig (Elt Ideal)) (c : Dev nD) :
    ((dat20 (Ix := Ix) (U := U) (Lvl := Lvl) V c).arrAt 2 64 : S1x1.Idx → Elt Ideal .f32) = Cert.Hand.sumVal (harr20 V) := by
  funext i
  obtain ⟨a, b, rfl⟩ : ∃ (a b : Fin 1), i = ix2 a b := ⟨i 0, i 1, eq_ix2 i⟩
  exact arrAt20_2_value (Ix := Ix) (U := U) (Lvl := Lvl) V c a b

end Array

end Cert.KernelIdeal.Hand

end
-- ==== Proof.RgV21.lean ====
import Idealize.ShloMosaic.Lib.Pipeline.Value
import proofs.«169706_j68856915690108_1_alg».proof.Proof.TileValue
import proofs.«169706_j68856915690108_1_alg».proof.Proof.LibGridSum
import proofs.«169706_j68856915690108_1_alg».proof.Proof.RegionValueLib
import proofs.«169706_j68856915690108_1_alg».proof.Proof.AggVal
import Idealize.ShloMosaic.Lib.ValueIdx
import proofs.«169706_j68856915690108_1_alg».proof.Proof.Rg21

/-! # part: ApplyOut -/
/-
  Region 1 (the aggregation kernel): what the run leaves in the output array.

  The accumulator after point t is the fold over the run of eight points that t lies in (the points 8·(t / 8) …
  8·(t / 8) + 7 share the row block i = t / 8): reset and stepped at the run's first point, stepped at each later one.
  The output window's block at point t is row block t / 8 of the output array, written back at the run's last point
  only (t % 8 = 7); two such points have different row blocks, so their blocks of the array are disjoint, and after
  the whole grid block i of the output array holds what the accumulator held after point 8·i + 7.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The accumulator as a fold over its run -/

/-- The accumulator after point `t` is the fold over the run of eight points `t` lies in, up to `t`. -/
theorem acc21_fold (V : Valuation τ sig (Elt F)) (c : Dev nD) (t : ℕ) (ht : t < cfg21.N)
    (h' : 8 * (t / 8) + t % 8 < cfg21.N) :
    acc21 V c t ht = Pipeline.accAt (fun n h => step21 V c n h (init21 V c n h)) (fun n h a => step21 V c n h a)
      (8 * (t / 8)) (t % 8) h' :=
  Pipeline.eq_accAt_of_mod (acc21 V c) 8 (fun n h => step21 V c n h (init21 V c n h)) (fun n h a => step21 V c n h a)
    (fun n h h0 => acc21_reset V c n h h0) (fun n h h0 => if_neg h0) (by decide) t ht h'

/-! ## The output window's blocks -/

/-- The output window's block index along the rows at point `t` is `t / 8`. -/
theorem idx21_5 : ∀ t : Fin cfg21.N, win21_5.index t (0 : Fin 2) = t.val / 8 :=
  (by decide +kernel : ∀ t : Fin grid21.N, win21_5.index t (0 : Fin 2) = t.val / 8)

/-- Two different points that write the output block back write disjoint blocks of the array. -/
theorem disj21_5 (t t' : Fin cfg21.N) (hf : (cfg21.win 5).flush t = true) (hf' : (cfg21.win 5).flush t' = true)
    (hne : t ≠ t') : Disjoint ((cfg21.win 5).blk t).view.set ((cfg21.win 5).blk t').view.set := by
  refine (cfg21.win 5).disjoint_blk fun h => hne (Fin.ext ?_)
  have h0 : win21_5.index t (0 : Fin 2) = win21_5.index t' (0 : Fin 2) := congrFun h (0 : Fin 2)
  rw [idx21_5 t, idx21_5 t'] at h0
  have h7 := (flush21_5 t).mp hf
  have h7' := (flush21_5 t').mp hf'
  omega

/-! ## The output array after the run -/

/-- After the whole grid, the block of the output array under a point that writes back (`t % 8 = 7`) holds what the
    accumulator held after that point. -/
theorem out21_block (V : Valuation τ sig (Elt F)) (c : Dev nD) (t : Fin cfg21.N) (ht : t.val % 8 = 7) :
    ((cfg21.win 5).blk t).view.read (Elt F) ((dat21 (Ix := Ix) (U := U) (Lvl := Lvl) V c).arrAt 5 64)
      = acc21 V c t.val t.isLt := by
  have hN : cfg21.N = 64 := N_21
  have hlt : t.val < 64 := Nat.lt_of_lt_of_eq t.isLt hN
  exact ((dat21 (Ix := Ix) (U := U) (Lvl := Lvl) V c).read_blk_arrAt_eq_flushed 5 disj21_5 64 t hlt
    ((flush21_5 t).mpr ht)).trans (after21_5 V c t)

end Cert.KernelIdeal.Hand

end

/-! # part: RegionValue1 -/
/-
  Region 1 (the aggregation kernel) read as a value: row r of its output is 1·x r plus the masked sum over all rows.

  The grid is 8 × 8, walked row by row: point t = 8·i + j stages the one threshold cell, rows 512·i … of the 4096 × 256
  arrays h and x (row block i) and rows 512·j … of the same two arrays (row block j) (idx_facts21 and the block reads
  mb21_apply … xj21_apply). At the ideal values the reset at j = 0 leaves 1·x r in the accumulator's entry of row
  r = 512·i + p (init21_apply), and the step of point 8·i + j adds Σ_q mask r (512·j + q) · x (512·j + q), the mask
  being 1 where the Gram matrix G r s = Σ_k h r k · h s k is above the threshold and 0 elsewhere (step21_apply). So after
  the eight points of row block i the entry holds 1·x r with the eight column blocks' terms added one by one
  (acc21_apply), which is 1·x r + Σ_s mask r s · x s over all 4096 rows s (acc21_last_apply): the eight blocks of 512 tile
  the 4096 columns, and addition on the extended reals is commutative and associative. The write-back at j = 7 puts
  that row block into the output array (arrAt21_5_block, arrAt21_5_value), and because the mask's entries are zeros and
  ones the diagonal term can be folded in: Σ_s (mask r s + δ r s) · x s (arrAt21_5_agg).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the arrays -/

/-- Point t = 8·i + j of the 8 × 8 grid stages: the one threshold cell (window 0), rows block i = t / 8 of h and of x
    (windows 1 and 3), rows block j = t % 8 of h and of x (windows 2 and 4), and writes rows block i of the output
    (window 5). -/
theorem idx_facts21 : ∀ t : Fin cfg21.N,
    (win21_0.index t 0 = 0 ∧ win21_0.index t 1 = 0) ∧ (win21_1.index t 0 = t.val / 8 ∧ win21_1.index t 1 = 0)
      ∧ (win21_2.index t 0 = t.val % 8 ∧ win21_2.index t 1 = 0) ∧ (win21_3.index t 0 = t.val / 8 ∧ win21_3.index t 1 = 0)
      ∧ (win21_4.index t 0 = t.val % 8 ∧ win21_4.index t 1 = 0) ∧ (win21_5.index t 0 = t.val / 8 ∧ win21_5.index t 1 = 0) :=
  (by decide +kernel : ∀ t : Fin grid21.N,
    (win21_0.index t 0 = 0 ∧ win21_0.index t 1 = 0) ∧ (win21_1.index t 0 = t.val / 8 ∧ win21_1.index t 1 = 0)
      ∧ (win21_2.index t 0 = t.val % 8 ∧ win21_2.index t 1 = 0) ∧ (win21_3.index t 0 = t.val / 8 ∧ win21_3.index t 1 = 0)
      ∧ (win21_4.index t 0 = t.val % 8 ∧ win21_4.index t 1 = 0) ∧ (win21_5.index t 0 = t.val / 8 ∧ win21_5.index t 1 = 0))

section AnyF

variable {F : FTy → Type} [FloatOps F]

/-- The threshold cell, the array h and the array x the region reads: region-entry contents. -/
abbrev marr21 (V : Valuation τ sig (Elt F)) : Vec F S1x1 .f32 := V (Proc.devRef .tc main_v720)
abbrev harr21 (V : Valuation τ sig (Elt F)) : Vec F S4096x256 .f32 := V (Proc.devRef .tc main_v717)
abbrev xarr21 (V : Valuation τ sig (Elt F)) : Vec F S4096x256 .f32 := V (Proc.devRef .tc main_v698)

/-- The five input blocks at point t, each as an array of its literal shape. -/
abbrev mb21 (V : Valuation τ sig (Elt F)) (c : Dev nD) (t : Fin cfg21.N) : Vec F S1x1 .f32 := iblk21 V c 0 t
abbrev hi21 (V : Valuation τ sig (Elt F)) (c : Dev nD) (t : Fin cfg21.N) : Vec F S512x256 .f32 := iblk21 V c 1 t
abbrev hj21 (V : Valuation τ sig (Elt F)) (c : Dev nD) (t : Fin cfg21.N) : Vec F S512x256 .f32 := iblk21 V c 2 t
abbrev xi21 (V : Valuation τ sig (Elt F)) (c : Dev nD) (t : Fin cfg21.N) : Vec F S512x256 .f32 := iblk21 V c 3 t
abbrev xj21 (V : Valuation τ sig (Elt F)) (c : Dev nD) (t : Fin cfg21.N) : Vec F S512x256 .f32 := iblk21 V c 4 t

/-- Window 0's block is the threshold cell itself. -/
theorem mb21_apply (V : Valuation τ sig (Elt F)) (c : Dev nD) (t : Fin cfg21.N) (y : S1x1.Idx) :
    mb21 V c t y = marr21 V y := by
  obtain ⟨⟨hA, hB⟩, -, -, -, -, -⟩ := idx_facts21 t
  show (iblk21 V c 0 t : Vec F S1x1 .f32) y = _
  unfold iblk21
  rw [View.read_apply]
  show V (Proc.devRef .tc main_v720) _ = V (Proc.devRef .tc main_v720) _
  congr 1
  funext a
  apply Fin.ext
  match a with
  | ⟨0, _⟩ => show win21_0.index t 0 * 1 + 1 * (y 0).val = (y 0).val; rw [hA]; omega
  | ⟨1, _⟩ => show win21_0.index t 1 * 1 + 1 * (y 1).val = (y 1).val; rw [hB]; omega

/-- Window 1's block at point t is rows 512·(t / 8) … of h. -/
theorem hi21_apply (V : Valuation τ sig (Elt F)) (c : Dev nD) (t : Fin cfg21.N) (y : S512x256.Idx) (k : S4096x256.Idx)
    (hkr : (k 0).val = 512 * (t.val / 8) + (y 0).val) (hkc : (k 1).val = (y 1).val) :
    hi21 V c t y = harr21 V k := by
  obtain ⟨-, ⟨hA, hB⟩, -, -, -, -⟩ := idx_facts21 t
  show (iblk21 V c 1 t : Vec F S512x256 .f32) y = _
  unfold iblk21
  rw [View.read_apply]
  show V (Proc.devRef .tc main_v717) _ = V (Proc.devRef .tc main_v717) _
  congr 1
  funext a
  apply Fin.ext
  match a with
  | ⟨0, _⟩ => show win21_1.index t 0 * 512 + 1 * (y 0).val = (k 0).val; rw [hA, hkr]; omega
  | ⟨1, _⟩ => show win21_1.index t 1 * 256 + 1 * (y 1).val = (k 1).val; rw [hB, hkc]; omega

/-- Window 2's block at point t is rows 512·(t % 8) … of h. -/
theorem hj21_apply (V : Valuation τ sig (Elt F)) (c : Dev nD) (t : Fin cfg21.N) (y : S512x256.Idx) (k : S4096x256.Idx)
    (hkr : (k 0).val = 512 * (t.val % 8) + (y 0).val) (hkc : (k 1).val = (y 1).val) :
    hj21 V c t y = harr21 V k := by
  obtain ⟨-, -, ⟨hA, hB⟩, -, -, -⟩ := idx_facts21 t
  show (iblk21 V c 2 t : Vec F S512x256 .f32) y = _
  unfold iblk21
  rw [View.read_apply]
  show V (Proc.devRef .tc main_v717) _ = V (Proc.devRef .tc main_v717) _
  congr 1
  funext a
  apply Fin.ext
  match a with
  | ⟨0, _⟩ => show win21_2.index t 0 * 512 + 1 * (y 0).val = (k 0).val; rw [hA, hkr]; omega
  | ⟨1, _⟩ => show win21_2.index t 1 * 256 + 1 * (y 1).val = (k 1).val; rw [hB, hkc]; omega

/-- Window 3's block at point t is rows 512·(t / 8) … of x. -/
theorem xi21_apply (V : Valuation τ sig (Elt F)) (c : Dev nD) (t : Fin cfg21.N) (y : S512x256.Idx) (k : S4096x256.Idx)
    (hkr : (k 0).val = 512 * (t.val / 8) + (y 0).val) (hkc : (k 1).val = (y 1).val) :
    xi21 V c t y = xarr21 V k := by
  obtain ⟨-, -, -, ⟨hA, hB⟩, -, -⟩ := idx_facts21 t
  show (iblk21 V c 3 t : Vec F S512x256 .f32) y = _
  unfold iblk21
  rw [View.read_apply]
  show V (Proc.devRef .tc main_v698) _ = V (Proc.devRef .tc main_v698) _
  congr 1
  funext a
  apply Fin.ext
  match a with
  | ⟨0, _⟩ => show win21_3.index t 0 * 512 + 1 * (y 0).val = (k 0).val; rw [hA, hkr]; omega
  | ⟨1, _⟩ => show win21_3.index t 1 * 256 + 1 * (y 1).val = (k 1).val; rw [hB, hkc]; omega

/-- Window 4's block at point t is rows 512·(t % 8) … of x. -/
theorem xj21_apply (V : Valuation τ sig (Elt F)) (c : Dev nD) (t : Fin cfg21.N) (y : S512x256.Idx) (k : S4096x256.Idx)
    (hkr : (k 0).val = 512 * (t.val % 8) + (y 0).val) (hkc : (k 1).val = (y 1).val) :
    xj21 V c t y = xarr21 V k := by
  obtain ⟨-, -, -, -, ⟨hA, hB⟩, -⟩ := idx_facts21 t
  show (iblk21 V c 4 t : Vec F S512x256 .f32) y = _
  unfold iblk21
  rw [View.read_apply]
  show V (Proc.devRef .tc main_v698) _ = V (Proc.devRef .tc main_v698) _
  congr 1
  funext a
  apply Fin.ext
  match a with
  | ⟨0, _⟩ => show win21_4.index t 0 * 512 + 1 * (y 0).val = (k 0).val; rw [hA, hkr]; omega
  | ⟨1, _⟩ => show win21_4.index t 1 * 256 + 1 * (y 1).val = (k 1).val; rw [hB, hkc]; omega

/-- The accumulator after point n depends on n only through its value. -/
theorem acc21_congr (V : Valuation τ sig (Elt F)) (c : Dev nD) {n n' : ℕ} (e : n = n') (hn : n < cfg21.N) (hn' : n' < cfg21.N) :
    acc21 V c n hn = acc21 V c n' hn' := by
  subst e; rfl

/-- At the first point of row block i the accumulator is reset and stepped once … -/
theorem acc21_row_zero (V : Valuation τ sig (Elt F)) (c : Dev nD) (i : ℕ) (hn : 8 * i + 0 < cfg21.N) :
    acc21 V c (8 * i + 0) hn = step21 V c (8 * i + 0) hn (init21 V c (8 * i + 0) hn) :=
  acc21_reset V c (8 * i + 0) hn (by omega)

/-- … and at each later point of the row block it is stepped from what the point before left. -/
theorem acc21_row_succ (V : Valuation τ sig (Elt F)) (c : Dev nD) (i j : ℕ) (hj : j + 1 < 8) (hn : 8 * i + (j + 1) < cfg21.N) :
    acc21 V c (8 * i + (j + 1)) hn = step21 V c (8 * i + (j + 1)) hn (acc21 V c (8 * i + j) (by omega)) :=
  (acc21_step V c (8 * i + (j + 1)) hn (by omega)).trans
    (congrArg (step21 V c (8 * i + (j + 1)) hn) (acc21_congr V c (by omega) _ _))

end AnyF

/-! ## The accumulator at the ideal values -/

/-- The Gram matrix of the rows of h. -/
noncomputable def gram21 (V : Valuation τ sig (Elt Ideal)) (r s : Fin 4096) : EReal :=
  ∑ k : Fin 256, (harr21 V (ix2 r k) : EReal) * (harr21 V (ix2 s k) : EReal)

/-- The 0/1 mask: 1 where the Gram matrix's entry is above the threshold, else 0. -/
noncomputable def mask21 (V : Valuation τ sig (Elt Ideal)) (r s : Fin 4096) : EReal :=
  if (marr21 V (ix2 (0 : Fin 1) (0 : Fin 1)) : EReal) < gram21 V r s then 1 else 0

/-- The mask's entries are zero or one. -/
theorem mask21_zero_or_one (V : Valuation τ sig (Elt Ideal)) (r s : Fin 4096) : mask21 V r s = 0 ∨ mask21 V r s = 1 := by
  unfold mask21
  exact GridSum.ite_zero_or_one _

/-- What column block j adds to the accumulator's entry of row r and feature d (zero past the eight blocks). -/
noncomputable def blockTerm21 (V : Valuation τ sig (Elt Ideal)) (r : Fin 4096) (d : Fin 256) (j : ℕ) : EReal :=
  if hj : j < 8 then
    ∑ q : Fin 512, mask21 V r (GridSum.idx4096 ⟨j, hj⟩ q) * (xarr21 V (ix2 (GridSum.idx4096 ⟨j, hj⟩ q) d) : EReal)
  else 0

theorem blockTerm21_of_lt (V : Valuation τ sig (Elt Ideal)) (r : Fin 4096) (d : Fin 256) (j : ℕ) (hj : j < 8) :
    blockTerm21 V r d j
      = ∑ q : Fin 512, mask21 V r (GridSum.idx4096 ⟨j, hj⟩ q) * (xarr21 V (ix2 (GridSum.idx4096 ⟨j, hj⟩ q) d) : EReal) := by
  unfold blockTerm21
  exact dif_pos hj

/-- One step at point 8·i + j adds column block j's term to the entry of row 512·i + p. -/
theorem step21_apply (V : Valuation τ sig (Elt Ideal)) (c : Dev nD) (i : Fin 8) (j : ℕ) (hj : j < 8)
    (hn : 8 * (i : ℕ) + j < cfg21.N) (a : Vec Ideal S512x256 .f32) (p : Fin 512) (d : Fin 256) :
    (step21 V c (8 * (i : ℕ) + j) hn a (ix2 p d) : EReal) = (a (ix2 p d) : EReal) + blockTerm21 V (GridSum.idx4096 i p) d j := by
  have hi : (i : ℕ) < 8 := i.isLt
  have e := k21_pay2_apply (hi21 V c ⟨8 * (i : ℕ) + j, hn⟩) (hj21 V c ⟨8 * (i : ℕ) + j, hn⟩) (mb21 V c ⟨8 * (i : ℕ) + j, hn⟩)
    (xj21 V c ⟨8 * (i : ℕ) + j, hn⟩) a p d
  rw [blockTerm21_of_lt V _ d j hj]
  refine e.trans ?_
  congr 1
  refine Finset.sum_congr rfl fun q _ => ?_
  rw [mb21_apply V c ⟨8 * (i : ℕ) + j, hn⟩ (ix2 (0 : Fin 1) (0 : Fin 1)),
    xj21_apply V c ⟨8 * (i : ℕ) + j, hn⟩ (ix2 q d) (ix2 (GridSum.idx4096 ⟨j, hj⟩ q) d)
      (by show 512 * j + (q : ℕ) = 512 * ((8 * (i : ℕ) + j) % 8) + (q : ℕ); omega) rfl]
  congr 1
  unfold mask21 gram21
  have hs : (∑ k : Fin 256, (hi21 V c ⟨8 * (i : ℕ) + j, hn⟩ (ix2 p k) : EReal) * (hj21 V c ⟨8 * (i : ℕ) + j, hn⟩ (ix2 q k) : EReal))
      = ∑ k : Fin 256, (harr21 V (ix2 (GridSum.idx4096 i p) k) : EReal) * (harr21 V (ix2 (GridSum.idx4096 ⟨j, hj⟩ q) k) : EReal) :=
    Finset.sum_congr rfl fun k _ => by
      rw [hi21_apply V c ⟨8 * (i : ℕ) + j, hn⟩ (ix2 p k) (ix2 (GridSum.idx4096 i p) k)
          (by show 512 * (i : ℕ) + (p : ℕ) = 512 * ((8 * (i : ℕ) + j) / 8) + (p : ℕ); omega) rfl,
        hj21_apply V c ⟨8 * (i : ℕ) + j, hn⟩ (ix2 q k) (ix2 (GridSum.idx4096 ⟨j, hj⟩ q) k)
          (by show 512 * j + (q : ℕ) = 512 * ((8 * (i : ℕ) + j) % 8) + (q : ℕ); omega) rfl]
  rw [hs]

/-- The reset value at point 8·i + j is 1 times the entry of x at row 512·i + p. -/
theorem init21_apply (V : Valuation τ sig (Elt Ideal)) (c : Dev nD) (i : Fin 8) (j : ℕ) (hj : j < 8)
    (hn : 8 * (i : ℕ) + j < cfg21.N) (p : Fin 512) (d : Fin 256) :
    (init21 V c (8 * (i : ℕ) + j) hn (ix2 p d) : EReal) = 1 * (xarr21 V (ix2 (GridSum.idx4096 i p) d) : EReal) := by
  have hi : (i : ℕ) < 8 := i.isLt
  have e := k21_pay1_apply (xi21 V c ⟨8 * (i : ℕ) + j, hn⟩) p d
  refine e.trans ?_
  rw [xi21_apply V c ⟨8 * (i : ℕ) + j, hn⟩ (ix2 p d) (ix2 (GridSum.idx4096 i p) d)
    (by show 512 * (i : ℕ) + (p : ℕ) = 512 * ((8 * (i : ℕ) + j) / 8) + (p : ℕ); omega) rfl]

/-- After point 8·i + j the accumulator's entry of row r = 512·i + p holds 1·x r with the terms of the column blocks
    0 … j added one by one. -/
theorem acc21_apply (V : Valuation τ sig (Elt Ideal)) (c : Dev nD) (i : Fin 8) (p : Fin 512) (d : Fin 256) :
    ∀ (j : ℕ) (hj : j < 8) (hn : 8 * (i : ℕ) + j < cfg21.N),
      (acc21 V c (8 * (i : ℕ) + j) hn (ix2 p d) : EReal)
        = GridSum.accFold (1 * (xarr21 V (ix2 (GridSum.idx4096 i p) d) : EReal)) (blockTerm21 V (GridSum.idx4096 i p) d) (j + 1)
  | 0, hj, hn => by
    rw [acc21_row_zero V c (i : ℕ) hn, step21_apply V c i 0 hj hn _ p d, init21_apply V c i 0 hj hn p d,
      GridSum.accFold_succ, GridSum.accFold_zero]
  | j + 1, hj, hn => by
    rw [acc21_row_succ V c (i : ℕ) j hj hn, step21_apply V c i (j + 1) hj hn _ p d,
      acc21_apply V c i p d j (by omega) (by omega), GridSum.accFold_succ _ _ (j + 1)]

/-- THE AGGREGATION KERNEL'S VALUE at the last point of row block i: the entry of row r = 512·i + p and feature d is
    1·x r d plus the sum over all 4096 rows s of mask r s · x s d. -/
theorem acc21_last_apply (V : Valuation τ sig (Elt Ideal)) (c : Dev nD) (i : Fin 8) (p : Fin 512) (d : Fin 256)
    (hn : 8 * (i : ℕ) + 7 < cfg21.N) :
    (acc21 V c (8 * (i : ℕ) + 7) hn (ix2 p d) : EReal)
      = 1 * (xarr21 V (ix2 (GridSum.idx4096 i p) d) : EReal)
        + ∑ s : Fin 4096, mask21 V (GridSum.idx4096 i p) s * (xarr21 V (ix2 s d) : EReal) := by
  rw [acc21_apply V c i p d 7 (by omega) hn, GridSum.accFold_eq_sum,
    GridSum.sum_range_fin (blockTerm21 V (GridSum.idx4096 i p) d)
      (fun j : Fin 8 => ∑ q : Fin 512, mask21 V (GridSum.idx4096 i p) (GridSum.idx4096 j q) * (xarr21 V (ix2 (GridSum.idx4096 j q) d) : EReal))
      (fun j => blockTerm21_of_lt V _ d (j : ℕ) j.isLt),
    GridSum.sum_blocks GridSum.eight_mul (fun s : Fin 4096 => mask21 V (GridSum.idx4096 i p) s * (xarr21 V (ix2 s d) : EReal))]

/-! ## The output array after the run -/

section Array

variable {F : FTy → Type} [FloatOps F]
variable {Ix : Type} [DecidableEq Ix] {U : Type} [URA U] {Lvl : Type}

/-- The output window's block at point t is rows 512·(t / 8) … of the output array. -/
theorem oblk21_apply (c : Dev nD) (X : Buf (Elt F) ((cfg21.win 5).arr.view.loc (c.tc : Thread nD τ))) (t : Fin cfg21.N)
    (y : S512x256.Idx) (k : S4096x256.Idx) (hkr : (k 0).val = 512 * (t.val / 8) + (y 0).val) (hkc : (k 1).val = (y 1).val) :
    (((cfg21.win 5).blk t).view.read (Elt F) X : Vec F S512x256 .f32) y = (X : S4096x256.Idx → Elt F .f32) k := by
  obtain ⟨-, -, -, -, -, ⟨hA, hB⟩⟩ := idx_facts21 t
  rw [View.read_apply]
  have e : ((cfg21.win 5).blk t).view.emb y = k := by
    funext a
    apply Fin.ext
    match a with
    | ⟨0, _⟩ => show win21_5.index t 0 * 512 + 1 * (y 0).val = (k 0).val; rw [hA, hkr]; omega
    | ⟨1, _⟩ => show win21_5.index t 1 * 256 + 1 * (y 1).val = (k 1).val; rw [hB, hkc]; omega
  exact congrArg X e

/-- After the whole grid the output array's entry of row 512·i + p is what the accumulator held, at row p, after the
    last point of row block i. -/
theorem arrAt21_5_block (V : Valuation τ sig (Elt F)) (c : Dev nD) (i : Fin 8) (p : Fin 512) (d : Fin 256)
    (hn : 8 * (i : ℕ) + 7 < cfg21.N) :
    ((dat21 (Ix := Ix) (U := U) (Lvl := Lvl) V c).arrAt 5 64 : S4096x256.Idx → Elt F .f32) (ix2 (GridSum.idx4096 i p) d)
      = (acc21 V c (8 * (i : ℕ) + 7) hn : Vec F S512x256 .f32) (ix2 p d) := by
  have hi : (i : ℕ) < 8 := i.isLt
  refine (oblk21_apply c ((dat21 (Ix := Ix) (U := U) (Lvl := Lvl) V c).arrAt 5 64) ⟨8 * (i : ℕ) + 7, hn⟩ (ix2 p d)
    (ix2 (GridSum.idx4096 i p) d)
    (by show 512 * (i : ℕ) + (p : ℕ) = 512 * ((8 * (i : ℕ) + 7) / 8) + (p : ℕ); omega) rfl).symm.trans ?_
  exact congrFun (out21_block (Ix := Ix) (U := U) (Lvl := Lvl) V c ⟨8 * (i : ℕ) + 7, hn⟩
    (by show (8 * (i : ℕ) + 7) % 8 = 7; omega)) (ix2 p d)

/-- THE AGGREGATION KERNEL'S OUTPUT ARRAY at the ideal values: the entry of row r and feature d is 1·x r d plus the sum
    over all rows s of mask r s · x s d, the mask being 1 where the Gram matrix of the rows of h is above the threshold. -/
theorem arrAt21_5_value (V : Valuation τ sig (Elt Ideal)) (c : Dev nD) (r : Fin 4096) (d : Fin 256) :
    (((dat21 (Ix := Ix) (U := U) (Lvl := Lvl) V c).arrAt 5 64 : S4096x256.Idx → Elt Ideal .f32) (ix2 r d) : EReal)
      = 1 * (xarr21 V (ix2 r d) : EReal) + ∑ s : Fin 4096, mask21 V r s * (xarr21 V (ix2 s d) : EReal) := by
  have hN : cfg21.N = 64 := N_21
  obtain ⟨i, p, rfl⟩ := GridSum.exists_idx4096 r
  have hi : (i : ℕ) < 8 := i.isLt
  have hn : 8 * (i : ℕ) + 7 < cfg21.N := by omega
  exact (arrAt21_5_block (Ix := Ix) (U := U) (Lvl := Lvl) V c i p d hn).trans (acc21_last_apply V c i p d hn)

/-- The same with the diagonal folded into the mask: Σ_s (mask r s + δ r s) · x s d, the aggregate law of zeros and ones
    on the extended reals. -/
theorem arrAt21_5_agg (V : Valuation τ sig (Elt Ideal)) (c : Dev nD) (r : Fin 4096) (d : Fin 256) :
    (((dat21 (Ix := Ix) (U := U) (Lvl := Lvl) V c).arrAt 5 64 : S4096x256.Idx → Elt Ideal .f32) (ix2 r d) : EReal)
      = ∑ s : Fin 4096, (mask21 V r s + (if r = s then 1 else 0)) * (xarr21 V (ix2 s d) : EReal) :=
  (arrAt21_5_value (Ix := Ix) (U := U) (Lvl := Lvl) V c r d).trans
    (GridSum.aggregate_law_ite (mask21 V) (fun s => (xarr21 V (ix2 s d) : EReal)) (mask21_zero_or_one V) r)

/-- The same as an equation of arrays: the output array is the closed form aggVal of the threshold cell, h and x. -/
theorem region21_value (V : Valuation τ sig (Elt Ideal)) (c : Dev nD) :
    ((dat21 (Ix := Ix) (U := U) (Lvl := Lvl) V c).arrAt 5 64 : S4096x256.Idx → Elt Ideal .f32)
      = Cert.Hand.aggVal (marr21 V) (harr21 V) (xarr21 V) := by
  funext j
  obtain ⟨r, d, rfl⟩ : ∃ (r : Fin 4096) (d : Fin 256), j = ix2 r d := ⟨j 0, j 1, eq_ix2 j⟩
  exact arrAt21_5_value (Ix := Ix) (U := U) (Lvl := Lvl) V c r d

end Array

end Cert.KernelIdeal.Hand

end
-- ==== Proof.RgV22.lean ====
import Idealize.ShloMosaic.Lib.Pipeline.Value
import proofs.«169706_j68856915690108_1_alg».proof.Proof.UnitIdx
import proofs.«169706_j68856915690108_1_alg».proof.Proof.AggVal
import proofs.«169706_j68856915690108_1_alg».proof.Proof.TileValue
import proofs.«169706_j68856915690108_1_alg».proof.Proof.LibGridSum
import Idealize.ShloMosaic.Lib.ValueIdx
import proofs.«169706_j68856915690108_1_alg».proof.Proof.Rg22

/-! # part: SumValue -/
/-
  Region 0 (the tile-sum kernel): what the run leaves in the output array.

  The output window's block is the whole 1 × 1 output array, and it is written back once, after the last of the 64
  points. So after the whole grid the output array's one cell holds what the scratch cell held after point 63: the sum
  of all 64 tiles.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The one write-back -/

/-- Only the last point writes the output block back, so no two different points do. -/
theorem disj22_2 (t t' : Fin cfg22.N) (hf : (cfg22.win 2).flush t = true) (hf' : (cfg22.win 2).flush t' = true)
    (hne : t ≠ t') : Disjoint ((cfg22.win 2).blk t).view.set ((cfg22.win 2).blk t').view.set := by
  have hN : cfg22.N = 64 := N_22
  have h := (flush22_2 t).mp hf
  have h' := (flush22_2 t').mp hf'
  have := t.isLt; have := t'.isLt
  exact absurd (Fin.ext (by omega)) hne

/-- The grid has a point 63, its last. -/
theorem last22_lt : 63 < cfg22.N := by decide

/-- The last point writes the output block back. -/
theorem flush22_2_last : (cfg22.win 2).flush ⟨63, last22_lt⟩ = true := (flush22_2 _).mpr (by decide)

/-! ## The output array after the run -/

/-- After the whole grid, the output block read back through the window holds what the scratch cell held after the
    last point. -/
theorem out22_block (V : Valuation τ sig (Elt F)) (c : Dev nD) :
    ((cfg22.win 2).blk ⟨63, last22_lt⟩).view.read (Elt F) ((dat22 (Ix := Ix) (U := U) (Lvl := Lvl) V c).arrAt 2 64)
      = acc22 V c 63 last22_lt :=
  ((dat22 (Ix := Ix) (U := U) (Lvl := Lvl) V c).read_blk_arrAt_eq_flushed 2 disj22_2 64 ⟨63, last22_lt⟩ (by decide)
    flush22_2_last).trans (after22_2 V c ⟨63, last22_lt⟩)

/-- The output array after the whole grid, cell by cell: what the scratch cell held after the last point. -/
theorem arrAt22_2_apply (V : Valuation τ sig (Elt F)) (c : Dev nD) (i : S1x1.Idx) :
    ((dat22 (Ix := Ix) (U := U) (Lvl := Lvl) V c).arrAt 2 64 : S1x1.Idx → Elt F .f32) i = acc22 V c 63 last22_lt i := by
  have h := congrFun (out22_block (Ix := Ix) (U := U) (Lvl := Lvl) V c) i
  rw [View.read_apply] at h
  rw [← h, unit_idx_eq (((cfg22.win 2).blk ⟨63, last22_lt⟩).view.emb i) i]
  rfl

/-- The output array after the whole grid, as a 1 × 1 vector. -/
theorem arrAt22_2 (V : Valuation τ sig (Elt F)) (c : Dev nD) :
    ((dat22 (Ix := Ix) (U := U) (Lvl := Lvl) V c).arrAt 2 64 : S1x1.Idx → Elt F .f32) = acc22 V c 63 last22_lt :=
  funext fun i => arrAt22_2_apply V c i

end Cert.KernelIdeal.Hand

end

/-! # part: RegionValue0 -/
/-
  Region 0 (the tile-sum kernel) read as a value: the cell it accumulates ends at the sum of the whole Gram matrix.

  The grid is 8 × 8, walked row by row: point t = 8·i + j stages rows 512·i … 512·i + 511 of the 4096 × 256 array h
  through its first window and rows 512·j … of the same array through its second (idx_facts22, hi22_apply, hj22_apply).
  At the ideal values the step of one point adds to the 1 × 1 cell the sum of the 512 × 512 tile
  Σ_p Σ_q Σ_k h (512·i + p) k · h (512·j + q) k, and the cell starts from zero, so after point n it holds the tile sums
  of the points 0 … n added one by one (acc22_apply). The 64 tiles are exactly the 8 × 8 tiling of the 4096 × 4096 Gram
  matrix G r s = Σ_k h r k · h s k (tile22_grid), and on the extended reals addition is commutative and associative, so
  after the last point the cell holds Σ_r Σ_s G r s (acc22_last_apply): no finiteness of h is needed. The one write-back, after
  the last point, copies the cell into the 1 × 1 output array (arrAt22_2_value, region22_value).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the array -/

/-- Point t = 8·i + j of the 8 × 8 grid stages rows block i = t / 8 through window 0, rows block j = t % 8 through
    window 1, and the one cell through window 2. -/
theorem idx_facts22 : ∀ t : Fin cfg22.N,
    win22_0.index t 0 = t.val / 8 ∧ win22_0.index t 1 = 0 ∧ win22_1.index t 0 = t.val % 8 ∧ win22_1.index t 1 = 0
      ∧ win22_2.index t 0 = 0 ∧ win22_2.index t 1 = 0 :=
  (by decide +kernel : ∀ t : Fin grid22.N,
    win22_0.index t 0 = t.val / 8 ∧ win22_0.index t 1 = 0 ∧ win22_1.index t 0 = t.val % 8 ∧ win22_1.index t 1 = 0
      ∧ win22_2.index t 0 = 0 ∧ win22_2.index t 1 = 0)

section AnyF

variable {F : FTy → Type} [FloatOps F]

/-- The array h both input windows read: the region-entry contents of the first window's array. -/
abbrev harr22 (V : Valuation τ sig (Elt F)) : Vec F S4096x256 .f32 := V (Proc.devRef .tc main_v786)

/-- The block of h window 0 stages at point t, as a 512 × 256 array. -/
abbrev hi22 (V : Valuation τ sig (Elt F)) (c : Dev nD) (t : Fin cfg22.N) : Vec F S512x256 .f32 := iblk22 V c 0 t
/-- The block of h window 1 stages at point t, as a 512 × 256 array. -/
abbrev hj22 (V : Valuation τ sig (Elt F)) (c : Dev nD) (t : Fin cfg22.N) : Vec F S512x256 .f32 := iblk22 V c 1 t

/-- Window 0's block at point t is rows 512·(t / 8) … of h. -/
theorem hi22_apply (V : Valuation τ sig (Elt F)) (c : Dev nD) (t : Fin cfg22.N) (y : S512x256.Idx) (k : S4096x256.Idx)
    (hkr : (k 0).val = 512 * (t.val / 8) + (y 0).val) (hkc : (k 1).val = (y 1).val) :
    hi22 V c t y = harr22 V k := by
  obtain ⟨hA, hB, -, -, -, -⟩ := idx_facts22 t
  show (iblk22 V c 0 t : Vec F S512x256 .f32) y = _
  unfold iblk22
  rw [View.read_apply]
  show V (Proc.devRef .tc main_v786) _ = V (Proc.devRef .tc main_v786) _
  congr 1
  funext a
  apply Fin.ext
  match a with
  | ⟨0, _⟩ => show win22_0.index t 0 * 512 + 1 * (y 0).val = (k 0).val; rw [hA, hkr]; omega
  | ⟨1, _⟩ => show win22_0.index t 1 * 256 + 1 * (y 1).val = (k 1).val; rw [hB, hkc]; omega

/-- Window 1's block at point t is rows 512·(t % 8) … of h. -/
theorem hj22_apply (V : Valuation τ sig (Elt F)) (c : Dev nD) (t : Fin cfg22.N) (y : S512x256.Idx) (k : S4096x256.Idx)
    (hkr : (k 0).val = 512 * (t.val % 8) + (y 0).val) (hkc : (k 1).val = (y 1).val) :
    hj22 V c t y = harr22 V k := by
  obtain ⟨-, -, hA, hB, -, -⟩ := idx_facts22 t
  show (iblk22 V c 1 t : Vec F S512x256 .f32) y = _
  unfold iblk22
  rw [View.read_apply]
  show V (Proc.devRef .tc main_v786) _ = V (Proc.devRef .tc main_v786) _
  congr 1
  funext a
  apply Fin.ext
  match a with
  | ⟨0, _⟩ => show win22_1.index t 0 * 512 + 1 * (y 0).val = (k 0).val; rw [hA, hkr]; omega
  | ⟨1, _⟩ => show win22_1.index t 1 * 256 + 1 * (y 1).val = (k 1).val; rw [hB, hkc]; omega

end AnyF

/-! ## The accumulated cell at the ideal values -/

/-- The Gram matrix of the rows of h: entry (r, s) is the sum over the 256 columns of the products. -/
noncomputable def gram22 (V : Valuation τ sig (Elt Ideal)) (r s : Fin 4096) : EReal :=
  ∑ k : Fin 256, (harr22 V (ix2 r k) : EReal) * (harr22 V (ix2 s k) : EReal)

/-- The sum of the 512 × 512 tile the point t stages (zero past the grid). -/
noncomputable def tile22 (V : Valuation τ sig (Elt Ideal)) (c : Dev nD) (t : ℕ) : EReal :=
  if ht : t < cfg22.N then
    ∑ p : Fin 512, ∑ q : Fin 512, ∑ k : Fin 256, (hi22 V c ⟨t, ht⟩ (ix2 p k) : EReal) * (hj22 V c ⟨t, ht⟩ (ix2 q k) : EReal)
  else 0

theorem tile22_of_lt (V : Valuation τ sig (Elt Ideal)) (c : Dev nD) (t : ℕ) (ht : t < cfg22.N) :
    tile22 V c t
      = ∑ p : Fin 512, ∑ q : Fin 512, ∑ k : Fin 256, (hi22 V c ⟨t, ht⟩ (ix2 p k) : EReal) * (hj22 V c ⟨t, ht⟩ (ix2 q k) : EReal) := by
  unfold tile22
  exact dif_pos ht

/-- After point n the cell holds the tile sums of the points 0 … n added one by one onto zero. -/
theorem acc22_apply (V : Valuation τ sig (Elt Ideal)) (c : Dev nD) :
    ∀ (n : ℕ) (hn : n < cfg22.N) (a b : Fin 1),
      ((acc22 V c n hn : Vec Ideal S1x1 .f32) (ix2 a b) : EReal) = GridSum.accFold 0 (tile22 V c) (n + 1)
  | 0, hn, a, b => by
    have e := k22_pay2_apply (hi22 V c ⟨0, hn⟩) (hj22 V c ⟨0, hn⟩) (k22_pay1 (F := Ideal)) a b
    rw [k22_pay1_apply] at e
    rw [GridSum.accFold_succ, GridSum.accFold_zero, tile22_of_lt V c 0 hn]
    exact e
  | n + 1, hn, a, b => by
    have e := k22_pay2_apply (hi22 V c ⟨n + 1, hn⟩) (hj22 V c ⟨n + 1, hn⟩) (acc22 V c n (Nat.lt_of_succ_lt hn)) a b
    rw [acc22_apply V c n (Nat.lt_of_succ_lt hn) a b] at e
    rw [GridSum.accFold_succ _ _ (n + 1), tile22_of_lt V c (n + 1) hn]
    exact e

/-- The tile of point 8·i + j is the 512 × 512 tile (i, j) of the Gram matrix. -/
theorem tile22_grid (V : Valuation τ sig (Elt Ideal)) (c : Dev nD) (i j : Fin 8) :
    tile22 V c (8 * (i : ℕ) + (j : ℕ))
      = ∑ p : Fin 512, ∑ q : Fin 512, gram22 V (GridSum.idx4096 i p) (GridSum.idx4096 j q) := by
  have hi : (i : ℕ) < 8 := i.isLt
  have hj : (j : ℕ) < 8 := j.isLt
  have hN : cfg22.N = 64 := N_22
  have ht : 8 * (i : ℕ) + (j : ℕ) < cfg22.N := by omega
  rw [tile22_of_lt V c _ ht]
  refine Finset.sum_congr rfl fun p _ => Finset.sum_congr rfl fun q _ => ?_
  unfold gram22
  refine Finset.sum_congr rfl fun k _ => ?_
  rw [hi22_apply V c ⟨_, ht⟩ (ix2 p k) (ix2 (GridSum.idx4096 i p) k)
      (by show 512 * (i : ℕ) + (p : ℕ) = 512 * ((8 * (i : ℕ) + (j : ℕ)) / 8) + (p : ℕ); omega) rfl,
    hj22_apply V c ⟨_, ht⟩ (ix2 q k) (ix2 (GridSum.idx4096 j q) k)
      (by show 512 * (j : ℕ) + (q : ℕ) = 512 * ((8 * (i : ℕ) + (j : ℕ)) % 8) + (q : ℕ); omega) rfl]

/-- THE SUM KERNEL'S VALUE. After the last point the cell holds the sum of the whole 4096 × 4096 Gram matrix of the
    rows of h: the 64 tile sums, taken in the grid's row-major order, add up to the sum over all pairs of rows. -/
theorem acc22_last_apply (V : Valuation τ sig (Elt Ideal)) (c : Dev nD) (hlast : 63 < cfg22.N) (a b : Fin 1) :
    ((acc22 V c 63 hlast : Vec Ideal S1x1 .f32) (ix2 a b) : EReal)
      = ∑ r : Fin 4096, ∑ s : Fin 4096, ∑ k : Fin 256, (harr22 V (ix2 r k) : EReal) * (harr22 V (ix2 s k) : EReal) := by
  rw [acc22_apply V c 63 hlast a b, GridSum.accFold_tiles_4096 (gram22 V) 0 (tile22 V c) (tile22_grid V c), zero_add]
  rfl

/-! ## The output array after the run -/

section Array

variable {Ix : Type} [DecidableEq Ix] {U : Type} [URA U] {Lvl : Type}

/-- THE SUM KERNEL'S OUTPUT ARRAY at the ideal values: after the whole grid its one cell holds the sum of the whole
    4096 × 4096 Gram matrix of the rows of h. -/
theorem arrAt22_2_value (V : Valuation τ sig (Elt Ideal)) (c : Dev nD) (a b : Fin 1) :
    (((dat22 (Ix := Ix) (U := U) (Lvl := Lvl) V c).arrAt 2 64 : S1x1.Idx → Elt Ideal .f32) (ix2 a b) : EReal)
      = ∑ r : Fin 4096, ∑ s : Fin 4096, ∑ k : Fin 256, (harr22 V (ix2 r k) : EReal) * (harr22 V (ix2 s k) : EReal) :=
  (arrAt22_2_apply (Ix := Ix) (U := U) (Lvl := Lvl) V c (ix2 a b)).trans (acc22_last_apply V c (by decide) a b)

/-- The same as an equation of arrays: the output array is the closed form sumVal of h. -/
theorem region22_value (V : Valuation τ sig (Elt Ideal)) (c : Dev nD) :
    ((dat22 (Ix := Ix) (U := U) (Lvl := Lvl) V c).arrAt 2 64 : S1x1.Idx → Elt Ideal .f32) = Cert.Hand.sumVal (harr22 V) := by
  funext i
  obtain ⟨a, b, rfl⟩ : ∃ (a b : Fin 1), i = ix2 a b := ⟨i 0, i 1, eq_ix2 i⟩
  exact arrAt22_2_value (Ix := Ix) (U := U) (Lvl := Lvl) V c a b

end Array

end Cert.KernelIdeal.Hand

end
-- ==== Proof.RgV23.lean ====
import Idealize.ShloMosaic.Lib.Pipeline.Value
import proofs.«169706_j68856915690108_1_alg».proof.Proof.TileValue
import proofs.«169706_j68856915690108_1_alg».proof.Proof.LibGridSum
import proofs.«169706_j68856915690108_1_alg».proof.Proof.RegionValueLib
import proofs.«169706_j68856915690108_1_alg».proof.Proof.AggVal
import Idealize.ShloMosaic.Lib.ValueIdx
import proofs.«169706_j68856915690108_1_alg».proof.Proof.Rg23

/-! # part: ApplyOut -/
/-
  Region 1 (the aggregation kernel): what the run leaves in the output array.

  The accumulator after point t is the fold over the run of eight points that t lies in (the points 8·(t / 8) …
  8·(t / 8) + 7 share the row block i = t / 8): reset and stepped at the run's first point, stepped at each later one.
  The output window's block at point t is row block t / 8 of the output array, written back at the run's last point
  only (t % 8 = 7); two such points have different row blocks, so their blocks of the array are disjoint, and after
  the whole grid block i of the output array holds what the accumulator held after point 8·i + 7.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {F : FTy → Type} [FloatOps F]
variable {Ix : Type} [DecidableEq Ix] {U : Type} [URA U] {Lvl : Type}

/-! ## The accumulator as a fold over its run -/

/-- The accumulator after point `t` is the fold over the run of eight points `t` lies in, up to `t`. -/
theorem acc23_fold (V : Valuation τ sig (Elt F)) (c : Dev nD) (t : ℕ) (ht : t < cfg23.N)
    (h' : 8 * (t / 8) + t % 8 < cfg23.N) :
    acc23 V c t ht = Pipeline.accAt (fun n h => step23 V c n h (init23 V c n h)) (fun n h a => step23 V c n h a)
      (8 * (t / 8)) (t % 8) h' :=
  Pipeline.eq_accAt_of_mod (acc23 V c) 8 (fun n h => step23 V c n h (init23 V c n h)) (fun n h a => step23 V c n h a)
    (fun n h h0 => acc23_reset V c n h h0) (fun n h h0 => if_neg h0) (by decide) t ht h'

/-! ## The output window's blocks -/

/-- The output window's block index along the rows at point `t` is `t / 8`. -/
theorem idx23_5 : ∀ t : Fin cfg23.N, win23_5.index t (0 : Fin 2) = t.val / 8 :=
  (by decide +kernel : ∀ t : Fin grid23.N, win23_5.index t (0 : Fin 2) = t.val / 8)

/-- Two different points that write the output block back write disjoint blocks of the array. -/
theorem disj23_5 (t t' : Fin cfg23.N) (hf : (cfg23.win 5).flush t = true) (hf' : (cfg23.win 5).flush t' = true)
    (hne : t ≠ t') : Disjoint ((cfg23.win 5).blk t).view.set ((cfg23.win 5).blk t').view.set := by
  refine (cfg23.win 5).disjoint_blk fun h => hne (Fin.ext ?_)
  have h0 : win23_5.index t (0 : Fin 2) = win23_5.index t' (0 : Fin 2) := congrFun h (0 : Fin 2)
  rw [idx23_5 t, idx23_5 t'] at h0
  have h7 := (flush23_5 t).mp hf
  have h7' := (flush23_5 t').mp hf'
  omega

/-! ## The output array after the run -/

/-- After the whole grid, the block of the output array under a point that writes back (`t % 8 = 7`) holds what the
    accumulator held after that point. -/
theorem out23_block (V : Valuation τ sig (Elt F)) (c : Dev nD) (t : Fin cfg23.N) (ht : t.val % 8 = 7) :
    ((cfg23.win 5).blk t).view.read (Elt F) ((dat23 (Ix := Ix) (U := U) (Lvl := Lvl) V c).arrAt 5 64)
      = acc23 V c t.val t.isLt := by
  have hN : cfg23.N = 64 := N_23
  have hlt : t.val < 64 := Nat.lt_of_lt_of_eq t.isLt hN
  exact ((dat23 (Ix := Ix) (U := U) (Lvl := Lvl) V c).read_blk_arrAt_eq_flushed 5 disj23_5 64 t hlt
    ((flush23_5 t).mpr ht)).trans (after23_5 V c t)

end Cert.KernelIdeal.Hand

end

/-! # part: RegionValue1 -/
/-
  Region 1 (the aggregation kernel) read as a value: row r of its output is 1·x r plus the masked sum over all rows.

  The grid is 8 × 8, walked row by row: point t = 8·i + j stages the one threshold cell, rows 512·i … of the 4096 × 256
  arrays h and x (row block i) and rows 512·j … of the same two arrays (row block j) (idx_facts23 and the block reads
  mb23_apply … xj23_apply). At the ideal values the reset at j = 0 leaves 1·x r in the accumulator's entry of row
  r = 512·i + p (init23_apply), and the step of point 8·i + j adds Σ_q mask r (512·j + q) · x (512·j + q), the mask
  being 1 where the Gram matrix G r s = Σ_k h r k · h s k is above the threshold and 0 elsewhere (step23_apply). So after
  the eight points of row block i the entry holds 1·x r with the eight column blocks' terms added one by one
  (acc23_apply), which is 1·x r + Σ_s mask r s · x s over all 4096 rows s (acc23_last_apply): the eight blocks of 512 tile
  the 4096 columns, and addition on the extended reals is commutative and associative. The write-back at j = 7 puts
  that row block into the output array (arrAt23_5_block, arrAt23_5_value), and because the mask's entries are zeros and
  ones the diagonal term can be folded in: Σ_s (mask r s + δ r s) · x s (arrAt23_5_agg).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Where the blocks sit in the arrays -/

/-- Point t = 8·i + j of the 8 × 8 grid stages: the one threshold cell (window 0), rows block i = t / 8 of h and of x
    (windows 1 and 3), rows block j = t % 8 of h and of x (windows 2 and 4), and writes rows block i of the output
    (window 5). -/
theorem idx_facts23 : ∀ t : Fin cfg23.N,
    (win23_0.index t 0 = 0 ∧ win23_0.index t 1 = 0) ∧ (win23_1.index t 0 = t.val / 8 ∧ win23_1.index t 1 = 0)
      ∧ (win23_2.index t 0 = t.val % 8 ∧ win23_2.index t 1 = 0) ∧ (win23_3.index t 0 = t.val / 8 ∧ win23_3.index t 1 = 0)
      ∧ (win23_4.index t 0 = t.val % 8 ∧ win23_4.index t 1 = 0) ∧ (win23_5.index t 0 = t.val / 8 ∧ win23_5.index t 1 = 0) :=
  (by decide +kernel : ∀ t : Fin grid23.N,
    (win23_0.index t 0 = 0 ∧ win23_0.index t 1 = 0) ∧ (win23_1.index t 0 = t.val / 8 ∧ win23_1.index t 1 = 0)
      ∧ (win23_2.index t 0 = t.val % 8 ∧ win23_2.index t 1 = 0) ∧ (win23_3.index t 0 = t.val / 8 ∧ win23_3.index t 1 = 0)
      ∧ (win23_4.index t 0 = t.val % 8 ∧ win23_4.index t 1 = 0) ∧ (win23_5.index t 0 = t.val / 8 ∧ win23_5.index t 1 = 0))

section AnyF

variable {F : FTy → Type} [FloatOps F]

/-- The threshold cell, the array h and the array x the region reads: region-entry contents. -/
abbrev marr23 (V : Valuation τ sig (Elt F)) : Vec F S1x1 .f32 := V (Proc.devRef .tc main_v789)
abbrev harr23 (V : Valuation τ sig (Elt F)) : Vec F S4096x256 .f32 := V (Proc.devRef .tc main_v786)
abbrev xarr23 (V : Valuation τ sig (Elt F)) : Vec F S4096x256 .f32 := V (Proc.devRef .tc main_v767)

/-- The five input blocks at point t, each as an array of its literal shape. -/
abbrev mb23 (V : Valuation τ sig (Elt F)) (c : Dev nD) (t : Fin cfg23.N) : Vec F S1x1 .f32 := iblk23 V c 0 t
abbrev hi23 (V : Valuation τ sig (Elt F)) (c : Dev nD) (t : Fin cfg23.N) : Vec F S512x256 .f32 := iblk23 V c 1 t
abbrev hj23 (V : Valuation τ sig (Elt F)) (c : Dev nD) (t : Fin cfg23.N) : Vec F S512x256 .f32 := iblk23 V c 2 t
abbrev xi23 (V : Valuation τ sig (Elt F)) (c : Dev nD) (t : Fin cfg23.N) : Vec F S512x256 .f32 := iblk23 V c 3 t
abbrev xj23 (V : Valuation τ sig (Elt F)) (c : Dev nD) (t : Fin cfg23.N) : Vec F S512x256 .f32 := iblk23 V c 4 t

/-- Window 0's block is the threshold cell itself. -/
theorem mb23_apply (V : Valuation τ sig (Elt F)) (c : Dev nD) (t : Fin cfg23.N) (y : S1x1.Idx) :
    mb23 V c t y = marr23 V y := by
  obtain ⟨⟨hA, hB⟩, -, -, -, -, -⟩ := idx_facts23 t
  show (iblk23 V c 0 t : Vec F S1x1 .f32) y = _
  unfold iblk23
  rw [View.read_apply]
  show V (Proc.devRef .tc main_v789) _ = V (Proc.devRef .tc main_v789) _
  congr 1
  funext a
  apply Fin.ext
  match a with
  | ⟨0, _⟩ => show win23_0.index t 0 * 1 + 1 * (y 0).val = (y 0).val; rw [hA]; omega
  | ⟨1, _⟩ => show win23_0.index t 1 * 1 + 1 * (y 1).val = (y 1).val; rw [hB]; omega

/-- Window 1's block at point t is rows 512·(t / 8) … of h. -/
theorem hi23_apply (V : Valuation τ sig (Elt F)) (c : Dev nD) (t : Fin cfg23.N) (y : S512x256.Idx) (k : S4096x256.Idx)
    (hkr : (k 0).val = 512 * (t.val / 8) + (y 0).val) (hkc : (k 1).val = (y 1).val) :
    hi23 V c t y = harr23 V k := by
  obtain ⟨-, ⟨hA, hB⟩, -, -, -, -⟩ := idx_facts23 t
  show (iblk23 V c 1 t : Vec F S512x256 .f32) y = _
  unfold iblk23
  rw [View.read_apply]
  show V (Proc.devRef .tc main_v786) _ = V (Proc.devRef .tc main_v786) _
  congr 1
  funext a
  apply Fin.ext
  match a with
  | ⟨0, _⟩ => show win23_1.index t 0 * 512 + 1 * (y 0).val = (k 0).val; rw [hA, hkr]; omega
  | ⟨1, _⟩ => show win23_1.index t 1 * 256 + 1 * (y 1).val = (k 1).val; rw [hB, hkc]; omega

/-- Window 2's block at point t is rows 512·(t % 8) … of h. -/
theorem hj23_apply (V : Valuation τ sig (Elt F)) (c : Dev nD) (t : Fin cfg23.N) (y : S512x256.Idx) (k : S4096x256.Idx)
    (hkr : (k 0).val = 512 * (t.val % 8) + (y 0).val) (hkc : (k 1).val = (y 1).val) :
    hj23 V c t y = harr23 V k := by
  obtain ⟨-, -, ⟨hA, hB⟩, -, -, -⟩ := idx_facts23 t
  show (iblk23 V c 2 t : Vec F S512x256 .f32) y = _
  unfold iblk23
  rw [View.read_apply]
  show V (Proc.devRef .tc main_v786) _ = V (Proc.devRef .tc main_v786) _
  congr 1
  funext a
  apply Fin.ext
  match a with
  | ⟨0, _⟩ => show win23_2.index t 0 * 512 + 1 * (y 0).val = (k 0).val; rw [hA, hkr]; omega
  | ⟨1, _⟩ => show win23_2.index t 1 * 256 + 1 * (y 1).val = (k 1).val; rw [hB, hkc]; omega

/-- Window 3's block at point t is rows 512·(t / 8) … of x. -/
theorem xi23_apply (V : Valuation τ sig (Elt F)) (c : Dev nD) (t : Fin cfg23.N) (y : S512x256.Idx) (k : S4096x256.Idx)
    (hkr : (k 0).val = 512 * (t.val / 8) + (y 0).val) (hkc : (k 1).val = (y 1).val) :
    xi23 V c t y = xarr23 V k := by
  obtain ⟨-, -, -, ⟨hA, hB⟩, -, -⟩ := idx_facts23 t
  show (iblk23 V c 3 t : Vec F S512x256 .f32) y = _
  unfold iblk23
  rw [View.read_apply]
  show V (Proc.devRef .tc main_v767) _ = V (Proc.devRef .tc main_v767) _
  congr 1
  funext a
  apply Fin.ext
  match a with
  | ⟨0, _⟩ => show win23_3.index t 0 * 512 + 1 * (y 0).val = (k 0).val; rw [hA, hkr]; omega
  | ⟨1, _⟩ => show win23_3.index t 1 * 256 + 1 * (y 1).val = (k 1).val; rw [hB, hkc]; omega

/-- Window 4's block at point t is rows 512·(t % 8) … of x. -/
theorem xj23_apply (V : Valuation τ sig (Elt F)) (c : Dev nD) (t : Fin cfg23.N) (y : S512x256.Idx) (k : S4096x256.Idx)
    (hkr : (k 0).val = 512 * (t.val % 8) + (y 0).val) (hkc : (k 1).val = (y 1).val) :
    xj23 V c t y = xarr23 V k := by
  obtain ⟨-, -, -, -, ⟨hA, hB⟩, -⟩ := idx_facts23 t
  show (iblk23 V c 4 t : Vec F S512x256 .f32) y = _
  unfold iblk23
  rw [View.read_apply]
  show V (Proc.devRef .tc main_v767) _ = V (Proc.devRef .tc main_v767) _
  congr 1
  funext a
  apply Fin.ext
  match a with
  | ⟨0, _⟩ => show win23_4.index t 0 * 512 + 1 * (y 0).val = (k 0).val; rw [hA, hkr]; omega
  | ⟨1, _⟩ => show win23_4.index t 1 * 256 + 1 * (y 1).val = (k 1).val; rw [hB, hkc]; omega

/-- The accumulator after point n depends on n only through its value. -/
theorem acc23_congr (V : Valuation τ sig (Elt F)) (c : Dev nD) {n n' : ℕ} (e : n = n') (hn : n < cfg23.N) (hn' : n' < cfg23.N) :
    acc23 V c n hn = acc23 V c n' hn' := by
  subst e; rfl

/-- At the first point of row block i the accumulator is reset and stepped once … -/
theorem acc23_row_zero (V : Valuation τ sig (Elt F)) (c : Dev nD) (i : ℕ) (hn : 8 * i + 0 < cfg23.N) :
    acc23 V c (8 * i + 0) hn = step23 V c (8 * i + 0) hn (init23 V c (8 * i + 0) hn) :=
  acc23_reset V c (8 * i + 0) hn (by omega)

/-- … and at each later point of the row block it is stepped from what the point before left. -/
theorem acc23_row_succ (V : Valuation τ sig (Elt F)) (c : Dev nD) (i j : ℕ) (hj : j + 1 < 8) (hn : 8 * i + (j + 1) < cfg23.N) :
    acc23 V c (8 * i + (j + 1)) hn = step23 V c (8 * i + (j + 1)) hn (acc23 V c (8 * i + j) (by omega)) :=
  (acc23_step V c (8 * i + (j + 1)) hn (by omega)).trans
    (congrArg (step23 V c (8 * i + (j + 1)) hn) (acc23_congr V c (by omega) _ _))

end AnyF

/-! ## The accumulator at the ideal values -/

/-- The Gram matrix of the rows of h. -/
noncomputable def gram23 (V : Valuation τ sig (Elt Ideal)) (r s : Fin 4096) : EReal :=
  ∑ k : Fin 256, (harr23 V (ix2 r k) : EReal) * (harr23 V (ix2 s k) : EReal)

/-- The 0/1 mask: 1 where the Gram matrix's entry is above the threshold, else 0. -/
noncomputable def mask23 (V : Valuation τ sig (Elt Ideal)) (r s : Fin 4096) : EReal :=
  if (marr23 V (ix2 (0 : Fin 1) (0 : Fin 1)) : EReal) < gram23 V r s then 1 else 0

/-- The mask's entries are zero or one. -/
theorem mask23_zero_or_one (V : Valuation τ sig (Elt Ideal)) (r s : Fin 4096) : mask23 V r s = 0 ∨ mask23 V r s = 1 := by
  unfold mask23
  exact GridSum.ite_zero_or_one _

/-- What column block j adds to the accumulator's entry of row r and feature d (zero past the eight blocks). -/
noncomputable def blockTerm23 (V : Valuation τ sig (Elt Ideal)) (r : Fin 4096) (d : Fin 256) (j : ℕ) : EReal :=
  if hj : j < 8 then
    ∑ q : Fin 512, mask23 V r (GridSum.idx4096 ⟨j, hj⟩ q) * (xarr23 V (ix2 (GridSum.idx4096 ⟨j, hj⟩ q) d) : EReal)
  else 0

theorem blockTerm23_of_lt (V : Valuation τ sig (Elt Ideal)) (r : Fin 4096) (d : Fin 256) (j : ℕ) (hj : j < 8) :
    blockTerm23 V r d j
      = ∑ q : Fin 512, mask23 V r (GridSum.idx4096 ⟨j, hj⟩ q) * (xarr23 V (ix2 (GridSum.idx4096 ⟨j, hj⟩ q) d) : EReal) := by
  unfold blockTerm23
  exact dif_pos hj

/-- One step at point 8·i + j adds column block j's term to the entry of row 512·i + p. -/
theorem step23_apply (V : Valuation τ sig (Elt Ideal)) (c : Dev nD) (i : Fin 8) (j : ℕ) (hj : j < 8)
    (hn : 8 * (i : ℕ) + j < cfg23.N) (a : Vec Ideal S512x256 .f32) (p : Fin 512) (d : Fin 256) :
    (step23 V c (8 * (i : ℕ) + j) hn a (ix2 p d) : EReal) = (a (ix2 p d) : EReal) + blockTerm23 V (GridSum.idx4096 i p) d j := by
  have hi : (i : ℕ) < 8 := i.isLt
  have e := k23_pay2_apply (hi23 V c ⟨8 * (i : ℕ) + j, hn⟩) (hj23 V c ⟨8 * (i : ℕ) + j, hn⟩) (mb23 V c ⟨8 * (i : ℕ) + j, hn⟩)
    (xj23 V c ⟨8 * (i : ℕ) + j, hn⟩) a p d
  rw [blockTerm23_of_lt V _ d j hj]
  refine e.trans ?_
  congr 1
  refine Finset.sum_congr rfl fun q _ => ?_
  rw [mb23_apply V c ⟨8 * (i : ℕ) + j, hn⟩ (ix2 (0 : Fin 1) (0 : Fin 1)),
    xj23_apply V c ⟨8 * (i : ℕ) + j, hn⟩ (ix2 q d) (ix2 (GridSum.idx4096 ⟨j, hj⟩ q) d)
      (by show 512 * j + (q : ℕ) = 512 * ((8 * (i : ℕ) + j) % 8) + (q : ℕ); omega) rfl]
  congr 1
  unfold mask23 gram23
  have hs : (∑ k : Fin 256, (hi23 V c ⟨8 * (i : ℕ) + j, hn⟩ (ix2 p k) : EReal) * (hj23 V c ⟨8 * (i : ℕ) + j, hn⟩ (ix2 q k) : EReal))
      = ∑ k : Fin 256, (harr23 V (ix2 (GridSum.idx4096 i p) k) : EReal) * (harr23 V (ix2 (GridSum.idx4096 ⟨j, hj⟩ q) k) : EReal) :=
    Finset.sum_congr rfl fun k _ => by
      rw [hi23_apply V c ⟨8 * (i : ℕ) + j, hn⟩ (ix2 p k) (ix2 (GridSum.idx4096 i p) k)
          (by show 512 * (i : ℕ) + (p : ℕ) = 512 * ((8 * (i : ℕ) + j) / 8) + (p : ℕ); omega) rfl,
        hj23_apply V c ⟨8 * (i : ℕ) + j, hn⟩ (ix2 q k) (ix2 (GridSum.idx4096 ⟨j, hj⟩ q) k)
          (by show 512 * j + (q : ℕ) = 512 * ((8 * (i : ℕ) + j) % 8) + (q : ℕ); omega) rfl]
  rw [hs]

/-- The reset value at point 8·i + j is 1 times the entry of x at row 512·i + p. -/
theorem init23_apply (V : Valuation τ sig (Elt Ideal)) (c : Dev nD) (i : Fin 8) (j : ℕ) (hj : j < 8)
    (hn : 8 * (i : ℕ) + j < cfg23.N) (p : Fin 512) (d : Fin 256) :
    (init23 V c (8 * (i : ℕ) + j) hn (ix2 p d) : EReal) = 1 * (xarr23 V (ix2 (GridSum.idx4096 i p) d) : EReal) := by
  have hi : (i : ℕ) < 8 := i.isLt
  have e := k23_pay1_apply (xi23 V c ⟨8 * (i : ℕ) + j, hn⟩) p d
  refine e.trans ?_
  rw [xi23_apply V c ⟨8 * (i : ℕ) + j, hn⟩ (ix2 p d) (ix2 (GridSum.idx4096 i p) d)
    (by show 512 * (i : ℕ) + (p : ℕ) = 512 * ((8 * (i : ℕ) + j) / 8) + (p : ℕ); omega) rfl]

/-- After point 8·i + j the accumulator's entry of row r = 512·i + p holds 1·x r with the terms of the column blocks
    0 … j added one by one. -/
theorem acc23_apply (V : Valuation τ sig (Elt Ideal)) (c : Dev nD) (i : Fin 8) (p : Fin 512) (d : Fin 256) :
    ∀ (j : ℕ) (hj : j < 8) (hn : 8 * (i : ℕ) + j < cfg23.N),
      (acc23 V c (8 * (i : ℕ) + j) hn (ix2 p d) : EReal)
        = GridSum.accFold (1 * (xarr23 V (ix2 (GridSum.idx4096 i p) d) : EReal)) (blockTerm23 V (GridSum.idx4096 i p) d) (j + 1)
  | 0, hj, hn => by
    rw [acc23_row_zero V c (i : ℕ) hn, step23_apply V c i 0 hj hn _ p d, init23_apply V c i 0 hj hn p d,
      GridSum.accFold_succ, GridSum.accFold_zero]
  | j + 1, hj, hn => by
    rw [acc23_row_succ V c (i : ℕ) j hj hn, step23_apply V c i (j + 1) hj hn _ p d,
      acc23_apply V c i p d j (by omega) (by omega), GridSum.accFold_succ _ _ (j + 1)]

/-- THE AGGREGATION KERNEL'S VALUE at the last point of row block i: the entry of row r = 512·i + p and feature d is
    1·x r d plus the sum over all 4096 rows s of mask r s · x s d. -/
theorem acc23_last_apply (V : Valuation τ sig (Elt Ideal)) (c : Dev nD) (i : Fin 8) (p : Fin 512) (d : Fin 256)
    (hn : 8 * (i : ℕ) + 7 < cfg23.N) :
    (acc23 V c (8 * (i : ℕ) + 7) hn (ix2 p d) : EReal)
      = 1 * (xarr23 V (ix2 (GridSum.idx4096 i p) d) : EReal)
        + ∑ s : Fin 4096, mask23 V (GridSum.idx4096 i p) s * (xarr23 V (ix2 s d) : EReal) := by
  rw [acc23_apply V c i p d 7 (by omega) hn, GridSum.accFold_eq_sum,
    GridSum.sum_range_fin (blockTerm23 V (GridSum.idx4096 i p) d)
      (fun j : Fin 8 => ∑ q : Fin 512, mask23 V (GridSum.idx4096 i p) (GridSum.idx4096 j q) * (xarr23 V (ix2 (GridSum.idx4096 j q) d) : EReal))
      (fun j => blockTerm23_of_lt V _ d (j : ℕ) j.isLt),
    GridSum.sum_blocks GridSum.eight_mul (fun s : Fin 4096 => mask23 V (GridSum.idx4096 i p) s * (xarr23 V (ix2 s d) : EReal))]

/-! ## The output array after the run -/

section Array

variable {F : FTy → Type} [FloatOps F]
variable {Ix : Type} [DecidableEq Ix] {U : Type} [URA U] {Lvl : Type}

/-- The output window's block at point t is rows 512·(t / 8) … of the output array. -/
theorem oblk23_apply (c : Dev nD) (X : Buf (Elt F) ((cfg23.win 5).arr.view.loc (c.tc : Thread nD τ))) (t : Fin cfg23.N)
    (y : S512x256.Idx) (k : S4096x256.Idx) (hkr : (k 0).val = 512 * (t.val / 8) + (y 0).val) (hkc : (k 1).val = (y 1).val) :
    (((cfg23.win 5).blk t).view.read (Elt F) X : Vec F S512x256 .f32) y = (X : S4096x256.Idx → Elt F .f32) k := by
  obtain ⟨-, -, -, -, -, ⟨hA, hB⟩⟩ := idx_facts23 t
  rw [View.read_apply]
  have e : ((cfg23.win 5).blk t).view.emb y = k := by
    funext a
    apply Fin.ext
    match a with
    | ⟨0, _⟩ => show win23_5.index t 0 * 512 + 1 * (y 0).val = (k 0).val; rw [hA, hkr]; omega
    | ⟨1, _⟩ => show win23_5.index t 1 * 256 + 1 * (y 1).val = (k 1).val; rw [hB, hkc]; omega
  exact congrArg X e

/-- After the whole grid the output array's entry of row 512·i + p is what the accumulator held, at row p, after the
    last point of row block i. -/
theorem arrAt23_5_block (V : Valuation τ sig (Elt F)) (c : Dev nD) (i : Fin 8) (p : Fin 512) (d : Fin 256)
    (hn : 8 * (i : ℕ) + 7 < cfg23.N) :
    ((dat23 (Ix := Ix) (U := U) (Lvl := Lvl) V c).arrAt 5 64 : S4096x256.Idx → Elt F .f32) (ix2 (GridSum.idx4096 i p) d)
      = (acc23 V c (8 * (i : ℕ) + 7) hn : Vec F S512x256 .f32) (ix2 p d) := by
  have hi : (i : ℕ) < 8 := i.isLt
  refine (oblk23_apply c ((dat23 (Ix := Ix) (U := U) (Lvl := Lvl) V c).arrAt 5 64) ⟨8 * (i : ℕ) + 7, hn⟩ (ix2 p d)
    (ix2 (GridSum.idx4096 i p) d)
    (by show 512 * (i : ℕ) + (p : ℕ) = 512 * ((8 * (i : ℕ) + 7) / 8) + (p : ℕ); omega) rfl).symm.trans ?_
  exact congrFun (out23_block (Ix := Ix) (U := U) (Lvl := Lvl) V c ⟨8 * (i : ℕ) + 7, hn⟩
    (by show (8 * (i : ℕ) + 7) % 8 = 7; omega)) (ix2 p d)

/-- THE AGGREGATION KERNEL'S OUTPUT ARRAY at the ideal values: the entry of row r and feature d is 1·x r d plus the sum
    over all rows s of mask r s · x s d, the mask being 1 where the Gram matrix of the rows of h is above the threshold. -/
theorem arrAt23_5_value (V : Valuation τ sig (Elt Ideal)) (c : Dev nD) (r : Fin 4096) (d : Fin 256) :
    (((dat23 (Ix := Ix) (U := U) (Lvl := Lvl) V c).arrAt 5 64 : S4096x256.Idx → Elt Ideal .f32) (ix2 r d) : EReal)
      = 1 * (xarr23 V (ix2 r d) : EReal) + ∑ s : Fin 4096, mask23 V r s * (xarr23 V (ix2 s d) : EReal) := by
  have hN : cfg23.N = 64 := N_23
  obtain ⟨i, p, rfl⟩ := GridSum.exists_idx4096 r
  have hi : (i : ℕ) < 8 := i.isLt
  have hn : 8 * (i : ℕ) + 7 < cfg23.N := by omega
  exact (arrAt23_5_block (Ix := Ix) (U := U) (Lvl := Lvl) V c i p d hn).trans (acc23_last_apply V c i p d hn)

/-- The same with the diagonal folded into the mask: Σ_s (mask r s + δ r s) · x s d, the aggregate law of zeros and ones
    on the extended reals. -/
theorem arrAt23_5_agg (V : Valuation τ sig (Elt Ideal)) (c : Dev nD) (r : Fin 4096) (d : Fin 256) :
    (((dat23 (Ix := Ix) (U := U) (Lvl := Lvl) V c).arrAt 5 64 : S4096x256.Idx → Elt Ideal .f32) (ix2 r d) : EReal)
      = ∑ s : Fin 4096, (mask23 V r s + (if r = s then 1 else 0)) * (xarr23 V (ix2 s d) : EReal) :=
  (arrAt23_5_value (Ix := Ix) (U := U) (Lvl := Lvl) V c r d).trans
    (GridSum.aggregate_law_ite (mask23 V) (fun s => (xarr23 V (ix2 s d) : EReal)) (mask23_zero_or_one V) r)

/-- The same as an equation of arrays: the output array is the closed form aggVal of the threshold cell, h and x. -/
theorem region23_value (V : Valuation τ sig (Elt Ideal)) (c : Dev nD) :
    ((dat23 (Ix := Ix) (U := U) (Lvl := Lvl) V c).arrAt 5 64 : S4096x256.Idx → Elt Ideal .f32)
      = Cert.Hand.aggVal (marr23 V) (harr23 V) (xarr23 V) := by
  funext j
  obtain ⟨r, d, rfl⟩ : ∃ (r : Fin 4096) (d : Fin 256), j = ix2 r d := ⟨j 0, j 1, eq_ix2 j⟩
  exact arrAt23_5_value (Ix := Ix) (U := U) (Lvl := Lvl) V c r d

end Array

end Cert.KernelIdeal.Hand

end
-- ==== Proof.KRun.lean ====
/-
  The run with the three results: the regions' records (Plugs.lean) and the launch's arguments (LaunchArgs.lean) handed
  to the run that also reads the three result buffers off the last valuation (KValue.lean).
-/
import proofs.«169706_j68856915690108_1_alg».proof.Proof.Plugs
import proofs.«169706_j68856915690108_1_alg».proof.Proof.LaunchArgs
import proofs.«169706_j68856915690108_1_alg».proof.Proof.KValue
import proofs.«169706_j68856915690108_1_alg».proof.Proof.KClosed
import proofs.«169706_j68856915690108_1_alg».proof.Proof.AggVal
import proofs.«169706_j68856915690108_1_alg».proof.Proof.RgV0
import proofs.«169706_j68856915690108_1_alg».proof.Proof.RgV1
import proofs.«169706_j68856915690108_1_alg».proof.Proof.RgV2
import proofs.«169706_j68856915690108_1_alg».proof.Proof.RgV3
import proofs.«169706_j68856915690108_1_alg».proof.Proof.RgV4
import proofs.«169706_j68856915690108_1_alg».proof.Proof.RgV5
import proofs.«169706_j68856915690108_1_alg».proof.Proof.RgV6
import proofs.«169706_j68856915690108_1_alg».proof.Proof.RgV7
import proofs.«169706_j68856915690108_1_alg».proof.Proof.RgV8
import proofs.«169706_j68856915690108_1_alg».proof.Proof.RgV9
import proofs.«169706_j68856915690108_1_alg».proof.Proof.RgV10
import proofs.«169706_j68856915690108_1_alg».proof.Proof.RgV11
import proofs.«169706_j68856915690108_1_alg».proof.Proof.RgV12
import proofs.«169706_j68856915690108_1_alg».proof.Proof.RgV13
import proofs.«169706_j68856915690108_1_alg».proof.Proof.RgV14
import proofs.«169706_j68856915690108_1_alg».proof.Proof.RgV15
import proofs.«169706_j68856915690108_1_alg».proof.Proof.RgV16
import proofs.«169706_j68856915690108_1_alg».proof.Proof.RgV17
import proofs.«169706_j68856915690108_1_alg».proof.Proof.RgV18
import proofs.«169706_j68856915690108_1_alg».proof.Proof.RgV19
import proofs.«169706_j68856915690108_1_alg».proof.Proof.RgV20
import proofs.«169706_j68856915690108_1_alg».proof.Proof.RgV21
import proofs.«169706_j68856915690108_1_alg».proof.Proof.RgV22
import proofs.«169706_j68856915690108_1_alg».proof.Proof.RgV23

set_option maxRecDepth 7604

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Every weakly fair execution of @main from memory m with zero counters terminates; every final memory holds each argument as launched and the three results at the last valuation's contents over the regions' results outsK. -/
theorem run_pi (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_v843) = V133 m (outsK m) c main_v843
      ∧ r.2.mem ((c.tc : Thread nD τ).loc main_v847) = V133 m (outsK m) c main_v847
      ∧ r.2.mem ((c.tc : Thread nD τ).loc main_v851) = V133 m (outsK m) c main_v851) :=
  run_values m (EP₀ (F := F)) () 𝒱₀₀ L₀ lv₀ hL₀ ρ (outsK m) (pdatsK m) O₀ (G₀ (F := F)) u₀ (hu₀ (F := F)) (E₀ (F := F)) (hE0 (F := F) ρ) (hE24 (F := F))
    (RK0 m) (hpreK0 m) (hpostK0 m)
    (RK1 m) (hpreK1 m) (hpostK1 m)
    (RK2 m) (hpreK2 m) (hpostK2 m)
    (RK3 m) (hpreK3 m) (hpostK3 m)
    (RK4 m) (hpreK4 m) (hpostK4 m)
    (RK5 m) (hpreK5 m) (hpostK5 m)
    (RK6 m) (hpreK6 m) (hpostK6 m)
    (RK7 m) (hpreK7 m) (hpostK7 m)
    (RK8 m) (hpreK8 m) (hpostK8 m)
    (RK9 m) (hpreK9 m) (hpostK9 m)
    (RK10 m) (hpreK10 m) (hpostK10 m)
    (RK11 m) (hpreK11 m) (hpostK11 m)
    (RK12 m) (hpreK12 m) (hpostK12 m)
    (RK13 m) (hpreK13 m) (hpostK13 m)
    (RK14 m) (hpreK14 m) (hpostK14 m)
    (RK15 m) (hpreK15 m) (hpostK15 m)
    (RK16 m) (hpreK16 m) (hpostK16 m)
    (RK17 m) (hpreK17 m) (hpostK17 m)
    (RK18 m) (hpreK18 m) (hpostK18 m)
    (RK19 m) (hpreK19 m) (hpostK19 m)
    (RK20 m) (hpreK20 m) (hpostK20 m)
    (RK21 m) (hpreK21 m) (hpostK21 m)
    (RK22 m) (hpreK22 m) (hpostK22 m)
    (RK23 m) (hpreK23 m) (hpostK23 m)

/-! ## The three results in closed form, at the ideal values -/

section Closed

open Cert.Hand

variable (mI : (ℓ : Loc nD τ sig) → Buf (Elt Ideal) ℓ)

/-! What each region leaves, as the closed form of what it finds: the total of the Gram matrix (even regions), the thresholded aggregate (odd regions). -/

theorem regS0 (c : Dev nD) : (outsK mI 5 main_v19 c : T Ideal S11) = sumVal (V4 mI c main_v18 : T Ideal Sx) :=
  (outsOf_0 mI fK c).trans (region0_value (Ix := Unit) (U := UR sig nD τ) (Lvl := ℕ) (V4 mI c) c)

theorem regA1 (c : Dev nD) : (outsK mI 7 main_v22 c : T Ideal Sx) = aggVal (V6 mI (outsK mI) c main_v21 : T Ideal S11) (V6 mI (outsK mI) c main_v18 : T Ideal Sx) (V6 mI (outsK mI) c main_arg0 : T Ideal Sx) :=
  (outsOf_1 mI fK c).trans (region1_value (Ix := Unit) (U := UR sig nD τ) (Lvl := ℕ) (V6 mI (outsK mI) c) c)

theorem regS2 (c : Dev nD) : (outsK mI 16 main_v88 c : T Ideal S11) = sumVal (V15 mI (outsK mI) c main_v87 : T Ideal Sx) :=
  (outsOf_2 mI fK c).trans (region2_value (Ix := Unit) (U := UR sig nD τ) (Lvl := ℕ) (V15 mI (outsK mI) c) c)

theorem regA3 (c : Dev nD) : (outsK mI 18 main_v91 c : T Ideal Sx) = aggVal (V17 mI (outsK mI) c main_v90 : T Ideal S11) (V17 mI (outsK mI) c main_v87 : T Ideal Sx) (V17 mI (outsK mI) c main_v68 : T Ideal Sx) :=
  (outsOf_3 mI fK c).trans (region3_value (Ix := Unit) (U := UR sig nD τ) (Lvl := ℕ) (V17 mI (outsK mI) c) c)

theorem regS4 (c : Dev nD) : (outsK mI 27 main_v157 c : T Ideal S11) = sumVal (V26 mI (outsK mI) c main_v156 : T Ideal Sx) :=
  (outsOf_4 mI fK c).trans (region4_value (Ix := Unit) (U := UR sig nD τ) (Lvl := ℕ) (V26 mI (outsK mI) c) c)

theorem regA5 (c : Dev nD) : (outsK mI 29 main_v160 c : T Ideal Sx) = aggVal (V28 mI (outsK mI) c main_v159 : T Ideal S11) (V28 mI (outsK mI) c main_v156 : T Ideal Sx) (V28 mI (outsK mI) c main_v137 : T Ideal Sx) :=
  (outsOf_5 mI fK c).trans (region5_value (Ix := Unit) (U := UR sig nD τ) (Lvl := ℕ) (V28 mI (outsK mI) c) c)

theorem regS6 (c : Dev nD) : (outsK mI 38 main_v229 c : T Ideal S11) = sumVal (V37 mI (outsK mI) c main_v228 : T Ideal Sx) :=
  (outsOf_6 mI fK c).trans (region6_value (Ix := Unit) (U := UR sig nD τ) (Lvl := ℕ) (V37 mI (outsK mI) c) c)

theorem regA7 (c : Dev nD) : (outsK mI 40 main_v232 c : T Ideal Sx) = aggVal (V39 mI (outsK mI) c main_v231 : T Ideal S11) (V39 mI (outsK mI) c main_v228 : T Ideal Sx) (V39 mI (outsK mI) c main_arg1 : T Ideal Sx) :=
  (outsOf_7 mI fK c).trans (region7_value (Ix := Unit) (U := UR sig nD τ) (Lvl := ℕ) (V39 mI (outsK mI) c) c)

theorem regS8 (c : Dev nD) : (outsK mI 49 main_v298 c : T Ideal S11) = sumVal (V48 mI (outsK mI) c main_v297 : T Ideal Sx) :=
  (outsOf_8 mI fK c).trans (region8_value (Ix := Unit) (U := UR sig nD τ) (Lvl := ℕ) (V48 mI (outsK mI) c) c)

theorem regA9 (c : Dev nD) : (outsK mI 51 main_v301 c : T Ideal Sx) = aggVal (V50 mI (outsK mI) c main_v300 : T Ideal S11) (V50 mI (outsK mI) c main_v297 : T Ideal Sx) (V50 mI (outsK mI) c main_v278 : T Ideal Sx) :=
  (outsOf_9 mI fK c).trans (region9_value (Ix := Unit) (U := UR sig nD τ) (Lvl := ℕ) (V50 mI (outsK mI) c) c)

theorem regS10 (c : Dev nD) : (outsK mI 60 main_v367 c : T Ideal S11) = sumVal (V59 mI (outsK mI) c main_v366 : T Ideal Sx) :=
  (outsOf_10 mI fK c).trans (region10_value (Ix := Unit) (U := UR sig nD τ) (Lvl := ℕ) (V59 mI (outsK mI) c) c)

theorem regA11 (c : Dev nD) : (outsK mI 62 main_v370 c : T Ideal Sx) = aggVal (V61 mI (outsK mI) c main_v369 : T Ideal S11) (V61 mI (outsK mI) c main_v366 : T Ideal Sx) (V61 mI (outsK mI) c main_v347 : T Ideal Sx) :=
  (outsOf_11 mI fK c).trans (region11_value (Ix := Unit) (U := UR sig nD τ) (Lvl := ℕ) (V61 mI (outsK mI) c) c)

theorem regS12 (c : Dev nD) : (outsK mI 71 main_v439 c : T Ideal S11) = sumVal (V70 mI (outsK mI) c main_v438 : T Ideal Sx) :=
  (outsOf_12 mI fK c).trans (region12_value (Ix := Unit) (U := UR sig nD τ) (Lvl := ℕ) (V70 mI (outsK mI) c) c)

theorem regA13 (c : Dev nD) : (outsK mI 73 main_v442 c : T Ideal Sx) = aggVal (V72 mI (outsK mI) c main_v441 : T Ideal S11) (V72 mI (outsK mI) c main_v438 : T Ideal Sx) (V72 mI (outsK mI) c main_arg2 : T Ideal Sx) :=
  (outsOf_13 mI fK c).trans (region13_value (Ix := Unit) (U := UR sig nD τ) (Lvl := ℕ) (V72 mI (outsK mI) c) c)

theorem regS14 (c : Dev nD) : (outsK mI 82 main_v508 c : T Ideal S11) = sumVal (V81 mI (outsK mI) c main_v507 : T Ideal Sx) :=
  (outsOf_14 mI fK c).trans (region14_value (Ix := Unit) (U := UR sig nD τ) (Lvl := ℕ) (V81 mI (outsK mI) c) c)

theorem regA15 (c : Dev nD) : (outsK mI 84 main_v511 c : T Ideal Sx) = aggVal (V83 mI (outsK mI) c main_v510 : T Ideal S11) (V83 mI (outsK mI) c main_v507 : T Ideal Sx) (V83 mI (outsK mI) c main_v488 : T Ideal Sx) :=
  (outsOf_15 mI fK c).trans (region15_value (Ix := Unit) (U := UR sig nD τ) (Lvl := ℕ) (V83 mI (outsK mI) c) c)

theorem regS16 (c : Dev nD) : (outsK mI 93 main_v577 c : T Ideal S11) = sumVal (V92 mI (outsK mI) c main_v576 : T Ideal Sx) :=
  (outsOf_16 mI fK c).trans (region16_value (Ix := Unit) (U := UR sig nD τ) (Lvl := ℕ) (V92 mI (outsK mI) c) c)

theorem regA17 (c : Dev nD) : (outsK mI 95 main_v580 c : T Ideal Sx) = aggVal (V94 mI (outsK mI) c main_v579 : T Ideal S11) (V94 mI (outsK mI) c main_v576 : T Ideal Sx) (V94 mI (outsK mI) c main_v557 : T Ideal Sx) :=
  (outsOf_17 mI fK c).trans (region17_value (Ix := Unit) (U := UR sig nD τ) (Lvl := ℕ) (V94 mI (outsK mI) c) c)

theorem regS18 (c : Dev nD) : (outsK mI 104 main_v649 c : T Ideal S11) = sumVal (V103 mI (outsK mI) c main_v648 : T Ideal Sx) :=
  (outsOf_18 mI fK c).trans (region18_value (Ix := Unit) (U := UR sig nD τ) (Lvl := ℕ) (V103 mI (outsK mI) c) c)

theorem regA19 (c : Dev nD) : (outsK mI 106 main_v652 c : T Ideal Sx) = aggVal (V105 mI (outsK mI) c main_v651 : T Ideal S11) (V105 mI (outsK mI) c main_v648 : T Ideal Sx) (V105 mI (outsK mI) c main_arg3 : T Ideal Sx) :=
  (outsOf_19 mI fK c).trans (region19_value (Ix := Unit) (U := UR sig nD τ) (Lvl := ℕ) (V105 mI (outsK mI) c) c)

theorem regS20 (c : Dev nD) : (outsK mI 115 main_v718 c : T Ideal S11) = sumVal (V114 mI (outsK mI) c main_v717 : T Ideal Sx) :=
  (outsOf_20 mI fK c).trans (region20_value (Ix := Unit) (U := UR sig nD τ) (Lvl := ℕ) (V114 mI (outsK mI) c) c)

theorem regA21 (c : Dev nD) : (outsK mI 117 main_v721 c : T Ideal Sx) = aggVal (V116 mI (outsK mI) c main_v720 : T Ideal S11) (V116 mI (outsK mI) c main_v717 : T Ideal Sx) (V116 mI (outsK mI) c main_v698 : T Ideal Sx) :=
  (outsOf_21 mI fK c).trans (region21_value (Ix := Unit) (U := UR sig nD τ) (Lvl := ℕ) (V116 mI (outsK mI) c) c)

theorem regS22 (c : Dev nD) : (outsK mI 126 main_v787 c : T Ideal S11) = sumVal (V125 mI (outsK mI) c main_v786 : T Ideal Sx) :=
  (outsOf_22 mI fK c).trans (region22_value (Ix := Unit) (U := UR sig nD τ) (Lvl := ℕ) (V125 mI (outsK mI) c) c)

theorem regA23 (c : Dev nD) : (outsK mI 128 main_v790 c : T Ideal Sx) = aggVal (V127 mI (outsK mI) c main_v789 : T Ideal S11) (V127 mI (outsK mI) c main_v786 : T Ideal Sx) (V127 mI (outsK mI) c main_v767 : T Ideal Sx) :=
  (outsOf_23 mI fK c).trans (region23_value (Ix := Unit) (U := UR sig nD τ) (Lvl := ℕ) (V127 mI (outsK mI) c) c)

/-- The three results as the network's functions of the arguments as launched. -/
theorem kvalues_pi (c : Dev nD) :
    (V133 mI (outsK mI) c main_v843 : T Ideal S0) = mse (ginG sumVal aggVal (mI ((c : Thread nD τ).loc main_arg0) : T Ideal Sx) (mI ((c : Thread nD τ).loc main_arg4) : T Ideal Sw2) (mI ((c : Thread nD τ).loc main_arg5) : T Ideal Sb2) (mI ((c : Thread nD τ).loc main_arg6) : T Ideal Sw32) (mI ((c : Thread nD τ).loc main_arg7) : T Ideal Sb32) (mI ((c : Thread nD τ).loc main_arg8) : T Ideal Sb32)) (ginG sumVal aggVal (mI ((c : Thread nD τ).loc main_arg3) : T Ideal Sx) (mI ((c : Thread nD τ).loc main_arg9) : T Ideal Sw2) (mI ((c : Thread nD τ).loc main_arg10) : T Ideal Sb2) (mI ((c : Thread nD τ).loc main_arg11) : T Ideal Sw32) (mI ((c : Thread nD τ).loc main_arg12) : T Ideal Sb32) (mI ((c : Thread nD τ).loc main_arg13) : T Ideal Sb32))
    ∧ (V133 mI (outsK mI) c main_v847 : T Ideal S0) = mse (ginG sumVal aggVal (mI ((c : Thread nD τ).loc main_arg1) : T Ideal Sx) (mI ((c : Thread nD τ).loc main_arg9) : T Ideal Sw2) (mI ((c : Thread nD τ).loc main_arg10) : T Ideal Sb2) (mI ((c : Thread nD τ).loc main_arg11) : T Ideal Sw32) (mI ((c : Thread nD τ).loc main_arg12) : T Ideal Sb32) (mI ((c : Thread nD τ).loc main_arg13) : T Ideal Sb32)) (ginG sumVal aggVal (mI ((c : Thread nD τ).loc main_arg3) : T Ideal Sx) (mI ((c : Thread nD τ).loc main_arg9) : T Ideal Sw2) (mI ((c : Thread nD τ).loc main_arg10) : T Ideal Sb2) (mI ((c : Thread nD τ).loc main_arg11) : T Ideal Sw32) (mI ((c : Thread nD τ).loc main_arg12) : T Ideal Sb32) (mI ((c : Thread nD τ).loc main_arg13) : T Ideal Sb32))
    ∧ (V133 mI (outsK mI) c main_v851 : T Ideal S0) = mse (ginG sumVal aggVal (mI ((c : Thread nD τ).loc main_arg2) : T Ideal Sx) (mI ((c : Thread nD τ).loc main_arg14) : T Ideal Sw2) (mI ((c : Thread nD τ).loc main_arg15) : T Ideal Sb2) (mI ((c : Thread nD τ).loc main_arg16) : T Ideal Sw32) (mI ((c : Thread nD τ).loc main_arg17) : T Ideal Sb32) (mI ((c : Thread nD τ).loc main_arg18) : T Ideal Sb32)) (ginG sumVal aggVal (mI ((c : Thread nD τ).loc main_arg3) : T Ideal Sx) (mI ((c : Thread nD τ).loc main_arg9) : T Ideal Sw2) (mI ((c : Thread nD τ).loc main_arg10) : T Ideal Sb2) (mI ((c : Thread nD τ).loc main_arg11) : T Ideal Sw32) (mI ((c : Thread nD τ).loc main_arg12) : T Ideal Sb32) (mI ((c : Thread nD τ).loc main_arg13) : T Ideal Sb32)) :=
  kvalues mI (outsK mI) c sumVal aggVal (regS0 mI c) (regA1 mI c) (regS2 mI c) (regA3 mI c) (regS4 mI c) (regA5 mI c) (regS6 mI c) (regA7 mI c) (regS8 mI c) (regA9 mI c) (regS10 mI c) (regA11 mI c) (regS12 mI c) (regA13 mI c) (regS14 mI c) (regA15 mI c) (regS16 mI c) (regA17 mI c) (regS18 mI c) (regA19 mI c) (regS20 mI c) (regA21 mI c) (regS22 mI c) (regA23 mI c)

/-- THE KERNEL'S RUN WITH ITS RESULTS IN CLOSED FORM: every weakly fair execution of @main at the ideal values terminates, and every final memory holds the three results at the network's functions of the arguments as launched and each argument as launched. -/
theorem krun (g : Dev nD → PrngReg) :
    θ_run (defs (F := Ideal)) (onTc (τ := τ) (main (F := Ideal))) ⟨mI, fun _ => 0, g⟩ (fun r => ∀ c : Dev nD,
      r.2.mem ((c.tc : Thread nD τ).loc main_v843) = mse (ginG sumVal aggVal (mI ((c : Thread nD τ).loc main_arg0) : T Ideal Sx) (mI ((c : Thread nD τ).loc main_arg4) : T Ideal Sw2) (mI ((c : Thread nD τ).loc main_arg5) : T Ideal Sb2) (mI ((c : Thread nD τ).loc main_arg6) : T Ideal Sw32) (mI ((c : Thread nD τ).loc main_arg7) : T Ideal Sb32) (mI ((c : Thread nD τ).loc main_arg8) : T Ideal Sb32)) (ginG sumVal aggVal (mI ((c : Thread nD τ).loc main_arg3) : T Ideal Sx) (mI ((c : Thread nD τ).loc main_arg9) : T Ideal Sw2) (mI ((c : Thread nD τ).loc main_arg10) : T Ideal Sb2) (mI ((c : Thread nD τ).loc main_arg11) : T Ideal Sw32) (mI ((c : Thread nD τ).loc main_arg12) : T Ideal Sb32) (mI ((c : Thread nD τ).loc main_arg13) : T Ideal Sb32))
      ∧ r.2.mem ((c.tc : Thread nD τ).loc main_v847) = mse (ginG sumVal aggVal (mI ((c : Thread nD τ).loc main_arg1) : T Ideal Sx) (mI ((c : Thread nD τ).loc main_arg9) : T Ideal Sw2) (mI ((c : Thread nD τ).loc main_arg10) : T Ideal Sb2) (mI ((c : Thread nD τ).loc main_arg11) : T Ideal Sw32) (mI ((c : Thread nD τ).loc main_arg12) : T Ideal Sb32) (mI ((c : Thread nD τ).loc main_arg13) : T Ideal Sb32)) (ginG sumVal aggVal (mI ((c : Thread nD τ).loc main_arg3) : T Ideal Sx) (mI ((c : Thread nD τ).loc main_arg9) : T Ideal Sw2) (mI ((c : Thread nD τ).loc main_arg10) : T Ideal Sb2) (mI ((c : Thread nD τ).loc main_arg11) : T Ideal Sw32) (mI ((c : Thread nD τ).loc main_arg12) : T Ideal Sb32) (mI ((c : Thread nD τ).loc main_arg13) : T Ideal Sb32))
      ∧ r.2.mem ((c.tc : Thread nD τ).loc main_v851) = mse (ginG sumVal aggVal (mI ((c : Thread nD τ).loc main_arg2) : T Ideal Sx) (mI ((c : Thread nD τ).loc main_arg14) : T Ideal Sw2) (mI ((c : Thread nD τ).loc main_arg15) : T Ideal Sb2) (mI ((c : Thread nD τ).loc main_arg16) : T Ideal Sw32) (mI ((c : Thread nD τ).loc main_arg17) : T Ideal Sb32) (mI ((c : Thread nD τ).loc main_arg18) : T Ideal Sb32)) (ginG sumVal aggVal (mI ((c : Thread nD τ).loc main_arg3) : T Ideal Sx) (mI ((c : Thread nD τ).loc main_arg9) : T Ideal Sw2) (mI ((c : Thread nD τ).loc main_arg10) : T Ideal Sb2) (mI ((c : Thread nD τ).loc main_arg11) : T Ideal Sw32) (mI ((c : Thread nD τ).loc main_arg12) : T Ideal Sb32) (mI ((c : Thread nD τ).loc main_arg13) : T Ideal Sb32))
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)
      ∧ r.2.mem ((c.tc : Thread nD τ).loc main_arg4) = mI ((c.tc : Thread nD τ).loc main_arg4)
      ∧ r.2.mem ((c.tc : Thread nD τ).loc main_arg5) = mI ((c.tc : Thread nD τ).loc main_arg5)
      ∧ r.2.mem ((c.tc : Thread nD τ).loc main_arg6) = mI ((c.tc : Thread nD τ).loc main_arg6)
      ∧ r.2.mem ((c.tc : Thread nD τ).loc main_arg7) = mI ((c.tc : Thread nD τ).loc main_arg7)
      ∧ r.2.mem ((c.tc : Thread nD τ).loc main_arg8) = mI ((c.tc : Thread nD τ).loc main_arg8)
      ∧ r.2.mem ((c.tc : Thread nD τ).loc main_arg9) = mI ((c.tc : Thread nD τ).loc main_arg9)
      ∧ r.2.mem ((c.tc : Thread nD τ).loc main_arg10) = mI ((c.tc : Thread nD τ).loc main_arg10)
      ∧ r.2.mem ((c.tc : Thread nD τ).loc main_arg11) = mI ((c.tc : Thread nD τ).loc main_arg11)
      ∧ r.2.mem ((c.tc : Thread nD τ).loc main_arg12) = mI ((c.tc : Thread nD τ).loc main_arg12)
      ∧ r.2.mem ((c.tc : Thread nD τ).loc main_arg13) = mI ((c.tc : Thread nD τ).loc main_arg13)
      ∧ r.2.mem ((c.tc : Thread nD τ).loc main_arg14) = mI ((c.tc : Thread nD τ).loc main_arg14)
      ∧ r.2.mem ((c.tc : Thread nD τ).loc main_arg15) = mI ((c.tc : Thread nD τ).loc main_arg15)
      ∧ r.2.mem ((c.tc : Thread nD τ).loc main_arg16) = mI ((c.tc : Thread nD τ).loc main_arg16)
      ∧ r.2.mem ((c.tc : Thread nD τ).loc main_arg17) = mI ((c.tc : Thread nD τ).loc main_arg17)
      ∧ r.2.mem ((c.tc : Thread nD τ).loc main_arg18) = mI ((c.tc : Thread nD τ).loc main_arg18)) :=
  (θ_run _ _ _).mono (fun r h c => by
    obtain ⟨a0, a1, a2, a3, a4, a5, a6, a7, a8, a9, a10, a11, a12, a13, a14, a15, a16, a17, a18, v0, v1, v2⟩ := h c
    obtain ⟨k0, k1, k2⟩ := kvalues_pi mI c
    exact ⟨v0.trans k0, v1.trans k1, v2.trans k2, a0, a1, a2, a3, a4, a5, a6, a7, a8, a9, a10, a11, a12, a13, a14, a15, a16, a17, a18⟩) (run_pi mI g)

end Closed

end Cert.KernelIdeal.Hand

end
-- ==== Proof.RefLib.lean ====
/-
  The reference program's run, shared lemmas: a straight line of host operations each of which writes one
  TensorCore buffer whose index lies in a known range leaves every buffer outside that range as it was.
-/
import Idealize.ShloMosaic.Lib.StableHlo.Run
import Idealize.ShloMosaic.Lib.Pipeline.Frame

noncomputable section

namespace Cert.ReferenceIdeal.Hand

open Idealize.ShloMosaic Idealize.ShloMosaic.TcCoe Idealize.SL.Sem Idealize.ShloMosaic.StableHlo

variable {τ : Topo} {sig : RefSig} {Val : EltTy → Type}

/-- Every buffer the operation writes is a TensorCore reference whose index lies in [lo, hi). -/
def WritesIn (lo hi : Nat) (op : HloOp τ sig Val) : Prop :=
  ∀ b ∈ op.writes, ∃ r : Ref sig .tc, b = Proc.devRef .tc r ∧ lo ≤ r.idx.val ∧ r.idx.val < hi

/-- An operation whose one written buffer is the reference y, of index in the range. -/
theorem writesIn_single {lo hi : Nat} (y : Ref sig .tc) (op : HloOp τ sig Val)
    (h : op.writes = {Proc.devRef .tc y}) (hlo : lo ≤ y.idx.val) (hhi : y.idx.val < hi) : WritesIn lo hi op := by
  intro b hb
  rw [h, Finset.mem_singleton] at hb
  exact ⟨y, hb, hlo, hhi⟩

theorem WritesIn.mono {lo hi lo' hi' : Nat} {op : HloOp τ sig Val} (h : WritesIn lo hi op) (h1 : lo' ≤ lo) (h2 : hi ≤ hi') :
    WritesIn lo' hi' op := fun b hb => by
  obtain ⟨r, e, a, c⟩ := h b hb
  exact ⟨r, e, le_trans h1 a, lt_of_lt_of_le c h2⟩

/-- A buffer whose index is outside the range the line writes keeps its contents. -/
theorem after_keep {lo hi : Nat} (ops : List (HloOp τ sig Val)) (V : Valuation τ sig Val)
    (h : ops.Forall (WritesIn lo hi)) (r : Ref sig .tc) (hr : r.idx.val < lo ∨ hi ≤ r.idx.val) :
    after ops V (Proc.devRef .tc r) = V (Proc.devRef .tc r) :=
  after_of_forall_not_mem ops V fun op hop hb => by
    obtain ⟨r', e, h1, h2⟩ := (List.forall_iff_forall_mem.mp h) op hop _ hb
    have := Proc.devRef_injective _ e
    subst this
    omega

theorem forall_append {α : Type _} {p : α → Prop} {l₁ l₂ : List α} (h₁ : l₁.Forall p) (h₂ : l₂.Forall p) :
    (l₁ ++ l₂).Forall p :=
  List.forall_iff_forall_mem.mpr fun x hx => by
    rcases List.mem_append.mp hx with h | h
    · exact List.forall_iff_forall_mem.mp h₁ x h
    · exact List.forall_iff_forall_mem.mp h₂ x h

theorem forall_mono {α : Type _} {p q : α → Prop} {l : List α} (h : l.Forall p) (hpq : ∀ x, p x → q x) : l.Forall q :=
  List.forall_iff_forall_mem.mpr fun x hx => hpq x (List.forall_iff_forall_mem.mp h x hx)

end Cert.ReferenceIdeal.Hand

end
-- ==== Proof.RefRunW00.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 88 of 1674 (window main_part0): they write the buffers 19 … 106 in order. -/
noncomputable abbrev opsW0 : List (HloOp τ sig (Elt F)) :=
  [ nullary main_v0 (iotaInDim S4096x4096 32 0),
    nullary main_v1 (iotaInDim S4096x4096 32 1),
    nullary main_c (constantI S_ 32 0#32),
    unary main_c main_v2 (broadcastInDim S4096x4096 ![] bcast_S_S4096x4096 : (⟨S_, .i32⟩ : BufTy).Contents (Elt F) → (⟨S4096x4096, .i32⟩ : BufTy).Contents (Elt F)),
    binary main_v0 main_v2 main_v3 (addi : (⟨S4096x4096, .i32⟩ : BufTy).Contents (Elt F) → (⟨S4096x4096, .i32⟩ : BufTy).Contents (Elt F) → (⟨S4096x4096, .i32⟩ : BufTy).Contents (Elt F)),
    binary main_v3 main_v1 main_v4 (cmpi .eq : (⟨S4096x4096, .i32⟩ : BufTy).Contents (Elt F) → (⟨S4096x4096, .i32⟩ : BufTy).Contents (Elt F) → (⟨S4096x4096, .i1⟩ : BufTy).Contents (Elt F)),
    unary main_v4 main_v5 (uitofp .f32 : (⟨S4096x4096, .i1⟩ : BufTy).Contents (Elt F) → (⟨S4096x4096, .f32⟩ : BufTy).Contents (Elt F)),
    nullary main_cst (constant S_ .f32 0x00000000#32),
    unary main_cst main_v6 (broadcastInDim S4096x256 ![] bcast_S_S4096x256 : (⟨S_, .f32⟩ : BufTy).Contents (Elt F) → (⟨S4096x256, .f32⟩ : BufTy).Contents (Elt F)),
    unary main_arg4 main_v7 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v7 main_v8 rfl shapeCasts_S1x256x256_S256x256,
    binary main_arg0 main_v8 main_v9 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg5 main_v10 ((extractStridedSlice S1x256 ![0, 0] · slices_S2x256_S1x256_0_0) : (⟨S2x256, .f32⟩ : BufTy).Contents (Elt F) → (⟨S1x256, .f32⟩ : BufTy).Contents (Elt F)),
    reshape main_v10 main_v11 rfl shapeCasts_S1x256_S256,
    unary main_v11 main_v12 (broadcastInDim S1x256 ![1] bcast_S256_S1x256_1 : (⟨S256, .f32⟩ : BufTy).Contents (Elt F) → (⟨S1x256, .f32⟩ : BufTy).Contents (Elt F)),
    unary main_v12 main_v13 (broadcastInDim S4096x256 ![0, 1] bcast_S1x256_S4096x256_0_1 : (⟨S1x256, .f32⟩ : BufTy).Contents (Elt F) → (⟨S4096x256, .f32⟩ : BufTy).Contents (Elt F)),
    binary main_v9 main_v13 main_v14 (addf : (⟨S4096x256, .f32⟩ : BufTy).Contents (Elt F) → (⟨S4096x256, .f32⟩ : BufTy).Contents (Elt F) → (⟨S4096x256, .f32⟩ : BufTy).Contents (Elt F)),
    TRef.nullary main_call0.cst (constant S_ .f32 0x00000000#32),
    TRef.unary main_call0.cst main_call0.v0 (broadcastInDim S4096x256 ![] bcast_S_S4096x256),
    TRef.binary (.of main_v14 : TRef sig ⟨S4096x256, .f32⟩) main_call0.v0 main_call0.v1 (cmpf .ogt),
    TRef.nullary main_call0.cst_0 (constant S_ .f32 0x00000000#32),
    TRef.unary main_call0.cst_0 main_call0.v2 (broadcastInDim S4096x256 ![] bcast_S_S4096x256),
    TRef.binary (.of main_v14 : TRef sig ⟨S4096x256, .f32⟩) main_call0.v2 main_call0.v3 (cmpf .ogt),
    TRef.nullary main_call0.cst_1 (constant S_ .f32 0x00000000#32),
    TRef.unary main_call0.cst_1 main_call0_call0.v0 id,
    TRef.unary main_call0_call0.v0 main_call0_call0.v1 (broadcastInDim S4096x256 ![] bcast_S_S4096x256),
    TRef.ternary main_call0.v3 main_call0_call0.v1 (.of main_v14 : TRef sig ⟨S4096x256, .f32⟩) main_call0_call0.v2 select,
    TRef.unary main_call0.call0.v2 main_call0.v5 Host.expm1,
    TRef.nullary main_call0.cst_2 (constant S_ .f32 0x3F800000#32),
    TRef.unary main_call0.cst_2 main_call0.v6 (broadcastInDim S4096x256 ![] bcast_S_S4096x256),
    TRef.binary main_call0.v6 main_call0.v5 main_call0.v7 mulf,
    TRef.ternary main_call0.v1 (.of main_v14 : TRef sig ⟨S4096x256, .f32⟩) main_call0.v7 main_call0_call1.v0 select,
    unary main_arg4 main_v16 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v16 main_v17 rfl shapeCasts_S1x256x256_S256x256,
    binary main_v15 main_v17 main_v18 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg5 main_v19 ((extractStridedSlice S1x256 ![1, 0] · slices_S2x256_S1x256_1_0) : (⟨S2x256, .f32⟩ : BufTy).Contents (Elt F) → (⟨S1x256, .f32⟩ : BufTy).Contents (Elt F)),
    reshape main_v19 main_v20 rfl shapeCasts_S1x256_S256,
    unary main_v20 main_v21 (broadcastInDim S1x256 ![1] bcast_S256_S1x256_1 : (⟨S256, .f32⟩ : BufTy).Contents (Elt F) → (⟨S1x256, .f32⟩ : BufTy).Contents (Elt F)),
    unary main_v21 main_v22 (broadcastInDim S4096x256 ![0, 1] bcast_S1x256_S4096x256_0_1 : (⟨S1x256, .f32⟩ : BufTy).Contents (Elt F) → (⟨S4096x256, .f32⟩ : BufTy).Contents (Elt F)),
    binary main_v18 main_v22 main_v23 (addf : (⟨S4096x256, .f32⟩ : BufTy).Contents (Elt F) → (⟨S4096x256, .f32⟩ : BufTy).Contents (Elt F) → (⟨S4096x256, .f32⟩ : BufTy).Contents (Elt F)),
    TRef.nullary main_call1.cst (constant S_ .f32 0x00000000#32),
    TRef.unary main_call1.cst main_call1.v0 (broadcastInDim S4096x256 ![] bcast_S_S4096x256),
    TRef.binary (.of main_v23 : TRef sig ⟨S4096x256, .f32⟩) main_call1.v0 main_call1.v1 (cmpf .ogt),
    TRef.nullary main_call1.cst_0 (constant S_ .f32 0x00000000#32),
    TRef.unary main_call1.cst_0 main_call1.v2 (broadcastInDim S4096x256 ![] bcast_S_S4096x256),
    TRef.binary (.of main_v23 : TRef sig ⟨S4096x256, .f32⟩) main_call1.v2 main_call1.v3 (cmpf .ogt),
    TRef.nullary main_call1.cst_1 (constant S_ .f32 0x00000000#32),
    TRef.unary main_call1.cst_1 main_call1_call0.v0 id,
    TRef.unary main_call1_call0.v0 main_call1_call0.v1 (broadcastInDim S4096x256 ![] bcast_S_S4096x256),
    TRef.ternary main_call1.v3 main_call1_call0.v1 (.of main_v23 : TRef sig ⟨S4096x256, .f32⟩) main_call1_call0.v2 select,
    TRef.unary main_call1.call0.v2 main_call1.v5 Host.expm1,
    TRef.nullary main_call1.cst_2 (constant S_ .f32 0x3F800000#32),
    TRef.unary main_call1.cst_2 main_call1.v6 (broadcastInDim S4096x256 ![] bcast_S_S4096x256),
    TRef.binary main_call1.v6 main_call1.v5 main_call1.v7 mulf,
    TRef.ternary main_call1.v1 (.of main_v23 : TRef sig ⟨S4096x256, .f32⟩) main_call1.v7 main_call1_call1.v0 select,
    unary main_v24 main_v25 ((transpose S256x4096 [1, 0] · transposes_S4096x256_S256x4096_1_0) : (⟨S4096x256, .f32⟩ : BufTy).Contents (Elt F) → (⟨S256x4096, .f32⟩ : BufTy).Contents (Elt F)),
    binary main_v24 main_v25 main_v26 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_0 (constant S_ .f32 0x00000000#32),
    binary main_v26 main_cst_0 main_v27 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_1 (constant S_ .f32 0x4B800000#32),
    binary main_v27 main_cst_1 main_v28 (Host.divf : (⟨S_, .f32⟩ : BufTy).Contents (Elt F) → (⟨S_, .f32⟩ : BufTy).Contents (Elt F) → (⟨S_, .f32⟩ : BufTy).Contents (Elt F)),
    unary main_v28 main_v29 (broadcastInDim S4096x4096 ![] bcast_S_S4096x4096 : (⟨S_, .f32⟩ : BufTy).Contents (Elt F) → (⟨S4096x4096, .f32⟩ : BufTy).Contents (Elt F)),
    binary main_v26 main_v29 main_v30 (cmpf .ogt : (⟨S4096x4096, .f32⟩ : BufTy).Contents (Elt F) → (⟨S4096x4096, .f32⟩ : BufTy).Contents (Elt F) → (⟨S4096x4096, .i1⟩ : BufTy).Contents (Elt F)),
    unary main_v30 main_v31 (uitofp .f32 : (⟨S4096x4096, .i1⟩ : BufTy).Contents (Elt F) → (⟨S4096x4096, .f32⟩ : BufTy).Contents (Elt F)),
    nullary main_cst_2 (constant S_ .f32 0x3F800000#32),
    unary main_cst_2 main_v32 (broadcastInDim S4096x4096 ![] bcast_S_S4096x4096 : (⟨S_, .f32⟩ : BufTy).Contents (Elt F) → (⟨S4096x4096, .f32⟩ : BufTy).Contents (Elt F)),
    binary main_v32 main_v5 main_v33 (mulf : (⟨S4096x4096, .f32⟩ : BufTy).Contents (Elt F) → (⟨S4096x4096, .f32⟩ : BufTy).Contents (Elt F) → (⟨S4096x4096, .f32⟩ : BufTy).Contents (Elt F)),
    binary main_v31 main_v33 main_v34 (addf : (⟨S4096x4096, .f32⟩ : BufTy).Contents (Elt F) → (⟨S4096x4096, .f32⟩ : BufTy).Contents (Elt F) → (⟨S4096x4096, .f32⟩ : BufTy).Contents (Elt F)),
    binary main_v34 main_arg0 main_v35 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg6 main_v36 ((extractStridedSlice S1x2x256x256 ![0, 0, 0, 0] · slices_S3x2x256x256_S1x2x256x256_0_0_0_0) : (⟨S3x2x256x256, .f32⟩ : BufTy).Contents (Elt F) → (⟨S1x2x256x256, .f32⟩ : BufTy).Contents (Elt F)),
    reshape main_v36 main_v37 rfl shapeCasts_S1x2x256x256_S2x256x256,
    unary main_arg7 main_v38 ((extractStridedSlice S1x2x256 ![0, 0, 0] · slices_S3x2x256_S1x2x256_0_0_0) : (⟨S3x2x256, .f32⟩ : BufTy).Contents (Elt F) → (⟨S1x2x256, .f32⟩ : BufTy).Contents (Elt F)),
    reshape main_v38 main_v39 rfl shapeCasts_S1x2x256_S2x256,
    unary main_arg8 main_v40 ((extractStridedSlice S1x2x256 ![0, 0, 0] · slices_S3x2x256_S1x2x256_0_0_0) : (⟨S3x2x256, .f32⟩ : BufTy).Contents (Elt F) → (⟨S1x2x256, .f32⟩ : BufTy).Contents (Elt F)),
    reshape main_v40 main_v41 rfl shapeCasts_S1x2x256_S2x256,
    unary main_v37 main_v42 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v42 main_v43 rfl shapeCasts_S1x256x256_S256x256,
    binary main_v35 main_v43 main_v44 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v39 main_v45 ((extractStridedSlice S1x256 ![0, 0] · slices_S2x256_S1x256_0_0) : (⟨S2x256, .f32⟩ : BufTy).Contents (Elt F) → (⟨S1x256, .f32⟩ : BufTy).Contents (Elt F)),
    reshape main_v45 main_v46 rfl shapeCasts_S1x256_S256,
    unary main_v46 main_v47 (broadcastInDim S1x256 ![1] bcast_S256_S1x256_1 : (⟨S256, .f32⟩ : BufTy).Contents (Elt F) → (⟨S1x256, .f32⟩ : BufTy).Contents (Elt F)),
    unary main_v47 main_v48 (broadcastInDim S4096x256 ![0, 1] bcast_S1x256_S4096x256_0_1 : (⟨S1x256, .f32⟩ : BufTy).Contents (Elt F) → (⟨S4096x256, .f32⟩ : BufTy).Contents (Elt F)),
    binary main_v44 main_v48 main_v49 (addf : (⟨S4096x256, .f32⟩ : BufTy).Contents (Elt F) → (⟨S4096x256, .f32⟩ : BufTy).Contents (Elt F) → (⟨S4096x256, .f32⟩ : BufTy).Contents (Elt F)),
    nullary main_cst_3 (constant S_ .f32 0x00000000#32),
    binary main_v49 main_cst_3 main_v50 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_4 (constant S_ .f32 0x45800000#32),
    unary main_cst_4 main_v51 (broadcastInDim S256 ![] bcast_S_S256 : (⟨S_, .f32⟩ : BufTy).Contents (Elt F) → (⟨S256, .f32⟩ : BufTy).Contents (Elt F)),
    binary main_v50 main_v51 main_v52 (Host.divf : (⟨S256, .f32⟩ : BufTy).Contents (Elt F) → (⟨S256, .f32⟩ : BufTy).Contents (Elt F) → (⟨S256, .f32⟩ : BufTy).Contents (Elt F)) ]

set_option maxRecDepth 8192 in
set_option maxHeartbeats 4000000 in
/-- The window is that straight line: the called functions unfolded at their calls, sequencing reassociated. -/
theorem part0_eq (c : Dev nD) : main_part0 (F := F) c = seq opsW0 := by
  simp only [main_part0, fn_where.body, fn_where_0.body, fn_elu.body, fn_where_1.body, fn_var.body, fn_relu.body, seq, bind_assoc, pure_bind] <;> rfl

set_option maxRecDepth 8192 in
theorem opsW0_sub : (opsW0 : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., nullary_bufs_sub .., unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., nullary_bufs_sub .., binary_bufs_sub .., nullary_bufs_sub .., binary_bufs_sub .., unary_bufs_sub .., binary_bufs_sub .., unary_bufs_sub .., nullary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub ..⟩

set_option maxRecDepth 8192 in
theorem opsW0_fresh : (opsW0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW0_writes : (opsW0 : List (HloOp τ sig (Elt F))).Forall (WritesIn 19 107) :=
  ⟨writesIn_single main_v0 _ rfl (by decide) (by decide),
   writesIn_single main_v1 _ rfl (by decide) (by decide),
   writesIn_single main_c _ rfl (by decide) (by decide),
   writesIn_single main_v2 _ rfl (by decide) (by decide),
   writesIn_single main_v3 _ rfl (by decide) (by decide),
   writesIn_single main_v4 _ rfl (by decide) (by decide),
   writesIn_single main_v5 _ rfl (by decide) (by decide),
   writesIn_single main_cst _ rfl (by decide) (by decide),
   writesIn_single main_v6 _ rfl (by decide) (by decide),
   writesIn_single main_v7 _ rfl (by decide) (by decide),
   writesIn_single main_v8 _ rfl (by decide) (by decide),
   writesIn_single main_v9 _ rfl (by decide) (by decide),
   writesIn_single main_v10 _ rfl (by decide) (by decide),
   writesIn_single main_v11 _ rfl (by decide) (by decide),
   writesIn_single main_v12 _ rfl (by decide) (by decide),
   writesIn_single main_v13 _ rfl (by decide) (by decide),
   writesIn_single main_v14 _ rfl (by decide) (by decide),
   writesIn_single main_call0_cst _ rfl (by decide) (by decide),
   writesIn_single main_call0_v0 _ rfl (by decide) (by decide),
   writesIn_single main_call0_v1 _ rfl (by decide) (by decide),
   writesIn_single main_call0_cst_0 _ rfl (by decide) (by decide),
   writesIn_single main_call0_v2 _ rfl (by decide) (by decide),
   writesIn_single main_call0_v3 _ rfl (by decide) (by decide),
   writesIn_single main_call0_cst_1 _ rfl (by decide) (by decide),
   writesIn_single main_call0_call0_v0 _ rfl (by decide) (by decide),
   writesIn_single main_call0_call0_v1 _ rfl (by decide) (by decide),
   writesIn_single main_call0_v4 _ rfl (by decide) (by decide),
   writesIn_single main_call0_v5 _ rfl (by decide) (by decide),
   writesIn_single main_call0_cst_2 _ rfl (by decide) (by decide),
   writesIn_single main_call0_v6 _ rfl (by decide) (by decide),
   writesIn_single main_call0_v7 _ rfl (by decide) (by decide),
   writesIn_single main_v15 _ rfl (by decide) (by decide),
   writesIn_single main_v16 _ rfl (by decide) (by decide),
   writesIn_single main_v17 _ rfl (by decide) (by decide),
   writesIn_single main_v18 _ rfl (by decide) (by decide),
   writesIn_single main_v19 _ rfl (by decide) (by decide),
   writesIn_single main_v20 _ rfl (by decide) (by decide),
   writesIn_single main_v21 _ rfl (by decide) (by decide),
   writesIn_single main_v22 _ rfl (by decide) (by decide),
   writesIn_single main_v23 _ rfl (by decide) (by decide),
   writesIn_single main_call1_cst _ rfl (by decide) (by decide),
   writesIn_single main_call1_v0 _ rfl (by decide) (by decide),
   writesIn_single main_call1_v1 _ rfl (by decide) (by decide),
   writesIn_single main_call1_cst_0 _ rfl (by decide) (by decide),
   writesIn_single main_call1_v2 _ rfl (by decide) (by decide),
   writesIn_single main_call1_v3 _ rfl (by decide) (by decide),
   writesIn_single main_call1_cst_1 _ rfl (by decide) (by decide),
   writesIn_single main_call1_call0_v0 _ rfl (by decide) (by decide),
   writesIn_single main_call1_call0_v1 _ rfl (by decide) (by decide),
   writesIn_single main_call1_v4 _ rfl (by decide) (by decide),
   writesIn_single main_call1_v5 _ rfl (by decide) (by decide),
   writesIn_single main_call1_cst_2 _ rfl (by decide) (by decide),
   writesIn_single main_call1_v6 _ rfl (by decide) (by decide),
   writesIn_single main_call1_v7 _ rfl (by decide) (by decide),
   writesIn_single main_v24 _ rfl (by decide) (by decide),
   writesIn_single main_v25 _ rfl (by decide) (by decide),
   writesIn_single main_v26 _ rfl (by decide) (by decide),
   writesIn_single main_cst_0 _ rfl (by decide) (by decide),
   writesIn_single main_v27 _ rfl (by decide) (by decide),
   writesIn_single main_cst_1 _ rfl (by decide) (by decide),
   writesIn_single main_v28 _ rfl (by decide) (by decide),
   writesIn_single main_v29 _ rfl (by decide) (by decide),
   writesIn_single main_v30 _ rfl (by decide) (by decide),
   writesIn_single main_v31 _ rfl (by decide) (by decide),
   writesIn_single main_cst_2 _ rfl (by decide) (by decide),
   writesIn_single main_v32 _ rfl (by decide) (by decide),
   writesIn_single main_v33 _ rfl (by decide) (by decide),
   writesIn_single main_v34 _ rfl (by decide) (by decide),
   writesIn_single main_v35 _ rfl (by decide) (by decide),
   writesIn_single main_v36 _ rfl (by decide) (by decide),
   writesIn_single main_v37 _ rfl (by decide) (by decide),
   writesIn_single main_v38 _ rfl (by decide) (by decide),
   writesIn_single main_v39 _ rfl (by decide) (by decide),
   writesIn_single main_v40 _ rfl (by decide) (by decide),
   writesIn_single main_v41 _ rfl (by decide) (by decide),
   writesIn_single main_v42 _ rfl (by decide) (by decide),
   writesIn_single main_v43 _ rfl (by decide) (by decide),
   writesIn_single main_v44 _ rfl (by decide) (by decide),
   writesIn_single main_v45 _ rfl (by decide) (by decide),
   writesIn_single main_v46 _ rfl (by decide) (by decide),
   writesIn_single main_v47 _ rfl (by decide) (by decide),
   writesIn_single main_v48 _ rfl (by decide) (by decide),
   writesIn_single main_v49 _ rfl (by decide) (by decide),
   writesIn_single main_cst_3 _ rfl (by decide) (by decide),
   writesIn_single main_v50 _ rfl (by decide) (by decide),
   writesIn_single main_cst_4 _ rfl (by decide) (by decide),
   writesIn_single main_v51 _ rfl (by decide) (by decide),
   writesIn_single main_v52 _ rfl (by decide) (by decide)⟩

end Cert.ReferenceIdeal.Hand

end
-- ==== Proof.RefRunW01.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 89 … 199 of 1674 (window main_part1): they write the buffers 107 … 217 in order. -/
noncomputable abbrev opsW1 : List (HloOp τ sig (Elt F)) :=
  [ nullary main_c_5 (constantI S_ 32 0#32),
    TRef.nullary main_call2.cst (constant S_ .f32 0x00000000#32),
    TRef.binary (.of main_v49 : TRef sig ⟨S4096x256, .f32⟩) main_call2.cst main_call2.v0 (fun x v => Host.reduceAdd x v reducesTo_S4096x256_S256_d0 h_S_),
    TRef.unary main_call2.v0 main_call2.v1 (broadcastInDim S1x256 ![1] bcast_S256_S1x256_1),
    TRef.nullary main_call2.cst_0 (constant S_ .f32 0x45800000#32),
    TRef.unary main_call2.cst_0 main_call2.v2 (broadcastInDim S1x256 ![] bcast_S_S1x256),
    TRef.binary main_call2.v1 main_call2.v2 main_call2.v3 Host.divf,
    TRef.unary main_call2.v3 main_call2.v4 (broadcastInDim S4096x256 ![0, 1] bcast_S1x256_S4096x256_0_1),
    TRef.binary (.of main_v49 : TRef sig ⟨S4096x256, .f32⟩) main_call2.v4 main_call2.v5 subf,
    TRef.binary main_call2.v5 main_call2.v5 main_call2.v6 mulf,
    TRef.unary (.of main_c_5 : TRef sig ⟨S_, .i32⟩) main_call2.v7 (sitofp .f32),
    TRef.nullary main_call2.cst_1 (constant S_ .f32 0x45800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S4096x256_S256_d0 h_S_),
    TRef.unary main_call2.v8 main_call2.v10 (broadcastInDim S256 ![] bcast_S_S256),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2_call0.v0 id,
    TRef.unary main_call2_call0.v0 main_call2_call0.v1 (broadcastInDim S256 ![] bcast_S_S256),
    TRef.ternary main_call2.v12 main_call2.v11 main_call2_call0.v1 main_call2_call0.v2 (fun p a b => select (broadcastInDim S256 ![] bcast_S_S256 p) a b),
    unary main_v52 main_v54 (broadcastInDim S1x256 ![1] bcast_S256_S1x256_1 : (⟨S256, .f32⟩ : BufTy).Contents (Elt F) → (⟨S1x256, .f32⟩ : BufTy).Contents (Elt F)),
    unary main_v54 main_v55 (broadcastInDim S4096x256 ![0, 1] bcast_S1x256_S4096x256_0_1 : (⟨S1x256, .f32⟩ : BufTy).Contents (Elt F) → (⟨S4096x256, .f32⟩ : BufTy).Contents (Elt F)),
    binary main_v49 main_v55 main_v56 (subf : (⟨S4096x256, .f32⟩ : BufTy).Contents (Elt F) → (⟨S4096x256, .f32⟩ : BufTy).Contents (Elt F) → (⟨S4096x256, .f32⟩ : BufTy).Contents (Elt F)),
    nullary main_cst_6 (constant S_ .f32 0x3727C5AC#32),
    unary main_cst_6 main_v57 (broadcastInDim S256 ![] bcast_S_S256 : (⟨S_, .f32⟩ : BufTy).Contents (Elt F) → (⟨S256, .f32⟩ : BufTy).Contents (Elt F)),
    binary main_v53 main_v57 main_v58 (addf : (⟨S256, .f32⟩ : BufTy).Contents (Elt F) → (⟨S256, .f32⟩ : BufTy).Contents (Elt F) → (⟨S256, .f32⟩ : BufTy).Contents (Elt F)),
    unary main_v58 main_v59 (Host.rsqrt : (⟨S256, .f32⟩ : BufTy).Contents (Elt F) → (⟨S256, .f32⟩ : BufTy).Contents (Elt F)),
    unary main_v59 main_v60 (broadcastInDim S1x256 ![1] bcast_S256_S1x256_1 : (⟨S256, .f32⟩ : BufTy).Contents (Elt F) → (⟨S1x256, .f32⟩ : BufTy).Contents (Elt F)),
    unary main_v60 main_v61 (broadcastInDim S4096x256 ![0, 1] bcast_S1x256_S4096x256_0_1 : (⟨S1x256, .f32⟩ : BufTy).Contents (Elt F) → (⟨S4096x256, .f32⟩ : BufTy).Contents (Elt F)),
    binary main_v56 main_v61 main_v62 (mulf : (⟨S4096x256, .f32⟩ : BufTy).Contents (Elt F) → (⟨S4096x256, .f32⟩ : BufTy).Contents (Elt F) → (⟨S4096x256, .f32⟩ : BufTy).Contents (Elt F)),
    unary main_v41 main_v63 ((extractStridedSlice S1x256 ![0, 0] · slices_S2x256_S1x256_0_0) : (⟨S2x256, .f32⟩ : BufTy).Contents (Elt F) → (⟨S1x256, .f32⟩ : BufTy).Contents (Elt F)),
    reshape main_v63 main_v64 rfl shapeCasts_S1x256_S256,
    unary main_v64 main_v65 (broadcastInDim S1x256 ![1] bcast_S256_S1x256_1 : (⟨S256, .f32⟩ : BufTy).Contents (Elt F) → (⟨S1x256, .f32⟩ : BufTy).Contents (Elt F)),
    unary main_v65 main_v66 (broadcastInDim S4096x256 ![0, 1] bcast_S1x256_S4096x256_0_1 : (⟨S1x256, .f32⟩ : BufTy).Contents (Elt F) → (⟨S4096x256, .f32⟩ : BufTy).Contents (Elt F)),
    binary main_v62 main_v66 main_v67 (mulf : (⟨S4096x256, .f32⟩ : BufTy).Contents (Elt F) → (⟨S4096x256, .f32⟩ : BufTy).Contents (Elt F) → (⟨S4096x256, .f32⟩ : BufTy).Contents (Elt F)),
    unary main_v41 main_v68 ((extractStridedSlice S1x256 ![1, 0] · slices_S2x256_S1x256_1_0) : (⟨S2x256, .f32⟩ : BufTy).Contents (Elt F) → (⟨S1x256, .f32⟩ : BufTy).Contents (Elt F)),
    reshape main_v68 main_v69 rfl shapeCasts_S1x256_S256,
    unary main_v69 main_v70 (broadcastInDim S1x256 ![1] bcast_S256_S1x256_1 : (⟨S256, .f32⟩ : BufTy).Contents (Elt F) → (⟨S1x256, .f32⟩ : BufTy).Contents (Elt F)),
    unary main_v70 main_v71 (broadcastInDim S4096x256 ![0, 1] bcast_S1x256_S4096x256_0_1 : (⟨S1x256, .f32⟩ : BufTy).Contents (Elt F) → (⟨S4096x256, .f32⟩ : BufTy).Contents (Elt F)),
    binary main_v67 main_v71 main_v72 (addf : (⟨S4096x256, .f32⟩ : BufTy).Contents (Elt F) → (⟨S4096x256, .f32⟩ : BufTy).Contents (Elt F) → (⟨S4096x256, .f32⟩ : BufTy).Contents (Elt F)),
    TRef.nullary main_call3.cst (constant S_ .f32 0x00000000#32),
    TRef.unary main_call3.cst main_call3.v0 (broadcastInDim S4096x256 ![] bcast_S_S4096x256),
    TRef.binary (.of main_v72 : TRef sig ⟨S4096x256, .f32⟩) main_call3.v0 main_call3.v1 maximumf,
    unary main_v37 main_v74 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v74 main_v75 rfl shapeCasts_S1x256x256_S256x256,
    binary main_v73 main_v75 main_v76 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v39 main_v77 ((extractStridedSlice S1x256 ![1, 0] · slices_S2x256_S1x256_1_0) : (⟨S2x256, .f32⟩ : BufTy).Contents (Elt F) → (⟨S1x256, .f32⟩ : BufTy).Contents (Elt F)),
    reshape main_v77 main_v78 rfl shapeCasts_S1x256_S256,
    unary main_v78 main_v79 (broadcastInDim S1x256 ![1] bcast_S256_S1x256_1 : (⟨S256, .f32⟩ : BufTy).Contents (Elt F) → (⟨S1x256, .f32⟩ : BufTy).Contents (Elt F)),
    unary main_v79 main_v80 (broadcastInDim S4096x256 ![0, 1] bcast_S1x256_S4096x256_0_1 : (⟨S1x256, .f32⟩ : BufTy).Contents (Elt F) → (⟨S4096x256, .f32⟩ : BufTy).Contents (Elt F)),
    binary main_v76 main_v80 main_v81 (addf : (⟨S4096x256, .f32⟩ : BufTy).Contents (Elt F) → (⟨S4096x256, .f32⟩ : BufTy).Contents (Elt F) → (⟨S4096x256, .f32⟩ : BufTy).Contents (Elt F)),
    binary main_v6 main_v81 main_v82 (addf : (⟨S4096x256, .f32⟩ : BufTy).Contents (Elt F) → (⟨S4096x256, .f32⟩ : BufTy).Contents (Elt F) → (⟨S4096x256, .f32⟩ : BufTy).Contents (Elt F)),
    unary main_arg4 main_v83 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v83 main_v84 rfl shapeCasts_S1x256x256_S256x256,
    binary main_v81 main_v84 main_v85 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg5 main_v86 ((extractStridedSlice S1x256 ![0, 0] · slices_S2x256_S1x256_0_0) : (⟨S2x256, .f32⟩ : BufTy).Contents (Elt F) → (⟨S1x256, .f32⟩ : BufTy).Contents (Elt F)),
    reshape main_v86 main_v87 rfl shapeCasts_S1x256_S256,
    unary main_v87 main_v88 (broadcastInDim S1x256 ![1] bcast_S256_S1x256_1 : (⟨S256, .f32⟩ : BufTy).Contents (Elt F) → (⟨S1x256, .f32⟩ : BufTy).Contents (Elt F)),
    unary main_v88 main_v89 (broadcastInDim S4096x256 ![0, 1] bcast_S1x256_S4096x256_0_1 : (⟨S1x256, .f32⟩ : BufTy).Contents (Elt F) → (⟨S4096x256, .f32⟩ : BufTy).Contents (Elt F)),
    binary main_v85 main_v89 main_v90 (addf : (⟨S4096x256, .f32⟩ : BufTy).Contents (Elt F) → (⟨S4096x256, .f32⟩ : BufTy).Contents (Elt F) → (⟨S4096x256, .f32⟩ : BufTy).Contents (Elt F)),
    TRef.nullary main_call4.cst (constant S_ .f32 0x00000000#32),
    TRef.unary main_call4.cst main_call4.v0 (broadcastInDim S4096x256 ![] bcast_S_S4096x256),
    TRef.binary (.of main_v90 : TRef sig ⟨S4096x256, .f32⟩) main_call4.v0 main_call4.v1 (cmpf .ogt),
    TRef.nullary main_call4.cst_0 (constant S_ .f32 0x00000000#32),
    TRef.unary main_call4.cst_0 main_call4.v2 (broadcastInDim S4096x256 ![] bcast_S_S4096x256),
    TRef.binary (.of main_v90 : TRef sig ⟨S4096x256, .f32⟩) main_call4.v2 main_call4.v3 (cmpf .ogt),
    TRef.nullary main_call4.cst_1 (constant S_ .f32 0x00000000#32),
    TRef.unary main_call4.cst_1 main_call4_call0.v0 id,
    TRef.unary main_call4_call0.v0 main_call4_call0.v1 (broadcastInDim S4096x256 ![] bcast_S_S4096x256),
    TRef.ternary main_call4.v3 main_call4_call0.v1 (.of main_v90 : TRef sig ⟨S4096x256, .f32⟩) main_call4_call0.v2 select,
    TRef.unary main_call4.call0.v2 main_call4.v5 Host.expm1,
    TRef.nullary main_call4.cst_2 (constant S_ .f32 0x3F800000#32),
    TRef.unary main_call4.cst_2 main_call4.v6 (broadcastInDim S4096x256 ![] bcast_S_S4096x256),
    TRef.binary main_call4.v6 main_call4.v5 main_call4.v7 mulf,
    TRef.ternary main_call4.v1 (.of main_v90 : TRef sig ⟨S4096x256, .f32⟩) main_call4.v7 main_call4_call1.v0 select,
    unary main_arg4 main_v92 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v92 main_v93 rfl shapeCasts_S1x256x256_S256x256,
    binary main_v91 main_v93 main_v94 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg5 main_v95 ((extractStridedSlice S1x256 ![1, 0] · slices_S2x256_S1x256_1_0) : (⟨S2x256, .f32⟩ : BufTy).Contents (Elt F) → (⟨S1x256, .f32⟩ : BufTy).Contents (Elt F)),
    reshape main_v95 main_v96 rfl shapeCasts_S1x256_S256,
    unary main_v96 main_v97 (broadcastInDim S1x256 ![1] bcast_S256_S1x256_1 : (⟨S256, .f32⟩ : BufTy).Contents (Elt F) → (⟨S1x256, .f32⟩ : BufTy).Contents (Elt F)),
    unary main_v97 main_v98 (broadcastInDim S4096x256 ![0, 1] bcast_S1x256_S4096x256_0_1 : (⟨S1x256, .f32⟩ : BufTy).Contents (Elt F) → (⟨S4096x256, .f32⟩ : BufTy).Contents (Elt F)),
    binary main_v94 main_v98 main_v99 (addf : (⟨S4096x256, .f32⟩ : BufTy).Contents (Elt F) → (⟨S4096x256, .f32⟩ : BufTy).Contents (Elt F) → (⟨S4096x256, .f32⟩ : BufTy).Contents (Elt F)),
    TRef.nullary main_call5.cst (constant S_ .f32 0x00000000#32),
    TRef.unary main_call5.cst main_call5.v0 (broadcastInDim S4096x256 ![] bcast_S_S4096x256),
    TRef.binary (.of main_v99 : TRef sig ⟨S4096x256, .f32⟩) main_call5.v0 main_call5.v1 (cmpf .ogt),
    TRef.nullary main_call5.cst_0 (constant S_ .f32 0x00000000#32),
    TRef.unary main_call5.cst_0 main_call5.v2 (broadcastInDim S4096x256 ![] bcast_S_S4096x256),
    TRef.binary (.of main_v99 : TRef sig ⟨S4096x256, .f32⟩) main_call5.v2 main_call5.v3 (cmpf .ogt),
    TRef.nullary main_call5.cst_1 (constant S_ .f32 0x00000000#32),
    TRef.unary main_call5.cst_1 main_call5_call0.v0 id,
    TRef.unary main_call5_call0.v0 main_call5_call0.v1 (broadcastInDim S4096x256 ![] bcast_S_S4096x256),
    TRef.ternary main_call5.v3 main_call5_call0.v1 (.of main_v99 : TRef sig ⟨S4096x256, .f32⟩) main_call5_call0.v2 select,
    TRef.unary main_call5.call0.v2 main_call5.v5 Host.expm1,
    TRef.nullary main_call5.cst_2 (constant S_ .f32 0x3F800000#32),
    TRef.unary main_call5.cst_2 main_call5.v6 (broadcastInDim S4096x256 ![] bcast_S_S4096x256),
    TRef.binary main_call5.v6 main_call5.v5 main_call5.v7 mulf,
    TRef.ternary main_call5.v1 (.of main_v99 : TRef sig ⟨S4096x256, .f32⟩) main_call5.v7 main_call5_call1.v0 select,
    unary main_v100 main_v101 ((transpose S256x4096 [1, 0] · transposes_S4096x256_S256x4096_1_0) : (⟨S4096x256, .f32⟩ : BufTy).Contents (Elt F) → (⟨S256x4096, .f32⟩ : BufTy).Contents (Elt F)),
    binary main_v100 main_v101 main_v102 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_7 (constant S_ .f32 0x00000000#32),
    binary main_v102 main_cst_7 main_v103 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_8 (constant S_ .f32 0x4B800000#32),
    binary main_v103 main_cst_8 main_v104 (Host.divf : (⟨S_, .f32⟩ : BufTy).Contents (Elt F) → (⟨S_, .f32⟩ : BufTy).Contents (Elt F) → (⟨S_, .f32⟩ : BufTy).Contents (Elt F)),
    unary main_v104 main_v105 (broadcastInDim S4096x4096 ![] bcast_S_S4096x4096 : (⟨S_, .f32⟩ : BufTy).Contents (Elt F) → (⟨S4096x4096, .f32⟩ : BufTy).Contents (Elt F)),
    binary main_v102 main_v105 main_v106 (cmpf .ogt : (⟨S4096x4096, .f32⟩ : BufTy).Contents (Elt F) → (⟨S4096x4096, .f32⟩ : BufTy).Contents (Elt F) → (⟨S4096x4096, .i1⟩ : BufTy).Contents (Elt F)),
    unary main_v106 main_v107 (uitofp .f32 : (⟨S4096x4096, .i1⟩ : BufTy).Contents (Elt F) → (⟨S4096x4096, .f32⟩ : BufTy).Contents (Elt F)),
    nullary main_cst_9 (constant S_ .f32 0x3F800000#32) ]

set_option maxRecDepth 8192 in
set_option maxHeartbeats 4000000 in
/-- The window is that straight line: the called functions unfolded at their calls, sequencing reassociated. -/
theorem part1_eq (c : Dev nD) : main_part1 (F := F) c = seq opsW1 := by
  simp only [main_part1, fn_where.body, fn_where_0.body, fn_elu.body, fn_where_1.body, fn_var.body, fn_relu.body, seq, bind_assoc, pure_bind] <;> rfl

set_option maxRecDepth 8192 in
theorem opsW1_sub : (opsW1 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., nullary_bufs_sub .., binary_bufs_sub .., nullary_bufs_sub .., binary_bufs_sub .., unary_bufs_sub .., binary_bufs_sub .., unary_bufs_sub .., nullary_bufs_sub ..⟩

set_option maxRecDepth 8192 in
theorem opsW1_fresh : (opsW1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW1_writes : (opsW1 : List (HloOp τ sig (Elt F))).Forall (WritesIn 107 218) :=
  ⟨writesIn_single main_c_5 _ rfl (by decide) (by decide),
   writesIn_single main_call2_cst _ rfl (by decide) (by decide),
   writesIn_single main_call2_v0 _ rfl (by decide) (by decide),
   writesIn_single main_call2_v1 _ rfl (by decide) (by decide),
   writesIn_single main_call2_cst_0 _ rfl (by decide) (by decide),
   writesIn_single main_call2_v2 _ rfl (by decide) (by decide),
   writesIn_single main_call2_v3 _ rfl (by decide) (by decide),
   writesIn_single main_call2_v4 _ rfl (by decide) (by decide),
   writesIn_single main_call2_v5 _ rfl (by decide) (by decide),
   writesIn_single main_call2_v6 _ rfl (by decide) (by decide),
   writesIn_single main_call2_v7 _ rfl (by decide) (by decide),
   writesIn_single main_call2_cst_1 _ rfl (by decide) (by decide),
   writesIn_single main_call2_v8 _ rfl (by decide) (by decide),
   writesIn_single main_call2_cst_2 _ rfl (by decide) (by decide),
   writesIn_single main_call2_v9 _ rfl (by decide) (by decide),
   writesIn_single main_call2_v10 _ rfl (by decide) (by decide),
   writesIn_single main_call2_v11 _ rfl (by decide) (by decide),
   writesIn_single main_call2_cst_3 _ rfl (by decide) (by decide),
   writesIn_single main_call2_v12 _ rfl (by decide) (by decide),
   writesIn_single main_call2_cst_4 _ rfl (by decide) (by decide),
   writesIn_single main_call2_call0_v0 _ rfl (by decide) (by decide),
   writesIn_single main_call2_call0_v1 _ rfl (by decide) (by decide),
   writesIn_single main_v53 _ rfl (by decide) (by decide),
   writesIn_single main_v54 _ rfl (by decide) (by decide),
   writesIn_single main_v55 _ rfl (by decide) (by decide),
   writesIn_single main_v56 _ rfl (by decide) (by decide),
   writesIn_single main_cst_6 _ rfl (by decide) (by decide),
   writesIn_single main_v57 _ rfl (by decide) (by decide),
   writesIn_single main_v58 _ rfl (by decide) (by decide),
   writesIn_single main_v59 _ rfl (by decide) (by decide),
   writesIn_single main_v60 _ rfl (by decide) (by decide),
   writesIn_single main_v61 _ rfl (by decide) (by decide),
   writesIn_single main_v62 _ rfl (by decide) (by decide),
   writesIn_single main_v63 _ rfl (by decide) (by decide),
   writesIn_single main_v64 _ rfl (by decide) (by decide),
   writesIn_single main_v65 _ rfl (by decide) (by decide),
   writesIn_single main_v66 _ rfl (by decide) (by decide),
   writesIn_single main_v67 _ rfl (by decide) (by decide),
   writesIn_single main_v68 _ rfl (by decide) (by decide),
   writesIn_single main_v69 _ rfl (by decide) (by decide),
   writesIn_single main_v70 _ rfl (by decide) (by decide),
   writesIn_single main_v71 _ rfl (by decide) (by decide),
   writesIn_single main_v72 _ rfl (by decide) (by decide),
   writesIn_single main_call3_cst _ rfl (by decide) (by decide),
   writesIn_single main_call3_v0 _ rfl (by decide) (by decide),
   writesIn_single main_v73 _ rfl (by decide) (by decide),
   writesIn_single main_v74 _ rfl (by decide) (by decide),
   writesIn_single main_v75 _ rfl (by decide) (by decide),
   writesIn_single main_v76 _ rfl (by decide) (by decide),
   writesIn_single main_v77 _ rfl (by decide) (by decide),
   writesIn_single main_v78 _ rfl (by decide) (by decide),
   writesIn_single main_v79 _ rfl (by decide) (by decide),
   writesIn_single main_v80 _ rfl (by decide) (by decide),
   writesIn_single main_v81 _ rfl (by decide) (by decide),
   writesIn_single main_v82 _ rfl (by decide) (by decide),
   writesIn_single main_v83 _ rfl (by decide) (by decide),
   writesIn_single main_v84 _ rfl (by decide) (by decide),
   writesIn_single main_v85 _ rfl (by decide) (by decide),
   writesIn_single main_v86 _ rfl (by decide) (by decide),
   writesIn_single main_v87 _ rfl (by decide) (by decide),
   writesIn_single main_v88 _ rfl (by decide) (by decide),
   writesIn_single main_v89 _ rfl (by decide) (by decide),
   writesIn_single main_v90 _ rfl (by decide) (by decide),
   writesIn_single main_call4_cst _ rfl (by decide) (by decide),
   writesIn_single main_call4_v0 _ rfl (by decide) (by decide),
   writesIn_single main_call4_v1 _ rfl (by decide) (by decide),
   writesIn_single main_call4_cst_0 _ rfl (by decide) (by decide),
   writesIn_single main_call4_v2 _ rfl (by decide) (by decide),
   writesIn_single main_call4_v3 _ rfl (by decide) (by decide),
   writesIn_single main_call4_cst_1 _ rfl (by decide) (by decide),
   writesIn_single main_call4_call0_v0 _ rfl (by decide) (by decide),
   writesIn_single main_call4_call0_v1 _ rfl (by decide) (by decide),
   writesIn_single main_call4_v4 _ rfl (by decide) (by decide),
   writesIn_single main_call4_v5 _ rfl (by decide) (by decide),
   writesIn_single main_call4_cst_2 _ rfl (by decide) (by decide),
   writesIn_single main_call4_v6 _ rfl (by decide) (by decide),
   writesIn_single main_call4_v7 _ rfl (by decide) (by decide),
   writesIn_single main_v91 _ rfl (by decide) (by decide),
   writesIn_single main_v92 _ rfl (by decide) (by decide),
   writesIn_single main_v93 _ rfl (by decide) (by decide),
   writesIn_single main_v94 _ rfl (by decide) (by decide),
   writesIn_single main_v95 _ rfl (by decide) (by decide),
   writesIn_single main_v96 _ rfl (by decide) (by decide),
   writesIn_single main_v97 _ rfl (by decide) (by decide),
   writesIn_single main_v98 _ rfl (by decide) (by decide),
   writesIn_single main_v99 _ rfl (by decide) (by decide),
   writesIn_single main_call5_cst _ rfl (by decide) (by decide),
   writesIn_single main_call5_v0 _ rfl (by decide) (by decide),
   writesIn_single main_call5_v1 _ rfl (by decide) (by decide),
   writesIn_single main_call5_cst_0 _ rfl (by decide) (by decide),
   writesIn_single main_call5_v2 _ rfl (by decide) (by decide),
   writesIn_single main_call5_v3 _ rfl (by decide) (by decide),
   writesIn_single main_call5_cst_1 _ rfl (by decide) (by decide),
   writesIn_single main_call5_call0_v0 _ rfl (by decide) (by decide),
   writesIn_single main_call5_call0_v1 _ rfl (by decide) (by decide),
   writesIn_single main_call5_v4 _ rfl (by decide) (by decide),
   writesIn_single main_call5_v5 _ rfl (by decide) (by decide),
   writesIn_single main_call5_cst_2 _ rfl (by decide) (by decide),
   writesIn_single main_call5_v6 _ rfl (by decide) (by decide),
   writesIn_single main_call5_v7 _ rfl (by decide) (by decide),
   writesIn_single main_v100 _ rfl (by decide) (by decide),
   writesIn_single main_v101 _ rfl (by decide) (by decide),
   writesIn_single main_v102 _ rfl (by decide) (by decide),
   writesIn_single main_cst_7 _ rfl (by decide) (by decide),
   writesIn_single main_v103 _ rfl (by decide) (by decide),
   writesIn_single main_cst_8 _ rfl (by decide) (by decide),
   writesIn_single main_v104 _ rfl (by decide) (by decide),
   writesIn_single main_v105 _ rfl (by decide) (by decide),
   writesIn_single main_v106 _ rfl (by decide) (by decide),
   writesIn_single main_v107 _ rfl (by decide) (by decide),
   writesIn_single main_cst_9 _ rfl (by decide) (by decide)⟩

end Cert.ReferenceIdeal.Hand

end
-- ==== Proof.RefRunW02.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 200 … 282 of 1674 (window main_part2): they write the buffers 218 … 300 in order. -/
noncomputable abbrev opsW2 : List (HloOp τ sig (Elt F)) :=
  [ unary main_cst_9 main_v108 (broadcastInDim S4096x4096 ![] bcast_S_S4096x4096 : (⟨S_, .f32⟩ : BufTy).Contents (Elt F) → (⟨S4096x4096, .f32⟩ : BufTy).Contents (Elt F)),
    binary main_v108 main_v5 main_v109 (mulf : (⟨S4096x4096, .f32⟩ : BufTy).Contents (Elt F) → (⟨S4096x4096, .f32⟩ : BufTy).Contents (Elt F) → (⟨S4096x4096, .f32⟩ : BufTy).Contents (Elt F)),
    binary main_v107 main_v109 main_v110 (addf : (⟨S4096x4096, .f32⟩ : BufTy).Contents (Elt F) → (⟨S4096x4096, .f32⟩ : BufTy).Contents (Elt F) → (⟨S4096x4096, .f32⟩ : BufTy).Contents (Elt F)),
    binary main_v110 main_v81 main_v111 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg6 main_v112 ((extractStridedSlice S1x2x256x256 ![1, 0, 0, 0] · slices_S3x2x256x256_S1x2x256x256_1_0_0_0) : (⟨S3x2x256x256, .f32⟩ : BufTy).Contents (Elt F) → (⟨S1x2x256x256, .f32⟩ : BufTy).Contents (Elt F)),
    reshape main_v112 main_v113 rfl shapeCasts_S1x2x256x256_S2x256x256,
    unary main_arg7 main_v114 ((extractStridedSlice S1x2x256 ![1, 0, 0] · slices_S3x2x256_S1x2x256_1_0_0) : (⟨S3x2x256, .f32⟩ : BufTy).Contents (Elt F) → (⟨S1x2x256, .f32⟩ : BufTy).Contents (Elt F)),
    reshape main_v114 main_v115 rfl shapeCasts_S1x2x256_S2x256,
    unary main_arg8 main_v116 ((extractStridedSlice S1x2x256 ![1, 0, 0] · slices_S3x2x256_S1x2x256_1_0_0) : (⟨S3x2x256, .f32⟩ : BufTy).Contents (Elt F) → (⟨S1x2x256, .f32⟩ : BufTy).Contents (Elt F)),
    reshape main_v116 main_v117 rfl shapeCasts_S1x2x256_S2x256,
    unary main_v113 main_v118 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v118 main_v119 rfl shapeCasts_S1x256x256_S256x256,
    binary main_v111 main_v119 main_v120 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v115 main_v121 ((extractStridedSlice S1x256 ![0, 0] · slices_S2x256_S1x256_0_0) : (⟨S2x256, .f32⟩ : BufTy).Contents (Elt F) → (⟨S1x256, .f32⟩ : BufTy).Contents (Elt F)),
    reshape main_v121 main_v122 rfl shapeCasts_S1x256_S256,
    unary main_v122 main_v123 (broadcastInDim S1x256 ![1] bcast_S256_S1x256_1 : (⟨S256, .f32⟩ : BufTy).Contents (Elt F) → (⟨S1x256, .f32⟩ : BufTy).Contents (Elt F)),
    unary main_v123 main_v124 (broadcastInDim S4096x256 ![0, 1] bcast_S1x256_S4096x256_0_1 : (⟨S1x256, .f32⟩ : BufTy).Contents (Elt F) → (⟨S4096x256, .f32⟩ : BufTy).Contents (Elt F)),
    binary main_v120 main_v124 main_v125 (addf : (⟨S4096x256, .f32⟩ : BufTy).Contents (Elt F) → (⟨S4096x256, .f32⟩ : BufTy).Contents (Elt F) → (⟨S4096x256, .f32⟩ : BufTy).Contents (Elt F)),
    nullary main_cst_10 (constant S_ .f32 0x00000000#32),
    binary main_v125 main_cst_10 main_v126 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_11 (constant S_ .f32 0x45800000#32),
    unary main_cst_11 main_v127 (broadcastInDim S256 ![] bcast_S_S256 : (⟨S_, .f32⟩ : BufTy).Contents (Elt F) → (⟨S256, .f32⟩ : BufTy).Contents (Elt F)),
    binary main_v126 main_v127 main_v128 (Host.divf : (⟨S256, .f32⟩ : BufTy).Contents (Elt F) → (⟨S256, .f32⟩ : BufTy).Contents (Elt F) → (⟨S256, .f32⟩ : BufTy).Contents (Elt F)),
    nullary main_c_12 (constantI S_ 32 0#32),
    TRef.nullary main_call6.cst (constant S_ .f32 0x00000000#32),
    TRef.binary (.of main_v125 : TRef sig ⟨S4096x256, .f32⟩) main_call6.cst main_call6.v0 (fun x v => Host.reduceAdd x v reducesTo_S4096x256_S256_d0 h_S_),
    TRef.unary main_call6.v0 main_call6.v1 (broadcastInDim S1x256 ![1] bcast_S256_S1x256_1),
    TRef.nullary main_call6.cst_0 (constant S_ .f32 0x45800000#32),
    TRef.unary main_call6.cst_0 main_call6.v2 (broadcastInDim S1x256 ![] bcast_S_S1x256),
    TRef.binary main_call6.v1 main_call6.v2 main_call6.v3 Host.divf,
    TRef.unary main_call6.v3 main_call6.v4 (broadcastInDim S4096x256 ![0, 1] bcast_S1x256_S4096x256_0_1),
    TRef.binary (.of main_v125 : TRef sig ⟨S4096x256, .f32⟩) main_call6.v4 main_call6.v5 subf,
    TRef.binary main_call6.v5 main_call6.v5 main_call6.v6 mulf,
    TRef.unary (.of main_c_12 : TRef sig ⟨S_, .i32⟩) main_call6.v7 (sitofp .f32),
    TRef.nullary main_call6.cst_1 (constant S_ .f32 0x45800000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S4096x256_S256_d0 h_S_),
    TRef.unary main_call6.v8 main_call6.v10 (broadcastInDim S256 ![] bcast_S_S256),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6_call0.v0 id,
    TRef.unary main_call6_call0.v0 main_call6_call0.v1 (broadcastInDim S256 ![] bcast_S_S256),
    TRef.ternary main_call6.v12 main_call6.v11 main_call6_call0.v1 main_call6_call0.v2 (fun p a b => select (broadcastInDim S256 ![] bcast_S_S256 p) a b),
    unary main_v128 main_v130 (broadcastInDim S1x256 ![1] bcast_S256_S1x256_1 : (⟨S256, .f32⟩ : BufTy).Contents (Elt F) → (⟨S1x256, .f32⟩ : BufTy).Contents (Elt F)),
    unary main_v130 main_v131 (broadcastInDim S4096x256 ![0, 1] bcast_S1x256_S4096x256_0_1 : (⟨S1x256, .f32⟩ : BufTy).Contents (Elt F) → (⟨S4096x256, .f32⟩ : BufTy).Contents (Elt F)),
    binary main_v125 main_v131 main_v132 (subf : (⟨S4096x256, .f32⟩ : BufTy).Contents (Elt F) → (⟨S4096x256, .f32⟩ : BufTy).Contents (Elt F) → (⟨S4096x256, .f32⟩ : BufTy).Contents (Elt F)),
    nullary main_cst_13 (constant S_ .f32 0x3727C5AC#32),
    unary main_cst_13 main_v133 (broadcastInDim S256 ![] bcast_S_S256 : (⟨S_, .f32⟩ : BufTy).Contents (Elt F) → (⟨S256, .f32⟩ : BufTy).Contents (Elt F)),
    binary main_v129 main_v133 main_v134 (addf : (⟨S256, .f32⟩ : BufTy).Contents (Elt F) → (⟨S256, .f32⟩ : BufTy).Contents (Elt F) → (⟨S256, .f32⟩ : BufTy).Contents (Elt F)),
    unary main_v134 main_v135 (Host.rsqrt : (⟨S256, .f32⟩ : BufTy).Contents (Elt F) → (⟨S256, .f32⟩ : BufTy).Contents (Elt F)),
    unary main_v135 main_v136 (broadcastInDim S1x256 ![1] bcast_S256_S1x256_1 : (⟨S256, .f32⟩ : BufTy).Contents (Elt F) → (⟨S1x256, .f32⟩ : BufTy).Contents (Elt F)),
    unary main_v136 main_v137 (broadcastInDim S4096x256 ![0, 1] bcast_S1x256_S4096x256_0_1 : (⟨S1x256, .f32⟩ : BufTy).Contents (Elt F) → (⟨S4096x256, .f32⟩ : BufTy).Contents (Elt F)),
    binary main_v132 main_v137 main_v138 (mulf : (⟨S4096x256, .f32⟩ : BufTy).Contents (Elt F) → (⟨S4096x256, .f32⟩ : BufTy).Contents (Elt F) → (⟨S4096x256, .f32⟩ : BufTy).Contents (Elt F)),
    unary main_v117 main_v139 ((extractStridedSlice S1x256 ![0, 0] · slices_S2x256_S1x256_0_0) : (⟨S2x256, .f32⟩ : BufTy).Contents (Elt F) → (⟨S1x256, .f32⟩ : BufTy).Contents (Elt F)),
    reshape main_v139 main_v140 rfl shapeCasts_S1x256_S256,
    unary main_v140 main_v141 (broadcastInDim S1x256 ![1] bcast_S256_S1x256_1 : (⟨S256, .f32⟩ : BufTy).Contents (Elt F) → (⟨S1x256, .f32⟩ : BufTy).Contents (Elt F)),
    unary main_v141 main_v142 (broadcastInDim S4096x256 ![0, 1] bcast_S1x256_S4096x256_0_1 : (⟨S1x256, .f32⟩ : BufTy).Contents (Elt F) → (⟨S4096x256, .f32⟩ : BufTy).Contents (Elt F)),
    binary main_v138 main_v142 main_v143 (mulf : (⟨S4096x256, .f32⟩ : BufTy).Contents (Elt F) → (⟨S4096x256, .f32⟩ : BufTy).Contents (Elt F) → (⟨S4096x256, .f32⟩ : BufTy).Contents (Elt F)),
    unary main_v117 main_v144 ((extractStridedSlice S1x256 ![1, 0] · slices_S2x256_S1x256_1_0) : (⟨S2x256, .f32⟩ : BufTy).Contents (Elt F) → (⟨S1x256, .f32⟩ : BufTy).Contents (Elt F)),
    reshape main_v144 main_v145 rfl shapeCasts_S1x256_S256,
    unary main_v145 main_v146 (broadcastInDim S1x256 ![1] bcast_S256_S1x256_1 : (⟨S256, .f32⟩ : BufTy).Contents (Elt F) → (⟨S1x256, .f32⟩ : BufTy).Contents (Elt F)),
    unary main_v146 main_v147 (broadcastInDim S4096x256 ![0, 1] bcast_S1x256_S4096x256_0_1 : (⟨S1x256, .f32⟩ : BufTy).Contents (Elt F) → (⟨S4096x256, .f32⟩ : BufTy).Contents (Elt F)),
    binary main_v143 main_v147 main_v148 (addf : (⟨S4096x256, .f32⟩ : BufTy).Contents (Elt F) → (⟨S4096x256, .f32⟩ : BufTy).Contents (Elt F) → (⟨S4096x256, .f32⟩ : BufTy).Contents (Elt F)),
    TRef.nullary main_call7.cst (constant S_ .f32 0x00000000#32),
    TRef.unary main_call7.cst main_call7.v0 (broadcastInDim S4096x256 ![] bcast_S_S4096x256),
    TRef.binary (.of main_v148 : TRef sig ⟨S4096x256, .f32⟩) main_call7.v0 main_call7.v1 maximumf,
    unary main_v113 main_v150 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v150 main_v151 rfl shapeCasts_S1x256x256_S256x256,
    binary main_v149 main_v151 main_v152 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v115 main_v153 ((extractStridedSlice S1x256 ![1, 0] · slices_S2x256_S1x256_1_0) : (⟨S2x256, .f32⟩ : BufTy).Contents (Elt F) → (⟨S1x256, .f32⟩ : BufTy).Contents (Elt F)),
    reshape main_v153 main_v154 rfl shapeCasts_S1x256_S256,
    unary main_v154 main_v155 (broadcastInDim S1x256 ![1] bcast_S256_S1x256_1 : (⟨S256, .f32⟩ : BufTy).Contents (Elt F) → (⟨S1x256, .f32⟩ : BufTy).Contents (Elt F)),
    unary main_v155 main_v156 (broadcastInDim S4096x256 ![0, 1] bcast_S1x256_S4096x256_0_1 : (⟨S1x256, .f32⟩ : BufTy).Contents (Elt F) → (⟨S4096x256, .f32⟩ : BufTy).Contents (Elt F)),
    binary main_v152 main_v156 main_v157 (addf : (⟨S4096x256, .f32⟩ : BufTy).Contents (Elt F) → (⟨S4096x256, .f32⟩ : BufTy).Contents (Elt F) → (⟨S4096x256, .f32⟩ : BufTy).Contents (Elt F)),
    binary main_v82 main_v157 main_v158 (addf : (⟨S4096x256, .f32⟩ : BufTy).Contents (Elt F) → (⟨S4096x256, .f32⟩ : BufTy).Contents (Elt F) → (⟨S4096x256, .f32⟩ : BufTy).Contents (Elt F)),
    unary main_arg4 main_v159 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v159 main_v160 rfl shapeCasts_S1x256x256_S256x256,
    binary main_v157 main_v160 main_v161 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg5 main_v162 ((extractStridedSlice S1x256 ![0, 0] · slices_S2x256_S1x256_0_0) : (⟨S2x256, .f32⟩ : BufTy).Contents (Elt F) → (⟨S1x256, .f32⟩ : BufTy).Contents (Elt F)),
    reshape main_v162 main_v163 rfl shapeCasts_S1x256_S256 ]

set_option maxRecDepth 8192 in
set_option maxHeartbeats 4000000 in
/-- The window is that straight line: the called functions unfolded at their calls, sequencing reassociated. -/
theorem part2_eq (c : Dev nD) : main_part2 (F := F) c = seq opsW2 := by
  simp only [main_part2, fn_where.body, fn_where_0.body, fn_elu.body, fn_where_1.body, fn_var.body, fn_relu.body, seq, bind_assoc, pure_bind] <;> rfl

set_option maxRecDepth 8192 in
theorem opsW2_sub : (opsW2 : List (HloOp τ sig (Elt F))).Forall fun op => op.bufs ⊆ tcRefs τ sig :=
  ⟨unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub ..⟩

set_option maxRecDepth 8192 in
theorem opsW2_fresh : (opsW2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW2_writes : (opsW2 : List (HloOp τ sig (Elt F))).Forall (WritesIn 218 301) :=
  ⟨writesIn_single main_v108 _ rfl (by decide) (by decide),
   writesIn_single main_v109 _ rfl (by decide) (by decide),
   writesIn_single main_v110 _ rfl (by decide) (by decide),
   writesIn_single main_v111 _ rfl (by decide) (by decide),
   writesIn_single main_v112 _ rfl (by decide) (by decide),
   writesIn_single main_v113 _ rfl (by decide) (by decide),
   writesIn_single main_v114 _ rfl (by decide) (by decide),
   writesIn_single main_v115 _ rfl (by decide) (by decide),
   writesIn_single main_v116 _ rfl (by decide) (by decide),
   writesIn_single main_v117 _ rfl (by decide) (by decide),
   writesIn_single main_v118 _ rfl (by decide) (by decide),
   writesIn_single main_v119 _ rfl (by decide) (by decide),
   writesIn_single main_v120 _ rfl (by decide) (by decide),
   writesIn_single main_v121 _ rfl (by decide) (by decide),
   writesIn_single main_v122 _ rfl (by decide) (by decide),
   writesIn_single main_v123 _ rfl (by decide) (by decide),
   writesIn_single main_v124 _ rfl (by decide) (by decide),
   writesIn_single main_v125 _ rfl (by decide) (by decide),
   writesIn_single main_cst_10 _ rfl (by decide) (by decide),
   writesIn_single main_v126 _ rfl (by decide) (by decide),
   writesIn_single main_cst_11 _ rfl (by decide) (by decide),
   writesIn_single main_v127 _ rfl (by decide) (by decide),
   writesIn_single main_v128 _ rfl (by decide) (by decide),
   writesIn_single main_c_12 _ rfl (by decide) (by decide),
   writesIn_single main_call6_cst _ rfl (by decide) (by decide),
   writesIn_single main_call6_v0 _ rfl (by decide) (by decide),
   writesIn_single main_call6_v1 _ rfl (by decide) (by decide),
   writesIn_single main_call6_cst_0 _ rfl (by decide) (by decide),
   writesIn_single main_call6_v2 _ rfl (by decide) (by decide),
   writesIn_single main_call6_v3 _ rfl (by decide) (by decide),
   writesIn_single main_call6_v4 _ rfl (by decide) (by decide),
   writesIn_single main_call6_v5 _ rfl (by decide) (by decide),
   writesIn_single main_call6_v6 _ rfl (by decide) (by decide),
   writesIn_single main_call6_v7 _ rfl (by decide) (by decide),
   writesIn_single main_call6_cst_1 _ rfl (by decide) (by decide),
   writesIn_single main_call6_v8 _ rfl (by decide) (by decide),
   writesIn_single main_call6_cst_2 _ rfl (by decide) (by decide),
   writesIn_single main_call6_v9 _ rfl (by decide) (by decide),
   writesIn_single main_call6_v10 _ rfl (by decide) (by decide),
   writesIn_single main_call6_v11 _ rfl (by decide) (by decide),
   writesIn_single main_call6_cst_3 _ rfl (by decide) (by decide),
   writesIn_single main_call6_v12 _ rfl (by decide) (by decide),
   writesIn_single main_call6_cst_4 _ rfl (by decide) (by decide),
   writesIn_single main_call6_call0_v0 _ rfl (by decide) (by decide),
   writesIn_single main_call6_call0_v1 _ rfl (by decide) (by decide),
   writesIn_single main_v129 _ rfl (by decide) (by decide),
   writesIn_single main_v130 _ rfl (by decide) (by decide),
   writesIn_single main_v131 _ rfl (by decide) (by decide),
   writesIn_single main_v132 _ rfl (by decide) (by decide),
   writesIn_single main_cst_13 _ rfl (by decide) (by decide),
   writesIn_single main_v133 _ rfl (by decide) (by decide),
   writesIn_single main_v134 _ rfl (by decide) (by decide),
   writesIn_single main_v135 _ rfl (by decide) (by decide),
   writesIn_single main_v136 _ rfl (by decide) (by decide),
   writesIn_single main_v137 _ rfl (by decide) (by decide),
   writesIn_single main_v138 _ rfl (by decide) (by decide),
   writesIn_single main_v139 _ rfl (by decide) (by decide),
   writesIn_single main_v140 _ rfl (by decide) (by decide),
   writesIn_single main_v141 _ rfl (by decide) (by decide),
   writesIn_single main_v142 _ rfl (by decide) (by decide),
   writesIn_single main_v143 _ rfl (by decide) (by decide),
   writesIn_single main_v144 _ rfl (by decide) (by decide),
   writesIn_single main_v145 _ rfl (by decide) (by decide),
   writesIn_single main_v146 _ rfl (by decide) (by decide),
   writesIn_single main_v147 _ rfl (by decide) (by decide),
   writesIn_single main_v148 _ rfl (by decide) (by decide),
   writesIn_single main_call7_cst _ rfl (by decide) (by decide),
   writesIn_single main_call7_v0 _ rfl (by decide) (by decide),
   writesIn_single main_v149 _ rfl (by decide) (by decide),
   writesIn_single main_v150 _ rfl (by decide) (by decide),
   writesIn_single main_v151 _ rfl (by decide) (by decide),
   writesIn_single main_v152 _ rfl (by decide) (by decide),
   writesIn_single main_v153 _ rfl (by decide) (by decide),
   writesIn_single main_v154 _ rfl (by decide) (by decide),
   writesIn_single main_v155 _ rfl (by decide) (by decide),
   writesIn_single main_v156 _ rfl (by decide) (by decide),
   writesIn_single main_v157 _ rfl (by decide) (by decide),
   writesIn_single main_v158 _ rfl (by decide) (by decide),
   writesIn_single main_v159 _ rfl (by decide) (by decide),
   writesIn_single main_v160 _ rfl (by decide) (by decide),
   writesIn_single main_v161 _ rfl (by decide) (by decide),
   writesIn_single main_v162 _ rfl (by decide) (by decide),
   writesIn_single main_v163 _ rfl (by decide) (by decide)⟩

end Cert.ReferenceIdeal.Hand

end
-- ==== Proof.RefRunW03.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 283 … 391 of 1674 (window main_part3): they write the buffers 301 … 409 in order. -/
noncomputable abbrev opsW3 : List (HloOp τ sig (Elt F)) :=
  [ unary main_v163 main_v164 (broadcastInDim S1x256 ![1] bcast_S256_S1x256_1 : (⟨S256, .f32⟩ : BufTy).Contents (Elt F) → (⟨S1x256, .f32⟩ : BufTy).Contents (Elt F)),
    unary main_v164 main_v165 (broadcastInDim S4096x256 ![0, 1] bcast_S1x256_S4096x256_0_1 : (⟨S1x256, .f32⟩ : BufTy).Contents (Elt F) → (⟨S4096x256, .f32⟩ : BufTy).Contents (Elt F)),
    binary main_v161 main_v165 main_v166 (addf : (⟨S4096x256, .f32⟩ : BufTy).Contents (Elt F) → (⟨S4096x256, .f32⟩ : BufTy).Contents (Elt F) → (⟨S4096x256, .f32⟩ : BufTy).Contents (Elt F)),
    TRef.nullary main_call8.cst (constant S_ .f32 0x00000000#32),
    TRef.unary main_call8.cst main_call8.v0 (broadcastInDim S4096x256 ![] bcast_S_S4096x256),
    TRef.binary (.of main_v166 : TRef sig ⟨S4096x256, .f32⟩) main_call8.v0 main_call8.v1 (cmpf .ogt),
    TRef.nullary main_call8.cst_0 (constant S_ .f32 0x00000000#32),
    TRef.unary main_call8.cst_0 main_call8.v2 (broadcastInDim S4096x256 ![] bcast_S_S4096x256),
    TRef.binary (.of main_v166 : TRef sig ⟨S4096x256, .f32⟩) main_call8.v2 main_call8.v3 (cmpf .ogt),
    TRef.nullary main_call8.cst_1 (constant S_ .f32 0x00000000#32),
    TRef.unary main_call8.cst_1 main_call8_call0.v0 id,
    TRef.unary main_call8_call0.v0 main_call8_call0.v1 (broadcastInDim S4096x256 ![] bcast_S_S4096x256),
    TRef.ternary main_call8.v3 main_call8_call0.v1 (.of main_v166 : TRef sig ⟨S4096x256, .f32⟩) main_call8_call0.v2 select,
    TRef.unary main_call8.call0.v2 main_call8.v5 Host.expm1,
    TRef.nullary main_call8.cst_2 (constant S_ .f32 0x3F800000#32),
    TRef.unary main_call8.cst_2 main_call8.v6 (broadcastInDim S4096x256 ![] bcast_S_S4096x256),
    TRef.binary main_call8.v6 main_call8.v5 main_call8.v7 mulf,
    TRef.ternary main_call8.v1 (.of main_v166 : TRef sig ⟨S4096x256, .f32⟩) main_call8.v7 main_call8_call1.v0 select,
    unary main_arg4 main_v168 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v168 main_v169 rfl shapeCasts_S1x256x256_S256x256,
    binary main_v167 main_v169 main_v170 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg5 main_v171 ((extractStridedSlice S1x256 ![1, 0] · slices_S2x256_S1x256_1_0) : (⟨S2x256, .f32⟩ : BufTy).Contents (Elt F) → (⟨S1x256, .f32⟩ : BufTy).Contents (Elt F)),
    reshape main_v171 main_v172 rfl shapeCasts_S1x256_S256,
    unary main_v172 main_v173 (broadcastInDim S1x256 ![1] bcast_S256_S1x256_1 : (⟨S256, .f32⟩ : BufTy).Contents (Elt F) → (⟨S1x256, .f32⟩ : BufTy).Contents (Elt F)),
    unary main_v173 main_v174 (broadcastInDim S4096x256 ![0, 1] bcast_S1x256_S4096x256_0_1 : (⟨S1x256, .f32⟩ : BufTy).Contents (Elt F) → (⟨S4096x256, .f32⟩ : BufTy).Contents (Elt F)),
    binary main_v170 main_v174 main_v175 (addf : (⟨S4096x256, .f32⟩ : BufTy).Contents (Elt F) → (⟨S4096x256, .f32⟩ : BufTy).Contents (Elt F) → (⟨S4096x256, .f32⟩ : BufTy).Contents (Elt F)),
    TRef.nullary main_call9.cst (constant S_ .f32 0x00000000#32),
    TRef.unary main_call9.cst main_call9.v0 (broadcastInDim S4096x256 ![] bcast_S_S4096x256),
    TRef.binary (.of main_v175 : TRef sig ⟨S4096x256, .f32⟩) main_call9.v0 main_call9.v1 (cmpf .ogt),
    TRef.nullary main_call9.cst_0 (constant S_ .f32 0x00000000#32),
    TRef.unary main_call9.cst_0 main_call9.v2 (broadcastInDim S4096x256 ![] bcast_S_S4096x256),
    TRef.binary (.of main_v175 : TRef sig ⟨S4096x256, .f32⟩) main_call9.v2 main_call9.v3 (cmpf .ogt),
    TRef.nullary main_call9.cst_1 (constant S_ .f32 0x00000000#32),
    TRef.unary main_call9.cst_1 main_call9_call0.v0 id,
    TRef.unary main_call9_call0.v0 main_call9_call0.v1 (broadcastInDim S4096x256 ![] bcast_S_S4096x256),
    TRef.ternary main_call9.v3 main_call9_call0.v1 (.of main_v175 : TRef sig ⟨S4096x256, .f32⟩) main_call9_call0.v2 select,
    TRef.unary main_call9.call0.v2 main_call9.v5 Host.expm1,
    TRef.nullary main_call9.cst_2 (constant S_ .f32 0x3F800000#32),
    TRef.unary main_call9.cst_2 main_call9.v6 (broadcastInDim S4096x256 ![] bcast_S_S4096x256),
    TRef.binary main_call9.v6 main_call9.v5 main_call9.v7 mulf,
    TRef.ternary main_call9.v1 (.of main_v175 : TRef sig ⟨S4096x256, .f32⟩) main_call9.v7 main_call9_call1.v0 select,
    unary main_v176 main_v177 ((transpose S256x4096 [1, 0] · transposes_S4096x256_S256x4096_1_0) : (⟨S4096x256, .f32⟩ : BufTy).Contents (Elt F) → (⟨S256x4096, .f32⟩ : BufTy).Contents (Elt F)),
    binary main_v176 main_v177 main_v178 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_14 (constant S_ .f32 0x00000000#32),
    binary main_v178 main_cst_14 main_v179 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_15 (constant S_ .f32 0x4B800000#32),
    binary main_v179 main_cst_15 main_v180 (Host.divf : (⟨S_, .f32⟩ : BufTy).Contents (Elt F) → (⟨S_, .f32⟩ : BufTy).Contents (Elt F) → (⟨S_, .f32⟩ : BufTy).Contents (Elt F)),
    unary main_v180 main_v181 (broadcastInDim S4096x4096 ![] bcast_S_S4096x4096 : (⟨S_, .f32⟩ : BufTy).Contents (Elt F) → (⟨S4096x4096, .f32⟩ : BufTy).Contents (Elt F)),
    binary main_v178 main_v181 main_v182 (cmpf .ogt : (⟨S4096x4096, .f32⟩ : BufTy).Contents (Elt F) → (⟨S4096x4096, .f32⟩ : BufTy).Contents (Elt F) → (⟨S4096x4096, .i1⟩ : BufTy).Contents (Elt F)),
    unary main_v182 main_v183 (uitofp .f32 : (⟨S4096x4096, .i1⟩ : BufTy).Contents (Elt F) → (⟨S4096x4096, .f32⟩ : BufTy).Contents (Elt F)),
    nullary main_cst_16 (constant S_ .f32 0x3F800000#32),
    unary main_cst_16 main_v184 (broadcastInDim S4096x4096 ![] bcast_S_S4096x4096 : (⟨S_, .f32⟩ : BufTy).Contents (Elt F) → (⟨S4096x4096, .f32⟩ : BufTy).Contents (Elt F)),
    binary main_v184 main_v5 main_v185 (mulf : (⟨S4096x4096, .f32⟩ : BufTy).Contents (Elt F) → (⟨S4096x4096, .f32⟩ : BufTy).Contents (Elt F) → (⟨S4096x4096, .f32⟩ : BufTy).Contents (Elt F)),
    binary main_v183 main_v185 main_v186 (addf : (⟨S4096x4096, .f32⟩ : BufTy).Contents (Elt F) → (⟨S4096x4096, .f32⟩ : BufTy).Contents (Elt F) → (⟨S4096x4096, .f32⟩ : BufTy).Contents (Elt F)),
    binary main_v186 main_v157 main_v187 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg6 main_v188 ((extractStridedSlice S1x2x256x256 ![2, 0, 0, 0] · slices_S3x2x256x256_S1x2x256x256_2_0_0_0) : (⟨S3x2x256x256, .f32⟩ : BufTy).Contents (Elt F) → (⟨S1x2x256x256, .f32⟩ : BufTy).Contents (Elt F)),
    reshape main_v188 main_v189 rfl shapeCasts_S1x2x256x256_S2x256x256,
    unary main_arg7 main_v190 ((extractStridedSlice S1x2x256 ![2, 0, 0] · slices_S3x2x256_S1x2x256_2_0_0) : (⟨S3x2x256, .f32⟩ : BufTy).Contents (Elt F) → (⟨S1x2x256, .f32⟩ : BufTy).Contents (Elt F)),
    reshape main_v190 main_v191 rfl shapeCasts_S1x2x256_S2x256,
    unary main_arg8 main_v192 ((extractStridedSlice S1x2x256 ![2, 0, 0] · slices_S3x2x256_S1x2x256_2_0_0) : (⟨S3x2x256, .f32⟩ : BufTy).Contents (Elt F) → (⟨S1x2x256, .f32⟩ : BufTy).Contents (Elt F)),
    reshape main_v192 main_v193 rfl shapeCasts_S1x2x256_S2x256,
    unary main_v189 main_v194 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v194 main_v195 rfl shapeCasts_S1x256x256_S256x256,
    binary main_v187 main_v195 main_v196 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v191 main_v197 ((extractStridedSlice S1x256 ![0, 0] · slices_S2x256_S1x256_0_0) : (⟨S2x256, .f32⟩ : BufTy).Contents (Elt F) → (⟨S1x256, .f32⟩ : BufTy).Contents (Elt F)),
    reshape main_v197 main_v198 rfl shapeCasts_S1x256_S256,
    unary main_v198 main_v199 (broadcastInDim S1x256 ![1] bcast_S256_S1x256_1 : (⟨S256, .f32⟩ : BufTy).Contents (Elt F) → (⟨S1x256, .f32⟩ : BufTy).Contents (Elt F)),
    unary main_v199 main_v200 (broadcastInDim S4096x256 ![0, 1] bcast_S1x256_S4096x256_0_1 : (⟨S1x256, .f32⟩ : BufTy).Contents (Elt F) → (⟨S4096x256, .f32⟩ : BufTy).Contents (Elt F)),
    binary main_v196 main_v200 main_v201 (addf : (⟨S4096x256, .f32⟩ : BufTy).Contents (Elt F) → (⟨S4096x256, .f32⟩ : BufTy).Contents (Elt F) → (⟨S4096x256, .f32⟩ : BufTy).Contents (Elt F)),
    nullary main_cst_17 (constant S_ .f32 0x00000000#32),
    binary main_v201 main_cst_17 main_v202 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_18 (constant S_ .f32 0x45800000#32),
    unary main_cst_18 main_v203 (broadcastInDim S256 ![] bcast_S_S256 : (⟨S_, .f32⟩ : BufTy).Contents (Elt F) → (⟨S256, .f32⟩ : BufTy).Contents (Elt F)),
    binary main_v202 main_v203 main_v204 (Host.divf : (⟨S256, .f32⟩ : BufTy).Contents (Elt F) → (⟨S256, .f32⟩ : BufTy).Contents (Elt F) → (⟨S256, .f32⟩ : BufTy).Contents (Elt F)),
    nullary main_c_19 (constantI S_ 32 0#32),
    TRef.nullary main_call10.cst (constant S_ .f32 0x00000000#32),
    TRef.binary (.of main_v201 : TRef sig ⟨S4096x256, .f32⟩) main_call10.cst main_call10.v0 (fun x v => Host.reduceAdd x v reducesTo_S4096x256_S256_d0 h_S_),
    TRef.unary main_call10.v0 main_call10.v1 (broadcastInDim S1x256 ![1] bcast_S256_S1x256_1),
    TRef.nullary main_call10.cst_0 (constant S_ .f32 0x45800000#32),
    TRef.unary main_call10.cst_0 main_call10.v2 (broadcastInDim S1x256 ![] bcast_S_S1x256),
    TRef.binary main_call10.v1 main_call10.v2 main_call10.v3 Host.divf,
    TRef.unary main_call10.v3 main_call10.v4 (broadcastInDim S4096x256 ![0, 1] bcast_S1x256_S4096x256_0_1),
    TRef.binary (.of main_v201 : TRef sig ⟨S4096x256, .f32⟩) main_call10.v4 main_call10.v5 subf,
    TRef.binary main_call10.v5 main_call10.v5 main_call10.v6 mulf,
    TRef.unary (.of main_c_19 : TRef sig ⟨S_, .i32⟩) main_call10.v7 (sitofp .f32),
    TRef.nullary main_call10.cst_1 (constant S_ .f32 0x45800000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S4096x256_S256_d0 h_S_),
    TRef.unary main_call10.v8 main_call10.v10 (broadcastInDim S256 ![] bcast_S_S256),
    TRef.binary main_call10.v9 main_call10.v10 main_call10.v11 Host.divf,
    TRef.nullary main_call10.cst_3 (constant S_ .f32 0x00000000#32),
    TRef.binary main_call10.v8 main_call10.cst_3 main_call10.v12 (cmpf .ogt),
    TRef.nullary main_call10.cst_4 (constant S_ .f32 0x7FC00000#32),
    TRef.unary main_call10.cst_4 main_call10_call0.v0 id,
    TRef.unary main_call10_call0.v0 main_call10_call0.v1 (broadcastInDim S256 ![] bcast_S_S256),
    TRef.ternary main_call10.v12 main_call10.v11 main_call10_call0.v1 main_call10_call0.v2 (fun p a b => select (broadcastInDim S256 ![] bcast_S_S256 p) a b),
    unary main_v204 main_v206 (broadcastInDim S1x256 ![1] bcast_S256_S1x256_1 : (⟨S256, .f32⟩ : BufTy).Contents (Elt F) → (⟨S1x256, .f32⟩ : BufTy).Contents (Elt F)),
    unary main_v206 main_v207 (broadcastInDim S4096x256 ![0, 1] bcast_S1x256_S4096x256_0_1 : (⟨S1x256, .f32⟩ : BufTy).Contents (Elt F) → (⟨S4096x256, .f32⟩ : BufTy).Contents (Elt F)),
    binary main_v201 main_v207 main_v208 (subf : (⟨S4096x256, .f32⟩ : BufTy).Contents (Elt F) → (⟨S4096x256, .f32⟩ : BufTy).Contents (Elt F) → (⟨S4096x256, .f32⟩ : BufTy).Contents (Elt F)),
    nullary main_cst_20 (constant S_ .f32 0x3727C5AC#32),
    unary main_cst_20 main_v209 (broadcastInDim S256 ![] bcast_S_S256 : (⟨S_, .f32⟩ : BufTy).Contents (Elt F) → (⟨S256, .f32⟩ : BufTy).Contents (Elt F)),
    binary main_v205 main_v209 main_v210 (addf : (⟨S256, .f32⟩ : BufTy).Contents (Elt F) → (⟨S256, .f32⟩ : BufTy).Contents (Elt F) → (⟨S256, .f32⟩ : BufTy).Contents (Elt F)),
    unary main_v210 main_v211 (Host.rsqrt : (⟨S256, .f32⟩ : BufTy).Contents (Elt F) → (⟨S256, .f32⟩ : BufTy).Contents (Elt F)),
    unary main_v211 main_v212 (broadcastInDim S1x256 ![1] bcast_S256_S1x256_1 : (⟨S256, .f32⟩ : BufTy).Contents (Elt F) → (⟨S1x256, .f32⟩ : BufTy).Contents (Elt F)),
    unary main_v212 main_v213 (broadcastInDim S4096x256 ![0, 1] bcast_S1x256_S4096x256_0_1 : (⟨S1x256, .f32⟩ : BufTy).Contents (Elt F) → (⟨S4096x256, .f32⟩ : BufTy).Contents (Elt F)),
    binary main_v208 main_v213 main_v214 (mulf : (⟨S4096x256, .f32⟩ : BufTy).Contents (Elt F) → (⟨S4096x256, .f32⟩ : BufTy).Contents (Elt F) → (⟨S4096x256, .f32⟩ : BufTy).Contents (Elt F)),
    unary main_v193 main_v215 ((extractStridedSlice S1x256 ![0, 0] · slices_S2x256_S1x256_0_0) : (⟨S2x256, .f32⟩ : BufTy).Contents (Elt F) → (⟨S1x256, .f32⟩ : BufTy).Contents (Elt F)),
    reshape main_v215 main_v216 rfl shapeCasts_S1x256_S256 ]

set_option maxRecDepth 8192 in
set_option maxHeartbeats 4000000 in
/-- The window is that straight line: the called functions unfolded at their calls, sequencing reassociated. -/
theorem part3_eq (c : Dev nD) : main_part3 (F := F) c = seq opsW3 := by
  simp only [main_part3, fn_where.body, fn_where_0.body, fn_elu.body, fn_where_1.body, fn_var.body, fn_relu.body, seq, bind_assoc, pure_bind] <;> rfl

set_option maxRecDepth 8192 in
theorem opsW3_sub : (opsW3 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., nullary_bufs_sub .., binary_bufs_sub .., nullary_bufs_sub .., binary_bufs_sub .., unary_bufs_sub .., binary_bufs_sub .., unary_bufs_sub .., nullary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub ..⟩

set_option maxRecDepth 8192 in
theorem opsW3_fresh : (opsW3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW3_writes : (opsW3 : List (HloOp τ sig (Elt F))).Forall (WritesIn 301 410) :=
  ⟨writesIn_single main_v164 _ rfl (by decide) (by decide),
   writesIn_single main_v165 _ rfl (by decide) (by decide),
   writesIn_single main_v166 _ rfl (by decide) (by decide),
   writesIn_single main_call8_cst _ rfl (by decide) (by decide),
   writesIn_single main_call8_v0 _ rfl (by decide) (by decide),
   writesIn_single main_call8_v1 _ rfl (by decide) (by decide),
   writesIn_single main_call8_cst_0 _ rfl (by decide) (by decide),
   writesIn_single main_call8_v2 _ rfl (by decide) (by decide),
   writesIn_single main_call8_v3 _ rfl (by decide) (by decide),
   writesIn_single main_call8_cst_1 _ rfl (by decide) (by decide),
   writesIn_single main_call8_call0_v0 _ rfl (by decide) (by decide),
   writesIn_single main_call8_call0_v1 _ rfl (by decide) (by decide),
   writesIn_single main_call8_v4 _ rfl (by decide) (by decide),
   writesIn_single main_call8_v5 _ rfl (by decide) (by decide),
   writesIn_single main_call8_cst_2 _ rfl (by decide) (by decide),
   writesIn_single main_call8_v6 _ rfl (by decide) (by decide),
   writesIn_single main_call8_v7 _ rfl (by decide) (by decide),
   writesIn_single main_v167 _ rfl (by decide) (by decide),
   writesIn_single main_v168 _ rfl (by decide) (by decide),
   writesIn_single main_v169 _ rfl (by decide) (by decide),
   writesIn_single main_v170 _ rfl (by decide) (by decide),
   writesIn_single main_v171 _ rfl (by decide) (by decide),
   writesIn_single main_v172 _ rfl (by decide) (by decide),
   writesIn_single main_v173 _ rfl (by decide) (by decide),
   writesIn_single main_v174 _ rfl (by decide) (by decide),
   writesIn_single main_v175 _ rfl (by decide) (by decide),
   writesIn_single main_call9_cst _ rfl (by decide) (by decide),
   writesIn_single main_call9_v0 _ rfl (by decide) (by decide),
   writesIn_single main_call9_v1 _ rfl (by decide) (by decide),
   writesIn_single main_call9_cst_0 _ rfl (by decide) (by decide),
   writesIn_single main_call9_v2 _ rfl (by decide) (by decide),
   writesIn_single main_call9_v3 _ rfl (by decide) (by decide),
   writesIn_single main_call9_cst_1 _ rfl (by decide) (by decide),
   writesIn_single main_call9_call0_v0 _ rfl (by decide) (by decide),
   writesIn_single main_call9_call0_v1 _ rfl (by decide) (by decide),
   writesIn_single main_call9_v4 _ rfl (by decide) (by decide),
   writesIn_single main_call9_v5 _ rfl (by decide) (by decide),
   writesIn_single main_call9_cst_2 _ rfl (by decide) (by decide),
   writesIn_single main_call9_v6 _ rfl (by decide) (by decide),
   writesIn_single main_call9_v7 _ rfl (by decide) (by decide),
   writesIn_single main_v176 _ rfl (by decide) (by decide),
   writesIn_single main_v177 _ rfl (by decide) (by decide),
   writesIn_single main_v178 _ rfl (by decide) (by decide),
   writesIn_single main_cst_14 _ rfl (by decide) (by decide),
   writesIn_single main_v179 _ rfl (by decide) (by decide),
   writesIn_single main_cst_15 _ rfl (by decide) (by decide),
   writesIn_single main_v180 _ rfl (by decide) (by decide),
   writesIn_single main_v181 _ rfl (by decide) (by decide),
   writesIn_single main_v182 _ rfl (by decide) (by decide),
   writesIn_single main_v183 _ rfl (by decide) (by decide),
   writesIn_single main_cst_16 _ rfl (by decide) (by decide),
   writesIn_single main_v184 _ rfl (by decide) (by decide),
   writesIn_single main_v185 _ rfl (by decide) (by decide),
   writesIn_single main_v186 _ rfl (by decide) (by decide),
   writesIn_single main_v187 _ rfl (by decide) (by decide),
   writesIn_single main_v188 _ rfl (by decide) (by decide),
   writesIn_single main_v189 _ rfl (by decide) (by decide),
   writesIn_single main_v190 _ rfl (by decide) (by decide),
   writesIn_single main_v191 _ rfl (by decide) (by decide),
   writesIn_single main_v192 _ rfl (by decide) (by decide),
   writesIn_single main_v193 _ rfl (by decide) (by decide),
   writesIn_single main_v194 _ rfl (by decide) (by decide),
   writesIn_single main_v195 _ rfl (by decide) (by decide),
   writesIn_single main_v196 _ rfl (by decide) (by decide),
   writesIn_single main_v197 _ rfl (by decide) (by decide),
   writesIn_single main_v198 _ rfl (by decide) (by decide),
   writesIn_single main_v199 _ rfl (by decide) (by decide),
   writesIn_single main_v200 _ rfl (by decide) (by decide),
   writesIn_single main_v201 _ rfl (by decide) (by decide),
   writesIn_single main_cst_17 _ rfl (by decide) (by decide),
   writesIn_single main_v202 _ rfl (by decide) (by decide),
   writesIn_single main_cst_18 _ rfl (by decide) (by decide),
   writesIn_single main_v203 _ rfl (by decide) (by decide),
   writesIn_single main_v204 _ rfl (by decide) (by decide),
   writesIn_single main_c_19 _ rfl (by decide) (by decide),
   writesIn_single main_call10_cst _ rfl (by decide) (by decide),
   writesIn_single main_call10_v0 _ rfl (by decide) (by decide),
   writesIn_single main_call10_v1 _ rfl (by decide) (by decide),
   writesIn_single main_call10_cst_0 _ rfl (by decide) (by decide),
   writesIn_single main_call10_v2 _ rfl (by decide) (by decide),
   writesIn_single main_call10_v3 _ rfl (by decide) (by decide),
   writesIn_single main_call10_v4 _ rfl (by decide) (by decide),
   writesIn_single main_call10_v5 _ rfl (by decide) (by decide),
   writesIn_single main_call10_v6 _ rfl (by decide) (by decide),
   writesIn_single main_call10_v7 _ rfl (by decide) (by decide),
   writesIn_single main_call10_cst_1 _ rfl (by decide) (by decide),
   writesIn_single main_call10_v8 _ rfl (by decide) (by decide),
   writesIn_single main_call10_cst_2 _ rfl (by decide) (by decide),
   writesIn_single main_call10_v9 _ rfl (by decide) (by decide),
   writesIn_single main_call10_v10 _ rfl (by decide) (by decide),
   writesIn_single main_call10_v11 _ rfl (by decide) (by decide),
   writesIn_single main_call10_cst_3 _ rfl (by decide) (by decide),
   writesIn_single main_call10_v12 _ rfl (by decide) (by decide),
   writesIn_single main_call10_cst_4 _ rfl (by decide) (by decide),
   writesIn_single main_call10_call0_v0 _ rfl (by decide) (by decide),
   writesIn_single main_call10_call0_v1 _ rfl (by decide) (by decide),
   writesIn_single main_v205 _ rfl (by decide) (by decide),
   writesIn_single main_v206 _ rfl (by decide) (by decide),
   writesIn_single main_v207 _ rfl (by decide) (by decide),
   writesIn_single main_v208 _ rfl (by decide) (by decide),
   writesIn_single main_cst_20 _ rfl (by decide) (by decide),
   writesIn_single main_v209 _ rfl (by decide) (by decide),
   writesIn_single main_v210 _ rfl (by decide) (by decide),
   writesIn_single main_v211 _ rfl (by decide) (by decide),
   writesIn_single main_v212 _ rfl (by decide) (by decide),
   writesIn_single main_v213 _ rfl (by decide) (by decide),
   writesIn_single main_v214 _ rfl (by decide) (by decide),
   writesIn_single main_v215 _ rfl (by decide) (by decide),
   writesIn_single main_v216 _ rfl (by decide) (by decide)⟩

end Cert.ReferenceIdeal.Hand

end
-- ==== Proof.RefRunW04.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 392 … 481 of 1674 (window main_part4): they write the buffers 410 … 499 in order. -/
noncomputable abbrev opsW4 : List (HloOp τ sig (Elt F)) :=
  [ unary main_v216 main_v217 (broadcastInDim S1x256 ![1] bcast_S256_S1x256_1 : (⟨S256, .f32⟩ : BufTy).Contents (Elt F) → (⟨S1x256, .f32⟩ : BufTy).Contents (Elt F)),
    unary main_v217 main_v218 (broadcastInDim S4096x256 ![0, 1] bcast_S1x256_S4096x256_0_1 : (⟨S1x256, .f32⟩ : BufTy).Contents (Elt F) → (⟨S4096x256, .f32⟩ : BufTy).Contents (Elt F)),
    binary main_v214 main_v218 main_v219 (mulf : (⟨S4096x256, .f32⟩ : BufTy).Contents (Elt F) → (⟨S4096x256, .f32⟩ : BufTy).Contents (Elt F) → (⟨S4096x256, .f32⟩ : BufTy).Contents (Elt F)),
    unary main_v193 main_v220 ((extractStridedSlice S1x256 ![1, 0] · slices_S2x256_S1x256_1_0) : (⟨S2x256, .f32⟩ : BufTy).Contents (Elt F) → (⟨S1x256, .f32⟩ : BufTy).Contents (Elt F)),
    reshape main_v220 main_v221 rfl shapeCasts_S1x256_S256,
    unary main_v221 main_v222 (broadcastInDim S1x256 ![1] bcast_S256_S1x256_1 : (⟨S256, .f32⟩ : BufTy).Contents (Elt F) → (⟨S1x256, .f32⟩ : BufTy).Contents (Elt F)),
    unary main_v222 main_v223 (broadcastInDim S4096x256 ![0, 1] bcast_S1x256_S4096x256_0_1 : (⟨S1x256, .f32⟩ : BufTy).Contents (Elt F) → (⟨S4096x256, .f32⟩ : BufTy).Contents (Elt F)),
    binary main_v219 main_v223 main_v224 (addf : (⟨S4096x256, .f32⟩ : BufTy).Contents (Elt F) → (⟨S4096x256, .f32⟩ : BufTy).Contents (Elt F) → (⟨S4096x256, .f32⟩ : BufTy).Contents (Elt F)),
    TRef.nullary main_call11.cst (constant S_ .f32 0x00000000#32),
    TRef.unary main_call11.cst main_call11.v0 (broadcastInDim S4096x256 ![] bcast_S_S4096x256),
    TRef.binary (.of main_v224 : TRef sig ⟨S4096x256, .f32⟩) main_call11.v0 main_call11.v1 maximumf,
    unary main_v189 main_v226 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v226 main_v227 rfl shapeCasts_S1x256x256_S256x256,
    binary main_v225 main_v227 main_v228 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v191 main_v229 ((extractStridedSlice S1x256 ![1, 0] · slices_S2x256_S1x256_1_0) : (⟨S2x256, .f32⟩ : BufTy).Contents (Elt F) → (⟨S1x256, .f32⟩ : BufTy).Contents (Elt F)),
    reshape main_v229 main_v230 rfl shapeCasts_S1x256_S256,
    unary main_v230 main_v231 (broadcastInDim S1x256 ![1] bcast_S256_S1x256_1 : (⟨S256, .f32⟩ : BufTy).Contents (Elt F) → (⟨S1x256, .f32⟩ : BufTy).Contents (Elt F)),
    unary main_v231 main_v232 (broadcastInDim S4096x256 ![0, 1] bcast_S1x256_S4096x256_0_1 : (⟨S1x256, .f32⟩ : BufTy).Contents (Elt F) → (⟨S4096x256, .f32⟩ : BufTy).Contents (Elt F)),
    binary main_v228 main_v232 main_v233 (addf : (⟨S4096x256, .f32⟩ : BufTy).Contents (Elt F) → (⟨S4096x256, .f32⟩ : BufTy).Contents (Elt F) → (⟨S4096x256, .f32⟩ : BufTy).Contents (Elt F)),
    binary main_v158 main_v233 main_v234 (addf : (⟨S4096x256, .f32⟩ : BufTy).Contents (Elt F) → (⟨S4096x256, .f32⟩ : BufTy).Contents (Elt F) → (⟨S4096x256, .f32⟩ : BufTy).Contents (Elt F)),
    nullary main_cst_21 (constant S_ .f32 0x40400000#32),
    unary main_cst_21 main_v235 (broadcastInDim S4096x256 ![] bcast_S_S4096x256 : (⟨S_, .f32⟩ : BufTy).Contents (Elt F) → (⟨S4096x256, .f32⟩ : BufTy).Contents (Elt F)),
    binary main_v234 main_v235 main_v236 (Host.divf : (⟨S4096x256, .f32⟩ : BufTy).Contents (Elt F) → (⟨S4096x256, .f32⟩ : BufTy).Contents (Elt F) → (⟨S4096x256, .f32⟩ : BufTy).Contents (Elt F)),
    nullary main_v237 (iotaInDim S4096x4096 32 0),
    nullary main_v238 (iotaInDim S4096x4096 32 1),
    nullary main_c_22 (constantI S_ 32 0#32),
    unary main_c_22 main_v239 (broadcastInDim S4096x4096 ![] bcast_S_S4096x4096 : (⟨S_, .i32⟩ : BufTy).Contents (Elt F) → (⟨S4096x4096, .i32⟩ : BufTy).Contents (Elt F)),
    binary main_v237 main_v239 main_v240 (addi : (⟨S4096x4096, .i32⟩ : BufTy).Contents (Elt F) → (⟨S4096x4096, .i32⟩ : BufTy).Contents (Elt F) → (⟨S4096x4096, .i32⟩ : BufTy).Contents (Elt F)),
    binary main_v240 main_v238 main_v241 (cmpi .eq : (⟨S4096x4096, .i32⟩ : BufTy).Contents (Elt F) → (⟨S4096x4096, .i32⟩ : BufTy).Contents (Elt F) → (⟨S4096x4096, .i1⟩ : BufTy).Contents (Elt F)),
    unary main_v241 main_v242 (uitofp .f32 : (⟨S4096x4096, .i1⟩ : BufTy).Contents (Elt F) → (⟨S4096x4096, .f32⟩ : BufTy).Contents (Elt F)),
    nullary main_cst_23 (constant S_ .f32 0x00000000#32),
    unary main_cst_23 main_v243 (broadcastInDim S4096x256 ![] bcast_S_S4096x256 : (⟨S_, .f32⟩ : BufTy).Contents (Elt F) → (⟨S4096x256, .f32⟩ : BufTy).Contents (Elt F)),
    unary main_arg9 main_v244 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v244 main_v245 rfl shapeCasts_S1x256x256_S256x256,
    binary main_arg1 main_v245 main_v246 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v247 ((extractStridedSlice S1x256 ![0, 0] · slices_S2x256_S1x256_0_0) : (⟨S2x256, .f32⟩ : BufTy).Contents (Elt F) → (⟨S1x256, .f32⟩ : BufTy).Contents (Elt F)),
    reshape main_v247 main_v248 rfl shapeCasts_S1x256_S256,
    unary main_v248 main_v249 (broadcastInDim S1x256 ![1] bcast_S256_S1x256_1 : (⟨S256, .f32⟩ : BufTy).Contents (Elt F) → (⟨S1x256, .f32⟩ : BufTy).Contents (Elt F)),
    unary main_v249 main_v250 (broadcastInDim S4096x256 ![0, 1] bcast_S1x256_S4096x256_0_1 : (⟨S1x256, .f32⟩ : BufTy).Contents (Elt F) → (⟨S4096x256, .f32⟩ : BufTy).Contents (Elt F)),
    binary main_v246 main_v250 main_v251 (addf : (⟨S4096x256, .f32⟩ : BufTy).Contents (Elt F) → (⟨S4096x256, .f32⟩ : BufTy).Contents (Elt F) → (⟨S4096x256, .f32⟩ : BufTy).Contents (Elt F)),
    TRef.nullary main_call12.cst (constant S_ .f32 0x00000000#32),
    TRef.unary main_call12.cst main_call12.v0 (broadcastInDim S4096x256 ![] bcast_S_S4096x256),
    TRef.binary (.of main_v251 : TRef sig ⟨S4096x256, .f32⟩) main_call12.v0 main_call12.v1 (cmpf .ogt),
    TRef.nullary main_call12.cst_0 (constant S_ .f32 0x00000000#32),
    TRef.unary main_call12.cst_0 main_call12.v2 (broadcastInDim S4096x256 ![] bcast_S_S4096x256),
    TRef.binary (.of main_v251 : TRef sig ⟨S4096x256, .f32⟩) main_call12.v2 main_call12.v3 (cmpf .ogt),
    TRef.nullary main_call12.cst_1 (constant S_ .f32 0x00000000#32),
    TRef.unary main_call12.cst_1 main_call12_call0.v0 id,
    TRef.unary main_call12_call0.v0 main_call12_call0.v1 (broadcastInDim S4096x256 ![] bcast_S_S4096x256),
    TRef.ternary main_call12.v3 main_call12_call0.v1 (.of main_v251 : TRef sig ⟨S4096x256, .f32⟩) main_call12_call0.v2 select,
    TRef.unary main_call12.call0.v2 main_call12.v5 Host.expm1,
    TRef.nullary main_call12.cst_2 (constant S_ .f32 0x3F800000#32),
    TRef.unary main_call12.cst_2 main_call12.v6 (broadcastInDim S4096x256 ![] bcast_S_S4096x256),
    TRef.binary main_call12.v6 main_call12.v5 main_call12.v7 mulf,
    TRef.ternary main_call12.v1 (.of main_v251 : TRef sig ⟨S4096x256, .f32⟩) main_call12.v7 main_call12_call1.v0 select,
    unary main_arg9 main_v253 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v253 main_v254 rfl shapeCasts_S1x256x256_S256x256,
    binary main_v252 main_v254 main_v255 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v256 ((extractStridedSlice S1x256 ![1, 0] · slices_S2x256_S1x256_1_0) : (⟨S2x256, .f32⟩ : BufTy).Contents (Elt F) → (⟨S1x256, .f32⟩ : BufTy).Contents (Elt F)),
    reshape main_v256 main_v257 rfl shapeCasts_S1x256_S256,
    unary main_v257 main_v258 (broadcastInDim S1x256 ![1] bcast_S256_S1x256_1 : (⟨S256, .f32⟩ : BufTy).Contents (Elt F) → (⟨S1x256, .f32⟩ : BufTy).Contents (Elt F)),
    unary main_v258 main_v259 (broadcastInDim S4096x256 ![0, 1] bcast_S1x256_S4096x256_0_1 : (⟨S1x256, .f32⟩ : BufTy).Contents (Elt F) → (⟨S4096x256, .f32⟩ : BufTy).Contents (Elt F)),
    binary main_v255 main_v259 main_v260 (addf : (⟨S4096x256, .f32⟩ : BufTy).Contents (Elt F) → (⟨S4096x256, .f32⟩ : BufTy).Contents (Elt F) → (⟨S4096x256, .f32⟩ : BufTy).Contents (Elt F)),
    TRef.nullary main_call13.cst (constant S_ .f32 0x00000000#32),
    TRef.unary main_call13.cst main_call13.v0 (broadcastInDim S4096x256 ![] bcast_S_S4096x256),
    TRef.binary (.of main_v260 : TRef sig ⟨S4096x256, .f32⟩) main_call13.v0 main_call13.v1 (cmpf .ogt),
    TRef.nullary main_call13.cst_0 (constant S_ .f32 0x00000000#32),
    TRef.unary main_call13.cst_0 main_call13.v2 (broadcastInDim S4096x256 ![] bcast_S_S4096x256),
    TRef.binary (.of main_v260 : TRef sig ⟨S4096x256, .f32⟩) main_call13.v2 main_call13.v3 (cmpf .ogt),
    TRef.nullary main_call13.cst_1 (constant S_ .f32 0x00000000#32),
    TRef.unary main_call13.cst_1 main_call13_call0.v0 id,
    TRef.unary main_call13_call0.v0 main_call13_call0.v1 (broadcastInDim S4096x256 ![] bcast_S_S4096x256),
    TRef.ternary main_call13.v3 main_call13_call0.v1 (.of main_v260 : TRef sig ⟨S4096x256, .f32⟩) main_call13_call0.v2 select,
    TRef.unary main_call13.call0.v2 main_call13.v5 Host.expm1,
    TRef.nullary main_call13.cst_2 (constant S_ .f32 0x3F800000#32),
    TRef.unary main_call13.cst_2 main_call13.v6 (broadcastInDim S4096x256 ![] bcast_S_S4096x256),
    TRef.binary main_call13.v6 main_call13.v5 main_call13.v7 mulf,
    TRef.ternary main_call13.v1 (.of main_v260 : TRef sig ⟨S4096x256, .f32⟩) main_call13.v7 main_call13_call1.v0 select,
    unary main_v261 main_v262 ((transpose S256x4096 [1, 0] · transposes_S4096x256_S256x4096_1_0) : (⟨S4096x256, .f32⟩ : BufTy).Contents (Elt F) → (⟨S256x4096, .f32⟩ : BufTy).Contents (Elt F)),
    binary main_v261 main_v262 main_v263 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_24 (constant S_ .f32 0x00000000#32),
    binary main_v263 main_cst_24 main_v264 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_25 (constant S_ .f32 0x4B800000#32),
    binary main_v264 main_cst_25 main_v265 (Host.divf : (⟨S_, .f32⟩ : BufTy).Contents (Elt F) → (⟨S_, .f32⟩ : BufTy).Contents (Elt F) → (⟨S_, .f32⟩ : BufTy).Contents (Elt F)),
    unary main_v265 main_v266 (broadcastInDim S4096x4096 ![] bcast_S_S4096x4096 : (⟨S_, .f32⟩ : BufTy).Contents (Elt F) → (⟨S4096x4096, .f32⟩ : BufTy).Contents (Elt F)),
    binary main_v263 main_v266 main_v267 (cmpf .ogt : (⟨S4096x4096, .f32⟩ : BufTy).Contents (Elt F) → (⟨S4096x4096, .f32⟩ : BufTy).Contents (Elt F) → (⟨S4096x4096, .i1⟩ : BufTy).Contents (Elt F)),
    unary main_v267 main_v268 (uitofp .f32 : (⟨S4096x4096, .i1⟩ : BufTy).Contents (Elt F) → (⟨S4096x4096, .f32⟩ : BufTy).Contents (Elt F)),
    nullary main_cst_26 (constant S_ .f32 0x3F800000#32),
    unary main_cst_26 main_v269 (broadcastInDim S4096x4096 ![] bcast_S_S4096x4096 : (⟨S_, .f32⟩ : BufTy).Contents (Elt F) → (⟨S4096x4096, .f32⟩ : BufTy).Contents (Elt F)),
    binary main_v269 main_v242 main_v270 (mulf : (⟨S4096x4096, .f32⟩ : BufTy).Contents (Elt F) → (⟨S4096x4096, .f32⟩ : BufTy).Contents (Elt F) → (⟨S4096x4096, .f32⟩ : BufTy).Contents (Elt F)) ]

set_option maxRecDepth 8192 in
set_option maxHeartbeats 4000000 in
/-- The window is that straight line: the called functions unfolded at their calls, sequencing reassociated. -/
theorem part4_eq (c : Dev nD) : main_part4 (F := F) c = seq opsW4 := by
  simp only [main_part4, fn_where.body, fn_where_0.body, fn_elu.body, fn_where_1.body, fn_var.body, fn_relu.body, seq, bind_assoc, pure_bind] <;> rfl

set_option maxRecDepth 8192 in
theorem opsW4_sub : (opsW4 : List (HloOp τ sig (Elt F))).Forall fun op => op.bufs ⊆ tcRefs τ sig :=
  ⟨unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., nullary_bufs_sub .., binary_bufs_sub .., nullary_bufs_sub .., binary_bufs_sub .., unary_bufs_sub .., binary_bufs_sub .., unary_bufs_sub .., nullary_bufs_sub .., unary_bufs_sub .., binary_bufs_sub ..⟩

set_option maxRecDepth 8192 in
theorem opsW4_fresh : (opsW4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW4_writes : (opsW4 : List (HloOp τ sig (Elt F))).Forall (WritesIn 410 500) :=
  ⟨writesIn_single main_v217 _ rfl (by decide) (by decide),
   writesIn_single main_v218 _ rfl (by decide) (by decide),
   writesIn_single main_v219 _ rfl (by decide) (by decide),
   writesIn_single main_v220 _ rfl (by decide) (by decide),
   writesIn_single main_v221 _ rfl (by decide) (by decide),
   writesIn_single main_v222 _ rfl (by decide) (by decide),
   writesIn_single main_v223 _ rfl (by decide) (by decide),
   writesIn_single main_v224 _ rfl (by decide) (by decide),
   writesIn_single main_call11_cst _ rfl (by decide) (by decide),
   writesIn_single main_call11_v0 _ rfl (by decide) (by decide),
   writesIn_single main_v225 _ rfl (by decide) (by decide),
   writesIn_single main_v226 _ rfl (by decide) (by decide),
   writesIn_single main_v227 _ rfl (by decide) (by decide),
   writesIn_single main_v228 _ rfl (by decide) (by decide),
   writesIn_single main_v229 _ rfl (by decide) (by decide),
   writesIn_single main_v230 _ rfl (by decide) (by decide),
   writesIn_single main_v231 _ rfl (by decide) (by decide),
   writesIn_single main_v232 _ rfl (by decide) (by decide),
   writesIn_single main_v233 _ rfl (by decide) (by decide),
   writesIn_single main_v234 _ rfl (by decide) (by decide),
   writesIn_single main_cst_21 _ rfl (by decide) (by decide),
   writesIn_single main_v235 _ rfl (by decide) (by decide),
   writesIn_single main_v236 _ rfl (by decide) (by decide),
   writesIn_single main_v237 _ rfl (by decide) (by decide),
   writesIn_single main_v238 _ rfl (by decide) (by decide),
   writesIn_single main_c_22 _ rfl (by decide) (by decide),
   writesIn_single main_v239 _ rfl (by decide) (by decide),
   writesIn_single main_v240 _ rfl (by decide) (by decide),
   writesIn_single main_v241 _ rfl (by decide) (by decide),
   writesIn_single main_v242 _ rfl (by decide) (by decide),
   writesIn_single main_cst_23 _ rfl (by decide) (by decide),
   writesIn_single main_v243 _ rfl (by decide) (by decide),
   writesIn_single main_v244 _ rfl (by decide) (by decide),
   writesIn_single main_v245 _ rfl (by decide) (by decide),
   writesIn_single main_v246 _ rfl (by decide) (by decide),
   writesIn_single main_v247 _ rfl (by decide) (by decide),
   writesIn_single main_v248 _ rfl (by decide) (by decide),
   writesIn_single main_v249 _ rfl (by decide) (by decide),
   writesIn_single main_v250 _ rfl (by decide) (by decide),
   writesIn_single main_v251 _ rfl (by decide) (by decide),
   writesIn_single main_call12_cst _ rfl (by decide) (by decide),
   writesIn_single main_call12_v0 _ rfl (by decide) (by decide),
   writesIn_single main_call12_v1 _ rfl (by decide) (by decide),
   writesIn_single main_call12_cst_0 _ rfl (by decide) (by decide),
   writesIn_single main_call12_v2 _ rfl (by decide) (by decide),
   writesIn_single main_call12_v3 _ rfl (by decide) (by decide),
   writesIn_single main_call12_cst_1 _ rfl (by decide) (by decide),
   writesIn_single main_call12_call0_v0 _ rfl (by decide) (by decide),
   writesIn_single main_call12_call0_v1 _ rfl (by decide) (by decide),
   writesIn_single main_call12_v4 _ rfl (by decide) (by decide),
   writesIn_single main_call12_v5 _ rfl (by decide) (by decide),
   writesIn_single main_call12_cst_2 _ rfl (by decide) (by decide),
   writesIn_single main_call12_v6 _ rfl (by decide) (by decide),
   writesIn_single main_call12_v7 _ rfl (by decide) (by decide),
   writesIn_single main_v252 _ rfl (by decide) (by decide),
   writesIn_single main_v253 _ rfl (by decide) (by decide),
   writesIn_single main_v254 _ rfl (by decide) (by decide),
   writesIn_single main_v255 _ rfl (by decide) (by decide),
   writesIn_single main_v256 _ rfl (by decide) (by decide),
   writesIn_single main_v257 _ rfl (by decide) (by decide),
   writesIn_single main_v258 _ rfl (by decide) (by decide),
   writesIn_single main_v259 _ rfl (by decide) (by decide),
   writesIn_single main_v260 _ rfl (by decide) (by decide),
   writesIn_single main_call13_cst _ rfl (by decide) (by decide),
   writesIn_single main_call13_v0 _ rfl (by decide) (by decide),
   writesIn_single main_call13_v1 _ rfl (by decide) (by decide),
   writesIn_single main_call13_cst_0 _ rfl (by decide) (by decide),
   writesIn_single main_call13_v2 _ rfl (by decide) (by decide),
   writesIn_single main_call13_v3 _ rfl (by decide) (by decide),
   writesIn_single main_call13_cst_1 _ rfl (by decide) (by decide),
   writesIn_single main_call13_call0_v0 _ rfl (by decide) (by decide),
   writesIn_single main_call13_call0_v1 _ rfl (by decide) (by decide),
   writesIn_single main_call13_v4 _ rfl (by decide) (by decide),
   writesIn_single main_call13_v5 _ rfl (by decide) (by decide),
   writesIn_single main_call13_cst_2 _ rfl (by decide) (by decide),
   writesIn_single main_call13_v6 _ rfl (by decide) (by decide),
   writesIn_single main_call13_v7 _ rfl (by decide) (by decide),
   writesIn_single main_v261 _ rfl (by decide) (by decide),
   writesIn_single main_v262 _ rfl (by decide) (by decide),
   writesIn_single main_v263 _ rfl (by decide) (by decide),
   writesIn_single main_cst_24 _ rfl (by decide) (by decide),
   writesIn_single main_v264 _ rfl (by decide) (by decide),
   writesIn_single main_cst_25 _ rfl (by decide) (by decide),
   writesIn_single main_v265 _ rfl (by decide) (by decide),
   writesIn_single main_v266 _ rfl (by decide) (by decide),
   writesIn_single main_v267 _ rfl (by decide) (by decide),
   writesIn_single main_v268 _ rfl (by decide) (by decide),
   writesIn_single main_cst_26 _ rfl (by decide) (by decide),
   writesIn_single main_v269 _ rfl (by decide) (by decide),
   writesIn_single main_v270 _ rfl (by decide) (by decide)⟩

end Cert.ReferenceIdeal.Hand

end
-- ==== Proof.RefRunW05.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 482 … 564 of 1674 (window main_part5): they write the buffers 500 … 582 in order. -/
noncomputable abbrev opsW5 : List (HloOp τ sig (Elt F)) :=
  [ binary main_v268 main_v270 main_v271 (addf : (⟨S4096x4096, .f32⟩ : BufTy).Contents (Elt F) → (⟨S4096x4096, .f32⟩ : BufTy).Contents (Elt F) → (⟨S4096x4096, .f32⟩ : BufTy).Contents (Elt F)),
    binary main_v271 main_arg1 main_v272 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg11 main_v273 ((extractStridedSlice S1x2x256x256 ![0, 0, 0, 0] · slices_S3x2x256x256_S1x2x256x256_0_0_0_0) : (⟨S3x2x256x256, .f32⟩ : BufTy).Contents (Elt F) → (⟨S1x2x256x256, .f32⟩ : BufTy).Contents (Elt F)),
    reshape main_v273 main_v274 rfl shapeCasts_S1x2x256x256_S2x256x256,
    unary main_arg12 main_v275 ((extractStridedSlice S1x2x256 ![0, 0, 0] · slices_S3x2x256_S1x2x256_0_0_0) : (⟨S3x2x256, .f32⟩ : BufTy).Contents (Elt F) → (⟨S1x2x256, .f32⟩ : BufTy).Contents (Elt F)),
    reshape main_v275 main_v276 rfl shapeCasts_S1x2x256_S2x256,
    unary main_arg13 main_v277 ((extractStridedSlice S1x2x256 ![0, 0, 0] · slices_S3x2x256_S1x2x256_0_0_0) : (⟨S3x2x256, .f32⟩ : BufTy).Contents (Elt F) → (⟨S1x2x256, .f32⟩ : BufTy).Contents (Elt F)),
    reshape main_v277 main_v278 rfl shapeCasts_S1x2x256_S2x256,
    unary main_v274 main_v279 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v279 main_v280 rfl shapeCasts_S1x256x256_S256x256,
    binary main_v272 main_v280 main_v281 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v276 main_v282 ((extractStridedSlice S1x256 ![0, 0] · slices_S2x256_S1x256_0_0) : (⟨S2x256, .f32⟩ : BufTy).Contents (Elt F) → (⟨S1x256, .f32⟩ : BufTy).Contents (Elt F)),
    reshape main_v282 main_v283 rfl shapeCasts_S1x256_S256,
    unary main_v283 main_v284 (broadcastInDim S1x256 ![1] bcast_S256_S1x256_1 : (⟨S256, .f32⟩ : BufTy).Contents (Elt F) → (⟨S1x256, .f32⟩ : BufTy).Contents (Elt F)),
    unary main_v284 main_v285 (broadcastInDim S4096x256 ![0, 1] bcast_S1x256_S4096x256_0_1 : (⟨S1x256, .f32⟩ : BufTy).Contents (Elt F) → (⟨S4096x256, .f32⟩ : BufTy).Contents (Elt F)),
    binary main_v281 main_v285 main_v286 (addf : (⟨S4096x256, .f32⟩ : BufTy).Contents (Elt F) → (⟨S4096x256, .f32⟩ : BufTy).Contents (Elt F) → (⟨S4096x256, .f32⟩ : BufTy).Contents (Elt F)),
    nullary main_cst_27 (constant S_ .f32 0x00000000#32),
    binary main_v286 main_cst_27 main_v287 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_28 (constant S_ .f32 0x45800000#32),
    unary main_cst_28 main_v288 (broadcastInDim S256 ![] bcast_S_S256 : (⟨S_, .f32⟩ : BufTy).Contents (Elt F) → (⟨S256, .f32⟩ : BufTy).Contents (Elt F)),
    binary main_v287 main_v288 main_v289 (Host.divf : (⟨S256, .f32⟩ : BufTy).Contents (Elt F) → (⟨S256, .f32⟩ : BufTy).Contents (Elt F) → (⟨S256, .f32⟩ : BufTy).Contents (Elt F)),
    nullary main_c_29 (constantI S_ 32 0#32),
    TRef.nullary main_call14.cst (constant S_ .f32 0x00000000#32),
    TRef.binary (.of main_v286 : TRef sig ⟨S4096x256, .f32⟩) main_call14.cst main_call14.v0 (fun x v => Host.reduceAdd x v reducesTo_S4096x256_S256_d0 h_S_),
    TRef.unary main_call14.v0 main_call14.v1 (broadcastInDim S1x256 ![1] bcast_S256_S1x256_1),
    TRef.nullary main_call14.cst_0 (constant S_ .f32 0x45800000#32),
    TRef.unary main_call14.cst_0 main_call14.v2 (broadcastInDim S1x256 ![] bcast_S_S1x256),
    TRef.binary main_call14.v1 main_call14.v2 main_call14.v3 Host.divf,
    TRef.unary main_call14.v3 main_call14.v4 (broadcastInDim S4096x256 ![0, 1] bcast_S1x256_S4096x256_0_1),
    TRef.binary (.of main_v286 : TRef sig ⟨S4096x256, .f32⟩) main_call14.v4 main_call14.v5 subf,
    TRef.binary main_call14.v5 main_call14.v5 main_call14.v6 mulf,
    TRef.unary (.of main_c_29 : TRef sig ⟨S_, .i32⟩) main_call14.v7 (sitofp .f32),
    TRef.nullary main_call14.cst_1 (constant S_ .f32 0x45800000#32),
    TRef.binary main_call14.cst_1 main_call14.v7 main_call14.v8 subf,
    TRef.nullary main_call14.cst_2 (constant S_ .f32 0x00000000#32),
    TRef.binary main_call14.v6 main_call14.cst_2 main_call14.v9 (fun x v => Host.reduceAdd x v reducesTo_S4096x256_S256_d0 h_S_),
    TRef.unary main_call14.v8 main_call14.v10 (broadcastInDim S256 ![] bcast_S_S256),
    TRef.binary main_call14.v9 main_call14.v10 main_call14.v11 Host.divf,
    TRef.nullary main_call14.cst_3 (constant S_ .f32 0x00000000#32),
    TRef.binary main_call14.v8 main_call14.cst_3 main_call14.v12 (cmpf .ogt),
    TRef.nullary main_call14.cst_4 (constant S_ .f32 0x7FC00000#32),
    TRef.unary main_call14.cst_4 main_call14_call0.v0 id,
    TRef.unary main_call14_call0.v0 main_call14_call0.v1 (broadcastInDim S256 ![] bcast_S_S256),
    TRef.ternary main_call14.v12 main_call14.v11 main_call14_call0.v1 main_call14_call0.v2 (fun p a b => select (broadcastInDim S256 ![] bcast_S_S256 p) a b),
    unary main_v289 main_v291 (broadcastInDim S1x256 ![1] bcast_S256_S1x256_1 : (⟨S256, .f32⟩ : BufTy).Contents (Elt F) → (⟨S1x256, .f32⟩ : BufTy).Contents (Elt F)),
    unary main_v291 main_v292 (broadcastInDim S4096x256 ![0, 1] bcast_S1x256_S4096x256_0_1 : (⟨S1x256, .f32⟩ : BufTy).Contents (Elt F) → (⟨S4096x256, .f32⟩ : BufTy).Contents (Elt F)),
    binary main_v286 main_v292 main_v293 (subf : (⟨S4096x256, .f32⟩ : BufTy).Contents (Elt F) → (⟨S4096x256, .f32⟩ : BufTy).Contents (Elt F) → (⟨S4096x256, .f32⟩ : BufTy).Contents (Elt F)),
    nullary main_cst_30 (constant S_ .f32 0x3727C5AC#32),
    unary main_cst_30 main_v294 (broadcastInDim S256 ![] bcast_S_S256 : (⟨S_, .f32⟩ : BufTy).Contents (Elt F) → (⟨S256, .f32⟩ : BufTy).Contents (Elt F)),
    binary main_v290 main_v294 main_v295 (addf : (⟨S256, .f32⟩ : BufTy).Contents (Elt F) → (⟨S256, .f32⟩ : BufTy).Contents (Elt F) → (⟨S256, .f32⟩ : BufTy).Contents (Elt F)),
    unary main_v295 main_v296 (Host.rsqrt : (⟨S256, .f32⟩ : BufTy).Contents (Elt F) → (⟨S256, .f32⟩ : BufTy).Contents (Elt F)),
    unary main_v296 main_v297 (broadcastInDim S1x256 ![1] bcast_S256_S1x256_1 : (⟨S256, .f32⟩ : BufTy).Contents (Elt F) → (⟨S1x256, .f32⟩ : BufTy).Contents (Elt F)),
    unary main_v297 main_v298 (broadcastInDim S4096x256 ![0, 1] bcast_S1x256_S4096x256_0_1 : (⟨S1x256, .f32⟩ : BufTy).Contents (Elt F) → (⟨S4096x256, .f32⟩ : BufTy).Contents (Elt F)),
    binary main_v293 main_v298 main_v299 (mulf : (⟨S4096x256, .f32⟩ : BufTy).Contents (Elt F) → (⟨S4096x256, .f32⟩ : BufTy).Contents (Elt F) → (⟨S4096x256, .f32⟩ : BufTy).Contents (Elt F)),
    unary main_v278 main_v300 ((extractStridedSlice S1x256 ![0, 0] · slices_S2x256_S1x256_0_0) : (⟨S2x256, .f32⟩ : BufTy).Contents (Elt F) → (⟨S1x256, .f32⟩ : BufTy).Contents (Elt F)),
    reshape main_v300 main_v301 rfl shapeCasts_S1x256_S256,
    unary main_v301 main_v302 (broadcastInDim S1x256 ![1] bcast_S256_S1x256_1 : (⟨S256, .f32⟩ : BufTy).Contents (Elt F) → (⟨S1x256, .f32⟩ : BufTy).Contents (Elt F)),
    unary main_v302 main_v303 (broadcastInDim S4096x256 ![0, 1] bcast_S1x256_S4096x256_0_1 : (⟨S1x256, .f32⟩ : BufTy).Contents (Elt F) → (⟨S4096x256, .f32⟩ : BufTy).Contents (Elt F)),
    binary main_v299 main_v303 main_v304 (mulf : (⟨S4096x256, .f32⟩ : BufTy).Contents (Elt F) → (⟨S4096x256, .f32⟩ : BufTy).Contents (Elt F) → (⟨S4096x256, .f32⟩ : BufTy).Contents (Elt F)),
    unary main_v278 main_v305 ((extractStridedSlice S1x256 ![1, 0] · slices_S2x256_S1x256_1_0) : (⟨S2x256, .f32⟩ : BufTy).Contents (Elt F) → (⟨S1x256, .f32⟩ : BufTy).Contents (Elt F)),
    reshape main_v305 main_v306 rfl shapeCasts_S1x256_S256,
    unary main_v306 main_v307 (broadcastInDim S1x256 ![1] bcast_S256_S1x256_1 : (⟨S256, .f32⟩ : BufTy).Contents (Elt F) → (⟨S1x256, .f32⟩ : BufTy).Contents (Elt F)),
    unary main_v307 main_v308 (broadcastInDim S4096x256 ![0, 1] bcast_S1x256_S4096x256_0_1 : (⟨S1x256, .f32⟩ : BufTy).Contents (Elt F) → (⟨S4096x256, .f32⟩ : BufTy).Contents (Elt F)),
    binary main_v304 main_v308 main_v309 (addf : (⟨S4096x256, .f32⟩ : BufTy).Contents (Elt F) → (⟨S4096x256, .f32⟩ : BufTy).Contents (Elt F) → (⟨S4096x256, .f32⟩ : BufTy).Contents (Elt F)),
    TRef.nullary main_call15.cst (constant S_ .f32 0x00000000#32),
    TRef.unary main_call15.cst main_call15.v0 (broadcastInDim S4096x256 ![] bcast_S_S4096x256),
    TRef.binary (.of main_v309 : TRef sig ⟨S4096x256, .f32⟩) main_call15.v0 main_call15.v1 maximumf,
    unary main_v274 main_v311 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v311 main_v312 rfl shapeCasts_S1x256x256_S256x256,
    binary main_v310 main_v312 main_v313 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v276 main_v314 ((extractStridedSlice S1x256 ![1, 0] · slices_S2x256_S1x256_1_0) : (⟨S2x256, .f32⟩ : BufTy).Contents (Elt F) → (⟨S1x256, .f32⟩ : BufTy).Contents (Elt F)),
    reshape main_v314 main_v315 rfl shapeCasts_S1x256_S256,
    unary main_v315 main_v316 (broadcastInDim S1x256 ![1] bcast_S256_S1x256_1 : (⟨S256, .f32⟩ : BufTy).Contents (Elt F) → (⟨S1x256, .f32⟩ : BufTy).Contents (Elt F)),
    unary main_v316 main_v317 (broadcastInDim S4096x256 ![0, 1] bcast_S1x256_S4096x256_0_1 : (⟨S1x256, .f32⟩ : BufTy).Contents (Elt F) → (⟨S4096x256, .f32⟩ : BufTy).Contents (Elt F)),
    binary main_v313 main_v317 main_v318 (addf : (⟨S4096x256, .f32⟩ : BufTy).Contents (Elt F) → (⟨S4096x256, .f32⟩ : BufTy).Contents (Elt F) → (⟨S4096x256, .f32⟩ : BufTy).Contents (Elt F)),
    binary main_v243 main_v318 main_v319 (addf : (⟨S4096x256, .f32⟩ : BufTy).Contents (Elt F) → (⟨S4096x256, .f32⟩ : BufTy).Contents (Elt F) → (⟨S4096x256, .f32⟩ : BufTy).Contents (Elt F)),
    unary main_arg9 main_v320 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v320 main_v321 rfl shapeCasts_S1x256x256_S256x256,
    binary main_v318 main_v321 main_v322 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v323 ((extractStridedSlice S1x256 ![0, 0] · slices_S2x256_S1x256_0_0) : (⟨S2x256, .f32⟩ : BufTy).Contents (Elt F) → (⟨S1x256, .f32⟩ : BufTy).Contents (Elt F)),
    reshape main_v323 main_v324 rfl shapeCasts_S1x256_S256,
    unary main_v324 main_v325 (broadcastInDim S1x256 ![1] bcast_S256_S1x256_1 : (⟨S256, .f32⟩ : BufTy).Contents (Elt F) → (⟨S1x256, .f32⟩ : BufTy).Contents (Elt F)),
    unary main_v325 main_v326 (broadcastInDim S4096x256 ![0, 1] bcast_S1x256_S4096x256_0_1 : (⟨S1x256, .f32⟩ : BufTy).Contents (Elt F) → (⟨S4096x256, .f32⟩ : BufTy).Contents (Elt F)) ]

set_option maxRecDepth 8192 in
set_option maxHeartbeats 4000000 in
/-- The window is that straight line: the called functions unfolded at their calls, sequencing reassociated. -/
theorem part5_eq (c : Dev nD) : main_part5 (F := F) c = seq opsW5 := by
  simp only [main_part5, fn_where.body, fn_where_0.body, fn_elu.body, fn_where_1.body, fn_var.body, fn_relu.body, seq, bind_assoc, pure_bind] <;> rfl

set_option maxRecDepth 8192 in
theorem opsW5_sub : (opsW5 : List (HloOp τ sig (Elt F))).Forall fun op => op.bufs ⊆ tcRefs τ sig :=
  ⟨binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub ..⟩

set_option maxRecDepth 8192 in
theorem opsW5_fresh : (opsW5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW5_writes : (opsW5 : List (HloOp τ sig (Elt F))).Forall (WritesIn 500 583) :=
  ⟨writesIn_single main_v271 _ rfl (by decide) (by decide),
   writesIn_single main_v272 _ rfl (by decide) (by decide),
   writesIn_single main_v273 _ rfl (by decide) (by decide),
   writesIn_single main_v274 _ rfl (by decide) (by decide),
   writesIn_single main_v275 _ rfl (by decide) (by decide),
   writesIn_single main_v276 _ rfl (by decide) (by decide),
   writesIn_single main_v277 _ rfl (by decide) (by decide),
   writesIn_single main_v278 _ rfl (by decide) (by decide),
   writesIn_single main_v279 _ rfl (by decide) (by decide),
   writesIn_single main_v280 _ rfl (by decide) (by decide),
   writesIn_single main_v281 _ rfl (by decide) (by decide),
   writesIn_single main_v282 _ rfl (by decide) (by decide),
   writesIn_single main_v283 _ rfl (by decide) (by decide),
   writesIn_single main_v284 _ rfl (by decide) (by decide),
   writesIn_single main_v285 _ rfl (by decide) (by decide),
   writesIn_single main_v286 _ rfl (by decide) (by decide),
   writesIn_single main_cst_27 _ rfl (by decide) (by decide),
   writesIn_single main_v287 _ rfl (by decide) (by decide),
   writesIn_single main_cst_28 _ rfl (by decide) (by decide),
   writesIn_single main_v288 _ rfl (by decide) (by decide),
   writesIn_single main_v289 _ rfl (by decide) (by decide),
   writesIn_single main_c_29 _ rfl (by decide) (by decide),
   writesIn_single main_call14_cst _ rfl (by decide) (by decide),
   writesIn_single main_call14_v0 _ rfl (by decide) (by decide),
   writesIn_single main_call14_v1 _ rfl (by decide) (by decide),
   writesIn_single main_call14_cst_0 _ rfl (by decide) (by decide),
   writesIn_single main_call14_v2 _ rfl (by decide) (by decide),
   writesIn_single main_call14_v3 _ rfl (by decide) (by decide),
   writesIn_single main_call14_v4 _ rfl (by decide) (by decide),
   writesIn_single main_call14_v5 _ rfl (by decide) (by decide),
   writesIn_single main_call14_v6 _ rfl (by decide) (by decide),
   writesIn_single main_call14_v7 _ rfl (by decide) (by decide),
   writesIn_single main_call14_cst_1 _ rfl (by decide) (by decide),
   writesIn_single main_call14_v8 _ rfl (by decide) (by decide),
   writesIn_single main_call14_cst_2 _ rfl (by decide) (by decide),
   writesIn_single main_call14_v9 _ rfl (by decide) (by decide),
   writesIn_single main_call14_v10 _ rfl (by decide) (by decide),
   writesIn_single main_call14_v11 _ rfl (by decide) (by decide),
   writesIn_single main_call14_cst_3 _ rfl (by decide) (by decide),
   writesIn_single main_call14_v12 _ rfl (by decide) (by decide),
   writesIn_single main_call14_cst_4 _ rfl (by decide) (by decide),
   writesIn_single main_call14_call0_v0 _ rfl (by decide) (by decide),
   writesIn_single main_call14_call0_v1 _ rfl (by decide) (by decide),
   writesIn_single main_v290 _ rfl (by decide) (by decide),
   writesIn_single main_v291 _ rfl (by decide) (by decide),
   writesIn_single main_v292 _ rfl (by decide) (by decide),
   writesIn_single main_v293 _ rfl (by decide) (by decide),
   writesIn_single main_cst_30 _ rfl (by decide) (by decide),
   writesIn_single main_v294 _ rfl (by decide) (by decide),
   writesIn_single main_v295 _ rfl (by decide) (by decide),
   writesIn_single main_v296 _ rfl (by decide) (by decide),
   writesIn_single main_v297 _ rfl (by decide) (by decide),
   writesIn_single main_v298 _ rfl (by decide) (by decide),
   writesIn_single main_v299 _ rfl (by decide) (by decide),
   writesIn_single main_v300 _ rfl (by decide) (by decide),
   writesIn_single main_v301 _ rfl (by decide) (by decide),
   writesIn_single main_v302 _ rfl (by decide) (by decide),
   writesIn_single main_v303 _ rfl (by decide) (by decide),
   writesIn_single main_v304 _ rfl (by decide) (by decide),
   writesIn_single main_v305 _ rfl (by decide) (by decide),
   writesIn_single main_v306 _ rfl (by decide) (by decide),
   writesIn_single main_v307 _ rfl (by decide) (by decide),
   writesIn_single main_v308 _ rfl (by decide) (by decide),
   writesIn_single main_v309 _ rfl (by decide) (by decide),
   writesIn_single main_call15_cst _ rfl (by decide) (by decide),
   writesIn_single main_call15_v0 _ rfl (by decide) (by decide),
   writesIn_single main_v310 _ rfl (by decide) (by decide),
   writesIn_single main_v311 _ rfl (by decide) (by decide),
   writesIn_single main_v312 _ rfl (by decide) (by decide),
   writesIn_single main_v313 _ rfl (by decide) (by decide),
   writesIn_single main_v314 _ rfl (by decide) (by decide),
   writesIn_single main_v315 _ rfl (by decide) (by decide),
   writesIn_single main_v316 _ rfl (by decide) (by decide),
   writesIn_single main_v317 _ rfl (by decide) (by decide),
   writesIn_single main_v318 _ rfl (by decide) (by decide),
   writesIn_single main_v319 _ rfl (by decide) (by decide),
   writesIn_single main_v320 _ rfl (by decide) (by decide),
   writesIn_single main_v321 _ rfl (by decide) (by decide),
   writesIn_single main_v322 _ rfl (by decide) (by decide),
   writesIn_single main_v323 _ rfl (by decide) (by decide),
   writesIn_single main_v324 _ rfl (by decide) (by decide),
   writesIn_single main_v325 _ rfl (by decide) (by decide),
   writesIn_single main_v326 _ rfl (by decide) (by decide)⟩

end Cert.ReferenceIdeal.Hand

end
-- ==== Proof.RefRunW06.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 565 … 673 of 1674 (window main_part6): they write the buffers 583 … 691 in order. -/
noncomputable abbrev opsW6 : List (HloOp τ sig (Elt F)) :=
  [ binary main_v322 main_v326 main_v327 (addf : (⟨S4096x256, .f32⟩ : BufTy).Contents (Elt F) → (⟨S4096x256, .f32⟩ : BufTy).Contents (Elt F) → (⟨S4096x256, .f32⟩ : BufTy).Contents (Elt F)),
    TRef.nullary main_call16.cst (constant S_ .f32 0x00000000#32),
    TRef.unary main_call16.cst main_call16.v0 (broadcastInDim S4096x256 ![] bcast_S_S4096x256),
    TRef.binary (.of main_v327 : TRef sig ⟨S4096x256, .f32⟩) main_call16.v0 main_call16.v1 (cmpf .ogt),
    TRef.nullary main_call16.cst_0 (constant S_ .f32 0x00000000#32),
    TRef.unary main_call16.cst_0 main_call16.v2 (broadcastInDim S4096x256 ![] bcast_S_S4096x256),
    TRef.binary (.of main_v327 : TRef sig ⟨S4096x256, .f32⟩) main_call16.v2 main_call16.v3 (cmpf .ogt),
    TRef.nullary main_call16.cst_1 (constant S_ .f32 0x00000000#32),
    TRef.unary main_call16.cst_1 main_call16_call0.v0 id,
    TRef.unary main_call16_call0.v0 main_call16_call0.v1 (broadcastInDim S4096x256 ![] bcast_S_S4096x256),
    TRef.ternary main_call16.v3 main_call16_call0.v1 (.of main_v327 : TRef sig ⟨S4096x256, .f32⟩) main_call16_call0.v2 select,
    TRef.unary main_call16.call0.v2 main_call16.v5 Host.expm1,
    TRef.nullary main_call16.cst_2 (constant S_ .f32 0x3F800000#32),
    TRef.unary main_call16.cst_2 main_call16.v6 (broadcastInDim S4096x256 ![] bcast_S_S4096x256),
    TRef.binary main_call16.v6 main_call16.v5 main_call16.v7 mulf,
    TRef.ternary main_call16.v1 (.of main_v327 : TRef sig ⟨S4096x256, .f32⟩) main_call16.v7 main_call16_call1.v0 select,
    unary main_arg9 main_v329 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v329 main_v330 rfl shapeCasts_S1x256x256_S256x256,
    binary main_v328 main_v330 main_v331 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v332 ((extractStridedSlice S1x256 ![1, 0] · slices_S2x256_S1x256_1_0) : (⟨S2x256, .f32⟩ : BufTy).Contents (Elt F) → (⟨S1x256, .f32⟩ : BufTy).Contents (Elt F)),
    reshape main_v332 main_v333 rfl shapeCasts_S1x256_S256,
    unary main_v333 main_v334 (broadcastInDim S1x256 ![1] bcast_S256_S1x256_1 : (⟨S256, .f32⟩ : BufTy).Contents (Elt F) → (⟨S1x256, .f32⟩ : BufTy).Contents (Elt F)),
    unary main_v334 main_v335 (broadcastInDim S4096x256 ![0, 1] bcast_S1x256_S4096x256_0_1 : (⟨S1x256, .f32⟩ : BufTy).Contents (Elt F) → (⟨S4096x256, .f32⟩ : BufTy).Contents (Elt F)),
    binary main_v331 main_v335 main_v336 (addf : (⟨S4096x256, .f32⟩ : BufTy).Contents (Elt F) → (⟨S4096x256, .f32⟩ : BufTy).Contents (Elt F) → (⟨S4096x256, .f32⟩ : BufTy).Contents (Elt F)),
    TRef.nullary main_call17.cst (constant S_ .f32 0x00000000#32),
    TRef.unary main_call17.cst main_call17.v0 (broadcastInDim S4096x256 ![] bcast_S_S4096x256),
    TRef.binary (.of main_v336 : TRef sig ⟨S4096x256, .f32⟩) main_call17.v0 main_call17.v1 (cmpf .ogt),
    TRef.nullary main_call17.cst_0 (constant S_ .f32 0x00000000#32),
    TRef.unary main_call17.cst_0 main_call17.v2 (broadcastInDim S4096x256 ![] bcast_S_S4096x256),
    TRef.binary (.of main_v336 : TRef sig ⟨S4096x256, .f32⟩) main_call17.v2 main_call17.v3 (cmpf .ogt),
    TRef.nullary main_call17.cst_1 (constant S_ .f32 0x00000000#32),
    TRef.unary main_call17.cst_1 main_call17_call0.v0 id,
    TRef.unary main_call17_call0.v0 main_call17_call0.v1 (broadcastInDim S4096x256 ![] bcast_S_S4096x256),
    TRef.ternary main_call17.v3 main_call17_call0.v1 (.of main_v336 : TRef sig ⟨S4096x256, .f32⟩) main_call17_call0.v2 select,
    TRef.unary main_call17.call0.v2 main_call17.v5 Host.expm1,
    TRef.nullary main_call17.cst_2 (constant S_ .f32 0x3F800000#32),
    TRef.unary main_call17.cst_2 main_call17.v6 (broadcastInDim S4096x256 ![] bcast_S_S4096x256),
    TRef.binary main_call17.v6 main_call17.v5 main_call17.v7 mulf,
    TRef.ternary main_call17.v1 (.of main_v336 : TRef sig ⟨S4096x256, .f32⟩) main_call17.v7 main_call17_call1.v0 select,
    unary main_v337 main_v338 ((transpose S256x4096 [1, 0] · transposes_S4096x256_S256x4096_1_0) : (⟨S4096x256, .f32⟩ : BufTy).Contents (Elt F) → (⟨S256x4096, .f32⟩ : BufTy).Contents (Elt F)),
    binary main_v337 main_v338 main_v339 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_31 (constant S_ .f32 0x00000000#32),
    binary main_v339 main_cst_31 main_v340 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_32 (constant S_ .f32 0x4B800000#32),
    binary main_v340 main_cst_32 main_v341 (Host.divf : (⟨S_, .f32⟩ : BufTy).Contents (Elt F) → (⟨S_, .f32⟩ : BufTy).Contents (Elt F) → (⟨S_, .f32⟩ : BufTy).Contents (Elt F)),
    unary main_v341 main_v342 (broadcastInDim S4096x4096 ![] bcast_S_S4096x4096 : (⟨S_, .f32⟩ : BufTy).Contents (Elt F) → (⟨S4096x4096, .f32⟩ : BufTy).Contents (Elt F)),
    binary main_v339 main_v342 main_v343 (cmpf .ogt : (⟨S4096x4096, .f32⟩ : BufTy).Contents (Elt F) → (⟨S4096x4096, .f32⟩ : BufTy).Contents (Elt F) → (⟨S4096x4096, .i1⟩ : BufTy).Contents (Elt F)),
    unary main_v343 main_v344 (uitofp .f32 : (⟨S4096x4096, .i1⟩ : BufTy).Contents (Elt F) → (⟨S4096x4096, .f32⟩ : BufTy).Contents (Elt F)),
    nullary main_cst_33 (constant S_ .f32 0x3F800000#32),
    unary main_cst_33 main_v345 (broadcastInDim S4096x4096 ![] bcast_S_S4096x4096 : (⟨S_, .f32⟩ : BufTy).Contents (Elt F) → (⟨S4096x4096, .f32⟩ : BufTy).Contents (Elt F)),
    binary main_v345 main_v242 main_v346 (mulf : (⟨S4096x4096, .f32⟩ : BufTy).Contents (Elt F) → (⟨S4096x4096, .f32⟩ : BufTy).Contents (Elt F) → (⟨S4096x4096, .f32⟩ : BufTy).Contents (Elt F)),
    binary main_v344 main_v346 main_v347 (addf : (⟨S4096x4096, .f32⟩ : BufTy).Contents (Elt F) → (⟨S4096x4096, .f32⟩ : BufTy).Contents (Elt F) → (⟨S4096x4096, .f32⟩ : BufTy).Contents (Elt F)),
    binary main_v347 main_v318 main_v348 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg11 main_v349 ((extractStridedSlice S1x2x256x256 ![1, 0, 0, 0] · slices_S3x2x256x256_S1x2x256x256_1_0_0_0) : (⟨S3x2x256x256, .f32⟩ : BufTy).Contents (Elt F) → (⟨S1x2x256x256, .f32⟩ : BufTy).Contents (Elt F)),
    reshape main_v349 main_v350 rfl shapeCasts_S1x2x256x256_S2x256x256,
    unary main_arg12 main_v351 ((extractStridedSlice S1x2x256 ![1, 0, 0] · slices_S3x2x256_S1x2x256_1_0_0) : (⟨S3x2x256, .f32⟩ : BufTy).Contents (Elt F) → (⟨S1x2x256, .f32⟩ : BufTy).Contents (Elt F)),
    reshape main_v351 main_v352 rfl shapeCasts_S1x2x256_S2x256,
    unary main_arg13 main_v353 ((extractStridedSlice S1x2x256 ![1, 0, 0] · slices_S3x2x256_S1x2x256_1_0_0) : (⟨S3x2x256, .f32⟩ : BufTy).Contents (Elt F) → (⟨S1x2x256, .f32⟩ : BufTy).Contents (Elt F)),
    reshape main_v353 main_v354 rfl shapeCasts_S1x2x256_S2x256,
    unary main_v350 main_v355 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v355 main_v356 rfl shapeCasts_S1x256x256_S256x256,
    binary main_v348 main_v356 main_v357 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v352 main_v358 ((extractStridedSlice S1x256 ![0, 0] · slices_S2x256_S1x256_0_0) : (⟨S2x256, .f32⟩ : BufTy).Contents (Elt F) → (⟨S1x256, .f32⟩ : BufTy).Contents (Elt F)),
    reshape main_v358 main_v359 rfl shapeCasts_S1x256_S256,
    unary main_v359 main_v360 (broadcastInDim S1x256 ![1] bcast_S256_S1x256_1 : (⟨S256, .f32⟩ : BufTy).Contents (Elt F) → (⟨S1x256, .f32⟩ : BufTy).Contents (Elt F)),
    unary main_v360 main_v361 (broadcastInDim S4096x256 ![0, 1] bcast_S1x256_S4096x256_0_1 : (⟨S1x256, .f32⟩ : BufTy).Contents (Elt F) → (⟨S4096x256, .f32⟩ : BufTy).Contents (Elt F)),
    binary main_v357 main_v361 main_v362 (addf : (⟨S4096x256, .f32⟩ : BufTy).Contents (Elt F) → (⟨S4096x256, .f32⟩ : BufTy).Contents (Elt F) → (⟨S4096x256, .f32⟩ : BufTy).Contents (Elt F)),
    nullary main_cst_34 (constant S_ .f32 0x00000000#32),
    binary main_v362 main_cst_34 main_v363 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_35 (constant S_ .f32 0x45800000#32),
    unary main_cst_35 main_v364 (broadcastInDim S256 ![] bcast_S_S256 : (⟨S_, .f32⟩ : BufTy).Contents (Elt F) → (⟨S256, .f32⟩ : BufTy).Contents (Elt F)),
    binary main_v363 main_v364 main_v365 (Host.divf : (⟨S256, .f32⟩ : BufTy).Contents (Elt F) → (⟨S256, .f32⟩ : BufTy).Contents (Elt F) → (⟨S256, .f32⟩ : BufTy).Contents (Elt F)),
    nullary main_c_36 (constantI S_ 32 0#32),
    TRef.nullary main_call18.cst (constant S_ .f32 0x00000000#32),
    TRef.binary (.of main_v362 : TRef sig ⟨S4096x256, .f32⟩) main_call18.cst main_call18.v0 (fun x v => Host.reduceAdd x v reducesTo_S4096x256_S256_d0 h_S_),
    TRef.unary main_call18.v0 main_call18.v1 (broadcastInDim S1x256 ![1] bcast_S256_S1x256_1),
    TRef.nullary main_call18.cst_0 (constant S_ .f32 0x45800000#32),
    TRef.unary main_call18.cst_0 main_call18.v2 (broadcastInDim S1x256 ![] bcast_S_S1x256),
    TRef.binary main_call18.v1 main_call18.v2 main_call18.v3 Host.divf,
    TRef.unary main_call18.v3 main_call18.v4 (broadcastInDim S4096x256 ![0, 1] bcast_S1x256_S4096x256_0_1),
    TRef.binary (.of main_v362 : TRef sig ⟨S4096x256, .f32⟩) main_call18.v4 main_call18.v5 subf,
    TRef.binary main_call18.v5 main_call18.v5 main_call18.v6 mulf,
    TRef.unary (.of main_c_36 : TRef sig ⟨S_, .i32⟩) main_call18.v7 (sitofp .f32),
    TRef.nullary main_call18.cst_1 (constant S_ .f32 0x45800000#32),
    TRef.binary main_call18.cst_1 main_call18.v7 main_call18.v8 subf,
    TRef.nullary main_call18.cst_2 (constant S_ .f32 0x00000000#32),
    TRef.binary main_call18.v6 main_call18.cst_2 main_call18.v9 (fun x v => Host.reduceAdd x v reducesTo_S4096x256_S256_d0 h_S_),
    TRef.unary main_call18.v8 main_call18.v10 (broadcastInDim S256 ![] bcast_S_S256),
    TRef.binary main_call18.v9 main_call18.v10 main_call18.v11 Host.divf,
    TRef.nullary main_call18.cst_3 (constant S_ .f32 0x00000000#32),
    TRef.binary main_call18.v8 main_call18.cst_3 main_call18.v12 (cmpf .ogt),
    TRef.nullary main_call18.cst_4 (constant S_ .f32 0x7FC00000#32),
    TRef.unary main_call18.cst_4 main_call18_call0.v0 id,
    TRef.unary main_call18_call0.v0 main_call18_call0.v1 (broadcastInDim S256 ![] bcast_S_S256),
    TRef.ternary main_call18.v12 main_call18.v11 main_call18_call0.v1 main_call18_call0.v2 (fun p a b => select (broadcastInDim S256 ![] bcast_S_S256 p) a b),
    unary main_v365 main_v367 (broadcastInDim S1x256 ![1] bcast_S256_S1x256_1 : (⟨S256, .f32⟩ : BufTy).Contents (Elt F) → (⟨S1x256, .f32⟩ : BufTy).Contents (Elt F)),
    unary main_v367 main_v368 (broadcastInDim S4096x256 ![0, 1] bcast_S1x256_S4096x256_0_1 : (⟨S1x256, .f32⟩ : BufTy).Contents (Elt F) → (⟨S4096x256, .f32⟩ : BufTy).Contents (Elt F)),
    binary main_v362 main_v368 main_v369 (subf : (⟨S4096x256, .f32⟩ : BufTy).Contents (Elt F) → (⟨S4096x256, .f32⟩ : BufTy).Contents (Elt F) → (⟨S4096x256, .f32⟩ : BufTy).Contents (Elt F)),
    nullary main_cst_37 (constant S_ .f32 0x3727C5AC#32),
    unary main_cst_37 main_v370 (broadcastInDim S256 ![] bcast_S_S256 : (⟨S_, .f32⟩ : BufTy).Contents (Elt F) → (⟨S256, .f32⟩ : BufTy).Contents (Elt F)),
    binary main_v366 main_v370 main_v371 (addf : (⟨S256, .f32⟩ : BufTy).Contents (Elt F) → (⟨S256, .f32⟩ : BufTy).Contents (Elt F) → (⟨S256, .f32⟩ : BufTy).Contents (Elt F)),
    unary main_v371 main_v372 (Host.rsqrt : (⟨S256, .f32⟩ : BufTy).Contents (Elt F) → (⟨S256, .f32⟩ : BufTy).Contents (Elt F)),
    unary main_v372 main_v373 (broadcastInDim S1x256 ![1] bcast_S256_S1x256_1 : (⟨S256, .f32⟩ : BufTy).Contents (Elt F) → (⟨S1x256, .f32⟩ : BufTy).Contents (Elt F)),
    unary main_v373 main_v374 (broadcastInDim S4096x256 ![0, 1] bcast_S1x256_S4096x256_0_1 : (⟨S1x256, .f32⟩ : BufTy).Contents (Elt F) → (⟨S4096x256, .f32⟩ : BufTy).Contents (Elt F)),
    binary main_v369 main_v374 main_v375 (mulf : (⟨S4096x256, .f32⟩ : BufTy).Contents (Elt F) → (⟨S4096x256, .f32⟩ : BufTy).Contents (Elt F) → (⟨S4096x256, .f32⟩ : BufTy).Contents (Elt F)),
    unary main_v354 main_v376 ((extractStridedSlice S1x256 ![0, 0] · slices_S2x256_S1x256_0_0) : (⟨S2x256, .f32⟩ : BufTy).Contents (Elt F) → (⟨S1x256, .f32⟩ : BufTy).Contents (Elt F)),
    reshape main_v376 main_v377 rfl shapeCasts_S1x256_S256,
    unary main_v377 main_v378 (broadcastInDim S1x256 ![1] bcast_S256_S1x256_1 : (⟨S256, .f32⟩ : BufTy).Contents (Elt F) → (⟨S1x256, .f32⟩ : BufTy).Contents (Elt F)),
    unary main_v378 main_v379 (broadcastInDim S4096x256 ![0, 1] bcast_S1x256_S4096x256_0_1 : (⟨S1x256, .f32⟩ : BufTy).Contents (Elt F) → (⟨S4096x256, .f32⟩ : BufTy).Contents (Elt F)) ]

set_option maxRecDepth 8192 in
set_option maxHeartbeats 4000000 in
/-- The window is that straight line: the called functions unfolded at their calls, sequencing reassociated. -/
theorem part6_eq (c : Dev nD) : main_part6 (F := F) c = seq opsW6 := by
  simp only [main_part6, fn_where.body, fn_where_0.body, fn_elu.body, fn_where_1.body, fn_var.body, fn_relu.body, seq, bind_assoc, pure_bind] <;> rfl

set_option maxRecDepth 8192 in
theorem opsW6_sub : (opsW6 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., nullary_bufs_sub .., binary_bufs_sub .., nullary_bufs_sub .., binary_bufs_sub .., unary_bufs_sub .., binary_bufs_sub .., unary_bufs_sub .., nullary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub ..⟩

set_option maxRecDepth 8192 in
theorem opsW6_fresh : (opsW6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW6_writes : (opsW6 : List (HloOp τ sig (Elt F))).Forall (WritesIn 583 692) :=
  ⟨writesIn_single main_v327 _ rfl (by decide) (by decide),
   writesIn_single main_call16_cst _ rfl (by decide) (by decide),
   writesIn_single main_call16_v0 _ rfl (by decide) (by decide),
   writesIn_single main_call16_v1 _ rfl (by decide) (by decide),
   writesIn_single main_call16_cst_0 _ rfl (by decide) (by decide),
   writesIn_single main_call16_v2 _ rfl (by decide) (by decide),
   writesIn_single main_call16_v3 _ rfl (by decide) (by decide),
   writesIn_single main_call16_cst_1 _ rfl (by decide) (by decide),
   writesIn_single main_call16_call0_v0 _ rfl (by decide) (by decide),
   writesIn_single main_call16_call0_v1 _ rfl (by decide) (by decide),
   writesIn_single main_call16_v4 _ rfl (by decide) (by decide),
   writesIn_single main_call16_v5 _ rfl (by decide) (by decide),
   writesIn_single main_call16_cst_2 _ rfl (by decide) (by decide),
   writesIn_single main_call16_v6 _ rfl (by decide) (by decide),
   writesIn_single main_call16_v7 _ rfl (by decide) (by decide),
   writesIn_single main_v328 _ rfl (by decide) (by decide),
   writesIn_single main_v329 _ rfl (by decide) (by decide),
   writesIn_single main_v330 _ rfl (by decide) (by decide),
   writesIn_single main_v331 _ rfl (by decide) (by decide),
   writesIn_single main_v332 _ rfl (by decide) (by decide),
   writesIn_single main_v333 _ rfl (by decide) (by decide),
   writesIn_single main_v334 _ rfl (by decide) (by decide),
   writesIn_single main_v335 _ rfl (by decide) (by decide),
   writesIn_single main_v336 _ rfl (by decide) (by decide),
   writesIn_single main_call17_cst _ rfl (by decide) (by decide),
   writesIn_single main_call17_v0 _ rfl (by decide) (by decide),
   writesIn_single main_call17_v1 _ rfl (by decide) (by decide),
   writesIn_single main_call17_cst_0 _ rfl (by decide) (by decide),
   writesIn_single main_call17_v2 _ rfl (by decide) (by decide),
   writesIn_single main_call17_v3 _ rfl (by decide) (by decide),
   writesIn_single main_call17_cst_1 _ rfl (by decide) (by decide),
   writesIn_single main_call17_call0_v0 _ rfl (by decide) (by decide),
   writesIn_single main_call17_call0_v1 _ rfl (by decide) (by decide),
   writesIn_single main_call17_v4 _ rfl (by decide) (by decide),
   writesIn_single main_call17_v5 _ rfl (by decide) (by decide),
   writesIn_single main_call17_cst_2 _ rfl (by decide) (by decide),
   writesIn_single main_call17_v6 _ rfl (by decide) (by decide),
   writesIn_single main_call17_v7 _ rfl (by decide) (by decide),
   writesIn_single main_v337 _ rfl (by decide) (by decide),
   writesIn_single main_v338 _ rfl (by decide) (by decide),
   writesIn_single main_v339 _ rfl (by decide) (by decide),
   writesIn_single main_cst_31 _ rfl (by decide) (by decide),
   writesIn_single main_v340 _ rfl (by decide) (by decide),
   writesIn_single main_cst_32 _ rfl (by decide) (by decide),
   writesIn_single main_v341 _ rfl (by decide) (by decide),
   writesIn_single main_v342 _ rfl (by decide) (by decide),
   writesIn_single main_v343 _ rfl (by decide) (by decide),
   writesIn_single main_v344 _ rfl (by decide) (by decide),
   writesIn_single main_cst_33 _ rfl (by decide) (by decide),
   writesIn_single main_v345 _ rfl (by decide) (by decide),
   writesIn_single main_v346 _ rfl (by decide) (by decide),
   writesIn_single main_v347 _ rfl (by decide) (by decide),
   writesIn_single main_v348 _ rfl (by decide) (by decide),
   writesIn_single main_v349 _ rfl (by decide) (by decide),
   writesIn_single main_v350 _ rfl (by decide) (by decide),
   writesIn_single main_v351 _ rfl (by decide) (by decide),
   writesIn_single main_v352 _ rfl (by decide) (by decide),
   writesIn_single main_v353 _ rfl (by decide) (by decide),
   writesIn_single main_v354 _ rfl (by decide) (by decide),
   writesIn_single main_v355 _ rfl (by decide) (by decide),
   writesIn_single main_v356 _ rfl (by decide) (by decide),
   writesIn_single main_v357 _ rfl (by decide) (by decide),
   writesIn_single main_v358 _ rfl (by decide) (by decide),
   writesIn_single main_v359 _ rfl (by decide) (by decide),
   writesIn_single main_v360 _ rfl (by decide) (by decide),
   writesIn_single main_v361 _ rfl (by decide) (by decide),
   writesIn_single main_v362 _ rfl (by decide) (by decide),
   writesIn_single main_cst_34 _ rfl (by decide) (by decide),
   writesIn_single main_v363 _ rfl (by decide) (by decide),
   writesIn_single main_cst_35 _ rfl (by decide) (by decide),
   writesIn_single main_v364 _ rfl (by decide) (by decide),
   writesIn_single main_v365 _ rfl (by decide) (by decide),
   writesIn_single main_c_36 _ rfl (by decide) (by decide),
   writesIn_single main_call18_cst _ rfl (by decide) (by decide),
   writesIn_single main_call18_v0 _ rfl (by decide) (by decide),
   writesIn_single main_call18_v1 _ rfl (by decide) (by decide),
   writesIn_single main_call18_cst_0 _ rfl (by decide) (by decide),
   writesIn_single main_call18_v2 _ rfl (by decide) (by decide),
   writesIn_single main_call18_v3 _ rfl (by decide) (by decide),
   writesIn_single main_call18_v4 _ rfl (by decide) (by decide),
   writesIn_single main_call18_v5 _ rfl (by decide) (by decide),
   writesIn_single main_call18_v6 _ rfl (by decide) (by decide),
   writesIn_single main_call18_v7 _ rfl (by decide) (by decide),
   writesIn_single main_call18_cst_1 _ rfl (by decide) (by decide),
   writesIn_single main_call18_v8 _ rfl (by decide) (by decide),
   writesIn_single main_call18_cst_2 _ rfl (by decide) (by decide),
   writesIn_single main_call18_v9 _ rfl (by decide) (by decide),
   writesIn_single main_call18_v10 _ rfl (by decide) (by decide),
   writesIn_single main_call18_v11 _ rfl (by decide) (by decide),
   writesIn_single main_call18_cst_3 _ rfl (by decide) (by decide),
   writesIn_single main_call18_v12 _ rfl (by decide) (by decide),
   writesIn_single main_call18_cst_4 _ rfl (by decide) (by decide),
   writesIn_single main_call18_call0_v0 _ rfl (by decide) (by decide),
   writesIn_single main_call18_call0_v1 _ rfl (by decide) (by decide),
   writesIn_single main_v366 _ rfl (by decide) (by decide),
   writesIn_single main_v367 _ rfl (by decide) (by decide),
   writesIn_single main_v368 _ rfl (by decide) (by decide),
   writesIn_single main_v369 _ rfl (by decide) (by decide),
   writesIn_single main_cst_37 _ rfl (by decide) (by decide),
   writesIn_single main_v370 _ rfl (by decide) (by decide),
   writesIn_single main_v371 _ rfl (by decide) (by decide),
   writesIn_single main_v372 _ rfl (by decide) (by decide),
   writesIn_single main_v373 _ rfl (by decide) (by decide),
   writesIn_single main_v374 _ rfl (by decide) (by decide),
   writesIn_single main_v375 _ rfl (by decide) (by decide),
   writesIn_single main_v376 _ rfl (by decide) (by decide),
   writesIn_single main_v377 _ rfl (by decide) (by decide),
   writesIn_single main_v378 _ rfl (by decide) (by decide),
   writesIn_single main_v379 _ rfl (by decide) (by decide)⟩

end Cert.ReferenceIdeal.Hand

end
-- ==== Proof.RefRunW07.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 674 … 763 of 1674 (window main_part7): they write the buffers 692 … 781 in order. -/
noncomputable abbrev opsW7 : List (HloOp τ sig (Elt F)) :=
  [ binary main_v375 main_v379 main_v380 (mulf : (⟨S4096x256, .f32⟩ : BufTy).Contents (Elt F) → (⟨S4096x256, .f32⟩ : BufTy).Contents (Elt F) → (⟨S4096x256, .f32⟩ : BufTy).Contents (Elt F)),
    unary main_v354 main_v381 ((extractStridedSlice S1x256 ![1, 0] · slices_S2x256_S1x256_1_0) : (⟨S2x256, .f32⟩ : BufTy).Contents (Elt F) → (⟨S1x256, .f32⟩ : BufTy).Contents (Elt F)),
    reshape main_v381 main_v382 rfl shapeCasts_S1x256_S256,
    unary main_v382 main_v383 (broadcastInDim S1x256 ![1] bcast_S256_S1x256_1 : (⟨S256, .f32⟩ : BufTy).Contents (Elt F) → (⟨S1x256, .f32⟩ : BufTy).Contents (Elt F)),
    unary main_v383 main_v384 (broadcastInDim S4096x256 ![0, 1] bcast_S1x256_S4096x256_0_1 : (⟨S1x256, .f32⟩ : BufTy).Contents (Elt F) → (⟨S4096x256, .f32⟩ : BufTy).Contents (Elt F)),
    binary main_v380 main_v384 main_v385 (addf : (⟨S4096x256, .f32⟩ : BufTy).Contents (Elt F) → (⟨S4096x256, .f32⟩ : BufTy).Contents (Elt F) → (⟨S4096x256, .f32⟩ : BufTy).Contents (Elt F)),
    TRef.nullary main_call19.cst (constant S_ .f32 0x00000000#32),
    TRef.unary main_call19.cst main_call19.v0 (broadcastInDim S4096x256 ![] bcast_S_S4096x256),
    TRef.binary (.of main_v385 : TRef sig ⟨S4096x256, .f32⟩) main_call19.v0 main_call19.v1 maximumf,
    unary main_v350 main_v387 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v387 main_v388 rfl shapeCasts_S1x256x256_S256x256,
    binary main_v386 main_v388 main_v389 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v352 main_v390 ((extractStridedSlice S1x256 ![1, 0] · slices_S2x256_S1x256_1_0) : (⟨S2x256, .f32⟩ : BufTy).Contents (Elt F) → (⟨S1x256, .f32⟩ : BufTy).Contents (Elt F)),
    reshape main_v390 main_v391 rfl shapeCasts_S1x256_S256,
    unary main_v391 main_v392 (broadcastInDim S1x256 ![1] bcast_S256_S1x256_1 : (⟨S256, .f32⟩ : BufTy).Contents (Elt F) → (⟨S1x256, .f32⟩ : BufTy).Contents (Elt F)),
    unary main_v392 main_v393 (broadcastInDim S4096x256 ![0, 1] bcast_S1x256_S4096x256_0_1 : (⟨S1x256, .f32⟩ : BufTy).Contents (Elt F) → (⟨S4096x256, .f32⟩ : BufTy).Contents (Elt F)),
    binary main_v389 main_v393 main_v394 (addf : (⟨S4096x256, .f32⟩ : BufTy).Contents (Elt F) → (⟨S4096x256, .f32⟩ : BufTy).Contents (Elt F) → (⟨S4096x256, .f32⟩ : BufTy).Contents (Elt F)),
    binary main_v319 main_v394 main_v395 (addf : (⟨S4096x256, .f32⟩ : BufTy).Contents (Elt F) → (⟨S4096x256, .f32⟩ : BufTy).Contents (Elt F) → (⟨S4096x256, .f32⟩ : BufTy).Contents (Elt F)),
    unary main_arg9 main_v396 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v396 main_v397 rfl shapeCasts_S1x256x256_S256x256,
    binary main_v394 main_v397 main_v398 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v399 ((extractStridedSlice S1x256 ![0, 0] · slices_S2x256_S1x256_0_0) : (⟨S2x256, .f32⟩ : BufTy).Contents (Elt F) → (⟨S1x256, .f32⟩ : BufTy).Contents (Elt F)),
    reshape main_v399 main_v400 rfl shapeCasts_S1x256_S256,
    unary main_v400 main_v401 (broadcastInDim S1x256 ![1] bcast_S256_S1x256_1 : (⟨S256, .f32⟩ : BufTy).Contents (Elt F) → (⟨S1x256, .f32⟩ : BufTy).Contents (Elt F)),
    unary main_v401 main_v402 (broadcastInDim S4096x256 ![0, 1] bcast_S1x256_S4096x256_0_1 : (⟨S1x256, .f32⟩ : BufTy).Contents (Elt F) → (⟨S4096x256, .f32⟩ : BufTy).Contents (Elt F)),
    binary main_v398 main_v402 main_v403 (addf : (⟨S4096x256, .f32⟩ : BufTy).Contents (Elt F) → (⟨S4096x256, .f32⟩ : BufTy).Contents (Elt F) → (⟨S4096x256, .f32⟩ : BufTy).Contents (Elt F)),
    TRef.nullary main_call20.cst (constant S_ .f32 0x00000000#32),
    TRef.unary main_call20.cst main_call20.v0 (broadcastInDim S4096x256 ![] bcast_S_S4096x256),
    TRef.binary (.of main_v403 : TRef sig ⟨S4096x256, .f32⟩) main_call20.v0 main_call20.v1 (cmpf .ogt),
    TRef.nullary main_call20.cst_0 (constant S_ .f32 0x00000000#32),
    TRef.unary main_call20.cst_0 main_call20.v2 (broadcastInDim S4096x256 ![] bcast_S_S4096x256),
    TRef.binary (.of main_v403 : TRef sig ⟨S4096x256, .f32⟩) main_call20.v2 main_call20.v3 (cmpf .ogt),
    TRef.nullary main_call20.cst_1 (constant S_ .f32 0x00000000#32),
    TRef.unary main_call20.cst_1 main_call20_call0.v0 id,
    TRef.unary main_call20_call0.v0 main_call20_call0.v1 (broadcastInDim S4096x256 ![] bcast_S_S4096x256),
    TRef.ternary main_call20.v3 main_call20_call0.v1 (.of main_v403 : TRef sig ⟨S4096x256, .f32⟩) main_call20_call0.v2 select,
    TRef.unary main_call20.call0.v2 main_call20.v5 Host.expm1,
    TRef.nullary main_call20.cst_2 (constant S_ .f32 0x3F800000#32),
    TRef.unary main_call20.cst_2 main_call20.v6 (broadcastInDim S4096x256 ![] bcast_S_S4096x256),
    TRef.binary main_call20.v6 main_call20.v5 main_call20.v7 mulf,
    TRef.ternary main_call20.v1 (.of main_v403 : TRef sig ⟨S4096x256, .f32⟩) main_call20.v7 main_call20_call1.v0 select,
    unary main_arg9 main_v405 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v405 main_v406 rfl shapeCasts_S1x256x256_S256x256,
    binary main_v404 main_v406 main_v407 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v408 ((extractStridedSlice S1x256 ![1, 0] · slices_S2x256_S1x256_1_0) : (⟨S2x256, .f32⟩ : BufTy).Contents (Elt F) → (⟨S1x256, .f32⟩ : BufTy).Contents (Elt F)),
    reshape main_v408 main_v409 rfl shapeCasts_S1x256_S256,
    unary main_v409 main_v410 (broadcastInDim S1x256 ![1] bcast_S256_S1x256_1 : (⟨S256, .f32⟩ : BufTy).Contents (Elt F) → (⟨S1x256, .f32⟩ : BufTy).Contents (Elt F)),
    unary main_v410 main_v411 (broadcastInDim S4096x256 ![0, 1] bcast_S1x256_S4096x256_0_1 : (⟨S1x256, .f32⟩ : BufTy).Contents (Elt F) → (⟨S4096x256, .f32⟩ : BufTy).Contents (Elt F)),
    binary main_v407 main_v411 main_v412 (addf : (⟨S4096x256, .f32⟩ : BufTy).Contents (Elt F) → (⟨S4096x256, .f32⟩ : BufTy).Contents (Elt F) → (⟨S4096x256, .f32⟩ : BufTy).Contents (Elt F)),
    TRef.nullary main_call21.cst (constant S_ .f32 0x00000000#32),
    TRef.unary main_call21.cst main_call21.v0 (broadcastInDim S4096x256 ![] bcast_S_S4096x256),
    TRef.binary (.of main_v412 : TRef sig ⟨S4096x256, .f32⟩) main_call21.v0 main_call21.v1 (cmpf .ogt),
    TRef.nullary main_call21.cst_0 (constant S_ .f32 0x00000000#32),
    TRef.unary main_call21.cst_0 main_call21.v2 (broadcastInDim S4096x256 ![] bcast_S_S4096x256),
    TRef.binary (.of main_v412 : TRef sig ⟨S4096x256, .f32⟩) main_call21.v2 main_call21.v3 (cmpf .ogt),
    TRef.nullary main_call21.cst_1 (constant S_ .f32 0x00000000#32),
    TRef.unary main_call21.cst_1 main_call21_call0.v0 id,
    TRef.unary main_call21_call0.v0 main_call21_call0.v1 (broadcastInDim S4096x256 ![] bcast_S_S4096x256),
    TRef.ternary main_call21.v3 main_call21_call0.v1 (.of main_v412 : TRef sig ⟨S4096x256, .f32⟩) main_call21_call0.v2 select,
    TRef.unary main_call21.call0.v2 main_call21.v5 Host.expm1,
    TRef.nullary main_call21.cst_2 (constant S_ .f32 0x3F800000#32),
    TRef.unary main_call21.cst_2 main_call21.v6 (broadcastInDim S4096x256 ![] bcast_S_S4096x256),
    TRef.binary main_call21.v6 main_call21.v5 main_call21.v7 mulf,
    TRef.ternary main_call21.v1 (.of main_v412 : TRef sig ⟨S4096x256, .f32⟩) main_call21.v7 main_call21_call1.v0 select,
    unary main_v413 main_v414 ((transpose S256x4096 [1, 0] · transposes_S4096x256_S256x4096_1_0) : (⟨S4096x256, .f32⟩ : BufTy).Contents (Elt F) → (⟨S256x4096, .f32⟩ : BufTy).Contents (Elt F)),
    binary main_v413 main_v414 main_v415 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_38 (constant S_ .f32 0x00000000#32),
    binary main_v415 main_cst_38 main_v416 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_39 (constant S_ .f32 0x4B800000#32),
    binary main_v416 main_cst_39 main_v417 (Host.divf : (⟨S_, .f32⟩ : BufTy).Contents (Elt F) → (⟨S_, .f32⟩ : BufTy).Contents (Elt F) → (⟨S_, .f32⟩ : BufTy).Contents (Elt F)),
    unary main_v417 main_v418 (broadcastInDim S4096x4096 ![] bcast_S_S4096x4096 : (⟨S_, .f32⟩ : BufTy).Contents (Elt F) → (⟨S4096x4096, .f32⟩ : BufTy).Contents (Elt F)),
    binary main_v415 main_v418 main_v419 (cmpf .ogt : (⟨S4096x4096, .f32⟩ : BufTy).Contents (Elt F) → (⟨S4096x4096, .f32⟩ : BufTy).Contents (Elt F) → (⟨S4096x4096, .i1⟩ : BufTy).Contents (Elt F)),
    unary main_v419 main_v420 (uitofp .f32 : (⟨S4096x4096, .i1⟩ : BufTy).Contents (Elt F) → (⟨S4096x4096, .f32⟩ : BufTy).Contents (Elt F)),
    nullary main_cst_40 (constant S_ .f32 0x3F800000#32),
    unary main_cst_40 main_v421 (broadcastInDim S4096x4096 ![] bcast_S_S4096x4096 : (⟨S_, .f32⟩ : BufTy).Contents (Elt F) → (⟨S4096x4096, .f32⟩ : BufTy).Contents (Elt F)),
    binary main_v421 main_v242 main_v422 (mulf : (⟨S4096x4096, .f32⟩ : BufTy).Contents (Elt F) → (⟨S4096x4096, .f32⟩ : BufTy).Contents (Elt F) → (⟨S4096x4096, .f32⟩ : BufTy).Contents (Elt F)),
    binary main_v420 main_v422 main_v423 (addf : (⟨S4096x4096, .f32⟩ : BufTy).Contents (Elt F) → (⟨S4096x4096, .f32⟩ : BufTy).Contents (Elt F) → (⟨S4096x4096, .f32⟩ : BufTy).Contents (Elt F)),
    binary main_v423 main_v394 main_v424 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg11 main_v425 ((extractStridedSlice S1x2x256x256 ![2, 0, 0, 0] · slices_S3x2x256x256_S1x2x256x256_2_0_0_0) : (⟨S3x2x256x256, .f32⟩ : BufTy).Contents (Elt F) → (⟨S1x2x256x256, .f32⟩ : BufTy).Contents (Elt F)),
    reshape main_v425 main_v426 rfl shapeCasts_S1x2x256x256_S2x256x256,
    unary main_arg12 main_v427 ((extractStridedSlice S1x2x256 ![2, 0, 0] · slices_S3x2x256_S1x2x256_2_0_0) : (⟨S3x2x256, .f32⟩ : BufTy).Contents (Elt F) → (⟨S1x2x256, .f32⟩ : BufTy).Contents (Elt F)),
    reshape main_v427 main_v428 rfl shapeCasts_S1x2x256_S2x256,
    unary main_arg13 main_v429 ((extractStridedSlice S1x2x256 ![2, 0, 0] · slices_S3x2x256_S1x2x256_2_0_0) : (⟨S3x2x256, .f32⟩ : BufTy).Contents (Elt F) → (⟨S1x2x256, .f32⟩ : BufTy).Contents (Elt F)),
    reshape main_v429 main_v430 rfl shapeCasts_S1x2x256_S2x256,
    unary main_v426 main_v431 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v431 main_v432 rfl shapeCasts_S1x256x256_S256x256,
    binary main_v424 main_v432 main_v433 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v428 main_v434 ((extractStridedSlice S1x256 ![0, 0] · slices_S2x256_S1x256_0_0) : (⟨S2x256, .f32⟩ : BufTy).Contents (Elt F) → (⟨S1x256, .f32⟩ : BufTy).Contents (Elt F)),
    reshape main_v434 main_v435 rfl shapeCasts_S1x256_S256,
    unary main_v435 main_v436 (broadcastInDim S1x256 ![1] bcast_S256_S1x256_1 : (⟨S256, .f32⟩ : BufTy).Contents (Elt F) → (⟨S1x256, .f32⟩ : BufTy).Contents (Elt F)) ]

set_option maxRecDepth 8192 in
set_option maxHeartbeats 4000000 in
/-- The window is that straight line: the called functions unfolded at their calls, sequencing reassociated. -/
theorem part7_eq (c : Dev nD) : main_part7 (F := F) c = seq opsW7 := by
  simp only [main_part7, fn_where.body, fn_where_0.body, fn_elu.body, fn_where_1.body, fn_var.body, fn_relu.body, seq, bind_assoc, pure_bind] <;> rfl

set_option maxRecDepth 8192 in
theorem opsW7_sub : (opsW7 : List (HloOp τ sig (Elt F))).Forall fun op => op.bufs ⊆ tcRefs τ sig :=
  ⟨binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., nullary_bufs_sub .., binary_bufs_sub .., nullary_bufs_sub .., binary_bufs_sub .., unary_bufs_sub .., binary_bufs_sub .., unary_bufs_sub .., nullary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub ..⟩

set_option maxRecDepth 8192 in
theorem opsW7_fresh : (opsW7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW7_writes : (opsW7 : List (HloOp τ sig (Elt F))).Forall (WritesIn 692 782) :=
  ⟨writesIn_single main_v380 _ rfl (by decide) (by decide),
   writesIn_single main_v381 _ rfl (by decide) (by decide),
   writesIn_single main_v382 _ rfl (by decide) (by decide),
   writesIn_single main_v383 _ rfl (by decide) (by decide),
   writesIn_single main_v384 _ rfl (by decide) (by decide),
   writesIn_single main_v385 _ rfl (by decide) (by decide),
   writesIn_single main_call19_cst _ rfl (by decide) (by decide),
   writesIn_single main_call19_v0 _ rfl (by decide) (by decide),
   writesIn_single main_v386 _ rfl (by decide) (by decide),
   writesIn_single main_v387 _ rfl (by decide) (by decide),
   writesIn_single main_v388 _ rfl (by decide) (by decide),
   writesIn_single main_v389 _ rfl (by decide) (by decide),
   writesIn_single main_v390 _ rfl (by decide) (by decide),
   writesIn_single main_v391 _ rfl (by decide) (by decide),
   writesIn_single main_v392 _ rfl (by decide) (by decide),
   writesIn_single main_v393 _ rfl (by decide) (by decide),
   writesIn_single main_v394 _ rfl (by decide) (by decide),
   writesIn_single main_v395 _ rfl (by decide) (by decide),
   writesIn_single main_v396 _ rfl (by decide) (by decide),
   writesIn_single main_v397 _ rfl (by decide) (by decide),
   writesIn_single main_v398 _ rfl (by decide) (by decide),
   writesIn_single main_v399 _ rfl (by decide) (by decide),
   writesIn_single main_v400 _ rfl (by decide) (by decide),
   writesIn_single main_v401 _ rfl (by decide) (by decide),
   writesIn_single main_v402 _ rfl (by decide) (by decide),
   writesIn_single main_v403 _ rfl (by decide) (by decide),
   writesIn_single main_call20_cst _ rfl (by decide) (by decide),
   writesIn_single main_call20_v0 _ rfl (by decide) (by decide),
   writesIn_single main_call20_v1 _ rfl (by decide) (by decide),
   writesIn_single main_call20_cst_0 _ rfl (by decide) (by decide),
   writesIn_single main_call20_v2 _ rfl (by decide) (by decide),
   writesIn_single main_call20_v3 _ rfl (by decide) (by decide),
   writesIn_single main_call20_cst_1 _ rfl (by decide) (by decide),
   writesIn_single main_call20_call0_v0 _ rfl (by decide) (by decide),
   writesIn_single main_call20_call0_v1 _ rfl (by decide) (by decide),
   writesIn_single main_call20_v4 _ rfl (by decide) (by decide),
   writesIn_single main_call20_v5 _ rfl (by decide) (by decide),
   writesIn_single main_call20_cst_2 _ rfl (by decide) (by decide),
   writesIn_single main_call20_v6 _ rfl (by decide) (by decide),
   writesIn_single main_call20_v7 _ rfl (by decide) (by decide),
   writesIn_single main_v404 _ rfl (by decide) (by decide),
   writesIn_single main_v405 _ rfl (by decide) (by decide),
   writesIn_single main_v406 _ rfl (by decide) (by decide),
   writesIn_single main_v407 _ rfl (by decide) (by decide),
   writesIn_single main_v408 _ rfl (by decide) (by decide),
   writesIn_single main_v409 _ rfl (by decide) (by decide),
   writesIn_single main_v410 _ rfl (by decide) (by decide),
   writesIn_single main_v411 _ rfl (by decide) (by decide),
   writesIn_single main_v412 _ rfl (by decide) (by decide),
   writesIn_single main_call21_cst _ rfl (by decide) (by decide),
   writesIn_single main_call21_v0 _ rfl (by decide) (by decide),
   writesIn_single main_call21_v1 _ rfl (by decide) (by decide),
   writesIn_single main_call21_cst_0 _ rfl (by decide) (by decide),
   writesIn_single main_call21_v2 _ rfl (by decide) (by decide),
   writesIn_single main_call21_v3 _ rfl (by decide) (by decide),
   writesIn_single main_call21_cst_1 _ rfl (by decide) (by decide),
   writesIn_single main_call21_call0_v0 _ rfl (by decide) (by decide),
   writesIn_single main_call21_call0_v1 _ rfl (by decide) (by decide),
   writesIn_single main_call21_v4 _ rfl (by decide) (by decide),
   writesIn_single main_call21_v5 _ rfl (by decide) (by decide),
   writesIn_single main_call21_cst_2 _ rfl (by decide) (by decide),
   writesIn_single main_call21_v6 _ rfl (by decide) (by decide),
   writesIn_single main_call21_v7 _ rfl (by decide) (by decide),
   writesIn_single main_v413 _ rfl (by decide) (by decide),
   writesIn_single main_v414 _ rfl (by decide) (by decide),
   writesIn_single main_v415 _ rfl (by decide) (by decide),
   writesIn_single main_cst_38 _ rfl (by decide) (by decide),
   writesIn_single main_v416 _ rfl (by decide) (by decide),
   writesIn_single main_cst_39 _ rfl (by decide) (by decide),
   writesIn_single main_v417 _ rfl (by decide) (by decide),
   writesIn_single main_v418 _ rfl (by decide) (by decide),
   writesIn_single main_v419 _ rfl (by decide) (by decide),
   writesIn_single main_v420 _ rfl (by decide) (by decide),
   writesIn_single main_cst_40 _ rfl (by decide) (by decide),
   writesIn_single main_v421 _ rfl (by decide) (by decide),
   writesIn_single main_v422 _ rfl (by decide) (by decide),
   writesIn_single main_v423 _ rfl (by decide) (by decide),
   writesIn_single main_v424 _ rfl (by decide) (by decide),
   writesIn_single main_v425 _ rfl (by decide) (by decide),
   writesIn_single main_v426 _ rfl (by decide) (by decide),
   writesIn_single main_v427 _ rfl (by decide) (by decide),
   writesIn_single main_v428 _ rfl (by decide) (by decide),
   writesIn_single main_v429 _ rfl (by decide) (by decide),
   writesIn_single main_v430 _ rfl (by decide) (by decide),
   writesIn_single main_v431 _ rfl (by decide) (by decide),
   writesIn_single main_v432 _ rfl (by decide) (by decide),
   writesIn_single main_v433 _ rfl (by decide) (by decide),
   writesIn_single main_v434 _ rfl (by decide) (by decide),
   writesIn_single main_v435 _ rfl (by decide) (by decide),
   writesIn_single main_v436 _ rfl (by decide) (by decide)⟩

end Cert.ReferenceIdeal.Hand

end
-- ==== Proof.RefRunW08.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 764 … 860 of 1674 (window main_part8): they write the buffers 782 … 878 in order. -/
noncomputable abbrev opsW8 : List (HloOp τ sig (Elt F)) :=
  [ unary main_v436 main_v437 (broadcastInDim S4096x256 ![0, 1] bcast_S1x256_S4096x256_0_1 : (⟨S1x256, .f32⟩ : BufTy).Contents (Elt F) → (⟨S4096x256, .f32⟩ : BufTy).Contents (Elt F)),
    binary main_v433 main_v437 main_v438 (addf : (⟨S4096x256, .f32⟩ : BufTy).Contents (Elt F) → (⟨S4096x256, .f32⟩ : BufTy).Contents (Elt F) → (⟨S4096x256, .f32⟩ : BufTy).Contents (Elt F)),
    nullary main_cst_41 (constant S_ .f32 0x00000000#32),
    binary main_v438 main_cst_41 main_v439 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_42 (constant S_ .f32 0x45800000#32),
    unary main_cst_42 main_v440 (broadcastInDim S256 ![] bcast_S_S256 : (⟨S_, .f32⟩ : BufTy).Contents (Elt F) → (⟨S256, .f32⟩ : BufTy).Contents (Elt F)),
    binary main_v439 main_v440 main_v441 (Host.divf : (⟨S256, .f32⟩ : BufTy).Contents (Elt F) → (⟨S256, .f32⟩ : BufTy).Contents (Elt F) → (⟨S256, .f32⟩ : BufTy).Contents (Elt F)),
    nullary main_c_43 (constantI S_ 32 0#32),
    TRef.nullary main_call22.cst (constant S_ .f32 0x00000000#32),
    TRef.binary (.of main_v438 : TRef sig ⟨S4096x256, .f32⟩) main_call22.cst main_call22.v0 (fun x v => Host.reduceAdd x v reducesTo_S4096x256_S256_d0 h_S_),
    TRef.unary main_call22.v0 main_call22.v1 (broadcastInDim S1x256 ![1] bcast_S256_S1x256_1),
    TRef.nullary main_call22.cst_0 (constant S_ .f32 0x45800000#32),
    TRef.unary main_call22.cst_0 main_call22.v2 (broadcastInDim S1x256 ![] bcast_S_S1x256),
    TRef.binary main_call22.v1 main_call22.v2 main_call22.v3 Host.divf,
    TRef.unary main_call22.v3 main_call22.v4 (broadcastInDim S4096x256 ![0, 1] bcast_S1x256_S4096x256_0_1),
    TRef.binary (.of main_v438 : TRef sig ⟨S4096x256, .f32⟩) main_call22.v4 main_call22.v5 subf,
    TRef.binary main_call22.v5 main_call22.v5 main_call22.v6 mulf,
    TRef.unary (.of main_c_43 : TRef sig ⟨S_, .i32⟩) main_call22.v7 (sitofp .f32),
    TRef.nullary main_call22.cst_1 (constant S_ .f32 0x45800000#32),
    TRef.binary main_call22.cst_1 main_call22.v7 main_call22.v8 subf,
    TRef.nullary main_call22.cst_2 (constant S_ .f32 0x00000000#32),
    TRef.binary main_call22.v6 main_call22.cst_2 main_call22.v9 (fun x v => Host.reduceAdd x v reducesTo_S4096x256_S256_d0 h_S_),
    TRef.unary main_call22.v8 main_call22.v10 (broadcastInDim S256 ![] bcast_S_S256),
    TRef.binary main_call22.v9 main_call22.v10 main_call22.v11 Host.divf,
    TRef.nullary main_call22.cst_3 (constant S_ .f32 0x00000000#32),
    TRef.binary main_call22.v8 main_call22.cst_3 main_call22.v12 (cmpf .ogt),
    TRef.nullary main_call22.cst_4 (constant S_ .f32 0x7FC00000#32),
    TRef.unary main_call22.cst_4 main_call22_call0.v0 id,
    TRef.unary main_call22_call0.v0 main_call22_call0.v1 (broadcastInDim S256 ![] bcast_S_S256),
    TRef.ternary main_call22.v12 main_call22.v11 main_call22_call0.v1 main_call22_call0.v2 (fun p a b => select (broadcastInDim S256 ![] bcast_S_S256 p) a b),
    unary main_v441 main_v443 (broadcastInDim S1x256 ![1] bcast_S256_S1x256_1 : (⟨S256, .f32⟩ : BufTy).Contents (Elt F) → (⟨S1x256, .f32⟩ : BufTy).Contents (Elt F)),
    unary main_v443 main_v444 (broadcastInDim S4096x256 ![0, 1] bcast_S1x256_S4096x256_0_1 : (⟨S1x256, .f32⟩ : BufTy).Contents (Elt F) → (⟨S4096x256, .f32⟩ : BufTy).Contents (Elt F)),
    binary main_v438 main_v444 main_v445 (subf : (⟨S4096x256, .f32⟩ : BufTy).Contents (Elt F) → (⟨S4096x256, .f32⟩ : BufTy).Contents (Elt F) → (⟨S4096x256, .f32⟩ : BufTy).Contents (Elt F)),
    nullary main_cst_44 (constant S_ .f32 0x3727C5AC#32),
    unary main_cst_44 main_v446 (broadcastInDim S256 ![] bcast_S_S256 : (⟨S_, .f32⟩ : BufTy).Contents (Elt F) → (⟨S256, .f32⟩ : BufTy).Contents (Elt F)),
    binary main_v442 main_v446 main_v447 (addf : (⟨S256, .f32⟩ : BufTy).Contents (Elt F) → (⟨S256, .f32⟩ : BufTy).Contents (Elt F) → (⟨S256, .f32⟩ : BufTy).Contents (Elt F)),
    unary main_v447 main_v448 (Host.rsqrt : (⟨S256, .f32⟩ : BufTy).Contents (Elt F) → (⟨S256, .f32⟩ : BufTy).Contents (Elt F)),
    unary main_v448 main_v449 (broadcastInDim S1x256 ![1] bcast_S256_S1x256_1 : (⟨S256, .f32⟩ : BufTy).Contents (Elt F) → (⟨S1x256, .f32⟩ : BufTy).Contents (Elt F)),
    unary main_v449 main_v450 (broadcastInDim S4096x256 ![0, 1] bcast_S1x256_S4096x256_0_1 : (⟨S1x256, .f32⟩ : BufTy).Contents (Elt F) → (⟨S4096x256, .f32⟩ : BufTy).Contents (Elt F)),
    binary main_v445 main_v450 main_v451 (mulf : (⟨S4096x256, .f32⟩ : BufTy).Contents (Elt F) → (⟨S4096x256, .f32⟩ : BufTy).Contents (Elt F) → (⟨S4096x256, .f32⟩ : BufTy).Contents (Elt F)),
    unary main_v430 main_v452 ((extractStridedSlice S1x256 ![0, 0] · slices_S2x256_S1x256_0_0) : (⟨S2x256, .f32⟩ : BufTy).Contents (Elt F) → (⟨S1x256, .f32⟩ : BufTy).Contents (Elt F)),
    reshape main_v452 main_v453 rfl shapeCasts_S1x256_S256,
    unary main_v453 main_v454 (broadcastInDim S1x256 ![1] bcast_S256_S1x256_1 : (⟨S256, .f32⟩ : BufTy).Contents (Elt F) → (⟨S1x256, .f32⟩ : BufTy).Contents (Elt F)),
    unary main_v454 main_v455 (broadcastInDim S4096x256 ![0, 1] bcast_S1x256_S4096x256_0_1 : (⟨S1x256, .f32⟩ : BufTy).Contents (Elt F) → (⟨S4096x256, .f32⟩ : BufTy).Contents (Elt F)),
    binary main_v451 main_v455 main_v456 (mulf : (⟨S4096x256, .f32⟩ : BufTy).Contents (Elt F) → (⟨S4096x256, .f32⟩ : BufTy).Contents (Elt F) → (⟨S4096x256, .f32⟩ : BufTy).Contents (Elt F)),
    unary main_v430 main_v457 ((extractStridedSlice S1x256 ![1, 0] · slices_S2x256_S1x256_1_0) : (⟨S2x256, .f32⟩ : BufTy).Contents (Elt F) → (⟨S1x256, .f32⟩ : BufTy).Contents (Elt F)),
    reshape main_v457 main_v458 rfl shapeCasts_S1x256_S256,
    unary main_v458 main_v459 (broadcastInDim S1x256 ![1] bcast_S256_S1x256_1 : (⟨S256, .f32⟩ : BufTy).Contents (Elt F) → (⟨S1x256, .f32⟩ : BufTy).Contents (Elt F)),
    unary main_v459 main_v460 (broadcastInDim S4096x256 ![0, 1] bcast_S1x256_S4096x256_0_1 : (⟨S1x256, .f32⟩ : BufTy).Contents (Elt F) → (⟨S4096x256, .f32⟩ : BufTy).Contents (Elt F)),
    binary main_v456 main_v460 main_v461 (addf : (⟨S4096x256, .f32⟩ : BufTy).Contents (Elt F) → (⟨S4096x256, .f32⟩ : BufTy).Contents (Elt F) → (⟨S4096x256, .f32⟩ : BufTy).Contents (Elt F)),
    TRef.nullary main_call23.cst (constant S_ .f32 0x00000000#32),
    TRef.unary main_call23.cst main_call23.v0 (broadcastInDim S4096x256 ![] bcast_S_S4096x256),
    TRef.binary (.of main_v461 : TRef sig ⟨S4096x256, .f32⟩) main_call23.v0 main_call23.v1 maximumf,
    unary main_v426 main_v463 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v463 main_v464 rfl shapeCasts_S1x256x256_S256x256,
    binary main_v462 main_v464 main_v465 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v428 main_v466 ((extractStridedSlice S1x256 ![1, 0] · slices_S2x256_S1x256_1_0) : (⟨S2x256, .f32⟩ : BufTy).Contents (Elt F) → (⟨S1x256, .f32⟩ : BufTy).Contents (Elt F)),
    reshape main_v466 main_v467 rfl shapeCasts_S1x256_S256,
    unary main_v467 main_v468 (broadcastInDim S1x256 ![1] bcast_S256_S1x256_1 : (⟨S256, .f32⟩ : BufTy).Contents (Elt F) → (⟨S1x256, .f32⟩ : BufTy).Contents (Elt F)),
    unary main_v468 main_v469 (broadcastInDim S4096x256 ![0, 1] bcast_S1x256_S4096x256_0_1 : (⟨S1x256, .f32⟩ : BufTy).Contents (Elt F) → (⟨S4096x256, .f32⟩ : BufTy).Contents (Elt F)),
    binary main_v465 main_v469 main_v470 (addf : (⟨S4096x256, .f32⟩ : BufTy).Contents (Elt F) → (⟨S4096x256, .f32⟩ : BufTy).Contents (Elt F) → (⟨S4096x256, .f32⟩ : BufTy).Contents (Elt F)),
    binary main_v395 main_v470 main_v471 (addf : (⟨S4096x256, .f32⟩ : BufTy).Contents (Elt F) → (⟨S4096x256, .f32⟩ : BufTy).Contents (Elt F) → (⟨S4096x256, .f32⟩ : BufTy).Contents (Elt F)),
    nullary main_cst_45 (constant S_ .f32 0x40400000#32),
    unary main_cst_45 main_v472 (broadcastInDim S4096x256 ![] bcast_S_S4096x256 : (⟨S_, .f32⟩ : BufTy).Contents (Elt F) → (⟨S4096x256, .f32⟩ : BufTy).Contents (Elt F)),
    binary main_v471 main_v472 main_v473 (Host.divf : (⟨S4096x256, .f32⟩ : BufTy).Contents (Elt F) → (⟨S4096x256, .f32⟩ : BufTy).Contents (Elt F) → (⟨S4096x256, .f32⟩ : BufTy).Contents (Elt F)),
    nullary main_v474 (iotaInDim S4096x4096 32 0),
    nullary main_v475 (iotaInDim S4096x4096 32 1),
    nullary main_c_46 (constantI S_ 32 0#32),
    unary main_c_46 main_v476 (broadcastInDim S4096x4096 ![] bcast_S_S4096x4096 : (⟨S_, .i32⟩ : BufTy).Contents (Elt F) → (⟨S4096x4096, .i32⟩ : BufTy).Contents (Elt F)),
    binary main_v474 main_v476 main_v477 (addi : (⟨S4096x4096, .i32⟩ : BufTy).Contents (Elt F) → (⟨S4096x4096, .i32⟩ : BufTy).Contents (Elt F) → (⟨S4096x4096, .i32⟩ : BufTy).Contents (Elt F)),
    binary main_v477 main_v475 main_v478 (cmpi .eq : (⟨S4096x4096, .i32⟩ : BufTy).Contents (Elt F) → (⟨S4096x4096, .i32⟩ : BufTy).Contents (Elt F) → (⟨S4096x4096, .i1⟩ : BufTy).Contents (Elt F)),
    unary main_v478 main_v479 (uitofp .f32 : (⟨S4096x4096, .i1⟩ : BufTy).Contents (Elt F) → (⟨S4096x4096, .f32⟩ : BufTy).Contents (Elt F)),
    nullary main_cst_47 (constant S_ .f32 0x00000000#32),
    unary main_cst_47 main_v480 (broadcastInDim S4096x256 ![] bcast_S_S4096x256 : (⟨S_, .f32⟩ : BufTy).Contents (Elt F) → (⟨S4096x256, .f32⟩ : BufTy).Contents (Elt F)),
    unary main_arg14 main_v481 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v481 main_v482 rfl shapeCasts_S1x256x256_S256x256,
    binary main_arg2 main_v482 main_v483 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg15 main_v484 ((extractStridedSlice S1x256 ![0, 0] · slices_S2x256_S1x256_0_0) : (⟨S2x256, .f32⟩ : BufTy).Contents (Elt F) → (⟨S1x256, .f32⟩ : BufTy).Contents (Elt F)),
    reshape main_v484 main_v485 rfl shapeCasts_S1x256_S256,
    unary main_v485 main_v486 (broadcastInDim S1x256 ![1] bcast_S256_S1x256_1 : (⟨S256, .f32⟩ : BufTy).Contents (Elt F) → (⟨S1x256, .f32⟩ : BufTy).Contents (Elt F)),
    unary main_v486 main_v487 (broadcastInDim S4096x256 ![0, 1] bcast_S1x256_S4096x256_0_1 : (⟨S1x256, .f32⟩ : BufTy).Contents (Elt F) → (⟨S4096x256, .f32⟩ : BufTy).Contents (Elt F)),
    binary main_v483 main_v487 main_v488 (addf : (⟨S4096x256, .f32⟩ : BufTy).Contents (Elt F) → (⟨S4096x256, .f32⟩ : BufTy).Contents (Elt F) → (⟨S4096x256, .f32⟩ : BufTy).Contents (Elt F)),
    TRef.nullary main_call24.cst (constant S_ .f32 0x00000000#32),
    TRef.unary main_call24.cst main_call24.v0 (broadcastInDim S4096x256 ![] bcast_S_S4096x256),
    TRef.binary (.of main_v488 : TRef sig ⟨S4096x256, .f32⟩) main_call24.v0 main_call24.v1 (cmpf .ogt),
    TRef.nullary main_call24.cst_0 (constant S_ .f32 0x00000000#32),
    TRef.unary main_call24.cst_0 main_call24.v2 (broadcastInDim S4096x256 ![] bcast_S_S4096x256),
    TRef.binary (.of main_v488 : TRef sig ⟨S4096x256, .f32⟩) main_call24.v2 main_call24.v3 (cmpf .ogt),
    TRef.nullary main_call24.cst_1 (constant S_ .f32 0x00000000#32),
    TRef.unary main_call24.cst_1 main_call24_call0.v0 id,
    TRef.unary main_call24_call0.v0 main_call24_call0.v1 (broadcastInDim S4096x256 ![] bcast_S_S4096x256),
    TRef.ternary main_call24.v3 main_call24_call0.v1 (.of main_v488 : TRef sig ⟨S4096x256, .f32⟩) main_call24_call0.v2 select,
    TRef.unary main_call24.call0.v2 main_call24.v5 Host.expm1,
    TRef.nullary main_call24.cst_2 (constant S_ .f32 0x3F800000#32),
    TRef.unary main_call24.cst_2 main_call24.v6 (broadcastInDim S4096x256 ![] bcast_S_S4096x256),
    TRef.binary main_call24.v6 main_call24.v5 main_call24.v7 mulf,
    TRef.ternary main_call24.v1 (.of main_v488 : TRef sig ⟨S4096x256, .f32⟩) main_call24.v7 main_call24_call1.v0 select ]

set_option maxRecDepth 8192 in
set_option maxHeartbeats 4000000 in
/-- The window is that straight line: the called functions unfolded at their calls, sequencing reassociated. -/
theorem part8_eq (c : Dev nD) : main_part8 (F := F) c = seq opsW8 := by
  simp only [main_part8, fn_where.body, fn_where_0.body, fn_elu.body, fn_where_1.body, fn_var.body, fn_relu.body, seq, bind_assoc, pure_bind] <;> rfl

set_option maxRecDepth 8192 in
theorem opsW8_sub : (opsW8 : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in
theorem opsW8_fresh : (opsW8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW8_writes : (opsW8 : List (HloOp τ sig (Elt F))).Forall (WritesIn 782 879) :=
  ⟨writesIn_single main_v437 _ rfl (by decide) (by decide),
   writesIn_single main_v438 _ rfl (by decide) (by decide),
   writesIn_single main_cst_41 _ rfl (by decide) (by decide),
   writesIn_single main_v439 _ rfl (by decide) (by decide),
   writesIn_single main_cst_42 _ rfl (by decide) (by decide),
   writesIn_single main_v440 _ rfl (by decide) (by decide),
   writesIn_single main_v441 _ rfl (by decide) (by decide),
   writesIn_single main_c_43 _ rfl (by decide) (by decide),
   writesIn_single main_call22_cst _ rfl (by decide) (by decide),
   writesIn_single main_call22_v0 _ rfl (by decide) (by decide),
   writesIn_single main_call22_v1 _ rfl (by decide) (by decide),
   writesIn_single main_call22_cst_0 _ rfl (by decide) (by decide),
   writesIn_single main_call22_v2 _ rfl (by decide) (by decide),
   writesIn_single main_call22_v3 _ rfl (by decide) (by decide),
   writesIn_single main_call22_v4 _ rfl (by decide) (by decide),
   writesIn_single main_call22_v5 _ rfl (by decide) (by decide),
   writesIn_single main_call22_v6 _ rfl (by decide) (by decide),
   writesIn_single main_call22_v7 _ rfl (by decide) (by decide),
   writesIn_single main_call22_cst_1 _ rfl (by decide) (by decide),
   writesIn_single main_call22_v8 _ rfl (by decide) (by decide),
   writesIn_single main_call22_cst_2 _ rfl (by decide) (by decide),
   writesIn_single main_call22_v9 _ rfl (by decide) (by decide),
   writesIn_single main_call22_v10 _ rfl (by decide) (by decide),
   writesIn_single main_call22_v11 _ rfl (by decide) (by decide),
   writesIn_single main_call22_cst_3 _ rfl (by decide) (by decide),
   writesIn_single main_call22_v12 _ rfl (by decide) (by decide),
   writesIn_single main_call22_cst_4 _ rfl (by decide) (by decide),
   writesIn_single main_call22_call0_v0 _ rfl (by decide) (by decide),
   writesIn_single main_call22_call0_v1 _ rfl (by decide) (by decide),
   writesIn_single main_v442 _ rfl (by decide) (by decide),
   writesIn_single main_v443 _ rfl (by decide) (by decide),
   writesIn_single main_v444 _ rfl (by decide) (by decide),
   writesIn_single main_v445 _ rfl (by decide) (by decide),
   writesIn_single main_cst_44 _ rfl (by decide) (by decide),
   writesIn_single main_v446 _ rfl (by decide) (by decide),
   writesIn_single main_v447 _ rfl (by decide) (by decide),
   writesIn_single main_v448 _ rfl (by decide) (by decide),
   writesIn_single main_v449 _ rfl (by decide) (by decide),
   writesIn_single main_v450 _ rfl (by decide) (by decide),
   writesIn_single main_v451 _ rfl (by decide) (by decide),
   writesIn_single main_v452 _ rfl (by decide) (by decide),
   writesIn_single main_v453 _ rfl (by decide) (by decide),
   writesIn_single main_v454 _ rfl (by decide) (by decide),
   writesIn_single main_v455 _ rfl (by decide) (by decide),
   writesIn_single main_v456 _ rfl (by decide) (by decide),
   writesIn_single main_v457 _ rfl (by decide) (by decide),
   writesIn_single main_v458 _ rfl (by decide) (by decide),
   writesIn_single main_v459 _ rfl (by decide) (by decide),
   writesIn_single main_v460 _ rfl (by decide) (by decide),
   writesIn_single main_v461 _ rfl (by decide) (by decide),
   writesIn_single main_call23_cst _ rfl (by decide) (by decide),
   writesIn_single main_call23_v0 _ rfl (by decide) (by decide),
   writesIn_single main_v462 _ rfl (by decide) (by decide),
   writesIn_single main_v463 _ rfl (by decide) (by decide),
   writesIn_single main_v464 _ rfl (by decide) (by decide),
   writesIn_single main_v465 _ rfl (by decide) (by decide),
   writesIn_single main_v466 _ rfl (by decide) (by decide),
   writesIn_single main_v467 _ rfl (by decide) (by decide),
   writesIn_single main_v468 _ rfl (by decide) (by decide),
   writesIn_single main_v469 _ rfl (by decide) (by decide),
   writesIn_single main_v470 _ rfl (by decide) (by decide),
   writesIn_single main_v471 _ rfl (by decide) (by decide),
   writesIn_single main_cst_45 _ rfl (by decide) (by decide),
   writesIn_single main_v472 _ rfl (by decide) (by decide),
   writesIn_single main_v473 _ rfl (by decide) (by decide),
   writesIn_single main_v474 _ rfl (by decide) (by decide),
   writesIn_single main_v475 _ rfl (by decide) (by decide),
   writesIn_single main_c_46 _ rfl (by decide) (by decide),
   writesIn_single main_v476 _ rfl (by decide) (by decide),
   writesIn_single main_v477 _ rfl (by decide) (by decide),
   writesIn_single main_v478 _ rfl (by decide) (by decide),
   writesIn_single main_v479 _ rfl (by decide) (by decide),
   writesIn_single main_cst_47 _ rfl (by decide) (by decide),
   writesIn_single main_v480 _ rfl (by decide) (by decide),
   writesIn_single main_v481 _ rfl (by decide) (by decide),
   writesIn_single main_v482 _ rfl (by decide) (by decide),
   writesIn_single main_v483 _ rfl (by decide) (by decide),
   writesIn_single main_v484 _ rfl (by decide) (by decide),
   writesIn_single main_v485 _ rfl (by decide) (by decide),
   writesIn_single main_v486 _ rfl (by decide) (by decide),
   writesIn_single main_v487 _ rfl (by decide) (by decide),
   writesIn_single main_v488 _ rfl (by decide) (by decide),
   writesIn_single main_call24_cst _ rfl (by decide) (by decide),
   writesIn_single main_call24_v0 _ rfl (by decide) (by decide),
   writesIn_single main_call24_v1 _ rfl (by decide) (by decide),
   writesIn_single main_call24_cst_0 _ rfl (by decide) (by decide),
   writesIn_single main_call24_v2 _ rfl (by decide) (by decide),
   writesIn_single main_call24_v3 _ rfl (by decide) (by decide),
   writesIn_single main_call24_cst_1 _ rfl (by decide) (by decide),
   writesIn_single main_call24_call0_v0 _ rfl (by decide) (by decide),
   writesIn_single main_call24_call0_v1 _ rfl (by decide) (by decide),
   writesIn_single main_call24_v4 _ rfl (by decide) (by decide),
   writesIn_single main_call24_v5 _ rfl (by decide) (by decide),
   writesIn_single main_call24_cst_2 _ rfl (by decide) (by decide),
   writesIn_single main_call24_v6 _ rfl (by decide) (by decide),
   writesIn_single main_call24_v7 _ rfl (by decide) (by decide),
   writesIn_single main_v489 _ rfl (by decide) (by decide)⟩

end Cert.ReferenceIdeal.Hand

end
-- ==== Proof.RefRunW09.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 861 … 955 of 1674 (window main_part9): they write the buffers 879 … 973 in order. -/
noncomputable abbrev opsW9 : List (HloOp τ sig (Elt F)) :=
  [ unary main_arg14 main_v490 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v490 main_v491 rfl shapeCasts_S1x256x256_S256x256,
    binary main_v489 main_v491 main_v492 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg15 main_v493 ((extractStridedSlice S1x256 ![1, 0] · slices_S2x256_S1x256_1_0) : (⟨S2x256, .f32⟩ : BufTy).Contents (Elt F) → (⟨S1x256, .f32⟩ : BufTy).Contents (Elt F)),
    reshape main_v493 main_v494 rfl shapeCasts_S1x256_S256,
    unary main_v494 main_v495 (broadcastInDim S1x256 ![1] bcast_S256_S1x256_1 : (⟨S256, .f32⟩ : BufTy).Contents (Elt F) → (⟨S1x256, .f32⟩ : BufTy).Contents (Elt F)),
    unary main_v495 main_v496 (broadcastInDim S4096x256 ![0, 1] bcast_S1x256_S4096x256_0_1 : (⟨S1x256, .f32⟩ : BufTy).Contents (Elt F) → (⟨S4096x256, .f32⟩ : BufTy).Contents (Elt F)),
    binary main_v492 main_v496 main_v497 (addf : (⟨S4096x256, .f32⟩ : BufTy).Contents (Elt F) → (⟨S4096x256, .f32⟩ : BufTy).Contents (Elt F) → (⟨S4096x256, .f32⟩ : BufTy).Contents (Elt F)),
    TRef.nullary main_call25.cst (constant S_ .f32 0x00000000#32),
    TRef.unary main_call25.cst main_call25.v0 (broadcastInDim S4096x256 ![] bcast_S_S4096x256),
    TRef.binary (.of main_v497 : TRef sig ⟨S4096x256, .f32⟩) main_call25.v0 main_call25.v1 (cmpf .ogt),
    TRef.nullary main_call25.cst_0 (constant S_ .f32 0x00000000#32),
    TRef.unary main_call25.cst_0 main_call25.v2 (broadcastInDim S4096x256 ![] bcast_S_S4096x256),
    TRef.binary (.of main_v497 : TRef sig ⟨S4096x256, .f32⟩) main_call25.v2 main_call25.v3 (cmpf .ogt),
    TRef.nullary main_call25.cst_1 (constant S_ .f32 0x00000000#32),
    TRef.unary main_call25.cst_1 main_call25_call0.v0 id,
    TRef.unary main_call25_call0.v0 main_call25_call0.v1 (broadcastInDim S4096x256 ![] bcast_S_S4096x256),
    TRef.ternary main_call25.v3 main_call25_call0.v1 (.of main_v497 : TRef sig ⟨S4096x256, .f32⟩) main_call25_call0.v2 select,
    TRef.unary main_call25.call0.v2 main_call25.v5 Host.expm1,
    TRef.nullary main_call25.cst_2 (constant S_ .f32 0x3F800000#32),
    TRef.unary main_call25.cst_2 main_call25.v6 (broadcastInDim S4096x256 ![] bcast_S_S4096x256),
    TRef.binary main_call25.v6 main_call25.v5 main_call25.v7 mulf,
    TRef.ternary main_call25.v1 (.of main_v497 : TRef sig ⟨S4096x256, .f32⟩) main_call25.v7 main_call25_call1.v0 select,
    unary main_v498 main_v499 ((transpose S256x4096 [1, 0] · transposes_S4096x256_S256x4096_1_0) : (⟨S4096x256, .f32⟩ : BufTy).Contents (Elt F) → (⟨S256x4096, .f32⟩ : BufTy).Contents (Elt F)),
    binary main_v498 main_v499 main_v500 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_48 (constant S_ .f32 0x00000000#32),
    binary main_v500 main_cst_48 main_v501 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_49 (constant S_ .f32 0x4B800000#32),
    binary main_v501 main_cst_49 main_v502 (Host.divf : (⟨S_, .f32⟩ : BufTy).Contents (Elt F) → (⟨S_, .f32⟩ : BufTy).Contents (Elt F) → (⟨S_, .f32⟩ : BufTy).Contents (Elt F)),
    unary main_v502 main_v503 (broadcastInDim S4096x4096 ![] bcast_S_S4096x4096 : (⟨S_, .f32⟩ : BufTy).Contents (Elt F) → (⟨S4096x4096, .f32⟩ : BufTy).Contents (Elt F)),
    binary main_v500 main_v503 main_v504 (cmpf .ogt : (⟨S4096x4096, .f32⟩ : BufTy).Contents (Elt F) → (⟨S4096x4096, .f32⟩ : BufTy).Contents (Elt F) → (⟨S4096x4096, .i1⟩ : BufTy).Contents (Elt F)),
    unary main_v504 main_v505 (uitofp .f32 : (⟨S4096x4096, .i1⟩ : BufTy).Contents (Elt F) → (⟨S4096x4096, .f32⟩ : BufTy).Contents (Elt F)),
    nullary main_cst_50 (constant S_ .f32 0x3F800000#32),
    unary main_cst_50 main_v506 (broadcastInDim S4096x4096 ![] bcast_S_S4096x4096 : (⟨S_, .f32⟩ : BufTy).Contents (Elt F) → (⟨S4096x4096, .f32⟩ : BufTy).Contents (Elt F)),
    binary main_v506 main_v479 main_v507 (mulf : (⟨S4096x4096, .f32⟩ : BufTy).Contents (Elt F) → (⟨S4096x4096, .f32⟩ : BufTy).Contents (Elt F) → (⟨S4096x4096, .f32⟩ : BufTy).Contents (Elt F)),
    binary main_v505 main_v507 main_v508 (addf : (⟨S4096x4096, .f32⟩ : BufTy).Contents (Elt F) → (⟨S4096x4096, .f32⟩ : BufTy).Contents (Elt F) → (⟨S4096x4096, .f32⟩ : BufTy).Contents (Elt F)),
    binary main_v508 main_arg2 main_v509 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg16 main_v510 ((extractStridedSlice S1x2x256x256 ![0, 0, 0, 0] · slices_S3x2x256x256_S1x2x256x256_0_0_0_0) : (⟨S3x2x256x256, .f32⟩ : BufTy).Contents (Elt F) → (⟨S1x2x256x256, .f32⟩ : BufTy).Contents (Elt F)),
    reshape main_v510 main_v511 rfl shapeCasts_S1x2x256x256_S2x256x256,
    unary main_arg17 main_v512 ((extractStridedSlice S1x2x256 ![0, 0, 0] · slices_S3x2x256_S1x2x256_0_0_0) : (⟨S3x2x256, .f32⟩ : BufTy).Contents (Elt F) → (⟨S1x2x256, .f32⟩ : BufTy).Contents (Elt F)),
    reshape main_v512 main_v513 rfl shapeCasts_S1x2x256_S2x256,
    unary main_arg18 main_v514 ((extractStridedSlice S1x2x256 ![0, 0, 0] · slices_S3x2x256_S1x2x256_0_0_0) : (⟨S3x2x256, .f32⟩ : BufTy).Contents (Elt F) → (⟨S1x2x256, .f32⟩ : BufTy).Contents (Elt F)),
    reshape main_v514 main_v515 rfl shapeCasts_S1x2x256_S2x256,
    unary main_v511 main_v516 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v516 main_v517 rfl shapeCasts_S1x256x256_S256x256,
    binary main_v509 main_v517 main_v518 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v513 main_v519 ((extractStridedSlice S1x256 ![0, 0] · slices_S2x256_S1x256_0_0) : (⟨S2x256, .f32⟩ : BufTy).Contents (Elt F) → (⟨S1x256, .f32⟩ : BufTy).Contents (Elt F)),
    reshape main_v519 main_v520 rfl shapeCasts_S1x256_S256,
    unary main_v520 main_v521 (broadcastInDim S1x256 ![1] bcast_S256_S1x256_1 : (⟨S256, .f32⟩ : BufTy).Contents (Elt F) → (⟨S1x256, .f32⟩ : BufTy).Contents (Elt F)),
    unary main_v521 main_v522 (broadcastInDim S4096x256 ![0, 1] bcast_S1x256_S4096x256_0_1 : (⟨S1x256, .f32⟩ : BufTy).Contents (Elt F) → (⟨S4096x256, .f32⟩ : BufTy).Contents (Elt F)),
    binary main_v518 main_v522 main_v523 (addf : (⟨S4096x256, .f32⟩ : BufTy).Contents (Elt F) → (⟨S4096x256, .f32⟩ : BufTy).Contents (Elt F) → (⟨S4096x256, .f32⟩ : BufTy).Contents (Elt F)),
    nullary main_cst_51 (constant S_ .f32 0x00000000#32),
    binary main_v523 main_cst_51 main_v524 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_52 (constant S_ .f32 0x45800000#32),
    unary main_cst_52 main_v525 (broadcastInDim S256 ![] bcast_S_S256 : (⟨S_, .f32⟩ : BufTy).Contents (Elt F) → (⟨S256, .f32⟩ : BufTy).Contents (Elt F)),
    binary main_v524 main_v525 main_v526 (Host.divf : (⟨S256, .f32⟩ : BufTy).Contents (Elt F) → (⟨S256, .f32⟩ : BufTy).Contents (Elt F) → (⟨S256, .f32⟩ : BufTy).Contents (Elt F)),
    nullary main_c_53 (constantI S_ 32 0#32),
    TRef.nullary main_call26.cst (constant S_ .f32 0x00000000#32),
    TRef.binary (.of main_v523 : TRef sig ⟨S4096x256, .f32⟩) main_call26.cst main_call26.v0 (fun x v => Host.reduceAdd x v reducesTo_S4096x256_S256_d0 h_S_),
    TRef.unary main_call26.v0 main_call26.v1 (broadcastInDim S1x256 ![1] bcast_S256_S1x256_1),
    TRef.nullary main_call26.cst_0 (constant S_ .f32 0x45800000#32),
    TRef.unary main_call26.cst_0 main_call26.v2 (broadcastInDim S1x256 ![] bcast_S_S1x256),
    TRef.binary main_call26.v1 main_call26.v2 main_call26.v3 Host.divf,
    TRef.unary main_call26.v3 main_call26.v4 (broadcastInDim S4096x256 ![0, 1] bcast_S1x256_S4096x256_0_1),
    TRef.binary (.of main_v523 : TRef sig ⟨S4096x256, .f32⟩) main_call26.v4 main_call26.v5 subf,
    TRef.binary main_call26.v5 main_call26.v5 main_call26.v6 mulf,
    TRef.unary (.of main_c_53 : TRef sig ⟨S_, .i32⟩) main_call26.v7 (sitofp .f32),
    TRef.nullary main_call26.cst_1 (constant S_ .f32 0x45800000#32),
    TRef.binary main_call26.cst_1 main_call26.v7 main_call26.v8 subf,
    TRef.nullary main_call26.cst_2 (constant S_ .f32 0x00000000#32),
    TRef.binary main_call26.v6 main_call26.cst_2 main_call26.v9 (fun x v => Host.reduceAdd x v reducesTo_S4096x256_S256_d0 h_S_),
    TRef.unary main_call26.v8 main_call26.v10 (broadcastInDim S256 ![] bcast_S_S256),
    TRef.binary main_call26.v9 main_call26.v10 main_call26.v11 Host.divf,
    TRef.nullary main_call26.cst_3 (constant S_ .f32 0x00000000#32),
    TRef.binary main_call26.v8 main_call26.cst_3 main_call26.v12 (cmpf .ogt),
    TRef.nullary main_call26.cst_4 (constant S_ .f32 0x7FC00000#32),
    TRef.unary main_call26.cst_4 main_call26_call0.v0 id,
    TRef.unary main_call26_call0.v0 main_call26_call0.v1 (broadcastInDim S256 ![] bcast_S_S256),
    TRef.ternary main_call26.v12 main_call26.v11 main_call26_call0.v1 main_call26_call0.v2 (fun p a b => select (broadcastInDim S256 ![] bcast_S_S256 p) a b),
    unary main_v526 main_v528 (broadcastInDim S1x256 ![1] bcast_S256_S1x256_1 : (⟨S256, .f32⟩ : BufTy).Contents (Elt F) → (⟨S1x256, .f32⟩ : BufTy).Contents (Elt F)),
    unary main_v528 main_v529 (broadcastInDim S4096x256 ![0, 1] bcast_S1x256_S4096x256_0_1 : (⟨S1x256, .f32⟩ : BufTy).Contents (Elt F) → (⟨S4096x256, .f32⟩ : BufTy).Contents (Elt F)),
    binary main_v523 main_v529 main_v530 (subf : (⟨S4096x256, .f32⟩ : BufTy).Contents (Elt F) → (⟨S4096x256, .f32⟩ : BufTy).Contents (Elt F) → (⟨S4096x256, .f32⟩ : BufTy).Contents (Elt F)),
    nullary main_cst_54 (constant S_ .f32 0x3727C5AC#32),
    unary main_cst_54 main_v531 (broadcastInDim S256 ![] bcast_S_S256 : (⟨S_, .f32⟩ : BufTy).Contents (Elt F) → (⟨S256, .f32⟩ : BufTy).Contents (Elt F)),
    binary main_v527 main_v531 main_v532 (addf : (⟨S256, .f32⟩ : BufTy).Contents (Elt F) → (⟨S256, .f32⟩ : BufTy).Contents (Elt F) → (⟨S256, .f32⟩ : BufTy).Contents (Elt F)),
    unary main_v532 main_v533 (Host.rsqrt : (⟨S256, .f32⟩ : BufTy).Contents (Elt F) → (⟨S256, .f32⟩ : BufTy).Contents (Elt F)),
    unary main_v533 main_v534 (broadcastInDim S1x256 ![1] bcast_S256_S1x256_1 : (⟨S256, .f32⟩ : BufTy).Contents (Elt F) → (⟨S1x256, .f32⟩ : BufTy).Contents (Elt F)),
    unary main_v534 main_v535 (broadcastInDim S4096x256 ![0, 1] bcast_S1x256_S4096x256_0_1 : (⟨S1x256, .f32⟩ : BufTy).Contents (Elt F) → (⟨S4096x256, .f32⟩ : BufTy).Contents (Elt F)),
    binary main_v530 main_v535 main_v536 (mulf : (⟨S4096x256, .f32⟩ : BufTy).Contents (Elt F) → (⟨S4096x256, .f32⟩ : BufTy).Contents (Elt F) → (⟨S4096x256, .f32⟩ : BufTy).Contents (Elt F)),
    unary main_v515 main_v537 ((extractStridedSlice S1x256 ![0, 0] · slices_S2x256_S1x256_0_0) : (⟨S2x256, .f32⟩ : BufTy).Contents (Elt F) → (⟨S1x256, .f32⟩ : BufTy).Contents (Elt F)),
    reshape main_v537 main_v538 rfl shapeCasts_S1x256_S256,
    unary main_v538 main_v539 (broadcastInDim S1x256 ![1] bcast_S256_S1x256_1 : (⟨S256, .f32⟩ : BufTy).Contents (Elt F) → (⟨S1x256, .f32⟩ : BufTy).Contents (Elt F)),
    unary main_v539 main_v540 (broadcastInDim S4096x256 ![0, 1] bcast_S1x256_S4096x256_0_1 : (⟨S1x256, .f32⟩ : BufTy).Contents (Elt F) → (⟨S4096x256, .f32⟩ : BufTy).Contents (Elt F)),
    binary main_v536 main_v540 main_v541 (mulf : (⟨S4096x256, .f32⟩ : BufTy).Contents (Elt F) → (⟨S4096x256, .f32⟩ : BufTy).Contents (Elt F) → (⟨S4096x256, .f32⟩ : BufTy).Contents (Elt F)),
    unary main_v515 main_v542 ((extractStridedSlice S1x256 ![1, 0] · slices_S2x256_S1x256_1_0) : (⟨S2x256, .f32⟩ : BufTy).Contents (Elt F) → (⟨S1x256, .f32⟩ : BufTy).Contents (Elt F)) ]

set_option maxRecDepth 8192 in
set_option maxHeartbeats 4000000 in
/-- The window is that straight line: the called functions unfolded at their calls, sequencing reassociated. -/
theorem part9_eq (c : Dev nD) : main_part9 (F := F) c = seq opsW9 := by
  simp only [main_part9, fn_where.body, fn_where_0.body, fn_elu.body, fn_where_1.body, fn_var.body, fn_relu.body, seq, bind_assoc, pure_bind] <;> rfl

set_option maxRecDepth 8192 in
theorem opsW9_sub : (opsW9 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., nullary_bufs_sub .., binary_bufs_sub .., nullary_bufs_sub .., binary_bufs_sub .., unary_bufs_sub .., binary_bufs_sub .., unary_bufs_sub .., nullary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub ..⟩

set_option maxRecDepth 8192 in
theorem opsW9_fresh : (opsW9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW9_writes : (opsW9 : List (HloOp τ sig (Elt F))).Forall (WritesIn 879 974) :=
  ⟨writesIn_single main_v490 _ rfl (by decide) (by decide),
   writesIn_single main_v491 _ rfl (by decide) (by decide),
   writesIn_single main_v492 _ rfl (by decide) (by decide),
   writesIn_single main_v493 _ rfl (by decide) (by decide),
   writesIn_single main_v494 _ rfl (by decide) (by decide),
   writesIn_single main_v495 _ rfl (by decide) (by decide),
   writesIn_single main_v496 _ rfl (by decide) (by decide),
   writesIn_single main_v497 _ rfl (by decide) (by decide),
   writesIn_single main_call25_cst _ rfl (by decide) (by decide),
   writesIn_single main_call25_v0 _ rfl (by decide) (by decide),
   writesIn_single main_call25_v1 _ rfl (by decide) (by decide),
   writesIn_single main_call25_cst_0 _ rfl (by decide) (by decide),
   writesIn_single main_call25_v2 _ rfl (by decide) (by decide),
   writesIn_single main_call25_v3 _ rfl (by decide) (by decide),
   writesIn_single main_call25_cst_1 _ rfl (by decide) (by decide),
   writesIn_single main_call25_call0_v0 _ rfl (by decide) (by decide),
   writesIn_single main_call25_call0_v1 _ rfl (by decide) (by decide),
   writesIn_single main_call25_v4 _ rfl (by decide) (by decide),
   writesIn_single main_call25_v5 _ rfl (by decide) (by decide),
   writesIn_single main_call25_cst_2 _ rfl (by decide) (by decide),
   writesIn_single main_call25_v6 _ rfl (by decide) (by decide),
   writesIn_single main_call25_v7 _ rfl (by decide) (by decide),
   writesIn_single main_v498 _ rfl (by decide) (by decide),
   writesIn_single main_v499 _ rfl (by decide) (by decide),
   writesIn_single main_v500 _ rfl (by decide) (by decide),
   writesIn_single main_cst_48 _ rfl (by decide) (by decide),
   writesIn_single main_v501 _ rfl (by decide) (by decide),
   writesIn_single main_cst_49 _ rfl (by decide) (by decide),
   writesIn_single main_v502 _ rfl (by decide) (by decide),
   writesIn_single main_v503 _ rfl (by decide) (by decide),
   writesIn_single main_v504 _ rfl (by decide) (by decide),
   writesIn_single main_v505 _ rfl (by decide) (by decide),
   writesIn_single main_cst_50 _ rfl (by decide) (by decide),
   writesIn_single main_v506 _ rfl (by decide) (by decide),
   writesIn_single main_v507 _ rfl (by decide) (by decide),
   writesIn_single main_v508 _ rfl (by decide) (by decide),
   writesIn_single main_v509 _ rfl (by decide) (by decide),
   writesIn_single main_v510 _ rfl (by decide) (by decide),
   writesIn_single main_v511 _ rfl (by decide) (by decide),
   writesIn_single main_v512 _ rfl (by decide) (by decide),
   writesIn_single main_v513 _ rfl (by decide) (by decide),
   writesIn_single main_v514 _ rfl (by decide) (by decide),
   writesIn_single main_v515 _ rfl (by decide) (by decide),
   writesIn_single main_v516 _ rfl (by decide) (by decide),
   writesIn_single main_v517 _ rfl (by decide) (by decide),
   writesIn_single main_v518 _ rfl (by decide) (by decide),
   writesIn_single main_v519 _ rfl (by decide) (by decide),
   writesIn_single main_v520 _ rfl (by decide) (by decide),
   writesIn_single main_v521 _ rfl (by decide) (by decide),
   writesIn_single main_v522 _ rfl (by decide) (by decide),
   writesIn_single main_v523 _ rfl (by decide) (by decide),
   writesIn_single main_cst_51 _ rfl (by decide) (by decide),
   writesIn_single main_v524 _ rfl (by decide) (by decide),
   writesIn_single main_cst_52 _ rfl (by decide) (by decide),
   writesIn_single main_v525 _ rfl (by decide) (by decide),
   writesIn_single main_v526 _ rfl (by decide) (by decide),
   writesIn_single main_c_53 _ rfl (by decide) (by decide),
   writesIn_single main_call26_cst _ rfl (by decide) (by decide),
   writesIn_single main_call26_v0 _ rfl (by decide) (by decide),
   writesIn_single main_call26_v1 _ rfl (by decide) (by decide),
   writesIn_single main_call26_cst_0 _ rfl (by decide) (by decide),
   writesIn_single main_call26_v2 _ rfl (by decide) (by decide),
   writesIn_single main_call26_v3 _ rfl (by decide) (by decide),
   writesIn_single main_call26_v4 _ rfl (by decide) (by decide),
   writesIn_single main_call26_v5 _ rfl (by decide) (by decide),
   writesIn_single main_call26_v6 _ rfl (by decide) (by decide),
   writesIn_single main_call26_v7 _ rfl (by decide) (by decide),
   writesIn_single main_call26_cst_1 _ rfl (by decide) (by decide),
   writesIn_single main_call26_v8 _ rfl (by decide) (by decide),
   writesIn_single main_call26_cst_2 _ rfl (by decide) (by decide),
   writesIn_single main_call26_v9 _ rfl (by decide) (by decide),
   writesIn_single main_call26_v10 _ rfl (by decide) (by decide),
   writesIn_single main_call26_v11 _ rfl (by decide) (by decide),
   writesIn_single main_call26_cst_3 _ rfl (by decide) (by decide),
   writesIn_single main_call26_v12 _ rfl (by decide) (by decide),
   writesIn_single main_call26_cst_4 _ rfl (by decide) (by decide),
   writesIn_single main_call26_call0_v0 _ rfl (by decide) (by decide),
   writesIn_single main_call26_call0_v1 _ rfl (by decide) (by decide),
   writesIn_single main_v527 _ rfl (by decide) (by decide),
   writesIn_single main_v528 _ rfl (by decide) (by decide),
   writesIn_single main_v529 _ rfl (by decide) (by decide),
   writesIn_single main_v530 _ rfl (by decide) (by decide),
   writesIn_single main_cst_54 _ rfl (by decide) (by decide),
   writesIn_single main_v531 _ rfl (by decide) (by decide),
   writesIn_single main_v532 _ rfl (by decide) (by decide),
   writesIn_single main_v533 _ rfl (by decide) (by decide),
   writesIn_single main_v534 _ rfl (by decide) (by decide),
   writesIn_single main_v535 _ rfl (by decide) (by decide),
   writesIn_single main_v536 _ rfl (by decide) (by decide),
   writesIn_single main_v537 _ rfl (by decide) (by decide),
   writesIn_single main_v538 _ rfl (by decide) (by decide),
   writesIn_single main_v539 _ rfl (by decide) (by decide),
   writesIn_single main_v540 _ rfl (by decide) (by decide),
   writesIn_single main_v541 _ rfl (by decide) (by decide),
   writesIn_single main_v542 _ rfl (by decide) (by decide)⟩

end Cert.ReferenceIdeal.Hand

end
-- ==== Proof.RefRunW10.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 956 … 1045 of 1674 (window main_part10): they write the buffers 974 … 1063 in order. -/
noncomputable abbrev opsW10 : List (HloOp τ sig (Elt F)) :=
  [ reshape main_v542 main_v543 rfl shapeCasts_S1x256_S256,
    unary main_v543 main_v544 (broadcastInDim S1x256 ![1] bcast_S256_S1x256_1 : (⟨S256, .f32⟩ : BufTy).Contents (Elt F) → (⟨S1x256, .f32⟩ : BufTy).Contents (Elt F)),
    unary main_v544 main_v545 (broadcastInDim S4096x256 ![0, 1] bcast_S1x256_S4096x256_0_1 : (⟨S1x256, .f32⟩ : BufTy).Contents (Elt F) → (⟨S4096x256, .f32⟩ : BufTy).Contents (Elt F)),
    binary main_v541 main_v545 main_v546 (addf : (⟨S4096x256, .f32⟩ : BufTy).Contents (Elt F) → (⟨S4096x256, .f32⟩ : BufTy).Contents (Elt F) → (⟨S4096x256, .f32⟩ : BufTy).Contents (Elt F)),
    TRef.nullary main_call27.cst (constant S_ .f32 0x00000000#32),
    TRef.unary main_call27.cst main_call27.v0 (broadcastInDim S4096x256 ![] bcast_S_S4096x256),
    TRef.binary (.of main_v546 : TRef sig ⟨S4096x256, .f32⟩) main_call27.v0 main_call27.v1 maximumf,
    unary main_v511 main_v548 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v548 main_v549 rfl shapeCasts_S1x256x256_S256x256,
    binary main_v547 main_v549 main_v550 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v513 main_v551 ((extractStridedSlice S1x256 ![1, 0] · slices_S2x256_S1x256_1_0) : (⟨S2x256, .f32⟩ : BufTy).Contents (Elt F) → (⟨S1x256, .f32⟩ : BufTy).Contents (Elt F)),
    reshape main_v551 main_v552 rfl shapeCasts_S1x256_S256,
    unary main_v552 main_v553 (broadcastInDim S1x256 ![1] bcast_S256_S1x256_1 : (⟨S256, .f32⟩ : BufTy).Contents (Elt F) → (⟨S1x256, .f32⟩ : BufTy).Contents (Elt F)),
    unary main_v553 main_v554 (broadcastInDim S4096x256 ![0, 1] bcast_S1x256_S4096x256_0_1 : (⟨S1x256, .f32⟩ : BufTy).Contents (Elt F) → (⟨S4096x256, .f32⟩ : BufTy).Contents (Elt F)),
    binary main_v550 main_v554 main_v555 (addf : (⟨S4096x256, .f32⟩ : BufTy).Contents (Elt F) → (⟨S4096x256, .f32⟩ : BufTy).Contents (Elt F) → (⟨S4096x256, .f32⟩ : BufTy).Contents (Elt F)),
    binary main_v480 main_v555 main_v556 (addf : (⟨S4096x256, .f32⟩ : BufTy).Contents (Elt F) → (⟨S4096x256, .f32⟩ : BufTy).Contents (Elt F) → (⟨S4096x256, .f32⟩ : BufTy).Contents (Elt F)),
    unary main_arg14 main_v557 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v557 main_v558 rfl shapeCasts_S1x256x256_S256x256,
    binary main_v555 main_v558 main_v559 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg15 main_v560 ((extractStridedSlice S1x256 ![0, 0] · slices_S2x256_S1x256_0_0) : (⟨S2x256, .f32⟩ : BufTy).Contents (Elt F) → (⟨S1x256, .f32⟩ : BufTy).Contents (Elt F)),
    reshape main_v560 main_v561 rfl shapeCasts_S1x256_S256,
    unary main_v561 main_v562 (broadcastInDim S1x256 ![1] bcast_S256_S1x256_1 : (⟨S256, .f32⟩ : BufTy).Contents (Elt F) → (⟨S1x256, .f32⟩ : BufTy).Contents (Elt F)),
    unary main_v562 main_v563 (broadcastInDim S4096x256 ![0, 1] bcast_S1x256_S4096x256_0_1 : (⟨S1x256, .f32⟩ : BufTy).Contents (Elt F) → (⟨S4096x256, .f32⟩ : BufTy).Contents (Elt F)),
    binary main_v559 main_v563 main_v564 (addf : (⟨S4096x256, .f32⟩ : BufTy).Contents (Elt F) → (⟨S4096x256, .f32⟩ : BufTy).Contents (Elt F) → (⟨S4096x256, .f32⟩ : BufTy).Contents (Elt F)),
    TRef.nullary main_call28.cst (constant S_ .f32 0x00000000#32),
    TRef.unary main_call28.cst main_call28.v0 (broadcastInDim S4096x256 ![] bcast_S_S4096x256),
    TRef.binary (.of main_v564 : TRef sig ⟨S4096x256, .f32⟩) main_call28.v0 main_call28.v1 (cmpf .ogt),
    TRef.nullary main_call28.cst_0 (constant S_ .f32 0x00000000#32),
    TRef.unary main_call28.cst_0 main_call28.v2 (broadcastInDim S4096x256 ![] bcast_S_S4096x256),
    TRef.binary (.of main_v564 : TRef sig ⟨S4096x256, .f32⟩) main_call28.v2 main_call28.v3 (cmpf .ogt),
    TRef.nullary main_call28.cst_1 (constant S_ .f32 0x00000000#32),
    TRef.unary main_call28.cst_1 main_call28_call0.v0 id,
    TRef.unary main_call28_call0.v0 main_call28_call0.v1 (broadcastInDim S4096x256 ![] bcast_S_S4096x256),
    TRef.ternary main_call28.v3 main_call28_call0.v1 (.of main_v564 : TRef sig ⟨S4096x256, .f32⟩) main_call28_call0.v2 select,
    TRef.unary main_call28.call0.v2 main_call28.v5 Host.expm1,
    TRef.nullary main_call28.cst_2 (constant S_ .f32 0x3F800000#32),
    TRef.unary main_call28.cst_2 main_call28.v6 (broadcastInDim S4096x256 ![] bcast_S_S4096x256),
    TRef.binary main_call28.v6 main_call28.v5 main_call28.v7 mulf,
    TRef.ternary main_call28.v1 (.of main_v564 : TRef sig ⟨S4096x256, .f32⟩) main_call28.v7 main_call28_call1.v0 select,
    unary main_arg14 main_v566 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v566 main_v567 rfl shapeCasts_S1x256x256_S256x256,
    binary main_v565 main_v567 main_v568 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg15 main_v569 ((extractStridedSlice S1x256 ![1, 0] · slices_S2x256_S1x256_1_0) : (⟨S2x256, .f32⟩ : BufTy).Contents (Elt F) → (⟨S1x256, .f32⟩ : BufTy).Contents (Elt F)),
    reshape main_v569 main_v570 rfl shapeCasts_S1x256_S256,
    unary main_v570 main_v571 (broadcastInDim S1x256 ![1] bcast_S256_S1x256_1 : (⟨S256, .f32⟩ : BufTy).Contents (Elt F) → (⟨S1x256, .f32⟩ : BufTy).Contents (Elt F)),
    unary main_v571 main_v572 (broadcastInDim S4096x256 ![0, 1] bcast_S1x256_S4096x256_0_1 : (⟨S1x256, .f32⟩ : BufTy).Contents (Elt F) → (⟨S4096x256, .f32⟩ : BufTy).Contents (Elt F)),
    binary main_v568 main_v572 main_v573 (addf : (⟨S4096x256, .f32⟩ : BufTy).Contents (Elt F) → (⟨S4096x256, .f32⟩ : BufTy).Contents (Elt F) → (⟨S4096x256, .f32⟩ : BufTy).Contents (Elt F)),
    TRef.nullary main_call29.cst (constant S_ .f32 0x00000000#32),
    TRef.unary main_call29.cst main_call29.v0 (broadcastInDim S4096x256 ![] bcast_S_S4096x256),
    TRef.binary (.of main_v573 : TRef sig ⟨S4096x256, .f32⟩) main_call29.v0 main_call29.v1 (cmpf .ogt),
    TRef.nullary main_call29.cst_0 (constant S_ .f32 0x00000000#32),
    TRef.unary main_call29.cst_0 main_call29.v2 (broadcastInDim S4096x256 ![] bcast_S_S4096x256),
    TRef.binary (.of main_v573 : TRef sig ⟨S4096x256, .f32⟩) main_call29.v2 main_call29.v3 (cmpf .ogt),
    TRef.nullary main_call29.cst_1 (constant S_ .f32 0x00000000#32),
    TRef.unary main_call29.cst_1 main_call29_call0.v0 id,
    TRef.unary main_call29_call0.v0 main_call29_call0.v1 (broadcastInDim S4096x256 ![] bcast_S_S4096x256),
    TRef.ternary main_call29.v3 main_call29_call0.v1 (.of main_v573 : TRef sig ⟨S4096x256, .f32⟩) main_call29_call0.v2 select,
    TRef.unary main_call29.call0.v2 main_call29.v5 Host.expm1,
    TRef.nullary main_call29.cst_2 (constant S_ .f32 0x3F800000#32),
    TRef.unary main_call29.cst_2 main_call29.v6 (broadcastInDim S4096x256 ![] bcast_S_S4096x256),
    TRef.binary main_call29.v6 main_call29.v5 main_call29.v7 mulf,
    TRef.ternary main_call29.v1 (.of main_v573 : TRef sig ⟨S4096x256, .f32⟩) main_call29.v7 main_call29_call1.v0 select,
    unary main_v574 main_v575 ((transpose S256x4096 [1, 0] · transposes_S4096x256_S256x4096_1_0) : (⟨S4096x256, .f32⟩ : BufTy).Contents (Elt F) → (⟨S256x4096, .f32⟩ : BufTy).Contents (Elt F)),
    binary main_v574 main_v575 main_v576 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_55 (constant S_ .f32 0x00000000#32),
    binary main_v576 main_cst_55 main_v577 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_56 (constant S_ .f32 0x4B800000#32),
    binary main_v577 main_cst_56 main_v578 (Host.divf : (⟨S_, .f32⟩ : BufTy).Contents (Elt F) → (⟨S_, .f32⟩ : BufTy).Contents (Elt F) → (⟨S_, .f32⟩ : BufTy).Contents (Elt F)),
    unary main_v578 main_v579 (broadcastInDim S4096x4096 ![] bcast_S_S4096x4096 : (⟨S_, .f32⟩ : BufTy).Contents (Elt F) → (⟨S4096x4096, .f32⟩ : BufTy).Contents (Elt F)),
    binary main_v576 main_v579 main_v580 (cmpf .ogt : (⟨S4096x4096, .f32⟩ : BufTy).Contents (Elt F) → (⟨S4096x4096, .f32⟩ : BufTy).Contents (Elt F) → (⟨S4096x4096, .i1⟩ : BufTy).Contents (Elt F)),
    unary main_v580 main_v581 (uitofp .f32 : (⟨S4096x4096, .i1⟩ : BufTy).Contents (Elt F) → (⟨S4096x4096, .f32⟩ : BufTy).Contents (Elt F)),
    nullary main_cst_57 (constant S_ .f32 0x3F800000#32),
    unary main_cst_57 main_v582 (broadcastInDim S4096x4096 ![] bcast_S_S4096x4096 : (⟨S_, .f32⟩ : BufTy).Contents (Elt F) → (⟨S4096x4096, .f32⟩ : BufTy).Contents (Elt F)),
    binary main_v582 main_v479 main_v583 (mulf : (⟨S4096x4096, .f32⟩ : BufTy).Contents (Elt F) → (⟨S4096x4096, .f32⟩ : BufTy).Contents (Elt F) → (⟨S4096x4096, .f32⟩ : BufTy).Contents (Elt F)),
    binary main_v581 main_v583 main_v584 (addf : (⟨S4096x4096, .f32⟩ : BufTy).Contents (Elt F) → (⟨S4096x4096, .f32⟩ : BufTy).Contents (Elt F) → (⟨S4096x4096, .f32⟩ : BufTy).Contents (Elt F)),
    binary main_v584 main_v555 main_v585 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg16 main_v586 ((extractStridedSlice S1x2x256x256 ![1, 0, 0, 0] · slices_S3x2x256x256_S1x2x256x256_1_0_0_0) : (⟨S3x2x256x256, .f32⟩ : BufTy).Contents (Elt F) → (⟨S1x2x256x256, .f32⟩ : BufTy).Contents (Elt F)),
    reshape main_v586 main_v587 rfl shapeCasts_S1x2x256x256_S2x256x256,
    unary main_arg17 main_v588 ((extractStridedSlice S1x2x256 ![1, 0, 0] · slices_S3x2x256_S1x2x256_1_0_0) : (⟨S3x2x256, .f32⟩ : BufTy).Contents (Elt F) → (⟨S1x2x256, .f32⟩ : BufTy).Contents (Elt F)),
    reshape main_v588 main_v589 rfl shapeCasts_S1x2x256_S2x256,
    unary main_arg18 main_v590 ((extractStridedSlice S1x2x256 ![1, 0, 0] · slices_S3x2x256_S1x2x256_1_0_0) : (⟨S3x2x256, .f32⟩ : BufTy).Contents (Elt F) → (⟨S1x2x256, .f32⟩ : BufTy).Contents (Elt F)),
    reshape main_v590 main_v591 rfl shapeCasts_S1x2x256_S2x256,
    unary main_v587 main_v592 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v592 main_v593 rfl shapeCasts_S1x256x256_S256x256,
    binary main_v585 main_v593 main_v594 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v589 main_v595 ((extractStridedSlice S1x256 ![0, 0] · slices_S2x256_S1x256_0_0) : (⟨S2x256, .f32⟩ : BufTy).Contents (Elt F) → (⟨S1x256, .f32⟩ : BufTy).Contents (Elt F)),
    reshape main_v595 main_v596 rfl shapeCasts_S1x256_S256,
    unary main_v596 main_v597 (broadcastInDim S1x256 ![1] bcast_S256_S1x256_1 : (⟨S256, .f32⟩ : BufTy).Contents (Elt F) → (⟨S1x256, .f32⟩ : BufTy).Contents (Elt F)),
    unary main_v597 main_v598 (broadcastInDim S4096x256 ![0, 1] bcast_S1x256_S4096x256_0_1 : (⟨S1x256, .f32⟩ : BufTy).Contents (Elt F) → (⟨S4096x256, .f32⟩ : BufTy).Contents (Elt F)),
    binary main_v594 main_v598 main_v599 (addf : (⟨S4096x256, .f32⟩ : BufTy).Contents (Elt F) → (⟨S4096x256, .f32⟩ : BufTy).Contents (Elt F) → (⟨S4096x256, .f32⟩ : BufTy).Contents (Elt F)) ]

set_option maxRecDepth 8192 in
set_option maxHeartbeats 4000000 in
/-- The window is that straight line: the called functions unfolded at their calls, sequencing reassociated. -/
theorem part10_eq (c : Dev nD) : main_part10 (F := F) c = seq opsW10 := by
  simp only [main_part10, fn_where.body, fn_where_0.body, fn_elu.body, fn_where_1.body, fn_var.body, fn_relu.body, seq, bind_assoc, pure_bind] <;> rfl

set_option maxRecDepth 8192 in
theorem opsW10_sub : (opsW10 : List (HloOp τ sig (Elt F))).Forall fun op => op.bufs ⊆ tcRefs τ sig :=
  ⟨reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., nullary_bufs_sub .., binary_bufs_sub .., nullary_bufs_sub .., binary_bufs_sub .., unary_bufs_sub .., binary_bufs_sub .., unary_bufs_sub .., nullary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub ..⟩

set_option maxRecDepth 8192 in
theorem opsW10_fresh : (opsW10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW10_writes : (opsW10 : List (HloOp τ sig (Elt F))).Forall (WritesIn 974 1064) :=
  ⟨writesIn_single main_v543 _ rfl (by decide) (by decide),
   writesIn_single main_v544 _ rfl (by decide) (by decide),
   writesIn_single main_v545 _ rfl (by decide) (by decide),
   writesIn_single main_v546 _ rfl (by decide) (by decide),
   writesIn_single main_call27_cst _ rfl (by decide) (by decide),
   writesIn_single main_call27_v0 _ rfl (by decide) (by decide),
   writesIn_single main_v547 _ rfl (by decide) (by decide),
   writesIn_single main_v548 _ rfl (by decide) (by decide),
   writesIn_single main_v549 _ rfl (by decide) (by decide),
   writesIn_single main_v550 _ rfl (by decide) (by decide),
   writesIn_single main_v551 _ rfl (by decide) (by decide),
   writesIn_single main_v552 _ rfl (by decide) (by decide),
   writesIn_single main_v553 _ rfl (by decide) (by decide),
   writesIn_single main_v554 _ rfl (by decide) (by decide),
   writesIn_single main_v555 _ rfl (by decide) (by decide),
   writesIn_single main_v556 _ rfl (by decide) (by decide),
   writesIn_single main_v557 _ rfl (by decide) (by decide),
   writesIn_single main_v558 _ rfl (by decide) (by decide),
   writesIn_single main_v559 _ rfl (by decide) (by decide),
   writesIn_single main_v560 _ rfl (by decide) (by decide),
   writesIn_single main_v561 _ rfl (by decide) (by decide),
   writesIn_single main_v562 _ rfl (by decide) (by decide),
   writesIn_single main_v563 _ rfl (by decide) (by decide),
   writesIn_single main_v564 _ rfl (by decide) (by decide),
   writesIn_single main_call28_cst _ rfl (by decide) (by decide),
   writesIn_single main_call28_v0 _ rfl (by decide) (by decide),
   writesIn_single main_call28_v1 _ rfl (by decide) (by decide),
   writesIn_single main_call28_cst_0 _ rfl (by decide) (by decide),
   writesIn_single main_call28_v2 _ rfl (by decide) (by decide),
   writesIn_single main_call28_v3 _ rfl (by decide) (by decide),
   writesIn_single main_call28_cst_1 _ rfl (by decide) (by decide),
   writesIn_single main_call28_call0_v0 _ rfl (by decide) (by decide),
   writesIn_single main_call28_call0_v1 _ rfl (by decide) (by decide),
   writesIn_single main_call28_v4 _ rfl (by decide) (by decide),
   writesIn_single main_call28_v5 _ rfl (by decide) (by decide),
   writesIn_single main_call28_cst_2 _ rfl (by decide) (by decide),
   writesIn_single main_call28_v6 _ rfl (by decide) (by decide),
   writesIn_single main_call28_v7 _ rfl (by decide) (by decide),
   writesIn_single main_v565 _ rfl (by decide) (by decide),
   writesIn_single main_v566 _ rfl (by decide) (by decide),
   writesIn_single main_v567 _ rfl (by decide) (by decide),
   writesIn_single main_v568 _ rfl (by decide) (by decide),
   writesIn_single main_v569 _ rfl (by decide) (by decide),
   writesIn_single main_v570 _ rfl (by decide) (by decide),
   writesIn_single main_v571 _ rfl (by decide) (by decide),
   writesIn_single main_v572 _ rfl (by decide) (by decide),
   writesIn_single main_v573 _ rfl (by decide) (by decide),
   writesIn_single main_call29_cst _ rfl (by decide) (by decide),
   writesIn_single main_call29_v0 _ rfl (by decide) (by decide),
   writesIn_single main_call29_v1 _ rfl (by decide) (by decide),
   writesIn_single main_call29_cst_0 _ rfl (by decide) (by decide),
   writesIn_single main_call29_v2 _ rfl (by decide) (by decide),
   writesIn_single main_call29_v3 _ rfl (by decide) (by decide),
   writesIn_single main_call29_cst_1 _ rfl (by decide) (by decide),
   writesIn_single main_call29_call0_v0 _ rfl (by decide) (by decide),
   writesIn_single main_call29_call0_v1 _ rfl (by decide) (by decide),
   writesIn_single main_call29_v4 _ rfl (by decide) (by decide),
   writesIn_single main_call29_v5 _ rfl (by decide) (by decide),
   writesIn_single main_call29_cst_2 _ rfl (by decide) (by decide),
   writesIn_single main_call29_v6 _ rfl (by decide) (by decide),
   writesIn_single main_call29_v7 _ rfl (by decide) (by decide),
   writesIn_single main_v574 _ rfl (by decide) (by decide),
   writesIn_single main_v575 _ rfl (by decide) (by decide),
   writesIn_single main_v576 _ rfl (by decide) (by decide),
   writesIn_single main_cst_55 _ rfl (by decide) (by decide),
   writesIn_single main_v577 _ rfl (by decide) (by decide),
   writesIn_single main_cst_56 _ rfl (by decide) (by decide),
   writesIn_single main_v578 _ rfl (by decide) (by decide),
   writesIn_single main_v579 _ rfl (by decide) (by decide),
   writesIn_single main_v580 _ rfl (by decide) (by decide),
   writesIn_single main_v581 _ rfl (by decide) (by decide),
   writesIn_single main_cst_57 _ rfl (by decide) (by decide),
   writesIn_single main_v582 _ rfl (by decide) (by decide),
   writesIn_single main_v583 _ rfl (by decide) (by decide),
   writesIn_single main_v584 _ rfl (by decide) (by decide),
   writesIn_single main_v585 _ rfl (by decide) (by decide),
   writesIn_single main_v586 _ rfl (by decide) (by decide),
   writesIn_single main_v587 _ rfl (by decide) (by decide),
   writesIn_single main_v588 _ rfl (by decide) (by decide),
   writesIn_single main_v589 _ rfl (by decide) (by decide),
   writesIn_single main_v590 _ rfl (by decide) (by decide),
   writesIn_single main_v591 _ rfl (by decide) (by decide),
   writesIn_single main_v592 _ rfl (by decide) (by decide),
   writesIn_single main_v593 _ rfl (by decide) (by decide),
   writesIn_single main_v594 _ rfl (by decide) (by decide),
   writesIn_single main_v595 _ rfl (by decide) (by decide),
   writesIn_single main_v596 _ rfl (by decide) (by decide),
   writesIn_single main_v597 _ rfl (by decide) (by decide),
   writesIn_single main_v598 _ rfl (by decide) (by decide),
   writesIn_single main_v599 _ rfl (by decide) (by decide)⟩

end Cert.ReferenceIdeal.Hand

end
-- ==== Proof.RefRunW11.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 1046 … 1156 of 1674 (window main_part11): they write the buffers 1064 … 1174 in order. -/
noncomputable abbrev opsW11 : List (HloOp τ sig (Elt F)) :=
  [ nullary main_cst_58 (constant S_ .f32 0x00000000#32),
    binary main_v599 main_cst_58 main_v600 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_59 (constant S_ .f32 0x45800000#32),
    unary main_cst_59 main_v601 (broadcastInDim S256 ![] bcast_S_S256 : (⟨S_, .f32⟩ : BufTy).Contents (Elt F) → (⟨S256, .f32⟩ : BufTy).Contents (Elt F)),
    binary main_v600 main_v601 main_v602 (Host.divf : (⟨S256, .f32⟩ : BufTy).Contents (Elt F) → (⟨S256, .f32⟩ : BufTy).Contents (Elt F) → (⟨S256, .f32⟩ : BufTy).Contents (Elt F)),
    nullary main_c_60 (constantI S_ 32 0#32),
    TRef.nullary main_call30.cst (constant S_ .f32 0x00000000#32),
    TRef.binary (.of main_v599 : TRef sig ⟨S4096x256, .f32⟩) main_call30.cst main_call30.v0 (fun x v => Host.reduceAdd x v reducesTo_S4096x256_S256_d0 h_S_),
    TRef.unary main_call30.v0 main_call30.v1 (broadcastInDim S1x256 ![1] bcast_S256_S1x256_1),
    TRef.nullary main_call30.cst_0 (constant S_ .f32 0x45800000#32),
    TRef.unary main_call30.cst_0 main_call30.v2 (broadcastInDim S1x256 ![] bcast_S_S1x256),
    TRef.binary main_call30.v1 main_call30.v2 main_call30.v3 Host.divf,
    TRef.unary main_call30.v3 main_call30.v4 (broadcastInDim S4096x256 ![0, 1] bcast_S1x256_S4096x256_0_1),
    TRef.binary (.of main_v599 : TRef sig ⟨S4096x256, .f32⟩) main_call30.v4 main_call30.v5 subf,
    TRef.binary main_call30.v5 main_call30.v5 main_call30.v6 mulf,
    TRef.unary (.of main_c_60 : TRef sig ⟨S_, .i32⟩) main_call30.v7 (sitofp .f32),
    TRef.nullary main_call30.cst_1 (constant S_ .f32 0x45800000#32),
    TRef.binary main_call30.cst_1 main_call30.v7 main_call30.v8 subf,
    TRef.nullary main_call30.cst_2 (constant S_ .f32 0x00000000#32),
    TRef.binary main_call30.v6 main_call30.cst_2 main_call30.v9 (fun x v => Host.reduceAdd x v reducesTo_S4096x256_S256_d0 h_S_),
    TRef.unary main_call30.v8 main_call30.v10 (broadcastInDim S256 ![] bcast_S_S256),
    TRef.binary main_call30.v9 main_call30.v10 main_call30.v11 Host.divf,
    TRef.nullary main_call30.cst_3 (constant S_ .f32 0x00000000#32),
    TRef.binary main_call30.v8 main_call30.cst_3 main_call30.v12 (cmpf .ogt),
    TRef.nullary main_call30.cst_4 (constant S_ .f32 0x7FC00000#32),
    TRef.unary main_call30.cst_4 main_call30_call0.v0 id,
    TRef.unary main_call30_call0.v0 main_call30_call0.v1 (broadcastInDim S256 ![] bcast_S_S256),
    TRef.ternary main_call30.v12 main_call30.v11 main_call30_call0.v1 main_call30_call0.v2 (fun p a b => select (broadcastInDim S256 ![] bcast_S_S256 p) a b),
    unary main_v602 main_v604 (broadcastInDim S1x256 ![1] bcast_S256_S1x256_1 : (⟨S256, .f32⟩ : BufTy).Contents (Elt F) → (⟨S1x256, .f32⟩ : BufTy).Contents (Elt F)),
    unary main_v604 main_v605 (broadcastInDim S4096x256 ![0, 1] bcast_S1x256_S4096x256_0_1 : (⟨S1x256, .f32⟩ : BufTy).Contents (Elt F) → (⟨S4096x256, .f32⟩ : BufTy).Contents (Elt F)),
    binary main_v599 main_v605 main_v606 (subf : (⟨S4096x256, .f32⟩ : BufTy).Contents (Elt F) → (⟨S4096x256, .f32⟩ : BufTy).Contents (Elt F) → (⟨S4096x256, .f32⟩ : BufTy).Contents (Elt F)),
    nullary main_cst_61 (constant S_ .f32 0x3727C5AC#32),
    unary main_cst_61 main_v607 (broadcastInDim S256 ![] bcast_S_S256 : (⟨S_, .f32⟩ : BufTy).Contents (Elt F) → (⟨S256, .f32⟩ : BufTy).Contents (Elt F)),
    binary main_v603 main_v607 main_v608 (addf : (⟨S256, .f32⟩ : BufTy).Contents (Elt F) → (⟨S256, .f32⟩ : BufTy).Contents (Elt F) → (⟨S256, .f32⟩ : BufTy).Contents (Elt F)),
    unary main_v608 main_v609 (Host.rsqrt : (⟨S256, .f32⟩ : BufTy).Contents (Elt F) → (⟨S256, .f32⟩ : BufTy).Contents (Elt F)),
    unary main_v609 main_v610 (broadcastInDim S1x256 ![1] bcast_S256_S1x256_1 : (⟨S256, .f32⟩ : BufTy).Contents (Elt F) → (⟨S1x256, .f32⟩ : BufTy).Contents (Elt F)),
    unary main_v610 main_v611 (broadcastInDim S4096x256 ![0, 1] bcast_S1x256_S4096x256_0_1 : (⟨S1x256, .f32⟩ : BufTy).Contents (Elt F) → (⟨S4096x256, .f32⟩ : BufTy).Contents (Elt F)),
    binary main_v606 main_v611 main_v612 (mulf : (⟨S4096x256, .f32⟩ : BufTy).Contents (Elt F) → (⟨S4096x256, .f32⟩ : BufTy).Contents (Elt F) → (⟨S4096x256, .f32⟩ : BufTy).Contents (Elt F)),
    unary main_v591 main_v613 ((extractStridedSlice S1x256 ![0, 0] · slices_S2x256_S1x256_0_0) : (⟨S2x256, .f32⟩ : BufTy).Contents (Elt F) → (⟨S1x256, .f32⟩ : BufTy).Contents (Elt F)),
    reshape main_v613 main_v614 rfl shapeCasts_S1x256_S256,
    unary main_v614 main_v615 (broadcastInDim S1x256 ![1] bcast_S256_S1x256_1 : (⟨S256, .f32⟩ : BufTy).Contents (Elt F) → (⟨S1x256, .f32⟩ : BufTy).Contents (Elt F)),
    unary main_v615 main_v616 (broadcastInDim S4096x256 ![0, 1] bcast_S1x256_S4096x256_0_1 : (⟨S1x256, .f32⟩ : BufTy).Contents (Elt F) → (⟨S4096x256, .f32⟩ : BufTy).Contents (Elt F)),
    binary main_v612 main_v616 main_v617 (mulf : (⟨S4096x256, .f32⟩ : BufTy).Contents (Elt F) → (⟨S4096x256, .f32⟩ : BufTy).Contents (Elt F) → (⟨S4096x256, .f32⟩ : BufTy).Contents (Elt F)),
    unary main_v591 main_v618 ((extractStridedSlice S1x256 ![1, 0] · slices_S2x256_S1x256_1_0) : (⟨S2x256, .f32⟩ : BufTy).Contents (Elt F) → (⟨S1x256, .f32⟩ : BufTy).Contents (Elt F)),
    reshape main_v618 main_v619 rfl shapeCasts_S1x256_S256,
    unary main_v619 main_v620 (broadcastInDim S1x256 ![1] bcast_S256_S1x256_1 : (⟨S256, .f32⟩ : BufTy).Contents (Elt F) → (⟨S1x256, .f32⟩ : BufTy).Contents (Elt F)),
    unary main_v620 main_v621 (broadcastInDim S4096x256 ![0, 1] bcast_S1x256_S4096x256_0_1 : (⟨S1x256, .f32⟩ : BufTy).Contents (Elt F) → (⟨S4096x256, .f32⟩ : BufTy).Contents (Elt F)),
    binary main_v617 main_v621 main_v622 (addf : (⟨S4096x256, .f32⟩ : BufTy).Contents (Elt F) → (⟨S4096x256, .f32⟩ : BufTy).Contents (Elt F) → (⟨S4096x256, .f32⟩ : BufTy).Contents (Elt F)),
    TRef.nullary main_call31.cst (constant S_ .f32 0x00000000#32),
    TRef.unary main_call31.cst main_call31.v0 (broadcastInDim S4096x256 ![] bcast_S_S4096x256),
    TRef.binary (.of main_v622 : TRef sig ⟨S4096x256, .f32⟩) main_call31.v0 main_call31.v1 maximumf,
    unary main_v587 main_v624 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v624 main_v625 rfl shapeCasts_S1x256x256_S256x256,
    binary main_v623 main_v625 main_v626 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v589 main_v627 ((extractStridedSlice S1x256 ![1, 0] · slices_S2x256_S1x256_1_0) : (⟨S2x256, .f32⟩ : BufTy).Contents (Elt F) → (⟨S1x256, .f32⟩ : BufTy).Contents (Elt F)),
    reshape main_v627 main_v628 rfl shapeCasts_S1x256_S256,
    unary main_v628 main_v629 (broadcastInDim S1x256 ![1] bcast_S256_S1x256_1 : (⟨S256, .f32⟩ : BufTy).Contents (Elt F) → (⟨S1x256, .f32⟩ : BufTy).Contents (Elt F)),
    unary main_v629 main_v630 (broadcastInDim S4096x256 ![0, 1] bcast_S1x256_S4096x256_0_1 : (⟨S1x256, .f32⟩ : BufTy).Contents (Elt F) → (⟨S4096x256, .f32⟩ : BufTy).Contents (Elt F)),
    binary main_v626 main_v630 main_v631 (addf : (⟨S4096x256, .f32⟩ : BufTy).Contents (Elt F) → (⟨S4096x256, .f32⟩ : BufTy).Contents (Elt F) → (⟨S4096x256, .f32⟩ : BufTy).Contents (Elt F)),
    binary main_v556 main_v631 main_v632 (addf : (⟨S4096x256, .f32⟩ : BufTy).Contents (Elt F) → (⟨S4096x256, .f32⟩ : BufTy).Contents (Elt F) → (⟨S4096x256, .f32⟩ : BufTy).Contents (Elt F)),
    unary main_arg14 main_v633 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v633 main_v634 rfl shapeCasts_S1x256x256_S256x256,
    binary main_v631 main_v634 main_v635 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg15 main_v636 ((extractStridedSlice S1x256 ![0, 0] · slices_S2x256_S1x256_0_0) : (⟨S2x256, .f32⟩ : BufTy).Contents (Elt F) → (⟨S1x256, .f32⟩ : BufTy).Contents (Elt F)),
    reshape main_v636 main_v637 rfl shapeCasts_S1x256_S256,
    unary main_v637 main_v638 (broadcastInDim S1x256 ![1] bcast_S256_S1x256_1 : (⟨S256, .f32⟩ : BufTy).Contents (Elt F) → (⟨S1x256, .f32⟩ : BufTy).Contents (Elt F)),
    unary main_v638 main_v639 (broadcastInDim S4096x256 ![0, 1] bcast_S1x256_S4096x256_0_1 : (⟨S1x256, .f32⟩ : BufTy).Contents (Elt F) → (⟨S4096x256, .f32⟩ : BufTy).Contents (Elt F)),
    binary main_v635 main_v639 main_v640 (addf : (⟨S4096x256, .f32⟩ : BufTy).Contents (Elt F) → (⟨S4096x256, .f32⟩ : BufTy).Contents (Elt F) → (⟨S4096x256, .f32⟩ : BufTy).Contents (Elt F)),
    TRef.nullary main_call32.cst (constant S_ .f32 0x00000000#32),
    TRef.unary main_call32.cst main_call32.v0 (broadcastInDim S4096x256 ![] bcast_S_S4096x256),
    TRef.binary (.of main_v640 : TRef sig ⟨S4096x256, .f32⟩) main_call32.v0 main_call32.v1 (cmpf .ogt),
    TRef.nullary main_call32.cst_0 (constant S_ .f32 0x00000000#32),
    TRef.unary main_call32.cst_0 main_call32.v2 (broadcastInDim S4096x256 ![] bcast_S_S4096x256),
    TRef.binary (.of main_v640 : TRef sig ⟨S4096x256, .f32⟩) main_call32.v2 main_call32.v3 (cmpf .ogt),
    TRef.nullary main_call32.cst_1 (constant S_ .f32 0x00000000#32),
    TRef.unary main_call32.cst_1 main_call32_call0.v0 id,
    TRef.unary main_call32_call0.v0 main_call32_call0.v1 (broadcastInDim S4096x256 ![] bcast_S_S4096x256),
    TRef.ternary main_call32.v3 main_call32_call0.v1 (.of main_v640 : TRef sig ⟨S4096x256, .f32⟩) main_call32_call0.v2 select,
    TRef.unary main_call32.call0.v2 main_call32.v5 Host.expm1,
    TRef.nullary main_call32.cst_2 (constant S_ .f32 0x3F800000#32),
    TRef.unary main_call32.cst_2 main_call32.v6 (broadcastInDim S4096x256 ![] bcast_S_S4096x256),
    TRef.binary main_call32.v6 main_call32.v5 main_call32.v7 mulf,
    TRef.ternary main_call32.v1 (.of main_v640 : TRef sig ⟨S4096x256, .f32⟩) main_call32.v7 main_call32_call1.v0 select,
    unary main_arg14 main_v642 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v642 main_v643 rfl shapeCasts_S1x256x256_S256x256,
    binary main_v641 main_v643 main_v644 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg15 main_v645 ((extractStridedSlice S1x256 ![1, 0] · slices_S2x256_S1x256_1_0) : (⟨S2x256, .f32⟩ : BufTy).Contents (Elt F) → (⟨S1x256, .f32⟩ : BufTy).Contents (Elt F)),
    reshape main_v645 main_v646 rfl shapeCasts_S1x256_S256,
    unary main_v646 main_v647 (broadcastInDim S1x256 ![1] bcast_S256_S1x256_1 : (⟨S256, .f32⟩ : BufTy).Contents (Elt F) → (⟨S1x256, .f32⟩ : BufTy).Contents (Elt F)),
    unary main_v647 main_v648 (broadcastInDim S4096x256 ![0, 1] bcast_S1x256_S4096x256_0_1 : (⟨S1x256, .f32⟩ : BufTy).Contents (Elt F) → (⟨S4096x256, .f32⟩ : BufTy).Contents (Elt F)),
    binary main_v644 main_v648 main_v649 (addf : (⟨S4096x256, .f32⟩ : BufTy).Contents (Elt F) → (⟨S4096x256, .f32⟩ : BufTy).Contents (Elt F) → (⟨S4096x256, .f32⟩ : BufTy).Contents (Elt F)),
    TRef.nullary main_call33.cst (constant S_ .f32 0x00000000#32),
    TRef.unary main_call33.cst main_call33.v0 (broadcastInDim S4096x256 ![] bcast_S_S4096x256),
    TRef.binary (.of main_v649 : TRef sig ⟨S4096x256, .f32⟩) main_call33.v0 main_call33.v1 (cmpf .ogt),
    TRef.nullary main_call33.cst_0 (constant S_ .f32 0x00000000#32),
    TRef.unary main_call33.cst_0 main_call33.v2 (broadcastInDim S4096x256 ![] bcast_S_S4096x256),
    TRef.binary (.of main_v649 : TRef sig ⟨S4096x256, .f32⟩) main_call33.v2 main_call33.v3 (cmpf .ogt),
    TRef.nullary main_call33.cst_1 (constant S_ .f32 0x00000000#32),
    TRef.unary main_call33.cst_1 main_call33_call0.v0 id,
    TRef.unary main_call33_call0.v0 main_call33_call0.v1 (broadcastInDim S4096x256 ![] bcast_S_S4096x256),
    TRef.ternary main_call33.v3 main_call33_call0.v1 (.of main_v649 : TRef sig ⟨S4096x256, .f32⟩) main_call33_call0.v2 select,
    TRef.unary main_call33.call0.v2 main_call33.v5 Host.expm1,
    TRef.nullary main_call33.cst_2 (constant S_ .f32 0x3F800000#32),
    TRef.unary main_call33.cst_2 main_call33.v6 (broadcastInDim S4096x256 ![] bcast_S_S4096x256),
    TRef.binary main_call33.v6 main_call33.v5 main_call33.v7 mulf,
    TRef.ternary main_call33.v1 (.of main_v649 : TRef sig ⟨S4096x256, .f32⟩) main_call33.v7 main_call33_call1.v0 select,
    unary main_v650 main_v651 ((transpose S256x4096 [1, 0] · transposes_S4096x256_S256x4096_1_0) : (⟨S4096x256, .f32⟩ : BufTy).Contents (Elt F) → (⟨S256x4096, .f32⟩ : BufTy).Contents (Elt F)),
    binary main_v650 main_v651 main_v652 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_62 (constant S_ .f32 0x00000000#32),
    binary main_v652 main_cst_62 main_v653 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_63 (constant S_ .f32 0x4B800000#32) ]

set_option maxRecDepth 8192 in
set_option maxHeartbeats 4000000 in
/-- The window is that straight line: the called functions unfolded at their calls, sequencing reassociated. -/
theorem part11_eq (c : Dev nD) : main_part11 (F := F) c = seq opsW11 := by
  simp only [main_part11, fn_where.body, fn_where_0.body, fn_elu.body, fn_where_1.body, fn_var.body, fn_relu.body, seq, bind_assoc, pure_bind] <;> rfl

set_option maxRecDepth 8192 in
theorem opsW11_sub : (opsW11 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., nullary_bufs_sub .., binary_bufs_sub .., nullary_bufs_sub ..⟩

set_option maxRecDepth 8192 in
theorem opsW11_fresh : (opsW11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW11_writes : (opsW11 : List (HloOp τ sig (Elt F))).Forall (WritesIn 1064 1175) :=
  ⟨writesIn_single main_cst_58 _ rfl (by decide) (by decide),
   writesIn_single main_v600 _ rfl (by decide) (by decide),
   writesIn_single main_cst_59 _ rfl (by decide) (by decide),
   writesIn_single main_v601 _ rfl (by decide) (by decide),
   writesIn_single main_v602 _ rfl (by decide) (by decide),
   writesIn_single main_c_60 _ rfl (by decide) (by decide),
   writesIn_single main_call30_cst _ rfl (by decide) (by decide),
   writesIn_single main_call30_v0 _ rfl (by decide) (by decide),
   writesIn_single main_call30_v1 _ rfl (by decide) (by decide),
   writesIn_single main_call30_cst_0 _ rfl (by decide) (by decide),
   writesIn_single main_call30_v2 _ rfl (by decide) (by decide),
   writesIn_single main_call30_v3 _ rfl (by decide) (by decide),
   writesIn_single main_call30_v4 _ rfl (by decide) (by decide),
   writesIn_single main_call30_v5 _ rfl (by decide) (by decide),
   writesIn_single main_call30_v6 _ rfl (by decide) (by decide),
   writesIn_single main_call30_v7 _ rfl (by decide) (by decide),
   writesIn_single main_call30_cst_1 _ rfl (by decide) (by decide),
   writesIn_single main_call30_v8 _ rfl (by decide) (by decide),
   writesIn_single main_call30_cst_2 _ rfl (by decide) (by decide),
   writesIn_single main_call30_v9 _ rfl (by decide) (by decide),
   writesIn_single main_call30_v10 _ rfl (by decide) (by decide),
   writesIn_single main_call30_v11 _ rfl (by decide) (by decide),
   writesIn_single main_call30_cst_3 _ rfl (by decide) (by decide),
   writesIn_single main_call30_v12 _ rfl (by decide) (by decide),
   writesIn_single main_call30_cst_4 _ rfl (by decide) (by decide),
   writesIn_single main_call30_call0_v0 _ rfl (by decide) (by decide),
   writesIn_single main_call30_call0_v1 _ rfl (by decide) (by decide),
   writesIn_single main_v603 _ rfl (by decide) (by decide),
   writesIn_single main_v604 _ rfl (by decide) (by decide),
   writesIn_single main_v605 _ rfl (by decide) (by decide),
   writesIn_single main_v606 _ rfl (by decide) (by decide),
   writesIn_single main_cst_61 _ rfl (by decide) (by decide),
   writesIn_single main_v607 _ rfl (by decide) (by decide),
   writesIn_single main_v608 _ rfl (by decide) (by decide),
   writesIn_single main_v609 _ rfl (by decide) (by decide),
   writesIn_single main_v610 _ rfl (by decide) (by decide),
   writesIn_single main_v611 _ rfl (by decide) (by decide),
   writesIn_single main_v612 _ rfl (by decide) (by decide),
   writesIn_single main_v613 _ rfl (by decide) (by decide),
   writesIn_single main_v614 _ rfl (by decide) (by decide),
   writesIn_single main_v615 _ rfl (by decide) (by decide),
   writesIn_single main_v616 _ rfl (by decide) (by decide),
   writesIn_single main_v617 _ rfl (by decide) (by decide),
   writesIn_single main_v618 _ rfl (by decide) (by decide),
   writesIn_single main_v619 _ rfl (by decide) (by decide),
   writesIn_single main_v620 _ rfl (by decide) (by decide),
   writesIn_single main_v621 _ rfl (by decide) (by decide),
   writesIn_single main_v622 _ rfl (by decide) (by decide),
   writesIn_single main_call31_cst _ rfl (by decide) (by decide),
   writesIn_single main_call31_v0 _ rfl (by decide) (by decide),
   writesIn_single main_v623 _ rfl (by decide) (by decide),
   writesIn_single main_v624 _ rfl (by decide) (by decide),
   writesIn_single main_v625 _ rfl (by decide) (by decide),
   writesIn_single main_v626 _ rfl (by decide) (by decide),
   writesIn_single main_v627 _ rfl (by decide) (by decide),
   writesIn_single main_v628 _ rfl (by decide) (by decide),
   writesIn_single main_v629 _ rfl (by decide) (by decide),
   writesIn_single main_v630 _ rfl (by decide) (by decide),
   writesIn_single main_v631 _ rfl (by decide) (by decide),
   writesIn_single main_v632 _ rfl (by decide) (by decide),
   writesIn_single main_v633 _ rfl (by decide) (by decide),
   writesIn_single main_v634 _ rfl (by decide) (by decide),
   writesIn_single main_v635 _ rfl (by decide) (by decide),
   writesIn_single main_v636 _ rfl (by decide) (by decide),
   writesIn_single main_v637 _ rfl (by decide) (by decide),
   writesIn_single main_v638 _ rfl (by decide) (by decide),
   writesIn_single main_v639 _ rfl (by decide) (by decide),
   writesIn_single main_v640 _ rfl (by decide) (by decide),
   writesIn_single main_call32_cst _ rfl (by decide) (by decide),
   writesIn_single main_call32_v0 _ rfl (by decide) (by decide),
   writesIn_single main_call32_v1 _ rfl (by decide) (by decide),
   writesIn_single main_call32_cst_0 _ rfl (by decide) (by decide),
   writesIn_single main_call32_v2 _ rfl (by decide) (by decide),
   writesIn_single main_call32_v3 _ rfl (by decide) (by decide),
   writesIn_single main_call32_cst_1 _ rfl (by decide) (by decide),
   writesIn_single main_call32_call0_v0 _ rfl (by decide) (by decide),
   writesIn_single main_call32_call0_v1 _ rfl (by decide) (by decide),
   writesIn_single main_call32_v4 _ rfl (by decide) (by decide),
   writesIn_single main_call32_v5 _ rfl (by decide) (by decide),
   writesIn_single main_call32_cst_2 _ rfl (by decide) (by decide),
   writesIn_single main_call32_v6 _ rfl (by decide) (by decide),
   writesIn_single main_call32_v7 _ rfl (by decide) (by decide),
   writesIn_single main_v641 _ rfl (by decide) (by decide),
   writesIn_single main_v642 _ rfl (by decide) (by decide),
   writesIn_single main_v643 _ rfl (by decide) (by decide),
   writesIn_single main_v644 _ rfl (by decide) (by decide),
   writesIn_single main_v645 _ rfl (by decide) (by decide),
   writesIn_single main_v646 _ rfl (by decide) (by decide),
   writesIn_single main_v647 _ rfl (by decide) (by decide),
   writesIn_single main_v648 _ rfl (by decide) (by decide),
   writesIn_single main_v649 _ rfl (by decide) (by decide),
   writesIn_single main_call33_cst _ rfl (by decide) (by decide),
   writesIn_single main_call33_v0 _ rfl (by decide) (by decide),
   writesIn_single main_call33_v1 _ rfl (by decide) (by decide),
   writesIn_single main_call33_cst_0 _ rfl (by decide) (by decide),
   writesIn_single main_call33_v2 _ rfl (by decide) (by decide),
   writesIn_single main_call33_v3 _ rfl (by decide) (by decide),
   writesIn_single main_call33_cst_1 _ rfl (by decide) (by decide),
   writesIn_single main_call33_call0_v0 _ rfl (by decide) (by decide),
   writesIn_single main_call33_call0_v1 _ rfl (by decide) (by decide),
   writesIn_single main_call33_v4 _ rfl (by decide) (by decide),
   writesIn_single main_call33_v5 _ rfl (by decide) (by decide),
   writesIn_single main_call33_cst_2 _ rfl (by decide) (by decide),
   writesIn_single main_call33_v6 _ rfl (by decide) (by decide),
   writesIn_single main_call33_v7 _ rfl (by decide) (by decide),
   writesIn_single main_v650 _ rfl (by decide) (by decide),
   writesIn_single main_v651 _ rfl (by decide) (by decide),
   writesIn_single main_v652 _ rfl (by decide) (by decide),
   writesIn_single main_cst_62 _ rfl (by decide) (by decide),
   writesIn_single main_v653 _ rfl (by decide) (by decide),
   writesIn_single main_cst_63 _ rfl (by decide) (by decide)⟩

end Cert.ReferenceIdeal.Hand

end
-- ==== Proof.RefRunW12.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 1157 … 1239 of 1674 (window main_part12): they write the buffers 1175 … 1257 in order. -/
noncomputable abbrev opsW12 : List (HloOp τ sig (Elt F)) :=
  [ binary main_v653 main_cst_63 main_v654 (Host.divf : (⟨S_, .f32⟩ : BufTy).Contents (Elt F) → (⟨S_, .f32⟩ : BufTy).Contents (Elt F) → (⟨S_, .f32⟩ : BufTy).Contents (Elt F)),
    unary main_v654 main_v655 (broadcastInDim S4096x4096 ![] bcast_S_S4096x4096 : (⟨S_, .f32⟩ : BufTy).Contents (Elt F) → (⟨S4096x4096, .f32⟩ : BufTy).Contents (Elt F)),
    binary main_v652 main_v655 main_v656 (cmpf .ogt : (⟨S4096x4096, .f32⟩ : BufTy).Contents (Elt F) → (⟨S4096x4096, .f32⟩ : BufTy).Contents (Elt F) → (⟨S4096x4096, .i1⟩ : BufTy).Contents (Elt F)),
    unary main_v656 main_v657 (uitofp .f32 : (⟨S4096x4096, .i1⟩ : BufTy).Contents (Elt F) → (⟨S4096x4096, .f32⟩ : BufTy).Contents (Elt F)),
    nullary main_cst_64 (constant S_ .f32 0x3F800000#32),
    unary main_cst_64 main_v658 (broadcastInDim S4096x4096 ![] bcast_S_S4096x4096 : (⟨S_, .f32⟩ : BufTy).Contents (Elt F) → (⟨S4096x4096, .f32⟩ : BufTy).Contents (Elt F)),
    binary main_v658 main_v479 main_v659 (mulf : (⟨S4096x4096, .f32⟩ : BufTy).Contents (Elt F) → (⟨S4096x4096, .f32⟩ : BufTy).Contents (Elt F) → (⟨S4096x4096, .f32⟩ : BufTy).Contents (Elt F)),
    binary main_v657 main_v659 main_v660 (addf : (⟨S4096x4096, .f32⟩ : BufTy).Contents (Elt F) → (⟨S4096x4096, .f32⟩ : BufTy).Contents (Elt F) → (⟨S4096x4096, .f32⟩ : BufTy).Contents (Elt F)),
    binary main_v660 main_v631 main_v661 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg16 main_v662 ((extractStridedSlice S1x2x256x256 ![2, 0, 0, 0] · slices_S3x2x256x256_S1x2x256x256_2_0_0_0) : (⟨S3x2x256x256, .f32⟩ : BufTy).Contents (Elt F) → (⟨S1x2x256x256, .f32⟩ : BufTy).Contents (Elt F)),
    reshape main_v662 main_v663 rfl shapeCasts_S1x2x256x256_S2x256x256,
    unary main_arg17 main_v664 ((extractStridedSlice S1x2x256 ![2, 0, 0] · slices_S3x2x256_S1x2x256_2_0_0) : (⟨S3x2x256, .f32⟩ : BufTy).Contents (Elt F) → (⟨S1x2x256, .f32⟩ : BufTy).Contents (Elt F)),
    reshape main_v664 main_v665 rfl shapeCasts_S1x2x256_S2x256,
    unary main_arg18 main_v666 ((extractStridedSlice S1x2x256 ![2, 0, 0] · slices_S3x2x256_S1x2x256_2_0_0) : (⟨S3x2x256, .f32⟩ : BufTy).Contents (Elt F) → (⟨S1x2x256, .f32⟩ : BufTy).Contents (Elt F)),
    reshape main_v666 main_v667 rfl shapeCasts_S1x2x256_S2x256,
    unary main_v663 main_v668 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v668 main_v669 rfl shapeCasts_S1x256x256_S256x256,
    binary main_v661 main_v669 main_v670 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v665 main_v671 ((extractStridedSlice S1x256 ![0, 0] · slices_S2x256_S1x256_0_0) : (⟨S2x256, .f32⟩ : BufTy).Contents (Elt F) → (⟨S1x256, .f32⟩ : BufTy).Contents (Elt F)),
    reshape main_v671 main_v672 rfl shapeCasts_S1x256_S256,
    unary main_v672 main_v673 (broadcastInDim S1x256 ![1] bcast_S256_S1x256_1 : (⟨S256, .f32⟩ : BufTy).Contents (Elt F) → (⟨S1x256, .f32⟩ : BufTy).Contents (Elt F)),
    unary main_v673 main_v674 (broadcastInDim S4096x256 ![0, 1] bcast_S1x256_S4096x256_0_1 : (⟨S1x256, .f32⟩ : BufTy).Contents (Elt F) → (⟨S4096x256, .f32⟩ : BufTy).Contents (Elt F)),
    binary main_v670 main_v674 main_v675 (addf : (⟨S4096x256, .f32⟩ : BufTy).Contents (Elt F) → (⟨S4096x256, .f32⟩ : BufTy).Contents (Elt F) → (⟨S4096x256, .f32⟩ : BufTy).Contents (Elt F)),
    nullary main_cst_65 (constant S_ .f32 0x00000000#32),
    binary main_v675 main_cst_65 main_v676 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_66 (constant S_ .f32 0x45800000#32),
    unary main_cst_66 main_v677 (broadcastInDim S256 ![] bcast_S_S256 : (⟨S_, .f32⟩ : BufTy).Contents (Elt F) → (⟨S256, .f32⟩ : BufTy).Contents (Elt F)),
    binary main_v676 main_v677 main_v678 (Host.divf : (⟨S256, .f32⟩ : BufTy).Contents (Elt F) → (⟨S256, .f32⟩ : BufTy).Contents (Elt F) → (⟨S256, .f32⟩ : BufTy).Contents (Elt F)),
    nullary main_c_67 (constantI S_ 32 0#32),
    TRef.nullary main_call34.cst (constant S_ .f32 0x00000000#32),
    TRef.binary (.of main_v675 : TRef sig ⟨S4096x256, .f32⟩) main_call34.cst main_call34.v0 (fun x v => Host.reduceAdd x v reducesTo_S4096x256_S256_d0 h_S_),
    TRef.unary main_call34.v0 main_call34.v1 (broadcastInDim S1x256 ![1] bcast_S256_S1x256_1),
    TRef.nullary main_call34.cst_0 (constant S_ .f32 0x45800000#32),
    TRef.unary main_call34.cst_0 main_call34.v2 (broadcastInDim S1x256 ![] bcast_S_S1x256),
    TRef.binary main_call34.v1 main_call34.v2 main_call34.v3 Host.divf,
    TRef.unary main_call34.v3 main_call34.v4 (broadcastInDim S4096x256 ![0, 1] bcast_S1x256_S4096x256_0_1),
    TRef.binary (.of main_v675 : TRef sig ⟨S4096x256, .f32⟩) main_call34.v4 main_call34.v5 subf,
    TRef.binary main_call34.v5 main_call34.v5 main_call34.v6 mulf,
    TRef.unary (.of main_c_67 : TRef sig ⟨S_, .i32⟩) main_call34.v7 (sitofp .f32),
    TRef.nullary main_call34.cst_1 (constant S_ .f32 0x45800000#32),
    TRef.binary main_call34.cst_1 main_call34.v7 main_call34.v8 subf,
    TRef.nullary main_call34.cst_2 (constant S_ .f32 0x00000000#32),
    TRef.binary main_call34.v6 main_call34.cst_2 main_call34.v9 (fun x v => Host.reduceAdd x v reducesTo_S4096x256_S256_d0 h_S_),
    TRef.unary main_call34.v8 main_call34.v10 (broadcastInDim S256 ![] bcast_S_S256),
    TRef.binary main_call34.v9 main_call34.v10 main_call34.v11 Host.divf,
    TRef.nullary main_call34.cst_3 (constant S_ .f32 0x00000000#32),
    TRef.binary main_call34.v8 main_call34.cst_3 main_call34.v12 (cmpf .ogt),
    TRef.nullary main_call34.cst_4 (constant S_ .f32 0x7FC00000#32),
    TRef.unary main_call34.cst_4 main_call34_call0.v0 id,
    TRef.unary main_call34_call0.v0 main_call34_call0.v1 (broadcastInDim S256 ![] bcast_S_S256),
    TRef.ternary main_call34.v12 main_call34.v11 main_call34_call0.v1 main_call34_call0.v2 (fun p a b => select (broadcastInDim S256 ![] bcast_S_S256 p) a b),
    unary main_v678 main_v680 (broadcastInDim S1x256 ![1] bcast_S256_S1x256_1 : (⟨S256, .f32⟩ : BufTy).Contents (Elt F) → (⟨S1x256, .f32⟩ : BufTy).Contents (Elt F)),
    unary main_v680 main_v681 (broadcastInDim S4096x256 ![0, 1] bcast_S1x256_S4096x256_0_1 : (⟨S1x256, .f32⟩ : BufTy).Contents (Elt F) → (⟨S4096x256, .f32⟩ : BufTy).Contents (Elt F)),
    binary main_v675 main_v681 main_v682 (subf : (⟨S4096x256, .f32⟩ : BufTy).Contents (Elt F) → (⟨S4096x256, .f32⟩ : BufTy).Contents (Elt F) → (⟨S4096x256, .f32⟩ : BufTy).Contents (Elt F)),
    nullary main_cst_68 (constant S_ .f32 0x3727C5AC#32),
    unary main_cst_68 main_v683 (broadcastInDim S256 ![] bcast_S_S256 : (⟨S_, .f32⟩ : BufTy).Contents (Elt F) → (⟨S256, .f32⟩ : BufTy).Contents (Elt F)),
    binary main_v679 main_v683 main_v684 (addf : (⟨S256, .f32⟩ : BufTy).Contents (Elt F) → (⟨S256, .f32⟩ : BufTy).Contents (Elt F) → (⟨S256, .f32⟩ : BufTy).Contents (Elt F)),
    unary main_v684 main_v685 (Host.rsqrt : (⟨S256, .f32⟩ : BufTy).Contents (Elt F) → (⟨S256, .f32⟩ : BufTy).Contents (Elt F)),
    unary main_v685 main_v686 (broadcastInDim S1x256 ![1] bcast_S256_S1x256_1 : (⟨S256, .f32⟩ : BufTy).Contents (Elt F) → (⟨S1x256, .f32⟩ : BufTy).Contents (Elt F)),
    unary main_v686 main_v687 (broadcastInDim S4096x256 ![0, 1] bcast_S1x256_S4096x256_0_1 : (⟨S1x256, .f32⟩ : BufTy).Contents (Elt F) → (⟨S4096x256, .f32⟩ : BufTy).Contents (Elt F)),
    binary main_v682 main_v687 main_v688 (mulf : (⟨S4096x256, .f32⟩ : BufTy).Contents (Elt F) → (⟨S4096x256, .f32⟩ : BufTy).Contents (Elt F) → (⟨S4096x256, .f32⟩ : BufTy).Contents (Elt F)),
    unary main_v667 main_v689 ((extractStridedSlice S1x256 ![0, 0] · slices_S2x256_S1x256_0_0) : (⟨S2x256, .f32⟩ : BufTy).Contents (Elt F) → (⟨S1x256, .f32⟩ : BufTy).Contents (Elt F)),
    reshape main_v689 main_v690 rfl shapeCasts_S1x256_S256,
    unary main_v690 main_v691 (broadcastInDim S1x256 ![1] bcast_S256_S1x256_1 : (⟨S256, .f32⟩ : BufTy).Contents (Elt F) → (⟨S1x256, .f32⟩ : BufTy).Contents (Elt F)),
    unary main_v691 main_v692 (broadcastInDim S4096x256 ![0, 1] bcast_S1x256_S4096x256_0_1 : (⟨S1x256, .f32⟩ : BufTy).Contents (Elt F) → (⟨S4096x256, .f32⟩ : BufTy).Contents (Elt F)),
    binary main_v688 main_v692 main_v693 (mulf : (⟨S4096x256, .f32⟩ : BufTy).Contents (Elt F) → (⟨S4096x256, .f32⟩ : BufTy).Contents (Elt F) → (⟨S4096x256, .f32⟩ : BufTy).Contents (Elt F)),
    unary main_v667 main_v694 ((extractStridedSlice S1x256 ![1, 0] · slices_S2x256_S1x256_1_0) : (⟨S2x256, .f32⟩ : BufTy).Contents (Elt F) → (⟨S1x256, .f32⟩ : BufTy).Contents (Elt F)),
    reshape main_v694 main_v695 rfl shapeCasts_S1x256_S256,
    unary main_v695 main_v696 (broadcastInDim S1x256 ![1] bcast_S256_S1x256_1 : (⟨S256, .f32⟩ : BufTy).Contents (Elt F) → (⟨S1x256, .f32⟩ : BufTy).Contents (Elt F)),
    unary main_v696 main_v697 (broadcastInDim S4096x256 ![0, 1] bcast_S1x256_S4096x256_0_1 : (⟨S1x256, .f32⟩ : BufTy).Contents (Elt F) → (⟨S4096x256, .f32⟩ : BufTy).Contents (Elt F)),
    binary main_v693 main_v697 main_v698 (addf : (⟨S4096x256, .f32⟩ : BufTy).Contents (Elt F) → (⟨S4096x256, .f32⟩ : BufTy).Contents (Elt F) → (⟨S4096x256, .f32⟩ : BufTy).Contents (Elt F)),
    TRef.nullary main_call35.cst (constant S_ .f32 0x00000000#32),
    TRef.unary main_call35.cst main_call35.v0 (broadcastInDim S4096x256 ![] bcast_S_S4096x256),
    TRef.binary (.of main_v698 : TRef sig ⟨S4096x256, .f32⟩) main_call35.v0 main_call35.v1 maximumf,
    unary main_v663 main_v700 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v700 main_v701 rfl shapeCasts_S1x256x256_S256x256,
    binary main_v699 main_v701 main_v702 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v665 main_v703 ((extractStridedSlice S1x256 ![1, 0] · slices_S2x256_S1x256_1_0) : (⟨S2x256, .f32⟩ : BufTy).Contents (Elt F) → (⟨S1x256, .f32⟩ : BufTy).Contents (Elt F)),
    reshape main_v703 main_v704 rfl shapeCasts_S1x256_S256,
    unary main_v704 main_v705 (broadcastInDim S1x256 ![1] bcast_S256_S1x256_1 : (⟨S256, .f32⟩ : BufTy).Contents (Elt F) → (⟨S1x256, .f32⟩ : BufTy).Contents (Elt F)),
    unary main_v705 main_v706 (broadcastInDim S4096x256 ![0, 1] bcast_S1x256_S4096x256_0_1 : (⟨S1x256, .f32⟩ : BufTy).Contents (Elt F) → (⟨S4096x256, .f32⟩ : BufTy).Contents (Elt F)),
    binary main_v702 main_v706 main_v707 (addf : (⟨S4096x256, .f32⟩ : BufTy).Contents (Elt F) → (⟨S4096x256, .f32⟩ : BufTy).Contents (Elt F) → (⟨S4096x256, .f32⟩ : BufTy).Contents (Elt F)),
    binary main_v632 main_v707 main_v708 (addf : (⟨S4096x256, .f32⟩ : BufTy).Contents (Elt F) → (⟨S4096x256, .f32⟩ : BufTy).Contents (Elt F) → (⟨S4096x256, .f32⟩ : BufTy).Contents (Elt F)) ]

set_option maxRecDepth 8192 in
set_option maxHeartbeats 4000000 in
/-- The window is that straight line: the called functions unfolded at their calls, sequencing reassociated. -/
theorem part12_eq (c : Dev nD) : main_part12 (F := F) c = seq opsW12 := by
  simp only [main_part12, fn_where.body, fn_where_0.body, fn_elu.body, fn_where_1.body, fn_var.body, fn_relu.body, seq, bind_assoc, pure_bind] <;> rfl

set_option maxRecDepth 8192 in
theorem opsW12_sub : (opsW12 : List (HloOp τ sig (Elt F))).Forall fun op => op.bufs ⊆ tcRefs τ sig :=
  ⟨binary_bufs_sub .., unary_bufs_sub .., binary_bufs_sub .., unary_bufs_sub .., nullary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩

set_option maxRecDepth 8192 in
theorem opsW12_fresh : (opsW12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW12_writes : (opsW12 : List (HloOp τ sig (Elt F))).Forall (WritesIn 1175 1258) :=
  ⟨writesIn_single main_v654 _ rfl (by decide) (by decide),
   writesIn_single main_v655 _ rfl (by decide) (by decide),
   writesIn_single main_v656 _ rfl (by decide) (by decide),
   writesIn_single main_v657 _ rfl (by decide) (by decide),
   writesIn_single main_cst_64 _ rfl (by decide) (by decide),
   writesIn_single main_v658 _ rfl (by decide) (by decide),
   writesIn_single main_v659 _ rfl (by decide) (by decide),
   writesIn_single main_v660 _ rfl (by decide) (by decide),
   writesIn_single main_v661 _ rfl (by decide) (by decide),
   writesIn_single main_v662 _ rfl (by decide) (by decide),
   writesIn_single main_v663 _ rfl (by decide) (by decide),
   writesIn_single main_v664 _ rfl (by decide) (by decide),
   writesIn_single main_v665 _ rfl (by decide) (by decide),
   writesIn_single main_v666 _ rfl (by decide) (by decide),
   writesIn_single main_v667 _ rfl (by decide) (by decide),
   writesIn_single main_v668 _ rfl (by decide) (by decide),
   writesIn_single main_v669 _ rfl (by decide) (by decide),
   writesIn_single main_v670 _ rfl (by decide) (by decide),
   writesIn_single main_v671 _ rfl (by decide) (by decide),
   writesIn_single main_v672 _ rfl (by decide) (by decide),
   writesIn_single main_v673 _ rfl (by decide) (by decide),
   writesIn_single main_v674 _ rfl (by decide) (by decide),
   writesIn_single main_v675 _ rfl (by decide) (by decide),
   writesIn_single main_cst_65 _ rfl (by decide) (by decide),
   writesIn_single main_v676 _ rfl (by decide) (by decide),
   writesIn_single main_cst_66 _ rfl (by decide) (by decide),
   writesIn_single main_v677 _ rfl (by decide) (by decide),
   writesIn_single main_v678 _ rfl (by decide) (by decide),
   writesIn_single main_c_67 _ rfl (by decide) (by decide),
   writesIn_single main_call34_cst _ rfl (by decide) (by decide),
   writesIn_single main_call34_v0 _ rfl (by decide) (by decide),
   writesIn_single main_call34_v1 _ rfl (by decide) (by decide),
   writesIn_single main_call34_cst_0 _ rfl (by decide) (by decide),
   writesIn_single main_call34_v2 _ rfl (by decide) (by decide),
   writesIn_single main_call34_v3 _ rfl (by decide) (by decide),
   writesIn_single main_call34_v4 _ rfl (by decide) (by decide),
   writesIn_single main_call34_v5 _ rfl (by decide) (by decide),
   writesIn_single main_call34_v6 _ rfl (by decide) (by decide),
   writesIn_single main_call34_v7 _ rfl (by decide) (by decide),
   writesIn_single main_call34_cst_1 _ rfl (by decide) (by decide),
   writesIn_single main_call34_v8 _ rfl (by decide) (by decide),
   writesIn_single main_call34_cst_2 _ rfl (by decide) (by decide),
   writesIn_single main_call34_v9 _ rfl (by decide) (by decide),
   writesIn_single main_call34_v10 _ rfl (by decide) (by decide),
   writesIn_single main_call34_v11 _ rfl (by decide) (by decide),
   writesIn_single main_call34_cst_3 _ rfl (by decide) (by decide),
   writesIn_single main_call34_v12 _ rfl (by decide) (by decide),
   writesIn_single main_call34_cst_4 _ rfl (by decide) (by decide),
   writesIn_single main_call34_call0_v0 _ rfl (by decide) (by decide),
   writesIn_single main_call34_call0_v1 _ rfl (by decide) (by decide),
   writesIn_single main_v679 _ rfl (by decide) (by decide),
   writesIn_single main_v680 _ rfl (by decide) (by decide),
   writesIn_single main_v681 _ rfl (by decide) (by decide),
   writesIn_single main_v682 _ rfl (by decide) (by decide),
   writesIn_single main_cst_68 _ rfl (by decide) (by decide),
   writesIn_single main_v683 _ rfl (by decide) (by decide),
   writesIn_single main_v684 _ rfl (by decide) (by decide),
   writesIn_single main_v685 _ rfl (by decide) (by decide),
   writesIn_single main_v686 _ rfl (by decide) (by decide),
   writesIn_single main_v687 _ rfl (by decide) (by decide),
   writesIn_single main_v688 _ rfl (by decide) (by decide),
   writesIn_single main_v689 _ rfl (by decide) (by decide),
   writesIn_single main_v690 _ rfl (by decide) (by decide),
   writesIn_single main_v691 _ rfl (by decide) (by decide),
   writesIn_single main_v692 _ rfl (by decide) (by decide),
   writesIn_single main_v693 _ rfl (by decide) (by decide),
   writesIn_single main_v694 _ rfl (by decide) (by decide),
   writesIn_single main_v695 _ rfl (by decide) (by decide),
   writesIn_single main_v696 _ rfl (by decide) (by decide),
   writesIn_single main_v697 _ rfl (by decide) (by decide),
   writesIn_single main_v698 _ rfl (by decide) (by decide),
   writesIn_single main_call35_cst _ rfl (by decide) (by decide),
   writesIn_single main_call35_v0 _ rfl (by decide) (by decide),
   writesIn_single main_v699 _ rfl (by decide) (by decide),
   writesIn_single main_v700 _ rfl (by decide) (by decide),
   writesIn_single main_v701 _ rfl (by decide) (by decide),
   writesIn_single main_v702 _ rfl (by decide) (by decide),
   writesIn_single main_v703 _ rfl (by decide) (by decide),
   writesIn_single main_v704 _ rfl (by decide) (by decide),
   writesIn_single main_v705 _ rfl (by decide) (by decide),
   writesIn_single main_v706 _ rfl (by decide) (by decide),
   writesIn_single main_v707 _ rfl (by decide) (by decide),
   writesIn_single main_v708 _ rfl (by decide) (by decide)⟩

end Cert.ReferenceIdeal.Hand

end
-- ==== Proof.RefRunW13.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 1240 … 1327 of 1674 (window main_part13): they write the buffers 1258 … 1345 in order. -/
noncomputable abbrev opsW13 : List (HloOp τ sig (Elt F)) :=
  [ nullary main_cst_69 (constant S_ .f32 0x40400000#32),
    unary main_cst_69 main_v709 (broadcastInDim S4096x256 ![] bcast_S_S4096x256 : (⟨S_, .f32⟩ : BufTy).Contents (Elt F) → (⟨S4096x256, .f32⟩ : BufTy).Contents (Elt F)),
    binary main_v708 main_v709 main_v710 (Host.divf : (⟨S4096x256, .f32⟩ : BufTy).Contents (Elt F) → (⟨S4096x256, .f32⟩ : BufTy).Contents (Elt F) → (⟨S4096x256, .f32⟩ : BufTy).Contents (Elt F)),
    nullary main_v711 (iotaInDim S4096x4096 32 0),
    nullary main_v712 (iotaInDim S4096x4096 32 1),
    nullary main_c_70 (constantI S_ 32 0#32),
    unary main_c_70 main_v713 (broadcastInDim S4096x4096 ![] bcast_S_S4096x4096 : (⟨S_, .i32⟩ : BufTy).Contents (Elt F) → (⟨S4096x4096, .i32⟩ : BufTy).Contents (Elt F)),
    binary main_v711 main_v713 main_v714 (addi : (⟨S4096x4096, .i32⟩ : BufTy).Contents (Elt F) → (⟨S4096x4096, .i32⟩ : BufTy).Contents (Elt F) → (⟨S4096x4096, .i32⟩ : BufTy).Contents (Elt F)),
    binary main_v714 main_v712 main_v715 (cmpi .eq : (⟨S4096x4096, .i32⟩ : BufTy).Contents (Elt F) → (⟨S4096x4096, .i32⟩ : BufTy).Contents (Elt F) → (⟨S4096x4096, .i1⟩ : BufTy).Contents (Elt F)),
    unary main_v715 main_v716 (uitofp .f32 : (⟨S4096x4096, .i1⟩ : BufTy).Contents (Elt F) → (⟨S4096x4096, .f32⟩ : BufTy).Contents (Elt F)),
    nullary main_cst_71 (constant S_ .f32 0x00000000#32),
    unary main_cst_71 main_v717 (broadcastInDim S4096x256 ![] bcast_S_S4096x256 : (⟨S_, .f32⟩ : BufTy).Contents (Elt F) → (⟨S4096x256, .f32⟩ : BufTy).Contents (Elt F)),
    unary main_arg9 main_v718 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v718 main_v719 rfl shapeCasts_S1x256x256_S256x256,
    binary main_arg3 main_v719 main_v720 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v721 ((extractStridedSlice S1x256 ![0, 0] · slices_S2x256_S1x256_0_0) : (⟨S2x256, .f32⟩ : BufTy).Contents (Elt F) → (⟨S1x256, .f32⟩ : BufTy).Contents (Elt F)),
    reshape main_v721 main_v722 rfl shapeCasts_S1x256_S256,
    unary main_v722 main_v723 (broadcastInDim S1x256 ![1] bcast_S256_S1x256_1 : (⟨S256, .f32⟩ : BufTy).Contents (Elt F) → (⟨S1x256, .f32⟩ : BufTy).Contents (Elt F)),
    unary main_v723 main_v724 (broadcastInDim S4096x256 ![0, 1] bcast_S1x256_S4096x256_0_1 : (⟨S1x256, .f32⟩ : BufTy).Contents (Elt F) → (⟨S4096x256, .f32⟩ : BufTy).Contents (Elt F)),
    binary main_v720 main_v724 main_v725 (addf : (⟨S4096x256, .f32⟩ : BufTy).Contents (Elt F) → (⟨S4096x256, .f32⟩ : BufTy).Contents (Elt F) → (⟨S4096x256, .f32⟩ : BufTy).Contents (Elt F)),
    TRef.nullary main_call36.cst (constant S_ .f32 0x00000000#32),
    TRef.unary main_call36.cst main_call36.v0 (broadcastInDim S4096x256 ![] bcast_S_S4096x256),
    TRef.binary (.of main_v725 : TRef sig ⟨S4096x256, .f32⟩) main_call36.v0 main_call36.v1 (cmpf .ogt),
    TRef.nullary main_call36.cst_0 (constant S_ .f32 0x00000000#32),
    TRef.unary main_call36.cst_0 main_call36.v2 (broadcastInDim S4096x256 ![] bcast_S_S4096x256),
    TRef.binary (.of main_v725 : TRef sig ⟨S4096x256, .f32⟩) main_call36.v2 main_call36.v3 (cmpf .ogt),
    TRef.nullary main_call36.cst_1 (constant S_ .f32 0x00000000#32),
    TRef.unary main_call36.cst_1 main_call36_call0.v0 id,
    TRef.unary main_call36_call0.v0 main_call36_call0.v1 (broadcastInDim S4096x256 ![] bcast_S_S4096x256),
    TRef.ternary main_call36.v3 main_call36_call0.v1 (.of main_v725 : TRef sig ⟨S4096x256, .f32⟩) main_call36_call0.v2 select,
    TRef.unary main_call36.call0.v2 main_call36.v5 Host.expm1,
    TRef.nullary main_call36.cst_2 (constant S_ .f32 0x3F800000#32),
    TRef.unary main_call36.cst_2 main_call36.v6 (broadcastInDim S4096x256 ![] bcast_S_S4096x256),
    TRef.binary main_call36.v6 main_call36.v5 main_call36.v7 mulf,
    TRef.ternary main_call36.v1 (.of main_v725 : TRef sig ⟨S4096x256, .f32⟩) main_call36.v7 main_call36_call1.v0 select,
    unary main_arg9 main_v727 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v727 main_v728 rfl shapeCasts_S1x256x256_S256x256,
    binary main_v726 main_v728 main_v729 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v730 ((extractStridedSlice S1x256 ![1, 0] · slices_S2x256_S1x256_1_0) : (⟨S2x256, .f32⟩ : BufTy).Contents (Elt F) → (⟨S1x256, .f32⟩ : BufTy).Contents (Elt F)),
    reshape main_v730 main_v731 rfl shapeCasts_S1x256_S256,
    unary main_v731 main_v732 (broadcastInDim S1x256 ![1] bcast_S256_S1x256_1 : (⟨S256, .f32⟩ : BufTy).Contents (Elt F) → (⟨S1x256, .f32⟩ : BufTy).Contents (Elt F)),
    unary main_v732 main_v733 (broadcastInDim S4096x256 ![0, 1] bcast_S1x256_S4096x256_0_1 : (⟨S1x256, .f32⟩ : BufTy).Contents (Elt F) → (⟨S4096x256, .f32⟩ : BufTy).Contents (Elt F)),
    binary main_v729 main_v733 main_v734 (addf : (⟨S4096x256, .f32⟩ : BufTy).Contents (Elt F) → (⟨S4096x256, .f32⟩ : BufTy).Contents (Elt F) → (⟨S4096x256, .f32⟩ : BufTy).Contents (Elt F)),
    TRef.nullary main_call37.cst (constant S_ .f32 0x00000000#32),
    TRef.unary main_call37.cst main_call37.v0 (broadcastInDim S4096x256 ![] bcast_S_S4096x256),
    TRef.binary (.of main_v734 : TRef sig ⟨S4096x256, .f32⟩) main_call37.v0 main_call37.v1 (cmpf .ogt),
    TRef.nullary main_call37.cst_0 (constant S_ .f32 0x00000000#32),
    TRef.unary main_call37.cst_0 main_call37.v2 (broadcastInDim S4096x256 ![] bcast_S_S4096x256),
    TRef.binary (.of main_v734 : TRef sig ⟨S4096x256, .f32⟩) main_call37.v2 main_call37.v3 (cmpf .ogt),
    TRef.nullary main_call37.cst_1 (constant S_ .f32 0x00000000#32),
    TRef.unary main_call37.cst_1 main_call37_call0.v0 id,
    TRef.unary main_call37_call0.v0 main_call37_call0.v1 (broadcastInDim S4096x256 ![] bcast_S_S4096x256),
    TRef.ternary main_call37.v3 main_call37_call0.v1 (.of main_v734 : TRef sig ⟨S4096x256, .f32⟩) main_call37_call0.v2 select,
    TRef.unary main_call37.call0.v2 main_call37.v5 Host.expm1,
    TRef.nullary main_call37.cst_2 (constant S_ .f32 0x3F800000#32),
    TRef.unary main_call37.cst_2 main_call37.v6 (broadcastInDim S4096x256 ![] bcast_S_S4096x256),
    TRef.binary main_call37.v6 main_call37.v5 main_call37.v7 mulf,
    TRef.ternary main_call37.v1 (.of main_v734 : TRef sig ⟨S4096x256, .f32⟩) main_call37.v7 main_call37_call1.v0 select,
    unary main_v735 main_v736 ((transpose S256x4096 [1, 0] · transposes_S4096x256_S256x4096_1_0) : (⟨S4096x256, .f32⟩ : BufTy).Contents (Elt F) → (⟨S256x4096, .f32⟩ : BufTy).Contents (Elt F)),
    binary main_v735 main_v736 main_v737 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_72 (constant S_ .f32 0x00000000#32),
    binary main_v737 main_cst_72 main_v738 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_73 (constant S_ .f32 0x4B800000#32),
    binary main_v738 main_cst_73 main_v739 (Host.divf : (⟨S_, .f32⟩ : BufTy).Contents (Elt F) → (⟨S_, .f32⟩ : BufTy).Contents (Elt F) → (⟨S_, .f32⟩ : BufTy).Contents (Elt F)),
    unary main_v739 main_v740 (broadcastInDim S4096x4096 ![] bcast_S_S4096x4096 : (⟨S_, .f32⟩ : BufTy).Contents (Elt F) → (⟨S4096x4096, .f32⟩ : BufTy).Contents (Elt F)),
    binary main_v737 main_v740 main_v741 (cmpf .ogt : (⟨S4096x4096, .f32⟩ : BufTy).Contents (Elt F) → (⟨S4096x4096, .f32⟩ : BufTy).Contents (Elt F) → (⟨S4096x4096, .i1⟩ : BufTy).Contents (Elt F)),
    unary main_v741 main_v742 (uitofp .f32 : (⟨S4096x4096, .i1⟩ : BufTy).Contents (Elt F) → (⟨S4096x4096, .f32⟩ : BufTy).Contents (Elt F)),
    nullary main_cst_74 (constant S_ .f32 0x3F800000#32),
    unary main_cst_74 main_v743 (broadcastInDim S4096x4096 ![] bcast_S_S4096x4096 : (⟨S_, .f32⟩ : BufTy).Contents (Elt F) → (⟨S4096x4096, .f32⟩ : BufTy).Contents (Elt F)),
    binary main_v743 main_v716 main_v744 (mulf : (⟨S4096x4096, .f32⟩ : BufTy).Contents (Elt F) → (⟨S4096x4096, .f32⟩ : BufTy).Contents (Elt F) → (⟨S4096x4096, .f32⟩ : BufTy).Contents (Elt F)),
    binary main_v742 main_v744 main_v745 (addf : (⟨S4096x4096, .f32⟩ : BufTy).Contents (Elt F) → (⟨S4096x4096, .f32⟩ : BufTy).Contents (Elt F) → (⟨S4096x4096, .f32⟩ : BufTy).Contents (Elt F)),
    binary main_v745 main_arg3 main_v746 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg11 main_v747 ((extractStridedSlice S1x2x256x256 ![0, 0, 0, 0] · slices_S3x2x256x256_S1x2x256x256_0_0_0_0) : (⟨S3x2x256x256, .f32⟩ : BufTy).Contents (Elt F) → (⟨S1x2x256x256, .f32⟩ : BufTy).Contents (Elt F)),
    reshape main_v747 main_v748 rfl shapeCasts_S1x2x256x256_S2x256x256,
    unary main_arg12 main_v749 ((extractStridedSlice S1x2x256 ![0, 0, 0] · slices_S3x2x256_S1x2x256_0_0_0) : (⟨S3x2x256, .f32⟩ : BufTy).Contents (Elt F) → (⟨S1x2x256, .f32⟩ : BufTy).Contents (Elt F)),
    reshape main_v749 main_v750 rfl shapeCasts_S1x2x256_S2x256,
    unary main_arg13 main_v751 ((extractStridedSlice S1x2x256 ![0, 0, 0] · slices_S3x2x256_S1x2x256_0_0_0) : (⟨S3x2x256, .f32⟩ : BufTy).Contents (Elt F) → (⟨S1x2x256, .f32⟩ : BufTy).Contents (Elt F)),
    reshape main_v751 main_v752 rfl shapeCasts_S1x2x256_S2x256,
    unary main_v748 main_v753 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v753 main_v754 rfl shapeCasts_S1x256x256_S256x256,
    binary main_v746 main_v754 main_v755 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v750 main_v756 ((extractStridedSlice S1x256 ![0, 0] · slices_S2x256_S1x256_0_0) : (⟨S2x256, .f32⟩ : BufTy).Contents (Elt F) → (⟨S1x256, .f32⟩ : BufTy).Contents (Elt F)),
    reshape main_v756 main_v757 rfl shapeCasts_S1x256_S256,
    unary main_v757 main_v758 (broadcastInDim S1x256 ![1] bcast_S256_S1x256_1 : (⟨S256, .f32⟩ : BufTy).Contents (Elt F) → (⟨S1x256, .f32⟩ : BufTy).Contents (Elt F)),
    unary main_v758 main_v759 (broadcastInDim S4096x256 ![0, 1] bcast_S1x256_S4096x256_0_1 : (⟨S1x256, .f32⟩ : BufTy).Contents (Elt F) → (⟨S4096x256, .f32⟩ : BufTy).Contents (Elt F)),
    binary main_v755 main_v759 main_v760 (addf : (⟨S4096x256, .f32⟩ : BufTy).Contents (Elt F) → (⟨S4096x256, .f32⟩ : BufTy).Contents (Elt F) → (⟨S4096x256, .f32⟩ : BufTy).Contents (Elt F)),
    nullary main_cst_75 (constant S_ .f32 0x00000000#32),
    binary main_v760 main_cst_75 main_v761 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)) ]

set_option maxRecDepth 8192 in
set_option maxHeartbeats 4000000 in
/-- The window is that straight line: the called functions unfolded at their calls, sequencing reassociated. -/
theorem part13_eq (c : Dev nD) : main_part13 (F := F) c = seq opsW13 := by
  simp only [main_part13, fn_where.body, fn_where_0.body, fn_elu.body, fn_where_1.body, fn_var.body, fn_relu.body, seq, bind_assoc, pure_bind] <;> rfl

set_option maxRecDepth 8192 in
theorem opsW13_sub : (opsW13 : List (HloOp τ sig (Elt F))).Forall fun op => op.bufs ⊆ tcRefs τ sig :=
  ⟨nullary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., nullary_bufs_sub .., binary_bufs_sub .., nullary_bufs_sub .., binary_bufs_sub .., unary_bufs_sub .., binary_bufs_sub .., unary_bufs_sub .., nullary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub .., nullary_bufs_sub .., binary_bufs_sub ..⟩

set_option maxRecDepth 8192 in
theorem opsW13_fresh : (opsW13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW13_writes : (opsW13 : List (HloOp τ sig (Elt F))).Forall (WritesIn 1258 1346) :=
  ⟨writesIn_single main_cst_69 _ rfl (by decide) (by decide),
   writesIn_single main_v709 _ rfl (by decide) (by decide),
   writesIn_single main_v710 _ rfl (by decide) (by decide),
   writesIn_single main_v711 _ rfl (by decide) (by decide),
   writesIn_single main_v712 _ rfl (by decide) (by decide),
   writesIn_single main_c_70 _ rfl (by decide) (by decide),
   writesIn_single main_v713 _ rfl (by decide) (by decide),
   writesIn_single main_v714 _ rfl (by decide) (by decide),
   writesIn_single main_v715 _ rfl (by decide) (by decide),
   writesIn_single main_v716 _ rfl (by decide) (by decide),
   writesIn_single main_cst_71 _ rfl (by decide) (by decide),
   writesIn_single main_v717 _ rfl (by decide) (by decide),
   writesIn_single main_v718 _ rfl (by decide) (by decide),
   writesIn_single main_v719 _ rfl (by decide) (by decide),
   writesIn_single main_v720 _ rfl (by decide) (by decide),
   writesIn_single main_v721 _ rfl (by decide) (by decide),
   writesIn_single main_v722 _ rfl (by decide) (by decide),
   writesIn_single main_v723 _ rfl (by decide) (by decide),
   writesIn_single main_v724 _ rfl (by decide) (by decide),
   writesIn_single main_v725 _ rfl (by decide) (by decide),
   writesIn_single main_call36_cst _ rfl (by decide) (by decide),
   writesIn_single main_call36_v0 _ rfl (by decide) (by decide),
   writesIn_single main_call36_v1 _ rfl (by decide) (by decide),
   writesIn_single main_call36_cst_0 _ rfl (by decide) (by decide),
   writesIn_single main_call36_v2 _ rfl (by decide) (by decide),
   writesIn_single main_call36_v3 _ rfl (by decide) (by decide),
   writesIn_single main_call36_cst_1 _ rfl (by decide) (by decide),
   writesIn_single main_call36_call0_v0 _ rfl (by decide) (by decide),
   writesIn_single main_call36_call0_v1 _ rfl (by decide) (by decide),
   writesIn_single main_call36_v4 _ rfl (by decide) (by decide),
   writesIn_single main_call36_v5 _ rfl (by decide) (by decide),
   writesIn_single main_call36_cst_2 _ rfl (by decide) (by decide),
   writesIn_single main_call36_v6 _ rfl (by decide) (by decide),
   writesIn_single main_call36_v7 _ rfl (by decide) (by decide),
   writesIn_single main_v726 _ rfl (by decide) (by decide),
   writesIn_single main_v727 _ rfl (by decide) (by decide),
   writesIn_single main_v728 _ rfl (by decide) (by decide),
   writesIn_single main_v729 _ rfl (by decide) (by decide),
   writesIn_single main_v730 _ rfl (by decide) (by decide),
   writesIn_single main_v731 _ rfl (by decide) (by decide),
   writesIn_single main_v732 _ rfl (by decide) (by decide),
   writesIn_single main_v733 _ rfl (by decide) (by decide),
   writesIn_single main_v734 _ rfl (by decide) (by decide),
   writesIn_single main_call37_cst _ rfl (by decide) (by decide),
   writesIn_single main_call37_v0 _ rfl (by decide) (by decide),
   writesIn_single main_call37_v1 _ rfl (by decide) (by decide),
   writesIn_single main_call37_cst_0 _ rfl (by decide) (by decide),
   writesIn_single main_call37_v2 _ rfl (by decide) (by decide),
   writesIn_single main_call37_v3 _ rfl (by decide) (by decide),
   writesIn_single main_call37_cst_1 _ rfl (by decide) (by decide),
   writesIn_single main_call37_call0_v0 _ rfl (by decide) (by decide),
   writesIn_single main_call37_call0_v1 _ rfl (by decide) (by decide),
   writesIn_single main_call37_v4 _ rfl (by decide) (by decide),
   writesIn_single main_call37_v5 _ rfl (by decide) (by decide),
   writesIn_single main_call37_cst_2 _ rfl (by decide) (by decide),
   writesIn_single main_call37_v6 _ rfl (by decide) (by decide),
   writesIn_single main_call37_v7 _ rfl (by decide) (by decide),
   writesIn_single main_v735 _ rfl (by decide) (by decide),
   writesIn_single main_v736 _ rfl (by decide) (by decide),
   writesIn_single main_v737 _ rfl (by decide) (by decide),
   writesIn_single main_cst_72 _ rfl (by decide) (by decide),
   writesIn_single main_v738 _ rfl (by decide) (by decide),
   writesIn_single main_cst_73 _ rfl (by decide) (by decide),
   writesIn_single main_v739 _ rfl (by decide) (by decide),
   writesIn_single main_v740 _ rfl (by decide) (by decide),
   writesIn_single main_v741 _ rfl (by decide) (by decide),
   writesIn_single main_v742 _ rfl (by decide) (by decide),
   writesIn_single main_cst_74 _ rfl (by decide) (by decide),
   writesIn_single main_v743 _ rfl (by decide) (by decide),
   writesIn_single main_v744 _ rfl (by decide) (by decide),
   writesIn_single main_v745 _ rfl (by decide) (by decide),
   writesIn_single main_v746 _ rfl (by decide) (by decide),
   writesIn_single main_v747 _ rfl (by decide) (by decide),
   writesIn_single main_v748 _ rfl (by decide) (by decide),
   writesIn_single main_v749 _ rfl (by decide) (by decide),
   writesIn_single main_v750 _ rfl (by decide) (by decide),
   writesIn_single main_v751 _ rfl (by decide) (by decide),
   writesIn_single main_v752 _ rfl (by decide) (by decide),
   writesIn_single main_v753 _ rfl (by decide) (by decide),
   writesIn_single main_v754 _ rfl (by decide) (by decide),
   writesIn_single main_v755 _ rfl (by decide) (by decide),
   writesIn_single main_v756 _ rfl (by decide) (by decide),
   writesIn_single main_v757 _ rfl (by decide) (by decide),
   writesIn_single main_v758 _ rfl (by decide) (by decide),
   writesIn_single main_v759 _ rfl (by decide) (by decide),
   writesIn_single main_v760 _ rfl (by decide) (by decide),
   writesIn_single main_cst_75 _ rfl (by decide) (by decide),
   writesIn_single main_v761 _ rfl (by decide) (by decide)⟩

end Cert.ReferenceIdeal.Hand

end
-- ==== Proof.RefRunW14.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 1328 … 1438 of 1674 (window main_part14): they write the buffers 1346 … 1456 in order. -/
noncomputable abbrev opsW14 : List (HloOp τ sig (Elt F)) :=
  [ nullary main_cst_76 (constant S_ .f32 0x45800000#32),
    unary main_cst_76 main_v762 (broadcastInDim S256 ![] bcast_S_S256 : (⟨S_, .f32⟩ : BufTy).Contents (Elt F) → (⟨S256, .f32⟩ : BufTy).Contents (Elt F)),
    binary main_v761 main_v762 main_v763 (Host.divf : (⟨S256, .f32⟩ : BufTy).Contents (Elt F) → (⟨S256, .f32⟩ : BufTy).Contents (Elt F) → (⟨S256, .f32⟩ : BufTy).Contents (Elt F)),
    nullary main_c_77 (constantI S_ 32 0#32),
    TRef.nullary main_call38.cst (constant S_ .f32 0x00000000#32),
    TRef.binary (.of main_v760 : TRef sig ⟨S4096x256, .f32⟩) main_call38.cst main_call38.v0 (fun x v => Host.reduceAdd x v reducesTo_S4096x256_S256_d0 h_S_),
    TRef.unary main_call38.v0 main_call38.v1 (broadcastInDim S1x256 ![1] bcast_S256_S1x256_1),
    TRef.nullary main_call38.cst_0 (constant S_ .f32 0x45800000#32),
    TRef.unary main_call38.cst_0 main_call38.v2 (broadcastInDim S1x256 ![] bcast_S_S1x256),
    TRef.binary main_call38.v1 main_call38.v2 main_call38.v3 Host.divf,
    TRef.unary main_call38.v3 main_call38.v4 (broadcastInDim S4096x256 ![0, 1] bcast_S1x256_S4096x256_0_1),
    TRef.binary (.of main_v760 : TRef sig ⟨S4096x256, .f32⟩) main_call38.v4 main_call38.v5 subf,
    TRef.binary main_call38.v5 main_call38.v5 main_call38.v6 mulf,
    TRef.unary (.of main_c_77 : TRef sig ⟨S_, .i32⟩) main_call38.v7 (sitofp .f32),
    TRef.nullary main_call38.cst_1 (constant S_ .f32 0x45800000#32),
    TRef.binary main_call38.cst_1 main_call38.v7 main_call38.v8 subf,
    TRef.nullary main_call38.cst_2 (constant S_ .f32 0x00000000#32),
    TRef.binary main_call38.v6 main_call38.cst_2 main_call38.v9 (fun x v => Host.reduceAdd x v reducesTo_S4096x256_S256_d0 h_S_),
    TRef.unary main_call38.v8 main_call38.v10 (broadcastInDim S256 ![] bcast_S_S256),
    TRef.binary main_call38.v9 main_call38.v10 main_call38.v11 Host.divf,
    TRef.nullary main_call38.cst_3 (constant S_ .f32 0x00000000#32),
    TRef.binary main_call38.v8 main_call38.cst_3 main_call38.v12 (cmpf .ogt),
    TRef.nullary main_call38.cst_4 (constant S_ .f32 0x7FC00000#32),
    TRef.unary main_call38.cst_4 main_call38_call0.v0 id,
    TRef.unary main_call38_call0.v0 main_call38_call0.v1 (broadcastInDim S256 ![] bcast_S_S256),
    TRef.ternary main_call38.v12 main_call38.v11 main_call38_call0.v1 main_call38_call0.v2 (fun p a b => select (broadcastInDim S256 ![] bcast_S_S256 p) a b),
    unary main_v763 main_v765 (broadcastInDim S1x256 ![1] bcast_S256_S1x256_1 : (⟨S256, .f32⟩ : BufTy).Contents (Elt F) → (⟨S1x256, .f32⟩ : BufTy).Contents (Elt F)),
    unary main_v765 main_v766 (broadcastInDim S4096x256 ![0, 1] bcast_S1x256_S4096x256_0_1 : (⟨S1x256, .f32⟩ : BufTy).Contents (Elt F) → (⟨S4096x256, .f32⟩ : BufTy).Contents (Elt F)),
    binary main_v760 main_v766 main_v767 (subf : (⟨S4096x256, .f32⟩ : BufTy).Contents (Elt F) → (⟨S4096x256, .f32⟩ : BufTy).Contents (Elt F) → (⟨S4096x256, .f32⟩ : BufTy).Contents (Elt F)),
    nullary main_cst_78 (constant S_ .f32 0x3727C5AC#32),
    unary main_cst_78 main_v768 (broadcastInDim S256 ![] bcast_S_S256 : (⟨S_, .f32⟩ : BufTy).Contents (Elt F) → (⟨S256, .f32⟩ : BufTy).Contents (Elt F)),
    binary main_v764 main_v768 main_v769 (addf : (⟨S256, .f32⟩ : BufTy).Contents (Elt F) → (⟨S256, .f32⟩ : BufTy).Contents (Elt F) → (⟨S256, .f32⟩ : BufTy).Contents (Elt F)),
    unary main_v769 main_v770 (Host.rsqrt : (⟨S256, .f32⟩ : BufTy).Contents (Elt F) → (⟨S256, .f32⟩ : BufTy).Contents (Elt F)),
    unary main_v770 main_v771 (broadcastInDim S1x256 ![1] bcast_S256_S1x256_1 : (⟨S256, .f32⟩ : BufTy).Contents (Elt F) → (⟨S1x256, .f32⟩ : BufTy).Contents (Elt F)),
    unary main_v771 main_v772 (broadcastInDim S4096x256 ![0, 1] bcast_S1x256_S4096x256_0_1 : (⟨S1x256, .f32⟩ : BufTy).Contents (Elt F) → (⟨S4096x256, .f32⟩ : BufTy).Contents (Elt F)),
    binary main_v767 main_v772 main_v773 (mulf : (⟨S4096x256, .f32⟩ : BufTy).Contents (Elt F) → (⟨S4096x256, .f32⟩ : BufTy).Contents (Elt F) → (⟨S4096x256, .f32⟩ : BufTy).Contents (Elt F)),
    unary main_v752 main_v774 ((extractStridedSlice S1x256 ![0, 0] · slices_S2x256_S1x256_0_0) : (⟨S2x256, .f32⟩ : BufTy).Contents (Elt F) → (⟨S1x256, .f32⟩ : BufTy).Contents (Elt F)),
    reshape main_v774 main_v775 rfl shapeCasts_S1x256_S256,
    unary main_v775 main_v776 (broadcastInDim S1x256 ![1] bcast_S256_S1x256_1 : (⟨S256, .f32⟩ : BufTy).Contents (Elt F) → (⟨S1x256, .f32⟩ : BufTy).Contents (Elt F)),
    unary main_v776 main_v777 (broadcastInDim S4096x256 ![0, 1] bcast_S1x256_S4096x256_0_1 : (⟨S1x256, .f32⟩ : BufTy).Contents (Elt F) → (⟨S4096x256, .f32⟩ : BufTy).Contents (Elt F)),
    binary main_v773 main_v777 main_v778 (mulf : (⟨S4096x256, .f32⟩ : BufTy).Contents (Elt F) → (⟨S4096x256, .f32⟩ : BufTy).Contents (Elt F) → (⟨S4096x256, .f32⟩ : BufTy).Contents (Elt F)),
    unary main_v752 main_v779 ((extractStridedSlice S1x256 ![1, 0] · slices_S2x256_S1x256_1_0) : (⟨S2x256, .f32⟩ : BufTy).Contents (Elt F) → (⟨S1x256, .f32⟩ : BufTy).Contents (Elt F)),
    reshape main_v779 main_v780 rfl shapeCasts_S1x256_S256,
    unary main_v780 main_v781 (broadcastInDim S1x256 ![1] bcast_S256_S1x256_1 : (⟨S256, .f32⟩ : BufTy).Contents (Elt F) → (⟨S1x256, .f32⟩ : BufTy).Contents (Elt F)),
    unary main_v781 main_v782 (broadcastInDim S4096x256 ![0, 1] bcast_S1x256_S4096x256_0_1 : (⟨S1x256, .f32⟩ : BufTy).Contents (Elt F) → (⟨S4096x256, .f32⟩ : BufTy).Contents (Elt F)),
    binary main_v778 main_v782 main_v783 (addf : (⟨S4096x256, .f32⟩ : BufTy).Contents (Elt F) → (⟨S4096x256, .f32⟩ : BufTy).Contents (Elt F) → (⟨S4096x256, .f32⟩ : BufTy).Contents (Elt F)),
    TRef.nullary main_call39.cst (constant S_ .f32 0x00000000#32),
    TRef.unary main_call39.cst main_call39.v0 (broadcastInDim S4096x256 ![] bcast_S_S4096x256),
    TRef.binary (.of main_v783 : TRef sig ⟨S4096x256, .f32⟩) main_call39.v0 main_call39.v1 maximumf,
    unary main_v748 main_v785 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v785 main_v786 rfl shapeCasts_S1x256x256_S256x256,
    binary main_v784 main_v786 main_v787 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v750 main_v788 ((extractStridedSlice S1x256 ![1, 0] · slices_S2x256_S1x256_1_0) : (⟨S2x256, .f32⟩ : BufTy).Contents (Elt F) → (⟨S1x256, .f32⟩ : BufTy).Contents (Elt F)),
    reshape main_v788 main_v789 rfl shapeCasts_S1x256_S256,
    unary main_v789 main_v790 (broadcastInDim S1x256 ![1] bcast_S256_S1x256_1 : (⟨S256, .f32⟩ : BufTy).Contents (Elt F) → (⟨S1x256, .f32⟩ : BufTy).Contents (Elt F)),
    unary main_v790 main_v791 (broadcastInDim S4096x256 ![0, 1] bcast_S1x256_S4096x256_0_1 : (⟨S1x256, .f32⟩ : BufTy).Contents (Elt F) → (⟨S4096x256, .f32⟩ : BufTy).Contents (Elt F)),
    binary main_v787 main_v791 main_v792 (addf : (⟨S4096x256, .f32⟩ : BufTy).Contents (Elt F) → (⟨S4096x256, .f32⟩ : BufTy).Contents (Elt F) → (⟨S4096x256, .f32⟩ : BufTy).Contents (Elt F)),
    binary main_v717 main_v792 main_v793 (addf : (⟨S4096x256, .f32⟩ : BufTy).Contents (Elt F) → (⟨S4096x256, .f32⟩ : BufTy).Contents (Elt F) → (⟨S4096x256, .f32⟩ : BufTy).Contents (Elt F)),
    unary main_arg9 main_v794 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v794 main_v795 rfl shapeCasts_S1x256x256_S256x256,
    binary main_v792 main_v795 main_v796 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v797 ((extractStridedSlice S1x256 ![0, 0] · slices_S2x256_S1x256_0_0) : (⟨S2x256, .f32⟩ : BufTy).Contents (Elt F) → (⟨S1x256, .f32⟩ : BufTy).Contents (Elt F)),
    reshape main_v797 main_v798 rfl shapeCasts_S1x256_S256,
    unary main_v798 main_v799 (broadcastInDim S1x256 ![1] bcast_S256_S1x256_1 : (⟨S256, .f32⟩ : BufTy).Contents (Elt F) → (⟨S1x256, .f32⟩ : BufTy).Contents (Elt F)),
    unary main_v799 main_v800 (broadcastInDim S4096x256 ![0, 1] bcast_S1x256_S4096x256_0_1 : (⟨S1x256, .f32⟩ : BufTy).Contents (Elt F) → (⟨S4096x256, .f32⟩ : BufTy).Contents (Elt F)),
    binary main_v796 main_v800 main_v801 (addf : (⟨S4096x256, .f32⟩ : BufTy).Contents (Elt F) → (⟨S4096x256, .f32⟩ : BufTy).Contents (Elt F) → (⟨S4096x256, .f32⟩ : BufTy).Contents (Elt F)),
    TRef.nullary main_call40.cst (constant S_ .f32 0x00000000#32),
    TRef.unary main_call40.cst main_call40.v0 (broadcastInDim S4096x256 ![] bcast_S_S4096x256),
    TRef.binary (.of main_v801 : TRef sig ⟨S4096x256, .f32⟩) main_call40.v0 main_call40.v1 (cmpf .ogt),
    TRef.nullary main_call40.cst_0 (constant S_ .f32 0x00000000#32),
    TRef.unary main_call40.cst_0 main_call40.v2 (broadcastInDim S4096x256 ![] bcast_S_S4096x256),
    TRef.binary (.of main_v801 : TRef sig ⟨S4096x256, .f32⟩) main_call40.v2 main_call40.v3 (cmpf .ogt),
    TRef.nullary main_call40.cst_1 (constant S_ .f32 0x00000000#32),
    TRef.unary main_call40.cst_1 main_call40_call0.v0 id,
    TRef.unary main_call40_call0.v0 main_call40_call0.v1 (broadcastInDim S4096x256 ![] bcast_S_S4096x256),
    TRef.ternary main_call40.v3 main_call40_call0.v1 (.of main_v801 : TRef sig ⟨S4096x256, .f32⟩) main_call40_call0.v2 select,
    TRef.unary main_call40.call0.v2 main_call40.v5 Host.expm1,
    TRef.nullary main_call40.cst_2 (constant S_ .f32 0x3F800000#32),
    TRef.unary main_call40.cst_2 main_call40.v6 (broadcastInDim S4096x256 ![] bcast_S_S4096x256),
    TRef.binary main_call40.v6 main_call40.v5 main_call40.v7 mulf,
    TRef.ternary main_call40.v1 (.of main_v801 : TRef sig ⟨S4096x256, .f32⟩) main_call40.v7 main_call40_call1.v0 select,
    unary main_arg9 main_v803 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v803 main_v804 rfl shapeCasts_S1x256x256_S256x256,
    binary main_v802 main_v804 main_v805 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v806 ((extractStridedSlice S1x256 ![1, 0] · slices_S2x256_S1x256_1_0) : (⟨S2x256, .f32⟩ : BufTy).Contents (Elt F) → (⟨S1x256, .f32⟩ : BufTy).Contents (Elt F)),
    reshape main_v806 main_v807 rfl shapeCasts_S1x256_S256,
    unary main_v807 main_v808 (broadcastInDim S1x256 ![1] bcast_S256_S1x256_1 : (⟨S256, .f32⟩ : BufTy).Contents (Elt F) → (⟨S1x256, .f32⟩ : BufTy).Contents (Elt F)),
    unary main_v808 main_v809 (broadcastInDim S4096x256 ![0, 1] bcast_S1x256_S4096x256_0_1 : (⟨S1x256, .f32⟩ : BufTy).Contents (Elt F) → (⟨S4096x256, .f32⟩ : BufTy).Contents (Elt F)),
    binary main_v805 main_v809 main_v810 (addf : (⟨S4096x256, .f32⟩ : BufTy).Contents (Elt F) → (⟨S4096x256, .f32⟩ : BufTy).Contents (Elt F) → (⟨S4096x256, .f32⟩ : BufTy).Contents (Elt F)),
    TRef.nullary main_call41.cst (constant S_ .f32 0x00000000#32),
    TRef.unary main_call41.cst main_call41.v0 (broadcastInDim S4096x256 ![] bcast_S_S4096x256),
    TRef.binary (.of main_v810 : TRef sig ⟨S4096x256, .f32⟩) main_call41.v0 main_call41.v1 (cmpf .ogt),
    TRef.nullary main_call41.cst_0 (constant S_ .f32 0x00000000#32),
    TRef.unary main_call41.cst_0 main_call41.v2 (broadcastInDim S4096x256 ![] bcast_S_S4096x256),
    TRef.binary (.of main_v810 : TRef sig ⟨S4096x256, .f32⟩) main_call41.v2 main_call41.v3 (cmpf .ogt),
    TRef.nullary main_call41.cst_1 (constant S_ .f32 0x00000000#32),
    TRef.unary main_call41.cst_1 main_call41_call0.v0 id,
    TRef.unary main_call41_call0.v0 main_call41_call0.v1 (broadcastInDim S4096x256 ![] bcast_S_S4096x256),
    TRef.ternary main_call41.v3 main_call41_call0.v1 (.of main_v810 : TRef sig ⟨S4096x256, .f32⟩) main_call41_call0.v2 select,
    TRef.unary main_call41.call0.v2 main_call41.v5 Host.expm1,
    TRef.nullary main_call41.cst_2 (constant S_ .f32 0x3F800000#32),
    TRef.unary main_call41.cst_2 main_call41.v6 (broadcastInDim S4096x256 ![] bcast_S_S4096x256),
    TRef.binary main_call41.v6 main_call41.v5 main_call41.v7 mulf,
    TRef.ternary main_call41.v1 (.of main_v810 : TRef sig ⟨S4096x256, .f32⟩) main_call41.v7 main_call41_call1.v0 select,
    unary main_v811 main_v812 ((transpose S256x4096 [1, 0] · transposes_S4096x256_S256x4096_1_0) : (⟨S4096x256, .f32⟩ : BufTy).Contents (Elt F) → (⟨S256x4096, .f32⟩ : BufTy).Contents (Elt F)),
    binary main_v811 main_v812 main_v813 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_79 (constant S_ .f32 0x00000000#32),
    binary main_v813 main_cst_79 main_v814 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_80 (constant S_ .f32 0x4B800000#32),
    binary main_v814 main_cst_80 main_v815 (Host.divf : (⟨S_, .f32⟩ : BufTy).Contents (Elt F) → (⟨S_, .f32⟩ : BufTy).Contents (Elt F) → (⟨S_, .f32⟩ : BufTy).Contents (Elt F)),
    unary main_v815 main_v816 (broadcastInDim S4096x4096 ![] bcast_S_S4096x4096 : (⟨S_, .f32⟩ : BufTy).Contents (Elt F) → (⟨S4096x4096, .f32⟩ : BufTy).Contents (Elt F)) ]

set_option maxRecDepth 8192 in
set_option maxHeartbeats 4000000 in
/-- The window is that straight line: the called functions unfolded at their calls, sequencing reassociated. -/
theorem part14_eq (c : Dev nD) : main_part14 (F := F) c = seq opsW14 := by
  simp only [main_part14, fn_where.body, fn_where_0.body, fn_elu.body, fn_where_1.body, fn_var.body, fn_relu.body, seq, bind_assoc, pure_bind] <;> rfl

set_option maxRecDepth 8192 in
theorem opsW14_sub : (opsW14 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., nullary_bufs_sub .., binary_bufs_sub .., nullary_bufs_sub .., binary_bufs_sub .., unary_bufs_sub ..⟩

set_option maxRecDepth 8192 in
theorem opsW14_fresh : (opsW14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW14_writes : (opsW14 : List (HloOp τ sig (Elt F))).Forall (WritesIn 1346 1457) :=
  ⟨writesIn_single main_cst_76 _ rfl (by decide) (by decide),
   writesIn_single main_v762 _ rfl (by decide) (by decide),
   writesIn_single main_v763 _ rfl (by decide) (by decide),
   writesIn_single main_c_77 _ rfl (by decide) (by decide),
   writesIn_single main_call38_cst _ rfl (by decide) (by decide),
   writesIn_single main_call38_v0 _ rfl (by decide) (by decide),
   writesIn_single main_call38_v1 _ rfl (by decide) (by decide),
   writesIn_single main_call38_cst_0 _ rfl (by decide) (by decide),
   writesIn_single main_call38_v2 _ rfl (by decide) (by decide),
   writesIn_single main_call38_v3 _ rfl (by decide) (by decide),
   writesIn_single main_call38_v4 _ rfl (by decide) (by decide),
   writesIn_single main_call38_v5 _ rfl (by decide) (by decide),
   writesIn_single main_call38_v6 _ rfl (by decide) (by decide),
   writesIn_single main_call38_v7 _ rfl (by decide) (by decide),
   writesIn_single main_call38_cst_1 _ rfl (by decide) (by decide),
   writesIn_single main_call38_v8 _ rfl (by decide) (by decide),
   writesIn_single main_call38_cst_2 _ rfl (by decide) (by decide),
   writesIn_single main_call38_v9 _ rfl (by decide) (by decide),
   writesIn_single main_call38_v10 _ rfl (by decide) (by decide),
   writesIn_single main_call38_v11 _ rfl (by decide) (by decide),
   writesIn_single main_call38_cst_3 _ rfl (by decide) (by decide),
   writesIn_single main_call38_v12 _ rfl (by decide) (by decide),
   writesIn_single main_call38_cst_4 _ rfl (by decide) (by decide),
   writesIn_single main_call38_call0_v0 _ rfl (by decide) (by decide),
   writesIn_single main_call38_call0_v1 _ rfl (by decide) (by decide),
   writesIn_single main_v764 _ rfl (by decide) (by decide),
   writesIn_single main_v765 _ rfl (by decide) (by decide),
   writesIn_single main_v766 _ rfl (by decide) (by decide),
   writesIn_single main_v767 _ rfl (by decide) (by decide),
   writesIn_single main_cst_78 _ rfl (by decide) (by decide),
   writesIn_single main_v768 _ rfl (by decide) (by decide),
   writesIn_single main_v769 _ rfl (by decide) (by decide),
   writesIn_single main_v770 _ rfl (by decide) (by decide),
   writesIn_single main_v771 _ rfl (by decide) (by decide),
   writesIn_single main_v772 _ rfl (by decide) (by decide),
   writesIn_single main_v773 _ rfl (by decide) (by decide),
   writesIn_single main_v774 _ rfl (by decide) (by decide),
   writesIn_single main_v775 _ rfl (by decide) (by decide),
   writesIn_single main_v776 _ rfl (by decide) (by decide),
   writesIn_single main_v777 _ rfl (by decide) (by decide),
   writesIn_single main_v778 _ rfl (by decide) (by decide),
   writesIn_single main_v779 _ rfl (by decide) (by decide),
   writesIn_single main_v780 _ rfl (by decide) (by decide),
   writesIn_single main_v781 _ rfl (by decide) (by decide),
   writesIn_single main_v782 _ rfl (by decide) (by decide),
   writesIn_single main_v783 _ rfl (by decide) (by decide),
   writesIn_single main_call39_cst _ rfl (by decide) (by decide),
   writesIn_single main_call39_v0 _ rfl (by decide) (by decide),
   writesIn_single main_v784 _ rfl (by decide) (by decide),
   writesIn_single main_v785 _ rfl (by decide) (by decide),
   writesIn_single main_v786 _ rfl (by decide) (by decide),
   writesIn_single main_v787 _ rfl (by decide) (by decide),
   writesIn_single main_v788 _ rfl (by decide) (by decide),
   writesIn_single main_v789 _ rfl (by decide) (by decide),
   writesIn_single main_v790 _ rfl (by decide) (by decide),
   writesIn_single main_v791 _ rfl (by decide) (by decide),
   writesIn_single main_v792 _ rfl (by decide) (by decide),
   writesIn_single main_v793 _ rfl (by decide) (by decide),
   writesIn_single main_v794 _ rfl (by decide) (by decide),
   writesIn_single main_v795 _ rfl (by decide) (by decide),
   writesIn_single main_v796 _ rfl (by decide) (by decide),
   writesIn_single main_v797 _ rfl (by decide) (by decide),
   writesIn_single main_v798 _ rfl (by decide) (by decide),
   writesIn_single main_v799 _ rfl (by decide) (by decide),
   writesIn_single main_v800 _ rfl (by decide) (by decide),
   writesIn_single main_v801 _ rfl (by decide) (by decide),
   writesIn_single main_call40_cst _ rfl (by decide) (by decide),
   writesIn_single main_call40_v0 _ rfl (by decide) (by decide),
   writesIn_single main_call40_v1 _ rfl (by decide) (by decide),
   writesIn_single main_call40_cst_0 _ rfl (by decide) (by decide),
   writesIn_single main_call40_v2 _ rfl (by decide) (by decide),
   writesIn_single main_call40_v3 _ rfl (by decide) (by decide),
   writesIn_single main_call40_cst_1 _ rfl (by decide) (by decide),
   writesIn_single main_call40_call0_v0 _ rfl (by decide) (by decide),
   writesIn_single main_call40_call0_v1 _ rfl (by decide) (by decide),
   writesIn_single main_call40_v4 _ rfl (by decide) (by decide),
   writesIn_single main_call40_v5 _ rfl (by decide) (by decide),
   writesIn_single main_call40_cst_2 _ rfl (by decide) (by decide),
   writesIn_single main_call40_v6 _ rfl (by decide) (by decide),
   writesIn_single main_call40_v7 _ rfl (by decide) (by decide),
   writesIn_single main_v802 _ rfl (by decide) (by decide),
   writesIn_single main_v803 _ rfl (by decide) (by decide),
   writesIn_single main_v804 _ rfl (by decide) (by decide),
   writesIn_single main_v805 _ rfl (by decide) (by decide),
   writesIn_single main_v806 _ rfl (by decide) (by decide),
   writesIn_single main_v807 _ rfl (by decide) (by decide),
   writesIn_single main_v808 _ rfl (by decide) (by decide),
   writesIn_single main_v809 _ rfl (by decide) (by decide),
   writesIn_single main_v810 _ rfl (by decide) (by decide),
   writesIn_single main_call41_cst _ rfl (by decide) (by decide),
   writesIn_single main_call41_v0 _ rfl (by decide) (by decide),
   writesIn_single main_call41_v1 _ rfl (by decide) (by decide),
   writesIn_single main_call41_cst_0 _ rfl (by decide) (by decide),
   writesIn_single main_call41_v2 _ rfl (by decide) (by decide),
   writesIn_single main_call41_v3 _ rfl (by decide) (by decide),
   writesIn_single main_call41_cst_1 _ rfl (by decide) (by decide),
   writesIn_single main_call41_call0_v0 _ rfl (by decide) (by decide),
   writesIn_single main_call41_call0_v1 _ rfl (by decide) (by decide),
   writesIn_single main_call41_v4 _ rfl (by decide) (by decide),
   writesIn_single main_call41_v5 _ rfl (by decide) (by decide),
   writesIn_single main_call41_cst_2 _ rfl (by decide) (by decide),
   writesIn_single main_call41_v6 _ rfl (by decide) (by decide),
   writesIn_single main_call41_v7 _ rfl (by decide) (by decide),
   writesIn_single main_v811 _ rfl (by decide) (by decide),
   writesIn_single main_v812 _ rfl (by decide) (by decide),
   writesIn_single main_v813 _ rfl (by decide) (by decide),
   writesIn_single main_cst_79 _ rfl (by decide) (by decide),
   writesIn_single main_v814 _ rfl (by decide) (by decide),
   writesIn_single main_cst_80 _ rfl (by decide) (by decide),
   writesIn_single main_v815 _ rfl (by decide) (by decide),
   writesIn_single main_v816 _ rfl (by decide) (by decide)⟩

end Cert.ReferenceIdeal.Hand

end
-- ==== Proof.RefRunW15.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 1439 … 1521 of 1674 (window main_part15): they write the buffers 1457 … 1539 in order. -/
noncomputable abbrev opsW15 : List (HloOp τ sig (Elt F)) :=
  [ binary main_v813 main_v816 main_v817 (cmpf .ogt : (⟨S4096x4096, .f32⟩ : BufTy).Contents (Elt F) → (⟨S4096x4096, .f32⟩ : BufTy).Contents (Elt F) → (⟨S4096x4096, .i1⟩ : BufTy).Contents (Elt F)),
    unary main_v817 main_v818 (uitofp .f32 : (⟨S4096x4096, .i1⟩ : BufTy).Contents (Elt F) → (⟨S4096x4096, .f32⟩ : BufTy).Contents (Elt F)),
    nullary main_cst_81 (constant S_ .f32 0x3F800000#32),
    unary main_cst_81 main_v819 (broadcastInDim S4096x4096 ![] bcast_S_S4096x4096 : (⟨S_, .f32⟩ : BufTy).Contents (Elt F) → (⟨S4096x4096, .f32⟩ : BufTy).Contents (Elt F)),
    binary main_v819 main_v716 main_v820 (mulf : (⟨S4096x4096, .f32⟩ : BufTy).Contents (Elt F) → (⟨S4096x4096, .f32⟩ : BufTy).Contents (Elt F) → (⟨S4096x4096, .f32⟩ : BufTy).Contents (Elt F)),
    binary main_v818 main_v820 main_v821 (addf : (⟨S4096x4096, .f32⟩ : BufTy).Contents (Elt F) → (⟨S4096x4096, .f32⟩ : BufTy).Contents (Elt F) → (⟨S4096x4096, .f32⟩ : BufTy).Contents (Elt F)),
    binary main_v821 main_v792 main_v822 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg11 main_v823 ((extractStridedSlice S1x2x256x256 ![1, 0, 0, 0] · slices_S3x2x256x256_S1x2x256x256_1_0_0_0) : (⟨S3x2x256x256, .f32⟩ : BufTy).Contents (Elt F) → (⟨S1x2x256x256, .f32⟩ : BufTy).Contents (Elt F)),
    reshape main_v823 main_v824 rfl shapeCasts_S1x2x256x256_S2x256x256,
    unary main_arg12 main_v825 ((extractStridedSlice S1x2x256 ![1, 0, 0] · slices_S3x2x256_S1x2x256_1_0_0) : (⟨S3x2x256, .f32⟩ : BufTy).Contents (Elt F) → (⟨S1x2x256, .f32⟩ : BufTy).Contents (Elt F)),
    reshape main_v825 main_v826 rfl shapeCasts_S1x2x256_S2x256,
    unary main_arg13 main_v827 ((extractStridedSlice S1x2x256 ![1, 0, 0] · slices_S3x2x256_S1x2x256_1_0_0) : (⟨S3x2x256, .f32⟩ : BufTy).Contents (Elt F) → (⟨S1x2x256, .f32⟩ : BufTy).Contents (Elt F)),
    reshape main_v827 main_v828 rfl shapeCasts_S1x2x256_S2x256,
    unary main_v824 main_v829 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v829 main_v830 rfl shapeCasts_S1x256x256_S256x256,
    binary main_v822 main_v830 main_v831 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v826 main_v832 ((extractStridedSlice S1x256 ![0, 0] · slices_S2x256_S1x256_0_0) : (⟨S2x256, .f32⟩ : BufTy).Contents (Elt F) → (⟨S1x256, .f32⟩ : BufTy).Contents (Elt F)),
    reshape main_v832 main_v833 rfl shapeCasts_S1x256_S256,
    unary main_v833 main_v834 (broadcastInDim S1x256 ![1] bcast_S256_S1x256_1 : (⟨S256, .f32⟩ : BufTy).Contents (Elt F) → (⟨S1x256, .f32⟩ : BufTy).Contents (Elt F)),
    unary main_v834 main_v835 (broadcastInDim S4096x256 ![0, 1] bcast_S1x256_S4096x256_0_1 : (⟨S1x256, .f32⟩ : BufTy).Contents (Elt F) → (⟨S4096x256, .f32⟩ : BufTy).Contents (Elt F)),
    binary main_v831 main_v835 main_v836 (addf : (⟨S4096x256, .f32⟩ : BufTy).Contents (Elt F) → (⟨S4096x256, .f32⟩ : BufTy).Contents (Elt F) → (⟨S4096x256, .f32⟩ : BufTy).Contents (Elt F)),
    nullary main_cst_82 (constant S_ .f32 0x00000000#32),
    binary main_v836 main_cst_82 main_v837 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_83 (constant S_ .f32 0x45800000#32),
    unary main_cst_83 main_v838 (broadcastInDim S256 ![] bcast_S_S256 : (⟨S_, .f32⟩ : BufTy).Contents (Elt F) → (⟨S256, .f32⟩ : BufTy).Contents (Elt F)),
    binary main_v837 main_v838 main_v839 (Host.divf : (⟨S256, .f32⟩ : BufTy).Contents (Elt F) → (⟨S256, .f32⟩ : BufTy).Contents (Elt F) → (⟨S256, .f32⟩ : BufTy).Contents (Elt F)),
    nullary main_c_84 (constantI S_ 32 0#32),
    TRef.nullary main_call42.cst (constant S_ .f32 0x00000000#32),
    TRef.binary (.of main_v836 : TRef sig ⟨S4096x256, .f32⟩) main_call42.cst main_call42.v0 (fun x v => Host.reduceAdd x v reducesTo_S4096x256_S256_d0 h_S_),
    TRef.unary main_call42.v0 main_call42.v1 (broadcastInDim S1x256 ![1] bcast_S256_S1x256_1),
    TRef.nullary main_call42.cst_0 (constant S_ .f32 0x45800000#32),
    TRef.unary main_call42.cst_0 main_call42.v2 (broadcastInDim S1x256 ![] bcast_S_S1x256),
    TRef.binary main_call42.v1 main_call42.v2 main_call42.v3 Host.divf,
    TRef.unary main_call42.v3 main_call42.v4 (broadcastInDim S4096x256 ![0, 1] bcast_S1x256_S4096x256_0_1),
    TRef.binary (.of main_v836 : TRef sig ⟨S4096x256, .f32⟩) main_call42.v4 main_call42.v5 subf,
    TRef.binary main_call42.v5 main_call42.v5 main_call42.v6 mulf,
    TRef.unary (.of main_c_84 : TRef sig ⟨S_, .i32⟩) main_call42.v7 (sitofp .f32),
    TRef.nullary main_call42.cst_1 (constant S_ .f32 0x45800000#32),
    TRef.binary main_call42.cst_1 main_call42.v7 main_call42.v8 subf,
    TRef.nullary main_call42.cst_2 (constant S_ .f32 0x00000000#32),
    TRef.binary main_call42.v6 main_call42.cst_2 main_call42.v9 (fun x v => Host.reduceAdd x v reducesTo_S4096x256_S256_d0 h_S_),
    TRef.unary main_call42.v8 main_call42.v10 (broadcastInDim S256 ![] bcast_S_S256),
    TRef.binary main_call42.v9 main_call42.v10 main_call42.v11 Host.divf,
    TRef.nullary main_call42.cst_3 (constant S_ .f32 0x00000000#32),
    TRef.binary main_call42.v8 main_call42.cst_3 main_call42.v12 (cmpf .ogt),
    TRef.nullary main_call42.cst_4 (constant S_ .f32 0x7FC00000#32),
    TRef.unary main_call42.cst_4 main_call42_call0.v0 id,
    TRef.unary main_call42_call0.v0 main_call42_call0.v1 (broadcastInDim S256 ![] bcast_S_S256),
    TRef.ternary main_call42.v12 main_call42.v11 main_call42_call0.v1 main_call42_call0.v2 (fun p a b => select (broadcastInDim S256 ![] bcast_S_S256 p) a b),
    unary main_v839 main_v841 (broadcastInDim S1x256 ![1] bcast_S256_S1x256_1 : (⟨S256, .f32⟩ : BufTy).Contents (Elt F) → (⟨S1x256, .f32⟩ : BufTy).Contents (Elt F)),
    unary main_v841 main_v842 (broadcastInDim S4096x256 ![0, 1] bcast_S1x256_S4096x256_0_1 : (⟨S1x256, .f32⟩ : BufTy).Contents (Elt F) → (⟨S4096x256, .f32⟩ : BufTy).Contents (Elt F)),
    binary main_v836 main_v842 main_v843 (subf : (⟨S4096x256, .f32⟩ : BufTy).Contents (Elt F) → (⟨S4096x256, .f32⟩ : BufTy).Contents (Elt F) → (⟨S4096x256, .f32⟩ : BufTy).Contents (Elt F)),
    nullary main_cst_85 (constant S_ .f32 0x3727C5AC#32),
    unary main_cst_85 main_v844 (broadcastInDim S256 ![] bcast_S_S256 : (⟨S_, .f32⟩ : BufTy).Contents (Elt F) → (⟨S256, .f32⟩ : BufTy).Contents (Elt F)),
    binary main_v840 main_v844 main_v845 (addf : (⟨S256, .f32⟩ : BufTy).Contents (Elt F) → (⟨S256, .f32⟩ : BufTy).Contents (Elt F) → (⟨S256, .f32⟩ : BufTy).Contents (Elt F)),
    unary main_v845 main_v846 (Host.rsqrt : (⟨S256, .f32⟩ : BufTy).Contents (Elt F) → (⟨S256, .f32⟩ : BufTy).Contents (Elt F)),
    unary main_v846 main_v847 (broadcastInDim S1x256 ![1] bcast_S256_S1x256_1 : (⟨S256, .f32⟩ : BufTy).Contents (Elt F) → (⟨S1x256, .f32⟩ : BufTy).Contents (Elt F)),
    unary main_v847 main_v848 (broadcastInDim S4096x256 ![0, 1] bcast_S1x256_S4096x256_0_1 : (⟨S1x256, .f32⟩ : BufTy).Contents (Elt F) → (⟨S4096x256, .f32⟩ : BufTy).Contents (Elt F)),
    binary main_v843 main_v848 main_v849 (mulf : (⟨S4096x256, .f32⟩ : BufTy).Contents (Elt F) → (⟨S4096x256, .f32⟩ : BufTy).Contents (Elt F) → (⟨S4096x256, .f32⟩ : BufTy).Contents (Elt F)),
    unary main_v828 main_v850 ((extractStridedSlice S1x256 ![0, 0] · slices_S2x256_S1x256_0_0) : (⟨S2x256, .f32⟩ : BufTy).Contents (Elt F) → (⟨S1x256, .f32⟩ : BufTy).Contents (Elt F)),
    reshape main_v850 main_v851 rfl shapeCasts_S1x256_S256,
    unary main_v851 main_v852 (broadcastInDim S1x256 ![1] bcast_S256_S1x256_1 : (⟨S256, .f32⟩ : BufTy).Contents (Elt F) → (⟨S1x256, .f32⟩ : BufTy).Contents (Elt F)),
    unary main_v852 main_v853 (broadcastInDim S4096x256 ![0, 1] bcast_S1x256_S4096x256_0_1 : (⟨S1x256, .f32⟩ : BufTy).Contents (Elt F) → (⟨S4096x256, .f32⟩ : BufTy).Contents (Elt F)),
    binary main_v849 main_v853 main_v854 (mulf : (⟨S4096x256, .f32⟩ : BufTy).Contents (Elt F) → (⟨S4096x256, .f32⟩ : BufTy).Contents (Elt F) → (⟨S4096x256, .f32⟩ : BufTy).Contents (Elt F)),
    unary main_v828 main_v855 ((extractStridedSlice S1x256 ![1, 0] · slices_S2x256_S1x256_1_0) : (⟨S2x256, .f32⟩ : BufTy).Contents (Elt F) → (⟨S1x256, .f32⟩ : BufTy).Contents (Elt F)),
    reshape main_v855 main_v856 rfl shapeCasts_S1x256_S256,
    unary main_v856 main_v857 (broadcastInDim S1x256 ![1] bcast_S256_S1x256_1 : (⟨S256, .f32⟩ : BufTy).Contents (Elt F) → (⟨S1x256, .f32⟩ : BufTy).Contents (Elt F)),
    unary main_v857 main_v858 (broadcastInDim S4096x256 ![0, 1] bcast_S1x256_S4096x256_0_1 : (⟨S1x256, .f32⟩ : BufTy).Contents (Elt F) → (⟨S4096x256, .f32⟩ : BufTy).Contents (Elt F)),
    binary main_v854 main_v858 main_v859 (addf : (⟨S4096x256, .f32⟩ : BufTy).Contents (Elt F) → (⟨S4096x256, .f32⟩ : BufTy).Contents (Elt F) → (⟨S4096x256, .f32⟩ : BufTy).Contents (Elt F)),
    TRef.nullary main_call43.cst (constant S_ .f32 0x00000000#32),
    TRef.unary main_call43.cst main_call43.v0 (broadcastInDim S4096x256 ![] bcast_S_S4096x256),
    TRef.binary (.of main_v859 : TRef sig ⟨S4096x256, .f32⟩) main_call43.v0 main_call43.v1 maximumf,
    unary main_v824 main_v861 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v861 main_v862 rfl shapeCasts_S1x256x256_S256x256,
    binary main_v860 main_v862 main_v863 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v826 main_v864 ((extractStridedSlice S1x256 ![1, 0] · slices_S2x256_S1x256_1_0) : (⟨S2x256, .f32⟩ : BufTy).Contents (Elt F) → (⟨S1x256, .f32⟩ : BufTy).Contents (Elt F)),
    reshape main_v864 main_v865 rfl shapeCasts_S1x256_S256,
    unary main_v865 main_v866 (broadcastInDim S1x256 ![1] bcast_S256_S1x256_1 : (⟨S256, .f32⟩ : BufTy).Contents (Elt F) → (⟨S1x256, .f32⟩ : BufTy).Contents (Elt F)),
    unary main_v866 main_v867 (broadcastInDim S4096x256 ![0, 1] bcast_S1x256_S4096x256_0_1 : (⟨S1x256, .f32⟩ : BufTy).Contents (Elt F) → (⟨S4096x256, .f32⟩ : BufTy).Contents (Elt F)),
    binary main_v863 main_v867 main_v868 (addf : (⟨S4096x256, .f32⟩ : BufTy).Contents (Elt F) → (⟨S4096x256, .f32⟩ : BufTy).Contents (Elt F) → (⟨S4096x256, .f32⟩ : BufTy).Contents (Elt F)),
    binary main_v793 main_v868 main_v869 (addf : (⟨S4096x256, .f32⟩ : BufTy).Contents (Elt F) → (⟨S4096x256, .f32⟩ : BufTy).Contents (Elt F) → (⟨S4096x256, .f32⟩ : BufTy).Contents (Elt F)),
    unary main_arg9 main_v870 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v870 main_v871 rfl shapeCasts_S1x256x256_S256x256 ]

set_option maxRecDepth 8192 in
set_option maxHeartbeats 4000000 in
/-- The window is that straight line: the called functions unfolded at their calls, sequencing reassociated. -/
theorem part15_eq (c : Dev nD) : main_part15 (F := F) c = seq opsW15 := by
  simp only [main_part15, fn_where.body, fn_where_0.body, fn_elu.body, fn_where_1.body, fn_var.body, fn_relu.body, seq, bind_assoc, pure_bind] <;> rfl

set_option maxRecDepth 8192 in
theorem opsW15_sub : (opsW15 : List (HloOp τ sig (Elt F))).Forall fun op => op.bufs ⊆ tcRefs τ sig :=
  ⟨binary_bufs_sub .., unary_bufs_sub .., nullary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub ..⟩

set_option maxRecDepth 8192 in
theorem opsW15_fresh : (opsW15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW15_writes : (opsW15 : List (HloOp τ sig (Elt F))).Forall (WritesIn 1457 1540) :=
  ⟨writesIn_single main_v817 _ rfl (by decide) (by decide),
   writesIn_single main_v818 _ rfl (by decide) (by decide),
   writesIn_single main_cst_81 _ rfl (by decide) (by decide),
   writesIn_single main_v819 _ rfl (by decide) (by decide),
   writesIn_single main_v820 _ rfl (by decide) (by decide),
   writesIn_single main_v821 _ rfl (by decide) (by decide),
   writesIn_single main_v822 _ rfl (by decide) (by decide),
   writesIn_single main_v823 _ rfl (by decide) (by decide),
   writesIn_single main_v824 _ rfl (by decide) (by decide),
   writesIn_single main_v825 _ rfl (by decide) (by decide),
   writesIn_single main_v826 _ rfl (by decide) (by decide),
   writesIn_single main_v827 _ rfl (by decide) (by decide),
   writesIn_single main_v828 _ rfl (by decide) (by decide),
   writesIn_single main_v829 _ rfl (by decide) (by decide),
   writesIn_single main_v830 _ rfl (by decide) (by decide),
   writesIn_single main_v831 _ rfl (by decide) (by decide),
   writesIn_single main_v832 _ rfl (by decide) (by decide),
   writesIn_single main_v833 _ rfl (by decide) (by decide),
   writesIn_single main_v834 _ rfl (by decide) (by decide),
   writesIn_single main_v835 _ rfl (by decide) (by decide),
   writesIn_single main_v836 _ rfl (by decide) (by decide),
   writesIn_single main_cst_82 _ rfl (by decide) (by decide),
   writesIn_single main_v837 _ rfl (by decide) (by decide),
   writesIn_single main_cst_83 _ rfl (by decide) (by decide),
   writesIn_single main_v838 _ rfl (by decide) (by decide),
   writesIn_single main_v839 _ rfl (by decide) (by decide),
   writesIn_single main_c_84 _ rfl (by decide) (by decide),
   writesIn_single main_call42_cst _ rfl (by decide) (by decide),
   writesIn_single main_call42_v0 _ rfl (by decide) (by decide),
   writesIn_single main_call42_v1 _ rfl (by decide) (by decide),
   writesIn_single main_call42_cst_0 _ rfl (by decide) (by decide),
   writesIn_single main_call42_v2 _ rfl (by decide) (by decide),
   writesIn_single main_call42_v3 _ rfl (by decide) (by decide),
   writesIn_single main_call42_v4 _ rfl (by decide) (by decide),
   writesIn_single main_call42_v5 _ rfl (by decide) (by decide),
   writesIn_single main_call42_v6 _ rfl (by decide) (by decide),
   writesIn_single main_call42_v7 _ rfl (by decide) (by decide),
   writesIn_single main_call42_cst_1 _ rfl (by decide) (by decide),
   writesIn_single main_call42_v8 _ rfl (by decide) (by decide),
   writesIn_single main_call42_cst_2 _ rfl (by decide) (by decide),
   writesIn_single main_call42_v9 _ rfl (by decide) (by decide),
   writesIn_single main_call42_v10 _ rfl (by decide) (by decide),
   writesIn_single main_call42_v11 _ rfl (by decide) (by decide),
   writesIn_single main_call42_cst_3 _ rfl (by decide) (by decide),
   writesIn_single main_call42_v12 _ rfl (by decide) (by decide),
   writesIn_single main_call42_cst_4 _ rfl (by decide) (by decide),
   writesIn_single main_call42_call0_v0 _ rfl (by decide) (by decide),
   writesIn_single main_call42_call0_v1 _ rfl (by decide) (by decide),
   writesIn_single main_v840 _ rfl (by decide) (by decide),
   writesIn_single main_v841 _ rfl (by decide) (by decide),
   writesIn_single main_v842 _ rfl (by decide) (by decide),
   writesIn_single main_v843 _ rfl (by decide) (by decide),
   writesIn_single main_cst_85 _ rfl (by decide) (by decide),
   writesIn_single main_v844 _ rfl (by decide) (by decide),
   writesIn_single main_v845 _ rfl (by decide) (by decide),
   writesIn_single main_v846 _ rfl (by decide) (by decide),
   writesIn_single main_v847 _ rfl (by decide) (by decide),
   writesIn_single main_v848 _ rfl (by decide) (by decide),
   writesIn_single main_v849 _ rfl (by decide) (by decide),
   writesIn_single main_v850 _ rfl (by decide) (by decide),
   writesIn_single main_v851 _ rfl (by decide) (by decide),
   writesIn_single main_v852 _ rfl (by decide) (by decide),
   writesIn_single main_v853 _ rfl (by decide) (by decide),
   writesIn_single main_v854 _ rfl (by decide) (by decide),
   writesIn_single main_v855 _ rfl (by decide) (by decide),
   writesIn_single main_v856 _ rfl (by decide) (by decide),
   writesIn_single main_v857 _ rfl (by decide) (by decide),
   writesIn_single main_v858 _ rfl (by decide) (by decide),
   writesIn_single main_v859 _ rfl (by decide) (by decide),
   writesIn_single main_call43_cst _ rfl (by decide) (by decide),
   writesIn_single main_call43_v0 _ rfl (by decide) (by decide),
   writesIn_single main_v860 _ rfl (by decide) (by decide),
   writesIn_single main_v861 _ rfl (by decide) (by decide),
   writesIn_single main_v862 _ rfl (by decide) (by decide),
   writesIn_single main_v863 _ rfl (by decide) (by decide),
   writesIn_single main_v864 _ rfl (by decide) (by decide),
   writesIn_single main_v865 _ rfl (by decide) (by decide),
   writesIn_single main_v866 _ rfl (by decide) (by decide),
   writesIn_single main_v867 _ rfl (by decide) (by decide),
   writesIn_single main_v868 _ rfl (by decide) (by decide),
   writesIn_single main_v869 _ rfl (by decide) (by decide),
   writesIn_single main_v870 _ rfl (by decide) (by decide),
   writesIn_single main_v871 _ rfl (by decide) (by decide)⟩

end Cert.ReferenceIdeal.Hand

end
-- ==== Proof.RefRunW16.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 1522 … 1630 of 1674 (window main_part16): they write the buffers 1540 … 1648 in order. -/
noncomputable abbrev opsW16 : List (HloOp τ sig (Elt F)) :=
  [ binary main_v868 main_v871 main_v872 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v873 ((extractStridedSlice S1x256 ![0, 0] · slices_S2x256_S1x256_0_0) : (⟨S2x256, .f32⟩ : BufTy).Contents (Elt F) → (⟨S1x256, .f32⟩ : BufTy).Contents (Elt F)),
    reshape main_v873 main_v874 rfl shapeCasts_S1x256_S256,
    unary main_v874 main_v875 (broadcastInDim S1x256 ![1] bcast_S256_S1x256_1 : (⟨S256, .f32⟩ : BufTy).Contents (Elt F) → (⟨S1x256, .f32⟩ : BufTy).Contents (Elt F)),
    unary main_v875 main_v876 (broadcastInDim S4096x256 ![0, 1] bcast_S1x256_S4096x256_0_1 : (⟨S1x256, .f32⟩ : BufTy).Contents (Elt F) → (⟨S4096x256, .f32⟩ : BufTy).Contents (Elt F)),
    binary main_v872 main_v876 main_v877 (addf : (⟨S4096x256, .f32⟩ : BufTy).Contents (Elt F) → (⟨S4096x256, .f32⟩ : BufTy).Contents (Elt F) → (⟨S4096x256, .f32⟩ : BufTy).Contents (Elt F)),
    TRef.nullary main_call44.cst (constant S_ .f32 0x00000000#32),
    TRef.unary main_call44.cst main_call44.v0 (broadcastInDim S4096x256 ![] bcast_S_S4096x256),
    TRef.binary (.of main_v877 : TRef sig ⟨S4096x256, .f32⟩) main_call44.v0 main_call44.v1 (cmpf .ogt),
    TRef.nullary main_call44.cst_0 (constant S_ .f32 0x00000000#32),
    TRef.unary main_call44.cst_0 main_call44.v2 (broadcastInDim S4096x256 ![] bcast_S_S4096x256),
    TRef.binary (.of main_v877 : TRef sig ⟨S4096x256, .f32⟩) main_call44.v2 main_call44.v3 (cmpf .ogt),
    TRef.nullary main_call44.cst_1 (constant S_ .f32 0x00000000#32),
    TRef.unary main_call44.cst_1 main_call44_call0.v0 id,
    TRef.unary main_call44_call0.v0 main_call44_call0.v1 (broadcastInDim S4096x256 ![] bcast_S_S4096x256),
    TRef.ternary main_call44.v3 main_call44_call0.v1 (.of main_v877 : TRef sig ⟨S4096x256, .f32⟩) main_call44_call0.v2 select,
    TRef.unary main_call44.call0.v2 main_call44.v5 Host.expm1,
    TRef.nullary main_call44.cst_2 (constant S_ .f32 0x3F800000#32),
    TRef.unary main_call44.cst_2 main_call44.v6 (broadcastInDim S4096x256 ![] bcast_S_S4096x256),
    TRef.binary main_call44.v6 main_call44.v5 main_call44.v7 mulf,
    TRef.ternary main_call44.v1 (.of main_v877 : TRef sig ⟨S4096x256, .f32⟩) main_call44.v7 main_call44_call1.v0 select,
    unary main_arg9 main_v879 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v879 main_v880 rfl shapeCasts_S1x256x256_S256x256,
    binary main_v878 main_v880 main_v881 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v882 ((extractStridedSlice S1x256 ![1, 0] · slices_S2x256_S1x256_1_0) : (⟨S2x256, .f32⟩ : BufTy).Contents (Elt F) → (⟨S1x256, .f32⟩ : BufTy).Contents (Elt F)),
    reshape main_v882 main_v883 rfl shapeCasts_S1x256_S256,
    unary main_v883 main_v884 (broadcastInDim S1x256 ![1] bcast_S256_S1x256_1 : (⟨S256, .f32⟩ : BufTy).Contents (Elt F) → (⟨S1x256, .f32⟩ : BufTy).Contents (Elt F)),
    unary main_v884 main_v885 (broadcastInDim S4096x256 ![0, 1] bcast_S1x256_S4096x256_0_1 : (⟨S1x256, .f32⟩ : BufTy).Contents (Elt F) → (⟨S4096x256, .f32⟩ : BufTy).Contents (Elt F)),
    binary main_v881 main_v885 main_v886 (addf : (⟨S4096x256, .f32⟩ : BufTy).Contents (Elt F) → (⟨S4096x256, .f32⟩ : BufTy).Contents (Elt F) → (⟨S4096x256, .f32⟩ : BufTy).Contents (Elt F)),
    TRef.nullary main_call45.cst (constant S_ .f32 0x00000000#32),
    TRef.unary main_call45.cst main_call45.v0 (broadcastInDim S4096x256 ![] bcast_S_S4096x256),
    TRef.binary (.of main_v886 : TRef sig ⟨S4096x256, .f32⟩) main_call45.v0 main_call45.v1 (cmpf .ogt),
    TRef.nullary main_call45.cst_0 (constant S_ .f32 0x00000000#32),
    TRef.unary main_call45.cst_0 main_call45.v2 (broadcastInDim S4096x256 ![] bcast_S_S4096x256),
    TRef.binary (.of main_v886 : TRef sig ⟨S4096x256, .f32⟩) main_call45.v2 main_call45.v3 (cmpf .ogt),
    TRef.nullary main_call45.cst_1 (constant S_ .f32 0x00000000#32),
    TRef.unary main_call45.cst_1 main_call45_call0.v0 id,
    TRef.unary main_call45_call0.v0 main_call45_call0.v1 (broadcastInDim S4096x256 ![] bcast_S_S4096x256),
    TRef.ternary main_call45.v3 main_call45_call0.v1 (.of main_v886 : TRef sig ⟨S4096x256, .f32⟩) main_call45_call0.v2 select,
    TRef.unary main_call45.call0.v2 main_call45.v5 Host.expm1,
    TRef.nullary main_call45.cst_2 (constant S_ .f32 0x3F800000#32),
    TRef.unary main_call45.cst_2 main_call45.v6 (broadcastInDim S4096x256 ![] bcast_S_S4096x256),
    TRef.binary main_call45.v6 main_call45.v5 main_call45.v7 mulf,
    TRef.ternary main_call45.v1 (.of main_v886 : TRef sig ⟨S4096x256, .f32⟩) main_call45.v7 main_call45_call1.v0 select,
    unary main_v887 main_v888 ((transpose S256x4096 [1, 0] · transposes_S4096x256_S256x4096_1_0) : (⟨S4096x256, .f32⟩ : BufTy).Contents (Elt F) → (⟨S256x4096, .f32⟩ : BufTy).Contents (Elt F)),
    binary main_v887 main_v888 main_v889 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_86 (constant S_ .f32 0x00000000#32),
    binary main_v889 main_cst_86 main_v890 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_87 (constant S_ .f32 0x4B800000#32),
    binary main_v890 main_cst_87 main_v891 (Host.divf : (⟨S_, .f32⟩ : BufTy).Contents (Elt F) → (⟨S_, .f32⟩ : BufTy).Contents (Elt F) → (⟨S_, .f32⟩ : BufTy).Contents (Elt F)),
    unary main_v891 main_v892 (broadcastInDim S4096x4096 ![] bcast_S_S4096x4096 : (⟨S_, .f32⟩ : BufTy).Contents (Elt F) → (⟨S4096x4096, .f32⟩ : BufTy).Contents (Elt F)),
    binary main_v889 main_v892 main_v893 (cmpf .ogt : (⟨S4096x4096, .f32⟩ : BufTy).Contents (Elt F) → (⟨S4096x4096, .f32⟩ : BufTy).Contents (Elt F) → (⟨S4096x4096, .i1⟩ : BufTy).Contents (Elt F)),
    unary main_v893 main_v894 (uitofp .f32 : (⟨S4096x4096, .i1⟩ : BufTy).Contents (Elt F) → (⟨S4096x4096, .f32⟩ : BufTy).Contents (Elt F)),
    nullary main_cst_88 (constant S_ .f32 0x3F800000#32),
    unary main_cst_88 main_v895 (broadcastInDim S4096x4096 ![] bcast_S_S4096x4096 : (⟨S_, .f32⟩ : BufTy).Contents (Elt F) → (⟨S4096x4096, .f32⟩ : BufTy).Contents (Elt F)),
    binary main_v895 main_v716 main_v896 (mulf : (⟨S4096x4096, .f32⟩ : BufTy).Contents (Elt F) → (⟨S4096x4096, .f32⟩ : BufTy).Contents (Elt F) → (⟨S4096x4096, .f32⟩ : BufTy).Contents (Elt F)),
    binary main_v894 main_v896 main_v897 (addf : (⟨S4096x4096, .f32⟩ : BufTy).Contents (Elt F) → (⟨S4096x4096, .f32⟩ : BufTy).Contents (Elt F) → (⟨S4096x4096, .f32⟩ : BufTy).Contents (Elt F)),
    binary main_v897 main_v868 main_v898 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg11 main_v899 ((extractStridedSlice S1x2x256x256 ![2, 0, 0, 0] · slices_S3x2x256x256_S1x2x256x256_2_0_0_0) : (⟨S3x2x256x256, .f32⟩ : BufTy).Contents (Elt F) → (⟨S1x2x256x256, .f32⟩ : BufTy).Contents (Elt F)),
    reshape main_v899 main_v900 rfl shapeCasts_S1x2x256x256_S2x256x256,
    unary main_arg12 main_v901 ((extractStridedSlice S1x2x256 ![2, 0, 0] · slices_S3x2x256_S1x2x256_2_0_0) : (⟨S3x2x256, .f32⟩ : BufTy).Contents (Elt F) → (⟨S1x2x256, .f32⟩ : BufTy).Contents (Elt F)),
    reshape main_v901 main_v902 rfl shapeCasts_S1x2x256_S2x256,
    unary main_arg13 main_v903 ((extractStridedSlice S1x2x256 ![2, 0, 0] · slices_S3x2x256_S1x2x256_2_0_0) : (⟨S3x2x256, .f32⟩ : BufTy).Contents (Elt F) → (⟨S1x2x256, .f32⟩ : BufTy).Contents (Elt F)),
    reshape main_v903 main_v904 rfl shapeCasts_S1x2x256_S2x256,
    unary main_v900 main_v905 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v905 main_v906 rfl shapeCasts_S1x256x256_S256x256,
    binary main_v898 main_v906 main_v907 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v902 main_v908 ((extractStridedSlice S1x256 ![0, 0] · slices_S2x256_S1x256_0_0) : (⟨S2x256, .f32⟩ : BufTy).Contents (Elt F) → (⟨S1x256, .f32⟩ : BufTy).Contents (Elt F)),
    reshape main_v908 main_v909 rfl shapeCasts_S1x256_S256,
    unary main_v909 main_v910 (broadcastInDim S1x256 ![1] bcast_S256_S1x256_1 : (⟨S256, .f32⟩ : BufTy).Contents (Elt F) → (⟨S1x256, .f32⟩ : BufTy).Contents (Elt F)),
    unary main_v910 main_v911 (broadcastInDim S4096x256 ![0, 1] bcast_S1x256_S4096x256_0_1 : (⟨S1x256, .f32⟩ : BufTy).Contents (Elt F) → (⟨S4096x256, .f32⟩ : BufTy).Contents (Elt F)),
    binary main_v907 main_v911 main_v912 (addf : (⟨S4096x256, .f32⟩ : BufTy).Contents (Elt F) → (⟨S4096x256, .f32⟩ : BufTy).Contents (Elt F) → (⟨S4096x256, .f32⟩ : BufTy).Contents (Elt F)),
    nullary main_cst_89 (constant S_ .f32 0x00000000#32),
    binary main_v912 main_cst_89 main_v913 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_90 (constant S_ .f32 0x45800000#32),
    unary main_cst_90 main_v914 (broadcastInDim S256 ![] bcast_S_S256 : (⟨S_, .f32⟩ : BufTy).Contents (Elt F) → (⟨S256, .f32⟩ : BufTy).Contents (Elt F)),
    binary main_v913 main_v914 main_v915 (Host.divf : (⟨S256, .f32⟩ : BufTy).Contents (Elt F) → (⟨S256, .f32⟩ : BufTy).Contents (Elt F) → (⟨S256, .f32⟩ : BufTy).Contents (Elt F)),
    nullary main_c_91 (constantI S_ 32 0#32),
    TRef.nullary main_call46.cst (constant S_ .f32 0x00000000#32),
    TRef.binary (.of main_v912 : TRef sig ⟨S4096x256, .f32⟩) main_call46.cst main_call46.v0 (fun x v => Host.reduceAdd x v reducesTo_S4096x256_S256_d0 h_S_),
    TRef.unary main_call46.v0 main_call46.v1 (broadcastInDim S1x256 ![1] bcast_S256_S1x256_1),
    TRef.nullary main_call46.cst_0 (constant S_ .f32 0x45800000#32),
    TRef.unary main_call46.cst_0 main_call46.v2 (broadcastInDim S1x256 ![] bcast_S_S1x256),
    TRef.binary main_call46.v1 main_call46.v2 main_call46.v3 Host.divf,
    TRef.unary main_call46.v3 main_call46.v4 (broadcastInDim S4096x256 ![0, 1] bcast_S1x256_S4096x256_0_1),
    TRef.binary (.of main_v912 : TRef sig ⟨S4096x256, .f32⟩) main_call46.v4 main_call46.v5 subf,
    TRef.binary main_call46.v5 main_call46.v5 main_call46.v6 mulf,
    TRef.unary (.of main_c_91 : TRef sig ⟨S_, .i32⟩) main_call46.v7 (sitofp .f32),
    TRef.nullary main_call46.cst_1 (constant S_ .f32 0x45800000#32),
    TRef.binary main_call46.cst_1 main_call46.v7 main_call46.v8 subf,
    TRef.nullary main_call46.cst_2 (constant S_ .f32 0x00000000#32),
    TRef.binary main_call46.v6 main_call46.cst_2 main_call46.v9 (fun x v => Host.reduceAdd x v reducesTo_S4096x256_S256_d0 h_S_),
    TRef.unary main_call46.v8 main_call46.v10 (broadcastInDim S256 ![] bcast_S_S256),
    TRef.binary main_call46.v9 main_call46.v10 main_call46.v11 Host.divf,
    TRef.nullary main_call46.cst_3 (constant S_ .f32 0x00000000#32),
    TRef.binary main_call46.v8 main_call46.cst_3 main_call46.v12 (cmpf .ogt),
    TRef.nullary main_call46.cst_4 (constant S_ .f32 0x7FC00000#32),
    TRef.unary main_call46.cst_4 main_call46_call0.v0 id,
    TRef.unary main_call46_call0.v0 main_call46_call0.v1 (broadcastInDim S256 ![] bcast_S_S256),
    TRef.ternary main_call46.v12 main_call46.v11 main_call46_call0.v1 main_call46_call0.v2 (fun p a b => select (broadcastInDim S256 ![] bcast_S_S256 p) a b),
    unary main_v915 main_v917 (broadcastInDim S1x256 ![1] bcast_S256_S1x256_1 : (⟨S256, .f32⟩ : BufTy).Contents (Elt F) → (⟨S1x256, .f32⟩ : BufTy).Contents (Elt F)),
    unary main_v917 main_v918 (broadcastInDim S4096x256 ![0, 1] bcast_S1x256_S4096x256_0_1 : (⟨S1x256, .f32⟩ : BufTy).Contents (Elt F) → (⟨S4096x256, .f32⟩ : BufTy).Contents (Elt F)),
    binary main_v912 main_v918 main_v919 (subf : (⟨S4096x256, .f32⟩ : BufTy).Contents (Elt F) → (⟨S4096x256, .f32⟩ : BufTy).Contents (Elt F) → (⟨S4096x256, .f32⟩ : BufTy).Contents (Elt F)),
    nullary main_cst_92 (constant S_ .f32 0x3727C5AC#32),
    unary main_cst_92 main_v920 (broadcastInDim S256 ![] bcast_S_S256 : (⟨S_, .f32⟩ : BufTy).Contents (Elt F) → (⟨S256, .f32⟩ : BufTy).Contents (Elt F)),
    binary main_v916 main_v920 main_v921 (addf : (⟨S256, .f32⟩ : BufTy).Contents (Elt F) → (⟨S256, .f32⟩ : BufTy).Contents (Elt F) → (⟨S256, .f32⟩ : BufTy).Contents (Elt F)),
    unary main_v921 main_v922 (Host.rsqrt : (⟨S256, .f32⟩ : BufTy).Contents (Elt F) → (⟨S256, .f32⟩ : BufTy).Contents (Elt F)),
    unary main_v922 main_v923 (broadcastInDim S1x256 ![1] bcast_S256_S1x256_1 : (⟨S256, .f32⟩ : BufTy).Contents (Elt F) → (⟨S1x256, .f32⟩ : BufTy).Contents (Elt F)),
    unary main_v923 main_v924 (broadcastInDim S4096x256 ![0, 1] bcast_S1x256_S4096x256_0_1 : (⟨S1x256, .f32⟩ : BufTy).Contents (Elt F) → (⟨S4096x256, .f32⟩ : BufTy).Contents (Elt F)) ]

set_option maxRecDepth 8192 in
set_option maxHeartbeats 4000000 in
/-- The window is that straight line: the called functions unfolded at their calls, sequencing reassociated. -/
theorem part16_eq (c : Dev nD) : main_part16 (F := F) c = seq opsW16 := by
  simp only [main_part16, fn_where.body, fn_where_0.body, fn_elu.body, fn_where_1.body, fn_var.body, fn_relu.body, seq, bind_assoc, pure_bind] <;> rfl

set_option maxRecDepth 8192 in
theorem opsW16_sub : (opsW16 : List (HloOp τ sig (Elt F))).Forall fun op => op.bufs ⊆ tcRefs τ sig :=
  ⟨binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., nullary_bufs_sub .., binary_bufs_sub .., nullary_bufs_sub .., binary_bufs_sub .., unary_bufs_sub .., binary_bufs_sub .., unary_bufs_sub .., nullary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub ..⟩

set_option maxRecDepth 8192 in
theorem opsW16_fresh : (opsW16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW16_writes : (opsW16 : List (HloOp τ sig (Elt F))).Forall (WritesIn 1540 1649) :=
  ⟨writesIn_single main_v872 _ rfl (by decide) (by decide),
   writesIn_single main_v873 _ rfl (by decide) (by decide),
   writesIn_single main_v874 _ rfl (by decide) (by decide),
   writesIn_single main_v875 _ rfl (by decide) (by decide),
   writesIn_single main_v876 _ rfl (by decide) (by decide),
   writesIn_single main_v877 _ rfl (by decide) (by decide),
   writesIn_single main_call44_cst _ rfl (by decide) (by decide),
   writesIn_single main_call44_v0 _ rfl (by decide) (by decide),
   writesIn_single main_call44_v1 _ rfl (by decide) (by decide),
   writesIn_single main_call44_cst_0 _ rfl (by decide) (by decide),
   writesIn_single main_call44_v2 _ rfl (by decide) (by decide),
   writesIn_single main_call44_v3 _ rfl (by decide) (by decide),
   writesIn_single main_call44_cst_1 _ rfl (by decide) (by decide),
   writesIn_single main_call44_call0_v0 _ rfl (by decide) (by decide),
   writesIn_single main_call44_call0_v1 _ rfl (by decide) (by decide),
   writesIn_single main_call44_v4 _ rfl (by decide) (by decide),
   writesIn_single main_call44_v5 _ rfl (by decide) (by decide),
   writesIn_single main_call44_cst_2 _ rfl (by decide) (by decide),
   writesIn_single main_call44_v6 _ rfl (by decide) (by decide),
   writesIn_single main_call44_v7 _ rfl (by decide) (by decide),
   writesIn_single main_v878 _ rfl (by decide) (by decide),
   writesIn_single main_v879 _ rfl (by decide) (by decide),
   writesIn_single main_v880 _ rfl (by decide) (by decide),
   writesIn_single main_v881 _ rfl (by decide) (by decide),
   writesIn_single main_v882 _ rfl (by decide) (by decide),
   writesIn_single main_v883 _ rfl (by decide) (by decide),
   writesIn_single main_v884 _ rfl (by decide) (by decide),
   writesIn_single main_v885 _ rfl (by decide) (by decide),
   writesIn_single main_v886 _ rfl (by decide) (by decide),
   writesIn_single main_call45_cst _ rfl (by decide) (by decide),
   writesIn_single main_call45_v0 _ rfl (by decide) (by decide),
   writesIn_single main_call45_v1 _ rfl (by decide) (by decide),
   writesIn_single main_call45_cst_0 _ rfl (by decide) (by decide),
   writesIn_single main_call45_v2 _ rfl (by decide) (by decide),
   writesIn_single main_call45_v3 _ rfl (by decide) (by decide),
   writesIn_single main_call45_cst_1 _ rfl (by decide) (by decide),
   writesIn_single main_call45_call0_v0 _ rfl (by decide) (by decide),
   writesIn_single main_call45_call0_v1 _ rfl (by decide) (by decide),
   writesIn_single main_call45_v4 _ rfl (by decide) (by decide),
   writesIn_single main_call45_v5 _ rfl (by decide) (by decide),
   writesIn_single main_call45_cst_2 _ rfl (by decide) (by decide),
   writesIn_single main_call45_v6 _ rfl (by decide) (by decide),
   writesIn_single main_call45_v7 _ rfl (by decide) (by decide),
   writesIn_single main_v887 _ rfl (by decide) (by decide),
   writesIn_single main_v888 _ rfl (by decide) (by decide),
   writesIn_single main_v889 _ rfl (by decide) (by decide),
   writesIn_single main_cst_86 _ rfl (by decide) (by decide),
   writesIn_single main_v890 _ rfl (by decide) (by decide),
   writesIn_single main_cst_87 _ rfl (by decide) (by decide),
   writesIn_single main_v891 _ rfl (by decide) (by decide),
   writesIn_single main_v892 _ rfl (by decide) (by decide),
   writesIn_single main_v893 _ rfl (by decide) (by decide),
   writesIn_single main_v894 _ rfl (by decide) (by decide),
   writesIn_single main_cst_88 _ rfl (by decide) (by decide),
   writesIn_single main_v895 _ rfl (by decide) (by decide),
   writesIn_single main_v896 _ rfl (by decide) (by decide),
   writesIn_single main_v897 _ rfl (by decide) (by decide),
   writesIn_single main_v898 _ rfl (by decide) (by decide),
   writesIn_single main_v899 _ rfl (by decide) (by decide),
   writesIn_single main_v900 _ rfl (by decide) (by decide),
   writesIn_single main_v901 _ rfl (by decide) (by decide),
   writesIn_single main_v902 _ rfl (by decide) (by decide),
   writesIn_single main_v903 _ rfl (by decide) (by decide),
   writesIn_single main_v904 _ rfl (by decide) (by decide),
   writesIn_single main_v905 _ rfl (by decide) (by decide),
   writesIn_single main_v906 _ rfl (by decide) (by decide),
   writesIn_single main_v907 _ rfl (by decide) (by decide),
   writesIn_single main_v908 _ rfl (by decide) (by decide),
   writesIn_single main_v909 _ rfl (by decide) (by decide),
   writesIn_single main_v910 _ rfl (by decide) (by decide),
   writesIn_single main_v911 _ rfl (by decide) (by decide),
   writesIn_single main_v912 _ rfl (by decide) (by decide),
   writesIn_single main_cst_89 _ rfl (by decide) (by decide),
   writesIn_single main_v913 _ rfl (by decide) (by decide),
   writesIn_single main_cst_90 _ rfl (by decide) (by decide),
   writesIn_single main_v914 _ rfl (by decide) (by decide),
   writesIn_single main_v915 _ rfl (by decide) (by decide),
   writesIn_single main_c_91 _ rfl (by decide) (by decide),
   writesIn_single main_call46_cst _ rfl (by decide) (by decide),
   writesIn_single main_call46_v0 _ rfl (by decide) (by decide),
   writesIn_single main_call46_v1 _ rfl (by decide) (by decide),
   writesIn_single main_call46_cst_0 _ rfl (by decide) (by decide),
   writesIn_single main_call46_v2 _ rfl (by decide) (by decide),
   writesIn_single main_call46_v3 _ rfl (by decide) (by decide),
   writesIn_single main_call46_v4 _ rfl (by decide) (by decide),
   writesIn_single main_call46_v5 _ rfl (by decide) (by decide),
   writesIn_single main_call46_v6 _ rfl (by decide) (by decide),
   writesIn_single main_call46_v7 _ rfl (by decide) (by decide),
   writesIn_single main_call46_cst_1 _ rfl (by decide) (by decide),
   writesIn_single main_call46_v8 _ rfl (by decide) (by decide),
   writesIn_single main_call46_cst_2 _ rfl (by decide) (by decide),
   writesIn_single main_call46_v9 _ rfl (by decide) (by decide),
   writesIn_single main_call46_v10 _ rfl (by decide) (by decide),
   writesIn_single main_call46_v11 _ rfl (by decide) (by decide),
   writesIn_single main_call46_cst_3 _ rfl (by decide) (by decide),
   writesIn_single main_call46_v12 _ rfl (by decide) (by decide),
   writesIn_single main_call46_cst_4 _ rfl (by decide) (by decide),
   writesIn_single main_call46_call0_v0 _ rfl (by decide) (by decide),
   writesIn_single main_call46_call0_v1 _ rfl (by decide) (by decide),
   writesIn_single main_v916 _ rfl (by decide) (by decide),
   writesIn_single main_v917 _ rfl (by decide) (by decide),
   writesIn_single main_v918 _ rfl (by decide) (by decide),
   writesIn_single main_v919 _ rfl (by decide) (by decide),
   writesIn_single main_cst_92 _ rfl (by decide) (by decide),
   writesIn_single main_v920 _ rfl (by decide) (by decide),
   writesIn_single main_v921 _ rfl (by decide) (by decide),
   writesIn_single main_v922 _ rfl (by decide) (by decide),
   writesIn_single main_v923 _ rfl (by decide) (by decide),
   writesIn_single main_v924 _ rfl (by decide) (by decide)⟩

end Cert.ReferenceIdeal.Hand

end
-- ==== Proof.RefRunW17.lean ====
import proofs.«169706_j68856915690108_1_alg».proof.Proof.Gen.ReferenceIdeal
import proofs.«169706_j68856915690108_1_alg».proof.Proof.RefLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 1631 … 1674 of 1674 (window main_part17): they write the buffers 1649 … 1692 in order. -/
noncomputable abbrev opsW17 : List (HloOp τ sig (Elt F)) :=
  [ binary main_v919 main_v924 main_v925 (mulf : (⟨S4096x256, .f32⟩ : BufTy).Contents (Elt F) → (⟨S4096x256, .f32⟩ : BufTy).Contents (Elt F) → (⟨S4096x256, .f32⟩ : BufTy).Contents (Elt F)),
    unary main_v904 main_v926 ((extractStridedSlice S1x256 ![0, 0] · slices_S2x256_S1x256_0_0) : (⟨S2x256, .f32⟩ : BufTy).Contents (Elt F) → (⟨S1x256, .f32⟩ : BufTy).Contents (Elt F)),
    reshape main_v926 main_v927 rfl shapeCasts_S1x256_S256,
    unary main_v927 main_v928 (broadcastInDim S1x256 ![1] bcast_S256_S1x256_1 : (⟨S256, .f32⟩ : BufTy).Contents (Elt F) → (⟨S1x256, .f32⟩ : BufTy).Contents (Elt F)),
    unary main_v928 main_v929 (broadcastInDim S4096x256 ![0, 1] bcast_S1x256_S4096x256_0_1 : (⟨S1x256, .f32⟩ : BufTy).Contents (Elt F) → (⟨S4096x256, .f32⟩ : BufTy).Contents (Elt F)),
    binary main_v925 main_v929 main_v930 (mulf : (⟨S4096x256, .f32⟩ : BufTy).Contents (Elt F) → (⟨S4096x256, .f32⟩ : BufTy).Contents (Elt F) → (⟨S4096x256, .f32⟩ : BufTy).Contents (Elt F)),
    unary main_v904 main_v931 ((extractStridedSlice S1x256 ![1, 0] · slices_S2x256_S1x256_1_0) : (⟨S2x256, .f32⟩ : BufTy).Contents (Elt F) → (⟨S1x256, .f32⟩ : BufTy).Contents (Elt F)),
    reshape main_v931 main_v932 rfl shapeCasts_S1x256_S256,
    unary main_v932 main_v933 (broadcastInDim S1x256 ![1] bcast_S256_S1x256_1 : (⟨S256, .f32⟩ : BufTy).Contents (Elt F) → (⟨S1x256, .f32⟩ : BufTy).Contents (Elt F)),
    unary main_v933 main_v934 (broadcastInDim S4096x256 ![0, 1] bcast_S1x256_S4096x256_0_1 : (⟨S1x256, .f32⟩ : BufTy).Contents (Elt F) → (⟨S4096x256, .f32⟩ : BufTy).Contents (Elt F)),
    binary main_v930 main_v934 main_v935 (addf : (⟨S4096x256, .f32⟩ : BufTy).Contents (Elt F) → (⟨S4096x256, .f32⟩ : BufTy).Contents (Elt F) → (⟨S4096x256, .f32⟩ : BufTy).Contents (Elt F)),
    TRef.nullary main_call47.cst (constant S_ .f32 0x00000000#32),
    TRef.unary main_call47.cst main_call47.v0 (broadcastInDim S4096x256 ![] bcast_S_S4096x256),
    TRef.binary (.of main_v935 : TRef sig ⟨S4096x256, .f32⟩) main_call47.v0 main_call47.v1 maximumf,
    unary main_v900 main_v937 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v937 main_v938 rfl shapeCasts_S1x256x256_S256x256,
    binary main_v936 main_v938 main_v939 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v902 main_v940 ((extractStridedSlice S1x256 ![1, 0] · slices_S2x256_S1x256_1_0) : (⟨S2x256, .f32⟩ : BufTy).Contents (Elt F) → (⟨S1x256, .f32⟩ : BufTy).Contents (Elt F)),
    reshape main_v940 main_v941 rfl shapeCasts_S1x256_S256,
    unary main_v941 main_v942 (broadcastInDim S1x256 ![1] bcast_S256_S1x256_1 : (⟨S256, .f32⟩ : BufTy).Contents (Elt F) → (⟨S1x256, .f32⟩ : BufTy).Contents (Elt F)),
    unary main_v942 main_v943 (broadcastInDim S4096x256 ![0, 1] bcast_S1x256_S4096x256_0_1 : (⟨S1x256, .f32⟩ : BufTy).Contents (Elt F) → (⟨S4096x256, .f32⟩ : BufTy).Contents (Elt F)),
    binary main_v939 main_v943 main_v944 (addf : (⟨S4096x256, .f32⟩ : BufTy).Contents (Elt F) → (⟨S4096x256, .f32⟩ : BufTy).Contents (Elt F) → (⟨S4096x256, .f32⟩ : BufTy).Contents (Elt F)),
    binary main_v869 main_v944 main_v945 (addf : (⟨S4096x256, .f32⟩ : BufTy).Contents (Elt F) → (⟨S4096x256, .f32⟩ : BufTy).Contents (Elt F) → (⟨S4096x256, .f32⟩ : BufTy).Contents (Elt F)),
    nullary main_cst_93 (constant S_ .f32 0x40400000#32),
    unary main_cst_93 main_v946 (broadcastInDim S4096x256 ![] bcast_S_S4096x256 : (⟨S_, .f32⟩ : BufTy).Contents (Elt F) → (⟨S4096x256, .f32⟩ : BufTy).Contents (Elt F)),
    binary main_v945 main_v946 main_v947 (Host.divf : (⟨S4096x256, .f32⟩ : BufTy).Contents (Elt F) → (⟨S4096x256, .f32⟩ : BufTy).Contents (Elt F) → (⟨S4096x256, .f32⟩ : BufTy).Contents (Elt F)),
    binary main_v236 main_v947 main_v948 (subf : (⟨S4096x256, .f32⟩ : BufTy).Contents (Elt F) → (⟨S4096x256, .f32⟩ : BufTy).Contents (Elt F) → (⟨S4096x256, .f32⟩ : BufTy).Contents (Elt F)),
    binary main_v948 main_v948 main_v949 (mulf : (⟨S4096x256, .f32⟩ : BufTy).Contents (Elt F) → (⟨S4096x256, .f32⟩ : BufTy).Contents (Elt F) → (⟨S4096x256, .f32⟩ : BufTy).Contents (Elt F)),
    nullary main_cst_94 (constant S_ .f32 0x00000000#32),
    binary main_v949 main_cst_94 main_v950 ((fun x v => Host.reduceAdd x v reducesTo_S4096x256_S_d0_1 h_S_) : (⟨S4096x256, .f32⟩ : BufTy).Contents (Elt F) → (⟨S_, .f32⟩ : BufTy).Contents (Elt F) → (⟨S_, .f32⟩ : BufTy).Contents (Elt F)),
    nullary main_cst_95 (constant S_ .f32 0x49800000#32),
    binary main_v950 main_cst_95 main_v951 (Host.divf : (⟨S_, .f32⟩ : BufTy).Contents (Elt F) → (⟨S_, .f32⟩ : BufTy).Contents (Elt F) → (⟨S_, .f32⟩ : BufTy).Contents (Elt F)),
    binary main_v473 main_v947 main_v952 (subf : (⟨S4096x256, .f32⟩ : BufTy).Contents (Elt F) → (⟨S4096x256, .f32⟩ : BufTy).Contents (Elt F) → (⟨S4096x256, .f32⟩ : BufTy).Contents (Elt F)),
    binary main_v952 main_v952 main_v953 (mulf : (⟨S4096x256, .f32⟩ : BufTy).Contents (Elt F) → (⟨S4096x256, .f32⟩ : BufTy).Contents (Elt F) → (⟨S4096x256, .f32⟩ : BufTy).Contents (Elt F)),
    nullary main_cst_96 (constant S_ .f32 0x00000000#32),
    binary main_v953 main_cst_96 main_v954 ((fun x v => Host.reduceAdd x v reducesTo_S4096x256_S_d0_1 h_S_) : (⟨S4096x256, .f32⟩ : BufTy).Contents (Elt F) → (⟨S_, .f32⟩ : BufTy).Contents (Elt F) → (⟨S_, .f32⟩ : BufTy).Contents (Elt F)),
    nullary main_cst_97 (constant S_ .f32 0x49800000#32),
    binary main_v954 main_cst_97 main_v955 (Host.divf : (⟨S_, .f32⟩ : BufTy).Contents (Elt F) → (⟨S_, .f32⟩ : BufTy).Contents (Elt F) → (⟨S_, .f32⟩ : BufTy).Contents (Elt F)),
    binary main_v710 main_v947 main_v956 (subf : (⟨S4096x256, .f32⟩ : BufTy).Contents (Elt F) → (⟨S4096x256, .f32⟩ : BufTy).Contents (Elt F) → (⟨S4096x256, .f32⟩ : BufTy).Contents (Elt F)),
    binary main_v956 main_v956 main_v957 (mulf : (⟨S4096x256, .f32⟩ : BufTy).Contents (Elt F) → (⟨S4096x256, .f32⟩ : BufTy).Contents (Elt F) → (⟨S4096x256, .f32⟩ : BufTy).Contents (Elt F)),
    nullary main_cst_98 (constant S_ .f32 0x00000000#32),
    binary main_v957 main_cst_98 main_v958 ((fun x v => Host.reduceAdd x v reducesTo_S4096x256_S_d0_1 h_S_) : (⟨S4096x256, .f32⟩ : BufTy).Contents (Elt F) → (⟨S_, .f32⟩ : BufTy).Contents (Elt F) → (⟨S_, .f32⟩ : BufTy).Contents (Elt F)),
    nullary main_cst_99 (constant S_ .f32 0x49800000#32),
    binary main_v958 main_cst_99 main_v959 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The window is that straight line: the called functions unfolded at their calls, sequencing reassociated. -/
theorem part17_eq (c : Dev nD) : main_part17 (F := F) c = seq opsW17 := by
  simp only [main_part17, fn_where.body, fn_where_0.body, fn_elu.body, fn_where_1.body, fn_var.body, fn_relu.body, seq, bind_assoc, pure_bind] <;> rfl

set_option maxRecDepth 8192 in
theorem opsW17_sub : (opsW17 : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub ..⟩

set_option maxRecDepth 8192 in
theorem opsW17_fresh : (opsW17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW17_writes : (opsW17 : List (HloOp τ sig (Elt F))).Forall (WritesIn 1649 1693) :=
  ⟨writesIn_single main_v925 _ rfl (by decide) (by decide),
   writesIn_single main_v926 _ rfl (by decide) (by decide),
   writesIn_single main_v927 _ rfl (by decide) (by decide),
   writesIn_single main_v928 _ rfl (by decide) (by decide),
   writesIn_single main_v929 _ rfl (by decide) (by decide),
   writesIn_single main_v930 _ rfl (by decide) (by decide),
   writesIn_single main_v931 _ rfl (by decide) (by decide),
   writesIn_single main_v932 _ rfl (by decide) (by decide),
   writesIn_single main_v933 _ rfl (by decide) (by decide),
   writesIn_single main_v934 _ rfl (by decide) (by decide),
   writesIn_single main_v935 _ rfl (by decide) (by decide),
   writesIn_single main_call47_cst _ rfl (by decide) (by decide),
   writesIn_single main_call47_v0 _ rfl (by decide) (by decide),
   writesIn_single main_v936 _ rfl (by decide) (by decide),
   writesIn_single main_v937 _ rfl (by decide) (by decide),
   writesIn_single main_v938 _ rfl (by decide) (by decide),
   writesIn_single main_v939 _ rfl (by decide) (by decide),
   writesIn_single main_v940 _ rfl (by decide) (by decide),
   writesIn_single main_v941 _ rfl (by decide) (by decide),
   writesIn_single main_v942 _ rfl (by decide) (by decide),
   writesIn_single main_v943 _ rfl (by decide) (by decide),
   writesIn_single main_v944 _ rfl (by decide) (by decide),
   writesIn_single main_v945 _ rfl (by decide) (by decide),
   writesIn_single main_cst_93 _ rfl (by decide) (by decide),
   writesIn_single main_v946 _ rfl (by decide) (by decide),
   writesIn_single main_v947 _ rfl (by decide) (by decide),
   writesIn_single main_v948 _ rfl (by decide) (by decide),
   writesIn_single main_v949 _ rfl (by decide) (by decide),
   writesIn_single main_cst_94 _ rfl (by decide) (by decide),
   writesIn_single main_v950 _ rfl (by decide) (by decide),
   writesIn_single main_cst_95 _ rfl (by decide) (by decide),
   writesIn_single main_v951 _ rfl (by decide) (by decide),
   writesIn_single main_v952 _ rfl (by decide) (by decide),
   writesIn_single main_v953 _ rfl (by decide) (by decide),
   writesIn_single main_cst_96 _ rfl (by decide) (by decide),
   writesIn_single main_v954 _ rfl (by decide) (by decide),
   writesIn_single main_cst_97 _ rfl (by decide) (by decide),
   writesIn_single main_v955 _ rfl (by decide) (by decide),
   writesIn_single main_v956 _ rfl (by decide) (by decide),
   writesIn_single main_v957 _ rfl (by decide) (by decide),
   writesIn_single main_cst_98 _ rfl (by decide) (by decide),
   writesIn_single main_v958 _ rfl (by decide) (by decide),
   writesIn_single main_cst_99 _ rfl (by decide) (by decide),
   writesIn_single main_v959 _ rfl (by decide) (by decide)⟩

end Cert.ReferenceIdeal.Hand

end
-- ==== Proof.RefRun.lean ====
/-
  The reference program's run. @main is eighteen windows run in order; each window is a straight line of host
  operations (RefRunW00 … RefRunW17), so @main is the straight line of their concatenation, and the run of a straight
  line (every weakly fair execution terminates; each buffer ends at the fold of the operations' results) applies.
  The operations write the buffers 19 … 1692, each exactly once and in order; the nineteen arguments are the
  buffers 0 … 18, so no operation writes one and each keeps its launch contents.
-/
import proofs.«169706_j68856915690108_1_alg».proof.Proof.Gen.ReferenceIdeal
import proofs.«169706_j68856915690108_1_alg».proof.Proof.RefLib
import proofs.«169706_j68856915690108_1_alg».proof.Proof.RefRunW00
import proofs.«169706_j68856915690108_1_alg».proof.Proof.RefRunW01
import proofs.«169706_j68856915690108_1_alg».proof.Proof.RefRunW02
import proofs.«169706_j68856915690108_1_alg».proof.Proof.RefRunW03
import proofs.«169706_j68856915690108_1_alg».proof.Proof.RefRunW04
import proofs.«169706_j68856915690108_1_alg».proof.Proof.RefRunW05
import proofs.«169706_j68856915690108_1_alg».proof.Proof.RefRunW06
import proofs.«169706_j68856915690108_1_alg».proof.Proof.RefRunW07
import proofs.«169706_j68856915690108_1_alg».proof.Proof.RefRunW08
import proofs.«169706_j68856915690108_1_alg».proof.Proof.RefRunW09
import proofs.«169706_j68856915690108_1_alg».proof.Proof.RefRunW10
import proofs.«169706_j68856915690108_1_alg».proof.Proof.RefRunW11
import proofs.«169706_j68856915690108_1_alg».proof.Proof.RefRunW12
import proofs.«169706_j68856915690108_1_alg».proof.Proof.RefRunW13
import proofs.«169706_j68856915690108_1_alg».proof.Proof.RefRunW14
import proofs.«169706_j68856915690108_1_alg».proof.Proof.RefRunW15
import proofs.«169706_j68856915690108_1_alg».proof.Proof.RefRunW16
import proofs.«169706_j68856915690108_1_alg».proof.Proof.RefRunW17
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 1674 operations, in order: the windows' lists one after the other. -/
noncomputable abbrev ops : List (HloOp τ sig (Elt F)) :=
  opsW0 ++ (opsW1 ++ (opsW2 ++ (opsW3 ++ (opsW4 ++ (opsW5 ++ (opsW6 ++ (opsW7 ++ (opsW8 ++ (opsW9 ++ (opsW10 ++ (opsW11 ++ (opsW12 ++ (opsW13 ++ (opsW14 ++ (opsW15 ++ (opsW16 ++ (opsW17)))))))))))))))))

/-- @main is that straight line. -/
theorem main_eq (c : Dev nD) : main (F := F) c = seq ops := by
  simp only [ops, seq_append, ← part0_eq c, ← part1_eq c, ← part2_eq c, ← part3_eq c, ← part4_eq c, ← part5_eq c, ← part6_eq c, ← part7_eq c, ← part8_eq c, ← part9_eq c, ← part10_eq c, ← part11_eq c, ← part12_eq c, ← part13_eq c, ← part14_eq c, ← part15_eq c, ← part16_eq c, ← part17_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  forall_append opsW0_sub (forall_append opsW1_sub (forall_append opsW2_sub (forall_append opsW3_sub (forall_append opsW4_sub (forall_append opsW5_sub (forall_append opsW6_sub (forall_append opsW7_sub (forall_append opsW8_sub (forall_append opsW9_sub (forall_append opsW10_sub (forall_append opsW11_sub (forall_append opsW12_sub (forall_append opsW13_sub (forall_append opsW14_sub (forall_append opsW15_sub (forall_append opsW16_sub (opsW17_sub)))))))))))))))))

/-- Every operation determines its results. -/
theorem ops_fresh : (ops : List (HloOp τ sig (Elt F))).Forall fun op => op.fresh = ∅ :=
  forall_append opsW0_fresh (forall_append opsW1_fresh (forall_append opsW2_fresh (forall_append opsW3_fresh (forall_append opsW4_fresh (forall_append opsW5_fresh (forall_append opsW6_fresh (forall_append opsW7_fresh (forall_append opsW8_fresh (forall_append opsW9_fresh (forall_append opsW10_fresh (forall_append opsW11_fresh (forall_append opsW12_fresh (forall_append opsW13_fresh (forall_append opsW14_fresh (forall_append opsW15_fresh (forall_append opsW16_fresh (opsW17_fresh)))))))))))))))))

/-- Every operation writes one buffer, of index 19 … 1692: never an argument's. -/
theorem ops_writes : (ops : List (HloOp τ sig (Elt F))).Forall (WritesIn 19 1693) :=
  forall_append (forall_mono opsW0_writes fun _ h => h.mono (by decide) (by decide)) (forall_append (forall_mono opsW1_writes fun _ h => h.mono (by decide) (by decide)) (forall_append (forall_mono opsW2_writes fun _ h => h.mono (by decide) (by decide)) (forall_append (forall_mono opsW3_writes fun _ h => h.mono (by decide) (by decide)) (forall_append (forall_mono opsW4_writes fun _ h => h.mono (by decide) (by decide)) (forall_append (forall_mono opsW5_writes fun _ h => h.mono (by decide) (by decide)) (forall_append (forall_mono opsW6_writes fun _ h => h.mono (by decide) (by decide)) (forall_append (forall_mono opsW7_writes fun _ h => h.mono (by decide) (by decide)) (forall_append (forall_mono opsW8_writes fun _ h => h.mono (by decide) (by decide)) (forall_append (forall_mono opsW9_writes fun _ h => h.mono (by decide) (by decide)) (forall_append (forall_mono opsW10_writes fun _ h => h.mono (by decide) (by decide)) (forall_append (forall_mono opsW11_writes fun _ h => h.mono (by decide) (by decide)) (forall_append (forall_mono opsW12_writes fun _ h => h.mono (by decide) (by decide)) (forall_append (forall_mono opsW13_writes fun _ h => h.mono (by decide) (by decide)) (forall_append (forall_mono opsW14_writes fun _ h => h.mono (by decide) (by decide)) (forall_append (forall_mono opsW15_writes fun _ h => h.mono (by decide) (by decide)) (forall_append (forall_mono opsW16_writes fun _ h => h.mono (by decide) (by decide)) (forall_mono opsW17_writes fun _ h => h.mono (by decide) (by decide))))))))))))))))))

/-- From any memory with zero counters: every weakly fair execution of the reference terminates, and every
    TensorCore buffer ends at the fold of the 1674 operations' results over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-- An argument's buffer (index below 19) holds its launch contents after the whole line. -/
theorem arg_keep (V : Valuation τ sig (Elt F)) (r : Ref sig .tc) (h : r.idx.val < 19) :
    after ops V (Proc.devRef .tc r) = V (Proc.devRef .tc r) :=
  after_keep ops V ops_writes r (Or.inl h)

/-- The reference runs: every weakly fair execution terminates, with every argument buffer unchanged. -/
theorem frame_ri (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c =>
    ⟨(h c main_arg0).trans (arg_keep _ main_arg0 (by decide)),
     (h c main_arg1).trans (arg_keep _ main_arg1 (by decide)),
     (h c main_arg2).trans (arg_keep _ main_arg2 (by decide)),
     (h c main_arg3).trans (arg_keep _ main_arg3 (by decide)),
     (h c main_arg4).trans (arg_keep _ main_arg4 (by decide)),
     (h c main_arg5).trans (arg_keep _ main_arg5 (by decide)),
     (h c main_arg6).trans (arg_keep _ main_arg6 (by decide)),
     (h c main_arg7).trans (arg_keep _ main_arg7 (by decide)),
     (h c main_arg8).trans (arg_keep _ main_arg8 (by decide)),
     (h c main_arg9).trans (arg_keep _ main_arg9 (by decide)),
     (h c main_arg10).trans (arg_keep _ main_arg10 (by decide)),
     (h c main_arg11).trans (arg_keep _ main_arg11 (by decide)),
     (h c main_arg12).trans (arg_keep _ main_arg12 (by decide)),
     (h c main_arg13).trans (arg_keep _ main_arg13 (by decide)),
     (h c main_arg14).trans (arg_keep _ main_arg14 (by decide)),
     (h c main_arg15).trans (arg_keep _ main_arg15 (by decide)),
     (h c main_arg16).trans (arg_keep _ main_arg16 (by decide)),
     (h c main_arg17).trans (arg_keep _ main_arg17 (by decide)),
     (h c main_arg18).trans (arg_keep _ main_arg18 (by decide))⟩)
    (run_all m g)

end Cert.ReferenceIdeal.Hand

end
-- ==== Proof.RefFns.lean ====
/-
  The reference's stages as pure functions of array contents, each the composition of the program's own host
  operations in the program's order: the dense layer X · W + b (its weight a slice of a stacked array, reshaped; its
  bias a slice, reshaped and broadcast along the rows), ELU as the program computes it (two comparisons with zero,
  expm1 of the clamped value, the selects), the two-layer embedding, the aggregate (Gram matrix, its mean, the 0/1
  mask above the mean, plus the identity, times X), the GIN multi-layer perceptron with batch normalisation over the
  rows (mean, the biased variance with its guard, rsqrt, scale and shift, ReLU, the second dense layer), the division
  of the accumulated sum by three, and the mean squared error. Generic in the float values.
-/
import proofs.«169706_j68856915690108_1_alg».proof.ReferenceIdeal

noncomputable section

namespace Cert.ReferenceIdeal.Hand

open Idealize.ShloMosaic
open Cert.ReferenceIdeal

variable {F : FTy → Type} [FloatOps F]
variable [Facts₀]
open Facts₀

/-- Row 0 of a stack of two weight matrices. -/
noncomputable def w0 (W : FVec F S2x256x256 .f32) : FVec F S256x256 .f32 :=
  shapeCast S256x256 (extractStridedSlice S1x256x256 ![0, 0, 0] W slices_S2x256x256_S1x256x256_0_0_0) shapeCasts_S1x256x256_S256x256
/-- Row 1 of a stack of two weight matrices. -/
noncomputable def w1 (W : FVec F S2x256x256 .f32) : FVec F S256x256 .f32 :=
  shapeCast S256x256 (extractStridedSlice S1x256x256 ![1, 0, 0] W slices_S2x256x256_S1x256x256_1_0_0) shapeCasts_S1x256x256_S256x256
/-- Row 0 of a stack of two vectors. -/
noncomputable def b0 (b : FVec F S2x256 .f32) : FVec F S256 .f32 :=
  shapeCast S256 (extractStridedSlice S1x256 ![0, 0] b slices_S2x256_S1x256_0_0) shapeCasts_S1x256_S256
/-- Row 1 of a stack of two vectors. -/
noncomputable def b1 (b : FVec F S2x256 .f32) : FVec F S256 .f32 :=
  shapeCast S256 (extractStridedSlice S1x256 ![1, 0] b slices_S2x256_S1x256_1_0) shapeCasts_S1x256_S256

/-- A vector of 256 repeated along the 4096 rows. -/
noncomputable def rows (v : FVec F S256 .f32) : FVec F S4096x256 .f32 :=
  broadcastInDim S4096x256 ![0, 1] bcast_S1x256_S4096x256_0_1 (broadcastInDim S1x256 ![1] bcast_S256_S1x256_1 v)

/-- A scalar word everywhere in a 4096 × 256 array. -/
noncomputable def fill (w : BitVec 32) : FVec F S4096x256 .f32 :=
  broadcastInDim S4096x256 ![] bcast_S_S4096x256 (constant S_ .f32 w)

/-- The dense layer X · W + b. -/
noncomputable def lin (X : FVec F S4096x256 .f32) (W : FVec F S256x256 .f32) (b : FVec F S256 .f32) : FVec F S4096x256 .f32 :=
  addf (Host.dotGeneral dot_S4096x256_S256x256_S4096x256_1_0_0_1_n_n none X W) (rows b)

/-- ELU as the program computes it: where x > 0 it is x, elsewhere 1 · expm1 (x clamped at 0 from above). -/
noncomputable def elu (x : FVec F S4096x256 .f32) : FVec F S4096x256 .f32 :=
  select (cmpf .ogt x (fill 0x00000000#32)) x
    (mulf (fill 0x3F800000#32) (Host.expm1 (select (cmpf .ogt x (fill 0x00000000#32)) (fill 0x00000000#32) x)))

/-- The embedding: two dense layers, each followed by ELU; weights and biases rows 0 and 1 of the stacks. -/
noncomputable def embedR (X : FVec F S4096x256 .f32) (aW : FVec F S2x256x256 .f32) (ab : FVec F S2x256 .f32) : FVec F S4096x256 .f32 :=
  elu (lin (elu (lin X (w0 aW) (b0 ab))) (w1 aW) (b1 ab))

/-- The identity matrix as the program builds it. -/
noncomputable def eyeF : FVec F S4096x4096 .f32 :=
  uitofp .f32
    (cmpi .eq
      (addi (iotaInDim S4096x4096 32 0) (broadcastInDim S4096x4096 ![] bcast_S_S4096x4096 (constantI S_ 32 0#32)))
      (iotaInDim S4096x4096 32 1))

/-- The Gram matrix h · hᵀ. -/
noncomputable def adjF (h : FVec F S4096x256 .f32) : FVec F S4096x4096 .f32 :=
  Host.dotGeneral dot_S4096x256_S256x4096_S4096x4096_1_0_0_1_n_n none h
    (transpose S256x4096 [1, 0] h transposes_S4096x256_S256x4096_1_0)

/-- The mean of the Gram matrix: its sum from zero, divided by the word of 2²⁴. -/
noncomputable def meanF (h : FVec F S4096x256 .f32) : FVec F S_ .f32 :=
  Host.divf (Host.reduceAdd (adjF h) (constant S_ .f32 0x00000000#32) reducesTo_S4096x4096_S_d0_1 h_S_) (constant S_ .f32 0x4B800000#32)

/-- The 0/1 matrix "the Gram entry is above the mean". -/
noncomputable def maskF (h : FVec F S4096x256 .f32) : FVec F S4096x4096 .f32 :=
  uitofp .f32 (cmpf .ogt (adjF h) (broadcastInDim S4096x4096 ![] bcast_S_S4096x4096 (meanF h)))

/-- The aggregate over an identity matrix E: (mask + 1.0 · E) · X. -/
noncomputable def aggF (E : FVec F S4096x4096 .f32) (h X : FVec F S4096x256 .f32) : FVec F S4096x256 .f32 :=
  Host.dotGeneral dot_S4096x4096_S4096x256_S4096x256_1_0_0_1_n_n none
    (addf (maskF h) (mulf (broadcastInDim S4096x4096 ![] bcast_S_S4096x4096 (constant S_ .f32 0x3F800000#32)) E)) X

/-- Layer 0, 1, 2 of a stack of three (stacks of two weight matrices). -/
noncomputable def sliceW0 (W : FVec F S3x2x256x256 .f32) : FVec F S2x256x256 .f32 :=
  shapeCast S2x256x256 (extractStridedSlice S1x2x256x256 ![0, 0, 0, 0] W slices_S3x2x256x256_S1x2x256x256_0_0_0_0) shapeCasts_S1x2x256x256_S2x256x256
noncomputable def sliceW1 (W : FVec F S3x2x256x256 .f32) : FVec F S2x256x256 .f32 :=
  shapeCast S2x256x256 (extractStridedSlice S1x2x256x256 ![1, 0, 0, 0] W slices_S3x2x256x256_S1x2x256x256_1_0_0_0) shapeCasts_S1x2x256x256_S2x256x256
noncomputable def sliceW2 (W : FVec F S3x2x256x256 .f32) : FVec F S2x256x256 .f32 :=
  shapeCast S2x256x256 (extractStridedSlice S1x2x256x256 ![2, 0, 0, 0] W slices_S3x2x256x256_S1x2x256x256_2_0_0_0) shapeCasts_S1x2x256x256_S2x256x256
/-- Layer 0, 1, 2 of a stack of three (stacks of two vectors). -/
noncomputable def sliceB0 (b : FVec F S3x2x256 .f32) : FVec F S2x256 .f32 :=
  shapeCast S2x256 (extractStridedSlice S1x2x256 ![0, 0, 0] b slices_S3x2x256_S1x2x256_0_0_0) shapeCasts_S1x2x256_S2x256
noncomputable def sliceB1 (b : FVec F S3x2x256 .f32) : FVec F S2x256 .f32 :=
  shapeCast S2x256 (extractStridedSlice S1x2x256 ![1, 0, 0] b slices_S3x2x256_S1x2x256_1_0_0) shapeCasts_S1x2x256_S2x256
noncomputable def sliceB2 (b : FVec F S3x2x256 .f32) : FVec F S2x256 .f32 :=
  shapeCast S2x256 (extractStridedSlice S1x2x256 ![2, 0, 0] b slices_S3x2x256_S1x2x256_2_0_0) shapeCasts_S1x2x256_S2x256

/-- The column sums of a 4096 × 256 array, from zero. -/
noncomputable def colSum (y : FVec F S4096x256 .f32) : FVec F S256 .f32 :=
  Host.reduceAdd y (constant S_ .f32 0x00000000#32) reducesTo_S4096x256_S256_d0 h_S_

/-- The column means: the column sums divided by the word of 4096. -/
noncomputable def colMean (y : FVec F S4096x256 .f32) : FVec F S256 .f32 :=
  Host.divf (colSum y) (broadcastInDim S256 ![] bcast_S_S256 (constant S_ .f32 0x45800000#32))

/-- The count the variance divides by: 4096 minus the correction 0, as floats. -/
noncomputable def varCount : FVec F S_ .f32 :=
  subf (constant S_ .f32 0x45800000#32) (sitofp .f32 (constantI S_ 32 0#32))

/-- The deviations from the column means, the means taken as the variance function takes them (through a 1 × 256 row). -/
noncomputable def varDev (y : FVec F S4096x256 .f32) : FVec F S4096x256 .f32 :=
  subf y (broadcastInDim S4096x256 ![0, 1] bcast_S1x256_S4096x256_0_1
    (Host.divf (broadcastInDim S1x256 ![1] bcast_S256_S1x256_1 (colSum y))
      (broadcastInDim S1x256 ![] bcast_S_S1x256 (constant S_ .f32 0x45800000#32))))

/-- The biased column variances, guarded as the program guards them: NaN where the count is not positive. -/
noncomputable def colVar (y : FVec F S4096x256 .f32) : FVec F S256 .f32 :=
  select (broadcastInDim S256 ![] bcast_S_S256 (cmpf .ogt (varCount (F := F)) (constant S_ .f32 0x00000000#32)))
    (Host.divf (colSum (mulf (varDev y) (varDev y))) (broadcastInDim S256 ![] bcast_S_S256 (varCount (F := F))))
    (broadcastInDim S256 ![] bcast_S_S256 (constant S_ .f32 0x7FC00000#32))

/-- Batch normalisation over the rows, then scale by row 0 and shift by row 1 of bn. -/
noncomputable def bnorm (y : FVec F S4096x256 .f32) (bn : FVec F S2x256 .f32) : FVec F S4096x256 .f32 :=
  addf
    (mulf
      (mulf (subf y (rows (colMean y)))
        (rows (Host.rsqrt (addf (colVar y) (broadcastInDim S256 ![] bcast_S_S256 (constant S_ .f32 0x3727C5AC#32))))))
      (rows (b0 bn)))
    (rows (b1 bn))

/-- The GIN perceptron: dense, batch normalisation, ReLU, dense. -/
noncomputable def mlpR (Y : FVec F S4096x256 .f32) (W : FVec F S2x256x256 .f32) (b bn : FVec F S2x256 .f32) : FVec F S4096x256 .f32 :=
  lin (maximumf (bnorm (lin Y (w0 W) (b0 b)) bn) (fill 0x00000000#32)) (w1 W) (b1 b)

/-- One GIN layer over an identity matrix E. -/
noncomputable def layerF (E : FVec F S4096x4096 .f32) (X : FVec F S4096x256 .f32) (aW : FVec F S2x256x256 .f32) (ab : FVec F S2x256 .f32)
    (W : FVec F S2x256x256 .f32) (b bn : FVec F S2x256 .f32) : FVec F S4096x256 .f32 :=
  mlpR (aggF E (embedR X aW ab) X) W b bn

/-- The accumulated sum divided by the word of 3. -/
noncomputable def thirdR (acc : FVec F S4096x256 .f32) : FVec F S4096x256 .f32 :=
  Host.divf acc (fill 0x40400000#32)

/-- One GIN branch: three layers from X, their outputs summed from zero, the sum divided by three. -/
noncomputable def ginF (E : FVec F S4096x4096 .f32) (X : FVec F S4096x256 .f32) (aW : FVec F S2x256x256 .f32) (ab : FVec F S2x256 .f32)
    (mW : FVec F S3x2x256x256 .f32) (mb mbn : FVec F S3x2x256 .f32) : FVec F S4096x256 .f32 :=
  thirdR
    (addf
      (addf
        (addf (fill 0x00000000#32) (layerF E X aW ab (sliceW0 mW) (sliceB0 mb) (sliceB0 mbn)))
        (layerF E (layerF E X aW ab (sliceW0 mW) (sliceB0 mb) (sliceB0 mbn)) aW ab (sliceW1 mW) (sliceB1 mb) (sliceB1 mbn)))
      (layerF E (layerF E (layerF E X aW ab (sliceW0 mW) (sliceB0 mb) (sliceB0 mbn)) aW ab (sliceW1 mW) (sliceB1 mb) (sliceB1 mbn))
        aW ab (sliceW2 mW) (sliceB2 mb) (sliceB2 mbn)))

/-- The mean squared error: the sum of the squared differences from zero, divided by the word of 2²⁰. -/
noncomputable def mseR (a b : FVec F S4096x256 .f32) : FVec F S_ .f32 :=
  Host.divf (Host.reduceAdd (mulf (subf a b) (subf a b)) (constant S_ .f32 0x00000000#32) reducesTo_S4096x256_S_d0_1 h_S_)
    (constant S_ .f32 0x49800000#32)

end Cert.ReferenceIdeal.Hand

end
-- ==== Proof.RefValL_g0l0.lean ====
/-
  One GIN layer of the reference, read back: the layer's operations in three stretches — the embedding of the layer's
  input (46 operations), the aggregate (14), the perceptron with the accumulation (74) — and, for any contents W
  before a stretch, what the stretch leaves at the buffers later stretches read, as the stage functions of
  RefFns applied to W at the buffers the stretch reads. Every other buffer keeps what it held.
-/
import proofs.«169706_j68856915690108_1_alg».proof.Proof.Gen.ReferenceIdeal
import proofs.«169706_j68856915690108_1_alg».proof.Proof.RefLib
import proofs.«169706_j68856915690108_1_alg».proof.Proof.RefFns
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The embedding's operations: two dense layers, each followed by ELU. -/
noncomputable def stE_g0l0 : List (HloOp τ sig (Elt F)) :=
  [ unary main_arg4 main_v7 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v7 main_v8 rfl shapeCasts_S1x256x256_S256x256,
    binary main_arg0 main_v8 main_v9 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg5 main_v10 ((extractStridedSlice S1x256 ![0, 0] · slices_S2x256_S1x256_0_0) : (⟨S2x256, .f32⟩ : BufTy).Contents (Elt F) → (⟨S1x256, .f32⟩ : BufTy).Contents (Elt F)),
    reshape main_v10 main_v11 rfl shapeCasts_S1x256_S256,
    unary main_v11 main_v12 (broadcastInDim S1x256 ![1] bcast_S256_S1x256_1 : (⟨S256, .f32⟩ : BufTy).Contents (Elt F) → (⟨S1x256, .f32⟩ : BufTy).Contents (Elt F)),
    unary main_v12 main_v13 (broadcastInDim S4096x256 ![0, 1] bcast_S1x256_S4096x256_0_1 : (⟨S1x256, .f32⟩ : BufTy).Contents (Elt F) → (⟨S4096x256, .f32⟩ : BufTy).Contents (Elt F)),
    binary main_v9 main_v13 main_v14 (addf : (⟨S4096x256, .f32⟩ : BufTy).Contents (Elt F) → (⟨S4096x256, .f32⟩ : BufTy).Contents (Elt F) → (⟨S4096x256, .f32⟩ : BufTy).Contents (Elt F)),
    TRef.nullary main_call0.cst (constant S_ .f32 0x00000000#32),
    TRef.unary main_call0.cst main_call0.v0 (broadcastInDim S4096x256 ![] bcast_S_S4096x256),
    TRef.binary (.of main_v14 : TRef sig ⟨S4096x256, .f32⟩) main_call0.v0 main_call0.v1 (cmpf .ogt),
    TRef.nullary main_call0.cst_0 (constant S_ .f32 0x00000000#32),
    TRef.unary main_call0.cst_0 main_call0.v2 (broadcastInDim S4096x256 ![] bcast_S_S4096x256),
    TRef.binary (.of main_v14 : TRef sig ⟨S4096x256, .f32⟩) main_call0.v2 main_call0.v3 (cmpf .ogt),
    TRef.nullary main_call0.cst_1 (constant S_ .f32 0x00000000#32),
    TRef.unary main_call0.cst_1 main_call0_call0.v0 id,
    TRef.unary main_call0_call0.v0 main_call0_call0.v1 (broadcastInDim S4096x256 ![] bcast_S_S4096x256),
    TRef.ternary main_call0.v3 main_call0_call0.v1 (.of main_v14 : TRef sig ⟨S4096x256, .f32⟩) main_call0_call0.v2 select,
    TRef.unary main_call0.call0.v2 main_call0.v5 Host.expm1,
    TRef.nullary main_call0.cst_2 (constant S_ .f32 0x3F800000#32),
    TRef.unary main_call0.cst_2 main_call0.v6 (broadcastInDim S4096x256 ![] bcast_S_S4096x256),
    TRef.binary main_call0.v6 main_call0.v5 main_call0.v7 mulf,
    TRef.ternary main_call0.v1 (.of main_v14 : TRef sig ⟨S4096x256, .f32⟩) main_call0.v7 main_call0_call1.v0 select,
    unary main_arg4 main_v16 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v16 main_v17 rfl shapeCasts_S1x256x256_S256x256,
    binary main_v15 main_v17 main_v18 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg5 main_v19 ((extractStridedSlice S1x256 ![1, 0] · slices_S2x256_S1x256_1_0) : (⟨S2x256, .f32⟩ : BufTy).Contents (Elt F) → (⟨S1x256, .f32⟩ : BufTy).Contents (Elt F)),
    reshape main_v19 main_v20 rfl shapeCasts_S1x256_S256,
    unary main_v20 main_v21 (broadcastInDim S1x256 ![1] bcast_S256_S1x256_1 : (⟨S256, .f32⟩ : BufTy).Contents (Elt F) → (⟨S1x256, .f32⟩ : BufTy).Contents (Elt F)),
    unary main_v21 main_v22 (broadcastInDim S4096x256 ![0, 1] bcast_S1x256_S4096x256_0_1 : (⟨S1x256, .f32⟩ : BufTy).Contents (Elt F) → (⟨S4096x256, .f32⟩ : BufTy).Contents (Elt F)),
    binary main_v18 main_v22 main_v23 (addf : (⟨S4096x256, .f32⟩ : BufTy).Contents (Elt F) → (⟨S4096x256, .f32⟩ : BufTy).Contents (Elt F) → (⟨S4096x256, .f32⟩ : BufTy).Contents (Elt F)),
    TRef.nullary main_call1.cst (constant S_ .f32 0x00000000#32),
    TRef.unary main_call1.cst main_call1.v0 (broadcastInDim S4096x256 ![] bcast_S_S4096x256),
    TRef.binary (.of main_v23 : TRef sig ⟨S4096x256, .f32⟩) main_call1.v0 main_call1.v1 (cmpf .ogt),
    TRef.nullary main_call1.cst_0 (constant S_ .f32 0x00000000#32),
    TRef.unary main_call1.cst_0 main_call1.v2 (broadcastInDim S4096x256 ![] bcast_S_S4096x256),
    TRef.binary (.of main_v23 : TRef sig ⟨S4096x256, .f32⟩) main_call1.v2 main_call1.v3 (cmpf .ogt),
    TRef.nullary main_call1.cst_1 (constant S_ .f32 0x00000000#32),
    TRef.unary main_call1.cst_1 main_call1_call0.v0 id,
    TRef.unary main_call1_call0.v0 main_call1_call0.v1 (broadcastInDim S4096x256 ![] bcast_S_S4096x256),
    TRef.ternary main_call1.v3 main_call1_call0.v1 (.of main_v23 : TRef sig ⟨S4096x256, .f32⟩) main_call1_call0.v2 select,
    TRef.unary main_call1.call0.v2 main_call1.v5 Host.expm1,
    TRef.nullary main_call1.cst_2 (constant S_ .f32 0x3F800000#32),
    TRef.unary main_call1.cst_2 main_call1.v6 (broadcastInDim S4096x256 ![] bcast_S_S4096x256),
    TRef.binary main_call1.v6 main_call1.v5 main_call1.v7 mulf,
    TRef.ternary main_call1.v1 (.of main_v23 : TRef sig ⟨S4096x256, .f32⟩) main_call1.v7 main_call1_call1.v0 select ]

set_option maxRecDepth 8192 in
theorem stE_g0l0_writes : (stE_g0l0 : List (HloOp τ sig (Elt F))).Forall (WritesIn 28 74) := by
  unfold stE_g0l0
  exact
  ⟨writesIn_single main_v7 _ rfl (by decide) (by decide),
   writesIn_single main_v8 _ rfl (by decide) (by decide),
   writesIn_single main_v9 _ rfl (by decide) (by decide),
   writesIn_single main_v10 _ rfl (by decide) (by decide),
   writesIn_single main_v11 _ rfl (by decide) (by decide),
   writesIn_single main_v12 _ rfl (by decide) (by decide),
   writesIn_single main_v13 _ rfl (by decide) (by decide),
   writesIn_single main_v14 _ rfl (by decide) (by decide),
   writesIn_single main_call0_cst _ rfl (by decide) (by decide),
   writesIn_single main_call0_v0 _ rfl (by decide) (by decide),
   writesIn_single main_call0_v1 _ rfl (by decide) (by decide),
   writesIn_single main_call0_cst_0 _ rfl (by decide) (by decide),
   writesIn_single main_call0_v2 _ rfl (by decide) (by decide),
   writesIn_single main_call0_v3 _ rfl (by decide) (by decide),
   writesIn_single main_call0_cst_1 _ rfl (by decide) (by decide),
   writesIn_single main_call0_call0_v0 _ rfl (by decide) (by decide),
   writesIn_single main_call0_call0_v1 _ rfl (by decide) (by decide),
   writesIn_single main_call0_v4 _ rfl (by decide) (by decide),
   writesIn_single main_call0_v5 _ rfl (by decide) (by decide),
   writesIn_single main_call0_cst_2 _ rfl (by decide) (by decide),
   writesIn_single main_call0_v6 _ rfl (by decide) (by decide),
   writesIn_single main_call0_v7 _ rfl (by decide) (by decide),
   writesIn_single main_v15 _ rfl (by decide) (by decide),
   writesIn_single main_v16 _ rfl (by decide) (by decide),
   writesIn_single main_v17 _ rfl (by decide) (by decide),
   writesIn_single main_v18 _ rfl (by decide) (by decide),
   writesIn_single main_v19 _ rfl (by decide) (by decide),
   writesIn_single main_v20 _ rfl (by decide) (by decide),
   writesIn_single main_v21 _ rfl (by decide) (by decide),
   writesIn_single main_v22 _ rfl (by decide) (by decide),
   writesIn_single main_v23 _ rfl (by decide) (by decide),
   writesIn_single main_call1_cst _ rfl (by decide) (by decide),
   writesIn_single main_call1_v0 _ rfl (by decide) (by decide),
   writesIn_single main_call1_v1 _ rfl (by decide) (by decide),
   writesIn_single main_call1_cst_0 _ rfl (by decide) (by decide),
   writesIn_single main_call1_v2 _ rfl (by decide) (by decide),
   writesIn_single main_call1_v3 _ rfl (by decide) (by decide),
   writesIn_single main_call1_cst_1 _ rfl (by decide) (by decide),
   writesIn_single main_call1_call0_v0 _ rfl (by decide) (by decide),
   writesIn_single main_call1_call0_v1 _ rfl (by decide) (by decide),
   writesIn_single main_call1_v4 _ rfl (by decide) (by decide),
   writesIn_single main_call1_v5 _ rfl (by decide) (by decide),
   writesIn_single main_call1_cst_2 _ rfl (by decide) (by decide),
   writesIn_single main_call1_v6 _ rfl (by decide) (by decide),
   writesIn_single main_call1_v7 _ rfl (by decide) (by decide),
   writesIn_single main_v24 _ rfl (by decide) (by decide)⟩

/-- A buffer outside the stretch's range keeps its contents through it. -/
theorem stE_g0l0_keep (W : Valuation τ sig (Elt F)) (r : Ref sig .tc) (hr : r.idx.val < 28 ∨ 74 ≤ r.idx.val) :
    after stE_g0l0 W (no_index (Proc.devRef .tc r)) = W (Proc.devRef .tc r) :=
  after_keep stE_g0l0 W stE_g0l0_writes r hr

set_option maxRecDepth 8192 in
set_option maxHeartbeats 4000000 in
/-- After them the hidden features are the embedding of the layer's input. -/
theorem embed_g0l0 (W : Valuation τ sig (Elt F)) :
    after stE_g0l0 W (no_index (Proc.devRef .tc main_v24))
      = embedR (W (Proc.devRef .tc main_arg0)) (W (Proc.devRef .tc main_arg4)) (W (Proc.devRef .tc main_arg5)) := by
  simp only [stE_g0l0]
  after_results_simp
  rfl

/-- The aggregate's operations: the Gram matrix, its mean, the mask, plus the identity, times the input. -/
noncomputable def stA_g0l0 : List (HloOp τ sig (Elt F)) :=
  [ unary main_v24 main_v25 ((transpose S256x4096 [1, 0] · transposes_S4096x256_S256x4096_1_0) : (⟨S4096x256, .f32⟩ : BufTy).Contents (Elt F) → (⟨S256x4096, .f32⟩ : BufTy).Contents (Elt F)),
    binary main_v24 main_v25 main_v26 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_0 (constant S_ .f32 0x00000000#32),
    binary main_v26 main_cst_0 main_v27 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_1 (constant S_ .f32 0x4B800000#32),
    binary main_v27 main_cst_1 main_v28 (Host.divf : (⟨S_, .f32⟩ : BufTy).Contents (Elt F) → (⟨S_, .f32⟩ : BufTy).Contents (Elt F) → (⟨S_, .f32⟩ : BufTy).Contents (Elt F)),
    unary main_v28 main_v29 (broadcastInDim S4096x4096 ![] bcast_S_S4096x4096 : (⟨S_, .f32⟩ : BufTy).Contents (Elt F) → (⟨S4096x4096, .f32⟩ : BufTy).Contents (Elt F)),
    binary main_v26 main_v29 main_v30 (cmpf .ogt : (⟨S4096x4096, .f32⟩ : BufTy).Contents (Elt F) → (⟨S4096x4096, .f32⟩ : BufTy).Contents (Elt F) → (⟨S4096x4096, .i1⟩ : BufTy).Contents (Elt F)),
    unary main_v30 main_v31 (uitofp .f32 : (⟨S4096x4096, .i1⟩ : BufTy).Contents (Elt F) → (⟨S4096x4096, .f32⟩ : BufTy).Contents (Elt F)),
    nullary main_cst_2 (constant S_ .f32 0x3F800000#32),
    unary main_cst_2 main_v32 (broadcastInDim S4096x4096 ![] bcast_S_S4096x4096 : (⟨S_, .f32⟩ : BufTy).Contents (Elt F) → (⟨S4096x4096, .f32⟩ : BufTy).Contents (Elt F)),
    binary main_v32 main_v5 main_v33 (mulf : (⟨S4096x4096, .f32⟩ : BufTy).Contents (Elt F) → (⟨S4096x4096, .f32⟩ : BufTy).Contents (Elt F) → (⟨S4096x4096, .f32⟩ : BufTy).Contents (Elt F)),
    binary main_v31 main_v33 main_v34 (addf : (⟨S4096x4096, .f32⟩ : BufTy).Contents (Elt F) → (⟨S4096x4096, .f32⟩ : BufTy).Contents (Elt F) → (⟨S4096x4096, .f32⟩ : BufTy).Contents (Elt F)),
    binary main_v34 main_arg0 main_v35 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]

set_option maxRecDepth 8192 in
theorem stA_g0l0_writes : (stA_g0l0 : List (HloOp τ sig (Elt F))).Forall (WritesIn 74 88) := by
  unfold stA_g0l0
  exact
  ⟨writesIn_single main_v25 _ rfl (by decide) (by decide),
   writesIn_single main_v26 _ rfl (by decide) (by decide),
   writesIn_single main_cst_0 _ rfl (by decide) (by decide),
   writesIn_single main_v27 _ rfl (by decide) (by decide),
   writesIn_single main_cst_1 _ rfl (by decide) (by decide),
   writesIn_single main_v28 _ rfl (by decide) (by decide),
   writesIn_single main_v29 _ rfl (by decide) (by decide),
   writesIn_single main_v30 _ rfl (by decide) (by decide),
   writesIn_single main_v31 _ rfl (by decide) (by decide),
   writesIn_single main_cst_2 _ rfl (by decide) (by decide),
   writesIn_single main_v32 _ rfl (by decide) (by decide),
   writesIn_single main_v33 _ rfl (by decide) (by decide),
   writesIn_single main_v34 _ rfl (by decide) (by decide),
   writesIn_single main_v35 _ rfl (by decide) (by decide)⟩

/-- A buffer outside the stretch's range keeps its contents through it. -/
theorem stA_g0l0_keep (W : Valuation τ sig (Elt F)) (r : Ref sig .tc) (hr : r.idx.val < 74 ∨ 88 ≤ r.idx.val) :
    after stA_g0l0 W (no_index (Proc.devRef .tc r)) = W (Proc.devRef .tc r) :=
  after_keep stA_g0l0 W stA_g0l0_writes r hr

set_option maxRecDepth 8192 in
set_option maxHeartbeats 4000000 in
/-- After them: the aggregate of the hidden features and the layer's input over the identity matrix's buffer. -/
theorem agg_g0l0 (W : Valuation τ sig (Elt F)) :
    after stA_g0l0 W (no_index (Proc.devRef .tc main_v35))
      = aggF (W (Proc.devRef .tc main_v5)) (W (Proc.devRef .tc main_v24)) (W (Proc.devRef .tc main_arg0)) := by
  simp only [stA_g0l0]
  after_results_simp
  rfl

/-- The perceptron's operations (the layer's slices of the stacked parameters first) and the accumulation. -/
noncomputable def stM_g0l0 : List (HloOp τ sig (Elt F)) :=
  [ unary main_arg6 main_v36 ((extractStridedSlice S1x2x256x256 ![0, 0, 0, 0] · slices_S3x2x256x256_S1x2x256x256_0_0_0_0) : (⟨S3x2x256x256, .f32⟩ : BufTy).Contents (Elt F) → (⟨S1x2x256x256, .f32⟩ : BufTy).Contents (Elt F)),
    reshape main_v36 main_v37 rfl shapeCasts_S1x2x256x256_S2x256x256,
    unary main_arg7 main_v38 ((extractStridedSlice S1x2x256 ![0, 0, 0] · slices_S3x2x256_S1x2x256_0_0_0) : (⟨S3x2x256, .f32⟩ : BufTy).Contents (Elt F) → (⟨S1x2x256, .f32⟩ : BufTy).Contents (Elt F)),
    reshape main_v38 main_v39 rfl shapeCasts_S1x2x256_S2x256,
    unary main_arg8 main_v40 ((extractStridedSlice S1x2x256 ![0, 0, 0] · slices_S3x2x256_S1x2x256_0_0_0) : (⟨S3x2x256, .f32⟩ : BufTy).Contents (Elt F) → (⟨S1x2x256, .f32⟩ : BufTy).Contents (Elt F)),
    reshape main_v40 main_v41 rfl shapeCasts_S1x2x256_S2x256,
    unary main_v37 main_v42 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v42 main_v43 rfl shapeCasts_S1x256x256_S256x256,
    binary main_v35 main_v43 main_v44 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v39 main_v45 ((extractStridedSlice S1x256 ![0, 0] · slices_S2x256_S1x256_0_0) : (⟨S2x256, .f32⟩ : BufTy).Contents (Elt F) → (⟨S1x256, .f32⟩ : BufTy).Contents (Elt F)),
    reshape main_v45 main_v46 rfl shapeCasts_S1x256_S256,
    unary main_v46 main_v47 (broadcastInDim S1x256 ![1] bcast_S256_S1x256_1 : (⟨S256, .f32⟩ : BufTy).Contents (Elt F) → (⟨S1x256, .f32⟩ : BufTy).Contents (Elt F)),
    unary main_v47 main_v48 (broadcastInDim S4096x256 ![0, 1] bcast_S1x256_S4096x256_0_1 : (⟨S1x256, .f32⟩ : BufTy).Contents (Elt F) → (⟨S4096x256, .f32⟩ : BufTy).Contents (Elt F)),
    binary main_v44 main_v48 main_v49 (addf : (⟨S4096x256, .f32⟩ : BufTy).Contents (Elt F) → (⟨S4096x256, .f32⟩ : BufTy).Contents (Elt F) → (⟨S4096x256, .f32⟩ : BufTy).Contents (Elt F)),
    nullary main_cst_3 (constant S_ .f32 0x00000000#32),
    binary main_v49 main_cst_3 main_v50 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_4 (constant S_ .f32 0x45800000#32),
    unary main_cst_4 main_v51 (broadcastInDim S256 ![] bcast_S_S256 : (⟨S_, .f32⟩ : BufTy).Contents (Elt F) → (⟨S256, .f32⟩ : BufTy).Contents (Elt F)),
    binary main_v50 main_v51 main_v52 (Host.divf : (⟨S256, .f32⟩ : BufTy).Contents (Elt F) → (⟨S256, .f32⟩ : BufTy).Contents (Elt F) → (⟨S256, .f32⟩ : BufTy).Contents (Elt F)),
    nullary main_c_5 (constantI S_ 32 0#32),
    TRef.nullary main_call2.cst (constant S_ .f32 0x00000000#32),
    TRef.binary (.of main_v49 : TRef sig ⟨S4096x256, .f32⟩) main_call2.cst main_call2.v0 (fun x v => Host.reduceAdd x v reducesTo_S4096x256_S256_d0 h_S_),
    TRef.unary main_call2.v0 main_call2.v1 (broadcastInDim S1x256 ![1] bcast_S256_S1x256_1),
    TRef.nullary main_call2.cst_0 (constant S_ .f32 0x45800000#32),
    TRef.unary main_call2.cst_0 main_call2.v2 (broadcastInDim S1x256 ![] bcast_S_S1x256),
    TRef.binary main_call2.v1 main_call2.v2 main_call2.v3 Host.divf,
    TRef.unary main_call2.v3 main_call2.v4 (broadcastInDim S4096x256 ![0, 1] bcast_S1x256_S4096x256_0_1),
    TRef.binary (.of main_v49 : TRef sig ⟨S4096x256, .f32⟩) main_call2.v4 main_call2.v5 subf,
    TRef.binary main_call2.v5 main_call2.v5 main_call2.v6 mulf,
    TRef.unary (.of main_c_5 : TRef sig ⟨S_, .i32⟩) main_call2.v7 (sitofp .f32),
    TRef.nullary main_call2.cst_1 (constant S_ .f32 0x45800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S4096x256_S256_d0 h_S_),
    TRef.unary main_call2.v8 main_call2.v10 (broadcastInDim S256 ![] bcast_S_S256),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2_call0.v0 id,
    TRef.unary main_call2_call0.v0 main_call2_call0.v1 (broadcastInDim S256 ![] bcast_S_S256),
    TRef.ternary main_call2.v12 main_call2.v11 main_call2_call0.v1 main_call2_call0.v2 (fun p a b => select (broadcastInDim S256 ![] bcast_S_S256 p) a b),
    unary main_v52 main_v54 (broadcastInDim S1x256 ![1] bcast_S256_S1x256_1 : (⟨S256, .f32⟩ : BufTy).Contents (Elt F) → (⟨S1x256, .f32⟩ : BufTy).Contents (Elt F)),
    unary main_v54 main_v55 (broadcastInDim S4096x256 ![0, 1] bcast_S1x256_S4096x256_0_1 : (⟨S1x256, .f32⟩ : BufTy).Contents (Elt F) → (⟨S4096x256, .f32⟩ : BufTy).Contents (Elt F)),
    binary main_v49 main_v55 main_v56 (subf : (⟨S4096x256, .f32⟩ : BufTy).Contents (Elt F) → (⟨S4096x256, .f32⟩ : BufTy).Contents (Elt F) → (⟨S4096x256, .f32⟩ : BufTy).Contents (Elt F)),
    nullary main_cst_6 (constant S_ .f32 0x3727C5AC#32),
    unary main_cst_6 main_v57 (broadcastInDim S256 ![] bcast_S_S256 : (⟨S_, .f32⟩ : BufTy).Contents (Elt F) → (⟨S256, .f32⟩ : BufTy).Contents (Elt F)),
    binary main_v53 main_v57 main_v58 (addf : (⟨S256, .f32⟩ : BufTy).Contents (Elt F) → (⟨S256, .f32⟩ : BufTy).Contents (Elt F) → (⟨S256, .f32⟩ : BufTy).Contents (Elt F)),
    unary main_v58 main_v59 (Host.rsqrt : (⟨S256, .f32⟩ : BufTy).Contents (Elt F) → (⟨S256, .f32⟩ : BufTy).Contents (Elt F)),
    unary main_v59 main_v60 (broadcastInDim S1x256 ![1] bcast_S256_S1x256_1 : (⟨S256, .f32⟩ : BufTy).Contents (Elt F) → (⟨S1x256, .f32⟩ : BufTy).Contents (Elt F)),
    unary main_v60 main_v61 (broadcastInDim S4096x256 ![0, 1] bcast_S1x256_S4096x256_0_1 : (⟨S1x256, .f32⟩ : BufTy).Contents (Elt F) → (⟨S4096x256, .f32⟩ : BufTy).Contents (Elt F)),
    binary main_v56 main_v61 main_v62 (mulf : (⟨S4096x256, .f32⟩ : BufTy).Contents (Elt F) → (⟨S4096x256, .f32⟩ : BufTy).Contents (Elt F) → (⟨S4096x256, .f32⟩ : BufTy).Contents (Elt F)),
    unary main_v41 main_v63 ((extractStridedSlice S1x256 ![0, 0] · slices_S2x256_S1x256_0_0) : (⟨S2x256, .f32⟩ : BufTy).Contents (Elt F) → (⟨S1x256, .f32⟩ : BufTy).Contents (Elt F)),
    reshape main_v63 main_v64 rfl shapeCasts_S1x256_S256,
    unary main_v64 main_v65 (broadcastInDim S1x256 ![1] bcast_S256_S1x256_1 : (⟨S256, .f32⟩ : BufTy).Contents (Elt F) → (⟨S1x256, .f32⟩ : BufTy).Contents (Elt F)),
    unary main_v65 main_v66 (broadcastInDim S4096x256 ![0, 1] bcast_S1x256_S4096x256_0_1 : (⟨S1x256, .f32⟩ : BufTy).Contents (Elt F) → (⟨S4096x256, .f32⟩ : BufTy).Contents (Elt F)),
    binary main_v62 main_v66 main_v67 (mulf : (⟨S4096x256, .f32⟩ : BufTy).Contents (Elt F) → (⟨S4096x256, .f32⟩ : BufTy).Contents (Elt F) → (⟨S4096x256, .f32⟩ : BufTy).Contents (Elt F)),
    unary main_v41 main_v68 ((extractStridedSlice S1x256 ![1, 0] · slices_S2x256_S1x256_1_0) : (⟨S2x256, .f32⟩ : BufTy).Contents (Elt F) → (⟨S1x256, .f32⟩ : BufTy).Contents (Elt F)),
    reshape main_v68 main_v69 rfl shapeCasts_S1x256_S256,
    unary main_v69 main_v70 (broadcastInDim S1x256 ![1] bcast_S256_S1x256_1 : (⟨S256, .f32⟩ : BufTy).Contents (Elt F) → (⟨S1x256, .f32⟩ : BufTy).Contents (Elt F)),
    unary main_v70 main_v71 (broadcastInDim S4096x256 ![0, 1] bcast_S1x256_S4096x256_0_1 : (⟨S1x256, .f32⟩ : BufTy).Contents (Elt F) → (⟨S4096x256, .f32⟩ : BufTy).Contents (Elt F)),
    binary main_v67 main_v71 main_v72 (addf : (⟨S4096x256, .f32⟩ : BufTy).Contents (Elt F) → (⟨S4096x256, .f32⟩ : BufTy).Contents (Elt F) → (⟨S4096x256, .f32⟩ : BufTy).Contents (Elt F)),
    TRef.nullary main_call3.cst (constant S_ .f32 0x00000000#32),
    TRef.unary main_call3.cst main_call3.v0 (broadcastInDim S4096x256 ![] bcast_S_S4096x256),
    TRef.binary (.of main_v72 : TRef sig ⟨S4096x256, .f32⟩) main_call3.v0 main_call3.v1 maximumf,
    unary main_v37 main_v74 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v74 main_v75 rfl shapeCasts_S1x256x256_S256x256,
    binary main_v73 main_v75 main_v76 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v39 main_v77 ((extractStridedSlice S1x256 ![1, 0] · slices_S2x256_S1x256_1_0) : (⟨S2x256, .f32⟩ : BufTy).Contents (Elt F) → (⟨S1x256, .f32⟩ : BufTy).Contents (Elt F)),
    reshape main_v77 main_v78 rfl shapeCasts_S1x256_S256,
    unary main_v78 main_v79 (broadcastInDim S1x256 ![1] bcast_S256_S1x256_1 : (⟨S256, .f32⟩ : BufTy).Contents (Elt F) → (⟨S1x256, .f32⟩ : BufTy).Contents (Elt F)),
    unary main_v79 main_v80 (broadcastInDim S4096x256 ![0, 1] bcast_S1x256_S4096x256_0_1 : (⟨S1x256, .f32⟩ : BufTy).Contents (Elt F) → (⟨S4096x256, .f32⟩ : BufTy).Contents (Elt F)),
    binary main_v76 main_v80 main_v81 (addf : (⟨S4096x256, .f32⟩ : BufTy).Contents (Elt F) → (⟨S4096x256, .f32⟩ : BufTy).Contents (Elt F) → (⟨S4096x256, .f32⟩ : BufTy).Contents (Elt F)),
    binary main_v6 main_v81 main_v82 (addf : (⟨S4096x256, .f32⟩ : BufTy).Contents (Elt F) → (⟨S4096x256, .f32⟩ : BufTy).Contents (Elt F) → (⟨S4096x256, .f32⟩ : BufTy).Contents (Elt F)) ]

set_option maxRecDepth 8192 in
theorem stM_g0l0_writes : (stM_g0l0 : List (HloOp τ sig (Elt F))).Forall (WritesIn 88 162) := by
  unfold stM_g0l0
  exact
  ⟨writesIn_single main_v36 _ rfl (by decide) (by decide),
   writesIn_single main_v37 _ rfl (by decide) (by decide),
   writesIn_single main_v38 _ rfl (by decide) (by decide),
   writesIn_single main_v39 _ rfl (by decide) (by decide),
   writesIn_single main_v40 _ rfl (by decide) (by decide),
   writesIn_single main_v41 _ rfl (by decide) (by decide),
   writesIn_single main_v42 _ rfl (by decide) (by decide),
   writesIn_single main_v43 _ rfl (by decide) (by decide),
   writesIn_single main_v44 _ rfl (by decide) (by decide),
   writesIn_single main_v45 _ rfl (by decide) (by decide),
   writesIn_single main_v46 _ rfl (by decide) (by decide),
   writesIn_single main_v47 _ rfl (by decide) (by decide),
   writesIn_single main_v48 _ rfl (by decide) (by decide),
   writesIn_single main_v49 _ rfl (by decide) (by decide),
   writesIn_single main_cst_3 _ rfl (by decide) (by decide),
   writesIn_single main_v50 _ rfl (by decide) (by decide),
   writesIn_single main_cst_4 _ rfl (by decide) (by decide),
   writesIn_single main_v51 _ rfl (by decide) (by decide),
   writesIn_single main_v52 _ rfl (by decide) (by decide),
   writesIn_single main_c_5 _ rfl (by decide) (by decide),
   writesIn_single main_call2_cst _ rfl (by decide) (by decide),
   writesIn_single main_call2_v0 _ rfl (by decide) (by decide),
   writesIn_single main_call2_v1 _ rfl (by decide) (by decide),
   writesIn_single main_call2_cst_0 _ rfl (by decide) (by decide),
   writesIn_single main_call2_v2 _ rfl (by decide) (by decide),
   writesIn_single main_call2_v3 _ rfl (by decide) (by decide),
   writesIn_single main_call2_v4 _ rfl (by decide) (by decide),
   writesIn_single main_call2_v5 _ rfl (by decide) (by decide),
   writesIn_single main_call2_v6 _ rfl (by decide) (by decide),
   writesIn_single main_call2_v7 _ rfl (by decide) (by decide),
   writesIn_single main_call2_cst_1 _ rfl (by decide) (by decide),
   writesIn_single main_call2_v8 _ rfl (by decide) (by decide),
   writesIn_single main_call2_cst_2 _ rfl (by decide) (by decide),
   writesIn_single main_call2_v9 _ rfl (by decide) (by decide),
   writesIn_single main_call2_v10 _ rfl (by decide) (by decide),
   writesIn_single main_call2_v11 _ rfl (by decide) (by decide),
   writesIn_single main_call2_cst_3 _ rfl (by decide) (by decide),
   writesIn_single main_call2_v12 _ rfl (by decide) (by decide),
   writesIn_single main_call2_cst_4 _ rfl (by decide) (by decide),
   writesIn_single main_call2_call0_v0 _ rfl (by decide) (by decide),
   writesIn_single main_call2_call0_v1 _ rfl (by decide) (by decide),
   writesIn_single main_v53 _ rfl (by decide) (by decide),
   writesIn_single main_v54 _ rfl (by decide) (by decide),
   writesIn_single main_v55 _ rfl (by decide) (by decide),
   writesIn_single main_v56 _ rfl (by decide) (by decide),
   writesIn_single main_cst_6 _ rfl (by decide) (by decide),
   writesIn_single main_v57 _ rfl (by decide) (by decide),
   writesIn_single main_v58 _ rfl (by decide) (by decide),
   writesIn_single main_v59 _ rfl (by decide) (by decide),
   writesIn_single main_v60 _ rfl (by decide) (by decide),
   writesIn_single main_v61 _ rfl (by decide) (by decide),
   writesIn_single main_v62 _ rfl (by decide) (by decide),
   writesIn_single main_v63 _ rfl (by decide) (by decide),
   writesIn_single main_v64 _ rfl (by decide) (by decide),
   writesIn_single main_v65 _ rfl (by decide) (by decide),
   writesIn_single main_v66 _ rfl (by decide) (by decide),
   writesIn_single main_v67 _ rfl (by decide) (by decide),
   writesIn_single main_v68 _ rfl (by decide) (by decide),
   writesIn_single main_v69 _ rfl (by decide) (by decide),
   writesIn_single main_v70 _ rfl (by decide) (by decide),
   writesIn_single main_v71 _ rfl (by decide) (by decide),
   writesIn_single main_v72 _ rfl (by decide) (by decide),
   writesIn_single main_call3_cst _ rfl (by decide) (by decide),
   writesIn_single main_call3_v0 _ rfl (by decide) (by decide),
   writesIn_single main_v73 _ rfl (by decide) (by decide),
   writesIn_single main_v74 _ rfl (by decide) (by decide),
   writesIn_single main_v75 _ rfl (by decide) (by decide),
   writesIn_single main_v76 _ rfl (by decide) (by decide),
   writesIn_single main_v77 _ rfl (by decide) (by decide),
   writesIn_single main_v78 _ rfl (by decide) (by decide),
   writesIn_single main_v79 _ rfl (by decide) (by decide),
   writesIn_single main_v80 _ rfl (by decide) (by decide),
   writesIn_single main_v81 _ rfl (by decide) (by decide),
   writesIn_single main_v82 _ rfl (by decide) (by decide)⟩

/-- A buffer outside the stretch's range keeps its contents through it. -/
theorem stM_g0l0_keep (W : Valuation τ sig (Elt F)) (r : Ref sig .tc) (hr : r.idx.val < 88 ∨ 162 ≤ r.idx.val) :
    after stM_g0l0 W (no_index (Proc.devRef .tc r)) = W (Proc.devRef .tc r) :=
  after_keep stM_g0l0 W stM_g0l0_writes r hr

set_option maxRecDepth 8192 in
set_option maxHeartbeats 4000000 in
/-- After them the layer's output is the perceptron of the aggregate. -/
theorem mlp_g0l0 (W : Valuation τ sig (Elt F)) :
    after stM_g0l0 W (no_index (Proc.devRef .tc main_v81))
      = mlpR (W (Proc.devRef .tc main_v35)) (sliceW0 (W (Proc.devRef .tc main_arg6))) (sliceB0 (W (Proc.devRef .tc main_arg7))) (sliceB0 (W (Proc.devRef .tc main_arg8))) := by
  simp only [stM_g0l0]
  after_results_simp
  rfl

set_option maxRecDepth 8192 in
set_option maxHeartbeats 4000000 in
/-- And the accumulator is the previous sum plus the layer's output. -/
theorem acc_g0l0 (W : Valuation τ sig (Elt F)) :
    after stM_g0l0 W (no_index (Proc.devRef .tc main_v82))
      = addf (W (Proc.devRef .tc main_v6))
          (mlpR (W (Proc.devRef .tc main_v35)) (sliceW0 (W (Proc.devRef .tc main_arg6))) (sliceB0 (W (Proc.devRef .tc main_arg7))) (sliceB0 (W (Proc.devRef .tc main_arg8)))) := by
  simp only [stM_g0l0]
  after_results_simp
  rfl

end Cert.ReferenceIdeal.Hand

end
-- ==== Proof.RefValL_g0l1.lean ====
/-
  One GIN layer of the reference, read back: the layer's operations in three stretches — the embedding of the layer's
  input (46 operations), the aggregate (14), the perceptron with the accumulation (74) — and, for any contents W
  before a stretch, what the stretch leaves at the buffers later stretches read, as the stage functions of
  RefFns applied to W at the buffers the stretch reads. Every other buffer keeps what it held.
-/
import proofs.«169706_j68856915690108_1_alg».proof.Proof.Gen.ReferenceIdeal
import proofs.«169706_j68856915690108_1_alg».proof.Proof.RefLib
import proofs.«169706_j68856915690108_1_alg».proof.Proof.RefFns
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The embedding's operations: two dense layers, each followed by ELU. -/
noncomputable def stE_g0l1 : List (HloOp τ sig (Elt F)) :=
  [ unary main_arg4 main_v83 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v83 main_v84 rfl shapeCasts_S1x256x256_S256x256,
    binary main_v81 main_v84 main_v85 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg5 main_v86 ((extractStridedSlice S1x256 ![0, 0] · slices_S2x256_S1x256_0_0) : (⟨S2x256, .f32⟩ : BufTy).Contents (Elt F) → (⟨S1x256, .f32⟩ : BufTy).Contents (Elt F)),
    reshape main_v86 main_v87 rfl shapeCasts_S1x256_S256,
    unary main_v87 main_v88 (broadcastInDim S1x256 ![1] bcast_S256_S1x256_1 : (⟨S256, .f32⟩ : BufTy).Contents (Elt F) → (⟨S1x256, .f32⟩ : BufTy).Contents (Elt F)),
    unary main_v88 main_v89 (broadcastInDim S4096x256 ![0, 1] bcast_S1x256_S4096x256_0_1 : (⟨S1x256, .f32⟩ : BufTy).Contents (Elt F) → (⟨S4096x256, .f32⟩ : BufTy).Contents (Elt F)),
    binary main_v85 main_v89 main_v90 (addf : (⟨S4096x256, .f32⟩ : BufTy).Contents (Elt F) → (⟨S4096x256, .f32⟩ : BufTy).Contents (Elt F) → (⟨S4096x256, .f32⟩ : BufTy).Contents (Elt F)),
    TRef.nullary main_call4.cst (constant S_ .f32 0x00000000#32),
    TRef.unary main_call4.cst main_call4.v0 (broadcastInDim S4096x256 ![] bcast_S_S4096x256),
    TRef.binary (.of main_v90 : TRef sig ⟨S4096x256, .f32⟩) main_call4.v0 main_call4.v1 (cmpf .ogt),
    TRef.nullary main_call4.cst_0 (constant S_ .f32 0x00000000#32),
    TRef.unary main_call4.cst_0 main_call4.v2 (broadcastInDim S4096x256 ![] bcast_S_S4096x256),
    TRef.binary (.of main_v90 : TRef sig ⟨S4096x256, .f32⟩) main_call4.v2 main_call4.v3 (cmpf .ogt),
    TRef.nullary main_call4.cst_1 (constant S_ .f32 0x00000000#32),
    TRef.unary main_call4.cst_1 main_call4_call0.v0 id,
    TRef.unary main_call4_call0.v0 main_call4_call0.v1 (broadcastInDim S4096x256 ![] bcast_S_S4096x256),
    TRef.ternary main_call4.v3 main_call4_call0.v1 (.of main_v90 : TRef sig ⟨S4096x256, .f32⟩) main_call4_call0.v2 select,
    TRef.unary main_call4.call0.v2 main_call4.v5 Host.expm1,
    TRef.nullary main_call4.cst_2 (constant S_ .f32 0x3F800000#32),
    TRef.unary main_call4.cst_2 main_call4.v6 (broadcastInDim S4096x256 ![] bcast_S_S4096x256),
    TRef.binary main_call4.v6 main_call4.v5 main_call4.v7 mulf,
    TRef.ternary main_call4.v1 (.of main_v90 : TRef sig ⟨S4096x256, .f32⟩) main_call4.v7 main_call4_call1.v0 select,
    unary main_arg4 main_v92 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v92 main_v93 rfl shapeCasts_S1x256x256_S256x256,
    binary main_v91 main_v93 main_v94 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg5 main_v95 ((extractStridedSlice S1x256 ![1, 0] · slices_S2x256_S1x256_1_0) : (⟨S2x256, .f32⟩ : BufTy).Contents (Elt F) → (⟨S1x256, .f32⟩ : BufTy).Contents (Elt F)),
    reshape main_v95 main_v96 rfl shapeCasts_S1x256_S256,
    unary main_v96 main_v97 (broadcastInDim S1x256 ![1] bcast_S256_S1x256_1 : (⟨S256, .f32⟩ : BufTy).Contents (Elt F) → (⟨S1x256, .f32⟩ : BufTy).Contents (Elt F)),
    unary main_v97 main_v98 (broadcastInDim S4096x256 ![0, 1] bcast_S1x256_S4096x256_0_1 : (⟨S1x256, .f32⟩ : BufTy).Contents (Elt F) → (⟨S4096x256, .f32⟩ : BufTy).Contents (Elt F)),
    binary main_v94 main_v98 main_v99 (addf : (⟨S4096x256, .f32⟩ : BufTy).Contents (Elt F) → (⟨S4096x256, .f32⟩ : BufTy).Contents (Elt F) → (⟨S4096x256, .f32⟩ : BufTy).Contents (Elt F)),
    TRef.nullary main_call5.cst (constant S_ .f32 0x00000000#32),
    TRef.unary main_call5.cst main_call5.v0 (broadcastInDim S4096x256 ![] bcast_S_S4096x256),
    TRef.binary (.of main_v99 : TRef sig ⟨S4096x256, .f32⟩) main_call5.v0 main_call5.v1 (cmpf .ogt),
    TRef.nullary main_call5.cst_0 (constant S_ .f32 0x00000000#32),
    TRef.unary main_call5.cst_0 main_call5.v2 (broadcastInDim S4096x256 ![] bcast_S_S4096x256),
    TRef.binary (.of main_v99 : TRef sig ⟨S4096x256, .f32⟩) main_call5.v2 main_call5.v3 (cmpf .ogt),
    TRef.nullary main_call5.cst_1 (constant S_ .f32 0x00000000#32),
    TRef.unary main_call5.cst_1 main_call5_call0.v0 id,
    TRef.unary main_call5_call0.v0 main_call5_call0.v1 (broadcastInDim S4096x256 ![] bcast_S_S4096x256),
    TRef.ternary main_call5.v3 main_call5_call0.v1 (.of main_v99 : TRef sig ⟨S4096x256, .f32⟩) main_call5_call0.v2 select,
    TRef.unary main_call5.call0.v2 main_call5.v5 Host.expm1,
    TRef.nullary main_call5.cst_2 (constant S_ .f32 0x3F800000#32),
    TRef.unary main_call5.cst_2 main_call5.v6 (broadcastInDim S4096x256 ![] bcast_S_S4096x256),
    TRef.binary main_call5.v6 main_call5.v5 main_call5.v7 mulf,
    TRef.ternary main_call5.v1 (.of main_v99 : TRef sig ⟨S4096x256, .f32⟩) main_call5.v7 main_call5_call1.v0 select ]

set_option maxRecDepth 8192 in
theorem stE_g0l1_writes : (stE_g0l1 : List (HloOp τ sig (Elt F))).Forall (WritesIn 162 208) := by
  unfold stE_g0l1
  exact
  ⟨writesIn_single main_v83 _ rfl (by decide) (by decide),
   writesIn_single main_v84 _ rfl (by decide) (by decide),
   writesIn_single main_v85 _ rfl (by decide) (by decide),
   writesIn_single main_v86 _ rfl (by decide) (by decide),
   writesIn_single main_v87 _ rfl (by decide) (by decide),
   writesIn_single main_v88 _ rfl (by decide) (by decide),
   writesIn_single main_v89 _ rfl (by decide) (by decide),
   writesIn_single main_v90 _ rfl (by decide) (by decide),
   writesIn_single main_call4_cst _ rfl (by decide) (by decide),
   writesIn_single main_call4_v0 _ rfl (by decide) (by decide),
   writesIn_single main_call4_v1 _ rfl (by decide) (by decide),
   writesIn_single main_call4_cst_0 _ rfl (by decide) (by decide),
   writesIn_single main_call4_v2 _ rfl (by decide) (by decide),
   writesIn_single main_call4_v3 _ rfl (by decide) (by decide),
   writesIn_single main_call4_cst_1 _ rfl (by decide) (by decide),
   writesIn_single main_call4_call0_v0 _ rfl (by decide) (by decide),
   writesIn_single main_call4_call0_v1 _ rfl (by decide) (by decide),
   writesIn_single main_call4_v4 _ rfl (by decide) (by decide),
   writesIn_single main_call4_v5 _ rfl (by decide) (by decide),
   writesIn_single main_call4_cst_2 _ rfl (by decide) (by decide),
   writesIn_single main_call4_v6 _ rfl (by decide) (by decide),
   writesIn_single main_call4_v7 _ rfl (by decide) (by decide),
   writesIn_single main_v91 _ rfl (by decide) (by decide),
   writesIn_single main_v92 _ rfl (by decide) (by decide),
   writesIn_single main_v93 _ rfl (by decide) (by decide),
   writesIn_single main_v94 _ rfl (by decide) (by decide),
   writesIn_single main_v95 _ rfl (by decide) (by decide),
   writesIn_single main_v96 _ rfl (by decide) (by decide),
   writesIn_single main_v97 _ rfl (by decide) (by decide),
   writesIn_single main_v98 _ rfl (by decide) (by decide),
   writesIn_single main_v99 _ rfl (by decide) (by decide),
   writesIn_single main_call5_cst _ rfl (by decide) (by decide),
   writesIn_single main_call5_v0 _ rfl (by decide) (by decide),
   writesIn_single main_call5_v1 _ rfl (by decide) (by decide),
   writesIn_single main_call5_cst_0 _ rfl (by decide) (by decide),
   writesIn_single main_call5_v2 _ rfl (by decide) (by decide),
   writesIn_single main_call5_v3 _ rfl (by decide) (by decide),
   writesIn_single main_call5_cst_1 _ rfl (by decide) (by decide),
   writesIn_single main_call5_call0_v0 _ rfl (by decide) (by decide),
   writesIn_single main_call5_call0_v1 _ rfl (by decide) (by decide),
   writesIn_single main_call5_v4 _ rfl (by decide) (by decide),
   writesIn_single main_call5_v5 _ rfl (by decide) (by decide),
   writesIn_single main_call5_cst_2 _ rfl (by decide) (by decide),
   writesIn_single main_call5_v6 _ rfl (by decide) (by decide),
   writesIn_single main_call5_v7 _ rfl (by decide) (by decide),
   writesIn_single main_v100 _ rfl (by decide) (by decide)⟩

/-- A buffer outside the stretch's range keeps its contents through it. -/
theorem stE_g0l1_keep (W : Valuation τ sig (Elt F)) (r : Ref sig .tc) (hr : r.idx.val < 162 ∨ 208 ≤ r.idx.val) :
    after stE_g0l1 W (no_index (Proc.devRef .tc r)) = W (Proc.devRef .tc r) :=
  after_keep stE_g0l1 W stE_g0l1_writes r hr

set_option maxRecDepth 8192 in
set_option maxHeartbeats 4000000 in
/-- After them the hidden features are the embedding of the layer's input. -/
theorem embed_g0l1 (W : Valuation τ sig (Elt F)) :
    after stE_g0l1 W (no_index (Proc.devRef .tc main_v100))
      = embedR (W (Proc.devRef .tc main_v81)) (W (Proc.devRef .tc main_arg4)) (W (Proc.devRef .tc main_arg5)) := by
  simp only [stE_g0l1]
  after_results_simp
  rfl

/-- The aggregate's operations: the Gram matrix, its mean, the mask, plus the identity, times the input. -/
noncomputable def stA_g0l1 : List (HloOp τ sig (Elt F)) :=
  [ unary main_v100 main_v101 ((transpose S256x4096 [1, 0] · transposes_S4096x256_S256x4096_1_0) : (⟨S4096x256, .f32⟩ : BufTy).Contents (Elt F) → (⟨S256x4096, .f32⟩ : BufTy).Contents (Elt F)),
    binary main_v100 main_v101 main_v102 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_7 (constant S_ .f32 0x00000000#32),
    binary main_v102 main_cst_7 main_v103 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_8 (constant S_ .f32 0x4B800000#32),
    binary main_v103 main_cst_8 main_v104 (Host.divf : (⟨S_, .f32⟩ : BufTy).Contents (Elt F) → (⟨S_, .f32⟩ : BufTy).Contents (Elt F) → (⟨S_, .f32⟩ : BufTy).Contents (Elt F)),
    unary main_v104 main_v105 (broadcastInDim S4096x4096 ![] bcast_S_S4096x4096 : (⟨S_, .f32⟩ : BufTy).Contents (Elt F) → (⟨S4096x4096, .f32⟩ : BufTy).Contents (Elt F)),
    binary main_v102 main_v105 main_v106 (cmpf .ogt : (⟨S4096x4096, .f32⟩ : BufTy).Contents (Elt F) → (⟨S4096x4096, .f32⟩ : BufTy).Contents (Elt F) → (⟨S4096x4096, .i1⟩ : BufTy).Contents (Elt F)),
    unary main_v106 main_v107 (uitofp .f32 : (⟨S4096x4096, .i1⟩ : BufTy).Contents (Elt F) → (⟨S4096x4096, .f32⟩ : BufTy).Contents (Elt F)),
    nullary main_cst_9 (constant S_ .f32 0x3F800000#32),
    unary main_cst_9 main_v108 (broadcastInDim S4096x4096 ![] bcast_S_S4096x4096 : (⟨S_, .f32⟩ : BufTy).Contents (Elt F) → (⟨S4096x4096, .f32⟩ : BufTy).Contents (Elt F)),
    binary main_v108 main_v5 main_v109 (mulf : (⟨S4096x4096, .f32⟩ : BufTy).Contents (Elt F) → (⟨S4096x4096, .f32⟩ : BufTy).Contents (Elt F) → (⟨S4096x4096, .f32⟩ : BufTy).Contents (Elt F)),
    binary main_v107 main_v109 main_v110 (addf : (⟨S4096x4096, .f32⟩ : BufTy).Contents (Elt F) → (⟨S4096x4096, .f32⟩ : BufTy).Contents (Elt F) → (⟨S4096x4096, .f32⟩ : BufTy).Contents (Elt F)),
    binary main_v110 main_v81 main_v111 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]

set_option maxRecDepth 8192 in
theorem stA_g0l1_writes : (stA_g0l1 : List (HloOp τ sig (Elt F))).Forall (WritesIn 208 222) := by
  unfold stA_g0l1
  exact
  ⟨writesIn_single main_v101 _ rfl (by decide) (by decide),
   writesIn_single main_v102 _ rfl (by decide) (by decide),
   writesIn_single main_cst_7 _ rfl (by decide) (by decide),
   writesIn_single main_v103 _ rfl (by decide) (by decide),
   writesIn_single main_cst_8 _ rfl (by decide) (by decide),
   writesIn_single main_v104 _ rfl (by decide) (by decide),
   writesIn_single main_v105 _ rfl (by decide) (by decide),
   writesIn_single main_v106 _ rfl (by decide) (by decide),
   writesIn_single main_v107 _ rfl (by decide) (by decide),
   writesIn_single main_cst_9 _ rfl (by decide) (by decide),
   writesIn_single main_v108 _ rfl (by decide) (by decide),
   writesIn_single main_v109 _ rfl (by decide) (by decide),
   writesIn_single main_v110 _ rfl (by decide) (by decide),
   writesIn_single main_v111 _ rfl (by decide) (by decide)⟩

/-- A buffer outside the stretch's range keeps its contents through it. -/
theorem stA_g0l1_keep (W : Valuation τ sig (Elt F)) (r : Ref sig .tc) (hr : r.idx.val < 208 ∨ 222 ≤ r.idx.val) :
    after stA_g0l1 W (no_index (Proc.devRef .tc r)) = W (Proc.devRef .tc r) :=
  after_keep stA_g0l1 W stA_g0l1_writes r hr

set_option maxRecDepth 8192 in
set_option maxHeartbeats 4000000 in
/-- After them: the aggregate of the hidden features and the layer's input over the identity matrix's buffer. -/
theorem agg_g0l1 (W : Valuation τ sig (Elt F)) :
    after stA_g0l1 W (no_index (Proc.devRef .tc main_v111))
      = aggF (W (Proc.devRef .tc main_v5)) (W (Proc.devRef .tc main_v100)) (W (Proc.devRef .tc main_v81)) := by
  simp only [stA_g0l1]
  after_results_simp
  rfl

/-- The perceptron's operations (the layer's slices of the stacked parameters first) and the accumulation. -/
noncomputable def stM_g0l1 : List (HloOp τ sig (Elt F)) :=
  [ unary main_arg6 main_v112 ((extractStridedSlice S1x2x256x256 ![1, 0, 0, 0] · slices_S3x2x256x256_S1x2x256x256_1_0_0_0) : (⟨S3x2x256x256, .f32⟩ : BufTy).Contents (Elt F) → (⟨S1x2x256x256, .f32⟩ : BufTy).Contents (Elt F)),
    reshape main_v112 main_v113 rfl shapeCasts_S1x2x256x256_S2x256x256,
    unary main_arg7 main_v114 ((extractStridedSlice S1x2x256 ![1, 0, 0] · slices_S3x2x256_S1x2x256_1_0_0) : (⟨S3x2x256, .f32⟩ : BufTy).Contents (Elt F) → (⟨S1x2x256, .f32⟩ : BufTy).Contents (Elt F)),
    reshape main_v114 main_v115 rfl shapeCasts_S1x2x256_S2x256,
    unary main_arg8 main_v116 ((extractStridedSlice S1x2x256 ![1, 0, 0] · slices_S3x2x256_S1x2x256_1_0_0) : (⟨S3x2x256, .f32⟩ : BufTy).Contents (Elt F) → (⟨S1x2x256, .f32⟩ : BufTy).Contents (Elt F)),
    reshape main_v116 main_v117 rfl shapeCasts_S1x2x256_S2x256,
    unary main_v113 main_v118 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v118 main_v119 rfl shapeCasts_S1x256x256_S256x256,
    binary main_v111 main_v119 main_v120 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v115 main_v121 ((extractStridedSlice S1x256 ![0, 0] · slices_S2x256_S1x256_0_0) : (⟨S2x256, .f32⟩ : BufTy).Contents (Elt F) → (⟨S1x256, .f32⟩ : BufTy).Contents (Elt F)),
    reshape main_v121 main_v122 rfl shapeCasts_S1x256_S256,
    unary main_v122 main_v123 (broadcastInDim S1x256 ![1] bcast_S256_S1x256_1 : (⟨S256, .f32⟩ : BufTy).Contents (Elt F) → (⟨S1x256, .f32⟩ : BufTy).Contents (Elt F)),
    unary main_v123 main_v124 (broadcastInDim S4096x256 ![0, 1] bcast_S1x256_S4096x256_0_1 : (⟨S1x256, .f32⟩ : BufTy).Contents (Elt F) → (⟨S4096x256, .f32⟩ : BufTy).Contents (Elt F)),
    binary main_v120 main_v124 main_v125 (addf : (⟨S4096x256, .f32⟩ : BufTy).Contents (Elt F) → (⟨S4096x256, .f32⟩ : BufTy).Contents (Elt F) → (⟨S4096x256, .f32⟩ : BufTy).Contents (Elt F)),
    nullary main_cst_10 (constant S_ .f32 0x00000000#32),
    binary main_v125 main_cst_10 main_v126 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_11 (constant S_ .f32 0x45800000#32),
    unary main_cst_11 main_v127 (broadcastInDim S256 ![] bcast_S_S256 : (⟨S_, .f32⟩ : BufTy).Contents (Elt F) → (⟨S256, .f32⟩ : BufTy).Contents (Elt F)),
    binary main_v126 main_v127 main_v128 (Host.divf : (⟨S256, .f32⟩ : BufTy).Contents (Elt F) → (⟨S256, .f32⟩ : BufTy).Contents (Elt F) → (⟨S256, .f32⟩ : BufTy).Contents (Elt F)),
    nullary main_c_12 (constantI S_ 32 0#32),
    TRef.nullary main_call6.cst (constant S_ .f32 0x00000000#32),
    TRef.binary (.of main_v125 : TRef sig ⟨S4096x256, .f32⟩) main_call6.cst main_call6.v0 (fun x v => Host.reduceAdd x v reducesTo_S4096x256_S256_d0 h_S_),
    TRef.unary main_call6.v0 main_call6.v1 (broadcastInDim S1x256 ![1] bcast_S256_S1x256_1),
    TRef.nullary main_call6.cst_0 (constant S_ .f32 0x45800000#32),
    TRef.unary main_call6.cst_0 main_call6.v2 (broadcastInDim S1x256 ![] bcast_S_S1x256),
    TRef.binary main_call6.v1 main_call6.v2 main_call6.v3 Host.divf,
    TRef.unary main_call6.v3 main_call6.v4 (broadcastInDim S4096x256 ![0, 1] bcast_S1x256_S4096x256_0_1),
    TRef.binary (.of main_v125 : TRef sig ⟨S4096x256, .f32⟩) main_call6.v4 main_call6.v5 subf,
    TRef.binary main_call6.v5 main_call6.v5 main_call6.v6 mulf,
    TRef.unary (.of main_c_12 : TRef sig ⟨S_, .i32⟩) main_call6.v7 (sitofp .f32),
    TRef.nullary main_call6.cst_1 (constant S_ .f32 0x45800000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S4096x256_S256_d0 h_S_),
    TRef.unary main_call6.v8 main_call6.v10 (broadcastInDim S256 ![] bcast_S_S256),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6_call0.v0 id,
    TRef.unary main_call6_call0.v0 main_call6_call0.v1 (broadcastInDim S256 ![] bcast_S_S256),
    TRef.ternary main_call6.v12 main_call6.v11 main_call6_call0.v1 main_call6_call0.v2 (fun p a b => select (broadcastInDim S256 ![] bcast_S_S256 p) a b),
    unary main_v128 main_v130 (broadcastInDim S1x256 ![1] bcast_S256_S1x256_1 : (⟨S256, .f32⟩ : BufTy).Contents (Elt F) → (⟨S1x256, .f32⟩ : BufTy).Contents (Elt F)),
    unary main_v130 main_v131 (broadcastInDim S4096x256 ![0, 1] bcast_S1x256_S4096x256_0_1 : (⟨S1x256, .f32⟩ : BufTy).Contents (Elt F) → (⟨S4096x256, .f32⟩ : BufTy).Contents (Elt F)),
    binary main_v125 main_v131 main_v132 (subf : (⟨S4096x256, .f32⟩ : BufTy).Contents (Elt F) → (⟨S4096x256, .f32⟩ : BufTy).Contents (Elt F) → (⟨S4096x256, .f32⟩ : BufTy).Contents (Elt F)),
    nullary main_cst_13 (constant S_ .f32 0x3727C5AC#32),
    unary main_cst_13 main_v133 (broadcastInDim S256 ![] bcast_S_S256 : (⟨S_, .f32⟩ : BufTy).Contents (Elt F) → (⟨S256, .f32⟩ : BufTy).Contents (Elt F)),
    binary main_v129 main_v133 main_v134 (addf : (⟨S256, .f32⟩ : BufTy).Contents (Elt F) → (⟨S256, .f32⟩ : BufTy).Contents (Elt F) → (⟨S256, .f32⟩ : BufTy).Contents (Elt F)),
    unary main_v134 main_v135 (Host.rsqrt : (⟨S256, .f32⟩ : BufTy).Contents (Elt F) → (⟨S256, .f32⟩ : BufTy).Contents (Elt F)),
    unary main_v135 main_v136 (broadcastInDim S1x256 ![1] bcast_S256_S1x256_1 : (⟨S256, .f32⟩ : BufTy).Contents (Elt F) → (⟨S1x256, .f32⟩ : BufTy).Contents (Elt F)),
    unary main_v136 main_v137 (broadcastInDim S4096x256 ![0, 1] bcast_S1x256_S4096x256_0_1 : (⟨S1x256, .f32⟩ : BufTy).Contents (Elt F) → (⟨S4096x256, .f32⟩ : BufTy).Contents (Elt F)),
    binary main_v132 main_v137 main_v138 (mulf : (⟨S4096x256, .f32⟩ : BufTy).Contents (Elt F) → (⟨S4096x256, .f32⟩ : BufTy).Contents (Elt F) → (⟨S4096x256, .f32⟩ : BufTy).Contents (Elt F)),
    unary main_v117 main_v139 ((extractStridedSlice S1x256 ![0, 0] · slices_S2x256_S1x256_0_0) : (⟨S2x256, .f32⟩ : BufTy).Contents (Elt F) → (⟨S1x256, .f32⟩ : BufTy).Contents (Elt F)),
    reshape main_v139 main_v140 rfl shapeCasts_S1x256_S256,
    unary main_v140 main_v141 (broadcastInDim S1x256 ![1] bcast_S256_S1x256_1 : (⟨S256, .f32⟩ : BufTy).Contents (Elt F) → (⟨S1x256, .f32⟩ : BufTy).Contents (Elt F)),
    unary main_v141 main_v142 (broadcastInDim S4096x256 ![0, 1] bcast_S1x256_S4096x256_0_1 : (⟨S1x256, .f32⟩ : BufTy).Contents (Elt F) → (⟨S4096x256, .f32⟩ : BufTy).Contents (Elt F)),
    binary main_v138 main_v142 main_v143 (mulf : (⟨S4096x256, .f32⟩ : BufTy).Contents (Elt F) → (⟨S4096x256, .f32⟩ : BufTy).Contents (Elt F) → (⟨S4096x256, .f32⟩ : BufTy).Contents (Elt F)),
    unary main_v117 main_v144 ((extractStridedSlice S1x256 ![1, 0] · slices_S2x256_S1x256_1_0) : (⟨S2x256, .f32⟩ : BufTy).Contents (Elt F) → (⟨S1x256, .f32⟩ : BufTy).Contents (Elt F)),
    reshape main_v144 main_v145 rfl shapeCasts_S1x256_S256,
    unary main_v145 main_v146 (broadcastInDim S1x256 ![1] bcast_S256_S1x256_1 : (⟨S256, .f32⟩ : BufTy).Contents (Elt F) → (⟨S1x256, .f32⟩ : BufTy).Contents (Elt F)),
    unary main_v146 main_v147 (broadcastInDim S4096x256 ![0, 1] bcast_S1x256_S4096x256_0_1 : (⟨S1x256, .f32⟩ : BufTy).Contents (Elt F) → (⟨S4096x256, .f32⟩ : BufTy).Contents (Elt F)),
    binary main_v143 main_v147 main_v148 (addf : (⟨S4096x256, .f32⟩ : BufTy).Contents (Elt F) → (⟨S4096x256, .f32⟩ : BufTy).Contents (Elt F) → (⟨S4096x256, .f32⟩ : BufTy).Contents (Elt F)),
    TRef.nullary main_call7.cst (constant S_ .f32 0x00000000#32),
    TRef.unary main_call7.cst main_call7.v0 (broadcastInDim S4096x256 ![] bcast_S_S4096x256),
    TRef.binary (.of main_v148 : TRef sig ⟨S4096x256, .f32⟩) main_call7.v0 main_call7.v1 maximumf,
    unary main_v113 main_v150 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v150 main_v151 rfl shapeCasts_S1x256x256_S256x256,
    binary main_v149 main_v151 main_v152 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v115 main_v153 ((extractStridedSlice S1x256 ![1, 0] · slices_S2x256_S1x256_1_0) : (⟨S2x256, .f32⟩ : BufTy).Contents (Elt F) → (⟨S1x256, .f32⟩ : BufTy).Contents (Elt F)),
    reshape main_v153 main_v154 rfl shapeCasts_S1x256_S256,
    unary main_v154 main_v155 (broadcastInDim S1x256 ![1] bcast_S256_S1x256_1 : (⟨S256, .f32⟩ : BufTy).Contents (Elt F) → (⟨S1x256, .f32⟩ : BufTy).Contents (Elt F)),
    unary main_v155 main_v156 (broadcastInDim S4096x256 ![0, 1] bcast_S1x256_S4096x256_0_1 : (⟨S1x256, .f32⟩ : BufTy).Contents (Elt F) → (⟨S4096x256, .f32⟩ : BufTy).Contents (Elt F)),
    binary main_v152 main_v156 main_v157 (addf : (⟨S4096x256, .f32⟩ : BufTy).Contents (Elt F) → (⟨S4096x256, .f32⟩ : BufTy).Contents (Elt F) → (⟨S4096x256, .f32⟩ : BufTy).Contents (Elt F)),
    binary main_v82 main_v157 main_v158 (addf : (⟨S4096x256, .f32⟩ : BufTy).Contents (Elt F) → (⟨S4096x256, .f32⟩ : BufTy).Contents (Elt F) → (⟨S4096x256, .f32⟩ : BufTy).Contents (Elt F)) ]

set_option maxRecDepth 8192 in
theorem stM_g0l1_writes : (stM_g0l1 : List (HloOp τ sig (Elt F))).Forall (WritesIn 222 296) := by
  unfold stM_g0l1
  exact
  ⟨writesIn_single main_v112 _ rfl (by decide) (by decide),
   writesIn_single main_v113 _ rfl (by decide) (by decide),
   writesIn_single main_v114 _ rfl (by decide) (by decide),
   writesIn_single main_v115 _ rfl (by decide) (by decide),
   writesIn_single main_v116 _ rfl (by decide) (by decide),
   writesIn_single main_v117 _ rfl (by decide) (by decide),
   writesIn_single main_v118 _ rfl (by decide) (by decide),
   writesIn_single main_v119 _ rfl (by decide) (by decide),
   writesIn_single main_v120 _ rfl (by decide) (by decide),
   writesIn_single main_v121 _ rfl (by decide) (by decide),
   writesIn_single main_v122 _ rfl (by decide) (by decide),
   writesIn_single main_v123 _ rfl (by decide) (by decide),
   writesIn_single main_v124 _ rfl (by decide) (by decide),
   writesIn_single main_v125 _ rfl (by decide) (by decide),
   writesIn_single main_cst_10 _ rfl (by decide) (by decide),
   writesIn_single main_v126 _ rfl (by decide) (by decide),
   writesIn_single main_cst_11 _ rfl (by decide) (by decide),
   writesIn_single main_v127 _ rfl (by decide) (by decide),
   writesIn_single main_v128 _ rfl (by decide) (by decide),
   writesIn_single main_c_12 _ rfl (by decide) (by decide),
   writesIn_single main_call6_cst _ rfl (by decide) (by decide),
   writesIn_single main_call6_v0 _ rfl (by decide) (by decide),
   writesIn_single main_call6_v1 _ rfl (by decide) (by decide),
   writesIn_single main_call6_cst_0 _ rfl (by decide) (by decide),
   writesIn_single main_call6_v2 _ rfl (by decide) (by decide),
   writesIn_single main_call6_v3 _ rfl (by decide) (by decide),
   writesIn_single main_call6_v4 _ rfl (by decide) (by decide),
   writesIn_single main_call6_v5 _ rfl (by decide) (by decide),
   writesIn_single main_call6_v6 _ rfl (by decide) (by decide),
   writesIn_single main_call6_v7 _ rfl (by decide) (by decide),
   writesIn_single main_call6_cst_1 _ rfl (by decide) (by decide),
   writesIn_single main_call6_v8 _ rfl (by decide) (by decide),
   writesIn_single main_call6_cst_2 _ rfl (by decide) (by decide),
   writesIn_single main_call6_v9 _ rfl (by decide) (by decide),
   writesIn_single main_call6_v10 _ rfl (by decide) (by decide),
   writesIn_single main_call6_v11 _ rfl (by decide) (by decide),
   writesIn_single main_call6_cst_3 _ rfl (by decide) (by decide),
   writesIn_single main_call6_v12 _ rfl (by decide) (by decide),
   writesIn_single main_call6_cst_4 _ rfl (by decide) (by decide),
   writesIn_single main_call6_call0_v0 _ rfl (by decide) (by decide),
   writesIn_single main_call6_call0_v1 _ rfl (by decide) (by decide),
   writesIn_single main_v129 _ rfl (by decide) (by decide),
   writesIn_single main_v130 _ rfl (by decide) (by decide),
   writesIn_single main_v131 _ rfl (by decide) (by decide),
   writesIn_single main_v132 _ rfl (by decide) (by decide),
   writesIn_single main_cst_13 _ rfl (by decide) (by decide),
   writesIn_single main_v133 _ rfl (by decide) (by decide),
   writesIn_single main_v134 _ rfl (by decide) (by decide),
   writesIn_single main_v135 _ rfl (by decide) (by decide),
   writesIn_single main_v136 _ rfl (by decide) (by decide),
   writesIn_single main_v137 _ rfl (by decide) (by decide),
   writesIn_single main_v138 _ rfl (by decide) (by decide),
   writesIn_single main_v139 _ rfl (by decide) (by decide),
   writesIn_single main_v140 _ rfl (by decide) (by decide),
   writesIn_single main_v141 _ rfl (by decide) (by decide),
   writesIn_single main_v142 _ rfl (by decide) (by decide),
   writesIn_single main_v143 _ rfl (by decide) (by decide),
   writesIn_single main_v144 _ rfl (by decide) (by decide),
   writesIn_single main_v145 _ rfl (by decide) (by decide),
   writesIn_single main_v146 _ rfl (by decide) (by decide),
   writesIn_single main_v147 _ rfl (by decide) (by decide),
   writesIn_single main_v148 _ rfl (by decide) (by decide),
   writesIn_single main_call7_cst _ rfl (by decide) (by decide),
   writesIn_single main_call7_v0 _ rfl (by decide) (by decide),
   writesIn_single main_v149 _ rfl (by decide) (by decide),
   writesIn_single main_v150 _ rfl (by decide) (by decide),
   writesIn_single main_v151 _ rfl (by decide) (by decide),
   writesIn_single main_v152 _ rfl (by decide) (by decide),
   writesIn_single main_v153 _ rfl (by decide) (by decide),
   writesIn_single main_v154 _ rfl (by decide) (by decide),
   writesIn_single main_v155 _ rfl (by decide) (by decide),
   writesIn_single main_v156 _ rfl (by decide) (by decide),
   writesIn_single main_v157 _ rfl (by decide) (by decide),
   writesIn_single main_v158 _ rfl (by decide) (by decide)⟩

/-- A buffer outside the stretch's range keeps its contents through it. -/
theorem stM_g0l1_keep (W : Valuation τ sig (Elt F)) (r : Ref sig .tc) (hr : r.idx.val < 222 ∨ 296 ≤ r.idx.val) :
    after stM_g0l1 W (no_index (Proc.devRef .tc r)) = W (Proc.devRef .tc r) :=
  after_keep stM_g0l1 W stM_g0l1_writes r hr

set_option maxRecDepth 8192 in
set_option maxHeartbeats 4000000 in
/-- After them the layer's output is the perceptron of the aggregate. -/
theorem mlp_g0l1 (W : Valuation τ sig (Elt F)) :
    after stM_g0l1 W (no_index (Proc.devRef .tc main_v157))
      = mlpR (W (Proc.devRef .tc main_v111)) (sliceW1 (W (Proc.devRef .tc main_arg6))) (sliceB1 (W (Proc.devRef .tc main_arg7))) (sliceB1 (W (Proc.devRef .tc main_arg8))) := by
  simp only [stM_g0l1]
  after_results_simp
  rfl

set_option maxRecDepth 8192 in
set_option maxHeartbeats 4000000 in
/-- And the accumulator is the previous sum plus the layer's output. -/
theorem acc_g0l1 (W : Valuation τ sig (Elt F)) :
    after stM_g0l1 W (no_index (Proc.devRef .tc main_v158))
      = addf (W (Proc.devRef .tc main_v82))
          (mlpR (W (Proc.devRef .tc main_v111)) (sliceW1 (W (Proc.devRef .tc main_arg6))) (sliceB1 (W (Proc.devRef .tc main_arg7))) (sliceB1 (W (Proc.devRef .tc main_arg8)))) := by
  simp only [stM_g0l1]
  after_results_simp
  rfl

end Cert.ReferenceIdeal.Hand

end
-- ==== Proof.RefValL_g0l2.lean ====
/-
  One GIN layer of the reference, read back: the layer's operations in three stretches — the embedding of the layer's
  input (46 operations), the aggregate (14), the perceptron with the accumulation (74) — and, for any contents W
  before a stretch, what the stretch leaves at the buffers later stretches read, as the stage functions of
  RefFns applied to W at the buffers the stretch reads. Every other buffer keeps what it held.
-/
import proofs.«169706_j68856915690108_1_alg».proof.Proof.Gen.ReferenceIdeal
import proofs.«169706_j68856915690108_1_alg».proof.Proof.RefLib
import proofs.«169706_j68856915690108_1_alg».proof.Proof.RefFns
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The embedding's operations: two dense layers, each followed by ELU. -/
noncomputable def stE_g0l2 : List (HloOp τ sig (Elt F)) :=
  [ unary main_arg4 main_v159 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v159 main_v160 rfl shapeCasts_S1x256x256_S256x256,
    binary main_v157 main_v160 main_v161 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg5 main_v162 ((extractStridedSlice S1x256 ![0, 0] · slices_S2x256_S1x256_0_0) : (⟨S2x256, .f32⟩ : BufTy).Contents (Elt F) → (⟨S1x256, .f32⟩ : BufTy).Contents (Elt F)),
    reshape main_v162 main_v163 rfl shapeCasts_S1x256_S256,
    unary main_v163 main_v164 (broadcastInDim S1x256 ![1] bcast_S256_S1x256_1 : (⟨S256, .f32⟩ : BufTy).Contents (Elt F) → (⟨S1x256, .f32⟩ : BufTy).Contents (Elt F)),
    unary main_v164 main_v165 (broadcastInDim S4096x256 ![0, 1] bcast_S1x256_S4096x256_0_1 : (⟨S1x256, .f32⟩ : BufTy).Contents (Elt F) → (⟨S4096x256, .f32⟩ : BufTy).Contents (Elt F)),
    binary main_v161 main_v165 main_v166 (addf : (⟨S4096x256, .f32⟩ : BufTy).Contents (Elt F) → (⟨S4096x256, .f32⟩ : BufTy).Contents (Elt F) → (⟨S4096x256, .f32⟩ : BufTy).Contents (Elt F)),
    TRef.nullary main_call8.cst (constant S_ .f32 0x00000000#32),
    TRef.unary main_call8.cst main_call8.v0 (broadcastInDim S4096x256 ![] bcast_S_S4096x256),
    TRef.binary (.of main_v166 : TRef sig ⟨S4096x256, .f32⟩) main_call8.v0 main_call8.v1 (cmpf .ogt),
    TRef.nullary main_call8.cst_0 (constant S_ .f32 0x00000000#32),
    TRef.unary main_call8.cst_0 main_call8.v2 (broadcastInDim S4096x256 ![] bcast_S_S4096x256),
    TRef.binary (.of main_v166 : TRef sig ⟨S4096x256, .f32⟩) main_call8.v2 main_call8.v3 (cmpf .ogt),
    TRef.nullary main_call8.cst_1 (constant S_ .f32 0x00000000#32),
    TRef.unary main_call8.cst_1 main_call8_call0.v0 id,
    TRef.unary main_call8_call0.v0 main_call8_call0.v1 (broadcastInDim S4096x256 ![] bcast_S_S4096x256),
    TRef.ternary main_call8.v3 main_call8_call0.v1 (.of main_v166 : TRef sig ⟨S4096x256, .f32⟩) main_call8_call0.v2 select,
    TRef.unary main_call8.call0.v2 main_call8.v5 Host.expm1,
    TRef.nullary main_call8.cst_2 (constant S_ .f32 0x3F800000#32),
    TRef.unary main_call8.cst_2 main_call8.v6 (broadcastInDim S4096x256 ![] bcast_S_S4096x256),
    TRef.binary main_call8.v6 main_call8.v5 main_call8.v7 mulf,
    TRef.ternary main_call8.v1 (.of main_v166 : TRef sig ⟨S4096x256, .f32⟩) main_call8.v7 main_call8_call1.v0 select,
    unary main_arg4 main_v168 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v168 main_v169 rfl shapeCasts_S1x256x256_S256x256,
    binary main_v167 main_v169 main_v170 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg5 main_v171 ((extractStridedSlice S1x256 ![1, 0] · slices_S2x256_S1x256_1_0) : (⟨S2x256, .f32⟩ : BufTy).Contents (Elt F) → (⟨S1x256, .f32⟩ : BufTy).Contents (Elt F)),
    reshape main_v171 main_v172 rfl shapeCasts_S1x256_S256,
    unary main_v172 main_v173 (broadcastInDim S1x256 ![1] bcast_S256_S1x256_1 : (⟨S256, .f32⟩ : BufTy).Contents (Elt F) → (⟨S1x256, .f32⟩ : BufTy).Contents (Elt F)),
    unary main_v173 main_v174 (broadcastInDim S4096x256 ![0, 1] bcast_S1x256_S4096x256_0_1 : (⟨S1x256, .f32⟩ : BufTy).Contents (Elt F) → (⟨S4096x256, .f32⟩ : BufTy).Contents (Elt F)),
    binary main_v170 main_v174 main_v175 (addf : (⟨S4096x256, .f32⟩ : BufTy).Contents (Elt F) → (⟨S4096x256, .f32⟩ : BufTy).Contents (Elt F) → (⟨S4096x256, .f32⟩ : BufTy).Contents (Elt F)),
    TRef.nullary main_call9.cst (constant S_ .f32 0x00000000#32),
    TRef.unary main_call9.cst main_call9.v0 (broadcastInDim S4096x256 ![] bcast_S_S4096x256),
    TRef.binary (.of main_v175 : TRef sig ⟨S4096x256, .f32⟩) main_call9.v0 main_call9.v1 (cmpf .ogt),
    TRef.nullary main_call9.cst_0 (constant S_ .f32 0x00000000#32),
    TRef.unary main_call9.cst_0 main_call9.v2 (broadcastInDim S4096x256 ![] bcast_S_S4096x256),
    TRef.binary (.of main_v175 : TRef sig ⟨S4096x256, .f32⟩) main_call9.v2 main_call9.v3 (cmpf .ogt),
    TRef.nullary main_call9.cst_1 (constant S_ .f32 0x00000000#32),
    TRef.unary main_call9.cst_1 main_call9_call0.v0 id,
    TRef.unary main_call9_call0.v0 main_call9_call0.v1 (broadcastInDim S4096x256 ![] bcast_S_S4096x256),
    TRef.ternary main_call9.v3 main_call9_call0.v1 (.of main_v175 : TRef sig ⟨S4096x256, .f32⟩) main_call9_call0.v2 select,
    TRef.unary main_call9.call0.v2 main_call9.v5 Host.expm1,
    TRef.nullary main_call9.cst_2 (constant S_ .f32 0x3F800000#32),
    TRef.unary main_call9.cst_2 main_call9.v6 (broadcastInDim S4096x256 ![] bcast_S_S4096x256),
    TRef.binary main_call9.v6 main_call9.v5 main_call9.v7 mulf,
    TRef.ternary main_call9.v1 (.of main_v175 : TRef sig ⟨S4096x256, .f32⟩) main_call9.v7 main_call9_call1.v0 select ]

set_option maxRecDepth 8192 in
theorem stE_g0l2_writes : (stE_g0l2 : List (HloOp τ sig (Elt F))).Forall (WritesIn 296 342) := by
  unfold stE_g0l2
  exact
  ⟨writesIn_single main_v159 _ rfl (by decide) (by decide),
   writesIn_single main_v160 _ rfl (by decide) (by decide),
   writesIn_single main_v161 _ rfl (by decide) (by decide),
   writesIn_single main_v162 _ rfl (by decide) (by decide),
   writesIn_single main_v163 _ rfl (by decide) (by decide),
   writesIn_single main_v164 _ rfl (by decide) (by decide),
   writesIn_single main_v165 _ rfl (by decide) (by decide),
   writesIn_single main_v166 _ rfl (by decide) (by decide),
   writesIn_single main_call8_cst _ rfl (by decide) (by decide),
   writesIn_single main_call8_v0 _ rfl (by decide) (by decide),
   writesIn_single main_call8_v1 _ rfl (by decide) (by decide),
   writesIn_single main_call8_cst_0 _ rfl (by decide) (by decide),
   writesIn_single main_call8_v2 _ rfl (by decide) (by decide),
   writesIn_single main_call8_v3 _ rfl (by decide) (by decide),
   writesIn_single main_call8_cst_1 _ rfl (by decide) (by decide),
   writesIn_single main_call8_call0_v0 _ rfl (by decide) (by decide),
   writesIn_single main_call8_call0_v1 _ rfl (by decide) (by decide),
   writesIn_single main_call8_v4 _ rfl (by decide) (by decide),
   writesIn_single main_call8_v5 _ rfl (by decide) (by decide),
   writesIn_single main_call8_cst_2 _ rfl (by decide) (by decide),
   writesIn_single main_call8_v6 _ rfl (by decide) (by decide),
   writesIn_single main_call8_v7 _ rfl (by decide) (by decide),
   writesIn_single main_v167 _ rfl (by decide) (by decide),
   writesIn_single main_v168 _ rfl (by decide) (by decide),
   writesIn_single main_v169 _ rfl (by decide) (by decide),
   writesIn_single main_v170 _ rfl (by decide) (by decide),
   writesIn_single main_v171 _ rfl (by decide) (by decide),
   writesIn_single main_v172 _ rfl (by decide) (by decide),
   writesIn_single main_v173 _ rfl (by decide) (by decide),
   writesIn_single main_v174 _ rfl (by decide) (by decide),
   writesIn_single main_v175 _ rfl (by decide) (by decide),
   writesIn_single main_call9_cst _ rfl (by decide) (by decide),
   writesIn_single main_call9_v0 _ rfl (by decide) (by decide),
   writesIn_single main_call9_v1 _ rfl (by decide) (by decide),
   writesIn_single main_call9_cst_0 _ rfl (by decide) (by decide),
   writesIn_single main_call9_v2 _ rfl (by decide) (by decide),
   writesIn_single main_call9_v3 _ rfl (by decide) (by decide),
   writesIn_single main_call9_cst_1 _ rfl (by decide) (by decide),
   writesIn_single main_call9_call0_v0 _ rfl (by decide) (by decide),
   writesIn_single main_call9_call0_v1 _ rfl (by decide) (by decide),
   writesIn_single main_call9_v4 _ rfl (by decide) (by decide),
   writesIn_single main_call9_v5 _ rfl (by decide) (by decide),
   writesIn_single main_call9_cst_2 _ rfl (by decide) (by decide),
   writesIn_single main_call9_v6 _ rfl (by decide) (by decide),
   writesIn_single main_call9_v7 _ rfl (by decide) (by decide),
   writesIn_single main_v176 _ rfl (by decide) (by decide)⟩

/-- A buffer outside the stretch's range keeps its contents through it. -/
theorem stE_g0l2_keep (W : Valuation τ sig (Elt F)) (r : Ref sig .tc) (hr : r.idx.val < 296 ∨ 342 ≤ r.idx.val) :
    after stE_g0l2 W (no_index (Proc.devRef .tc r)) = W (Proc.devRef .tc r) :=
  after_keep stE_g0l2 W stE_g0l2_writes r hr

set_option maxRecDepth 8192 in
set_option maxHeartbeats 4000000 in
/-- After them the hidden features are the embedding of the layer's input. -/
theorem embed_g0l2 (W : Valuation τ sig (Elt F)) :
    after stE_g0l2 W (no_index (Proc.devRef .tc main_v176))
      = embedR (W (Proc.devRef .tc main_v157)) (W (Proc.devRef .tc main_arg4)) (W (Proc.devRef .tc main_arg5)) := by
  simp only [stE_g0l2]
  after_results_simp
  rfl

/-- The aggregate's operations: the Gram matrix, its mean, the mask, plus the identity, times the input. -/
noncomputable def stA_g0l2 : List (HloOp τ sig (Elt F)) :=
  [ unary main_v176 main_v177 ((transpose S256x4096 [1, 0] · transposes_S4096x256_S256x4096_1_0) : (⟨S4096x256, .f32⟩ : BufTy).Contents (Elt F) → (⟨S256x4096, .f32⟩ : BufTy).Contents (Elt F)),
    binary main_v176 main_v177 main_v178 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_14 (constant S_ .f32 0x00000000#32),
    binary main_v178 main_cst_14 main_v179 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_15 (constant S_ .f32 0x4B800000#32),
    binary main_v179 main_cst_15 main_v180 (Host.divf : (⟨S_, .f32⟩ : BufTy).Contents (Elt F) → (⟨S_, .f32⟩ : BufTy).Contents (Elt F) → (⟨S_, .f32⟩ : BufTy).Contents (Elt F)),
    unary main_v180 main_v181 (broadcastInDim S4096x4096 ![] bcast_S_S4096x4096 : (⟨S_, .f32⟩ : BufTy).Contents (Elt F) → (⟨S4096x4096, .f32⟩ : BufTy).Contents (Elt F)),
    binary main_v178 main_v181 main_v182 (cmpf .ogt : (⟨S4096x4096, .f32⟩ : BufTy).Contents (Elt F) → (⟨S4096x4096, .f32⟩ : BufTy).Contents (Elt F) → (⟨S4096x4096, .i1⟩ : BufTy).Contents (Elt F)),
    unary main_v182 main_v183 (uitofp .f32 : (⟨S4096x4096, .i1⟩ : BufTy).Contents (Elt F) → (⟨S4096x4096, .f32⟩ : BufTy).Contents (Elt F)),
    nullary main_cst_16 (constant S_ .f32 0x3F800000#32),
    unary main_cst_16 main_v184 (broadcastInDim S4096x4096 ![] bcast_S_S4096x4096 : (⟨S_, .f32⟩ : BufTy).Contents (Elt F) → (⟨S4096x4096, .f32⟩ : BufTy).Contents (Elt F)),
    binary main_v184 main_v5 main_v185 (mulf : (⟨S4096x4096, .f32⟩ : BufTy).Contents (Elt F) → (⟨S4096x4096, .f32⟩ : BufTy).Contents (Elt F) → (⟨S4096x4096, .f32⟩ : BufTy).Contents (Elt F)),
    binary main_v183 main_v185 main_v186 (addf : (⟨S4096x4096, .f32⟩ : BufTy).Contents (Elt F) → (⟨S4096x4096, .f32⟩ : BufTy).Contents (Elt F) → (⟨S4096x4096, .f32⟩ : BufTy).Contents (Elt F)),
    binary main_v186 main_v157 main_v187 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]

set_option maxRecDepth 8192 in
theorem stA_g0l2_writes : (stA_g0l2 : List (HloOp τ sig (Elt F))).Forall (WritesIn 342 356) := by
  unfold stA_g0l2
  exact
  ⟨writesIn_single main_v177 _ rfl (by decide) (by decide),
   writesIn_single main_v178 _ rfl (by decide) (by decide),
   writesIn_single main_cst_14 _ rfl (by decide) (by decide),
   writesIn_single main_v179 _ rfl (by decide) (by decide),
   writesIn_single main_cst_15 _ rfl (by decide) (by decide),
   writesIn_single main_v180 _ rfl (by decide) (by decide),
   writesIn_single main_v181 _ rfl (by decide) (by decide),
   writesIn_single main_v182 _ rfl (by decide) (by decide),
   writesIn_single main_v183 _ rfl (by decide) (by decide),
   writesIn_single main_cst_16 _ rfl (by decide) (by decide),
   writesIn_single main_v184 _ rfl (by decide) (by decide),
   writesIn_single main_v185 _ rfl (by decide) (by decide),
   writesIn_single main_v186 _ rfl (by decide) (by decide),
   writesIn_single main_v187 _ rfl (by decide) (by decide)⟩

/-- A buffer outside the stretch's range keeps its contents through it. -/
theorem stA_g0l2_keep (W : Valuation τ sig (Elt F)) (r : Ref sig .tc) (hr : r.idx.val < 342 ∨ 356 ≤ r.idx.val) :
    after stA_g0l2 W (no_index (Proc.devRef .tc r)) = W (Proc.devRef .tc r) :=
  after_keep stA_g0l2 W stA_g0l2_writes r hr

set_option maxRecDepth 8192 in
set_option maxHeartbeats 4000000 in
/-- After them: the aggregate of the hidden features and the layer's input over the identity matrix's buffer. -/
theorem agg_g0l2 (W : Valuation τ sig (Elt F)) :
    after stA_g0l2 W (no_index (Proc.devRef .tc main_v187))
      = aggF (W (Proc.devRef .tc main_v5)) (W (Proc.devRef .tc main_v176)) (W (Proc.devRef .tc main_v157)) := by
  simp only [stA_g0l2]
  after_results_simp
  rfl

/-- The perceptron's operations (the layer's slices of the stacked parameters first) and the accumulation. -/
noncomputable def stM_g0l2 : List (HloOp τ sig (Elt F)) :=
  [ unary main_arg6 main_v188 ((extractStridedSlice S1x2x256x256 ![2, 0, 0, 0] · slices_S3x2x256x256_S1x2x256x256_2_0_0_0) : (⟨S3x2x256x256, .f32⟩ : BufTy).Contents (Elt F) → (⟨S1x2x256x256, .f32⟩ : BufTy).Contents (Elt F)),
    reshape main_v188 main_v189 rfl shapeCasts_S1x2x256x256_S2x256x256,
    unary main_arg7 main_v190 ((extractStridedSlice S1x2x256 ![2, 0, 0] · slices_S3x2x256_S1x2x256_2_0_0) : (⟨S3x2x256, .f32⟩ : BufTy).Contents (Elt F) → (⟨S1x2x256, .f32⟩ : BufTy).Contents (Elt F)),
    reshape main_v190 main_v191 rfl shapeCasts_S1x2x256_S2x256,
    unary main_arg8 main_v192 ((extractStridedSlice S1x2x256 ![2, 0, 0] · slices_S3x2x256_S1x2x256_2_0_0) : (⟨S3x2x256, .f32⟩ : BufTy).Contents (Elt F) → (⟨S1x2x256, .f32⟩ : BufTy).Contents (Elt F)),
    reshape main_v192 main_v193 rfl shapeCasts_S1x2x256_S2x256,
    unary main_v189 main_v194 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v194 main_v195 rfl shapeCasts_S1x256x256_S256x256,
    binary main_v187 main_v195 main_v196 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v191 main_v197 ((extractStridedSlice S1x256 ![0, 0] · slices_S2x256_S1x256_0_0) : (⟨S2x256, .f32⟩ : BufTy).Contents (Elt F) → (⟨S1x256, .f32⟩ : BufTy).Contents (Elt F)),
    reshape main_v197 main_v198 rfl shapeCasts_S1x256_S256,
    unary main_v198 main_v199 (broadcastInDim S1x256 ![1] bcast_S256_S1x256_1 : (⟨S256, .f32⟩ : BufTy).Contents (Elt F) → (⟨S1x256, .f32⟩ : BufTy).Contents (Elt F)),
    unary main_v199 main_v200 (broadcastInDim S4096x256 ![0, 1] bcast_S1x256_S4096x256_0_1 : (⟨S1x256, .f32⟩ : BufTy).Contents (Elt F) → (⟨S4096x256, .f32⟩ : BufTy).Contents (Elt F)),
    binary main_v196 main_v200 main_v201 (addf : (⟨S4096x256, .f32⟩ : BufTy).Contents (Elt F) → (⟨S4096x256, .f32⟩ : BufTy).Contents (Elt F) → (⟨S4096x256, .f32⟩ : BufTy).Contents (Elt F)),
    nullary main_cst_17 (constant S_ .f32 0x00000000#32),
    binary main_v201 main_cst_17 main_v202 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_18 (constant S_ .f32 0x45800000#32),
    unary main_cst_18 main_v203 (broadcastInDim S256 ![] bcast_S_S256 : (⟨S_, .f32⟩ : BufTy).Contents (Elt F) → (⟨S256, .f32⟩ : BufTy).Contents (Elt F)),
    binary main_v202 main_v203 main_v204 (Host.divf : (⟨S256, .f32⟩ : BufTy).Contents (Elt F) → (⟨S256, .f32⟩ : BufTy).Contents (Elt F) → (⟨S256, .f32⟩ : BufTy).Contents (Elt F)),
    nullary main_c_19 (constantI S_ 32 0#32),
    TRef.nullary main_call10.cst (constant S_ .f32 0x00000000#32),
    TRef.binary (.of main_v201 : TRef sig ⟨S4096x256, .f32⟩) main_call10.cst main_call10.v0 (fun x v => Host.reduceAdd x v reducesTo_S4096x256_S256_d0 h_S_),
    TRef.unary main_call10.v0 main_call10.v1 (broadcastInDim S1x256 ![1] bcast_S256_S1x256_1),
    TRef.nullary main_call10.cst_0 (constant S_ .f32 0x45800000#32),
    TRef.unary main_call10.cst_0 main_call10.v2 (broadcastInDim S1x256 ![] bcast_S_S1x256),
    TRef.binary main_call10.v1 main_call10.v2 main_call10.v3 Host.divf,
    TRef.unary main_call10.v3 main_call10.v4 (broadcastInDim S4096x256 ![0, 1] bcast_S1x256_S4096x256_0_1),
    TRef.binary (.of main_v201 : TRef sig ⟨S4096x256, .f32⟩) main_call10.v4 main_call10.v5 subf,
    TRef.binary main_call10.v5 main_call10.v5 main_call10.v6 mulf,
    TRef.unary (.of main_c_19 : TRef sig ⟨S_, .i32⟩) main_call10.v7 (sitofp .f32),
    TRef.nullary main_call10.cst_1 (constant S_ .f32 0x45800000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S4096x256_S256_d0 h_S_),
    TRef.unary main_call10.v8 main_call10.v10 (broadcastInDim S256 ![] bcast_S_S256),
    TRef.binary main_call10.v9 main_call10.v10 main_call10.v11 Host.divf,
    TRef.nullary main_call10.cst_3 (constant S_ .f32 0x00000000#32),
    TRef.binary main_call10.v8 main_call10.cst_3 main_call10.v12 (cmpf .ogt),
    TRef.nullary main_call10.cst_4 (constant S_ .f32 0x7FC00000#32),
    TRef.unary main_call10.cst_4 main_call10_call0.v0 id,
    TRef.unary main_call10_call0.v0 main_call10_call0.v1 (broadcastInDim S256 ![] bcast_S_S256),
    TRef.ternary main_call10.v12 main_call10.v11 main_call10_call0.v1 main_call10_call0.v2 (fun p a b => select (broadcastInDim S256 ![] bcast_S_S256 p) a b),
    unary main_v204 main_v206 (broadcastInDim S1x256 ![1] bcast_S256_S1x256_1 : (⟨S256, .f32⟩ : BufTy).Contents (Elt F) → (⟨S1x256, .f32⟩ : BufTy).Contents (Elt F)),
    unary main_v206 main_v207 (broadcastInDim S4096x256 ![0, 1] bcast_S1x256_S4096x256_0_1 : (⟨S1x256, .f32⟩ : BufTy).Contents (Elt F) → (⟨S4096x256, .f32⟩ : BufTy).Contents (Elt F)),
    binary main_v201 main_v207 main_v208 (subf : (⟨S4096x256, .f32⟩ : BufTy).Contents (Elt F) → (⟨S4096x256, .f32⟩ : BufTy).Contents (Elt F) → (⟨S4096x256, .f32⟩ : BufTy).Contents (Elt F)),
    nullary main_cst_20 (constant S_ .f32 0x3727C5AC#32),
    unary main_cst_20 main_v209 (broadcastInDim S256 ![] bcast_S_S256 : (⟨S_, .f32⟩ : BufTy).Contents (Elt F) → (⟨S256, .f32⟩ : BufTy).Contents (Elt F)),
    binary main_v205 main_v209 main_v210 (addf : (⟨S256, .f32⟩ : BufTy).Contents (Elt F) → (⟨S256, .f32⟩ : BufTy).Contents (Elt F) → (⟨S256, .f32⟩ : BufTy).Contents (Elt F)),
    unary main_v210 main_v211 (Host.rsqrt : (⟨S256, .f32⟩ : BufTy).Contents (Elt F) → (⟨S256, .f32⟩ : BufTy).Contents (Elt F)),
    unary main_v211 main_v212 (broadcastInDim S1x256 ![1] bcast_S256_S1x256_1 : (⟨S256, .f32⟩ : BufTy).Contents (Elt F) → (⟨S1x256, .f32⟩ : BufTy).Contents (Elt F)),
    unary main_v212 main_v213 (broadcastInDim S4096x256 ![0, 1] bcast_S1x256_S4096x256_0_1 : (⟨S1x256, .f32⟩ : BufTy).Contents (Elt F) → (⟨S4096x256, .f32⟩ : BufTy).Contents (Elt F)),
    binary main_v208 main_v213 main_v214 (mulf : (⟨S4096x256, .f32⟩ : BufTy).Contents (Elt F) → (⟨S4096x256, .f32⟩ : BufTy).Contents (Elt F) → (⟨S4096x256, .f32⟩ : BufTy).Contents (Elt F)),
    unary main_v193 main_v215 ((extractStridedSlice S1x256 ![0, 0] · slices_S2x256_S1x256_0_0) : (⟨S2x256, .f32⟩ : BufTy).Contents (Elt F) → (⟨S1x256, .f32⟩ : BufTy).Contents (Elt F)),
    reshape main_v215 main_v216 rfl shapeCasts_S1x256_S256,
    unary main_v216 main_v217 (broadcastInDim S1x256 ![1] bcast_S256_S1x256_1 : (⟨S256, .f32⟩ : BufTy).Contents (Elt F) → (⟨S1x256, .f32⟩ : BufTy).Contents (Elt F)),
    unary main_v217 main_v218 (broadcastInDim S4096x256 ![0, 1] bcast_S1x256_S4096x256_0_1 : (⟨S1x256, .f32⟩ : BufTy).Contents (Elt F) → (⟨S4096x256, .f32⟩ : BufTy).Contents (Elt F)),
    binary main_v214 main_v218 main_v219 (mulf : (⟨S4096x256, .f32⟩ : BufTy).Contents (Elt F) → (⟨S4096x256, .f32⟩ : BufTy).Contents (Elt F) → (⟨S4096x256, .f32⟩ : BufTy).Contents (Elt F)),
    unary main_v193 main_v220 ((extractStridedSlice S1x256 ![1, 0] · slices_S2x256_S1x256_1_0) : (⟨S2x256, .f32⟩ : BufTy).Contents (Elt F) → (⟨S1x256, .f32⟩ : BufTy).Contents (Elt F)),
    reshape main_v220 main_v221 rfl shapeCasts_S1x256_S256,
    unary main_v221 main_v222 (broadcastInDim S1x256 ![1] bcast_S256_S1x256_1 : (⟨S256, .f32⟩ : BufTy).Contents (Elt F) → (⟨S1x256, .f32⟩ : BufTy).Contents (Elt F)),
    unary main_v222 main_v223 (broadcastInDim S4096x256 ![0, 1] bcast_S1x256_S4096x256_0_1 : (⟨S1x256, .f32⟩ : BufTy).Contents (Elt F) → (⟨S4096x256, .f32⟩ : BufTy).Contents (Elt F)),
    binary main_v219 main_v223 main_v224 (addf : (⟨S4096x256, .f32⟩ : BufTy).Contents (Elt F) → (⟨S4096x256, .f32⟩ : BufTy).Contents (Elt F) → (⟨S4096x256, .f32⟩ : BufTy).Contents (Elt F)),
    TRef.nullary main_call11.cst (constant S_ .f32 0x00000000#32),
    TRef.unary main_call11.cst main_call11.v0 (broadcastInDim S4096x256 ![] bcast_S_S4096x256),
    TRef.binary (.of main_v224 : TRef sig ⟨S4096x256, .f32⟩) main_call11.v0 main_call11.v1 maximumf,
    unary main_v189 main_v226 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v226 main_v227 rfl shapeCasts_S1x256x256_S256x256,
    binary main_v225 main_v227 main_v228 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v191 main_v229 ((extractStridedSlice S1x256 ![1, 0] · slices_S2x256_S1x256_1_0) : (⟨S2x256, .f32⟩ : BufTy).Contents (Elt F) → (⟨S1x256, .f32⟩ : BufTy).Contents (Elt F)),
    reshape main_v229 main_v230 rfl shapeCasts_S1x256_S256,
    unary main_v230 main_v231 (broadcastInDim S1x256 ![1] bcast_S256_S1x256_1 : (⟨S256, .f32⟩ : BufTy).Contents (Elt F) → (⟨S1x256, .f32⟩ : BufTy).Contents (Elt F)),
    unary main_v231 main_v232 (broadcastInDim S4096x256 ![0, 1] bcast_S1x256_S4096x256_0_1 : (⟨S1x256, .f32⟩ : BufTy).Contents (Elt F) → (⟨S4096x256, .f32⟩ : BufTy).Contents (Elt F)),
    binary main_v228 main_v232 main_v233 (addf : (⟨S4096x256, .f32⟩ : BufTy).Contents (Elt F) → (⟨S4096x256, .f32⟩ : BufTy).Contents (Elt F) → (⟨S4096x256, .f32⟩ : BufTy).Contents (Elt F)),
    binary main_v158 main_v233 main_v234 (addf : (⟨S4096x256, .f32⟩ : BufTy).Contents (Elt F) → (⟨S4096x256, .f32⟩ : BufTy).Contents (Elt F) → (⟨S4096x256, .f32⟩ : BufTy).Contents (Elt F)) ]

set_option maxRecDepth 8192 in
theorem stM_g0l2_writes : (stM_g0l2 : List (HloOp τ sig (Elt F))).Forall (WritesIn 356 430) := by
  unfold stM_g0l2
  exact
  ⟨writesIn_single main_v188 _ rfl (by decide) (by decide),
   writesIn_single main_v189 _ rfl (by decide) (by decide),
   writesIn_single main_v190 _ rfl (by decide) (by decide),
   writesIn_single main_v191 _ rfl (by decide) (by decide),
   writesIn_single main_v192 _ rfl (by decide) (by decide),
   writesIn_single main_v193 _ rfl (by decide) (by decide),
   writesIn_single main_v194 _ rfl (by decide) (by decide),
   writesIn_single main_v195 _ rfl (by decide) (by decide),
   writesIn_single main_v196 _ rfl (by decide) (by decide),
   writesIn_single main_v197 _ rfl (by decide) (by decide),
   writesIn_single main_v198 _ rfl (by decide) (by decide),
   writesIn_single main_v199 _ rfl (by decide) (by decide),
   writesIn_single main_v200 _ rfl (by decide) (by decide),
   writesIn_single main_v201 _ rfl (by decide) (by decide),
   writesIn_single main_cst_17 _ rfl (by decide) (by decide),
   writesIn_single main_v202 _ rfl (by decide) (by decide),
   writesIn_single main_cst_18 _ rfl (by decide) (by decide),
   writesIn_single main_v203 _ rfl (by decide) (by decide),
   writesIn_single main_v204 _ rfl (by decide) (by decide),
   writesIn_single main_c_19 _ rfl (by decide) (by decide),
   writesIn_single main_call10_cst _ rfl (by decide) (by decide),
   writesIn_single main_call10_v0 _ rfl (by decide) (by decide),
   writesIn_single main_call10_v1 _ rfl (by decide) (by decide),
   writesIn_single main_call10_cst_0 _ rfl (by decide) (by decide),
   writesIn_single main_call10_v2 _ rfl (by decide) (by decide),
   writesIn_single main_call10_v3 _ rfl (by decide) (by decide),
   writesIn_single main_call10_v4 _ rfl (by decide) (by decide),
   writesIn_single main_call10_v5 _ rfl (by decide) (by decide),
   writesIn_single main_call10_v6 _ rfl (by decide) (by decide),
   writesIn_single main_call10_v7 _ rfl (by decide) (by decide),
   writesIn_single main_call10_cst_1 _ rfl (by decide) (by decide),
   writesIn_single main_call10_v8 _ rfl (by decide) (by decide),
   writesIn_single main_call10_cst_2 _ rfl (by decide) (by decide),
   writesIn_single main_call10_v9 _ rfl (by decide) (by decide),
   writesIn_single main_call10_v10 _ rfl (by decide) (by decide),
   writesIn_single main_call10_v11 _ rfl (by decide) (by decide),
   writesIn_single main_call10_cst_3 _ rfl (by decide) (by decide),
   writesIn_single main_call10_v12 _ rfl (by decide) (by decide),
   writesIn_single main_call10_cst_4 _ rfl (by decide) (by decide),
   writesIn_single main_call10_call0_v0 _ rfl (by decide) (by decide),
   writesIn_single main_call10_call0_v1 _ rfl (by decide) (by decide),
   writesIn_single main_v205 _ rfl (by decide) (by decide),
   writesIn_single main_v206 _ rfl (by decide) (by decide),
   writesIn_single main_v207 _ rfl (by decide) (by decide),
   writesIn_single main_v208 _ rfl (by decide) (by decide),
   writesIn_single main_cst_20 _ rfl (by decide) (by decide),
   writesIn_single main_v209 _ rfl (by decide) (by decide),
   writesIn_single main_v210 _ rfl (by decide) (by decide),
   writesIn_single main_v211 _ rfl (by decide) (by decide),
   writesIn_single main_v212 _ rfl (by decide) (by decide),
   writesIn_single main_v213 _ rfl (by decide) (by decide),
   writesIn_single main_v214 _ rfl (by decide) (by decide),
   writesIn_single main_v215 _ rfl (by decide) (by decide),
   writesIn_single main_v216 _ rfl (by decide) (by decide),
   writesIn_single main_v217 _ rfl (by decide) (by decide),
   writesIn_single main_v218 _ rfl (by decide) (by decide),
   writesIn_single main_v219 _ rfl (by decide) (by decide),
   writesIn_single main_v220 _ rfl (by decide) (by decide),
   writesIn_single main_v221 _ rfl (by decide) (by decide),
   writesIn_single main_v222 _ rfl (by decide) (by decide),
   writesIn_single main_v223 _ rfl (by decide) (by decide),
   writesIn_single main_v224 _ rfl (by decide) (by decide),
   writesIn_single main_call11_cst _ rfl (by decide) (by decide),
   writesIn_single main_call11_v0 _ rfl (by decide) (by decide),
   writesIn_single main_v225 _ rfl (by decide) (by decide),
   writesIn_single main_v226 _ rfl (by decide) (by decide),
   writesIn_single main_v227 _ rfl (by decide) (by decide),
   writesIn_single main_v228 _ rfl (by decide) (by decide),
   writesIn_single main_v229 _ rfl (by decide) (by decide),
   writesIn_single main_v230 _ rfl (by decide) (by decide),
   writesIn_single main_v231 _ rfl (by decide) (by decide),
   writesIn_single main_v232 _ rfl (by decide) (by decide),
   writesIn_single main_v233 _ rfl (by decide) (by decide),
   writesIn_single main_v234 _ rfl (by decide) (by decide)⟩

/-- A buffer outside the stretch's range keeps its contents through it. -/
theorem stM_g0l2_keep (W : Valuation τ sig (Elt F)) (r : Ref sig .tc) (hr : r.idx.val < 356 ∨ 430 ≤ r.idx.val) :
    after stM_g0l2 W (no_index (Proc.devRef .tc r)) = W (Proc.devRef .tc r) :=
  after_keep stM_g0l2 W stM_g0l2_writes r hr

set_option maxRecDepth 8192 in
set_option maxHeartbeats 4000000 in
/-- After them the layer's output is the perceptron of the aggregate. -/
theorem mlp_g0l2 (W : Valuation τ sig (Elt F)) :
    after stM_g0l2 W (no_index (Proc.devRef .tc main_v233))
      = mlpR (W (Proc.devRef .tc main_v187)) (sliceW2 (W (Proc.devRef .tc main_arg6))) (sliceB2 (W (Proc.devRef .tc main_arg7))) (sliceB2 (W (Proc.devRef .tc main_arg8))) := by
  simp only [stM_g0l2]
  after_results_simp
  rfl

set_option maxRecDepth 8192 in
set_option maxHeartbeats 4000000 in
/-- And the accumulator is the previous sum plus the layer's output. -/
theorem acc_g0l2 (W : Valuation τ sig (Elt F)) :
    after stM_g0l2 W (no_index (Proc.devRef .tc main_v234))
      = addf (W (Proc.devRef .tc main_v158))
          (mlpR (W (Proc.devRef .tc main_v187)) (sliceW2 (W (Proc.devRef .tc main_arg6))) (sliceB2 (W (Proc.devRef .tc main_arg7))) (sliceB2 (W (Proc.devRef .tc main_arg8)))) := by
  simp only [stM_g0l2]
  after_results_simp
  rfl

end Cert.ReferenceIdeal.Hand

end
-- ==== Proof.RefValG_g0.lean ====
/-
  One GIN branch of the reference, read back: the branch's 414 operations are the prelude (the identity matrix and
  the zero accumulator, 9 operations), three layers (RefValL, 134 each) and the division of the accumulated sum by
  three (3). For any contents W before the branch, what it leaves at its result buffer is the branch function of
  RefFns applied to W at the branch's argument buffers; every buffer outside its range keeps what it held.
-/
import proofs.«169706_j68856915690108_1_alg».proof.Proof.Gen.ReferenceIdeal
import proofs.«169706_j68856915690108_1_alg».proof.Proof.RefLib
import proofs.«169706_j68856915690108_1_alg».proof.Proof.RefFns
import proofs.«169706_j68856915690108_1_alg».proof.Proof.RefValL_g0l0
import proofs.«169706_j68856915690108_1_alg».proof.Proof.RefValL_g0l1
import proofs.«169706_j68856915690108_1_alg».proof.Proof.RefValL_g0l2
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The prelude's operations: the identity matrix (row number against column number) and the zero accumulator. -/
noncomputable def stP_g0 : List (HloOp τ sig (Elt F)) :=
  [ nullary main_v0 (iotaInDim S4096x4096 32 0),
    nullary main_v1 (iotaInDim S4096x4096 32 1),
    nullary main_c (constantI S_ 32 0#32),
    unary main_c main_v2 (broadcastInDim S4096x4096 ![] bcast_S_S4096x4096 : (⟨S_, .i32⟩ : BufTy).Contents (Elt F) → (⟨S4096x4096, .i32⟩ : BufTy).Contents (Elt F)),
    binary main_v0 main_v2 main_v3 (addi : (⟨S4096x4096, .i32⟩ : BufTy).Contents (Elt F) → (⟨S4096x4096, .i32⟩ : BufTy).Contents (Elt F) → (⟨S4096x4096, .i32⟩ : BufTy).Contents (Elt F)),
    binary main_v3 main_v1 main_v4 (cmpi .eq : (⟨S4096x4096, .i32⟩ : BufTy).Contents (Elt F) → (⟨S4096x4096, .i32⟩ : BufTy).Contents (Elt F) → (⟨S4096x4096, .i1⟩ : BufTy).Contents (Elt F)),
    unary main_v4 main_v5 (uitofp .f32 : (⟨S4096x4096, .i1⟩ : BufTy).Contents (Elt F) → (⟨S4096x4096, .f32⟩ : BufTy).Contents (Elt F)),
    nullary main_cst (constant S_ .f32 0x00000000#32),
    unary main_cst main_v6 (broadcastInDim S4096x256 ![] bcast_S_S4096x256 : (⟨S_, .f32⟩ : BufTy).Contents (Elt F) → (⟨S4096x256, .f32⟩ : BufTy).Contents (Elt F)) ]

set_option maxRecDepth 8192 in
theorem stP_g0_writes : (stP_g0 : List (HloOp τ sig (Elt F))).Forall (WritesIn 19 28) := by
  unfold stP_g0
  exact
  ⟨writesIn_single main_v0 _ rfl (by decide) (by decide),
   writesIn_single main_v1 _ rfl (by decide) (by decide),
   writesIn_single main_c _ rfl (by decide) (by decide),
   writesIn_single main_v2 _ rfl (by decide) (by decide),
   writesIn_single main_v3 _ rfl (by decide) (by decide),
   writesIn_single main_v4 _ rfl (by decide) (by decide),
   writesIn_single main_v5 _ rfl (by decide) (by decide),
   writesIn_single main_cst _ rfl (by decide) (by decide),
   writesIn_single main_v6 _ rfl (by decide) (by decide)⟩

/-- A buffer outside the stretch's range keeps its contents through it. -/
theorem stP_g0_keep (W : Valuation τ sig (Elt F)) (r : Ref sig .tc) (hr : r.idx.val < 19 ∨ 28 ≤ r.idx.val) :
    after stP_g0 W (no_index (Proc.devRef .tc r)) = W (Proc.devRef .tc r) :=
  after_keep stP_g0 W stP_g0_writes r hr

/-- After the prelude the identity matrix's buffer holds the identity matrix. -/
theorem eye_g0 (W : Valuation τ sig (Elt F)) : after stP_g0 W (no_index (Proc.devRef .tc main_v5)) = eyeF := by
  simp only [stP_g0]
  after_results_simp
  rfl

/-- And the accumulator's buffer holds zeros. -/
theorem zero_g0 (W : Valuation τ sig (Elt F)) : after stP_g0 W (no_index (Proc.devRef .tc main_v6)) = fill 0x00000000#32 := by
  simp only [stP_g0]
  after_results_simp
  rfl

/-- The last operations: the accumulated sum divided by three. -/
noncomputable def stT_g0 : List (HloOp τ sig (Elt F)) :=
  [ nullary main_cst_21 (constant S_ .f32 0x40400000#32),
    unary main_cst_21 main_v235 (broadcastInDim S4096x256 ![] bcast_S_S4096x256 : (⟨S_, .f32⟩ : BufTy).Contents (Elt F) → (⟨S4096x256, .f32⟩ : BufTy).Contents (Elt F)),
    binary main_v234 main_v235 main_v236 (Host.divf : (⟨S4096x256, .f32⟩ : BufTy).Contents (Elt F) → (⟨S4096x256, .f32⟩ : BufTy).Contents (Elt F) → (⟨S4096x256, .f32⟩ : BufTy).Contents (Elt F)) ]

set_option maxRecDepth 8192 in
theorem stT_g0_writes : (stT_g0 : List (HloOp τ sig (Elt F))).Forall (WritesIn 430 433) := by
  unfold stT_g0
  exact
  ⟨writesIn_single main_cst_21 _ rfl (by decide) (by decide),
   writesIn_single main_v235 _ rfl (by decide) (by decide),
   writesIn_single main_v236 _ rfl (by decide) (by decide)⟩

/-- A buffer outside the stretch's range keeps its contents through it. -/
theorem stT_g0_keep (W : Valuation τ sig (Elt F)) (r : Ref sig .tc) (hr : r.idx.val < 430 ∨ 433 ≤ r.idx.val) :
    after stT_g0 W (no_index (Proc.devRef .tc r)) = W (Proc.devRef .tc r) :=
  after_keep stT_g0 W stT_g0_writes r hr

theorem third_g0 (W : Valuation τ sig (Elt F)) :
    after stT_g0 W (no_index (Proc.devRef .tc main_v236)) = thirdR (W (Proc.devRef .tc main_v234)) := by
  simp only [stT_g0]
  after_results_simp
  rfl

/-- The branch's 414 operations, in order. -/
noncomputable def opsG_g0 : List (HloOp τ sig (Elt F)) :=
  stP_g0 ++ (stE_g0l0 ++ (stA_g0l0 ++ (stM_g0l0 ++ (stE_g0l1 ++ (stA_g0l1 ++ (stM_g0l1 ++ (stE_g0l2 ++ (stA_g0l2 ++ (stM_g0l2 ++ (stT_g0))))))))))

/-- They write the branch's own range of buffers. -/
theorem opsG_g0_writes : (opsG_g0 : List (HloOp τ sig (Elt F))).Forall (WritesIn 19 433) := by
  unfold opsG_g0
  exact
    forall_append (forall_mono stP_g0_writes fun _ h => h.mono (by decide) (by decide)) (
    forall_append (forall_mono stE_g0l0_writes fun _ h => h.mono (by decide) (by decide)) (
    forall_append (forall_mono stA_g0l0_writes fun _ h => h.mono (by decide) (by decide)) (
    forall_append (forall_mono stM_g0l0_writes fun _ h => h.mono (by decide) (by decide)) (
    forall_append (forall_mono stE_g0l1_writes fun _ h => h.mono (by decide) (by decide)) (
    forall_append (forall_mono stA_g0l1_writes fun _ h => h.mono (by decide) (by decide)) (
    forall_append (forall_mono stM_g0l1_writes fun _ h => h.mono (by decide) (by decide)) (
    forall_append (forall_mono stE_g0l2_writes fun _ h => h.mono (by decide) (by decide)) (
    forall_append (forall_mono stA_g0l2_writes fun _ h => h.mono (by decide) (by decide)) (
    forall_append (forall_mono stM_g0l2_writes fun _ h => h.mono (by decide) (by decide)) (forall_mono stT_g0_writes fun _ h => h.mono (by decide) (by decide)))))))))))

/-- A buffer outside the branch's range keeps its contents through it. -/
theorem opsG_g0_keep (W : Valuation τ sig (Elt F)) (r : Ref sig .tc) (hr : r.idx.val < 19 ∨ 433 ≤ r.idx.val) :
    after opsG_g0 W (no_index (Proc.devRef .tc r)) = W (Proc.devRef .tc r) :=
  after_keep opsG_g0 W opsG_g0_writes r hr

set_option maxRecDepth 8192 in
set_option maxHeartbeats 4000000 in
/-- After the branch its result buffer holds the branch function of the argument buffers' contents. -/
theorem gin_g0 (W : Valuation τ sig (Elt F)) :
    after opsG_g0 W (no_index (Proc.devRef .tc main_v236))
      = ginF eyeF (W (Proc.devRef .tc main_arg0)) (W (Proc.devRef .tc main_arg4)) (W (Proc.devRef .tc main_arg5)) (W (Proc.devRef .tc main_arg6)) (W (Proc.devRef .tc main_arg7)) (W (Proc.devRef .tc main_arg8)) := by
  simp only [opsG_g0, StableHlo.after_append]
  simp (disch := decide) only [third_g0, eye_g0, zero_g0,
    embed_g0l0, agg_g0l0, mlp_g0l0, acc_g0l0, embed_g0l1, agg_g0l1, mlp_g0l1, acc_g0l1, embed_g0l2, agg_g0l2, mlp_g0l2, acc_g0l2,
    stP_g0_keep, stE_g0l0_keep, stA_g0l0_keep, stM_g0l0_keep, stE_g0l1_keep, stA_g0l1_keep, stM_g0l1_keep, stE_g0l2_keep, stA_g0l2_keep, stM_g0l2_keep, stT_g0_keep]
  rfl

end Cert.ReferenceIdeal.Hand

end
-- ==== Proof.RefValL_g1l0.lean ====
/-
  One GIN layer of the reference, read back: the layer's operations in three stretches — the embedding of the layer's
  input (46 operations), the aggregate (14), the perceptron with the accumulation (74) — and, for any contents W
  before a stretch, what the stretch leaves at the buffers later stretches read, as the stage functions of
  RefFns applied to W at the buffers the stretch reads. Every other buffer keeps what it held.
-/
import proofs.«169706_j68856915690108_1_alg».proof.Proof.Gen.ReferenceIdeal
import proofs.«169706_j68856915690108_1_alg».proof.Proof.RefLib
import proofs.«169706_j68856915690108_1_alg».proof.Proof.RefFns
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The embedding's operations: two dense layers, each followed by ELU. -/
noncomputable def stE_g1l0 : List (HloOp τ sig (Elt F)) :=
  [ unary main_arg9 main_v244 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v244 main_v245 rfl shapeCasts_S1x256x256_S256x256,
    binary main_arg1 main_v245 main_v246 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v247 ((extractStridedSlice S1x256 ![0, 0] · slices_S2x256_S1x256_0_0) : (⟨S2x256, .f32⟩ : BufTy).Contents (Elt F) → (⟨S1x256, .f32⟩ : BufTy).Contents (Elt F)),
    reshape main_v247 main_v248 rfl shapeCasts_S1x256_S256,
    unary main_v248 main_v249 (broadcastInDim S1x256 ![1] bcast_S256_S1x256_1 : (⟨S256, .f32⟩ : BufTy).Contents (Elt F) → (⟨S1x256, .f32⟩ : BufTy).Contents (Elt F)),
    unary main_v249 main_v250 (broadcastInDim S4096x256 ![0, 1] bcast_S1x256_S4096x256_0_1 : (⟨S1x256, .f32⟩ : BufTy).Contents (Elt F) → (⟨S4096x256, .f32⟩ : BufTy).Contents (Elt F)),
    binary main_v246 main_v250 main_v251 (addf : (⟨S4096x256, .f32⟩ : BufTy).Contents (Elt F) → (⟨S4096x256, .f32⟩ : BufTy).Contents (Elt F) → (⟨S4096x256, .f32⟩ : BufTy).Contents (Elt F)),
    TRef.nullary main_call12.cst (constant S_ .f32 0x00000000#32),
    TRef.unary main_call12.cst main_call12.v0 (broadcastInDim S4096x256 ![] bcast_S_S4096x256),
    TRef.binary (.of main_v251 : TRef sig ⟨S4096x256, .f32⟩) main_call12.v0 main_call12.v1 (cmpf .ogt),
    TRef.nullary main_call12.cst_0 (constant S_ .f32 0x00000000#32),
    TRef.unary main_call12.cst_0 main_call12.v2 (broadcastInDim S4096x256 ![] bcast_S_S4096x256),
    TRef.binary (.of main_v251 : TRef sig ⟨S4096x256, .f32⟩) main_call12.v2 main_call12.v3 (cmpf .ogt),
    TRef.nullary main_call12.cst_1 (constant S_ .f32 0x00000000#32),
    TRef.unary main_call12.cst_1 main_call12_call0.v0 id,
    TRef.unary main_call12_call0.v0 main_call12_call0.v1 (broadcastInDim S4096x256 ![] bcast_S_S4096x256),
    TRef.ternary main_call12.v3 main_call12_call0.v1 (.of main_v251 : TRef sig ⟨S4096x256, .f32⟩) main_call12_call0.v2 select,
    TRef.unary main_call12.call0.v2 main_call12.v5 Host.expm1,
    TRef.nullary main_call12.cst_2 (constant S_ .f32 0x3F800000#32),
    TRef.unary main_call12.cst_2 main_call12.v6 (broadcastInDim S4096x256 ![] bcast_S_S4096x256),
    TRef.binary main_call12.v6 main_call12.v5 main_call12.v7 mulf,
    TRef.ternary main_call12.v1 (.of main_v251 : TRef sig ⟨S4096x256, .f32⟩) main_call12.v7 main_call12_call1.v0 select,
    unary main_arg9 main_v253 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v253 main_v254 rfl shapeCasts_S1x256x256_S256x256,
    binary main_v252 main_v254 main_v255 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v256 ((extractStridedSlice S1x256 ![1, 0] · slices_S2x256_S1x256_1_0) : (⟨S2x256, .f32⟩ : BufTy).Contents (Elt F) → (⟨S1x256, .f32⟩ : BufTy).Contents (Elt F)),
    reshape main_v256 main_v257 rfl shapeCasts_S1x256_S256,
    unary main_v257 main_v258 (broadcastInDim S1x256 ![1] bcast_S256_S1x256_1 : (⟨S256, .f32⟩ : BufTy).Contents (Elt F) → (⟨S1x256, .f32⟩ : BufTy).Contents (Elt F)),
    unary main_v258 main_v259 (broadcastInDim S4096x256 ![0, 1] bcast_S1x256_S4096x256_0_1 : (⟨S1x256, .f32⟩ : BufTy).Contents (Elt F) → (⟨S4096x256, .f32⟩ : BufTy).Contents (Elt F)),
    binary main_v255 main_v259 main_v260 (addf : (⟨S4096x256, .f32⟩ : BufTy).Contents (Elt F) → (⟨S4096x256, .f32⟩ : BufTy).Contents (Elt F) → (⟨S4096x256, .f32⟩ : BufTy).Contents (Elt F)),
    TRef.nullary main_call13.cst (constant S_ .f32 0x00000000#32),
    TRef.unary main_call13.cst main_call13.v0 (broadcastInDim S4096x256 ![] bcast_S_S4096x256),
    TRef.binary (.of main_v260 : TRef sig ⟨S4096x256, .f32⟩) main_call13.v0 main_call13.v1 (cmpf .ogt),
    TRef.nullary main_call13.cst_0 (constant S_ .f32 0x00000000#32),
    TRef.unary main_call13.cst_0 main_call13.v2 (broadcastInDim S4096x256 ![] bcast_S_S4096x256),
    TRef.binary (.of main_v260 : TRef sig ⟨S4096x256, .f32⟩) main_call13.v2 main_call13.v3 (cmpf .ogt),
    TRef.nullary main_call13.cst_1 (constant S_ .f32 0x00000000#32),
    TRef.unary main_call13.cst_1 main_call13_call0.v0 id,
    TRef.unary main_call13_call0.v0 main_call13_call0.v1 (broadcastInDim S4096x256 ![] bcast_S_S4096x256),
    TRef.ternary main_call13.v3 main_call13_call0.v1 (.of main_v260 : TRef sig ⟨S4096x256, .f32⟩) main_call13_call0.v2 select,
    TRef.unary main_call13.call0.v2 main_call13.v5 Host.expm1,
    TRef.nullary main_call13.cst_2 (constant S_ .f32 0x3F800000#32),
    TRef.unary main_call13.cst_2 main_call13.v6 (broadcastInDim S4096x256 ![] bcast_S_S4096x256),
    TRef.binary main_call13.v6 main_call13.v5 main_call13.v7 mulf,
    TRef.ternary main_call13.v1 (.of main_v260 : TRef sig ⟨S4096x256, .f32⟩) main_call13.v7 main_call13_call1.v0 select ]

set_option maxRecDepth 8192 in
theorem stE_g1l0_writes : (stE_g1l0 : List (HloOp τ sig (Elt F))).Forall (WritesIn 442 488) := by
  unfold stE_g1l0
  exact
  ⟨writesIn_single main_v244 _ rfl (by decide) (by decide),
   writesIn_single main_v245 _ rfl (by decide) (by decide),
   writesIn_single main_v246 _ rfl (by decide) (by decide),
   writesIn_single main_v247 _ rfl (by decide) (by decide),
   writesIn_single main_v248 _ rfl (by decide) (by decide),
   writesIn_single main_v249 _ rfl (by decide) (by decide),
   writesIn_single main_v250 _ rfl (by decide) (by decide),
   writesIn_single main_v251 _ rfl (by decide) (by decide),
   writesIn_single main_call12_cst _ rfl (by decide) (by decide),
   writesIn_single main_call12_v0 _ rfl (by decide) (by decide),
   writesIn_single main_call12_v1 _ rfl (by decide) (by decide),
   writesIn_single main_call12_cst_0 _ rfl (by decide) (by decide),
   writesIn_single main_call12_v2 _ rfl (by decide) (by decide),
   writesIn_single main_call12_v3 _ rfl (by decide) (by decide),
   writesIn_single main_call12_cst_1 _ rfl (by decide) (by decide),
   writesIn_single main_call12_call0_v0 _ rfl (by decide) (by decide),
   writesIn_single main_call12_call0_v1 _ rfl (by decide) (by decide),
   writesIn_single main_call12_v4 _ rfl (by decide) (by decide),
   writesIn_single main_call12_v5 _ rfl (by decide) (by decide),
   writesIn_single main_call12_cst_2 _ rfl (by decide) (by decide),
   writesIn_single main_call12_v6 _ rfl (by decide) (by decide),
   writesIn_single main_call12_v7 _ rfl (by decide) (by decide),
   writesIn_single main_v252 _ rfl (by decide) (by decide),
   writesIn_single main_v253 _ rfl (by decide) (by decide),
   writesIn_single main_v254 _ rfl (by decide) (by decide),
   writesIn_single main_v255 _ rfl (by decide) (by decide),
   writesIn_single main_v256 _ rfl (by decide) (by decide),
   writesIn_single main_v257 _ rfl (by decide) (by decide),
   writesIn_single main_v258 _ rfl (by decide) (by decide),
   writesIn_single main_v259 _ rfl (by decide) (by decide),
   writesIn_single main_v260 _ rfl (by decide) (by decide),
   writesIn_single main_call13_cst _ rfl (by decide) (by decide),
   writesIn_single main_call13_v0 _ rfl (by decide) (by decide),
   writesIn_single main_call13_v1 _ rfl (by decide) (by decide),
   writesIn_single main_call13_cst_0 _ rfl (by decide) (by decide),
   writesIn_single main_call13_v2 _ rfl (by decide) (by decide),
   writesIn_single main_call13_v3 _ rfl (by decide) (by decide),
   writesIn_single main_call13_cst_1 _ rfl (by decide) (by decide),
   writesIn_single main_call13_call0_v0 _ rfl (by decide) (by decide),
   writesIn_single main_call13_call0_v1 _ rfl (by decide) (by decide),
   writesIn_single main_call13_v4 _ rfl (by decide) (by decide),
   writesIn_single main_call13_v5 _ rfl (by decide) (by decide),
   writesIn_single main_call13_cst_2 _ rfl (by decide) (by decide),
   writesIn_single main_call13_v6 _ rfl (by decide) (by decide),
   writesIn_single main_call13_v7 _ rfl (by decide) (by decide),
   writesIn_single main_v261 _ rfl (by decide) (by decide)⟩

/-- A buffer outside the stretch's range keeps its contents through it. -/
theorem stE_g1l0_keep (W : Valuation τ sig (Elt F)) (r : Ref sig .tc) (hr : r.idx.val < 442 ∨ 488 ≤ r.idx.val) :
    after stE_g1l0 W (no_index (Proc.devRef .tc r)) = W (Proc.devRef .tc r) :=
  after_keep stE_g1l0 W stE_g1l0_writes r hr

set_option maxRecDepth 8192 in
set_option maxHeartbeats 4000000 in
/-- After them the hidden features are the embedding of the layer's input. -/
theorem embed_g1l0 (W : Valuation τ sig (Elt F)) :
    after stE_g1l0 W (no_index (Proc.devRef .tc main_v261))
      = embedR (W (Proc.devRef .tc main_arg1)) (W (Proc.devRef .tc main_arg9)) (W (Proc.devRef .tc main_arg10)) := by
  simp only [stE_g1l0]
  after_results_simp
  rfl

/-- The aggregate's operations: the Gram matrix, its mean, the mask, plus the identity, times the input. -/
noncomputable def stA_g1l0 : List (HloOp τ sig (Elt F)) :=
  [ unary main_v261 main_v262 ((transpose S256x4096 [1, 0] · transposes_S4096x256_S256x4096_1_0) : (⟨S4096x256, .f32⟩ : BufTy).Contents (Elt F) → (⟨S256x4096, .f32⟩ : BufTy).Contents (Elt F)),
    binary main_v261 main_v262 main_v263 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_24 (constant S_ .f32 0x00000000#32),
    binary main_v263 main_cst_24 main_v264 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_25 (constant S_ .f32 0x4B800000#32),
    binary main_v264 main_cst_25 main_v265 (Host.divf : (⟨S_, .f32⟩ : BufTy).Contents (Elt F) → (⟨S_, .f32⟩ : BufTy).Contents (Elt F) → (⟨S_, .f32⟩ : BufTy).Contents (Elt F)),
    unary main_v265 main_v266 (broadcastInDim S4096x4096 ![] bcast_S_S4096x4096 : (⟨S_, .f32⟩ : BufTy).Contents (Elt F) → (⟨S4096x4096, .f32⟩ : BufTy).Contents (Elt F)),
    binary main_v263 main_v266 main_v267 (cmpf .ogt : (⟨S4096x4096, .f32⟩ : BufTy).Contents (Elt F) → (⟨S4096x4096, .f32⟩ : BufTy).Contents (Elt F) → (⟨S4096x4096, .i1⟩ : BufTy).Contents (Elt F)),
    unary main_v267 main_v268 (uitofp .f32 : (⟨S4096x4096, .i1⟩ : BufTy).Contents (Elt F) → (⟨S4096x4096, .f32⟩ : BufTy).Contents (Elt F)),
    nullary main_cst_26 (constant S_ .f32 0x3F800000#32),
    unary main_cst_26 main_v269 (broadcastInDim S4096x4096 ![] bcast_S_S4096x4096 : (⟨S_, .f32⟩ : BufTy).Contents (Elt F) → (⟨S4096x4096, .f32⟩ : BufTy).Contents (Elt F)),
    binary main_v269 main_v242 main_v270 (mulf : (⟨S4096x4096, .f32⟩ : BufTy).Contents (Elt F) → (⟨S4096x4096, .f32⟩ : BufTy).Contents (Elt F) → (⟨S4096x4096, .f32⟩ : BufTy).Contents (Elt F)),
    binary main_v268 main_v270 main_v271 (addf : (⟨S4096x4096, .f32⟩ : BufTy).Contents (Elt F) → (⟨S4096x4096, .f32⟩ : BufTy).Contents (Elt F) → (⟨S4096x4096, .f32⟩ : BufTy).Contents (Elt F)),
    binary main_v271 main_arg1 main_v272 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]

set_option maxRecDepth 8192 in
theorem stA_g1l0_writes : (stA_g1l0 : List (HloOp τ sig (Elt F))).Forall (WritesIn 488 502) := by
  unfold stA_g1l0
  exact
  ⟨writesIn_single main_v262 _ rfl (by decide) (by decide),
   writesIn_single main_v263 _ rfl (by decide) (by decide),
   writesIn_single main_cst_24 _ rfl (by decide) (by decide),
   writesIn_single main_v264 _ rfl (by decide) (by decide),
   writesIn_single main_cst_25 _ rfl (by decide) (by decide),
   writesIn_single main_v265 _ rfl (by decide) (by decide),
   writesIn_single main_v266 _ rfl (by decide) (by decide),
   writesIn_single main_v267 _ rfl (by decide) (by decide),
   writesIn_single main_v268 _ rfl (by decide) (by decide),
   writesIn_single main_cst_26 _ rfl (by decide) (by decide),
   writesIn_single main_v269 _ rfl (by decide) (by decide),
   writesIn_single main_v270 _ rfl (by decide) (by decide),
   writesIn_single main_v271 _ rfl (by decide) (by decide),
   writesIn_single main_v272 _ rfl (by decide) (by decide)⟩

/-- A buffer outside the stretch's range keeps its contents through it. -/
theorem stA_g1l0_keep (W : Valuation τ sig (Elt F)) (r : Ref sig .tc) (hr : r.idx.val < 488 ∨ 502 ≤ r.idx.val) :
    after stA_g1l0 W (no_index (Proc.devRef .tc r)) = W (Proc.devRef .tc r) :=
  after_keep stA_g1l0 W stA_g1l0_writes r hr

set_option maxRecDepth 8192 in
set_option maxHeartbeats 4000000 in
/-- After them: the aggregate of the hidden features and the layer's input over the identity matrix's buffer. -/
theorem agg_g1l0 (W : Valuation τ sig (Elt F)) :
    after stA_g1l0 W (no_index (Proc.devRef .tc main_v272))
      = aggF (W (Proc.devRef .tc main_v242)) (W (Proc.devRef .tc main_v261)) (W (Proc.devRef .tc main_arg1)) := by
  simp only [stA_g1l0]
  after_results_simp
  rfl

/-- The perceptron's operations (the layer's slices of the stacked parameters first) and the accumulation. -/
noncomputable def stM_g1l0 : List (HloOp τ sig (Elt F)) :=
  [ unary main_arg11 main_v273 ((extractStridedSlice S1x2x256x256 ![0, 0, 0, 0] · slices_S3x2x256x256_S1x2x256x256_0_0_0_0) : (⟨S3x2x256x256, .f32⟩ : BufTy).Contents (Elt F) → (⟨S1x2x256x256, .f32⟩ : BufTy).Contents (Elt F)),
    reshape main_v273 main_v274 rfl shapeCasts_S1x2x256x256_S2x256x256,
    unary main_arg12 main_v275 ((extractStridedSlice S1x2x256 ![0, 0, 0] · slices_S3x2x256_S1x2x256_0_0_0) : (⟨S3x2x256, .f32⟩ : BufTy).Contents (Elt F) → (⟨S1x2x256, .f32⟩ : BufTy).Contents (Elt F)),
    reshape main_v275 main_v276 rfl shapeCasts_S1x2x256_S2x256,
    unary main_arg13 main_v277 ((extractStridedSlice S1x2x256 ![0, 0, 0] · slices_S3x2x256_S1x2x256_0_0_0) : (⟨S3x2x256, .f32⟩ : BufTy).Contents (Elt F) → (⟨S1x2x256, .f32⟩ : BufTy).Contents (Elt F)),
    reshape main_v277 main_v278 rfl shapeCasts_S1x2x256_S2x256,
    unary main_v274 main_v279 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v279 main_v280 rfl shapeCasts_S1x256x256_S256x256,
    binary main_v272 main_v280 main_v281 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v276 main_v282 ((extractStridedSlice S1x256 ![0, 0] · slices_S2x256_S1x256_0_0) : (⟨S2x256, .f32⟩ : BufTy).Contents (Elt F) → (⟨S1x256, .f32⟩ : BufTy).Contents (Elt F)),
    reshape main_v282 main_v283 rfl shapeCasts_S1x256_S256,
    unary main_v283 main_v284 (broadcastInDim S1x256 ![1] bcast_S256_S1x256_1 : (⟨S256, .f32⟩ : BufTy).Contents (Elt F) → (⟨S1x256, .f32⟩ : BufTy).Contents (Elt F)),
    unary main_v284 main_v285 (broadcastInDim S4096x256 ![0, 1] bcast_S1x256_S4096x256_0_1 : (⟨S1x256, .f32⟩ : BufTy).Contents (Elt F) → (⟨S4096x256, .f32⟩ : BufTy).Contents (Elt F)),
    binary main_v281 main_v285 main_v286 (addf : (⟨S4096x256, .f32⟩ : BufTy).Contents (Elt F) → (⟨S4096x256, .f32⟩ : BufTy).Contents (Elt F) → (⟨S4096x256, .f32⟩ : BufTy).Contents (Elt F)),
    nullary main_cst_27 (constant S_ .f32 0x00000000#32),
    binary main_v286 main_cst_27 main_v287 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_28 (constant S_ .f32 0x45800000#32),
    unary main_cst_28 main_v288 (broadcastInDim S256 ![] bcast_S_S256 : (⟨S_, .f32⟩ : BufTy).Contents (Elt F) → (⟨S256, .f32⟩ : BufTy).Contents (Elt F)),
    binary main_v287 main_v288 main_v289 (Host.divf : (⟨S256, .f32⟩ : BufTy).Contents (Elt F) → (⟨S256, .f32⟩ : BufTy).Contents (Elt F) → (⟨S256, .f32⟩ : BufTy).Contents (Elt F)),
    nullary main_c_29 (constantI S_ 32 0#32),
    TRef.nullary main_call14.cst (constant S_ .f32 0x00000000#32),
    TRef.binary (.of main_v286 : TRef sig ⟨S4096x256, .f32⟩) main_call14.cst main_call14.v0 (fun x v => Host.reduceAdd x v reducesTo_S4096x256_S256_d0 h_S_),
    TRef.unary main_call14.v0 main_call14.v1 (broadcastInDim S1x256 ![1] bcast_S256_S1x256_1),
    TRef.nullary main_call14.cst_0 (constant S_ .f32 0x45800000#32),
    TRef.unary main_call14.cst_0 main_call14.v2 (broadcastInDim S1x256 ![] bcast_S_S1x256),
    TRef.binary main_call14.v1 main_call14.v2 main_call14.v3 Host.divf,
    TRef.unary main_call14.v3 main_call14.v4 (broadcastInDim S4096x256 ![0, 1] bcast_S1x256_S4096x256_0_1),
    TRef.binary (.of main_v286 : TRef sig ⟨S4096x256, .f32⟩) main_call14.v4 main_call14.v5 subf,
    TRef.binary main_call14.v5 main_call14.v5 main_call14.v6 mulf,
    TRef.unary (.of main_c_29 : TRef sig ⟨S_, .i32⟩) main_call14.v7 (sitofp .f32),
    TRef.nullary main_call14.cst_1 (constant S_ .f32 0x45800000#32),
    TRef.binary main_call14.cst_1 main_call14.v7 main_call14.v8 subf,
    TRef.nullary main_call14.cst_2 (constant S_ .f32 0x00000000#32),
    TRef.binary main_call14.v6 main_call14.cst_2 main_call14.v9 (fun x v => Host.reduceAdd x v reducesTo_S4096x256_S256_d0 h_S_),
    TRef.unary main_call14.v8 main_call14.v10 (broadcastInDim S256 ![] bcast_S_S256),
    TRef.binary main_call14.v9 main_call14.v10 main_call14.v11 Host.divf,
    TRef.nullary main_call14.cst_3 (constant S_ .f32 0x00000000#32),
    TRef.binary main_call14.v8 main_call14.cst_3 main_call14.v12 (cmpf .ogt),
    TRef.nullary main_call14.cst_4 (constant S_ .f32 0x7FC00000#32),
    TRef.unary main_call14.cst_4 main_call14_call0.v0 id,
    TRef.unary main_call14_call0.v0 main_call14_call0.v1 (broadcastInDim S256 ![] bcast_S_S256),
    TRef.ternary main_call14.v12 main_call14.v11 main_call14_call0.v1 main_call14_call0.v2 (fun p a b => select (broadcastInDim S256 ![] bcast_S_S256 p) a b),
    unary main_v289 main_v291 (broadcastInDim S1x256 ![1] bcast_S256_S1x256_1 : (⟨S256, .f32⟩ : BufTy).Contents (Elt F) → (⟨S1x256, .f32⟩ : BufTy).Contents (Elt F)),
    unary main_v291 main_v292 (broadcastInDim S4096x256 ![0, 1] bcast_S1x256_S4096x256_0_1 : (⟨S1x256, .f32⟩ : BufTy).Contents (Elt F) → (⟨S4096x256, .f32⟩ : BufTy).Contents (Elt F)),
    binary main_v286 main_v292 main_v293 (subf : (⟨S4096x256, .f32⟩ : BufTy).Contents (Elt F) → (⟨S4096x256, .f32⟩ : BufTy).Contents (Elt F) → (⟨S4096x256, .f32⟩ : BufTy).Contents (Elt F)),
    nullary main_cst_30 (constant S_ .f32 0x3727C5AC#32),
    unary main_cst_30 main_v294 (broadcastInDim S256 ![] bcast_S_S256 : (⟨S_, .f32⟩ : BufTy).Contents (Elt F) → (⟨S256, .f32⟩ : BufTy).Contents (Elt F)),
    binary main_v290 main_v294 main_v295 (addf : (⟨S256, .f32⟩ : BufTy).Contents (Elt F) → (⟨S256, .f32⟩ : BufTy).Contents (Elt F) → (⟨S256, .f32⟩ : BufTy).Contents (Elt F)),
    unary main_v295 main_v296 (Host.rsqrt : (⟨S256, .f32⟩ : BufTy).Contents (Elt F) → (⟨S256, .f32⟩ : BufTy).Contents (Elt F)),
    unary main_v296 main_v297 (broadcastInDim S1x256 ![1] bcast_S256_S1x256_1 : (⟨S256, .f32⟩ : BufTy).Contents (Elt F) → (⟨S1x256, .f32⟩ : BufTy).Contents (Elt F)),
    unary main_v297 main_v298 (broadcastInDim S4096x256 ![0, 1] bcast_S1x256_S4096x256_0_1 : (⟨S1x256, .f32⟩ : BufTy).Contents (Elt F) → (⟨S4096x256, .f32⟩ : BufTy).Contents (Elt F)),
    binary main_v293 main_v298 main_v299 (mulf : (⟨S4096x256, .f32⟩ : BufTy).Contents (Elt F) → (⟨S4096x256, .f32⟩ : BufTy).Contents (Elt F) → (⟨S4096x256, .f32⟩ : BufTy).Contents (Elt F)),
    unary main_v278 main_v300 ((extractStridedSlice S1x256 ![0, 0] · slices_S2x256_S1x256_0_0) : (⟨S2x256, .f32⟩ : BufTy).Contents (Elt F) → (⟨S1x256, .f32⟩ : BufTy).Contents (Elt F)),
    reshape main_v300 main_v301 rfl shapeCasts_S1x256_S256,
    unary main_v301 main_v302 (broadcastInDim S1x256 ![1] bcast_S256_S1x256_1 : (⟨S256, .f32⟩ : BufTy).Contents (Elt F) → (⟨S1x256, .f32⟩ : BufTy).Contents (Elt F)),
    unary main_v302 main_v303 (broadcastInDim S4096x256 ![0, 1] bcast_S1x256_S4096x256_0_1 : (⟨S1x256, .f32⟩ : BufTy).Contents (Elt F) → (⟨S4096x256, .f32⟩ : BufTy).Contents (Elt F)),
    binary main_v299 main_v303 main_v304 (mulf : (⟨S4096x256, .f32⟩ : BufTy).Contents (Elt F) → (⟨S4096x256, .f32⟩ : BufTy).Contents (Elt F) → (⟨S4096x256, .f32⟩ : BufTy).Contents (Elt F)),
    unary main_v278 main_v305 ((extractStridedSlice S1x256 ![1, 0] · slices_S2x256_S1x256_1_0) : (⟨S2x256, .f32⟩ : BufTy).Contents (Elt F) → (⟨S1x256, .f32⟩ : BufTy).Contents (Elt F)),
    reshape main_v305 main_v306 rfl shapeCasts_S1x256_S256,
    unary main_v306 main_v307 (broadcastInDim S1x256 ![1] bcast_S256_S1x256_1 : (⟨S256, .f32⟩ : BufTy).Contents (Elt F) → (⟨S1x256, .f32⟩ : BufTy).Contents (Elt F)),
    unary main_v307 main_v308 (broadcastInDim S4096x256 ![0, 1] bcast_S1x256_S4096x256_0_1 : (⟨S1x256, .f32⟩ : BufTy).Contents (Elt F) → (⟨S4096x256, .f32⟩ : BufTy).Contents (Elt F)),
    binary main_v304 main_v308 main_v309 (addf : (⟨S4096x256, .f32⟩ : BufTy).Contents (Elt F) → (⟨S4096x256, .f32⟩ : BufTy).Contents (Elt F) → (⟨S4096x256, .f32⟩ : BufTy).Contents (Elt F)),
    TRef.nullary main_call15.cst (constant S_ .f32 0x00000000#32),
    TRef.unary main_call15.cst main_call15.v0 (broadcastInDim S4096x256 ![] bcast_S_S4096x256),
    TRef.binary (.of main_v309 : TRef sig ⟨S4096x256, .f32⟩) main_call15.v0 main_call15.v1 maximumf,
    unary main_v274 main_v311 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v311 main_v312 rfl shapeCasts_S1x256x256_S256x256,
    binary main_v310 main_v312 main_v313 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v276 main_v314 ((extractStridedSlice S1x256 ![1, 0] · slices_S2x256_S1x256_1_0) : (⟨S2x256, .f32⟩ : BufTy).Contents (Elt F) → (⟨S1x256, .f32⟩ : BufTy).Contents (Elt F)),
    reshape main_v314 main_v315 rfl shapeCasts_S1x256_S256,
    unary main_v315 main_v316 (broadcastInDim S1x256 ![1] bcast_S256_S1x256_1 : (⟨S256, .f32⟩ : BufTy).Contents (Elt F) → (⟨S1x256, .f32⟩ : BufTy).Contents (Elt F)),
    unary main_v316 main_v317 (broadcastInDim S4096x256 ![0, 1] bcast_S1x256_S4096x256_0_1 : (⟨S1x256, .f32⟩ : BufTy).Contents (Elt F) → (⟨S4096x256, .f32⟩ : BufTy).Contents (Elt F)),
    binary main_v313 main_v317 main_v318 (addf : (⟨S4096x256, .f32⟩ : BufTy).Contents (Elt F) → (⟨S4096x256, .f32⟩ : BufTy).Contents (Elt F) → (⟨S4096x256, .f32⟩ : BufTy).Contents (Elt F)),
    binary main_v243 main_v318 main_v319 (addf : (⟨S4096x256, .f32⟩ : BufTy).Contents (Elt F) → (⟨S4096x256, .f32⟩ : BufTy).Contents (Elt F) → (⟨S4096x256, .f32⟩ : BufTy).Contents (Elt F)) ]

set_option maxRecDepth 8192 in
theorem stM_g1l0_writes : (stM_g1l0 : List (HloOp τ sig (Elt F))).Forall (WritesIn 502 576) := by
  unfold stM_g1l0
  exact
  ⟨writesIn_single main_v273 _ rfl (by decide) (by decide),
   writesIn_single main_v274 _ rfl (by decide) (by decide),
   writesIn_single main_v275 _ rfl (by decide) (by decide),
   writesIn_single main_v276 _ rfl (by decide) (by decide),
   writesIn_single main_v277 _ rfl (by decide) (by decide),
   writesIn_single main_v278 _ rfl (by decide) (by decide),
   writesIn_single main_v279 _ rfl (by decide) (by decide),
   writesIn_single main_v280 _ rfl (by decide) (by decide),
   writesIn_single main_v281 _ rfl (by decide) (by decide),
   writesIn_single main_v282 _ rfl (by decide) (by decide),
   writesIn_single main_v283 _ rfl (by decide) (by decide),
   writesIn_single main_v284 _ rfl (by decide) (by decide),
   writesIn_single main_v285 _ rfl (by decide) (by decide),
   writesIn_single main_v286 _ rfl (by decide) (by decide),
   writesIn_single main_cst_27 _ rfl (by decide) (by decide),
   writesIn_single main_v287 _ rfl (by decide) (by decide),
   writesIn_single main_cst_28 _ rfl (by decide) (by decide),
   writesIn_single main_v288 _ rfl (by decide) (by decide),
   writesIn_single main_v289 _ rfl (by decide) (by decide),
   writesIn_single main_c_29 _ rfl (by decide) (by decide),
   writesIn_single main_call14_cst _ rfl (by decide) (by decide),
   writesIn_single main_call14_v0 _ rfl (by decide) (by decide),
   writesIn_single main_call14_v1 _ rfl (by decide) (by decide),
   writesIn_single main_call14_cst_0 _ rfl (by decide) (by decide),
   writesIn_single main_call14_v2 _ rfl (by decide) (by decide),
   writesIn_single main_call14_v3 _ rfl (by decide) (by decide),
   writesIn_single main_call14_v4 _ rfl (by decide) (by decide),
   writesIn_single main_call14_v5 _ rfl (by decide) (by decide),
   writesIn_single main_call14_v6 _ rfl (by decide) (by decide),
   writesIn_single main_call14_v7 _ rfl (by decide) (by decide),
   writesIn_single main_call14_cst_1 _ rfl (by decide) (by decide),
   writesIn_single main_call14_v8 _ rfl (by decide) (by decide),
   writesIn_single main_call14_cst_2 _ rfl (by decide) (by decide),
   writesIn_single main_call14_v9 _ rfl (by decide) (by decide),
   writesIn_single main_call14_v10 _ rfl (by decide) (by decide),
   writesIn_single main_call14_v11 _ rfl (by decide) (by decide),
   writesIn_single main_call14_cst_3 _ rfl (by decide) (by decide),
   writesIn_single main_call14_v12 _ rfl (by decide) (by decide),
   writesIn_single main_call14_cst_4 _ rfl (by decide) (by decide),
   writesIn_single main_call14_call0_v0 _ rfl (by decide) (by decide),
   writesIn_single main_call14_call0_v1 _ rfl (by decide) (by decide),
   writesIn_single main_v290 _ rfl (by decide) (by decide),
   writesIn_single main_v291 _ rfl (by decide) (by decide),
   writesIn_single main_v292 _ rfl (by decide) (by decide),
   writesIn_single main_v293 _ rfl (by decide) (by decide),
   writesIn_single main_cst_30 _ rfl (by decide) (by decide),
   writesIn_single main_v294 _ rfl (by decide) (by decide),
   writesIn_single main_v295 _ rfl (by decide) (by decide),
   writesIn_single main_v296 _ rfl (by decide) (by decide),
   writesIn_single main_v297 _ rfl (by decide) (by decide),
   writesIn_single main_v298 _ rfl (by decide) (by decide),
   writesIn_single main_v299 _ rfl (by decide) (by decide),
   writesIn_single main_v300 _ rfl (by decide) (by decide),
   writesIn_single main_v301 _ rfl (by decide) (by decide),
   writesIn_single main_v302 _ rfl (by decide) (by decide),
   writesIn_single main_v303 _ rfl (by decide) (by decide),
   writesIn_single main_v304 _ rfl (by decide) (by decide),
   writesIn_single main_v305 _ rfl (by decide) (by decide),
   writesIn_single main_v306 _ rfl (by decide) (by decide),
   writesIn_single main_v307 _ rfl (by decide) (by decide),
   writesIn_single main_v308 _ rfl (by decide) (by decide),
   writesIn_single main_v309 _ rfl (by decide) (by decide),
   writesIn_single main_call15_cst _ rfl (by decide) (by decide),
   writesIn_single main_call15_v0 _ rfl (by decide) (by decide),
   writesIn_single main_v310 _ rfl (by decide) (by decide),
   writesIn_single main_v311 _ rfl (by decide) (by decide),
   writesIn_single main_v312 _ rfl (by decide) (by decide),
   writesIn_single main_v313 _ rfl (by decide) (by decide),
   writesIn_single main_v314 _ rfl (by decide) (by decide),
   writesIn_single main_v315 _ rfl (by decide) (by decide),
   writesIn_single main_v316 _ rfl (by decide) (by decide),
   writesIn_single main_v317 _ rfl (by decide) (by decide),
   writesIn_single main_v318 _ rfl (by decide) (by decide),
   writesIn_single main_v319 _ rfl (by decide) (by decide)⟩

/-- A buffer outside the stretch's range keeps its contents through it. -/
theorem stM_g1l0_keep (W : Valuation τ sig (Elt F)) (r : Ref sig .tc) (hr : r.idx.val < 502 ∨ 576 ≤ r.idx.val) :
    after stM_g1l0 W (no_index (Proc.devRef .tc r)) = W (Proc.devRef .tc r) :=
  after_keep stM_g1l0 W stM_g1l0_writes r hr

set_option maxRecDepth 8192 in
set_option maxHeartbeats 4000000 in
/-- After them the layer's output is the perceptron of the aggregate. -/
theorem mlp_g1l0 (W : Valuation τ sig (Elt F)) :
    after stM_g1l0 W (no_index (Proc.devRef .tc main_v318))
      = mlpR (W (Proc.devRef .tc main_v272)) (sliceW0 (W (Proc.devRef .tc main_arg11))) (sliceB0 (W (Proc.devRef .tc main_arg12))) (sliceB0 (W (Proc.devRef .tc main_arg13))) := by
  simp only [stM_g1l0]
  after_results_simp
  rfl

set_option maxRecDepth 8192 in
set_option maxHeartbeats 4000000 in
/-- And the accumulator is the previous sum plus the layer's output. -/
theorem acc_g1l0 (W : Valuation τ sig (Elt F)) :
    after stM_g1l0 W (no_index (Proc.devRef .tc main_v319))
      = addf (W (Proc.devRef .tc main_v243))
          (mlpR (W (Proc.devRef .tc main_v272)) (sliceW0 (W (Proc.devRef .tc main_arg11))) (sliceB0 (W (Proc.devRef .tc main_arg12))) (sliceB0 (W (Proc.devRef .tc main_arg13)))) := by
  simp only [stM_g1l0]
  after_results_simp
  rfl

end Cert.ReferenceIdeal.Hand

end
-- ==== Proof.RefValL_g1l1.lean ====
/-
  One GIN layer of the reference, read back: the layer's operations in three stretches — the embedding of the layer's
  input (46 operations), the aggregate (14), the perceptron with the accumulation (74) — and, for any contents W
  before a stretch, what the stretch leaves at the buffers later stretches read, as the stage functions of
  RefFns applied to W at the buffers the stretch reads. Every other buffer keeps what it held.
-/
import proofs.«169706_j68856915690108_1_alg».proof.Proof.Gen.ReferenceIdeal
import proofs.«169706_j68856915690108_1_alg».proof.Proof.RefLib
import proofs.«169706_j68856915690108_1_alg».proof.Proof.RefFns
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The embedding's operations: two dense layers, each followed by ELU. -/
noncomputable def stE_g1l1 : List (HloOp τ sig (Elt F)) :=
  [ unary main_arg9 main_v320 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v320 main_v321 rfl shapeCasts_S1x256x256_S256x256,
    binary main_v318 main_v321 main_v322 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v323 ((extractStridedSlice S1x256 ![0, 0] · slices_S2x256_S1x256_0_0) : (⟨S2x256, .f32⟩ : BufTy).Contents (Elt F) → (⟨S1x256, .f32⟩ : BufTy).Contents (Elt F)),
    reshape main_v323 main_v324 rfl shapeCasts_S1x256_S256,
    unary main_v324 main_v325 (broadcastInDim S1x256 ![1] bcast_S256_S1x256_1 : (⟨S256, .f32⟩ : BufTy).Contents (Elt F) → (⟨S1x256, .f32⟩ : BufTy).Contents (Elt F)),
    unary main_v325 main_v326 (broadcastInDim S4096x256 ![0, 1] bcast_S1x256_S4096x256_0_1 : (⟨S1x256, .f32⟩ : BufTy).Contents (Elt F) → (⟨S4096x256, .f32⟩ : BufTy).Contents (Elt F)),
    binary main_v322 main_v326 main_v327 (addf : (⟨S4096x256, .f32⟩ : BufTy).Contents (Elt F) → (⟨S4096x256, .f32⟩ : BufTy).Contents (Elt F) → (⟨S4096x256, .f32⟩ : BufTy).Contents (Elt F)),
    TRef.nullary main_call16.cst (constant S_ .f32 0x00000000#32),
    TRef.unary main_call16.cst main_call16.v0 (broadcastInDim S4096x256 ![] bcast_S_S4096x256),
    TRef.binary (.of main_v327 : TRef sig ⟨S4096x256, .f32⟩) main_call16.v0 main_call16.v1 (cmpf .ogt),
    TRef.nullary main_call16.cst_0 (constant S_ .f32 0x00000000#32),
    TRef.unary main_call16.cst_0 main_call16.v2 (broadcastInDim S4096x256 ![] bcast_S_S4096x256),
    TRef.binary (.of main_v327 : TRef sig ⟨S4096x256, .f32⟩) main_call16.v2 main_call16.v3 (cmpf .ogt),
    TRef.nullary main_call16.cst_1 (constant S_ .f32 0x00000000#32),
    TRef.unary main_call16.cst_1 main_call16_call0.v0 id,
    TRef.unary main_call16_call0.v0 main_call16_call0.v1 (broadcastInDim S4096x256 ![] bcast_S_S4096x256),
    TRef.ternary main_call16.v3 main_call16_call0.v1 (.of main_v327 : TRef sig ⟨S4096x256, .f32⟩) main_call16_call0.v2 select,
    TRef.unary main_call16.call0.v2 main_call16.v5 Host.expm1,
    TRef.nullary main_call16.cst_2 (constant S_ .f32 0x3F800000#32),
    TRef.unary main_call16.cst_2 main_call16.v6 (broadcastInDim S4096x256 ![] bcast_S_S4096x256),
    TRef.binary main_call16.v6 main_call16.v5 main_call16.v7 mulf,
    TRef.ternary main_call16.v1 (.of main_v327 : TRef sig ⟨S4096x256, .f32⟩) main_call16.v7 main_call16_call1.v0 select,
    unary main_arg9 main_v329 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v329 main_v330 rfl shapeCasts_S1x256x256_S256x256,
    binary main_v328 main_v330 main_v331 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v332 ((extractStridedSlice S1x256 ![1, 0] · slices_S2x256_S1x256_1_0) : (⟨S2x256, .f32⟩ : BufTy).Contents (Elt F) → (⟨S1x256, .f32⟩ : BufTy).Contents (Elt F)),
    reshape main_v332 main_v333 rfl shapeCasts_S1x256_S256,
    unary main_v333 main_v334 (broadcastInDim S1x256 ![1] bcast_S256_S1x256_1 : (⟨S256, .f32⟩ : BufTy).Contents (Elt F) → (⟨S1x256, .f32⟩ : BufTy).Contents (Elt F)),
    unary main_v334 main_v335 (broadcastInDim S4096x256 ![0, 1] bcast_S1x256_S4096x256_0_1 : (⟨S1x256, .f32⟩ : BufTy).Contents (Elt F) → (⟨S4096x256, .f32⟩ : BufTy).Contents (Elt F)),
    binary main_v331 main_v335 main_v336 (addf : (⟨S4096x256, .f32⟩ : BufTy).Contents (Elt F) → (⟨S4096x256, .f32⟩ : BufTy).Contents (Elt F) → (⟨S4096x256, .f32⟩ : BufTy).Contents (Elt F)),
    TRef.nullary main_call17.cst (constant S_ .f32 0x00000000#32),
    TRef.unary main_call17.cst main_call17.v0 (broadcastInDim S4096x256 ![] bcast_S_S4096x256),
    TRef.binary (.of main_v336 : TRef sig ⟨S4096x256, .f32⟩) main_call17.v0 main_call17.v1 (cmpf .ogt),
    TRef.nullary main_call17.cst_0 (constant S_ .f32 0x00000000#32),
    TRef.unary main_call17.cst_0 main_call17.v2 (broadcastInDim S4096x256 ![] bcast_S_S4096x256),
    TRef.binary (.of main_v336 : TRef sig ⟨S4096x256, .f32⟩) main_call17.v2 main_call17.v3 (cmpf .ogt),
    TRef.nullary main_call17.cst_1 (constant S_ .f32 0x00000000#32),
    TRef.unary main_call17.cst_1 main_call17_call0.v0 id,
    TRef.unary main_call17_call0.v0 main_call17_call0.v1 (broadcastInDim S4096x256 ![] bcast_S_S4096x256),
    TRef.ternary main_call17.v3 main_call17_call0.v1 (.of main_v336 : TRef sig ⟨S4096x256, .f32⟩) main_call17_call0.v2 select,
    TRef.unary main_call17.call0.v2 main_call17.v5 Host.expm1,
    TRef.nullary main_call17.cst_2 (constant S_ .f32 0x3F800000#32),
    TRef.unary main_call17.cst_2 main_call17.v6 (broadcastInDim S4096x256 ![] bcast_S_S4096x256),
    TRef.binary main_call17.v6 main_call17.v5 main_call17.v7 mulf,
    TRef.ternary main_call17.v1 (.of main_v336 : TRef sig ⟨S4096x256, .f32⟩) main_call17.v7 main_call17_call1.v0 select ]

set_option maxRecDepth 8192 in
theorem stE_g1l1_writes : (stE_g1l1 : List (HloOp τ sig (Elt F))).Forall (WritesIn 576 622) := by
  unfold stE_g1l1
  exact
  ⟨writesIn_single main_v320 _ rfl (by decide) (by decide),
   writesIn_single main_v321 _ rfl (by decide) (by decide),
   writesIn_single main_v322 _ rfl (by decide) (by decide),
   writesIn_single main_v323 _ rfl (by decide) (by decide),
   writesIn_single main_v324 _ rfl (by decide) (by decide),
   writesIn_single main_v325 _ rfl (by decide) (by decide),
   writesIn_single main_v326 _ rfl (by decide) (by decide),
   writesIn_single main_v327 _ rfl (by decide) (by decide),
   writesIn_single main_call16_cst _ rfl (by decide) (by decide),
   writesIn_single main_call16_v0 _ rfl (by decide) (by decide),
   writesIn_single main_call16_v1 _ rfl (by decide) (by decide),
   writesIn_single main_call16_cst_0 _ rfl (by decide) (by decide),
   writesIn_single main_call16_v2 _ rfl (by decide) (by decide),
   writesIn_single main_call16_v3 _ rfl (by decide) (by decide),
   writesIn_single main_call16_cst_1 _ rfl (by decide) (by decide),
   writesIn_single main_call16_call0_v0 _ rfl (by decide) (by decide),
   writesIn_single main_call16_call0_v1 _ rfl (by decide) (by decide),
   writesIn_single main_call16_v4 _ rfl (by decide) (by decide),
   writesIn_single main_call16_v5 _ rfl (by decide) (by decide),
   writesIn_single main_call16_cst_2 _ rfl (by decide) (by decide),
   writesIn_single main_call16_v6 _ rfl (by decide) (by decide),
   writesIn_single main_call16_v7 _ rfl (by decide) (by decide),
   writesIn_single main_v328 _ rfl (by decide) (by decide),
   writesIn_single main_v329 _ rfl (by decide) (by decide),
   writesIn_single main_v330 _ rfl (by decide) (by decide),
   writesIn_single main_v331 _ rfl (by decide) (by decide),
   writesIn_single main_v332 _ rfl (by decide) (by decide),
   writesIn_single main_v333 _ rfl (by decide) (by decide),
   writesIn_single main_v334 _ rfl (by decide) (by decide),
   writesIn_single main_v335 _ rfl (by decide) (by decide),
   writesIn_single main_v336 _ rfl (by decide) (by decide),
   writesIn_single main_call17_cst _ rfl (by decide) (by decide),
   writesIn_single main_call17_v0 _ rfl (by decide) (by decide),
   writesIn_single main_call17_v1 _ rfl (by decide) (by decide),
   writesIn_single main_call17_cst_0 _ rfl (by decide) (by decide),
   writesIn_single main_call17_v2 _ rfl (by decide) (by decide),
   writesIn_single main_call17_v3 _ rfl (by decide) (by decide),
   writesIn_single main_call17_cst_1 _ rfl (by decide) (by decide),
   writesIn_single main_call17_call0_v0 _ rfl (by decide) (by decide),
   writesIn_single main_call17_call0_v1 _ rfl (by decide) (by decide),
   writesIn_single main_call17_v4 _ rfl (by decide) (by decide),
   writesIn_single main_call17_v5 _ rfl (by decide) (by decide),
   writesIn_single main_call17_cst_2 _ rfl (by decide) (by decide),
   writesIn_single main_call17_v6 _ rfl (by decide) (by decide),
   writesIn_single main_call17_v7 _ rfl (by decide) (by decide),
   writesIn_single main_v337 _ rfl (by decide) (by decide)⟩

/-- A buffer outside the stretch's range keeps its contents through it. -/
theorem stE_g1l1_keep (W : Valuation τ sig (Elt F)) (r : Ref sig .tc) (hr : r.idx.val < 576 ∨ 622 ≤ r.idx.val) :
    after stE_g1l1 W (no_index (Proc.devRef .tc r)) = W (Proc.devRef .tc r) :=
  after_keep stE_g1l1 W stE_g1l1_writes r hr

set_option maxRecDepth 8192 in
set_option maxHeartbeats 4000000 in
/-- After them the hidden features are the embedding of the layer's input. -/
theorem embed_g1l1 (W : Valuation τ sig (Elt F)) :
    after stE_g1l1 W (no_index (Proc.devRef .tc main_v337))
      = embedR (W (Proc.devRef .tc main_v318)) (W (Proc.devRef .tc main_arg9)) (W (Proc.devRef .tc main_arg10)) := by
  simp only [stE_g1l1]
  after_results_simp
  rfl

/-- The aggregate's operations: the Gram matrix, its mean, the mask, plus the identity, times the input. -/
noncomputable def stA_g1l1 : List (HloOp τ sig (Elt F)) :=
  [ unary main_v337 main_v338 ((transpose S256x4096 [1, 0] · transposes_S4096x256_S256x4096_1_0) : (⟨S4096x256, .f32⟩ : BufTy).Contents (Elt F) → (⟨S256x4096, .f32⟩ : BufTy).Contents (Elt F)),
    binary main_v337 main_v338 main_v339 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_31 (constant S_ .f32 0x00000000#32),
    binary main_v339 main_cst_31 main_v340 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_32 (constant S_ .f32 0x4B800000#32),
    binary main_v340 main_cst_32 main_v341 (Host.divf : (⟨S_, .f32⟩ : BufTy).Contents (Elt F) → (⟨S_, .f32⟩ : BufTy).Contents (Elt F) → (⟨S_, .f32⟩ : BufTy).Contents (Elt F)),
    unary main_v341 main_v342 (broadcastInDim S4096x4096 ![] bcast_S_S4096x4096 : (⟨S_, .f32⟩ : BufTy).Contents (Elt F) → (⟨S4096x4096, .f32⟩ : BufTy).Contents (Elt F)),
    binary main_v339 main_v342 main_v343 (cmpf .ogt : (⟨S4096x4096, .f32⟩ : BufTy).Contents (Elt F) → (⟨S4096x4096, .f32⟩ : BufTy).Contents (Elt F) → (⟨S4096x4096, .i1⟩ : BufTy).Contents (Elt F)),
    unary main_v343 main_v344 (uitofp .f32 : (⟨S4096x4096, .i1⟩ : BufTy).Contents (Elt F) → (⟨S4096x4096, .f32⟩ : BufTy).Contents (Elt F)),
    nullary main_cst_33 (constant S_ .f32 0x3F800000#32),
    unary main_cst_33 main_v345 (broadcastInDim S4096x4096 ![] bcast_S_S4096x4096 : (⟨S_, .f32⟩ : BufTy).Contents (Elt F) → (⟨S4096x4096, .f32⟩ : BufTy).Contents (Elt F)),
    binary main_v345 main_v242 main_v346 (mulf : (⟨S4096x4096, .f32⟩ : BufTy).Contents (Elt F) → (⟨S4096x4096, .f32⟩ : BufTy).Contents (Elt F) → (⟨S4096x4096, .f32⟩ : BufTy).Contents (Elt F)),
    binary main_v344 main_v346 main_v347 (addf : (⟨S4096x4096, .f32⟩ : BufTy).Contents (Elt F) → (⟨S4096x4096, .f32⟩ : BufTy).Contents (Elt F) → (⟨S4096x4096, .f32⟩ : BufTy).Contents (Elt F)),
    binary main_v347 main_v318 main_v348 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]

set_option maxRecDepth 8192 in
theorem stA_g1l1_writes : (stA_g1l1 : List (HloOp τ sig (Elt F))).Forall (WritesIn 622 636) := by
  unfold stA_g1l1
  exact
  ⟨writesIn_single main_v338 _ rfl (by decide) (by decide),
   writesIn_single main_v339 _ rfl (by decide) (by decide),
   writesIn_single main_cst_31 _ rfl (by decide) (by decide),
   writesIn_single main_v340 _ rfl (by decide) (by decide),
   writesIn_single main_cst_32 _ rfl (by decide) (by decide),
   writesIn_single main_v341 _ rfl (by decide) (by decide),
   writesIn_single main_v342 _ rfl (by decide) (by decide),
   writesIn_single main_v343 _ rfl (by decide) (by decide),
   writesIn_single main_v344 _ rfl (by decide) (by decide),
   writesIn_single main_cst_33 _ rfl (by decide) (by decide),
   writesIn_single main_v345 _ rfl (by decide) (by decide),
   writesIn_single main_v346 _ rfl (by decide) (by decide),
   writesIn_single main_v347 _ rfl (by decide) (by decide),
   writesIn_single main_v348 _ rfl (by decide) (by decide)⟩

/-- A buffer outside the stretch's range keeps its contents through it. -/
theorem stA_g1l1_keep (W : Valuation τ sig (Elt F)) (r : Ref sig .tc) (hr : r.idx.val < 622 ∨ 636 ≤ r.idx.val) :
    after stA_g1l1 W (no_index (Proc.devRef .tc r)) = W (Proc.devRef .tc r) :=
  after_keep stA_g1l1 W stA_g1l1_writes r hr

set_option maxRecDepth 8192 in
set_option maxHeartbeats 4000000 in
/-- After them: the aggregate of the hidden features and the layer's input over the identity matrix's buffer. -/
theorem agg_g1l1 (W : Valuation τ sig (Elt F)) :
    after stA_g1l1 W (no_index (Proc.devRef .tc main_v348))
      = aggF (W (Proc.devRef .tc main_v242)) (W (Proc.devRef .tc main_v337)) (W (Proc.devRef .tc main_v318)) := by
  simp only [stA_g1l1]
  after_results_simp
  rfl

/-- The perceptron's operations (the layer's slices of the stacked parameters first) and the accumulation. -/
noncomputable def stM_g1l1 : List (HloOp τ sig (Elt F)) :=
  [ unary main_arg11 main_v349 ((extractStridedSlice S1x2x256x256 ![1, 0, 0, 0] · slices_S3x2x256x256_S1x2x256x256_1_0_0_0) : (⟨S3x2x256x256, .f32⟩ : BufTy).Contents (Elt F) → (⟨S1x2x256x256, .f32⟩ : BufTy).Contents (Elt F)),
    reshape main_v349 main_v350 rfl shapeCasts_S1x2x256x256_S2x256x256,
    unary main_arg12 main_v351 ((extractStridedSlice S1x2x256 ![1, 0, 0] · slices_S3x2x256_S1x2x256_1_0_0) : (⟨S3x2x256, .f32⟩ : BufTy).Contents (Elt F) → (⟨S1x2x256, .f32⟩ : BufTy).Contents (Elt F)),
    reshape main_v351 main_v352 rfl shapeCasts_S1x2x256_S2x256,
    unary main_arg13 main_v353 ((extractStridedSlice S1x2x256 ![1, 0, 0] · slices_S3x2x256_S1x2x256_1_0_0) : (⟨S3x2x256, .f32⟩ : BufTy).Contents (Elt F) → (⟨S1x2x256, .f32⟩ : BufTy).Contents (Elt F)),
    reshape main_v353 main_v354 rfl shapeCasts_S1x2x256_S2x256,
    unary main_v350 main_v355 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v355 main_v356 rfl shapeCasts_S1x256x256_S256x256,
    binary main_v348 main_v356 main_v357 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v352 main_v358 ((extractStridedSlice S1x256 ![0, 0] · slices_S2x256_S1x256_0_0) : (⟨S2x256, .f32⟩ : BufTy).Contents (Elt F) → (⟨S1x256, .f32⟩ : BufTy).Contents (Elt F)),
    reshape main_v358 main_v359 rfl shapeCasts_S1x256_S256,
    unary main_v359 main_v360 (broadcastInDim S1x256 ![1] bcast_S256_S1x256_1 : (⟨S256, .f32⟩ : BufTy).Contents (Elt F) → (⟨S1x256, .f32⟩ : BufTy).Contents (Elt F)),
    unary main_v360 main_v361 (broadcastInDim S4096x256 ![0, 1] bcast_S1x256_S4096x256_0_1 : (⟨S1x256, .f32⟩ : BufTy).Contents (Elt F) → (⟨S4096x256, .f32⟩ : BufTy).Contents (Elt F)),
    binary main_v357 main_v361 main_v362 (addf : (⟨S4096x256, .f32⟩ : BufTy).Contents (Elt F) → (⟨S4096x256, .f32⟩ : BufTy).Contents (Elt F) → (⟨S4096x256, .f32⟩ : BufTy).Contents (Elt F)),
    nullary main_cst_34 (constant S_ .f32 0x00000000#32),
    binary main_v362 main_cst_34 main_v363 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_35 (constant S_ .f32 0x45800000#32),
    unary main_cst_35 main_v364 (broadcastInDim S256 ![] bcast_S_S256 : (⟨S_, .f32⟩ : BufTy).Contents (Elt F) → (⟨S256, .f32⟩ : BufTy).Contents (Elt F)),
    binary main_v363 main_v364 main_v365 (Host.divf : (⟨S256, .f32⟩ : BufTy).Contents (Elt F) → (⟨S256, .f32⟩ : BufTy).Contents (Elt F) → (⟨S256, .f32⟩ : BufTy).Contents (Elt F)),
    nullary main_c_36 (constantI S_ 32 0#32),
    TRef.nullary main_call18.cst (constant S_ .f32 0x00000000#32),
    TRef.binary (.of main_v362 : TRef sig ⟨S4096x256, .f32⟩) main_call18.cst main_call18.v0 (fun x v => Host.reduceAdd x v reducesTo_S4096x256_S256_d0 h_S_),
    TRef.unary main_call18.v0 main_call18.v1 (broadcastInDim S1x256 ![1] bcast_S256_S1x256_1),
    TRef.nullary main_call18.cst_0 (constant S_ .f32 0x45800000#32),
    TRef.unary main_call18.cst_0 main_call18.v2 (broadcastInDim S1x256 ![] bcast_S_S1x256),
    TRef.binary main_call18.v1 main_call18.v2 main_call18.v3 Host.divf,
    TRef.unary main_call18.v3 main_call18.v4 (broadcastInDim S4096x256 ![0, 1] bcast_S1x256_S4096x256_0_1),
    TRef.binary (.of main_v362 : TRef sig ⟨S4096x256, .f32⟩) main_call18.v4 main_call18.v5 subf,
    TRef.binary main_call18.v5 main_call18.v5 main_call18.v6 mulf,
    TRef.unary (.of main_c_36 : TRef sig ⟨S_, .i32⟩) main_call18.v7 (sitofp .f32),
    TRef.nullary main_call18.cst_1 (constant S_ .f32 0x45800000#32),
    TRef.binary main_call18.cst_1 main_call18.v7 main_call18.v8 subf,
    TRef.nullary main_call18.cst_2 (constant S_ .f32 0x00000000#32),
    TRef.binary main_call18.v6 main_call18.cst_2 main_call18.v9 (fun x v => Host.reduceAdd x v reducesTo_S4096x256_S256_d0 h_S_),
    TRef.unary main_call18.v8 main_call18.v10 (broadcastInDim S256 ![] bcast_S_S256),
    TRef.binary main_call18.v9 main_call18.v10 main_call18.v11 Host.divf,
    TRef.nullary main_call18.cst_3 (constant S_ .f32 0x00000000#32),
    TRef.binary main_call18.v8 main_call18.cst_3 main_call18.v12 (cmpf .ogt),
    TRef.nullary main_call18.cst_4 (constant S_ .f32 0x7FC00000#32),
    TRef.unary main_call18.cst_4 main_call18_call0.v0 id,
    TRef.unary main_call18_call0.v0 main_call18_call0.v1 (broadcastInDim S256 ![] bcast_S_S256),
    TRef.ternary main_call18.v12 main_call18.v11 main_call18_call0.v1 main_call18_call0.v2 (fun p a b => select (broadcastInDim S256 ![] bcast_S_S256 p) a b),
    unary main_v365 main_v367 (broadcastInDim S1x256 ![1] bcast_S256_S1x256_1 : (⟨S256, .f32⟩ : BufTy).Contents (Elt F) → (⟨S1x256, .f32⟩ : BufTy).Contents (Elt F)),
    unary main_v367 main_v368 (broadcastInDim S4096x256 ![0, 1] bcast_S1x256_S4096x256_0_1 : (⟨S1x256, .f32⟩ : BufTy).Contents (Elt F) → (⟨S4096x256, .f32⟩ : BufTy).Contents (Elt F)),
    binary main_v362 main_v368 main_v369 (subf : (⟨S4096x256, .f32⟩ : BufTy).Contents (Elt F) → (⟨S4096x256, .f32⟩ : BufTy).Contents (Elt F) → (⟨S4096x256, .f32⟩ : BufTy).Contents (Elt F)),
    nullary main_cst_37 (constant S_ .f32 0x3727C5AC#32),
    unary main_cst_37 main_v370 (broadcastInDim S256 ![] bcast_S_S256 : (⟨S_, .f32⟩ : BufTy).Contents (Elt F) → (⟨S256, .f32⟩ : BufTy).Contents (Elt F)),
    binary main_v366 main_v370 main_v371 (addf : (⟨S256, .f32⟩ : BufTy).Contents (Elt F) → (⟨S256, .f32⟩ : BufTy).Contents (Elt F) → (⟨S256, .f32⟩ : BufTy).Contents (Elt F)),
    unary main_v371 main_v372 (Host.rsqrt : (⟨S256, .f32⟩ : BufTy).Contents (Elt F) → (⟨S256, .f32⟩ : BufTy).Contents (Elt F)),
    unary main_v372 main_v373 (broadcastInDim S1x256 ![1] bcast_S256_S1x256_1 : (⟨S256, .f32⟩ : BufTy).Contents (Elt F) → (⟨S1x256, .f32⟩ : BufTy).Contents (Elt F)),
    unary main_v373 main_v374 (broadcastInDim S4096x256 ![0, 1] bcast_S1x256_S4096x256_0_1 : (⟨S1x256, .f32⟩ : BufTy).Contents (Elt F) → (⟨S4096x256, .f32⟩ : BufTy).Contents (Elt F)),
    binary main_v369 main_v374 main_v375 (mulf : (⟨S4096x256, .f32⟩ : BufTy).Contents (Elt F) → (⟨S4096x256, .f32⟩ : BufTy).Contents (Elt F) → (⟨S4096x256, .f32⟩ : BufTy).Contents (Elt F)),
    unary main_v354 main_v376 ((extractStridedSlice S1x256 ![0, 0] · slices_S2x256_S1x256_0_0) : (⟨S2x256, .f32⟩ : BufTy).Contents (Elt F) → (⟨S1x256, .f32⟩ : BufTy).Contents (Elt F)),
    reshape main_v376 main_v377 rfl shapeCasts_S1x256_S256,
    unary main_v377 main_v378 (broadcastInDim S1x256 ![1] bcast_S256_S1x256_1 : (⟨S256, .f32⟩ : BufTy).Contents (Elt F) → (⟨S1x256, .f32⟩ : BufTy).Contents (Elt F)),
    unary main_v378 main_v379 (broadcastInDim S4096x256 ![0, 1] bcast_S1x256_S4096x256_0_1 : (⟨S1x256, .f32⟩ : BufTy).Contents (Elt F) → (⟨S4096x256, .f32⟩ : BufTy).Contents (Elt F)),
    binary main_v375 main_v379 main_v380 (mulf : (⟨S4096x256, .f32⟩ : BufTy).Contents (Elt F) → (⟨S4096x256, .f32⟩ : BufTy).Contents (Elt F) → (⟨S4096x256, .f32⟩ : BufTy).Contents (Elt F)),
    unary main_v354 main_v381 ((extractStridedSlice S1x256 ![1, 0] · slices_S2x256_S1x256_1_0) : (⟨S2x256, .f32⟩ : BufTy).Contents (Elt F) → (⟨S1x256, .f32⟩ : BufTy).Contents (Elt F)),
    reshape main_v381 main_v382 rfl shapeCasts_S1x256_S256,
    unary main_v382 main_v383 (broadcastInDim S1x256 ![1] bcast_S256_S1x256_1 : (⟨S256, .f32⟩ : BufTy).Contents (Elt F) → (⟨S1x256, .f32⟩ : BufTy).Contents (Elt F)),
    unary main_v383 main_v384 (broadcastInDim S4096x256 ![0, 1] bcast_S1x256_S4096x256_0_1 : (⟨S1x256, .f32⟩ : BufTy).Contents (Elt F) → (⟨S4096x256, .f32⟩ : BufTy).Contents (Elt F)),
    binary main_v380 main_v384 main_v385 (addf : (⟨S4096x256, .f32⟩ : BufTy).Contents (Elt F) → (⟨S4096x256, .f32⟩ : BufTy).Contents (Elt F) → (⟨S4096x256, .f32⟩ : BufTy).Contents (Elt F)),
    TRef.nullary main_call19.cst (constant S_ .f32 0x00000000#32),
    TRef.unary main_call19.cst main_call19.v0 (broadcastInDim S4096x256 ![] bcast_S_S4096x256),
    TRef.binary (.of main_v385 : TRef sig ⟨S4096x256, .f32⟩) main_call19.v0 main_call19.v1 maximumf,
    unary main_v350 main_v387 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v387 main_v388 rfl shapeCasts_S1x256x256_S256x256,
    binary main_v386 main_v388 main_v389 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v352 main_v390 ((extractStridedSlice S1x256 ![1, 0] · slices_S2x256_S1x256_1_0) : (⟨S2x256, .f32⟩ : BufTy).Contents (Elt F) → (⟨S1x256, .f32⟩ : BufTy).Contents (Elt F)),
    reshape main_v390 main_v391 rfl shapeCasts_S1x256_S256,
    unary main_v391 main_v392 (broadcastInDim S1x256 ![1] bcast_S256_S1x256_1 : (⟨S256, .f32⟩ : BufTy).Contents (Elt F) → (⟨S1x256, .f32⟩ : BufTy).Contents (Elt F)),
    unary main_v392 main_v393 (broadcastInDim S4096x256 ![0, 1] bcast_S1x256_S4096x256_0_1 : (⟨S1x256, .f32⟩ : BufTy).Contents (Elt F) → (⟨S4096x256, .f32⟩ : BufTy).Contents (Elt F)),
    binary main_v389 main_v393 main_v394 (addf : (⟨S4096x256, .f32⟩ : BufTy).Contents (Elt F) → (⟨S4096x256, .f32⟩ : BufTy).Contents (Elt F) → (⟨S4096x256, .f32⟩ : BufTy).Contents (Elt F)),
    binary main_v319 main_v394 main_v395 (addf : (⟨S4096x256, .f32⟩ : BufTy).Contents (Elt F) → (⟨S4096x256, .f32⟩ : BufTy).Contents (Elt F) → (⟨S4096x256, .f32⟩ : BufTy).Contents (Elt F)) ]

set_option maxRecDepth 8192 in
theorem stM_g1l1_writes : (stM_g1l1 : List (HloOp τ sig (Elt F))).Forall (WritesIn 636 710) := by
  unfold stM_g1l1
  exact
  ⟨writesIn_single main_v349 _ rfl (by decide) (by decide),
   writesIn_single main_v350 _ rfl (by decide) (by decide),
   writesIn_single main_v351 _ rfl (by decide) (by decide),
   writesIn_single main_v352 _ rfl (by decide) (by decide),
   writesIn_single main_v353 _ rfl (by decide) (by decide),
   writesIn_single main_v354 _ rfl (by decide) (by decide),
   writesIn_single main_v355 _ rfl (by decide) (by decide),
   writesIn_single main_v356 _ rfl (by decide) (by decide),
   writesIn_single main_v357 _ rfl (by decide) (by decide),
   writesIn_single main_v358 _ rfl (by decide) (by decide),
   writesIn_single main_v359 _ rfl (by decide) (by decide),
   writesIn_single main_v360 _ rfl (by decide) (by decide),
   writesIn_single main_v361 _ rfl (by decide) (by decide),
   writesIn_single main_v362 _ rfl (by decide) (by decide),
   writesIn_single main_cst_34 _ rfl (by decide) (by decide),
   writesIn_single main_v363 _ rfl (by decide) (by decide),
   writesIn_single main_cst_35 _ rfl (by decide) (by decide),
   writesIn_single main_v364 _ rfl (by decide) (by decide),
   writesIn_single main_v365 _ rfl (by decide) (by decide),
   writesIn_single main_c_36 _ rfl (by decide) (by decide),
   writesIn_single main_call18_cst _ rfl (by decide) (by decide),
   writesIn_single main_call18_v0 _ rfl (by decide) (by decide),
   writesIn_single main_call18_v1 _ rfl (by decide) (by decide),
   writesIn_single main_call18_cst_0 _ rfl (by decide) (by decide),
   writesIn_single main_call18_v2 _ rfl (by decide) (by decide),
   writesIn_single main_call18_v3 _ rfl (by decide) (by decide),
   writesIn_single main_call18_v4 _ rfl (by decide) (by decide),
   writesIn_single main_call18_v5 _ rfl (by decide) (by decide),
   writesIn_single main_call18_v6 _ rfl (by decide) (by decide),
   writesIn_single main_call18_v7 _ rfl (by decide) (by decide),
   writesIn_single main_call18_cst_1 _ rfl (by decide) (by decide),
   writesIn_single main_call18_v8 _ rfl (by decide) (by decide),
   writesIn_single main_call18_cst_2 _ rfl (by decide) (by decide),
   writesIn_single main_call18_v9 _ rfl (by decide) (by decide),
   writesIn_single main_call18_v10 _ rfl (by decide) (by decide),
   writesIn_single main_call18_v11 _ rfl (by decide) (by decide),
   writesIn_single main_call18_cst_3 _ rfl (by decide) (by decide),
   writesIn_single main_call18_v12 _ rfl (by decide) (by decide),
   writesIn_single main_call18_cst_4 _ rfl (by decide) (by decide),
   writesIn_single main_call18_call0_v0 _ rfl (by decide) (by decide),
   writesIn_single main_call18_call0_v1 _ rfl (by decide) (by decide),
   writesIn_single main_v366 _ rfl (by decide) (by decide),
   writesIn_single main_v367 _ rfl (by decide) (by decide),
   writesIn_single main_v368 _ rfl (by decide) (by decide),
   writesIn_single main_v369 _ rfl (by decide) (by decide),
   writesIn_single main_cst_37 _ rfl (by decide) (by decide),
   writesIn_single main_v370 _ rfl (by decide) (by decide),
   writesIn_single main_v371 _ rfl (by decide) (by decide),
   writesIn_single main_v372 _ rfl (by decide) (by decide),
   writesIn_single main_v373 _ rfl (by decide) (by decide),
   writesIn_single main_v374 _ rfl (by decide) (by decide),
   writesIn_single main_v375 _ rfl (by decide) (by decide),
   writesIn_single main_v376 _ rfl (by decide) (by decide),
   writesIn_single main_v377 _ rfl (by decide) (by decide),
   writesIn_single main_v378 _ rfl (by decide) (by decide),
   writesIn_single main_v379 _ rfl (by decide) (by decide),
   writesIn_single main_v380 _ rfl (by decide) (by decide),
   writesIn_single main_v381 _ rfl (by decide) (by decide),
   writesIn_single main_v382 _ rfl (by decide) (by decide),
   writesIn_single main_v383 _ rfl (by decide) (by decide),
   writesIn_single main_v384 _ rfl (by decide) (by decide),
   writesIn_single main_v385 _ rfl (by decide) (by decide),
   writesIn_single main_call19_cst _ rfl (by decide) (by decide),
   writesIn_single main_call19_v0 _ rfl (by decide) (by decide),
   writesIn_single main_v386 _ rfl (by decide) (by decide),
   writesIn_single main_v387 _ rfl (by decide) (by decide),
   writesIn_single main_v388 _ rfl (by decide) (by decide),
   writesIn_single main_v389 _ rfl (by decide) (by decide),
   writesIn_single main_v390 _ rfl (by decide) (by decide),
   writesIn_single main_v391 _ rfl (by decide) (by decide),
   writesIn_single main_v392 _ rfl (by decide) (by decide),
   writesIn_single main_v393 _ rfl (by decide) (by decide),
   writesIn_single main_v394 _ rfl (by decide) (by decide),
   writesIn_single main_v395 _ rfl (by decide) (by decide)⟩

/-- A buffer outside the stretch's range keeps its contents through it. -/
theorem stM_g1l1_keep (W : Valuation τ sig (Elt F)) (r : Ref sig .tc) (hr : r.idx.val < 636 ∨ 710 ≤ r.idx.val) :
    after stM_g1l1 W (no_index (Proc.devRef .tc r)) = W (Proc.devRef .tc r) :=
  after_keep stM_g1l1 W stM_g1l1_writes r hr

set_option maxRecDepth 8192 in
set_option maxHeartbeats 4000000 in
/-- After them the layer's output is the perceptron of the aggregate. -/
theorem mlp_g1l1 (W : Valuation τ sig (Elt F)) :
    after stM_g1l1 W (no_index (Proc.devRef .tc main_v394))
      = mlpR (W (Proc.devRef .tc main_v348)) (sliceW1 (W (Proc.devRef .tc main_arg11))) (sliceB1 (W (Proc.devRef .tc main_arg12))) (sliceB1 (W (Proc.devRef .tc main_arg13))) := by
  simp only [stM_g1l1]
  after_results_simp
  rfl

set_option maxRecDepth 8192 in
set_option maxHeartbeats 4000000 in
/-- And the accumulator is the previous sum plus the layer's output. -/
theorem acc_g1l1 (W : Valuation τ sig (Elt F)) :
    after stM_g1l1 W (no_index (Proc.devRef .tc main_v395))
      = addf (W (Proc.devRef .tc main_v319))
          (mlpR (W (Proc.devRef .tc main_v348)) (sliceW1 (W (Proc.devRef .tc main_arg11))) (sliceB1 (W (Proc.devRef .tc main_arg12))) (sliceB1 (W (Proc.devRef .tc main_arg13)))) := by
  simp only [stM_g1l1]
  after_results_simp
  rfl

end Cert.ReferenceIdeal.Hand

end
-- ==== Proof.RefValL_g1l2.lean ====
/-
  One GIN layer of the reference, read back: the layer's operations in three stretches — the embedding of the layer's
  input (46 operations), the aggregate (14), the perceptron with the accumulation (74) — and, for any contents W
  before a stretch, what the stretch leaves at the buffers later stretches read, as the stage functions of
  RefFns applied to W at the buffers the stretch reads. Every other buffer keeps what it held.
-/
import proofs.«169706_j68856915690108_1_alg».proof.Proof.Gen.ReferenceIdeal
import proofs.«169706_j68856915690108_1_alg».proof.Proof.RefLib
import proofs.«169706_j68856915690108_1_alg».proof.Proof.RefFns
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The embedding's operations: two dense layers, each followed by ELU. -/
noncomputable def stE_g1l2 : List (HloOp τ sig (Elt F)) :=
  [ unary main_arg9 main_v396 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v396 main_v397 rfl shapeCasts_S1x256x256_S256x256,
    binary main_v394 main_v397 main_v398 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v399 ((extractStridedSlice S1x256 ![0, 0] · slices_S2x256_S1x256_0_0) : (⟨S2x256, .f32⟩ : BufTy).Contents (Elt F) → (⟨S1x256, .f32⟩ : BufTy).Contents (Elt F)),
    reshape main_v399 main_v400 rfl shapeCasts_S1x256_S256,
    unary main_v400 main_v401 (broadcastInDim S1x256 ![1] bcast_S256_S1x256_1 : (⟨S256, .f32⟩ : BufTy).Contents (Elt F) → (⟨S1x256, .f32⟩ : BufTy).Contents (Elt F)),
    unary main_v401 main_v402 (broadcastInDim S4096x256 ![0, 1] bcast_S1x256_S4096x256_0_1 : (⟨S1x256, .f32⟩ : BufTy).Contents (Elt F) → (⟨S4096x256, .f32⟩ : BufTy).Contents (Elt F)),
    binary main_v398 main_v402 main_v403 (addf : (⟨S4096x256, .f32⟩ : BufTy).Contents (Elt F) → (⟨S4096x256, .f32⟩ : BufTy).Contents (Elt F) → (⟨S4096x256, .f32⟩ : BufTy).Contents (Elt F)),
    TRef.nullary main_call20.cst (constant S_ .f32 0x00000000#32),
    TRef.unary main_call20.cst main_call20.v0 (broadcastInDim S4096x256 ![] bcast_S_S4096x256),
    TRef.binary (.of main_v403 : TRef sig ⟨S4096x256, .f32⟩) main_call20.v0 main_call20.v1 (cmpf .ogt),
    TRef.nullary main_call20.cst_0 (constant S_ .f32 0x00000000#32),
    TRef.unary main_call20.cst_0 main_call20.v2 (broadcastInDim S4096x256 ![] bcast_S_S4096x256),
    TRef.binary (.of main_v403 : TRef sig ⟨S4096x256, .f32⟩) main_call20.v2 main_call20.v3 (cmpf .ogt),
    TRef.nullary main_call20.cst_1 (constant S_ .f32 0x00000000#32),
    TRef.unary main_call20.cst_1 main_call20_call0.v0 id,
    TRef.unary main_call20_call0.v0 main_call20_call0.v1 (broadcastInDim S4096x256 ![] bcast_S_S4096x256),
    TRef.ternary main_call20.v3 main_call20_call0.v1 (.of main_v403 : TRef sig ⟨S4096x256, .f32⟩) main_call20_call0.v2 select,
    TRef.unary main_call20.call0.v2 main_call20.v5 Host.expm1,
    TRef.nullary main_call20.cst_2 (constant S_ .f32 0x3F800000#32),
    TRef.unary main_call20.cst_2 main_call20.v6 (broadcastInDim S4096x256 ![] bcast_S_S4096x256),
    TRef.binary main_call20.v6 main_call20.v5 main_call20.v7 mulf,
    TRef.ternary main_call20.v1 (.of main_v403 : TRef sig ⟨S4096x256, .f32⟩) main_call20.v7 main_call20_call1.v0 select,
    unary main_arg9 main_v405 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v405 main_v406 rfl shapeCasts_S1x256x256_S256x256,
    binary main_v404 main_v406 main_v407 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v408 ((extractStridedSlice S1x256 ![1, 0] · slices_S2x256_S1x256_1_0) : (⟨S2x256, .f32⟩ : BufTy).Contents (Elt F) → (⟨S1x256, .f32⟩ : BufTy).Contents (Elt F)),
    reshape main_v408 main_v409 rfl shapeCasts_S1x256_S256,
    unary main_v409 main_v410 (broadcastInDim S1x256 ![1] bcast_S256_S1x256_1 : (⟨S256, .f32⟩ : BufTy).Contents (Elt F) → (⟨S1x256, .f32⟩ : BufTy).Contents (Elt F)),
    unary main_v410 main_v411 (broadcastInDim S4096x256 ![0, 1] bcast_S1x256_S4096x256_0_1 : (⟨S1x256, .f32⟩ : BufTy).Contents (Elt F) → (⟨S4096x256, .f32⟩ : BufTy).Contents (Elt F)),
    binary main_v407 main_v411 main_v412 (addf : (⟨S4096x256, .f32⟩ : BufTy).Contents (Elt F) → (⟨S4096x256, .f32⟩ : BufTy).Contents (Elt F) → (⟨S4096x256, .f32⟩ : BufTy).Contents (Elt F)),
    TRef.nullary main_call21.cst (constant S_ .f32 0x00000000#32),
    TRef.unary main_call21.cst main_call21.v0 (broadcastInDim S4096x256 ![] bcast_S_S4096x256),
    TRef.binary (.of main_v412 : TRef sig ⟨S4096x256, .f32⟩) main_call21.v0 main_call21.v1 (cmpf .ogt),
    TRef.nullary main_call21.cst_0 (constant S_ .f32 0x00000000#32),
    TRef.unary main_call21.cst_0 main_call21.v2 (broadcastInDim S4096x256 ![] bcast_S_S4096x256),
    TRef.binary (.of main_v412 : TRef sig ⟨S4096x256, .f32⟩) main_call21.v2 main_call21.v3 (cmpf .ogt),
    TRef.nullary main_call21.cst_1 (constant S_ .f32 0x00000000#32),
    TRef.unary main_call21.cst_1 main_call21_call0.v0 id,
    TRef.unary main_call21_call0.v0 main_call21_call0.v1 (broadcastInDim S4096x256 ![] bcast_S_S4096x256),
    TRef.ternary main_call21.v3 main_call21_call0.v1 (.of main_v412 : TRef sig ⟨S4096x256, .f32⟩) main_call21_call0.v2 select,
    TRef.unary main_call21.call0.v2 main_call21.v5 Host.expm1,
    TRef.nullary main_call21.cst_2 (constant S_ .f32 0x3F800000#32),
    TRef.unary main_call21.cst_2 main_call21.v6 (broadcastInDim S4096x256 ![] bcast_S_S4096x256),
    TRef.binary main_call21.v6 main_call21.v5 main_call21.v7 mulf,
    TRef.ternary main_call21.v1 (.of main_v412 : TRef sig ⟨S4096x256, .f32⟩) main_call21.v7 main_call21_call1.v0 select ]

set_option maxRecDepth 8192 in
theorem stE_g1l2_writes : (stE_g1l2 : List (HloOp τ sig (Elt F))).Forall (WritesIn 710 756) := by
  unfold stE_g1l2
  exact
  ⟨writesIn_single main_v396 _ rfl (by decide) (by decide),
   writesIn_single main_v397 _ rfl (by decide) (by decide),
   writesIn_single main_v398 _ rfl (by decide) (by decide),
   writesIn_single main_v399 _ rfl (by decide) (by decide),
   writesIn_single main_v400 _ rfl (by decide) (by decide),
   writesIn_single main_v401 _ rfl (by decide) (by decide),
   writesIn_single main_v402 _ rfl (by decide) (by decide),
   writesIn_single main_v403 _ rfl (by decide) (by decide),
   writesIn_single main_call20_cst _ rfl (by decide) (by decide),
   writesIn_single main_call20_v0 _ rfl (by decide) (by decide),
   writesIn_single main_call20_v1 _ rfl (by decide) (by decide),
   writesIn_single main_call20_cst_0 _ rfl (by decide) (by decide),
   writesIn_single main_call20_v2 _ rfl (by decide) (by decide),
   writesIn_single main_call20_v3 _ rfl (by decide) (by decide),
   writesIn_single main_call20_cst_1 _ rfl (by decide) (by decide),
   writesIn_single main_call20_call0_v0 _ rfl (by decide) (by decide),
   writesIn_single main_call20_call0_v1 _ rfl (by decide) (by decide),
   writesIn_single main_call20_v4 _ rfl (by decide) (by decide),
   writesIn_single main_call20_v5 _ rfl (by decide) (by decide),
   writesIn_single main_call20_cst_2 _ rfl (by decide) (by decide),
   writesIn_single main_call20_v6 _ rfl (by decide) (by decide),
   writesIn_single main_call20_v7 _ rfl (by decide) (by decide),
   writesIn_single main_v404 _ rfl (by decide) (by decide),
   writesIn_single main_v405 _ rfl (by decide) (by decide),
   writesIn_single main_v406 _ rfl (by decide) (by decide),
   writesIn_single main_v407 _ rfl (by decide) (by decide),
   writesIn_single main_v408 _ rfl (by decide) (by decide),
   writesIn_single main_v409 _ rfl (by decide) (by decide),
   writesIn_single main_v410 _ rfl (by decide) (by decide),
   writesIn_single main_v411 _ rfl (by decide) (by decide),
   writesIn_single main_v412 _ rfl (by decide) (by decide),
   writesIn_single main_call21_cst _ rfl (by decide) (by decide),
   writesIn_single main_call21_v0 _ rfl (by decide) (by decide),
   writesIn_single main_call21_v1 _ rfl (by decide) (by decide),
   writesIn_single main_call21_cst_0 _ rfl (by decide) (by decide),
   writesIn_single main_call21_v2 _ rfl (by decide) (by decide),
   writesIn_single main_call21_v3 _ rfl (by decide) (by decide),
   writesIn_single main_call21_cst_1 _ rfl (by decide) (by decide),
   writesIn_single main_call21_call0_v0 _ rfl (by decide) (by decide),
   writesIn_single main_call21_call0_v1 _ rfl (by decide) (by decide),
   writesIn_single main_call21_v4 _ rfl (by decide) (by decide),
   writesIn_single main_call21_v5 _ rfl (by decide) (by decide),
   writesIn_single main_call21_cst_2 _ rfl (by decide) (by decide),
   writesIn_single main_call21_v6 _ rfl (by decide) (by decide),
   writesIn_single main_call21_v7 _ rfl (by decide) (by decide),
   writesIn_single main_v413 _ rfl (by decide) (by decide)⟩

/-- A buffer outside the stretch's range keeps its contents through it. -/
theorem stE_g1l2_keep (W : Valuation τ sig (Elt F)) (r : Ref sig .tc) (hr : r.idx.val < 710 ∨ 756 ≤ r.idx.val) :
    after stE_g1l2 W (no_index (Proc.devRef .tc r)) = W (Proc.devRef .tc r) :=
  after_keep stE_g1l2 W stE_g1l2_writes r hr

set_option maxRecDepth 8192 in
set_option maxHeartbeats 4000000 in
/-- After them the hidden features are the embedding of the layer's input. -/
theorem embed_g1l2 (W : Valuation τ sig (Elt F)) :
    after stE_g1l2 W (no_index (Proc.devRef .tc main_v413))
      = embedR (W (Proc.devRef .tc main_v394)) (W (Proc.devRef .tc main_arg9)) (W (Proc.devRef .tc main_arg10)) := by
  simp only [stE_g1l2]
  after_results_simp
  rfl

/-- The aggregate's operations: the Gram matrix, its mean, the mask, plus the identity, times the input. -/
noncomputable def stA_g1l2 : List (HloOp τ sig (Elt F)) :=
  [ unary main_v413 main_v414 ((transpose S256x4096 [1, 0] · transposes_S4096x256_S256x4096_1_0) : (⟨S4096x256, .f32⟩ : BufTy).Contents (Elt F) → (⟨S256x4096, .f32⟩ : BufTy).Contents (Elt F)),
    binary main_v413 main_v414 main_v415 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_38 (constant S_ .f32 0x00000000#32),
    binary main_v415 main_cst_38 main_v416 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_39 (constant S_ .f32 0x4B800000#32),
    binary main_v416 main_cst_39 main_v417 (Host.divf : (⟨S_, .f32⟩ : BufTy).Contents (Elt F) → (⟨S_, .f32⟩ : BufTy).Contents (Elt F) → (⟨S_, .f32⟩ : BufTy).Contents (Elt F)),
    unary main_v417 main_v418 (broadcastInDim S4096x4096 ![] bcast_S_S4096x4096 : (⟨S_, .f32⟩ : BufTy).Contents (Elt F) → (⟨S4096x4096, .f32⟩ : BufTy).Contents (Elt F)),
    binary main_v415 main_v418 main_v419 (cmpf .ogt : (⟨S4096x4096, .f32⟩ : BufTy).Contents (Elt F) → (⟨S4096x4096, .f32⟩ : BufTy).Contents (Elt F) → (⟨S4096x4096, .i1⟩ : BufTy).Contents (Elt F)),
    unary main_v419 main_v420 (uitofp .f32 : (⟨S4096x4096, .i1⟩ : BufTy).Contents (Elt F) → (⟨S4096x4096, .f32⟩ : BufTy).Contents (Elt F)),
    nullary main_cst_40 (constant S_ .f32 0x3F800000#32),
    unary main_cst_40 main_v421 (broadcastInDim S4096x4096 ![] bcast_S_S4096x4096 : (⟨S_, .f32⟩ : BufTy).Contents (Elt F) → (⟨S4096x4096, .f32⟩ : BufTy).Contents (Elt F)),
    binary main_v421 main_v242 main_v422 (mulf : (⟨S4096x4096, .f32⟩ : BufTy).Contents (Elt F) → (⟨S4096x4096, .f32⟩ : BufTy).Contents (Elt F) → (⟨S4096x4096, .f32⟩ : BufTy).Contents (Elt F)),
    binary main_v420 main_v422 main_v423 (addf : (⟨S4096x4096, .f32⟩ : BufTy).Contents (Elt F) → (⟨S4096x4096, .f32⟩ : BufTy).Contents (Elt F) → (⟨S4096x4096, .f32⟩ : BufTy).Contents (Elt F)),
    binary main_v423 main_v394 main_v424 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]

set_option maxRecDepth 8192 in
theorem stA_g1l2_writes : (stA_g1l2 : List (HloOp τ sig (Elt F))).Forall (WritesIn 756 770) := by
  unfold stA_g1l2
  exact
  ⟨writesIn_single main_v414 _ rfl (by decide) (by decide),
   writesIn_single main_v415 _ rfl (by decide) (by decide),
   writesIn_single main_cst_38 _ rfl (by decide) (by decide),
   writesIn_single main_v416 _ rfl (by decide) (by decide),
   writesIn_single main_cst_39 _ rfl (by decide) (by decide),
   writesIn_single main_v417 _ rfl (by decide) (by decide),
   writesIn_single main_v418 _ rfl (by decide) (by decide),
   writesIn_single main_v419 _ rfl (by decide) (by decide),
   writesIn_single main_v420 _ rfl (by decide) (by decide),
   writesIn_single main_cst_40 _ rfl (by decide) (by decide),
   writesIn_single main_v421 _ rfl (by decide) (by decide),
   writesIn_single main_v422 _ rfl (by decide) (by decide),
   writesIn_single main_v423 _ rfl (by decide) (by decide),
   writesIn_single main_v424 _ rfl (by decide) (by decide)⟩

/-- A buffer outside the stretch's range keeps its contents through it. -/
theorem stA_g1l2_keep (W : Valuation τ sig (Elt F)) (r : Ref sig .tc) (hr : r.idx.val < 756 ∨ 770 ≤ r.idx.val) :
    after stA_g1l2 W (no_index (Proc.devRef .tc r)) = W (Proc.devRef .tc r) :=
  after_keep stA_g1l2 W stA_g1l2_writes r hr

set_option maxRecDepth 8192 in
set_option maxHeartbeats 4000000 in
/-- After them: the aggregate of the hidden features and the layer's input over the identity matrix's buffer. -/
theorem agg_g1l2 (W : Valuation τ sig (Elt F)) :
    after stA_g1l2 W (no_index (Proc.devRef .tc main_v424))
      = aggF (W (Proc.devRef .tc main_v242)) (W (Proc.devRef .tc main_v413)) (W (Proc.devRef .tc main_v394)) := by
  simp only [stA_g1l2]
  after_results_simp
  rfl

/-- The perceptron's operations (the layer's slices of the stacked parameters first) and the accumulation. -/
noncomputable def stM_g1l2 : List (HloOp τ sig (Elt F)) :=
  [ unary main_arg11 main_v425 ((extractStridedSlice S1x2x256x256 ![2, 0, 0, 0] · slices_S3x2x256x256_S1x2x256x256_2_0_0_0) : (⟨S3x2x256x256, .f32⟩ : BufTy).Contents (Elt F) → (⟨S1x2x256x256, .f32⟩ : BufTy).Contents (Elt F)),
    reshape main_v425 main_v426 rfl shapeCasts_S1x2x256x256_S2x256x256,
    unary main_arg12 main_v427 ((extractStridedSlice S1x2x256 ![2, 0, 0] · slices_S3x2x256_S1x2x256_2_0_0) : (⟨S3x2x256, .f32⟩ : BufTy).Contents (Elt F) → (⟨S1x2x256, .f32⟩ : BufTy).Contents (Elt F)),
    reshape main_v427 main_v428 rfl shapeCasts_S1x2x256_S2x256,
    unary main_arg13 main_v429 ((extractStridedSlice S1x2x256 ![2, 0, 0] · slices_S3x2x256_S1x2x256_2_0_0) : (⟨S3x2x256, .f32⟩ : BufTy).Contents (Elt F) → (⟨S1x2x256, .f32⟩ : BufTy).Contents (Elt F)),
    reshape main_v429 main_v430 rfl shapeCasts_S1x2x256_S2x256,
    unary main_v426 main_v431 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v431 main_v432 rfl shapeCasts_S1x256x256_S256x256,
    binary main_v424 main_v432 main_v433 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v428 main_v434 ((extractStridedSlice S1x256 ![0, 0] · slices_S2x256_S1x256_0_0) : (⟨S2x256, .f32⟩ : BufTy).Contents (Elt F) → (⟨S1x256, .f32⟩ : BufTy).Contents (Elt F)),
    reshape main_v434 main_v435 rfl shapeCasts_S1x256_S256,
    unary main_v435 main_v436 (broadcastInDim S1x256 ![1] bcast_S256_S1x256_1 : (⟨S256, .f32⟩ : BufTy).Contents (Elt F) → (⟨S1x256, .f32⟩ : BufTy).Contents (Elt F)),
    unary main_v436 main_v437 (broadcastInDim S4096x256 ![0, 1] bcast_S1x256_S4096x256_0_1 : (⟨S1x256, .f32⟩ : BufTy).Contents (Elt F) → (⟨S4096x256, .f32⟩ : BufTy).Contents (Elt F)),
    binary main_v433 main_v437 main_v438 (addf : (⟨S4096x256, .f32⟩ : BufTy).Contents (Elt F) → (⟨S4096x256, .f32⟩ : BufTy).Contents (Elt F) → (⟨S4096x256, .f32⟩ : BufTy).Contents (Elt F)),
    nullary main_cst_41 (constant S_ .f32 0x00000000#32),
    binary main_v438 main_cst_41 main_v439 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_42 (constant S_ .f32 0x45800000#32),
    unary main_cst_42 main_v440 (broadcastInDim S256 ![] bcast_S_S256 : (⟨S_, .f32⟩ : BufTy).Contents (Elt F) → (⟨S256, .f32⟩ : BufTy).Contents (Elt F)),
    binary main_v439 main_v440 main_v441 (Host.divf : (⟨S256, .f32⟩ : BufTy).Contents (Elt F) → (⟨S256, .f32⟩ : BufTy).Contents (Elt F) → (⟨S256, .f32⟩ : BufTy).Contents (Elt F)),
    nullary main_c_43 (constantI S_ 32 0#32),
    TRef.nullary main_call22.cst (constant S_ .f32 0x00000000#32),
    TRef.binary (.of main_v438 : TRef sig ⟨S4096x256, .f32⟩) main_call22.cst main_call22.v0 (fun x v => Host.reduceAdd x v reducesTo_S4096x256_S256_d0 h_S_),
    TRef.unary main_call22.v0 main_call22.v1 (broadcastInDim S1x256 ![1] bcast_S256_S1x256_1),
    TRef.nullary main_call22.cst_0 (constant S_ .f32 0x45800000#32),
    TRef.unary main_call22.cst_0 main_call22.v2 (broadcastInDim S1x256 ![] bcast_S_S1x256),
    TRef.binary main_call22.v1 main_call22.v2 main_call22.v3 Host.divf,
    TRef.unary main_call22.v3 main_call22.v4 (broadcastInDim S4096x256 ![0, 1] bcast_S1x256_S4096x256_0_1),
    TRef.binary (.of main_v438 : TRef sig ⟨S4096x256, .f32⟩) main_call22.v4 main_call22.v5 subf,
    TRef.binary main_call22.v5 main_call22.v5 main_call22.v6 mulf,
    TRef.unary (.of main_c_43 : TRef sig ⟨S_, .i32⟩) main_call22.v7 (sitofp .f32),
    TRef.nullary main_call22.cst_1 (constant S_ .f32 0x45800000#32),
    TRef.binary main_call22.cst_1 main_call22.v7 main_call22.v8 subf,
    TRef.nullary main_call22.cst_2 (constant S_ .f32 0x00000000#32),
    TRef.binary main_call22.v6 main_call22.cst_2 main_call22.v9 (fun x v => Host.reduceAdd x v reducesTo_S4096x256_S256_d0 h_S_),
    TRef.unary main_call22.v8 main_call22.v10 (broadcastInDim S256 ![] bcast_S_S256),
    TRef.binary main_call22.v9 main_call22.v10 main_call22.v11 Host.divf,
    TRef.nullary main_call22.cst_3 (constant S_ .f32 0x00000000#32),
    TRef.binary main_call22.v8 main_call22.cst_3 main_call22.v12 (cmpf .ogt),
    TRef.nullary main_call22.cst_4 (constant S_ .f32 0x7FC00000#32),
    TRef.unary main_call22.cst_4 main_call22_call0.v0 id,
    TRef.unary main_call22_call0.v0 main_call22_call0.v1 (broadcastInDim S256 ![] bcast_S_S256),
    TRef.ternary main_call22.v12 main_call22.v11 main_call22_call0.v1 main_call22_call0.v2 (fun p a b => select (broadcastInDim S256 ![] bcast_S_S256 p) a b),
    unary main_v441 main_v443 (broadcastInDim S1x256 ![1] bcast_S256_S1x256_1 : (⟨S256, .f32⟩ : BufTy).Contents (Elt F) → (⟨S1x256, .f32⟩ : BufTy).Contents (Elt F)),
    unary main_v443 main_v444 (broadcastInDim S4096x256 ![0, 1] bcast_S1x256_S4096x256_0_1 : (⟨S1x256, .f32⟩ : BufTy).Contents (Elt F) → (⟨S4096x256, .f32⟩ : BufTy).Contents (Elt F)),
    binary main_v438 main_v444 main_v445 (subf : (⟨S4096x256, .f32⟩ : BufTy).Contents (Elt F) → (⟨S4096x256, .f32⟩ : BufTy).Contents (Elt F) → (⟨S4096x256, .f32⟩ : BufTy).Contents (Elt F)),
    nullary main_cst_44 (constant S_ .f32 0x3727C5AC#32),
    unary main_cst_44 main_v446 (broadcastInDim S256 ![] bcast_S_S256 : (⟨S_, .f32⟩ : BufTy).Contents (Elt F) → (⟨S256, .f32⟩ : BufTy).Contents (Elt F)),
    binary main_v442 main_v446 main_v447 (addf : (⟨S256, .f32⟩ : BufTy).Contents (Elt F) → (⟨S256, .f32⟩ : BufTy).Contents (Elt F) → (⟨S256, .f32⟩ : BufTy).Contents (Elt F)),
    unary main_v447 main_v448 (Host.rsqrt : (⟨S256, .f32⟩ : BufTy).Contents (Elt F) → (⟨S256, .f32⟩ : BufTy).Contents (Elt F)),
    unary main_v448 main_v449 (broadcastInDim S1x256 ![1] bcast_S256_S1x256_1 : (⟨S256, .f32⟩ : BufTy).Contents (Elt F) → (⟨S1x256, .f32⟩ : BufTy).Contents (Elt F)),
    unary main_v449 main_v450 (broadcastInDim S4096x256 ![0, 1] bcast_S1x256_S4096x256_0_1 : (⟨S1x256, .f32⟩ : BufTy).Contents (Elt F) → (⟨S4096x256, .f32⟩ : BufTy).Contents (Elt F)),
    binary main_v445 main_v450 main_v451 (mulf : (⟨S4096x256, .f32⟩ : BufTy).Contents (Elt F) → (⟨S4096x256, .f32⟩ : BufTy).Contents (Elt F) → (⟨S4096x256, .f32⟩ : BufTy).Contents (Elt F)),
    unary main_v430 main_v452 ((extractStridedSlice S1x256 ![0, 0] · slices_S2x256_S1x256_0_0) : (⟨S2x256, .f32⟩ : BufTy).Contents (Elt F) → (⟨S1x256, .f32⟩ : BufTy).Contents (Elt F)),
    reshape main_v452 main_v453 rfl shapeCasts_S1x256_S256,
    unary main_v453 main_v454 (broadcastInDim S1x256 ![1] bcast_S256_S1x256_1 : (⟨S256, .f32⟩ : BufTy).Contents (Elt F) → (⟨S1x256, .f32⟩ : BufTy).Contents (Elt F)),
    unary main_v454 main_v455 (broadcastInDim S4096x256 ![0, 1] bcast_S1x256_S4096x256_0_1 : (⟨S1x256, .f32⟩ : BufTy).Contents (Elt F) → (⟨S4096x256, .f32⟩ : BufTy).Contents (Elt F)),
    binary main_v451 main_v455 main_v456 (mulf : (⟨S4096x256, .f32⟩ : BufTy).Contents (Elt F) → (⟨S4096x256, .f32⟩ : BufTy).Contents (Elt F) → (⟨S4096x256, .f32⟩ : BufTy).Contents (Elt F)),
    unary main_v430 main_v457 ((extractStridedSlice S1x256 ![1, 0] · slices_S2x256_S1x256_1_0) : (⟨S2x256, .f32⟩ : BufTy).Contents (Elt F) → (⟨S1x256, .f32⟩ : BufTy).Contents (Elt F)),
    reshape main_v457 main_v458 rfl shapeCasts_S1x256_S256,
    unary main_v458 main_v459 (broadcastInDim S1x256 ![1] bcast_S256_S1x256_1 : (⟨S256, .f32⟩ : BufTy).Contents (Elt F) → (⟨S1x256, .f32⟩ : BufTy).Contents (Elt F)),
    unary main_v459 main_v460 (broadcastInDim S4096x256 ![0, 1] bcast_S1x256_S4096x256_0_1 : (⟨S1x256, .f32⟩ : BufTy).Contents (Elt F) → (⟨S4096x256, .f32⟩ : BufTy).Contents (Elt F)),
    binary main_v456 main_v460 main_v461 (addf : (⟨S4096x256, .f32⟩ : BufTy).Contents (Elt F) → (⟨S4096x256, .f32⟩ : BufTy).Contents (Elt F) → (⟨S4096x256, .f32⟩ : BufTy).Contents (Elt F)),
    TRef.nullary main_call23.cst (constant S_ .f32 0x00000000#32),
    TRef.unary main_call23.cst main_call23.v0 (broadcastInDim S4096x256 ![] bcast_S_S4096x256),
    TRef.binary (.of main_v461 : TRef sig ⟨S4096x256, .f32⟩) main_call23.v0 main_call23.v1 maximumf,
    unary main_v426 main_v463 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v463 main_v464 rfl shapeCasts_S1x256x256_S256x256,
    binary main_v462 main_v464 main_v465 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v428 main_v466 ((extractStridedSlice S1x256 ![1, 0] · slices_S2x256_S1x256_1_0) : (⟨S2x256, .f32⟩ : BufTy).Contents (Elt F) → (⟨S1x256, .f32⟩ : BufTy).Contents (Elt F)),
    reshape main_v466 main_v467 rfl shapeCasts_S1x256_S256,
    unary main_v467 main_v468 (broadcastInDim S1x256 ![1] bcast_S256_S1x256_1 : (⟨S256, .f32⟩ : BufTy).Contents (Elt F) → (⟨S1x256, .f32⟩ : BufTy).Contents (Elt F)),
    unary main_v468 main_v469 (broadcastInDim S4096x256 ![0, 1] bcast_S1x256_S4096x256_0_1 : (⟨S1x256, .f32⟩ : BufTy).Contents (Elt F) → (⟨S4096x256, .f32⟩ : BufTy).Contents (Elt F)),
    binary main_v465 main_v469 main_v470 (addf : (⟨S4096x256, .f32⟩ : BufTy).Contents (Elt F) → (⟨S4096x256, .f32⟩ : BufTy).Contents (Elt F) → (⟨S4096x256, .f32⟩ : BufTy).Contents (Elt F)),
    binary main_v395 main_v470 main_v471 (addf : (⟨S4096x256, .f32⟩ : BufTy).Contents (Elt F) → (⟨S4096x256, .f32⟩ : BufTy).Contents (Elt F) → (⟨S4096x256, .f32⟩ : BufTy).Contents (Elt F)) ]

set_option maxRecDepth 8192 in
theorem stM_g1l2_writes : (stM_g1l2 : List (HloOp τ sig (Elt F))).Forall (WritesIn 770 844) := by
  unfold stM_g1l2
  exact
  ⟨writesIn_single main_v425 _ rfl (by decide) (by decide),
   writesIn_single main_v426 _ rfl (by decide) (by decide),
   writesIn_single main_v427 _ rfl (by decide) (by decide),
   writesIn_single main_v428 _ rfl (by decide) (by decide),
   writesIn_single main_v429 _ rfl (by decide) (by decide),
   writesIn_single main_v430 _ rfl (by decide) (by decide),
   writesIn_single main_v431 _ rfl (by decide) (by decide),
   writesIn_single main_v432 _ rfl (by decide) (by decide),
   writesIn_single main_v433 _ rfl (by decide) (by decide),
   writesIn_single main_v434 _ rfl (by decide) (by decide),
   writesIn_single main_v435 _ rfl (by decide) (by decide),
   writesIn_single main_v436 _ rfl (by decide) (by decide),
   writesIn_single main_v437 _ rfl (by decide) (by decide),
   writesIn_single main_v438 _ rfl (by decide) (by decide),
   writesIn_single main_cst_41 _ rfl (by decide) (by decide),
   writesIn_single main_v439 _ rfl (by decide) (by decide),
   writesIn_single main_cst_42 _ rfl (by decide) (by decide),
   writesIn_single main_v440 _ rfl (by decide) (by decide),
   writesIn_single main_v441 _ rfl (by decide) (by decide),
   writesIn_single main_c_43 _ rfl (by decide) (by decide),
   writesIn_single main_call22_cst _ rfl (by decide) (by decide),
   writesIn_single main_call22_v0 _ rfl (by decide) (by decide),
   writesIn_single main_call22_v1 _ rfl (by decide) (by decide),
   writesIn_single main_call22_cst_0 _ rfl (by decide) (by decide),
   writesIn_single main_call22_v2 _ rfl (by decide) (by decide),
   writesIn_single main_call22_v3 _ rfl (by decide) (by decide),
   writesIn_single main_call22_v4 _ rfl (by decide) (by decide),
   writesIn_single main_call22_v5 _ rfl (by decide) (by decide),
   writesIn_single main_call22_v6 _ rfl (by decide) (by decide),
   writesIn_single main_call22_v7 _ rfl (by decide) (by decide),
   writesIn_single main_call22_cst_1 _ rfl (by decide) (by decide),
   writesIn_single main_call22_v8 _ rfl (by decide) (by decide),
   writesIn_single main_call22_cst_2 _ rfl (by decide) (by decide),
   writesIn_single main_call22_v9 _ rfl (by decide) (by decide),
   writesIn_single main_call22_v10 _ rfl (by decide) (by decide),
   writesIn_single main_call22_v11 _ rfl (by decide) (by decide),
   writesIn_single main_call22_cst_3 _ rfl (by decide) (by decide),
   writesIn_single main_call22_v12 _ rfl (by decide) (by decide),
   writesIn_single main_call22_cst_4 _ rfl (by decide) (by decide),
   writesIn_single main_call22_call0_v0 _ rfl (by decide) (by decide),
   writesIn_single main_call22_call0_v1 _ rfl (by decide) (by decide),
   writesIn_single main_v442 _ rfl (by decide) (by decide),
   writesIn_single main_v443 _ rfl (by decide) (by decide),
   writesIn_single main_v444 _ rfl (by decide) (by decide),
   writesIn_single main_v445 _ rfl (by decide) (by decide),
   writesIn_single main_cst_44 _ rfl (by decide) (by decide),
   writesIn_single main_v446 _ rfl (by decide) (by decide),
   writesIn_single main_v447 _ rfl (by decide) (by decide),
   writesIn_single main_v448 _ rfl (by decide) (by decide),
   writesIn_single main_v449 _ rfl (by decide) (by decide),
   writesIn_single main_v450 _ rfl (by decide) (by decide),
   writesIn_single main_v451 _ rfl (by decide) (by decide),
   writesIn_single main_v452 _ rfl (by decide) (by decide),
   writesIn_single main_v453 _ rfl (by decide) (by decide),
   writesIn_single main_v454 _ rfl (by decide) (by decide),
   writesIn_single main_v455 _ rfl (by decide) (by decide),
   writesIn_single main_v456 _ rfl (by decide) (by decide),
   writesIn_single main_v457 _ rfl (by decide) (by decide),
   writesIn_single main_v458 _ rfl (by decide) (by decide),
   writesIn_single main_v459 _ rfl (by decide) (by decide),
   writesIn_single main_v460 _ rfl (by decide) (by decide),
   writesIn_single main_v461 _ rfl (by decide) (by decide),
   writesIn_single main_call23_cst _ rfl (by decide) (by decide),
   writesIn_single main_call23_v0 _ rfl (by decide) (by decide),
   writesIn_single main_v462 _ rfl (by decide) (by decide),
   writesIn_single main_v463 _ rfl (by decide) (by decide),
   writesIn_single main_v464 _ rfl (by decide) (by decide),
   writesIn_single main_v465 _ rfl (by decide) (by decide),
   writesIn_single main_v466 _ rfl (by decide) (by decide),
   writesIn_single main_v467 _ rfl (by decide) (by decide),
   writesIn_single main_v468 _ rfl (by decide) (by decide),
   writesIn_single main_v469 _ rfl (by decide) (by decide),
   writesIn_single main_v470 _ rfl (by decide) (by decide),
   writesIn_single main_v471 _ rfl (by decide) (by decide)⟩

/-- A buffer outside the stretch's range keeps its contents through it. -/
theorem stM_g1l2_keep (W : Valuation τ sig (Elt F)) (r : Ref sig .tc) (hr : r.idx.val < 770 ∨ 844 ≤ r.idx.val) :
    after stM_g1l2 W (no_index (Proc.devRef .tc r)) = W (Proc.devRef .tc r) :=
  after_keep stM_g1l2 W stM_g1l2_writes r hr

set_option maxRecDepth 8192 in
set_option maxHeartbeats 4000000 in
/-- After them the layer's output is the perceptron of the aggregate. -/
theorem mlp_g1l2 (W : Valuation τ sig (Elt F)) :
    after stM_g1l2 W (no_index (Proc.devRef .tc main_v470))
      = mlpR (W (Proc.devRef .tc main_v424)) (sliceW2 (W (Proc.devRef .tc main_arg11))) (sliceB2 (W (Proc.devRef .tc main_arg12))) (sliceB2 (W (Proc.devRef .tc main_arg13))) := by
  simp only [stM_g1l2]
  after_results_simp
  rfl

set_option maxRecDepth 8192 in
set_option maxHeartbeats 4000000 in
/-- And the accumulator is the previous sum plus the layer's output. -/
theorem acc_g1l2 (W : Valuation τ sig (Elt F)) :
    after stM_g1l2 W (no_index (Proc.devRef .tc main_v471))
      = addf (W (Proc.devRef .tc main_v395))
          (mlpR (W (Proc.devRef .tc main_v424)) (sliceW2 (W (Proc.devRef .tc main_arg11))) (sliceB2 (W (Proc.devRef .tc main_arg12))) (sliceB2 (W (Proc.devRef .tc main_arg13)))) := by
  simp only [stM_g1l2]
  after_results_simp
  rfl

end Cert.ReferenceIdeal.Hand

end
-- ==== Proof.RefValG_g1.lean ====
/-
  One GIN branch of the reference, read back: the branch's 414 operations are the prelude (the identity matrix and
  the zero accumulator, 9 operations), three layers (RefValL, 134 each) and the division of the accumulated sum by
  three (3). For any contents W before the branch, what it leaves at its result buffer is the branch function of
  RefFns applied to W at the branch's argument buffers; every buffer outside its range keeps what it held.
-/
import proofs.«169706_j68856915690108_1_alg».proof.Proof.Gen.ReferenceIdeal
import proofs.«169706_j68856915690108_1_alg».proof.Proof.RefLib
import proofs.«169706_j68856915690108_1_alg».proof.Proof.RefFns
import proofs.«169706_j68856915690108_1_alg».proof.Proof.RefValL_g1l0
import proofs.«169706_j68856915690108_1_alg».proof.Proof.RefValL_g1l1
import proofs.«169706_j68856915690108_1_alg».proof.Proof.RefValL_g1l2
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The prelude's operations: the identity matrix (row number against column number) and the zero accumulator. -/
noncomputable def stP_g1 : List (HloOp τ sig (Elt F)) :=
  [ nullary main_v237 (iotaInDim S4096x4096 32 0),
    nullary main_v238 (iotaInDim S4096x4096 32 1),
    nullary main_c_22 (constantI S_ 32 0#32),
    unary main_c_22 main_v239 (broadcastInDim S4096x4096 ![] bcast_S_S4096x4096 : (⟨S_, .i32⟩ : BufTy).Contents (Elt F) → (⟨S4096x4096, .i32⟩ : BufTy).Contents (Elt F)),
    binary main_v237 main_v239 main_v240 (addi : (⟨S4096x4096, .i32⟩ : BufTy).Contents (Elt F) → (⟨S4096x4096, .i32⟩ : BufTy).Contents (Elt F) → (⟨S4096x4096, .i32⟩ : BufTy).Contents (Elt F)),
    binary main_v240 main_v238 main_v241 (cmpi .eq : (⟨S4096x4096, .i32⟩ : BufTy).Contents (Elt F) → (⟨S4096x4096, .i32⟩ : BufTy).Contents (Elt F) → (⟨S4096x4096, .i1⟩ : BufTy).Contents (Elt F)),
    unary main_v241 main_v242 (uitofp .f32 : (⟨S4096x4096, .i1⟩ : BufTy).Contents (Elt F) → (⟨S4096x4096, .f32⟩ : BufTy).Contents (Elt F)),
    nullary main_cst_23 (constant S_ .f32 0x00000000#32),
    unary main_cst_23 main_v243 (broadcastInDim S4096x256 ![] bcast_S_S4096x256 : (⟨S_, .f32⟩ : BufTy).Contents (Elt F) → (⟨S4096x256, .f32⟩ : BufTy).Contents (Elt F)) ]

set_option maxRecDepth 8192 in
theorem stP_g1_writes : (stP_g1 : List (HloOp τ sig (Elt F))).Forall (WritesIn 433 442) := by
  unfold stP_g1
  exact
  ⟨writesIn_single main_v237 _ rfl (by decide) (by decide),
   writesIn_single main_v238 _ rfl (by decide) (by decide),
   writesIn_single main_c_22 _ rfl (by decide) (by decide),
   writesIn_single main_v239 _ rfl (by decide) (by decide),
   writesIn_single main_v240 _ rfl (by decide) (by decide),
   writesIn_single main_v241 _ rfl (by decide) (by decide),
   writesIn_single main_v242 _ rfl (by decide) (by decide),
   writesIn_single main_cst_23 _ rfl (by decide) (by decide),
   writesIn_single main_v243 _ rfl (by decide) (by decide)⟩

/-- A buffer outside the stretch's range keeps its contents through it. -/
theorem stP_g1_keep (W : Valuation τ sig (Elt F)) (r : Ref sig .tc) (hr : r.idx.val < 433 ∨ 442 ≤ r.idx.val) :
    after stP_g1 W (no_index (Proc.devRef .tc r)) = W (Proc.devRef .tc r) :=
  after_keep stP_g1 W stP_g1_writes r hr

/-- After the prelude the identity matrix's buffer holds the identity matrix. -/
theorem eye_g1 (W : Valuation τ sig (Elt F)) : after stP_g1 W (no_index (Proc.devRef .tc main_v242)) = eyeF := by
  simp only [stP_g1]
  after_results_simp
  rfl

/-- And the accumulator's buffer holds zeros. -/
theorem zero_g1 (W : Valuation τ sig (Elt F)) : after stP_g1 W (no_index (Proc.devRef .tc main_v243)) = fill 0x00000000#32 := by
  simp only [stP_g1]
  after_results_simp
  rfl

/-- The last operations: the accumulated sum divided by three. -/
noncomputable def stT_g1 : List (HloOp τ sig (Elt F)) :=
  [ nullary main_cst_45 (constant S_ .f32 0x40400000#32),
    unary main_cst_45 main_v472 (broadcastInDim S4096x256 ![] bcast_S_S4096x256 : (⟨S_, .f32⟩ : BufTy).Contents (Elt F) → (⟨S4096x256, .f32⟩ : BufTy).Contents (Elt F)),
    binary main_v471 main_v472 main_v473 (Host.divf : (⟨S4096x256, .f32⟩ : BufTy).Contents (Elt F) → (⟨S4096x256, .f32⟩ : BufTy).Contents (Elt F) → (⟨S4096x256, .f32⟩ : BufTy).Contents (Elt F)) ]

set_option maxRecDepth 8192 in
theorem stT_g1_writes : (stT_g1 : List (HloOp τ sig (Elt F))).Forall (WritesIn 844 847) := by
  unfold stT_g1
  exact
  ⟨writesIn_single main_cst_45 _ rfl (by decide) (by decide),
   writesIn_single main_v472 _ rfl (by decide) (by decide),
   writesIn_single main_v473 _ rfl (by decide) (by decide)⟩

/-- A buffer outside the stretch's range keeps its contents through it. -/
theorem stT_g1_keep (W : Valuation τ sig (Elt F)) (r : Ref sig .tc) (hr : r.idx.val < 844 ∨ 847 ≤ r.idx.val) :
    after stT_g1 W (no_index (Proc.devRef .tc r)) = W (Proc.devRef .tc r) :=
  after_keep stT_g1 W stT_g1_writes r hr

theorem third_g1 (W : Valuation τ sig (Elt F)) :
    after stT_g1 W (no_index (Proc.devRef .tc main_v473)) = thirdR (W (Proc.devRef .tc main_v471)) := by
  simp only [stT_g1]
  after_results_simp
  rfl

/-- The branch's 414 operations, in order. -/
noncomputable def opsG_g1 : List (HloOp τ sig (Elt F)) :=
  stP_g1 ++ (stE_g1l0 ++ (stA_g1l0 ++ (stM_g1l0 ++ (stE_g1l1 ++ (stA_g1l1 ++ (stM_g1l1 ++ (stE_g1l2 ++ (stA_g1l2 ++ (stM_g1l2 ++ (stT_g1))))))))))

/-- They write the branch's own range of buffers. -/
theorem opsG_g1_writes : (opsG_g1 : List (HloOp τ sig (Elt F))).Forall (WritesIn 433 847) := by
  unfold opsG_g1
  exact
    forall_append (forall_mono stP_g1_writes fun _ h => h.mono (by decide) (by decide)) (
    forall_append (forall_mono stE_g1l0_writes fun _ h => h.mono (by decide) (by decide)) (
    forall_append (forall_mono stA_g1l0_writes fun _ h => h.mono (by decide) (by decide)) (
    forall_append (forall_mono stM_g1l0_writes fun _ h => h.mono (by decide) (by decide)) (
    forall_append (forall_mono stE_g1l1_writes fun _ h => h.mono (by decide) (by decide)) (
    forall_append (forall_mono stA_g1l1_writes fun _ h => h.mono (by decide) (by decide)) (
    forall_append (forall_mono stM_g1l1_writes fun _ h => h.mono (by decide) (by decide)) (
    forall_append (forall_mono stE_g1l2_writes fun _ h => h.mono (by decide) (by decide)) (
    forall_append (forall_mono stA_g1l2_writes fun _ h => h.mono (by decide) (by decide)) (
    forall_append (forall_mono stM_g1l2_writes fun _ h => h.mono (by decide) (by decide)) (forall_mono stT_g1_writes fun _ h => h.mono (by decide) (by decide)))))))))))

/-- A buffer outside the branch's range keeps its contents through it. -/
theorem opsG_g1_keep (W : Valuation τ sig (Elt F)) (r : Ref sig .tc) (hr : r.idx.val < 433 ∨ 847 ≤ r.idx.val) :
    after opsG_g1 W (no_index (Proc.devRef .tc r)) = W (Proc.devRef .tc r) :=
  after_keep opsG_g1 W opsG_g1_writes r hr

set_option maxRecDepth 8192 in
set_option maxHeartbeats 4000000 in
/-- After the branch its result buffer holds the branch function of the argument buffers' contents. -/
theorem gin_g1 (W : Valuation τ sig (Elt F)) :
    after opsG_g1 W (no_index (Proc.devRef .tc main_v473))
      = ginF eyeF (W (Proc.devRef .tc main_arg1)) (W (Proc.devRef .tc main_arg9)) (W (Proc.devRef .tc main_arg10)) (W (Proc.devRef .tc main_arg11)) (W (Proc.devRef .tc main_arg12)) (W (Proc.devRef .tc main_arg13)) := by
  simp only [opsG_g1, StableHlo.after_append]
  simp (disch := decide) only [third_g1, eye_g1, zero_g1,
    embed_g1l0, agg_g1l0, mlp_g1l0, acc_g1l0, embed_g1l1, agg_g1l1, mlp_g1l1, acc_g1l1, embed_g1l2, agg_g1l2, mlp_g1l2, acc_g1l2,
    stP_g1_keep, stE_g1l0_keep, stA_g1l0_keep, stM_g1l0_keep, stE_g1l1_keep, stA_g1l1_keep, stM_g1l1_keep, stE_g1l2_keep, stA_g1l2_keep, stM_g1l2_keep, stT_g1_keep]
  rfl

end Cert.ReferenceIdeal.Hand

end
-- ==== Proof.RefValL_g2l0.lean ====
/-
  One GIN layer of the reference, read back: the layer's operations in three stretches — the embedding of the layer's
  input (46 operations), the aggregate (14), the perceptron with the accumulation (74) — and, for any contents W
  before a stretch, what the stretch leaves at the buffers later stretches read, as the stage functions of
  RefFns applied to W at the buffers the stretch reads. Every other buffer keeps what it held.
-/
import proofs.«169706_j68856915690108_1_alg».proof.Proof.Gen.ReferenceIdeal
import proofs.«169706_j68856915690108_1_alg».proof.Proof.RefLib
import proofs.«169706_j68856915690108_1_alg».proof.Proof.RefFns
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The embedding's operations: two dense layers, each followed by ELU. -/
noncomputable def stE_g2l0 : List (HloOp τ sig (Elt F)) :=
  [ unary main_arg14 main_v481 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v481 main_v482 rfl shapeCasts_S1x256x256_S256x256,
    binary main_arg2 main_v482 main_v483 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg15 main_v484 ((extractStridedSlice S1x256 ![0, 0] · slices_S2x256_S1x256_0_0) : (⟨S2x256, .f32⟩ : BufTy).Contents (Elt F) → (⟨S1x256, .f32⟩ : BufTy).Contents (Elt F)),
    reshape main_v484 main_v485 rfl shapeCasts_S1x256_S256,
    unary main_v485 main_v486 (broadcastInDim S1x256 ![1] bcast_S256_S1x256_1 : (⟨S256, .f32⟩ : BufTy).Contents (Elt F) → (⟨S1x256, .f32⟩ : BufTy).Contents (Elt F)),
    unary main_v486 main_v487 (broadcastInDim S4096x256 ![0, 1] bcast_S1x256_S4096x256_0_1 : (⟨S1x256, .f32⟩ : BufTy).Contents (Elt F) → (⟨S4096x256, .f32⟩ : BufTy).Contents (Elt F)),
    binary main_v483 main_v487 main_v488 (addf : (⟨S4096x256, .f32⟩ : BufTy).Contents (Elt F) → (⟨S4096x256, .f32⟩ : BufTy).Contents (Elt F) → (⟨S4096x256, .f32⟩ : BufTy).Contents (Elt F)),
    TRef.nullary main_call24.cst (constant S_ .f32 0x00000000#32),
    TRef.unary main_call24.cst main_call24.v0 (broadcastInDim S4096x256 ![] bcast_S_S4096x256),
    TRef.binary (.of main_v488 : TRef sig ⟨S4096x256, .f32⟩) main_call24.v0 main_call24.v1 (cmpf .ogt),
    TRef.nullary main_call24.cst_0 (constant S_ .f32 0x00000000#32),
    TRef.unary main_call24.cst_0 main_call24.v2 (broadcastInDim S4096x256 ![] bcast_S_S4096x256),
    TRef.binary (.of main_v488 : TRef sig ⟨S4096x256, .f32⟩) main_call24.v2 main_call24.v3 (cmpf .ogt),
    TRef.nullary main_call24.cst_1 (constant S_ .f32 0x00000000#32),
    TRef.unary main_call24.cst_1 main_call24_call0.v0 id,
    TRef.unary main_call24_call0.v0 main_call24_call0.v1 (broadcastInDim S4096x256 ![] bcast_S_S4096x256),
    TRef.ternary main_call24.v3 main_call24_call0.v1 (.of main_v488 : TRef sig ⟨S4096x256, .f32⟩) main_call24_call0.v2 select,
    TRef.unary main_call24.call0.v2 main_call24.v5 Host.expm1,
    TRef.nullary main_call24.cst_2 (constant S_ .f32 0x3F800000#32),
    TRef.unary main_call24.cst_2 main_call24.v6 (broadcastInDim S4096x256 ![] bcast_S_S4096x256),
    TRef.binary main_call24.v6 main_call24.v5 main_call24.v7 mulf,
    TRef.ternary main_call24.v1 (.of main_v488 : TRef sig ⟨S4096x256, .f32⟩) main_call24.v7 main_call24_call1.v0 select,
    unary main_arg14 main_v490 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v490 main_v491 rfl shapeCasts_S1x256x256_S256x256,
    binary main_v489 main_v491 main_v492 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg15 main_v493 ((extractStridedSlice S1x256 ![1, 0] · slices_S2x256_S1x256_1_0) : (⟨S2x256, .f32⟩ : BufTy).Contents (Elt F) → (⟨S1x256, .f32⟩ : BufTy).Contents (Elt F)),
    reshape main_v493 main_v494 rfl shapeCasts_S1x256_S256,
    unary main_v494 main_v495 (broadcastInDim S1x256 ![1] bcast_S256_S1x256_1 : (⟨S256, .f32⟩ : BufTy).Contents (Elt F) → (⟨S1x256, .f32⟩ : BufTy).Contents (Elt F)),
    unary main_v495 main_v496 (broadcastInDim S4096x256 ![0, 1] bcast_S1x256_S4096x256_0_1 : (⟨S1x256, .f32⟩ : BufTy).Contents (Elt F) → (⟨S4096x256, .f32⟩ : BufTy).Contents (Elt F)),
    binary main_v492 main_v496 main_v497 (addf : (⟨S4096x256, .f32⟩ : BufTy).Contents (Elt F) → (⟨S4096x256, .f32⟩ : BufTy).Contents (Elt F) → (⟨S4096x256, .f32⟩ : BufTy).Contents (Elt F)),
    TRef.nullary main_call25.cst (constant S_ .f32 0x00000000#32),
    TRef.unary main_call25.cst main_call25.v0 (broadcastInDim S4096x256 ![] bcast_S_S4096x256),
    TRef.binary (.of main_v497 : TRef sig ⟨S4096x256, .f32⟩) main_call25.v0 main_call25.v1 (cmpf .ogt),
    TRef.nullary main_call25.cst_0 (constant S_ .f32 0x00000000#32),
    TRef.unary main_call25.cst_0 main_call25.v2 (broadcastInDim S4096x256 ![] bcast_S_S4096x256),
    TRef.binary (.of main_v497 : TRef sig ⟨S4096x256, .f32⟩) main_call25.v2 main_call25.v3 (cmpf .ogt),
    TRef.nullary main_call25.cst_1 (constant S_ .f32 0x00000000#32),
    TRef.unary main_call25.cst_1 main_call25_call0.v0 id,
    TRef.unary main_call25_call0.v0 main_call25_call0.v1 (broadcastInDim S4096x256 ![] bcast_S_S4096x256),
    TRef.ternary main_call25.v3 main_call25_call0.v1 (.of main_v497 : TRef sig ⟨S4096x256, .f32⟩) main_call25_call0.v2 select,
    TRef.unary main_call25.call0.v2 main_call25.v5 Host.expm1,
    TRef.nullary main_call25.cst_2 (constant S_ .f32 0x3F800000#32),
    TRef.unary main_call25.cst_2 main_call25.v6 (broadcastInDim S4096x256 ![] bcast_S_S4096x256),
    TRef.binary main_call25.v6 main_call25.v5 main_call25.v7 mulf,
    TRef.ternary main_call25.v1 (.of main_v497 : TRef sig ⟨S4096x256, .f32⟩) main_call25.v7 main_call25_call1.v0 select ]

set_option maxRecDepth 8192 in
theorem stE_g2l0_writes : (stE_g2l0 : List (HloOp τ sig (Elt F))).Forall (WritesIn 856 902) := by
  unfold stE_g2l0
  exact
  ⟨writesIn_single main_v481 _ rfl (by decide) (by decide),
   writesIn_single main_v482 _ rfl (by decide) (by decide),
   writesIn_single main_v483 _ rfl (by decide) (by decide),
   writesIn_single main_v484 _ rfl (by decide) (by decide),
   writesIn_single main_v485 _ rfl (by decide) (by decide),
   writesIn_single main_v486 _ rfl (by decide) (by decide),
   writesIn_single main_v487 _ rfl (by decide) (by decide),
   writesIn_single main_v488 _ rfl (by decide) (by decide),
   writesIn_single main_call24_cst _ rfl (by decide) (by decide),
   writesIn_single main_call24_v0 _ rfl (by decide) (by decide),
   writesIn_single main_call24_v1 _ rfl (by decide) (by decide),
   writesIn_single main_call24_cst_0 _ rfl (by decide) (by decide),
   writesIn_single main_call24_v2 _ rfl (by decide) (by decide),
   writesIn_single main_call24_v3 _ rfl (by decide) (by decide),
   writesIn_single main_call24_cst_1 _ rfl (by decide) (by decide),
   writesIn_single main_call24_call0_v0 _ rfl (by decide) (by decide),
   writesIn_single main_call24_call0_v1 _ rfl (by decide) (by decide),
   writesIn_single main_call24_v4 _ rfl (by decide) (by decide),
   writesIn_single main_call24_v5 _ rfl (by decide) (by decide),
   writesIn_single main_call24_cst_2 _ rfl (by decide) (by decide),
   writesIn_single main_call24_v6 _ rfl (by decide) (by decide),
   writesIn_single main_call24_v7 _ rfl (by decide) (by decide),
   writesIn_single main_v489 _ rfl (by decide) (by decide),
   writesIn_single main_v490 _ rfl (by decide) (by decide),
   writesIn_single main_v491 _ rfl (by decide) (by decide),
   writesIn_single main_v492 _ rfl (by decide) (by decide),
   writesIn_single main_v493 _ rfl (by decide) (by decide),
   writesIn_single main_v494 _ rfl (by decide) (by decide),
   writesIn_single main_v495 _ rfl (by decide) (by decide),
   writesIn_single main_v496 _ rfl (by decide) (by decide),
   writesIn_single main_v497 _ rfl (by decide) (by decide),
   writesIn_single main_call25_cst _ rfl (by decide) (by decide),
   writesIn_single main_call25_v0 _ rfl (by decide) (by decide),
   writesIn_single main_call25_v1 _ rfl (by decide) (by decide),
   writesIn_single main_call25_cst_0 _ rfl (by decide) (by decide),
   writesIn_single main_call25_v2 _ rfl (by decide) (by decide),
   writesIn_single main_call25_v3 _ rfl (by decide) (by decide),
   writesIn_single main_call25_cst_1 _ rfl (by decide) (by decide),
   writesIn_single main_call25_call0_v0 _ rfl (by decide) (by decide),
   writesIn_single main_call25_call0_v1 _ rfl (by decide) (by decide),
   writesIn_single main_call25_v4 _ rfl (by decide) (by decide),
   writesIn_single main_call25_v5 _ rfl (by decide) (by decide),
   writesIn_single main_call25_cst_2 _ rfl (by decide) (by decide),
   writesIn_single main_call25_v6 _ rfl (by decide) (by decide),
   writesIn_single main_call25_v7 _ rfl (by decide) (by decide),
   writesIn_single main_v498 _ rfl (by decide) (by decide)⟩

/-- A buffer outside the stretch's range keeps its contents through it. -/
theorem stE_g2l0_keep (W : Valuation τ sig (Elt F)) (r : Ref sig .tc) (hr : r.idx.val < 856 ∨ 902 ≤ r.idx.val) :
    after stE_g2l0 W (no_index (Proc.devRef .tc r)) = W (Proc.devRef .tc r) :=
  after_keep stE_g2l0 W stE_g2l0_writes r hr

set_option maxRecDepth 8192 in
set_option maxHeartbeats 4000000 in
/-- After them the hidden features are the embedding of the layer's input. -/
theorem embed_g2l0 (W : Valuation τ sig (Elt F)) :
    after stE_g2l0 W (no_index (Proc.devRef .tc main_v498))
      = embedR (W (Proc.devRef .tc main_arg2)) (W (Proc.devRef .tc main_arg14)) (W (Proc.devRef .tc main_arg15)) := by
  simp only [stE_g2l0]
  after_results_simp
  rfl

/-- The aggregate's operations: the Gram matrix, its mean, the mask, plus the identity, times the input. -/
noncomputable def stA_g2l0 : List (HloOp τ sig (Elt F)) :=
  [ unary main_v498 main_v499 ((transpose S256x4096 [1, 0] · transposes_S4096x256_S256x4096_1_0) : (⟨S4096x256, .f32⟩ : BufTy).Contents (Elt F) → (⟨S256x4096, .f32⟩ : BufTy).Contents (Elt F)),
    binary main_v498 main_v499 main_v500 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_48 (constant S_ .f32 0x00000000#32),
    binary main_v500 main_cst_48 main_v501 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_49 (constant S_ .f32 0x4B800000#32),
    binary main_v501 main_cst_49 main_v502 (Host.divf : (⟨S_, .f32⟩ : BufTy).Contents (Elt F) → (⟨S_, .f32⟩ : BufTy).Contents (Elt F) → (⟨S_, .f32⟩ : BufTy).Contents (Elt F)),
    unary main_v502 main_v503 (broadcastInDim S4096x4096 ![] bcast_S_S4096x4096 : (⟨S_, .f32⟩ : BufTy).Contents (Elt F) → (⟨S4096x4096, .f32⟩ : BufTy).Contents (Elt F)),
    binary main_v500 main_v503 main_v504 (cmpf .ogt : (⟨S4096x4096, .f32⟩ : BufTy).Contents (Elt F) → (⟨S4096x4096, .f32⟩ : BufTy).Contents (Elt F) → (⟨S4096x4096, .i1⟩ : BufTy).Contents (Elt F)),
    unary main_v504 main_v505 (uitofp .f32 : (⟨S4096x4096, .i1⟩ : BufTy).Contents (Elt F) → (⟨S4096x4096, .f32⟩ : BufTy).Contents (Elt F)),
    nullary main_cst_50 (constant S_ .f32 0x3F800000#32),
    unary main_cst_50 main_v506 (broadcastInDim S4096x4096 ![] bcast_S_S4096x4096 : (⟨S_, .f32⟩ : BufTy).Contents (Elt F) → (⟨S4096x4096, .f32⟩ : BufTy).Contents (Elt F)),
    binary main_v506 main_v479 main_v507 (mulf : (⟨S4096x4096, .f32⟩ : BufTy).Contents (Elt F) → (⟨S4096x4096, .f32⟩ : BufTy).Contents (Elt F) → (⟨S4096x4096, .f32⟩ : BufTy).Contents (Elt F)),
    binary main_v505 main_v507 main_v508 (addf : (⟨S4096x4096, .f32⟩ : BufTy).Contents (Elt F) → (⟨S4096x4096, .f32⟩ : BufTy).Contents (Elt F) → (⟨S4096x4096, .f32⟩ : BufTy).Contents (Elt F)),
    binary main_v508 main_arg2 main_v509 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]

set_option maxRecDepth 8192 in
theorem stA_g2l0_writes : (stA_g2l0 : List (HloOp τ sig (Elt F))).Forall (WritesIn 902 916) := by
  unfold stA_g2l0
  exact
  ⟨writesIn_single main_v499 _ rfl (by decide) (by decide),
   writesIn_single main_v500 _ rfl (by decide) (by decide),
   writesIn_single main_cst_48 _ rfl (by decide) (by decide),
   writesIn_single main_v501 _ rfl (by decide) (by decide),
   writesIn_single main_cst_49 _ rfl (by decide) (by decide),
   writesIn_single main_v502 _ rfl (by decide) (by decide),
   writesIn_single main_v503 _ rfl (by decide) (by decide),
   writesIn_single main_v504 _ rfl (by decide) (by decide),
   writesIn_single main_v505 _ rfl (by decide) (by decide),
   writesIn_single main_cst_50 _ rfl (by decide) (by decide),
   writesIn_single main_v506 _ rfl (by decide) (by decide),
   writesIn_single main_v507 _ rfl (by decide) (by decide),
   writesIn_single main_v508 _ rfl (by decide) (by decide),
   writesIn_single main_v509 _ rfl (by decide) (by decide)⟩

/-- A buffer outside the stretch's range keeps its contents through it. -/
theorem stA_g2l0_keep (W : Valuation τ sig (Elt F)) (r : Ref sig .tc) (hr : r.idx.val < 902 ∨ 916 ≤ r.idx.val) :
    after stA_g2l0 W (no_index (Proc.devRef .tc r)) = W (Proc.devRef .tc r) :=
  after_keep stA_g2l0 W stA_g2l0_writes r hr

set_option maxRecDepth 8192 in
set_option maxHeartbeats 4000000 in
/-- After them: the aggregate of the hidden features and the layer's input over the identity matrix's buffer. -/
theorem agg_g2l0 (W : Valuation τ sig (Elt F)) :
    after stA_g2l0 W (no_index (Proc.devRef .tc main_v509))
      = aggF (W (Proc.devRef .tc main_v479)) (W (Proc.devRef .tc main_v498)) (W (Proc.devRef .tc main_arg2)) := by
  simp only [stA_g2l0]
  after_results_simp
  rfl

/-- The perceptron's operations (the layer's slices of the stacked parameters first) and the accumulation. -/
noncomputable def stM_g2l0 : List (HloOp τ sig (Elt F)) :=
  [ unary main_arg16 main_v510 ((extractStridedSlice S1x2x256x256 ![0, 0, 0, 0] · slices_S3x2x256x256_S1x2x256x256_0_0_0_0) : (⟨S3x2x256x256, .f32⟩ : BufTy).Contents (Elt F) → (⟨S1x2x256x256, .f32⟩ : BufTy).Contents (Elt F)),
    reshape main_v510 main_v511 rfl shapeCasts_S1x2x256x256_S2x256x256,
    unary main_arg17 main_v512 ((extractStridedSlice S1x2x256 ![0, 0, 0] · slices_S3x2x256_S1x2x256_0_0_0) : (⟨S3x2x256, .f32⟩ : BufTy).Contents (Elt F) → (⟨S1x2x256, .f32⟩ : BufTy).Contents (Elt F)),
    reshape main_v512 main_v513 rfl shapeCasts_S1x2x256_S2x256,
    unary main_arg18 main_v514 ((extractStridedSlice S1x2x256 ![0, 0, 0] · slices_S3x2x256_S1x2x256_0_0_0) : (⟨S3x2x256, .f32⟩ : BufTy).Contents (Elt F) → (⟨S1x2x256, .f32⟩ : BufTy).Contents (Elt F)),
    reshape main_v514 main_v515 rfl shapeCasts_S1x2x256_S2x256,
    unary main_v511 main_v516 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v516 main_v517 rfl shapeCasts_S1x256x256_S256x256,
    binary main_v509 main_v517 main_v518 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v513 main_v519 ((extractStridedSlice S1x256 ![0, 0] · slices_S2x256_S1x256_0_0) : (⟨S2x256, .f32⟩ : BufTy).Contents (Elt F) → (⟨S1x256, .f32⟩ : BufTy).Contents (Elt F)),
    reshape main_v519 main_v520 rfl shapeCasts_S1x256_S256,
    unary main_v520 main_v521 (broadcastInDim S1x256 ![1] bcast_S256_S1x256_1 : (⟨S256, .f32⟩ : BufTy).Contents (Elt F) → (⟨S1x256, .f32⟩ : BufTy).Contents (Elt F)),
    unary main_v521 main_v522 (broadcastInDim S4096x256 ![0, 1] bcast_S1x256_S4096x256_0_1 : (⟨S1x256, .f32⟩ : BufTy).Contents (Elt F) → (⟨S4096x256, .f32⟩ : BufTy).Contents (Elt F)),
    binary main_v518 main_v522 main_v523 (addf : (⟨S4096x256, .f32⟩ : BufTy).Contents (Elt F) → (⟨S4096x256, .f32⟩ : BufTy).Contents (Elt F) → (⟨S4096x256, .f32⟩ : BufTy).Contents (Elt F)),
    nullary main_cst_51 (constant S_ .f32 0x00000000#32),
    binary main_v523 main_cst_51 main_v524 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_52 (constant S_ .f32 0x45800000#32),
    unary main_cst_52 main_v525 (broadcastInDim S256 ![] bcast_S_S256 : (⟨S_, .f32⟩ : BufTy).Contents (Elt F) → (⟨S256, .f32⟩ : BufTy).Contents (Elt F)),
    binary main_v524 main_v525 main_v526 (Host.divf : (⟨S256, .f32⟩ : BufTy).Contents (Elt F) → (⟨S256, .f32⟩ : BufTy).Contents (Elt F) → (⟨S256, .f32⟩ : BufTy).Contents (Elt F)),
    nullary main_c_53 (constantI S_ 32 0#32),
    TRef.nullary main_call26.cst (constant S_ .f32 0x00000000#32),
    TRef.binary (.of main_v523 : TRef sig ⟨S4096x256, .f32⟩) main_call26.cst main_call26.v0 (fun x v => Host.reduceAdd x v reducesTo_S4096x256_S256_d0 h_S_),
    TRef.unary main_call26.v0 main_call26.v1 (broadcastInDim S1x256 ![1] bcast_S256_S1x256_1),
    TRef.nullary main_call26.cst_0 (constant S_ .f32 0x45800000#32),
    TRef.unary main_call26.cst_0 main_call26.v2 (broadcastInDim S1x256 ![] bcast_S_S1x256),
    TRef.binary main_call26.v1 main_call26.v2 main_call26.v3 Host.divf,
    TRef.unary main_call26.v3 main_call26.v4 (broadcastInDim S4096x256 ![0, 1] bcast_S1x256_S4096x256_0_1),
    TRef.binary (.of main_v523 : TRef sig ⟨S4096x256, .f32⟩) main_call26.v4 main_call26.v5 subf,
    TRef.binary main_call26.v5 main_call26.v5 main_call26.v6 mulf,
    TRef.unary (.of main_c_53 : TRef sig ⟨S_, .i32⟩) main_call26.v7 (sitofp .f32),
    TRef.nullary main_call26.cst_1 (constant S_ .f32 0x45800000#32),
    TRef.binary main_call26.cst_1 main_call26.v7 main_call26.v8 subf,
    TRef.nullary main_call26.cst_2 (constant S_ .f32 0x00000000#32),
    TRef.binary main_call26.v6 main_call26.cst_2 main_call26.v9 (fun x v => Host.reduceAdd x v reducesTo_S4096x256_S256_d0 h_S_),
    TRef.unary main_call26.v8 main_call26.v10 (broadcastInDim S256 ![] bcast_S_S256),
    TRef.binary main_call26.v9 main_call26.v10 main_call26.v11 Host.divf,
    TRef.nullary main_call26.cst_3 (constant S_ .f32 0x00000000#32),
    TRef.binary main_call26.v8 main_call26.cst_3 main_call26.v12 (cmpf .ogt),
    TRef.nullary main_call26.cst_4 (constant S_ .f32 0x7FC00000#32),
    TRef.unary main_call26.cst_4 main_call26_call0.v0 id,
    TRef.unary main_call26_call0.v0 main_call26_call0.v1 (broadcastInDim S256 ![] bcast_S_S256),
    TRef.ternary main_call26.v12 main_call26.v11 main_call26_call0.v1 main_call26_call0.v2 (fun p a b => select (broadcastInDim S256 ![] bcast_S_S256 p) a b),
    unary main_v526 main_v528 (broadcastInDim S1x256 ![1] bcast_S256_S1x256_1 : (⟨S256, .f32⟩ : BufTy).Contents (Elt F) → (⟨S1x256, .f32⟩ : BufTy).Contents (Elt F)),
    unary main_v528 main_v529 (broadcastInDim S4096x256 ![0, 1] bcast_S1x256_S4096x256_0_1 : (⟨S1x256, .f32⟩ : BufTy).Contents (Elt F) → (⟨S4096x256, .f32⟩ : BufTy).Contents (Elt F)),
    binary main_v523 main_v529 main_v530 (subf : (⟨S4096x256, .f32⟩ : BufTy).Contents (Elt F) → (⟨S4096x256, .f32⟩ : BufTy).Contents (Elt F) → (⟨S4096x256, .f32⟩ : BufTy).Contents (Elt F)),
    nullary main_cst_54 (constant S_ .f32 0x3727C5AC#32),
    unary main_cst_54 main_v531 (broadcastInDim S256 ![] bcast_S_S256 : (⟨S_, .f32⟩ : BufTy).Contents (Elt F) → (⟨S256, .f32⟩ : BufTy).Contents (Elt F)),
    binary main_v527 main_v531 main_v532 (addf : (⟨S256, .f32⟩ : BufTy).Contents (Elt F) → (⟨S256, .f32⟩ : BufTy).Contents (Elt F) → (⟨S256, .f32⟩ : BufTy).Contents (Elt F)),
    unary main_v532 main_v533 (Host.rsqrt : (⟨S256, .f32⟩ : BufTy).Contents (Elt F) → (⟨S256, .f32⟩ : BufTy).Contents (Elt F)),
    unary main_v533 main_v534 (broadcastInDim S1x256 ![1] bcast_S256_S1x256_1 : (⟨S256, .f32⟩ : BufTy).Contents (Elt F) → (⟨S1x256, .f32⟩ : BufTy).Contents (Elt F)),
    unary main_v534 main_v535 (broadcastInDim S4096x256 ![0, 1] bcast_S1x256_S4096x256_0_1 : (⟨S1x256, .f32⟩ : BufTy).Contents (Elt F) → (⟨S4096x256, .f32⟩ : BufTy).Contents (Elt F)),
    binary main_v530 main_v535 main_v536 (mulf : (⟨S4096x256, .f32⟩ : BufTy).Contents (Elt F) → (⟨S4096x256, .f32⟩ : BufTy).Contents (Elt F) → (⟨S4096x256, .f32⟩ : BufTy).Contents (Elt F)),
    unary main_v515 main_v537 ((extractStridedSlice S1x256 ![0, 0] · slices_S2x256_S1x256_0_0) : (⟨S2x256, .f32⟩ : BufTy).Contents (Elt F) → (⟨S1x256, .f32⟩ : BufTy).Contents (Elt F)),
    reshape main_v537 main_v538 rfl shapeCasts_S1x256_S256,
    unary main_v538 main_v539 (broadcastInDim S1x256 ![1] bcast_S256_S1x256_1 : (⟨S256, .f32⟩ : BufTy).Contents (Elt F) → (⟨S1x256, .f32⟩ : BufTy).Contents (Elt F)),
    unary main_v539 main_v540 (broadcastInDim S4096x256 ![0, 1] bcast_S1x256_S4096x256_0_1 : (⟨S1x256, .f32⟩ : BufTy).Contents (Elt F) → (⟨S4096x256, .f32⟩ : BufTy).Contents (Elt F)),
    binary main_v536 main_v540 main_v541 (mulf : (⟨S4096x256, .f32⟩ : BufTy).Contents (Elt F) → (⟨S4096x256, .f32⟩ : BufTy).Contents (Elt F) → (⟨S4096x256, .f32⟩ : BufTy).Contents (Elt F)),
    unary main_v515 main_v542 ((extractStridedSlice S1x256 ![1, 0] · slices_S2x256_S1x256_1_0) : (⟨S2x256, .f32⟩ : BufTy).Contents (Elt F) → (⟨S1x256, .f32⟩ : BufTy).Contents (Elt F)),
    reshape main_v542 main_v543 rfl shapeCasts_S1x256_S256,
    unary main_v543 main_v544 (broadcastInDim S1x256 ![1] bcast_S256_S1x256_1 : (⟨S256, .f32⟩ : BufTy).Contents (Elt F) → (⟨S1x256, .f32⟩ : BufTy).Contents (Elt F)),
    unary main_v544 main_v545 (broadcastInDim S4096x256 ![0, 1] bcast_S1x256_S4096x256_0_1 : (⟨S1x256, .f32⟩ : BufTy).Contents (Elt F) → (⟨S4096x256, .f32⟩ : BufTy).Contents (Elt F)),
    binary main_v541 main_v545 main_v546 (addf : (⟨S4096x256, .f32⟩ : BufTy).Contents (Elt F) → (⟨S4096x256, .f32⟩ : BufTy).Contents (Elt F) → (⟨S4096x256, .f32⟩ : BufTy).Contents (Elt F)),
    TRef.nullary main_call27.cst (constant S_ .f32 0x00000000#32),
    TRef.unary main_call27.cst main_call27.v0 (broadcastInDim S4096x256 ![] bcast_S_S4096x256),
    TRef.binary (.of main_v546 : TRef sig ⟨S4096x256, .f32⟩) main_call27.v0 main_call27.v1 maximumf,
    unary main_v511 main_v548 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v548 main_v549 rfl shapeCasts_S1x256x256_S256x256,
    binary main_v547 main_v549 main_v550 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v513 main_v551 ((extractStridedSlice S1x256 ![1, 0] · slices_S2x256_S1x256_1_0) : (⟨S2x256, .f32⟩ : BufTy).Contents (Elt F) → (⟨S1x256, .f32⟩ : BufTy).Contents (Elt F)),
    reshape main_v551 main_v552 rfl shapeCasts_S1x256_S256,
    unary main_v552 main_v553 (broadcastInDim S1x256 ![1] bcast_S256_S1x256_1 : (⟨S256, .f32⟩ : BufTy).Contents (Elt F) → (⟨S1x256, .f32⟩ : BufTy).Contents (Elt F)),
    unary main_v553 main_v554 (broadcastInDim S4096x256 ![0, 1] bcast_S1x256_S4096x256_0_1 : (⟨S1x256, .f32⟩ : BufTy).Contents (Elt F) → (⟨S4096x256, .f32⟩ : BufTy).Contents (Elt F)),
    binary main_v550 main_v554 main_v555 (addf : (⟨S4096x256, .f32⟩ : BufTy).Contents (Elt F) → (⟨S4096x256, .f32⟩ : BufTy).Contents (Elt F) → (⟨S4096x256, .f32⟩ : BufTy).Contents (Elt F)),
    binary main_v480 main_v555 main_v556 (addf : (⟨S4096x256, .f32⟩ : BufTy).Contents (Elt F) → (⟨S4096x256, .f32⟩ : BufTy).Contents (Elt F) → (⟨S4096x256, .f32⟩ : BufTy).Contents (Elt F)) ]

set_option maxRecDepth 8192 in
theorem stM_g2l0_writes : (stM_g2l0 : List (HloOp τ sig (Elt F))).Forall (WritesIn 916 990) := by
  unfold stM_g2l0
  exact
  ⟨writesIn_single main_v510 _ rfl (by decide) (by decide),
   writesIn_single main_v511 _ rfl (by decide) (by decide),
   writesIn_single main_v512 _ rfl (by decide) (by decide),
   writesIn_single main_v513 _ rfl (by decide) (by decide),
   writesIn_single main_v514 _ rfl (by decide) (by decide),
   writesIn_single main_v515 _ rfl (by decide) (by decide),
   writesIn_single main_v516 _ rfl (by decide) (by decide),
   writesIn_single main_v517 _ rfl (by decide) (by decide),
   writesIn_single main_v518 _ rfl (by decide) (by decide),
   writesIn_single main_v519 _ rfl (by decide) (by decide),
   writesIn_single main_v520 _ rfl (by decide) (by decide),
   writesIn_single main_v521 _ rfl (by decide) (by decide),
   writesIn_single main_v522 _ rfl (by decide) (by decide),
   writesIn_single main_v523 _ rfl (by decide) (by decide),
   writesIn_single main_cst_51 _ rfl (by decide) (by decide),
   writesIn_single main_v524 _ rfl (by decide) (by decide),
   writesIn_single main_cst_52 _ rfl (by decide) (by decide),
   writesIn_single main_v525 _ rfl (by decide) (by decide),
   writesIn_single main_v526 _ rfl (by decide) (by decide),
   writesIn_single main_c_53 _ rfl (by decide) (by decide),
   writesIn_single main_call26_cst _ rfl (by decide) (by decide),
   writesIn_single main_call26_v0 _ rfl (by decide) (by decide),
   writesIn_single main_call26_v1 _ rfl (by decide) (by decide),
   writesIn_single main_call26_cst_0 _ rfl (by decide) (by decide),
   writesIn_single main_call26_v2 _ rfl (by decide) (by decide),
   writesIn_single main_call26_v3 _ rfl (by decide) (by decide),
   writesIn_single main_call26_v4 _ rfl (by decide) (by decide),
   writesIn_single main_call26_v5 _ rfl (by decide) (by decide),
   writesIn_single main_call26_v6 _ rfl (by decide) (by decide),
   writesIn_single main_call26_v7 _ rfl (by decide) (by decide),
   writesIn_single main_call26_cst_1 _ rfl (by decide) (by decide),
   writesIn_single main_call26_v8 _ rfl (by decide) (by decide),
   writesIn_single main_call26_cst_2 _ rfl (by decide) (by decide),
   writesIn_single main_call26_v9 _ rfl (by decide) (by decide),
   writesIn_single main_call26_v10 _ rfl (by decide) (by decide),
   writesIn_single main_call26_v11 _ rfl (by decide) (by decide),
   writesIn_single main_call26_cst_3 _ rfl (by decide) (by decide),
   writesIn_single main_call26_v12 _ rfl (by decide) (by decide),
   writesIn_single main_call26_cst_4 _ rfl (by decide) (by decide),
   writesIn_single main_call26_call0_v0 _ rfl (by decide) (by decide),
   writesIn_single main_call26_call0_v1 _ rfl (by decide) (by decide),
   writesIn_single main_v527 _ rfl (by decide) (by decide),
   writesIn_single main_v528 _ rfl (by decide) (by decide),
   writesIn_single main_v529 _ rfl (by decide) (by decide),
   writesIn_single main_v530 _ rfl (by decide) (by decide),
   writesIn_single main_cst_54 _ rfl (by decide) (by decide),
   writesIn_single main_v531 _ rfl (by decide) (by decide),
   writesIn_single main_v532 _ rfl (by decide) (by decide),
   writesIn_single main_v533 _ rfl (by decide) (by decide),
   writesIn_single main_v534 _ rfl (by decide) (by decide),
   writesIn_single main_v535 _ rfl (by decide) (by decide),
   writesIn_single main_v536 _ rfl (by decide) (by decide),
   writesIn_single main_v537 _ rfl (by decide) (by decide),
   writesIn_single main_v538 _ rfl (by decide) (by decide),
   writesIn_single main_v539 _ rfl (by decide) (by decide),
   writesIn_single main_v540 _ rfl (by decide) (by decide),
   writesIn_single main_v541 _ rfl (by decide) (by decide),
   writesIn_single main_v542 _ rfl (by decide) (by decide),
   writesIn_single main_v543 _ rfl (by decide) (by decide),
   writesIn_single main_v544 _ rfl (by decide) (by decide),
   writesIn_single main_v545 _ rfl (by decide) (by decide),
   writesIn_single main_v546 _ rfl (by decide) (by decide),
   writesIn_single main_call27_cst _ rfl (by decide) (by decide),
   writesIn_single main_call27_v0 _ rfl (by decide) (by decide),
   writesIn_single main_v547 _ rfl (by decide) (by decide),
   writesIn_single main_v548 _ rfl (by decide) (by decide),
   writesIn_single main_v549 _ rfl (by decide) (by decide),
   writesIn_single main_v550 _ rfl (by decide) (by decide),
   writesIn_single main_v551 _ rfl (by decide) (by decide),
   writesIn_single main_v552 _ rfl (by decide) (by decide),
   writesIn_single main_v553 _ rfl (by decide) (by decide),
   writesIn_single main_v554 _ rfl (by decide) (by decide),
   writesIn_single main_v555 _ rfl (by decide) (by decide),
   writesIn_single main_v556 _ rfl (by decide) (by decide)⟩

/-- A buffer outside the stretch's range keeps its contents through it. -/
theorem stM_g2l0_keep (W : Valuation τ sig (Elt F)) (r : Ref sig .tc) (hr : r.idx.val < 916 ∨ 990 ≤ r.idx.val) :
    after stM_g2l0 W (no_index (Proc.devRef .tc r)) = W (Proc.devRef .tc r) :=
  after_keep stM_g2l0 W stM_g2l0_writes r hr

set_option maxRecDepth 8192 in
set_option maxHeartbeats 4000000 in
/-- After them the layer's output is the perceptron of the aggregate. -/
theorem mlp_g2l0 (W : Valuation τ sig (Elt F)) :
    after stM_g2l0 W (no_index (Proc.devRef .tc main_v555))
      = mlpR (W (Proc.devRef .tc main_v509)) (sliceW0 (W (Proc.devRef .tc main_arg16))) (sliceB0 (W (Proc.devRef .tc main_arg17))) (sliceB0 (W (Proc.devRef .tc main_arg18))) := by
  simp only [stM_g2l0]
  after_results_simp
  rfl

set_option maxRecDepth 8192 in
set_option maxHeartbeats 4000000 in
/-- And the accumulator is the previous sum plus the layer's output. -/
theorem acc_g2l0 (W : Valuation τ sig (Elt F)) :
    after stM_g2l0 W (no_index (Proc.devRef .tc main_v556))
      = addf (W (Proc.devRef .tc main_v480))
          (mlpR (W (Proc.devRef .tc main_v509)) (sliceW0 (W (Proc.devRef .tc main_arg16))) (sliceB0 (W (Proc.devRef .tc main_arg17))) (sliceB0 (W (Proc.devRef .tc main_arg18)))) := by
  simp only [stM_g2l0]
  after_results_simp
  rfl

end Cert.ReferenceIdeal.Hand

end
-- ==== Proof.RefValL_g2l1.lean ====
/-
  One GIN layer of the reference, read back: the layer's operations in three stretches — the embedding of the layer's
  input (46 operations), the aggregate (14), the perceptron with the accumulation (74) — and, for any contents W
  before a stretch, what the stretch leaves at the buffers later stretches read, as the stage functions of
  RefFns applied to W at the buffers the stretch reads. Every other buffer keeps what it held.
-/
import proofs.«169706_j68856915690108_1_alg».proof.Proof.Gen.ReferenceIdeal
import proofs.«169706_j68856915690108_1_alg».proof.Proof.RefLib
import proofs.«169706_j68856915690108_1_alg».proof.Proof.RefFns
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The embedding's operations: two dense layers, each followed by ELU. -/
noncomputable def stE_g2l1 : List (HloOp τ sig (Elt F)) :=
  [ unary main_arg14 main_v557 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v557 main_v558 rfl shapeCasts_S1x256x256_S256x256,
    binary main_v555 main_v558 main_v559 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg15 main_v560 ((extractStridedSlice S1x256 ![0, 0] · slices_S2x256_S1x256_0_0) : (⟨S2x256, .f32⟩ : BufTy).Contents (Elt F) → (⟨S1x256, .f32⟩ : BufTy).Contents (Elt F)),
    reshape main_v560 main_v561 rfl shapeCasts_S1x256_S256,
    unary main_v561 main_v562 (broadcastInDim S1x256 ![1] bcast_S256_S1x256_1 : (⟨S256, .f32⟩ : BufTy).Contents (Elt F) → (⟨S1x256, .f32⟩ : BufTy).Contents (Elt F)),
    unary main_v562 main_v563 (broadcastInDim S4096x256 ![0, 1] bcast_S1x256_S4096x256_0_1 : (⟨S1x256, .f32⟩ : BufTy).Contents (Elt F) → (⟨S4096x256, .f32⟩ : BufTy).Contents (Elt F)),
    binary main_v559 main_v563 main_v564 (addf : (⟨S4096x256, .f32⟩ : BufTy).Contents (Elt F) → (⟨S4096x256, .f32⟩ : BufTy).Contents (Elt F) → (⟨S4096x256, .f32⟩ : BufTy).Contents (Elt F)),
    TRef.nullary main_call28.cst (constant S_ .f32 0x00000000#32),
    TRef.unary main_call28.cst main_call28.v0 (broadcastInDim S4096x256 ![] bcast_S_S4096x256),
    TRef.binary (.of main_v564 : TRef sig ⟨S4096x256, .f32⟩) main_call28.v0 main_call28.v1 (cmpf .ogt),
    TRef.nullary main_call28.cst_0 (constant S_ .f32 0x00000000#32),
    TRef.unary main_call28.cst_0 main_call28.v2 (broadcastInDim S4096x256 ![] bcast_S_S4096x256),
    TRef.binary (.of main_v564 : TRef sig ⟨S4096x256, .f32⟩) main_call28.v2 main_call28.v3 (cmpf .ogt),
    TRef.nullary main_call28.cst_1 (constant S_ .f32 0x00000000#32),
    TRef.unary main_call28.cst_1 main_call28_call0.v0 id,
    TRef.unary main_call28_call0.v0 main_call28_call0.v1 (broadcastInDim S4096x256 ![] bcast_S_S4096x256),
    TRef.ternary main_call28.v3 main_call28_call0.v1 (.of main_v564 : TRef sig ⟨S4096x256, .f32⟩) main_call28_call0.v2 select,
    TRef.unary main_call28.call0.v2 main_call28.v5 Host.expm1,
    TRef.nullary main_call28.cst_2 (constant S_ .f32 0x3F800000#32),
    TRef.unary main_call28.cst_2 main_call28.v6 (broadcastInDim S4096x256 ![] bcast_S_S4096x256),
    TRef.binary main_call28.v6 main_call28.v5 main_call28.v7 mulf,
    TRef.ternary main_call28.v1 (.of main_v564 : TRef sig ⟨S4096x256, .f32⟩) main_call28.v7 main_call28_call1.v0 select,
    unary main_arg14 main_v566 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v566 main_v567 rfl shapeCasts_S1x256x256_S256x256,
    binary main_v565 main_v567 main_v568 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg15 main_v569 ((extractStridedSlice S1x256 ![1, 0] · slices_S2x256_S1x256_1_0) : (⟨S2x256, .f32⟩ : BufTy).Contents (Elt F) → (⟨S1x256, .f32⟩ : BufTy).Contents (Elt F)),
    reshape main_v569 main_v570 rfl shapeCasts_S1x256_S256,
    unary main_v570 main_v571 (broadcastInDim S1x256 ![1] bcast_S256_S1x256_1 : (⟨S256, .f32⟩ : BufTy).Contents (Elt F) → (⟨S1x256, .f32⟩ : BufTy).Contents (Elt F)),
    unary main_v571 main_v572 (broadcastInDim S4096x256 ![0, 1] bcast_S1x256_S4096x256_0_1 : (⟨S1x256, .f32⟩ : BufTy).Contents (Elt F) → (⟨S4096x256, .f32⟩ : BufTy).Contents (Elt F)),
    binary main_v568 main_v572 main_v573 (addf : (⟨S4096x256, .f32⟩ : BufTy).Contents (Elt F) → (⟨S4096x256, .f32⟩ : BufTy).Contents (Elt F) → (⟨S4096x256, .f32⟩ : BufTy).Contents (Elt F)),
    TRef.nullary main_call29.cst (constant S_ .f32 0x00000000#32),
    TRef.unary main_call29.cst main_call29.v0 (broadcastInDim S4096x256 ![] bcast_S_S4096x256),
    TRef.binary (.of main_v573 : TRef sig ⟨S4096x256, .f32⟩) main_call29.v0 main_call29.v1 (cmpf .ogt),
    TRef.nullary main_call29.cst_0 (constant S_ .f32 0x00000000#32),
    TRef.unary main_call29.cst_0 main_call29.v2 (broadcastInDim S4096x256 ![] bcast_S_S4096x256),
    TRef.binary (.of main_v573 : TRef sig ⟨S4096x256, .f32⟩) main_call29.v2 main_call29.v3 (cmpf .ogt),
    TRef.nullary main_call29.cst_1 (constant S_ .f32 0x00000000#32),
    TRef.unary main_call29.cst_1 main_call29_call0.v0 id,
    TRef.unary main_call29_call0.v0 main_call29_call0.v1 (broadcastInDim S4096x256 ![] bcast_S_S4096x256),
    TRef.ternary main_call29.v3 main_call29_call0.v1 (.of main_v573 : TRef sig ⟨S4096x256, .f32⟩) main_call29_call0.v2 select,
    TRef.unary main_call29.call0.v2 main_call29.v5 Host.expm1,
    TRef.nullary main_call29.cst_2 (constant S_ .f32 0x3F800000#32),
    TRef.unary main_call29.cst_2 main_call29.v6 (broadcastInDim S4096x256 ![] bcast_S_S4096x256),
    TRef.binary main_call29.v6 main_call29.v5 main_call29.v7 mulf,
    TRef.ternary main_call29.v1 (.of main_v573 : TRef sig ⟨S4096x256, .f32⟩) main_call29.v7 main_call29_call1.v0 select ]

set_option maxRecDepth 8192 in
theorem stE_g2l1_writes : (stE_g2l1 : List (HloOp τ sig (Elt F))).Forall (WritesIn 990 1036) := by
  unfold stE_g2l1
  exact
  ⟨writesIn_single main_v557 _ rfl (by decide) (by decide),
   writesIn_single main_v558 _ rfl (by decide) (by decide),
   writesIn_single main_v559 _ rfl (by decide) (by decide),
   writesIn_single main_v560 _ rfl (by decide) (by decide),
   writesIn_single main_v561 _ rfl (by decide) (by decide),
   writesIn_single main_v562 _ rfl (by decide) (by decide),
   writesIn_single main_v563 _ rfl (by decide) (by decide),
   writesIn_single main_v564 _ rfl (by decide) (by decide),
   writesIn_single main_call28_cst _ rfl (by decide) (by decide),
   writesIn_single main_call28_v0 _ rfl (by decide) (by decide),
   writesIn_single main_call28_v1 _ rfl (by decide) (by decide),
   writesIn_single main_call28_cst_0 _ rfl (by decide) (by decide),
   writesIn_single main_call28_v2 _ rfl (by decide) (by decide),
   writesIn_single main_call28_v3 _ rfl (by decide) (by decide),
   writesIn_single main_call28_cst_1 _ rfl (by decide) (by decide),
   writesIn_single main_call28_call0_v0 _ rfl (by decide) (by decide),
   writesIn_single main_call28_call0_v1 _ rfl (by decide) (by decide),
   writesIn_single main_call28_v4 _ rfl (by decide) (by decide),
   writesIn_single main_call28_v5 _ rfl (by decide) (by decide),
   writesIn_single main_call28_cst_2 _ rfl (by decide) (by decide),
   writesIn_single main_call28_v6 _ rfl (by decide) (by decide),
   writesIn_single main_call28_v7 _ rfl (by decide) (by decide),
   writesIn_single main_v565 _ rfl (by decide) (by decide),
   writesIn_single main_v566 _ rfl (by decide) (by decide),
   writesIn_single main_v567 _ rfl (by decide) (by decide),
   writesIn_single main_v568 _ rfl (by decide) (by decide),
   writesIn_single main_v569 _ rfl (by decide) (by decide),
   writesIn_single main_v570 _ rfl (by decide) (by decide),
   writesIn_single main_v571 _ rfl (by decide) (by decide),
   writesIn_single main_v572 _ rfl (by decide) (by decide),
   writesIn_single main_v573 _ rfl (by decide) (by decide),
   writesIn_single main_call29_cst _ rfl (by decide) (by decide),
   writesIn_single main_call29_v0 _ rfl (by decide) (by decide),
   writesIn_single main_call29_v1 _ rfl (by decide) (by decide),
   writesIn_single main_call29_cst_0 _ rfl (by decide) (by decide),
   writesIn_single main_call29_v2 _ rfl (by decide) (by decide),
   writesIn_single main_call29_v3 _ rfl (by decide) (by decide),
   writesIn_single main_call29_cst_1 _ rfl (by decide) (by decide),
   writesIn_single main_call29_call0_v0 _ rfl (by decide) (by decide),
   writesIn_single main_call29_call0_v1 _ rfl (by decide) (by decide),
   writesIn_single main_call29_v4 _ rfl (by decide) (by decide),
   writesIn_single main_call29_v5 _ rfl (by decide) (by decide),
   writesIn_single main_call29_cst_2 _ rfl (by decide) (by decide),
   writesIn_single main_call29_v6 _ rfl (by decide) (by decide),
   writesIn_single main_call29_v7 _ rfl (by decide) (by decide),
   writesIn_single main_v574 _ rfl (by decide) (by decide)⟩

/-- A buffer outside the stretch's range keeps its contents through it. -/
theorem stE_g2l1_keep (W : Valuation τ sig (Elt F)) (r : Ref sig .tc) (hr : r.idx.val < 990 ∨ 1036 ≤ r.idx.val) :
    after stE_g2l1 W (no_index (Proc.devRef .tc r)) = W (Proc.devRef .tc r) :=
  after_keep stE_g2l1 W stE_g2l1_writes r hr

set_option maxRecDepth 8192 in
set_option maxHeartbeats 4000000 in
/-- After them the hidden features are the embedding of the layer's input. -/
theorem embed_g2l1 (W : Valuation τ sig (Elt F)) :
    after stE_g2l1 W (no_index (Proc.devRef .tc main_v574))
      = embedR (W (Proc.devRef .tc main_v555)) (W (Proc.devRef .tc main_arg14)) (W (Proc.devRef .tc main_arg15)) := by
  simp only [stE_g2l1]
  after_results_simp
  rfl

/-- The aggregate's operations: the Gram matrix, its mean, the mask, plus the identity, times the input. -/
noncomputable def stA_g2l1 : List (HloOp τ sig (Elt F)) :=
  [ unary main_v574 main_v575 ((transpose S256x4096 [1, 0] · transposes_S4096x256_S256x4096_1_0) : (⟨S4096x256, .f32⟩ : BufTy).Contents (Elt F) → (⟨S256x4096, .f32⟩ : BufTy).Contents (Elt F)),
    binary main_v574 main_v575 main_v576 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_55 (constant S_ .f32 0x00000000#32),
    binary main_v576 main_cst_55 main_v577 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_56 (constant S_ .f32 0x4B800000#32),
    binary main_v577 main_cst_56 main_v578 (Host.divf : (⟨S_, .f32⟩ : BufTy).Contents (Elt F) → (⟨S_, .f32⟩ : BufTy).Contents (Elt F) → (⟨S_, .f32⟩ : BufTy).Contents (Elt F)),
    unary main_v578 main_v579 (broadcastInDim S4096x4096 ![] bcast_S_S4096x4096 : (⟨S_, .f32⟩ : BufTy).Contents (Elt F) → (⟨S4096x4096, .f32⟩ : BufTy).Contents (Elt F)),
    binary main_v576 main_v579 main_v580 (cmpf .ogt : (⟨S4096x4096, .f32⟩ : BufTy).Contents (Elt F) → (⟨S4096x4096, .f32⟩ : BufTy).Contents (Elt F) → (⟨S4096x4096, .i1⟩ : BufTy).Contents (Elt F)),
    unary main_v580 main_v581 (uitofp .f32 : (⟨S4096x4096, .i1⟩ : BufTy).Contents (Elt F) → (⟨S4096x4096, .f32⟩ : BufTy).Contents (Elt F)),
    nullary main_cst_57 (constant S_ .f32 0x3F800000#32),
    unary main_cst_57 main_v582 (broadcastInDim S4096x4096 ![] bcast_S_S4096x4096 : (⟨S_, .f32⟩ : BufTy).Contents (Elt F) → (⟨S4096x4096, .f32⟩ : BufTy).Contents (Elt F)),
    binary main_v582 main_v479 main_v583 (mulf : (⟨S4096x4096, .f32⟩ : BufTy).Contents (Elt F) → (⟨S4096x4096, .f32⟩ : BufTy).Contents (Elt F) → (⟨S4096x4096, .f32⟩ : BufTy).Contents (Elt F)),
    binary main_v581 main_v583 main_v584 (addf : (⟨S4096x4096, .f32⟩ : BufTy).Contents (Elt F) → (⟨S4096x4096, .f32⟩ : BufTy).Contents (Elt F) → (⟨S4096x4096, .f32⟩ : BufTy).Contents (Elt F)),
    binary main_v584 main_v555 main_v585 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]

set_option maxRecDepth 8192 in
theorem stA_g2l1_writes : (stA_g2l1 : List (HloOp τ sig (Elt F))).Forall (WritesIn 1036 1050) := by
  unfold stA_g2l1
  exact
  ⟨writesIn_single main_v575 _ rfl (by decide) (by decide),
   writesIn_single main_v576 _ rfl (by decide) (by decide),
   writesIn_single main_cst_55 _ rfl (by decide) (by decide),
   writesIn_single main_v577 _ rfl (by decide) (by decide),
   writesIn_single main_cst_56 _ rfl (by decide) (by decide),
   writesIn_single main_v578 _ rfl (by decide) (by decide),
   writesIn_single main_v579 _ rfl (by decide) (by decide),
   writesIn_single main_v580 _ rfl (by decide) (by decide),
   writesIn_single main_v581 _ rfl (by decide) (by decide),
   writesIn_single main_cst_57 _ rfl (by decide) (by decide),
   writesIn_single main_v582 _ rfl (by decide) (by decide),
   writesIn_single main_v583 _ rfl (by decide) (by decide),
   writesIn_single main_v584 _ rfl (by decide) (by decide),
   writesIn_single main_v585 _ rfl (by decide) (by decide)⟩

/-- A buffer outside the stretch's range keeps its contents through it. -/
theorem stA_g2l1_keep (W : Valuation τ sig (Elt F)) (r : Ref sig .tc) (hr : r.idx.val < 1036 ∨ 1050 ≤ r.idx.val) :
    after stA_g2l1 W (no_index (Proc.devRef .tc r)) = W (Proc.devRef .tc r) :=
  after_keep stA_g2l1 W stA_g2l1_writes r hr

set_option maxRecDepth 8192 in
set_option maxHeartbeats 4000000 in
/-- After them: the aggregate of the hidden features and the layer's input over the identity matrix's buffer. -/
theorem agg_g2l1 (W : Valuation τ sig (Elt F)) :
    after stA_g2l1 W (no_index (Proc.devRef .tc main_v585))
      = aggF (W (Proc.devRef .tc main_v479)) (W (Proc.devRef .tc main_v574)) (W (Proc.devRef .tc main_v555)) := by
  simp only [stA_g2l1]
  after_results_simp
  rfl

/-- The perceptron's operations (the layer's slices of the stacked parameters first) and the accumulation. -/
noncomputable def stM_g2l1 : List (HloOp τ sig (Elt F)) :=
  [ unary main_arg16 main_v586 ((extractStridedSlice S1x2x256x256 ![1, 0, 0, 0] · slices_S3x2x256x256_S1x2x256x256_1_0_0_0) : (⟨S3x2x256x256, .f32⟩ : BufTy).Contents (Elt F) → (⟨S1x2x256x256, .f32⟩ : BufTy).Contents (Elt F)),
    reshape main_v586 main_v587 rfl shapeCasts_S1x2x256x256_S2x256x256,
    unary main_arg17 main_v588 ((extractStridedSlice S1x2x256 ![1, 0, 0] · slices_S3x2x256_S1x2x256_1_0_0) : (⟨S3x2x256, .f32⟩ : BufTy).Contents (Elt F) → (⟨S1x2x256, .f32⟩ : BufTy).Contents (Elt F)),
    reshape main_v588 main_v589 rfl shapeCasts_S1x2x256_S2x256,
    unary main_arg18 main_v590 ((extractStridedSlice S1x2x256 ![1, 0, 0] · slices_S3x2x256_S1x2x256_1_0_0) : (⟨S3x2x256, .f32⟩ : BufTy).Contents (Elt F) → (⟨S1x2x256, .f32⟩ : BufTy).Contents (Elt F)),
    reshape main_v590 main_v591 rfl shapeCasts_S1x2x256_S2x256,
    unary main_v587 main_v592 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v592 main_v593 rfl shapeCasts_S1x256x256_S256x256,
    binary main_v585 main_v593 main_v594 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v589 main_v595 ((extractStridedSlice S1x256 ![0, 0] · slices_S2x256_S1x256_0_0) : (⟨S2x256, .f32⟩ : BufTy).Contents (Elt F) → (⟨S1x256, .f32⟩ : BufTy).Contents (Elt F)),
    reshape main_v595 main_v596 rfl shapeCasts_S1x256_S256,
    unary main_v596 main_v597 (broadcastInDim S1x256 ![1] bcast_S256_S1x256_1 : (⟨S256, .f32⟩ : BufTy).Contents (Elt F) → (⟨S1x256, .f32⟩ : BufTy).Contents (Elt F)),
    unary main_v597 main_v598 (broadcastInDim S4096x256 ![0, 1] bcast_S1x256_S4096x256_0_1 : (⟨S1x256, .f32⟩ : BufTy).Contents (Elt F) → (⟨S4096x256, .f32⟩ : BufTy).Contents (Elt F)),
    binary main_v594 main_v598 main_v599 (addf : (⟨S4096x256, .f32⟩ : BufTy).Contents (Elt F) → (⟨S4096x256, .f32⟩ : BufTy).Contents (Elt F) → (⟨S4096x256, .f32⟩ : BufTy).Contents (Elt F)),
    nullary main_cst_58 (constant S_ .f32 0x00000000#32),
    binary main_v599 main_cst_58 main_v600 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_59 (constant S_ .f32 0x45800000#32),
    unary main_cst_59 main_v601 (broadcastInDim S256 ![] bcast_S_S256 : (⟨S_, .f32⟩ : BufTy).Contents (Elt F) → (⟨S256, .f32⟩ : BufTy).Contents (Elt F)),
    binary main_v600 main_v601 main_v602 (Host.divf : (⟨S256, .f32⟩ : BufTy).Contents (Elt F) → (⟨S256, .f32⟩ : BufTy).Contents (Elt F) → (⟨S256, .f32⟩ : BufTy).Contents (Elt F)),
    nullary main_c_60 (constantI S_ 32 0#32),
    TRef.nullary main_call30.cst (constant S_ .f32 0x00000000#32),
    TRef.binary (.of main_v599 : TRef sig ⟨S4096x256, .f32⟩) main_call30.cst main_call30.v0 (fun x v => Host.reduceAdd x v reducesTo_S4096x256_S256_d0 h_S_),
    TRef.unary main_call30.v0 main_call30.v1 (broadcastInDim S1x256 ![1] bcast_S256_S1x256_1),
    TRef.nullary main_call30.cst_0 (constant S_ .f32 0x45800000#32),
    TRef.unary main_call30.cst_0 main_call30.v2 (broadcastInDim S1x256 ![] bcast_S_S1x256),
    TRef.binary main_call30.v1 main_call30.v2 main_call30.v3 Host.divf,
    TRef.unary main_call30.v3 main_call30.v4 (broadcastInDim S4096x256 ![0, 1] bcast_S1x256_S4096x256_0_1),
    TRef.binary (.of main_v599 : TRef sig ⟨S4096x256, .f32⟩) main_call30.v4 main_call30.v5 subf,
    TRef.binary main_call30.v5 main_call30.v5 main_call30.v6 mulf,
    TRef.unary (.of main_c_60 : TRef sig ⟨S_, .i32⟩) main_call30.v7 (sitofp .f32),
    TRef.nullary main_call30.cst_1 (constant S_ .f32 0x45800000#32),
    TRef.binary main_call30.cst_1 main_call30.v7 main_call30.v8 subf,
    TRef.nullary main_call30.cst_2 (constant S_ .f32 0x00000000#32),
    TRef.binary main_call30.v6 main_call30.cst_2 main_call30.v9 (fun x v => Host.reduceAdd x v reducesTo_S4096x256_S256_d0 h_S_),
    TRef.unary main_call30.v8 main_call30.v10 (broadcastInDim S256 ![] bcast_S_S256),
    TRef.binary main_call30.v9 main_call30.v10 main_call30.v11 Host.divf,
    TRef.nullary main_call30.cst_3 (constant S_ .f32 0x00000000#32),
    TRef.binary main_call30.v8 main_call30.cst_3 main_call30.v12 (cmpf .ogt),
    TRef.nullary main_call30.cst_4 (constant S_ .f32 0x7FC00000#32),
    TRef.unary main_call30.cst_4 main_call30_call0.v0 id,
    TRef.unary main_call30_call0.v0 main_call30_call0.v1 (broadcastInDim S256 ![] bcast_S_S256),
    TRef.ternary main_call30.v12 main_call30.v11 main_call30_call0.v1 main_call30_call0.v2 (fun p a b => select (broadcastInDim S256 ![] bcast_S_S256 p) a b),
    unary main_v602 main_v604 (broadcastInDim S1x256 ![1] bcast_S256_S1x256_1 : (⟨S256, .f32⟩ : BufTy).Contents (Elt F) → (⟨S1x256, .f32⟩ : BufTy).Contents (Elt F)),
    unary main_v604 main_v605 (broadcastInDim S4096x256 ![0, 1] bcast_S1x256_S4096x256_0_1 : (⟨S1x256, .f32⟩ : BufTy).Contents (Elt F) → (⟨S4096x256, .f32⟩ : BufTy).Contents (Elt F)),
    binary main_v599 main_v605 main_v606 (subf : (⟨S4096x256, .f32⟩ : BufTy).Contents (Elt F) → (⟨S4096x256, .f32⟩ : BufTy).Contents (Elt F) → (⟨S4096x256, .f32⟩ : BufTy).Contents (Elt F)),
    nullary main_cst_61 (constant S_ .f32 0x3727C5AC#32),
    unary main_cst_61 main_v607 (broadcastInDim S256 ![] bcast_S_S256 : (⟨S_, .f32⟩ : BufTy).Contents (Elt F) → (⟨S256, .f32⟩ : BufTy).Contents (Elt F)),
    binary main_v603 main_v607 main_v608 (addf : (⟨S256, .f32⟩ : BufTy).Contents (Elt F) → (⟨S256, .f32⟩ : BufTy).Contents (Elt F) → (⟨S256, .f32⟩ : BufTy).Contents (Elt F)),
    unary main_v608 main_v609 (Host.rsqrt : (⟨S256, .f32⟩ : BufTy).Contents (Elt F) → (⟨S256, .f32⟩ : BufTy).Contents (Elt F)),
    unary main_v609 main_v610 (broadcastInDim S1x256 ![1] bcast_S256_S1x256_1 : (⟨S256, .f32⟩ : BufTy).Contents (Elt F) → (⟨S1x256, .f32⟩ : BufTy).Contents (Elt F)),
    unary main_v610 main_v611 (broadcastInDim S4096x256 ![0, 1] bcast_S1x256_S4096x256_0_1 : (⟨S1x256, .f32⟩ : BufTy).Contents (Elt F) → (⟨S4096x256, .f32⟩ : BufTy).Contents (Elt F)),
    binary main_v606 main_v611 main_v612 (mulf : (⟨S4096x256, .f32⟩ : BufTy).Contents (Elt F) → (⟨S4096x256, .f32⟩ : BufTy).Contents (Elt F) → (⟨S4096x256, .f32⟩ : BufTy).Contents (Elt F)),
    unary main_v591 main_v613 ((extractStridedSlice S1x256 ![0, 0] · slices_S2x256_S1x256_0_0) : (⟨S2x256, .f32⟩ : BufTy).Contents (Elt F) → (⟨S1x256, .f32⟩ : BufTy).Contents (Elt F)),
    reshape main_v613 main_v614 rfl shapeCasts_S1x256_S256,
    unary main_v614 main_v615 (broadcastInDim S1x256 ![1] bcast_S256_S1x256_1 : (⟨S256, .f32⟩ : BufTy).Contents (Elt F) → (⟨S1x256, .f32⟩ : BufTy).Contents (Elt F)),
    unary main_v615 main_v616 (broadcastInDim S4096x256 ![0, 1] bcast_S1x256_S4096x256_0_1 : (⟨S1x256, .f32⟩ : BufTy).Contents (Elt F) → (⟨S4096x256, .f32⟩ : BufTy).Contents (Elt F)),
    binary main_v612 main_v616 main_v617 (mulf : (⟨S4096x256, .f32⟩ : BufTy).Contents (Elt F) → (⟨S4096x256, .f32⟩ : BufTy).Contents (Elt F) → (⟨S4096x256, .f32⟩ : BufTy).Contents (Elt F)),
    unary main_v591 main_v618 ((extractStridedSlice S1x256 ![1, 0] · slices_S2x256_S1x256_1_0) : (⟨S2x256, .f32⟩ : BufTy).Contents (Elt F) → (⟨S1x256, .f32⟩ : BufTy).Contents (Elt F)),
    reshape main_v618 main_v619 rfl shapeCasts_S1x256_S256,
    unary main_v619 main_v620 (broadcastInDim S1x256 ![1] bcast_S256_S1x256_1 : (⟨S256, .f32⟩ : BufTy).Contents (Elt F) → (⟨S1x256, .f32⟩ : BufTy).Contents (Elt F)),
    unary main_v620 main_v621 (broadcastInDim S4096x256 ![0, 1] bcast_S1x256_S4096x256_0_1 : (⟨S1x256, .f32⟩ : BufTy).Contents (Elt F) → (⟨S4096x256, .f32⟩ : BufTy).Contents (Elt F)),
    binary main_v617 main_v621 main_v622 (addf : (⟨S4096x256, .f32⟩ : BufTy).Contents (Elt F) → (⟨S4096x256, .f32⟩ : BufTy).Contents (Elt F) → (⟨S4096x256, .f32⟩ : BufTy).Contents (Elt F)),
    TRef.nullary main_call31.cst (constant S_ .f32 0x00000000#32),
    TRef.unary main_call31.cst main_call31.v0 (broadcastInDim S4096x256 ![] bcast_S_S4096x256),
    TRef.binary (.of main_v622 : TRef sig ⟨S4096x256, .f32⟩) main_call31.v0 main_call31.v1 maximumf,
    unary main_v587 main_v624 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v624 main_v625 rfl shapeCasts_S1x256x256_S256x256,
    binary main_v623 main_v625 main_v626 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v589 main_v627 ((extractStridedSlice S1x256 ![1, 0] · slices_S2x256_S1x256_1_0) : (⟨S2x256, .f32⟩ : BufTy).Contents (Elt F) → (⟨S1x256, .f32⟩ : BufTy).Contents (Elt F)),
    reshape main_v627 main_v628 rfl shapeCasts_S1x256_S256,
    unary main_v628 main_v629 (broadcastInDim S1x256 ![1] bcast_S256_S1x256_1 : (⟨S256, .f32⟩ : BufTy).Contents (Elt F) → (⟨S1x256, .f32⟩ : BufTy).Contents (Elt F)),
    unary main_v629 main_v630 (broadcastInDim S4096x256 ![0, 1] bcast_S1x256_S4096x256_0_1 : (⟨S1x256, .f32⟩ : BufTy).Contents (Elt F) → (⟨S4096x256, .f32⟩ : BufTy).Contents (Elt F)),
    binary main_v626 main_v630 main_v631 (addf : (⟨S4096x256, .f32⟩ : BufTy).Contents (Elt F) → (⟨S4096x256, .f32⟩ : BufTy).Contents (Elt F) → (⟨S4096x256, .f32⟩ : BufTy).Contents (Elt F)),
    binary main_v556 main_v631 main_v632 (addf : (⟨S4096x256, .f32⟩ : BufTy).Contents (Elt F) → (⟨S4096x256, .f32⟩ : BufTy).Contents (Elt F) → (⟨S4096x256, .f32⟩ : BufTy).Contents (Elt F)) ]

set_option maxRecDepth 8192 in
theorem stM_g2l1_writes : (stM_g2l1 : List (HloOp τ sig (Elt F))).Forall (WritesIn 1050 1124) := by
  unfold stM_g2l1
  exact
  ⟨writesIn_single main_v586 _ rfl (by decide) (by decide),
   writesIn_single main_v587 _ rfl (by decide) (by decide),
   writesIn_single main_v588 _ rfl (by decide) (by decide),
   writesIn_single main_v589 _ rfl (by decide) (by decide),
   writesIn_single main_v590 _ rfl (by decide) (by decide),
   writesIn_single main_v591 _ rfl (by decide) (by decide),
   writesIn_single main_v592 _ rfl (by decide) (by decide),
   writesIn_single main_v593 _ rfl (by decide) (by decide),
   writesIn_single main_v594 _ rfl (by decide) (by decide),
   writesIn_single main_v595 _ rfl (by decide) (by decide),
   writesIn_single main_v596 _ rfl (by decide) (by decide),
   writesIn_single main_v597 _ rfl (by decide) (by decide),
   writesIn_single main_v598 _ rfl (by decide) (by decide),
   writesIn_single main_v599 _ rfl (by decide) (by decide),
   writesIn_single main_cst_58 _ rfl (by decide) (by decide),
   writesIn_single main_v600 _ rfl (by decide) (by decide),
   writesIn_single main_cst_59 _ rfl (by decide) (by decide),
   writesIn_single main_v601 _ rfl (by decide) (by decide),
   writesIn_single main_v602 _ rfl (by decide) (by decide),
   writesIn_single main_c_60 _ rfl (by decide) (by decide),
   writesIn_single main_call30_cst _ rfl (by decide) (by decide),
   writesIn_single main_call30_v0 _ rfl (by decide) (by decide),
   writesIn_single main_call30_v1 _ rfl (by decide) (by decide),
   writesIn_single main_call30_cst_0 _ rfl (by decide) (by decide),
   writesIn_single main_call30_v2 _ rfl (by decide) (by decide),
   writesIn_single main_call30_v3 _ rfl (by decide) (by decide),
   writesIn_single main_call30_v4 _ rfl (by decide) (by decide),
   writesIn_single main_call30_v5 _ rfl (by decide) (by decide),
   writesIn_single main_call30_v6 _ rfl (by decide) (by decide),
   writesIn_single main_call30_v7 _ rfl (by decide) (by decide),
   writesIn_single main_call30_cst_1 _ rfl (by decide) (by decide),
   writesIn_single main_call30_v8 _ rfl (by decide) (by decide),
   writesIn_single main_call30_cst_2 _ rfl (by decide) (by decide),
   writesIn_single main_call30_v9 _ rfl (by decide) (by decide),
   writesIn_single main_call30_v10 _ rfl (by decide) (by decide),
   writesIn_single main_call30_v11 _ rfl (by decide) (by decide),
   writesIn_single main_call30_cst_3 _ rfl (by decide) (by decide),
   writesIn_single main_call30_v12 _ rfl (by decide) (by decide),
   writesIn_single main_call30_cst_4 _ rfl (by decide) (by decide),
   writesIn_single main_call30_call0_v0 _ rfl (by decide) (by decide),
   writesIn_single main_call30_call0_v1 _ rfl (by decide) (by decide),
   writesIn_single main_v603 _ rfl (by decide) (by decide),
   writesIn_single main_v604 _ rfl (by decide) (by decide),
   writesIn_single main_v605 _ rfl (by decide) (by decide),
   writesIn_single main_v606 _ rfl (by decide) (by decide),
   writesIn_single main_cst_61 _ rfl (by decide) (by decide),
   writesIn_single main_v607 _ rfl (by decide) (by decide),
   writesIn_single main_v608 _ rfl (by decide) (by decide),
   writesIn_single main_v609 _ rfl (by decide) (by decide),
   writesIn_single main_v610 _ rfl (by decide) (by decide),
   writesIn_single main_v611 _ rfl (by decide) (by decide),
   writesIn_single main_v612 _ rfl (by decide) (by decide),
   writesIn_single main_v613 _ rfl (by decide) (by decide),
   writesIn_single main_v614 _ rfl (by decide) (by decide),
   writesIn_single main_v615 _ rfl (by decide) (by decide),
   writesIn_single main_v616 _ rfl (by decide) (by decide),
   writesIn_single main_v617 _ rfl (by decide) (by decide),
   writesIn_single main_v618 _ rfl (by decide) (by decide),
   writesIn_single main_v619 _ rfl (by decide) (by decide),
   writesIn_single main_v620 _ rfl (by decide) (by decide),
   writesIn_single main_v621 _ rfl (by decide) (by decide),
   writesIn_single main_v622 _ rfl (by decide) (by decide),
   writesIn_single main_call31_cst _ rfl (by decide) (by decide),
   writesIn_single main_call31_v0 _ rfl (by decide) (by decide),
   writesIn_single main_v623 _ rfl (by decide) (by decide),
   writesIn_single main_v624 _ rfl (by decide) (by decide),
   writesIn_single main_v625 _ rfl (by decide) (by decide),
   writesIn_single main_v626 _ rfl (by decide) (by decide),
   writesIn_single main_v627 _ rfl (by decide) (by decide),
   writesIn_single main_v628 _ rfl (by decide) (by decide),
   writesIn_single main_v629 _ rfl (by decide) (by decide),
   writesIn_single main_v630 _ rfl (by decide) (by decide),
   writesIn_single main_v631 _ rfl (by decide) (by decide),
   writesIn_single main_v632 _ rfl (by decide) (by decide)⟩

/-- A buffer outside the stretch's range keeps its contents through it. -/
theorem stM_g2l1_keep (W : Valuation τ sig (Elt F)) (r : Ref sig .tc) (hr : r.idx.val < 1050 ∨ 1124 ≤ r.idx.val) :
    after stM_g2l1 W (no_index (Proc.devRef .tc r)) = W (Proc.devRef .tc r) :=
  after_keep stM_g2l1 W stM_g2l1_writes r hr

set_option maxRecDepth 8192 in
set_option maxHeartbeats 4000000 in
/-- After them the layer's output is the perceptron of the aggregate. -/
theorem mlp_g2l1 (W : Valuation τ sig (Elt F)) :
    after stM_g2l1 W (no_index (Proc.devRef .tc main_v631))
      = mlpR (W (Proc.devRef .tc main_v585)) (sliceW1 (W (Proc.devRef .tc main_arg16))) (sliceB1 (W (Proc.devRef .tc main_arg17))) (sliceB1 (W (Proc.devRef .tc main_arg18))) := by
  simp only [stM_g2l1]
  after_results_simp
  rfl

set_option maxRecDepth 8192 in
set_option maxHeartbeats 4000000 in
/-- And the accumulator is the previous sum plus the layer's output. -/
theorem acc_g2l1 (W : Valuation τ sig (Elt F)) :
    after stM_g2l1 W (no_index (Proc.devRef .tc main_v632))
      = addf (W (Proc.devRef .tc main_v556))
          (mlpR (W (Proc.devRef .tc main_v585)) (sliceW1 (W (Proc.devRef .tc main_arg16))) (sliceB1 (W (Proc.devRef .tc main_arg17))) (sliceB1 (W (Proc.devRef .tc main_arg18)))) := by
  simp only [stM_g2l1]
  after_results_simp
  rfl

end Cert.ReferenceIdeal.Hand

end
-- ==== Proof.RefValL_g2l2.lean ====
/-
  One GIN layer of the reference, read back: the layer's operations in three stretches — the embedding of the layer's
  input (46 operations), the aggregate (14), the perceptron with the accumulation (74) — and, for any contents W
  before a stretch, what the stretch leaves at the buffers later stretches read, as the stage functions of
  RefFns applied to W at the buffers the stretch reads. Every other buffer keeps what it held.
-/
import proofs.«169706_j68856915690108_1_alg».proof.Proof.Gen.ReferenceIdeal
import proofs.«169706_j68856915690108_1_alg».proof.Proof.RefLib
import proofs.«169706_j68856915690108_1_alg».proof.Proof.RefFns
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The embedding's operations: two dense layers, each followed by ELU. -/
noncomputable def stE_g2l2 : List (HloOp τ sig (Elt F)) :=
  [ unary main_arg14 main_v633 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v633 main_v634 rfl shapeCasts_S1x256x256_S256x256,
    binary main_v631 main_v634 main_v635 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg15 main_v636 ((extractStridedSlice S1x256 ![0, 0] · slices_S2x256_S1x256_0_0) : (⟨S2x256, .f32⟩ : BufTy).Contents (Elt F) → (⟨S1x256, .f32⟩ : BufTy).Contents (Elt F)),
    reshape main_v636 main_v637 rfl shapeCasts_S1x256_S256,
    unary main_v637 main_v638 (broadcastInDim S1x256 ![1] bcast_S256_S1x256_1 : (⟨S256, .f32⟩ : BufTy).Contents (Elt F) → (⟨S1x256, .f32⟩ : BufTy).Contents (Elt F)),
    unary main_v638 main_v639 (broadcastInDim S4096x256 ![0, 1] bcast_S1x256_S4096x256_0_1 : (⟨S1x256, .f32⟩ : BufTy).Contents (Elt F) → (⟨S4096x256, .f32⟩ : BufTy).Contents (Elt F)),
    binary main_v635 main_v639 main_v640 (addf : (⟨S4096x256, .f32⟩ : BufTy).Contents (Elt F) → (⟨S4096x256, .f32⟩ : BufTy).Contents (Elt F) → (⟨S4096x256, .f32⟩ : BufTy).Contents (Elt F)),
    TRef.nullary main_call32.cst (constant S_ .f32 0x00000000#32),
    TRef.unary main_call32.cst main_call32.v0 (broadcastInDim S4096x256 ![] bcast_S_S4096x256),
    TRef.binary (.of main_v640 : TRef sig ⟨S4096x256, .f32⟩) main_call32.v0 main_call32.v1 (cmpf .ogt),
    TRef.nullary main_call32.cst_0 (constant S_ .f32 0x00000000#32),
    TRef.unary main_call32.cst_0 main_call32.v2 (broadcastInDim S4096x256 ![] bcast_S_S4096x256),
    TRef.binary (.of main_v640 : TRef sig ⟨S4096x256, .f32⟩) main_call32.v2 main_call32.v3 (cmpf .ogt),
    TRef.nullary main_call32.cst_1 (constant S_ .f32 0x00000000#32),
    TRef.unary main_call32.cst_1 main_call32_call0.v0 id,
    TRef.unary main_call32_call0.v0 main_call32_call0.v1 (broadcastInDim S4096x256 ![] bcast_S_S4096x256),
    TRef.ternary main_call32.v3 main_call32_call0.v1 (.of main_v640 : TRef sig ⟨S4096x256, .f32⟩) main_call32_call0.v2 select,
    TRef.unary main_call32.call0.v2 main_call32.v5 Host.expm1,
    TRef.nullary main_call32.cst_2 (constant S_ .f32 0x3F800000#32),
    TRef.unary main_call32.cst_2 main_call32.v6 (broadcastInDim S4096x256 ![] bcast_S_S4096x256),
    TRef.binary main_call32.v6 main_call32.v5 main_call32.v7 mulf,
    TRef.ternary main_call32.v1 (.of main_v640 : TRef sig ⟨S4096x256, .f32⟩) main_call32.v7 main_call32_call1.v0 select,
    unary main_arg14 main_v642 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v642 main_v643 rfl shapeCasts_S1x256x256_S256x256,
    binary main_v641 main_v643 main_v644 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg15 main_v645 ((extractStridedSlice S1x256 ![1, 0] · slices_S2x256_S1x256_1_0) : (⟨S2x256, .f32⟩ : BufTy).Contents (Elt F) → (⟨S1x256, .f32⟩ : BufTy).Contents (Elt F)),
    reshape main_v645 main_v646 rfl shapeCasts_S1x256_S256,
    unary main_v646 main_v647 (broadcastInDim S1x256 ![1] bcast_S256_S1x256_1 : (⟨S256, .f32⟩ : BufTy).Contents (Elt F) → (⟨S1x256, .f32⟩ : BufTy).Contents (Elt F)),
    unary main_v647 main_v648 (broadcastInDim S4096x256 ![0, 1] bcast_S1x256_S4096x256_0_1 : (⟨S1x256, .f32⟩ : BufTy).Contents (Elt F) → (⟨S4096x256, .f32⟩ : BufTy).Contents (Elt F)),
    binary main_v644 main_v648 main_v649 (addf : (⟨S4096x256, .f32⟩ : BufTy).Contents (Elt F) → (⟨S4096x256, .f32⟩ : BufTy).Contents (Elt F) → (⟨S4096x256, .f32⟩ : BufTy).Contents (Elt F)),
    TRef.nullary main_call33.cst (constant S_ .f32 0x00000000#32),
    TRef.unary main_call33.cst main_call33.v0 (broadcastInDim S4096x256 ![] bcast_S_S4096x256),
    TRef.binary (.of main_v649 : TRef sig ⟨S4096x256, .f32⟩) main_call33.v0 main_call33.v1 (cmpf .ogt),
    TRef.nullary main_call33.cst_0 (constant S_ .f32 0x00000000#32),
    TRef.unary main_call33.cst_0 main_call33.v2 (broadcastInDim S4096x256 ![] bcast_S_S4096x256),
    TRef.binary (.of main_v649 : TRef sig ⟨S4096x256, .f32⟩) main_call33.v2 main_call33.v3 (cmpf .ogt),
    TRef.nullary main_call33.cst_1 (constant S_ .f32 0x00000000#32),
    TRef.unary main_call33.cst_1 main_call33_call0.v0 id,
    TRef.unary main_call33_call0.v0 main_call33_call0.v1 (broadcastInDim S4096x256 ![] bcast_S_S4096x256),
    TRef.ternary main_call33.v3 main_call33_call0.v1 (.of main_v649 : TRef sig ⟨S4096x256, .f32⟩) main_call33_call0.v2 select,
    TRef.unary main_call33.call0.v2 main_call33.v5 Host.expm1,
    TRef.nullary main_call33.cst_2 (constant S_ .f32 0x3F800000#32),
    TRef.unary main_call33.cst_2 main_call33.v6 (broadcastInDim S4096x256 ![] bcast_S_S4096x256),
    TRef.binary main_call33.v6 main_call33.v5 main_call33.v7 mulf,
    TRef.ternary main_call33.v1 (.of main_v649 : TRef sig ⟨S4096x256, .f32⟩) main_call33.v7 main_call33_call1.v0 select ]

set_option maxRecDepth 8192 in
theorem stE_g2l2_writes : (stE_g2l2 : List (HloOp τ sig (Elt F))).Forall (WritesIn 1124 1170) := by
  unfold stE_g2l2
  exact
  ⟨writesIn_single main_v633 _ rfl (by decide) (by decide),
   writesIn_single main_v634 _ rfl (by decide) (by decide),
   writesIn_single main_v635 _ rfl (by decide) (by decide),
   writesIn_single main_v636 _ rfl (by decide) (by decide),
   writesIn_single main_v637 _ rfl (by decide) (by decide),
   writesIn_single main_v638 _ rfl (by decide) (by decide),
   writesIn_single main_v639 _ rfl (by decide) (by decide),
   writesIn_single main_v640 _ rfl (by decide) (by decide),
   writesIn_single main_call32_cst _ rfl (by decide) (by decide),
   writesIn_single main_call32_v0 _ rfl (by decide) (by decide),
   writesIn_single main_call32_v1 _ rfl (by decide) (by decide),
   writesIn_single main_call32_cst_0 _ rfl (by decide) (by decide),
   writesIn_single main_call32_v2 _ rfl (by decide) (by decide),
   writesIn_single main_call32_v3 _ rfl (by decide) (by decide),
   writesIn_single main_call32_cst_1 _ rfl (by decide) (by decide),
   writesIn_single main_call32_call0_v0 _ rfl (by decide) (by decide),
   writesIn_single main_call32_call0_v1 _ rfl (by decide) (by decide),
   writesIn_single main_call32_v4 _ rfl (by decide) (by decide),
   writesIn_single main_call32_v5 _ rfl (by decide) (by decide),
   writesIn_single main_call32_cst_2 _ rfl (by decide) (by decide),
   writesIn_single main_call32_v6 _ rfl (by decide) (by decide),
   writesIn_single main_call32_v7 _ rfl (by decide) (by decide),
   writesIn_single main_v641 _ rfl (by decide) (by decide),
   writesIn_single main_v642 _ rfl (by decide) (by decide),
   writesIn_single main_v643 _ rfl (by decide) (by decide),
   writesIn_single main_v644 _ rfl (by decide) (by decide),
   writesIn_single main_v645 _ rfl (by decide) (by decide),
   writesIn_single main_v646 _ rfl (by decide) (by decide),
   writesIn_single main_v647 _ rfl (by decide) (by decide),
   writesIn_single main_v648 _ rfl (by decide) (by decide),
   writesIn_single main_v649 _ rfl (by decide) (by decide),
   writesIn_single main_call33_cst _ rfl (by decide) (by decide),
   writesIn_single main_call33_v0 _ rfl (by decide) (by decide),
   writesIn_single main_call33_v1 _ rfl (by decide) (by decide),
   writesIn_single main_call33_cst_0 _ rfl (by decide) (by decide),
   writesIn_single main_call33_v2 _ rfl (by decide) (by decide),
   writesIn_single main_call33_v3 _ rfl (by decide) (by decide),
   writesIn_single main_call33_cst_1 _ rfl (by decide) (by decide),
   writesIn_single main_call33_call0_v0 _ rfl (by decide) (by decide),
   writesIn_single main_call33_call0_v1 _ rfl (by decide) (by decide),
   writesIn_single main_call33_v4 _ rfl (by decide) (by decide),
   writesIn_single main_call33_v5 _ rfl (by decide) (by decide),
   writesIn_single main_call33_cst_2 _ rfl (by decide) (by decide),
   writesIn_single main_call33_v6 _ rfl (by decide) (by decide),
   writesIn_single main_call33_v7 _ rfl (by decide) (by decide),
   writesIn_single main_v650 _ rfl (by decide) (by decide)⟩

/-- A buffer outside the stretch's range keeps its contents through it. -/
theorem stE_g2l2_keep (W : Valuation τ sig (Elt F)) (r : Ref sig .tc) (hr : r.idx.val < 1124 ∨ 1170 ≤ r.idx.val) :
    after stE_g2l2 W (no_index (Proc.devRef .tc r)) = W (Proc.devRef .tc r) :=
  after_keep stE_g2l2 W stE_g2l2_writes r hr

set_option maxRecDepth 8192 in
set_option maxHeartbeats 4000000 in
/-- After them the hidden features are the embedding of the layer's input. -/
theorem embed_g2l2 (W : Valuation τ sig (Elt F)) :
    after stE_g2l2 W (no_index (Proc.devRef .tc main_v650))
      = embedR (W (Proc.devRef .tc main_v631)) (W (Proc.devRef .tc main_arg14)) (W (Proc.devRef .tc main_arg15)) := by
  simp only [stE_g2l2]
  after_results_simp
  rfl

/-- The aggregate's operations: the Gram matrix, its mean, the mask, plus the identity, times the input. -/
noncomputable def stA_g2l2 : List (HloOp τ sig (Elt F)) :=
  [ unary main_v650 main_v651 ((transpose S256x4096 [1, 0] · transposes_S4096x256_S256x4096_1_0) : (⟨S4096x256, .f32⟩ : BufTy).Contents (Elt F) → (⟨S256x4096, .f32⟩ : BufTy).Contents (Elt F)),
    binary main_v650 main_v651 main_v652 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_62 (constant S_ .f32 0x00000000#32),
    binary main_v652 main_cst_62 main_v653 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_63 (constant S_ .f32 0x4B800000#32),
    binary main_v653 main_cst_63 main_v654 (Host.divf : (⟨S_, .f32⟩ : BufTy).Contents (Elt F) → (⟨S_, .f32⟩ : BufTy).Contents (Elt F) → (⟨S_, .f32⟩ : BufTy).Contents (Elt F)),
    unary main_v654 main_v655 (broadcastInDim S4096x4096 ![] bcast_S_S4096x4096 : (⟨S_, .f32⟩ : BufTy).Contents (Elt F) → (⟨S4096x4096, .f32⟩ : BufTy).Contents (Elt F)),
    binary main_v652 main_v655 main_v656 (cmpf .ogt : (⟨S4096x4096, .f32⟩ : BufTy).Contents (Elt F) → (⟨S4096x4096, .f32⟩ : BufTy).Contents (Elt F) → (⟨S4096x4096, .i1⟩ : BufTy).Contents (Elt F)),
    unary main_v656 main_v657 (uitofp .f32 : (⟨S4096x4096, .i1⟩ : BufTy).Contents (Elt F) → (⟨S4096x4096, .f32⟩ : BufTy).Contents (Elt F)),
    nullary main_cst_64 (constant S_ .f32 0x3F800000#32),
    unary main_cst_64 main_v658 (broadcastInDim S4096x4096 ![] bcast_S_S4096x4096 : (⟨S_, .f32⟩ : BufTy).Contents (Elt F) → (⟨S4096x4096, .f32⟩ : BufTy).Contents (Elt F)),
    binary main_v658 main_v479 main_v659 (mulf : (⟨S4096x4096, .f32⟩ : BufTy).Contents (Elt F) → (⟨S4096x4096, .f32⟩ : BufTy).Contents (Elt F) → (⟨S4096x4096, .f32⟩ : BufTy).Contents (Elt F)),
    binary main_v657 main_v659 main_v660 (addf : (⟨S4096x4096, .f32⟩ : BufTy).Contents (Elt F) → (⟨S4096x4096, .f32⟩ : BufTy).Contents (Elt F) → (⟨S4096x4096, .f32⟩ : BufTy).Contents (Elt F)),
    binary main_v660 main_v631 main_v661 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]

set_option maxRecDepth 8192 in
theorem stA_g2l2_writes : (stA_g2l2 : List (HloOp τ sig (Elt F))).Forall (WritesIn 1170 1184) := by
  unfold stA_g2l2
  exact
  ⟨writesIn_single main_v651 _ rfl (by decide) (by decide),
   writesIn_single main_v652 _ rfl (by decide) (by decide),
   writesIn_single main_cst_62 _ rfl (by decide) (by decide),
   writesIn_single main_v653 _ rfl (by decide) (by decide),
   writesIn_single main_cst_63 _ rfl (by decide) (by decide),
   writesIn_single main_v654 _ rfl (by decide) (by decide),
   writesIn_single main_v655 _ rfl (by decide) (by decide),
   writesIn_single main_v656 _ rfl (by decide) (by decide),
   writesIn_single main_v657 _ rfl (by decide) (by decide),
   writesIn_single main_cst_64 _ rfl (by decide) (by decide),
   writesIn_single main_v658 _ rfl (by decide) (by decide),
   writesIn_single main_v659 _ rfl (by decide) (by decide),
   writesIn_single main_v660 _ rfl (by decide) (by decide),
   writesIn_single main_v661 _ rfl (by decide) (by decide)⟩

/-- A buffer outside the stretch's range keeps its contents through it. -/
theorem stA_g2l2_keep (W : Valuation τ sig (Elt F)) (r : Ref sig .tc) (hr : r.idx.val < 1170 ∨ 1184 ≤ r.idx.val) :
    after stA_g2l2 W (no_index (Proc.devRef .tc r)) = W (Proc.devRef .tc r) :=
  after_keep stA_g2l2 W stA_g2l2_writes r hr

set_option maxRecDepth 8192 in
set_option maxHeartbeats 4000000 in
/-- After them: the aggregate of the hidden features and the layer's input over the identity matrix's buffer. -/
theorem agg_g2l2 (W : Valuation τ sig (Elt F)) :
    after stA_g2l2 W (no_index (Proc.devRef .tc main_v661))
      = aggF (W (Proc.devRef .tc main_v479)) (W (Proc.devRef .tc main_v650)) (W (Proc.devRef .tc main_v631)) := by
  simp only [stA_g2l2]
  after_results_simp
  rfl

/-- The perceptron's operations (the layer's slices of the stacked parameters first) and the accumulation. -/
noncomputable def stM_g2l2 : List (HloOp τ sig (Elt F)) :=
  [ unary main_arg16 main_v662 ((extractStridedSlice S1x2x256x256 ![2, 0, 0, 0] · slices_S3x2x256x256_S1x2x256x256_2_0_0_0) : (⟨S3x2x256x256, .f32⟩ : BufTy).Contents (Elt F) → (⟨S1x2x256x256, .f32⟩ : BufTy).Contents (Elt F)),
    reshape main_v662 main_v663 rfl shapeCasts_S1x2x256x256_S2x256x256,
    unary main_arg17 main_v664 ((extractStridedSlice S1x2x256 ![2, 0, 0] · slices_S3x2x256_S1x2x256_2_0_0) : (⟨S3x2x256, .f32⟩ : BufTy).Contents (Elt F) → (⟨S1x2x256, .f32⟩ : BufTy).Contents (Elt F)),
    reshape main_v664 main_v665 rfl shapeCasts_S1x2x256_S2x256,
    unary main_arg18 main_v666 ((extractStridedSlice S1x2x256 ![2, 0, 0] · slices_S3x2x256_S1x2x256_2_0_0) : (⟨S3x2x256, .f32⟩ : BufTy).Contents (Elt F) → (⟨S1x2x256, .f32⟩ : BufTy).Contents (Elt F)),
    reshape main_v666 main_v667 rfl shapeCasts_S1x2x256_S2x256,
    unary main_v663 main_v668 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v668 main_v669 rfl shapeCasts_S1x256x256_S256x256,
    binary main_v661 main_v669 main_v670 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v665 main_v671 ((extractStridedSlice S1x256 ![0, 0] · slices_S2x256_S1x256_0_0) : (⟨S2x256, .f32⟩ : BufTy).Contents (Elt F) → (⟨S1x256, .f32⟩ : BufTy).Contents (Elt F)),
    reshape main_v671 main_v672 rfl shapeCasts_S1x256_S256,
    unary main_v672 main_v673 (broadcastInDim S1x256 ![1] bcast_S256_S1x256_1 : (⟨S256, .f32⟩ : BufTy).Contents (Elt F) → (⟨S1x256, .f32⟩ : BufTy).Contents (Elt F)),
    unary main_v673 main_v674 (broadcastInDim S4096x256 ![0, 1] bcast_S1x256_S4096x256_0_1 : (⟨S1x256, .f32⟩ : BufTy).Contents (Elt F) → (⟨S4096x256, .f32⟩ : BufTy).Contents (Elt F)),
    binary main_v670 main_v674 main_v675 (addf : (⟨S4096x256, .f32⟩ : BufTy).Contents (Elt F) → (⟨S4096x256, .f32⟩ : BufTy).Contents (Elt F) → (⟨S4096x256, .f32⟩ : BufTy).Contents (Elt F)),
    nullary main_cst_65 (constant S_ .f32 0x00000000#32),
    binary main_v675 main_cst_65 main_v676 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_66 (constant S_ .f32 0x45800000#32),
    unary main_cst_66 main_v677 (broadcastInDim S256 ![] bcast_S_S256 : (⟨S_, .f32⟩ : BufTy).Contents (Elt F) → (⟨S256, .f32⟩ : BufTy).Contents (Elt F)),
    binary main_v676 main_v677 main_v678 (Host.divf : (⟨S256, .f32⟩ : BufTy).Contents (Elt F) → (⟨S256, .f32⟩ : BufTy).Contents (Elt F) → (⟨S256, .f32⟩ : BufTy).Contents (Elt F)),
    nullary main_c_67 (constantI S_ 32 0#32),
    TRef.nullary main_call34.cst (constant S_ .f32 0x00000000#32),
    TRef.binary (.of main_v675 : TRef sig ⟨S4096x256, .f32⟩) main_call34.cst main_call34.v0 (fun x v => Host.reduceAdd x v reducesTo_S4096x256_S256_d0 h_S_),
    TRef.unary main_call34.v0 main_call34.v1 (broadcastInDim S1x256 ![1] bcast_S256_S1x256_1),
    TRef.nullary main_call34.cst_0 (constant S_ .f32 0x45800000#32),
    TRef.unary main_call34.cst_0 main_call34.v2 (broadcastInDim S1x256 ![] bcast_S_S1x256),
    TRef.binary main_call34.v1 main_call34.v2 main_call34.v3 Host.divf,
    TRef.unary main_call34.v3 main_call34.v4 (broadcastInDim S4096x256 ![0, 1] bcast_S1x256_S4096x256_0_1),
    TRef.binary (.of main_v675 : TRef sig ⟨S4096x256, .f32⟩) main_call34.v4 main_call34.v5 subf,
    TRef.binary main_call34.v5 main_call34.v5 main_call34.v6 mulf,
    TRef.unary (.of main_c_67 : TRef sig ⟨S_, .i32⟩) main_call34.v7 (sitofp .f32),
    TRef.nullary main_call34.cst_1 (constant S_ .f32 0x45800000#32),
    TRef.binary main_call34.cst_1 main_call34.v7 main_call34.v8 subf,
    TRef.nullary main_call34.cst_2 (constant S_ .f32 0x00000000#32),
    TRef.binary main_call34.v6 main_call34.cst_2 main_call34.v9 (fun x v => Host.reduceAdd x v reducesTo_S4096x256_S256_d0 h_S_),
    TRef.unary main_call34.v8 main_call34.v10 (broadcastInDim S256 ![] bcast_S_S256),
    TRef.binary main_call34.v9 main_call34.v10 main_call34.v11 Host.divf,
    TRef.nullary main_call34.cst_3 (constant S_ .f32 0x00000000#32),
    TRef.binary main_call34.v8 main_call34.cst_3 main_call34.v12 (cmpf .ogt),
    TRef.nullary main_call34.cst_4 (constant S_ .f32 0x7FC00000#32),
    TRef.unary main_call34.cst_4 main_call34_call0.v0 id,
    TRef.unary main_call34_call0.v0 main_call34_call0.v1 (broadcastInDim S256 ![] bcast_S_S256),
    TRef.ternary main_call34.v12 main_call34.v11 main_call34_call0.v1 main_call34_call0.v2 (fun p a b => select (broadcastInDim S256 ![] bcast_S_S256 p) a b),
    unary main_v678 main_v680 (broadcastInDim S1x256 ![1] bcast_S256_S1x256_1 : (⟨S256, .f32⟩ : BufTy).Contents (Elt F) → (⟨S1x256, .f32⟩ : BufTy).Contents (Elt F)),
    unary main_v680 main_v681 (broadcastInDim S4096x256 ![0, 1] bcast_S1x256_S4096x256_0_1 : (⟨S1x256, .f32⟩ : BufTy).Contents (Elt F) → (⟨S4096x256, .f32⟩ : BufTy).Contents (Elt F)),
    binary main_v675 main_v681 main_v682 (subf : (⟨S4096x256, .f32⟩ : BufTy).Contents (Elt F) → (⟨S4096x256, .f32⟩ : BufTy).Contents (Elt F) → (⟨S4096x256, .f32⟩ : BufTy).Contents (Elt F)),
    nullary main_cst_68 (constant S_ .f32 0x3727C5AC#32),
    unary main_cst_68 main_v683 (broadcastInDim S256 ![] bcast_S_S256 : (⟨S_, .f32⟩ : BufTy).Contents (Elt F) → (⟨S256, .f32⟩ : BufTy).Contents (Elt F)),
    binary main_v679 main_v683 main_v684 (addf : (⟨S256, .f32⟩ : BufTy).Contents (Elt F) → (⟨S256, .f32⟩ : BufTy).Contents (Elt F) → (⟨S256, .f32⟩ : BufTy).Contents (Elt F)),
    unary main_v684 main_v685 (Host.rsqrt : (⟨S256, .f32⟩ : BufTy).Contents (Elt F) → (⟨S256, .f32⟩ : BufTy).Contents (Elt F)),
    unary main_v685 main_v686 (broadcastInDim S1x256 ![1] bcast_S256_S1x256_1 : (⟨S256, .f32⟩ : BufTy).Contents (Elt F) → (⟨S1x256, .f32⟩ : BufTy).Contents (Elt F)),
    unary main_v686 main_v687 (broadcastInDim S4096x256 ![0, 1] bcast_S1x256_S4096x256_0_1 : (⟨S1x256, .f32⟩ : BufTy).Contents (Elt F) → (⟨S4096x256, .f32⟩ : BufTy).Contents (Elt F)),
    binary main_v682 main_v687 main_v688 (mulf : (⟨S4096x256, .f32⟩ : BufTy).Contents (Elt F) → (⟨S4096x256, .f32⟩ : BufTy).Contents (Elt F) → (⟨S4096x256, .f32⟩ : BufTy).Contents (Elt F)),
    unary main_v667 main_v689 ((extractStridedSlice S1x256 ![0, 0] · slices_S2x256_S1x256_0_0) : (⟨S2x256, .f32⟩ : BufTy).Contents (Elt F) → (⟨S1x256, .f32⟩ : BufTy).Contents (Elt F)),
    reshape main_v689 main_v690 rfl shapeCasts_S1x256_S256,
    unary main_v690 main_v691 (broadcastInDim S1x256 ![1] bcast_S256_S1x256_1 : (⟨S256, .f32⟩ : BufTy).Contents (Elt F) → (⟨S1x256, .f32⟩ : BufTy).Contents (Elt F)),
    unary main_v691 main_v692 (broadcastInDim S4096x256 ![0, 1] bcast_S1x256_S4096x256_0_1 : (⟨S1x256, .f32⟩ : BufTy).Contents (Elt F) → (⟨S4096x256, .f32⟩ : BufTy).Contents (Elt F)),
    binary main_v688 main_v692 main_v693 (mulf : (⟨S4096x256, .f32⟩ : BufTy).Contents (Elt F) → (⟨S4096x256, .f32⟩ : BufTy).Contents (Elt F) → (⟨S4096x256, .f32⟩ : BufTy).Contents (Elt F)),
    unary main_v667 main_v694 ((extractStridedSlice S1x256 ![1, 0] · slices_S2x256_S1x256_1_0) : (⟨S2x256, .f32⟩ : BufTy).Contents (Elt F) → (⟨S1x256, .f32⟩ : BufTy).Contents (Elt F)),
    reshape main_v694 main_v695 rfl shapeCasts_S1x256_S256,
    unary main_v695 main_v696 (broadcastInDim S1x256 ![1] bcast_S256_S1x256_1 : (⟨S256, .f32⟩ : BufTy).Contents (Elt F) → (⟨S1x256, .f32⟩ : BufTy).Contents (Elt F)),
    unary main_v696 main_v697 (broadcastInDim S4096x256 ![0, 1] bcast_S1x256_S4096x256_0_1 : (⟨S1x256, .f32⟩ : BufTy).Contents (Elt F) → (⟨S4096x256, .f32⟩ : BufTy).Contents (Elt F)),
    binary main_v693 main_v697 main_v698 (addf : (⟨S4096x256, .f32⟩ : BufTy).Contents (Elt F) → (⟨S4096x256, .f32⟩ : BufTy).Contents (Elt F) → (⟨S4096x256, .f32⟩ : BufTy).Contents (Elt F)),
    TRef.nullary main_call35.cst (constant S_ .f32 0x00000000#32),
    TRef.unary main_call35.cst main_call35.v0 (broadcastInDim S4096x256 ![] bcast_S_S4096x256),
    TRef.binary (.of main_v698 : TRef sig ⟨S4096x256, .f32⟩) main_call35.v0 main_call35.v1 maximumf,
    unary main_v663 main_v700 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v700 main_v701 rfl shapeCasts_S1x256x256_S256x256,
    binary main_v699 main_v701 main_v702 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v665 main_v703 ((extractStridedSlice S1x256 ![1, 0] · slices_S2x256_S1x256_1_0) : (⟨S2x256, .f32⟩ : BufTy).Contents (Elt F) → (⟨S1x256, .f32⟩ : BufTy).Contents (Elt F)),
    reshape main_v703 main_v704 rfl shapeCasts_S1x256_S256,
    unary main_v704 main_v705 (broadcastInDim S1x256 ![1] bcast_S256_S1x256_1 : (⟨S256, .f32⟩ : BufTy).Contents (Elt F) → (⟨S1x256, .f32⟩ : BufTy).Contents (Elt F)),
    unary main_v705 main_v706 (broadcastInDim S4096x256 ![0, 1] bcast_S1x256_S4096x256_0_1 : (⟨S1x256, .f32⟩ : BufTy).Contents (Elt F) → (⟨S4096x256, .f32⟩ : BufTy).Contents (Elt F)),
    binary main_v702 main_v706 main_v707 (addf : (⟨S4096x256, .f32⟩ : BufTy).Contents (Elt F) → (⟨S4096x256, .f32⟩ : BufTy).Contents (Elt F) → (⟨S4096x256, .f32⟩ : BufTy).Contents (Elt F)),
    binary main_v632 main_v707 main_v708 (addf : (⟨S4096x256, .f32⟩ : BufTy).Contents (Elt F) → (⟨S4096x256, .f32⟩ : BufTy).Contents (Elt F) → (⟨S4096x256, .f32⟩ : BufTy).Contents (Elt F)) ]

set_option maxRecDepth 8192 in
theorem stM_g2l2_writes : (stM_g2l2 : List (HloOp τ sig (Elt F))).Forall (WritesIn 1184 1258) := by
  unfold stM_g2l2
  exact
  ⟨writesIn_single main_v662 _ rfl (by decide) (by decide),
   writesIn_single main_v663 _ rfl (by decide) (by decide),
   writesIn_single main_v664 _ rfl (by decide) (by decide),
   writesIn_single main_v665 _ rfl (by decide) (by decide),
   writesIn_single main_v666 _ rfl (by decide) (by decide),
   writesIn_single main_v667 _ rfl (by decide) (by decide),
   writesIn_single main_v668 _ rfl (by decide) (by decide),
   writesIn_single main_v669 _ rfl (by decide) (by decide),
   writesIn_single main_v670 _ rfl (by decide) (by decide),
   writesIn_single main_v671 _ rfl (by decide) (by decide),
   writesIn_single main_v672 _ rfl (by decide) (by decide),
   writesIn_single main_v673 _ rfl (by decide) (by decide),
   writesIn_single main_v674 _ rfl (by decide) (by decide),
   writesIn_single main_v675 _ rfl (by decide) (by decide),
   writesIn_single main_cst_65 _ rfl (by decide) (by decide),
   writesIn_single main_v676 _ rfl (by decide) (by decide),
   writesIn_single main_cst_66 _ rfl (by decide) (by decide),
   writesIn_single main_v677 _ rfl (by decide) (by decide),
   writesIn_single main_v678 _ rfl (by decide) (by decide),
   writesIn_single main_c_67 _ rfl (by decide) (by decide),
   writesIn_single main_call34_cst _ rfl (by decide) (by decide),
   writesIn_single main_call34_v0 _ rfl (by decide) (by decide),
   writesIn_single main_call34_v1 _ rfl (by decide) (by decide),
   writesIn_single main_call34_cst_0 _ rfl (by decide) (by decide),
   writesIn_single main_call34_v2 _ rfl (by decide) (by decide),
   writesIn_single main_call34_v3 _ rfl (by decide) (by decide),
   writesIn_single main_call34_v4 _ rfl (by decide) (by decide),
   writesIn_single main_call34_v5 _ rfl (by decide) (by decide),
   writesIn_single main_call34_v6 _ rfl (by decide) (by decide),
   writesIn_single main_call34_v7 _ rfl (by decide) (by decide),
   writesIn_single main_call34_cst_1 _ rfl (by decide) (by decide),
   writesIn_single main_call34_v8 _ rfl (by decide) (by decide),
   writesIn_single main_call34_cst_2 _ rfl (by decide) (by decide),
   writesIn_single main_call34_v9 _ rfl (by decide) (by decide),
   writesIn_single main_call34_v10 _ rfl (by decide) (by decide),
   writesIn_single main_call34_v11 _ rfl (by decide) (by decide),
   writesIn_single main_call34_cst_3 _ rfl (by decide) (by decide),
   writesIn_single main_call34_v12 _ rfl (by decide) (by decide),
   writesIn_single main_call34_cst_4 _ rfl (by decide) (by decide),
   writesIn_single main_call34_call0_v0 _ rfl (by decide) (by decide),
   writesIn_single main_call34_call0_v1 _ rfl (by decide) (by decide),
   writesIn_single main_v679 _ rfl (by decide) (by decide),
   writesIn_single main_v680 _ rfl (by decide) (by decide),
   writesIn_single main_v681 _ rfl (by decide) (by decide),
   writesIn_single main_v682 _ rfl (by decide) (by decide),
   writesIn_single main_cst_68 _ rfl (by decide) (by decide),
   writesIn_single main_v683 _ rfl (by decide) (by decide),
   writesIn_single main_v684 _ rfl (by decide) (by decide),
   writesIn_single main_v685 _ rfl (by decide) (by decide),
   writesIn_single main_v686 _ rfl (by decide) (by decide),
   writesIn_single main_v687 _ rfl (by decide) (by decide),
   writesIn_single main_v688 _ rfl (by decide) (by decide),
   writesIn_single main_v689 _ rfl (by decide) (by decide),
   writesIn_single main_v690 _ rfl (by decide) (by decide),
   writesIn_single main_v691 _ rfl (by decide) (by decide),
   writesIn_single main_v692 _ rfl (by decide) (by decide),
   writesIn_single main_v693 _ rfl (by decide) (by decide),
   writesIn_single main_v694 _ rfl (by decide) (by decide),
   writesIn_single main_v695 _ rfl (by decide) (by decide),
   writesIn_single main_v696 _ rfl (by decide) (by decide),
   writesIn_single main_v697 _ rfl (by decide) (by decide),
   writesIn_single main_v698 _ rfl (by decide) (by decide),
   writesIn_single main_call35_cst _ rfl (by decide) (by decide),
   writesIn_single main_call35_v0 _ rfl (by decide) (by decide),
   writesIn_single main_v699 _ rfl (by decide) (by decide),
   writesIn_single main_v700 _ rfl (by decide) (by decide),
   writesIn_single main_v701 _ rfl (by decide) (by decide),
   writesIn_single main_v702 _ rfl (by decide) (by decide),
   writesIn_single main_v703 _ rfl (by decide) (by decide),
   writesIn_single main_v704 _ rfl (by decide) (by decide),
   writesIn_single main_v705 _ rfl (by decide) (by decide),
   writesIn_single main_v706 _ rfl (by decide) (by decide),
   writesIn_single main_v707 _ rfl (by decide) (by decide),
   writesIn_single main_v708 _ rfl (by decide) (by decide)⟩

/-- A buffer outside the stretch's range keeps its contents through it. -/
theorem stM_g2l2_keep (W : Valuation τ sig (Elt F)) (r : Ref sig .tc) (hr : r.idx.val < 1184 ∨ 1258 ≤ r.idx.val) :
    after stM_g2l2 W (no_index (Proc.devRef .tc r)) = W (Proc.devRef .tc r) :=
  after_keep stM_g2l2 W stM_g2l2_writes r hr

set_option maxRecDepth 8192 in
set_option maxHeartbeats 4000000 in
/-- After them the layer's output is the perceptron of the aggregate. -/
theorem mlp_g2l2 (W : Valuation τ sig (Elt F)) :
    after stM_g2l2 W (no_index (Proc.devRef .tc main_v707))
      = mlpR (W (Proc.devRef .tc main_v661)) (sliceW2 (W (Proc.devRef .tc main_arg16))) (sliceB2 (W (Proc.devRef .tc main_arg17))) (sliceB2 (W (Proc.devRef .tc main_arg18))) := by
  simp only [stM_g2l2]
  after_results_simp
  rfl

set_option maxRecDepth 8192 in
set_option maxHeartbeats 4000000 in
/-- And the accumulator is the previous sum plus the layer's output. -/
theorem acc_g2l2 (W : Valuation τ sig (Elt F)) :
    after stM_g2l2 W (no_index (Proc.devRef .tc main_v708))
      = addf (W (Proc.devRef .tc main_v632))
          (mlpR (W (Proc.devRef .tc main_v661)) (sliceW2 (W (Proc.devRef .tc main_arg16))) (sliceB2 (W (Proc.devRef .tc main_arg17))) (sliceB2 (W (Proc.devRef .tc main_arg18)))) := by
  simp only [stM_g2l2]
  after_results_simp
  rfl

end Cert.ReferenceIdeal.Hand

end
-- ==== Proof.RefValG_g2.lean ====
/-
  One GIN branch of the reference, read back: the branch's 414 operations are the prelude (the identity matrix and
  the zero accumulator, 9 operations), three layers (RefValL, 134 each) and the division of the accumulated sum by
  three (3). For any contents W before the branch, what it leaves at its result buffer is the branch function of
  RefFns applied to W at the branch's argument buffers; every buffer outside its range keeps what it held.
-/
import proofs.«169706_j68856915690108_1_alg».proof.Proof.Gen.ReferenceIdeal
import proofs.«169706_j68856915690108_1_alg».proof.Proof.RefLib
import proofs.«169706_j68856915690108_1_alg».proof.Proof.RefFns
import proofs.«169706_j68856915690108_1_alg».proof.Proof.RefValL_g2l0
import proofs.«169706_j68856915690108_1_alg».proof.Proof.RefValL_g2l1
import proofs.«169706_j68856915690108_1_alg».proof.Proof.RefValL_g2l2
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The prelude's operations: the identity matrix (row number against column number) and the zero accumulator. -/
noncomputable def stP_g2 : List (HloOp τ sig (Elt F)) :=
  [ nullary main_v474 (iotaInDim S4096x4096 32 0),
    nullary main_v475 (iotaInDim S4096x4096 32 1),
    nullary main_c_46 (constantI S_ 32 0#32),
    unary main_c_46 main_v476 (broadcastInDim S4096x4096 ![] bcast_S_S4096x4096 : (⟨S_, .i32⟩ : BufTy).Contents (Elt F) → (⟨S4096x4096, .i32⟩ : BufTy).Contents (Elt F)),
    binary main_v474 main_v476 main_v477 (addi : (⟨S4096x4096, .i32⟩ : BufTy).Contents (Elt F) → (⟨S4096x4096, .i32⟩ : BufTy).Contents (Elt F) → (⟨S4096x4096, .i32⟩ : BufTy).Contents (Elt F)),
    binary main_v477 main_v475 main_v478 (cmpi .eq : (⟨S4096x4096, .i32⟩ : BufTy).Contents (Elt F) → (⟨S4096x4096, .i32⟩ : BufTy).Contents (Elt F) → (⟨S4096x4096, .i1⟩ : BufTy).Contents (Elt F)),
    unary main_v478 main_v479 (uitofp .f32 : (⟨S4096x4096, .i1⟩ : BufTy).Contents (Elt F) → (⟨S4096x4096, .f32⟩ : BufTy).Contents (Elt F)),
    nullary main_cst_47 (constant S_ .f32 0x00000000#32),
    unary main_cst_47 main_v480 (broadcastInDim S4096x256 ![] bcast_S_S4096x256 : (⟨S_, .f32⟩ : BufTy).Contents (Elt F) → (⟨S4096x256, .f32⟩ : BufTy).Contents (Elt F)) ]

set_option maxRecDepth 8192 in
theorem stP_g2_writes : (stP_g2 : List (HloOp τ sig (Elt F))).Forall (WritesIn 847 856) := by
  unfold stP_g2
  exact
  ⟨writesIn_single main_v474 _ rfl (by decide) (by decide),
   writesIn_single main_v475 _ rfl (by decide) (by decide),
   writesIn_single main_c_46 _ rfl (by decide) (by decide),
   writesIn_single main_v476 _ rfl (by decide) (by decide),
   writesIn_single main_v477 _ rfl (by decide) (by decide),
   writesIn_single main_v478 _ rfl (by decide) (by decide),
   writesIn_single main_v479 _ rfl (by decide) (by decide),
   writesIn_single main_cst_47 _ rfl (by decide) (by decide),
   writesIn_single main_v480 _ rfl (by decide) (by decide)⟩

/-- A buffer outside the stretch's range keeps its contents through it. -/
theorem stP_g2_keep (W : Valuation τ sig (Elt F)) (r : Ref sig .tc) (hr : r.idx.val < 847 ∨ 856 ≤ r.idx.val) :
    after stP_g2 W (no_index (Proc.devRef .tc r)) = W (Proc.devRef .tc r) :=
  after_keep stP_g2 W stP_g2_writes r hr

/-- After the prelude the identity matrix's buffer holds the identity matrix. -/
theorem eye_g2 (W : Valuation τ sig (Elt F)) : after stP_g2 W (no_index (Proc.devRef .tc main_v479)) = eyeF := by
  simp only [stP_g2]
  after_results_simp
  rfl

/-- And the accumulator's buffer holds zeros. -/
theorem zero_g2 (W : Valuation τ sig (Elt F)) : after stP_g2 W (no_index (Proc.devRef .tc main_v480)) = fill 0x00000000#32 := by
  simp only [stP_g2]
  after_results_simp
  rfl

/-- The last operations: the accumulated sum divided by three. -/
noncomputable def stT_g2 : List (HloOp τ sig (Elt F)) :=
  [ nullary main_cst_69 (constant S_ .f32 0x40400000#32),
    unary main_cst_69 main_v709 (broadcastInDim S4096x256 ![] bcast_S_S4096x256 : (⟨S_, .f32⟩ : BufTy).Contents (Elt F) → (⟨S4096x256, .f32⟩ : BufTy).Contents (Elt F)),
    binary main_v708 main_v709 main_v710 (Host.divf : (⟨S4096x256, .f32⟩ : BufTy).Contents (Elt F) → (⟨S4096x256, .f32⟩ : BufTy).Contents (Elt F) → (⟨S4096x256, .f32⟩ : BufTy).Contents (Elt F)) ]

set_option maxRecDepth 8192 in
theorem stT_g2_writes : (stT_g2 : List (HloOp τ sig (Elt F))).Forall (WritesIn 1258 1261) := by
  unfold stT_g2
  exact
  ⟨writesIn_single main_cst_69 _ rfl (by decide) (by decide),
   writesIn_single main_v709 _ rfl (by decide) (by decide),
   writesIn_single main_v710 _ rfl (by decide) (by decide)⟩

/-- A buffer outside the stretch's range keeps its contents through it. -/
theorem stT_g2_keep (W : Valuation τ sig (Elt F)) (r : Ref sig .tc) (hr : r.idx.val < 1258 ∨ 1261 ≤ r.idx.val) :
    after stT_g2 W (no_index (Proc.devRef .tc r)) = W (Proc.devRef .tc r) :=
  after_keep stT_g2 W stT_g2_writes r hr

theorem third_g2 (W : Valuation τ sig (Elt F)) :
    after stT_g2 W (no_index (Proc.devRef .tc main_v710)) = thirdR (W (Proc.devRef .tc main_v708)) := by
  simp only [stT_g2]
  after_results_simp
  rfl

/-- The branch's 414 operations, in order. -/
noncomputable def opsG_g2 : List (HloOp τ sig (Elt F)) :=
  stP_g2 ++ (stE_g2l0 ++ (stA_g2l0 ++ (stM_g2l0 ++ (stE_g2l1 ++ (stA_g2l1 ++ (stM_g2l1 ++ (stE_g2l2 ++ (stA_g2l2 ++ (stM_g2l2 ++ (stT_g2))))))))))

/-- They write the branch's own range of buffers. -/
theorem opsG_g2_writes : (opsG_g2 : List (HloOp τ sig (Elt F))).Forall (WritesIn 847 1261) := by
  unfold opsG_g2
  exact
    forall_append (forall_mono stP_g2_writes fun _ h => h.mono (by decide) (by decide)) (
    forall_append (forall_mono stE_g2l0_writes fun _ h => h.mono (by decide) (by decide)) (
    forall_append (forall_mono stA_g2l0_writes fun _ h => h.mono (by decide) (by decide)) (
    forall_append (forall_mono stM_g2l0_writes fun _ h => h.mono (by decide) (by decide)) (
    forall_append (forall_mono stE_g2l1_writes fun _ h => h.mono (by decide) (by decide)) (
    forall_append (forall_mono stA_g2l1_writes fun _ h => h.mono (by decide) (by decide)) (
    forall_append (forall_mono stM_g2l1_writes fun _ h => h.mono (by decide) (by decide)) (
    forall_append (forall_mono stE_g2l2_writes fun _ h => h.mono (by decide) (by decide)) (
    forall_append (forall_mono stA_g2l2_writes fun _ h => h.mono (by decide) (by decide)) (
    forall_append (forall_mono stM_g2l2_writes fun _ h => h.mono (by decide) (by decide)) (forall_mono stT_g2_writes fun _ h => h.mono (by decide) (by decide)))))))))))

/-- A buffer outside the branch's range keeps its contents through it. -/
theorem opsG_g2_keep (W : Valuation τ sig (Elt F)) (r : Ref sig .tc) (hr : r.idx.val < 847 ∨ 1261 ≤ r.idx.val) :
    after opsG_g2 W (no_index (Proc.devRef .tc r)) = W (Proc.devRef .tc r) :=
  after_keep opsG_g2 W opsG_g2_writes r hr

set_option maxRecDepth 8192 in
set_option maxHeartbeats 4000000 in
/-- After the branch its result buffer holds the branch function of the argument buffers' contents. -/
theorem gin_g2 (W : Valuation τ sig (Elt F)) :
    after opsG_g2 W (no_index (Proc.devRef .tc main_v710))
      = ginF eyeF (W (Proc.devRef .tc main_arg2)) (W (Proc.devRef .tc main_arg14)) (W (Proc.devRef .tc main_arg15)) (W (Proc.devRef .tc main_arg16)) (W (Proc.devRef .tc main_arg17)) (W (Proc.devRef .tc main_arg18)) := by
  simp only [opsG_g2, StableHlo.after_append]
  simp (disch := decide) only [third_g2, eye_g2, zero_g2,
    embed_g2l0, agg_g2l0, mlp_g2l0, acc_g2l0, embed_g2l1, agg_g2l1, mlp_g2l1, acc_g2l1, embed_g2l2, agg_g2l2, mlp_g2l2, acc_g2l2,
    stP_g2_keep, stE_g2l0_keep, stA_g2l0_keep, stM_g2l0_keep, stE_g2l1_keep, stA_g2l1_keep, stM_g2l1_keep, stE_g2l2_keep, stA_g2l2_keep, stM_g2l2_keep, stT_g2_keep]
  rfl

end Cert.ReferenceIdeal.Hand

end
-- ==== Proof.RefValL_g3l0.lean ====
/-
  One GIN layer of the reference, read back: the layer's operations in three stretches — the embedding of the layer's
  input (46 operations), the aggregate (14), the perceptron with the accumulation (74) — and, for any contents W
  before a stretch, what the stretch leaves at the buffers later stretches read, as the stage functions of
  RefFns applied to W at the buffers the stretch reads. Every other buffer keeps what it held.
-/
import proofs.«169706_j68856915690108_1_alg».proof.Proof.Gen.ReferenceIdeal
import proofs.«169706_j68856915690108_1_alg».proof.Proof.RefLib
import proofs.«169706_j68856915690108_1_alg».proof.Proof.RefFns
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The embedding's operations: two dense layers, each followed by ELU. -/
noncomputable def stE_g3l0 : List (HloOp τ sig (Elt F)) :=
  [ unary main_arg9 main_v718 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v718 main_v719 rfl shapeCasts_S1x256x256_S256x256,
    binary main_arg3 main_v719 main_v720 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v721 ((extractStridedSlice S1x256 ![0, 0] · slices_S2x256_S1x256_0_0) : (⟨S2x256, .f32⟩ : BufTy).Contents (Elt F) → (⟨S1x256, .f32⟩ : BufTy).Contents (Elt F)),
    reshape main_v721 main_v722 rfl shapeCasts_S1x256_S256,
    unary main_v722 main_v723 (broadcastInDim S1x256 ![1] bcast_S256_S1x256_1 : (⟨S256, .f32⟩ : BufTy).Contents (Elt F) → (⟨S1x256, .f32⟩ : BufTy).Contents (Elt F)),
    unary main_v723 main_v724 (broadcastInDim S4096x256 ![0, 1] bcast_S1x256_S4096x256_0_1 : (⟨S1x256, .f32⟩ : BufTy).Contents (Elt F) → (⟨S4096x256, .f32⟩ : BufTy).Contents (Elt F)),
    binary main_v720 main_v724 main_v725 (addf : (⟨S4096x256, .f32⟩ : BufTy).Contents (Elt F) → (⟨S4096x256, .f32⟩ : BufTy).Contents (Elt F) → (⟨S4096x256, .f32⟩ : BufTy).Contents (Elt F)),
    TRef.nullary main_call36.cst (constant S_ .f32 0x00000000#32),
    TRef.unary main_call36.cst main_call36.v0 (broadcastInDim S4096x256 ![] bcast_S_S4096x256),
    TRef.binary (.of main_v725 : TRef sig ⟨S4096x256, .f32⟩) main_call36.v0 main_call36.v1 (cmpf .ogt),
    TRef.nullary main_call36.cst_0 (constant S_ .f32 0x00000000#32),
    TRef.unary main_call36.cst_0 main_call36.v2 (broadcastInDim S4096x256 ![] bcast_S_S4096x256),
    TRef.binary (.of main_v725 : TRef sig ⟨S4096x256, .f32⟩) main_call36.v2 main_call36.v3 (cmpf .ogt),
    TRef.nullary main_call36.cst_1 (constant S_ .f32 0x00000000#32),
    TRef.unary main_call36.cst_1 main_call36_call0.v0 id,
    TRef.unary main_call36_call0.v0 main_call36_call0.v1 (broadcastInDim S4096x256 ![] bcast_S_S4096x256),
    TRef.ternary main_call36.v3 main_call36_call0.v1 (.of main_v725 : TRef sig ⟨S4096x256, .f32⟩) main_call36_call0.v2 select,
    TRef.unary main_call36.call0.v2 main_call36.v5 Host.expm1,
    TRef.nullary main_call36.cst_2 (constant S_ .f32 0x3F800000#32),
    TRef.unary main_call36.cst_2 main_call36.v6 (broadcastInDim S4096x256 ![] bcast_S_S4096x256),
    TRef.binary main_call36.v6 main_call36.v5 main_call36.v7 mulf,
    TRef.ternary main_call36.v1 (.of main_v725 : TRef sig ⟨S4096x256, .f32⟩) main_call36.v7 main_call36_call1.v0 select,
    unary main_arg9 main_v727 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v727 main_v728 rfl shapeCasts_S1x256x256_S256x256,
    binary main_v726 main_v728 main_v729 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v730 ((extractStridedSlice S1x256 ![1, 0] · slices_S2x256_S1x256_1_0) : (⟨S2x256, .f32⟩ : BufTy).Contents (Elt F) → (⟨S1x256, .f32⟩ : BufTy).Contents (Elt F)),
    reshape main_v730 main_v731 rfl shapeCasts_S1x256_S256,
    unary main_v731 main_v732 (broadcastInDim S1x256 ![1] bcast_S256_S1x256_1 : (⟨S256, .f32⟩ : BufTy).Contents (Elt F) → (⟨S1x256, .f32⟩ : BufTy).Contents (Elt F)),
    unary main_v732 main_v733 (broadcastInDim S4096x256 ![0, 1] bcast_S1x256_S4096x256_0_1 : (⟨S1x256, .f32⟩ : BufTy).Contents (Elt F) → (⟨S4096x256, .f32⟩ : BufTy).Contents (Elt F)),
    binary main_v729 main_v733 main_v734 (addf : (⟨S4096x256, .f32⟩ : BufTy).Contents (Elt F) → (⟨S4096x256, .f32⟩ : BufTy).Contents (Elt F) → (⟨S4096x256, .f32⟩ : BufTy).Contents (Elt F)),
    TRef.nullary main_call37.cst (constant S_ .f32 0x00000000#32),
    TRef.unary main_call37.cst main_call37.v0 (broadcastInDim S4096x256 ![] bcast_S_S4096x256),
    TRef.binary (.of main_v734 : TRef sig ⟨S4096x256, .f32⟩) main_call37.v0 main_call37.v1 (cmpf .ogt),
    TRef.nullary main_call37.cst_0 (constant S_ .f32 0x00000000#32),
    TRef.unary main_call37.cst_0 main_call37.v2 (broadcastInDim S4096x256 ![] bcast_S_S4096x256),
    TRef.binary (.of main_v734 : TRef sig ⟨S4096x256, .f32⟩) main_call37.v2 main_call37.v3 (cmpf .ogt),
    TRef.nullary main_call37.cst_1 (constant S_ .f32 0x00000000#32),
    TRef.unary main_call37.cst_1 main_call37_call0.v0 id,
    TRef.unary main_call37_call0.v0 main_call37_call0.v1 (broadcastInDim S4096x256 ![] bcast_S_S4096x256),
    TRef.ternary main_call37.v3 main_call37_call0.v1 (.of main_v734 : TRef sig ⟨S4096x256, .f32⟩) main_call37_call0.v2 select,
    TRef.unary main_call37.call0.v2 main_call37.v5 Host.expm1,
    TRef.nullary main_call37.cst_2 (constant S_ .f32 0x3F800000#32),
    TRef.unary main_call37.cst_2 main_call37.v6 (broadcastInDim S4096x256 ![] bcast_S_S4096x256),
    TRef.binary main_call37.v6 main_call37.v5 main_call37.v7 mulf,
    TRef.ternary main_call37.v1 (.of main_v734 : TRef sig ⟨S4096x256, .f32⟩) main_call37.v7 main_call37_call1.v0 select ]

set_option maxRecDepth 8192 in
theorem stE_g3l0_writes : (stE_g3l0 : List (HloOp τ sig (Elt F))).Forall (WritesIn 1270 1316) := by
  unfold stE_g3l0
  exact
  ⟨writesIn_single main_v718 _ rfl (by decide) (by decide),
   writesIn_single main_v719 _ rfl (by decide) (by decide),
   writesIn_single main_v720 _ rfl (by decide) (by decide),
   writesIn_single main_v721 _ rfl (by decide) (by decide),
   writesIn_single main_v722 _ rfl (by decide) (by decide),
   writesIn_single main_v723 _ rfl (by decide) (by decide),
   writesIn_single main_v724 _ rfl (by decide) (by decide),
   writesIn_single main_v725 _ rfl (by decide) (by decide),
   writesIn_single main_call36_cst _ rfl (by decide) (by decide),
   writesIn_single main_call36_v0 _ rfl (by decide) (by decide),
   writesIn_single main_call36_v1 _ rfl (by decide) (by decide),
   writesIn_single main_call36_cst_0 _ rfl (by decide) (by decide),
   writesIn_single main_call36_v2 _ rfl (by decide) (by decide),
   writesIn_single main_call36_v3 _ rfl (by decide) (by decide),
   writesIn_single main_call36_cst_1 _ rfl (by decide) (by decide),
   writesIn_single main_call36_call0_v0 _ rfl (by decide) (by decide),
   writesIn_single main_call36_call0_v1 _ rfl (by decide) (by decide),
   writesIn_single main_call36_v4 _ rfl (by decide) (by decide),
   writesIn_single main_call36_v5 _ rfl (by decide) (by decide),
   writesIn_single main_call36_cst_2 _ rfl (by decide) (by decide),
   writesIn_single main_call36_v6 _ rfl (by decide) (by decide),
   writesIn_single main_call36_v7 _ rfl (by decide) (by decide),
   writesIn_single main_v726 _ rfl (by decide) (by decide),
   writesIn_single main_v727 _ rfl (by decide) (by decide),
   writesIn_single main_v728 _ rfl (by decide) (by decide),
   writesIn_single main_v729 _ rfl (by decide) (by decide),
   writesIn_single main_v730 _ rfl (by decide) (by decide),
   writesIn_single main_v731 _ rfl (by decide) (by decide),
   writesIn_single main_v732 _ rfl (by decide) (by decide),
   writesIn_single main_v733 _ rfl (by decide) (by decide),
   writesIn_single main_v734 _ rfl (by decide) (by decide),
   writesIn_single main_call37_cst _ rfl (by decide) (by decide),
   writesIn_single main_call37_v0 _ rfl (by decide) (by decide),
   writesIn_single main_call37_v1 _ rfl (by decide) (by decide),
   writesIn_single main_call37_cst_0 _ rfl (by decide) (by decide),
   writesIn_single main_call37_v2 _ rfl (by decide) (by decide),
   writesIn_single main_call37_v3 _ rfl (by decide) (by decide),
   writesIn_single main_call37_cst_1 _ rfl (by decide) (by decide),
   writesIn_single main_call37_call0_v0 _ rfl (by decide) (by decide),
   writesIn_single main_call37_call0_v1 _ rfl (by decide) (by decide),
   writesIn_single main_call37_v4 _ rfl (by decide) (by decide),
   writesIn_single main_call37_v5 _ rfl (by decide) (by decide),
   writesIn_single main_call37_cst_2 _ rfl (by decide) (by decide),
   writesIn_single main_call37_v6 _ rfl (by decide) (by decide),
   writesIn_single main_call37_v7 _ rfl (by decide) (by decide),
   writesIn_single main_v735 _ rfl (by decide) (by decide)⟩

/-- A buffer outside the stretch's range keeps its contents through it. -/
theorem stE_g3l0_keep (W : Valuation τ sig (Elt F)) (r : Ref sig .tc) (hr : r.idx.val < 1270 ∨ 1316 ≤ r.idx.val) :
    after stE_g3l0 W (no_index (Proc.devRef .tc r)) = W (Proc.devRef .tc r) :=
  after_keep stE_g3l0 W stE_g3l0_writes r hr

set_option maxRecDepth 8192 in
set_option maxHeartbeats 4000000 in
/-- After them the hidden features are the embedding of the layer's input. -/
theorem embed_g3l0 (W : Valuation τ sig (Elt F)) :
    after stE_g3l0 W (no_index (Proc.devRef .tc main_v735))
      = embedR (W (Proc.devRef .tc main_arg3)) (W (Proc.devRef .tc main_arg9)) (W (Proc.devRef .tc main_arg10)) := by
  simp only [stE_g3l0]
  after_results_simp
  rfl

/-- The aggregate's operations: the Gram matrix, its mean, the mask, plus the identity, times the input. -/
noncomputable def stA_g3l0 : List (HloOp τ sig (Elt F)) :=
  [ unary main_v735 main_v736 ((transpose S256x4096 [1, 0] · transposes_S4096x256_S256x4096_1_0) : (⟨S4096x256, .f32⟩ : BufTy).Contents (Elt F) → (⟨S256x4096, .f32⟩ : BufTy).Contents (Elt F)),
    binary main_v735 main_v736 main_v737 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_72 (constant S_ .f32 0x00000000#32),
    binary main_v737 main_cst_72 main_v738 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_73 (constant S_ .f32 0x4B800000#32),
    binary main_v738 main_cst_73 main_v739 (Host.divf : (⟨S_, .f32⟩ : BufTy).Contents (Elt F) → (⟨S_, .f32⟩ : BufTy).Contents (Elt F) → (⟨S_, .f32⟩ : BufTy).Contents (Elt F)),
    unary main_v739 main_v740 (broadcastInDim S4096x4096 ![] bcast_S_S4096x4096 : (⟨S_, .f32⟩ : BufTy).Contents (Elt F) → (⟨S4096x4096, .f32⟩ : BufTy).Contents (Elt F)),
    binary main_v737 main_v740 main_v741 (cmpf .ogt : (⟨S4096x4096, .f32⟩ : BufTy).Contents (Elt F) → (⟨S4096x4096, .f32⟩ : BufTy).Contents (Elt F) → (⟨S4096x4096, .i1⟩ : BufTy).Contents (Elt F)),
    unary main_v741 main_v742 (uitofp .f32 : (⟨S4096x4096, .i1⟩ : BufTy).Contents (Elt F) → (⟨S4096x4096, .f32⟩ : BufTy).Contents (Elt F)),
    nullary main_cst_74 (constant S_ .f32 0x3F800000#32),
    unary main_cst_74 main_v743 (broadcastInDim S4096x4096 ![] bcast_S_S4096x4096 : (⟨S_, .f32⟩ : BufTy).Contents (Elt F) → (⟨S4096x4096, .f32⟩ : BufTy).Contents (Elt F)),
    binary main_v743 main_v716 main_v744 (mulf : (⟨S4096x4096, .f32⟩ : BufTy).Contents (Elt F) → (⟨S4096x4096, .f32⟩ : BufTy).Contents (Elt F) → (⟨S4096x4096, .f32⟩ : BufTy).Contents (Elt F)),
    binary main_v742 main_v744 main_v745 (addf : (⟨S4096x4096, .f32⟩ : BufTy).Contents (Elt F) → (⟨S4096x4096, .f32⟩ : BufTy).Contents (Elt F) → (⟨S4096x4096, .f32⟩ : BufTy).Contents (Elt F)),
    binary main_v745 main_arg3 main_v746 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]

set_option maxRecDepth 8192 in
theorem stA_g3l0_writes : (stA_g3l0 : List (HloOp τ sig (Elt F))).Forall (WritesIn 1316 1330) := by
  unfold stA_g3l0
  exact
  ⟨writesIn_single main_v736 _ rfl (by decide) (by decide),
   writesIn_single main_v737 _ rfl (by decide) (by decide),
   writesIn_single main_cst_72 _ rfl (by decide) (by decide),
   writesIn_single main_v738 _ rfl (by decide) (by decide),
   writesIn_single main_cst_73 _ rfl (by decide) (by decide),
   writesIn_single main_v739 _ rfl (by decide) (by decide),
   writesIn_single main_v740 _ rfl (by decide) (by decide),
   writesIn_single main_v741 _ rfl (by decide) (by decide),
   writesIn_single main_v742 _ rfl (by decide) (by decide),
   writesIn_single main_cst_74 _ rfl (by decide) (by decide),
   writesIn_single main_v743 _ rfl (by decide) (by decide),
   writesIn_single main_v744 _ rfl (by decide) (by decide),
   writesIn_single main_v745 _ rfl (by decide) (by decide),
   writesIn_single main_v746 _ rfl (by decide) (by decide)⟩

/-- A buffer outside the stretch's range keeps its contents through it. -/
theorem stA_g3l0_keep (W : Valuation τ sig (Elt F)) (r : Ref sig .tc) (hr : r.idx.val < 1316 ∨ 1330 ≤ r.idx.val) :
    after stA_g3l0 W (no_index (Proc.devRef .tc r)) = W (Proc.devRef .tc r) :=
  after_keep stA_g3l0 W stA_g3l0_writes r hr

set_option maxRecDepth 8192 in
set_option maxHeartbeats 4000000 in
/-- After them: the aggregate of the hidden features and the layer's input over the identity matrix's buffer. -/
theorem agg_g3l0 (W : Valuation τ sig (Elt F)) :
    after stA_g3l0 W (no_index (Proc.devRef .tc main_v746))
      = aggF (W (Proc.devRef .tc main_v716)) (W (Proc.devRef .tc main_v735)) (W (Proc.devRef .tc main_arg3)) := by
  simp only [stA_g3l0]
  after_results_simp
  rfl

/-- The perceptron's operations (the layer's slices of the stacked parameters first) and the accumulation. -/
noncomputable def stM_g3l0 : List (HloOp τ sig (Elt F)) :=
  [ unary main_arg11 main_v747 ((extractStridedSlice S1x2x256x256 ![0, 0, 0, 0] · slices_S3x2x256x256_S1x2x256x256_0_0_0_0) : (⟨S3x2x256x256, .f32⟩ : BufTy).Contents (Elt F) → (⟨S1x2x256x256, .f32⟩ : BufTy).Contents (Elt F)),
    reshape main_v747 main_v748 rfl shapeCasts_S1x2x256x256_S2x256x256,
    unary main_arg12 main_v749 ((extractStridedSlice S1x2x256 ![0, 0, 0] · slices_S3x2x256_S1x2x256_0_0_0) : (⟨S3x2x256, .f32⟩ : BufTy).Contents (Elt F) → (⟨S1x2x256, .f32⟩ : BufTy).Contents (Elt F)),
    reshape main_v749 main_v750 rfl shapeCasts_S1x2x256_S2x256,
    unary main_arg13 main_v751 ((extractStridedSlice S1x2x256 ![0, 0, 0] · slices_S3x2x256_S1x2x256_0_0_0) : (⟨S3x2x256, .f32⟩ : BufTy).Contents (Elt F) → (⟨S1x2x256, .f32⟩ : BufTy).Contents (Elt F)),
    reshape main_v751 main_v752 rfl shapeCasts_S1x2x256_S2x256,
    unary main_v748 main_v753 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v753 main_v754 rfl shapeCasts_S1x256x256_S256x256,
    binary main_v746 main_v754 main_v755 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v750 main_v756 ((extractStridedSlice S1x256 ![0, 0] · slices_S2x256_S1x256_0_0) : (⟨S2x256, .f32⟩ : BufTy).Contents (Elt F) → (⟨S1x256, .f32⟩ : BufTy).Contents (Elt F)),
    reshape main_v756 main_v757 rfl shapeCasts_S1x256_S256,
    unary main_v757 main_v758 (broadcastInDim S1x256 ![1] bcast_S256_S1x256_1 : (⟨S256, .f32⟩ : BufTy).Contents (Elt F) → (⟨S1x256, .f32⟩ : BufTy).Contents (Elt F)),
    unary main_v758 main_v759 (broadcastInDim S4096x256 ![0, 1] bcast_S1x256_S4096x256_0_1 : (⟨S1x256, .f32⟩ : BufTy).Contents (Elt F) → (⟨S4096x256, .f32⟩ : BufTy).Contents (Elt F)),
    binary main_v755 main_v759 main_v760 (addf : (⟨S4096x256, .f32⟩ : BufTy).Contents (Elt F) → (⟨S4096x256, .f32⟩ : BufTy).Contents (Elt F) → (⟨S4096x256, .f32⟩ : BufTy).Contents (Elt F)),
    nullary main_cst_75 (constant S_ .f32 0x00000000#32),
    binary main_v760 main_cst_75 main_v761 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_76 (constant S_ .f32 0x45800000#32),
    unary main_cst_76 main_v762 (broadcastInDim S256 ![] bcast_S_S256 : (⟨S_, .f32⟩ : BufTy).Contents (Elt F) → (⟨S256, .f32⟩ : BufTy).Contents (Elt F)),
    binary main_v761 main_v762 main_v763 (Host.divf : (⟨S256, .f32⟩ : BufTy).Contents (Elt F) → (⟨S256, .f32⟩ : BufTy).Contents (Elt F) → (⟨S256, .f32⟩ : BufTy).Contents (Elt F)),
    nullary main_c_77 (constantI S_ 32 0#32),
    TRef.nullary main_call38.cst (constant S_ .f32 0x00000000#32),
    TRef.binary (.of main_v760 : TRef sig ⟨S4096x256, .f32⟩) main_call38.cst main_call38.v0 (fun x v => Host.reduceAdd x v reducesTo_S4096x256_S256_d0 h_S_),
    TRef.unary main_call38.v0 main_call38.v1 (broadcastInDim S1x256 ![1] bcast_S256_S1x256_1),
    TRef.nullary main_call38.cst_0 (constant S_ .f32 0x45800000#32),
    TRef.unary main_call38.cst_0 main_call38.v2 (broadcastInDim S1x256 ![] bcast_S_S1x256),
    TRef.binary main_call38.v1 main_call38.v2 main_call38.v3 Host.divf,
    TRef.unary main_call38.v3 main_call38.v4 (broadcastInDim S4096x256 ![0, 1] bcast_S1x256_S4096x256_0_1),
    TRef.binary (.of main_v760 : TRef sig ⟨S4096x256, .f32⟩) main_call38.v4 main_call38.v5 subf,
    TRef.binary main_call38.v5 main_call38.v5 main_call38.v6 mulf,
    TRef.unary (.of main_c_77 : TRef sig ⟨S_, .i32⟩) main_call38.v7 (sitofp .f32),
    TRef.nullary main_call38.cst_1 (constant S_ .f32 0x45800000#32),
    TRef.binary main_call38.cst_1 main_call38.v7 main_call38.v8 subf,
    TRef.nullary main_call38.cst_2 (constant S_ .f32 0x00000000#32),
    TRef.binary main_call38.v6 main_call38.cst_2 main_call38.v9 (fun x v => Host.reduceAdd x v reducesTo_S4096x256_S256_d0 h_S_),
    TRef.unary main_call38.v8 main_call38.v10 (broadcastInDim S256 ![] bcast_S_S256),
    TRef.binary main_call38.v9 main_call38.v10 main_call38.v11 Host.divf,
    TRef.nullary main_call38.cst_3 (constant S_ .f32 0x00000000#32),
    TRef.binary main_call38.v8 main_call38.cst_3 main_call38.v12 (cmpf .ogt),
    TRef.nullary main_call38.cst_4 (constant S_ .f32 0x7FC00000#32),
    TRef.unary main_call38.cst_4 main_call38_call0.v0 id,
    TRef.unary main_call38_call0.v0 main_call38_call0.v1 (broadcastInDim S256 ![] bcast_S_S256),
    TRef.ternary main_call38.v12 main_call38.v11 main_call38_call0.v1 main_call38_call0.v2 (fun p a b => select (broadcastInDim S256 ![] bcast_S_S256 p) a b),
    unary main_v763 main_v765 (broadcastInDim S1x256 ![1] bcast_S256_S1x256_1 : (⟨S256, .f32⟩ : BufTy).Contents (Elt F) → (⟨S1x256, .f32⟩ : BufTy).Contents (Elt F)),
    unary main_v765 main_v766 (broadcastInDim S4096x256 ![0, 1] bcast_S1x256_S4096x256_0_1 : (⟨S1x256, .f32⟩ : BufTy).Contents (Elt F) → (⟨S4096x256, .f32⟩ : BufTy).Contents (Elt F)),
    binary main_v760 main_v766 main_v767 (subf : (⟨S4096x256, .f32⟩ : BufTy).Contents (Elt F) → (⟨S4096x256, .f32⟩ : BufTy).Contents (Elt F) → (⟨S4096x256, .f32⟩ : BufTy).Contents (Elt F)),
    nullary main_cst_78 (constant S_ .f32 0x3727C5AC#32),
    unary main_cst_78 main_v768 (broadcastInDim S256 ![] bcast_S_S256 : (⟨S_, .f32⟩ : BufTy).Contents (Elt F) → (⟨S256, .f32⟩ : BufTy).Contents (Elt F)),
    binary main_v764 main_v768 main_v769 (addf : (⟨S256, .f32⟩ : BufTy).Contents (Elt F) → (⟨S256, .f32⟩ : BufTy).Contents (Elt F) → (⟨S256, .f32⟩ : BufTy).Contents (Elt F)),
    unary main_v769 main_v770 (Host.rsqrt : (⟨S256, .f32⟩ : BufTy).Contents (Elt F) → (⟨S256, .f32⟩ : BufTy).Contents (Elt F)),
    unary main_v770 main_v771 (broadcastInDim S1x256 ![1] bcast_S256_S1x256_1 : (⟨S256, .f32⟩ : BufTy).Contents (Elt F) → (⟨S1x256, .f32⟩ : BufTy).Contents (Elt F)),
    unary main_v771 main_v772 (broadcastInDim S4096x256 ![0, 1] bcast_S1x256_S4096x256_0_1 : (⟨S1x256, .f32⟩ : BufTy).Contents (Elt F) → (⟨S4096x256, .f32⟩ : BufTy).Contents (Elt F)),
    binary main_v767 main_v772 main_v773 (mulf : (⟨S4096x256, .f32⟩ : BufTy).Contents (Elt F) → (⟨S4096x256, .f32⟩ : BufTy).Contents (Elt F) → (⟨S4096x256, .f32⟩ : BufTy).Contents (Elt F)),
    unary main_v752 main_v774 ((extractStridedSlice S1x256 ![0, 0] · slices_S2x256_S1x256_0_0) : (⟨S2x256, .f32⟩ : BufTy).Contents (Elt F) → (⟨S1x256, .f32⟩ : BufTy).Contents (Elt F)),
    reshape main_v774 main_v775 rfl shapeCasts_S1x256_S256,
    unary main_v775 main_v776 (broadcastInDim S1x256 ![1] bcast_S256_S1x256_1 : (⟨S256, .f32⟩ : BufTy).Contents (Elt F) → (⟨S1x256, .f32⟩ : BufTy).Contents (Elt F)),
    unary main_v776 main_v777 (broadcastInDim S4096x256 ![0, 1] bcast_S1x256_S4096x256_0_1 : (⟨S1x256, .f32⟩ : BufTy).Contents (Elt F) → (⟨S4096x256, .f32⟩ : BufTy).Contents (Elt F)),
    binary main_v773 main_v777 main_v778 (mulf : (⟨S4096x256, .f32⟩ : BufTy).Contents (Elt F) → (⟨S4096x256, .f32⟩ : BufTy).Contents (Elt F) → (⟨S4096x256, .f32⟩ : BufTy).Contents (Elt F)),
    unary main_v752 main_v779 ((extractStridedSlice S1x256 ![1, 0] · slices_S2x256_S1x256_1_0) : (⟨S2x256, .f32⟩ : BufTy).Contents (Elt F) → (⟨S1x256, .f32⟩ : BufTy).Contents (Elt F)),
    reshape main_v779 main_v780 rfl shapeCasts_S1x256_S256,
    unary main_v780 main_v781 (broadcastInDim S1x256 ![1] bcast_S256_S1x256_1 : (⟨S256, .f32⟩ : BufTy).Contents (Elt F) → (⟨S1x256, .f32⟩ : BufTy).Contents (Elt F)),
    unary main_v781 main_v782 (broadcastInDim S4096x256 ![0, 1] bcast_S1x256_S4096x256_0_1 : (⟨S1x256, .f32⟩ : BufTy).Contents (Elt F) → (⟨S4096x256, .f32⟩ : BufTy).Contents (Elt F)),
    binary main_v778 main_v782 main_v783 (addf : (⟨S4096x256, .f32⟩ : BufTy).Contents (Elt F) → (⟨S4096x256, .f32⟩ : BufTy).Contents (Elt F) → (⟨S4096x256, .f32⟩ : BufTy).Contents (Elt F)),
    TRef.nullary main_call39.cst (constant S_ .f32 0x00000000#32),
    TRef.unary main_call39.cst main_call39.v0 (broadcastInDim S4096x256 ![] bcast_S_S4096x256),
    TRef.binary (.of main_v783 : TRef sig ⟨S4096x256, .f32⟩) main_call39.v0 main_call39.v1 maximumf,
    unary main_v748 main_v785 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v785 main_v786 rfl shapeCasts_S1x256x256_S256x256,
    binary main_v784 main_v786 main_v787 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v750 main_v788 ((extractStridedSlice S1x256 ![1, 0] · slices_S2x256_S1x256_1_0) : (⟨S2x256, .f32⟩ : BufTy).Contents (Elt F) → (⟨S1x256, .f32⟩ : BufTy).Contents (Elt F)),
    reshape main_v788 main_v789 rfl shapeCasts_S1x256_S256,
    unary main_v789 main_v790 (broadcastInDim S1x256 ![1] bcast_S256_S1x256_1 : (⟨S256, .f32⟩ : BufTy).Contents (Elt F) → (⟨S1x256, .f32⟩ : BufTy).Contents (Elt F)),
    unary main_v790 main_v791 (broadcastInDim S4096x256 ![0, 1] bcast_S1x256_S4096x256_0_1 : (⟨S1x256, .f32⟩ : BufTy).Contents (Elt F) → (⟨S4096x256, .f32⟩ : BufTy).Contents (Elt F)),
    binary main_v787 main_v791 main_v792 (addf : (⟨S4096x256, .f32⟩ : BufTy).Contents (Elt F) → (⟨S4096x256, .f32⟩ : BufTy).Contents (Elt F) → (⟨S4096x256, .f32⟩ : BufTy).Contents (Elt F)),
    binary main_v717 main_v792 main_v793 (addf : (⟨S4096x256, .f32⟩ : BufTy).Contents (Elt F) → (⟨S4096x256, .f32⟩ : BufTy).Contents (Elt F) → (⟨S4096x256, .f32⟩ : BufTy).Contents (Elt F)) ]

set_option maxRecDepth 8192 in
theorem stM_g3l0_writes : (stM_g3l0 : List (HloOp τ sig (Elt F))).Forall (WritesIn 1330 1404) := by
  unfold stM_g3l0
  exact
  ⟨writesIn_single main_v747 _ rfl (by decide) (by decide),
   writesIn_single main_v748 _ rfl (by decide) (by decide),
   writesIn_single main_v749 _ rfl (by decide) (by decide),
   writesIn_single main_v750 _ rfl (by decide) (by decide),
   writesIn_single main_v751 _ rfl (by decide) (by decide),
   writesIn_single main_v752 _ rfl (by decide) (by decide),
   writesIn_single main_v753 _ rfl (by decide) (by decide),
   writesIn_single main_v754 _ rfl (by decide) (by decide),
   writesIn_single main_v755 _ rfl (by decide) (by decide),
   writesIn_single main_v756 _ rfl (by decide) (by decide),
   writesIn_single main_v757 _ rfl (by decide) (by decide),
   writesIn_single main_v758 _ rfl (by decide) (by decide),
   writesIn_single main_v759 _ rfl (by decide) (by decide),
   writesIn_single main_v760 _ rfl (by decide) (by decide),
   writesIn_single main_cst_75 _ rfl (by decide) (by decide),
   writesIn_single main_v761 _ rfl (by decide) (by decide),
   writesIn_single main_cst_76 _ rfl (by decide) (by decide),
   writesIn_single main_v762 _ rfl (by decide) (by decide),
   writesIn_single main_v763 _ rfl (by decide) (by decide),
   writesIn_single main_c_77 _ rfl (by decide) (by decide),
   writesIn_single main_call38_cst _ rfl (by decide) (by decide),
   writesIn_single main_call38_v0 _ rfl (by decide) (by decide),
   writesIn_single main_call38_v1 _ rfl (by decide) (by decide),
   writesIn_single main_call38_cst_0 _ rfl (by decide) (by decide),
   writesIn_single main_call38_v2 _ rfl (by decide) (by decide),
   writesIn_single main_call38_v3 _ rfl (by decide) (by decide),
   writesIn_single main_call38_v4 _ rfl (by decide) (by decide),
   writesIn_single main_call38_v5 _ rfl (by decide) (by decide),
   writesIn_single main_call38_v6 _ rfl (by decide) (by decide),
   writesIn_single main_call38_v7 _ rfl (by decide) (by decide),
   writesIn_single main_call38_cst_1 _ rfl (by decide) (by decide),
   writesIn_single main_call38_v8 _ rfl (by decide) (by decide),
   writesIn_single main_call38_cst_2 _ rfl (by decide) (by decide),
   writesIn_single main_call38_v9 _ rfl (by decide) (by decide),
   writesIn_single main_call38_v10 _ rfl (by decide) (by decide),
   writesIn_single main_call38_v11 _ rfl (by decide) (by decide),
   writesIn_single main_call38_cst_3 _ rfl (by decide) (by decide),
   writesIn_single main_call38_v12 _ rfl (by decide) (by decide),
   writesIn_single main_call38_cst_4 _ rfl (by decide) (by decide),
   writesIn_single main_call38_call0_v0 _ rfl (by decide) (by decide),
   writesIn_single main_call38_call0_v1 _ rfl (by decide) (by decide),
   writesIn_single main_v764 _ rfl (by decide) (by decide),
   writesIn_single main_v765 _ rfl (by decide) (by decide),
   writesIn_single main_v766 _ rfl (by decide) (by decide),
   writesIn_single main_v767 _ rfl (by decide) (by decide),
   writesIn_single main_cst_78 _ rfl (by decide) (by decide),
   writesIn_single main_v768 _ rfl (by decide) (by decide),
   writesIn_single main_v769 _ rfl (by decide) (by decide),
   writesIn_single main_v770 _ rfl (by decide) (by decide),
   writesIn_single main_v771 _ rfl (by decide) (by decide),
   writesIn_single main_v772 _ rfl (by decide) (by decide),
   writesIn_single main_v773 _ rfl (by decide) (by decide),
   writesIn_single main_v774 _ rfl (by decide) (by decide),
   writesIn_single main_v775 _ rfl (by decide) (by decide),
   writesIn_single main_v776 _ rfl (by decide) (by decide),
   writesIn_single main_v777 _ rfl (by decide) (by decide),
   writesIn_single main_v778 _ rfl (by decide) (by decide),
   writesIn_single main_v779 _ rfl (by decide) (by decide),
   writesIn_single main_v780 _ rfl (by decide) (by decide),
   writesIn_single main_v781 _ rfl (by decide) (by decide),
   writesIn_single main_v782 _ rfl (by decide) (by decide),
   writesIn_single main_v783 _ rfl (by decide) (by decide),
   writesIn_single main_call39_cst _ rfl (by decide) (by decide),
   writesIn_single main_call39_v0 _ rfl (by decide) (by decide),
   writesIn_single main_v784 _ rfl (by decide) (by decide),
   writesIn_single main_v785 _ rfl (by decide) (by decide),
   writesIn_single main_v786 _ rfl (by decide) (by decide),
   writesIn_single main_v787 _ rfl (by decide) (by decide),
   writesIn_single main_v788 _ rfl (by decide) (by decide),
   writesIn_single main_v789 _ rfl (by decide) (by decide),
   writesIn_single main_v790 _ rfl (by decide) (by decide),
   writesIn_single main_v791 _ rfl (by decide) (by decide),
   writesIn_single main_v792 _ rfl (by decide) (by decide),
   writesIn_single main_v793 _ rfl (by decide) (by decide)⟩

/-- A buffer outside the stretch's range keeps its contents through it. -/
theorem stM_g3l0_keep (W : Valuation τ sig (Elt F)) (r : Ref sig .tc) (hr : r.idx.val < 1330 ∨ 1404 ≤ r.idx.val) :
    after stM_g3l0 W (no_index (Proc.devRef .tc r)) = W (Proc.devRef .tc r) :=
  after_keep stM_g3l0 W stM_g3l0_writes r hr

set_option maxRecDepth 8192 in
set_option maxHeartbeats 4000000 in
/-- After them the layer's output is the perceptron of the aggregate. -/
theorem mlp_g3l0 (W : Valuation τ sig (Elt F)) :
    after stM_g3l0 W (no_index (Proc.devRef .tc main_v792))
      = mlpR (W (Proc.devRef .tc main_v746)) (sliceW0 (W (Proc.devRef .tc main_arg11))) (sliceB0 (W (Proc.devRef .tc main_arg12))) (sliceB0 (W (Proc.devRef .tc main_arg13))) := by
  simp only [stM_g3l0]
  after_results_simp
  rfl

set_option maxRecDepth 8192 in
set_option maxHeartbeats 4000000 in
/-- And the accumulator is the previous sum plus the layer's output. -/
theorem acc_g3l0 (W : Valuation τ sig (Elt F)) :
    after stM_g3l0 W (no_index (Proc.devRef .tc main_v793))
      = addf (W (Proc.devRef .tc main_v717))
          (mlpR (W (Proc.devRef .tc main_v746)) (sliceW0 (W (Proc.devRef .tc main_arg11))) (sliceB0 (W (Proc.devRef .tc main_arg12))) (sliceB0 (W (Proc.devRef .tc main_arg13)))) := by
  simp only [stM_g3l0]
  after_results_simp
  rfl

end Cert.ReferenceIdeal.Hand

end
-- ==== Proof.RefValL_g3l1.lean ====
/-
  One GIN layer of the reference, read back: the layer's operations in three stretches — the embedding of the layer's
  input (46 operations), the aggregate (14), the perceptron with the accumulation (74) — and, for any contents W
  before a stretch, what the stretch leaves at the buffers later stretches read, as the stage functions of
  RefFns applied to W at the buffers the stretch reads. Every other buffer keeps what it held.
-/
import proofs.«169706_j68856915690108_1_alg».proof.Proof.Gen.ReferenceIdeal
import proofs.«169706_j68856915690108_1_alg».proof.Proof.RefLib
import proofs.«169706_j68856915690108_1_alg».proof.Proof.RefFns
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The embedding's operations: two dense layers, each followed by ELU. -/
noncomputable def stE_g3l1 : List (HloOp τ sig (Elt F)) :=
  [ unary main_arg9 main_v794 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v794 main_v795 rfl shapeCasts_S1x256x256_S256x256,
    binary main_v792 main_v795 main_v796 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v797 ((extractStridedSlice S1x256 ![0, 0] · slices_S2x256_S1x256_0_0) : (⟨S2x256, .f32⟩ : BufTy).Contents (Elt F) → (⟨S1x256, .f32⟩ : BufTy).Contents (Elt F)),
    reshape main_v797 main_v798 rfl shapeCasts_S1x256_S256,
    unary main_v798 main_v799 (broadcastInDim S1x256 ![1] bcast_S256_S1x256_1 : (⟨S256, .f32⟩ : BufTy).Contents (Elt F) → (⟨S1x256, .f32⟩ : BufTy).Contents (Elt F)),
    unary main_v799 main_v800 (broadcastInDim S4096x256 ![0, 1] bcast_S1x256_S4096x256_0_1 : (⟨S1x256, .f32⟩ : BufTy).Contents (Elt F) → (⟨S4096x256, .f32⟩ : BufTy).Contents (Elt F)),
    binary main_v796 main_v800 main_v801 (addf : (⟨S4096x256, .f32⟩ : BufTy).Contents (Elt F) → (⟨S4096x256, .f32⟩ : BufTy).Contents (Elt F) → (⟨S4096x256, .f32⟩ : BufTy).Contents (Elt F)),
    TRef.nullary main_call40.cst (constant S_ .f32 0x00000000#32),
    TRef.unary main_call40.cst main_call40.v0 (broadcastInDim S4096x256 ![] bcast_S_S4096x256),
    TRef.binary (.of main_v801 : TRef sig ⟨S4096x256, .f32⟩) main_call40.v0 main_call40.v1 (cmpf .ogt),
    TRef.nullary main_call40.cst_0 (constant S_ .f32 0x00000000#32),
    TRef.unary main_call40.cst_0 main_call40.v2 (broadcastInDim S4096x256 ![] bcast_S_S4096x256),
    TRef.binary (.of main_v801 : TRef sig ⟨S4096x256, .f32⟩) main_call40.v2 main_call40.v3 (cmpf .ogt),
    TRef.nullary main_call40.cst_1 (constant S_ .f32 0x00000000#32),
    TRef.unary main_call40.cst_1 main_call40_call0.v0 id,
    TRef.unary main_call40_call0.v0 main_call40_call0.v1 (broadcastInDim S4096x256 ![] bcast_S_S4096x256),
    TRef.ternary main_call40.v3 main_call40_call0.v1 (.of main_v801 : TRef sig ⟨S4096x256, .f32⟩) main_call40_call0.v2 select,
    TRef.unary main_call40.call0.v2 main_call40.v5 Host.expm1,
    TRef.nullary main_call40.cst_2 (constant S_ .f32 0x3F800000#32),
    TRef.unary main_call40.cst_2 main_call40.v6 (broadcastInDim S4096x256 ![] bcast_S_S4096x256),
    TRef.binary main_call40.v6 main_call40.v5 main_call40.v7 mulf,
    TRef.ternary main_call40.v1 (.of main_v801 : TRef sig ⟨S4096x256, .f32⟩) main_call40.v7 main_call40_call1.v0 select,
    unary main_arg9 main_v803 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v803 main_v804 rfl shapeCasts_S1x256x256_S256x256,
    binary main_v802 main_v804 main_v805 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v806 ((extractStridedSlice S1x256 ![1, 0] · slices_S2x256_S1x256_1_0) : (⟨S2x256, .f32⟩ : BufTy).Contents (Elt F) → (⟨S1x256, .f32⟩ : BufTy).Contents (Elt F)),
    reshape main_v806 main_v807 rfl shapeCasts_S1x256_S256,
    unary main_v807 main_v808 (broadcastInDim S1x256 ![1] bcast_S256_S1x256_1 : (⟨S256, .f32⟩ : BufTy).Contents (Elt F) → (⟨S1x256, .f32⟩ : BufTy).Contents (Elt F)),
    unary main_v808 main_v809 (broadcastInDim S4096x256 ![0, 1] bcast_S1x256_S4096x256_0_1 : (⟨S1x256, .f32⟩ : BufTy).Contents (Elt F) → (⟨S4096x256, .f32⟩ : BufTy).Contents (Elt F)),
    binary main_v805 main_v809 main_v810 (addf : (⟨S4096x256, .f32⟩ : BufTy).Contents (Elt F) → (⟨S4096x256, .f32⟩ : BufTy).Contents (Elt F) → (⟨S4096x256, .f32⟩ : BufTy).Contents (Elt F)),
    TRef.nullary main_call41.cst (constant S_ .f32 0x00000000#32),
    TRef.unary main_call41.cst main_call41.v0 (broadcastInDim S4096x256 ![] bcast_S_S4096x256),
    TRef.binary (.of main_v810 : TRef sig ⟨S4096x256, .f32⟩) main_call41.v0 main_call41.v1 (cmpf .ogt),
    TRef.nullary main_call41.cst_0 (constant S_ .f32 0x00000000#32),
    TRef.unary main_call41.cst_0 main_call41.v2 (broadcastInDim S4096x256 ![] bcast_S_S4096x256),
    TRef.binary (.of main_v810 : TRef sig ⟨S4096x256, .f32⟩) main_call41.v2 main_call41.v3 (cmpf .ogt),
    TRef.nullary main_call41.cst_1 (constant S_ .f32 0x00000000#32),
    TRef.unary main_call41.cst_1 main_call41_call0.v0 id,
    TRef.unary main_call41_call0.v0 main_call41_call0.v1 (broadcastInDim S4096x256 ![] bcast_S_S4096x256),
    TRef.ternary main_call41.v3 main_call41_call0.v1 (.of main_v810 : TRef sig ⟨S4096x256, .f32⟩) main_call41_call0.v2 select,
    TRef.unary main_call41.call0.v2 main_call41.v5 Host.expm1,
    TRef.nullary main_call41.cst_2 (constant S_ .f32 0x3F800000#32),
    TRef.unary main_call41.cst_2 main_call41.v6 (broadcastInDim S4096x256 ![] bcast_S_S4096x256),
    TRef.binary main_call41.v6 main_call41.v5 main_call41.v7 mulf,
    TRef.ternary main_call41.v1 (.of main_v810 : TRef sig ⟨S4096x256, .f32⟩) main_call41.v7 main_call41_call1.v0 select ]

set_option maxRecDepth 8192 in
theorem stE_g3l1_writes : (stE_g3l1 : List (HloOp τ sig (Elt F))).Forall (WritesIn 1404 1450) := by
  unfold stE_g3l1
  exact
  ⟨writesIn_single main_v794 _ rfl (by decide) (by decide),
   writesIn_single main_v795 _ rfl (by decide) (by decide),
   writesIn_single main_v796 _ rfl (by decide) (by decide),
   writesIn_single main_v797 _ rfl (by decide) (by decide),
   writesIn_single main_v798 _ rfl (by decide) (by decide),
   writesIn_single main_v799 _ rfl (by decide) (by decide),
   writesIn_single main_v800 _ rfl (by decide) (by decide),
   writesIn_single main_v801 _ rfl (by decide) (by decide),
   writesIn_single main_call40_cst _ rfl (by decide) (by decide),
   writesIn_single main_call40_v0 _ rfl (by decide) (by decide),
   writesIn_single main_call40_v1 _ rfl (by decide) (by decide),
   writesIn_single main_call40_cst_0 _ rfl (by decide) (by decide),
   writesIn_single main_call40_v2 _ rfl (by decide) (by decide),
   writesIn_single main_call40_v3 _ rfl (by decide) (by decide),
   writesIn_single main_call40_cst_1 _ rfl (by decide) (by decide),
   writesIn_single main_call40_call0_v0 _ rfl (by decide) (by decide),
   writesIn_single main_call40_call0_v1 _ rfl (by decide) (by decide),
   writesIn_single main_call40_v4 _ rfl (by decide) (by decide),
   writesIn_single main_call40_v5 _ rfl (by decide) (by decide),
   writesIn_single main_call40_cst_2 _ rfl (by decide) (by decide),
   writesIn_single main_call40_v6 _ rfl (by decide) (by decide),
   writesIn_single main_call40_v7 _ rfl (by decide) (by decide),
   writesIn_single main_v802 _ rfl (by decide) (by decide),
   writesIn_single main_v803 _ rfl (by decide) (by decide),
   writesIn_single main_v804 _ rfl (by decide) (by decide),
   writesIn_single main_v805 _ rfl (by decide) (by decide),
   writesIn_single main_v806 _ rfl (by decide) (by decide),
   writesIn_single main_v807 _ rfl (by decide) (by decide),
   writesIn_single main_v808 _ rfl (by decide) (by decide),
   writesIn_single main_v809 _ rfl (by decide) (by decide),
   writesIn_single main_v810 _ rfl (by decide) (by decide),
   writesIn_single main_call41_cst _ rfl (by decide) (by decide),
   writesIn_single main_call41_v0 _ rfl (by decide) (by decide),
   writesIn_single main_call41_v1 _ rfl (by decide) (by decide),
   writesIn_single main_call41_cst_0 _ rfl (by decide) (by decide),
   writesIn_single main_call41_v2 _ rfl (by decide) (by decide),
   writesIn_single main_call41_v3 _ rfl (by decide) (by decide),
   writesIn_single main_call41_cst_1 _ rfl (by decide) (by decide),
   writesIn_single main_call41_call0_v0 _ rfl (by decide) (by decide),
   writesIn_single main_call41_call0_v1 _ rfl (by decide) (by decide),
   writesIn_single main_call41_v4 _ rfl (by decide) (by decide),
   writesIn_single main_call41_v5 _ rfl (by decide) (by decide),
   writesIn_single main_call41_cst_2 _ rfl (by decide) (by decide),
   writesIn_single main_call41_v6 _ rfl (by decide) (by decide),
   writesIn_single main_call41_v7 _ rfl (by decide) (by decide),
   writesIn_single main_v811 _ rfl (by decide) (by decide)⟩

/-- A buffer outside the stretch's range keeps its contents through it. -/
theorem stE_g3l1_keep (W : Valuation τ sig (Elt F)) (r : Ref sig .tc) (hr : r.idx.val < 1404 ∨ 1450 ≤ r.idx.val) :
    after stE_g3l1 W (no_index (Proc.devRef .tc r)) = W (Proc.devRef .tc r) :=
  after_keep stE_g3l1 W stE_g3l1_writes r hr

set_option maxRecDepth 8192 in
set_option maxHeartbeats 4000000 in
/-- After them the hidden features are the embedding of the layer's input. -/
theorem embed_g3l1 (W : Valuation τ sig (Elt F)) :
    after stE_g3l1 W (no_index (Proc.devRef .tc main_v811))
      = embedR (W (Proc.devRef .tc main_v792)) (W (Proc.devRef .tc main_arg9)) (W (Proc.devRef .tc main_arg10)) := by
  simp only [stE_g3l1]
  after_results_simp
  rfl

/-- The aggregate's operations: the Gram matrix, its mean, the mask, plus the identity, times the input. -/
noncomputable def stA_g3l1 : List (HloOp τ sig (Elt F)) :=
  [ unary main_v811 main_v812 ((transpose S256x4096 [1, 0] · transposes_S4096x256_S256x4096_1_0) : (⟨S4096x256, .f32⟩ : BufTy).Contents (Elt F) → (⟨S256x4096, .f32⟩ : BufTy).Contents (Elt F)),
    binary main_v811 main_v812 main_v813 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_79 (constant S_ .f32 0x00000000#32),
    binary main_v813 main_cst_79 main_v814 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_80 (constant S_ .f32 0x4B800000#32),
    binary main_v814 main_cst_80 main_v815 (Host.divf : (⟨S_, .f32⟩ : BufTy).Contents (Elt F) → (⟨S_, .f32⟩ : BufTy).Contents (Elt F) → (⟨S_, .f32⟩ : BufTy).Contents (Elt F)),
    unary main_v815 main_v816 (broadcastInDim S4096x4096 ![] bcast_S_S4096x4096 : (⟨S_, .f32⟩ : BufTy).Contents (Elt F) → (⟨S4096x4096, .f32⟩ : BufTy).Contents (Elt F)),
    binary main_v813 main_v816 main_v817 (cmpf .ogt : (⟨S4096x4096, .f32⟩ : BufTy).Contents (Elt F) → (⟨S4096x4096, .f32⟩ : BufTy).Contents (Elt F) → (⟨S4096x4096, .i1⟩ : BufTy).Contents (Elt F)),
    unary main_v817 main_v818 (uitofp .f32 : (⟨S4096x4096, .i1⟩ : BufTy).Contents (Elt F) → (⟨S4096x4096, .f32⟩ : BufTy).Contents (Elt F)),
    nullary main_cst_81 (constant S_ .f32 0x3F800000#32),
    unary main_cst_81 main_v819 (broadcastInDim S4096x4096 ![] bcast_S_S4096x4096 : (⟨S_, .f32⟩ : BufTy).Contents (Elt F) → (⟨S4096x4096, .f32⟩ : BufTy).Contents (Elt F)),
    binary main_v819 main_v716 main_v820 (mulf : (⟨S4096x4096, .f32⟩ : BufTy).Contents (Elt F) → (⟨S4096x4096, .f32⟩ : BufTy).Contents (Elt F) → (⟨S4096x4096, .f32⟩ : BufTy).Contents (Elt F)),
    binary main_v818 main_v820 main_v821 (addf : (⟨S4096x4096, .f32⟩ : BufTy).Contents (Elt F) → (⟨S4096x4096, .f32⟩ : BufTy).Contents (Elt F) → (⟨S4096x4096, .f32⟩ : BufTy).Contents (Elt F)),
    binary main_v821 main_v792 main_v822 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]

set_option maxRecDepth 8192 in
theorem stA_g3l1_writes : (stA_g3l1 : List (HloOp τ sig (Elt F))).Forall (WritesIn 1450 1464) := by
  unfold stA_g3l1
  exact
  ⟨writesIn_single main_v812 _ rfl (by decide) (by decide),
   writesIn_single main_v813 _ rfl (by decide) (by decide),
   writesIn_single main_cst_79 _ rfl (by decide) (by decide),
   writesIn_single main_v814 _ rfl (by decide) (by decide),
   writesIn_single main_cst_80 _ rfl (by decide) (by decide),
   writesIn_single main_v815 _ rfl (by decide) (by decide),
   writesIn_single main_v816 _ rfl (by decide) (by decide),
   writesIn_single main_v817 _ rfl (by decide) (by decide),
   writesIn_single main_v818 _ rfl (by decide) (by decide),
   writesIn_single main_cst_81 _ rfl (by decide) (by decide),
   writesIn_single main_v819 _ rfl (by decide) (by decide),
   writesIn_single main_v820 _ rfl (by decide) (by decide),
   writesIn_single main_v821 _ rfl (by decide) (by decide),
   writesIn_single main_v822 _ rfl (by decide) (by decide)⟩

/-- A buffer outside the stretch's range keeps its contents through it. -/
theorem stA_g3l1_keep (W : Valuation τ sig (Elt F)) (r : Ref sig .tc) (hr : r.idx.val < 1450 ∨ 1464 ≤ r.idx.val) :
    after stA_g3l1 W (no_index (Proc.devRef .tc r)) = W (Proc.devRef .tc r) :=
  after_keep stA_g3l1 W stA_g3l1_writes r hr

set_option maxRecDepth 8192 in
set_option maxHeartbeats 4000000 in
/-- After them: the aggregate of the hidden features and the layer's input over the identity matrix's buffer. -/
theorem agg_g3l1 (W : Valuation τ sig (Elt F)) :
    after stA_g3l1 W (no_index (Proc.devRef .tc main_v822))
      = aggF (W (Proc.devRef .tc main_v716)) (W (Proc.devRef .tc main_v811)) (W (Proc.devRef .tc main_v792)) := by
  simp only [stA_g3l1]
  after_results_simp
  rfl

/-- The perceptron's operations (the layer's slices of the stacked parameters first) and the accumulation. -/
noncomputable def stM_g3l1 : List (HloOp τ sig (Elt F)) :=
  [ unary main_arg11 main_v823 ((extractStridedSlice S1x2x256x256 ![1, 0, 0, 0] · slices_S3x2x256x256_S1x2x256x256_1_0_0_0) : (⟨S3x2x256x256, .f32⟩ : BufTy).Contents (Elt F) → (⟨S1x2x256x256, .f32⟩ : BufTy).Contents (Elt F)),
    reshape main_v823 main_v824 rfl shapeCasts_S1x2x256x256_S2x256x256,
    unary main_arg12 main_v825 ((extractStridedSlice S1x2x256 ![1, 0, 0] · slices_S3x2x256_S1x2x256_1_0_0) : (⟨S3x2x256, .f32⟩ : BufTy).Contents (Elt F) → (⟨S1x2x256, .f32⟩ : BufTy).Contents (Elt F)),
    reshape main_v825 main_v826 rfl shapeCasts_S1x2x256_S2x256,
    unary main_arg13 main_v827 ((extractStridedSlice S1x2x256 ![1, 0, 0] · slices_S3x2x256_S1x2x256_1_0_0) : (⟨S3x2x256, .f32⟩ : BufTy).Contents (Elt F) → (⟨S1x2x256, .f32⟩ : BufTy).Contents (Elt F)),
    reshape main_v827 main_v828 rfl shapeCasts_S1x2x256_S2x256,
    unary main_v824 main_v829 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v829 main_v830 rfl shapeCasts_S1x256x256_S256x256,
    binary main_v822 main_v830 main_v831 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v826 main_v832 ((extractStridedSlice S1x256 ![0, 0] · slices_S2x256_S1x256_0_0) : (⟨S2x256, .f32⟩ : BufTy).Contents (Elt F) → (⟨S1x256, .f32⟩ : BufTy).Contents (Elt F)),
    reshape main_v832 main_v833 rfl shapeCasts_S1x256_S256,
    unary main_v833 main_v834 (broadcastInDim S1x256 ![1] bcast_S256_S1x256_1 : (⟨S256, .f32⟩ : BufTy).Contents (Elt F) → (⟨S1x256, .f32⟩ : BufTy).Contents (Elt F)),
    unary main_v834 main_v835 (broadcastInDim S4096x256 ![0, 1] bcast_S1x256_S4096x256_0_1 : (⟨S1x256, .f32⟩ : BufTy).Contents (Elt F) → (⟨S4096x256, .f32⟩ : BufTy).Contents (Elt F)),
    binary main_v831 main_v835 main_v836 (addf : (⟨S4096x256, .f32⟩ : BufTy).Contents (Elt F) → (⟨S4096x256, .f32⟩ : BufTy).Contents (Elt F) → (⟨S4096x256, .f32⟩ : BufTy).Contents (Elt F)),
    nullary main_cst_82 (constant S_ .f32 0x00000000#32),
    binary main_v836 main_cst_82 main_v837 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_83 (constant S_ .f32 0x45800000#32),
    unary main_cst_83 main_v838 (broadcastInDim S256 ![] bcast_S_S256 : (⟨S_, .f32⟩ : BufTy).Contents (Elt F) → (⟨S256, .f32⟩ : BufTy).Contents (Elt F)),
    binary main_v837 main_v838 main_v839 (Host.divf : (⟨S256, .f32⟩ : BufTy).Contents (Elt F) → (⟨S256, .f32⟩ : BufTy).Contents (Elt F) → (⟨S256, .f32⟩ : BufTy).Contents (Elt F)),
    nullary main_c_84 (constantI S_ 32 0#32),
    TRef.nullary main_call42.cst (constant S_ .f32 0x00000000#32),
    TRef.binary (.of main_v836 : TRef sig ⟨S4096x256, .f32⟩) main_call42.cst main_call42.v0 (fun x v => Host.reduceAdd x v reducesTo_S4096x256_S256_d0 h_S_),
    TRef.unary main_call42.v0 main_call42.v1 (broadcastInDim S1x256 ![1] bcast_S256_S1x256_1),
    TRef.nullary main_call42.cst_0 (constant S_ .f32 0x45800000#32),
    TRef.unary main_call42.cst_0 main_call42.v2 (broadcastInDim S1x256 ![] bcast_S_S1x256),
    TRef.binary main_call42.v1 main_call42.v2 main_call42.v3 Host.divf,
    TRef.unary main_call42.v3 main_call42.v4 (broadcastInDim S4096x256 ![0, 1] bcast_S1x256_S4096x256_0_1),
    TRef.binary (.of main_v836 : TRef sig ⟨S4096x256, .f32⟩) main_call42.v4 main_call42.v5 subf,
    TRef.binary main_call42.v5 main_call42.v5 main_call42.v6 mulf,
    TRef.unary (.of main_c_84 : TRef sig ⟨S_, .i32⟩) main_call42.v7 (sitofp .f32),
    TRef.nullary main_call42.cst_1 (constant S_ .f32 0x45800000#32),
    TRef.binary main_call42.cst_1 main_call42.v7 main_call42.v8 subf,
    TRef.nullary main_call42.cst_2 (constant S_ .f32 0x00000000#32),
    TRef.binary main_call42.v6 main_call42.cst_2 main_call42.v9 (fun x v => Host.reduceAdd x v reducesTo_S4096x256_S256_d0 h_S_),
    TRef.unary main_call42.v8 main_call42.v10 (broadcastInDim S256 ![] bcast_S_S256),
    TRef.binary main_call42.v9 main_call42.v10 main_call42.v11 Host.divf,
    TRef.nullary main_call42.cst_3 (constant S_ .f32 0x00000000#32),
    TRef.binary main_call42.v8 main_call42.cst_3 main_call42.v12 (cmpf .ogt),
    TRef.nullary main_call42.cst_4 (constant S_ .f32 0x7FC00000#32),
    TRef.unary main_call42.cst_4 main_call42_call0.v0 id,
    TRef.unary main_call42_call0.v0 main_call42_call0.v1 (broadcastInDim S256 ![] bcast_S_S256),
    TRef.ternary main_call42.v12 main_call42.v11 main_call42_call0.v1 main_call42_call0.v2 (fun p a b => select (broadcastInDim S256 ![] bcast_S_S256 p) a b),
    unary main_v839 main_v841 (broadcastInDim S1x256 ![1] bcast_S256_S1x256_1 : (⟨S256, .f32⟩ : BufTy).Contents (Elt F) → (⟨S1x256, .f32⟩ : BufTy).Contents (Elt F)),
    unary main_v841 main_v842 (broadcastInDim S4096x256 ![0, 1] bcast_S1x256_S4096x256_0_1 : (⟨S1x256, .f32⟩ : BufTy).Contents (Elt F) → (⟨S4096x256, .f32⟩ : BufTy).Contents (Elt F)),
    binary main_v836 main_v842 main_v843 (subf : (⟨S4096x256, .f32⟩ : BufTy).Contents (Elt F) → (⟨S4096x256, .f32⟩ : BufTy).Contents (Elt F) → (⟨S4096x256, .f32⟩ : BufTy).Contents (Elt F)),
    nullary main_cst_85 (constant S_ .f32 0x3727C5AC#32),
    unary main_cst_85 main_v844 (broadcastInDim S256 ![] bcast_S_S256 : (⟨S_, .f32⟩ : BufTy).Contents (Elt F) → (⟨S256, .f32⟩ : BufTy).Contents (Elt F)),
    binary main_v840 main_v844 main_v845 (addf : (⟨S256, .f32⟩ : BufTy).Contents (Elt F) → (⟨S256, .f32⟩ : BufTy).Contents (Elt F) → (⟨S256, .f32⟩ : BufTy).Contents (Elt F)),
    unary main_v845 main_v846 (Host.rsqrt : (⟨S256, .f32⟩ : BufTy).Contents (Elt F) → (⟨S256, .f32⟩ : BufTy).Contents (Elt F)),
    unary main_v846 main_v847 (broadcastInDim S1x256 ![1] bcast_S256_S1x256_1 : (⟨S256, .f32⟩ : BufTy).Contents (Elt F) → (⟨S1x256, .f32⟩ : BufTy).Contents (Elt F)),
    unary main_v847 main_v848 (broadcastInDim S4096x256 ![0, 1] bcast_S1x256_S4096x256_0_1 : (⟨S1x256, .f32⟩ : BufTy).Contents (Elt F) → (⟨S4096x256, .f32⟩ : BufTy).Contents (Elt F)),
    binary main_v843 main_v848 main_v849 (mulf : (⟨S4096x256, .f32⟩ : BufTy).Contents (Elt F) → (⟨S4096x256, .f32⟩ : BufTy).Contents (Elt F) → (⟨S4096x256, .f32⟩ : BufTy).Contents (Elt F)),
    unary main_v828 main_v850 ((extractStridedSlice S1x256 ![0, 0] · slices_S2x256_S1x256_0_0) : (⟨S2x256, .f32⟩ : BufTy).Contents (Elt F) → (⟨S1x256, .f32⟩ : BufTy).Contents (Elt F)),
    reshape main_v850 main_v851 rfl shapeCasts_S1x256_S256,
    unary main_v851 main_v852 (broadcastInDim S1x256 ![1] bcast_S256_S1x256_1 : (⟨S256, .f32⟩ : BufTy).Contents (Elt F) → (⟨S1x256, .f32⟩ : BufTy).Contents (Elt F)),
    unary main_v852 main_v853 (broadcastInDim S4096x256 ![0, 1] bcast_S1x256_S4096x256_0_1 : (⟨S1x256, .f32⟩ : BufTy).Contents (Elt F) → (⟨S4096x256, .f32⟩ : BufTy).Contents (Elt F)),
    binary main_v849 main_v853 main_v854 (mulf : (⟨S4096x256, .f32⟩ : BufTy).Contents (Elt F) → (⟨S4096x256, .f32⟩ : BufTy).Contents (Elt F) → (⟨S4096x256, .f32⟩ : BufTy).Contents (Elt F)),
    unary main_v828 main_v855 ((extractStridedSlice S1x256 ![1, 0] · slices_S2x256_S1x256_1_0) : (⟨S2x256, .f32⟩ : BufTy).Contents (Elt F) → (⟨S1x256, .f32⟩ : BufTy).Contents (Elt F)),
    reshape main_v855 main_v856 rfl shapeCasts_S1x256_S256,
    unary main_v856 main_v857 (broadcastInDim S1x256 ![1] bcast_S256_S1x256_1 : (⟨S256, .f32⟩ : BufTy).Contents (Elt F) → (⟨S1x256, .f32⟩ : BufTy).Contents (Elt F)),
    unary main_v857 main_v858 (broadcastInDim S4096x256 ![0, 1] bcast_S1x256_S4096x256_0_1 : (⟨S1x256, .f32⟩ : BufTy).Contents (Elt F) → (⟨S4096x256, .f32⟩ : BufTy).Contents (Elt F)),
    binary main_v854 main_v858 main_v859 (addf : (⟨S4096x256, .f32⟩ : BufTy).Contents (Elt F) → (⟨S4096x256, .f32⟩ : BufTy).Contents (Elt F) → (⟨S4096x256, .f32⟩ : BufTy).Contents (Elt F)),
    TRef.nullary main_call43.cst (constant S_ .f32 0x00000000#32),
    TRef.unary main_call43.cst main_call43.v0 (broadcastInDim S4096x256 ![] bcast_S_S4096x256),
    TRef.binary (.of main_v859 : TRef sig ⟨S4096x256, .f32⟩) main_call43.v0 main_call43.v1 maximumf,
    unary main_v824 main_v861 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v861 main_v862 rfl shapeCasts_S1x256x256_S256x256,
    binary main_v860 main_v862 main_v863 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v826 main_v864 ((extractStridedSlice S1x256 ![1, 0] · slices_S2x256_S1x256_1_0) : (⟨S2x256, .f32⟩ : BufTy).Contents (Elt F) → (⟨S1x256, .f32⟩ : BufTy).Contents (Elt F)),
    reshape main_v864 main_v865 rfl shapeCasts_S1x256_S256,
    unary main_v865 main_v866 (broadcastInDim S1x256 ![1] bcast_S256_S1x256_1 : (⟨S256, .f32⟩ : BufTy).Contents (Elt F) → (⟨S1x256, .f32⟩ : BufTy).Contents (Elt F)),
    unary main_v866 main_v867 (broadcastInDim S4096x256 ![0, 1] bcast_S1x256_S4096x256_0_1 : (⟨S1x256, .f32⟩ : BufTy).Contents (Elt F) → (⟨S4096x256, .f32⟩ : BufTy).Contents (Elt F)),
    binary main_v863 main_v867 main_v868 (addf : (⟨S4096x256, .f32⟩ : BufTy).Contents (Elt F) → (⟨S4096x256, .f32⟩ : BufTy).Contents (Elt F) → (⟨S4096x256, .f32⟩ : BufTy).Contents (Elt F)),
    binary main_v793 main_v868 main_v869 (addf : (⟨S4096x256, .f32⟩ : BufTy).Contents (Elt F) → (⟨S4096x256, .f32⟩ : BufTy).Contents (Elt F) → (⟨S4096x256, .f32⟩ : BufTy).Contents (Elt F)) ]

set_option maxRecDepth 8192 in
theorem stM_g3l1_writes : (stM_g3l1 : List (HloOp τ sig (Elt F))).Forall (WritesIn 1464 1538) := by
  unfold stM_g3l1
  exact
  ⟨writesIn_single main_v823 _ rfl (by decide) (by decide),
   writesIn_single main_v824 _ rfl (by decide) (by decide),
   writesIn_single main_v825 _ rfl (by decide) (by decide),
   writesIn_single main_v826 _ rfl (by decide) (by decide),
   writesIn_single main_v827 _ rfl (by decide) (by decide),
   writesIn_single main_v828 _ rfl (by decide) (by decide),
   writesIn_single main_v829 _ rfl (by decide) (by decide),
   writesIn_single main_v830 _ rfl (by decide) (by decide),
   writesIn_single main_v831 _ rfl (by decide) (by decide),
   writesIn_single main_v832 _ rfl (by decide) (by decide),
   writesIn_single main_v833 _ rfl (by decide) (by decide),
   writesIn_single main_v834 _ rfl (by decide) (by decide),
   writesIn_single main_v835 _ rfl (by decide) (by decide),
   writesIn_single main_v836 _ rfl (by decide) (by decide),
   writesIn_single main_cst_82 _ rfl (by decide) (by decide),
   writesIn_single main_v837 _ rfl (by decide) (by decide),
   writesIn_single main_cst_83 _ rfl (by decide) (by decide),
   writesIn_single main_v838 _ rfl (by decide) (by decide),
   writesIn_single main_v839 _ rfl (by decide) (by decide),
   writesIn_single main_c_84 _ rfl (by decide) (by decide),
   writesIn_single main_call42_cst _ rfl (by decide) (by decide),
   writesIn_single main_call42_v0 _ rfl (by decide) (by decide),
   writesIn_single main_call42_v1 _ rfl (by decide) (by decide),
   writesIn_single main_call42_cst_0 _ rfl (by decide) (by decide),
   writesIn_single main_call42_v2 _ rfl (by decide) (by decide),
   writesIn_single main_call42_v3 _ rfl (by decide) (by decide),
   writesIn_single main_call42_v4 _ rfl (by decide) (by decide),
   writesIn_single main_call42_v5 _ rfl (by decide) (by decide),
   writesIn_single main_call42_v6 _ rfl (by decide) (by decide),
   writesIn_single main_call42_v7 _ rfl (by decide) (by decide),
   writesIn_single main_call42_cst_1 _ rfl (by decide) (by decide),
   writesIn_single main_call42_v8 _ rfl (by decide) (by decide),
   writesIn_single main_call42_cst_2 _ rfl (by decide) (by decide),
   writesIn_single main_call42_v9 _ rfl (by decide) (by decide),
   writesIn_single main_call42_v10 _ rfl (by decide) (by decide),
   writesIn_single main_call42_v11 _ rfl (by decide) (by decide),
   writesIn_single main_call42_cst_3 _ rfl (by decide) (by decide),
   writesIn_single main_call42_v12 _ rfl (by decide) (by decide),
   writesIn_single main_call42_cst_4 _ rfl (by decide) (by decide),
   writesIn_single main_call42_call0_v0 _ rfl (by decide) (by decide),
   writesIn_single main_call42_call0_v1 _ rfl (by decide) (by decide),
   writesIn_single main_v840 _ rfl (by decide) (by decide),
   writesIn_single main_v841 _ rfl (by decide) (by decide),
   writesIn_single main_v842 _ rfl (by decide) (by decide),
   writesIn_single main_v843 _ rfl (by decide) (by decide),
   writesIn_single main_cst_85 _ rfl (by decide) (by decide),
   writesIn_single main_v844 _ rfl (by decide) (by decide),
   writesIn_single main_v845 _ rfl (by decide) (by decide),
   writesIn_single main_v846 _ rfl (by decide) (by decide),
   writesIn_single main_v847 _ rfl (by decide) (by decide),
   writesIn_single main_v848 _ rfl (by decide) (by decide),
   writesIn_single main_v849 _ rfl (by decide) (by decide),
   writesIn_single main_v850 _ rfl (by decide) (by decide),
   writesIn_single main_v851 _ rfl (by decide) (by decide),
   writesIn_single main_v852 _ rfl (by decide) (by decide),
   writesIn_single main_v853 _ rfl (by decide) (by decide),
   writesIn_single main_v854 _ rfl (by decide) (by decide),
   writesIn_single main_v855 _ rfl (by decide) (by decide),
   writesIn_single main_v856 _ rfl (by decide) (by decide),
   writesIn_single main_v857 _ rfl (by decide) (by decide),
   writesIn_single main_v858 _ rfl (by decide) (by decide),
   writesIn_single main_v859 _ rfl (by decide) (by decide),
   writesIn_single main_call43_cst _ rfl (by decide) (by decide),
   writesIn_single main_call43_v0 _ rfl (by decide) (by decide),
   writesIn_single main_v860 _ rfl (by decide) (by decide),
   writesIn_single main_v861 _ rfl (by decide) (by decide),
   writesIn_single main_v862 _ rfl (by decide) (by decide),
   writesIn_single main_v863 _ rfl (by decide) (by decide),
   writesIn_single main_v864 _ rfl (by decide) (by decide),
   writesIn_single main_v865 _ rfl (by decide) (by decide),
   writesIn_single main_v866 _ rfl (by decide) (by decide),
   writesIn_single main_v867 _ rfl (by decide) (by decide),
   writesIn_single main_v868 _ rfl (by decide) (by decide),
   writesIn_single main_v869 _ rfl (by decide) (by decide)⟩

/-- A buffer outside the stretch's range keeps its contents through it. -/
theorem stM_g3l1_keep (W : Valuation τ sig (Elt F)) (r : Ref sig .tc) (hr : r.idx.val < 1464 ∨ 1538 ≤ r.idx.val) :
    after stM_g3l1 W (no_index (Proc.devRef .tc r)) = W (Proc.devRef .tc r) :=
  after_keep stM_g3l1 W stM_g3l1_writes r hr

set_option maxRecDepth 8192 in
set_option maxHeartbeats 4000000 in
/-- After them the layer's output is the perceptron of the aggregate. -/
theorem mlp_g3l1 (W : Valuation τ sig (Elt F)) :
    after stM_g3l1 W (no_index (Proc.devRef .tc main_v868))
      = mlpR (W (Proc.devRef .tc main_v822)) (sliceW1 (W (Proc.devRef .tc main_arg11))) (sliceB1 (W (Proc.devRef .tc main_arg12))) (sliceB1 (W (Proc.devRef .tc main_arg13))) := by
  simp only [stM_g3l1]
  after_results_simp
  rfl

set_option maxRecDepth 8192 in
set_option maxHeartbeats 4000000 in
/-- And the accumulator is the previous sum plus the layer's output. -/
theorem acc_g3l1 (W : Valuation τ sig (Elt F)) :
    after stM_g3l1 W (no_index (Proc.devRef .tc main_v869))
      = addf (W (Proc.devRef .tc main_v793))
          (mlpR (W (Proc.devRef .tc main_v822)) (sliceW1 (W (Proc.devRef .tc main_arg11))) (sliceB1 (W (Proc.devRef .tc main_arg12))) (sliceB1 (W (Proc.devRef .tc main_arg13)))) := by
  simp only [stM_g3l1]
  after_results_simp
  rfl

end Cert.ReferenceIdeal.Hand

end
-- ==== Proof.RefValL_g3l2.lean ====
/-
  One GIN layer of the reference, read back: the layer's operations in three stretches — the embedding of the layer's
  input (46 operations), the aggregate (14), the perceptron with the accumulation (74) — and, for any contents W
  before a stretch, what the stretch leaves at the buffers later stretches read, as the stage functions of
  RefFns applied to W at the buffers the stretch reads. Every other buffer keeps what it held.
-/
import proofs.«169706_j68856915690108_1_alg».proof.Proof.Gen.ReferenceIdeal
import proofs.«169706_j68856915690108_1_alg».proof.Proof.RefLib
import proofs.«169706_j68856915690108_1_alg».proof.Proof.RefFns
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The embedding's operations: two dense layers, each followed by ELU. -/
noncomputable def stE_g3l2 : List (HloOp τ sig (Elt F)) :=
  [ unary main_arg9 main_v870 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v870 main_v871 rfl shapeCasts_S1x256x256_S256x256,
    binary main_v868 main_v871 main_v872 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v873 ((extractStridedSlice S1x256 ![0, 0] · slices_S2x256_S1x256_0_0) : (⟨S2x256, .f32⟩ : BufTy).Contents (Elt F) → (⟨S1x256, .f32⟩ : BufTy).Contents (Elt F)),
    reshape main_v873 main_v874 rfl shapeCasts_S1x256_S256,
    unary main_v874 main_v875 (broadcastInDim S1x256 ![1] bcast_S256_S1x256_1 : (⟨S256, .f32⟩ : BufTy).Contents (Elt F) → (⟨S1x256, .f32⟩ : BufTy).Contents (Elt F)),
    unary main_v875 main_v876 (broadcastInDim S4096x256 ![0, 1] bcast_S1x256_S4096x256_0_1 : (⟨S1x256, .f32⟩ : BufTy).Contents (Elt F) → (⟨S4096x256, .f32⟩ : BufTy).Contents (Elt F)),
    binary main_v872 main_v876 main_v877 (addf : (⟨S4096x256, .f32⟩ : BufTy).Contents (Elt F) → (⟨S4096x256, .f32⟩ : BufTy).Contents (Elt F) → (⟨S4096x256, .f32⟩ : BufTy).Contents (Elt F)),
    TRef.nullary main_call44.cst (constant S_ .f32 0x00000000#32),
    TRef.unary main_call44.cst main_call44.v0 (broadcastInDim S4096x256 ![] bcast_S_S4096x256),
    TRef.binary (.of main_v877 : TRef sig ⟨S4096x256, .f32⟩) main_call44.v0 main_call44.v1 (cmpf .ogt),
    TRef.nullary main_call44.cst_0 (constant S_ .f32 0x00000000#32),
    TRef.unary main_call44.cst_0 main_call44.v2 (broadcastInDim S4096x256 ![] bcast_S_S4096x256),
    TRef.binary (.of main_v877 : TRef sig ⟨S4096x256, .f32⟩) main_call44.v2 main_call44.v3 (cmpf .ogt),
    TRef.nullary main_call44.cst_1 (constant S_ .f32 0x00000000#32),
    TRef.unary main_call44.cst_1 main_call44_call0.v0 id,
    TRef.unary main_call44_call0.v0 main_call44_call0.v1 (broadcastInDim S4096x256 ![] bcast_S_S4096x256),
    TRef.ternary main_call44.v3 main_call44_call0.v1 (.of main_v877 : TRef sig ⟨S4096x256, .f32⟩) main_call44_call0.v2 select,
    TRef.unary main_call44.call0.v2 main_call44.v5 Host.expm1,
    TRef.nullary main_call44.cst_2 (constant S_ .f32 0x3F800000#32),
    TRef.unary main_call44.cst_2 main_call44.v6 (broadcastInDim S4096x256 ![] bcast_S_S4096x256),
    TRef.binary main_call44.v6 main_call44.v5 main_call44.v7 mulf,
    TRef.ternary main_call44.v1 (.of main_v877 : TRef sig ⟨S4096x256, .f32⟩) main_call44.v7 main_call44_call1.v0 select,
    unary main_arg9 main_v879 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v879 main_v880 rfl shapeCasts_S1x256x256_S256x256,
    binary main_v878 main_v880 main_v881 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg10 main_v882 ((extractStridedSlice S1x256 ![1, 0] · slices_S2x256_S1x256_1_0) : (⟨S2x256, .f32⟩ : BufTy).Contents (Elt F) → (⟨S1x256, .f32⟩ : BufTy).Contents (Elt F)),
    reshape main_v882 main_v883 rfl shapeCasts_S1x256_S256,
    unary main_v883 main_v884 (broadcastInDim S1x256 ![1] bcast_S256_S1x256_1 : (⟨S256, .f32⟩ : BufTy).Contents (Elt F) → (⟨S1x256, .f32⟩ : BufTy).Contents (Elt F)),
    unary main_v884 main_v885 (broadcastInDim S4096x256 ![0, 1] bcast_S1x256_S4096x256_0_1 : (⟨S1x256, .f32⟩ : BufTy).Contents (Elt F) → (⟨S4096x256, .f32⟩ : BufTy).Contents (Elt F)),
    binary main_v881 main_v885 main_v886 (addf : (⟨S4096x256, .f32⟩ : BufTy).Contents (Elt F) → (⟨S4096x256, .f32⟩ : BufTy).Contents (Elt F) → (⟨S4096x256, .f32⟩ : BufTy).Contents (Elt F)),
    TRef.nullary main_call45.cst (constant S_ .f32 0x00000000#32),
    TRef.unary main_call45.cst main_call45.v0 (broadcastInDim S4096x256 ![] bcast_S_S4096x256),
    TRef.binary (.of main_v886 : TRef sig ⟨S4096x256, .f32⟩) main_call45.v0 main_call45.v1 (cmpf .ogt),
    TRef.nullary main_call45.cst_0 (constant S_ .f32 0x00000000#32),
    TRef.unary main_call45.cst_0 main_call45.v2 (broadcastInDim S4096x256 ![] bcast_S_S4096x256),
    TRef.binary (.of main_v886 : TRef sig ⟨S4096x256, .f32⟩) main_call45.v2 main_call45.v3 (cmpf .ogt),
    TRef.nullary main_call45.cst_1 (constant S_ .f32 0x00000000#32),
    TRef.unary main_call45.cst_1 main_call45_call0.v0 id,
    TRef.unary main_call45_call0.v0 main_call45_call0.v1 (broadcastInDim S4096x256 ![] bcast_S_S4096x256),
    TRef.ternary main_call45.v3 main_call45_call0.v1 (.of main_v886 : TRef sig ⟨S4096x256, .f32⟩) main_call45_call0.v2 select,
    TRef.unary main_call45.call0.v2 main_call45.v5 Host.expm1,
    TRef.nullary main_call45.cst_2 (constant S_ .f32 0x3F800000#32),
    TRef.unary main_call45.cst_2 main_call45.v6 (broadcastInDim S4096x256 ![] bcast_S_S4096x256),
    TRef.binary main_call45.v6 main_call45.v5 main_call45.v7 mulf,
    TRef.ternary main_call45.v1 (.of main_v886 : TRef sig ⟨S4096x256, .f32⟩) main_call45.v7 main_call45_call1.v0 select ]

set_option maxRecDepth 8192 in
theorem stE_g3l2_writes : (stE_g3l2 : List (HloOp τ sig (Elt F))).Forall (WritesIn 1538 1584) := by
  unfold stE_g3l2
  exact
  ⟨writesIn_single main_v870 _ rfl (by decide) (by decide),
   writesIn_single main_v871 _ rfl (by decide) (by decide),
   writesIn_single main_v872 _ rfl (by decide) (by decide),
   writesIn_single main_v873 _ rfl (by decide) (by decide),
   writesIn_single main_v874 _ rfl (by decide) (by decide),
   writesIn_single main_v875 _ rfl (by decide) (by decide),
   writesIn_single main_v876 _ rfl (by decide) (by decide),
   writesIn_single main_v877 _ rfl (by decide) (by decide),
   writesIn_single main_call44_cst _ rfl (by decide) (by decide),
   writesIn_single main_call44_v0 _ rfl (by decide) (by decide),
   writesIn_single main_call44_v1 _ rfl (by decide) (by decide),
   writesIn_single main_call44_cst_0 _ rfl (by decide) (by decide),
   writesIn_single main_call44_v2 _ rfl (by decide) (by decide),
   writesIn_single main_call44_v3 _ rfl (by decide) (by decide),
   writesIn_single main_call44_cst_1 _ rfl (by decide) (by decide),
   writesIn_single main_call44_call0_v0 _ rfl (by decide) (by decide),
   writesIn_single main_call44_call0_v1 _ rfl (by decide) (by decide),
   writesIn_single main_call44_v4 _ rfl (by decide) (by decide),
   writesIn_single main_call44_v5 _ rfl (by decide) (by decide),
   writesIn_single main_call44_cst_2 _ rfl (by decide) (by decide),
   writesIn_single main_call44_v6 _ rfl (by decide) (by decide),
   writesIn_single main_call44_v7 _ rfl (by decide) (by decide),
   writesIn_single main_v878 _ rfl (by decide) (by decide),
   writesIn_single main_v879 _ rfl (by decide) (by decide),
   writesIn_single main_v880 _ rfl (by decide) (by decide),
   writesIn_single main_v881 _ rfl (by decide) (by decide),
   writesIn_single main_v882 _ rfl (by decide) (by decide),
   writesIn_single main_v883 _ rfl (by decide) (by decide),
   writesIn_single main_v884 _ rfl (by decide) (by decide),
   writesIn_single main_v885 _ rfl (by decide) (by decide),
   writesIn_single main_v886 _ rfl (by decide) (by decide),
   writesIn_single main_call45_cst _ rfl (by decide) (by decide),
   writesIn_single main_call45_v0 _ rfl (by decide) (by decide),
   writesIn_single main_call45_v1 _ rfl (by decide) (by decide),
   writesIn_single main_call45_cst_0 _ rfl (by decide) (by decide),
   writesIn_single main_call45_v2 _ rfl (by decide) (by decide),
   writesIn_single main_call45_v3 _ rfl (by decide) (by decide),
   writesIn_single main_call45_cst_1 _ rfl (by decide) (by decide),
   writesIn_single main_call45_call0_v0 _ rfl (by decide) (by decide),
   writesIn_single main_call45_call0_v1 _ rfl (by decide) (by decide),
   writesIn_single main_call45_v4 _ rfl (by decide) (by decide),
   writesIn_single main_call45_v5 _ rfl (by decide) (by decide),
   writesIn_single main_call45_cst_2 _ rfl (by decide) (by decide),
   writesIn_single main_call45_v6 _ rfl (by decide) (by decide),
   writesIn_single main_call45_v7 _ rfl (by decide) (by decide),
   writesIn_single main_v887 _ rfl (by decide) (by decide)⟩

/-- A buffer outside the stretch's range keeps its contents through it. -/
theorem stE_g3l2_keep (W : Valuation τ sig (Elt F)) (r : Ref sig .tc) (hr : r.idx.val < 1538 ∨ 1584 ≤ r.idx.val) :
    after stE_g3l2 W (no_index (Proc.devRef .tc r)) = W (Proc.devRef .tc r) :=
  after_keep stE_g3l2 W stE_g3l2_writes r hr

set_option maxRecDepth 8192 in
set_option maxHeartbeats 4000000 in
/-- After them the hidden features are the embedding of the layer's input. -/
theorem embed_g3l2 (W : Valuation τ sig (Elt F)) :
    after stE_g3l2 W (no_index (Proc.devRef .tc main_v887))
      = embedR (W (Proc.devRef .tc main_v868)) (W (Proc.devRef .tc main_arg9)) (W (Proc.devRef .tc main_arg10)) := by
  simp only [stE_g3l2]
  after_results_simp
  rfl

/-- The aggregate's operations: the Gram matrix, its mean, the mask, plus the identity, times the input. -/
noncomputable def stA_g3l2 : List (HloOp τ sig (Elt F)) :=
  [ unary main_v887 main_v888 ((transpose S256x4096 [1, 0] · transposes_S4096x256_S256x4096_1_0) : (⟨S4096x256, .f32⟩ : BufTy).Contents (Elt F) → (⟨S256x4096, .f32⟩ : BufTy).Contents (Elt F)),
    binary main_v887 main_v888 main_v889 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_86 (constant S_ .f32 0x00000000#32),
    binary main_v889 main_cst_86 main_v890 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_87 (constant S_ .f32 0x4B800000#32),
    binary main_v890 main_cst_87 main_v891 (Host.divf : (⟨S_, .f32⟩ : BufTy).Contents (Elt F) → (⟨S_, .f32⟩ : BufTy).Contents (Elt F) → (⟨S_, .f32⟩ : BufTy).Contents (Elt F)),
    unary main_v891 main_v892 (broadcastInDim S4096x4096 ![] bcast_S_S4096x4096 : (⟨S_, .f32⟩ : BufTy).Contents (Elt F) → (⟨S4096x4096, .f32⟩ : BufTy).Contents (Elt F)),
    binary main_v889 main_v892 main_v893 (cmpf .ogt : (⟨S4096x4096, .f32⟩ : BufTy).Contents (Elt F) → (⟨S4096x4096, .f32⟩ : BufTy).Contents (Elt F) → (⟨S4096x4096, .i1⟩ : BufTy).Contents (Elt F)),
    unary main_v893 main_v894 (uitofp .f32 : (⟨S4096x4096, .i1⟩ : BufTy).Contents (Elt F) → (⟨S4096x4096, .f32⟩ : BufTy).Contents (Elt F)),
    nullary main_cst_88 (constant S_ .f32 0x3F800000#32),
    unary main_cst_88 main_v895 (broadcastInDim S4096x4096 ![] bcast_S_S4096x4096 : (⟨S_, .f32⟩ : BufTy).Contents (Elt F) → (⟨S4096x4096, .f32⟩ : BufTy).Contents (Elt F)),
    binary main_v895 main_v716 main_v896 (mulf : (⟨S4096x4096, .f32⟩ : BufTy).Contents (Elt F) → (⟨S4096x4096, .f32⟩ : BufTy).Contents (Elt F) → (⟨S4096x4096, .f32⟩ : BufTy).Contents (Elt F)),
    binary main_v894 main_v896 main_v897 (addf : (⟨S4096x4096, .f32⟩ : BufTy).Contents (Elt F) → (⟨S4096x4096, .f32⟩ : BufTy).Contents (Elt F) → (⟨S4096x4096, .f32⟩ : BufTy).Contents (Elt F)),
    binary main_v897 main_v868 main_v898 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]

set_option maxRecDepth 8192 in
theorem stA_g3l2_writes : (stA_g3l2 : List (HloOp τ sig (Elt F))).Forall (WritesIn 1584 1598) := by
  unfold stA_g3l2
  exact
  ⟨writesIn_single main_v888 _ rfl (by decide) (by decide),
   writesIn_single main_v889 _ rfl (by decide) (by decide),
   writesIn_single main_cst_86 _ rfl (by decide) (by decide),
   writesIn_single main_v890 _ rfl (by decide) (by decide),
   writesIn_single main_cst_87 _ rfl (by decide) (by decide),
   writesIn_single main_v891 _ rfl (by decide) (by decide),
   writesIn_single main_v892 _ rfl (by decide) (by decide),
   writesIn_single main_v893 _ rfl (by decide) (by decide),
   writesIn_single main_v894 _ rfl (by decide) (by decide),
   writesIn_single main_cst_88 _ rfl (by decide) (by decide),
   writesIn_single main_v895 _ rfl (by decide) (by decide),
   writesIn_single main_v896 _ rfl (by decide) (by decide),
   writesIn_single main_v897 _ rfl (by decide) (by decide),
   writesIn_single main_v898 _ rfl (by decide) (by decide)⟩

/-- A buffer outside the stretch's range keeps its contents through it. -/
theorem stA_g3l2_keep (W : Valuation τ sig (Elt F)) (r : Ref sig .tc) (hr : r.idx.val < 1584 ∨ 1598 ≤ r.idx.val) :
    after stA_g3l2 W (no_index (Proc.devRef .tc r)) = W (Proc.devRef .tc r) :=
  after_keep stA_g3l2 W stA_g3l2_writes r hr

set_option maxRecDepth 8192 in
set_option maxHeartbeats 4000000 in
/-- After them: the aggregate of the hidden features and the layer's input over the identity matrix's buffer. -/
theorem agg_g3l2 (W : Valuation τ sig (Elt F)) :
    after stA_g3l2 W (no_index (Proc.devRef .tc main_v898))
      = aggF (W (Proc.devRef .tc main_v716)) (W (Proc.devRef .tc main_v887)) (W (Proc.devRef .tc main_v868)) := by
  simp only [stA_g3l2]
  after_results_simp
  rfl

/-- The perceptron's operations (the layer's slices of the stacked parameters first) and the accumulation. -/
noncomputable def stM_g3l2 : List (HloOp τ sig (Elt F)) :=
  [ unary main_arg11 main_v899 ((extractStridedSlice S1x2x256x256 ![2, 0, 0, 0] · slices_S3x2x256x256_S1x2x256x256_2_0_0_0) : (⟨S3x2x256x256, .f32⟩ : BufTy).Contents (Elt F) → (⟨S1x2x256x256, .f32⟩ : BufTy).Contents (Elt F)),
    reshape main_v899 main_v900 rfl shapeCasts_S1x2x256x256_S2x256x256,
    unary main_arg12 main_v901 ((extractStridedSlice S1x2x256 ![2, 0, 0] · slices_S3x2x256_S1x2x256_2_0_0) : (⟨S3x2x256, .f32⟩ : BufTy).Contents (Elt F) → (⟨S1x2x256, .f32⟩ : BufTy).Contents (Elt F)),
    reshape main_v901 main_v902 rfl shapeCasts_S1x2x256_S2x256,
    unary main_arg13 main_v903 ((extractStridedSlice S1x2x256 ![2, 0, 0] · slices_S3x2x256_S1x2x256_2_0_0) : (⟨S3x2x256, .f32⟩ : BufTy).Contents (Elt F) → (⟨S1x2x256, .f32⟩ : BufTy).Contents (Elt F)),
    reshape main_v903 main_v904 rfl shapeCasts_S1x2x256_S2x256,
    unary main_v900 main_v905 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v905 main_v906 rfl shapeCasts_S1x256x256_S256x256,
    binary main_v898 main_v906 main_v907 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v902 main_v908 ((extractStridedSlice S1x256 ![0, 0] · slices_S2x256_S1x256_0_0) : (⟨S2x256, .f32⟩ : BufTy).Contents (Elt F) → (⟨S1x256, .f32⟩ : BufTy).Contents (Elt F)),
    reshape main_v908 main_v909 rfl shapeCasts_S1x256_S256,
    unary main_v909 main_v910 (broadcastInDim S1x256 ![1] bcast_S256_S1x256_1 : (⟨S256, .f32⟩ : BufTy).Contents (Elt F) → (⟨S1x256, .f32⟩ : BufTy).Contents (Elt F)),
    unary main_v910 main_v911 (broadcastInDim S4096x256 ![0, 1] bcast_S1x256_S4096x256_0_1 : (⟨S1x256, .f32⟩ : BufTy).Contents (Elt F) → (⟨S4096x256, .f32⟩ : BufTy).Contents (Elt F)),
    binary main_v907 main_v911 main_v912 (addf : (⟨S4096x256, .f32⟩ : BufTy).Contents (Elt F) → (⟨S4096x256, .f32⟩ : BufTy).Contents (Elt F) → (⟨S4096x256, .f32⟩ : BufTy).Contents (Elt F)),
    nullary main_cst_89 (constant S_ .f32 0x00000000#32),
    binary main_v912 main_cst_89 main_v913 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_90 (constant S_ .f32 0x45800000#32),
    unary main_cst_90 main_v914 (broadcastInDim S256 ![] bcast_S_S256 : (⟨S_, .f32⟩ : BufTy).Contents (Elt F) → (⟨S256, .f32⟩ : BufTy).Contents (Elt F)),
    binary main_v913 main_v914 main_v915 (Host.divf : (⟨S256, .f32⟩ : BufTy).Contents (Elt F) → (⟨S256, .f32⟩ : BufTy).Contents (Elt F) → (⟨S256, .f32⟩ : BufTy).Contents (Elt F)),
    nullary main_c_91 (constantI S_ 32 0#32),
    TRef.nullary main_call46.cst (constant S_ .f32 0x00000000#32),
    TRef.binary (.of main_v912 : TRef sig ⟨S4096x256, .f32⟩) main_call46.cst main_call46.v0 (fun x v => Host.reduceAdd x v reducesTo_S4096x256_S256_d0 h_S_),
    TRef.unary main_call46.v0 main_call46.v1 (broadcastInDim S1x256 ![1] bcast_S256_S1x256_1),
    TRef.nullary main_call46.cst_0 (constant S_ .f32 0x45800000#32),
    TRef.unary main_call46.cst_0 main_call46.v2 (broadcastInDim S1x256 ![] bcast_S_S1x256),
    TRef.binary main_call46.v1 main_call46.v2 main_call46.v3 Host.divf,
    TRef.unary main_call46.v3 main_call46.v4 (broadcastInDim S4096x256 ![0, 1] bcast_S1x256_S4096x256_0_1),
    TRef.binary (.of main_v912 : TRef sig ⟨S4096x256, .f32⟩) main_call46.v4 main_call46.v5 subf,
    TRef.binary main_call46.v5 main_call46.v5 main_call46.v6 mulf,
    TRef.unary (.of main_c_91 : TRef sig ⟨S_, .i32⟩) main_call46.v7 (sitofp .f32),
    TRef.nullary main_call46.cst_1 (constant S_ .f32 0x45800000#32),
    TRef.binary main_call46.cst_1 main_call46.v7 main_call46.v8 subf,
    TRef.nullary main_call46.cst_2 (constant S_ .f32 0x00000000#32),
    TRef.binary main_call46.v6 main_call46.cst_2 main_call46.v9 (fun x v => Host.reduceAdd x v reducesTo_S4096x256_S256_d0 h_S_),
    TRef.unary main_call46.v8 main_call46.v10 (broadcastInDim S256 ![] bcast_S_S256),
    TRef.binary main_call46.v9 main_call46.v10 main_call46.v11 Host.divf,
    TRef.nullary main_call46.cst_3 (constant S_ .f32 0x00000000#32),
    TRef.binary main_call46.v8 main_call46.cst_3 main_call46.v12 (cmpf .ogt),
    TRef.nullary main_call46.cst_4 (constant S_ .f32 0x7FC00000#32),
    TRef.unary main_call46.cst_4 main_call46_call0.v0 id,
    TRef.unary main_call46_call0.v0 main_call46_call0.v1 (broadcastInDim S256 ![] bcast_S_S256),
    TRef.ternary main_call46.v12 main_call46.v11 main_call46_call0.v1 main_call46_call0.v2 (fun p a b => select (broadcastInDim S256 ![] bcast_S_S256 p) a b),
    unary main_v915 main_v917 (broadcastInDim S1x256 ![1] bcast_S256_S1x256_1 : (⟨S256, .f32⟩ : BufTy).Contents (Elt F) → (⟨S1x256, .f32⟩ : BufTy).Contents (Elt F)),
    unary main_v917 main_v918 (broadcastInDim S4096x256 ![0, 1] bcast_S1x256_S4096x256_0_1 : (⟨S1x256, .f32⟩ : BufTy).Contents (Elt F) → (⟨S4096x256, .f32⟩ : BufTy).Contents (Elt F)),
    binary main_v912 main_v918 main_v919 (subf : (⟨S4096x256, .f32⟩ : BufTy).Contents (Elt F) → (⟨S4096x256, .f32⟩ : BufTy).Contents (Elt F) → (⟨S4096x256, .f32⟩ : BufTy).Contents (Elt F)),
    nullary main_cst_92 (constant S_ .f32 0x3727C5AC#32),
    unary main_cst_92 main_v920 (broadcastInDim S256 ![] bcast_S_S256 : (⟨S_, .f32⟩ : BufTy).Contents (Elt F) → (⟨S256, .f32⟩ : BufTy).Contents (Elt F)),
    binary main_v916 main_v920 main_v921 (addf : (⟨S256, .f32⟩ : BufTy).Contents (Elt F) → (⟨S256, .f32⟩ : BufTy).Contents (Elt F) → (⟨S256, .f32⟩ : BufTy).Contents (Elt F)),
    unary main_v921 main_v922 (Host.rsqrt : (⟨S256, .f32⟩ : BufTy).Contents (Elt F) → (⟨S256, .f32⟩ : BufTy).Contents (Elt F)),
    unary main_v922 main_v923 (broadcastInDim S1x256 ![1] bcast_S256_S1x256_1 : (⟨S256, .f32⟩ : BufTy).Contents (Elt F) → (⟨S1x256, .f32⟩ : BufTy).Contents (Elt F)),
    unary main_v923 main_v924 (broadcastInDim S4096x256 ![0, 1] bcast_S1x256_S4096x256_0_1 : (⟨S1x256, .f32⟩ : BufTy).Contents (Elt F) → (⟨S4096x256, .f32⟩ : BufTy).Contents (Elt F)),
    binary main_v919 main_v924 main_v925 (mulf : (⟨S4096x256, .f32⟩ : BufTy).Contents (Elt F) → (⟨S4096x256, .f32⟩ : BufTy).Contents (Elt F) → (⟨S4096x256, .f32⟩ : BufTy).Contents (Elt F)),
    unary main_v904 main_v926 ((extractStridedSlice S1x256 ![0, 0] · slices_S2x256_S1x256_0_0) : (⟨S2x256, .f32⟩ : BufTy).Contents (Elt F) → (⟨S1x256, .f32⟩ : BufTy).Contents (Elt F)),
    reshape main_v926 main_v927 rfl shapeCasts_S1x256_S256,
    unary main_v927 main_v928 (broadcastInDim S1x256 ![1] bcast_S256_S1x256_1 : (⟨S256, .f32⟩ : BufTy).Contents (Elt F) → (⟨S1x256, .f32⟩ : BufTy).Contents (Elt F)),
    unary main_v928 main_v929 (broadcastInDim S4096x256 ![0, 1] bcast_S1x256_S4096x256_0_1 : (⟨S1x256, .f32⟩ : BufTy).Contents (Elt F) → (⟨S4096x256, .f32⟩ : BufTy).Contents (Elt F)),
    binary main_v925 main_v929 main_v930 (mulf : (⟨S4096x256, .f32⟩ : BufTy).Contents (Elt F) → (⟨S4096x256, .f32⟩ : BufTy).Contents (Elt F) → (⟨S4096x256, .f32⟩ : BufTy).Contents (Elt F)),
    unary main_v904 main_v931 ((extractStridedSlice S1x256 ![1, 0] · slices_S2x256_S1x256_1_0) : (⟨S2x256, .f32⟩ : BufTy).Contents (Elt F) → (⟨S1x256, .f32⟩ : BufTy).Contents (Elt F)),
    reshape main_v931 main_v932 rfl shapeCasts_S1x256_S256,
    unary main_v932 main_v933 (broadcastInDim S1x256 ![1] bcast_S256_S1x256_1 : (⟨S256, .f32⟩ : BufTy).Contents (Elt F) → (⟨S1x256, .f32⟩ : BufTy).Contents (Elt F)),
    unary main_v933 main_v934 (broadcastInDim S4096x256 ![0, 1] bcast_S1x256_S4096x256_0_1 : (⟨S1x256, .f32⟩ : BufTy).Contents (Elt F) → (⟨S4096x256, .f32⟩ : BufTy).Contents (Elt F)),
    binary main_v930 main_v934 main_v935 (addf : (⟨S4096x256, .f32⟩ : BufTy).Contents (Elt F) → (⟨S4096x256, .f32⟩ : BufTy).Contents (Elt F) → (⟨S4096x256, .f32⟩ : BufTy).Contents (Elt F)),
    TRef.nullary main_call47.cst (constant S_ .f32 0x00000000#32),
    TRef.unary main_call47.cst main_call47.v0 (broadcastInDim S4096x256 ![] bcast_S_S4096x256),
    TRef.binary (.of main_v935 : TRef sig ⟨S4096x256, .f32⟩) main_call47.v0 main_call47.v1 maximumf,
    unary main_v900 main_v937 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v937 main_v938 rfl shapeCasts_S1x256x256_S256x256,
    binary main_v936 main_v938 main_v939 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_v902 main_v940 ((extractStridedSlice S1x256 ![1, 0] · slices_S2x256_S1x256_1_0) : (⟨S2x256, .f32⟩ : BufTy).Contents (Elt F) → (⟨S1x256, .f32⟩ : BufTy).Contents (Elt F)),
    reshape main_v940 main_v941 rfl shapeCasts_S1x256_S256,
    unary main_v941 main_v942 (broadcastInDim S1x256 ![1] bcast_S256_S1x256_1 : (⟨S256, .f32⟩ : BufTy).Contents (Elt F) → (⟨S1x256, .f32⟩ : BufTy).Contents (Elt F)),
    unary main_v942 main_v943 (broadcastInDim S4096x256 ![0, 1] bcast_S1x256_S4096x256_0_1 : (⟨S1x256, .f32⟩ : BufTy).Contents (Elt F) → (⟨S4096x256, .f32⟩ : BufTy).Contents (Elt F)),
    binary main_v939 main_v943 main_v944 (addf : (⟨S4096x256, .f32⟩ : BufTy).Contents (Elt F) → (⟨S4096x256, .f32⟩ : BufTy).Contents (Elt F) → (⟨S4096x256, .f32⟩ : BufTy).Contents (Elt F)),
    binary main_v869 main_v944 main_v945 (addf : (⟨S4096x256, .f32⟩ : BufTy).Contents (Elt F) → (⟨S4096x256, .f32⟩ : BufTy).Contents (Elt F) → (⟨S4096x256, .f32⟩ : BufTy).Contents (Elt F)) ]

set_option maxRecDepth 8192 in
theorem stM_g3l2_writes : (stM_g3l2 : List (HloOp τ sig (Elt F))).Forall (WritesIn 1598 1672) := by
  unfold stM_g3l2
  exact
  ⟨writesIn_single main_v899 _ rfl (by decide) (by decide),
   writesIn_single main_v900 _ rfl (by decide) (by decide),
   writesIn_single main_v901 _ rfl (by decide) (by decide),
   writesIn_single main_v902 _ rfl (by decide) (by decide),
   writesIn_single main_v903 _ rfl (by decide) (by decide),
   writesIn_single main_v904 _ rfl (by decide) (by decide),
   writesIn_single main_v905 _ rfl (by decide) (by decide),
   writesIn_single main_v906 _ rfl (by decide) (by decide),
   writesIn_single main_v907 _ rfl (by decide) (by decide),
   writesIn_single main_v908 _ rfl (by decide) (by decide),
   writesIn_single main_v909 _ rfl (by decide) (by decide),
   writesIn_single main_v910 _ rfl (by decide) (by decide),
   writesIn_single main_v911 _ rfl (by decide) (by decide),
   writesIn_single main_v912 _ rfl (by decide) (by decide),
   writesIn_single main_cst_89 _ rfl (by decide) (by decide),
   writesIn_single main_v913 _ rfl (by decide) (by decide),
   writesIn_single main_cst_90 _ rfl (by decide) (by decide),
   writesIn_single main_v914 _ rfl (by decide) (by decide),
   writesIn_single main_v915 _ rfl (by decide) (by decide),
   writesIn_single main_c_91 _ rfl (by decide) (by decide),
   writesIn_single main_call46_cst _ rfl (by decide) (by decide),
   writesIn_single main_call46_v0 _ rfl (by decide) (by decide),
   writesIn_single main_call46_v1 _ rfl (by decide) (by decide),
   writesIn_single main_call46_cst_0 _ rfl (by decide) (by decide),
   writesIn_single main_call46_v2 _ rfl (by decide) (by decide),
   writesIn_single main_call46_v3 _ rfl (by decide) (by decide),
   writesIn_single main_call46_v4 _ rfl (by decide) (by decide),
   writesIn_single main_call46_v5 _ rfl (by decide) (by decide),
   writesIn_single main_call46_v6 _ rfl (by decide) (by decide),
   writesIn_single main_call46_v7 _ rfl (by decide) (by decide),
   writesIn_single main_call46_cst_1 _ rfl (by decide) (by decide),
   writesIn_single main_call46_v8 _ rfl (by decide) (by decide),
   writesIn_single main_call46_cst_2 _ rfl (by decide) (by decide),
   writesIn_single main_call46_v9 _ rfl (by decide) (by decide),
   writesIn_single main_call46_v10 _ rfl (by decide) (by decide),
   writesIn_single main_call46_v11 _ rfl (by decide) (by decide),
   writesIn_single main_call46_cst_3 _ rfl (by decide) (by decide),
   writesIn_single main_call46_v12 _ rfl (by decide) (by decide),
   writesIn_single main_call46_cst_4 _ rfl (by decide) (by decide),
   writesIn_single main_call46_call0_v0 _ rfl (by decide) (by decide),
   writesIn_single main_call46_call0_v1 _ rfl (by decide) (by decide),
   writesIn_single main_v916 _ rfl (by decide) (by decide),
   writesIn_single main_v917 _ rfl (by decide) (by decide),
   writesIn_single main_v918 _ rfl (by decide) (by decide),
   writesIn_single main_v919 _ rfl (by decide) (by decide),
   writesIn_single main_cst_92 _ rfl (by decide) (by decide),
   writesIn_single main_v920 _ rfl (by decide) (by decide),
   writesIn_single main_v921 _ rfl (by decide) (by decide),
   writesIn_single main_v922 _ rfl (by decide) (by decide),
   writesIn_single main_v923 _ rfl (by decide) (by decide),
   writesIn_single main_v924 _ rfl (by decide) (by decide),
   writesIn_single main_v925 _ rfl (by decide) (by decide),
   writesIn_single main_v926 _ rfl (by decide) (by decide),
   writesIn_single main_v927 _ rfl (by decide) (by decide),
   writesIn_single main_v928 _ rfl (by decide) (by decide),
   writesIn_single main_v929 _ rfl (by decide) (by decide),
   writesIn_single main_v930 _ rfl (by decide) (by decide),
   writesIn_single main_v931 _ rfl (by decide) (by decide),
   writesIn_single main_v932 _ rfl (by decide) (by decide),
   writesIn_single main_v933 _ rfl (by decide) (by decide),
   writesIn_single main_v934 _ rfl (by decide) (by decide),
   writesIn_single main_v935 _ rfl (by decide) (by decide),
   writesIn_single main_call47_cst _ rfl (by decide) (by decide),
   writesIn_single main_call47_v0 _ rfl (by decide) (by decide),
   writesIn_single main_v936 _ rfl (by decide) (by decide),
   writesIn_single main_v937 _ rfl (by decide) (by decide),
   writesIn_single main_v938 _ rfl (by decide) (by decide),
   writesIn_single main_v939 _ rfl (by decide) (by decide),
   writesIn_single main_v940 _ rfl (by decide) (by decide),
   writesIn_single main_v941 _ rfl (by decide) (by decide),
   writesIn_single main_v942 _ rfl (by decide) (by decide),
   writesIn_single main_v943 _ rfl (by decide) (by decide),
   writesIn_single main_v944 _ rfl (by decide) (by decide),
   writesIn_single main_v945 _ rfl (by decide) (by decide)⟩

/-- A buffer outside the stretch's range keeps its contents through it. -/
theorem stM_g3l2_keep (W : Valuation τ sig (Elt F)) (r : Ref sig .tc) (hr : r.idx.val < 1598 ∨ 1672 ≤ r.idx.val) :
    after stM_g3l2 W (no_index (Proc.devRef .tc r)) = W (Proc.devRef .tc r) :=
  after_keep stM_g3l2 W stM_g3l2_writes r hr

set_option maxRecDepth 8192 in
set_option maxHeartbeats 4000000 in
/-- After them the layer's output is the perceptron of the aggregate. -/
theorem mlp_g3l2 (W : Valuation τ sig (Elt F)) :
    after stM_g3l2 W (no_index (Proc.devRef .tc main_v944))
      = mlpR (W (Proc.devRef .tc main_v898)) (sliceW2 (W (Proc.devRef .tc main_arg11))) (sliceB2 (W (Proc.devRef .tc main_arg12))) (sliceB2 (W (Proc.devRef .tc main_arg13))) := by
  simp only [stM_g3l2]
  after_results_simp
  rfl

set_option maxRecDepth 8192 in
set_option maxHeartbeats 4000000 in
/-- And the accumulator is the previous sum plus the layer's output. -/
theorem acc_g3l2 (W : Valuation τ sig (Elt F)) :
    after stM_g3l2 W (no_index (Proc.devRef .tc main_v945))
      = addf (W (Proc.devRef .tc main_v869))
          (mlpR (W (Proc.devRef .tc main_v898)) (sliceW2 (W (Proc.devRef .tc main_arg11))) (sliceB2 (W (Proc.devRef .tc main_arg12))) (sliceB2 (W (Proc.devRef .tc main_arg13)))) := by
  simp only [stM_g3l2]
  after_results_simp
  rfl

end Cert.ReferenceIdeal.Hand

end
-- ==== Proof.RefValG_g3.lean ====
/-
  One GIN branch of the reference, read back: the branch's 414 operations are the prelude (the identity matrix and
  the zero accumulator, 9 operations), three layers (RefValL, 134 each) and the division of the accumulated sum by
  three (3). For any contents W before the branch, what it leaves at its result buffer is the branch function of
  RefFns applied to W at the branch's argument buffers; every buffer outside its range keeps what it held.
-/
import proofs.«169706_j68856915690108_1_alg».proof.Proof.Gen.ReferenceIdeal
import proofs.«169706_j68856915690108_1_alg».proof.Proof.RefLib
import proofs.«169706_j68856915690108_1_alg».proof.Proof.RefFns
import proofs.«169706_j68856915690108_1_alg».proof.Proof.RefValL_g3l0
import proofs.«169706_j68856915690108_1_alg».proof.Proof.RefValL_g3l1
import proofs.«169706_j68856915690108_1_alg».proof.Proof.RefValL_g3l2
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The prelude's operations: the identity matrix (row number against column number) and the zero accumulator. -/
noncomputable def stP_g3 : List (HloOp τ sig (Elt F)) :=
  [ nullary main_v711 (iotaInDim S4096x4096 32 0),
    nullary main_v712 (iotaInDim S4096x4096 32 1),
    nullary main_c_70 (constantI S_ 32 0#32),
    unary main_c_70 main_v713 (broadcastInDim S4096x4096 ![] bcast_S_S4096x4096 : (⟨S_, .i32⟩ : BufTy).Contents (Elt F) → (⟨S4096x4096, .i32⟩ : BufTy).Contents (Elt F)),
    binary main_v711 main_v713 main_v714 (addi : (⟨S4096x4096, .i32⟩ : BufTy).Contents (Elt F) → (⟨S4096x4096, .i32⟩ : BufTy).Contents (Elt F) → (⟨S4096x4096, .i32⟩ : BufTy).Contents (Elt F)),
    binary main_v714 main_v712 main_v715 (cmpi .eq : (⟨S4096x4096, .i32⟩ : BufTy).Contents (Elt F) → (⟨S4096x4096, .i32⟩ : BufTy).Contents (Elt F) → (⟨S4096x4096, .i1⟩ : BufTy).Contents (Elt F)),
    unary main_v715 main_v716 (uitofp .f32 : (⟨S4096x4096, .i1⟩ : BufTy).Contents (Elt F) → (⟨S4096x4096, .f32⟩ : BufTy).Contents (Elt F)),
    nullary main_cst_71 (constant S_ .f32 0x00000000#32),
    unary main_cst_71 main_v717 (broadcastInDim S4096x256 ![] bcast_S_S4096x256 : (⟨S_, .f32⟩ : BufTy).Contents (Elt F) → (⟨S4096x256, .f32⟩ : BufTy).Contents (Elt F)) ]

set_option maxRecDepth 8192 in
theorem stP_g3_writes : (stP_g3 : List (HloOp τ sig (Elt F))).Forall (WritesIn 1261 1270) := by
  unfold stP_g3
  exact
  ⟨writesIn_single main_v711 _ rfl (by decide) (by decide),
   writesIn_single main_v712 _ rfl (by decide) (by decide),
   writesIn_single main_c_70 _ rfl (by decide) (by decide),
   writesIn_single main_v713 _ rfl (by decide) (by decide),
   writesIn_single main_v714 _ rfl (by decide) (by decide),
   writesIn_single main_v715 _ rfl (by decide) (by decide),
   writesIn_single main_v716 _ rfl (by decide) (by decide),
   writesIn_single main_cst_71 _ rfl (by decide) (by decide),
   writesIn_single main_v717 _ rfl (by decide) (by decide)⟩

/-- A buffer outside the stretch's range keeps its contents through it. -/
theorem stP_g3_keep (W : Valuation τ sig (Elt F)) (r : Ref sig .tc) (hr : r.idx.val < 1261 ∨ 1270 ≤ r.idx.val) :
    after stP_g3 W (no_index (Proc.devRef .tc r)) = W (Proc.devRef .tc r) :=
  after_keep stP_g3 W stP_g3_writes r hr

/-- After the prelude the identity matrix's buffer holds the identity matrix. -/
theorem eye_g3 (W : Valuation τ sig (Elt F)) : after stP_g3 W (no_index (Proc.devRef .tc main_v716)) = eyeF := by
  simp only [stP_g3]
  after_results_simp
  rfl

/-- And the accumulator's buffer holds zeros. -/
theorem zero_g3 (W : Valuation τ sig (Elt F)) : after stP_g3 W (no_index (Proc.devRef .tc main_v717)) = fill 0x00000000#32 := by
  simp only [stP_g3]
  after_results_simp
  rfl

/-- The last operations: the accumulated sum divided by three. -/
noncomputable def stT_g3 : List (HloOp τ sig (Elt F)) :=
  [ nullary main_cst_93 (constant S_ .f32 0x40400000#32),
    unary main_cst_93 main_v946 (broadcastInDim S4096x256 ![] bcast_S_S4096x256 : (⟨S_, .f32⟩ : BufTy).Contents (Elt F) → (⟨S4096x256, .f32⟩ : BufTy).Contents (Elt F)),
    binary main_v945 main_v946 main_v947 (Host.divf : (⟨S4096x256, .f32⟩ : BufTy).Contents (Elt F) → (⟨S4096x256, .f32⟩ : BufTy).Contents (Elt F) → (⟨S4096x256, .f32⟩ : BufTy).Contents (Elt F)) ]

set_option maxRecDepth 8192 in
theorem stT_g3_writes : (stT_g3 : List (HloOp τ sig (Elt F))).Forall (WritesIn 1672 1675) := by
  unfold stT_g3
  exact
  ⟨writesIn_single main_cst_93 _ rfl (by decide) (by decide),
   writesIn_single main_v946 _ rfl (by decide) (by decide),
   writesIn_single main_v947 _ rfl (by decide) (by decide)⟩

/-- A buffer outside the stretch's range keeps its contents through it. -/
theorem stT_g3_keep (W : Valuation τ sig (Elt F)) (r : Ref sig .tc) (hr : r.idx.val < 1672 ∨ 1675 ≤ r.idx.val) :
    after stT_g3 W (no_index (Proc.devRef .tc r)) = W (Proc.devRef .tc r) :=
  after_keep stT_g3 W stT_g3_writes r hr

theorem third_g3 (W : Valuation τ sig (Elt F)) :
    after stT_g3 W (no_index (Proc.devRef .tc main_v947)) = thirdR (W (Proc.devRef .tc main_v945)) := by
  simp only [stT_g3]
  after_results_simp
  rfl

/-- The branch's 414 operations, in order. -/
noncomputable def opsG_g3 : List (HloOp τ sig (Elt F)) :=
  stP_g3 ++ (stE_g3l0 ++ (stA_g3l0 ++ (stM_g3l0 ++ (stE_g3l1 ++ (stA_g3l1 ++ (stM_g3l1 ++ (stE_g3l2 ++ (stA_g3l2 ++ (stM_g3l2 ++ (stT_g3))))))))))

/-- They write the branch's own range of buffers. -/
theorem opsG_g3_writes : (opsG_g3 : List (HloOp τ sig (Elt F))).Forall (WritesIn 1261 1675) := by
  unfold opsG_g3
  exact
    forall_append (forall_mono stP_g3_writes fun _ h => h.mono (by decide) (by decide)) (
    forall_append (forall_mono stE_g3l0_writes fun _ h => h.mono (by decide) (by decide)) (
    forall_append (forall_mono stA_g3l0_writes fun _ h => h.mono (by decide) (by decide)) (
    forall_append (forall_mono stM_g3l0_writes fun _ h => h.mono (by decide) (by decide)) (
    forall_append (forall_mono stE_g3l1_writes fun _ h => h.mono (by decide) (by decide)) (
    forall_append (forall_mono stA_g3l1_writes fun _ h => h.mono (by decide) (by decide)) (
    forall_append (forall_mono stM_g3l1_writes fun _ h => h.mono (by decide) (by decide)) (
    forall_append (forall_mono stE_g3l2_writes fun _ h => h.mono (by decide) (by decide)) (
    forall_append (forall_mono stA_g3l2_writes fun _ h => h.mono (by decide) (by decide)) (
    forall_append (forall_mono stM_g3l2_writes fun _ h => h.mono (by decide) (by decide)) (forall_mono stT_g3_writes fun _ h => h.mono (by decide) (by decide)))))))))))

/-- A buffer outside the branch's range keeps its contents through it. -/
theorem opsG_g3_keep (W : Valuation τ sig (Elt F)) (r : Ref sig .tc) (hr : r.idx.val < 1261 ∨ 1675 ≤ r.idx.val) :
    after opsG_g3 W (no_index (Proc.devRef .tc r)) = W (Proc.devRef .tc r) :=
  after_keep opsG_g3 W opsG_g3_writes r hr

set_option maxRecDepth 8192 in
set_option maxHeartbeats 4000000 in
/-- After the branch its result buffer holds the branch function of the argument buffers' contents. -/
theorem gin_g3 (W : Valuation τ sig (Elt F)) :
    after opsG_g3 W (no_index (Proc.devRef .tc main_v947))
      = ginF eyeF (W (Proc.devRef .tc main_arg3)) (W (Proc.devRef .tc main_arg9)) (W (Proc.devRef .tc main_arg10)) (W (Proc.devRef .tc main_arg11)) (W (Proc.devRef .tc main_arg12)) (W (Proc.devRef .tc main_arg13)) := by
  simp only [opsG_g3, StableHlo.after_append]
  simp (disch := decide) only [third_g3, eye_g3, zero_g3,
    embed_g3l0, agg_g3l0, mlp_g3l0, acc_g3l0, embed_g3l1, agg_g3l1, mlp_g3l1, acc_g3l1, embed_g3l2, agg_g3l2, mlp_g3l2, acc_g3l2,
    stP_g3_keep, stE_g3l0_keep, stA_g3l0_keep, stM_g3l0_keep, stE_g3l1_keep, stA_g3l1_keep, stM_g3l1_keep, stE_g3l2_keep, stA_g3l2_keep, stM_g3l2_keep, stT_g3_keep]
  rfl

end Cert.ReferenceIdeal.Hand

end
-- ==== Proof.RefVal.lean ====
/-
  The reference's three results, read back. The 1674 operations are the four GIN branches (RefValG: on QV, Q, V and
  A, the last with the second branch's parameters) and the three mean squared errors against the fourth branch's
  output (18 operations). So each result is the mean squared error of two branch functions of the arguments'
  launch contents, and with the run of the whole line (RefRun) every weakly fair execution ends there with the
  arguments unchanged.
-/
import proofs.«169706_j68856915690108_1_alg».proof.Proof.Gen.ReferenceIdeal
import proofs.«169706_j68856915690108_1_alg».proof.Proof.RefLib
import proofs.«169706_j68856915690108_1_alg».proof.Proof.RefFns
import proofs.«169706_j68856915690108_1_alg».proof.Proof.RefRun
import proofs.«169706_j68856915690108_1_alg».proof.Proof.RefValG_g0
import proofs.«169706_j68856915690108_1_alg».proof.Proof.RefValG_g1
import proofs.«169706_j68856915690108_1_alg».proof.Proof.RefValG_g2
import proofs.«169706_j68856915690108_1_alg».proof.Proof.RefValG_g3
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The last operations: the three mean squared errors. -/
noncomputable def stF : List (HloOp τ sig (Elt F)) :=
  [ binary main_v236 main_v947 main_v948 (subf : (⟨S4096x256, .f32⟩ : BufTy).Contents (Elt F) → (⟨S4096x256, .f32⟩ : BufTy).Contents (Elt F) → (⟨S4096x256, .f32⟩ : BufTy).Contents (Elt F)),
    binary main_v948 main_v948 main_v949 (mulf : (⟨S4096x256, .f32⟩ : BufTy).Contents (Elt F) → (⟨S4096x256, .f32⟩ : BufTy).Contents (Elt F) → (⟨S4096x256, .f32⟩ : BufTy).Contents (Elt F)),
    nullary main_cst_94 (constant S_ .f32 0x00000000#32),
    binary main_v949 main_cst_94 main_v950 ((fun x v => Host.reduceAdd x v reducesTo_S4096x256_S_d0_1 h_S_) : (⟨S4096x256, .f32⟩ : BufTy).Contents (Elt F) → (⟨S_, .f32⟩ : BufTy).Contents (Elt F) → (⟨S_, .f32⟩ : BufTy).Contents (Elt F)),
    nullary main_cst_95 (constant S_ .f32 0x49800000#32),
    binary main_v950 main_cst_95 main_v951 (Host.divf : (⟨S_, .f32⟩ : BufTy).Contents (Elt F) → (⟨S_, .f32⟩ : BufTy).Contents (Elt F) → (⟨S_, .f32⟩ : BufTy).Contents (Elt F)),
    binary main_v473 main_v947 main_v952 (subf : (⟨S4096x256, .f32⟩ : BufTy).Contents (Elt F) → (⟨S4096x256, .f32⟩ : BufTy).Contents (Elt F) → (⟨S4096x256, .f32⟩ : BufTy).Contents (Elt F)),
    binary main_v952 main_v952 main_v953 (mulf : (⟨S4096x256, .f32⟩ : BufTy).Contents (Elt F) → (⟨S4096x256, .f32⟩ : BufTy).Contents (Elt F) → (⟨S4096x256, .f32⟩ : BufTy).Contents (Elt F)),
    nullary main_cst_96 (constant S_ .f32 0x00000000#32),
    binary main_v953 main_cst_96 main_v954 ((fun x v => Host.reduceAdd x v reducesTo_S4096x256_S_d0_1 h_S_) : (⟨S4096x256, .f32⟩ : BufTy).Contents (Elt F) → (⟨S_, .f32⟩ : BufTy).Contents (Elt F) → (⟨S_, .f32⟩ : BufTy).Contents (Elt F)),
    nullary main_cst_97 (constant S_ .f32 0x49800000#32),
    binary main_v954 main_cst_97 main_v955 (Host.divf : (⟨S_, .f32⟩ : BufTy).Contents (Elt F) → (⟨S_, .f32⟩ : BufTy).Contents (Elt F) → (⟨S_, .f32⟩ : BufTy).Contents (Elt F)),
    binary main_v710 main_v947 main_v956 (subf : (⟨S4096x256, .f32⟩ : BufTy).Contents (Elt F) → (⟨S4096x256, .f32⟩ : BufTy).Contents (Elt F) → (⟨S4096x256, .f32⟩ : BufTy).Contents (Elt F)),
    binary main_v956 main_v956 main_v957 (mulf : (⟨S4096x256, .f32⟩ : BufTy).Contents (Elt F) → (⟨S4096x256, .f32⟩ : BufTy).Contents (Elt F) → (⟨S4096x256, .f32⟩ : BufTy).Contents (Elt F)),
    nullary main_cst_98 (constant S_ .f32 0x00000000#32),
    binary main_v957 main_cst_98 main_v958 ((fun x v => Host.reduceAdd x v reducesTo_S4096x256_S_d0_1 h_S_) : (⟨S4096x256, .f32⟩ : BufTy).Contents (Elt F) → (⟨S_, .f32⟩ : BufTy).Contents (Elt F) → (⟨S_, .f32⟩ : BufTy).Contents (Elt F)),
    nullary main_cst_99 (constant S_ .f32 0x49800000#32),
    binary main_v958 main_cst_99 main_v959 (Host.divf : (⟨S_, .f32⟩ : BufTy).Contents (Elt F) → (⟨S_, .f32⟩ : BufTy).Contents (Elt F) → (⟨S_, .f32⟩ : BufTy).Contents (Elt F)) ]

set_option maxRecDepth 8192 in
theorem stF_writes : (stF : List (HloOp τ sig (Elt F))).Forall (WritesIn 1675 1693) := by
  unfold stF
  exact
  ⟨writesIn_single main_v948 _ rfl (by decide) (by decide),
   writesIn_single main_v949 _ rfl (by decide) (by decide),
   writesIn_single main_cst_94 _ rfl (by decide) (by decide),
   writesIn_single main_v950 _ rfl (by decide) (by decide),
   writesIn_single main_cst_95 _ rfl (by decide) (by decide),
   writesIn_single main_v951 _ rfl (by decide) (by decide),
   writesIn_single main_v952 _ rfl (by decide) (by decide),
   writesIn_single main_v953 _ rfl (by decide) (by decide),
   writesIn_single main_cst_96 _ rfl (by decide) (by decide),
   writesIn_single main_v954 _ rfl (by decide) (by decide),
   writesIn_single main_cst_97 _ rfl (by decide) (by decide),
   writesIn_single main_v955 _ rfl (by decide) (by decide),
   writesIn_single main_v956 _ rfl (by decide) (by decide),
   writesIn_single main_v957 _ rfl (by decide) (by decide),
   writesIn_single main_cst_98 _ rfl (by decide) (by decide),
   writesIn_single main_v958 _ rfl (by decide) (by decide),
   writesIn_single main_cst_99 _ rfl (by decide) (by decide),
   writesIn_single main_v959 _ rfl (by decide) (by decide)⟩

/-- A buffer outside the stretch's range keeps its contents through it. -/
theorem stF_keep (W : Valuation τ sig (Elt F)) (r : Ref sig .tc) (hr : r.idx.val < 1675 ∨ 1693 ≤ r.idx.val) :
    after stF W (no_index (Proc.devRef .tc r)) = W (Proc.devRef .tc r) :=
  after_keep stF W stF_writes r hr

theorem mse0 (W : Valuation τ sig (Elt F)) :
    after stF W (no_index (Proc.devRef .tc main_v951)) = mseR (W (Proc.devRef .tc main_v236)) (W (Proc.devRef .tc main_v947)) := by
  simp only [stF]
  after_results_simp
  rfl

theorem mse1 (W : Valuation τ sig (Elt F)) :
    after stF W (no_index (Proc.devRef .tc main_v955)) = mseR (W (Proc.devRef .tc main_v473)) (W (Proc.devRef .tc main_v947)) := by
  simp only [stF]
  after_results_simp
  rfl

theorem mse2 (W : Valuation τ sig (Elt F)) :
    after stF W (no_index (Proc.devRef .tc main_v959)) = mseR (W (Proc.devRef .tc main_v710)) (W (Proc.devRef .tc main_v947)) := by
  simp only [stF]
  after_results_simp
  rfl

set_option maxRecDepth 100000 in
set_option maxHeartbeats 4000000 in
/-- The whole line is the four branches and the last operations, in order: the same 1674 operations, cut elsewhere. -/
theorem ops_split : (ops : List (HloOp τ sig (Elt F))) = opsG_g0 ++ (opsG_g1 ++ (opsG_g2 ++ (opsG_g3 ++ stF))) := rfl

/-- The first result as a function of the contents the line starts from: the error of the QV branch against the A branch. -/
noncomputable def res0 (V : Valuation τ sig (Elt F)) : FVec F S_ .f32 := mseR (ginF eyeF (V (Proc.devRef .tc main_arg0)) (V (Proc.devRef .tc main_arg4)) (V (Proc.devRef .tc main_arg5)) (V (Proc.devRef .tc main_arg6)) (V (Proc.devRef .tc main_arg7)) (V (Proc.devRef .tc main_arg8))) (ginF eyeF (V (Proc.devRef .tc main_arg3)) (V (Proc.devRef .tc main_arg9)) (V (Proc.devRef .tc main_arg10)) (V (Proc.devRef .tc main_arg11)) (V (Proc.devRef .tc main_arg12)) (V (Proc.devRef .tc main_arg13)))
/-- The second: the Q branch against the A branch. -/
noncomputable def res1 (V : Valuation τ sig (Elt F)) : FVec F S_ .f32 := mseR (ginF eyeF (V (Proc.devRef .tc main_arg1)) (V (Proc.devRef .tc main_arg9)) (V (Proc.devRef .tc main_arg10)) (V (Proc.devRef .tc main_arg11)) (V (Proc.devRef .tc main_arg12)) (V (Proc.devRef .tc main_arg13))) (ginF eyeF (V (Proc.devRef .tc main_arg3)) (V (Proc.devRef .tc main_arg9)) (V (Proc.devRef .tc main_arg10)) (V (Proc.devRef .tc main_arg11)) (V (Proc.devRef .tc main_arg12)) (V (Proc.devRef .tc main_arg13)))
/-- The third: the V branch against the A branch. -/
noncomputable def res2 (V : Valuation τ sig (Elt F)) : FVec F S_ .f32 := mseR (ginF eyeF (V (Proc.devRef .tc main_arg2)) (V (Proc.devRef .tc main_arg14)) (V (Proc.devRef .tc main_arg15)) (V (Proc.devRef .tc main_arg16)) (V (Proc.devRef .tc main_arg17)) (V (Proc.devRef .tc main_arg18))) (ginF eyeF (V (Proc.devRef .tc main_arg3)) (V (Proc.devRef .tc main_arg9)) (V (Proc.devRef .tc main_arg10)) (V (Proc.devRef .tc main_arg11)) (V (Proc.devRef .tc main_arg12)) (V (Proc.devRef .tc main_arg13)))

set_option maxRecDepth 8192 in
set_option maxHeartbeats 4000000 in
theorem after_v951 (V : Valuation τ sig (Elt F)) : after ops V (Proc.devRef .tc main_v951) = res0 V := by
  rw [ops_split]
  simp only [StableHlo.after_append]
  simp (disch := decide) only [mse0, gin_g0, gin_g3, opsG_g0_keep, opsG_g1_keep, opsG_g2_keep, opsG_g3_keep]
  rfl

set_option maxRecDepth 8192 in
set_option maxHeartbeats 4000000 in
theorem after_v955 (V : Valuation τ sig (Elt F)) : after ops V (Proc.devRef .tc main_v955) = res1 V := by
  rw [ops_split]
  simp only [StableHlo.after_append]
  simp (disch := decide) only [mse1, gin_g1, gin_g3, opsG_g0_keep, opsG_g1_keep, opsG_g2_keep, opsG_g3_keep]
  rfl

set_option maxRecDepth 8192 in
set_option maxHeartbeats 4000000 in
theorem after_v959 (V : Valuation τ sig (Elt F)) : after ops V (Proc.devRef .tc main_v959) = res2 V := by
  rw [ops_split]
  simp only [StableHlo.after_append]
  simp (disch := decide) only [mse2, gin_g2, gin_g3, opsG_g0_keep, opsG_g1_keep, opsG_g2_keep, opsG_g3_keep]
  rfl

/-- The reference runs: every weakly fair execution terminates with the three results at res0, res1, res2 of the
    launch contents and every argument buffer unchanged. -/
theorem run_vals (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v951) = res0 (launchContents m c)
      ∧ r.2.mem ((c.tc : Thread nD τ).loc main_v955) = res1 (launchContents m c)
      ∧ r.2.mem ((c.tc : Thread nD τ).loc main_v959) = res2 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c =>
    ⟨(h c main_v951).trans (after_v951 _), (h c main_v955).trans (after_v955 _), (h c main_v959).trans (after_v959 _),
     (h c main_arg0).trans (arg_keep _ main_arg0 (by decide)),
     (h c main_arg1).trans (arg_keep _ main_arg1 (by decide)),
     (h c main_arg2).trans (arg_keep _ main_arg2 (by decide)),
     (h c main_arg3).trans (arg_keep _ main_arg3 (by decide)),
     (h c main_arg4).trans (arg_keep _ main_arg4 (by decide)),
     (h c main_arg5).trans (arg_keep _ main_arg5 (by decide)),
     (h c main_arg6).trans (arg_keep _ main_arg6 (by decide)),
     (h c main_arg7).trans (arg_keep _ main_arg7 (by decide)),
     (h c main_arg8).trans (arg_keep _ main_arg8 (by decide)),
     (h c main_arg9).trans (arg_keep _ main_arg9 (by decide)),
     (h c main_arg10).trans (arg_keep _ main_arg10 (by decide)),
     (h c main_arg11).trans (arg_keep _ main_arg11 (by decide)),
     (h c main_arg12).trans (arg_keep _ main_arg12 (by decide)),
     (h c main_arg13).trans (arg_keep _ main_arg13 (by decide)),
     (h c main_arg14).trans (arg_keep _ main_arg14 (by decide)),
     (h c main_arg15).trans (arg_keep _ main_arg15 (by decide)),
     (h c main_arg16).trans (arg_keep _ main_arg16 (by decide)),
     (h c main_arg17).trans (arg_keep _ main_arg17 (by decide)),
     (h c main_arg18).trans (arg_keep _ main_arg18 (by decide))⟩)
    (run_all m g)

end Cert.ReferenceIdeal.Hand

end
-- ==== Proof.GinOf.lean ====
/-
  One GIN branch over ANY aggregate: the layer is perceptron ∘ aggregate(embedding, input), the branch three layers from
  the input with their outputs summed from zero and the sum divided by three. Both programs compute this with the same
  host operations and differ only in how the aggregate is computed, so the branch is stated once, with the aggregate a
  parameter; two aggregates that agree give the same branch.
-/
import proofs.«169706_j68856915690108_1_alg».proof.Proof.HostFns

noncomputable section

namespace Cert.Hand

open Idealize.ShloMosaic

variable {F : FTy → Type} [FloatOps F]

/-- One layer over the aggregate agg (hidden features, input ↦ aggregated input). -/
noncomputable def layerOf (agg : T F Sx → T F Sx → T F Sx) (X : T F Sx) (aW : T F Sw2) (ab : T F Sb2)
    (W : T F Sw2) (b bn : T F Sb2) : T F Sx :=
  mlp (agg (embed X aW ab) X) W b bn

/-- One branch over the aggregate agg: three layers, the parameters of layer i the i-th slices of the stacks. -/
noncomputable def ginOf (agg : T F Sx → T F Sx → T F Sx) (X : T F Sx) (aW : T F Sw2) (ab : T F Sb2)
    (mW : T F Sw32) (mb mbn : T F Sb32) : T F Sx :=
  third
    (addf
      (addf
        (addf (fill 0x00000000#32) (layerOf agg X aW ab (W3at0 mW) (b3at0 mb) (b3at0 mbn)))
        (layerOf agg (layerOf agg X aW ab (W3at0 mW) (b3at0 mb) (b3at0 mbn)) aW ab (W3at1 mW) (b3at1 mb) (b3at1 mbn)))
      (layerOf agg (layerOf agg (layerOf agg X aW ab (W3at0 mW) (b3at0 mb) (b3at0 mbn)) aW ab (W3at1 mW) (b3at1 mb) (b3at1 mbn))
        aW ab (W3at2 mW) (b3at2 mb) (b3at2 mbn)))

/-- Aggregates that agree everywhere give the same branch. -/
theorem ginOf_congr {agg agg' : T F Sx → T F Sx → T F Sx} (h : ∀ u X, agg u X = agg' u X) :
    ginOf agg = ginOf agg' := by
  have : agg = agg' := funext fun u => funext fun X => h u X
  rw [this]

end Cert.Hand

end
-- ==== Proof.RefFnsEq.lean ====
/-
  The reference's stage functions (RefFns) are the shared host functions (HostFns) and the aggregate of RefAgg: the
  same compositions of the same operations, stated there over literal shapes and here over the reference's shape
  names, which are those shapes; the facts the operations cite are propositions, so any two proofs of one agree.
-/
import proofs.«169706_j68856915690108_1_alg».proof.Proof.RefFns
import proofs.«169706_j68856915690108_1_alg».proof.Proof.HostFns
import proofs.«169706_j68856915690108_1_alg».proof.Proof.RefAgg
import proofs.«169706_j68856915690108_1_alg».proof.Proof.GinOf

noncomputable section

namespace Cert.ReferenceIdeal.Hand

open Idealize.ShloMosaic
open Cert.ReferenceIdeal

variable {F : FTy → Type} [FloatOps F]
variable [Facts₀]

theorem embedR_eq (X : FVec F S4096x256 .f32) (aW : FVec F S2x256x256 .f32) (ab : FVec F S2x256 .f32) :
    embedR X aW ab = Cert.Hand.embed X aW ab := rfl

theorem mlpR_eq (Y : FVec F S4096x256 .f32) (W : FVec F S2x256x256 .f32) (b bn : FVec F S2x256 .f32) :
    mlpR Y W b bn = Cert.Hand.mlp Y W b bn := rfl

theorem thirdR_eq (acc : FVec F S4096x256 .f32) : thirdR acc = Cert.Hand.third acc := rfl

theorem mseR_eq (a b : FVec F S4096x256 .f32) : mseR a b = Cert.Hand.mse a b := rfl

theorem fill_eq (w : BitVec 32) : (fill w : FVec F S4096x256 .f32) = Cert.Hand.fill w := rfl

theorem sliceW0_eq (W : FVec F S3x2x256x256 .f32) : sliceW0 W = Cert.Hand.W3at0 W := rfl
theorem sliceW1_eq (W : FVec F S3x2x256x256 .f32) : sliceW1 W = Cert.Hand.W3at1 W := rfl
theorem sliceW2_eq (W : FVec F S3x2x256x256 .f32) : sliceW2 W = Cert.Hand.W3at2 W := rfl
theorem sliceB0_eq (b : FVec F S3x2x256 .f32) : sliceB0 b = Cert.Hand.b3at0 b := rfl
theorem sliceB1_eq (b : FVec F S3x2x256 .f32) : sliceB1 b = Cert.Hand.b3at1 b := rfl
theorem sliceB2_eq (b : FVec F S3x2x256 .f32) : sliceB2 b = Cert.Hand.b3at2 b := rfl

/-- At the ideal values the aggregate over the program's identity matrix is RefAgg's. -/
theorem aggF_eye_eq (h X : FVec Ideal S4096x256 .f32) : aggF eyeF h X = aggR h X := rfl

/-- One layer at the ideal values, over the shared names. -/
theorem layerF_eq (X : FVec Ideal S4096x256 .f32) (aW : FVec Ideal S2x256x256 .f32) (ab : FVec Ideal S2x256 .f32)
    (W : FVec Ideal S2x256x256 .f32) (b bn : FVec Ideal S2x256 .f32) :
    layerF eyeF X aW ab W b bn = Cert.Hand.mlp (F := Ideal) (aggR (Cert.Hand.embed (F := Ideal) X aW ab) X) W b bn := rfl

/-- One branch at the ideal values, over the shared names: the shared branch over RefAgg's aggregate. -/
theorem ginF_eq (X : FVec Ideal S4096x256 .f32) (aW : FVec Ideal S2x256x256 .f32) (ab : FVec Ideal S2x256 .f32)
    (mW : FVec Ideal S3x2x256x256 .f32) (mb mbn : FVec Ideal S3x2x256 .f32) :
    ginF eyeF X aW ab mW mb mbn = Cert.Hand.ginOf (F := Ideal) aggR X aW ab mW mb mbn := rfl

end Cert.ReferenceIdeal.Hand

end
-- ==== Proof.Bridge.lean ====
/-
  The two programs compute the same three numbers. Both results are the mean squared error of two GIN branches of
  the arguments; a branch is the same host computation on both sides except for the aggregate, which the kernel
  computes tile by tile (the closed forms sumVal, aggVal) and the reference with whole-matrix operations (aggR); the
  two aggregates agree (aggVal_eq_aggR), hence the branches (ginOf_congr), hence the results. With the two runs
  (the kernel's with its results in closed form, the reference's from RefVal) this is the algebraic claim.
-/
import proofs.«169706_j68856915690108_1_alg».proof.Defs
import proofs.«169706_j68856915690108_1_alg».proof.Proof.Gen.KernelIdeal
import proofs.«169706_j68856915690108_1_alg».proof.Proof.Gen.ReferenceIdeal
import proofs.«169706_j68856915690108_1_alg».proof.Proof.Gen.Pre_finite_inputs
import proofs.«169706_j68856915690108_1_alg».proof.Proof.RefVal
import proofs.«169706_j68856915690108_1_alg».proof.Proof.RefFnsEq
import proofs.«169706_j68856915690108_1_alg».proof.Proof.GinOf
import proofs.«169706_j68856915690108_1_alg».proof.Proof.GinFns
import proofs.«169706_j68856915690108_1_alg».proof.Proof.AggVal

noncomputable section

namespace Cert.Proof.Bridge

open Idealize.ShloMosaic Idealize.ShloMosaic.TcCoe Idealize.SL.Sem Idealize.ShloMosaic.StableHlo
open Cert.Hand Cert.ReferenceIdeal.Hand
open Cert.KernelIdeal.Gen Cert.ReferenceIdeal.Gen Cert.Pre_finite_inputs.Gen

/-- The kernel's branch (over the tiled total and the tiled aggregate) is the shared branch over their composition. -/
theorem ginG_eq_ginOf (X : T Ideal Sx) (aW : T Ideal Sw2) (ab : T Ideal Sb2) (mW : T Ideal Sw32) (mb mbn : T Ideal Sb32) :
    ginG sumVal aggVal X aW ab mW mb mbn = ginOf (fun u Y => aggVal (meanOf (F := Ideal) (sumVal u)) u Y) X aW ab mW mb mbn := rfl

/-- The kernel's branch is the reference's. -/
theorem ginG_eq_ginF (X : T Ideal Sx) (aW : T Ideal Sw2) (ab : T Ideal Sb2) (mW : T Ideal Sw32) (mb mbn : T Ideal Sb32) :
    ginG sumVal aggVal X aW ab mW mb mbn = ginF (F := Ideal) eyeF X aW ab mW mb mbn := by
  rw [ginG_eq_ginOf, ginF_eq, ginOf_congr (fun u Y => aggVal_eq_aggR u Y)]

section
variable (m : (ℓ : Loc Cert.KernelIdeal.nD Cert.KernelIdeal.τ Cert.KernelIdeal.sig) → Buf (Elt Ideal) ℓ) (c : Dev Cert.KernelIdeal.nD)

/-- The kernel's first result in closed form: the error of the QV branch against the A branch. -/
noncomputable def kres0 : T Ideal S0 := mse (ginG sumVal aggVal ((m ((c.tc : Thread Cert.KernelIdeal.nD Cert.KernelIdeal.τ).loc Cert.KernelIdeal.main_arg0)) : T Ideal Sx) ((m ((c.tc : Thread Cert.KernelIdeal.nD Cert.KernelIdeal.τ).loc Cert.KernelIdeal.main_arg4)) : T Ideal Sw2) ((m ((c.tc : Thread Cert.KernelIdeal.nD Cert.KernelIdeal.τ).loc Cert.KernelIdeal.main_arg5)) : T Ideal Sb2) ((m ((c.tc : Thread Cert.KernelIdeal.nD Cert.KernelIdeal.τ).loc Cert.KernelIdeal.main_arg6)) : T Ideal Sw32) ((m ((c.tc : Thread Cert.KernelIdeal.nD Cert.KernelIdeal.τ).loc Cert.KernelIdeal.main_arg7)) : T Ideal Sb32) ((m ((c.tc : Thread Cert.KernelIdeal.nD Cert.KernelIdeal.τ).loc Cert.KernelIdeal.main_arg8)) : T Ideal Sb32)) (ginG sumVal aggVal ((m ((c.tc : Thread Cert.KernelIdeal.nD Cert.KernelIdeal.τ).loc Cert.KernelIdeal.main_arg3)) : T Ideal Sx) ((m ((c.tc : Thread Cert.KernelIdeal.nD Cert.KernelIdeal.τ).loc Cert.KernelIdeal.main_arg9)) : T Ideal Sw2) ((m ((c.tc : Thread Cert.KernelIdeal.nD Cert.KernelIdeal.τ).loc Cert.KernelIdeal.main_arg10)) : T Ideal Sb2) ((m ((c.tc : Thread Cert.KernelIdeal.nD Cert.KernelIdeal.τ).loc Cert.KernelIdeal.main_arg11)) : T Ideal Sw32) ((m ((c.tc : Thread Cert.KernelIdeal.nD Cert.KernelIdeal.τ).loc Cert.KernelIdeal.main_arg12)) : T Ideal Sb32) ((m ((c.tc : Thread Cert.KernelIdeal.nD Cert.KernelIdeal.τ).loc Cert.KernelIdeal.main_arg13)) : T Ideal Sb32))
/-- The second: the Q branch against the A branch. -/
noncomputable def kres1 : T Ideal S0 := mse (ginG sumVal aggVal ((m ((c.tc : Thread Cert.KernelIdeal.nD Cert.KernelIdeal.τ).loc Cert.KernelIdeal.main_arg1)) : T Ideal Sx) ((m ((c.tc : Thread Cert.KernelIdeal.nD Cert.KernelIdeal.τ).loc Cert.KernelIdeal.main_arg9)) : T Ideal Sw2) ((m ((c.tc : Thread Cert.KernelIdeal.nD Cert.KernelIdeal.τ).loc Cert.KernelIdeal.main_arg10)) : T Ideal Sb2) ((m ((c.tc : Thread Cert.KernelIdeal.nD Cert.KernelIdeal.τ).loc Cert.KernelIdeal.main_arg11)) : T Ideal Sw32) ((m ((c.tc : Thread Cert.KernelIdeal.nD Cert.KernelIdeal.τ).loc Cert.KernelIdeal.main_arg12)) : T Ideal Sb32) ((m ((c.tc : Thread Cert.KernelIdeal.nD Cert.KernelIdeal.τ).loc Cert.KernelIdeal.main_arg13)) : T Ideal Sb32)) (ginG sumVal aggVal ((m ((c.tc : Thread Cert.KernelIdeal.nD Cert.KernelIdeal.τ).loc Cert.KernelIdeal.main_arg3)) : T Ideal Sx) ((m ((c.tc : Thread Cert.KernelIdeal.nD Cert.KernelIdeal.τ).loc Cert.KernelIdeal.main_arg9)) : T Ideal Sw2) ((m ((c.tc : Thread Cert.KernelIdeal.nD Cert.KernelIdeal.τ).loc Cert.KernelIdeal.main_arg10)) : T Ideal Sb2) ((m ((c.tc : Thread Cert.KernelIdeal.nD Cert.KernelIdeal.τ).loc Cert.KernelIdeal.main_arg11)) : T Ideal Sw32) ((m ((c.tc : Thread Cert.KernelIdeal.nD Cert.KernelIdeal.τ).loc Cert.KernelIdeal.main_arg12)) : T Ideal Sb32) ((m ((c.tc : Thread Cert.KernelIdeal.nD Cert.KernelIdeal.τ).loc Cert.KernelIdeal.main_arg13)) : T Ideal Sb32))
/-- The third: the V branch against the A branch. -/
noncomputable def kres2 : T Ideal S0 := mse (ginG sumVal aggVal ((m ((c.tc : Thread Cert.KernelIdeal.nD Cert.KernelIdeal.τ).loc Cert.KernelIdeal.main_arg2)) : T Ideal Sx) ((m ((c.tc : Thread Cert.KernelIdeal.nD Cert.KernelIdeal.τ).loc Cert.KernelIdeal.main_arg14)) : T Ideal Sw2) ((m ((c.tc : Thread Cert.KernelIdeal.nD Cert.KernelIdeal.τ).loc Cert.KernelIdeal.main_arg15)) : T Ideal Sb2) ((m ((c.tc : Thread Cert.KernelIdeal.nD Cert.KernelIdeal.τ).loc Cert.KernelIdeal.main_arg16)) : T Ideal Sw32) ((m ((c.tc : Thread Cert.KernelIdeal.nD Cert.KernelIdeal.τ).loc Cert.KernelIdeal.main_arg17)) : T Ideal Sb32) ((m ((c.tc : Thread Cert.KernelIdeal.nD Cert.KernelIdeal.τ).loc Cert.KernelIdeal.main_arg18)) : T Ideal Sb32)) (ginG sumVal aggVal ((m ((c.tc : Thread Cert.KernelIdeal.nD Cert.KernelIdeal.τ).loc Cert.KernelIdeal.main_arg3)) : T Ideal Sx) ((m ((c.tc : Thread Cert.KernelIdeal.nD Cert.KernelIdeal.τ).loc Cert.KernelIdeal.main_arg9)) : T Ideal Sw2) ((m ((c.tc : Thread Cert.KernelIdeal.nD Cert.KernelIdeal.τ).loc Cert.KernelIdeal.main_arg10)) : T Ideal Sb2) ((m ((c.tc : Thread Cert.KernelIdeal.nD Cert.KernelIdeal.τ).loc Cert.KernelIdeal.main_arg11)) : T Ideal Sw32) ((m ((c.tc : Thread Cert.KernelIdeal.nD Cert.KernelIdeal.τ).loc Cert.KernelIdeal.main_arg12)) : T Ideal Sb32) ((m ((c.tc : Thread Cert.KernelIdeal.nD Cert.KernelIdeal.τ).loc Cert.KernelIdeal.main_arg13)) : T Ideal Sb32))
end

/-- From memories that agree on the nineteen arguments the reference's results are the kernel's closed forms. -/
theorem res_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : launchContents m' c (Proc.devRef .tc Cert.ReferenceIdeal.main_arg0) = (m ((c.tc : Thread Cert.KernelIdeal.nD Cert.KernelIdeal.τ).loc Cert.KernelIdeal.main_arg0)))
    (e1 : launchContents m' c (Proc.devRef .tc Cert.ReferenceIdeal.main_arg1) = (m ((c.tc : Thread Cert.KernelIdeal.nD Cert.KernelIdeal.τ).loc Cert.KernelIdeal.main_arg1)))
    (e2 : launchContents m' c (Proc.devRef .tc Cert.ReferenceIdeal.main_arg2) = (m ((c.tc : Thread Cert.KernelIdeal.nD Cert.KernelIdeal.τ).loc Cert.KernelIdeal.main_arg2)))
    (e3 : launchContents m' c (Proc.devRef .tc Cert.ReferenceIdeal.main_arg3) = (m ((c.tc : Thread Cert.KernelIdeal.nD Cert.KernelIdeal.τ).loc Cert.KernelIdeal.main_arg3)))
    (e4 : launchContents m' c (Proc.devRef .tc Cert.ReferenceIdeal.main_arg4) = (m ((c.tc : Thread Cert.KernelIdeal.nD Cert.KernelIdeal.τ).loc Cert.KernelIdeal.main_arg4)))
    (e5 : launchContents m' c (Proc.devRef .tc Cert.ReferenceIdeal.main_arg5) = (m ((c.tc : Thread Cert.KernelIdeal.nD Cert.KernelIdeal.τ).loc Cert.KernelIdeal.main_arg5)))
    (e6 : launchContents m' c (Proc.devRef .tc Cert.ReferenceIdeal.main_arg6) = (m ((c.tc : Thread Cert.KernelIdeal.nD Cert.KernelIdeal.τ).loc Cert.KernelIdeal.main_arg6)))
    (e7 : launchContents m' c (Proc.devRef .tc Cert.ReferenceIdeal.main_arg7) = (m ((c.tc : Thread Cert.KernelIdeal.nD Cert.KernelIdeal.τ).loc Cert.KernelIdeal.main_arg7)))
    (e8 : launchContents m' c (Proc.devRef .tc Cert.ReferenceIdeal.main_arg8) = (m ((c.tc : Thread Cert.KernelIdeal.nD Cert.KernelIdeal.τ).loc Cert.KernelIdeal.main_arg8)))
    (e9 : launchContents m' c (Proc.devRef .tc Cert.ReferenceIdeal.main_arg9) = (m ((c.tc : Thread Cert.KernelIdeal.nD Cert.KernelIdeal.τ).loc Cert.KernelIdeal.main_arg9)))
    (e10 : launchContents m' c (Proc.devRef .tc Cert.ReferenceIdeal.main_arg10) = (m ((c.tc : Thread Cert.KernelIdeal.nD Cert.KernelIdeal.τ).loc Cert.KernelIdeal.main_arg10)))
    (e11 : launchContents m' c (Proc.devRef .tc Cert.ReferenceIdeal.main_arg11) = (m ((c.tc : Thread Cert.KernelIdeal.nD Cert.KernelIdeal.τ).loc Cert.KernelIdeal.main_arg11)))
    (e12 : launchContents m' c (Proc.devRef .tc Cert.ReferenceIdeal.main_arg12) = (m ((c.tc : Thread Cert.KernelIdeal.nD Cert.KernelIdeal.τ).loc Cert.KernelIdeal.main_arg12)))
    (e13 : launchContents m' c (Proc.devRef .tc Cert.ReferenceIdeal.main_arg13) = (m ((c.tc : Thread Cert.KernelIdeal.nD Cert.KernelIdeal.τ).loc Cert.KernelIdeal.main_arg13)))
    (e14 : launchContents m' c (Proc.devRef .tc Cert.ReferenceIdeal.main_arg14) = (m ((c.tc : Thread Cert.KernelIdeal.nD Cert.KernelIdeal.τ).loc Cert.KernelIdeal.main_arg14)))
    (e15 : launchContents m' c (Proc.devRef .tc Cert.ReferenceIdeal.main_arg15) = (m ((c.tc : Thread Cert.KernelIdeal.nD Cert.KernelIdeal.τ).loc Cert.KernelIdeal.main_arg15)))
    (e16 : launchContents m' c (Proc.devRef .tc Cert.ReferenceIdeal.main_arg16) = (m ((c.tc : Thread Cert.KernelIdeal.nD Cert.KernelIdeal.τ).loc Cert.KernelIdeal.main_arg16)))
    (e17 : launchContents m' c (Proc.devRef .tc Cert.ReferenceIdeal.main_arg17) = (m ((c.tc : Thread Cert.KernelIdeal.nD Cert.KernelIdeal.τ).loc Cert.KernelIdeal.main_arg17)))
    (e18 : launchContents m' c (Proc.devRef .tc Cert.ReferenceIdeal.main_arg18) = (m ((c.tc : Thread Cert.KernelIdeal.nD Cert.KernelIdeal.τ).loc Cert.KernelIdeal.main_arg18))) :
    res0 (launchContents m' c) = kres0 m c ∧ res1 (launchContents m' c) = kres1 m c ∧ res2 (launchContents m' c) = kres2 m c := by
  refine ⟨?_, ?_, ?_⟩
  · unfold res0 kres0
    rw [e0, e4, e5, e6, e7, e8, e3, e9, e10, e11, e12, e13, mseR_eq, ← ginG_eq_ginF, ← ginG_eq_ginF]
  · unfold res1 kres1
    rw [e1, e9, e10, e11, e12, e13, e3, mseR_eq, ← ginG_eq_ginF, ← ginG_eq_ginF]
  · unfold res2 kres2
    rw [e2, e14, e15, e16, e17, e18, e3, e9, e10, e11, e12, e13, mseR_eq, ← ginG_eq_ginF, ← ginG_eq_ginF]

/-- The algebraic claim, from the kernel's run with its three results in closed form and its arguments unchanged. -/
theorem algebraic_of
    (krun : ∀ (m : (ℓ : Loc Cert.KernelIdeal.nD Cert.KernelIdeal.τ Cert.KernelIdeal.sig) → Buf (Elt Ideal) ℓ) (g : Dev Cert.KernelIdeal.nD → PrngReg), Cert.Pre_KernelIdeal m →
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v843) = kres0 m c
        ∧ r.2.mem ((c.tc : Thread Cert.KernelIdeal.nD Cert.KernelIdeal.τ).loc Cert.KernelIdeal.main_v847) = kres1 m c
        ∧ r.2.mem ((c.tc : Thread Cert.KernelIdeal.nD Cert.KernelIdeal.τ).loc Cert.KernelIdeal.main_v851) = kres2 m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))) :
    Cert.algebraic_KernelIdeal_ReferenceIdeal := by
  intro m g m' g' hpre hagree
  refine ⟨_, _, _, krun m g hpre, ?_⟩
  refine (θ_run _ _ _).mono (fun _ h c => ?_) (run_vals (F := Ideal) m' g')
  obtain ⟨h0, h1, h2, hargs⟩ := h c
  obtain ⟨e0, e1, e2, e3, e4, e5, e6, e7, e8, e9, e10, e11, e12, e13, e14, e15, e16, e17, e18⟩ := hagree c
  obtain ⟨r0, r1, r2⟩ := res_eq m m' c e0 e1 e2 e3 e4 e5 e6 e7 e8 e9 e10 e11 e12 e13 e14 e15 e16 e17 e18
  exact ⟨h0.trans r0, h1.trans r1, h2.trans r2, hargs⟩

end Cert.Proof.Bridge

end
-- ==== Proof.lean ====
/-
  The three results are the mean squared errors of three graph-isomorphism-network branches, on QV, on Q and on V,
  each against the branch on A. A branch runs three layers  X ← mlp (AGG (embed X) X),  adds each layer's X to an
  accumulator and returns the accumulator over 3. The embedding, the perceptron, the division and the error are the
  same operations in both programs; the aggregate is computed differently. With h = embed X (4096 × 256),
  adj = h · hᵀ and θ = (Σ adj) / 2²⁴:
    * the reference forms  AGG = (1[adj > θ] + I) · X  with whole-matrix operations;
    * the kernel sums adj over an 8 × 8 grid of 512 × 512 tiles h_i · h_jᵀ into one cell, divides by 2²⁴, and then for
      each block i of 512 rows starts from X_i and adds  1[h_i · h_jᵀ > θ] · X_j  for j = 0, …, 7.
  On the extended reals addition is commutative and associative, so the sums over the tiles add up to the sum over the
  whole matrix whatever is finite; and for a, b ∈ {0, 1} one has (a + b) · x = a · x + b · x, 0 · x = 0, 1 · x = x, so
  row by row  X_r + Σ_c 1[adj_rc > θ] · X_c = Σ_c (1[adj_rc > θ] + δ_rc) · X_c.  Changes of format are the identity there.
  Hence the aggregates agree, so do the branches, and the three results are equal.
  Each program moreover terminates under every weakly fair execution, faulting nowhere, with its nineteen argument
  arrays unchanged: the kernel's by running its host stretches one after another and each of its twenty-four kernel
  regions by the pipeline rule (two input windows of a region read one array, which they hold half and half), the
  reference's by running its host operations, none of which writes an argument. The first program read at the ideal
  instance is its own text, so there is nothing to preserve.
-/
import proofs.«169706_j68856915690108_1_alg».proof.Defs
import proofs.«169706_j68856915690108_1_alg».proof.Proof.Gen.Kernel
import proofs.«169706_j68856915690108_1_alg».proof.Proof.Gen.KernelIdeal
import proofs.«169706_j68856915690108_1_alg».proof.Proof.Gen.ReferenceIdeal
import proofs.«169706_j68856915690108_1_alg».proof.Proof.Gen.Pre_finite_inputs
import proofs.«169706_j68856915690108_1_alg».proof.Proof.K_FrameKI
import proofs.«169706_j68856915690108_1_alg».proof.Proof.FrameKI
import proofs.«169706_j68856915690108_1_alg».proof.Proof.KRun
import proofs.«169706_j68856915690108_1_alg».proof.Proof.RefRun
import proofs.«169706_j68856915690108_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame_pi (F := Bits) m ρ,
    fun m ρ _ => Cert.KernelIdeal.Hand.frame_pi (F := Ideal) m ρ,
    fun m ρ _ => Cert.ReferenceIdeal.Hand.frame_ri (F := Ideal) m ρ,
    trivial,
    Cert.Proof.Bridge.algebraic_of fun m g _ => Cert.KernelIdeal.Hand.krun m g⟩

end Cert.Proof

end
